-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x500000 : Shape := ⟨2, ![4, 500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x500000 : S_.BroadcastsInDim S4x500000 (![] : Fin 0 → Fin S4x500000.rank)
  reducesTo_S4x500000_S_d0_1 : S4x500000.ReducesTo [0, 1] S_

variable [Facts]

def fn {F : FTy → Type} [FloatOps F] (main_arg0 : FVec F S100000x128 .f32) (main_arg1 : IVec S4x500000 32) (main_arg2 : IVec S4x500000 32) (main_arg3 : FVec F S4x500000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x500000 .f32 := Host.absf main_arg3
  let main_cst_0 : FVec F S_ .f32 := constant S_ .f32 0x7F800000#32
  let main_v5 : FVec F S4x500000 .f32 := broadcastInDim S4x500000 ![] bcast_S_S4x500000 main_cst_0
  let main_v6 : IVec S4x500000 1 := cmpf .olt main_v4 main_v5
  let main_c_1 : IVec S_ 1 := constantI S_ 1 1#1
  let main_v7 : IVec S_ 1 := (fun x v => Host.reduce IntOp.andi x v reducesTo_S4x500000_S_d0_1 h_S_) main_v6 main_c_1
  let main_v8 : IVec S_ 1 := andi main_v3 main_v7
  let main_c_2 : IVec S_ 32 := constantI S_ 32 0#32
  let main_v9 : IVec S4x500000 32 := broadcastInDim S4x500000 ![] bcast_S_S4x500000 main_c_2
  let main_v10 : IVec S4x500000 1 := cmpi .sge main_arg1 main_v9
  let main_c_3 : IVec S_ 32 := constantI S_ 32 100000#32
  let main_v11 : IVec S4x500000 32 := broadcastInDim S4x500000 ![] bcast_S_S4x500000 main_c_3
  let main_v12 : IVec S4x500000 1 := cmpi .slt main_arg1 main_v11
  let main_v13 : IVec S4x500000 1 := andi main_v10 main_v12
  let main_c_4 : IVec S_ 1 := constantI S_ 1 1#1
  let main_v14 : IVec S_ 1 := (fun x v => Host.reduce IntOp.andi x v reducesTo_S4x500000_S_d0_1 h_S_) main_v13 main_c_4
  let main_v15 : IVec S_ 1 := andi main_v8 main_v14
  main_v15
-- ==== Kernel.lean ====
abbrev S100000x128 : Shape := ⟨2, ![100000, 128]⟩
abbrev S4x500000 : Shape := ⟨2, ![4, 500000]⟩
abbrev S1x500000 : Shape := ⟨2, ![1, 500000]⟩
abbrev S500000 : Shape := ⟨1, ![500000]⟩
abbrev S_ : Shape := ⟨0, ![]⟩
abbrev S524288 : Shape := ⟨1, ![524288]⟩
abbrev S524288x1 : Shape := ⟨2, ![524288, 1]⟩
abbrev S131072 : Shape := ⟨1, ![131072]⟩
abbrev S131072x1 : Shape := ⟨2, ![131072, 1]⟩
abbrev S131072x128 : Shape := ⟨2, ![131072, 128]⟩
abbrev S8x1 : Shape := ⟨2, ![8, 1]⟩
abbrev S8x128 : Shape := ⟨2, ![8, 128]⟩
abbrev S8 : Shape := ⟨1, ![8]⟩
abbrev S1 : Shape := ⟨1, ![1]⟩
abbrev S1x128 : Shape := ⟨2, ![1, 128]⟩
abbrev S524288x128 : Shape := ⟨2, ![524288, 128]⟩
abbrev S500000x128 : Shape := ⟨2, ![500000, 128]⟩
abbrev S500000x1 : Shape := ⟨2, ![500000, 1]⟩
abbrev S1x100000x128 : Shape := ⟨3, ![1, 100000, 128]⟩
abbrev S4x100000x128 : Shape := ⟨3, ![4, 100000, 128]⟩
abbrev S4x2000x128 : Shape := ⟨3, ![4, 2000, 128]⟩
abbrev S2000x128 : Shape := ⟨2, ![2000, 128]⟩

abbrev nBuf : Space → Nat
  | .hbm => 232
  | .vmem => 168
  | .smem => 32
  | _ => 0

abbrev hbmTy0_0 (i : Nat) : BufTy := match i % 128 with
  | 0 => ⟨S100000x128, .f32⟩
  | 1 => ⟨S4x500000, .i32⟩
  | 2 => ⟨S4x500000, .i32⟩
  | 3 => ⟨S4x500000, .f32⟩
  | 4 => ⟨S1x500000, .i32⟩
  | 5 => ⟨S500000, .i32⟩
  | 6 => ⟨S1x500000, .f32⟩
  | 7 => ⟨S500000, .f32⟩
  | 8 => ⟨S_, .i32⟩
  | 9 => ⟨S_, .i32⟩
  | 10 => ⟨S524288, .i32⟩
  | 11 => ⟨S_, .i32⟩
  | 12 => ⟨S_, .f32⟩
  | 13 => ⟨S524288, .f32⟩
  | 14 => ⟨S524288x1, .f32⟩
  | 15 => ⟨S131072x1, .f32⟩
  | 16 => ⟨S131072x128, .f32⟩
  | 17 => ⟨S131072x1, .f32⟩
  | 18 => ⟨S131072x128, .f32⟩
  | 19 => ⟨S131072x1, .f32⟩
  | 20 => ⟨S131072x128, .f32⟩
  | 21 => ⟨S131072x1, .f32⟩
  | 22 => ⟨S131072x128, .f32⟩
  | 23 => ⟨S524288x128, .f32⟩
  | 24 => ⟨S500000x128, .f32⟩
  | 25 => ⟨S1x500000, .i32⟩
  | 26 => ⟨S500000, .i32⟩
  | 27 => ⟨S_, .f32⟩
  | 28 => ⟨S100000x128, .f32⟩
  | 29 => ⟨S500000x1, .i32⟩
  | 30 => ⟨S100000x128, .f32⟩
  | 31 => ⟨S1x500000, .i32⟩
  | 32 => ⟨S500000, .i32⟩
  | 33 => ⟨S1x500000, .f32⟩
  | 34 => ⟨S500000, .f32⟩
  | 35 => ⟨S_, .i32⟩
  | 36 => ⟨S_, .i32⟩
  | 37 => ⟨S524288, .i32⟩
  | 38 => ⟨S_, .i32⟩
  | 39 => ⟨S_, .f32⟩
  | 40 => ⟨S524288, .f32⟩
  | 41 => ⟨S524288x1, .f32⟩
  | 42 => ⟨S131072x1, .f32⟩
  | 43 => ⟨S131072x128, .f32⟩
  | 44 => ⟨S131072x1, .f32⟩
  | 45 => ⟨S131072x128, .f32⟩
  | 46 => ⟨S131072x1, .f32⟩
  | 47 => ⟨S131072x128, .f32⟩
  | 48 => ⟨S131072x1, .f32⟩
  | 49 => ⟨S131072x128, .f32⟩
  | 50 => ⟨S524288x128, .f32⟩
  | 51 => ⟨S500000x128, .f32⟩
  | 52 => ⟨S1x500000, .i32⟩
  | 53 => ⟨S500000, .i32⟩
  | 54 => ⟨S_, .f32⟩
  | 55 => ⟨S100000x128, .f32⟩
  | 56 => ⟨S500000x1, .i32⟩
  | 57 => ⟨S100000x128, .f32⟩
  | 58 => ⟨S1x500000, .i32⟩
  | 59 => ⟨S500000, .i32⟩
  | 60 => ⟨S1x500000, .f32⟩
  | 61 => ⟨S500000, .f32⟩
  | 62 => ⟨S_, .i32⟩
  | 63 => ⟨S_, .i32⟩
  | 64 => ⟨S524288, .i32⟩
  | 65 => ⟨S_, .i32⟩
  | 66 => ⟨S_, .f32⟩
  | 67 => ⟨S524288, .f32⟩
  | 68 => ⟨S524288x1, .f32⟩
  | 69 => ⟨S131072x1, .f32⟩
  | 70 => ⟨S131072x128, .f32⟩
  | 71 => ⟨S131072x1, .f32⟩
  | 72 => ⟨S131072x128, .f32⟩
  | 73 => ⟨S131072x1, .f32⟩
  | 74 => ⟨S131072x128, .f32⟩
  | 75 => ⟨S131072x1, .f32⟩
  | 76 => ⟨S131072x128, .f32⟩
  | 77 => ⟨S524288x128, .f32⟩
  | 78 => ⟨S500000x128, .f32⟩
  | 79 => ⟨S1x500000, .i32⟩
  | 80 => ⟨S500000, .i32⟩
  | 81 => ⟨S_, .f32⟩
  | 82 => ⟨S100000x128, .f32⟩
  | 83 => ⟨S500000x1, .i32⟩
  | 84 => ⟨S100000x128, .f32⟩
  | 85 => ⟨S1x500000, .i32⟩
  | 86 => ⟨S500000, .i32⟩
  | 87 => ⟨S1x500000, .f32⟩
  | 88 => ⟨S500000, .f32⟩
  | 89 => ⟨S_, .i32⟩
  | 90 => ⟨S_, .i32⟩
  | 91 => ⟨S524288, .i32⟩
  | 92 => ⟨S_, .i32⟩
  | 93 => ⟨S_, .f32⟩
  | 94 => ⟨S524288, .f32⟩
  | 95 => ⟨S524288x1, .f32⟩
  | 96 => ⟨S131072x1, .f32⟩
  | 97 => ⟨S131072x128, .f32⟩
  | 98 => ⟨S131072x1, .f32⟩
  | 99 => ⟨S131072x128, .f32⟩
  | 100 => ⟨S131072x1, .f32⟩
  | 101 => ⟨S131072x128, .f32⟩
  | 102 => ⟨S131072x1, .f32⟩
  | 103 => ⟨S131072x128, .f32⟩
  | 104 => ⟨S524288x128, .f32⟩
  | 105 => ⟨S500000x128, .f32⟩
  | 106 => ⟨S1x500000, .i32⟩
  | 107 => ⟨S500000, .i32⟩
  | 108 => ⟨S_, .f32⟩
  | 109 => ⟨S100000x128, .f32⟩
  | 110 => ⟨S500000x1, .i32⟩
  | 111 => ⟨S100000x128, .f32⟩
  | 112 => ⟨S1x100000x128, .f32⟩
  | 113 => ⟨S1x100000x128, .f32⟩
  | 114 => ⟨S1x100000x128, .f32⟩
  | 115 => ⟨S1x100000x128, .f32⟩
  | 116 => ⟨S4x100000x128, .f32⟩
  | 117 => ⟨S100000x128, .f32⟩
  | 118 => ⟨S1x500000, .i32⟩
  | 119 => ⟨S500000, .i32⟩
  | 120 => ⟨S1x500000, .f32⟩
  | 121 => ⟨S500000, .f32⟩
  | 122 => ⟨S_, .i32⟩
  | 123 => ⟨S_, .i32⟩
  | 124 => ⟨S524288, .i32⟩
  | 125 => ⟨S_, .i32⟩
  | 126 => ⟨S_, .f32⟩
  | 127 => ⟨S524288, .f32⟩
  | _ => ⟨S100000x128, .f32⟩

abbrev hbmTy0_1 (i : Nat) : BufTy := match i % 128 with
  | 0 => ⟨S524288x1, .f32⟩
  | 1 => ⟨S131072x1, .f32⟩
  | 2 => ⟨S131072x128, .f32⟩
  | 3 => ⟨S131072x1, .f32⟩
  | 4 => ⟨S131072x128, .f32⟩
  | 5 => ⟨S131072x1, .f32⟩
  | 6 => ⟨S131072x128, .f32⟩
  | 7 => ⟨S131072x1, .f32⟩
  | 8 => ⟨S131072x128, .f32⟩
  | 9 => ⟨S524288x128, .f32⟩
  | 10 => ⟨S500000x128, .f32⟩
  | 11 => ⟨S1x500000, .i32⟩
  | 12 => ⟨S500000, .i32⟩
  | 13 => ⟨S_, .f32⟩
  | 14 => ⟨S100000x128, .f32⟩
  | 15 => ⟨S500000x1, .i32⟩
  | 16 => ⟨S100000x128, .f32⟩
  | 17 => ⟨S1x500000, .i32⟩
  | 18 => ⟨S500000, .i32⟩
  | 19 => ⟨S1x500000, .f32⟩
  | 20 => ⟨S500000, .f32⟩
  | 21 => ⟨S_, .i32⟩
  | 22 => ⟨S_, .i32⟩
  | 23 => ⟨S524288, .i32⟩
  | 24 => ⟨S_, .i32⟩
  | 25 => ⟨S_, .f32⟩
  | 26 => ⟨S524288, .f32⟩
  | 27 => ⟨S524288x1, .f32⟩
  | 28 => ⟨S131072x1, .f32⟩
  | 29 => ⟨S131072x128, .f32⟩
  | 30 => ⟨S131072x1, .f32⟩
  | 31 => ⟨S131072x128, .f32⟩
  | 32 => ⟨S131072x1, .f32⟩
  | 33 => ⟨S131072x128, .f32⟩
  | 34 => ⟨S131072x1, .f32⟩
  | 35 => ⟨S131072x128, .f32⟩
  | 36 => ⟨S524288x128, .f32⟩
  | 37 => ⟨S500000x128, .f32⟩
  | 38 => ⟨S1x500000, .i32⟩
  | 39 => ⟨S500000, .i32⟩
  | 40 => ⟨S_, .f32⟩
  | 41 => ⟨S100000x128, .f32⟩
  | 42 => ⟨S500000x1, .i32⟩
  | 43 => ⟨S100000x128, .f32⟩
  | 44 => ⟨S1x500000, .i32⟩
  | 45 => ⟨S500000, .i32⟩
  | 46 => ⟨S1x500000, .f32⟩
  | 47 => ⟨S500000, .f32⟩
  | 48 => ⟨S_, .i32⟩
  | 49 => ⟨S_, .i32⟩
  | 50 => ⟨S524288, .i32⟩
  | 51 => ⟨S_, .i32⟩
  | 52 => ⟨S_, .f32⟩
  | 53 => ⟨S524288, .f32⟩
  | 54 => ⟨S524288x1, .f32⟩
  | 55 => ⟨S131072x1, .f32⟩
  | 56 => ⟨S131072x128, .f32⟩
  | 57 => ⟨S131072x1, .f32⟩
  | 58 => ⟨S131072x128, .f32⟩
  | 59 => ⟨S131072x1, .f32⟩
  | 60 => ⟨S131072x128, .f32⟩
  | 61 => ⟨S131072x1, .f32⟩
  | 62 => ⟨S131072x128, .f32⟩
  | 63 => ⟨S524288x128, .f32⟩
  | 64 => ⟨S500000x128, .f32⟩
  | 65 => ⟨S1x500000, .i32⟩
  | 66 => ⟨S500000, .i32⟩
  | 67 => ⟨S_, .f32⟩
  | 68 => ⟨S100000x128, .f32⟩
  | 69 => ⟨S500000x1, .i32⟩
  | 70 => ⟨S100000x128, .f32⟩
  | 71 => ⟨S1x500000, .i32⟩
  | 72 => ⟨S500000, .i32⟩
  | 73 => ⟨S1x500000, .f32⟩
  | 74 => ⟨S500000, .f32⟩
  | 75 => ⟨S_, .i32⟩
  | 76 => ⟨S_, .i32⟩
  | 77 => ⟨S524288, .i32⟩
  | 78 => ⟨S_, .i32⟩
  | 79 => ⟨S_, .f32⟩
  | 80 => ⟨S524288, .f32⟩
  | 81 => ⟨S524288x1, .f32⟩
  | 82 => ⟨S131072x1, .f32⟩
  | 83 => ⟨S131072x128, .f32⟩
  | 84 => ⟨S131072x1, .f32⟩
  | 85 => ⟨S131072x128, .f32⟩
  | 86 => ⟨S131072x1, .f32⟩
  | 87 => ⟨S131072x128, .f32⟩
  | 88 => ⟨S131072x1, .f32⟩
  | 89 => ⟨S131072x128, .f32⟩
  | 90 => ⟨S524288x128, .f32⟩
  | 91 => ⟨S500000x128, .f32⟩
  | 92 => ⟨S1x500000, .i32⟩
  | 93 => ⟨S500000, .i32⟩
  | 94 => ⟨S_, .f32⟩
  | 95 => ⟨S100000x128, .f32⟩
  | 96 => ⟨S500000x1, .i32⟩
  | 97 => ⟨S100000x128, .f32⟩
  | 98 => ⟨S1x100000x128, .f32⟩
  | 99 => ⟨S1x100000x128, .f32⟩
  | 100 => ⟨S1x100000x128, .f32⟩
  | 101 => ⟨S1x100000x128, .f32⟩
  | 102 => ⟨S4x100000x128, .f32⟩
  | 103 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev vmemTy0_0 (i : Nat) : BufTy := match i % 128 with
  | 0 => ⟨S8x1, .f32⟩
  | 1 => ⟨S8x1, .f32⟩
  | 2 => ⟨S8x128, .f32⟩
  | 3 => ⟨S8x128, .f32⟩
  | 4 => ⟨S8x128, .f32⟩
  | 5 => ⟨S8x1, .f32⟩
  | 6 => ⟨S8x1, .f32⟩
  | 7 => ⟨S8x128, .f32⟩
  | 8 => ⟨S8x128, .f32⟩
  | 9 => ⟨S8x128, .f32⟩
  | 10 => ⟨S8x1, .f32⟩
  | 11 => ⟨S8x1, .f32⟩
  | 12 => ⟨S8x128, .f32⟩
  | 13 => ⟨S8x128, .f32⟩
  | 14 => ⟨S8x128, .f32⟩
  | 15 => ⟨S8x1, .f32⟩
  | 16 => ⟨S8x1, .f32⟩
  | 17 => ⟨S8x128, .f32⟩
  | 18 => ⟨S8x128, .f32⟩
  | 19 => ⟨S8x128, .f32⟩
  | 20 => ⟨S8x1, .f32⟩
  | 21 => ⟨S8x1, .f32⟩
  | 22 => ⟨S8x128, .f32⟩
  | 23 => ⟨S8x128, .f32⟩
  | 24 => ⟨S8x128, .f32⟩
  | 25 => ⟨S8x1, .f32⟩
  | 26 => ⟨S8x1, .f32⟩
  | 27 => ⟨S8x128, .f32⟩
  | 28 => ⟨S8x128, .f32⟩
  | 29 => ⟨S8x128, .f32⟩
  | 30 => ⟨S8x1, .f32⟩
  | 31 => ⟨S8x1, .f32⟩
  | 32 => ⟨S8x128, .f32⟩
  | 33 => ⟨S8x128, .f32⟩
  | 34 => ⟨S8x128, .f32⟩
  | 35 => ⟨S8x1, .f32⟩
  | 36 => ⟨S8x1, .f32⟩
  | 37 => ⟨S8x128, .f32⟩
  | 38 => ⟨S8x128, .f32⟩
  | 39 => ⟨S8x128, .f32⟩
  | 40 => ⟨S8x1, .f32⟩
  | 41 => ⟨S8x1, .f32⟩
  | 42 => ⟨S8x128, .f32⟩
  | 43 => ⟨S8x128, .f32⟩
  | 44 => ⟨S8x128, .f32⟩
  | 45 => ⟨S8x1, .f32⟩
  | 46 => ⟨S8x1, .f32⟩
  | 47 => ⟨S8x128, .f32⟩
  | 48 => ⟨S8x128, .f32⟩
  | 49 => ⟨S8x128, .f32⟩
  | 50 => ⟨S8x1, .f32⟩
  | 51 => ⟨S8x1, .f32⟩
  | 52 => ⟨S8x128, .f32⟩
  | 53 => ⟨S8x128, .f32⟩
  | 54 => ⟨S8x128, .f32⟩
  | 55 => ⟨S8x1, .f32⟩
  | 56 => ⟨S8x1, .f32⟩
  | 57 => ⟨S8x128, .f32⟩
  | 58 => ⟨S8x128, .f32⟩
  | 59 => ⟨S8x128, .f32⟩
  | 60 => ⟨S8x1, .f32⟩
  | 61 => ⟨S8x1, .f32⟩
  | 62 => ⟨S8x128, .f32⟩
  | 63 => ⟨S8x128, .f32⟩
  | 64 => ⟨S8x128, .f32⟩
  | 65 => ⟨S8x1, .f32⟩
  | 66 => ⟨S8x1, .f32⟩
  | 67 => ⟨S8x128, .f32⟩
  | 68 => ⟨S8x128, .f32⟩
  | 69 => ⟨S8x128, .f32⟩
  | 70 => ⟨S8x1, .f32⟩
  | 71 => ⟨S8x1, .f32⟩
  | 72 => ⟨S8x128, .f32⟩
  | 73 => ⟨S8x128, .f32⟩
  | 74 => ⟨S8x128, .f32⟩
  | 75 => ⟨S8x1, .f32⟩
  | 76 => ⟨S8x1, .f32⟩
  | 77 => ⟨S8x128, .f32⟩
  | 78 => ⟨S8x128, .f32⟩
  | 79 => ⟨S8x128, .f32⟩
  | 80 => ⟨S4x2000x128, .f32⟩
  | 81 => ⟨S4x2000x128, .f32⟩
  | 82 => ⟨S2000x128, .f32⟩
  | 83 => ⟨S2000x128, .f32⟩
  | 84 => ⟨S8x1, .f32⟩
  | 85 => ⟨S8x1, .f32⟩
  | 86 => ⟨S8x128, .f32⟩
  | 87 => ⟨S8x128, .f32⟩
  | 88 => ⟨S8x128, .f32⟩
  | 89 => ⟨S8x1, .f32⟩
  | 90 => ⟨S8x1, .f32⟩
  | 91 => ⟨S8x128, .f32⟩
  | 92 => ⟨S8x128, .f32⟩
  | 93 => ⟨S8x128, .f32⟩
  | 94 => ⟨S8x1, .f32⟩
  | 95 => ⟨S8x1, .f32⟩
  | 96 => ⟨S8x128, .f32⟩
  | 97 => ⟨S8x128, .f32⟩
  | 98 => ⟨S8x128, .f32⟩
  | 99 => ⟨S8x1, .f32⟩
  | 100 => ⟨S8x1, .f32⟩
  | 101 => ⟨S8x128, .f32⟩
  | 102 => ⟨S8x128, .f32⟩
  | 103 => ⟨S8x128, .f32⟩
  | 104 => ⟨S8x1, .f32⟩
  | 105 => ⟨S8x1, .f32⟩
  | 106 => ⟨S8x128, .f32⟩
  | 107 => ⟨S8x128, .f32⟩
  | 108 => ⟨S8x128, .f32⟩
  | 109 => ⟨S8x1, .f32⟩
  | 110 => ⟨S8x1, .f32⟩
  | 111 => ⟨S8x128, .f32⟩
  | 112 => ⟨S8x128, .f32⟩
  | 113 => ⟨S8x128, .f32⟩
  | 114 => ⟨S8x1, .f32⟩
  | 115 => ⟨S8x1, .f32⟩
  | 116 => ⟨S8x128, .f32⟩
  | 117 => ⟨S8x128, .f32⟩
  | 118 => ⟨S8x128, .f32⟩
  | 119 => ⟨S8x1, .f32⟩
  | 120 => ⟨S8x1, .f32⟩
  | 121 => ⟨S8x128, .f32⟩
  | 122 => ⟨S8x128, .f32⟩
  | 123 => ⟨S8x128, .f32⟩
  | 124 => ⟨S8x1, .f32⟩
  | 125 => ⟨S8x1, .f32⟩
  | 126 => ⟨S8x128, .f32⟩
  | 127 => ⟨S8x128, .f32⟩
  | _ => ⟨S100000x128, .f32⟩

abbrev vmemTy0_1 (i : Nat) : BufTy := match i % 128 with
  | 0 => ⟨S8x128, .f32⟩
  | 1 => ⟨S8x1, .f32⟩
  | 2 => ⟨S8x1, .f32⟩
  | 3 => ⟨S8x128, .f32⟩
  | 4 => ⟨S8x128, .f32⟩
  | 5 => ⟨S8x128, .f32⟩
  | 6 => ⟨S8x1, .f32⟩
  | 7 => ⟨S8x1, .f32⟩
  | 8 => ⟨S8x128, .f32⟩
  | 9 => ⟨S8x128, .f32⟩
  | 10 => ⟨S8x128, .f32⟩
  | 11 => ⟨S8x1, .f32⟩
  | 12 => ⟨S8x1, .f32⟩
  | 13 => ⟨S8x128, .f32⟩
  | 14 => ⟨S8x128, .f32⟩
  | 15 => ⟨S8x128, .f32⟩
  | 16 => ⟨S8x1, .f32⟩
  | 17 => ⟨S8x1, .f32⟩
  | 18 => ⟨S8x128, .f32⟩
  | 19 => ⟨S8x128, .f32⟩
  | 20 => ⟨S8x128, .f32⟩
  | 21 => ⟨S8x1, .f32⟩
  | 22 => ⟨S8x1, .f32⟩
  | 23 => ⟨S8x128, .f32⟩
  | 24 => ⟨S8x128, .f32⟩
  | 25 => ⟨S8x128, .f32⟩
  | 26 => ⟨S8x1, .f32⟩
  | 27 => ⟨S8x1, .f32⟩
  | 28 => ⟨S8x128, .f32⟩
  | 29 => ⟨S8x128, .f32⟩
  | 30 => ⟨S8x128, .f32⟩
  | 31 => ⟨S8x1, .f32⟩
  | 32 => ⟨S8x1, .f32⟩
  | 33 => ⟨S8x128, .f32⟩
  | 34 => ⟨S8x128, .f32⟩
  | 35 => ⟨S8x128, .f32⟩
  | 36 => ⟨S4x2000x128, .f32⟩
  | 37 => ⟨S4x2000x128, .f32⟩
  | 38 => ⟨S2000x128, .f32⟩
  | 39 => ⟨S2000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | .local _ .smem, ⟨0, _⟩ => ⟨S131072, .i32⟩
  | .local _ .smem, ⟨1, _⟩ => ⟨S131072, .i32⟩
  | .local _ .smem, ⟨2, _⟩ => ⟨S131072, .i32⟩
  | .local _ .smem, ⟨3, _⟩ => ⟨S131072, .i32⟩
  | .local _ .smem, ⟨4, _⟩ => ⟨S131072, .i32⟩
  | .local _ .smem, ⟨5, _⟩ => ⟨S131072, .i32⟩
  | .local _ .smem, ⟨6, _⟩ => ⟨S131072, .i32⟩
  | .local _ .smem, ⟨7, _⟩ => ⟨S131072, .i32⟩
  | .local _ .smem, ⟨8, _⟩ => ⟨S131072, .i32⟩
  | .local _ .smem, ⟨9, _⟩ => ⟨S131072, .i32⟩
  | .local _ .smem, ⟨10, _⟩ => ⟨S131072, .i32⟩
  | .local _ .smem, ⟨11, _⟩ => ⟨S131072, .i32⟩
  | .local _ .smem, ⟨12, _⟩ => ⟨S131072, .i32⟩
  | .local _ .smem, ⟨13, _⟩ => ⟨S131072, .i32⟩
  | .local _ .smem, ⟨14, _⟩ => ⟨S131072, .i32⟩
  | .local _ .smem, ⟨15, _⟩ => ⟨S131072, .i32⟩
  | .local _ .smem, ⟨16, _⟩ => ⟨S131072, .i32⟩
  | .local _ .smem, ⟨17, _⟩ => ⟨S131072, .i32⟩
  | .local _ .smem, ⟨18, _⟩ => ⟨S131072, .i32⟩
  | .local _ .smem, ⟨19, _⟩ => ⟨S131072, .i32⟩
  | .local _ .smem, ⟨20, _⟩ => ⟨S131072, .i32⟩
  | .local _ .smem, ⟨21, _⟩ => ⟨S131072, .i32⟩
  | .local _ .smem, ⟨22, _⟩ => ⟨S131072, .i32⟩
  | .local _ .smem, ⟨23, _⟩ => ⟨S131072, .i32⟩
  | .local _ .smem, ⟨24, _⟩ => ⟨S131072, .i32⟩
  | .local _ .smem, ⟨25, _⟩ => ⟨S131072, .i32⟩
  | .local _ .smem, ⟨26, _⟩ => ⟨S131072, .i32⟩
  | .local _ .smem, ⟨27, _⟩ => ⟨S131072, .i32⟩
  | .local _ .smem, ⟨28, _⟩ => ⟨S131072, .i32⟩
  | .local _ .smem, ⟨29, _⟩ => ⟨S131072, .i32⟩
  | .local _ .smem, ⟨30, _⟩ => ⟨S131072, .i32⟩
  | .local _ .smem, ⟨31, _⟩ => ⟨S131072, .i32⟩
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 392 → Bool
  | ⟨i, _⟩ => dmaSemScopedAt i

abbrev sig : RefSig :=
  ofTc nBuf bufTy 0 392 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v8 : Ref sig .tc := ⟨.hbm, 15, rfl⟩
abbrev main_v9 : Ref sig .tc := ⟨.hbm, 16, rfl⟩
abbrev main_v11 : Ref sig .tc := ⟨.hbm, 17, rfl⟩
abbrev main_v12 : Ref sig .tc := ⟨.hbm, 18, rfl⟩
abbrev main_v14 : Ref sig .tc := ⟨.hbm, 19, rfl⟩
abbrev main_v15 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_1 : Ref sig .tc := ⟨.hbm, 35, rfl⟩
abbrev main_call2_v0 : Ref sig .tc := ⟨.hbm, 36, rfl⟩
abbrev main_v30 : Ref sig .tc := ⟨.hbm, 37, rfl⟩
abbrev main_c_2 : Ref sig .tc := ⟨.hbm, 38, rfl⟩
abbrev main_call3_v0 : Ref sig .tc := ⟨.hbm, 39, rfl⟩
abbrev main_v31 : Ref sig .tc := ⟨.hbm, 40, rfl⟩
abbrev main_v32 : Ref sig .tc := ⟨.hbm, 41, rfl⟩
abbrev main_v34 : Ref sig .tc := ⟨.hbm, 42, rfl⟩
abbrev main_v35 : Ref sig .tc := ⟨.hbm, 43, rfl⟩
abbrev main_v37 : Ref sig .tc := ⟨.hbm, 44, rfl⟩
abbrev main_v38 : Ref sig .tc := ⟨.hbm, 45, rfl⟩
abbrev main_v40 : Ref sig .tc := ⟨.hbm, 46, rfl⟩
abbrev main_v41 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_3 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_c_4 : Ref sig .tc := ⟨.hbm, 62, rfl⟩
abbrev main_call4_v0 : Ref sig .tc := ⟨.hbm, 63, rfl⟩
abbrev main_v56 : Ref sig .tc := ⟨.hbm, 64, rfl⟩
abbrev main_c_5 : Ref sig .tc := ⟨.hbm, 65, rfl⟩
abbrev main_call5_v0 : Ref sig .tc := ⟨.hbm, 66, rfl⟩
abbrev main_v57 : Ref sig .tc := ⟨.hbm, 67, rfl⟩
abbrev main_v58 : Ref sig .tc := ⟨.hbm, 68, rfl⟩
abbrev main_v60 : Ref sig .tc := ⟨.hbm, 69, rfl⟩
abbrev main_v61 : Ref sig .tc := ⟨.hbm, 70, rfl⟩
abbrev main_v63 : Ref sig .tc := ⟨.hbm, 71, rfl⟩
abbrev main_v64 : Ref sig .tc := ⟨.hbm, 72, rfl⟩
abbrev main_v66 : Ref sig .tc := ⟨.hbm, 73, rfl⟩
abbrev main_v67 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_cst_6 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_c_7 : Ref sig .tc := ⟨.hbm, 89, rfl⟩
abbrev main_call6_v0 : Ref sig .tc := ⟨.hbm, 90, rfl⟩
abbrev main_v82 : Ref sig .tc := ⟨.hbm, 91, rfl⟩
abbrev main_c_8 : Ref sig .tc := ⟨.hbm, 92, rfl⟩
abbrev main_call7_v0 : Ref sig .tc := ⟨.hbm, 93, rfl⟩
abbrev main_v83 : Ref sig .tc := ⟨.hbm, 94, rfl⟩
abbrev main_v84 : Ref sig .tc := ⟨.hbm, 95, rfl⟩
abbrev main_v86 : Ref sig .tc := ⟨.hbm, 96, rfl⟩
abbrev main_v87 : Ref sig .tc := ⟨.hbm, 97, rfl⟩
abbrev main_v89 : Ref sig .tc := ⟨.hbm, 98, rfl⟩
abbrev main_v90 : Ref sig .tc := ⟨.hbm, 99, rfl⟩
abbrev main_v92 : Ref sig .tc := ⟨.hbm, 100, rfl⟩
abbrev main_v93 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_cst_9 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_c_10 : Ref sig .tc := ⟨.hbm, 122, rfl⟩
abbrev main_call8_v0 : Ref sig .tc := ⟨.hbm, 123, rfl⟩
abbrev main_v114 : Ref sig .tc := ⟨.hbm, 124, rfl⟩
abbrev main_c_11 : Ref sig .tc := ⟨.hbm, 125, rfl⟩
abbrev main_call9_v0 : Ref sig .tc := ⟨.hbm, 126, rfl⟩
abbrev main_v115 : Ref sig .tc := ⟨.hbm, 127, rfl⟩
abbrev main_v116 : Ref sig .tc := ⟨.hbm, 128, rfl⟩
abbrev main_v118 : Ref sig .tc := ⟨.hbm, 129, rfl⟩
abbrev main_v119 : Ref sig .tc := ⟨.hbm, 130, rfl⟩
abbrev main_v121 : Ref sig .tc := ⟨.hbm, 131, rfl⟩
abbrev main_v122 : Ref sig .tc := ⟨.hbm, 132, rfl⟩
abbrev main_v124 : Ref sig .tc := ⟨.hbm, 133, rfl⟩
abbrev main_v125 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_cst_12 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_c_13 : Ref sig .tc := ⟨.hbm, 149, rfl⟩
abbrev main_call10_v0 : Ref sig .tc := ⟨.hbm, 150, rfl⟩
abbrev main_v140 : Ref sig .tc := ⟨.hbm, 151, rfl⟩
abbrev main_c_14 : Ref sig .tc := ⟨.hbm, 152, rfl⟩
abbrev main_call11_v0 : Ref sig .tc := ⟨.hbm, 153, rfl⟩
abbrev main_v141 : Ref sig .tc := ⟨.hbm, 154, rfl⟩
abbrev main_v142 : Ref sig .tc := ⟨.hbm, 155, rfl⟩
abbrev main_v144 : Ref sig .tc := ⟨.hbm, 156, rfl⟩
abbrev main_v145 : Ref sig .tc := ⟨.hbm, 157, rfl⟩
abbrev main_v147 : Ref sig .tc := ⟨.hbm, 158, rfl⟩
abbrev main_v148 : Ref sig .tc := ⟨.hbm, 159, rfl⟩
abbrev main_v150 : Ref sig .tc := ⟨.hbm, 160, rfl⟩
abbrev main_v151 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_cst_15 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_c_16 : Ref sig .tc := ⟨.hbm, 176, rfl⟩
abbrev main_call12_v0 : Ref sig .tc := ⟨.hbm, 177, rfl⟩
abbrev main_v166 : Ref sig .tc := ⟨.hbm, 178, rfl⟩
abbrev main_c_17 : Ref sig .tc := ⟨.hbm, 179, rfl⟩
abbrev main_call13_v0 : Ref sig .tc := ⟨.hbm, 180, rfl⟩
abbrev main_v167 : Ref sig .tc := ⟨.hbm, 181, rfl⟩
abbrev main_v168 : Ref sig .tc := ⟨.hbm, 182, rfl⟩
abbrev main_v170 : Ref sig .tc := ⟨.hbm, 183, rfl⟩
abbrev main_v171 : Ref sig .tc := ⟨.hbm, 184, rfl⟩
abbrev main_v173 : Ref sig .tc := ⟨.hbm, 185, rfl⟩
abbrev main_v174 : Ref sig .tc := ⟨.hbm, 186, rfl⟩
abbrev main_v176 : Ref sig .tc := ⟨.hbm, 187, rfl⟩
abbrev main_v177 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_cst_18 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_c_19 : Ref sig .tc := ⟨.hbm, 203, rfl⟩
abbrev main_call14_v0 : Ref sig .tc := ⟨.hbm, 204, rfl⟩
abbrev main_v192 : Ref sig .tc := ⟨.hbm, 205, rfl⟩
abbrev main_c_20 : Ref sig .tc := ⟨.hbm, 206, rfl⟩
abbrev main_call15_v0 : Ref sig .tc := ⟨.hbm, 207, rfl⟩
abbrev main_v193 : Ref sig .tc := ⟨.hbm, 208, rfl⟩
abbrev main_v194 : Ref sig .tc := ⟨.hbm, 209, rfl⟩
abbrev main_v196 : Ref sig .tc := ⟨.hbm, 210, rfl⟩
abbrev main_v197 : Ref sig .tc := ⟨.hbm, 211, rfl⟩
abbrev main_v199 : Ref sig .tc := ⟨.hbm, 212, rfl⟩
abbrev main_v200 : Ref sig .tc := ⟨.hbm, 213, rfl⟩
abbrev main_v202 : Ref sig .tc := ⟨.hbm, 214, rfl⟩
abbrev main_v203 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_cst_21 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v7 : Ref sig .tc := ⟨.smem, 0, rfl⟩
abbrev main_v10 : Ref sig .tc := ⟨.smem, 1, rfl⟩
abbrev main_v13 : Ref sig .tc := ⟨.smem, 2, rfl⟩
abbrev main_v16 : Ref sig .tc := ⟨.smem, 3, rfl⟩
abbrev main_v33 : Ref sig .tc := ⟨.smem, 4, rfl⟩
abbrev main_v36 : Ref sig .tc := ⟨.smem, 5, rfl⟩
abbrev main_v39 : Ref sig .tc := ⟨.smem, 6, rfl⟩
abbrev main_v42 : Ref sig .tc := ⟨.smem, 7, rfl⟩
abbrev main_v59 : Ref sig .tc := ⟨.smem, 8, rfl⟩
abbrev main_v62 : Ref sig .tc := ⟨.smem, 9, rfl⟩
abbrev main_v65 : Ref sig .tc := ⟨.smem, 10, rfl⟩
abbrev main_v68 : Ref sig .tc := ⟨.smem, 11, rfl⟩
abbrev main_v85 : Ref sig .tc := ⟨.smem, 12, rfl⟩
abbrev main_v88 : Ref sig .tc := ⟨.smem, 13, rfl⟩
abbrev main_v91 : Ref sig .tc := ⟨.smem, 14, rfl⟩
abbrev main_v94 : Ref sig .tc := ⟨.smem, 15, rfl⟩
abbrev main_v117 : Ref sig .tc := ⟨.smem, 16, rfl⟩
abbrev main_v120 : Ref sig .tc := ⟨.smem, 17, rfl⟩
abbrev main_v123 : Ref sig .tc := ⟨.smem, 18, rfl⟩
abbrev main_v126 : Ref sig .tc := ⟨.smem, 19, rfl⟩
abbrev main_v143 : Ref sig .tc := ⟨.smem, 20, rfl⟩
abbrev main_v146 : Ref sig .tc := ⟨.smem, 21, rfl⟩
abbrev main_v149 : Ref sig .tc := ⟨.smem, 22, rfl⟩
abbrev main_v152 : Ref sig .tc := ⟨.smem, 23, rfl⟩
abbrev main_v169 : Ref sig .tc := ⟨.smem, 24, rfl⟩
abbrev main_v172 : Ref sig .tc := ⟨.smem, 25, rfl⟩
abbrev main_v175 : Ref sig .tc := ⟨.smem, 26, rfl⟩
abbrev main_v178 : Ref sig .tc := ⟨.smem, 27, rfl⟩
abbrev main_v195 : Ref sig .tc := ⟨.smem, 28, rfl⟩
abbrev main_v198 : Ref sig .tc := ⟨.smem, 29, rfl⟩
abbrev main_v201 : Ref sig .tc := ⟨.smem, 30, rfl⟩
abbrev main_v204 : Ref sig .tc := ⟨.smem, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_scratch0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_scratch0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_scratch0 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_scratch0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_scratch0 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_scratch0 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_scratch0 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg1_1 : Ref sig .tc := ⟨.vmem, 53, rfl⟩
abbrev cc10_scratch0 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg1_1 : Ref sig .tc := ⟨.vmem, 58, rfl⟩
abbrev cc11_scratch0 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_scratch0 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg1_1 : Ref sig .tc := ⟨.vmem, 68, rfl⟩
abbrev cc13_scratch0 : Ref sig .tc := ⟨.vmem, 69, rfl⟩
abbrev cc14_stg0_0 : Ref sig .tc := ⟨.vmem, 70, rfl⟩
abbrev cc14_stg0_1 : Ref sig .tc := ⟨.vmem, 71, rfl⟩
abbrev cc14_stg1_0 : Ref sig .tc := ⟨.vmem, 72, rfl⟩
abbrev cc14_stg1_1 : Ref sig .tc := ⟨.vmem, 73, rfl⟩
abbrev cc14_scratch0 : Ref sig .tc := ⟨.vmem, 74, rfl⟩
abbrev cc15_stg0_0 : Ref sig .tc := ⟨.vmem, 75, rfl⟩
abbrev cc15_stg0_1 : Ref sig .tc := ⟨.vmem, 76, rfl⟩
abbrev cc15_stg1_0 : Ref sig .tc := ⟨.vmem, 77, rfl⟩
abbrev cc15_stg1_1 : Ref sig .tc := ⟨.vmem, 78, rfl⟩
abbrev cc15_scratch0 : Ref sig .tc := ⟨.vmem, 79, rfl⟩
abbrev cc16_stg0_0 : Ref sig .tc := ⟨.vmem, 80, rfl⟩
abbrev cc16_stg0_1 : Ref sig .tc := ⟨.vmem, 81, rfl⟩
abbrev cc16_stg1_0 : Ref sig .tc := ⟨.vmem, 82, rfl⟩
abbrev cc16_stg1_1 : Ref sig .tc := ⟨.vmem, 83, rfl⟩
abbrev cc17_stg0_0 : Ref sig .tc := ⟨.vmem, 84, rfl⟩
abbrev cc17_stg0_1 : Ref sig .tc := ⟨.vmem, 85, rfl⟩
abbrev cc17_stg1_0 : Ref sig .tc := ⟨.vmem, 86, rfl⟩
abbrev cc17_stg1_1 : Ref sig .tc := ⟨.vmem, 87, rfl⟩
abbrev cc17_scratch0 : Ref sig .tc := ⟨.vmem, 88, rfl⟩
abbrev cc18_stg0_0 : Ref sig .tc := ⟨.vmem, 89, rfl⟩
abbrev cc18_stg0_1 : Ref sig .tc := ⟨.vmem, 90, rfl⟩
abbrev cc18_stg1_0 : Ref sig .tc := ⟨.vmem, 91, rfl⟩
abbrev cc18_stg1_1 : Ref sig .tc := ⟨.vmem, 92, rfl⟩
abbrev cc18_scratch0 : Ref sig .tc := ⟨.vmem, 93, rfl⟩
abbrev cc19_stg0_0 : Ref sig .tc := ⟨.vmem, 94, rfl⟩
abbrev cc19_stg0_1 : Ref sig .tc := ⟨.vmem, 95, rfl⟩
abbrev cc19_stg1_0 : Ref sig .tc := ⟨.vmem, 96, rfl⟩
abbrev cc19_stg1_1 : Ref sig .tc := ⟨.vmem, 97, rfl⟩
abbrev cc19_scratch0 : Ref sig .tc := ⟨.vmem, 98, rfl⟩
abbrev cc20_stg0_0 : Ref sig .tc := ⟨.vmem, 99, rfl⟩
abbrev cc20_stg0_1 : Ref sig .tc := ⟨.vmem, 100, rfl⟩
abbrev cc20_stg1_0 : Ref sig .tc := ⟨.vmem, 101, rfl⟩
abbrev cc20_stg1_1 : Ref sig .tc := ⟨.vmem, 102, rfl⟩
abbrev cc20_scratch0 : Ref sig .tc := ⟨.vmem, 103, rfl⟩
abbrev cc21_stg0_0 : Ref sig .tc := ⟨.vmem, 104, rfl⟩
abbrev cc21_stg0_1 : Ref sig .tc := ⟨.vmem, 105, rfl⟩
abbrev cc21_stg1_0 : Ref sig .tc := ⟨.vmem, 106, rfl⟩
abbrev cc21_stg1_1 : Ref sig .tc := ⟨.vmem, 107, rfl⟩
abbrev cc21_scratch0 : Ref sig .tc := ⟨.vmem, 108, rfl⟩
abbrev cc22_stg0_0 : Ref sig .tc := ⟨.vmem, 109, rfl⟩
abbrev cc22_stg0_1 : Ref sig .tc := ⟨.vmem, 110, rfl⟩
abbrev cc22_stg1_0 : Ref sig .tc := ⟨.vmem, 111, rfl⟩
abbrev cc22_stg1_1 : Ref sig .tc := ⟨.vmem, 112, rfl⟩
abbrev cc22_scratch0 : Ref sig .tc := ⟨.vmem, 113, rfl⟩
abbrev cc23_stg0_0 : Ref sig .tc := ⟨.vmem, 114, rfl⟩
abbrev cc23_stg0_1 : Ref sig .tc := ⟨.vmem, 115, rfl⟩
abbrev cc23_stg1_0 : Ref sig .tc := ⟨.vmem, 116, rfl⟩
abbrev cc23_stg1_1 : Ref sig .tc := ⟨.vmem, 117, rfl⟩
abbrev cc23_scratch0 : Ref sig .tc := ⟨.vmem, 118, rfl⟩
abbrev cc24_stg0_0 : Ref sig .tc := ⟨.vmem, 119, rfl⟩
abbrev cc24_stg0_1 : Ref sig .tc := ⟨.vmem, 120, rfl⟩
abbrev cc24_stg1_0 : Ref sig .tc := ⟨.vmem, 121, rfl⟩
abbrev cc24_stg1_1 : Ref sig .tc := ⟨.vmem, 122, rfl⟩
abbrev cc24_scratch0 : Ref sig .tc := ⟨.vmem, 123, rfl⟩
abbrev cc25_stg0_0 : Ref sig .tc := ⟨.vmem, 124, rfl⟩
abbrev cc25_stg0_1 : Ref sig .tc := ⟨.vmem, 125, rfl⟩
abbrev cc25_stg1_0 : Ref sig .tc := ⟨.vmem, 126, rfl⟩
abbrev cc25_stg1_1 : Ref sig .tc := ⟨.vmem, 127, rfl⟩
abbrev cc25_scratch0 : Ref sig .tc := ⟨.vmem, 128, rfl⟩
abbrev cc26_stg0_0 : Ref sig .tc := ⟨.vmem, 129, rfl⟩
abbrev cc26_stg0_1 : Ref sig .tc := ⟨.vmem, 130, rfl⟩
abbrev cc26_stg1_0 : Ref sig .tc := ⟨.vmem, 131, rfl⟩
abbrev cc26_stg1_1 : Ref sig .tc := ⟨.vmem, 132, rfl⟩
abbrev cc26_scratch0 : Ref sig .tc := ⟨.vmem, 133, rfl⟩
abbrev cc27_stg0_0 : Ref sig .tc := ⟨.vmem, 134, rfl⟩
abbrev cc27_stg0_1 : Ref sig .tc := ⟨.vmem, 135, rfl⟩
abbrev cc27_stg1_0 : Ref sig .tc := ⟨.vmem, 136, rfl⟩
abbrev cc27_stg1_1 : Ref sig .tc := ⟨.vmem, 137, rfl⟩
abbrev cc27_scratch0 : Ref sig .tc := ⟨.vmem, 138, rfl⟩
abbrev cc28_stg0_0 : Ref sig .tc := ⟨.vmem, 139, rfl⟩
abbrev cc28_stg0_1 : Ref sig .tc := ⟨.vmem, 140, rfl⟩
abbrev cc28_stg1_0 : Ref sig .tc := ⟨.vmem, 141, rfl⟩
abbrev cc28_stg1_1 : Ref sig .tc := ⟨.vmem, 142, rfl⟩
abbrev cc28_scratch0 : Ref sig .tc := ⟨.vmem, 143, rfl⟩
abbrev cc29_stg0_0 : Ref sig .tc := ⟨.vmem, 144, rfl⟩
abbrev cc29_stg0_1 : Ref sig .tc := ⟨.vmem, 145, rfl⟩
abbrev cc29_stg1_0 : Ref sig .tc := ⟨.vmem, 146, rfl⟩
abbrev cc29_stg1_1 : Ref sig .tc := ⟨.vmem, 147, rfl⟩
abbrev cc29_scratch0 : Ref sig .tc := ⟨.vmem, 148, rfl⟩
abbrev cc30_stg0_0 : Ref sig .tc := ⟨.vmem, 149, rfl⟩
abbrev cc30_stg0_1 : Ref sig .tc := ⟨.vmem, 150, rfl⟩
abbrev cc30_stg1_0 : Ref sig .tc := ⟨.vmem, 151, rfl⟩
abbrev cc30_stg1_1 : Ref sig .tc := ⟨.vmem, 152, rfl⟩
abbrev cc30_scratch0 : Ref sig .tc := ⟨.vmem, 153, rfl⟩
abbrev cc31_stg0_0 : Ref sig .tc := ⟨.vmem, 154, rfl⟩
abbrev cc31_stg0_1 : Ref sig .tc := ⟨.vmem, 155, rfl⟩
abbrev cc31_stg1_0 : Ref sig .tc := ⟨.vmem, 156, rfl⟩
abbrev cc31_stg1_1 : Ref sig .tc := ⟨.vmem, 157, rfl⟩
abbrev cc31_scratch0 : Ref sig .tc := ⟨.vmem, 158, rfl⟩
abbrev cc32_stg0_0 : Ref sig .tc := ⟨.vmem, 159, rfl⟩
abbrev cc32_stg0_1 : Ref sig .tc := ⟨.vmem, 160, rfl⟩
abbrev cc32_stg1_0 : Ref sig .tc := ⟨.vmem, 161, rfl⟩
abbrev cc32_stg1_1 : Ref sig .tc := ⟨.vmem, 162, rfl⟩
abbrev cc32_scratch0 : Ref sig .tc := ⟨.vmem, 163, rfl⟩
abbrev cc33_stg0_0 : Ref sig .tc := ⟨.vmem, 164, rfl⟩
abbrev cc33_stg0_1 : Ref sig .tc := ⟨.vmem, 165, rfl⟩
abbrev cc33_stg1_0 : Ref sig .tc := ⟨.vmem, 166, rfl⟩
abbrev cc33_stg1_1 : Ref sig .tc := ⟨.vmem, 167, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 12
abbrev cc1_sem0_1 : DmaSem sig := 13
abbrev cc1_sem1_0 : DmaSem sig := 14
abbrev cc1_sem1_1 : DmaSem sig := 15
abbrev cc2_sem0_0 : DmaSem sig := 24
abbrev cc2_sem0_1 : DmaSem sig := 25
abbrev cc2_sem1_0 : DmaSem sig := 26
abbrev cc2_sem1_1 : DmaSem sig := 27
abbrev cc3_sem0_0 : DmaSem sig := 36
abbrev cc3_sem0_1 : DmaSem sig := 37
abbrev cc3_sem1_0 : DmaSem sig := 38
abbrev cc3_sem1_1 : DmaSem sig := 39
abbrev cc4_sem0_0 : DmaSem sig := 48
abbrev cc4_sem0_1 : DmaSem sig := 49
abbrev cc4_sem1_0 : DmaSem sig := 50
abbrev cc4_sem1_1 : DmaSem sig := 51
abbrev cc5_sem0_0 : DmaSem sig := 60
abbrev cc5_sem0_1 : DmaSem sig := 61
abbrev cc5_sem1_0 : DmaSem sig := 62
abbrev cc5_sem1_1 : DmaSem sig := 63
abbrev cc6_sem0_0 : DmaSem sig := 72
abbrev cc6_sem0_1 : DmaSem sig := 73
abbrev cc6_sem1_0 : DmaSem sig := 74
abbrev cc6_sem1_1 : DmaSem sig := 75
abbrev cc7_sem0_0 : DmaSem sig := 84
abbrev cc7_sem0_1 : DmaSem sig := 85
abbrev cc7_sem1_0 : DmaSem sig := 86
abbrev cc7_sem1_1 : DmaSem sig := 87
abbrev cc8_sem0_0 : DmaSem sig := 96
abbrev cc8_sem0_1 : DmaSem sig := 97
abbrev cc8_sem1_0 : DmaSem sig := 98
abbrev cc8_sem1_1 : DmaSem sig := 99
abbrev cc9_sem0_0 : DmaSem sig := 108
abbrev cc9_sem0_1 : DmaSem sig := 109
abbrev cc9_sem1_0 : DmaSem sig := 110
abbrev cc9_sem1_1 : DmaSem sig := 111
abbrev cc10_sem0_0 : DmaSem sig := 120
abbrev cc10_sem0_1 : DmaSem sig := 121
abbrev cc10_sem1_0 : DmaSem sig := 122
abbrev cc10_sem1_1 : DmaSem sig := 123
abbrev cc11_sem0_0 : DmaSem sig := 132
abbrev cc11_sem0_1 : DmaSem sig := 133
abbrev cc11_sem1_0 : DmaSem sig := 134
abbrev cc11_sem1_1 : DmaSem sig := 135
abbrev cc12_sem0_0 : DmaSem sig := 144
abbrev cc12_sem0_1 : DmaSem sig := 145
abbrev cc12_sem1_0 : DmaSem sig := 146
abbrev cc12_sem1_1 : DmaSem sig := 147
abbrev cc13_sem0_0 : DmaSem sig := 156
abbrev cc13_sem0_1 : DmaSem sig := 157
abbrev cc13_sem1_0 : DmaSem sig := 158
abbrev cc13_sem1_1 : DmaSem sig := 159
abbrev cc14_sem0_0 : DmaSem sig := 168
abbrev cc14_sem0_1 : DmaSem sig := 169
abbrev cc14_sem1_0 : DmaSem sig := 170
abbrev cc14_sem1_1 : DmaSem sig := 171
abbrev cc15_sem0_0 : DmaSem sig := 180
abbrev cc15_sem0_1 : DmaSem sig := 181
abbrev cc15_sem1_0 : DmaSem sig := 182
abbrev cc15_sem1_1 : DmaSem sig := 183
abbrev cc16_sem0_0 : DmaSem sig := 192
abbrev cc16_sem0_1 : DmaSem sig := 193
abbrev cc16_sem1_0 : DmaSem sig := 194
abbrev cc16_sem1_1 : DmaSem sig := 195
abbrev cc17_sem0_0 : DmaSem sig := 196
abbrev cc17_sem0_1 : DmaSem sig := 197
abbrev cc17_sem1_0 : DmaSem sig := 198
abbrev cc17_sem1_1 : DmaSem sig := 199
abbrev cc18_sem0_0 : DmaSem sig := 208
abbrev cc18_sem0_1 : DmaSem sig := 209
abbrev cc18_sem1_0 : DmaSem sig := 210
abbrev cc18_sem1_1 : DmaSem sig := 211
abbrev cc19_sem0_0 : DmaSem sig := 220
abbrev cc19_sem0_1 : DmaSem sig := 221
abbrev cc19_sem1_0 : DmaSem sig := 222
abbrev cc19_sem1_1 : DmaSem sig := 223
abbrev cc20_sem0_0 : DmaSem sig := 232
abbrev cc20_sem0_1 : DmaSem sig := 233
abbrev cc20_sem1_0 : DmaSem sig := 234
abbrev cc20_sem1_1 : DmaSem sig := 235
abbrev cc21_sem0_0 : DmaSem sig := 244
abbrev cc21_sem0_1 : DmaSem sig := 245
abbrev cc21_sem1_0 : DmaSem sig := 246
abbrev cc21_sem1_1 : DmaSem sig := 247
abbrev cc22_sem0_0 : DmaSem sig := 256
abbrev cc22_sem0_1 : DmaSem sig := 257
abbrev cc22_sem1_0 : DmaSem sig := 258
abbrev cc22_sem1_1 : DmaSem sig := 259
abbrev cc23_sem0_0 : DmaSem sig := 268
abbrev cc23_sem0_1 : DmaSem sig := 269
abbrev cc23_sem1_0 : DmaSem sig := 270
abbrev cc23_sem1_1 : DmaSem sig := 271
abbrev cc24_sem0_0 : DmaSem sig := 280
abbrev cc24_sem0_1 : DmaSem sig := 281
abbrev cc24_sem1_0 : DmaSem sig := 282
abbrev cc24_sem1_1 : DmaSem sig := 283
abbrev cc25_sem0_0 : DmaSem sig := 292
abbrev cc25_sem0_1 : DmaSem sig := 293
abbrev cc25_sem1_0 : DmaSem sig := 294
abbrev cc25_sem1_1 : DmaSem sig := 295
abbrev cc26_sem0_0 : DmaSem sig := 304
abbrev cc26_sem0_1 : DmaSem sig := 305
abbrev cc26_sem1_0 : DmaSem sig := 306
abbrev cc26_sem1_1 : DmaSem sig := 307
abbrev cc27_sem0_0 : DmaSem sig := 316
abbrev cc27_sem0_1 : DmaSem sig := 317
abbrev cc27_sem1_0 : DmaSem sig := 318
abbrev cc27_sem1_1 : DmaSem sig := 319
abbrev cc28_sem0_0 : DmaSem sig := 328
abbrev cc28_sem0_1 : DmaSem sig := 329
abbrev cc28_sem1_0 : DmaSem sig := 330
abbrev cc28_sem1_1 : DmaSem sig := 331
abbrev cc29_sem0_0 : DmaSem sig := 340
abbrev cc29_sem0_1 : DmaSem sig := 341
abbrev cc29_sem1_0 : DmaSem sig := 342
abbrev cc29_sem1_1 : DmaSem sig := 343
abbrev cc30_sem0_0 : DmaSem sig := 352
abbrev cc30_sem0_1 : DmaSem sig := 353
abbrev cc30_sem1_0 : DmaSem sig := 354
abbrev cc30_sem1_1 : DmaSem sig := 355
abbrev cc31_sem0_0 : DmaSem sig := 364
abbrev cc31_sem0_1 : DmaSem sig := 365
abbrev cc31_sem1_0 : DmaSem sig := 366
abbrev cc31_sem1_1 : DmaSem sig := 367
abbrev cc32_sem0_0 : DmaSem sig := 376
abbrev cc32_sem0_1 : DmaSem sig := 377
abbrev cc32_sem1_0 : DmaSem sig := 378
abbrev cc32_sem1_1 : DmaSem sig := 379
abbrev cc33_sem0_0 : DmaSem sig := 388
abbrev cc33_sem0_1 : DmaSem sig := 389
abbrev cc33_sem1_0 : DmaSem sig := 390
abbrev cc33_sem1_1 : DmaSem sig := 391

abbrev nD : Nat := 1
abbrev τ : Topo := Topo.v7x

variable {F : FTy → Type} [FloatOps F]

abbrev grid0 : Pipeline.Grid := ⟨1, ![16384], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (v6 : BitVec 32) : Fin 2 → Nat :=
  let c0_i32_7 : BitVec 32 := 0#32
  ![v6.toNat, 0]

def k0_off4 (v9 : BitVec 32) : Fin 2 → Nat :=
  let c0_i32_11 : BitVec 32 := 0#32
  ![v9.toNat, 0]

def k0_off5 (v12 : BitVec 32) : Fin 2 → Nat :=
  let c0_i32_15 : BitVec 32 := 0#32
  ![v12.toNat, 0]

def k0_off6 (v15 : BitVec 32) : Fin 2 → Nat :=
  let c0_i32_19 : BitVec 32 := 0#32
  ![v15.toNat, 0]

def k0_off7 (v18 : BitVec 32) : Fin 2 → Nat :=
  let c0_i32_23 : BitVec 32 := 0#32
  ![v18.toNat, 0]

def k0_off8 (v21 : BitVec 32) : Fin 2 → Nat :=
  let c0_i32_27 : BitVec 32 := 0#32
  ![v21.toNat, 0]

def k0_off9 (v24 : BitVec 32) : Fin 2 → Nat :=
  let c0_i32_31 : BitVec 32 := 0#32
  ![v24.toNat, 0]

def k0_chk8 (v24 : BitVec 32) : Prop :=
  (∀ a, (k0_off9 v24) a + S1x128.size a ≤ S100000x128.size a)
instance k0_chk8.dec : ∀ (v24 : BitVec 32), Decidable (k0_chk8 v24) := fun v24 => decidable_of_iff' _ (Iff.of_eq (k0_chk8.eq_1 v24))
theorem k0_off9_inb : ∀ (v24 : BitVec 32) (k0_hw8 : k0_chk8 v24), ∀ a, (k0_off9 v24) a + S1x128.size a ≤ S100000x128.size a := fun v24 k0_hw8 => k0_hw8

def k0_off10 (v3 : BitVec 32) : Fin 2 → Nat :=
  let c0_i32_35 : BitVec 32 := 0#32
  ![v3.toNat, 0]

def k0_chk1 (v3 : BitVec 32) : Prop :=
  (∀ a, (k0_off2 v3) a + S1x128.size a ≤ S100000x128.size a) ∧
  (∀ a, (k0_off10 v3) a + S1x128.size a ≤ S100000x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S100000x128.size a := fun v3 k0_hw1 => k0_hw1.1
theorem k0_off10_inb : ∀ (v3 : BitVec 32) (k0_hw1 : k0_chk1 v3), ∀ a, (k0_off10 v3) a + S1x128.size a ≤ S100000x128.size a := fun v3 k0_hw1 => k0_hw1.2

def k0_off11 (v6 : BitVec 32) : Fin 2 → Nat :=
  let c0_i32_39 : BitVec 32 := 0#32
  ![v6.toNat, 0]

def k0_chk2 (v6 : BitVec 32) : Prop :=
  (∀ a, (k0_off3 v6) a + S1x128.size a ≤ S100000x128.size a) ∧
  (∀ a, (k0_off11 v6) a + S1x128.size a ≤ S100000x128.size a)
instance k0_chk2.dec : ∀ (v6 : BitVec 32), Decidable (k0_chk2 v6) := fun v6 => decidable_of_iff' _ (Iff.of_eq (k0_chk2.eq_1 v6))
theorem k0_off3_inb : ∀ (v6 : BitVec 32) (k0_hw2 : k0_chk2 v6), ∀ a, (k0_off3 v6) a + S1x128.size a ≤ S100000x128.size a := fun v6 k0_hw2 => k0_hw2.1
theorem k0_off11_inb : ∀ (v6 : BitVec 32) (k0_hw2 : k0_chk2 v6), ∀ a, (k0_off11 v6) a + S1x128.size a ≤ S100000x128.size a := fun v6 k0_hw2 => k0_hw2.2

def k0_off12 (v9 : BitVec 32) : Fin 2 → Nat :=
  let c0_i32_43 : BitVec 32 := 0#32
  ![v9.toNat, 0]

def k0_chk3 (v9 : BitVec 32) : Prop :=
  (∀ a, (k0_off4 v9) a + S1x128.size a ≤ S100000x128.size a) ∧
  (∀ a, (k0_off12 v9) a + S1x128.size a ≤ S100000x128.size a)
instance k0_chk3.dec : ∀ (v9 : BitVec 32), Decidable (k0_chk3 v9) := fun v9 => decidable_of_iff' _ (Iff.of_eq (k0_chk3.eq_1 v9))
theorem k0_off4_inb : ∀ (v9 : BitVec 32) (k0_hw3 : k0_chk3 v9), ∀ a, (k0_off4 v9) a + S1x128.size a ≤ S100000x128.size a := fun v9 k0_hw3 => k0_hw3.1
theorem k0_off12_inb : ∀ (v9 : BitVec 32) (k0_hw3 : k0_chk3 v9), ∀ a, (k0_off12 v9) a + S1x128.size a ≤ S100000x128.size a := fun v9 k0_hw3 => k0_hw3.2

def k0_off13 (v12 : BitVec 32) : Fin 2 → Nat :=
  let c0_i32_47 : BitVec 32 := 0#32
  ![v12.toNat, 0]

def k0_chk4 (v12 : BitVec 32) : Prop :=
  (∀ a, (k0_off5 v12) a + S1x128.size a ≤ S100000x128.size a) ∧
  (∀ a, (k0_off13 v12) a + S1x128.size a ≤ S100000x128.size a)
instance k0_chk4.dec : ∀ (v12 : BitVec 32), Decidable (k0_chk4 v12) := fun v12 => decidable_of_iff' _ (Iff.of_eq (k0_chk4.eq_1 v12))
theorem k0_off5_inb : ∀ (v12 : BitVec 32) (k0_hw4 : k0_chk4 v12), ∀ a, (k0_off5 v12) a + S1x128.size a ≤ S100000x128.size a := fun v12 k0_hw4 => k0_hw4.1
theorem k0_off13_inb : ∀ (v12 : BitVec 32) (k0_hw4 : k0_chk4 v12), ∀ a, (k0_off13 v12) a + S1x128.size a ≤ S100000x128.size a := fun v12 k0_hw4 => k0_hw4.2

def k0_off14 (v15 : BitVec 32) : Fin 2 → Nat :=
  let c0_i32_51 : BitVec 32 := 0#32
  ![v15.toNat, 0]

def k0_chk5 (v15 : BitVec 32) : Prop :=
  (∀ a, (k0_off6 v15) a + S1x128.size a ≤ S100000x128.size a) ∧
  (∀ a, (k0_off14 v15) a + S1x128.size a ≤ S100000x128.size a)
instance k0_chk5.dec : ∀ (v15 : BitVec 32), Decidable (k0_chk5 v15) := fun v15 => decidable_of_iff' _ (Iff.of_eq (k0_chk5.eq_1 v15))
theorem k0_off6_inb : ∀ (v15 : BitVec 32) (k0_hw5 : k0_chk5 v15), ∀ a, (k0_off6 v15) a + S1x128.size a ≤ S100000x128.size a := fun v15 k0_hw5 => k0_hw5.1
theorem k0_off14_inb : ∀ (v15 : BitVec 32) (k0_hw5 : k0_chk5 v15), ∀ a, (k0_off14 v15) a + S1x128.size a ≤ S100000x128.size a := fun v15 k0_hw5 => k0_hw5.2

def k0_off15 (v18 : BitVec 32) : Fin 2 → Nat :=
  let c0_i32_55 : BitVec 32 := 0#32
  ![v18.toNat, 0]

def k0_chk6 (v18 : BitVec 32) : Prop :=
  (∀ a, (k0_off7 v18) a + S1x128.size a ≤ S100000x128.size a) ∧
  (∀ a, (k0_off15 v18) a + S1x128.size a ≤ S100000x128.size a)
instance k0_chk6.dec : ∀ (v18 : BitVec 32), Decidable (k0_chk6 v18) := fun v18 => decidable_of_iff' _ (Iff.of_eq (k0_chk6.eq_1 v18))
theorem k0_off7_inb : ∀ (v18 : BitVec 32) (k0_hw6 : k0_chk6 v18), ∀ a, (k0_off7 v18) a + S1x128.size a ≤ S100000x128.size a := fun v18 k0_hw6 => k0_hw6.1
theorem k0_off15_inb : ∀ (v18 : BitVec 32) (k0_hw6 : k0_chk6 v18), ∀ a, (k0_off15 v18) a + S1x128.size a ≤ S100000x128.size a := fun v18 k0_hw6 => k0_hw6.2

def k0_off16 (v21 : BitVec 32) : Fin 2 → Nat :=
  let c0_i32_59 : BitVec 32 := 0#32
  ![v21.toNat, 0]

def k0_chk7 (v21 : BitVec 32) : Prop :=
  (∀ a, (k0_off8 v21) a + S1x128.size a ≤ S100000x128.size a) ∧
  (∀ a, (k0_off16 v21) a + S1x128.size a ≤ S100000x128.size a)
instance k0_chk7.dec : ∀ (v21 : BitVec 32), Decidable (k0_chk7 v21) := fun v21 => decidable_of_iff' _ (Iff.of_eq (k0_chk7.eq_1 v21))
theorem k0_off8_inb : ∀ (v21 : BitVec 32) (k0_hw7 : k0_chk7 v21), ∀ a, (k0_off8 v21) a + S1x128.size a ≤ S100000x128.size a := fun v21 k0_hw7 => k0_hw7.1
theorem k0_off16_inb : ∀ (v21 : BitVec 32) (k0_hw7 : k0_chk7 v21), ∀ a, (k0_off16 v21) a + S1x128.size a ≤ S100000x128.size a := fun v21 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16384], ![false]⟩

abbrev pre1 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (v6 : BitVec 32) : Fin 2 → Nat :=
  let c0_i32_7 : BitVec 32 := 0#32
  ![v6.toNat, 0]

def k1_off4 (v9 : BitVec 32) : Fin 2 → Nat :=
  let c0_i32_11 : BitVec 32 := 0#32
  ![v9.toNat, 0]

def k1_off5 (v12 : BitVec 32) : Fin 2 → Nat :=
  let c0_i32_15 : BitVec 32 := 0#32
  ![v12.toNat, 0]

def k1_off6 (v15 : BitVec 32) : Fin 2 → Nat :=
  let c0_i32_19 : BitVec 32 := 0#32
  ![v15.toNat, 0]

def k1_off7 (v18 : BitVec 32) : Fin 2 → Nat :=
  let c0_i32_23 : BitVec 32 := 0#32
  ![v18.toNat, 0]

def k1_off8 (v21 : BitVec 32) : Fin 2 → Nat :=
  let c0_i32_27 : BitVec 32 := 0#32
  ![v21.toNat, 0]

def k1_off9 (v24 : BitVec 32) : Fin 2 → Nat :=
  let c0_i32_31 : BitVec 32 := 0#32
  ![v24.toNat, 0]

def k1_chk8 (v24 : BitVec 32) : Prop :=
  (∀ a, (k1_off9 v24) a + S1x128.size a ≤ S100000x128.size a)
instance k1_chk8.dec : ∀ (v24 : BitVec 32), Decidable (k1_chk8 v24) := fun v24 => decidable_of_iff' _ (Iff.of_eq (k1_chk8.eq_1 v24))
theorem k1_off9_inb : ∀ (v24 : BitVec 32) (k1_hw8 : k1_chk8 v24), ∀ a, (k1_off9 v24) a + S1x128.size a ≤ S100000x128.size a := fun v24 k1_hw8 => k1_hw8

def k1_off10 (v3 : BitVec 32) : Fin 2 → Nat :=
  let c0_i32_35 : BitVec 32 := 0#32
  ![v3.toNat, 0]

def k1_chk1 (v3 : BitVec 32) : Prop :=
  (∀ a, (k1_off2 v3) a + S1x128.size a ≤ S100000x128.size a) ∧
  (∀ a, (k1_off10 v3) a + S1x128.size a ≤ S100000x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x128.size a ≤ S100000x128.size a := fun v3 k1_hw1 => k1_hw1.1
theorem k1_off10_inb : ∀ (v3 : BitVec 32) (k1_hw1 : k1_chk1 v3), ∀ a, (k1_off10 v3) a + S1x128.size a ≤ S100000x128.size a := fun v3 k1_hw1 => k1_hw1.2

def k1_off11 (v6 : BitVec 32) : Fin 2 → Nat :=
  let c0_i32_39 : BitVec 32 := 0#32
  ![v6.toNat, 0]

def k1_chk2 (v6 : BitVec 32) : Prop :=
  (∀ a, (k1_off3 v6) a + S1x128.size a ≤ S100000x128.size a) ∧
  (∀ a, (k1_off11 v6) a + S1x128.size a ≤ S100000x128.size a)
instance k1_chk2.dec : ∀ (v6 : BitVec 32), Decidable (k1_chk2 v6) := fun v6 => decidable_of_iff' _ (Iff.of_eq (k1_chk2.eq_1 v6))
theorem k1_off3_inb : ∀ (v6 : BitVec 32) (k1_hw2 : k1_chk2 v6), ∀ a, (k1_off3 v6) a + S1x128.size a ≤ S100000x128.size a := fun v6 k1_hw2 => k1_hw2.1
theorem k1_off11_inb : ∀ (v6 : BitVec 32) (k1_hw2 : k1_chk2 v6), ∀ a, (k1_off11 v6) a + S1x128.size a ≤ S100000x128.size a := fun v6 k1_hw2 => k1_hw2.2

def k1_off12 (v9 : BitVec 32) : Fin 2 → Nat :=
  let c0_i32_43 : BitVec 32 := 0#32
  ![v9.toNat, 0]

def k1_chk3 (v9 : BitVec 32) : Prop :=
  (∀ a, (k1_off4 v9) a + S1x128.size a ≤ S100000x128.size a) ∧
  (∀ a, (k1_off12 v9) a + S1x128.size a ≤ S100000x128.size a)
instance k1_chk3.dec : ∀ (v9 : BitVec 32), Decidable (k1_chk3 v9) := fun v9 => decidable_of_iff' _ (Iff.of_eq (k1_chk3.eq_1 v9))
theorem k1_off4_inb : ∀ (v9 : BitVec 32) (k1_hw3 : k1_chk3 v9), ∀ a, (k1_off4 v9) a + S1x128.size a ≤ S100000x128.size a := fun v9 k1_hw3 => k1_hw3.1
theorem k1_off12_inb : ∀ (v9 : BitVec 32) (k1_hw3 : k1_chk3 v9), ∀ a, (k1_off12 v9) a + S1x128.size a ≤ S100000x128.size a := fun v9 k1_hw3 => k1_hw3.2

def k1_off13 (v12 : BitVec 32) : Fin 2 → Nat :=
  let c0_i32_47 : BitVec 32 := 0#32
  ![v12.toNat, 0]

def k1_chk4 (v12 : BitVec 32) : Prop :=
  (∀ a, (k1_off5 v12) a + S1x128.size a ≤ S100000x128.size a) ∧
  (∀ a, (k1_off13 v12) a + S1x128.size a ≤ S100000x128.size a)
instance k1_chk4.dec : ∀ (v12 : BitVec 32), Decidable (k1_chk4 v12) := fun v12 => decidable_of_iff' _ (Iff.of_eq (k1_chk4.eq_1 v12))
theorem k1_off5_inb : ∀ (v12 : BitVec 32) (k1_hw4 : k1_chk4 v12), ∀ a, (k1_off5 v12) a + S1x128.size a ≤ S100000x128.size a := fun v12 k1_hw4 => k1_hw4.1
theorem k1_off13_inb : ∀ (v12 : BitVec 32) (k1_hw4 : k1_chk4 v12), ∀ a, (k1_off13 v12) a + S1x128.size a ≤ S100000x128.size a := fun v12 k1_hw4 => k1_hw4.2

def k1_off14 (v15 : BitVec 32) : Fin 2 → Nat :=
  let c0_i32_51 : BitVec 32 := 0#32
  ![v15.toNat, 0]

def k1_chk5 (v15 : BitVec 32) : Prop :=
  (∀ a, (k1_off6 v15) a + S1x128.size a ≤ S100000x128.size a) ∧
  (∀ a, (k1_off14 v15) a + S1x128.size a ≤ S100000x128.size a)
instance k1_chk5.dec : ∀ (v15 : BitVec 32), Decidable (k1_chk5 v15) := fun v15 => decidable_of_iff' _ (Iff.of_eq (k1_chk5.eq_1 v15))
theorem k1_off6_inb : ∀ (v15 : BitVec 32) (k1_hw5 : k1_chk5 v15), ∀ a, (k1_off6 v15) a + S1x128.size a ≤ S100000x128.size a := fun v15 k1_hw5 => k1_hw5.1
theorem k1_off14_inb : ∀ (v15 : BitVec 32) (k1_hw5 : k1_chk5 v15), ∀ a, (k1_off14 v15) a + S1x128.size a ≤ S100000x128.size a := fun v15 k1_hw5 => k1_hw5.2

def k1_off15 (v18 : BitVec 32) : Fin 2 → Nat :=
  let c0_i32_55 : BitVec 32 := 0#32
  ![v18.toNat, 0]

def k1_chk6 (v18 : BitVec 32) : Prop :=
  (∀ a, (k1_off7 v18) a + S1x128.size a ≤ S100000x128.size a) ∧
  (∀ a, (k1_off15 v18) a + S1x128.size a ≤ S100000x128.size a)
instance k1_chk6.dec : ∀ (v18 : BitVec 32), Decidable (k1_chk6 v18) := fun v18 => decidable_of_iff' _ (Iff.of_eq (k1_chk6.eq_1 v18))
theorem k1_off7_inb : ∀ (v18 : BitVec 32) (k1_hw6 : k1_chk6 v18), ∀ a, (k1_off7 v18) a + S1x128.size a ≤ S100000x128.size a := fun v18 k1_hw6 => k1_hw6.1
theorem k1_off15_inb : ∀ (v18 : BitVec 32) (k1_hw6 : k1_chk6 v18), ∀ a, (k1_off15 v18) a + S1x128.size a ≤ S100000x128.size a := fun v18 k1_hw6 => k1_hw6.2

def k1_off16 (v21 : BitVec 32) : Fin 2 → Nat :=
  let c0_i32_59 : BitVec 32 := 0#32
  ![v21.toNat, 0]

def k1_chk7 (v21 : BitVec 32) : Prop :=
  (∀ a, (k1_off8 v21) a + S1x128.size a ≤ S100000x128.size a) ∧
  (∀ a, (k1_off16 v21) a + S1x128.size a ≤ S100000x128.size a)
instance k1_chk7.dec : ∀ (v21 : BitVec 32), Decidable (k1_chk7 v21) := fun v21 => decidable_of_iff' _ (Iff.of_eq (k1_chk7.eq_1 v21))
theorem k1_off8_inb : ∀ (v21 : BitVec 32) (k1_hw7 : k1_chk7 v21), ∀ a, (k1_off8 v21) a + S1x128.size a ≤ S100000x128.size a := fun v21 k1_hw7 => k1_hw7.1
theorem k1_off16_inb : ∀ (v21 : BitVec 32) (k1_hw7 : k1_chk7 v21), ∀ a, (k1_off16 v21) a + S1x128.size a ≤ S100000x128.size a := fun v21 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16384], ![false]⟩

abbrev pre2 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (v6 : BitVec 32) : Fin 2 → Nat :=
  let c0_i32_7 : BitVec 32 := 0#32
  ![v6.toNat, 0]

def k2_off4 (v9 : BitVec 32) : Fin 2 → Nat :=
  let c0_i32_11 : BitVec 32 := 0#32
  ![v9.toNat, 0]

def k2_off5 (v12 : BitVec 32) : Fin 2 → Nat :=
  let c0_i32_15 : BitVec 32 := 0#32
  ![v12.toNat, 0]

def k2_off6 (v15 : BitVec 32) : Fin 2 → Nat :=
  let c0_i32_19 : BitVec 32 := 0#32
  ![v15.toNat, 0]

def k2_off7 (v18 : BitVec 32) : Fin 2 → Nat :=
  let c0_i32_23 : BitVec 32 := 0#32
  ![v18.toNat, 0]

def k2_off8 (v21 : BitVec 32) : Fin 2 → Nat :=
  let c0_i32_27 : BitVec 32 := 0#32
  ![v21.toNat, 0]

def k2_off9 (v24 : BitVec 32) : Fin 2 → Nat :=
  let c0_i32_31 : BitVec 32 := 0#32
  ![v24.toNat, 0]

def k2_chk8 (v24 : BitVec 32) : Prop :=
  (∀ a, (k2_off9 v24) a + S1x128.size a ≤ S100000x128.size a)
instance k2_chk8.dec : ∀ (v24 : BitVec 32), Decidable (k2_chk8 v24) := fun v24 => decidable_of_iff' _ (Iff.of_eq (k2_chk8.eq_1 v24))
theorem k2_off9_inb : ∀ (v24 : BitVec 32) (k2_hw8 : k2_chk8 v24), ∀ a, (k2_off9 v24) a + S1x128.size a ≤ S100000x128.size a := fun v24 k2_hw8 => k2_hw8

def k2_off10 (v3 : BitVec 32) : Fin 2 → Nat :=
  let c0_i32_35 : BitVec 32 := 0#32
  ![v3.toNat, 0]

def k2_chk1 (v3 : BitVec 32) : Prop :=
  (∀ a, (k2_off2 v3) a + S1x128.size a ≤ S100000x128.size a) ∧
  (∀ a, (k2_off10 v3) a + S1x128.size a ≤ S100000x128.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x128.size a ≤ S100000x128.size a := fun v3 k2_hw1 => k2_hw1.1
theorem k2_off10_inb : ∀ (v3 : BitVec 32) (k2_hw1 : k2_chk1 v3), ∀ a, (k2_off10 v3) a + S1x128.size a ≤ S100000x128.size a := fun v3 k2_hw1 => k2_hw1.2

def k2_off11 (v6 : BitVec 32) : Fin 2 → Nat :=
  let c0_i32_39 : BitVec 32 := 0#32
  ![v6.toNat, 0]

def k2_chk2 (v6 : BitVec 32) : Prop :=
  (∀ a, (k2_off3 v6) a + S1x128.size a ≤ S100000x128.size a) ∧
  (∀ a, (k2_off11 v6) a + S1x128.size a ≤ S100000x128.size a)
instance k2_chk2.dec : ∀ (v6 : BitVec 32), Decidable (k2_chk2 v6) := fun v6 => decidable_of_iff' _ (Iff.of_eq (k2_chk2.eq_1 v6))
theorem k2_off3_inb : ∀ (v6 : BitVec 32) (k2_hw2 : k2_chk2 v6), ∀ a, (k2_off3 v6) a + S1x128.size a ≤ S100000x128.size a := fun v6 k2_hw2 => k2_hw2.1
theorem k2_off11_inb : ∀ (v6 : BitVec 32) (k2_hw2 : k2_chk2 v6), ∀ a, (k2_off11 v6) a + S1x128.size a ≤ S100000x128.size a := fun v6 k2_hw2 => k2_hw2.2

def k2_off12 (v9 : BitVec 32) : Fin 2 → Nat :=
  let c0_i32_43 : BitVec 32 := 0#32
  ![v9.toNat, 0]

def k2_chk3 (v9 : BitVec 32) : Prop :=
  (∀ a, (k2_off4 v9) a + S1x128.size a ≤ S100000x128.size a) ∧
  (∀ a, (k2_off12 v9) a + S1x128.size a ≤ S100000x128.size a)
instance k2_chk3.dec : ∀ (v9 : BitVec 32), Decidable (k2_chk3 v9) := fun v9 => decidable_of_iff' _ (Iff.of_eq (k2_chk3.eq_1 v9))
theorem k2_off4_inb : ∀ (v9 : BitVec 32) (k2_hw3 : k2_chk3 v9), ∀ a, (k2_off4 v9) a + S1x128.size a ≤ S100000x128.size a := fun v9 k2_hw3 => k2_hw3.1
theorem k2_off12_inb : ∀ (v9 : BitVec 32) (k2_hw3 : k2_chk3 v9), ∀ a, (k2_off12 v9) a + S1x128.size a ≤ S100000x128.size a := fun v9 k2_hw3 => k2_hw3.2

def k2_off13 (v12 : BitVec 32) : Fin 2 → Nat :=
  let c0_i32_47 : BitVec 32 := 0#32
  ![v12.toNat, 0]

def k2_chk4 (v12 : BitVec 32) : Prop :=
  (∀ a, (k2_off5 v12) a + S1x128.size a ≤ S100000x128.size a) ∧
  (∀ a, (k2_off13 v12) a + S1x128.size a ≤ S100000x128.size a)
instance k2_chk4.dec : ∀ (v12 : BitVec 32), Decidable (k2_chk4 v12) := fun v12 => decidable_of_iff' _ (Iff.of_eq (k2_chk4.eq_1 v12))
theorem k2_off5_inb : ∀ (v12 : BitVec 32) (k2_hw4 : k2_chk4 v12), ∀ a, (k2_off5 v12) a + S1x128.size a ≤ S100000x128.size a := fun v12 k2_hw4 => k2_hw4.1
theorem k2_off13_inb : ∀ (v12 : BitVec 32) (k2_hw4 : k2_chk4 v12), ∀ a, (k2_off13 v12) a + S1x128.size a ≤ S100000x128.size a := fun v12 k2_hw4 => k2_hw4.2

def k2_off14 (v15 : BitVec 32) : Fin 2 → Nat :=
  let c0_i32_51 : BitVec 32 := 0#32
  ![v15.toNat, 0]

def k2_chk5 (v15 : BitVec 32) : Prop :=
  (∀ a, (k2_off6 v15) a + S1x128.size a ≤ S100000x128.size a) ∧
  (∀ a, (k2_off14 v15) a + S1x128.size a ≤ S100000x128.size a)
instance k2_chk5.dec : ∀ (v15 : BitVec 32), Decidable (k2_chk5 v15) := fun v15 => decidable_of_iff' _ (Iff.of_eq (k2_chk5.eq_1 v15))
theorem k2_off6_inb : ∀ (v15 : BitVec 32) (k2_hw5 : k2_chk5 v15), ∀ a, (k2_off6 v15) a + S1x128.size a ≤ S100000x128.size a := fun v15 k2_hw5 => k2_hw5.1
theorem k2_off14_inb : ∀ (v15 : BitVec 32) (k2_hw5 : k2_chk5 v15), ∀ a, (k2_off14 v15) a + S1x128.size a ≤ S100000x128.size a := fun v15 k2_hw5 => k2_hw5.2

def k2_off15 (v18 : BitVec 32) : Fin 2 → Nat :=
  let c0_i32_55 : BitVec 32 := 0#32
  ![v18.toNat, 0]

def k2_chk6 (v18 : BitVec 32) : Prop :=
  (∀ a, (k2_off7 v18) a + S1x128.size a ≤ S100000x128.size a) ∧
  (∀ a, (k2_off15 v18) a + S1x128.size a ≤ S100000x128.size a)
instance k2_chk6.dec : ∀ (v18 : BitVec 32), Decidable (k2_chk6 v18) := fun v18 => decidable_of_iff' _ (Iff.of_eq (k2_chk6.eq_1 v18))
theorem k2_off7_inb : ∀ (v18 : BitVec 32) (k2_hw6 : k2_chk6 v18), ∀ a, (k2_off7 v18) a + S1x128.size a ≤ S100000x128.size a := fun v18 k2_hw6 => k2_hw6.1
theorem k2_off15_inb : ∀ (v18 : BitVec 32) (k2_hw6 : k2_chk6 v18), ∀ a, (k2_off15 v18) a + S1x128.size a ≤ S100000x128.size a := fun v18 k2_hw6 => k2_hw6.2

def k2_off16 (v21 : BitVec 32) : Fin 2 → Nat :=
  let c0_i32_59 : BitVec 32 := 0#32
  ![v21.toNat, 0]

def k2_chk7 (v21 : BitVec 32) : Prop :=
  (∀ a, (k2_off8 v21) a + S1x128.size a ≤ S100000x128.size a) ∧
  (∀ a, (k2_off16 v21) a + S1x128.size a ≤ S100000x128.size a)
instance k2_chk7.dec : ∀ (v21 : BitVec 32), Decidable (k2_chk7 v21) := fun v21 => decidable_of_iff' _ (Iff.of_eq (k2_chk7.eq_1 v21))
theorem k2_off8_inb : ∀ (v21 : BitVec 32) (k2_hw7 : k2_chk7 v21), ∀ a, (k2_off8 v21) a + S1x128.size a ≤ S100000x128.size a := fun v21 k2_hw7 => k2_hw7.1
theorem k2_off16_inb : ∀ (v21 : BitVec 32) (k2_hw7 : k2_chk7 v21), ∀ a, (k2_off16 v21) a + S1x128.size a ≤ S100000x128.size a := fun v21 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16384], ![false]⟩

abbrev pre3 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (v6 : BitVec 32) : Fin 2 → Nat :=
  let c0_i32_7 : BitVec 32 := 0#32
  ![v6.toNat, 0]

def k3_off4 (v9 : BitVec 32) : Fin 2 → Nat :=
  let c0_i32_11 : BitVec 32 := 0#32
  ![v9.toNat, 0]

def k3_off5 (v12 : BitVec 32) : Fin 2 → Nat :=
  let c0_i32_15 : BitVec 32 := 0#32
  ![v12.toNat, 0]

def k3_off6 (v15 : BitVec 32) : Fin 2 → Nat :=
  let c0_i32_19 : BitVec 32 := 0#32
  ![v15.toNat, 0]

def k3_off7 (v18 : BitVec 32) : Fin 2 → Nat :=
  let c0_i32_23 : BitVec 32 := 0#32
  ![v18.toNat, 0]

def k3_off8 (v21 : BitVec 32) : Fin 2 → Nat :=
  let c0_i32_27 : BitVec 32 := 0#32
  ![v21.toNat, 0]

def k3_off9 (v24 : BitVec 32) : Fin 2 → Nat :=
  let c0_i32_31 : BitVec 32 := 0#32
  ![v24.toNat, 0]

def k3_chk8 (v24 : BitVec 32) : Prop :=
  (∀ a, (k3_off9 v24) a + S1x128.size a ≤ S100000x128.size a)
instance k3_chk8.dec : ∀ (v24 : BitVec 32), Decidable (k3_chk8 v24) := fun v24 => decidable_of_iff' _ (Iff.of_eq (k3_chk8.eq_1 v24))
theorem k3_off9_inb : ∀ (v24 : BitVec 32) (k3_hw8 : k3_chk8 v24), ∀ a, (k3_off9 v24) a + S1x128.size a ≤ S100000x128.size a := fun v24 k3_hw8 => k3_hw8

def k3_off10 (v3 : BitVec 32) : Fin 2 → Nat :=
  let c0_i32_35 : BitVec 32 := 0#32
  ![v3.toNat, 0]

def k3_chk1 (v3 : BitVec 32) : Prop :=
  (∀ a, (k3_off2 v3) a + S1x128.size a ≤ S100000x128.size a) ∧
  (∀ a, (k3_off10 v3) a + S1x128.size a ≤ S100000x128.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x128.size a ≤ S100000x128.size a := fun v3 k3_hw1 => k3_hw1.1
theorem k3_off10_inb : ∀ (v3 : BitVec 32) (k3_hw1 : k3_chk1 v3), ∀ a, (k3_off10 v3) a + S1x128.size a ≤ S100000x128.size a := fun v3 k3_hw1 => k3_hw1.2

def k3_off11 (v6 : BitVec 32) : Fin 2 → Nat :=
  let c0_i32_39 : BitVec 32 := 0#32
  ![v6.toNat, 0]

def k3_chk2 (v6 : BitVec 32) : Prop :=
  (∀ a, (k3_off3 v6) a + S1x128.size a ≤ S100000x128.size a) ∧
  (∀ a, (k3_off11 v6) a + S1x128.size a ≤ S100000x128.size a)
instance k3_chk2.dec : ∀ (v6 : BitVec 32), Decidable (k3_chk2 v6) := fun v6 => decidable_of_iff' _ (Iff.of_eq (k3_chk2.eq_1 v6))
theorem k3_off3_inb : ∀ (v6 : BitVec 32) (k3_hw2 : k3_chk2 v6), ∀ a, (k3_off3 v6) a + S1x128.size a ≤ S100000x128.size a := fun v6 k3_hw2 => k3_hw2.1
theorem k3_off11_inb : ∀ (v6 : BitVec 32) (k3_hw2 : k3_chk2 v6), ∀ a, (k3_off11 v6) a + S1x128.size a ≤ S100000x128.size a := fun v6 k3_hw2 => k3_hw2.2

def k3_off12 (v9 : BitVec 32) : Fin 2 → Nat :=
  let c0_i32_43 : BitVec 32 := 0#32
  ![v9.toNat, 0]

def k3_chk3 (v9 : BitVec 32) : Prop :=
  (∀ a, (k3_off4 v9) a + S1x128.size a ≤ S100000x128.size a) ∧
  (∀ a, (k3_off12 v9) a + S1x128.size a ≤ S100000x128.size a)
instance k3_chk3.dec : ∀ (v9 : BitVec 32), Decidable (k3_chk3 v9) := fun v9 => decidable_of_iff' _ (Iff.of_eq (k3_chk3.eq_1 v9))
theorem k3_off4_inb : ∀ (v9 : BitVec 32) (k3_hw3 : k3_chk3 v9), ∀ a, (k3_off4 v9) a + S1x128.size a ≤ S100000x128.size a := fun v9 k3_hw3 => k3_hw3.1
theorem k3_off12_inb : ∀ (v9 : BitVec 32) (k3_hw3 : k3_chk3 v9), ∀ a, (k3_off12 v9) a + S1x128.size a ≤ S100000x128.size a := fun v9 k3_hw3 => k3_hw3.2

def k3_off13 (v12 : BitVec 32) : Fin 2 → Nat :=
  let c0_i32_47 : BitVec 32 := 0#32
  ![v12.toNat, 0]

def k3_chk4 (v12 : BitVec 32) : Prop :=
  (∀ a, (k3_off5 v12) a + S1x128.size a ≤ S100000x128.size a) ∧
  (∀ a, (k3_off13 v12) a + S1x128.size a ≤ S100000x128.size a)
instance k3_chk4.dec : ∀ (v12 : BitVec 32), Decidable (k3_chk4 v12) := fun v12 => decidable_of_iff' _ (Iff.of_eq (k3_chk4.eq_1 v12))
theorem k3_off5_inb : ∀ (v12 : BitVec 32) (k3_hw4 : k3_chk4 v12), ∀ a, (k3_off5 v12) a + S1x128.size a ≤ S100000x128.size a := fun v12 k3_hw4 => k3_hw4.1
theorem k3_off13_inb : ∀ (v12 : BitVec 32) (k3_hw4 : k3_chk4 v12), ∀ a, (k3_off13 v12) a + S1x128.size a ≤ S100000x128.size a := fun v12 k3_hw4 => k3_hw4.2

def k3_off14 (v15 : BitVec 32) : Fin 2 → Nat :=
  let c0_i32_51 : BitVec 32 := 0#32
  ![v15.toNat, 0]

def k3_chk5 (v15 : BitVec 32) : Prop :=
  (∀ a, (k3_off6 v15) a + S1x128.size a ≤ S100000x128.size a) ∧
  (∀ a, (k3_off14 v15) a + S1x128.size a ≤ S100000x128.size a)
instance k3_chk5.dec : ∀ (v15 : BitVec 32), Decidable (k3_chk5 v15) := fun v15 => decidable_of_iff' _ (Iff.of_eq (k3_chk5.eq_1 v15))
theorem k3_off6_inb : ∀ (v15 : BitVec 32) (k3_hw5 : k3_chk5 v15), ∀ a, (k3_off6 v15) a + S1x128.size a ≤ S100000x128.size a := fun v15 k3_hw5 => k3_hw5.1
theorem k3_off14_inb : ∀ (v15 : BitVec 32) (k3_hw5 : k3_chk5 v15), ∀ a, (k3_off14 v15) a + S1x128.size a ≤ S100000x128.size a := fun v15 k3_hw5 => k3_hw5.2

def k3_off15 (v18 : BitVec 32) : Fin 2 → Nat :=
  let c0_i32_55 : BitVec 32 := 0#32
  ![v18.toNat, 0]

def k3_chk6 (v18 : BitVec 32) : Prop :=
  (∀ a, (k3_off7 v18) a + S1x128.size a ≤ S100000x128.size a) ∧
  (∀ a, (k3_off15 v18) a + S1x128.size a ≤ S100000x128.size a)
instance k3_chk6.dec : ∀ (v18 : BitVec 32), Decidable (k3_chk6 v18) := fun v18 => decidable_of_iff' _ (Iff.of_eq (k3_chk6.eq_1 v18))
theorem k3_off7_inb : ∀ (v18 : BitVec 32) (k3_hw6 : k3_chk6 v18), ∀ a, (k3_off7 v18) a + S1x128.size a ≤ S100000x128.size a := fun v18 k3_hw6 => k3_hw6.1
theorem k3_off15_inb : ∀ (v18 : BitVec 32) (k3_hw6 : k3_chk6 v18), ∀ a, (k3_off15 v18) a + S1x128.size a ≤ S100000x128.size a := fun v18 k3_hw6 => k3_hw6.2

def k3_off16 (v21 : BitVec 32) : Fin 2 → Nat :=
  let c0_i32_59 : BitVec 32 := 0#32
  ![v21.toNat, 0]

def k3_chk7 (v21 : BitVec 32) : Prop :=
  (∀ a, (k3_off8 v21) a + S1x128.size a ≤ S100000x128.size a) ∧
  (∀ a, (k3_off16 v21) a + S1x128.size a ≤ S100000x128.size a)
instance k3_chk7.dec : ∀ (v21 : BitVec 32), Decidable (k3_chk7 v21) := fun v21 => decidable_of_iff' _ (Iff.of_eq (k3_chk7.eq_1 v21))
theorem k3_off8_inb : ∀ (v21 : BitVec 32) (k3_hw7 : k3_chk7 v21), ∀ a, (k3_off8 v21) a + S1x128.size a ≤ S100000x128.size a := fun v21 k3_hw7 => k3_hw7.1
theorem k3_off16_inb : ∀ (v21 : BitVec 32) (k3_hw7 : k3_chk7 v21), ∀ a, (k3_off16 v21) a + S1x128.size a ≤ S100000x128.size a := fun v21 k3_hw7 => k3_hw7.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![16384], ![false]⟩

abbrev pre4 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (v6 : BitVec 32) : Fin 2 → Nat :=
  let c0_i32_7 : BitVec 32 := 0#32
  ![v6.toNat, 0]

def k4_off4 (v9 : BitVec 32) : Fin 2 → Nat :=
  let c0_i32_11 : BitVec 32 := 0#32
  ![v9.toNat, 0]

def k4_off5 (v12 : BitVec 32) : Fin 2 → Nat :=
  let c0_i32_15 : BitVec 32 := 0#32
  ![v12.toNat, 0]

def k4_off6 (v15 : BitVec 32) : Fin 2 → Nat :=
  let c0_i32_19 : BitVec 32 := 0#32
  ![v15.toNat, 0]

def k4_off7 (v18 : BitVec 32) : Fin 2 → Nat :=
  let c0_i32_23 : BitVec 32 := 0#32
  ![v18.toNat, 0]

def k4_off8 (v21 : BitVec 32) : Fin 2 → Nat :=
  let c0_i32_27 : BitVec 32 := 0#32
  ![v21.toNat, 0]

def k4_off9 (v24 : BitVec 32) : Fin 2 → Nat :=
  let c0_i32_31 : BitVec 32 := 0#32
  ![v24.toNat, 0]

def k4_chk8 (v24 : BitVec 32) : Prop :=
  (∀ a, (k4_off9 v24) a + S1x128.size a ≤ S100000x128.size a)
instance k4_chk8.dec : ∀ (v24 : BitVec 32), Decidable (k4_chk8 v24) := fun v24 => decidable_of_iff' _ (Iff.of_eq (k4_chk8.eq_1 v24))
theorem k4_off9_inb : ∀ (v24 : BitVec 32) (k4_hw8 : k4_chk8 v24), ∀ a, (k4_off9 v24) a + S1x128.size a ≤ S100000x128.size a := fun v24 k4_hw8 => k4_hw8

def k4_off10 (v3 : BitVec 32) : Fin 2 → Nat :=
  let c0_i32_35 : BitVec 32 := 0#32
  ![v3.toNat, 0]

def k4_chk1 (v3 : BitVec 32) : Prop :=
  (∀ a, (k4_off2 v3) a + S1x128.size a ≤ S100000x128.size a) ∧
  (∀ a, (k4_off10 v3) a + S1x128.size a ≤ S100000x128.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x128.size a ≤ S100000x128.size a := fun v3 k4_hw1 => k4_hw1.1
theorem k4_off10_inb : ∀ (v3 : BitVec 32) (k4_hw1 : k4_chk1 v3), ∀ a, (k4_off10 v3) a + S1x128.size a ≤ S100000x128.size a := fun v3 k4_hw1 => k4_hw1.2

def k4_off11 (v6 : BitVec 32) : Fin 2 → Nat :=
  let c0_i32_39 : BitVec 32 := 0#32
  ![v6.toNat, 0]

def k4_chk2 (v6 : BitVec 32) : Prop :=
  (∀ a, (k4_off3 v6) a + S1x128.size a ≤ S100000x128.size a) ∧
  (∀ a, (k4_off11 v6) a + S1x128.size a ≤ S100000x128.size a)
instance k4_chk2.dec : ∀ (v6 : BitVec 32), Decidable (k4_chk2 v6) := fun v6 => decidable_of_iff' _ (Iff.of_eq (k4_chk2.eq_1 v6))
theorem k4_off3_inb : ∀ (v6 : BitVec 32) (k4_hw2 : k4_chk2 v6), ∀ a, (k4_off3 v6) a + S1x128.size a ≤ S100000x128.size a := fun v6 k4_hw2 => k4_hw2.1
theorem k4_off11_inb : ∀ (v6 : BitVec 32) (k4_hw2 : k4_chk2 v6), ∀ a, (k4_off11 v6) a + S1x128.size a ≤ S100000x128.size a := fun v6 k4_hw2 => k4_hw2.2

def k4_off12 (v9 : BitVec 32) : Fin 2 → Nat :=
  let c0_i32_43 : BitVec 32 := 0#32
  ![v9.toNat, 0]

def k4_chk3 (v9 : BitVec 32) : Prop :=
  (∀ a, (k4_off4 v9) a + S1x128.size a ≤ S100000x128.size a) ∧
  (∀ a, (k4_off12 v9) a + S1x128.size a ≤ S100000x128.size a)
instance k4_chk3.dec : ∀ (v9 : BitVec 32), Decidable (k4_chk3 v9) := fun v9 => decidable_of_iff' _ (Iff.of_eq (k4_chk3.eq_1 v9))
theorem k4_off4_inb : ∀ (v9 : BitVec 32) (k4_hw3 : k4_chk3 v9), ∀ a, (k4_off4 v9) a + S1x128.size a ≤ S100000x128.size a := fun v9 k4_hw3 => k4_hw3.1
theorem k4_off12_inb : ∀ (v9 : BitVec 32) (k4_hw3 : k4_chk3 v9), ∀ a, (k4_off12 v9) a + S1x128.size a ≤ S100000x128.size a := fun v9 k4_hw3 => k4_hw3.2

def k4_off13 (v12 : BitVec 32) : Fin 2 → Nat :=
  let c0_i32_47 : BitVec 32 := 0#32
  ![v12.toNat, 0]

def k4_chk4 (v12 : BitVec 32) : Prop :=
  (∀ a, (k4_off5 v12) a + S1x128.size a ≤ S100000x128.size a) ∧
  (∀ a, (k4_off13 v12) a + S1x128.size a ≤ S100000x128.size a)
instance k4_chk4.dec : ∀ (v12 : BitVec 32), Decidable (k4_chk4 v12) := fun v12 => decidable_of_iff' _ (Iff.of_eq (k4_chk4.eq_1 v12))
theorem k4_off5_inb : ∀ (v12 : BitVec 32) (k4_hw4 : k4_chk4 v12), ∀ a, (k4_off5 v12) a + S1x128.size a ≤ S100000x128.size a := fun v12 k4_hw4 => k4_hw4.1
theorem k4_off13_inb : ∀ (v12 : BitVec 32) (k4_hw4 : k4_chk4 v12), ∀ a, (k4_off13 v12) a + S1x128.size a ≤ S100000x128.size a := fun v12 k4_hw4 => k4_hw4.2

def k4_off14 (v15 : BitVec 32) : Fin 2 → Nat :=
  let c0_i32_51 : BitVec 32 := 0#32
  ![v15.toNat, 0]

def k4_chk5 (v15 : BitVec 32) : Prop :=
  (∀ a, (k4_off6 v15) a + S1x128.size a ≤ S100000x128.size a) ∧
  (∀ a, (k4_off14 v15) a + S1x128.size a ≤ S100000x128.size a)
instance k4_chk5.dec : ∀ (v15 : BitVec 32), Decidable (k4_chk5 v15) := fun v15 => decidable_of_iff' _ (Iff.of_eq (k4_chk5.eq_1 v15))
theorem k4_off6_inb : ∀ (v15 : BitVec 32) (k4_hw5 : k4_chk5 v15), ∀ a, (k4_off6 v15) a + S1x128.size a ≤ S100000x128.size a := fun v15 k4_hw5 => k4_hw5.1
theorem k4_off14_inb : ∀ (v15 : BitVec 32) (k4_hw5 : k4_chk5 v15), ∀ a, (k4_off14 v15) a + S1x128.size a ≤ S100000x128.size a := fun v15 k4_hw5 => k4_hw5.2

def k4_off15 (v18 : BitVec 32) : Fin 2 → Nat :=
  let c0_i32_55 : BitVec 32 := 0#32
  ![v18.toNat, 0]

def k4_chk6 (v18 : BitVec 32) : Prop :=
  (∀ a, (k4_off7 v18) a + S1x128.size a ≤ S100000x128.size a) ∧
  (∀ a, (k4_off15 v18) a + S1x128.size a ≤ S100000x128.size a)
instance k4_chk6.dec : ∀ (v18 : BitVec 32), Decidable (k4_chk6 v18) := fun v18 => decidable_of_iff' _ (Iff.of_eq (k4_chk6.eq_1 v18))
theorem k4_off7_inb : ∀ (v18 : BitVec 32) (k4_hw6 : k4_chk6 v18), ∀ a, (k4_off7 v18) a + S1x128.size a ≤ S100000x128.size a := fun v18 k4_hw6 => k4_hw6.1
theorem k4_off15_inb : ∀ (v18 : BitVec 32) (k4_hw6 : k4_chk6 v18), ∀ a, (k4_off15 v18) a + S1x128.size a ≤ S100000x128.size a := fun v18 k4_hw6 => k4_hw6.2

def k4_off16 (v21 : BitVec 32) : Fin 2 → Nat :=
  let c0_i32_59 : BitVec 32 := 0#32
  ![v21.toNat, 0]

def k4_chk7 (v21 : BitVec 32) : Prop :=
  (∀ a, (k4_off8 v21) a + S1x128.size a ≤ S100000x128.size a) ∧
  (∀ a, (k4_off16 v21) a + S1x128.size a ≤ S100000x128.size a)
instance k4_chk7.dec : ∀ (v21 : BitVec 32), Decidable (k4_chk7 v21) := fun v21 => decidable_of_iff' _ (Iff.of_eq (k4_chk7.eq_1 v21))
theorem k4_off8_inb : ∀ (v21 : BitVec 32) (k4_hw7 : k4_chk7 v21), ∀ a, (k4_off8 v21) a + S1x128.size a ≤ S100000x128.size a := fun v21 k4_hw7 => k4_hw7.1
theorem k4_off16_inb : ∀ (v21 : BitVec 32) (k4_hw7 : k4_chk7 v21), ∀ a, (k4_off16 v21) a + S1x128.size a ≤ S100000x128.size a := fun v21 k4_hw7 => k4_hw7.2

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![16384], ![false]⟩

abbrev pre5 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k5_off2 (v3 : BitVec 32) : Fin 2 → Nat :=
  let c0_i32_3 : BitVec 32 := 0#32
  ![v3.toNat, 0]

def k5_off3 (v6 : BitVec 32) : Fin 2 → Nat :=
  let c0_i32_7 : BitVec 32 := 0#32
  ![v6.toNat, 0]

def k5_off4 (v9 : BitVec 32) : Fin 2 → Nat :=
  let c0_i32_11 : BitVec 32 := 0#32
  ![v9.toNat, 0]

def k5_off5 (v12 : BitVec 32) : Fin 2 → Nat :=
  let c0_i32_15 : BitVec 32 := 0#32
  ![v12.toNat, 0]

def k5_off6 (v15 : BitVec 32) : Fin 2 → Nat :=
  let c0_i32_19 : BitVec 32 := 0#32
  ![v15.toNat, 0]

def k5_off7 (v18 : BitVec 32) : Fin 2 → Nat :=
  let c0_i32_23 : BitVec 32 := 0#32
  ![v18.toNat, 0]

def k5_off8 (v21 : BitVec 32) : Fin 2 → Nat :=
  let c0_i32_27 : BitVec 32 := 0#32
  ![v21.toNat, 0]

def k5_off9 (v24 : BitVec 32) : Fin 2 → Nat :=
  let c0_i32_31 : BitVec 32 := 0#32
  ![v24.toNat, 0]

def k5_chk8 (v24 : BitVec 32) : Prop :=
  (∀ a, (k5_off9 v24) a + S1x128.size a ≤ S100000x128.size a)
instance k5_chk8.dec : ∀ (v24 : BitVec 32), Decidable (k5_chk8 v24) := fun v24 => decidable_of_iff' _ (Iff.of_eq (k5_chk8.eq_1 v24))
theorem k5_off9_inb : ∀ (v24 : BitVec 32) (k5_hw8 : k5_chk8 v24), ∀ a, (k5_off9 v24) a + S1x128.size a ≤ S100000x128.size a := fun v24 k5_hw8 => k5_hw8

def k5_off10 (v3 : BitVec 32) : Fin 2 → Nat :=
  let c0_i32_35 : BitVec 32 := 0#32
  ![v3.toNat, 0]

def k5_chk1 (v3 : BitVec 32) : Prop :=
  (∀ a, (k5_off2 v3) a + S1x128.size a ≤ S100000x128.size a) ∧
  (∀ a, (k5_off10 v3) a + S1x128.size a ≤ S100000x128.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x128.size a ≤ S100000x128.size a := fun v3 k5_hw1 => k5_hw1.1
theorem k5_off10_inb : ∀ (v3 : BitVec 32) (k5_hw1 : k5_chk1 v3), ∀ a, (k5_off10 v3) a + S1x128.size a ≤ S100000x128.size a := fun v3 k5_hw1 => k5_hw1.2

def k5_off11 (v6 : BitVec 32) : Fin 2 → Nat :=
  let c0_i32_39 : BitVec 32 := 0#32
  ![v6.toNat, 0]

def k5_chk2 (v6 : BitVec 32) : Prop :=
  (∀ a, (k5_off3 v6) a + S1x128.size a ≤ S100000x128.size a) ∧
  (∀ a, (k5_off11 v6) a + S1x128.size a ≤ S100000x128.size a)
instance k5_chk2.dec : ∀ (v6 : BitVec 32), Decidable (k5_chk2 v6) := fun v6 => decidable_of_iff' _ (Iff.of_eq (k5_chk2.eq_1 v6))
theorem k5_off3_inb : ∀ (v6 : BitVec 32) (k5_hw2 : k5_chk2 v6), ∀ a, (k5_off3 v6) a + S1x128.size a ≤ S100000x128.size a := fun v6 k5_hw2 => k5_hw2.1
theorem k5_off11_inb : ∀ (v6 : BitVec 32) (k5_hw2 : k5_chk2 v6), ∀ a, (k5_off11 v6) a + S1x128.size a ≤ S100000x128.size a := fun v6 k5_hw2 => k5_hw2.2

def k5_off12 (v9 : BitVec 32) : Fin 2 → Nat :=
  let c0_i32_43 : BitVec 32 := 0#32
  ![v9.toNat, 0]

def k5_chk3 (v9 : BitVec 32) : Prop :=
  (∀ a, (k5_off4 v9) a + S1x128.size a ≤ S100000x128.size a) ∧
  (∀ a, (k5_off12 v9) a + S1x128.size a ≤ S100000x128.size a)
instance k5_chk3.dec : ∀ (v9 : BitVec 32), Decidable (k5_chk3 v9) := fun v9 => decidable_of_iff' _ (Iff.of_eq (k5_chk3.eq_1 v9))
theorem k5_off4_inb : ∀ (v9 : BitVec 32) (k5_hw3 : k5_chk3 v9), ∀ a, (k5_off4 v9) a + S1x128.size a ≤ S100000x128.size a := fun v9 k5_hw3 => k5_hw3.1
theorem k5_off12_inb : ∀ (v9 : BitVec 32) (k5_hw3 : k5_chk3 v9), ∀ a, (k5_off12 v9) a + S1x128.size a ≤ S100000x128.size a := fun v9 k5_hw3 => k5_hw3.2

def k5_off13 (v12 : BitVec 32) : Fin 2 → Nat :=
  let c0_i32_47 : BitVec 32 := 0#32
  ![v12.toNat, 0]

def k5_chk4 (v12 : BitVec 32) : Prop :=
  (∀ a, (k5_off5 v12) a + S1x128.size a ≤ S100000x128.size a) ∧
  (∀ a, (k5_off13 v12) a + S1x128.size a ≤ S100000x128.size a)
instance k5_chk4.dec : ∀ (v12 : BitVec 32), Decidable (k5_chk4 v12) := fun v12 => decidable_of_iff' _ (Iff.of_eq (k5_chk4.eq_1 v12))
theorem k5_off5_inb : ∀ (v12 : BitVec 32) (k5_hw4 : k5_chk4 v12), ∀ a, (k5_off5 v12) a + S1x128.size a ≤ S100000x128.size a := fun v12 k5_hw4 => k5_hw4.1
theorem k5_off13_inb : ∀ (v12 : BitVec 32) (k5_hw4 : k5_chk4 v12), ∀ a, (k5_off13 v12) a + S1x128.size a ≤ S100000x128.size a := fun v12 k5_hw4 => k5_hw4.2

def k5_off14 (v15 : BitVec 32) : Fin 2 → Nat :=
  let c0_i32_51 : BitVec 32 := 0#32
  ![v15.toNat, 0]

def k5_chk5 (v15 : BitVec 32) : Prop :=
  (∀ a, (k5_off6 v15) a + S1x128.size a ≤ S100000x128.size a) ∧
  (∀ a, (k5_off14 v15) a + S1x128.size a ≤ S100000x128.size a)
instance k5_chk5.dec : ∀ (v15 : BitVec 32), Decidable (k5_chk5 v15) := fun v15 => decidable_of_iff' _ (Iff.of_eq (k5_chk5.eq_1 v15))
theorem k5_off6_inb : ∀ (v15 : BitVec 32) (k5_hw5 : k5_chk5 v15), ∀ a, (k5_off6 v15) a + S1x128.size a ≤ S100000x128.size a := fun v15 k5_hw5 => k5_hw5.1
theorem k5_off14_inb : ∀ (v15 : BitVec 32) (k5_hw5 : k5_chk5 v15), ∀ a, (k5_off14 v15) a + S1x128.size a ≤ S100000x128.size a := fun v15 k5_hw5 => k5_hw5.2

def k5_off15 (v18 : BitVec 32) : Fin 2 → Nat :=
  let c0_i32_55 : BitVec 32 := 0#32
  ![v18.toNat, 0]

def k5_chk6 (v18 : BitVec 32) : Prop :=
  (∀ a, (k5_off7 v18) a + S1x128.size a ≤ S100000x128.size a) ∧
  (∀ a, (k5_off15 v18) a + S1x128.size a ≤ S100000x128.size a)
instance k5_chk6.dec : ∀ (v18 : BitVec 32), Decidable (k5_chk6 v18) := fun v18 => decidable_of_iff' _ (Iff.of_eq (k5_chk6.eq_1 v18))
theorem k5_off7_inb : ∀ (v18 : BitVec 32) (k5_hw6 : k5_chk6 v18), ∀ a, (k5_off7 v18) a + S1x128.size a ≤ S100000x128.size a := fun v18 k5_hw6 => k5_hw6.1
theorem k5_off15_inb : ∀ (v18 : BitVec 32) (k5_hw6 : k5_chk6 v18), ∀ a, (k5_off15 v18) a + S1x128.size a ≤ S100000x128.size a := fun v18 k5_hw6 => k5_hw6.2

def k5_off16 (v21 : BitVec 32) : Fin 2 → Nat :=
  let c0_i32_59 : BitVec 32 := 0#32
  ![v21.toNat, 0]

def k5_chk7 (v21 : BitVec 32) : Prop :=
  (∀ a, (k5_off8 v21) a + S1x128.size a ≤ S100000x128.size a) ∧
  (∀ a, (k5_off16 v21) a + S1x128.size a ≤ S100000x128.size a)
instance k5_chk7.dec : ∀ (v21 : BitVec 32), Decidable (k5_chk7 v21) := fun v21 => decidable_of_iff' _ (Iff.of_eq (k5_chk7.eq_1 v21))
theorem k5_off8_inb : ∀ (v21 : BitVec 32) (k5_hw7 : k5_chk7 v21), ∀ a, (k5_off8 v21) a + S1x128.size a ≤ S100000x128.size a := fun v21 k5_hw7 => k5_hw7.1
theorem k5_off16_inb : ∀ (v21 : BitVec 32) (k5_hw7 : k5_chk7 v21), ∀ a, (k5_off16 v21) a + S1x128.size a ≤ S100000x128.size a := fun v21 k5_hw7 => k5_hw7.2

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![16384], ![false]⟩

abbrev pre6 : Pipeline.Prefetch sig := ⟨1, ![main_v39.idx], fun | 0 => main_v39.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k6_off2 (v3 : BitVec 32) : Fin 2 → Nat :=
  let c0_i32_3 : BitVec 32 := 0#32
  ![v3.toNat, 0]

def k6_off3 (v6 : BitVec 32) : Fin 2 → Nat :=
  let c0_i32_7 : BitVec 32 := 0#32
  ![v6.toNat, 0]

def k6_off4 (v9 : BitVec 32) : Fin 2 → Nat :=
  let c0_i32_11 : BitVec 32 := 0#32
  ![v9.toNat, 0]

def k6_off5 (v12 : BitVec 32) : Fin 2 → Nat :=
  let c0_i32_15 : BitVec 32 := 0#32
  ![v12.toNat, 0]

def k6_off6 (v15 : BitVec 32) : Fin 2 → Nat :=
  let c0_i32_19 : BitVec 32 := 0#32
  ![v15.toNat, 0]

def k6_off7 (v18 : BitVec 32) : Fin 2 → Nat :=
  let c0_i32_23 : BitVec 32 := 0#32
  ![v18.toNat, 0]

def k6_off8 (v21 : BitVec 32) : Fin 2 → Nat :=
  let c0_i32_27 : BitVec 32 := 0#32
  ![v21.toNat, 0]

def k6_off9 (v24 : BitVec 32) : Fin 2 → Nat :=
  let c0_i32_31 : BitVec 32 := 0#32
  ![v24.toNat, 0]

def k6_chk8 (v24 : BitVec 32) : Prop :=
  (∀ a, (k6_off9 v24) a + S1x128.size a ≤ S100000x128.size a)
instance k6_chk8.dec : ∀ (v24 : BitVec 32), Decidable (k6_chk8 v24) := fun v24 => decidable_of_iff' _ (Iff.of_eq (k6_chk8.eq_1 v24))
theorem k6_off9_inb : ∀ (v24 : BitVec 32) (k6_hw8 : k6_chk8 v24), ∀ a, (k6_off9 v24) a + S1x128.size a ≤ S100000x128.size a := fun v24 k6_hw8 => k6_hw8

def k6_off10 (v3 : BitVec 32) : Fin 2 → Nat :=
  let c0_i32_35 : BitVec 32 := 0#32
  ![v3.toNat, 0]

def k6_chk1 (v3 : BitVec 32) : Prop :=
  (∀ a, (k6_off2 v3) a + S1x128.size a ≤ S100000x128.size a) ∧
  (∀ a, (k6_off10 v3) a + S1x128.size a ≤ S100000x128.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x128.size a ≤ S100000x128.size a := fun v3 k6_hw1 => k6_hw1.1
theorem k6_off10_inb : ∀ (v3 : BitVec 32) (k6_hw1 : k6_chk1 v3), ∀ a, (k6_off10 v3) a + S1x128.size a ≤ S100000x128.size a := fun v3 k6_hw1 => k6_hw1.2

def k6_off11 (v6 : BitVec 32) : Fin 2 → Nat :=
  let c0_i32_39 : BitVec 32 := 0#32
  ![v6.toNat, 0]

def k6_chk2 (v6 : BitVec 32) : Prop :=
  (∀ a, (k6_off3 v6) a + S1x128.size a ≤ S100000x128.size a) ∧
  (∀ a, (k6_off11 v6) a + S1x128.size a ≤ S100000x128.size a)
instance k6_chk2.dec : ∀ (v6 : BitVec 32), Decidable (k6_chk2 v6) := fun v6 => decidable_of_iff' _ (Iff.of_eq (k6_chk2.eq_1 v6))
theorem k6_off3_inb : ∀ (v6 : BitVec 32) (k6_hw2 : k6_chk2 v6), ∀ a, (k6_off3 v6) a + S1x128.size a ≤ S100000x128.size a := fun v6 k6_hw2 => k6_hw2.1
theorem k6_off11_inb : ∀ (v6 : BitVec 32) (k6_hw2 : k6_chk2 v6), ∀ a, (k6_off11 v6) a + S1x128.size a ≤ S100000x128.size a := fun v6 k6_hw2 => k6_hw2.2

def k6_off12 (v9 : BitVec 32) : Fin 2 → Nat :=
  let c0_i32_43 : BitVec 32 := 0#32
  ![v9.toNat, 0]

def k6_chk3 (v9 : BitVec 32) : Prop :=
  (∀ a, (k6_off4 v9) a + S1x128.size a ≤ S100000x128.size a) ∧
  (∀ a, (k6_off12 v9) a + S1x128.size a ≤ S100000x128.size a)
instance k6_chk3.dec : ∀ (v9 : BitVec 32), Decidable (k6_chk3 v9) := fun v9 => decidable_of_iff' _ (Iff.of_eq (k6_chk3.eq_1 v9))
theorem k6_off4_inb : ∀ (v9 : BitVec 32) (k6_hw3 : k6_chk3 v9), ∀ a, (k6_off4 v9) a + S1x128.size a ≤ S100000x128.size a := fun v9 k6_hw3 => k6_hw3.1
theorem k6_off12_inb : ∀ (v9 : BitVec 32) (k6_hw3 : k6_chk3 v9), ∀ a, (k6_off12 v9) a + S1x128.size a ≤ S100000x128.size a := fun v9 k6_hw3 => k6_hw3.2

def k6_off13 (v12 : BitVec 32) : Fin 2 → Nat :=
  let c0_i32_47 : BitVec 32 := 0#32
  ![v12.toNat, 0]

def k6_chk4 (v12 : BitVec 32) : Prop :=
  (∀ a, (k6_off5 v12) a + S1x128.size a ≤ S100000x128.size a) ∧
  (∀ a, (k6_off13 v12) a + S1x128.size a ≤ S100000x128.size a)
instance k6_chk4.dec : ∀ (v12 : BitVec 32), Decidable (k6_chk4 v12) := fun v12 => decidable_of_iff' _ (Iff.of_eq (k6_chk4.eq_1 v12))
theorem k6_off5_inb : ∀ (v12 : BitVec 32) (k6_hw4 : k6_chk4 v12), ∀ a, (k6_off5 v12) a + S1x128.size a ≤ S100000x128.size a := fun v12 k6_hw4 => k6_hw4.1
theorem k6_off13_inb : ∀ (v12 : BitVec 32) (k6_hw4 : k6_chk4 v12), ∀ a, (k6_off13 v12) a + S1x128.size a ≤ S100000x128.size a := fun v12 k6_hw4 => k6_hw4.2

def k6_off14 (v15 : BitVec 32) : Fin 2 → Nat :=
  let c0_i32_51 : BitVec 32 := 0#32
  ![v15.toNat, 0]

def k6_chk5 (v15 : BitVec 32) : Prop :=
  (∀ a, (k6_off6 v15) a + S1x128.size a ≤ S100000x128.size a) ∧
  (∀ a, (k6_off14 v15) a + S1x128.size a ≤ S100000x128.size a)
instance k6_chk5.dec : ∀ (v15 : BitVec 32), Decidable (k6_chk5 v15) := fun v15 => decidable_of_iff' _ (Iff.of_eq (k6_chk5.eq_1 v15))
theorem k6_off6_inb : ∀ (v15 : BitVec 32) (k6_hw5 : k6_chk5 v15), ∀ a, (k6_off6 v15) a + S1x128.size a ≤ S100000x128.size a := fun v15 k6_hw5 => k6_hw5.1
theorem k6_off14_inb : ∀ (v15 : BitVec 32) (k6_hw5 : k6_chk5 v15), ∀ a, (k6_off14 v15) a + S1x128.size a ≤ S100000x128.size a := fun v15 k6_hw5 => k6_hw5.2

def k6_off15 (v18 : BitVec 32) : Fin 2 → Nat :=
  let c0_i32_55 : BitVec 32 := 0#32
  ![v18.toNat, 0]

def k6_chk6 (v18 : BitVec 32) : Prop :=
  (∀ a, (k6_off7 v18) a + S1x128.size a ≤ S100000x128.size a) ∧
  (∀ a, (k6_off15 v18) a + S1x128.size a ≤ S100000x128.size a)
instance k6_chk6.dec : ∀ (v18 : BitVec 32), Decidable (k6_chk6 v18) := fun v18 => decidable_of_iff' _ (Iff.of_eq (k6_chk6.eq_1 v18))
theorem k6_off7_inb : ∀ (v18 : BitVec 32) (k6_hw6 : k6_chk6 v18), ∀ a, (k6_off7 v18) a + S1x128.size a ≤ S100000x128.size a := fun v18 k6_hw6 => k6_hw6.1
theorem k6_off15_inb : ∀ (v18 : BitVec 32) (k6_hw6 : k6_chk6 v18), ∀ a, (k6_off15 v18) a + S1x128.size a ≤ S100000x128.size a := fun v18 k6_hw6 => k6_hw6.2

def k6_off16 (v21 : BitVec 32) : Fin 2 → Nat :=
  let c0_i32_59 : BitVec 32 := 0#32
  ![v21.toNat, 0]

def k6_chk7 (v21 : BitVec 32) : Prop :=
  (∀ a, (k6_off8 v21) a + S1x128.size a ≤ S100000x128.size a) ∧
  (∀ a, (k6_off16 v21) a + S1x128.size a ≤ S100000x128.size a)
instance k6_chk7.dec : ∀ (v21 : BitVec 32), Decidable (k6_chk7 v21) := fun v21 => decidable_of_iff' _ (Iff.of_eq (k6_chk7.eq_1 v21))
theorem k6_off8_inb : ∀ (v21 : BitVec 32) (k6_hw7 : k6_chk7 v21), ∀ a, (k6_off8 v21) a + S1x128.size a ≤ S100000x128.size a := fun v21 k6_hw7 => k6_hw7.1
theorem k6_off16_inb : ∀ (v21 : BitVec 32) (k6_hw7 : k6_chk7 v21), ∀ a, (k6_off16 v21) a + S1x128.size a ≤ S100000x128.size a := fun v21 k6_hw7 => k6_hw7.2

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![16384], ![false]⟩

abbrev pre7 : Pipeline.Prefetch sig := ⟨1, ![main_v42.idx], fun | 0 => main_v42.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k7_off2 (v3 : BitVec 32) : Fin 2 → Nat :=
  let c0_i32_3 : BitVec 32 := 0#32
  ![v3.toNat, 0]

def k7_off3 (v6 : BitVec 32) : Fin 2 → Nat :=
  let c0_i32_7 : BitVec 32 := 0#32
  ![v6.toNat, 0]

def k7_off4 (v9 : BitVec 32) : Fin 2 → Nat :=
  let c0_i32_11 : BitVec 32 := 0#32
  ![v9.toNat, 0]

def k7_off5 (v12 : BitVec 32) : Fin 2 → Nat :=
  let c0_i32_15 : BitVec 32 := 0#32
  ![v12.toNat, 0]

def k7_off6 (v15 : BitVec 32) : Fin 2 → Nat :=
  let c0_i32_19 : BitVec 32 := 0#32
  ![v15.toNat, 0]

def k7_off7 (v18 : BitVec 32) : Fin 2 → Nat :=
  let c0_i32_23 : BitVec 32 := 0#32
  ![v18.toNat, 0]

def k7_off8 (v21 : BitVec 32) : Fin 2 → Nat :=
  let c0_i32_27 : BitVec 32 := 0#32
  ![v21.toNat, 0]

def k7_off9 (v24 : BitVec 32) : Fin 2 → Nat :=
  let c0_i32_31 : BitVec 32 := 0#32
  ![v24.toNat, 0]

def k7_chk8 (v24 : BitVec 32) : Prop :=
  (∀ a, (k7_off9 v24) a + S1x128.size a ≤ S100000x128.size a)
instance k7_chk8.dec : ∀ (v24 : BitVec 32), Decidable (k7_chk8 v24) := fun v24 => decidable_of_iff' _ (Iff.of_eq (k7_chk8.eq_1 v24))
theorem k7_off9_inb : ∀ (v24 : BitVec 32) (k7_hw8 : k7_chk8 v24), ∀ a, (k7_off9 v24) a + S1x128.size a ≤ S100000x128.size a := fun v24 k7_hw8 => k7_hw8

def k7_off10 (v3 : BitVec 32) : Fin 2 → Nat :=
  let c0_i32_35 : BitVec 32 := 0#32
  ![v3.toNat, 0]

def k7_chk1 (v3 : BitVec 32) : Prop :=
  (∀ a, (k7_off2 v3) a + S1x128.size a ≤ S100000x128.size a) ∧
  (∀ a, (k7_off10 v3) a + S1x128.size a ≤ S100000x128.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x128.size a ≤ S100000x128.size a := fun v3 k7_hw1 => k7_hw1.1
theorem k7_off10_inb : ∀ (v3 : BitVec 32) (k7_hw1 : k7_chk1 v3), ∀ a, (k7_off10 v3) a + S1x128.size a ≤ S100000x128.size a := fun v3 k7_hw1 => k7_hw1.2

def k7_off11 (v6 : BitVec 32) : Fin 2 → Nat :=
  let c0_i32_39 : BitVec 32 := 0#32
  ![v6.toNat, 0]

def k7_chk2 (v6 : BitVec 32) : Prop :=
  (∀ a, (k7_off3 v6) a + S1x128.size a ≤ S100000x128.size a) ∧
  (∀ a, (k7_off11 v6) a + S1x128.size a ≤ S100000x128.size a)
instance k7_chk2.dec : ∀ (v6 : BitVec 32), Decidable (k7_chk2 v6) := fun v6 => decidable_of_iff' _ (Iff.of_eq (k7_chk2.eq_1 v6))
theorem k7_off3_inb : ∀ (v6 : BitVec 32) (k7_hw2 : k7_chk2 v6), ∀ a, (k7_off3 v6) a + S1x128.size a ≤ S100000x128.size a := fun v6 k7_hw2 => k7_hw2.1
theorem k7_off11_inb : ∀ (v6 : BitVec 32) (k7_hw2 : k7_chk2 v6), ∀ a, (k7_off11 v6) a + S1x128.size a ≤ S100000x128.size a := fun v6 k7_hw2 => k7_hw2.2

def k7_off12 (v9 : BitVec 32) : Fin 2 → Nat :=
  let c0_i32_43 : BitVec 32 := 0#32
  ![v9.toNat, 0]

def k7_chk3 (v9 : BitVec 32) : Prop :=
  (∀ a, (k7_off4 v9) a + S1x128.size a ≤ S100000x128.size a) ∧
  (∀ a, (k7_off12 v9) a + S1x128.size a ≤ S100000x128.size a)
instance k7_chk3.dec : ∀ (v9 : BitVec 32), Decidable (k7_chk3 v9) := fun v9 => decidable_of_iff' _ (Iff.of_eq (k7_chk3.eq_1 v9))
theorem k7_off4_inb : ∀ (v9 : BitVec 32) (k7_hw3 : k7_chk3 v9), ∀ a, (k7_off4 v9) a + S1x128.size a ≤ S100000x128.size a := fun v9 k7_hw3 => k7_hw3.1
theorem k7_off12_inb : ∀ (v9 : BitVec 32) (k7_hw3 : k7_chk3 v9), ∀ a, (k7_off12 v9) a + S1x128.size a ≤ S100000x128.size a := fun v9 k7_hw3 => k7_hw3.2

def k7_off13 (v12 : BitVec 32) : Fin 2 → Nat :=
  let c0_i32_47 : BitVec 32 := 0#32
  ![v12.toNat, 0]

def k7_chk4 (v12 : BitVec 32) : Prop :=
  (∀ a, (k7_off5 v12) a + S1x128.size a ≤ S100000x128.size a) ∧
  (∀ a, (k7_off13 v12) a + S1x128.size a ≤ S100000x128.size a)
instance k7_chk4.dec : ∀ (v12 : BitVec 32), Decidable (k7_chk4 v12) := fun v12 => decidable_of_iff' _ (Iff.of_eq (k7_chk4.eq_1 v12))
theorem k7_off5_inb : ∀ (v12 : BitVec 32) (k7_hw4 : k7_chk4 v12), ∀ a, (k7_off5 v12) a + S1x128.size a ≤ S100000x128.size a := fun v12 k7_hw4 => k7_hw4.1
theorem k7_off13_inb : ∀ (v12 : BitVec 32) (k7_hw4 : k7_chk4 v12), ∀ a, (k7_off13 v12) a + S1x128.size a ≤ S100000x128.size a := fun v12 k7_hw4 => k7_hw4.2

def k7_off14 (v15 : BitVec 32) : Fin 2 → Nat :=
  let c0_i32_51 : BitVec 32 := 0#32
  ![v15.toNat, 0]

def k7_chk5 (v15 : BitVec 32) : Prop :=
  (∀ a, (k7_off6 v15) a + S1x128.size a ≤ S100000x128.size a) ∧
  (∀ a, (k7_off14 v15) a + S1x128.size a ≤ S100000x128.size a)
instance k7_chk5.dec : ∀ (v15 : BitVec 32), Decidable (k7_chk5 v15) := fun v15 => decidable_of_iff' _ (Iff.of_eq (k7_chk5.eq_1 v15))
theorem k7_off6_inb : ∀ (v15 : BitVec 32) (k7_hw5 : k7_chk5 v15), ∀ a, (k7_off6 v15) a + S1x128.size a ≤ S100000x128.size a := fun v15 k7_hw5 => k7_hw5.1
theorem k7_off14_inb : ∀ (v15 : BitVec 32) (k7_hw5 : k7_chk5 v15), ∀ a, (k7_off14 v15) a + S1x128.size a ≤ S100000x128.size a := fun v15 k7_hw5 => k7_hw5.2

def k7_off15 (v18 : BitVec 32) : Fin 2 → Nat :=
  let c0_i32_55 : BitVec 32 := 0#32
  ![v18.toNat, 0]

def k7_chk6 (v18 : BitVec 32) : Prop :=
  (∀ a, (k7_off7 v18) a + S1x128.size a ≤ S100000x128.size a) ∧
  (∀ a, (k7_off15 v18) a + S1x128.size a ≤ S100000x128.size a)
instance k7_chk6.dec : ∀ (v18 : BitVec 32), Decidable (k7_chk6 v18) := fun v18 => decidable_of_iff' _ (Iff.of_eq (k7_chk6.eq_1 v18))
theorem k7_off7_inb : ∀ (v18 : BitVec 32) (k7_hw6 : k7_chk6 v18), ∀ a, (k7_off7 v18) a + S1x128.size a ≤ S100000x128.size a := fun v18 k7_hw6 => k7_hw6.1
theorem k7_off15_inb : ∀ (v18 : BitVec 32) (k7_hw6 : k7_chk6 v18), ∀ a, (k7_off15 v18) a + S1x128.size a ≤ S100000x128.size a := fun v18 k7_hw6 => k7_hw6.2

def k7_off16 (v21 : BitVec 32) : Fin 2 → Nat :=
  let c0_i32_59 : BitVec 32 := 0#32
  ![v21.toNat, 0]

def k7_chk7 (v21 : BitVec 32) : Prop :=
  (∀ a, (k7_off8 v21) a + S1x128.size a ≤ S100000x128.size a) ∧
  (∀ a, (k7_off16 v21) a + S1x128.size a ≤ S100000x128.size a)
instance k7_chk7.dec : ∀ (v21 : BitVec 32), Decidable (k7_chk7 v21) := fun v21 => decidable_of_iff' _ (Iff.of_eq (k7_chk7.eq_1 v21))
theorem k7_off8_inb : ∀ (v21 : BitVec 32) (k7_hw7 : k7_chk7 v21), ∀ a, (k7_off8 v21) a + S1x128.size a ≤ S100000x128.size a := fun v21 k7_hw7 => k7_hw7.1
theorem k7_off16_inb : ∀ (v21 : BitVec 32) (k7_hw7 : k7_chk7 v21), ∀ a, (k7_off16 v21) a + S1x128.size a ≤ S100000x128.size a := fun v21 k7_hw7 => k7_hw7.2

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![16384], ![false]⟩

abbrev pre8 : Pipeline.Prefetch sig := ⟨1, ![main_v59.idx], fun | 0 => main_v59.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k8_off2 (v3 : BitVec 32) : Fin 2 → Nat :=
  let c0_i32_3 : BitVec 32 := 0#32
  ![v3.toNat, 0]

def k8_off3 (v6 : BitVec 32) : Fin 2 → Nat :=
  let c0_i32_7 : BitVec 32 := 0#32
  ![v6.toNat, 0]

def k8_off4 (v9 : BitVec 32) : Fin 2 → Nat :=
  let c0_i32_11 : BitVec 32 := 0#32
  ![v9.toNat, 0]

def k8_off5 (v12 : BitVec 32) : Fin 2 → Nat :=
  let c0_i32_15 : BitVec 32 := 0#32
  ![v12.toNat, 0]

def k8_off6 (v15 : BitVec 32) : Fin 2 → Nat :=
  let c0_i32_19 : BitVec 32 := 0#32
  ![v15.toNat, 0]

def k8_off7 (v18 : BitVec 32) : Fin 2 → Nat :=
  let c0_i32_23 : BitVec 32 := 0#32
  ![v18.toNat, 0]

def k8_off8 (v21 : BitVec 32) : Fin 2 → Nat :=
  let c0_i32_27 : BitVec 32 := 0#32
  ![v21.toNat, 0]

def k8_off9 (v24 : BitVec 32) : Fin 2 → Nat :=
  let c0_i32_31 : BitVec 32 := 0#32
  ![v24.toNat, 0]

def k8_chk8 (v24 : BitVec 32) : Prop :=
  (∀ a, (k8_off9 v24) a + S1x128.size a ≤ S100000x128.size a)
instance k8_chk8.dec : ∀ (v24 : BitVec 32), Decidable (k8_chk8 v24) := fun v24 => decidable_of_iff' _ (Iff.of_eq (k8_chk8.eq_1 v24))
theorem k8_off9_inb : ∀ (v24 : BitVec 32) (k8_hw8 : k8_chk8 v24), ∀ a, (k8_off9 v24) a + S1x128.size a ≤ S100000x128.size a := fun v24 k8_hw8 => k8_hw8

def k8_off10 (v3 : BitVec 32) : Fin 2 → Nat :=
  let c0_i32_35 : BitVec 32 := 0#32
  ![v3.toNat, 0]

def k8_chk1 (v3 : BitVec 32) : Prop :=
  (∀ a, (k8_off2 v3) a + S1x128.size a ≤ S100000x128.size a) ∧
  (∀ a, (k8_off10 v3) a + S1x128.size a ≤ S100000x128.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x128.size a ≤ S100000x128.size a := fun v3 k8_hw1 => k8_hw1.1
theorem k8_off10_inb : ∀ (v3 : BitVec 32) (k8_hw1 : k8_chk1 v3), ∀ a, (k8_off10 v3) a + S1x128.size a ≤ S100000x128.size a := fun v3 k8_hw1 => k8_hw1.2

def k8_off11 (v6 : BitVec 32) : Fin 2 → Nat :=
  let c0_i32_39 : BitVec 32 := 0#32
  ![v6.toNat, 0]

def k8_chk2 (v6 : BitVec 32) : Prop :=
  (∀ a, (k8_off3 v6) a + S1x128.size a ≤ S100000x128.size a) ∧
  (∀ a, (k8_off11 v6) a + S1x128.size a ≤ S100000x128.size a)
instance k8_chk2.dec : ∀ (v6 : BitVec 32), Decidable (k8_chk2 v6) := fun v6 => decidable_of_iff' _ (Iff.of_eq (k8_chk2.eq_1 v6))
theorem k8_off3_inb : ∀ (v6 : BitVec 32) (k8_hw2 : k8_chk2 v6), ∀ a, (k8_off3 v6) a + S1x128.size a ≤ S100000x128.size a := fun v6 k8_hw2 => k8_hw2.1
theorem k8_off11_inb : ∀ (v6 : BitVec 32) (k8_hw2 : k8_chk2 v6), ∀ a, (k8_off11 v6) a + S1x128.size a ≤ S100000x128.size a := fun v6 k8_hw2 => k8_hw2.2

def k8_off12 (v9 : BitVec 32) : Fin 2 → Nat :=
  let c0_i32_43 : BitVec 32 := 0#32
  ![v9.toNat, 0]

def k8_chk3 (v9 : BitVec 32) : Prop :=
  (∀ a, (k8_off4 v9) a + S1x128.size a ≤ S100000x128.size a) ∧
  (∀ a, (k8_off12 v9) a + S1x128.size a ≤ S100000x128.size a)
instance k8_chk3.dec : ∀ (v9 : BitVec 32), Decidable (k8_chk3 v9) := fun v9 => decidable_of_iff' _ (Iff.of_eq (k8_chk3.eq_1 v9))
theorem k8_off4_inb : ∀ (v9 : BitVec 32) (k8_hw3 : k8_chk3 v9), ∀ a, (k8_off4 v9) a + S1x128.size a ≤ S100000x128.size a := fun v9 k8_hw3 => k8_hw3.1
theorem k8_off12_inb : ∀ (v9 : BitVec 32) (k8_hw3 : k8_chk3 v9), ∀ a, (k8_off12 v9) a + S1x128.size a ≤ S100000x128.size a := fun v9 k8_hw3 => k8_hw3.2

def k8_off13 (v12 : BitVec 32) : Fin 2 → Nat :=
  let c0_i32_47 : BitVec 32 := 0#32
  ![v12.toNat, 0]

def k8_chk4 (v12 : BitVec 32) : Prop :=
  (∀ a, (k8_off5 v12) a + S1x128.size a ≤ S100000x128.size a) ∧
  (∀ a, (k8_off13 v12) a + S1x128.size a ≤ S100000x128.size a)
instance k8_chk4.dec : ∀ (v12 : BitVec 32), Decidable (k8_chk4 v12) := fun v12 => decidable_of_iff' _ (Iff.of_eq (k8_chk4.eq_1 v12))
theorem k8_off5_inb : ∀ (v12 : BitVec 32) (k8_hw4 : k8_chk4 v12), ∀ a, (k8_off5 v12) a + S1x128.size a ≤ S100000x128.size a := fun v12 k8_hw4 => k8_hw4.1
theorem k8_off13_inb : ∀ (v12 : BitVec 32) (k8_hw4 : k8_chk4 v12), ∀ a, (k8_off13 v12) a + S1x128.size a ≤ S100000x128.size a := fun v12 k8_hw4 => k8_hw4.2

def k8_off14 (v15 : BitVec 32) : Fin 2 → Nat :=
  let c0_i32_51 : BitVec 32 := 0#32
  ![v15.toNat, 0]

def k8_chk5 (v15 : BitVec 32) : Prop :=
  (∀ a, (k8_off6 v15) a + S1x128.size a ≤ S100000x128.size a) ∧
  (∀ a, (k8_off14 v15) a + S1x128.size a ≤ S100000x128.size a)
instance k8_chk5.dec : ∀ (v15 : BitVec 32), Decidable (k8_chk5 v15) := fun v15 => decidable_of_iff' _ (Iff.of_eq (k8_chk5.eq_1 v15))
theorem k8_off6_inb : ∀ (v15 : BitVec 32) (k8_hw5 : k8_chk5 v15), ∀ a, (k8_off6 v15) a + S1x128.size a ≤ S100000x128.size a := fun v15 k8_hw5 => k8_hw5.1
theorem k8_off14_inb : ∀ (v15 : BitVec 32) (k8_hw5 : k8_chk5 v15), ∀ a, (k8_off14 v15) a + S1x128.size a ≤ S100000x128.size a := fun v15 k8_hw5 => k8_hw5.2

def k8_off15 (v18 : BitVec 32) : Fin 2 → Nat :=
  let c0_i32_55 : BitVec 32 := 0#32
  ![v18.toNat, 0]

def k8_chk6 (v18 : BitVec 32) : Prop :=
  (∀ a, (k8_off7 v18) a + S1x128.size a ≤ S100000x128.size a) ∧
  (∀ a, (k8_off15 v18) a + S1x128.size a ≤ S100000x128.size a)
instance k8_chk6.dec : ∀ (v18 : BitVec 32), Decidable (k8_chk6 v18) := fun v18 => decidable_of_iff' _ (Iff.of_eq (k8_chk6.eq_1 v18))
theorem k8_off7_inb : ∀ (v18 : BitVec 32) (k8_hw6 : k8_chk6 v18), ∀ a, (k8_off7 v18) a + S1x128.size a ≤ S100000x128.size a := fun v18 k8_hw6 => k8_hw6.1
theorem k8_off15_inb : ∀ (v18 : BitVec 32) (k8_hw6 : k8_chk6 v18), ∀ a, (k8_off15 v18) a + S1x128.size a ≤ S100000x128.size a := fun v18 k8_hw6 => k8_hw6.2

def k8_off16 (v21 : BitVec 32) : Fin 2 → Nat :=
  let c0_i32_59 : BitVec 32 := 0#32
  ![v21.toNat, 0]

def k8_chk7 (v21 : BitVec 32) : Prop :=
  (∀ a, (k8_off8 v21) a + S1x128.size a ≤ S100000x128.size a) ∧
  (∀ a, (k8_off16 v21) a + S1x128.size a ≤ S100000x128.size a)
instance k8_chk7.dec : ∀ (v21 : BitVec 32), Decidable (k8_chk7 v21) := fun v21 => decidable_of_iff' _ (Iff.of_eq (k8_chk7.eq_1 v21))
theorem k8_off8_inb : ∀ (v21 : BitVec 32) (k8_hw7 : k8_chk7 v21), ∀ a, (k8_off8 v21) a + S1x128.size a ≤ S100000x128.size a := fun v21 k8_hw7 => k8_hw7.1
theorem k8_off16_inb : ∀ (v21 : BitVec 32) (k8_hw7 : k8_chk7 v21), ∀ a, (k8_off16 v21) a + S1x128.size a ≤ S100000x128.size a := fun v21 k8_hw7 => k8_hw7.2

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![16384], ![false]⟩

abbrev pre9 : Pipeline.Prefetch sig := ⟨1, ![main_v62.idx], fun | 0 => main_v62.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k9_off2 (v3 : BitVec 32) : Fin 2 → Nat :=
  let c0_i32_3 : BitVec 32 := 0#32
  ![v3.toNat, 0]

def k9_off3 (v6 : BitVec 32) : Fin 2 → Nat :=
  let c0_i32_7 : BitVec 32 := 0#32
  ![v6.toNat, 0]

def k9_off4 (v9 : BitVec 32) : Fin 2 → Nat :=
  let c0_i32_11 : BitVec 32 := 0#32
  ![v9.toNat, 0]

def k9_off5 (v12 : BitVec 32) : Fin 2 → Nat :=
  let c0_i32_15 : BitVec 32 := 0#32
  ![v12.toNat, 0]

def k9_off6 (v15 : BitVec 32) : Fin 2 → Nat :=
  let c0_i32_19 : BitVec 32 := 0#32
  ![v15.toNat, 0]

def k9_off7 (v18 : BitVec 32) : Fin 2 → Nat :=
  let c0_i32_23 : BitVec 32 := 0#32
  ![v18.toNat, 0]

def k9_off8 (v21 : BitVec 32) : Fin 2 → Nat :=
  let c0_i32_27 : BitVec 32 := 0#32
  ![v21.toNat, 0]

def k9_off9 (v24 : BitVec 32) : Fin 2 → Nat :=
  let c0_i32_31 : BitVec 32 := 0#32
  ![v24.toNat, 0]

def k9_chk8 (v24 : BitVec 32) : Prop :=
  (∀ a, (k9_off9 v24) a + S1x128.size a ≤ S100000x128.size a)
instance k9_chk8.dec : ∀ (v24 : BitVec 32), Decidable (k9_chk8 v24) := fun v24 => decidable_of_iff' _ (Iff.of_eq (k9_chk8.eq_1 v24))
theorem k9_off9_inb : ∀ (v24 : BitVec 32) (k9_hw8 : k9_chk8 v24), ∀ a, (k9_off9 v24) a + S1x128.size a ≤ S100000x128.size a := fun v24 k9_hw8 => k9_hw8

def k9_off10 (v3 : BitVec 32) : Fin 2 → Nat :=
  let c0_i32_35 : BitVec 32 := 0#32
  ![v3.toNat, 0]

def k9_chk1 (v3 : BitVec 32) : Prop :=
  (∀ a, (k9_off2 v3) a + S1x128.size a ≤ S100000x128.size a) ∧
  (∀ a, (k9_off10 v3) a + S1x128.size a ≤ S100000x128.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x128.size a ≤ S100000x128.size a := fun v3 k9_hw1 => k9_hw1.1
theorem k9_off10_inb : ∀ (v3 : BitVec 32) (k9_hw1 : k9_chk1 v3), ∀ a, (k9_off10 v3) a + S1x128.size a ≤ S100000x128.size a := fun v3 k9_hw1 => k9_hw1.2

def k9_off11 (v6 : BitVec 32) : Fin 2 → Nat :=
  let c0_i32_39 : BitVec 32 := 0#32
  ![v6.toNat, 0]

def k9_chk2 (v6 : BitVec 32) : Prop :=
  (∀ a, (k9_off3 v6) a + S1x128.size a ≤ S100000x128.size a) ∧
  (∀ a, (k9_off11 v6) a + S1x128.size a ≤ S100000x128.size a)
instance k9_chk2.dec : ∀ (v6 : BitVec 32), Decidable (k9_chk2 v6) := fun v6 => decidable_of_iff' _ (Iff.of_eq (k9_chk2.eq_1 v6))
theorem k9_off3_inb : ∀ (v6 : BitVec 32) (k9_hw2 : k9_chk2 v6), ∀ a, (k9_off3 v6) a + S1x128.size a ≤ S100000x128.size a := fun v6 k9_hw2 => k9_hw2.1
theorem k9_off11_inb : ∀ (v6 : BitVec 32) (k9_hw2 : k9_chk2 v6), ∀ a, (k9_off11 v6) a + S1x128.size a ≤ S100000x128.size a := fun v6 k9_hw2 => k9_hw2.2

def k9_off12 (v9 : BitVec 32) : Fin 2 → Nat :=
  let c0_i32_43 : BitVec 32 := 0#32
  ![v9.toNat, 0]

def k9_chk3 (v9 : BitVec 32) : Prop :=
  (∀ a, (k9_off4 v9) a + S1x128.size a ≤ S100000x128.size a) ∧
  (∀ a, (k9_off12 v9) a + S1x128.size a ≤ S100000x128.size a)
instance k9_chk3.dec : ∀ (v9 : BitVec 32), Decidable (k9_chk3 v9) := fun v9 => decidable_of_iff' _ (Iff.of_eq (k9_chk3.eq_1 v9))
theorem k9_off4_inb : ∀ (v9 : BitVec 32) (k9_hw3 : k9_chk3 v9), ∀ a, (k9_off4 v9) a + S1x128.size a ≤ S100000x128.size a := fun v9 k9_hw3 => k9_hw3.1
theorem k9_off12_inb : ∀ (v9 : BitVec 32) (k9_hw3 : k9_chk3 v9), ∀ a, (k9_off12 v9) a + S1x128.size a ≤ S100000x128.size a := fun v9 k9_hw3 => k9_hw3.2

def k9_off13 (v12 : BitVec 32) : Fin 2 → Nat :=
  let c0_i32_47 : BitVec 32 := 0#32
  ![v12.toNat, 0]

def k9_chk4 (v12 : BitVec 32) : Prop :=
  (∀ a, (k9_off5 v12) a + S1x128.size a ≤ S100000x128.size a) ∧
  (∀ a, (k9_off13 v12) a + S1x128.size a ≤ S100000x128.size a)
instance k9_chk4.dec : ∀ (v12 : BitVec 32), Decidable (k9_chk4 v12) := fun v12 => decidable_of_iff' _ (Iff.of_eq (k9_chk4.eq_1 v12))
theorem k9_off5_inb : ∀ (v12 : BitVec 32) (k9_hw4 : k9_chk4 v12), ∀ a, (k9_off5 v12) a + S1x128.size a ≤ S100000x128.size a := fun v12 k9_hw4 => k9_hw4.1
theorem k9_off13_inb : ∀ (v12 : BitVec 32) (k9_hw4 : k9_chk4 v12), ∀ a, (k9_off13 v12) a + S1x128.size a ≤ S100000x128.size a := fun v12 k9_hw4 => k9_hw4.2

def k9_off14 (v15 : BitVec 32) : Fin 2 → Nat :=
  let c0_i32_51 : BitVec 32 := 0#32
  ![v15.toNat, 0]

def k9_chk5 (v15 : BitVec 32) : Prop :=
  (∀ a, (k9_off6 v15) a + S1x128.size a ≤ S100000x128.size a) ∧
  (∀ a, (k9_off14 v15) a + S1x128.size a ≤ S100000x128.size a)
instance k9_chk5.dec : ∀ (v15 : BitVec 32), Decidable (k9_chk5 v15) := fun v15 => decidable_of_iff' _ (Iff.of_eq (k9_chk5.eq_1 v15))
theorem k9_off6_inb : ∀ (v15 : BitVec 32) (k9_hw5 : k9_chk5 v15), ∀ a, (k9_off6 v15) a + S1x128.size a ≤ S100000x128.size a := fun v15 k9_hw5 => k9_hw5.1
theorem k9_off14_inb : ∀ (v15 : BitVec 32) (k9_hw5 : k9_chk5 v15), ∀ a, (k9_off14 v15) a + S1x128.size a ≤ S100000x128.size a := fun v15 k9_hw5 => k9_hw5.2

def k9_off15 (v18 : BitVec 32) : Fin 2 → Nat :=
  let c0_i32_55 : BitVec 32 := 0#32
  ![v18.toNat, 0]

def k9_chk6 (v18 : BitVec 32) : Prop :=
  (∀ a, (k9_off7 v18) a + S1x128.size a ≤ S100000x128.size a) ∧
  (∀ a, (k9_off15 v18) a + S1x128.size a ≤ S100000x128.size a)
instance k9_chk6.dec : ∀ (v18 : BitVec 32), Decidable (k9_chk6 v18) := fun v18 => decidable_of_iff' _ (Iff.of_eq (k9_chk6.eq_1 v18))
theorem k9_off7_inb : ∀ (v18 : BitVec 32) (k9_hw6 : k9_chk6 v18), ∀ a, (k9_off7 v18) a + S1x128.size a ≤ S100000x128.size a := fun v18 k9_hw6 => k9_hw6.1
theorem k9_off15_inb : ∀ (v18 : BitVec 32) (k9_hw6 : k9_chk6 v18), ∀ a, (k9_off15 v18) a + S1x128.size a ≤ S100000x128.size a := fun v18 k9_hw6 => k9_hw6.2

def k9_off16 (v21 : BitVec 32) : Fin 2 → Nat :=
  let c0_i32_59 : BitVec 32 := 0#32
  ![v21.toNat, 0]

def k9_chk7 (v21 : BitVec 32) : Prop :=
  (∀ a, (k9_off8 v21) a + S1x128.size a ≤ S100000x128.size a) ∧
  (∀ a, (k9_off16 v21) a + S1x128.size a ≤ S100000x128.size a)
instance k9_chk7.dec : ∀ (v21 : BitVec 32), Decidable (k9_chk7 v21) := fun v21 => decidable_of_iff' _ (Iff.of_eq (k9_chk7.eq_1 v21))
theorem k9_off8_inb : ∀ (v21 : BitVec 32) (k9_hw7 : k9_chk7 v21), ∀ a, (k9_off8 v21) a + S1x128.size a ≤ S100000x128.size a := fun v21 k9_hw7 => k9_hw7.1
theorem k9_off16_inb : ∀ (v21 : BitVec 32) (k9_hw7 : k9_chk7 v21), ∀ a, (k9_off16 v21) a + S1x128.size a ≤ S100000x128.size a := fun v21 k9_hw7 => k9_hw7.2

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![16384], ![false]⟩

abbrev pre10 : Pipeline.Prefetch sig := ⟨1, ![main_v65.idx], fun | 0 => main_v65.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k10_off2 (v3 : BitVec 32) : Fin 2 → Nat :=
  let c0_i32_3 : BitVec 32 := 0#32
  ![v3.toNat, 0]

def k10_off3 (v6 : BitVec 32) : Fin 2 → Nat :=
  let c0_i32_7 : BitVec 32 := 0#32
  ![v6.toNat, 0]

def k10_off4 (v9 : BitVec 32) : Fin 2 → Nat :=
  let c0_i32_11 : BitVec 32 := 0#32
  ![v9.toNat, 0]

def k10_off5 (v12 : BitVec 32) : Fin 2 → Nat :=
  let c0_i32_15 : BitVec 32 := 0#32
  ![v12.toNat, 0]

def k10_off6 (v15 : BitVec 32) : Fin 2 → Nat :=
  let c0_i32_19 : BitVec 32 := 0#32
  ![v15.toNat, 0]

def k10_off7 (v18 : BitVec 32) : Fin 2 → Nat :=
  let c0_i32_23 : BitVec 32 := 0#32
  ![v18.toNat, 0]

def k10_off8 (v21 : BitVec 32) : Fin 2 → Nat :=
  let c0_i32_27 : BitVec 32 := 0#32
  ![v21.toNat, 0]

def k10_off9 (v24 : BitVec 32) : Fin 2 → Nat :=
  let c0_i32_31 : BitVec 32 := 0#32
  ![v24.toNat, 0]

def k10_chk8 (v24 : BitVec 32) : Prop :=
  (∀ a, (k10_off9 v24) a + S1x128.size a ≤ S100000x128.size a)
instance k10_chk8.dec : ∀ (v24 : BitVec 32), Decidable (k10_chk8 v24) := fun v24 => decidable_of_iff' _ (Iff.of_eq (k10_chk8.eq_1 v24))
theorem k10_off9_inb : ∀ (v24 : BitVec 32) (k10_hw8 : k10_chk8 v24), ∀ a, (k10_off9 v24) a + S1x128.size a ≤ S100000x128.size a := fun v24 k10_hw8 => k10_hw8

def k10_off10 (v3 : BitVec 32) : Fin 2 → Nat :=
  let c0_i32_35 : BitVec 32 := 0#32
  ![v3.toNat, 0]

def k10_chk1 (v3 : BitVec 32) : Prop :=
  (∀ a, (k10_off2 v3) a + S1x128.size a ≤ S100000x128.size a) ∧
  (∀ a, (k10_off10 v3) a + S1x128.size a ≤ S100000x128.size a)
instance k10_chk1.dec : ∀ (v3 : BitVec 32), Decidable (k10_chk1 v3) := fun v3 => decidable_of_iff' _ (Iff.of_eq (k10_chk1.eq_1 v3))
theorem k10_off2_inb : ∀ (v3 : BitVec 32) (k10_hw1 : k10_chk1 v3), ∀ a, (k10_off2 v3) a + S1x128.size a ≤ S100000x128.size a := fun v3 k10_hw1 => k10_hw1.1
theorem k10_off10_inb : ∀ (v3 : BitVec 32) (k10_hw1 : k10_chk1 v3), ∀ a, (k10_off10 v3) a + S1x128.size a ≤ S100000x128.size a := fun v3 k10_hw1 => k10_hw1.2

def k10_off11 (v6 : BitVec 32) : Fin 2 → Nat :=
  let c0_i32_39 : BitVec 32 := 0#32
  ![v6.toNat, 0]

def k10_chk2 (v6 : BitVec 32) : Prop :=
  (∀ a, (k10_off3 v6) a + S1x128.size a ≤ S100000x128.size a) ∧
  (∀ a, (k10_off11 v6) a + S1x128.size a ≤ S100000x128.size a)
instance k10_chk2.dec : ∀ (v6 : BitVec 32), Decidable (k10_chk2 v6) := fun v6 => decidable_of_iff' _ (Iff.of_eq (k10_chk2.eq_1 v6))
theorem k10_off3_inb : ∀ (v6 : BitVec 32) (k10_hw2 : k10_chk2 v6), ∀ a, (k10_off3 v6) a + S1x128.size a ≤ S100000x128.size a := fun v6 k10_hw2 => k10_hw2.1
theorem k10_off11_inb : ∀ (v6 : BitVec 32) (k10_hw2 : k10_chk2 v6), ∀ a, (k10_off11 v6) a + S1x128.size a ≤ S100000x128.size a := fun v6 k10_hw2 => k10_hw2.2

def k10_off12 (v9 : BitVec 32) : Fin 2 → Nat :=
  let c0_i32_43 : BitVec 32 := 0#32
  ![v9.toNat, 0]

def k10_chk3 (v9 : BitVec 32) : Prop :=
  (∀ a, (k10_off4 v9) a + S1x128.size a ≤ S100000x128.size a) ∧
  (∀ a, (k10_off12 v9) a + S1x128.size a ≤ S100000x128.size a)
instance k10_chk3.dec : ∀ (v9 : BitVec 32), Decidable (k10_chk3 v9) := fun v9 => decidable_of_iff' _ (Iff.of_eq (k10_chk3.eq_1 v9))
theorem k10_off4_inb : ∀ (v9 : BitVec 32) (k10_hw3 : k10_chk3 v9), ∀ a, (k10_off4 v9) a + S1x128.size a ≤ S100000x128.size a := fun v9 k10_hw3 => k10_hw3.1
theorem k10_off12_inb : ∀ (v9 : BitVec 32) (k10_hw3 : k10_chk3 v9), ∀ a, (k10_off12 v9) a + S1x128.size a ≤ S100000x128.size a := fun v9 k10_hw3 => k10_hw3.2

def k10_off13 (v12 : BitVec 32) : Fin 2 → Nat :=
  let c0_i32_47 : BitVec 32 := 0#32
  ![v12.toNat, 0]

def k10_chk4 (v12 : BitVec 32) : Prop :=
  (∀ a, (k10_off5 v12) a + S1x128.size a ≤ S100000x128.size a) ∧
  (∀ a, (k10_off13 v12) a + S1x128.size a ≤ S100000x128.size a)
instance k10_chk4.dec : ∀ (v12 : BitVec 32), Decidable (k10_chk4 v12) := fun v12 => decidable_of_iff' _ (Iff.of_eq (k10_chk4.eq_1 v12))
theorem k10_off5_inb : ∀ (v12 : BitVec 32) (k10_hw4 : k10_chk4 v12), ∀ a, (k10_off5 v12) a + S1x128.size a ≤ S100000x128.size a := fun v12 k10_hw4 => k10_hw4.1
theorem k10_off13_inb : ∀ (v12 : BitVec 32) (k10_hw4 : k10_chk4 v12), ∀ a, (k10_off13 v12) a + S1x128.size a ≤ S100000x128.size a := fun v12 k10_hw4 => k10_hw4.2

def k10_off14 (v15 : BitVec 32) : Fin 2 → Nat :=
  let c0_i32_51 : BitVec 32 := 0#32
  ![v15.toNat, 0]

def k10_chk5 (v15 : BitVec 32) : Prop :=
  (∀ a, (k10_off6 v15) a + S1x128.size a ≤ S100000x128.size a) ∧
  (∀ a, (k10_off14 v15) a + S1x128.size a ≤ S100000x128.size a)
instance k10_chk5.dec : ∀ (v15 : BitVec 32), Decidable (k10_chk5 v15) := fun v15 => decidable_of_iff' _ (Iff.of_eq (k10_chk5.eq_1 v15))
theorem k10_off6_inb : ∀ (v15 : BitVec 32) (k10_hw5 : k10_chk5 v15), ∀ a, (k10_off6 v15) a + S1x128.size a ≤ S100000x128.size a := fun v15 k10_hw5 => k10_hw5.1
theorem k10_off14_inb : ∀ (v15 : BitVec 32) (k10_hw5 : k10_chk5 v15), ∀ a, (k10_off14 v15) a + S1x128.size a ≤ S100000x128.size a := fun v15 k10_hw5 => k10_hw5.2

def k10_off15 (v18 : BitVec 32) : Fin 2 → Nat :=
  let c0_i32_55 : BitVec 32 := 0#32
  ![v18.toNat, 0]

def k10_chk6 (v18 : BitVec 32) : Prop :=
  (∀ a, (k10_off7 v18) a + S1x128.size a ≤ S100000x128.size a) ∧
  (∀ a, (k10_off15 v18) a + S1x128.size a ≤ S100000x128.size a)
instance k10_chk6.dec : ∀ (v18 : BitVec 32), Decidable (k10_chk6 v18) := fun v18 => decidable_of_iff' _ (Iff.of_eq (k10_chk6.eq_1 v18))
theorem k10_off7_inb : ∀ (v18 : BitVec 32) (k10_hw6 : k10_chk6 v18), ∀ a, (k10_off7 v18) a + S1x128.size a ≤ S100000x128.size a := fun v18 k10_hw6 => k10_hw6.1
theorem k10_off15_inb : ∀ (v18 : BitVec 32) (k10_hw6 : k10_chk6 v18), ∀ a, (k10_off15 v18) a + S1x128.size a ≤ S100000x128.size a := fun v18 k10_hw6 => k10_hw6.2

def k10_off16 (v21 : BitVec 32) : Fin 2 → Nat :=
  let c0_i32_59 : BitVec 32 := 0#32
  ![v21.toNat, 0]

def k10_chk7 (v21 : BitVec 32) : Prop :=
  (∀ a, (k10_off8 v21) a + S1x128.size a ≤ S100000x128.size a) ∧
  (∀ a, (k10_off16 v21) a + S1x128.size a ≤ S100000x128.size a)
instance k10_chk7.dec : ∀ (v21 : BitVec 32), Decidable (k10_chk7 v21) := fun v21 => decidable_of_iff' _ (Iff.of_eq (k10_chk7.eq_1 v21))
theorem k10_off8_inb : ∀ (v21 : BitVec 32) (k10_hw7 : k10_chk7 v21), ∀ a, (k10_off8 v21) a + S1x128.size a ≤ S100000x128.size a := fun v21 k10_hw7 => k10_hw7.1
theorem k10_off16_inb : ∀ (v21 : BitVec 32) (k10_hw7 : k10_chk7 v21), ∀ a, (k10_off16 v21) a + S1x128.size a ≤ S100000x128.size a := fun v21 k10_hw7 => k10_hw7.2

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8x1 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev grid11 : Pipeline.Grid := ⟨1, ![16384], ![false]⟩

abbrev pre11 : Pipeline.Prefetch sig := ⟨1, ![main_v68.idx], fun | 0 => main_v68.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k11_off2 (v3 : BitVec 32) : Fin 2 → Nat :=
  let c0_i32_3 : BitVec 32 := 0#32
  ![v3.toNat, 0]

def k11_off3 (v6 : BitVec 32) : Fin 2 → Nat :=
  let c0_i32_7 : BitVec 32 := 0#32
  ![v6.toNat, 0]

def k11_off4 (v9 : BitVec 32) : Fin 2 → Nat :=
  let c0_i32_11 : BitVec 32 := 0#32
  ![v9.toNat, 0]

def k11_off5 (v12 : BitVec 32) : Fin 2 → Nat :=
  let c0_i32_15 : BitVec 32 := 0#32
  ![v12.toNat, 0]

def k11_off6 (v15 : BitVec 32) : Fin 2 → Nat :=
  let c0_i32_19 : BitVec 32 := 0#32
  ![v15.toNat, 0]

def k11_off7 (v18 : BitVec 32) : Fin 2 → Nat :=
  let c0_i32_23 : BitVec 32 := 0#32
  ![v18.toNat, 0]

def k11_off8 (v21 : BitVec 32) : Fin 2 → Nat :=
  let c0_i32_27 : BitVec 32 := 0#32
  ![v21.toNat, 0]

def k11_off9 (v24 : BitVec 32) : Fin 2 → Nat :=
  let c0_i32_31 : BitVec 32 := 0#32
  ![v24.toNat, 0]

def k11_chk8 (v24 : BitVec 32) : Prop :=
  (∀ a, (k11_off9 v24) a + S1x128.size a ≤ S100000x128.size a)
instance k11_chk8.dec : ∀ (v24 : BitVec 32), Decidable (k11_chk8 v24) := fun v24 => decidable_of_iff' _ (Iff.of_eq (k11_chk8.eq_1 v24))
theorem k11_off9_inb : ∀ (v24 : BitVec 32) (k11_hw8 : k11_chk8 v24), ∀ a, (k11_off9 v24) a + S1x128.size a ≤ S100000x128.size a := fun v24 k11_hw8 => k11_hw8

def k11_off10 (v3 : BitVec 32) : Fin 2 → Nat :=
  let c0_i32_35 : BitVec 32 := 0#32
  ![v3.toNat, 0]

def k11_chk1 (v3 : BitVec 32) : Prop :=
  (∀ a, (k11_off2 v3) a + S1x128.size a ≤ S100000x128.size a) ∧
  (∀ a, (k11_off10 v3) a + S1x128.size a ≤ S100000x128.size a)
instance k11_chk1.dec : ∀ (v3 : BitVec 32), Decidable (k11_chk1 v3) := fun v3 => decidable_of_iff' _ (Iff.of_eq (k11_chk1.eq_1 v3))
theorem k11_off2_inb : ∀ (v3 : BitVec 32) (k11_hw1 : k11_chk1 v3), ∀ a, (k11_off2 v3) a + S1x128.size a ≤ S100000x128.size a := fun v3 k11_hw1 => k11_hw1.1
theorem k11_off10_inb : ∀ (v3 : BitVec 32) (k11_hw1 : k11_chk1 v3), ∀ a, (k11_off10 v3) a + S1x128.size a ≤ S100000x128.size a := fun v3 k11_hw1 => k11_hw1.2

def k11_off11 (v6 : BitVec 32) : Fin 2 → Nat :=
  let c0_i32_39 : BitVec 32 := 0#32
  ![v6.toNat, 0]

def k11_chk2 (v6 : BitVec 32) : Prop :=
  (∀ a, (k11_off3 v6) a + S1x128.size a ≤ S100000x128.size a) ∧
  (∀ a, (k11_off11 v6) a + S1x128.size a ≤ S100000x128.size a)
instance k11_chk2.dec : ∀ (v6 : BitVec 32), Decidable (k11_chk2 v6) := fun v6 => decidable_of_iff' _ (Iff.of_eq (k11_chk2.eq_1 v6))
theorem k11_off3_inb : ∀ (v6 : BitVec 32) (k11_hw2 : k11_chk2 v6), ∀ a, (k11_off3 v6) a + S1x128.size a ≤ S100000x128.size a := fun v6 k11_hw2 => k11_hw2.1
theorem k11_off11_inb : ∀ (v6 : BitVec 32) (k11_hw2 : k11_chk2 v6), ∀ a, (k11_off11 v6) a + S1x128.size a ≤ S100000x128.size a := fun v6 k11_hw2 => k11_hw2.2

def k11_off12 (v9 : BitVec 32) : Fin 2 → Nat :=
  let c0_i32_43 : BitVec 32 := 0#32
  ![v9.toNat, 0]

def k11_chk3 (v9 : BitVec 32) : Prop :=
  (∀ a, (k11_off4 v9) a + S1x128.size a ≤ S100000x128.size a) ∧
  (∀ a, (k11_off12 v9) a + S1x128.size a ≤ S100000x128.size a)
instance k11_chk3.dec : ∀ (v9 : BitVec 32), Decidable (k11_chk3 v9) := fun v9 => decidable_of_iff' _ (Iff.of_eq (k11_chk3.eq_1 v9))
theorem k11_off4_inb : ∀ (v9 : BitVec 32) (k11_hw3 : k11_chk3 v9), ∀ a, (k11_off4 v9) a + S1x128.size a ≤ S100000x128.size a := fun v9 k11_hw3 => k11_hw3.1
theorem k11_off12_inb : ∀ (v9 : BitVec 32) (k11_hw3 : k11_chk3 v9), ∀ a, (k11_off12 v9) a + S1x128.size a ≤ S100000x128.size a := fun v9 k11_hw3 => k11_hw3.2

def k11_off13 (v12 : BitVec 32) : Fin 2 → Nat :=
  let c0_i32_47 : BitVec 32 := 0#32
  ![v12.toNat, 0]

def k11_chk4 (v12 : BitVec 32) : Prop :=
  (∀ a, (k11_off5 v12) a + S1x128.size a ≤ S100000x128.size a) ∧
  (∀ a, (k11_off13 v12) a + S1x128.size a ≤ S100000x128.size a)
instance k11_chk4.dec : ∀ (v12 : BitVec 32), Decidable (k11_chk4 v12) := fun v12 => decidable_of_iff' _ (Iff.of_eq (k11_chk4.eq_1 v12))
theorem k11_off5_inb : ∀ (v12 : BitVec 32) (k11_hw4 : k11_chk4 v12), ∀ a, (k11_off5 v12) a + S1x128.size a ≤ S100000x128.size a := fun v12 k11_hw4 => k11_hw4.1
theorem k11_off13_inb : ∀ (v12 : BitVec 32) (k11_hw4 : k11_chk4 v12), ∀ a, (k11_off13 v12) a + S1x128.size a ≤ S100000x128.size a := fun v12 k11_hw4 => k11_hw4.2

def k11_off14 (v15 : BitVec 32) : Fin 2 → Nat :=
  let c0_i32_51 : BitVec 32 := 0#32
  ![v15.toNat, 0]

def k11_chk5 (v15 : BitVec 32) : Prop :=
  (∀ a, (k11_off6 v15) a + S1x128.size a ≤ S100000x128.size a) ∧
  (∀ a, (k11_off14 v15) a + S1x128.size a ≤ S100000x128.size a)
instance k11_chk5.dec : ∀ (v15 : BitVec 32), Decidable (k11_chk5 v15) := fun v15 => decidable_of_iff' _ (Iff.of_eq (k11_chk5.eq_1 v15))
theorem k11_off6_inb : ∀ (v15 : BitVec 32) (k11_hw5 : k11_chk5 v15), ∀ a, (k11_off6 v15) a + S1x128.size a ≤ S100000x128.size a := fun v15 k11_hw5 => k11_hw5.1
theorem k11_off14_inb : ∀ (v15 : BitVec 32) (k11_hw5 : k11_chk5 v15), ∀ a, (k11_off14 v15) a + S1x128.size a ≤ S100000x128.size a := fun v15 k11_hw5 => k11_hw5.2

def k11_off15 (v18 : BitVec 32) : Fin 2 → Nat :=
  let c0_i32_55 : BitVec 32 := 0#32
  ![v18.toNat, 0]

def k11_chk6 (v18 : BitVec 32) : Prop :=
  (∀ a, (k11_off7 v18) a + S1x128.size a ≤ S100000x128.size a) ∧
  (∀ a, (k11_off15 v18) a + S1x128.size a ≤ S100000x128.size a)
instance k11_chk6.dec : ∀ (v18 : BitVec 32), Decidable (k11_chk6 v18) := fun v18 => decidable_of_iff' _ (Iff.of_eq (k11_chk6.eq_1 v18))
theorem k11_off7_inb : ∀ (v18 : BitVec 32) (k11_hw6 : k11_chk6 v18), ∀ a, (k11_off7 v18) a + S1x128.size a ≤ S100000x128.size a := fun v18 k11_hw6 => k11_hw6.1
theorem k11_off15_inb : ∀ (v18 : BitVec 32) (k11_hw6 : k11_chk6 v18), ∀ a, (k11_off15 v18) a + S1x128.size a ≤ S100000x128.size a := fun v18 k11_hw6 => k11_hw6.2

def k11_off16 (v21 : BitVec 32) : Fin 2 → Nat :=
  let c0_i32_59 : BitVec 32 := 0#32
  ![v21.toNat, 0]

def k11_chk7 (v21 : BitVec 32) : Prop :=
  (∀ a, (k11_off8 v21) a + S1x128.size a ≤ S100000x128.size a) ∧
  (∀ a, (k11_off16 v21) a + S1x128.size a ≤ S100000x128.size a)
instance k11_chk7.dec : ∀ (v21 : BitVec 32), Decidable (k11_chk7 v21) := fun v21 => decidable_of_iff' _ (Iff.of_eq (k11_chk7.eq_1 v21))
theorem k11_off8_inb : ∀ (v21 : BitVec 32) (k11_hw7 : k11_chk7 v21), ∀ a, (k11_off8 v21) a + S1x128.size a ≤ S100000x128.size a := fun v21 k11_hw7 => k11_hw7.1
theorem k11_off16_inb : ∀ (v21 : BitVec 32) (k11_hw7 : k11_chk7 v21), ∀ a, (k11_off16 v21) a + S1x128.size a ≤ S100000x128.size a := fun v21 k11_hw7 => k11_hw7.2

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev grid12 : Pipeline.Grid := ⟨1, ![16384], ![false]⟩

abbrev pre12 : Pipeline.Prefetch sig := ⟨1, ![main_v85.idx], fun | 0 => main_v85.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k12_off2 (v3 : BitVec 32) : Fin 2 → Nat :=
  let c0_i32_3 : BitVec 32 := 0#32
  ![v3.toNat, 0]

def k12_off3 (v6 : BitVec 32) : Fin 2 → Nat :=
  let c0_i32_7 : BitVec 32 := 0#32
  ![v6.toNat, 0]

def k12_off4 (v9 : BitVec 32) : Fin 2 → Nat :=
  let c0_i32_11 : BitVec 32 := 0#32
  ![v9.toNat, 0]

def k12_off5 (v12 : BitVec 32) : Fin 2 → Nat :=
  let c0_i32_15 : BitVec 32 := 0#32
  ![v12.toNat, 0]

def k12_off6 (v15 : BitVec 32) : Fin 2 → Nat :=
  let c0_i32_19 : BitVec 32 := 0#32
  ![v15.toNat, 0]

def k12_off7 (v18 : BitVec 32) : Fin 2 → Nat :=
  let c0_i32_23 : BitVec 32 := 0#32
  ![v18.toNat, 0]

def k12_off8 (v21 : BitVec 32) : Fin 2 → Nat :=
  let c0_i32_27 : BitVec 32 := 0#32
  ![v21.toNat, 0]

def k12_off9 (v24 : BitVec 32) : Fin 2 → Nat :=
  let c0_i32_31 : BitVec 32 := 0#32
  ![v24.toNat, 0]

def k12_chk8 (v24 : BitVec 32) : Prop :=
  (∀ a, (k12_off9 v24) a + S1x128.size a ≤ S100000x128.size a)
instance k12_chk8.dec : ∀ (v24 : BitVec 32), Decidable (k12_chk8 v24) := fun v24 => decidable_of_iff' _ (Iff.of_eq (k12_chk8.eq_1 v24))
theorem k12_off9_inb : ∀ (v24 : BitVec 32) (k12_hw8 : k12_chk8 v24), ∀ a, (k12_off9 v24) a + S1x128.size a ≤ S100000x128.size a := fun v24 k12_hw8 => k12_hw8

def k12_off10 (v3 : BitVec 32) : Fin 2 → Nat :=
  let c0_i32_35 : BitVec 32 := 0#32
  ![v3.toNat, 0]

def k12_chk1 (v3 : BitVec 32) : Prop :=
  (∀ a, (k12_off2 v3) a + S1x128.size a ≤ S100000x128.size a) ∧
  (∀ a, (k12_off10 v3) a + S1x128.size a ≤ S100000x128.size a)
instance k12_chk1.dec : ∀ (v3 : BitVec 32), Decidable (k12_chk1 v3) := fun v3 => decidable_of_iff' _ (Iff.of_eq (k12_chk1.eq_1 v3))
theorem k12_off2_inb : ∀ (v3 : BitVec 32) (k12_hw1 : k12_chk1 v3), ∀ a, (k12_off2 v3) a + S1x128.size a ≤ S100000x128.size a := fun v3 k12_hw1 => k12_hw1.1
theorem k12_off10_inb : ∀ (v3 : BitVec 32) (k12_hw1 : k12_chk1 v3), ∀ a, (k12_off10 v3) a + S1x128.size a ≤ S100000x128.size a := fun v3 k12_hw1 => k12_hw1.2

def k12_off11 (v6 : BitVec 32) : Fin 2 → Nat :=
  let c0_i32_39 : BitVec 32 := 0#32
  ![v6.toNat, 0]

def k12_chk2 (v6 : BitVec 32) : Prop :=
  (∀ a, (k12_off3 v6) a + S1x128.size a ≤ S100000x128.size a) ∧
  (∀ a, (k12_off11 v6) a + S1x128.size a ≤ S100000x128.size a)
instance k12_chk2.dec : ∀ (v6 : BitVec 32), Decidable (k12_chk2 v6) := fun v6 => decidable_of_iff' _ (Iff.of_eq (k12_chk2.eq_1 v6))
theorem k12_off3_inb : ∀ (v6 : BitVec 32) (k12_hw2 : k12_chk2 v6), ∀ a, (k12_off3 v6) a + S1x128.size a ≤ S100000x128.size a := fun v6 k12_hw2 => k12_hw2.1
theorem k12_off11_inb : ∀ (v6 : BitVec 32) (k12_hw2 : k12_chk2 v6), ∀ a, (k12_off11 v6) a + S1x128.size a ≤ S100000x128.size a := fun v6 k12_hw2 => k12_hw2.2

def k12_off12 (v9 : BitVec 32) : Fin 2 → Nat :=
  let c0_i32_43 : BitVec 32 := 0#32
  ![v9.toNat, 0]

def k12_chk3 (v9 : BitVec 32) : Prop :=
  (∀ a, (k12_off4 v9) a + S1x128.size a ≤ S100000x128.size a) ∧
  (∀ a, (k12_off12 v9) a + S1x128.size a ≤ S100000x128.size a)
instance k12_chk3.dec : ∀ (v9 : BitVec 32), Decidable (k12_chk3 v9) := fun v9 => decidable_of_iff' _ (Iff.of_eq (k12_chk3.eq_1 v9))
theorem k12_off4_inb : ∀ (v9 : BitVec 32) (k12_hw3 : k12_chk3 v9), ∀ a, (k12_off4 v9) a + S1x128.size a ≤ S100000x128.size a := fun v9 k12_hw3 => k12_hw3.1
theorem k12_off12_inb : ∀ (v9 : BitVec 32) (k12_hw3 : k12_chk3 v9), ∀ a, (k12_off12 v9) a + S1x128.size a ≤ S100000x128.size a := fun v9 k12_hw3 => k12_hw3.2

def k12_off13 (v12 : BitVec 32) : Fin 2 → Nat :=
  let c0_i32_47 : BitVec 32 := 0#32
  ![v12.toNat, 0]

def k12_chk4 (v12 : BitVec 32) : Prop :=
  (∀ a, (k12_off5 v12) a + S1x128.size a ≤ S100000x128.size a) ∧
  (∀ a, (k12_off13 v12) a + S1x128.size a ≤ S100000x128.size a)
instance k12_chk4.dec : ∀ (v12 : BitVec 32), Decidable (k12_chk4 v12) := fun v12 => decidable_of_iff' _ (Iff.of_eq (k12_chk4.eq_1 v12))
theorem k12_off5_inb : ∀ (v12 : BitVec 32) (k12_hw4 : k12_chk4 v12), ∀ a, (k12_off5 v12) a + S1x128.size a ≤ S100000x128.size a := fun v12 k12_hw4 => k12_hw4.1
theorem k12_off13_inb : ∀ (v12 : BitVec 32) (k12_hw4 : k12_chk4 v12), ∀ a, (k12_off13 v12) a + S1x128.size a ≤ S100000x128.size a := fun v12 k12_hw4 => k12_hw4.2

def k12_off14 (v15 : BitVec 32) : Fin 2 → Nat :=
  let c0_i32_51 : BitVec 32 := 0#32
  ![v15.toNat, 0]

def k12_chk5 (v15 : BitVec 32) : Prop :=
  (∀ a, (k12_off6 v15) a + S1x128.size a ≤ S100000x128.size a) ∧
  (∀ a, (k12_off14 v15) a + S1x128.size a ≤ S100000x128.size a)
instance k12_chk5.dec : ∀ (v15 : BitVec 32), Decidable (k12_chk5 v15) := fun v15 => decidable_of_iff' _ (Iff.of_eq (k12_chk5.eq_1 v15))
theorem k12_off6_inb : ∀ (v15 : BitVec 32) (k12_hw5 : k12_chk5 v15), ∀ a, (k12_off6 v15) a + S1x128.size a ≤ S100000x128.size a := fun v15 k12_hw5 => k12_hw5.1
theorem k12_off14_inb : ∀ (v15 : BitVec 32) (k12_hw5 : k12_chk5 v15), ∀ a, (k12_off14 v15) a + S1x128.size a ≤ S100000x128.size a := fun v15 k12_hw5 => k12_hw5.2

def k12_off15 (v18 : BitVec 32) : Fin 2 → Nat :=
  let c0_i32_55 : BitVec 32 := 0#32
  ![v18.toNat, 0]

def k12_chk6 (v18 : BitVec 32) : Prop :=
  (∀ a, (k12_off7 v18) a + S1x128.size a ≤ S100000x128.size a) ∧
  (∀ a, (k12_off15 v18) a + S1x128.size a ≤ S100000x128.size a)
instance k12_chk6.dec : ∀ (v18 : BitVec 32), Decidable (k12_chk6 v18) := fun v18 => decidable_of_iff' _ (Iff.of_eq (k12_chk6.eq_1 v18))
theorem k12_off7_inb : ∀ (v18 : BitVec 32) (k12_hw6 : k12_chk6 v18), ∀ a, (k12_off7 v18) a + S1x128.size a ≤ S100000x128.size a := fun v18 k12_hw6 => k12_hw6.1
theorem k12_off15_inb : ∀ (v18 : BitVec 32) (k12_hw6 : k12_chk6 v18), ∀ a, (k12_off15 v18) a + S1x128.size a ≤ S100000x128.size a := fun v18 k12_hw6 => k12_hw6.2

def k12_off16 (v21 : BitVec 32) : Fin 2 → Nat :=
  let c0_i32_59 : BitVec 32 := 0#32
  ![v21.toNat, 0]

def k12_chk7 (v21 : BitVec 32) : Prop :=
  (∀ a, (k12_off8 v21) a + S1x128.size a ≤ S100000x128.size a) ∧
  (∀ a, (k12_off16 v21) a + S1x128.size a ≤ S100000x128.size a)
instance k12_chk7.dec : ∀ (v21 : BitVec 32), Decidable (k12_chk7 v21) := fun v21 => decidable_of_iff' _ (Iff.of_eq (k12_chk7.eq_1 v21))
theorem k12_off8_inb : ∀ (v21 : BitVec 32) (k12_hw7 : k12_chk7 v21), ∀ a, (k12_off8 v21) a + S1x128.size a ≤ S100000x128.size a := fun v21 k12_hw7 => k12_hw7.1
theorem k12_off16_inb : ∀ (v21 : BitVec 32) (k12_hw7 : k12_chk7 v21), ∀ a, (k12_off16 v21) a + S1x128.size a ≤ S100000x128.size a := fun v21 k12_hw7 => k12_hw7.2

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8x1 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev grid13 : Pipeline.Grid := ⟨1, ![16384], ![false]⟩

abbrev pre13 : Pipeline.Prefetch sig := ⟨1, ![main_v88.idx], fun | 0 => main_v88.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k13_off2 (v3 : BitVec 32) : Fin 2 → Nat :=
  let c0_i32_3 : BitVec 32 := 0#32
  ![v3.toNat, 0]

def k13_off3 (v6 : BitVec 32) : Fin 2 → Nat :=
  let c0_i32_7 : BitVec 32 := 0#32
  ![v6.toNat, 0]

def k13_off4 (v9 : BitVec 32) : Fin 2 → Nat :=
  let c0_i32_11 : BitVec 32 := 0#32
  ![v9.toNat, 0]

def k13_off5 (v12 : BitVec 32) : Fin 2 → Nat :=
  let c0_i32_15 : BitVec 32 := 0#32
  ![v12.toNat, 0]

def k13_off6 (v15 : BitVec 32) : Fin 2 → Nat :=
  let c0_i32_19 : BitVec 32 := 0#32
  ![v15.toNat, 0]

def k13_off7 (v18 : BitVec 32) : Fin 2 → Nat :=
  let c0_i32_23 : BitVec 32 := 0#32
  ![v18.toNat, 0]

def k13_off8 (v21 : BitVec 32) : Fin 2 → Nat :=
  let c0_i32_27 : BitVec 32 := 0#32
  ![v21.toNat, 0]

def k13_off9 (v24 : BitVec 32) : Fin 2 → Nat :=
  let c0_i32_31 : BitVec 32 := 0#32
  ![v24.toNat, 0]

def k13_chk8 (v24 : BitVec 32) : Prop :=
  (∀ a, (k13_off9 v24) a + S1x128.size a ≤ S100000x128.size a)
instance k13_chk8.dec : ∀ (v24 : BitVec 32), Decidable (k13_chk8 v24) := fun v24 => decidable_of_iff' _ (Iff.of_eq (k13_chk8.eq_1 v24))
theorem k13_off9_inb : ∀ (v24 : BitVec 32) (k13_hw8 : k13_chk8 v24), ∀ a, (k13_off9 v24) a + S1x128.size a ≤ S100000x128.size a := fun v24 k13_hw8 => k13_hw8

def k13_off10 (v3 : BitVec 32) : Fin 2 → Nat :=
  let c0_i32_35 : BitVec 32 := 0#32
  ![v3.toNat, 0]

def k13_chk1 (v3 : BitVec 32) : Prop :=
  (∀ a, (k13_off2 v3) a + S1x128.size a ≤ S100000x128.size a) ∧
  (∀ a, (k13_off10 v3) a + S1x128.size a ≤ S100000x128.size a)
instance k13_chk1.dec : ∀ (v3 : BitVec 32), Decidable (k13_chk1 v3) := fun v3 => decidable_of_iff' _ (Iff.of_eq (k13_chk1.eq_1 v3))
theorem k13_off2_inb : ∀ (v3 : BitVec 32) (k13_hw1 : k13_chk1 v3), ∀ a, (k13_off2 v3) a + S1x128.size a ≤ S100000x128.size a := fun v3 k13_hw1 => k13_hw1.1
theorem k13_off10_inb : ∀ (v3 : BitVec 32) (k13_hw1 : k13_chk1 v3), ∀ a, (k13_off10 v3) a + S1x128.size a ≤ S100000x128.size a := fun v3 k13_hw1 => k13_hw1.2

def k13_off11 (v6 : BitVec 32) : Fin 2 → Nat :=
  let c0_i32_39 : BitVec 32 := 0#32
  ![v6.toNat, 0]

def k13_chk2 (v6 : BitVec 32) : Prop :=
  (∀ a, (k13_off3 v6) a + S1x128.size a ≤ S100000x128.size a) ∧
  (∀ a, (k13_off11 v6) a + S1x128.size a ≤ S100000x128.size a)
instance k13_chk2.dec : ∀ (v6 : BitVec 32), Decidable (k13_chk2 v6) := fun v6 => decidable_of_iff' _ (Iff.of_eq (k13_chk2.eq_1 v6))
theorem k13_off3_inb : ∀ (v6 : BitVec 32) (k13_hw2 : k13_chk2 v6), ∀ a, (k13_off3 v6) a + S1x128.size a ≤ S100000x128.size a := fun v6 k13_hw2 => k13_hw2.1
theorem k13_off11_inb : ∀ (v6 : BitVec 32) (k13_hw2 : k13_chk2 v6), ∀ a, (k13_off11 v6) a + S1x128.size a ≤ S100000x128.size a := fun v6 k13_hw2 => k13_hw2.2

def k13_off12 (v9 : BitVec 32) : Fin 2 → Nat :=
  let c0_i32_43 : BitVec 32 := 0#32
  ![v9.toNat, 0]

def k13_chk3 (v9 : BitVec 32) : Prop :=
  (∀ a, (k13_off4 v9) a + S1x128.size a ≤ S100000x128.size a) ∧
  (∀ a, (k13_off12 v9) a + S1x128.size a ≤ S100000x128.size a)
instance k13_chk3.dec : ∀ (v9 : BitVec 32), Decidable (k13_chk3 v9) := fun v9 => decidable_of_iff' _ (Iff.of_eq (k13_chk3.eq_1 v9))
theorem k13_off4_inb : ∀ (v9 : BitVec 32) (k13_hw3 : k13_chk3 v9), ∀ a, (k13_off4 v9) a + S1x128.size a ≤ S100000x128.size a := fun v9 k13_hw3 => k13_hw3.1
theorem k13_off12_inb : ∀ (v9 : BitVec 32) (k13_hw3 : k13_chk3 v9), ∀ a, (k13_off12 v9) a + S1x128.size a ≤ S100000x128.size a := fun v9 k13_hw3 => k13_hw3.2

def k13_off13 (v12 : BitVec 32) : Fin 2 → Nat :=
  let c0_i32_47 : BitVec 32 := 0#32
  ![v12.toNat, 0]

def k13_chk4 (v12 : BitVec 32) : Prop :=
  (∀ a, (k13_off5 v12) a + S1x128.size a ≤ S100000x128.size a) ∧
  (∀ a, (k13_off13 v12) a + S1x128.size a ≤ S100000x128.size a)
instance k13_chk4.dec : ∀ (v12 : BitVec 32), Decidable (k13_chk4 v12) := fun v12 => decidable_of_iff' _ (Iff.of_eq (k13_chk4.eq_1 v12))
theorem k13_off5_inb : ∀ (v12 : BitVec 32) (k13_hw4 : k13_chk4 v12), ∀ a, (k13_off5 v12) a + S1x128.size a ≤ S100000x128.size a := fun v12 k13_hw4 => k13_hw4.1
theorem k13_off13_inb : ∀ (v12 : BitVec 32) (k13_hw4 : k13_chk4 v12), ∀ a, (k13_off13 v12) a + S1x128.size a ≤ S100000x128.size a := fun v12 k13_hw4 => k13_hw4.2

def k13_off14 (v15 : BitVec 32) : Fin 2 → Nat :=
  let c0_i32_51 : BitVec 32 := 0#32
  ![v15.toNat, 0]

def k13_chk5 (v15 : BitVec 32) : Prop :=
  (∀ a, (k13_off6 v15) a + S1x128.size a ≤ S100000x128.size a) ∧
  (∀ a, (k13_off14 v15) a + S1x128.size a ≤ S100000x128.size a)
instance k13_chk5.dec : ∀ (v15 : BitVec 32), Decidable (k13_chk5 v15) := fun v15 => decidable_of_iff' _ (Iff.of_eq (k13_chk5.eq_1 v15))
theorem k13_off6_inb : ∀ (v15 : BitVec 32) (k13_hw5 : k13_chk5 v15), ∀ a, (k13_off6 v15) a + S1x128.size a ≤ S100000x128.size a := fun v15 k13_hw5 => k13_hw5.1
theorem k13_off14_inb : ∀ (v15 : BitVec 32) (k13_hw5 : k13_chk5 v15), ∀ a, (k13_off14 v15) a + S1x128.size a ≤ S100000x128.size a := fun v15 k13_hw5 => k13_hw5.2

def k13_off15 (v18 : BitVec 32) : Fin 2 → Nat :=
  let c0_i32_55 : BitVec 32 := 0#32
  ![v18.toNat, 0]

def k13_chk6 (v18 : BitVec 32) : Prop :=
  (∀ a, (k13_off7 v18) a + S1x128.size a ≤ S100000x128.size a) ∧
  (∀ a, (k13_off15 v18) a + S1x128.size a ≤ S100000x128.size a)
instance k13_chk6.dec : ∀ (v18 : BitVec 32), Decidable (k13_chk6 v18) := fun v18 => decidable_of_iff' _ (Iff.of_eq (k13_chk6.eq_1 v18))
theorem k13_off7_inb : ∀ (v18 : BitVec 32) (k13_hw6 : k13_chk6 v18), ∀ a, (k13_off7 v18) a + S1x128.size a ≤ S100000x128.size a := fun v18 k13_hw6 => k13_hw6.1
theorem k13_off15_inb : ∀ (v18 : BitVec 32) (k13_hw6 : k13_chk6 v18), ∀ a, (k13_off15 v18) a + S1x128.size a ≤ S100000x128.size a := fun v18 k13_hw6 => k13_hw6.2

def k13_off16 (v21 : BitVec 32) : Fin 2 → Nat :=
  let c0_i32_59 : BitVec 32 := 0#32
  ![v21.toNat, 0]

def k13_chk7 (v21 : BitVec 32) : Prop :=
  (∀ a, (k13_off8 v21) a + S1x128.size a ≤ S100000x128.size a) ∧
  (∀ a, (k13_off16 v21) a + S1x128.size a ≤ S100000x128.size a)
instance k13_chk7.dec : ∀ (v21 : BitVec 32), Decidable (k13_chk7 v21) := fun v21 => decidable_of_iff' _ (Iff.of_eq (k13_chk7.eq_1 v21))
theorem k13_off8_inb : ∀ (v21 : BitVec 32) (k13_hw7 : k13_chk7 v21), ∀ a, (k13_off8 v21) a + S1x128.size a ≤ S100000x128.size a := fun v21 k13_hw7 => k13_hw7.1
theorem k13_off16_inb : ∀ (v21 : BitVec 32) (k13_hw7 : k13_chk7 v21), ∀ a, (k13_off16 v21) a + S1x128.size a ≤ S100000x128.size a := fun v21 k13_hw7 => k13_hw7.2

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8x1 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨1, ![16384], ![false]⟩

abbrev pre14 : Pipeline.Prefetch sig := ⟨1, ![main_v91.idx], fun | 0 => main_v91.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k14_off2 (v3 : BitVec 32) : Fin 2 → Nat :=
  let c0_i32_3 : BitVec 32 := 0#32
  ![v3.toNat, 0]

def k14_off3 (v6 : BitVec 32) : Fin 2 → Nat :=
  let c0_i32_7 : BitVec 32 := 0#32
  ![v6.toNat, 0]

def k14_off4 (v9 : BitVec 32) : Fin 2 → Nat :=
  let c0_i32_11 : BitVec 32 := 0#32
  ![v9.toNat, 0]

def k14_off5 (v12 : BitVec 32) : Fin 2 → Nat :=
  let c0_i32_15 : BitVec 32 := 0#32
  ![v12.toNat, 0]

def k14_off6 (v15 : BitVec 32) : Fin 2 → Nat :=
  let c0_i32_19 : BitVec 32 := 0#32
  ![v15.toNat, 0]

def k14_off7 (v18 : BitVec 32) : Fin 2 → Nat :=
  let c0_i32_23 : BitVec 32 := 0#32
  ![v18.toNat, 0]

def k14_off8 (v21 : BitVec 32) : Fin 2 → Nat :=
  let c0_i32_27 : BitVec 32 := 0#32
  ![v21.toNat, 0]

def k14_off9 (v24 : BitVec 32) : Fin 2 → Nat :=
  let c0_i32_31 : BitVec 32 := 0#32
  ![v24.toNat, 0]

def k14_chk8 (v24 : BitVec 32) : Prop :=
  (∀ a, (k14_off9 v24) a + S1x128.size a ≤ S100000x128.size a)
instance k14_chk8.dec : ∀ (v24 : BitVec 32), Decidable (k14_chk8 v24) := fun v24 => decidable_of_iff' _ (Iff.of_eq (k14_chk8.eq_1 v24))
theorem k14_off9_inb : ∀ (v24 : BitVec 32) (k14_hw8 : k14_chk8 v24), ∀ a, (k14_off9 v24) a + S1x128.size a ≤ S100000x128.size a := fun v24 k14_hw8 => k14_hw8

def k14_off10 (v3 : BitVec 32) : Fin 2 → Nat :=
  let c0_i32_35 : BitVec 32 := 0#32
  ![v3.toNat, 0]

def k14_chk1 (v3 : BitVec 32) : Prop :=
  (∀ a, (k14_off2 v3) a + S1x128.size a ≤ S100000x128.size a) ∧
  (∀ a, (k14_off10 v3) a + S1x128.size a ≤ S100000x128.size a)
instance k14_chk1.dec : ∀ (v3 : BitVec 32), Decidable (k14_chk1 v3) := fun v3 => decidable_of_iff' _ (Iff.of_eq (k14_chk1.eq_1 v3))
theorem k14_off2_inb : ∀ (v3 : BitVec 32) (k14_hw1 : k14_chk1 v3), ∀ a, (k14_off2 v3) a + S1x128.size a ≤ S100000x128.size a := fun v3 k14_hw1 => k14_hw1.1
theorem k14_off10_inb : ∀ (v3 : BitVec 32) (k14_hw1 : k14_chk1 v3), ∀ a, (k14_off10 v3) a + S1x128.size a ≤ S100000x128.size a := fun v3 k14_hw1 => k14_hw1.2

def k14_off11 (v6 : BitVec 32) : Fin 2 → Nat :=
  let c0_i32_39 : BitVec 32 := 0#32
  ![v6.toNat, 0]

def k14_chk2 (v6 : BitVec 32) : Prop :=
  (∀ a, (k14_off3 v6) a + S1x128.size a ≤ S100000x128.size a) ∧
  (∀ a, (k14_off11 v6) a + S1x128.size a ≤ S100000x128.size a)
instance k14_chk2.dec : ∀ (v6 : BitVec 32), Decidable (k14_chk2 v6) := fun v6 => decidable_of_iff' _ (Iff.of_eq (k14_chk2.eq_1 v6))
theorem k14_off3_inb : ∀ (v6 : BitVec 32) (k14_hw2 : k14_chk2 v6), ∀ a, (k14_off3 v6) a + S1x128.size a ≤ S100000x128.size a := fun v6 k14_hw2 => k14_hw2.1
theorem k14_off11_inb : ∀ (v6 : BitVec 32) (k14_hw2 : k14_chk2 v6), ∀ a, (k14_off11 v6) a + S1x128.size a ≤ S100000x128.size a := fun v6 k14_hw2 => k14_hw2.2

def k14_off12 (v9 : BitVec 32) : Fin 2 → Nat :=
  let c0_i32_43 : BitVec 32 := 0#32
  ![v9.toNat, 0]

def k14_chk3 (v9 : BitVec 32) : Prop :=
  (∀ a, (k14_off4 v9) a + S1x128.size a ≤ S100000x128.size a) ∧
  (∀ a, (k14_off12 v9) a + S1x128.size a ≤ S100000x128.size a)
instance k14_chk3.dec : ∀ (v9 : BitVec 32), Decidable (k14_chk3 v9) := fun v9 => decidable_of_iff' _ (Iff.of_eq (k14_chk3.eq_1 v9))
theorem k14_off4_inb : ∀ (v9 : BitVec 32) (k14_hw3 : k14_chk3 v9), ∀ a, (k14_off4 v9) a + S1x128.size a ≤ S100000x128.size a := fun v9 k14_hw3 => k14_hw3.1
theorem k14_off12_inb : ∀ (v9 : BitVec 32) (k14_hw3 : k14_chk3 v9), ∀ a, (k14_off12 v9) a + S1x128.size a ≤ S100000x128.size a := fun v9 k14_hw3 => k14_hw3.2

def k14_off13 (v12 : BitVec 32) : Fin 2 → Nat :=
  let c0_i32_47 : BitVec 32 := 0#32
  ![v12.toNat, 0]

def k14_chk4 (v12 : BitVec 32) : Prop :=
  (∀ a, (k14_off5 v12) a + S1x128.size a ≤ S100000x128.size a) ∧
  (∀ a, (k14_off13 v12) a + S1x128.size a ≤ S100000x128.size a)
instance k14_chk4.dec : ∀ (v12 : BitVec 32), Decidable (k14_chk4 v12) := fun v12 => decidable_of_iff' _ (Iff.of_eq (k14_chk4.eq_1 v12))
theorem k14_off5_inb : ∀ (v12 : BitVec 32) (k14_hw4 : k14_chk4 v12), ∀ a, (k14_off5 v12) a + S1x128.size a ≤ S100000x128.size a := fun v12 k14_hw4 => k14_hw4.1
theorem k14_off13_inb : ∀ (v12 : BitVec 32) (k14_hw4 : k14_chk4 v12), ∀ a, (k14_off13 v12) a + S1x128.size a ≤ S100000x128.size a := fun v12 k14_hw4 => k14_hw4.2

def k14_off14 (v15 : BitVec 32) : Fin 2 → Nat :=
  let c0_i32_51 : BitVec 32 := 0#32
  ![v15.toNat, 0]

def k14_chk5 (v15 : BitVec 32) : Prop :=
  (∀ a, (k14_off6 v15) a + S1x128.size a ≤ S100000x128.size a) ∧
  (∀ a, (k14_off14 v15) a + S1x128.size a ≤ S100000x128.size a)
instance k14_chk5.dec : ∀ (v15 : BitVec 32), Decidable (k14_chk5 v15) := fun v15 => decidable_of_iff' _ (Iff.of_eq (k14_chk5.eq_1 v15))
theorem k14_off6_inb : ∀ (v15 : BitVec 32) (k14_hw5 : k14_chk5 v15), ∀ a, (k14_off6 v15) a + S1x128.size a ≤ S100000x128.size a := fun v15 k14_hw5 => k14_hw5.1
theorem k14_off14_inb : ∀ (v15 : BitVec 32) (k14_hw5 : k14_chk5 v15), ∀ a, (k14_off14 v15) a + S1x128.size a ≤ S100000x128.size a := fun v15 k14_hw5 => k14_hw5.2

def k14_off15 (v18 : BitVec 32) : Fin 2 → Nat :=
  let c0_i32_55 : BitVec 32 := 0#32
  ![v18.toNat, 0]

def k14_chk6 (v18 : BitVec 32) : Prop :=
  (∀ a, (k14_off7 v18) a + S1x128.size a ≤ S100000x128.size a) ∧
  (∀ a, (k14_off15 v18) a + S1x128.size a ≤ S100000x128.size a)
instance k14_chk6.dec : ∀ (v18 : BitVec 32), Decidable (k14_chk6 v18) := fun v18 => decidable_of_iff' _ (Iff.of_eq (k14_chk6.eq_1 v18))
theorem k14_off7_inb : ∀ (v18 : BitVec 32) (k14_hw6 : k14_chk6 v18), ∀ a, (k14_off7 v18) a + S1x128.size a ≤ S100000x128.size a := fun v18 k14_hw6 => k14_hw6.1
theorem k14_off15_inb : ∀ (v18 : BitVec 32) (k14_hw6 : k14_chk6 v18), ∀ a, (k14_off15 v18) a + S1x128.size a ≤ S100000x128.size a := fun v18 k14_hw6 => k14_hw6.2

def k14_off16 (v21 : BitVec 32) : Fin 2 → Nat :=
  let c0_i32_59 : BitVec 32 := 0#32
  ![v21.toNat, 0]

def k14_chk7 (v21 : BitVec 32) : Prop :=
  (∀ a, (k14_off8 v21) a + S1x128.size a ≤ S100000x128.size a) ∧
  (∀ a, (k14_off16 v21) a + S1x128.size a ≤ S100000x128.size a)
instance k14_chk7.dec : ∀ (v21 : BitVec 32), Decidable (k14_chk7 v21) := fun v21 => decidable_of_iff' _ (Iff.of_eq (k14_chk7.eq_1 v21))
theorem k14_off8_inb : ∀ (v21 : BitVec 32) (k14_hw7 : k14_chk7 v21), ∀ a, (k14_off8 v21) a + S1x128.size a ≤ S100000x128.size a := fun v21 k14_hw7 => k14_hw7.1
theorem k14_off16_inb : ∀ (v21 : BitVec 32) (k14_hw7 : k14_chk7 v21), ∀ a, (k14_off16 v21) a + S1x128.size a ≤ S100000x128.size a := fun v21 k14_hw7 => k14_hw7.2

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S8x1 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S8x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev grid15 : Pipeline.Grid := ⟨1, ![16384], ![false]⟩

abbrev pre15 : Pipeline.Prefetch sig := ⟨1, ![main_v94.idx], fun | 0 => main_v94.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k15_off2 (v3 : BitVec 32) : Fin 2 → Nat :=
  let c0_i32_3 : BitVec 32 := 0#32
  ![v3.toNat, 0]

def k15_off3 (v6 : BitVec 32) : Fin 2 → Nat :=
  let c0_i32_7 : BitVec 32 := 0#32
  ![v6.toNat, 0]

def k15_off4 (v9 : BitVec 32) : Fin 2 → Nat :=
  let c0_i32_11 : BitVec 32 := 0#32
  ![v9.toNat, 0]

def k15_off5 (v12 : BitVec 32) : Fin 2 → Nat :=
  let c0_i32_15 : BitVec 32 := 0#32
  ![v12.toNat, 0]

def k15_off6 (v15 : BitVec 32) : Fin 2 → Nat :=
  let c0_i32_19 : BitVec 32 := 0#32
  ![v15.toNat, 0]

def k15_off7 (v18 : BitVec 32) : Fin 2 → Nat :=
  let c0_i32_23 : BitVec 32 := 0#32
  ![v18.toNat, 0]

def k15_off8 (v21 : BitVec 32) : Fin 2 → Nat :=
  let c0_i32_27 : BitVec 32 := 0#32
  ![v21.toNat, 0]

def k15_off9 (v24 : BitVec 32) : Fin 2 → Nat :=
  let c0_i32_31 : BitVec 32 := 0#32
  ![v24.toNat, 0]

def k15_chk8 (v24 : BitVec 32) : Prop :=
  (∀ a, (k15_off9 v24) a + S1x128.size a ≤ S100000x128.size a)
instance k15_chk8.dec : ∀ (v24 : BitVec 32), Decidable (k15_chk8 v24) := fun v24 => decidable_of_iff' _ (Iff.of_eq (k15_chk8.eq_1 v24))
theorem k15_off9_inb : ∀ (v24 : BitVec 32) (k15_hw8 : k15_chk8 v24), ∀ a, (k15_off9 v24) a + S1x128.size a ≤ S100000x128.size a := fun v24 k15_hw8 => k15_hw8

def k15_off10 (v3 : BitVec 32) : Fin 2 → Nat :=
  let c0_i32_35 : BitVec 32 := 0#32
  ![v3.toNat, 0]

def k15_chk1 (v3 : BitVec 32) : Prop :=
  (∀ a, (k15_off2 v3) a + S1x128.size a ≤ S100000x128.size a) ∧
  (∀ a, (k15_off10 v3) a + S1x128.size a ≤ S100000x128.size a)
instance k15_chk1.dec : ∀ (v3 : BitVec 32), Decidable (k15_chk1 v3) := fun v3 => decidable_of_iff' _ (Iff.of_eq (k15_chk1.eq_1 v3))
theorem k15_off2_inb : ∀ (v3 : BitVec 32) (k15_hw1 : k15_chk1 v3), ∀ a, (k15_off2 v3) a + S1x128.size a ≤ S100000x128.size a := fun v3 k15_hw1 => k15_hw1.1
theorem k15_off10_inb : ∀ (v3 : BitVec 32) (k15_hw1 : k15_chk1 v3), ∀ a, (k15_off10 v3) a + S1x128.size a ≤ S100000x128.size a := fun v3 k15_hw1 => k15_hw1.2

def k15_off11 (v6 : BitVec 32) : Fin 2 → Nat :=
  let c0_i32_39 : BitVec 32 := 0#32
  ![v6.toNat, 0]

def k15_chk2 (v6 : BitVec 32) : Prop :=
  (∀ a, (k15_off3 v6) a + S1x128.size a ≤ S100000x128.size a) ∧
  (∀ a, (k15_off11 v6) a + S1x128.size a ≤ S100000x128.size a)
instance k15_chk2.dec : ∀ (v6 : BitVec 32), Decidable (k15_chk2 v6) := fun v6 => decidable_of_iff' _ (Iff.of_eq (k15_chk2.eq_1 v6))
theorem k15_off3_inb : ∀ (v6 : BitVec 32) (k15_hw2 : k15_chk2 v6), ∀ a, (k15_off3 v6) a + S1x128.size a ≤ S100000x128.size a := fun v6 k15_hw2 => k15_hw2.1
theorem k15_off11_inb : ∀ (v6 : BitVec 32) (k15_hw2 : k15_chk2 v6), ∀ a, (k15_off11 v6) a + S1x128.size a ≤ S100000x128.size a := fun v6 k15_hw2 => k15_hw2.2

def k15_off12 (v9 : BitVec 32) : Fin 2 → Nat :=
  let c0_i32_43 : BitVec 32 := 0#32
  ![v9.toNat, 0]

def k15_chk3 (v9 : BitVec 32) : Prop :=
  (∀ a, (k15_off4 v9) a + S1x128.size a ≤ S100000x128.size a) ∧
  (∀ a, (k15_off12 v9) a + S1x128.size a ≤ S100000x128.size a)
instance k15_chk3.dec : ∀ (v9 : BitVec 32), Decidable (k15_chk3 v9) := fun v9 => decidable_of_iff' _ (Iff.of_eq (k15_chk3.eq_1 v9))
theorem k15_off4_inb : ∀ (v9 : BitVec 32) (k15_hw3 : k15_chk3 v9), ∀ a, (k15_off4 v9) a + S1x128.size a ≤ S100000x128.size a := fun v9 k15_hw3 => k15_hw3.1
theorem k15_off12_inb : ∀ (v9 : BitVec 32) (k15_hw3 : k15_chk3 v9), ∀ a, (k15_off12 v9) a + S1x128.size a ≤ S100000x128.size a := fun v9 k15_hw3 => k15_hw3.2

def k15_off13 (v12 : BitVec 32) : Fin 2 → Nat :=
  let c0_i32_47 : BitVec 32 := 0#32
  ![v12.toNat, 0]

def k15_chk4 (v12 : BitVec 32) : Prop :=
  (∀ a, (k15_off5 v12) a + S1x128.size a ≤ S100000x128.size a) ∧
  (∀ a, (k15_off13 v12) a + S1x128.size a ≤ S100000x128.size a)
instance k15_chk4.dec : ∀ (v12 : BitVec 32), Decidable (k15_chk4 v12) := fun v12 => decidable_of_iff' _ (Iff.of_eq (k15_chk4.eq_1 v12))
theorem k15_off5_inb : ∀ (v12 : BitVec 32) (k15_hw4 : k15_chk4 v12), ∀ a, (k15_off5 v12) a + S1x128.size a ≤ S100000x128.size a := fun v12 k15_hw4 => k15_hw4.1
theorem k15_off13_inb : ∀ (v12 : BitVec 32) (k15_hw4 : k15_chk4 v12), ∀ a, (k15_off13 v12) a + S1x128.size a ≤ S100000x128.size a := fun v12 k15_hw4 => k15_hw4.2

def k15_off14 (v15 : BitVec 32) : Fin 2 → Nat :=
  let c0_i32_51 : BitVec 32 := 0#32
  ![v15.toNat, 0]

def k15_chk5 (v15 : BitVec 32) : Prop :=
  (∀ a, (k15_off6 v15) a + S1x128.size a ≤ S100000x128.size a) ∧
  (∀ a, (k15_off14 v15) a + S1x128.size a ≤ S100000x128.size a)
instance k15_chk5.dec : ∀ (v15 : BitVec 32), Decidable (k15_chk5 v15) := fun v15 => decidable_of_iff' _ (Iff.of_eq (k15_chk5.eq_1 v15))
theorem k15_off6_inb : ∀ (v15 : BitVec 32) (k15_hw5 : k15_chk5 v15), ∀ a, (k15_off6 v15) a + S1x128.size a ≤ S100000x128.size a := fun v15 k15_hw5 => k15_hw5.1
theorem k15_off14_inb : ∀ (v15 : BitVec 32) (k15_hw5 : k15_chk5 v15), ∀ a, (k15_off14 v15) a + S1x128.size a ≤ S100000x128.size a := fun v15 k15_hw5 => k15_hw5.2

def k15_off15 (v18 : BitVec 32) : Fin 2 → Nat :=
  let c0_i32_55 : BitVec 32 := 0#32
  ![v18.toNat, 0]

def k15_chk6 (v18 : BitVec 32) : Prop :=
  (∀ a, (k15_off7 v18) a + S1x128.size a ≤ S100000x128.size a) ∧
  (∀ a, (k15_off15 v18) a + S1x128.size a ≤ S100000x128.size a)
instance k15_chk6.dec : ∀ (v18 : BitVec 32), Decidable (k15_chk6 v18) := fun v18 => decidable_of_iff' _ (Iff.of_eq (k15_chk6.eq_1 v18))
theorem k15_off7_inb : ∀ (v18 : BitVec 32) (k15_hw6 : k15_chk6 v18), ∀ a, (k15_off7 v18) a + S1x128.size a ≤ S100000x128.size a := fun v18 k15_hw6 => k15_hw6.1
theorem k15_off15_inb : ∀ (v18 : BitVec 32) (k15_hw6 : k15_chk6 v18), ∀ a, (k15_off15 v18) a + S1x128.size a ≤ S100000x128.size a := fun v18 k15_hw6 => k15_hw6.2

def k15_off16 (v21 : BitVec 32) : Fin 2 → Nat :=
  let c0_i32_59 : BitVec 32 := 0#32
  ![v21.toNat, 0]

def k15_chk7 (v21 : BitVec 32) : Prop :=
  (∀ a, (k15_off8 v21) a + S1x128.size a ≤ S100000x128.size a) ∧
  (∀ a, (k15_off16 v21) a + S1x128.size a ≤ S100000x128.size a)
instance k15_chk7.dec : ∀ (v21 : BitVec 32), Decidable (k15_chk7 v21) := fun v21 => decidable_of_iff' _ (Iff.of_eq (k15_chk7.eq_1 v21))
theorem k15_off8_inb : ∀ (v21 : BitVec 32) (k15_hw7 : k15_chk7 v21), ∀ a, (k15_off8 v21) a + S1x128.size a ≤ S100000x128.size a := fun v21 k15_hw7 => k15_hw7.1
theorem k15_off16_inb : ∀ (v21 : BitVec 32) (k15_hw7 : k15_chk7 v21), ∀ a, (k15_off16 v21) a + S1x128.size a ≤ S100000x128.size a := fun v21 k15_hw7 => k15_hw7.2

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8x1 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev grid16 : Pipeline.Grid := ⟨1, ![50], ![false]⟩

def cc16_transform_0 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4x2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev grid17 : Pipeline.Grid := ⟨1, ![16384], ![false]⟩

abbrev pre17 : Pipeline.Prefetch sig := ⟨1, ![main_v117.idx], fun | 0 => main_v117.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k17_off2 (v3 : BitVec 32) : Fin 2 → Nat :=
  let c0_i32_3 : BitVec 32 := 0#32
  ![v3.toNat, 0]

def k17_off3 (v6 : BitVec 32) : Fin 2 → Nat :=
  let c0_i32_7 : BitVec 32 := 0#32
  ![v6.toNat, 0]

def k17_off4 (v9 : BitVec 32) : Fin 2 → Nat :=
  let c0_i32_11 : BitVec 32 := 0#32
  ![v9.toNat, 0]

def k17_off5 (v12 : BitVec 32) : Fin 2 → Nat :=
  let c0_i32_15 : BitVec 32 := 0#32
  ![v12.toNat, 0]

def k17_off6 (v15 : BitVec 32) : Fin 2 → Nat :=
  let c0_i32_19 : BitVec 32 := 0#32
  ![v15.toNat, 0]

def k17_off7 (v18 : BitVec 32) : Fin 2 → Nat :=
  let c0_i32_23 : BitVec 32 := 0#32
  ![v18.toNat, 0]

def k17_off8 (v21 : BitVec 32) : Fin 2 → Nat :=
  let c0_i32_27 : BitVec 32 := 0#32
  ![v21.toNat, 0]

def k17_off9 (v24 : BitVec 32) : Fin 2 → Nat :=
  let c0_i32_31 : BitVec 32 := 0#32
  ![v24.toNat, 0]

def k17_chk8 (v24 : BitVec 32) : Prop :=
  (∀ a, (k17_off9 v24) a + S1x128.size a ≤ S100000x128.size a)
instance k17_chk8.dec : ∀ (v24 : BitVec 32), Decidable (k17_chk8 v24) := fun v24 => decidable_of_iff' _ (Iff.of_eq (k17_chk8.eq_1 v24))
theorem k17_off9_inb : ∀ (v24 : BitVec 32) (k17_hw8 : k17_chk8 v24), ∀ a, (k17_off9 v24) a + S1x128.size a ≤ S100000x128.size a := fun v24 k17_hw8 => k17_hw8

def k17_off10 (v3 : BitVec 32) : Fin 2 → Nat :=
  let c0_i32_35 : BitVec 32 := 0#32
  ![v3.toNat, 0]

def k17_chk1 (v3 : BitVec 32) : Prop :=
  (∀ a, (k17_off2 v3) a + S1x128.size a ≤ S100000x128.size a) ∧
  (∀ a, (k17_off10 v3) a + S1x128.size a ≤ S100000x128.size a)
instance k17_chk1.dec : ∀ (v3 : BitVec 32), Decidable (k17_chk1 v3) := fun v3 => decidable_of_iff' _ (Iff.of_eq (k17_chk1.eq_1 v3))
theorem k17_off2_inb : ∀ (v3 : BitVec 32) (k17_hw1 : k17_chk1 v3), ∀ a, (k17_off2 v3) a + S1x128.size a ≤ S100000x128.size a := fun v3 k17_hw1 => k17_hw1.1
theorem k17_off10_inb : ∀ (v3 : BitVec 32) (k17_hw1 : k17_chk1 v3), ∀ a, (k17_off10 v3) a + S1x128.size a ≤ S100000x128.size a := fun v3 k17_hw1 => k17_hw1.2

def k17_off11 (v6 : BitVec 32) : Fin 2 → Nat :=
  let c0_i32_39 : BitVec 32 := 0#32
  ![v6.toNat, 0]

def k17_chk2 (v6 : BitVec 32) : Prop :=
  (∀ a, (k17_off3 v6) a + S1x128.size a ≤ S100000x128.size a) ∧
  (∀ a, (k17_off11 v6) a + S1x128.size a ≤ S100000x128.size a)
instance k17_chk2.dec : ∀ (v6 : BitVec 32), Decidable (k17_chk2 v6) := fun v6 => decidable_of_iff' _ (Iff.of_eq (k17_chk2.eq_1 v6))
theorem k17_off3_inb : ∀ (v6 : BitVec 32) (k17_hw2 : k17_chk2 v6), ∀ a, (k17_off3 v6) a + S1x128.size a ≤ S100000x128.size a := fun v6 k17_hw2 => k17_hw2.1
theorem k17_off11_inb : ∀ (v6 : BitVec 32) (k17_hw2 : k17_chk2 v6), ∀ a, (k17_off11 v6) a + S1x128.size a ≤ S100000x128.size a := fun v6 k17_hw2 => k17_hw2.2

def k17_off12 (v9 : BitVec 32) : Fin 2 → Nat :=
  let c0_i32_43 : BitVec 32 := 0#32
  ![v9.toNat, 0]

def k17_chk3 (v9 : BitVec 32) : Prop :=
  (∀ a, (k17_off4 v9) a + S1x128.size a ≤ S100000x128.size a) ∧
  (∀ a, (k17_off12 v9) a + S1x128.size a ≤ S100000x128.size a)
instance k17_chk3.dec : ∀ (v9 : BitVec 32), Decidable (k17_chk3 v9) := fun v9 => decidable_of_iff' _ (Iff.of_eq (k17_chk3.eq_1 v9))
theorem k17_off4_inb : ∀ (v9 : BitVec 32) (k17_hw3 : k17_chk3 v9), ∀ a, (k17_off4 v9) a + S1x128.size a ≤ S100000x128.size a := fun v9 k17_hw3 => k17_hw3.1
theorem k17_off12_inb : ∀ (v9 : BitVec 32) (k17_hw3 : k17_chk3 v9), ∀ a, (k17_off12 v9) a + S1x128.size a ≤ S100000x128.size a := fun v9 k17_hw3 => k17_hw3.2

def k17_off13 (v12 : BitVec 32) : Fin 2 → Nat :=
  let c0_i32_47 : BitVec 32 := 0#32
  ![v12.toNat, 0]

def k17_chk4 (v12 : BitVec 32) : Prop :=
  (∀ a, (k17_off5 v12) a + S1x128.size a ≤ S100000x128.size a) ∧
  (∀ a, (k17_off13 v12) a + S1x128.size a ≤ S100000x128.size a)
instance k17_chk4.dec : ∀ (v12 : BitVec 32), Decidable (k17_chk4 v12) := fun v12 => decidable_of_iff' _ (Iff.of_eq (k17_chk4.eq_1 v12))
theorem k17_off5_inb : ∀ (v12 : BitVec 32) (k17_hw4 : k17_chk4 v12), ∀ a, (k17_off5 v12) a + S1x128.size a ≤ S100000x128.size a := fun v12 k17_hw4 => k17_hw4.1
theorem k17_off13_inb : ∀ (v12 : BitVec 32) (k17_hw4 : k17_chk4 v12), ∀ a, (k17_off13 v12) a + S1x128.size a ≤ S100000x128.size a := fun v12 k17_hw4 => k17_hw4.2

def k17_off14 (v15 : BitVec 32) : Fin 2 → Nat :=
  let c0_i32_51 : BitVec 32 := 0#32
  ![v15.toNat, 0]

def k17_chk5 (v15 : BitVec 32) : Prop :=
  (∀ a, (k17_off6 v15) a + S1x128.size a ≤ S100000x128.size a) ∧
  (∀ a, (k17_off14 v15) a + S1x128.size a ≤ S100000x128.size a)
instance k17_chk5.dec : ∀ (v15 : BitVec 32), Decidable (k17_chk5 v15) := fun v15 => decidable_of_iff' _ (Iff.of_eq (k17_chk5.eq_1 v15))
theorem k17_off6_inb : ∀ (v15 : BitVec 32) (k17_hw5 : k17_chk5 v15), ∀ a, (k17_off6 v15) a + S1x128.size a ≤ S100000x128.size a := fun v15 k17_hw5 => k17_hw5.1
theorem k17_off14_inb : ∀ (v15 : BitVec 32) (k17_hw5 : k17_chk5 v15), ∀ a, (k17_off14 v15) a + S1x128.size a ≤ S100000x128.size a := fun v15 k17_hw5 => k17_hw5.2

def k17_off15 (v18 : BitVec 32) : Fin 2 → Nat :=
  let c0_i32_55 : BitVec 32 := 0#32
  ![v18.toNat, 0]

def k17_chk6 (v18 : BitVec 32) : Prop :=
  (∀ a, (k17_off7 v18) a + S1x128.size a ≤ S100000x128.size a) ∧
  (∀ a, (k17_off15 v18) a + S1x128.size a ≤ S100000x128.size a)
instance k17_chk6.dec : ∀ (v18 : BitVec 32), Decidable (k17_chk6 v18) := fun v18 => decidable_of_iff' _ (Iff.of_eq (k17_chk6.eq_1 v18))
theorem k17_off7_inb : ∀ (v18 : BitVec 32) (k17_hw6 : k17_chk6 v18), ∀ a, (k17_off7 v18) a + S1x128.size a ≤ S100000x128.size a := fun v18 k17_hw6 => k17_hw6.1
theorem k17_off15_inb : ∀ (v18 : BitVec 32) (k17_hw6 : k17_chk6 v18), ∀ a, (k17_off15 v18) a + S1x128.size a ≤ S100000x128.size a := fun v18 k17_hw6 => k17_hw6.2

def k17_off16 (v21 : BitVec 32) : Fin 2 → Nat :=
  let c0_i32_59 : BitVec 32 := 0#32
  ![v21.toNat, 0]

def k17_chk7 (v21 : BitVec 32) : Prop :=
  (∀ a, (k17_off8 v21) a + S1x128.size a ≤ S100000x128.size a) ∧
  (∀ a, (k17_off16 v21) a + S1x128.size a ≤ S100000x128.size a)
instance k17_chk7.dec : ∀ (v21 : BitVec 32), Decidable (k17_chk7 v21) := fun v21 => decidable_of_iff' _ (Iff.of_eq (k17_chk7.eq_1 v21))
theorem k17_off8_inb : ∀ (v21 : BitVec 32) (k17_hw7 : k17_chk7 v21), ∀ a, (k17_off8 v21) a + S1x128.size a ≤ S100000x128.size a := fun v21 k17_hw7 => k17_hw7.1
theorem k17_off16_inb : ∀ (v21 : BitVec 32) (k17_hw7 : k17_chk7 v21), ∀ a, (k17_off16 v21) a + S1x128.size a ≤ S100000x128.size a := fun v21 k17_hw7 => k17_hw7.2

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S8x1 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S8x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev grid18 : Pipeline.Grid := ⟨1, ![16384], ![false]⟩

abbrev pre18 : Pipeline.Prefetch sig := ⟨1, ![main_v120.idx], fun | 0 => main_v120.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k18_off2 (v3 : BitVec 32) : Fin 2 → Nat :=
  let c0_i32_3 : BitVec 32 := 0#32
  ![v3.toNat, 0]

def k18_off3 (v6 : BitVec 32) : Fin 2 → Nat :=
  let c0_i32_7 : BitVec 32 := 0#32
  ![v6.toNat, 0]

def k18_off4 (v9 : BitVec 32) : Fin 2 → Nat :=
  let c0_i32_11 : BitVec 32 := 0#32
  ![v9.toNat, 0]

def k18_off5 (v12 : BitVec 32) : Fin 2 → Nat :=
  let c0_i32_15 : BitVec 32 := 0#32
  ![v12.toNat, 0]

def k18_off6 (v15 : BitVec 32) : Fin 2 → Nat :=
  let c0_i32_19 : BitVec 32 := 0#32
  ![v15.toNat, 0]

def k18_off7 (v18 : BitVec 32) : Fin 2 → Nat :=
  let c0_i32_23 : BitVec 32 := 0#32
  ![v18.toNat, 0]

def k18_off8 (v21 : BitVec 32) : Fin 2 → Nat :=
  let c0_i32_27 : BitVec 32 := 0#32
  ![v21.toNat, 0]

def k18_off9 (v24 : BitVec 32) : Fin 2 → Nat :=
  let c0_i32_31 : BitVec 32 := 0#32
  ![v24.toNat, 0]

def k18_chk8 (v24 : BitVec 32) : Prop :=
  (∀ a, (k18_off9 v24) a + S1x128.size a ≤ S100000x128.size a)
instance k18_chk8.dec : ∀ (v24 : BitVec 32), Decidable (k18_chk8 v24) := fun v24 => decidable_of_iff' _ (Iff.of_eq (k18_chk8.eq_1 v24))
theorem k18_off9_inb : ∀ (v24 : BitVec 32) (k18_hw8 : k18_chk8 v24), ∀ a, (k18_off9 v24) a + S1x128.size a ≤ S100000x128.size a := fun v24 k18_hw8 => k18_hw8

def k18_off10 (v3 : BitVec 32) : Fin 2 → Nat :=
  let c0_i32_35 : BitVec 32 := 0#32
  ![v3.toNat, 0]

def k18_chk1 (v3 : BitVec 32) : Prop :=
  (∀ a, (k18_off2 v3) a + S1x128.size a ≤ S100000x128.size a) ∧
  (∀ a, (k18_off10 v3) a + S1x128.size a ≤ S100000x128.size a)
instance k18_chk1.dec : ∀ (v3 : BitVec 32), Decidable (k18_chk1 v3) := fun v3 => decidable_of_iff' _ (Iff.of_eq (k18_chk1.eq_1 v3))
theorem k18_off2_inb : ∀ (v3 : BitVec 32) (k18_hw1 : k18_chk1 v3), ∀ a, (k18_off2 v3) a + S1x128.size a ≤ S100000x128.size a := fun v3 k18_hw1 => k18_hw1.1
theorem k18_off10_inb : ∀ (v3 : BitVec 32) (k18_hw1 : k18_chk1 v3), ∀ a, (k18_off10 v3) a + S1x128.size a ≤ S100000x128.size a := fun v3 k18_hw1 => k18_hw1.2

def k18_off11 (v6 : BitVec 32) : Fin 2 → Nat :=
  let c0_i32_39 : BitVec 32 := 0#32
  ![v6.toNat, 0]

def k18_chk2 (v6 : BitVec 32) : Prop :=
  (∀ a, (k18_off3 v6) a + S1x128.size a ≤ S100000x128.size a) ∧
  (∀ a, (k18_off11 v6) a + S1x128.size a ≤ S100000x128.size a)
instance k18_chk2.dec : ∀ (v6 : BitVec 32), Decidable (k18_chk2 v6) := fun v6 => decidable_of_iff' _ (Iff.of_eq (k18_chk2.eq_1 v6))
theorem k18_off3_inb : ∀ (v6 : BitVec 32) (k18_hw2 : k18_chk2 v6), ∀ a, (k18_off3 v6) a + S1x128.size a ≤ S100000x128.size a := fun v6 k18_hw2 => k18_hw2.1
theorem k18_off11_inb : ∀ (v6 : BitVec 32) (k18_hw2 : k18_chk2 v6), ∀ a, (k18_off11 v6) a + S1x128.size a ≤ S100000x128.size a := fun v6 k18_hw2 => k18_hw2.2

def k18_off12 (v9 : BitVec 32) : Fin 2 → Nat :=
  let c0_i32_43 : BitVec 32 := 0#32
  ![v9.toNat, 0]

def k18_chk3 (v9 : BitVec 32) : Prop :=
  (∀ a, (k18_off4 v9) a + S1x128.size a ≤ S100000x128.size a) ∧
  (∀ a, (k18_off12 v9) a + S1x128.size a ≤ S100000x128.size a)
instance k18_chk3.dec : ∀ (v9 : BitVec 32), Decidable (k18_chk3 v9) := fun v9 => decidable_of_iff' _ (Iff.of_eq (k18_chk3.eq_1 v9))
theorem k18_off4_inb : ∀ (v9 : BitVec 32) (k18_hw3 : k18_chk3 v9), ∀ a, (k18_off4 v9) a + S1x128.size a ≤ S100000x128.size a := fun v9 k18_hw3 => k18_hw3.1
theorem k18_off12_inb : ∀ (v9 : BitVec 32) (k18_hw3 : k18_chk3 v9), ∀ a, (k18_off12 v9) a + S1x128.size a ≤ S100000x128.size a := fun v9 k18_hw3 => k18_hw3.2

def k18_off13 (v12 : BitVec 32) : Fin 2 → Nat :=
  let c0_i32_47 : BitVec 32 := 0#32
  ![v12.toNat, 0]

def k18_chk4 (v12 : BitVec 32) : Prop :=
  (∀ a, (k18_off5 v12) a + S1x128.size a ≤ S100000x128.size a) ∧
  (∀ a, (k18_off13 v12) a + S1x128.size a ≤ S100000x128.size a)
instance k18_chk4.dec : ∀ (v12 : BitVec 32), Decidable (k18_chk4 v12) := fun v12 => decidable_of_iff' _ (Iff.of_eq (k18_chk4.eq_1 v12))
theorem k18_off5_inb : ∀ (v12 : BitVec 32) (k18_hw4 : k18_chk4 v12), ∀ a, (k18_off5 v12) a + S1x128.size a ≤ S100000x128.size a := fun v12 k18_hw4 => k18_hw4.1
theorem k18_off13_inb : ∀ (v12 : BitVec 32) (k18_hw4 : k18_chk4 v12), ∀ a, (k18_off13 v12) a + S1x128.size a ≤ S100000x128.size a := fun v12 k18_hw4 => k18_hw4.2

def k18_off14 (v15 : BitVec 32) : Fin 2 → Nat :=
  let c0_i32_51 : BitVec 32 := 0#32
  ![v15.toNat, 0]

def k18_chk5 (v15 : BitVec 32) : Prop :=
  (∀ a, (k18_off6 v15) a + S1x128.size a ≤ S100000x128.size a) ∧
  (∀ a, (k18_off14 v15) a + S1x128.size a ≤ S100000x128.size a)
instance k18_chk5.dec : ∀ (v15 : BitVec 32), Decidable (k18_chk5 v15) := fun v15 => decidable_of_iff' _ (Iff.of_eq (k18_chk5.eq_1 v15))
theorem k18_off6_inb : ∀ (v15 : BitVec 32) (k18_hw5 : k18_chk5 v15), ∀ a, (k18_off6 v15) a + S1x128.size a ≤ S100000x128.size a := fun v15 k18_hw5 => k18_hw5.1
theorem k18_off14_inb : ∀ (v15 : BitVec 32) (k18_hw5 : k18_chk5 v15), ∀ a, (k18_off14 v15) a + S1x128.size a ≤ S100000x128.size a := fun v15 k18_hw5 => k18_hw5.2

def k18_off15 (v18 : BitVec 32) : Fin 2 → Nat :=
  let c0_i32_55 : BitVec 32 := 0#32
  ![v18.toNat, 0]

def k18_chk6 (v18 : BitVec 32) : Prop :=
  (∀ a, (k18_off7 v18) a + S1x128.size a ≤ S100000x128.size a) ∧
  (∀ a, (k18_off15 v18) a + S1x128.size a ≤ S100000x128.size a)
instance k18_chk6.dec : ∀ (v18 : BitVec 32), Decidable (k18_chk6 v18) := fun v18 => decidable_of_iff' _ (Iff.of_eq (k18_chk6.eq_1 v18))
theorem k18_off7_inb : ∀ (v18 : BitVec 32) (k18_hw6 : k18_chk6 v18), ∀ a, (k18_off7 v18) a + S1x128.size a ≤ S100000x128.size a := fun v18 k18_hw6 => k18_hw6.1
theorem k18_off15_inb : ∀ (v18 : BitVec 32) (k18_hw6 : k18_chk6 v18), ∀ a, (k18_off15 v18) a + S1x128.size a ≤ S100000x128.size a := fun v18 k18_hw6 => k18_hw6.2

def k18_off16 (v21 : BitVec 32) : Fin 2 → Nat :=
  let c0_i32_59 : BitVec 32 := 0#32
  ![v21.toNat, 0]

def k18_chk7 (v21 : BitVec 32) : Prop :=
  (∀ a, (k18_off8 v21) a + S1x128.size a ≤ S100000x128.size a) ∧
  (∀ a, (k18_off16 v21) a + S1x128.size a ≤ S100000x128.size a)
instance k18_chk7.dec : ∀ (v21 : BitVec 32), Decidable (k18_chk7 v21) := fun v21 => decidable_of_iff' _ (Iff.of_eq (k18_chk7.eq_1 v21))
theorem k18_off8_inb : ∀ (v21 : BitVec 32) (k18_hw7 : k18_chk7 v21), ∀ a, (k18_off8 v21) a + S1x128.size a ≤ S100000x128.size a := fun v21 k18_hw7 => k18_hw7.1
theorem k18_off16_inb : ∀ (v21 : BitVec 32) (k18_hw7 : k18_chk7 v21), ∀ a, (k18_off16 v21) a + S1x128.size a ≤ S100000x128.size a := fun v21 k18_hw7 => k18_hw7.2

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S8x1 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S8x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev grid19 : Pipeline.Grid := ⟨1, ![16384], ![false]⟩

abbrev pre19 : Pipeline.Prefetch sig := ⟨1, ![main_v123.idx], fun | 0 => main_v123.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k19_off2 (v3 : BitVec 32) : Fin 2 → Nat :=
  let c0_i32_3 : BitVec 32 := 0#32
  ![v3.toNat, 0]

def k19_off3 (v6 : BitVec 32) : Fin 2 → Nat :=
  let c0_i32_7 : BitVec 32 := 0#32
  ![v6.toNat, 0]

def k19_off4 (v9 : BitVec 32) : Fin 2 → Nat :=
  let c0_i32_11 : BitVec 32 := 0#32
  ![v9.toNat, 0]

def k19_off5 (v12 : BitVec 32) : Fin 2 → Nat :=
  let c0_i32_15 : BitVec 32 := 0#32
  ![v12.toNat, 0]

def k19_off6 (v15 : BitVec 32) : Fin 2 → Nat :=
  let c0_i32_19 : BitVec 32 := 0#32
  ![v15.toNat, 0]

def k19_off7 (v18 : BitVec 32) : Fin 2 → Nat :=
  let c0_i32_23 : BitVec 32 := 0#32
  ![v18.toNat, 0]

def k19_off8 (v21 : BitVec 32) : Fin 2 → Nat :=
  let c0_i32_27 : BitVec 32 := 0#32
  ![v21.toNat, 0]

def k19_off9 (v24 : BitVec 32) : Fin 2 → Nat :=
  let c0_i32_31 : BitVec 32 := 0#32
  ![v24.toNat, 0]

def k19_chk8 (v24 : BitVec 32) : Prop :=
  (∀ a, (k19_off9 v24) a + S1x128.size a ≤ S100000x128.size a)
instance k19_chk8.dec : ∀ (v24 : BitVec 32), Decidable (k19_chk8 v24) := fun v24 => decidable_of_iff' _ (Iff.of_eq (k19_chk8.eq_1 v24))
theorem k19_off9_inb : ∀ (v24 : BitVec 32) (k19_hw8 : k19_chk8 v24), ∀ a, (k19_off9 v24) a + S1x128.size a ≤ S100000x128.size a := fun v24 k19_hw8 => k19_hw8

def k19_off10 (v3 : BitVec 32) : Fin 2 → Nat :=
  let c0_i32_35 : BitVec 32 := 0#32
  ![v3.toNat, 0]

def k19_chk1 (v3 : BitVec 32) : Prop :=
  (∀ a, (k19_off2 v3) a + S1x128.size a ≤ S100000x128.size a) ∧
  (∀ a, (k19_off10 v3) a + S1x128.size a ≤ S100000x128.size a)
instance k19_chk1.dec : ∀ (v3 : BitVec 32), Decidable (k19_chk1 v3) := fun v3 => decidable_of_iff' _ (Iff.of_eq (k19_chk1.eq_1 v3))
theorem k19_off2_inb : ∀ (v3 : BitVec 32) (k19_hw1 : k19_chk1 v3), ∀ a, (k19_off2 v3) a + S1x128.size a ≤ S100000x128.size a := fun v3 k19_hw1 => k19_hw1.1
theorem k19_off10_inb : ∀ (v3 : BitVec 32) (k19_hw1 : k19_chk1 v3), ∀ a, (k19_off10 v3) a + S1x128.size a ≤ S100000x128.size a := fun v3 k19_hw1 => k19_hw1.2

def k19_off11 (v6 : BitVec 32) : Fin 2 → Nat :=
  let c0_i32_39 : BitVec 32 := 0#32
  ![v6.toNat, 0]

def k19_chk2 (v6 : BitVec 32) : Prop :=
  (∀ a, (k19_off3 v6) a + S1x128.size a ≤ S100000x128.size a) ∧
  (∀ a, (k19_off11 v6) a + S1x128.size a ≤ S100000x128.size a)
instance k19_chk2.dec : ∀ (v6 : BitVec 32), Decidable (k19_chk2 v6) := fun v6 => decidable_of_iff' _ (Iff.of_eq (k19_chk2.eq_1 v6))
theorem k19_off3_inb : ∀ (v6 : BitVec 32) (k19_hw2 : k19_chk2 v6), ∀ a, (k19_off3 v6) a + S1x128.size a ≤ S100000x128.size a := fun v6 k19_hw2 => k19_hw2.1
theorem k19_off11_inb : ∀ (v6 : BitVec 32) (k19_hw2 : k19_chk2 v6), ∀ a, (k19_off11 v6) a + S1x128.size a ≤ S100000x128.size a := fun v6 k19_hw2 => k19_hw2.2

def k19_off12 (v9 : BitVec 32) : Fin 2 → Nat :=
  let c0_i32_43 : BitVec 32 := 0#32
  ![v9.toNat, 0]

def k19_chk3 (v9 : BitVec 32) : Prop :=
  (∀ a, (k19_off4 v9) a + S1x128.size a ≤ S100000x128.size a) ∧
  (∀ a, (k19_off12 v9) a + S1x128.size a ≤ S100000x128.size a)
instance k19_chk3.dec : ∀ (v9 : BitVec 32), Decidable (k19_chk3 v9) := fun v9 => decidable_of_iff' _ (Iff.of_eq (k19_chk3.eq_1 v9))
theorem k19_off4_inb : ∀ (v9 : BitVec 32) (k19_hw3 : k19_chk3 v9), ∀ a, (k19_off4 v9) a + S1x128.size a ≤ S100000x128.size a := fun v9 k19_hw3 => k19_hw3.1
theorem k19_off12_inb : ∀ (v9 : BitVec 32) (k19_hw3 : k19_chk3 v9), ∀ a, (k19_off12 v9) a + S1x128.size a ≤ S100000x128.size a := fun v9 k19_hw3 => k19_hw3.2

def k19_off13 (v12 : BitVec 32) : Fin 2 → Nat :=
  let c0_i32_47 : BitVec 32 := 0#32
  ![v12.toNat, 0]

def k19_chk4 (v12 : BitVec 32) : Prop :=
  (∀ a, (k19_off5 v12) a + S1x128.size a ≤ S100000x128.size a) ∧
  (∀ a, (k19_off13 v12) a + S1x128.size a ≤ S100000x128.size a)
instance k19_chk4.dec : ∀ (v12 : BitVec 32), Decidable (k19_chk4 v12) := fun v12 => decidable_of_iff' _ (Iff.of_eq (k19_chk4.eq_1 v12))
theorem k19_off5_inb : ∀ (v12 : BitVec 32) (k19_hw4 : k19_chk4 v12), ∀ a, (k19_off5 v12) a + S1x128.size a ≤ S100000x128.size a := fun v12 k19_hw4 => k19_hw4.1
theorem k19_off13_inb : ∀ (v12 : BitVec 32) (k19_hw4 : k19_chk4 v12), ∀ a, (k19_off13 v12) a + S1x128.size a ≤ S100000x128.size a := fun v12 k19_hw4 => k19_hw4.2

def k19_off14 (v15 : BitVec 32) : Fin 2 → Nat :=
  let c0_i32_51 : BitVec 32 := 0#32
  ![v15.toNat, 0]

def k19_chk5 (v15 : BitVec 32) : Prop :=
  (∀ a, (k19_off6 v15) a + S1x128.size a ≤ S100000x128.size a) ∧
  (∀ a, (k19_off14 v15) a + S1x128.size a ≤ S100000x128.size a)
instance k19_chk5.dec : ∀ (v15 : BitVec 32), Decidable (k19_chk5 v15) := fun v15 => decidable_of_iff' _ (Iff.of_eq (k19_chk5.eq_1 v15))
theorem k19_off6_inb : ∀ (v15 : BitVec 32) (k19_hw5 : k19_chk5 v15), ∀ a, (k19_off6 v15) a + S1x128.size a ≤ S100000x128.size a := fun v15 k19_hw5 => k19_hw5.1
theorem k19_off14_inb : ∀ (v15 : BitVec 32) (k19_hw5 : k19_chk5 v15), ∀ a, (k19_off14 v15) a + S1x128.size a ≤ S100000x128.size a := fun v15 k19_hw5 => k19_hw5.2

def k19_off15 (v18 : BitVec 32) : Fin 2 → Nat :=
  let c0_i32_55 : BitVec 32 := 0#32
  ![v18.toNat, 0]

def k19_chk6 (v18 : BitVec 32) : Prop :=
  (∀ a, (k19_off7 v18) a + S1x128.size a ≤ S100000x128.size a) ∧
  (∀ a, (k19_off15 v18) a + S1x128.size a ≤ S100000x128.size a)
instance k19_chk6.dec : ∀ (v18 : BitVec 32), Decidable (k19_chk6 v18) := fun v18 => decidable_of_iff' _ (Iff.of_eq (k19_chk6.eq_1 v18))
theorem k19_off7_inb : ∀ (v18 : BitVec 32) (k19_hw6 : k19_chk6 v18), ∀ a, (k19_off7 v18) a + S1x128.size a ≤ S100000x128.size a := fun v18 k19_hw6 => k19_hw6.1
theorem k19_off15_inb : ∀ (v18 : BitVec 32) (k19_hw6 : k19_chk6 v18), ∀ a, (k19_off15 v18) a + S1x128.size a ≤ S100000x128.size a := fun v18 k19_hw6 => k19_hw6.2

def k19_off16 (v21 : BitVec 32) : Fin 2 → Nat :=
  let c0_i32_59 : BitVec 32 := 0#32
  ![v21.toNat, 0]

def k19_chk7 (v21 : BitVec 32) : Prop :=
  (∀ a, (k19_off8 v21) a + S1x128.size a ≤ S100000x128.size a) ∧
  (∀ a, (k19_off16 v21) a + S1x128.size a ≤ S100000x128.size a)
instance k19_chk7.dec : ∀ (v21 : BitVec 32), Decidable (k19_chk7 v21) := fun v21 => decidable_of_iff' _ (Iff.of_eq (k19_chk7.eq_1 v21))
theorem k19_off8_inb : ∀ (v21 : BitVec 32) (k19_hw7 : k19_chk7 v21), ∀ a, (k19_off8 v21) a + S1x128.size a ≤ S100000x128.size a := fun v21 k19_hw7 => k19_hw7.1
theorem k19_off16_inb : ∀ (v21 : BitVec 32) (k19_hw7 : k19_chk7 v21), ∀ a, (k19_off16 v21) a + S1x128.size a ≤ S100000x128.size a := fun v21 k19_hw7 => k19_hw7.2

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S8x1 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S8x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev grid20 : Pipeline.Grid := ⟨1, ![16384], ![false]⟩

abbrev pre20 : Pipeline.Prefetch sig := ⟨1, ![main_v126.idx], fun | 0 => main_v126.names | ⟨_ + 1, h⟩ => absurd h (Nat.not_lt.2 (Nat.le_add_left _ _)), fun | 0 => rfl | ⟨_ + 1, h⟩ => absurd h (Nat.not_lt.2 (Nat.le_add_left _ _))⟩

def k20_off1 (i : grid20.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k20_off2 (v3 : BitVec 32) : Fin 2 → Nat :=
  let c0_i32_3 : BitVec 32 := 0#32
  ![v3.toNat, 0]

def k20_off3 (v6 : BitVec 32) : Fin 2 → Nat :=
  let c0_i32_7 : BitVec 32 := 0#32
  ![v6.toNat, 0]

def k20_off4 (v9 : BitVec 32) : Fin 2 → Nat :=
  let c0_i32_11 : BitVec 32 := 0#32
  ![v9.toNat, 0]

def k20_off5 (v12 : BitVec 32) : Fin 2 → Nat :=
  let c0_i32_15 : BitVec 32 := 0#32
  ![v12.toNat, 0]

def k20_off6 (v15 : BitVec 32) : Fin 2 → Nat :=
  let c0_i32_19 : BitVec 32 := 0#32
  ![v15.toNat, 0]

def k20_off7 (v18 : BitVec 32) : Fin 2 → Nat :=
  let c0_i32_23 : BitVec 32 := 0#32
  ![v18.toNat, 0]

def k20_off8 (v21 : BitVec 32) : Fin 2 → Nat :=
  let c0_i32_27 : BitVec 32 := 0#32
  ![v21.toNat, 0]

def k20_off9 (v24 : BitVec 32) : Fin 2 → Nat :=
  let c0_i32_31 : BitVec 32 := 0#32
  ![v24.toNat, 0]

def k20_chk8 (v24 : BitVec 32) : Prop :=
  (∀ a, (k20_off9 v24) a + S1x128.size a ≤ S100000x128.size a)
instance k20_chk8.dec : ∀ (v24 : BitVec 32), Decidable (k20_chk8 v24) := fun v24 => decidable_of_iff' _ (Iff.of_eq (k20_chk8.eq_1 v24))
theorem k20_off9_inb : ∀ (v24 : BitVec 32) (k20_hw8 : k20_chk8 v24), ∀ a, (k20_off9 v24) a + S1x128.size a ≤ S100000x128.size a := fun v24 k20_hw8 => k20_hw8

def k20_off10 (v3 : BitVec 32) : Fin 2 → Nat :=
  let c0_i32_35 : BitVec 32 := 0#32
  ![v3.toNat, 0]

def k20_chk1 (v3 : BitVec 32) : Prop :=
  (∀ a, (k20_off2 v3) a + S1x128.size a ≤ S100000x128.size a) ∧
  (∀ a, (k20_off10 v3) a + S1x128.size a ≤ S100000x128.size a)
instance k20_chk1.dec : ∀ (v3 : BitVec 32), Decidable (k20_chk1 v3) := fun v3 => decidable_of_iff' _ (Iff.of_eq (k20_chk1.eq_1 v3))
theorem k20_off2_inb : ∀ (v3 : BitVec 32) (k20_hw1 : k20_chk1 v3), ∀ a, (k20_off2 v3) a + S1x128.size a ≤ S100000x128.size a := fun v3 k20_hw1 => k20_hw1.1
theorem k20_off10_inb : ∀ (v3 : BitVec 32) (k20_hw1 : k20_chk1 v3), ∀ a, (k20_off10 v3) a + S1x128.size a ≤ S100000x128.size a := fun v3 k20_hw1 => k20_hw1.2

def k20_off11 (v6 : BitVec 32) : Fin 2 → Nat :=
  let c0_i32_39 : BitVec 32 := 0#32
  ![v6.toNat, 0]

def k20_chk2 (v6 : BitVec 32) : Prop :=
  (∀ a, (k20_off3 v6) a + S1x128.size a ≤ S100000x128.size a) ∧
  (∀ a, (k20_off11 v6) a + S1x128.size a ≤ S100000x128.size a)
instance k20_chk2.dec : ∀ (v6 : BitVec 32), Decidable (k20_chk2 v6) := fun v6 => decidable_of_iff' _ (Iff.of_eq (k20_chk2.eq_1 v6))
theorem k20_off3_inb : ∀ (v6 : BitVec 32) (k20_hw2 : k20_chk2 v6), ∀ a, (k20_off3 v6) a + S1x128.size a ≤ S100000x128.size a := fun v6 k20_hw2 => k20_hw2.1
theorem k20_off11_inb : ∀ (v6 : BitVec 32) (k20_hw2 : k20_chk2 v6), ∀ a, (k20_off11 v6) a + S1x128.size a ≤ S100000x128.size a := fun v6 k20_hw2 => k20_hw2.2

def k20_off12 (v9 : BitVec 32) : Fin 2 → Nat :=
  let c0_i32_43 : BitVec 32 := 0#32
  ![v9.toNat, 0]

def k20_chk3 (v9 : BitVec 32) : Prop :=
  (∀ a, (k20_off4 v9) a + S1x128.size a ≤ S100000x128.size a) ∧
  (∀ a, (k20_off12 v9) a + S1x128.size a ≤ S100000x128.size a)
instance k20_chk3.dec : ∀ (v9 : BitVec 32), Decidable (k20_chk3 v9) := fun v9 => decidable_of_iff' _ (Iff.of_eq (k20_chk3.eq_1 v9))
theorem k20_off4_inb : ∀ (v9 : BitVec 32) (k20_hw3 : k20_chk3 v9), ∀ a, (k20_off4 v9) a + S1x128.size a ≤ S100000x128.size a := fun v9 k20_hw3 => k20_hw3.1
theorem k20_off12_inb : ∀ (v9 : BitVec 32) (k20_hw3 : k20_chk3 v9), ∀ a, (k20_off12 v9) a + S1x128.size a ≤ S100000x128.size a := fun v9 k20_hw3 => k20_hw3.2

def k20_off13 (v12 : BitVec 32) : Fin 2 → Nat :=
  let c0_i32_47 : BitVec 32 := 0#32
  ![v12.toNat, 0]

def k20_chk4 (v12 : BitVec 32) : Prop :=
  (∀ a, (k20_off5 v12) a + S1x128.size a ≤ S100000x128.size a) ∧
  (∀ a, (k20_off13 v12) a + S1x128.size a ≤ S100000x128.size a)
instance k20_chk4.dec : ∀ (v12 : BitVec 32), Decidable (k20_chk4 v12) := fun v12 => decidable_of_iff' _ (Iff.of_eq (k20_chk4.eq_1 v12))
theorem k20_off5_inb : ∀ (v12 : BitVec 32) (k20_hw4 : k20_chk4 v12), ∀ a, (k20_off5 v12) a + S1x128.size a ≤ S100000x128.size a := fun v12 k20_hw4 => k20_hw4.1
theorem k20_off13_inb : ∀ (v12 : BitVec 32) (k20_hw4 : k20_chk4 v12), ∀ a, (k20_off13 v12) a + S1x128.size a ≤ S100000x128.size a := fun v12 k20_hw4 => k20_hw4.2

def k20_off14 (v15 : BitVec 32) : Fin 2 → Nat :=
  let c0_i32_51 : BitVec 32 := 0#32
  ![v15.toNat, 0]

def k20_chk5 (v15 : BitVec 32) : Prop :=
  (∀ a, (k20_off6 v15) a + S1x128.size a ≤ S100000x128.size a) ∧
  (∀ a, (k20_off14 v15) a + S1x128.size a ≤ S100000x128.size a)
instance k20_chk5.dec : ∀ (v15 : BitVec 32), Decidable (k20_chk5 v15) := fun v15 => decidable_of_iff' _ (Iff.of_eq (k20_chk5.eq_1 v15))
theorem k20_off6_inb : ∀ (v15 : BitVec 32) (k20_hw5 : k20_chk5 v15), ∀ a, (k20_off6 v15) a + S1x128.size a ≤ S100000x128.size a := fun v15 k20_hw5 => k20_hw5.1
theorem k20_off14_inb : ∀ (v15 : BitVec 32) (k20_hw5 : k20_chk5 v15), ∀ a, (k20_off14 v15) a + S1x128.size a ≤ S100000x128.size a := fun v15 k20_hw5 => k20_hw5.2

def k20_off15 (v18 : BitVec 32) : Fin 2 → Nat :=
  let c0_i32_55 : BitVec 32 := 0#32
  ![v18.toNat, 0]

def k20_chk6 (v18 : BitVec 32) : Prop :=
  (∀ a, (k20_off7 v18) a + S1x128.size a ≤ S100000x128.size a) ∧
  (∀ a, (k20_off15 v18) a + S1x128.size a ≤ S100000x128.size a)
instance k20_chk6.dec : ∀ (v18 : BitVec 32), Decidable (k20_chk6 v18) := fun v18 => decidable_of_iff' _ (Iff.of_eq (k20_chk6.eq_1 v18))
theorem k20_off7_inb : ∀ (v18 : BitVec 32) (k20_hw6 : k20_chk6 v18), ∀ a, (k20_off7 v18) a + S1x128.size a ≤ S100000x128.size a := fun v18 k20_hw6 => k20_hw6.1
theorem k20_off15_inb : ∀ (v18 : BitVec 32) (k20_hw6 : k20_chk6 v18), ∀ a, (k20_off15 v18) a + S1x128.size a ≤ S100000x128.size a := fun v18 k20_hw6 => k20_hw6.2

def k20_off16 (v21 : BitVec 32) : Fin 2 → Nat :=
  let c0_i32_59 : BitVec 32 := 0#32
  ![v21.toNat, 0]

def k20_chk7 (v21 : BitVec 32) : Prop :=
  (∀ a, (k20_off8 v21) a + S1x128.size a ≤ S100000x128.size a) ∧
  (∀ a, (k20_off16 v21) a + S1x128.size a ≤ S100000x128.size a)
instance k20_chk7.dec : ∀ (v21 : BitVec 32), Decidable (k20_chk7 v21) := fun v21 => decidable_of_iff' _ (Iff.of_eq (k20_chk7.eq_1 v21))
theorem k20_off8_inb : ∀ (v21 : BitVec 32) (k20_hw7 : k20_chk7 v21), ∀ a, (k20_off8 v21) a + S1x128.size a ≤ S100000x128.size a := fun v21 k20_hw7 => k20_hw7.1
theorem k20_off16_inb : ∀ (v21 : BitVec 32) (k20_hw7 : k20_chk7 v21), ∀ a, (k20_off16 v21) a + S1x128.size a ≤ S100000x128.size a := fun v21 k20_hw7 => k20_hw7.2

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S8x1 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S8x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev grid21 : Pipeline.Grid := ⟨1, ![16384], ![false]⟩

abbrev pre21 : Pipeline.Prefetch sig := ⟨1, ![main_v143.idx], fun | 0 => main_v143.names | ⟨_ + 1, h⟩ => absurd h (Nat.not_lt.2 (Nat.le_add_left _ _)), fun | 0 => rfl | ⟨_ + 1, h⟩ => absurd h (Nat.not_lt.2 (Nat.le_add_left _ _))⟩

def k21_off1 (i : grid21.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k21_off2 (v3 : BitVec 32) : Fin 2 → Nat :=
  let c0_i32_3 : BitVec 32 := 0#32
  ![v3.toNat, 0]

def k21_off3 (v6 : BitVec 32) : Fin 2 → Nat :=
  let c0_i32_7 : BitVec 32 := 0#32
  ![v6.toNat, 0]

def k21_off4 (v9 : BitVec 32) : Fin 2 → Nat :=
  let c0_i32_11 : BitVec 32 := 0#32
  ![v9.toNat, 0]

def k21_off5 (v12 : BitVec 32) : Fin 2 → Nat :=
  let c0_i32_15 : BitVec 32 := 0#32
  ![v12.toNat, 0]

def k21_off6 (v15 : BitVec 32) : Fin 2 → Nat :=
  let c0_i32_19 : BitVec 32 := 0#32
  ![v15.toNat, 0]

def k21_off7 (v18 : BitVec 32) : Fin 2 → Nat :=
  let c0_i32_23 : BitVec 32 := 0#32
  ![v18.toNat, 0]

def k21_off8 (v21 : BitVec 32) : Fin 2 → Nat :=
  let c0_i32_27 : BitVec 32 := 0#32
  ![v21.toNat, 0]

def k21_off9 (v24 : BitVec 32) : Fin 2 → Nat :=
  let c0_i32_31 : BitVec 32 := 0#32
  ![v24.toNat, 0]

def k21_chk8 (v24 : BitVec 32) : Prop :=
  (∀ a, (k21_off9 v24) a + S1x128.size a ≤ S100000x128.size a)
instance k21_chk8.dec : ∀ (v24 : BitVec 32), Decidable (k21_chk8 v24) := fun v24 => decidable_of_iff' _ (Iff.of_eq (k21_chk8.eq_1 v24))
theorem k21_off9_inb : ∀ (v24 : BitVec 32) (k21_hw8 : k21_chk8 v24), ∀ a, (k21_off9 v24) a + S1x128.size a ≤ S100000x128.size a := fun v24 k21_hw8 => k21_hw8

def k21_off10 (v3 : BitVec 32) : Fin 2 → Nat :=
  let c0_i32_35 : BitVec 32 := 0#32
  ![v3.toNat, 0]

def k21_chk1 (v3 : BitVec 32) : Prop :=
  (∀ a, (k21_off2 v3) a + S1x128.size a ≤ S100000x128.size a) ∧
  (∀ a, (k21_off10 v3) a + S1x128.size a ≤ S100000x128.size a)
instance k21_chk1.dec : ∀ (v3 : BitVec 32), Decidable (k21_chk1 v3) := fun v3 => decidable_of_iff' _ (Iff.of_eq (k21_chk1.eq_1 v3))
theorem k21_off2_inb : ∀ (v3 : BitVec 32) (k21_hw1 : k21_chk1 v3), ∀ a, (k21_off2 v3) a + S1x128.size a ≤ S100000x128.size a := fun v3 k21_hw1 => k21_hw1.1
theorem k21_off10_inb : ∀ (v3 : BitVec 32) (k21_hw1 : k21_chk1 v3), ∀ a, (k21_off10 v3) a + S1x128.size a ≤ S100000x128.size a := fun v3 k21_hw1 => k21_hw1.2

def k21_off11 (v6 : BitVec 32) : Fin 2 → Nat :=
  let c0_i32_39 : BitVec 32 := 0#32
  ![v6.toNat, 0]

def k21_chk2 (v6 : BitVec 32) : Prop :=
  (∀ a, (k21_off3 v6) a + S1x128.size a ≤ S100000x128.size a) ∧
  (∀ a, (k21_off11 v6) a + S1x128.size a ≤ S100000x128.size a)
instance k21_chk2.dec : ∀ (v6 : BitVec 32), Decidable (k21_chk2 v6) := fun v6 => decidable_of_iff' _ (Iff.of_eq (k21_chk2.eq_1 v6))
theorem k21_off3_inb : ∀ (v6 : BitVec 32) (k21_hw2 : k21_chk2 v6), ∀ a, (k21_off3 v6) a + S1x128.size a ≤ S100000x128.size a := fun v6 k21_hw2 => k21_hw2.1
theorem k21_off11_inb : ∀ (v6 : BitVec 32) (k21_hw2 : k21_chk2 v6), ∀ a, (k21_off11 v6) a + S1x128.size a ≤ S100000x128.size a := fun v6 k21_hw2 => k21_hw2.2

def k21_off12 (v9 : BitVec 32) : Fin 2 → Nat :=
  let c0_i32_43 : BitVec 32 := 0#32
  ![v9.toNat, 0]

def k21_chk3 (v9 : BitVec 32) : Prop :=
  (∀ a, (k21_off4 v9) a + S1x128.size a ≤ S100000x128.size a) ∧
  (∀ a, (k21_off12 v9) a + S1x128.size a ≤ S100000x128.size a)
instance k21_chk3.dec : ∀ (v9 : BitVec 32), Decidable (k21_chk3 v9) := fun v9 => decidable_of_iff' _ (Iff.of_eq (k21_chk3.eq_1 v9))
theorem k21_off4_inb : ∀ (v9 : BitVec 32) (k21_hw3 : k21_chk3 v9), ∀ a, (k21_off4 v9) a + S1x128.size a ≤ S100000x128.size a := fun v9 k21_hw3 => k21_hw3.1
theorem k21_off12_inb : ∀ (v9 : BitVec 32) (k21_hw3 : k21_chk3 v9), ∀ a, (k21_off12 v9) a + S1x128.size a ≤ S100000x128.size a := fun v9 k21_hw3 => k21_hw3.2

def k21_off13 (v12 : BitVec 32) : Fin 2 → Nat :=
  let c0_i32_47 : BitVec 32 := 0#32
  ![v12.toNat, 0]

def k21_chk4 (v12 : BitVec 32) : Prop :=
  (∀ a, (k21_off5 v12) a + S1x128.size a ≤ S100000x128.size a) ∧
  (∀ a, (k21_off13 v12) a + S1x128.size a ≤ S100000x128.size a)
instance k21_chk4.dec : ∀ (v12 : BitVec 32), Decidable (k21_chk4 v12) := fun v12 => decidable_of_iff' _ (Iff.of_eq (k21_chk4.eq_1 v12))
theorem k21_off5_inb : ∀ (v12 : BitVec 32) (k21_hw4 : k21_chk4 v12), ∀ a, (k21_off5 v12) a + S1x128.size a ≤ S100000x128.size a := fun v12 k21_hw4 => k21_hw4.1
theorem k21_off13_inb : ∀ (v12 : BitVec 32) (k21_hw4 : k21_chk4 v12), ∀ a, (k21_off13 v12) a + S1x128.size a ≤ S100000x128.size a := fun v12 k21_hw4 => k21_hw4.2

def k21_off14 (v15 : BitVec 32) : Fin 2 → Nat :=
  let c0_i32_51 : BitVec 32 := 0#32
  ![v15.toNat, 0]

def k21_chk5 (v15 : BitVec 32) : Prop :=
  (∀ a, (k21_off6 v15) a + S1x128.size a ≤ S100000x128.size a) ∧
  (∀ a, (k21_off14 v15) a + S1x128.size a ≤ S100000x128.size a)
instance k21_chk5.dec : ∀ (v15 : BitVec 32), Decidable (k21_chk5 v15) := fun v15 => decidable_of_iff' _ (Iff.of_eq (k21_chk5.eq_1 v15))
theorem k21_off6_inb : ∀ (v15 : BitVec 32) (k21_hw5 : k21_chk5 v15), ∀ a, (k21_off6 v15) a + S1x128.size a ≤ S100000x128.size a := fun v15 k21_hw5 => k21_hw5.1
theorem k21_off14_inb : ∀ (v15 : BitVec 32) (k21_hw5 : k21_chk5 v15), ∀ a, (k21_off14 v15) a + S1x128.size a ≤ S100000x128.size a := fun v15 k21_hw5 => k21_hw5.2

def k21_off15 (v18 : BitVec 32) : Fin 2 → Nat :=
  let c0_i32_55 : BitVec 32 := 0#32
  ![v18.toNat, 0]

def k21_chk6 (v18 : BitVec 32) : Prop :=
  (∀ a, (k21_off7 v18) a + S1x128.size a ≤ S100000x128.size a) ∧
  (∀ a, (k21_off15 v18) a + S1x128.size a ≤ S100000x128.size a)
instance k21_chk6.dec : ∀ (v18 : BitVec 32), Decidable (k21_chk6 v18) := fun v18 => decidable_of_iff' _ (Iff.of_eq (k21_chk6.eq_1 v18))
theorem k21_off7_inb : ∀ (v18 : BitVec 32) (k21_hw6 : k21_chk6 v18), ∀ a, (k21_off7 v18) a + S1x128.size a ≤ S100000x128.size a := fun v18 k21_hw6 => k21_hw6.1
theorem k21_off15_inb : ∀ (v18 : BitVec 32) (k21_hw6 : k21_chk6 v18), ∀ a, (k21_off15 v18) a + S1x128.size a ≤ S100000x128.size a := fun v18 k21_hw6 => k21_hw6.2

def k21_off16 (v21 : BitVec 32) : Fin 2 → Nat :=
  let c0_i32_59 : BitVec 32 := 0#32
  ![v21.toNat, 0]

def k21_chk7 (v21 : BitVec 32) : Prop :=
  (∀ a, (k21_off8 v21) a + S1x128.size a ≤ S100000x128.size a) ∧
  (∀ a, (k21_off16 v21) a + S1x128.size a ≤ S100000x128.size a)
instance k21_chk7.dec : ∀ (v21 : BitVec 32), Decidable (k21_chk7 v21) := fun v21 => decidable_of_iff' _ (Iff.of_eq (k21_chk7.eq_1 v21))
theorem k21_off8_inb : ∀ (v21 : BitVec 32) (k21_hw7 : k21_chk7 v21), ∀ a, (k21_off8 v21) a + S1x128.size a ≤ S100000x128.size a := fun v21 k21_hw7 => k21_hw7.1
theorem k21_off16_inb : ∀ (v21 : BitVec 32) (k21_hw7 : k21_chk7 v21), ∀ a, (k21_off16 v21) a + S1x128.size a ≤ S100000x128.size a := fun v21 k21_hw7 => k21_hw7.2

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S8x1 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S8x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev grid22 : Pipeline.Grid := ⟨1, ![16384], ![false]⟩

abbrev pre22 : Pipeline.Prefetch sig := ⟨1, ![main_v146.idx], fun | 0 => main_v146.names | ⟨_ + 1, h⟩ => absurd h (Nat.not_lt.2 (Nat.le_add_left _ _)), fun | 0 => rfl | ⟨_ + 1, h⟩ => absurd h (Nat.not_lt.2 (Nat.le_add_left _ _))⟩

def k22_off1 (i : grid22.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k22_off2 (v3 : BitVec 32) : Fin 2 → Nat :=
  let c0_i32_3 : BitVec 32 := 0#32
  ![v3.toNat, 0]

def k22_off3 (v6 : BitVec 32) : Fin 2 → Nat :=
  let c0_i32_7 : BitVec 32 := 0#32
  ![v6.toNat, 0]

def k22_off4 (v9 : BitVec 32) : Fin 2 → Nat :=
  let c0_i32_11 : BitVec 32 := 0#32
  ![v9.toNat, 0]

def k22_off5 (v12 : BitVec 32) : Fin 2 → Nat :=
  let c0_i32_15 : BitVec 32 := 0#32
  ![v12.toNat, 0]

def k22_off6 (v15 : BitVec 32) : Fin 2 → Nat :=
  let c0_i32_19 : BitVec 32 := 0#32
  ![v15.toNat, 0]

def k22_off7 (v18 : BitVec 32) : Fin 2 → Nat :=
  let c0_i32_23 : BitVec 32 := 0#32
  ![v18.toNat, 0]

def k22_off8 (v21 : BitVec 32) : Fin 2 → Nat :=
  let c0_i32_27 : BitVec 32 := 0#32
  ![v21.toNat, 0]

def k22_off9 (v24 : BitVec 32) : Fin 2 → Nat :=
  let c0_i32_31 : BitVec 32 := 0#32
  ![v24.toNat, 0]

def k22_chk8 (v24 : BitVec 32) : Prop :=
  (∀ a, (k22_off9 v24) a + S1x128.size a ≤ S100000x128.size a)
instance k22_chk8.dec : ∀ (v24 : BitVec 32), Decidable (k22_chk8 v24) := fun v24 => decidable_of_iff' _ (Iff.of_eq (k22_chk8.eq_1 v24))
theorem k22_off9_inb : ∀ (v24 : BitVec 32) (k22_hw8 : k22_chk8 v24), ∀ a, (k22_off9 v24) a + S1x128.size a ≤ S100000x128.size a := fun v24 k22_hw8 => k22_hw8

def k22_off10 (v3 : BitVec 32) : Fin 2 → Nat :=
  let c0_i32_35 : BitVec 32 := 0#32
  ![v3.toNat, 0]

def k22_chk1 (v3 : BitVec 32) : Prop :=
  (∀ a, (k22_off2 v3) a + S1x128.size a ≤ S100000x128.size a) ∧
  (∀ a, (k22_off10 v3) a + S1x128.size a ≤ S100000x128.size a)
instance k22_chk1.dec : ∀ (v3 : BitVec 32), Decidable (k22_chk1 v3) := fun v3 => decidable_of_iff' _ (Iff.of_eq (k22_chk1.eq_1 v3))
theorem k22_off2_inb : ∀ (v3 : BitVec 32) (k22_hw1 : k22_chk1 v3), ∀ a, (k22_off2 v3) a + S1x128.size a ≤ S100000x128.size a := fun v3 k22_hw1 => k22_hw1.1
theorem k22_off10_inb : ∀ (v3 : BitVec 32) (k22_hw1 : k22_chk1 v3), ∀ a, (k22_off10 v3) a + S1x128.size a ≤ S100000x128.size a := fun v3 k22_hw1 => k22_hw1.2

def k22_off11 (v6 : BitVec 32) : Fin 2 → Nat :=
  let c0_i32_39 : BitVec 32 := 0#32
  ![v6.toNat, 0]

def k22_chk2 (v6 : BitVec 32) : Prop :=
  (∀ a, (k22_off3 v6) a + S1x128.size a ≤ S100000x128.size a) ∧
  (∀ a, (k22_off11 v6) a + S1x128.size a ≤ S100000x128.size a)
instance k22_chk2.dec : ∀ (v6 : BitVec 32), Decidable (k22_chk2 v6) := fun v6 => decidable_of_iff' _ (Iff.of_eq (k22_chk2.eq_1 v6))
theorem k22_off3_inb : ∀ (v6 : BitVec 32) (k22_hw2 : k22_chk2 v6), ∀ a, (k22_off3 v6) a + S1x128.size a ≤ S100000x128.size a := fun v6 k22_hw2 => k22_hw2.1
theorem k22_off11_inb : ∀ (v6 : BitVec 32) (k22_hw2 : k22_chk2 v6), ∀ a, (k22_off11 v6) a + S1x128.size a ≤ S100000x128.size a := fun v6 k22_hw2 => k22_hw2.2

def k22_off12 (v9 : BitVec 32) : Fin 2 → Nat :=
  let c0_i32_43 : BitVec 32 := 0#32
  ![v9.toNat, 0]

def k22_chk3 (v9 : BitVec 32) : Prop :=
  (∀ a, (k22_off4 v9) a + S1x128.size a ≤ S100000x128.size a) ∧
  (∀ a, (k22_off12 v9) a + S1x128.size a ≤ S100000x128.size a)
instance k22_chk3.dec : ∀ (v9 : BitVec 32), Decidable (k22_chk3 v9) := fun v9 => decidable_of_iff' _ (Iff.of_eq (k22_chk3.eq_1 v9))
theorem k22_off4_inb : ∀ (v9 : BitVec 32) (k22_hw3 : k22_chk3 v9), ∀ a, (k22_off4 v9) a + S1x128.size a ≤ S100000x128.size a := fun v9 k22_hw3 => k22_hw3.1
theorem k22_off12_inb : ∀ (v9 : BitVec 32) (k22_hw3 : k22_chk3 v9), ∀ a, (k22_off12 v9) a + S1x128.size a ≤ S100000x128.size a := fun v9 k22_hw3 => k22_hw3.2

def k22_off13 (v12 : BitVec 32) : Fin 2 → Nat :=
  let c0_i32_47 : BitVec 32 := 0#32
  ![v12.toNat, 0]

def k22_chk4 (v12 : BitVec 32) : Prop :=
  (∀ a, (k22_off5 v12) a + S1x128.size a ≤ S100000x128.size a) ∧
  (∀ a, (k22_off13 v12) a + S1x128.size a ≤ S100000x128.size a)
instance k22_chk4.dec : ∀ (v12 : BitVec 32), Decidable (k22_chk4 v12) := fun v12 => decidable_of_iff' _ (Iff.of_eq (k22_chk4.eq_1 v12))
theorem k22_off5_inb : ∀ (v12 : BitVec 32) (k22_hw4 : k22_chk4 v12), ∀ a, (k22_off5 v12) a + S1x128.size a ≤ S100000x128.size a := fun v12 k22_hw4 => k22_hw4.1
theorem k22_off13_inb : ∀ (v12 : BitVec 32) (k22_hw4 : k22_chk4 v12), ∀ a, (k22_off13 v12) a + S1x128.size a ≤ S100000x128.size a := fun v12 k22_hw4 => k22_hw4.2

def k22_off14 (v15 : BitVec 32) : Fin 2 → Nat :=
  let c0_i32_51 : BitVec 32 := 0#32
  ![v15.toNat, 0]

def k22_chk5 (v15 : BitVec 32) : Prop :=
  (∀ a, (k22_off6 v15) a + S1x128.size a ≤ S100000x128.size a) ∧
  (∀ a, (k22_off14 v15) a + S1x128.size a ≤ S100000x128.size a)
instance k22_chk5.dec : ∀ (v15 : BitVec 32), Decidable (k22_chk5 v15) := fun v15 => decidable_of_iff' _ (Iff.of_eq (k22_chk5.eq_1 v15))
theorem k22_off6_inb : ∀ (v15 : BitVec 32) (k22_hw5 : k22_chk5 v15), ∀ a, (k22_off6 v15) a + S1x128.size a ≤ S100000x128.size a := fun v15 k22_hw5 => k22_hw5.1
theorem k22_off14_inb : ∀ (v15 : BitVec 32) (k22_hw5 : k22_chk5 v15), ∀ a, (k22_off14 v15) a + S1x128.size a ≤ S100000x128.size a := fun v15 k22_hw5 => k22_hw5.2

def k22_off15 (v18 : BitVec 32) : Fin 2 → Nat :=
  let c0_i32_55 : BitVec 32 := 0#32
  ![v18.toNat, 0]

def k22_chk6 (v18 : BitVec 32) : Prop :=
  (∀ a, (k22_off7 v18) a + S1x128.size a ≤ S100000x128.size a) ∧
  (∀ a, (k22_off15 v18) a + S1x128.size a ≤ S100000x128.size a)
instance k22_chk6.dec : ∀ (v18 : BitVec 32), Decidable (k22_chk6 v18) := fun v18 => decidable_of_iff' _ (Iff.of_eq (k22_chk6.eq_1 v18))
theorem k22_off7_inb : ∀ (v18 : BitVec 32) (k22_hw6 : k22_chk6 v18), ∀ a, (k22_off7 v18) a + S1x128.size a ≤ S100000x128.size a := fun v18 k22_hw6 => k22_hw6.1
theorem k22_off15_inb : ∀ (v18 : BitVec 32) (k22_hw6 : k22_chk6 v18), ∀ a, (k22_off15 v18) a + S1x128.size a ≤ S100000x128.size a := fun v18 k22_hw6 => k22_hw6.2

def k22_off16 (v21 : BitVec 32) : Fin 2 → Nat :=
  let c0_i32_59 : BitVec 32 := 0#32
  ![v21.toNat, 0]

def k22_chk7 (v21 : BitVec 32) : Prop :=
  (∀ a, (k22_off8 v21) a + S1x128.size a ≤ S100000x128.size a) ∧
  (∀ a, (k22_off16 v21) a + S1x128.size a ≤ S100000x128.size a)
instance k22_chk7.dec : ∀ (v21 : BitVec 32), Decidable (k22_chk7 v21) := fun v21 => decidable_of_iff' _ (Iff.of_eq (k22_chk7.eq_1 v21))
theorem k22_off8_inb : ∀ (v21 : BitVec 32) (k22_hw7 : k22_chk7 v21), ∀ a, (k22_off8 v21) a + S1x128.size a ≤ S100000x128.size a := fun v21 k22_hw7 => k22_hw7.1
theorem k22_off16_inb : ∀ (v21 : BitVec 32) (k22_hw7 : k22_chk7 v21), ∀ a, (k22_off16 v21) a + S1x128.size a ≤ S100000x128.size a := fun v21 k22_hw7 => k22_hw7.2

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S8x1 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S8x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev grid23 : Pipeline.Grid := ⟨1, ![16384], ![false]⟩

abbrev pre23 : Pipeline.Prefetch sig := ⟨1, ![main_v149.idx], fun | 0 => main_v149.names | ⟨_ + 1, h⟩ => absurd h (Nat.not_lt.2 (Nat.le_add_left _ _)), fun | 0 => rfl | ⟨_ + 1, h⟩ => absurd h (Nat.not_lt.2 (Nat.le_add_left _ _))⟩

def k23_off1 (i : grid23.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k23_off2 (v3 : BitVec 32) : Fin 2 → Nat :=
  let c0_i32_3 : BitVec 32 := 0#32
  ![v3.toNat, 0]

def k23_off3 (v6 : BitVec 32) : Fin 2 → Nat :=
  let c0_i32_7 : BitVec 32 := 0#32
  ![v6.toNat, 0]

def k23_off4 (v9 : BitVec 32) : Fin 2 → Nat :=
  let c0_i32_11 : BitVec 32 := 0#32
  ![v9.toNat, 0]

def k23_off5 (v12 : BitVec 32) : Fin 2 → Nat :=
  let c0_i32_15 : BitVec 32 := 0#32
  ![v12.toNat, 0]

def k23_off6 (v15 : BitVec 32) : Fin 2 → Nat :=
  let c0_i32_19 : BitVec 32 := 0#32
  ![v15.toNat, 0]

def k23_off7 (v18 : BitVec 32) : Fin 2 → Nat :=
  let c0_i32_23 : BitVec 32 := 0#32
  ![v18.toNat, 0]

def k23_off8 (v21 : BitVec 32) : Fin 2 → Nat :=
  let c0_i32_27 : BitVec 32 := 0#32
  ![v21.toNat, 0]

def k23_off9 (v24 : BitVec 32) : Fin 2 → Nat :=
  let c0_i32_31 : BitVec 32 := 0#32
  ![v24.toNat, 0]

def k23_chk8 (v24 : BitVec 32) : Prop :=
  (∀ a, (k23_off9 v24) a + S1x128.size a ≤ S100000x128.size a)
instance k23_chk8.dec : ∀ (v24 : BitVec 32), Decidable (k23_chk8 v24) := fun v24 => decidable_of_iff' _ (Iff.of_eq (k23_chk8.eq_1 v24))
theorem k23_off9_inb : ∀ (v24 : BitVec 32) (k23_hw8 : k23_chk8 v24), ∀ a, (k23_off9 v24) a + S1x128.size a ≤ S100000x128.size a := fun v24 k23_hw8 => k23_hw8

def k23_off10 (v3 : BitVec 32) : Fin 2 → Nat :=
  let c0_i32_35 : BitVec 32 := 0#32
  ![v3.toNat, 0]

def k23_chk1 (v3 : BitVec 32) : Prop :=
  (∀ a, (k23_off2 v3) a + S1x128.size a ≤ S100000x128.size a) ∧
  (∀ a, (k23_off10 v3) a + S1x128.size a ≤ S100000x128.size a)
instance k23_chk1.dec : ∀ (v3 : BitVec 32), Decidable (k23_chk1 v3) := fun v3 => decidable_of_iff' _ (Iff.of_eq (k23_chk1.eq_1 v3))
theorem k23_off2_inb : ∀ (v3 : BitVec 32) (k23_hw1 : k23_chk1 v3), ∀ a, (k23_off2 v3) a + S1x128.size a ≤ S100000x128.size a := fun v3 k23_hw1 => k23_hw1.1
theorem k23_off10_inb : ∀ (v3 : BitVec 32) (k23_hw1 : k23_chk1 v3), ∀ a, (k23_off10 v3) a + S1x128.size a ≤ S100000x128.size a := fun v3 k23_hw1 => k23_hw1.2

def k23_off11 (v6 : BitVec 32) : Fin 2 → Nat :=
  let c0_i32_39 : BitVec 32 := 0#32
  ![v6.toNat, 0]

def k23_chk2 (v6 : BitVec 32) : Prop :=
  (∀ a, (k23_off3 v6) a + S1x128.size a ≤ S100000x128.size a) ∧
  (∀ a, (k23_off11 v6) a + S1x128.size a ≤ S100000x128.size a)
instance k23_chk2.dec : ∀ (v6 : BitVec 32), Decidable (k23_chk2 v6) := fun v6 => decidable_of_iff' _ (Iff.of_eq (k23_chk2.eq_1 v6))
theorem k23_off3_inb : ∀ (v6 : BitVec 32) (k23_hw2 : k23_chk2 v6), ∀ a, (k23_off3 v6) a + S1x128.size a ≤ S100000x128.size a := fun v6 k23_hw2 => k23_hw2.1
theorem k23_off11_inb : ∀ (v6 : BitVec 32) (k23_hw2 : k23_chk2 v6), ∀ a, (k23_off11 v6) a + S1x128.size a ≤ S100000x128.size a := fun v6 k23_hw2 => k23_hw2.2

def k23_off12 (v9 : BitVec 32) : Fin 2 → Nat :=
  let c0_i32_43 : BitVec 32 := 0#32
  ![v9.toNat, 0]

def k23_chk3 (v9 : BitVec 32) : Prop :=
  (∀ a, (k23_off4 v9) a + S1x128.size a ≤ S100000x128.size a) ∧
  (∀ a, (k23_off12 v9) a + S1x128.size a ≤ S100000x128.size a)
instance k23_chk3.dec : ∀ (v9 : BitVec 32), Decidable (k23_chk3 v9) := fun v9 => decidable_of_iff' _ (Iff.of_eq (k23_chk3.eq_1 v9))
theorem k23_off4_inb : ∀ (v9 : BitVec 32) (k23_hw3 : k23_chk3 v9), ∀ a, (k23_off4 v9) a + S1x128.size a ≤ S100000x128.size a := fun v9 k23_hw3 => k23_hw3.1
theorem k23_off12_inb : ∀ (v9 : BitVec 32) (k23_hw3 : k23_chk3 v9), ∀ a, (k23_off12 v9) a + S1x128.size a ≤ S100000x128.size a := fun v9 k23_hw3 => k23_hw3.2

def k23_off13 (v12 : BitVec 32) : Fin 2 → Nat :=
  let c0_i32_47 : BitVec 32 := 0#32
  ![v12.toNat, 0]

def k23_chk4 (v12 : BitVec 32) : Prop :=
  (∀ a, (k23_off5 v12) a + S1x128.size a ≤ S100000x128.size a) ∧
  (∀ a, (k23_off13 v12) a + S1x128.size a ≤ S100000x128.size a)
instance k23_chk4.dec : ∀ (v12 : BitVec 32), Decidable (k23_chk4 v12) := fun v12 => decidable_of_iff' _ (Iff.of_eq (k23_chk4.eq_1 v12))
theorem k23_off5_inb : ∀ (v12 : BitVec 32) (k23_hw4 : k23_chk4 v12), ∀ a, (k23_off5 v12) a + S1x128.size a ≤ S100000x128.size a := fun v12 k23_hw4 => k23_hw4.1
theorem k23_off13_inb : ∀ (v12 : BitVec 32) (k23_hw4 : k23_chk4 v12), ∀ a, (k23_off13 v12) a + S1x128.size a ≤ S100000x128.size a := fun v12 k23_hw4 => k23_hw4.2

def k23_off14 (v15 : BitVec 32) : Fin 2 → Nat :=
  let c0_i32_51 : BitVec 32 := 0#32
  ![v15.toNat, 0]

def k23_chk5 (v15 : BitVec 32) : Prop :=
  (∀ a, (k23_off6 v15) a + S1x128.size a ≤ S100000x128.size a) ∧
  (∀ a, (k23_off14 v15) a + S1x128.size a ≤ S100000x128.size a)
instance k23_chk5.dec : ∀ (v15 : BitVec 32), Decidable (k23_chk5 v15) := fun v15 => decidable_of_iff' _ (Iff.of_eq (k23_chk5.eq_1 v15))
theorem k23_off6_inb : ∀ (v15 : BitVec 32) (k23_hw5 : k23_chk5 v15), ∀ a, (k23_off6 v15) a + S1x128.size a ≤ S100000x128.size a := fun v15 k23_hw5 => k23_hw5.1
theorem k23_off14_inb : ∀ (v15 : BitVec 32) (k23_hw5 : k23_chk5 v15), ∀ a, (k23_off14 v15) a + S1x128.size a ≤ S100000x128.size a := fun v15 k23_hw5 => k23_hw5.2

def k23_off15 (v18 : BitVec 32) : Fin 2 → Nat :=
  let c0_i32_55 : BitVec 32 := 0#32
  ![v18.toNat, 0]

def k23_chk6 (v18 : BitVec 32) : Prop :=
  (∀ a, (k23_off7 v18) a + S1x128.size a ≤ S100000x128.size a) ∧
  (∀ a, (k23_off15 v18) a + S1x128.size a ≤ S100000x128.size a)
instance k23_chk6.dec : ∀ (v18 : BitVec 32), Decidable (k23_chk6 v18) := fun v18 => decidable_of_iff' _ (Iff.of_eq (k23_chk6.eq_1 v18))
theorem k23_off7_inb : ∀ (v18 : BitVec 32) (k23_hw6 : k23_chk6 v18), ∀ a, (k23_off7 v18) a + S1x128.size a ≤ S100000x128.size a := fun v18 k23_hw6 => k23_hw6.1
theorem k23_off15_inb : ∀ (v18 : BitVec 32) (k23_hw6 : k23_chk6 v18), ∀ a, (k23_off15 v18) a + S1x128.size a ≤ S100000x128.size a := fun v18 k23_hw6 => k23_hw6.2

def k23_off16 (v21 : BitVec 32) : Fin 2 → Nat :=
  let c0_i32_59 : BitVec 32 := 0#32
  ![v21.toNat, 0]

def k23_chk7 (v21 : BitVec 32) : Prop :=
  (∀ a, (k23_off8 v21) a + S1x128.size a ≤ S100000x128.size a) ∧
  (∀ a, (k23_off16 v21) a + S1x128.size a ≤ S100000x128.size a)
instance k23_chk7.dec : ∀ (v21 : BitVec 32), Decidable (k23_chk7 v21) := fun v21 => decidable_of_iff' _ (Iff.of_eq (k23_chk7.eq_1 v21))
theorem k23_off8_inb : ∀ (v21 : BitVec 32) (k23_hw7 : k23_chk7 v21), ∀ a, (k23_off8 v21) a + S1x128.size a ≤ S100000x128.size a := fun v21 k23_hw7 => k23_hw7.1
theorem k23_off16_inb : ∀ (v21 : BitVec 32) (k23_hw7 : k23_chk7 v21), ∀ a, (k23_off16 v21) a + S1x128.size a ≤ S100000x128.size a := fun v21 k23_hw7 => k23_hw7.2

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S8x1 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S8x128 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev grid24 : Pipeline.Grid := ⟨1, ![16384], ![false]⟩

abbrev pre24 : Pipeline.Prefetch sig := ⟨1, ![main_v152.idx], fun | 0 => main_v152.names | ⟨_ + 1, h⟩ => absurd h (Nat.not_lt.2 (Nat.le_add_left _ _)), fun | 0 => rfl | ⟨_ + 1, h⟩ => absurd h (Nat.not_lt.2 (Nat.le_add_left _ _))⟩

def k24_off1 (i : grid24.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k24_off2 (v3 : BitVec 32) : Fin 2 → Nat :=
  let c0_i32_3 : BitVec 32 := 0#32
  ![v3.toNat, 0]

def k24_off3 (v6 : BitVec 32) : Fin 2 → Nat :=
  let c0_i32_7 : BitVec 32 := 0#32
  ![v6.toNat, 0]

def k24_off4 (v9 : BitVec 32) : Fin 2 → Nat :=
  let c0_i32_11 : BitVec 32 := 0#32
  ![v9.toNat, 0]

def k24_off5 (v12 : BitVec 32) : Fin 2 → Nat :=
  let c0_i32_15 : BitVec 32 := 0#32
  ![v12.toNat, 0]

def k24_off6 (v15 : BitVec 32) : Fin 2 → Nat :=
  let c0_i32_19 : BitVec 32 := 0#32
  ![v15.toNat, 0]

def k24_off7 (v18 : BitVec 32) : Fin 2 → Nat :=
  let c0_i32_23 : BitVec 32 := 0#32
  ![v18.toNat, 0]

def k24_off8 (v21 : BitVec 32) : Fin 2 → Nat :=
  let c0_i32_27 : BitVec 32 := 0#32
  ![v21.toNat, 0]

def k24_off9 (v24 : BitVec 32) : Fin 2 → Nat :=
  let c0_i32_31 : BitVec 32 := 0#32
  ![v24.toNat, 0]

def k24_chk8 (v24 : BitVec 32) : Prop :=
  (∀ a, (k24_off9 v24) a + S1x128.size a ≤ S100000x128.size a)
instance k24_chk8.dec : ∀ (v24 : BitVec 32), Decidable (k24_chk8 v24) := fun v24 => decidable_of_iff' _ (Iff.of_eq (k24_chk8.eq_1 v24))
theorem k24_off9_inb : ∀ (v24 : BitVec 32) (k24_hw8 : k24_chk8 v24), ∀ a, (k24_off9 v24) a + S1x128.size a ≤ S100000x128.size a := fun v24 k24_hw8 => k24_hw8

def k24_off10 (v3 : BitVec 32) : Fin 2 → Nat :=
  let c0_i32_35 : BitVec 32 := 0#32
  ![v3.toNat, 0]

def k24_chk1 (v3 : BitVec 32) : Prop :=
  (∀ a, (k24_off2 v3) a + S1x128.size a ≤ S100000x128.size a) ∧
  (∀ a, (k24_off10 v3) a + S1x128.size a ≤ S100000x128.size a)
instance k24_chk1.dec : ∀ (v3 : BitVec 32), Decidable (k24_chk1 v3) := fun v3 => decidable_of_iff' _ (Iff.of_eq (k24_chk1.eq_1 v3))
theorem k24_off2_inb : ∀ (v3 : BitVec 32) (k24_hw1 : k24_chk1 v3), ∀ a, (k24_off2 v3) a + S1x128.size a ≤ S100000x128.size a := fun v3 k24_hw1 => k24_hw1.1
theorem k24_off10_inb : ∀ (v3 : BitVec 32) (k24_hw1 : k24_chk1 v3), ∀ a, (k24_off10 v3) a + S1x128.size a ≤ S100000x128.size a := fun v3 k24_hw1 => k24_hw1.2

def k24_off11 (v6 : BitVec 32) : Fin 2 → Nat :=
  let c0_i32_39 : BitVec 32 := 0#32
  ![v6.toNat, 0]

def k24_chk2 (v6 : BitVec 32) : Prop :=
  (∀ a, (k24_off3 v6) a + S1x128.size a ≤ S100000x128.size a) ∧
  (∀ a, (k24_off11 v6) a + S1x128.size a ≤ S100000x128.size a)
instance k24_chk2.dec : ∀ (v6 : BitVec 32), Decidable (k24_chk2 v6) := fun v6 => decidable_of_iff' _ (Iff.of_eq (k24_chk2.eq_1 v6))
theorem k24_off3_inb : ∀ (v6 : BitVec 32) (k24_hw2 : k24_chk2 v6), ∀ a, (k24_off3 v6) a + S1x128.size a ≤ S100000x128.size a := fun v6 k24_hw2 => k24_hw2.1
theorem k24_off11_inb : ∀ (v6 : BitVec 32) (k24_hw2 : k24_chk2 v6), ∀ a, (k24_off11 v6) a + S1x128.size a ≤ S100000x128.size a := fun v6 k24_hw2 => k24_hw2.2

def k24_off12 (v9 : BitVec 32) : Fin 2 → Nat :=
  let c0_i32_43 : BitVec 32 := 0#32
  ![v9.toNat, 0]

def k24_chk3 (v9 : BitVec 32) : Prop :=
  (∀ a, (k24_off4 v9) a + S1x128.size a ≤ S100000x128.size a) ∧
  (∀ a, (k24_off12 v9) a + S1x128.size a ≤ S100000x128.size a)
instance k24_chk3.dec : ∀ (v9 : BitVec 32), Decidable (k24_chk3 v9) := fun v9 => decidable_of_iff' _ (Iff.of_eq (k24_chk3.eq_1 v9))
theorem k24_off4_inb : ∀ (v9 : BitVec 32) (k24_hw3 : k24_chk3 v9), ∀ a, (k24_off4 v9) a + S1x128.size a ≤ S100000x128.size a := fun v9 k24_hw3 => k24_hw3.1
theorem k24_off12_inb : ∀ (v9 : BitVec 32) (k24_hw3 : k24_chk3 v9), ∀ a, (k24_off12 v9) a + S1x128.size a ≤ S100000x128.size a := fun v9 k24_hw3 => k24_hw3.2

def k24_off13 (v12 : BitVec 32) : Fin 2 → Nat :=
  let c0_i32_47 : BitVec 32 := 0#32
  ![v12.toNat, 0]

def k24_chk4 (v12 : BitVec 32) : Prop :=
  (∀ a, (k24_off5 v12) a + S1x128.size a ≤ S100000x128.size a) ∧
  (∀ a, (k24_off13 v12) a + S1x128.size a ≤ S100000x128.size a)
instance k24_chk4.dec : ∀ (v12 : BitVec 32), Decidable (k24_chk4 v12) := fun v12 => decidable_of_iff' _ (Iff.of_eq (k24_chk4.eq_1 v12))
theorem k24_off5_inb : ∀ (v12 : BitVec 32) (k24_hw4 : k24_chk4 v12), ∀ a, (k24_off5 v12) a + S1x128.size a ≤ S100000x128.size a := fun v12 k24_hw4 => k24_hw4.1
theorem k24_off13_inb : ∀ (v12 : BitVec 32) (k24_hw4 : k24_chk4 v12), ∀ a, (k24_off13 v12) a + S1x128.size a ≤ S100000x128.size a := fun v12 k24_hw4 => k24_hw4.2

def k24_off14 (v15 : BitVec 32) : Fin 2 → Nat :=
  let c0_i32_51 : BitVec 32 := 0#32
  ![v15.toNat, 0]

def k24_chk5 (v15 : BitVec 32) : Prop :=
  (∀ a, (k24_off6 v15) a + S1x128.size a ≤ S100000x128.size a) ∧
  (∀ a, (k24_off14 v15) a + S1x128.size a ≤ S100000x128.size a)
instance k24_chk5.dec : ∀ (v15 : BitVec 32), Decidable (k24_chk5 v15) := fun v15 => decidable_of_iff' _ (Iff.of_eq (k24_chk5.eq_1 v15))
theorem k24_off6_inb : ∀ (v15 : BitVec 32) (k24_hw5 : k24_chk5 v15), ∀ a, (k24_off6 v15) a + S1x128.size a ≤ S100000x128.size a := fun v15 k24_hw5 => k24_hw5.1
theorem k24_off14_inb : ∀ (v15 : BitVec 32) (k24_hw5 : k24_chk5 v15), ∀ a, (k24_off14 v15) a + S1x128.size a ≤ S100000x128.size a := fun v15 k24_hw5 => k24_hw5.2

def k24_off15 (v18 : BitVec 32) : Fin 2 → Nat :=
  let c0_i32_55 : BitVec 32 := 0#32
  ![v18.toNat, 0]

def k24_chk6 (v18 : BitVec 32) : Prop :=
  (∀ a, (k24_off7 v18) a + S1x128.size a ≤ S100000x128.size a) ∧
  (∀ a, (k24_off15 v18) a + S1x128.size a ≤ S100000x128.size a)
instance k24_chk6.dec : ∀ (v18 : BitVec 32), Decidable (k24_chk6 v18) := fun v18 => decidable_of_iff' _ (Iff.of_eq (k24_chk6.eq_1 v18))
theorem k24_off7_inb : ∀ (v18 : BitVec 32) (k24_hw6 : k24_chk6 v18), ∀ a, (k24_off7 v18) a + S1x128.size a ≤ S100000x128.size a := fun v18 k24_hw6 => k24_hw6.1
theorem k24_off15_inb : ∀ (v18 : BitVec 32) (k24_hw6 : k24_chk6 v18), ∀ a, (k24_off15 v18) a + S1x128.size a ≤ S100000x128.size a := fun v18 k24_hw6 => k24_hw6.2

def k24_off16 (v21 : BitVec 32) : Fin 2 → Nat :=
  let c0_i32_59 : BitVec 32 := 0#32
  ![v21.toNat, 0]

def k24_chk7 (v21 : BitVec 32) : Prop :=
  (∀ a, (k24_off8 v21) a + S1x128.size a ≤ S100000x128.size a) ∧
  (∀ a, (k24_off16 v21) a + S1x128.size a ≤ S100000x128.size a)
instance k24_chk7.dec : ∀ (v21 : BitVec 32), Decidable (k24_chk7 v21) := fun v21 => decidable_of_iff' _ (Iff.of_eq (k24_chk7.eq_1 v21))
theorem k24_off8_inb : ∀ (v21 : BitVec 32) (k24_hw7 : k24_chk7 v21), ∀ a, (k24_off8 v21) a + S1x128.size a ≤ S100000x128.size a := fun v21 k24_hw7 => k24_hw7.1
theorem k24_off16_inb : ∀ (v21 : BitVec 32) (k24_hw7 : k24_chk7 v21), ∀ a, (k24_off16 v21) a + S1x128.size a ≤ S100000x128.size a := fun v21 k24_hw7 => k24_hw7.2

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S8x1 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S8x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev grid25 : Pipeline.Grid := ⟨1, ![16384], ![false]⟩

abbrev pre25 : Pipeline.Prefetch sig := ⟨1, ![main_v169.idx], fun | 0 => main_v169.names | ⟨_ + 1, h⟩ => absurd h (Nat.not_lt.2 (Nat.le_add_left _ _)), fun | 0 => rfl | ⟨_ + 1, h⟩ => absurd h (Nat.not_lt.2 (Nat.le_add_left _ _))⟩

def k25_off1 (i : grid25.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k25_off2 (v3 : BitVec 32) : Fin 2 → Nat :=
  let c0_i32_3 : BitVec 32 := 0#32
  ![v3.toNat, 0]

def k25_off3 (v6 : BitVec 32) : Fin 2 → Nat :=
  let c0_i32_7 : BitVec 32 := 0#32
  ![v6.toNat, 0]

def k25_off4 (v9 : BitVec 32) : Fin 2 → Nat :=
  let c0_i32_11 : BitVec 32 := 0#32
  ![v9.toNat, 0]

def k25_off5 (v12 : BitVec 32) : Fin 2 → Nat :=
  let c0_i32_15 : BitVec 32 := 0#32
  ![v12.toNat, 0]

def k25_off6 (v15 : BitVec 32) : Fin 2 → Nat :=
  let c0_i32_19 : BitVec 32 := 0#32
  ![v15.toNat, 0]

def k25_off7 (v18 : BitVec 32) : Fin 2 → Nat :=
  let c0_i32_23 : BitVec 32 := 0#32
  ![v18.toNat, 0]

def k25_off8 (v21 : BitVec 32) : Fin 2 → Nat :=
  let c0_i32_27 : BitVec 32 := 0#32
  ![v21.toNat, 0]

def k25_off9 (v24 : BitVec 32) : Fin 2 → Nat :=
  let c0_i32_31 : BitVec 32 := 0#32
  ![v24.toNat, 0]

def k25_chk8 (v24 : BitVec 32) : Prop :=
  (∀ a, (k25_off9 v24) a + S1x128.size a ≤ S100000x128.size a)
instance k25_chk8.dec : ∀ (v24 : BitVec 32), Decidable (k25_chk8 v24) := fun v24 => decidable_of_iff' _ (Iff.of_eq (k25_chk8.eq_1 v24))
theorem k25_off9_inb : ∀ (v24 : BitVec 32) (k25_hw8 : k25_chk8 v24), ∀ a, (k25_off9 v24) a + S1x128.size a ≤ S100000x128.size a := fun v24 k25_hw8 => k25_hw8

def k25_off10 (v3 : BitVec 32) : Fin 2 → Nat :=
  let c0_i32_35 : BitVec 32 := 0#32
  ![v3.toNat, 0]

def k25_chk1 (v3 : BitVec 32) : Prop :=
  (∀ a, (k25_off2 v3) a + S1x128.size a ≤ S100000x128.size a) ∧
  (∀ a, (k25_off10 v3) a + S1x128.size a ≤ S100000x128.size a)
instance k25_chk1.dec : ∀ (v3 : BitVec 32), Decidable (k25_chk1 v3) := fun v3 => decidable_of_iff' _ (Iff.of_eq (k25_chk1.eq_1 v3))
theorem k25_off2_inb : ∀ (v3 : BitVec 32) (k25_hw1 : k25_chk1 v3), ∀ a, (k25_off2 v3) a + S1x128.size a ≤ S100000x128.size a := fun v3 k25_hw1 => k25_hw1.1
theorem k25_off10_inb : ∀ (v3 : BitVec 32) (k25_hw1 : k25_chk1 v3), ∀ a, (k25_off10 v3) a + S1x128.size a ≤ S100000x128.size a := fun v3 k25_hw1 => k25_hw1.2

def k25_off11 (v6 : BitVec 32) : Fin 2 → Nat :=
  let c0_i32_39 : BitVec 32 := 0#32
  ![v6.toNat, 0]

def k25_chk2 (v6 : BitVec 32) : Prop :=
  (∀ a, (k25_off3 v6) a + S1x128.size a ≤ S100000x128.size a) ∧
  (∀ a, (k25_off11 v6) a + S1x128.size a ≤ S100000x128.size a)
instance k25_chk2.dec : ∀ (v6 : BitVec 32), Decidable (k25_chk2 v6) := fun v6 => decidable_of_iff' _ (Iff.of_eq (k25_chk2.eq_1 v6))
theorem k25_off3_inb : ∀ (v6 : BitVec 32) (k25_hw2 : k25_chk2 v6), ∀ a, (k25_off3 v6) a + S1x128.size a ≤ S100000x128.size a := fun v6 k25_hw2 => k25_hw2.1
theorem k25_off11_inb : ∀ (v6 : BitVec 32) (k25_hw2 : k25_chk2 v6), ∀ a, (k25_off11 v6) a + S1x128.size a ≤ S100000x128.size a := fun v6 k25_hw2 => k25_hw2.2

def k25_off12 (v9 : BitVec 32) : Fin 2 → Nat :=
  let c0_i32_43 : BitVec 32 := 0#32
  ![v9.toNat, 0]

def k25_chk3 (v9 : BitVec 32) : Prop :=
  (∀ a, (k25_off4 v9) a + S1x128.size a ≤ S100000x128.size a) ∧
  (∀ a, (k25_off12 v9) a + S1x128.size a ≤ S100000x128.size a)
instance k25_chk3.dec : ∀ (v9 : BitVec 32), Decidable (k25_chk3 v9) := fun v9 => decidable_of_iff' _ (Iff.of_eq (k25_chk3.eq_1 v9))
theorem k25_off4_inb : ∀ (v9 : BitVec 32) (k25_hw3 : k25_chk3 v9), ∀ a, (k25_off4 v9) a + S1x128.size a ≤ S100000x128.size a := fun v9 k25_hw3 => k25_hw3.1
theorem k25_off12_inb : ∀ (v9 : BitVec 32) (k25_hw3 : k25_chk3 v9), ∀ a, (k25_off12 v9) a + S1x128.size a ≤ S100000x128.size a := fun v9 k25_hw3 => k25_hw3.2

def k25_off13 (v12 : BitVec 32) : Fin 2 → Nat :=
  let c0_i32_47 : BitVec 32 := 0#32
  ![v12.toNat, 0]

def k25_chk4 (v12 : BitVec 32) : Prop :=
  (∀ a, (k25_off5 v12) a + S1x128.size a ≤ S100000x128.size a) ∧
  (∀ a, (k25_off13 v12) a + S1x128.size a ≤ S100000x128.size a)
instance k25_chk4.dec : ∀ (v12 : BitVec 32), Decidable (k25_chk4 v12) := fun v12 => decidable_of_iff' _ (Iff.of_eq (k25_chk4.eq_1 v12))
theorem k25_off5_inb : ∀ (v12 : BitVec 32) (k25_hw4 : k25_chk4 v12), ∀ a, (k25_off5 v12) a + S1x128.size a ≤ S100000x128.size a := fun v12 k25_hw4 => k25_hw4.1
theorem k25_off13_inb : ∀ (v12 : BitVec 32) (k25_hw4 : k25_chk4 v12), ∀ a, (k25_off13 v12) a + S1x128.size a ≤ S100000x128.size a := fun v12 k25_hw4 => k25_hw4.2

def k25_off14 (v15 : BitVec 32) : Fin 2 → Nat :=
  let c0_i32_51 : BitVec 32 := 0#32
  ![v15.toNat, 0]

def k25_chk5 (v15 : BitVec 32) : Prop :=
  (∀ a, (k25_off6 v15) a + S1x128.size a ≤ S100000x128.size a) ∧
  (∀ a, (k25_off14 v15) a + S1x128.size a ≤ S100000x128.size a)
instance k25_chk5.dec : ∀ (v15 : BitVec 32), Decidable (k25_chk5 v15) := fun v15 => decidable_of_iff' _ (Iff.of_eq (k25_chk5.eq_1 v15))
theorem k25_off6_inb : ∀ (v15 : BitVec 32) (k25_hw5 : k25_chk5 v15), ∀ a, (k25_off6 v15) a + S1x128.size a ≤ S100000x128.size a := fun v15 k25_hw5 => k25_hw5.1
theorem k25_off14_inb : ∀ (v15 : BitVec 32) (k25_hw5 : k25_chk5 v15), ∀ a, (k25_off14 v15) a + S1x128.size a ≤ S100000x128.size a := fun v15 k25_hw5 => k25_hw5.2

def k25_off15 (v18 : BitVec 32) : Fin 2 → Nat :=
  let c0_i32_55 : BitVec 32 := 0#32
  ![v18.toNat, 0]

def k25_chk6 (v18 : BitVec 32) : Prop :=
  (∀ a, (k25_off7 v18) a + S1x128.size a ≤ S100000x128.size a) ∧
  (∀ a, (k25_off15 v18) a + S1x128.size a ≤ S100000x128.size a)
instance k25_chk6.dec : ∀ (v18 : BitVec 32), Decidable (k25_chk6 v18) := fun v18 => decidable_of_iff' _ (Iff.of_eq (k25_chk6.eq_1 v18))
theorem k25_off7_inb : ∀ (v18 : BitVec 32) (k25_hw6 : k25_chk6 v18), ∀ a, (k25_off7 v18) a + S1x128.size a ≤ S100000x128.size a := fun v18 k25_hw6 => k25_hw6.1
theorem k25_off15_inb : ∀ (v18 : BitVec 32) (k25_hw6 : k25_chk6 v18), ∀ a, (k25_off15 v18) a + S1x128.size a ≤ S100000x128.size a := fun v18 k25_hw6 => k25_hw6.2

def k25_off16 (v21 : BitVec 32) : Fin 2 → Nat :=
  let c0_i32_59 : BitVec 32 := 0#32
  ![v21.toNat, 0]

def k25_chk7 (v21 : BitVec 32) : Prop :=
  (∀ a, (k25_off8 v21) a + S1x128.size a ≤ S100000x128.size a) ∧
  (∀ a, (k25_off16 v21) a + S1x128.size a ≤ S100000x128.size a)
instance k25_chk7.dec : ∀ (v21 : BitVec 32), Decidable (k25_chk7 v21) := fun v21 => decidable_of_iff' _ (Iff.of_eq (k25_chk7.eq_1 v21))
theorem k25_off8_inb : ∀ (v21 : BitVec 32) (k25_hw7 : k25_chk7 v21), ∀ a, (k25_off8 v21) a + S1x128.size a ≤ S100000x128.size a := fun v21 k25_hw7 => k25_hw7.1
theorem k25_off16_inb : ∀ (v21 : BitVec 32) (k25_hw7 : k25_chk7 v21), ∀ a, (k25_off16 v21) a + S1x128.size a ≤ S100000x128.size a := fun v21 k25_hw7 => k25_hw7.2

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S8x1 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S8x128 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev grid26 : Pipeline.Grid := ⟨1, ![16384], ![false]⟩

abbrev pre26 : Pipeline.Prefetch sig := ⟨1, ![main_v172.idx], fun | 0 => main_v172.names | ⟨_ + 1, h⟩ => absurd h (Nat.not_lt.2 (Nat.le_add_left _ _)), fun | 0 => rfl | ⟨_ + 1, h⟩ => absurd h (Nat.not_lt.2 (Nat.le_add_left _ _))⟩

def k26_off1 (i : grid26.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k26_off2 (v3 : BitVec 32) : Fin 2 → Nat :=
  let c0_i32_3 : BitVec 32 := 0#32
  ![v3.toNat, 0]

def k26_off3 (v6 : BitVec 32) : Fin 2 → Nat :=
  let c0_i32_7 : BitVec 32 := 0#32
  ![v6.toNat, 0]

def k26_off4 (v9 : BitVec 32) : Fin 2 → Nat :=
  let c0_i32_11 : BitVec 32 := 0#32
  ![v9.toNat, 0]

def k26_off5 (v12 : BitVec 32) : Fin 2 → Nat :=
  let c0_i32_15 : BitVec 32 := 0#32
  ![v12.toNat, 0]

def k26_off6 (v15 : BitVec 32) : Fin 2 → Nat :=
  let c0_i32_19 : BitVec 32 := 0#32
  ![v15.toNat, 0]

def k26_off7 (v18 : BitVec 32) : Fin 2 → Nat :=
  let c0_i32_23 : BitVec 32 := 0#32
  ![v18.toNat, 0]

def k26_off8 (v21 : BitVec 32) : Fin 2 → Nat :=
  let c0_i32_27 : BitVec 32 := 0#32
  ![v21.toNat, 0]

def k26_off9 (v24 : BitVec 32) : Fin 2 → Nat :=
  let c0_i32_31 : BitVec 32 := 0#32
  ![v24.toNat, 0]

def k26_chk8 (v24 : BitVec 32) : Prop :=
  (∀ a, (k26_off9 v24) a + S1x128.size a ≤ S100000x128.size a)
instance k26_chk8.dec : ∀ (v24 : BitVec 32), Decidable (k26_chk8 v24) := fun v24 => decidable_of_iff' _ (Iff.of_eq (k26_chk8.eq_1 v24))
theorem k26_off9_inb : ∀ (v24 : BitVec 32) (k26_hw8 : k26_chk8 v24), ∀ a, (k26_off9 v24) a + S1x128.size a ≤ S100000x128.size a := fun v24 k26_hw8 => k26_hw8

def k26_off10 (v3 : BitVec 32) : Fin 2 → Nat :=
  let c0_i32_35 : BitVec 32 := 0#32
  ![v3.toNat, 0]

def k26_chk1 (v3 : BitVec 32) : Prop :=
  (∀ a, (k26_off2 v3) a + S1x128.size a ≤ S100000x128.size a) ∧
  (∀ a, (k26_off10 v3) a + S1x128.size a ≤ S100000x128.size a)
instance k26_chk1.dec : ∀ (v3 : BitVec 32), Decidable (k26_chk1 v3) := fun v3 => decidable_of_iff' _ (Iff.of_eq (k26_chk1.eq_1 v3))
theorem k26_off2_inb : ∀ (v3 : BitVec 32) (k26_hw1 : k26_chk1 v3), ∀ a, (k26_off2 v3) a + S1x128.size a ≤ S100000x128.size a := fun v3 k26_hw1 => k26_hw1.1
theorem k26_off10_inb : ∀ (v3 : BitVec 32) (k26_hw1 : k26_chk1 v3), ∀ a, (k26_off10 v3) a + S1x128.size a ≤ S100000x128.size a := fun v3 k26_hw1 => k26_hw1.2

def k26_off11 (v6 : BitVec 32) : Fin 2 → Nat :=
  let c0_i32_39 : BitVec 32 := 0#32
  ![v6.toNat, 0]

def k26_chk2 (v6 : BitVec 32) : Prop :=
  (∀ a, (k26_off3 v6) a + S1x128.size a ≤ S100000x128.size a) ∧
  (∀ a, (k26_off11 v6) a + S1x128.size a ≤ S100000x128.size a)
instance k26_chk2.dec : ∀ (v6 : BitVec 32), Decidable (k26_chk2 v6) := fun v6 => decidable_of_iff' _ (Iff.of_eq (k26_chk2.eq_1 v6))
theorem k26_off3_inb : ∀ (v6 : BitVec 32) (k26_hw2 : k26_chk2 v6), ∀ a, (k26_off3 v6) a + S1x128.size a ≤ S100000x128.size a := fun v6 k26_hw2 => k26_hw2.1
theorem k26_off11_inb : ∀ (v6 : BitVec 32) (k26_hw2 : k26_chk2 v6), ∀ a, (k26_off11 v6) a + S1x128.size a ≤ S100000x128.size a := fun v6 k26_hw2 => k26_hw2.2

def k26_off12 (v9 : BitVec 32) : Fin 2 → Nat :=
  let c0_i32_43 : BitVec 32 := 0#32
  ![v9.toNat, 0]

def k26_chk3 (v9 : BitVec 32) : Prop :=
  (∀ a, (k26_off4 v9) a + S1x128.size a ≤ S100000x128.size a) ∧
  (∀ a, (k26_off12 v9) a + S1x128.size a ≤ S100000x128.size a)
instance k26_chk3.dec : ∀ (v9 : BitVec 32), Decidable (k26_chk3 v9) := fun v9 => decidable_of_iff' _ (Iff.of_eq (k26_chk3.eq_1 v9))
theorem k26_off4_inb : ∀ (v9 : BitVec 32) (k26_hw3 : k26_chk3 v9), ∀ a, (k26_off4 v9) a + S1x128.size a ≤ S100000x128.size a := fun v9 k26_hw3 => k26_hw3.1
theorem k26_off12_inb : ∀ (v9 : BitVec 32) (k26_hw3 : k26_chk3 v9), ∀ a, (k26_off12 v9) a + S1x128.size a ≤ S100000x128.size a := fun v9 k26_hw3 => k26_hw3.2

def k26_off13 (v12 : BitVec 32) : Fin 2 → Nat :=
  let c0_i32_47 : BitVec 32 := 0#32
  ![v12.toNat, 0]

def k26_chk4 (v12 : BitVec 32) : Prop :=
  (∀ a, (k26_off5 v12) a + S1x128.size a ≤ S100000x128.size a) ∧
  (∀ a, (k26_off13 v12) a + S1x128.size a ≤ S100000x128.size a)
instance k26_chk4.dec : ∀ (v12 : BitVec 32), Decidable (k26_chk4 v12) := fun v12 => decidable_of_iff' _ (Iff.of_eq (k26_chk4.eq_1 v12))
theorem k26_off5_inb : ∀ (v12 : BitVec 32) (k26_hw4 : k26_chk4 v12), ∀ a, (k26_off5 v12) a + S1x128.size a ≤ S100000x128.size a := fun v12 k26_hw4 => k26_hw4.1
theorem k26_off13_inb : ∀ (v12 : BitVec 32) (k26_hw4 : k26_chk4 v12), ∀ a, (k26_off13 v12) a + S1x128.size a ≤ S100000x128.size a := fun v12 k26_hw4 => k26_hw4.2

def k26_off14 (v15 : BitVec 32) : Fin 2 → Nat :=
  let c0_i32_51 : BitVec 32 := 0#32
  ![v15.toNat, 0]

def k26_chk5 (v15 : BitVec 32) : Prop :=
  (∀ a, (k26_off6 v15) a + S1x128.size a ≤ S100000x128.size a) ∧
  (∀ a, (k26_off14 v15) a + S1x128.size a ≤ S100000x128.size a)
instance k26_chk5.dec : ∀ (v15 : BitVec 32), Decidable (k26_chk5 v15) := fun v15 => decidable_of_iff' _ (Iff.of_eq (k26_chk5.eq_1 v15))
theorem k26_off6_inb : ∀ (v15 : BitVec 32) (k26_hw5 : k26_chk5 v15), ∀ a, (k26_off6 v15) a + S1x128.size a ≤ S100000x128.size a := fun v15 k26_hw5 => k26_hw5.1
theorem k26_off14_inb : ∀ (v15 : BitVec 32) (k26_hw5 : k26_chk5 v15), ∀ a, (k26_off14 v15) a + S1x128.size a ≤ S100000x128.size a := fun v15 k26_hw5 => k26_hw5.2

def k26_off15 (v18 : BitVec 32) : Fin 2 → Nat :=
  let c0_i32_55 : BitVec 32 := 0#32
  ![v18.toNat, 0]

def k26_chk6 (v18 : BitVec 32) : Prop :=
  (∀ a, (k26_off7 v18) a + S1x128.size a ≤ S100000x128.size a) ∧
  (∀ a, (k26_off15 v18) a + S1x128.size a ≤ S100000x128.size a)
instance k26_chk6.dec : ∀ (v18 : BitVec 32), Decidable (k26_chk6 v18) := fun v18 => decidable_of_iff' _ (Iff.of_eq (k26_chk6.eq_1 v18))
theorem k26_off7_inb : ∀ (v18 : BitVec 32) (k26_hw6 : k26_chk6 v18), ∀ a, (k26_off7 v18) a + S1x128.size a ≤ S100000x128.size a := fun v18 k26_hw6 => k26_hw6.1
theorem k26_off15_inb : ∀ (v18 : BitVec 32) (k26_hw6 : k26_chk6 v18), ∀ a, (k26_off15 v18) a + S1x128.size a ≤ S100000x128.size a := fun v18 k26_hw6 => k26_hw6.2

def k26_off16 (v21 : BitVec 32) : Fin 2 → Nat :=
  let c0_i32_59 : BitVec 32 := 0#32
  ![v21.toNat, 0]

def k26_chk7 (v21 : BitVec 32) : Prop :=
  (∀ a, (k26_off8 v21) a + S1x128.size a ≤ S100000x128.size a) ∧
  (∀ a, (k26_off16 v21) a + S1x128.size a ≤ S100000x128.size a)
instance k26_chk7.dec : ∀ (v21 : BitVec 32), Decidable (k26_chk7 v21) := fun v21 => decidable_of_iff' _ (Iff.of_eq (k26_chk7.eq_1 v21))
theorem k26_off8_inb : ∀ (v21 : BitVec 32) (k26_hw7 : k26_chk7 v21), ∀ a, (k26_off8 v21) a + S1x128.size a ≤ S100000x128.size a := fun v21 k26_hw7 => k26_hw7.1
theorem k26_off16_inb : ∀ (v21 : BitVec 32) (k26_hw7 : k26_chk7 v21), ∀ a, (k26_off16 v21) a + S1x128.size a ≤ S100000x128.size a := fun v21 k26_hw7 => k26_hw7.2

def cc26_transform_1 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S8x1 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S8x128 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev grid27 : Pipeline.Grid := ⟨1, ![16384], ![false]⟩

abbrev pre27 : Pipeline.Prefetch sig := ⟨1, ![main_v175.idx], fun | 0 => main_v175.names | ⟨_ + 1, h⟩ => absurd h (Nat.not_lt.2 (Nat.le_add_left _ _)), fun | 0 => rfl | ⟨_ + 1, h⟩ => absurd h (Nat.not_lt.2 (Nat.le_add_left _ _))⟩

def k27_off1 (i : grid27.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k27_off2 (v3 : BitVec 32) : Fin 2 → Nat :=
  let c0_i32_3 : BitVec 32 := 0#32
  ![v3.toNat, 0]

def k27_off3 (v6 : BitVec 32) : Fin 2 → Nat :=
  let c0_i32_7 : BitVec 32 := 0#32
  ![v6.toNat, 0]

def k27_off4 (v9 : BitVec 32) : Fin 2 → Nat :=
  let c0_i32_11 : BitVec 32 := 0#32
  ![v9.toNat, 0]

def k27_off5 (v12 : BitVec 32) : Fin 2 → Nat :=
  let c0_i32_15 : BitVec 32 := 0#32
  ![v12.toNat, 0]

def k27_off6 (v15 : BitVec 32) : Fin 2 → Nat :=
  let c0_i32_19 : BitVec 32 := 0#32
  ![v15.toNat, 0]

def k27_off7 (v18 : BitVec 32) : Fin 2 → Nat :=
  let c0_i32_23 : BitVec 32 := 0#32
  ![v18.toNat, 0]

def k27_off8 (v21 : BitVec 32) : Fin 2 → Nat :=
  let c0_i32_27 : BitVec 32 := 0#32
  ![v21.toNat, 0]

def k27_off9 (v24 : BitVec 32) : Fin 2 → Nat :=
  let c0_i32_31 : BitVec 32 := 0#32
  ![v24.toNat, 0]

def k27_chk8 (v24 : BitVec 32) : Prop :=
  (∀ a, (k27_off9 v24) a + S1x128.size a ≤ S100000x128.size a)
instance k27_chk8.dec : ∀ (v24 : BitVec 32), Decidable (k27_chk8 v24) := fun v24 => decidable_of_iff' _ (Iff.of_eq (k27_chk8.eq_1 v24))
theorem k27_off9_inb : ∀ (v24 : BitVec 32) (k27_hw8 : k27_chk8 v24), ∀ a, (k27_off9 v24) a + S1x128.size a ≤ S100000x128.size a := fun v24 k27_hw8 => k27_hw8

def k27_off10 (v3 : BitVec 32) : Fin 2 → Nat :=
  let c0_i32_35 : BitVec 32 := 0#32
  ![v3.toNat, 0]

def k27_chk1 (v3 : BitVec 32) : Prop :=
  (∀ a, (k27_off2 v3) a + S1x128.size a ≤ S100000x128.size a) ∧
  (∀ a, (k27_off10 v3) a + S1x128.size a ≤ S100000x128.size a)
instance k27_chk1.dec : ∀ (v3 : BitVec 32), Decidable (k27_chk1 v3) := fun v3 => decidable_of_iff' _ (Iff.of_eq (k27_chk1.eq_1 v3))
theorem k27_off2_inb : ∀ (v3 : BitVec 32) (k27_hw1 : k27_chk1 v3), ∀ a, (k27_off2 v3) a + S1x128.size a ≤ S100000x128.size a := fun v3 k27_hw1 => k27_hw1.1
theorem k27_off10_inb : ∀ (v3 : BitVec 32) (k27_hw1 : k27_chk1 v3), ∀ a, (k27_off10 v3) a + S1x128.size a ≤ S100000x128.size a := fun v3 k27_hw1 => k27_hw1.2

def k27_off11 (v6 : BitVec 32) : Fin 2 → Nat :=
  let c0_i32_39 : BitVec 32 := 0#32
  ![v6.toNat, 0]

def k27_chk2 (v6 : BitVec 32) : Prop :=
  (∀ a, (k27_off3 v6) a + S1x128.size a ≤ S100000x128.size a) ∧
  (∀ a, (k27_off11 v6) a + S1x128.size a ≤ S100000x128.size a)
instance k27_chk2.dec : ∀ (v6 : BitVec 32), Decidable (k27_chk2 v6) := fun v6 => decidable_of_iff' _ (Iff.of_eq (k27_chk2.eq_1 v6))
theorem k27_off3_inb : ∀ (v6 : BitVec 32) (k27_hw2 : k27_chk2 v6), ∀ a, (k27_off3 v6) a + S1x128.size a ≤ S100000x128.size a := fun v6 k27_hw2 => k27_hw2.1
theorem k27_off11_inb : ∀ (v6 : BitVec 32) (k27_hw2 : k27_chk2 v6), ∀ a, (k27_off11 v6) a + S1x128.size a ≤ S100000x128.size a := fun v6 k27_hw2 => k27_hw2.2

def k27_off12 (v9 : BitVec 32) : Fin 2 → Nat :=
  let c0_i32_43 : BitVec 32 := 0#32
  ![v9.toNat, 0]

def k27_chk3 (v9 : BitVec 32) : Prop :=
  (∀ a, (k27_off4 v9) a + S1x128.size a ≤ S100000x128.size a) ∧
  (∀ a, (k27_off12 v9) a + S1x128.size a ≤ S100000x128.size a)
instance k27_chk3.dec : ∀ (v9 : BitVec 32), Decidable (k27_chk3 v9) := fun v9 => decidable_of_iff' _ (Iff.of_eq (k27_chk3.eq_1 v9))
theorem k27_off4_inb : ∀ (v9 : BitVec 32) (k27_hw3 : k27_chk3 v9), ∀ a, (k27_off4 v9) a + S1x128.size a ≤ S100000x128.size a := fun v9 k27_hw3 => k27_hw3.1
theorem k27_off12_inb : ∀ (v9 : BitVec 32) (k27_hw3 : k27_chk3 v9), ∀ a, (k27_off12 v9) a + S1x128.size a ≤ S100000x128.size a := fun v9 k27_hw3 => k27_hw3.2

def k27_off13 (v12 : BitVec 32) : Fin 2 → Nat :=
  let c0_i32_47 : BitVec 32 := 0#32
  ![v12.toNat, 0]

def k27_chk4 (v12 : BitVec 32) : Prop :=
  (∀ a, (k27_off5 v12) a + S1x128.size a ≤ S100000x128.size a) ∧
  (∀ a, (k27_off13 v12) a + S1x128.size a ≤ S100000x128.size a)
instance k27_chk4.dec : ∀ (v12 : BitVec 32), Decidable (k27_chk4 v12) := fun v12 => decidable_of_iff' _ (Iff.of_eq (k27_chk4.eq_1 v12))
theorem k27_off5_inb : ∀ (v12 : BitVec 32) (k27_hw4 : k27_chk4 v12), ∀ a, (k27_off5 v12) a + S1x128.size a ≤ S100000x128.size a := fun v12 k27_hw4 => k27_hw4.1
theorem k27_off13_inb : ∀ (v12 : BitVec 32) (k27_hw4 : k27_chk4 v12), ∀ a, (k27_off13 v12) a + S1x128.size a ≤ S100000x128.size a := fun v12 k27_hw4 => k27_hw4.2

def k27_off14 (v15 : BitVec 32) : Fin 2 → Nat :=
  let c0_i32_51 : BitVec 32 := 0#32
  ![v15.toNat, 0]

def k27_chk5 (v15 : BitVec 32) : Prop :=
  (∀ a, (k27_off6 v15) a + S1x128.size a ≤ S100000x128.size a) ∧
  (∀ a, (k27_off14 v15) a + S1x128.size a ≤ S100000x128.size a)
instance k27_chk5.dec : ∀ (v15 : BitVec 32), Decidable (k27_chk5 v15) := fun v15 => decidable_of_iff' _ (Iff.of_eq (k27_chk5.eq_1 v15))
theorem k27_off6_inb : ∀ (v15 : BitVec 32) (k27_hw5 : k27_chk5 v15), ∀ a, (k27_off6 v15) a + S1x128.size a ≤ S100000x128.size a := fun v15 k27_hw5 => k27_hw5.1
theorem k27_off14_inb : ∀ (v15 : BitVec 32) (k27_hw5 : k27_chk5 v15), ∀ a, (k27_off14 v15) a + S1x128.size a ≤ S100000x128.size a := fun v15 k27_hw5 => k27_hw5.2

def k27_off15 (v18 : BitVec 32) : Fin 2 → Nat :=
  let c0_i32_55 : BitVec 32 := 0#32
  ![v18.toNat, 0]

def k27_chk6 (v18 : BitVec 32) : Prop :=
  (∀ a, (k27_off7 v18) a + S1x128.size a ≤ S100000x128.size a) ∧
  (∀ a, (k27_off15 v18) a + S1x128.size a ≤ S100000x128.size a)
instance k27_chk6.dec : ∀ (v18 : BitVec 32), Decidable (k27_chk6 v18) := fun v18 => decidable_of_iff' _ (Iff.of_eq (k27_chk6.eq_1 v18))
theorem k27_off7_inb : ∀ (v18 : BitVec 32) (k27_hw6 : k27_chk6 v18), ∀ a, (k27_off7 v18) a + S1x128.size a ≤ S100000x128.size a := fun v18 k27_hw6 => k27_hw6.1
theorem k27_off15_inb : ∀ (v18 : BitVec 32) (k27_hw6 : k27_chk6 v18), ∀ a, (k27_off15 v18) a + S1x128.size a ≤ S100000x128.size a := fun v18 k27_hw6 => k27_hw6.2

def k27_off16 (v21 : BitVec 32) : Fin 2 → Nat :=
  let c0_i32_59 : BitVec 32 := 0#32
  ![v21.toNat, 0]

def k27_chk7 (v21 : BitVec 32) : Prop :=
  (∀ a, (k27_off8 v21) a + S1x128.size a ≤ S100000x128.size a) ∧
  (∀ a, (k27_off16 v21) a + S1x128.size a ≤ S100000x128.size a)
instance k27_chk7.dec : ∀ (v21 : BitVec 32), Decidable (k27_chk7 v21) := fun v21 => decidable_of_iff' _ (Iff.of_eq (k27_chk7.eq_1 v21))
theorem k27_off8_inb : ∀ (v21 : BitVec 32) (k27_hw7 : k27_chk7 v21), ∀ a, (k27_off8 v21) a + S1x128.size a ≤ S100000x128.size a := fun v21 k27_hw7 => k27_hw7.1
theorem k27_off16_inb : ∀ (v21 : BitVec 32) (k27_hw7 : k27_chk7 v21), ∀ a, (k27_off16 v21) a + S1x128.size a ≤ S100000x128.size a := fun v21 k27_hw7 => k27_hw7.2

def cc27_transform_1 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_2 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S8x1 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 2 → Memref sig .tc .vmem S8x128 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true]

abbrev grid28 : Pipeline.Grid := ⟨1, ![16384], ![false]⟩

abbrev pre28 : Pipeline.Prefetch sig := ⟨1, ![main_v178.idx], fun | 0 => main_v178.names | ⟨_ + 1, h⟩ => absurd h (Nat.not_lt.2 (Nat.le_add_left _ _)), fun | 0 => rfl | ⟨_ + 1, h⟩ => absurd h (Nat.not_lt.2 (Nat.le_add_left _ _))⟩

def k28_off1 (i : grid28.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k28_off2 (v3 : BitVec 32) : Fin 2 → Nat :=
  let c0_i32_3 : BitVec 32 := 0#32
  ![v3.toNat, 0]

def k28_off3 (v6 : BitVec 32) : Fin 2 → Nat :=
  let c0_i32_7 : BitVec 32 := 0#32
  ![v6.toNat, 0]

def k28_off4 (v9 : BitVec 32) : Fin 2 → Nat :=
  let c0_i32_11 : BitVec 32 := 0#32
  ![v9.toNat, 0]

def k28_off5 (v12 : BitVec 32) : Fin 2 → Nat :=
  let c0_i32_15 : BitVec 32 := 0#32
  ![v12.toNat, 0]

def k28_off6 (v15 : BitVec 32) : Fin 2 → Nat :=
  let c0_i32_19 : BitVec 32 := 0#32
  ![v15.toNat, 0]

def k28_off7 (v18 : BitVec 32) : Fin 2 → Nat :=
  let c0_i32_23 : BitVec 32 := 0#32
  ![v18.toNat, 0]

def k28_off8 (v21 : BitVec 32) : Fin 2 → Nat :=
  let c0_i32_27 : BitVec 32 := 0#32
  ![v21.toNat, 0]

def k28_off9 (v24 : BitVec 32) : Fin 2 → Nat :=
  let c0_i32_31 : BitVec 32 := 0#32
  ![v24.toNat, 0]

def k28_chk8 (v24 : BitVec 32) : Prop :=
  (∀ a, (k28_off9 v24) a + S1x128.size a ≤ S100000x128.size a)
instance k28_chk8.dec : ∀ (v24 : BitVec 32), Decidable (k28_chk8 v24) := fun v24 => decidable_of_iff' _ (Iff.of_eq (k28_chk8.eq_1 v24))
theorem k28_off9_inb : ∀ (v24 : BitVec 32) (k28_hw8 : k28_chk8 v24), ∀ a, (k28_off9 v24) a + S1x128.size a ≤ S100000x128.size a := fun v24 k28_hw8 => k28_hw8

def k28_off10 (v3 : BitVec 32) : Fin 2 → Nat :=
  let c0_i32_35 : BitVec 32 := 0#32
  ![v3.toNat, 0]

def k28_chk1 (v3 : BitVec 32) : Prop :=
  (∀ a, (k28_off2 v3) a + S1x128.size a ≤ S100000x128.size a) ∧
  (∀ a, (k28_off10 v3) a + S1x128.size a ≤ S100000x128.size a)
instance k28_chk1.dec : ∀ (v3 : BitVec 32), Decidable (k28_chk1 v3) := fun v3 => decidable_of_iff' _ (Iff.of_eq (k28_chk1.eq_1 v3))
theorem k28_off2_inb : ∀ (v3 : BitVec 32) (k28_hw1 : k28_chk1 v3), ∀ a, (k28_off2 v3) a + S1x128.size a ≤ S100000x128.size a := fun v3 k28_hw1 => k28_hw1.1
theorem k28_off10_inb : ∀ (v3 : BitVec 32) (k28_hw1 : k28_chk1 v3), ∀ a, (k28_off10 v3) a + S1x128.size a ≤ S100000x128.size a := fun v3 k28_hw1 => k28_hw1.2

def k28_off11 (v6 : BitVec 32) : Fin 2 → Nat :=
  let c0_i32_39 : BitVec 32 := 0#32
  ![v6.toNat, 0]

def k28_chk2 (v6 : BitVec 32) : Prop :=
  (∀ a, (k28_off3 v6) a + S1x128.size a ≤ S100000x128.size a) ∧
  (∀ a, (k28_off11 v6) a + S1x128.size a ≤ S100000x128.size a)
instance k28_chk2.dec : ∀ (v6 : BitVec 32), Decidable (k28_chk2 v6) := fun v6 => decidable_of_iff' _ (Iff.of_eq (k28_chk2.eq_1 v6))
theorem k28_off3_inb : ∀ (v6 : BitVec 32) (k28_hw2 : k28_chk2 v6), ∀ a, (k28_off3 v6) a + S1x128.size a ≤ S100000x128.size a := fun v6 k28_hw2 => k28_hw2.1
theorem k28_off11_inb : ∀ (v6 : BitVec 32) (k28_hw2 : k28_chk2 v6), ∀ a, (k28_off11 v6) a + S1x128.size a ≤ S100000x128.size a := fun v6 k28_hw2 => k28_hw2.2

def k28_off12 (v9 : BitVec 32) : Fin 2 → Nat :=
  let c0_i32_43 : BitVec 32 := 0#32
  ![v9.toNat, 0]

def k28_chk3 (v9 : BitVec 32) : Prop :=
  (∀ a, (k28_off4 v9) a + S1x128.size a ≤ S100000x128.size a) ∧
  (∀ a, (k28_off12 v9) a + S1x128.size a ≤ S100000x128.size a)
instance k28_chk3.dec : ∀ (v9 : BitVec 32), Decidable (k28_chk3 v9) := fun v9 => decidable_of_iff' _ (Iff.of_eq (k28_chk3.eq_1 v9))
theorem k28_off4_inb : ∀ (v9 : BitVec 32) (k28_hw3 : k28_chk3 v9), ∀ a, (k28_off4 v9) a + S1x128.size a ≤ S100000x128.size a := fun v9 k28_hw3 => k28_hw3.1
theorem k28_off12_inb : ∀ (v9 : BitVec 32) (k28_hw3 : k28_chk3 v9), ∀ a, (k28_off12 v9) a + S1x128.size a ≤ S100000x128.size a := fun v9 k28_hw3 => k28_hw3.2

def k28_off13 (v12 : BitVec 32) : Fin 2 → Nat :=
  let c0_i32_47 : BitVec 32 := 0#32
  ![v12.toNat, 0]

def k28_chk4 (v12 : BitVec 32) : Prop :=
  (∀ a, (k28_off5 v12) a + S1x128.size a ≤ S100000x128.size a) ∧
  (∀ a, (k28_off13 v12) a + S1x128.size a ≤ S100000x128.size a)
instance k28_chk4.dec : ∀ (v12 : BitVec 32), Decidable (k28_chk4 v12) := fun v12 => decidable_of_iff' _ (Iff.of_eq (k28_chk4.eq_1 v12))
theorem k28_off5_inb : ∀ (v12 : BitVec 32) (k28_hw4 : k28_chk4 v12), ∀ a, (k28_off5 v12) a + S1x128.size a ≤ S100000x128.size a := fun v12 k28_hw4 => k28_hw4.1
theorem k28_off13_inb : ∀ (v12 : BitVec 32) (k28_hw4 : k28_chk4 v12), ∀ a, (k28_off13 v12) a + S1x128.size a ≤ S100000x128.size a := fun v12 k28_hw4 => k28_hw4.2

def k28_off14 (v15 : BitVec 32) : Fin 2 → Nat :=
  let c0_i32_51 : BitVec 32 := 0#32
  ![v15.toNat, 0]

def k28_chk5 (v15 : BitVec 32) : Prop :=
  (∀ a, (k28_off6 v15) a + S1x128.size a ≤ S100000x128.size a) ∧
  (∀ a, (k28_off14 v15) a + S1x128.size a ≤ S100000x128.size a)
instance k28_chk5.dec : ∀ (v15 : BitVec 32), Decidable (k28_chk5 v15) := fun v15 => decidable_of_iff' _ (Iff.of_eq (k28_chk5.eq_1 v15))
theorem k28_off6_inb : ∀ (v15 : BitVec 32) (k28_hw5 : k28_chk5 v15), ∀ a, (k28_off6 v15) a + S1x128.size a ≤ S100000x128.size a := fun v15 k28_hw5 => k28_hw5.1
theorem k28_off14_inb : ∀ (v15 : BitVec 32) (k28_hw5 : k28_chk5 v15), ∀ a, (k28_off14 v15) a + S1x128.size a ≤ S100000x128.size a := fun v15 k28_hw5 => k28_hw5.2

def k28_off15 (v18 : BitVec 32) : Fin 2 → Nat :=
  let c0_i32_55 : BitVec 32 := 0#32
  ![v18.toNat, 0]

def k28_chk6 (v18 : BitVec 32) : Prop :=
  (∀ a, (k28_off7 v18) a + S1x128.size a ≤ S100000x128.size a) ∧
  (∀ a, (k28_off15 v18) a + S1x128.size a ≤ S100000x128.size a)
instance k28_chk6.dec : ∀ (v18 : BitVec 32), Decidable (k28_chk6 v18) := fun v18 => decidable_of_iff' _ (Iff.of_eq (k28_chk6.eq_1 v18))
theorem k28_off7_inb : ∀ (v18 : BitVec 32) (k28_hw6 : k28_chk6 v18), ∀ a, (k28_off7 v18) a + S1x128.size a ≤ S100000x128.size a := fun v18 k28_hw6 => k28_hw6.1
theorem k28_off15_inb : ∀ (v18 : BitVec 32) (k28_hw6 : k28_chk6 v18), ∀ a, (k28_off15 v18) a + S1x128.size a ≤ S100000x128.size a := fun v18 k28_hw6 => k28_hw6.2

def k28_off16 (v21 : BitVec 32) : Fin 2 → Nat :=
  let c0_i32_59 : BitVec 32 := 0#32
  ![v21.toNat, 0]

def k28_chk7 (v21 : BitVec 32) : Prop :=
  (∀ a, (k28_off8 v21) a + S1x128.size a ≤ S100000x128.size a) ∧
  (∀ a, (k28_off16 v21) a + S1x128.size a ≤ S100000x128.size a)
instance k28_chk7.dec : ∀ (v21 : BitVec 32), Decidable (k28_chk7 v21) := fun v21 => decidable_of_iff' _ (Iff.of_eq (k28_chk7.eq_1 v21))
theorem k28_off8_inb : ∀ (v21 : BitVec 32) (k28_hw7 : k28_chk7 v21), ∀ a, (k28_off8 v21) a + S1x128.size a ≤ S100000x128.size a := fun v21 k28_hw7 => k28_hw7.1
theorem k28_off16_inb : ∀ (v21 : BitVec 32) (k28_hw7 : k28_chk7 v21), ∀ a, (k28_off16 v21) a + S1x128.size a ≤ S100000x128.size a := fun v21 k28_hw7 => k28_hw7.2

def cc28_transform_1 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_2 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S8x1 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 2 → Memref sig .tc .vmem S8x128 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true]

abbrev grid29 : Pipeline.Grid := ⟨1, ![16384], ![false]⟩

abbrev pre29 : Pipeline.Prefetch sig := ⟨1, ![main_v195.idx], fun | 0 => main_v195.names | ⟨_ + 1, h⟩ => absurd h (Nat.not_lt.2 (Nat.le_add_left _ _)), fun | 0 => rfl | ⟨_ + 1, h⟩ => absurd h (Nat.not_lt.2 (Nat.le_add_left _ _))⟩

def k29_off1 (i : grid29.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k29_off2 (v3 : BitVec 32) : Fin 2 → Nat :=
  let c0_i32_3 : BitVec 32 := 0#32
  ![v3.toNat, 0]

def k29_off3 (v6 : BitVec 32) : Fin 2 → Nat :=
  let c0_i32_7 : BitVec 32 := 0#32
  ![v6.toNat, 0]

def k29_off4 (v9 : BitVec 32) : Fin 2 → Nat :=
  let c0_i32_11 : BitVec 32 := 0#32
  ![v9.toNat, 0]

def k29_off5 (v12 : BitVec 32) : Fin 2 → Nat :=
  let c0_i32_15 : BitVec 32 := 0#32
  ![v12.toNat, 0]

def k29_off6 (v15 : BitVec 32) : Fin 2 → Nat :=
  let c0_i32_19 : BitVec 32 := 0#32
  ![v15.toNat, 0]

def k29_off7 (v18 : BitVec 32) : Fin 2 → Nat :=
  let c0_i32_23 : BitVec 32 := 0#32
  ![v18.toNat, 0]

def k29_off8 (v21 : BitVec 32) : Fin 2 → Nat :=
  let c0_i32_27 : BitVec 32 := 0#32
  ![v21.toNat, 0]

def k29_off9 (v24 : BitVec 32) : Fin 2 → Nat :=
  let c0_i32_31 : BitVec 32 := 0#32
  ![v24.toNat, 0]

def k29_chk8 (v24 : BitVec 32) : Prop :=
  (∀ a, (k29_off9 v24) a + S1x128.size a ≤ S100000x128.size a)
instance k29_chk8.dec : ∀ (v24 : BitVec 32), Decidable (k29_chk8 v24) := fun v24 => decidable_of_iff' _ (Iff.of_eq (k29_chk8.eq_1 v24))
theorem k29_off9_inb : ∀ (v24 : BitVec 32) (k29_hw8 : k29_chk8 v24), ∀ a, (k29_off9 v24) a + S1x128.size a ≤ S100000x128.size a := fun v24 k29_hw8 => k29_hw8

def k29_off10 (v3 : BitVec 32) : Fin 2 → Nat :=
  let c0_i32_35 : BitVec 32 := 0#32
  ![v3.toNat, 0]

def k29_chk1 (v3 : BitVec 32) : Prop :=
  (∀ a, (k29_off2 v3) a + S1x128.size a ≤ S100000x128.size a) ∧
  (∀ a, (k29_off10 v3) a + S1x128.size a ≤ S100000x128.size a)
instance k29_chk1.dec : ∀ (v3 : BitVec 32), Decidable (k29_chk1 v3) := fun v3 => decidable_of_iff' _ (Iff.of_eq (k29_chk1.eq_1 v3))
theorem k29_off2_inb : ∀ (v3 : BitVec 32) (k29_hw1 : k29_chk1 v3), ∀ a, (k29_off2 v3) a + S1x128.size a ≤ S100000x128.size a := fun v3 k29_hw1 => k29_hw1.1
theorem k29_off10_inb : ∀ (v3 : BitVec 32) (k29_hw1 : k29_chk1 v3), ∀ a, (k29_off10 v3) a + S1x128.size a ≤ S100000x128.size a := fun v3 k29_hw1 => k29_hw1.2

def k29_off11 (v6 : BitVec 32) : Fin 2 → Nat :=
  let c0_i32_39 : BitVec 32 := 0#32
  ![v6.toNat, 0]

def k29_chk2 (v6 : BitVec 32) : Prop :=
  (∀ a, (k29_off3 v6) a + S1x128.size a ≤ S100000x128.size a) ∧
  (∀ a, (k29_off11 v6) a + S1x128.size a ≤ S100000x128.size a)
instance k29_chk2.dec : ∀ (v6 : BitVec 32), Decidable (k29_chk2 v6) := fun v6 => decidable_of_iff' _ (Iff.of_eq (k29_chk2.eq_1 v6))
theorem k29_off3_inb : ∀ (v6 : BitVec 32) (k29_hw2 : k29_chk2 v6), ∀ a, (k29_off3 v6) a + S1x128.size a ≤ S100000x128.size a := fun v6 k29_hw2 => k29_hw2.1
theorem k29_off11_inb : ∀ (v6 : BitVec 32) (k29_hw2 : k29_chk2 v6), ∀ a, (k29_off11 v6) a + S1x128.size a ≤ S100000x128.size a := fun v6 k29_hw2 => k29_hw2.2

def k29_off12 (v9 : BitVec 32) : Fin 2 → Nat :=
  let c0_i32_43 : BitVec 32 := 0#32
  ![v9.toNat, 0]

def k29_chk3 (v9 : BitVec 32) : Prop :=
  (∀ a, (k29_off4 v9) a + S1x128.size a ≤ S100000x128.size a) ∧
  (∀ a, (k29_off12 v9) a + S1x128.size a ≤ S100000x128.size a)
instance k29_chk3.dec : ∀ (v9 : BitVec 32), Decidable (k29_chk3 v9) := fun v9 => decidable_of_iff' _ (Iff.of_eq (k29_chk3.eq_1 v9))
theorem k29_off4_inb : ∀ (v9 : BitVec 32) (k29_hw3 : k29_chk3 v9), ∀ a, (k29_off4 v9) a + S1x128.size a ≤ S100000x128.size a := fun v9 k29_hw3 => k29_hw3.1
theorem k29_off12_inb : ∀ (v9 : BitVec 32) (k29_hw3 : k29_chk3 v9), ∀ a, (k29_off12 v9) a + S1x128.size a ≤ S100000x128.size a := fun v9 k29_hw3 => k29_hw3.2

def k29_off13 (v12 : BitVec 32) : Fin 2 → Nat :=
  let c0_i32_47 : BitVec 32 := 0#32
  ![v12.toNat, 0]

def k29_chk4 (v12 : BitVec 32) : Prop :=
  (∀ a, (k29_off5 v12) a + S1x128.size a ≤ S100000x128.size a) ∧
  (∀ a, (k29_off13 v12) a + S1x128.size a ≤ S100000x128.size a)
instance k29_chk4.dec : ∀ (v12 : BitVec 32), Decidable (k29_chk4 v12) := fun v12 => decidable_of_iff' _ (Iff.of_eq (k29_chk4.eq_1 v12))
theorem k29_off5_inb : ∀ (v12 : BitVec 32) (k29_hw4 : k29_chk4 v12), ∀ a, (k29_off5 v12) a + S1x128.size a ≤ S100000x128.size a := fun v12 k29_hw4 => k29_hw4.1
theorem k29_off13_inb : ∀ (v12 : BitVec 32) (k29_hw4 : k29_chk4 v12), ∀ a, (k29_off13 v12) a + S1x128.size a ≤ S100000x128.size a := fun v12 k29_hw4 => k29_hw4.2

def k29_off14 (v15 : BitVec 32) : Fin 2 → Nat :=
  let c0_i32_51 : BitVec 32 := 0#32
  ![v15.toNat, 0]

def k29_chk5 (v15 : BitVec 32) : Prop :=
  (∀ a, (k29_off6 v15) a + S1x128.size a ≤ S100000x128.size a) ∧
  (∀ a, (k29_off14 v15) a + S1x128.size a ≤ S100000x128.size a)
instance k29_chk5.dec : ∀ (v15 : BitVec 32), Decidable (k29_chk5 v15) := fun v15 => decidable_of_iff' _ (Iff.of_eq (k29_chk5.eq_1 v15))
theorem k29_off6_inb : ∀ (v15 : BitVec 32) (k29_hw5 : k29_chk5 v15), ∀ a, (k29_off6 v15) a + S1x128.size a ≤ S100000x128.size a := fun v15 k29_hw5 => k29_hw5.1
theorem k29_off14_inb : ∀ (v15 : BitVec 32) (k29_hw5 : k29_chk5 v15), ∀ a, (k29_off14 v15) a + S1x128.size a ≤ S100000x128.size a := fun v15 k29_hw5 => k29_hw5.2

def k29_off15 (v18 : BitVec 32) : Fin 2 → Nat :=
  let c0_i32_55 : BitVec 32 := 0#32
  ![v18.toNat, 0]

def k29_chk6 (v18 : BitVec 32) : Prop :=
  (∀ a, (k29_off7 v18) a + S1x128.size a ≤ S100000x128.size a) ∧
  (∀ a, (k29_off15 v18) a + S1x128.size a ≤ S100000x128.size a)
instance k29_chk6.dec : ∀ (v18 : BitVec 32), Decidable (k29_chk6 v18) := fun v18 => decidable_of_iff' _ (Iff.of_eq (k29_chk6.eq_1 v18))
theorem k29_off7_inb : ∀ (v18 : BitVec 32) (k29_hw6 : k29_chk6 v18), ∀ a, (k29_off7 v18) a + S1x128.size a ≤ S100000x128.size a := fun v18 k29_hw6 => k29_hw6.1
theorem k29_off15_inb : ∀ (v18 : BitVec 32) (k29_hw6 : k29_chk6 v18), ∀ a, (k29_off15 v18) a + S1x128.size a ≤ S100000x128.size a := fun v18 k29_hw6 => k29_hw6.2

def k29_off16 (v21 : BitVec 32) : Fin 2 → Nat :=
  let c0_i32_59 : BitVec 32 := 0#32
  ![v21.toNat, 0]

def k29_chk7 (v21 : BitVec 32) : Prop :=
  (∀ a, (k29_off8 v21) a + S1x128.size a ≤ S100000x128.size a) ∧
  (∀ a, (k29_off16 v21) a + S1x128.size a ≤ S100000x128.size a)
instance k29_chk7.dec : ∀ (v21 : BitVec 32), Decidable (k29_chk7 v21) := fun v21 => decidable_of_iff' _ (Iff.of_eq (k29_chk7.eq_1 v21))
theorem k29_off8_inb : ∀ (v21 : BitVec 32) (k29_hw7 : k29_chk7 v21), ∀ a, (k29_off8 v21) a + S1x128.size a ≤ S100000x128.size a := fun v21 k29_hw7 => k29_hw7.1
theorem k29_off16_inb : ∀ (v21 : BitVec 32) (k29_hw7 : k29_chk7 v21), ∀ a, (k29_off16 v21) a + S1x128.size a ≤ S100000x128.size a := fun v21 k29_hw7 => k29_hw7.2

def cc29_transform_1 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_2 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S8x1 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S8x128 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev grid30 : Pipeline.Grid := ⟨1, ![16384], ![false]⟩

abbrev pre30 : Pipeline.Prefetch sig := ⟨1, ![main_v198.idx], fun | 0 => main_v198.names | ⟨_ + 1, h⟩ => absurd h (Nat.not_lt.2 (Nat.le_add_left _ _)), fun | 0 => rfl | ⟨_ + 1, h⟩ => absurd h (Nat.not_lt.2 (Nat.le_add_left _ _))⟩

def k30_off1 (i : grid30.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k30_off2 (v3 : BitVec 32) : Fin 2 → Nat :=
  let c0_i32_3 : BitVec 32 := 0#32
  ![v3.toNat, 0]

def k30_off3 (v6 : BitVec 32) : Fin 2 → Nat :=
  let c0_i32_7 : BitVec 32 := 0#32
  ![v6.toNat, 0]

def k30_off4 (v9 : BitVec 32) : Fin 2 → Nat :=
  let c0_i32_11 : BitVec 32 := 0#32
  ![v9.toNat, 0]

def k30_off5 (v12 : BitVec 32) : Fin 2 → Nat :=
  let c0_i32_15 : BitVec 32 := 0#32
  ![v12.toNat, 0]

def k30_off6 (v15 : BitVec 32) : Fin 2 → Nat :=
  let c0_i32_19 : BitVec 32 := 0#32
  ![v15.toNat, 0]

def k30_off7 (v18 : BitVec 32) : Fin 2 → Nat :=
  let c0_i32_23 : BitVec 32 := 0#32
  ![v18.toNat, 0]

def k30_off8 (v21 : BitVec 32) : Fin 2 → Nat :=
  let c0_i32_27 : BitVec 32 := 0#32
  ![v21.toNat, 0]

def k30_off9 (v24 : BitVec 32) : Fin 2 → Nat :=
  let c0_i32_31 : BitVec 32 := 0#32
  ![v24.toNat, 0]

def k30_chk8 (v24 : BitVec 32) : Prop :=
  (∀ a, (k30_off9 v24) a + S1x128.size a ≤ S100000x128.size a)
instance k30_chk8.dec : ∀ (v24 : BitVec 32), Decidable (k30_chk8 v24) := fun v24 => decidable_of_iff' _ (Iff.of_eq (k30_chk8.eq_1 v24))
theorem k30_off9_inb : ∀ (v24 : BitVec 32) (k30_hw8 : k30_chk8 v24), ∀ a, (k30_off9 v24) a + S1x128.size a ≤ S100000x128.size a := fun v24 k30_hw8 => k30_hw8

def k30_off10 (v3 : BitVec 32) : Fin 2 → Nat :=
  let c0_i32_35 : BitVec 32 := 0#32
  ![v3.toNat, 0]

def k30_chk1 (v3 : BitVec 32) : Prop :=
  (∀ a, (k30_off2 v3) a + S1x128.size a ≤ S100000x128.size a) ∧
  (∀ a, (k30_off10 v3) a + S1x128.size a ≤ S100000x128.size a)
instance k30_chk1.dec : ∀ (v3 : BitVec 32), Decidable (k30_chk1 v3) := fun v3 => decidable_of_iff' _ (Iff.of_eq (k30_chk1.eq_1 v3))
theorem k30_off2_inb : ∀ (v3 : BitVec 32) (k30_hw1 : k30_chk1 v3), ∀ a, (k30_off2 v3) a + S1x128.size a ≤ S100000x128.size a := fun v3 k30_hw1 => k30_hw1.1
theorem k30_off10_inb : ∀ (v3 : BitVec 32) (k30_hw1 : k30_chk1 v3), ∀ a, (k30_off10 v3) a + S1x128.size a ≤ S100000x128.size a := fun v3 k30_hw1 => k30_hw1.2

def k30_off11 (v6 : BitVec 32) : Fin 2 → Nat :=
  let c0_i32_39 : BitVec 32 := 0#32
  ![v6.toNat, 0]

def k30_chk2 (v6 : BitVec 32) : Prop :=
  (∀ a, (k30_off3 v6) a + S1x128.size a ≤ S100000x128.size a) ∧
  (∀ a, (k30_off11 v6) a + S1x128.size a ≤ S100000x128.size a)
instance k30_chk2.dec : ∀ (v6 : BitVec 32), Decidable (k30_chk2 v6) := fun v6 => decidable_of_iff' _ (Iff.of_eq (k30_chk2.eq_1 v6))
theorem k30_off3_inb : ∀ (v6 : BitVec 32) (k30_hw2 : k30_chk2 v6), ∀ a, (k30_off3 v6) a + S1x128.size a ≤ S100000x128.size a := fun v6 k30_hw2 => k30_hw2.1
theorem k30_off11_inb : ∀ (v6 : BitVec 32) (k30_hw2 : k30_chk2 v6), ∀ a, (k30_off11 v6) a + S1x128.size a ≤ S100000x128.size a := fun v6 k30_hw2 => k30_hw2.2

def k30_off12 (v9 : BitVec 32) : Fin 2 → Nat :=
  let c0_i32_43 : BitVec 32 := 0#32
  ![v9.toNat, 0]

def k30_chk3 (v9 : BitVec 32) : Prop :=
  (∀ a, (k30_off4 v9) a + S1x128.size a ≤ S100000x128.size a) ∧
  (∀ a, (k30_off12 v9) a + S1x128.size a ≤ S100000x128.size a)
instance k30_chk3.dec : ∀ (v9 : BitVec 32), Decidable (k30_chk3 v9) := fun v9 => decidable_of_iff' _ (Iff.of_eq (k30_chk3.eq_1 v9))
theorem k30_off4_inb : ∀ (v9 : BitVec 32) (k30_hw3 : k30_chk3 v9), ∀ a, (k30_off4 v9) a + S1x128.size a ≤ S100000x128.size a := fun v9 k30_hw3 => k30_hw3.1
theorem k30_off12_inb : ∀ (v9 : BitVec 32) (k30_hw3 : k30_chk3 v9), ∀ a, (k30_off12 v9) a + S1x128.size a ≤ S100000x128.size a := fun v9 k30_hw3 => k30_hw3.2

def k30_off13 (v12 : BitVec 32) : Fin 2 → Nat :=
  let c0_i32_47 : BitVec 32 := 0#32
  ![v12.toNat, 0]

def k30_chk4 (v12 : BitVec 32) : Prop :=
  (∀ a, (k30_off5 v12) a + S1x128.size a ≤ S100000x128.size a) ∧
  (∀ a, (k30_off13 v12) a + S1x128.size a ≤ S100000x128.size a)
instance k30_chk4.dec : ∀ (v12 : BitVec 32), Decidable (k30_chk4 v12) := fun v12 => decidable_of_iff' _ (Iff.of_eq (k30_chk4.eq_1 v12))
theorem k30_off5_inb : ∀ (v12 : BitVec 32) (k30_hw4 : k30_chk4 v12), ∀ a, (k30_off5 v12) a + S1x128.size a ≤ S100000x128.size a := fun v12 k30_hw4 => k30_hw4.1
theorem k30_off13_inb : ∀ (v12 : BitVec 32) (k30_hw4 : k30_chk4 v12), ∀ a, (k30_off13 v12) a + S1x128.size a ≤ S100000x128.size a := fun v12 k30_hw4 => k30_hw4.2

def k30_off14 (v15 : BitVec 32) : Fin 2 → Nat :=
  let c0_i32_51 : BitVec 32 := 0#32
  ![v15.toNat, 0]

def k30_chk5 (v15 : BitVec 32) : Prop :=
  (∀ a, (k30_off6 v15) a + S1x128.size a ≤ S100000x128.size a) ∧
  (∀ a, (k30_off14 v15) a + S1x128.size a ≤ S100000x128.size a)
instance k30_chk5.dec : ∀ (v15 : BitVec 32), Decidable (k30_chk5 v15) := fun v15 => decidable_of_iff' _ (Iff.of_eq (k30_chk5.eq_1 v15))
theorem k30_off6_inb : ∀ (v15 : BitVec 32) (k30_hw5 : k30_chk5 v15), ∀ a, (k30_off6 v15) a + S1x128.size a ≤ S100000x128.size a := fun v15 k30_hw5 => k30_hw5.1
theorem k30_off14_inb : ∀ (v15 : BitVec 32) (k30_hw5 : k30_chk5 v15), ∀ a, (k30_off14 v15) a + S1x128.size a ≤ S100000x128.size a := fun v15 k30_hw5 => k30_hw5.2

def k30_off15 (v18 : BitVec 32) : Fin 2 → Nat :=
  let c0_i32_55 : BitVec 32 := 0#32
  ![v18.toNat, 0]

def k30_chk6 (v18 : BitVec 32) : Prop :=
  (∀ a, (k30_off7 v18) a + S1x128.size a ≤ S100000x128.size a) ∧
  (∀ a, (k30_off15 v18) a + S1x128.size a ≤ S100000x128.size a)
instance k30_chk6.dec : ∀ (v18 : BitVec 32), Decidable (k30_chk6 v18) := fun v18 => decidable_of_iff' _ (Iff.of_eq (k30_chk6.eq_1 v18))
theorem k30_off7_inb : ∀ (v18 : BitVec 32) (k30_hw6 : k30_chk6 v18), ∀ a, (k30_off7 v18) a + S1x128.size a ≤ S100000x128.size a := fun v18 k30_hw6 => k30_hw6.1
theorem k30_off15_inb : ∀ (v18 : BitVec 32) (k30_hw6 : k30_chk6 v18), ∀ a, (k30_off15 v18) a + S1x128.size a ≤ S100000x128.size a := fun v18 k30_hw6 => k30_hw6.2

def k30_off16 (v21 : BitVec 32) : Fin 2 → Nat :=
  let c0_i32_59 : BitVec 32 := 0#32
  ![v21.toNat, 0]

def k30_chk7 (v21 : BitVec 32) : Prop :=
  (∀ a, (k30_off8 v21) a + S1x128.size a ≤ S100000x128.size a) ∧
  (∀ a, (k30_off16 v21) a + S1x128.size a ≤ S100000x128.size a)
instance k30_chk7.dec : ∀ (v21 : BitVec 32), Decidable (k30_chk7 v21) := fun v21 => decidable_of_iff' _ (Iff.of_eq (k30_chk7.eq_1 v21))
theorem k30_off8_inb : ∀ (v21 : BitVec 32) (k30_hw7 : k30_chk7 v21), ∀ a, (k30_off8 v21) a + S1x128.size a ≤ S100000x128.size a := fun v21 k30_hw7 => k30_hw7.1
theorem k30_off16_inb : ∀ (v21 : BitVec 32) (k30_hw7 : k30_chk7 v21), ∀ a, (k30_off16 v21) a + S1x128.size a ≤ S100000x128.size a := fun v21 k30_hw7 => k30_hw7.2

def cc30_transform_1 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_2 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S8x1 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 2 → Memref sig .tc .vmem S8x128 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![true]

abbrev grid31 : Pipeline.Grid := ⟨1, ![16384], ![false]⟩

abbrev pre31 : Pipeline.Prefetch sig := ⟨1, ![main_v201.idx], fun | 0 => main_v201.names | ⟨_ + 1, h⟩ => absurd h (Nat.not_lt.2 (Nat.le_add_left _ _)), fun | 0 => rfl | ⟨_ + 1, h⟩ => absurd h (Nat.not_lt.2 (Nat.le_add_left _ _))⟩

def k31_off1 (i : grid31.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k31_off2 (v3 : BitVec 32) : Fin 2 → Nat :=
  let c0_i32_3 : BitVec 32 := 0#32
  ![v3.toNat, 0]

def k31_off3 (v6 : BitVec 32) : Fin 2 → Nat :=
  let c0_i32_7 : BitVec 32 := 0#32
  ![v6.toNat, 0]

def k31_off4 (v9 : BitVec 32) : Fin 2 → Nat :=
  let c0_i32_11 : BitVec 32 := 0#32
  ![v9.toNat, 0]

def k31_off5 (v12 : BitVec 32) : Fin 2 → Nat :=
  let c0_i32_15 : BitVec 32 := 0#32
  ![v12.toNat, 0]

def k31_off6 (v15 : BitVec 32) : Fin 2 → Nat :=
  let c0_i32_19 : BitVec 32 := 0#32
  ![v15.toNat, 0]

def k31_off7 (v18 : BitVec 32) : Fin 2 → Nat :=
  let c0_i32_23 : BitVec 32 := 0#32
  ![v18.toNat, 0]

def k31_off8 (v21 : BitVec 32) : Fin 2 → Nat :=
  let c0_i32_27 : BitVec 32 := 0#32
  ![v21.toNat, 0]

def k31_off9 (v24 : BitVec 32) : Fin 2 → Nat :=
  let c0_i32_31 : BitVec 32 := 0#32
  ![v24.toNat, 0]

def k31_chk8 (v24 : BitVec 32) : Prop :=
  (∀ a, (k31_off9 v24) a + S1x128.size a ≤ S100000x128.size a)
instance k31_chk8.dec : ∀ (v24 : BitVec 32), Decidable (k31_chk8 v24) := fun v24 => decidable_of_iff' _ (Iff.of_eq (k31_chk8.eq_1 v24))
theorem k31_off9_inb : ∀ (v24 : BitVec 32) (k31_hw8 : k31_chk8 v24), ∀ a, (k31_off9 v24) a + S1x128.size a ≤ S100000x128.size a := fun v24 k31_hw8 => k31_hw8

def k31_off10 (v3 : BitVec 32) : Fin 2 → Nat :=
  let c0_i32_35 : BitVec 32 := 0#32
  ![v3.toNat, 0]

def k31_chk1 (v3 : BitVec 32) : Prop :=
  (∀ a, (k31_off2 v3) a + S1x128.size a ≤ S100000x128.size a) ∧
  (∀ a, (k31_off10 v3) a + S1x128.size a ≤ S100000x128.size a)
instance k31_chk1.dec : ∀ (v3 : BitVec 32), Decidable (k31_chk1 v3) := fun v3 => decidable_of_iff' _ (Iff.of_eq (k31_chk1.eq_1 v3))
theorem k31_off2_inb : ∀ (v3 : BitVec 32) (k31_hw1 : k31_chk1 v3), ∀ a, (k31_off2 v3) a + S1x128.size a ≤ S100000x128.size a := fun v3 k31_hw1 => k31_hw1.1
theorem k31_off10_inb : ∀ (v3 : BitVec 32) (k31_hw1 : k31_chk1 v3), ∀ a, (k31_off10 v3) a + S1x128.size a ≤ S100000x128.size a := fun v3 k31_hw1 => k31_hw1.2

def k31_off11 (v6 : BitVec 32) : Fin 2 → Nat :=
  let c0_i32_39 : BitVec 32 := 0#32
  ![v6.toNat, 0]

def k31_chk2 (v6 : BitVec 32) : Prop :=
  (∀ a, (k31_off3 v6) a + S1x128.size a ≤ S100000x128.size a) ∧
  (∀ a, (k31_off11 v6) a + S1x128.size a ≤ S100000x128.size a)
instance k31_chk2.dec : ∀ (v6 : BitVec 32), Decidable (k31_chk2 v6) := fun v6 => decidable_of_iff' _ (Iff.of_eq (k31_chk2.eq_1 v6))
theorem k31_off3_inb : ∀ (v6 : BitVec 32) (k31_hw2 : k31_chk2 v6), ∀ a, (k31_off3 v6) a + S1x128.size a ≤ S100000x128.size a := fun v6 k31_hw2 => k31_hw2.1
theorem k31_off11_inb : ∀ (v6 : BitVec 32) (k31_hw2 : k31_chk2 v6), ∀ a, (k31_off11 v6) a + S1x128.size a ≤ S100000x128.size a := fun v6 k31_hw2 => k31_hw2.2

def k31_off12 (v9 : BitVec 32) : Fin 2 → Nat :=
  let c0_i32_43 : BitVec 32 := 0#32
  ![v9.toNat, 0]

def k31_chk3 (v9 : BitVec 32) : Prop :=
  (∀ a, (k31_off4 v9) a + S1x128.size a ≤ S100000x128.size a) ∧
  (∀ a, (k31_off12 v9) a + S1x128.size a ≤ S100000x128.size a)
instance k31_chk3.dec : ∀ (v9 : BitVec 32), Decidable (k31_chk3 v9) := fun v9 => decidable_of_iff' _ (Iff.of_eq (k31_chk3.eq_1 v9))
theorem k31_off4_inb : ∀ (v9 : BitVec 32) (k31_hw3 : k31_chk3 v9), ∀ a, (k31_off4 v9) a + S1x128.size a ≤ S100000x128.size a := fun v9 k31_hw3 => k31_hw3.1
theorem k31_off12_inb : ∀ (v9 : BitVec 32) (k31_hw3 : k31_chk3 v9), ∀ a, (k31_off12 v9) a + S1x128.size a ≤ S100000x128.size a := fun v9 k31_hw3 => k31_hw3.2

def k31_off13 (v12 : BitVec 32) : Fin 2 → Nat :=
  let c0_i32_47 : BitVec 32 := 0#32
  ![v12.toNat, 0]

def k31_chk4 (v12 : BitVec 32) : Prop :=
  (∀ a, (k31_off5 v12) a + S1x128.size a ≤ S100000x128.size a) ∧
  (∀ a, (k31_off13 v12) a + S1x128.size a ≤ S100000x128.size a)
instance k31_chk4.dec : ∀ (v12 : BitVec 32), Decidable (k31_chk4 v12) := fun v12 => decidable_of_iff' _ (Iff.of_eq (k31_chk4.eq_1 v12))
theorem k31_off5_inb : ∀ (v12 : BitVec 32) (k31_hw4 : k31_chk4 v12), ∀ a, (k31_off5 v12) a + S1x128.size a ≤ S100000x128.size a := fun v12 k31_hw4 => k31_hw4.1
theorem k31_off13_inb : ∀ (v12 : BitVec 32) (k31_hw4 : k31_chk4 v12), ∀ a, (k31_off13 v12) a + S1x128.size a ≤ S100000x128.size a := fun v12 k31_hw4 => k31_hw4.2

def k31_off14 (v15 : BitVec 32) : Fin 2 → Nat :=
  let c0_i32_51 : BitVec 32 := 0#32
  ![v15.toNat, 0]

def k31_chk5 (v15 : BitVec 32) : Prop :=
  (∀ a, (k31_off6 v15) a + S1x128.size a ≤ S100000x128.size a) ∧
  (∀ a, (k31_off14 v15) a + S1x128.size a ≤ S100000x128.size a)
instance k31_chk5.dec : ∀ (v15 : BitVec 32), Decidable (k31_chk5 v15) := fun v15 => decidable_of_iff' _ (Iff.of_eq (k31_chk5.eq_1 v15))
theorem k31_off6_inb : ∀ (v15 : BitVec 32) (k31_hw5 : k31_chk5 v15), ∀ a, (k31_off6 v15) a + S1x128.size a ≤ S100000x128.size a := fun v15 k31_hw5 => k31_hw5.1
theorem k31_off14_inb : ∀ (v15 : BitVec 32) (k31_hw5 : k31_chk5 v15), ∀ a, (k31_off14 v15) a + S1x128.size a ≤ S100000x128.size a := fun v15 k31_hw5 => k31_hw5.2

def k31_off15 (v18 : BitVec 32) : Fin 2 → Nat :=
  let c0_i32_55 : BitVec 32 := 0#32
  ![v18.toNat, 0]

def k31_chk6 (v18 : BitVec 32) : Prop :=
  (∀ a, (k31_off7 v18) a + S1x128.size a ≤ S100000x128.size a) ∧
  (∀ a, (k31_off15 v18) a + S1x128.size a ≤ S100000x128.size a)
instance k31_chk6.dec : ∀ (v18 : BitVec 32), Decidable (k31_chk6 v18) := fun v18 => decidable_of_iff' _ (Iff.of_eq (k31_chk6.eq_1 v18))
theorem k31_off7_inb : ∀ (v18 : BitVec 32) (k31_hw6 : k31_chk6 v18), ∀ a, (k31_off7 v18) a + S1x128.size a ≤ S100000x128.size a := fun v18 k31_hw6 => k31_hw6.1
theorem k31_off15_inb : ∀ (v18 : BitVec 32) (k31_hw6 : k31_chk6 v18), ∀ a, (k31_off15 v18) a + S1x128.size a ≤ S100000x128.size a := fun v18 k31_hw6 => k31_hw6.2

def k31_off16 (v21 : BitVec 32) : Fin 2 → Nat :=
  let c0_i32_59 : BitVec 32 := 0#32
  ![v21.toNat, 0]

def k31_chk7 (v21 : BitVec 32) : Prop :=
  (∀ a, (k31_off8 v21) a + S1x128.size a ≤ S100000x128.size a) ∧
  (∀ a, (k31_off16 v21) a + S1x128.size a ≤ S100000x128.size a)
instance k31_chk7.dec : ∀ (v21 : BitVec 32), Decidable (k31_chk7 v21) := fun v21 => decidable_of_iff' _ (Iff.of_eq (k31_chk7.eq_1 v21))
theorem k31_off8_inb : ∀ (v21 : BitVec 32) (k31_hw7 : k31_chk7 v21), ∀ a, (k31_off8 v21) a + S1x128.size a ≤ S100000x128.size a := fun v21 k31_hw7 => k31_hw7.1
theorem k31_off16_inb : ∀ (v21 : BitVec 32) (k31_hw7 : k31_chk7 v21), ∀ a, (k31_off16 v21) a + S1x128.size a ≤ S100000x128.size a := fun v21 k31_hw7 => k31_hw7.2

def cc31_transform_1 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_2 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage31_0 : Fin 2 → Memref sig .tc .vmem S8x1 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 2 → Memref sig .tc .vmem S8x128 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev grid32 : Pipeline.Grid := ⟨1, ![16384], ![false]⟩

abbrev pre32 : Pipeline.Prefetch sig := ⟨1, ![main_v204.idx], fun | 0 => main_v204.names | ⟨_ + 1, h⟩ => absurd h (Nat.not_lt.2 (Nat.le_add_left _ _)), fun | 0 => rfl | ⟨_ + 1, h⟩ => absurd h (Nat.not_lt.2 (Nat.le_add_left _ _))⟩

def k32_off1 (i : grid32.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k32_off2 (v3 : BitVec 32) : Fin 2 → Nat :=
  let c0_i32_3 : BitVec 32 := 0#32
  ![v3.toNat, 0]

def k32_off3 (v6 : BitVec 32) : Fin 2 → Nat :=
  let c0_i32_7 : BitVec 32 := 0#32
  ![v6.toNat, 0]

def k32_off4 (v9 : BitVec 32) : Fin 2 → Nat :=
  let c0_i32_11 : BitVec 32 := 0#32
  ![v9.toNat, 0]

def k32_off5 (v12 : BitVec 32) : Fin 2 → Nat :=
  let c0_i32_15 : BitVec 32 := 0#32
  ![v12.toNat, 0]

def k32_off6 (v15 : BitVec 32) : Fin 2 → Nat :=
  let c0_i32_19 : BitVec 32 := 0#32
  ![v15.toNat, 0]

def k32_off7 (v18 : BitVec 32) : Fin 2 → Nat :=
  let c0_i32_23 : BitVec 32 := 0#32
  ![v18.toNat, 0]

def k32_off8 (v21 : BitVec 32) : Fin 2 → Nat :=
  let c0_i32_27 : BitVec 32 := 0#32
  ![v21.toNat, 0]

def k32_off9 (v24 : BitVec 32) : Fin 2 → Nat :=
  let c0_i32_31 : BitVec 32 := 0#32
  ![v24.toNat, 0]

def k32_chk8 (v24 : BitVec 32) : Prop :=
  (∀ a, (k32_off9 v24) a + S1x128.size a ≤ S100000x128.size a)
instance k32_chk8.dec : ∀ (v24 : BitVec 32), Decidable (k32_chk8 v24) := fun v24 => decidable_of_iff' _ (Iff.of_eq (k32_chk8.eq_1 v24))
theorem k32_off9_inb : ∀ (v24 : BitVec 32) (k32_hw8 : k32_chk8 v24), ∀ a, (k32_off9 v24) a + S1x128.size a ≤ S100000x128.size a := fun v24 k32_hw8 => k32_hw8

def k32_off10 (v3 : BitVec 32) : Fin 2 → Nat :=
  let c0_i32_35 : BitVec 32 := 0#32
  ![v3.toNat, 0]

def k32_chk1 (v3 : BitVec 32) : Prop :=
  (∀ a, (k32_off2 v3) a + S1x128.size a ≤ S100000x128.size a) ∧
  (∀ a, (k32_off10 v3) a + S1x128.size a ≤ S100000x128.size a)
instance k32_chk1.dec : ∀ (v3 : BitVec 32), Decidable (k32_chk1 v3) := fun v3 => decidable_of_iff' _ (Iff.of_eq (k32_chk1.eq_1 v3))
theorem k32_off2_inb : ∀ (v3 : BitVec 32) (k32_hw1 : k32_chk1 v3), ∀ a, (k32_off2 v3) a + S1x128.size a ≤ S100000x128.size a := fun v3 k32_hw1 => k32_hw1.1
theorem k32_off10_inb : ∀ (v3 : BitVec 32) (k32_hw1 : k32_chk1 v3), ∀ a, (k32_off10 v3) a + S1x128.size a ≤ S100000x128.size a := fun v3 k32_hw1 => k32_hw1.2

def k32_off11 (v6 : BitVec 32) : Fin 2 → Nat :=
  let c0_i32_39 : BitVec 32 := 0#32
  ![v6.toNat, 0]

def k32_chk2 (v6 : BitVec 32) : Prop :=
  (∀ a, (k32_off3 v6) a + S1x128.size a ≤ S100000x128.size a) ∧
  (∀ a, (k32_off11 v6) a + S1x128.size a ≤ S100000x128.size a)
instance k32_chk2.dec : ∀ (v6 : BitVec 32), Decidable (k32_chk2 v6) := fun v6 => decidable_of_iff' _ (Iff.of_eq (k32_chk2.eq_1 v6))
theorem k32_off3_inb : ∀ (v6 : BitVec 32) (k32_hw2 : k32_chk2 v6), ∀ a, (k32_off3 v6) a + S1x128.size a ≤ S100000x128.size a := fun v6 k32_hw2 => k32_hw2.1
theorem k32_off11_inb : ∀ (v6 : BitVec 32) (k32_hw2 : k32_chk2 v6), ∀ a, (k32_off11 v6) a + S1x128.size a ≤ S100000x128.size a := fun v6 k32_hw2 => k32_hw2.2

def k32_off12 (v9 : BitVec 32) : Fin 2 → Nat :=
  let c0_i32_43 : BitVec 32 := 0#32
  ![v9.toNat, 0]

def k32_chk3 (v9 : BitVec 32) : Prop :=
  (∀ a, (k32_off4 v9) a + S1x128.size a ≤ S100000x128.size a) ∧
  (∀ a, (k32_off12 v9) a + S1x128.size a ≤ S100000x128.size a)
instance k32_chk3.dec : ∀ (v9 : BitVec 32), Decidable (k32_chk3 v9) := fun v9 => decidable_of_iff' _ (Iff.of_eq (k32_chk3.eq_1 v9))
theorem k32_off4_inb : ∀ (v9 : BitVec 32) (k32_hw3 : k32_chk3 v9), ∀ a, (k32_off4 v9) a + S1x128.size a ≤ S100000x128.size a := fun v9 k32_hw3 => k32_hw3.1
theorem k32_off12_inb : ∀ (v9 : BitVec 32) (k32_hw3 : k32_chk3 v9), ∀ a, (k32_off12 v9) a + S1x128.size a ≤ S100000x128.size a := fun v9 k32_hw3 => k32_hw3.2

def k32_off13 (v12 : BitVec 32) : Fin 2 → Nat :=
  let c0_i32_47 : BitVec 32 := 0#32
  ![v12.toNat, 0]

def k32_chk4 (v12 : BitVec 32) : Prop :=
  (∀ a, (k32_off5 v12) a + S1x128.size a ≤ S100000x128.size a) ∧
  (∀ a, (k32_off13 v12) a + S1x128.size a ≤ S100000x128.size a)
instance k32_chk4.dec : ∀ (v12 : BitVec 32), Decidable (k32_chk4 v12) := fun v12 => decidable_of_iff' _ (Iff.of_eq (k32_chk4.eq_1 v12))
theorem k32_off5_inb : ∀ (v12 : BitVec 32) (k32_hw4 : k32_chk4 v12), ∀ a, (k32_off5 v12) a + S1x128.size a ≤ S100000x128.size a := fun v12 k32_hw4 => k32_hw4.1
theorem k32_off13_inb : ∀ (v12 : BitVec 32) (k32_hw4 : k32_chk4 v12), ∀ a, (k32_off13 v12) a + S1x128.size a ≤ S100000x128.size a := fun v12 k32_hw4 => k32_hw4.2

def k32_off14 (v15 : BitVec 32) : Fin 2 → Nat :=
  let c0_i32_51 : BitVec 32 := 0#32
  ![v15.toNat, 0]

def k32_chk5 (v15 : BitVec 32) : Prop :=
  (∀ a, (k32_off6 v15) a + S1x128.size a ≤ S100000x128.size a) ∧
  (∀ a, (k32_off14 v15) a + S1x128.size a ≤ S100000x128.size a)
instance k32_chk5.dec : ∀ (v15 : BitVec 32), Decidable (k32_chk5 v15) := fun v15 => decidable_of_iff' _ (Iff.of_eq (k32_chk5.eq_1 v15))
theorem k32_off6_inb : ∀ (v15 : BitVec 32) (k32_hw5 : k32_chk5 v15), ∀ a, (k32_off6 v15) a + S1x128.size a ≤ S100000x128.size a := fun v15 k32_hw5 => k32_hw5.1
theorem k32_off14_inb : ∀ (v15 : BitVec 32) (k32_hw5 : k32_chk5 v15), ∀ a, (k32_off14 v15) a + S1x128.size a ≤ S100000x128.size a := fun v15 k32_hw5 => k32_hw5.2

def k32_off15 (v18 : BitVec 32) : Fin 2 → Nat :=
  let c0_i32_55 : BitVec 32 := 0#32
  ![v18.toNat, 0]

def k32_chk6 (v18 : BitVec 32) : Prop :=
  (∀ a, (k32_off7 v18) a + S1x128.size a ≤ S100000x128.size a) ∧
  (∀ a, (k32_off15 v18) a + S1x128.size a ≤ S100000x128.size a)
instance k32_chk6.dec : ∀ (v18 : BitVec 32), Decidable (k32_chk6 v18) := fun v18 => decidable_of_iff' _ (Iff.of_eq (k32_chk6.eq_1 v18))
theorem k32_off7_inb : ∀ (v18 : BitVec 32) (k32_hw6 : k32_chk6 v18), ∀ a, (k32_off7 v18) a + S1x128.size a ≤ S100000x128.size a := fun v18 k32_hw6 => k32_hw6.1
theorem k32_off15_inb : ∀ (v18 : BitVec 32) (k32_hw6 : k32_chk6 v18), ∀ a, (k32_off15 v18) a + S1x128.size a ≤ S100000x128.size a := fun v18 k32_hw6 => k32_hw6.2

def k32_off16 (v21 : BitVec 32) : Fin 2 → Nat :=
  let c0_i32_59 : BitVec 32 := 0#32
  ![v21.toNat, 0]

def k32_chk7 (v21 : BitVec 32) : Prop :=
  (∀ a, (k32_off8 v21) a + S1x128.size a ≤ S100000x128.size a) ∧
  (∀ a, (k32_off16 v21) a + S1x128.size a ≤ S100000x128.size a)
instance k32_chk7.dec : ∀ (v21 : BitVec 32), Decidable (k32_chk7 v21) := fun v21 => decidable_of_iff' _ (Iff.of_eq (k32_chk7.eq_1 v21))
theorem k32_off8_inb : ∀ (v21 : BitVec 32) (k32_hw7 : k32_chk7 v21), ∀ a, (k32_off8 v21) a + S1x128.size a ≤ S100000x128.size a := fun v21 k32_hw7 => k32_hw7.1
theorem k32_off16_inb : ∀ (v21 : BitVec 32) (k32_hw7 : k32_chk7 v21), ∀ a, (k32_off16 v21) a + S1x128.size a ≤ S100000x128.size a := fun v21 k32_hw7 => k32_hw7.2

def cc32_transform_1 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_2 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S8x1 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 2 → Memref sig .tc .vmem S8x128 .f32 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![true]

abbrev grid33 : Pipeline.Grid := ⟨1, ![50], ![false]⟩

def cc33_transform_0 (i : grid33.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc33_transform_1 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage33_0 : Fin 2 → Memref sig .tc .vmem S4x2000x128 .f32 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev stage33_1 : Fin 2 → Memref sig .tc .vmem S2000x128 .f32 := fun | 0 => Memref.whole cc33_stg1_0 | 1 => Memref.whole cc33_stg1_1 | ⟨_ + 2, h⟩ => absurd h (Nat.not_lt.2 (Nat.le_add_left _ _))
abbrev sem33_1 : Fin 2 → DmaSem sig := fun | 0 => cc33_sem1_0 | 1 => cc33_sem1_1 | ⟨_ + 2, h⟩ => absurd h (Nat.not_lt.2 (Nat.le_add_left _ _))
abbrev reads33_1 : Fin grid33.rank → Bool := ![true]

class Facts₀ : Prop where
  slices_S4x500000_S1x500000_0_0 : S4x500000.Slices ![0, 0] S1x500000
  shapeCasts_S1x500000_S500000 : S1x500000.ShapeCasts S500000
  pads_S500000_S524288_0242880 : S500000.Pads (![0] : Fin 1 → Nat) ![24288] ![0] S524288
  h_S_ : 0 < S_.numel
  shapeCasts_S524288_S524288x1 : S524288.ShapeCasts S524288x1
  slices_S524288_S131072_0 : S524288.Slices ![0] S131072
  slices_S524288x1_S131072x1_0_0 : S524288x1.Slices ![0, 0] S131072x1
  numel1_S1 : S1.numel = 1
  inb_S8_S1_0 : ∀ a, (![0] : Fin 1 → Nat) a + S1.size a ≤ S8.size a
  squeezes_S1_S_ : S1.Squeezes S_
  inb_S8x128_S1x128_0_0 : ∀ a, (![0, 0] : Fin 2 → Nat) a + S1x128.size a ≤ S8x128.size a
  inb_S8_S1_1 : ∀ a, (![1] : Fin 1 → Nat) a + S1.size a ≤ S8.size a
  inb_S8x128_S1x128_1_0 : ∀ a, (![1, 0] : Fin 2 → Nat) a + S1x128.size a ≤ S8x128.size a
  inb_S8_S1_2 : ∀ a, (![2] : Fin 1 → Nat) a + S1.size a ≤ S8.size a
  inb_S8x128_S1x128_2_0 : ∀ a, (![2, 0] : Fin 2 → Nat) a + S1x128.size a ≤ S8x128.size a
  inb_S8_S1_3 : ∀ a, (![3] : Fin 1 → Nat) a + S1.size a ≤ S8.size a
  inb_S8x128_S1x128_3_0 : ∀ a, (![3, 0] : Fin 2 → Nat) a + S1x128.size a ≤ S8x128.size a
  inb_S8_S1_4 : ∀ a, (![4] : Fin 1 → Nat) a + S1.size a ≤ S8.size a
  inb_S8x128_S1x128_4_0 : ∀ a, (![4, 0] : Fin 2 → Nat) a + S1x128.size a ≤ S8x128.size a
  inb_S8_S1_5 : ∀ a, (![5] : Fin 1 → Nat) a + S1.size a ≤ S8.size a
  inb_S8x128_S1x128_5_0 : ∀ a, (![5, 0] : Fin 2 → Nat) a + S1x128.size a ≤ S8x128.size a
  inb_S8_S1_6 : ∀ a, (![6] : Fin 1 → Nat) a + S1.size a ≤ S8.size a
  inb_S8x128_S1x128_6_0 : ∀ a, (![6, 0] : Fin 2 → Nat) a + S1x128.size a ≤ S8x128.size a
  inb_S8_S1_7 : ∀ a, (![7] : Fin 1 → Nat) a + S1.size a ≤ S8.size a
  inb_S8x128_S1x128_7_0 : ∀ a, (![7, 0] : Fin 2 → Nat) a + S1x128.size a ≤ S8x128.size a
  inb_S8x128_S8x128_0_0 : ∀ a, (![0, 0] : Fin 2 → Nat) a + S8x128.size a ≤ S8x128.size a
  h_S8x128 : 0 < S8x128.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x128 : S8x1.Broadcasts S8x128
  slices_S524288_S131072_131072 : S524288.Slices ![131072] S131072
  slices_S524288x1_S131072x1_131072_0 : S524288x1.Slices ![131072, 0] S131072x1
  slices_S524288_S131072_262144 : S524288.Slices ![262144] S131072
  slices_S524288x1_S131072x1_262144_0 : S524288x1.Slices ![262144, 0] S131072x1
  slices_S524288_S131072_393216 : S524288.Slices ![393216] S131072
  slices_S524288x1_S131072x1_393216_0 : S524288x1.Slices ![393216, 0] S131072x1
  concatenates_S131072x128_S131072x128_S131072x128_S131072x128_S524288x128_d0 : Shape.Concatenates [S131072x128, S131072x128, S131072x128, S131072x128] S524288x128 0
  slices_S524288x128_S500000x128_0_0 : S524288x128.Slices ![0, 0] S500000x128
  bcast_S_S100000x128 : S_.BroadcastsInDim S100000x128 (![] : Fin 0 → Fin S100000x128.rank)
  bcast_S500000_S500000x1_0 : S500000.BroadcastsInDim S500000x1 (![0] : Fin 1 → Fin S500000x1.rank)
  slices_S4x500000_S1x500000_1_0 : S4x500000.Slices ![1, 0] S1x500000
  slices_S4x500000_S1x500000_2_0 : S4x500000.Slices ![2, 0] S1x500000
  slices_S4x500000_S1x500000_3_0 : S4x500000.Slices ![3, 0] S1x500000
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  inb_S4x2000x128_S4x2000x128_0_0_0 : ∀ a, (![0, 0, 0] : Fin 3 → Nat) a + S4x2000x128.size a ≤ S4x2000x128.size a
  h_S4x2000x128 : 0 < S4x2000x128.numel
  shapeCasts_S4x2000x128_S4x2000x128 : S4x2000x128.ShapeCasts S4x2000x128
  reduces_S4x2000x128_S2000x128 : S4x2000x128.Reduces [0] S2000x128
  inb_S2000x128_S2000x128_0_0 : ∀ a, (![0, 0] : Fin 2 → Nat) a + S2000x128.size a ≤ S2000x128.size a
  h_S2000x128 : 0 < S2000x128.numel
  scatter_S100000x128_S500000x1_S500000x128_1_0_0_1_wf : ScatterDims.WF S100000x128 S500000x1 S500000x128 [1] [0] [0] 1
  hcc0_scratch1 : 4 + S8.numel ≤ 392
  hcc1_scratch1 : 16 + S8.numel ≤ 392
  hcc2_scratch1 : 28 + S8.numel ≤ 392
  hcc3_scratch1 : 40 + S8.numel ≤ 392
  hcc4_scratch1 : 52 + S8.numel ≤ 392
  hcc5_scratch1 : 64 + S8.numel ≤ 392
  hcc6_scratch1 : 76 + S8.numel ≤ 392
  hcc7_scratch1 : 88 + S8.numel ≤ 392
  hcc8_scratch1 : 100 + S8.numel ≤ 392
  hcc9_scratch1 : 112 + S8.numel ≤ 392
  hcc10_scratch1 : 124 + S8.numel ≤ 392
  hcc11_scratch1 : 136 + S8.numel ≤ 392
  hcc12_scratch1 : 148 + S8.numel ≤ 392
  hcc13_scratch1 : 160 + S8.numel ≤ 392
  hcc14_scratch1 : 172 + S8.numel ≤ 392
  hcc15_scratch1 : 184 + S8.numel ≤ 392
  hcc17_scratch1 : 200 + S8.numel ≤ 392
  hcc18_scratch1 : 212 + S8.numel ≤ 392
  hcc19_scratch1 : 224 + S8.numel ≤ 392
  hcc20_scratch1 : 236 + S8.numel ≤ 392
  hcc21_scratch1 : 248 + S8.numel ≤ 392
  hcc22_scratch1 : 260 + S8.numel ≤ 392
  hcc23_scratch1 : 272 + S8.numel ≤ 392
  hcc24_scratch1 : 284 + S8.numel ≤ 392
  hcc25_scratch1 : 296 + S8.numel ≤ 392
  hcc26_scratch1 : 308 + S8.numel ≤ 392
  hcc27_scratch1 : 320 + S8.numel ≤ 392
  hcc28_scratch1 : 332 + S8.numel ≤ 392
  hcc29_scratch1 : 344 + S8.numel ≤ 392
  hcc30_scratch1 : 356 + S8.numel ≤ 392
  hcc31_scratch1 : 368 + S8.numel ≤ 392
  hcc32_scratch1 : 380 + S8.numel ≤ 392
  hrank0 : 0 < grid0.rank
  k0_off1_inb : ∀ i : grid0.Coords, ∀ (r : Fin 8), ∀ a, (k0_off1 i (BitVec.ofNat 32 r.val)) a + S1.size a ≤ S131072.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x1.size a ≤ S131072x1.size a
  hwx0_0 : ∀ i : grid0.Coords, EltTy.bits .f32 = 32 ∨ (Rect.block (s := S131072x1) S8x1.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S8x128.size a ≤ S131072x128.size a
  hwx0_1 : ∀ i : grid0.Coords, EltTy.bits .f32 = 32 ∨ (Rect.block (s := S131072x128) S8x128.size (cc0_transform_2 i) (hinb0_1 i)).WholeWords (EltTy.packing .f32)
  hrank1 : 0 < grid1.rank
  k1_off1_inb : ∀ i : grid1.Coords, ∀ (r : Fin 8), ∀ a, (k1_off1 i (BitVec.ofNat 32 r.val)) a + S1.size a ≤ S131072.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S8x1.size a ≤ S131072x1.size a
  hwx1_0 : ∀ i : grid1.Coords, EltTy.bits .f32 = 32 ∨ (Rect.block (s := S131072x1) S8x1.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S8x128.size a ≤ S131072x128.size a
  hwx1_1 : ∀ i : grid1.Coords, EltTy.bits .f32 = 32 ∨ (Rect.block (s := S131072x128) S8x128.size (cc1_transform_2 i) (hinb1_1 i)).WholeWords (EltTy.packing .f32)
  hrank2 : 0 < grid2.rank
  k2_off1_inb : ∀ i : grid2.Coords, ∀ (r : Fin 8), ∀ a, (k2_off1 i (BitVec.ofNat 32 r.val)) a + S1.size a ≤ S131072.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x1.size a ≤ S131072x1.size a
  hwx2_0 : ∀ i : grid2.Coords, EltTy.bits .f32 = 32 ∨ (Rect.block (s := S131072x1) S8x1.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S8x128.size a ≤ S131072x128.size a
  hwx2_1 : ∀ i : grid2.Coords, EltTy.bits .f32 = 32 ∨ (Rect.block (s := S131072x128) S8x128.size (cc2_transform_2 i) (hinb2_1 i)).WholeWords (EltTy.packing .f32)
  hrank3 : 0 < grid3.rank
  k3_off1_inb : ∀ i : grid3.Coords, ∀ (r : Fin 8), ∀ a, (k3_off1 i (BitVec.ofNat 32 r.val)) a + S1.size a ≤ S131072.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S8x1.size a ≤ S131072x1.size a
  hwx3_0 : ∀ i : grid3.Coords, EltTy.bits .f32 = 32 ∨ (Rect.block (s := S131072x1) S8x1.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S8x128.size a ≤ S131072x128.size a
  hwx3_1 : ∀ i : grid3.Coords, EltTy.bits .f32 = 32 ∨ (Rect.block (s := S131072x128) S8x128.size (cc3_transform_2 i) (hinb3_1 i)).WholeWords (EltTy.packing .f32)
  hrank4 : 0 < grid4.rank
  k4_off1_inb : ∀ i : grid4.Coords, ∀ (r : Fin 8), ∀ a, (k4_off1 i (BitVec.ofNat 32 r.val)) a + S1.size a ≤ S131072.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S8x1.size a ≤ S131072x1.size a
  hwx4_0 : ∀ i : grid4.Coords, EltTy.bits .f32 = 32 ∨ (Rect.block (s := S131072x1) S8x1.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S8x128.size a ≤ S131072x128.size a
  hwx4_1 : ∀ i : grid4.Coords, EltTy.bits .f32 = 32 ∨ (Rect.block (s := S131072x128) S8x128.size (cc4_transform_2 i) (hinb4_1 i)).WholeWords (EltTy.packing .f32)
  hrank5 : 0 < grid5.rank
  k5_off1_inb : ∀ i : grid5.Coords, ∀ (r : Fin 8), ∀ a, (k5_off1 i (BitVec.ofNat 32 r.val)) a + S1.size a ≤ S131072.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S8x1.size a ≤ S131072x1.size a
  hwx5_0 : ∀ i : grid5.Coords, EltTy.bits .f32 = 32 ∨ (Rect.block (s := S131072x1) S8x1.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S8x128.size a ≤ S131072x128.size a
  hwx5_1 : ∀ i : grid5.Coords, EltTy.bits .f32 = 32 ∨ (Rect.block (s := S131072x128) S8x128.size (cc5_transform_2 i) (hinb5_1 i)).WholeWords (EltTy.packing .f32)
  hrank6 : 0 < grid6.rank
  k6_off1_inb : ∀ i : grid6.Coords, ∀ (r : Fin 8), ∀ a, (k6_off1 i (BitVec.ofNat 32 r.val)) a + S1.size a ≤ S131072.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S8x1.size a ≤ S131072x1.size a
  hwx6_0 : ∀ i : grid6.Coords, EltTy.bits .f32 = 32 ∨ (Rect.block (s := S131072x1) S8x1.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S8x128.size a ≤ S131072x128.size a
  hwx6_1 : ∀ i : grid6.Coords, EltTy.bits .f32 = 32 ∨ (Rect.block (s := S131072x128) S8x128.size (cc6_transform_2 i) (hinb6_1 i)).WholeWords (EltTy.packing .f32)
  hrank7 : 0 < grid7.rank
  k7_off1_inb : ∀ i : grid7.Coords, ∀ (r : Fin 8), ∀ a, (k7_off1 i (BitVec.ofNat 32 r.val)) a + S1.size a ≤ S131072.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S8x1.size a ≤ S131072x1.size a
  hwx7_0 : ∀ i : grid7.Coords, EltTy.bits .f32 = 32 ∨ (Rect.block (s := S131072x1) S8x1.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S8x128.size a ≤ S131072x128.size a
  hwx7_1 : ∀ i : grid7.Coords, EltTy.bits .f32 = 32 ∨ (Rect.block (s := S131072x128) S8x128.size (cc7_transform_2 i) (hinb7_1 i)).WholeWords (EltTy.packing .f32)
  hrank8 : 0 < grid8.rank
  k8_off1_inb : ∀ i : grid8.Coords, ∀ (r : Fin 8), ∀ a, (k8_off1 i (BitVec.ofNat 32 r.val)) a + S1.size a ≤ S131072.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S8x1.size a ≤ S131072x1.size a
  hwx8_0 : ∀ i : grid8.Coords, EltTy.bits .f32 = 32 ∨ (Rect.block (s := S131072x1) S8x1.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S8x128.size a ≤ S131072x128.size a
  hwx8_1 : ∀ i : grid8.Coords, EltTy.bits .f32 = 32 ∨ (Rect.block (s := S131072x128) S8x128.size (cc8_transform_2 i) (hinb8_1 i)).WholeWords (EltTy.packing .f32)
  hrank9 : 0 < grid9.rank
  k9_off1_inb : ∀ i : grid9.Coords, ∀ (r : Fin 8), ∀ a, (k9_off1 i (BitVec.ofNat 32 r.val)) a + S1.size a ≤ S131072.size a
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S8x1.size a ≤ S131072x1.size a
  hwx9_0 : ∀ i : grid9.Coords, EltTy.bits .f32 = 32 ∨ (Rect.block (s := S131072x1) S8x1.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S8x128.size a ≤ S131072x128.size a
  hwx9_1 : ∀ i : grid9.Coords, EltTy.bits .f32 = 32 ∨ (Rect.block (s := S131072x128) S8x128.size (cc9_transform_2 i) (hinb9_1 i)).WholeWords (EltTy.packing .f32)
  hrank10 : 0 < grid10.rank
  k10_off1_inb : ∀ i : grid10.Coords, ∀ (r : Fin 8), ∀ a, (k10_off1 i (BitVec.ofNat 32 r.val)) a + S1.size a ≤ S131072.size a
  hstage10_0 : ∀ j, (stage10_0 j).IsWhole
  nbuf10_0 : grid10.bufCount reads10_0 false = 2
  hreads10_0 : ∀ i i' : grid10.Coords, (∀ a, reads10_0 a = true → i a = i' a) → cc10_transform_1 i = cc10_transform_1 i'
  hinb10_0 : ∀ (i : grid10.Coords) a, (cc10_transform_1 i a + 1) * S8x1.size a ≤ S131072x1.size a
  hwx10_0 : ∀ i : grid10.Coords, EltTy.bits .f32 = 32 ∨ (Rect.block (s := S131072x1) S8x1.size (cc10_transform_1 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_2 i = cc10_transform_2 i'
  hinb10_1 : ∀ (i : grid10.Coords) a, (cc10_transform_2 i a + 1) * S8x128.size a ≤ S131072x128.size a
  hwx10_1 : ∀ i : grid10.Coords, EltTy.bits .f32 = 32 ∨ (Rect.block (s := S131072x128) S8x128.size (cc10_transform_2 i) (hinb10_1 i)).WholeWords (EltTy.packing .f32)
  hrank11 : 0 < grid11.rank
  k11_off1_inb : ∀ i : grid11.Coords, ∀ (r : Fin 8), ∀ a, (k11_off1 i (BitVec.ofNat 32 r.val)) a + S1.size a ≤ S131072.size a
  hstage11_0 : ∀ j, (stage11_0 j).IsWhole
  nbuf11_0 : grid11.bufCount reads11_0 false = 2
  hreads11_0 : ∀ i i' : grid11.Coords, (∀ a, reads11_0 a = true → i a = i' a) → cc11_transform_1 i = cc11_transform_1 i'
  hinb11_0 : ∀ (i : grid11.Coords) a, (cc11_transform_1 i a + 1) * S8x1.size a ≤ S131072x1.size a
  hwx11_0 : ∀ i : grid11.Coords, EltTy.bits .f32 = 32 ∨ (Rect.block (s := S131072x1) S8x1.size (cc11_transform_1 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_2 i = cc11_transform_2 i'
  hinb11_1 : ∀ (i : grid11.Coords) a, (cc11_transform_2 i a + 1) * S8x128.size a ≤ S131072x128.size a
  hwx11_1 : ∀ i : grid11.Coords, EltTy.bits .f32 = 32 ∨ (Rect.block (s := S131072x128) S8x128.size (cc11_transform_2 i) (hinb11_1 i)).WholeWords (EltTy.packing .f32)
  hrank12 : 0 < grid12.rank
  k12_off1_inb : ∀ i : grid12.Coords, ∀ (r : Fin 8), ∀ a, (k12_off1 i (BitVec.ofNat 32 r.val)) a + S1.size a ≤ S131072.size a
  hstage12_0 : ∀ j, (stage12_0 j).IsWhole
  nbuf12_0 : grid12.bufCount reads12_0 false = 2
  hreads12_0 : ∀ i i' : grid12.Coords, (∀ a, reads12_0 a = true → i a = i' a) → cc12_transform_1 i = cc12_transform_1 i'
  hinb12_0 : ∀ (i : grid12.Coords) a, (cc12_transform_1 i a + 1) * S8x1.size a ≤ S131072x1.size a
  hwx12_0 : ∀ i : grid12.Coords, EltTy.bits .f32 = 32 ∨ (Rect.block (s := S131072x1) S8x1.size (cc12_transform_1 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_2 i = cc12_transform_2 i'
  hinb12_1 : ∀ (i : grid12.Coords) a, (cc12_transform_2 i a + 1) * S8x128.size a ≤ S131072x128.size a
  hwx12_1 : ∀ i : grid12.Coords, EltTy.bits .f32 = 32 ∨ (Rect.block (s := S131072x128) S8x128.size (cc12_transform_2 i) (hinb12_1 i)).WholeWords (EltTy.packing .f32)
  hrank13 : 0 < grid13.rank
  k13_off1_inb : ∀ i : grid13.Coords, ∀ (r : Fin 8), ∀ a, (k13_off1 i (BitVec.ofNat 32 r.val)) a + S1.size a ≤ S131072.size a
  hstage13_0 : ∀ j, (stage13_0 j).IsWhole
  nbuf13_0 : grid13.bufCount reads13_0 false = 2
  hreads13_0 : ∀ i i' : grid13.Coords, (∀ a, reads13_0 a = true → i a = i' a) → cc13_transform_1 i = cc13_transform_1 i'
  hinb13_0 : ∀ (i : grid13.Coords) a, (cc13_transform_1 i a + 1) * S8x1.size a ≤ S131072x1.size a
  hwx13_0 : ∀ i : grid13.Coords, EltTy.bits .f32 = 32 ∨ (Rect.block (s := S131072x1) S8x1.size (cc13_transform_1 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_2 i = cc13_transform_2 i'
  hinb13_1 : ∀ (i : grid13.Coords) a, (cc13_transform_2 i a + 1) * S8x128.size a ≤ S131072x128.size a
  hwx13_1 : ∀ i : grid13.Coords, EltTy.bits .f32 = 32 ∨ (Rect.block (s := S131072x128) S8x128.size (cc13_transform_2 i) (hinb13_1 i)).WholeWords (EltTy.packing .f32)
  hrank14 : 0 < grid14.rank
  k14_off1_inb : ∀ i : grid14.Coords, ∀ (r : Fin 8), ∀ a, (k14_off1 i (BitVec.ofNat 32 r.val)) a + S1.size a ≤ S131072.size a
  hstage14_0 : ∀ j, (stage14_0 j).IsWhole
  nbuf14_0 : grid14.bufCount reads14_0 false = 2
  hreads14_0 : ∀ i i' : grid14.Coords, (∀ a, reads14_0 a = true → i a = i' a) → cc14_transform_1 i = cc14_transform_1 i'
  hinb14_0 : ∀ (i : grid14.Coords) a, (cc14_transform_1 i a + 1) * S8x1.size a ≤ S131072x1.size a
  hwx14_0 : ∀ i : grid14.Coords, EltTy.bits .f32 = 32 ∨ (Rect.block (s := S131072x1) S8x1.size (cc14_transform_1 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_2 i = cc14_transform_2 i'
  hinb14_1 : ∀ (i : grid14.Coords) a, (cc14_transform_2 i a + 1) * S8x128.size a ≤ S131072x128.size a
  hwx14_1 : ∀ i : grid14.Coords, EltTy.bits .f32 = 32 ∨ (Rect.block (s := S131072x128) S8x128.size (cc14_transform_2 i) (hinb14_1 i)).WholeWords (EltTy.packing .f32)
  hrank15 : 0 < grid15.rank
  k15_off1_inb : ∀ i : grid15.Coords, ∀ (r : Fin 8), ∀ a, (k15_off1 i (BitVec.ofNat 32 r.val)) a + S1.size a ≤ S131072.size a
  hstage15_0 : ∀ j, (stage15_0 j).IsWhole
  nbuf15_0 : grid15.bufCount reads15_0 false = 2
  hreads15_0 : ∀ i i' : grid15.Coords, (∀ a, reads15_0 a = true → i a = i' a) → cc15_transform_1 i = cc15_transform_1 i'
  hinb15_0 : ∀ (i : grid15.Coords) a, (cc15_transform_1 i a + 1) * S8x1.size a ≤ S131072x1.size a
  hwx15_0 : ∀ i : grid15.Coords, EltTy.bits .f32 = 32 ∨ (Rect.block (s := S131072x1) S8x1.size (cc15_transform_1 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_2 i = cc15_transform_2 i'
  hinb15_1 : ∀ (i : grid15.Coords) a, (cc15_transform_2 i a + 1) * S8x128.size a ≤ S131072x128.size a
  hwx15_1 : ∀ i : grid15.Coords, EltTy.bits .f32 = 32 ∨ (Rect.block (s := S131072x128) S8x128.size (cc15_transform_2 i) (hinb15_1 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4x2000x128.size a ≤ S4x100000x128.size a
  hwx16_0 : ∀ i : grid16.Coords, EltTy.bits .f32 = 32 ∨ (Rect.block (s := S4x100000x128) S4x2000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x128.size a ≤ S100000x128.size a
  hwx16_1 : ∀ i : grid16.Coords, EltTy.bits .f32 = 32 ∨ (Rect.block (s := S100000x128) S2000x128.size (cc16_transform_1 i) (hinb16_1 i)).WholeWords (EltTy.packing .f32)
  hrank17 : 0 < grid17.rank
  k17_off1_inb : ∀ i : grid17.Coords, ∀ (r : Fin 8), ∀ a, (k17_off1 i (BitVec.ofNat 32 r.val)) a + S1.size a ≤ S131072.size a
  hstage17_0 : ∀ j, (stage17_0 j).IsWhole
  nbuf17_0 : grid17.bufCount reads17_0 false = 2
  hreads17_0 : ∀ i i' : grid17.Coords, (∀ a, reads17_0 a = true → i a = i' a) → cc17_transform_1 i = cc17_transform_1 i'
  hinb17_0 : ∀ (i : grid17.Coords) a, (cc17_transform_1 i a + 1) * S8x1.size a ≤ S131072x1.size a
  hwx17_0 : ∀ i : grid17.Coords, EltTy.bits .f32 = 32 ∨ (Rect.block (s := S131072x1) S8x1.size (cc17_transform_1 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_2 i = cc17_transform_2 i'
  hinb17_1 : ∀ (i : grid17.Coords) a, (cc17_transform_2 i a + 1) * S8x128.size a ≤ S131072x128.size a
  hwx17_1 : ∀ i : grid17.Coords, EltTy.bits .f32 = 32 ∨ (Rect.block (s := S131072x128) S8x128.size (cc17_transform_2 i) (hinb17_1 i)).WholeWords (EltTy.packing .f32)
  hrank18 : 0 < grid18.rank
  k18_off1_inb : ∀ i : grid18.Coords, ∀ (r : Fin 8), ∀ a, (k18_off1 i (BitVec.ofNat 32 r.val)) a + S1.size a ≤ S131072.size a
  hstage18_0 : ∀ j, (stage18_0 j).IsWhole
  nbuf18_0 : grid18.bufCount reads18_0 false = 2
  hreads18_0 : ∀ i i' : grid18.Coords, (∀ a, reads18_0 a = true → i a = i' a) → cc18_transform_1 i = cc18_transform_1 i'
  hinb18_0 : ∀ (i : grid18.Coords) a, (cc18_transform_1 i a + 1) * S8x1.size a ≤ S131072x1.size a
  hwx18_0 : ∀ i : grid18.Coords, EltTy.bits .f32 = 32 ∨ (Rect.block (s := S131072x1) S8x1.size (cc18_transform_1 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_2 i = cc18_transform_2 i'
  hinb18_1 : ∀ (i : grid18.Coords) a, (cc18_transform_2 i a + 1) * S8x128.size a ≤ S131072x128.size a
  hwx18_1 : ∀ i : grid18.Coords, EltTy.bits .f32 = 32 ∨ (Rect.block (s := S131072x128) S8x128.size (cc18_transform_2 i) (hinb18_1 i)).WholeWords (EltTy.packing .f32)
  hrank19 : 0 < grid19.rank
  k19_off1_inb : ∀ i : grid19.Coords, ∀ (r : Fin 8), ∀ a, (k19_off1 i (BitVec.ofNat 32 r.val)) a + S1.size a ≤ S131072.size a
  hstage19_0 : ∀ j, (stage19_0 j).IsWhole
  nbuf19_0 : grid19.bufCount reads19_0 false = 2
  hreads19_0 : ∀ i i' : grid19.Coords, (∀ a, reads19_0 a = true → i a = i' a) → cc19_transform_1 i = cc19_transform_1 i'
  hinb19_0 : ∀ (i : grid19.Coords) a, (cc19_transform_1 i a + 1) * S8x1.size a ≤ S131072x1.size a
  hwx19_0 : ∀ i : grid19.Coords, EltTy.bits .f32 = 32 ∨ (Rect.block (s := S131072x1) S8x1.size (cc19_transform_1 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_2 i = cc19_transform_2 i'
  hinb19_1 : ∀ (i : grid19.Coords) a, (cc19_transform_2 i a + 1) * S8x128.size a ≤ S131072x128.size a
  hwx19_1 : ∀ i : grid19.Coords, EltTy.bits .f32 = 32 ∨ (Rect.block (s := S131072x128) S8x128.size (cc19_transform_2 i) (hinb19_1 i)).WholeWords (EltTy.packing .f32)
  hrank20 : 0 < grid20.rank
  k20_off1_inb : ∀ i : grid20.Coords, ∀ (r : Fin 8), ∀ a, (k20_off1 i (BitVec.ofNat 32 r.val)) a + S1.size a ≤ S131072.size a
  hstage20_0 : ∀ j, (stage20_0 j).IsWhole
  nbuf20_0 : grid20.bufCount reads20_0 false = 2
  hreads20_0 : ∀ i i' : grid20.Coords, (∀ a, reads20_0 a = true → i a = i' a) → cc20_transform_1 i = cc20_transform_1 i'
  hinb20_0 : ∀ (i : grid20.Coords) a, (cc20_transform_1 i a + 1) * S8x1.size a ≤ S131072x1.size a
  hwx20_0 : ∀ i : grid20.Coords, EltTy.bits .f32 = 32 ∨ (Rect.block (s := S131072x1) S8x1.size (cc20_transform_1 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_2 i = cc20_transform_2 i'
  hinb20_1 : ∀ (i : grid20.Coords) a, (cc20_transform_2 i a + 1) * S8x128.size a ≤ S131072x128.size a
  hwx20_1 : ∀ i : grid20.Coords, EltTy.bits .f32 = 32 ∨ (Rect.block (s := S131072x128) S8x128.size (cc20_transform_2 i) (hinb20_1 i)).WholeWords (EltTy.packing .f32)
  hrank21 : 0 < grid21.rank
  k21_off1_inb : ∀ i : grid21.Coords, ∀ (r : Fin 8), ∀ a, (k21_off1 i (BitVec.ofNat 32 r.val)) a + S1.size a ≤ S131072.size a
  hstage21_0 : ∀ j, (stage21_0 j).IsWhole
  nbuf21_0 : grid21.bufCount reads21_0 false = 2
  hreads21_0 : ∀ i i' : grid21.Coords, (∀ a, reads21_0 a = true → i a = i' a) → cc21_transform_1 i = cc21_transform_1 i'
  hinb21_0 : ∀ (i : grid21.Coords) a, (cc21_transform_1 i a + 1) * S8x1.size a ≤ S131072x1.size a
  hwx21_0 : ∀ i : grid21.Coords, EltTy.bits .f32 = 32 ∨ (Rect.block (s := S131072x1) S8x1.size (cc21_transform_1 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_2 i = cc21_transform_2 i'
  hinb21_1 : ∀ (i : grid21.Coords) a, (cc21_transform_2 i a + 1) * S8x128.size a ≤ S131072x128.size a
  hwx21_1 : ∀ i : grid21.Coords, EltTy.bits .f32 = 32 ∨ (Rect.block (s := S131072x128) S8x128.size (cc21_transform_2 i) (hinb21_1 i)).WholeWords (EltTy.packing .f32)
  hrank22 : 0 < grid22.rank
  k22_off1_inb : ∀ i : grid22.Coords, ∀ (r : Fin 8), ∀ a, (k22_off1 i (BitVec.ofNat 32 r.val)) a + S1.size a ≤ S131072.size a
  hstage22_0 : ∀ j, (stage22_0 j).IsWhole
  nbuf22_0 : grid22.bufCount reads22_0 false = 2
  hreads22_0 : ∀ i i' : grid22.Coords, (∀ a, reads22_0 a = true → i a = i' a) → cc22_transform_1 i = cc22_transform_1 i'
  hinb22_0 : ∀ (i : grid22.Coords) a, (cc22_transform_1 i a + 1) * S8x1.size a ≤ S131072x1.size a
  hwx22_0 : ∀ i : grid22.Coords, EltTy.bits .f32 = 32 ∨ (Rect.block (s := S131072x1) S8x1.size (cc22_transform_1 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_2 i = cc22_transform_2 i'
  hinb22_1 : ∀ (i : grid22.Coords) a, (cc22_transform_2 i a + 1) * S8x128.size a ≤ S131072x128.size a
  hwx22_1 : ∀ i : grid22.Coords, EltTy.bits .f32 = 32 ∨ (Rect.block (s := S131072x128) S8x128.size (cc22_transform_2 i) (hinb22_1 i)).WholeWords (EltTy.packing .f32)
  hrank23 : 0 < grid23.rank
  k23_off1_inb : ∀ i : grid23.Coords, ∀ (r : Fin 8), ∀ a, (k23_off1 i (BitVec.ofNat 32 r.val)) a + S1.size a ≤ S131072.size a
  hstage23_0 : ∀ j, (stage23_0 j).IsWhole
  nbuf23_0 : grid23.bufCount reads23_0 false = 2
  hreads23_0 : ∀ i i' : grid23.Coords, (∀ a, reads23_0 a = true → i a = i' a) → cc23_transform_1 i = cc23_transform_1 i'
  hinb23_0 : ∀ (i : grid23.Coords) a, (cc23_transform_1 i a + 1) * S8x1.size a ≤ S131072x1.size a
  hwx23_0 : ∀ i : grid23.Coords, EltTy.bits .f32 = 32 ∨ (Rect.block (s := S131072x1) S8x1.size (cc23_transform_1 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_2 i = cc23_transform_2 i'
  hinb23_1 : ∀ (i : grid23.Coords) a, (cc23_transform_2 i a + 1) * S8x128.size a ≤ S131072x128.size a
  hwx23_1 : ∀ i : grid23.Coords, EltTy.bits .f32 = 32 ∨ (Rect.block (s := S131072x128) S8x128.size (cc23_transform_2 i) (hinb23_1 i)).WholeWords (EltTy.packing .f32)
  hrank24 : 0 < grid24.rank
  k24_off1_inb : ∀ i : grid24.Coords, ∀ (r : Fin 8), ∀ a, (k24_off1 i (BitVec.ofNat 32 r.val)) a + S1.size a ≤ S131072.size a
  hstage24_0 : ∀ j, (stage24_0 j).IsWhole
  nbuf24_0 : grid24.bufCount reads24_0 false = 2
  hreads24_0 : ∀ i i' : grid24.Coords, (∀ a, reads24_0 a = true → i a = i' a) → cc24_transform_1 i = cc24_transform_1 i'
  hinb24_0 : ∀ (i : grid24.Coords) a, (cc24_transform_1 i a + 1) * S8x1.size a ≤ S131072x1.size a
  hwx24_0 : ∀ i : grid24.Coords, EltTy.bits .f32 = 32 ∨ (Rect.block (s := S131072x1) S8x1.size (cc24_transform_1 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_2 i = cc24_transform_2 i'
  hinb24_1 : ∀ (i : grid24.Coords) a, (cc24_transform_2 i a + 1) * S8x128.size a ≤ S131072x128.size a
  hwx24_1 : ∀ i : grid24.Coords, EltTy.bits .f32 = 32 ∨ (Rect.block (s := S131072x128) S8x128.size (cc24_transform_2 i) (hinb24_1 i)).WholeWords (EltTy.packing .f32)
  hrank25 : 0 < grid25.rank
  k25_off1_inb : ∀ i : grid25.Coords, ∀ (r : Fin 8), ∀ a, (k25_off1 i (BitVec.ofNat 32 r.val)) a + S1.size a ≤ S131072.size a
  hstage25_0 : ∀ j, (stage25_0 j).IsWhole
  nbuf25_0 : grid25.bufCount reads25_0 false = 2
  hreads25_0 : ∀ i i' : grid25.Coords, (∀ a, reads25_0 a = true → i a = i' a) → cc25_transform_1 i = cc25_transform_1 i'
  hinb25_0 : ∀ (i : grid25.Coords) a, (cc25_transform_1 i a + 1) * S8x1.size a ≤ S131072x1.size a
  hwx25_0 : ∀ i : grid25.Coords, EltTy.bits .f32 = 32 ∨ (Rect.block (s := S131072x1) S8x1.size (cc25_transform_1 i) (hinb25_0 i)).WholeWords (EltTy.packing .f32)
  hstage25_1 : ∀ j, (stage25_1 j).IsWhole
  nbuf25_1 : grid25.bufCount reads25_1 false = 2
  hreads25_1 : ∀ i i' : grid25.Coords, (∀ a, reads25_1 a = true → i a = i' a) → cc25_transform_2 i = cc25_transform_2 i'
  hinb25_1 : ∀ (i : grid25.Coords) a, (cc25_transform_2 i a + 1) * S8x128.size a ≤ S131072x128.size a
  hwx25_1 : ∀ i : grid25.Coords, EltTy.bits .f32 = 32 ∨ (Rect.block (s := S131072x128) S8x128.size (cc25_transform_2 i) (hinb25_1 i)).WholeWords (EltTy.packing .f32)
  hrank26 : 0 < grid26.rank
  k26_off1_inb : ∀ i : grid26.Coords, ∀ (r : Fin 8), ∀ a, (k26_off1 i (BitVec.ofNat 32 r.val)) a + S1.size a ≤ S131072.size a
  hstage26_0 : ∀ j, (stage26_0 j).IsWhole
  nbuf26_0 : grid26.bufCount reads26_0 false = 2
  hreads26_0 : ∀ i i' : grid26.Coords, (∀ a, reads26_0 a = true → i a = i' a) → cc26_transform_1 i = cc26_transform_1 i'
  hinb26_0 : ∀ (i : grid26.Coords) a, (cc26_transform_1 i a + 1) * S8x1.size a ≤ S131072x1.size a
  hwx26_0 : ∀ i : grid26.Coords, EltTy.bits .f32 = 32 ∨ (Rect.block (s := S131072x1) S8x1.size (cc26_transform_1 i) (hinb26_0 i)).WholeWords (EltTy.packing .f32)
  hstage26_1 : ∀ j, (stage26_1 j).IsWhole
  nbuf26_1 : grid26.bufCount reads26_1 false = 2
  hreads26_1 : ∀ i i' : grid26.Coords, (∀ a, reads26_1 a = true → i a = i' a) → cc26_transform_2 i = cc26_transform_2 i'
  hinb26_1 : ∀ (i : grid26.Coords) a, (cc26_transform_2 i a + 1) * S8x128.size a ≤ S131072x128.size a
  hwx26_1 : ∀ i : grid26.Coords, EltTy.bits .f32 = 32 ∨ (Rect.block (s := S131072x128) S8x128.size (cc26_transform_2 i) (hinb26_1 i)).WholeWords (EltTy.packing .f32)
  hrank27 : 0 < grid27.rank
  k27_off1_inb : ∀ i : grid27.Coords, ∀ (r : Fin 8), ∀ a, (k27_off1 i (BitVec.ofNat 32 r.val)) a + S1.size a ≤ S131072.size a
  hstage27_0 : ∀ j, (stage27_0 j).IsWhole
  nbuf27_0 : grid27.bufCount reads27_0 false = 2
  hreads27_0 : ∀ i i' : grid27.Coords, (∀ a, reads27_0 a = true → i a = i' a) → cc27_transform_1 i = cc27_transform_1 i'
  hinb27_0 : ∀ (i : grid27.Coords) a, (cc27_transform_1 i a + 1) * S8x1.size a ≤ S131072x1.size a
  hwx27_0 : ∀ i : grid27.Coords, EltTy.bits .f32 = 32 ∨ (Rect.block (s := S131072x1) S8x1.size (cc27_transform_1 i) (hinb27_0 i)).WholeWords (EltTy.packing .f32)
  hstage27_1 : ∀ j, (stage27_1 j).IsWhole
  nbuf27_1 : grid27.bufCount reads27_1 false = 2
  hreads27_1 : ∀ i i' : grid27.Coords, (∀ a, reads27_1 a = true → i a = i' a) → cc27_transform_2 i = cc27_transform_2 i'
  hinb27_1 : ∀ (i : grid27.Coords) a, (cc27_transform_2 i a + 1) * S8x128.size a ≤ S131072x128.size a
  hwx27_1 : ∀ i : grid27.Coords, EltTy.bits .f32 = 32 ∨ (Rect.block (s := S131072x128) S8x128.size (cc27_transform_2 i) (hinb27_1 i)).WholeWords (EltTy.packing .f32)
  hrank28 : 0 < grid28.rank
  k28_off1_inb : ∀ i : grid28.Coords, ∀ (r : Fin 8), ∀ a, (k28_off1 i (BitVec.ofNat 32 r.val)) a + S1.size a ≤ S131072.size a
  hstage28_0 : ∀ j, (stage28_0 j).IsWhole
  nbuf28_0 : grid28.bufCount reads28_0 false = 2
  hreads28_0 : ∀ i i' : grid28.Coords, (∀ a, reads28_0 a = true → i a = i' a) → cc28_transform_1 i = cc28_transform_1 i'
  hinb28_0 : ∀ (i : grid28.Coords) a, (cc28_transform_1 i a + 1) * S8x1.size a ≤ S131072x1.size a
  hwx28_0 : ∀ i : grid28.Coords, EltTy.bits .f32 = 32 ∨ (Rect.block (s := S131072x1) S8x1.size (cc28_transform_1 i) (hinb28_0 i)).WholeWords (EltTy.packing .f32)
  hstage28_1 : ∀ j, (stage28_1 j).IsWhole
  nbuf28_1 : grid28.bufCount reads28_1 false = 2
  hreads28_1 : ∀ i i' : grid28.Coords, (∀ a, reads28_1 a = true → i a = i' a) → cc28_transform_2 i = cc28_transform_2 i'
  hinb28_1 : ∀ (i : grid28.Coords) a, (cc28_transform_2 i a + 1) * S8x128.size a ≤ S131072x128.size a
  hwx28_1 : ∀ i : grid28.Coords, EltTy.bits .f32 = 32 ∨ (Rect.block (s := S131072x128) S8x128.size (cc28_transform_2 i) (hinb28_1 i)).WholeWords (EltTy.packing .f32)
  hrank29 : 0 < grid29.rank
  k29_off1_inb : ∀ i : grid29.Coords, ∀ (r : Fin 8), ∀ a, (k29_off1 i (BitVec.ofNat 32 r.val)) a + S1.size a ≤ S131072.size a
  hstage29_0 : ∀ j, (stage29_0 j).IsWhole
  nbuf29_0 : grid29.bufCount reads29_0 false = 2
  hreads29_0 : ∀ i i' : grid29.Coords, (∀ a, reads29_0 a = true → i a = i' a) → cc29_transform_1 i = cc29_transform_1 i'
  hinb29_0 : ∀ (i : grid29.Coords) a, (cc29_transform_1 i a + 1) * S8x1.size a ≤ S131072x1.size a
  hwx29_0 : ∀ i : grid29.Coords, EltTy.bits .f32 = 32 ∨ (Rect.block (s := S131072x1) S8x1.size (cc29_transform_1 i) (hinb29_0 i)).WholeWords (EltTy.packing .f32)
  hstage29_1 : ∀ j, (stage29_1 j).IsWhole
  nbuf29_1 : grid29.bufCount reads29_1 false = 2
  hreads29_1 : ∀ i i' : grid29.Coords, (∀ a, reads29_1 a = true → i a = i' a) → cc29_transform_2 i = cc29_transform_2 i'
  hinb29_1 : ∀ (i : grid29.Coords) a, (cc29_transform_2 i a + 1) * S8x128.size a ≤ S131072x128.size a
  hwx29_1 : ∀ i : grid29.Coords, EltTy.bits .f32 = 32 ∨ (Rect.block (s := S131072x128) S8x128.size (cc29_transform_2 i) (hinb29_1 i)).WholeWords (EltTy.packing .f32)
  hrank30 : 0 < grid30.rank
  k30_off1_inb : ∀ i : grid30.Coords, ∀ (r : Fin 8), ∀ a, (k30_off1 i (BitVec.ofNat 32 r.val)) a + S1.size a ≤ S131072.size a
  hstage30_0 : ∀ j, (stage30_0 j).IsWhole
  nbuf30_0 : grid30.bufCount reads30_0 false = 2
  hreads30_0 : ∀ i i' : grid30.Coords, (∀ a, reads30_0 a = true → i a = i' a) → cc30_transform_1 i = cc30_transform_1 i'
  hinb30_0 : ∀ (i : grid30.Coords) a, (cc30_transform_1 i a + 1) * S8x1.size a ≤ S131072x1.size a
  hwx30_0 : ∀ i : grid30.Coords, EltTy.bits .f32 = 32 ∨ (Rect.block (s := S131072x1) S8x1.size (cc30_transform_1 i) (hinb30_0 i)).WholeWords (EltTy.packing .f32)
  hstage30_1 : ∀ j, (stage30_1 j).IsWhole
  nbuf30_1 : grid30.bufCount reads30_1 false = 2
  hreads30_1 : ∀ i i' : grid30.Coords, (∀ a, reads30_1 a = true → i a = i' a) → cc30_transform_2 i = cc30_transform_2 i'
  hinb30_1 : ∀ (i : grid30.Coords) a, (cc30_transform_2 i a + 1) * S8x128.size a ≤ S131072x128.size a
  hwx30_1 : ∀ i : grid30.Coords, EltTy.bits .f32 = 32 ∨ (Rect.block (s := S131072x128) S8x128.size (cc30_transform_2 i) (hinb30_1 i)).WholeWords (EltTy.packing .f32)
  hrank31 : 0 < grid31.rank
  k31_off1_inb : ∀ i : grid31.Coords, ∀ (r : Fin 8), ∀ a, (k31_off1 i (BitVec.ofNat 32 r.val)) a + S1.size a ≤ S131072.size a
  hstage31_0 : ∀ j, (stage31_0 j).IsWhole
  nbuf31_0 : grid31.bufCount reads31_0 false = 2
  hreads31_0 : ∀ i i' : grid31.Coords, (∀ a, reads31_0 a = true → i a = i' a) → cc31_transform_1 i = cc31_transform_1 i'
  hinb31_0 : ∀ (i : grid31.Coords) a, (cc31_transform_1 i a + 1) * S8x1.size a ≤ S131072x1.size a
  hwx31_0 : ∀ i : grid31.Coords, EltTy.bits .f32 = 32 ∨ (Rect.block (s := S131072x1) S8x1.size (cc31_transform_1 i) (hinb31_0 i)).WholeWords (EltTy.packing .f32)
  hstage31_1 : ∀ j, (stage31_1 j).IsWhole
  nbuf31_1 : grid31.bufCount reads31_1 false = 2
  hreads31_1 : ∀ i i' : grid31.Coords, (∀ a, reads31_1 a = true → i a = i' a) → cc31_transform_2 i = cc31_transform_2 i'
  hinb31_1 : ∀ (i : grid31.Coords) a, (cc31_transform_2 i a + 1) * S8x128.size a ≤ S131072x128.size a
  hwx31_1 : ∀ i : grid31.Coords, EltTy.bits .f32 = 32 ∨ (Rect.block (s := S131072x128) S8x128.size (cc31_transform_2 i) (hinb31_1 i)).WholeWords (EltTy.packing .f32)
  hrank32 : 0 < grid32.rank
  k32_off1_inb : ∀ i : grid32.Coords, ∀ (r : Fin 8), ∀ a, (k32_off1 i (BitVec.ofNat 32 r.val)) a + S1.size a ≤ S131072.size a
  hstage32_0 : ∀ j, (stage32_0 j).IsWhole
  nbuf32_0 : grid32.bufCount reads32_0 false = 2
  hreads32_0 : ∀ i i' : grid32.Coords, (∀ a, reads32_0 a = true → i a = i' a) → cc32_transform_1 i = cc32_transform_1 i'
  hinb32_0 : ∀ (i : grid32.Coords) a, (cc32_transform_1 i a + 1) * S8x1.size a ≤ S131072x1.size a
  hwx32_0 : ∀ i : grid32.Coords, EltTy.bits .f32 = 32 ∨ (Rect.block (s := S131072x1) S8x1.size (cc32_transform_1 i) (hinb32_0 i)).WholeWords (EltTy.packing .f32)
  hstage32_1 : ∀ j, (stage32_1 j).IsWhole
  nbuf32_1 : grid32.bufCount reads32_1 false = 2
  hreads32_1 : ∀ i i' : grid32.Coords, (∀ a, reads32_1 a = true → i a = i' a) → cc32_transform_2 i = cc32_transform_2 i'
  hinb32_1 : ∀ (i : grid32.Coords) a, (cc32_transform_2 i a + 1) * S8x128.size a ≤ S131072x128.size a
  hwx32_1 : ∀ i : grid32.Coords, EltTy.bits .f32 = 32 ∨ (Rect.block (s := S131072x128) S8x128.size (cc32_transform_2 i) (hinb32_1 i)).WholeWords (EltTy.packing .f32)
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S4x2000x128.size a ≤ S4x100000x128.size a
  hwx33_0 : ∀ i : grid33.Coords, EltTy.bits .f32 = 32 ∨ (Rect.block (s := S4x100000x128) S4x2000x128.size (cc33_transform_0 i) (hinb33_0 i)).WholeWords (EltTy.packing .f32)
  hstage33_1 : ∀ j, (stage33_1 j).IsWhole
  nbuf33_1 : grid33.bufCount reads33_1 false = 2
  hreads33_1 : ∀ i i' : grid33.Coords, (∀ a, reads33_1 a = true → i a = i' a) → cc33_transform_1 i = cc33_transform_1 i'
  hinb33_1 : ∀ (i : grid33.Coords) a, (cc33_transform_1 i a + 1) * S2000x128.size a ≤ S100000x128.size a
  hwx33_1 : ∀ i : grid33.Coords, EltTy.bits .f32 = 32 ∨ (Rect.block (s := S100000x128) S2000x128.size (cc33_transform_1 i) (hinb33_1 i)).WholeWords (EltTy.packing .f32)

variable [Facts₀]

abbrev cc0_scratch1 : DmaSems sig S8 := SemArray.consecutive 4 S8 hcc0_scratch1
abbrev cc1_scratch1 : DmaSems sig S8 := SemArray.consecutive 16 S8 hcc1_scratch1
abbrev cc2_scratch1 : DmaSems sig S8 := SemArray.consecutive 28 S8 hcc2_scratch1
abbrev cc3_scratch1 : DmaSems sig S8 := SemArray.consecutive 40 S8 hcc3_scratch1
abbrev cc4_scratch1 : DmaSems sig S8 := SemArray.consecutive 52 S8 hcc4_scratch1
abbrev cc5_scratch1 : DmaSems sig S8 := SemArray.consecutive 64 S8 hcc5_scratch1
abbrev cc6_scratch1 : DmaSems sig S8 := SemArray.consecutive 76 S8 hcc6_scratch1
abbrev cc7_scratch1 : DmaSems sig S8 := SemArray.consecutive 88 S8 hcc7_scratch1
abbrev cc8_scratch1 : DmaSems sig S8 := SemArray.consecutive 100 S8 hcc8_scratch1
abbrev cc9_scratch1 : DmaSems sig S8 := SemArray.consecutive 112 S8 hcc9_scratch1
abbrev cc10_scratch1 : DmaSems sig S8 := SemArray.consecutive 124 S8 hcc10_scratch1
abbrev cc11_scratch1 : DmaSems sig S8 := SemArray.consecutive 136 S8 hcc11_scratch1
abbrev cc12_scratch1 : DmaSems sig S8 := SemArray.consecutive 148 S8 hcc12_scratch1
abbrev cc13_scratch1 : DmaSems sig S8 := SemArray.consecutive 160 S8 hcc13_scratch1
abbrev cc14_scratch1 : DmaSems sig S8 := SemArray.consecutive 172 S8 hcc14_scratch1
abbrev cc15_scratch1 : DmaSems sig S8 := SemArray.consecutive 184 S8 hcc15_scratch1
abbrev cc17_scratch1 : DmaSems sig S8 := SemArray.consecutive 200 S8 hcc17_scratch1
abbrev cc18_scratch1 : DmaSems sig S8 := SemArray.consecutive 212 S8 hcc18_scratch1
abbrev cc19_scratch1 : DmaSems sig S8 := SemArray.consecutive 224 S8 hcc19_scratch1
abbrev cc20_scratch1 : DmaSems sig S8 := SemArray.consecutive 236 S8 hcc20_scratch1
abbrev cc21_scratch1 : DmaSems sig S8 := SemArray.consecutive 248 S8 hcc21_scratch1
abbrev cc22_scratch1 : DmaSems sig S8 := SemArray.consecutive 260 S8 hcc22_scratch1
abbrev cc23_scratch1 : DmaSems sig S8 := SemArray.consecutive 272 S8 hcc23_scratch1
abbrev cc24_scratch1 : DmaSems sig S8 := SemArray.consecutive 284 S8 hcc24_scratch1
abbrev cc25_scratch1 : DmaSems sig S8 := SemArray.consecutive 296 S8 hcc25_scratch1
abbrev cc26_scratch1 : DmaSems sig S8 := SemArray.consecutive 308 S8 hcc26_scratch1
abbrev cc27_scratch1 : DmaSems sig S8 := SemArray.consecutive 320 S8 hcc27_scratch1
abbrev cc28_scratch1 : DmaSems sig S8 := SemArray.consecutive 332 S8 hcc28_scratch1
abbrev cc29_scratch1 : DmaSems sig S8 := SemArray.consecutive 344 S8 hcc29_scratch1
abbrev cc30_scratch1 : DmaSems sig S8 := SemArray.consecutive 356 S8 hcc30_scratch1
abbrev cc31_scratch1 : DmaSems sig S8 := SemArray.consecutive 368 S8 hcc31_scratch1
abbrev cc32_scratch1 : DmaSems sig S8 := SemArray.consecutive 380 S8 hcc32_scratch1
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev spec0_0 : Pipeline.WinSpec sig grid0.rank :=
  Pipeline.WinSpec.ofSpec (Memref.whole main_v8) S8x1.size reads0_0 false false 2 stage0_0 sem0_0 nbuf0_0 hstage0_0

abbrev spec0_1 : Pipeline.WinSpec sig grid0.rank :=
  Pipeline.WinSpec.ofSpec (Memref.whole main_v9) S8x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev spec1_0 : Pipeline.WinSpec sig grid1.rank :=
  Pipeline.WinSpec.ofSpec (Memref.whole main_v11) S8x1.size reads1_0 false false 2 stage1_0 sem1_0 nbuf1_0 hstage1_0

abbrev spec1_1 : Pipeline.WinSpec sig grid1.rank :=
  Pipeline.WinSpec.ofSpec (Memref.whole main_v12) S8x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev spec2_0 : Pipeline.WinSpec sig grid2.rank :=
  Pipeline.WinSpec.ofSpec (Memref.whole main_v14) S8x1.size reads2_0 false false 2 stage2_0 sem2_0 nbuf2_0 hstage2_0

abbrev spec2_1 : Pipeline.WinSpec sig grid2.rank :=
  Pipeline.WinSpec.ofSpec (Memref.whole main_v15) S8x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev spec3_0 : Pipeline.WinSpec sig grid3.rank :=
  Pipeline.WinSpec.ofSpec (Memref.whole main_v17) S8x1.size reads3_0 false false 2 stage3_0 sem3_0 nbuf3_0 hstage3_0

abbrev spec3_1 : Pipeline.WinSpec sig grid3.rank :=
  Pipeline.WinSpec.ofSpec (Memref.whole main_v18) S8x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev spec4_0 : Pipeline.WinSpec sig grid4.rank :=
  Pipeline.WinSpec.ofSpec (Memref.whole main_v34) S8x1.size reads4_0 false false 2 stage4_0 sem4_0 nbuf4_0 hstage4_0

abbrev spec4_1 : Pipeline.WinSpec sig grid4.rank :=
  Pipeline.WinSpec.ofSpec (Memref.whole main_v35) S8x128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev spec5_0 : Pipeline.WinSpec sig grid5.rank :=
  Pipeline.WinSpec.ofSpec (Memref.whole main_v37) S8x1.size reads5_0 false false 2 stage5_0 sem5_0 nbuf5_0 hstage5_0

abbrev spec5_1 : Pipeline.WinSpec sig grid5.rank :=
  Pipeline.WinSpec.ofSpec (Memref.whole main_v38) S8x128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev spec6_0 : Pipeline.WinSpec sig grid6.rank :=
  Pipeline.WinSpec.ofSpec (Memref.whole main_v40) S8x1.size reads6_0 false false 2 stage6_0 sem6_0 nbuf6_0 hstage6_0

abbrev spec6_1 : Pipeline.WinSpec sig grid6.rank :=
  Pipeline.WinSpec.ofSpec (Memref.whole main_v41) S8x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev spec7_0 : Pipeline.WinSpec sig grid7.rank :=
  Pipeline.WinSpec.ofSpec (Memref.whole main_v43) S8x1.size reads7_0 false false 2 stage7_0 sem7_0 nbuf7_0 hstage7_0

abbrev spec7_1 : Pipeline.WinSpec sig grid7.rank :=
  Pipeline.WinSpec.ofSpec (Memref.whole main_v44) S8x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))
abbrev spec8_0 : Pipeline.WinSpec sig grid8.rank :=
  Pipeline.WinSpec.ofSpec (Memref.whole main_v60) S8x1.size reads8_0 false false 2 stage8_0 sem8_0 nbuf8_0 hstage8_0

abbrev spec8_1 : Pipeline.WinSpec sig grid8.rank :=
  Pipeline.WinSpec.ofSpec (Memref.whole main_v61) S8x128.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_1 | 1 => cc8_transform_2 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | ⟨_ + 2, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | ⟨_ + 2, h⟩ => absurd h (Nat.not_lt.2 (Nat.le_add_left _ _))
abbrev spec9_0 : Pipeline.WinSpec sig grid9.rank :=
  Pipeline.WinSpec.ofSpec (Memref.whole main_v63) S8x1.size reads9_0 false false 2 stage9_0 sem9_0 nbuf9_0 hstage9_0

abbrev spec9_1 : Pipeline.WinSpec sig grid9.rank :=
  Pipeline.WinSpec.ofSpec (Memref.whole main_v64) S8x128.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_1 | 1 => cc9_transform_2 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | ⟨_ + 2, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | ⟨_ + 2, h⟩ => absurd h (Nat.not_lt.2 (Nat.le_add_left _ _))
abbrev spec10_0 : Pipeline.WinSpec sig grid10.rank :=
  Pipeline.WinSpec.ofSpec (Memref.whole main_v66) S8x1.size reads10_0 false false 2 stage10_0 sem10_0 nbuf10_0 hstage10_0

abbrev spec10_1 : Pipeline.WinSpec sig grid10.rank :=
  Pipeline.WinSpec.ofSpec (Memref.whole main_v67) S8x128.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_1 | 1 => cc10_transform_2 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | ⟨_ + 2, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | ⟨_ + 2, h⟩ => absurd h (Nat.not_lt.2 (Nat.le_add_left _ _))
abbrev spec11_0 : Pipeline.WinSpec sig grid11.rank :=
  Pipeline.WinSpec.ofSpec (Memref.whole main_v69) S8x1.size reads11_0 false false 2 stage11_0 sem11_0 nbuf11_0 hstage11_0

abbrev spec11_1 : Pipeline.WinSpec sig grid11.rank :=
  Pipeline.WinSpec.ofSpec (Memref.whole main_v70) S8x128.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_1 | 1 => cc11_transform_2 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 | 1 => hreads11_1 | ⟨_ + 2, h⟩ => absurd h (Nat.not_lt.2 (Nat.le_add_left _ _))
def ok11 (_ : pre11.Contents (Elt F)) : Prop :=
  True
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun _ _ => fun | 0 => hinb11_0 | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun _ _ => fun | 0 => hwx11_0 | 1 => hwx11_1 | ⟨_ + 2, h⟩ => absurd h (Nat.not_lt.2 (Nat.le_add_left _ _))
abbrev spec12_0 : Pipeline.WinSpec sig grid12.rank :=
  Pipeline.WinSpec.ofSpec (Memref.whole main_v86) S8x1.size reads12_0 false false 2 stage12_0 sem12_0 nbuf12_0 hstage12_0

abbrev spec12_1 : Pipeline.WinSpec sig grid12.rank :=
  Pipeline.WinSpec.ofSpec (Memref.whole main_v87) S8x128.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_1 | 1 => cc12_transform_2 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | 1 => hreads12_1 | ⟨_ + 2, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | 1 => hwx12_1 | ⟨_ + 2, h⟩ => absurd h (Nat.not_lt.2 (Nat.le_add_left _ _))
abbrev spec13_0 : Pipeline.WinSpec sig grid13.rank :=
  Pipeline.WinSpec.ofSpec (Memref.whole main_v89) S8x1.size reads13_0 false false 2 stage13_0 sem13_0 nbuf13_0 hstage13_0

abbrev spec13_1 : Pipeline.WinSpec sig grid13.rank :=
  Pipeline.WinSpec.ofSpec (Memref.whole main_v90) S8x128.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_1 | 1 => cc13_transform_2 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | 1 => hreads13_1 | ⟨_ + 2, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | 1 => hwx13_1 | ⟨_ + 2, h⟩ => absurd h (Nat.not_lt.2 (Nat.le_add_left _ _))
abbrev spec14_0 : Pipeline.WinSpec sig grid14.rank :=
  Pipeline.WinSpec.ofSpec (Memref.whole main_v92) S8x1.size reads14_0 false false 2 stage14_0 sem14_0 nbuf14_0 hstage14_0

abbrev spec14_1 : Pipeline.WinSpec sig grid14.rank :=
  Pipeline.WinSpec.ofSpec (Memref.whole main_v93) S8x128.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_1 | 1 => cc14_transform_2 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | 1 => hreads14_1 | ⟨_ + 2, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | 1 => hwx14_1 | ⟨_ + 2, h⟩ => absurd h (Nat.not_lt.2 (Nat.le_add_left _ _))
abbrev spec15_0 : Pipeline.WinSpec sig grid15.rank :=
  Pipeline.WinSpec.ofSpec (Memref.whole main_v95) S8x1.size reads15_0 false false 2 stage15_0 sem15_0 nbuf15_0 hstage15_0

abbrev spec15_1 : Pipeline.WinSpec sig grid15.rank :=
  Pipeline.WinSpec.ofSpec (Memref.whole main_v96) S8x128.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_1 | 1 => cc15_transform_2 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | 1 => hreads15_1 | ⟨_ + 2, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | 1 => hwx15_1 | ⟨_ + 2, h⟩ => absurd h (Nat.not_lt.2 (Nat.le_add_left _ _))
abbrev win16_0 : Pipeline.Window sig grid16 :=
  Pipeline.Window.ofSpec (Memref.whole main_v108) S4x2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v109) S2000x128.size cc16_transform_1 reads16_1 true false 2 stage16_1 sem16_1
    hrank16 hreads16_1 hinb16_1 nbuf16_1 (Memref.isWhole_whole _) hwx16_1 hstage16_1

abbrev win16 : Fin 2 → Pipeline.Window sig grid16 := fun | 0 => win16_0 | 1 => win16_1 | ⟨_ + 2, h⟩ => absurd h (Nat.not_lt.2 (Nat.le_add_left _ _))
abbrev spec16 : Fin 2 → Pipeline.WinSpec sig grid16.rank := fun w => (win16 w).toWinSpec

abbrev spec17_0 : Pipeline.WinSpec sig grid17.rank :=
  Pipeline.WinSpec.ofSpec (Memref.whole main_v118) S8x1.size reads17_0 false false 2 stage17_0 sem17_0 nbuf17_0 hstage17_0

abbrev spec17_1 : Pipeline.WinSpec sig grid17.rank :=
  Pipeline.WinSpec.ofSpec (Memref.whole main_v119) S8x128.size reads17_1 true false 2 stage17_1 sem17_1 nbuf17_1 hstage17_1

abbrev spec17 : Fin 2 → Pipeline.WinSpec sig grid17.rank := fun | 0 => spec17_0 | 1 => spec17_1 | ⟨_ + 2, h⟩ => absurd h (Nat.not_lt.2 (Nat.le_add_left _ _))
theorem hcount17 : ∀ w, grid17.bufCount (spec17 w).reads (spec17 w).sync = (spec17 w).nbuf := fun | 0 => nbuf17_0 | 1 => nbuf17_1 | ⟨_ + 2, h⟩ => absurd h (Nat.not_lt.2 (Nat.le_add_left _ _))
abbrev ix17 (pf : pre17.Contents (Elt F)) : (w : Fin 2) → grid17.Coords → Fin (spec17 w).shape.rank → Nat := fun | 0 => cc17_transform_1 | 1 => cc17_transform_2 | ⟨_ + 2, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 | 1 => hreads17_1 | ⟨_ + 2, h⟩ => absurd h (Nat.not_lt.2 (Nat.le_add_left _ _))
def ok17 (_ : pre17.Contents (Elt F)) : Prop :=
  True
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun _ _ => fun | 0 => hinb17_0 | 1 => hinb17_1 | ⟨_ + 2, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun _ _ => fun | 0 => hwx17_0 | 1 => hwx17_1 | ⟨_ + 2, h⟩ => absurd h (Nat.not_lt.2 (Nat.le_add_left _ _))
abbrev spec18_0 : Pipeline.WinSpec sig grid18.rank :=
  Pipeline.WinSpec.ofSpec (Memref.whole main_v121) S8x1.size reads18_0 false false 2 stage18_0 sem18_0 nbuf18_0 hstage18_0

abbrev spec18_1 : Pipeline.WinSpec sig grid18.rank :=
  Pipeline.WinSpec.ofSpec (Memref.whole main_v122) S8x128.size reads18_1 true false 2 stage18_1 sem18_1 nbuf18_1 hstage18_1

abbrev spec18 : Fin 2 → Pipeline.WinSpec sig grid18.rank := fun | 0 => spec18_0 | 1 => spec18_1 | ⟨_ + 2, h⟩ => absurd h (Nat.not_lt.2 (Nat.le_add_left _ _))
theorem hcount18 : ∀ w, grid18.bufCount (spec18 w).reads (spec18 w).sync = (spec18 w).nbuf := fun | 0 => nbuf18_0 | 1 => nbuf18_1 | ⟨_ + 2, h⟩ => absurd h (Nat.not_lt.2 (Nat.le_add_left _ _))
abbrev ix18 (pf : pre18.Contents (Elt F)) : (w : Fin 2) → grid18.Coords → Fin (spec18 w).shape.rank → Nat := fun | 0 => cc18_transform_1 | 1 => cc18_transform_2 | ⟨_ + 2, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 | 1 => hreads18_1 | ⟨_ + 2, h⟩ => absurd h (Nat.not_lt.2 (Nat.le_add_left _ _))
def ok18 (_ : pre18.Contents (Elt F)) : Prop :=
  True
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun _ _ => fun | 0 => hinb18_0 | 1 => hinb18_1 | ⟨_ + 2, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun _ _ => fun | 0 => hwx18_0 | 1 => hwx18_1 | ⟨_ + 2, h⟩ => absurd h (Nat.not_lt.2 (Nat.le_add_left _ _))
abbrev spec19_0 : Pipeline.WinSpec sig grid19.rank :=
  Pipeline.WinSpec.ofSpec (Memref.whole main_v124) S8x1.size reads19_0 false false 2 stage19_0 sem19_0 nbuf19_0 hstage19_0

abbrev spec19_1 : Pipeline.WinSpec sig grid19.rank :=
  Pipeline.WinSpec.ofSpec (Memref.whole main_v125) S8x128.size reads19_1 true false 2 stage19_1 sem19_1 nbuf19_1 hstage19_1

abbrev spec19 : Fin 2 → Pipeline.WinSpec sig grid19.rank := fun | 0 => spec19_0 | 1 => spec19_1 | ⟨_ + 2, h⟩ => absurd h (Nat.not_lt.2 (Nat.le_add_left _ _))
theorem hcount19 : ∀ w, grid19.bufCount (spec19 w).reads (spec19 w).sync = (spec19 w).nbuf := fun | 0 => nbuf19_0 | 1 => nbuf19_1 | ⟨_ + 2, h⟩ => absurd h (Nat.not_lt.2 (Nat.le_add_left _ _))
abbrev ix19 (pf : pre19.Contents (Elt F)) : (w : Fin 2) → grid19.Coords → Fin (spec19 w).shape.rank → Nat := fun | 0 => cc19_transform_1 | 1 => cc19_transform_2 | ⟨_ + 2, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 | 1 => hreads19_1 | ⟨_ + 2, h⟩ => absurd h (Nat.not_lt.2 (Nat.le_add_left _ _))
def ok19 (_ : pre19.Contents (Elt F)) : Prop :=
  True
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun _ _ => fun | 0 => hinb19_0 | 1 => hinb19_1 | ⟨_ + 2, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun _ _ => fun | 0 => hwx19_0 | 1 => hwx19_1 | ⟨_ + 2, h⟩ => absurd h (Nat.not_lt.2 (Nat.le_add_left _ _))
abbrev spec20_0 : Pipeline.WinSpec sig grid20.rank :=
  Pipeline.WinSpec.ofSpec (Memref.whole main_v127) S8x1.size reads20_0 false false 2 stage20_0 sem20_0 nbuf20_0 hstage20_0

abbrev spec20_1 : Pipeline.WinSpec sig grid20.rank :=
  Pipeline.WinSpec.ofSpec (Memref.whole main_v128) S8x128.size reads20_1 true false 2 stage20_1 sem20_1 nbuf20_1 hstage20_1

abbrev spec20 : Fin 2 → Pipeline.WinSpec sig grid20.rank := fun | 0 => spec20_0 | 1 => spec20_1 | ⟨_ + 2, h⟩ => absurd h (Nat.not_lt.2 (Nat.le_add_left _ _))
theorem hcount20 : ∀ w, grid20.bufCount (spec20 w).reads (spec20 w).sync = (spec20 w).nbuf := fun | 0 => nbuf20_0 | 1 => nbuf20_1 | ⟨_ + 2, h⟩ => absurd h (Nat.not_lt.2 (Nat.le_add_left _ _))
abbrev ix20 (pf : pre20.Contents (Elt F)) : (w : Fin 2) → grid20.Coords → Fin (spec20 w).shape.rank → Nat := fun | 0 => cc20_transform_1 | 1 => cc20_transform_2 | ⟨_ + 2, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 | 1 => hreads20_1 | ⟨_ + 2, h⟩ => absurd h (Nat.not_lt.2 (Nat.le_add_left _ _))
def ok20 (_ : pre20.Contents (Elt F)) : Prop :=
  True
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun _ _ => fun | 0 => hinb20_0 | 1 => hinb20_1 | ⟨_ + 2, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun _ _ => fun | 0 => hwx20_0 | 1 => hwx20_1 | ⟨_ + 2, h⟩ => absurd h (Nat.not_lt.2 (Nat.le_add_left _ _))
abbrev spec21_0 : Pipeline.WinSpec sig grid21.rank :=
  Pipeline.WinSpec.ofSpec (Memref.whole main_v144) S8x1.size reads21_0 false false 2 stage21_0 sem21_0 nbuf21_0 hstage21_0

abbrev spec21_1 : Pipeline.WinSpec sig grid21.rank :=
  Pipeline.WinSpec.ofSpec (Memref.whole main_v145) S8x128.size reads21_1 true false 2 stage21_1 sem21_1 nbuf21_1 hstage21_1

abbrev spec21 : Fin 2 → Pipeline.WinSpec sig grid21.rank := fun | 0 => spec21_0 | 1 => spec21_1 | ⟨_ + 2, h⟩ => absurd h (Nat.not_lt.2 (Nat.le_add_left _ _))
theorem hcount21 : ∀ w, grid21.bufCount (spec21 w).reads (spec21 w).sync = (spec21 w).nbuf := fun | 0 => nbuf21_0 | 1 => nbuf21_1 | ⟨_ + 2, h⟩ => absurd h (Nat.not_lt.2 (Nat.le_add_left _ _))
abbrev ix21 (pf : pre21.Contents (Elt F)) : (w : Fin 2) → grid21.Coords → Fin (spec21 w).shape.rank → Nat := fun | 0 => cc21_transform_1 | 1 => cc21_transform_2 | ⟨_ + 2, h⟩ => absurd h (Nat.not_lt.2 (Nat.le_add_left _ _))
theorem hreads21 : ∀ (pf : pre21.Contents (Elt F)) w (i i' : grid21.Coords), (∀ a, (spec21 w).reads a = true → i a = i' a) → ix21 pf w i = ix21 pf w i' := fun pf => fun | 0 => hreads21_0 | 1 => hreads21_1 | ⟨_ + 2, h⟩ => absurd h (Nat.not_lt.2 (Nat.le_add_left _ _))
def ok21 (_ : pre21.Contents (Elt F)) : Prop :=
  True
instance (pf : pre21.Contents (Elt F)) : Decidable (ok21 pf) := decidable_of_iff' _ (Iff.of_eq (ok21.eq_1 pf))
theorem hinb21 : ∀ (pf : pre21.Contents (Elt F)), ok21 pf → ∀ w (i : grid21.Coords) a, (ix21 pf w i a + 1) * (spec21 w).size a ≤ (spec21 w).shape.size a :=
  fun _ _ => fun | 0 => hinb21_0 | 1 => hinb21_1 | ⟨_ + 2, h⟩ => absurd h (Nat.not_lt.2 (Nat.le_add_left _ _))
theorem hwx21 : ∀ (pf : pre21.Contents (Elt F)) (hok : ok21 pf) w (i : grid21.Coords), (spec21 w).elt.bits = 32 ∨ (Rect.block (spec21 w).size (ix21 pf w i) (hinb21 pf hok w i)).WholeWords (spec21 w).elt.packing :=
  fun _ _ => fun | 0 => hwx21_0 | 1 => hwx21_1 | ⟨_ + 2, h⟩ => absurd h (Nat.not_lt.2 (Nat.le_add_left _ _))
abbrev spec22_0 : Pipeline.WinSpec sig grid22.rank :=
  Pipeline.WinSpec.ofSpec (Memref.whole main_v147) S8x1.size reads22_0 false false 2 stage22_0 sem22_0 nbuf22_0 hstage22_0

abbrev spec22_1 : Pipeline.WinSpec sig grid22.rank :=
  Pipeline.WinSpec.ofSpec (Memref.whole main_v148) S8x128.size reads22_1 true false 2 stage22_1 sem22_1 nbuf22_1 hstage22_1

abbrev spec22 : Fin 2 → Pipeline.WinSpec sig grid22.rank := fun | 0 => spec22_0 | 1 => spec22_1 | ⟨_ + 2, h⟩ => absurd h (Nat.not_lt.2 (Nat.le_add_left _ _))
theorem hcount22 : ∀ w, grid22.bufCount (spec22 w).reads (spec22 w).sync = (spec22 w).nbuf := fun | 0 => nbuf22_0 | 1 => nbuf22_1 | ⟨_ + 2, h⟩ => absurd h (Nat.not_lt.2 (Nat.le_add_left _ _))
abbrev ix22 (pf : pre22.Contents (Elt F)) : (w : Fin 2) → grid22.Coords → Fin (spec22 w).shape.rank → Nat := fun | 0 => cc22_transform_1 | 1 => cc22_transform_2 | ⟨_ + 2, h⟩ => absurd h (Nat.not_lt.2 (Nat.le_add_left _ _))
theorem hreads22 : ∀ (pf : pre22.Contents (Elt F)) w (i i' : grid22.Coords), (∀ a, (spec22 w).reads a = true → i a = i' a) → ix22 pf w i = ix22 pf w i' := fun pf => fun | 0 => hreads22_0 | 1 => hreads22_1 | ⟨_ + 2, h⟩ => absurd h (Nat.not_lt.2 (Nat.le_add_left _ _))
def ok22 (_ : pre22.Contents (Elt F)) : Prop :=
  True
instance (pf : pre22.Contents (Elt F)) : Decidable (ok22 pf) := decidable_of_iff' _ (Iff.of_eq (ok22.eq_1 pf))
theorem hinb22 : ∀ (pf : pre22.Contents (Elt F)), ok22 pf → ∀ w (i : grid22.Coords) a, (ix22 pf w i a + 1) * (spec22 w).size a ≤ (spec22 w).shape.size a :=
  fun _ _ => fun | 0 => hinb22_0 | 1 => hinb22_1 | ⟨_ + 2, h⟩ => absurd h (Nat.not_lt.2 (Nat.le_add_left _ _))
theorem hwx22 : ∀ (pf : pre22.Contents (Elt F)) (hok : ok22 pf) w (i : grid22.Coords), (spec22 w).elt.bits = 32 ∨ (Rect.block (spec22 w).size (ix22 pf w i) (hinb22 pf hok w i)).WholeWords (spec22 w).elt.packing :=
  fun _ _ => fun | 0 => hwx22_0 | 1 => hwx22_1 | ⟨_ + 2, h⟩ => absurd h (Nat.not_lt.2 (Nat.le_add_left _ _))
abbrev spec23_0 : Pipeline.WinSpec sig grid23.rank :=
  Pipeline.WinSpec.ofSpec (Memref.whole main_v150) S8x1.size reads23_0 false false 2 stage23_0 sem23_0 nbuf23_0 hstage23_0

abbrev spec23_1 : Pipeline.WinSpec sig grid23.rank :=
  Pipeline.WinSpec.ofSpec (Memref.whole main_v151) S8x128.size reads23_1 true false 2 stage23_1 sem23_1 nbuf23_1 hstage23_1

abbrev spec23 : Fin 2 → Pipeline.WinSpec sig grid23.rank := fun | 0 => spec23_0 | 1 => spec23_1 | ⟨_ + 2, h⟩ => absurd h (Nat.not_lt.2 (Nat.le_add_left _ _))
theorem hcount23 : ∀ w, grid23.bufCount (spec23 w).reads (spec23 w).sync = (spec23 w).nbuf := fun | 0 => nbuf23_0 | 1 => nbuf23_1 | ⟨_ + 2, h⟩ => absurd h (Nat.not_lt.2 (Nat.le_add_left _ _))
abbrev ix23 (pf : pre23.Contents (Elt F)) : (w : Fin 2) → grid23.Coords → Fin (spec23 w).shape.rank → Nat := fun | 0 => cc23_transform_1 | 1 => cc23_transform_2 | ⟨_ + 2, h⟩ => absurd h (Nat.not_lt.2 (Nat.le_add_left _ _))
theorem hreads23 : ∀ (pf : pre23.Contents (Elt F)) w (i i' : grid23.Coords), (∀ a, (spec23 w).reads a = true → i a = i' a) → ix23 pf w i = ix23 pf w i' := fun pf => fun | 0 => hreads23_0 | 1 => hreads23_1 | ⟨_ + 2, h⟩ => absurd h (Nat.not_lt.2 (Nat.le_add_left _ _))
def ok23 (_ : pre23.Contents (Elt F)) : Prop :=
  True
instance (pf : pre23.Contents (Elt F)) : Decidable (ok23 pf) := decidable_of_iff' _ (Iff.of_eq (ok23.eq_1 pf))
theorem hinb23 : ∀ (pf : pre23.Contents (Elt F)), ok23 pf → ∀ w (i : grid23.Coords) a, (ix23 pf w i a + 1) * (spec23 w).size a ≤ (spec23 w).shape.size a :=
  fun _ _ => fun | 0 => hinb23_0 | 1 => hinb23_1 | ⟨_ + 2, h⟩ => absurd h (Nat.not_lt.2 (Nat.le_add_left _ _))
theorem hwx23 : ∀ (pf : pre23.Contents (Elt F)) (hok : ok23 pf) w (i : grid23.Coords), (spec23 w).elt.bits = 32 ∨ (Rect.block (spec23 w).size (ix23 pf w i) (hinb23 pf hok w i)).WholeWords (spec23 w).elt.packing :=
  fun _ _ => fun | 0 => hwx23_0 | 1 => hwx23_1 | ⟨_ + 2, h⟩ => absurd h (Nat.not_lt.2 (Nat.le_add_left _ _))
abbrev spec24_0 : Pipeline.WinSpec sig grid24.rank :=
  Pipeline.WinSpec.ofSpec (Memref.whole main_v153) S8x1.size reads24_0 false false 2 stage24_0 sem24_0 nbuf24_0 hstage24_0

abbrev spec24_1 : Pipeline.WinSpec sig grid24.rank :=
  Pipeline.WinSpec.ofSpec (Memref.whole main_v154) S8x128.size reads24_1 true false 2 stage24_1 sem24_1 nbuf24_1 hstage24_1

abbrev spec24 : Fin 2 → Pipeline.WinSpec sig grid24.rank := fun | 0 => spec24_0 | 1 => spec24_1 | ⟨_ + 2, h⟩ => absurd h (Nat.not_lt.2 (Nat.le_add_left _ _))
theorem hcount24 : ∀ w, grid24.bufCount (spec24 w).reads (spec24 w).sync = (spec24 w).nbuf := fun | 0 => nbuf24_0 | 1 => nbuf24_1 | ⟨_ + 2, h⟩ => absurd h (Nat.not_lt.2 (Nat.le_add_left _ _))
abbrev ix24 (pf : pre24.Contents (Elt F)) : (w : Fin 2) → grid24.Coords → Fin (spec24 w).shape.rank → Nat := fun | 0 => cc24_transform_1 | 1 => cc24_transform_2 | ⟨_ + 2, h⟩ => absurd h (Nat.not_lt.2 (Nat.le_add_left _ _))
theorem hreads24 : ∀ (pf : pre24.Contents (Elt F)) w (i i' : grid24.Coords), (∀ a, (spec24 w).reads a = true → i a = i' a) → ix24 pf w i = ix24 pf w i' := fun pf => fun | 0 => hreads24_0 | 1 => hreads24_1 | ⟨_ + 2, h⟩ => absurd h (Nat.not_lt.2 (Nat.le_add_left _ _))
def ok24 (_ : pre24.Contents (Elt F)) : Prop :=
  True
instance (pf : pre24.Contents (Elt F)) : Decidable (ok24 pf) := decidable_of_iff' _ (Iff.of_eq (ok24.eq_1 pf))
theorem hinb24 : ∀ (pf : pre24.Contents (Elt F)), ok24 pf → ∀ w (i : grid24.Coords) a, (ix24 pf w i a + 1) * (spec24 w).size a ≤ (spec24 w).shape.size a :=
  fun _ _ => fun | 0 => hinb24_0 | 1 => hinb24_1 | ⟨_ + 2, h⟩ => absurd h (Nat.not_lt.2 (Nat.le_add_left _ _))
theorem hwx24 : ∀ (pf : pre24.Contents (Elt F)) (hok : ok24 pf) w (i : grid24.Coords), (spec24 w).elt.bits = 32 ∨ (Rect.block (spec24 w).size (ix24 pf w i) (hinb24 pf hok w i)).WholeWords (spec24 w).elt.packing :=
  fun _ _ => fun | 0 => hwx24_0 | 1 => hwx24_1 | ⟨_ + 2, h⟩ => absurd h (Nat.not_lt.2 (Nat.le_add_left _ _))
abbrev spec25_0 : Pipeline.WinSpec sig grid25.rank :=
  Pipeline.WinSpec.ofSpec (Memref.whole main_v170) S8x1.size reads25_0 false false 2 stage25_0 sem25_0 nbuf25_0 hstage25_0

abbrev spec25_1 : Pipeline.WinSpec sig grid25.rank :=
  Pipeline.WinSpec.ofSpec (Memref.whole main_v171) S8x128.size reads25_1 true false 2 stage25_1 sem25_1 nbuf25_1 hstage25_1

abbrev spec25 : Fin 2 → Pipeline.WinSpec sig grid25.rank := fun | 0 => spec25_0 | 1 => spec25_1 | ⟨_ + 2, h⟩ => absurd h (Nat.not_lt.2 (Nat.le_add_left _ _))
theorem hcount25 : ∀ w, grid25.bufCount (spec25 w).reads (spec25 w).sync = (spec25 w).nbuf := fun | 0 => nbuf25_0 | 1 => nbuf25_1 | ⟨_ + 2, h⟩ => absurd h (Nat.not_lt.2 (Nat.le_add_left _ _))
abbrev ix25 (pf : pre25.Contents (Elt F)) : (w : Fin 2) → grid25.Coords → Fin (spec25 w).shape.rank → Nat := fun | 0 => cc25_transform_1 | 1 => cc25_transform_2 | ⟨_ + 2, h⟩ => absurd h (Nat.not_lt.2 (Nat.le_add_left _ _))
theorem hreads25 : ∀ (pf : pre25.Contents (Elt F)) w (i i' : grid25.Coords), (∀ a, (spec25 w).reads a = true → i a = i' a) → ix25 pf w i = ix25 pf w i' := fun pf => fun | 0 => hreads25_0 | 1 => hreads25_1 | ⟨_ + 2, h⟩ => absurd h (Nat.not_lt.2 (Nat.le_add_left _ _))
def ok25 (_ : pre25.Contents (Elt F)) : Prop :=
  True
instance (pf : pre25.Contents (Elt F)) : Decidable (ok25 pf) := decidable_of_iff' _ (Iff.of_eq (ok25.eq_1 pf))
theorem hinb25 : ∀ (pf : pre25.Contents (Elt F)), ok25 pf → ∀ w (i : grid25.Coords) a, (ix25 pf w i a + 1) * (spec25 w).size a ≤ (spec25 w).shape.size a :=
  fun _ _ => fun | 0 => hinb25_0 | 1 => hinb25_1 | ⟨_ + 2, h⟩ => absurd h (Nat.not_lt.2 (Nat.le_add_left _ _))
theorem hwx25 : ∀ (pf : pre25.Contents (Elt F)) (hok : ok25 pf) w (i : grid25.Coords), (spec25 w).elt.bits = 32 ∨ (Rect.block (spec25 w).size (ix25 pf w i) (hinb25 pf hok w i)).WholeWords (spec25 w).elt.packing :=
  fun _ _ => fun | 0 => hwx25_0 | 1 => hwx25_1 | ⟨_ + 2, h⟩ => absurd h (Nat.not_lt.2 (Nat.le_add_left _ _))
abbrev spec26_0 : Pipeline.WinSpec sig grid26.rank :=
  Pipeline.WinSpec.ofSpec (Memref.whole main_v173) S8x1.size reads26_0 false false 2 stage26_0 sem26_0 nbuf26_0 hstage26_0

abbrev spec26_1 : Pipeline.WinSpec sig grid26.rank :=
  Pipeline.WinSpec.ofSpec (Memref.whole main_v174) S8x128.size reads26_1 true false 2 stage26_1 sem26_1 nbuf26_1 hstage26_1

abbrev spec26 : Fin 2 → Pipeline.WinSpec sig grid26.rank := fun | 0 => spec26_0 | 1 => spec26_1 | ⟨_ + 2, h⟩ => absurd h (Nat.not_lt.2 (Nat.le_add_left _ _))
theorem hcount26 : ∀ w, grid26.bufCount (spec26 w).reads (spec26 w).sync = (spec26 w).nbuf := fun | 0 => nbuf26_0 | 1 => nbuf26_1 | ⟨_ + 2, h⟩ => absurd h (Nat.not_lt.2 (Nat.le_add_left _ _))
abbrev ix26 (pf : pre26.Contents (Elt F)) : (w : Fin 2) → grid26.Coords → Fin (spec26 w).shape.rank → Nat := fun | 0 => cc26_transform_1 | 1 => cc26_transform_2 | ⟨_ + 2, h⟩ => absurd h (Nat.not_lt.2 (Nat.le_add_left _ _))
theorem hreads26 : ∀ (pf : pre26.Contents (Elt F)) w (i i' : grid26.Coords), (∀ a, (spec26 w).reads a = true → i a = i' a) → ix26 pf w i = ix26 pf w i' := fun pf => fun | 0 => hreads26_0 | 1 => hreads26_1 | ⟨_ + 2, h⟩ => absurd h (Nat.not_lt.2 (Nat.le_add_left _ _))
def ok26 (_ : pre26.Contents (Elt F)) : Prop :=
  True
instance (pf : pre26.Contents (Elt F)) : Decidable (ok26 pf) := decidable_of_iff' _ (Iff.of_eq (ok26.eq_1 pf))
theorem hinb26 : ∀ (pf : pre26.Contents (Elt F)), ok26 pf → ∀ w (i : grid26.Coords) a, (ix26 pf w i a + 1) * (spec26 w).size a ≤ (spec26 w).shape.size a :=
  fun _ _ => fun | 0 => hinb26_0 | 1 => hinb26_1 | ⟨_ + 2, h⟩ => absurd h (Nat.not_lt.2 (Nat.le_add_left _ _))
theorem hwx26 : ∀ (pf : pre26.Contents (Elt F)) (hok : ok26 pf) w (i : grid26.Coords), (spec26 w).elt.bits = 32 ∨ (Rect.block (spec26 w).size (ix26 pf w i) (hinb26 pf hok w i)).WholeWords (spec26 w).elt.packing :=
  fun _ _ => fun | 0 => hwx26_0 | 1 => hwx26_1 | ⟨_ + 2, h⟩ => absurd h (Nat.not_lt.2 (Nat.le_add_left _ _))
abbrev spec27_0 : Pipeline.WinSpec sig grid27.rank :=
  Pipeline.WinSpec.ofSpec (Memref.whole main_v176) S8x1.size reads27_0 false false 2 stage27_0 sem27_0 nbuf27_0 hstage27_0

abbrev spec27_1 : Pipeline.WinSpec sig grid27.rank :=
  Pipeline.WinSpec.ofSpec (Memref.whole main_v177) S8x128.size reads27_1 true false 2 stage27_1 sem27_1 nbuf27_1 hstage27_1

abbrev spec27 : Fin 2 → Pipeline.WinSpec sig grid27.rank := fun | 0 => spec27_0 | 1 => spec27_1 | ⟨_ + 2, h⟩ => absurd h (Nat.not_lt.2 (Nat.le_add_left _ _))
theorem hcount27 : ∀ w, grid27.bufCount (spec27 w).reads (spec27 w).sync = (spec27 w).nbuf := fun | 0 => nbuf27_0 | 1 => nbuf27_1 | ⟨_ + 2, h⟩ => absurd h (Nat.not_lt.2 (Nat.le_add_left _ _))
abbrev ix27 (pf : pre27.Contents (Elt F)) : (w : Fin 2) → grid27.Coords → Fin (spec27 w).shape.rank → Nat := fun | 0 => cc27_transform_1 | 1 => cc27_transform_2 | ⟨_ + 2, h⟩ => absurd h (Nat.not_lt.2 (Nat.le_add_left _ _))
theorem hreads27 : ∀ (pf : pre27.Contents (Elt F)) w (i i' : grid27.Coords), (∀ a, (spec27 w).reads a = true → i a = i' a) → ix27 pf w i = ix27 pf w i' := fun pf => fun | 0 => hreads27_0 | 1 => hreads27_1 | ⟨_ + 2, h⟩ => absurd h (Nat.not_lt.2 (Nat.le_add_left _ _))
def ok27 (_ : pre27.Contents (Elt F)) : Prop :=
  True
instance (pf : pre27.Contents (Elt F)) : Decidable (ok27 pf) := decidable_of_iff' _ (Iff.of_eq (ok27.eq_1 pf))
theorem hinb27 : ∀ (pf : pre27.Contents (Elt F)), ok27 pf → ∀ w (i : grid27.Coords) a, (ix27 pf w i a + 1) * (spec27 w).size a ≤ (spec27 w).shape.size a :=
  fun _ _ => fun | 0 => hinb27_0 | 1 => hinb27_1 | ⟨_ + 2, h⟩ => absurd h (Nat.not_lt.2 (Nat.le_add_left _ _))
theorem hwx27 : ∀ (pf : pre27.Contents (Elt F)) (hok : ok27 pf) w (i : grid27.Coords), (spec27 w).elt.bits = 32 ∨ (Rect.block (spec27 w).size (ix27 pf w i) (hinb27 pf hok w i)).WholeWords (spec27 w).elt.packing :=
  fun _ _ => fun | 0 => hwx27_0 | 1 => hwx27_1 | ⟨_ + 2, h⟩ => absurd h (Nat.not_lt.2 (Nat.le_add_left _ _))
abbrev spec28_0 : Pipeline.WinSpec sig grid28.rank :=
  Pipeline.WinSpec.ofSpec (Memref.whole main_v179) S8x1.size reads28_0 false false 2 stage28_0 sem28_0 nbuf28_0 hstage28_0

abbrev spec28_1 : Pipeline.WinSpec sig grid28.rank :=
  Pipeline.WinSpec.ofSpec (Memref.whole main_v180) S8x128.size reads28_1 true false 2 stage28_1 sem28_1 nbuf28_1 hstage28_1

abbrev spec28 : Fin 2 → Pipeline.WinSpec sig grid28.rank := fun | 0 => spec28_0 | 1 => spec28_1 | ⟨_ + 2, h⟩ => absurd h (Nat.not_lt.2 (Nat.le_add_left _ _))
theorem hcount28 : ∀ w, grid28.bufCount (spec28 w).reads (spec28 w).sync = (spec28 w).nbuf := fun | 0 => nbuf28_0 | 1 => nbuf28_1 | ⟨_ + 2, h⟩ => absurd h (Nat.not_lt.2 (Nat.le_add_left _ _))
abbrev ix28 (pf : pre28.Contents (Elt F)) : (w : Fin 2) → grid28.Coords → Fin (spec28 w).shape.rank → Nat := fun | 0 => cc28_transform_1 | 1 => cc28_transform_2 | ⟨_ + 2, h⟩ => absurd h (Nat.not_lt.2 (Nat.le_add_left _ _))
theorem hreads28 : ∀ (pf : pre28.Contents (Elt F)) w (i i' : grid28.Coords), (∀ a, (spec28 w).reads a = true → i a = i' a) → ix28 pf w i = ix28 pf w i' := fun pf => fun | 0 => hreads28_0 | 1 => hreads28_1 | ⟨_ + 2, h⟩ => absurd h (Nat.not_lt.2 (Nat.le_add_left _ _))
def ok28 (_ : pre28.Contents (Elt F)) : Prop :=
  True
instance (pf : pre28.Contents (Elt F)) : Decidable (ok28 pf) := decidable_of_iff' _ (Iff.of_eq (ok28.eq_1 pf))
theorem hinb28 : ∀ (pf : pre28.Contents (Elt F)), ok28 pf → ∀ w (i : grid28.Coords) a, (ix28 pf w i a + 1) * (spec28 w).size a ≤ (spec28 w).shape.size a :=
  fun _ _ => fun | 0 => hinb28_0 | 1 => hinb28_1 | ⟨_ + 2, h⟩ => absurd h (Nat.not_lt.2 (Nat.le_add_left _ _))
theorem hwx28 : ∀ (pf : pre28.Contents (Elt F)) (hok : ok28 pf) w (i : grid28.Coords), (spec28 w).elt.bits = 32 ∨ (Rect.block (spec28 w).size (ix28 pf w i) (hinb28 pf hok w i)).WholeWords (spec28 w).elt.packing :=
  fun _ _ => fun | 0 => hwx28_0 | 1 => hwx28_1 | ⟨_ + 2, h⟩ => absurd h (Nat.not_lt.2 (Nat.le_add_left _ _))
abbrev spec29_0 : Pipeline.WinSpec sig grid29.rank :=
  Pipeline.WinSpec.ofSpec (Memref.whole main_v196) S8x1.size reads29_0 false false 2 stage29_0 sem29_0 nbuf29_0 hstage29_0

abbrev spec29_1 : Pipeline.WinSpec sig grid29.rank :=
  Pipeline.WinSpec.ofSpec (Memref.whole main_v197) S8x128.size reads29_1 true false 2 stage29_1 sem29_1 nbuf29_1 hstage29_1

abbrev spec29 : Fin 2 → Pipeline.WinSpec sig grid29.rank := fun | 0 => spec29_0 | 1 => spec29_1 | ⟨_ + 2, h⟩ => absurd h (Nat.not_lt.2 (Nat.le_add_left _ _))
theorem hcount29 : ∀ w, grid29.bufCount (spec29 w).reads (spec29 w).sync = (spec29 w).nbuf := fun | 0 => nbuf29_0 | 1 => nbuf29_1 | ⟨_ + 2, h⟩ => absurd h (Nat.not_lt.2 (Nat.le_add_left _ _))
abbrev ix29 (pf : pre29.Contents (Elt F)) : (w : Fin 2) → grid29.Coords → Fin (spec29 w).shape.rank → Nat := fun | 0 => cc29_transform_1 | 1 => cc29_transform_2 | ⟨_ + 2, h⟩ => absurd h (Nat.not_lt.2 (Nat.le_add_left _ _))
theorem hreads29 : ∀ (pf : pre29.Contents (Elt F)) w (i i' : grid29.Coords), (∀ a, (spec29 w).reads a = true → i a = i' a) → ix29 pf w i = ix29 pf w i' := fun pf => fun | 0 => hreads29_0 | 1 => hreads29_1 | ⟨_ + 2, h⟩ => absurd h (Nat.not_lt.2 (Nat.le_add_left _ _))
def ok29 (_ : pre29.Contents (Elt F)) : Prop :=
  True
instance (pf : pre29.Contents (Elt F)) : Decidable (ok29 pf) := decidable_of_iff' _ (Iff.of_eq (ok29.eq_1 pf))
theorem hinb29 : ∀ (pf : pre29.Contents (Elt F)), ok29 pf → ∀ w (i : grid29.Coords) a, (ix29 pf w i a + 1) * (spec29 w).size a ≤ (spec29 w).shape.size a :=
  fun _ _ => fun | 0 => hinb29_0 | 1 => hinb29_1 | ⟨_ + 2, h⟩ => absurd h (Nat.not_lt.2 (Nat.le_add_left _ _))
theorem hwx29 : ∀ (pf : pre29.Contents (Elt F)) (hok : ok29 pf) w (i : grid29.Coords), (spec29 w).elt.bits = 32 ∨ (Rect.block (spec29 w).size (ix29 pf w i) (hinb29 pf hok w i)).WholeWords (spec29 w).elt.packing :=
  fun _ _ => fun | 0 => hwx29_0 | 1 => hwx29_1 | ⟨_ + 2, h⟩ => absurd h (Nat.not_lt.2 (Nat.le_add_left _ _))
abbrev spec30_0 : Pipeline.WinSpec sig grid30.rank :=
  Pipeline.WinSpec.ofSpec (Memref.whole main_v199) S8x1.size reads30_0 false false 2 stage30_0 sem30_0 nbuf30_0 hstage30_0

abbrev spec30_1 : Pipeline.WinSpec sig grid30.rank :=
  Pipeline.WinSpec.ofSpec (Memref.whole main_v200) S8x128.size reads30_1 true false 2 stage30_1 sem30_1 nbuf30_1 hstage30_1

abbrev spec30 : Fin 2 → Pipeline.WinSpec sig grid30.rank := fun | 0 => spec30_0 | 1 => spec30_1 | ⟨_ + 2, h⟩ => absurd h (Nat.not_lt.2 (Nat.le_add_left _ _))
theorem hcount30 : ∀ w, grid30.bufCount (spec30 w).reads (spec30 w).sync = (spec30 w).nbuf := fun | 0 => nbuf30_0 | 1 => nbuf30_1 | ⟨_ + 2, h⟩ => absurd h (Nat.not_lt.2 (Nat.le_add_left _ _))
abbrev ix30 (pf : pre30.Contents (Elt F)) : (w : Fin 2) → grid30.Coords → Fin (spec30 w).shape.rank → Nat := fun | 0 => cc30_transform_1 | 1 => cc30_transform_2 | ⟨_ + 2, h⟩ => absurd h (Nat.not_lt.2 (Nat.le_add_left _ _))
theorem hreads30 : ∀ (pf : pre30.Contents (Elt F)) w (i i' : grid30.Coords), (∀ a, (spec30 w).reads a = true → i a = i' a) → ix30 pf w i = ix30 pf w i' := fun pf => fun | 0 => hreads30_0 | 1 => hreads30_1 | ⟨_ + 2, h⟩ => absurd h (Nat.not_lt.2 (Nat.le_add_left _ _))
def ok30 (_ : pre30.Contents (Elt F)) : Prop :=
  True
instance (pf : pre30.Contents (Elt F)) : Decidable (ok30 pf) := decidable_of_iff' _ (Iff.of_eq (ok30.eq_1 pf))
theorem hinb30 : ∀ (pf : pre30.Contents (Elt F)), ok30 pf → ∀ w (i : grid30.Coords) a, (ix30 pf w i a + 1) * (spec30 w).size a ≤ (spec30 w).shape.size a :=
  fun _ _ => fun | 0 => hinb30_0 | 1 => hinb30_1 | ⟨_ + 2, h⟩ => absurd h (Nat.not_lt.2 (Nat.le_add_left _ _))
theorem hwx30 : ∀ (pf : pre30.Contents (Elt F)) (hok : ok30 pf) w (i : grid30.Coords), (spec30 w).elt.bits = 32 ∨ (Rect.block (spec30 w).size (ix30 pf w i) (hinb30 pf hok w i)).WholeWords (spec30 w).elt.packing :=
  fun _ _ => fun | 0 => hwx30_0 | 1 => hwx30_1 | ⟨_ + 2, h⟩ => absurd h (Nat.not_lt.2 (Nat.le_add_left _ _))
abbrev spec31_0 : Pipeline.WinSpec sig grid31.rank :=
  Pipeline.WinSpec.ofSpec (Memref.whole main_v202) S8x1.size reads31_0 false false 2 stage31_0 sem31_0 nbuf31_0 hstage31_0

abbrev spec31_1 : Pipeline.WinSpec sig grid31.rank :=
  Pipeline.WinSpec.ofSpec (Memref.whole main_v203) S8x128.size reads31_1 true false 2 stage31_1 sem31_1 nbuf31_1 hstage31_1

abbrev spec31 : Fin 2 → Pipeline.WinSpec sig grid31.rank := fun | 0 => spec31_0 | 1 => spec31_1 | ⟨_ + 2, h⟩ => absurd h (Nat.not_lt.2 (Nat.le_add_left _ _))
theorem hcount31 : ∀ w, grid31.bufCount (spec31 w).reads (spec31 w).sync = (spec31 w).nbuf := fun | 0 => nbuf31_0 | 1 => nbuf31_1 | ⟨_ + 2, h⟩ => absurd h (Nat.not_lt.2 (Nat.le_add_left _ _))
abbrev ix31 (pf : pre31.Contents (Elt F)) : (w : Fin 2) → grid31.Coords → Fin (spec31 w).shape.rank → Nat := fun | 0 => cc31_transform_1 | 1 => cc31_transform_2 | ⟨_ + 2, h⟩ => absurd h (Nat.not_lt.2 (Nat.le_add_left _ _))
theorem hreads31 : ∀ (pf : pre31.Contents (Elt F)) w (i i' : grid31.Coords), (∀ a, (spec31 w).reads a = true → i a = i' a) → ix31 pf w i = ix31 pf w i' := fun pf => fun | 0 => hreads31_0 | 1 => hreads31_1 | ⟨_ + 2, h⟩ => absurd h (Nat.not_lt.2 (Nat.le_add_left _ _))
def ok31 (_ : pre31.Contents (Elt F)) : Prop :=
  True
instance (pf : pre31.Contents (Elt F)) : Decidable (ok31 pf) := decidable_of_iff' _ (Iff.of_eq (ok31.eq_1 pf))
theorem hinb31 : ∀ (pf : pre31.Contents (Elt F)), ok31 pf → ∀ w (i : grid31.Coords) a, (ix31 pf w i a + 1) * (spec31 w).size a ≤ (spec31 w).shape.size a :=
  fun _ _ => fun | 0 => hinb31_0 | 1 => hinb31_1 | ⟨_ + 2, h⟩ => absurd h (Nat.not_lt.2 (Nat.le_add_left _ _))
theorem hwx31 : ∀ (pf : pre31.Contents (Elt F)) (hok : ok31 pf) w (i : grid31.Coords), (spec31 w).elt.bits = 32 ∨ (Rect.block (spec31 w).size (ix31 pf w i) (hinb31 pf hok w i)).WholeWords (spec31 w).elt.packing :=
  fun _ _ => fun | 0 => hwx31_0 | 1 => hwx31_1 | ⟨_ + 2, h⟩ => absurd h (Nat.not_lt.2 (Nat.le_add_left _ _))
abbrev spec32_0 : Pipeline.WinSpec sig grid32.rank :=
  Pipeline.WinSpec.ofSpec (Memref.whole main_v205) S8x1.size reads32_0 false false 2 stage32_0 sem32_0 nbuf32_0 hstage32_0

abbrev spec32_1 : Pipeline.WinSpec sig grid32.rank :=
  Pipeline.WinSpec.ofSpec (Memref.whole main_v206) S8x128.size reads32_1 true false 2 stage32_1 sem32_1 nbuf32_1 hstage32_1

abbrev spec32 : Fin 2 → Pipeline.WinSpec sig grid32.rank := fun | 0 => spec32_0 | 1 => spec32_1 | ⟨_ + 2, h⟩ => absurd h (Nat.not_lt.2 (Nat.le_add_left _ _))
theorem hcount32 : ∀ w, grid32.bufCount (spec32 w).reads (spec32 w).sync = (spec32 w).nbuf := fun | 0 => nbuf32_0 | 1 => nbuf32_1 | ⟨_ + 2, h⟩ => absurd h (Nat.not_lt.2 (Nat.le_add_left _ _))
abbrev ix32 (pf : pre32.Contents (Elt F)) : (w : Fin 2) → grid32.Coords → Fin (spec32 w).shape.rank → Nat := fun | 0 => cc32_transform_1 | 1 => cc32_transform_2 | ⟨_ + 2, h⟩ => absurd h (Nat.not_lt.2 (Nat.le_add_left _ _))
theorem hreads32 : ∀ (pf : pre32.Contents (Elt F)) w (i i' : grid32.Coords), (∀ a, (spec32 w).reads a = true → i a = i' a) → ix32 pf w i = ix32 pf w i' := fun pf => fun | 0 => hreads32_0 | 1 => hreads32_1 | ⟨_ + 2, h⟩ => absurd h (Nat.not_lt.2 (Nat.le_add_left _ _))
def ok32 (_ : pre32.Contents (Elt F)) : Prop :=
  True
instance (pf : pre32.Contents (Elt F)) : Decidable (ok32 pf) := decidable_of_iff' _ (Iff.of_eq (ok32.eq_1 pf))
theorem hinb32 : ∀ (pf : pre32.Contents (Elt F)), ok32 pf → ∀ w (i : grid32.Coords) a, (ix32 pf w i a + 1) * (spec32 w).size a ≤ (spec32 w).shape.size a :=
  fun _ _ => fun | 0 => hinb32_0 | 1 => hinb32_1 | ⟨_ + 2, h⟩ => absurd h (Nat.not_lt.2 (Nat.le_add_left _ _))
theorem hwx32 : ∀ (pf : pre32.Contents (Elt F)) (hok : ok32 pf) w (i : grid32.Coords), (spec32 w).elt.bits = 32 ∨ (Rect.block (spec32 w).size (ix32 pf w i) (hinb32 pf hok w i)).WholeWords (spec32 w).elt.packing :=
  fun _ _ => fun | 0 => hwx32_0 | 1 => hwx32_1 | ⟨_ + 2, h⟩ => absurd h (Nat.not_lt.2 (Nat.le_add_left _ _))
abbrev win33_0 : Pipeline.Window sig grid33 :=
  Pipeline.Window.ofSpec (Memref.whole main_v218) S4x2000x128.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_v219) S2000x128.size cc33_transform_1 reads33_1 true false 2 stage33_1 sem33_1
    hrank33 hreads33_1 hinb33_1 nbuf33_1 (Memref.isWhole_whole _) hwx33_1 hstage33_1

abbrev win33 : Fin 2 → Pipeline.Window sig grid33 := fun | 0 => win33_0 | 1 => win33_1 | ⟨_ + 2, h⟩ => absurd h (Nat.not_lt.2 (Nat.le_add_left _ _))
abbrev spec33 : Fin 2 → Pipeline.WinSpec sig grid33.rank := fun w => (win33 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr17 : ∀ w, (spec17 w).arr.IsWhole
  harr18 : ∀ w, (spec18 w).arr.IsWhole
  harr19 : ∀ w, (spec19 w).arr.IsWhole
  harr20 : ∀ w, (spec20 w).arr.IsWhole
  harr21 : ∀ w, (spec21 w).arr.IsWhole
  harr22 : ∀ w, (spec22 w).arr.IsWhole
  harr23 : ∀ w, (spec23 w).arr.IsWhole
  harr24 : ∀ w, (spec24 w).arr.IsWhole
  harr25 : ∀ w, (spec25 w).arr.IsWhole
  harr26 : ∀ w, (spec26 w).arr.IsWhole
  harr27 : ∀ w, (spec27 w).arr.IsWhole
  harr28 : ∀ w, (spec28 w).arr.IsWhole
  harr29 : ∀ w, (spec29 w).arr.IsWhole
  harr30 : ∀ w, (spec30 w).arr.IsWhole
  harr31 : ∀ w, (spec31 w).arr.IsWhole
  harr32 : ∀ w, (spec32 w).arr.IsWhole

variable [Facts]
-- ==== ReferenceIdeal.lean ====
abbrev S100000x128 : Shape := ⟨2, ![100000, 128]⟩
abbrev S4x500000 : Shape := ⟨2, ![4, 500000]⟩
abbrev S_ : Shape := ⟨0, ![]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩

abbrev nBuf : Space → Nat
  | .hbm => 256
  | .vmem => 0
  | .smem => 0
  | _ => 0

abbrev hbmTy0_0 (i : Nat) : BufTy := match i % 128 with
  | 0 => ⟨S100000x128, .f32⟩
  | 1 => ⟨S4x500000, .i32⟩
  | 2 => ⟨S4x500000, .i32⟩
  | 3 => ⟨S4x500000, .f32⟩
  | 4 => ⟨S_, .f32⟩
  | 5 => ⟨S100000x128, .f32⟩
  | 6 => ⟨S1x500000, .f32⟩
  | 7 => ⟨S500000, .f32⟩
  | 8 => ⟨S500000x1, .f32⟩
  | 9 => ⟨S1x500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x128, .f32⟩
  | 20 => ⟨S500000x128, .f32⟩
  | 21 => ⟨S500000x128, .f32⟩
  | 22 => ⟨S1x500000, .i32⟩
  | 23 => ⟨S500000, .i32⟩
  | 24 => ⟨S_, .f32⟩
  | 25 => ⟨S100000x128, .f32⟩
  | 26 => ⟨S500000x1, .i32⟩
  | 27 => ⟨S100000x128, .f32⟩
  | 28 => ⟨S_, .f32⟩
  | 29 => ⟨S_, .f32⟩
  | 30 => ⟨S100000x128, .f32⟩
  | 31 => ⟨S100000x128, .i1⟩
  | 32 => ⟨S_, .f32⟩
  | 33 => ⟨S100000x128, .f32⟩
  | 34 => ⟨S100000x128, .f32⟩
  | 35 => ⟨S100000x128, .f32⟩
  | 36 => ⟨S100000x128, .f32⟩
  | 37 => ⟨S1x500000, .f32⟩
  | 38 => ⟨S500000, .f32⟩
  | 39 => ⟨S500000x1, .f32⟩
  | 40 => ⟨S1x500000, .i32⟩
  | 41 => ⟨S500000, .i32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S500000x128, .f32⟩
  | 52 => ⟨S500000x128, .f32⟩
  | 53 => ⟨S1x500000, .i32⟩
  | 54 => ⟨S500000, .i32⟩
  | 55 => ⟨S_, .f32⟩
  | 56 => ⟨S100000x128, .f32⟩
  | 57 => ⟨S500000x1, .i32⟩
  | 58 => ⟨S100000x128, .f32⟩
  | 59 => ⟨S_, .f32⟩
  | 60 => ⟨S_, .f32⟩
  | 61 => ⟨S100000x128, .f32⟩
  | 62 => ⟨S100000x128, .i1⟩
  | 63 => ⟨S_, .f32⟩
  | 64 => ⟨S100000x128, .f32⟩
  | 65 => ⟨S100000x128, .f32⟩
  | 66 => ⟨S100000x128, .f32⟩
  | 67 => ⟨S100000x128, .f32⟩
  | 68 => ⟨S1x500000, .f32⟩
  | 69 => ⟨S500000, .f32⟩
  | 70 => ⟨S500000x1, .f32⟩
  | 71 => ⟨S1x500000, .i32⟩
  | 72 => ⟨S500000, .i32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S500000x128, .f32⟩
  | 83 => ⟨S500000x128, .f32⟩
  | 84 => ⟨S1x500000, .i32⟩
  | 85 => ⟨S500000, .i32⟩
  | 86 => ⟨S_, .f32⟩
  | 87 => ⟨S100000x128, .f32⟩
  | 88 => ⟨S500000x1, .i32⟩
  | 89 => ⟨S100000x128, .f32⟩
  | 90 => ⟨S_, .f32⟩
  | 91 => ⟨S_, .f32⟩
  | 92 => ⟨S100000x128, .f32⟩
  | 93 => ⟨S100000x128, .i1⟩
  | 94 => ⟨S_, .f32⟩
  | 95 => ⟨S100000x128, .f32⟩
  | 96 => ⟨S100000x128, .f32⟩
  | 97 => ⟨S100000x128, .f32⟩
  | 98 => ⟨S100000x128, .f32⟩
  | 99 => ⟨S1x500000, .f32⟩
  | 100 => ⟨S500000, .f32⟩
  | 101 => ⟨S500000x1, .f32⟩
  | 102 => ⟨S1x500000, .i32⟩
  | 103 => ⟨S500000, .i32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x128, .f32⟩
  | 113 => ⟨S500000x128, .f32⟩
  | 114 => ⟨S500000x128, .f32⟩
  | 115 => ⟨S1x500000, .i32⟩
  | 116 => ⟨S500000, .i32⟩
  | 117 => ⟨S_, .f32⟩
  | 118 => ⟨S100000x128, .f32⟩
  | 119 => ⟨S500000x1, .i32⟩
  | 120 => ⟨S100000x128, .f32⟩
  | 121 => ⟨S_, .f32⟩
  | 122 => ⟨S_, .f32⟩
  | 123 => ⟨S100000x128, .f32⟩
  | 124 => ⟨S100000x128, .i1⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S1x500000, .f32⟩
  | 5 => ⟨S500000, .f32⟩
  | 6 => ⟨S500000x1, .f32⟩
  | 7 => ⟨S1x500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S500000x128, .f32⟩
  | 19 => ⟨S500000x128, .f32⟩
  | 20 => ⟨S1x500000, .i32⟩
  | 21 => ⟨S500000, .i32⟩
  | 22 => ⟨S_, .f32⟩
  | 23 => ⟨S100000x128, .f32⟩
  | 24 => ⟨S500000x1, .i32⟩
  | 25 => ⟨S100000x128, .f32⟩
  | 26 => ⟨S_, .f32⟩
  | 27 => ⟨S_, .f32⟩
  | 28 => ⟨S100000x128, .f32⟩
  | 29 => ⟨S100000x128, .i1⟩
  | 30 => ⟨S_, .f32⟩
  | 31 => ⟨S100000x128, .f32⟩
  | 32 => ⟨S100000x128, .f32⟩
  | 33 => ⟨S100000x128, .f32⟩
  | 34 => ⟨S100000x128, .f32⟩
  | 35 => ⟨S1x500000, .f32⟩
  | 36 => ⟨S500000, .f32⟩
  | 37 => ⟨S500000x1, .f32⟩
  | 38 => ⟨S1x500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x128, .f32⟩
  | 49 => ⟨S500000x128, .f32⟩
  | 50 => ⟨S500000x128, .f32⟩
  | 51 => ⟨S1x500000, .i32⟩
  | 52 => ⟨S500000, .i32⟩
  | 53 => ⟨S_, .f32⟩
  | 54 => ⟨S100000x128, .f32⟩
  | 55 => ⟨S500000x1, .i32⟩
  | 56 => ⟨S100000x128, .f32⟩
  | 57 => ⟨S_, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .f32⟩
  | 64 => ⟨S100000x128, .f32⟩
  | 65 => ⟨S100000x128, .f32⟩
  | 66 => ⟨S1x500000, .f32⟩
  | 67 => ⟨S500000, .f32⟩
  | 68 => ⟨S500000x1, .f32⟩
  | 69 => ⟨S1x500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S500000x128, .f32⟩
  | 81 => ⟨S500000x128, .f32⟩
  | 82 => ⟨S1x500000, .i32⟩
  | 83 => ⟨S500000, .i32⟩
  | 84 => ⟨S_, .f32⟩
  | 85 => ⟨S100000x128, .f32⟩
  | 86 => ⟨S500000x1, .i32⟩
  | 87 => ⟨S100000x128, .f32⟩
  | 88 => ⟨S_, .f32⟩
  | 89 => ⟨S_, .f32⟩
  | 90 => ⟨S100000x128, .f32⟩
  | 91 => ⟨S100000x128, .i1⟩
  | 92 => ⟨S_, .f32⟩
  | 93 => ⟨S100000x128, .f32⟩
  | 94 => ⟨S100000x128, .f32⟩
  | 95 => ⟨S100000x128, .f32⟩
  | 96 => ⟨S100000x128, .f32⟩
  | 97 => ⟨S1x500000, .f32⟩
  | 98 => ⟨S500000, .f32⟩
  | 99 => ⟨S500000x1, .f32⟩
  | 100 => ⟨S1x500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S500000x128, .f32⟩
  | 112 => ⟨S500000x128, .f32⟩
  | 113 => ⟨S1x500000, .i32⟩
  | 114 => ⟨S500000, .i32⟩
  | 115 => ⟨S_, .f32⟩
  | 116 => ⟨S100000x128, .f32⟩
  | 117 => ⟨S500000x1, .i32⟩
  | 118 => ⟨S100000x128, .f32⟩
  | 119 => ⟨S_, .f32⟩
  | 120 => ⟨S_, .f32⟩
  | 121 => ⟨S100000x128, .f32⟩
  | 122 => ⟨S100000x128, .i1⟩
  | 123 => ⟨S_, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_11 : Ref sig .tc := ⟨.hbm, 104, rfl⟩
abbrev main_v69 : Ref sig .tc := ⟨.hbm, 105, rfl⟩
abbrev main_v70 : Ref sig .tc := ⟨.hbm, 106, rfl⟩
abbrev main_c_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_call3_cst : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v83 : Ref sig .tc := ⟨.hbm, 128, rfl⟩
abbrev main_v84 : Ref sig .tc := ⟨.hbm, 129, rfl⟩
abbrev main_cst_15 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_16 : Ref sig .tc := ⟨.hbm, 137, rfl⟩
abbrev main_v91 : Ref sig .tc := ⟨.hbm, 138, rfl⟩
abbrev main_v92 : Ref sig .tc := ⟨.hbm, 139, rfl⟩
abbrev main_c_17 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_18 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_19 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_20 : Ref sig .tc := ⟨.hbm, 168, rfl⟩
abbrev main_v112 : Ref sig .tc := ⟨.hbm, 169, rfl⟩
abbrev main_v113 : Ref sig .tc := ⟨.hbm, 170, rfl⟩
abbrev main_c_21 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_22 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_23 : Ref sig .tc := ⟨.hbm, 185, rfl⟩
abbrev main_call5_cst : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_c_24 : Ref sig .tc := ⟨.hbm, 199, rfl⟩
abbrev main_v133 : Ref sig .tc := ⟨.hbm, 200, rfl⟩
abbrev main_v134 : Ref sig .tc := ⟨.hbm, 201, rfl⟩
abbrev main_c_25 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_26 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_27 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_c_28 : Ref sig .tc := ⟨.hbm, 230, rfl⟩
abbrev main_v154 : Ref sig .tc := ⟨.hbm, 231, rfl⟩
abbrev main_v155 : Ref sig .tc := ⟨.hbm, 232, rfl⟩
abbrev main_c_29 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_30 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_cst_31 : Ref sig .tc := ⟨.hbm, 247, rfl⟩
abbrev main_call7_cst : Ref sig .tc := ⟨.hbm, 248, rfl⟩
abbrev main_call7_v0 : Ref sig .tc := ⟨.hbm, 249, rfl⟩
abbrev main_call7_v1 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_v168 : Ref sig .tc := ⟨.hbm, 254, rfl⟩
abbrev main_v169 : Ref sig .tc := ⟨.hbm, 255, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S4x500000_S1x500000_0_0 : S4x500000.Slices ![0, 0] S1x500000
  shapeCasts_S1x500000_S500000 : S1x500000.ShapeCasts S500000
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  slices_S4x500000_S1x500000_1_0 : S4x500000.Slices ![1, 0] S1x500000
  slices_S4x500000_S1x500000_2_0 : S4x500000.Slices ![2, 0] S1x500000
  slices_S4x500000_S1x500000_3_0 : S4x500000.Slices ![3, 0] S1x500000
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.K.Common.lean ====
/-
  Shared choices for the hand-written frame and value modules of the idealized kernel program: the resource
  algebra (the pipeline library's beside the counters that a kernel's own transfers take their tokens from),
  trivial levels (no core owes another anything), and notation for a memref's buffer held whole.
-/
import proofs.«414509_j14181982011419_2_alg».proof.Proof.Gen.Kernel.Launch
import Idealize.ShloMosaic.Lib.Tactic
import Idealize.ShloMosaic.Lib.Pipeline.Kit
import Idealize.ShloMosaic.Lib.Pipeline.Regions

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's for the pipelines' staging cells, beside the counters the
    transfers' invariants take their tokens from. -/
abbrev UU (nD : Nat) (τ : Topo) : Type := UR sig nD τ × Counters

/-- The logic's model at that algebra: pairs indexed by `Unit`, names `ℕ`, levels `ℕ`. -/
abbrev MM (F : FTy → Type) : Type := MT nD τ sig Unit (Elt F) ℕ (UU nD τ) ℕ

/-- The pipeline library's algebra is the left component. -/
abbrev EP : Emb (UR sig nD τ) (MM F) := embL

/-- No core owes another anything: no level is assigned. -/
abbrev L : GSem nD τ sig → Finset Unit := fun _ => ∅
abbrev lv : GSem nD τ sig → Unit → ℕ := fun _ _ => 0
abbrev 𝒱₀ : Variants := Variants.none

/-- Memref `M`'s buffer on core `c`: its contents type, and it held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) :
    sProp (MM F) :=
  M.view.loc (c : Thread nD τ) ↦{fullShare} f

/-- What rides beside the unscoped buffers between @main's items: the core owes nothing. -/
abbrev Rest (c : Dev nD) : sProp (MM F) := iprop(∃ W, owes (c : Thread nD τ) (0 : CellTallies nD τ sig Unit) W)

end Cert.Kernel.Hand

end
-- ==== Proof.K.GatherSpec.lean ====
/-
  The gather kernels' result as one function of whole arrays: for each edge `e` and lane `d`, the row of the
  embedding array that the edge's index word names, at lane `d`, times the edge's value. The word is read as a row
  number modulo the array's extent, so that the function is total; where every word is a row number (the regions'
  range hypothesis) the reduction is the identity. The same function serves every gather region: their shapes agree.
-/
import proofs.«414509_j14181982011419_2_alg».proof.Proof.K.Common
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The index of row `r`, lane `d` of the embedding array. -/
def embIdx (r : Fin 100000) (d : Fin 128) : S100000x128.Idx := fun a =>
  match a with
  | ⟨0, _⟩ => r
  | ⟨1, _⟩ => d

/-- The index of edge `e` in the one-column value array. -/
def valIdx (e : Fin 131072) : S131072x1.Idx := fun a =>
  match a with
  | ⟨0, _⟩ => e
  | ⟨1, _⟩ => (0 : Fin 1)

/-- The index of edge `e` in the index table. -/
def tblIdx (e : Fin 131072) : S131072.Idx := fun a =>
  match a with
  | ⟨0, _⟩ => e

/-- The row number an index word names, reduced into the embedding array's rows. -/
def rowOf (w : BitVec 32) : Fin 100000 := ⟨w.toNat % 100000, Nat.mod_lt _ (by decide)⟩

/-- The gathered and scaled rows: entry `(e, d)` is `x[tbl[e], d] * v[e, 0]`. -/
def gatherArr (x : (⟨S100000x128, .f32⟩ : BufTy).Contents (Elt F)) (tbl : (⟨S131072, .i32⟩ : BufTy).Contents (Elt F))
    (v : (⟨S131072x1, .f32⟩ : BufTy).Contents (Elt F)) : (⟨S131072x128, .f32⟩ : BufTy).Contents (Elt F) :=
  fun y => FloatOps.mulf (F := F) (φ := .f32) (x (embIdx (rowOf (tbl (tblIdx (y 0)))) (y 1))) (v (valIdx (y 0)))

/-- Row `r` of a one-column block of eight values. -/
def colIdx (r : Fin 8) : S8x1.Idx := fun a =>
  match a with
  | ⟨0, _⟩ => r
  | ⟨1, _⟩ => (0 : Fin 1)

/-- One grid point's block of the result, from the point's eight index words `w` and eight values `vb`: row `r`,
    lane `d` is `x[w r, d] * vb[r, 0]`. -/
def gatherBlk (x : (⟨S100000x128, .f32⟩ : BufTy).Contents (Elt F)) (w : Fin 8 → BitVec 32) (vb : Vec F S8x1 .f32) :
    Vec F S8x128 .f32 :=
  fun y => FloatOps.mulf (F := F) (φ := .f32) (x (embIdx (rowOf (w (y 0))) (y 1))) (vb (colIdx (y 0)))

/-! ## Shared by every gather region's modules -/

/-- A valuation read at the TensorCore's references. -/
abbrev Vr (Vin : Dev nD → Valuation τ sig (Elt F)) (c : Dev nD) (b : Ref sig .tc) : Buf (Elt F) ((c : Thread nD τ).loc b) := Vin c b

/-- A memref's buffer held whole at share `q`. -/
abbrev ptq (c : Dev nD) {sp : Space} {S : Shape} {e : EltTy} (M : Memref sig .tc sp S e) (q : PosShare TreeShare) (f : Bf (F := F) c M) :
    sProp (MM F) :=
  M.view.loc (c : Thread nD τ) ↦{q} f

/-- The zero offsets of a rank-two rectangle, however spelt. -/
theorem offZero2 : (![0, 0] : Fin 2 → ℕ) = fun _ => 0 := by funext a; fin_cases a <;> rfl

/-- A word below the embedding array's extent names a row of it: the in-range fact of a one-row slice there. -/
theorem chkRow (v : BitVec 32) (hv : v.toNat < 100000) :
    ∀ a, (![v.toNat, 0] : Fin 2 → ℕ) a + S1x128.size a ≤ S100000x128.size a := by
  intro a; fin_cases a
  · show v.toNat + 1 ≤ 100000; omega
  · show 0 + 128 ≤ 128; omega

/-- Row `j` of an eight-row block, as the block indexes it: a one-row rectangle's element `z` sits at row `j`, lane `z 1`. -/
theorem embRow (j : Fin 8) (off : Fin 2 → ℕ) (hoff : off = ![j.val, 0]) (inb : ∀ a, off a + S1x128.size a ≤ S8x128.size a)
    (z : S1x128.Idx) {α : Type} (g : Fin 8 → Fin 128 → α) :
    g ((Rect.unit (s := S8x128) off S1x128.size inb).emb z 0) ((Rect.unit (s := S8x128) off S1x128.size inb).emb z 1) = g j (z 1) := by
  subst hoff
  have hz : (z 0).val = 0 := by have := (z 0).isLt; simp at this; omega
  have e0 : (Rect.unit (s := S8x128) ![j.val, 0] S1x128.size inb).emb z 0 = j := Fin.ext (by show j.val + 1 * (z 0).val = j.val; rw [hz]; omega)
  have e1 : (Rect.unit (s := S8x128) ![j.val, 0] S1x128.size inb).emb z 1 = z 1 := Fin.ext (by show 0 + 1 * (z 1).val = (z 1).val; omega)
  rw [e0, e1]

set_option maxHeartbeats 400000 in
/-- Eight one-row pieces, row `j`'s payload being `g j` along the lanes, make the block `g`. -/
theorem canonRows8 (h0 : ∀ a, (![0, 0] : Fin 2 → ℕ) a + S1x128.size a ≤ S8x128.size a) (h1 : ∀ a, (![1, 0] : Fin 2 → ℕ) a + S1x128.size a ≤ S8x128.size a)
    (h2 : ∀ a, (![2, 0] : Fin 2 → ℕ) a + S1x128.size a ≤ S8x128.size a) (h3 : ∀ a, (![3, 0] : Fin 2 → ℕ) a + S1x128.size a ≤ S8x128.size a)
    (h4 : ∀ a, (![4, 0] : Fin 2 → ℕ) a + S1x128.size a ≤ S8x128.size a) (h5 : ∀ a, (![5, 0] : Fin 2 → ℕ) a + S1x128.size a ≤ S8x128.size a)
    (h6 : ∀ a, (![6, 0] : Fin 2 → ℕ) a + S1x128.size a ≤ S8x128.size a) (h7 : ∀ a, (![7, 0] : Fin 2 → ℕ) a + S1x128.size a ≤ S8x128.size a)
    (P0 P1 P2 P3 P4 P5 P6 P7 : S1x128.Idx → Elt F .f32) (g : Fin 8 → Fin 128 → Elt F .f32)
    (e0 : ∀ z, P0 z = g 0 (z 1)) (e1 : ∀ z, P1 z = g 1 (z 1)) (e2 : ∀ z, P2 z = g 2 (z 1)) (e3 : ∀ z, P3 z = g 3 (z 1))
    (e4 : ∀ z, P4 z = g 4 (z 1)) (e5 : ∀ z, P5 z = g 5 (z 1)) (e6 : ∀ z, P6 z = g 6 (z 1)) (e7 : ∀ z, P7 z = g 7 (z 1)) (y : S8x128.Idx) :
    View.canon (Val := Elt F) (s := S8x128) (e := .f32)
      [⟨Rect.unit ![7, 0] S1x128.size h7, P7⟩, ⟨Rect.unit ![6, 0] S1x128.size h6, P6⟩, ⟨Rect.unit ![5, 0] S1x128.size h5, P5⟩,
        ⟨Rect.unit ![4, 0] S1x128.size h4, P4⟩, ⟨Rect.unit ![3, 0] S1x128.size h3, P3⟩, ⟨Rect.unit ![2, 0] S1x128.size h2, P2⟩,
        ⟨Rect.unit ![1, 0] S1x128.size h1, P1⟩, ⟨Rect.unit ![0, 0] S1x128.size h0, P0⟩] y = g (y 0) (y 1) := by
  refine View.canon_apply_of_pieces (fun y => g (y 0) (y 1)) _ ?_ y ?_
  · intro p hp z
    simp only [List.mem_cons, List.not_mem_nil, or_false] at hp
    rcases hp with rfl | rfl | rfl | rfl | rfl | rfl | rfl | rfl
    · exact (e7 z).trans (embRow 7 _ rfl h7 z g).symm
    · exact (e6 z).trans (embRow 6 _ rfl h6 z g).symm
    · exact (e5 z).trans (embRow 5 _ rfl h5 z g).symm
    · exact (e4 z).trans (embRow 4 _ rfl h4 z g).symm
    · exact (e3 z).trans (embRow 3 _ rfl h3 z g).symm
    · exact (e2 z).trans (embRow 2 _ rfl h2 z g).symm
    · exact (e1 z).trans (embRow 1 _ rfl h1 z g).symm
    · exact (e0 z).trans (embRow 0 _ rfl h0 z g).symm
  · exact View.cover_of_tiled (s := S8x128) _ S1x128.size (by rfl) y

/-- A buffer held at `q` is eight read shares — numbered `b … b + 7`, one per cell the kernel's transfers complete on —
    beside the remainder (the shares below `b` kept folded). -/
theorem toks8 {ℓ : Loc nD τ sig} {S : Finset (Idx ℓ)} {f : Buf (Elt F) ℓ} (q : PosShare TreeShare) (b : ℕ) :
    (ℓ ↦[S]{q} f : sProp (MM F)) ⊣⊢
      iprop(((ℓ ↦[S]{Transfers.shareDrop q (b + 8)} f) ∗ BI.bigSep (Finset.range b) (fun i => (ℓ ↦[S]{Transfers.shareTokN q i} f : sProp (MM F))))
        ∗ (ℓ ↦[S]{Transfers.shareTokN q b} f) ∗ (ℓ ↦[S]{Transfers.shareTokN q (b + 1)} f) ∗ (ℓ ↦[S]{Transfers.shareTokN q (b + 2)} f)
        ∗ (ℓ ↦[S]{Transfers.shareTokN q (b + 3)} f) ∗ (ℓ ↦[S]{Transfers.shareTokN q (b + 4)} f) ∗ (ℓ ↦[S]{Transfers.shareTokN q (b + 5)} f)
        ∗ (ℓ ↦[S]{Transfers.shareTokN q (b + 6)} f) ∗ (ℓ ↦[S]{Transfers.shareTokN q (b + 7)} f)) := by
  have h := Transfers.pointsTo_toks_range (Ix := Unit) (Name := ℕ) (U := UU nD τ) (Lvl := ℕ) (Val := Elt F) (ℓ := ℓ) (S := S) (f := f) q (b + 8)
  have hb : BI.bigSep (Finset.range (b + 8)) (fun i => (ℓ ↦[S]{Transfers.shareTokN q i} f : sProp (MM F)))
      = iprop((ℓ ↦[S]{Transfers.shareTokN q (b + 7)} f) ∗ (ℓ ↦[S]{Transfers.shareTokN q (b + 6)} f) ∗ (ℓ ↦[S]{Transfers.shareTokN q (b + 5)} f)
          ∗ (ℓ ↦[S]{Transfers.shareTokN q (b + 4)} f) ∗ (ℓ ↦[S]{Transfers.shareTokN q (b + 3)} f) ∗ (ℓ ↦[S]{Transfers.shareTokN q (b + 2)} f)
          ∗ (ℓ ↦[S]{Transfers.shareTokN q (b + 1)} f) ∗ (ℓ ↦[S]{Transfers.shareTokN q b} f)
          ∗ BI.bigSep (Finset.range b) (fun i => (ℓ ↦[S]{Transfers.shareTokN q i} f : sProp (MM F)))) := by
    rw [show b + 8 = (b + 7) + 1 from rfl, Finset.range_add_one, BI.bigSep_insert Finset.notMem_range_self,
      show b + 7 = (b + 6) + 1 from rfl, Finset.range_add_one, BI.bigSep_insert Finset.notMem_range_self,
      show b + 6 = (b + 5) + 1 from rfl, Finset.range_add_one, BI.bigSep_insert Finset.notMem_range_self,
      show b + 5 = (b + 4) + 1 from rfl, Finset.range_add_one, BI.bigSep_insert Finset.notMem_range_self,
      show b + 4 = (b + 3) + 1 from rfl, Finset.range_add_one, BI.bigSep_insert Finset.notMem_range_self,
      show b + 3 = (b + 2) + 1 from rfl, Finset.range_add_one, BI.bigSep_insert Finset.notMem_range_self,
      show b + 2 = (b + 1) + 1 from rfl, Finset.range_add_one, BI.bigSep_insert Finset.notMem_range_self,
      Finset.range_add_one, BI.bigSep_insert Finset.notMem_range_self]
    rfl
  rw [hb] at h
  constructor
  · refine h.1.trans ?_
    iintro ⟨Hd, H7, H6, H5, H4, H3, H2, H1, H0, Hr⟩
    isplitl [Hd Hr]; · isplitl [Hd] <;> iassumption
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · refine (?_ : _ ⊢ _).trans h.2
    iintro ⟨⟨Hd, Hr⟩, H0, H1, H2, H3, H4, H5, H6, H7⟩
    isplitl [Hd]; · iexact Hd
    isplitl [H7]; · iexact H7
    isplitl [H6]; · iexact H6
    isplitl [H5]; · iexact H5
    isplitl [H4]; · iexact H4
    isplitl [H3]; · iexact H3
    isplitl [H2]; · iexact H2
    isplitl [H1]; · iexact H1
    isplitl [H0]; · iexact H0
    iexact Hr

end Cert.Kernel.Hand

end
-- ==== Proof.K.ActSpec.lean ====
/-
  The activation-and-sum as functions of arrays: of one `[4, 2000, 128]` block, and of the whole `[4, 100000, 128]`
  array slab by slab. Every element `y` becomes `y` where `y > 0` and `0.01 * y` elsewhere (the constant is the
  single-precision word nearest one hundredth), and the four slabs of the leading axis are added.
-/
import proofs.«414509_j14181982011419_2_alg».proof.Proof.K.Common
import Idealize.ShloMosaic.Lib.ValueIdx

noncomputable section

namespace Cert.Kernel.Hand

open Cert.Kernel Cert.Kernel.Gen
open Idealize.ShloMosaic

variable {F : FTy → Type} [FloatOps F]

/-- The activation-and-sum of one block: compare with zero, scale by the constant, select, add over the leading
    axis. -/
def actBlock (v0 : Vec F S4x2000x128 .f32) : FVec F S2000x128 .f32 :=
  have v1 : FVec F S4x2000x128 .f32 := shapeCast S4x2000x128 v0 shapeCasts_S4x2000x128_S4x2000x128
  have cst : F .f32 := Scalar.ofBits .f32 0x00000000#32
  have v2 : FVec F S4x2000x128 .f32 := broadcast S4x2000x128 cst
  have v3 : IVec S4x2000x128 1 := cmpf .ogt v1 v2
  have cst_2 : F .f32 := Scalar.ofBits .f32 0x3C23D70A#32
  have v4 : FVec F S4x2000x128 .f32 := broadcast S4x2000x128 cst_2
  have v5 : FVec F S4x2000x128 .f32 := mulf v4 v1
  have v6 : FVec F S4x2000x128 .f32 := select v3 v1 v5
  have v7 : FVec F S2000x128 .f32 := multiReduction .add [0] S2000x128 v6 0x00000000#32 reduces_S4x2000x128_S2000x128 (.inl rfl) rfl
  v7

/-- The whole output array as ONE function of the whole input array: at row `n`, column `d`, the activation-and-sum
    of the 2000-row slab that holds row `n`, read at the row's place in the slab. -/
def actArr (x : (⟨S4x100000x128, .f32⟩ : BufTy).Contents (Elt F)) : (⟨S100000x128, .f32⟩ : BufTy).Contents (Elt F) := fun i =>
  actBlock (fun j => x (ValueIdx.ix3 (j 0)
      ⟨(i 0).val / 2000 * 2000 + (j 1).val, by
        have h0 : (i 0).val < 100000 := (i 0).isLt
        have h1 : (j 1).val < 2000 := (j 1).isLt
        omega⟩ (j 2)))
    (ValueIdx.ix2 ⟨(i 0).val % 2000, Nat.mod_lt _ (by decide)⟩ (i 1))

end Cert.Kernel.Hand

end
-- ==== Proof.K.Tables.lean ====
/-
  The prefetched index tables of the gather regions, as pure terms of the launch memory's edge-source array, and
  the range of their words.

  Every gather region reads one table of 131072 words: for relation r (0..3) and chunk c (0..3) it is words
  [131072 c, 131072 (c + 1)) of row r of the [4, 500000] edge-source array, that row extended by 24288 zeros to
  524288 words. The second layer's sixteen regions read the same sixteen tables, computed again into other buffers.
  A table word is therefore either an edge-source word or zero; when every edge-source word w satisfies
  0 ≤ w < 100000 read signed, every table word is below 100000 read unsigned, which is what a gather region's
  body needs of the word it turns into a row offset of the [100000, 128] embedding array.
-/
import proofs.«414509_j14181982011419_2_alg».proof.Proof.Gen.Kernel.Launch
import proofs.«414509_j14181982011419_2_alg».proof.Pre_finite_inputs
import Idealize.ShloMosaic.Lib.ReduceAll
import Idealize.ShloMosaic.Lib.ValueIdx

noncomputable section

namespace Cert.Kernel.Hand

open Cert.Kernel Cert.Kernel.Gen
open Idealize.ShloMosaic
open Idealize.ShloMosaic.TcCoe
open Idealize.SL.Sem

variable {F : FTy → Type} [FloatOps F]

/-! ## The tables as pure terms -/

/-- The edge-source array the launch memory holds (on device 0, the program's one device). -/
abbrev src (m : (ℓ : Loc nD τ sig) → Buf (Elt F) ℓ) : (⟨S4x500000, .i32⟩ : BufTy).Contents (Elt F) :=
  m (((0 : Dev nD).tc : Thread nD τ).loc main_arg1)

/-- A table as the host operations compute it from the edge-source array `x`: the row at offsets `o₁` as a vector of
    500000 words, padded by 24288 zeros at its end, and of that the 131072 words at offset `o₂`. -/
def tblOf (x : (⟨S4x500000, .i32⟩ : BufTy).Contents (Elt F)) (o₁ : Fin 2 → Nat) (h₁ : S4x500000.Slices o₁ S1x500000)
    (o₂ : Fin 1 → Nat) (h₂ : S524288.Slices o₂ S131072) : (⟨S131072, .i32⟩ : BufTy).Contents (Elt F) :=
  extractStridedSlice S131072 o₂
    (pad S524288 ![0] ![24288] ![0]
      (shapeCast S500000 (extractStridedSlice S1x500000 o₁ x h₁) shapeCasts_S1x500000_S500000)
      (constantI S_ 32 0#32) pads_S500000_S524288_0242880 h_S_) h₂

/-- Row r of the edge-source array starts at [r, 0]; chunk c of a padded row at [131072 c]. -/
abbrev rowOff (r : Fin 4) : Fin 2 → Nat := ![r.val, 0]
abbrev chunkOff (c : Fin 4) : Fin 1 → Nat := ![131072 * c.val]
theorem rowOff_slices : ∀ r : Fin 4, S4x500000.Slices (rowOff r) S1x500000 := by decide
theorem chunkOff_slices : ∀ c : Fin 4, S524288.Slices (chunkOff c) S131072 := by decide

/-- The table of relation r, chunk c. -/
def tbl (m : (ℓ : Loc nD τ sig) → Buf (Elt F) ℓ) (r c : Fin 4) : (⟨S131072, .i32⟩ : BufTy).Contents (Elt F) :=
  tblOf (src m) (rowOff r) (rowOff_slices r) (chunkOff c) (chunkOff_slices c)

/-! ## The range of a table's words -/

/-- A table word is an edge-source word or zero: a bound on every edge-source word bounds every table word. -/
theorem tblOf_range (x : (⟨S4x500000, .i32⟩ : BufTy).Contents (Elt F)) (hx : ∀ i, (x i).toNat < 100000)
    (o₁ : Fin 2 → Nat) (h₁ : S4x500000.Slices o₁ S1x500000) (o₂ : Fin 1 → Nat) (h₂ : S524288.Slices o₂ S131072)
    (e : S131072.Idx) : (tblOf x o₁ h₁ o₂ h₂ e).toNat < 100000 := by
  unfold tblOf extractStridedSlice pad shapeCast
  dsimp only
  split
  · exact hx _
  · show (0#32 : BitVec 32).toNat < 100000
    decide

instance : Subsingleton Cert.Pre_finite_inputs.S_.Idx := ⟨fun a b => funext fun d => d.elim0⟩

/-- A word in [0, n) read signed is below n read unsigned. -/
theorem toNat_lt_of_signed (w : BitVec 32) (h0 : (0#32 : BitVec 32).toInt ≤ w.toInt) (h1 : w.toInt < (100000#32 : BitVec 32).toInt) :
    w.toNat < 100000 := by
  have e0 : (0#32 : BitVec 32).toInt = 0 := by decide
  have e1 : (100000#32 : BitVec 32).toInt = 100000 := by decide
  rw [e0] at h0; rw [e1] at h1
  have h32 := w.isLt
  unfold BitVec.toInt at h0 h1
  split at h0 <;> omega

/-- The precondition read back: every edge-source word is in [0, 100000). -/
theorem src_range [Cert.Pre_finite_inputs.Facts] (a0 : FVec F Cert.Pre_finite_inputs.S100000x128 .f32) (a1 : IVec Cert.Pre_finite_inputs.S4x500000 32)
    (a2 : IVec Cert.Pre_finite_inputs.S4x500000 32) (a3 : FVec F Cert.Pre_finite_inputs.S4x500000 .f32)
    (h : Cert.Pre_finite_inputs.fn (F := F) a0 a1 a2 a3 = fun _ => 1#1) (i : Cert.Pre_finite_inputs.S4x500000.Idx) :
    (a1 i).toNat < 100000 := by
  have e := congrFun h ValueIdx.ix0
  dsimp only [Cert.Pre_finite_inputs.fn] at e
  have e14 := (IntOp.andi_eq_one.1 e).2
  have e13 := Host.reduce_andi_all _ _ _ _ _ e14 i
  obtain ⟨hge, hlt⟩ := IntOp.andi_eq_one.1 e13
  exact toNat_lt_of_signed _ (IntOp.cmpi_sge.1 hge) (IntOp.cmpi_slt.1 hlt)

/-- The precondition at any instance: the printed predicate of the four argument arrays is all ones on every device
    (what the certificate's precondition of this program unfolds to). -/
abbrev PreAt [Cert.Pre_finite_inputs.Facts] (m : (ℓ : Loc nD τ sig) → Buf (Elt F) ℓ) : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1

/-- Under the precondition every word of every table is below 100000. -/
theorem tbl_range [Cert.Pre_finite_inputs.Facts] (m : (ℓ : Loc nD τ sig) → Buf (Elt F) ℓ) (hpre : PreAt m) (r c : Fin 4)
    (e : S131072.Idx) : (tbl m r c e).toNat < 100000 :=
  tblOf_range (src m) (fun i => src_range _ _ _ _ (hpre 0) i) _ _ _ _ e

/-! ## The tables as the pipelines' admissible contents

Region K of the first layer (K = 4 r + c) and region 17 + 4 r + c of the second read the table of relation r, chunk c;
the gather regions' side condition on the contents is trivial (no index map reads a table). Regions 16 and 33 have no
table. -/

variable (m : (ℓ : Loc nD τ sig) → Buf (Elt F) ℓ)

def adm0 : (pcfg0 (F := F)).Adm := ⟨fun | 0 => tbl m 0 0 | ⟨_ + 1, h⟩ => absurd h (Nat.not_lt.2 (Nat.le_add_left _ _)), trivial⟩
def adm1 : (pcfg1 (F := F)).Adm := ⟨fun | 0 => tbl m 0 1 | ⟨_ + 1, h⟩ => absurd h (Nat.not_lt.2 (Nat.le_add_left _ _)), trivial⟩
def adm2 : (pcfg2 (F := F)).Adm := ⟨fun | 0 => tbl m 0 2 | ⟨_ + 1, h⟩ => absurd h (Nat.not_lt.2 (Nat.le_add_left _ _)), trivial⟩
def adm3 : (pcfg3 (F := F)).Adm := ⟨fun | 0 => tbl m 0 3 | ⟨_ + 1, h⟩ => absurd h (Nat.not_lt.2 (Nat.le_add_left _ _)), trivial⟩
def adm4 : (pcfg4 (F := F)).Adm := ⟨fun | 0 => tbl m 1 0 | ⟨_ + 1, h⟩ => absurd h (Nat.not_lt.2 (Nat.le_add_left _ _)), trivial⟩
def adm5 : (pcfg5 (F := F)).Adm := ⟨fun | 0 => tbl m 1 1 | ⟨_ + 1, h⟩ => absurd h (Nat.not_lt.2 (Nat.le_add_left _ _)), trivial⟩
def adm6 : (pcfg6 (F := F)).Adm := ⟨fun | 0 => tbl m 1 2 | ⟨_ + 1, h⟩ => absurd h (Nat.not_lt.2 (Nat.le_add_left _ _)), trivial⟩
def adm7 : (pcfg7 (F := F)).Adm := ⟨fun | 0 => tbl m 1 3 | ⟨_ + 1, h⟩ => absurd h (Nat.not_lt.2 (Nat.le_add_left _ _)), trivial⟩
def adm8 : (pcfg8 (F := F)).Adm := ⟨fun | 0 => tbl m 2 0 | ⟨_ + 1, h⟩ => absurd h (Nat.not_lt.2 (Nat.le_add_left _ _)), trivial⟩
def adm9 : (pcfg9 (F := F)).Adm := ⟨fun | 0 => tbl m 2 1 | ⟨_ + 1, h⟩ => absurd h (Nat.not_lt.2 (Nat.le_add_left _ _)), trivial⟩
def adm10 : (pcfg10 (F := F)).Adm := ⟨fun | 0 => tbl m 2 2 | ⟨_ + 1, h⟩ => absurd h (Nat.not_lt.2 (Nat.le_add_left _ _)), trivial⟩
def adm11 : (pcfg11 (F := F)).Adm := ⟨fun | 0 => tbl m 2 3 | ⟨_ + 1, h⟩ => absurd h (Nat.not_lt.2 (Nat.le_add_left _ _)), trivial⟩
def adm12 : (pcfg12 (F := F)).Adm := ⟨fun | 0 => tbl m 3 0 | ⟨_ + 1, h⟩ => absurd h (Nat.not_lt.2 (Nat.le_add_left _ _)), trivial⟩
def adm13 : (pcfg13 (F := F)).Adm := ⟨fun | 0 => tbl m 3 1 | ⟨_ + 1, h⟩ => absurd h (Nat.not_lt.2 (Nat.le_add_left _ _)), trivial⟩
def adm14 : (pcfg14 (F := F)).Adm := ⟨fun | 0 => tbl m 3 2 | ⟨_ + 1, h⟩ => absurd h (Nat.not_lt.2 (Nat.le_add_left _ _)), trivial⟩
def adm15 : (pcfg15 (F := F)).Adm := ⟨fun | 0 => tbl m 3 3 | ⟨_ + 1, h⟩ => absurd h (Nat.not_lt.2 (Nat.le_add_left _ _)), trivial⟩
def adm17 : (pcfg17 (F := F)).Adm := ⟨fun | 0 => tbl m 0 0 | ⟨_ + 1, h⟩ => absurd h (Nat.not_lt.2 (Nat.le_add_left _ _)), trivial⟩
def adm18 : (pcfg18 (F := F)).Adm := ⟨fun | 0 => tbl m 0 1 | ⟨_ + 1, h⟩ => absurd h (Nat.not_lt.2 (Nat.le_add_left _ _)), trivial⟩
def adm19 : (pcfg19 (F := F)).Adm := ⟨fun | 0 => tbl m 0 2 | ⟨_ + 1, h⟩ => absurd h (Nat.not_lt.2 (Nat.le_add_left _ _)), trivial⟩
def adm20 : (pcfg20 (F := F)).Adm := ⟨fun | 0 => tbl m 0 3 | ⟨_ + 1, h⟩ => absurd h (Nat.not_lt.2 (Nat.le_add_left _ _)), trivial⟩
def adm21 : (pcfg21 (F := F)).Adm := ⟨fun | 0 => tbl m 1 0 | ⟨_ + 1, h⟩ => absurd h (Nat.not_lt.2 (Nat.le_add_left _ _)), trivial⟩
def adm22 : (pcfg22 (F := F)).Adm := ⟨fun | 0 => tbl m 1 1 | ⟨_ + 1, h⟩ => absurd h (Nat.not_lt.2 (Nat.le_add_left _ _)), trivial⟩
def adm23 : (pcfg23 (F := F)).Adm := ⟨fun | 0 => tbl m 1 2 | ⟨_ + 1, h⟩ => absurd h (Nat.not_lt.2 (Nat.le_add_left _ _)), trivial⟩
def adm24 : (pcfg24 (F := F)).Adm := ⟨fun | 0 => tbl m 1 3 | ⟨_ + 1, h⟩ => absurd h (Nat.not_lt.2 (Nat.le_add_left _ _)), trivial⟩
def adm25 : (pcfg25 (F := F)).Adm := ⟨fun | 0 => tbl m 2 0 | ⟨_ + 1, h⟩ => absurd h (Nat.not_lt.2 (Nat.le_add_left _ _)), trivial⟩
def adm26 : (pcfg26 (F := F)).Adm := ⟨fun | 0 => tbl m 2 1 | ⟨_ + 1, h⟩ => absurd h (Nat.not_lt.2 (Nat.le_add_left _ _)), trivial⟩
def adm27 : (pcfg27 (F := F)).Adm := ⟨fun | 0 => tbl m 2 2 | ⟨_ + 1, h⟩ => absurd h (Nat.not_lt.2 (Nat.le_add_left _ _)), trivial⟩
def adm28 : (pcfg28 (F := F)).Adm := ⟨fun | 0 => tbl m 2 3 | ⟨_ + 1, h⟩ => absurd h (Nat.not_lt.2 (Nat.le_add_left _ _)), trivial⟩
def adm29 : (pcfg29 (F := F)).Adm := ⟨fun | 0 => tbl m 3 0 | ⟨_ + 1, h⟩ => absurd h (Nat.not_lt.2 (Nat.le_add_left _ _)), trivial⟩
def adm30 : (pcfg30 (F := F)).Adm := ⟨fun | 0 => tbl m 3 1 | ⟨_ + 1, h⟩ => absurd h (Nat.not_lt.2 (Nat.le_add_left _ _)), trivial⟩
def adm31 : (pcfg31 (F := F)).Adm := ⟨fun | 0 => tbl m 3 2 | ⟨_ + 1, h⟩ => absurd h (Nat.not_lt.2 (Nat.le_add_left _ _)), trivial⟩
def adm32 : (pcfg32 (F := F)).Adm := ⟨fun | 0 => tbl m 3 3 | ⟨_ + 1, h⟩ => absurd h (Nat.not_lt.2 (Nat.le_add_left _ _)), trivial⟩

/-- Every pipeline's admissible contents, by pipeline index. -/
def adm : (p : Fin 34) → (pcfgs (F := F) p).Adm
  | ⟨0, _⟩ => adm0 m | ⟨1, _⟩ => adm1 m | ⟨2, _⟩ => adm2 m | ⟨3, _⟩ => adm3 m
  | ⟨4, _⟩ => adm4 m | ⟨5, _⟩ => adm5 m | ⟨6, _⟩ => adm6 m | ⟨7, _⟩ => adm7 m
  | ⟨8, _⟩ => adm8 m | ⟨9, _⟩ => adm9 m | ⟨10, _⟩ => adm10 m | ⟨11, _⟩ => adm11 m
  | ⟨12, _⟩ => adm12 m | ⟨13, _⟩ => adm13 m | ⟨14, _⟩ => adm14 m | ⟨15, _⟩ => adm15 m
  | ⟨16, _⟩ => cfg16.toPCfg_adm
  | ⟨17, _⟩ => adm17 m | ⟨18, _⟩ => adm18 m | ⟨19, _⟩ => adm19 m | ⟨20, _⟩ => adm20 m
  | ⟨21, _⟩ => adm21 m | ⟨22, _⟩ => adm22 m | ⟨23, _⟩ => adm23 m | ⟨24, _⟩ => adm24 m
  | ⟨25, _⟩ => adm25 m | ⟨26, _⟩ => adm26 m | ⟨27, _⟩ => adm27 m | ⟨28, _⟩ => adm28 m
  | ⟨29, _⟩ => adm29 m | ⟨30, _⟩ => adm30 m | ⟨31, _⟩ => adm31 m | ⟨32, _⟩ => adm32 m
  | ⟨33, _⟩ => cfg33.toPCfg_adm
  | ⟨_ + 34, h⟩ => absurd h (Nat.not_lt.2 (Nat.le_add_left _ _))

/-! ## Per region: the family at a literal index, and the range of the region's table -/

theorem adm_0 : adm m 0 = adm0 m := rfl
theorem adm_1 : adm m 1 = adm1 m := rfl
theorem adm_2 : adm m 2 = adm2 m := rfl
theorem adm_3 : adm m 3 = adm3 m := rfl
theorem adm_4 : adm m 4 = adm4 m := rfl
theorem adm_5 : adm m 5 = adm5 m := rfl
theorem adm_6 : adm m 6 = adm6 m := rfl
theorem adm_7 : adm m 7 = adm7 m := rfl
theorem adm_8 : adm m 8 = adm8 m := rfl
theorem adm_9 : adm m 9 = adm9 m := rfl
theorem adm_10 : adm m 10 = adm10 m := rfl
theorem adm_11 : adm m 11 = adm11 m := rfl
theorem adm_12 : adm m 12 = adm12 m := rfl
theorem adm_13 : adm m 13 = adm13 m := rfl
theorem adm_14 : adm m 14 = adm14 m := rfl
theorem adm_15 : adm m 15 = adm15 m := rfl
theorem adm_16 : adm m 16 = cfg16.toPCfg_adm := rfl
theorem adm_17 : adm m 17 = adm17 m := rfl
theorem adm_18 : adm m 18 = adm18 m := rfl
theorem adm_19 : adm m 19 = adm19 m := rfl
theorem adm_20 : adm m 20 = adm20 m := rfl
theorem adm_21 : adm m 21 = adm21 m := rfl
theorem adm_22 : adm m 22 = adm22 m := rfl
theorem adm_23 : adm m 23 = adm23 m := rfl
theorem adm_24 : adm m 24 = adm24 m := rfl
theorem adm_25 : adm m 25 = adm25 m := rfl
theorem adm_26 : adm m 26 = adm26 m := rfl
theorem adm_27 : adm m 27 = adm27 m := rfl
theorem adm_28 : adm m 28 = adm28 m := rfl
theorem adm_29 : adm m 29 = adm29 m := rfl
theorem adm_30 : adm m 30 = adm30 m := rfl
theorem adm_31 : adm m 31 = adm31 m := rfl
theorem adm_32 : adm m 32 = adm32 m := rfl
theorem adm_33 : adm m 33 = cfg33.toPCfg_adm := rfl

section Range
variable [Cert.Pre_finite_inputs.Facts] (hpre : PreAt m) (e : S131072.Idx)
include hpre
theorem adm0_range : ((adm0 m).1 0 e).toNat < 100000 := tbl_range m hpre 0 0 e
theorem adm1_range : ((adm1 m).1 0 e).toNat < 100000 := tbl_range m hpre 0 1 e
theorem adm2_range : ((adm2 m).1 0 e).toNat < 100000 := tbl_range m hpre 0 2 e
theorem adm3_range : ((adm3 m).1 0 e).toNat < 100000 := tbl_range m hpre 0 3 e
theorem adm4_range : ((adm4 m).1 0 e).toNat < 100000 := tbl_range m hpre 1 0 e
theorem adm5_range : ((adm5 m).1 0 e).toNat < 100000 := tbl_range m hpre 1 1 e
theorem adm6_range : ((adm6 m).1 0 e).toNat < 100000 := tbl_range m hpre 1 2 e
theorem adm7_range : ((adm7 m).1 0 e).toNat < 100000 := tbl_range m hpre 1 3 e
theorem adm8_range : ((adm8 m).1 0 e).toNat < 100000 := tbl_range m hpre 2 0 e
theorem adm9_range : ((adm9 m).1 0 e).toNat < 100000 := tbl_range m hpre 2 1 e
theorem adm10_range : ((adm10 m).1 0 e).toNat < 100000 := tbl_range m hpre 2 2 e
theorem adm11_range : ((adm11 m).1 0 e).toNat < 100000 := tbl_range m hpre 2 3 e
theorem adm12_range : ((adm12 m).1 0 e).toNat < 100000 := tbl_range m hpre 3 0 e
theorem adm13_range : ((adm13 m).1 0 e).toNat < 100000 := tbl_range m hpre 3 1 e
theorem adm14_range : ((adm14 m).1 0 e).toNat < 100000 := tbl_range m hpre 3 2 e
theorem adm15_range : ((adm15 m).1 0 e).toNat < 100000 := tbl_range m hpre 3 3 e
theorem adm17_range : ((adm17 m).1 0 e).toNat < 100000 := tbl_range m hpre 0 0 e
theorem adm18_range : ((adm18 m).1 0 e).toNat < 100000 := tbl_range m hpre 0 1 e
theorem adm19_range : ((adm19 m).1 0 e).toNat < 100000 := tbl_range m hpre 0 2 e
theorem adm20_range : ((adm20 m).1 0 e).toNat < 100000 := tbl_range m hpre 0 3 e
theorem adm21_range : ((adm21 m).1 0 e).toNat < 100000 := tbl_range m hpre 1 0 e
theorem adm22_range : ((adm22 m).1 0 e).toNat < 100000 := tbl_range m hpre 1 1 e
theorem adm23_range : ((adm23 m).1 0 e).toNat < 100000 := tbl_range m hpre 1 2 e
theorem adm24_range : ((adm24 m).1 0 e).toNat < 100000 := tbl_range m hpre 1 3 e
theorem adm25_range : ((adm25 m).1 0 e).toNat < 100000 := tbl_range m hpre 2 0 e
theorem adm26_range : ((adm26 m).1 0 e).toNat < 100000 := tbl_range m hpre 2 1 e
theorem adm27_range : ((adm27 m).1 0 e).toNat < 100000 := tbl_range m hpre 2 2 e
theorem adm28_range : ((adm28 m).1 0 e).toNat < 100000 := tbl_range m hpre 2 3 e
theorem adm29_range : ((adm29 m).1 0 e).toNat < 100000 := tbl_range m hpre 3 0 e
theorem adm30_range : ((adm30 m).1 0 e).toNat < 100000 := tbl_range m hpre 3 1 e
theorem adm31_range : ((adm31 m).1 0 e).toNat < 100000 := tbl_range m hpre 3 2 e
theorem adm32_range : ((adm32 m).1 0 e).toNat < 100000 := tbl_range m hpre 3 3 e
end Range

end Cert.Kernel.Hand

end
-- ==== Proof.K.Chain.lean ====
import proofs.«414509_j14181982011419_2_alg».proof.Proof.K.RegionsP
import proofs.«414509_j14181982011419_2_alg».proof.Proof.K.GatherSpec
import proofs.«414509_j14181982011419_2_alg».proof.Proof.K.ActSpec
import proofs.«414509_j14181982011419_2_alg».proof.Proof.K.Tables

set_option maxRecDepth 2240

noncomputable section

namespace Cert.Kernel.Hand

open Cert.Kernel Cert.Kernel.Gen Cert.Kernel.GenP
open Idealize.ShloMosaic Idealize.ShloMosaic.TcCoe
open Idealize.SL.Sem

variable {F : FTy → Type} [FloatOps F]
variable (m : (ℓ : Loc nD τ sig) → Buf (Elt F) ℓ)

/-! ## The unscoped buffers' contents after each item of @main

Item by item: the launch memory; a host stretch applied to the valuation before it; a gather region's output array set to
the rows its table names, scaled; an activation region's output array set to the sum over relations of the leaky
rectifier of its stacked input. -/

def VV0 (c : Dev nD) : Valuation τ sig (Elt F) := V0 m c
def VV1 (c : Dev nD) : Valuation τ sig (Elt F) := StableHlo.after hostOps0 (VV0 m c)
def VV2 (c : Dev nD) : Valuation τ sig (Elt F) := StableHlo.after hostOps0_1 (VV1 m c)
def VV3 (c : Dev nD) : Valuation τ sig (Elt F) := StableHlo.after hostOps0_2 (VV2 m c)
def VV4 (c : Dev nD) : Valuation τ sig (Elt F) := StableHlo.after hostOps0_3 (VV3 m c)
def VV5 (c : Dev nD) : Valuation τ sig (Elt F) := StableHlo.after hostOps0_4 (VV4 m c)
def VV6 (c : Dev nD) : Valuation τ sig (Elt F) := Function.update (VV5 m c) main_v9 (gatherArr (VV5 m c main_arg0) ((adm m 0).1 0) (VV5 m c main_v8))
def VV7 (c : Dev nD) : Valuation τ sig (Elt F) := StableHlo.after hostOps1 (VV6 m c)
def VV8 (c : Dev nD) : Valuation τ sig (Elt F) := Function.update (VV7 m c) main_v12 (gatherArr (VV7 m c main_arg0) ((adm m 1).1 0) (VV7 m c main_v11))
def VV9 (c : Dev nD) : Valuation τ sig (Elt F) := StableHlo.after hostOps2 (VV8 m c)
def VV10 (c : Dev nD) : Valuation τ sig (Elt F) := Function.update (VV9 m c) main_v15 (gatherArr (VV9 m c main_arg0) ((adm m 2).1 0) (VV9 m c main_v14))
def VV11 (c : Dev nD) : Valuation τ sig (Elt F) := StableHlo.after hostOps3 (VV10 m c)
def VV12 (c : Dev nD) : Valuation τ sig (Elt F) := Function.update (VV11 m c) main_v18 (gatherArr (VV11 m c main_arg0) ((adm m 3).1 0) (VV11 m c main_v17))
def VV13 (c : Dev nD) : Valuation τ sig (Elt F) := StableHlo.after hostOps4 (VV12 m c)
def VV14 (c : Dev nD) : Valuation τ sig (Elt F) := StableHlo.after hostOps4_1 (VV13 m c)
def VV15 (c : Dev nD) : Valuation τ sig (Elt F) := StableHlo.after hostOps4_2 (VV14 m c)
def VV16 (c : Dev nD) : Valuation τ sig (Elt F) := StableHlo.after hostOps4_3 (VV15 m c)
def VV17 (c : Dev nD) : Valuation τ sig (Elt F) := StableHlo.after hostOps4_4 (VV16 m c)
def VV18 (c : Dev nD) : Valuation τ sig (Elt F) := Function.update (VV17 m c) main_v35 (gatherArr (VV17 m c main_arg0) ((adm m 4).1 0) (VV17 m c main_v34))
def VV19 (c : Dev nD) : Valuation τ sig (Elt F) := StableHlo.after hostOps5 (VV18 m c)
def VV20 (c : Dev nD) : Valuation τ sig (Elt F) := Function.update (VV19 m c) main_v38 (gatherArr (VV19 m c main_arg0) ((adm m 5).1 0) (VV19 m c main_v37))
def VV21 (c : Dev nD) : Valuation τ sig (Elt F) := StableHlo.after hostOps6 (VV20 m c)
def VV22 (c : Dev nD) : Valuation τ sig (Elt F) := Function.update (VV21 m c) main_v41 (gatherArr (VV21 m c main_arg0) ((adm m 6).1 0) (VV21 m c main_v40))
def VV23 (c : Dev nD) : Valuation τ sig (Elt F) := StableHlo.after hostOps7 (VV22 m c)
def VV24 (c : Dev nD) : Valuation τ sig (Elt F) := Function.update (VV23 m c) main_v44 (gatherArr (VV23 m c main_arg0) ((adm m 7).1 0) (VV23 m c main_v43))
def VV25 (c : Dev nD) : Valuation τ sig (Elt F) := StableHlo.after hostOps8 (VV24 m c)
def VV26 (c : Dev nD) : Valuation τ sig (Elt F) := StableHlo.after hostOps8_1 (VV25 m c)
def VV27 (c : Dev nD) : Valuation τ sig (Elt F) := StableHlo.after hostOps8_2 (VV26 m c)
def VV28 (c : Dev nD) : Valuation τ sig (Elt F) := StableHlo.after hostOps8_3 (VV27 m c)
def VV29 (c : Dev nD) : Valuation τ sig (Elt F) := StableHlo.after hostOps8_4 (VV28 m c)
def VV30 (c : Dev nD) : Valuation τ sig (Elt F) := Function.update (VV29 m c) main_v61 (gatherArr (VV29 m c main_arg0) ((adm m 8).1 0) (VV29 m c main_v60))
def VV31 (c : Dev nD) : Valuation τ sig (Elt F) := StableHlo.after hostOps9 (VV30 m c)
def VV32 (c : Dev nD) : Valuation τ sig (Elt F) := Function.update (VV31 m c) main_v64 (gatherArr (VV31 m c main_arg0) ((adm m 9).1 0) (VV31 m c main_v63))
def VV33 (c : Dev nD) : Valuation τ sig (Elt F) := StableHlo.after hostOps10 (VV32 m c)
def VV34 (c : Dev nD) : Valuation τ sig (Elt F) := Function.update (VV33 m c) main_v67 (gatherArr (VV33 m c main_arg0) ((adm m 10).1 0) (VV33 m c main_v66))
def VV35 (c : Dev nD) : Valuation τ sig (Elt F) := StableHlo.after hostOps11 (VV34 m c)
def VV36 (c : Dev nD) : Valuation τ sig (Elt F) := Function.update (VV35 m c) main_v70 (gatherArr (VV35 m c main_arg0) ((adm m 11).1 0) (VV35 m c main_v69))
def VV37 (c : Dev nD) : Valuation τ sig (Elt F) := StableHlo.after hostOps12 (VV36 m c)
def VV38 (c : Dev nD) : Valuation τ sig (Elt F) := StableHlo.after hostOps12_1 (VV37 m c)
def VV39 (c : Dev nD) : Valuation τ sig (Elt F) := StableHlo.after hostOps12_2 (VV38 m c)
def VV40 (c : Dev nD) : Valuation τ sig (Elt F) := StableHlo.after hostOps12_3 (VV39 m c)
def VV41 (c : Dev nD) : Valuation τ sig (Elt F) := StableHlo.after hostOps12_4 (VV40 m c)
def VV42 (c : Dev nD) : Valuation τ sig (Elt F) := Function.update (VV41 m c) main_v87 (gatherArr (VV41 m c main_arg0) ((adm m 12).1 0) (VV41 m c main_v86))
def VV43 (c : Dev nD) : Valuation τ sig (Elt F) := StableHlo.after hostOps13 (VV42 m c)
def VV44 (c : Dev nD) : Valuation τ sig (Elt F) := Function.update (VV43 m c) main_v90 (gatherArr (VV43 m c main_arg0) ((adm m 13).1 0) (VV43 m c main_v89))
def VV45 (c : Dev nD) : Valuation τ sig (Elt F) := StableHlo.after hostOps14 (VV44 m c)
def VV46 (c : Dev nD) : Valuation τ sig (Elt F) := Function.update (VV45 m c) main_v93 (gatherArr (VV45 m c main_arg0) ((adm m 14).1 0) (VV45 m c main_v92))
def VV47 (c : Dev nD) : Valuation τ sig (Elt F) := StableHlo.after hostOps15 (VV46 m c)
def VV48 (c : Dev nD) : Valuation τ sig (Elt F) := Function.update (VV47 m c) main_v96 (gatherArr (VV47 m c main_arg0) ((adm m 15).1 0) (VV47 m c main_v95))
def VV49 (c : Dev nD) : Valuation τ sig (Elt F) := StableHlo.after hostOps16 (VV48 m c)
def VV50 (c : Dev nD) : Valuation τ sig (Elt F) := Function.update (VV49 m c) main_v109 (actArr (VV49 m c main_v108))
def VV51 (c : Dev nD) : Valuation τ sig (Elt F) := StableHlo.after hostOps17 (VV50 m c)
def VV52 (c : Dev nD) : Valuation τ sig (Elt F) := StableHlo.after hostOps17_1 (VV51 m c)
def VV53 (c : Dev nD) : Valuation τ sig (Elt F) := StableHlo.after hostOps17_2 (VV52 m c)
def VV54 (c : Dev nD) : Valuation τ sig (Elt F) := StableHlo.after hostOps17_3 (VV53 m c)
def VV55 (c : Dev nD) : Valuation τ sig (Elt F) := StableHlo.after hostOps17_4 (VV54 m c)
def VV56 (c : Dev nD) : Valuation τ sig (Elt F) := Function.update (VV55 m c) main_v119 (gatherArr (VV55 m c main_v109) ((adm m 17).1 0) (VV55 m c main_v118))
def VV57 (c : Dev nD) : Valuation τ sig (Elt F) := StableHlo.after hostOps18 (VV56 m c)
def VV58 (c : Dev nD) : Valuation τ sig (Elt F) := Function.update (VV57 m c) main_v122 (gatherArr (VV57 m c main_v109) ((adm m 18).1 0) (VV57 m c main_v121))
def VV59 (c : Dev nD) : Valuation τ sig (Elt F) := StableHlo.after hostOps19 (VV58 m c)
def VV60 (c : Dev nD) : Valuation τ sig (Elt F) := Function.update (VV59 m c) main_v125 (gatherArr (VV59 m c main_v109) ((adm m 19).1 0) (VV59 m c main_v124))
def VV61 (c : Dev nD) : Valuation τ sig (Elt F) := StableHlo.after hostOps20 (VV60 m c)
def VV62 (c : Dev nD) : Valuation τ sig (Elt F) := Function.update (VV61 m c) main_v128 (gatherArr (VV61 m c main_v109) ((adm m 20).1 0) (VV61 m c main_v127))
def VV63 (c : Dev nD) : Valuation τ sig (Elt F) := StableHlo.after hostOps21 (VV62 m c)
def VV64 (c : Dev nD) : Valuation τ sig (Elt F) := StableHlo.after hostOps21_1 (VV63 m c)
def VV65 (c : Dev nD) : Valuation τ sig (Elt F) := StableHlo.after hostOps21_2 (VV64 m c)
def VV66 (c : Dev nD) : Valuation τ sig (Elt F) := StableHlo.after hostOps21_3 (VV65 m c)
def VV67 (c : Dev nD) : Valuation τ sig (Elt F) := StableHlo.after hostOps21_4 (VV66 m c)
def VV68 (c : Dev nD) : Valuation τ sig (Elt F) := Function.update (VV67 m c) main_v145 (gatherArr (VV67 m c main_v109) ((adm m 21).1 0) (VV67 m c main_v144))
def VV69 (c : Dev nD) : Valuation τ sig (Elt F) := StableHlo.after hostOps22 (VV68 m c)
def VV70 (c : Dev nD) : Valuation τ sig (Elt F) := Function.update (VV69 m c) main_v148 (gatherArr (VV69 m c main_v109) ((adm m 22).1 0) (VV69 m c main_v147))
def VV71 (c : Dev nD) : Valuation τ sig (Elt F) := StableHlo.after hostOps23 (VV70 m c)
def VV72 (c : Dev nD) : Valuation τ sig (Elt F) := Function.update (VV71 m c) main_v151 (gatherArr (VV71 m c main_v109) ((adm m 23).1 0) (VV71 m c main_v150))
def VV73 (c : Dev nD) : Valuation τ sig (Elt F) := StableHlo.after hostOps24 (VV72 m c)
def VV74 (c : Dev nD) : Valuation τ sig (Elt F) := Function.update (VV73 m c) main_v154 (gatherArr (VV73 m c main_v109) ((adm m 24).1 0) (VV73 m c main_v153))
def VV75 (c : Dev nD) : Valuation τ sig (Elt F) := StableHlo.after hostOps25 (VV74 m c)
def VV76 (c : Dev nD) : Valuation τ sig (Elt F) := StableHlo.after hostOps25_1 (VV75 m c)
def VV77 (c : Dev nD) : Valuation τ sig (Elt F) := StableHlo.after hostOps25_2 (VV76 m c)
def VV78 (c : Dev nD) : Valuation τ sig (Elt F) := StableHlo.after hostOps25_3 (VV77 m c)
def VV79 (c : Dev nD) : Valuation τ sig (Elt F) := StableHlo.after hostOps25_4 (VV78 m c)
def VV80 (c : Dev nD) : Valuation τ sig (Elt F) := Function.update (VV79 m c) main_v171 (gatherArr (VV79 m c main_v109) ((adm m 25).1 0) (VV79 m c main_v170))
def VV81 (c : Dev nD) : Valuation τ sig (Elt F) := StableHlo.after hostOps26 (VV80 m c)
def VV82 (c : Dev nD) : Valuation τ sig (Elt F) := Function.update (VV81 m c) main_v174 (gatherArr (VV81 m c main_v109) ((adm m 26).1 0) (VV81 m c main_v173))
def VV83 (c : Dev nD) : Valuation τ sig (Elt F) := StableHlo.after hostOps27 (VV82 m c)
def VV84 (c : Dev nD) : Valuation τ sig (Elt F) := Function.update (VV83 m c) main_v177 (gatherArr (VV83 m c main_v109) ((adm m 27).1 0) (VV83 m c main_v176))
def VV85 (c : Dev nD) : Valuation τ sig (Elt F) := StableHlo.after hostOps28 (VV84 m c)
def VV86 (c : Dev nD) : Valuation τ sig (Elt F) := Function.update (VV85 m c) main_v180 (gatherArr (VV85 m c main_v109) ((adm m 28).1 0) (VV85 m c main_v179))
def VV87 (c : Dev nD) : Valuation τ sig (Elt F) := StableHlo.after hostOps29 (VV86 m c)
def VV88 (c : Dev nD) : Valuation τ sig (Elt F) := StableHlo.after hostOps29_1 (VV87 m c)
def VV89 (c : Dev nD) : Valuation τ sig (Elt F) := StableHlo.after hostOps29_2 (VV88 m c)
def VV90 (c : Dev nD) : Valuation τ sig (Elt F) := StableHlo.after hostOps29_3 (VV89 m c)
def VV91 (c : Dev nD) : Valuation τ sig (Elt F) := StableHlo.after hostOps29_4 (VV90 m c)
def VV92 (c : Dev nD) : Valuation τ sig (Elt F) := Function.update (VV91 m c) main_v197 (gatherArr (VV91 m c main_v109) ((adm m 29).1 0) (VV91 m c main_v196))
def VV93 (c : Dev nD) : Valuation τ sig (Elt F) := StableHlo.after hostOps30 (VV92 m c)
def VV94 (c : Dev nD) : Valuation τ sig (Elt F) := Function.update (VV93 m c) main_v200 (gatherArr (VV93 m c main_v109) ((adm m 30).1 0) (VV93 m c main_v199))
def VV95 (c : Dev nD) : Valuation τ sig (Elt F) := StableHlo.after hostOps31 (VV94 m c)
def VV96 (c : Dev nD) : Valuation τ sig (Elt F) := Function.update (VV95 m c) main_v203 (gatherArr (VV95 m c main_v109) ((adm m 31).1 0) (VV95 m c main_v202))
def VV97 (c : Dev nD) : Valuation τ sig (Elt F) := StableHlo.after hostOps32 (VV96 m c)
def VV98 (c : Dev nD) : Valuation τ sig (Elt F) := Function.update (VV97 m c) main_v206 (gatherArr (VV97 m c main_v109) ((adm m 32).1 0) (VV97 m c main_v205))
def VV99 (c : Dev nD) : Valuation τ sig (Elt F) := StableHlo.after hostOps33 (VV98 m c)
def VV100 (c : Dev nD) : Valuation τ sig (Elt F) := Function.update (VV99 m c) main_v219 (actArr (VV99 m c main_v218))

/-- The contents the regions leave, as the unknowns of the conditional frame: after item J−1 buffer `r` holds what this
    table says. Read only at the regions' exits. -/
def outs : Outs (F := F) := fun J r c =>
  if J = 6 then VV6 m c r else
  if J = 8 then VV8 m c r else
  if J = 10 then VV10 m c r else
  if J = 12 then VV12 m c r else
  if J = 18 then VV18 m c r else
  if J = 20 then VV20 m c r else
  if J = 22 then VV22 m c r else
  if J = 24 then VV24 m c r else
  if J = 30 then VV30 m c r else
  if J = 32 then VV32 m c r else
  if J = 34 then VV34 m c r else
  if J = 36 then VV36 m c r else
  if J = 42 then VV42 m c r else
  if J = 44 then VV44 m c r else
  if J = 46 then VV46 m c r else
  if J = 48 then VV48 m c r else
  if J = 50 then VV50 m c r else
  if J = 56 then VV56 m c r else
  if J = 58 then VV58 m c r else
  if J = 60 then VV60 m c r else
  if J = 62 then VV62 m c r else
  if J = 68 then VV68 m c r else
  if J = 70 then VV70 m c r else
  if J = 72 then VV72 m c r else
  if J = 74 then VV74 m c r else
  if J = 80 then VV80 m c r else
  if J = 82 then VV82 m c r else
  if J = 84 then VV84 m c r else
  if J = 86 then VV86 m c r else
  if J = 92 then VV92 m c r else
  if J = 94 then VV94 m c r else
  if J = 96 then VV96 m c r else
  if J = 98 then VV98 m c r else
  if J = 100 then VV100 m c r else
  VV0 m c r

/-! What the unknowns hold at each region's exit. -/

theorem outs_6 (r : Ref sig .tc) (c : Dev nD) : outs m 6 r c = VV6 m c r := by
  unfold outs; simp only [↓reduceIte, Nat.reduceEqDiff, if_true, if_false]

theorem outs_8 (r : Ref sig .tc) (c : Dev nD) : outs m 8 r c = VV8 m c r := by
  unfold outs; simp only [↓reduceIte, Nat.reduceEqDiff, if_true, if_false]

theorem outs_10 (r : Ref sig .tc) (c : Dev nD) : outs m 10 r c = VV10 m c r := by
  unfold outs; simp only [↓reduceIte, Nat.reduceEqDiff, if_true, if_false]

theorem outs_12 (r : Ref sig .tc) (c : Dev nD) : outs m 12 r c = VV12 m c r := by
  unfold outs; simp only [↓reduceIte, Nat.reduceEqDiff, if_true, if_false]

theorem outs_18 (r : Ref sig .tc) (c : Dev nD) : outs m 18 r c = VV18 m c r := by
  unfold outs; simp only [↓reduceIte, Nat.reduceEqDiff, if_true, if_false]

theorem outs_20 (r : Ref sig .tc) (c : Dev nD) : outs m 20 r c = VV20 m c r := by
  unfold outs; simp only [↓reduceIte, Nat.reduceEqDiff, if_true, if_false]

theorem outs_22 (r : Ref sig .tc) (c : Dev nD) : outs m 22 r c = VV22 m c r := by
  unfold outs; simp only [↓reduceIte, Nat.reduceEqDiff, if_true, if_false]

theorem outs_24 (r : Ref sig .tc) (c : Dev nD) : outs m 24 r c = VV24 m c r := by
  unfold outs; simp only [↓reduceIte, Nat.reduceEqDiff, if_true, if_false]

theorem outs_30 (r : Ref sig .tc) (c : Dev nD) : outs m 30 r c = VV30 m c r := by
  unfold outs; simp only [↓reduceIte, Nat.reduceEqDiff, if_true, if_false]

theorem outs_32 (r : Ref sig .tc) (c : Dev nD) : outs m 32 r c = VV32 m c r := by
  unfold outs; simp only [↓reduceIte, Nat.reduceEqDiff, if_true, if_false]

theorem outs_34 (r : Ref sig .tc) (c : Dev nD) : outs m 34 r c = VV34 m c r := by
  unfold outs; simp only [↓reduceIte, Nat.reduceEqDiff, if_true, if_false]

theorem outs_36 (r : Ref sig .tc) (c : Dev nD) : outs m 36 r c = VV36 m c r := by
  unfold outs; simp only [↓reduceIte, Nat.reduceEqDiff, if_true, if_false]

theorem outs_42 (r : Ref sig .tc) (c : Dev nD) : outs m 42 r c = VV42 m c r := by
  unfold outs; simp only [↓reduceIte, Nat.reduceEqDiff, if_true, if_false]

theorem outs_44 (r : Ref sig .tc) (c : Dev nD) : outs m 44 r c = VV44 m c r := by
  unfold outs; simp only [↓reduceIte, Nat.reduceEqDiff, if_true, if_false]

theorem outs_46 (r : Ref sig .tc) (c : Dev nD) : outs m 46 r c = VV46 m c r := by
  unfold outs; simp only [↓reduceIte, Nat.reduceEqDiff, if_true, if_false]

theorem outs_48 (r : Ref sig .tc) (c : Dev nD) : outs m 48 r c = VV48 m c r := by
  unfold outs; simp only [↓reduceIte, Nat.reduceEqDiff, if_true, if_false]

theorem outs_50 (r : Ref sig .tc) (c : Dev nD) : outs m 50 r c = VV50 m c r := by
  unfold outs; simp only [↓reduceIte, Nat.reduceEqDiff, if_true, if_false]

theorem outs_56 (r : Ref sig .tc) (c : Dev nD) : outs m 56 r c = VV56 m c r := by
  unfold outs; simp only [↓reduceIte, Nat.reduceEqDiff, if_true, if_false]

theorem outs_58 (r : Ref sig .tc) (c : Dev nD) : outs m 58 r c = VV58 m c r := by
  unfold outs; simp only [↓reduceIte, Nat.reduceEqDiff, if_true, if_false]

theorem outs_60 (r : Ref sig .tc) (c : Dev nD) : outs m 60 r c = VV60 m c r := by
  unfold outs; simp only [↓reduceIte, Nat.reduceEqDiff, if_true, if_false]

theorem outs_62 (r : Ref sig .tc) (c : Dev nD) : outs m 62 r c = VV62 m c r := by
  unfold outs; simp only [↓reduceIte, Nat.reduceEqDiff, if_true, if_false]

theorem outs_68 (r : Ref sig .tc) (c : Dev nD) : outs m 68 r c = VV68 m c r := by
  unfold outs; simp only [↓reduceIte, Nat.reduceEqDiff, if_true, if_false]

theorem outs_70 (r : Ref sig .tc) (c : Dev nD) : outs m 70 r c = VV70 m c r := by
  unfold outs; simp only [↓reduceIte, Nat.reduceEqDiff, if_true, if_false]

theorem outs_72 (r : Ref sig .tc) (c : Dev nD) : outs m 72 r c = VV72 m c r := by
  unfold outs; simp only [↓reduceIte, Nat.reduceEqDiff, if_true, if_false]

theorem outs_74 (r : Ref sig .tc) (c : Dev nD) : outs m 74 r c = VV74 m c r := by
  unfold outs; simp only [↓reduceIte, Nat.reduceEqDiff, if_true, if_false]

theorem outs_80 (r : Ref sig .tc) (c : Dev nD) : outs m 80 r c = VV80 m c r := by
  unfold outs; simp only [↓reduceIte, Nat.reduceEqDiff, if_true, if_false]

theorem outs_82 (r : Ref sig .tc) (c : Dev nD) : outs m 82 r c = VV82 m c r := by
  unfold outs; simp only [↓reduceIte, Nat.reduceEqDiff, if_true, if_false]

theorem outs_84 (r : Ref sig .tc) (c : Dev nD) : outs m 84 r c = VV84 m c r := by
  unfold outs; simp only [↓reduceIte, Nat.reduceEqDiff, if_true, if_false]

theorem outs_86 (r : Ref sig .tc) (c : Dev nD) : outs m 86 r c = VV86 m c r := by
  unfold outs; simp only [↓reduceIte, Nat.reduceEqDiff, if_true, if_false]

theorem outs_92 (r : Ref sig .tc) (c : Dev nD) : outs m 92 r c = VV92 m c r := by
  unfold outs; simp only [↓reduceIte, Nat.reduceEqDiff, if_true, if_false]

theorem outs_94 (r : Ref sig .tc) (c : Dev nD) : outs m 94 r c = VV94 m c r := by
  unfold outs; simp only [↓reduceIte, Nat.reduceEqDiff, if_true, if_false]

theorem outs_96 (r : Ref sig .tc) (c : Dev nD) : outs m 96 r c = VV96 m c r := by
  unfold outs; simp only [↓reduceIte, Nat.reduceEqDiff, if_true, if_false]

theorem outs_98 (r : Ref sig .tc) (c : Dev nD) : outs m 98 r c = VV98 m c r := by
  unfold outs; simp only [↓reduceIte, Nat.reduceEqDiff, if_true, if_false]

theorem outs_100 (r : Ref sig .tc) (c : Dev nD) : outs m 100 r c = VV100 m c r := by
  unfold outs; simp only [↓reduceIte, Nat.reduceEqDiff, if_true, if_false]

/-! ## The conditional frame's valuations, at these unknowns, are this table -/

/-- Updating at `a` with the value already there after an update at `a` is that update. -/
theorem upd1_fix {α : Type} [DecidableEq α] {β : α → Type} (f : ∀ a, β a) (a : α) (v : β a) :
    Function.update f a (Function.update f a v a) = Function.update f a v := by
  rw [Function.update_self]

/-- The same, followed by an update at `b` with the value already there. -/
theorem upd2_fix {α : Type} [DecidableEq α] {β : α → Type} (f : ∀ a, β a) (a b : α) (v : β a) :
    Function.update (Function.update f a (Function.update f a v a)) b (Function.update f a v b) = Function.update f a v := by
  rw [Function.update_self, Function.update_eq_self]

theorem V0_eq (c : Dev nD) : V0 m c = VV0 m c := rfl
theorem V1_eq (c : Dev nD) : V1 m c = VV1 m c := by
  show StableHlo.after hostOps0 (V0 m c) = _
  rw [V0_eq]; rfl
theorem V2_eq (c : Dev nD) : V2 m c = VV2 m c := by
  show StableHlo.after hostOps0_1 (V1 m c) = _
  rw [V1_eq]; rfl
theorem V3_eq (c : Dev nD) : V3 m c = VV3 m c := by
  show StableHlo.after hostOps0_2 (V2 m c) = _
  rw [V2_eq]; rfl
theorem V4_eq (c : Dev nD) : V4 m c = VV4 m c := by
  show StableHlo.after hostOps0_3 (V3 m c) = _
  rw [V3_eq]; rfl
theorem V5_eq (c : Dev nD) : V5 m c = VV5 m c := by
  show StableHlo.after hostOps0_4 (V4 m c) = _
  rw [V4_eq]; rfl
theorem V6_eq (c : Dev nD) : V6 m (outs m) c = VV6 m c := by
  show Function.update (V5 m c) main_v9 (outs m 6 main_v9 c) = _
  rw [outs_6, V5_eq]; unfold VV6; exact upd1_fix (VV5 m c) _ _
theorem V7_eq (c : Dev nD) : V7 m (outs m) c = VV7 m c := by
  show StableHlo.after hostOps1 (V6 m (outs m) c) = _
  rw [V6_eq]; rfl
theorem V8_eq (c : Dev nD) : V8 m (outs m) c = VV8 m c := by
  show Function.update (V7 m (outs m) c) main_v12 (outs m 8 main_v12 c) = _
  rw [outs_8, V7_eq]; unfold VV8; exact upd1_fix (VV7 m c) _ _
theorem V9_eq (c : Dev nD) : V9 m (outs m) c = VV9 m c := by
  show StableHlo.after hostOps2 (V8 m (outs m) c) = _
  rw [V8_eq]; rfl
theorem V10_eq (c : Dev nD) : V10 m (outs m) c = VV10 m c := by
  show Function.update (V9 m (outs m) c) main_v15 (outs m 10 main_v15 c) = _
  rw [outs_10, V9_eq]; unfold VV10; exact upd1_fix (VV9 m c) _ _
theorem V11_eq (c : Dev nD) : V11 m (outs m) c = VV11 m c := by
  show StableHlo.after hostOps3 (V10 m (outs m) c) = _
  rw [V10_eq]; rfl
theorem V12_eq (c : Dev nD) : V12 m (outs m) c = VV12 m c := by
  show Function.update (V11 m (outs m) c) main_v18 (outs m 12 main_v18 c) = _
  rw [outs_12, V11_eq]; unfold VV12; exact upd1_fix (VV11 m c) _ _
theorem V13_eq (c : Dev nD) : V13 m (outs m) c = VV13 m c := by
  show StableHlo.after hostOps4 (V12 m (outs m) c) = _
  rw [V12_eq]; rfl
theorem V14_eq (c : Dev nD) : V14 m (outs m) c = VV14 m c := by
  show StableHlo.after hostOps4_1 (V13 m (outs m) c) = _
  rw [V13_eq]; rfl
theorem V15_eq (c : Dev nD) : V15 m (outs m) c = VV15 m c := by
  show StableHlo.after hostOps4_2 (V14 m (outs m) c) = _
  rw [V14_eq]; rfl
theorem V16_eq (c : Dev nD) : V16 m (outs m) c = VV16 m c := by
  show StableHlo.after hostOps4_3 (V15 m (outs m) c) = _
  rw [V15_eq]; rfl
theorem V17_eq (c : Dev nD) : V17 m (outs m) c = VV17 m c := by
  show StableHlo.after hostOps4_4 (V16 m (outs m) c) = _
  rw [V16_eq]; rfl
theorem V18_eq (c : Dev nD) : V18 m (outs m) c = VV18 m c := by
  show Function.update (V17 m (outs m) c) main_v35 (outs m 18 main_v35 c) = _
  rw [outs_18, V17_eq]; unfold VV18; exact upd1_fix (VV17 m c) _ _
theorem V19_eq (c : Dev nD) : V19 m (outs m) c = VV19 m c := by
  show StableHlo.after hostOps5 (V18 m (outs m) c) = _
  rw [V18_eq]; rfl
theorem V20_eq (c : Dev nD) : V20 m (outs m) c = VV20 m c := by
  show Function.update (V19 m (outs m) c) main_v38 (outs m 20 main_v38 c) = _
  rw [outs_20, V19_eq]; unfold VV20; exact upd1_fix (VV19 m c) _ _
theorem V21_eq (c : Dev nD) : V21 m (outs m) c = VV21 m c := by
  show StableHlo.after hostOps6 (V20 m (outs m) c) = _
  rw [V20_eq]; rfl
theorem V22_eq (c : Dev nD) : V22 m (outs m) c = VV22 m c := by
  show Function.update (V21 m (outs m) c) main_v41 (outs m 22 main_v41 c) = _
  rw [outs_22, V21_eq]; unfold VV22; exact upd1_fix (VV21 m c) _ _
theorem V23_eq (c : Dev nD) : V23 m (outs m) c = VV23 m c := by
  show StableHlo.after hostOps7 (V22 m (outs m) c) = _
  rw [V22_eq]; rfl
theorem V24_eq (c : Dev nD) : V24 m (outs m) c = VV24 m c := by
  show Function.update (V23 m (outs m) c) main_v44 (outs m 24 main_v44 c) = _
  rw [outs_24, V23_eq]; unfold VV24; exact upd1_fix (VV23 m c) _ _
theorem V25_eq (c : Dev nD) : V25 m (outs m) c = VV25 m c := by
  show StableHlo.after hostOps8 (V24 m (outs m) c) = _
  rw [V24_eq]; rfl
theorem V26_eq (c : Dev nD) : V26 m (outs m) c = VV26 m c := by
  show StableHlo.after hostOps8_1 (V25 m (outs m) c) = _
  rw [V25_eq]; rfl
theorem V27_eq (c : Dev nD) : V27 m (outs m) c = VV27 m c := by
  show StableHlo.after hostOps8_2 (V26 m (outs m) c) = _
  rw [V26_eq]; rfl
theorem V28_eq (c : Dev nD) : V28 m (outs m) c = VV28 m c := by
  show StableHlo.after hostOps8_3 (V27 m (outs m) c) = _
  rw [V27_eq]; rfl
theorem V29_eq (c : Dev nD) : V29 m (outs m) c = VV29 m c := by
  show StableHlo.after hostOps8_4 (V28 m (outs m) c) = _
  rw [V28_eq]; rfl
theorem V30_eq (c : Dev nD) : V30 m (outs m) c = VV30 m c := by
  show Function.update (V29 m (outs m) c) main_v61 (outs m 30 main_v61 c) = _
  rw [outs_30, V29_eq]; unfold VV30; exact upd1_fix (VV29 m c) _ _
theorem V31_eq (c : Dev nD) : V31 m (outs m) c = VV31 m c := by
  show StableHlo.after hostOps9 (V30 m (outs m) c) = _
  rw [V30_eq]; rfl
theorem V32_eq (c : Dev nD) : V32 m (outs m) c = VV32 m c := by
  show Function.update (V31 m (outs m) c) main_v64 (outs m 32 main_v64 c) = _
  rw [outs_32, V31_eq]; unfold VV32; exact upd1_fix (VV31 m c) _ _
theorem V33_eq (c : Dev nD) : V33 m (outs m) c = VV33 m c := by
  show StableHlo.after hostOps10 (V32 m (outs m) c) = _
  rw [V32_eq]; rfl
theorem V34_eq (c : Dev nD) : V34 m (outs m) c = VV34 m c := by
  show Function.update (V33 m (outs m) c) main_v67 (outs m 34 main_v67 c) = _
  rw [outs_34, V33_eq]; unfold VV34; exact upd1_fix (VV33 m c) _ _
theorem V35_eq (c : Dev nD) : V35 m (outs m) c = VV35 m c := by
  show StableHlo.after hostOps11 (V34 m (outs m) c) = _
  rw [V34_eq]; rfl
theorem V36_eq (c : Dev nD) : V36 m (outs m) c = VV36 m c := by
  show Function.update (V35 m (outs m) c) main_v70 (outs m 36 main_v70 c) = _
  rw [outs_36, V35_eq]; unfold VV36; exact upd1_fix (VV35 m c) _ _
theorem V37_eq (c : Dev nD) : V37 m (outs m) c = VV37 m c := by
  show StableHlo.after hostOps12 (V36 m (outs m) c) = _
  rw [V36_eq]; rfl
theorem V38_eq (c : Dev nD) : V38 m (outs m) c = VV38 m c := by
  show StableHlo.after hostOps12_1 (V37 m (outs m) c) = _
  rw [V37_eq]; rfl
theorem V39_eq (c : Dev nD) : V39 m (outs m) c = VV39 m c := by
  show StableHlo.after hostOps12_2 (V38 m (outs m) c) = _
  rw [V38_eq]; rfl
theorem V40_eq (c : Dev nD) : V40 m (outs m) c = VV40 m c := by
  show StableHlo.after hostOps12_3 (V39 m (outs m) c) = _
  rw [V39_eq]; rfl
theorem V41_eq (c : Dev nD) : V41 m (outs m) c = VV41 m c := by
  show StableHlo.after hostOps12_4 (V40 m (outs m) c) = _
  rw [V40_eq]; rfl
theorem V42_eq (c : Dev nD) : V42 m (outs m) c = VV42 m c := by
  show Function.update (V41 m (outs m) c) main_v87 (outs m 42 main_v87 c) = _
  rw [outs_42, V41_eq]; unfold VV42; exact upd1_fix (VV41 m c) _ _
theorem V43_eq (c : Dev nD) : V43 m (outs m) c = VV43 m c := by
  show StableHlo.after hostOps13 (V42 m (outs m) c) = _
  rw [V42_eq]; rfl
theorem V44_eq (c : Dev nD) : V44 m (outs m) c = VV44 m c := by
  show Function.update (V43 m (outs m) c) main_v90 (outs m 44 main_v90 c) = _
  rw [outs_44, V43_eq]; unfold VV44; exact upd1_fix (VV43 m c) _ _
theorem V45_eq (c : Dev nD) : V45 m (outs m) c = VV45 m c := by
  show StableHlo.after hostOps14 (V44 m (outs m) c) = _
  rw [V44_eq]; rfl
theorem V46_eq (c : Dev nD) : V46 m (outs m) c = VV46 m c := by
  show Function.update (V45 m (outs m) c) main_v93 (outs m 46 main_v93 c) = _
  rw [outs_46, V45_eq]; unfold VV46; exact upd1_fix (VV45 m c) _ _
theorem V47_eq (c : Dev nD) : V47 m (outs m) c = VV47 m c := by
  show StableHlo.after hostOps15 (V46 m (outs m) c) = _
  rw [V46_eq]; rfl
theorem V48_eq (c : Dev nD) : V48 m (outs m) c = VV48 m c := by
  show Function.update (V47 m (outs m) c) main_v96 (outs m 48 main_v96 c) = _
  rw [outs_48, V47_eq]; unfold VV48; exact upd1_fix (VV47 m c) _ _
theorem V49_eq (c : Dev nD) : V49 m (outs m) c = VV49 m c := by
  show StableHlo.after hostOps16 (V48 m (outs m) c) = _
  rw [V48_eq]; rfl
theorem V50_eq (c : Dev nD) : V50 m (outs m) c = VV50 m c := by
  show Function.update (V49 m (outs m) c) main_v109 (outs m 50 main_v109 c) = _
  rw [outs_50, V49_eq]; unfold VV50; exact upd1_fix (VV49 m c) _ _
theorem V51_eq (c : Dev nD) : V51 m (outs m) c = VV51 m c := by
  show StableHlo.after hostOps17 (V50 m (outs m) c) = _
  rw [V50_eq]; rfl
theorem V52_eq (c : Dev nD) : V52 m (outs m) c = VV52 m c := by
  show StableHlo.after hostOps17_1 (V51 m (outs m) c) = _
  rw [V51_eq]; rfl
theorem V53_eq (c : Dev nD) : V53 m (outs m) c = VV53 m c := by
  show StableHlo.after hostOps17_2 (V52 m (outs m) c) = _
  rw [V52_eq]; rfl
theorem V54_eq (c : Dev nD) : V54 m (outs m) c = VV54 m c := by
  show StableHlo.after hostOps17_3 (V53 m (outs m) c) = _
  rw [V53_eq]; rfl
theorem V55_eq (c : Dev nD) : V55 m (outs m) c = VV55 m c := by
  show StableHlo.after hostOps17_4 (V54 m (outs m) c) = _
  rw [V54_eq]; rfl
theorem V56_eq (c : Dev nD) : V56 m (outs m) c = VV56 m c := by
  show Function.update (Function.update (V55 m (outs m) c) main_v119 (outs m 56 main_v119 c)) main_v109 (outs m 56 main_v109 c) = _
  rw [outs_56, outs_56, V55_eq]; unfold VV56; exact upd2_fix (VV55 m c) _ _ _
theorem V57_eq (c : Dev nD) : V57 m (outs m) c = VV57 m c := by
  show StableHlo.after hostOps18 (V56 m (outs m) c) = _
  rw [V56_eq]; rfl
theorem V58_eq (c : Dev nD) : V58 m (outs m) c = VV58 m c := by
  show Function.update (Function.update (V57 m (outs m) c) main_v122 (outs m 58 main_v122 c)) main_v109 (outs m 58 main_v109 c) = _
  rw [outs_58, outs_58, V57_eq]; unfold VV58; exact upd2_fix (VV57 m c) _ _ _
theorem V59_eq (c : Dev nD) : V59 m (outs m) c = VV59 m c := by
  show StableHlo.after hostOps19 (V58 m (outs m) c) = _
  rw [V58_eq]; rfl
theorem V60_eq (c : Dev nD) : V60 m (outs m) c = VV60 m c := by
  show Function.update (Function.update (V59 m (outs m) c) main_v125 (outs m 60 main_v125 c)) main_v109 (outs m 60 main_v109 c) = _
  rw [outs_60, outs_60, V59_eq]; unfold VV60; exact upd2_fix (VV59 m c) _ _ _
theorem V61_eq (c : Dev nD) : V61 m (outs m) c = VV61 m c := by
  show StableHlo.after hostOps20 (V60 m (outs m) c) = _
  rw [V60_eq]; rfl
theorem V62_eq (c : Dev nD) : V62 m (outs m) c = VV62 m c := by
  show Function.update (Function.update (V61 m (outs m) c) main_v128 (outs m 62 main_v128 c)) main_v109 (outs m 62 main_v109 c) = _
  rw [outs_62, outs_62, V61_eq]; unfold VV62; exact upd2_fix (VV61 m c) _ _ _
theorem V63_eq (c : Dev nD) : V63 m (outs m) c = VV63 m c := by
  show StableHlo.after hostOps21 (V62 m (outs m) c) = _
  rw [V62_eq]; rfl
theorem V64_eq (c : Dev nD) : V64 m (outs m) c = VV64 m c := by
  show StableHlo.after hostOps21_1 (V63 m (outs m) c) = _
  rw [V63_eq]; rfl
theorem V65_eq (c : Dev nD) : V65 m (outs m) c = VV65 m c := by
  show StableHlo.after hostOps21_2 (V64 m (outs m) c) = _
  rw [V64_eq]; rfl
theorem V66_eq (c : Dev nD) : V66 m (outs m) c = VV66 m c := by
  show StableHlo.after hostOps21_3 (V65 m (outs m) c) = _
  rw [V65_eq]; rfl
theorem V67_eq (c : Dev nD) : V67 m (outs m) c = VV67 m c := by
  show StableHlo.after hostOps21_4 (V66 m (outs m) c) = _
  rw [V66_eq]; rfl
theorem V68_eq (c : Dev nD) : V68 m (outs m) c = VV68 m c := by
  show Function.update (Function.update (V67 m (outs m) c) main_v145 (outs m 68 main_v145 c)) main_v109 (outs m 68 main_v109 c) = _
  rw [outs_68, outs_68, V67_eq]; unfold VV68; exact upd2_fix (VV67 m c) _ _ _
theorem V69_eq (c : Dev nD) : V69 m (outs m) c = VV69 m c := by
  show StableHlo.after hostOps22 (V68 m (outs m) c) = _
  rw [V68_eq]; rfl
theorem V70_eq (c : Dev nD) : V70 m (outs m) c = VV70 m c := by
  show Function.update (Function.update (V69 m (outs m) c) main_v148 (outs m 70 main_v148 c)) main_v109 (outs m 70 main_v109 c) = _
  rw [outs_70, outs_70, V69_eq]; unfold VV70; exact upd2_fix (VV69 m c) _ _ _
theorem V71_eq (c : Dev nD) : V71 m (outs m) c = VV71 m c := by
  show StableHlo.after hostOps23 (V70 m (outs m) c) = _
  rw [V70_eq]; rfl
theorem V72_eq (c : Dev nD) : V72 m (outs m) c = VV72 m c := by
  show Function.update (Function.update (V71 m (outs m) c) main_v151 (outs m 72 main_v151 c)) main_v109 (outs m 72 main_v109 c) = _
  rw [outs_72, outs_72, V71_eq]; unfold VV72; exact upd2_fix (VV71 m c) _ _ _
theorem V73_eq (c : Dev nD) : V73 m (outs m) c = VV73 m c := by
  show StableHlo.after hostOps24 (V72 m (outs m) c) = _
  rw [V72_eq]; rfl
theorem V74_eq (c : Dev nD) : V74 m (outs m) c = VV74 m c := by
  show Function.update (Function.update (V73 m (outs m) c) main_v154 (outs m 74 main_v154 c)) main_v109 (outs m 74 main_v109 c) = _
  rw [outs_74, outs_74, V73_eq]; unfold VV74; exact upd2_fix (VV73 m c) _ _ _
theorem V75_eq (c : Dev nD) : V75 m (outs m) c = VV75 m c := by
  show StableHlo.after hostOps25 (V74 m (outs m) c) = _
  rw [V74_eq]; rfl
theorem V76_eq (c : Dev nD) : V76 m (outs m) c = VV76 m c := by
  show StableHlo.after hostOps25_1 (V75 m (outs m) c) = _
  rw [V75_eq]; rfl
theorem V77_eq (c : Dev nD) : V77 m (outs m) c = VV77 m c := by
  show StableHlo.after hostOps25_2 (V76 m (outs m) c) = _
  rw [V76_eq]; rfl
theorem V78_eq (c : Dev nD) : V78 m (outs m) c = VV78 m c := by
  show StableHlo.after hostOps25_3 (V77 m (outs m) c) = _
  rw [V77_eq]; rfl
theorem V79_eq (c : Dev nD) : V79 m (outs m) c = VV79 m c := by
  show StableHlo.after hostOps25_4 (V78 m (outs m) c) = _
  rw [V78_eq]; rfl
theorem V80_eq (c : Dev nD) : V80 m (outs m) c = VV80 m c := by
  show Function.update (Function.update (V79 m (outs m) c) main_v171 (outs m 80 main_v171 c)) main_v109 (outs m 80 main_v109 c) = _
  rw [outs_80, outs_80, V79_eq]; unfold VV80; exact upd2_fix (VV79 m c) _ _ _
theorem V81_eq (c : Dev nD) : V81 m (outs m) c = VV81 m c := by
  show StableHlo.after hostOps26 (V80 m (outs m) c) = _
  rw [V80_eq]; rfl
theorem V82_eq (c : Dev nD) : V82 m (outs m) c = VV82 m c := by
  show Function.update (Function.update (V81 m (outs m) c) main_v174 (outs m 82 main_v174 c)) main_v109 (outs m 82 main_v109 c) = _
  rw [outs_82, outs_82, V81_eq]; unfold VV82; exact upd2_fix (VV81 m c) _ _ _
theorem V83_eq (c : Dev nD) : V83 m (outs m) c = VV83 m c := by
  show StableHlo.after hostOps27 (V82 m (outs m) c) = _
  rw [V82_eq]; rfl
theorem V84_eq (c : Dev nD) : V84 m (outs m) c = VV84 m c := by
  show Function.update (Function.update (V83 m (outs m) c) main_v177 (outs m 84 main_v177 c)) main_v109 (outs m 84 main_v109 c) = _
  rw [outs_84, outs_84, V83_eq]; unfold VV84; exact upd2_fix (VV83 m c) _ _ _
theorem V85_eq (c : Dev nD) : V85 m (outs m) c = VV85 m c := by
  show StableHlo.after hostOps28 (V84 m (outs m) c) = _
  rw [V84_eq]; rfl
theorem V86_eq (c : Dev nD) : V86 m (outs m) c = VV86 m c := by
  show Function.update (Function.update (V85 m (outs m) c) main_v180 (outs m 86 main_v180 c)) main_v109 (outs m 86 main_v109 c) = _
  rw [outs_86, outs_86, V85_eq]; unfold VV86; exact upd2_fix (VV85 m c) _ _ _
theorem V87_eq (c : Dev nD) : V87 m (outs m) c = VV87 m c := by
  show StableHlo.after hostOps29 (V86 m (outs m) c) = _
  rw [V86_eq]; rfl
theorem V88_eq (c : Dev nD) : V88 m (outs m) c = VV88 m c := by
  show StableHlo.after hostOps29_1 (V87 m (outs m) c) = _
  rw [V87_eq]; rfl
theorem V89_eq (c : Dev nD) : V89 m (outs m) c = VV89 m c := by
  show StableHlo.after hostOps29_2 (V88 m (outs m) c) = _
  rw [V88_eq]; rfl
theorem V90_eq (c : Dev nD) : V90 m (outs m) c = VV90 m c := by
  show StableHlo.after hostOps29_3 (V89 m (outs m) c) = _
  rw [V89_eq]; rfl
theorem V91_eq (c : Dev nD) : V91 m (outs m) c = VV91 m c := by
  show StableHlo.after hostOps29_4 (V90 m (outs m) c) = _
  rw [V90_eq]; rfl
theorem V92_eq (c : Dev nD) : V92 m (outs m) c = VV92 m c := by
  show Function.update (Function.update (V91 m (outs m) c) main_v197 (outs m 92 main_v197 c)) main_v109 (outs m 92 main_v109 c) = _
  rw [outs_92, outs_92, V91_eq]; unfold VV92; exact upd2_fix (VV91 m c) _ _ _
theorem V93_eq (c : Dev nD) : V93 m (outs m) c = VV93 m c := by
  show StableHlo.after hostOps30 (V92 m (outs m) c) = _
  rw [V92_eq]; rfl
theorem V94_eq (c : Dev nD) : V94 m (outs m) c = VV94 m c := by
  show Function.update (Function.update (V93 m (outs m) c) main_v200 (outs m 94 main_v200 c)) main_v109 (outs m 94 main_v109 c) = _
  rw [outs_94, outs_94, V93_eq]; unfold VV94; exact upd2_fix (VV93 m c) _ _ _
theorem V95_eq (c : Dev nD) : V95 m (outs m) c = VV95 m c := by
  show StableHlo.after hostOps31 (V94 m (outs m) c) = _
  rw [V94_eq]; rfl
theorem V96_eq (c : Dev nD) : V96 m (outs m) c = VV96 m c := by
  show Function.update (Function.update (V95 m (outs m) c) main_v203 (outs m 96 main_v203 c)) main_v109 (outs m 96 main_v109 c) = _
  rw [outs_96, outs_96, V95_eq]; unfold VV96; exact upd2_fix (VV95 m c) _ _ _
theorem V97_eq (c : Dev nD) : V97 m (outs m) c = VV97 m c := by
  show StableHlo.after hostOps32 (V96 m (outs m) c) = _
  rw [V96_eq]; rfl
theorem V98_eq (c : Dev nD) : V98 m (outs m) c = VV98 m c := by
  show Function.update (Function.update (V97 m (outs m) c) main_v206 (outs m 98 main_v206 c)) main_v109 (outs m 98 main_v109 c) = _
  rw [outs_98, outs_98, V97_eq]; unfold VV98; exact upd2_fix (VV97 m c) _ _ _
theorem V99_eq (c : Dev nD) : V99 m (outs m) c = VV99 m c := by
  show StableHlo.after hostOps33 (V98 m (outs m) c) = _
  rw [V98_eq]; rfl
theorem V100_eq (c : Dev nD) : V100 m (outs m) c = VV100 m c := by
  show Function.update (V99 m (outs m) c) main_v219 (outs m 100 main_v219 c) = _
  rw [outs_100, V99_eq]; unfold VV100; exact upd1_fix (VV99 m c) _ _

end Cert.Kernel.Hand

end
-- ==== Proof.K.TablesV.lean ====
/-
  The gather regions' prefetched tables as the host operations leave them: at the valuation each gather region is
  entered from, the region's table buffer holds the table of its relation and chunk (a pure term of the launch
  memory's edge-source array), whatever the regions before it left in their output arrays.

  Per relation and layer the host operations take the relation's row of the edge-source array, reshape it to a vector,
  and pad it with zeros (one stretch and the padding function's stretch after it); later stretches cut the four chunks
  out of the padded vector, one before each of the relation's four gather regions. Between the padding and a chunk's cut
  no item writes the padded vector, and before the row is taken no item writes the edge-source array.
-/
import proofs.«414509_j14181982011419_2_alg».proof.Proof.K.RegionsP
import proofs.«414509_j14181982011419_2_alg».proof.Proof.K.Tables

set_option maxRecDepth 2240

noncomputable section

namespace Cert.Kernel.Hand

open Cert.Kernel Cert.Kernel.Gen Cert.Kernel.GenP
open Idealize.ShloMosaic Idealize.ShloMosaic.TcCoe
open Idealize.ShloMosaic.StableHlo
open Idealize.SL.Sem

variable {F : FTy → Type} [FloatOps F]

/-- A row of the edge-source array `x` as a vector, padded with zeros to 524288 words. -/
abbrev padRow (x : (⟨S4x500000, .i32⟩ : BufTy).Contents (Elt F)) (o₁ : Fin 2 → Nat) (h₁ : S4x500000.Slices o₁ S1x500000) :
    (⟨S524288, .i32⟩ : BufTy).Contents (Elt F) :=
  pad S524288 ![0] ![24288] ![0]
    (shapeCast S500000 (extractStridedSlice S1x500000 o₁ x h₁) shapeCasts_S1x500000_S500000)
    (constantI S_ 32 0#32) pads_S500000_S524288_0242880 h_S_

/-- The program runs on one device. -/
theorem dev_eq (c : Dev nD) : c = 0 := Subsingleton.elim _ _

/-! ## Over any contents: what a stretch leaves in the buffer it writes -/

/-- The first two stretches leave relation 0's padded row in `main_v4`. -/
theorem padded_0 (W : Valuation τ sig (Elt F)) :
    StableHlo.after hostOps0_1 (StableHlo.after hostOps0 W) main_v4
      = padRow (W main_arg1 : (⟨S4x500000, .i32⟩ : BufTy).Contents (Elt F)) ![0, 0] slices_S4x500000_S1x500000_0_0 := by
  after_results
  rfl

/-- The stretch before region 0 cuts chunk 0 out of `main_v4` into `main_v7`. -/
theorem slice_0 (W : Valuation τ sig (Elt F)) :
    StableHlo.after hostOps0_4 W main_v7
      = extractStridedSlice S131072 ![0] (W main_v4 : (⟨S524288, .i32⟩ : BufTy).Contents (Elt F)) slices_S524288_S131072_0 := by
  after_results

/-- The stretch before region 1 cuts chunk 1 out of `main_v4` into `main_v10`. -/
theorem slice_1 (W : Valuation τ sig (Elt F)) :
    StableHlo.after hostOps1 W main_v10
      = extractStridedSlice S131072 ![131072] (W main_v4 : (⟨S524288, .i32⟩ : BufTy).Contents (Elt F)) slices_S524288_S131072_131072 := by
  after_results

variable (m : (ℓ : Loc nD τ sig) → Buf (Elt F) ℓ) (outs : Outs (F := F))

/-- At launch the edge-source array is the launch memory's. -/
theorem arg1_0 (c : Dev nD) : V0 m c main_arg1 = src m := by
  rw [dev_eq c]

/-- After the padding function's stretch `main_v4` holds relation 0's padded row. -/
theorem padded0 (c : Dev nD) : V2 m c main_v4 = padRow (src m) ![0, 0] slices_S4x500000_S1x500000_0_0 :=
  (padded_0 (V0 m c)).trans (by rw [arg1_0 m c])

/-- Region 0 is entered with `main_v7` holding the table of relation 0, chunk 0. -/
theorem tbl_0 (c : Dev nD) : V5 m c main_v7 = tbl m 0 0 :=
  (slice_0 (V4 m c)).trans (by
    rw [(V4_of m c main_v4 (by decide)).trans (V3_of m c main_v4 (by decide)), padded0 m c]
    rfl)

/-- Region 1 is entered with `main_v10` holding the table of relation 0, chunk 1. -/
theorem tbl_1 (c : Dev nD) : V7 m outs c main_v10 = tbl m 0 1 :=
  (slice_1 (V6 m outs c)).trans (by
    rw [(V6_of m outs c main_v4 (by decide)).trans <| (V5_of m c main_v4 (by decide)).trans <|
      (V4_of m c main_v4 (by decide)).trans (V3_of m c main_v4 (by decide)), padded0 m c]
    rfl)

end Cert.Kernel.Hand

end
-- ==== Proof.K.TablesVRest.lean ====
/-
  The other thirty gather regions' prefetched tables as the host operations leave them: at the valuation each region is
  entered from, its table buffer holds the table of its relation and chunk. Per relation and layer: the padded row over
  any contents, the edge-source array unchanged up to the stretch that takes the row, the padded row at its valuation;
  per region: the chunk's cut over any contents, and the padded row unchanged between its padding and that cut.
-/
import proofs.«414509_j14181982011419_2_alg».proof.Proof.K.TablesV

set_option maxRecDepth 2240

noncomputable section

namespace Cert.Kernel.Hand

open Cert.Kernel Cert.Kernel.Gen Cert.Kernel.GenP
open Idealize.ShloMosaic Idealize.ShloMosaic.TcCoe
open Idealize.ShloMosaic.StableHlo
open Idealize.SL.Sem

variable {F : FTy → Type} [FloatOps F]

/-! ## Over any contents: what a stretch leaves in the buffer it writes -/

/-- Two stretches leave relation 1's padded row in `main_v30`. -/
theorem padded_4 (W : Valuation τ sig (Elt F)) :
    StableHlo.after hostOps4_1 (StableHlo.after hostOps4 W) main_v30
      = padRow (W main_arg1 : (⟨S4x500000, .i32⟩ : BufTy).Contents (Elt F)) ![1, 0] slices_S4x500000_S1x500000_1_0 := by
  after_results
  rfl

/-- Two stretches leave relation 2's padded row in `main_v56`. -/
theorem padded_8 (W : Valuation τ sig (Elt F)) :
    StableHlo.after hostOps8_1 (StableHlo.after hostOps8 W) main_v56
      = padRow (W main_arg1 : (⟨S4x500000, .i32⟩ : BufTy).Contents (Elt F)) ![2, 0] slices_S4x500000_S1x500000_2_0 := by
  after_results
  rfl

/-- Two stretches leave relation 3's padded row in `main_v82`. -/
theorem padded_12 (W : Valuation τ sig (Elt F)) :
    StableHlo.after hostOps12_1 (StableHlo.after hostOps12 W) main_v82
      = padRow (W main_arg1 : (⟨S4x500000, .i32⟩ : BufTy).Contents (Elt F)) ![3, 0] slices_S4x500000_S1x500000_3_0 := by
  after_results
  rfl

/-- Two stretches leave relation 0's padded row in `main_v114`. -/
theorem padded_17 (W : Valuation τ sig (Elt F)) :
    StableHlo.after hostOps17_1 (StableHlo.after hostOps17 W) main_v114
      = padRow (W main_arg1 : (⟨S4x500000, .i32⟩ : BufTy).Contents (Elt F)) ![0, 0] slices_S4x500000_S1x500000_0_0 := by
  after_results
  rfl

/-- Two stretches leave relation 1's padded row in `main_v140`. -/
theorem padded_21 (W : Valuation τ sig (Elt F)) :
    StableHlo.after hostOps21_1 (StableHlo.after hostOps21 W) main_v140
      = padRow (W main_arg1 : (⟨S4x500000, .i32⟩ : BufTy).Contents (Elt F)) ![1, 0] slices_S4x500000_S1x500000_1_0 := by
  after_results
  rfl

/-- Two stretches leave relation 2's padded row in `main_v166`. -/
theorem padded_25 (W : Valuation τ sig (Elt F)) :
    StableHlo.after hostOps25_1 (StableHlo.after hostOps25 W) main_v166
      = padRow (W main_arg1 : (⟨S4x500000, .i32⟩ : BufTy).Contents (Elt F)) ![2, 0] slices_S4x500000_S1x500000_2_0 := by
  after_results
  rfl

/-- Two stretches leave relation 3's padded row in `main_v192`. -/
theorem padded_29 (W : Valuation τ sig (Elt F)) :
    StableHlo.after hostOps29_1 (StableHlo.after hostOps29 W) main_v192
      = padRow (W main_arg1 : (⟨S4x500000, .i32⟩ : BufTy).Contents (Elt F)) ![3, 0] slices_S4x500000_S1x500000_3_0 := by
  after_results
  rfl

/-- The stretch before region 2 cuts chunk 2 out of `main_v4` into `main_v13`. -/
theorem slice_2 (W : Valuation τ sig (Elt F)) :
    StableHlo.after hostOps2 W main_v13
      = extractStridedSlice S131072 ![262144] (W main_v4 : (⟨S524288, .i32⟩ : BufTy).Contents (Elt F)) slices_S524288_S131072_262144 := by
  after_results

/-- The stretch before region 3 cuts chunk 3 out of `main_v4` into `main_v16`. -/
theorem slice_3 (W : Valuation τ sig (Elt F)) :
    StableHlo.after hostOps3 W main_v16
      = extractStridedSlice S131072 ![393216] (W main_v4 : (⟨S524288, .i32⟩ : BufTy).Contents (Elt F)) slices_S524288_S131072_393216 := by
  after_results

/-- The stretch before region 4 cuts chunk 0 out of `main_v30` into `main_v33`. -/
theorem slice_4 (W : Valuation τ sig (Elt F)) :
    StableHlo.after hostOps4_4 W main_v33
      = extractStridedSlice S131072 ![0] (W main_v30 : (⟨S524288, .i32⟩ : BufTy).Contents (Elt F)) slices_S524288_S131072_0 := by
  after_results

/-- The stretch before region 5 cuts chunk 1 out of `main_v30` into `main_v36`. -/
theorem slice_5 (W : Valuation τ sig (Elt F)) :
    StableHlo.after hostOps5 W main_v36
      = extractStridedSlice S131072 ![131072] (W main_v30 : (⟨S524288, .i32⟩ : BufTy).Contents (Elt F)) slices_S524288_S131072_131072 := by
  after_results

/-- The stretch before region 6 cuts chunk 2 out of `main_v30` into `main_v39`. -/
theorem slice_6 (W : Valuation τ sig (Elt F)) :
    StableHlo.after hostOps6 W main_v39
      = extractStridedSlice S131072 ![262144] (W main_v30 : (⟨S524288, .i32⟩ : BufTy).Contents (Elt F)) slices_S524288_S131072_262144 := by
  after_results

/-- The stretch before region 7 cuts chunk 3 out of `main_v30` into `main_v42`. -/
theorem slice_7 (W : Valuation τ sig (Elt F)) :
    StableHlo.after hostOps7 W main_v42
      = extractStridedSlice S131072 ![393216] (W main_v30 : (⟨S524288, .i32⟩ : BufTy).Contents (Elt F)) slices_S524288_S131072_393216 := by
  after_results

/-- The stretch before region 8 cuts chunk 0 out of `main_v56` into `main_v59`. -/
theorem slice_8 (W : Valuation τ sig (Elt F)) :
    StableHlo.after hostOps8_4 W main_v59
      = extractStridedSlice S131072 ![0] (W main_v56 : (⟨S524288, .i32⟩ : BufTy).Contents (Elt F)) slices_S524288_S131072_0 := by
  after_results

/-- The stretch before region 9 cuts chunk 1 out of `main_v56` into `main_v62`. -/
theorem slice_9 (W : Valuation τ sig (Elt F)) :
    StableHlo.after hostOps9 W main_v62
      = extractStridedSlice S131072 ![131072] (W main_v56 : (⟨S524288, .i32⟩ : BufTy).Contents (Elt F)) slices_S524288_S131072_131072 := by
  after_results

/-- The stretch before region 10 cuts chunk 2 out of `main_v56` into `main_v65`. -/
theorem slice_10 (W : Valuation τ sig (Elt F)) :
    StableHlo.after hostOps10 W main_v65
      = extractStridedSlice S131072 ![262144] (W main_v56 : (⟨S524288, .i32⟩ : BufTy).Contents (Elt F)) slices_S524288_S131072_262144 := by
  after_results

/-- The stretch before region 11 cuts chunk 3 out of `main_v56` into `main_v68`. -/
theorem slice_11 (W : Valuation τ sig (Elt F)) :
    StableHlo.after hostOps11 W main_v68
      = extractStridedSlice S131072 ![393216] (W main_v56 : (⟨S524288, .i32⟩ : BufTy).Contents (Elt F)) slices_S524288_S131072_393216 := by
  after_results

/-- The stretch before region 12 cuts chunk 0 out of `main_v82` into `main_v85`. -/
theorem slice_12 (W : Valuation τ sig (Elt F)) :
    StableHlo.after hostOps12_4 W main_v85
      = extractStridedSlice S131072 ![0] (W main_v82 : (⟨S524288, .i32⟩ : BufTy).Contents (Elt F)) slices_S524288_S131072_0 := by
  after_results

/-- The stretch before region 13 cuts chunk 1 out of `main_v82` into `main_v88`. -/
theorem slice_13 (W : Valuation τ sig (Elt F)) :
    StableHlo.after hostOps13 W main_v88
      = extractStridedSlice S131072 ![131072] (W main_v82 : (⟨S524288, .i32⟩ : BufTy).Contents (Elt F)) slices_S524288_S131072_131072 := by
  after_results

/-- The stretch before region 14 cuts chunk 2 out of `main_v82` into `main_v91`. -/
theorem slice_14 (W : Valuation τ sig (Elt F)) :
    StableHlo.after hostOps14 W main_v91
      = extractStridedSlice S131072 ![262144] (W main_v82 : (⟨S524288, .i32⟩ : BufTy).Contents (Elt F)) slices_S524288_S131072_262144 := by
  after_results

/-- The stretch before region 15 cuts chunk 3 out of `main_v82` into `main_v94`. -/
theorem slice_15 (W : Valuation τ sig (Elt F)) :
    StableHlo.after hostOps15 W main_v94
      = extractStridedSlice S131072 ![393216] (W main_v82 : (⟨S524288, .i32⟩ : BufTy).Contents (Elt F)) slices_S524288_S131072_393216 := by
  after_results

/-- The stretch before region 17 cuts chunk 0 out of `main_v114` into `main_v117`. -/
theorem slice_17 (W : Valuation τ sig (Elt F)) :
    StableHlo.after hostOps17_4 W main_v117
      = extractStridedSlice S131072 ![0] (W main_v114 : (⟨S524288, .i32⟩ : BufTy).Contents (Elt F)) slices_S524288_S131072_0 := by
  after_results

/-- The stretch before region 18 cuts chunk 1 out of `main_v114` into `main_v120`. -/
theorem slice_18 (W : Valuation τ sig (Elt F)) :
    StableHlo.after hostOps18 W main_v120
      = extractStridedSlice S131072 ![131072] (W main_v114 : (⟨S524288, .i32⟩ : BufTy).Contents (Elt F)) slices_S524288_S131072_131072 := by
  after_results

/-- The stretch before region 19 cuts chunk 2 out of `main_v114` into `main_v123`. -/
theorem slice_19 (W : Valuation τ sig (Elt F)) :
    StableHlo.after hostOps19 W main_v123
      = extractStridedSlice S131072 ![262144] (W main_v114 : (⟨S524288, .i32⟩ : BufTy).Contents (Elt F)) slices_S524288_S131072_262144 := by
  after_results

/-- The stretch before region 20 cuts chunk 3 out of `main_v114` into `main_v126`. -/
theorem slice_20 (W : Valuation τ sig (Elt F)) :
    StableHlo.after hostOps20 W main_v126
      = extractStridedSlice S131072 ![393216] (W main_v114 : (⟨S524288, .i32⟩ : BufTy).Contents (Elt F)) slices_S524288_S131072_393216 := by
  after_results

/-- The stretch before region 21 cuts chunk 0 out of `main_v140` into `main_v143`. -/
theorem slice_21 (W : Valuation τ sig (Elt F)) :
    StableHlo.after hostOps21_4 W main_v143
      = extractStridedSlice S131072 ![0] (W main_v140 : (⟨S524288, .i32⟩ : BufTy).Contents (Elt F)) slices_S524288_S131072_0 := by
  after_results

/-- The stretch before region 22 cuts chunk 1 out of `main_v140` into `main_v146`. -/
theorem slice_22 (W : Valuation τ sig (Elt F)) :
    StableHlo.after hostOps22 W main_v146
      = extractStridedSlice S131072 ![131072] (W main_v140 : (⟨S524288, .i32⟩ : BufTy).Contents (Elt F)) slices_S524288_S131072_131072 := by
  after_results

/-- The stretch before region 23 cuts chunk 2 out of `main_v140` into `main_v149`. -/
theorem slice_23 (W : Valuation τ sig (Elt F)) :
    StableHlo.after hostOps23 W main_v149
      = extractStridedSlice S131072 ![262144] (W main_v140 : (⟨S524288, .i32⟩ : BufTy).Contents (Elt F)) slices_S524288_S131072_262144 := by
  after_results

/-- The stretch before region 24 cuts chunk 3 out of `main_v140` into `main_v152`. -/
theorem slice_24 (W : Valuation τ sig (Elt F)) :
    StableHlo.after hostOps24 W main_v152
      = extractStridedSlice S131072 ![393216] (W main_v140 : (⟨S524288, .i32⟩ : BufTy).Contents (Elt F)) slices_S524288_S131072_393216 := by
  after_results

/-- The stretch before region 25 cuts chunk 0 out of `main_v166` into `main_v169`. -/
theorem slice_25 (W : Valuation τ sig (Elt F)) :
    StableHlo.after hostOps25_4 W main_v169
      = extractStridedSlice S131072 ![0] (W main_v166 : (⟨S524288, .i32⟩ : BufTy).Contents (Elt F)) slices_S524288_S131072_0 := by
  after_results

/-- The stretch before region 26 cuts chunk 1 out of `main_v166` into `main_v172`. -/
theorem slice_26 (W : Valuation τ sig (Elt F)) :
    StableHlo.after hostOps26 W main_v172
      = extractStridedSlice S131072 ![131072] (W main_v166 : (⟨S524288, .i32⟩ : BufTy).Contents (Elt F)) slices_S524288_S131072_131072 := by
  after_results

/-- The stretch before region 27 cuts chunk 2 out of `main_v166` into `main_v175`. -/
theorem slice_27 (W : Valuation τ sig (Elt F)) :
    StableHlo.after hostOps27 W main_v175
      = extractStridedSlice S131072 ![262144] (W main_v166 : (⟨S524288, .i32⟩ : BufTy).Contents (Elt F)) slices_S524288_S131072_262144 := by
  after_results

/-- The stretch before region 28 cuts chunk 3 out of `main_v166` into `main_v178`. -/
theorem slice_28 (W : Valuation τ sig (Elt F)) :
    StableHlo.after hostOps28 W main_v178
      = extractStridedSlice S131072 ![393216] (W main_v166 : (⟨S524288, .i32⟩ : BufTy).Contents (Elt F)) slices_S524288_S131072_393216 := by
  after_results

/-- The stretch before region 29 cuts chunk 0 out of `main_v192` into `main_v195`. -/
theorem slice_29 (W : Valuation τ sig (Elt F)) :
    StableHlo.after hostOps29_4 W main_v195
      = extractStridedSlice S131072 ![0] (W main_v192 : (⟨S524288, .i32⟩ : BufTy).Contents (Elt F)) slices_S524288_S131072_0 := by
  after_results

/-- The stretch before region 30 cuts chunk 1 out of `main_v192` into `main_v198`. -/
theorem slice_30 (W : Valuation τ sig (Elt F)) :
    StableHlo.after hostOps30 W main_v198
      = extractStridedSlice S131072 ![131072] (W main_v192 : (⟨S524288, .i32⟩ : BufTy).Contents (Elt F)) slices_S524288_S131072_131072 := by
  after_results

/-- The stretch before region 31 cuts chunk 2 out of `main_v192` into `main_v201`. -/
theorem slice_31 (W : Valuation τ sig (Elt F)) :
    StableHlo.after hostOps31 W main_v201
      = extractStridedSlice S131072 ![262144] (W main_v192 : (⟨S524288, .i32⟩ : BufTy).Contents (Elt F)) slices_S524288_S131072_262144 := by
  after_results

/-- The stretch before region 32 cuts chunk 3 out of `main_v192` into `main_v204`. -/
theorem slice_32 (W : Valuation τ sig (Elt F)) :
    StableHlo.after hostOps32 W main_v204
      = extractStridedSlice S131072 ![393216] (W main_v192 : (⟨S524288, .i32⟩ : BufTy).Contents (Elt F)) slices_S524288_S131072_393216 := by
  after_results

variable (m : (ℓ : Loc nD τ sig) → Buf (Elt F) ℓ) (outs : Outs (F := F))

/-! ## The edge-source array is the launch memory's at every valuation up to the last stretch that takes a row -/

theorem arg1_1 (c : Dev nD) : V1 m c main_arg1 = src m := (V1_of m c main_arg1 (by decide)).trans (arg1_0 m c)
theorem arg1_2 (c : Dev nD) : V2 m c main_arg1 = src m := (V2_of m c main_arg1 (by decide)).trans (arg1_1 m c)
theorem arg1_3 (c : Dev nD) : V3 m c main_arg1 = src m := (V3_of m c main_arg1 (by decide)).trans (arg1_2 m c)
theorem arg1_4 (c : Dev nD) : V4 m c main_arg1 = src m := (V4_of m c main_arg1 (by decide)).trans (arg1_3 m c)
theorem arg1_5 (c : Dev nD) : V5 m c main_arg1 = src m := (V5_of m c main_arg1 (by decide)).trans (arg1_4 m c)
theorem arg1_6 (c : Dev nD) : V6 m outs c main_arg1 = src m := (V6_of m outs c main_arg1 (by decide)).trans (arg1_5 m c)
theorem arg1_7 (c : Dev nD) : V7 m outs c main_arg1 = src m := (V7_of m outs c main_arg1 (by decide)).trans (arg1_6 m outs c)
theorem arg1_8 (c : Dev nD) : V8 m outs c main_arg1 = src m := (V8_of m outs c main_arg1 (by decide)).trans (arg1_7 m outs c)
theorem arg1_9 (c : Dev nD) : V9 m outs c main_arg1 = src m := (V9_of m outs c main_arg1 (by decide)).trans (arg1_8 m outs c)
theorem arg1_10 (c : Dev nD) : V10 m outs c main_arg1 = src m := (V10_of m outs c main_arg1 (by decide)).trans (arg1_9 m outs c)
theorem arg1_11 (c : Dev nD) : V11 m outs c main_arg1 = src m := (V11_of m outs c main_arg1 (by decide)).trans (arg1_10 m outs c)
theorem arg1_12 (c : Dev nD) : V12 m outs c main_arg1 = src m := (V12_of m outs c main_arg1 (by decide)).trans (arg1_11 m outs c)
theorem arg1_13 (c : Dev nD) : V13 m outs c main_arg1 = src m := (V13_of m outs c main_arg1 (by decide)).trans (arg1_12 m outs c)
theorem arg1_14 (c : Dev nD) : V14 m outs c main_arg1 = src m := (V14_of m outs c main_arg1 (by decide)).trans (arg1_13 m outs c)
theorem arg1_15 (c : Dev nD) : V15 m outs c main_arg1 = src m := (V15_of m outs c main_arg1 (by decide)).trans (arg1_14 m outs c)
theorem arg1_16 (c : Dev nD) : V16 m outs c main_arg1 = src m := (V16_of m outs c main_arg1 (by decide)).trans (arg1_15 m outs c)
theorem arg1_17 (c : Dev nD) : V17 m outs c main_arg1 = src m := (V17_of m outs c main_arg1 (by decide)).trans (arg1_16 m outs c)
theorem arg1_18 (c : Dev nD) : V18 m outs c main_arg1 = src m := (V18_of m outs c main_arg1 (by decide)).trans (arg1_17 m outs c)
theorem arg1_19 (c : Dev nD) : V19 m outs c main_arg1 = src m := (V19_of m outs c main_arg1 (by decide)).trans (arg1_18 m outs c)
theorem arg1_20 (c : Dev nD) : V20 m outs c main_arg1 = src m := (V20_of m outs c main_arg1 (by decide)).trans (arg1_19 m outs c)
theorem arg1_21 (c : Dev nD) : V21 m outs c main_arg1 = src m := (V21_of m outs c main_arg1 (by decide)).trans (arg1_20 m outs c)
theorem arg1_22 (c : Dev nD) : V22 m outs c main_arg1 = src m := (V22_of m outs c main_arg1 (by decide)).trans (arg1_21 m outs c)
theorem arg1_23 (c : Dev nD) : V23 m outs c main_arg1 = src m := (V23_of m outs c main_arg1 (by decide)).trans (arg1_22 m outs c)
theorem arg1_24 (c : Dev nD) : V24 m outs c main_arg1 = src m := (V24_of m outs c main_arg1 (by decide)).trans (arg1_23 m outs c)
theorem arg1_25 (c : Dev nD) : V25 m outs c main_arg1 = src m := (V25_of m outs c main_arg1 (by decide)).trans (arg1_24 m outs c)
theorem arg1_26 (c : Dev nD) : V26 m outs c main_arg1 = src m := (V26_of m outs c main_arg1 (by decide)).trans (arg1_25 m outs c)
theorem arg1_27 (c : Dev nD) : V27 m outs c main_arg1 = src m := (V27_of m outs c main_arg1 (by decide)).trans (arg1_26 m outs c)
theorem arg1_28 (c : Dev nD) : V28 m outs c main_arg1 = src m := (V28_of m outs c main_arg1 (by decide)).trans (arg1_27 m outs c)
theorem arg1_29 (c : Dev nD) : V29 m outs c main_arg1 = src m := (V29_of m outs c main_arg1 (by decide)).trans (arg1_28 m outs c)
theorem arg1_30 (c : Dev nD) : V30 m outs c main_arg1 = src m := (V30_of m outs c main_arg1 (by decide)).trans (arg1_29 m outs c)
theorem arg1_31 (c : Dev nD) : V31 m outs c main_arg1 = src m := (V31_of m outs c main_arg1 (by decide)).trans (arg1_30 m outs c)
theorem arg1_32 (c : Dev nD) : V32 m outs c main_arg1 = src m := (V32_of m outs c main_arg1 (by decide)).trans (arg1_31 m outs c)
theorem arg1_33 (c : Dev nD) : V33 m outs c main_arg1 = src m := (V33_of m outs c main_arg1 (by decide)).trans (arg1_32 m outs c)
theorem arg1_34 (c : Dev nD) : V34 m outs c main_arg1 = src m := (V34_of m outs c main_arg1 (by decide)).trans (arg1_33 m outs c)
theorem arg1_35 (c : Dev nD) : V35 m outs c main_arg1 = src m := (V35_of m outs c main_arg1 (by decide)).trans (arg1_34 m outs c)
theorem arg1_36 (c : Dev nD) : V36 m outs c main_arg1 = src m := (V36_of m outs c main_arg1 (by decide)).trans (arg1_35 m outs c)
theorem arg1_37 (c : Dev nD) : V37 m outs c main_arg1 = src m := (V37_of m outs c main_arg1 (by decide)).trans (arg1_36 m outs c)
theorem arg1_38 (c : Dev nD) : V38 m outs c main_arg1 = src m := (V38_of m outs c main_arg1 (by decide)).trans (arg1_37 m outs c)
theorem arg1_39 (c : Dev nD) : V39 m outs c main_arg1 = src m := (V39_of m outs c main_arg1 (by decide)).trans (arg1_38 m outs c)
theorem arg1_40 (c : Dev nD) : V40 m outs c main_arg1 = src m := (V40_of m outs c main_arg1 (by decide)).trans (arg1_39 m outs c)
theorem arg1_41 (c : Dev nD) : V41 m outs c main_arg1 = src m := (V41_of m outs c main_arg1 (by decide)).trans (arg1_40 m outs c)
theorem arg1_42 (c : Dev nD) : V42 m outs c main_arg1 = src m := (V42_of m outs c main_arg1 (by decide)).trans (arg1_41 m outs c)
theorem arg1_43 (c : Dev nD) : V43 m outs c main_arg1 = src m := (V43_of m outs c main_arg1 (by decide)).trans (arg1_42 m outs c)
theorem arg1_44 (c : Dev nD) : V44 m outs c main_arg1 = src m := (V44_of m outs c main_arg1 (by decide)).trans (arg1_43 m outs c)
theorem arg1_45 (c : Dev nD) : V45 m outs c main_arg1 = src m := (V45_of m outs c main_arg1 (by decide)).trans (arg1_44 m outs c)
theorem arg1_46 (c : Dev nD) : V46 m outs c main_arg1 = src m := (V46_of m outs c main_arg1 (by decide)).trans (arg1_45 m outs c)
theorem arg1_47 (c : Dev nD) : V47 m outs c main_arg1 = src m := (V47_of m outs c main_arg1 (by decide)).trans (arg1_46 m outs c)
theorem arg1_48 (c : Dev nD) : V48 m outs c main_arg1 = src m := (V48_of m outs c main_arg1 (by decide)).trans (arg1_47 m outs c)
theorem arg1_49 (c : Dev nD) : V49 m outs c main_arg1 = src m := (V49_of m outs c main_arg1 (by decide)).trans (arg1_48 m outs c)
theorem arg1_50 (c : Dev nD) : V50 m outs c main_arg1 = src m := (V50_of m outs c main_arg1 (by decide)).trans (arg1_49 m outs c)
theorem arg1_51 (c : Dev nD) : V51 m outs c main_arg1 = src m := (V51_of m outs c main_arg1 (by decide)).trans (arg1_50 m outs c)
theorem arg1_52 (c : Dev nD) : V52 m outs c main_arg1 = src m := (V52_of m outs c main_arg1 (by decide)).trans (arg1_51 m outs c)
theorem arg1_53 (c : Dev nD) : V53 m outs c main_arg1 = src m := (V53_of m outs c main_arg1 (by decide)).trans (arg1_52 m outs c)
theorem arg1_54 (c : Dev nD) : V54 m outs c main_arg1 = src m := (V54_of m outs c main_arg1 (by decide)).trans (arg1_53 m outs c)
theorem arg1_55 (c : Dev nD) : V55 m outs c main_arg1 = src m := (V55_of m outs c main_arg1 (by decide)).trans (arg1_54 m outs c)
theorem arg1_56 (c : Dev nD) : V56 m outs c main_arg1 = src m := (V56_of m outs c main_arg1 (by decide)).trans (arg1_55 m outs c)
theorem arg1_57 (c : Dev nD) : V57 m outs c main_arg1 = src m := (V57_of m outs c main_arg1 (by decide)).trans (arg1_56 m outs c)
theorem arg1_58 (c : Dev nD) : V58 m outs c main_arg1 = src m := (V58_of m outs c main_arg1 (by decide)).trans (arg1_57 m outs c)
theorem arg1_59 (c : Dev nD) : V59 m outs c main_arg1 = src m := (V59_of m outs c main_arg1 (by decide)).trans (arg1_58 m outs c)
theorem arg1_60 (c : Dev nD) : V60 m outs c main_arg1 = src m := (V60_of m outs c main_arg1 (by decide)).trans (arg1_59 m outs c)
theorem arg1_61 (c : Dev nD) : V61 m outs c main_arg1 = src m := (V61_of m outs c main_arg1 (by decide)).trans (arg1_60 m outs c)
theorem arg1_62 (c : Dev nD) : V62 m outs c main_arg1 = src m := (V62_of m outs c main_arg1 (by decide)).trans (arg1_61 m outs c)
theorem arg1_63 (c : Dev nD) : V63 m outs c main_arg1 = src m := (V63_of m outs c main_arg1 (by decide)).trans (arg1_62 m outs c)
theorem arg1_64 (c : Dev nD) : V64 m outs c main_arg1 = src m := (V64_of m outs c main_arg1 (by decide)).trans (arg1_63 m outs c)
theorem arg1_65 (c : Dev nD) : V65 m outs c main_arg1 = src m := (V65_of m outs c main_arg1 (by decide)).trans (arg1_64 m outs c)
theorem arg1_66 (c : Dev nD) : V66 m outs c main_arg1 = src m := (V66_of m outs c main_arg1 (by decide)).trans (arg1_65 m outs c)
theorem arg1_67 (c : Dev nD) : V67 m outs c main_arg1 = src m := (V67_of m outs c main_arg1 (by decide)).trans (arg1_66 m outs c)
theorem arg1_68 (c : Dev nD) : V68 m outs c main_arg1 = src m := (V68_of m outs c main_arg1 (by decide)).trans (arg1_67 m outs c)
theorem arg1_69 (c : Dev nD) : V69 m outs c main_arg1 = src m := (V69_of m outs c main_arg1 (by decide)).trans (arg1_68 m outs c)
theorem arg1_70 (c : Dev nD) : V70 m outs c main_arg1 = src m := (V70_of m outs c main_arg1 (by decide)).trans (arg1_69 m outs c)
theorem arg1_71 (c : Dev nD) : V71 m outs c main_arg1 = src m := (V71_of m outs c main_arg1 (by decide)).trans (arg1_70 m outs c)
theorem arg1_72 (c : Dev nD) : V72 m outs c main_arg1 = src m := (V72_of m outs c main_arg1 (by decide)).trans (arg1_71 m outs c)
theorem arg1_73 (c : Dev nD) : V73 m outs c main_arg1 = src m := (V73_of m outs c main_arg1 (by decide)).trans (arg1_72 m outs c)
theorem arg1_74 (c : Dev nD) : V74 m outs c main_arg1 = src m := (V74_of m outs c main_arg1 (by decide)).trans (arg1_73 m outs c)
theorem arg1_75 (c : Dev nD) : V75 m outs c main_arg1 = src m := (V75_of m outs c main_arg1 (by decide)).trans (arg1_74 m outs c)
theorem arg1_76 (c : Dev nD) : V76 m outs c main_arg1 = src m := (V76_of m outs c main_arg1 (by decide)).trans (arg1_75 m outs c)
theorem arg1_77 (c : Dev nD) : V77 m outs c main_arg1 = src m := (V77_of m outs c main_arg1 (by decide)).trans (arg1_76 m outs c)
theorem arg1_78 (c : Dev nD) : V78 m outs c main_arg1 = src m := (V78_of m outs c main_arg1 (by decide)).trans (arg1_77 m outs c)
theorem arg1_79 (c : Dev nD) : V79 m outs c main_arg1 = src m := (V79_of m outs c main_arg1 (by decide)).trans (arg1_78 m outs c)
theorem arg1_80 (c : Dev nD) : V80 m outs c main_arg1 = src m := (V80_of m outs c main_arg1 (by decide)).trans (arg1_79 m outs c)
theorem arg1_81 (c : Dev nD) : V81 m outs c main_arg1 = src m := (V81_of m outs c main_arg1 (by decide)).trans (arg1_80 m outs c)
theorem arg1_82 (c : Dev nD) : V82 m outs c main_arg1 = src m := (V82_of m outs c main_arg1 (by decide)).trans (arg1_81 m outs c)
theorem arg1_83 (c : Dev nD) : V83 m outs c main_arg1 = src m := (V83_of m outs c main_arg1 (by decide)).trans (arg1_82 m outs c)
theorem arg1_84 (c : Dev nD) : V84 m outs c main_arg1 = src m := (V84_of m outs c main_arg1 (by decide)).trans (arg1_83 m outs c)
theorem arg1_85 (c : Dev nD) : V85 m outs c main_arg1 = src m := (V85_of m outs c main_arg1 (by decide)).trans (arg1_84 m outs c)
theorem arg1_86 (c : Dev nD) : V86 m outs c main_arg1 = src m := (V86_of m outs c main_arg1 (by decide)).trans (arg1_85 m outs c)

/-! ## The padded rows at their valuations -/

/-- After the padding function's stretch `main_v30` holds relation 1's padded row. -/
theorem padded4 (c : Dev nD) : V14 m outs c main_v30 = padRow (src m) ![1, 0] slices_S4x500000_S1x500000_1_0 :=
  (padded_4 (V12 m outs c)).trans (by rw [arg1_12 m outs c])

/-- After the padding function's stretch `main_v56` holds relation 2's padded row. -/
theorem padded8 (c : Dev nD) : V26 m outs c main_v56 = padRow (src m) ![2, 0] slices_S4x500000_S1x500000_2_0 :=
  (padded_8 (V24 m outs c)).trans (by rw [arg1_24 m outs c])

/-- After the padding function's stretch `main_v82` holds relation 3's padded row. -/
theorem padded12 (c : Dev nD) : V38 m outs c main_v82 = padRow (src m) ![3, 0] slices_S4x500000_S1x500000_3_0 :=
  (padded_12 (V36 m outs c)).trans (by rw [arg1_36 m outs c])

/-- After the padding function's stretch `main_v114` holds relation 0's padded row. -/
theorem padded17 (c : Dev nD) : V52 m outs c main_v114 = padRow (src m) ![0, 0] slices_S4x500000_S1x500000_0_0 :=
  (padded_17 (V50 m outs c)).trans (by rw [arg1_50 m outs c])

/-- After the padding function's stretch `main_v140` holds relation 1's padded row. -/
theorem padded21 (c : Dev nD) : V64 m outs c main_v140 = padRow (src m) ![1, 0] slices_S4x500000_S1x500000_1_0 :=
  (padded_21 (V62 m outs c)).trans (by rw [arg1_62 m outs c])

/-- After the padding function's stretch `main_v166` holds relation 2's padded row. -/
theorem padded25 (c : Dev nD) : V76 m outs c main_v166 = padRow (src m) ![2, 0] slices_S4x500000_S1x500000_2_0 :=
  (padded_25 (V74 m outs c)).trans (by rw [arg1_74 m outs c])

/-- After the padding function's stretch `main_v192` holds relation 3's padded row. -/
theorem padded29 (c : Dev nD) : V88 m outs c main_v192 = padRow (src m) ![3, 0] slices_S4x500000_S1x500000_3_0 :=
  (padded_29 (V86 m outs c)).trans (by rw [arg1_86 m outs c])

/-! ## The tables at the valuations the regions are entered from -/

/-- Region 2 is entered with `main_v13` holding the table of relation 0, chunk 2. -/
theorem tbl_2 (c : Dev nD) : V9 m outs c main_v13 = tbl m 0 2 :=
  (slice_2 (V8 m outs c)).trans (by
    rw [(V8_of m outs c main_v4 (by decide)).trans <| (V7_of m outs c main_v4 (by decide)).trans <| (V6_of m outs c main_v4 (by decide)).trans <| (V5_of m c main_v4 (by decide)).trans <| (V4_of m c main_v4 (by decide)).trans <| (V3_of m c main_v4 (by decide)), padded0 m c]
    rfl)

/-- Region 3 is entered with `main_v16` holding the table of relation 0, chunk 3. -/
theorem tbl_3 (c : Dev nD) : V11 m outs c main_v16 = tbl m 0 3 :=
  (slice_3 (V10 m outs c)).trans (by
    rw [(V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m c main_v4 (by decide)).trans <| (V4_of m c main_v4 (by decide)).trans <| (V3_of m c main_v4 (by decide)), padded0 m c]
    rfl)

/-- Region 4 is entered with `main_v33` holding the table of relation 1, chunk 0. -/
theorem tbl_4 (c : Dev nD) : V17 m outs c main_v33 = tbl m 1 0 :=
  (slice_4 (V16 m outs c)).trans (by
    rw [(V16_of m outs c main_v30 (by decide)).trans <| (V15_of m outs c main_v30 (by decide)), padded4 m outs c]
    rfl)

/-- Region 5 is entered with `main_v36` holding the table of relation 1, chunk 1. -/
theorem tbl_5 (c : Dev nD) : V19 m outs c main_v36 = tbl m 1 1 :=
  (slice_5 (V18 m outs c)).trans (by
    rw [(V18_of m outs c main_v30 (by decide)).trans <| (V17_of m outs c main_v30 (by decide)).trans <| (V16_of m outs c main_v30 (by decide)).trans <| (V15_of m outs c main_v30 (by decide)), padded4 m outs c]
    rfl)

/-- Region 6 is entered with `main_v39` holding the table of relation 1, chunk 2. -/
theorem tbl_6 (c : Dev nD) : V21 m outs c main_v39 = tbl m 1 2 :=
  (slice_6 (V20 m outs c)).trans (by
    rw [(V20_of m outs c main_v30 (by decide)).trans <| (V19_of m outs c main_v30 (by decide)).trans <| (V18_of m outs c main_v30 (by decide)).trans <| (V17_of m outs c main_v30 (by decide)).trans <| (V16_of m outs c main_v30 (by decide)).trans <| (V15_of m outs c main_v30 (by decide)), padded4 m outs c]
    rfl)

/-- Region 7 is entered with `main_v42` holding the table of relation 1, chunk 3. -/
theorem tbl_7 (c : Dev nD) : V23 m outs c main_v42 = tbl m 1 3 :=
  (slice_7 (V22 m outs c)).trans (by
    rw [(V22_of m outs c main_v30 (by decide)).trans <| (V21_of m outs c main_v30 (by decide)).trans <| (V20_of m outs c main_v30 (by decide)).trans <| (V19_of m outs c main_v30 (by decide)).trans <| (V18_of m outs c main_v30 (by decide)).trans <| (V17_of m outs c main_v30 (by decide)).trans <| (V16_of m outs c main_v30 (by decide)).trans <| (V15_of m outs c main_v30 (by decide)), padded4 m outs c]
    rfl)

/-- Region 8 is entered with `main_v59` holding the table of relation 2, chunk 0. -/
theorem tbl_8 (c : Dev nD) : V29 m outs c main_v59 = tbl m 2 0 :=
  (slice_8 (V28 m outs c)).trans (by
    rw [(V28_of m outs c main_v56 (by decide)).trans <| (V27_of m outs c main_v56 (by decide)), padded8 m outs c]
    rfl)

/-- Region 9 is entered with `main_v62` holding the table of relation 2, chunk 1. -/
theorem tbl_9 (c : Dev nD) : V31 m outs c main_v62 = tbl m 2 1 :=
  (slice_9 (V30 m outs c)).trans (by
    rw [(V30_of m outs c main_v56 (by decide)).trans <| (V29_of m outs c main_v56 (by decide)).trans <| (V28_of m outs c main_v56 (by decide)).trans <| (V27_of m outs c main_v56 (by decide)), padded8 m outs c]
    rfl)

/-- Region 10 is entered with `main_v65` holding the table of relation 2, chunk 2. -/
theorem tbl_10 (c : Dev nD) : V33 m outs c main_v65 = tbl m 2 2 :=
  (slice_10 (V32 m outs c)).trans (by
    rw [(V32_of m outs c main_v56 (by decide)).trans <| (V31_of m outs c main_v56 (by decide)).trans <| (V30_of m outs c main_v56 (by decide)).trans <| (V29_of m outs c main_v56 (by decide)).trans <| (V28_of m outs c main_v56 (by decide)).trans <| (V27_of m outs c main_v56 (by decide)), padded8 m outs c]
    rfl)

/-- Region 11 is entered with `main_v68` holding the table of relation 2, chunk 3. -/
theorem tbl_11 (c : Dev nD) : V35 m outs c main_v68 = tbl m 2 3 :=
  (slice_11 (V34 m outs c)).trans (by
    rw [(V34_of m outs c main_v56 (by decide)).trans <| (V33_of m outs c main_v56 (by decide)).trans <| (V32_of m outs c main_v56 (by decide)).trans <| (V31_of m outs c main_v56 (by decide)).trans <| (V30_of m outs c main_v56 (by decide)).trans <| (V29_of m outs c main_v56 (by decide)).trans <| (V28_of m outs c main_v56 (by decide)).trans <| (V27_of m outs c main_v56 (by decide)), padded8 m outs c]
    rfl)

/-- Region 12 is entered with `main_v85` holding the table of relation 3, chunk 0. -/
theorem tbl_12 (c : Dev nD) : V41 m outs c main_v85 = tbl m 3 0 :=
  (slice_12 (V40 m outs c)).trans (by
    rw [(V40_of m outs c main_v82 (by decide)).trans <| (V39_of m outs c main_v82 (by decide)), padded12 m outs c]
    rfl)

/-- Region 13 is entered with `main_v88` holding the table of relation 3, chunk 1. -/
theorem tbl_13 (c : Dev nD) : V43 m outs c main_v88 = tbl m 3 1 :=
  (slice_13 (V42 m outs c)).trans (by
    rw [(V42_of m outs c main_v82 (by decide)).trans <| (V41_of m outs c main_v82 (by decide)).trans <| (V40_of m outs c main_v82 (by decide)).trans <| (V39_of m outs c main_v82 (by decide)), padded12 m outs c]
    rfl)

/-- Region 14 is entered with `main_v91` holding the table of relation 3, chunk 2. -/
theorem tbl_14 (c : Dev nD) : V45 m outs c main_v91 = tbl m 3 2 :=
  (slice_14 (V44 m outs c)).trans (by
    rw [(V44_of m outs c main_v82 (by decide)).trans <| (V43_of m outs c main_v82 (by decide)).trans <| (V42_of m outs c main_v82 (by decide)).trans <| (V41_of m outs c main_v82 (by decide)).trans <| (V40_of m outs c main_v82 (by decide)).trans <| (V39_of m outs c main_v82 (by decide)), padded12 m outs c]
    rfl)

/-- Region 15 is entered with `main_v94` holding the table of relation 3, chunk 3. -/
theorem tbl_15 (c : Dev nD) : V47 m outs c main_v94 = tbl m 3 3 :=
  (slice_15 (V46 m outs c)).trans (by
    rw [(V46_of m outs c main_v82 (by decide)).trans <| (V45_of m outs c main_v82 (by decide)).trans <| (V44_of m outs c main_v82 (by decide)).trans <| (V43_of m outs c main_v82 (by decide)).trans <| (V42_of m outs c main_v82 (by decide)).trans <| (V41_of m outs c main_v82 (by decide)).trans <| (V40_of m outs c main_v82 (by decide)).trans <| (V39_of m outs c main_v82 (by decide)), padded12 m outs c]
    rfl)

/-- Region 17 is entered with `main_v117` holding the table of relation 0, chunk 0. -/
theorem tbl_17 (c : Dev nD) : V55 m outs c main_v117 = tbl m 0 0 :=
  (slice_17 (V54 m outs c)).trans (by
    rw [(V54_of m outs c main_v114 (by decide)).trans <| (V53_of m outs c main_v114 (by decide)), padded17 m outs c]
    rfl)

/-- Region 18 is entered with `main_v120` holding the table of relation 0, chunk 1. -/
theorem tbl_18 (c : Dev nD) : V57 m outs c main_v120 = tbl m 0 1 :=
  (slice_18 (V56 m outs c)).trans (by
    rw [(V56_of m outs c main_v114 (by decide)).trans <| (V55_of m outs c main_v114 (by decide)).trans <| (V54_of m outs c main_v114 (by decide)).trans <| (V53_of m outs c main_v114 (by decide)), padded17 m outs c]
    rfl)

/-- Region 19 is entered with `main_v123` holding the table of relation 0, chunk 2. -/
theorem tbl_19 (c : Dev nD) : V59 m outs c main_v123 = tbl m 0 2 :=
  (slice_19 (V58 m outs c)).trans (by
    rw [(V58_of m outs c main_v114 (by decide)).trans <| (V57_of m outs c main_v114 (by decide)).trans <| (V56_of m outs c main_v114 (by decide)).trans <| (V55_of m outs c main_v114 (by decide)).trans <| (V54_of m outs c main_v114 (by decide)).trans <| (V53_of m outs c main_v114 (by decide)), padded17 m outs c]
    rfl)

/-- Region 20 is entered with `main_v126` holding the table of relation 0, chunk 3. -/
theorem tbl_20 (c : Dev nD) : V61 m outs c main_v126 = tbl m 0 3 :=
  (slice_20 (V60 m outs c)).trans (by
    rw [(V60_of m outs c main_v114 (by decide)).trans <| (V59_of m outs c main_v114 (by decide)).trans <| (V58_of m outs c main_v114 (by decide)).trans <| (V57_of m outs c main_v114 (by decide)).trans <| (V56_of m outs c main_v114 (by decide)).trans <| (V55_of m outs c main_v114 (by decide)).trans <| (V54_of m outs c main_v114 (by decide)).trans <| (V53_of m outs c main_v114 (by decide)), padded17 m outs c]
    rfl)

/-- Region 21 is entered with `main_v143` holding the table of relation 1, chunk 0. -/
theorem tbl_21 (c : Dev nD) : V67 m outs c main_v143 = tbl m 1 0 :=
  (slice_21 (V66 m outs c)).trans (by
    rw [(V66_of m outs c main_v140 (by decide)).trans <| (V65_of m outs c main_v140 (by decide)), padded21 m outs c]
    rfl)

/-- Region 22 is entered with `main_v146` holding the table of relation 1, chunk 1. -/
theorem tbl_22 (c : Dev nD) : V69 m outs c main_v146 = tbl m 1 1 :=
  (slice_22 (V68 m outs c)).trans (by
    rw [(V68_of m outs c main_v140 (by decide)).trans <| (V67_of m outs c main_v140 (by decide)).trans <| (V66_of m outs c main_v140 (by decide)).trans <| (V65_of m outs c main_v140 (by decide)), padded21 m outs c]
    rfl)

/-- Region 23 is entered with `main_v149` holding the table of relation 1, chunk 2. -/
theorem tbl_23 (c : Dev nD) : V71 m outs c main_v149 = tbl m 1 2 :=
  (slice_23 (V70 m outs c)).trans (by
    rw [(V70_of m outs c main_v140 (by decide)).trans <| (V69_of m outs c main_v140 (by decide)).trans <| (V68_of m outs c main_v140 (by decide)).trans <| (V67_of m outs c main_v140 (by decide)).trans <| (V66_of m outs c main_v140 (by decide)).trans <| (V65_of m outs c main_v140 (by decide)), padded21 m outs c]
    rfl)

/-- Region 24 is entered with `main_v152` holding the table of relation 1, chunk 3. -/
theorem tbl_24 (c : Dev nD) : V73 m outs c main_v152 = tbl m 1 3 :=
  (slice_24 (V72 m outs c)).trans (by
    rw [(V72_of m outs c main_v140 (by decide)).trans <| (V71_of m outs c main_v140 (by decide)).trans <| (V70_of m outs c main_v140 (by decide)).trans <| (V69_of m outs c main_v140 (by decide)).trans <| (V68_of m outs c main_v140 (by decide)).trans <| (V67_of m outs c main_v140 (by decide)).trans <| (V66_of m outs c main_v140 (by decide)).trans <| (V65_of m outs c main_v140 (by decide)), padded21 m outs c]
    rfl)

/-- Region 25 is entered with `main_v169` holding the table of relation 2, chunk 0. -/
theorem tbl_25 (c : Dev nD) : V79 m outs c main_v169 = tbl m 2 0 :=
  (slice_25 (V78 m outs c)).trans (by
    rw [(V78_of m outs c main_v166 (by decide)).trans <| (V77_of m outs c main_v166 (by decide)), padded25 m outs c]
    rfl)

/-- Region 26 is entered with `main_v172` holding the table of relation 2, chunk 1. -/
theorem tbl_26 (c : Dev nD) : V81 m outs c main_v172 = tbl m 2 1 :=
  (slice_26 (V80 m outs c)).trans (by
    rw [(V80_of m outs c main_v166 (by decide)).trans <| (V79_of m outs c main_v166 (by decide)).trans <| (V78_of m outs c main_v166 (by decide)).trans <| (V77_of m outs c main_v166 (by decide)), padded25 m outs c]
    rfl)

/-- Region 27 is entered with `main_v175` holding the table of relation 2, chunk 2. -/
theorem tbl_27 (c : Dev nD) : V83 m outs c main_v175 = tbl m 2 2 :=
  (slice_27 (V82 m outs c)).trans (by
    rw [(V82_of m outs c main_v166 (by decide)).trans <| (V81_of m outs c main_v166 (by decide)).trans <| (V80_of m outs c main_v166 (by decide)).trans <| (V79_of m outs c main_v166 (by decide)).trans <| (V78_of m outs c main_v166 (by decide)).trans <| (V77_of m outs c main_v166 (by decide)), padded25 m outs c]
    rfl)

/-- Region 28 is entered with `main_v178` holding the table of relation 2, chunk 3. -/
theorem tbl_28 (c : Dev nD) : V85 m outs c main_v178 = tbl m 2 3 :=
  (slice_28 (V84 m outs c)).trans (by
    rw [(V84_of m outs c main_v166 (by decide)).trans <| (V83_of m outs c main_v166 (by decide)).trans <| (V82_of m outs c main_v166 (by decide)).trans <| (V81_of m outs c main_v166 (by decide)).trans <| (V80_of m outs c main_v166 (by decide)).trans <| (V79_of m outs c main_v166 (by decide)).trans <| (V78_of m outs c main_v166 (by decide)).trans <| (V77_of m outs c main_v166 (by decide)), padded25 m outs c]
    rfl)

/-- Region 29 is entered with `main_v195` holding the table of relation 3, chunk 0. -/
theorem tbl_29 (c : Dev nD) : V91 m outs c main_v195 = tbl m 3 0 :=
  (slice_29 (V90 m outs c)).trans (by
    rw [(V90_of m outs c main_v192 (by decide)).trans <| (V89_of m outs c main_v192 (by decide)), padded29 m outs c]
    rfl)

/-- Region 30 is entered with `main_v198` holding the table of relation 3, chunk 1. -/
theorem tbl_30 (c : Dev nD) : V93 m outs c main_v198 = tbl m 3 1 :=
  (slice_30 (V92 m outs c)).trans (by
    rw [(V92_of m outs c main_v192 (by decide)).trans <| (V91_of m outs c main_v192 (by decide)).trans <| (V90_of m outs c main_v192 (by decide)).trans <| (V89_of m outs c main_v192 (by decide)), padded29 m outs c]
    rfl)

/-- Region 31 is entered with `main_v201` holding the table of relation 3, chunk 2. -/
theorem tbl_31 (c : Dev nD) : V95 m outs c main_v201 = tbl m 3 2 :=
  (slice_31 (V94 m outs c)).trans (by
    rw [(V94_of m outs c main_v192 (by decide)).trans <| (V93_of m outs c main_v192 (by decide)).trans <| (V92_of m outs c main_v192 (by decide)).trans <| (V91_of m outs c main_v192 (by decide)).trans <| (V90_of m outs c main_v192 (by decide)).trans <| (V89_of m outs c main_v192 (by decide)), padded29 m outs c]
    rfl)

/-- Region 32 is entered with `main_v204` holding the table of relation 3, chunk 3. -/
theorem tbl_32 (c : Dev nD) : V97 m outs c main_v204 = tbl m 3 3 :=
  (slice_32 (V96 m outs c)).trans (by
    rw [(V96_of m outs c main_v192 (by decide)).trans <| (V95_of m outs c main_v192 (by decide)).trans <| (V94_of m outs c main_v192 (by decide)).trans <| (V93_of m outs c main_v192 (by decide)).trans <| (V92_of m outs c main_v192 (by decide)).trans <| (V91_of m outs c main_v192 (by decide)).trans <| (V90_of m outs c main_v192 (by decide)).trans <| (V89_of m outs c main_v192 (by decide)), padded29 m outs c]
    rfl)

end Cert.Kernel.Hand

end
-- ==== Proof.K.GatherDat0.lean ====
/-
  Gather region 0 (custom_call 0): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem0 : Fin 8 → SemLoc sig := fun | 0 => .dma 4 | 1 => .dma 5 | 2 => .dma 6 | 3 => .dma 7 | 4 => .dma 8 | 5 => .dma 9 | 6 => .dma 10 | 7 => .dma 11 -- the kernel's own semaphore cells

/-- The eight counters at zero, as the run finds them and hands them back. -/
abbrev sems0 (c : Dev nD) : sProp (MM F) :=
  iprop(semVal ((c : Thread nD τ), osem0 0) 0 ∗ semVal ((c : Thread nD τ), osem0 1) 0 ∗ semVal ((c : Thread nD τ), osem0 2) 0
    ∗ semVal ((c : Thread nD τ), osem0 3) 0 ∗ semVal ((c : Thread nD τ), osem0 4) 0 ∗ semVal ((c : Thread nD τ), osem0 5) 0
    ∗ semVal ((c : Thread nD τ), osem0 6) 0 ∗ semVal ((c : Thread nD τ), osem0 7) 0)

/-- Word `j` of the eight the index table holds for point `i`, as the kernel's scalar load reads it. -/
def tblWord0 (c : Dev nD) (i : grid0.Coords) (tbl : Bf (F := F) c (Memref.whole main_v7)) (j : Fin 8) : BitVec 32 :=
  (Memref.whole main_v7).view.readAt (Elt F) (Rect.unit (s := S131072) (k0_off1 i (BitVec.ofNat 32 j.val)) S1.size (k0_off1_inb i j)).toLoadRect tbl
    (Shape.Idx.first (s := S1) (numel1_S1.symm ▸ Nat.one_pos))

/-- Window `w`'s block at point `t`, read off its array at the region's entry. -/
def iblk0 (a0 : (pcfg0 (F := F)).Adm) (Vin : Dev nD → Valuation τ sig (Elt F)) (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (Vr Vin c (Pipeline.arrRef spec0 w))

/-- The result array the region leaves: the gathered and scaled rows of the embedding array, whole. -/
def gout0 (a0 : (pcfg0 (F := F)).Adm) (Vin : Dev nD → Valuation τ sig (Elt F)) (c : Dev nD) : Buf (Elt F) ((c : Thread nD τ).loc main_v9) :=
  gatherArr (Vr Vin c main_arg0) (a0.1 0) (Vr Vin c main_v8)

/-- The invariant between points: the embedding array as entered, the kernel's semaphores at zero, the index table, the
    scoped buffers no window stages (the kernel's scratch among them). -/
def Phi0 (a0 : (pcfg0 (F := F)).Adm) (Vin : Dev nD → Valuation τ sig (Elt F)) (c : Dev nD) : sProp (MM F) :=
  iprop(pt c (Memref.whole main_arg0) (Vr Vin c main_arg0) ∗ sems0 c
    ∗ Pipeline.prefHeld (Ix := Unit) (Name := ℕ) (U := UU nD τ) (Lvl := ℕ) pre0 c (fun _ => fullShare) a0.1
    ∗ Pipeline.scopedRest (Ix := Unit) (Name := ℕ) (U := UU nD τ) (Lvl := ℕ) (Val := Elt F) spec0 c)

/-- The proof data on core `c`. -/
def dat0 (a0 : (pcfg0 (F := F)).Adm) (Vin : Dev nD → Valuation τ sig (Elt F)) (c : Dev nD) :
    Pipeline.Dat τ (Elt F) Unit ℕ (UU nD τ) ℕ ((pcfg0 (F := F)).at a0) c where
  A w := Vr Vin c (Pipeline.arrRef spec0 w)
  after w t := match w with
    | ⟨0, _⟩ => iblk0 a0 Vin c 0 t
    | ⟨1, _⟩ => (((cfg0 a0).win 1).blk t).view.read (Elt F) (gout0 a0 Vin c)
  Φ _ := Phi0 a0 Vin c
  q _ := fullShare
  owed _ := 0

theorem A_eq0 (a0 : (pcfg0 (F := F)).Adm) (Vin : Dev nD → Valuation τ sig (Elt F)) (c : Dev nD) (w : Fin (cfg0 a0).W) :
    (dat0 a0 Vin c).A w = Vr Vin c (Pipeline.arrRef spec0 w) := by dsimp only [dat0]
theorem after0_0 (a0 : (pcfg0 (F := F)).Adm) (Vin : Dev nD → Valuation τ sig (Elt F)) (c : Dev nD) (t : Fin (cfg0 a0).N) :
    (dat0 a0 Vin c).after 0 t = iblk0 a0 Vin c 0 t := by dsimp only [dat0]; rfl
theorem after0_1 (a0 : (pcfg0 (F := F)).Adm) (Vin : Dev nD → Valuation τ sig (Elt F)) (c : Dev nD) (t : Fin (cfg0 a0).N) :
    (dat0 a0 Vin c).after 1 t = (((cfg0 a0).win 1).blk t).view.read (Elt F) (gout0 a0 Vin c) := by dsimp only [dat0]; rfl
theorem Phi_eq0 (a0 : (pcfg0 (F := F)).Adm) (Vin : Dev nD → Valuation τ sig (Elt F)) (c : Dev nD) (t : Fin ((cfg0 a0).N + 1)) :
    (dat0 a0 Vin c).Φ t = Phi0 a0 Vin c := rfl
theorem owed_eq0 (a0 : (pcfg0 (F := F)).Adm) (Vin : Dev nD → Valuation τ sig (Elt F)) (c : Dev nD) (t : Fin ((cfg0 a0).N + 1)) :
    (dat0 a0 Vin c).owed t = 0 := rfl
theorem q_eq0 (a0 : (pcfg0 (F := F)).Adm) (Vin : Dev nD → Valuation τ sig (Elt F)) (c : Dev nD) (w : Fin (cfg0 a0).W) :
    (dat0 a0 Vin c).q w = fullShare := rfl

/-- The pinned family's configuration at region 0 is this one. -/
example (a : (p : Fin 34) → (pcfgs (F := F) p).Adm) : Pipeline.pin (pcfgs (F := F)) a (0 : Fin 34) = (pcfg0 (F := F)).at (a (0 : Fin 34)) := rfl

end Cert.Kernel.Hand

end
-- ==== Proof.K.GatherBody0.lean ====
/-
  Gather region 0 (custom_call 0): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat0
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk0 (c : Dev nD) (i : grid0.Coords) (tbl : Bf (F := F) c (Memref.whole main_v7)) : Prop where
  h1 : k0_chk1 (tblWord0 c i tbl 0)
  h2 : k0_chk2 (tblWord0 c i tbl 1)
  h3 : k0_chk3 (tblWord0 c i tbl 2)
  h4 : k0_chk4 (tblWord0 c i tbl 3)
  h5 : k0_chk5 (tblWord0 c i tbl 4)
  h6 : k0_chk6 (tblWord0 c i tbl 5)
  h7 : k0_chk7 (tblWord0 c i tbl 6)
  h8 : k0_chk8 (tblWord0 c i tbl 7)

/-- A one-row slice of the embedding array at the row a word names, read at lane `z 1`: the array's element there. -/
theorem rowRead0 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun0 (c : Dev nD) (i : grid0.Coords)
    (M3 : Memref sig .tc .vmem S8x1 .f32) (h3 : M3.IsWhole) (M4 : Memref sig .tc .vmem S8x128 .f32) (h4 : M4.IsWhole)
    (tbl : Bf (F := F) c (Memref.whole main_v7)) (x : Bf (F := F) c (Memref.whole main_arg0))
    (vb : Vec F S8x1 .f32) (hchk : GatherChk0 c i tbl) (Q : PUnit → sProp (MM F)) :
    iprop(pt c (Memref.whole main_v7) tbl ∗ pt c (Memref.whole main_arg0) x
      ∗ owns (c : Thread nD τ) M3 fullShare vb ∗ (∃ d, owns (c : Thread nD τ) M4 fullShare d)
      ∗ (∃ fs, pt c (Memref.whole cc0_scratch0) fs) ∗ sems0 c ∗ (∃ W, owes (c : Thread nD τ) (0 : CellTallies nD τ sig Unit) W)
      ∗ (iprop(pt c (Memref.whole main_v7) tbl ∗ pt c (Memref.whole main_arg0) x
          ∗ owns (c : Thread nD τ) M3 fullShare vb ∗ owns (c : Thread nD τ) M4 fullShare (gatherBlk x (tblWord0 c i tbl) vb)
          ∗ (∃ fs, pt c (Memref.whole cc0_scratch0) fs) ∗ sems0 c ∗ (∃ W, owes (c : Thread nD τ) (0 : CellTallies nD τ sig Unit) W)) -∗ Q ⟨⟩))
    ⊢ wp frame (wpE (defs₀ (F := F)) 𝒱₀ c none) Set.univ
        (cc0__gather_kernel i (Memref.whole main_v7) (Memref.isWhole_whole _) (Memref.whole main_arg0) (Memref.isWhole_whole _) M3 h3 M4 h4
          (Memref.whole cc0_scratch0) (Memref.isWhole_whole _) cc0_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 4).1 $$ Hx -- the kernel's own semaphore cells
  icases Hx' with ⟨Hxr, Hx0, Hx1, Hx2, Hx3, Hx4, Hx5, Hx6, Hx7⟩
  sl_unfold [cc0__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 4).2 -- the kernel's own semaphore cells
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k0_pay1 gatherBlk
    show FloatOps.mulf _ _ = FloatOps.mulf _ _
    congr 1
    · unfold gatherRun0.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun0.sl.dma8 gatherRun0.sl.dma8_1 gatherRun0.sl.dma8_2 gatherRun0.sl.dma8_3 gatherRun0.sl.dma8_4 gatherRun0.sl.dma8_5
        gatherRun0.sl.dma8_6 gatherRun0.sl.dma8_7 gatherRun0.sl.r gatherRun0.sl.r_1 gatherRun0.sl.r_2 gatherRun0.sl.r_3 gatherRun0.sl.r_4
        gatherRun0.sl.r_5 gatherRun0.sl.r_6 gatherRun0.sl.r_7
      refine canonRows8 _ _ _ _ _ _ _ _ _ _ _ _ _ _ _ _ (fun r d => x (embIdx (rowOf (tblWord0 c i tbl r)) d)) ?_ ?_ ?_ ?_ ?_ ?_ ?_ ?_ y
      · exact fun z => rowRead0 c _ (tblWord0 c i tbl 0) rfl rfl _ _ x z
      · exact fun z => rowRead0 c _ (tblWord0 c i tbl 1) rfl rfl _ _ x z
      · exact fun z => rowRead0 c _ (tblWord0 c i tbl 2) rfl rfl _ _ x z
      · exact fun z => rowRead0 c _ (tblWord0 c i tbl 3) rfl rfl _ _ x z
      · exact fun z => rowRead0 c _ (tblWord0 c i tbl 4) rfl rfl _ _ x z
      · exact fun z => rowRead0 c _ (tblWord0 c i tbl 5) rfl rfl _ _ x z
      · exact fun z => rowRead0 c _ (tblWord0 c i tbl 6) rfl rfl _ _ x z
      · exact fun z => rowRead0 c _ (tblWord0 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk0.lean ====
/-
  Gather region 0 (custom_call 0): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat0
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word0 (i : grid0.Coords) (j : Fin 8) : k0_off1 i (BitVec.ofNat 32 j.val) 0 = (i 0).val * 8 + j.val := by
  have hi : (i 0).val < 16384 := (i 0).isLt
  have hj : j.val < 8 := j.isLt
  unfold k0_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word0 (i : grid0.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord0_eq (c : Dev nD) (i : grid0.Coords) (tbl : Bf (F := F) c (Memref.whole main_v7)) (j : Fin 8)
    (e : Fin 131072) (he : e.val = (i 0).val * 8 + j.val) : tblWord0 c i tbl j = tbl (tblIdx e) := by
  unfold tblWord0
  show tbl _ = tbl _
  refine congrArg tbl ?_
  funext a; apply Fin.ext
  match a with
  | ⟨0, _⟩ =>
    show k0_off1 i (BitVec.ofNat 32 j.val) 0 + 1 * 0 = e.val
    rw [off_word0, he]; omega

/-- Row `j` of the value window's block at point `t` is the value array's row `8 t + j`. -/
theorem valBlk0_eq (a0 : (pcfg0 (F := F)).Adm) (Vin : Dev nD → Valuation τ sig (Elt F)) (c : Dev nD) (t : Fin (cfg0 a0).N)
    (j : Fin 8) (e : Fin 131072) (he : e.val = ((grid0.coords t) 0).val * 8 + j.val) :
    iblk0 a0 Vin c 0 t (colIdx j) = Vr Vin c main_v8 (valIdx e) := by
  unfold iblk0
  show Vr Vin c main_v8 _ = Vr Vin c main_v8 _
  refine congrArg (Vr Vin c main_v8) ?_
  funext a; apply Fin.ext
  match a with
  | ⟨0, _⟩ =>
    show (BitVec.ofNat 32 ((grid0.coords t) 0).val).toNat * 8 + 1 * j.val = e.val
    rw [coord_word0, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk0 (a0 : (pcfg0 (F := F)).Adm) (Vin : Dev nD → Valuation τ sig (Elt F)) (c : Dev nD) (t : Fin (cfg0 a0).N) :
    gatherBlk (Vr Vin c main_arg0) (tblWord0 c (grid0.coords t) (a0.1 0)) (iblk0 a0 Vin c 0 t)
      = (((cfg0 a0).win 1).blk t).view.read (Elt F) (gout0 a0 Vin c) := by
  funext y
  show gatherBlk _ _ _ y = gout0 a0 Vin c ((((cfg0 a0).win 1).blk t).view.emb y)
  unfold gatherBlk gout0 gatherArr
  have e0 : ((((cfg0 a0).win 1).blk t).view.emb y (0 : Fin 2)).val = ((grid0.coords t) 0).val * 8 + (y 0).val := by
    show (BitVec.ofNat 32 ((grid0.coords t) 0).val).toNat * 8 + 1 * (y 0).val = _
    rw [coord_word0]; omega
  have e1 : (((cfg0 a0).win 1).blk t).view.emb y (1 : Fin 2) = y 1 := Fin.ext (by
    show (0#32 : BitVec 32).toNat * 128 + 1 * (y 1).val = (y 1).val
    show 0 * 128 + 1 * (y 1).val = (y 1).val
    omega)
  rw [tblWord0_eq c (grid0.coords t) (a0.1 0) (y 0) _ e0, valBlk0_eq a0 Vin c t (y 0) _ e0, e1]

end Cert.Kernel.Hand

end
-- ==== Proof.K.GatherRegion0.lean ====
/-
  Gather region 0 (custom_call 0): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody0
import proofs.«414509_j14181982011419_2_alg».proof.Proof.K.GatherBlk0
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk0 (a0 : (pcfg0 (F := F)).Adm) : Prop := ∀ e : S131072.Idx, (a0.1 0 e).toNat < 100000

/-! ## The grid and the result window's blocks -/

/-- On the one-axis grid a point's coordinate is its number. -/
theorem regCoords0 (t : Fin grid0.N) : (grid0.coords t 0).val = t.val := by
  have ht : t.val < 16384 := N_0 ▸ t.isLt
  show t.val / grid0.stride 0 % grid0.bound 0 = t.val
  rw [show grid0.stride 0 = 1 from by decide, show grid0.bound 0 = 16384 from rfl, Nat.div_one, Nat.mod_eq_of_lt ht]

/-- A point's number as the 32-bit word the index maps compute with. -/
theorem regWord0 (t : Fin grid0.N) : (BitVec.ofNat 32 (grid0.coords t 0).val).toNat = t.val := by
  have ht : t.val < 16384 := N_0 ▸ t.isLt
  rw [BitVec.toNat_ofNat, regCoords0]; omega

/-- The result window's block at point `t` is block `t` along the rows, at zero along the lanes. -/
theorem regOutIndex0 (a0 : (pcfg0 (F := F)).Adm) (t : Fin (cfg0 a0).N) : ((cfg0 a0).win 1).index t = ![t.val, 0] := by
  show cc0_transform_2 (grid0.coords t) = _
  unfold cc0_transform_2
  funext a; fin_cases a
  · exact regWord0 t
  · rfl

/-- The result window is written back at every point: consecutive points have different blocks. -/
theorem regOutFlush0 (a0 : (pcfg0 (F := F)).Adm) (t : Fin (cfg0 a0).N) : ((cfg0 a0).win 1).flush t = true := by
  have htN : t.val < 16384 := N_0 ▸ t.isLt
  rw [Pipeline.Window.flush_out _ rfl]
  by_cases h : t.val + 1 = 16384
  · exact Or.inl (show t.val + 1 = grid0.N by rw [N_0]; exact h)
  · have hlt : t.val + 1 < grid0.N := by rw [N_0]; omega
    refine Or.inr ⟨hlt, fun e => ?_⟩
    have e' : (![t.val + 1, 0] : Fin 2 → ℕ) = ![t.val, 0] := (regOutIndex0 a0 ⟨t.val + 1, hlt⟩).symm.trans (e.trans (regOutIndex0 a0 t))
    have e0 := congrFun e' 0
    simp at e0

/-- The index table, held as the pipeline's one prefetched table. -/
theorem prefHeldEq0 (a0 : (pcfg0 (F := F)).Adm) (c : Dev nD) :
    (Pipeline.prefHeld (Ix := Unit) (Name := ℕ) (U := UU nD τ) (Lvl := ℕ) pre0 c (fun _ => fullShare) a0.1 : sProp (MM F))
      = pt c (Memref.whole main_v7) (a0.1 0) := by
  unfold Pipeline.prefHeld
  rw [show (Finset.univ : Finset (Fin pre0.K)) = {0} from rfl, BI.bigSep_singleton]
  rfl

/-- The value window's staging buffer holds its block at every point. -/
theorem beforeVal0 (a0 : (pcfg0 (F := F)).Adm) (Vin : Dev nD → Valuation τ sig (Elt F)) (c : Dev nD) (t : Fin (cfg0 a0).N) (d) :
    (dat0 a0 Vin c).before 0 t d = iblk0 a0 Vin c 0 t :=
  ((dat0 a0 Vin c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The kernel's checks, from the table's range -/

/-- Each of the point's eight words is a word of the table, so a row number. -/
theorem tblWordLt0 (a0 : (pcfg0 (F := F)).Adm) (hok : GatherOk0 a0) (c : Dev nD) (i : grid0.Coords) (j : Fin 8) :
    (tblWord0 c i (a0.1 0) j).toNat < 100000 := by
  unfold tblWord0
  exact hok _

/-- So the kernel's eight checks hold at every point. -/
theorem gatherChk0 (a0 : (pcfg0 (F := F)).Adm) (hok : GatherOk0 a0) (c : Dev nD) (i : grid0.Coords) : GatherChk0 c i (a0.1 0) :=
  ⟨⟨chkRow _ (tblWordLt0 a0 hok c i 0), chkRow _ (tblWordLt0 a0 hok c i 0)⟩,
   ⟨chkRow _ (tblWordLt0 a0 hok c i 1), chkRow _ (tblWordLt0 a0 hok c i 1)⟩,
   ⟨chkRow _ (tblWordLt0 a0 hok c i 2), chkRow _ (tblWordLt0 a0 hok c i 2)⟩,
   ⟨chkRow _ (tblWordLt0 a0 hok c i 3), chkRow _ (tblWordLt0 a0 hok c i 3)⟩,
   ⟨chkRow _ (tblWordLt0 a0 hok c i 4), chkRow _ (tblWordLt0 a0 hok c i 4)⟩,
   ⟨chkRow _ (tblWordLt0 a0 hok c i 5), chkRow _ (tblWordLt0 a0 hok c i 5)⟩,
   ⟨chkRow _ (tblWordLt0 a0 hok c i 6), chkRow _ (tblWordLt0 a0 hok c i 6)⟩,
   chkRow _ (tblWordLt0 a0 hok c i 7)⟩

/-! ## The body obligation, at a generic point -/

/-- What the body is called with at point `t`: the invariant, the core's dues, each window's current staging memref at
    what the pipeline left there, -/
def bodyPre0 (a0 : (pcfg0 (F := F)).Adm) (Vin : Dev nD → Valuation τ sig (Elt F)) (c : Dev nD) (t : Fin (cfg0 a0).N) : sProp (MM F) :=
  iprop((dat0 a0 Vin c).Φ t.castSucc ∗ (dat0 a0 Vin c).owesAt () t.castSucc
    ∗ (∃ d, owns (c : Thread nD τ) (((cfg0 a0).win 0).stage ((cfg0 a0).slots t 0)) fullShare ((dat0 a0 Vin c).before 0 t d))
    ∗ (∃ d, owns (c : Thread nD τ) (((cfg0 a0).win 1).stage ((cfg0 a0).slots t 1)) fullShare ((dat0 a0 Vin c).before 1 t d)))

/-- and what it returns. -/
def bodyPost0 (a0 : (pcfg0 (F := F)).Adm) (Vin : Dev nD → Valuation τ sig (Elt F)) (c : Dev nD) (t : Fin (cfg0 a0).N) : sProp (MM F) :=
  iprop((dat0 a0 Vin c).Φ t.succ ∗ (dat0 a0 Vin c).owesAt () t.succ
    ∗ owns (c : Thread nD τ) (((cfg0 a0).win 0).stage ((cfg0 a0).slots t 0)) fullShare ((dat0 a0 Vin c).after 0 t)
    ∗ owns (c : Thread nD τ) (((cfg0 a0).win 1).stage ((cfg0 a0).slots t 1)) fullShare ((dat0 a0 Vin c).after 1 t))

/-- The body at any point: the invariant opened into the embedding array, the semaphores, the table and the scratch;
    the value window's memref at its block; the checks from the table's range; so the kernel's run applies, and what it
    leaves in the result window's memref is the point's block of the gathered array. -/
theorem sound_body0 (a0 : (pcfg0 (F := F)).Adm) (hok : GatherOk0 a0) (Vin : Dev nD → Valuation τ sig (Elt F)) (c : Dev nD) (t : Fin (cfg0 a0).N) :
    bodyPre0 a0 Vin c t ⊢ wp frame (wpE (defs₀ (F := F)) 𝒱₀ c none) Set.univ
      (defs₀ .tc (cfg0 a0).body ((cfg0 a0).bodyArgs t ((cfg0 a0).slots t))) (fun _ => bodyPost0 a0 Vin c t) := by
  unfold bodyPre0 bodyPost0
  simp only [beforeVal0]
  rw [Phi_eq0, Phi_eq0, after0_0, after0_1, ← gatherBlk_blk0]
  unfold Phi0 Pipeline.Dat.owesAt Pipeline.owesWithin
  rw [owed_eq0, owed_eq0, prefHeldEq0, scopedRest0_split]
  iintro ⟨⟨Hx, Hos, Ht, ⟨%fs, Hs⟩, Hsb⟩, ⟨%W, %hW, HO⟩, ⟨%d0, H0⟩, ⟨%d1, H1⟩⟩
  iapply (gatherRun0 c (grid0.coords t) _ _ _ _ (a0.1 0) (Vr Vin c main_arg0) (iblk0 a0 Vin c 0 t) (gatherChk0 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation0 (a0 : (pcfg0 (F := F)).Adm) (hok : GatherOk0 a0) (Vin : Dev nD → Valuation τ sig (Elt F)) (c : Dev nD) :
    BodyObligation (dat0 a0 Vin c) (defs₀ (F := F)) 𝒱₀ () Set.univ := fun t => by
  rw [bigSep_W0, bigSep_W0]
  exact sound_body0 a0 hok Vin c t

/-! ## From the blocks to the arrays -/

/-- The value array after the region: as entered. -/
theorem arrAt0_in (a0 : (pcfg0 (F := F)).Adm) (Vin : Dev nD → Valuation τ sig (Elt F)) (c : Dev nD) :
    (dat0 a0 Vin c).arrAt 0 (cfg0 a0).N = Vr Vin c main_v8 :=
  ((dat0 a0 Vin c).arrAt_in 0 rfl _).trans (A_eq0 a0 Vin c 0)

/-- Every index of the result array is in some point's block: row `e`, lane `d` is element `(e % 8, d)` of the block
    of point `e / 8`. -/
theorem regOutCover0 (a0 : (pcfg0 (F := F)).Adm) (i : S131072x128.Idx) :
    ∃ t : Fin (cfg0 a0).N, ((cfg0 a0).win 1).flush t = true ∧ i ∈ (((cfg0 a0).win 1).blk t).view.set := by
  have hi0 : (i 0).val < 131072 := (i 0).isLt
  have hi1 : (i 1).val < 128 := (i 1).isLt
  have hN : (i 0).val / 8 < grid0.N := by rw [N_0]; omega
  obtain ⟨t, ht⟩ : ∃ t : Fin (cfg0 a0).N, t.val = (i 0).val / 8 := ⟨⟨_, hN⟩, rfl⟩
  have hx : (((cfg0 a0).win 1).blk t).view.emb (ValueIdx.ix2 ⟨(i 0).val % 8, Nat.mod_lt _ (by decide)⟩ (i 1)) = i := by
    funext a; apply Fin.ext
    have e0 : ((cfg0 a0).win 1).index t (0 : Fin 2) = t.val := congrFun (regOutIndex0 a0 t) (0 : Fin 2)
    have e1 : ((cfg0 a0).win 1).index t (1 : Fin 2) = 0 := congrFun (regOutIndex0 a0 t) (1 : Fin 2)
    match a with
    | ⟨0, _⟩ => show ((cfg0 a0).win 1).index t (0 : Fin 2) * 8 + 1 * ((i 0).val % 8) = (i 0).val; omega
    | ⟨1, _⟩ => show ((cfg0 a0).win 1).index t (1 : Fin 2) * 128 + 1 * (i 1).val = (i 1).val; omega
  exact ⟨t, regOutFlush0 a0 t, hx ▸ (((cfg0 a0).win 1).blk t).view.emb_mem_set _⟩

/-- The result array after the region: the gathered and scaled rows, whole. -/
theorem arrAt0_out (a0 : (pcfg0 (F := F)).Adm) (Vin : Dev nD → Valuation τ sig (Elt F)) (c : Dev nD) :
    (dat0 a0 Vin c).arrAt 1 (cfg0 a0).N = gout0 a0 Vin c :=
  (dat0 a0 Vin c).arrAt_eq_of_cover 1 (gout0 a0 Vin c)
    (fun t _ => by
      show ((cfg0 a0).win 1).cut ((cfg0 a0).grid.coords t) ((dat0 a0 Vin c).after 1 t) = _
      rw [after0_1])
    (regOutCover0 a0)

/-! ## The region as a segment of @main -/

/-- The ownership layout of the kernel's eight semaphores. -/
theorem ownSemFacts0 : Pipeline.OwnSemFacts spec0 osem0 := by decide

/-- The kernel's own cells at zero, listed. -/
theorem ownSemsListed0 (c : Dev nD) :
    (Pipeline.ownSems0 (Ix := Unit) (Name := ℕ) (U := UU nD τ) (Lvl := ℕ) (Val := Elt F) (τ := τ) osem0 c : sProp (MM F)) = sems0 c :=
  Pipeline.ownSems0_eq_of_list c osem0 [0, 1, 2, 3, 4, 5, 6, 7] (by decide) (by decide)

/-- The unscoped buffers that are no window's array, no table, and not the embedding array. -/
abbrev restRefs0 : Finset (Ref sig .tc) :=
  (((Finset.univ.filter fun b : Ref sig .tc => ¬ b.isScoped) \ Finset.univ.image (Pipeline.arrRef spec0)) \ Finset.univ.image pre0.ref) \ {main_arg0}

/-- Those buffers, each whole at its contents under `Vin`: what bypasses the region. -/
def Zrest0 (Vin : Dev nD → Valuation τ sig (Elt F)) (c : Dev nD) : sProp (MM F) :=
  bigSep restRefs0 fun b => ((c : Thread nD τ).loc b) ↦{fullShare} Vr Vin c b

/-- The embedding array is an unscoped buffer that is no window's array and no table. -/
theorem embArrMem0 : ({main_arg0} : Finset (Ref sig .tc)) ⊆
    ((Finset.univ.filter fun b : Ref sig .tc => ¬ b.isScoped) \ Finset.univ.image (Pipeline.arrRef spec0)) \ Finset.univ.image pre0.ref := by
  decide

/-- The unscoped buffers that are no window's array: the index table, the embedding array, and the rest. -/
theorem unscopedRestOpen0 (Vin : Dev nD → Valuation τ sig (Elt F)) (c : Dev nD) :
    (Pipeline.unscopedRest (Ix := Unit) (Name := ℕ) (U := UU nD τ) (Lvl := ℕ) spec0 c (Vr Vin c) : sProp (MM F))
      = iprop(Pipeline.prefHeld pre0 c (fun _ => fullShare) (fun k => Vr Vin c (pre0.ref k))
          ∗ pt c (Memref.whole main_arg0) (Vr Vin c main_arg0) ∗ Zrest0 Vin c) := by
  rw [Pipeline.unscopedRest_split preFacts0 c (Vr Vin c)]
  unfold Pipeline.unscopedRestP Zrest0
  rw [BI.bigSep_sdiff_split embArrMem0, BI.bigSep_singleton]
  rfl

/-- The buffer contents when the region is left: the result array at the gathered rows, every other buffer as entered. -/
abbrev Vout0 (a0 : (pcfg0 (F := F)).Adm) (Vin : Dev nD → Valuation τ sig (Elt F)) (c : Dev nD) : Valuation τ sig (Elt F) :=
  Function.update (Vin c) main_v9 (gout0 a0 Vin c)

/-- At the exit each of the region's arrays holds what the pipeline leaves; -/
theorem hF0 (a0 : (pcfg0 (F := F)).Adm) (Vin : Dev nD → Valuation τ sig (Elt F)) (c : Dev nD) (w : Fin (cfg0 a0).W) :
    (dat0 a0 Vin c).arrAt w (cfg0 a0).N = Vr (Vout0 a0 Vin) c (Pipeline.arrRef spec0 w) := by
  match w with
  | ⟨0, _⟩ =>
    show (dat0 a0 Vin c).arrAt 0 (cfg0 a0).N = Vr (Vout0 a0 Vin) c (Pipeline.arrRef spec0 0)
    rw [arrAt0_in]
    exact (Function.update_of_ne (StableHlo.devRef_ne_of_ne (by decide) : (Proc.devRef .tc main_v8 : DevRef τ sig) ≠ Proc.devRef .tc main_v9) _ _).symm
  | ⟨1, _⟩ =>
    show (dat0 a0 Vin c).arrAt 1 (cfg0 a0).N = Vr (Vout0 a0 Vin) c (Pipeline.arrRef spec0 1)
    rw [arrAt0_out]
    exact (Function.update_self (Proc.devRef .tc main_v9 : DevRef τ sig) _ (Vin c)).symm

/-- and every other buffer what it held at entry. -/
theorem hrest0 (a0 : (pcfg0 (F := F)).Adm) (Vin : Dev nD → Valuation τ sig (Elt F)) (c : Dev nD) :
    ∀ b : Ref sig .tc, b ∉ Finset.univ.image (Pipeline.arrRef spec0) → Vr (Vout0 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat0` at the entry valuation `Vin`
    (`hd`), the index table's contents under `Vin` being the pinned ones (`htbl`) and row numbers (`hok`). -/
def reg0 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk0 (F := F) (a (0 : Fin 34)))
    (hd : ∀ c, pdats (0 : Fin 34) c = dat0 (a (0 : Fin 34)) Vin c) (htbl : ∀ c, (a (0 : Fin 34)).1 = fun k => Vr Vin c (pre0.ref k)) :
    Pipeline.RegionSeg (pcfgs (F := F)) a pdats () defs₀ 𝒱₀ L lv (0 : Fin 34) where
  win := (launch0 (F := F)).win.to₀
  block_pos := (launch0 (F := F)).block_pos
  stage_whole := (launch0 (F := F)).stage_whole
  K := Fin 8
  osem := osem0
  ho := ownSemFacts0
  hbody c := by rw [hd c]; exact (body_obligation0 (a (0 : Fin 34)) hok Vin c).loose
  hwaits := Pipeline.hwaits_of_owed_zero _ _ _ _ L lv (0 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v9 (gout0 (a (0 : Fin 34)) Vin c)) ∗ Rest c)
  X c := iprop(pt c (Memref.whole main_arg0) (Vr Vin c main_arg0) ∗ sems0 c)
  Y c := iprop(pt c (Memref.whole main_arg0) (Vr Vin c main_arg0)
    ∗ Pipeline.prefHeld (Ix := Unit) (Name := ℕ) (U := UU nD τ) (Lvl := ℕ) pre0 c (fun _ => fullShare) (a (0 : Fin 34)).1)
  Z c := Zrest0 Vin c
  hentry c := by
    rw [ownSemsListed0]
    have hsplit := Pipeline.arrays_of_unscopedBufs (p := (0 : Fin 34)) (pcfgs (F := F)) a pdats (launch0 (F := F)).win (launch0 (F := F)).arr_whole c
      ((pdats (0 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen0 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (0 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq0]; unfold Phi0
    iintro ⟨⟨Hx, Hos⟩, Ht, Hr⟩
    isplitl [Hx]; · iexact Hx
    isplitl [Hos]; · iexact Hos
    isplitl [Ht]; · iexact Ht
    iexact Hr
  hout c := by
    rw [ownSemsListed0, hd c, Phi_eq0]; unfold Phi0
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (0 : Fin 34)) (pcfgs (F := F)) a (Ix := Unit) (Name := ℕ) (U := UU nD τ) (Lvl := ℕ)
      (launch0 (F := F)).win (launch0 (F := F)).arr_whole c pdats ((pdats (0 : Fin 34) c).share_full fun _ => by rw [hd c]; rfl)
      (Vr Vin c) (Vr (Vout0 (a (0 : Fin 34)) Vin) c) ((pdats (0 : Fin 34) c).arrAt · (cfg0 (a (0 : Fin 34))).N)
      (fun w => by rw [hd c]; exact hF0 (a (0 : Fin 34)) Vin c w) (hrest0 (a (0 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen0 Vin c).symm)
      isplitl [Ht]; · rw [← htbl c]; iexact Ht
      isplitl [Hx]; · iexact Hx
      iexact Hz
    unfold Pipeline.Dat.owesAt Pipeline.owesWithin
    rw [show (pdats (0 : Fin 34) c).owed (Fin.last _) = 0 from by rw [hd c]; rfl]
    icases HO with ⟨%W, -, HO⟩; iexists W; iexact HO

end Cert.Kernel.Hand

end
-- ==== Proof.K.GatherDat1.lean ====
/-
  Gather region 1 (custom_call 1): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem1 : Fin 8 → SemLoc sig := fun | 0 => .dma 16 | 1 => .dma 17 | 2 => .dma 18 | 3 => .dma 19 | 4 => .dma 20 | 5 => .dma 21 | 6 => .dma 22 | 7 => .dma 23

/-- The eight counters at zero, as the run finds them and hands them back. -/
abbrev sems1 (c : Dev nD) : sProp (MM F) :=
  iprop(semVal ((c : Thread nD τ), osem1 0) 0 ∗ semVal ((c : Thread nD τ), osem1 1) 0 ∗ semVal ((c : Thread nD τ), osem1 2) 0
    ∗ semVal ((c : Thread nD τ), osem1 3) 0 ∗ semVal ((c : Thread nD τ), osem1 4) 0 ∗ semVal ((c : Thread nD τ), osem1 5) 0
    ∗ semVal ((c : Thread nD τ), osem1 6) 0 ∗ semVal ((c : Thread nD τ), osem1 7) 0)

/-- Word `j` of the eight the index table holds for point `i`, as the kernel's scalar load reads it. -/
def tblWord1 (c : Dev nD) (i : grid1.Coords) (tbl : Bf (F := F) c (Memref.whole main_v10)) (j : Fin 8) : BitVec 32 :=
  (Memref.whole main_v10).view.readAt (Elt F) (Rect.unit (s := S131072) (k1_off1 i (BitVec.ofNat 32 j.val)) S1.size (k1_off1_inb i j)).toLoadRect tbl
    (Shape.Idx.first (s := S1) (numel1_S1.symm ▸ Nat.one_pos))

/-- Window `w`'s block at point `t`, read off its array at the region's entry. -/
def iblk1 (a0 : (pcfg1 (F := F)).Adm) (Vin : Dev nD → Valuation τ sig (Elt F)) (c : Dev nD) (w : Fin (cfg1 a0).W) (t : Fin (cfg1 a0).N) :
    (((cfg1 a0).win w).xblock ((cfg1 a0).grid.coords t)).Idx → Elt F ((cfg1 a0).win w).elt :=
  (((cfg1 a0).win w).blk t).view.read (Elt F) (Vr Vin c (Pipeline.arrRef spec1 w))

/-- The result array the region leaves: the gathered and scaled rows of the embedding array, whole. -/
def gout1 (a0 : (pcfg1 (F := F)).Adm) (Vin : Dev nD → Valuation τ sig (Elt F)) (c : Dev nD) : Buf (Elt F) ((c : Thread nD τ).loc main_v12) :=
  gatherArr (Vr Vin c main_arg0) (a0.1 0) (Vr Vin c main_v11)

/-- The invariant between points: the embedding array as entered, the kernel's semaphores at zero, the index table, the
    scoped buffers no window stages (the kernel's scratch among them). -/
def Phi1 (a0 : (pcfg1 (F := F)).Adm) (Vin : Dev nD → Valuation τ sig (Elt F)) (c : Dev nD) : sProp (MM F) :=
  iprop(pt c (Memref.whole main_arg0) (Vr Vin c main_arg0) ∗ sems1 c
    ∗ Pipeline.prefHeld (Ix := Unit) (Name := ℕ) (U := UU nD τ) (Lvl := ℕ) pre1 c (fun _ => fullShare) a0.1
    ∗ Pipeline.scopedRest (Ix := Unit) (Name := ℕ) (U := UU nD τ) (Lvl := ℕ) (Val := Elt F) spec1 c)

/-- The proof data on core `c`. -/
def dat1 (a0 : (pcfg1 (F := F)).Adm) (Vin : Dev nD → Valuation τ sig (Elt F)) (c : Dev nD) :
    Pipeline.Dat τ (Elt F) Unit ℕ (UU nD τ) ℕ ((pcfg1 (F := F)).at a0) c where
  A w := Vr Vin c (Pipeline.arrRef spec1 w)
  after w t := match w with
    | ⟨0, _⟩ => iblk1 a0 Vin c 0 t
    | ⟨1, _⟩ => (((cfg1 a0).win 1).blk t).view.read (Elt F) (gout1 a0 Vin c)
  Φ _ := Phi1 a0 Vin c
  q _ := fullShare
  owed _ := 0

theorem A_eq1 (a0 : (pcfg1 (F := F)).Adm) (Vin : Dev nD → Valuation τ sig (Elt F)) (c : Dev nD) (w : Fin (cfg1 a0).W) :
    (dat1 a0 Vin c).A w = Vr Vin c (Pipeline.arrRef spec1 w) := by dsimp only [dat1]
theorem after1_0 (a0 : (pcfg1 (F := F)).Adm) (Vin : Dev nD → Valuation τ sig (Elt F)) (c : Dev nD) (t : Fin (cfg1 a0).N) :
    (dat1 a0 Vin c).after 0 t = iblk1 a0 Vin c 0 t := by dsimp only [dat1]; rfl
theorem after1_1 (a0 : (pcfg1 (F := F)).Adm) (Vin : Dev nD → Valuation τ sig (Elt F)) (c : Dev nD) (t : Fin (cfg1 a0).N) :
    (dat1 a0 Vin c).after 1 t = (((cfg1 a0).win 1).blk t).view.read (Elt F) (gout1 a0 Vin c) := by dsimp only [dat1]; rfl
theorem Phi_eq1 (a0 : (pcfg1 (F := F)).Adm) (Vin : Dev nD → Valuation τ sig (Elt F)) (c : Dev nD) (t : Fin ((cfg1 a0).N + 1)) :
    (dat1 a0 Vin c).Φ t = Phi1 a0 Vin c := rfl
theorem owed_eq1 (a0 : (pcfg1 (F := F)).Adm) (Vin : Dev nD → Valuation τ sig (Elt F)) (c : Dev nD) (t : Fin ((cfg1 a0).N + 1)) :
    (dat1 a0 Vin c).owed t = 0 := rfl
theorem q_eq1 (a0 : (pcfg1 (F := F)).Adm) (Vin : Dev nD → Valuation τ sig (Elt F)) (c : Dev nD) (w : Fin (cfg1 a0).W) :
    (dat1 a0 Vin c).q w = fullShare := rfl

/-- The pinned family's configuration at region 1 is this one. -/
example (a : (p : Fin 34) → (pcfgs (F := F) p).Adm) : Pipeline.pin (pcfgs (F := F)) a (1 : Fin 34) = (pcfg1 (F := F)).at (a (1 : Fin 34)) := rfl

end Cert.Kernel.Hand

end
-- ==== Proof.K.GatherBody1.lean ====
/-
  Gather region 1 (custom_call 1): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat1
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk1 (c : Dev nD) (i : grid1.Coords) (tbl : Bf (F := F) c (Memref.whole main_v10)) : Prop where
  h1 : k1_chk1 (tblWord1 c i tbl 0)
  h2 : k1_chk2 (tblWord1 c i tbl 1)
  h3 : k1_chk3 (tblWord1 c i tbl 2)
  h4 : k1_chk4 (tblWord1 c i tbl 3)
  h5 : k1_chk5 (tblWord1 c i tbl 4)
  h6 : k1_chk6 (tblWord1 c i tbl 5)
  h7 : k1_chk7 (tblWord1 c i tbl 6)
  h8 : k1_chk8 (tblWord1 c i tbl 7)

/-- A one-row slice of the embedding array at the row a word names, read at lane `z 1`: the array's element there. -/
theorem rowRead1 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun1 (c : Dev nD) (i : grid1.Coords)
    (M3 : Memref sig .tc .vmem S8x1 .f32) (h3 : M3.IsWhole) (M4 : Memref sig .tc .vmem S8x128 .f32) (h4 : M4.IsWhole)
    (tbl : Bf (F := F) c (Memref.whole main_v10)) (x : Bf (F := F) c (Memref.whole main_arg0))
    (vb : Vec F S8x1 .f32) (hchk : GatherChk1 c i tbl) (Q : PUnit → sProp (MM F)) :
    iprop(pt c (Memref.whole main_v10) tbl ∗ pt c (Memref.whole main_arg0) x
      ∗ owns (c : Thread nD τ) M3 fullShare vb ∗ (∃ d, owns (c : Thread nD τ) M4 fullShare d)
      ∗ (∃ fs, pt c (Memref.whole cc1_scratch0) fs) ∗ sems1 c ∗ (∃ W, owes (c : Thread nD τ) (0 : CellTallies nD τ sig Unit) W)
      ∗ (iprop(pt c (Memref.whole main_v10) tbl ∗ pt c (Memref.whole main_arg0) x
          ∗ owns (c : Thread nD τ) M3 fullShare vb ∗ owns (c : Thread nD τ) M4 fullShare (gatherBlk x (tblWord1 c i tbl) vb)
          ∗ (∃ fs, pt c (Memref.whole cc1_scratch0) fs) ∗ sems1 c ∗ (∃ W, owes (c : Thread nD τ) (0 : CellTallies nD τ sig Unit) W)) -∗ Q ⟨⟩))
    ⊢ wp frame (wpE (defs₀ (F := F)) 𝒱₀ c none) Set.univ
        (cc1__gather_kernel i (Memref.whole main_v10) (Memref.isWhole_whole _) (Memref.whole main_arg0) (Memref.isWhole_whole _) M3 h3 M4 h4
          (Memref.whole cc1_scratch0) (Memref.isWhole_whole _) cc1_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 16).1 $$ Hx
  icases Hx' with ⟨Hxr, Hx0, Hx1, Hx2, Hx3, Hx4, Hx5, Hx6, Hx7⟩
  sl_unfold [cc1__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 16).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k1_pay1 gatherBlk
    show FloatOps.mulf _ _ = FloatOps.mulf _ _
    congr 1
    · unfold gatherRun1.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun1.sl.dma8 gatherRun1.sl.dma8_1 gatherRun1.sl.dma8_2 gatherRun1.sl.dma8_3 gatherRun1.sl.dma8_4 gatherRun1.sl.dma8_5
        gatherRun1.sl.dma8_6 gatherRun1.sl.dma8_7 gatherRun1.sl.r gatherRun1.sl.r_1 gatherRun1.sl.r_2 gatherRun1.sl.r_3 gatherRun1.sl.r_4
        gatherRun1.sl.r_5 gatherRun1.sl.r_6 gatherRun1.sl.r_7
      refine canonRows8 _ _ _ _ _ _ _ _ _ _ _ _ _ _ _ _ (fun r d => x (embIdx (rowOf (tblWord1 c i tbl r)) d)) ?_ ?_ ?_ ?_ ?_ ?_ ?_ ?_ y
      · exact fun z => rowRead1 c _ (tblWord1 c i tbl 0) rfl rfl _ _ x z
      · exact fun z => rowRead1 c _ (tblWord1 c i tbl 1) rfl rfl _ _ x z
      · exact fun z => rowRead1 c _ (tblWord1 c i tbl 2) rfl rfl _ _ x z
      · exact fun z => rowRead1 c _ (tblWord1 c i tbl 3) rfl rfl _ _ x z
      · exact fun z => rowRead1 c _ (tblWord1 c i tbl 4) rfl rfl _ _ x z
      · exact fun z => rowRead1 c _ (tblWord1 c i tbl 5) rfl rfl _ _ x z
      · exact fun z => rowRead1 c _ (tblWord1 c i tbl 6) rfl rfl _ _ x z
      · exact fun z => rowRead1 c _ (tblWord1 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk1.lean ====
/-
  Gather region 1 (custom_call 1): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat1
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word1 (i : grid1.Coords) (j : Fin 8) : k1_off1 i (BitVec.ofNat 32 j.val) 0 = (i 0).val * 8 + j.val := by
  have hi : (i 0).val < 16384 := (i 0).isLt
  have hj : j.val < 8 := j.isLt
  unfold k1_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word1 (i : grid1.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord1_eq (c : Dev nD) (i : grid1.Coords) (tbl : Bf (F := F) c (Memref.whole main_v10)) (j : Fin 8)
    (e : Fin 131072) (he : e.val = (i 0).val * 8 + j.val) : tblWord1 c i tbl j = tbl (tblIdx e) := by
  unfold tblWord1
  show tbl _ = tbl _
  refine congrArg tbl ?_
  funext a; apply Fin.ext
  match a with
  | ⟨0, _⟩ =>
    show k1_off1 i (BitVec.ofNat 32 j.val) 0 + 1 * 0 = e.val
    rw [off_word1, he]; omega

/-- Row `j` of the value window's block at point `t` is the value array's row `8 t + j`. -/
theorem valBlk1_eq (a0 : (pcfg1 (F := F)).Adm) (Vin : Dev nD → Valuation τ sig (Elt F)) (c : Dev nD) (t : Fin (cfg1 a0).N)
    (j : Fin 8) (e : Fin 131072) (he : e.val = ((grid1.coords t) 0).val * 8 + j.val) :
    iblk1 a0 Vin c 0 t (colIdx j) = Vr Vin c main_v11 (valIdx e) := by
  unfold iblk1
  show Vr Vin c main_v11 _ = Vr Vin c main_v11 _
  refine congrArg (Vr Vin c main_v11) ?_
  funext a; apply Fin.ext
  match a with
  | ⟨0, _⟩ =>
    show (BitVec.ofNat 32 ((grid1.coords t) 0).val).toNat * 8 + 1 * j.val = e.val
    rw [coord_word1, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk1 (a0 : (pcfg1 (F := F)).Adm) (Vin : Dev nD → Valuation τ sig (Elt F)) (c : Dev nD) (t : Fin (cfg1 a0).N) :
    gatherBlk (Vr Vin c main_arg0) (tblWord1 c (grid1.coords t) (a0.1 0)) (iblk1 a0 Vin c 0 t)
      = (((cfg1 a0).win 1).blk t).view.read (Elt F) (gout1 a0 Vin c) := by
  funext y
  show gatherBlk _ _ _ y = gout1 a0 Vin c ((((cfg1 a0).win 1).blk t).view.emb y)
  unfold gatherBlk gout1 gatherArr
  have e0 : ((((cfg1 a0).win 1).blk t).view.emb y (0 : Fin 2)).val = ((grid1.coords t) 0).val * 8 + (y 0).val := by
    show (BitVec.ofNat 32 ((grid1.coords t) 0).val).toNat * 8 + 1 * (y 0).val = _
    rw [coord_word1]; omega
  have e1 : (((cfg1 a0).win 1).blk t).view.emb y (1 : Fin 2) = y 1 := Fin.ext (by
    show (0#32 : BitVec 32).toNat * 128 + 1 * (y 1).val = (y 1).val
    show 0 * 128 + 1 * (y 1).val = (y 1).val
    omega)
  rw [tblWord1_eq c (grid1.coords t) (a0.1 0) (y 0) _ e0, valBlk1_eq a0 Vin c t (y 0) _ e0, e1]

end Cert.Kernel.Hand

end
-- ==== Proof.K.GatherRegion1.lean ====
/-
  Gather region 1 (custom_call 1): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody1
import proofs.«414509_j14181982011419_2_alg».proof.Proof.K.GatherBlk1
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk1 (a0 : (pcfg1 (F := F)).Adm) : Prop := ∀ e : S131072.Idx, (a0.1 0 e).toNat < 100000

/-! ## The grid and the result window's blocks -/

/-- On the one-axis grid a point's coordinate is its number. -/
theorem regCoords1 (t : Fin grid1.N) : (grid1.coords t 0).val = t.val := by
  have ht : t.val < 16384 := N_1 ▸ t.isLt
  show t.val / grid1.stride 0 % grid1.bound 0 = t.val
  rw [show grid1.stride 0 = 1 from by decide, show grid1.bound 0 = 16384 from rfl, Nat.div_one, Nat.mod_eq_of_lt ht]

/-- A point's number as the 32-bit word the index maps compute with. -/
theorem regWord1 (t : Fin grid1.N) : (BitVec.ofNat 32 (grid1.coords t 0).val).toNat = t.val := by
  have ht : t.val < 16384 := N_1 ▸ t.isLt
  rw [BitVec.toNat_ofNat, regCoords1]; omega

/-- The result window's block at point `t` is block `t` along the rows, at zero along the lanes. -/
theorem regOutIndex1 (a0 : (pcfg1 (F := F)).Adm) (t : Fin (cfg1 a0).N) : ((cfg1 a0).win 1).index t = ![t.val, 0] := by
  show cc1_transform_2 (grid1.coords t) = _
  unfold cc1_transform_2
  funext a; fin_cases a
  · exact regWord1 t
  · rfl

/-- The result window is written back at every point: consecutive points have different blocks. -/
theorem regOutFlush1 (a0 : (pcfg1 (F := F)).Adm) (t : Fin (cfg1 a0).N) : ((cfg1 a0).win 1).flush t = true := by
  have htN : t.val < 16384 := N_1 ▸ t.isLt
  rw [Pipeline.Window.flush_out _ rfl]
  by_cases h : t.val + 1 = 16384
  · exact Or.inl (show t.val + 1 = grid1.N by rw [N_1]; exact h)
  · have hlt : t.val + 1 < grid1.N := by rw [N_1]; omega
    refine Or.inr ⟨hlt, fun e => ?_⟩
    have e' : (![t.val + 1, 0] : Fin 2 → ℕ) = ![t.val, 0] := (regOutIndex1 a0 ⟨t.val + 1, hlt⟩).symm.trans (e.trans (regOutIndex1 a0 t))
    have e0 := congrFun e' 0
    simp at e0

/-- The index table, held as the pipeline's one prefetched table. -/
theorem prefHeldEq1 (a0 : (pcfg1 (F := F)).Adm) (c : Dev nD) :
    (Pipeline.prefHeld (Ix := Unit) (Name := ℕ) (U := UU nD τ) (Lvl := ℕ) pre1 c (fun _ => fullShare) a0.1 : sProp (MM F))
      = pt c (Memref.whole main_v10) (a0.1 0) := by
  unfold Pipeline.prefHeld
  rw [show (Finset.univ : Finset (Fin pre1.K)) = {0} from rfl, BI.bigSep_singleton]
  rfl

/-- The value window's staging buffer holds its block at every point. -/
theorem beforeVal1 (a0 : (pcfg1 (F := F)).Adm) (Vin : Dev nD → Valuation τ sig (Elt F)) (c : Dev nD) (t : Fin (cfg1 a0).N) (d) :
    (dat1 a0 Vin c).before 0 t d = iblk1 a0 Vin c 0 t :=
  ((dat1 a0 Vin c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-! ## The kernel's checks, from the table's range -/

/-- Each of the point's eight words is a word of the table, so a row number. -/
theorem tblWordLt1 (a0 : (pcfg1 (F := F)).Adm) (hok : GatherOk1 a0) (c : Dev nD) (i : grid1.Coords) (j : Fin 8) :
    (tblWord1 c i (a0.1 0) j).toNat < 100000 := by
  unfold tblWord1
  exact hok _

/-- So the kernel's eight checks hold at every point. -/
theorem gatherChk1 (a0 : (pcfg1 (F := F)).Adm) (hok : GatherOk1 a0) (c : Dev nD) (i : grid1.Coords) : GatherChk1 c i (a0.1 0) :=
  ⟨⟨chkRow _ (tblWordLt1 a0 hok c i 0), chkRow _ (tblWordLt1 a0 hok c i 0)⟩,
   ⟨chkRow _ (tblWordLt1 a0 hok c i 1), chkRow _ (tblWordLt1 a0 hok c i 1)⟩,
   ⟨chkRow _ (tblWordLt1 a0 hok c i 2), chkRow _ (tblWordLt1 a0 hok c i 2)⟩,
   ⟨chkRow _ (tblWordLt1 a0 hok c i 3), chkRow _ (tblWordLt1 a0 hok c i 3)⟩,
   ⟨chkRow _ (tblWordLt1 a0 hok c i 4), chkRow _ (tblWordLt1 a0 hok c i 4)⟩,
   ⟨chkRow _ (tblWordLt1 a0 hok c i 5), chkRow _ (tblWordLt1 a0 hok c i 5)⟩,
   ⟨chkRow _ (tblWordLt1 a0 hok c i 6), chkRow _ (tblWordLt1 a0 hok c i 6)⟩,
   chkRow _ (tblWordLt1 a0 hok c i 7)⟩

/-! ## The body obligation, at a generic point -/

/-- What the body is called with at point `t`: the invariant, the core's dues, each window's current staging memref at
    what the pipeline left there, -/
def bodyPre1 (a0 : (pcfg1 (F := F)).Adm) (Vin : Dev nD → Valuation τ sig (Elt F)) (c : Dev nD) (t : Fin (cfg1 a0).N) : sProp (MM F) :=
  iprop((dat1 a0 Vin c).Φ t.castSucc ∗ (dat1 a0 Vin c).owesAt () t.castSucc
    ∗ (∃ d, owns (c : Thread nD τ) (((cfg1 a0).win 0).stage ((cfg1 a0).slots t 0)) fullShare ((dat1 a0 Vin c).before 0 t d))
    ∗ (∃ d, owns (c : Thread nD τ) (((cfg1 a0).win 1).stage ((cfg1 a0).slots t 1)) fullShare ((dat1 a0 Vin c).before 1 t d)))

/-- and what it returns. -/
def bodyPost1 (a0 : (pcfg1 (F := F)).Adm) (Vin : Dev nD → Valuation τ sig (Elt F)) (c : Dev nD) (t : Fin (cfg1 a0).N) : sProp (MM F) :=
  iprop((dat1 a0 Vin c).Φ t.succ ∗ (dat1 a0 Vin c).owesAt () t.succ
    ∗ owns (c : Thread nD τ) (((cfg1 a0).win 0).stage ((cfg1 a0).slots t 0)) fullShare ((dat1 a0 Vin c).after 0 t)
    ∗ owns (c : Thread nD τ) (((cfg1 a0).win 1).stage ((cfg1 a0).slots t 1)) fullShare ((dat1 a0 Vin c).after 1 t))

/-- The body at any point: the invariant opened into the embedding array, the semaphores, the table and the scratch;
    the value window's memref at its block; the checks from the table's range; so the kernel's run applies, and what it
    leaves in the result window's memref is the point's block of the gathered array. -/
theorem sound_body1 (a0 : (pcfg1 (F := F)).Adm) (hok : GatherOk1 a0) (Vin : Dev nD → Valuation τ sig (Elt F)) (c : Dev nD) (t : Fin (cfg1 a0).N) :
    bodyPre1 a0 Vin c t ⊢ wp frame (wpE (defs₀ (F := F)) 𝒱₀ c none) Set.univ
      (defs₀ .tc (cfg1 a0).body ((cfg1 a0).bodyArgs t ((cfg1 a0).slots t))) (fun _ => bodyPost1 a0 Vin c t) := by
  unfold bodyPre1 bodyPost1
  simp only [beforeVal1]
  rw [Phi_eq1, Phi_eq1, after1_0, after1_1, ← gatherBlk_blk1]
  unfold Phi1 Pipeline.Dat.owesAt Pipeline.owesWithin
  rw [owed_eq1, owed_eq1, prefHeldEq1, scopedRest1_split]
  iintro ⟨⟨Hx, Hos, Ht, ⟨%fs, Hs⟩, Hsb⟩, ⟨%W, %hW, HO⟩, ⟨%d0, H0⟩, ⟨%d1, H1⟩⟩
  iapply (gatherRun1 c (grid1.coords t) _ _ _ _ (a0.1 0) (Vr Vin c main_arg0) (iblk1 a0 Vin c 0 t) (gatherChk1 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation1 (a0 : (pcfg1 (F := F)).Adm) (hok : GatherOk1 a0) (Vin : Dev nD → Valuation τ sig (Elt F)) (c : Dev nD) :
    BodyObligation (dat1 a0 Vin c) (defs₀ (F := F)) 𝒱₀ () Set.univ := fun t => by
  rw [bigSep_W1, bigSep_W1]
  exact sound_body1 a0 hok Vin c t

/-! ## From the blocks to the arrays -/

/-- The value array after the region: as entered. -/
theorem arrAt1_in (a0 : (pcfg1 (F := F)).Adm) (Vin : Dev nD → Valuation τ sig (Elt F)) (c : Dev nD) :
    (dat1 a0 Vin c).arrAt 0 (cfg1 a0).N = Vr Vin c main_v11 :=
  ((dat1 a0 Vin c).arrAt_in 0 rfl _).trans (A_eq1 a0 Vin c 0)

/-- Every index of the result array is in some point's block: row `e`, lane `d` is element `(e % 8, d)` of the block
    of point `e / 8`. -/
theorem regOutCover1 (a0 : (pcfg1 (F := F)).Adm) (i : S131072x128.Idx) :
    ∃ t : Fin (cfg1 a0).N, ((cfg1 a0).win 1).flush t = true ∧ i ∈ (((cfg1 a0).win 1).blk t).view.set := by
  have hi0 : (i 0).val < 131072 := (i 0).isLt
  have hi1 : (i 1).val < 128 := (i 1).isLt
  have hN : (i 0).val / 8 < grid1.N := by rw [N_1]; omega
  obtain ⟨t, ht⟩ : ∃ t : Fin (cfg1 a0).N, t.val = (i 0).val / 8 := ⟨⟨_, hN⟩, rfl⟩
  have hx : (((cfg1 a0).win 1).blk t).view.emb (ValueIdx.ix2 ⟨(i 0).val % 8, Nat.mod_lt _ (by decide)⟩ (i 1)) = i := by
    funext a; apply Fin.ext
    have e0 : ((cfg1 a0).win 1).index t (0 : Fin 2) = t.val := congrFun (regOutIndex1 a0 t) (0 : Fin 2)
    have e1 : ((cfg1 a0).win 1).index t (1 : Fin 2) = 0 := congrFun (regOutIndex1 a0 t) (1 : Fin 2)
    match a with
    | ⟨0, _⟩ => show ((cfg1 a0).win 1).index t (0 : Fin 2) * 8 + 1 * ((i 0).val % 8) = (i 0).val; omega
    | ⟨1, _⟩ => show ((cfg1 a0).win 1).index t (1 : Fin 2) * 128 + 1 * (i 1).val = (i 1).val; omega
  exact ⟨t, regOutFlush1 a0 t, hx ▸ (((cfg1 a0).win 1).blk t).view.emb_mem_set _⟩

/-- The result array after the region: the gathered and scaled rows, whole. -/
theorem arrAt1_out (a0 : (pcfg1 (F := F)).Adm) (Vin : Dev nD → Valuation τ sig (Elt F)) (c : Dev nD) :
    (dat1 a0 Vin c).arrAt 1 (cfg1 a0).N = gout1 a0 Vin c :=
  (dat1 a0 Vin c).arrAt_eq_of_cover 1 (gout1 a0 Vin c)
    (fun t _ => by
      show ((cfg1 a0).win 1).cut ((cfg1 a0).grid.coords t) ((dat1 a0 Vin c).after 1 t) = _
      rw [after1_1])
    (regOutCover1 a0)

/-! ## The region as a segment of @main -/

/-- The ownership layout of the kernel's eight semaphores. -/
theorem ownSemFacts1 : Pipeline.OwnSemFacts spec1 osem1 := by decide

/-- The kernel's own cells at zero, listed. -/
theorem ownSemsListed1 (c : Dev nD) :
    (Pipeline.ownSems0 (Ix := Unit) (Name := ℕ) (U := UU nD τ) (Lvl := ℕ) (Val := Elt F) (τ := τ) osem1 c : sProp (MM F)) = sems1 c :=
  Pipeline.ownSems0_eq_of_list c osem1 [0, 1, 2, 3, 4, 5, 6, 7] (by decide) (by decide)

/-- The unscoped buffers that are no window's array, no table, and not the embedding array. -/
abbrev restRefs1 : Finset (Ref sig .tc) :=
  (((Finset.univ.filter fun b : Ref sig .tc => ¬ b.isScoped) \ Finset.univ.image (Pipeline.arrRef spec1)) \ Finset.univ.image pre1.ref) \ {main_arg0}

/-- Those buffers, each whole at its contents under `Vin`: what bypasses the region. -/
def Zrest1 (Vin : Dev nD → Valuation τ sig (Elt F)) (c : Dev nD) : sProp (MM F) :=
  bigSep restRefs1 fun b => ((c : Thread nD τ).loc b) ↦{fullShare} Vr Vin c b

/-- The embedding array is an unscoped buffer that is no window's array and no table. -/
theorem embArrMem1 : ({main_arg0} : Finset (Ref sig .tc)) ⊆
    ((Finset.univ.filter fun b : Ref sig .tc => ¬ b.isScoped) \ Finset.univ.image (Pipeline.arrRef spec1)) \ Finset.univ.image pre1.ref := by
  decide

/-- The unscoped buffers that are no window's array: the index table, the embedding array, and the rest. -/
theorem unscopedRestOpen1 (Vin : Dev nD → Valuation τ sig (Elt F)) (c : Dev nD) :
    (Pipeline.unscopedRest (Ix := Unit) (Name := ℕ) (U := UU nD τ) (Lvl := ℕ) spec1 c (Vr Vin c) : sProp (MM F))
      = iprop(Pipeline.prefHeld pre1 c (fun _ => fullShare) (fun k => Vr Vin c (pre1.ref k))
          ∗ pt c (Memref.whole main_arg0) (Vr Vin c main_arg0) ∗ Zrest1 Vin c) := by
  rw [Pipeline.unscopedRest_split preFacts1 c (Vr Vin c)]
  unfold Pipeline.unscopedRestP Zrest1
  rw [BI.bigSep_sdiff_split embArrMem1, BI.bigSep_singleton]
  rfl

/-- The buffer contents when the region is left: the result array at the gathered rows, every other buffer as entered. -/
abbrev Vout1 (a0 : (pcfg1 (F := F)).Adm) (Vin : Dev nD → Valuation τ sig (Elt F)) (c : Dev nD) : Valuation τ sig (Elt F) :=
  Function.update (Vin c) main_v12 (gout1 a0 Vin c)

/-- At the exit each of the region's arrays holds what the pipeline leaves; -/
theorem hF1 (a0 : (pcfg1 (F := F)).Adm) (Vin : Dev nD → Valuation τ sig (Elt F)) (c : Dev nD) (w : Fin (cfg1 a0).W) :
    (dat1 a0 Vin c).arrAt w (cfg1 a0).N = Vr (Vout1 a0 Vin) c (Pipeline.arrRef spec1 w) := by
  match w with
  | ⟨0, _⟩ =>
    show (dat1 a0 Vin c).arrAt 0 (cfg1 a0).N = Vr (Vout1 a0 Vin) c (Pipeline.arrRef spec1 0)
    rw [arrAt1_in]
    exact (Function.update_of_ne (StableHlo.devRef_ne_of_ne (by decide) : (Proc.devRef .tc main_v11 : DevRef τ sig) ≠ Proc.devRef .tc main_v12) _ _).symm
  | ⟨1, _⟩ =>
    show (dat1 a0 Vin c).arrAt 1 (cfg1 a0).N = Vr (Vout1 a0 Vin) c (Pipeline.arrRef spec1 1)
    rw [arrAt1_out]
    exact (Function.update_self (Proc.devRef .tc main_v12 : DevRef τ sig) _ (Vin c)).symm

/-- and every other buffer what it held at entry. -/
theorem hrest1 (a0 : (pcfg1 (F := F)).Adm) (Vin : Dev nD → Valuation τ sig (Elt F)) (c : Dev nD) :
    ∀ b : Ref sig .tc, b ∉ Finset.univ.image (Pipeline.arrRef spec1) → Vr (Vout1 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat1` at the entry valuation `Vin`
    (`hd`), the index table's contents under `Vin` being the pinned ones (`htbl`) and row numbers (`hok`). -/
def reg1 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk1 (F := F) (a (1 : Fin 34)))
    (hd : ∀ c, pdats (1 : Fin 34) c = dat1 (a (1 : Fin 34)) Vin c) (htbl : ∀ c, (a (1 : Fin 34)).1 = fun k => Vr Vin c (pre1.ref k)) :
    Pipeline.RegionSeg (pcfgs (F := F)) a pdats () defs₀ 𝒱₀ L lv (1 : Fin 34) where
  win := (launch1 (F := F)).win.to₀
  block_pos := (launch1 (F := F)).block_pos
  stage_whole := (launch1 (F := F)).stage_whole
  K := Fin 8
  osem := osem1
  ho := ownSemFacts1
  hbody c := by rw [hd c]; exact (body_obligation1 (a (1 : Fin 34)) hok Vin c).loose
  hwaits := Pipeline.hwaits_of_owed_zero _ _ _ _ L lv (1 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v12 (gout1 (a (1 : Fin 34)) Vin c)) ∗ Rest c)
  X c := iprop(pt c (Memref.whole main_arg0) (Vr Vin c main_arg0) ∗ sems1 c)
  Y c := iprop(pt c (Memref.whole main_arg0) (Vr Vin c main_arg0)
    ∗ Pipeline.prefHeld (Ix := Unit) (Name := ℕ) (U := UU nD τ) (Lvl := ℕ) pre1 c (fun _ => fullShare) (a (1 : Fin 34)).1)
  Z c := Zrest1 Vin c
  hentry c := by
    rw [ownSemsListed1]
    have hsplit := Pipeline.arrays_of_unscopedBufs (p := (1 : Fin 34)) (pcfgs (F := F)) a pdats (launch1 (F := F)).win (launch1 (F := F)).arr_whole c
      ((pdats (1 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen1 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (1 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq1]; unfold Phi1
    iintro ⟨⟨Hx, Hos⟩, Ht, Hr⟩
    isplitl [Hx]; · iexact Hx
    isplitl [Hos]; · iexact Hos
    isplitl [Ht]; · iexact Ht
    iexact Hr
  hout c := by
    rw [ownSemsListed1, hd c, Phi_eq1]; unfold Phi1
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (1 : Fin 34)) (pcfgs (F := F)) a (Ix := Unit) (Name := ℕ) (U := UU nD τ) (Lvl := ℕ)
      (launch1 (F := F)).win (launch1 (F := F)).arr_whole c pdats ((pdats (1 : Fin 34) c).share_full fun _ => by rw [hd c]; rfl)
      (Vr Vin c) (Vr (Vout1 (a (1 : Fin 34)) Vin) c) ((pdats (1 : Fin 34) c).arrAt · (cfg1 (a (1 : Fin 34))).N)
      (fun w => by rw [hd c]; exact hF1 (a (1 : Fin 34)) Vin c w) (hrest1 (a (1 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen1 Vin c).symm)
      isplitl [Ht]; · rw [← htbl c]; iexact Ht
      isplitl [Hx]; · iexact Hx
      iexact Hz
    unfold Pipeline.Dat.owesAt Pipeline.owesWithin
    rw [show (pdats (1 : Fin 34) c).owed (Fin.last _) = 0 from by rw [hd c]; rfl]
    icases HO with ⟨%W, -, HO⟩; iexists W; iexact HO

end Cert.Kernel.Hand

end
-- ==== Proof.K.GatherDat2.lean ====
/-
  Gather region 2 (custom_call 2): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem2 : Fin 8 → SemLoc sig := fun | 0 => .dma 28 | 1 => .dma 29 | 2 => .dma 30 | 3 => .dma 31 | 4 => .dma 32 | 5 => .dma 33 | 6 => .dma 34 | 7 => .dma 35

/-- The eight counters at zero, as the run finds them and hands them back. -/
abbrev sems2 (c : Dev nD) : sProp (MM F) :=
  iprop(semVal ((c : Thread nD τ), osem2 0) 0 ∗ semVal ((c : Thread nD τ), osem2 1) 0 ∗ semVal ((c : Thread nD τ), osem2 2) 0
    ∗ semVal ((c : Thread nD τ), osem2 3) 0 ∗ semVal ((c : Thread nD τ), osem2 4) 0 ∗ semVal ((c : Thread nD τ), osem2 5) 0
    ∗ semVal ((c : Thread nD τ), osem2 6) 0 ∗ semVal ((c : Thread nD τ), osem2 7) 0)

/-- Word `j` of the eight the index table holds for point `i`, as the kernel's scalar load reads it. -/
def tblWord2 (c : Dev nD) (i : grid2.Coords) (tbl : Bf (F := F) c (Memref.whole main_v13)) (j : Fin 8) : BitVec 32 :=
  (Memref.whole main_v13).view.readAt (Elt F) (Rect.unit (s := S131072) (k2_off1 i (BitVec.ofNat 32 j.val)) S1.size (k2_off1_inb i j)).toLoadRect tbl
    (Shape.Idx.first (s := S1) (numel1_S1.symm ▸ Nat.one_pos))

/-- Window `w`'s block at point `t`, read off its array at the region's entry. -/
def iblk2 (a0 : (pcfg2 (F := F)).Adm) (Vin : Dev nD → Valuation τ sig (Elt F)) (c : Dev nD) (w : Fin (cfg2 a0).W) (t : Fin (cfg2 a0).N) :
    (((cfg2 a0).win w).xblock ((cfg2 a0).grid.coords t)).Idx → Elt F ((cfg2 a0).win w).elt :=
  (((cfg2 a0).win w).blk t).view.read (Elt F) (Vr Vin c (Pipeline.arrRef spec2 w))

/-- The result array the region leaves: the gathered and scaled rows of the embedding array, whole. -/
def gout2 (a0 : (pcfg2 (F := F)).Adm) (Vin : Dev nD → Valuation τ sig (Elt F)) (c : Dev nD) : Buf (Elt F) ((c : Thread nD τ).loc main_v15) :=
  gatherArr (Vr Vin c main_arg0) (a0.1 0) (Vr Vin c main_v14)

/-- The invariant between points: the embedding array as entered, the kernel's semaphores at zero, the index table, the
    scoped buffers no window stages (the kernel's scratch among them). -/
def Phi2 (a0 : (pcfg2 (F := F)).Adm) (Vin : Dev nD → Valuation τ sig (Elt F)) (c : Dev nD) : sProp (MM F) :=
  iprop(pt c (Memref.whole main_arg0) (Vr Vin c main_arg0) ∗ sems2 c
    ∗ Pipeline.prefHeld (Ix := Unit) (Name := ℕ) (U := UU nD τ) (Lvl := ℕ) pre2 c (fun _ => fullShare) a0.1
    ∗ Pipeline.scopedRest (Ix := Unit) (Name := ℕ) (U := UU nD τ) (Lvl := ℕ) (Val := Elt F) spec2 c)

/-- The proof data on core `c`. -/
def dat2 (a0 : (pcfg2 (F := F)).Adm) (Vin : Dev nD → Valuation τ sig (Elt F)) (c : Dev nD) :
    Pipeline.Dat τ (Elt F) Unit ℕ (UU nD τ) ℕ ((pcfg2 (F := F)).at a0) c where
  A w := Vr Vin c (Pipeline.arrRef spec2 w)
  after w t := match w with
    | ⟨0, _⟩ => iblk2 a0 Vin c 0 t
    | ⟨1, _⟩ => (((cfg2 a0).win 1).blk t).view.read (Elt F) (gout2 a0 Vin c)
  Φ _ := Phi2 a0 Vin c
  q _ := fullShare
  owed _ := 0

theorem A_eq2 (a0 : (pcfg2 (F := F)).Adm) (Vin : Dev nD → Valuation τ sig (Elt F)) (c : Dev nD) (w : Fin (cfg2 a0).W) :
    (dat2 a0 Vin c).A w = Vr Vin c (Pipeline.arrRef spec2 w) := by dsimp only [dat2]
theorem after2_0 (a0 : (pcfg2 (F := F)).Adm) (Vin : Dev nD → Valuation τ sig (Elt F)) (c : Dev nD) (t : Fin (cfg2 a0).N) :
    (dat2 a0 Vin c).after 0 t = iblk2 a0 Vin c 0 t := by dsimp only [dat2]; rfl
theorem after2_1 (a0 : (pcfg2 (F := F)).Adm) (Vin : Dev nD → Valuation τ sig (Elt F)) (c : Dev nD) (t : Fin (cfg2 a0).N) :
    (dat2 a0 Vin c).after 1 t = (((cfg2 a0).win 1).blk t).view.read (Elt F) (gout2 a0 Vin c) := by dsimp only [dat2]; rfl
theorem Phi_eq2 (a0 : (pcfg2 (F := F)).Adm) (Vin : Dev nD → Valuation τ sig (Elt F)) (c : Dev nD) (t : Fin ((cfg2 a0).N + 1)) :
    (dat2 a0 Vin c).Φ t = Phi2 a0 Vin c := rfl
theorem owed_eq2 (a0 : (pcfg2 (F := F)).Adm) (Vin : Dev nD → Valuation τ sig (Elt F)) (c : Dev nD) (t : Fin ((cfg2 a0).N + 1)) :
    (dat2 a0 Vin c).owed t = 0 := rfl
theorem q_eq2 (a0 : (pcfg2 (F := F)).Adm) (Vin : Dev nD → Valuation τ sig (Elt F)) (c : Dev nD) (w : Fin (cfg2 a0).W) :
    (dat2 a0 Vin c).q w = fullShare := rfl

/-- The pinned family's configuration at region 2 is this one. -/
example (a : (p : Fin 34) → (pcfgs (F := F) p).Adm) : Pipeline.pin (pcfgs (F := F)) a (2 : Fin 34) = (pcfg2 (F := F)).at (a (2 : Fin 34)) := rfl

end Cert.Kernel.Hand

end
-- ==== Proof.K.GatherBody2.lean ====
/-
  Gather region 2 (custom_call 2): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat2
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk2 (c : Dev nD) (i : grid2.Coords) (tbl : Bf (F := F) c (Memref.whole main_v13)) : Prop where
  h1 : k2_chk1 (tblWord2 c i tbl 0)
  h2 : k2_chk2 (tblWord2 c i tbl 1)
  h3 : k2_chk3 (tblWord2 c i tbl 2)
  h4 : k2_chk4 (tblWord2 c i tbl 3)
  h5 : k2_chk5 (tblWord2 c i tbl 4)
  h6 : k2_chk6 (tblWord2 c i tbl 5)
  h7 : k2_chk7 (tblWord2 c i tbl 6)
  h8 : k2_chk8 (tblWord2 c i tbl 7)

/-- A one-row slice of the embedding array at the row a word names, read at lane `z 1`: the array's element there. -/
theorem rowRead2 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun2 (c : Dev nD) (i : grid2.Coords)
    (M3 : Memref sig .tc .vmem S8x1 .f32) (h3 : M3.IsWhole) (M4 : Memref sig .tc .vmem S8x128 .f32) (h4 : M4.IsWhole)
    (tbl : Bf (F := F) c (Memref.whole main_v13)) (x : Bf (F := F) c (Memref.whole main_arg0))
    (vb : Vec F S8x1 .f32) (hchk : GatherChk2 c i tbl) (Q : PUnit → sProp (MM F)) :
    iprop(pt c (Memref.whole main_v13) tbl ∗ pt c (Memref.whole main_arg0) x
      ∗ owns (c : Thread nD τ) M3 fullShare vb ∗ (∃ d, owns (c : Thread nD τ) M4 fullShare d)
      ∗ (∃ fs, pt c (Memref.whole cc2_scratch0) fs) ∗ sems2 c ∗ (∃ W, owes (c : Thread nD τ) (0 : CellTallies nD τ sig Unit) W)
      ∗ (iprop(pt c (Memref.whole main_v13) tbl ∗ pt c (Memref.whole main_arg0) x
          ∗ owns (c : Thread nD τ) M3 fullShare vb ∗ owns (c : Thread nD τ) M4 fullShare (gatherBlk x (tblWord2 c i tbl) vb)
          ∗ (∃ fs, pt c (Memref.whole cc2_scratch0) fs) ∗ sems2 c ∗ (∃ W, owes (c : Thread nD τ) (0 : CellTallies nD τ sig Unit) W)) -∗ Q ⟨⟩))
    ⊢ wp frame (wpE (defs₀ (F := F)) 𝒱₀ c none) Set.univ
        (cc2__gather_kernel i (Memref.whole main_v13) (Memref.isWhole_whole _) (Memref.whole main_arg0) (Memref.isWhole_whole _) M3 h3 M4 h4
          (Memref.whole cc2_scratch0) (Memref.isWhole_whole _) cc2_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 28).1 $$ Hx
  icases Hx' with ⟨Hxr, Hx0, Hx1, Hx2, Hx3, Hx4, Hx5, Hx6, Hx7⟩
  sl_unfold [cc2__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 28).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k2_pay1 gatherBlk
    show FloatOps.mulf _ _ = FloatOps.mulf _ _
    congr 1
    · unfold gatherRun2.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun2.sl.dma8 gatherRun2.sl.dma8_1 gatherRun2.sl.dma8_2 gatherRun2.sl.dma8_3 gatherRun2.sl.dma8_4 gatherRun2.sl.dma8_5
        gatherRun2.sl.dma8_6 gatherRun2.sl.dma8_7 gatherRun2.sl.r gatherRun2.sl.r_1 gatherRun2.sl.r_2 gatherRun2.sl.r_3 gatherRun2.sl.r_4
        gatherRun2.sl.r_5 gatherRun2.sl.r_6 gatherRun2.sl.r_7
      refine canonRows8 _ _ _ _ _ _ _ _ _ _ _ _ _ _ _ _ (fun r d => x (embIdx (rowOf (tblWord2 c i tbl r)) d)) ?_ ?_ ?_ ?_ ?_ ?_ ?_ ?_ y
      · exact fun z => rowRead2 c _ (tblWord2 c i tbl 0) rfl rfl _ _ x z
      · exact fun z => rowRead2 c _ (tblWord2 c i tbl 1) rfl rfl _ _ x z
      · exact fun z => rowRead2 c _ (tblWord2 c i tbl 2) rfl rfl _ _ x z
      · exact fun z => rowRead2 c _ (tblWord2 c i tbl 3) rfl rfl _ _ x z
      · exact fun z => rowRead2 c _ (tblWord2 c i tbl 4) rfl rfl _ _ x z
      · exact fun z => rowRead2 c _ (tblWord2 c i tbl 5) rfl rfl _ _ x z
      · exact fun z => rowRead2 c _ (tblWord2 c i tbl 6) rfl rfl _ _ x z
      · exact fun z => rowRead2 c _ (tblWord2 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk2.lean ====
/-
  Gather region 2 (custom_call 2): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat2
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word2 (i : grid2.Coords) (j : Fin 8) : k2_off1 i (BitVec.ofNat 32 j.val) 0 = (i 0).val * 8 + j.val := by
  have hi : (i 0).val < 16384 := (i 0).isLt
  have hj : j.val < 8 := j.isLt
  unfold k2_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word2 (i : grid2.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord2_eq (c : Dev nD) (i : grid2.Coords) (tbl : Bf (F := F) c (Memref.whole main_v13)) (j : Fin 8)
    (e : Fin 131072) (he : e.val = (i 0).val * 8 + j.val) : tblWord2 c i tbl j = tbl (tblIdx e) := by
  unfold tblWord2
  show tbl _ = tbl _
  refine congrArg tbl ?_
  funext a; apply Fin.ext
  match a with
  | ⟨0, _⟩ =>
    show k2_off1 i (BitVec.ofNat 32 j.val) 0 + 1 * 0 = e.val
    rw [off_word2, he]; omega

/-- Row `j` of the value window's block at point `t` is the value array's row `8 t + j`. -/
theorem valBlk2_eq (a0 : (pcfg2 (F := F)).Adm) (Vin : Dev nD → Valuation τ sig (Elt F)) (c : Dev nD) (t : Fin (cfg2 a0).N)
    (j : Fin 8) (e : Fin 131072) (he : e.val = ((grid2.coords t) 0).val * 8 + j.val) :
    iblk2 a0 Vin c 0 t (colIdx j) = Vr Vin c main_v14 (valIdx e) := by
  unfold iblk2
  show Vr Vin c main_v14 _ = Vr Vin c main_v14 _
  refine congrArg (Vr Vin c main_v14) ?_
  funext a; apply Fin.ext
  match a with
  | ⟨0, _⟩ =>
    show (BitVec.ofNat 32 ((grid2.coords t) 0).val).toNat * 8 + 1 * j.val = e.val
    rw [coord_word2, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk2 (a0 : (pcfg2 (F := F)).Adm) (Vin : Dev nD → Valuation τ sig (Elt F)) (c : Dev nD) (t : Fin (cfg2 a0).N) :
    gatherBlk (Vr Vin c main_arg0) (tblWord2 c (grid2.coords t) (a0.1 0)) (iblk2 a0 Vin c 0 t)
      = (((cfg2 a0).win 1).blk t).view.read (Elt F) (gout2 a0 Vin c) := by
  funext y
  show gatherBlk _ _ _ y = gout2 a0 Vin c ((((cfg2 a0).win 1).blk t).view.emb y)
  unfold gatherBlk gout2 gatherArr
  have e0 : ((((cfg2 a0).win 1).blk t).view.emb y (0 : Fin 2)).val = ((grid2.coords t) 0).val * 8 + (y 0).val := by
    show (BitVec.ofNat 32 ((grid2.coords t) 0).val).toNat * 8 + 1 * (y 0).val = _
    rw [coord_word2]; omega
  have e1 : (((cfg2 a0).win 1).blk t).view.emb y (1 : Fin 2) = y 1 := Fin.ext (by
    show (0#32 : BitVec 32).toNat * 128 + 1 * (y 1).val = (y 1).val
    show 0 * 128 + 1 * (y 1).val = (y 1).val
    omega)
  rw [tblWord2_eq c (grid2.coords t) (a0.1 0) (y 0) _ e0, valBlk2_eq a0 Vin c t (y 0) _ e0, e1]

end Cert.Kernel.Hand

end
-- ==== Proof.K.GatherRegion2.lean ====
/-
  Gather region 2 (custom_call 2): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody2
import proofs.«414509_j14181982011419_2_alg».proof.Proof.K.GatherBlk2
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk2 (a0 : (pcfg2 (F := F)).Adm) : Prop := ∀ e : S131072.Idx, (a0.1 0 e).toNat < 100000

/-! ## The grid and the result window's blocks -/

/-- On the one-axis grid a point's coordinate is its number. -/
theorem regCoords2 (t : Fin grid2.N) : (grid2.coords t 0).val = t.val := by
  have ht : t.val < 16384 := N_2 ▸ t.isLt
  show t.val / grid2.stride 0 % grid2.bound 0 = t.val
  rw [show grid2.stride 0 = 1 from by decide, show grid2.bound 0 = 16384 from rfl, Nat.div_one, Nat.mod_eq_of_lt ht]

/-- A point's number as the 32-bit word the index maps compute with. -/
theorem regWord2 (t : Fin grid2.N) : (BitVec.ofNat 32 (grid2.coords t 0).val).toNat = t.val := by
  have ht : t.val < 16384 := N_2 ▸ t.isLt
  rw [BitVec.toNat_ofNat, regCoords2]; omega

/-- The result window's block at point `t` is block `t` along the rows, at zero along the lanes. -/
theorem regOutIndex2 (a0 : (pcfg2 (F := F)).Adm) (t : Fin (cfg2 a0).N) : ((cfg2 a0).win 1).index t = ![t.val, 0] := by
  show cc2_transform_2 (grid2.coords t) = _
  unfold cc2_transform_2
  funext a; fin_cases a
  · exact regWord2 t
  · rfl

/-- The result window is written back at every point: consecutive points have different blocks. -/
theorem regOutFlush2 (a0 : (pcfg2 (F := F)).Adm) (t : Fin (cfg2 a0).N) : ((cfg2 a0).win 1).flush t = true := by
  have htN : t.val < 16384 := N_2 ▸ t.isLt
  rw [Pipeline.Window.flush_out _ rfl]
  by_cases h : t.val + 1 = 16384
  · exact Or.inl (show t.val + 1 = grid2.N by rw [N_2]; exact h)
  · have hlt : t.val + 1 < grid2.N := by rw [N_2]; omega
    refine Or.inr ⟨hlt, fun e => ?_⟩
    have e' : (![t.val + 1, 0] : Fin 2 → ℕ) = ![t.val, 0] := (regOutIndex2 a0 ⟨t.val + 1, hlt⟩).symm.trans (e.trans (regOutIndex2 a0 t))
    have e0 := congrFun e' 0
    simp at e0

/-- The index table, held as the pipeline's one prefetched table. -/
theorem prefHeldEq2 (a0 : (pcfg2 (F := F)).Adm) (c : Dev nD) :
    (Pipeline.prefHeld (Ix := Unit) (Name := ℕ) (U := UU nD τ) (Lvl := ℕ) pre2 c (fun _ => fullShare) a0.1 : sProp (MM F))
      = pt c (Memref.whole main_v13) (a0.1 0) := by
  unfold Pipeline.prefHeld
  rw [show (Finset.univ : Finset (Fin pre2.K)) = {0} from rfl, BI.bigSep_singleton]
  rfl

/-- The value window's staging buffer holds its block at every point. -/
theorem beforeVal2 (a0 : (pcfg2 (F := F)).Adm) (Vin : Dev nD → Valuation τ sig (Elt F)) (c : Dev nD) (t : Fin (cfg2 a0).N) (d) :
    (dat2 a0 Vin c).before 0 t d = iblk2 a0 Vin c 0 t :=
  ((dat2 a0 Vin c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-! ## The kernel's checks, from the table's range -/

/-- Each of the point's eight words is a word of the table, so a row number. -/
theorem tblWordLt2 (a0 : (pcfg2 (F := F)).Adm) (hok : GatherOk2 a0) (c : Dev nD) (i : grid2.Coords) (j : Fin 8) :
    (tblWord2 c i (a0.1 0) j).toNat < 100000 := by
  unfold tblWord2
  exact hok _

/-- So the kernel's eight checks hold at every point. -/
theorem gatherChk2 (a0 : (pcfg2 (F := F)).Adm) (hok : GatherOk2 a0) (c : Dev nD) (i : grid2.Coords) : GatherChk2 c i (a0.1 0) :=
  ⟨⟨chkRow _ (tblWordLt2 a0 hok c i 0), chkRow _ (tblWordLt2 a0 hok c i 0)⟩,
   ⟨chkRow _ (tblWordLt2 a0 hok c i 1), chkRow _ (tblWordLt2 a0 hok c i 1)⟩,
   ⟨chkRow _ (tblWordLt2 a0 hok c i 2), chkRow _ (tblWordLt2 a0 hok c i 2)⟩,
   ⟨chkRow _ (tblWordLt2 a0 hok c i 3), chkRow _ (tblWordLt2 a0 hok c i 3)⟩,
   ⟨chkRow _ (tblWordLt2 a0 hok c i 4), chkRow _ (tblWordLt2 a0 hok c i 4)⟩,
   ⟨chkRow _ (tblWordLt2 a0 hok c i 5), chkRow _ (tblWordLt2 a0 hok c i 5)⟩,
   ⟨chkRow _ (tblWordLt2 a0 hok c i 6), chkRow _ (tblWordLt2 a0 hok c i 6)⟩,
   chkRow _ (tblWordLt2 a0 hok c i 7)⟩

/-! ## The body obligation, at a generic point -/

/-- What the body is called with at point `t`: the invariant, the core's dues, each window's current staging memref at
    what the pipeline left there, -/
def bodyPre2 (a0 : (pcfg2 (F := F)).Adm) (Vin : Dev nD → Valuation τ sig (Elt F)) (c : Dev nD) (t : Fin (cfg2 a0).N) : sProp (MM F) :=
  iprop((dat2 a0 Vin c).Φ t.castSucc ∗ (dat2 a0 Vin c).owesAt () t.castSucc
    ∗ (∃ d, owns (c : Thread nD τ) (((cfg2 a0).win 0).stage ((cfg2 a0).slots t 0)) fullShare ((dat2 a0 Vin c).before 0 t d))
    ∗ (∃ d, owns (c : Thread nD τ) (((cfg2 a0).win 1).stage ((cfg2 a0).slots t 1)) fullShare ((dat2 a0 Vin c).before 1 t d)))

/-- and what it returns. -/
def bodyPost2 (a0 : (pcfg2 (F := F)).Adm) (Vin : Dev nD → Valuation τ sig (Elt F)) (c : Dev nD) (t : Fin (cfg2 a0).N) : sProp (MM F) :=
  iprop((dat2 a0 Vin c).Φ t.succ ∗ (dat2 a0 Vin c).owesAt () t.succ
    ∗ owns (c : Thread nD τ) (((cfg2 a0).win 0).stage ((cfg2 a0).slots t 0)) fullShare ((dat2 a0 Vin c).after 0 t)
    ∗ owns (c : Thread nD τ) (((cfg2 a0).win 1).stage ((cfg2 a0).slots t 1)) fullShare ((dat2 a0 Vin c).after 1 t))

/-- The body at any point: the invariant opened into the embedding array, the semaphores, the table and the scratch;
    the value window's memref at its block; the checks from the table's range; so the kernel's run applies, and what it
    leaves in the result window's memref is the point's block of the gathered array. -/
theorem sound_body2 (a0 : (pcfg2 (F := F)).Adm) (hok : GatherOk2 a0) (Vin : Dev nD → Valuation τ sig (Elt F)) (c : Dev nD) (t : Fin (cfg2 a0).N) :
    bodyPre2 a0 Vin c t ⊢ wp frame (wpE (defs₀ (F := F)) 𝒱₀ c none) Set.univ
      (defs₀ .tc (cfg2 a0).body ((cfg2 a0).bodyArgs t ((cfg2 a0).slots t))) (fun _ => bodyPost2 a0 Vin c t) := by
  unfold bodyPre2 bodyPost2
  simp only [beforeVal2]
  rw [Phi_eq2, Phi_eq2, after2_0, after2_1, ← gatherBlk_blk2]
  unfold Phi2 Pipeline.Dat.owesAt Pipeline.owesWithin
  rw [owed_eq2, owed_eq2, prefHeldEq2, scopedRest2_split]
  iintro ⟨⟨Hx, Hos, Ht, ⟨%fs, Hs⟩, Hsb⟩, ⟨%W, %hW, HO⟩, ⟨%d0, H0⟩, ⟨%d1, H1⟩⟩
  iapply (gatherRun2 c (grid2.coords t) _ _ _ _ (a0.1 0) (Vr Vin c main_arg0) (iblk2 a0 Vin c 0 t) (gatherChk2 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation2 (a0 : (pcfg2 (F := F)).Adm) (hok : GatherOk2 a0) (Vin : Dev nD → Valuation τ sig (Elt F)) (c : Dev nD) :
    BodyObligation (dat2 a0 Vin c) (defs₀ (F := F)) 𝒱₀ () Set.univ := fun t => by
  rw [bigSep_W2, bigSep_W2]
  exact sound_body2 a0 hok Vin c t

/-! ## From the blocks to the arrays -/

/-- The value array after the region: as entered. -/
theorem arrAt2_in (a0 : (pcfg2 (F := F)).Adm) (Vin : Dev nD → Valuation τ sig (Elt F)) (c : Dev nD) :
    (dat2 a0 Vin c).arrAt 0 (cfg2 a0).N = Vr Vin c main_v14 :=
  ((dat2 a0 Vin c).arrAt_in 0 rfl _).trans (A_eq2 a0 Vin c 0)

/-- Every index of the result array is in some point's block: row `e`, lane `d` is element `(e % 8, d)` of the block
    of point `e / 8`. -/
theorem regOutCover2 (a0 : (pcfg2 (F := F)).Adm) (i : S131072x128.Idx) :
    ∃ t : Fin (cfg2 a0).N, ((cfg2 a0).win 1).flush t = true ∧ i ∈ (((cfg2 a0).win 1).blk t).view.set := by
  have hi0 : (i 0).val < 131072 := (i 0).isLt
  have hi1 : (i 1).val < 128 := (i 1).isLt
  have hN : (i 0).val / 8 < grid2.N := by rw [N_2]; omega
  obtain ⟨t, ht⟩ : ∃ t : Fin (cfg2 a0).N, t.val = (i 0).val / 8 := ⟨⟨_, hN⟩, rfl⟩
  have hx : (((cfg2 a0).win 1).blk t).view.emb (ValueIdx.ix2 ⟨(i 0).val % 8, Nat.mod_lt _ (by decide)⟩ (i 1)) = i := by
    funext a; apply Fin.ext
    have e0 : ((cfg2 a0).win 1).index t (0 : Fin 2) = t.val := congrFun (regOutIndex2 a0 t) (0 : Fin 2)
    have e1 : ((cfg2 a0).win 1).index t (1 : Fin 2) = 0 := congrFun (regOutIndex2 a0 t) (1 : Fin 2)
    match a with
    | ⟨0, _⟩ => show ((cfg2 a0).win 1).index t (0 : Fin 2) * 8 + 1 * ((i 0).val % 8) = (i 0).val; omega
    | ⟨1, _⟩ => show ((cfg2 a0).win 1).index t (1 : Fin 2) * 128 + 1 * (i 1).val = (i 1).val; omega
  exact ⟨t, regOutFlush2 a0 t, hx ▸ (((cfg2 a0).win 1).blk t).view.emb_mem_set _⟩

/-- The result array after the region: the gathered and scaled rows, whole. -/
theorem arrAt2_out (a0 : (pcfg2 (F := F)).Adm) (Vin : Dev nD → Valuation τ sig (Elt F)) (c : Dev nD) :
    (dat2 a0 Vin c).arrAt 1 (cfg2 a0).N = gout2 a0 Vin c :=
  (dat2 a0 Vin c).arrAt_eq_of_cover 1 (gout2 a0 Vin c)
    (fun t _ => by
      show ((cfg2 a0).win 1).cut ((cfg2 a0).grid.coords t) ((dat2 a0 Vin c).after 1 t) = _
      rw [after2_1])
    (regOutCover2 a0)

/-! ## The region as a segment of @main -/

/-- The ownership layout of the kernel's eight semaphores. -/
theorem ownSemFacts2 : Pipeline.OwnSemFacts spec2 osem2 := by decide

/-- The kernel's own cells at zero, listed. -/
theorem ownSemsListed2 (c : Dev nD) :
    (Pipeline.ownSems0 (Ix := Unit) (Name := ℕ) (U := UU nD τ) (Lvl := ℕ) (Val := Elt F) (τ := τ) osem2 c : sProp (MM F)) = sems2 c :=
  Pipeline.ownSems0_eq_of_list c osem2 [0, 1, 2, 3, 4, 5, 6, 7] (by decide) (by decide)

/-- The unscoped buffers that are no window's array, no table, and not the embedding array. -/
abbrev restRefs2 : Finset (Ref sig .tc) :=
  (((Finset.univ.filter fun b : Ref sig .tc => ¬ b.isScoped) \ Finset.univ.image (Pipeline.arrRef spec2)) \ Finset.univ.image pre2.ref) \ {main_arg0}

/-- Those buffers, each whole at its contents under `Vin`: what bypasses the region. -/
def Zrest2 (Vin : Dev nD → Valuation τ sig (Elt F)) (c : Dev nD) : sProp (MM F) :=
  bigSep restRefs2 fun b => ((c : Thread nD τ).loc b) ↦{fullShare} Vr Vin c b

/-- The embedding array is an unscoped buffer that is no window's array and no table. -/
theorem embArrMem2 : ({main_arg0} : Finset (Ref sig .tc)) ⊆
    ((Finset.univ.filter fun b : Ref sig .tc => ¬ b.isScoped) \ Finset.univ.image (Pipeline.arrRef spec2)) \ Finset.univ.image pre2.ref := by
  decide

/-- The unscoped buffers that are no window's array: the index table, the embedding array, and the rest. -/
theorem unscopedRestOpen2 (Vin : Dev nD → Valuation τ sig (Elt F)) (c : Dev nD) :
    (Pipeline.unscopedRest (Ix := Unit) (Name := ℕ) (U := UU nD τ) (Lvl := ℕ) spec2 c (Vr Vin c) : sProp (MM F))
      = iprop(Pipeline.prefHeld pre2 c (fun _ => fullShare) (fun k => Vr Vin c (pre2.ref k))
          ∗ pt c (Memref.whole main_arg0) (Vr Vin c main_arg0) ∗ Zrest2 Vin c) := by
  rw [Pipeline.unscopedRest_split preFacts2 c (Vr Vin c)]
  unfold Pipeline.unscopedRestP Zrest2
  rw [BI.bigSep_sdiff_split embArrMem2, BI.bigSep_singleton]
  rfl

/-- The buffer contents when the region is left: the result array at the gathered rows, every other buffer as entered. -/
abbrev Vout2 (a0 : (pcfg2 (F := F)).Adm) (Vin : Dev nD → Valuation τ sig (Elt F)) (c : Dev nD) : Valuation τ sig (Elt F) :=
  Function.update (Vin c) main_v15 (gout2 a0 Vin c)

/-- At the exit each of the region's arrays holds what the pipeline leaves; -/
theorem hF2 (a0 : (pcfg2 (F := F)).Adm) (Vin : Dev nD → Valuation τ sig (Elt F)) (c : Dev nD) (w : Fin (cfg2 a0).W) :
    (dat2 a0 Vin c).arrAt w (cfg2 a0).N = Vr (Vout2 a0 Vin) c (Pipeline.arrRef spec2 w) := by
  match w with
  | ⟨0, _⟩ =>
    show (dat2 a0 Vin c).arrAt 0 (cfg2 a0).N = Vr (Vout2 a0 Vin) c (Pipeline.arrRef spec2 0)
    rw [arrAt2_in]
    exact (Function.update_of_ne (StableHlo.devRef_ne_of_ne (by decide) : (Proc.devRef .tc main_v14 : DevRef τ sig) ≠ Proc.devRef .tc main_v15) _ _).symm
  | ⟨1, _⟩ =>
    show (dat2 a0 Vin c).arrAt 1 (cfg2 a0).N = Vr (Vout2 a0 Vin) c (Pipeline.arrRef spec2 1)
    rw [arrAt2_out]
    exact (Function.update_self (Proc.devRef .tc main_v15 : DevRef τ sig) _ (Vin c)).symm

/-- and every other buffer what it held at entry. -/
theorem hrest2 (a0 : (pcfg2 (F := F)).Adm) (Vin : Dev nD → Valuation τ sig (Elt F)) (c : Dev nD) :
    ∀ b : Ref sig .tc, b ∉ Finset.univ.image (Pipeline.arrRef spec2) → Vr (Vout2 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat2` at the entry valuation `Vin`
    (`hd`), the index table's contents under `Vin` being the pinned ones (`htbl`) and row numbers (`hok`). -/
def reg2 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk2 (F := F) (a (2 : Fin 34)))
    (hd : ∀ c, pdats (2 : Fin 34) c = dat2 (a (2 : Fin 34)) Vin c) (htbl : ∀ c, (a (2 : Fin 34)).1 = fun k => Vr Vin c (pre2.ref k)) :
    Pipeline.RegionSeg (pcfgs (F := F)) a pdats () defs₀ 𝒱₀ L lv (2 : Fin 34) where
  win := (launch2 (F := F)).win.to₀
  block_pos := (launch2 (F := F)).block_pos
  stage_whole := (launch2 (F := F)).stage_whole
  K := Fin 8
  osem := osem2
  ho := ownSemFacts2
  hbody c := by rw [hd c]; exact (body_obligation2 (a (2 : Fin 34)) hok Vin c).loose
  hwaits := Pipeline.hwaits_of_owed_zero _ _ _ _ L lv (2 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v15 (gout2 (a (2 : Fin 34)) Vin c)) ∗ Rest c)
  X c := iprop(pt c (Memref.whole main_arg0) (Vr Vin c main_arg0) ∗ sems2 c)
  Y c := iprop(pt c (Memref.whole main_arg0) (Vr Vin c main_arg0)
    ∗ Pipeline.prefHeld (Ix := Unit) (Name := ℕ) (U := UU nD τ) (Lvl := ℕ) pre2 c (fun _ => fullShare) (a (2 : Fin 34)).1)
  Z c := Zrest2 Vin c
  hentry c := by
    rw [ownSemsListed2]
    have hsplit := Pipeline.arrays_of_unscopedBufs (p := (2 : Fin 34)) (pcfgs (F := F)) a pdats (launch2 (F := F)).win (launch2 (F := F)).arr_whole c
      ((pdats (2 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen2 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (2 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq2]; unfold Phi2
    iintro ⟨⟨Hx, Hos⟩, Ht, Hr⟩
    isplitl [Hx]; · iexact Hx
    isplitl [Hos]; · iexact Hos
    isplitl [Ht]; · iexact Ht
    iexact Hr
  hout c := by
    rw [ownSemsListed2, hd c, Phi_eq2]; unfold Phi2
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (2 : Fin 34)) (pcfgs (F := F)) a (Ix := Unit) (Name := ℕ) (U := UU nD τ) (Lvl := ℕ)
      (launch2 (F := F)).win (launch2 (F := F)).arr_whole c pdats ((pdats (2 : Fin 34) c).share_full fun _ => by rw [hd c]; rfl)
      (Vr Vin c) (Vr (Vout2 (a (2 : Fin 34)) Vin) c) ((pdats (2 : Fin 34) c).arrAt · (cfg2 (a (2 : Fin 34))).N)
      (fun w => by rw [hd c]; exact hF2 (a (2 : Fin 34)) Vin c w) (hrest2 (a (2 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen2 Vin c).symm)
      isplitl [Ht]; · rw [← htbl c]; iexact Ht
      isplitl [Hx]; · iexact Hx
      iexact Hz
    unfold Pipeline.Dat.owesAt Pipeline.owesWithin
    rw [show (pdats (2 : Fin 34) c).owed (Fin.last _) = 0 from by rw [hd c]; rfl]
    icases HO with ⟨%W, -, HO⟩; iexists W; iexact HO

end Cert.Kernel.Hand

end
-- ==== Proof.K.GatherDat3.lean ====
/-
  Gather region 3 (custom_call 3): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem3 : Fin 8 → SemLoc sig := fun | 0 => .dma 40 | 1 => .dma 41 | 2 => .dma 42 | 3 => .dma 43 | 4 => .dma 44 | 5 => .dma 45 | 6 => .dma 46 | 7 => .dma 47

/-- The eight counters at zero, as the run finds them and hands them back. -/
abbrev sems3 (c : Dev nD) : sProp (MM F) :=
  iprop(semVal ((c : Thread nD τ), osem3 0) 0 ∗ semVal ((c : Thread nD τ), osem3 1) 0 ∗ semVal ((c : Thread nD τ), osem3 2) 0
    ∗ semVal ((c : Thread nD τ), osem3 3) 0 ∗ semVal ((c : Thread nD τ), osem3 4) 0 ∗ semVal ((c : Thread nD τ), osem3 5) 0
    ∗ semVal ((c : Thread nD τ), osem3 6) 0 ∗ semVal ((c : Thread nD τ), osem3 7) 0)

/-- Word `j` of the eight the index table holds for point `i`, as the kernel's scalar load reads it. -/
def tblWord3 (c : Dev nD) (i : grid3.Coords) (tbl : Bf (F := F) c (Memref.whole main_v16)) (j : Fin 8) : BitVec 32 :=
  (Memref.whole main_v16).view.readAt (Elt F) (Rect.unit (s := S131072) (k3_off1 i (BitVec.ofNat 32 j.val)) S1.size (k3_off1_inb i j)).toLoadRect tbl
    (Shape.Idx.first (s := S1) (numel1_S1.symm ▸ Nat.one_pos))

/-- Window `w`'s block at point `t`, read off its array at the region's entry. -/
def iblk3 (a0 : (pcfg3 (F := F)).Adm) (Vin : Dev nD → Valuation τ sig (Elt F)) (c : Dev nD) (w : Fin (cfg3 a0).W) (t : Fin (cfg3 a0).N) :
    (((cfg3 a0).win w).xblock ((cfg3 a0).grid.coords t)).Idx → Elt F ((cfg3 a0).win w).elt :=
  (((cfg3 a0).win w).blk t).view.read (Elt F) (Vr Vin c (Pipeline.arrRef spec3 w))

/-- The result array the region leaves: the gathered and scaled rows of the embedding array, whole. -/
def gout3 (a0 : (pcfg3 (F := F)).Adm) (Vin : Dev nD → Valuation τ sig (Elt F)) (c : Dev nD) : Buf (Elt F) ((c : Thread nD τ).loc main_v18) :=
  gatherArr (Vr Vin c main_arg0) (a0.1 0) (Vr Vin c main_v17)

/-- The invariant between points: the embedding array as entered, the kernel's semaphores at zero, the index table, the
    scoped buffers no window stages (the kernel's scratch among them). -/
def Phi3 (a0 : (pcfg3 (F := F)).Adm) (Vin : Dev nD → Valuation τ sig (Elt F)) (c : Dev nD) : sProp (MM F) :=
  iprop(pt c (Memref.whole main_arg0) (Vr Vin c main_arg0) ∗ sems3 c
    ∗ Pipeline.prefHeld (Ix := Unit) (Name := ℕ) (U := UU nD τ) (Lvl := ℕ) pre3 c (fun _ => fullShare) a0.1
    ∗ Pipeline.scopedRest (Ix := Unit) (Name := ℕ) (U := UU nD τ) (Lvl := ℕ) (Val := Elt F) spec3 c)

/-- The proof data on core `c`. -/
def dat3 (a0 : (pcfg3 (F := F)).Adm) (Vin : Dev nD → Valuation τ sig (Elt F)) (c : Dev nD) :
    Pipeline.Dat τ (Elt F) Unit ℕ (UU nD τ) ℕ ((pcfg3 (F := F)).at a0) c where
  A w := Vr Vin c (Pipeline.arrRef spec3 w)
  after w t := match w with
    | ⟨0, _⟩ => iblk3 a0 Vin c 0 t
    | ⟨1, _⟩ => (((cfg3 a0).win 1).blk t).view.read (Elt F) (gout3 a0 Vin c)
  Φ _ := Phi3 a0 Vin c
  q _ := fullShare
  owed _ := 0

theorem A_eq3 (a0 : (pcfg3 (F := F)).Adm) (Vin : Dev nD → Valuation τ sig (Elt F)) (c : Dev nD) (w : Fin (cfg3 a0).W) :
    (dat3 a0 Vin c).A w = Vr Vin c (Pipeline.arrRef spec3 w) := by dsimp only [dat3]
theorem after3_0 (a0 : (pcfg3 (F := F)).Adm) (Vin : Dev nD → Valuation τ sig (Elt F)) (c : Dev nD) (t : Fin (cfg3 a0).N) :
    (dat3 a0 Vin c).after 0 t = iblk3 a0 Vin c 0 t := by dsimp only [dat3]; rfl
theorem after3_1 (a0 : (pcfg3 (F := F)).Adm) (Vin : Dev nD → Valuation τ sig (Elt F)) (c : Dev nD) (t : Fin (cfg3 a0).N) :
    (dat3 a0 Vin c).after 1 t = (((cfg3 a0).win 1).blk t).view.read (Elt F) (gout3 a0 Vin c) := by dsimp only [dat3]; rfl
theorem Phi_eq3 (a0 : (pcfg3 (F := F)).Adm) (Vin : Dev nD → Valuation τ sig (Elt F)) (c : Dev nD) (t : Fin ((cfg3 a0).N + 1)) :
    (dat3 a0 Vin c).Φ t = Phi3 a0 Vin c := rfl
theorem owed_eq3 (a0 : (pcfg3 (F := F)).Adm) (Vin : Dev nD → Valuation τ sig (Elt F)) (c : Dev nD) (t : Fin ((cfg3 a0).N + 1)) :
    (dat3 a0 Vin c).owed t = 0 := rfl
theorem q_eq3 (a0 : (pcfg3 (F := F)).Adm) (Vin : Dev nD → Valuation τ sig (Elt F)) (c : Dev nD) (w : Fin (cfg3 a0).W) :
    (dat3 a0 Vin c).q w = fullShare := rfl

/-- The pinned family's configuration at region 3 is this one. -/
example (a : (p : Fin 34) → (pcfgs (F := F) p).Adm) : Pipeline.pin (pcfgs (F := F)) a (3 : Fin 34) = (pcfg3 (F := F)).at (a (3 : Fin 34)) := rfl

end Cert.Kernel.Hand

end
-- ==== Proof.K.GatherBody3.lean ====
/-
  Gather region 3 (custom_call 3): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat3
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk3 (c : Dev nD) (i : grid3.Coords) (tbl : Bf (F := F) c (Memref.whole main_v16)) : Prop where
  h1 : k3_chk1 (tblWord3 c i tbl 0)
  h2 : k3_chk2 (tblWord3 c i tbl 1)
  h3 : k3_chk3 (tblWord3 c i tbl 2)
  h4 : k3_chk4 (tblWord3 c i tbl 3)
  h5 : k3_chk5 (tblWord3 c i tbl 4)
  h6 : k3_chk6 (tblWord3 c i tbl 5)
  h7 : k3_chk7 (tblWord3 c i tbl 6)
  h8 : k3_chk8 (tblWord3 c i tbl 7)

/-- A one-row slice of the embedding array at the row a word names, read at lane `z 1`: the array's element there. -/
theorem rowRead3 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun3 (c : Dev nD) (i : grid3.Coords)
    (M3 : Memref sig .tc .vmem S8x1 .f32) (h3 : M3.IsWhole) (M4 : Memref sig .tc .vmem S8x128 .f32) (h4 : M4.IsWhole)
    (tbl : Bf (F := F) c (Memref.whole main_v16)) (x : Bf (F := F) c (Memref.whole main_arg0))
    (vb : Vec F S8x1 .f32) (hchk : GatherChk3 c i tbl) (Q : PUnit → sProp (MM F)) :
    iprop(pt c (Memref.whole main_v16) tbl ∗ pt c (Memref.whole main_arg0) x
      ∗ owns (c : Thread nD τ) M3 fullShare vb ∗ (∃ d, owns (c : Thread nD τ) M4 fullShare d)
      ∗ (∃ fs, pt c (Memref.whole cc3_scratch0) fs) ∗ sems3 c ∗ (∃ W, owes (c : Thread nD τ) (0 : CellTallies nD τ sig Unit) W)
      ∗ (iprop(pt c (Memref.whole main_v16) tbl ∗ pt c (Memref.whole main_arg0) x
          ∗ owns (c : Thread nD τ) M3 fullShare vb ∗ owns (c : Thread nD τ) M4 fullShare (gatherBlk x (tblWord3 c i tbl) vb)
          ∗ (∃ fs, pt c (Memref.whole cc3_scratch0) fs) ∗ sems3 c ∗ (∃ W, owes (c : Thread nD τ) (0 : CellTallies nD τ sig Unit) W)) -∗ Q ⟨⟩))
    ⊢ wp frame (wpE (defs₀ (F := F)) 𝒱₀ c none) Set.univ
        (cc3__gather_kernel i (Memref.whole main_v16) (Memref.isWhole_whole _) (Memref.whole main_arg0) (Memref.isWhole_whole _) M3 h3 M4 h4
          (Memref.whole cc3_scratch0) (Memref.isWhole_whole _) cc3_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 40).1 $$ Hx
  icases Hx' with ⟨Hxr, Hx0, Hx1, Hx2, Hx3, Hx4, Hx5, Hx6, Hx7⟩
  sl_unfold [cc3__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 40).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k3_pay1 gatherBlk
    show FloatOps.mulf _ _ = FloatOps.mulf _ _
    congr 1
    · unfold gatherRun3.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun3.sl.dma8 gatherRun3.sl.dma8_1 gatherRun3.sl.dma8_2 gatherRun3.sl.dma8_3 gatherRun3.sl.dma8_4 gatherRun3.sl.dma8_5
        gatherRun3.sl.dma8_6 gatherRun3.sl.dma8_7 gatherRun3.sl.r gatherRun3.sl.r_1 gatherRun3.sl.r_2 gatherRun3.sl.r_3 gatherRun3.sl.r_4
        gatherRun3.sl.r_5 gatherRun3.sl.r_6 gatherRun3.sl.r_7
      refine canonRows8 _ _ _ _ _ _ _ _ _ _ _ _ _ _ _ _ (fun r d => x (embIdx (rowOf (tblWord3 c i tbl r)) d)) ?_ ?_ ?_ ?_ ?_ ?_ ?_ ?_ y
      · exact fun z => rowRead3 c _ (tblWord3 c i tbl 0) rfl rfl _ _ x z
      · exact fun z => rowRead3 c _ (tblWord3 c i tbl 1) rfl rfl _ _ x z
      · exact fun z => rowRead3 c _ (tblWord3 c i tbl 2) rfl rfl _ _ x z
      · exact fun z => rowRead3 c _ (tblWord3 c i tbl 3) rfl rfl _ _ x z
      · exact fun z => rowRead3 c _ (tblWord3 c i tbl 4) rfl rfl _ _ x z
      · exact fun z => rowRead3 c _ (tblWord3 c i tbl 5) rfl rfl _ _ x z
      · exact fun z => rowRead3 c _ (tblWord3 c i tbl 6) rfl rfl _ _ x z
      · exact fun z => rowRead3 c _ (tblWord3 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk3.lean ====
/-
  Gather region 3 (custom_call 3): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat3
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word3 (i : grid3.Coords) (j : Fin 8) : k3_off1 i (BitVec.ofNat 32 j.val) 0 = (i 0).val * 8 + j.val := by
  have hi : (i 0).val < 16384 := (i 0).isLt
  have hj : j.val < 8 := j.isLt
  unfold k3_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word3 (i : grid3.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord3_eq (c : Dev nD) (i : grid3.Coords) (tbl : Bf (F := F) c (Memref.whole main_v16)) (j : Fin 8)
    (e : Fin 131072) (he : e.val = (i 0).val * 8 + j.val) : tblWord3 c i tbl j = tbl (tblIdx e) := by
  unfold tblWord3
  show tbl _ = tbl _
  refine congrArg tbl ?_
  funext a; apply Fin.ext
  match a with
  | ⟨0, _⟩ =>
    show k3_off1 i (BitVec.ofNat 32 j.val) 0 + 1 * 0 = e.val
    rw [off_word3, he]; omega

/-- Row `j` of the value window's block at point `t` is the value array's row `8 t + j`. -/
theorem valBlk3_eq (a0 : (pcfg3 (F := F)).Adm) (Vin : Dev nD → Valuation τ sig (Elt F)) (c : Dev nD) (t : Fin (cfg3 a0).N)
    (j : Fin 8) (e : Fin 131072) (he : e.val = ((grid3.coords t) 0).val * 8 + j.val) :
    iblk3 a0 Vin c 0 t (colIdx j) = Vr Vin c main_v17 (valIdx e) := by
  unfold iblk3
  show Vr Vin c main_v17 _ = Vr Vin c main_v17 _
  refine congrArg (Vr Vin c main_v17) ?_
  funext a; apply Fin.ext
  match a with
  | ⟨0, _⟩ =>
    show (BitVec.ofNat 32 ((grid3.coords t) 0).val).toNat * 8 + 1 * j.val = e.val
    rw [coord_word3, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk3 (a0 : (pcfg3 (F := F)).Adm) (Vin : Dev nD → Valuation τ sig (Elt F)) (c : Dev nD) (t : Fin (cfg3 a0).N) :
    gatherBlk (Vr Vin c main_arg0) (tblWord3 c (grid3.coords t) (a0.1 0)) (iblk3 a0 Vin c 0 t)
      = (((cfg3 a0).win 1).blk t).view.read (Elt F) (gout3 a0 Vin c) := by
  funext y
  show gatherBlk _ _ _ y = gout3 a0 Vin c ((((cfg3 a0).win 1).blk t).view.emb y)
  unfold gatherBlk gout3 gatherArr
  have e0 : ((((cfg3 a0).win 1).blk t).view.emb y (0 : Fin 2)).val = ((grid3.coords t) 0).val * 8 + (y 0).val := by
    show (BitVec.ofNat 32 ((grid3.coords t) 0).val).toNat * 8 + 1 * (y 0).val = _
    rw [coord_word3]; omega
  have e1 : (((cfg3 a0).win 1).blk t).view.emb y (1 : Fin 2) = y 1 := Fin.ext (by
    show (0#32 : BitVec 32).toNat * 128 + 1 * (y 1).val = (y 1).val
    show 0 * 128 + 1 * (y 1).val = (y 1).val
    omega)
  rw [tblWord3_eq c (grid3.coords t) (a0.1 0) (y 0) _ e0, valBlk3_eq a0 Vin c t (y 0) _ e0, e1]

end Cert.Kernel.Hand

end
-- ==== Proof.K.GatherRegion3.lean ====
/-
  Gather region 3 (custom_call 3): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody3
import proofs.«414509_j14181982011419_2_alg».proof.Proof.K.GatherBlk3
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk3 (a0 : (pcfg3 (F := F)).Adm) : Prop := ∀ e : S131072.Idx, (a0.1 0 e).toNat < 100000

/-! ## The grid and the result window's blocks -/

/-- On the one-axis grid a point's coordinate is its number. -/
theorem regCoords3 (t : Fin grid3.N) : (grid3.coords t 0).val = t.val := by
  have ht : t.val < 16384 := N_3 ▸ t.isLt
  show t.val / grid3.stride 0 % grid3.bound 0 = t.val
  rw [show grid3.stride 0 = 1 from by decide, show grid3.bound 0 = 16384 from rfl, Nat.div_one, Nat.mod_eq_of_lt ht]

/-- A point's number as the 32-bit word the index maps compute with. -/
theorem regWord3 (t : Fin grid3.N) : (BitVec.ofNat 32 (grid3.coords t 0).val).toNat = t.val := by
  have ht : t.val < 16384 := N_3 ▸ t.isLt
  rw [BitVec.toNat_ofNat, regCoords3]; omega

/-- The result window's block at point `t` is block `t` along the rows, at zero along the lanes. -/
theorem regOutIndex3 (a0 : (pcfg3 (F := F)).Adm) (t : Fin (cfg3 a0).N) : ((cfg3 a0).win 1).index t = ![t.val, 0] := by
  show cc3_transform_2 (grid3.coords t) = _
  unfold cc3_transform_2
  funext a; fin_cases a
  · exact regWord3 t
  · rfl

/-- The result window is written back at every point: consecutive points have different blocks. -/
theorem regOutFlush3 (a0 : (pcfg3 (F := F)).Adm) (t : Fin (cfg3 a0).N) : ((cfg3 a0).win 1).flush t = true := by
  have htN : t.val < 16384 := N_3 ▸ t.isLt
  rw [Pipeline.Window.flush_out _ rfl]
  by_cases h : t.val + 1 = 16384
  · exact Or.inl (show t.val + 1 = grid3.N by rw [N_3]; exact h)
  · have hlt : t.val + 1 < grid3.N := by rw [N_3]; omega
    refine Or.inr ⟨hlt, fun e => ?_⟩
    have e' : (![t.val + 1, 0] : Fin 2 → ℕ) = ![t.val, 0] := (regOutIndex3 a0 ⟨t.val + 1, hlt⟩).symm.trans (e.trans (regOutIndex3 a0 t))
    have e0 := congrFun e' 0
    simp at e0

/-- The index table, held as the pipeline's one prefetched table. -/
theorem prefHeldEq3 (a0 : (pcfg3 (F := F)).Adm) (c : Dev nD) :
    (Pipeline.prefHeld (Ix := Unit) (Name := ℕ) (U := UU nD τ) (Lvl := ℕ) pre3 c (fun _ => fullShare) a0.1 : sProp (MM F))
      = pt c (Memref.whole main_v16) (a0.1 0) := by
  unfold Pipeline.prefHeld
  rw [show (Finset.univ : Finset (Fin pre3.K)) = {0} from rfl, BI.bigSep_singleton]
  rfl

/-- The value window's staging buffer holds its block at every point. -/
theorem beforeVal3 (a0 : (pcfg3 (F := F)).Adm) (Vin : Dev nD → Valuation τ sig (Elt F)) (c : Dev nD) (t : Fin (cfg3 a0).N) (d) :
    (dat3 a0 Vin c).before 0 t d = iblk3 a0 Vin c 0 t :=
  ((dat3 a0 Vin c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-! ## The kernel's checks, from the table's range -/

/-- Each of the point's eight words is a word of the table, so a row number. -/
theorem tblWordLt3 (a0 : (pcfg3 (F := F)).Adm) (hok : GatherOk3 a0) (c : Dev nD) (i : grid3.Coords) (j : Fin 8) :
    (tblWord3 c i (a0.1 0) j).toNat < 100000 := by
  unfold tblWord3
  exact hok _

/-- So the kernel's eight checks hold at every point. -/
theorem gatherChk3 (a0 : (pcfg3 (F := F)).Adm) (hok : GatherOk3 a0) (c : Dev nD) (i : grid3.Coords) : GatherChk3 c i (a0.1 0) :=
  ⟨⟨chkRow _ (tblWordLt3 a0 hok c i 0), chkRow _ (tblWordLt3 a0 hok c i 0)⟩,
   ⟨chkRow _ (tblWordLt3 a0 hok c i 1), chkRow _ (tblWordLt3 a0 hok c i 1)⟩,
   ⟨chkRow _ (tblWordLt3 a0 hok c i 2), chkRow _ (tblWordLt3 a0 hok c i 2)⟩,
   ⟨chkRow _ (tblWordLt3 a0 hok c i 3), chkRow _ (tblWordLt3 a0 hok c i 3)⟩,
   ⟨chkRow _ (tblWordLt3 a0 hok c i 4), chkRow _ (tblWordLt3 a0 hok c i 4)⟩,
   ⟨chkRow _ (tblWordLt3 a0 hok c i 5), chkRow _ (tblWordLt3 a0 hok c i 5)⟩,
   ⟨chkRow _ (tblWordLt3 a0 hok c i 6), chkRow _ (tblWordLt3 a0 hok c i 6)⟩,
   chkRow _ (tblWordLt3 a0 hok c i 7)⟩

/-! ## The body obligation, at a generic point -/

/-- What the body is called with at point `t`: the invariant, the core's dues, each window's current staging memref at
    what the pipeline left there, -/
def bodyPre3 (a0 : (pcfg3 (F := F)).Adm) (Vin : Dev nD → Valuation τ sig (Elt F)) (c : Dev nD) (t : Fin (cfg3 a0).N) : sProp (MM F) :=
  iprop((dat3 a0 Vin c).Φ t.castSucc ∗ (dat3 a0 Vin c).owesAt () t.castSucc
    ∗ (∃ d, owns (c : Thread nD τ) (((cfg3 a0).win 0).stage ((cfg3 a0).slots t 0)) fullShare ((dat3 a0 Vin c).before 0 t d))
    ∗ (∃ d, owns (c : Thread nD τ) (((cfg3 a0).win 1).stage ((cfg3 a0).slots t 1)) fullShare ((dat3 a0 Vin c).before 1 t d)))

/-- and what it returns. -/
def bodyPost3 (a0 : (pcfg3 (F := F)).Adm) (Vin : Dev nD → Valuation τ sig (Elt F)) (c : Dev nD) (t : Fin (cfg3 a0).N) : sProp (MM F) :=
  iprop((dat3 a0 Vin c).Φ t.succ ∗ (dat3 a0 Vin c).owesAt () t.succ
    ∗ owns (c : Thread nD τ) (((cfg3 a0).win 0).stage ((cfg3 a0).slots t 0)) fullShare ((dat3 a0 Vin c).after 0 t)
    ∗ owns (c : Thread nD τ) (((cfg3 a0).win 1).stage ((cfg3 a0).slots t 1)) fullShare ((dat3 a0 Vin c).after 1 t))

/-- The body at any point: the invariant opened into the embedding array, the semaphores, the table and the scratch;
    the value window's memref at its block; the checks from the table's range; so the kernel's run applies, and what it
    leaves in the result window's memref is the point's block of the gathered array. -/
theorem sound_body3 (a0 : (pcfg3 (F := F)).Adm) (hok : GatherOk3 a0) (Vin : Dev nD → Valuation τ sig (Elt F)) (c : Dev nD) (t : Fin (cfg3 a0).N) :
    bodyPre3 a0 Vin c t ⊢ wp frame (wpE (defs₀ (F := F)) 𝒱₀ c none) Set.univ
      (defs₀ .tc (cfg3 a0).body ((cfg3 a0).bodyArgs t ((cfg3 a0).slots t))) (fun _ => bodyPost3 a0 Vin c t) := by
  unfold bodyPre3 bodyPost3
  simp only [beforeVal3]
  rw [Phi_eq3, Phi_eq3, after3_0, after3_1, ← gatherBlk_blk3]
  unfold Phi3 Pipeline.Dat.owesAt Pipeline.owesWithin
  rw [owed_eq3, owed_eq3, prefHeldEq3, scopedRest3_split]
  iintro ⟨⟨Hx, Hos, Ht, ⟨%fs, Hs⟩, Hsb⟩, ⟨%W, %hW, HO⟩, ⟨%d0, H0⟩, ⟨%d1, H1⟩⟩
  iapply (gatherRun3 c (grid3.coords t) _ _ _ _ (a0.1 0) (Vr Vin c main_arg0) (iblk3 a0 Vin c 0 t) (gatherChk3 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation3 (a0 : (pcfg3 (F := F)).Adm) (hok : GatherOk3 a0) (Vin : Dev nD → Valuation τ sig (Elt F)) (c : Dev nD) :
    BodyObligation (dat3 a0 Vin c) (defs₀ (F := F)) 𝒱₀ () Set.univ := fun t => by
  rw [bigSep_W3, bigSep_W3]
  exact sound_body3 a0 hok Vin c t

/-! ## From the blocks to the arrays -/

/-- The value array after the region: as entered. -/
theorem arrAt3_in (a0 : (pcfg3 (F := F)).Adm) (Vin : Dev nD → Valuation τ sig (Elt F)) (c : Dev nD) :
    (dat3 a0 Vin c).arrAt 0 (cfg3 a0).N = Vr Vin c main_v17 :=
  ((dat3 a0 Vin c).arrAt_in 0 rfl _).trans (A_eq3 a0 Vin c 0)

/-- Every index of the result array is in some point's block: row `e`, lane `d` is element `(e % 8, d)` of the block
    of point `e / 8`. -/
theorem regOutCover3 (a0 : (pcfg3 (F := F)).Adm) (i : S131072x128.Idx) :
    ∃ t : Fin (cfg3 a0).N, ((cfg3 a0).win 1).flush t = true ∧ i ∈ (((cfg3 a0).win 1).blk t).view.set := by
  have hi0 : (i 0).val < 131072 := (i 0).isLt
  have hi1 : (i 1).val < 128 := (i 1).isLt
  have hN : (i 0).val / 8 < grid3.N := by rw [N_3]; omega
  obtain ⟨t, ht⟩ : ∃ t : Fin (cfg3 a0).N, t.val = (i 0).val / 8 := ⟨⟨_, hN⟩, rfl⟩
  have hx : (((cfg3 a0).win 1).blk t).view.emb (ValueIdx.ix2 ⟨(i 0).val % 8, Nat.mod_lt _ (by decide)⟩ (i 1)) = i := by
    funext a; apply Fin.ext
    have e0 : ((cfg3 a0).win 1).index t (0 : Fin 2) = t.val := congrFun (regOutIndex3 a0 t) (0 : Fin 2)
    have e1 : ((cfg3 a0).win 1).index t (1 : Fin 2) = 0 := congrFun (regOutIndex3 a0 t) (1 : Fin 2)
    match a with
    | ⟨0, _⟩ => show ((cfg3 a0).win 1).index t (0 : Fin 2) * 8 + 1 * ((i 0).val % 8) = (i 0).val; omega
    | ⟨1, _⟩ => show ((cfg3 a0).win 1).index t (1 : Fin 2) * 128 + 1 * (i 1).val = (i 1).val; omega
  exact ⟨t, regOutFlush3 a0 t, hx ▸ (((cfg3 a0).win 1).blk t).view.emb_mem_set _⟩

/-- The result array after the region: the gathered and scaled rows, whole. -/
theorem arrAt3_out (a0 : (pcfg3 (F := F)).Adm) (Vin : Dev nD → Valuation τ sig (Elt F)) (c : Dev nD) :
    (dat3 a0 Vin c).arrAt 1 (cfg3 a0).N = gout3 a0 Vin c :=
  (dat3 a0 Vin c).arrAt_eq_of_cover 1 (gout3 a0 Vin c)
    (fun t _ => by
      show ((cfg3 a0).win 1).cut ((cfg3 a0).grid.coords t) ((dat3 a0 Vin c).after 1 t) = _
      rw [after3_1])
    (regOutCover3 a0)

/-! ## The region as a segment of @main -/

/-- The ownership layout of the kernel's eight semaphores. -/
theorem ownSemFacts3 : Pipeline.OwnSemFacts spec3 osem3 := by decide

/-- The kernel's own cells at zero, listed. -/
theorem ownSemsListed3 (c : Dev nD) :
    (Pipeline.ownSems0 (Ix := Unit) (Name := ℕ) (U := UU nD τ) (Lvl := ℕ) (Val := Elt F) (τ := τ) osem3 c : sProp (MM F)) = sems3 c :=
  Pipeline.ownSems0_eq_of_list c osem3 [0, 1, 2, 3, 4, 5, 6, 7] (by decide) (by decide)

/-- The unscoped buffers that are no window's array, no table, and not the embedding array. -/
abbrev restRefs3 : Finset (Ref sig .tc) :=
  (((Finset.univ.filter fun b : Ref sig .tc => ¬ b.isScoped) \ Finset.univ.image (Pipeline.arrRef spec3)) \ Finset.univ.image pre3.ref) \ {main_arg0}

/-- Those buffers, each whole at its contents under `Vin`: what bypasses the region. -/
def Zrest3 (Vin : Dev nD → Valuation τ sig (Elt F)) (c : Dev nD) : sProp (MM F) :=
  bigSep restRefs3 fun b => ((c : Thread nD τ).loc b) ↦{fullShare} Vr Vin c b

/-- The embedding array is an unscoped buffer that is no window's array and no table. -/
theorem embArrMem3 : ({main_arg0} : Finset (Ref sig .tc)) ⊆
    ((Finset.univ.filter fun b : Ref sig .tc => ¬ b.isScoped) \ Finset.univ.image (Pipeline.arrRef spec3)) \ Finset.univ.image pre3.ref := by
  decide

/-- The unscoped buffers that are no window's array: the index table, the embedding array, and the rest. -/
theorem unscopedRestOpen3 (Vin : Dev nD → Valuation τ sig (Elt F)) (c : Dev nD) :
    (Pipeline.unscopedRest (Ix := Unit) (Name := ℕ) (U := UU nD τ) (Lvl := ℕ) spec3 c (Vr Vin c) : sProp (MM F))
      = iprop(Pipeline.prefHeld pre3 c (fun _ => fullShare) (fun k => Vr Vin c (pre3.ref k))
          ∗ pt c (Memref.whole main_arg0) (Vr Vin c main_arg0) ∗ Zrest3 Vin c) := by
  rw [Pipeline.unscopedRest_split preFacts3 c (Vr Vin c)]
  unfold Pipeline.unscopedRestP Zrest3
  rw [BI.bigSep_sdiff_split embArrMem3, BI.bigSep_singleton]
  rfl

/-- The buffer contents when the region is left: the result array at the gathered rows, every other buffer as entered. -/
abbrev Vout3 (a0 : (pcfg3 (F := F)).Adm) (Vin : Dev nD → Valuation τ sig (Elt F)) (c : Dev nD) : Valuation τ sig (Elt F) :=
  Function.update (Vin c) main_v18 (gout3 a0 Vin c)

/-- At the exit each of the region's arrays holds what the pipeline leaves; -/
theorem hF3 (a0 : (pcfg3 (F := F)).Adm) (Vin : Dev nD → Valuation τ sig (Elt F)) (c : Dev nD) (w : Fin (cfg3 a0).W) :
    (dat3 a0 Vin c).arrAt w (cfg3 a0).N = Vr (Vout3 a0 Vin) c (Pipeline.arrRef spec3 w) := by
  match w with
  | ⟨0, _⟩ =>
    show (dat3 a0 Vin c).arrAt 0 (cfg3 a0).N = Vr (Vout3 a0 Vin) c (Pipeline.arrRef spec3 0)
    rw [arrAt3_in]
    exact (Function.update_of_ne (StableHlo.devRef_ne_of_ne (by decide) : (Proc.devRef .tc main_v17 : DevRef τ sig) ≠ Proc.devRef .tc main_v18) _ _).symm
  | ⟨1, _⟩ =>
    show (dat3 a0 Vin c).arrAt 1 (cfg3 a0).N = Vr (Vout3 a0 Vin) c (Pipeline.arrRef spec3 1)
    rw [arrAt3_out]
    exact (Function.update_self (Proc.devRef .tc main_v18 : DevRef τ sig) _ (Vin c)).symm

/-- and every other buffer what it held at entry. -/
theorem hrest3 (a0 : (pcfg3 (F := F)).Adm) (Vin : Dev nD → Valuation τ sig (Elt F)) (c : Dev nD) :
    ∀ b : Ref sig .tc, b ∉ Finset.univ.image (Pipeline.arrRef spec3) → Vr (Vout3 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat3` at the entry valuation `Vin`
    (`hd`), the index table's contents under `Vin` being the pinned ones (`htbl`) and row numbers (`hok`). -/
def reg3 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk3 (F := F) (a (3 : Fin 34)))
    (hd : ∀ c, pdats (3 : Fin 34) c = dat3 (a (3 : Fin 34)) Vin c) (htbl : ∀ c, (a (3 : Fin 34)).1 = fun k => Vr Vin c (pre3.ref k)) :
    Pipeline.RegionSeg (pcfgs (F := F)) a pdats () defs₀ 𝒱₀ L lv (3 : Fin 34) where
  win := (launch3 (F := F)).win.to₀
  block_pos := (launch3 (F := F)).block_pos
  stage_whole := (launch3 (F := F)).stage_whole
  K := Fin 8
  osem := osem3
  ho := ownSemFacts3
  hbody c := by rw [hd c]; exact (body_obligation3 (a (3 : Fin 34)) hok Vin c).loose
  hwaits := Pipeline.hwaits_of_owed_zero _ _ _ _ L lv (3 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v18 (gout3 (a (3 : Fin 34)) Vin c)) ∗ Rest c)
  X c := iprop(pt c (Memref.whole main_arg0) (Vr Vin c main_arg0) ∗ sems3 c)
  Y c := iprop(pt c (Memref.whole main_arg0) (Vr Vin c main_arg0)
    ∗ Pipeline.prefHeld (Ix := Unit) (Name := ℕ) (U := UU nD τ) (Lvl := ℕ) pre3 c (fun _ => fullShare) (a (3 : Fin 34)).1)
  Z c := Zrest3 Vin c
  hentry c := by
    rw [ownSemsListed3]
    have hsplit := Pipeline.arrays_of_unscopedBufs (p := (3 : Fin 34)) (pcfgs (F := F)) a pdats (launch3 (F := F)).win (launch3 (F := F)).arr_whole c
      ((pdats (3 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen3 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (3 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq3]; unfold Phi3
    iintro ⟨⟨Hx, Hos⟩, Ht, Hr⟩
    isplitl [Hx]; · iexact Hx
    isplitl [Hos]; · iexact Hos
    isplitl [Ht]; · iexact Ht
    iexact Hr
  hout c := by
    rw [ownSemsListed3, hd c, Phi_eq3]; unfold Phi3
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (3 : Fin 34)) (pcfgs (F := F)) a (Ix := Unit) (Name := ℕ) (U := UU nD τ) (Lvl := ℕ)
      (launch3 (F := F)).win (launch3 (F := F)).arr_whole c pdats ((pdats (3 : Fin 34) c).share_full fun _ => by rw [hd c]; rfl)
      (Vr Vin c) (Vr (Vout3 (a (3 : Fin 34)) Vin) c) ((pdats (3 : Fin 34) c).arrAt · (cfg3 (a (3 : Fin 34))).N)
      (fun w => by rw [hd c]; exact hF3 (a (3 : Fin 34)) Vin c w) (hrest3 (a (3 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen3 Vin c).symm)
      isplitl [Ht]; · rw [← htbl c]; iexact Ht
      isplitl [Hx]; · iexact Hx
      iexact Hz
    unfold Pipeline.Dat.owesAt Pipeline.owesWithin
    rw [show (pdats (3 : Fin 34) c).owed (Fin.last _) = 0 from by rw [hd c]; rfl]
    icases HO with ⟨%W, -, HO⟩; iexists W; iexact HO

end Cert.Kernel.Hand

end
-- ==== Proof.K.GatherDat4.lean ====
/-
  Gather region 4 (custom_call 4): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem4 : Fin 8 → SemLoc sig := fun | 0 => .dma 52 | 1 => .dma 53 | 2 => .dma 54 | 3 => .dma 55 | 4 => .dma 56 | 5 => .dma 57 | 6 => .dma 58 | 7 => .dma 59

/-- The eight counters at zero, as the run finds them and hands them back. -/
abbrev sems4 (c : Dev nD) : sProp (MM F) :=
  iprop(semVal ((c : Thread nD τ), osem4 0) 0 ∗ semVal ((c : Thread nD τ), osem4 1) 0 ∗ semVal ((c : Thread nD τ), osem4 2) 0
    ∗ semVal ((c : Thread nD τ), osem4 3) 0 ∗ semVal ((c : Thread nD τ), osem4 4) 0 ∗ semVal ((c : Thread nD τ), osem4 5) 0
    ∗ semVal ((c : Thread nD τ), osem4 6) 0 ∗ semVal ((c : Thread nD τ), osem4 7) 0)

/-- Word `j` of the eight the index table holds for point `i`, as the kernel's scalar load reads it. -/
def tblWord4 (c : Dev nD) (i : grid4.Coords) (tbl : Bf (F := F) c (Memref.whole main_v33)) (j : Fin 8) : BitVec 32 :=
  (Memref.whole main_v33).view.readAt (Elt F) (Rect.unit (s := S131072) (k4_off1 i (BitVec.ofNat 32 j.val)) S1.size (k4_off1_inb i j)).toLoadRect tbl
    (Shape.Idx.first (s := S1) (numel1_S1.symm ▸ Nat.one_pos))

/-- Window `w`'s block at point `t`, read off its array at the region's entry. -/
def iblk4 (a0 : (pcfg4 (F := F)).Adm) (Vin : Dev nD → Valuation τ sig (Elt F)) (c : Dev nD) (w : Fin (cfg4 a0).W) (t : Fin (cfg4 a0).N) :
    (((cfg4 a0).win w).xblock ((cfg4 a0).grid.coords t)).Idx → Elt F ((cfg4 a0).win w).elt :=
  (((cfg4 a0).win w).blk t).view.read (Elt F) (Vr Vin c (Pipeline.arrRef spec4 w))

/-- The result array the region leaves: the gathered and scaled rows of the embedding array, whole. -/
def gout4 (a0 : (pcfg4 (F := F)).Adm) (Vin : Dev nD → Valuation τ sig (Elt F)) (c : Dev nD) : Buf (Elt F) ((c : Thread nD τ).loc main_v35) :=
  gatherArr (Vr Vin c main_arg0) (a0.1 0) (Vr Vin c main_v34)

/-- The invariant between points: the embedding array as entered, the kernel's semaphores at zero, the index table, the
    scoped buffers no window stages (the kernel's scratch among them). -/
def Phi4 (a0 : (pcfg4 (F := F)).Adm) (Vin : Dev nD → Valuation τ sig (Elt F)) (c : Dev nD) : sProp (MM F) :=
  iprop(pt c (Memref.whole main_arg0) (Vr Vin c main_arg0) ∗ sems4 c
    ∗ Pipeline.prefHeld (Ix := Unit) (Name := ℕ) (U := UU nD τ) (Lvl := ℕ) pre4 c (fun _ => fullShare) a0.1
    ∗ Pipeline.scopedRest (Ix := Unit) (Name := ℕ) (U := UU nD τ) (Lvl := ℕ) (Val := Elt F) spec4 c)

/-- The proof data on core `c`. -/
def dat4 (a0 : (pcfg4 (F := F)).Adm) (Vin : Dev nD → Valuation τ sig (Elt F)) (c : Dev nD) :
    Pipeline.Dat τ (Elt F) Unit ℕ (UU nD τ) ℕ ((pcfg4 (F := F)).at a0) c where
  A w := Vr Vin c (Pipeline.arrRef spec4 w)
  after w t := match w with
    | ⟨0, _⟩ => iblk4 a0 Vin c 0 t
    | ⟨1, _⟩ => (((cfg4 a0).win 1).blk t).view.read (Elt F) (gout4 a0 Vin c)
  Φ _ := Phi4 a0 Vin c
  q _ := fullShare
  owed _ := 0

theorem A_eq4 (a0 : (pcfg4 (F := F)).Adm) (Vin : Dev nD → Valuation τ sig (Elt F)) (c : Dev nD) (w : Fin (cfg4 a0).W) :
    (dat4 a0 Vin c).A w = Vr Vin c (Pipeline.arrRef spec4 w) := by dsimp only [dat4]
theorem after4_0 (a0 : (pcfg4 (F := F)).Adm) (Vin : Dev nD → Valuation τ sig (Elt F)) (c : Dev nD) (t : Fin (cfg4 a0).N) :
    (dat4 a0 Vin c).after 0 t = iblk4 a0 Vin c 0 t := by dsimp only [dat4]; rfl
theorem after4_1 (a0 : (pcfg4 (F := F)).Adm) (Vin : Dev nD → Valuation τ sig (Elt F)) (c : Dev nD) (t : Fin (cfg4 a0).N) :
    (dat4 a0 Vin c).after 1 t = (((cfg4 a0).win 1).blk t).view.read (Elt F) (gout4 a0 Vin c) := by dsimp only [dat4]; rfl
theorem Phi_eq4 (a0 : (pcfg4 (F := F)).Adm) (Vin : Dev nD → Valuation τ sig (Elt F)) (c : Dev nD) (t : Fin ((cfg4 a0).N + 1)) :
    (dat4 a0 Vin c).Φ t = Phi4 a0 Vin c := rfl
theorem owed_eq4 (a0 : (pcfg4 (F := F)).Adm) (Vin : Dev nD → Valuation τ sig (Elt F)) (c : Dev nD) (t : Fin ((cfg4 a0).N + 1)) :
    (dat4 a0 Vin c).owed t = 0 := rfl
theorem q_eq4 (a0 : (pcfg4 (F := F)).Adm) (Vin : Dev nD → Valuation τ sig (Elt F)) (c : Dev nD) (w : Fin (cfg4 a0).W) :
    (dat4 a0 Vin c).q w = fullShare := rfl

/-- The pinned family's configuration at region 4 is this one. -/
example (a : (p : Fin 34) → (pcfgs (F := F) p).Adm) : Pipeline.pin (pcfgs (F := F)) a (4 : Fin 34) = (pcfg4 (F := F)).at (a (4 : Fin 34)) := rfl

end Cert.Kernel.Hand

end
-- ==== Proof.K.GatherBody4.lean ====
/-
  Gather region 4 (custom_call 4): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat4
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk4 (c : Dev nD) (i : grid4.Coords) (tbl : Bf (F := F) c (Memref.whole main_v33)) : Prop where
  h1 : k4_chk1 (tblWord4 c i tbl 0)
  h2 : k4_chk2 (tblWord4 c i tbl 1)
  h3 : k4_chk3 (tblWord4 c i tbl 2)
  h4 : k4_chk4 (tblWord4 c i tbl 3)
  h5 : k4_chk5 (tblWord4 c i tbl 4)
  h6 : k4_chk6 (tblWord4 c i tbl 5)
  h7 : k4_chk7 (tblWord4 c i tbl 6)
  h8 : k4_chk8 (tblWord4 c i tbl 7)

/-- A one-row slice of the embedding array at the row a word names, read at lane `z 1`: the array's element there. -/
theorem rowRead4 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun4 (c : Dev nD) (i : grid4.Coords)
    (M3 : Memref sig .tc .vmem S8x1 .f32) (h3 : M3.IsWhole) (M4 : Memref sig .tc .vmem S8x128 .f32) (h4 : M4.IsWhole)
    (tbl : Bf (F := F) c (Memref.whole main_v33)) (x : Bf (F := F) c (Memref.whole main_arg0))
    (vb : Vec F S8x1 .f32) (hchk : GatherChk4 c i tbl) (Q : PUnit → sProp (MM F)) :
    iprop(pt c (Memref.whole main_v33) tbl ∗ pt c (Memref.whole main_arg0) x
      ∗ owns (c : Thread nD τ) M3 fullShare vb ∗ (∃ d, owns (c : Thread nD τ) M4 fullShare d)
      ∗ (∃ fs, pt c (Memref.whole cc4_scratch0) fs) ∗ sems4 c ∗ (∃ W, owes (c : Thread nD τ) (0 : CellTallies nD τ sig Unit) W)
      ∗ (iprop(pt c (Memref.whole main_v33) tbl ∗ pt c (Memref.whole main_arg0) x
          ∗ owns (c : Thread nD τ) M3 fullShare vb ∗ owns (c : Thread nD τ) M4 fullShare (gatherBlk x (tblWord4 c i tbl) vb)
          ∗ (∃ fs, pt c (Memref.whole cc4_scratch0) fs) ∗ sems4 c ∗ (∃ W, owes (c : Thread nD τ) (0 : CellTallies nD τ sig Unit) W)) -∗ Q ⟨⟩))
    ⊢ wp frame (wpE (defs₀ (F := F)) 𝒱₀ c none) Set.univ
        (cc4__gather_kernel i (Memref.whole main_v33) (Memref.isWhole_whole _) (Memref.whole main_arg0) (Memref.isWhole_whole _) M3 h3 M4 h4
          (Memref.whole cc4_scratch0) (Memref.isWhole_whole _) cc4_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 52).1 $$ Hx
  icases Hx' with ⟨Hxr, Hx0, Hx1, Hx2, Hx3, Hx4, Hx5, Hx6, Hx7⟩
  sl_unfold [cc4__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 52).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k4_pay1 gatherBlk
    show FloatOps.mulf _ _ = FloatOps.mulf _ _
    congr 1
    · unfold gatherRun4.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun4.sl.dma8 gatherRun4.sl.dma8_1 gatherRun4.sl.dma8_2 gatherRun4.sl.dma8_3 gatherRun4.sl.dma8_4 gatherRun4.sl.dma8_5
        gatherRun4.sl.dma8_6 gatherRun4.sl.dma8_7 gatherRun4.sl.r gatherRun4.sl.r_1 gatherRun4.sl.r_2 gatherRun4.sl.r_3 gatherRun4.sl.r_4
        gatherRun4.sl.r_5 gatherRun4.sl.r_6 gatherRun4.sl.r_7
      refine canonRows8 _ _ _ _ _ _ _ _ _ _ _ _ _ _ _ _ (fun r d => x (embIdx (rowOf (tblWord4 c i tbl r)) d)) ?_ ?_ ?_ ?_ ?_ ?_ ?_ ?_ y
      · exact fun z => rowRead4 c _ (tblWord4 c i tbl 0) rfl rfl _ _ x z
      · exact fun z => rowRead4 c _ (tblWord4 c i tbl 1) rfl rfl _ _ x z
      · exact fun z => rowRead4 c _ (tblWord4 c i tbl 2) rfl rfl _ _ x z
      · exact fun z => rowRead4 c _ (tblWord4 c i tbl 3) rfl rfl _ _ x z
      · exact fun z => rowRead4 c _ (tblWord4 c i tbl 4) rfl rfl _ _ x z
      · exact fun z => rowRead4 c _ (tblWord4 c i tbl 5) rfl rfl _ _ x z
      · exact fun z => rowRead4 c _ (tblWord4 c i tbl 6) rfl rfl _ _ x z
      · exact fun z => rowRead4 c _ (tblWord4 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk4.lean ====
/-
  Gather region 4 (custom_call 4): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat4
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word4 (i : grid4.Coords) (j : Fin 8) : k4_off1 i (BitVec.ofNat 32 j.val) 0 = (i 0).val * 8 + j.val := by
  have hi : (i 0).val < 16384 := (i 0).isLt
  have hj : j.val < 8 := j.isLt
  unfold k4_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word4 (i : grid4.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord4_eq (c : Dev nD) (i : grid4.Coords) (tbl : Bf (F := F) c (Memref.whole main_v33)) (j : Fin 8)
    (e : Fin 131072) (he : e.val = (i 0).val * 8 + j.val) : tblWord4 c i tbl j = tbl (tblIdx e) := by
  unfold tblWord4
  show tbl _ = tbl _
  refine congrArg tbl ?_
  funext a; apply Fin.ext
  match a with
  | ⟨0, _⟩ =>
    show k4_off1 i (BitVec.ofNat 32 j.val) 0 + 1 * 0 = e.val
    rw [off_word4, he]; omega

/-- Row `j` of the value window's block at point `t` is the value array's row `8 t + j`. -/
theorem valBlk4_eq (a0 : (pcfg4 (F := F)).Adm) (Vin : Dev nD → Valuation τ sig (Elt F)) (c : Dev nD) (t : Fin (cfg4 a0).N)
    (j : Fin 8) (e : Fin 131072) (he : e.val = ((grid4.coords t) 0).val * 8 + j.val) :
    iblk4 a0 Vin c 0 t (colIdx j) = Vr Vin c main_v34 (valIdx e) := by
  unfold iblk4
  show Vr Vin c main_v34 _ = Vr Vin c main_v34 _
  refine congrArg (Vr Vin c main_v34) ?_
  funext a; apply Fin.ext
  match a with
  | ⟨0, _⟩ =>
    show (BitVec.ofNat 32 ((grid4.coords t) 0).val).toNat * 8 + 1 * j.val = e.val
    rw [coord_word4, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk4 (a0 : (pcfg4 (F := F)).Adm) (Vin : Dev nD → Valuation τ sig (Elt F)) (c : Dev nD) (t : Fin (cfg4 a0).N) :
    gatherBlk (Vr Vin c main_arg0) (tblWord4 c (grid4.coords t) (a0.1 0)) (iblk4 a0 Vin c 0 t)
      = (((cfg4 a0).win 1).blk t).view.read (Elt F) (gout4 a0 Vin c) := by
  funext y
  show gatherBlk _ _ _ y = gout4 a0 Vin c ((((cfg4 a0).win 1).blk t).view.emb y)
  unfold gatherBlk gout4 gatherArr
  have e0 : ((((cfg4 a0).win 1).blk t).view.emb y (0 : Fin 2)).val = ((grid4.coords t) 0).val * 8 + (y 0).val := by
    show (BitVec.ofNat 32 ((grid4.coords t) 0).val).toNat * 8 + 1 * (y 0).val = _
    rw [coord_word4]; omega
  have e1 : (((cfg4 a0).win 1).blk t).view.emb y (1 : Fin 2) = y 1 := Fin.ext (by
    show (0#32 : BitVec 32).toNat * 128 + 1 * (y 1).val = (y 1).val
    show 0 * 128 + 1 * (y 1).val = (y 1).val
    omega)
  rw [tblWord4_eq c (grid4.coords t) (a0.1 0) (y 0) _ e0, valBlk4_eq a0 Vin c t (y 0) _ e0, e1]

end Cert.Kernel.Hand

end
-- ==== Proof.K.GatherRegion4.lean ====
/-
  Gather region 4 (custom_call 4): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody4
import proofs.«414509_j14181982011419_2_alg».proof.Proof.K.GatherBlk4
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk4 (a0 : (pcfg4 (F := F)).Adm) : Prop := ∀ e : S131072.Idx, (a0.1 0 e).toNat < 100000

/-! ## The grid and the result window's blocks -/

/-- On the one-axis grid a point's coordinate is its number. -/
theorem regCoords4 (t : Fin grid4.N) : (grid4.coords t 0).val = t.val := by
  have ht : t.val < 16384 := N_4 ▸ t.isLt
  show t.val / grid4.stride 0 % grid4.bound 0 = t.val
  rw [show grid4.stride 0 = 1 from by decide, show grid4.bound 0 = 16384 from rfl, Nat.div_one, Nat.mod_eq_of_lt ht]

/-- A point's number as the 32-bit word the index maps compute with. -/
theorem regWord4 (t : Fin grid4.N) : (BitVec.ofNat 32 (grid4.coords t 0).val).toNat = t.val := by
  have ht : t.val < 16384 := N_4 ▸ t.isLt
  rw [BitVec.toNat_ofNat, regCoords4]; omega

/-- The result window's block at point `t` is block `t` along the rows, at zero along the lanes. -/
theorem regOutIndex4 (a0 : (pcfg4 (F := F)).Adm) (t : Fin (cfg4 a0).N) : ((cfg4 a0).win 1).index t = ![t.val, 0] := by
  show cc4_transform_2 (grid4.coords t) = _
  unfold cc4_transform_2
  funext a; fin_cases a
  · exact regWord4 t
  · rfl

/-- The result window is written back at every point: consecutive points have different blocks. -/
theorem regOutFlush4 (a0 : (pcfg4 (F := F)).Adm) (t : Fin (cfg4 a0).N) : ((cfg4 a0).win 1).flush t = true := by
  have htN : t.val < 16384 := N_4 ▸ t.isLt
  rw [Pipeline.Window.flush_out _ rfl]
  by_cases h : t.val + 1 = 16384
  · exact Or.inl (show t.val + 1 = grid4.N by rw [N_4]; exact h)
  · have hlt : t.val + 1 < grid4.N := by rw [N_4]; omega
    refine Or.inr ⟨hlt, fun e => ?_⟩
    have e' : (![t.val + 1, 0] : Fin 2 → ℕ) = ![t.val, 0] := (regOutIndex4 a0 ⟨t.val + 1, hlt⟩).symm.trans (e.trans (regOutIndex4 a0 t))
    have e0 := congrFun e' 0
    simp at e0

/-- The index table, held as the pipeline's one prefetched table. -/
theorem prefHeldEq4 (a0 : (pcfg4 (F := F)).Adm) (c : Dev nD) :
    (Pipeline.prefHeld (Ix := Unit) (Name := ℕ) (U := UU nD τ) (Lvl := ℕ) pre4 c (fun _ => fullShare) a0.1 : sProp (MM F))
      = pt c (Memref.whole main_v33) (a0.1 0) := by
  unfold Pipeline.prefHeld
  rw [show (Finset.univ : Finset (Fin pre4.K)) = {0} from rfl, BI.bigSep_singleton]
  rfl

/-- The value window's staging buffer holds its block at every point. -/
theorem beforeVal4 (a0 : (pcfg4 (F := F)).Adm) (Vin : Dev nD → Valuation τ sig (Elt F)) (c : Dev nD) (t : Fin (cfg4 a0).N) (d) :
    (dat4 a0 Vin c).before 0 t d = iblk4 a0 Vin c 0 t :=
  ((dat4 a0 Vin c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-! ## The kernel's checks, from the table's range -/

/-- Each of the point's eight words is a word of the table, so a row number. -/
theorem tblWordLt4 (a0 : (pcfg4 (F := F)).Adm) (hok : GatherOk4 a0) (c : Dev nD) (i : grid4.Coords) (j : Fin 8) :
    (tblWord4 c i (a0.1 0) j).toNat < 100000 := by
  unfold tblWord4
  exact hok _

/-- So the kernel's eight checks hold at every point. -/
theorem gatherChk4 (a0 : (pcfg4 (F := F)).Adm) (hok : GatherOk4 a0) (c : Dev nD) (i : grid4.Coords) : GatherChk4 c i (a0.1 0) :=
  ⟨⟨chkRow _ (tblWordLt4 a0 hok c i 0), chkRow _ (tblWordLt4 a0 hok c i 0)⟩,
   ⟨chkRow _ (tblWordLt4 a0 hok c i 1), chkRow _ (tblWordLt4 a0 hok c i 1)⟩,
   ⟨chkRow _ (tblWordLt4 a0 hok c i 2), chkRow _ (tblWordLt4 a0 hok c i 2)⟩,
   ⟨chkRow _ (tblWordLt4 a0 hok c i 3), chkRow _ (tblWordLt4 a0 hok c i 3)⟩,
   ⟨chkRow _ (tblWordLt4 a0 hok c i 4), chkRow _ (tblWordLt4 a0 hok c i 4)⟩,
   ⟨chkRow _ (tblWordLt4 a0 hok c i 5), chkRow _ (tblWordLt4 a0 hok c i 5)⟩,
   ⟨chkRow _ (tblWordLt4 a0 hok c i 6), chkRow _ (tblWordLt4 a0 hok c i 6)⟩,
   chkRow _ (tblWordLt4 a0 hok c i 7)⟩

/-! ## The body obligation, at a generic point -/

/-- What the body is called with at point `t`: the invariant, the core's dues, each window's current staging memref at
    what the pipeline left there, -/
def bodyPre4 (a0 : (pcfg4 (F := F)).Adm) (Vin : Dev nD → Valuation τ sig (Elt F)) (c : Dev nD) (t : Fin (cfg4 a0).N) : sProp (MM F) :=
  iprop((dat4 a0 Vin c).Φ t.castSucc ∗ (dat4 a0 Vin c).owesAt () t.castSucc
    ∗ (∃ d, owns (c : Thread nD τ) (((cfg4 a0).win 0).stage ((cfg4 a0).slots t 0)) fullShare ((dat4 a0 Vin c).before 0 t d))
    ∗ (∃ d, owns (c : Thread nD τ) (((cfg4 a0).win 1).stage ((cfg4 a0).slots t 1)) fullShare ((dat4 a0 Vin c).before 1 t d)))

/-- and what it returns. -/
def bodyPost4 (a0 : (pcfg4 (F := F)).Adm) (Vin : Dev nD → Valuation τ sig (Elt F)) (c : Dev nD) (t : Fin (cfg4 a0).N) : sProp (MM F) :=
  iprop((dat4 a0 Vin c).Φ t.succ ∗ (dat4 a0 Vin c).owesAt () t.succ
    ∗ owns (c : Thread nD τ) (((cfg4 a0).win 0).stage ((cfg4 a0).slots t 0)) fullShare ((dat4 a0 Vin c).after 0 t)
    ∗ owns (c : Thread nD τ) (((cfg4 a0).win 1).stage ((cfg4 a0).slots t 1)) fullShare ((dat4 a0 Vin c).after 1 t))

/-- The body at any point: the invariant opened into the embedding array, the semaphores, the table and the scratch;
    the value window's memref at its block; the checks from the table's range; so the kernel's run applies, and what it
    leaves in the result window's memref is the point's block of the gathered array. -/
theorem sound_body4 (a0 : (pcfg4 (F := F)).Adm) (hok : GatherOk4 a0) (Vin : Dev nD → Valuation τ sig (Elt F)) (c : Dev nD) (t : Fin (cfg4 a0).N) :
    bodyPre4 a0 Vin c t ⊢ wp frame (wpE (defs₀ (F := F)) 𝒱₀ c none) Set.univ
      (defs₀ .tc (cfg4 a0).body ((cfg4 a0).bodyArgs t ((cfg4 a0).slots t))) (fun _ => bodyPost4 a0 Vin c t) := by
  unfold bodyPre4 bodyPost4
  simp only [beforeVal4]
  rw [Phi_eq4, Phi_eq4, after4_0, after4_1, ← gatherBlk_blk4]
  unfold Phi4 Pipeline.Dat.owesAt Pipeline.owesWithin
  rw [owed_eq4, owed_eq4, prefHeldEq4, scopedRest4_split]
  iintro ⟨⟨Hx, Hos, Ht, ⟨%fs, Hs⟩, Hsb⟩, ⟨%W, %hW, HO⟩, ⟨%d0, H0⟩, ⟨%d1, H1⟩⟩
  iapply (gatherRun4 c (grid4.coords t) _ _ _ _ (a0.1 0) (Vr Vin c main_arg0) (iblk4 a0 Vin c 0 t) (gatherChk4 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation4 (a0 : (pcfg4 (F := F)).Adm) (hok : GatherOk4 a0) (Vin : Dev nD → Valuation τ sig (Elt F)) (c : Dev nD) :
    BodyObligation (dat4 a0 Vin c) (defs₀ (F := F)) 𝒱₀ () Set.univ := fun t => by
  rw [bigSep_W4, bigSep_W4]
  exact sound_body4 a0 hok Vin c t

/-! ## From the blocks to the arrays -/

/-- The value array after the region: as entered. -/
theorem arrAt4_in (a0 : (pcfg4 (F := F)).Adm) (Vin : Dev nD → Valuation τ sig (Elt F)) (c : Dev nD) :
    (dat4 a0 Vin c).arrAt 0 (cfg4 a0).N = Vr Vin c main_v34 :=
  ((dat4 a0 Vin c).arrAt_in 0 rfl _).trans (A_eq4 a0 Vin c 0)

/-- Every index of the result array is in some point's block: row `e`, lane `d` is element `(e % 8, d)` of the block
    of point `e / 8`. -/
theorem regOutCover4 (a0 : (pcfg4 (F := F)).Adm) (i : S131072x128.Idx) :
    ∃ t : Fin (cfg4 a0).N, ((cfg4 a0).win 1).flush t = true ∧ i ∈ (((cfg4 a0).win 1).blk t).view.set := by
  have hi0 : (i 0).val < 131072 := (i 0).isLt
  have hi1 : (i 1).val < 128 := (i 1).isLt
  have hN : (i 0).val / 8 < grid4.N := by rw [N_4]; omega
  obtain ⟨t, ht⟩ : ∃ t : Fin (cfg4 a0).N, t.val = (i 0).val / 8 := ⟨⟨_, hN⟩, rfl⟩
  have hx : (((cfg4 a0).win 1).blk t).view.emb (ValueIdx.ix2 ⟨(i 0).val % 8, Nat.mod_lt _ (by decide)⟩ (i 1)) = i := by
    funext a; apply Fin.ext
    have e0 : ((cfg4 a0).win 1).index t (0 : Fin 2) = t.val := congrFun (regOutIndex4 a0 t) (0 : Fin 2)
    have e1 : ((cfg4 a0).win 1).index t (1 : Fin 2) = 0 := congrFun (regOutIndex4 a0 t) (1 : Fin 2)
    match a with
    | ⟨0, _⟩ => show ((cfg4 a0).win 1).index t (0 : Fin 2) * 8 + 1 * ((i 0).val % 8) = (i 0).val; omega
    | ⟨1, _⟩ => show ((cfg4 a0).win 1).index t (1 : Fin 2) * 128 + 1 * (i 1).val = (i 1).val; omega
  exact ⟨t, regOutFlush4 a0 t, hx ▸ (((cfg4 a0).win 1).blk t).view.emb_mem_set _⟩

/-- The result array after the region: the gathered and scaled rows, whole. -/
theorem arrAt4_out (a0 : (pcfg4 (F := F)).Adm) (Vin : Dev nD → Valuation τ sig (Elt F)) (c : Dev nD) :
    (dat4 a0 Vin c).arrAt 1 (cfg4 a0).N = gout4 a0 Vin c :=
  (dat4 a0 Vin c).arrAt_eq_of_cover 1 (gout4 a0 Vin c)
    (fun t _ => by
      show ((cfg4 a0).win 1).cut ((cfg4 a0).grid.coords t) ((dat4 a0 Vin c).after 1 t) = _
      rw [after4_1])
    (regOutCover4 a0)

/-! ## The region as a segment of @main -/

/-- The ownership layout of the kernel's eight semaphores. -/
theorem ownSemFacts4 : Pipeline.OwnSemFacts spec4 osem4 := by decide

/-- The kernel's own cells at zero, listed. -/
theorem ownSemsListed4 (c : Dev nD) :
    (Pipeline.ownSems0 (Ix := Unit) (Name := ℕ) (U := UU nD τ) (Lvl := ℕ) (Val := Elt F) (τ := τ) osem4 c : sProp (MM F)) = sems4 c :=
  Pipeline.ownSems0_eq_of_list c osem4 [0, 1, 2, 3, 4, 5, 6, 7] (by decide) (by decide)

/-- The unscoped buffers that are no window's array, no table, and not the embedding array. -/
abbrev restRefs4 : Finset (Ref sig .tc) :=
  (((Finset.univ.filter fun b : Ref sig .tc => ¬ b.isScoped) \ Finset.univ.image (Pipeline.arrRef spec4)) \ Finset.univ.image pre4.ref) \ {main_arg0}

/-- Those buffers, each whole at its contents under `Vin`: what bypasses the region. -/
def Zrest4 (Vin : Dev nD → Valuation τ sig (Elt F)) (c : Dev nD) : sProp (MM F) :=
  bigSep restRefs4 fun b => ((c : Thread nD τ).loc b) ↦{fullShare} Vr Vin c b

/-- The embedding array is an unscoped buffer that is no window's array and no table. -/
theorem embArrMem4 : ({main_arg0} : Finset (Ref sig .tc)) ⊆
    ((Finset.univ.filter fun b : Ref sig .tc => ¬ b.isScoped) \ Finset.univ.image (Pipeline.arrRef spec4)) \ Finset.univ.image pre4.ref := by
  decide

/-- The unscoped buffers that are no window's array: the index table, the embedding array, and the rest. -/
theorem unscopedRestOpen4 (Vin : Dev nD → Valuation τ sig (Elt F)) (c : Dev nD) :
    (Pipeline.unscopedRest (Ix := Unit) (Name := ℕ) (U := UU nD τ) (Lvl := ℕ) spec4 c (Vr Vin c) : sProp (MM F))
      = iprop(Pipeline.prefHeld pre4 c (fun _ => fullShare) (fun k => Vr Vin c (pre4.ref k))
          ∗ pt c (Memref.whole main_arg0) (Vr Vin c main_arg0) ∗ Zrest4 Vin c) := by
  rw [Pipeline.unscopedRest_split preFacts4 c (Vr Vin c)]
  unfold Pipeline.unscopedRestP Zrest4
  rw [BI.bigSep_sdiff_split embArrMem4, BI.bigSep_singleton]
  rfl

/-- The buffer contents when the region is left: the result array at the gathered rows, every other buffer as entered. -/
abbrev Vout4 (a0 : (pcfg4 (F := F)).Adm) (Vin : Dev nD → Valuation τ sig (Elt F)) (c : Dev nD) : Valuation τ sig (Elt F) :=
  Function.update (Vin c) main_v35 (gout4 a0 Vin c)

/-- At the exit each of the region's arrays holds what the pipeline leaves; -/
theorem hF4 (a0 : (pcfg4 (F := F)).Adm) (Vin : Dev nD → Valuation τ sig (Elt F)) (c : Dev nD) (w : Fin (cfg4 a0).W) :
    (dat4 a0 Vin c).arrAt w (cfg4 a0).N = Vr (Vout4 a0 Vin) c (Pipeline.arrRef spec4 w) := by
  match w with
  | ⟨0, _⟩ =>
    show (dat4 a0 Vin c).arrAt 0 (cfg4 a0).N = Vr (Vout4 a0 Vin) c (Pipeline.arrRef spec4 0)
    rw [arrAt4_in]
    exact (Function.update_of_ne (StableHlo.devRef_ne_of_ne (by decide) : (Proc.devRef .tc main_v34 : DevRef τ sig) ≠ Proc.devRef .tc main_v35) _ _).symm
  | ⟨1, _⟩ =>
    show (dat4 a0 Vin c).arrAt 1 (cfg4 a0).N = Vr (Vout4 a0 Vin) c (Pipeline.arrRef spec4 1)
    rw [arrAt4_out]
    exact (Function.update_self (Proc.devRef .tc main_v35 : DevRef τ sig) _ (Vin c)).symm

/-- and every other buffer what it held at entry. -/
theorem hrest4 (a0 : (pcfg4 (F := F)).Adm) (Vin : Dev nD → Valuation τ sig (Elt F)) (c : Dev nD) :
    ∀ b : Ref sig .tc, b ∉ Finset.univ.image (Pipeline.arrRef spec4) → Vr (Vout4 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat4` at the entry valuation `Vin`
    (`hd`), the index table's contents under `Vin` being the pinned ones (`htbl`) and row numbers (`hok`). -/
def reg4 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk4 (F := F) (a (4 : Fin 34)))
    (hd : ∀ c, pdats (4 : Fin 34) c = dat4 (a (4 : Fin 34)) Vin c) (htbl : ∀ c, (a (4 : Fin 34)).1 = fun k => Vr Vin c (pre4.ref k)) :
    Pipeline.RegionSeg (pcfgs (F := F)) a pdats () defs₀ 𝒱₀ L lv (4 : Fin 34) where
  win := (launch4 (F := F)).win.to₀
  block_pos := (launch4 (F := F)).block_pos
  stage_whole := (launch4 (F := F)).stage_whole
  K := Fin 8
  osem := osem4
  ho := ownSemFacts4
  hbody c := by rw [hd c]; exact (body_obligation4 (a (4 : Fin 34)) hok Vin c).loose
  hwaits := Pipeline.hwaits_of_owed_zero _ _ _ _ L lv (4 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v35 (gout4 (a (4 : Fin 34)) Vin c)) ∗ Rest c)
  X c := iprop(pt c (Memref.whole main_arg0) (Vr Vin c main_arg0) ∗ sems4 c)
  Y c := iprop(pt c (Memref.whole main_arg0) (Vr Vin c main_arg0)
    ∗ Pipeline.prefHeld (Ix := Unit) (Name := ℕ) (U := UU nD τ) (Lvl := ℕ) pre4 c (fun _ => fullShare) (a (4 : Fin 34)).1)
  Z c := Zrest4 Vin c
  hentry c := by
    rw [ownSemsListed4]
    have hsplit := Pipeline.arrays_of_unscopedBufs (p := (4 : Fin 34)) (pcfgs (F := F)) a pdats (launch4 (F := F)).win (launch4 (F := F)).arr_whole c
      ((pdats (4 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen4 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (4 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq4]; unfold Phi4
    iintro ⟨⟨Hx, Hos⟩, Ht, Hr⟩
    isplitl [Hx]; · iexact Hx
    isplitl [Hos]; · iexact Hos
    isplitl [Ht]; · iexact Ht
    iexact Hr
  hout c := by
    rw [ownSemsListed4, hd c, Phi_eq4]; unfold Phi4
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (4 : Fin 34)) (pcfgs (F := F)) a (Ix := Unit) (Name := ℕ) (U := UU nD τ) (Lvl := ℕ)
      (launch4 (F := F)).win (launch4 (F := F)).arr_whole c pdats ((pdats (4 : Fin 34) c).share_full fun _ => by rw [hd c]; rfl)
      (Vr Vin c) (Vr (Vout4 (a (4 : Fin 34)) Vin) c) ((pdats (4 : Fin 34) c).arrAt · (cfg4 (a (4 : Fin 34))).N)
      (fun w => by rw [hd c]; exact hF4 (a (4 : Fin 34)) Vin c w) (hrest4 (a (4 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen4 Vin c).symm)
      isplitl [Ht]; · rw [← htbl c]; iexact Ht
      isplitl [Hx]; · iexact Hx
      iexact Hz
    unfold Pipeline.Dat.owesAt Pipeline.owesWithin
    rw [show (pdats (4 : Fin 34) c).owed (Fin.last _) = 0 from by rw [hd c]; rfl]
    icases HO with ⟨%W, -, HO⟩; iexists W; iexact HO

end Cert.Kernel.Hand

end
-- ==== Proof.K.GatherDat5.lean ====
/-
  Gather region 5 (custom_call 5): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem5 : Fin 8 → SemLoc sig := fun | 0 => .dma 64 | 1 => .dma 65 | 2 => .dma 66 | 3 => .dma 67 | 4 => .dma 68 | 5 => .dma 69 | 6 => .dma 70 | 7 => .dma 71

/-- The eight counters at zero, as the run finds them and hands them back. -/
abbrev sems5 (c : Dev nD) : sProp (MM F) :=
  iprop(semVal ((c : Thread nD τ), osem5 0) 0 ∗ semVal ((c : Thread nD τ), osem5 1) 0 ∗ semVal ((c : Thread nD τ), osem5 2) 0
    ∗ semVal ((c : Thread nD τ), osem5 3) 0 ∗ semVal ((c : Thread nD τ), osem5 4) 0 ∗ semVal ((c : Thread nD τ), osem5 5) 0
    ∗ semVal ((c : Thread nD τ), osem5 6) 0 ∗ semVal ((c : Thread nD τ), osem5 7) 0)

/-- Word `j` of the eight the index table holds for point `i`, as the kernel's scalar load reads it. -/
def tblWord5 (c : Dev nD) (i : grid5.Coords) (tbl : Bf (F := F) c (Memref.whole main_v36)) (j : Fin 8) : BitVec 32 :=
  (Memref.whole main_v36).view.readAt (Elt F) (Rect.unit (s := S131072) (k5_off1 i (BitVec.ofNat 32 j.val)) S1.size (k5_off1_inb i j)).toLoadRect tbl
    (Shape.Idx.first (s := S1) (numel1_S1.symm ▸ Nat.one_pos))

/-- Window `w`'s block at point `t`, read off its array at the region's entry. -/
def iblk5 (a0 : (pcfg5 (F := F)).Adm) (Vin : Dev nD → Valuation τ sig (Elt F)) (c : Dev nD) (w : Fin (cfg5 a0).W) (t : Fin (cfg5 a0).N) :
    (((cfg5 a0).win w).xblock ((cfg5 a0).grid.coords t)).Idx → Elt F ((cfg5 a0).win w).elt :=
  (((cfg5 a0).win w).blk t).view.read (Elt F) (Vr Vin c (Pipeline.arrRef spec5 w))

/-- The result array the region leaves: the gathered and scaled rows of the embedding array, whole. -/
def gout5 (a0 : (pcfg5 (F := F)).Adm) (Vin : Dev nD → Valuation τ sig (Elt F)) (c : Dev nD) : Buf (Elt F) ((c : Thread nD τ).loc main_v38) :=
  gatherArr (Vr Vin c main_arg0) (a0.1 0) (Vr Vin c main_v37)

/-- The invariant between points: the embedding array as entered, the kernel's semaphores at zero, the index table, the
    scoped buffers no window stages (the kernel's scratch among them). -/
def Phi5 (a0 : (pcfg5 (F := F)).Adm) (Vin : Dev nD → Valuation τ sig (Elt F)) (c : Dev nD) : sProp (MM F) :=
  iprop(pt c (Memref.whole main_arg0) (Vr Vin c main_arg0) ∗ sems5 c
    ∗ Pipeline.prefHeld (Ix := Unit) (Name := ℕ) (U := UU nD τ) (Lvl := ℕ) pre5 c (fun _ => fullShare) a0.1
    ∗ Pipeline.scopedRest (Ix := Unit) (Name := ℕ) (U := UU nD τ) (Lvl := ℕ) (Val := Elt F) spec5 c)

/-- The proof data on core `c`. -/
def dat5 (a0 : (pcfg5 (F := F)).Adm) (Vin : Dev nD → Valuation τ sig (Elt F)) (c : Dev nD) :
    Pipeline.Dat τ (Elt F) Unit ℕ (UU nD τ) ℕ ((pcfg5 (F := F)).at a0) c where
  A w := Vr Vin c (Pipeline.arrRef spec5 w)
  after w t := match w with
    | ⟨0, _⟩ => iblk5 a0 Vin c 0 t
    | ⟨1, _⟩ => (((cfg5 a0).win 1).blk t).view.read (Elt F) (gout5 a0 Vin c)
  Φ _ := Phi5 a0 Vin c
  q _ := fullShare
  owed _ := 0

theorem A_eq5 (a0 : (pcfg5 (F := F)).Adm) (Vin : Dev nD → Valuation τ sig (Elt F)) (c : Dev nD) (w : Fin (cfg5 a0).W) :
    (dat5 a0 Vin c).A w = Vr Vin c (Pipeline.arrRef spec5 w) := by dsimp only [dat5]
theorem after5_0 (a0 : (pcfg5 (F := F)).Adm) (Vin : Dev nD → Valuation τ sig (Elt F)) (c : Dev nD) (t : Fin (cfg5 a0).N) :
    (dat5 a0 Vin c).after 0 t = iblk5 a0 Vin c 0 t := by dsimp only [dat5]; rfl
theorem after5_1 (a0 : (pcfg5 (F := F)).Adm) (Vin : Dev nD → Valuation τ sig (Elt F)) (c : Dev nD) (t : Fin (cfg5 a0).N) :
    (dat5 a0 Vin c).after 1 t = (((cfg5 a0).win 1).blk t).view.read (Elt F) (gout5 a0 Vin c) := by dsimp only [dat5]; rfl
theorem Phi_eq5 (a0 : (pcfg5 (F := F)).Adm) (Vin : Dev nD → Valuation τ sig (Elt F)) (c : Dev nD) (t : Fin ((cfg5 a0).N + 1)) :
    (dat5 a0 Vin c).Φ t = Phi5 a0 Vin c := rfl
theorem owed_eq5 (a0 : (pcfg5 (F := F)).Adm) (Vin : Dev nD → Valuation τ sig (Elt F)) (c : Dev nD) (t : Fin ((cfg5 a0).N + 1)) :
    (dat5 a0 Vin c).owed t = 0 := rfl
theorem q_eq5 (a0 : (pcfg5 (F := F)).Adm) (Vin : Dev nD → Valuation τ sig (Elt F)) (c : Dev nD) (w : Fin (cfg5 a0).W) :
    (dat5 a0 Vin c).q w = fullShare := rfl

/-- The pinned family's configuration at region 5 is this one. -/
example (a : (p : Fin 34) → (pcfgs (F := F) p).Adm) : Pipeline.pin (pcfgs (F := F)) a (5 : Fin 34) = (pcfg5 (F := F)).at (a (5 : Fin 34)) := rfl

end Cert.Kernel.Hand

end
-- ==== Proof.K.GatherBody5.lean ====
/-
  Gather region 5 (custom_call 5): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat5
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk5 (c : Dev nD) (i : grid5.Coords) (tbl : Bf (F := F) c (Memref.whole main_v36)) : Prop where
  h1 : k5_chk1 (tblWord5 c i tbl 0)
  h2 : k5_chk2 (tblWord5 c i tbl 1)
  h3 : k5_chk3 (tblWord5 c i tbl 2)
  h4 : k5_chk4 (tblWord5 c i tbl 3)
  h5 : k5_chk5 (tblWord5 c i tbl 4)
  h6 : k5_chk6 (tblWord5 c i tbl 5)
  h7 : k5_chk7 (tblWord5 c i tbl 6)
  h8 : k5_chk8 (tblWord5 c i tbl 7)

/-- A one-row slice of the embedding array at the row a word names, read at lane `z 1`: the array's element there. -/
theorem rowRead5 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun5 (c : Dev nD) (i : grid5.Coords)
    (M3 : Memref sig .tc .vmem S8x1 .f32) (h3 : M3.IsWhole) (M4 : Memref sig .tc .vmem S8x128 .f32) (h4 : M4.IsWhole)
    (tbl : Bf (F := F) c (Memref.whole main_v36)) (x : Bf (F := F) c (Memref.whole main_arg0))
    (vb : Vec F S8x1 .f32) (hchk : GatherChk5 c i tbl) (Q : PUnit → sProp (MM F)) :
    iprop(pt c (Memref.whole main_v36) tbl ∗ pt c (Memref.whole main_arg0) x
      ∗ owns (c : Thread nD τ) M3 fullShare vb ∗ (∃ d, owns (c : Thread nD τ) M4 fullShare d)
      ∗ (∃ fs, pt c (Memref.whole cc5_scratch0) fs) ∗ sems5 c ∗ (∃ W, owes (c : Thread nD τ) (0 : CellTallies nD τ sig Unit) W)
      ∗ (iprop(pt c (Memref.whole main_v36) tbl ∗ pt c (Memref.whole main_arg0) x
          ∗ owns (c : Thread nD τ) M3 fullShare vb ∗ owns (c : Thread nD τ) M4 fullShare (gatherBlk x (tblWord5 c i tbl) vb)
          ∗ (∃ fs, pt c (Memref.whole cc5_scratch0) fs) ∗ sems5 c ∗ (∃ W, owes (c : Thread nD τ) (0 : CellTallies nD τ sig Unit) W)) -∗ Q ⟨⟩))
    ⊢ wp frame (wpE (defs₀ (F := F)) 𝒱₀ c none) Set.univ
        (cc5__gather_kernel i (Memref.whole main_v36) (Memref.isWhole_whole _) (Memref.whole main_arg0) (Memref.isWhole_whole _) M3 h3 M4 h4
          (Memref.whole cc5_scratch0) (Memref.isWhole_whole _) cc5_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 64).1 $$ Hx
  icases Hx' with ⟨Hxr, Hx0, Hx1, Hx2, Hx3, Hx4, Hx5, Hx6, Hx7⟩
  sl_unfold [cc5__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 64).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k5_pay1 gatherBlk
    show FloatOps.mulf _ _ = FloatOps.mulf _ _
    congr 1
    · unfold gatherRun5.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun5.sl.dma8 gatherRun5.sl.dma8_1 gatherRun5.sl.dma8_2 gatherRun5.sl.dma8_3 gatherRun5.sl.dma8_4 gatherRun5.sl.dma8_5
        gatherRun5.sl.dma8_6 gatherRun5.sl.dma8_7 gatherRun5.sl.r gatherRun5.sl.r_1 gatherRun5.sl.r_2 gatherRun5.sl.r_3 gatherRun5.sl.r_4
        gatherRun5.sl.r_5 gatherRun5.sl.r_6 gatherRun5.sl.r_7
      refine canonRows8 _ _ _ _ _ _ _ _ _ _ _ _ _ _ _ _ (fun r d => x (embIdx (rowOf (tblWord5 c i tbl r)) d)) ?_ ?_ ?_ ?_ ?_ ?_ ?_ ?_ y
      · exact fun z => rowRead5 c _ (tblWord5 c i tbl 0) rfl rfl _ _ x z
      · exact fun z => rowRead5 c _ (tblWord5 c i tbl 1) rfl rfl _ _ x z
      · exact fun z => rowRead5 c _ (tblWord5 c i tbl 2) rfl rfl _ _ x z
      · exact fun z => rowRead5 c _ (tblWord5 c i tbl 3) rfl rfl _ _ x z
      · exact fun z => rowRead5 c _ (tblWord5 c i tbl 4) rfl rfl _ _ x z
      · exact fun z => rowRead5 c _ (tblWord5 c i tbl 5) rfl rfl _ _ x z
      · exact fun z => rowRead5 c _ (tblWord5 c i tbl 6) rfl rfl _ _ x z
      · exact fun z => rowRead5 c _ (tblWord5 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk5.lean ====
/-
  Gather region 5 (custom_call 5): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat5
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word5 (i : grid5.Coords) (j : Fin 8) : k5_off1 i (BitVec.ofNat 32 j.val) 0 = (i 0).val * 8 + j.val := by
  have hi : (i 0).val < 16384 := (i 0).isLt
  have hj : j.val < 8 := j.isLt
  unfold k5_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word5 (i : grid5.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord5_eq (c : Dev nD) (i : grid5.Coords) (tbl : Bf (F := F) c (Memref.whole main_v36)) (j : Fin 8)
    (e : Fin 131072) (he : e.val = (i 0).val * 8 + j.val) : tblWord5 c i tbl j = tbl (tblIdx e) := by
  unfold tblWord5
  show tbl _ = tbl _
  refine congrArg tbl ?_
  funext a; apply Fin.ext
  match a with
  | ⟨0, _⟩ =>
    show k5_off1 i (BitVec.ofNat 32 j.val) 0 + 1 * 0 = e.val
    rw [off_word5, he]; omega

/-- Row `j` of the value window's block at point `t` is the value array's row `8 t + j`. -/
theorem valBlk5_eq (a0 : (pcfg5 (F := F)).Adm) (Vin : Dev nD → Valuation τ sig (Elt F)) (c : Dev nD) (t : Fin (cfg5 a0).N)
    (j : Fin 8) (e : Fin 131072) (he : e.val = ((grid5.coords t) 0).val * 8 + j.val) :
    iblk5 a0 Vin c 0 t (colIdx j) = Vr Vin c main_v37 (valIdx e) := by
  unfold iblk5
  show Vr Vin c main_v37 _ = Vr Vin c main_v37 _
  refine congrArg (Vr Vin c main_v37) ?_
  funext a; apply Fin.ext
  match a with
  | ⟨0, _⟩ =>
    show (BitVec.ofNat 32 ((grid5.coords t) 0).val).toNat * 8 + 1 * j.val = e.val
    rw [coord_word5, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk5 (a0 : (pcfg5 (F := F)).Adm) (Vin : Dev nD → Valuation τ sig (Elt F)) (c : Dev nD) (t : Fin (cfg5 a0).N) :
    gatherBlk (Vr Vin c main_arg0) (tblWord5 c (grid5.coords t) (a0.1 0)) (iblk5 a0 Vin c 0 t)
      = (((cfg5 a0).win 1).blk t).view.read (Elt F) (gout5 a0 Vin c) := by
  funext y
  show gatherBlk _ _ _ y = gout5 a0 Vin c ((((cfg5 a0).win 1).blk t).view.emb y)
  unfold gatherBlk gout5 gatherArr
  have e0 : ((((cfg5 a0).win 1).blk t).view.emb y (0 : Fin 2)).val = ((grid5.coords t) 0).val * 8 + (y 0).val := by
    show (BitVec.ofNat 32 ((grid5.coords t) 0).val).toNat * 8 + 1 * (y 0).val = _
    rw [coord_word5]; omega
  have e1 : (((cfg5 a0).win 1).blk t).view.emb y (1 : Fin 2) = y 1 := Fin.ext (by
    show (0#32 : BitVec 32).toNat * 128 + 1 * (y 1).val = (y 1).val
    show 0 * 128 + 1 * (y 1).val = (y 1).val
    omega)
  rw [tblWord5_eq c (grid5.coords t) (a0.1 0) (y 0) _ e0, valBlk5_eq a0 Vin c t (y 0) _ e0, e1]

end Cert.Kernel.Hand

end
-- ==== Proof.K.GatherRegion5.lean ====
/-
  Gather region 5 (custom_call 5): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody5
import proofs.«414509_j14181982011419_2_alg».proof.Proof.K.GatherBlk5
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk5 (a0 : (pcfg5 (F := F)).Adm) : Prop := ∀ e : S131072.Idx, (a0.1 0 e).toNat < 100000

/-! ## The grid and the result window's blocks -/

/-- On the one-axis grid a point's coordinate is its number. -/
theorem regCoords5 (t : Fin grid5.N) : (grid5.coords t 0).val = t.val := by
  have ht : t.val < 16384 := N_5 ▸ t.isLt
  show t.val / grid5.stride 0 % grid5.bound 0 = t.val
  rw [show grid5.stride 0 = 1 from by decide, show grid5.bound 0 = 16384 from rfl, Nat.div_one, Nat.mod_eq_of_lt ht]

/-- A point's number as the 32-bit word the index maps compute with. -/
theorem regWord5 (t : Fin grid5.N) : (BitVec.ofNat 32 (grid5.coords t 0).val).toNat = t.val := by
  have ht : t.val < 16384 := N_5 ▸ t.isLt
  rw [BitVec.toNat_ofNat, regCoords5]; omega

/-- The result window's block at point `t` is block `t` along the rows, at zero along the lanes. -/
theorem regOutIndex5 (a0 : (pcfg5 (F := F)).Adm) (t : Fin (cfg5 a0).N) : ((cfg5 a0).win 1).index t = ![t.val, 0] := by
  show cc5_transform_2 (grid5.coords t) = _
  unfold cc5_transform_2
  funext a; fin_cases a
  · exact regWord5 t
  · rfl

/-- The result window is written back at every point: consecutive points have different blocks. -/
theorem regOutFlush5 (a0 : (pcfg5 (F := F)).Adm) (t : Fin (cfg5 a0).N) : ((cfg5 a0).win 1).flush t = true := by
  have htN : t.val < 16384 := N_5 ▸ t.isLt
  rw [Pipeline.Window.flush_out _ rfl]
  by_cases h : t.val + 1 = 16384
  · exact Or.inl (show t.val + 1 = grid5.N by rw [N_5]; exact h)
  · have hlt : t.val + 1 < grid5.N := by rw [N_5]; omega
    refine Or.inr ⟨hlt, fun e => ?_⟩
    have e' : (![t.val + 1, 0] : Fin 2 → ℕ) = ![t.val, 0] := (regOutIndex5 a0 ⟨t.val + 1, hlt⟩).symm.trans (e.trans (regOutIndex5 a0 t))
    have e0 := congrFun e' 0
    simp at e0

/-- The index table, held as the pipeline's one prefetched table. -/
theorem prefHeldEq5 (a0 : (pcfg5 (F := F)).Adm) (c : Dev nD) :
    (Pipeline.prefHeld (Ix := Unit) (Name := ℕ) (U := UU nD τ) (Lvl := ℕ) pre5 c (fun _ => fullShare) a0.1 : sProp (MM F))
      = pt c (Memref.whole main_v36) (a0.1 0) := by
  unfold Pipeline.prefHeld
  rw [show (Finset.univ : Finset (Fin pre5.K)) = {0} from rfl, BI.bigSep_singleton]
  rfl

/-- The value window's staging buffer holds its block at every point. -/
theorem beforeVal5 (a0 : (pcfg5 (F := F)).Adm) (Vin : Dev nD → Valuation τ sig (Elt F)) (c : Dev nD) (t : Fin (cfg5 a0).N) (d) :
    (dat5 a0 Vin c).before 0 t d = iblk5 a0 Vin c 0 t :=
  ((dat5 a0 Vin c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-! ## The kernel's checks, from the table's range -/

/-- Each of the point's eight words is a word of the table, so a row number. -/
theorem tblWordLt5 (a0 : (pcfg5 (F := F)).Adm) (hok : GatherOk5 a0) (c : Dev nD) (i : grid5.Coords) (j : Fin 8) :
    (tblWord5 c i (a0.1 0) j).toNat < 100000 := by
  unfold tblWord5
  exact hok _

/-- So the kernel's eight checks hold at every point. -/
theorem gatherChk5 (a0 : (pcfg5 (F := F)).Adm) (hok : GatherOk5 a0) (c : Dev nD) (i : grid5.Coords) : GatherChk5 c i (a0.1 0) :=
  ⟨⟨chkRow _ (tblWordLt5 a0 hok c i 0), chkRow _ (tblWordLt5 a0 hok c i 0)⟩,
   ⟨chkRow _ (tblWordLt5 a0 hok c i 1), chkRow _ (tblWordLt5 a0 hok c i 1)⟩,
   ⟨chkRow _ (tblWordLt5 a0 hok c i 2), chkRow _ (tblWordLt5 a0 hok c i 2)⟩,
   ⟨chkRow _ (tblWordLt5 a0 hok c i 3), chkRow _ (tblWordLt5 a0 hok c i 3)⟩,
   ⟨chkRow _ (tblWordLt5 a0 hok c i 4), chkRow _ (tblWordLt5 a0 hok c i 4)⟩,
   ⟨chkRow _ (tblWordLt5 a0 hok c i 5), chkRow _ (tblWordLt5 a0 hok c i 5)⟩,
   ⟨chkRow _ (tblWordLt5 a0 hok c i 6), chkRow _ (tblWordLt5 a0 hok c i 6)⟩,
   chkRow _ (tblWordLt5 a0 hok c i 7)⟩

/-! ## The body obligation, at a generic point -/

/-- What the body is called with at point `t`: the invariant, the core's dues, each window's current staging memref at
    what the pipeline left there, -/
def bodyPre5 (a0 : (pcfg5 (F := F)).Adm) (Vin : Dev nD → Valuation τ sig (Elt F)) (c : Dev nD) (t : Fin (cfg5 a0).N) : sProp (MM F) :=
  iprop((dat5 a0 Vin c).Φ t.castSucc ∗ (dat5 a0 Vin c).owesAt () t.castSucc
    ∗ (∃ d, owns (c : Thread nD τ) (((cfg5 a0).win 0).stage ((cfg5 a0).slots t 0)) fullShare ((dat5 a0 Vin c).before 0 t d))
    ∗ (∃ d, owns (c : Thread nD τ) (((cfg5 a0).win 1).stage ((cfg5 a0).slots t 1)) fullShare ((dat5 a0 Vin c).before 1 t d)))

/-- and what it returns. -/
def bodyPost5 (a0 : (pcfg5 (F := F)).Adm) (Vin : Dev nD → Valuation τ sig (Elt F)) (c : Dev nD) (t : Fin (cfg5 a0).N) : sProp (MM F) :=
  iprop((dat5 a0 Vin c).Φ t.succ ∗ (dat5 a0 Vin c).owesAt () t.succ
    ∗ owns (c : Thread nD τ) (((cfg5 a0).win 0).stage ((cfg5 a0).slots t 0)) fullShare ((dat5 a0 Vin c).after 0 t)
    ∗ owns (c : Thread nD τ) (((cfg5 a0).win 1).stage ((cfg5 a0).slots t 1)) fullShare ((dat5 a0 Vin c).after 1 t))

/-- The body at any point: the invariant opened into the embedding array, the semaphores, the table and the scratch;
    the value window's memref at its block; the checks from the table's range; so the kernel's run applies, and what it
    leaves in the result window's memref is the point's block of the gathered array. -/
theorem sound_body5 (a0 : (pcfg5 (F := F)).Adm) (hok : GatherOk5 a0) (Vin : Dev nD → Valuation τ sig (Elt F)) (c : Dev nD) (t : Fin (cfg5 a0).N) :
    bodyPre5 a0 Vin c t ⊢ wp frame (wpE (defs₀ (F := F)) 𝒱₀ c none) Set.univ
      (defs₀ .tc (cfg5 a0).body ((cfg5 a0).bodyArgs t ((cfg5 a0).slots t))) (fun _ => bodyPost5 a0 Vin c t) := by
  unfold bodyPre5 bodyPost5
  simp only [beforeVal5]
  rw [Phi_eq5, Phi_eq5, after5_0, after5_1, ← gatherBlk_blk5]
  unfold Phi5 Pipeline.Dat.owesAt Pipeline.owesWithin
  rw [owed_eq5, owed_eq5, prefHeldEq5, scopedRest5_split]
  iintro ⟨⟨Hx, Hos, Ht, ⟨%fs, Hs⟩, Hsb⟩, ⟨%W, %hW, HO⟩, ⟨%d0, H0⟩, ⟨%d1, H1⟩⟩
  iapply (gatherRun5 c (grid5.coords t) _ _ _ _ (a0.1 0) (Vr Vin c main_arg0) (iblk5 a0 Vin c 0 t) (gatherChk5 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation5 (a0 : (pcfg5 (F := F)).Adm) (hok : GatherOk5 a0) (Vin : Dev nD → Valuation τ sig (Elt F)) (c : Dev nD) :
    BodyObligation (dat5 a0 Vin c) (defs₀ (F := F)) 𝒱₀ () Set.univ := fun t => by
  rw [bigSep_W5, bigSep_W5]
  exact sound_body5 a0 hok Vin c t

/-! ## From the blocks to the arrays -/

/-- The value array after the region: as entered. -/
theorem arrAt5_in (a0 : (pcfg5 (F := F)).Adm) (Vin : Dev nD → Valuation τ sig (Elt F)) (c : Dev nD) :
    (dat5 a0 Vin c).arrAt 0 (cfg5 a0).N = Vr Vin c main_v37 :=
  ((dat5 a0 Vin c).arrAt_in 0 rfl _).trans (A_eq5 a0 Vin c 0)

/-- Every index of the result array is in some point's block: row `e`, lane `d` is element `(e % 8, d)` of the block
    of point `e / 8`. -/
theorem regOutCover5 (a0 : (pcfg5 (F := F)).Adm) (i : S131072x128.Idx) :
    ∃ t : Fin (cfg5 a0).N, ((cfg5 a0).win 1).flush t = true ∧ i ∈ (((cfg5 a0).win 1).blk t).view.set := by
  have hi0 : (i 0).val < 131072 := (i 0).isLt
  have hi1 : (i 1).val < 128 := (i 1).isLt
  have hN : (i 0).val / 8 < grid5.N := by rw [N_5]; omega
  obtain ⟨t, ht⟩ : ∃ t : Fin (cfg5 a0).N, t.val = (i 0).val / 8 := ⟨⟨_, hN⟩, rfl⟩
  have hx : (((cfg5 a0).win 1).blk t).view.emb (ValueIdx.ix2 ⟨(i 0).val % 8, Nat.mod_lt _ (by decide)⟩ (i 1)) = i := by
    funext a; apply Fin.ext
    have e0 : ((cfg5 a0).win 1).index t (0 : Fin 2) = t.val := congrFun (regOutIndex5 a0 t) (0 : Fin 2)
    have e1 : ((cfg5 a0).win 1).index t (1 : Fin 2) = 0 := congrFun (regOutIndex5 a0 t) (1 : Fin 2)
    match a with
    | ⟨0, _⟩ => show ((cfg5 a0).win 1).index t (0 : Fin 2) * 8 + 1 * ((i 0).val % 8) = (i 0).val; omega
    | ⟨1, _⟩ => show ((cfg5 a0).win 1).index t (1 : Fin 2) * 128 + 1 * (i 1).val = (i 1).val; omega
  exact ⟨t, regOutFlush5 a0 t, hx ▸ (((cfg5 a0).win 1).blk t).view.emb_mem_set _⟩

/-- The result array after the region: the gathered and scaled rows, whole. -/
theorem arrAt5_out (a0 : (pcfg5 (F := F)).Adm) (Vin : Dev nD → Valuation τ sig (Elt F)) (c : Dev nD) :
    (dat5 a0 Vin c).arrAt 1 (cfg5 a0).N = gout5 a0 Vin c :=
  (dat5 a0 Vin c).arrAt_eq_of_cover 1 (gout5 a0 Vin c)
    (fun t _ => by
      show ((cfg5 a0).win 1).cut ((cfg5 a0).grid.coords t) ((dat5 a0 Vin c).after 1 t) = _
      rw [after5_1])
    (regOutCover5 a0)

/-! ## The region as a segment of @main -/

/-- The ownership layout of the kernel's eight semaphores. -/
theorem ownSemFacts5 : Pipeline.OwnSemFacts spec5 osem5 := by decide

/-- The kernel's own cells at zero, listed. -/
theorem ownSemsListed5 (c : Dev nD) :
    (Pipeline.ownSems0 (Ix := Unit) (Name := ℕ) (U := UU nD τ) (Lvl := ℕ) (Val := Elt F) (τ := τ) osem5 c : sProp (MM F)) = sems5 c :=
  Pipeline.ownSems0_eq_of_list c osem5 [0, 1, 2, 3, 4, 5, 6, 7] (by decide) (by decide)

/-- The unscoped buffers that are no window's array, no table, and not the embedding array. -/
abbrev restRefs5 : Finset (Ref sig .tc) :=
  (((Finset.univ.filter fun b : Ref sig .tc => ¬ b.isScoped) \ Finset.univ.image (Pipeline.arrRef spec5)) \ Finset.univ.image pre5.ref) \ {main_arg0}

/-- Those buffers, each whole at its contents under `Vin`: what bypasses the region. -/
def Zrest5 (Vin : Dev nD → Valuation τ sig (Elt F)) (c : Dev nD) : sProp (MM F) :=
  bigSep restRefs5 fun b => ((c : Thread nD τ).loc b) ↦{fullShare} Vr Vin c b

/-- The embedding array is an unscoped buffer that is no window's array and no table. -/
theorem embArrMem5 : ({main_arg0} : Finset (Ref sig .tc)) ⊆
    ((Finset.univ.filter fun b : Ref sig .tc => ¬ b.isScoped) \ Finset.univ.image (Pipeline.arrRef spec5)) \ Finset.univ.image pre5.ref := by
  decide

/-- The unscoped buffers that are no window's array: the index table, the embedding array, and the rest. -/
theorem unscopedRestOpen5 (Vin : Dev nD → Valuation τ sig (Elt F)) (c : Dev nD) :
    (Pipeline.unscopedRest (Ix := Unit) (Name := ℕ) (U := UU nD τ) (Lvl := ℕ) spec5 c (Vr Vin c) : sProp (MM F))
      = iprop(Pipeline.prefHeld pre5 c (fun _ => fullShare) (fun k => Vr Vin c (pre5.ref k))
          ∗ pt c (Memref.whole main_arg0) (Vr Vin c main_arg0) ∗ Zrest5 Vin c) := by
  rw [Pipeline.unscopedRest_split preFacts5 c (Vr Vin c)]
  unfold Pipeline.unscopedRestP Zrest5
  rw [BI.bigSep_sdiff_split embArrMem5, BI.bigSep_singleton]
  rfl

/-- The buffer contents when the region is left: the result array at the gathered rows, every other buffer as entered. -/
abbrev Vout5 (a0 : (pcfg5 (F := F)).Adm) (Vin : Dev nD → Valuation τ sig (Elt F)) (c : Dev nD) : Valuation τ sig (Elt F) :=
  Function.update (Vin c) main_v38 (gout5 a0 Vin c)

/-- At the exit each of the region's arrays holds what the pipeline leaves; -/
theorem hF5 (a0 : (pcfg5 (F := F)).Adm) (Vin : Dev nD → Valuation τ sig (Elt F)) (c : Dev nD) (w : Fin (cfg5 a0).W) :
    (dat5 a0 Vin c).arrAt w (cfg5 a0).N = Vr (Vout5 a0 Vin) c (Pipeline.arrRef spec5 w) := by
  match w with
  | ⟨0, _⟩ =>
    show (dat5 a0 Vin c).arrAt 0 (cfg5 a0).N = Vr (Vout5 a0 Vin) c (Pipeline.arrRef spec5 0)
    rw [arrAt5_in]
    exact (Function.update_of_ne (StableHlo.devRef_ne_of_ne (by decide) : (Proc.devRef .tc main_v37 : DevRef τ sig) ≠ Proc.devRef .tc main_v38) _ _).symm
  | ⟨1, _⟩ =>
    show (dat5 a0 Vin c).arrAt 1 (cfg5 a0).N = Vr (Vout5 a0 Vin) c (Pipeline.arrRef spec5 1)
    rw [arrAt5_out]
    exact (Function.update_self (Proc.devRef .tc main_v38 : DevRef τ sig) _ (Vin c)).symm

/-- and every other buffer what it held at entry. -/
theorem hrest5 (a0 : (pcfg5 (F := F)).Adm) (Vin : Dev nD → Valuation τ sig (Elt F)) (c : Dev nD) :
    ∀ b : Ref sig .tc, b ∉ Finset.univ.image (Pipeline.arrRef spec5) → Vr (Vout5 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat5` at the entry valuation `Vin`
    (`hd`), the index table's contents under `Vin` being the pinned ones (`htbl`) and row numbers (`hok`). -/
def reg5 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk5 (F := F) (a (5 : Fin 34)))
    (hd : ∀ c, pdats (5 : Fin 34) c = dat5 (a (5 : Fin 34)) Vin c) (htbl : ∀ c, (a (5 : Fin 34)).1 = fun k => Vr Vin c (pre5.ref k)) :
    Pipeline.RegionSeg (pcfgs (F := F)) a pdats () defs₀ 𝒱₀ L lv (5 : Fin 34) where
  win := (launch5 (F := F)).win.to₀
  block_pos := (launch5 (F := F)).block_pos
  stage_whole := (launch5 (F := F)).stage_whole
  K := Fin 8
  osem := osem5
  ho := ownSemFacts5
  hbody c := by rw [hd c]; exact (body_obligation5 (a (5 : Fin 34)) hok Vin c).loose
  hwaits := Pipeline.hwaits_of_owed_zero _ _ _ _ L lv (5 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v38 (gout5 (a (5 : Fin 34)) Vin c)) ∗ Rest c)
  X c := iprop(pt c (Memref.whole main_arg0) (Vr Vin c main_arg0) ∗ sems5 c)
  Y c := iprop(pt c (Memref.whole main_arg0) (Vr Vin c main_arg0)
    ∗ Pipeline.prefHeld (Ix := Unit) (Name := ℕ) (U := UU nD τ) (Lvl := ℕ) pre5 c (fun _ => fullShare) (a (5 : Fin 34)).1)
  Z c := Zrest5 Vin c
  hentry c := by
    rw [ownSemsListed5]
    have hsplit := Pipeline.arrays_of_unscopedBufs (p := (5 : Fin 34)) (pcfgs (F := F)) a pdats (launch5 (F := F)).win (launch5 (F := F)).arr_whole c
      ((pdats (5 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen5 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (5 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq5]; unfold Phi5
    iintro ⟨⟨Hx, Hos⟩, Ht, Hr⟩
    isplitl [Hx]; · iexact Hx
    isplitl [Hos]; · iexact Hos
    isplitl [Ht]; · iexact Ht
    iexact Hr
  hout c := by
    rw [ownSemsListed5, hd c, Phi_eq5]; unfold Phi5
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (5 : Fin 34)) (pcfgs (F := F)) a (Ix := Unit) (Name := ℕ) (U := UU nD τ) (Lvl := ℕ)
      (launch5 (F := F)).win (launch5 (F := F)).arr_whole c pdats ((pdats (5 : Fin 34) c).share_full fun _ => by rw [hd c]; rfl)
      (Vr Vin c) (Vr (Vout5 (a (5 : Fin 34)) Vin) c) ((pdats (5 : Fin 34) c).arrAt · (cfg5 (a (5 : Fin 34))).N)
      (fun w => by rw [hd c]; exact hF5 (a (5 : Fin 34)) Vin c w) (hrest5 (a (5 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen5 Vin c).symm)
      isplitl [Ht]; · rw [← htbl c]; iexact Ht
      isplitl [Hx]; · iexact Hx
      iexact Hz
    unfold Pipeline.Dat.owesAt Pipeline.owesWithin
    rw [show (pdats (5 : Fin 34) c).owed (Fin.last _) = 0 from by rw [hd c]; rfl]
    icases HO with ⟨%W, -, HO⟩; iexists W; iexact HO

end Cert.Kernel.Hand

end
-- ==== Proof.K.GatherDat6.lean ====
/-
  Gather region 6 (custom_call 6): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem6 : Fin 8 → SemLoc sig := fun | 0 => .dma 76 | 1 => .dma 77 | 2 => .dma 78 | 3 => .dma 79 | 4 => .dma 80 | 5 => .dma 81 | 6 => .dma 82 | 7 => .dma 83

/-- The eight counters at zero, as the run finds them and hands them back. -/
abbrev sems6 (c : Dev nD) : sProp (MM F) :=
  iprop(semVal ((c : Thread nD τ), osem6 0) 0 ∗ semVal ((c : Thread nD τ), osem6 1) 0 ∗ semVal ((c : Thread nD τ), osem6 2) 0
    ∗ semVal ((c : Thread nD τ), osem6 3) 0 ∗ semVal ((c : Thread nD τ), osem6 4) 0 ∗ semVal ((c : Thread nD τ), osem6 5) 0
    ∗ semVal ((c : Thread nD τ), osem6 6) 0 ∗ semVal ((c : Thread nD τ), osem6 7) 0)

/-- Word `j` of the eight the index table holds for point `i`, as the kernel's scalar load reads it. -/
def tblWord6 (c : Dev nD) (i : grid6.Coords) (tbl : Bf (F := F) c (Memref.whole main_v39)) (j : Fin 8) : BitVec 32 :=
  (Memref.whole main_v39).view.readAt (Elt F) (Rect.unit (s := S131072) (k6_off1 i (BitVec.ofNat 32 j.val)) S1.size (k6_off1_inb i j)).toLoadRect tbl
    (Shape.Idx.first (s := S1) (numel1_S1.symm ▸ Nat.one_pos))

/-- Window `w`'s block at point `t`, read off its array at the region's entry. -/
def iblk6 (a0 : (pcfg6 (F := F)).Adm) (Vin : Dev nD → Valuation τ sig (Elt F)) (c : Dev nD) (w : Fin (cfg6 a0).W) (t : Fin (cfg6 a0).N) :
    (((cfg6 a0).win w).xblock ((cfg6 a0).grid.coords t)).Idx → Elt F ((cfg6 a0).win w).elt :=
  (((cfg6 a0).win w).blk t).view.read (Elt F) (Vr Vin c (Pipeline.arrRef spec6 w))

/-- The result array the region leaves: the gathered and scaled rows of the embedding array, whole. -/
def gout6 (a0 : (pcfg6 (F := F)).Adm) (Vin : Dev nD → Valuation τ sig (Elt F)) (c : Dev nD) : Buf (Elt F) ((c : Thread nD τ).loc main_v41) :=
  gatherArr (Vr Vin c main_arg0) (a0.1 0) (Vr Vin c main_v40)

/-- The invariant between points: the embedding array as entered, the kernel's semaphores at zero, the index table, the
    scoped buffers no window stages (the kernel's scratch among them). -/
def Phi6 (a0 : (pcfg6 (F := F)).Adm) (Vin : Dev nD → Valuation τ sig (Elt F)) (c : Dev nD) : sProp (MM F) :=
  iprop(pt c (Memref.whole main_arg0) (Vr Vin c main_arg0) ∗ sems6 c
    ∗ Pipeline.prefHeld (Ix := Unit) (Name := ℕ) (U := UU nD τ) (Lvl := ℕ) pre6 c (fun _ => fullShare) a0.1
    ∗ Pipeline.scopedRest (Ix := Unit) (Name := ℕ) (U := UU nD τ) (Lvl := ℕ) (Val := Elt F) spec6 c)

/-- The proof data on core `c`. -/
def dat6 (a0 : (pcfg6 (F := F)).Adm) (Vin : Dev nD → Valuation τ sig (Elt F)) (c : Dev nD) :
    Pipeline.Dat τ (Elt F) Unit ℕ (UU nD τ) ℕ ((pcfg6 (F := F)).at a0) c where
  A w := Vr Vin c (Pipeline.arrRef spec6 w)
  after w t := match w with
    | ⟨0, _⟩ => iblk6 a0 Vin c 0 t
    | ⟨1, _⟩ => (((cfg6 a0).win 1).blk t).view.read (Elt F) (gout6 a0 Vin c)
  Φ _ := Phi6 a0 Vin c
  q _ := fullShare
  owed _ := 0

theorem A_eq6 (a0 : (pcfg6 (F := F)).Adm) (Vin : Dev nD → Valuation τ sig (Elt F)) (c : Dev nD) (w : Fin (cfg6 a0).W) :
    (dat6 a0 Vin c).A w = Vr Vin c (Pipeline.arrRef spec6 w) := by dsimp only [dat6]
theorem after6_0 (a0 : (pcfg6 (F := F)).Adm) (Vin : Dev nD → Valuation τ sig (Elt F)) (c : Dev nD) (t : Fin (cfg6 a0).N) :
    (dat6 a0 Vin c).after 0 t = iblk6 a0 Vin c 0 t := by dsimp only [dat6]; rfl
theorem after6_1 (a0 : (pcfg6 (F := F)).Adm) (Vin : Dev nD → Valuation τ sig (Elt F)) (c : Dev nD) (t : Fin (cfg6 a0).N) :
    (dat6 a0 Vin c).after 1 t = (((cfg6 a0).win 1).blk t).view.read (Elt F) (gout6 a0 Vin c) := by dsimp only [dat6]; rfl
theorem Phi_eq6 (a0 : (pcfg6 (F := F)).Adm) (Vin : Dev nD → Valuation τ sig (Elt F)) (c : Dev nD) (t : Fin ((cfg6 a0).N + 1)) :
    (dat6 a0 Vin c).Φ t = Phi6 a0 Vin c := rfl
theorem owed_eq6 (a0 : (pcfg6 (F := F)).Adm) (Vin : Dev nD → Valuation τ sig (Elt F)) (c : Dev nD) (t : Fin ((cfg6 a0).N + 1)) :
    (dat6 a0 Vin c).owed t = 0 := rfl
theorem q_eq6 (a0 : (pcfg6 (F := F)).Adm) (Vin : Dev nD → Valuation τ sig (Elt F)) (c : Dev nD) (w : Fin (cfg6 a0).W) :
    (dat6 a0 Vin c).q w = fullShare := rfl

/-- The pinned family's configuration at region 6 is this one. -/
example (a : (p : Fin 34) → (pcfgs (F := F) p).Adm) : Pipeline.pin (pcfgs (F := F)) a (6 : Fin 34) = (pcfg6 (F := F)).at (a (6 : Fin 34)) := rfl

end Cert.Kernel.Hand

end
-- ==== Proof.K.GatherBody6.lean ====
/-
  Gather region 6 (custom_call 6): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat6
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk6 (c : Dev nD) (i : grid6.Coords) (tbl : Bf (F := F) c (Memref.whole main_v39)) : Prop where
  h1 : k6_chk1 (tblWord6 c i tbl 0)
  h2 : k6_chk2 (tblWord6 c i tbl 1)
  h3 : k6_chk3 (tblWord6 c i tbl 2)
  h4 : k6_chk4 (tblWord6 c i tbl 3)
  h5 : k6_chk5 (tblWord6 c i tbl 4)
  h6 : k6_chk6 (tblWord6 c i tbl 5)
  h7 : k6_chk7 (tblWord6 c i tbl 6)
  h8 : k6_chk8 (tblWord6 c i tbl 7)

/-- A one-row slice of the embedding array at the row a word names, read at lane `z 1`: the array's element there. -/
theorem rowRead6 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun6 (c : Dev nD) (i : grid6.Coords)
    (M3 : Memref sig .tc .vmem S8x1 .f32) (h3 : M3.IsWhole) (M4 : Memref sig .tc .vmem S8x128 .f32) (h4 : M4.IsWhole)
    (tbl : Bf (F := F) c (Memref.whole main_v39)) (x : Bf (F := F) c (Memref.whole main_arg0))
    (vb : Vec F S8x1 .f32) (hchk : GatherChk6 c i tbl) (Q : PUnit → sProp (MM F)) :
    iprop(pt c (Memref.whole main_v39) tbl ∗ pt c (Memref.whole main_arg0) x
      ∗ owns (c : Thread nD τ) M3 fullShare vb ∗ (∃ d, owns (c : Thread nD τ) M4 fullShare d)
      ∗ (∃ fs, pt c (Memref.whole cc6_scratch0) fs) ∗ sems6 c ∗ (∃ W, owes (c : Thread nD τ) (0 : CellTallies nD τ sig Unit) W)
      ∗ (iprop(pt c (Memref.whole main_v39) tbl ∗ pt c (Memref.whole main_arg0) x
          ∗ owns (c : Thread nD τ) M3 fullShare vb ∗ owns (c : Thread nD τ) M4 fullShare (gatherBlk x (tblWord6 c i tbl) vb)
          ∗ (∃ fs, pt c (Memref.whole cc6_scratch0) fs) ∗ sems6 c ∗ (∃ W, owes (c : Thread nD τ) (0 : CellTallies nD τ sig Unit) W)) -∗ Q ⟨⟩))
    ⊢ wp frame (wpE (defs₀ (F := F)) 𝒱₀ c none) Set.univ
        (cc6__gather_kernel i (Memref.whole main_v39) (Memref.isWhole_whole _) (Memref.whole main_arg0) (Memref.isWhole_whole _) M3 h3 M4 h4
          (Memref.whole cc6_scratch0) (Memref.isWhole_whole _) cc6_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 76).1 $$ Hx
  icases Hx' with ⟨Hxr, Hx0, Hx1, Hx2, Hx3, Hx4, Hx5, Hx6, Hx7⟩
  sl_unfold [cc6__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 76).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k6_pay1 gatherBlk
    show FloatOps.mulf _ _ = FloatOps.mulf _ _
    congr 1
    · unfold gatherRun6.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun6.sl.dma8 gatherRun6.sl.dma8_1 gatherRun6.sl.dma8_2 gatherRun6.sl.dma8_3 gatherRun6.sl.dma8_4 gatherRun6.sl.dma8_5
        gatherRun6.sl.dma8_6 gatherRun6.sl.dma8_7 gatherRun6.sl.r gatherRun6.sl.r_1 gatherRun6.sl.r_2 gatherRun6.sl.r_3 gatherRun6.sl.r_4
        gatherRun6.sl.r_5 gatherRun6.sl.r_6 gatherRun6.sl.r_7
      refine canonRows8 _ _ _ _ _ _ _ _ _ _ _ _ _ _ _ _ (fun r d => x (embIdx (rowOf (tblWord6 c i tbl r)) d)) ?_ ?_ ?_ ?_ ?_ ?_ ?_ ?_ y
      · exact fun z => rowRead6 c _ (tblWord6 c i tbl 0) rfl rfl _ _ x z
      · exact fun z => rowRead6 c _ (tblWord6 c i tbl 1) rfl rfl _ _ x z
      · exact fun z => rowRead6 c _ (tblWord6 c i tbl 2) rfl rfl _ _ x z
      · exact fun z => rowRead6 c _ (tblWord6 c i tbl 3) rfl rfl _ _ x z
      · exact fun z => rowRead6 c _ (tblWord6 c i tbl 4) rfl rfl _ _ x z
      · exact fun z => rowRead6 c _ (tblWord6 c i tbl 5) rfl rfl _ _ x z
      · exact fun z => rowRead6 c _ (tblWord6 c i tbl 6) rfl rfl _ _ x z
      · exact fun z => rowRead6 c _ (tblWord6 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk6.lean ====
/-
  Gather region 6 (custom_call 6): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat6
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word6 (i : grid6.Coords) (j : Fin 8) : k6_off1 i (BitVec.ofNat 32 j.val) 0 = (i 0).val * 8 + j.val := by
  have hi : (i 0).val < 16384 := (i 0).isLt
  have hj : j.val < 8 := j.isLt
  unfold k6_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word6 (i : grid6.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord6_eq (c : Dev nD) (i : grid6.Coords) (tbl : Bf (F := F) c (Memref.whole main_v39)) (j : Fin 8)
    (e : Fin 131072) (he : e.val = (i 0).val * 8 + j.val) : tblWord6 c i tbl j = tbl (tblIdx e) := by
  unfold tblWord6
  show tbl _ = tbl _
  refine congrArg tbl ?_
  funext a; apply Fin.ext
  match a with
  | ⟨0, _⟩ =>
    show k6_off1 i (BitVec.ofNat 32 j.val) 0 + 1 * 0 = e.val
    rw [off_word6, he]; omega

/-- Row `j` of the value window's block at point `t` is the value array's row `8 t + j`. -/
theorem valBlk6_eq (a0 : (pcfg6 (F := F)).Adm) (Vin : Dev nD → Valuation τ sig (Elt F)) (c : Dev nD) (t : Fin (cfg6 a0).N)
    (j : Fin 8) (e : Fin 131072) (he : e.val = ((grid6.coords t) 0).val * 8 + j.val) :
    iblk6 a0 Vin c 0 t (colIdx j) = Vr Vin c main_v40 (valIdx e) := by
  unfold iblk6
  show Vr Vin c main_v40 _ = Vr Vin c main_v40 _
  refine congrArg (Vr Vin c main_v40) ?_
  funext a; apply Fin.ext
  match a with
  | ⟨0, _⟩ =>
    show (BitVec.ofNat 32 ((grid6.coords t) 0).val).toNat * 8 + 1 * j.val = e.val
    rw [coord_word6, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk6 (a0 : (pcfg6 (F := F)).Adm) (Vin : Dev nD → Valuation τ sig (Elt F)) (c : Dev nD) (t : Fin (cfg6 a0).N) :
    gatherBlk (Vr Vin c main_arg0) (tblWord6 c (grid6.coords t) (a0.1 0)) (iblk6 a0 Vin c 0 t)
      = (((cfg6 a0).win 1).blk t).view.read (Elt F) (gout6 a0 Vin c) := by
  funext y
  show gatherBlk _ _ _ y = gout6 a0 Vin c ((((cfg6 a0).win 1).blk t).view.emb y)
  unfold gatherBlk gout6 gatherArr
  have e0 : ((((cfg6 a0).win 1).blk t).view.emb y (0 : Fin 2)).val = ((grid6.coords t) 0).val * 8 + (y 0).val := by
    show (BitVec.ofNat 32 ((grid6.coords t) 0).val).toNat * 8 + 1 * (y 0).val = _
    rw [coord_word6]; omega
  have e1 : (((cfg6 a0).win 1).blk t).view.emb y (1 : Fin 2) = y 1 := Fin.ext (by
    show (0#32 : BitVec 32).toNat * 128 + 1 * (y 1).val = (y 1).val
    show 0 * 128 + 1 * (y 1).val = (y 1).val
    omega)
  rw [tblWord6_eq c (grid6.coords t) (a0.1 0) (y 0) _ e0, valBlk6_eq a0 Vin c t (y 0) _ e0, e1]

end Cert.Kernel.Hand

end
-- ==== Proof.K.GatherRegion6.lean ====
/-
  Gather region 6 (custom_call 6): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody6
import proofs.«414509_j14181982011419_2_alg».proof.Proof.K.GatherBlk6
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk6 (a0 : (pcfg6 (F := F)).Adm) : Prop := ∀ e : S131072.Idx, (a0.1 0 e).toNat < 100000

/-! ## The grid and the result window's blocks -/

/-- On the one-axis grid a point's coordinate is its number. -/
theorem regCoords6 (t : Fin grid6.N) : (grid6.coords t 0).val = t.val := by
  have ht : t.val < 16384 := N_6 ▸ t.isLt
  show t.val / grid6.stride 0 % grid6.bound 0 = t.val
  rw [show grid6.stride 0 = 1 from by decide, show grid6.bound 0 = 16384 from rfl, Nat.div_one, Nat.mod_eq_of_lt ht]

/-- A point's number as the 32-bit word the index maps compute with. -/
theorem regWord6 (t : Fin grid6.N) : (BitVec.ofNat 32 (grid6.coords t 0).val).toNat = t.val := by
  have ht : t.val < 16384 := N_6 ▸ t.isLt
  rw [BitVec.toNat_ofNat, regCoords6]; omega

/-- The result window's block at point `t` is block `t` along the rows, at zero along the lanes. -/
theorem regOutIndex6 (a0 : (pcfg6 (F := F)).Adm) (t : Fin (cfg6 a0).N) : ((cfg6 a0).win 1).index t = ![t.val, 0] := by
  show cc6_transform_2 (grid6.coords t) = _
  unfold cc6_transform_2
  funext a; fin_cases a
  · exact regWord6 t
  · rfl

/-- The result window is written back at every point: consecutive points have different blocks. -/
theorem regOutFlush6 (a0 : (pcfg6 (F := F)).Adm) (t : Fin (cfg6 a0).N) : ((cfg6 a0).win 1).flush t = true := by
  have htN : t.val < 16384 := N_6 ▸ t.isLt
  rw [Pipeline.Window.flush_out _ rfl]
  by_cases h : t.val + 1 = 16384
  · exact Or.inl (show t.val + 1 = grid6.N by rw [N_6]; exact h)
  · have hlt : t.val + 1 < grid6.N := by rw [N_6]; omega
    refine Or.inr ⟨hlt, fun e => ?_⟩
    have e' : (![t.val + 1, 0] : Fin 2 → ℕ) = ![t.val, 0] := (regOutIndex6 a0 ⟨t.val + 1, hlt⟩).symm.trans (e.trans (regOutIndex6 a0 t))
    have e0 := congrFun e' 0
    simp at e0

/-- The index table, held as the pipeline's one prefetched table. -/
theorem prefHeldEq6 (a0 : (pcfg6 (F := F)).Adm) (c : Dev nD) :
    (Pipeline.prefHeld (Ix := Unit) (Name := ℕ) (U := UU nD τ) (Lvl := ℕ) pre6 c (fun _ => fullShare) a0.1 : sProp (MM F))
      = pt c (Memref.whole main_v39) (a0.1 0) := by
  unfold Pipeline.prefHeld
  rw [show (Finset.univ : Finset (Fin pre6.K)) = {0} from rfl, BI.bigSep_singleton]
  rfl

/-- The value window's staging buffer holds its block at every point. -/
theorem beforeVal6 (a0 : (pcfg6 (F := F)).Adm) (Vin : Dev nD → Valuation τ sig (Elt F)) (c : Dev nD) (t : Fin (cfg6 a0).N) (d) :
    (dat6 a0 Vin c).before 0 t d = iblk6 a0 Vin c 0 t :=
  ((dat6 a0 Vin c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)

/-! ## The kernel's checks, from the table's range -/

/-- Each of the point's eight words is a word of the table, so a row number. -/
theorem tblWordLt6 (a0 : (pcfg6 (F := F)).Adm) (hok : GatherOk6 a0) (c : Dev nD) (i : grid6.Coords) (j : Fin 8) :
    (tblWord6 c i (a0.1 0) j).toNat < 100000 := by
  unfold tblWord6
  exact hok _

/-- So the kernel's eight checks hold at every point. -/
theorem gatherChk6 (a0 : (pcfg6 (F := F)).Adm) (hok : GatherOk6 a0) (c : Dev nD) (i : grid6.Coords) : GatherChk6 c i (a0.1 0) :=
  ⟨⟨chkRow _ (tblWordLt6 a0 hok c i 0), chkRow _ (tblWordLt6 a0 hok c i 0)⟩,
   ⟨chkRow _ (tblWordLt6 a0 hok c i 1), chkRow _ (tblWordLt6 a0 hok c i 1)⟩,
   ⟨chkRow _ (tblWordLt6 a0 hok c i 2), chkRow _ (tblWordLt6 a0 hok c i 2)⟩,
   ⟨chkRow _ (tblWordLt6 a0 hok c i 3), chkRow _ (tblWordLt6 a0 hok c i 3)⟩,
   ⟨chkRow _ (tblWordLt6 a0 hok c i 4), chkRow _ (tblWordLt6 a0 hok c i 4)⟩,
   ⟨chkRow _ (tblWordLt6 a0 hok c i 5), chkRow _ (tblWordLt6 a0 hok c i 5)⟩,
   ⟨chkRow _ (tblWordLt6 a0 hok c i 6), chkRow _ (tblWordLt6 a0 hok c i 6)⟩,
   chkRow _ (tblWordLt6 a0 hok c i 7)⟩

/-! ## The body obligation, at a generic point -/

/-- What the body is called with at point `t`: the invariant, the core's dues, each window's current staging memref at
    what the pipeline left there, -/
def bodyPre6 (a0 : (pcfg6 (F := F)).Adm) (Vin : Dev nD → Valuation τ sig (Elt F)) (c : Dev nD) (t : Fin (cfg6 a0).N) : sProp (MM F) :=
  iprop((dat6 a0 Vin c).Φ t.castSucc ∗ (dat6 a0 Vin c).owesAt () t.castSucc
    ∗ (∃ d, owns (c : Thread nD τ) (((cfg6 a0).win 0).stage ((cfg6 a0).slots t 0)) fullShare ((dat6 a0 Vin c).before 0 t d))
    ∗ (∃ d, owns (c : Thread nD τ) (((cfg6 a0).win 1).stage ((cfg6 a0).slots t 1)) fullShare ((dat6 a0 Vin c).before 1 t d)))

/-- and what it returns. -/
def bodyPost6 (a0 : (pcfg6 (F := F)).Adm) (Vin : Dev nD → Valuation τ sig (Elt F)) (c : Dev nD) (t : Fin (cfg6 a0).N) : sProp (MM F) :=
  iprop((dat6 a0 Vin c).Φ t.succ ∗ (dat6 a0 Vin c).owesAt () t.succ
    ∗ owns (c : Thread nD τ) (((cfg6 a0).win 0).stage ((cfg6 a0).slots t 0)) fullShare ((dat6 a0 Vin c).after 0 t)
    ∗ owns (c : Thread nD τ) (((cfg6 a0).win 1).stage ((cfg6 a0).slots t 1)) fullShare ((dat6 a0 Vin c).after 1 t))

/-- The body at any point: the invariant opened into the embedding array, the semaphores, the table and the scratch;
    the value window's memref at its block; the checks from the table's range; so the kernel's run applies, and what it
    leaves in the result window's memref is the point's block of the gathered array. -/
theorem sound_body6 (a0 : (pcfg6 (F := F)).Adm) (hok : GatherOk6 a0) (Vin : Dev nD → Valuation τ sig (Elt F)) (c : Dev nD) (t : Fin (cfg6 a0).N) :
    bodyPre6 a0 Vin c t ⊢ wp frame (wpE (defs₀ (F := F)) 𝒱₀ c none) Set.univ
      (defs₀ .tc (cfg6 a0).body ((cfg6 a0).bodyArgs t ((cfg6 a0).slots t))) (fun _ => bodyPost6 a0 Vin c t) := by
  unfold bodyPre6 bodyPost6
  simp only [beforeVal6]
  rw [Phi_eq6, Phi_eq6, after6_0, after6_1, ← gatherBlk_blk6]
  unfold Phi6 Pipeline.Dat.owesAt Pipeline.owesWithin
  rw [owed_eq6, owed_eq6, prefHeldEq6, scopedRest6_split]
  iintro ⟨⟨Hx, Hos, Ht, ⟨%fs, Hs⟩, Hsb⟩, ⟨%W, %hW, HO⟩, ⟨%d0, H0⟩, ⟨%d1, H1⟩⟩
  iapply (gatherRun6 c (grid6.coords t) _ _ _ _ (a0.1 0) (Vr Vin c main_arg0) (iblk6 a0 Vin c 0 t) (gatherChk6 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation6 (a0 : (pcfg6 (F := F)).Adm) (hok : GatherOk6 a0) (Vin : Dev nD → Valuation τ sig (Elt F)) (c : Dev nD) :
    BodyObligation (dat6 a0 Vin c) (defs₀ (F := F)) 𝒱₀ () Set.univ := fun t => by
  rw [bigSep_W6, bigSep_W6]
  exact sound_body6 a0 hok Vin c t

/-! ## From the blocks to the arrays -/

/-- The value array after the region: as entered. -/
theorem arrAt6_in (a0 : (pcfg6 (F := F)).Adm) (Vin : Dev nD → Valuation τ sig (Elt F)) (c : Dev nD) :
    (dat6 a0 Vin c).arrAt 0 (cfg6 a0).N = Vr Vin c main_v40 :=
  ((dat6 a0 Vin c).arrAt_in 0 rfl _).trans (A_eq6 a0 Vin c 0)

/-- Every index of the result array is in some point's block: row `e`, lane `d` is element `(e % 8, d)` of the block
    of point `e / 8`. -/
theorem regOutCover6 (a0 : (pcfg6 (F := F)).Adm) (i : S131072x128.Idx) :
    ∃ t : Fin (cfg6 a0).N, ((cfg6 a0).win 1).flush t = true ∧ i ∈ (((cfg6 a0).win 1).blk t).view.set := by
  have hi0 : (i 0).val < 131072 := (i 0).isLt
  have hi1 : (i 1).val < 128 := (i 1).isLt
  have hN : (i 0).val / 8 < grid6.N := by rw [N_6]; omega
  obtain ⟨t, ht⟩ : ∃ t : Fin (cfg6 a0).N, t.val = (i 0).val / 8 := ⟨⟨_, hN⟩, rfl⟩
  have hx : (((cfg6 a0).win 1).blk t).view.emb (ValueIdx.ix2 ⟨(i 0).val % 8, Nat.mod_lt _ (by decide)⟩ (i 1)) = i := by
    funext a; apply Fin.ext
    have e0 : ((cfg6 a0).win 1).index t (0 : Fin 2) = t.val := congrFun (regOutIndex6 a0 t) (0 : Fin 2)
    have e1 : ((cfg6 a0).win 1).index t (1 : Fin 2) = 0 := congrFun (regOutIndex6 a0 t) (1 : Fin 2)
    match a with
    | ⟨0, _⟩ => show ((cfg6 a0).win 1).index t (0 : Fin 2) * 8 + 1 * ((i 0).val % 8) = (i 0).val; omega
    | ⟨1, _⟩ => show ((cfg6 a0).win 1).index t (1 : Fin 2) * 128 + 1 * (i 1).val = (i 1).val; omega
  exact ⟨t, regOutFlush6 a0 t, hx ▸ (((cfg6 a0).win 1).blk t).view.emb_mem_set _⟩

/-- The result array after the region: the gathered and scaled rows, whole. -/
theorem arrAt6_out (a0 : (pcfg6 (F := F)).Adm) (Vin : Dev nD → Valuation τ sig (Elt F)) (c : Dev nD) :
    (dat6 a0 Vin c).arrAt 1 (cfg6 a0).N = gout6 a0 Vin c :=
  (dat6 a0 Vin c).arrAt_eq_of_cover 1 (gout6 a0 Vin c)
    (fun t _ => by
      show ((cfg6 a0).win 1).cut ((cfg6 a0).grid.coords t) ((dat6 a0 Vin c).after 1 t) = _
      rw [after6_1])
    (regOutCover6 a0)

/-! ## The region as a segment of @main -/

/-- The ownership layout of the kernel's eight semaphores. -/
theorem ownSemFacts6 : Pipeline.OwnSemFacts spec6 osem6 := by decide

/-- The kernel's own cells at zero, listed. -/
theorem ownSemsListed6 (c : Dev nD) :
    (Pipeline.ownSems0 (Ix := Unit) (Name := ℕ) (U := UU nD τ) (Lvl := ℕ) (Val := Elt F) (τ := τ) osem6 c : sProp (MM F)) = sems6 c :=
  Pipeline.ownSems0_eq_of_list c osem6 [0, 1, 2, 3, 4, 5, 6, 7] (by decide) (by decide)

/-- The unscoped buffers that are no window's array, no table, and not the embedding array. -/
abbrev restRefs6 : Finset (Ref sig .tc) :=
  (((Finset.univ.filter fun b : Ref sig .tc => ¬ b.isScoped) \ Finset.univ.image (Pipeline.arrRef spec6)) \ Finset.univ.image pre6.ref) \ {main_arg0}

/-- Those buffers, each whole at its contents under `Vin`: what bypasses the region. -/
def Zrest6 (Vin : Dev nD → Valuation τ sig (Elt F)) (c : Dev nD) : sProp (MM F) :=
  bigSep restRefs6 fun b => ((c : Thread nD τ).loc b) ↦{fullShare} Vr Vin c b

/-- The embedding array is an unscoped buffer that is no window's array and no table. -/
theorem embArrMem6 : ({main_arg0} : Finset (Ref sig .tc)) ⊆
    ((Finset.univ.filter fun b : Ref sig .tc => ¬ b.isScoped) \ Finset.univ.image (Pipeline.arrRef spec6)) \ Finset.univ.image pre6.ref := by
  decide

/-- The unscoped buffers that are no window's array: the index table, the embedding array, and the rest. -/
theorem unscopedRestOpen6 (Vin : Dev nD → Valuation τ sig (Elt F)) (c : Dev nD) :
    (Pipeline.unscopedRest (Ix := Unit) (Name := ℕ) (U := UU nD τ) (Lvl := ℕ) spec6 c (Vr Vin c) : sProp (MM F))
      = iprop(Pipeline.prefHeld pre6 c (fun _ => fullShare) (fun k => Vr Vin c (pre6.ref k))
          ∗ pt c (Memref.whole main_arg0) (Vr Vin c main_arg0) ∗ Zrest6 Vin c) := by
  rw [Pipeline.unscopedRest_split preFacts6 c (Vr Vin c)]
  unfold Pipeline.unscopedRestP Zrest6
  rw [BI.bigSep_sdiff_split embArrMem6, BI.bigSep_singleton]
  rfl

/-- The buffer contents when the region is left: the result array at the gathered rows, every other buffer as entered. -/
abbrev Vout6 (a0 : (pcfg6 (F := F)).Adm) (Vin : Dev nD → Valuation τ sig (Elt F)) (c : Dev nD) : Valuation τ sig (Elt F) :=
  Function.update (Vin c) main_v41 (gout6 a0 Vin c)

/-- At the exit each of the region's arrays holds what the pipeline leaves; -/
theorem hF6 (a0 : (pcfg6 (F := F)).Adm) (Vin : Dev nD → Valuation τ sig (Elt F)) (c : Dev nD) (w : Fin (cfg6 a0).W) :
    (dat6 a0 Vin c).arrAt w (cfg6 a0).N = Vr (Vout6 a0 Vin) c (Pipeline.arrRef spec6 w) := by
  match w with
  | ⟨0, _⟩ =>
    show (dat6 a0 Vin c).arrAt 0 (cfg6 a0).N = Vr (Vout6 a0 Vin) c (Pipeline.arrRef spec6 0)
    rw [arrAt6_in]
    exact (Function.update_of_ne (StableHlo.devRef_ne_of_ne (by decide) : (Proc.devRef .tc main_v40 : DevRef τ sig) ≠ Proc.devRef .tc main_v41) _ _).symm
  | ⟨1, _⟩ =>
    show (dat6 a0 Vin c).arrAt 1 (cfg6 a0).N = Vr (Vout6 a0 Vin) c (Pipeline.arrRef spec6 1)
    rw [arrAt6_out]
    exact (Function.update_self (Proc.devRef .tc main_v41 : DevRef τ sig) _ (Vin c)).symm

/-- and every other buffer what it held at entry. -/
theorem hrest6 (a0 : (pcfg6 (F := F)).Adm) (Vin : Dev nD → Valuation τ sig (Elt F)) (c : Dev nD) :
    ∀ b : Ref sig .tc, b ∉ Finset.univ.image (Pipeline.arrRef spec6) → Vr (Vout6 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat6` at the entry valuation `Vin`
    (`hd`), the index table's contents under `Vin` being the pinned ones (`htbl`) and row numbers (`hok`). -/
def reg6 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk6 (F := F) (a (6 : Fin 34)))
    (hd : ∀ c, pdats (6 : Fin 34) c = dat6 (a (6 : Fin 34)) Vin c) (htbl : ∀ c, (a (6 : Fin 34)).1 = fun k => Vr Vin c (pre6.ref k)) :
    Pipeline.RegionSeg (pcfgs (F := F)) a pdats () defs₀ 𝒱₀ L lv (6 : Fin 34) where
  win := (launch6 (F := F)).win.to₀
  block_pos := (launch6 (F := F)).block_pos
  stage_whole := (launch6 (F := F)).stage_whole
  K := Fin 8
  osem := osem6
  ho := ownSemFacts6
  hbody c := by rw [hd c]; exact (body_obligation6 (a (6 : Fin 34)) hok Vin c).loose
  hwaits := Pipeline.hwaits_of_owed_zero _ _ _ _ L lv (6 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v41 (gout6 (a (6 : Fin 34)) Vin c)) ∗ Rest c)
  X c := iprop(pt c (Memref.whole main_arg0) (Vr Vin c main_arg0) ∗ sems6 c)
  Y c := iprop(pt c (Memref.whole main_arg0) (Vr Vin c main_arg0)
    ∗ Pipeline.prefHeld (Ix := Unit) (Name := ℕ) (U := UU nD τ) (Lvl := ℕ) pre6 c (fun _ => fullShare) (a (6 : Fin 34)).1)
  Z c := Zrest6 Vin c
  hentry c := by
    rw [ownSemsListed6]
    have hsplit := Pipeline.arrays_of_unscopedBufs (p := (6 : Fin 34)) (pcfgs (F := F)) a pdats (launch6 (F := F)).win (launch6 (F := F)).arr_whole c
      ((pdats (6 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen6 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (6 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq6]; unfold Phi6
    iintro ⟨⟨Hx, Hos⟩, Ht, Hr⟩
    isplitl [Hx]; · iexact Hx
    isplitl [Hos]; · iexact Hos
    isplitl [Ht]; · iexact Ht
    iexact Hr
  hout c := by
    rw [ownSemsListed6, hd c, Phi_eq6]; unfold Phi6
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (6 : Fin 34)) (pcfgs (F := F)) a (Ix := Unit) (Name := ℕ) (U := UU nD τ) (Lvl := ℕ)
      (launch6 (F := F)).win (launch6 (F := F)).arr_whole c pdats ((pdats (6 : Fin 34) c).share_full fun _ => by rw [hd c]; rfl)
      (Vr Vin c) (Vr (Vout6 (a (6 : Fin 34)) Vin) c) ((pdats (6 : Fin 34) c).arrAt · (cfg6 (a (6 : Fin 34))).N)
      (fun w => by rw [hd c]; exact hF6 (a (6 : Fin 34)) Vin c w) (hrest6 (a (6 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen6 Vin c).symm)
      isplitl [Ht]; · rw [← htbl c]; iexact Ht
      isplitl [Hx]; · iexact Hx
      iexact Hz
    unfold Pipeline.Dat.owesAt Pipeline.owesWithin
    rw [show (pdats (6 : Fin 34) c).owed (Fin.last _) = 0 from by rw [hd c]; rfl]
    icases HO with ⟨%W, -, HO⟩; iexists W; iexact HO

end Cert.Kernel.Hand

end
-- ==== Proof.K.GatherDat7.lean ====
/-
  Gather region 7 (custom_call 7): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem7 : Fin 8 → SemLoc sig := fun | 0 => .dma 88 | 1 => .dma 89 | 2 => .dma 90 | 3 => .dma 91 | 4 => .dma 92 | 5 => .dma 93 | 6 => .dma 94 | 7 => .dma 95

/-- The eight counters at zero, as the run finds them and hands them back. -/
abbrev sems7 (c : Dev nD) : sProp (MM F) :=
  iprop(semVal ((c : Thread nD τ), osem7 0) 0 ∗ semVal ((c : Thread nD τ), osem7 1) 0 ∗ semVal ((c : Thread nD τ), osem7 2) 0
    ∗ semVal ((c : Thread nD τ), osem7 3) 0 ∗ semVal ((c : Thread nD τ), osem7 4) 0 ∗ semVal ((c : Thread nD τ), osem7 5) 0
    ∗ semVal ((c : Thread nD τ), osem7 6) 0 ∗ semVal ((c : Thread nD τ), osem7 7) 0)

/-- Word `j` of the eight the index table holds for point `i`, as the kernel's scalar load reads it. -/
def tblWord7 (c : Dev nD) (i : grid7.Coords) (tbl : Bf (F := F) c (Memref.whole main_v42)) (j : Fin 8) : BitVec 32 :=
  (Memref.whole main_v42).view.readAt (Elt F) (Rect.unit (s := S131072) (k7_off1 i (BitVec.ofNat 32 j.val)) S1.size (k7_off1_inb i j)).toLoadRect tbl
    (Shape.Idx.first (s := S1) (numel1_S1.symm ▸ Nat.one_pos))

/-- Window `w`'s block at point `t`, read off its array at the region's entry. -/
def iblk7 (a0 : (pcfg7 (F := F)).Adm) (Vin : Dev nD → Valuation τ sig (Elt F)) (c : Dev nD) (w : Fin (cfg7 a0).W) (t : Fin (cfg7 a0).N) :
    (((cfg7 a0).win w).xblock ((cfg7 a0).grid.coords t)).Idx → Elt F ((cfg7 a0).win w).elt :=
  (((cfg7 a0).win w).blk t).view.read (Elt F) (Vr Vin c (Pipeline.arrRef spec7 w))

/-- The result array the region leaves: the gathered and scaled rows of the embedding array, whole. -/
def gout7 (a0 : (pcfg7 (F := F)).Adm) (Vin : Dev nD → Valuation τ sig (Elt F)) (c : Dev nD) : Buf (Elt F) ((c : Thread nD τ).loc main_v44) :=
  gatherArr (Vr Vin c main_arg0) (a0.1 0) (Vr Vin c main_v43)

/-- The invariant between points: the embedding array as entered, the kernel's semaphores at zero, the index table, the
    scoped buffers no window stages (the kernel's scratch among them). -/
def Phi7 (a0 : (pcfg7 (F := F)).Adm) (Vin : Dev nD → Valuation τ sig (Elt F)) (c : Dev nD) : sProp (MM F) :=
  iprop(pt c (Memref.whole main_arg0) (Vr Vin c main_arg0) ∗ sems7 c
    ∗ Pipeline.prefHeld (Ix := Unit) (Name := ℕ) (U := UU nD τ) (Lvl := ℕ) pre7 c (fun _ => fullShare) a0.1
    ∗ Pipeline.scopedRest (Ix := Unit) (Name := ℕ) (U := UU nD τ) (Lvl := ℕ) (Val := Elt F) spec7 c)

/-- The proof data on core `c`. -/
def dat7 (a0 : (pcfg7 (F := F)).Adm) (Vin : Dev nD → Valuation τ sig (Elt F)) (c : Dev nD) :
    Pipeline.Dat τ (Elt F) Unit ℕ (UU nD τ) ℕ ((pcfg7 (F := F)).at a0) c where
  A w := Vr Vin c (Pipeline.arrRef spec7 w)
  after w t := match w with
    | ⟨0, _⟩ => iblk7 a0 Vin c 0 t
    | ⟨1, _⟩ => (((cfg7 a0).win 1).blk t).view.read (Elt F) (gout7 a0 Vin c)
  Φ _ := Phi7 a0 Vin c
  q _ := fullShare
  owed _ := 0

theorem A_eq7 (a0 : (pcfg7 (F := F)).Adm) (Vin : Dev nD → Valuation τ sig (Elt F)) (c : Dev nD) (w : Fin (cfg7 a0).W) :
    (dat7 a0 Vin c).A w = Vr Vin c (Pipeline.arrRef spec7 w) := by dsimp only [dat7]
theorem after7_0 (a0 : (pcfg7 (F := F)).Adm) (Vin : Dev nD → Valuation τ sig (Elt F)) (c : Dev nD) (t : Fin (cfg7 a0).N) :
    (dat7 a0 Vin c).after 0 t = iblk7 a0 Vin c 0 t := by dsimp only [dat7]; rfl
theorem after7_1 (a0 : (pcfg7 (F := F)).Adm) (Vin : Dev nD → Valuation τ sig (Elt F)) (c : Dev nD) (t : Fin (cfg7 a0).N) :
    (dat7 a0 Vin c).after 1 t = (((cfg7 a0).win 1).blk t).view.read (Elt F) (gout7 a0 Vin c) := by dsimp only [dat7]; rfl
theorem Phi_eq7 (a0 : (pcfg7 (F := F)).Adm) (Vin : Dev nD → Valuation τ sig (Elt F)) (c : Dev nD) (t : Fin ((cfg7 a0).N + 1)) :
    (dat7 a0 Vin c).Φ t = Phi7 a0 Vin c := rfl
theorem owed_eq7 (a0 : (pcfg7 (F := F)).Adm) (Vin : Dev nD → Valuation τ sig (Elt F)) (c : Dev nD) (t : Fin ((cfg7 a0).N + 1)) :
    (dat7 a0 Vin c).owed t = 0 := rfl
theorem q_eq7 (a0 : (pcfg7 (F := F)).Adm) (Vin : Dev nD → Valuation τ sig (Elt F)) (c : Dev nD) (w : Fin (cfg7 a0).W) :
    (dat7 a0 Vin c).q w = fullShare := rfl

/-- The pinned family's configuration at region 7 is this one. -/
example (a : (p : Fin 34) → (pcfgs (F := F) p).Adm) : Pipeline.pin (pcfgs (F := F)) a (7 : Fin 34) = (pcfg7 (F := F)).at (a (7 : Fin 34)) := rfl

end Cert.Kernel.Hand

end
-- ==== Proof.K.GatherBody7.lean ====
/-
  Gather region 7 (custom_call 7): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat7
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk7 (c : Dev nD) (i : grid7.Coords) (tbl : Bf (F := F) c (Memref.whole main_v42)) : Prop where
  h1 : k7_chk1 (tblWord7 c i tbl 0)
  h2 : k7_chk2 (tblWord7 c i tbl 1)
  h3 : k7_chk3 (tblWord7 c i tbl 2)
  h4 : k7_chk4 (tblWord7 c i tbl 3)
  h5 : k7_chk5 (tblWord7 c i tbl 4)
  h6 : k7_chk6 (tblWord7 c i tbl 5)
  h7 : k7_chk7 (tblWord7 c i tbl 6)
  h8 : k7_chk8 (tblWord7 c i tbl 7)

/-- A one-row slice of the embedding array at the row a word names, read at lane `z 1`: the array's element there. -/
theorem rowRead7 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun7 (c : Dev nD) (i : grid7.Coords)
    (M3 : Memref sig .tc .vmem S8x1 .f32) (h3 : M3.IsWhole) (M4 : Memref sig .tc .vmem S8x128 .f32) (h4 : M4.IsWhole)
    (tbl : Bf (F := F) c (Memref.whole main_v42)) (x : Bf (F := F) c (Memref.whole main_arg0))
    (vb : Vec F S8x1 .f32) (hchk : GatherChk7 c i tbl) (Q : PUnit → sProp (MM F)) :
    iprop(pt c (Memref.whole main_v42) tbl ∗ pt c (Memref.whole main_arg0) x
      ∗ owns (c : Thread nD τ) M3 fullShare vb ∗ (∃ d, owns (c : Thread nD τ) M4 fullShare d)
      ∗ (∃ fs, pt c (Memref.whole cc7_scratch0) fs) ∗ sems7 c ∗ (∃ W, owes (c : Thread nD τ) (0 : CellTallies nD τ sig Unit) W)
      ∗ (iprop(pt c (Memref.whole main_v42) tbl ∗ pt c (Memref.whole main_arg0) x
          ∗ owns (c : Thread nD τ) M3 fullShare vb ∗ owns (c : Thread nD τ) M4 fullShare (gatherBlk x (tblWord7 c i tbl) vb)
          ∗ (∃ fs, pt c (Memref.whole cc7_scratch0) fs) ∗ sems7 c ∗ (∃ W, owes (c : Thread nD τ) (0 : CellTallies nD τ sig Unit) W)) -∗ Q ⟨⟩))
    ⊢ wp frame (wpE (defs₀ (F := F)) 𝒱₀ c none) Set.univ
        (cc7__gather_kernel i (Memref.whole main_v42) (Memref.isWhole_whole _) (Memref.whole main_arg0) (Memref.isWhole_whole _) M3 h3 M4 h4
          (Memref.whole cc7_scratch0) (Memref.isWhole_whole _) cc7_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 88).1 $$ Hx
  icases Hx' with ⟨Hxr, Hx0, Hx1, Hx2, Hx3, Hx4, Hx5, Hx6, Hx7⟩
  sl_unfold [cc7__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 88).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k7_pay1 gatherBlk
    show FloatOps.mulf _ _ = FloatOps.mulf _ _
    congr 1
    · unfold gatherRun7.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun7.sl.dma8 gatherRun7.sl.dma8_1 gatherRun7.sl.dma8_2 gatherRun7.sl.dma8_3 gatherRun7.sl.dma8_4 gatherRun7.sl.dma8_5
        gatherRun7.sl.dma8_6 gatherRun7.sl.dma8_7 gatherRun7.sl.r gatherRun7.sl.r_1 gatherRun7.sl.r_2 gatherRun7.sl.r_3 gatherRun7.sl.r_4
        gatherRun7.sl.r_5 gatherRun7.sl.r_6 gatherRun7.sl.r_7
      refine canonRows8 _ _ _ _ _ _ _ _ _ _ _ _ _ _ _ _ (fun r d => x (embIdx (rowOf (tblWord7 c i tbl r)) d)) ?_ ?_ ?_ ?_ ?_ ?_ ?_ ?_ y
      · exact fun z => rowRead7 c _ (tblWord7 c i tbl 0) rfl rfl _ _ x z
      · exact fun z => rowRead7 c _ (tblWord7 c i tbl 1) rfl rfl _ _ x z
      · exact fun z => rowRead7 c _ (tblWord7 c i tbl 2) rfl rfl _ _ x z
      · exact fun z => rowRead7 c _ (tblWord7 c i tbl 3) rfl rfl _ _ x z
      · exact fun z => rowRead7 c _ (tblWord7 c i tbl 4) rfl rfl _ _ x z
      · exact fun z => rowRead7 c _ (tblWord7 c i tbl 5) rfl rfl _ _ x z
      · exact fun z => rowRead7 c _ (tblWord7 c i tbl 6) rfl rfl _ _ x z
      · exact fun z => rowRead7 c _ (tblWord7 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk7.lean ====
/-
  Gather region 7 (custom_call 7): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat7
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word7 (i : grid7.Coords) (j : Fin 8) : k7_off1 i (BitVec.ofNat 32 j.val) 0 = (i 0).val * 8 + j.val := by
  have hi : (i 0).val < 16384 := (i 0).isLt
  have hj : j.val < 8 := j.isLt
  unfold k7_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word7 (i : grid7.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord7_eq (c : Dev nD) (i : grid7.Coords) (tbl : Bf (F := F) c (Memref.whole main_v42)) (j : Fin 8)
    (e : Fin 131072) (he : e.val = (i 0).val * 8 + j.val) : tblWord7 c i tbl j = tbl (tblIdx e) := by
  unfold tblWord7
  show tbl _ = tbl _
  refine congrArg tbl ?_
  funext a; apply Fin.ext
  match a with
  | ⟨0, _⟩ =>
    show k7_off1 i (BitVec.ofNat 32 j.val) 0 + 1 * 0 = e.val
    rw [off_word7, he]; omega

/-- Row `j` of the value window's block at point `t` is the value array's row `8 t + j`. -/
theorem valBlk7_eq (a0 : (pcfg7 (F := F)).Adm) (Vin : Dev nD → Valuation τ sig (Elt F)) (c : Dev nD) (t : Fin (cfg7 a0).N)
    (j : Fin 8) (e : Fin 131072) (he : e.val = ((grid7.coords t) 0).val * 8 + j.val) :
    iblk7 a0 Vin c 0 t (colIdx j) = Vr Vin c main_v43 (valIdx e) := by
  unfold iblk7
  show Vr Vin c main_v43 _ = Vr Vin c main_v43 _
  refine congrArg (Vr Vin c main_v43) ?_
  funext a; apply Fin.ext
  match a with
  | ⟨0, _⟩ =>
    show (BitVec.ofNat 32 ((grid7.coords t) 0).val).toNat * 8 + 1 * j.val = e.val
    rw [coord_word7, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk7 (a0 : (pcfg7 (F := F)).Adm) (Vin : Dev nD → Valuation τ sig (Elt F)) (c : Dev nD) (t : Fin (cfg7 a0).N) :
    gatherBlk (Vr Vin c main_arg0) (tblWord7 c (grid7.coords t) (a0.1 0)) (iblk7 a0 Vin c 0 t)
      = (((cfg7 a0).win 1).blk t).view.read (Elt F) (gout7 a0 Vin c) := by
  funext y
  show gatherBlk _ _ _ y = gout7 a0 Vin c ((((cfg7 a0).win 1).blk t).view.emb y)
  unfold gatherBlk gout7 gatherArr
  have e0 : ((((cfg7 a0).win 1).blk t).view.emb y (0 : Fin 2)).val = ((grid7.coords t) 0).val * 8 + (y 0).val := by
    show (BitVec.ofNat 32 ((grid7.coords t) 0).val).toNat * 8 + 1 * (y 0).val = _
    rw [coord_word7]; omega
  have e1 : (((cfg7 a0).win 1).blk t).view.emb y (1 : Fin 2) = y 1 := Fin.ext (by
    show (0#32 : BitVec 32).toNat * 128 + 1 * (y 1).val = (y 1).val
    show 0 * 128 + 1 * (y 1).val = (y 1).val
    omega)
  rw [tblWord7_eq c (grid7.coords t) (a0.1 0) (y 0) _ e0, valBlk7_eq a0 Vin c t (y 0) _ e0, e1]

end Cert.Kernel.Hand

end
-- ==== Proof.K.GatherRegion7.lean ====
/-
  Gather region 7 (custom_call 7): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody7
import proofs.«414509_j14181982011419_2_alg».proof.Proof.K.GatherBlk7
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk7 (a0 : (pcfg7 (F := F)).Adm) : Prop := ∀ e : S131072.Idx, (a0.1 0 e).toNat < 100000

/-! ## The grid and the result window's blocks -/

/-- On the one-axis grid a point's coordinate is its number. -/
theorem regCoords7 (t : Fin grid7.N) : (grid7.coords t 0).val = t.val := by
  have ht : t.val < 16384 := N_7 ▸ t.isLt
  show t.val / grid7.stride 0 % grid7.bound 0 = t.val
  rw [show grid7.stride 0 = 1 from by decide, show grid7.bound 0 = 16384 from rfl, Nat.div_one, Nat.mod_eq_of_lt ht]

/-- A point's number as the 32-bit word the index maps compute with. -/
theorem regWord7 (t : Fin grid7.N) : (BitVec.ofNat 32 (grid7.coords t 0).val).toNat = t.val := by
  have ht : t.val < 16384 := N_7 ▸ t.isLt
  rw [BitVec.toNat_ofNat, regCoords7]; omega

/-- The result window's block at point `t` is block `t` along the rows, at zero along the lanes. -/
theorem regOutIndex7 (a0 : (pcfg7 (F := F)).Adm) (t : Fin (cfg7 a0).N) : ((cfg7 a0).win 1).index t = ![t.val, 0] := by
  show cc7_transform_2 (grid7.coords t) = _
  unfold cc7_transform_2
  funext a; fin_cases a
  · exact regWord7 t
  · rfl

/-- The result window is written back at every point: consecutive points have different blocks. -/
theorem regOutFlush7 (a0 : (pcfg7 (F := F)).Adm) (t : Fin (cfg7 a0).N) : ((cfg7 a0).win 1).flush t = true := by
  have htN : t.val < 16384 := N_7 ▸ t.isLt
  rw [Pipeline.Window.flush_out _ rfl]
  by_cases h : t.val + 1 = 16384
  · exact Or.inl (show t.val + 1 = grid7.N by rw [N_7]; exact h)
  · have hlt : t.val + 1 < grid7.N := by rw [N_7]; omega
    refine Or.inr ⟨hlt, fun e => ?_⟩
    have e' : (![t.val + 1, 0] : Fin 2 → ℕ) = ![t.val, 0] := (regOutIndex7 a0 ⟨t.val + 1, hlt⟩).symm.trans (e.trans (regOutIndex7 a0 t))
    have e0 := congrFun e' 0
    simp at e0

/-- The index table, held as the pipeline's one prefetched table. -/
theorem prefHeldEq7 (a0 : (pcfg7 (F := F)).Adm) (c : Dev nD) :
    (Pipeline.prefHeld (Ix := Unit) (Name := ℕ) (U := UU nD τ) (Lvl := ℕ) pre7 c (fun _ => fullShare) a0.1 : sProp (MM F))
      = pt c (Memref.whole main_v42) (a0.1 0) := by
  unfold Pipeline.prefHeld
  rw [show (Finset.univ : Finset (Fin pre7.K)) = {0} from rfl, BI.bigSep_singleton]
  rfl

/-- The value window's staging buffer holds its block at every point. -/
theorem beforeVal7 (a0 : (pcfg7 (F := F)).Adm) (Vin : Dev nD → Valuation τ sig (Elt F)) (c : Dev nD) (t : Fin (cfg7 a0).N) (d) :
    (dat7 a0 Vin c).before 0 t d = iblk7 a0 Vin c 0 t :=
  ((dat7 a0 Vin c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

/-! ## The kernel's checks, from the table's range -/

/-- Each of the point's eight words is a word of the table, so a row number. -/
theorem tblWordLt7 (a0 : (pcfg7 (F := F)).Adm) (hok : GatherOk7 a0) (c : Dev nD) (i : grid7.Coords) (j : Fin 8) :
    (tblWord7 c i (a0.1 0) j).toNat < 100000 := by
  unfold tblWord7
  exact hok _

/-- So the kernel's eight checks hold at every point. -/
theorem gatherChk7 (a0 : (pcfg7 (F := F)).Adm) (hok : GatherOk7 a0) (c : Dev nD) (i : grid7.Coords) : GatherChk7 c i (a0.1 0) :=
  ⟨⟨chkRow _ (tblWordLt7 a0 hok c i 0), chkRow _ (tblWordLt7 a0 hok c i 0)⟩,
   ⟨chkRow _ (tblWordLt7 a0 hok c i 1), chkRow _ (tblWordLt7 a0 hok c i 1)⟩,
   ⟨chkRow _ (tblWordLt7 a0 hok c i 2), chkRow _ (tblWordLt7 a0 hok c i 2)⟩,
   ⟨chkRow _ (tblWordLt7 a0 hok c i 3), chkRow _ (tblWordLt7 a0 hok c i 3)⟩,
   ⟨chkRow _ (tblWordLt7 a0 hok c i 4), chkRow _ (tblWordLt7 a0 hok c i 4)⟩,
   ⟨chkRow _ (tblWordLt7 a0 hok c i 5), chkRow _ (tblWordLt7 a0 hok c i 5)⟩,
   ⟨chkRow _ (tblWordLt7 a0 hok c i 6), chkRow _ (tblWordLt7 a0 hok c i 6)⟩,
   chkRow _ (tblWordLt7 a0 hok c i 7)⟩

/-! ## The body obligation, at a generic point -/

/-- What the body is called with at point `t`: the invariant, the core's dues, each window's current staging memref at
    what the pipeline left there, -/
def bodyPre7 (a0 : (pcfg7 (F := F)).Adm) (Vin : Dev nD → Valuation τ sig (Elt F)) (c : Dev nD) (t : Fin (cfg7 a0).N) : sProp (MM F) :=
  iprop((dat7 a0 Vin c).Φ t.castSucc ∗ (dat7 a0 Vin c).owesAt () t.castSucc
    ∗ (∃ d, owns (c : Thread nD τ) (((cfg7 a0).win 0).stage ((cfg7 a0).slots t 0)) fullShare ((dat7 a0 Vin c).before 0 t d))
    ∗ (∃ d, owns (c : Thread nD τ) (((cfg7 a0).win 1).stage ((cfg7 a0).slots t 1)) fullShare ((dat7 a0 Vin c).before 1 t d)))

/-- and what it returns. -/
def bodyPost7 (a0 : (pcfg7 (F := F)).Adm) (Vin : Dev nD → Valuation τ sig (Elt F)) (c : Dev nD) (t : Fin (cfg7 a0).N) : sProp (MM F) :=
  iprop((dat7 a0 Vin c).Φ t.succ ∗ (dat7 a0 Vin c).owesAt () t.succ
    ∗ owns (c : Thread nD τ) (((cfg7 a0).win 0).stage ((cfg7 a0).slots t 0)) fullShare ((dat7 a0 Vin c).after 0 t)
    ∗ owns (c : Thread nD τ) (((cfg7 a0).win 1).stage ((cfg7 a0).slots t 1)) fullShare ((dat7 a0 Vin c).after 1 t))

/-- The body at any point: the invariant opened into the embedding array, the semaphores, the table and the scratch;
    the value window's memref at its block; the checks from the table's range; so the kernel's run applies, and what it
    leaves in the result window's memref is the point's block of the gathered array. -/
theorem sound_body7 (a0 : (pcfg7 (F := F)).Adm) (hok : GatherOk7 a0) (Vin : Dev nD → Valuation τ sig (Elt F)) (c : Dev nD) (t : Fin (cfg7 a0).N) :
    bodyPre7 a0 Vin c t ⊢ wp frame (wpE (defs₀ (F := F)) 𝒱₀ c none) Set.univ
      (defs₀ .tc (cfg7 a0).body ((cfg7 a0).bodyArgs t ((cfg7 a0).slots t))) (fun _ => bodyPost7 a0 Vin c t) := by
  unfold bodyPre7 bodyPost7
  simp only [beforeVal7]
  rw [Phi_eq7, Phi_eq7, after7_0, after7_1, ← gatherBlk_blk7]
  unfold Phi7 Pipeline.Dat.owesAt Pipeline.owesWithin
  rw [owed_eq7, owed_eq7, prefHeldEq7, scopedRest7_split]
  iintro ⟨⟨Hx, Hos, Ht, ⟨%fs, Hs⟩, Hsb⟩, ⟨%W, %hW, HO⟩, ⟨%d0, H0⟩, ⟨%d1, H1⟩⟩
  iapply (gatherRun7 c (grid7.coords t) _ _ _ _ (a0.1 0) (Vr Vin c main_arg0) (iblk7 a0 Vin c 0 t) (gatherChk7 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation7 (a0 : (pcfg7 (F := F)).Adm) (hok : GatherOk7 a0) (Vin : Dev nD → Valuation τ sig (Elt F)) (c : Dev nD) :
    BodyObligation (dat7 a0 Vin c) (defs₀ (F := F)) 𝒱₀ () Set.univ := fun t => by
  rw [bigSep_W7, bigSep_W7]
  exact sound_body7 a0 hok Vin c t

/-! ## From the blocks to the arrays -/

/-- The value array after the region: as entered. -/
theorem arrAt7_in (a0 : (pcfg7 (F := F)).Adm) (Vin : Dev nD → Valuation τ sig (Elt F)) (c : Dev nD) :
    (dat7 a0 Vin c).arrAt 0 (cfg7 a0).N = Vr Vin c main_v43 :=
  ((dat7 a0 Vin c).arrAt_in 0 rfl _).trans (A_eq7 a0 Vin c 0)

/-- Every index of the result array is in some point's block: row `e`, lane `d` is element `(e % 8, d)` of the block
    of point `e / 8`. -/
theorem regOutCover7 (a0 : (pcfg7 (F := F)).Adm) (i : S131072x128.Idx) :
    ∃ t : Fin (cfg7 a0).N, ((cfg7 a0).win 1).flush t = true ∧ i ∈ (((cfg7 a0).win 1).blk t).view.set := by
  have hi0 : (i 0).val < 131072 := (i 0).isLt
  have hi1 : (i 1).val < 128 := (i 1).isLt
  have hN : (i 0).val / 8 < grid7.N := by rw [N_7]; omega
  obtain ⟨t, ht⟩ : ∃ t : Fin (cfg7 a0).N, t.val = (i 0).val / 8 := ⟨⟨_, hN⟩, rfl⟩
  have hx : (((cfg7 a0).win 1).blk t).view.emb (ValueIdx.ix2 ⟨(i 0).val % 8, Nat.mod_lt _ (by decide)⟩ (i 1)) = i := by
    funext a; apply Fin.ext
    have e0 : ((cfg7 a0).win 1).index t (0 : Fin 2) = t.val := congrFun (regOutIndex7 a0 t) (0 : Fin 2)
    have e1 : ((cfg7 a0).win 1).index t (1 : Fin 2) = 0 := congrFun (regOutIndex7 a0 t) (1 : Fin 2)
    match a with
    | ⟨0, _⟩ => show ((cfg7 a0).win 1).index t (0 : Fin 2) * 8 + 1 * ((i 0).val % 8) = (i 0).val; omega
    | ⟨1, _⟩ => show ((cfg7 a0).win 1).index t (1 : Fin 2) * 128 + 1 * (i 1).val = (i 1).val; omega
  exact ⟨t, regOutFlush7 a0 t, hx ▸ (((cfg7 a0).win 1).blk t).view.emb_mem_set _⟩

/-- The result array after the region: the gathered and scaled rows, whole. -/
theorem arrAt7_out (a0 : (pcfg7 (F := F)).Adm) (Vin : Dev nD → Valuation τ sig (Elt F)) (c : Dev nD) :
    (dat7 a0 Vin c).arrAt 1 (cfg7 a0).N = gout7 a0 Vin c :=
  (dat7 a0 Vin c).arrAt_eq_of_cover 1 (gout7 a0 Vin c)
    (fun t _ => by
      show ((cfg7 a0).win 1).cut ((cfg7 a0).grid.coords t) ((dat7 a0 Vin c).after 1 t) = _
      rw [after7_1])
    (regOutCover7 a0)

/-! ## The region as a segment of @main -/

/-- The ownership layout of the kernel's eight semaphores. -/
theorem ownSemFacts7 : Pipeline.OwnSemFacts spec7 osem7 := by decide

/-- The kernel's own cells at zero, listed. -/
theorem ownSemsListed7 (c : Dev nD) :
    (Pipeline.ownSems0 (Ix := Unit) (Name := ℕ) (U := UU nD τ) (Lvl := ℕ) (Val := Elt F) (τ := τ) osem7 c : sProp (MM F)) = sems7 c :=
  Pipeline.ownSems0_eq_of_list c osem7 [0, 1, 2, 3, 4, 5, 6, 7] (by decide) (by decide)

/-- The unscoped buffers that are no window's array, no table, and not the embedding array. -/
abbrev restRefs7 : Finset (Ref sig .tc) :=
  (((Finset.univ.filter fun b : Ref sig .tc => ¬ b.isScoped) \ Finset.univ.image (Pipeline.arrRef spec7)) \ Finset.univ.image pre7.ref) \ {main_arg0}

/-- Those buffers, each whole at its contents under `Vin`: what bypasses the region. -/
def Zrest7 (Vin : Dev nD → Valuation τ sig (Elt F)) (c : Dev nD) : sProp (MM F) :=
  bigSep restRefs7 fun b => ((c : Thread nD τ).loc b) ↦{fullShare} Vr Vin c b

/-- The embedding array is an unscoped buffer that is no window's array and no table. -/
theorem embArrMem7 : ({main_arg0} : Finset (Ref sig .tc)) ⊆
    ((Finset.univ.filter fun b : Ref sig .tc => ¬ b.isScoped) \ Finset.univ.image (Pipeline.arrRef spec7)) \ Finset.univ.image pre7.ref := by
  decide

/-- The unscoped buffers that are no window's array: the index table, the embedding array, and the rest. -/
theorem unscopedRestOpen7 (Vin : Dev nD → Valuation τ sig (Elt F)) (c : Dev nD) :
    (Pipeline.unscopedRest (Ix := Unit) (Name := ℕ) (U := UU nD τ) (Lvl := ℕ) spec7 c (Vr Vin c) : sProp (MM F))
      = iprop(Pipeline.prefHeld pre7 c (fun _ => fullShare) (fun k => Vr Vin c (pre7.ref k))
          ∗ pt c (Memref.whole main_arg0) (Vr Vin c main_arg0) ∗ Zrest7 Vin c) := by
  rw [Pipeline.unscopedRest_split preFacts7 c (Vr Vin c)]
  unfold Pipeline.unscopedRestP Zrest7
  rw [BI.bigSep_sdiff_split embArrMem7, BI.bigSep_singleton]
  rfl

/-- The buffer contents when the region is left: the result array at the gathered rows, every other buffer as entered. -/
abbrev Vout7 (a0 : (pcfg7 (F := F)).Adm) (Vin : Dev nD → Valuation τ sig (Elt F)) (c : Dev nD) : Valuation τ sig (Elt F) :=
  Function.update (Vin c) main_v44 (gout7 a0 Vin c)

/-- At the exit each of the region's arrays holds what the pipeline leaves; -/
theorem hF7 (a0 : (pcfg7 (F := F)).Adm) (Vin : Dev nD → Valuation τ sig (Elt F)) (c : Dev nD) (w : Fin (cfg7 a0).W) :
    (dat7 a0 Vin c).arrAt w (cfg7 a0).N = Vr (Vout7 a0 Vin) c (Pipeline.arrRef spec7 w) := by
  match w with
  | ⟨0, _⟩ =>
    show (dat7 a0 Vin c).arrAt 0 (cfg7 a0).N = Vr (Vout7 a0 Vin) c (Pipeline.arrRef spec7 0)
    rw [arrAt7_in]
    exact (Function.update_of_ne (StableHlo.devRef_ne_of_ne (by decide) : (Proc.devRef .tc main_v43 : DevRef τ sig) ≠ Proc.devRef .tc main_v44) _ _).symm
  | ⟨1, _⟩ =>
    show (dat7 a0 Vin c).arrAt 1 (cfg7 a0).N = Vr (Vout7 a0 Vin) c (Pipeline.arrRef spec7 1)
    rw [arrAt7_out]
    exact (Function.update_self (Proc.devRef .tc main_v44 : DevRef τ sig) _ (Vin c)).symm

/-- and every other buffer what it held at entry. -/
theorem hrest7 (a0 : (pcfg7 (F := F)).Adm) (Vin : Dev nD → Valuation τ sig (Elt F)) (c : Dev nD) :
    ∀ b : Ref sig .tc, b ∉ Finset.univ.image (Pipeline.arrRef spec7) → Vr (Vout7 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat7` at the entry valuation `Vin`
    (`hd`), the index table's contents under `Vin` being the pinned ones (`htbl`) and row numbers (`hok`). -/
def reg7 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk7 (F := F) (a (7 : Fin 34)))
    (hd : ∀ c, pdats (7 : Fin 34) c = dat7 (a (7 : Fin 34)) Vin c) (htbl : ∀ c, (a (7 : Fin 34)).1 = fun k => Vr Vin c (pre7.ref k)) :
    Pipeline.RegionSeg (pcfgs (F := F)) a pdats () defs₀ 𝒱₀ L lv (7 : Fin 34) where
  win := (launch7 (F := F)).win.to₀
  block_pos := (launch7 (F := F)).block_pos
  stage_whole := (launch7 (F := F)).stage_whole
  K := Fin 8
  osem := osem7
  ho := ownSemFacts7
  hbody c := by rw [hd c]; exact (body_obligation7 (a (7 : Fin 34)) hok Vin c).loose
  hwaits := Pipeline.hwaits_of_owed_zero _ _ _ _ L lv (7 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v44 (gout7 (a (7 : Fin 34)) Vin c)) ∗ Rest c)
  X c := iprop(pt c (Memref.whole main_arg0) (Vr Vin c main_arg0) ∗ sems7 c)
  Y c := iprop(pt c (Memref.whole main_arg0) (Vr Vin c main_arg0)
    ∗ Pipeline.prefHeld (Ix := Unit) (Name := ℕ) (U := UU nD τ) (Lvl := ℕ) pre7 c (fun _ => fullShare) (a (7 : Fin 34)).1)
  Z c := Zrest7 Vin c
  hentry c := by
    rw [ownSemsListed7]
    have hsplit := Pipeline.arrays_of_unscopedBufs (p := (7 : Fin 34)) (pcfgs (F := F)) a pdats (launch7 (F := F)).win (launch7 (F := F)).arr_whole c
      ((pdats (7 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen7 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (7 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq7]; unfold Phi7
    iintro ⟨⟨Hx, Hos⟩, Ht, Hr⟩
    isplitl [Hx]; · iexact Hx
    isplitl [Hos]; · iexact Hos
    isplitl [Ht]; · iexact Ht
    iexact Hr
  hout c := by
    rw [ownSemsListed7, hd c, Phi_eq7]; unfold Phi7
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (7 : Fin 34)) (pcfgs (F := F)) a (Ix := Unit) (Name := ℕ) (U := UU nD τ) (Lvl := ℕ)
      (launch7 (F := F)).win (launch7 (F := F)).arr_whole c pdats ((pdats (7 : Fin 34) c).share_full fun _ => by rw [hd c]; rfl)
      (Vr Vin c) (Vr (Vout7 (a (7 : Fin 34)) Vin) c) ((pdats (7 : Fin 34) c).arrAt · (cfg7 (a (7 : Fin 34))).N)
      (fun w => by rw [hd c]; exact hF7 (a (7 : Fin 34)) Vin c w) (hrest7 (a (7 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen7 Vin c).symm)
      isplitl [Ht]; · rw [← htbl c]; iexact Ht
      isplitl [Hx]; · iexact Hx
      iexact Hz
    unfold Pipeline.Dat.owesAt Pipeline.owesWithin
    rw [show (pdats (7 : Fin 34) c).owed (Fin.last _) = 0 from by rw [hd c]; rfl]
    icases HO with ⟨%W, -, HO⟩; iexists W; iexact HO

end Cert.Kernel.Hand

end
-- ==== Proof.K.GatherDat8.lean ====
/-
  Gather region 8 (custom_call 8): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem8 : Fin 8 → SemLoc sig := fun | 0 => .dma 100 | 1 => .dma 101 | 2 => .dma 102 | 3 => .dma 103 | 4 => .dma 104 | 5 => .dma 105 | 6 => .dma 106 | 7 => .dma 107

/-- The eight counters at zero, as the run finds them and hands them back. -/
abbrev sems8 (c : Dev nD) : sProp (MM F) :=
  iprop(semVal ((c : Thread nD τ), osem8 0) 0 ∗ semVal ((c : Thread nD τ), osem8 1) 0 ∗ semVal ((c : Thread nD τ), osem8 2) 0
    ∗ semVal ((c : Thread nD τ), osem8 3) 0 ∗ semVal ((c : Thread nD τ), osem8 4) 0 ∗ semVal ((c : Thread nD τ), osem8 5) 0
    ∗ semVal ((c : Thread nD τ), osem8 6) 0 ∗ semVal ((c : Thread nD τ), osem8 7) 0)

/-- Word `j` of the eight the index table holds for point `i`, as the kernel's scalar load reads it. -/
def tblWord8 (c : Dev nD) (i : grid8.Coords) (tbl : Bf (F := F) c (Memref.whole main_v59)) (j : Fin 8) : BitVec 32 :=
  (Memref.whole main_v59).view.readAt (Elt F) (Rect.unit (s := S131072) (k8_off1 i (BitVec.ofNat 32 j.val)) S1.size (k8_off1_inb i j)).toLoadRect tbl
    (Shape.Idx.first (s := S1) (numel1_S1.symm ▸ Nat.one_pos))

/-- Window `w`'s block at point `t`, read off its array at the region's entry. -/
def iblk8 (a0 : (pcfg8 (F := F)).Adm) (Vin : Dev nD → Valuation τ sig (Elt F)) (c : Dev nD) (w : Fin (cfg8 a0).W) (t : Fin (cfg8 a0).N) :
    (((cfg8 a0).win w).xblock ((cfg8 a0).grid.coords t)).Idx → Elt F ((cfg8 a0).win w).elt :=
  (((cfg8 a0).win w).blk t).view.read (Elt F) (Vr Vin c (Pipeline.arrRef spec8 w))

/-- The result array the region leaves: the gathered and scaled rows of the embedding array, whole. -/
def gout8 (a0 : (pcfg8 (F := F)).Adm) (Vin : Dev nD → Valuation τ sig (Elt F)) (c : Dev nD) : Buf (Elt F) ((c : Thread nD τ).loc main_v61) :=
  gatherArr (Vr Vin c main_arg0) (a0.1 0) (Vr Vin c main_v60)

/-- The invariant between points: the embedding array as entered, the kernel's semaphores at zero, the index table, the
    scoped buffers no window stages (the kernel's scratch among them). -/
def Phi8 (a0 : (pcfg8 (F := F)).Adm) (Vin : Dev nD → Valuation τ sig (Elt F)) (c : Dev nD) : sProp (MM F) :=
  iprop(pt c (Memref.whole main_arg0) (Vr Vin c main_arg0) ∗ sems8 c
    ∗ Pipeline.prefHeld (Ix := Unit) (Name := ℕ) (U := UU nD τ) (Lvl := ℕ) pre8 c (fun _ => fullShare) a0.1
    ∗ Pipeline.scopedRest (Ix := Unit) (Name := ℕ) (U := UU nD τ) (Lvl := ℕ) (Val := Elt F) spec8 c)

/-- The proof data on core `c`. -/
def dat8 (a0 : (pcfg8 (F := F)).Adm) (Vin : Dev nD → Valuation τ sig (Elt F)) (c : Dev nD) :
    Pipeline.Dat τ (Elt F) Unit ℕ (UU nD τ) ℕ ((pcfg8 (F := F)).at a0) c where
  A w := Vr Vin c (Pipeline.arrRef spec8 w)
  after w t := match w with
    | ⟨0, _⟩ => iblk8 a0 Vin c 0 t
    | ⟨1, _⟩ => (((cfg8 a0).win 1).blk t).view.read (Elt F) (gout8 a0 Vin c)
  Φ _ := Phi8 a0 Vin c
  q _ := fullShare
  owed _ := 0

theorem A_eq8 (a0 : (pcfg8 (F := F)).Adm) (Vin : Dev nD → Valuation τ sig (Elt F)) (c : Dev nD) (w : Fin (cfg8 a0).W) :
    (dat8 a0 Vin c).A w = Vr Vin c (Pipeline.arrRef spec8 w) := by dsimp only [dat8]
theorem after8_0 (a0 : (pcfg8 (F := F)).Adm) (Vin : Dev nD → Valuation τ sig (Elt F)) (c : Dev nD) (t : Fin (cfg8 a0).N) :
    (dat8 a0 Vin c).after 0 t = iblk8 a0 Vin c 0 t := by dsimp only [dat8]; rfl
theorem after8_1 (a0 : (pcfg8 (F := F)).Adm) (Vin : Dev nD → Valuation τ sig (Elt F)) (c : Dev nD) (t : Fin (cfg8 a0).N) :
    (dat8 a0 Vin c).after 1 t = (((cfg8 a0).win 1).blk t).view.read (Elt F) (gout8 a0 Vin c) := by dsimp only [dat8]; rfl
theorem Phi_eq8 (a0 : (pcfg8 (F := F)).Adm) (Vin : Dev nD → Valuation τ sig (Elt F)) (c : Dev nD) (t : Fin ((cfg8 a0).N + 1)) :
    (dat8 a0 Vin c).Φ t = Phi8 a0 Vin c := rfl
theorem owed_eq8 (a0 : (pcfg8 (F := F)).Adm) (Vin : Dev nD → Valuation τ sig (Elt F)) (c : Dev nD) (t : Fin ((cfg8 a0).N + 1)) :
    (dat8 a0 Vin c).owed t = 0 := rfl
theorem q_eq8 (a0 : (pcfg8 (F := F)).Adm) (Vin : Dev nD → Valuation τ sig (Elt F)) (c : Dev nD) (w : Fin (cfg8 a0).W) :
    (dat8 a0 Vin c).q w = fullShare := rfl

/-- The pinned family's configuration at region 8 is this one. -/
example (a : (p : Fin 34) → (pcfgs (F := F) p).Adm) : Pipeline.pin (pcfgs (F := F)) a (8 : Fin 34) = (pcfg8 (F := F)).at (a (8 : Fin 34)) := rfl

end Cert.Kernel.Hand

end
-- ==== Proof.K.GatherBody8.lean ====
/-
  Gather region 8 (custom_call 8): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat8
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk8 (c : Dev nD) (i : grid8.Coords) (tbl : Bf (F := F) c (Memref.whole main_v59)) : Prop where
  h1 : k8_chk1 (tblWord8 c i tbl 0)
  h2 : k8_chk2 (tblWord8 c i tbl 1)
  h3 : k8_chk3 (tblWord8 c i tbl 2)
  h4 : k8_chk4 (tblWord8 c i tbl 3)
  h5 : k8_chk5 (tblWord8 c i tbl 4)
  h6 : k8_chk6 (tblWord8 c i tbl 5)
  h7 : k8_chk7 (tblWord8 c i tbl 6)
  h8 : k8_chk8 (tblWord8 c i tbl 7)

/-- A one-row slice of the embedding array at the row a word names, read at lane `z 1`: the array's element there. -/
theorem rowRead8 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun8 (c : Dev nD) (i : grid8.Coords)
    (M3 : Memref sig .tc .vmem S8x1 .f32) (h3 : M3.IsWhole) (M4 : Memref sig .tc .vmem S8x128 .f32) (h4 : M4.IsWhole)
    (tbl : Bf (F := F) c (Memref.whole main_v59)) (x : Bf (F := F) c (Memref.whole main_arg0))
    (vb : Vec F S8x1 .f32) (hchk : GatherChk8 c i tbl) (Q : PUnit → sProp (MM F)) :
    iprop(pt c (Memref.whole main_v59) tbl ∗ pt c (Memref.whole main_arg0) x
      ∗ owns (c : Thread nD τ) M3 fullShare vb ∗ (∃ d, owns (c : Thread nD τ) M4 fullShare d)
      ∗ (∃ fs, pt c (Memref.whole cc8_scratch0) fs) ∗ sems8 c ∗ (∃ W, owes (c : Thread nD τ) (0 : CellTallies nD τ sig Unit) W)
      ∗ (iprop(pt c (Memref.whole main_v59) tbl ∗ pt c (Memref.whole main_arg0) x
          ∗ owns (c : Thread nD τ) M3 fullShare vb ∗ owns (c : Thread nD τ) M4 fullShare (gatherBlk x (tblWord8 c i tbl) vb)
          ∗ (∃ fs, pt c (Memref.whole cc8_scratch0) fs) ∗ sems8 c ∗ (∃ W, owes (c : Thread nD τ) (0 : CellTallies nD τ sig Unit) W)) -∗ Q ⟨⟩))
    ⊢ wp frame (wpE (defs₀ (F := F)) 𝒱₀ c none) Set.univ
        (cc8__gather_kernel i (Memref.whole main_v59) (Memref.isWhole_whole _) (Memref.whole main_arg0) (Memref.isWhole_whole _) M3 h3 M4 h4
          (Memref.whole cc8_scratch0) (Memref.isWhole_whole _) cc8_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 100).1 $$ Hx
  icases Hx' with ⟨Hxr, Hx0, Hx1, Hx2, Hx3, Hx4, Hx5, Hx6, Hx7⟩
  sl_unfold [cc8__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 100).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k8_pay1 gatherBlk
    show FloatOps.mulf _ _ = FloatOps.mulf _ _
    congr 1
    · unfold gatherRun8.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun8.sl.dma8 gatherRun8.sl.dma8_1 gatherRun8.sl.dma8_2 gatherRun8.sl.dma8_3 gatherRun8.sl.dma8_4 gatherRun8.sl.dma8_5
        gatherRun8.sl.dma8_6 gatherRun8.sl.dma8_7 gatherRun8.sl.r gatherRun8.sl.r_1 gatherRun8.sl.r_2 gatherRun8.sl.r_3 gatherRun8.sl.r_4
        gatherRun8.sl.r_5 gatherRun8.sl.r_6 gatherRun8.sl.r_7
      refine canonRows8 _ _ _ _ _ _ _ _ _ _ _ _ _ _ _ _ (fun r d => x (embIdx (rowOf (tblWord8 c i tbl r)) d)) ?_ ?_ ?_ ?_ ?_ ?_ ?_ ?_ y
      · exact fun z => rowRead8 c _ (tblWord8 c i tbl 0) rfl rfl _ _ x z
      · exact fun z => rowRead8 c _ (tblWord8 c i tbl 1) rfl rfl _ _ x z
      · exact fun z => rowRead8 c _ (tblWord8 c i tbl 2) rfl rfl _ _ x z
      · exact fun z => rowRead8 c _ (tblWord8 c i tbl 3) rfl rfl _ _ x z
      · exact fun z => rowRead8 c _ (tblWord8 c i tbl 4) rfl rfl _ _ x z
      · exact fun z => rowRead8 c _ (tblWord8 c i tbl 5) rfl rfl _ _ x z
      · exact fun z => rowRead8 c _ (tblWord8 c i tbl 6) rfl rfl _ _ x z
      · exact fun z => rowRead8 c _ (tblWord8 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk8.lean ====
/-
  Gather region 8 (custom_call 8): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat8
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word8 (i : grid8.Coords) (j : Fin 8) : k8_off1 i (BitVec.ofNat 32 j.val) 0 = (i 0).val * 8 + j.val := by
  have hi : (i 0).val < 16384 := (i 0).isLt
  have hj : j.val < 8 := j.isLt
  unfold k8_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word8 (i : grid8.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord8_eq (c : Dev nD) (i : grid8.Coords) (tbl : Bf (F := F) c (Memref.whole main_v59)) (j : Fin 8)
    (e : Fin 131072) (he : e.val = (i 0).val * 8 + j.val) : tblWord8 c i tbl j = tbl (tblIdx e) := by
  unfold tblWord8
  show tbl _ = tbl _
  refine congrArg tbl ?_
  funext a; apply Fin.ext
  match a with
  | ⟨0, _⟩ =>
    show k8_off1 i (BitVec.ofNat 32 j.val) 0 + 1 * 0 = e.val
    rw [off_word8, he]; omega

/-- Row `j` of the value window's block at point `t` is the value array's row `8 t + j`. -/
theorem valBlk8_eq (a0 : (pcfg8 (F := F)).Adm) (Vin : Dev nD → Valuation τ sig (Elt F)) (c : Dev nD) (t : Fin (cfg8 a0).N)
    (j : Fin 8) (e : Fin 131072) (he : e.val = ((grid8.coords t) 0).val * 8 + j.val) :
    iblk8 a0 Vin c 0 t (colIdx j) = Vr Vin c main_v60 (valIdx e) := by
  unfold iblk8
  show Vr Vin c main_v60 _ = Vr Vin c main_v60 _
  refine congrArg (Vr Vin c main_v60) ?_
  funext a; apply Fin.ext
  match a with
  | ⟨0, _⟩ =>
    show (BitVec.ofNat 32 ((grid8.coords t) 0).val).toNat * 8 + 1 * j.val = e.val
    rw [coord_word8, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk8 (a0 : (pcfg8 (F := F)).Adm) (Vin : Dev nD → Valuation τ sig (Elt F)) (c : Dev nD) (t : Fin (cfg8 a0).N) :
    gatherBlk (Vr Vin c main_arg0) (tblWord8 c (grid8.coords t) (a0.1 0)) (iblk8 a0 Vin c 0 t)
      = (((cfg8 a0).win 1).blk t).view.read (Elt F) (gout8 a0 Vin c) := by
  funext y
  show gatherBlk _ _ _ y = gout8 a0 Vin c ((((cfg8 a0).win 1).blk t).view.emb y)
  unfold gatherBlk gout8 gatherArr
  have e0 : ((((cfg8 a0).win 1).blk t).view.emb y (0 : Fin 2)).val = ((grid8.coords t) 0).val * 8 + (y 0).val := by
    show (BitVec.ofNat 32 ((grid8.coords t) 0).val).toNat * 8 + 1 * (y 0).val = _
    rw [coord_word8]; omega
  have e1 : (((cfg8 a0).win 1).blk t).view.emb y (1 : Fin 2) = y 1 := Fin.ext (by
    show (0#32 : BitVec 32).toNat * 128 + 1 * (y 1).val = (y 1).val
    show 0 * 128 + 1 * (y 1).val = (y 1).val
    omega)
  rw [tblWord8_eq c (grid8.coords t) (a0.1 0) (y 0) _ e0, valBlk8_eq a0 Vin c t (y 0) _ e0, e1]

end Cert.Kernel.Hand

end
-- ==== Proof.K.GatherRegion8.lean ====
/-
  Gather region 8 (custom_call 8): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody8
import proofs.«414509_j14181982011419_2_alg».proof.Proof.K.GatherBlk8
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk8 (a0 : (pcfg8 (F := F)).Adm) : Prop := ∀ e : S131072.Idx, (a0.1 0 e).toNat < 100000

/-! ## The grid and the result window's blocks -/

/-- On the one-axis grid a point's coordinate is its number. -/
theorem regCoords8 (t : Fin grid8.N) : (grid8.coords t 0).val = t.val := by
  have ht : t.val < 16384 := N_8 ▸ t.isLt
  show t.val / grid8.stride 0 % grid8.bound 0 = t.val
  rw [show grid8.stride 0 = 1 from by decide, show grid8.bound 0 = 16384 from rfl, Nat.div_one, Nat.mod_eq_of_lt ht]

/-- A point's number as the 32-bit word the index maps compute with. -/
theorem regWord8 (t : Fin grid8.N) : (BitVec.ofNat 32 (grid8.coords t 0).val).toNat = t.val := by
  have ht : t.val < 16384 := N_8 ▸ t.isLt
  rw [BitVec.toNat_ofNat, regCoords8]; omega

/-- The result window's block at point `t` is block `t` along the rows, at zero along the lanes. -/
theorem regOutIndex8 (a0 : (pcfg8 (F := F)).Adm) (t : Fin (cfg8 a0).N) : ((cfg8 a0).win 1).index t = ![t.val, 0] := by
  show cc8_transform_2 (grid8.coords t) = _
  unfold cc8_transform_2
  funext a; fin_cases a
  · exact regWord8 t
  · rfl

/-- The result window is written back at every point: consecutive points have different blocks. -/
theorem regOutFlush8 (a0 : (pcfg8 (F := F)).Adm) (t : Fin (cfg8 a0).N) : ((cfg8 a0).win 1).flush t = true := by
  have htN : t.val < 16384 := N_8 ▸ t.isLt
  rw [Pipeline.Window.flush_out _ rfl]
  by_cases h : t.val + 1 = 16384
  · exact Or.inl (show t.val + 1 = grid8.N by rw [N_8]; exact h)
  · have hlt : t.val + 1 < grid8.N := by rw [N_8]; omega
    refine Or.inr ⟨hlt, fun e => ?_⟩
    have e' : (![t.val + 1, 0] : Fin 2 → ℕ) = ![t.val, 0] := (regOutIndex8 a0 ⟨t.val + 1, hlt⟩).symm.trans (e.trans (regOutIndex8 a0 t))
    have e0 := congrFun e' 0
    simp at e0

/-- The index table, held as the pipeline's one prefetched table. -/
theorem prefHeldEq8 (a0 : (pcfg8 (F := F)).Adm) (c : Dev nD) :
    (Pipeline.prefHeld (Ix := Unit) (Name := ℕ) (U := UU nD τ) (Lvl := ℕ) pre8 c (fun _ => fullShare) a0.1 : sProp (MM F))
      = pt c (Memref.whole main_v59) (a0.1 0) := by
  unfold Pipeline.prefHeld
  rw [show (Finset.univ : Finset (Fin pre8.K)) = {0} from rfl, BI.bigSep_singleton]
  rfl

/-- The value window's staging buffer holds its block at every point. -/
theorem beforeVal8 (a0 : (pcfg8 (F := F)).Adm) (Vin : Dev nD → Valuation τ sig (Elt F)) (c : Dev nD) (t : Fin (cfg8 a0).N) (d) :
    (dat8 a0 Vin c).before 0 t d = iblk8 a0 Vin c 0 t :=
  ((dat8 a0 Vin c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)

/-! ## The kernel's checks, from the table's range -/

/-- Each of the point's eight words is a word of the table, so a row number. -/
theorem tblWordLt8 (a0 : (pcfg8 (F := F)).Adm) (hok : GatherOk8 a0) (c : Dev nD) (i : grid8.Coords) (j : Fin 8) :
    (tblWord8 c i (a0.1 0) j).toNat < 100000 := by
  unfold tblWord8
  exact hok _

/-- So the kernel's eight checks hold at every point. -/
theorem gatherChk8 (a0 : (pcfg8 (F := F)).Adm) (hok : GatherOk8 a0) (c : Dev nD) (i : grid8.Coords) : GatherChk8 c i (a0.1 0) :=
  ⟨⟨chkRow _ (tblWordLt8 a0 hok c i 0), chkRow _ (tblWordLt8 a0 hok c i 0)⟩,
   ⟨chkRow _ (tblWordLt8 a0 hok c i 1), chkRow _ (tblWordLt8 a0 hok c i 1)⟩,
   ⟨chkRow _ (tblWordLt8 a0 hok c i 2), chkRow _ (tblWordLt8 a0 hok c i 2)⟩,
   ⟨chkRow _ (tblWordLt8 a0 hok c i 3), chkRow _ (tblWordLt8 a0 hok c i 3)⟩,
   ⟨chkRow _ (tblWordLt8 a0 hok c i 4), chkRow _ (tblWordLt8 a0 hok c i 4)⟩,
   ⟨chkRow _ (tblWordLt8 a0 hok c i 5), chkRow _ (tblWordLt8 a0 hok c i 5)⟩,
   ⟨chkRow _ (tblWordLt8 a0 hok c i 6), chkRow _ (tblWordLt8 a0 hok c i 6)⟩,
   chkRow _ (tblWordLt8 a0 hok c i 7)⟩

/-! ## The body obligation, at a generic point -/

/-- What the body is called with at point `t`: the invariant, the core's dues, each window's current staging memref at
    what the pipeline left there, -/
def bodyPre8 (a0 : (pcfg8 (F := F)).Adm) (Vin : Dev nD → Valuation τ sig (Elt F)) (c : Dev nD) (t : Fin (cfg8 a0).N) : sProp (MM F) :=
  iprop((dat8 a0 Vin c).Φ t.castSucc ∗ (dat8 a0 Vin c).owesAt () t.castSucc
    ∗ (∃ d, owns (c : Thread nD τ) (((cfg8 a0).win 0).stage ((cfg8 a0).slots t 0)) fullShare ((dat8 a0 Vin c).before 0 t d))
    ∗ (∃ d, owns (c : Thread nD τ) (((cfg8 a0).win 1).stage ((cfg8 a0).slots t 1)) fullShare ((dat8 a0 Vin c).before 1 t d)))

/-- and what it returns. -/
def bodyPost8 (a0 : (pcfg8 (F := F)).Adm) (Vin : Dev nD → Valuation τ sig (Elt F)) (c : Dev nD) (t : Fin (cfg8 a0).N) : sProp (MM F) :=
  iprop((dat8 a0 Vin c).Φ t.succ ∗ (dat8 a0 Vin c).owesAt () t.succ
    ∗ owns (c : Thread nD τ) (((cfg8 a0).win 0).stage ((cfg8 a0).slots t 0)) fullShare ((dat8 a0 Vin c).after 0 t)
    ∗ owns (c : Thread nD τ) (((cfg8 a0).win 1).stage ((cfg8 a0).slots t 1)) fullShare ((dat8 a0 Vin c).after 1 t))

/-- The body at any point: the invariant opened into the embedding array, the semaphores, the table and the scratch;
    the value window's memref at its block; the checks from the table's range; so the kernel's run applies, and what it
    leaves in the result window's memref is the point's block of the gathered array. -/
theorem sound_body8 (a0 : (pcfg8 (F := F)).Adm) (hok : GatherOk8 a0) (Vin : Dev nD → Valuation τ sig (Elt F)) (c : Dev nD) (t : Fin (cfg8 a0).N) :
    bodyPre8 a0 Vin c t ⊢ wp frame (wpE (defs₀ (F := F)) 𝒱₀ c none) Set.univ
      (defs₀ .tc (cfg8 a0).body ((cfg8 a0).bodyArgs t ((cfg8 a0).slots t))) (fun _ => bodyPost8 a0 Vin c t) := by
  unfold bodyPre8 bodyPost8
  simp only [beforeVal8]
  rw [Phi_eq8, Phi_eq8, after8_0, after8_1, ← gatherBlk_blk8]
  unfold Phi8 Pipeline.Dat.owesAt Pipeline.owesWithin
  rw [owed_eq8, owed_eq8, prefHeldEq8, scopedRest8_split]
  iintro ⟨⟨Hx, Hos, Ht, ⟨%fs, Hs⟩, Hsb⟩, ⟨%W, %hW, HO⟩, ⟨%d0, H0⟩, ⟨%d1, H1⟩⟩
  iapply (gatherRun8 c (grid8.coords t) _ _ _ _ (a0.1 0) (Vr Vin c main_arg0) (iblk8 a0 Vin c 0 t) (gatherChk8 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation8 (a0 : (pcfg8 (F := F)).Adm) (hok : GatherOk8 a0) (Vin : Dev nD → Valuation τ sig (Elt F)) (c : Dev nD) :
    BodyObligation (dat8 a0 Vin c) (defs₀ (F := F)) 𝒱₀ () Set.univ := fun t => by
  rw [bigSep_W8, bigSep_W8]
  exact sound_body8 a0 hok Vin c t

/-! ## From the blocks to the arrays -/

/-- The value array after the region: as entered. -/
theorem arrAt8_in (a0 : (pcfg8 (F := F)).Adm) (Vin : Dev nD → Valuation τ sig (Elt F)) (c : Dev nD) :
    (dat8 a0 Vin c).arrAt 0 (cfg8 a0).N = Vr Vin c main_v60 :=
  ((dat8 a0 Vin c).arrAt_in 0 rfl _).trans (A_eq8 a0 Vin c 0)

/-- Every index of the result array is in some point's block: row `e`, lane `d` is element `(e % 8, d)` of the block
    of point `e / 8`. -/
theorem regOutCover8 (a0 : (pcfg8 (F := F)).Adm) (i : S131072x128.Idx) :
    ∃ t : Fin (cfg8 a0).N, ((cfg8 a0).win 1).flush t = true ∧ i ∈ (((cfg8 a0).win 1).blk t).view.set := by
  have hi0 : (i 0).val < 131072 := (i 0).isLt
  have hi1 : (i 1).val < 128 := (i 1).isLt
  have hN : (i 0).val / 8 < grid8.N := by rw [N_8]; omega
  obtain ⟨t, ht⟩ : ∃ t : Fin (cfg8 a0).N, t.val = (i 0).val / 8 := ⟨⟨_, hN⟩, rfl⟩
  have hx : (((cfg8 a0).win 1).blk t).view.emb (ValueIdx.ix2 ⟨(i 0).val % 8, Nat.mod_lt _ (by decide)⟩ (i 1)) = i := by
    funext a; apply Fin.ext
    have e0 : ((cfg8 a0).win 1).index t (0 : Fin 2) = t.val := congrFun (regOutIndex8 a0 t) (0 : Fin 2)
    have e1 : ((cfg8 a0).win 1).index t (1 : Fin 2) = 0 := congrFun (regOutIndex8 a0 t) (1 : Fin 2)
    match a with
    | ⟨0, _⟩ => show ((cfg8 a0).win 1).index t (0 : Fin 2) * 8 + 1 * ((i 0).val % 8) = (i 0).val; omega
    | ⟨1, _⟩ => show ((cfg8 a0).win 1).index t (1 : Fin 2) * 128 + 1 * (i 1).val = (i 1).val; omega
  exact ⟨t, regOutFlush8 a0 t, hx ▸ (((cfg8 a0).win 1).blk t).view.emb_mem_set _⟩

/-- The result array after the region: the gathered and scaled rows, whole. -/
theorem arrAt8_out (a0 : (pcfg8 (F := F)).Adm) (Vin : Dev nD → Valuation τ sig (Elt F)) (c : Dev nD) :
    (dat8 a0 Vin c).arrAt 1 (cfg8 a0).N = gout8 a0 Vin c :=
  (dat8 a0 Vin c).arrAt_eq_of_cover 1 (gout8 a0 Vin c)
    (fun t _ => by
      show ((cfg8 a0).win 1).cut ((cfg8 a0).grid.coords t) ((dat8 a0 Vin c).after 1 t) = _
      rw [after8_1])
    (regOutCover8 a0)

/-! ## The region as a segment of @main -/

/-- The ownership layout of the kernel's eight semaphores. -/
theorem ownSemFacts8 : Pipeline.OwnSemFacts spec8 osem8 := by decide

/-- The kernel's own cells at zero, listed. -/
theorem ownSemsListed8 (c : Dev nD) :
    (Pipeline.ownSems0 (Ix := Unit) (Name := ℕ) (U := UU nD τ) (Lvl := ℕ) (Val := Elt F) (τ := τ) osem8 c : sProp (MM F)) = sems8 c :=
  Pipeline.ownSems0_eq_of_list c osem8 [0, 1, 2, 3, 4, 5, 6, 7] (by decide) (by decide)

/-- The unscoped buffers that are no window's array, no table, and not the embedding array. -/
abbrev restRefs8 : Finset (Ref sig .tc) :=
  (((Finset.univ.filter fun b : Ref sig .tc => ¬ b.isScoped) \ Finset.univ.image (Pipeline.arrRef spec8)) \ Finset.univ.image pre8.ref) \ {main_arg0}

/-- Those buffers, each whole at its contents under `Vin`: what bypasses the region. -/
def Zrest8 (Vin : Dev nD → Valuation τ sig (Elt F)) (c : Dev nD) : sProp (MM F) :=
  bigSep restRefs8 fun b => ((c : Thread nD τ).loc b) ↦{fullShare} Vr Vin c b

/-- The embedding array is an unscoped buffer that is no window's array and no table. -/
theorem embArrMem8 : ({main_arg0} : Finset (Ref sig .tc)) ⊆
    ((Finset.univ.filter fun b : Ref sig .tc => ¬ b.isScoped) \ Finset.univ.image (Pipeline.arrRef spec8)) \ Finset.univ.image pre8.ref := by
  decide

/-- The unscoped buffers that are no window's array: the index table, the embedding array, and the rest. -/
theorem unscopedRestOpen8 (Vin : Dev nD → Valuation τ sig (Elt F)) (c : Dev nD) :
    (Pipeline.unscopedRest (Ix := Unit) (Name := ℕ) (U := UU nD τ) (Lvl := ℕ) spec8 c (Vr Vin c) : sProp (MM F))
      = iprop(Pipeline.prefHeld pre8 c (fun _ => fullShare) (fun k => Vr Vin c (pre8.ref k))
          ∗ pt c (Memref.whole main_arg0) (Vr Vin c main_arg0) ∗ Zrest8 Vin c) := by
  rw [Pipeline.unscopedRest_split preFacts8 c (Vr Vin c)]
  unfold Pipeline.unscopedRestP Zrest8
  rw [BI.bigSep_sdiff_split embArrMem8, BI.bigSep_singleton]
  rfl

/-- The buffer contents when the region is left: the result array at the gathered rows, every other buffer as entered. -/
abbrev Vout8 (a0 : (pcfg8 (F := F)).Adm) (Vin : Dev nD → Valuation τ sig (Elt F)) (c : Dev nD) : Valuation τ sig (Elt F) :=
  Function.update (Vin c) main_v61 (gout8 a0 Vin c)

/-- At the exit each of the region's arrays holds what the pipeline leaves; -/
theorem hF8 (a0 : (pcfg8 (F := F)).Adm) (Vin : Dev nD → Valuation τ sig (Elt F)) (c : Dev nD) (w : Fin (cfg8 a0).W) :
    (dat8 a0 Vin c).arrAt w (cfg8 a0).N = Vr (Vout8 a0 Vin) c (Pipeline.arrRef spec8 w) := by
  match w with
  | ⟨0, _⟩ =>
    show (dat8 a0 Vin c).arrAt 0 (cfg8 a0).N = Vr (Vout8 a0 Vin) c (Pipeline.arrRef spec8 0)
    rw [arrAt8_in]
    exact (Function.update_of_ne (StableHlo.devRef_ne_of_ne (by decide) : (Proc.devRef .tc main_v60 : DevRef τ sig) ≠ Proc.devRef .tc main_v61) _ _).symm
  | ⟨1, _⟩ =>
    show (dat8 a0 Vin c).arrAt 1 (cfg8 a0).N = Vr (Vout8 a0 Vin) c (Pipeline.arrRef spec8 1)
    rw [arrAt8_out]
    exact (Function.update_self (Proc.devRef .tc main_v61 : DevRef τ sig) _ (Vin c)).symm

/-- and every other buffer what it held at entry. -/
theorem hrest8 (a0 : (pcfg8 (F := F)).Adm) (Vin : Dev nD → Valuation τ sig (Elt F)) (c : Dev nD) :
    ∀ b : Ref sig .tc, b ∉ Finset.univ.image (Pipeline.arrRef spec8) → Vr (Vout8 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat8` at the entry valuation `Vin`
    (`hd`), the index table's contents under `Vin` being the pinned ones (`htbl`) and row numbers (`hok`). -/
def reg8 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk8 (F := F) (a (8 : Fin 34)))
    (hd : ∀ c, pdats (8 : Fin 34) c = dat8 (a (8 : Fin 34)) Vin c) (htbl : ∀ c, (a (8 : Fin 34)).1 = fun k => Vr Vin c (pre8.ref k)) :
    Pipeline.RegionSeg (pcfgs (F := F)) a pdats () defs₀ 𝒱₀ L lv (8 : Fin 34) where
  win := (launch8 (F := F)).win.to₀
  block_pos := (launch8 (F := F)).block_pos
  stage_whole := (launch8 (F := F)).stage_whole
  K := Fin 8
  osem := osem8
  ho := ownSemFacts8
  hbody c := by rw [hd c]; exact (body_obligation8 (a (8 : Fin 34)) hok Vin c).loose
  hwaits := Pipeline.hwaits_of_owed_zero _ _ _ _ L lv (8 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v61 (gout8 (a (8 : Fin 34)) Vin c)) ∗ Rest c)
  X c := iprop(pt c (Memref.whole main_arg0) (Vr Vin c main_arg0) ∗ sems8 c)
  Y c := iprop(pt c (Memref.whole main_arg0) (Vr Vin c main_arg0)
    ∗ Pipeline.prefHeld (Ix := Unit) (Name := ℕ) (U := UU nD τ) (Lvl := ℕ) pre8 c (fun _ => fullShare) (a (8 : Fin 34)).1)
  Z c := Zrest8 Vin c
  hentry c := by
    rw [ownSemsListed8]
    have hsplit := Pipeline.arrays_of_unscopedBufs (p := (8 : Fin 34)) (pcfgs (F := F)) a pdats (launch8 (F := F)).win (launch8 (F := F)).arr_whole c
      ((pdats (8 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen8 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (8 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq8]; unfold Phi8
    iintro ⟨⟨Hx, Hos⟩, Ht, Hr⟩
    isplitl [Hx]; · iexact Hx
    isplitl [Hos]; · iexact Hos
    isplitl [Ht]; · iexact Ht
    iexact Hr
  hout c := by
    rw [ownSemsListed8, hd c, Phi_eq8]; unfold Phi8
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (8 : Fin 34)) (pcfgs (F := F)) a (Ix := Unit) (Name := ℕ) (U := UU nD τ) (Lvl := ℕ)
      (launch8 (F := F)).win (launch8 (F := F)).arr_whole c pdats ((pdats (8 : Fin 34) c).share_full fun _ => by rw [hd c]; rfl)
      (Vr Vin c) (Vr (Vout8 (a (8 : Fin 34)) Vin) c) ((pdats (8 : Fin 34) c).arrAt · (cfg8 (a (8 : Fin 34))).N)
      (fun w => by rw [hd c]; exact hF8 (a (8 : Fin 34)) Vin c w) (hrest8 (a (8 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen8 Vin c).symm)
      isplitl [Ht]; · rw [← htbl c]; iexact Ht
      isplitl [Hx]; · iexact Hx
      iexact Hz
    unfold Pipeline.Dat.owesAt Pipeline.owesWithin
    rw [show (pdats (8 : Fin 34) c).owed (Fin.last _) = 0 from by rw [hd c]; rfl]
    icases HO with ⟨%W, -, HO⟩; iexists W; iexact HO

end Cert.Kernel.Hand

end
-- ==== Proof.K.GatherDat9.lean ====
/-
  Gather region 9 (custom_call 9): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem9 : Fin 8 → SemLoc sig := fun | 0 => .dma 112 | 1 => .dma 113 | 2 => .dma 114 | 3 => .dma 115 | 4 => .dma 116 | 5 => .dma 117 | 6 => .dma 118 | 7 => .dma 119

/-- The eight counters at zero, as the run finds them and hands them back. -/
abbrev sems9 (c : Dev nD) : sProp (MM F) :=
  iprop(semVal ((c : Thread nD τ), osem9 0) 0 ∗ semVal ((c : Thread nD τ), osem9 1) 0 ∗ semVal ((c : Thread nD τ), osem9 2) 0
    ∗ semVal ((c : Thread nD τ), osem9 3) 0 ∗ semVal ((c : Thread nD τ), osem9 4) 0 ∗ semVal ((c : Thread nD τ), osem9 5) 0
    ∗ semVal ((c : Thread nD τ), osem9 6) 0 ∗ semVal ((c : Thread nD τ), osem9 7) 0)

/-- Word `j` of the eight the index table holds for point `i`, as the kernel's scalar load reads it. -/
def tblWord9 (c : Dev nD) (i : grid9.Coords) (tbl : Bf (F := F) c (Memref.whole main_v62)) (j : Fin 8) : BitVec 32 :=
  (Memref.whole main_v62).view.readAt (Elt F) (Rect.unit (s := S131072) (k9_off1 i (BitVec.ofNat 32 j.val)) S1.size (k9_off1_inb i j)).toLoadRect tbl
    (Shape.Idx.first (s := S1) (numel1_S1.symm ▸ Nat.one_pos))

/-- Window `w`'s block at point `t`, read off its array at the region's entry. -/
def iblk9 (a0 : (pcfg9 (F := F)).Adm) (Vin : Dev nD → Valuation τ sig (Elt F)) (c : Dev nD) (w : Fin (cfg9 a0).W) (t : Fin (cfg9 a0).N) :
    (((cfg9 a0).win w).xblock ((cfg9 a0).grid.coords t)).Idx → Elt F ((cfg9 a0).win w).elt :=
  (((cfg9 a0).win w).blk t).view.read (Elt F) (Vr Vin c (Pipeline.arrRef spec9 w))

/-- The result array the region leaves: the gathered and scaled rows of the embedding array, whole. -/
def gout9 (a0 : (pcfg9 (F := F)).Adm) (Vin : Dev nD → Valuation τ sig (Elt F)) (c : Dev nD) : Buf (Elt F) ((c : Thread nD τ).loc main_v64) :=
  gatherArr (Vr Vin c main_arg0) (a0.1 0) (Vr Vin c main_v63)

/-- The invariant between points: the embedding array as entered, the kernel's semaphores at zero, the index table, the
    scoped buffers no window stages (the kernel's scratch among them). -/
def Phi9 (a0 : (pcfg9 (F := F)).Adm) (Vin : Dev nD → Valuation τ sig (Elt F)) (c : Dev nD) : sProp (MM F) :=
  iprop(pt c (Memref.whole main_arg0) (Vr Vin c main_arg0) ∗ sems9 c
    ∗ Pipeline.prefHeld (Ix := Unit) (Name := ℕ) (U := UU nD τ) (Lvl := ℕ) pre9 c (fun _ => fullShare) a0.1
    ∗ Pipeline.scopedRest (Ix := Unit) (Name := ℕ) (U := UU nD τ) (Lvl := ℕ) (Val := Elt F) spec9 c)

/-- The proof data on core `c`. -/
def dat9 (a0 : (pcfg9 (F := F)).Adm) (Vin : Dev nD → Valuation τ sig (Elt F)) (c : Dev nD) :
    Pipeline.Dat τ (Elt F) Unit ℕ (UU nD τ) ℕ ((pcfg9 (F := F)).at a0) c where
  A w := Vr Vin c (Pipeline.arrRef spec9 w)
  after w t := match w with
    | ⟨0, _⟩ => iblk9 a0 Vin c 0 t
    | ⟨1, _⟩ => (((cfg9 a0).win 1).blk t).view.read (Elt F) (gout9 a0 Vin c)
  Φ _ := Phi9 a0 Vin c
  q _ := fullShare
  owed _ := 0

theorem A_eq9 (a0 : (pcfg9 (F := F)).Adm) (Vin : Dev nD → Valuation τ sig (Elt F)) (c : Dev nD) (w : Fin (cfg9 a0).W) :
    (dat9 a0 Vin c).A w = Vr Vin c (Pipeline.arrRef spec9 w) := by dsimp only [dat9]
theorem after9_0 (a0 : (pcfg9 (F := F)).Adm) (Vin : Dev nD → Valuation τ sig (Elt F)) (c : Dev nD) (t : Fin (cfg9 a0).N) :
    (dat9 a0 Vin c).after 0 t = iblk9 a0 Vin c 0 t := by dsimp only [dat9]; rfl
theorem after9_1 (a0 : (pcfg9 (F := F)).Adm) (Vin : Dev nD → Valuation τ sig (Elt F)) (c : Dev nD) (t : Fin (cfg9 a0).N) :
    (dat9 a0 Vin c).after 1 t = (((cfg9 a0).win 1).blk t).view.read (Elt F) (gout9 a0 Vin c) := by dsimp only [dat9]; rfl
theorem Phi_eq9 (a0 : (pcfg9 (F := F)).Adm) (Vin : Dev nD → Valuation τ sig (Elt F)) (c : Dev nD) (t : Fin ((cfg9 a0).N + 1)) :
    (dat9 a0 Vin c).Φ t = Phi9 a0 Vin c := rfl
theorem owed_eq9 (a0 : (pcfg9 (F := F)).Adm) (Vin : Dev nD → Valuation τ sig (Elt F)) (c : Dev nD) (t : Fin ((cfg9 a0).N + 1)) :
    (dat9 a0 Vin c).owed t = 0 := rfl
theorem q_eq9 (a0 : (pcfg9 (F := F)).Adm) (Vin : Dev nD → Valuation τ sig (Elt F)) (c : Dev nD) (w : Fin (cfg9 a0).W) :
    (dat9 a0 Vin c).q w = fullShare := rfl

/-- The pinned family's configuration at region 9 is this one. -/
example (a : (p : Fin 34) → (pcfgs (F := F) p).Adm) : Pipeline.pin (pcfgs (F := F)) a (9 : Fin 34) = (pcfg9 (F := F)).at (a (9 : Fin 34)) := rfl

end Cert.Kernel.Hand

end
-- ==== Proof.K.GatherBody9.lean ====
/-
  Gather region 9 (custom_call 9): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat9
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk9 (c : Dev nD) (i : grid9.Coords) (tbl : Bf (F := F) c (Memref.whole main_v62)) : Prop where
  h1 : k9_chk1 (tblWord9 c i tbl 0)
  h2 : k9_chk2 (tblWord9 c i tbl 1)
  h3 : k9_chk3 (tblWord9 c i tbl 2)
  h4 : k9_chk4 (tblWord9 c i tbl 3)
  h5 : k9_chk5 (tblWord9 c i tbl 4)
  h6 : k9_chk6 (tblWord9 c i tbl 5)
  h7 : k9_chk7 (tblWord9 c i tbl 6)
  h8 : k9_chk8 (tblWord9 c i tbl 7)

/-- A one-row slice of the embedding array at the row a word names, read at lane `z 1`: the array's element there. -/
theorem rowRead9 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun9 (c : Dev nD) (i : grid9.Coords)
    (M3 : Memref sig .tc .vmem S8x1 .f32) (h3 : M3.IsWhole) (M4 : Memref sig .tc .vmem S8x128 .f32) (h4 : M4.IsWhole)
    (tbl : Bf (F := F) c (Memref.whole main_v62)) (x : Bf (F := F) c (Memref.whole main_arg0))
    (vb : Vec F S8x1 .f32) (hchk : GatherChk9 c i tbl) (Q : PUnit → sProp (MM F)) :
    iprop(pt c (Memref.whole main_v62) tbl ∗ pt c (Memref.whole main_arg0) x
      ∗ owns (c : Thread nD τ) M3 fullShare vb ∗ (∃ d, owns (c : Thread nD τ) M4 fullShare d)
      ∗ (∃ fs, pt c (Memref.whole cc9_scratch0) fs) ∗ sems9 c ∗ (∃ W, owes (c : Thread nD τ) (0 : CellTallies nD τ sig Unit) W)
      ∗ (iprop(pt c (Memref.whole main_v62) tbl ∗ pt c (Memref.whole main_arg0) x
          ∗ owns (c : Thread nD τ) M3 fullShare vb ∗ owns (c : Thread nD τ) M4 fullShare (gatherBlk x (tblWord9 c i tbl) vb)
          ∗ (∃ fs, pt c (Memref.whole cc9_scratch0) fs) ∗ sems9 c ∗ (∃ W, owes (c : Thread nD τ) (0 : CellTallies nD τ sig Unit) W)) -∗ Q ⟨⟩))
    ⊢ wp frame (wpE (defs₀ (F := F)) 𝒱₀ c none) Set.univ
        (cc9__gather_kernel i (Memref.whole main_v62) (Memref.isWhole_whole _) (Memref.whole main_arg0) (Memref.isWhole_whole _) M3 h3 M4 h4
          (Memref.whole cc9_scratch0) (Memref.isWhole_whole _) cc9_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 112).1 $$ Hx
  icases Hx' with ⟨Hxr, Hx0, Hx1, Hx2, Hx3, Hx4, Hx5, Hx6, Hx7⟩
  sl_unfold [cc9__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 112).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k9_pay1 gatherBlk
    show FloatOps.mulf _ _ = FloatOps.mulf _ _
    congr 1
    · unfold gatherRun9.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun9.sl.dma8 gatherRun9.sl.dma8_1 gatherRun9.sl.dma8_2 gatherRun9.sl.dma8_3 gatherRun9.sl.dma8_4 gatherRun9.sl.dma8_5
        gatherRun9.sl.dma8_6 gatherRun9.sl.dma8_7 gatherRun9.sl.r gatherRun9.sl.r_1 gatherRun9.sl.r_2 gatherRun9.sl.r_3 gatherRun9.sl.r_4
        gatherRun9.sl.r_5 gatherRun9.sl.r_6 gatherRun9.sl.r_7
      refine canonRows8 _ _ _ _ _ _ _ _ _ _ _ _ _ _ _ _ (fun r d => x (embIdx (rowOf (tblWord9 c i tbl r)) d)) ?_ ?_ ?_ ?_ ?_ ?_ ?_ ?_ y
      · exact fun z => rowRead9 c _ (tblWord9 c i tbl 0) rfl rfl _ _ x z
      · exact fun z => rowRead9 c _ (tblWord9 c i tbl 1) rfl rfl _ _ x z
      · exact fun z => rowRead9 c _ (tblWord9 c i tbl 2) rfl rfl _ _ x z
      · exact fun z => rowRead9 c _ (tblWord9 c i tbl 3) rfl rfl _ _ x z
      · exact fun z => rowRead9 c _ (tblWord9 c i tbl 4) rfl rfl _ _ x z
      · exact fun z => rowRead9 c _ (tblWord9 c i tbl 5) rfl rfl _ _ x z
      · exact fun z => rowRead9 c _ (tblWord9 c i tbl 6) rfl rfl _ _ x z
      · exact fun z => rowRead9 c _ (tblWord9 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk9.lean ====
/-
  Gather region 9 (custom_call 9): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat9
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word9 (i : grid9.Coords) (j : Fin 8) : k9_off1 i (BitVec.ofNat 32 j.val) 0 = (i 0).val * 8 + j.val := by
  have hi : (i 0).val < 16384 := (i 0).isLt
  have hj : j.val < 8 := j.isLt
  unfold k9_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word9 (i : grid9.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord9_eq (c : Dev nD) (i : grid9.Coords) (tbl : Bf (F := F) c (Memref.whole main_v62)) (j : Fin 8)
    (e : Fin 131072) (he : e.val = (i 0).val * 8 + j.val) : tblWord9 c i tbl j = tbl (tblIdx e) := by
  unfold tblWord9
  show tbl _ = tbl _
  refine congrArg tbl ?_
  funext a; apply Fin.ext
  match a with
  | ⟨0, _⟩ =>
    show k9_off1 i (BitVec.ofNat 32 j.val) 0 + 1 * 0 = e.val
    rw [off_word9, he]; omega

/-- Row `j` of the value window's block at point `t` is the value array's row `8 t + j`. -/
theorem valBlk9_eq (a0 : (pcfg9 (F := F)).Adm) (Vin : Dev nD → Valuation τ sig (Elt F)) (c : Dev nD) (t : Fin (cfg9 a0).N)
    (j : Fin 8) (e : Fin 131072) (he : e.val = ((grid9.coords t) 0).val * 8 + j.val) :
    iblk9 a0 Vin c 0 t (colIdx j) = Vr Vin c main_v63 (valIdx e) := by
  unfold iblk9
  show Vr Vin c main_v63 _ = Vr Vin c main_v63 _
  refine congrArg (Vr Vin c main_v63) ?_
  funext a; apply Fin.ext
  match a with
  | ⟨0, _⟩ =>
    show (BitVec.ofNat 32 ((grid9.coords t) 0).val).toNat * 8 + 1 * j.val = e.val
    rw [coord_word9, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk9 (a0 : (pcfg9 (F := F)).Adm) (Vin : Dev nD → Valuation τ sig (Elt F)) (c : Dev nD) (t : Fin (cfg9 a0).N) :
    gatherBlk (Vr Vin c main_arg0) (tblWord9 c (grid9.coords t) (a0.1 0)) (iblk9 a0 Vin c 0 t)
      = (((cfg9 a0).win 1).blk t).view.read (Elt F) (gout9 a0 Vin c) := by
  funext y
  show gatherBlk _ _ _ y = gout9 a0 Vin c ((((cfg9 a0).win 1).blk t).view.emb y)
  unfold gatherBlk gout9 gatherArr
  have e0 : ((((cfg9 a0).win 1).blk t).view.emb y (0 : Fin 2)).val = ((grid9.coords t) 0).val * 8 + (y 0).val := by
    show (BitVec.ofNat 32 ((grid9.coords t) 0).val).toNat * 8 + 1 * (y 0).val = _
    rw [coord_word9]; omega
  have e1 : (((cfg9 a0).win 1).blk t).view.emb y (1 : Fin 2) = y 1 := Fin.ext (by
    show (0#32 : BitVec 32).toNat * 128 + 1 * (y 1).val = (y 1).val
    show 0 * 128 + 1 * (y 1).val = (y 1).val
    omega)
  rw [tblWord9_eq c (grid9.coords t) (a0.1 0) (y 0) _ e0, valBlk9_eq a0 Vin c t (y 0) _ e0, e1]

end Cert.Kernel.Hand

end
-- ==== Proof.K.GatherRegion9.lean ====
/-
  Gather region 9 (custom_call 9): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody9
import proofs.«414509_j14181982011419_2_alg».proof.Proof.K.GatherBlk9
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk9 (a0 : (pcfg9 (F := F)).Adm) : Prop := ∀ e : S131072.Idx, (a0.1 0 e).toNat < 100000

/-! ## The grid and the result window's blocks -/

/-- On the one-axis grid a point's coordinate is its number. -/
theorem regCoords9 (t : Fin grid9.N) : (grid9.coords t 0).val = t.val := by
  have ht : t.val < 16384 := N_9 ▸ t.isLt
  show t.val / grid9.stride 0 % grid9.bound 0 = t.val
  rw [show grid9.stride 0 = 1 from by decide, show grid9.bound 0 = 16384 from rfl, Nat.div_one, Nat.mod_eq_of_lt ht]

/-- A point's number as the 32-bit word the index maps compute with. -/
theorem regWord9 (t : Fin grid9.N) : (BitVec.ofNat 32 (grid9.coords t 0).val).toNat = t.val := by
  have ht : t.val < 16384 := N_9 ▸ t.isLt
  rw [BitVec.toNat_ofNat, regCoords9]; omega

/-- The result window's block at point `t` is block `t` along the rows, at zero along the lanes. -/
theorem regOutIndex9 (a0 : (pcfg9 (F := F)).Adm) (t : Fin (cfg9 a0).N) : ((cfg9 a0).win 1).index t = ![t.val, 0] := by
  show cc9_transform_2 (grid9.coords t) = _
  unfold cc9_transform_2
  funext a; fin_cases a
  · exact regWord9 t
  · rfl

/-- The result window is written back at every point: consecutive points have different blocks. -/
theorem regOutFlush9 (a0 : (pcfg9 (F := F)).Adm) (t : Fin (cfg9 a0).N) : ((cfg9 a0).win 1).flush t = true := by
  have htN : t.val < 16384 := N_9 ▸ t.isLt
  rw [Pipeline.Window.flush_out _ rfl]
  by_cases h : t.val + 1 = 16384
  · exact Or.inl (show t.val + 1 = grid9.N by rw [N_9]; exact h)
  · have hlt : t.val + 1 < grid9.N := by rw [N_9]; omega
    refine Or.inr ⟨hlt, fun e => ?_⟩
    have e' : (![t.val + 1, 0] : Fin 2 → ℕ) = ![t.val, 0] := (regOutIndex9 a0 ⟨t.val + 1, hlt⟩).symm.trans (e.trans (regOutIndex9 a0 t))
    have e0 := congrFun e' 0
    simp at e0

/-- The index table, held as the pipeline's one prefetched table. -/
theorem prefHeldEq9 (a0 : (pcfg9 (F := F)).Adm) (c : Dev nD) :
    (Pipeline.prefHeld (Ix := Unit) (Name := ℕ) (U := UU nD τ) (Lvl := ℕ) pre9 c (fun _ => fullShare) a0.1 : sProp (MM F))
      = pt c (Memref.whole main_v62) (a0.1 0) := by
  unfold Pipeline.prefHeld
  rw [show (Finset.univ : Finset (Fin pre9.K)) = {0} from rfl, BI.bigSep_singleton]
  rfl

/-- The value window's staging buffer holds its block at every point. -/
theorem beforeVal9 (a0 : (pcfg9 (F := F)).Adm) (Vin : Dev nD → Valuation τ sig (Elt F)) (c : Dev nD) (t : Fin (cfg9 a0).N) (d) :
    (dat9 a0 Vin c).before 0 t d = iblk9 a0 Vin c 0 t :=
  ((dat9 a0 Vin c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)

/-! ## The kernel's checks, from the table's range -/

/-- Each of the point's eight words is a word of the table, so a row number. -/
theorem tblWordLt9 (a0 : (pcfg9 (F := F)).Adm) (hok : GatherOk9 a0) (c : Dev nD) (i : grid9.Coords) (j : Fin 8) :
    (tblWord9 c i (a0.1 0) j).toNat < 100000 := by
  unfold tblWord9
  exact hok _

/-- So the kernel's eight checks hold at every point. -/
theorem gatherChk9 (a0 : (pcfg9 (F := F)).Adm) (hok : GatherOk9 a0) (c : Dev nD) (i : grid9.Coords) : GatherChk9 c i (a0.1 0) :=
  ⟨⟨chkRow _ (tblWordLt9 a0 hok c i 0), chkRow _ (tblWordLt9 a0 hok c i 0)⟩,
   ⟨chkRow _ (tblWordLt9 a0 hok c i 1), chkRow _ (tblWordLt9 a0 hok c i 1)⟩,
   ⟨chkRow _ (tblWordLt9 a0 hok c i 2), chkRow _ (tblWordLt9 a0 hok c i 2)⟩,
   ⟨chkRow _ (tblWordLt9 a0 hok c i 3), chkRow _ (tblWordLt9 a0 hok c i 3)⟩,
   ⟨chkRow _ (tblWordLt9 a0 hok c i 4), chkRow _ (tblWordLt9 a0 hok c i 4)⟩,
   ⟨chkRow _ (tblWordLt9 a0 hok c i 5), chkRow _ (tblWordLt9 a0 hok c i 5)⟩,
   ⟨chkRow _ (tblWordLt9 a0 hok c i 6), chkRow _ (tblWordLt9 a0 hok c i 6)⟩,
   chkRow _ (tblWordLt9 a0 hok c i 7)⟩

/-! ## The body obligation, at a generic point -/

/-- What the body is called with at point `t`: the invariant, the core's dues, each window's current staging memref at
    what the pipeline left there, -/
def bodyPre9 (a0 : (pcfg9 (F := F)).Adm) (Vin : Dev nD → Valuation τ sig (Elt F)) (c : Dev nD) (t : Fin (cfg9 a0).N) : sProp (MM F) :=
  iprop((dat9 a0 Vin c).Φ t.castSucc ∗ (dat9 a0 Vin c).owesAt () t.castSucc
    ∗ (∃ d, owns (c : Thread nD τ) (((cfg9 a0).win 0).stage ((cfg9 a0).slots t 0)) fullShare ((dat9 a0 Vin c).before 0 t d))
    ∗ (∃ d, owns (c : Thread nD τ) (((cfg9 a0).win 1).stage ((cfg9 a0).slots t 1)) fullShare ((dat9 a0 Vin c).before 1 t d)))

/-- and what it returns. -/
def bodyPost9 (a0 : (pcfg9 (F := F)).Adm) (Vin : Dev nD → Valuation τ sig (Elt F)) (c : Dev nD) (t : Fin (cfg9 a0).N) : sProp (MM F) :=
  iprop((dat9 a0 Vin c).Φ t.succ ∗ (dat9 a0 Vin c).owesAt () t.succ
    ∗ owns (c : Thread nD τ) (((cfg9 a0).win 0).stage ((cfg9 a0).slots t 0)) fullShare ((dat9 a0 Vin c).after 0 t)
    ∗ owns (c : Thread nD τ) (((cfg9 a0).win 1).stage ((cfg9 a0).slots t 1)) fullShare ((dat9 a0 Vin c).after 1 t))

/-- The body at any point: the invariant opened into the embedding array, the semaphores, the table and the scratch;
    the value window's memref at its block; the checks from the table's range; so the kernel's run applies, and what it
    leaves in the result window's memref is the point's block of the gathered array. -/
theorem sound_body9 (a0 : (pcfg9 (F := F)).Adm) (hok : GatherOk9 a0) (Vin : Dev nD → Valuation τ sig (Elt F)) (c : Dev nD) (t : Fin (cfg9 a0).N) :
    bodyPre9 a0 Vin c t ⊢ wp frame (wpE (defs₀ (F := F)) 𝒱₀ c none) Set.univ
      (defs₀ .tc (cfg9 a0).body ((cfg9 a0).bodyArgs t ((cfg9 a0).slots t))) (fun _ => bodyPost9 a0 Vin c t) := by
  unfold bodyPre9 bodyPost9
  simp only [beforeVal9]
  rw [Phi_eq9, Phi_eq9, after9_0, after9_1, ← gatherBlk_blk9]
  unfold Phi9 Pipeline.Dat.owesAt Pipeline.owesWithin
  rw [owed_eq9, owed_eq9, prefHeldEq9, scopedRest9_split]
  iintro ⟨⟨Hx, Hos, Ht, ⟨%fs, Hs⟩, Hsb⟩, ⟨%W, %hW, HO⟩, ⟨%d0, H0⟩, ⟨%d1, H1⟩⟩
  iapply (gatherRun9 c (grid9.coords t) _ _ _ _ (a0.1 0) (Vr Vin c main_arg0) (iblk9 a0 Vin c 0 t) (gatherChk9 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation9 (a0 : (pcfg9 (F := F)).Adm) (hok : GatherOk9 a0) (Vin : Dev nD → Valuation τ sig (Elt F)) (c : Dev nD) :
    BodyObligation (dat9 a0 Vin c) (defs₀ (F := F)) 𝒱₀ () Set.univ := fun t => by
  rw [bigSep_W9, bigSep_W9]
  exact sound_body9 a0 hok Vin c t

/-! ## From the blocks to the arrays -/

/-- The value array after the region: as entered. -/
theorem arrAt9_in (a0 : (pcfg9 (F := F)).Adm) (Vin : Dev nD → Valuation τ sig (Elt F)) (c : Dev nD) :
    (dat9 a0 Vin c).arrAt 0 (cfg9 a0).N = Vr Vin c main_v63 :=
  ((dat9 a0 Vin c).arrAt_in 0 rfl _).trans (A_eq9 a0 Vin c 0)

/-- Every index of the result array is in some point's block: row `e`, lane `d` is element `(e % 8, d)` of the block
    of point `e / 8`. -/
theorem regOutCover9 (a0 : (pcfg9 (F := F)).Adm) (i : S131072x128.Idx) :
    ∃ t : Fin (cfg9 a0).N, ((cfg9 a0).win 1).flush t = true ∧ i ∈ (((cfg9 a0).win 1).blk t).view.set := by
  have hi0 : (i 0).val < 131072 := (i 0).isLt
  have hi1 : (i 1).val < 128 := (i 1).isLt
  have hN : (i 0).val / 8 < grid9.N := by rw [N_9]; omega
  obtain ⟨t, ht⟩ : ∃ t : Fin (cfg9 a0).N, t.val = (i 0).val / 8 := ⟨⟨_, hN⟩, rfl⟩
  have hx : (((cfg9 a0).win 1).blk t).view.emb (ValueIdx.ix2 ⟨(i 0).val % 8, Nat.mod_lt _ (by decide)⟩ (i 1)) = i := by
    funext a; apply Fin.ext
    have e0 : ((cfg9 a0).win 1).index t (0 : Fin 2) = t.val := congrFun (regOutIndex9 a0 t) (0 : Fin 2)
    have e1 : ((cfg9 a0).win 1).index t (1 : Fin 2) = 0 := congrFun (regOutIndex9 a0 t) (1 : Fin 2)
    match a with
    | ⟨0, _⟩ => show ((cfg9 a0).win 1).index t (0 : Fin 2) * 8 + 1 * ((i 0).val % 8) = (i 0).val; omega
    | ⟨1, _⟩ => show ((cfg9 a0).win 1).index t (1 : Fin 2) * 128 + 1 * (i 1).val = (i 1).val; omega
  exact ⟨t, regOutFlush9 a0 t, hx ▸ (((cfg9 a0).win 1).blk t).view.emb_mem_set _⟩

/-- The result array after the region: the gathered and scaled rows, whole. -/
theorem arrAt9_out (a0 : (pcfg9 (F := F)).Adm) (Vin : Dev nD → Valuation τ sig (Elt F)) (c : Dev nD) :
    (dat9 a0 Vin c).arrAt 1 (cfg9 a0).N = gout9 a0 Vin c :=
  (dat9 a0 Vin c).arrAt_eq_of_cover 1 (gout9 a0 Vin c)
    (fun t _ => by
      show ((cfg9 a0).win 1).cut ((cfg9 a0).grid.coords t) ((dat9 a0 Vin c).after 1 t) = _
      rw [after9_1])
    (regOutCover9 a0)

/-! ## The region as a segment of @main -/

/-- The ownership layout of the kernel's eight semaphores. -/
theorem ownSemFacts9 : Pipeline.OwnSemFacts spec9 osem9 := by decide

/-- The kernel's own cells at zero, listed. -/
theorem ownSemsListed9 (c : Dev nD) :
    (Pipeline.ownSems0 (Ix := Unit) (Name := ℕ) (U := UU nD τ) (Lvl := ℕ) (Val := Elt F) (τ := τ) osem9 c : sProp (MM F)) = sems9 c :=
  Pipeline.ownSems0_eq_of_list c osem9 [0, 1, 2, 3, 4, 5, 6, 7] (by decide) (by decide)

/-- The unscoped buffers that are no window's array, no table, and not the embedding array. -/
abbrev restRefs9 : Finset (Ref sig .tc) :=
  (((Finset.univ.filter fun b : Ref sig .tc => ¬ b.isScoped) \ Finset.univ.image (Pipeline.arrRef spec9)) \ Finset.univ.image pre9.ref) \ {main_arg0}

/-- Those buffers, each whole at its contents under `Vin`: what bypasses the region. -/
def Zrest9 (Vin : Dev nD → Valuation τ sig (Elt F)) (c : Dev nD) : sProp (MM F) :=
  bigSep restRefs9 fun b => ((c : Thread nD τ).loc b) ↦{fullShare} Vr Vin c b

/-- The embedding array is an unscoped buffer that is no window's array and no table. -/
theorem embArrMem9 : ({main_arg0} : Finset (Ref sig .tc)) ⊆
    ((Finset.univ.filter fun b : Ref sig .tc => ¬ b.isScoped) \ Finset.univ.image (Pipeline.arrRef spec9)) \ Finset.univ.image pre9.ref := by
  decide

/-- The unscoped buffers that are no window's array: the index table, the embedding array, and the rest. -/
theorem unscopedRestOpen9 (Vin : Dev nD → Valuation τ sig (Elt F)) (c : Dev nD) :
    (Pipeline.unscopedRest (Ix := Unit) (Name := ℕ) (U := UU nD τ) (Lvl := ℕ) spec9 c (Vr Vin c) : sProp (MM F))
      = iprop(Pipeline.prefHeld pre9 c (fun _ => fullShare) (fun k => Vr Vin c (pre9.ref k))
          ∗ pt c (Memref.whole main_arg0) (Vr Vin c main_arg0) ∗ Zrest9 Vin c) := by
  rw [Pipeline.unscopedRest_split preFacts9 c (Vr Vin c)]
  unfold Pipeline.unscopedRestP Zrest9
  rw [BI.bigSep_sdiff_split embArrMem9, BI.bigSep_singleton]
  rfl

/-- The buffer contents when the region is left: the result array at the gathered rows, every other buffer as entered. -/
abbrev Vout9 (a0 : (pcfg9 (F := F)).Adm) (Vin : Dev nD → Valuation τ sig (Elt F)) (c : Dev nD) : Valuation τ sig (Elt F) :=
  Function.update (Vin c) main_v64 (gout9 a0 Vin c)

/-- At the exit each of the region's arrays holds what the pipeline leaves; -/
theorem hF9 (a0 : (pcfg9 (F := F)).Adm) (Vin : Dev nD → Valuation τ sig (Elt F)) (c : Dev nD) (w : Fin (cfg9 a0).W) :
    (dat9 a0 Vin c).arrAt w (cfg9 a0).N = Vr (Vout9 a0 Vin) c (Pipeline.arrRef spec9 w) := by
  match w with
  | ⟨0, _⟩ =>
    show (dat9 a0 Vin c).arrAt 0 (cfg9 a0).N = Vr (Vout9 a0 Vin) c (Pipeline.arrRef spec9 0)
    rw [arrAt9_in]
    exact (Function.update_of_ne (StableHlo.devRef_ne_of_ne (by decide) : (Proc.devRef .tc main_v63 : DevRef τ sig) ≠ Proc.devRef .tc main_v64) _ _).symm
  | ⟨1, _⟩ =>
    show (dat9 a0 Vin c).arrAt 1 (cfg9 a0).N = Vr (Vout9 a0 Vin) c (Pipeline.arrRef spec9 1)
    rw [arrAt9_out]
    exact (Function.update_self (Proc.devRef .tc main_v64 : DevRef τ sig) _ (Vin c)).symm

/-- and every other buffer what it held at entry. -/
theorem hrest9 (a0 : (pcfg9 (F := F)).Adm) (Vin : Dev nD → Valuation τ sig (Elt F)) (c : Dev nD) :
    ∀ b : Ref sig .tc, b ∉ Finset.univ.image (Pipeline.arrRef spec9) → Vr (Vout9 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat9` at the entry valuation `Vin`
    (`hd`), the index table's contents under `Vin` being the pinned ones (`htbl`) and row numbers (`hok`). -/
def reg9 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk9 (F := F) (a (9 : Fin 34)))
    (hd : ∀ c, pdats (9 : Fin 34) c = dat9 (a (9 : Fin 34)) Vin c) (htbl : ∀ c, (a (9 : Fin 34)).1 = fun k => Vr Vin c (pre9.ref k)) :
    Pipeline.RegionSeg (pcfgs (F := F)) a pdats () defs₀ 𝒱₀ L lv (9 : Fin 34) where
  win := (launch9 (F := F)).win.to₀
  block_pos := (launch9 (F := F)).block_pos
  stage_whole := (launch9 (F := F)).stage_whole
  K := Fin 8
  osem := osem9
  ho := ownSemFacts9
  hbody c := by rw [hd c]; exact (body_obligation9 (a (9 : Fin 34)) hok Vin c).loose
  hwaits := Pipeline.hwaits_of_owed_zero _ _ _ _ L lv (9 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v64 (gout9 (a (9 : Fin 34)) Vin c)) ∗ Rest c)
  X c := iprop(pt c (Memref.whole main_arg0) (Vr Vin c main_arg0) ∗ sems9 c)
  Y c := iprop(pt c (Memref.whole main_arg0) (Vr Vin c main_arg0)
    ∗ Pipeline.prefHeld (Ix := Unit) (Name := ℕ) (U := UU nD τ) (Lvl := ℕ) pre9 c (fun _ => fullShare) (a (9 : Fin 34)).1)
  Z c := Zrest9 Vin c
  hentry c := by
    rw [ownSemsListed9]
    have hsplit := Pipeline.arrays_of_unscopedBufs (p := (9 : Fin 34)) (pcfgs (F := F)) a pdats (launch9 (F := F)).win (launch9 (F := F)).arr_whole c
      ((pdats (9 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen9 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (9 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq9]; unfold Phi9
    iintro ⟨⟨Hx, Hos⟩, Ht, Hr⟩
    isplitl [Hx]; · iexact Hx
    isplitl [Hos]; · iexact Hos
    isplitl [Ht]; · iexact Ht
    iexact Hr
  hout c := by
    rw [ownSemsListed9, hd c, Phi_eq9]; unfold Phi9
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (9 : Fin 34)) (pcfgs (F := F)) a (Ix := Unit) (Name := ℕ) (U := UU nD τ) (Lvl := ℕ)
      (launch9 (F := F)).win (launch9 (F := F)).arr_whole c pdats ((pdats (9 : Fin 34) c).share_full fun _ => by rw [hd c]; rfl)
      (Vr Vin c) (Vr (Vout9 (a (9 : Fin 34)) Vin) c) ((pdats (9 : Fin 34) c).arrAt · (cfg9 (a (9 : Fin 34))).N)
      (fun w => by rw [hd c]; exact hF9 (a (9 : Fin 34)) Vin c w) (hrest9 (a (9 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen9 Vin c).symm)
      isplitl [Ht]; · rw [← htbl c]; iexact Ht
      isplitl [Hx]; · iexact Hx
      iexact Hz
    unfold Pipeline.Dat.owesAt Pipeline.owesWithin
    rw [show (pdats (9 : Fin 34) c).owed (Fin.last _) = 0 from by rw [hd c]; rfl]
    icases HO with ⟨%W, -, HO⟩; iexists W; iexact HO

end Cert.Kernel.Hand

end
-- ==== Proof.K.GatherDat10.lean ====
/-
  Gather region 10 (custom_call 10): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem10 : Fin 8 → SemLoc sig := fun | 0 => .dma 124 | 1 => .dma 125 | 2 => .dma 126 | 3 => .dma 127 | 4 => .dma 128 | 5 => .dma 129 | 6 => .dma 130 | 7 => .dma 131

/-- The eight counters at zero, as the run finds them and hands them back. -/
abbrev sems10 (c : Dev nD) : sProp (MM F) :=
  iprop(semVal ((c : Thread nD τ), osem10 0) 0 ∗ semVal ((c : Thread nD τ), osem10 1) 0 ∗ semVal ((c : Thread nD τ), osem10 2) 0
    ∗ semVal ((c : Thread nD τ), osem10 3) 0 ∗ semVal ((c : Thread nD τ), osem10 4) 0 ∗ semVal ((c : Thread nD τ), osem10 5) 0
    ∗ semVal ((c : Thread nD τ), osem10 6) 0 ∗ semVal ((c : Thread nD τ), osem10 7) 0)

/-- Word `j` of the eight the index table holds for point `i`, as the kernel's scalar load reads it. -/
def tblWord10 (c : Dev nD) (i : grid10.Coords) (tbl : Bf (F := F) c (Memref.whole main_v65)) (j : Fin 8) : BitVec 32 :=
  (Memref.whole main_v65).view.readAt (Elt F) (Rect.unit (s := S131072) (k10_off1 i (BitVec.ofNat 32 j.val)) S1.size (k10_off1_inb i j)).toLoadRect tbl
    (Shape.Idx.first (s := S1) (numel1_S1.symm ▸ Nat.one_pos))

/-- Window `w`'s block at point `t`, read off its array at the region's entry. -/
def iblk10 (a0 : (pcfg10 (F := F)).Adm) (Vin : Dev nD → Valuation τ sig (Elt F)) (c : Dev nD) (w : Fin (cfg10 a0).W) (t : Fin (cfg10 a0).N) :
    (((cfg10 a0).win w).xblock ((cfg10 a0).grid.coords t)).Idx → Elt F ((cfg10 a0).win w).elt :=
  (((cfg10 a0).win w).blk t).view.read (Elt F) (Vr Vin c (Pipeline.arrRef spec10 w))

/-- The result array the region leaves: the gathered and scaled rows of the embedding array, whole. -/
def gout10 (a0 : (pcfg10 (F := F)).Adm) (Vin : Dev nD → Valuation τ sig (Elt F)) (c : Dev nD) : Buf (Elt F) ((c : Thread nD τ).loc main_v67) :=
  gatherArr (Vr Vin c main_arg0) (a0.1 0) (Vr Vin c main_v66)

/-- The invariant between points: the embedding array as entered, the kernel's semaphores at zero, the index table, the
    scoped buffers no window stages (the kernel's scratch among them). -/
def Phi10 (a0 : (pcfg10 (F := F)).Adm) (Vin : Dev nD → Valuation τ sig (Elt F)) (c : Dev nD) : sProp (MM F) :=
  iprop(pt c (Memref.whole main_arg0) (Vr Vin c main_arg0) ∗ sems10 c
    ∗ Pipeline.prefHeld (Ix := Unit) (Name := ℕ) (U := UU nD τ) (Lvl := ℕ) pre10 c (fun _ => fullShare) a0.1
    ∗ Pipeline.scopedRest (Ix := Unit) (Name := ℕ) (U := UU nD τ) (Lvl := ℕ) (Val := Elt F) spec10 c)

/-- The proof data on core `c`. -/
def dat10 (a0 : (pcfg10 (F := F)).Adm) (Vin : Dev nD → Valuation τ sig (Elt F)) (c : Dev nD) :
    Pipeline.Dat τ (Elt F) Unit ℕ (UU nD τ) ℕ ((pcfg10 (F := F)).at a0) c where
  A w := Vr Vin c (Pipeline.arrRef spec10 w)
  after w t := match w with
    | ⟨0, _⟩ => iblk10 a0 Vin c 0 t
    | ⟨1, _⟩ => (((cfg10 a0).win 1).blk t).view.read (Elt F) (gout10 a0 Vin c)
  Φ _ := Phi10 a0 Vin c
  q _ := fullShare
  owed _ := 0

theorem A_eq10 (a0 : (pcfg10 (F := F)).Adm) (Vin : Dev nD → Valuation τ sig (Elt F)) (c : Dev nD) (w : Fin (cfg10 a0).W) :
    (dat10 a0 Vin c).A w = Vr Vin c (Pipeline.arrRef spec10 w) := by dsimp only [dat10]
theorem after10_0 (a0 : (pcfg10 (F := F)).Adm) (Vin : Dev nD → Valuation τ sig (Elt F)) (c : Dev nD) (t : Fin (cfg10 a0).N) :
    (dat10 a0 Vin c).after 0 t = iblk10 a0 Vin c 0 t := by dsimp only [dat10]; rfl
theorem after10_1 (a0 : (pcfg10 (F := F)).Adm) (Vin : Dev nD → Valuation τ sig (Elt F)) (c : Dev nD) (t : Fin (cfg10 a0).N) :
    (dat10 a0 Vin c).after 1 t = (((cfg10 a0).win 1).blk t).view.read (Elt F) (gout10 a0 Vin c) := by dsimp only [dat10]; rfl
theorem Phi_eq10 (a0 : (pcfg10 (F := F)).Adm) (Vin : Dev nD → Valuation τ sig (Elt F)) (c : Dev nD) (t : Fin ((cfg10 a0).N + 1)) :
    (dat10 a0 Vin c).Φ t = Phi10 a0 Vin c := rfl
theorem owed_eq10 (a0 : (pcfg10 (F := F)).Adm) (Vin : Dev nD → Valuation τ sig (Elt F)) (c : Dev nD) (t : Fin ((cfg10 a0).N + 1)) :
    (dat10 a0 Vin c).owed t = 0 := rfl
theorem q_eq10 (a0 : (pcfg10 (F := F)).Adm) (Vin : Dev nD → Valuation τ sig (Elt F)) (c : Dev nD) (w : Fin (cfg10 a0).W) :
    (dat10 a0 Vin c).q w = fullShare := rfl

/-- The pinned family's configuration at region 10 is this one. -/
example (a : (p : Fin 34) → (pcfgs (F := F) p).Adm) : Pipeline.pin (pcfgs (F := F)) a (10 : Fin 34) = (pcfg10 (F := F)).at (a (10 : Fin 34)) := rfl

end Cert.Kernel.Hand

end
-- ==== Proof.K.GatherBody10.lean ====
/-
  Gather region 10 (custom_call 10): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat10
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk10 (c : Dev nD) (i : grid10.Coords) (tbl : Bf (F := F) c (Memref.whole main_v65)) : Prop where
  h1 : k10_chk1 (tblWord10 c i tbl 0)
  h2 : k10_chk2 (tblWord10 c i tbl 1)
  h3 : k10_chk3 (tblWord10 c i tbl 2)
  h4 : k10_chk4 (tblWord10 c i tbl 3)
  h5 : k10_chk5 (tblWord10 c i tbl 4)
  h6 : k10_chk6 (tblWord10 c i tbl 5)
  h7 : k10_chk7 (tblWord10 c i tbl 6)
  h8 : k10_chk8 (tblWord10 c i tbl 7)

/-- A one-row slice of the embedding array at the row a word names, read at lane `z 1`: the array's element there. -/
theorem rowRead10 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun10 (c : Dev nD) (i : grid10.Coords)
    (M3 : Memref sig .tc .vmem S8x1 .f32) (h3 : M3.IsWhole) (M4 : Memref sig .tc .vmem S8x128 .f32) (h4 : M4.IsWhole)
    (tbl : Bf (F := F) c (Memref.whole main_v65)) (x : Bf (F := F) c (Memref.whole main_arg0))
    (vb : Vec F S8x1 .f32) (hchk : GatherChk10 c i tbl) (Q : PUnit → sProp (MM F)) :
    iprop(pt c (Memref.whole main_v65) tbl ∗ pt c (Memref.whole main_arg0) x
      ∗ owns (c : Thread nD τ) M3 fullShare vb ∗ (∃ d, owns (c : Thread nD τ) M4 fullShare d)
      ∗ (∃ fs, pt c (Memref.whole cc10_scratch0) fs) ∗ sems10 c ∗ (∃ W, owes (c : Thread nD τ) (0 : CellTallies nD τ sig Unit) W)
      ∗ (iprop(pt c (Memref.whole main_v65) tbl ∗ pt c (Memref.whole main_arg0) x
          ∗ owns (c : Thread nD τ) M3 fullShare vb ∗ owns (c : Thread nD τ) M4 fullShare (gatherBlk x (tblWord10 c i tbl) vb)
          ∗ (∃ fs, pt c (Memref.whole cc10_scratch0) fs) ∗ sems10 c ∗ (∃ W, owes (c : Thread nD τ) (0 : CellTallies nD τ sig Unit) W)) -∗ Q ⟨⟩))
    ⊢ wp frame (wpE (defs₀ (F := F)) 𝒱₀ c none) Set.univ
        (cc10__gather_kernel i (Memref.whole main_v65) (Memref.isWhole_whole _) (Memref.whole main_arg0) (Memref.isWhole_whole _) M3 h3 M4 h4
          (Memref.whole cc10_scratch0) (Memref.isWhole_whole _) cc10_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 124).1 $$ Hx
  icases Hx' with ⟨Hxr, Hx0, Hx1, Hx2, Hx3, Hx4, Hx5, Hx6, Hx7⟩
  sl_unfold [cc10__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 124).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k10_pay1 gatherBlk
    show FloatOps.mulf _ _ = FloatOps.mulf _ _
    congr 1
    · unfold gatherRun10.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun10.sl.dma8 gatherRun10.sl.dma8_1 gatherRun10.sl.dma8_2 gatherRun10.sl.dma8_3 gatherRun10.sl.dma8_4 gatherRun10.sl.dma8_5
        gatherRun10.sl.dma8_6 gatherRun10.sl.dma8_7 gatherRun10.sl.r gatherRun10.sl.r_1 gatherRun10.sl.r_2 gatherRun10.sl.r_3 gatherRun10.sl.r_4
        gatherRun10.sl.r_5 gatherRun10.sl.r_6 gatherRun10.sl.r_7
      refine canonRows8 _ _ _ _ _ _ _ _ _ _ _ _ _ _ _ _ (fun r d => x (embIdx (rowOf (tblWord10 c i tbl r)) d)) ?_ ?_ ?_ ?_ ?_ ?_ ?_ ?_ y
      · exact fun z => rowRead10 c _ (tblWord10 c i tbl 0) rfl rfl _ _ x z
      · exact fun z => rowRead10 c _ (tblWord10 c i tbl 1) rfl rfl _ _ x z
      · exact fun z => rowRead10 c _ (tblWord10 c i tbl 2) rfl rfl _ _ x z
      · exact fun z => rowRead10 c _ (tblWord10 c i tbl 3) rfl rfl _ _ x z
      · exact fun z => rowRead10 c _ (tblWord10 c i tbl 4) rfl rfl _ _ x z
      · exact fun z => rowRead10 c _ (tblWord10 c i tbl 5) rfl rfl _ _ x z
      · exact fun z => rowRead10 c _ (tblWord10 c i tbl 6) rfl rfl _ _ x z
      · exact fun z => rowRead10 c _ (tblWord10 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk10.lean ====
/-
  Gather region 10 (custom_call 10): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat10
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word10 (i : grid10.Coords) (j : Fin 8) : k10_off1 i (BitVec.ofNat 32 j.val) 0 = (i 0).val * 8 + j.val := by
  have hi : (i 0).val < 16384 := (i 0).isLt
  have hj : j.val < 8 := j.isLt
  unfold k10_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word10 (i : grid10.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord10_eq (c : Dev nD) (i : grid10.Coords) (tbl : Bf (F := F) c (Memref.whole main_v65)) (j : Fin 8)
    (e : Fin 131072) (he : e.val = (i 0).val * 8 + j.val) : tblWord10 c i tbl j = tbl (tblIdx e) := by
  unfold tblWord10
  show tbl _ = tbl _
  refine congrArg tbl ?_
  funext a; apply Fin.ext
  match a with
  | ⟨0, _⟩ =>
    show k10_off1 i (BitVec.ofNat 32 j.val) 0 + 1 * 0 = e.val
    rw [off_word10, he]; omega

/-- Row `j` of the value window's block at point `t` is the value array's row `8 t + j`. -/
theorem valBlk10_eq (a0 : (pcfg10 (F := F)).Adm) (Vin : Dev nD → Valuation τ sig (Elt F)) (c : Dev nD) (t : Fin (cfg10 a0).N)
    (j : Fin 8) (e : Fin 131072) (he : e.val = ((grid10.coords t) 0).val * 8 + j.val) :
    iblk10 a0 Vin c 0 t (colIdx j) = Vr Vin c main_v66 (valIdx e) := by
  unfold iblk10
  show Vr Vin c main_v66 _ = Vr Vin c main_v66 _
  refine congrArg (Vr Vin c main_v66) ?_
  funext a; apply Fin.ext
  match a with
  | ⟨0, _⟩ =>
    show (BitVec.ofNat 32 ((grid10.coords t) 0).val).toNat * 8 + 1 * j.val = e.val
    rw [coord_word10, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk10 (a0 : (pcfg10 (F := F)).Adm) (Vin : Dev nD → Valuation τ sig (Elt F)) (c : Dev nD) (t : Fin (cfg10 a0).N) :
    gatherBlk (Vr Vin c main_arg0) (tblWord10 c (grid10.coords t) (a0.1 0)) (iblk10 a0 Vin c 0 t)
      = (((cfg10 a0).win 1).blk t).view.read (Elt F) (gout10 a0 Vin c) := by
  funext y
  show gatherBlk _ _ _ y = gout10 a0 Vin c ((((cfg10 a0).win 1).blk t).view.emb y)
  unfold gatherBlk gout10 gatherArr
  have e0 : ((((cfg10 a0).win 1).blk t).view.emb y (0 : Fin 2)).val = ((grid10.coords t) 0).val * 8 + (y 0).val := by
    show (BitVec.ofNat 32 ((grid10.coords t) 0).val).toNat * 8 + 1 * (y 0).val = _
    rw [coord_word10]; omega
  have e1 : (((cfg10 a0).win 1).blk t).view.emb y (1 : Fin 2) = y 1 := Fin.ext (by
    show (0#32 : BitVec 32).toNat * 128 + 1 * (y 1).val = (y 1).val
    show 0 * 128 + 1 * (y 1).val = (y 1).val
    omega)
  rw [tblWord10_eq c (grid10.coords t) (a0.1 0) (y 0) _ e0, valBlk10_eq a0 Vin c t (y 0) _ e0, e1]

end Cert.Kernel.Hand

end
-- ==== Proof.K.GatherRegion10.lean ====
/-
  Gather region 10 (custom_call 10): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody10
import proofs.«414509_j14181982011419_2_alg».proof.Proof.K.GatherBlk10
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk10 (a0 : (pcfg10 (F := F)).Adm) : Prop := ∀ e : S131072.Idx, (a0.1 0 e).toNat < 100000

/-! ## The grid and the result window's blocks -/

/-- On the one-axis grid a point's coordinate is its number. -/
theorem regCoords10 (t : Fin grid10.N) : (grid10.coords t 0).val = t.val := by
  have ht : t.val < 16384 := N_10 ▸ t.isLt
  show t.val / grid10.stride 0 % grid10.bound 0 = t.val
  rw [show grid10.stride 0 = 1 from by decide, show grid10.bound 0 = 16384 from rfl, Nat.div_one, Nat.mod_eq_of_lt ht]

/-- A point's number as the 32-bit word the index maps compute with. -/
theorem regWord10 (t : Fin grid10.N) : (BitVec.ofNat 32 (grid10.coords t 0).val).toNat = t.val := by
  have ht : t.val < 16384 := N_10 ▸ t.isLt
  rw [BitVec.toNat_ofNat, regCoords10]; omega

/-- The result window's block at point `t` is block `t` along the rows, at zero along the lanes. -/
theorem regOutIndex10 (a0 : (pcfg10 (F := F)).Adm) (t : Fin (cfg10 a0).N) : ((cfg10 a0).win 1).index t = ![t.val, 0] := by
  show cc10_transform_2 (grid10.coords t) = _
  unfold cc10_transform_2
  funext a; fin_cases a
  · exact regWord10 t
  · rfl

/-- The result window is written back at every point: consecutive points have different blocks. -/
theorem regOutFlush10 (a0 : (pcfg10 (F := F)).Adm) (t : Fin (cfg10 a0).N) : ((cfg10 a0).win 1).flush t = true := by
  have htN : t.val < 16384 := N_10 ▸ t.isLt
  rw [Pipeline.Window.flush_out _ rfl]
  by_cases h : t.val + 1 = 16384
  · exact Or.inl (show t.val + 1 = grid10.N by rw [N_10]; exact h)
  · have hlt : t.val + 1 < grid10.N := by rw [N_10]; omega
    refine Or.inr ⟨hlt, fun e => ?_⟩
    have e' : (![t.val + 1, 0] : Fin 2 → ℕ) = ![t.val, 0] := (regOutIndex10 a0 ⟨t.val + 1, hlt⟩).symm.trans (e.trans (regOutIndex10 a0 t))
    have e0 := congrFun e' 0
    simp at e0

/-- The index table, held as the pipeline's one prefetched table. -/
theorem prefHeldEq10 (a0 : (pcfg10 (F := F)).Adm) (c : Dev nD) :
    (Pipeline.prefHeld (Ix := Unit) (Name := ℕ) (U := UU nD τ) (Lvl := ℕ) pre10 c (fun _ => fullShare) a0.1 : sProp (MM F))
      = pt c (Memref.whole main_v65) (a0.1 0) := by
  unfold Pipeline.prefHeld
  rw [show (Finset.univ : Finset (Fin pre10.K)) = {0} from rfl, BI.bigSep_singleton]
  rfl

/-- The value window's staging buffer holds its block at every point. -/
theorem beforeVal10 (a0 : (pcfg10 (F := F)).Adm) (Vin : Dev nD → Valuation τ sig (Elt F)) (c : Dev nD) (t : Fin (cfg10 a0).N) (d) :
    (dat10 a0 Vin c).before 0 t d = iblk10 a0 Vin c 0 t :=
  ((dat10 a0 Vin c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)

/-! ## The kernel's checks, from the table's range -/

/-- Each of the point's eight words is a word of the table, so a row number. -/
theorem tblWordLt10 (a0 : (pcfg10 (F := F)).Adm) (hok : GatherOk10 a0) (c : Dev nD) (i : grid10.Coords) (j : Fin 8) :
    (tblWord10 c i (a0.1 0) j).toNat < 100000 := by
  unfold tblWord10
  exact hok _

/-- So the kernel's eight checks hold at every point. -/
theorem gatherChk10 (a0 : (pcfg10 (F := F)).Adm) (hok : GatherOk10 a0) (c : Dev nD) (i : grid10.Coords) : GatherChk10 c i (a0.1 0) :=
  ⟨⟨chkRow _ (tblWordLt10 a0 hok c i 0), chkRow _ (tblWordLt10 a0 hok c i 0)⟩,
   ⟨chkRow _ (tblWordLt10 a0 hok c i 1), chkRow _ (tblWordLt10 a0 hok c i 1)⟩,
   ⟨chkRow _ (tblWordLt10 a0 hok c i 2), chkRow _ (tblWordLt10 a0 hok c i 2)⟩,
   ⟨chkRow _ (tblWordLt10 a0 hok c i 3), chkRow _ (tblWordLt10 a0 hok c i 3)⟩,
   ⟨chkRow _ (tblWordLt10 a0 hok c i 4), chkRow _ (tblWordLt10 a0 hok c i 4)⟩,
   ⟨chkRow _ (tblWordLt10 a0 hok c i 5), chkRow _ (tblWordLt10 a0 hok c i 5)⟩,
   ⟨chkRow _ (tblWordLt10 a0 hok c i 6), chkRow _ (tblWordLt10 a0 hok c i 6)⟩,
   chkRow _ (tblWordLt10 a0 hok c i 7)⟩

/-! ## The body obligation, at a generic point -/

/-- What the body is called with at point `t`: the invariant, the core's dues, each window's current staging memref at
    what the pipeline left there, -/
def bodyPre10 (a0 : (pcfg10 (F := F)).Adm) (Vin : Dev nD → Valuation τ sig (Elt F)) (c : Dev nD) (t : Fin (cfg10 a0).N) : sProp (MM F) :=
  iprop((dat10 a0 Vin c).Φ t.castSucc ∗ (dat10 a0 Vin c).owesAt () t.castSucc
    ∗ (∃ d, owns (c : Thread nD τ) (((cfg10 a0).win 0).stage ((cfg10 a0).slots t 0)) fullShare ((dat10 a0 Vin c).before 0 t d))
    ∗ (∃ d, owns (c : Thread nD τ) (((cfg10 a0).win 1).stage ((cfg10 a0).slots t 1)) fullShare ((dat10 a0 Vin c).before 1 t d)))

/-- and what it returns. -/
def bodyPost10 (a0 : (pcfg10 (F := F)).Adm) (Vin : Dev nD → Valuation τ sig (Elt F)) (c : Dev nD) (t : Fin (cfg10 a0).N) : sProp (MM F) :=
  iprop((dat10 a0 Vin c).Φ t.succ ∗ (dat10 a0 Vin c).owesAt () t.succ
    ∗ owns (c : Thread nD τ) (((cfg10 a0).win 0).stage ((cfg10 a0).slots t 0)) fullShare ((dat10 a0 Vin c).after 0 t)
    ∗ owns (c : Thread nD τ) (((cfg10 a0).win 1).stage ((cfg10 a0).slots t 1)) fullShare ((dat10 a0 Vin c).after 1 t))

/-- The body at any point: the invariant opened into the embedding array, the semaphores, the table and the scratch;
    the value window's memref at its block; the checks from the table's range; so the kernel's run applies, and what it
    leaves in the result window's memref is the point's block of the gathered array. -/
theorem sound_body10 (a0 : (pcfg10 (F := F)).Adm) (hok : GatherOk10 a0) (Vin : Dev nD → Valuation τ sig (Elt F)) (c : Dev nD) (t : Fin (cfg10 a0).N) :
    bodyPre10 a0 Vin c t ⊢ wp frame (wpE (defs₀ (F := F)) 𝒱₀ c none) Set.univ
      (defs₀ .tc (cfg10 a0).body ((cfg10 a0).bodyArgs t ((cfg10 a0).slots t))) (fun _ => bodyPost10 a0 Vin c t) := by
  unfold bodyPre10 bodyPost10
  simp only [beforeVal10]
  rw [Phi_eq10, Phi_eq10, after10_0, after10_1, ← gatherBlk_blk10]
  unfold Phi10 Pipeline.Dat.owesAt Pipeline.owesWithin
  rw [owed_eq10, owed_eq10, prefHeldEq10, scopedRest10_split]
  iintro ⟨⟨Hx, Hos, Ht, ⟨%fs, Hs⟩, Hsb⟩, ⟨%W, %hW, HO⟩, ⟨%d0, H0⟩, ⟨%d1, H1⟩⟩
  iapply (gatherRun10 c (grid10.coords t) _ _ _ _ (a0.1 0) (Vr Vin c main_arg0) (iblk10 a0 Vin c 0 t) (gatherChk10 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation10 (a0 : (pcfg10 (F := F)).Adm) (hok : GatherOk10 a0) (Vin : Dev nD → Valuation τ sig (Elt F)) (c : Dev nD) :
    BodyObligation (dat10 a0 Vin c) (defs₀ (F := F)) 𝒱₀ () Set.univ := fun t => by
  rw [bigSep_W10, bigSep_W10]
  exact sound_body10 a0 hok Vin c t

/-! ## From the blocks to the arrays -/

/-- The value array after the region: as entered. -/
theorem arrAt10_in (a0 : (pcfg10 (F := F)).Adm) (Vin : Dev nD → Valuation τ sig (Elt F)) (c : Dev nD) :
    (dat10 a0 Vin c).arrAt 0 (cfg10 a0).N = Vr Vin c main_v66 :=
  ((dat10 a0 Vin c).arrAt_in 0 rfl _).trans (A_eq10 a0 Vin c 0)

/-- Every index of the result array is in some point's block: row `e`, lane `d` is element `(e % 8, d)` of the block
    of point `e / 8`. -/
theorem regOutCover10 (a0 : (pcfg10 (F := F)).Adm) (i : S131072x128.Idx) :
    ∃ t : Fin (cfg10 a0).N, ((cfg10 a0).win 1).flush t = true ∧ i ∈ (((cfg10 a0).win 1).blk t).view.set := by
  have hi0 : (i 0).val < 131072 := (i 0).isLt
  have hi1 : (i 1).val < 128 := (i 1).isLt
  have hN : (i 0).val / 8 < grid10.N := by rw [N_10]; omega
  obtain ⟨t, ht⟩ : ∃ t : Fin (cfg10 a0).N, t.val = (i 0).val / 8 := ⟨⟨_, hN⟩, rfl⟩
  have hx : (((cfg10 a0).win 1).blk t).view.emb (ValueIdx.ix2 ⟨(i 0).val % 8, Nat.mod_lt _ (by decide)⟩ (i 1)) = i := by
    funext a; apply Fin.ext
    have e0 : ((cfg10 a0).win 1).index t (0 : Fin 2) = t.val := congrFun (regOutIndex10 a0 t) (0 : Fin 2)
    have e1 : ((cfg10 a0).win 1).index t (1 : Fin 2) = 0 := congrFun (regOutIndex10 a0 t) (1 : Fin 2)
    match a with
    | ⟨0, _⟩ => show ((cfg10 a0).win 1).index t (0 : Fin 2) * 8 + 1 * ((i 0).val % 8) = (i 0).val; omega
    | ⟨1, _⟩ => show ((cfg10 a0).win 1).index t (1 : Fin 2) * 128 + 1 * (i 1).val = (i 1).val; omega
  exact ⟨t, regOutFlush10 a0 t, hx ▸ (((cfg10 a0).win 1).blk t).view.emb_mem_set _⟩

/-- The result array after the region: the gathered and scaled rows, whole. -/
theorem arrAt10_out (a0 : (pcfg10 (F := F)).Adm) (Vin : Dev nD → Valuation τ sig (Elt F)) (c : Dev nD) :
    (dat10 a0 Vin c).arrAt 1 (cfg10 a0).N = gout10 a0 Vin c :=
  (dat10 a0 Vin c).arrAt_eq_of_cover 1 (gout10 a0 Vin c)
    (fun t _ => by
      show ((cfg10 a0).win 1).cut ((cfg10 a0).grid.coords t) ((dat10 a0 Vin c).after 1 t) = _
      rw [after10_1])
    (regOutCover10 a0)

/-! ## The region as a segment of @main -/

/-- The ownership layout of the kernel's eight semaphores. -/
theorem ownSemFacts10 : Pipeline.OwnSemFacts spec10 osem10 := by decide

/-- The kernel's own cells at zero, listed. -/
theorem ownSemsListed10 (c : Dev nD) :
    (Pipeline.ownSems0 (Ix := Unit) (Name := ℕ) (U := UU nD τ) (Lvl := ℕ) (Val := Elt F) (τ := τ) osem10 c : sProp (MM F)) = sems10 c :=
  Pipeline.ownSems0_eq_of_list c osem10 [0, 1, 2, 3, 4, 5, 6, 7] (by decide) (by decide)

/-- The unscoped buffers that are no window's array, no table, and not the embedding array. -/
abbrev restRefs10 : Finset (Ref sig .tc) :=
  (((Finset.univ.filter fun b : Ref sig .tc => ¬ b.isScoped) \ Finset.univ.image (Pipeline.arrRef spec10)) \ Finset.univ.image pre10.ref) \ {main_arg0}

/-- Those buffers, each whole at its contents under `Vin`: what bypasses the region. -/
def Zrest10 (Vin : Dev nD → Valuation τ sig (Elt F)) (c : Dev nD) : sProp (MM F) :=
  bigSep restRefs10 fun b => ((c : Thread nD τ).loc b) ↦{fullShare} Vr Vin c b

/-- The embedding array is an unscoped buffer that is no window's array and no table. -/
theorem embArrMem10 : ({main_arg0} : Finset (Ref sig .tc)) ⊆
    ((Finset.univ.filter fun b : Ref sig .tc => ¬ b.isScoped) \ Finset.univ.image (Pipeline.arrRef spec10)) \ Finset.univ.image pre10.ref := by
  decide

/-- The unscoped buffers that are no window's array: the index table, the embedding array, and the rest. -/
theorem unscopedRestOpen10 (Vin : Dev nD → Valuation τ sig (Elt F)) (c : Dev nD) :
    (Pipeline.unscopedRest (Ix := Unit) (Name := ℕ) (U := UU nD τ) (Lvl := ℕ) spec10 c (Vr Vin c) : sProp (MM F))
      = iprop(Pipeline.prefHeld pre10 c (fun _ => fullShare) (fun k => Vr Vin c (pre10.ref k))
          ∗ pt c (Memref.whole main_arg0) (Vr Vin c main_arg0) ∗ Zrest10 Vin c) := by
  rw [Pipeline.unscopedRest_split preFacts10 c (Vr Vin c)]
  unfold Pipeline.unscopedRestP Zrest10
  rw [BI.bigSep_sdiff_split embArrMem10, BI.bigSep_singleton]
  rfl

/-- The buffer contents when the region is left: the result array at the gathered rows, every other buffer as entered. -/
abbrev Vout10 (a0 : (pcfg10 (F := F)).Adm) (Vin : Dev nD → Valuation τ sig (Elt F)) (c : Dev nD) : Valuation τ sig (Elt F) :=
  Function.update (Vin c) main_v67 (gout10 a0 Vin c)

/-- At the exit each of the region's arrays holds what the pipeline leaves; -/
theorem hF10 (a0 : (pcfg10 (F := F)).Adm) (Vin : Dev nD → Valuation τ sig (Elt F)) (c : Dev nD) (w : Fin (cfg10 a0).W) :
    (dat10 a0 Vin c).arrAt w (cfg10 a0).N = Vr (Vout10 a0 Vin) c (Pipeline.arrRef spec10 w) := by
  match w with
  | ⟨0, _⟩ =>
    show (dat10 a0 Vin c).arrAt 0 (cfg10 a0).N = Vr (Vout10 a0 Vin) c (Pipeline.arrRef spec10 0)
    rw [arrAt10_in]
    exact (Function.update_of_ne (StableHlo.devRef_ne_of_ne (by decide) : (Proc.devRef .tc main_v66 : DevRef τ sig) ≠ Proc.devRef .tc main_v67) _ _).symm
  | ⟨1, _⟩ =>
    show (dat10 a0 Vin c).arrAt 1 (cfg10 a0).N = Vr (Vout10 a0 Vin) c (Pipeline.arrRef spec10 1)
    rw [arrAt10_out]
    exact (Function.update_self (Proc.devRef .tc main_v67 : DevRef τ sig) _ (Vin c)).symm

/-- and every other buffer what it held at entry. -/
theorem hrest10 (a0 : (pcfg10 (F := F)).Adm) (Vin : Dev nD → Valuation τ sig (Elt F)) (c : Dev nD) :
    ∀ b : Ref sig .tc, b ∉ Finset.univ.image (Pipeline.arrRef spec10) → Vr (Vout10 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat10` at the entry valuation `Vin`
    (`hd`), the index table's contents under `Vin` being the pinned ones (`htbl`) and row numbers (`hok`). -/
def reg10 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk10 (F := F) (a (10 : Fin 34)))
    (hd : ∀ c, pdats (10 : Fin 34) c = dat10 (a (10 : Fin 34)) Vin c) (htbl : ∀ c, (a (10 : Fin 34)).1 = fun k => Vr Vin c (pre10.ref k)) :
    Pipeline.RegionSeg (pcfgs (F := F)) a pdats () defs₀ 𝒱₀ L lv (10 : Fin 34) where
  win := (launch10 (F := F)).win.to₀
  block_pos := (launch10 (F := F)).block_pos
  stage_whole := (launch10 (F := F)).stage_whole
  K := Fin 8
  osem := osem10
  ho := ownSemFacts10
  hbody c := by rw [hd c]; exact (body_obligation10 (a (10 : Fin 34)) hok Vin c).loose
  hwaits := Pipeline.hwaits_of_owed_zero _ _ _ _ L lv (10 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v67 (gout10 (a (10 : Fin 34)) Vin c)) ∗ Rest c)
  X c := iprop(pt c (Memref.whole main_arg0) (Vr Vin c main_arg0) ∗ sems10 c)
  Y c := iprop(pt c (Memref.whole main_arg0) (Vr Vin c main_arg0)
    ∗ Pipeline.prefHeld (Ix := Unit) (Name := ℕ) (U := UU nD τ) (Lvl := ℕ) pre10 c (fun _ => fullShare) (a (10 : Fin 34)).1)
  Z c := Zrest10 Vin c
  hentry c := by
    rw [ownSemsListed10]
    have hsplit := Pipeline.arrays_of_unscopedBufs (p := (10 : Fin 34)) (pcfgs (F := F)) a pdats (launch10 (F := F)).win (launch10 (F := F)).arr_whole c
      ((pdats (10 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen10 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (10 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq10]; unfold Phi10
    iintro ⟨⟨Hx, Hos⟩, Ht, Hr⟩
    isplitl [Hx]; · iexact Hx
    isplitl [Hos]; · iexact Hos
    isplitl [Ht]; · iexact Ht
    iexact Hr
  hout c := by
    rw [ownSemsListed10, hd c, Phi_eq10]; unfold Phi10
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (10 : Fin 34)) (pcfgs (F := F)) a (Ix := Unit) (Name := ℕ) (U := UU nD τ) (Lvl := ℕ)
      (launch10 (F := F)).win (launch10 (F := F)).arr_whole c pdats ((pdats (10 : Fin 34) c).share_full fun _ => by rw [hd c]; rfl)
      (Vr Vin c) (Vr (Vout10 (a (10 : Fin 34)) Vin) c) ((pdats (10 : Fin 34) c).arrAt · (cfg10 (a (10 : Fin 34))).N)
      (fun w => by rw [hd c]; exact hF10 (a (10 : Fin 34)) Vin c w) (hrest10 (a (10 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen10 Vin c).symm)
      isplitl [Ht]; · rw [← htbl c]; iexact Ht
      isplitl [Hx]; · iexact Hx
      iexact Hz
    unfold Pipeline.Dat.owesAt Pipeline.owesWithin
    rw [show (pdats (10 : Fin 34) c).owed (Fin.last _) = 0 from by rw [hd c]; rfl]
    icases HO with ⟨%W, -, HO⟩; iexists W; iexact HO

end Cert.Kernel.Hand

end
-- ==== Proof.K.GatherDat11.lean ====
/-
  Gather region 11 (custom_call 11): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem11 : Fin 8 → SemLoc sig := fun | 0 => .dma 136 | 1 => .dma 137 | 2 => .dma 138 | 3 => .dma 139 | 4 => .dma 140 | 5 => .dma 141 | 6 => .dma 142 | 7 => .dma 143

/-- The eight counters at zero, as the run finds them and hands them back. -/
abbrev sems11 (c : Dev nD) : sProp (MM F) :=
  iprop(semVal ((c : Thread nD τ), osem11 0) 0 ∗ semVal ((c : Thread nD τ), osem11 1) 0 ∗ semVal ((c : Thread nD τ), osem11 2) 0
    ∗ semVal ((c : Thread nD τ), osem11 3) 0 ∗ semVal ((c : Thread nD τ), osem11 4) 0 ∗ semVal ((c : Thread nD τ), osem11 5) 0
    ∗ semVal ((c : Thread nD τ), osem11 6) 0 ∗ semVal ((c : Thread nD τ), osem11 7) 0)

/-- Word `j` of the eight the index table holds for point `i`, as the kernel's scalar load reads it. -/
def tblWord11 (c : Dev nD) (i : grid11.Coords) (tbl : Bf (F := F) c (Memref.whole main_v68)) (j : Fin 8) : BitVec 32 :=
  (Memref.whole main_v68).view.readAt (Elt F) (Rect.unit (s := S131072) (k11_off1 i (BitVec.ofNat 32 j.val)) S1.size (k11_off1_inb i j)).toLoadRect tbl
    (Shape.Idx.first (s := S1) (numel1_S1.symm ▸ Nat.one_pos))

/-- Window `w`'s block at point `t`, read off its array at the region's entry. -/
def iblk11 (a0 : (pcfg11 (F := F)).Adm) (Vin : Dev nD → Valuation τ sig (Elt F)) (c : Dev nD) (w : Fin (cfg11 a0).W) (t : Fin (cfg11 a0).N) :
    (((cfg11 a0).win w).xblock ((cfg11 a0).grid.coords t)).Idx → Elt F ((cfg11 a0).win w).elt :=
  (((cfg11 a0).win w).blk t).view.read (Elt F) (Vr Vin c (Pipeline.arrRef spec11 w))

/-- The result array the region leaves: the gathered and scaled rows of the embedding array, whole. -/
def gout11 (a0 : (pcfg11 (F := F)).Adm) (Vin : Dev nD → Valuation τ sig (Elt F)) (c : Dev nD) : Buf (Elt F) ((c : Thread nD τ).loc main_v70) :=
  gatherArr (Vr Vin c main_arg0) (a0.1 0) (Vr Vin c main_v69)

/-- The invariant between points: the embedding array as entered, the kernel's semaphores at zero, the index table, the
    scoped buffers no window stages (the kernel's scratch among them). -/
def Phi11 (a0 : (pcfg11 (F := F)).Adm) (Vin : Dev nD → Valuation τ sig (Elt F)) (c : Dev nD) : sProp (MM F) :=
  iprop(pt c (Memref.whole main_arg0) (Vr Vin c main_arg0) ∗ sems11 c
    ∗ Pipeline.prefHeld (Ix := Unit) (Name := ℕ) (U := UU nD τ) (Lvl := ℕ) pre11 c (fun _ => fullShare) a0.1
    ∗ Pipeline.scopedRest (Ix := Unit) (Name := ℕ) (U := UU nD τ) (Lvl := ℕ) (Val := Elt F) spec11 c)

/-- The proof data on core `c`. -/
def dat11 (a0 : (pcfg11 (F := F)).Adm) (Vin : Dev nD → Valuation τ sig (Elt F)) (c : Dev nD) :
    Pipeline.Dat τ (Elt F) Unit ℕ (UU nD τ) ℕ ((pcfg11 (F := F)).at a0) c where
  A w := Vr Vin c (Pipeline.arrRef spec11 w)
  after w t := match w with
    | ⟨0, _⟩ => iblk11 a0 Vin c 0 t
    | ⟨1, _⟩ => (((cfg11 a0).win 1).blk t).view.read (Elt F) (gout11 a0 Vin c)
  Φ _ := Phi11 a0 Vin c
  q _ := fullShare
  owed _ := 0

theorem A_eq11 (a0 : (pcfg11 (F := F)).Adm) (Vin : Dev nD → Valuation τ sig (Elt F)) (c : Dev nD) (w : Fin (cfg11 a0).W) :
    (dat11 a0 Vin c).A w = Vr Vin c (Pipeline.arrRef spec11 w) := by dsimp only [dat11]
theorem after11_0 (a0 : (pcfg11 (F := F)).Adm) (Vin : Dev nD → Valuation τ sig (Elt F)) (c : Dev nD) (t : Fin (cfg11 a0).N) :
    (dat11 a0 Vin c).after 0 t = iblk11 a0 Vin c 0 t := by dsimp only [dat11]; rfl
theorem after11_1 (a0 : (pcfg11 (F := F)).Adm) (Vin : Dev nD → Valuation τ sig (Elt F)) (c : Dev nD) (t : Fin (cfg11 a0).N) :
    (dat11 a0 Vin c).after 1 t = (((cfg11 a0).win 1).blk t).view.read (Elt F) (gout11 a0 Vin c) := by dsimp only [dat11]; rfl
theorem Phi_eq11 (a0 : (pcfg11 (F := F)).Adm) (Vin : Dev nD → Valuation τ sig (Elt F)) (c : Dev nD) (t : Fin ((cfg11 a0).N + 1)) :
    (dat11 a0 Vin c).Φ t = Phi11 a0 Vin c := rfl
theorem owed_eq11 (a0 : (pcfg11 (F := F)).Adm) (Vin : Dev nD → Valuation τ sig (Elt F)) (c : Dev nD) (t : Fin ((cfg11 a0).N + 1)) :
    (dat11 a0 Vin c).owed t = 0 := rfl
theorem q_eq11 (a0 : (pcfg11 (F := F)).Adm) (Vin : Dev nD → Valuation τ sig (Elt F)) (c : Dev nD) (w : Fin (cfg11 a0).W) :
    (dat11 a0 Vin c).q w = fullShare := rfl

/-- The pinned family's configuration at region 11 is this one. -/
example (a : (p : Fin 34) → (pcfgs (F := F) p).Adm) : Pipeline.pin (pcfgs (F := F)) a (11 : Fin 34) = (pcfg11 (F := F)).at (a (11 : Fin 34)) := rfl

end Cert.Kernel.Hand

end
-- ==== Proof.K.GatherBody11.lean ====
/-
  Gather region 11 (custom_call 11): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat11
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk11 (c : Dev nD) (i : grid11.Coords) (tbl : Bf (F := F) c (Memref.whole main_v68)) : Prop where
  h1 : k11_chk1 (tblWord11 c i tbl 0)
  h2 : k11_chk2 (tblWord11 c i tbl 1)
  h3 : k11_chk3 (tblWord11 c i tbl 2)
  h4 : k11_chk4 (tblWord11 c i tbl 3)
  h5 : k11_chk5 (tblWord11 c i tbl 4)
  h6 : k11_chk6 (tblWord11 c i tbl 5)
  h7 : k11_chk7 (tblWord11 c i tbl 6)
  h8 : k11_chk8 (tblWord11 c i tbl 7)

/-- A one-row slice of the embedding array at the row a word names, read at lane `z 1`: the array's element there. -/
theorem rowRead11 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun11 (c : Dev nD) (i : grid11.Coords)
    (M3 : Memref sig .tc .vmem S8x1 .f32) (h3 : M3.IsWhole) (M4 : Memref sig .tc .vmem S8x128 .f32) (h4 : M4.IsWhole)
    (tbl : Bf (F := F) c (Memref.whole main_v68)) (x : Bf (F := F) c (Memref.whole main_arg0))
    (vb : Vec F S8x1 .f32) (hchk : GatherChk11 c i tbl) (Q : PUnit → sProp (MM F)) :
    iprop(pt c (Memref.whole main_v68) tbl ∗ pt c (Memref.whole main_arg0) x
      ∗ owns (c : Thread nD τ) M3 fullShare vb ∗ (∃ d, owns (c : Thread nD τ) M4 fullShare d)
      ∗ (∃ fs, pt c (Memref.whole cc11_scratch0) fs) ∗ sems11 c ∗ (∃ W, owes (c : Thread nD τ) (0 : CellTallies nD τ sig Unit) W)
      ∗ (iprop(pt c (Memref.whole main_v68) tbl ∗ pt c (Memref.whole main_arg0) x
          ∗ owns (c : Thread nD τ) M3 fullShare vb ∗ owns (c : Thread nD τ) M4 fullShare (gatherBlk x (tblWord11 c i tbl) vb)
          ∗ (∃ fs, pt c (Memref.whole cc11_scratch0) fs) ∗ sems11 c ∗ (∃ W, owes (c : Thread nD τ) (0 : CellTallies nD τ sig Unit) W)) -∗ Q ⟨⟩))
    ⊢ wp frame (wpE (defs₀ (F := F)) 𝒱₀ c none) Set.univ
        (cc11__gather_kernel i (Memref.whole main_v68) (Memref.isWhole_whole _) (Memref.whole main_arg0) (Memref.isWhole_whole _) M3 h3 M4 h4
          (Memref.whole cc11_scratch0) (Memref.isWhole_whole _) cc11_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 136).1 $$ Hx
  icases Hx' with ⟨Hxr, Hx0, Hx1, Hx2, Hx3, Hx4, Hx5, Hx6, Hx7⟩
  sl_unfold [cc11__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 136).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k11_pay1 gatherBlk
    show FloatOps.mulf _ _ = FloatOps.mulf _ _
    congr 1
    · unfold gatherRun11.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun11.sl.dma8 gatherRun11.sl.dma8_1 gatherRun11.sl.dma8_2 gatherRun11.sl.dma8_3 gatherRun11.sl.dma8_4 gatherRun11.sl.dma8_5
        gatherRun11.sl.dma8_6 gatherRun11.sl.dma8_7 gatherRun11.sl.r gatherRun11.sl.r_1 gatherRun11.sl.r_2 gatherRun11.sl.r_3 gatherRun11.sl.r_4
        gatherRun11.sl.r_5 gatherRun11.sl.r_6 gatherRun11.sl.r_7
      refine canonRows8 _ _ _ _ _ _ _ _ _ _ _ _ _ _ _ _ (fun r d => x (embIdx (rowOf (tblWord11 c i tbl r)) d)) ?_ ?_ ?_ ?_ ?_ ?_ ?_ ?_ y
      · exact fun z => rowRead11 c _ (tblWord11 c i tbl 0) rfl rfl _ _ x z
      · exact fun z => rowRead11 c _ (tblWord11 c i tbl 1) rfl rfl _ _ x z
      · exact fun z => rowRead11 c _ (tblWord11 c i tbl 2) rfl rfl _ _ x z
      · exact fun z => rowRead11 c _ (tblWord11 c i tbl 3) rfl rfl _ _ x z
      · exact fun z => rowRead11 c _ (tblWord11 c i tbl 4) rfl rfl _ _ x z
      · exact fun z => rowRead11 c _ (tblWord11 c i tbl 5) rfl rfl _ _ x z
      · exact fun z => rowRead11 c _ (tblWord11 c i tbl 6) rfl rfl _ _ x z
      · exact fun z => rowRead11 c _ (tblWord11 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk11.lean ====
/-
  Gather region 11 (custom_call 11): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat11
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word11 (i : grid11.Coords) (j : Fin 8) : k11_off1 i (BitVec.ofNat 32 j.val) 0 = (i 0).val * 8 + j.val := by
  have hi : (i 0).val < 16384 := (i 0).isLt
  have hj : j.val < 8 := j.isLt
  unfold k11_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word11 (i : grid11.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord11_eq (c : Dev nD) (i : grid11.Coords) (tbl : Bf (F := F) c (Memref.whole main_v68)) (j : Fin 8)
    (e : Fin 131072) (he : e.val = (i 0).val * 8 + j.val) : tblWord11 c i tbl j = tbl (tblIdx e) := by
  unfold tblWord11
  show tbl _ = tbl _
  refine congrArg tbl ?_
  funext a; apply Fin.ext
  match a with
  | ⟨0, _⟩ =>
    show k11_off1 i (BitVec.ofNat 32 j.val) 0 + 1 * 0 = e.val
    rw [off_word11, he]; omega

/-- Row `j` of the value window's block at point `t` is the value array's row `8 t + j`. -/
theorem valBlk11_eq (a0 : (pcfg11 (F := F)).Adm) (Vin : Dev nD → Valuation τ sig (Elt F)) (c : Dev nD) (t : Fin (cfg11 a0).N)
    (j : Fin 8) (e : Fin 131072) (he : e.val = ((grid11.coords t) 0).val * 8 + j.val) :
    iblk11 a0 Vin c 0 t (colIdx j) = Vr Vin c main_v69 (valIdx e) := by
  unfold iblk11
  show Vr Vin c main_v69 _ = Vr Vin c main_v69 _
  refine congrArg (Vr Vin c main_v69) ?_
  funext a; apply Fin.ext
  match a with
  | ⟨0, _⟩ =>
    show (BitVec.ofNat 32 ((grid11.coords t) 0).val).toNat * 8 + 1 * j.val = e.val
    rw [coord_word11, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk11 (a0 : (pcfg11 (F := F)).Adm) (Vin : Dev nD → Valuation τ sig (Elt F)) (c : Dev nD) (t : Fin (cfg11 a0).N) :
    gatherBlk (Vr Vin c main_arg0) (tblWord11 c (grid11.coords t) (a0.1 0)) (iblk11 a0 Vin c 0 t)
      = (((cfg11 a0).win 1).blk t).view.read (Elt F) (gout11 a0 Vin c) := by
  funext y
  show gatherBlk _ _ _ y = gout11 a0 Vin c ((((cfg11 a0).win 1).blk t).view.emb y)
  unfold gatherBlk gout11 gatherArr
  have e0 : ((((cfg11 a0).win 1).blk t).view.emb y (0 : Fin 2)).val = ((grid11.coords t) 0).val * 8 + (y 0).val := by
    show (BitVec.ofNat 32 ((grid11.coords t) 0).val).toNat * 8 + 1 * (y 0).val = _
    rw [coord_word11]; omega
  have e1 : (((cfg11 a0).win 1).blk t).view.emb y (1 : Fin 2) = y 1 := Fin.ext (by
    show (0#32 : BitVec 32).toNat * 128 + 1 * (y 1).val = (y 1).val
    show 0 * 128 + 1 * (y 1).val = (y 1).val
    omega)
  rw [tblWord11_eq c (grid11.coords t) (a0.1 0) (y 0) _ e0, valBlk11_eq a0 Vin c t (y 0) _ e0, e1]

end Cert.Kernel.Hand

end
-- ==== Proof.K.GatherRegion11.lean ====
/-
  Gather region 11 (custom_call 11): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody11
import proofs.«414509_j14181982011419_2_alg».proof.Proof.K.GatherBlk11
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk11 (a0 : (pcfg11 (F := F)).Adm) : Prop := ∀ e : S131072.Idx, (a0.1 0 e).toNat < 100000

/-! ## The grid and the result window's blocks -/

/-- On the one-axis grid a point's coordinate is its number. -/
theorem regCoords11 (t : Fin grid11.N) : (grid11.coords t 0).val = t.val := by
  have ht : t.val < 16384 := N_11 ▸ t.isLt
  show t.val / grid11.stride 0 % grid11.bound 0 = t.val
  rw [show grid11.stride 0 = 1 from by decide, show grid11.bound 0 = 16384 from rfl, Nat.div_one, Nat.mod_eq_of_lt ht]

/-- A point's number as the 32-bit word the index maps compute with. -/
theorem regWord11 (t : Fin grid11.N) : (BitVec.ofNat 32 (grid11.coords t 0).val).toNat = t.val := by
  have ht : t.val < 16384 := N_11 ▸ t.isLt
  rw [BitVec.toNat_ofNat, regCoords11]; omega

/-- The result window's block at point `t` is block `t` along the rows, at zero along the lanes. -/
theorem regOutIndex11 (a0 : (pcfg11 (F := F)).Adm) (t : Fin (cfg11 a0).N) : ((cfg11 a0).win 1).index t = ![t.val, 0] := by
  show cc11_transform_2 (grid11.coords t) = _
  unfold cc11_transform_2
  funext a; fin_cases a
  · exact regWord11 t
  · rfl

/-- The result window is written back at every point: consecutive points have different blocks. -/
theorem regOutFlush11 (a0 : (pcfg11 (F := F)).Adm) (t : Fin (cfg11 a0).N) : ((cfg11 a0).win 1).flush t = true := by
  have htN : t.val < 16384 := N_11 ▸ t.isLt
  rw [Pipeline.Window.flush_out _ rfl]
  by_cases h : t.val + 1 = 16384
  · exact Or.inl (show t.val + 1 = grid11.N by rw [N_11]; exact h)
  · have hlt : t.val + 1 < grid11.N := by rw [N_11]; omega
    refine Or.inr ⟨hlt, fun e => ?_⟩
    have e' : (![t.val + 1, 0] : Fin 2 → ℕ) = ![t.val, 0] := (regOutIndex11 a0 ⟨t.val + 1, hlt⟩).symm.trans (e.trans (regOutIndex11 a0 t))
    have e0 := congrFun e' 0
    simp at e0

/-- The index table, held as the pipeline's one prefetched table. -/
theorem prefHeldEq11 (a0 : (pcfg11 (F := F)).Adm) (c : Dev nD) :
    (Pipeline.prefHeld (Ix := Unit) (Name := ℕ) (U := UU nD τ) (Lvl := ℕ) pre11 c (fun _ => fullShare) a0.1 : sProp (MM F))
      = pt c (Memref.whole main_v68) (a0.1 0) := by
  unfold Pipeline.prefHeld
  rw [show (Finset.univ : Finset (Fin pre11.K)) = {0} from rfl, BI.bigSep_singleton]
  rfl

/-- The value window's staging buffer holds its block at every point. -/
theorem beforeVal11 (a0 : (pcfg11 (F := F)).Adm) (Vin : Dev nD → Valuation τ sig (Elt F)) (c : Dev nD) (t : Fin (cfg11 a0).N) (d) :
    (dat11 a0 Vin c).before 0 t d = iblk11 a0 Vin c 0 t :=
  ((dat11 a0 Vin c).before_in_eq_fetched 0 rfl (fun _ => rfl) (fun _ _ _ => rfl)
    (fun t => by rw [after11_0]; unfold Dat.blockOf iblk11; rw [A_eq11]; try rfl) t d).trans
    (by unfold Dat.fetched Dat.blockOf iblk11; rw [A_eq11]; try rfl)

/-! ## The kernel's checks, from the table's range -/

/-- Each of the point's eight words is a word of the table, so a row number. -/
theorem tblWordLt11 (a0 : (pcfg11 (F := F)).Adm) (hok : GatherOk11 a0) (c : Dev nD) (i : grid11.Coords) (j : Fin 8) :
    (tblWord11 c i (a0.1 0) j).toNat < 100000 := by
  unfold tblWord11
  exact hok _

/-- So the kernel's eight checks hold at every point. -/
theorem gatherChk11 (a0 : (pcfg11 (F := F)).Adm) (hok : GatherOk11 a0) (c : Dev nD) (i : grid11.Coords) : GatherChk11 c i (a0.1 0) :=
  ⟨⟨chkRow _ (tblWordLt11 a0 hok c i 0), chkRow _ (tblWordLt11 a0 hok c i 0)⟩,
   ⟨chkRow _ (tblWordLt11 a0 hok c i 1), chkRow _ (tblWordLt11 a0 hok c i 1)⟩,
   ⟨chkRow _ (tblWordLt11 a0 hok c i 2), chkRow _ (tblWordLt11 a0 hok c i 2)⟩,
   ⟨chkRow _ (tblWordLt11 a0 hok c i 3), chkRow _ (tblWordLt11 a0 hok c i 3)⟩,
   ⟨chkRow _ (tblWordLt11 a0 hok c i 4), chkRow _ (tblWordLt11 a0 hok c i 4)⟩,
   ⟨chkRow _ (tblWordLt11 a0 hok c i 5), chkRow _ (tblWordLt11 a0 hok c i 5)⟩,
   ⟨chkRow _ (tblWordLt11 a0 hok c i 6), chkRow _ (tblWordLt11 a0 hok c i 6)⟩,
   chkRow _ (tblWordLt11 a0 hok c i 7)⟩

/-! ## The body obligation, at a generic point -/

/-- What the body is called with at point `t`: the invariant, the core's dues, each window's current staging memref at
    what the pipeline left there, -/
def bodyPre11 (a0 : (pcfg11 (F := F)).Adm) (Vin : Dev nD → Valuation τ sig (Elt F)) (c : Dev nD) (t : Fin (cfg11 a0).N) : sProp (MM F) :=
  iprop((dat11 a0 Vin c).Φ t.castSucc ∗ (dat11 a0 Vin c).owesAt () t.castSucc
    ∗ (∃ d, owns (c : Thread nD τ) (((cfg11 a0).win 0).stage ((cfg11 a0).slots t 0)) fullShare ((dat11 a0 Vin c).before 0 t d))
    ∗ (∃ d, owns (c : Thread nD τ) (((cfg11 a0).win 1).stage ((cfg11 a0).slots t 1)) fullShare ((dat11 a0 Vin c).before 1 t d)))

/-- and what it returns. -/
def bodyPost11 (a0 : (pcfg11 (F := F)).Adm) (Vin : Dev nD → Valuation τ sig (Elt F)) (c : Dev nD) (t : Fin (cfg11 a0).N) : sProp (MM F) :=
  iprop((dat11 a0 Vin c).Φ t.succ ∗ (dat11 a0 Vin c).owesAt () t.succ
    ∗ owns (c : Thread nD τ) (((cfg11 a0).win 0).stage ((cfg11 a0).slots t 0)) fullShare ((dat11 a0 Vin c).after 0 t)
    ∗ owns (c : Thread nD τ) (((cfg11 a0).win 1).stage ((cfg11 a0).slots t 1)) fullShare ((dat11 a0 Vin c).after 1 t))

/-- The body at any point: the invariant opened into the embedding array, the semaphores, the table and the scratch;
    the value window's memref at its block; the checks from the table's range; so the kernel's run applies, and what it
    leaves in the result window's memref is the point's block of the gathered array. -/
theorem sound_body11 (a0 : (pcfg11 (F := F)).Adm) (hok : GatherOk11 a0) (Vin : Dev nD → Valuation τ sig (Elt F)) (c : Dev nD) (t : Fin (cfg11 a0).N) :
    bodyPre11 a0 Vin c t ⊢ wp frame (wpE (defs₀ (F := F)) 𝒱₀ c none) Set.univ
      (defs₀ .tc (cfg11 a0).body ((cfg11 a0).bodyArgs t ((cfg11 a0).slots t))) (fun _ => bodyPost11 a0 Vin c t) := by
  unfold bodyPre11 bodyPost11
  simp only [beforeVal11]
  rw [Phi_eq11, Phi_eq11, after11_0, after11_1, ← gatherBlk_blk11]
  unfold Phi11 Pipeline.Dat.owesAt Pipeline.owesWithin
  rw [owed_eq11, owed_eq11, prefHeldEq11, scopedRest11_split]
  iintro ⟨⟨Hx, Hos, Ht, ⟨%fs, Hs⟩, Hsb⟩, ⟨%W, %hW, HO⟩, ⟨%d0, H0⟩, ⟨%d1, H1⟩⟩
  iapply (gatherRun11 c (grid11.coords t) _ _ _ _ (a0.1 0) (Vr Vin c main_arg0) (iblk11 a0 Vin c 0 t) (gatherChk11 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation11 (a0 : (pcfg11 (F := F)).Adm) (hok : GatherOk11 a0) (Vin : Dev nD → Valuation τ sig (Elt F)) (c : Dev nD) :
    BodyObligation (dat11 a0 Vin c) (defs₀ (F := F)) 𝒱₀ () Set.univ := fun t => by
  rw [bigSep_W11, bigSep_W11]
  exact sound_body11 a0 hok Vin c t

/-! ## From the blocks to the arrays -/

/-- The value array after the region: as entered. -/
theorem arrAt11_in (a0 : (pcfg11 (F := F)).Adm) (Vin : Dev nD → Valuation τ sig (Elt F)) (c : Dev nD) :
    (dat11 a0 Vin c).arrAt 0 (cfg11 a0).N = Vr Vin c main_v69 :=
  ((dat11 a0 Vin c).arrAt_in 0 rfl _).trans (A_eq11 a0 Vin c 0)

/-- Every index of the result array is in some point's block: row `e`, lane `d` is element `(e % 8, d)` of the block
    of point `e / 8`. -/
theorem regOutCover11 (a0 : (pcfg11 (F := F)).Adm) (i : S131072x128.Idx) :
    ∃ t : Fin (cfg11 a0).N, ((cfg11 a0).win 1).flush t = true ∧ i ∈ (((cfg11 a0).win 1).blk t).view.set := by
  have hi0 : (i 0).val < 131072 := (i 0).isLt
  have hi1 : (i 1).val < 128 := (i 1).isLt
  have hN : (i 0).val / 8 < grid11.N := by rw [N_11]; omega
  obtain ⟨t, ht⟩ : ∃ t : Fin (cfg11 a0).N, t.val = (i 0).val / 8 := ⟨⟨_, hN⟩, rfl⟩
  have hx : (((cfg11 a0).win 1).blk t).view.emb (ValueIdx.ix2 ⟨(i 0).val % 8, Nat.mod_lt _ (by decide)⟩ (i 1)) = i := by
    funext a; apply Fin.ext
    have e0 : ((cfg11 a0).win 1).index t (0 : Fin 2) = t.val := congrFun (regOutIndex11 a0 t) (0 : Fin 2)
    have e1 : ((cfg11 a0).win 1).index t (1 : Fin 2) = 0 := congrFun (regOutIndex11 a0 t) (1 : Fin 2)
    match a with
    | ⟨0, _⟩ => show ((cfg11 a0).win 1).index t (0 : Fin 2) * 8 + 1 * ((i 0).val % 8) = (i 0).val; omega
    | ⟨1, _⟩ => show ((cfg11 a0).win 1).index t (1 : Fin 2) * 128 + 1 * (i 1).val = (i 1).val; omega
  exact ⟨t, regOutFlush11 a0 t, hx ▸ (((cfg11 a0).win 1).blk t).view.emb_mem_set _⟩

/-- The result array after the region: the gathered and scaled rows, whole. -/
theorem arrAt11_out (a0 : (pcfg11 (F := F)).Adm) (Vin : Dev nD → Valuation τ sig (Elt F)) (c : Dev nD) :
    (dat11 a0 Vin c).arrAt 1 (cfg11 a0).N = gout11 a0 Vin c :=
  (dat11 a0 Vin c).arrAt_eq_of_cover 1 (gout11 a0 Vin c)
    (fun t _ => by
      show ((cfg11 a0).win 1).cut ((cfg11 a0).grid.coords t) ((dat11 a0 Vin c).after 1 t) = _
      rw [after11_1])
    (regOutCover11 a0)

/-! ## The region as a segment of @main -/

/-- The ownership layout of the kernel's eight semaphores. -/
theorem ownSemFacts11 : Pipeline.OwnSemFacts spec11 osem11 := by decide

/-- The kernel's own cells at zero, listed. -/
theorem ownSemsListed11 (c : Dev nD) :
    (Pipeline.ownSems0 (Ix := Unit) (Name := ℕ) (U := UU nD τ) (Lvl := ℕ) (Val := Elt F) (τ := τ) osem11 c : sProp (MM F)) = sems11 c :=
  Pipeline.ownSems0_eq_of_list c osem11 [0, 1, 2, 3, 4, 5, 6, 7] (by decide) (by decide)

/-- The unscoped buffers that are no window's array, no table, and not the embedding array. -/
abbrev restRefs11 : Finset (Ref sig .tc) :=
  (((Finset.univ.filter fun b : Ref sig .tc => ¬ b.isScoped) \ Finset.univ.image (Pipeline.arrRef spec11)) \ Finset.univ.image pre11.ref) \ {main_arg0}

/-- Those buffers, each whole at its contents under `Vin`: what bypasses the region. -/
def Zrest11 (Vin : Dev nD → Valuation τ sig (Elt F)) (c : Dev nD) : sProp (MM F) :=
  bigSep restRefs11 fun b => ((c : Thread nD τ).loc b) ↦{fullShare} Vr Vin c b

/-- The embedding array is an unscoped buffer that is no window's array and no table. -/
theorem embArrMem11 : ({main_arg0} : Finset (Ref sig .tc)) ⊆
    ((Finset.univ.filter fun b : Ref sig .tc => ¬ b.isScoped) \ Finset.univ.image (Pipeline.arrRef spec11)) \ Finset.univ.image pre11.ref := by
  decide

/-- The unscoped buffers that are no window's array: the index table, the embedding array, and the rest. -/
theorem unscopedRestOpen11 (Vin : Dev nD → Valuation τ sig (Elt F)) (c : Dev nD) :
    (Pipeline.unscopedRest (Ix := Unit) (Name := ℕ) (U := UU nD τ) (Lvl := ℕ) spec11 c (Vr Vin c) : sProp (MM F))
      = iprop(Pipeline.prefHeld pre11 c (fun _ => fullShare) (fun k => Vr Vin c (pre11.ref k))
          ∗ pt c (Memref.whole main_arg0) (Vr Vin c main_arg0) ∗ Zrest11 Vin c) := by
  rw [Pipeline.unscopedRest_split preFacts11 c (Vr Vin c)]
  unfold Pipeline.unscopedRestP Zrest11
  rw [BI.bigSep_sdiff_split embArrMem11, BI.bigSep_singleton]
  rfl

/-- The buffer contents when the region is left: the result array at the gathered rows, every other buffer as entered. -/
abbrev Vout11 (a0 : (pcfg11 (F := F)).Adm) (Vin : Dev nD → Valuation τ sig (Elt F)) (c : Dev nD) : Valuation τ sig (Elt F) :=
  Function.update (Vin c) main_v70 (gout11 a0 Vin c)

/-- At the exit each of the region's arrays holds what the pipeline leaves; -/
theorem hF11 (a0 : (pcfg11 (F := F)).Adm) (Vin : Dev nD → Valuation τ sig (Elt F)) (c : Dev nD) (w : Fin (cfg11 a0).W) :
    (dat11 a0 Vin c).arrAt w (cfg11 a0).N = Vr (Vout11 a0 Vin) c (Pipeline.arrRef spec11 w) := by
  match w with
  | ⟨0, _⟩ =>
    show (dat11 a0 Vin c).arrAt 0 (cfg11 a0).N = Vr (Vout11 a0 Vin) c (Pipeline.arrRef spec11 0)
    rw [arrAt11_in]
    exact (Function.update_of_ne (StableHlo.devRef_ne_of_ne (by decide) : (Proc.devRef .tc main_v69 : DevRef τ sig) ≠ Proc.devRef .tc main_v70) _ _).symm
  | ⟨1, _⟩ =>
    show (dat11 a0 Vin c).arrAt 1 (cfg11 a0).N = Vr (Vout11 a0 Vin) c (Pipeline.arrRef spec11 1)
    rw [arrAt11_out]
    exact (Function.update_self (Proc.devRef .tc main_v70 : DevRef τ sig) _ (Vin c)).symm

/-- and every other buffer what it held at entry. -/
theorem hrest11 (a0 : (pcfg11 (F := F)).Adm) (Vin : Dev nD → Valuation τ sig (Elt F)) (c : Dev nD) :
    ∀ b : Ref sig .tc, b ∉ Finset.univ.image (Pipeline.arrRef spec11) → Vr (Vout11 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat11` at the entry valuation `Vin`
    (`hd`), the index table's contents under `Vin` being the pinned ones (`htbl`) and row numbers (`hok`). -/
def reg11 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk11 (F := F) (a (11 : Fin 34)))
    (hd : ∀ c, pdats (11 : Fin 34) c = dat11 (a (11 : Fin 34)) Vin c) (htbl : ∀ c, (a (11 : Fin 34)).1 = fun k => Vr Vin c (pre11.ref k)) :
    Pipeline.RegionSeg (pcfgs (F := F)) a pdats () defs₀ 𝒱₀ L lv (11 : Fin 34) where
  win := (launch11 (F := F)).win.to₀
  block_pos := (launch11 (F := F)).block_pos
  stage_whole := (launch11 (F := F)).stage_whole
  K := Fin 8
  osem := osem11
  ho := ownSemFacts11
  hbody c := by rw [hd c]; exact (body_obligation11 (a (11 : Fin 34)) hok Vin c).loose
  hwaits := Pipeline.hwaits_of_owed_zero _ _ _ _ L lv (11 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v70 (gout11 (a (11 : Fin 34)) Vin c)) ∗ Rest c)
  X c := iprop(pt c (Memref.whole main_arg0) (Vr Vin c main_arg0) ∗ sems11 c)
  Y c := iprop(pt c (Memref.whole main_arg0) (Vr Vin c main_arg0)
    ∗ Pipeline.prefHeld (Ix := Unit) (Name := ℕ) (U := UU nD τ) (Lvl := ℕ) pre11 c (fun _ => fullShare) (a (11 : Fin 34)).1)
  Z c := Zrest11 Vin c
  hentry c := by
    rw [ownSemsListed11]
    have hsplit := Pipeline.arrays_of_unscopedBufs (p := (11 : Fin 34)) (pcfgs (F := F)) a pdats (launch11 (F := F)).win (launch11 (F := F)).arr_whole c
      ((pdats (11 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen11 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (11 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq11]; unfold Phi11
    iintro ⟨⟨Hx, Hos⟩, Ht, Hr⟩
    isplitl [Hx]; · iexact Hx
    isplitl [Hos]; · iexact Hos
    isplitl [Ht]; · iexact Ht
    iexact Hr
  hout c := by
    rw [ownSemsListed11, hd c, Phi_eq11]; unfold Phi11
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (11 : Fin 34)) (pcfgs (F := F)) a (Ix := Unit) (Name := ℕ) (U := UU nD τ) (Lvl := ℕ)
      (launch11 (F := F)).win (launch11 (F := F)).arr_whole c pdats ((pdats (11 : Fin 34) c).share_full fun _ => by rw [hd c]; rfl)
      (Vr Vin c) (Vr (Vout11 (a (11 : Fin 34)) Vin) c) ((pdats (11 : Fin 34) c).arrAt · (cfg11 (a (11 : Fin 34))).N)
      (fun w => by rw [hd c]; exact hF11 (a (11 : Fin 34)) Vin c w) (hrest11 (a (11 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen11 Vin c).symm)
      isplitl [Ht]; · rw [← htbl c]; iexact Ht
      isplitl [Hx]; · iexact Hx
      iexact Hz
    unfold Pipeline.Dat.owesAt Pipeline.owesWithin
    rw [show (pdats (11 : Fin 34) c).owed (Fin.last _) = 0 from by rw [hd c]; rfl]
    icases HO with ⟨%W, -, HO⟩; iexists W; iexact HO

end Cert.Kernel.Hand

end
-- ==== Proof.K.GatherDat12.lean ====
/-
  Gather region 12 (custom_call 12): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem12 : Fin 8 → SemLoc sig := fun | 0 => .dma 148 | 1 => .dma 149 | 2 => .dma 150 | 3 => .dma 151 | 4 => .dma 152 | 5 => .dma 153 | 6 => .dma 154 | 7 => .dma 155

/-- The eight counters at zero, as the run finds them and hands them back. -/
abbrev sems12 (c : Dev nD) : sProp (MM F) :=
  iprop(semVal ((c : Thread nD τ), osem12 0) 0 ∗ semVal ((c : Thread nD τ), osem12 1) 0 ∗ semVal ((c : Thread nD τ), osem12 2) 0
    ∗ semVal ((c : Thread nD τ), osem12 3) 0 ∗ semVal ((c : Thread nD τ), osem12 4) 0 ∗ semVal ((c : Thread nD τ), osem12 5) 0
    ∗ semVal ((c : Thread nD τ), osem12 6) 0 ∗ semVal ((c : Thread nD τ), osem12 7) 0)

/-- Word `j` of the eight the index table holds for point `i`, as the kernel's scalar load reads it. -/
def tblWord12 (c : Dev nD) (i : grid12.Coords) (tbl : Bf (F := F) c (Memref.whole main_v85)) (j : Fin 8) : BitVec 32 :=
  (Memref.whole main_v85).view.readAt (Elt F) (Rect.unit (s := S131072) (k12_off1 i (BitVec.ofNat 32 j.val)) S1.size (k12_off1_inb i j)).toLoadRect tbl
    (Shape.Idx.first (s := S1) (numel1_S1.symm ▸ Nat.one_pos))

/-- Window `w`'s block at point `t`, read off its array at the region's entry. -/
def iblk12 (a0 : (pcfg12 (F := F)).Adm) (Vin : Dev nD → Valuation τ sig (Elt F)) (c : Dev nD) (w : Fin (cfg12 a0).W) (t : Fin (cfg12 a0).N) :
    (((cfg12 a0).win w).xblock ((cfg12 a0).grid.coords t)).Idx → Elt F ((cfg12 a0).win w).elt :=
  (((cfg12 a0).win w).blk t).view.read (Elt F) (Vr Vin c (Pipeline.arrRef spec12 w))

/-- The result array the region leaves: the gathered and scaled rows of the embedding array, whole. -/
def gout12 (a0 : (pcfg12 (F := F)).Adm) (Vin : Dev nD → Valuation τ sig (Elt F)) (c : Dev nD) : Buf (Elt F) ((c : Thread nD τ).loc main_v87) :=
  gatherArr (Vr Vin c main_arg0) (a0.1 0) (Vr Vin c main_v86)

/-- The invariant between points: the embedding array as entered, the kernel's semaphores at zero, the index table, the
    scoped buffers no window stages (the kernel's scratch among them). -/
def Phi12 (a0 : (pcfg12 (F := F)).Adm) (Vin : Dev nD → Valuation τ sig (Elt F)) (c : Dev nD) : sProp (MM F) :=
  iprop(pt c (Memref.whole main_arg0) (Vr Vin c main_arg0) ∗ sems12 c
    ∗ Pipeline.prefHeld (Ix := Unit) (Name := ℕ) (U := UU nD τ) (Lvl := ℕ) pre12 c (fun _ => fullShare) a0.1
    ∗ Pipeline.scopedRest (Ix := Unit) (Name := ℕ) (U := UU nD τ) (Lvl := ℕ) (Val := Elt F) spec12 c)

/-- The proof data on core `c`. -/
def dat12 (a0 : (pcfg12 (F := F)).Adm) (Vin : Dev nD → Valuation τ sig (Elt F)) (c : Dev nD) :
    Pipeline.Dat τ (Elt F) Unit ℕ (UU nD τ) ℕ ((pcfg12 (F := F)).at a0) c where
  A w := Vr Vin c (Pipeline.arrRef spec12 w)
  after w t := match w with
    | ⟨0, _⟩ => iblk12 a0 Vin c 0 t
    | ⟨1, _⟩ => (((cfg12 a0).win 1).blk t).view.read (Elt F) (gout12 a0 Vin c)
  Φ _ := Phi12 a0 Vin c
  q _ := fullShare
  owed _ := 0

theorem A_eq12 (a0 : (pcfg12 (F := F)).Adm) (Vin : Dev nD → Valuation τ sig (Elt F)) (c : Dev nD) (w : Fin (cfg12 a0).W) :
    (dat12 a0 Vin c).A w = Vr Vin c (Pipeline.arrRef spec12 w) := by dsimp only [dat12]
theorem after12_0 (a0 : (pcfg12 (F := F)).Adm) (Vin : Dev nD → Valuation τ sig (Elt F)) (c : Dev nD) (t : Fin (cfg12 a0).N) :
    (dat12 a0 Vin c).after 0 t = iblk12 a0 Vin c 0 t := by dsimp only [dat12]; rfl
theorem after12_1 (a0 : (pcfg12 (F := F)).Adm) (Vin : Dev nD → Valuation τ sig (Elt F)) (c : Dev nD) (t : Fin (cfg12 a0).N) :
    (dat12 a0 Vin c).after 1 t = (((cfg12 a0).win 1).blk t).view.read (Elt F) (gout12 a0 Vin c) := by dsimp only [dat12]; rfl
theorem Phi_eq12 (a0 : (pcfg12 (F := F)).Adm) (Vin : Dev nD → Valuation τ sig (Elt F)) (c : Dev nD) (t : Fin ((cfg12 a0).N + 1)) :
    (dat12 a0 Vin c).Φ t = Phi12 a0 Vin c := rfl
theorem owed_eq12 (a0 : (pcfg12 (F := F)).Adm) (Vin : Dev nD → Valuation τ sig (Elt F)) (c : Dev nD) (t : Fin ((cfg12 a0).N + 1)) :
    (dat12 a0 Vin c).owed t = 0 := rfl
theorem q_eq12 (a0 : (pcfg12 (F := F)).Adm) (Vin : Dev nD → Valuation τ sig (Elt F)) (c : Dev nD) (w : Fin (cfg12 a0).W) :
    (dat12 a0 Vin c).q w = fullShare := rfl

/-- The pinned family's configuration at region 12 is this one. -/
example (a : (p : Fin 34) → (pcfgs (F := F) p).Adm) : Pipeline.pin (pcfgs (F := F)) a (12 : Fin 34) = (pcfg12 (F := F)).at (a (12 : Fin 34)) := rfl

end Cert.Kernel.Hand

end
-- ==== Proof.K.GatherBody12.lean ====
/-
  Gather region 12 (custom_call 12): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat12
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk12 (c : Dev nD) (i : grid12.Coords) (tbl : Bf (F := F) c (Memref.whole main_v85)) : Prop where
  h1 : k12_chk1 (tblWord12 c i tbl 0)
  h2 : k12_chk2 (tblWord12 c i tbl 1)
  h3 : k12_chk3 (tblWord12 c i tbl 2)
  h4 : k12_chk4 (tblWord12 c i tbl 3)
  h5 : k12_chk5 (tblWord12 c i tbl 4)
  h6 : k12_chk6 (tblWord12 c i tbl 5)
  h7 : k12_chk7 (tblWord12 c i tbl 6)
  h8 : k12_chk8 (tblWord12 c i tbl 7)

/-- A one-row slice of the embedding array at the row a word names, read at lane `z 1`: the array's element there. -/
theorem rowRead12 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun12 (c : Dev nD) (i : grid12.Coords)
    (M3 : Memref sig .tc .vmem S8x1 .f32) (h3 : M3.IsWhole) (M4 : Memref sig .tc .vmem S8x128 .f32) (h4 : M4.IsWhole)
    (tbl : Bf (F := F) c (Memref.whole main_v85)) (x : Bf (F := F) c (Memref.whole main_arg0))
    (vb : Vec F S8x1 .f32) (hchk : GatherChk12 c i tbl) (Q : PUnit → sProp (MM F)) :
    iprop(pt c (Memref.whole main_v85) tbl ∗ pt c (Memref.whole main_arg0) x
      ∗ owns (c : Thread nD τ) M3 fullShare vb ∗ (∃ d, owns (c : Thread nD τ) M4 fullShare d)
      ∗ (∃ fs, pt c (Memref.whole cc12_scratch0) fs) ∗ sems12 c ∗ (∃ W, owes (c : Thread nD τ) (0 : CellTallies nD τ sig Unit) W)
      ∗ (iprop(pt c (Memref.whole main_v85) tbl ∗ pt c (Memref.whole main_arg0) x
          ∗ owns (c : Thread nD τ) M3 fullShare vb ∗ owns (c : Thread nD τ) M4 fullShare (gatherBlk x (tblWord12 c i tbl) vb)
          ∗ (∃ fs, pt c (Memref.whole cc12_scratch0) fs) ∗ sems12 c ∗ (∃ W, owes (c : Thread nD τ) (0 : CellTallies nD τ sig Unit) W)) -∗ Q ⟨⟩))
    ⊢ wp frame (wpE (defs₀ (F := F)) 𝒱₀ c none) Set.univ
        (cc12__gather_kernel i (Memref.whole main_v85) (Memref.isWhole_whole _) (Memref.whole main_arg0) (Memref.isWhole_whole _) M3 h3 M4 h4
          (Memref.whole cc12_scratch0) (Memref.isWhole_whole _) cc12_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 148).1 $$ Hx
  icases Hx' with ⟨Hxr, Hx0, Hx1, Hx2, Hx3, Hx4, Hx5, Hx6, Hx7⟩
  sl_unfold [cc12__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 148).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k12_pay1 gatherBlk
    show FloatOps.mulf _ _ = FloatOps.mulf _ _
    congr 1
    · unfold gatherRun12.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun12.sl.dma8 gatherRun12.sl.dma8_1 gatherRun12.sl.dma8_2 gatherRun12.sl.dma8_3 gatherRun12.sl.dma8_4 gatherRun12.sl.dma8_5
        gatherRun12.sl.dma8_6 gatherRun12.sl.dma8_7 gatherRun12.sl.r gatherRun12.sl.r_1 gatherRun12.sl.r_2 gatherRun12.sl.r_3 gatherRun12.sl.r_4
        gatherRun12.sl.r_5 gatherRun12.sl.r_6 gatherRun12.sl.r_7
      refine canonRows8 _ _ _ _ _ _ _ _ _ _ _ _ _ _ _ _ (fun r d => x (embIdx (rowOf (tblWord12 c i tbl r)) d)) ?_ ?_ ?_ ?_ ?_ ?_ ?_ ?_ y
      · exact fun z => rowRead12 c _ (tblWord12 c i tbl 0) rfl rfl _ _ x z
      · exact fun z => rowRead12 c _ (tblWord12 c i tbl 1) rfl rfl _ _ x z
      · exact fun z => rowRead12 c _ (tblWord12 c i tbl 2) rfl rfl _ _ x z
      · exact fun z => rowRead12 c _ (tblWord12 c i tbl 3) rfl rfl _ _ x z
      · exact fun z => rowRead12 c _ (tblWord12 c i tbl 4) rfl rfl _ _ x z
      · exact fun z => rowRead12 c _ (tblWord12 c i tbl 5) rfl rfl _ _ x z
      · exact fun z => rowRead12 c _ (tblWord12 c i tbl 6) rfl rfl _ _ x z
      · exact fun z => rowRead12 c _ (tblWord12 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk12.lean ====
/-
  Gather region 12 (custom_call 12): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat12
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word12 (i : grid12.Coords) (j : Fin 8) : k12_off1 i (BitVec.ofNat 32 j.val) 0 = (i 0).val * 8 + j.val := by
  have hi : (i 0).val < 16384 := (i 0).isLt
  have hj : j.val < 8 := j.isLt
  unfold k12_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word12 (i : grid12.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord12_eq (c : Dev nD) (i : grid12.Coords) (tbl : Bf (F := F) c (Memref.whole main_v85)) (j : Fin 8)
    (e : Fin 131072) (he : e.val = (i 0).val * 8 + j.val) : tblWord12 c i tbl j = tbl (tblIdx e) := by
  unfold tblWord12
  show tbl _ = tbl _
  refine congrArg tbl ?_
  funext a; apply Fin.ext
  match a with
  | ⟨0, _⟩ =>
    show k12_off1 i (BitVec.ofNat 32 j.val) 0 + 1 * 0 = e.val
    rw [off_word12, he]; omega

/-- Row `j` of the value window's block at point `t` is the value array's row `8 t + j`. -/
theorem valBlk12_eq (a0 : (pcfg12 (F := F)).Adm) (Vin : Dev nD → Valuation τ sig (Elt F)) (c : Dev nD) (t : Fin (cfg12 a0).N)
    (j : Fin 8) (e : Fin 131072) (he : e.val = ((grid12.coords t) 0).val * 8 + j.val) :
    iblk12 a0 Vin c 0 t (colIdx j) = Vr Vin c main_v86 (valIdx e) := by
  unfold iblk12
  show Vr Vin c main_v86 _ = Vr Vin c main_v86 _
  refine congrArg (Vr Vin c main_v86) ?_
  funext a; apply Fin.ext
  match a with
  | ⟨0, _⟩ =>
    show (BitVec.ofNat 32 ((grid12.coords t) 0).val).toNat * 8 + 1 * j.val = e.val
    rw [coord_word12, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk12 (a0 : (pcfg12 (F := F)).Adm) (Vin : Dev nD → Valuation τ sig (Elt F)) (c : Dev nD) (t : Fin (cfg12 a0).N) :
    gatherBlk (Vr Vin c main_arg0) (tblWord12 c (grid12.coords t) (a0.1 0)) (iblk12 a0 Vin c 0 t)
      = (((cfg12 a0).win 1).blk t).view.read (Elt F) (gout12 a0 Vin c) := by
  funext y
  show gatherBlk _ _ _ y = gout12 a0 Vin c ((((cfg12 a0).win 1).blk t).view.emb y)
  unfold gatherBlk gout12 gatherArr
  have e0 : ((((cfg12 a0).win 1).blk t).view.emb y (0 : Fin 2)).val = ((grid12.coords t) 0).val * 8 + (y 0).val := by
    show (BitVec.ofNat 32 ((grid12.coords t) 0).val).toNat * 8 + 1 * (y 0).val = _
    rw [coord_word12]; omega
  have e1 : (((cfg12 a0).win 1).blk t).view.emb y (1 : Fin 2) = y 1 := Fin.ext (by
    show (0#32 : BitVec 32).toNat * 128 + 1 * (y 1).val = (y 1).val
    show 0 * 128 + 1 * (y 1).val = (y 1).val
    omega)
  rw [tblWord12_eq c (grid12.coords t) (a0.1 0) (y 0) _ e0, valBlk12_eq a0 Vin c t (y 0) _ e0, e1]

end Cert.Kernel.Hand

end
-- ==== Proof.K.GatherRegion12.lean ====
/-
  Gather region 12 (custom_call 12): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody12
import proofs.«414509_j14181982011419_2_alg».proof.Proof.K.GatherBlk12
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk12 (a0 : (pcfg12 (F := F)).Adm) : Prop := ∀ e : S131072.Idx, (a0.1 0 e).toNat < 100000

/-! ## The grid and the result window's blocks -/

/-- On the one-axis grid a point's coordinate is its number. -/
theorem regCoords12 (t : Fin grid12.N) : (grid12.coords t 0).val = t.val := by
  have ht : t.val < 16384 := N_12 ▸ t.isLt
  show t.val / grid12.stride 0 % grid12.bound 0 = t.val
  rw [show grid12.stride 0 = 1 from by decide, show grid12.bound 0 = 16384 from rfl, Nat.div_one, Nat.mod_eq_of_lt ht]

/-- A point's number as the 32-bit word the index maps compute with. -/
theorem regWord12 (t : Fin grid12.N) : (BitVec.ofNat 32 (grid12.coords t 0).val).toNat = t.val := by
  have ht : t.val < 16384 := N_12 ▸ t.isLt
  rw [BitVec.toNat_ofNat, regCoords12]; omega

/-- The result window's block at point `t` is block `t` along the rows, at zero along the lanes. -/
theorem regOutIndex12 (a0 : (pcfg12 (F := F)).Adm) (t : Fin (cfg12 a0).N) : ((cfg12 a0).win 1).index t = ![t.val, 0] := by
  show cc12_transform_2 (grid12.coords t) = _
  unfold cc12_transform_2
  funext a; fin_cases a
  · exact regWord12 t
  · rfl

/-- The result window is written back at every point: consecutive points have different blocks. -/
theorem regOutFlush12 (a0 : (pcfg12 (F := F)).Adm) (t : Fin (cfg12 a0).N) : ((cfg12 a0).win 1).flush t = true := by
  have htN : t.val < 16384 := N_12 ▸ t.isLt
  rw [Pipeline.Window.flush_out _ rfl]
  by_cases h : t.val + 1 = 16384
  · exact Or.inl (show t.val + 1 = grid12.N by rw [N_12]; exact h)
  · have hlt : t.val + 1 < grid12.N := by rw [N_12]; omega
    refine Or.inr ⟨hlt, fun e => ?_⟩
    have e' : (![t.val + 1, 0] : Fin 2 → ℕ) = ![t.val, 0] := (regOutIndex12 a0 ⟨t.val + 1, hlt⟩).symm.trans (e.trans (regOutIndex12 a0 t))
    have e0 := congrFun e' 0
    simp at e0

/-- The index table, held as the pipeline's one prefetched table. -/
theorem prefHeldEq12 (a0 : (pcfg12 (F := F)).Adm) (c : Dev nD) :
    (Pipeline.prefHeld (Ix := Unit) (Name := ℕ) (U := UU nD τ) (Lvl := ℕ) pre12 c (fun _ => fullShare) a0.1 : sProp (MM F))
      = pt c (Memref.whole main_v85) (a0.1 0) := by
  unfold Pipeline.prefHeld
  rw [show (Finset.univ : Finset (Fin pre12.K)) = {0} from rfl, BI.bigSep_singleton]
  rfl

/-- The value window's staging buffer holds its block at every point. -/
theorem beforeVal12 (a0 : (pcfg12 (F := F)).Adm) (Vin : Dev nD → Valuation τ sig (Elt F)) (c : Dev nD) (t : Fin (cfg12 a0).N) (d) :
    (dat12 a0 Vin c).before 0 t d = iblk12 a0 Vin c 0 t :=
  ((dat12 a0 Vin c).before_in_eq_fetched 0 rfl (fun _ => rfl) (fun _ _ _ => rfl)
    (fun t => by rw [after12_0]; unfold Dat.blockOf iblk12; rw [A_eq12]; try rfl) t d).trans
    (by unfold Dat.fetched Dat.blockOf iblk12; rw [A_eq12]; try rfl)

/-! ## The kernel's checks, from the table's range -/

/-- Each of the point's eight words is a word of the table, so a row number. -/
theorem tblWordLt12 (a0 : (pcfg12 (F := F)).Adm) (hok : GatherOk12 a0) (c : Dev nD) (i : grid12.Coords) (j : Fin 8) :
    (tblWord12 c i (a0.1 0) j).toNat < 100000 := by
  unfold tblWord12
  exact hok _

/-- So the kernel's eight checks hold at every point. -/
theorem gatherChk12 (a0 : (pcfg12 (F := F)).Adm) (hok : GatherOk12 a0) (c : Dev nD) (i : grid12.Coords) : GatherChk12 c i (a0.1 0) :=
  ⟨⟨chkRow _ (tblWordLt12 a0 hok c i 0), chkRow _ (tblWordLt12 a0 hok c i 0)⟩,
   ⟨chkRow _ (tblWordLt12 a0 hok c i 1), chkRow _ (tblWordLt12 a0 hok c i 1)⟩,
   ⟨chkRow _ (tblWordLt12 a0 hok c i 2), chkRow _ (tblWordLt12 a0 hok c i 2)⟩,
   ⟨chkRow _ (tblWordLt12 a0 hok c i 3), chkRow _ (tblWordLt12 a0 hok c i 3)⟩,
   ⟨chkRow _ (tblWordLt12 a0 hok c i 4), chkRow _ (tblWordLt12 a0 hok c i 4)⟩,
   ⟨chkRow _ (tblWordLt12 a0 hok c i 5), chkRow _ (tblWordLt12 a0 hok c i 5)⟩,
   ⟨chkRow _ (tblWordLt12 a0 hok c i 6), chkRow _ (tblWordLt12 a0 hok c i 6)⟩,
   chkRow _ (tblWordLt12 a0 hok c i 7)⟩

/-! ## The body obligation, at a generic point -/

/-- What the body is called with at point `t`: the invariant, the core's dues, each window's current staging memref at
    what the pipeline left there, -/
def bodyPre12 (a0 : (pcfg12 (F := F)).Adm) (Vin : Dev nD → Valuation τ sig (Elt F)) (c : Dev nD) (t : Fin (cfg12 a0).N) : sProp (MM F) :=
  iprop((dat12 a0 Vin c).Φ t.castSucc ∗ (dat12 a0 Vin c).owesAt () t.castSucc
    ∗ (∃ d, owns (c : Thread nD τ) (((cfg12 a0).win 0).stage ((cfg12 a0).slots t 0)) fullShare ((dat12 a0 Vin c).before 0 t d))
    ∗ (∃ d, owns (c : Thread nD τ) (((cfg12 a0).win 1).stage ((cfg12 a0).slots t 1)) fullShare ((dat12 a0 Vin c).before 1 t d)))

/-- and what it returns. -/
def bodyPost12 (a0 : (pcfg12 (F := F)).Adm) (Vin : Dev nD → Valuation τ sig (Elt F)) (c : Dev nD) (t : Fin (cfg12 a0).N) : sProp (MM F) :=
  iprop((dat12 a0 Vin c).Φ t.succ ∗ (dat12 a0 Vin c).owesAt () t.succ
    ∗ owns (c : Thread nD τ) (((cfg12 a0).win 0).stage ((cfg12 a0).slots t 0)) fullShare ((dat12 a0 Vin c).after 0 t)
    ∗ owns (c : Thread nD τ) (((cfg12 a0).win 1).stage ((cfg12 a0).slots t 1)) fullShare ((dat12 a0 Vin c).after 1 t))

/-- The body at any point: the invariant opened into the embedding array, the semaphores, the table and the scratch;
    the value window's memref at its block; the checks from the table's range; so the kernel's run applies, and what it
    leaves in the result window's memref is the point's block of the gathered array. -/
theorem sound_body12 (a0 : (pcfg12 (F := F)).Adm) (hok : GatherOk12 a0) (Vin : Dev nD → Valuation τ sig (Elt F)) (c : Dev nD) (t : Fin (cfg12 a0).N) :
    bodyPre12 a0 Vin c t ⊢ wp frame (wpE (defs₀ (F := F)) 𝒱₀ c none) Set.univ
      (defs₀ .tc (cfg12 a0).body ((cfg12 a0).bodyArgs t ((cfg12 a0).slots t))) (fun _ => bodyPost12 a0 Vin c t) := by
  unfold bodyPre12 bodyPost12
  simp only [beforeVal12]
  rw [Phi_eq12, Phi_eq12, after12_0, after12_1, ← gatherBlk_blk12]
  unfold Phi12 Pipeline.Dat.owesAt Pipeline.owesWithin
  rw [owed_eq12, owed_eq12, prefHeldEq12, scopedRest12_split]
  iintro ⟨⟨Hx, Hos, Ht, ⟨%fs, Hs⟩, Hsb⟩, ⟨%W, %hW, HO⟩, ⟨%d0, H0⟩, ⟨%d1, H1⟩⟩
  iapply (gatherRun12 c (grid12.coords t) _ _ _ _ (a0.1 0) (Vr Vin c main_arg0) (iblk12 a0 Vin c 0 t) (gatherChk12 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation12 (a0 : (pcfg12 (F := F)).Adm) (hok : GatherOk12 a0) (Vin : Dev nD → Valuation τ sig (Elt F)) (c : Dev nD) :
    BodyObligation (dat12 a0 Vin c) (defs₀ (F := F)) 𝒱₀ () Set.univ := fun t => by
  rw [bigSep_W12, bigSep_W12]
  exact sound_body12 a0 hok Vin c t

/-! ## From the blocks to the arrays -/

/-- The value array after the region: as entered. -/
theorem arrAt12_in (a0 : (pcfg12 (F := F)).Adm) (Vin : Dev nD → Valuation τ sig (Elt F)) (c : Dev nD) :
    (dat12 a0 Vin c).arrAt 0 (cfg12 a0).N = Vr Vin c main_v86 :=
  ((dat12 a0 Vin c).arrAt_in 0 rfl _).trans (A_eq12 a0 Vin c 0)

/-- Every index of the result array is in some point's block: row `e`, lane `d` is element `(e % 8, d)` of the block
    of point `e / 8`. -/
theorem regOutCover12 (a0 : (pcfg12 (F := F)).Adm) (i : S131072x128.Idx) :
    ∃ t : Fin (cfg12 a0).N, ((cfg12 a0).win 1).flush t = true ∧ i ∈ (((cfg12 a0).win 1).blk t).view.set := by
  have hi0 : (i 0).val < 131072 := (i 0).isLt
  have hi1 : (i 1).val < 128 := (i 1).isLt
  have hN : (i 0).val / 8 < grid12.N := by rw [N_12]; omega
  obtain ⟨t, ht⟩ : ∃ t : Fin (cfg12 a0).N, t.val = (i 0).val / 8 := ⟨⟨_, hN⟩, rfl⟩
  have hx : (((cfg12 a0).win 1).blk t).view.emb (ValueIdx.ix2 ⟨(i 0).val % 8, Nat.mod_lt _ (by decide)⟩ (i 1)) = i := by
    funext a; apply Fin.ext
    have e0 : ((cfg12 a0).win 1).index t (0 : Fin 2) = t.val := congrFun (regOutIndex12 a0 t) (0 : Fin 2)
    have e1 : ((cfg12 a0).win 1).index t (1 : Fin 2) = 0 := congrFun (regOutIndex12 a0 t) (1 : Fin 2)
    match a with
    | ⟨0, _⟩ => show ((cfg12 a0).win 1).index t (0 : Fin 2) * 8 + 1 * ((i 0).val % 8) = (i 0).val; omega
    | ⟨1, _⟩ => show ((cfg12 a0).win 1).index t (1 : Fin 2) * 128 + 1 * (i 1).val = (i 1).val; omega
  exact ⟨t, regOutFlush12 a0 t, hx ▸ (((cfg12 a0).win 1).blk t).view.emb_mem_set _⟩

/-- The result array after the region: the gathered and scaled rows, whole. -/
theorem arrAt12_out (a0 : (pcfg12 (F := F)).Adm) (Vin : Dev nD → Valuation τ sig (Elt F)) (c : Dev nD) :
    (dat12 a0 Vin c).arrAt 1 (cfg12 a0).N = gout12 a0 Vin c :=
  (dat12 a0 Vin c).arrAt_eq_of_cover 1 (gout12 a0 Vin c)
    (fun t _ => by
      show ((cfg12 a0).win 1).cut ((cfg12 a0).grid.coords t) ((dat12 a0 Vin c).after 1 t) = _
      rw [after12_1])
    (regOutCover12 a0)

/-! ## The region as a segment of @main -/

/-- The ownership layout of the kernel's eight semaphores. -/
theorem ownSemFacts12 : Pipeline.OwnSemFacts spec12 osem12 := by decide

/-- The kernel's own cells at zero, listed. -/
theorem ownSemsListed12 (c : Dev nD) :
    (Pipeline.ownSems0 (Ix := Unit) (Name := ℕ) (U := UU nD τ) (Lvl := ℕ) (Val := Elt F) (τ := τ) osem12 c : sProp (MM F)) = sems12 c :=
  Pipeline.ownSems0_eq_of_list c osem12 [0, 1, 2, 3, 4, 5, 6, 7] (by decide) (by decide)

/-- The unscoped buffers that are no window's array, no table, and not the embedding array. -/
abbrev restRefs12 : Finset (Ref sig .tc) :=
  (((Finset.univ.filter fun b : Ref sig .tc => ¬ b.isScoped) \ Finset.univ.image (Pipeline.arrRef spec12)) \ Finset.univ.image pre12.ref) \ {main_arg0}

/-- Those buffers, each whole at its contents under `Vin`: what bypasses the region. -/
def Zrest12 (Vin : Dev nD → Valuation τ sig (Elt F)) (c : Dev nD) : sProp (MM F) :=
  bigSep restRefs12 fun b => ((c : Thread nD τ).loc b) ↦{fullShare} Vr Vin c b

/-- The embedding array is an unscoped buffer that is no window's array and no table. -/
theorem embArrMem12 : ({main_arg0} : Finset (Ref sig .tc)) ⊆
    ((Finset.univ.filter fun b : Ref sig .tc => ¬ b.isScoped) \ Finset.univ.image (Pipeline.arrRef spec12)) \ Finset.univ.image pre12.ref := by
  decide

/-- The unscoped buffers that are no window's array: the index table, the embedding array, and the rest. -/
theorem unscopedRestOpen12 (Vin : Dev nD → Valuation τ sig (Elt F)) (c : Dev nD) :
    (Pipeline.unscopedRest (Ix := Unit) (Name := ℕ) (U := UU nD τ) (Lvl := ℕ) spec12 c (Vr Vin c) : sProp (MM F))
      = iprop(Pipeline.prefHeld pre12 c (fun _ => fullShare) (fun k => Vr Vin c (pre12.ref k))
          ∗ pt c (Memref.whole main_arg0) (Vr Vin c main_arg0) ∗ Zrest12 Vin c) := by
  rw [Pipeline.unscopedRest_split preFacts12 c (Vr Vin c)]
  unfold Pipeline.unscopedRestP Zrest12
  rw [BI.bigSep_sdiff_split embArrMem12, BI.bigSep_singleton]
  rfl

/-- The buffer contents when the region is left: the result array at the gathered rows, every other buffer as entered. -/
abbrev Vout12 (a0 : (pcfg12 (F := F)).Adm) (Vin : Dev nD → Valuation τ sig (Elt F)) (c : Dev nD) : Valuation τ sig (Elt F) :=
  Function.update (Vin c) main_v87 (gout12 a0 Vin c)

/-- At the exit each of the region's arrays holds what the pipeline leaves; -/
theorem hF12 (a0 : (pcfg12 (F := F)).Adm) (Vin : Dev nD → Valuation τ sig (Elt F)) (c : Dev nD) (w : Fin (cfg12 a0).W) :
    (dat12 a0 Vin c).arrAt w (cfg12 a0).N = Vr (Vout12 a0 Vin) c (Pipeline.arrRef spec12 w) := by
  match w with
  | ⟨0, _⟩ =>
    show (dat12 a0 Vin c).arrAt 0 (cfg12 a0).N = Vr (Vout12 a0 Vin) c (Pipeline.arrRef spec12 0)
    rw [arrAt12_in]
    exact (Function.update_of_ne (StableHlo.devRef_ne_of_ne (by decide) : (Proc.devRef .tc main_v86 : DevRef τ sig) ≠ Proc.devRef .tc main_v87) _ _).symm
  | ⟨1, _⟩ =>
    show (dat12 a0 Vin c).arrAt 1 (cfg12 a0).N = Vr (Vout12 a0 Vin) c (Pipeline.arrRef spec12 1)
    rw [arrAt12_out]
    exact (Function.update_self (Proc.devRef .tc main_v87 : DevRef τ sig) _ (Vin c)).symm

/-- and every other buffer what it held at entry. -/
theorem hrest12 (a0 : (pcfg12 (F := F)).Adm) (Vin : Dev nD → Valuation τ sig (Elt F)) (c : Dev nD) :
    ∀ b : Ref sig .tc, b ∉ Finset.univ.image (Pipeline.arrRef spec12) → Vr (Vout12 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat12` at the entry valuation `Vin`
    (`hd`), the index table's contents under `Vin` being the pinned ones (`htbl`) and row numbers (`hok`). -/
def reg12 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk12 (F := F) (a (12 : Fin 34)))
    (hd : ∀ c, pdats (12 : Fin 34) c = dat12 (a (12 : Fin 34)) Vin c) (htbl : ∀ c, (a (12 : Fin 34)).1 = fun k => Vr Vin c (pre12.ref k)) :
    Pipeline.RegionSeg (pcfgs (F := F)) a pdats () defs₀ 𝒱₀ L lv (12 : Fin 34) where
  win := (launch12 (F := F)).win.to₀
  block_pos := (launch12 (F := F)).block_pos
  stage_whole := (launch12 (F := F)).stage_whole
  K := Fin 8
  osem := osem12
  ho := ownSemFacts12
  hbody c := by rw [hd c]; exact (body_obligation12 (a (12 : Fin 34)) hok Vin c).loose
  hwaits := Pipeline.hwaits_of_owed_zero _ _ _ _ L lv (12 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v87 (gout12 (a (12 : Fin 34)) Vin c)) ∗ Rest c)
  X c := iprop(pt c (Memref.whole main_arg0) (Vr Vin c main_arg0) ∗ sems12 c)
  Y c := iprop(pt c (Memref.whole main_arg0) (Vr Vin c main_arg0)
    ∗ Pipeline.prefHeld (Ix := Unit) (Name := ℕ) (U := UU nD τ) (Lvl := ℕ) pre12 c (fun _ => fullShare) (a (12 : Fin 34)).1)
  Z c := Zrest12 Vin c
  hentry c := by
    rw [ownSemsListed12]
    have hsplit := Pipeline.arrays_of_unscopedBufs (p := (12 : Fin 34)) (pcfgs (F := F)) a pdats (launch12 (F := F)).win (launch12 (F := F)).arr_whole c
      ((pdats (12 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen12 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (12 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq12]; unfold Phi12
    iintro ⟨⟨Hx, Hos⟩, Ht, Hr⟩
    isplitl [Hx]; · iexact Hx
    isplitl [Hos]; · iexact Hos
    isplitl [Ht]; · iexact Ht
    iexact Hr
  hout c := by
    rw [ownSemsListed12, hd c, Phi_eq12]; unfold Phi12
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (12 : Fin 34)) (pcfgs (F := F)) a (Ix := Unit) (Name := ℕ) (U := UU nD τ) (Lvl := ℕ)
      (launch12 (F := F)).win (launch12 (F := F)).arr_whole c pdats ((pdats (12 : Fin 34) c).share_full fun _ => by rw [hd c]; rfl)
      (Vr Vin c) (Vr (Vout12 (a (12 : Fin 34)) Vin) c) ((pdats (12 : Fin 34) c).arrAt · (cfg12 (a (12 : Fin 34))).N)
      (fun w => by rw [hd c]; exact hF12 (a (12 : Fin 34)) Vin c w) (hrest12 (a (12 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen12 Vin c).symm)
      isplitl [Ht]; · rw [← htbl c]; iexact Ht
      isplitl [Hx]; · iexact Hx
      iexact Hz
    unfold Pipeline.Dat.owesAt Pipeline.owesWithin
    rw [show (pdats (12 : Fin 34) c).owed (Fin.last _) = 0 from by rw [hd c]; rfl]
    icases HO with ⟨%W, -, HO⟩; iexists W; iexact HO

end Cert.Kernel.Hand

end
-- ==== Proof.K.GatherDat13.lean ====
/-
  Gather region 13 (custom_call 13): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem13 : Fin 8 → SemLoc sig := fun | 0 => .dma 160 | 1 => .dma 161 | 2 => .dma 162 | 3 => .dma 163 | 4 => .dma 164 | 5 => .dma 165 | 6 => .dma 166 | 7 => .dma 167

/-- The eight counters at zero, as the run finds them and hands them back. -/
abbrev sems13 (c : Dev nD) : sProp (MM F) :=
  iprop(semVal ((c : Thread nD τ), osem13 0) 0 ∗ semVal ((c : Thread nD τ), osem13 1) 0 ∗ semVal ((c : Thread nD τ), osem13 2) 0
    ∗ semVal ((c : Thread nD τ), osem13 3) 0 ∗ semVal ((c : Thread nD τ), osem13 4) 0 ∗ semVal ((c : Thread nD τ), osem13 5) 0
    ∗ semVal ((c : Thread nD τ), osem13 6) 0 ∗ semVal ((c : Thread nD τ), osem13 7) 0)

/-- Word `j` of the eight the index table holds for point `i`, as the kernel's scalar load reads it. -/
def tblWord13 (c : Dev nD) (i : grid13.Coords) (tbl : Bf (F := F) c (Memref.whole main_v88)) (j : Fin 8) : BitVec 32 :=
  (Memref.whole main_v88).view.readAt (Elt F) (Rect.unit (s := S131072) (k13_off1 i (BitVec.ofNat 32 j.val)) S1.size (k13_off1_inb i j)).toLoadRect tbl
    (Shape.Idx.first (s := S1) (numel1_S1.symm ▸ Nat.one_pos))

/-- Window `w`'s block at point `t`, read off its array at the region's entry. -/
def iblk13 (a0 : (pcfg13 (F := F)).Adm) (Vin : Dev nD → Valuation τ sig (Elt F)) (c : Dev nD) (w : Fin (cfg13 a0).W) (t : Fin (cfg13 a0).N) :
    (((cfg13 a0).win w).xblock ((cfg13 a0).grid.coords t)).Idx → Elt F ((cfg13 a0).win w).elt :=
  (((cfg13 a0).win w).blk t).view.read (Elt F) (Vr Vin c (Pipeline.arrRef spec13 w))

/-- The result array the region leaves: the gathered and scaled rows of the embedding array, whole. -/
def gout13 (a0 : (pcfg13 (F := F)).Adm) (Vin : Dev nD → Valuation τ sig (Elt F)) (c : Dev nD) : Buf (Elt F) ((c : Thread nD τ).loc main_v90) :=
  gatherArr (Vr Vin c main_arg0) (a0.1 0) (Vr Vin c main_v89)

/-- The invariant between points: the embedding array as entered, the kernel's semaphores at zero, the index table, the
    scoped buffers no window stages (the kernel's scratch among them). -/
def Phi13 (a0 : (pcfg13 (F := F)).Adm) (Vin : Dev nD → Valuation τ sig (Elt F)) (c : Dev nD) : sProp (MM F) :=
  iprop(pt c (Memref.whole main_arg0) (Vr Vin c main_arg0) ∗ sems13 c
    ∗ Pipeline.prefHeld (Ix := Unit) (Name := ℕ) (U := UU nD τ) (Lvl := ℕ) pre13 c (fun _ => fullShare) a0.1
    ∗ Pipeline.scopedRest (Ix := Unit) (Name := ℕ) (U := UU nD τ) (Lvl := ℕ) (Val := Elt F) spec13 c)

/-- The proof data on core `c`. -/
def dat13 (a0 : (pcfg13 (F := F)).Adm) (Vin : Dev nD → Valuation τ sig (Elt F)) (c : Dev nD) :
    Pipeline.Dat τ (Elt F) Unit ℕ (UU nD τ) ℕ ((pcfg13 (F := F)).at a0) c where
  A w := Vr Vin c (Pipeline.arrRef spec13 w)
  after w t := match w with
    | ⟨0, _⟩ => iblk13 a0 Vin c 0 t
    | ⟨1, _⟩ => (((cfg13 a0).win 1).blk t).view.read (Elt F) (gout13 a0 Vin c)
  Φ _ := Phi13 a0 Vin c
  q _ := fullShare
  owed _ := 0

theorem A_eq13 (a0 : (pcfg13 (F := F)).Adm) (Vin : Dev nD → Valuation τ sig (Elt F)) (c : Dev nD) (w : Fin (cfg13 a0).W) :
    (dat13 a0 Vin c).A w = Vr Vin c (Pipeline.arrRef spec13 w) := by dsimp only [dat13]
theorem after13_0 (a0 : (pcfg13 (F := F)).Adm) (Vin : Dev nD → Valuation τ sig (Elt F)) (c : Dev nD) (t : Fin (cfg13 a0).N) :
    (dat13 a0 Vin c).after 0 t = iblk13 a0 Vin c 0 t := by dsimp only [dat13]; rfl
theorem after13_1 (a0 : (pcfg13 (F := F)).Adm) (Vin : Dev nD → Valuation τ sig (Elt F)) (c : Dev nD) (t : Fin (cfg13 a0).N) :
    (dat13 a0 Vin c).after 1 t = (((cfg13 a0).win 1).blk t).view.read (Elt F) (gout13 a0 Vin c) := by dsimp only [dat13]; rfl
theorem Phi_eq13 (a0 : (pcfg13 (F := F)).Adm) (Vin : Dev nD → Valuation τ sig (Elt F)) (c : Dev nD) (t : Fin ((cfg13 a0).N + 1)) :
    (dat13 a0 Vin c).Φ t = Phi13 a0 Vin c := rfl
theorem owed_eq13 (a0 : (pcfg13 (F := F)).Adm) (Vin : Dev nD → Valuation τ sig (Elt F)) (c : Dev nD) (t : Fin ((cfg13 a0).N + 1)) :
    (dat13 a0 Vin c).owed t = 0 := rfl
theorem q_eq13 (a0 : (pcfg13 (F := F)).Adm) (Vin : Dev nD → Valuation τ sig (Elt F)) (c : Dev nD) (w : Fin (cfg13 a0).W) :
    (dat13 a0 Vin c).q w = fullShare := rfl

/-- The pinned family's configuration at region 13 is this one. -/
example (a : (p : Fin 34) → (pcfgs (F := F) p).Adm) : Pipeline.pin (pcfgs (F := F)) a (13 : Fin 34) = (pcfg13 (F := F)).at (a (13 : Fin 34)) := rfl

end Cert.Kernel.Hand

end
-- ==== Proof.K.GatherBody13.lean ====
/-
  Gather region 13 (custom_call 13): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat13
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk13 (c : Dev nD) (i : grid13.Coords) (tbl : Bf (F := F) c (Memref.whole main_v88)) : Prop where
  h1 : k13_chk1 (tblWord13 c i tbl 0)
  h2 : k13_chk2 (tblWord13 c i tbl 1)
  h3 : k13_chk3 (tblWord13 c i tbl 2)
  h4 : k13_chk4 (tblWord13 c i tbl 3)
  h5 : k13_chk5 (tblWord13 c i tbl 4)
  h6 : k13_chk6 (tblWord13 c i tbl 5)
  h7 : k13_chk7 (tblWord13 c i tbl 6)
  h8 : k13_chk8 (tblWord13 c i tbl 7)

/-- A one-row slice of the embedding array at the row a word names, read at lane `z 1`: the array's element there. -/
theorem rowRead13 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun13 (c : Dev nD) (i : grid13.Coords)
    (M3 : Memref sig .tc .vmem S8x1 .f32) (h3 : M3.IsWhole) (M4 : Memref sig .tc .vmem S8x128 .f32) (h4 : M4.IsWhole)
    (tbl : Bf (F := F) c (Memref.whole main_v88)) (x : Bf (F := F) c (Memref.whole main_arg0))
    (vb : Vec F S8x1 .f32) (hchk : GatherChk13 c i tbl) (Q : PUnit → sProp (MM F)) :
    iprop(pt c (Memref.whole main_v88) tbl ∗ pt c (Memref.whole main_arg0) x
      ∗ owns (c : Thread nD τ) M3 fullShare vb ∗ (∃ d, owns (c : Thread nD τ) M4 fullShare d)
      ∗ (∃ fs, pt c (Memref.whole cc13_scratch0) fs) ∗ sems13 c ∗ (∃ W, owes (c : Thread nD τ) (0 : CellTallies nD τ sig Unit) W)
      ∗ (iprop(pt c (Memref.whole main_v88) tbl ∗ pt c (Memref.whole main_arg0) x
          ∗ owns (c : Thread nD τ) M3 fullShare vb ∗ owns (c : Thread nD τ) M4 fullShare (gatherBlk x (tblWord13 c i tbl) vb)
          ∗ (∃ fs, pt c (Memref.whole cc13_scratch0) fs) ∗ sems13 c ∗ (∃ W, owes (c : Thread nD τ) (0 : CellTallies nD τ sig Unit) W)) -∗ Q ⟨⟩))
    ⊢ wp frame (wpE (defs₀ (F := F)) 𝒱₀ c none) Set.univ
        (cc13__gather_kernel i (Memref.whole main_v88) (Memref.isWhole_whole _) (Memref.whole main_arg0) (Memref.isWhole_whole _) M3 h3 M4 h4
          (Memref.whole cc13_scratch0) (Memref.isWhole_whole _) cc13_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 160).1 $$ Hx
  icases Hx' with ⟨Hxr, Hx0, Hx1, Hx2, Hx3, Hx4, Hx5, Hx6, Hx7⟩
  sl_unfold [cc13__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 160).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k13_pay1 gatherBlk
    show FloatOps.mulf _ _ = FloatOps.mulf _ _
    congr 1
    · unfold gatherRun13.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun13.sl.dma8 gatherRun13.sl.dma8_1 gatherRun13.sl.dma8_2 gatherRun13.sl.dma8_3 gatherRun13.sl.dma8_4 gatherRun13.sl.dma8_5
        gatherRun13.sl.dma8_6 gatherRun13.sl.dma8_7 gatherRun13.sl.r gatherRun13.sl.r_1 gatherRun13.sl.r_2 gatherRun13.sl.r_3 gatherRun13.sl.r_4
        gatherRun13.sl.r_5 gatherRun13.sl.r_6 gatherRun13.sl.r_7
      refine canonRows8 _ _ _ _ _ _ _ _ _ _ _ _ _ _ _ _ (fun r d => x (embIdx (rowOf (tblWord13 c i tbl r)) d)) ?_ ?_ ?_ ?_ ?_ ?_ ?_ ?_ y
      · exact fun z => rowRead13 c _ (tblWord13 c i tbl 0) rfl rfl _ _ x z
      · exact fun z => rowRead13 c _ (tblWord13 c i tbl 1) rfl rfl _ _ x z
      · exact fun z => rowRead13 c _ (tblWord13 c i tbl 2) rfl rfl _ _ x z
      · exact fun z => rowRead13 c _ (tblWord13 c i tbl 3) rfl rfl _ _ x z
      · exact fun z => rowRead13 c _ (tblWord13 c i tbl 4) rfl rfl _ _ x z
      · exact fun z => rowRead13 c _ (tblWord13 c i tbl 5) rfl rfl _ _ x z
      · exact fun z => rowRead13 c _ (tblWord13 c i tbl 6) rfl rfl _ _ x z
      · exact fun z => rowRead13 c _ (tblWord13 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk13.lean ====
/-
  Gather region 13 (custom_call 13): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat13
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word13 (i : grid13.Coords) (j : Fin 8) : k13_off1 i (BitVec.ofNat 32 j.val) 0 = (i 0).val * 8 + j.val := by
  have hi : (i 0).val < 16384 := (i 0).isLt
  have hj : j.val < 8 := j.isLt
  unfold k13_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word13 (i : grid13.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord13_eq (c : Dev nD) (i : grid13.Coords) (tbl : Bf (F := F) c (Memref.whole main_v88)) (j : Fin 8)
    (e : Fin 131072) (he : e.val = (i 0).val * 8 + j.val) : tblWord13 c i tbl j = tbl (tblIdx e) := by
  unfold tblWord13
  show tbl _ = tbl _
  refine congrArg tbl ?_
  funext a; apply Fin.ext
  match a with
  | ⟨0, _⟩ =>
    show k13_off1 i (BitVec.ofNat 32 j.val) 0 + 1 * 0 = e.val
    rw [off_word13, he]; omega

/-- Row `j` of the value window's block at point `t` is the value array's row `8 t + j`. -/
theorem valBlk13_eq (a0 : (pcfg13 (F := F)).Adm) (Vin : Dev nD → Valuation τ sig (Elt F)) (c : Dev nD) (t : Fin (cfg13 a0).N)
    (j : Fin 8) (e : Fin 131072) (he : e.val = ((grid13.coords t) 0).val * 8 + j.val) :
    iblk13 a0 Vin c 0 t (colIdx j) = Vr Vin c main_v89 (valIdx e) := by
  unfold iblk13
  show Vr Vin c main_v89 _ = Vr Vin c main_v89 _
  refine congrArg (Vr Vin c main_v89) ?_
  funext a; apply Fin.ext
  match a with
  | ⟨0, _⟩ =>
    show (BitVec.ofNat 32 ((grid13.coords t) 0).val).toNat * 8 + 1 * j.val = e.val
    rw [coord_word13, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk13 (a0 : (pcfg13 (F := F)).Adm) (Vin : Dev nD → Valuation τ sig (Elt F)) (c : Dev nD) (t : Fin (cfg13 a0).N) :
    gatherBlk (Vr Vin c main_arg0) (tblWord13 c (grid13.coords t) (a0.1 0)) (iblk13 a0 Vin c 0 t)
      = (((cfg13 a0).win 1).blk t).view.read (Elt F) (gout13 a0 Vin c) := by
  funext y
  show gatherBlk _ _ _ y = gout13 a0 Vin c ((((cfg13 a0).win 1).blk t).view.emb y)
  unfold gatherBlk gout13 gatherArr
  have e0 : ((((cfg13 a0).win 1).blk t).view.emb y (0 : Fin 2)).val = ((grid13.coords t) 0).val * 8 + (y 0).val := by
    show (BitVec.ofNat 32 ((grid13.coords t) 0).val).toNat * 8 + 1 * (y 0).val = _
    rw [coord_word13]; omega
  have e1 : (((cfg13 a0).win 1).blk t).view.emb y (1 : Fin 2) = y 1 := Fin.ext (by
    show (0#32 : BitVec 32).toNat * 128 + 1 * (y 1).val = (y 1).val
    show 0 * 128 + 1 * (y 1).val = (y 1).val
    omega)
  rw [tblWord13_eq c (grid13.coords t) (a0.1 0) (y 0) _ e0, valBlk13_eq a0 Vin c t (y 0) _ e0, e1]

end Cert.Kernel.Hand

end
-- ==== Proof.K.GatherRegion13.lean ====
/-
  Gather region 13 (custom_call 13): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody13
import proofs.«414509_j14181982011419_2_alg».proof.Proof.K.GatherBlk13
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk13 (a0 : (pcfg13 (F := F)).Adm) : Prop := ∀ e : S131072.Idx, (a0.1 0 e).toNat < 100000

/-! ## The grid and the result window's blocks -/

/-- On the one-axis grid a point's coordinate is its number. -/
theorem regCoords13 (t : Fin grid13.N) : (grid13.coords t 0).val = t.val := by
  have ht : t.val < 16384 := N_13 ▸ t.isLt
  show t.val / grid13.stride 0 % grid13.bound 0 = t.val
  rw [show grid13.stride 0 = 1 from by decide, show grid13.bound 0 = 16384 from rfl, Nat.div_one, Nat.mod_eq_of_lt ht]

/-- A point's number as the 32-bit word the index maps compute with. -/
theorem regWord13 (t : Fin grid13.N) : (BitVec.ofNat 32 (grid13.coords t 0).val).toNat = t.val := by
  have ht : t.val < 16384 := N_13 ▸ t.isLt
  rw [BitVec.toNat_ofNat, regCoords13]; omega

/-- The result window's block at point `t` is block `t` along the rows, at zero along the lanes. -/
theorem regOutIndex13 (a0 : (pcfg13 (F := F)).Adm) (t : Fin (cfg13 a0).N) : ((cfg13 a0).win 1).index t = ![t.val, 0] := by
  show cc13_transform_2 (grid13.coords t) = _
  unfold cc13_transform_2
  funext a; fin_cases a
  · exact regWord13 t
  · rfl

/-- The result window is written back at every point: consecutive points have different blocks. -/
theorem regOutFlush13 (a0 : (pcfg13 (F := F)).Adm) (t : Fin (cfg13 a0).N) : ((cfg13 a0).win 1).flush t = true := by
  have htN : t.val < 16384 := N_13 ▸ t.isLt
  rw [Pipeline.Window.flush_out _ rfl]
  by_cases h : t.val + 1 = 16384
  · exact Or.inl (show t.val + 1 = grid13.N by rw [N_13]; exact h)
  · have hlt : t.val + 1 < grid13.N := by rw [N_13]; omega
    refine Or.inr ⟨hlt, fun e => ?_⟩
    have e' : (![t.val + 1, 0] : Fin 2 → ℕ) = ![t.val, 0] := (regOutIndex13 a0 ⟨t.val + 1, hlt⟩).symm.trans (e.trans (regOutIndex13 a0 t))
    have e0 := congrFun e' 0
    simp at e0

/-- The index table, held as the pipeline's one prefetched table. -/
theorem prefHeldEq13 (a0 : (pcfg13 (F := F)).Adm) (c : Dev nD) :
    (Pipeline.prefHeld (Ix := Unit) (Name := ℕ) (U := UU nD τ) (Lvl := ℕ) pre13 c (fun _ => fullShare) a0.1 : sProp (MM F))
      = pt c (Memref.whole main_v88) (a0.1 0) := by
  unfold Pipeline.prefHeld
  rw [show (Finset.univ : Finset (Fin pre13.K)) = {0} from rfl, BI.bigSep_singleton]
  rfl

/-- The value window's staging buffer holds its block at every point. -/
theorem beforeVal13 (a0 : (pcfg13 (F := F)).Adm) (Vin : Dev nD → Valuation τ sig (Elt F)) (c : Dev nD) (t : Fin (cfg13 a0).N) (d) :
    (dat13 a0 Vin c).before 0 t d = iblk13 a0 Vin c 0 t :=
  ((dat13 a0 Vin c).before_in_eq_fetched 0 rfl (fun _ => rfl) (fun _ _ _ => rfl)
    (fun t => by rw [after13_0]; unfold Dat.blockOf iblk13; rw [A_eq13]; try rfl) t d).trans
    (by unfold Dat.fetched Dat.blockOf iblk13; rw [A_eq13]; try rfl)

/-! ## The kernel's checks, from the table's range -/

/-- Each of the point's eight words is a word of the table, so a row number. -/
theorem tblWordLt13 (a0 : (pcfg13 (F := F)).Adm) (hok : GatherOk13 a0) (c : Dev nD) (i : grid13.Coords) (j : Fin 8) :
    (tblWord13 c i (a0.1 0) j).toNat < 100000 := by
  unfold tblWord13
  exact hok _

/-- So the kernel's eight checks hold at every point. -/
theorem gatherChk13 (a0 : (pcfg13 (F := F)).Adm) (hok : GatherOk13 a0) (c : Dev nD) (i : grid13.Coords) : GatherChk13 c i (a0.1 0) :=
  ⟨⟨chkRow _ (tblWordLt13 a0 hok c i 0), chkRow _ (tblWordLt13 a0 hok c i 0)⟩,
   ⟨chkRow _ (tblWordLt13 a0 hok c i 1), chkRow _ (tblWordLt13 a0 hok c i 1)⟩,
   ⟨chkRow _ (tblWordLt13 a0 hok c i 2), chkRow _ (tblWordLt13 a0 hok c i 2)⟩,
   ⟨chkRow _ (tblWordLt13 a0 hok c i 3), chkRow _ (tblWordLt13 a0 hok c i 3)⟩,
   ⟨chkRow _ (tblWordLt13 a0 hok c i 4), chkRow _ (tblWordLt13 a0 hok c i 4)⟩,
   ⟨chkRow _ (tblWordLt13 a0 hok c i 5), chkRow _ (tblWordLt13 a0 hok c i 5)⟩,
   ⟨chkRow _ (tblWordLt13 a0 hok c i 6), chkRow _ (tblWordLt13 a0 hok c i 6)⟩,
   chkRow _ (tblWordLt13 a0 hok c i 7)⟩

/-! ## The body obligation, at a generic point -/

/-- What the body is called with at point `t`: the invariant, the core's dues, each window's current staging memref at
    what the pipeline left there, -/
def bodyPre13 (a0 : (pcfg13 (F := F)).Adm) (Vin : Dev nD → Valuation τ sig (Elt F)) (c : Dev nD) (t : Fin (cfg13 a0).N) : sProp (MM F) :=
  iprop((dat13 a0 Vin c).Φ t.castSucc ∗ (dat13 a0 Vin c).owesAt () t.castSucc
    ∗ (∃ d, owns (c : Thread nD τ) (((cfg13 a0).win 0).stage ((cfg13 a0).slots t 0)) fullShare ((dat13 a0 Vin c).before 0 t d))
    ∗ (∃ d, owns (c : Thread nD τ) (((cfg13 a0).win 1).stage ((cfg13 a0).slots t 1)) fullShare ((dat13 a0 Vin c).before 1 t d)))

/-- and what it returns. -/
def bodyPost13 (a0 : (pcfg13 (F := F)).Adm) (Vin : Dev nD → Valuation τ sig (Elt F)) (c : Dev nD) (t : Fin (cfg13 a0).N) : sProp (MM F) :=
  iprop((dat13 a0 Vin c).Φ t.succ ∗ (dat13 a0 Vin c).owesAt () t.succ
    ∗ owns (c : Thread nD τ) (((cfg13 a0).win 0).stage ((cfg13 a0).slots t 0)) fullShare ((dat13 a0 Vin c).after 0 t)
    ∗ owns (c : Thread nD τ) (((cfg13 a0).win 1).stage ((cfg13 a0).slots t 1)) fullShare ((dat13 a0 Vin c).after 1 t))

/-- The body at any point: the invariant opened into the embedding array, the semaphores, the table and the scratch;
    the value window's memref at its block; the checks from the table's range; so the kernel's run applies, and what it
    leaves in the result window's memref is the point's block of the gathered array. -/
theorem sound_body13 (a0 : (pcfg13 (F := F)).Adm) (hok : GatherOk13 a0) (Vin : Dev nD → Valuation τ sig (Elt F)) (c : Dev nD) (t : Fin (cfg13 a0).N) :
    bodyPre13 a0 Vin c t ⊢ wp frame (wpE (defs₀ (F := F)) 𝒱₀ c none) Set.univ
      (defs₀ .tc (cfg13 a0).body ((cfg13 a0).bodyArgs t ((cfg13 a0).slots t))) (fun _ => bodyPost13 a0 Vin c t) := by
  unfold bodyPre13 bodyPost13
  simp only [beforeVal13]
  rw [Phi_eq13, Phi_eq13, after13_0, after13_1, ← gatherBlk_blk13]
  unfold Phi13 Pipeline.Dat.owesAt Pipeline.owesWithin
  rw [owed_eq13, owed_eq13, prefHeldEq13, scopedRest13_split]
  iintro ⟨⟨Hx, Hos, Ht, ⟨%fs, Hs⟩, Hsb⟩, ⟨%W, %hW, HO⟩, ⟨%d0, H0⟩, ⟨%d1, H1⟩⟩
  iapply (gatherRun13 c (grid13.coords t) _ _ _ _ (a0.1 0) (Vr Vin c main_arg0) (iblk13 a0 Vin c 0 t) (gatherChk13 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation13 (a0 : (pcfg13 (F := F)).Adm) (hok : GatherOk13 a0) (Vin : Dev nD → Valuation τ sig (Elt F)) (c : Dev nD) :
    BodyObligation (dat13 a0 Vin c) (defs₀ (F := F)) 𝒱₀ () Set.univ := fun t => by
  rw [bigSep_W13, bigSep_W13]
  exact sound_body13 a0 hok Vin c t

/-! ## From the blocks to the arrays -/

/-- The value array after the region: as entered. -/
theorem arrAt13_in (a0 : (pcfg13 (F := F)).Adm) (Vin : Dev nD → Valuation τ sig (Elt F)) (c : Dev nD) :
    (dat13 a0 Vin c).arrAt 0 (cfg13 a0).N = Vr Vin c main_v89 :=
  ((dat13 a0 Vin c).arrAt_in 0 rfl _).trans (A_eq13 a0 Vin c 0)

/-- Every index of the result array is in some point's block: row `e`, lane `d` is element `(e % 8, d)` of the block
    of point `e / 8`. -/
theorem regOutCover13 (a0 : (pcfg13 (F := F)).Adm) (i : S131072x128.Idx) :
    ∃ t : Fin (cfg13 a0).N, ((cfg13 a0).win 1).flush t = true ∧ i ∈ (((cfg13 a0).win 1).blk t).view.set := by
  have hi0 : (i 0).val < 131072 := (i 0).isLt
  have hi1 : (i 1).val < 128 := (i 1).isLt
  have hN : (i 0).val / 8 < grid13.N := by rw [N_13]; omega
  obtain ⟨t, ht⟩ : ∃ t : Fin (cfg13 a0).N, t.val = (i 0).val / 8 := ⟨⟨_, hN⟩, rfl⟩
  have hx : (((cfg13 a0).win 1).blk t).view.emb (ValueIdx.ix2 ⟨(i 0).val % 8, Nat.mod_lt _ (by decide)⟩ (i 1)) = i := by
    funext a; apply Fin.ext
    have e0 : ((cfg13 a0).win 1).index t (0 : Fin 2) = t.val := congrFun (regOutIndex13 a0 t) (0 : Fin 2)
    have e1 : ((cfg13 a0).win 1).index t (1 : Fin 2) = 0 := congrFun (regOutIndex13 a0 t) (1 : Fin 2)
    match a with
    | ⟨0, _⟩ => show ((cfg13 a0).win 1).index t (0 : Fin 2) * 8 + 1 * ((i 0).val % 8) = (i 0).val; omega
    | ⟨1, _⟩ => show ((cfg13 a0).win 1).index t (1 : Fin 2) * 128 + 1 * (i 1).val = (i 1).val; omega
  exact ⟨t, regOutFlush13 a0 t, hx ▸ (((cfg13 a0).win 1).blk t).view.emb_mem_set _⟩

/-- The result array after the region: the gathered and scaled rows, whole. -/
theorem arrAt13_out (a0 : (pcfg13 (F := F)).Adm) (Vin : Dev nD → Valuation τ sig (Elt F)) (c : Dev nD) :
    (dat13 a0 Vin c).arrAt 1 (cfg13 a0).N = gout13 a0 Vin c :=
  (dat13 a0 Vin c).arrAt_eq_of_cover 1 (gout13 a0 Vin c)
    (fun t _ => by
      show ((cfg13 a0).win 1).cut ((cfg13 a0).grid.coords t) ((dat13 a0 Vin c).after 1 t) = _
      rw [after13_1])
    (regOutCover13 a0)

/-! ## The region as a segment of @main -/

/-- The ownership layout of the kernel's eight semaphores. -/
theorem ownSemFacts13 : Pipeline.OwnSemFacts spec13 osem13 := by decide

/-- The kernel's own cells at zero, listed. -/
theorem ownSemsListed13 (c : Dev nD) :
    (Pipeline.ownSems0 (Ix := Unit) (Name := ℕ) (U := UU nD τ) (Lvl := ℕ) (Val := Elt F) (τ := τ) osem13 c : sProp (MM F)) = sems13 c :=
  Pipeline.ownSems0_eq_of_list c osem13 [0, 1, 2, 3, 4, 5, 6, 7] (by decide) (by decide)

/-- The unscoped buffers that are no window's array, no table, and not the embedding array. -/
abbrev restRefs13 : Finset (Ref sig .tc) :=
  (((Finset.univ.filter fun b : Ref sig .tc => ¬ b.isScoped) \ Finset.univ.image (Pipeline.arrRef spec13)) \ Finset.univ.image pre13.ref) \ {main_arg0}

/-- Those buffers, each whole at its contents under `Vin`: what bypasses the region. -/
def Zrest13 (Vin : Dev nD → Valuation τ sig (Elt F)) (c : Dev nD) : sProp (MM F) :=
  bigSep restRefs13 fun b => ((c : Thread nD τ).loc b) ↦{fullShare} Vr Vin c b

/-- The embedding array is an unscoped buffer that is no window's array and no table. -/
theorem embArrMem13 : ({main_arg0} : Finset (Ref sig .tc)) ⊆
    ((Finset.univ.filter fun b : Ref sig .tc => ¬ b.isScoped) \ Finset.univ.image (Pipeline.arrRef spec13)) \ Finset.univ.image pre13.ref := by
  decide

/-- The unscoped buffers that are no window's array: the index table, the embedding array, and the rest. -/
theorem unscopedRestOpen13 (Vin : Dev nD → Valuation τ sig (Elt F)) (c : Dev nD) :
    (Pipeline.unscopedRest (Ix := Unit) (Name := ℕ) (U := UU nD τ) (Lvl := ℕ) spec13 c (Vr Vin c) : sProp (MM F))
      = iprop(Pipeline.prefHeld pre13 c (fun _ => fullShare) (fun k => Vr Vin c (pre13.ref k))
          ∗ pt c (Memref.whole main_arg0) (Vr Vin c main_arg0) ∗ Zrest13 Vin c) := by
  rw [Pipeline.unscopedRest_split preFacts13 c (Vr Vin c)]
  unfold Pipeline.unscopedRestP Zrest13
  rw [BI.bigSep_sdiff_split embArrMem13, BI.bigSep_singleton]
  rfl

/-- The buffer contents when the region is left: the result array at the gathered rows, every other buffer as entered. -/
abbrev Vout13 (a0 : (pcfg13 (F := F)).Adm) (Vin : Dev nD → Valuation τ sig (Elt F)) (c : Dev nD) : Valuation τ sig (Elt F) :=
  Function.update (Vin c) main_v90 (gout13 a0 Vin c)

/-- At the exit each of the region's arrays holds what the pipeline leaves; -/
theorem hF13 (a0 : (pcfg13 (F := F)).Adm) (Vin : Dev nD → Valuation τ sig (Elt F)) (c : Dev nD) (w : Fin (cfg13 a0).W) :
    (dat13 a0 Vin c).arrAt w (cfg13 a0).N = Vr (Vout13 a0 Vin) c (Pipeline.arrRef spec13 w) := by
  match w with
  | ⟨0, _⟩ =>
    show (dat13 a0 Vin c).arrAt 0 (cfg13 a0).N = Vr (Vout13 a0 Vin) c (Pipeline.arrRef spec13 0)
    rw [arrAt13_in]
    exact (Function.update_of_ne (StableHlo.devRef_ne_of_ne (by decide) : (Proc.devRef .tc main_v89 : DevRef τ sig) ≠ Proc.devRef .tc main_v90) _ _).symm
  | ⟨1, _⟩ =>
    show (dat13 a0 Vin c).arrAt 1 (cfg13 a0).N = Vr (Vout13 a0 Vin) c (Pipeline.arrRef spec13 1)
    rw [arrAt13_out]
    exact (Function.update_self (Proc.devRef .tc main_v90 : DevRef τ sig) _ (Vin c)).symm

/-- and every other buffer what it held at entry. -/
theorem hrest13 (a0 : (pcfg13 (F := F)).Adm) (Vin : Dev nD → Valuation τ sig (Elt F)) (c : Dev nD) :
    ∀ b : Ref sig .tc, b ∉ Finset.univ.image (Pipeline.arrRef spec13) → Vr (Vout13 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat13` at the entry valuation `Vin`
    (`hd`), the index table's contents under `Vin` being the pinned ones (`htbl`) and row numbers (`hok`). -/
def reg13 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk13 (F := F) (a (13 : Fin 34)))
    (hd : ∀ c, pdats (13 : Fin 34) c = dat13 (a (13 : Fin 34)) Vin c) (htbl : ∀ c, (a (13 : Fin 34)).1 = fun k => Vr Vin c (pre13.ref k)) :
    Pipeline.RegionSeg (pcfgs (F := F)) a pdats () defs₀ 𝒱₀ L lv (13 : Fin 34) where
  win := (launch13 (F := F)).win.to₀
  block_pos := (launch13 (F := F)).block_pos
  stage_whole := (launch13 (F := F)).stage_whole
  K := Fin 8
  osem := osem13
  ho := ownSemFacts13
  hbody c := by rw [hd c]; exact (body_obligation13 (a (13 : Fin 34)) hok Vin c).loose
  hwaits := Pipeline.hwaits_of_owed_zero _ _ _ _ L lv (13 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v90 (gout13 (a (13 : Fin 34)) Vin c)) ∗ Rest c)
  X c := iprop(pt c (Memref.whole main_arg0) (Vr Vin c main_arg0) ∗ sems13 c)
  Y c := iprop(pt c (Memref.whole main_arg0) (Vr Vin c main_arg0)
    ∗ Pipeline.prefHeld (Ix := Unit) (Name := ℕ) (U := UU nD τ) (Lvl := ℕ) pre13 c (fun _ => fullShare) (a (13 : Fin 34)).1)
  Z c := Zrest13 Vin c
  hentry c := by
    rw [ownSemsListed13]
    have hsplit := Pipeline.arrays_of_unscopedBufs (p := (13 : Fin 34)) (pcfgs (F := F)) a pdats (launch13 (F := F)).win (launch13 (F := F)).arr_whole c
      ((pdats (13 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen13 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (13 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq13]; unfold Phi13
    iintro ⟨⟨Hx, Hos⟩, Ht, Hr⟩
    isplitl [Hx]; · iexact Hx
    isplitl [Hos]; · iexact Hos
    isplitl [Ht]; · iexact Ht
    iexact Hr
  hout c := by
    rw [ownSemsListed13, hd c, Phi_eq13]; unfold Phi13
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (13 : Fin 34)) (pcfgs (F := F)) a (Ix := Unit) (Name := ℕ) (U := UU nD τ) (Lvl := ℕ)
      (launch13 (F := F)).win (launch13 (F := F)).arr_whole c pdats ((pdats (13 : Fin 34) c).share_full fun _ => by rw [hd c]; rfl)
      (Vr Vin c) (Vr (Vout13 (a (13 : Fin 34)) Vin) c) ((pdats (13 : Fin 34) c).arrAt · (cfg13 (a (13 : Fin 34))).N)
      (fun w => by rw [hd c]; exact hF13 (a (13 : Fin 34)) Vin c w) (hrest13 (a (13 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen13 Vin c).symm)
      isplitl [Ht]; · rw [← htbl c]; iexact Ht
      isplitl [Hx]; · iexact Hx
      iexact Hz
    unfold Pipeline.Dat.owesAt Pipeline.owesWithin
    rw [show (pdats (13 : Fin 34) c).owed (Fin.last _) = 0 from by rw [hd c]; rfl]
    icases HO with ⟨%W, -, HO⟩; iexists W; iexact HO

end Cert.Kernel.Hand

end
-- ==== Proof.K.GatherDat14.lean ====
/-
  Gather region 14 (custom_call 14): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem14 : Fin 8 → SemLoc sig := fun | 0 => .dma 172 | 1 => .dma 173 | 2 => .dma 174 | 3 => .dma 175 | 4 => .dma 176 | 5 => .dma 177 | 6 => .dma 178 | 7 => .dma 179

/-- The eight counters at zero, as the run finds them and hands them back. -/
abbrev sems14 (c : Dev nD) : sProp (MM F) :=
  iprop(semVal ((c : Thread nD τ), osem14 0) 0 ∗ semVal ((c : Thread nD τ), osem14 1) 0 ∗ semVal ((c : Thread nD τ), osem14 2) 0
    ∗ semVal ((c : Thread nD τ), osem14 3) 0 ∗ semVal ((c : Thread nD τ), osem14 4) 0 ∗ semVal ((c : Thread nD τ), osem14 5) 0
    ∗ semVal ((c : Thread nD τ), osem14 6) 0 ∗ semVal ((c : Thread nD τ), osem14 7) 0)

/-- Word `j` of the eight the index table holds for point `i`, as the kernel's scalar load reads it. -/
def tblWord14 (c : Dev nD) (i : grid14.Coords) (tbl : Bf (F := F) c (Memref.whole main_v91)) (j : Fin 8) : BitVec 32 :=
  (Memref.whole main_v91).view.readAt (Elt F) (Rect.unit (s := S131072) (k14_off1 i (BitVec.ofNat 32 j.val)) S1.size (k14_off1_inb i j)).toLoadRect tbl
    (Shape.Idx.first (s := S1) (numel1_S1.symm ▸ Nat.one_pos))

/-- Window `w`'s block at point `t`, read off its array at the region's entry. -/
def iblk14 (a0 : (pcfg14 (F := F)).Adm) (Vin : Dev nD → Valuation τ sig (Elt F)) (c : Dev nD) (w : Fin (cfg14 a0).W) (t : Fin (cfg14 a0).N) :
    (((cfg14 a0).win w).xblock ((cfg14 a0).grid.coords t)).Idx → Elt F ((cfg14 a0).win w).elt :=
  (((cfg14 a0).win w).blk t).view.read (Elt F) (Vr Vin c (Pipeline.arrRef spec14 w))

/-- The result array the region leaves: the gathered and scaled rows of the embedding array, whole. -/
def gout14 (a0 : (pcfg14 (F := F)).Adm) (Vin : Dev nD → Valuation τ sig (Elt F)) (c : Dev nD) : Buf (Elt F) ((c : Thread nD τ).loc main_v93) :=
  gatherArr (Vr Vin c main_arg0) (a0.1 0) (Vr Vin c main_v92)

/-- The invariant between points: the embedding array as entered, the kernel's semaphores at zero, the index table, the
    scoped buffers no window stages (the kernel's scratch among them). -/
def Phi14 (a0 : (pcfg14 (F := F)).Adm) (Vin : Dev nD → Valuation τ sig (Elt F)) (c : Dev nD) : sProp (MM F) :=
  iprop(pt c (Memref.whole main_arg0) (Vr Vin c main_arg0) ∗ sems14 c
    ∗ Pipeline.prefHeld (Ix := Unit) (Name := ℕ) (U := UU nD τ) (Lvl := ℕ) pre14 c (fun _ => fullShare) a0.1
    ∗ Pipeline.scopedRest (Ix := Unit) (Name := ℕ) (U := UU nD τ) (Lvl := ℕ) (Val := Elt F) spec14 c)

/-- The proof data on core `c`. -/
def dat14 (a0 : (pcfg14 (F := F)).Adm) (Vin : Dev nD → Valuation τ sig (Elt F)) (c : Dev nD) :
    Pipeline.Dat τ (Elt F) Unit ℕ (UU nD τ) ℕ ((pcfg14 (F := F)).at a0) c where
  A w := Vr Vin c (Pipeline.arrRef spec14 w)
  after w t := match w with
    | ⟨0, _⟩ => iblk14 a0 Vin c 0 t
    | ⟨1, _⟩ => (((cfg14 a0).win 1).blk t).view.read (Elt F) (gout14 a0 Vin c)
  Φ _ := Phi14 a0 Vin c
  q _ := fullShare
  owed _ := 0

theorem A_eq14 (a0 : (pcfg14 (F := F)).Adm) (Vin : Dev nD → Valuation τ sig (Elt F)) (c : Dev nD) (w : Fin (cfg14 a0).W) :
    (dat14 a0 Vin c).A w = Vr Vin c (Pipeline.arrRef spec14 w) := by dsimp only [dat14]
theorem after14_0 (a0 : (pcfg14 (F := F)).Adm) (Vin : Dev nD → Valuation τ sig (Elt F)) (c : Dev nD) (t : Fin (cfg14 a0).N) :
    (dat14 a0 Vin c).after 0 t = iblk14 a0 Vin c 0 t := by dsimp only [dat14]; rfl
theorem after14_1 (a0 : (pcfg14 (F := F)).Adm) (Vin : Dev nD → Valuation τ sig (Elt F)) (c : Dev nD) (t : Fin (cfg14 a0).N) :
    (dat14 a0 Vin c).after 1 t = (((cfg14 a0).win 1).blk t).view.read (Elt F) (gout14 a0 Vin c) := by dsimp only [dat14]; rfl
theorem Phi_eq14 (a0 : (pcfg14 (F := F)).Adm) (Vin : Dev nD → Valuation τ sig (Elt F)) (c : Dev nD) (t : Fin ((cfg14 a0).N + 1)) :
    (dat14 a0 Vin c).Φ t = Phi14 a0 Vin c := rfl
theorem owed_eq14 (a0 : (pcfg14 (F := F)).Adm) (Vin : Dev nD → Valuation τ sig (Elt F)) (c : Dev nD) (t : Fin ((cfg14 a0).N + 1)) :
    (dat14 a0 Vin c).owed t = 0 := rfl
theorem q_eq14 (a0 : (pcfg14 (F := F)).Adm) (Vin : Dev nD → Valuation τ sig (Elt F)) (c : Dev nD) (w : Fin (cfg14 a0).W) :
    (dat14 a0 Vin c).q w = fullShare := rfl

/-- The pinned family's configuration at region 14 is this one. -/
example (a : (p : Fin 34) → (pcfgs (F := F) p).Adm) : Pipeline.pin (pcfgs (F := F)) a (14 : Fin 34) = (pcfg14 (F := F)).at (a (14 : Fin 34)) := rfl

end Cert.Kernel.Hand

end
-- ==== Proof.K.GatherBody14.lean ====
/-
  Gather region 14 (custom_call 14): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat14
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk14 (c : Dev nD) (i : grid14.Coords) (tbl : Bf (F := F) c (Memref.whole main_v91)) : Prop where
  h1 : k14_chk1 (tblWord14 c i tbl 0)
  h2 : k14_chk2 (tblWord14 c i tbl 1)
  h3 : k14_chk3 (tblWord14 c i tbl 2)
  h4 : k14_chk4 (tblWord14 c i tbl 3)
  h5 : k14_chk5 (tblWord14 c i tbl 4)
  h6 : k14_chk6 (tblWord14 c i tbl 5)
  h7 : k14_chk7 (tblWord14 c i tbl 6)
  h8 : k14_chk8 (tblWord14 c i tbl 7)

/-- A one-row slice of the embedding array at the row a word names, read at lane `z 1`: the array's element there. -/
theorem rowRead14 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun14 (c : Dev nD) (i : grid14.Coords)
    (M3 : Memref sig .tc .vmem S8x1 .f32) (h3 : M3.IsWhole) (M4 : Memref sig .tc .vmem S8x128 .f32) (h4 : M4.IsWhole)
    (tbl : Bf (F := F) c (Memref.whole main_v91)) (x : Bf (F := F) c (Memref.whole main_arg0))
    (vb : Vec F S8x1 .f32) (hchk : GatherChk14 c i tbl) (Q : PUnit → sProp (MM F)) :
    iprop(pt c (Memref.whole main_v91) tbl ∗ pt c (Memref.whole main_arg0) x
      ∗ owns (c : Thread nD τ) M3 fullShare vb ∗ (∃ d, owns (c : Thread nD τ) M4 fullShare d)
      ∗ (∃ fs, pt c (Memref.whole cc14_scratch0) fs) ∗ sems14 c ∗ (∃ W, owes (c : Thread nD τ) (0 : CellTallies nD τ sig Unit) W)
      ∗ (iprop(pt c (Memref.whole main_v91) tbl ∗ pt c (Memref.whole main_arg0) x
          ∗ owns (c : Thread nD τ) M3 fullShare vb ∗ owns (c : Thread nD τ) M4 fullShare (gatherBlk x (tblWord14 c i tbl) vb)
          ∗ (∃ fs, pt c (Memref.whole cc14_scratch0) fs) ∗ sems14 c ∗ (∃ W, owes (c : Thread nD τ) (0 : CellTallies nD τ sig Unit) W)) -∗ Q ⟨⟩))
    ⊢ wp frame (wpE (defs₀ (F := F)) 𝒱₀ c none) Set.univ
        (cc14__gather_kernel i (Memref.whole main_v91) (Memref.isWhole_whole _) (Memref.whole main_arg0) (Memref.isWhole_whole _) M3 h3 M4 h4
          (Memref.whole cc14_scratch0) (Memref.isWhole_whole _) cc14_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 172).1 $$ Hx
  icases Hx' with ⟨Hxr, Hx0, Hx1, Hx2, Hx3, Hx4, Hx5, Hx6, Hx7⟩
  sl_unfold [cc14__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 172).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k14_pay1 gatherBlk
    show FloatOps.mulf _ _ = FloatOps.mulf _ _
    congr 1
    · unfold gatherRun14.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun14.sl.dma8 gatherRun14.sl.dma8_1 gatherRun14.sl.dma8_2 gatherRun14.sl.dma8_3 gatherRun14.sl.dma8_4 gatherRun14.sl.dma8_5
        gatherRun14.sl.dma8_6 gatherRun14.sl.dma8_7 gatherRun14.sl.r gatherRun14.sl.r_1 gatherRun14.sl.r_2 gatherRun14.sl.r_3 gatherRun14.sl.r_4
        gatherRun14.sl.r_5 gatherRun14.sl.r_6 gatherRun14.sl.r_7
      refine canonRows8 _ _ _ _ _ _ _ _ _ _ _ _ _ _ _ _ (fun r d => x (embIdx (rowOf (tblWord14 c i tbl r)) d)) ?_ ?_ ?_ ?_ ?_ ?_ ?_ ?_ y
      · exact fun z => rowRead14 c _ (tblWord14 c i tbl 0) rfl rfl _ _ x z
      · exact fun z => rowRead14 c _ (tblWord14 c i tbl 1) rfl rfl _ _ x z
      · exact fun z => rowRead14 c _ (tblWord14 c i tbl 2) rfl rfl _ _ x z
      · exact fun z => rowRead14 c _ (tblWord14 c i tbl 3) rfl rfl _ _ x z
      · exact fun z => rowRead14 c _ (tblWord14 c i tbl 4) rfl rfl _ _ x z
      · exact fun z => rowRead14 c _ (tblWord14 c i tbl 5) rfl rfl _ _ x z
      · exact fun z => rowRead14 c _ (tblWord14 c i tbl 6) rfl rfl _ _ x z
      · exact fun z => rowRead14 c _ (tblWord14 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk14.lean ====
/-
  Gather region 14 (custom_call 14): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat14
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word14 (i : grid14.Coords) (j : Fin 8) : k14_off1 i (BitVec.ofNat 32 j.val) 0 = (i 0).val * 8 + j.val := by
  have hi : (i 0).val < 16384 := (i 0).isLt
  have hj : j.val < 8 := j.isLt
  unfold k14_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word14 (i : grid14.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord14_eq (c : Dev nD) (i : grid14.Coords) (tbl : Bf (F := F) c (Memref.whole main_v91)) (j : Fin 8)
    (e : Fin 131072) (he : e.val = (i 0).val * 8 + j.val) : tblWord14 c i tbl j = tbl (tblIdx e) := by
  unfold tblWord14
  show tbl _ = tbl _
  refine congrArg tbl ?_
  funext a; apply Fin.ext
  match a with
  | ⟨0, _⟩ =>
    show k14_off1 i (BitVec.ofNat 32 j.val) 0 + 1 * 0 = e.val
    rw [off_word14, he]; omega

/-- Row `j` of the value window's block at point `t` is the value array's row `8 t + j`. -/
theorem valBlk14_eq (a0 : (pcfg14 (F := F)).Adm) (Vin : Dev nD → Valuation τ sig (Elt F)) (c : Dev nD) (t : Fin (cfg14 a0).N)
    (j : Fin 8) (e : Fin 131072) (he : e.val = ((grid14.coords t) 0).val * 8 + j.val) :
    iblk14 a0 Vin c 0 t (colIdx j) = Vr Vin c main_v92 (valIdx e) := by
  unfold iblk14
  show Vr Vin c main_v92 _ = Vr Vin c main_v92 _
  refine congrArg (Vr Vin c main_v92) ?_
  funext a; apply Fin.ext
  match a with
  | ⟨0, _⟩ =>
    show (BitVec.ofNat 32 ((grid14.coords t) 0).val).toNat * 8 + 1 * j.val = e.val
    rw [coord_word14, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk14 (a0 : (pcfg14 (F := F)).Adm) (Vin : Dev nD → Valuation τ sig (Elt F)) (c : Dev nD) (t : Fin (cfg14 a0).N) :
    gatherBlk (Vr Vin c main_arg0) (tblWord14 c (grid14.coords t) (a0.1 0)) (iblk14 a0 Vin c 0 t)
      = (((cfg14 a0).win 1).blk t).view.read (Elt F) (gout14 a0 Vin c) := by
  funext y
  show gatherBlk _ _ _ y = gout14 a0 Vin c ((((cfg14 a0).win 1).blk t).view.emb y)
  unfold gatherBlk gout14 gatherArr
  have e0 : ((((cfg14 a0).win 1).blk t).view.emb y (0 : Fin 2)).val = ((grid14.coords t) 0).val * 8 + (y 0).val := by
    show (BitVec.ofNat 32 ((grid14.coords t) 0).val).toNat * 8 + 1 * (y 0).val = _
    rw [coord_word14]; omega
  have e1 : (((cfg14 a0).win 1).blk t).view.emb y (1 : Fin 2) = y 1 := Fin.ext (by
    show (0#32 : BitVec 32).toNat * 128 + 1 * (y 1).val = (y 1).val
    show 0 * 128 + 1 * (y 1).val = (y 1).val
    omega)
  rw [tblWord14_eq c (grid14.coords t) (a0.1 0) (y 0) _ e0, valBlk14_eq a0 Vin c t (y 0) _ e0, e1]

end Cert.Kernel.Hand

end
-- ==== Proof.K.GatherRegion14.lean ====
/-
  Gather region 14 (custom_call 14): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody14
import proofs.«414509_j14181982011419_2_alg».proof.Proof.K.GatherBlk14
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk14 (a0 : (pcfg14 (F := F)).Adm) : Prop := ∀ e : S131072.Idx, (a0.1 0 e).toNat < 100000

/-! ## The grid and the result window's blocks -/

/-- On the one-axis grid a point's coordinate is its number. -/
theorem regCoords14 (t : Fin grid14.N) : (grid14.coords t 0).val = t.val := by
  have ht : t.val < 16384 := N_14 ▸ t.isLt
  show t.val / grid14.stride 0 % grid14.bound 0 = t.val
  rw [show grid14.stride 0 = 1 from by decide, show grid14.bound 0 = 16384 from rfl, Nat.div_one, Nat.mod_eq_of_lt ht]

/-- A point's number as the 32-bit word the index maps compute with. -/
theorem regWord14 (t : Fin grid14.N) : (BitVec.ofNat 32 (grid14.coords t 0).val).toNat = t.val := by
  have ht : t.val < 16384 := N_14 ▸ t.isLt
  rw [BitVec.toNat_ofNat, regCoords14]; omega

/-- The result window's block at point `t` is block `t` along the rows, at zero along the lanes. -/
theorem regOutIndex14 (a0 : (pcfg14 (F := F)).Adm) (t : Fin (cfg14 a0).N) : ((cfg14 a0).win 1).index t = ![t.val, 0] := by
  show cc14_transform_2 (grid14.coords t) = _
  unfold cc14_transform_2
  funext a; fin_cases a
  · exact regWord14 t
  · rfl

/-- The result window is written back at every point: consecutive points have different blocks. -/
theorem regOutFlush14 (a0 : (pcfg14 (F := F)).Adm) (t : Fin (cfg14 a0).N) : ((cfg14 a0).win 1).flush t = true := by
  have htN : t.val < 16384 := N_14 ▸ t.isLt
  rw [Pipeline.Window.flush_out _ rfl]
  by_cases h : t.val + 1 = 16384
  · exact Or.inl (show t.val + 1 = grid14.N by rw [N_14]; exact h)
  · have hlt : t.val + 1 < grid14.N := by rw [N_14]; omega
    refine Or.inr ⟨hlt, fun e => ?_⟩
    have e' : (![t.val + 1, 0] : Fin 2 → ℕ) = ![t.val, 0] := (regOutIndex14 a0 ⟨t.val + 1, hlt⟩).symm.trans (e.trans (regOutIndex14 a0 t))
    have e0 := congrFun e' 0
    simp at e0

/-- The index table, held as the pipeline's one prefetched table. -/
theorem prefHeldEq14 (a0 : (pcfg14 (F := F)).Adm) (c : Dev nD) :
    (Pipeline.prefHeld (Ix := Unit) (Name := ℕ) (U := UU nD τ) (Lvl := ℕ) pre14 c (fun _ => fullShare) a0.1 : sProp (MM F))
      = pt c (Memref.whole main_v91) (a0.1 0) := by
  unfold Pipeline.prefHeld
  rw [show (Finset.univ : Finset (Fin pre14.K)) = {0} from rfl, BI.bigSep_singleton]
  rfl

/-- The value window's staging buffer holds its block at every point. -/
theorem beforeVal14 (a0 : (pcfg14 (F := F)).Adm) (Vin : Dev nD → Valuation τ sig (Elt F)) (c : Dev nD) (t : Fin (cfg14 a0).N) (d) :
    (dat14 a0 Vin c).before 0 t d = iblk14 a0 Vin c 0 t :=
  ((dat14 a0 Vin c).before_in_eq_fetched 0 rfl (fun _ => rfl) (fun _ _ _ => rfl)
    (fun t => by rw [after14_0]; unfold Dat.blockOf iblk14; rw [A_eq14]; try rfl) t d).trans
    (by unfold Dat.fetched Dat.blockOf iblk14; rw [A_eq14]; try rfl)

/-! ## The kernel's checks, from the table's range -/

/-- Each of the point's eight words is a word of the table, so a row number. -/
theorem tblWordLt14 (a0 : (pcfg14 (F := F)).Adm) (hok : GatherOk14 a0) (c : Dev nD) (i : grid14.Coords) (j : Fin 8) :
    (tblWord14 c i (a0.1 0) j).toNat < 100000 := by
  unfold tblWord14
  exact hok _

/-- So the kernel's eight checks hold at every point. -/
theorem gatherChk14 (a0 : (pcfg14 (F := F)).Adm) (hok : GatherOk14 a0) (c : Dev nD) (i : grid14.Coords) : GatherChk14 c i (a0.1 0) :=
  ⟨⟨chkRow _ (tblWordLt14 a0 hok c i 0), chkRow _ (tblWordLt14 a0 hok c i 0)⟩,
   ⟨chkRow _ (tblWordLt14 a0 hok c i 1), chkRow _ (tblWordLt14 a0 hok c i 1)⟩,
   ⟨chkRow _ (tblWordLt14 a0 hok c i 2), chkRow _ (tblWordLt14 a0 hok c i 2)⟩,
   ⟨chkRow _ (tblWordLt14 a0 hok c i 3), chkRow _ (tblWordLt14 a0 hok c i 3)⟩,
   ⟨chkRow _ (tblWordLt14 a0 hok c i 4), chkRow _ (tblWordLt14 a0 hok c i 4)⟩,
   ⟨chkRow _ (tblWordLt14 a0 hok c i 5), chkRow _ (tblWordLt14 a0 hok c i 5)⟩,
   ⟨chkRow _ (tblWordLt14 a0 hok c i 6), chkRow _ (tblWordLt14 a0 hok c i 6)⟩,
   chkRow _ (tblWordLt14 a0 hok c i 7)⟩

/-! ## The body obligation, at a generic point -/

/-- What the body is called with at point `t`: the invariant, the core's dues, each window's current staging memref at
    what the pipeline left there, -/
def bodyPre14 (a0 : (pcfg14 (F := F)).Adm) (Vin : Dev nD → Valuation τ sig (Elt F)) (c : Dev nD) (t : Fin (cfg14 a0).N) : sProp (MM F) :=
  iprop((dat14 a0 Vin c).Φ t.castSucc ∗ (dat14 a0 Vin c).owesAt () t.castSucc
    ∗ (∃ d, owns (c : Thread nD τ) (((cfg14 a0).win 0).stage ((cfg14 a0).slots t 0)) fullShare ((dat14 a0 Vin c).before 0 t d))
    ∗ (∃ d, owns (c : Thread nD τ) (((cfg14 a0).win 1).stage ((cfg14 a0).slots t 1)) fullShare ((dat14 a0 Vin c).before 1 t d)))

/-- and what it returns. -/
def bodyPost14 (a0 : (pcfg14 (F := F)).Adm) (Vin : Dev nD → Valuation τ sig (Elt F)) (c : Dev nD) (t : Fin (cfg14 a0).N) : sProp (MM F) :=
  iprop((dat14 a0 Vin c).Φ t.succ ∗ (dat14 a0 Vin c).owesAt () t.succ
    ∗ owns (c : Thread nD τ) (((cfg14 a0).win 0).stage ((cfg14 a0).slots t 0)) fullShare ((dat14 a0 Vin c).after 0 t)
    ∗ owns (c : Thread nD τ) (((cfg14 a0).win 1).stage ((cfg14 a0).slots t 1)) fullShare ((dat14 a0 Vin c).after 1 t))

/-- The body at any point: the invariant opened into the embedding array, the semaphores, the table and the scratch;
    the value window's memref at its block; the checks from the table's range; so the kernel's run applies, and what it
    leaves in the result window's memref is the point's block of the gathered array. -/
theorem sound_body14 (a0 : (pcfg14 (F := F)).Adm) (hok : GatherOk14 a0) (Vin : Dev nD → Valuation τ sig (Elt F)) (c : Dev nD) (t : Fin (cfg14 a0).N) :
    bodyPre14 a0 Vin c t ⊢ wp frame (wpE (defs₀ (F := F)) 𝒱₀ c none) Set.univ
      (defs₀ .tc (cfg14 a0).body ((cfg14 a0).bodyArgs t ((cfg14 a0).slots t))) (fun _ => bodyPost14 a0 Vin c t) := by
  unfold bodyPre14 bodyPost14
  simp only [beforeVal14]
  rw [Phi_eq14, Phi_eq14, after14_0, after14_1, ← gatherBlk_blk14]
  unfold Phi14 Pipeline.Dat.owesAt Pipeline.owesWithin
  rw [owed_eq14, owed_eq14, prefHeldEq14, scopedRest14_split]
  iintro ⟨⟨Hx, Hos, Ht, ⟨%fs, Hs⟩, Hsb⟩, ⟨%W, %hW, HO⟩, ⟨%d0, H0⟩, ⟨%d1, H1⟩⟩
  iapply (gatherRun14 c (grid14.coords t) _ _ _ _ (a0.1 0) (Vr Vin c main_arg0) (iblk14 a0 Vin c 0 t) (gatherChk14 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation14 (a0 : (pcfg14 (F := F)).Adm) (hok : GatherOk14 a0) (Vin : Dev nD → Valuation τ sig (Elt F)) (c : Dev nD) :
    BodyObligation (dat14 a0 Vin c) (defs₀ (F := F)) 𝒱₀ () Set.univ := fun t => by
  rw [bigSep_W14, bigSep_W14]
  exact sound_body14 a0 hok Vin c t

/-! ## From the blocks to the arrays -/

/-- The value array after the region: as entered. -/
theorem arrAt14_in (a0 : (pcfg14 (F := F)).Adm) (Vin : Dev nD → Valuation τ sig (Elt F)) (c : Dev nD) :
    (dat14 a0 Vin c).arrAt 0 (cfg14 a0).N = Vr Vin c main_v92 :=
  ((dat14 a0 Vin c).arrAt_in 0 rfl _).trans (A_eq14 a0 Vin c 0)

/-- Every index of the result array is in some point's block: row `e`, lane `d` is element `(e % 8, d)` of the block
    of point `e / 8`. -/
theorem regOutCover14 (a0 : (pcfg14 (F := F)).Adm) (i : S131072x128.Idx) :
    ∃ t : Fin (cfg14 a0).N, ((cfg14 a0).win 1).flush t = true ∧ i ∈ (((cfg14 a0).win 1).blk t).view.set := by
  have hi0 : (i 0).val < 131072 := (i 0).isLt
  have hi1 : (i 1).val < 128 := (i 1).isLt
  have hN : (i 0).val / 8 < grid14.N := by rw [N_14]; omega
  obtain ⟨t, ht⟩ : ∃ t : Fin (cfg14 a0).N, t.val = (i 0).val / 8 := ⟨⟨_, hN⟩, rfl⟩
  have hx : (((cfg14 a0).win 1).blk t).view.emb (ValueIdx.ix2 ⟨(i 0).val % 8, Nat.mod_lt _ (by decide)⟩ (i 1)) = i := by
    funext a; apply Fin.ext
    have e0 : ((cfg14 a0).win 1).index t (0 : Fin 2) = t.val := congrFun (regOutIndex14 a0 t) (0 : Fin 2)
    have e1 : ((cfg14 a0).win 1).index t (1 : Fin 2) = 0 := congrFun (regOutIndex14 a0 t) (1 : Fin 2)
    match a with
    | ⟨0, _⟩ => show ((cfg14 a0).win 1).index t (0 : Fin 2) * 8 + 1 * ((i 0).val % 8) = (i 0).val; omega
    | ⟨1, _⟩ => show ((cfg14 a0).win 1).index t (1 : Fin 2) * 128 + 1 * (i 1).val = (i 1).val; omega
  exact ⟨t, regOutFlush14 a0 t, hx ▸ (((cfg14 a0).win 1).blk t).view.emb_mem_set _⟩

/-- The result array after the region: the gathered and scaled rows, whole. -/
theorem arrAt14_out (a0 : (pcfg14 (F := F)).Adm) (Vin : Dev nD → Valuation τ sig (Elt F)) (c : Dev nD) :
    (dat14 a0 Vin c).arrAt 1 (cfg14 a0).N = gout14 a0 Vin c :=
  (dat14 a0 Vin c).arrAt_eq_of_cover 1 (gout14 a0 Vin c)
    (fun t _ => by
      show ((cfg14 a0).win 1).cut ((cfg14 a0).grid.coords t) ((dat14 a0 Vin c).after 1 t) = _
      rw [after14_1])
    (regOutCover14 a0)

/-! ## The region as a segment of @main -/

/-- The ownership layout of the kernel's eight semaphores. -/
theorem ownSemFacts14 : Pipeline.OwnSemFacts spec14 osem14 := by decide

/-- The kernel's own cells at zero, listed. -/
theorem ownSemsListed14 (c : Dev nD) :
    (Pipeline.ownSems0 (Ix := Unit) (Name := ℕ) (U := UU nD τ) (Lvl := ℕ) (Val := Elt F) (τ := τ) osem14 c : sProp (MM F)) = sems14 c :=
  Pipeline.ownSems0_eq_of_list c osem14 [0, 1, 2, 3, 4, 5, 6, 7] (by decide) (by decide)

/-- The unscoped buffers that are no window's array, no table, and not the embedding array. -/
abbrev restRefs14 : Finset (Ref sig .tc) :=
  (((Finset.univ.filter fun b : Ref sig .tc => ¬ b.isScoped) \ Finset.univ.image (Pipeline.arrRef spec14)) \ Finset.univ.image pre14.ref) \ {main_arg0}

/-- Those buffers, each whole at its contents under `Vin`: what bypasses the region. -/
def Zrest14 (Vin : Dev nD → Valuation τ sig (Elt F)) (c : Dev nD) : sProp (MM F) :=
  bigSep restRefs14 fun b => ((c : Thread nD τ).loc b) ↦{fullShare} Vr Vin c b

/-- The embedding array is an unscoped buffer that is no window's array and no table. -/
theorem embArrMem14 : ({main_arg0} : Finset (Ref sig .tc)) ⊆
    ((Finset.univ.filter fun b : Ref sig .tc => ¬ b.isScoped) \ Finset.univ.image (Pipeline.arrRef spec14)) \ Finset.univ.image pre14.ref := by
  decide

/-- The unscoped buffers that are no window's array: the index table, the embedding array, and the rest. -/
theorem unscopedRestOpen14 (Vin : Dev nD → Valuation τ sig (Elt F)) (c : Dev nD) :
    (Pipeline.unscopedRest (Ix := Unit) (Name := ℕ) (U := UU nD τ) (Lvl := ℕ) spec14 c (Vr Vin c) : sProp (MM F))
      = iprop(Pipeline.prefHeld pre14 c (fun _ => fullShare) (fun k => Vr Vin c (pre14.ref k))
          ∗ pt c (Memref.whole main_arg0) (Vr Vin c main_arg0) ∗ Zrest14 Vin c) := by
  rw [Pipeline.unscopedRest_split preFacts14 c (Vr Vin c)]
  unfold Pipeline.unscopedRestP Zrest14
  rw [BI.bigSep_sdiff_split embArrMem14, BI.bigSep_singleton]
  rfl

/-- The buffer contents when the region is left: the result array at the gathered rows, every other buffer as entered. -/
abbrev Vout14 (a0 : (pcfg14 (F := F)).Adm) (Vin : Dev nD → Valuation τ sig (Elt F)) (c : Dev nD) : Valuation τ sig (Elt F) :=
  Function.update (Vin c) main_v93 (gout14 a0 Vin c)

/-- At the exit each of the region's arrays holds what the pipeline leaves; -/
theorem hF14 (a0 : (pcfg14 (F := F)).Adm) (Vin : Dev nD → Valuation τ sig (Elt F)) (c : Dev nD) (w : Fin (cfg14 a0).W) :
    (dat14 a0 Vin c).arrAt w (cfg14 a0).N = Vr (Vout14 a0 Vin) c (Pipeline.arrRef spec14 w) := by
  match w with
  | ⟨0, _⟩ =>
    show (dat14 a0 Vin c).arrAt 0 (cfg14 a0).N = Vr (Vout14 a0 Vin) c (Pipeline.arrRef spec14 0)
    rw [arrAt14_in]
    exact (Function.update_of_ne (StableHlo.devRef_ne_of_ne (by decide) : (Proc.devRef .tc main_v92 : DevRef τ sig) ≠ Proc.devRef .tc main_v93) _ _).symm
  | ⟨1, _⟩ =>
    show (dat14 a0 Vin c).arrAt 1 (cfg14 a0).N = Vr (Vout14 a0 Vin) c (Pipeline.arrRef spec14 1)
    rw [arrAt14_out]
    exact (Function.update_self (Proc.devRef .tc main_v93 : DevRef τ sig) _ (Vin c)).symm

/-- and every other buffer what it held at entry. -/
theorem hrest14 (a0 : (pcfg14 (F := F)).Adm) (Vin : Dev nD → Valuation τ sig (Elt F)) (c : Dev nD) :
    ∀ b : Ref sig .tc, b ∉ Finset.univ.image (Pipeline.arrRef spec14) → Vr (Vout14 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat14` at the entry valuation `Vin`
    (`hd`), the index table's contents under `Vin` being the pinned ones (`htbl`) and row numbers (`hok`). -/
def reg14 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk14 (F := F) (a (14 : Fin 34)))
    (hd : ∀ c, pdats (14 : Fin 34) c = dat14 (a (14 : Fin 34)) Vin c) (htbl : ∀ c, (a (14 : Fin 34)).1 = fun k => Vr Vin c (pre14.ref k)) :
    Pipeline.RegionSeg (pcfgs (F := F)) a pdats () defs₀ 𝒱₀ L lv (14 : Fin 34) where
  win := (launch14 (F := F)).win.to₀
  block_pos := (launch14 (F := F)).block_pos
  stage_whole := (launch14 (F := F)).stage_whole
  K := Fin 8
  osem := osem14
  ho := ownSemFacts14
  hbody c := by rw [hd c]; exact (body_obligation14 (a (14 : Fin 34)) hok Vin c).loose
  hwaits := Pipeline.hwaits_of_owed_zero _ _ _ _ L lv (14 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v93 (gout14 (a (14 : Fin 34)) Vin c)) ∗ Rest c)
  X c := iprop(pt c (Memref.whole main_arg0) (Vr Vin c main_arg0) ∗ sems14 c)
  Y c := iprop(pt c (Memref.whole main_arg0) (Vr Vin c main_arg0)
    ∗ Pipeline.prefHeld (Ix := Unit) (Name := ℕ) (U := UU nD τ) (Lvl := ℕ) pre14 c (fun _ => fullShare) (a (14 : Fin 34)).1)
  Z c := Zrest14 Vin c
  hentry c := by
    rw [ownSemsListed14]
    have hsplit := Pipeline.arrays_of_unscopedBufs (p := (14 : Fin 34)) (pcfgs (F := F)) a pdats (launch14 (F := F)).win (launch14 (F := F)).arr_whole c
      ((pdats (14 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen14 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (14 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq14]; unfold Phi14
    iintro ⟨⟨Hx, Hos⟩, Ht, Hr⟩
    isplitl [Hx]; · iexact Hx
    isplitl [Hos]; · iexact Hos
    isplitl [Ht]; · iexact Ht
    iexact Hr
  hout c := by
    rw [ownSemsListed14, hd c, Phi_eq14]; unfold Phi14
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (14 : Fin 34)) (pcfgs (F := F)) a (Ix := Unit) (Name := ℕ) (U := UU nD τ) (Lvl := ℕ)
      (launch14 (F := F)).win (launch14 (F := F)).arr_whole c pdats ((pdats (14 : Fin 34) c).share_full fun _ => by rw [hd c]; rfl)
      (Vr Vin c) (Vr (Vout14 (a (14 : Fin 34)) Vin) c) ((pdats (14 : Fin 34) c).arrAt · (cfg14 (a (14 : Fin 34))).N)
      (fun w => by rw [hd c]; exact hF14 (a (14 : Fin 34)) Vin c w) (hrest14 (a (14 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen14 Vin c).symm)
      isplitl [Ht]; · rw [← htbl c]; iexact Ht
      isplitl [Hx]; · iexact Hx
      iexact Hz
    unfold Pipeline.Dat.owesAt Pipeline.owesWithin
    rw [show (pdats (14 : Fin 34) c).owed (Fin.last _) = 0 from by rw [hd c]; rfl]
    icases HO with ⟨%W, -, HO⟩; iexists W; iexact HO

end Cert.Kernel.Hand

end
-- ==== Proof.K.GatherDat15.lean ====
/-
  Gather region 15 (custom_call 15): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem15 : Fin 8 → SemLoc sig := fun | 0 => .dma 184 | 1 => .dma 185 | 2 => .dma 186 | 3 => .dma 187 | 4 => .dma 188 | 5 => .dma 189 | 6 => .dma 190 | 7 => .dma 191

/-- The eight counters at zero, as the run finds them and hands them back. -/
abbrev sems15 (c : Dev nD) : sProp (MM F) :=
  iprop(semVal ((c : Thread nD τ), osem15 0) 0 ∗ semVal ((c : Thread nD τ), osem15 1) 0 ∗ semVal ((c : Thread nD τ), osem15 2) 0
    ∗ semVal ((c : Thread nD τ), osem15 3) 0 ∗ semVal ((c : Thread nD τ), osem15 4) 0 ∗ semVal ((c : Thread nD τ), osem15 5) 0
    ∗ semVal ((c : Thread nD τ), osem15 6) 0 ∗ semVal ((c : Thread nD τ), osem15 7) 0)

/-- Word `j` of the eight the index table holds for point `i`, as the kernel's scalar load reads it. -/
def tblWord15 (c : Dev nD) (i : grid15.Coords) (tbl : Bf (F := F) c (Memref.whole main_v94)) (j : Fin 8) : BitVec 32 :=
  (Memref.whole main_v94).view.readAt (Elt F) (Rect.unit (s := S131072) (k15_off1 i (BitVec.ofNat 32 j.val)) S1.size (k15_off1_inb i j)).toLoadRect tbl
    (Shape.Idx.first (s := S1) (numel1_S1.symm ▸ Nat.one_pos))

/-- Window `w`'s block at point `t`, read off its array at the region's entry. -/
def iblk15 (a0 : (pcfg15 (F := F)).Adm) (Vin : Dev nD → Valuation τ sig (Elt F)) (c : Dev nD) (w : Fin (cfg15 a0).W) (t : Fin (cfg15 a0).N) :
    (((cfg15 a0).win w).xblock ((cfg15 a0).grid.coords t)).Idx → Elt F ((cfg15 a0).win w).elt :=
  (((cfg15 a0).win w).blk t).view.read (Elt F) (Vr Vin c (Pipeline.arrRef spec15 w))

/-- The result array the region leaves: the gathered and scaled rows of the embedding array, whole. -/
def gout15 (a0 : (pcfg15 (F := F)).Adm) (Vin : Dev nD → Valuation τ sig (Elt F)) (c : Dev nD) : Buf (Elt F) ((c : Thread nD τ).loc main_v96) :=
  gatherArr (Vr Vin c main_arg0) (a0.1 0) (Vr Vin c main_v95)

/-- The invariant between points: the embedding array as entered, the kernel's semaphores at zero, the index table, the
    scoped buffers no window stages (the kernel's scratch among them). -/
def Phi15 (a0 : (pcfg15 (F := F)).Adm) (Vin : Dev nD → Valuation τ sig (Elt F)) (c : Dev nD) : sProp (MM F) :=
  iprop(pt c (Memref.whole main_arg0) (Vr Vin c main_arg0) ∗ sems15 c
    ∗ Pipeline.prefHeld (Ix := Unit) (Name := ℕ) (U := UU nD τ) (Lvl := ℕ) pre15 c (fun _ => fullShare) a0.1
    ∗ Pipeline.scopedRest (Ix := Unit) (Name := ℕ) (U := UU nD τ) (Lvl := ℕ) (Val := Elt F) spec15 c)

/-- The proof data on core `c`. -/
def dat15 (a0 : (pcfg15 (F := F)).Adm) (Vin : Dev nD → Valuation τ sig (Elt F)) (c : Dev nD) :
    Pipeline.Dat τ (Elt F) Unit ℕ (UU nD τ) ℕ ((pcfg15 (F := F)).at a0) c where
  A w := Vr Vin c (Pipeline.arrRef spec15 w)
  after w t := match w with
    | ⟨0, _⟩ => iblk15 a0 Vin c 0 t
    | ⟨1, _⟩ => (((cfg15 a0).win 1).blk t).view.read (Elt F) (gout15 a0 Vin c)
  Φ _ := Phi15 a0 Vin c
  q _ := fullShare
  owed _ := 0

theorem A_eq15 (a0 : (pcfg15 (F := F)).Adm) (Vin : Dev nD → Valuation τ sig (Elt F)) (c : Dev nD) (w : Fin (cfg15 a0).W) :
    (dat15 a0 Vin c).A w = Vr Vin c (Pipeline.arrRef spec15 w) := by dsimp only [dat15]
theorem after15_0 (a0 : (pcfg15 (F := F)).Adm) (Vin : Dev nD → Valuation τ sig (Elt F)) (c : Dev nD) (t : Fin (cfg15 a0).N) :
    (dat15 a0 Vin c).after 0 t = iblk15 a0 Vin c 0 t := by dsimp only [dat15]; rfl
theorem after15_1 (a0 : (pcfg15 (F := F)).Adm) (Vin : Dev nD → Valuation τ sig (Elt F)) (c : Dev nD) (t : Fin (cfg15 a0).N) :
    (dat15 a0 Vin c).after 1 t = (((cfg15 a0).win 1).blk t).view.read (Elt F) (gout15 a0 Vin c) := by dsimp only [dat15]; rfl
theorem Phi_eq15 (a0 : (pcfg15 (F := F)).Adm) (Vin : Dev nD → Valuation τ sig (Elt F)) (c : Dev nD) (t : Fin ((cfg15 a0).N + 1)) :
    (dat15 a0 Vin c).Φ t = Phi15 a0 Vin c := rfl
theorem owed_eq15 (a0 : (pcfg15 (F := F)).Adm) (Vin : Dev nD → Valuation τ sig (Elt F)) (c : Dev nD) (t : Fin ((cfg15 a0).N + 1)) :
    (dat15 a0 Vin c).owed t = 0 := rfl
theorem q_eq15 (a0 : (pcfg15 (F := F)).Adm) (Vin : Dev nD → Valuation τ sig (Elt F)) (c : Dev nD) (w : Fin (cfg15 a0).W) :
    (dat15 a0 Vin c).q w = fullShare := rfl

/-- The pinned family's configuration at region 15 is this one. -/
example (a : (p : Fin 34) → (pcfgs (F := F) p).Adm) : Pipeline.pin (pcfgs (F := F)) a (15 : Fin 34) = (pcfg15 (F := F)).at (a (15 : Fin 34)) := rfl

end Cert.Kernel.Hand

end
-- ==== Proof.K.GatherBody15.lean ====
/-
  Gather region 15 (custom_call 15): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat15
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk15 (c : Dev nD) (i : grid15.Coords) (tbl : Bf (F := F) c (Memref.whole main_v94)) : Prop where
  h1 : k15_chk1 (tblWord15 c i tbl 0)
  h2 : k15_chk2 (tblWord15 c i tbl 1)
  h3 : k15_chk3 (tblWord15 c i tbl 2)
  h4 : k15_chk4 (tblWord15 c i tbl 3)
  h5 : k15_chk5 (tblWord15 c i tbl 4)
  h6 : k15_chk6 (tblWord15 c i tbl 5)
  h7 : k15_chk7 (tblWord15 c i tbl 6)
  h8 : k15_chk8 (tblWord15 c i tbl 7)

/-- A one-row slice of the embedding array at the row a word names, read at lane `z 1`: the array's element there. -/
theorem rowRead15 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun15 (c : Dev nD) (i : grid15.Coords)
    (M3 : Memref sig .tc .vmem S8x1 .f32) (h3 : M3.IsWhole) (M4 : Memref sig .tc .vmem S8x128 .f32) (h4 : M4.IsWhole)
    (tbl : Bf (F := F) c (Memref.whole main_v94)) (x : Bf (F := F) c (Memref.whole main_arg0))
    (vb : Vec F S8x1 .f32) (hchk : GatherChk15 c i tbl) (Q : PUnit → sProp (MM F)) :
    iprop(pt c (Memref.whole main_v94) tbl ∗ pt c (Memref.whole main_arg0) x
      ∗ owns (c : Thread nD τ) M3 fullShare vb ∗ (∃ d, owns (c : Thread nD τ) M4 fullShare d)
      ∗ (∃ fs, pt c (Memref.whole cc15_scratch0) fs) ∗ sems15 c ∗ (∃ W, owes (c : Thread nD τ) (0 : CellTallies nD τ sig Unit) W)
      ∗ (iprop(pt c (Memref.whole main_v94) tbl ∗ pt c (Memref.whole main_arg0) x
          ∗ owns (c : Thread nD τ) M3 fullShare vb ∗ owns (c : Thread nD τ) M4 fullShare (gatherBlk x (tblWord15 c i tbl) vb)
          ∗ (∃ fs, pt c (Memref.whole cc15_scratch0) fs) ∗ sems15 c ∗ (∃ W, owes (c : Thread nD τ) (0 : CellTallies nD τ sig Unit) W)) -∗ Q ⟨⟩))
    ⊢ wp frame (wpE (defs₀ (F := F)) 𝒱₀ c none) Set.univ
        (cc15__gather_kernel i (Memref.whole main_v94) (Memref.isWhole_whole _) (Memref.whole main_arg0) (Memref.isWhole_whole _) M3 h3 M4 h4
          (Memref.whole cc15_scratch0) (Memref.isWhole_whole _) cc15_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 184).1 $$ Hx
  icases Hx' with ⟨Hxr, Hx0, Hx1, Hx2, Hx3, Hx4, Hx5, Hx6, Hx7⟩
  sl_unfold [cc15__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 184).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k15_pay1 gatherBlk
    show FloatOps.mulf _ _ = FloatOps.mulf _ _
    congr 1
    · unfold gatherRun15.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun15.sl.dma8 gatherRun15.sl.dma8_1 gatherRun15.sl.dma8_2 gatherRun15.sl.dma8_3 gatherRun15.sl.dma8_4 gatherRun15.sl.dma8_5
        gatherRun15.sl.dma8_6 gatherRun15.sl.dma8_7 gatherRun15.sl.r gatherRun15.sl.r_1 gatherRun15.sl.r_2 gatherRun15.sl.r_3 gatherRun15.sl.r_4
        gatherRun15.sl.r_5 gatherRun15.sl.r_6 gatherRun15.sl.r_7
      refine canonRows8 _ _ _ _ _ _ _ _ _ _ _ _ _ _ _ _ (fun r d => x (embIdx (rowOf (tblWord15 c i tbl r)) d)) ?_ ?_ ?_ ?_ ?_ ?_ ?_ ?_ y
      · exact fun z => rowRead15 c _ (tblWord15 c i tbl 0) rfl rfl _ _ x z
      · exact fun z => rowRead15 c _ (tblWord15 c i tbl 1) rfl rfl _ _ x z
      · exact fun z => rowRead15 c _ (tblWord15 c i tbl 2) rfl rfl _ _ x z
      · exact fun z => rowRead15 c _ (tblWord15 c i tbl 3) rfl rfl _ _ x z
      · exact fun z => rowRead15 c _ (tblWord15 c i tbl 4) rfl rfl _ _ x z
      · exact fun z => rowRead15 c _ (tblWord15 c i tbl 5) rfl rfl _ _ x z
      · exact fun z => rowRead15 c _ (tblWord15 c i tbl 6) rfl rfl _ _ x z
      · exact fun z => rowRead15 c _ (tblWord15 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk15.lean ====
/-
  Gather region 15 (custom_call 15): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat15
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word15 (i : grid15.Coords) (j : Fin 8) : k15_off1 i (BitVec.ofNat 32 j.val) 0 = (i 0).val * 8 + j.val := by
  have hi : (i 0).val < 16384 := (i 0).isLt
  have hj : j.val < 8 := j.isLt
  unfold k15_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word15 (i : grid15.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord15_eq (c : Dev nD) (i : grid15.Coords) (tbl : Bf (F := F) c (Memref.whole main_v94)) (j : Fin 8)
    (e : Fin 131072) (he : e.val = (i 0).val * 8 + j.val) : tblWord15 c i tbl j = tbl (tblIdx e) := by
  unfold tblWord15
  show tbl _ = tbl _
  refine congrArg tbl ?_
  funext a; apply Fin.ext
  match a with
  | ⟨0, _⟩ =>
    show k15_off1 i (BitVec.ofNat 32 j.val) 0 + 1 * 0 = e.val
    rw [off_word15, he]; omega

/-- Row `j` of the value window's block at point `t` is the value array's row `8 t + j`. -/
theorem valBlk15_eq (a0 : (pcfg15 (F := F)).Adm) (Vin : Dev nD → Valuation τ sig (Elt F)) (c : Dev nD) (t : Fin (cfg15 a0).N)
    (j : Fin 8) (e : Fin 131072) (he : e.val = ((grid15.coords t) 0).val * 8 + j.val) :
    iblk15 a0 Vin c 0 t (colIdx j) = Vr Vin c main_v95 (valIdx e) := by
  unfold iblk15
  show Vr Vin c main_v95 _ = Vr Vin c main_v95 _
  refine congrArg (Vr Vin c main_v95) ?_
  funext a; apply Fin.ext
  match a with
  | ⟨0, _⟩ =>
    show (BitVec.ofNat 32 ((grid15.coords t) 0).val).toNat * 8 + 1 * j.val = e.val
    rw [coord_word15, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk15 (a0 : (pcfg15 (F := F)).Adm) (Vin : Dev nD → Valuation τ sig (Elt F)) (c : Dev nD) (t : Fin (cfg15 a0).N) :
    gatherBlk (Vr Vin c main_arg0) (tblWord15 c (grid15.coords t) (a0.1 0)) (iblk15 a0 Vin c 0 t)
      = (((cfg15 a0).win 1).blk t).view.read (Elt F) (gout15 a0 Vin c) := by
  funext y
  show gatherBlk _ _ _ y = gout15 a0 Vin c ((((cfg15 a0).win 1).blk t).view.emb y)
  unfold gatherBlk gout15 gatherArr
  have e0 : ((((cfg15 a0).win 1).blk t).view.emb y (0 : Fin 2)).val = ((grid15.coords t) 0).val * 8 + (y 0).val := by
    show (BitVec.ofNat 32 ((grid15.coords t) 0).val).toNat * 8 + 1 * (y 0).val = _
    rw [coord_word15]; omega
  have e1 : (((cfg15 a0).win 1).blk t).view.emb y (1 : Fin 2) = y 1 := Fin.ext (by
    show (0#32 : BitVec 32).toNat * 128 + 1 * (y 1).val = (y 1).val
    show 0 * 128 + 1 * (y 1).val = (y 1).val
    omega)
  rw [tblWord15_eq c (grid15.coords t) (a0.1 0) (y 0) _ e0, valBlk15_eq a0 Vin c t (y 0) _ e0, e1]

end Cert.Kernel.Hand

end
-- ==== Proof.K.GatherRegion15.lean ====
/-
  Gather region 15 (custom_call 15): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody15
import proofs.«414509_j14181982011419_2_alg».proof.Proof.K.GatherBlk15
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk15 (a0 : (pcfg15 (F := F)).Adm) : Prop := ∀ e : S131072.Idx, (a0.1 0 e).toNat < 100000

/-! ## The grid and the result window's blocks -/

/-- On the one-axis grid a point's coordinate is its number. -/
theorem regCoords15 (t : Fin grid15.N) : (grid15.coords t 0).val = t.val := by
  have ht : t.val < 16384 := N_15 ▸ t.isLt
  show t.val / grid15.stride 0 % grid15.bound 0 = t.val
  rw [show grid15.stride 0 = 1 from by decide, show grid15.bound 0 = 16384 from rfl, Nat.div_one, Nat.mod_eq_of_lt ht]

/-- A point's number as the 32-bit word the index maps compute with. -/
theorem regWord15 (t : Fin grid15.N) : (BitVec.ofNat 32 (grid15.coords t 0).val).toNat = t.val := by
  have ht : t.val < 16384 := N_15 ▸ t.isLt
  rw [BitVec.toNat_ofNat, regCoords15]; omega

/-- The result window's block at point `t` is block `t` along the rows, at zero along the lanes. -/
theorem regOutIndex15 (a0 : (pcfg15 (F := F)).Adm) (t : Fin (cfg15 a0).N) : ((cfg15 a0).win 1).index t = ![t.val, 0] := by
  show cc15_transform_2 (grid15.coords t) = _
  unfold cc15_transform_2
  funext a; fin_cases a
  · exact regWord15 t
  · rfl

/-- The result window is written back at every point: consecutive points have different blocks. -/
theorem regOutFlush15 (a0 : (pcfg15 (F := F)).Adm) (t : Fin (cfg15 a0).N) : ((cfg15 a0).win 1).flush t = true := by
  have htN : t.val < 16384 := N_15 ▸ t.isLt
  rw [Pipeline.Window.flush_out _ rfl]
  by_cases h : t.val + 1 = 16384
  · exact Or.inl (show t.val + 1 = grid15.N by rw [N_15]; exact h)
  · have hlt : t.val + 1 < grid15.N := by rw [N_15]; omega
    refine Or.inr ⟨hlt, fun e => ?_⟩
    have e' : (![t.val + 1, 0] : Fin 2 → ℕ) = ![t.val, 0] := (regOutIndex15 a0 ⟨t.val + 1, hlt⟩).symm.trans (e.trans (regOutIndex15 a0 t))
    have e0 := congrFun e' 0
    simp at e0

/-- The index table, held as the pipeline's one prefetched table. -/
theorem prefHeldEq15 (a0 : (pcfg15 (F := F)).Adm) (c : Dev nD) :
    (Pipeline.prefHeld (Ix := Unit) (Name := ℕ) (U := UU nD τ) (Lvl := ℕ) pre15 c (fun _ => fullShare) a0.1 : sProp (MM F))
      = pt c (Memref.whole main_v94) (a0.1 0) := by
  unfold Pipeline.prefHeld
  rw [show (Finset.univ : Finset (Fin pre15.K)) = {0} from rfl, BI.bigSep_singleton]
  rfl

/-- The value window's staging buffer holds its block at every point. -/
theorem beforeVal15 (a0 : (pcfg15 (F := F)).Adm) (Vin : Dev nD → Valuation τ sig (Elt F)) (c : Dev nD) (t : Fin (cfg15 a0).N) (d) :
    (dat15 a0 Vin c).before 0 t d = iblk15 a0 Vin c 0 t :=
  ((dat15 a0 Vin c).before_in_eq_fetched 0 rfl (fun _ => rfl) (fun _ _ _ => rfl)
    (fun t => by rw [after15_0]; unfold Dat.blockOf iblk15; rw [A_eq15]; try rfl) t d).trans
    (by unfold Dat.fetched Dat.blockOf iblk15; rw [A_eq15]; try rfl)

/-! ## The kernel's checks, from the table's range -/

/-- Each of the point's eight words is a word of the table, so a row number. -/
theorem tblWordLt15 (a0 : (pcfg15 (F := F)).Adm) (hok : GatherOk15 a0) (c : Dev nD) (i : grid15.Coords) (j : Fin 8) :
    (tblWord15 c i (a0.1 0) j).toNat < 100000 := by
  unfold tblWord15
  exact hok _

/-- So the kernel's eight checks hold at every point. -/
theorem gatherChk15 (a0 : (pcfg15 (F := F)).Adm) (hok : GatherOk15 a0) (c : Dev nD) (i : grid15.Coords) : GatherChk15 c i (a0.1 0) :=
  ⟨⟨chkRow _ (tblWordLt15 a0 hok c i 0), chkRow _ (tblWordLt15 a0 hok c i 0)⟩,
   ⟨chkRow _ (tblWordLt15 a0 hok c i 1), chkRow _ (tblWordLt15 a0 hok c i 1)⟩,
   ⟨chkRow _ (tblWordLt15 a0 hok c i 2), chkRow _ (tblWordLt15 a0 hok c i 2)⟩,
   ⟨chkRow _ (tblWordLt15 a0 hok c i 3), chkRow _ (tblWordLt15 a0 hok c i 3)⟩,
   ⟨chkRow _ (tblWordLt15 a0 hok c i 4), chkRow _ (tblWordLt15 a0 hok c i 4)⟩,
   ⟨chkRow _ (tblWordLt15 a0 hok c i 5), chkRow _ (tblWordLt15 a0 hok c i 5)⟩,
   ⟨chkRow _ (tblWordLt15 a0 hok c i 6), chkRow _ (tblWordLt15 a0 hok c i 6)⟩,
   chkRow _ (tblWordLt15 a0 hok c i 7)⟩

/-! ## The body obligation, at a generic point -/

/-- What the body is called with at point `t`: the invariant, the core's dues, each window's current staging memref at
    what the pipeline left there, -/
def bodyPre15 (a0 : (pcfg15 (F := F)).Adm) (Vin : Dev nD → Valuation τ sig (Elt F)) (c : Dev nD) (t : Fin (cfg15 a0).N) : sProp (MM F) :=
  iprop((dat15 a0 Vin c).Φ t.castSucc ∗ (dat15 a0 Vin c).owesAt () t.castSucc
    ∗ (∃ d, owns (c : Thread nD τ) (((cfg15 a0).win 0).stage ((cfg15 a0).slots t 0)) fullShare ((dat15 a0 Vin c).before 0 t d))
    ∗ (∃ d, owns (c : Thread nD τ) (((cfg15 a0).win 1).stage ((cfg15 a0).slots t 1)) fullShare ((dat15 a0 Vin c).before 1 t d)))

/-- and what it returns. -/
def bodyPost15 (a0 : (pcfg15 (F := F)).Adm) (Vin : Dev nD → Valuation τ sig (Elt F)) (c : Dev nD) (t : Fin (cfg15 a0).N) : sProp (MM F) :=
  iprop((dat15 a0 Vin c).Φ t.succ ∗ (dat15 a0 Vin c).owesAt () t.succ
    ∗ owns (c : Thread nD τ) (((cfg15 a0).win 0).stage ((cfg15 a0).slots t 0)) fullShare ((dat15 a0 Vin c).after 0 t)
    ∗ owns (c : Thread nD τ) (((cfg15 a0).win 1).stage ((cfg15 a0).slots t 1)) fullShare ((dat15 a0 Vin c).after 1 t))

/-- The body at any point: the invariant opened into the embedding array, the semaphores, the table and the scratch;
    the value window's memref at its block; the checks from the table's range; so the kernel's run applies, and what it
    leaves in the result window's memref is the point's block of the gathered array. -/
theorem sound_body15 (a0 : (pcfg15 (F := F)).Adm) (hok : GatherOk15 a0) (Vin : Dev nD → Valuation τ sig (Elt F)) (c : Dev nD) (t : Fin (cfg15 a0).N) :
    bodyPre15 a0 Vin c t ⊢ wp frame (wpE (defs₀ (F := F)) 𝒱₀ c none) Set.univ
      (defs₀ .tc (cfg15 a0).body ((cfg15 a0).bodyArgs t ((cfg15 a0).slots t))) (fun _ => bodyPost15 a0 Vin c t) := by
  unfold bodyPre15 bodyPost15
  simp only [beforeVal15]
  rw [Phi_eq15, Phi_eq15, after15_0, after15_1, ← gatherBlk_blk15]
  unfold Phi15 Pipeline.Dat.owesAt Pipeline.owesWithin
  rw [owed_eq15, owed_eq15, prefHeldEq15, scopedRest15_split]
  iintro ⟨⟨Hx, Hos, Ht, ⟨%fs, Hs⟩, Hsb⟩, ⟨%W, %hW, HO⟩, ⟨%d0, H0⟩, ⟨%d1, H1⟩⟩
  iapply (gatherRun15 c (grid15.coords t) _ _ _ _ (a0.1 0) (Vr Vin c main_arg0) (iblk15 a0 Vin c 0 t) (gatherChk15 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation15 (a0 : (pcfg15 (F := F)).Adm) (hok : GatherOk15 a0) (Vin : Dev nD → Valuation τ sig (Elt F)) (c : Dev nD) :
    BodyObligation (dat15 a0 Vin c) (defs₀ (F := F)) 𝒱₀ () Set.univ := fun t => by
  rw [bigSep_W15, bigSep_W15]
  exact sound_body15 a0 hok Vin c t

/-! ## From the blocks to the arrays -/

/-- The value array after the region: as entered. -/
theorem arrAt15_in (a0 : (pcfg15 (F := F)).Adm) (Vin : Dev nD → Valuation τ sig (Elt F)) (c : Dev nD) :
    (dat15 a0 Vin c).arrAt 0 (cfg15 a0).N = Vr Vin c main_v95 :=
  ((dat15 a0 Vin c).arrAt_in 0 rfl _).trans (A_eq15 a0 Vin c 0)

/-- Every index of the result array is in some point's block: row `e`, lane `d` is element `(e % 8, d)` of the block
    of point `e / 8`. -/
theorem regOutCover15 (a0 : (pcfg15 (F := F)).Adm) (i : S131072x128.Idx) :
    ∃ t : Fin (cfg15 a0).N, ((cfg15 a0).win 1).flush t = true ∧ i ∈ (((cfg15 a0).win 1).blk t).view.set := by
  have hi0 : (i 0).val < 131072 := (i 0).isLt
  have hi1 : (i 1).val < 128 := (i 1).isLt
  have hN : (i 0).val / 8 < grid15.N := by rw [N_15]; omega
  obtain ⟨t, ht⟩ : ∃ t : Fin (cfg15 a0).N, t.val = (i 0).val / 8 := ⟨⟨_, hN⟩, rfl⟩
  have hx : (((cfg15 a0).win 1).blk t).view.emb (ValueIdx.ix2 ⟨(i 0).val % 8, Nat.mod_lt _ (by decide)⟩ (i 1)) = i := by
    funext a; apply Fin.ext
    have e0 : ((cfg15 a0).win 1).index t (0 : Fin 2) = t.val := congrFun (regOutIndex15 a0 t) (0 : Fin 2)
    have e1 : ((cfg15 a0).win 1).index t (1 : Fin 2) = 0 := congrFun (regOutIndex15 a0 t) (1 : Fin 2)
    match a with
    | ⟨0, _⟩ => show ((cfg15 a0).win 1).index t (0 : Fin 2) * 8 + 1 * ((i 0).val % 8) = (i 0).val; omega
    | ⟨1, _⟩ => show ((cfg15 a0).win 1).index t (1 : Fin 2) * 128 + 1 * (i 1).val = (i 1).val; omega
  exact ⟨t, regOutFlush15 a0 t, hx ▸ (((cfg15 a0).win 1).blk t).view.emb_mem_set _⟩

/-- The result array after the region: the gathered and scaled rows, whole. -/
theorem arrAt15_out (a0 : (pcfg15 (F := F)).Adm) (Vin : Dev nD → Valuation τ sig (Elt F)) (c : Dev nD) :
    (dat15 a0 Vin c).arrAt 1 (cfg15 a0).N = gout15 a0 Vin c :=
  (dat15 a0 Vin c).arrAt_eq_of_cover 1 (gout15 a0 Vin c)
    (fun t _ => by
      show ((cfg15 a0).win 1).cut ((cfg15 a0).grid.coords t) ((dat15 a0 Vin c).after 1 t) = _
      rw [after15_1])
    (regOutCover15 a0)

/-! ## The region as a segment of @main -/

/-- The ownership layout of the kernel's eight semaphores. -/
theorem ownSemFacts15 : Pipeline.OwnSemFacts spec15 osem15 := by decide

/-- The kernel's own cells at zero, listed. -/
theorem ownSemsListed15 (c : Dev nD) :
    (Pipeline.ownSems0 (Ix := Unit) (Name := ℕ) (U := UU nD τ) (Lvl := ℕ) (Val := Elt F) (τ := τ) osem15 c : sProp (MM F)) = sems15 c :=
  Pipeline.ownSems0_eq_of_list c osem15 [0, 1, 2, 3, 4, 5, 6, 7] (by decide) (by decide)

/-- The unscoped buffers that are no window's array, no table, and not the embedding array. -/
abbrev restRefs15 : Finset (Ref sig .tc) :=
  (((Finset.univ.filter fun b : Ref sig .tc => ¬ b.isScoped) \ Finset.univ.image (Pipeline.arrRef spec15)) \ Finset.univ.image pre15.ref) \ {main_arg0}

/-- Those buffers, each whole at its contents under `Vin`: what bypasses the region. -/
def Zrest15 (Vin : Dev nD → Valuation τ sig (Elt F)) (c : Dev nD) : sProp (MM F) :=
  bigSep restRefs15 fun b => ((c : Thread nD τ).loc b) ↦{fullShare} Vr Vin c b

/-- The embedding array is an unscoped buffer that is no window's array and no table. -/
theorem embArrMem15 : ({main_arg0} : Finset (Ref sig .tc)) ⊆
    ((Finset.univ.filter fun b : Ref sig .tc => ¬ b.isScoped) \ Finset.univ.image (Pipeline.arrRef spec15)) \ Finset.univ.image pre15.ref := by
  decide

/-- The unscoped buffers that are no window's array: the index table, the embedding array, and the rest. -/
theorem unscopedRestOpen15 (Vin : Dev nD → Valuation τ sig (Elt F)) (c : Dev nD) :
    (Pipeline.unscopedRest (Ix := Unit) (Name := ℕ) (U := UU nD τ) (Lvl := ℕ) spec15 c (Vr Vin c) : sProp (MM F))
      = iprop(Pipeline.prefHeld pre15 c (fun _ => fullShare) (fun k => Vr Vin c (pre15.ref k))
          ∗ pt c (Memref.whole main_arg0) (Vr Vin c main_arg0) ∗ Zrest15 Vin c) := by
  rw [Pipeline.unscopedRest_split preFacts15 c (Vr Vin c)]
  unfold Pipeline.unscopedRestP Zrest15
  rw [BI.bigSep_sdiff_split embArrMem15, BI.bigSep_singleton]
  rfl

/-- The buffer contents when the region is left: the result array at the gathered rows, every other buffer as entered. -/
abbrev Vout15 (a0 : (pcfg15 (F := F)).Adm) (Vin : Dev nD → Valuation τ sig (Elt F)) (c : Dev nD) : Valuation τ sig (Elt F) :=
  Function.update (Vin c) main_v96 (gout15 a0 Vin c)

/-- At the exit each of the region's arrays holds what the pipeline leaves; -/
theorem hF15 (a0 : (pcfg15 (F := F)).Adm) (Vin : Dev nD → Valuation τ sig (Elt F)) (c : Dev nD) (w : Fin (cfg15 a0).W) :
    (dat15 a0 Vin c).arrAt w (cfg15 a0).N = Vr (Vout15 a0 Vin) c (Pipeline.arrRef spec15 w) := by
  match w with
  | ⟨0, _⟩ =>
    show (dat15 a0 Vin c).arrAt 0 (cfg15 a0).N = Vr (Vout15 a0 Vin) c (Pipeline.arrRef spec15 0)
    rw [arrAt15_in]
    exact (Function.update_of_ne (StableHlo.devRef_ne_of_ne (by decide) : (Proc.devRef .tc main_v95 : DevRef τ sig) ≠ Proc.devRef .tc main_v96) _ _).symm
  | ⟨1, _⟩ =>
    show (dat15 a0 Vin c).arrAt 1 (cfg15 a0).N = Vr (Vout15 a0 Vin) c (Pipeline.arrRef spec15 1)
    rw [arrAt15_out]
    exact (Function.update_self (Proc.devRef .tc main_v96 : DevRef τ sig) _ (Vin c)).symm

/-- and every other buffer what it held at entry. -/
theorem hrest15 (a0 : (pcfg15 (F := F)).Adm) (Vin : Dev nD → Valuation τ sig (Elt F)) (c : Dev nD) :
    ∀ b : Ref sig .tc, b ∉ Finset.univ.image (Pipeline.arrRef spec15) → Vr (Vout15 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat15` at the entry valuation `Vin`
    (`hd`), the index table's contents under `Vin` being the pinned ones (`htbl`) and row numbers (`hok`). -/
def reg15 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk15 (F := F) (a (15 : Fin 34)))
    (hd : ∀ c, pdats (15 : Fin 34) c = dat15 (a (15 : Fin 34)) Vin c) (htbl : ∀ c, (a (15 : Fin 34)).1 = fun k => Vr Vin c (pre15.ref k)) :
    Pipeline.RegionSeg (pcfgs (F := F)) a pdats () defs₀ 𝒱₀ L lv (15 : Fin 34) where
  win := (launch15 (F := F)).win.to₀
  block_pos := (launch15 (F := F)).block_pos
  stage_whole := (launch15 (F := F)).stage_whole
  K := Fin 8
  osem := osem15
  ho := ownSemFacts15
  hbody c := by rw [hd c]; exact (body_obligation15 (a (15 : Fin 34)) hok Vin c).loose
  hwaits := Pipeline.hwaits_of_owed_zero _ _ _ _ L lv (15 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v96 (gout15 (a (15 : Fin 34)) Vin c)) ∗ Rest c)
  X c := iprop(pt c (Memref.whole main_arg0) (Vr Vin c main_arg0) ∗ sems15 c)
  Y c := iprop(pt c (Memref.whole main_arg0) (Vr Vin c main_arg0)
    ∗ Pipeline.prefHeld (Ix := Unit) (Name := ℕ) (U := UU nD τ) (Lvl := ℕ) pre15 c (fun _ => fullShare) (a (15 : Fin 34)).1)
  Z c := Zrest15 Vin c
  hentry c := by
    rw [ownSemsListed15]
    have hsplit := Pipeline.arrays_of_unscopedBufs (p := (15 : Fin 34)) (pcfgs (F := F)) a pdats (launch15 (F := F)).win (launch15 (F := F)).arr_whole c
      ((pdats (15 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen15 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (15 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq15]; unfold Phi15
    iintro ⟨⟨Hx, Hos⟩, Ht, Hr⟩
    isplitl [Hx]; · iexact Hx
    isplitl [Hos]; · iexact Hos
    isplitl [Ht]; · iexact Ht
    iexact Hr
  hout c := by
    rw [ownSemsListed15, hd c, Phi_eq15]; unfold Phi15
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (15 : Fin 34)) (pcfgs (F := F)) a (Ix := Unit) (Name := ℕ) (U := UU nD τ) (Lvl := ℕ)
      (launch15 (F := F)).win (launch15 (F := F)).arr_whole c pdats ((pdats (15 : Fin 34) c).share_full fun _ => by rw [hd c]; rfl)
      (Vr Vin c) (Vr (Vout15 (a (15 : Fin 34)) Vin) c) ((pdats (15 : Fin 34) c).arrAt · (cfg15 (a (15 : Fin 34))).N)
      (fun w => by rw [hd c]; exact hF15 (a (15 : Fin 34)) Vin c w) (hrest15 (a (15 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen15 Vin c).symm)
      isplitl [Ht]; · rw [← htbl c]; iexact Ht
      isplitl [Hx]; · iexact Hx
      iexact Hz
    unfold Pipeline.Dat.owesAt Pipeline.owesWithin
    rw [show (pdats (15 : Fin 34) c).owed (Fin.last _) = 0 from by rw [hd c]; rfl]
    icases HO with ⟨%W, -, HO⟩; iexists W; iexact HO

end Cert.Kernel.Hand

end
-- ==== Proof.K.ActBody16.lean ====
/-
  The activation-and-sum kernel of custom_call 16, run once at symbolic staging memrefs.

  The body loads its whole input block `x : [4, 2000, 128]`, forms `where(x > 0, x, 0.01 * x)` element by element,
  adds the four slabs along the leading axis, and stores the `[2000, 128]` result over the whole output block. So
  from the input block held at `xin` and the output block held at anything, it returns with the input block as it
  was and the output block at `actOut16 xin`, the body's one payload as a pure function of the loaded block.
-/
import proofs.«414509_j14181982011419_2_alg».proof.Proof.K.ActSpec
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The zero offsets of a whole-block access, in rank 2 and in rank 3, as constant functions. -/
theorem zeros16_2 : (![0, 0] : Fin 2 → Nat) = fun _ => 0 := funext fun a => by fin_cases a <;> rfl
theorem zeros16_3 : (![0, 0, 0] : Fin 3 → Nat) = fun _ => 0 := funext fun a => by fin_cases a <;> rfl

/-- The body's payload is the activation-and-sum of the loaded block: the same chain of operations. -/
theorem pay16_eq (x : Vec F S4x2000x128 .f32) : k16_pay1 x = actBlock x := rfl

/-- What the body leaves in the output block, from the input block: the leaky activation of every element, summed
    over the four slabs of the leading axis. -/
def actOut16 (xin : Vec F S4x2000x128 .f32) : Vec F S2000x128 .f32 := actBlock xin

set_option maxHeartbeats 1000000 in
/-- The kernel body on whole staging memrefs, the input's at contents `xin` and the output's at anything, runs to the
    continuation holding the input's as it was and the output's at `actOut16 xin`: the one store covers the whole
    block, so what it leaves is its payload, and the payload's argument is the whole-block load of `xin`. -/
theorem body16 (c : Dev nD) (E : Set ℕ) (i : grid16.Coords) (M1 : Memref sig .tc .vmem S4x2000x128 .f32) (h1 : M1.IsWhole)
    (M2 : Memref sig .tc .vmem S2000x128 .f32) (h2 : M2.IsWhole) (xin : Vec F S4x2000x128 .f32) (K : PUnit → sProp (MM F)) :
    iprop(owns (c : Thread nD τ) M1 fullShare xin ∗ (∃ d, owns (c : Thread nD τ) M2 fullShare d)
        ∗ (iprop(owns (c : Thread nD τ) M1 fullShare xin ∗ owns (c : Thread nD τ) M2 fullShare (actOut16 xin)) -∗ K ⟨⟩))
      ⊢ wp frame (wpE (defs₀ (F := F)) Variants.none c none) E (cc16__act_sum_kernel i M1 h1 M2 h2) K := by
  simp only [cc16__act_sum_kernel_eq_skeleton]; unfold cc16__act_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _,
      View.mem_set_unit_zero zeros16_2 inb_S2000x128_S2000x128_0_0 y⟩),
    View.canon_unit_zero (S := S2000x128) zeros16_2]
  unfold actOut16
  exact (pay16_eq _).trans (congrArg actBlock (View.ld_unit_zero (S := S4x2000x128) zeros16_3 inb_S4x2000x128_S4x2000x128_0_0_0 _))

end Cert.Kernel.Hand

end
-- ==== Proof.K.ActDat16.lean ====
/-
  The proof data of custom_call 16 (the activation-and-sum over the stacked aggregates) and the array it leaves.

  The pipeline walks 50 points; at point `t` it stages rows `[2000 t, 2000 t + 2000)` of all four slabs of the input
  array, runs the body, and writes the `[2000, 128]` result back over the same rows of the output array. The proof data
  say so: the arrays as the region finds them, the input's buffer at its block, the output's at the activation-and-sum
  of that block. The output's blocks tile its array, so after the last point the array is `actArr` of the input array:
  what each point writes back is its block of that one function (the index maps' relations decided over the grid, the
  rest arithmetic on rows), and every row lies in the block of point `row / 2000`.
-/
import proofs.«414509_j14181982011419_2_alg».proof.Proof.K.ActBody16
import proofs.«414509_j14181982011419_2_alg».proof.Proof.Gen.Kernel.Points
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

variable (Vin : Dev nD → Valuation τ sig (Elt F))

/-- The pinned configuration of pipeline 16 is the printed one, whatever the tables' contents (it has no table). -/
theorem pin_eq16 (a : (p : Fin 34) → (pcfgs (F := F) p).Adm) : Pipeline.pin (pcfgs (F := F)) a (16 : Fin 34) = cfg16 := rfl

/-- Window `w`'s block at point `t`, read off its array as the region finds it. -/
def iblk16 (c : Dev nD) (w : Fin cfg16.W) (t : Fin cfg16.N) :
    ((cfg16.win w).xblock (cfg16.grid.coords t)).Idx → Elt F (cfg16.win w).elt :=
  ((cfg16.win w).blk t).view.read (Elt F) (Vin c (Pipeline.arrRef spec16 w))

/-- The proof data of pipeline 16 on core `c`: the arrays as the region finds them; after the body at point `t` the
    input's buffer at its block and the output's at the activation-and-sum of that block; the invariant the scoped
    buffers no window stages; nothing owed; full shares. -/
def dat16 (c : Dev nD) : Dat τ (Elt F) Unit ℕ (UU nD τ) ℕ cfg16 c where
  A w := Vin c (Pipeline.arrRef spec16 w)
  after w t := match w with
    | ⟨0, _⟩ => iblk16 Vin c 0 t
    | ⟨1, _⟩ => actOut16 (iblk16 Vin c 0 t)
  Φ _ := Pipeline.scopedRest (Ix := Unit) (Name := ℕ) (U := UU nD τ) (Lvl := ℕ) (Val := Elt F) spec16 c
  q _ := fullShare
  owed _ := 0

theorem A_eq16 (c : Dev nD) (w : Fin cfg16.W) : (dat16 Vin c).A w = Vin c (Pipeline.arrRef spec16 w) := by
  dsimp only [dat16]
theorem after16_0 (c : Dev nD) (t : Fin cfg16.N) : (dat16 Vin c).after 0 t = iblk16 Vin c 0 t := by dsimp only [dat16]
theorem after16_1 (c : Dev nD) (t : Fin cfg16.N) : (dat16 Vin c).after 1 t = actOut16 (iblk16 Vin c 0 t) := by dsimp only [dat16]
theorem Φ_eq16 (c : Dev nD) (t : Fin (cfg16.N + 1)) : (dat16 Vin c).Φ t
    = Pipeline.scopedRest (Ix := Unit) (Name := ℕ) (U := UU nD τ) (Lvl := ℕ) (Val := Elt F) spec16 c := rfl
theorem owed_eq16 (c : Dev nD) (t : Fin (cfg16.N + 1)) : (dat16 Vin c).owed t = 0 := rfl

/-- The input's current staging buffer holds its block at every point. -/
theorem before16_0 (c : Dev nD) (t : Fin cfg16.N) (d) : (dat16 Vin c).before 0 t d = iblk16 Vin c 0 t :=
  ((dat16 Vin c).before_in_eq_fetched 0 rfl (fun _ => rfl) (fun _ _ _ => rfl)
    (fun t => by rw [after16_0]; unfold Dat.blockOf iblk16; rw [A_eq16]; try rfl) t d).trans
    (by unfold Dat.fetched Dat.blockOf iblk16; rw [A_eq16]; try rfl)

/-! ## From the blocks to the array -/

/-- The printed index maps, decided over the grid: the input's block moves with the output's along the rows and
    sits at zero on the other axes; the output's block index is the point's number. -/
theorem idx_facts16 : ∀ t : Fin cfg16.N, win16_0.index t (0 : Fin 3) = 0
    ∧ win16_0.index t (1 : Fin 3) = win16_1.index t (0 : Fin 2)
    ∧ win16_0.index t (2 : Fin 3) = 0
    ∧ win16_1.index t (1 : Fin 2) = 0
    ∧ win16_1.index t (0 : Fin 2) ≤ 49 :=
  (by decide +kernel : ∀ t : Fin grid16.N, _)

/-- Every slab of the output is SOME point's block. -/
theorem idx_onto16 : ∀ q0 : Fin 50, ∃ t : Fin cfg16.N, win16_1.index t = ![q0.val, 0] :=
  (by decide +kernel : ∀ q0 : Fin 50, ∃ t : Fin grid16.N, win16_1.index t = ![q0.val, 0])

/-- WHAT POINT `t` WRITES BACK is block `t` of `actArr` of the input array as the region finds it. -/
theorem flushed16_eq (c : Dev nD) (t : Fin cfg16.N) :
    (dat16 Vin c).flushed 1 t = ((cfg16.win 1).blk t).view.read (Elt F) (actArr (Vin c main_v108)) := by
  show (cfg16.win 1).cut (grid16.coords t) ((dat16 Vin c).after 1 t) = _
  rw [after16_1]
  obtain ⟨e0, e1, e2, e3, e4⟩ := idx_facts16 t
  funext j
  show actOut16 (iblk16 Vin c 0 t) j = actArr (Vin c main_v108) (((cfg16.win 1).blk t).view.emb j)
  unfold actOut16 actArr
  have hj0 : (j 0).val < 2000 := (j 0).isLt
  refine congr (congrArg actBlock ?_) ?_
  · funext j'
    show Vin c main_v108 (((cfg16.win 0).blk t).view.emb j') = Vin c main_v108 _
    refine congrArg (Vin c main_v108) ?_
    funext a; apply Fin.ext
    have hj'1 : (j' 1).val < 2000 := (j' 1).isLt
    match a with
    | ⟨0, _⟩ => show win16_0.index t (0 : Fin 3) * 4 + 1 * (j' 0).val = (j' 0).val; omega
    | ⟨1, _⟩ => show win16_0.index t (1 : Fin 3) * 2000 + 1 * (j' 1).val = (win16_1.index t (0 : Fin 2) * 2000 + 1 * (j 0).val) / 2000 * 2000 + (j' 1).val; omega
    | ⟨2, _⟩ => show win16_0.index t (2 : Fin 3) * 128 + 1 * (j' 2).val = (j' 2).val; omega
  · funext a; apply Fin.ext
    match a with
    | ⟨0, _⟩ => show (j 0).val = (win16_1.index t (0 : Fin 2) * 2000 + 1 * (j 0).val) % 2000; omega
    | ⟨1, _⟩ => show (j 1).val = win16_1.index t (1 : Fin 2) * 128 + 1 * (j 1).val; omega

/-- An index of the array is in point `t`'s block iff each coordinate is in the block's range on its axis. -/
theorem mem_blk16 (t : Fin cfg16.N) (i : S100000x128.Idx) :
    i ∈ ((cfg16.win 1).blk t).view.set ↔ ∀ a : Fin 2, win16_1.index t a * S2000x128.size a ≤ (i a).val ∧ (i a).val < win16_1.index t a * S2000x128.size a + S2000x128.size a := by
  show i ∈ ((View.whole main_v109).slice (win16_1.rect t)).set ↔ _
  rw [View.set_slice_whole, Rect.mem_set_unit]
  exact Iff.rfl

/-- Every index of the output array is in some point's block: row `n` in that of point `n / 2000`. -/
theorem cover16 (i : S100000x128.Idx) :
    ∃ t : Fin cfg16.N, (cfg16.win 1).flush t = true ∧ i ∈ ((cfg16.win 1).blk t).view.set := by
  have hi0 : (i 0).val < 100000 := (i 0).isLt
  have hi1 : (i 1).val < 128 := (i 1).isLt
  obtain ⟨t, ht⟩ := idx_onto16 ⟨(i 0).val / 2000, by omega⟩
  have q0 : win16_1.index t (0 : Fin 2) = (i 0).val / 2000 := congrFun ht 0
  have q1 : win16_1.index t (1 : Fin 2) = 0 := congrFun ht 1
  refine ⟨t, flush16_1 t, ?_⟩
  rw [mem_blk16]
  intro a
  match a with
  | ⟨0, _⟩ => show win16_1.index t (0 : Fin 2) * 2000 ≤ (i 0).val ∧ (i 0).val < win16_1.index t (0 : Fin 2) * 2000 + 2000; omega
  | ⟨1, _⟩ => show win16_1.index t (1 : Fin 2) * 128 ≤ (i 1).val ∧ (i 1).val < win16_1.index t (1 : Fin 2) * 128 + 128; omega

/-- THE ARRAY after the region: `actArr` of the input array as the region finds it. -/
theorem final16 (c : Dev nD) : (dat16 Vin c).arrAt 1 cfg16.N = actArr (Vin c main_v108) :=
  (dat16 Vin c).arrAt_eq_of_cover 1 (actArr (Vin c main_v108)) (fun t _ => flushed16_eq Vin c t) cover16

end Cert.Kernel.Hand

end
-- ==== Proof.K.ActRegion16.lean ====
/-
  Custom_call 16 (the activation-and-sum over the stacked aggregates) as a segment of @main.

  The body obligation: at every point the input's staging memref holds its block of the input array, so the body's run
  applies and leaves the output's staging memref at the activation-and-sum of that block; the invariant (the scoped
  buffers no window stages) and the core's dues pass through unread. The segment: entered with every unscoped buffer at
  the contents `Vin` and the core owing nothing, it is left with the output array at `actArr` of the input array, every
  other buffer as entered, and the core owing nothing. The two arrays are split out of the unscoped buffers at entry
  and put back at exit; the kernel has no semaphore of its own.
-/
import proofs.«414509_j14181982011419_2_alg».proof.Proof.K.ActDat16
import Idealize.ShloMosaic.Lib.Pipeline.RegionsLoop

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (Vin : Dev nD → Valuation τ sig (Elt F))

/-! ## The body obligation, at a generic point -/

/-- What the body is called with at point `t`: the invariant, the core's dues, each window's current staging memref
    at what the pipeline left there, -/
def bodyPre16 (c : Dev nD) (t : Fin cfg16.N) : sProp (MM F) :=
  iprop((dat16 Vin c).Φ t.castSucc ∗ (dat16 Vin c).owesAt () t.castSucc
    ∗ (∃ d, owns (c : Thread nD τ) (st16_0 t) fullShare ((dat16 Vin c).before 0 t d))
    ∗ (∃ d, owns (c : Thread nD τ) (st16_1 t) fullShare ((dat16 Vin c).before 1 t d)))

/-- and what it returns. -/
def bodyPost16 (c : Dev nD) (t : Fin cfg16.N) : sProp (MM F) :=
  iprop((dat16 Vin c).Φ t.succ ∗ (dat16 Vin c).owesAt () t.succ
    ∗ owns (c : Thread nD τ) (st16_0 t) fullShare ((dat16 Vin c).after 0 t)
    ∗ owns (c : Thread nD τ) (st16_1 t) fullShare ((dat16 Vin c).after 1 t))

/-- The body at any point: the input's memref holds its block, so the body's run applies; the invariant and the core's
    dues pass through unread. -/
theorem sound_body16 (c : Dev nD) (t : Fin cfg16.N) :
    bodyPre16 Vin c t ⊢ wp frame (wpE (defs₀ (F := F)) Variants.none c none) Set.univ (bodyAt16 t) (fun _ => bodyPost16 Vin c t) := by
  unfold bodyPre16 bodyPost16 bodyAt16
  simp only [before16_0]
  rw [show (dat16 Vin c).Φ t.succ = (dat16 Vin c).Φ t.castSucc from rfl,
    show (dat16 Vin c).owesAt () t.succ = (dat16 Vin c).owesAt () t.castSucc from rfl,
    after16_0, after16_1]
  iintro ⟨HΦ, Ho, ⟨%d0, H0⟩, ⟨%d1, H1⟩⟩
  iapply (body16 c Set.univ _ _ _ _ _ (iblk16 Vin c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation16 (c : Dev nD) : BodyObligation (dat16 (F := F) Vin c) (defs₀ (F := F)) Variants.none () Set.univ := fun t => by
  rw [bigSep_W16, bigSep_W16]
  exact sound_body16 Vin c t

/-! ## The region as a segment of @main -/

/-- The buffer contents when the region is left: the output array at the activation-and-sum of the input array, every
    other buffer as entered. -/
abbrev Vout16 (c : Dev nD) : Valuation τ sig (Elt F) :=
  Function.update (Vin c) main_v109 (actArr (Vin c main_v108))

/-- At the exit each of the region's arrays holds what the pipeline leaves: the input as entered, the output the
    activation-and-sum of the input; -/
theorem hF16 (c : Dev nD) (w : Fin cfg16.W) : (dat16 Vin c).arrAt w cfg16.N = Vout16 Vin c (Pipeline.arrRef spec16 w) := by
  match w with
  | ⟨0, _⟩ =>
    show (dat16 Vin c).arrAt 0 cfg16.N = Vout16 Vin c (Pipeline.arrRef spec16 0)
    rw [(dat16 Vin c).arrAt_in 0 rfl _, A_eq16]
    exact (Function.update_of_ne (StableHlo.devRef_ne_of_ne (by decide) : (Proc.devRef .tc main_v108 : DevRef τ sig) ≠ Proc.devRef .tc main_v109) _ _).symm
  | ⟨1, _⟩ =>
    show (dat16 Vin c).arrAt 1 cfg16.N = Vout16 Vin c (Pipeline.arrRef spec16 1)
    rw [final16]
    exact (Function.update_self (Proc.devRef .tc main_v109 : DevRef τ sig) _ (Vin c)).symm

/-- and every other buffer what it held at entry. -/
theorem hrest16 (c : Dev nD) : ∀ b : Ref sig .tc, b ∉ Finset.univ.image (Pipeline.arrRef spec16) → Vout16 Vin c b = Vin c b :=
  fun b hb => Function.update_of_ne (StableHlo.devRef_ne_of_ne fun e =>
    hb (Finset.mem_image.mpr ⟨1, Finset.mem_univ _, e.symm⟩)) _ _

set_option backward.isDefEq.respectTransparency.types false in
/-- REGION 16 over the thread state: entered from every unscoped buffer at `Vin`, left at `Vout16 Vin`. Its arrays
    split out of the unscoped buffers and put back at the exit contents; the scoped buffers no window stages into the
    invariant and out; nothing owed; no semaphore of the kernel's own. -/
def reg16 (a : (p : Fin 34) → (pcfgs (F := F) p).Adm)
    (pdats : (p : Fin 34) → (c : Dev nD) → Dat τ (Elt F) Unit ℕ (UU nD τ) ℕ (Pipeline.pin (pcfgs (F := F)) a p) c)
    (hd : ∀ c, pdats (16 : Fin 34) c = dat16 Vin c) :
    Pipeline.RegionSeg (pcfgs (F := F)) a pdats () defs₀ 𝒱₀ L lv (16 : Fin 34) where
  win := (launch16 (F := F)).win.to₀
  block_pos := (launch16 (F := F)).block_pos
  stage_whole := (launch16 (F := F)).stage_whole
  K := PEmpty
  osem k := k.elim
  ho := Pipeline.OwnSemFacts.none _
  hbody c := by rw [hd c]; exact (body_obligation16 Vin c).loose
  hwaits := Pipeline.hwaits_of_owed_zero _ _ _ _ L lv (16 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Vout16 Vin c) ∗ Rest c)
  X _ := iprop(emp)
  Y _ := iprop(emp)
  Z c := Pipeline.unscopedRest (Ix := Unit) (Name := ℕ) (U := UU nD τ) (Lvl := ℕ) spec16 c (fun b => Vin c b)
  hentry c := by
    rw [Pipeline.ownSems0_none]
    have hsplit := Pipeline.arrays_of_unscopedBufs (p := (16 : Fin 34)) (pcfgs (F := F)) a pdats (launch16 (F := F)).win (launch16 (F := F)).arr_whole c
      ((pdats (16 : Fin 34) c).share_full fun _ => by rw [hd c]; rfl) (fun b => Vin c b) fun w => by rw [hd c]; rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats (16 : Fin 34) c).owed 0 = 0 from by rw [hd c]; rfl]
      icases HO with ⟨%W, HO⟩; iexists W; isplitr; · ipureintro; exact fun _ _ => Or.inl (by rw [hd c]; trivial)
      iexact HO
    isplitr; · iempintro
    iexact Hrest
  hin c := by
    rw [hd c, Φ_eq16]
    iintro ⟨-, -, Hr⟩
    iexact Hr
  hout c := by
    rw [Pipeline.ownSems0_none, hd c, Φ_eq16]
    iintro Hr
    isplitr; · iempintro
    isplitr; · iempintro
    iexact Hr
  hexit c := by
    have hjoin := Pipeline.unscopedBufs_of_arrays (p := (16 : Fin 34)) (pcfgs (F := F)) a (Ix := Unit) (Name := ℕ) (U := UU nD τ) (Lvl := ℕ)
      (launch16 (F := F)).win (launch16 (F := F)).arr_whole c pdats ((pdats (16 : Fin 34) c).share_full fun _ => by rw [hd c]; rfl)
      (fun b => Vin c b) (fun b => Vout16 Vin c b) ((pdats (16 : Fin 34) c).arrAt · cfg16.N)
      (fun w => by rw [hd c]; exact hF16 Vin c w) (hrest16 Vin c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [show (pdats (16 : Fin 34) c).owed (Fin.last _) = 0 from by rw [hd c]; rfl]
    icases HO with ⟨%W, -, HO⟩; iexists W; iexact HO

end Cert.Kernel.Hand

end
-- ==== Proof.K.GatherDat17.lean ====
/-
  Gather region 17 (custom_call 17): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem17 : Fin 8 → SemLoc sig := fun | 0 => .dma 200 | 1 => .dma 201 | 2 => .dma 202 | 3 => .dma 203 | 4 => .dma 204 | 5 => .dma 205 | 6 => .dma 206 | 7 => .dma 207

/-- The eight counters at zero, as the run finds them and hands them back. -/
abbrev sems17 (c : Dev nD) : sProp (MM F) :=
  iprop(semVal ((c : Thread nD τ), osem17 0) 0 ∗ semVal ((c : Thread nD τ), osem17 1) 0 ∗ semVal ((c : Thread nD τ), osem17 2) 0
    ∗ semVal ((c : Thread nD τ), osem17 3) 0 ∗ semVal ((c : Thread nD τ), osem17 4) 0 ∗ semVal ((c : Thread nD τ), osem17 5) 0
    ∗ semVal ((c : Thread nD τ), osem17 6) 0 ∗ semVal ((c : Thread nD τ), osem17 7) 0)

/-- Word `j` of the eight the index table holds for point `i`, as the kernel's scalar load reads it. -/
def tblWord17 (c : Dev nD) (i : grid17.Coords) (tbl : Bf (F := F) c (Memref.whole main_v117)) (j : Fin 8) : BitVec 32 :=
  (Memref.whole main_v117).view.readAt (Elt F) (Rect.unit (s := S131072) (k17_off1 i (BitVec.ofNat 32 j.val)) S1.size (k17_off1_inb i j)).toLoadRect tbl
    (Shape.Idx.first (s := S1) (numel1_S1.symm ▸ Nat.one_pos))

/-- Window `w`'s block at point `t`, read off its array at the region's entry. -/
def iblk17 (a0 : (pcfg17 (F := F)).Adm) (Vin : Dev nD → Valuation τ sig (Elt F)) (c : Dev nD) (w : Fin (cfg17 a0).W) (t : Fin (cfg17 a0).N) :
    (((cfg17 a0).win w).xblock ((cfg17 a0).grid.coords t)).Idx → Elt F ((cfg17 a0).win w).elt :=
  (((cfg17 a0).win w).blk t).view.read (Elt F) (Vr Vin c (Pipeline.arrRef spec17 w))

/-- The result array the region leaves: the gathered and scaled rows of the embedding array, whole. -/
def gout17 (a0 : (pcfg17 (F := F)).Adm) (Vin : Dev nD → Valuation τ sig (Elt F)) (c : Dev nD) : Buf (Elt F) ((c : Thread nD τ).loc main_v119) :=
  gatherArr (Vr Vin c main_v109) (a0.1 0) (Vr Vin c main_v118)

/-- The invariant between points: the embedding array as entered, the kernel's semaphores at zero, the index table, the
    scoped buffers no window stages (the kernel's scratch among them). -/
def Phi17 (a0 : (pcfg17 (F := F)).Adm) (Vin : Dev nD → Valuation τ sig (Elt F)) (c : Dev nD) : sProp (MM F) :=
  iprop(pt c (Memref.whole main_v109) (Vr Vin c main_v109) ∗ sems17 c
    ∗ Pipeline.prefHeld (Ix := Unit) (Name := ℕ) (U := UU nD τ) (Lvl := ℕ) pre17 c (fun _ => fullShare) a0.1
    ∗ Pipeline.scopedRest (Ix := Unit) (Name := ℕ) (U := UU nD τ) (Lvl := ℕ) (Val := Elt F) spec17 c)

/-- The proof data on core `c`. -/
def dat17 (a0 : (pcfg17 (F := F)).Adm) (Vin : Dev nD → Valuation τ sig (Elt F)) (c : Dev nD) :
    Pipeline.Dat τ (Elt F) Unit ℕ (UU nD τ) ℕ ((pcfg17 (F := F)).at a0) c where
  A w := Vr Vin c (Pipeline.arrRef spec17 w)
  after w t := match w with
    | ⟨0, _⟩ => iblk17 a0 Vin c 0 t
    | ⟨1, _⟩ => (((cfg17 a0).win 1).blk t).view.read (Elt F) (gout17 a0 Vin c)
  Φ _ := Phi17 a0 Vin c
  q _ := fullShare
  owed _ := 0

theorem A_eq17 (a0 : (pcfg17 (F := F)).Adm) (Vin : Dev nD → Valuation τ sig (Elt F)) (c : Dev nD) (w : Fin (cfg17 a0).W) :
    (dat17 a0 Vin c).A w = Vr Vin c (Pipeline.arrRef spec17 w) := by dsimp only [dat17]
theorem after17_0 (a0 : (pcfg17 (F := F)).Adm) (Vin : Dev nD → Valuation τ sig (Elt F)) (c : Dev nD) (t : Fin (cfg17 a0).N) :
    (dat17 a0 Vin c).after 0 t = iblk17 a0 Vin c 0 t := by dsimp only [dat17]; rfl
theorem after17_1 (a0 : (pcfg17 (F := F)).Adm) (Vin : Dev nD → Valuation τ sig (Elt F)) (c : Dev nD) (t : Fin (cfg17 a0).N) :
    (dat17 a0 Vin c).after 1 t = (((cfg17 a0).win 1).blk t).view.read (Elt F) (gout17 a0 Vin c) := by dsimp only [dat17]; rfl
theorem Phi_eq17 (a0 : (pcfg17 (F := F)).Adm) (Vin : Dev nD → Valuation τ sig (Elt F)) (c : Dev nD) (t : Fin ((cfg17 a0).N + 1)) :
    (dat17 a0 Vin c).Φ t = Phi17 a0 Vin c := rfl
theorem owed_eq17 (a0 : (pcfg17 (F := F)).Adm) (Vin : Dev nD → Valuation τ sig (Elt F)) (c : Dev nD) (t : Fin ((cfg17 a0).N + 1)) :
    (dat17 a0 Vin c).owed t = 0 := rfl
theorem q_eq17 (a0 : (pcfg17 (F := F)).Adm) (Vin : Dev nD → Valuation τ sig (Elt F)) (c : Dev nD) (w : Fin (cfg17 a0).W) :
    (dat17 a0 Vin c).q w = fullShare := rfl

/-- The pinned family's configuration at region 17 is this one. -/
example (a : (p : Fin 34) → (pcfgs (F := F) p).Adm) : Pipeline.pin (pcfgs (F := F)) a (17 : Fin 34) = (pcfg17 (F := F)).at (a (17 : Fin 34)) := rfl

end Cert.Kernel.Hand

end
-- ==== Proof.K.GatherBody17.lean ====
/-
  Gather region 17 (custom_call 17): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat17
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk17 (c : Dev nD) (i : grid17.Coords) (tbl : Bf (F := F) c (Memref.whole main_v117)) : Prop where
  h1 : k17_chk1 (tblWord17 c i tbl 0)
  h2 : k17_chk2 (tblWord17 c i tbl 1)
  h3 : k17_chk3 (tblWord17 c i tbl 2)
  h4 : k17_chk4 (tblWord17 c i tbl 3)
  h5 : k17_chk5 (tblWord17 c i tbl 4)
  h6 : k17_chk6 (tblWord17 c i tbl 5)
  h7 : k17_chk7 (tblWord17 c i tbl 6)
  h8 : k17_chk8 (tblWord17 c i tbl 7)

/-- A one-row slice of the embedding array at the row a word names, read at lane `z 1`: the array's element there. -/
theorem rowRead17 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun17 (c : Dev nD) (i : grid17.Coords)
    (M3 : Memref sig .tc .vmem S8x1 .f32) (h3 : M3.IsWhole) (M4 : Memref sig .tc .vmem S8x128 .f32) (h4 : M4.IsWhole)
    (tbl : Bf (F := F) c (Memref.whole main_v117)) (x : Bf (F := F) c (Memref.whole main_v109))
    (vb : Vec F S8x1 .f32) (hchk : GatherChk17 c i tbl) (Q : PUnit → sProp (MM F)) :
    iprop(pt c (Memref.whole main_v117) tbl ∗ pt c (Memref.whole main_v109) x
      ∗ owns (c : Thread nD τ) M3 fullShare vb ∗ (∃ d, owns (c : Thread nD τ) M4 fullShare d)
      ∗ (∃ fs, pt c (Memref.whole cc17_scratch0) fs) ∗ sems17 c ∗ (∃ W, owes (c : Thread nD τ) (0 : CellTallies nD τ sig Unit) W)
      ∗ (iprop(pt c (Memref.whole main_v117) tbl ∗ pt c (Memref.whole main_v109) x
          ∗ owns (c : Thread nD τ) M3 fullShare vb ∗ owns (c : Thread nD τ) M4 fullShare (gatherBlk x (tblWord17 c i tbl) vb)
          ∗ (∃ fs, pt c (Memref.whole cc17_scratch0) fs) ∗ sems17 c ∗ (∃ W, owes (c : Thread nD τ) (0 : CellTallies nD τ sig Unit) W)) -∗ Q ⟨⟩))
    ⊢ wp frame (wpE (defs₀ (F := F)) 𝒱₀ c none) Set.univ
        (cc17__gather_kernel i (Memref.whole main_v117) (Memref.isWhole_whole _) (Memref.whole main_v109) (Memref.isWhole_whole _) M3 h3 M4 h4
          (Memref.whole cc17_scratch0) (Memref.isWhole_whole _) cc17_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 200).1 $$ Hx
  icases Hx' with ⟨Hxr, Hx0, Hx1, Hx2, Hx3, Hx4, Hx5, Hx6, Hx7⟩
  sl_unfold [cc17__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 200).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k17_pay1 gatherBlk
    show FloatOps.mulf _ _ = FloatOps.mulf _ _
    congr 1
    · unfold gatherRun17.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun17.sl.dma8 gatherRun17.sl.dma8_1 gatherRun17.sl.dma8_2 gatherRun17.sl.dma8_3 gatherRun17.sl.dma8_4 gatherRun17.sl.dma8_5
        gatherRun17.sl.dma8_6 gatherRun17.sl.dma8_7 gatherRun17.sl.r gatherRun17.sl.r_1 gatherRun17.sl.r_2 gatherRun17.sl.r_3 gatherRun17.sl.r_4
        gatherRun17.sl.r_5 gatherRun17.sl.r_6 gatherRun17.sl.r_7
      refine canonRows8 _ _ _ _ _ _ _ _ _ _ _ _ _ _ _ _ (fun r d => x (embIdx (rowOf (tblWord17 c i tbl r)) d)) ?_ ?_ ?_ ?_ ?_ ?_ ?_ ?_ y
      · exact fun z => rowRead17 c _ (tblWord17 c i tbl 0) rfl rfl _ _ x z
      · exact fun z => rowRead17 c _ (tblWord17 c i tbl 1) rfl rfl _ _ x z
      · exact fun z => rowRead17 c _ (tblWord17 c i tbl 2) rfl rfl _ _ x z
      · exact fun z => rowRead17 c _ (tblWord17 c i tbl 3) rfl rfl _ _ x z
      · exact fun z => rowRead17 c _ (tblWord17 c i tbl 4) rfl rfl _ _ x z
      · exact fun z => rowRead17 c _ (tblWord17 c i tbl 5) rfl rfl _ _ x z
      · exact fun z => rowRead17 c _ (tblWord17 c i tbl 6) rfl rfl _ _ x z
      · exact fun z => rowRead17 c _ (tblWord17 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk17.lean ====
/-
  Gather region 17 (custom_call 17): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat17
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word17 (i : grid17.Coords) (j : Fin 8) : k17_off1 i (BitVec.ofNat 32 j.val) 0 = (i 0).val * 8 + j.val := by
  have hi : (i 0).val < 16384 := (i 0).isLt
  have hj : j.val < 8 := j.isLt
  unfold k17_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word17 (i : grid17.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord17_eq (c : Dev nD) (i : grid17.Coords) (tbl : Bf (F := F) c (Memref.whole main_v117)) (j : Fin 8)
    (e : Fin 131072) (he : e.val = (i 0).val * 8 + j.val) : tblWord17 c i tbl j = tbl (tblIdx e) := by
  unfold tblWord17
  show tbl _ = tbl _
  refine congrArg tbl ?_
  funext a; apply Fin.ext
  match a with
  | ⟨0, _⟩ =>
    show k17_off1 i (BitVec.ofNat 32 j.val) 0 + 1 * 0 = e.val
    rw [off_word17, he]; omega

/-- Row `j` of the value window's block at point `t` is the value array's row `8 t + j`. -/
theorem valBlk17_eq (a0 : (pcfg17 (F := F)).Adm) (Vin : Dev nD → Valuation τ sig (Elt F)) (c : Dev nD) (t : Fin (cfg17 a0).N)
    (j : Fin 8) (e : Fin 131072) (he : e.val = ((grid17.coords t) 0).val * 8 + j.val) :
    iblk17 a0 Vin c 0 t (colIdx j) = Vr Vin c main_v118 (valIdx e) := by
  unfold iblk17
  show Vr Vin c main_v118 _ = Vr Vin c main_v118 _
  refine congrArg (Vr Vin c main_v118) ?_
  funext a; apply Fin.ext
  match a with
  | ⟨0, _⟩ =>
    show (BitVec.ofNat 32 ((grid17.coords t) 0).val).toNat * 8 + 1 * j.val = e.val
    rw [coord_word17, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk17 (a0 : (pcfg17 (F := F)).Adm) (Vin : Dev nD → Valuation τ sig (Elt F)) (c : Dev nD) (t : Fin (cfg17 a0).N) :
    gatherBlk (Vr Vin c main_v109) (tblWord17 c (grid17.coords t) (a0.1 0)) (iblk17 a0 Vin c 0 t)
      = (((cfg17 a0).win 1).blk t).view.read (Elt F) (gout17 a0 Vin c) := by
  funext y
  show gatherBlk _ _ _ y = gout17 a0 Vin c ((((cfg17 a0).win 1).blk t).view.emb y)
  unfold gatherBlk gout17 gatherArr
  have e0 : ((((cfg17 a0).win 1).blk t).view.emb y (0 : Fin 2)).val = ((grid17.coords t) 0).val * 8 + (y 0).val := by
    show (BitVec.ofNat 32 ((grid17.coords t) 0).val).toNat * 8 + 1 * (y 0).val = _
    rw [coord_word17]; omega
  have e1 : (((cfg17 a0).win 1).blk t).view.emb y (1 : Fin 2) = y 1 := Fin.ext (by
    show (0#32 : BitVec 32).toNat * 128 + 1 * (y 1).val = (y 1).val
    show 0 * 128 + 1 * (y 1).val = (y 1).val
    omega)
  rw [tblWord17_eq c (grid17.coords t) (a0.1 0) (y 0) _ e0, valBlk17_eq a0 Vin c t (y 0) _ e0, e1]

end Cert.Kernel.Hand

end
-- ==== Proof.K.GatherRegion17.lean ====
/-
  Gather region 17 (custom_call 17): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody17
import proofs.«414509_j14181982011419_2_alg».proof.Proof.K.GatherBlk17
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk17 (a0 : (pcfg17 (F := F)).Adm) : Prop := ∀ e : S131072.Idx, (a0.1 0 e).toNat < 100000

/-! ## The grid and the result window's blocks -/

/-- On the one-axis grid a point's coordinate is its number. -/
theorem regCoords17 (t : Fin grid17.N) : (grid17.coords t 0).val = t.val := by
  have ht : t.val < 16384 := N_17 ▸ t.isLt
  show t.val / grid17.stride 0 % grid17.bound 0 = t.val
  rw [show grid17.stride 0 = 1 from by decide, show grid17.bound 0 = 16384 from rfl, Nat.div_one, Nat.mod_eq_of_lt ht]

/-- A point's number as the 32-bit word the index maps compute with. -/
theorem regWord17 (t : Fin grid17.N) : (BitVec.ofNat 32 (grid17.coords t 0).val).toNat = t.val := by
  have ht : t.val < 16384 := N_17 ▸ t.isLt
  rw [BitVec.toNat_ofNat, regCoords17]; omega

/-- The result window's block at point `t` is block `t` along the rows, at zero along the lanes. -/
theorem regOutIndex17 (a0 : (pcfg17 (F := F)).Adm) (t : Fin (cfg17 a0).N) : ((cfg17 a0).win 1).index t = ![t.val, 0] := by
  show cc17_transform_2 (grid17.coords t) = _
  unfold cc17_transform_2
  funext a; fin_cases a
  · exact regWord17 t
  · rfl

/-- The result window is written back at every point: consecutive points have different blocks. -/
theorem regOutFlush17 (a0 : (pcfg17 (F := F)).Adm) (t : Fin (cfg17 a0).N) : ((cfg17 a0).win 1).flush t = true := by
  have htN : t.val < 16384 := N_17 ▸ t.isLt
  rw [Pipeline.Window.flush_out _ rfl]
  by_cases h : t.val + 1 = 16384
  · exact Or.inl (show t.val + 1 = grid17.N by rw [N_17]; exact h)
  · have hlt : t.val + 1 < grid17.N := by rw [N_17]; omega
    refine Or.inr ⟨hlt, fun e => ?_⟩
    have e' : (![t.val + 1, 0] : Fin 2 → ℕ) = ![t.val, 0] := (regOutIndex17 a0 ⟨t.val + 1, hlt⟩).symm.trans (e.trans (regOutIndex17 a0 t))
    have e0 := congrFun e' 0
    simp at e0

/-- The index table, held as the pipeline's one prefetched table. -/
theorem prefHeldEq17 (a0 : (pcfg17 (F := F)).Adm) (c : Dev nD) :
    (Pipeline.prefHeld (Ix := Unit) (Name := ℕ) (U := UU nD τ) (Lvl := ℕ) pre17 c (fun _ => fullShare) a0.1 : sProp (MM F))
      = pt c (Memref.whole main_v117) (a0.1 0) := by
  unfold Pipeline.prefHeld
  rw [show (Finset.univ : Finset (Fin pre17.K)) = {0} from rfl, BI.bigSep_singleton]
  rfl

/-- The value window's staging buffer holds its block at every point. -/
theorem beforeVal17 (a0 : (pcfg17 (F := F)).Adm) (Vin : Dev nD → Valuation τ sig (Elt F)) (c : Dev nD) (t : Fin (cfg17 a0).N) (d) :
    (dat17 a0 Vin c).before 0 t d = iblk17 a0 Vin c 0 t :=
  ((dat17 a0 Vin c).before_in_eq_fetched 0 rfl (fun _ => rfl) (fun _ _ _ => rfl)
    (fun t => by rw [after17_0]; unfold Dat.blockOf iblk17; rw [A_eq17]; try rfl) t d).trans
    (by unfold Dat.fetched Dat.blockOf iblk17; rw [A_eq17]; try rfl)

/-! ## The kernel's checks, from the table's range -/

/-- Each of the point's eight words is a word of the table, so a row number. -/
theorem tblWordLt17 (a0 : (pcfg17 (F := F)).Adm) (hok : GatherOk17 a0) (c : Dev nD) (i : grid17.Coords) (j : Fin 8) :
    (tblWord17 c i (a0.1 0) j).toNat < 100000 := by
  unfold tblWord17
  exact hok _

/-- So the kernel's eight checks hold at every point. -/
theorem gatherChk17 (a0 : (pcfg17 (F := F)).Adm) (hok : GatherOk17 a0) (c : Dev nD) (i : grid17.Coords) : GatherChk17 c i (a0.1 0) :=
  ⟨⟨chkRow _ (tblWordLt17 a0 hok c i 0), chkRow _ (tblWordLt17 a0 hok c i 0)⟩,
   ⟨chkRow _ (tblWordLt17 a0 hok c i 1), chkRow _ (tblWordLt17 a0 hok c i 1)⟩,
   ⟨chkRow _ (tblWordLt17 a0 hok c i 2), chkRow _ (tblWordLt17 a0 hok c i 2)⟩,
   ⟨chkRow _ (tblWordLt17 a0 hok c i 3), chkRow _ (tblWordLt17 a0 hok c i 3)⟩,
   ⟨chkRow _ (tblWordLt17 a0 hok c i 4), chkRow _ (tblWordLt17 a0 hok c i 4)⟩,
   ⟨chkRow _ (tblWordLt17 a0 hok c i 5), chkRow _ (tblWordLt17 a0 hok c i 5)⟩,
   ⟨chkRow _ (tblWordLt17 a0 hok c i 6), chkRow _ (tblWordLt17 a0 hok c i 6)⟩,
   chkRow _ (tblWordLt17 a0 hok c i 7)⟩

/-! ## The body obligation, at a generic point -/

/-- What the body is called with at point `t`: the invariant, the core's dues, each window's current staging memref at
    what the pipeline left there, -/
def bodyPre17 (a0 : (pcfg17 (F := F)).Adm) (Vin : Dev nD → Valuation τ sig (Elt F)) (c : Dev nD) (t : Fin (cfg17 a0).N) : sProp (MM F) :=
  iprop((dat17 a0 Vin c).Φ t.castSucc ∗ (dat17 a0 Vin c).owesAt () t.castSucc
    ∗ (∃ d, owns (c : Thread nD τ) (((cfg17 a0).win 0).stage ((cfg17 a0).slots t 0)) fullShare ((dat17 a0 Vin c).before 0 t d))
    ∗ (∃ d, owns (c : Thread nD τ) (((cfg17 a0).win 1).stage ((cfg17 a0).slots t 1)) fullShare ((dat17 a0 Vin c).before 1 t d)))

/-- and what it returns. -/
def bodyPost17 (a0 : (pcfg17 (F := F)).Adm) (Vin : Dev nD → Valuation τ sig (Elt F)) (c : Dev nD) (t : Fin (cfg17 a0).N) : sProp (MM F) :=
  iprop((dat17 a0 Vin c).Φ t.succ ∗ (dat17 a0 Vin c).owesAt () t.succ
    ∗ owns (c : Thread nD τ) (((cfg17 a0).win 0).stage ((cfg17 a0).slots t 0)) fullShare ((dat17 a0 Vin c).after 0 t)
    ∗ owns (c : Thread nD τ) (((cfg17 a0).win 1).stage ((cfg17 a0).slots t 1)) fullShare ((dat17 a0 Vin c).after 1 t))

/-- The body at any point: the invariant opened into the embedding array, the semaphores, the table and the scratch;
    the value window's memref at its block; the checks from the table's range; so the kernel's run applies, and what it
    leaves in the result window's memref is the point's block of the gathered array. -/
theorem sound_body17 (a0 : (pcfg17 (F := F)).Adm) (hok : GatherOk17 a0) (Vin : Dev nD → Valuation τ sig (Elt F)) (c : Dev nD) (t : Fin (cfg17 a0).N) :
    bodyPre17 a0 Vin c t ⊢ wp frame (wpE (defs₀ (F := F)) 𝒱₀ c none) Set.univ
      (defs₀ .tc (cfg17 a0).body ((cfg17 a0).bodyArgs t ((cfg17 a0).slots t))) (fun _ => bodyPost17 a0 Vin c t) := by
  unfold bodyPre17 bodyPost17
  simp only [beforeVal17]
  rw [Phi_eq17, Phi_eq17, after17_0, after17_1, ← gatherBlk_blk17]
  unfold Phi17 Pipeline.Dat.owesAt Pipeline.owesWithin
  rw [owed_eq17, owed_eq17, prefHeldEq17, scopedRest17_split]
  iintro ⟨⟨Hx, Hos, Ht, ⟨%fs, Hs⟩, Hsb⟩, ⟨%W, %hW, HO⟩, ⟨%d0, H0⟩, ⟨%d1, H1⟩⟩
  iapply (gatherRun17 c (grid17.coords t) _ _ _ _ (a0.1 0) (Vr Vin c main_v109) (iblk17 a0 Vin c 0 t) (gatherChk17 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation17 (a0 : (pcfg17 (F := F)).Adm) (hok : GatherOk17 a0) (Vin : Dev nD → Valuation τ sig (Elt F)) (c : Dev nD) :
    BodyObligation (dat17 a0 Vin c) (defs₀ (F := F)) 𝒱₀ () Set.univ := fun t => by
  rw [bigSep_W17, bigSep_W17]
  exact sound_body17 a0 hok Vin c t

/-! ## From the blocks to the arrays -/

/-- The value array after the region: as entered. -/
theorem arrAt17_in (a0 : (pcfg17 (F := F)).Adm) (Vin : Dev nD → Valuation τ sig (Elt F)) (c : Dev nD) :
    (dat17 a0 Vin c).arrAt 0 (cfg17 a0).N = Vr Vin c main_v118 :=
  ((dat17 a0 Vin c).arrAt_in 0 rfl _).trans (A_eq17 a0 Vin c 0)

/-- Every index of the result array is in some point's block: row `e`, lane `d` is element `(e % 8, d)` of the block
    of point `e / 8`. -/
theorem regOutCover17 (a0 : (pcfg17 (F := F)).Adm) (i : S131072x128.Idx) :
    ∃ t : Fin (cfg17 a0).N, ((cfg17 a0).win 1).flush t = true ∧ i ∈ (((cfg17 a0).win 1).blk t).view.set := by
  have hi0 : (i 0).val < 131072 := (i 0).isLt
  have hi1 : (i 1).val < 128 := (i 1).isLt
  have hN : (i 0).val / 8 < grid17.N := by rw [N_17]; omega
  obtain ⟨t, ht⟩ : ∃ t : Fin (cfg17 a0).N, t.val = (i 0).val / 8 := ⟨⟨_, hN⟩, rfl⟩
  have hx : (((cfg17 a0).win 1).blk t).view.emb (ValueIdx.ix2 ⟨(i 0).val % 8, Nat.mod_lt _ (by decide)⟩ (i 1)) = i := by
    funext a; apply Fin.ext
    have e0 : ((cfg17 a0).win 1).index t (0 : Fin 2) = t.val := congrFun (regOutIndex17 a0 t) (0 : Fin 2)
    have e1 : ((cfg17 a0).win 1).index t (1 : Fin 2) = 0 := congrFun (regOutIndex17 a0 t) (1 : Fin 2)
    match a with
    | ⟨0, _⟩ => show ((cfg17 a0).win 1).index t (0 : Fin 2) * 8 + 1 * ((i 0).val % 8) = (i 0).val; omega
    | ⟨1, _⟩ => show ((cfg17 a0).win 1).index t (1 : Fin 2) * 128 + 1 * (i 1).val = (i 1).val; omega
  exact ⟨t, regOutFlush17 a0 t, hx ▸ (((cfg17 a0).win 1).blk t).view.emb_mem_set _⟩

/-- The result array after the region: the gathered and scaled rows, whole. -/
theorem arrAt17_out (a0 : (pcfg17 (F := F)).Adm) (Vin : Dev nD → Valuation τ sig (Elt F)) (c : Dev nD) :
    (dat17 a0 Vin c).arrAt 1 (cfg17 a0).N = gout17 a0 Vin c :=
  (dat17 a0 Vin c).arrAt_eq_of_cover 1 (gout17 a0 Vin c)
    (fun t _ => by
      show ((cfg17 a0).win 1).cut ((cfg17 a0).grid.coords t) ((dat17 a0 Vin c).after 1 t) = _
      rw [after17_1])
    (regOutCover17 a0)

/-! ## The region as a segment of @main -/

/-- The ownership layout of the kernel's eight semaphores. -/
theorem ownSemFacts17 : Pipeline.OwnSemFacts spec17 osem17 := by decide

/-- The kernel's own cells at zero, listed. -/
theorem ownSemsListed17 (c : Dev nD) :
    (Pipeline.ownSems0 (Ix := Unit) (Name := ℕ) (U := UU nD τ) (Lvl := ℕ) (Val := Elt F) (τ := τ) osem17 c : sProp (MM F)) = sems17 c :=
  Pipeline.ownSems0_eq_of_list c osem17 [0, 1, 2, 3, 4, 5, 6, 7] (by decide) (by decide)

/-- The unscoped buffers that are no window's array, no table, and not the embedding array. -/
abbrev restRefs17 : Finset (Ref sig .tc) :=
  (((Finset.univ.filter fun b : Ref sig .tc => ¬ b.isScoped) \ Finset.univ.image (Pipeline.arrRef spec17)) \ Finset.univ.image pre17.ref) \ {main_v109}

/-- Those buffers, each whole at its contents under `Vin`: what bypasses the region. -/
def Zrest17 (Vin : Dev nD → Valuation τ sig (Elt F)) (c : Dev nD) : sProp (MM F) :=
  bigSep restRefs17 fun b => ((c : Thread nD τ).loc b) ↦{fullShare} Vr Vin c b

/-- The embedding array is an unscoped buffer that is no window's array and no table. -/
theorem embArrMem17 : ({main_v109} : Finset (Ref sig .tc)) ⊆
    ((Finset.univ.filter fun b : Ref sig .tc => ¬ b.isScoped) \ Finset.univ.image (Pipeline.arrRef spec17)) \ Finset.univ.image pre17.ref := by
  decide

/-- The unscoped buffers that are no window's array: the index table, the embedding array, and the rest. -/
theorem unscopedRestOpen17 (Vin : Dev nD → Valuation τ sig (Elt F)) (c : Dev nD) :
    (Pipeline.unscopedRest (Ix := Unit) (Name := ℕ) (U := UU nD τ) (Lvl := ℕ) spec17 c (Vr Vin c) : sProp (MM F))
      = iprop(Pipeline.prefHeld pre17 c (fun _ => fullShare) (fun k => Vr Vin c (pre17.ref k))
          ∗ pt c (Memref.whole main_v109) (Vr Vin c main_v109) ∗ Zrest17 Vin c) := by
  rw [Pipeline.unscopedRest_split preFacts17 c (Vr Vin c)]
  unfold Pipeline.unscopedRestP Zrest17
  rw [BI.bigSep_sdiff_split embArrMem17, BI.bigSep_singleton]
  rfl

/-- The buffer contents when the region is left: the result array at the gathered rows, every other buffer as entered. -/
abbrev Vout17 (a0 : (pcfg17 (F := F)).Adm) (Vin : Dev nD → Valuation τ sig (Elt F)) (c : Dev nD) : Valuation τ sig (Elt F) :=
  Function.update (Vin c) main_v119 (gout17 a0 Vin c)

/-- At the exit each of the region's arrays holds what the pipeline leaves; -/
theorem hF17 (a0 : (pcfg17 (F := F)).Adm) (Vin : Dev nD → Valuation τ sig (Elt F)) (c : Dev nD) (w : Fin (cfg17 a0).W) :
    (dat17 a0 Vin c).arrAt w (cfg17 a0).N = Vr (Vout17 a0 Vin) c (Pipeline.arrRef spec17 w) := by
  match w with
  | ⟨0, _⟩ =>
    show (dat17 a0 Vin c).arrAt 0 (cfg17 a0).N = Vr (Vout17 a0 Vin) c (Pipeline.arrRef spec17 0)
    rw [arrAt17_in]
    exact (Function.update_of_ne (StableHlo.devRef_ne_of_ne (by decide) : (Proc.devRef .tc main_v118 : DevRef τ sig) ≠ Proc.devRef .tc main_v119) _ _).symm
  | ⟨1, _⟩ =>
    show (dat17 a0 Vin c).arrAt 1 (cfg17 a0).N = Vr (Vout17 a0 Vin) c (Pipeline.arrRef spec17 1)
    rw [arrAt17_out]
    exact (Function.update_self (Proc.devRef .tc main_v119 : DevRef τ sig) _ (Vin c)).symm

/-- and every other buffer what it held at entry. -/
theorem hrest17 (a0 : (pcfg17 (F := F)).Adm) (Vin : Dev nD → Valuation τ sig (Elt F)) (c : Dev nD) :
    ∀ b : Ref sig .tc, b ∉ Finset.univ.image (Pipeline.arrRef spec17) → Vr (Vout17 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat17` at the entry valuation `Vin`
    (`hd`), the index table's contents under `Vin` being the pinned ones (`htbl`) and row numbers (`hok`). -/
def reg17 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk17 (F := F) (a (17 : Fin 34)))
    (hd : ∀ c, pdats (17 : Fin 34) c = dat17 (a (17 : Fin 34)) Vin c) (htbl : ∀ c, (a (17 : Fin 34)).1 = fun k => Vr Vin c (pre17.ref k)) :
    Pipeline.RegionSeg (pcfgs (F := F)) a pdats () defs₀ 𝒱₀ L lv (17 : Fin 34) where
  win := (launch17 (F := F)).win.to₀
  block_pos := (launch17 (F := F)).block_pos
  stage_whole := (launch17 (F := F)).stage_whole
  K := Fin 8
  osem := osem17
  ho := ownSemFacts17
  hbody c := by rw [hd c]; exact (body_obligation17 (a (17 : Fin 34)) hok Vin c).loose
  hwaits := Pipeline.hwaits_of_owed_zero _ _ _ _ L lv (17 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v119 (gout17 (a (17 : Fin 34)) Vin c)) ∗ Rest c)
  X c := iprop(pt c (Memref.whole main_v109) (Vr Vin c main_v109) ∗ sems17 c)
  Y c := iprop(pt c (Memref.whole main_v109) (Vr Vin c main_v109)
    ∗ Pipeline.prefHeld (Ix := Unit) (Name := ℕ) (U := UU nD τ) (Lvl := ℕ) pre17 c (fun _ => fullShare) (a (17 : Fin 34)).1)
  Z c := Zrest17 Vin c
  hentry c := by
    rw [ownSemsListed17]
    have hsplit := Pipeline.arrays_of_unscopedBufs (p := (17 : Fin 34)) (pcfgs (F := F)) a pdats (launch17 (F := F)).win (launch17 (F := F)).arr_whole c
      ((pdats (17 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen17 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (17 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq17]; unfold Phi17
    iintro ⟨⟨Hx, Hos⟩, Ht, Hr⟩
    isplitl [Hx]; · iexact Hx
    isplitl [Hos]; · iexact Hos
    isplitl [Ht]; · iexact Ht
    iexact Hr
  hout c := by
    rw [ownSemsListed17, hd c, Phi_eq17]; unfold Phi17
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (17 : Fin 34)) (pcfgs (F := F)) a (Ix := Unit) (Name := ℕ) (U := UU nD τ) (Lvl := ℕ)
      (launch17 (F := F)).win (launch17 (F := F)).arr_whole c pdats ((pdats (17 : Fin 34) c).share_full fun _ => by rw [hd c]; rfl)
      (Vr Vin c) (Vr (Vout17 (a (17 : Fin 34)) Vin) c) ((pdats (17 : Fin 34) c).arrAt · (cfg17 (a (17 : Fin 34))).N)
      (fun w => by rw [hd c]; exact hF17 (a (17 : Fin 34)) Vin c w) (hrest17 (a (17 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen17 Vin c).symm)
      isplitl [Ht]; · rw [← htbl c]; iexact Ht
      isplitl [Hx]; · iexact Hx
      iexact Hz
    unfold Pipeline.Dat.owesAt Pipeline.owesWithin
    rw [show (pdats (17 : Fin 34) c).owed (Fin.last _) = 0 from by rw [hd c]; rfl]
    icases HO with ⟨%W, -, HO⟩; iexists W; iexact HO

end Cert.Kernel.Hand

end
-- ==== Proof.K.GatherDat18.lean ====
/-
  Gather region 18 (custom_call 18): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem18 : Fin 8 → SemLoc sig := fun | 0 => .dma 212 | 1 => .dma 213 | 2 => .dma 214 | 3 => .dma 215 | 4 => .dma 216 | 5 => .dma 217 | 6 => .dma 218 | 7 => .dma 219

/-- The eight counters at zero, as the run finds them and hands them back. -/
abbrev sems18 (c : Dev nD) : sProp (MM F) :=
  iprop(semVal ((c : Thread nD τ), osem18 0) 0 ∗ semVal ((c : Thread nD τ), osem18 1) 0 ∗ semVal ((c : Thread nD τ), osem18 2) 0
    ∗ semVal ((c : Thread nD τ), osem18 3) 0 ∗ semVal ((c : Thread nD τ), osem18 4) 0 ∗ semVal ((c : Thread nD τ), osem18 5) 0
    ∗ semVal ((c : Thread nD τ), osem18 6) 0 ∗ semVal ((c : Thread nD τ), osem18 7) 0)

/-- Word `j` of the eight the index table holds for point `i`, as the kernel's scalar load reads it. -/
def tblWord18 (c : Dev nD) (i : grid18.Coords) (tbl : Bf (F := F) c (Memref.whole main_v120)) (j : Fin 8) : BitVec 32 :=
  (Memref.whole main_v120).view.readAt (Elt F) (Rect.unit (s := S131072) (k18_off1 i (BitVec.ofNat 32 j.val)) S1.size (k18_off1_inb i j)).toLoadRect tbl
    (Shape.Idx.first (s := S1) (numel1_S1.symm ▸ Nat.one_pos))

/-- Window `w`'s block at point `t`, read off its array at the region's entry. -/
def iblk18 (a0 : (pcfg18 (F := F)).Adm) (Vin : Dev nD → Valuation τ sig (Elt F)) (c : Dev nD) (w : Fin (cfg18 a0).W) (t : Fin (cfg18 a0).N) :
    (((cfg18 a0).win w).xblock ((cfg18 a0).grid.coords t)).Idx → Elt F ((cfg18 a0).win w).elt :=
  (((cfg18 a0).win w).blk t).view.read (Elt F) (Vr Vin c (Pipeline.arrRef spec18 w))

/-- The result array the region leaves: the gathered and scaled rows of the embedding array, whole. -/
def gout18 (a0 : (pcfg18 (F := F)).Adm) (Vin : Dev nD → Valuation τ sig (Elt F)) (c : Dev nD) : Buf (Elt F) ((c : Thread nD τ).loc main_v122) :=
  gatherArr (Vr Vin c main_v109) (a0.1 0) (Vr Vin c main_v121)

/-- The invariant between points: the embedding array as entered, the kernel's semaphores at zero, the index table, the
    scoped buffers no window stages (the kernel's scratch among them). -/
def Phi18 (a0 : (pcfg18 (F := F)).Adm) (Vin : Dev nD → Valuation τ sig (Elt F)) (c : Dev nD) : sProp (MM F) :=
  iprop(pt c (Memref.whole main_v109) (Vr Vin c main_v109) ∗ sems18 c
    ∗ Pipeline.prefHeld (Ix := Unit) (Name := ℕ) (U := UU nD τ) (Lvl := ℕ) pre18 c (fun _ => fullShare) a0.1
    ∗ Pipeline.scopedRest (Ix := Unit) (Name := ℕ) (U := UU nD τ) (Lvl := ℕ) (Val := Elt F) spec18 c)

/-- The proof data on core `c`. -/
def dat18 (a0 : (pcfg18 (F := F)).Adm) (Vin : Dev nD → Valuation τ sig (Elt F)) (c : Dev nD) :
    Pipeline.Dat τ (Elt F) Unit ℕ (UU nD τ) ℕ ((pcfg18 (F := F)).at a0) c where
  A w := Vr Vin c (Pipeline.arrRef spec18 w)
  after w t := match w with
    | ⟨0, _⟩ => iblk18 a0 Vin c 0 t
    | ⟨1, _⟩ => (((cfg18 a0).win 1).blk t).view.read (Elt F) (gout18 a0 Vin c)
  Φ _ := Phi18 a0 Vin c
  q _ := fullShare
  owed _ := 0

theorem A_eq18 (a0 : (pcfg18 (F := F)).Adm) (Vin : Dev nD → Valuation τ sig (Elt F)) (c : Dev nD) (w : Fin (cfg18 a0).W) :
    (dat18 a0 Vin c).A w = Vr Vin c (Pipeline.arrRef spec18 w) := by dsimp only [dat18]
theorem after18_0 (a0 : (pcfg18 (F := F)).Adm) (Vin : Dev nD → Valuation τ sig (Elt F)) (c : Dev nD) (t : Fin (cfg18 a0).N) :
    (dat18 a0 Vin c).after 0 t = iblk18 a0 Vin c 0 t := by dsimp only [dat18]; rfl
theorem after18_1 (a0 : (pcfg18 (F := F)).Adm) (Vin : Dev nD → Valuation τ sig (Elt F)) (c : Dev nD) (t : Fin (cfg18 a0).N) :
    (dat18 a0 Vin c).after 1 t = (((cfg18 a0).win 1).blk t).view.read (Elt F) (gout18 a0 Vin c) := by dsimp only [dat18]; rfl
theorem Phi_eq18 (a0 : (pcfg18 (F := F)).Adm) (Vin : Dev nD → Valuation τ sig (Elt F)) (c : Dev nD) (t : Fin ((cfg18 a0).N + 1)) :
    (dat18 a0 Vin c).Φ t = Phi18 a0 Vin c := rfl
theorem owed_eq18 (a0 : (pcfg18 (F := F)).Adm) (Vin : Dev nD → Valuation τ sig (Elt F)) (c : Dev nD) (t : Fin ((cfg18 a0).N + 1)) :
    (dat18 a0 Vin c).owed t = 0 := rfl
theorem q_eq18 (a0 : (pcfg18 (F := F)).Adm) (Vin : Dev nD → Valuation τ sig (Elt F)) (c : Dev nD) (w : Fin (cfg18 a0).W) :
    (dat18 a0 Vin c).q w = fullShare := rfl

/-- The pinned family's configuration at region 18 is this one. -/
example (a : (p : Fin 34) → (pcfgs (F := F) p).Adm) : Pipeline.pin (pcfgs (F := F)) a (18 : Fin 34) = (pcfg18 (F := F)).at (a (18 : Fin 34)) := rfl

end Cert.Kernel.Hand

end
-- ==== Proof.K.GatherBody18.lean ====
/-
  Gather region 18 (custom_call 18): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat18
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk18 (c : Dev nD) (i : grid18.Coords) (tbl : Bf (F := F) c (Memref.whole main_v120)) : Prop where
  h1 : k18_chk1 (tblWord18 c i tbl 0)
  h2 : k18_chk2 (tblWord18 c i tbl 1)
  h3 : k18_chk3 (tblWord18 c i tbl 2)
  h4 : k18_chk4 (tblWord18 c i tbl 3)
  h5 : k18_chk5 (tblWord18 c i tbl 4)
  h6 : k18_chk6 (tblWord18 c i tbl 5)
  h7 : k18_chk7 (tblWord18 c i tbl 6)
  h8 : k18_chk8 (tblWord18 c i tbl 7)

/-- A one-row slice of the embedding array at the row a word names, read at lane `z 1`: the array's element there. -/
theorem rowRead18 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun18 (c : Dev nD) (i : grid18.Coords)
    (M3 : Memref sig .tc .vmem S8x1 .f32) (h3 : M3.IsWhole) (M4 : Memref sig .tc .vmem S8x128 .f32) (h4 : M4.IsWhole)
    (tbl : Bf (F := F) c (Memref.whole main_v120)) (x : Bf (F := F) c (Memref.whole main_v109))
    (vb : Vec F S8x1 .f32) (hchk : GatherChk18 c i tbl) (Q : PUnit → sProp (MM F)) :
    iprop(pt c (Memref.whole main_v120) tbl ∗ pt c (Memref.whole main_v109) x
      ∗ owns (c : Thread nD τ) M3 fullShare vb ∗ (∃ d, owns (c : Thread nD τ) M4 fullShare d)
      ∗ (∃ fs, pt c (Memref.whole cc18_scratch0) fs) ∗ sems18 c ∗ (∃ W, owes (c : Thread nD τ) (0 : CellTallies nD τ sig Unit) W)
      ∗ (iprop(pt c (Memref.whole main_v120) tbl ∗ pt c (Memref.whole main_v109) x
          ∗ owns (c : Thread nD τ) M3 fullShare vb ∗ owns (c : Thread nD τ) M4 fullShare (gatherBlk x (tblWord18 c i tbl) vb)
          ∗ (∃ fs, pt c (Memref.whole cc18_scratch0) fs) ∗ sems18 c ∗ (∃ W, owes (c : Thread nD τ) (0 : CellTallies nD τ sig Unit) W)) -∗ Q ⟨⟩))
    ⊢ wp frame (wpE (defs₀ (F := F)) 𝒱₀ c none) Set.univ
        (cc18__gather_kernel i (Memref.whole main_v120) (Memref.isWhole_whole _) (Memref.whole main_v109) (Memref.isWhole_whole _) M3 h3 M4 h4
          (Memref.whole cc18_scratch0) (Memref.isWhole_whole _) cc18_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 212).1 $$ Hx
  icases Hx' with ⟨Hxr, Hx0, Hx1, Hx2, Hx3, Hx4, Hx5, Hx6, Hx7⟩
  sl_unfold [cc18__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 212).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k18_pay1 gatherBlk
    show FloatOps.mulf _ _ = FloatOps.mulf _ _
    congr 1
    · unfold gatherRun18.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun18.sl.dma8 gatherRun18.sl.dma8_1 gatherRun18.sl.dma8_2 gatherRun18.sl.dma8_3 gatherRun18.sl.dma8_4 gatherRun18.sl.dma8_5
        gatherRun18.sl.dma8_6 gatherRun18.sl.dma8_7 gatherRun18.sl.r gatherRun18.sl.r_1 gatherRun18.sl.r_2 gatherRun18.sl.r_3 gatherRun18.sl.r_4
        gatherRun18.sl.r_5 gatherRun18.sl.r_6 gatherRun18.sl.r_7
      refine canonRows8 _ _ _ _ _ _ _ _ _ _ _ _ _ _ _ _ (fun r d => x (embIdx (rowOf (tblWord18 c i tbl r)) d)) ?_ ?_ ?_ ?_ ?_ ?_ ?_ ?_ y
      · exact fun z => rowRead18 c _ (tblWord18 c i tbl 0) rfl rfl _ _ x z
      · exact fun z => rowRead18 c _ (tblWord18 c i tbl 1) rfl rfl _ _ x z
      · exact fun z => rowRead18 c _ (tblWord18 c i tbl 2) rfl rfl _ _ x z
      · exact fun z => rowRead18 c _ (tblWord18 c i tbl 3) rfl rfl _ _ x z
      · exact fun z => rowRead18 c _ (tblWord18 c i tbl 4) rfl rfl _ _ x z
      · exact fun z => rowRead18 c _ (tblWord18 c i tbl 5) rfl rfl _ _ x z
      · exact fun z => rowRead18 c _ (tblWord18 c i tbl 6) rfl rfl _ _ x z
      · exact fun z => rowRead18 c _ (tblWord18 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk18.lean ====
/-
  Gather region 18 (custom_call 18): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat18
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word18 (i : grid18.Coords) (j : Fin 8) : k18_off1 i (BitVec.ofNat 32 j.val) 0 = (i 0).val * 8 + j.val := by
  have hi : (i 0).val < 16384 := (i 0).isLt
  have hj : j.val < 8 := j.isLt
  unfold k18_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word18 (i : grid18.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord18_eq (c : Dev nD) (i : grid18.Coords) (tbl : Bf (F := F) c (Memref.whole main_v120)) (j : Fin 8)
    (e : Fin 131072) (he : e.val = (i 0).val * 8 + j.val) : tblWord18 c i tbl j = tbl (tblIdx e) := by
  unfold tblWord18
  show tbl _ = tbl _
  refine congrArg tbl ?_
  funext a; apply Fin.ext
  match a with
  | ⟨0, _⟩ =>
    show k18_off1 i (BitVec.ofNat 32 j.val) 0 + 1 * 0 = e.val
    rw [off_word18, he]; omega

/-- Row `j` of the value window's block at point `t` is the value array's row `8 t + j`. -/
theorem valBlk18_eq (a0 : (pcfg18 (F := F)).Adm) (Vin : Dev nD → Valuation τ sig (Elt F)) (c : Dev nD) (t : Fin (cfg18 a0).N)
    (j : Fin 8) (e : Fin 131072) (he : e.val = ((grid18.coords t) 0).val * 8 + j.val) :
    iblk18 a0 Vin c 0 t (colIdx j) = Vr Vin c main_v121 (valIdx e) := by
  unfold iblk18
  show Vr Vin c main_v121 _ = Vr Vin c main_v121 _
  refine congrArg (Vr Vin c main_v121) ?_
  funext a; apply Fin.ext
  match a with
  | ⟨0, _⟩ =>
    show (BitVec.ofNat 32 ((grid18.coords t) 0).val).toNat * 8 + 1 * j.val = e.val
    rw [coord_word18, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk18 (a0 : (pcfg18 (F := F)).Adm) (Vin : Dev nD → Valuation τ sig (Elt F)) (c : Dev nD) (t : Fin (cfg18 a0).N) :
    gatherBlk (Vr Vin c main_v109) (tblWord18 c (grid18.coords t) (a0.1 0)) (iblk18 a0 Vin c 0 t)
      = (((cfg18 a0).win 1).blk t).view.read (Elt F) (gout18 a0 Vin c) := by
  funext y
  show gatherBlk _ _ _ y = gout18 a0 Vin c ((((cfg18 a0).win 1).blk t).view.emb y)
  unfold gatherBlk gout18 gatherArr
  have e0 : ((((cfg18 a0).win 1).blk t).view.emb y (0 : Fin 2)).val = ((grid18.coords t) 0).val * 8 + (y 0).val := by
    show (BitVec.ofNat 32 ((grid18.coords t) 0).val).toNat * 8 + 1 * (y 0).val = _
    rw [coord_word18]; omega
  have e1 : (((cfg18 a0).win 1).blk t).view.emb y (1 : Fin 2) = y 1 := Fin.ext (by
    show (0#32 : BitVec 32).toNat * 128 + 1 * (y 1).val = (y 1).val
    show 0 * 128 + 1 * (y 1).val = (y 1).val
    omega)
  rw [tblWord18_eq c (grid18.coords t) (a0.1 0) (y 0) _ e0, valBlk18_eq a0 Vin c t (y 0) _ e0, e1]

end Cert.Kernel.Hand

end
-- ==== Proof.K.GatherRegion18.lean ====
/-
  Gather region 18 (custom_call 18): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody18
import proofs.«414509_j14181982011419_2_alg».proof.Proof.K.GatherBlk18
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk18 (a0 : (pcfg18 (F := F)).Adm) : Prop := ∀ e : S131072.Idx, (a0.1 0 e).toNat < 100000

/-! ## The grid and the result window's blocks -/

/-- On the one-axis grid a point's coordinate is its number. -/
theorem regCoords18 (t : Fin grid18.N) : (grid18.coords t 0).val = t.val := by
  have ht : t.val < 16384 := N_18 ▸ t.isLt
  show t.val / grid18.stride 0 % grid18.bound 0 = t.val
  rw [show grid18.stride 0 = 1 from by decide, show grid18.bound 0 = 16384 from rfl, Nat.div_one, Nat.mod_eq_of_lt ht]

/-- A point's number as the 32-bit word the index maps compute with. -/
theorem regWord18 (t : Fin grid18.N) : (BitVec.ofNat 32 (grid18.coords t 0).val).toNat = t.val := by
  have ht : t.val < 16384 := N_18 ▸ t.isLt
  rw [BitVec.toNat_ofNat, regCoords18]; omega

/-- The result window's block at point `t` is block `t` along the rows, at zero along the lanes. -/
theorem regOutIndex18 (a0 : (pcfg18 (F := F)).Adm) (t : Fin (cfg18 a0).N) : ((cfg18 a0).win 1).index t = ![t.val, 0] := by
  show cc18_transform_2 (grid18.coords t) = _
  unfold cc18_transform_2
  funext a; fin_cases a
  · exact regWord18 t
  · rfl

/-- The result window is written back at every point: consecutive points have different blocks. -/
theorem regOutFlush18 (a0 : (pcfg18 (F := F)).Adm) (t : Fin (cfg18 a0).N) : ((cfg18 a0).win 1).flush t = true := by
  have htN : t.val < 16384 := N_18 ▸ t.isLt
  rw [Pipeline.Window.flush_out _ rfl]
  by_cases h : t.val + 1 = 16384
  · exact Or.inl (show t.val + 1 = grid18.N by rw [N_18]; exact h)
  · have hlt : t.val + 1 < grid18.N := by rw [N_18]; omega
    refine Or.inr ⟨hlt, fun e => ?_⟩
    have e' : (![t.val + 1, 0] : Fin 2 → ℕ) = ![t.val, 0] := (regOutIndex18 a0 ⟨t.val + 1, hlt⟩).symm.trans (e.trans (regOutIndex18 a0 t))
    have e0 := congrFun e' 0
    simp at e0

/-- The index table, held as the pipeline's one prefetched table. -/
theorem prefHeldEq18 (a0 : (pcfg18 (F := F)).Adm) (c : Dev nD) :
    (Pipeline.prefHeld (Ix := Unit) (Name := ℕ) (U := UU nD τ) (Lvl := ℕ) pre18 c (fun _ => fullShare) a0.1 : sProp (MM F))
      = pt c (Memref.whole main_v120) (a0.1 0) := by
  unfold Pipeline.prefHeld
  rw [show (Finset.univ : Finset (Fin pre18.K)) = {0} from rfl, BI.bigSep_singleton]
  rfl

/-- The value window's staging buffer holds its block at every point. -/
theorem beforeVal18 (a0 : (pcfg18 (F := F)).Adm) (Vin : Dev nD → Valuation τ sig (Elt F)) (c : Dev nD) (t : Fin (cfg18 a0).N) (d) :
    (dat18 a0 Vin c).before 0 t d = iblk18 a0 Vin c 0 t :=
  ((dat18 a0 Vin c).before_in_eq_fetched 0 rfl (fun _ => rfl) (fun _ _ _ => rfl)
    (fun t => by rw [after18_0]; unfold Dat.blockOf iblk18; rw [A_eq18]; try rfl) t d).trans
    (by unfold Dat.fetched Dat.blockOf iblk18; rw [A_eq18]; try rfl)

/-! ## The kernel's checks, from the table's range -/

/-- Each of the point's eight words is a word of the table, so a row number. -/
theorem tblWordLt18 (a0 : (pcfg18 (F := F)).Adm) (hok : GatherOk18 a0) (c : Dev nD) (i : grid18.Coords) (j : Fin 8) :
    (tblWord18 c i (a0.1 0) j).toNat < 100000 := by
  unfold tblWord18
  exact hok _

/-- So the kernel's eight checks hold at every point. -/
theorem gatherChk18 (a0 : (pcfg18 (F := F)).Adm) (hok : GatherOk18 a0) (c : Dev nD) (i : grid18.Coords) : GatherChk18 c i (a0.1 0) :=
  ⟨⟨chkRow _ (tblWordLt18 a0 hok c i 0), chkRow _ (tblWordLt18 a0 hok c i 0)⟩,
   ⟨chkRow _ (tblWordLt18 a0 hok c i 1), chkRow _ (tblWordLt18 a0 hok c i 1)⟩,
   ⟨chkRow _ (tblWordLt18 a0 hok c i 2), chkRow _ (tblWordLt18 a0 hok c i 2)⟩,
   ⟨chkRow _ (tblWordLt18 a0 hok c i 3), chkRow _ (tblWordLt18 a0 hok c i 3)⟩,
   ⟨chkRow _ (tblWordLt18 a0 hok c i 4), chkRow _ (tblWordLt18 a0 hok c i 4)⟩,
   ⟨chkRow _ (tblWordLt18 a0 hok c i 5), chkRow _ (tblWordLt18 a0 hok c i 5)⟩,
   ⟨chkRow _ (tblWordLt18 a0 hok c i 6), chkRow _ (tblWordLt18 a0 hok c i 6)⟩,
   chkRow _ (tblWordLt18 a0 hok c i 7)⟩

/-! ## The body obligation, at a generic point -/

/-- What the body is called with at point `t`: the invariant, the core's dues, each window's current staging memref at
    what the pipeline left there, -/
def bodyPre18 (a0 : (pcfg18 (F := F)).Adm) (Vin : Dev nD → Valuation τ sig (Elt F)) (c : Dev nD) (t : Fin (cfg18 a0).N) : sProp (MM F) :=
  iprop((dat18 a0 Vin c).Φ t.castSucc ∗ (dat18 a0 Vin c).owesAt () t.castSucc
    ∗ (∃ d, owns (c : Thread nD τ) (((cfg18 a0).win 0).stage ((cfg18 a0).slots t 0)) fullShare ((dat18 a0 Vin c).before 0 t d))
    ∗ (∃ d, owns (c : Thread nD τ) (((cfg18 a0).win 1).stage ((cfg18 a0).slots t 1)) fullShare ((dat18 a0 Vin c).before 1 t d)))

/-- and what it returns. -/
def bodyPost18 (a0 : (pcfg18 (F := F)).Adm) (Vin : Dev nD → Valuation τ sig (Elt F)) (c : Dev nD) (t : Fin (cfg18 a0).N) : sProp (MM F) :=
  iprop((dat18 a0 Vin c).Φ t.succ ∗ (dat18 a0 Vin c).owesAt () t.succ
    ∗ owns (c : Thread nD τ) (((cfg18 a0).win 0).stage ((cfg18 a0).slots t 0)) fullShare ((dat18 a0 Vin c).after 0 t)
    ∗ owns (c : Thread nD τ) (((cfg18 a0).win 1).stage ((cfg18 a0).slots t 1)) fullShare ((dat18 a0 Vin c).after 1 t))

/-- The body at any point: the invariant opened into the embedding array, the semaphores, the table and the scratch;
    the value window's memref at its block; the checks from the table's range; so the kernel's run applies, and what it
    leaves in the result window's memref is the point's block of the gathered array. -/
theorem sound_body18 (a0 : (pcfg18 (F := F)).Adm) (hok : GatherOk18 a0) (Vin : Dev nD → Valuation τ sig (Elt F)) (c : Dev nD) (t : Fin (cfg18 a0).N) :
    bodyPre18 a0 Vin c t ⊢ wp frame (wpE (defs₀ (F := F)) 𝒱₀ c none) Set.univ
      (defs₀ .tc (cfg18 a0).body ((cfg18 a0).bodyArgs t ((cfg18 a0).slots t))) (fun _ => bodyPost18 a0 Vin c t) := by
  unfold bodyPre18 bodyPost18
  simp only [beforeVal18]
  rw [Phi_eq18, Phi_eq18, after18_0, after18_1, ← gatherBlk_blk18]
  unfold Phi18 Pipeline.Dat.owesAt Pipeline.owesWithin
  rw [owed_eq18, owed_eq18, prefHeldEq18, scopedRest18_split]
  iintro ⟨⟨Hx, Hos, Ht, ⟨%fs, Hs⟩, Hsb⟩, ⟨%W, %hW, HO⟩, ⟨%d0, H0⟩, ⟨%d1, H1⟩⟩
  iapply (gatherRun18 c (grid18.coords t) _ _ _ _ (a0.1 0) (Vr Vin c main_v109) (iblk18 a0 Vin c 0 t) (gatherChk18 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation18 (a0 : (pcfg18 (F := F)).Adm) (hok : GatherOk18 a0) (Vin : Dev nD → Valuation τ sig (Elt F)) (c : Dev nD) :
    BodyObligation (dat18 a0 Vin c) (defs₀ (F := F)) 𝒱₀ () Set.univ := fun t => by
  rw [bigSep_W18, bigSep_W18]
  exact sound_body18 a0 hok Vin c t

/-! ## From the blocks to the arrays -/

/-- The value array after the region: as entered. -/
theorem arrAt18_in (a0 : (pcfg18 (F := F)).Adm) (Vin : Dev nD → Valuation τ sig (Elt F)) (c : Dev nD) :
    (dat18 a0 Vin c).arrAt 0 (cfg18 a0).N = Vr Vin c main_v121 :=
  ((dat18 a0 Vin c).arrAt_in 0 rfl _).trans (A_eq18 a0 Vin c 0)

/-- Every index of the result array is in some point's block: row `e`, lane `d` is element `(e % 8, d)` of the block
    of point `e / 8`. -/
theorem regOutCover18 (a0 : (pcfg18 (F := F)).Adm) (i : S131072x128.Idx) :
    ∃ t : Fin (cfg18 a0).N, ((cfg18 a0).win 1).flush t = true ∧ i ∈ (((cfg18 a0).win 1).blk t).view.set := by
  have hi0 : (i 0).val < 131072 := (i 0).isLt
  have hi1 : (i 1).val < 128 := (i 1).isLt
  have hN : (i 0).val / 8 < grid18.N := by rw [N_18]; omega
  obtain ⟨t, ht⟩ : ∃ t : Fin (cfg18 a0).N, t.val = (i 0).val / 8 := ⟨⟨_, hN⟩, rfl⟩
  have hx : (((cfg18 a0).win 1).blk t).view.emb (ValueIdx.ix2 ⟨(i 0).val % 8, Nat.mod_lt _ (by decide)⟩ (i 1)) = i := by
    funext a; apply Fin.ext
    have e0 : ((cfg18 a0).win 1).index t (0 : Fin 2) = t.val := congrFun (regOutIndex18 a0 t) (0 : Fin 2)
    have e1 : ((cfg18 a0).win 1).index t (1 : Fin 2) = 0 := congrFun (regOutIndex18 a0 t) (1 : Fin 2)
    match a with
    | ⟨0, _⟩ => show ((cfg18 a0).win 1).index t (0 : Fin 2) * 8 + 1 * ((i 0).val % 8) = (i 0).val; omega
    | ⟨1, _⟩ => show ((cfg18 a0).win 1).index t (1 : Fin 2) * 128 + 1 * (i 1).val = (i 1).val; omega
  exact ⟨t, regOutFlush18 a0 t, hx ▸ (((cfg18 a0).win 1).blk t).view.emb_mem_set _⟩

/-- The result array after the region: the gathered and scaled rows, whole. -/
theorem arrAt18_out (a0 : (pcfg18 (F := F)).Adm) (Vin : Dev nD → Valuation τ sig (Elt F)) (c : Dev nD) :
    (dat18 a0 Vin c).arrAt 1 (cfg18 a0).N = gout18 a0 Vin c :=
  (dat18 a0 Vin c).arrAt_eq_of_cover 1 (gout18 a0 Vin c)
    (fun t _ => by
      show ((cfg18 a0).win 1).cut ((cfg18 a0).grid.coords t) ((dat18 a0 Vin c).after 1 t) = _
      rw [after18_1])
    (regOutCover18 a0)

/-! ## The region as a segment of @main -/

/-- The ownership layout of the kernel's eight semaphores. -/
theorem ownSemFacts18 : Pipeline.OwnSemFacts spec18 osem18 := by decide

/-- The kernel's own cells at zero, listed. -/
theorem ownSemsListed18 (c : Dev nD) :
    (Pipeline.ownSems0 (Ix := Unit) (Name := ℕ) (U := UU nD τ) (Lvl := ℕ) (Val := Elt F) (τ := τ) osem18 c : sProp (MM F)) = sems18 c :=
  Pipeline.ownSems0_eq_of_list c osem18 [0, 1, 2, 3, 4, 5, 6, 7] (by decide) (by decide)

/-- The unscoped buffers that are no window's array, no table, and not the embedding array. -/
abbrev restRefs18 : Finset (Ref sig .tc) :=
  (((Finset.univ.filter fun b : Ref sig .tc => ¬ b.isScoped) \ Finset.univ.image (Pipeline.arrRef spec18)) \ Finset.univ.image pre18.ref) \ {main_v109}

/-- Those buffers, each whole at its contents under `Vin`: what bypasses the region. -/
def Zrest18 (Vin : Dev nD → Valuation τ sig (Elt F)) (c : Dev nD) : sProp (MM F) :=
  bigSep restRefs18 fun b => ((c : Thread nD τ).loc b) ↦{fullShare} Vr Vin c b

/-- The embedding array is an unscoped buffer that is no window's array and no table. -/
theorem embArrMem18 : ({main_v109} : Finset (Ref sig .tc)) ⊆
    ((Finset.univ.filter fun b : Ref sig .tc => ¬ b.isScoped) \ Finset.univ.image (Pipeline.arrRef spec18)) \ Finset.univ.image pre18.ref := by
  decide

/-- The unscoped buffers that are no window's array: the index table, the embedding array, and the rest. -/
theorem unscopedRestOpen18 (Vin : Dev nD → Valuation τ sig (Elt F)) (c : Dev nD) :
    (Pipeline.unscopedRest (Ix := Unit) (Name := ℕ) (U := UU nD τ) (Lvl := ℕ) spec18 c (Vr Vin c) : sProp (MM F))
      = iprop(Pipeline.prefHeld pre18 c (fun _ => fullShare) (fun k => Vr Vin c (pre18.ref k))
          ∗ pt c (Memref.whole main_v109) (Vr Vin c main_v109) ∗ Zrest18 Vin c) := by
  rw [Pipeline.unscopedRest_split preFacts18 c (Vr Vin c)]
  unfold Pipeline.unscopedRestP Zrest18
  rw [BI.bigSep_sdiff_split embArrMem18, BI.bigSep_singleton]
  rfl

/-- The buffer contents when the region is left: the result array at the gathered rows, every other buffer as entered. -/
abbrev Vout18 (a0 : (pcfg18 (F := F)).Adm) (Vin : Dev nD → Valuation τ sig (Elt F)) (c : Dev nD) : Valuation τ sig (Elt F) :=
  Function.update (Vin c) main_v122 (gout18 a0 Vin c)

/-- At the exit each of the region's arrays holds what the pipeline leaves; -/
theorem hF18 (a0 : (pcfg18 (F := F)).Adm) (Vin : Dev nD → Valuation τ sig (Elt F)) (c : Dev nD) (w : Fin (cfg18 a0).W) :
    (dat18 a0 Vin c).arrAt w (cfg18 a0).N = Vr (Vout18 a0 Vin) c (Pipeline.arrRef spec18 w) := by
  match w with
  | ⟨0, _⟩ =>
    show (dat18 a0 Vin c).arrAt 0 (cfg18 a0).N = Vr (Vout18 a0 Vin) c (Pipeline.arrRef spec18 0)
    rw [arrAt18_in]
    exact (Function.update_of_ne (StableHlo.devRef_ne_of_ne (by decide) : (Proc.devRef .tc main_v121 : DevRef τ sig) ≠ Proc.devRef .tc main_v122) _ _).symm
  | ⟨1, _⟩ =>
    show (dat18 a0 Vin c).arrAt 1 (cfg18 a0).N = Vr (Vout18 a0 Vin) c (Pipeline.arrRef spec18 1)
    rw [arrAt18_out]
    exact (Function.update_self (Proc.devRef .tc main_v122 : DevRef τ sig) _ (Vin c)).symm

/-- and every other buffer what it held at entry. -/
theorem hrest18 (a0 : (pcfg18 (F := F)).Adm) (Vin : Dev nD → Valuation τ sig (Elt F)) (c : Dev nD) :
    ∀ b : Ref sig .tc, b ∉ Finset.univ.image (Pipeline.arrRef spec18) → Vr (Vout18 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat18` at the entry valuation `Vin`
    (`hd`), the index table's contents under `Vin` being the pinned ones (`htbl`) and row numbers (`hok`). -/
def reg18 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk18 (F := F) (a (18 : Fin 34)))
    (hd : ∀ c, pdats (18 : Fin 34) c = dat18 (a (18 : Fin 34)) Vin c) (htbl : ∀ c, (a (18 : Fin 34)).1 = fun k => Vr Vin c (pre18.ref k)) :
    Pipeline.RegionSeg (pcfgs (F := F)) a pdats () defs₀ 𝒱₀ L lv (18 : Fin 34) where
  win := (launch18 (F := F)).win.to₀
  block_pos := (launch18 (F := F)).block_pos
  stage_whole := (launch18 (F := F)).stage_whole
  K := Fin 8
  osem := osem18
  ho := ownSemFacts18
  hbody c := by rw [hd c]; exact (body_obligation18 (a (18 : Fin 34)) hok Vin c).loose
  hwaits := Pipeline.hwaits_of_owed_zero _ _ _ _ L lv (18 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v122 (gout18 (a (18 : Fin 34)) Vin c)) ∗ Rest c)
  X c := iprop(pt c (Memref.whole main_v109) (Vr Vin c main_v109) ∗ sems18 c)
  Y c := iprop(pt c (Memref.whole main_v109) (Vr Vin c main_v109)
    ∗ Pipeline.prefHeld (Ix := Unit) (Name := ℕ) (U := UU nD τ) (Lvl := ℕ) pre18 c (fun _ => fullShare) (a (18 : Fin 34)).1)
  Z c := Zrest18 Vin c
  hentry c := by
    rw [ownSemsListed18]
    have hsplit := Pipeline.arrays_of_unscopedBufs (p := (18 : Fin 34)) (pcfgs (F := F)) a pdats (launch18 (F := F)).win (launch18 (F := F)).arr_whole c
      ((pdats (18 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen18 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (18 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq18]; unfold Phi18
    iintro ⟨⟨Hx, Hos⟩, Ht, Hr⟩
    isplitl [Hx]; · iexact Hx
    isplitl [Hos]; · iexact Hos
    isplitl [Ht]; · iexact Ht
    iexact Hr
  hout c := by
    rw [ownSemsListed18, hd c, Phi_eq18]; unfold Phi18
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (18 : Fin 34)) (pcfgs (F := F)) a (Ix := Unit) (Name := ℕ) (U := UU nD τ) (Lvl := ℕ)
      (launch18 (F := F)).win (launch18 (F := F)).arr_whole c pdats ((pdats (18 : Fin 34) c).share_full fun _ => by rw [hd c]; rfl)
      (Vr Vin c) (Vr (Vout18 (a (18 : Fin 34)) Vin) c) ((pdats (18 : Fin 34) c).arrAt · (cfg18 (a (18 : Fin 34))).N)
      (fun w => by rw [hd c]; exact hF18 (a (18 : Fin 34)) Vin c w) (hrest18 (a (18 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen18 Vin c).symm)
      isplitl [Ht]; · rw [← htbl c]; iexact Ht
      isplitl [Hx]; · iexact Hx
      iexact Hz
    unfold Pipeline.Dat.owesAt Pipeline.owesWithin
    rw [show (pdats (18 : Fin 34) c).owed (Fin.last _) = 0 from by rw [hd c]; rfl]
    icases HO with ⟨%W, -, HO⟩; iexists W; iexact HO

end Cert.Kernel.Hand

end
-- ==== Proof.K.GatherDat19.lean ====
/-
  Gather region 19 (custom_call 19): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem19 : Fin 8 → SemLoc sig := fun | 0 => .dma 224 | 1 => .dma 225 | 2 => .dma 226 | 3 => .dma 227 | 4 => .dma 228 | 5 => .dma 229 | 6 => .dma 230 | 7 => .dma 231

/-- The eight counters at zero, as the run finds them and hands them back. -/
abbrev sems19 (c : Dev nD) : sProp (MM F) :=
  iprop(semVal ((c : Thread nD τ), osem19 0) 0 ∗ semVal ((c : Thread nD τ), osem19 1) 0 ∗ semVal ((c : Thread nD τ), osem19 2) 0
    ∗ semVal ((c : Thread nD τ), osem19 3) 0 ∗ semVal ((c : Thread nD τ), osem19 4) 0 ∗ semVal ((c : Thread nD τ), osem19 5) 0
    ∗ semVal ((c : Thread nD τ), osem19 6) 0 ∗ semVal ((c : Thread nD τ), osem19 7) 0)

/-- Word `j` of the eight the index table holds for point `i`, as the kernel's scalar load reads it. -/
def tblWord19 (c : Dev nD) (i : grid19.Coords) (tbl : Bf (F := F) c (Memref.whole main_v123)) (j : Fin 8) : BitVec 32 :=
  (Memref.whole main_v123).view.readAt (Elt F) (Rect.unit (s := S131072) (k19_off1 i (BitVec.ofNat 32 j.val)) S1.size (k19_off1_inb i j)).toLoadRect tbl
    (Shape.Idx.first (s := S1) (numel1_S1.symm ▸ Nat.one_pos))

/-- Window `w`'s block at point `t`, read off its array at the region's entry. -/
def iblk19 (a0 : (pcfg19 (F := F)).Adm) (Vin : Dev nD → Valuation τ sig (Elt F)) (c : Dev nD) (w : Fin (cfg19 a0).W) (t : Fin (cfg19 a0).N) :
    (((cfg19 a0).win w).xblock ((cfg19 a0).grid.coords t)).Idx → Elt F ((cfg19 a0).win w).elt :=
  (((cfg19 a0).win w).blk t).view.read (Elt F) (Vr Vin c (Pipeline.arrRef spec19 w))

/-- The result array the region leaves: the gathered and scaled rows of the embedding array, whole. -/
def gout19 (a0 : (pcfg19 (F := F)).Adm) (Vin : Dev nD → Valuation τ sig (Elt F)) (c : Dev nD) : Buf (Elt F) ((c : Thread nD τ).loc main_v125) :=
  gatherArr (Vr Vin c main_v109) (a0.1 0) (Vr Vin c main_v124)

/-- The invariant between points: the embedding array as entered, the kernel's semaphores at zero, the index table, the
    scoped buffers no window stages (the kernel's scratch among them). -/
def Phi19 (a0 : (pcfg19 (F := F)).Adm) (Vin : Dev nD → Valuation τ sig (Elt F)) (c : Dev nD) : sProp (MM F) :=
  iprop(pt c (Memref.whole main_v109) (Vr Vin c main_v109) ∗ sems19 c
    ∗ Pipeline.prefHeld (Ix := Unit) (Name := ℕ) (U := UU nD τ) (Lvl := ℕ) pre19 c (fun _ => fullShare) a0.1
    ∗ Pipeline.scopedRest (Ix := Unit) (Name := ℕ) (U := UU nD τ) (Lvl := ℕ) (Val := Elt F) spec19 c)

/-- The proof data on core `c`. -/
def dat19 (a0 : (pcfg19 (F := F)).Adm) (Vin : Dev nD → Valuation τ sig (Elt F)) (c : Dev nD) :
    Pipeline.Dat τ (Elt F) Unit ℕ (UU nD τ) ℕ ((pcfg19 (F := F)).at a0) c where
  A w := Vr Vin c (Pipeline.arrRef spec19 w)
  after w t := match w with
    | ⟨0, _⟩ => iblk19 a0 Vin c 0 t
    | ⟨1, _⟩ => (((cfg19 a0).win 1).blk t).view.read (Elt F) (gout19 a0 Vin c)
  Φ _ := Phi19 a0 Vin c
  q _ := fullShare
  owed _ := 0

theorem A_eq19 (a0 : (pcfg19 (F := F)).Adm) (Vin : Dev nD → Valuation τ sig (Elt F)) (c : Dev nD) (w : Fin (cfg19 a0).W) :
    (dat19 a0 Vin c).A w = Vr Vin c (Pipeline.arrRef spec19 w) := by dsimp only [dat19]
theorem after19_0 (a0 : (pcfg19 (F := F)).Adm) (Vin : Dev nD → Valuation τ sig (Elt F)) (c : Dev nD) (t : Fin (cfg19 a0).N) :
    (dat19 a0 Vin c).after 0 t = iblk19 a0 Vin c 0 t := by dsimp only [dat19]; rfl
theorem after19_1 (a0 : (pcfg19 (F := F)).Adm) (Vin : Dev nD → Valuation τ sig (Elt F)) (c : Dev nD) (t : Fin (cfg19 a0).N) :
    (dat19 a0 Vin c).after 1 t = (((cfg19 a0).win 1).blk t).view.read (Elt F) (gout19 a0 Vin c) := by dsimp only [dat19]; rfl
theorem Phi_eq19 (a0 : (pcfg19 (F := F)).Adm) (Vin : Dev nD → Valuation τ sig (Elt F)) (c : Dev nD) (t : Fin ((cfg19 a0).N + 1)) :
    (dat19 a0 Vin c).Φ t = Phi19 a0 Vin c := rfl
theorem owed_eq19 (a0 : (pcfg19 (F := F)).Adm) (Vin : Dev nD → Valuation τ sig (Elt F)) (c : Dev nD) (t : Fin ((cfg19 a0).N + 1)) :
    (dat19 a0 Vin c).owed t = 0 := rfl
theorem q_eq19 (a0 : (pcfg19 (F := F)).Adm) (Vin : Dev nD → Valuation τ sig (Elt F)) (c : Dev nD) (w : Fin (cfg19 a0).W) :
    (dat19 a0 Vin c).q w = fullShare := rfl

/-- The pinned family's configuration at region 19 is this one. -/
example (a : (p : Fin 34) → (pcfgs (F := F) p).Adm) : Pipeline.pin (pcfgs (F := F)) a (19 : Fin 34) = (pcfg19 (F := F)).at (a (19 : Fin 34)) := rfl

end Cert.Kernel.Hand

end
-- ==== Proof.K.GatherBody19.lean ====
/-
  Gather region 19 (custom_call 19): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat19
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk19 (c : Dev nD) (i : grid19.Coords) (tbl : Bf (F := F) c (Memref.whole main_v123)) : Prop where
  h1 : k19_chk1 (tblWord19 c i tbl 0)
  h2 : k19_chk2 (tblWord19 c i tbl 1)
  h3 : k19_chk3 (tblWord19 c i tbl 2)
  h4 : k19_chk4 (tblWord19 c i tbl 3)
  h5 : k19_chk5 (tblWord19 c i tbl 4)
  h6 : k19_chk6 (tblWord19 c i tbl 5)
  h7 : k19_chk7 (tblWord19 c i tbl 6)
  h8 : k19_chk8 (tblWord19 c i tbl 7)

/-- A one-row slice of the embedding array at the row a word names, read at lane `z 1`: the array's element there. -/
theorem rowRead19 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun19 (c : Dev nD) (i : grid19.Coords)
    (M3 : Memref sig .tc .vmem S8x1 .f32) (h3 : M3.IsWhole) (M4 : Memref sig .tc .vmem S8x128 .f32) (h4 : M4.IsWhole)
    (tbl : Bf (F := F) c (Memref.whole main_v123)) (x : Bf (F := F) c (Memref.whole main_v109))
    (vb : Vec F S8x1 .f32) (hchk : GatherChk19 c i tbl) (Q : PUnit → sProp (MM F)) :
    iprop(pt c (Memref.whole main_v123) tbl ∗ pt c (Memref.whole main_v109) x
      ∗ owns (c : Thread nD τ) M3 fullShare vb ∗ (∃ d, owns (c : Thread nD τ) M4 fullShare d)
      ∗ (∃ fs, pt c (Memref.whole cc19_scratch0) fs) ∗ sems19 c ∗ (∃ W, owes (c : Thread nD τ) (0 : CellTallies nD τ sig Unit) W)
      ∗ (iprop(pt c (Memref.whole main_v123) tbl ∗ pt c (Memref.whole main_v109) x
          ∗ owns (c : Thread nD τ) M3 fullShare vb ∗ owns (c : Thread nD τ) M4 fullShare (gatherBlk x (tblWord19 c i tbl) vb)
          ∗ (∃ fs, pt c (Memref.whole cc19_scratch0) fs) ∗ sems19 c ∗ (∃ W, owes (c : Thread nD τ) (0 : CellTallies nD τ sig Unit) W)) -∗ Q ⟨⟩))
    ⊢ wp frame (wpE (defs₀ (F := F)) 𝒱₀ c none) Set.univ
        (cc19__gather_kernel i (Memref.whole main_v123) (Memref.isWhole_whole _) (Memref.whole main_v109) (Memref.isWhole_whole _) M3 h3 M4 h4
          (Memref.whole cc19_scratch0) (Memref.isWhole_whole _) cc19_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 224).1 $$ Hx
  icases Hx' with ⟨Hxr, Hx0, Hx1, Hx2, Hx3, Hx4, Hx5, Hx6, Hx7⟩
  sl_unfold [cc19__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 224).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k19_pay1 gatherBlk
    show FloatOps.mulf _ _ = FloatOps.mulf _ _
    congr 1
    · unfold gatherRun19.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun19.sl.dma8 gatherRun19.sl.dma8_1 gatherRun19.sl.dma8_2 gatherRun19.sl.dma8_3 gatherRun19.sl.dma8_4 gatherRun19.sl.dma8_5
        gatherRun19.sl.dma8_6 gatherRun19.sl.dma8_7 gatherRun19.sl.r gatherRun19.sl.r_1 gatherRun19.sl.r_2 gatherRun19.sl.r_3 gatherRun19.sl.r_4
        gatherRun19.sl.r_5 gatherRun19.sl.r_6 gatherRun19.sl.r_7
      refine canonRows8 _ _ _ _ _ _ _ _ _ _ _ _ _ _ _ _ (fun r d => x (embIdx (rowOf (tblWord19 c i tbl r)) d)) ?_ ?_ ?_ ?_ ?_ ?_ ?_ ?_ y
      · exact fun z => rowRead19 c _ (tblWord19 c i tbl 0) rfl rfl _ _ x z
      · exact fun z => rowRead19 c _ (tblWord19 c i tbl 1) rfl rfl _ _ x z
      · exact fun z => rowRead19 c _ (tblWord19 c i tbl 2) rfl rfl _ _ x z
      · exact fun z => rowRead19 c _ (tblWord19 c i tbl 3) rfl rfl _ _ x z
      · exact fun z => rowRead19 c _ (tblWord19 c i tbl 4) rfl rfl _ _ x z
      · exact fun z => rowRead19 c _ (tblWord19 c i tbl 5) rfl rfl _ _ x z
      · exact fun z => rowRead19 c _ (tblWord19 c i tbl 6) rfl rfl _ _ x z
      · exact fun z => rowRead19 c _ (tblWord19 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk19.lean ====
/-
  Gather region 19 (custom_call 19): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat19
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word19 (i : grid19.Coords) (j : Fin 8) : k19_off1 i (BitVec.ofNat 32 j.val) 0 = (i 0).val * 8 + j.val := by
  have hi : (i 0).val < 16384 := (i 0).isLt
  have hj : j.val < 8 := j.isLt
  unfold k19_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word19 (i : grid19.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord19_eq (c : Dev nD) (i : grid19.Coords) (tbl : Bf (F := F) c (Memref.whole main_v123)) (j : Fin 8)
    (e : Fin 131072) (he : e.val = (i 0).val * 8 + j.val) : tblWord19 c i tbl j = tbl (tblIdx e) := by
  unfold tblWord19
  show tbl _ = tbl _
  refine congrArg tbl ?_
  funext a; apply Fin.ext
  match a with
  | ⟨0, _⟩ =>
    show k19_off1 i (BitVec.ofNat 32 j.val) 0 + 1 * 0 = e.val
    rw [off_word19, he]; omega

/-- Row `j` of the value window's block at point `t` is the value array's row `8 t + j`. -/
theorem valBlk19_eq (a0 : (pcfg19 (F := F)).Adm) (Vin : Dev nD → Valuation τ sig (Elt F)) (c : Dev nD) (t : Fin (cfg19 a0).N)
    (j : Fin 8) (e : Fin 131072) (he : e.val = ((grid19.coords t) 0).val * 8 + j.val) :
    iblk19 a0 Vin c 0 t (colIdx j) = Vr Vin c main_v124 (valIdx e) := by
  unfold iblk19
  show Vr Vin c main_v124 _ = Vr Vin c main_v124 _
  refine congrArg (Vr Vin c main_v124) ?_
  funext a; apply Fin.ext
  match a with
  | ⟨0, _⟩ =>
    show (BitVec.ofNat 32 ((grid19.coords t) 0).val).toNat * 8 + 1 * j.val = e.val
    rw [coord_word19, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk19 (a0 : (pcfg19 (F := F)).Adm) (Vin : Dev nD → Valuation τ sig (Elt F)) (c : Dev nD) (t : Fin (cfg19 a0).N) :
    gatherBlk (Vr Vin c main_v109) (tblWord19 c (grid19.coords t) (a0.1 0)) (iblk19 a0 Vin c 0 t)
      = (((cfg19 a0).win 1).blk t).view.read (Elt F) (gout19 a0 Vin c) := by
  funext y
  show gatherBlk _ _ _ y = gout19 a0 Vin c ((((cfg19 a0).win 1).blk t).view.emb y)
  unfold gatherBlk gout19 gatherArr
  have e0 : ((((cfg19 a0).win 1).blk t).view.emb y (0 : Fin 2)).val = ((grid19.coords t) 0).val * 8 + (y 0).val := by
    show (BitVec.ofNat 32 ((grid19.coords t) 0).val).toNat * 8 + 1 * (y 0).val = _
    rw [coord_word19]; omega
  have e1 : (((cfg19 a0).win 1).blk t).view.emb y (1 : Fin 2) = y 1 := Fin.ext (by
    show (0#32 : BitVec 32).toNat * 128 + 1 * (y 1).val = (y 1).val
    show 0 * 128 + 1 * (y 1).val = (y 1).val
    omega)
  rw [tblWord19_eq c (grid19.coords t) (a0.1 0) (y 0) _ e0, valBlk19_eq a0 Vin c t (y 0) _ e0, e1]

end Cert.Kernel.Hand

end
-- ==== Proof.K.GatherRegion19.lean ====
/-
  Gather region 19 (custom_call 19): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody19
import proofs.«414509_j14181982011419_2_alg».proof.Proof.K.GatherBlk19
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk19 (a0 : (pcfg19 (F := F)).Adm) : Prop := ∀ e : S131072.Idx, (a0.1 0 e).toNat < 100000

/-! ## The grid and the result window's blocks -/

/-- On the one-axis grid a point's coordinate is its number. -/
theorem regCoords19 (t : Fin grid19.N) : (grid19.coords t 0).val = t.val := by
  have ht : t.val < 16384 := N_19 ▸ t.isLt
  show t.val / grid19.stride 0 % grid19.bound 0 = t.val
  rw [show grid19.stride 0 = 1 from by decide, show grid19.bound 0 = 16384 from rfl, Nat.div_one, Nat.mod_eq_of_lt ht]

/-- A point's number as the 32-bit word the index maps compute with. -/
theorem regWord19 (t : Fin grid19.N) : (BitVec.ofNat 32 (grid19.coords t 0).val).toNat = t.val := by
  have ht : t.val < 16384 := N_19 ▸ t.isLt
  rw [BitVec.toNat_ofNat, regCoords19]; omega

/-- The result window's block at point `t` is block `t` along the rows, at zero along the lanes. -/
theorem regOutIndex19 (a0 : (pcfg19 (F := F)).Adm) (t : Fin (cfg19 a0).N) : ((cfg19 a0).win 1).index t = ![t.val, 0] := by
  show cc19_transform_2 (grid19.coords t) = _
  unfold cc19_transform_2
  funext a; fin_cases a
  · exact regWord19 t
  · rfl

/-- The result window is written back at every point: consecutive points have different blocks. -/
theorem regOutFlush19 (a0 : (pcfg19 (F := F)).Adm) (t : Fin (cfg19 a0).N) : ((cfg19 a0).win 1).flush t = true := by
  have htN : t.val < 16384 := N_19 ▸ t.isLt
  rw [Pipeline.Window.flush_out _ rfl]
  by_cases h : t.val + 1 = 16384
  · exact Or.inl (show t.val + 1 = grid19.N by rw [N_19]; exact h)
  · have hlt : t.val + 1 < grid19.N := by rw [N_19]; omega
    refine Or.inr ⟨hlt, fun e => ?_⟩
    have e' : (![t.val + 1, 0] : Fin 2 → ℕ) = ![t.val, 0] := (regOutIndex19 a0 ⟨t.val + 1, hlt⟩).symm.trans (e.trans (regOutIndex19 a0 t))
    have e0 := congrFun e' 0
    simp at e0

/-- The index table, held as the pipeline's one prefetched table. -/
theorem prefHeldEq19 (a0 : (pcfg19 (F := F)).Adm) (c : Dev nD) :
    (Pipeline.prefHeld (Ix := Unit) (Name := ℕ) (U := UU nD τ) (Lvl := ℕ) pre19 c (fun _ => fullShare) a0.1 : sProp (MM F))
      = pt c (Memref.whole main_v123) (a0.1 0) := by
  unfold Pipeline.prefHeld
  rw [show (Finset.univ : Finset (Fin pre19.K)) = {0} from rfl, BI.bigSep_singleton]
  rfl

/-- The value window's staging buffer holds its block at every point. -/
theorem beforeVal19 (a0 : (pcfg19 (F := F)).Adm) (Vin : Dev nD → Valuation τ sig (Elt F)) (c : Dev nD) (t : Fin (cfg19 a0).N) (d) :
    (dat19 a0 Vin c).before 0 t d = iblk19 a0 Vin c 0 t :=
  ((dat19 a0 Vin c).before_in_eq_fetched 0 rfl (fun _ => rfl) (fun _ _ _ => rfl)
    (fun t => by rw [after19_0]; unfold Dat.blockOf iblk19; rw [A_eq19]; try rfl) t d).trans
    (by unfold Dat.fetched Dat.blockOf iblk19; rw [A_eq19]; try rfl)

/-! ## The kernel's checks, from the table's range -/

/-- Each of the point's eight words is a word of the table, so a row number. -/
theorem tblWordLt19 (a0 : (pcfg19 (F := F)).Adm) (hok : GatherOk19 a0) (c : Dev nD) (i : grid19.Coords) (j : Fin 8) :
    (tblWord19 c i (a0.1 0) j).toNat < 100000 := by
  unfold tblWord19
  exact hok _

/-- So the kernel's eight checks hold at every point. -/
theorem gatherChk19 (a0 : (pcfg19 (F := F)).Adm) (hok : GatherOk19 a0) (c : Dev nD) (i : grid19.Coords) : GatherChk19 c i (a0.1 0) :=
  ⟨⟨chkRow _ (tblWordLt19 a0 hok c i 0), chkRow _ (tblWordLt19 a0 hok c i 0)⟩,
   ⟨chkRow _ (tblWordLt19 a0 hok c i 1), chkRow _ (tblWordLt19 a0 hok c i 1)⟩,
   ⟨chkRow _ (tblWordLt19 a0 hok c i 2), chkRow _ (tblWordLt19 a0 hok c i 2)⟩,
   ⟨chkRow _ (tblWordLt19 a0 hok c i 3), chkRow _ (tblWordLt19 a0 hok c i 3)⟩,
   ⟨chkRow _ (tblWordLt19 a0 hok c i 4), chkRow _ (tblWordLt19 a0 hok c i 4)⟩,
   ⟨chkRow _ (tblWordLt19 a0 hok c i 5), chkRow _ (tblWordLt19 a0 hok c i 5)⟩,
   ⟨chkRow _ (tblWordLt19 a0 hok c i 6), chkRow _ (tblWordLt19 a0 hok c i 6)⟩,
   chkRow _ (tblWordLt19 a0 hok c i 7)⟩

/-! ## The body obligation, at a generic point -/

/-- What the body is called with at point `t`: the invariant, the core's dues, each window's current staging memref at
    what the pipeline left there, -/
def bodyPre19 (a0 : (pcfg19 (F := F)).Adm) (Vin : Dev nD → Valuation τ sig (Elt F)) (c : Dev nD) (t : Fin (cfg19 a0).N) : sProp (MM F) :=
  iprop((dat19 a0 Vin c).Φ t.castSucc ∗ (dat19 a0 Vin c).owesAt () t.castSucc
    ∗ (∃ d, owns (c : Thread nD τ) (((cfg19 a0).win 0).stage ((cfg19 a0).slots t 0)) fullShare ((dat19 a0 Vin c).before 0 t d))
    ∗ (∃ d, owns (c : Thread nD τ) (((cfg19 a0).win 1).stage ((cfg19 a0).slots t 1)) fullShare ((dat19 a0 Vin c).before 1 t d)))

/-- and what it returns. -/
def bodyPost19 (a0 : (pcfg19 (F := F)).Adm) (Vin : Dev nD → Valuation τ sig (Elt F)) (c : Dev nD) (t : Fin (cfg19 a0).N) : sProp (MM F) :=
  iprop((dat19 a0 Vin c).Φ t.succ ∗ (dat19 a0 Vin c).owesAt () t.succ
    ∗ owns (c : Thread nD τ) (((cfg19 a0).win 0).stage ((cfg19 a0).slots t 0)) fullShare ((dat19 a0 Vin c).after 0 t)
    ∗ owns (c : Thread nD τ) (((cfg19 a0).win 1).stage ((cfg19 a0).slots t 1)) fullShare ((dat19 a0 Vin c).after 1 t))

/-- The body at any point: the invariant opened into the embedding array, the semaphores, the table and the scratch;
    the value window's memref at its block; the checks from the table's range; so the kernel's run applies, and what it
    leaves in the result window's memref is the point's block of the gathered array. -/
theorem sound_body19 (a0 : (pcfg19 (F := F)).Adm) (hok : GatherOk19 a0) (Vin : Dev nD → Valuation τ sig (Elt F)) (c : Dev nD) (t : Fin (cfg19 a0).N) :
    bodyPre19 a0 Vin c t ⊢ wp frame (wpE (defs₀ (F := F)) 𝒱₀ c none) Set.univ
      (defs₀ .tc (cfg19 a0).body ((cfg19 a0).bodyArgs t ((cfg19 a0).slots t))) (fun _ => bodyPost19 a0 Vin c t) := by
  unfold bodyPre19 bodyPost19
  simp only [beforeVal19]
  rw [Phi_eq19, Phi_eq19, after19_0, after19_1, ← gatherBlk_blk19]
  unfold Phi19 Pipeline.Dat.owesAt Pipeline.owesWithin
  rw [owed_eq19, owed_eq19, prefHeldEq19, scopedRest19_split]
  iintro ⟨⟨Hx, Hos, Ht, ⟨%fs, Hs⟩, Hsb⟩, ⟨%W, %hW, HO⟩, ⟨%d0, H0⟩, ⟨%d1, H1⟩⟩
  iapply (gatherRun19 c (grid19.coords t) _ _ _ _ (a0.1 0) (Vr Vin c main_v109) (iblk19 a0 Vin c 0 t) (gatherChk19 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation19 (a0 : (pcfg19 (F := F)).Adm) (hok : GatherOk19 a0) (Vin : Dev nD → Valuation τ sig (Elt F)) (c : Dev nD) :
    BodyObligation (dat19 a0 Vin c) (defs₀ (F := F)) 𝒱₀ () Set.univ := fun t => by
  rw [bigSep_W19, bigSep_W19]
  exact sound_body19 a0 hok Vin c t

/-! ## From the blocks to the arrays -/

/-- The value array after the region: as entered. -/
theorem arrAt19_in (a0 : (pcfg19 (F := F)).Adm) (Vin : Dev nD → Valuation τ sig (Elt F)) (c : Dev nD) :
    (dat19 a0 Vin c).arrAt 0 (cfg19 a0).N = Vr Vin c main_v124 :=
  ((dat19 a0 Vin c).arrAt_in 0 rfl _).trans (A_eq19 a0 Vin c 0)

/-- Every index of the result array is in some point's block: row `e`, lane `d` is element `(e % 8, d)` of the block
    of point `e / 8`. -/
theorem regOutCover19 (a0 : (pcfg19 (F := F)).Adm) (i : S131072x128.Idx) :
    ∃ t : Fin (cfg19 a0).N, ((cfg19 a0).win 1).flush t = true ∧ i ∈ (((cfg19 a0).win 1).blk t).view.set := by
  have hi0 : (i 0).val < 131072 := (i 0).isLt
  have hi1 : (i 1).val < 128 := (i 1).isLt
  have hN : (i 0).val / 8 < grid19.N := by rw [N_19]; omega
  obtain ⟨t, ht⟩ : ∃ t : Fin (cfg19 a0).N, t.val = (i 0).val / 8 := ⟨⟨_, hN⟩, rfl⟩
  have hx : (((cfg19 a0).win 1).blk t).view.emb (ValueIdx.ix2 ⟨(i 0).val % 8, Nat.mod_lt _ (by decide)⟩ (i 1)) = i := by
    funext a; apply Fin.ext
    have e0 : ((cfg19 a0).win 1).index t (0 : Fin 2) = t.val := congrFun (regOutIndex19 a0 t) (0 : Fin 2)
    have e1 : ((cfg19 a0).win 1).index t (1 : Fin 2) = 0 := congrFun (regOutIndex19 a0 t) (1 : Fin 2)
    match a with
    | ⟨0, _⟩ => show ((cfg19 a0).win 1).index t (0 : Fin 2) * 8 + 1 * ((i 0).val % 8) = (i 0).val; omega
    | ⟨1, _⟩ => show ((cfg19 a0).win 1).index t (1 : Fin 2) * 128 + 1 * (i 1).val = (i 1).val; omega
  exact ⟨t, regOutFlush19 a0 t, hx ▸ (((cfg19 a0).win 1).blk t).view.emb_mem_set _⟩

/-- The result array after the region: the gathered and scaled rows, whole. -/
theorem arrAt19_out (a0 : (pcfg19 (F := F)).Adm) (Vin : Dev nD → Valuation τ sig (Elt F)) (c : Dev nD) :
    (dat19 a0 Vin c).arrAt 1 (cfg19 a0).N = gout19 a0 Vin c :=
  (dat19 a0 Vin c).arrAt_eq_of_cover 1 (gout19 a0 Vin c)
    (fun t _ => by
      show ((cfg19 a0).win 1).cut ((cfg19 a0).grid.coords t) ((dat19 a0 Vin c).after 1 t) = _
      rw [after19_1])
    (regOutCover19 a0)

/-! ## The region as a segment of @main -/

/-- The ownership layout of the kernel's eight semaphores. -/
theorem ownSemFacts19 : Pipeline.OwnSemFacts spec19 osem19 := by decide

/-- The kernel's own cells at zero, listed. -/
theorem ownSemsListed19 (c : Dev nD) :
    (Pipeline.ownSems0 (Ix := Unit) (Name := ℕ) (U := UU nD τ) (Lvl := ℕ) (Val := Elt F) (τ := τ) osem19 c : sProp (MM F)) = sems19 c :=
  Pipeline.ownSems0_eq_of_list c osem19 [0, 1, 2, 3, 4, 5, 6, 7] (by decide) (by decide)

/-- The unscoped buffers that are no window's array, no table, and not the embedding array. -/
abbrev restRefs19 : Finset (Ref sig .tc) :=
  (((Finset.univ.filter fun b : Ref sig .tc => ¬ b.isScoped) \ Finset.univ.image (Pipeline.arrRef spec19)) \ Finset.univ.image pre19.ref) \ {main_v109}

/-- Those buffers, each whole at its contents under `Vin`: what bypasses the region. -/
def Zrest19 (Vin : Dev nD → Valuation τ sig (Elt F)) (c : Dev nD) : sProp (MM F) :=
  bigSep restRefs19 fun b => ((c : Thread nD τ).loc b) ↦{fullShare} Vr Vin c b

/-- The embedding array is an unscoped buffer that is no window's array and no table. -/
theorem embArrMem19 : ({main_v109} : Finset (Ref sig .tc)) ⊆
    ((Finset.univ.filter fun b : Ref sig .tc => ¬ b.isScoped) \ Finset.univ.image (Pipeline.arrRef spec19)) \ Finset.univ.image pre19.ref := by
  decide

/-- The unscoped buffers that are no window's array: the index table, the embedding array, and the rest. -/
theorem unscopedRestOpen19 (Vin : Dev nD → Valuation τ sig (Elt F)) (c : Dev nD) :
    (Pipeline.unscopedRest (Ix := Unit) (Name := ℕ) (U := UU nD τ) (Lvl := ℕ) spec19 c (Vr Vin c) : sProp (MM F))
      = iprop(Pipeline.prefHeld pre19 c (fun _ => fullShare) (fun k => Vr Vin c (pre19.ref k))
          ∗ pt c (Memref.whole main_v109) (Vr Vin c main_v109) ∗ Zrest19 Vin c) := by
  rw [Pipeline.unscopedRest_split preFacts19 c (Vr Vin c)]
  unfold Pipeline.unscopedRestP Zrest19
  rw [BI.bigSep_sdiff_split embArrMem19, BI.bigSep_singleton]
  rfl

/-- The buffer contents when the region is left: the result array at the gathered rows, every other buffer as entered. -/
abbrev Vout19 (a0 : (pcfg19 (F := F)).Adm) (Vin : Dev nD → Valuation τ sig (Elt F)) (c : Dev nD) : Valuation τ sig (Elt F) :=
  Function.update (Vin c) main_v125 (gout19 a0 Vin c)

/-- At the exit each of the region's arrays holds what the pipeline leaves; -/
theorem hF19 (a0 : (pcfg19 (F := F)).Adm) (Vin : Dev nD → Valuation τ sig (Elt F)) (c : Dev nD) (w : Fin (cfg19 a0).W) :
    (dat19 a0 Vin c).arrAt w (cfg19 a0).N = Vr (Vout19 a0 Vin) c (Pipeline.arrRef spec19 w) := by
  match w with
  | ⟨0, _⟩ =>
    show (dat19 a0 Vin c).arrAt 0 (cfg19 a0).N = Vr (Vout19 a0 Vin) c (Pipeline.arrRef spec19 0)
    rw [arrAt19_in]
    exact (Function.update_of_ne (StableHlo.devRef_ne_of_ne (by decide) : (Proc.devRef .tc main_v124 : DevRef τ sig) ≠ Proc.devRef .tc main_v125) _ _).symm
  | ⟨1, _⟩ =>
    show (dat19 a0 Vin c).arrAt 1 (cfg19 a0).N = Vr (Vout19 a0 Vin) c (Pipeline.arrRef spec19 1)
    rw [arrAt19_out]
    exact (Function.update_self (Proc.devRef .tc main_v125 : DevRef τ sig) _ (Vin c)).symm

/-- and every other buffer what it held at entry. -/
theorem hrest19 (a0 : (pcfg19 (F := F)).Adm) (Vin : Dev nD → Valuation τ sig (Elt F)) (c : Dev nD) :
    ∀ b : Ref sig .tc, b ∉ Finset.univ.image (Pipeline.arrRef spec19) → Vr (Vout19 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat19` at the entry valuation `Vin`
    (`hd`), the index table's contents under `Vin` being the pinned ones (`htbl`) and row numbers (`hok`). -/
def reg19 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk19 (F := F) (a (19 : Fin 34)))
    (hd : ∀ c, pdats (19 : Fin 34) c = dat19 (a (19 : Fin 34)) Vin c) (htbl : ∀ c, (a (19 : Fin 34)).1 = fun k => Vr Vin c (pre19.ref k)) :
    Pipeline.RegionSeg (pcfgs (F := F)) a pdats () defs₀ 𝒱₀ L lv (19 : Fin 34) where
  win := (launch19 (F := F)).win.to₀
  block_pos := (launch19 (F := F)).block_pos
  stage_whole := (launch19 (F := F)).stage_whole
  K := Fin 8
  osem := osem19
  ho := ownSemFacts19
  hbody c := by rw [hd c]; exact (body_obligation19 (a (19 : Fin 34)) hok Vin c).loose
  hwaits := Pipeline.hwaits_of_owed_zero _ _ _ _ L lv (19 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v125 (gout19 (a (19 : Fin 34)) Vin c)) ∗ Rest c)
  X c := iprop(pt c (Memref.whole main_v109) (Vr Vin c main_v109) ∗ sems19 c)
  Y c := iprop(pt c (Memref.whole main_v109) (Vr Vin c main_v109)
    ∗ Pipeline.prefHeld (Ix := Unit) (Name := ℕ) (U := UU nD τ) (Lvl := ℕ) pre19 c (fun _ => fullShare) (a (19 : Fin 34)).1)
  Z c := Zrest19 Vin c
  hentry c := by
    rw [ownSemsListed19]
    have hsplit := Pipeline.arrays_of_unscopedBufs (p := (19 : Fin 34)) (pcfgs (F := F)) a pdats (launch19 (F := F)).win (launch19 (F := F)).arr_whole c
      ((pdats (19 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen19 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (19 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq19]; unfold Phi19
    iintro ⟨⟨Hx, Hos⟩, Ht, Hr⟩
    isplitl [Hx]; · iexact Hx
    isplitl [Hos]; · iexact Hos
    isplitl [Ht]; · iexact Ht
    iexact Hr
  hout c := by
    rw [ownSemsListed19, hd c, Phi_eq19]; unfold Phi19
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (19 : Fin 34)) (pcfgs (F := F)) a (Ix := Unit) (Name := ℕ) (U := UU nD τ) (Lvl := ℕ)
      (launch19 (F := F)).win (launch19 (F := F)).arr_whole c pdats ((pdats (19 : Fin 34) c).share_full fun _ => by rw [hd c]; rfl)
      (Vr Vin c) (Vr (Vout19 (a (19 : Fin 34)) Vin) c) ((pdats (19 : Fin 34) c).arrAt · (cfg19 (a (19 : Fin 34))).N)
      (fun w => by rw [hd c]; exact hF19 (a (19 : Fin 34)) Vin c w) (hrest19 (a (19 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen19 Vin c).symm)
      isplitl [Ht]; · rw [← htbl c]; iexact Ht
      isplitl [Hx]; · iexact Hx
      iexact Hz
    unfold Pipeline.Dat.owesAt Pipeline.owesWithin
    rw [show (pdats (19 : Fin 34) c).owed (Fin.last _) = 0 from by rw [hd c]; rfl]
    icases HO with ⟨%W, -, HO⟩; iexists W; iexact HO

end Cert.Kernel.Hand

end
-- ==== Proof.K.GatherDat20.lean ====
/-
  Gather region 20 (custom_call 20): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem20 : Fin 8 → SemLoc sig := fun | 0 => .dma 236 | 1 => .dma 237 | 2 => .dma 238 | 3 => .dma 239 | 4 => .dma 240 | 5 => .dma 241 | 6 => .dma 242 | 7 => .dma 243

/-- The eight counters at zero, as the run finds them and hands them back. -/
abbrev sems20 (c : Dev nD) : sProp (MM F) :=
  iprop(semVal ((c : Thread nD τ), osem20 0) 0 ∗ semVal ((c : Thread nD τ), osem20 1) 0 ∗ semVal ((c : Thread nD τ), osem20 2) 0
    ∗ semVal ((c : Thread nD τ), osem20 3) 0 ∗ semVal ((c : Thread nD τ), osem20 4) 0 ∗ semVal ((c : Thread nD τ), osem20 5) 0
    ∗ semVal ((c : Thread nD τ), osem20 6) 0 ∗ semVal ((c : Thread nD τ), osem20 7) 0)

/-- Word `j` of the eight the index table holds for point `i`, as the kernel's scalar load reads it. -/
def tblWord20 (c : Dev nD) (i : grid20.Coords) (tbl : Bf (F := F) c (Memref.whole main_v126)) (j : Fin 8) : BitVec 32 :=
  (Memref.whole main_v126).view.readAt (Elt F) (Rect.unit (s := S131072) (k20_off1 i (BitVec.ofNat 32 j.val)) S1.size (k20_off1_inb i j)).toLoadRect tbl
    (Shape.Idx.first (s := S1) (numel1_S1.symm ▸ Nat.one_pos))

/-- Window `w`'s block at point `t`, read off its array at the region's entry. -/
def iblk20 (a0 : (pcfg20 (F := F)).Adm) (Vin : Dev nD → Valuation τ sig (Elt F)) (c : Dev nD) (w : Fin (cfg20 a0).W) (t : Fin (cfg20 a0).N) :
    (((cfg20 a0).win w).xblock ((cfg20 a0).grid.coords t)).Idx → Elt F ((cfg20 a0).win w).elt :=
  (((cfg20 a0).win w).blk t).view.read (Elt F) (Vr Vin c (Pipeline.arrRef spec20 w))

/-- The result array the region leaves: the gathered and scaled rows of the embedding array, whole. -/
def gout20 (a0 : (pcfg20 (F := F)).Adm) (Vin : Dev nD → Valuation τ sig (Elt F)) (c : Dev nD) : Buf (Elt F) ((c : Thread nD τ).loc main_v128) :=
  gatherArr (Vr Vin c main_v109) (a0.1 0) (Vr Vin c main_v127)

/-- The invariant between points: the embedding array as entered, the kernel's semaphores at zero, the index table, the
    scoped buffers no window stages (the kernel's scratch among them). -/
def Phi20 (a0 : (pcfg20 (F := F)).Adm) (Vin : Dev nD → Valuation τ sig (Elt F)) (c : Dev nD) : sProp (MM F) :=
  iprop(pt c (Memref.whole main_v109) (Vr Vin c main_v109) ∗ sems20 c
    ∗ Pipeline.prefHeld (Ix := Unit) (Name := ℕ) (U := UU nD τ) (Lvl := ℕ) pre20 c (fun _ => fullShare) a0.1
    ∗ Pipeline.scopedRest (Ix := Unit) (Name := ℕ) (U := UU nD τ) (Lvl := ℕ) (Val := Elt F) spec20 c)

/-- The proof data on core `c`. -/
def dat20 (a0 : (pcfg20 (F := F)).Adm) (Vin : Dev nD → Valuation τ sig (Elt F)) (c : Dev nD) :
    Pipeline.Dat τ (Elt F) Unit ℕ (UU nD τ) ℕ ((pcfg20 (F := F)).at a0) c where
  A w := Vr Vin c (Pipeline.arrRef spec20 w)
  after w t := match w with
    | ⟨0, _⟩ => iblk20 a0 Vin c 0 t
    | ⟨1, _⟩ => (((cfg20 a0).win 1).blk t).view.read (Elt F) (gout20 a0 Vin c)
  Φ _ := Phi20 a0 Vin c
  q _ := fullShare
  owed _ := 0

theorem A_eq20 (a0 : (pcfg20 (F := F)).Adm) (Vin : Dev nD → Valuation τ sig (Elt F)) (c : Dev nD) (w : Fin (cfg20 a0).W) :
    (dat20 a0 Vin c).A w = Vr Vin c (Pipeline.arrRef spec20 w) := by dsimp only [dat20]
theorem after20_0 (a0 : (pcfg20 (F := F)).Adm) (Vin : Dev nD → Valuation τ sig (Elt F)) (c : Dev nD) (t : Fin (cfg20 a0).N) :
    (dat20 a0 Vin c).after 0 t = iblk20 a0 Vin c 0 t := by dsimp only [dat20]; rfl
theorem after20_1 (a0 : (pcfg20 (F := F)).Adm) (Vin : Dev nD → Valuation τ sig (Elt F)) (c : Dev nD) (t : Fin (cfg20 a0).N) :
    (dat20 a0 Vin c).after 1 t = (((cfg20 a0).win 1).blk t).view.read (Elt F) (gout20 a0 Vin c) := by dsimp only [dat20]; rfl
theorem Phi_eq20 (a0 : (pcfg20 (F := F)).Adm) (Vin : Dev nD → Valuation τ sig (Elt F)) (c : Dev nD) (t : Fin ((cfg20 a0).N + 1)) :
    (dat20 a0 Vin c).Φ t = Phi20 a0 Vin c := rfl
theorem owed_eq20 (a0 : (pcfg20 (F := F)).Adm) (Vin : Dev nD → Valuation τ sig (Elt F)) (c : Dev nD) (t : Fin ((cfg20 a0).N + 1)) :
    (dat20 a0 Vin c).owed t = 0 := rfl
theorem q_eq20 (a0 : (pcfg20 (F := F)).Adm) (Vin : Dev nD → Valuation τ sig (Elt F)) (c : Dev nD) (w : Fin (cfg20 a0).W) :
    (dat20 a0 Vin c).q w = fullShare := rfl

/-- The pinned family's configuration at region 20 is this one. -/
example (a : (p : Fin 34) → (pcfgs (F := F) p).Adm) : Pipeline.pin (pcfgs (F := F)) a (20 : Fin 34) = (pcfg20 (F := F)).at (a (20 : Fin 34)) := rfl

end Cert.Kernel.Hand

end
-- ==== Proof.K.GatherBody20.lean ====
/-
  Gather region 20 (custom_call 20): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat20
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk20 (c : Dev nD) (i : grid20.Coords) (tbl : Bf (F := F) c (Memref.whole main_v126)) : Prop where
  h1 : k20_chk1 (tblWord20 c i tbl 0)
  h2 : k20_chk2 (tblWord20 c i tbl 1)
  h3 : k20_chk3 (tblWord20 c i tbl 2)
  h4 : k20_chk4 (tblWord20 c i tbl 3)
  h5 : k20_chk5 (tblWord20 c i tbl 4)
  h6 : k20_chk6 (tblWord20 c i tbl 5)
  h7 : k20_chk7 (tblWord20 c i tbl 6)
  h8 : k20_chk8 (tblWord20 c i tbl 7)

/-- A one-row slice of the embedding array at the row a word names, read at lane `z 1`: the array's element there. -/
theorem rowRead20 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun20 (c : Dev nD) (i : grid20.Coords)
    (M3 : Memref sig .tc .vmem S8x1 .f32) (h3 : M3.IsWhole) (M4 : Memref sig .tc .vmem S8x128 .f32) (h4 : M4.IsWhole)
    (tbl : Bf (F := F) c (Memref.whole main_v126)) (x : Bf (F := F) c (Memref.whole main_v109))
    (vb : Vec F S8x1 .f32) (hchk : GatherChk20 c i tbl) (Q : PUnit → sProp (MM F)) :
    iprop(pt c (Memref.whole main_v126) tbl ∗ pt c (Memref.whole main_v109) x
      ∗ owns (c : Thread nD τ) M3 fullShare vb ∗ (∃ d, owns (c : Thread nD τ) M4 fullShare d)
      ∗ (∃ fs, pt c (Memref.whole cc20_scratch0) fs) ∗ sems20 c ∗ (∃ W, owes (c : Thread nD τ) (0 : CellTallies nD τ sig Unit) W)
      ∗ (iprop(pt c (Memref.whole main_v126) tbl ∗ pt c (Memref.whole main_v109) x
          ∗ owns (c : Thread nD τ) M3 fullShare vb ∗ owns (c : Thread nD τ) M4 fullShare (gatherBlk x (tblWord20 c i tbl) vb)
          ∗ (∃ fs, pt c (Memref.whole cc20_scratch0) fs) ∗ sems20 c ∗ (∃ W, owes (c : Thread nD τ) (0 : CellTallies nD τ sig Unit) W)) -∗ Q ⟨⟩))
    ⊢ wp frame (wpE (defs₀ (F := F)) 𝒱₀ c none) Set.univ
        (cc20__gather_kernel i (Memref.whole main_v126) (Memref.isWhole_whole _) (Memref.whole main_v109) (Memref.isWhole_whole _) M3 h3 M4 h4
          (Memref.whole cc20_scratch0) (Memref.isWhole_whole _) cc20_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 236).1 $$ Hx
  icases Hx' with ⟨Hxr, Hx0, Hx1, Hx2, Hx3, Hx4, Hx5, Hx6, Hx7⟩
  sl_unfold [cc20__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 236).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k20_pay1 gatherBlk
    show FloatOps.mulf _ _ = FloatOps.mulf _ _
    congr 1
    · unfold gatherRun20.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun20.sl.dma8 gatherRun20.sl.dma8_1 gatherRun20.sl.dma8_2 gatherRun20.sl.dma8_3 gatherRun20.sl.dma8_4 gatherRun20.sl.dma8_5
        gatherRun20.sl.dma8_6 gatherRun20.sl.dma8_7 gatherRun20.sl.r gatherRun20.sl.r_1 gatherRun20.sl.r_2 gatherRun20.sl.r_3 gatherRun20.sl.r_4
        gatherRun20.sl.r_5 gatherRun20.sl.r_6 gatherRun20.sl.r_7
      refine canonRows8 _ _ _ _ _ _ _ _ _ _ _ _ _ _ _ _ (fun r d => x (embIdx (rowOf (tblWord20 c i tbl r)) d)) ?_ ?_ ?_ ?_ ?_ ?_ ?_ ?_ y
      · exact fun z => rowRead20 c _ (tblWord20 c i tbl 0) rfl rfl _ _ x z
      · exact fun z => rowRead20 c _ (tblWord20 c i tbl 1) rfl rfl _ _ x z
      · exact fun z => rowRead20 c _ (tblWord20 c i tbl 2) rfl rfl _ _ x z
      · exact fun z => rowRead20 c _ (tblWord20 c i tbl 3) rfl rfl _ _ x z
      · exact fun z => rowRead20 c _ (tblWord20 c i tbl 4) rfl rfl _ _ x z
      · exact fun z => rowRead20 c _ (tblWord20 c i tbl 5) rfl rfl _ _ x z
      · exact fun z => rowRead20 c _ (tblWord20 c i tbl 6) rfl rfl _ _ x z
      · exact fun z => rowRead20 c _ (tblWord20 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk20.lean ====
/-
  Gather region 20 (custom_call 20): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat20
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word20 (i : grid20.Coords) (j : Fin 8) : k20_off1 i (BitVec.ofNat 32 j.val) 0 = (i 0).val * 8 + j.val := by
  have hi : (i 0).val < 16384 := (i 0).isLt
  have hj : j.val < 8 := j.isLt
  unfold k20_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word20 (i : grid20.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord20_eq (c : Dev nD) (i : grid20.Coords) (tbl : Bf (F := F) c (Memref.whole main_v126)) (j : Fin 8)
    (e : Fin 131072) (he : e.val = (i 0).val * 8 + j.val) : tblWord20 c i tbl j = tbl (tblIdx e) := by
  unfold tblWord20
  show tbl _ = tbl _
  refine congrArg tbl ?_
  funext a; apply Fin.ext
  match a with
  | ⟨0, _⟩ =>
    show k20_off1 i (BitVec.ofNat 32 j.val) 0 + 1 * 0 = e.val
    rw [off_word20, he]; omega

/-- Row `j` of the value window's block at point `t` is the value array's row `8 t + j`. -/
theorem valBlk20_eq (a0 : (pcfg20 (F := F)).Adm) (Vin : Dev nD → Valuation τ sig (Elt F)) (c : Dev nD) (t : Fin (cfg20 a0).N)
    (j : Fin 8) (e : Fin 131072) (he : e.val = ((grid20.coords t) 0).val * 8 + j.val) :
    iblk20 a0 Vin c 0 t (colIdx j) = Vr Vin c main_v127 (valIdx e) := by
  unfold iblk20
  show Vr Vin c main_v127 _ = Vr Vin c main_v127 _
  refine congrArg (Vr Vin c main_v127) ?_
  funext a; apply Fin.ext
  match a with
  | ⟨0, _⟩ =>
    show (BitVec.ofNat 32 ((grid20.coords t) 0).val).toNat * 8 + 1 * j.val = e.val
    rw [coord_word20, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk20 (a0 : (pcfg20 (F := F)).Adm) (Vin : Dev nD → Valuation τ sig (Elt F)) (c : Dev nD) (t : Fin (cfg20 a0).N) :
    gatherBlk (Vr Vin c main_v109) (tblWord20 c (grid20.coords t) (a0.1 0)) (iblk20 a0 Vin c 0 t)
      = (((cfg20 a0).win 1).blk t).view.read (Elt F) (gout20 a0 Vin c) := by
  funext y
  show gatherBlk _ _ _ y = gout20 a0 Vin c ((((cfg20 a0).win 1).blk t).view.emb y)
  unfold gatherBlk gout20 gatherArr
  have e0 : ((((cfg20 a0).win 1).blk t).view.emb y (0 : Fin 2)).val = ((grid20.coords t) 0).val * 8 + (y 0).val := by
    show (BitVec.ofNat 32 ((grid20.coords t) 0).val).toNat * 8 + 1 * (y 0).val = _
    rw [coord_word20]; omega
  have e1 : (((cfg20 a0).win 1).blk t).view.emb y (1 : Fin 2) = y 1 := Fin.ext (by
    show (0#32 : BitVec 32).toNat * 128 + 1 * (y 1).val = (y 1).val
    show 0 * 128 + 1 * (y 1).val = (y 1).val
    omega)
  rw [tblWord20_eq c (grid20.coords t) (a0.1 0) (y 0) _ e0, valBlk20_eq a0 Vin c t (y 0) _ e0, e1]

end Cert.Kernel.Hand

end
-- ==== Proof.K.GatherRegion20.lean ====
/-
  Gather region 20 (custom_call 20): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody20
import proofs.«414509_j14181982011419_2_alg».proof.Proof.K.GatherBlk20
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk20 (a0 : (pcfg20 (F := F)).Adm) : Prop := ∀ e : S131072.Idx, (a0.1 0 e).toNat < 100000

/-! ## The grid and the result window's blocks -/

/-- On the one-axis grid a point's coordinate is its number. -/
theorem regCoords20 (t : Fin grid20.N) : (grid20.coords t 0).val = t.val := by
  have ht : t.val < 16384 := N_20 ▸ t.isLt
  show t.val / grid20.stride 0 % grid20.bound 0 = t.val
  rw [show grid20.stride 0 = 1 from by decide, show grid20.bound 0 = 16384 from rfl, Nat.div_one, Nat.mod_eq_of_lt ht]

/-- A point's number as the 32-bit word the index maps compute with. -/
theorem regWord20 (t : Fin grid20.N) : (BitVec.ofNat 32 (grid20.coords t 0).val).toNat = t.val := by
  have ht : t.val < 16384 := N_20 ▸ t.isLt
  rw [BitVec.toNat_ofNat, regCoords20]; omega

/-- The result window's block at point `t` is block `t` along the rows, at zero along the lanes. -/
theorem regOutIndex20 (a0 : (pcfg20 (F := F)).Adm) (t : Fin (cfg20 a0).N) : ((cfg20 a0).win 1).index t = ![t.val, 0] := by
  show cc20_transform_2 (grid20.coords t) = _
  unfold cc20_transform_2
  funext a; fin_cases a
  · exact regWord20 t
  · rfl

/-- The result window is written back at every point: consecutive points have different blocks. -/
theorem regOutFlush20 (a0 : (pcfg20 (F := F)).Adm) (t : Fin (cfg20 a0).N) : ((cfg20 a0).win 1).flush t = true := by
  have htN : t.val < 16384 := N_20 ▸ t.isLt
  rw [Pipeline.Window.flush_out _ rfl]
  by_cases h : t.val + 1 = 16384
  · exact Or.inl (show t.val + 1 = grid20.N by rw [N_20]; exact h)
  · have hlt : t.val + 1 < grid20.N := by rw [N_20]; omega
    refine Or.inr ⟨hlt, fun e => ?_⟩
    have e' : (![t.val + 1, 0] : Fin 2 → ℕ) = ![t.val, 0] := (regOutIndex20 a0 ⟨t.val + 1, hlt⟩).symm.trans (e.trans (regOutIndex20 a0 t))
    have e0 := congrFun e' 0
    simp at e0

/-- The index table, held as the pipeline's one prefetched table. -/
theorem prefHeldEq20 (a0 : (pcfg20 (F := F)).Adm) (c : Dev nD) :
    (Pipeline.prefHeld (Ix := Unit) (Name := ℕ) (U := UU nD τ) (Lvl := ℕ) pre20 c (fun _ => fullShare) a0.1 : sProp (MM F))
      = pt c (Memref.whole main_v126) (a0.1 0) := by
  unfold Pipeline.prefHeld
  rw [show (Finset.univ : Finset (Fin pre20.K)) = {0} from rfl, BI.bigSep_singleton]
  rfl

/-- The value window's staging buffer holds its block at every point. -/
theorem beforeVal20 (a0 : (pcfg20 (F := F)).Adm) (Vin : Dev nD → Valuation τ sig (Elt F)) (c : Dev nD) (t : Fin (cfg20 a0).N) (d) :
    (dat20 a0 Vin c).before 0 t d = iblk20 a0 Vin c 0 t :=
  ((dat20 a0 Vin c).before_in_eq_fetched 0 rfl (fun _ => rfl) (fun _ _ _ => rfl)
    (fun t => by rw [after20_0]; unfold Dat.blockOf iblk20; rw [A_eq20]; try rfl) t d).trans
    (by unfold Dat.fetched Dat.blockOf iblk20; rw [A_eq20]; try rfl)

/-! ## The kernel's checks, from the table's range -/

/-- Each of the point's eight words is a word of the table, so a row number. -/
theorem tblWordLt20 (a0 : (pcfg20 (F := F)).Adm) (hok : GatherOk20 a0) (c : Dev nD) (i : grid20.Coords) (j : Fin 8) :
    (tblWord20 c i (a0.1 0) j).toNat < 100000 := by
  unfold tblWord20
  exact hok _

/-- So the kernel's eight checks hold at every point. -/
theorem gatherChk20 (a0 : (pcfg20 (F := F)).Adm) (hok : GatherOk20 a0) (c : Dev nD) (i : grid20.Coords) : GatherChk20 c i (a0.1 0) :=
  ⟨⟨chkRow _ (tblWordLt20 a0 hok c i 0), chkRow _ (tblWordLt20 a0 hok c i 0)⟩,
   ⟨chkRow _ (tblWordLt20 a0 hok c i 1), chkRow _ (tblWordLt20 a0 hok c i 1)⟩,
   ⟨chkRow _ (tblWordLt20 a0 hok c i 2), chkRow _ (tblWordLt20 a0 hok c i 2)⟩,
   ⟨chkRow _ (tblWordLt20 a0 hok c i 3), chkRow _ (tblWordLt20 a0 hok c i 3)⟩,
   ⟨chkRow _ (tblWordLt20 a0 hok c i 4), chkRow _ (tblWordLt20 a0 hok c i 4)⟩,
   ⟨chkRow _ (tblWordLt20 a0 hok c i 5), chkRow _ (tblWordLt20 a0 hok c i 5)⟩,
   ⟨chkRow _ (tblWordLt20 a0 hok c i 6), chkRow _ (tblWordLt20 a0 hok c i 6)⟩,
   chkRow _ (tblWordLt20 a0 hok c i 7)⟩

/-! ## The body obligation, at a generic point -/

/-- What the body is called with at point `t`: the invariant, the core's dues, each window's current staging memref at
    what the pipeline left there, -/
def bodyPre20 (a0 : (pcfg20 (F := F)).Adm) (Vin : Dev nD → Valuation τ sig (Elt F)) (c : Dev nD) (t : Fin (cfg20 a0).N) : sProp (MM F) :=
  iprop((dat20 a0 Vin c).Φ t.castSucc ∗ (dat20 a0 Vin c).owesAt () t.castSucc
    ∗ (∃ d, owns (c : Thread nD τ) (((cfg20 a0).win 0).stage ((cfg20 a0).slots t 0)) fullShare ((dat20 a0 Vin c).before 0 t d))
    ∗ (∃ d, owns (c : Thread nD τ) (((cfg20 a0).win 1).stage ((cfg20 a0).slots t 1)) fullShare ((dat20 a0 Vin c).before 1 t d)))

/-- and what it returns. -/
def bodyPost20 (a0 : (pcfg20 (F := F)).Adm) (Vin : Dev nD → Valuation τ sig (Elt F)) (c : Dev nD) (t : Fin (cfg20 a0).N) : sProp (MM F) :=
  iprop((dat20 a0 Vin c).Φ t.succ ∗ (dat20 a0 Vin c).owesAt () t.succ
    ∗ owns (c : Thread nD τ) (((cfg20 a0).win 0).stage ((cfg20 a0).slots t 0)) fullShare ((dat20 a0 Vin c).after 0 t)
    ∗ owns (c : Thread nD τ) (((cfg20 a0).win 1).stage ((cfg20 a0).slots t 1)) fullShare ((dat20 a0 Vin c).after 1 t))

/-- The body at any point: the invariant opened into the embedding array, the semaphores, the table and the scratch;
    the value window's memref at its block; the checks from the table's range; so the kernel's run applies, and what it
    leaves in the result window's memref is the point's block of the gathered array. -/
theorem sound_body20 (a0 : (pcfg20 (F := F)).Adm) (hok : GatherOk20 a0) (Vin : Dev nD → Valuation τ sig (Elt F)) (c : Dev nD) (t : Fin (cfg20 a0).N) :
    bodyPre20 a0 Vin c t ⊢ wp frame (wpE (defs₀ (F := F)) 𝒱₀ c none) Set.univ
      (defs₀ .tc (cfg20 a0).body ((cfg20 a0).bodyArgs t ((cfg20 a0).slots t))) (fun _ => bodyPost20 a0 Vin c t) := by
  unfold bodyPre20 bodyPost20
  simp only [beforeVal20]
  rw [Phi_eq20, Phi_eq20, after20_0, after20_1, ← gatherBlk_blk20]
  unfold Phi20 Pipeline.Dat.owesAt Pipeline.owesWithin
  rw [owed_eq20, owed_eq20, prefHeldEq20, scopedRest20_split]
  iintro ⟨⟨Hx, Hos, Ht, ⟨%fs, Hs⟩, Hsb⟩, ⟨%W, %hW, HO⟩, ⟨%d0, H0⟩, ⟨%d1, H1⟩⟩
  iapply (gatherRun20 c (grid20.coords t) _ _ _ _ (a0.1 0) (Vr Vin c main_v109) (iblk20 a0 Vin c 0 t) (gatherChk20 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation20 (a0 : (pcfg20 (F := F)).Adm) (hok : GatherOk20 a0) (Vin : Dev nD → Valuation τ sig (Elt F)) (c : Dev nD) :
    BodyObligation (dat20 a0 Vin c) (defs₀ (F := F)) 𝒱₀ () Set.univ := fun t => by
  rw [bigSep_W20, bigSep_W20]
  exact sound_body20 a0 hok Vin c t

/-! ## From the blocks to the arrays -/

/-- The value array after the region: as entered. -/
theorem arrAt20_in (a0 : (pcfg20 (F := F)).Adm) (Vin : Dev nD → Valuation τ sig (Elt F)) (c : Dev nD) :
    (dat20 a0 Vin c).arrAt 0 (cfg20 a0).N = Vr Vin c main_v127 :=
  ((dat20 a0 Vin c).arrAt_in 0 rfl _).trans (A_eq20 a0 Vin c 0)

/-- Every index of the result array is in some point's block: row `e`, lane `d` is element `(e % 8, d)` of the block
    of point `e / 8`. -/
theorem regOutCover20 (a0 : (pcfg20 (F := F)).Adm) (i : S131072x128.Idx) :
    ∃ t : Fin (cfg20 a0).N, ((cfg20 a0).win 1).flush t = true ∧ i ∈ (((cfg20 a0).win 1).blk t).view.set := by
  have hi0 : (i 0).val < 131072 := (i 0).isLt
  have hi1 : (i 1).val < 128 := (i 1).isLt
  have hN : (i 0).val / 8 < grid20.N := by rw [N_20]; omega
  obtain ⟨t, ht⟩ : ∃ t : Fin (cfg20 a0).N, t.val = (i 0).val / 8 := ⟨⟨_, hN⟩, rfl⟩
  have hx : (((cfg20 a0).win 1).blk t).view.emb (ValueIdx.ix2 ⟨(i 0).val % 8, Nat.mod_lt _ (by decide)⟩ (i 1)) = i := by
    funext a; apply Fin.ext
    have e0 : ((cfg20 a0).win 1).index t (0 : Fin 2) = t.val := congrFun (regOutIndex20 a0 t) (0 : Fin 2)
    have e1 : ((cfg20 a0).win 1).index t (1 : Fin 2) = 0 := congrFun (regOutIndex20 a0 t) (1 : Fin 2)
    match a with
    | ⟨0, _⟩ => show ((cfg20 a0).win 1).index t (0 : Fin 2) * 8 + 1 * ((i 0).val % 8) = (i 0).val; omega
    | ⟨1, _⟩ => show ((cfg20 a0).win 1).index t (1 : Fin 2) * 128 + 1 * (i 1).val = (i 1).val; omega
  exact ⟨t, regOutFlush20 a0 t, hx ▸ (((cfg20 a0).win 1).blk t).view.emb_mem_set _⟩

/-- The result array after the region: the gathered and scaled rows, whole. -/
theorem arrAt20_out (a0 : (pcfg20 (F := F)).Adm) (Vin : Dev nD → Valuation τ sig (Elt F)) (c : Dev nD) :
    (dat20 a0 Vin c).arrAt 1 (cfg20 a0).N = gout20 a0 Vin c :=
  (dat20 a0 Vin c).arrAt_eq_of_cover 1 (gout20 a0 Vin c)
    (fun t _ => by
      show ((cfg20 a0).win 1).cut ((cfg20 a0).grid.coords t) ((dat20 a0 Vin c).after 1 t) = _
      rw [after20_1])
    (regOutCover20 a0)

/-! ## The region as a segment of @main -/

/-- The ownership layout of the kernel's eight semaphores. -/
theorem ownSemFacts20 : Pipeline.OwnSemFacts spec20 osem20 := by decide

/-- The kernel's own cells at zero, listed. -/
theorem ownSemsListed20 (c : Dev nD) :
    (Pipeline.ownSems0 (Ix := Unit) (Name := ℕ) (U := UU nD τ) (Lvl := ℕ) (Val := Elt F) (τ := τ) osem20 c : sProp (MM F)) = sems20 c :=
  Pipeline.ownSems0_eq_of_list c osem20 [0, 1, 2, 3, 4, 5, 6, 7] (by decide) (by decide)

/-- The unscoped buffers that are no window's array, no table, and not the embedding array. -/
abbrev restRefs20 : Finset (Ref sig .tc) :=
  (((Finset.univ.filter fun b : Ref sig .tc => ¬ b.isScoped) \ Finset.univ.image (Pipeline.arrRef spec20)) \ Finset.univ.image pre20.ref) \ {main_v109}

/-- Those buffers, each whole at its contents under `Vin`: what bypasses the region. -/
def Zrest20 (Vin : Dev nD → Valuation τ sig (Elt F)) (c : Dev nD) : sProp (MM F) :=
  bigSep restRefs20 fun b => ((c : Thread nD τ).loc b) ↦{fullShare} Vr Vin c b

/-- The embedding array is an unscoped buffer that is no window's array and no table. -/
theorem embArrMem20 : ({main_v109} : Finset (Ref sig .tc)) ⊆
    ((Finset.univ.filter fun b : Ref sig .tc => ¬ b.isScoped) \ Finset.univ.image (Pipeline.arrRef spec20)) \ Finset.univ.image pre20.ref := by
  decide

/-- The unscoped buffers that are no window's array: the index table, the embedding array, and the rest. -/
theorem unscopedRestOpen20 (Vin : Dev nD → Valuation τ sig (Elt F)) (c : Dev nD) :
    (Pipeline.unscopedRest (Ix := Unit) (Name := ℕ) (U := UU nD τ) (Lvl := ℕ) spec20 c (Vr Vin c) : sProp (MM F))
      = iprop(Pipeline.prefHeld pre20 c (fun _ => fullShare) (fun k => Vr Vin c (pre20.ref k))
          ∗ pt c (Memref.whole main_v109) (Vr Vin c main_v109) ∗ Zrest20 Vin c) := by
  rw [Pipeline.unscopedRest_split preFacts20 c (Vr Vin c)]
  unfold Pipeline.unscopedRestP Zrest20
  rw [BI.bigSep_sdiff_split embArrMem20, BI.bigSep_singleton]
  rfl

/-- The buffer contents when the region is left: the result array at the gathered rows, every other buffer as entered. -/
abbrev Vout20 (a0 : (pcfg20 (F := F)).Adm) (Vin : Dev nD → Valuation τ sig (Elt F)) (c : Dev nD) : Valuation τ sig (Elt F) :=
  Function.update (Vin c) main_v128 (gout20 a0 Vin c)

/-- At the exit each of the region's arrays holds what the pipeline leaves; -/
theorem hF20 (a0 : (pcfg20 (F := F)).Adm) (Vin : Dev nD → Valuation τ sig (Elt F)) (c : Dev nD) (w : Fin (cfg20 a0).W) :
    (dat20 a0 Vin c).arrAt w (cfg20 a0).N = Vr (Vout20 a0 Vin) c (Pipeline.arrRef spec20 w) := by
  match w with
  | ⟨0, _⟩ =>
    show (dat20 a0 Vin c).arrAt 0 (cfg20 a0).N = Vr (Vout20 a0 Vin) c (Pipeline.arrRef spec20 0)
    rw [arrAt20_in]
    exact (Function.update_of_ne (StableHlo.devRef_ne_of_ne (by decide) : (Proc.devRef .tc main_v127 : DevRef τ sig) ≠ Proc.devRef .tc main_v128) _ _).symm
  | ⟨1, _⟩ =>
    show (dat20 a0 Vin c).arrAt 1 (cfg20 a0).N = Vr (Vout20 a0 Vin) c (Pipeline.arrRef spec20 1)
    rw [arrAt20_out]
    exact (Function.update_self (Proc.devRef .tc main_v128 : DevRef τ sig) _ (Vin c)).symm

/-- and every other buffer what it held at entry. -/
theorem hrest20 (a0 : (pcfg20 (F := F)).Adm) (Vin : Dev nD → Valuation τ sig (Elt F)) (c : Dev nD) :
    ∀ b : Ref sig .tc, b ∉ Finset.univ.image (Pipeline.arrRef spec20) → Vr (Vout20 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat20` at the entry valuation `Vin`
    (`hd`), the index table's contents under `Vin` being the pinned ones (`htbl`) and row numbers (`hok`). -/
def reg20 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk20 (F := F) (a (20 : Fin 34)))
    (hd : ∀ c, pdats (20 : Fin 34) c = dat20 (a (20 : Fin 34)) Vin c) (htbl : ∀ c, (a (20 : Fin 34)).1 = fun k => Vr Vin c (pre20.ref k)) :
    Pipeline.RegionSeg (pcfgs (F := F)) a pdats () defs₀ 𝒱₀ L lv (20 : Fin 34) where
  win := (launch20 (F := F)).win.to₀
  block_pos := (launch20 (F := F)).block_pos
  stage_whole := (launch20 (F := F)).stage_whole
  K := Fin 8
  osem := osem20
  ho := ownSemFacts20
  hbody c := by rw [hd c]; exact (body_obligation20 (a (20 : Fin 34)) hok Vin c).loose
  hwaits := Pipeline.hwaits_of_owed_zero _ _ _ _ L lv (20 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v128 (gout20 (a (20 : Fin 34)) Vin c)) ∗ Rest c)
  X c := iprop(pt c (Memref.whole main_v109) (Vr Vin c main_v109) ∗ sems20 c)
  Y c := iprop(pt c (Memref.whole main_v109) (Vr Vin c main_v109)
    ∗ Pipeline.prefHeld (Ix := Unit) (Name := ℕ) (U := UU nD τ) (Lvl := ℕ) pre20 c (fun _ => fullShare) (a (20 : Fin 34)).1)
  Z c := Zrest20 Vin c
  hentry c := by
    rw [ownSemsListed20]
    have hsplit := Pipeline.arrays_of_unscopedBufs (p := (20 : Fin 34)) (pcfgs (F := F)) a pdats (launch20 (F := F)).win (launch20 (F := F)).arr_whole c
      ((pdats (20 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen20 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (20 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq20]; unfold Phi20
    iintro ⟨⟨Hx, Hos⟩, Ht, Hr⟩
    isplitl [Hx]; · iexact Hx
    isplitl [Hos]; · iexact Hos
    isplitl [Ht]; · iexact Ht
    iexact Hr
  hout c := by
    rw [ownSemsListed20, hd c, Phi_eq20]; unfold Phi20
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (20 : Fin 34)) (pcfgs (F := F)) a (Ix := Unit) (Name := ℕ) (U := UU nD τ) (Lvl := ℕ)
      (launch20 (F := F)).win (launch20 (F := F)).arr_whole c pdats ((pdats (20 : Fin 34) c).share_full fun _ => by rw [hd c]; rfl)
      (Vr Vin c) (Vr (Vout20 (a (20 : Fin 34)) Vin) c) ((pdats (20 : Fin 34) c).arrAt · (cfg20 (a (20 : Fin 34))).N)
      (fun w => by rw [hd c]; exact hF20 (a (20 : Fin 34)) Vin c w) (hrest20 (a (20 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen20 Vin c).symm)
      isplitl [Ht]; · rw [← htbl c]; iexact Ht
      isplitl [Hx]; · iexact Hx
      iexact Hz
    unfold Pipeline.Dat.owesAt Pipeline.owesWithin
    rw [show (pdats (20 : Fin 34) c).owed (Fin.last _) = 0 from by rw [hd c]; rfl]
    icases HO with ⟨%W, -, HO⟩; iexists W; iexact HO

end Cert.Kernel.Hand

end
-- ==== Proof.K.GatherDat21.lean ====
/-
  Gather region 21 (custom_call 21): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem21 : Fin 8 → SemLoc sig := fun | 0 => .dma 248 | 1 => .dma 249 | 2 => .dma 250 | 3 => .dma 251 | 4 => .dma 252 | 5 => .dma 253 | 6 => .dma 254 | 7 => .dma 255

/-- The eight counters at zero, as the run finds them and hands them back. -/
abbrev sems21 (c : Dev nD) : sProp (MM F) :=
  iprop(semVal ((c : Thread nD τ), osem21 0) 0 ∗ semVal ((c : Thread nD τ), osem21 1) 0 ∗ semVal ((c : Thread nD τ), osem21 2) 0
    ∗ semVal ((c : Thread nD τ), osem21 3) 0 ∗ semVal ((c : Thread nD τ), osem21 4) 0 ∗ semVal ((c : Thread nD τ), osem21 5) 0
    ∗ semVal ((c : Thread nD τ), osem21 6) 0 ∗ semVal ((c : Thread nD τ), osem21 7) 0)

/-- Word `j` of the eight the index table holds for point `i`, as the kernel's scalar load reads it. -/
def tblWord21 (c : Dev nD) (i : grid21.Coords) (tbl : Bf (F := F) c (Memref.whole main_v143)) (j : Fin 8) : BitVec 32 :=
  (Memref.whole main_v143).view.readAt (Elt F) (Rect.unit (s := S131072) (k21_off1 i (BitVec.ofNat 32 j.val)) S1.size (k21_off1_inb i j)).toLoadRect tbl
    (Shape.Idx.first (s := S1) (numel1_S1.symm ▸ Nat.one_pos))

/-- Window `w`'s block at point `t`, read off its array at the region's entry. -/
def iblk21 (a0 : (pcfg21 (F := F)).Adm) (Vin : Dev nD → Valuation τ sig (Elt F)) (c : Dev nD) (w : Fin (cfg21 a0).W) (t : Fin (cfg21 a0).N) :
    (((cfg21 a0).win w).xblock ((cfg21 a0).grid.coords t)).Idx → Elt F ((cfg21 a0).win w).elt :=
  (((cfg21 a0).win w).blk t).view.read (Elt F) (Vr Vin c (Pipeline.arrRef spec21 w))

/-- The result array the region leaves: the gathered and scaled rows of the embedding array, whole. -/
def gout21 (a0 : (pcfg21 (F := F)).Adm) (Vin : Dev nD → Valuation τ sig (Elt F)) (c : Dev nD) : Buf (Elt F) ((c : Thread nD τ).loc main_v145) :=
  gatherArr (Vr Vin c main_v109) (a0.1 0) (Vr Vin c main_v144)

/-- The invariant between points: the embedding array as entered, the kernel's semaphores at zero, the index table, the
    scoped buffers no window stages (the kernel's scratch among them). -/
def Phi21 (a0 : (pcfg21 (F := F)).Adm) (Vin : Dev nD → Valuation τ sig (Elt F)) (c : Dev nD) : sProp (MM F) :=
  iprop(pt c (Memref.whole main_v109) (Vr Vin c main_v109) ∗ sems21 c
    ∗ Pipeline.prefHeld (Ix := Unit) (Name := ℕ) (U := UU nD τ) (Lvl := ℕ) pre21 c (fun _ => fullShare) a0.1
    ∗ Pipeline.scopedRest (Ix := Unit) (Name := ℕ) (U := UU nD τ) (Lvl := ℕ) (Val := Elt F) spec21 c)

/-- The proof data on core `c`. -/
def dat21 (a0 : (pcfg21 (F := F)).Adm) (Vin : Dev nD → Valuation τ sig (Elt F)) (c : Dev nD) :
    Pipeline.Dat τ (Elt F) Unit ℕ (UU nD τ) ℕ ((pcfg21 (F := F)).at a0) c where
  A w := Vr Vin c (Pipeline.arrRef spec21 w)
  after w t := match w with
    | ⟨0, _⟩ => iblk21 a0 Vin c 0 t
    | ⟨1, _⟩ => (((cfg21 a0).win 1).blk t).view.read (Elt F) (gout21 a0 Vin c)
  Φ _ := Phi21 a0 Vin c
  q _ := fullShare
  owed _ := 0

theorem A_eq21 (a0 : (pcfg21 (F := F)).Adm) (Vin : Dev nD → Valuation τ sig (Elt F)) (c : Dev nD) (w : Fin (cfg21 a0).W) :
    (dat21 a0 Vin c).A w = Vr Vin c (Pipeline.arrRef spec21 w) := by dsimp only [dat21]
theorem after21_0 (a0 : (pcfg21 (F := F)).Adm) (Vin : Dev nD → Valuation τ sig (Elt F)) (c : Dev nD) (t : Fin (cfg21 a0).N) :
    (dat21 a0 Vin c).after 0 t = iblk21 a0 Vin c 0 t := by dsimp only [dat21]; rfl
theorem after21_1 (a0 : (pcfg21 (F := F)).Adm) (Vin : Dev nD → Valuation τ sig (Elt F)) (c : Dev nD) (t : Fin (cfg21 a0).N) :
    (dat21 a0 Vin c).after 1 t = (((cfg21 a0).win 1).blk t).view.read (Elt F) (gout21 a0 Vin c) := by dsimp only [dat21]; rfl
theorem Phi_eq21 (a0 : (pcfg21 (F := F)).Adm) (Vin : Dev nD → Valuation τ sig (Elt F)) (c : Dev nD) (t : Fin ((cfg21 a0).N + 1)) :
    (dat21 a0 Vin c).Φ t = Phi21 a0 Vin c := rfl
theorem owed_eq21 (a0 : (pcfg21 (F := F)).Adm) (Vin : Dev nD → Valuation τ sig (Elt F)) (c : Dev nD) (t : Fin ((cfg21 a0).N + 1)) :
    (dat21 a0 Vin c).owed t = 0 := rfl
theorem q_eq21 (a0 : (pcfg21 (F := F)).Adm) (Vin : Dev nD → Valuation τ sig (Elt F)) (c : Dev nD) (w : Fin (cfg21 a0).W) :
    (dat21 a0 Vin c).q w = fullShare := rfl

/-- The pinned family's configuration at region 21 is this one. -/
example (a : (p : Fin 34) → (pcfgs (F := F) p).Adm) : Pipeline.pin (pcfgs (F := F)) a (21 : Fin 34) = (pcfg21 (F := F)).at (a (21 : Fin 34)) := rfl

end Cert.Kernel.Hand

end
-- ==== Proof.K.GatherBody21.lean ====
/-
  Gather region 21 (custom_call 21): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat21
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk21 (c : Dev nD) (i : grid21.Coords) (tbl : Bf (F := F) c (Memref.whole main_v143)) : Prop where
  h1 : k21_chk1 (tblWord21 c i tbl 0)
  h2 : k21_chk2 (tblWord21 c i tbl 1)
  h3 : k21_chk3 (tblWord21 c i tbl 2)
  h4 : k21_chk4 (tblWord21 c i tbl 3)
  h5 : k21_chk5 (tblWord21 c i tbl 4)
  h6 : k21_chk6 (tblWord21 c i tbl 5)
  h7 : k21_chk7 (tblWord21 c i tbl 6)
  h8 : k21_chk8 (tblWord21 c i tbl 7)

/-- A one-row slice of the embedding array at the row a word names, read at lane `z 1`: the array's element there. -/
theorem rowRead21 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun21 (c : Dev nD) (i : grid21.Coords)
    (M3 : Memref sig .tc .vmem S8x1 .f32) (h3 : M3.IsWhole) (M4 : Memref sig .tc .vmem S8x128 .f32) (h4 : M4.IsWhole)
    (tbl : Bf (F := F) c (Memref.whole main_v143)) (x : Bf (F := F) c (Memref.whole main_v109))
    (vb : Vec F S8x1 .f32) (hchk : GatherChk21 c i tbl) (Q : PUnit → sProp (MM F)) :
    iprop(pt c (Memref.whole main_v143) tbl ∗ pt c (Memref.whole main_v109) x
      ∗ owns (c : Thread nD τ) M3 fullShare vb ∗ (∃ d, owns (c : Thread nD τ) M4 fullShare d)
      ∗ (∃ fs, pt c (Memref.whole cc21_scratch0) fs) ∗ sems21 c ∗ (∃ W, owes (c : Thread nD τ) (0 : CellTallies nD τ sig Unit) W)
      ∗ (iprop(pt c (Memref.whole main_v143) tbl ∗ pt c (Memref.whole main_v109) x
          ∗ owns (c : Thread nD τ) M3 fullShare vb ∗ owns (c : Thread nD τ) M4 fullShare (gatherBlk x (tblWord21 c i tbl) vb)
          ∗ (∃ fs, pt c (Memref.whole cc21_scratch0) fs) ∗ sems21 c ∗ (∃ W, owes (c : Thread nD τ) (0 : CellTallies nD τ sig Unit) W)) -∗ Q ⟨⟩))
    ⊢ wp frame (wpE (defs₀ (F := F)) 𝒱₀ c none) Set.univ
        (cc21__gather_kernel i (Memref.whole main_v143) (Memref.isWhole_whole _) (Memref.whole main_v109) (Memref.isWhole_whole _) M3 h3 M4 h4
          (Memref.whole cc21_scratch0) (Memref.isWhole_whole _) cc21_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 248).1 $$ Hx
  icases Hx' with ⟨Hxr, Hx0, Hx1, Hx2, Hx3, Hx4, Hx5, Hx6, Hx7⟩
  sl_unfold [cc21__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 248).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k21_pay1 gatherBlk
    show FloatOps.mulf _ _ = FloatOps.mulf _ _
    congr 1
    · unfold gatherRun21.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun21.sl.dma8 gatherRun21.sl.dma8_1 gatherRun21.sl.dma8_2 gatherRun21.sl.dma8_3 gatherRun21.sl.dma8_4 gatherRun21.sl.dma8_5
        gatherRun21.sl.dma8_6 gatherRun21.sl.dma8_7 gatherRun21.sl.r gatherRun21.sl.r_1 gatherRun21.sl.r_2 gatherRun21.sl.r_3 gatherRun21.sl.r_4
        gatherRun21.sl.r_5 gatherRun21.sl.r_6 gatherRun21.sl.r_7
      refine canonRows8 _ _ _ _ _ _ _ _ _ _ _ _ _ _ _ _ (fun r d => x (embIdx (rowOf (tblWord21 c i tbl r)) d)) ?_ ?_ ?_ ?_ ?_ ?_ ?_ ?_ y
      · exact fun z => rowRead21 c _ (tblWord21 c i tbl 0) rfl rfl _ _ x z
      · exact fun z => rowRead21 c _ (tblWord21 c i tbl 1) rfl rfl _ _ x z
      · exact fun z => rowRead21 c _ (tblWord21 c i tbl 2) rfl rfl _ _ x z
      · exact fun z => rowRead21 c _ (tblWord21 c i tbl 3) rfl rfl _ _ x z
      · exact fun z => rowRead21 c _ (tblWord21 c i tbl 4) rfl rfl _ _ x z
      · exact fun z => rowRead21 c _ (tblWord21 c i tbl 5) rfl rfl _ _ x z
      · exact fun z => rowRead21 c _ (tblWord21 c i tbl 6) rfl rfl _ _ x z
      · exact fun z => rowRead21 c _ (tblWord21 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk21.lean ====
/-
  Gather region 21 (custom_call 21): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat21
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word21 (i : grid21.Coords) (j : Fin 8) : k21_off1 i (BitVec.ofNat 32 j.val) 0 = (i 0).val * 8 + j.val := by
  have hi : (i 0).val < 16384 := (i 0).isLt
  have hj : j.val < 8 := j.isLt
  unfold k21_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word21 (i : grid21.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord21_eq (c : Dev nD) (i : grid21.Coords) (tbl : Bf (F := F) c (Memref.whole main_v143)) (j : Fin 8)
    (e : Fin 131072) (he : e.val = (i 0).val * 8 + j.val) : tblWord21 c i tbl j = tbl (tblIdx e) := by
  unfold tblWord21
  show tbl _ = tbl _
  refine congrArg tbl ?_
  funext a; apply Fin.ext
  match a with
  | ⟨0, _⟩ =>
    show k21_off1 i (BitVec.ofNat 32 j.val) 0 + 1 * 0 = e.val
    rw [off_word21, he]; omega

/-- Row `j` of the value window's block at point `t` is the value array's row `8 t + j`. -/
theorem valBlk21_eq (a0 : (pcfg21 (F := F)).Adm) (Vin : Dev nD → Valuation τ sig (Elt F)) (c : Dev nD) (t : Fin (cfg21 a0).N)
    (j : Fin 8) (e : Fin 131072) (he : e.val = ((grid21.coords t) 0).val * 8 + j.val) :
    iblk21 a0 Vin c 0 t (colIdx j) = Vr Vin c main_v144 (valIdx e) := by
  unfold iblk21
  show Vr Vin c main_v144 _ = Vr Vin c main_v144 _
  refine congrArg (Vr Vin c main_v144) ?_
  funext a; apply Fin.ext
  match a with
  | ⟨0, _⟩ =>
    show (BitVec.ofNat 32 ((grid21.coords t) 0).val).toNat * 8 + 1 * j.val = e.val
    rw [coord_word21, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk21 (a0 : (pcfg21 (F := F)).Adm) (Vin : Dev nD → Valuation τ sig (Elt F)) (c : Dev nD) (t : Fin (cfg21 a0).N) :
    gatherBlk (Vr Vin c main_v109) (tblWord21 c (grid21.coords t) (a0.1 0)) (iblk21 a0 Vin c 0 t)
      = (((cfg21 a0).win 1).blk t).view.read (Elt F) (gout21 a0 Vin c) := by
  funext y
  show gatherBlk _ _ _ y = gout21 a0 Vin c ((((cfg21 a0).win 1).blk t).view.emb y)
  unfold gatherBlk gout21 gatherArr
  have e0 : ((((cfg21 a0).win 1).blk t).view.emb y (0 : Fin 2)).val = ((grid21.coords t) 0).val * 8 + (y 0).val := by
    show (BitVec.ofNat 32 ((grid21.coords t) 0).val).toNat * 8 + 1 * (y 0).val = _
    rw [coord_word21]; omega
  have e1 : (((cfg21 a0).win 1).blk t).view.emb y (1 : Fin 2) = y 1 := Fin.ext (by
    show (0#32 : BitVec 32).toNat * 128 + 1 * (y 1).val = (y 1).val
    show 0 * 128 + 1 * (y 1).val = (y 1).val
    omega)
  rw [tblWord21_eq c (grid21.coords t) (a0.1 0) (y 0) _ e0, valBlk21_eq a0 Vin c t (y 0) _ e0, e1]

end Cert.Kernel.Hand

end
-- ==== Proof.K.GatherRegion21.lean ====
/-
  Gather region 21 (custom_call 21): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody21
import proofs.«414509_j14181982011419_2_alg».proof.Proof.K.GatherBlk21
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk21 (a0 : (pcfg21 (F := F)).Adm) : Prop := ∀ e : S131072.Idx, (a0.1 0 e).toNat < 100000

/-! ## The grid and the result window's blocks -/

/-- On the one-axis grid a point's coordinate is its number. -/
theorem regCoords21 (t : Fin grid21.N) : (grid21.coords t 0).val = t.val := by
  have ht : t.val < 16384 := N_21 ▸ t.isLt
  show t.val / grid21.stride 0 % grid21.bound 0 = t.val
  rw [show grid21.stride 0 = 1 from by decide, show grid21.bound 0 = 16384 from rfl, Nat.div_one, Nat.mod_eq_of_lt ht]

/-- A point's number as the 32-bit word the index maps compute with. -/
theorem regWord21 (t : Fin grid21.N) : (BitVec.ofNat 32 (grid21.coords t 0).val).toNat = t.val := by
  have ht : t.val < 16384 := N_21 ▸ t.isLt
  rw [BitVec.toNat_ofNat, regCoords21]; omega

/-- The result window's block at point `t` is block `t` along the rows, at zero along the lanes. -/
theorem regOutIndex21 (a0 : (pcfg21 (F := F)).Adm) (t : Fin (cfg21 a0).N) : ((cfg21 a0).win 1).index t = ![t.val, 0] := by
  show cc21_transform_2 (grid21.coords t) = _
  unfold cc21_transform_2
  funext a; fin_cases a
  · exact regWord21 t
  · rfl

/-- The result window is written back at every point: consecutive points have different blocks. -/
theorem regOutFlush21 (a0 : (pcfg21 (F := F)).Adm) (t : Fin (cfg21 a0).N) : ((cfg21 a0).win 1).flush t = true := by
  have htN : t.val < 16384 := N_21 ▸ t.isLt
  rw [Pipeline.Window.flush_out _ rfl]
  by_cases h : t.val + 1 = 16384
  · exact Or.inl (show t.val + 1 = grid21.N by rw [N_21]; exact h)
  · have hlt : t.val + 1 < grid21.N := by rw [N_21]; omega
    refine Or.inr ⟨hlt, fun e => ?_⟩
    have e' : (![t.val + 1, 0] : Fin 2 → ℕ) = ![t.val, 0] := (regOutIndex21 a0 ⟨t.val + 1, hlt⟩).symm.trans (e.trans (regOutIndex21 a0 t))
    have e0 := congrFun e' 0
    simp at e0

/-- The index table, held as the pipeline's one prefetched table. -/
theorem prefHeldEq21 (a0 : (pcfg21 (F := F)).Adm) (c : Dev nD) :
    (Pipeline.prefHeld (Ix := Unit) (Name := ℕ) (U := UU nD τ) (Lvl := ℕ) pre21 c (fun _ => fullShare) a0.1 : sProp (MM F))
      = pt c (Memref.whole main_v143) (a0.1 0) := by
  unfold Pipeline.prefHeld
  rw [show (Finset.univ : Finset (Fin pre21.K)) = {0} from rfl, BI.bigSep_singleton]
  rfl

/-- The value window's staging buffer holds its block at every point. -/
theorem beforeVal21 (a0 : (pcfg21 (F := F)).Adm) (Vin : Dev nD → Valuation τ sig (Elt F)) (c : Dev nD) (t : Fin (cfg21 a0).N) (d) :
    (dat21 a0 Vin c).before 0 t d = iblk21 a0 Vin c 0 t :=
  ((dat21 a0 Vin c).before_in_eq_fetched 0 rfl (fun _ => rfl) (fun _ _ _ => rfl)
    (fun t => by rw [after21_0]; unfold Dat.blockOf iblk21; rw [A_eq21]; try rfl) t d).trans
    (by unfold Dat.fetched Dat.blockOf iblk21; rw [A_eq21]; try rfl)

/-! ## The kernel's checks, from the table's range -/

/-- Each of the point's eight words is a word of the table, so a row number. -/
theorem tblWordLt21 (a0 : (pcfg21 (F := F)).Adm) (hok : GatherOk21 a0) (c : Dev nD) (i : grid21.Coords) (j : Fin 8) :
    (tblWord21 c i (a0.1 0) j).toNat < 100000 := by
  unfold tblWord21
  exact hok _

/-- So the kernel's eight checks hold at every point. -/
theorem gatherChk21 (a0 : (pcfg21 (F := F)).Adm) (hok : GatherOk21 a0) (c : Dev nD) (i : grid21.Coords) : GatherChk21 c i (a0.1 0) :=
  ⟨⟨chkRow _ (tblWordLt21 a0 hok c i 0), chkRow _ (tblWordLt21 a0 hok c i 0)⟩,
   ⟨chkRow _ (tblWordLt21 a0 hok c i 1), chkRow _ (tblWordLt21 a0 hok c i 1)⟩,
   ⟨chkRow _ (tblWordLt21 a0 hok c i 2), chkRow _ (tblWordLt21 a0 hok c i 2)⟩,
   ⟨chkRow _ (tblWordLt21 a0 hok c i 3), chkRow _ (tblWordLt21 a0 hok c i 3)⟩,
   ⟨chkRow _ (tblWordLt21 a0 hok c i 4), chkRow _ (tblWordLt21 a0 hok c i 4)⟩,
   ⟨chkRow _ (tblWordLt21 a0 hok c i 5), chkRow _ (tblWordLt21 a0 hok c i 5)⟩,
   ⟨chkRow _ (tblWordLt21 a0 hok c i 6), chkRow _ (tblWordLt21 a0 hok c i 6)⟩,
   chkRow _ (tblWordLt21 a0 hok c i 7)⟩

/-! ## The body obligation, at a generic point -/

/-- What the body is called with at point `t`: the invariant, the core's dues, each window's current staging memref at
    what the pipeline left there, -/
def bodyPre21 (a0 : (pcfg21 (F := F)).Adm) (Vin : Dev nD → Valuation τ sig (Elt F)) (c : Dev nD) (t : Fin (cfg21 a0).N) : sProp (MM F) :=
  iprop((dat21 a0 Vin c).Φ t.castSucc ∗ (dat21 a0 Vin c).owesAt () t.castSucc
    ∗ (∃ d, owns (c : Thread nD τ) (((cfg21 a0).win 0).stage ((cfg21 a0).slots t 0)) fullShare ((dat21 a0 Vin c).before 0 t d))
    ∗ (∃ d, owns (c : Thread nD τ) (((cfg21 a0).win 1).stage ((cfg21 a0).slots t 1)) fullShare ((dat21 a0 Vin c).before 1 t d)))

/-- and what it returns. -/
def bodyPost21 (a0 : (pcfg21 (F := F)).Adm) (Vin : Dev nD → Valuation τ sig (Elt F)) (c : Dev nD) (t : Fin (cfg21 a0).N) : sProp (MM F) :=
  iprop((dat21 a0 Vin c).Φ t.succ ∗ (dat21 a0 Vin c).owesAt () t.succ
    ∗ owns (c : Thread nD τ) (((cfg21 a0).win 0).stage ((cfg21 a0).slots t 0)) fullShare ((dat21 a0 Vin c).after 0 t)
    ∗ owns (c : Thread nD τ) (((cfg21 a0).win 1).stage ((cfg21 a0).slots t 1)) fullShare ((dat21 a0 Vin c).after 1 t))

/-- The body at any point: the invariant opened into the embedding array, the semaphores, the table and the scratch;
    the value window's memref at its block; the checks from the table's range; so the kernel's run applies, and what it
    leaves in the result window's memref is the point's block of the gathered array. -/
theorem sound_body21 (a0 : (pcfg21 (F := F)).Adm) (hok : GatherOk21 a0) (Vin : Dev nD → Valuation τ sig (Elt F)) (c : Dev nD) (t : Fin (cfg21 a0).N) :
    bodyPre21 a0 Vin c t ⊢ wp frame (wpE (defs₀ (F := F)) 𝒱₀ c none) Set.univ
      (defs₀ .tc (cfg21 a0).body ((cfg21 a0).bodyArgs t ((cfg21 a0).slots t))) (fun _ => bodyPost21 a0 Vin c t) := by
  unfold bodyPre21 bodyPost21
  simp only [beforeVal21]
  rw [Phi_eq21, Phi_eq21, after21_0, after21_1, ← gatherBlk_blk21]
  unfold Phi21 Pipeline.Dat.owesAt Pipeline.owesWithin
  rw [owed_eq21, owed_eq21, prefHeldEq21, scopedRest21_split]
  iintro ⟨⟨Hx, Hos, Ht, ⟨%fs, Hs⟩, Hsb⟩, ⟨%W, %hW, HO⟩, ⟨%d0, H0⟩, ⟨%d1, H1⟩⟩
  iapply (gatherRun21 c (grid21.coords t) _ _ _ _ (a0.1 0) (Vr Vin c main_v109) (iblk21 a0 Vin c 0 t) (gatherChk21 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation21 (a0 : (pcfg21 (F := F)).Adm) (hok : GatherOk21 a0) (Vin : Dev nD → Valuation τ sig (Elt F)) (c : Dev nD) :
    BodyObligation (dat21 a0 Vin c) (defs₀ (F := F)) 𝒱₀ () Set.univ := fun t => by
  rw [bigSep_W21, bigSep_W21]
  exact sound_body21 a0 hok Vin c t

/-! ## From the blocks to the arrays -/

/-- The value array after the region: as entered. -/
theorem arrAt21_in (a0 : (pcfg21 (F := F)).Adm) (Vin : Dev nD → Valuation τ sig (Elt F)) (c : Dev nD) :
    (dat21 a0 Vin c).arrAt 0 (cfg21 a0).N = Vr Vin c main_v144 :=
  ((dat21 a0 Vin c).arrAt_in 0 rfl _).trans (A_eq21 a0 Vin c 0)

/-- Every index of the result array is in some point's block: row `e`, lane `d` is element `(e % 8, d)` of the block
    of point `e / 8`. -/
theorem regOutCover21 (a0 : (pcfg21 (F := F)).Adm) (i : S131072x128.Idx) :
    ∃ t : Fin (cfg21 a0).N, ((cfg21 a0).win 1).flush t = true ∧ i ∈ (((cfg21 a0).win 1).blk t).view.set := by
  have hi0 : (i 0).val < 131072 := (i 0).isLt
  have hi1 : (i 1).val < 128 := (i 1).isLt
  have hN : (i 0).val / 8 < grid21.N := by rw [N_21]; omega
  obtain ⟨t, ht⟩ : ∃ t : Fin (cfg21 a0).N, t.val = (i 0).val / 8 := ⟨⟨_, hN⟩, rfl⟩
  have hx : (((cfg21 a0).win 1).blk t).view.emb (ValueIdx.ix2 ⟨(i 0).val % 8, Nat.mod_lt _ (by decide)⟩ (i 1)) = i := by
    funext a; apply Fin.ext
    have e0 : ((cfg21 a0).win 1).index t (0 : Fin 2) = t.val := congrFun (regOutIndex21 a0 t) (0 : Fin 2)
    have e1 : ((cfg21 a0).win 1).index t (1 : Fin 2) = 0 := congrFun (regOutIndex21 a0 t) (1 : Fin 2)
    match a with
    | ⟨0, _⟩ => show ((cfg21 a0).win 1).index t (0 : Fin 2) * 8 + 1 * ((i 0).val % 8) = (i 0).val; omega
    | ⟨1, _⟩ => show ((cfg21 a0).win 1).index t (1 : Fin 2) * 128 + 1 * (i 1).val = (i 1).val; omega
  exact ⟨t, regOutFlush21 a0 t, hx ▸ (((cfg21 a0).win 1).blk t).view.emb_mem_set _⟩

/-- The result array after the region: the gathered and scaled rows, whole. -/
theorem arrAt21_out (a0 : (pcfg21 (F := F)).Adm) (Vin : Dev nD → Valuation τ sig (Elt F)) (c : Dev nD) :
    (dat21 a0 Vin c).arrAt 1 (cfg21 a0).N = gout21 a0 Vin c :=
  (dat21 a0 Vin c).arrAt_eq_of_cover 1 (gout21 a0 Vin c)
    (fun t _ => by
      show ((cfg21 a0).win 1).cut ((cfg21 a0).grid.coords t) ((dat21 a0 Vin c).after 1 t) = _
      rw [after21_1])
    (regOutCover21 a0)

/-! ## The region as a segment of @main -/

/-- The ownership layout of the kernel's eight semaphores. -/
theorem ownSemFacts21 : Pipeline.OwnSemFacts spec21 osem21 := by decide

/-- The kernel's own cells at zero, listed. -/
theorem ownSemsListed21 (c : Dev nD) :
    (Pipeline.ownSems0 (Ix := Unit) (Name := ℕ) (U := UU nD τ) (Lvl := ℕ) (Val := Elt F) (τ := τ) osem21 c : sProp (MM F)) = sems21 c :=
  Pipeline.ownSems0_eq_of_list c osem21 [0, 1, 2, 3, 4, 5, 6, 7] (by decide) (by decide)

/-- The unscoped buffers that are no window's array, no table, and not the embedding array. -/
abbrev restRefs21 : Finset (Ref sig .tc) :=
  (((Finset.univ.filter fun b : Ref sig .tc => ¬ b.isScoped) \ Finset.univ.image (Pipeline.arrRef spec21)) \ Finset.univ.image pre21.ref) \ {main_v109}

/-- Those buffers, each whole at its contents under `Vin`: what bypasses the region. -/
def Zrest21 (Vin : Dev nD → Valuation τ sig (Elt F)) (c : Dev nD) : sProp (MM F) :=
  bigSep restRefs21 fun b => ((c : Thread nD τ).loc b) ↦{fullShare} Vr Vin c b

/-- The embedding array is an unscoped buffer that is no window's array and no table. -/
theorem embArrMem21 : ({main_v109} : Finset (Ref sig .tc)) ⊆
    ((Finset.univ.filter fun b : Ref sig .tc => ¬ b.isScoped) \ Finset.univ.image (Pipeline.arrRef spec21)) \ Finset.univ.image pre21.ref := by
  decide

/-- The unscoped buffers that are no window's array: the index table, the embedding array, and the rest. -/
theorem unscopedRestOpen21 (Vin : Dev nD → Valuation τ sig (Elt F)) (c : Dev nD) :
    (Pipeline.unscopedRest (Ix := Unit) (Name := ℕ) (U := UU nD τ) (Lvl := ℕ) spec21 c (Vr Vin c) : sProp (MM F))
      = iprop(Pipeline.prefHeld pre21 c (fun _ => fullShare) (fun k => Vr Vin c (pre21.ref k))
          ∗ pt c (Memref.whole main_v109) (Vr Vin c main_v109) ∗ Zrest21 Vin c) := by
  rw [Pipeline.unscopedRest_split preFacts21 c (Vr Vin c)]
  unfold Pipeline.unscopedRestP Zrest21
  rw [BI.bigSep_sdiff_split embArrMem21, BI.bigSep_singleton]
  rfl

/-- The buffer contents when the region is left: the result array at the gathered rows, every other buffer as entered. -/
abbrev Vout21 (a0 : (pcfg21 (F := F)).Adm) (Vin : Dev nD → Valuation τ sig (Elt F)) (c : Dev nD) : Valuation τ sig (Elt F) :=
  Function.update (Vin c) main_v145 (gout21 a0 Vin c)

/-- At the exit each of the region's arrays holds what the pipeline leaves; -/
theorem hF21 (a0 : (pcfg21 (F := F)).Adm) (Vin : Dev nD → Valuation τ sig (Elt F)) (c : Dev nD) (w : Fin (cfg21 a0).W) :
    (dat21 a0 Vin c).arrAt w (cfg21 a0).N = Vr (Vout21 a0 Vin) c (Pipeline.arrRef spec21 w) := by
  match w with
  | ⟨0, _⟩ =>
    show (dat21 a0 Vin c).arrAt 0 (cfg21 a0).N = Vr (Vout21 a0 Vin) c (Pipeline.arrRef spec21 0)
    rw [arrAt21_in]
    exact (Function.update_of_ne (StableHlo.devRef_ne_of_ne (by decide) : (Proc.devRef .tc main_v144 : DevRef τ sig) ≠ Proc.devRef .tc main_v145) _ _).symm
  | ⟨1, _⟩ =>
    show (dat21 a0 Vin c).arrAt 1 (cfg21 a0).N = Vr (Vout21 a0 Vin) c (Pipeline.arrRef spec21 1)
    rw [arrAt21_out]
    exact (Function.update_self (Proc.devRef .tc main_v145 : DevRef τ sig) _ (Vin c)).symm

/-- and every other buffer what it held at entry. -/
theorem hrest21 (a0 : (pcfg21 (F := F)).Adm) (Vin : Dev nD → Valuation τ sig (Elt F)) (c : Dev nD) :
    ∀ b : Ref sig .tc, b ∉ Finset.univ.image (Pipeline.arrRef spec21) → Vr (Vout21 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat21` at the entry valuation `Vin`
    (`hd`), the index table's contents under `Vin` being the pinned ones (`htbl`) and row numbers (`hok`). -/
def reg21 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk21 (F := F) (a (21 : Fin 34)))
    (hd : ∀ c, pdats (21 : Fin 34) c = dat21 (a (21 : Fin 34)) Vin c) (htbl : ∀ c, (a (21 : Fin 34)).1 = fun k => Vr Vin c (pre21.ref k)) :
    Pipeline.RegionSeg (pcfgs (F := F)) a pdats () defs₀ 𝒱₀ L lv (21 : Fin 34) where
  win := (launch21 (F := F)).win.to₀
  block_pos := (launch21 (F := F)).block_pos
  stage_whole := (launch21 (F := F)).stage_whole
  K := Fin 8
  osem := osem21
  ho := ownSemFacts21
  hbody c := by rw [hd c]; exact (body_obligation21 (a (21 : Fin 34)) hok Vin c).loose
  hwaits := Pipeline.hwaits_of_owed_zero _ _ _ _ L lv (21 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v145 (gout21 (a (21 : Fin 34)) Vin c)) ∗ Rest c)
  X c := iprop(pt c (Memref.whole main_v109) (Vr Vin c main_v109) ∗ sems21 c)
  Y c := iprop(pt c (Memref.whole main_v109) (Vr Vin c main_v109)
    ∗ Pipeline.prefHeld (Ix := Unit) (Name := ℕ) (U := UU nD τ) (Lvl := ℕ) pre21 c (fun _ => fullShare) (a (21 : Fin 34)).1)
  Z c := Zrest21 Vin c
  hentry c := by
    rw [ownSemsListed21]
    have hsplit := Pipeline.arrays_of_unscopedBufs (p := (21 : Fin 34)) (pcfgs (F := F)) a pdats (launch21 (F := F)).win (launch21 (F := F)).arr_whole c
      ((pdats (21 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen21 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (21 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq21]; unfold Phi21
    iintro ⟨⟨Hx, Hos⟩, Ht, Hr⟩
    isplitl [Hx]; · iexact Hx
    isplitl [Hos]; · iexact Hos
    isplitl [Ht]; · iexact Ht
    iexact Hr
  hout c := by
    rw [ownSemsListed21, hd c, Phi_eq21]; unfold Phi21
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (21 : Fin 34)) (pcfgs (F := F)) a (Ix := Unit) (Name := ℕ) (U := UU nD τ) (Lvl := ℕ)
      (launch21 (F := F)).win (launch21 (F := F)).arr_whole c pdats ((pdats (21 : Fin 34) c).share_full fun _ => by rw [hd c]; rfl)
      (Vr Vin c) (Vr (Vout21 (a (21 : Fin 34)) Vin) c) ((pdats (21 : Fin 34) c).arrAt · (cfg21 (a (21 : Fin 34))).N)
      (fun w => by rw [hd c]; exact hF21 (a (21 : Fin 34)) Vin c w) (hrest21 (a (21 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen21 Vin c).symm)
      isplitl [Ht]; · rw [← htbl c]; iexact Ht
      isplitl [Hx]; · iexact Hx
      iexact Hz
    unfold Pipeline.Dat.owesAt Pipeline.owesWithin
    rw [show (pdats (21 : Fin 34) c).owed (Fin.last _) = 0 from by rw [hd c]; rfl]
    icases HO with ⟨%W, -, HO⟩; iexists W; iexact HO

end Cert.Kernel.Hand

end
-- ==== Proof.K.GatherDat22.lean ====
/-
  Gather region 22 (custom_call 22): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem22 : Fin 8 → SemLoc sig := fun | 0 => .dma 260 | 1 => .dma 261 | 2 => .dma 262 | 3 => .dma 263 | 4 => .dma 264 | 5 => .dma 265 | 6 => .dma 266 | 7 => .dma 267

/-- The eight counters at zero, as the run finds them and hands them back. -/
abbrev sems22 (c : Dev nD) : sProp (MM F) :=
  iprop(semVal ((c : Thread nD τ), osem22 0) 0 ∗ semVal ((c : Thread nD τ), osem22 1) 0 ∗ semVal ((c : Thread nD τ), osem22 2) 0
    ∗ semVal ((c : Thread nD τ), osem22 3) 0 ∗ semVal ((c : Thread nD τ), osem22 4) 0 ∗ semVal ((c : Thread nD τ), osem22 5) 0
    ∗ semVal ((c : Thread nD τ), osem22 6) 0 ∗ semVal ((c : Thread nD τ), osem22 7) 0)

/-- Word `j` of the eight the index table holds for point `i`, as the kernel's scalar load reads it. -/
def tblWord22 (c : Dev nD) (i : grid22.Coords) (tbl : Bf (F := F) c (Memref.whole main_v146)) (j : Fin 8) : BitVec 32 :=
  (Memref.whole main_v146).view.readAt (Elt F) (Rect.unit (s := S131072) (k22_off1 i (BitVec.ofNat 32 j.val)) S1.size (k22_off1_inb i j)).toLoadRect tbl
    (Shape.Idx.first (s := S1) (numel1_S1.symm ▸ Nat.one_pos))

/-- Window `w`'s block at point `t`, read off its array at the region's entry. -/
def iblk22 (a0 : (pcfg22 (F := F)).Adm) (Vin : Dev nD → Valuation τ sig (Elt F)) (c : Dev nD) (w : Fin (cfg22 a0).W) (t : Fin (cfg22 a0).N) :
    (((cfg22 a0).win w).xblock ((cfg22 a0).grid.coords t)).Idx → Elt F ((cfg22 a0).win w).elt :=
  (((cfg22 a0).win w).blk t).view.read (Elt F) (Vr Vin c (Pipeline.arrRef spec22 w))

/-- The result array the region leaves: the gathered and scaled rows of the embedding array, whole. -/
def gout22 (a0 : (pcfg22 (F := F)).Adm) (Vin : Dev nD → Valuation τ sig (Elt F)) (c : Dev nD) : Buf (Elt F) ((c : Thread nD τ).loc main_v148) :=
  gatherArr (Vr Vin c main_v109) (a0.1 0) (Vr Vin c main_v147)

/-- The invariant between points: the embedding array as entered, the kernel's semaphores at zero, the index table, the
    scoped buffers no window stages (the kernel's scratch among them). -/
def Phi22 (a0 : (pcfg22 (F := F)).Adm) (Vin : Dev nD → Valuation τ sig (Elt F)) (c : Dev nD) : sProp (MM F) :=
  iprop(pt c (Memref.whole main_v109) (Vr Vin c main_v109) ∗ sems22 c
    ∗ Pipeline.prefHeld (Ix := Unit) (Name := ℕ) (U := UU nD τ) (Lvl := ℕ) pre22 c (fun _ => fullShare) a0.1
    ∗ Pipeline.scopedRest (Ix := Unit) (Name := ℕ) (U := UU nD τ) (Lvl := ℕ) (Val := Elt F) spec22 c)

/-- The proof data on core `c`. -/
def dat22 (a0 : (pcfg22 (F := F)).Adm) (Vin : Dev nD → Valuation τ sig (Elt F)) (c : Dev nD) :
    Pipeline.Dat τ (Elt F) Unit ℕ (UU nD τ) ℕ ((pcfg22 (F := F)).at a0) c where
  A w := Vr Vin c (Pipeline.arrRef spec22 w)
  after w t := match w with
    | ⟨0, _⟩ => iblk22 a0 Vin c 0 t
    | ⟨1, _⟩ => (((cfg22 a0).win 1).blk t).view.read (Elt F) (gout22 a0 Vin c)
  Φ _ := Phi22 a0 Vin c
  q _ := fullShare
  owed _ := 0

theorem A_eq22 (a0 : (pcfg22 (F := F)).Adm) (Vin : Dev nD → Valuation τ sig (Elt F)) (c : Dev nD) (w : Fin (cfg22 a0).W) :
    (dat22 a0 Vin c).A w = Vr Vin c (Pipeline.arrRef spec22 w) := by dsimp only [dat22]
theorem after22_0 (a0 : (pcfg22 (F := F)).Adm) (Vin : Dev nD → Valuation τ sig (Elt F)) (c : Dev nD) (t : Fin (cfg22 a0).N) :
    (dat22 a0 Vin c).after 0 t = iblk22 a0 Vin c 0 t := by dsimp only [dat22]; rfl
theorem after22_1 (a0 : (pcfg22 (F := F)).Adm) (Vin : Dev nD → Valuation τ sig (Elt F)) (c : Dev nD) (t : Fin (cfg22 a0).N) :
    (dat22 a0 Vin c).after 1 t = (((cfg22 a0).win 1).blk t).view.read (Elt F) (gout22 a0 Vin c) := by dsimp only [dat22]; rfl
theorem Phi_eq22 (a0 : (pcfg22 (F := F)).Adm) (Vin : Dev nD → Valuation τ sig (Elt F)) (c : Dev nD) (t : Fin ((cfg22 a0).N + 1)) :
    (dat22 a0 Vin c).Φ t = Phi22 a0 Vin c := rfl
theorem owed_eq22 (a0 : (pcfg22 (F := F)).Adm) (Vin : Dev nD → Valuation τ sig (Elt F)) (c : Dev nD) (t : Fin ((cfg22 a0).N + 1)) :
    (dat22 a0 Vin c).owed t = 0 := rfl
theorem q_eq22 (a0 : (pcfg22 (F := F)).Adm) (Vin : Dev nD → Valuation τ sig (Elt F)) (c : Dev nD) (w : Fin (cfg22 a0).W) :
    (dat22 a0 Vin c).q w = fullShare := rfl

/-- The pinned family's configuration at region 22 is this one. -/
example (a : (p : Fin 34) → (pcfgs (F := F) p).Adm) : Pipeline.pin (pcfgs (F := F)) a (22 : Fin 34) = (pcfg22 (F := F)).at (a (22 : Fin 34)) := rfl

end Cert.Kernel.Hand

end
-- ==== Proof.K.GatherBody22.lean ====
/-
  Gather region 22 (custom_call 22): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat22
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk22 (c : Dev nD) (i : grid22.Coords) (tbl : Bf (F := F) c (Memref.whole main_v146)) : Prop where
  h1 : k22_chk1 (tblWord22 c i tbl 0)
  h2 : k22_chk2 (tblWord22 c i tbl 1)
  h3 : k22_chk3 (tblWord22 c i tbl 2)
  h4 : k22_chk4 (tblWord22 c i tbl 3)
  h5 : k22_chk5 (tblWord22 c i tbl 4)
  h6 : k22_chk6 (tblWord22 c i tbl 5)
  h7 : k22_chk7 (tblWord22 c i tbl 6)
  h8 : k22_chk8 (tblWord22 c i tbl 7)

/-- A one-row slice of the embedding array at the row a word names, read at lane `z 1`: the array's element there. -/
theorem rowRead22 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun22 (c : Dev nD) (i : grid22.Coords)
    (M3 : Memref sig .tc .vmem S8x1 .f32) (h3 : M3.IsWhole) (M4 : Memref sig .tc .vmem S8x128 .f32) (h4 : M4.IsWhole)
    (tbl : Bf (F := F) c (Memref.whole main_v146)) (x : Bf (F := F) c (Memref.whole main_v109))
    (vb : Vec F S8x1 .f32) (hchk : GatherChk22 c i tbl) (Q : PUnit → sProp (MM F)) :
    iprop(pt c (Memref.whole main_v146) tbl ∗ pt c (Memref.whole main_v109) x
      ∗ owns (c : Thread nD τ) M3 fullShare vb ∗ (∃ d, owns (c : Thread nD τ) M4 fullShare d)
      ∗ (∃ fs, pt c (Memref.whole cc22_scratch0) fs) ∗ sems22 c ∗ (∃ W, owes (c : Thread nD τ) (0 : CellTallies nD τ sig Unit) W)
      ∗ (iprop(pt c (Memref.whole main_v146) tbl ∗ pt c (Memref.whole main_v109) x
          ∗ owns (c : Thread nD τ) M3 fullShare vb ∗ owns (c : Thread nD τ) M4 fullShare (gatherBlk x (tblWord22 c i tbl) vb)
          ∗ (∃ fs, pt c (Memref.whole cc22_scratch0) fs) ∗ sems22 c ∗ (∃ W, owes (c : Thread nD τ) (0 : CellTallies nD τ sig Unit) W)) -∗ Q ⟨⟩))
    ⊢ wp frame (wpE (defs₀ (F := F)) 𝒱₀ c none) Set.univ
        (cc22__gather_kernel i (Memref.whole main_v146) (Memref.isWhole_whole _) (Memref.whole main_v109) (Memref.isWhole_whole _) M3 h3 M4 h4
          (Memref.whole cc22_scratch0) (Memref.isWhole_whole _) cc22_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 260).1 $$ Hx
  icases Hx' with ⟨Hxr, Hx0, Hx1, Hx2, Hx3, Hx4, Hx5, Hx6, Hx7⟩
  sl_unfold [cc22__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 260).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k22_pay1 gatherBlk
    show FloatOps.mulf _ _ = FloatOps.mulf _ _
    congr 1
    · unfold gatherRun22.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun22.sl.dma8 gatherRun22.sl.dma8_1 gatherRun22.sl.dma8_2 gatherRun22.sl.dma8_3 gatherRun22.sl.dma8_4 gatherRun22.sl.dma8_5
        gatherRun22.sl.dma8_6 gatherRun22.sl.dma8_7 gatherRun22.sl.r gatherRun22.sl.r_1 gatherRun22.sl.r_2 gatherRun22.sl.r_3 gatherRun22.sl.r_4
        gatherRun22.sl.r_5 gatherRun22.sl.r_6 gatherRun22.sl.r_7
      refine canonRows8 _ _ _ _ _ _ _ _ _ _ _ _ _ _ _ _ (fun r d => x (embIdx (rowOf (tblWord22 c i tbl r)) d)) ?_ ?_ ?_ ?_ ?_ ?_ ?_ ?_ y
      · exact fun z => rowRead22 c _ (tblWord22 c i tbl 0) rfl rfl _ _ x z
      · exact fun z => rowRead22 c _ (tblWord22 c i tbl 1) rfl rfl _ _ x z
      · exact fun z => rowRead22 c _ (tblWord22 c i tbl 2) rfl rfl _ _ x z
      · exact fun z => rowRead22 c _ (tblWord22 c i tbl 3) rfl rfl _ _ x z
      · exact fun z => rowRead22 c _ (tblWord22 c i tbl 4) rfl rfl _ _ x z
      · exact fun z => rowRead22 c _ (tblWord22 c i tbl 5) rfl rfl _ _ x z
      · exact fun z => rowRead22 c _ (tblWord22 c i tbl 6) rfl rfl _ _ x z
      · exact fun z => rowRead22 c _ (tblWord22 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk22.lean ====
/-
  Gather region 22 (custom_call 22): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat22
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word22 (i : grid22.Coords) (j : Fin 8) : k22_off1 i (BitVec.ofNat 32 j.val) 0 = (i 0).val * 8 + j.val := by
  have hi : (i 0).val < 16384 := (i 0).isLt
  have hj : j.val < 8 := j.isLt
  unfold k22_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word22 (i : grid22.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord22_eq (c : Dev nD) (i : grid22.Coords) (tbl : Bf (F := F) c (Memref.whole main_v146)) (j : Fin 8)
    (e : Fin 131072) (he : e.val = (i 0).val * 8 + j.val) : tblWord22 c i tbl j = tbl (tblIdx e) := by
  unfold tblWord22
  show tbl _ = tbl _
  refine congrArg tbl ?_
  funext a; apply Fin.ext
  match a with
  | ⟨0, _⟩ =>
    show k22_off1 i (BitVec.ofNat 32 j.val) 0 + 1 * 0 = e.val
    rw [off_word22, he]; omega

/-- Row `j` of the value window's block at point `t` is the value array's row `8 t + j`. -/
theorem valBlk22_eq (a0 : (pcfg22 (F := F)).Adm) (Vin : Dev nD → Valuation τ sig (Elt F)) (c : Dev nD) (t : Fin (cfg22 a0).N)
    (j : Fin 8) (e : Fin 131072) (he : e.val = ((grid22.coords t) 0).val * 8 + j.val) :
    iblk22 a0 Vin c 0 t (colIdx j) = Vr Vin c main_v147 (valIdx e) := by
  unfold iblk22
  show Vr Vin c main_v147 _ = Vr Vin c main_v147 _
  refine congrArg (Vr Vin c main_v147) ?_
  funext a; apply Fin.ext
  match a with
  | ⟨0, _⟩ =>
    show (BitVec.ofNat 32 ((grid22.coords t) 0).val).toNat * 8 + 1 * j.val = e.val
    rw [coord_word22, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk22 (a0 : (pcfg22 (F := F)).Adm) (Vin : Dev nD → Valuation τ sig (Elt F)) (c : Dev nD) (t : Fin (cfg22 a0).N) :
    gatherBlk (Vr Vin c main_v109) (tblWord22 c (grid22.coords t) (a0.1 0)) (iblk22 a0 Vin c 0 t)
      = (((cfg22 a0).win 1).blk t).view.read (Elt F) (gout22 a0 Vin c) := by
  funext y
  show gatherBlk _ _ _ y = gout22 a0 Vin c ((((cfg22 a0).win 1).blk t).view.emb y)
  unfold gatherBlk gout22 gatherArr
  have e0 : ((((cfg22 a0).win 1).blk t).view.emb y (0 : Fin 2)).val = ((grid22.coords t) 0).val * 8 + (y 0).val := by
    show (BitVec.ofNat 32 ((grid22.coords t) 0).val).toNat * 8 + 1 * (y 0).val = _
    rw [coord_word22]; omega
  have e1 : (((cfg22 a0).win 1).blk t).view.emb y (1 : Fin 2) = y 1 := Fin.ext (by
    show (0#32 : BitVec 32).toNat * 128 + 1 * (y 1).val = (y 1).val
    show 0 * 128 + 1 * (y 1).val = (y 1).val
    omega)
  rw [tblWord22_eq c (grid22.coords t) (a0.1 0) (y 0) _ e0, valBlk22_eq a0 Vin c t (y 0) _ e0, e1]

end Cert.Kernel.Hand

end
-- ==== Proof.K.GatherRegion22.lean ====
/-
  Gather region 22 (custom_call 22): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody22
import proofs.«414509_j14181982011419_2_alg».proof.Proof.K.GatherBlk22
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk22 (a0 : (pcfg22 (F := F)).Adm) : Prop := ∀ e : S131072.Idx, (a0.1 0 e).toNat < 100000

/-! ## The grid and the result window's blocks -/

/-- On the one-axis grid a point's coordinate is its number. -/
theorem regCoords22 (t : Fin grid22.N) : (grid22.coords t 0).val = t.val := by
  have ht : t.val < 16384 := N_22 ▸ t.isLt
  show t.val / grid22.stride 0 % grid22.bound 0 = t.val
  rw [show grid22.stride 0 = 1 from by decide, show grid22.bound 0 = 16384 from rfl, Nat.div_one, Nat.mod_eq_of_lt ht]

/-- A point's number as the 32-bit word the index maps compute with. -/
theorem regWord22 (t : Fin grid22.N) : (BitVec.ofNat 32 (grid22.coords t 0).val).toNat = t.val := by
  have ht : t.val < 16384 := N_22 ▸ t.isLt
  rw [BitVec.toNat_ofNat, regCoords22]; omega

/-- The result window's block at point `t` is block `t` along the rows, at zero along the lanes. -/
theorem regOutIndex22 (a0 : (pcfg22 (F := F)).Adm) (t : Fin (cfg22 a0).N) : ((cfg22 a0).win 1).index t = ![t.val, 0] := by
  show cc22_transform_2 (grid22.coords t) = _
  unfold cc22_transform_2
  funext a; fin_cases a
  · exact regWord22 t
  · rfl

/-- The result window is written back at every point: consecutive points have different blocks. -/
theorem regOutFlush22 (a0 : (pcfg22 (F := F)).Adm) (t : Fin (cfg22 a0).N) : ((cfg22 a0).win 1).flush t = true := by
  have htN : t.val < 16384 := N_22 ▸ t.isLt
  rw [Pipeline.Window.flush_out _ rfl]
  by_cases h : t.val + 1 = 16384
  · exact Or.inl (show t.val + 1 = grid22.N by rw [N_22]; exact h)
  · have hlt : t.val + 1 < grid22.N := by rw [N_22]; omega
    refine Or.inr ⟨hlt, fun e => ?_⟩
    have e' : (![t.val + 1, 0] : Fin 2 → ℕ) = ![t.val, 0] := (regOutIndex22 a0 ⟨t.val + 1, hlt⟩).symm.trans (e.trans (regOutIndex22 a0 t))
    have e0 := congrFun e' 0
    simp at e0

/-- The index table, held as the pipeline's one prefetched table. -/
theorem prefHeldEq22 (a0 : (pcfg22 (F := F)).Adm) (c : Dev nD) :
    (Pipeline.prefHeld (Ix := Unit) (Name := ℕ) (U := UU nD τ) (Lvl := ℕ) pre22 c (fun _ => fullShare) a0.1 : sProp (MM F))
      = pt c (Memref.whole main_v146) (a0.1 0) := by
  unfold Pipeline.prefHeld
  rw [show (Finset.univ : Finset (Fin pre22.K)) = {0} from rfl, BI.bigSep_singleton]
  rfl

/-- The value window's staging buffer holds its block at every point. -/
theorem beforeVal22 (a0 : (pcfg22 (F := F)).Adm) (Vin : Dev nD → Valuation τ sig (Elt F)) (c : Dev nD) (t : Fin (cfg22 a0).N) (d) :
    (dat22 a0 Vin c).before 0 t d = iblk22 a0 Vin c 0 t :=
  ((dat22 a0 Vin c).before_in_eq_fetched 0 rfl (fun _ => rfl) (fun _ _ _ => rfl)
    (fun t => by rw [after22_0]; unfold Dat.blockOf iblk22; rw [A_eq22]; try rfl) t d).trans
    (by unfold Dat.fetched Dat.blockOf iblk22; rw [A_eq22]; try rfl)

/-! ## The kernel's checks, from the table's range -/

/-- Each of the point's eight words is a word of the table, so a row number. -/
theorem tblWordLt22 (a0 : (pcfg22 (F := F)).Adm) (hok : GatherOk22 a0) (c : Dev nD) (i : grid22.Coords) (j : Fin 8) :
    (tblWord22 c i (a0.1 0) j).toNat < 100000 := by
  unfold tblWord22
  exact hok _

/-- So the kernel's eight checks hold at every point. -/
theorem gatherChk22 (a0 : (pcfg22 (F := F)).Adm) (hok : GatherOk22 a0) (c : Dev nD) (i : grid22.Coords) : GatherChk22 c i (a0.1 0) :=
  ⟨⟨chkRow _ (tblWordLt22 a0 hok c i 0), chkRow _ (tblWordLt22 a0 hok c i 0)⟩,
   ⟨chkRow _ (tblWordLt22 a0 hok c i 1), chkRow _ (tblWordLt22 a0 hok c i 1)⟩,
   ⟨chkRow _ (tblWordLt22 a0 hok c i 2), chkRow _ (tblWordLt22 a0 hok c i 2)⟩,
   ⟨chkRow _ (tblWordLt22 a0 hok c i 3), chkRow _ (tblWordLt22 a0 hok c i 3)⟩,
   ⟨chkRow _ (tblWordLt22 a0 hok c i 4), chkRow _ (tblWordLt22 a0 hok c i 4)⟩,
   ⟨chkRow _ (tblWordLt22 a0 hok c i 5), chkRow _ (tblWordLt22 a0 hok c i 5)⟩,
   ⟨chkRow _ (tblWordLt22 a0 hok c i 6), chkRow _ (tblWordLt22 a0 hok c i 6)⟩,
   chkRow _ (tblWordLt22 a0 hok c i 7)⟩

/-! ## The body obligation, at a generic point -/

/-- What the body is called with at point `t`: the invariant, the core's dues, each window's current staging memref at
    what the pipeline left there, -/
def bodyPre22 (a0 : (pcfg22 (F := F)).Adm) (Vin : Dev nD → Valuation τ sig (Elt F)) (c : Dev nD) (t : Fin (cfg22 a0).N) : sProp (MM F) :=
  iprop((dat22 a0 Vin c).Φ t.castSucc ∗ (dat22 a0 Vin c).owesAt () t.castSucc
    ∗ (∃ d, owns (c : Thread nD τ) (((cfg22 a0).win 0).stage ((cfg22 a0).slots t 0)) fullShare ((dat22 a0 Vin c).before 0 t d))
    ∗ (∃ d, owns (c : Thread nD τ) (((cfg22 a0).win 1).stage ((cfg22 a0).slots t 1)) fullShare ((dat22 a0 Vin c).before 1 t d)))

/-- and what it returns. -/
def bodyPost22 (a0 : (pcfg22 (F := F)).Adm) (Vin : Dev nD → Valuation τ sig (Elt F)) (c : Dev nD) (t : Fin (cfg22 a0).N) : sProp (MM F) :=
  iprop((dat22 a0 Vin c).Φ t.succ ∗ (dat22 a0 Vin c).owesAt () t.succ
    ∗ owns (c : Thread nD τ) (((cfg22 a0).win 0).stage ((cfg22 a0).slots t 0)) fullShare ((dat22 a0 Vin c).after 0 t)
    ∗ owns (c : Thread nD τ) (((cfg22 a0).win 1).stage ((cfg22 a0).slots t 1)) fullShare ((dat22 a0 Vin c).after 1 t))

/-- The body at any point: the invariant opened into the embedding array, the semaphores, the table and the scratch;
    the value window's memref at its block; the checks from the table's range; so the kernel's run applies, and what it
    leaves in the result window's memref is the point's block of the gathered array. -/
theorem sound_body22 (a0 : (pcfg22 (F := F)).Adm) (hok : GatherOk22 a0) (Vin : Dev nD → Valuation τ sig (Elt F)) (c : Dev nD) (t : Fin (cfg22 a0).N) :
    bodyPre22 a0 Vin c t ⊢ wp frame (wpE (defs₀ (F := F)) 𝒱₀ c none) Set.univ
      (defs₀ .tc (cfg22 a0).body ((cfg22 a0).bodyArgs t ((cfg22 a0).slots t))) (fun _ => bodyPost22 a0 Vin c t) := by
  unfold bodyPre22 bodyPost22
  simp only [beforeVal22]
  rw [Phi_eq22, Phi_eq22, after22_0, after22_1, ← gatherBlk_blk22]
  unfold Phi22 Pipeline.Dat.owesAt Pipeline.owesWithin
  rw [owed_eq22, owed_eq22, prefHeldEq22, scopedRest22_split]
  iintro ⟨⟨Hx, Hos, Ht, ⟨%fs, Hs⟩, Hsb⟩, ⟨%W, %hW, HO⟩, ⟨%d0, H0⟩, ⟨%d1, H1⟩⟩
  iapply (gatherRun22 c (grid22.coords t) _ _ _ _ (a0.1 0) (Vr Vin c main_v109) (iblk22 a0 Vin c 0 t) (gatherChk22 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation22 (a0 : (pcfg22 (F := F)).Adm) (hok : GatherOk22 a0) (Vin : Dev nD → Valuation τ sig (Elt F)) (c : Dev nD) :
    BodyObligation (dat22 a0 Vin c) (defs₀ (F := F)) 𝒱₀ () Set.univ := fun t => by
  rw [bigSep_W22, bigSep_W22]
  exact sound_body22 a0 hok Vin c t

/-! ## From the blocks to the arrays -/

/-- The value array after the region: as entered. -/
theorem arrAt22_in (a0 : (pcfg22 (F := F)).Adm) (Vin : Dev nD → Valuation τ sig (Elt F)) (c : Dev nD) :
    (dat22 a0 Vin c).arrAt 0 (cfg22 a0).N = Vr Vin c main_v147 :=
  ((dat22 a0 Vin c).arrAt_in 0 rfl _).trans (A_eq22 a0 Vin c 0)

/-- Every index of the result array is in some point's block: row `e`, lane `d` is element `(e % 8, d)` of the block
    of point `e / 8`. -/
theorem regOutCover22 (a0 : (pcfg22 (F := F)).Adm) (i : S131072x128.Idx) :
    ∃ t : Fin (cfg22 a0).N, ((cfg22 a0).win 1).flush t = true ∧ i ∈ (((cfg22 a0).win 1).blk t).view.set := by
  have hi0 : (i 0).val < 131072 := (i 0).isLt
  have hi1 : (i 1).val < 128 := (i 1).isLt
  have hN : (i 0).val / 8 < grid22.N := by rw [N_22]; omega
  obtain ⟨t, ht⟩ : ∃ t : Fin (cfg22 a0).N, t.val = (i 0).val / 8 := ⟨⟨_, hN⟩, rfl⟩
  have hx : (((cfg22 a0).win 1).blk t).view.emb (ValueIdx.ix2 ⟨(i 0).val % 8, Nat.mod_lt _ (by decide)⟩ (i 1)) = i := by
    funext a; apply Fin.ext
    have e0 : ((cfg22 a0).win 1).index t (0 : Fin 2) = t.val := congrFun (regOutIndex22 a0 t) (0 : Fin 2)
    have e1 : ((cfg22 a0).win 1).index t (1 : Fin 2) = 0 := congrFun (regOutIndex22 a0 t) (1 : Fin 2)
    match a with
    | ⟨0, _⟩ => show ((cfg22 a0).win 1).index t (0 : Fin 2) * 8 + 1 * ((i 0).val % 8) = (i 0).val; omega
    | ⟨1, _⟩ => show ((cfg22 a0).win 1).index t (1 : Fin 2) * 128 + 1 * (i 1).val = (i 1).val; omega
  exact ⟨t, regOutFlush22 a0 t, hx ▸ (((cfg22 a0).win 1).blk t).view.emb_mem_set _⟩

/-- The result array after the region: the gathered and scaled rows, whole. -/
theorem arrAt22_out (a0 : (pcfg22 (F := F)).Adm) (Vin : Dev nD → Valuation τ sig (Elt F)) (c : Dev nD) :
    (dat22 a0 Vin c).arrAt 1 (cfg22 a0).N = gout22 a0 Vin c :=
  (dat22 a0 Vin c).arrAt_eq_of_cover 1 (gout22 a0 Vin c)
    (fun t _ => by
      show ((cfg22 a0).win 1).cut ((cfg22 a0).grid.coords t) ((dat22 a0 Vin c).after 1 t) = _
      rw [after22_1])
    (regOutCover22 a0)

/-! ## The region as a segment of @main -/

/-- The ownership layout of the kernel's eight semaphores. -/
theorem ownSemFacts22 : Pipeline.OwnSemFacts spec22 osem22 := by decide

/-- The kernel's own cells at zero, listed. -/
theorem ownSemsListed22 (c : Dev nD) :
    (Pipeline.ownSems0 (Ix := Unit) (Name := ℕ) (U := UU nD τ) (Lvl := ℕ) (Val := Elt F) (τ := τ) osem22 c : sProp (MM F)) = sems22 c :=
  Pipeline.ownSems0_eq_of_list c osem22 [0, 1, 2, 3, 4, 5, 6, 7] (by decide) (by decide)

/-- The unscoped buffers that are no window's array, no table, and not the embedding array. -/
abbrev restRefs22 : Finset (Ref sig .tc) :=
  (((Finset.univ.filter fun b : Ref sig .tc => ¬ b.isScoped) \ Finset.univ.image (Pipeline.arrRef spec22)) \ Finset.univ.image pre22.ref) \ {main_v109}

/-- Those buffers, each whole at its contents under `Vin`: what bypasses the region. -/
def Zrest22 (Vin : Dev nD → Valuation τ sig (Elt F)) (c : Dev nD) : sProp (MM F) :=
  bigSep restRefs22 fun b => ((c : Thread nD τ).loc b) ↦{fullShare} Vr Vin c b

/-- The embedding array is an unscoped buffer that is no window's array and no table. -/
theorem embArrMem22 : ({main_v109} : Finset (Ref sig .tc)) ⊆
    ((Finset.univ.filter fun b : Ref sig .tc => ¬ b.isScoped) \ Finset.univ.image (Pipeline.arrRef spec22)) \ Finset.univ.image pre22.ref := by
  decide

/-- The unscoped buffers that are no window's array: the index table, the embedding array, and the rest. -/
theorem unscopedRestOpen22 (Vin : Dev nD → Valuation τ sig (Elt F)) (c : Dev nD) :
    (Pipeline.unscopedRest (Ix := Unit) (Name := ℕ) (U := UU nD τ) (Lvl := ℕ) spec22 c (Vr Vin c) : sProp (MM F))
      = iprop(Pipeline.prefHeld pre22 c (fun _ => fullShare) (fun k => Vr Vin c (pre22.ref k))
          ∗ pt c (Memref.whole main_v109) (Vr Vin c main_v109) ∗ Zrest22 Vin c) := by
  rw [Pipeline.unscopedRest_split preFacts22 c (Vr Vin c)]
  unfold Pipeline.unscopedRestP Zrest22
  rw [BI.bigSep_sdiff_split embArrMem22, BI.bigSep_singleton]
  rfl

/-- The buffer contents when the region is left: the result array at the gathered rows, every other buffer as entered. -/
abbrev Vout22 (a0 : (pcfg22 (F := F)).Adm) (Vin : Dev nD → Valuation τ sig (Elt F)) (c : Dev nD) : Valuation τ sig (Elt F) :=
  Function.update (Vin c) main_v148 (gout22 a0 Vin c)

/-- At the exit each of the region's arrays holds what the pipeline leaves; -/
theorem hF22 (a0 : (pcfg22 (F := F)).Adm) (Vin : Dev nD → Valuation τ sig (Elt F)) (c : Dev nD) (w : Fin (cfg22 a0).W) :
    (dat22 a0 Vin c).arrAt w (cfg22 a0).N = Vr (Vout22 a0 Vin) c (Pipeline.arrRef spec22 w) := by
  match w with
  | ⟨0, _⟩ =>
    show (dat22 a0 Vin c).arrAt 0 (cfg22 a0).N = Vr (Vout22 a0 Vin) c (Pipeline.arrRef spec22 0)
    rw [arrAt22_in]
    exact (Function.update_of_ne (StableHlo.devRef_ne_of_ne (by decide) : (Proc.devRef .tc main_v147 : DevRef τ sig) ≠ Proc.devRef .tc main_v148) _ _).symm
  | ⟨1, _⟩ =>
    show (dat22 a0 Vin c).arrAt 1 (cfg22 a0).N = Vr (Vout22 a0 Vin) c (Pipeline.arrRef spec22 1)
    rw [arrAt22_out]
    exact (Function.update_self (Proc.devRef .tc main_v148 : DevRef τ sig) _ (Vin c)).symm

/-- and every other buffer what it held at entry. -/
theorem hrest22 (a0 : (pcfg22 (F := F)).Adm) (Vin : Dev nD → Valuation τ sig (Elt F)) (c : Dev nD) :
    ∀ b : Ref sig .tc, b ∉ Finset.univ.image (Pipeline.arrRef spec22) → Vr (Vout22 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat22` at the entry valuation `Vin`
    (`hd`), the index table's contents under `Vin` being the pinned ones (`htbl`) and row numbers (`hok`). -/
def reg22 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk22 (F := F) (a (22 : Fin 34)))
    (hd : ∀ c, pdats (22 : Fin 34) c = dat22 (a (22 : Fin 34)) Vin c) (htbl : ∀ c, (a (22 : Fin 34)).1 = fun k => Vr Vin c (pre22.ref k)) :
    Pipeline.RegionSeg (pcfgs (F := F)) a pdats () defs₀ 𝒱₀ L lv (22 : Fin 34) where
  win := (launch22 (F := F)).win.to₀
  block_pos := (launch22 (F := F)).block_pos
  stage_whole := (launch22 (F := F)).stage_whole
  K := Fin 8
  osem := osem22
  ho := ownSemFacts22
  hbody c := by rw [hd c]; exact (body_obligation22 (a (22 : Fin 34)) hok Vin c).loose
  hwaits := Pipeline.hwaits_of_owed_zero _ _ _ _ L lv (22 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v148 (gout22 (a (22 : Fin 34)) Vin c)) ∗ Rest c)
  X c := iprop(pt c (Memref.whole main_v109) (Vr Vin c main_v109) ∗ sems22 c)
  Y c := iprop(pt c (Memref.whole main_v109) (Vr Vin c main_v109)
    ∗ Pipeline.prefHeld (Ix := Unit) (Name := ℕ) (U := UU nD τ) (Lvl := ℕ) pre22 c (fun _ => fullShare) (a (22 : Fin 34)).1)
  Z c := Zrest22 Vin c
  hentry c := by
    rw [ownSemsListed22]
    have hsplit := Pipeline.arrays_of_unscopedBufs (p := (22 : Fin 34)) (pcfgs (F := F)) a pdats (launch22 (F := F)).win (launch22 (F := F)).arr_whole c
      ((pdats (22 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen22 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (22 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq22]; unfold Phi22
    iintro ⟨⟨Hx, Hos⟩, Ht, Hr⟩
    isplitl [Hx]; · iexact Hx
    isplitl [Hos]; · iexact Hos
    isplitl [Ht]; · iexact Ht
    iexact Hr
  hout c := by
    rw [ownSemsListed22, hd c, Phi_eq22]; unfold Phi22
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (22 : Fin 34)) (pcfgs (F := F)) a (Ix := Unit) (Name := ℕ) (U := UU nD τ) (Lvl := ℕ)
      (launch22 (F := F)).win (launch22 (F := F)).arr_whole c pdats ((pdats (22 : Fin 34) c).share_full fun _ => by rw [hd c]; rfl)
      (Vr Vin c) (Vr (Vout22 (a (22 : Fin 34)) Vin) c) ((pdats (22 : Fin 34) c).arrAt · (cfg22 (a (22 : Fin 34))).N)
      (fun w => by rw [hd c]; exact hF22 (a (22 : Fin 34)) Vin c w) (hrest22 (a (22 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen22 Vin c).symm)
      isplitl [Ht]; · rw [← htbl c]; iexact Ht
      isplitl [Hx]; · iexact Hx
      iexact Hz
    unfold Pipeline.Dat.owesAt Pipeline.owesWithin
    rw [show (pdats (22 : Fin 34) c).owed (Fin.last _) = 0 from by rw [hd c]; rfl]
    icases HO with ⟨%W, -, HO⟩; iexists W; iexact HO

end Cert.Kernel.Hand

end
-- ==== Proof.K.GatherDat23.lean ====
/-
  Gather region 23 (custom_call 23): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem23 : Fin 8 → SemLoc sig := fun | 0 => .dma 272 | 1 => .dma 273 | 2 => .dma 274 | 3 => .dma 275 | 4 => .dma 276 | 5 => .dma 277 | 6 => .dma 278 | 7 => .dma 279

/-- The eight counters at zero, as the run finds them and hands them back. -/
abbrev sems23 (c : Dev nD) : sProp (MM F) :=
  iprop(semVal ((c : Thread nD τ), osem23 0) 0 ∗ semVal ((c : Thread nD τ), osem23 1) 0 ∗ semVal ((c : Thread nD τ), osem23 2) 0
    ∗ semVal ((c : Thread nD τ), osem23 3) 0 ∗ semVal ((c : Thread nD τ), osem23 4) 0 ∗ semVal ((c : Thread nD τ), osem23 5) 0
    ∗ semVal ((c : Thread nD τ), osem23 6) 0 ∗ semVal ((c : Thread nD τ), osem23 7) 0)

/-- Word `j` of the eight the index table holds for point `i`, as the kernel's scalar load reads it. -/
def tblWord23 (c : Dev nD) (i : grid23.Coords) (tbl : Bf (F := F) c (Memref.whole main_v149)) (j : Fin 8) : BitVec 32 :=
  (Memref.whole main_v149).view.readAt (Elt F) (Rect.unit (s := S131072) (k23_off1 i (BitVec.ofNat 32 j.val)) S1.size (k23_off1_inb i j)).toLoadRect tbl
    (Shape.Idx.first (s := S1) (numel1_S1.symm ▸ Nat.one_pos))

/-- Window `w`'s block at point `t`, read off its array at the region's entry. -/
def iblk23 (a0 : (pcfg23 (F := F)).Adm) (Vin : Dev nD → Valuation τ sig (Elt F)) (c : Dev nD) (w : Fin (cfg23 a0).W) (t : Fin (cfg23 a0).N) :
    (((cfg23 a0).win w).xblock ((cfg23 a0).grid.coords t)).Idx → Elt F ((cfg23 a0).win w).elt :=
  (((cfg23 a0).win w).blk t).view.read (Elt F) (Vr Vin c (Pipeline.arrRef spec23 w))

/-- The result array the region leaves: the gathered and scaled rows of the embedding array, whole. -/
def gout23 (a0 : (pcfg23 (F := F)).Adm) (Vin : Dev nD → Valuation τ sig (Elt F)) (c : Dev nD) : Buf (Elt F) ((c : Thread nD τ).loc main_v151) :=
  gatherArr (Vr Vin c main_v109) (a0.1 0) (Vr Vin c main_v150)

/-- The invariant between points: the embedding array as entered, the kernel's semaphores at zero, the index table, the
    scoped buffers no window stages (the kernel's scratch among them). -/
def Phi23 (a0 : (pcfg23 (F := F)).Adm) (Vin : Dev nD → Valuation τ sig (Elt F)) (c : Dev nD) : sProp (MM F) :=
  iprop(pt c (Memref.whole main_v109) (Vr Vin c main_v109) ∗ sems23 c
    ∗ Pipeline.prefHeld (Ix := Unit) (Name := ℕ) (U := UU nD τ) (Lvl := ℕ) pre23 c (fun _ => fullShare) a0.1
    ∗ Pipeline.scopedRest (Ix := Unit) (Name := ℕ) (U := UU nD τ) (Lvl := ℕ) (Val := Elt F) spec23 c)

/-- The proof data on core `c`. -/
def dat23 (a0 : (pcfg23 (F := F)).Adm) (Vin : Dev nD → Valuation τ sig (Elt F)) (c : Dev nD) :
    Pipeline.Dat τ (Elt F) Unit ℕ (UU nD τ) ℕ ((pcfg23 (F := F)).at a0) c where
  A w := Vr Vin c (Pipeline.arrRef spec23 w)
  after w t := match w with
    | ⟨0, _⟩ => iblk23 a0 Vin c 0 t
    | ⟨1, _⟩ => (((cfg23 a0).win 1).blk t).view.read (Elt F) (gout23 a0 Vin c)
  Φ _ := Phi23 a0 Vin c
  q _ := fullShare
  owed _ := 0

theorem A_eq23 (a0 : (pcfg23 (F := F)).Adm) (Vin : Dev nD → Valuation τ sig (Elt F)) (c : Dev nD) (w : Fin (cfg23 a0).W) :
    (dat23 a0 Vin c).A w = Vr Vin c (Pipeline.arrRef spec23 w) := by dsimp only [dat23]
theorem after23_0 (a0 : (pcfg23 (F := F)).Adm) (Vin : Dev nD → Valuation τ sig (Elt F)) (c : Dev nD) (t : Fin (cfg23 a0).N) :
    (dat23 a0 Vin c).after 0 t = iblk23 a0 Vin c 0 t := by dsimp only [dat23]; rfl
theorem after23_1 (a0 : (pcfg23 (F := F)).Adm) (Vin : Dev nD → Valuation τ sig (Elt F)) (c : Dev nD) (t : Fin (cfg23 a0).N) :
    (dat23 a0 Vin c).after 1 t = (((cfg23 a0).win 1).blk t).view.read (Elt F) (gout23 a0 Vin c) := by dsimp only [dat23]; rfl
theorem Phi_eq23 (a0 : (pcfg23 (F := F)).Adm) (Vin : Dev nD → Valuation τ sig (Elt F)) (c : Dev nD) (t : Fin ((cfg23 a0).N + 1)) :
    (dat23 a0 Vin c).Φ t = Phi23 a0 Vin c := rfl
theorem owed_eq23 (a0 : (pcfg23 (F := F)).Adm) (Vin : Dev nD → Valuation τ sig (Elt F)) (c : Dev nD) (t : Fin ((cfg23 a0).N + 1)) :
    (dat23 a0 Vin c).owed t = 0 := rfl
theorem q_eq23 (a0 : (pcfg23 (F := F)).Adm) (Vin : Dev nD → Valuation τ sig (Elt F)) (c : Dev nD) (w : Fin (cfg23 a0).W) :
    (dat23 a0 Vin c).q w = fullShare := rfl

/-- The pinned family's configuration at region 23 is this one. -/
example (a : (p : Fin 34) → (pcfgs (F := F) p).Adm) : Pipeline.pin (pcfgs (F := F)) a (23 : Fin 34) = (pcfg23 (F := F)).at (a (23 : Fin 34)) := rfl

end Cert.Kernel.Hand

end
-- ==== Proof.K.GatherBody23.lean ====
/-
  Gather region 23 (custom_call 23): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat23
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk23 (c : Dev nD) (i : grid23.Coords) (tbl : Bf (F := F) c (Memref.whole main_v149)) : Prop where
  h1 : k23_chk1 (tblWord23 c i tbl 0)
  h2 : k23_chk2 (tblWord23 c i tbl 1)
  h3 : k23_chk3 (tblWord23 c i tbl 2)
  h4 : k23_chk4 (tblWord23 c i tbl 3)
  h5 : k23_chk5 (tblWord23 c i tbl 4)
  h6 : k23_chk6 (tblWord23 c i tbl 5)
  h7 : k23_chk7 (tblWord23 c i tbl 6)
  h8 : k23_chk8 (tblWord23 c i tbl 7)

/-- A one-row slice of the embedding array at the row a word names, read at lane `z 1`: the array's element there. -/
theorem rowRead23 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun23 (c : Dev nD) (i : grid23.Coords)
    (M3 : Memref sig .tc .vmem S8x1 .f32) (h3 : M3.IsWhole) (M4 : Memref sig .tc .vmem S8x128 .f32) (h4 : M4.IsWhole)
    (tbl : Bf (F := F) c (Memref.whole main_v149)) (x : Bf (F := F) c (Memref.whole main_v109))
    (vb : Vec F S8x1 .f32) (hchk : GatherChk23 c i tbl) (Q : PUnit → sProp (MM F)) :
    iprop(pt c (Memref.whole main_v149) tbl ∗ pt c (Memref.whole main_v109) x
      ∗ owns (c : Thread nD τ) M3 fullShare vb ∗ (∃ d, owns (c : Thread nD τ) M4 fullShare d)
      ∗ (∃ fs, pt c (Memref.whole cc23_scratch0) fs) ∗ sems23 c ∗ (∃ W, owes (c : Thread nD τ) (0 : CellTallies nD τ sig Unit) W)
      ∗ (iprop(pt c (Memref.whole main_v149) tbl ∗ pt c (Memref.whole main_v109) x
          ∗ owns (c : Thread nD τ) M3 fullShare vb ∗ owns (c : Thread nD τ) M4 fullShare (gatherBlk x (tblWord23 c i tbl) vb)
          ∗ (∃ fs, pt c (Memref.whole cc23_scratch0) fs) ∗ sems23 c ∗ (∃ W, owes (c : Thread nD τ) (0 : CellTallies nD τ sig Unit) W)) -∗ Q ⟨⟩))
    ⊢ wp frame (wpE (defs₀ (F := F)) 𝒱₀ c none) Set.univ
        (cc23__gather_kernel i (Memref.whole main_v149) (Memref.isWhole_whole _) (Memref.whole main_v109) (Memref.isWhole_whole _) M3 h3 M4 h4
          (Memref.whole cc23_scratch0) (Memref.isWhole_whole _) cc23_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 272).1 $$ Hx
  icases Hx' with ⟨Hxr, Hx0, Hx1, Hx2, Hx3, Hx4, Hx5, Hx6, Hx7⟩
  sl_unfold [cc23__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 272).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k23_pay1 gatherBlk
    show FloatOps.mulf _ _ = FloatOps.mulf _ _
    congr 1
    · unfold gatherRun23.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun23.sl.dma8 gatherRun23.sl.dma8_1 gatherRun23.sl.dma8_2 gatherRun23.sl.dma8_3 gatherRun23.sl.dma8_4 gatherRun23.sl.dma8_5
        gatherRun23.sl.dma8_6 gatherRun23.sl.dma8_7 gatherRun23.sl.r gatherRun23.sl.r_1 gatherRun23.sl.r_2 gatherRun23.sl.r_3 gatherRun23.sl.r_4
        gatherRun23.sl.r_5 gatherRun23.sl.r_6 gatherRun23.sl.r_7
      refine canonRows8 _ _ _ _ _ _ _ _ _ _ _ _ _ _ _ _ (fun r d => x (embIdx (rowOf (tblWord23 c i tbl r)) d)) ?_ ?_ ?_ ?_ ?_ ?_ ?_ ?_ y
      · exact fun z => rowRead23 c _ (tblWord23 c i tbl 0) rfl rfl _ _ x z
      · exact fun z => rowRead23 c _ (tblWord23 c i tbl 1) rfl rfl _ _ x z
      · exact fun z => rowRead23 c _ (tblWord23 c i tbl 2) rfl rfl _ _ x z
      · exact fun z => rowRead23 c _ (tblWord23 c i tbl 3) rfl rfl _ _ x z
      · exact fun z => rowRead23 c _ (tblWord23 c i tbl 4) rfl rfl _ _ x z
      · exact fun z => rowRead23 c _ (tblWord23 c i tbl 5) rfl rfl _ _ x z
      · exact fun z => rowRead23 c _ (tblWord23 c i tbl 6) rfl rfl _ _ x z
      · exact fun z => rowRead23 c _ (tblWord23 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk23.lean ====
/-
  Gather region 23 (custom_call 23): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat23
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word23 (i : grid23.Coords) (j : Fin 8) : k23_off1 i (BitVec.ofNat 32 j.val) 0 = (i 0).val * 8 + j.val := by
  have hi : (i 0).val < 16384 := (i 0).isLt
  have hj : j.val < 8 := j.isLt
  unfold k23_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word23 (i : grid23.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord23_eq (c : Dev nD) (i : grid23.Coords) (tbl : Bf (F := F) c (Memref.whole main_v149)) (j : Fin 8)
    (e : Fin 131072) (he : e.val = (i 0).val * 8 + j.val) : tblWord23 c i tbl j = tbl (tblIdx e) := by
  unfold tblWord23
  show tbl _ = tbl _
  refine congrArg tbl ?_
  funext a; apply Fin.ext
  match a with
  | ⟨0, _⟩ =>
    show k23_off1 i (BitVec.ofNat 32 j.val) 0 + 1 * 0 = e.val
    rw [off_word23, he]; omega

/-- Row `j` of the value window's block at point `t` is the value array's row `8 t + j`. -/
theorem valBlk23_eq (a0 : (pcfg23 (F := F)).Adm) (Vin : Dev nD → Valuation τ sig (Elt F)) (c : Dev nD) (t : Fin (cfg23 a0).N)
    (j : Fin 8) (e : Fin 131072) (he : e.val = ((grid23.coords t) 0).val * 8 + j.val) :
    iblk23 a0 Vin c 0 t (colIdx j) = Vr Vin c main_v150 (valIdx e) := by
  unfold iblk23
  show Vr Vin c main_v150 _ = Vr Vin c main_v150 _
  refine congrArg (Vr Vin c main_v150) ?_
  funext a; apply Fin.ext
  match a with
  | ⟨0, _⟩ =>
    show (BitVec.ofNat 32 ((grid23.coords t) 0).val).toNat * 8 + 1 * j.val = e.val
    rw [coord_word23, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk23 (a0 : (pcfg23 (F := F)).Adm) (Vin : Dev nD → Valuation τ sig (Elt F)) (c : Dev nD) (t : Fin (cfg23 a0).N) :
    gatherBlk (Vr Vin c main_v109) (tblWord23 c (grid23.coords t) (a0.1 0)) (iblk23 a0 Vin c 0 t)
      = (((cfg23 a0).win 1).blk t).view.read (Elt F) (gout23 a0 Vin c) := by
  funext y
  show gatherBlk _ _ _ y = gout23 a0 Vin c ((((cfg23 a0).win 1).blk t).view.emb y)
  unfold gatherBlk gout23 gatherArr
  have e0 : ((((cfg23 a0).win 1).blk t).view.emb y (0 : Fin 2)).val = ((grid23.coords t) 0).val * 8 + (y 0).val := by
    show (BitVec.ofNat 32 ((grid23.coords t) 0).val).toNat * 8 + 1 * (y 0).val = _
    rw [coord_word23]; omega
  have e1 : (((cfg23 a0).win 1).blk t).view.emb y (1 : Fin 2) = y 1 := Fin.ext (by
    show (0#32 : BitVec 32).toNat * 128 + 1 * (y 1).val = (y 1).val
    show 0 * 128 + 1 * (y 1).val = (y 1).val
    omega)
  rw [tblWord23_eq c (grid23.coords t) (a0.1 0) (y 0) _ e0, valBlk23_eq a0 Vin c t (y 0) _ e0, e1]

end Cert.Kernel.Hand

end
-- ==== Proof.K.GatherRegion23.lean ====
/-
  Gather region 23 (custom_call 23): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody23
import proofs.«414509_j14181982011419_2_alg».proof.Proof.K.GatherBlk23
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk23 (a0 : (pcfg23 (F := F)).Adm) : Prop := ∀ e : S131072.Idx, (a0.1 0 e).toNat < 100000

/-! ## The grid and the result window's blocks -/

/-- On the one-axis grid a point's coordinate is its number. -/
theorem regCoords23 (t : Fin grid23.N) : (grid23.coords t 0).val = t.val := by
  have ht : t.val < 16384 := N_23 ▸ t.isLt
  show t.val / grid23.stride 0 % grid23.bound 0 = t.val
  rw [show grid23.stride 0 = 1 from by decide, show grid23.bound 0 = 16384 from rfl, Nat.div_one, Nat.mod_eq_of_lt ht]

/-- A point's number as the 32-bit word the index maps compute with. -/
theorem regWord23 (t : Fin grid23.N) : (BitVec.ofNat 32 (grid23.coords t 0).val).toNat = t.val := by
  have ht : t.val < 16384 := N_23 ▸ t.isLt
  rw [BitVec.toNat_ofNat, regCoords23]; omega

/-- The result window's block at point `t` is block `t` along the rows, at zero along the lanes. -/
theorem regOutIndex23 (a0 : (pcfg23 (F := F)).Adm) (t : Fin (cfg23 a0).N) : ((cfg23 a0).win 1).index t = ![t.val, 0] := by
  show cc23_transform_2 (grid23.coords t) = _
  unfold cc23_transform_2
  funext a; fin_cases a
  · exact regWord23 t
  · rfl

/-- The result window is written back at every point: consecutive points have different blocks. -/
theorem regOutFlush23 (a0 : (pcfg23 (F := F)).Adm) (t : Fin (cfg23 a0).N) : ((cfg23 a0).win 1).flush t = true := by
  have htN : t.val < 16384 := N_23 ▸ t.isLt
  rw [Pipeline.Window.flush_out _ rfl]
  by_cases h : t.val + 1 = 16384
  · exact Or.inl (show t.val + 1 = grid23.N by rw [N_23]; exact h)
  · have hlt : t.val + 1 < grid23.N := by rw [N_23]; omega
    refine Or.inr ⟨hlt, fun e => ?_⟩
    have e' : (![t.val + 1, 0] : Fin 2 → ℕ) = ![t.val, 0] := (regOutIndex23 a0 ⟨t.val + 1, hlt⟩).symm.trans (e.trans (regOutIndex23 a0 t))
    have e0 := congrFun e' 0
    simp at e0

/-- The index table, held as the pipeline's one prefetched table. -/
theorem prefHeldEq23 (a0 : (pcfg23 (F := F)).Adm) (c : Dev nD) :
    (Pipeline.prefHeld (Ix := Unit) (Name := ℕ) (U := UU nD τ) (Lvl := ℕ) pre23 c (fun _ => fullShare) a0.1 : sProp (MM F))
      = pt c (Memref.whole main_v149) (a0.1 0) := by
  unfold Pipeline.prefHeld
  rw [show (Finset.univ : Finset (Fin pre23.K)) = {0} from rfl, BI.bigSep_singleton]
  rfl

/-- The value window's staging buffer holds its block at every point. -/
theorem beforeVal23 (a0 : (pcfg23 (F := F)).Adm) (Vin : Dev nD → Valuation τ sig (Elt F)) (c : Dev nD) (t : Fin (cfg23 a0).N) (d) :
    (dat23 a0 Vin c).before 0 t d = iblk23 a0 Vin c 0 t :=
  ((dat23 a0 Vin c).before_in_eq_fetched 0 rfl (fun _ => rfl) (fun _ _ _ => rfl)
    (fun t => by rw [after23_0]; unfold Dat.blockOf iblk23; rw [A_eq23]; try rfl) t d).trans
    (by unfold Dat.fetched Dat.blockOf iblk23; rw [A_eq23]; try rfl)

/-! ## The kernel's checks, from the table's range -/

/-- Each of the point's eight words is a word of the table, so a row number. -/
theorem tblWordLt23 (a0 : (pcfg23 (F := F)).Adm) (hok : GatherOk23 a0) (c : Dev nD) (i : grid23.Coords) (j : Fin 8) :
    (tblWord23 c i (a0.1 0) j).toNat < 100000 := by
  unfold tblWord23
  exact hok _

/-- So the kernel's eight checks hold at every point. -/
theorem gatherChk23 (a0 : (pcfg23 (F := F)).Adm) (hok : GatherOk23 a0) (c : Dev nD) (i : grid23.Coords) : GatherChk23 c i (a0.1 0) :=
  ⟨⟨chkRow _ (tblWordLt23 a0 hok c i 0), chkRow _ (tblWordLt23 a0 hok c i 0)⟩,
   ⟨chkRow _ (tblWordLt23 a0 hok c i 1), chkRow _ (tblWordLt23 a0 hok c i 1)⟩,
   ⟨chkRow _ (tblWordLt23 a0 hok c i 2), chkRow _ (tblWordLt23 a0 hok c i 2)⟩,
   ⟨chkRow _ (tblWordLt23 a0 hok c i 3), chkRow _ (tblWordLt23 a0 hok c i 3)⟩,
   ⟨chkRow _ (tblWordLt23 a0 hok c i 4), chkRow _ (tblWordLt23 a0 hok c i 4)⟩,
   ⟨chkRow _ (tblWordLt23 a0 hok c i 5), chkRow _ (tblWordLt23 a0 hok c i 5)⟩,
   ⟨chkRow _ (tblWordLt23 a0 hok c i 6), chkRow _ (tblWordLt23 a0 hok c i 6)⟩,
   chkRow _ (tblWordLt23 a0 hok c i 7)⟩

/-! ## The body obligation, at a generic point -/

/-- What the body is called with at point `t`: the invariant, the core's dues, each window's current staging memref at
    what the pipeline left there, -/
def bodyPre23 (a0 : (pcfg23 (F := F)).Adm) (Vin : Dev nD → Valuation τ sig (Elt F)) (c : Dev nD) (t : Fin (cfg23 a0).N) : sProp (MM F) :=
  iprop((dat23 a0 Vin c).Φ t.castSucc ∗ (dat23 a0 Vin c).owesAt () t.castSucc
    ∗ (∃ d, owns (c : Thread nD τ) (((cfg23 a0).win 0).stage ((cfg23 a0).slots t 0)) fullShare ((dat23 a0 Vin c).before 0 t d))
    ∗ (∃ d, owns (c : Thread nD τ) (((cfg23 a0).win 1).stage ((cfg23 a0).slots t 1)) fullShare ((dat23 a0 Vin c).before 1 t d)))

/-- and what it returns. -/
def bodyPost23 (a0 : (pcfg23 (F := F)).Adm) (Vin : Dev nD → Valuation τ sig (Elt F)) (c : Dev nD) (t : Fin (cfg23 a0).N) : sProp (MM F) :=
  iprop((dat23 a0 Vin c).Φ t.succ ∗ (dat23 a0 Vin c).owesAt () t.succ
    ∗ owns (c : Thread nD τ) (((cfg23 a0).win 0).stage ((cfg23 a0).slots t 0)) fullShare ((dat23 a0 Vin c).after 0 t)
    ∗ owns (c : Thread nD τ) (((cfg23 a0).win 1).stage ((cfg23 a0).slots t 1)) fullShare ((dat23 a0 Vin c).after 1 t))

/-- The body at any point: the invariant opened into the embedding array, the semaphores, the table and the scratch;
    the value window's memref at its block; the checks from the table's range; so the kernel's run applies, and what it
    leaves in the result window's memref is the point's block of the gathered array. -/
theorem sound_body23 (a0 : (pcfg23 (F := F)).Adm) (hok : GatherOk23 a0) (Vin : Dev nD → Valuation τ sig (Elt F)) (c : Dev nD) (t : Fin (cfg23 a0).N) :
    bodyPre23 a0 Vin c t ⊢ wp frame (wpE (defs₀ (F := F)) 𝒱₀ c none) Set.univ
      (defs₀ .tc (cfg23 a0).body ((cfg23 a0).bodyArgs t ((cfg23 a0).slots t))) (fun _ => bodyPost23 a0 Vin c t) := by
  unfold bodyPre23 bodyPost23
  simp only [beforeVal23]
  rw [Phi_eq23, Phi_eq23, after23_0, after23_1, ← gatherBlk_blk23]
  unfold Phi23 Pipeline.Dat.owesAt Pipeline.owesWithin
  rw [owed_eq23, owed_eq23, prefHeldEq23, scopedRest23_split]
  iintro ⟨⟨Hx, Hos, Ht, ⟨%fs, Hs⟩, Hsb⟩, ⟨%W, %hW, HO⟩, ⟨%d0, H0⟩, ⟨%d1, H1⟩⟩
  iapply (gatherRun23 c (grid23.coords t) _ _ _ _ (a0.1 0) (Vr Vin c main_v109) (iblk23 a0 Vin c 0 t) (gatherChk23 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation23 (a0 : (pcfg23 (F := F)).Adm) (hok : GatherOk23 a0) (Vin : Dev nD → Valuation τ sig (Elt F)) (c : Dev nD) :
    BodyObligation (dat23 a0 Vin c) (defs₀ (F := F)) 𝒱₀ () Set.univ := fun t => by
  rw [bigSep_W23, bigSep_W23]
  exact sound_body23 a0 hok Vin c t

/-! ## From the blocks to the arrays -/

/-- The value array after the region: as entered. -/
theorem arrAt23_in (a0 : (pcfg23 (F := F)).Adm) (Vin : Dev nD → Valuation τ sig (Elt F)) (c : Dev nD) :
    (dat23 a0 Vin c).arrAt 0 (cfg23 a0).N = Vr Vin c main_v150 :=
  ((dat23 a0 Vin c).arrAt_in 0 rfl _).trans (A_eq23 a0 Vin c 0)

/-- Every index of the result array is in some point's block: row `e`, lane `d` is element `(e % 8, d)` of the block
    of point `e / 8`. -/
theorem regOutCover23 (a0 : (pcfg23 (F := F)).Adm) (i : S131072x128.Idx) :
    ∃ t : Fin (cfg23 a0).N, ((cfg23 a0).win 1).flush t = true ∧ i ∈ (((cfg23 a0).win 1).blk t).view.set := by
  have hi0 : (i 0).val < 131072 := (i 0).isLt
  have hi1 : (i 1).val < 128 := (i 1).isLt
  have hN : (i 0).val / 8 < grid23.N := by rw [N_23]; omega
  obtain ⟨t, ht⟩ : ∃ t : Fin (cfg23 a0).N, t.val = (i 0).val / 8 := ⟨⟨_, hN⟩, rfl⟩
  have hx : (((cfg23 a0).win 1).blk t).view.emb (ValueIdx.ix2 ⟨(i 0).val % 8, Nat.mod_lt _ (by decide)⟩ (i 1)) = i := by
    funext a; apply Fin.ext
    have e0 : ((cfg23 a0).win 1).index t (0 : Fin 2) = t.val := congrFun (regOutIndex23 a0 t) (0 : Fin 2)
    have e1 : ((cfg23 a0).win 1).index t (1 : Fin 2) = 0 := congrFun (regOutIndex23 a0 t) (1 : Fin 2)
    match a with
    | ⟨0, _⟩ => show ((cfg23 a0).win 1).index t (0 : Fin 2) * 8 + 1 * ((i 0).val % 8) = (i 0).val; omega
    | ⟨1, _⟩ => show ((cfg23 a0).win 1).index t (1 : Fin 2) * 128 + 1 * (i 1).val = (i 1).val; omega
  exact ⟨t, regOutFlush23 a0 t, hx ▸ (((cfg23 a0).win 1).blk t).view.emb_mem_set _⟩

/-- The result array after the region: the gathered and scaled rows, whole. -/
theorem arrAt23_out (a0 : (pcfg23 (F := F)).Adm) (Vin : Dev nD → Valuation τ sig (Elt F)) (c : Dev nD) :
    (dat23 a0 Vin c).arrAt 1 (cfg23 a0).N = gout23 a0 Vin c :=
  (dat23 a0 Vin c).arrAt_eq_of_cover 1 (gout23 a0 Vin c)
    (fun t _ => by
      show ((cfg23 a0).win 1).cut ((cfg23 a0).grid.coords t) ((dat23 a0 Vin c).after 1 t) = _
      rw [after23_1])
    (regOutCover23 a0)

/-! ## The region as a segment of @main -/

/-- The ownership layout of the kernel's eight semaphores. -/
theorem ownSemFacts23 : Pipeline.OwnSemFacts spec23 osem23 := by decide

/-- The kernel's own cells at zero, listed. -/
theorem ownSemsListed23 (c : Dev nD) :
    (Pipeline.ownSems0 (Ix := Unit) (Name := ℕ) (U := UU nD τ) (Lvl := ℕ) (Val := Elt F) (τ := τ) osem23 c : sProp (MM F)) = sems23 c :=
  Pipeline.ownSems0_eq_of_list c osem23 [0, 1, 2, 3, 4, 5, 6, 7] (by decide) (by decide)

/-- The unscoped buffers that are no window's array, no table, and not the embedding array. -/
abbrev restRefs23 : Finset (Ref sig .tc) :=
  (((Finset.univ.filter fun b : Ref sig .tc => ¬ b.isScoped) \ Finset.univ.image (Pipeline.arrRef spec23)) \ Finset.univ.image pre23.ref) \ {main_v109}

/-- Those buffers, each whole at its contents under `Vin`: what bypasses the region. -/
def Zrest23 (Vin : Dev nD → Valuation τ sig (Elt F)) (c : Dev nD) : sProp (MM F) :=
  bigSep restRefs23 fun b => ((c : Thread nD τ).loc b) ↦{fullShare} Vr Vin c b

/-- The embedding array is an unscoped buffer that is no window's array and no table. -/
theorem embArrMem23 : ({main_v109} : Finset (Ref sig .tc)) ⊆
    ((Finset.univ.filter fun b : Ref sig .tc => ¬ b.isScoped) \ Finset.univ.image (Pipeline.arrRef spec23)) \ Finset.univ.image pre23.ref := by
  decide

/-- The unscoped buffers that are no window's array: the index table, the embedding array, and the rest. -/
theorem unscopedRestOpen23 (Vin : Dev nD → Valuation τ sig (Elt F)) (c : Dev nD) :
    (Pipeline.unscopedRest (Ix := Unit) (Name := ℕ) (U := UU nD τ) (Lvl := ℕ) spec23 c (Vr Vin c) : sProp (MM F))
      = iprop(Pipeline.prefHeld pre23 c (fun _ => fullShare) (fun k => Vr Vin c (pre23.ref k))
          ∗ pt c (Memref.whole main_v109) (Vr Vin c main_v109) ∗ Zrest23 Vin c) := by
  rw [Pipeline.unscopedRest_split preFacts23 c (Vr Vin c)]
  unfold Pipeline.unscopedRestP Zrest23
  rw [BI.bigSep_sdiff_split embArrMem23, BI.bigSep_singleton]
  rfl

/-- The buffer contents when the region is left: the result array at the gathered rows, every other buffer as entered. -/
abbrev Vout23 (a0 : (pcfg23 (F := F)).Adm) (Vin : Dev nD → Valuation τ sig (Elt F)) (c : Dev nD) : Valuation τ sig (Elt F) :=
  Function.update (Vin c) main_v151 (gout23 a0 Vin c)

/-- At the exit each of the region's arrays holds what the pipeline leaves; -/
theorem hF23 (a0 : (pcfg23 (F := F)).Adm) (Vin : Dev nD → Valuation τ sig (Elt F)) (c : Dev nD) (w : Fin (cfg23 a0).W) :
    (dat23 a0 Vin c).arrAt w (cfg23 a0).N = Vr (Vout23 a0 Vin) c (Pipeline.arrRef spec23 w) := by
  match w with
  | ⟨0, _⟩ =>
    show (dat23 a0 Vin c).arrAt 0 (cfg23 a0).N = Vr (Vout23 a0 Vin) c (Pipeline.arrRef spec23 0)
    rw [arrAt23_in]
    exact (Function.update_of_ne (StableHlo.devRef_ne_of_ne (by decide) : (Proc.devRef .tc main_v150 : DevRef τ sig) ≠ Proc.devRef .tc main_v151) _ _).symm
  | ⟨1, _⟩ =>
    show (dat23 a0 Vin c).arrAt 1 (cfg23 a0).N = Vr (Vout23 a0 Vin) c (Pipeline.arrRef spec23 1)
    rw [arrAt23_out]
    exact (Function.update_self (Proc.devRef .tc main_v151 : DevRef τ sig) _ (Vin c)).symm

/-- and every other buffer what it held at entry. -/
theorem hrest23 (a0 : (pcfg23 (F := F)).Adm) (Vin : Dev nD → Valuation τ sig (Elt F)) (c : Dev nD) :
    ∀ b : Ref sig .tc, b ∉ Finset.univ.image (Pipeline.arrRef spec23) → Vr (Vout23 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat23` at the entry valuation `Vin`
    (`hd`), the index table's contents under `Vin` being the pinned ones (`htbl`) and row numbers (`hok`). -/
def reg23 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk23 (F := F) (a (23 : Fin 34)))
    (hd : ∀ c, pdats (23 : Fin 34) c = dat23 (a (23 : Fin 34)) Vin c) (htbl : ∀ c, (a (23 : Fin 34)).1 = fun k => Vr Vin c (pre23.ref k)) :
    Pipeline.RegionSeg (pcfgs (F := F)) a pdats () defs₀ 𝒱₀ L lv (23 : Fin 34) where
  win := (launch23 (F := F)).win.to₀
  block_pos := (launch23 (F := F)).block_pos
  stage_whole := (launch23 (F := F)).stage_whole
  K := Fin 8
  osem := osem23
  ho := ownSemFacts23
  hbody c := by rw [hd c]; exact (body_obligation23 (a (23 : Fin 34)) hok Vin c).loose
  hwaits := Pipeline.hwaits_of_owed_zero _ _ _ _ L lv (23 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v151 (gout23 (a (23 : Fin 34)) Vin c)) ∗ Rest c)
  X c := iprop(pt c (Memref.whole main_v109) (Vr Vin c main_v109) ∗ sems23 c)
  Y c := iprop(pt c (Memref.whole main_v109) (Vr Vin c main_v109)
    ∗ Pipeline.prefHeld (Ix := Unit) (Name := ℕ) (U := UU nD τ) (Lvl := ℕ) pre23 c (fun _ => fullShare) (a (23 : Fin 34)).1)
  Z c := Zrest23 Vin c
  hentry c := by
    rw [ownSemsListed23]
    have hsplit := Pipeline.arrays_of_unscopedBufs (p := (23 : Fin 34)) (pcfgs (F := F)) a pdats (launch23 (F := F)).win (launch23 (F := F)).arr_whole c
      ((pdats (23 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen23 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (23 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq23]; unfold Phi23
    iintro ⟨⟨Hx, Hos⟩, Ht, Hr⟩
    isplitl [Hx]; · iexact Hx
    isplitl [Hos]; · iexact Hos
    isplitl [Ht]; · iexact Ht
    iexact Hr
  hout c := by
    rw [ownSemsListed23, hd c, Phi_eq23]; unfold Phi23
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (23 : Fin 34)) (pcfgs (F := F)) a (Ix := Unit) (Name := ℕ) (U := UU nD τ) (Lvl := ℕ)
      (launch23 (F := F)).win (launch23 (F := F)).arr_whole c pdats ((pdats (23 : Fin 34) c).share_full fun _ => by rw [hd c]; rfl)
      (Vr Vin c) (Vr (Vout23 (a (23 : Fin 34)) Vin) c) ((pdats (23 : Fin 34) c).arrAt · (cfg23 (a (23 : Fin 34))).N)
      (fun w => by rw [hd c]; exact hF23 (a (23 : Fin 34)) Vin c w) (hrest23 (a (23 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen23 Vin c).symm)
      isplitl [Ht]; · rw [← htbl c]; iexact Ht
      isplitl [Hx]; · iexact Hx
      iexact Hz
    unfold Pipeline.Dat.owesAt Pipeline.owesWithin
    rw [show (pdats (23 : Fin 34) c).owed (Fin.last _) = 0 from by rw [hd c]; rfl]
    icases HO with ⟨%W, -, HO⟩; iexists W; iexact HO

end Cert.Kernel.Hand

end
-- ==== Proof.K.GatherDat24.lean ====
/-
  Gather region 24 (custom_call 24): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem24 : Fin 8 → SemLoc sig := fun | 0 => .dma 284 | 1 => .dma 285 | 2 => .dma 286 | 3 => .dma 287 | 4 => .dma 288 | 5 => .dma 289 | 6 => .dma 290 | 7 => .dma 291

/-- The eight counters at zero, as the run finds them and hands them back. -/
abbrev sems24 (c : Dev nD) : sProp (MM F) :=
  iprop(semVal ((c : Thread nD τ), osem24 0) 0 ∗ semVal ((c : Thread nD τ), osem24 1) 0 ∗ semVal ((c : Thread nD τ), osem24 2) 0
    ∗ semVal ((c : Thread nD τ), osem24 3) 0 ∗ semVal ((c : Thread nD τ), osem24 4) 0 ∗ semVal ((c : Thread nD τ), osem24 5) 0
    ∗ semVal ((c : Thread nD τ), osem24 6) 0 ∗ semVal ((c : Thread nD τ), osem24 7) 0)

/-- Word `j` of the eight the index table holds for point `i`, as the kernel's scalar load reads it. -/
def tblWord24 (c : Dev nD) (i : grid24.Coords) (tbl : Bf (F := F) c (Memref.whole main_v152)) (j : Fin 8) : BitVec 32 :=
  (Memref.whole main_v152).view.readAt (Elt F) (Rect.unit (s := S131072) (k24_off1 i (BitVec.ofNat 32 j.val)) S1.size (k24_off1_inb i j)).toLoadRect tbl
    (Shape.Idx.first (s := S1) (numel1_S1.symm ▸ Nat.one_pos))

/-- Window `w`'s block at point `t`, read off its array at the region's entry. -/
def iblk24 (a0 : (pcfg24 (F := F)).Adm) (Vin : Dev nD → Valuation τ sig (Elt F)) (c : Dev nD) (w : Fin (cfg24 a0).W) (t : Fin (cfg24 a0).N) :
    (((cfg24 a0).win w).xblock ((cfg24 a0).grid.coords t)).Idx → Elt F ((cfg24 a0).win w).elt :=
  (((cfg24 a0).win w).blk t).view.read (Elt F) (Vr Vin c (Pipeline.arrRef spec24 w))

/-- The result array the region leaves: the gathered and scaled rows of the embedding array, whole. -/
def gout24 (a0 : (pcfg24 (F := F)).Adm) (Vin : Dev nD → Valuation τ sig (Elt F)) (c : Dev nD) : Buf (Elt F) ((c : Thread nD τ).loc main_v154) :=
  gatherArr (Vr Vin c main_v109) (a0.1 0) (Vr Vin c main_v153)

/-- The invariant between points: the embedding array as entered, the kernel's semaphores at zero, the index table, the
    scoped buffers no window stages (the kernel's scratch among them). -/
def Phi24 (a0 : (pcfg24 (F := F)).Adm) (Vin : Dev nD → Valuation τ sig (Elt F)) (c : Dev nD) : sProp (MM F) :=
  iprop(pt c (Memref.whole main_v109) (Vr Vin c main_v109) ∗ sems24 c
    ∗ Pipeline.prefHeld (Ix := Unit) (Name := ℕ) (U := UU nD τ) (Lvl := ℕ) pre24 c (fun _ => fullShare) a0.1
    ∗ Pipeline.scopedRest (Ix := Unit) (Name := ℕ) (U := UU nD τ) (Lvl := ℕ) (Val := Elt F) spec24 c)

/-- The proof data on core `c`. -/
def dat24 (a0 : (pcfg24 (F := F)).Adm) (Vin : Dev nD → Valuation τ sig (Elt F)) (c : Dev nD) :
    Pipeline.Dat τ (Elt F) Unit ℕ (UU nD τ) ℕ ((pcfg24 (F := F)).at a0) c where
  A w := Vr Vin c (Pipeline.arrRef spec24 w)
  after w t := match w with
    | ⟨0, _⟩ => iblk24 a0 Vin c 0 t
    | ⟨1, _⟩ => (((cfg24 a0).win 1).blk t).view.read (Elt F) (gout24 a0 Vin c)
  Φ _ := Phi24 a0 Vin c
  q _ := fullShare
  owed _ := 0

theorem A_eq24 (a0 : (pcfg24 (F := F)).Adm) (Vin : Dev nD → Valuation τ sig (Elt F)) (c : Dev nD) (w : Fin (cfg24 a0).W) :
    (dat24 a0 Vin c).A w = Vr Vin c (Pipeline.arrRef spec24 w) := by dsimp only [dat24]
theorem after24_0 (a0 : (pcfg24 (F := F)).Adm) (Vin : Dev nD → Valuation τ sig (Elt F)) (c : Dev nD) (t : Fin (cfg24 a0).N) :
    (dat24 a0 Vin c).after 0 t = iblk24 a0 Vin c 0 t := by dsimp only [dat24]; rfl
theorem after24_1 (a0 : (pcfg24 (F := F)).Adm) (Vin : Dev nD → Valuation τ sig (Elt F)) (c : Dev nD) (t : Fin (cfg24 a0).N) :
    (dat24 a0 Vin c).after 1 t = (((cfg24 a0).win 1).blk t).view.read (Elt F) (gout24 a0 Vin c) := by dsimp only [dat24]; rfl
theorem Phi_eq24 (a0 : (pcfg24 (F := F)).Adm) (Vin : Dev nD → Valuation τ sig (Elt F)) (c : Dev nD) (t : Fin ((cfg24 a0).N + 1)) :
    (dat24 a0 Vin c).Φ t = Phi24 a0 Vin c := rfl
theorem owed_eq24 (a0 : (pcfg24 (F := F)).Adm) (Vin : Dev nD → Valuation τ sig (Elt F)) (c : Dev nD) (t : Fin ((cfg24 a0).N + 1)) :
    (dat24 a0 Vin c).owed t = 0 := rfl
theorem q_eq24 (a0 : (pcfg24 (F := F)).Adm) (Vin : Dev nD → Valuation τ sig (Elt F)) (c : Dev nD) (w : Fin (cfg24 a0).W) :
    (dat24 a0 Vin c).q w = fullShare := rfl

/-- The pinned family's configuration at region 24 is this one. -/
example (a : (p : Fin 34) → (pcfgs (F := F) p).Adm) : Pipeline.pin (pcfgs (F := F)) a (24 : Fin 34) = (pcfg24 (F := F)).at (a (24 : Fin 34)) := rfl

end Cert.Kernel.Hand

end
-- ==== Proof.K.GatherBody24.lean ====
/-
  Gather region 24 (custom_call 24): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat24
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk24 (c : Dev nD) (i : grid24.Coords) (tbl : Bf (F := F) c (Memref.whole main_v152)) : Prop where
  h1 : k24_chk1 (tblWord24 c i tbl 0)
  h2 : k24_chk2 (tblWord24 c i tbl 1)
  h3 : k24_chk3 (tblWord24 c i tbl 2)
  h4 : k24_chk4 (tblWord24 c i tbl 3)
  h5 : k24_chk5 (tblWord24 c i tbl 4)
  h6 : k24_chk6 (tblWord24 c i tbl 5)
  h7 : k24_chk7 (tblWord24 c i tbl 6)
  h8 : k24_chk8 (tblWord24 c i tbl 7)

/-- A one-row slice of the embedding array at the row a word names, read at lane `z 1`: the array's element there. -/
theorem rowRead24 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun24 (c : Dev nD) (i : grid24.Coords)
    (M3 : Memref sig .tc .vmem S8x1 .f32) (h3 : M3.IsWhole) (M4 : Memref sig .tc .vmem S8x128 .f32) (h4 : M4.IsWhole)
    (tbl : Bf (F := F) c (Memref.whole main_v152)) (x : Bf (F := F) c (Memref.whole main_v109))
    (vb : Vec F S8x1 .f32) (hchk : GatherChk24 c i tbl) (Q : PUnit → sProp (MM F)) :
    iprop(pt c (Memref.whole main_v152) tbl ∗ pt c (Memref.whole main_v109) x
      ∗ owns (c : Thread nD τ) M3 fullShare vb ∗ (∃ d, owns (c : Thread nD τ) M4 fullShare d)
      ∗ (∃ fs, pt c (Memref.whole cc24_scratch0) fs) ∗ sems24 c ∗ (∃ W, owes (c : Thread nD τ) (0 : CellTallies nD τ sig Unit) W)
      ∗ (iprop(pt c (Memref.whole main_v152) tbl ∗ pt c (Memref.whole main_v109) x
          ∗ owns (c : Thread nD τ) M3 fullShare vb ∗ owns (c : Thread nD τ) M4 fullShare (gatherBlk x (tblWord24 c i tbl) vb)
          ∗ (∃ fs, pt c (Memref.whole cc24_scratch0) fs) ∗ sems24 c ∗ (∃ W, owes (c : Thread nD τ) (0 : CellTallies nD τ sig Unit) W)) -∗ Q ⟨⟩))
    ⊢ wp frame (wpE (defs₀ (F := F)) 𝒱₀ c none) Set.univ
        (cc24__gather_kernel i (Memref.whole main_v152) (Memref.isWhole_whole _) (Memref.whole main_v109) (Memref.isWhole_whole _) M3 h3 M4 h4
          (Memref.whole cc24_scratch0) (Memref.isWhole_whole _) cc24_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 284).1 $$ Hx
  icases Hx' with ⟨Hxr, Hx0, Hx1, Hx2, Hx3, Hx4, Hx5, Hx6, Hx7⟩
  sl_unfold [cc24__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 284).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k24_pay1 gatherBlk
    show FloatOps.mulf _ _ = FloatOps.mulf _ _
    congr 1
    · unfold gatherRun24.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun24.sl.dma8 gatherRun24.sl.dma8_1 gatherRun24.sl.dma8_2 gatherRun24.sl.dma8_3 gatherRun24.sl.dma8_4 gatherRun24.sl.dma8_5
        gatherRun24.sl.dma8_6 gatherRun24.sl.dma8_7 gatherRun24.sl.r gatherRun24.sl.r_1 gatherRun24.sl.r_2 gatherRun24.sl.r_3 gatherRun24.sl.r_4
        gatherRun24.sl.r_5 gatherRun24.sl.r_6 gatherRun24.sl.r_7
      refine canonRows8 _ _ _ _ _ _ _ _ _ _ _ _ _ _ _ _ (fun r d => x (embIdx (rowOf (tblWord24 c i tbl r)) d)) ?_ ?_ ?_ ?_ ?_ ?_ ?_ ?_ y
      · exact fun z => rowRead24 c _ (tblWord24 c i tbl 0) rfl rfl _ _ x z
      · exact fun z => rowRead24 c _ (tblWord24 c i tbl 1) rfl rfl _ _ x z
      · exact fun z => rowRead24 c _ (tblWord24 c i tbl 2) rfl rfl _ _ x z
      · exact fun z => rowRead24 c _ (tblWord24 c i tbl 3) rfl rfl _ _ x z
      · exact fun z => rowRead24 c _ (tblWord24 c i tbl 4) rfl rfl _ _ x z
      · exact fun z => rowRead24 c _ (tblWord24 c i tbl 5) rfl rfl _ _ x z
      · exact fun z => rowRead24 c _ (tblWord24 c i tbl 6) rfl rfl _ _ x z
      · exact fun z => rowRead24 c _ (tblWord24 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk24.lean ====
/-
  Gather region 24 (custom_call 24): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat24
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word24 (i : grid24.Coords) (j : Fin 8) : k24_off1 i (BitVec.ofNat 32 j.val) 0 = (i 0).val * 8 + j.val := by
  have hi : (i 0).val < 16384 := (i 0).isLt
  have hj : j.val < 8 := j.isLt
  unfold k24_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word24 (i : grid24.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord24_eq (c : Dev nD) (i : grid24.Coords) (tbl : Bf (F := F) c (Memref.whole main_v152)) (j : Fin 8)
    (e : Fin 131072) (he : e.val = (i 0).val * 8 + j.val) : tblWord24 c i tbl j = tbl (tblIdx e) := by
  unfold tblWord24
  show tbl _ = tbl _
  refine congrArg tbl ?_
  funext a; apply Fin.ext
  match a with
  | ⟨0, _⟩ =>
    show k24_off1 i (BitVec.ofNat 32 j.val) 0 + 1 * 0 = e.val
    rw [off_word24, he]; omega

/-- Row `j` of the value window's block at point `t` is the value array's row `8 t + j`. -/
theorem valBlk24_eq (a0 : (pcfg24 (F := F)).Adm) (Vin : Dev nD → Valuation τ sig (Elt F)) (c : Dev nD) (t : Fin (cfg24 a0).N)
    (j : Fin 8) (e : Fin 131072) (he : e.val = ((grid24.coords t) 0).val * 8 + j.val) :
    iblk24 a0 Vin c 0 t (colIdx j) = Vr Vin c main_v153 (valIdx e) := by
  unfold iblk24
  show Vr Vin c main_v153 _ = Vr Vin c main_v153 _
  refine congrArg (Vr Vin c main_v153) ?_
  funext a; apply Fin.ext
  match a with
  | ⟨0, _⟩ =>
    show (BitVec.ofNat 32 ((grid24.coords t) 0).val).toNat * 8 + 1 * j.val = e.val
    rw [coord_word24, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk24 (a0 : (pcfg24 (F := F)).Adm) (Vin : Dev nD → Valuation τ sig (Elt F)) (c : Dev nD) (t : Fin (cfg24 a0).N) :
    gatherBlk (Vr Vin c main_v109) (tblWord24 c (grid24.coords t) (a0.1 0)) (iblk24 a0 Vin c 0 t)
      = (((cfg24 a0).win 1).blk t).view.read (Elt F) (gout24 a0 Vin c) := by
  funext y
  show gatherBlk _ _ _ y = gout24 a0 Vin c ((((cfg24 a0).win 1).blk t).view.emb y)
  unfold gatherBlk gout24 gatherArr
  have e0 : ((((cfg24 a0).win 1).blk t).view.emb y (0 : Fin 2)).val = ((grid24.coords t) 0).val * 8 + (y 0).val := by
    show (BitVec.ofNat 32 ((grid24.coords t) 0).val).toNat * 8 + 1 * (y 0).val = _
    rw [coord_word24]; omega
  have e1 : (((cfg24 a0).win 1).blk t).view.emb y (1 : Fin 2) = y 1 := Fin.ext (by
    show (0#32 : BitVec 32).toNat * 128 + 1 * (y 1).val = (y 1).val
    show 0 * 128 + 1 * (y 1).val = (y 1).val
    omega)
  rw [tblWord24_eq c (grid24.coords t) (a0.1 0) (y 0) _ e0, valBlk24_eq a0 Vin c t (y 0) _ e0, e1]

end Cert.Kernel.Hand

end
-- ==== Proof.K.GatherRegion24.lean ====
/-
  Gather region 24 (custom_call 24): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody24
import proofs.«414509_j14181982011419_2_alg».proof.Proof.K.GatherBlk24
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk24 (a0 : (pcfg24 (F := F)).Adm) : Prop := ∀ e : S131072.Idx, (a0.1 0 e).toNat < 100000

/-! ## The grid and the result window's blocks -/

/-- On the one-axis grid a point's coordinate is its number. -/
theorem regCoords24 (t : Fin grid24.N) : (grid24.coords t 0).val = t.val := by
  have ht : t.val < 16384 := N_24 ▸ t.isLt
  show t.val / grid24.stride 0 % grid24.bound 0 = t.val
  rw [show grid24.stride 0 = 1 from by decide, show grid24.bound 0 = 16384 from rfl, Nat.div_one, Nat.mod_eq_of_lt ht]

/-- A point's number as the 32-bit word the index maps compute with. -/
theorem regWord24 (t : Fin grid24.N) : (BitVec.ofNat 32 (grid24.coords t 0).val).toNat = t.val := by
  have ht : t.val < 16384 := N_24 ▸ t.isLt
  rw [BitVec.toNat_ofNat, regCoords24]; omega

/-- The result window's block at point `t` is block `t` along the rows, at zero along the lanes. -/
theorem regOutIndex24 (a0 : (pcfg24 (F := F)).Adm) (t : Fin (cfg24 a0).N) : ((cfg24 a0).win 1).index t = ![t.val, 0] := by
  show cc24_transform_2 (grid24.coords t) = _
  unfold cc24_transform_2
  funext a; fin_cases a
  · exact regWord24 t
  · rfl

/-- The result window is written back at every point: consecutive points have different blocks. -/
theorem regOutFlush24 (a0 : (pcfg24 (F := F)).Adm) (t : Fin (cfg24 a0).N) : ((cfg24 a0).win 1).flush t = true := by
  have htN : t.val < 16384 := N_24 ▸ t.isLt
  rw [Pipeline.Window.flush_out _ rfl]
  by_cases h : t.val + 1 = 16384
  · exact Or.inl (show t.val + 1 = grid24.N by rw [N_24]; exact h)
  · have hlt : t.val + 1 < grid24.N := by rw [N_24]; omega
    refine Or.inr ⟨hlt, fun e => ?_⟩
    have e' : (![t.val + 1, 0] : Fin 2 → ℕ) = ![t.val, 0] := (regOutIndex24 a0 ⟨t.val + 1, hlt⟩).symm.trans (e.trans (regOutIndex24 a0 t))
    have e0 := congrFun e' 0
    simp at e0

/-- The index table, held as the pipeline's one prefetched table. -/
theorem prefHeldEq24 (a0 : (pcfg24 (F := F)).Adm) (c : Dev nD) :
    (Pipeline.prefHeld (Ix := Unit) (Name := ℕ) (U := UU nD τ) (Lvl := ℕ) pre24 c (fun _ => fullShare) a0.1 : sProp (MM F))
      = pt c (Memref.whole main_v152) (a0.1 0) := by
  unfold Pipeline.prefHeld
  rw [show (Finset.univ : Finset (Fin pre24.K)) = {0} from rfl, BI.bigSep_singleton]
  rfl

/-- The value window's staging buffer holds its block at every point. -/
theorem beforeVal24 (a0 : (pcfg24 (F := F)).Adm) (Vin : Dev nD → Valuation τ sig (Elt F)) (c : Dev nD) (t : Fin (cfg24 a0).N) (d) :
    (dat24 a0 Vin c).before 0 t d = iblk24 a0 Vin c 0 t :=
  ((dat24 a0 Vin c).before_in_eq_fetched 0 rfl (fun _ => rfl) (fun _ _ _ => rfl)
    (fun t => by rw [after24_0]; unfold Dat.blockOf iblk24; rw [A_eq24]; try rfl) t d).trans
    (by unfold Dat.fetched Dat.blockOf iblk24; rw [A_eq24]; try rfl)

/-! ## The kernel's checks, from the table's range -/

/-- Each of the point's eight words is a word of the table, so a row number. -/
theorem tblWordLt24 (a0 : (pcfg24 (F := F)).Adm) (hok : GatherOk24 a0) (c : Dev nD) (i : grid24.Coords) (j : Fin 8) :
    (tblWord24 c i (a0.1 0) j).toNat < 100000 := by
  unfold tblWord24
  exact hok _

/-- So the kernel's eight checks hold at every point. -/
theorem gatherChk24 (a0 : (pcfg24 (F := F)).Adm) (hok : GatherOk24 a0) (c : Dev nD) (i : grid24.Coords) : GatherChk24 c i (a0.1 0) :=
  ⟨⟨chkRow _ (tblWordLt24 a0 hok c i 0), chkRow _ (tblWordLt24 a0 hok c i 0)⟩,
   ⟨chkRow _ (tblWordLt24 a0 hok c i 1), chkRow _ (tblWordLt24 a0 hok c i 1)⟩,
   ⟨chkRow _ (tblWordLt24 a0 hok c i 2), chkRow _ (tblWordLt24 a0 hok c i 2)⟩,
   ⟨chkRow _ (tblWordLt24 a0 hok c i 3), chkRow _ (tblWordLt24 a0 hok c i 3)⟩,
   ⟨chkRow _ (tblWordLt24 a0 hok c i 4), chkRow _ (tblWordLt24 a0 hok c i 4)⟩,
   ⟨chkRow _ (tblWordLt24 a0 hok c i 5), chkRow _ (tblWordLt24 a0 hok c i 5)⟩,
   ⟨chkRow _ (tblWordLt24 a0 hok c i 6), chkRow _ (tblWordLt24 a0 hok c i 6)⟩,
   chkRow _ (tblWordLt24 a0 hok c i 7)⟩

/-! ## The body obligation, at a generic point -/

/-- What the body is called with at point `t`: the invariant, the core's dues, each window's current staging memref at
    what the pipeline left there, -/
def bodyPre24 (a0 : (pcfg24 (F := F)).Adm) (Vin : Dev nD → Valuation τ sig (Elt F)) (c : Dev nD) (t : Fin (cfg24 a0).N) : sProp (MM F) :=
  iprop((dat24 a0 Vin c).Φ t.castSucc ∗ (dat24 a0 Vin c).owesAt () t.castSucc
    ∗ (∃ d, owns (c : Thread nD τ) (((cfg24 a0).win 0).stage ((cfg24 a0).slots t 0)) fullShare ((dat24 a0 Vin c).before 0 t d))
    ∗ (∃ d, owns (c : Thread nD τ) (((cfg24 a0).win 1).stage ((cfg24 a0).slots t 1)) fullShare ((dat24 a0 Vin c).before 1 t d)))

/-- and what it returns. -/
def bodyPost24 (a0 : (pcfg24 (F := F)).Adm) (Vin : Dev nD → Valuation τ sig (Elt F)) (c : Dev nD) (t : Fin (cfg24 a0).N) : sProp (MM F) :=
  iprop((dat24 a0 Vin c).Φ t.succ ∗ (dat24 a0 Vin c).owesAt () t.succ
    ∗ owns (c : Thread nD τ) (((cfg24 a0).win 0).stage ((cfg24 a0).slots t 0)) fullShare ((dat24 a0 Vin c).after 0 t)
    ∗ owns (c : Thread nD τ) (((cfg24 a0).win 1).stage ((cfg24 a0).slots t 1)) fullShare ((dat24 a0 Vin c).after 1 t))

/-- The body at any point: the invariant opened into the embedding array, the semaphores, the table and the scratch;
    the value window's memref at its block; the checks from the table's range; so the kernel's run applies, and what it
    leaves in the result window's memref is the point's block of the gathered array. -/
theorem sound_body24 (a0 : (pcfg24 (F := F)).Adm) (hok : GatherOk24 a0) (Vin : Dev nD → Valuation τ sig (Elt F)) (c : Dev nD) (t : Fin (cfg24 a0).N) :
    bodyPre24 a0 Vin c t ⊢ wp frame (wpE (defs₀ (F := F)) 𝒱₀ c none) Set.univ
      (defs₀ .tc (cfg24 a0).body ((cfg24 a0).bodyArgs t ((cfg24 a0).slots t))) (fun _ => bodyPost24 a0 Vin c t) := by
  unfold bodyPre24 bodyPost24
  simp only [beforeVal24]
  rw [Phi_eq24, Phi_eq24, after24_0, after24_1, ← gatherBlk_blk24]
  unfold Phi24 Pipeline.Dat.owesAt Pipeline.owesWithin
  rw [owed_eq24, owed_eq24, prefHeldEq24, scopedRest24_split]
  iintro ⟨⟨Hx, Hos, Ht, ⟨%fs, Hs⟩, Hsb⟩, ⟨%W, %hW, HO⟩, ⟨%d0, H0⟩, ⟨%d1, H1⟩⟩
  iapply (gatherRun24 c (grid24.coords t) _ _ _ _ (a0.1 0) (Vr Vin c main_v109) (iblk24 a0 Vin c 0 t) (gatherChk24 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation24 (a0 : (pcfg24 (F := F)).Adm) (hok : GatherOk24 a0) (Vin : Dev nD → Valuation τ sig (Elt F)) (c : Dev nD) :
    BodyObligation (dat24 a0 Vin c) (defs₀ (F := F)) 𝒱₀ () Set.univ := fun t => by
  rw [bigSep_W24, bigSep_W24]
  exact sound_body24 a0 hok Vin c t

/-! ## From the blocks to the arrays -/

/-- The value array after the region: as entered. -/
theorem arrAt24_in (a0 : (pcfg24 (F := F)).Adm) (Vin : Dev nD → Valuation τ sig (Elt F)) (c : Dev nD) :
    (dat24 a0 Vin c).arrAt 0 (cfg24 a0).N = Vr Vin c main_v153 :=
  ((dat24 a0 Vin c).arrAt_in 0 rfl _).trans (A_eq24 a0 Vin c 0)

/-- Every index of the result array is in some point's block: row `e`, lane `d` is element `(e % 8, d)` of the block
    of point `e / 8`. -/
theorem regOutCover24 (a0 : (pcfg24 (F := F)).Adm) (i : S131072x128.Idx) :
    ∃ t : Fin (cfg24 a0).N, ((cfg24 a0).win 1).flush t = true ∧ i ∈ (((cfg24 a0).win 1).blk t).view.set := by
  have hi0 : (i 0).val < 131072 := (i 0).isLt
  have hi1 : (i 1).val < 128 := (i 1).isLt
  have hN : (i 0).val / 8 < grid24.N := by rw [N_24]; omega
  obtain ⟨t, ht⟩ : ∃ t : Fin (cfg24 a0).N, t.val = (i 0).val / 8 := ⟨⟨_, hN⟩, rfl⟩
  have hx : (((cfg24 a0).win 1).blk t).view.emb (ValueIdx.ix2 ⟨(i 0).val % 8, Nat.mod_lt _ (by decide)⟩ (i 1)) = i := by
    funext a; apply Fin.ext
    have e0 : ((cfg24 a0).win 1).index t (0 : Fin 2) = t.val := congrFun (regOutIndex24 a0 t) (0 : Fin 2)
    have e1 : ((cfg24 a0).win 1).index t (1 : Fin 2) = 0 := congrFun (regOutIndex24 a0 t) (1 : Fin 2)
    match a with
    | ⟨0, _⟩ => show ((cfg24 a0).win 1).index t (0 : Fin 2) * 8 + 1 * ((i 0).val % 8) = (i 0).val; omega
    | ⟨1, _⟩ => show ((cfg24 a0).win 1).index t (1 : Fin 2) * 128 + 1 * (i 1).val = (i 1).val; omega
  exact ⟨t, regOutFlush24 a0 t, hx ▸ (((cfg24 a0).win 1).blk t).view.emb_mem_set _⟩

/-- The result array after the region: the gathered and scaled rows, whole. -/
theorem arrAt24_out (a0 : (pcfg24 (F := F)).Adm) (Vin : Dev nD → Valuation τ sig (Elt F)) (c : Dev nD) :
    (dat24 a0 Vin c).arrAt 1 (cfg24 a0).N = gout24 a0 Vin c :=
  (dat24 a0 Vin c).arrAt_eq_of_cover 1 (gout24 a0 Vin c)
    (fun t _ => by
      show ((cfg24 a0).win 1).cut ((cfg24 a0).grid.coords t) ((dat24 a0 Vin c).after 1 t) = _
      rw [after24_1])
    (regOutCover24 a0)

/-! ## The region as a segment of @main -/

/-- The ownership layout of the kernel's eight semaphores. -/
theorem ownSemFacts24 : Pipeline.OwnSemFacts spec24 osem24 := by decide

/-- The kernel's own cells at zero, listed. -/
theorem ownSemsListed24 (c : Dev nD) :
    (Pipeline.ownSems0 (Ix := Unit) (Name := ℕ) (U := UU nD τ) (Lvl := ℕ) (Val := Elt F) (τ := τ) osem24 c : sProp (MM F)) = sems24 c :=
  Pipeline.ownSems0_eq_of_list c osem24 [0, 1, 2, 3, 4, 5, 6, 7] (by decide) (by decide)

/-- The unscoped buffers that are no window's array, no table, and not the embedding array. -/
abbrev restRefs24 : Finset (Ref sig .tc) :=
  (((Finset.univ.filter fun b : Ref sig .tc => ¬ b.isScoped) \ Finset.univ.image (Pipeline.arrRef spec24)) \ Finset.univ.image pre24.ref) \ {main_v109}

/-- Those buffers, each whole at its contents under `Vin`: what bypasses the region. -/
def Zrest24 (Vin : Dev nD → Valuation τ sig (Elt F)) (c : Dev nD) : sProp (MM F) :=
  bigSep restRefs24 fun b => ((c : Thread nD τ).loc b) ↦{fullShare} Vr Vin c b

/-- The embedding array is an unscoped buffer that is no window's array and no table. -/
theorem embArrMem24 : ({main_v109} : Finset (Ref sig .tc)) ⊆
    ((Finset.univ.filter fun b : Ref sig .tc => ¬ b.isScoped) \ Finset.univ.image (Pipeline.arrRef spec24)) \ Finset.univ.image pre24.ref := by
  decide

/-- The unscoped buffers that are no window's array: the index table, the embedding array, and the rest. -/
theorem unscopedRestOpen24 (Vin : Dev nD → Valuation τ sig (Elt F)) (c : Dev nD) :
    (Pipeline.unscopedRest (Ix := Unit) (Name := ℕ) (U := UU nD τ) (Lvl := ℕ) spec24 c (Vr Vin c) : sProp (MM F))
      = iprop(Pipeline.prefHeld pre24 c (fun _ => fullShare) (fun k => Vr Vin c (pre24.ref k))
          ∗ pt c (Memref.whole main_v109) (Vr Vin c main_v109) ∗ Zrest24 Vin c) := by
  rw [Pipeline.unscopedRest_split preFacts24 c (Vr Vin c)]
  unfold Pipeline.unscopedRestP Zrest24
  rw [BI.bigSep_sdiff_split embArrMem24, BI.bigSep_singleton]
  rfl

/-- The buffer contents when the region is left: the result array at the gathered rows, every other buffer as entered. -/
abbrev Vout24 (a0 : (pcfg24 (F := F)).Adm) (Vin : Dev nD → Valuation τ sig (Elt F)) (c : Dev nD) : Valuation τ sig (Elt F) :=
  Function.update (Vin c) main_v154 (gout24 a0 Vin c)

/-- At the exit each of the region's arrays holds what the pipeline leaves; -/
theorem hF24 (a0 : (pcfg24 (F := F)).Adm) (Vin : Dev nD → Valuation τ sig (Elt F)) (c : Dev nD) (w : Fin (cfg24 a0).W) :
    (dat24 a0 Vin c).arrAt w (cfg24 a0).N = Vr (Vout24 a0 Vin) c (Pipeline.arrRef spec24 w) := by
  match w with
  | ⟨0, _⟩ =>
    show (dat24 a0 Vin c).arrAt 0 (cfg24 a0).N = Vr (Vout24 a0 Vin) c (Pipeline.arrRef spec24 0)
    rw [arrAt24_in]
    exact (Function.update_of_ne (StableHlo.devRef_ne_of_ne (by decide) : (Proc.devRef .tc main_v153 : DevRef τ sig) ≠ Proc.devRef .tc main_v154) _ _).symm
  | ⟨1, _⟩ =>
    show (dat24 a0 Vin c).arrAt 1 (cfg24 a0).N = Vr (Vout24 a0 Vin) c (Pipeline.arrRef spec24 1)
    rw [arrAt24_out]
    exact (Function.update_self (Proc.devRef .tc main_v154 : DevRef τ sig) _ (Vin c)).symm

/-- and every other buffer what it held at entry. -/
theorem hrest24 (a0 : (pcfg24 (F := F)).Adm) (Vin : Dev nD → Valuation τ sig (Elt F)) (c : Dev nD) :
    ∀ b : Ref sig .tc, b ∉ Finset.univ.image (Pipeline.arrRef spec24) → Vr (Vout24 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat24` at the entry valuation `Vin`
    (`hd`), the index table's contents under `Vin` being the pinned ones (`htbl`) and row numbers (`hok`). -/
def reg24 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk24 (F := F) (a (24 : Fin 34)))
    (hd : ∀ c, pdats (24 : Fin 34) c = dat24 (a (24 : Fin 34)) Vin c) (htbl : ∀ c, (a (24 : Fin 34)).1 = fun k => Vr Vin c (pre24.ref k)) :
    Pipeline.RegionSeg (pcfgs (F := F)) a pdats () defs₀ 𝒱₀ L lv (24 : Fin 34) where
  win := (launch24 (F := F)).win.to₀
  block_pos := (launch24 (F := F)).block_pos
  stage_whole := (launch24 (F := F)).stage_whole
  K := Fin 8
  osem := osem24
  ho := ownSemFacts24
  hbody c := by rw [hd c]; exact (body_obligation24 (a (24 : Fin 34)) hok Vin c).loose
  hwaits := Pipeline.hwaits_of_owed_zero _ _ _ _ L lv (24 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v154 (gout24 (a (24 : Fin 34)) Vin c)) ∗ Rest c)
  X c := iprop(pt c (Memref.whole main_v109) (Vr Vin c main_v109) ∗ sems24 c)
  Y c := iprop(pt c (Memref.whole main_v109) (Vr Vin c main_v109)
    ∗ Pipeline.prefHeld (Ix := Unit) (Name := ℕ) (U := UU nD τ) (Lvl := ℕ) pre24 c (fun _ => fullShare) (a (24 : Fin 34)).1)
  Z c := Zrest24 Vin c
  hentry c := by
    rw [ownSemsListed24]
    have hsplit := Pipeline.arrays_of_unscopedBufs (p := (24 : Fin 34)) (pcfgs (F := F)) a pdats (launch24 (F := F)).win (launch24 (F := F)).arr_whole c
      ((pdats (24 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen24 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (24 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq24]; unfold Phi24
    iintro ⟨⟨Hx, Hos⟩, Ht, Hr⟩
    isplitl [Hx]; · iexact Hx
    isplitl [Hos]; · iexact Hos
    isplitl [Ht]; · iexact Ht
    iexact Hr
  hout c := by
    rw [ownSemsListed24, hd c, Phi_eq24]; unfold Phi24
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (24 : Fin 34)) (pcfgs (F := F)) a (Ix := Unit) (Name := ℕ) (U := UU nD τ) (Lvl := ℕ)
      (launch24 (F := F)).win (launch24 (F := F)).arr_whole c pdats ((pdats (24 : Fin 34) c).share_full fun _ => by rw [hd c]; rfl)
      (Vr Vin c) (Vr (Vout24 (a (24 : Fin 34)) Vin) c) ((pdats (24 : Fin 34) c).arrAt · (cfg24 (a (24 : Fin 34))).N)
      (fun w => by rw [hd c]; exact hF24 (a (24 : Fin 34)) Vin c w) (hrest24 (a (24 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen24 Vin c).symm)
      isplitl [Ht]; · rw [← htbl c]; iexact Ht
      isplitl [Hx]; · iexact Hx
      iexact Hz
    unfold Pipeline.Dat.owesAt Pipeline.owesWithin
    rw [show (pdats (24 : Fin 34) c).owed (Fin.last _) = 0 from by rw [hd c]; rfl]
    icases HO with ⟨%W, -, HO⟩; iexists W; iexact HO

end Cert.Kernel.Hand

end
-- ==== Proof.K.GatherDat25.lean ====
/-
  Gather region 25 (custom_call 25): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem25 : Fin 8 → SemLoc sig := fun | 0 => .dma 296 | 1 => .dma 297 | 2 => .dma 298 | 3 => .dma 299 | 4 => .dma 300 | 5 => .dma 301 | 6 => .dma 302 | 7 => .dma 303

/-- The eight counters at zero, as the run finds them and hands them back. -/
abbrev sems25 (c : Dev nD) : sProp (MM F) :=
  iprop(semVal ((c : Thread nD τ), osem25 0) 0 ∗ semVal ((c : Thread nD τ), osem25 1) 0 ∗ semVal ((c : Thread nD τ), osem25 2) 0
    ∗ semVal ((c : Thread nD τ), osem25 3) 0 ∗ semVal ((c : Thread nD τ), osem25 4) 0 ∗ semVal ((c : Thread nD τ), osem25 5) 0
    ∗ semVal ((c : Thread nD τ), osem25 6) 0 ∗ semVal ((c : Thread nD τ), osem25 7) 0)

/-- Word `j` of the eight the index table holds for point `i`, as the kernel's scalar load reads it. -/
def tblWord25 (c : Dev nD) (i : grid25.Coords) (tbl : Bf (F := F) c (Memref.whole main_v169)) (j : Fin 8) : BitVec 32 :=
  (Memref.whole main_v169).view.readAt (Elt F) (Rect.unit (s := S131072) (k25_off1 i (BitVec.ofNat 32 j.val)) S1.size (k25_off1_inb i j)).toLoadRect tbl
    (Shape.Idx.first (s := S1) (numel1_S1.symm ▸ Nat.one_pos))

/-- Window `w`'s block at point `t`, read off its array at the region's entry. -/
def iblk25 (a0 : (pcfg25 (F := F)).Adm) (Vin : Dev nD → Valuation τ sig (Elt F)) (c : Dev nD) (w : Fin (cfg25 a0).W) (t : Fin (cfg25 a0).N) :
    (((cfg25 a0).win w).xblock ((cfg25 a0).grid.coords t)).Idx → Elt F ((cfg25 a0).win w).elt :=
  (((cfg25 a0).win w).blk t).view.read (Elt F) (Vr Vin c (Pipeline.arrRef spec25 w))

/-- The result array the region leaves: the gathered and scaled rows of the embedding array, whole. -/
def gout25 (a0 : (pcfg25 (F := F)).Adm) (Vin : Dev nD → Valuation τ sig (Elt F)) (c : Dev nD) : Buf (Elt F) ((c : Thread nD τ).loc main_v171) :=
  gatherArr (Vr Vin c main_v109) (a0.1 0) (Vr Vin c main_v170)

/-- The invariant between points: the embedding array as entered, the kernel's semaphores at zero, the index table, the
    scoped buffers no window stages (the kernel's scratch among them). -/
def Phi25 (a0 : (pcfg25 (F := F)).Adm) (Vin : Dev nD → Valuation τ sig (Elt F)) (c : Dev nD) : sProp (MM F) :=
  iprop(pt c (Memref.whole main_v109) (Vr Vin c main_v109) ∗ sems25 c
    ∗ Pipeline.prefHeld (Ix := Unit) (Name := ℕ) (U := UU nD τ) (Lvl := ℕ) pre25 c (fun _ => fullShare) a0.1
    ∗ Pipeline.scopedRest (Ix := Unit) (Name := ℕ) (U := UU nD τ) (Lvl := ℕ) (Val := Elt F) spec25 c)

/-- The proof data on core `c`. -/
def dat25 (a0 : (pcfg25 (F := F)).Adm) (Vin : Dev nD → Valuation τ sig (Elt F)) (c : Dev nD) :
    Pipeline.Dat τ (Elt F) Unit ℕ (UU nD τ) ℕ ((pcfg25 (F := F)).at a0) c where
  A w := Vr Vin c (Pipeline.arrRef spec25 w)
  after w t := match w with
    | ⟨0, _⟩ => iblk25 a0 Vin c 0 t
    | ⟨1, _⟩ => (((cfg25 a0).win 1).blk t).view.read (Elt F) (gout25 a0 Vin c)
  Φ _ := Phi25 a0 Vin c
  q _ := fullShare
  owed _ := 0

theorem A_eq25 (a0 : (pcfg25 (F := F)).Adm) (Vin : Dev nD → Valuation τ sig (Elt F)) (c : Dev nD) (w : Fin (cfg25 a0).W) :
    (dat25 a0 Vin c).A w = Vr Vin c (Pipeline.arrRef spec25 w) := by dsimp only [dat25]
theorem after25_0 (a0 : (pcfg25 (F := F)).Adm) (Vin : Dev nD → Valuation τ sig (Elt F)) (c : Dev nD) (t : Fin (cfg25 a0).N) :
    (dat25 a0 Vin c).after 0 t = iblk25 a0 Vin c 0 t := by dsimp only [dat25]; rfl
theorem after25_1 (a0 : (pcfg25 (F := F)).Adm) (Vin : Dev nD → Valuation τ sig (Elt F)) (c : Dev nD) (t : Fin (cfg25 a0).N) :
    (dat25 a0 Vin c).after 1 t = (((cfg25 a0).win 1).blk t).view.read (Elt F) (gout25 a0 Vin c) := by dsimp only [dat25]; rfl
theorem Phi_eq25 (a0 : (pcfg25 (F := F)).Adm) (Vin : Dev nD → Valuation τ sig (Elt F)) (c : Dev nD) (t : Fin ((cfg25 a0).N + 1)) :
    (dat25 a0 Vin c).Φ t = Phi25 a0 Vin c := rfl
theorem owed_eq25 (a0 : (pcfg25 (F := F)).Adm) (Vin : Dev nD → Valuation τ sig (Elt F)) (c : Dev nD) (t : Fin ((cfg25 a0).N + 1)) :
    (dat25 a0 Vin c).owed t = 0 := rfl
theorem q_eq25 (a0 : (pcfg25 (F := F)).Adm) (Vin : Dev nD → Valuation τ sig (Elt F)) (c : Dev nD) (w : Fin (cfg25 a0).W) :
    (dat25 a0 Vin c).q w = fullShare := rfl

/-- The pinned family's configuration at region 25 is this one. -/
example (a : (p : Fin 34) → (pcfgs (F := F) p).Adm) : Pipeline.pin (pcfgs (F := F)) a (25 : Fin 34) = (pcfg25 (F := F)).at (a (25 : Fin 34)) := rfl

end Cert.Kernel.Hand

end
-- ==== Proof.K.GatherBody25.lean ====
/-
  Gather region 25 (custom_call 25): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat25
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk25 (c : Dev nD) (i : grid25.Coords) (tbl : Bf (F := F) c (Memref.whole main_v169)) : Prop where
  h1 : k25_chk1 (tblWord25 c i tbl 0)
  h2 : k25_chk2 (tblWord25 c i tbl 1)
  h3 : k25_chk3 (tblWord25 c i tbl 2)
  h4 : k25_chk4 (tblWord25 c i tbl 3)
  h5 : k25_chk5 (tblWord25 c i tbl 4)
  h6 : k25_chk6 (tblWord25 c i tbl 5)
  h7 : k25_chk7 (tblWord25 c i tbl 6)
  h8 : k25_chk8 (tblWord25 c i tbl 7)

/-- A one-row slice of the embedding array at the row a word names, read at lane `z 1`: the array's element there. -/
theorem rowRead25 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun25 (c : Dev nD) (i : grid25.Coords)
    (M3 : Memref sig .tc .vmem S8x1 .f32) (h3 : M3.IsWhole) (M4 : Memref sig .tc .vmem S8x128 .f32) (h4 : M4.IsWhole)
    (tbl : Bf (F := F) c (Memref.whole main_v169)) (x : Bf (F := F) c (Memref.whole main_v109))
    (vb : Vec F S8x1 .f32) (hchk : GatherChk25 c i tbl) (Q : PUnit → sProp (MM F)) :
    iprop(pt c (Memref.whole main_v169) tbl ∗ pt c (Memref.whole main_v109) x
      ∗ owns (c : Thread nD τ) M3 fullShare vb ∗ (∃ d, owns (c : Thread nD τ) M4 fullShare d)
      ∗ (∃ fs, pt c (Memref.whole cc25_scratch0) fs) ∗ sems25 c ∗ (∃ W, owes (c : Thread nD τ) (0 : CellTallies nD τ sig Unit) W)
      ∗ (iprop(pt c (Memref.whole main_v169) tbl ∗ pt c (Memref.whole main_v109) x
          ∗ owns (c : Thread nD τ) M3 fullShare vb ∗ owns (c : Thread nD τ) M4 fullShare (gatherBlk x (tblWord25 c i tbl) vb)
          ∗ (∃ fs, pt c (Memref.whole cc25_scratch0) fs) ∗ sems25 c ∗ (∃ W, owes (c : Thread nD τ) (0 : CellTallies nD τ sig Unit) W)) -∗ Q ⟨⟩))
    ⊢ wp frame (wpE (defs₀ (F := F)) 𝒱₀ c none) Set.univ
        (cc25__gather_kernel i (Memref.whole main_v169) (Memref.isWhole_whole _) (Memref.whole main_v109) (Memref.isWhole_whole _) M3 h3 M4 h4
          (Memref.whole cc25_scratch0) (Memref.isWhole_whole _) cc25_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 296).1 $$ Hx
  icases Hx' with ⟨Hxr, Hx0, Hx1, Hx2, Hx3, Hx4, Hx5, Hx6, Hx7⟩
  sl_unfold [cc25__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 296).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k25_pay1 gatherBlk
    show FloatOps.mulf _ _ = FloatOps.mulf _ _
    congr 1
    · unfold gatherRun25.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun25.sl.dma8 gatherRun25.sl.dma8_1 gatherRun25.sl.dma8_2 gatherRun25.sl.dma8_3 gatherRun25.sl.dma8_4 gatherRun25.sl.dma8_5
        gatherRun25.sl.dma8_6 gatherRun25.sl.dma8_7 gatherRun25.sl.r gatherRun25.sl.r_1 gatherRun25.sl.r_2 gatherRun25.sl.r_3 gatherRun25.sl.r_4
        gatherRun25.sl.r_5 gatherRun25.sl.r_6 gatherRun25.sl.r_7
      refine canonRows8 _ _ _ _ _ _ _ _ _ _ _ _ _ _ _ _ (fun r d => x (embIdx (rowOf (tblWord25 c i tbl r)) d)) ?_ ?_ ?_ ?_ ?_ ?_ ?_ ?_ y
      · exact fun z => rowRead25 c _ (tblWord25 c i tbl 0) rfl rfl _ _ x z
      · exact fun z => rowRead25 c _ (tblWord25 c i tbl 1) rfl rfl _ _ x z
      · exact fun z => rowRead25 c _ (tblWord25 c i tbl 2) rfl rfl _ _ x z
      · exact fun z => rowRead25 c _ (tblWord25 c i tbl 3) rfl rfl _ _ x z
      · exact fun z => rowRead25 c _ (tblWord25 c i tbl 4) rfl rfl _ _ x z
      · exact fun z => rowRead25 c _ (tblWord25 c i tbl 5) rfl rfl _ _ x z
      · exact fun z => rowRead25 c _ (tblWord25 c i tbl 6) rfl rfl _ _ x z
      · exact fun z => rowRead25 c _ (tblWord25 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk25.lean ====
/-
  Gather region 25 (custom_call 25): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat25
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word25 (i : grid25.Coords) (j : Fin 8) : k25_off1 i (BitVec.ofNat 32 j.val) 0 = (i 0).val * 8 + j.val := by
  have hi : (i 0).val < 16384 := (i 0).isLt
  have hj : j.val < 8 := j.isLt
  unfold k25_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word25 (i : grid25.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord25_eq (c : Dev nD) (i : grid25.Coords) (tbl : Bf (F := F) c (Memref.whole main_v169)) (j : Fin 8)
    (e : Fin 131072) (he : e.val = (i 0).val * 8 + j.val) : tblWord25 c i tbl j = tbl (tblIdx e) := by
  unfold tblWord25
  show tbl _ = tbl _
  refine congrArg tbl ?_
  funext a; apply Fin.ext
  match a with
  | ⟨0, _⟩ =>
    show k25_off1 i (BitVec.ofNat 32 j.val) 0 + 1 * 0 = e.val
    rw [off_word25, he]; omega

/-- Row `j` of the value window's block at point `t` is the value array's row `8 t + j`. -/
theorem valBlk25_eq (a0 : (pcfg25 (F := F)).Adm) (Vin : Dev nD → Valuation τ sig (Elt F)) (c : Dev nD) (t : Fin (cfg25 a0).N)
    (j : Fin 8) (e : Fin 131072) (he : e.val = ((grid25.coords t) 0).val * 8 + j.val) :
    iblk25 a0 Vin c 0 t (colIdx j) = Vr Vin c main_v170 (valIdx e) := by
  unfold iblk25
  show Vr Vin c main_v170 _ = Vr Vin c main_v170 _
  refine congrArg (Vr Vin c main_v170) ?_
  funext a; apply Fin.ext
  match a with
  | ⟨0, _⟩ =>
    show (BitVec.ofNat 32 ((grid25.coords t) 0).val).toNat * 8 + 1 * j.val = e.val
    rw [coord_word25, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk25 (a0 : (pcfg25 (F := F)).Adm) (Vin : Dev nD → Valuation τ sig (Elt F)) (c : Dev nD) (t : Fin (cfg25 a0).N) :
    gatherBlk (Vr Vin c main_v109) (tblWord25 c (grid25.coords t) (a0.1 0)) (iblk25 a0 Vin c 0 t)
      = (((cfg25 a0).win 1).blk t).view.read (Elt F) (gout25 a0 Vin c) := by
  funext y
  show gatherBlk _ _ _ y = gout25 a0 Vin c ((((cfg25 a0).win 1).blk t).view.emb y)
  unfold gatherBlk gout25 gatherArr
  have e0 : ((((cfg25 a0).win 1).blk t).view.emb y (0 : Fin 2)).val = ((grid25.coords t) 0).val * 8 + (y 0).val := by
    show (BitVec.ofNat 32 ((grid25.coords t) 0).val).toNat * 8 + 1 * (y 0).val = _
    rw [coord_word25]; omega
  have e1 : (((cfg25 a0).win 1).blk t).view.emb y (1 : Fin 2) = y 1 := Fin.ext (by
    show (0#32 : BitVec 32).toNat * 128 + 1 * (y 1).val = (y 1).val
    show 0 * 128 + 1 * (y 1).val = (y 1).val
    omega)
  rw [tblWord25_eq c (grid25.coords t) (a0.1 0) (y 0) _ e0, valBlk25_eq a0 Vin c t (y 0) _ e0, e1]

end Cert.Kernel.Hand

end
-- ==== Proof.K.GatherRegion25.lean ====
/-
  Gather region 25 (custom_call 25): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody25
import proofs.«414509_j14181982011419_2_alg».proof.Proof.K.GatherBlk25
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk25 (a0 : (pcfg25 (F := F)).Adm) : Prop := ∀ e : S131072.Idx, (a0.1 0 e).toNat < 100000

/-! ## The grid and the result window's blocks -/

/-- On the one-axis grid a point's coordinate is its number. -/
theorem regCoords25 (t : Fin grid25.N) : (grid25.coords t 0).val = t.val := by
  have ht : t.val < 16384 := N_25 ▸ t.isLt
  show t.val / grid25.stride 0 % grid25.bound 0 = t.val
  rw [show grid25.stride 0 = 1 from by decide, show grid25.bound 0 = 16384 from rfl, Nat.div_one, Nat.mod_eq_of_lt ht]

/-- A point's number as the 32-bit word the index maps compute with. -/
theorem regWord25 (t : Fin grid25.N) : (BitVec.ofNat 32 (grid25.coords t 0).val).toNat = t.val := by
  have ht : t.val < 16384 := N_25 ▸ t.isLt
  rw [BitVec.toNat_ofNat, regCoords25]; omega

/-- The result window's block at point `t` is block `t` along the rows, at zero along the lanes. -/
theorem regOutIndex25 (a0 : (pcfg25 (F := F)).Adm) (t : Fin (cfg25 a0).N) : ((cfg25 a0).win 1).index t = ![t.val, 0] := by
  show cc25_transform_2 (grid25.coords t) = _
  unfold cc25_transform_2
  funext a; fin_cases a
  · exact regWord25 t
  · rfl

/-- The result window is written back at every point: consecutive points have different blocks. -/
theorem regOutFlush25 (a0 : (pcfg25 (F := F)).Adm) (t : Fin (cfg25 a0).N) : ((cfg25 a0).win 1).flush t = true := by
  have htN : t.val < 16384 := N_25 ▸ t.isLt
  rw [Pipeline.Window.flush_out _ rfl]
  by_cases h : t.val + 1 = 16384
  · exact Or.inl (show t.val + 1 = grid25.N by rw [N_25]; exact h)
  · have hlt : t.val + 1 < grid25.N := by rw [N_25]; omega
    refine Or.inr ⟨hlt, fun e => ?_⟩
    have e' : (![t.val + 1, 0] : Fin 2 → ℕ) = ![t.val, 0] := (regOutIndex25 a0 ⟨t.val + 1, hlt⟩).symm.trans (e.trans (regOutIndex25 a0 t))
    have e0 := congrFun e' 0
    simp at e0

/-- The index table, held as the pipeline's one prefetched table. -/
theorem prefHeldEq25 (a0 : (pcfg25 (F := F)).Adm) (c : Dev nD) :
    (Pipeline.prefHeld (Ix := Unit) (Name := ℕ) (U := UU nD τ) (Lvl := ℕ) pre25 c (fun _ => fullShare) a0.1 : sProp (MM F))
      = pt c (Memref.whole main_v169) (a0.1 0) := by
  unfold Pipeline.prefHeld
  rw [show (Finset.univ : Finset (Fin pre25.K)) = {0} from rfl, BI.bigSep_singleton]
  rfl

/-- The value window's staging buffer holds its block at every point. -/
theorem beforeVal25 (a0 : (pcfg25 (F := F)).Adm) (Vin : Dev nD → Valuation τ sig (Elt F)) (c : Dev nD) (t : Fin (cfg25 a0).N) (d) :
    (dat25 a0 Vin c).before 0 t d = iblk25 a0 Vin c 0 t :=
  ((dat25 a0 Vin c).before_in_eq_fetched 0 rfl (fun _ => rfl) (fun _ _ _ => rfl)
    (fun t => by rw [after25_0]; unfold Dat.blockOf iblk25; rw [A_eq25]; try rfl) t d).trans
    (by unfold Dat.fetched Dat.blockOf iblk25; rw [A_eq25]; try rfl)

/-! ## The kernel's checks, from the table's range -/

/-- Each of the point's eight words is a word of the table, so a row number. -/
theorem tblWordLt25 (a0 : (pcfg25 (F := F)).Adm) (hok : GatherOk25 a0) (c : Dev nD) (i : grid25.Coords) (j : Fin 8) :
    (tblWord25 c i (a0.1 0) j).toNat < 100000 := by
  unfold tblWord25
  exact hok _

/-- So the kernel's eight checks hold at every point. -/
theorem gatherChk25 (a0 : (pcfg25 (F := F)).Adm) (hok : GatherOk25 a0) (c : Dev nD) (i : grid25.Coords) : GatherChk25 c i (a0.1 0) :=
  ⟨⟨chkRow _ (tblWordLt25 a0 hok c i 0), chkRow _ (tblWordLt25 a0 hok c i 0)⟩,
   ⟨chkRow _ (tblWordLt25 a0 hok c i 1), chkRow _ (tblWordLt25 a0 hok c i 1)⟩,
   ⟨chkRow _ (tblWordLt25 a0 hok c i 2), chkRow _ (tblWordLt25 a0 hok c i 2)⟩,
   ⟨chkRow _ (tblWordLt25 a0 hok c i 3), chkRow _ (tblWordLt25 a0 hok c i 3)⟩,
   ⟨chkRow _ (tblWordLt25 a0 hok c i 4), chkRow _ (tblWordLt25 a0 hok c i 4)⟩,
   ⟨chkRow _ (tblWordLt25 a0 hok c i 5), chkRow _ (tblWordLt25 a0 hok c i 5)⟩,
   ⟨chkRow _ (tblWordLt25 a0 hok c i 6), chkRow _ (tblWordLt25 a0 hok c i 6)⟩,
   chkRow _ (tblWordLt25 a0 hok c i 7)⟩

/-! ## The body obligation, at a generic point -/

/-- What the body is called with at point `t`: the invariant, the core's dues, each window's current staging memref at
    what the pipeline left there, -/
def bodyPre25 (a0 : (pcfg25 (F := F)).Adm) (Vin : Dev nD → Valuation τ sig (Elt F)) (c : Dev nD) (t : Fin (cfg25 a0).N) : sProp (MM F) :=
  iprop((dat25 a0 Vin c).Φ t.castSucc ∗ (dat25 a0 Vin c).owesAt () t.castSucc
    ∗ (∃ d, owns (c : Thread nD τ) (((cfg25 a0).win 0).stage ((cfg25 a0).slots t 0)) fullShare ((dat25 a0 Vin c).before 0 t d))
    ∗ (∃ d, owns (c : Thread nD τ) (((cfg25 a0).win 1).stage ((cfg25 a0).slots t 1)) fullShare ((dat25 a0 Vin c).before 1 t d)))

/-- and what it returns. -/
def bodyPost25 (a0 : (pcfg25 (F := F)).Adm) (Vin : Dev nD → Valuation τ sig (Elt F)) (c : Dev nD) (t : Fin (cfg25 a0).N) : sProp (MM F) :=
  iprop((dat25 a0 Vin c).Φ t.succ ∗ (dat25 a0 Vin c).owesAt () t.succ
    ∗ owns (c : Thread nD τ) (((cfg25 a0).win 0).stage ((cfg25 a0).slots t 0)) fullShare ((dat25 a0 Vin c).after 0 t)
    ∗ owns (c : Thread nD τ) (((cfg25 a0).win 1).stage ((cfg25 a0).slots t 1)) fullShare ((dat25 a0 Vin c).after 1 t))

/-- The body at any point: the invariant opened into the embedding array, the semaphores, the table and the scratch;
    the value window's memref at its block; the checks from the table's range; so the kernel's run applies, and what it
    leaves in the result window's memref is the point's block of the gathered array. -/
theorem sound_body25 (a0 : (pcfg25 (F := F)).Adm) (hok : GatherOk25 a0) (Vin : Dev nD → Valuation τ sig (Elt F)) (c : Dev nD) (t : Fin (cfg25 a0).N) :
    bodyPre25 a0 Vin c t ⊢ wp frame (wpE (defs₀ (F := F)) 𝒱₀ c none) Set.univ
      (defs₀ .tc (cfg25 a0).body ((cfg25 a0).bodyArgs t ((cfg25 a0).slots t))) (fun _ => bodyPost25 a0 Vin c t) := by
  unfold bodyPre25 bodyPost25
  simp only [beforeVal25]
  rw [Phi_eq25, Phi_eq25, after25_0, after25_1, ← gatherBlk_blk25]
  unfold Phi25 Pipeline.Dat.owesAt Pipeline.owesWithin
  rw [owed_eq25, owed_eq25, prefHeldEq25, scopedRest25_split]
  iintro ⟨⟨Hx, Hos, Ht, ⟨%fs, Hs⟩, Hsb⟩, ⟨%W, %hW, HO⟩, ⟨%d0, H0⟩, ⟨%d1, H1⟩⟩
  iapply (gatherRun25 c (grid25.coords t) _ _ _ _ (a0.1 0) (Vr Vin c main_v109) (iblk25 a0 Vin c 0 t) (gatherChk25 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation25 (a0 : (pcfg25 (F := F)).Adm) (hok : GatherOk25 a0) (Vin : Dev nD → Valuation τ sig (Elt F)) (c : Dev nD) :
    BodyObligation (dat25 a0 Vin c) (defs₀ (F := F)) 𝒱₀ () Set.univ := fun t => by
  rw [bigSep_W25, bigSep_W25]
  exact sound_body25 a0 hok Vin c t

/-! ## From the blocks to the arrays -/

/-- The value array after the region: as entered. -/
theorem arrAt25_in (a0 : (pcfg25 (F := F)).Adm) (Vin : Dev nD → Valuation τ sig (Elt F)) (c : Dev nD) :
    (dat25 a0 Vin c).arrAt 0 (cfg25 a0).N = Vr Vin c main_v170 :=
  ((dat25 a0 Vin c).arrAt_in 0 rfl _).trans (A_eq25 a0 Vin c 0)

/-- Every index of the result array is in some point's block: row `e`, lane `d` is element `(e % 8, d)` of the block
    of point `e / 8`. -/
theorem regOutCover25 (a0 : (pcfg25 (F := F)).Adm) (i : S131072x128.Idx) :
    ∃ t : Fin (cfg25 a0).N, ((cfg25 a0).win 1).flush t = true ∧ i ∈ (((cfg25 a0).win 1).blk t).view.set := by
  have hi0 : (i 0).val < 131072 := (i 0).isLt
  have hi1 : (i 1).val < 128 := (i 1).isLt
  have hN : (i 0).val / 8 < grid25.N := by rw [N_25]; omega
  obtain ⟨t, ht⟩ : ∃ t : Fin (cfg25 a0).N, t.val = (i 0).val / 8 := ⟨⟨_, hN⟩, rfl⟩
  have hx : (((cfg25 a0).win 1).blk t).view.emb (ValueIdx.ix2 ⟨(i 0).val % 8, Nat.mod_lt _ (by decide)⟩ (i 1)) = i := by
    funext a; apply Fin.ext
    have e0 : ((cfg25 a0).win 1).index t (0 : Fin 2) = t.val := congrFun (regOutIndex25 a0 t) (0 : Fin 2)
    have e1 : ((cfg25 a0).win 1).index t (1 : Fin 2) = 0 := congrFun (regOutIndex25 a0 t) (1 : Fin 2)
    match a with
    | ⟨0, _⟩ => show ((cfg25 a0).win 1).index t (0 : Fin 2) * 8 + 1 * ((i 0).val % 8) = (i 0).val; omega
    | ⟨1, _⟩ => show ((cfg25 a0).win 1).index t (1 : Fin 2) * 128 + 1 * (i 1).val = (i 1).val; omega
  exact ⟨t, regOutFlush25 a0 t, hx ▸ (((cfg25 a0).win 1).blk t).view.emb_mem_set _⟩

/-- The result array after the region: the gathered and scaled rows, whole. -/
theorem arrAt25_out (a0 : (pcfg25 (F := F)).Adm) (Vin : Dev nD → Valuation τ sig (Elt F)) (c : Dev nD) :
    (dat25 a0 Vin c).arrAt 1 (cfg25 a0).N = gout25 a0 Vin c :=
  (dat25 a0 Vin c).arrAt_eq_of_cover 1 (gout25 a0 Vin c)
    (fun t _ => by
      show ((cfg25 a0).win 1).cut ((cfg25 a0).grid.coords t) ((dat25 a0 Vin c).after 1 t) = _
      rw [after25_1])
    (regOutCover25 a0)

/-! ## The region as a segment of @main -/

/-- The ownership layout of the kernel's eight semaphores. -/
theorem ownSemFacts25 : Pipeline.OwnSemFacts spec25 osem25 := by decide

/-- The kernel's own cells at zero, listed. -/
theorem ownSemsListed25 (c : Dev nD) :
    (Pipeline.ownSems0 (Ix := Unit) (Name := ℕ) (U := UU nD τ) (Lvl := ℕ) (Val := Elt F) (τ := τ) osem25 c : sProp (MM F)) = sems25 c :=
  Pipeline.ownSems0_eq_of_list c osem25 [0, 1, 2, 3, 4, 5, 6, 7] (by decide) (by decide)

/-- The unscoped buffers that are no window's array, no table, and not the embedding array. -/
abbrev restRefs25 : Finset (Ref sig .tc) :=
  (((Finset.univ.filter fun b : Ref sig .tc => ¬ b.isScoped) \ Finset.univ.image (Pipeline.arrRef spec25)) \ Finset.univ.image pre25.ref) \ {main_v109}

/-- Those buffers, each whole at its contents under `Vin`: what bypasses the region. -/
def Zrest25 (Vin : Dev nD → Valuation τ sig (Elt F)) (c : Dev nD) : sProp (MM F) :=
  bigSep restRefs25 fun b => ((c : Thread nD τ).loc b) ↦{fullShare} Vr Vin c b

/-- The embedding array is an unscoped buffer that is no window's array and no table. -/
theorem embArrMem25 : ({main_v109} : Finset (Ref sig .tc)) ⊆
    ((Finset.univ.filter fun b : Ref sig .tc => ¬ b.isScoped) \ Finset.univ.image (Pipeline.arrRef spec25)) \ Finset.univ.image pre25.ref := by
  decide

/-- The unscoped buffers that are no window's array: the index table, the embedding array, and the rest. -/
theorem unscopedRestOpen25 (Vin : Dev nD → Valuation τ sig (Elt F)) (c : Dev nD) :
    (Pipeline.unscopedRest (Ix := Unit) (Name := ℕ) (U := UU nD τ) (Lvl := ℕ) spec25 c (Vr Vin c) : sProp (MM F))
      = iprop(Pipeline.prefHeld pre25 c (fun _ => fullShare) (fun k => Vr Vin c (pre25.ref k))
          ∗ pt c (Memref.whole main_v109) (Vr Vin c main_v109) ∗ Zrest25 Vin c) := by
  rw [Pipeline.unscopedRest_split preFacts25 c (Vr Vin c)]
  unfold Pipeline.unscopedRestP Zrest25
  rw [BI.bigSep_sdiff_split embArrMem25, BI.bigSep_singleton]
  rfl

/-- The buffer contents when the region is left: the result array at the gathered rows, every other buffer as entered. -/
abbrev Vout25 (a0 : (pcfg25 (F := F)).Adm) (Vin : Dev nD → Valuation τ sig (Elt F)) (c : Dev nD) : Valuation τ sig (Elt F) :=
  Function.update (Vin c) main_v171 (gout25 a0 Vin c)

/-- At the exit each of the region's arrays holds what the pipeline leaves; -/
theorem hF25 (a0 : (pcfg25 (F := F)).Adm) (Vin : Dev nD → Valuation τ sig (Elt F)) (c : Dev nD) (w : Fin (cfg25 a0).W) :
    (dat25 a0 Vin c).arrAt w (cfg25 a0).N = Vr (Vout25 a0 Vin) c (Pipeline.arrRef spec25 w) := by
  match w with
  | ⟨0, _⟩ =>
    show (dat25 a0 Vin c).arrAt 0 (cfg25 a0).N = Vr (Vout25 a0 Vin) c (Pipeline.arrRef spec25 0)
    rw [arrAt25_in]
    exact (Function.update_of_ne (StableHlo.devRef_ne_of_ne (by decide) : (Proc.devRef .tc main_v170 : DevRef τ sig) ≠ Proc.devRef .tc main_v171) _ _).symm
  | ⟨1, _⟩ =>
    show (dat25 a0 Vin c).arrAt 1 (cfg25 a0).N = Vr (Vout25 a0 Vin) c (Pipeline.arrRef spec25 1)
    rw [arrAt25_out]
    exact (Function.update_self (Proc.devRef .tc main_v171 : DevRef τ sig) _ (Vin c)).symm

/-- and every other buffer what it held at entry. -/
theorem hrest25 (a0 : (pcfg25 (F := F)).Adm) (Vin : Dev nD → Valuation τ sig (Elt F)) (c : Dev nD) :
    ∀ b : Ref sig .tc, b ∉ Finset.univ.image (Pipeline.arrRef spec25) → Vr (Vout25 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat25` at the entry valuation `Vin`
    (`hd`), the index table's contents under `Vin` being the pinned ones (`htbl`) and row numbers (`hok`). -/
def reg25 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk25 (F := F) (a (25 : Fin 34)))
    (hd : ∀ c, pdats (25 : Fin 34) c = dat25 (a (25 : Fin 34)) Vin c) (htbl : ∀ c, (a (25 : Fin 34)).1 = fun k => Vr Vin c (pre25.ref k)) :
    Pipeline.RegionSeg (pcfgs (F := F)) a pdats () defs₀ 𝒱₀ L lv (25 : Fin 34) where
  win := (launch25 (F := F)).win.to₀
  block_pos := (launch25 (F := F)).block_pos
  stage_whole := (launch25 (F := F)).stage_whole
  K := Fin 8
  osem := osem25
  ho := ownSemFacts25
  hbody c := by rw [hd c]; exact (body_obligation25 (a (25 : Fin 34)) hok Vin c).loose
  hwaits := Pipeline.hwaits_of_owed_zero _ _ _ _ L lv (25 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v171 (gout25 (a (25 : Fin 34)) Vin c)) ∗ Rest c)
  X c := iprop(pt c (Memref.whole main_v109) (Vr Vin c main_v109) ∗ sems25 c)
  Y c := iprop(pt c (Memref.whole main_v109) (Vr Vin c main_v109)
    ∗ Pipeline.prefHeld (Ix := Unit) (Name := ℕ) (U := UU nD τ) (Lvl := ℕ) pre25 c (fun _ => fullShare) (a (25 : Fin 34)).1)
  Z c := Zrest25 Vin c
  hentry c := by
    rw [ownSemsListed25]
    have hsplit := Pipeline.arrays_of_unscopedBufs (p := (25 : Fin 34)) (pcfgs (F := F)) a pdats (launch25 (F := F)).win (launch25 (F := F)).arr_whole c
      ((pdats (25 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen25 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (25 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq25]; unfold Phi25
    iintro ⟨⟨Hx, Hos⟩, Ht, Hr⟩
    isplitl [Hx]; · iexact Hx
    isplitl [Hos]; · iexact Hos
    isplitl [Ht]; · iexact Ht
    iexact Hr
  hout c := by
    rw [ownSemsListed25, hd c, Phi_eq25]; unfold Phi25
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (25 : Fin 34)) (pcfgs (F := F)) a (Ix := Unit) (Name := ℕ) (U := UU nD τ) (Lvl := ℕ)
      (launch25 (F := F)).win (launch25 (F := F)).arr_whole c pdats ((pdats (25 : Fin 34) c).share_full fun _ => by rw [hd c]; rfl)
      (Vr Vin c) (Vr (Vout25 (a (25 : Fin 34)) Vin) c) ((pdats (25 : Fin 34) c).arrAt · (cfg25 (a (25 : Fin 34))).N)
      (fun w => by rw [hd c]; exact hF25 (a (25 : Fin 34)) Vin c w) (hrest25 (a (25 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen25 Vin c).symm)
      isplitl [Ht]; · rw [← htbl c]; iexact Ht
      isplitl [Hx]; · iexact Hx
      iexact Hz
    unfold Pipeline.Dat.owesAt Pipeline.owesWithin
    rw [show (pdats (25 : Fin 34) c).owed (Fin.last _) = 0 from by rw [hd c]; rfl]
    icases HO with ⟨%W, -, HO⟩; iexists W; iexact HO

end Cert.Kernel.Hand

end
-- ==== Proof.K.GatherDat26.lean ====
/-
  Gather region 26 (custom_call 26): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem26 : Fin 8 → SemLoc sig := fun | 0 => .dma 308 | 1 => .dma 309 | 2 => .dma 310 | 3 => .dma 311 | 4 => .dma 312 | 5 => .dma 313 | 6 => .dma 314 | 7 => .dma 315

/-- The eight counters at zero, as the run finds them and hands them back. -/
abbrev sems26 (c : Dev nD) : sProp (MM F) :=
  iprop(semVal ((c : Thread nD τ), osem26 0) 0 ∗ semVal ((c : Thread nD τ), osem26 1) 0 ∗ semVal ((c : Thread nD τ), osem26 2) 0
    ∗ semVal ((c : Thread nD τ), osem26 3) 0 ∗ semVal ((c : Thread nD τ), osem26 4) 0 ∗ semVal ((c : Thread nD τ), osem26 5) 0
    ∗ semVal ((c : Thread nD τ), osem26 6) 0 ∗ semVal ((c : Thread nD τ), osem26 7) 0)

/-- Word `j` of the eight the index table holds for point `i`, as the kernel's scalar load reads it. -/
def tblWord26 (c : Dev nD) (i : grid26.Coords) (tbl : Bf (F := F) c (Memref.whole main_v172)) (j : Fin 8) : BitVec 32 :=
  (Memref.whole main_v172).view.readAt (Elt F) (Rect.unit (s := S131072) (k26_off1 i (BitVec.ofNat 32 j.val)) S1.size (k26_off1_inb i j)).toLoadRect tbl
    (Shape.Idx.first (s := S1) (numel1_S1.symm ▸ Nat.one_pos))

/-- Window `w`'s block at point `t`, read off its array at the region's entry. -/
def iblk26 (a0 : (pcfg26 (F := F)).Adm) (Vin : Dev nD → Valuation τ sig (Elt F)) (c : Dev nD) (w : Fin (cfg26 a0).W) (t : Fin (cfg26 a0).N) :
    (((cfg26 a0).win w).xblock ((cfg26 a0).grid.coords t)).Idx → Elt F ((cfg26 a0).win w).elt :=
  (((cfg26 a0).win w).blk t).view.read (Elt F) (Vr Vin c (Pipeline.arrRef spec26 w))

/-- The result array the region leaves: the gathered and scaled rows of the embedding array, whole. -/
def gout26 (a0 : (pcfg26 (F := F)).Adm) (Vin : Dev nD → Valuation τ sig (Elt F)) (c : Dev nD) : Buf (Elt F) ((c : Thread nD τ).loc main_v174) :=
  gatherArr (Vr Vin c main_v109) (a0.1 0) (Vr Vin c main_v173)

/-- The invariant between points: the embedding array as entered, the kernel's semaphores at zero, the index table, the
    scoped buffers no window stages (the kernel's scratch among them). -/
def Phi26 (a0 : (pcfg26 (F := F)).Adm) (Vin : Dev nD → Valuation τ sig (Elt F)) (c : Dev nD) : sProp (MM F) :=
  iprop(pt c (Memref.whole main_v109) (Vr Vin c main_v109) ∗ sems26 c
    ∗ Pipeline.prefHeld (Ix := Unit) (Name := ℕ) (U := UU nD τ) (Lvl := ℕ) pre26 c (fun _ => fullShare) a0.1
    ∗ Pipeline.scopedRest (Ix := Unit) (Name := ℕ) (U := UU nD τ) (Lvl := ℕ) (Val := Elt F) spec26 c)

/-- The proof data on core `c`. -/
def dat26 (a0 : (pcfg26 (F := F)).Adm) (Vin : Dev nD → Valuation τ sig (Elt F)) (c : Dev nD) :
    Pipeline.Dat τ (Elt F) Unit ℕ (UU nD τ) ℕ ((pcfg26 (F := F)).at a0) c where
  A w := Vr Vin c (Pipeline.arrRef spec26 w)
  after w t := match w with
    | ⟨0, _⟩ => iblk26 a0 Vin c 0 t
    | ⟨1, _⟩ => (((cfg26 a0).win 1).blk t).view.read (Elt F) (gout26 a0 Vin c)
  Φ _ := Phi26 a0 Vin c
  q _ := fullShare
  owed _ := 0

theorem A_eq26 (a0 : (pcfg26 (F := F)).Adm) (Vin : Dev nD → Valuation τ sig (Elt F)) (c : Dev nD) (w : Fin (cfg26 a0).W) :
    (dat26 a0 Vin c).A w = Vr Vin c (Pipeline.arrRef spec26 w) := by dsimp only [dat26]
theorem after26_0 (a0 : (pcfg26 (F := F)).Adm) (Vin : Dev nD → Valuation τ sig (Elt F)) (c : Dev nD) (t : Fin (cfg26 a0).N) :
    (dat26 a0 Vin c).after 0 t = iblk26 a0 Vin c 0 t := by dsimp only [dat26]; rfl
theorem after26_1 (a0 : (pcfg26 (F := F)).Adm) (Vin : Dev nD → Valuation τ sig (Elt F)) (c : Dev nD) (t : Fin (cfg26 a0).N) :
    (dat26 a0 Vin c).after 1 t = (((cfg26 a0).win 1).blk t).view.read (Elt F) (gout26 a0 Vin c) := by dsimp only [dat26]; rfl
theorem Phi_eq26 (a0 : (pcfg26 (F := F)).Adm) (Vin : Dev nD → Valuation τ sig (Elt F)) (c : Dev nD) (t : Fin ((cfg26 a0).N + 1)) :
    (dat26 a0 Vin c).Φ t = Phi26 a0 Vin c := rfl
theorem owed_eq26 (a0 : (pcfg26 (F := F)).Adm) (Vin : Dev nD → Valuation τ sig (Elt F)) (c : Dev nD) (t : Fin ((cfg26 a0).N + 1)) :
    (dat26 a0 Vin c).owed t = 0 := rfl
theorem q_eq26 (a0 : (pcfg26 (F := F)).Adm) (Vin : Dev nD → Valuation τ sig (Elt F)) (c : Dev nD) (w : Fin (cfg26 a0).W) :
    (dat26 a0 Vin c).q w = fullShare := rfl

/-- The pinned family's configuration at region 26 is this one. -/
example (a : (p : Fin 34) → (pcfgs (F := F) p).Adm) : Pipeline.pin (pcfgs (F := F)) a (26 : Fin 34) = (pcfg26 (F := F)).at (a (26 : Fin 34)) := rfl

end Cert.Kernel.Hand

end
-- ==== Proof.K.GatherBody26.lean ====
/-
  Gather region 26 (custom_call 26): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat26
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk26 (c : Dev nD) (i : grid26.Coords) (tbl : Bf (F := F) c (Memref.whole main_v172)) : Prop where
  h1 : k26_chk1 (tblWord26 c i tbl 0)
  h2 : k26_chk2 (tblWord26 c i tbl 1)
  h3 : k26_chk3 (tblWord26 c i tbl 2)
  h4 : k26_chk4 (tblWord26 c i tbl 3)
  h5 : k26_chk5 (tblWord26 c i tbl 4)
  h6 : k26_chk6 (tblWord26 c i tbl 5)
  h7 : k26_chk7 (tblWord26 c i tbl 6)
  h8 : k26_chk8 (tblWord26 c i tbl 7)

/-- A one-row slice of the embedding array at the row a word names, read at lane `z 1`: the array's element there. -/
theorem rowRead26 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun26 (c : Dev nD) (i : grid26.Coords)
    (M3 : Memref sig .tc .vmem S8x1 .f32) (h3 : M3.IsWhole) (M4 : Memref sig .tc .vmem S8x128 .f32) (h4 : M4.IsWhole)
    (tbl : Bf (F := F) c (Memref.whole main_v172)) (x : Bf (F := F) c (Memref.whole main_v109))
    (vb : Vec F S8x1 .f32) (hchk : GatherChk26 c i tbl) (Q : PUnit → sProp (MM F)) :
    iprop(pt c (Memref.whole main_v172) tbl ∗ pt c (Memref.whole main_v109) x
      ∗ owns (c : Thread nD τ) M3 fullShare vb ∗ (∃ d, owns (c : Thread nD τ) M4 fullShare d)
      ∗ (∃ fs, pt c (Memref.whole cc26_scratch0) fs) ∗ sems26 c ∗ (∃ W, owes (c : Thread nD τ) (0 : CellTallies nD τ sig Unit) W)
      ∗ (iprop(pt c (Memref.whole main_v172) tbl ∗ pt c (Memref.whole main_v109) x
          ∗ owns (c : Thread nD τ) M3 fullShare vb ∗ owns (c : Thread nD τ) M4 fullShare (gatherBlk x (tblWord26 c i tbl) vb)
          ∗ (∃ fs, pt c (Memref.whole cc26_scratch0) fs) ∗ sems26 c ∗ (∃ W, owes (c : Thread nD τ) (0 : CellTallies nD τ sig Unit) W)) -∗ Q ⟨⟩))
    ⊢ wp frame (wpE (defs₀ (F := F)) 𝒱₀ c none) Set.univ
        (cc26__gather_kernel i (Memref.whole main_v172) (Memref.isWhole_whole _) (Memref.whole main_v109) (Memref.isWhole_whole _) M3 h3 M4 h4
          (Memref.whole cc26_scratch0) (Memref.isWhole_whole _) cc26_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 308).1 $$ Hx
  icases Hx' with ⟨Hxr, Hx0, Hx1, Hx2, Hx3, Hx4, Hx5, Hx6, Hx7⟩
  sl_unfold [cc26__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 308).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k26_pay1 gatherBlk
    show FloatOps.mulf _ _ = FloatOps.mulf _ _
    congr 1
    · unfold gatherRun26.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun26.sl.dma8 gatherRun26.sl.dma8_1 gatherRun26.sl.dma8_2 gatherRun26.sl.dma8_3 gatherRun26.sl.dma8_4 gatherRun26.sl.dma8_5
        gatherRun26.sl.dma8_6 gatherRun26.sl.dma8_7 gatherRun26.sl.r gatherRun26.sl.r_1 gatherRun26.sl.r_2 gatherRun26.sl.r_3 gatherRun26.sl.r_4
        gatherRun26.sl.r_5 gatherRun26.sl.r_6 gatherRun26.sl.r_7
      refine canonRows8 _ _ _ _ _ _ _ _ _ _ _ _ _ _ _ _ (fun r d => x (embIdx (rowOf (tblWord26 c i tbl r)) d)) ?_ ?_ ?_ ?_ ?_ ?_ ?_ ?_ y
      · exact fun z => rowRead26 c _ (tblWord26 c i tbl 0) rfl rfl _ _ x z
      · exact fun z => rowRead26 c _ (tblWord26 c i tbl 1) rfl rfl _ _ x z
      · exact fun z => rowRead26 c _ (tblWord26 c i tbl 2) rfl rfl _ _ x z
      · exact fun z => rowRead26 c _ (tblWord26 c i tbl 3) rfl rfl _ _ x z
      · exact fun z => rowRead26 c _ (tblWord26 c i tbl 4) rfl rfl _ _ x z
      · exact fun z => rowRead26 c _ (tblWord26 c i tbl 5) rfl rfl _ _ x z
      · exact fun z => rowRead26 c _ (tblWord26 c i tbl 6) rfl rfl _ _ x z
      · exact fun z => rowRead26 c _ (tblWord26 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk26.lean ====
/-
  Gather region 26 (custom_call 26): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat26
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word26 (i : grid26.Coords) (j : Fin 8) : k26_off1 i (BitVec.ofNat 32 j.val) 0 = (i 0).val * 8 + j.val := by
  have hi : (i 0).val < 16384 := (i 0).isLt
  have hj : j.val < 8 := j.isLt
  unfold k26_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word26 (i : grid26.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord26_eq (c : Dev nD) (i : grid26.Coords) (tbl : Bf (F := F) c (Memref.whole main_v172)) (j : Fin 8)
    (e : Fin 131072) (he : e.val = (i 0).val * 8 + j.val) : tblWord26 c i tbl j = tbl (tblIdx e) := by
  unfold tblWord26
  show tbl _ = tbl _
  refine congrArg tbl ?_
  funext a; apply Fin.ext
  match a with
  | ⟨0, _⟩ =>
    show k26_off1 i (BitVec.ofNat 32 j.val) 0 + 1 * 0 = e.val
    rw [off_word26, he]; omega

/-- Row `j` of the value window's block at point `t` is the value array's row `8 t + j`. -/
theorem valBlk26_eq (a0 : (pcfg26 (F := F)).Adm) (Vin : Dev nD → Valuation τ sig (Elt F)) (c : Dev nD) (t : Fin (cfg26 a0).N)
    (j : Fin 8) (e : Fin 131072) (he : e.val = ((grid26.coords t) 0).val * 8 + j.val) :
    iblk26 a0 Vin c 0 t (colIdx j) = Vr Vin c main_v173 (valIdx e) := by
  unfold iblk26
  show Vr Vin c main_v173 _ = Vr Vin c main_v173 _
  refine congrArg (Vr Vin c main_v173) ?_
  funext a; apply Fin.ext
  match a with
  | ⟨0, _⟩ =>
    show (BitVec.ofNat 32 ((grid26.coords t) 0).val).toNat * 8 + 1 * j.val = e.val
    rw [coord_word26, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk26 (a0 : (pcfg26 (F := F)).Adm) (Vin : Dev nD → Valuation τ sig (Elt F)) (c : Dev nD) (t : Fin (cfg26 a0).N) :
    gatherBlk (Vr Vin c main_v109) (tblWord26 c (grid26.coords t) (a0.1 0)) (iblk26 a0 Vin c 0 t)
      = (((cfg26 a0).win 1).blk t).view.read (Elt F) (gout26 a0 Vin c) := by
  funext y
  show gatherBlk _ _ _ y = gout26 a0 Vin c ((((cfg26 a0).win 1).blk t).view.emb y)
  unfold gatherBlk gout26 gatherArr
  have e0 : ((((cfg26 a0).win 1).blk t).view.emb y (0 : Fin 2)).val = ((grid26.coords t) 0).val * 8 + (y 0).val := by
    show (BitVec.ofNat 32 ((grid26.coords t) 0).val).toNat * 8 + 1 * (y 0).val = _
    rw [coord_word26]; omega
  have e1 : (((cfg26 a0).win 1).blk t).view.emb y (1 : Fin 2) = y 1 := Fin.ext (by
    show (0#32 : BitVec 32).toNat * 128 + 1 * (y 1).val = (y 1).val
    show 0 * 128 + 1 * (y 1).val = (y 1).val
    omega)
  rw [tblWord26_eq c (grid26.coords t) (a0.1 0) (y 0) _ e0, valBlk26_eq a0 Vin c t (y 0) _ e0, e1]

end Cert.Kernel.Hand

end
-- ==== Proof.K.GatherRegion26.lean ====
/-
  Gather region 26 (custom_call 26): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody26
import proofs.«414509_j14181982011419_2_alg».proof.Proof.K.GatherBlk26
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk26 (a0 : (pcfg26 (F := F)).Adm) : Prop := ∀ e : S131072.Idx, (a0.1 0 e).toNat < 100000

/-! ## The grid and the result window's blocks -/

/-- On the one-axis grid a point's coordinate is its number. -/
theorem regCoords26 (t : Fin grid26.N) : (grid26.coords t 0).val = t.val := by
  have ht : t.val < 16384 := N_26 ▸ t.isLt
  show t.val / grid26.stride 0 % grid26.bound 0 = t.val
  rw [show grid26.stride 0 = 1 from by decide, show grid26.bound 0 = 16384 from rfl, Nat.div_one, Nat.mod_eq_of_lt ht]

/-- A point's number as the 32-bit word the index maps compute with. -/
theorem regWord26 (t : Fin grid26.N) : (BitVec.ofNat 32 (grid26.coords t 0).val).toNat = t.val := by
  have ht : t.val < 16384 := N_26 ▸ t.isLt
  rw [BitVec.toNat_ofNat, regCoords26]; omega

/-- The result window's block at point `t` is block `t` along the rows, at zero along the lanes. -/
theorem regOutIndex26 (a0 : (pcfg26 (F := F)).Adm) (t : Fin (cfg26 a0).N) : ((cfg26 a0).win 1).index t = ![t.val, 0] := by
  show cc26_transform_2 (grid26.coords t) = _
  unfold cc26_transform_2
  funext a; fin_cases a
  · exact regWord26 t
  · rfl

/-- The result window is written back at every point: consecutive points have different blocks. -/
theorem regOutFlush26 (a0 : (pcfg26 (F := F)).Adm) (t : Fin (cfg26 a0).N) : ((cfg26 a0).win 1).flush t = true := by
  have htN : t.val < 16384 := N_26 ▸ t.isLt
  rw [Pipeline.Window.flush_out _ rfl]
  by_cases h : t.val + 1 = 16384
  · exact Or.inl (show t.val + 1 = grid26.N by rw [N_26]; exact h)
  · have hlt : t.val + 1 < grid26.N := by rw [N_26]; omega
    refine Or.inr ⟨hlt, fun e => ?_⟩
    have e' : (![t.val + 1, 0] : Fin 2 → ℕ) = ![t.val, 0] := (regOutIndex26 a0 ⟨t.val + 1, hlt⟩).symm.trans (e.trans (regOutIndex26 a0 t))
    have e0 := congrFun e' 0
    simp at e0

/-- The index table, held as the pipeline's one prefetched table. -/
theorem prefHeldEq26 (a0 : (pcfg26 (F := F)).Adm) (c : Dev nD) :
    (Pipeline.prefHeld (Ix := Unit) (Name := ℕ) (U := UU nD τ) (Lvl := ℕ) pre26 c (fun _ => fullShare) a0.1 : sProp (MM F))
      = pt c (Memref.whole main_v172) (a0.1 0) := by
  unfold Pipeline.prefHeld
  rw [show (Finset.univ : Finset (Fin pre26.K)) = {0} from rfl, BI.bigSep_singleton]
  rfl

/-- The value window's staging buffer holds its block at every point. -/
theorem beforeVal26 (a0 : (pcfg26 (F := F)).Adm) (Vin : Dev nD → Valuation τ sig (Elt F)) (c : Dev nD) (t : Fin (cfg26 a0).N) (d) :
    (dat26 a0 Vin c).before 0 t d = iblk26 a0 Vin c 0 t :=
  ((dat26 a0 Vin c).before_in_eq_fetched 0 rfl (fun _ => rfl) (fun _ _ _ => rfl)
    (fun t => by rw [after26_0]; unfold Dat.blockOf iblk26; rw [A_eq26]; try rfl) t d).trans
    (by unfold Dat.fetched Dat.blockOf iblk26; rw [A_eq26]; try rfl)

/-! ## The kernel's checks, from the table's range -/

/-- Each of the point's eight words is a word of the table, so a row number. -/
theorem tblWordLt26 (a0 : (pcfg26 (F := F)).Adm) (hok : GatherOk26 a0) (c : Dev nD) (i : grid26.Coords) (j : Fin 8) :
    (tblWord26 c i (a0.1 0) j).toNat < 100000 := by
  unfold tblWord26
  exact hok _

/-- So the kernel's eight checks hold at every point. -/
theorem gatherChk26 (a0 : (pcfg26 (F := F)).Adm) (hok : GatherOk26 a0) (c : Dev nD) (i : grid26.Coords) : GatherChk26 c i (a0.1 0) :=
  ⟨⟨chkRow _ (tblWordLt26 a0 hok c i 0), chkRow _ (tblWordLt26 a0 hok c i 0)⟩,
   ⟨chkRow _ (tblWordLt26 a0 hok c i 1), chkRow _ (tblWordLt26 a0 hok c i 1)⟩,
   ⟨chkRow _ (tblWordLt26 a0 hok c i 2), chkRow _ (tblWordLt26 a0 hok c i 2)⟩,
   ⟨chkRow _ (tblWordLt26 a0 hok c i 3), chkRow _ (tblWordLt26 a0 hok c i 3)⟩,
   ⟨chkRow _ (tblWordLt26 a0 hok c i 4), chkRow _ (tblWordLt26 a0 hok c i 4)⟩,
   ⟨chkRow _ (tblWordLt26 a0 hok c i 5), chkRow _ (tblWordLt26 a0 hok c i 5)⟩,
   ⟨chkRow _ (tblWordLt26 a0 hok c i 6), chkRow _ (tblWordLt26 a0 hok c i 6)⟩,
   chkRow _ (tblWordLt26 a0 hok c i 7)⟩

/-! ## The body obligation, at a generic point -/

/-- What the body is called with at point `t`: the invariant, the core's dues, each window's current staging memref at
    what the pipeline left there, -/
def bodyPre26 (a0 : (pcfg26 (F := F)).Adm) (Vin : Dev nD → Valuation τ sig (Elt F)) (c : Dev nD) (t : Fin (cfg26 a0).N) : sProp (MM F) :=
  iprop((dat26 a0 Vin c).Φ t.castSucc ∗ (dat26 a0 Vin c).owesAt () t.castSucc
    ∗ (∃ d, owns (c : Thread nD τ) (((cfg26 a0).win 0).stage ((cfg26 a0).slots t 0)) fullShare ((dat26 a0 Vin c).before 0 t d))
    ∗ (∃ d, owns (c : Thread nD τ) (((cfg26 a0).win 1).stage ((cfg26 a0).slots t 1)) fullShare ((dat26 a0 Vin c).before 1 t d)))

/-- and what it returns. -/
def bodyPost26 (a0 : (pcfg26 (F := F)).Adm) (Vin : Dev nD → Valuation τ sig (Elt F)) (c : Dev nD) (t : Fin (cfg26 a0).N) : sProp (MM F) :=
  iprop((dat26 a0 Vin c).Φ t.succ ∗ (dat26 a0 Vin c).owesAt () t.succ
    ∗ owns (c : Thread nD τ) (((cfg26 a0).win 0).stage ((cfg26 a0).slots t 0)) fullShare ((dat26 a0 Vin c).after 0 t)
    ∗ owns (c : Thread nD τ) (((cfg26 a0).win 1).stage ((cfg26 a0).slots t 1)) fullShare ((dat26 a0 Vin c).after 1 t))

/-- The body at any point: the invariant opened into the embedding array, the semaphores, the table and the scratch;
    the value window's memref at its block; the checks from the table's range; so the kernel's run applies, and what it
    leaves in the result window's memref is the point's block of the gathered array. -/
theorem sound_body26 (a0 : (pcfg26 (F := F)).Adm) (hok : GatherOk26 a0) (Vin : Dev nD → Valuation τ sig (Elt F)) (c : Dev nD) (t : Fin (cfg26 a0).N) :
    bodyPre26 a0 Vin c t ⊢ wp frame (wpE (defs₀ (F := F)) 𝒱₀ c none) Set.univ
      (defs₀ .tc (cfg26 a0).body ((cfg26 a0).bodyArgs t ((cfg26 a0).slots t))) (fun _ => bodyPost26 a0 Vin c t) := by
  unfold bodyPre26 bodyPost26
  simp only [beforeVal26]
  rw [Phi_eq26, Phi_eq26, after26_0, after26_1, ← gatherBlk_blk26]
  unfold Phi26 Pipeline.Dat.owesAt Pipeline.owesWithin
  rw [owed_eq26, owed_eq26, prefHeldEq26, scopedRest26_split]
  iintro ⟨⟨Hx, Hos, Ht, ⟨%fs, Hs⟩, Hsb⟩, ⟨%W, %hW, HO⟩, ⟨%d0, H0⟩, ⟨%d1, H1⟩⟩
  iapply (gatherRun26 c (grid26.coords t) _ _ _ _ (a0.1 0) (Vr Vin c main_v109) (iblk26 a0 Vin c 0 t) (gatherChk26 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation26 (a0 : (pcfg26 (F := F)).Adm) (hok : GatherOk26 a0) (Vin : Dev nD → Valuation τ sig (Elt F)) (c : Dev nD) :
    BodyObligation (dat26 a0 Vin c) (defs₀ (F := F)) 𝒱₀ () Set.univ := fun t => by
  rw [bigSep_W26, bigSep_W26]
  exact sound_body26 a0 hok Vin c t

/-! ## From the blocks to the arrays -/

/-- The value array after the region: as entered. -/
theorem arrAt26_in (a0 : (pcfg26 (F := F)).Adm) (Vin : Dev nD → Valuation τ sig (Elt F)) (c : Dev nD) :
    (dat26 a0 Vin c).arrAt 0 (cfg26 a0).N = Vr Vin c main_v173 :=
  ((dat26 a0 Vin c).arrAt_in 0 rfl _).trans (A_eq26 a0 Vin c 0)

/-- Every index of the result array is in some point's block: row `e`, lane `d` is element `(e % 8, d)` of the block
    of point `e / 8`. -/
theorem regOutCover26 (a0 : (pcfg26 (F := F)).Adm) (i : S131072x128.Idx) :
    ∃ t : Fin (cfg26 a0).N, ((cfg26 a0).win 1).flush t = true ∧ i ∈ (((cfg26 a0).win 1).blk t).view.set := by
  have hi0 : (i 0).val < 131072 := (i 0).isLt
  have hi1 : (i 1).val < 128 := (i 1).isLt
  have hN : (i 0).val / 8 < grid26.N := by rw [N_26]; omega
  obtain ⟨t, ht⟩ : ∃ t : Fin (cfg26 a0).N, t.val = (i 0).val / 8 := ⟨⟨_, hN⟩, rfl⟩
  have hx : (((cfg26 a0).win 1).blk t).view.emb (ValueIdx.ix2 ⟨(i 0).val % 8, Nat.mod_lt _ (by decide)⟩ (i 1)) = i := by
    funext a; apply Fin.ext
    have e0 : ((cfg26 a0).win 1).index t (0 : Fin 2) = t.val := congrFun (regOutIndex26 a0 t) (0 : Fin 2)
    have e1 : ((cfg26 a0).win 1).index t (1 : Fin 2) = 0 := congrFun (regOutIndex26 a0 t) (1 : Fin 2)
    match a with
    | ⟨0, _⟩ => show ((cfg26 a0).win 1).index t (0 : Fin 2) * 8 + 1 * ((i 0).val % 8) = (i 0).val; omega
    | ⟨1, _⟩ => show ((cfg26 a0).win 1).index t (1 : Fin 2) * 128 + 1 * (i 1).val = (i 1).val; omega
  exact ⟨t, regOutFlush26 a0 t, hx ▸ (((cfg26 a0).win 1).blk t).view.emb_mem_set _⟩

/-- The result array after the region: the gathered and scaled rows, whole. -/
theorem arrAt26_out (a0 : (pcfg26 (F := F)).Adm) (Vin : Dev nD → Valuation τ sig (Elt F)) (c : Dev nD) :
    (dat26 a0 Vin c).arrAt 1 (cfg26 a0).N = gout26 a0 Vin c :=
  (dat26 a0 Vin c).arrAt_eq_of_cover 1 (gout26 a0 Vin c)
    (fun t _ => by
      show ((cfg26 a0).win 1).cut ((cfg26 a0).grid.coords t) ((dat26 a0 Vin c).after 1 t) = _
      rw [after26_1])
    (regOutCover26 a0)

/-! ## The region as a segment of @main -/

/-- The ownership layout of the kernel's eight semaphores. -/
theorem ownSemFacts26 : Pipeline.OwnSemFacts spec26 osem26 := by decide

/-- The kernel's own cells at zero, listed. -/
theorem ownSemsListed26 (c : Dev nD) :
    (Pipeline.ownSems0 (Ix := Unit) (Name := ℕ) (U := UU nD τ) (Lvl := ℕ) (Val := Elt F) (τ := τ) osem26 c : sProp (MM F)) = sems26 c :=
  Pipeline.ownSems0_eq_of_list c osem26 [0, 1, 2, 3, 4, 5, 6, 7] (by decide) (by decide)

/-- The unscoped buffers that are no window's array, no table, and not the embedding array. -/
abbrev restRefs26 : Finset (Ref sig .tc) :=
  (((Finset.univ.filter fun b : Ref sig .tc => ¬ b.isScoped) \ Finset.univ.image (Pipeline.arrRef spec26)) \ Finset.univ.image pre26.ref) \ {main_v109}

/-- Those buffers, each whole at its contents under `Vin`: what bypasses the region. -/
def Zrest26 (Vin : Dev nD → Valuation τ sig (Elt F)) (c : Dev nD) : sProp (MM F) :=
  bigSep restRefs26 fun b => ((c : Thread nD τ).loc b) ↦{fullShare} Vr Vin c b

/-- The embedding array is an unscoped buffer that is no window's array and no table. -/
theorem embArrMem26 : ({main_v109} : Finset (Ref sig .tc)) ⊆
    ((Finset.univ.filter fun b : Ref sig .tc => ¬ b.isScoped) \ Finset.univ.image (Pipeline.arrRef spec26)) \ Finset.univ.image pre26.ref := by
  decide

/-- The unscoped buffers that are no window's array: the index table, the embedding array, and the rest. -/
theorem unscopedRestOpen26 (Vin : Dev nD → Valuation τ sig (Elt F)) (c : Dev nD) :
    (Pipeline.unscopedRest (Ix := Unit) (Name := ℕ) (U := UU nD τ) (Lvl := ℕ) spec26 c (Vr Vin c) : sProp (MM F))
      = iprop(Pipeline.prefHeld pre26 c (fun _ => fullShare) (fun k => Vr Vin c (pre26.ref k))
          ∗ pt c (Memref.whole main_v109) (Vr Vin c main_v109) ∗ Zrest26 Vin c) := by
  rw [Pipeline.unscopedRest_split preFacts26 c (Vr Vin c)]
  unfold Pipeline.unscopedRestP Zrest26
  rw [BI.bigSep_sdiff_split embArrMem26, BI.bigSep_singleton]
  rfl

/-- The buffer contents when the region is left: the result array at the gathered rows, every other buffer as entered. -/
abbrev Vout26 (a0 : (pcfg26 (F := F)).Adm) (Vin : Dev nD → Valuation τ sig (Elt F)) (c : Dev nD) : Valuation τ sig (Elt F) :=
  Function.update (Vin c) main_v174 (gout26 a0 Vin c)

/-- At the exit each of the region's arrays holds what the pipeline leaves; -/
theorem hF26 (a0 : (pcfg26 (F := F)).Adm) (Vin : Dev nD → Valuation τ sig (Elt F)) (c : Dev nD) (w : Fin (cfg26 a0).W) :
    (dat26 a0 Vin c).arrAt w (cfg26 a0).N = Vr (Vout26 a0 Vin) c (Pipeline.arrRef spec26 w) := by
  match w with
  | ⟨0, _⟩ =>
    show (dat26 a0 Vin c).arrAt 0 (cfg26 a0).N = Vr (Vout26 a0 Vin) c (Pipeline.arrRef spec26 0)
    rw [arrAt26_in]
    exact (Function.update_of_ne (StableHlo.devRef_ne_of_ne (by decide) : (Proc.devRef .tc main_v173 : DevRef τ sig) ≠ Proc.devRef .tc main_v174) _ _).symm
  | ⟨1, _⟩ =>
    show (dat26 a0 Vin c).arrAt 1 (cfg26 a0).N = Vr (Vout26 a0 Vin) c (Pipeline.arrRef spec26 1)
    rw [arrAt26_out]
    exact (Function.update_self (Proc.devRef .tc main_v174 : DevRef τ sig) _ (Vin c)).symm

/-- and every other buffer what it held at entry. -/
theorem hrest26 (a0 : (pcfg26 (F := F)).Adm) (Vin : Dev nD → Valuation τ sig (Elt F)) (c : Dev nD) :
    ∀ b : Ref sig .tc, b ∉ Finset.univ.image (Pipeline.arrRef spec26) → Vr (Vout26 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat26` at the entry valuation `Vin`
    (`hd`), the index table's contents under `Vin` being the pinned ones (`htbl`) and row numbers (`hok`). -/
def reg26 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk26 (F := F) (a (26 : Fin 34)))
    (hd : ∀ c, pdats (26 : Fin 34) c = dat26 (a (26 : Fin 34)) Vin c) (htbl : ∀ c, (a (26 : Fin 34)).1 = fun k => Vr Vin c (pre26.ref k)) :
    Pipeline.RegionSeg (pcfgs (F := F)) a pdats () defs₀ 𝒱₀ L lv (26 : Fin 34) where
  win := (launch26 (F := F)).win.to₀
  block_pos := (launch26 (F := F)).block_pos
  stage_whole := (launch26 (F := F)).stage_whole
  K := Fin 8
  osem := osem26
  ho := ownSemFacts26
  hbody c := by rw [hd c]; exact (body_obligation26 (a (26 : Fin 34)) hok Vin c).loose
  hwaits := Pipeline.hwaits_of_owed_zero _ _ _ _ L lv (26 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v174 (gout26 (a (26 : Fin 34)) Vin c)) ∗ Rest c)
  X c := iprop(pt c (Memref.whole main_v109) (Vr Vin c main_v109) ∗ sems26 c)
  Y c := iprop(pt c (Memref.whole main_v109) (Vr Vin c main_v109)
    ∗ Pipeline.prefHeld (Ix := Unit) (Name := ℕ) (U := UU nD τ) (Lvl := ℕ) pre26 c (fun _ => fullShare) (a (26 : Fin 34)).1)
  Z c := Zrest26 Vin c
  hentry c := by
    rw [ownSemsListed26]
    have hsplit := Pipeline.arrays_of_unscopedBufs (p := (26 : Fin 34)) (pcfgs (F := F)) a pdats (launch26 (F := F)).win (launch26 (F := F)).arr_whole c
      ((pdats (26 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen26 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (26 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq26]; unfold Phi26
    iintro ⟨⟨Hx, Hos⟩, Ht, Hr⟩
    isplitl [Hx]; · iexact Hx
    isplitl [Hos]; · iexact Hos
    isplitl [Ht]; · iexact Ht
    iexact Hr
  hout c := by
    rw [ownSemsListed26, hd c, Phi_eq26]; unfold Phi26
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (26 : Fin 34)) (pcfgs (F := F)) a (Ix := Unit) (Name := ℕ) (U := UU nD τ) (Lvl := ℕ)
      (launch26 (F := F)).win (launch26 (F := F)).arr_whole c pdats ((pdats (26 : Fin 34) c).share_full fun _ => by rw [hd c]; rfl)
      (Vr Vin c) (Vr (Vout26 (a (26 : Fin 34)) Vin) c) ((pdats (26 : Fin 34) c).arrAt · (cfg26 (a (26 : Fin 34))).N)
      (fun w => by rw [hd c]; exact hF26 (a (26 : Fin 34)) Vin c w) (hrest26 (a (26 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen26 Vin c).symm)
      isplitl [Ht]; · rw [← htbl c]; iexact Ht
      isplitl [Hx]; · iexact Hx
      iexact Hz
    unfold Pipeline.Dat.owesAt Pipeline.owesWithin
    rw [show (pdats (26 : Fin 34) c).owed (Fin.last _) = 0 from by rw [hd c]; rfl]
    icases HO with ⟨%W, -, HO⟩; iexists W; iexact HO

end Cert.Kernel.Hand

end
-- ==== Proof.K.GatherDat27.lean ====
/-
  Gather region 27 (custom_call 27): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem27 : Fin 8 → SemLoc sig := fun | 0 => .dma 320 | 1 => .dma 321 | 2 => .dma 322 | 3 => .dma 323 | 4 => .dma 324 | 5 => .dma 325 | 6 => .dma 326 | 7 => .dma 327

/-- The eight counters at zero, as the run finds them and hands them back. -/
abbrev sems27 (c : Dev nD) : sProp (MM F) :=
  iprop(semVal ((c : Thread nD τ), osem27 0) 0 ∗ semVal ((c : Thread nD τ), osem27 1) 0 ∗ semVal ((c : Thread nD τ), osem27 2) 0
    ∗ semVal ((c : Thread nD τ), osem27 3) 0 ∗ semVal ((c : Thread nD τ), osem27 4) 0 ∗ semVal ((c : Thread nD τ), osem27 5) 0
    ∗ semVal ((c : Thread nD τ), osem27 6) 0 ∗ semVal ((c : Thread nD τ), osem27 7) 0)

/-- Word `j` of the eight the index table holds for point `i`, as the kernel's scalar load reads it. -/
def tblWord27 (c : Dev nD) (i : grid27.Coords) (tbl : Bf (F := F) c (Memref.whole main_v175)) (j : Fin 8) : BitVec 32 :=
  (Memref.whole main_v175).view.readAt (Elt F) (Rect.unit (s := S131072) (k27_off1 i (BitVec.ofNat 32 j.val)) S1.size (k27_off1_inb i j)).toLoadRect tbl
    (Shape.Idx.first (s := S1) (numel1_S1.symm ▸ Nat.one_pos))

/-- Window `w`'s block at point `t`, read off its array at the region's entry. -/
def iblk27 (a0 : (pcfg27 (F := F)).Adm) (Vin : Dev nD → Valuation τ sig (Elt F)) (c : Dev nD) (w : Fin (cfg27 a0).W) (t : Fin (cfg27 a0).N) :
    (((cfg27 a0).win w).xblock ((cfg27 a0).grid.coords t)).Idx → Elt F ((cfg27 a0).win w).elt :=
  (((cfg27 a0).win w).blk t).view.read (Elt F) (Vr Vin c (Pipeline.arrRef spec27 w))

/-- The result array the region leaves: the gathered and scaled rows of the embedding array, whole. -/
def gout27 (a0 : (pcfg27 (F := F)).Adm) (Vin : Dev nD → Valuation τ sig (Elt F)) (c : Dev nD) : Buf (Elt F) ((c : Thread nD τ).loc main_v177) :=
  gatherArr (Vr Vin c main_v109) (a0.1 0) (Vr Vin c main_v176)

/-- The invariant between points: the embedding array as entered, the kernel's semaphores at zero, the index table, the
    scoped buffers no window stages (the kernel's scratch among them). -/
def Phi27 (a0 : (pcfg27 (F := F)).Adm) (Vin : Dev nD → Valuation τ sig (Elt F)) (c : Dev nD) : sProp (MM F) :=
  iprop(pt c (Memref.whole main_v109) (Vr Vin c main_v109) ∗ sems27 c
    ∗ Pipeline.prefHeld (Ix := Unit) (Name := ℕ) (U := UU nD τ) (Lvl := ℕ) pre27 c (fun _ => fullShare) a0.1
    ∗ Pipeline.scopedRest (Ix := Unit) (Name := ℕ) (U := UU nD τ) (Lvl := ℕ) (Val := Elt F) spec27 c)

/-- The proof data on core `c`. -/
def dat27 (a0 : (pcfg27 (F := F)).Adm) (Vin : Dev nD → Valuation τ sig (Elt F)) (c : Dev nD) :
    Pipeline.Dat τ (Elt F) Unit ℕ (UU nD τ) ℕ ((pcfg27 (F := F)).at a0) c where
  A w := Vr Vin c (Pipeline.arrRef spec27 w)
  after w t := match w with
    | ⟨0, _⟩ => iblk27 a0 Vin c 0 t
    | ⟨1, _⟩ => (((cfg27 a0).win 1).blk t).view.read (Elt F) (gout27 a0 Vin c)
  Φ _ := Phi27 a0 Vin c
  q _ := fullShare
  owed _ := 0

theorem A_eq27 (a0 : (pcfg27 (F := F)).Adm) (Vin : Dev nD → Valuation τ sig (Elt F)) (c : Dev nD) (w : Fin (cfg27 a0).W) :
    (dat27 a0 Vin c).A w = Vr Vin c (Pipeline.arrRef spec27 w) := by dsimp only [dat27]
theorem after27_0 (a0 : (pcfg27 (F := F)).Adm) (Vin : Dev nD → Valuation τ sig (Elt F)) (c : Dev nD) (t : Fin (cfg27 a0).N) :
    (dat27 a0 Vin c).after 0 t = iblk27 a0 Vin c 0 t := by dsimp only [dat27]; rfl
theorem after27_1 (a0 : (pcfg27 (F := F)).Adm) (Vin : Dev nD → Valuation τ sig (Elt F)) (c : Dev nD) (t : Fin (cfg27 a0).N) :
    (dat27 a0 Vin c).after 1 t = (((cfg27 a0).win 1).blk t).view.read (Elt F) (gout27 a0 Vin c) := by dsimp only [dat27]; rfl
theorem Phi_eq27 (a0 : (pcfg27 (F := F)).Adm) (Vin : Dev nD → Valuation τ sig (Elt F)) (c : Dev nD) (t : Fin ((cfg27 a0).N + 1)) :
    (dat27 a0 Vin c).Φ t = Phi27 a0 Vin c := rfl
theorem owed_eq27 (a0 : (pcfg27 (F := F)).Adm) (Vin : Dev nD → Valuation τ sig (Elt F)) (c : Dev nD) (t : Fin ((cfg27 a0).N + 1)) :
    (dat27 a0 Vin c).owed t = 0 := rfl
theorem q_eq27 (a0 : (pcfg27 (F := F)).Adm) (Vin : Dev nD → Valuation τ sig (Elt F)) (c : Dev nD) (w : Fin (cfg27 a0).W) :
    (dat27 a0 Vin c).q w = fullShare := rfl

/-- The pinned family's configuration at region 27 is this one. -/
example (a : (p : Fin 34) → (pcfgs (F := F) p).Adm) : Pipeline.pin (pcfgs (F := F)) a (27 : Fin 34) = (pcfg27 (F := F)).at (a (27 : Fin 34)) := rfl

end Cert.Kernel.Hand

end
-- ==== Proof.K.GatherBody27.lean ====
/-
  Gather region 27 (custom_call 27): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat27
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk27 (c : Dev nD) (i : grid27.Coords) (tbl : Bf (F := F) c (Memref.whole main_v175)) : Prop where
  h1 : k27_chk1 (tblWord27 c i tbl 0)
  h2 : k27_chk2 (tblWord27 c i tbl 1)
  h3 : k27_chk3 (tblWord27 c i tbl 2)
  h4 : k27_chk4 (tblWord27 c i tbl 3)
  h5 : k27_chk5 (tblWord27 c i tbl 4)
  h6 : k27_chk6 (tblWord27 c i tbl 5)
  h7 : k27_chk7 (tblWord27 c i tbl 6)
  h8 : k27_chk8 (tblWord27 c i tbl 7)

/-- A one-row slice of the embedding array at the row a word names, read at lane `z 1`: the array's element there. -/
theorem rowRead27 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun27 (c : Dev nD) (i : grid27.Coords)
    (M3 : Memref sig .tc .vmem S8x1 .f32) (h3 : M3.IsWhole) (M4 : Memref sig .tc .vmem S8x128 .f32) (h4 : M4.IsWhole)
    (tbl : Bf (F := F) c (Memref.whole main_v175)) (x : Bf (F := F) c (Memref.whole main_v109))
    (vb : Vec F S8x1 .f32) (hchk : GatherChk27 c i tbl) (Q : PUnit → sProp (MM F)) :
    iprop(pt c (Memref.whole main_v175) tbl ∗ pt c (Memref.whole main_v109) x
      ∗ owns (c : Thread nD τ) M3 fullShare vb ∗ (∃ d, owns (c : Thread nD τ) M4 fullShare d)
      ∗ (∃ fs, pt c (Memref.whole cc27_scratch0) fs) ∗ sems27 c ∗ (∃ W, owes (c : Thread nD τ) (0 : CellTallies nD τ sig Unit) W)
      ∗ (iprop(pt c (Memref.whole main_v175) tbl ∗ pt c (Memref.whole main_v109) x
          ∗ owns (c : Thread nD τ) M3 fullShare vb ∗ owns (c : Thread nD τ) M4 fullShare (gatherBlk x (tblWord27 c i tbl) vb)
          ∗ (∃ fs, pt c (Memref.whole cc27_scratch0) fs) ∗ sems27 c ∗ (∃ W, owes (c : Thread nD τ) (0 : CellTallies nD τ sig Unit) W)) -∗ Q ⟨⟩))
    ⊢ wp frame (wpE (defs₀ (F := F)) 𝒱₀ c none) Set.univ
        (cc27__gather_kernel i (Memref.whole main_v175) (Memref.isWhole_whole _) (Memref.whole main_v109) (Memref.isWhole_whole _) M3 h3 M4 h4
          (Memref.whole cc27_scratch0) (Memref.isWhole_whole _) cc27_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 320).1 $$ Hx
  icases Hx' with ⟨Hxr, Hx0, Hx1, Hx2, Hx3, Hx4, Hx5, Hx6, Hx7⟩
  sl_unfold [cc27__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 320).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k27_pay1 gatherBlk
    show FloatOps.mulf _ _ = FloatOps.mulf _ _
    congr 1
    · unfold gatherRun27.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun27.sl.dma8 gatherRun27.sl.dma8_1 gatherRun27.sl.dma8_2 gatherRun27.sl.dma8_3 gatherRun27.sl.dma8_4 gatherRun27.sl.dma8_5
        gatherRun27.sl.dma8_6 gatherRun27.sl.dma8_7 gatherRun27.sl.r gatherRun27.sl.r_1 gatherRun27.sl.r_2 gatherRun27.sl.r_3 gatherRun27.sl.r_4
        gatherRun27.sl.r_5 gatherRun27.sl.r_6 gatherRun27.sl.r_7
      refine canonRows8 _ _ _ _ _ _ _ _ _ _ _ _ _ _ _ _ (fun r d => x (embIdx (rowOf (tblWord27 c i tbl r)) d)) ?_ ?_ ?_ ?_ ?_ ?_ ?_ ?_ y
      · exact fun z => rowRead27 c _ (tblWord27 c i tbl 0) rfl rfl _ _ x z
      · exact fun z => rowRead27 c _ (tblWord27 c i tbl 1) rfl rfl _ _ x z
      · exact fun z => rowRead27 c _ (tblWord27 c i tbl 2) rfl rfl _ _ x z
      · exact fun z => rowRead27 c _ (tblWord27 c i tbl 3) rfl rfl _ _ x z
      · exact fun z => rowRead27 c _ (tblWord27 c i tbl 4) rfl rfl _ _ x z
      · exact fun z => rowRead27 c _ (tblWord27 c i tbl 5) rfl rfl _ _ x z
      · exact fun z => rowRead27 c _ (tblWord27 c i tbl 6) rfl rfl _ _ x z
      · exact fun z => rowRead27 c _ (tblWord27 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk27.lean ====
/-
  Gather region 27 (custom_call 27): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat27
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word27 (i : grid27.Coords) (j : Fin 8) : k27_off1 i (BitVec.ofNat 32 j.val) 0 = (i 0).val * 8 + j.val := by
  have hi : (i 0).val < 16384 := (i 0).isLt
  have hj : j.val < 8 := j.isLt
  unfold k27_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word27 (i : grid27.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord27_eq (c : Dev nD) (i : grid27.Coords) (tbl : Bf (F := F) c (Memref.whole main_v175)) (j : Fin 8)
    (e : Fin 131072) (he : e.val = (i 0).val * 8 + j.val) : tblWord27 c i tbl j = tbl (tblIdx e) := by
  unfold tblWord27
  show tbl _ = tbl _
  refine congrArg tbl ?_
  funext a; apply Fin.ext
  match a with
  | ⟨0, _⟩ =>
    show k27_off1 i (BitVec.ofNat 32 j.val) 0 + 1 * 0 = e.val
    rw [off_word27, he]; omega

/-- Row `j` of the value window's block at point `t` is the value array's row `8 t + j`. -/
theorem valBlk27_eq (a0 : (pcfg27 (F := F)).Adm) (Vin : Dev nD → Valuation τ sig (Elt F)) (c : Dev nD) (t : Fin (cfg27 a0).N)
    (j : Fin 8) (e : Fin 131072) (he : e.val = ((grid27.coords t) 0).val * 8 + j.val) :
    iblk27 a0 Vin c 0 t (colIdx j) = Vr Vin c main_v176 (valIdx e) := by
  unfold iblk27
  show Vr Vin c main_v176 _ = Vr Vin c main_v176 _
  refine congrArg (Vr Vin c main_v176) ?_
  funext a; apply Fin.ext
  match a with
  | ⟨0, _⟩ =>
    show (BitVec.ofNat 32 ((grid27.coords t) 0).val).toNat * 8 + 1 * j.val = e.val
    rw [coord_word27, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk27 (a0 : (pcfg27 (F := F)).Adm) (Vin : Dev nD → Valuation τ sig (Elt F)) (c : Dev nD) (t : Fin (cfg27 a0).N) :
    gatherBlk (Vr Vin c main_v109) (tblWord27 c (grid27.coords t) (a0.1 0)) (iblk27 a0 Vin c 0 t)
      = (((cfg27 a0).win 1).blk t).view.read (Elt F) (gout27 a0 Vin c) := by
  funext y
  show gatherBlk _ _ _ y = gout27 a0 Vin c ((((cfg27 a0).win 1).blk t).view.emb y)
  unfold gatherBlk gout27 gatherArr
  have e0 : ((((cfg27 a0).win 1).blk t).view.emb y (0 : Fin 2)).val = ((grid27.coords t) 0).val * 8 + (y 0).val := by
    show (BitVec.ofNat 32 ((grid27.coords t) 0).val).toNat * 8 + 1 * (y 0).val = _
    rw [coord_word27]; omega
  have e1 : (((cfg27 a0).win 1).blk t).view.emb y (1 : Fin 2) = y 1 := Fin.ext (by
    show (0#32 : BitVec 32).toNat * 128 + 1 * (y 1).val = (y 1).val
    show 0 * 128 + 1 * (y 1).val = (y 1).val
    omega)
  rw [tblWord27_eq c (grid27.coords t) (a0.1 0) (y 0) _ e0, valBlk27_eq a0 Vin c t (y 0) _ e0, e1]

end Cert.Kernel.Hand

end
-- ==== Proof.K.GatherRegion27.lean ====
/-
  Gather region 27 (custom_call 27): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody27
import proofs.«414509_j14181982011419_2_alg».proof.Proof.K.GatherBlk27
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk27 (a0 : (pcfg27 (F := F)).Adm) : Prop := ∀ e : S131072.Idx, (a0.1 0 e).toNat < 100000

/-! ## The grid and the result window's blocks -/

/-- On the one-axis grid a point's coordinate is its number. -/
theorem regCoords27 (t : Fin grid27.N) : (grid27.coords t 0).val = t.val := by
  have ht : t.val < 16384 := N_27 ▸ t.isLt
  show t.val / grid27.stride 0 % grid27.bound 0 = t.val
  rw [show grid27.stride 0 = 1 from by decide, show grid27.bound 0 = 16384 from rfl, Nat.div_one, Nat.mod_eq_of_lt ht]

/-- A point's number as the 32-bit word the index maps compute with. -/
theorem regWord27 (t : Fin grid27.N) : (BitVec.ofNat 32 (grid27.coords t 0).val).toNat = t.val := by
  have ht : t.val < 16384 := N_27 ▸ t.isLt
  rw [BitVec.toNat_ofNat, regCoords27]; omega

/-- The result window's block at point `t` is block `t` along the rows, at zero along the lanes. -/
theorem regOutIndex27 (a0 : (pcfg27 (F := F)).Adm) (t : Fin (cfg27 a0).N) : ((cfg27 a0).win 1).index t = ![t.val, 0] := by
  show cc27_transform_2 (grid27.coords t) = _
  unfold cc27_transform_2
  funext a; fin_cases a
  · exact regWord27 t
  · rfl

/-- The result window is written back at every point: consecutive points have different blocks. -/
theorem regOutFlush27 (a0 : (pcfg27 (F := F)).Adm) (t : Fin (cfg27 a0).N) : ((cfg27 a0).win 1).flush t = true := by
  have htN : t.val < 16384 := N_27 ▸ t.isLt
  rw [Pipeline.Window.flush_out _ rfl]
  by_cases h : t.val + 1 = 16384
  · exact Or.inl (show t.val + 1 = grid27.N by rw [N_27]; exact h)
  · have hlt : t.val + 1 < grid27.N := by rw [N_27]; omega
    refine Or.inr ⟨hlt, fun e => ?_⟩
    have e' : (![t.val + 1, 0] : Fin 2 → ℕ) = ![t.val, 0] := (regOutIndex27 a0 ⟨t.val + 1, hlt⟩).symm.trans (e.trans (regOutIndex27 a0 t))
    have e0 := congrFun e' 0
    simp at e0

/-- The index table, held as the pipeline's one prefetched table. -/
theorem prefHeldEq27 (a0 : (pcfg27 (F := F)).Adm) (c : Dev nD) :
    (Pipeline.prefHeld (Ix := Unit) (Name := ℕ) (U := UU nD τ) (Lvl := ℕ) pre27 c (fun _ => fullShare) a0.1 : sProp (MM F))
      = pt c (Memref.whole main_v175) (a0.1 0) := by
  unfold Pipeline.prefHeld
  rw [show (Finset.univ : Finset (Fin pre27.K)) = {0} from rfl, BI.bigSep_singleton]
  rfl

/-- The value window's staging buffer holds its block at every point. -/
theorem beforeVal27 (a0 : (pcfg27 (F := F)).Adm) (Vin : Dev nD → Valuation τ sig (Elt F)) (c : Dev nD) (t : Fin (cfg27 a0).N) (d) :
    (dat27 a0 Vin c).before 0 t d = iblk27 a0 Vin c 0 t :=
  ((dat27 a0 Vin c).before_in_eq_fetched 0 rfl (fun _ => rfl) (fun _ _ _ => rfl)
    (fun t => by rw [after27_0]; unfold Dat.blockOf iblk27; rw [A_eq27]; try rfl) t d).trans
    (by unfold Dat.fetched Dat.blockOf iblk27; rw [A_eq27]; try rfl)

/-! ## The kernel's checks, from the table's range -/

/-- Each of the point's eight words is a word of the table, so a row number. -/
theorem tblWordLt27 (a0 : (pcfg27 (F := F)).Adm) (hok : GatherOk27 a0) (c : Dev nD) (i : grid27.Coords) (j : Fin 8) :
    (tblWord27 c i (a0.1 0) j).toNat < 100000 := by
  unfold tblWord27
  exact hok _

/-- So the kernel's eight checks hold at every point. -/
theorem gatherChk27 (a0 : (pcfg27 (F := F)).Adm) (hok : GatherOk27 a0) (c : Dev nD) (i : grid27.Coords) : GatherChk27 c i (a0.1 0) :=
  ⟨⟨chkRow _ (tblWordLt27 a0 hok c i 0), chkRow _ (tblWordLt27 a0 hok c i 0)⟩,
   ⟨chkRow _ (tblWordLt27 a0 hok c i 1), chkRow _ (tblWordLt27 a0 hok c i 1)⟩,
   ⟨chkRow _ (tblWordLt27 a0 hok c i 2), chkRow _ (tblWordLt27 a0 hok c i 2)⟩,
   ⟨chkRow _ (tblWordLt27 a0 hok c i 3), chkRow _ (tblWordLt27 a0 hok c i 3)⟩,
   ⟨chkRow _ (tblWordLt27 a0 hok c i 4), chkRow _ (tblWordLt27 a0 hok c i 4)⟩,
   ⟨chkRow _ (tblWordLt27 a0 hok c i 5), chkRow _ (tblWordLt27 a0 hok c i 5)⟩,
   ⟨chkRow _ (tblWordLt27 a0 hok c i 6), chkRow _ (tblWordLt27 a0 hok c i 6)⟩,
   chkRow _ (tblWordLt27 a0 hok c i 7)⟩

/-! ## The body obligation, at a generic point -/

/-- What the body is called with at point `t`: the invariant, the core's dues, each window's current staging memref at
    what the pipeline left there, -/
def bodyPre27 (a0 : (pcfg27 (F := F)).Adm) (Vin : Dev nD → Valuation τ sig (Elt F)) (c : Dev nD) (t : Fin (cfg27 a0).N) : sProp (MM F) :=
  iprop((dat27 a0 Vin c).Φ t.castSucc ∗ (dat27 a0 Vin c).owesAt () t.castSucc
    ∗ (∃ d, owns (c : Thread nD τ) (((cfg27 a0).win 0).stage ((cfg27 a0).slots t 0)) fullShare ((dat27 a0 Vin c).before 0 t d))
    ∗ (∃ d, owns (c : Thread nD τ) (((cfg27 a0).win 1).stage ((cfg27 a0).slots t 1)) fullShare ((dat27 a0 Vin c).before 1 t d)))

/-- and what it returns. -/
def bodyPost27 (a0 : (pcfg27 (F := F)).Adm) (Vin : Dev nD → Valuation τ sig (Elt F)) (c : Dev nD) (t : Fin (cfg27 a0).N) : sProp (MM F) :=
  iprop((dat27 a0 Vin c).Φ t.succ ∗ (dat27 a0 Vin c).owesAt () t.succ
    ∗ owns (c : Thread nD τ) (((cfg27 a0).win 0).stage ((cfg27 a0).slots t 0)) fullShare ((dat27 a0 Vin c).after 0 t)
    ∗ owns (c : Thread nD τ) (((cfg27 a0).win 1).stage ((cfg27 a0).slots t 1)) fullShare ((dat27 a0 Vin c).after 1 t))

/-- The body at any point: the invariant opened into the embedding array, the semaphores, the table and the scratch;
    the value window's memref at its block; the checks from the table's range; so the kernel's run applies, and what it
    leaves in the result window's memref is the point's block of the gathered array. -/
theorem sound_body27 (a0 : (pcfg27 (F := F)).Adm) (hok : GatherOk27 a0) (Vin : Dev nD → Valuation τ sig (Elt F)) (c : Dev nD) (t : Fin (cfg27 a0).N) :
    bodyPre27 a0 Vin c t ⊢ wp frame (wpE (defs₀ (F := F)) 𝒱₀ c none) Set.univ
      (defs₀ .tc (cfg27 a0).body ((cfg27 a0).bodyArgs t ((cfg27 a0).slots t))) (fun _ => bodyPost27 a0 Vin c t) := by
  unfold bodyPre27 bodyPost27
  simp only [beforeVal27]
  rw [Phi_eq27, Phi_eq27, after27_0, after27_1, ← gatherBlk_blk27]
  unfold Phi27 Pipeline.Dat.owesAt Pipeline.owesWithin
  rw [owed_eq27, owed_eq27, prefHeldEq27, scopedRest27_split]
  iintro ⟨⟨Hx, Hos, Ht, ⟨%fs, Hs⟩, Hsb⟩, ⟨%W, %hW, HO⟩, ⟨%d0, H0⟩, ⟨%d1, H1⟩⟩
  iapply (gatherRun27 c (grid27.coords t) _ _ _ _ (a0.1 0) (Vr Vin c main_v109) (iblk27 a0 Vin c 0 t) (gatherChk27 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation27 (a0 : (pcfg27 (F := F)).Adm) (hok : GatherOk27 a0) (Vin : Dev nD → Valuation τ sig (Elt F)) (c : Dev nD) :
    BodyObligation (dat27 a0 Vin c) (defs₀ (F := F)) 𝒱₀ () Set.univ := fun t => by
  rw [bigSep_W27, bigSep_W27]
  exact sound_body27 a0 hok Vin c t

/-! ## From the blocks to the arrays -/

/-- The value array after the region: as entered. -/
theorem arrAt27_in (a0 : (pcfg27 (F := F)).Adm) (Vin : Dev nD → Valuation τ sig (Elt F)) (c : Dev nD) :
    (dat27 a0 Vin c).arrAt 0 (cfg27 a0).N = Vr Vin c main_v176 :=
  ((dat27 a0 Vin c).arrAt_in 0 rfl _).trans (A_eq27 a0 Vin c 0)

/-- Every index of the result array is in some point's block: row `e`, lane `d` is element `(e % 8, d)` of the block
    of point `e / 8`. -/
theorem regOutCover27 (a0 : (pcfg27 (F := F)).Adm) (i : S131072x128.Idx) :
    ∃ t : Fin (cfg27 a0).N, ((cfg27 a0).win 1).flush t = true ∧ i ∈ (((cfg27 a0).win 1).blk t).view.set := by
  have hi0 : (i 0).val < 131072 := (i 0).isLt
  have hi1 : (i 1).val < 128 := (i 1).isLt
  have hN : (i 0).val / 8 < grid27.N := by rw [N_27]; omega
  obtain ⟨t, ht⟩ : ∃ t : Fin (cfg27 a0).N, t.val = (i 0).val / 8 := ⟨⟨_, hN⟩, rfl⟩
  have hx : (((cfg27 a0).win 1).blk t).view.emb (ValueIdx.ix2 ⟨(i 0).val % 8, Nat.mod_lt _ (by decide)⟩ (i 1)) = i := by
    funext a; apply Fin.ext
    have e0 : ((cfg27 a0).win 1).index t (0 : Fin 2) = t.val := congrFun (regOutIndex27 a0 t) (0 : Fin 2)
    have e1 : ((cfg27 a0).win 1).index t (1 : Fin 2) = 0 := congrFun (regOutIndex27 a0 t) (1 : Fin 2)
    match a with
    | ⟨0, _⟩ => show ((cfg27 a0).win 1).index t (0 : Fin 2) * 8 + 1 * ((i 0).val % 8) = (i 0).val; omega
    | ⟨1, _⟩ => show ((cfg27 a0).win 1).index t (1 : Fin 2) * 128 + 1 * (i 1).val = (i 1).val; omega
  exact ⟨t, regOutFlush27 a0 t, hx ▸ (((cfg27 a0).win 1).blk t).view.emb_mem_set _⟩

/-- The result array after the region: the gathered and scaled rows, whole. -/
theorem arrAt27_out (a0 : (pcfg27 (F := F)).Adm) (Vin : Dev nD → Valuation τ sig (Elt F)) (c : Dev nD) :
    (dat27 a0 Vin c).arrAt 1 (cfg27 a0).N = gout27 a0 Vin c :=
  (dat27 a0 Vin c).arrAt_eq_of_cover 1 (gout27 a0 Vin c)
    (fun t _ => by
      show ((cfg27 a0).win 1).cut ((cfg27 a0).grid.coords t) ((dat27 a0 Vin c).after 1 t) = _
      rw [after27_1])
    (regOutCover27 a0)

/-! ## The region as a segment of @main -/

/-- The ownership layout of the kernel's eight semaphores. -/
theorem ownSemFacts27 : Pipeline.OwnSemFacts spec27 osem27 := by decide

/-- The kernel's own cells at zero, listed. -/
theorem ownSemsListed27 (c : Dev nD) :
    (Pipeline.ownSems0 (Ix := Unit) (Name := ℕ) (U := UU nD τ) (Lvl := ℕ) (Val := Elt F) (τ := τ) osem27 c : sProp (MM F)) = sems27 c :=
  Pipeline.ownSems0_eq_of_list c osem27 [0, 1, 2, 3, 4, 5, 6, 7] (by decide) (by decide)

/-- The unscoped buffers that are no window's array, no table, and not the embedding array. -/
abbrev restRefs27 : Finset (Ref sig .tc) :=
  (((Finset.univ.filter fun b : Ref sig .tc => ¬ b.isScoped) \ Finset.univ.image (Pipeline.arrRef spec27)) \ Finset.univ.image pre27.ref) \ {main_v109}

/-- Those buffers, each whole at its contents under `Vin`: what bypasses the region. -/
def Zrest27 (Vin : Dev nD → Valuation τ sig (Elt F)) (c : Dev nD) : sProp (MM F) :=
  bigSep restRefs27 fun b => ((c : Thread nD τ).loc b) ↦{fullShare} Vr Vin c b

/-- The embedding array is an unscoped buffer that is no window's array and no table. -/
theorem embArrMem27 : ({main_v109} : Finset (Ref sig .tc)) ⊆
    ((Finset.univ.filter fun b : Ref sig .tc => ¬ b.isScoped) \ Finset.univ.image (Pipeline.arrRef spec27)) \ Finset.univ.image pre27.ref := by
  decide

/-- The unscoped buffers that are no window's array: the index table, the embedding array, and the rest. -/
theorem unscopedRestOpen27 (Vin : Dev nD → Valuation τ sig (Elt F)) (c : Dev nD) :
    (Pipeline.unscopedRest (Ix := Unit) (Name := ℕ) (U := UU nD τ) (Lvl := ℕ) spec27 c (Vr Vin c) : sProp (MM F))
      = iprop(Pipeline.prefHeld pre27 c (fun _ => fullShare) (fun k => Vr Vin c (pre27.ref k))
          ∗ pt c (Memref.whole main_v109) (Vr Vin c main_v109) ∗ Zrest27 Vin c) := by
  rw [Pipeline.unscopedRest_split preFacts27 c (Vr Vin c)]
  unfold Pipeline.unscopedRestP Zrest27
  rw [BI.bigSep_sdiff_split embArrMem27, BI.bigSep_singleton]
  rfl

/-- The buffer contents when the region is left: the result array at the gathered rows, every other buffer as entered. -/
abbrev Vout27 (a0 : (pcfg27 (F := F)).Adm) (Vin : Dev nD → Valuation τ sig (Elt F)) (c : Dev nD) : Valuation τ sig (Elt F) :=
  Function.update (Vin c) main_v177 (gout27 a0 Vin c)

/-- At the exit each of the region's arrays holds what the pipeline leaves; -/
theorem hF27 (a0 : (pcfg27 (F := F)).Adm) (Vin : Dev nD → Valuation τ sig (Elt F)) (c : Dev nD) (w : Fin (cfg27 a0).W) :
    (dat27 a0 Vin c).arrAt w (cfg27 a0).N = Vr (Vout27 a0 Vin) c (Pipeline.arrRef spec27 w) := by
  match w with
  | ⟨0, _⟩ =>
    show (dat27 a0 Vin c).arrAt 0 (cfg27 a0).N = Vr (Vout27 a0 Vin) c (Pipeline.arrRef spec27 0)
    rw [arrAt27_in]
    exact (Function.update_of_ne (StableHlo.devRef_ne_of_ne (by decide) : (Proc.devRef .tc main_v176 : DevRef τ sig) ≠ Proc.devRef .tc main_v177) _ _).symm
  | ⟨1, _⟩ =>
    show (dat27 a0 Vin c).arrAt 1 (cfg27 a0).N = Vr (Vout27 a0 Vin) c (Pipeline.arrRef spec27 1)
    rw [arrAt27_out]
    exact (Function.update_self (Proc.devRef .tc main_v177 : DevRef τ sig) _ (Vin c)).symm

/-- and every other buffer what it held at entry. -/
theorem hrest27 (a0 : (pcfg27 (F := F)).Adm) (Vin : Dev nD → Valuation τ sig (Elt F)) (c : Dev nD) :
    ∀ b : Ref sig .tc, b ∉ Finset.univ.image (Pipeline.arrRef spec27) → Vr (Vout27 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat27` at the entry valuation `Vin`
    (`hd`), the index table's contents under `Vin` being the pinned ones (`htbl`) and row numbers (`hok`). -/
def reg27 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk27 (F := F) (a (27 : Fin 34)))
    (hd : ∀ c, pdats (27 : Fin 34) c = dat27 (a (27 : Fin 34)) Vin c) (htbl : ∀ c, (a (27 : Fin 34)).1 = fun k => Vr Vin c (pre27.ref k)) :
    Pipeline.RegionSeg (pcfgs (F := F)) a pdats () defs₀ 𝒱₀ L lv (27 : Fin 34) where
  win := (launch27 (F := F)).win.to₀
  block_pos := (launch27 (F := F)).block_pos
  stage_whole := (launch27 (F := F)).stage_whole
  K := Fin 8
  osem := osem27
  ho := ownSemFacts27
  hbody c := by rw [hd c]; exact (body_obligation27 (a (27 : Fin 34)) hok Vin c).loose
  hwaits := Pipeline.hwaits_of_owed_zero _ _ _ _ L lv (27 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v177 (gout27 (a (27 : Fin 34)) Vin c)) ∗ Rest c)
  X c := iprop(pt c (Memref.whole main_v109) (Vr Vin c main_v109) ∗ sems27 c)
  Y c := iprop(pt c (Memref.whole main_v109) (Vr Vin c main_v109)
    ∗ Pipeline.prefHeld (Ix := Unit) (Name := ℕ) (U := UU nD τ) (Lvl := ℕ) pre27 c (fun _ => fullShare) (a (27 : Fin 34)).1)
  Z c := Zrest27 Vin c
  hentry c := by
    rw [ownSemsListed27]
    have hsplit := Pipeline.arrays_of_unscopedBufs (p := (27 : Fin 34)) (pcfgs (F := F)) a pdats (launch27 (F := F)).win (launch27 (F := F)).arr_whole c
      ((pdats (27 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen27 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (27 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq27]; unfold Phi27
    iintro ⟨⟨Hx, Hos⟩, Ht, Hr⟩
    isplitl [Hx]; · iexact Hx
    isplitl [Hos]; · iexact Hos
    isplitl [Ht]; · iexact Ht
    iexact Hr
  hout c := by
    rw [ownSemsListed27, hd c, Phi_eq27]; unfold Phi27
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (27 : Fin 34)) (pcfgs (F := F)) a (Ix := Unit) (Name := ℕ) (U := UU nD τ) (Lvl := ℕ)
      (launch27 (F := F)).win (launch27 (F := F)).arr_whole c pdats ((pdats (27 : Fin 34) c).share_full fun _ => by rw [hd c]; rfl)
      (Vr Vin c) (Vr (Vout27 (a (27 : Fin 34)) Vin) c) ((pdats (27 : Fin 34) c).arrAt · (cfg27 (a (27 : Fin 34))).N)
      (fun w => by rw [hd c]; exact hF27 (a (27 : Fin 34)) Vin c w) (hrest27 (a (27 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen27 Vin c).symm)
      isplitl [Ht]; · rw [← htbl c]; iexact Ht
      isplitl [Hx]; · iexact Hx
      iexact Hz
    unfold Pipeline.Dat.owesAt Pipeline.owesWithin
    rw [show (pdats (27 : Fin 34) c).owed (Fin.last _) = 0 from by rw [hd c]; rfl]
    icases HO with ⟨%W, -, HO⟩; iexists W; iexact HO

end Cert.Kernel.Hand

end
-- ==== Proof.K.GatherDat28.lean ====
/-
  Gather region 28 (custom_call 28): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem28 : Fin 8 → SemLoc sig := fun | 0 => .dma 332 | 1 => .dma 333 | 2 => .dma 334 | 3 => .dma 335 | 4 => .dma 336 | 5 => .dma 337 | 6 => .dma 338 | 7 => .dma 339

/-- The eight counters at zero, as the run finds them and hands them back. -/
abbrev sems28 (c : Dev nD) : sProp (MM F) :=
  iprop(semVal ((c : Thread nD τ), osem28 0) 0 ∗ semVal ((c : Thread nD τ), osem28 1) 0 ∗ semVal ((c : Thread nD τ), osem28 2) 0
    ∗ semVal ((c : Thread nD τ), osem28 3) 0 ∗ semVal ((c : Thread nD τ), osem28 4) 0 ∗ semVal ((c : Thread nD τ), osem28 5) 0
    ∗ semVal ((c : Thread nD τ), osem28 6) 0 ∗ semVal ((c : Thread nD τ), osem28 7) 0)

/-- Word `j` of the eight the index table holds for point `i`, as the kernel's scalar load reads it. -/
def tblWord28 (c : Dev nD) (i : grid28.Coords) (tbl : Bf (F := F) c (Memref.whole main_v178)) (j : Fin 8) : BitVec 32 :=
  (Memref.whole main_v178).view.readAt (Elt F) (Rect.unit (s := S131072) (k28_off1 i (BitVec.ofNat 32 j.val)) S1.size (k28_off1_inb i j)).toLoadRect tbl
    (Shape.Idx.first (s := S1) (numel1_S1.symm ▸ Nat.one_pos))

/-- Window `w`'s block at point `t`, read off its array at the region's entry. -/
def iblk28 (a0 : (pcfg28 (F := F)).Adm) (Vin : Dev nD → Valuation τ sig (Elt F)) (c : Dev nD) (w : Fin (cfg28 a0).W) (t : Fin (cfg28 a0).N) :
    (((cfg28 a0).win w).xblock ((cfg28 a0).grid.coords t)).Idx → Elt F ((cfg28 a0).win w).elt :=
  (((cfg28 a0).win w).blk t).view.read (Elt F) (Vr Vin c (Pipeline.arrRef spec28 w))

/-- The result array the region leaves: the gathered and scaled rows of the embedding array, whole. -/
def gout28 (a0 : (pcfg28 (F := F)).Adm) (Vin : Dev nD → Valuation τ sig (Elt F)) (c : Dev nD) : Buf (Elt F) ((c : Thread nD τ).loc main_v180) :=
  gatherArr (Vr Vin c main_v109) (a0.1 0) (Vr Vin c main_v179)

/-- The invariant between points: the embedding array as entered, the kernel's semaphores at zero, the index table, the
    scoped buffers no window stages (the kernel's scratch among them). -/
def Phi28 (a0 : (pcfg28 (F := F)).Adm) (Vin : Dev nD → Valuation τ sig (Elt F)) (c : Dev nD) : sProp (MM F) :=
  iprop(pt c (Memref.whole main_v109) (Vr Vin c main_v109) ∗ sems28 c
    ∗ Pipeline.prefHeld (Ix := Unit) (Name := ℕ) (U := UU nD τ) (Lvl := ℕ) pre28 c (fun _ => fullShare) a0.1
    ∗ Pipeline.scopedRest (Ix := Unit) (Name := ℕ) (U := UU nD τ) (Lvl := ℕ) (Val := Elt F) spec28 c)

/-- The proof data on core `c`. -/
def dat28 (a0 : (pcfg28 (F := F)).Adm) (Vin : Dev nD → Valuation τ sig (Elt F)) (c : Dev nD) :
    Pipeline.Dat τ (Elt F) Unit ℕ (UU nD τ) ℕ ((pcfg28 (F := F)).at a0) c where
  A w := Vr Vin c (Pipeline.arrRef spec28 w)
  after w t := match w with
    | ⟨0, _⟩ => iblk28 a0 Vin c 0 t
    | ⟨1, _⟩ => (((cfg28 a0).win 1).blk t).view.read (Elt F) (gout28 a0 Vin c)
  Φ _ := Phi28 a0 Vin c
  q _ := fullShare
  owed _ := 0

theorem A_eq28 (a0 : (pcfg28 (F := F)).Adm) (Vin : Dev nD → Valuation τ sig (Elt F)) (c : Dev nD) (w : Fin (cfg28 a0).W) :
    (dat28 a0 Vin c).A w = Vr Vin c (Pipeline.arrRef spec28 w) := by dsimp only [dat28]
theorem after28_0 (a0 : (pcfg28 (F := F)).Adm) (Vin : Dev nD → Valuation τ sig (Elt F)) (c : Dev nD) (t : Fin (cfg28 a0).N) :
    (dat28 a0 Vin c).after 0 t = iblk28 a0 Vin c 0 t := by dsimp only [dat28]; rfl
theorem after28_1 (a0 : (pcfg28 (F := F)).Adm) (Vin : Dev nD → Valuation τ sig (Elt F)) (c : Dev nD) (t : Fin (cfg28 a0).N) :
    (dat28 a0 Vin c).after 1 t = (((cfg28 a0).win 1).blk t).view.read (Elt F) (gout28 a0 Vin c) := by dsimp only [dat28]; rfl
theorem Phi_eq28 (a0 : (pcfg28 (F := F)).Adm) (Vin : Dev nD → Valuation τ sig (Elt F)) (c : Dev nD) (t : Fin ((cfg28 a0).N + 1)) :
    (dat28 a0 Vin c).Φ t = Phi28 a0 Vin c := rfl
theorem owed_eq28 (a0 : (pcfg28 (F := F)).Adm) (Vin : Dev nD → Valuation τ sig (Elt F)) (c : Dev nD) (t : Fin ((cfg28 a0).N + 1)) :
    (dat28 a0 Vin c).owed t = 0 := rfl
theorem q_eq28 (a0 : (pcfg28 (F := F)).Adm) (Vin : Dev nD → Valuation τ sig (Elt F)) (c : Dev nD) (w : Fin (cfg28 a0).W) :
    (dat28 a0 Vin c).q w = fullShare := rfl

/-- The pinned family's configuration at region 28 is this one. -/
example (a : (p : Fin 34) → (pcfgs (F := F) p).Adm) : Pipeline.pin (pcfgs (F := F)) a (28 : Fin 34) = (pcfg28 (F := F)).at (a (28 : Fin 34)) := rfl

end Cert.Kernel.Hand

end
-- ==== Proof.K.GatherBody28.lean ====
/-
  Gather region 28 (custom_call 28): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat28
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk28 (c : Dev nD) (i : grid28.Coords) (tbl : Bf (F := F) c (Memref.whole main_v178)) : Prop where
  h1 : k28_chk1 (tblWord28 c i tbl 0)
  h2 : k28_chk2 (tblWord28 c i tbl 1)
  h3 : k28_chk3 (tblWord28 c i tbl 2)
  h4 : k28_chk4 (tblWord28 c i tbl 3)
  h5 : k28_chk5 (tblWord28 c i tbl 4)
  h6 : k28_chk6 (tblWord28 c i tbl 5)
  h7 : k28_chk7 (tblWord28 c i tbl 6)
  h8 : k28_chk8 (tblWord28 c i tbl 7)

/-- A one-row slice of the embedding array at the row a word names, read at lane `z 1`: the array's element there. -/
theorem rowRead28 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun28 (c : Dev nD) (i : grid28.Coords)
    (M3 : Memref sig .tc .vmem S8x1 .f32) (h3 : M3.IsWhole) (M4 : Memref sig .tc .vmem S8x128 .f32) (h4 : M4.IsWhole)
    (tbl : Bf (F := F) c (Memref.whole main_v178)) (x : Bf (F := F) c (Memref.whole main_v109))
    (vb : Vec F S8x1 .f32) (hchk : GatherChk28 c i tbl) (Q : PUnit → sProp (MM F)) :
    iprop(pt c (Memref.whole main_v178) tbl ∗ pt c (Memref.whole main_v109) x
      ∗ owns (c : Thread nD τ) M3 fullShare vb ∗ (∃ d, owns (c : Thread nD τ) M4 fullShare d)
      ∗ (∃ fs, pt c (Memref.whole cc28_scratch0) fs) ∗ sems28 c ∗ (∃ W, owes (c : Thread nD τ) (0 : CellTallies nD τ sig Unit) W)
      ∗ (iprop(pt c (Memref.whole main_v178) tbl ∗ pt c (Memref.whole main_v109) x
          ∗ owns (c : Thread nD τ) M3 fullShare vb ∗ owns (c : Thread nD τ) M4 fullShare (gatherBlk x (tblWord28 c i tbl) vb)
          ∗ (∃ fs, pt c (Memref.whole cc28_scratch0) fs) ∗ sems28 c ∗ (∃ W, owes (c : Thread nD τ) (0 : CellTallies nD τ sig Unit) W)) -∗ Q ⟨⟩))
    ⊢ wp frame (wpE (defs₀ (F := F)) 𝒱₀ c none) Set.univ
        (cc28__gather_kernel i (Memref.whole main_v178) (Memref.isWhole_whole _) (Memref.whole main_v109) (Memref.isWhole_whole _) M3 h3 M4 h4
          (Memref.whole cc28_scratch0) (Memref.isWhole_whole _) cc28_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 332).1 $$ Hx
  icases Hx' with ⟨Hxr, Hx0, Hx1, Hx2, Hx3, Hx4, Hx5, Hx6, Hx7⟩
  sl_unfold [cc28__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 332).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k28_pay1 gatherBlk
    show FloatOps.mulf _ _ = FloatOps.mulf _ _
    congr 1
    · unfold gatherRun28.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun28.sl.dma8 gatherRun28.sl.dma8_1 gatherRun28.sl.dma8_2 gatherRun28.sl.dma8_3 gatherRun28.sl.dma8_4 gatherRun28.sl.dma8_5
        gatherRun28.sl.dma8_6 gatherRun28.sl.dma8_7 gatherRun28.sl.r gatherRun28.sl.r_1 gatherRun28.sl.r_2 gatherRun28.sl.r_3 gatherRun28.sl.r_4
        gatherRun28.sl.r_5 gatherRun28.sl.r_6 gatherRun28.sl.r_7
      refine canonRows8 _ _ _ _ _ _ _ _ _ _ _ _ _ _ _ _ (fun r d => x (embIdx (rowOf (tblWord28 c i tbl r)) d)) ?_ ?_ ?_ ?_ ?_ ?_ ?_ ?_ y
      · exact fun z => rowRead28 c _ (tblWord28 c i tbl 0) rfl rfl _ _ x z
      · exact fun z => rowRead28 c _ (tblWord28 c i tbl 1) rfl rfl _ _ x z
      · exact fun z => rowRead28 c _ (tblWord28 c i tbl 2) rfl rfl _ _ x z
      · exact fun z => rowRead28 c _ (tblWord28 c i tbl 3) rfl rfl _ _ x z
      · exact fun z => rowRead28 c _ (tblWord28 c i tbl 4) rfl rfl _ _ x z
      · exact fun z => rowRead28 c _ (tblWord28 c i tbl 5) rfl rfl _ _ x z
      · exact fun z => rowRead28 c _ (tblWord28 c i tbl 6) rfl rfl _ _ x z
      · exact fun z => rowRead28 c _ (tblWord28 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk28.lean ====
/-
  Gather region 28 (custom_call 28): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat28
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word28 (i : grid28.Coords) (j : Fin 8) : k28_off1 i (BitVec.ofNat 32 j.val) 0 = (i 0).val * 8 + j.val := by
  have hi : (i 0).val < 16384 := (i 0).isLt
  have hj : j.val < 8 := j.isLt
  unfold k28_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word28 (i : grid28.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord28_eq (c : Dev nD) (i : grid28.Coords) (tbl : Bf (F := F) c (Memref.whole main_v178)) (j : Fin 8)
    (e : Fin 131072) (he : e.val = (i 0).val * 8 + j.val) : tblWord28 c i tbl j = tbl (tblIdx e) := by
  unfold tblWord28
  show tbl _ = tbl _
  refine congrArg tbl ?_
  funext a; apply Fin.ext
  match a with
  | ⟨0, _⟩ =>
    show k28_off1 i (BitVec.ofNat 32 j.val) 0 + 1 * 0 = e.val
    rw [off_word28, he]; omega

/-- Row `j` of the value window's block at point `t` is the value array's row `8 t + j`. -/
theorem valBlk28_eq (a0 : (pcfg28 (F := F)).Adm) (Vin : Dev nD → Valuation τ sig (Elt F)) (c : Dev nD) (t : Fin (cfg28 a0).N)
    (j : Fin 8) (e : Fin 131072) (he : e.val = ((grid28.coords t) 0).val * 8 + j.val) :
    iblk28 a0 Vin c 0 t (colIdx j) = Vr Vin c main_v179 (valIdx e) := by
  unfold iblk28
  show Vr Vin c main_v179 _ = Vr Vin c main_v179 _
  refine congrArg (Vr Vin c main_v179) ?_
  funext a; apply Fin.ext
  match a with
  | ⟨0, _⟩ =>
    show (BitVec.ofNat 32 ((grid28.coords t) 0).val).toNat * 8 + 1 * j.val = e.val
    rw [coord_word28, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk28 (a0 : (pcfg28 (F := F)).Adm) (Vin : Dev nD → Valuation τ sig (Elt F)) (c : Dev nD) (t : Fin (cfg28 a0).N) :
    gatherBlk (Vr Vin c main_v109) (tblWord28 c (grid28.coords t) (a0.1 0)) (iblk28 a0 Vin c 0 t)
      = (((cfg28 a0).win 1).blk t).view.read (Elt F) (gout28 a0 Vin c) := by
  funext y
  show gatherBlk _ _ _ y = gout28 a0 Vin c ((((cfg28 a0).win 1).blk t).view.emb y)
  unfold gatherBlk gout28 gatherArr
  have e0 : ((((cfg28 a0).win 1).blk t).view.emb y (0 : Fin 2)).val = ((grid28.coords t) 0).val * 8 + (y 0).val := by
    show (BitVec.ofNat 32 ((grid28.coords t) 0).val).toNat * 8 + 1 * (y 0).val = _
    rw [coord_word28]; omega
  have e1 : (((cfg28 a0).win 1).blk t).view.emb y (1 : Fin 2) = y 1 := Fin.ext (by
    show (0#32 : BitVec 32).toNat * 128 + 1 * (y 1).val = (y 1).val
    show 0 * 128 + 1 * (y 1).val = (y 1).val
    omega)
  rw [tblWord28_eq c (grid28.coords t) (a0.1 0) (y 0) _ e0, valBlk28_eq a0 Vin c t (y 0) _ e0, e1]

end Cert.Kernel.Hand

end
-- ==== Proof.K.GatherRegion28.lean ====
/-
  Gather region 28 (custom_call 28): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody28
import proofs.«414509_j14181982011419_2_alg».proof.Proof.K.GatherBlk28
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk28 (a0 : (pcfg28 (F := F)).Adm) : Prop := ∀ e : S131072.Idx, (a0.1 0 e).toNat < 100000

/-! ## The grid and the result window's blocks -/

/-- On the one-axis grid a point's coordinate is its number. -/
theorem regCoords28 (t : Fin grid28.N) : (grid28.coords t 0).val = t.val := by
  have ht : t.val < 16384 := N_28 ▸ t.isLt
  show t.val / grid28.stride 0 % grid28.bound 0 = t.val
  rw [show grid28.stride 0 = 1 from by decide, show grid28.bound 0 = 16384 from rfl, Nat.div_one, Nat.mod_eq_of_lt ht]

/-- A point's number as the 32-bit word the index maps compute with. -/
theorem regWord28 (t : Fin grid28.N) : (BitVec.ofNat 32 (grid28.coords t 0).val).toNat = t.val := by
  have ht : t.val < 16384 := N_28 ▸ t.isLt
  rw [BitVec.toNat_ofNat, regCoords28]; omega

/-- The result window's block at point `t` is block `t` along the rows, at zero along the lanes. -/
theorem regOutIndex28 (a0 : (pcfg28 (F := F)).Adm) (t : Fin (cfg28 a0).N) : ((cfg28 a0).win 1).index t = ![t.val, 0] := by
  show cc28_transform_2 (grid28.coords t) = _
  unfold cc28_transform_2
  funext a; fin_cases a
  · exact regWord28 t
  · rfl

/-- The result window is written back at every point: consecutive points have different blocks. -/
theorem regOutFlush28 (a0 : (pcfg28 (F := F)).Adm) (t : Fin (cfg28 a0).N) : ((cfg28 a0).win 1).flush t = true := by
  have htN : t.val < 16384 := N_28 ▸ t.isLt
  rw [Pipeline.Window.flush_out _ rfl]
  by_cases h : t.val + 1 = 16384
  · exact Or.inl (show t.val + 1 = grid28.N by rw [N_28]; exact h)
  · have hlt : t.val + 1 < grid28.N := by rw [N_28]; omega
    refine Or.inr ⟨hlt, fun e => ?_⟩
    have e' : (![t.val + 1, 0] : Fin 2 → ℕ) = ![t.val, 0] := (regOutIndex28 a0 ⟨t.val + 1, hlt⟩).symm.trans (e.trans (regOutIndex28 a0 t))
    have e0 := congrFun e' 0
    simp at e0

/-- The index table, held as the pipeline's one prefetched table. -/
theorem prefHeldEq28 (a0 : (pcfg28 (F := F)).Adm) (c : Dev nD) :
    (Pipeline.prefHeld (Ix := Unit) (Name := ℕ) (U := UU nD τ) (Lvl := ℕ) pre28 c (fun _ => fullShare) a0.1 : sProp (MM F))
      = pt c (Memref.whole main_v178) (a0.1 0) := by
  unfold Pipeline.prefHeld
  rw [show (Finset.univ : Finset (Fin pre28.K)) = {0} from rfl, BI.bigSep_singleton]
  rfl

/-- The value window's staging buffer holds its block at every point. -/
theorem beforeVal28 (a0 : (pcfg28 (F := F)).Adm) (Vin : Dev nD → Valuation τ sig (Elt F)) (c : Dev nD) (t : Fin (cfg28 a0).N) (d) :
    (dat28 a0 Vin c).before 0 t d = iblk28 a0 Vin c 0 t :=
  ((dat28 a0 Vin c).before_in_eq_fetched 0 rfl (fun _ => rfl) (fun _ _ _ => rfl)
    (fun t => by rw [after28_0]; unfold Dat.blockOf iblk28; rw [A_eq28]; try rfl) t d).trans
    (by unfold Dat.fetched Dat.blockOf iblk28; rw [A_eq28]; try rfl)

/-! ## The kernel's checks, from the table's range -/

/-- Each of the point's eight words is a word of the table, so a row number. -/
theorem tblWordLt28 (a0 : (pcfg28 (F := F)).Adm) (hok : GatherOk28 a0) (c : Dev nD) (i : grid28.Coords) (j : Fin 8) :
    (tblWord28 c i (a0.1 0) j).toNat < 100000 := by
  unfold tblWord28
  exact hok _

/-- So the kernel's eight checks hold at every point. -/
theorem gatherChk28 (a0 : (pcfg28 (F := F)).Adm) (hok : GatherOk28 a0) (c : Dev nD) (i : grid28.Coords) : GatherChk28 c i (a0.1 0) :=
  ⟨⟨chkRow _ (tblWordLt28 a0 hok c i 0), chkRow _ (tblWordLt28 a0 hok c i 0)⟩,
   ⟨chkRow _ (tblWordLt28 a0 hok c i 1), chkRow _ (tblWordLt28 a0 hok c i 1)⟩,
   ⟨chkRow _ (tblWordLt28 a0 hok c i 2), chkRow _ (tblWordLt28 a0 hok c i 2)⟩,
   ⟨chkRow _ (tblWordLt28 a0 hok c i 3), chkRow _ (tblWordLt28 a0 hok c i 3)⟩,
   ⟨chkRow _ (tblWordLt28 a0 hok c i 4), chkRow _ (tblWordLt28 a0 hok c i 4)⟩,
   ⟨chkRow _ (tblWordLt28 a0 hok c i 5), chkRow _ (tblWordLt28 a0 hok c i 5)⟩,
   ⟨chkRow _ (tblWordLt28 a0 hok c i 6), chkRow _ (tblWordLt28 a0 hok c i 6)⟩,
   chkRow _ (tblWordLt28 a0 hok c i 7)⟩

/-! ## The body obligation, at a generic point -/

/-- What the body is called with at point `t`: the invariant, the core's dues, each window's current staging memref at
    what the pipeline left there, -/
def bodyPre28 (a0 : (pcfg28 (F := F)).Adm) (Vin : Dev nD → Valuation τ sig (Elt F)) (c : Dev nD) (t : Fin (cfg28 a0).N) : sProp (MM F) :=
  iprop((dat28 a0 Vin c).Φ t.castSucc ∗ (dat28 a0 Vin c).owesAt () t.castSucc
    ∗ (∃ d, owns (c : Thread nD τ) (((cfg28 a0).win 0).stage ((cfg28 a0).slots t 0)) fullShare ((dat28 a0 Vin c).before 0 t d))
    ∗ (∃ d, owns (c : Thread nD τ) (((cfg28 a0).win 1).stage ((cfg28 a0).slots t 1)) fullShare ((dat28 a0 Vin c).before 1 t d)))

/-- and what it returns. -/
def bodyPost28 (a0 : (pcfg28 (F := F)).Adm) (Vin : Dev nD → Valuation τ sig (Elt F)) (c : Dev nD) (t : Fin (cfg28 a0).N) : sProp (MM F) :=
  iprop((dat28 a0 Vin c).Φ t.succ ∗ (dat28 a0 Vin c).owesAt () t.succ
    ∗ owns (c : Thread nD τ) (((cfg28 a0).win 0).stage ((cfg28 a0).slots t 0)) fullShare ((dat28 a0 Vin c).after 0 t)
    ∗ owns (c : Thread nD τ) (((cfg28 a0).win 1).stage ((cfg28 a0).slots t 1)) fullShare ((dat28 a0 Vin c).after 1 t))

/-- The body at any point: the invariant opened into the embedding array, the semaphores, the table and the scratch;
    the value window's memref at its block; the checks from the table's range; so the kernel's run applies, and what it
    leaves in the result window's memref is the point's block of the gathered array. -/
theorem sound_body28 (a0 : (pcfg28 (F := F)).Adm) (hok : GatherOk28 a0) (Vin : Dev nD → Valuation τ sig (Elt F)) (c : Dev nD) (t : Fin (cfg28 a0).N) :
    bodyPre28 a0 Vin c t ⊢ wp frame (wpE (defs₀ (F := F)) 𝒱₀ c none) Set.univ
      (defs₀ .tc (cfg28 a0).body ((cfg28 a0).bodyArgs t ((cfg28 a0).slots t))) (fun _ => bodyPost28 a0 Vin c t) := by
  unfold bodyPre28 bodyPost28
  simp only [beforeVal28]
  rw [Phi_eq28, Phi_eq28, after28_0, after28_1, ← gatherBlk_blk28]
  unfold Phi28 Pipeline.Dat.owesAt Pipeline.owesWithin
  rw [owed_eq28, owed_eq28, prefHeldEq28, scopedRest28_split]
  iintro ⟨⟨Hx, Hos, Ht, ⟨%fs, Hs⟩, Hsb⟩, ⟨%W, %hW, HO⟩, ⟨%d0, H0⟩, ⟨%d1, H1⟩⟩
  iapply (gatherRun28 c (grid28.coords t) _ _ _ _ (a0.1 0) (Vr Vin c main_v109) (iblk28 a0 Vin c 0 t) (gatherChk28 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation28 (a0 : (pcfg28 (F := F)).Adm) (hok : GatherOk28 a0) (Vin : Dev nD → Valuation τ sig (Elt F)) (c : Dev nD) :
    BodyObligation (dat28 a0 Vin c) (defs₀ (F := F)) 𝒱₀ () Set.univ := fun t => by
  rw [bigSep_W28, bigSep_W28]
  exact sound_body28 a0 hok Vin c t

/-! ## From the blocks to the arrays -/

/-- The value array after the region: as entered. -/
theorem arrAt28_in (a0 : (pcfg28 (F := F)).Adm) (Vin : Dev nD → Valuation τ sig (Elt F)) (c : Dev nD) :
    (dat28 a0 Vin c).arrAt 0 (cfg28 a0).N = Vr Vin c main_v179 :=
  ((dat28 a0 Vin c).arrAt_in 0 rfl _).trans (A_eq28 a0 Vin c 0)

/-- Every index of the result array is in some point's block: row `e`, lane `d` is element `(e % 8, d)` of the block
    of point `e / 8`. -/
theorem regOutCover28 (a0 : (pcfg28 (F := F)).Adm) (i : S131072x128.Idx) :
    ∃ t : Fin (cfg28 a0).N, ((cfg28 a0).win 1).flush t = true ∧ i ∈ (((cfg28 a0).win 1).blk t).view.set := by
  have hi0 : (i 0).val < 131072 := (i 0).isLt
  have hi1 : (i 1).val < 128 := (i 1).isLt
  have hN : (i 0).val / 8 < grid28.N := by rw [N_28]; omega
  obtain ⟨t, ht⟩ : ∃ t : Fin (cfg28 a0).N, t.val = (i 0).val / 8 := ⟨⟨_, hN⟩, rfl⟩
  have hx : (((cfg28 a0).win 1).blk t).view.emb (ValueIdx.ix2 ⟨(i 0).val % 8, Nat.mod_lt _ (by decide)⟩ (i 1)) = i := by
    funext a; apply Fin.ext
    have e0 : ((cfg28 a0).win 1).index t (0 : Fin 2) = t.val := congrFun (regOutIndex28 a0 t) (0 : Fin 2)
    have e1 : ((cfg28 a0).win 1).index t (1 : Fin 2) = 0 := congrFun (regOutIndex28 a0 t) (1 : Fin 2)
    match a with
    | ⟨0, _⟩ => show ((cfg28 a0).win 1).index t (0 : Fin 2) * 8 + 1 * ((i 0).val % 8) = (i 0).val; omega
    | ⟨1, _⟩ => show ((cfg28 a0).win 1).index t (1 : Fin 2) * 128 + 1 * (i 1).val = (i 1).val; omega
  exact ⟨t, regOutFlush28 a0 t, hx ▸ (((cfg28 a0).win 1).blk t).view.emb_mem_set _⟩

/-- The result array after the region: the gathered and scaled rows, whole. -/
theorem arrAt28_out (a0 : (pcfg28 (F := F)).Adm) (Vin : Dev nD → Valuation τ sig (Elt F)) (c : Dev nD) :
    (dat28 a0 Vin c).arrAt 1 (cfg28 a0).N = gout28 a0 Vin c :=
  (dat28 a0 Vin c).arrAt_eq_of_cover 1 (gout28 a0 Vin c)
    (fun t _ => by
      show ((cfg28 a0).win 1).cut ((cfg28 a0).grid.coords t) ((dat28 a0 Vin c).after 1 t) = _
      rw [after28_1])
    (regOutCover28 a0)

/-! ## The region as a segment of @main -/

/-- The ownership layout of the kernel's eight semaphores. -/
theorem ownSemFacts28 : Pipeline.OwnSemFacts spec28 osem28 := by decide

/-- The kernel's own cells at zero, listed. -/
theorem ownSemsListed28 (c : Dev nD) :
    (Pipeline.ownSems0 (Ix := Unit) (Name := ℕ) (U := UU nD τ) (Lvl := ℕ) (Val := Elt F) (τ := τ) osem28 c : sProp (MM F)) = sems28 c :=
  Pipeline.ownSems0_eq_of_list c osem28 [0, 1, 2, 3, 4, 5, 6, 7] (by decide) (by decide)

/-- The unscoped buffers that are no window's array, no table, and not the embedding array. -/
abbrev restRefs28 : Finset (Ref sig .tc) :=
  (((Finset.univ.filter fun b : Ref sig .tc => ¬ b.isScoped) \ Finset.univ.image (Pipeline.arrRef spec28)) \ Finset.univ.image pre28.ref) \ {main_v109}

/-- Those buffers, each whole at its contents under `Vin`: what bypasses the region. -/
def Zrest28 (Vin : Dev nD → Valuation τ sig (Elt F)) (c : Dev nD) : sProp (MM F) :=
  bigSep restRefs28 fun b => ((c : Thread nD τ).loc b) ↦{fullShare} Vr Vin c b

/-- The embedding array is an unscoped buffer that is no window's array and no table. -/
theorem embArrMem28 : ({main_v109} : Finset (Ref sig .tc)) ⊆
    ((Finset.univ.filter fun b : Ref sig .tc => ¬ b.isScoped) \ Finset.univ.image (Pipeline.arrRef spec28)) \ Finset.univ.image pre28.ref := by
  decide

/-- The unscoped buffers that are no window's array: the index table, the embedding array, and the rest. -/
theorem unscopedRestOpen28 (Vin : Dev nD → Valuation τ sig (Elt F)) (c : Dev nD) :
    (Pipeline.unscopedRest (Ix := Unit) (Name := ℕ) (U := UU nD τ) (Lvl := ℕ) spec28 c (Vr Vin c) : sProp (MM F))
      = iprop(Pipeline.prefHeld pre28 c (fun _ => fullShare) (fun k => Vr Vin c (pre28.ref k))
          ∗ pt c (Memref.whole main_v109) (Vr Vin c main_v109) ∗ Zrest28 Vin c) := by
  rw [Pipeline.unscopedRest_split preFacts28 c (Vr Vin c)]
  unfold Pipeline.unscopedRestP Zrest28
  rw [BI.bigSep_sdiff_split embArrMem28, BI.bigSep_singleton]
  rfl

/-- The buffer contents when the region is left: the result array at the gathered rows, every other buffer as entered. -/
abbrev Vout28 (a0 : (pcfg28 (F := F)).Adm) (Vin : Dev nD → Valuation τ sig (Elt F)) (c : Dev nD) : Valuation τ sig (Elt F) :=
  Function.update (Vin c) main_v180 (gout28 a0 Vin c)

/-- At the exit each of the region's arrays holds what the pipeline leaves; -/
theorem hF28 (a0 : (pcfg28 (F := F)).Adm) (Vin : Dev nD → Valuation τ sig (Elt F)) (c : Dev nD) (w : Fin (cfg28 a0).W) :
    (dat28 a0 Vin c).arrAt w (cfg28 a0).N = Vr (Vout28 a0 Vin) c (Pipeline.arrRef spec28 w) := by
  match w with
  | ⟨0, _⟩ =>
    show (dat28 a0 Vin c).arrAt 0 (cfg28 a0).N = Vr (Vout28 a0 Vin) c (Pipeline.arrRef spec28 0)
    rw [arrAt28_in]
    exact (Function.update_of_ne (StableHlo.devRef_ne_of_ne (by decide) : (Proc.devRef .tc main_v179 : DevRef τ sig) ≠ Proc.devRef .tc main_v180) _ _).symm
  | ⟨1, _⟩ =>
    show (dat28 a0 Vin c).arrAt 1 (cfg28 a0).N = Vr (Vout28 a0 Vin) c (Pipeline.arrRef spec28 1)
    rw [arrAt28_out]
    exact (Function.update_self (Proc.devRef .tc main_v180 : DevRef τ sig) _ (Vin c)).symm

/-- and every other buffer what it held at entry. -/
theorem hrest28 (a0 : (pcfg28 (F := F)).Adm) (Vin : Dev nD → Valuation τ sig (Elt F)) (c : Dev nD) :
    ∀ b : Ref sig .tc, b ∉ Finset.univ.image (Pipeline.arrRef spec28) → Vr (Vout28 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat28` at the entry valuation `Vin`
    (`hd`), the index table's contents under `Vin` being the pinned ones (`htbl`) and row numbers (`hok`). -/
def reg28 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk28 (F := F) (a (28 : Fin 34)))
    (hd : ∀ c, pdats (28 : Fin 34) c = dat28 (a (28 : Fin 34)) Vin c) (htbl : ∀ c, (a (28 : Fin 34)).1 = fun k => Vr Vin c (pre28.ref k)) :
    Pipeline.RegionSeg (pcfgs (F := F)) a pdats () defs₀ 𝒱₀ L lv (28 : Fin 34) where
  win := (launch28 (F := F)).win.to₀
  block_pos := (launch28 (F := F)).block_pos
  stage_whole := (launch28 (F := F)).stage_whole
  K := Fin 8
  osem := osem28
  ho := ownSemFacts28
  hbody c := by rw [hd c]; exact (body_obligation28 (a (28 : Fin 34)) hok Vin c).loose
  hwaits := Pipeline.hwaits_of_owed_zero _ _ _ _ L lv (28 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v180 (gout28 (a (28 : Fin 34)) Vin c)) ∗ Rest c)
  X c := iprop(pt c (Memref.whole main_v109) (Vr Vin c main_v109) ∗ sems28 c)
  Y c := iprop(pt c (Memref.whole main_v109) (Vr Vin c main_v109)
    ∗ Pipeline.prefHeld (Ix := Unit) (Name := ℕ) (U := UU nD τ) (Lvl := ℕ) pre28 c (fun _ => fullShare) (a (28 : Fin 34)).1)
  Z c := Zrest28 Vin c
  hentry c := by
    rw [ownSemsListed28]
    have hsplit := Pipeline.arrays_of_unscopedBufs (p := (28 : Fin 34)) (pcfgs (F := F)) a pdats (launch28 (F := F)).win (launch28 (F := F)).arr_whole c
      ((pdats (28 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen28 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (28 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq28]; unfold Phi28
    iintro ⟨⟨Hx, Hos⟩, Ht, Hr⟩
    isplitl [Hx]; · iexact Hx
    isplitl [Hos]; · iexact Hos
    isplitl [Ht]; · iexact Ht
    iexact Hr
  hout c := by
    rw [ownSemsListed28, hd c, Phi_eq28]; unfold Phi28
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (28 : Fin 34)) (pcfgs (F := F)) a (Ix := Unit) (Name := ℕ) (U := UU nD τ) (Lvl := ℕ)
      (launch28 (F := F)).win (launch28 (F := F)).arr_whole c pdats ((pdats (28 : Fin 34) c).share_full fun _ => by rw [hd c]; rfl)
      (Vr Vin c) (Vr (Vout28 (a (28 : Fin 34)) Vin) c) ((pdats (28 : Fin 34) c).arrAt · (cfg28 (a (28 : Fin 34))).N)
      (fun w => by rw [hd c]; exact hF28 (a (28 : Fin 34)) Vin c w) (hrest28 (a (28 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen28 Vin c).symm)
      isplitl [Ht]; · rw [← htbl c]; iexact Ht
      isplitl [Hx]; · iexact Hx
      iexact Hz
    unfold Pipeline.Dat.owesAt Pipeline.owesWithin
    rw [show (pdats (28 : Fin 34) c).owed (Fin.last _) = 0 from by rw [hd c]; rfl]
    icases HO with ⟨%W, -, HO⟩; iexists W; iexact HO

end Cert.Kernel.Hand

end
-- ==== Proof.K.GatherDat29.lean ====
/-
  Gather region 29 (custom_call 29): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem29 : Fin 8 → SemLoc sig := fun | 0 => .dma 344 | 1 => .dma 345 | 2 => .dma 346 | 3 => .dma 347 | 4 => .dma 348 | 5 => .dma 349 | 6 => .dma 350 | 7 => .dma 351

/-- The eight counters at zero, as the run finds them and hands them back. -/
abbrev sems29 (c : Dev nD) : sProp (MM F) :=
  iprop(semVal ((c : Thread nD τ), osem29 0) 0 ∗ semVal ((c : Thread nD τ), osem29 1) 0 ∗ semVal ((c : Thread nD τ), osem29 2) 0
    ∗ semVal ((c : Thread nD τ), osem29 3) 0 ∗ semVal ((c : Thread nD τ), osem29 4) 0 ∗ semVal ((c : Thread nD τ), osem29 5) 0
    ∗ semVal ((c : Thread nD τ), osem29 6) 0 ∗ semVal ((c : Thread nD τ), osem29 7) 0)

/-- Word `j` of the eight the index table holds for point `i`, as the kernel's scalar load reads it. -/
def tblWord29 (c : Dev nD) (i : grid29.Coords) (tbl : Bf (F := F) c (Memref.whole main_v195)) (j : Fin 8) : BitVec 32 :=
  (Memref.whole main_v195).view.readAt (Elt F) (Rect.unit (s := S131072) (k29_off1 i (BitVec.ofNat 32 j.val)) S1.size (k29_off1_inb i j)).toLoadRect tbl
    (Shape.Idx.first (s := S1) (numel1_S1.symm ▸ Nat.one_pos))

/-- Window `w`'s block at point `t`, read off its array at the region's entry. -/
def iblk29 (a0 : (pcfg29 (F := F)).Adm) (Vin : Dev nD → Valuation τ sig (Elt F)) (c : Dev nD) (w : Fin (cfg29 a0).W) (t : Fin (cfg29 a0).N) :
    (((cfg29 a0).win w).xblock ((cfg29 a0).grid.coords t)).Idx → Elt F ((cfg29 a0).win w).elt :=
  (((cfg29 a0).win w).blk t).view.read (Elt F) (Vr Vin c (Pipeline.arrRef spec29 w))

/-- The result array the region leaves: the gathered and scaled rows of the embedding array, whole. -/
def gout29 (a0 : (pcfg29 (F := F)).Adm) (Vin : Dev nD → Valuation τ sig (Elt F)) (c : Dev nD) : Buf (Elt F) ((c : Thread nD τ).loc main_v197) :=
  gatherArr (Vr Vin c main_v109) (a0.1 0) (Vr Vin c main_v196)

/-- The invariant between points: the embedding array as entered, the kernel's semaphores at zero, the index table, the
    scoped buffers no window stages (the kernel's scratch among them). -/
def Phi29 (a0 : (pcfg29 (F := F)).Adm) (Vin : Dev nD → Valuation τ sig (Elt F)) (c : Dev nD) : sProp (MM F) :=
  iprop(pt c (Memref.whole main_v109) (Vr Vin c main_v109) ∗ sems29 c
    ∗ Pipeline.prefHeld (Ix := Unit) (Name := ℕ) (U := UU nD τ) (Lvl := ℕ) pre29 c (fun _ => fullShare) a0.1
    ∗ Pipeline.scopedRest (Ix := Unit) (Name := ℕ) (U := UU nD τ) (Lvl := ℕ) (Val := Elt F) spec29 c)

/-- The proof data on core `c`. -/
def dat29 (a0 : (pcfg29 (F := F)).Adm) (Vin : Dev nD → Valuation τ sig (Elt F)) (c : Dev nD) :
    Pipeline.Dat τ (Elt F) Unit ℕ (UU nD τ) ℕ ((pcfg29 (F := F)).at a0) c where
  A w := Vr Vin c (Pipeline.arrRef spec29 w)
  after w t := match w with
    | ⟨0, _⟩ => iblk29 a0 Vin c 0 t
    | ⟨1, _⟩ => (((cfg29 a0).win 1).blk t).view.read (Elt F) (gout29 a0 Vin c)
  Φ _ := Phi29 a0 Vin c
  q _ := fullShare
  owed _ := 0

theorem A_eq29 (a0 : (pcfg29 (F := F)).Adm) (Vin : Dev nD → Valuation τ sig (Elt F)) (c : Dev nD) (w : Fin (cfg29 a0).W) :
    (dat29 a0 Vin c).A w = Vr Vin c (Pipeline.arrRef spec29 w) := by dsimp only [dat29]
theorem after29_0 (a0 : (pcfg29 (F := F)).Adm) (Vin : Dev nD → Valuation τ sig (Elt F)) (c : Dev nD) (t : Fin (cfg29 a0).N) :
    (dat29 a0 Vin c).after 0 t = iblk29 a0 Vin c 0 t := by dsimp only [dat29]; rfl
theorem after29_1 (a0 : (pcfg29 (F := F)).Adm) (Vin : Dev nD → Valuation τ sig (Elt F)) (c : Dev nD) (t : Fin (cfg29 a0).N) :
    (dat29 a0 Vin c).after 1 t = (((cfg29 a0).win 1).blk t).view.read (Elt F) (gout29 a0 Vin c) := by dsimp only [dat29]; rfl
theorem Phi_eq29 (a0 : (pcfg29 (F := F)).Adm) (Vin : Dev nD → Valuation τ sig (Elt F)) (c : Dev nD) (t : Fin ((cfg29 a0).N + 1)) :
    (dat29 a0 Vin c).Φ t = Phi29 a0 Vin c := rfl
theorem owed_eq29 (a0 : (pcfg29 (F := F)).Adm) (Vin : Dev nD → Valuation τ sig (Elt F)) (c : Dev nD) (t : Fin ((cfg29 a0).N + 1)) :
    (dat29 a0 Vin c).owed t = 0 := rfl
theorem q_eq29 (a0 : (pcfg29 (F := F)).Adm) (Vin : Dev nD → Valuation τ sig (Elt F)) (c : Dev nD) (w : Fin (cfg29 a0).W) :
    (dat29 a0 Vin c).q w = fullShare := rfl

/-- The pinned family's configuration at region 29 is this one. -/
example (a : (p : Fin 34) → (pcfgs (F := F) p).Adm) : Pipeline.pin (pcfgs (F := F)) a (29 : Fin 34) = (pcfg29 (F := F)).at (a (29 : Fin 34)) := rfl

end Cert.Kernel.Hand

end
-- ==== Proof.K.GatherBody29.lean ====
/-
  Gather region 29 (custom_call 29): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat29
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk29 (c : Dev nD) (i : grid29.Coords) (tbl : Bf (F := F) c (Memref.whole main_v195)) : Prop where
  h1 : k29_chk1 (tblWord29 c i tbl 0)
  h2 : k29_chk2 (tblWord29 c i tbl 1)
  h3 : k29_chk3 (tblWord29 c i tbl 2)
  h4 : k29_chk4 (tblWord29 c i tbl 3)
  h5 : k29_chk5 (tblWord29 c i tbl 4)
  h6 : k29_chk6 (tblWord29 c i tbl 5)
  h7 : k29_chk7 (tblWord29 c i tbl 6)
  h8 : k29_chk8 (tblWord29 c i tbl 7)

/-- A one-row slice of the embedding array at the row a word names, read at lane `z 1`: the array's element there. -/
theorem rowRead29 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun29 (c : Dev nD) (i : grid29.Coords)
    (M3 : Memref sig .tc .vmem S8x1 .f32) (h3 : M3.IsWhole) (M4 : Memref sig .tc .vmem S8x128 .f32) (h4 : M4.IsWhole)
    (tbl : Bf (F := F) c (Memref.whole main_v195)) (x : Bf (F := F) c (Memref.whole main_v109))
    (vb : Vec F S8x1 .f32) (hchk : GatherChk29 c i tbl) (Q : PUnit → sProp (MM F)) :
    iprop(pt c (Memref.whole main_v195) tbl ∗ pt c (Memref.whole main_v109) x
      ∗ owns (c : Thread nD τ) M3 fullShare vb ∗ (∃ d, owns (c : Thread nD τ) M4 fullShare d)
      ∗ (∃ fs, pt c (Memref.whole cc29_scratch0) fs) ∗ sems29 c ∗ (∃ W, owes (c : Thread nD τ) (0 : CellTallies nD τ sig Unit) W)
      ∗ (iprop(pt c (Memref.whole main_v195) tbl ∗ pt c (Memref.whole main_v109) x
          ∗ owns (c : Thread nD τ) M3 fullShare vb ∗ owns (c : Thread nD τ) M4 fullShare (gatherBlk x (tblWord29 c i tbl) vb)
          ∗ (∃ fs, pt c (Memref.whole cc29_scratch0) fs) ∗ sems29 c ∗ (∃ W, owes (c : Thread nD τ) (0 : CellTallies nD τ sig Unit) W)) -∗ Q ⟨⟩))
    ⊢ wp frame (wpE (defs₀ (F := F)) 𝒱₀ c none) Set.univ
        (cc29__gather_kernel i (Memref.whole main_v195) (Memref.isWhole_whole _) (Memref.whole main_v109) (Memref.isWhole_whole _) M3 h3 M4 h4
          (Memref.whole cc29_scratch0) (Memref.isWhole_whole _) cc29_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 344).1 $$ Hx
  icases Hx' with ⟨Hxr, Hx0, Hx1, Hx2, Hx3, Hx4, Hx5, Hx6, Hx7⟩
  sl_unfold [cc29__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 344).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k29_pay1 gatherBlk
    show FloatOps.mulf _ _ = FloatOps.mulf _ _
    congr 1
    · unfold gatherRun29.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun29.sl.dma8 gatherRun29.sl.dma8_1 gatherRun29.sl.dma8_2 gatherRun29.sl.dma8_3 gatherRun29.sl.dma8_4 gatherRun29.sl.dma8_5
        gatherRun29.sl.dma8_6 gatherRun29.sl.dma8_7 gatherRun29.sl.r gatherRun29.sl.r_1 gatherRun29.sl.r_2 gatherRun29.sl.r_3 gatherRun29.sl.r_4
        gatherRun29.sl.r_5 gatherRun29.sl.r_6 gatherRun29.sl.r_7
      refine canonRows8 _ _ _ _ _ _ _ _ _ _ _ _ _ _ _ _ (fun r d => x (embIdx (rowOf (tblWord29 c i tbl r)) d)) ?_ ?_ ?_ ?_ ?_ ?_ ?_ ?_ y
      · exact fun z => rowRead29 c _ (tblWord29 c i tbl 0) rfl rfl _ _ x z
      · exact fun z => rowRead29 c _ (tblWord29 c i tbl 1) rfl rfl _ _ x z
      · exact fun z => rowRead29 c _ (tblWord29 c i tbl 2) rfl rfl _ _ x z
      · exact fun z => rowRead29 c _ (tblWord29 c i tbl 3) rfl rfl _ _ x z
      · exact fun z => rowRead29 c _ (tblWord29 c i tbl 4) rfl rfl _ _ x z
      · exact fun z => rowRead29 c _ (tblWord29 c i tbl 5) rfl rfl _ _ x z
      · exact fun z => rowRead29 c _ (tblWord29 c i tbl 6) rfl rfl _ _ x z
      · exact fun z => rowRead29 c _ (tblWord29 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk29.lean ====
/-
  Gather region 29 (custom_call 29): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat29
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word29 (i : grid29.Coords) (j : Fin 8) : k29_off1 i (BitVec.ofNat 32 j.val) 0 = (i 0).val * 8 + j.val := by
  have hi : (i 0).val < 16384 := (i 0).isLt
  have hj : j.val < 8 := j.isLt
  unfold k29_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word29 (i : grid29.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord29_eq (c : Dev nD) (i : grid29.Coords) (tbl : Bf (F := F) c (Memref.whole main_v195)) (j : Fin 8)
    (e : Fin 131072) (he : e.val = (i 0).val * 8 + j.val) : tblWord29 c i tbl j = tbl (tblIdx e) := by
  unfold tblWord29
  show tbl _ = tbl _
  refine congrArg tbl ?_
  funext a; apply Fin.ext
  match a with
  | ⟨0, _⟩ =>
    show k29_off1 i (BitVec.ofNat 32 j.val) 0 + 1 * 0 = e.val
    rw [off_word29, he]; omega

/-- Row `j` of the value window's block at point `t` is the value array's row `8 t + j`. -/
theorem valBlk29_eq (a0 : (pcfg29 (F := F)).Adm) (Vin : Dev nD → Valuation τ sig (Elt F)) (c : Dev nD) (t : Fin (cfg29 a0).N)
    (j : Fin 8) (e : Fin 131072) (he : e.val = ((grid29.coords t) 0).val * 8 + j.val) :
    iblk29 a0 Vin c 0 t (colIdx j) = Vr Vin c main_v196 (valIdx e) := by
  unfold iblk29
  show Vr Vin c main_v196 _ = Vr Vin c main_v196 _
  refine congrArg (Vr Vin c main_v196) ?_
  funext a; apply Fin.ext
  match a with
  | ⟨0, _⟩ =>
    show (BitVec.ofNat 32 ((grid29.coords t) 0).val).toNat * 8 + 1 * j.val = e.val
    rw [coord_word29, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk29 (a0 : (pcfg29 (F := F)).Adm) (Vin : Dev nD → Valuation τ sig (Elt F)) (c : Dev nD) (t : Fin (cfg29 a0).N) :
    gatherBlk (Vr Vin c main_v109) (tblWord29 c (grid29.coords t) (a0.1 0)) (iblk29 a0 Vin c 0 t)
      = (((cfg29 a0).win 1).blk t).view.read (Elt F) (gout29 a0 Vin c) := by
  funext y
  show gatherBlk _ _ _ y = gout29 a0 Vin c ((((cfg29 a0).win 1).blk t).view.emb y)
  unfold gatherBlk gout29 gatherArr
  have e0 : ((((cfg29 a0).win 1).blk t).view.emb y (0 : Fin 2)).val = ((grid29.coords t) 0).val * 8 + (y 0).val := by
    show (BitVec.ofNat 32 ((grid29.coords t) 0).val).toNat * 8 + 1 * (y 0).val = _
    rw [coord_word29]; omega
  have e1 : (((cfg29 a0).win 1).blk t).view.emb y (1 : Fin 2) = y 1 := Fin.ext (by
    show (0#32 : BitVec 32).toNat * 128 + 1 * (y 1).val = (y 1).val
    show 0 * 128 + 1 * (y 1).val = (y 1).val
    omega)
  rw [tblWord29_eq c (grid29.coords t) (a0.1 0) (y 0) _ e0, valBlk29_eq a0 Vin c t (y 0) _ e0, e1]

end Cert.Kernel.Hand

end
-- ==== Proof.K.GatherRegion29.lean ====
/-
  Gather region 29 (custom_call 29): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody29
import proofs.«414509_j14181982011419_2_alg».proof.Proof.K.GatherBlk29
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk29 (a0 : (pcfg29 (F := F)).Adm) : Prop := ∀ e : S131072.Idx, (a0.1 0 e).toNat < 100000

/-! ## The grid and the result window's blocks -/

/-- On the one-axis grid a point's coordinate is its number. -/
theorem regCoords29 (t : Fin grid29.N) : (grid29.coords t 0).val = t.val := by
  have ht : t.val < 16384 := N_29 ▸ t.isLt
  show t.val / grid29.stride 0 % grid29.bound 0 = t.val
  rw [show grid29.stride 0 = 1 from by decide, show grid29.bound 0 = 16384 from rfl, Nat.div_one, Nat.mod_eq_of_lt ht]

/-- A point's number as the 32-bit word the index maps compute with. -/
theorem regWord29 (t : Fin grid29.N) : (BitVec.ofNat 32 (grid29.coords t 0).val).toNat = t.val := by
  have ht : t.val < 16384 := N_29 ▸ t.isLt
  rw [BitVec.toNat_ofNat, regCoords29]; omega

/-- The result window's block at point `t` is block `t` along the rows, at zero along the lanes. -/
theorem regOutIndex29 (a0 : (pcfg29 (F := F)).Adm) (t : Fin (cfg29 a0).N) : ((cfg29 a0).win 1).index t = ![t.val, 0] := by
  show cc29_transform_2 (grid29.coords t) = _
  unfold cc29_transform_2
  funext a; fin_cases a
  · exact regWord29 t
  · rfl

/-- The result window is written back at every point: consecutive points have different blocks. -/
theorem regOutFlush29 (a0 : (pcfg29 (F := F)).Adm) (t : Fin (cfg29 a0).N) : ((cfg29 a0).win 1).flush t = true := by
  have htN : t.val < 16384 := N_29 ▸ t.isLt
  rw [Pipeline.Window.flush_out _ rfl]
  by_cases h : t.val + 1 = 16384
  · exact Or.inl (show t.val + 1 = grid29.N by rw [N_29]; exact h)
  · have hlt : t.val + 1 < grid29.N := by rw [N_29]; omega
    refine Or.inr ⟨hlt, fun e => ?_⟩
    have e' : (![t.val + 1, 0] : Fin 2 → ℕ) = ![t.val, 0] := (regOutIndex29 a0 ⟨t.val + 1, hlt⟩).symm.trans (e.trans (regOutIndex29 a0 t))
    have e0 := congrFun e' 0
    simp at e0

/-- The index table, held as the pipeline's one prefetched table. -/
theorem prefHeldEq29 (a0 : (pcfg29 (F := F)).Adm) (c : Dev nD) :
    (Pipeline.prefHeld (Ix := Unit) (Name := ℕ) (U := UU nD τ) (Lvl := ℕ) pre29 c (fun _ => fullShare) a0.1 : sProp (MM F))
      = pt c (Memref.whole main_v195) (a0.1 0) := by
  unfold Pipeline.prefHeld
  rw [show (Finset.univ : Finset (Fin pre29.K)) = {0} from rfl, BI.bigSep_singleton]
  rfl

/-- The value window's staging buffer holds its block at every point. -/
theorem beforeVal29 (a0 : (pcfg29 (F := F)).Adm) (Vin : Dev nD → Valuation τ sig (Elt F)) (c : Dev nD) (t : Fin (cfg29 a0).N) (d) :
    (dat29 a0 Vin c).before 0 t d = iblk29 a0 Vin c 0 t :=
  ((dat29 a0 Vin c).before_in_eq_fetched 0 rfl (fun _ => rfl) (fun _ _ _ => rfl)
    (fun t => by rw [after29_0]; unfold Dat.blockOf iblk29; rw [A_eq29]; try rfl) t d).trans
    (by unfold Dat.fetched Dat.blockOf iblk29; rw [A_eq29]; try rfl)

/-! ## The kernel's checks, from the table's range -/

/-- Each of the point's eight words is a word of the table, so a row number. -/
theorem tblWordLt29 (a0 : (pcfg29 (F := F)).Adm) (hok : GatherOk29 a0) (c : Dev nD) (i : grid29.Coords) (j : Fin 8) :
    (tblWord29 c i (a0.1 0) j).toNat < 100000 := by
  unfold tblWord29
  exact hok _

/-- So the kernel's eight checks hold at every point. -/
theorem gatherChk29 (a0 : (pcfg29 (F := F)).Adm) (hok : GatherOk29 a0) (c : Dev nD) (i : grid29.Coords) : GatherChk29 c i (a0.1 0) :=
  ⟨⟨chkRow _ (tblWordLt29 a0 hok c i 0), chkRow _ (tblWordLt29 a0 hok c i 0)⟩,
   ⟨chkRow _ (tblWordLt29 a0 hok c i 1), chkRow _ (tblWordLt29 a0 hok c i 1)⟩,
   ⟨chkRow _ (tblWordLt29 a0 hok c i 2), chkRow _ (tblWordLt29 a0 hok c i 2)⟩,
   ⟨chkRow _ (tblWordLt29 a0 hok c i 3), chkRow _ (tblWordLt29 a0 hok c i 3)⟩,
   ⟨chkRow _ (tblWordLt29 a0 hok c i 4), chkRow _ (tblWordLt29 a0 hok c i 4)⟩,
   ⟨chkRow _ (tblWordLt29 a0 hok c i 5), chkRow _ (tblWordLt29 a0 hok c i 5)⟩,
   ⟨chkRow _ (tblWordLt29 a0 hok c i 6), chkRow _ (tblWordLt29 a0 hok c i 6)⟩,
   chkRow _ (tblWordLt29 a0 hok c i 7)⟩

/-! ## The body obligation, at a generic point -/

/-- What the body is called with at point `t`: the invariant, the core's dues, each window's current staging memref at
    what the pipeline left there, -/
def bodyPre29 (a0 : (pcfg29 (F := F)).Adm) (Vin : Dev nD → Valuation τ sig (Elt F)) (c : Dev nD) (t : Fin (cfg29 a0).N) : sProp (MM F) :=
  iprop((dat29 a0 Vin c).Φ t.castSucc ∗ (dat29 a0 Vin c).owesAt () t.castSucc
    ∗ (∃ d, owns (c : Thread nD τ) (((cfg29 a0).win 0).stage ((cfg29 a0).slots t 0)) fullShare ((dat29 a0 Vin c).before 0 t d))
    ∗ (∃ d, owns (c : Thread nD τ) (((cfg29 a0).win 1).stage ((cfg29 a0).slots t 1)) fullShare ((dat29 a0 Vin c).before 1 t d)))

/-- and what it returns. -/
def bodyPost29 (a0 : (pcfg29 (F := F)).Adm) (Vin : Dev nD → Valuation τ sig (Elt F)) (c : Dev nD) (t : Fin (cfg29 a0).N) : sProp (MM F) :=
  iprop((dat29 a0 Vin c).Φ t.succ ∗ (dat29 a0 Vin c).owesAt () t.succ
    ∗ owns (c : Thread nD τ) (((cfg29 a0).win 0).stage ((cfg29 a0).slots t 0)) fullShare ((dat29 a0 Vin c).after 0 t)
    ∗ owns (c : Thread nD τ) (((cfg29 a0).win 1).stage ((cfg29 a0).slots t 1)) fullShare ((dat29 a0 Vin c).after 1 t))

/-- The body at any point: the invariant opened into the embedding array, the semaphores, the table and the scratch;
    the value window's memref at its block; the checks from the table's range; so the kernel's run applies, and what it
    leaves in the result window's memref is the point's block of the gathered array. -/
theorem sound_body29 (a0 : (pcfg29 (F := F)).Adm) (hok : GatherOk29 a0) (Vin : Dev nD → Valuation τ sig (Elt F)) (c : Dev nD) (t : Fin (cfg29 a0).N) :
    bodyPre29 a0 Vin c t ⊢ wp frame (wpE (defs₀ (F := F)) 𝒱₀ c none) Set.univ
      (defs₀ .tc (cfg29 a0).body ((cfg29 a0).bodyArgs t ((cfg29 a0).slots t))) (fun _ => bodyPost29 a0 Vin c t) := by
  unfold bodyPre29 bodyPost29
  simp only [beforeVal29]
  rw [Phi_eq29, Phi_eq29, after29_0, after29_1, ← gatherBlk_blk29]
  unfold Phi29 Pipeline.Dat.owesAt Pipeline.owesWithin
  rw [owed_eq29, owed_eq29, prefHeldEq29, scopedRest29_split]
  iintro ⟨⟨Hx, Hos, Ht, ⟨%fs, Hs⟩, Hsb⟩, ⟨%W, %hW, HO⟩, ⟨%d0, H0⟩, ⟨%d1, H1⟩⟩
  iapply (gatherRun29 c (grid29.coords t) _ _ _ _ (a0.1 0) (Vr Vin c main_v109) (iblk29 a0 Vin c 0 t) (gatherChk29 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation29 (a0 : (pcfg29 (F := F)).Adm) (hok : GatherOk29 a0) (Vin : Dev nD → Valuation τ sig (Elt F)) (c : Dev nD) :
    BodyObligation (dat29 a0 Vin c) (defs₀ (F := F)) 𝒱₀ () Set.univ := fun t => by
  rw [bigSep_W29, bigSep_W29]
  exact sound_body29 a0 hok Vin c t

/-! ## From the blocks to the arrays -/

/-- The value array after the region: as entered. -/
theorem arrAt29_in (a0 : (pcfg29 (F := F)).Adm) (Vin : Dev nD → Valuation τ sig (Elt F)) (c : Dev nD) :
    (dat29 a0 Vin c).arrAt 0 (cfg29 a0).N = Vr Vin c main_v196 :=
  ((dat29 a0 Vin c).arrAt_in 0 rfl _).trans (A_eq29 a0 Vin c 0)

/-- Every index of the result array is in some point's block: row `e`, lane `d` is element `(e % 8, d)` of the block
    of point `e / 8`. -/
theorem regOutCover29 (a0 : (pcfg29 (F := F)).Adm) (i : S131072x128.Idx) :
    ∃ t : Fin (cfg29 a0).N, ((cfg29 a0).win 1).flush t = true ∧ i ∈ (((cfg29 a0).win 1).blk t).view.set := by
  have hi0 : (i 0).val < 131072 := (i 0).isLt
  have hi1 : (i 1).val < 128 := (i 1).isLt
  have hN : (i 0).val / 8 < grid29.N := by rw [N_29]; omega
  obtain ⟨t, ht⟩ : ∃ t : Fin (cfg29 a0).N, t.val = (i 0).val / 8 := ⟨⟨_, hN⟩, rfl⟩
  have hx : (((cfg29 a0).win 1).blk t).view.emb (ValueIdx.ix2 ⟨(i 0).val % 8, Nat.mod_lt _ (by decide)⟩ (i 1)) = i := by
    funext a; apply Fin.ext
    have e0 : ((cfg29 a0).win 1).index t (0 : Fin 2) = t.val := congrFun (regOutIndex29 a0 t) (0 : Fin 2)
    have e1 : ((cfg29 a0).win 1).index t (1 : Fin 2) = 0 := congrFun (regOutIndex29 a0 t) (1 : Fin 2)
    match a with
    | ⟨0, _⟩ => show ((cfg29 a0).win 1).index t (0 : Fin 2) * 8 + 1 * ((i 0).val % 8) = (i 0).val; omega
    | ⟨1, _⟩ => show ((cfg29 a0).win 1).index t (1 : Fin 2) * 128 + 1 * (i 1).val = (i 1).val; omega
  exact ⟨t, regOutFlush29 a0 t, hx ▸ (((cfg29 a0).win 1).blk t).view.emb_mem_set _⟩

/-- The result array after the region: the gathered and scaled rows, whole. -/
theorem arrAt29_out (a0 : (pcfg29 (F := F)).Adm) (Vin : Dev nD → Valuation τ sig (Elt F)) (c : Dev nD) :
    (dat29 a0 Vin c).arrAt 1 (cfg29 a0).N = gout29 a0 Vin c :=
  (dat29 a0 Vin c).arrAt_eq_of_cover 1 (gout29 a0 Vin c)
    (fun t _ => by
      show ((cfg29 a0).win 1).cut ((cfg29 a0).grid.coords t) ((dat29 a0 Vin c).after 1 t) = _
      rw [after29_1])
    (regOutCover29 a0)

/-! ## The region as a segment of @main -/

/-- The ownership layout of the kernel's eight semaphores. -/
theorem ownSemFacts29 : Pipeline.OwnSemFacts spec29 osem29 := by decide

/-- The kernel's own cells at zero, listed. -/
theorem ownSemsListed29 (c : Dev nD) :
    (Pipeline.ownSems0 (Ix := Unit) (Name := ℕ) (U := UU nD τ) (Lvl := ℕ) (Val := Elt F) (τ := τ) osem29 c : sProp (MM F)) = sems29 c :=
  Pipeline.ownSems0_eq_of_list c osem29 [0, 1, 2, 3, 4, 5, 6, 7] (by decide) (by decide)

/-- The unscoped buffers that are no window's array, no table, and not the embedding array. -/
abbrev restRefs29 : Finset (Ref sig .tc) :=
  (((Finset.univ.filter fun b : Ref sig .tc => ¬ b.isScoped) \ Finset.univ.image (Pipeline.arrRef spec29)) \ Finset.univ.image pre29.ref) \ {main_v109}

/-- Those buffers, each whole at its contents under `Vin`: what bypasses the region. -/
def Zrest29 (Vin : Dev nD → Valuation τ sig (Elt F)) (c : Dev nD) : sProp (MM F) :=
  bigSep restRefs29 fun b => ((c : Thread nD τ).loc b) ↦{fullShare} Vr Vin c b

/-- The embedding array is an unscoped buffer that is no window's array and no table. -/
theorem embArrMem29 : ({main_v109} : Finset (Ref sig .tc)) ⊆
    ((Finset.univ.filter fun b : Ref sig .tc => ¬ b.isScoped) \ Finset.univ.image (Pipeline.arrRef spec29)) \ Finset.univ.image pre29.ref := by
  decide

/-- The unscoped buffers that are no window's array: the index table, the embedding array, and the rest. -/
theorem unscopedRestOpen29 (Vin : Dev nD → Valuation τ sig (Elt F)) (c : Dev nD) :
    (Pipeline.unscopedRest (Ix := Unit) (Name := ℕ) (U := UU nD τ) (Lvl := ℕ) spec29 c (Vr Vin c) : sProp (MM F))
      = iprop(Pipeline.prefHeld pre29 c (fun _ => fullShare) (fun k => Vr Vin c (pre29.ref k))
          ∗ pt c (Memref.whole main_v109) (Vr Vin c main_v109) ∗ Zrest29 Vin c) := by
  rw [Pipeline.unscopedRest_split preFacts29 c (Vr Vin c)]
  unfold Pipeline.unscopedRestP Zrest29
  rw [BI.bigSep_sdiff_split embArrMem29, BI.bigSep_singleton]
  rfl

/-- The buffer contents when the region is left: the result array at the gathered rows, every other buffer as entered. -/
abbrev Vout29 (a0 : (pcfg29 (F := F)).Adm) (Vin : Dev nD → Valuation τ sig (Elt F)) (c : Dev nD) : Valuation τ sig (Elt F) :=
  Function.update (Vin c) main_v197 (gout29 a0 Vin c)

/-- At the exit each of the region's arrays holds what the pipeline leaves; -/
theorem hF29 (a0 : (pcfg29 (F := F)).Adm) (Vin : Dev nD → Valuation τ sig (Elt F)) (c : Dev nD) (w : Fin (cfg29 a0).W) :
    (dat29 a0 Vin c).arrAt w (cfg29 a0).N = Vr (Vout29 a0 Vin) c (Pipeline.arrRef spec29 w) := by
  match w with
  | ⟨0, _⟩ =>
    show (dat29 a0 Vin c).arrAt 0 (cfg29 a0).N = Vr (Vout29 a0 Vin) c (Pipeline.arrRef spec29 0)
    rw [arrAt29_in]
    exact (Function.update_of_ne (StableHlo.devRef_ne_of_ne (by decide) : (Proc.devRef .tc main_v196 : DevRef τ sig) ≠ Proc.devRef .tc main_v197) _ _).symm
  | ⟨1, _⟩ =>
    show (dat29 a0 Vin c).arrAt 1 (cfg29 a0).N = Vr (Vout29 a0 Vin) c (Pipeline.arrRef spec29 1)
    rw [arrAt29_out]
    exact (Function.update_self (Proc.devRef .tc main_v197 : DevRef τ sig) _ (Vin c)).symm

/-- and every other buffer what it held at entry. -/
theorem hrest29 (a0 : (pcfg29 (F := F)).Adm) (Vin : Dev nD → Valuation τ sig (Elt F)) (c : Dev nD) :
    ∀ b : Ref sig .tc, b ∉ Finset.univ.image (Pipeline.arrRef spec29) → Vr (Vout29 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat29` at the entry valuation `Vin`
    (`hd`), the index table's contents under `Vin` being the pinned ones (`htbl`) and row numbers (`hok`). -/
def reg29 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk29 (F := F) (a (29 : Fin 34)))
    (hd : ∀ c, pdats (29 : Fin 34) c = dat29 (a (29 : Fin 34)) Vin c) (htbl : ∀ c, (a (29 : Fin 34)).1 = fun k => Vr Vin c (pre29.ref k)) :
    Pipeline.RegionSeg (pcfgs (F := F)) a pdats () defs₀ 𝒱₀ L lv (29 : Fin 34) where
  win := (launch29 (F := F)).win.to₀
  block_pos := (launch29 (F := F)).block_pos
  stage_whole := (launch29 (F := F)).stage_whole
  K := Fin 8
  osem := osem29
  ho := ownSemFacts29
  hbody c := by rw [hd c]; exact (body_obligation29 (a (29 : Fin 34)) hok Vin c).loose
  hwaits := Pipeline.hwaits_of_owed_zero _ _ _ _ L lv (29 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v197 (gout29 (a (29 : Fin 34)) Vin c)) ∗ Rest c)
  X c := iprop(pt c (Memref.whole main_v109) (Vr Vin c main_v109) ∗ sems29 c)
  Y c := iprop(pt c (Memref.whole main_v109) (Vr Vin c main_v109)
    ∗ Pipeline.prefHeld (Ix := Unit) (Name := ℕ) (U := UU nD τ) (Lvl := ℕ) pre29 c (fun _ => fullShare) (a (29 : Fin 34)).1)
  Z c := Zrest29 Vin c
  hentry c := by
    rw [ownSemsListed29]
    have hsplit := Pipeline.arrays_of_unscopedBufs (p := (29 : Fin 34)) (pcfgs (F := F)) a pdats (launch29 (F := F)).win (launch29 (F := F)).arr_whole c
      ((pdats (29 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen29 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (29 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq29]; unfold Phi29
    iintro ⟨⟨Hx, Hos⟩, Ht, Hr⟩
    isplitl [Hx]; · iexact Hx
    isplitl [Hos]; · iexact Hos
    isplitl [Ht]; · iexact Ht
    iexact Hr
  hout c := by
    rw [ownSemsListed29, hd c, Phi_eq29]; unfold Phi29
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (29 : Fin 34)) (pcfgs (F := F)) a (Ix := Unit) (Name := ℕ) (U := UU nD τ) (Lvl := ℕ)
      (launch29 (F := F)).win (launch29 (F := F)).arr_whole c pdats ((pdats (29 : Fin 34) c).share_full fun _ => by rw [hd c]; rfl)
      (Vr Vin c) (Vr (Vout29 (a (29 : Fin 34)) Vin) c) ((pdats (29 : Fin 34) c).arrAt · (cfg29 (a (29 : Fin 34))).N)
      (fun w => by rw [hd c]; exact hF29 (a (29 : Fin 34)) Vin c w) (hrest29 (a (29 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen29 Vin c).symm)
      isplitl [Ht]; · rw [← htbl c]; iexact Ht
      isplitl [Hx]; · iexact Hx
      iexact Hz
    unfold Pipeline.Dat.owesAt Pipeline.owesWithin
    rw [show (pdats (29 : Fin 34) c).owed (Fin.last _) = 0 from by rw [hd c]; rfl]
    icases HO with ⟨%W, -, HO⟩; iexists W; iexact HO

end Cert.Kernel.Hand

end
-- ==== Proof.K.GatherDat30.lean ====
/-
  Gather region 30 (custom_call 30): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem30 : Fin 8 → SemLoc sig := fun | 0 => .dma 356 | 1 => .dma 357 | 2 => .dma 358 | 3 => .dma 359 | 4 => .dma 360 | 5 => .dma 361 | 6 => .dma 362 | 7 => .dma 363

/-- The eight counters at zero, as the run finds them and hands them back. -/
abbrev sems30 (c : Dev nD) : sProp (MM F) :=
  iprop(semVal ((c : Thread nD τ), osem30 0) 0 ∗ semVal ((c : Thread nD τ), osem30 1) 0 ∗ semVal ((c : Thread nD τ), osem30 2) 0
    ∗ semVal ((c : Thread nD τ), osem30 3) 0 ∗ semVal ((c : Thread nD τ), osem30 4) 0 ∗ semVal ((c : Thread nD τ), osem30 5) 0
    ∗ semVal ((c : Thread nD τ), osem30 6) 0 ∗ semVal ((c : Thread nD τ), osem30 7) 0)

/-- Word `j` of the eight the index table holds for point `i`, as the kernel's scalar load reads it. -/
def tblWord30 (c : Dev nD) (i : grid30.Coords) (tbl : Bf (F := F) c (Memref.whole main_v198)) (j : Fin 8) : BitVec 32 :=
  (Memref.whole main_v198).view.readAt (Elt F) (Rect.unit (s := S131072) (k30_off1 i (BitVec.ofNat 32 j.val)) S1.size (k30_off1_inb i j)).toLoadRect tbl
    (Shape.Idx.first (s := S1) (numel1_S1.symm ▸ Nat.one_pos))

/-- Window `w`'s block at point `t`, read off its array at the region's entry. -/
def iblk30 (a0 : (pcfg30 (F := F)).Adm) (Vin : Dev nD → Valuation τ sig (Elt F)) (c : Dev nD) (w : Fin (cfg30 a0).W) (t : Fin (cfg30 a0).N) :
    (((cfg30 a0).win w).xblock ((cfg30 a0).grid.coords t)).Idx → Elt F ((cfg30 a0).win w).elt :=
  (((cfg30 a0).win w).blk t).view.read (Elt F) (Vr Vin c (Pipeline.arrRef spec30 w))

/-- The result array the region leaves: the gathered and scaled rows of the embedding array, whole. -/
def gout30 (a0 : (pcfg30 (F := F)).Adm) (Vin : Dev nD → Valuation τ sig (Elt F)) (c : Dev nD) : Buf (Elt F) ((c : Thread nD τ).loc main_v200) :=
  gatherArr (Vr Vin c main_v109) (a0.1 0) (Vr Vin c main_v199)

/-- The invariant between points: the embedding array as entered, the kernel's semaphores at zero, the index table, the
    scoped buffers no window stages (the kernel's scratch among them). -/
def Phi30 (a0 : (pcfg30 (F := F)).Adm) (Vin : Dev nD → Valuation τ sig (Elt F)) (c : Dev nD) : sProp (MM F) :=
  iprop(pt c (Memref.whole main_v109) (Vr Vin c main_v109) ∗ sems30 c
    ∗ Pipeline.prefHeld (Ix := Unit) (Name := ℕ) (U := UU nD τ) (Lvl := ℕ) pre30 c (fun _ => fullShare) a0.1
    ∗ Pipeline.scopedRest (Ix := Unit) (Name := ℕ) (U := UU nD τ) (Lvl := ℕ) (Val := Elt F) spec30 c)

/-- The proof data on core `c`. -/
def dat30 (a0 : (pcfg30 (F := F)).Adm) (Vin : Dev nD → Valuation τ sig (Elt F)) (c : Dev nD) :
    Pipeline.Dat τ (Elt F) Unit ℕ (UU nD τ) ℕ ((pcfg30 (F := F)).at a0) c where
  A w := Vr Vin c (Pipeline.arrRef spec30 w)
  after w t := match w with
    | ⟨0, _⟩ => iblk30 a0 Vin c 0 t
    | ⟨1, _⟩ => (((cfg30 a0).win 1).blk t).view.read (Elt F) (gout30 a0 Vin c)
  Φ _ := Phi30 a0 Vin c
  q _ := fullShare
  owed _ := 0

theorem A_eq30 (a0 : (pcfg30 (F := F)).Adm) (Vin : Dev nD → Valuation τ sig (Elt F)) (c : Dev nD) (w : Fin (cfg30 a0).W) :
    (dat30 a0 Vin c).A w = Vr Vin c (Pipeline.arrRef spec30 w) := by dsimp only [dat30]
theorem after30_0 (a0 : (pcfg30 (F := F)).Adm) (Vin : Dev nD → Valuation τ sig (Elt F)) (c : Dev nD) (t : Fin (cfg30 a0).N) :
    (dat30 a0 Vin c).after 0 t = iblk30 a0 Vin c 0 t := by dsimp only [dat30]; rfl
theorem after30_1 (a0 : (pcfg30 (F := F)).Adm) (Vin : Dev nD → Valuation τ sig (Elt F)) (c : Dev nD) (t : Fin (cfg30 a0).N) :
    (dat30 a0 Vin c).after 1 t = (((cfg30 a0).win 1).blk t).view.read (Elt F) (gout30 a0 Vin c) := by dsimp only [dat30]; rfl
theorem Phi_eq30 (a0 : (pcfg30 (F := F)).Adm) (Vin : Dev nD → Valuation τ sig (Elt F)) (c : Dev nD) (t : Fin ((cfg30 a0).N + 1)) :
    (dat30 a0 Vin c).Φ t = Phi30 a0 Vin c := rfl
theorem owed_eq30 (a0 : (pcfg30 (F := F)).Adm) (Vin : Dev nD → Valuation τ sig (Elt F)) (c : Dev nD) (t : Fin ((cfg30 a0).N + 1)) :
    (dat30 a0 Vin c).owed t = 0 := rfl
theorem q_eq30 (a0 : (pcfg30 (F := F)).Adm) (Vin : Dev nD → Valuation τ sig (Elt F)) (c : Dev nD) (w : Fin (cfg30 a0).W) :
    (dat30 a0 Vin c).q w = fullShare := rfl

/-- The pinned family's configuration at region 30 is this one. -/
example (a : (p : Fin 34) → (pcfgs (F := F) p).Adm) : Pipeline.pin (pcfgs (F := F)) a (30 : Fin 34) = (pcfg30 (F := F)).at (a (30 : Fin 34)) := rfl

end Cert.Kernel.Hand

end
-- ==== Proof.K.GatherBody30.lean ====
/-
  Gather region 30 (custom_call 30): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat30
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk30 (c : Dev nD) (i : grid30.Coords) (tbl : Bf (F := F) c (Memref.whole main_v198)) : Prop where
  h1 : k30_chk1 (tblWord30 c i tbl 0)
  h2 : k30_chk2 (tblWord30 c i tbl 1)
  h3 : k30_chk3 (tblWord30 c i tbl 2)
  h4 : k30_chk4 (tblWord30 c i tbl 3)
  h5 : k30_chk5 (tblWord30 c i tbl 4)
  h6 : k30_chk6 (tblWord30 c i tbl 5)
  h7 : k30_chk7 (tblWord30 c i tbl 6)
  h8 : k30_chk8 (tblWord30 c i tbl 7)

/-- A one-row slice of the embedding array at the row a word names, read at lane `z 1`: the array's element there. -/
theorem rowRead30 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun30 (c : Dev nD) (i : grid30.Coords)
    (M3 : Memref sig .tc .vmem S8x1 .f32) (h3 : M3.IsWhole) (M4 : Memref sig .tc .vmem S8x128 .f32) (h4 : M4.IsWhole)
    (tbl : Bf (F := F) c (Memref.whole main_v198)) (x : Bf (F := F) c (Memref.whole main_v109))
    (vb : Vec F S8x1 .f32) (hchk : GatherChk30 c i tbl) (Q : PUnit → sProp (MM F)) :
    iprop(pt c (Memref.whole main_v198) tbl ∗ pt c (Memref.whole main_v109) x
      ∗ owns (c : Thread nD τ) M3 fullShare vb ∗ (∃ d, owns (c : Thread nD τ) M4 fullShare d)
      ∗ (∃ fs, pt c (Memref.whole cc30_scratch0) fs) ∗ sems30 c ∗ (∃ W, owes (c : Thread nD τ) (0 : CellTallies nD τ sig Unit) W)
      ∗ (iprop(pt c (Memref.whole main_v198) tbl ∗ pt c (Memref.whole main_v109) x
          ∗ owns (c : Thread nD τ) M3 fullShare vb ∗ owns (c : Thread nD τ) M4 fullShare (gatherBlk x (tblWord30 c i tbl) vb)
          ∗ (∃ fs, pt c (Memref.whole cc30_scratch0) fs) ∗ sems30 c ∗ (∃ W, owes (c : Thread nD τ) (0 : CellTallies nD τ sig Unit) W)) -∗ Q ⟨⟩))
    ⊢ wp frame (wpE (defs₀ (F := F)) 𝒱₀ c none) Set.univ
        (cc30__gather_kernel i (Memref.whole main_v198) (Memref.isWhole_whole _) (Memref.whole main_v109) (Memref.isWhole_whole _) M3 h3 M4 h4
          (Memref.whole cc30_scratch0) (Memref.isWhole_whole _) cc30_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 356).1 $$ Hx
  icases Hx' with ⟨Hxr, Hx0, Hx1, Hx2, Hx3, Hx4, Hx5, Hx6, Hx7⟩
  sl_unfold [cc30__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 356).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k30_pay1 gatherBlk
    show FloatOps.mulf _ _ = FloatOps.mulf _ _
    congr 1
    · unfold gatherRun30.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun30.sl.dma8 gatherRun30.sl.dma8_1 gatherRun30.sl.dma8_2 gatherRun30.sl.dma8_3 gatherRun30.sl.dma8_4 gatherRun30.sl.dma8_5
        gatherRun30.sl.dma8_6 gatherRun30.sl.dma8_7 gatherRun30.sl.r gatherRun30.sl.r_1 gatherRun30.sl.r_2 gatherRun30.sl.r_3 gatherRun30.sl.r_4
        gatherRun30.sl.r_5 gatherRun30.sl.r_6 gatherRun30.sl.r_7
      refine canonRows8 _ _ _ _ _ _ _ _ _ _ _ _ _ _ _ _ (fun r d => x (embIdx (rowOf (tblWord30 c i tbl r)) d)) ?_ ?_ ?_ ?_ ?_ ?_ ?_ ?_ y
      · exact fun z => rowRead30 c _ (tblWord30 c i tbl 0) rfl rfl _ _ x z
      · exact fun z => rowRead30 c _ (tblWord30 c i tbl 1) rfl rfl _ _ x z
      · exact fun z => rowRead30 c _ (tblWord30 c i tbl 2) rfl rfl _ _ x z
      · exact fun z => rowRead30 c _ (tblWord30 c i tbl 3) rfl rfl _ _ x z
      · exact fun z => rowRead30 c _ (tblWord30 c i tbl 4) rfl rfl _ _ x z
      · exact fun z => rowRead30 c _ (tblWord30 c i tbl 5) rfl rfl _ _ x z
      · exact fun z => rowRead30 c _ (tblWord30 c i tbl 6) rfl rfl _ _ x z
      · exact fun z => rowRead30 c _ (tblWord30 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk30.lean ====
/-
  Gather region 30 (custom_call 30): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat30
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word30 (i : grid30.Coords) (j : Fin 8) : k30_off1 i (BitVec.ofNat 32 j.val) 0 = (i 0).val * 8 + j.val := by
  have hi : (i 0).val < 16384 := (i 0).isLt
  have hj : j.val < 8 := j.isLt
  unfold k30_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word30 (i : grid30.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord30_eq (c : Dev nD) (i : grid30.Coords) (tbl : Bf (F := F) c (Memref.whole main_v198)) (j : Fin 8)
    (e : Fin 131072) (he : e.val = (i 0).val * 8 + j.val) : tblWord30 c i tbl j = tbl (tblIdx e) := by
  unfold tblWord30
  show tbl _ = tbl _
  refine congrArg tbl ?_
  funext a; apply Fin.ext
  match a with
  | ⟨0, _⟩ =>
    show k30_off1 i (BitVec.ofNat 32 j.val) 0 + 1 * 0 = e.val
    rw [off_word30, he]; omega

/-- Row `j` of the value window's block at point `t` is the value array's row `8 t + j`. -/
theorem valBlk30_eq (a0 : (pcfg30 (F := F)).Adm) (Vin : Dev nD → Valuation τ sig (Elt F)) (c : Dev nD) (t : Fin (cfg30 a0).N)
    (j : Fin 8) (e : Fin 131072) (he : e.val = ((grid30.coords t) 0).val * 8 + j.val) :
    iblk30 a0 Vin c 0 t (colIdx j) = Vr Vin c main_v199 (valIdx e) := by
  unfold iblk30
  show Vr Vin c main_v199 _ = Vr Vin c main_v199 _
  refine congrArg (Vr Vin c main_v199) ?_
  funext a; apply Fin.ext
  match a with
  | ⟨0, _⟩ =>
    show (BitVec.ofNat 32 ((grid30.coords t) 0).val).toNat * 8 + 1 * j.val = e.val
    rw [coord_word30, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk30 (a0 : (pcfg30 (F := F)).Adm) (Vin : Dev nD → Valuation τ sig (Elt F)) (c : Dev nD) (t : Fin (cfg30 a0).N) :
    gatherBlk (Vr Vin c main_v109) (tblWord30 c (grid30.coords t) (a0.1 0)) (iblk30 a0 Vin c 0 t)
      = (((cfg30 a0).win 1).blk t).view.read (Elt F) (gout30 a0 Vin c) := by
  funext y
  show gatherBlk _ _ _ y = gout30 a0 Vin c ((((cfg30 a0).win 1).blk t).view.emb y)
  unfold gatherBlk gout30 gatherArr
  have e0 : ((((cfg30 a0).win 1).blk t).view.emb y (0 : Fin 2)).val = ((grid30.coords t) 0).val * 8 + (y 0).val := by
    show (BitVec.ofNat 32 ((grid30.coords t) 0).val).toNat * 8 + 1 * (y 0).val = _
    rw [coord_word30]; omega
  have e1 : (((cfg30 a0).win 1).blk t).view.emb y (1 : Fin 2) = y 1 := Fin.ext (by
    show (0#32 : BitVec 32).toNat * 128 + 1 * (y 1).val = (y 1).val
    show 0 * 128 + 1 * (y 1).val = (y 1).val
    omega)
  rw [tblWord30_eq c (grid30.coords t) (a0.1 0) (y 0) _ e0, valBlk30_eq a0 Vin c t (y 0) _ e0, e1]

end Cert.Kernel.Hand

end
-- ==== Proof.K.GatherRegion30.lean ====
/-
  Gather region 30 (custom_call 30): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody30
import proofs.«414509_j14181982011419_2_alg».proof.Proof.K.GatherBlk30
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk30 (a0 : (pcfg30 (F := F)).Adm) : Prop := ∀ e : S131072.Idx, (a0.1 0 e).toNat < 100000

/-! ## The grid and the result window's blocks -/

/-- On the one-axis grid a point's coordinate is its number. -/
theorem regCoords30 (t : Fin grid30.N) : (grid30.coords t 0).val = t.val := by
  have ht : t.val < 16384 := N_30 ▸ t.isLt
  show t.val / grid30.stride 0 % grid30.bound 0 = t.val
  rw [show grid30.stride 0 = 1 from by decide, show grid30.bound 0 = 16384 from rfl, Nat.div_one, Nat.mod_eq_of_lt ht]

/-- A point's number as the 32-bit word the index maps compute with. -/
theorem regWord30 (t : Fin grid30.N) : (BitVec.ofNat 32 (grid30.coords t 0).val).toNat = t.val := by
  have ht : t.val < 16384 := N_30 ▸ t.isLt
  rw [BitVec.toNat_ofNat, regCoords30]; omega

/-- The result window's block at point `t` is block `t` along the rows, at zero along the lanes. -/
theorem regOutIndex30 (a0 : (pcfg30 (F := F)).Adm) (t : Fin (cfg30 a0).N) : ((cfg30 a0).win 1).index t = ![t.val, 0] := by
  show cc30_transform_2 (grid30.coords t) = _
  unfold cc30_transform_2
  funext a; fin_cases a
  · exact regWord30 t
  · rfl

/-- The result window is written back at every point: consecutive points have different blocks. -/
theorem regOutFlush30 (a0 : (pcfg30 (F := F)).Adm) (t : Fin (cfg30 a0).N) : ((cfg30 a0).win 1).flush t = true := by
  have htN : t.val < 16384 := N_30 ▸ t.isLt
  rw [Pipeline.Window.flush_out _ rfl]
  by_cases h : t.val + 1 = 16384
  · exact Or.inl (show t.val + 1 = grid30.N by rw [N_30]; exact h)
  · have hlt : t.val + 1 < grid30.N := by rw [N_30]; omega
    refine Or.inr ⟨hlt, fun e => ?_⟩
    have e' : (![t.val + 1, 0] : Fin 2 → ℕ) = ![t.val, 0] := (regOutIndex30 a0 ⟨t.val + 1, hlt⟩).symm.trans (e.trans (regOutIndex30 a0 t))
    have e0 := congrFun e' 0
    simp at e0

/-- The index table, held as the pipeline's one prefetched table. -/
theorem prefHeldEq30 (a0 : (pcfg30 (F := F)).Adm) (c : Dev nD) :
    (Pipeline.prefHeld (Ix := Unit) (Name := ℕ) (U := UU nD τ) (Lvl := ℕ) pre30 c (fun _ => fullShare) a0.1 : sProp (MM F))
      = pt c (Memref.whole main_v198) (a0.1 0) := by
  unfold Pipeline.prefHeld
  rw [show (Finset.univ : Finset (Fin pre30.K)) = {0} from rfl, BI.bigSep_singleton]
  rfl

/-- The value window's staging buffer holds its block at every point. -/
theorem beforeVal30 (a0 : (pcfg30 (F := F)).Adm) (Vin : Dev nD → Valuation τ sig (Elt F)) (c : Dev nD) (t : Fin (cfg30 a0).N) (d) :
    (dat30 a0 Vin c).before 0 t d = iblk30 a0 Vin c 0 t :=
  ((dat30 a0 Vin c).before_in_eq_fetched 0 rfl (fun _ => rfl) (fun _ _ _ => rfl)
    (fun t => by rw [after30_0]; unfold Dat.blockOf iblk30; rw [A_eq30]; try rfl) t d).trans
    (by unfold Dat.fetched Dat.blockOf iblk30; rw [A_eq30]; try rfl)

/-! ## The kernel's checks, from the table's range -/

/-- Each of the point's eight words is a word of the table, so a row number. -/
theorem tblWordLt30 (a0 : (pcfg30 (F := F)).Adm) (hok : GatherOk30 a0) (c : Dev nD) (i : grid30.Coords) (j : Fin 8) :
    (tblWord30 c i (a0.1 0) j).toNat < 100000 := by
  unfold tblWord30
  exact hok _

/-- So the kernel's eight checks hold at every point. -/
theorem gatherChk30 (a0 : (pcfg30 (F := F)).Adm) (hok : GatherOk30 a0) (c : Dev nD) (i : grid30.Coords) : GatherChk30 c i (a0.1 0) :=
  ⟨⟨chkRow _ (tblWordLt30 a0 hok c i 0), chkRow _ (tblWordLt30 a0 hok c i 0)⟩,
   ⟨chkRow _ (tblWordLt30 a0 hok c i 1), chkRow _ (tblWordLt30 a0 hok c i 1)⟩,
   ⟨chkRow _ (tblWordLt30 a0 hok c i 2), chkRow _ (tblWordLt30 a0 hok c i 2)⟩,
   ⟨chkRow _ (tblWordLt30 a0 hok c i 3), chkRow _ (tblWordLt30 a0 hok c i 3)⟩,
   ⟨chkRow _ (tblWordLt30 a0 hok c i 4), chkRow _ (tblWordLt30 a0 hok c i 4)⟩,
   ⟨chkRow _ (tblWordLt30 a0 hok c i 5), chkRow _ (tblWordLt30 a0 hok c i 5)⟩,
   ⟨chkRow _ (tblWordLt30 a0 hok c i 6), chkRow _ (tblWordLt30 a0 hok c i 6)⟩,
   chkRow _ (tblWordLt30 a0 hok c i 7)⟩

/-! ## The body obligation, at a generic point -/

/-- What the body is called with at point `t`: the invariant, the core's dues, each window's current staging memref at
    what the pipeline left there, -/
def bodyPre30 (a0 : (pcfg30 (F := F)).Adm) (Vin : Dev nD → Valuation τ sig (Elt F)) (c : Dev nD) (t : Fin (cfg30 a0).N) : sProp (MM F) :=
  iprop((dat30 a0 Vin c).Φ t.castSucc ∗ (dat30 a0 Vin c).owesAt () t.castSucc
    ∗ (∃ d, owns (c : Thread nD τ) (((cfg30 a0).win 0).stage ((cfg30 a0).slots t 0)) fullShare ((dat30 a0 Vin c).before 0 t d))
    ∗ (∃ d, owns (c : Thread nD τ) (((cfg30 a0).win 1).stage ((cfg30 a0).slots t 1)) fullShare ((dat30 a0 Vin c).before 1 t d)))

/-- and what it returns. -/
def bodyPost30 (a0 : (pcfg30 (F := F)).Adm) (Vin : Dev nD → Valuation τ sig (Elt F)) (c : Dev nD) (t : Fin (cfg30 a0).N) : sProp (MM F) :=
  iprop((dat30 a0 Vin c).Φ t.succ ∗ (dat30 a0 Vin c).owesAt () t.succ
    ∗ owns (c : Thread nD τ) (((cfg30 a0).win 0).stage ((cfg30 a0).slots t 0)) fullShare ((dat30 a0 Vin c).after 0 t)
    ∗ owns (c : Thread nD τ) (((cfg30 a0).win 1).stage ((cfg30 a0).slots t 1)) fullShare ((dat30 a0 Vin c).after 1 t))

/-- The body at any point: the invariant opened into the embedding array, the semaphores, the table and the scratch;
    the value window's memref at its block; the checks from the table's range; so the kernel's run applies, and what it
    leaves in the result window's memref is the point's block of the gathered array. -/
theorem sound_body30 (a0 : (pcfg30 (F := F)).Adm) (hok : GatherOk30 a0) (Vin : Dev nD → Valuation τ sig (Elt F)) (c : Dev nD) (t : Fin (cfg30 a0).N) :
    bodyPre30 a0 Vin c t ⊢ wp frame (wpE (defs₀ (F := F)) 𝒱₀ c none) Set.univ
      (defs₀ .tc (cfg30 a0).body ((cfg30 a0).bodyArgs t ((cfg30 a0).slots t))) (fun _ => bodyPost30 a0 Vin c t) := by
  unfold bodyPre30 bodyPost30
  simp only [beforeVal30]
  rw [Phi_eq30, Phi_eq30, after30_0, after30_1, ← gatherBlk_blk30]
  unfold Phi30 Pipeline.Dat.owesAt Pipeline.owesWithin
  rw [owed_eq30, owed_eq30, prefHeldEq30, scopedRest30_split]
  iintro ⟨⟨Hx, Hos, Ht, ⟨%fs, Hs⟩, Hsb⟩, ⟨%W, %hW, HO⟩, ⟨%d0, H0⟩, ⟨%d1, H1⟩⟩
  iapply (gatherRun30 c (grid30.coords t) _ _ _ _ (a0.1 0) (Vr Vin c main_v109) (iblk30 a0 Vin c 0 t) (gatherChk30 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation30 (a0 : (pcfg30 (F := F)).Adm) (hok : GatherOk30 a0) (Vin : Dev nD → Valuation τ sig (Elt F)) (c : Dev nD) :
    BodyObligation (dat30 a0 Vin c) (defs₀ (F := F)) 𝒱₀ () Set.univ := fun t => by
  rw [bigSep_W30, bigSep_W30]
  exact sound_body30 a0 hok Vin c t

/-! ## From the blocks to the arrays -/

/-- The value array after the region: as entered. -/
theorem arrAt30_in (a0 : (pcfg30 (F := F)).Adm) (Vin : Dev nD → Valuation τ sig (Elt F)) (c : Dev nD) :
    (dat30 a0 Vin c).arrAt 0 (cfg30 a0).N = Vr Vin c main_v199 :=
  ((dat30 a0 Vin c).arrAt_in 0 rfl _).trans (A_eq30 a0 Vin c 0)

/-- Every index of the result array is in some point's block: row `e`, lane `d` is element `(e % 8, d)` of the block
    of point `e / 8`. -/
theorem regOutCover30 (a0 : (pcfg30 (F := F)).Adm) (i : S131072x128.Idx) :
    ∃ t : Fin (cfg30 a0).N, ((cfg30 a0).win 1).flush t = true ∧ i ∈ (((cfg30 a0).win 1).blk t).view.set := by
  have hi0 : (i 0).val < 131072 := (i 0).isLt
  have hi1 : (i 1).val < 128 := (i 1).isLt
  have hN : (i 0).val / 8 < grid30.N := by rw [N_30]; omega
  obtain ⟨t, ht⟩ : ∃ t : Fin (cfg30 a0).N, t.val = (i 0).val / 8 := ⟨⟨_, hN⟩, rfl⟩
  have hx : (((cfg30 a0).win 1).blk t).view.emb (ValueIdx.ix2 ⟨(i 0).val % 8, Nat.mod_lt _ (by decide)⟩ (i 1)) = i := by
    funext a; apply Fin.ext
    have e0 : ((cfg30 a0).win 1).index t (0 : Fin 2) = t.val := congrFun (regOutIndex30 a0 t) (0 : Fin 2)
    have e1 : ((cfg30 a0).win 1).index t (1 : Fin 2) = 0 := congrFun (regOutIndex30 a0 t) (1 : Fin 2)
    match a with
    | ⟨0, _⟩ => show ((cfg30 a0).win 1).index t (0 : Fin 2) * 8 + 1 * ((i 0).val % 8) = (i 0).val; omega
    | ⟨1, _⟩ => show ((cfg30 a0).win 1).index t (1 : Fin 2) * 128 + 1 * (i 1).val = (i 1).val; omega
  exact ⟨t, regOutFlush30 a0 t, hx ▸ (((cfg30 a0).win 1).blk t).view.emb_mem_set _⟩

/-- The result array after the region: the gathered and scaled rows, whole. -/
theorem arrAt30_out (a0 : (pcfg30 (F := F)).Adm) (Vin : Dev nD → Valuation τ sig (Elt F)) (c : Dev nD) :
    (dat30 a0 Vin c).arrAt 1 (cfg30 a0).N = gout30 a0 Vin c :=
  (dat30 a0 Vin c).arrAt_eq_of_cover 1 (gout30 a0 Vin c)
    (fun t _ => by
      show ((cfg30 a0).win 1).cut ((cfg30 a0).grid.coords t) ((dat30 a0 Vin c).after 1 t) = _
      rw [after30_1])
    (regOutCover30 a0)

/-! ## The region as a segment of @main -/

/-- The ownership layout of the kernel's eight semaphores. -/
theorem ownSemFacts30 : Pipeline.OwnSemFacts spec30 osem30 := by decide

/-- The kernel's own cells at zero, listed. -/
theorem ownSemsListed30 (c : Dev nD) :
    (Pipeline.ownSems0 (Ix := Unit) (Name := ℕ) (U := UU nD τ) (Lvl := ℕ) (Val := Elt F) (τ := τ) osem30 c : sProp (MM F)) = sems30 c :=
  Pipeline.ownSems0_eq_of_list c osem30 [0, 1, 2, 3, 4, 5, 6, 7] (by decide) (by decide)

/-- The unscoped buffers that are no window's array, no table, and not the embedding array. -/
abbrev restRefs30 : Finset (Ref sig .tc) :=
  (((Finset.univ.filter fun b : Ref sig .tc => ¬ b.isScoped) \ Finset.univ.image (Pipeline.arrRef spec30)) \ Finset.univ.image pre30.ref) \ {main_v109}

/-- Those buffers, each whole at its contents under `Vin`: what bypasses the region. -/
def Zrest30 (Vin : Dev nD → Valuation τ sig (Elt F)) (c : Dev nD) : sProp (MM F) :=
  bigSep restRefs30 fun b => ((c : Thread nD τ).loc b) ↦{fullShare} Vr Vin c b

/-- The embedding array is an unscoped buffer that is no window's array and no table. -/
theorem embArrMem30 : ({main_v109} : Finset (Ref sig .tc)) ⊆
    ((Finset.univ.filter fun b : Ref sig .tc => ¬ b.isScoped) \ Finset.univ.image (Pipeline.arrRef spec30)) \ Finset.univ.image pre30.ref := by
  decide

/-- The unscoped buffers that are no window's array: the index table, the embedding array, and the rest. -/
theorem unscopedRestOpen30 (Vin : Dev nD → Valuation τ sig (Elt F)) (c : Dev nD) :
    (Pipeline.unscopedRest (Ix := Unit) (Name := ℕ) (U := UU nD τ) (Lvl := ℕ) spec30 c (Vr Vin c) : sProp (MM F))
      = iprop(Pipeline.prefHeld pre30 c (fun _ => fullShare) (fun k => Vr Vin c (pre30.ref k))
          ∗ pt c (Memref.whole main_v109) (Vr Vin c main_v109) ∗ Zrest30 Vin c) := by
  rw [Pipeline.unscopedRest_split preFacts30 c (Vr Vin c)]
  unfold Pipeline.unscopedRestP Zrest30
  rw [BI.bigSep_sdiff_split embArrMem30, BI.bigSep_singleton]
  rfl

/-- The buffer contents when the region is left: the result array at the gathered rows, every other buffer as entered. -/
abbrev Vout30 (a0 : (pcfg30 (F := F)).Adm) (Vin : Dev nD → Valuation τ sig (Elt F)) (c : Dev nD) : Valuation τ sig (Elt F) :=
  Function.update (Vin c) main_v200 (gout30 a0 Vin c)

/-- At the exit each of the region's arrays holds what the pipeline leaves; -/
theorem hF30 (a0 : (pcfg30 (F := F)).Adm) (Vin : Dev nD → Valuation τ sig (Elt F)) (c : Dev nD) (w : Fin (cfg30 a0).W) :
    (dat30 a0 Vin c).arrAt w (cfg30 a0).N = Vr (Vout30 a0 Vin) c (Pipeline.arrRef spec30 w) := by
  match w with
  | ⟨0, _⟩ =>
    show (dat30 a0 Vin c).arrAt 0 (cfg30 a0).N = Vr (Vout30 a0 Vin) c (Pipeline.arrRef spec30 0)
    rw [arrAt30_in]
    exact (Function.update_of_ne (StableHlo.devRef_ne_of_ne (by decide) : (Proc.devRef .tc main_v199 : DevRef τ sig) ≠ Proc.devRef .tc main_v200) _ _).symm
  | ⟨1, _⟩ =>
    show (dat30 a0 Vin c).arrAt 1 (cfg30 a0).N = Vr (Vout30 a0 Vin) c (Pipeline.arrRef spec30 1)
    rw [arrAt30_out]
    exact (Function.update_self (Proc.devRef .tc main_v200 : DevRef τ sig) _ (Vin c)).symm

/-- and every other buffer what it held at entry. -/
theorem hrest30 (a0 : (pcfg30 (F := F)).Adm) (Vin : Dev nD → Valuation τ sig (Elt F)) (c : Dev nD) :
    ∀ b : Ref sig .tc, b ∉ Finset.univ.image (Pipeline.arrRef spec30) → Vr (Vout30 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat30` at the entry valuation `Vin`
    (`hd`), the index table's contents under `Vin` being the pinned ones (`htbl`) and row numbers (`hok`). -/
def reg30 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk30 (F := F) (a (30 : Fin 34)))
    (hd : ∀ c, pdats (30 : Fin 34) c = dat30 (a (30 : Fin 34)) Vin c) (htbl : ∀ c, (a (30 : Fin 34)).1 = fun k => Vr Vin c (pre30.ref k)) :
    Pipeline.RegionSeg (pcfgs (F := F)) a pdats () defs₀ 𝒱₀ L lv (30 : Fin 34) where
  win := (launch30 (F := F)).win.to₀
  block_pos := (launch30 (F := F)).block_pos
  stage_whole := (launch30 (F := F)).stage_whole
  K := Fin 8
  osem := osem30
  ho := ownSemFacts30
  hbody c := by rw [hd c]; exact (body_obligation30 (a (30 : Fin 34)) hok Vin c).loose
  hwaits := Pipeline.hwaits_of_owed_zero _ _ _ _ L lv (30 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v200 (gout30 (a (30 : Fin 34)) Vin c)) ∗ Rest c)
  X c := iprop(pt c (Memref.whole main_v109) (Vr Vin c main_v109) ∗ sems30 c)
  Y c := iprop(pt c (Memref.whole main_v109) (Vr Vin c main_v109)
    ∗ Pipeline.prefHeld (Ix := Unit) (Name := ℕ) (U := UU nD τ) (Lvl := ℕ) pre30 c (fun _ => fullShare) (a (30 : Fin 34)).1)
  Z c := Zrest30 Vin c
  hentry c := by
    rw [ownSemsListed30]
    have hsplit := Pipeline.arrays_of_unscopedBufs (p := (30 : Fin 34)) (pcfgs (F := F)) a pdats (launch30 (F := F)).win (launch30 (F := F)).arr_whole c
      ((pdats (30 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen30 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (30 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq30]; unfold Phi30
    iintro ⟨⟨Hx, Hos⟩, Ht, Hr⟩
    isplitl [Hx]; · iexact Hx
    isplitl [Hos]; · iexact Hos
    isplitl [Ht]; · iexact Ht
    iexact Hr
  hout c := by
    rw [ownSemsListed30, hd c, Phi_eq30]; unfold Phi30
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (30 : Fin 34)) (pcfgs (F := F)) a (Ix := Unit) (Name := ℕ) (U := UU nD τ) (Lvl := ℕ)
      (launch30 (F := F)).win (launch30 (F := F)).arr_whole c pdats ((pdats (30 : Fin 34) c).share_full fun _ => by rw [hd c]; rfl)
      (Vr Vin c) (Vr (Vout30 (a (30 : Fin 34)) Vin) c) ((pdats (30 : Fin 34) c).arrAt · (cfg30 (a (30 : Fin 34))).N)
      (fun w => by rw [hd c]; exact hF30 (a (30 : Fin 34)) Vin c w) (hrest30 (a (30 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen30 Vin c).symm)
      isplitl [Ht]; · rw [← htbl c]; iexact Ht
      isplitl [Hx]; · iexact Hx
      iexact Hz
    unfold Pipeline.Dat.owesAt Pipeline.owesWithin
    rw [show (pdats (30 : Fin 34) c).owed (Fin.last _) = 0 from by rw [hd c]; rfl]
    icases HO with ⟨%W, -, HO⟩; iexists W; iexact HO

end Cert.Kernel.Hand

end
-- ==== Proof.K.GatherDat31.lean ====
/-
  Gather region 31 (custom_call 31): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem31 : Fin 8 → SemLoc sig := fun | 0 => .dma 368 | 1 => .dma 369 | 2 => .dma 370 | 3 => .dma 371 | 4 => .dma 372 | 5 => .dma 373 | 6 => .dma 374 | 7 => .dma 375

/-- The eight counters at zero, as the run finds them and hands them back. -/
abbrev sems31 (c : Dev nD) : sProp (MM F) :=
  iprop(semVal ((c : Thread nD τ), osem31 0) 0 ∗ semVal ((c : Thread nD τ), osem31 1) 0 ∗ semVal ((c : Thread nD τ), osem31 2) 0
    ∗ semVal ((c : Thread nD τ), osem31 3) 0 ∗ semVal ((c : Thread nD τ), osem31 4) 0 ∗ semVal ((c : Thread nD τ), osem31 5) 0
    ∗ semVal ((c : Thread nD τ), osem31 6) 0 ∗ semVal ((c : Thread nD τ), osem31 7) 0)

/-- Word `j` of the eight the index table holds for point `i`, as the kernel's scalar load reads it. -/
def tblWord31 (c : Dev nD) (i : grid31.Coords) (tbl : Bf (F := F) c (Memref.whole main_v201)) (j : Fin 8) : BitVec 32 :=
  (Memref.whole main_v201).view.readAt (Elt F) (Rect.unit (s := S131072) (k31_off1 i (BitVec.ofNat 32 j.val)) S1.size (k31_off1_inb i j)).toLoadRect tbl
    (Shape.Idx.first (s := S1) (numel1_S1.symm ▸ Nat.one_pos))

/-- Window `w`'s block at point `t`, read off its array at the region's entry. -/
def iblk31 (a0 : (pcfg31 (F := F)).Adm) (Vin : Dev nD → Valuation τ sig (Elt F)) (c : Dev nD) (w : Fin (cfg31 a0).W) (t : Fin (cfg31 a0).N) :
    (((cfg31 a0).win w).xblock ((cfg31 a0).grid.coords t)).Idx → Elt F ((cfg31 a0).win w).elt :=
  (((cfg31 a0).win w).blk t).view.read (Elt F) (Vr Vin c (Pipeline.arrRef spec31 w))

/-- The result array the region leaves: the gathered and scaled rows of the embedding array, whole. -/
def gout31 (a0 : (pcfg31 (F := F)).Adm) (Vin : Dev nD → Valuation τ sig (Elt F)) (c : Dev nD) : Buf (Elt F) ((c : Thread nD τ).loc main_v203) :=
  gatherArr (Vr Vin c main_v109) (a0.1 0) (Vr Vin c main_v202)

/-- The invariant between points: the embedding array as entered, the kernel's semaphores at zero, the index table, the
    scoped buffers no window stages (the kernel's scratch among them). -/
def Phi31 (a0 : (pcfg31 (F := F)).Adm) (Vin : Dev nD → Valuation τ sig (Elt F)) (c : Dev nD) : sProp (MM F) :=
  iprop(pt c (Memref.whole main_v109) (Vr Vin c main_v109) ∗ sems31 c
    ∗ Pipeline.prefHeld (Ix := Unit) (Name := ℕ) (U := UU nD τ) (Lvl := ℕ) pre31 c (fun _ => fullShare) a0.1
    ∗ Pipeline.scopedRest (Ix := Unit) (Name := ℕ) (U := UU nD τ) (Lvl := ℕ) (Val := Elt F) spec31 c)

/-- The proof data on core `c`. -/
def dat31 (a0 : (pcfg31 (F := F)).Adm) (Vin : Dev nD → Valuation τ sig (Elt F)) (c : Dev nD) :
    Pipeline.Dat τ (Elt F) Unit ℕ (UU nD τ) ℕ ((pcfg31 (F := F)).at a0) c where
  A w := Vr Vin c (Pipeline.arrRef spec31 w)
  after w t := match w with
    | ⟨0, _⟩ => iblk31 a0 Vin c 0 t
    | ⟨1, _⟩ => (((cfg31 a0).win 1).blk t).view.read (Elt F) (gout31 a0 Vin c)
  Φ _ := Phi31 a0 Vin c
  q _ := fullShare
  owed _ := 0

theorem A_eq31 (a0 : (pcfg31 (F := F)).Adm) (Vin : Dev nD → Valuation τ sig (Elt F)) (c : Dev nD) (w : Fin (cfg31 a0).W) :
    (dat31 a0 Vin c).A w = Vr Vin c (Pipeline.arrRef spec31 w) := by dsimp only [dat31]
theorem after31_0 (a0 : (pcfg31 (F := F)).Adm) (Vin : Dev nD → Valuation τ sig (Elt F)) (c : Dev nD) (t : Fin (cfg31 a0).N) :
    (dat31 a0 Vin c).after 0 t = iblk31 a0 Vin c 0 t := by dsimp only [dat31]; rfl
theorem after31_1 (a0 : (pcfg31 (F := F)).Adm) (Vin : Dev nD → Valuation τ sig (Elt F)) (c : Dev nD) (t : Fin (cfg31 a0).N) :
    (dat31 a0 Vin c).after 1 t = (((cfg31 a0).win 1).blk t).view.read (Elt F) (gout31 a0 Vin c) := by dsimp only [dat31]; rfl
theorem Phi_eq31 (a0 : (pcfg31 (F := F)).Adm) (Vin : Dev nD → Valuation τ sig (Elt F)) (c : Dev nD) (t : Fin ((cfg31 a0).N + 1)) :
    (dat31 a0 Vin c).Φ t = Phi31 a0 Vin c := rfl
theorem owed_eq31 (a0 : (pcfg31 (F := F)).Adm) (Vin : Dev nD → Valuation τ sig (Elt F)) (c : Dev nD) (t : Fin ((cfg31 a0).N + 1)) :
    (dat31 a0 Vin c).owed t = 0 := rfl
theorem q_eq31 (a0 : (pcfg31 (F := F)).Adm) (Vin : Dev nD → Valuation τ sig (Elt F)) (c : Dev nD) (w : Fin (cfg31 a0).W) :
    (dat31 a0 Vin c).q w = fullShare := rfl

/-- The pinned family's configuration at region 31 is this one. -/
example (a : (p : Fin 34) → (pcfgs (F := F) p).Adm) : Pipeline.pin (pcfgs (F := F)) a (31 : Fin 34) = (pcfg31 (F := F)).at (a (31 : Fin 34)) := rfl

end Cert.Kernel.Hand

end
-- ==== Proof.K.GatherBody31.lean ====
/-
  Gather region 31 (custom_call 31): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat31
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk31 (c : Dev nD) (i : grid31.Coords) (tbl : Bf (F := F) c (Memref.whole main_v201)) : Prop where
  h1 : k31_chk1 (tblWord31 c i tbl 0)
  h2 : k31_chk2 (tblWord31 c i tbl 1)
  h3 : k31_chk3 (tblWord31 c i tbl 2)
  h4 : k31_chk4 (tblWord31 c i tbl 3)
  h5 : k31_chk5 (tblWord31 c i tbl 4)
  h6 : k31_chk6 (tblWord31 c i tbl 5)
  h7 : k31_chk7 (tblWord31 c i tbl 6)
  h8 : k31_chk8 (tblWord31 c i tbl 7)

/-- A one-row slice of the embedding array at the row a word names, read at lane `z 1`: the array's element there. -/
theorem rowRead31 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun31 (c : Dev nD) (i : grid31.Coords)
    (M3 : Memref sig .tc .vmem S8x1 .f32) (h3 : M3.IsWhole) (M4 : Memref sig .tc .vmem S8x128 .f32) (h4 : M4.IsWhole)
    (tbl : Bf (F := F) c (Memref.whole main_v201)) (x : Bf (F := F) c (Memref.whole main_v109))
    (vb : Vec F S8x1 .f32) (hchk : GatherChk31 c i tbl) (Q : PUnit → sProp (MM F)) :
    iprop(pt c (Memref.whole main_v201) tbl ∗ pt c (Memref.whole main_v109) x
      ∗ owns (c : Thread nD τ) M3 fullShare vb ∗ (∃ d, owns (c : Thread nD τ) M4 fullShare d)
      ∗ (∃ fs, pt c (Memref.whole cc31_scratch0) fs) ∗ sems31 c ∗ (∃ W, owes (c : Thread nD τ) (0 : CellTallies nD τ sig Unit) W)
      ∗ (iprop(pt c (Memref.whole main_v201) tbl ∗ pt c (Memref.whole main_v109) x
          ∗ owns (c : Thread nD τ) M3 fullShare vb ∗ owns (c : Thread nD τ) M4 fullShare (gatherBlk x (tblWord31 c i tbl) vb)
          ∗ (∃ fs, pt c (Memref.whole cc31_scratch0) fs) ∗ sems31 c ∗ (∃ W, owes (c : Thread nD τ) (0 : CellTallies nD τ sig Unit) W)) -∗ Q ⟨⟩))
    ⊢ wp frame (wpE (defs₀ (F := F)) 𝒱₀ c none) Set.univ
        (cc31__gather_kernel i (Memref.whole main_v201) (Memref.isWhole_whole _) (Memref.whole main_v109) (Memref.isWhole_whole _) M3 h3 M4 h4
          (Memref.whole cc31_scratch0) (Memref.isWhole_whole _) cc31_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 368).1 $$ Hx
  icases Hx' with ⟨Hxr, Hx0, Hx1, Hx2, Hx3, Hx4, Hx5, Hx6, Hx7⟩
  sl_unfold [cc31__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 368).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k31_pay1 gatherBlk
    show FloatOps.mulf _ _ = FloatOps.mulf _ _
    congr 1
    · unfold gatherRun31.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun31.sl.dma8 gatherRun31.sl.dma8_1 gatherRun31.sl.dma8_2 gatherRun31.sl.dma8_3 gatherRun31.sl.dma8_4 gatherRun31.sl.dma8_5
        gatherRun31.sl.dma8_6 gatherRun31.sl.dma8_7 gatherRun31.sl.r gatherRun31.sl.r_1 gatherRun31.sl.r_2 gatherRun31.sl.r_3 gatherRun31.sl.r_4
        gatherRun31.sl.r_5 gatherRun31.sl.r_6 gatherRun31.sl.r_7
      refine canonRows8 _ _ _ _ _ _ _ _ _ _ _ _ _ _ _ _ (fun r d => x (embIdx (rowOf (tblWord31 c i tbl r)) d)) ?_ ?_ ?_ ?_ ?_ ?_ ?_ ?_ y
      · exact fun z => rowRead31 c _ (tblWord31 c i tbl 0) rfl rfl _ _ x z
      · exact fun z => rowRead31 c _ (tblWord31 c i tbl 1) rfl rfl _ _ x z
      · exact fun z => rowRead31 c _ (tblWord31 c i tbl 2) rfl rfl _ _ x z
      · exact fun z => rowRead31 c _ (tblWord31 c i tbl 3) rfl rfl _ _ x z
      · exact fun z => rowRead31 c _ (tblWord31 c i tbl 4) rfl rfl _ _ x z
      · exact fun z => rowRead31 c _ (tblWord31 c i tbl 5) rfl rfl _ _ x z
      · exact fun z => rowRead31 c _ (tblWord31 c i tbl 6) rfl rfl _ _ x z
      · exact fun z => rowRead31 c _ (tblWord31 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk31.lean ====
/-
  Gather region 31 (custom_call 31): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat31
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word31 (i : grid31.Coords) (j : Fin 8) : k31_off1 i (BitVec.ofNat 32 j.val) 0 = (i 0).val * 8 + j.val := by
  have hi : (i 0).val < 16384 := (i 0).isLt
  have hj : j.val < 8 := j.isLt
  unfold k31_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word31 (i : grid31.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord31_eq (c : Dev nD) (i : grid31.Coords) (tbl : Bf (F := F) c (Memref.whole main_v201)) (j : Fin 8)
    (e : Fin 131072) (he : e.val = (i 0).val * 8 + j.val) : tblWord31 c i tbl j = tbl (tblIdx e) := by
  unfold tblWord31
  show tbl _ = tbl _
  refine congrArg tbl ?_
  funext a; apply Fin.ext
  match a with
  | ⟨0, _⟩ =>
    show k31_off1 i (BitVec.ofNat 32 j.val) 0 + 1 * 0 = e.val
    rw [off_word31, he]; omega

/-- Row `j` of the value window's block at point `t` is the value array's row `8 t + j`. -/
theorem valBlk31_eq (a0 : (pcfg31 (F := F)).Adm) (Vin : Dev nD → Valuation τ sig (Elt F)) (c : Dev nD) (t : Fin (cfg31 a0).N)
    (j : Fin 8) (e : Fin 131072) (he : e.val = ((grid31.coords t) 0).val * 8 + j.val) :
    iblk31 a0 Vin c 0 t (colIdx j) = Vr Vin c main_v202 (valIdx e) := by
  unfold iblk31
  show Vr Vin c main_v202 _ = Vr Vin c main_v202 _
  refine congrArg (Vr Vin c main_v202) ?_
  funext a; apply Fin.ext
  match a with
  | ⟨0, _⟩ =>
    show (BitVec.ofNat 32 ((grid31.coords t) 0).val).toNat * 8 + 1 * j.val = e.val
    rw [coord_word31, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk31 (a0 : (pcfg31 (F := F)).Adm) (Vin : Dev nD → Valuation τ sig (Elt F)) (c : Dev nD) (t : Fin (cfg31 a0).N) :
    gatherBlk (Vr Vin c main_v109) (tblWord31 c (grid31.coords t) (a0.1 0)) (iblk31 a0 Vin c 0 t)
      = (((cfg31 a0).win 1).blk t).view.read (Elt F) (gout31 a0 Vin c) := by
  funext y
  show gatherBlk _ _ _ y = gout31 a0 Vin c ((((cfg31 a0).win 1).blk t).view.emb y)
  unfold gatherBlk gout31 gatherArr
  have e0 : ((((cfg31 a0).win 1).blk t).view.emb y (0 : Fin 2)).val = ((grid31.coords t) 0).val * 8 + (y 0).val := by
    show (BitVec.ofNat 32 ((grid31.coords t) 0).val).toNat * 8 + 1 * (y 0).val = _
    rw [coord_word31]; omega
  have e1 : (((cfg31 a0).win 1).blk t).view.emb y (1 : Fin 2) = y 1 := Fin.ext (by
    show (0#32 : BitVec 32).toNat * 128 + 1 * (y 1).val = (y 1).val
    show 0 * 128 + 1 * (y 1).val = (y 1).val
    omega)
  rw [tblWord31_eq c (grid31.coords t) (a0.1 0) (y 0) _ e0, valBlk31_eq a0 Vin c t (y 0) _ e0, e1]

end Cert.Kernel.Hand

end
-- ==== Proof.K.GatherRegion31.lean ====
/-
  Gather region 31 (custom_call 31): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody31
import proofs.«414509_j14181982011419_2_alg».proof.Proof.K.GatherBlk31
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk31 (a0 : (pcfg31 (F := F)).Adm) : Prop := ∀ e : S131072.Idx, (a0.1 0 e).toNat < 100000

/-! ## The grid and the result window's blocks -/

/-- On the one-axis grid a point's coordinate is its number. -/
theorem regCoords31 (t : Fin grid31.N) : (grid31.coords t 0).val = t.val := by
  have ht : t.val < 16384 := N_31 ▸ t.isLt
  show t.val / grid31.stride 0 % grid31.bound 0 = t.val
  rw [show grid31.stride 0 = 1 from by decide, show grid31.bound 0 = 16384 from rfl, Nat.div_one, Nat.mod_eq_of_lt ht]

/-- A point's number as the 32-bit word the index maps compute with. -/
theorem regWord31 (t : Fin grid31.N) : (BitVec.ofNat 32 (grid31.coords t 0).val).toNat = t.val := by
  have ht : t.val < 16384 := N_31 ▸ t.isLt
  rw [BitVec.toNat_ofNat, regCoords31]; omega

/-- The result window's block at point `t` is block `t` along the rows, at zero along the lanes. -/
theorem regOutIndex31 (a0 : (pcfg31 (F := F)).Adm) (t : Fin (cfg31 a0).N) : ((cfg31 a0).win 1).index t = ![t.val, 0] := by
  show cc31_transform_2 (grid31.coords t) = _
  unfold cc31_transform_2
  funext a; fin_cases a
  · exact regWord31 t
  · rfl

/-- The result window is written back at every point: consecutive points have different blocks. -/
theorem regOutFlush31 (a0 : (pcfg31 (F := F)).Adm) (t : Fin (cfg31 a0).N) : ((cfg31 a0).win 1).flush t = true := by
  have htN : t.val < 16384 := N_31 ▸ t.isLt
  rw [Pipeline.Window.flush_out _ rfl]
  by_cases h : t.val + 1 = 16384
  · exact Or.inl (show t.val + 1 = grid31.N by rw [N_31]; exact h)
  · have hlt : t.val + 1 < grid31.N := by rw [N_31]; omega
    refine Or.inr ⟨hlt, fun e => ?_⟩
    have e' : (![t.val + 1, 0] : Fin 2 → ℕ) = ![t.val, 0] := (regOutIndex31 a0 ⟨t.val + 1, hlt⟩).symm.trans (e.trans (regOutIndex31 a0 t))
    have e0 := congrFun e' 0
    simp at e0

/-- The index table, held as the pipeline's one prefetched table. -/
theorem prefHeldEq31 (a0 : (pcfg31 (F := F)).Adm) (c : Dev nD) :
    (Pipeline.prefHeld (Ix := Unit) (Name := ℕ) (U := UU nD τ) (Lvl := ℕ) pre31 c (fun _ => fullShare) a0.1 : sProp (MM F))
      = pt c (Memref.whole main_v201) (a0.1 0) := by
  unfold Pipeline.prefHeld
  rw [show (Finset.univ : Finset (Fin pre31.K)) = {0} from rfl, BI.bigSep_singleton]
  rfl

/-- The value window's staging buffer holds its block at every point. -/
theorem beforeVal31 (a0 : (pcfg31 (F := F)).Adm) (Vin : Dev nD → Valuation τ sig (Elt F)) (c : Dev nD) (t : Fin (cfg31 a0).N) (d) :
    (dat31 a0 Vin c).before 0 t d = iblk31 a0 Vin c 0 t :=
  ((dat31 a0 Vin c).before_in_eq_fetched 0 rfl (fun _ => rfl) (fun _ _ _ => rfl)
    (fun t => by rw [after31_0]; unfold Dat.blockOf iblk31; rw [A_eq31]; try rfl) t d).trans
    (by unfold Dat.fetched Dat.blockOf iblk31; rw [A_eq31]; try rfl)

/-! ## The kernel's checks, from the table's range -/

/-- Each of the point's eight words is a word of the table, so a row number. -/
theorem tblWordLt31 (a0 : (pcfg31 (F := F)).Adm) (hok : GatherOk31 a0) (c : Dev nD) (i : grid31.Coords) (j : Fin 8) :
    (tblWord31 c i (a0.1 0) j).toNat < 100000 := by
  unfold tblWord31
  exact hok _

/-- So the kernel's eight checks hold at every point. -/
theorem gatherChk31 (a0 : (pcfg31 (F := F)).Adm) (hok : GatherOk31 a0) (c : Dev nD) (i : grid31.Coords) : GatherChk31 c i (a0.1 0) :=
  ⟨⟨chkRow _ (tblWordLt31 a0 hok c i 0), chkRow _ (tblWordLt31 a0 hok c i 0)⟩,
   ⟨chkRow _ (tblWordLt31 a0 hok c i 1), chkRow _ (tblWordLt31 a0 hok c i 1)⟩,
   ⟨chkRow _ (tblWordLt31 a0 hok c i 2), chkRow _ (tblWordLt31 a0 hok c i 2)⟩,
   ⟨chkRow _ (tblWordLt31 a0 hok c i 3), chkRow _ (tblWordLt31 a0 hok c i 3)⟩,
   ⟨chkRow _ (tblWordLt31 a0 hok c i 4), chkRow _ (tblWordLt31 a0 hok c i 4)⟩,
   ⟨chkRow _ (tblWordLt31 a0 hok c i 5), chkRow _ (tblWordLt31 a0 hok c i 5)⟩,
   ⟨chkRow _ (tblWordLt31 a0 hok c i 6), chkRow _ (tblWordLt31 a0 hok c i 6)⟩,
   chkRow _ (tblWordLt31 a0 hok c i 7)⟩

/-! ## The body obligation, at a generic point -/

/-- What the body is called with at point `t`: the invariant, the core's dues, each window's current staging memref at
    what the pipeline left there, -/
def bodyPre31 (a0 : (pcfg31 (F := F)).Adm) (Vin : Dev nD → Valuation τ sig (Elt F)) (c : Dev nD) (t : Fin (cfg31 a0).N) : sProp (MM F) :=
  iprop((dat31 a0 Vin c).Φ t.castSucc ∗ (dat31 a0 Vin c).owesAt () t.castSucc
    ∗ (∃ d, owns (c : Thread nD τ) (((cfg31 a0).win 0).stage ((cfg31 a0).slots t 0)) fullShare ((dat31 a0 Vin c).before 0 t d))
    ∗ (∃ d, owns (c : Thread nD τ) (((cfg31 a0).win 1).stage ((cfg31 a0).slots t 1)) fullShare ((dat31 a0 Vin c).before 1 t d)))

/-- and what it returns. -/
def bodyPost31 (a0 : (pcfg31 (F := F)).Adm) (Vin : Dev nD → Valuation τ sig (Elt F)) (c : Dev nD) (t : Fin (cfg31 a0).N) : sProp (MM F) :=
  iprop((dat31 a0 Vin c).Φ t.succ ∗ (dat31 a0 Vin c).owesAt () t.succ
    ∗ owns (c : Thread nD τ) (((cfg31 a0).win 0).stage ((cfg31 a0).slots t 0)) fullShare ((dat31 a0 Vin c).after 0 t)
    ∗ owns (c : Thread nD τ) (((cfg31 a0).win 1).stage ((cfg31 a0).slots t 1)) fullShare ((dat31 a0 Vin c).after 1 t))

/-- The body at any point: the invariant opened into the embedding array, the semaphores, the table and the scratch;
    the value window's memref at its block; the checks from the table's range; so the kernel's run applies, and what it
    leaves in the result window's memref is the point's block of the gathered array. -/
theorem sound_body31 (a0 : (pcfg31 (F := F)).Adm) (hok : GatherOk31 a0) (Vin : Dev nD → Valuation τ sig (Elt F)) (c : Dev nD) (t : Fin (cfg31 a0).N) :
    bodyPre31 a0 Vin c t ⊢ wp frame (wpE (defs₀ (F := F)) 𝒱₀ c none) Set.univ
      (defs₀ .tc (cfg31 a0).body ((cfg31 a0).bodyArgs t ((cfg31 a0).slots t))) (fun _ => bodyPost31 a0 Vin c t) := by
  unfold bodyPre31 bodyPost31
  simp only [beforeVal31]
  rw [Phi_eq31, Phi_eq31, after31_0, after31_1, ← gatherBlk_blk31]
  unfold Phi31 Pipeline.Dat.owesAt Pipeline.owesWithin
  rw [owed_eq31, owed_eq31, prefHeldEq31, scopedRest31_split]
  iintro ⟨⟨Hx, Hos, Ht, ⟨%fs, Hs⟩, Hsb⟩, ⟨%W, %hW, HO⟩, ⟨%d0, H0⟩, ⟨%d1, H1⟩⟩
  iapply (gatherRun31 c (grid31.coords t) _ _ _ _ (a0.1 0) (Vr Vin c main_v109) (iblk31 a0 Vin c 0 t) (gatherChk31 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation31 (a0 : (pcfg31 (F := F)).Adm) (hok : GatherOk31 a0) (Vin : Dev nD → Valuation τ sig (Elt F)) (c : Dev nD) :
    BodyObligation (dat31 a0 Vin c) (defs₀ (F := F)) 𝒱₀ () Set.univ := fun t => by
  rw [bigSep_W31, bigSep_W31]
  exact sound_body31 a0 hok Vin c t

/-! ## From the blocks to the arrays -/

/-- The value array after the region: as entered. -/
theorem arrAt31_in (a0 : (pcfg31 (F := F)).Adm) (Vin : Dev nD → Valuation τ sig (Elt F)) (c : Dev nD) :
    (dat31 a0 Vin c).arrAt 0 (cfg31 a0).N = Vr Vin c main_v202 :=
  ((dat31 a0 Vin c).arrAt_in 0 rfl _).trans (A_eq31 a0 Vin c 0)

/-- Every index of the result array is in some point's block: row `e`, lane `d` is element `(e % 8, d)` of the block
    of point `e / 8`. -/
theorem regOutCover31 (a0 : (pcfg31 (F := F)).Adm) (i : S131072x128.Idx) :
    ∃ t : Fin (cfg31 a0).N, ((cfg31 a0).win 1).flush t = true ∧ i ∈ (((cfg31 a0).win 1).blk t).view.set := by
  have hi0 : (i 0).val < 131072 := (i 0).isLt
  have hi1 : (i 1).val < 128 := (i 1).isLt
  have hN : (i 0).val / 8 < grid31.N := by rw [N_31]; omega
  obtain ⟨t, ht⟩ : ∃ t : Fin (cfg31 a0).N, t.val = (i 0).val / 8 := ⟨⟨_, hN⟩, rfl⟩
  have hx : (((cfg31 a0).win 1).blk t).view.emb (ValueIdx.ix2 ⟨(i 0).val % 8, Nat.mod_lt _ (by decide)⟩ (i 1)) = i := by
    funext a; apply Fin.ext
    have e0 : ((cfg31 a0).win 1).index t (0 : Fin 2) = t.val := congrFun (regOutIndex31 a0 t) (0 : Fin 2)
    have e1 : ((cfg31 a0).win 1).index t (1 : Fin 2) = 0 := congrFun (regOutIndex31 a0 t) (1 : Fin 2)
    match a with
    | ⟨0, _⟩ => show ((cfg31 a0).win 1).index t (0 : Fin 2) * 8 + 1 * ((i 0).val % 8) = (i 0).val; omega
    | ⟨1, _⟩ => show ((cfg31 a0).win 1).index t (1 : Fin 2) * 128 + 1 * (i 1).val = (i 1).val; omega
  exact ⟨t, regOutFlush31 a0 t, hx ▸ (((cfg31 a0).win 1).blk t).view.emb_mem_set _⟩

/-- The result array after the region: the gathered and scaled rows, whole. -/
theorem arrAt31_out (a0 : (pcfg31 (F := F)).Adm) (Vin : Dev nD → Valuation τ sig (Elt F)) (c : Dev nD) :
    (dat31 a0 Vin c).arrAt 1 (cfg31 a0).N = gout31 a0 Vin c :=
  (dat31 a0 Vin c).arrAt_eq_of_cover 1 (gout31 a0 Vin c)
    (fun t _ => by
      show ((cfg31 a0).win 1).cut ((cfg31 a0).grid.coords t) ((dat31 a0 Vin c).after 1 t) = _
      rw [after31_1])
    (regOutCover31 a0)

/-! ## The region as a segment of @main -/

/-- The ownership layout of the kernel's eight semaphores. -/
theorem ownSemFacts31 : Pipeline.OwnSemFacts spec31 osem31 := by decide

/-- The kernel's own cells at zero, listed. -/
theorem ownSemsListed31 (c : Dev nD) :
    (Pipeline.ownSems0 (Ix := Unit) (Name := ℕ) (U := UU nD τ) (Lvl := ℕ) (Val := Elt F) (τ := τ) osem31 c : sProp (MM F)) = sems31 c :=
  Pipeline.ownSems0_eq_of_list c osem31 [0, 1, 2, 3, 4, 5, 6, 7] (by decide) (by decide)

/-- The unscoped buffers that are no window's array, no table, and not the embedding array. -/
abbrev restRefs31 : Finset (Ref sig .tc) :=
  (((Finset.univ.filter fun b : Ref sig .tc => ¬ b.isScoped) \ Finset.univ.image (Pipeline.arrRef spec31)) \ Finset.univ.image pre31.ref) \ {main_v109}

/-- Those buffers, each whole at its contents under `Vin`: what bypasses the region. -/
def Zrest31 (Vin : Dev nD → Valuation τ sig (Elt F)) (c : Dev nD) : sProp (MM F) :=
  bigSep restRefs31 fun b => ((c : Thread nD τ).loc b) ↦{fullShare} Vr Vin c b

/-- The embedding array is an unscoped buffer that is no window's array and no table. -/
theorem embArrMem31 : ({main_v109} : Finset (Ref sig .tc)) ⊆
    ((Finset.univ.filter fun b : Ref sig .tc => ¬ b.isScoped) \ Finset.univ.image (Pipeline.arrRef spec31)) \ Finset.univ.image pre31.ref := by
  decide

/-- The unscoped buffers that are no window's array: the index table, the embedding array, and the rest. -/
theorem unscopedRestOpen31 (Vin : Dev nD → Valuation τ sig (Elt F)) (c : Dev nD) :
    (Pipeline.unscopedRest (Ix := Unit) (Name := ℕ) (U := UU nD τ) (Lvl := ℕ) spec31 c (Vr Vin c) : sProp (MM F))
      = iprop(Pipeline.prefHeld pre31 c (fun _ => fullShare) (fun k => Vr Vin c (pre31.ref k))
          ∗ pt c (Memref.whole main_v109) (Vr Vin c main_v109) ∗ Zrest31 Vin c) := by
  rw [Pipeline.unscopedRest_split preFacts31 c (Vr Vin c)]
  unfold Pipeline.unscopedRestP Zrest31
  rw [BI.bigSep_sdiff_split embArrMem31, BI.bigSep_singleton]
  rfl

/-- The buffer contents when the region is left: the result array at the gathered rows, every other buffer as entered. -/
abbrev Vout31 (a0 : (pcfg31 (F := F)).Adm) (Vin : Dev nD → Valuation τ sig (Elt F)) (c : Dev nD) : Valuation τ sig (Elt F) :=
  Function.update (Vin c) main_v203 (gout31 a0 Vin c)

/-- At the exit each of the region's arrays holds what the pipeline leaves; -/
theorem hF31 (a0 : (pcfg31 (F := F)).Adm) (Vin : Dev nD → Valuation τ sig (Elt F)) (c : Dev nD) (w : Fin (cfg31 a0).W) :
    (dat31 a0 Vin c).arrAt w (cfg31 a0).N = Vr (Vout31 a0 Vin) c (Pipeline.arrRef spec31 w) := by
  match w with
  | ⟨0, _⟩ =>
    show (dat31 a0 Vin c).arrAt 0 (cfg31 a0).N = Vr (Vout31 a0 Vin) c (Pipeline.arrRef spec31 0)
    rw [arrAt31_in]
    exact (Function.update_of_ne (StableHlo.devRef_ne_of_ne (by decide) : (Proc.devRef .tc main_v202 : DevRef τ sig) ≠ Proc.devRef .tc main_v203) _ _).symm
  | ⟨1, _⟩ =>
    show (dat31 a0 Vin c).arrAt 1 (cfg31 a0).N = Vr (Vout31 a0 Vin) c (Pipeline.arrRef spec31 1)
    rw [arrAt31_out]
    exact (Function.update_self (Proc.devRef .tc main_v203 : DevRef τ sig) _ (Vin c)).symm

/-- and every other buffer what it held at entry. -/
theorem hrest31 (a0 : (pcfg31 (F := F)).Adm) (Vin : Dev nD → Valuation τ sig (Elt F)) (c : Dev nD) :
    ∀ b : Ref sig .tc, b ∉ Finset.univ.image (Pipeline.arrRef spec31) → Vr (Vout31 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat31` at the entry valuation `Vin`
    (`hd`), the index table's contents under `Vin` being the pinned ones (`htbl`) and row numbers (`hok`). -/
def reg31 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk31 (F := F) (a (31 : Fin 34)))
    (hd : ∀ c, pdats (31 : Fin 34) c = dat31 (a (31 : Fin 34)) Vin c) (htbl : ∀ c, (a (31 : Fin 34)).1 = fun k => Vr Vin c (pre31.ref k)) :
    Pipeline.RegionSeg (pcfgs (F := F)) a pdats () defs₀ 𝒱₀ L lv (31 : Fin 34) where
  win := (launch31 (F := F)).win.to₀
  block_pos := (launch31 (F := F)).block_pos
  stage_whole := (launch31 (F := F)).stage_whole
  K := Fin 8
  osem := osem31
  ho := ownSemFacts31
  hbody c := by rw [hd c]; exact (body_obligation31 (a (31 : Fin 34)) hok Vin c).loose
  hwaits := Pipeline.hwaits_of_owed_zero _ _ _ _ L lv (31 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v203 (gout31 (a (31 : Fin 34)) Vin c)) ∗ Rest c)
  X c := iprop(pt c (Memref.whole main_v109) (Vr Vin c main_v109) ∗ sems31 c)
  Y c := iprop(pt c (Memref.whole main_v109) (Vr Vin c main_v109)
    ∗ Pipeline.prefHeld (Ix := Unit) (Name := ℕ) (U := UU nD τ) (Lvl := ℕ) pre31 c (fun _ => fullShare) (a (31 : Fin 34)).1)
  Z c := Zrest31 Vin c
  hentry c := by
    rw [ownSemsListed31]
    have hsplit := Pipeline.arrays_of_unscopedBufs (p := (31 : Fin 34)) (pcfgs (F := F)) a pdats (launch31 (F := F)).win (launch31 (F := F)).arr_whole c
      ((pdats (31 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen31 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (31 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq31]; unfold Phi31
    iintro ⟨⟨Hx, Hos⟩, Ht, Hr⟩
    isplitl [Hx]; · iexact Hx
    isplitl [Hos]; · iexact Hos
    isplitl [Ht]; · iexact Ht
    iexact Hr
  hout c := by
    rw [ownSemsListed31, hd c, Phi_eq31]; unfold Phi31
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (31 : Fin 34)) (pcfgs (F := F)) a (Ix := Unit) (Name := ℕ) (U := UU nD τ) (Lvl := ℕ)
      (launch31 (F := F)).win (launch31 (F := F)).arr_whole c pdats ((pdats (31 : Fin 34) c).share_full fun _ => by rw [hd c]; rfl)
      (Vr Vin c) (Vr (Vout31 (a (31 : Fin 34)) Vin) c) ((pdats (31 : Fin 34) c).arrAt · (cfg31 (a (31 : Fin 34))).N)
      (fun w => by rw [hd c]; exact hF31 (a (31 : Fin 34)) Vin c w) (hrest31 (a (31 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen31 Vin c).symm)
      isplitl [Ht]; · rw [← htbl c]; iexact Ht
      isplitl [Hx]; · iexact Hx
      iexact Hz
    unfold Pipeline.Dat.owesAt Pipeline.owesWithin
    rw [show (pdats (31 : Fin 34) c).owed (Fin.last _) = 0 from by rw [hd c]; rfl]
    icases HO with ⟨%W, -, HO⟩; iexists W; iexact HO

end Cert.Kernel.Hand

end
-- ==== Proof.K.GatherDat32.lean ====
/-
  Gather region 32 (custom_call 32): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.K.Common
import proofs.«414509_j14181982011419_2_alg».proof.Proof.K.GatherSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem32 : Fin 8 → SemLoc sig := fun | 0 => .dma 380 | 1 => .dma 381 | 2 => .dma 382 | 3 => .dma 383 | 4 => .dma 384 | 5 => .dma 385 | 6 => .dma 386 | 7 => .dma 387

/-- The eight counters at zero, as the run finds them and hands them back. -/
abbrev sems32 (c : Dev nD) : sProp (MM F) :=
  iprop(semVal ((c : Thread nD τ), osem32 0) 0 ∗ semVal ((c : Thread nD τ), osem32 1) 0 ∗ semVal ((c : Thread nD τ), osem32 2) 0
    ∗ semVal ((c : Thread nD τ), osem32 3) 0 ∗ semVal ((c : Thread nD τ), osem32 4) 0 ∗ semVal ((c : Thread nD τ), osem32 5) 0
    ∗ semVal ((c : Thread nD τ), osem32 6) 0 ∗ semVal ((c : Thread nD τ), osem32 7) 0)

/-- Word `j` of the eight the index table holds for point `i`, as the kernel's scalar load reads it. -/
def tblWord32 (c : Dev nD) (i : grid32.Coords) (tbl : Bf (F := F) c (Memref.whole main_v204)) (j : Fin 8) : BitVec 32 :=
  (Memref.whole main_v204).view.readAt (Elt F) (Rect.unit (s := S131072) (k32_off1 i (BitVec.ofNat 32 j.val)) S1.size (k32_off1_inb i j)).toLoadRect tbl
    (Shape.Idx.first (s := S1) (numel1_S1.symm ▸ Nat.one_pos))

/-- Window `w`'s block at point `t`, read off its array at the region's entry. -/
def iblk32 (a0 : (pcfg32 (F := F)).Adm) (Vin : Dev nD → Valuation τ sig (Elt F)) (c : Dev nD) (w : Fin (cfg32 a0).W) (t : Fin (cfg32 a0).N) :
    (((cfg32 a0).win w).xblock ((cfg32 a0).grid.coords t)).Idx → Elt F ((cfg32 a0).win w).elt :=
  (((cfg32 a0).win w).blk t).view.read (Elt F) (Vr Vin c (Pipeline.arrRef spec32 w))

/-- The result array the region leaves: the gathered and scaled rows of the embedding array, whole. -/
def gout32 (a0 : (pcfg32 (F := F)).Adm) (Vin : Dev nD → Valuation τ sig (Elt F)) (c : Dev nD) : Buf (Elt F) ((c : Thread nD τ).loc main_v206) :=
  gatherArr (Vr Vin c main_v109) (a0.1 0) (Vr Vin c main_v205)

/-- The invariant between points: the embedding array as entered, the kernel's semaphores at zero, the index table, the
    scoped buffers no window stages (the kernel's scratch among them). -/
def Phi32 (a0 : (pcfg32 (F := F)).Adm) (Vin : Dev nD → Valuation τ sig (Elt F)) (c : Dev nD) : sProp (MM F) :=
  iprop(pt c (Memref.whole main_v109) (Vr Vin c main_v109) ∗ sems32 c
    ∗ Pipeline.prefHeld (Ix := Unit) (Name := ℕ) (U := UU nD τ) (Lvl := ℕ) pre32 c (fun _ => fullShare) a0.1
    ∗ Pipeline.scopedRest (Ix := Unit) (Name := ℕ) (U := UU nD τ) (Lvl := ℕ) (Val := Elt F) spec32 c)

/-- The proof data on core `c`. -/
def dat32 (a0 : (pcfg32 (F := F)).Adm) (Vin : Dev nD → Valuation τ sig (Elt F)) (c : Dev nD) :
    Pipeline.Dat τ (Elt F) Unit ℕ (UU nD τ) ℕ ((pcfg32 (F := F)).at a0) c where
  A w := Vr Vin c (Pipeline.arrRef spec32 w)
  after w t := match w with
    | ⟨0, _⟩ => iblk32 a0 Vin c 0 t
    | ⟨1, _⟩ => (((cfg32 a0).win 1).blk t).view.read (Elt F) (gout32 a0 Vin c)
  Φ _ := Phi32 a0 Vin c
  q _ := fullShare
  owed _ := 0

theorem A_eq32 (a0 : (pcfg32 (F := F)).Adm) (Vin : Dev nD → Valuation τ sig (Elt F)) (c : Dev nD) (w : Fin (cfg32 a0).W) :
    (dat32 a0 Vin c).A w = Vr Vin c (Pipeline.arrRef spec32 w) := by dsimp only [dat32]
theorem after32_0 (a0 : (pcfg32 (F := F)).Adm) (Vin : Dev nD → Valuation τ sig (Elt F)) (c : Dev nD) (t : Fin (cfg32 a0).N) :
    (dat32 a0 Vin c).after 0 t = iblk32 a0 Vin c 0 t := by dsimp only [dat32]; rfl
theorem after32_1 (a0 : (pcfg32 (F := F)).Adm) (Vin : Dev nD → Valuation τ sig (Elt F)) (c : Dev nD) (t : Fin (cfg32 a0).N) :
    (dat32 a0 Vin c).after 1 t = (((cfg32 a0).win 1).blk t).view.read (Elt F) (gout32 a0 Vin c) := by dsimp only [dat32]; rfl
theorem Phi_eq32 (a0 : (pcfg32 (F := F)).Adm) (Vin : Dev nD → Valuation τ sig (Elt F)) (c : Dev nD) (t : Fin ((cfg32 a0).N + 1)) :
    (dat32 a0 Vin c).Φ t = Phi32 a0 Vin c := rfl
theorem owed_eq32 (a0 : (pcfg32 (F := F)).Adm) (Vin : Dev nD → Valuation τ sig (Elt F)) (c : Dev nD) (t : Fin ((cfg32 a0).N + 1)) :
    (dat32 a0 Vin c).owed t = 0 := rfl
theorem q_eq32 (a0 : (pcfg32 (F := F)).Adm) (Vin : Dev nD → Valuation τ sig (Elt F)) (c : Dev nD) (w : Fin (cfg32 a0).W) :
    (dat32 a0 Vin c).q w = fullShare := rfl

/-- The pinned family's configuration at region 32 is this one. -/
example (a : (p : Fin 34) → (pcfgs (F := F) p).Adm) : Pipeline.pin (pcfgs (F := F)) a (32 : Fin 34) = (pcfg32 (F := F)).at (a (32 : Fin 34)) := rfl

end Cert.Kernel.Hand

end
-- ==== Proof.K.GatherBody32.lean ====
/-
  Gather region 32 (custom_call 32): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.K.GatherDat32
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk32 (c : Dev nD) (i : grid32.Coords) (tbl : Bf (F := F) c (Memref.whole main_v204)) : Prop where
  h1 : k32_chk1 (tblWord32 c i tbl 0)
  h2 : k32_chk2 (tblWord32 c i tbl 1)
  h3 : k32_chk3 (tblWord32 c i tbl 2)
  h4 : k32_chk4 (tblWord32 c i tbl 3)
  h5 : k32_chk5 (tblWord32 c i tbl 4)
  h6 : k32_chk6 (tblWord32 c i tbl 5)
  h7 : k32_chk7 (tblWord32 c i tbl 6)
  h8 : k32_chk8 (tblWord32 c i tbl 7)

/-- A one-row slice of the embedding array at the row a word names, read at lane `z 1`: the array's element there. -/
theorem rowRead32 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun32 (c : Dev nD) (i : grid32.Coords)
    (M3 : Memref sig .tc .vmem S8x1 .f32) (h3 : M3.IsWhole) (M4 : Memref sig .tc .vmem S8x128 .f32) (h4 : M4.IsWhole)
    (tbl : Bf (F := F) c (Memref.whole main_v204)) (x : Bf (F := F) c (Memref.whole main_v109))
    (vb : Vec F S8x1 .f32) (hchk : GatherChk32 c i tbl) (Q : PUnit → sProp (MM F)) :
    iprop(pt c (Memref.whole main_v204) tbl ∗ pt c (Memref.whole main_v109) x
      ∗ owns (c : Thread nD τ) M3 fullShare vb ∗ (∃ d, owns (c : Thread nD τ) M4 fullShare d)
      ∗ (∃ fs, pt c (Memref.whole cc32_scratch0) fs) ∗ sems32 c ∗ (∃ W, owes (c : Thread nD τ) (0 : CellTallies nD τ sig Unit) W)
      ∗ (iprop(pt c (Memref.whole main_v204) tbl ∗ pt c (Memref.whole main_v109) x
          ∗ owns (c : Thread nD τ) M3 fullShare vb ∗ owns (c : Thread nD τ) M4 fullShare (gatherBlk x (tblWord32 c i tbl) vb)
          ∗ (∃ fs, pt c (Memref.whole cc32_scratch0) fs) ∗ sems32 c ∗ (∃ W, owes (c : Thread nD τ) (0 : CellTallies nD τ sig Unit) W)) -∗ Q ⟨⟩))
    ⊢ wp frame (wpE (defs₀ (F := F)) 𝒱₀ c none) Set.univ
        (cc32__gather_kernel i (Memref.whole main_v204) (Memref.isWhole_whole _) (Memref.whole main_v109) (Memref.isWhole_whole _) M3 h3 M4 h4
          (Memref.whole cc32_scratch0) (Memref.isWhole_whole _) cc32_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 380).1 $$ Hx
  icases Hx' with ⟨Hxr, Hx0, Hx1, Hx2, Hx3, Hx4, Hx5, Hx6, Hx7⟩
  sl_unfold [cc32__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 380).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k32_pay1 gatherBlk
    show FloatOps.mulf _ _ = FloatOps.mulf _ _
    congr 1
    · unfold gatherRun32.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun32.sl.dma8 gatherRun32.sl.dma8_1 gatherRun32.sl.dma8_2 gatherRun32.sl.dma8_3 gatherRun32.sl.dma8_4 gatherRun32.sl.dma8_5
        gatherRun32.sl.dma8_6 gatherRun32.sl.dma8_7 gatherRun32.sl.r gatherRun32.sl.r_1 gatherRun32.sl.r_2 gatherRun32.sl.r_3 gatherRun32.sl.r_4
        gatherRun32.sl.r_5 gatherRun32.sl.r_6 gatherRun32.sl.r_7
      refine canonRows8 _ _ _ _ _ _ _ _ _ _ _ _ _ _ _ _ (fun r d => x (embIdx (rowOf (tblWord32 c i tbl r)) d)) ?_ ?_ ?_ ?_ ?_ ?_ ?_ ?_ y
      · exact fun z => rowRead32 c _ (tblWord32 c i tbl 0) rfl rfl _ _ x z
      · exact fun z => rowRead32 c _ (tblWord32 c i tbl 1) rfl rfl _ _ x z
      · exact fun z => rowRead32 c _ (tblWord32 c i tbl 2) rfl rfl _ _ x z
      · exact fun z => rowRead32 c _ (tblWord32 c i tbl 3) rfl rfl _ _ x z
      · exact fun z => rowRead32 c _ (tblWord32 c i tbl 4) rfl rfl _ _ x z
      · exact fun z => rowRead32 c _ (tblWord32 c i tbl 5) rfl rfl _ _ x z
      · exact fun z => rowRead32 c _ (tblWord32 c i tbl 6) rfl rfl _ _ x z
      · exact fun z => rowRead32 c _ (tblWord32 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.K.GatherBlk32.lean ====
/-
  Gather region 32 (custom_call 32): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.K.GatherDat32
import Idealize.ShloMosaic.Lib.Pipeline.Value

noncomputable section

namespace Cert.Kernel.Hand

open Cert.Kernel Cert.Kernel.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word32 (i : grid32.Coords) (j : Fin 8) : k32_off1 i (BitVec.ofNat 32 j.val) 0 = (i 0).val * 8 + j.val := by
  have hi : (i 0).val < 16384 := (i 0).isLt
  have hj : j.val < 8 := j.isLt
  unfold k32_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word32 (i : grid32.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord32_eq (c : Dev nD) (i : grid32.Coords) (tbl : Bf (F := F) c (Memref.whole main_v204)) (j : Fin 8)
    (e : Fin 131072) (he : e.val = (i 0).val * 8 + j.val) : tblWord32 c i tbl j = tbl (tblIdx e) := by
  unfold tblWord32
  show tbl _ = tbl _
  refine congrArg tbl ?_
  funext a; apply Fin.ext
  match a with
  | ⟨0, _⟩ =>
    show k32_off1 i (BitVec.ofNat 32 j.val) 0 + 1 * 0 = e.val
    rw [off_word32, he]; omega

/-- Row `j` of the value window's block at point `t` is the value array's row `8 t + j`. -/
theorem valBlk32_eq (a0 : (pcfg32 (F := F)).Adm) (Vin : Dev nD → Valuation τ sig (Elt F)) (c : Dev nD) (t : Fin (cfg32 a0).N)
    (j : Fin 8) (e : Fin 131072) (he : e.val = ((grid32.coords t) 0).val * 8 + j.val) :
    iblk32 a0 Vin c 0 t (colIdx j) = Vr Vin c main_v205 (valIdx e) := by
  unfold iblk32
  show Vr Vin c main_v205 _ = Vr Vin c main_v205 _
  refine congrArg (Vr Vin c main_v205) ?_
  funext a; apply Fin.ext
  match a with
  | ⟨0, _⟩ =>
    show (BitVec.ofNat 32 ((grid32.coords t) 0).val).toNat * 8 + 1 * j.val = e.val
    rw [coord_word32, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk32 (a0 : (pcfg32 (F := F)).Adm) (Vin : Dev nD → Valuation τ sig (Elt F)) (c : Dev nD) (t : Fin (cfg32 a0).N) :
    gatherBlk (Vr Vin c main_v109) (tblWord32 c (grid32.coords t) (a0.1 0)) (iblk32 a0 Vin c 0 t)
      = (((cfg32 a0).win 1).blk t).view.read (Elt F) (gout32 a0 Vin c) := by
  funext y
  show gatherBlk _ _ _ y = gout32 a0 Vin c ((((cfg32 a0).win 1).blk t).view.emb y)
  unfold gatherBlk gout32 gatherArr
  have e0 : ((((cfg32 a0).win 1).blk t).view.emb y (0 : Fin 2)).val = ((grid32.coords t) 0).val * 8 + (y 0).val := by
    show (BitVec.ofNat 32 ((grid32.coords t) 0).val).toNat * 8 + 1 * (y 0).val = _
    rw [coord_word32]; omega
  have e1 : (((cfg32 a0).win 1).blk t).view.emb y (1 : Fin 2) = y 1 := Fin.ext (by
    show (0#32 : BitVec 32).toNat * 128 + 1 * (y 1).val = (y 1).val
    show 0 * 128 + 1 * (y 1).val = (y 1).val
    omega)
  rw [tblWord32_eq c (grid32.coords t) (a0.1 0) (y 0) _ e0, valBlk32_eq a0 Vin c t (y 0) _ e0, e1]

end Cert.Kernel.Hand

end
-- ==== Proof.K.GatherRegion32.lean ====
/-
  Gather region 32 (custom_call 32): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.K.GatherBody32
import proofs.«414509_j14181982011419_2_alg».proof.Proof.K.GatherBlk32
import Idealize.ShloMosaic.Lib.Pipeline.RegionsLoop
import Idealize.ShloMosaic.Lib.ValueIdx

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk32 (a0 : (pcfg32 (F := F)).Adm) : Prop := ∀ e : S131072.Idx, (a0.1 0 e).toNat < 100000

/-! ## The grid and the result window's blocks -/

/-- On the one-axis grid a point's coordinate is its number. -/
theorem regCoords32 (t : Fin grid32.N) : (grid32.coords t 0).val = t.val := by
  have ht : t.val < 16384 := N_32 ▸ t.isLt
  show t.val / grid32.stride 0 % grid32.bound 0 = t.val
  rw [show grid32.stride 0 = 1 from by decide, show grid32.bound 0 = 16384 from rfl, Nat.div_one, Nat.mod_eq_of_lt ht]

/-- A point's number as the 32-bit word the index maps compute with. -/
theorem regWord32 (t : Fin grid32.N) : (BitVec.ofNat 32 (grid32.coords t 0).val).toNat = t.val := by
  have ht : t.val < 16384 := N_32 ▸ t.isLt
  rw [BitVec.toNat_ofNat, regCoords32]; omega

/-- The result window's block at point `t` is block `t` along the rows, at zero along the lanes. -/
theorem regOutIndex32 (a0 : (pcfg32 (F := F)).Adm) (t : Fin (cfg32 a0).N) : ((cfg32 a0).win 1).index t = ![t.val, 0] := by
  show cc32_transform_2 (grid32.coords t) = _
  unfold cc32_transform_2
  funext a; fin_cases a
  · exact regWord32 t
  · rfl

/-- The result window is written back at every point: consecutive points have different blocks. -/
theorem regOutFlush32 (a0 : (pcfg32 (F := F)).Adm) (t : Fin (cfg32 a0).N) : ((cfg32 a0).win 1).flush t = true := by
  have htN : t.val < 16384 := N_32 ▸ t.isLt
  rw [Pipeline.Window.flush_out _ rfl]
  by_cases h : t.val + 1 = 16384
  · exact Or.inl (show t.val + 1 = grid32.N by rw [N_32]; exact h)
  · have hlt : t.val + 1 < grid32.N := by rw [N_32]; omega
    refine Or.inr ⟨hlt, fun e => ?_⟩
    have e' : (![t.val + 1, 0] : Fin 2 → ℕ) = ![t.val, 0] := (regOutIndex32 a0 ⟨t.val + 1, hlt⟩).symm.trans (e.trans (regOutIndex32 a0 t))
    have e0 := congrFun e' 0
    simp at e0

/-- The index table, held as the pipeline's one prefetched table. -/
theorem prefHeldEq32 (a0 : (pcfg32 (F := F)).Adm) (c : Dev nD) :
    (Pipeline.prefHeld (Ix := Unit) (Name := ℕ) (U := UU nD τ) (Lvl := ℕ) pre32 c (fun _ => fullShare) a0.1 : sProp (MM F))
      = pt c (Memref.whole main_v204) (a0.1 0) := by
  unfold Pipeline.prefHeld
  rw [show (Finset.univ : Finset (Fin pre32.K)) = {0} from rfl, BI.bigSep_singleton]
  rfl

/-- The value window's staging buffer holds its block at every point. -/
theorem beforeVal32 (a0 : (pcfg32 (F := F)).Adm) (Vin : Dev nD → Valuation τ sig (Elt F)) (c : Dev nD) (t : Fin (cfg32 a0).N) (d) :
    (dat32 a0 Vin c).before 0 t d = iblk32 a0 Vin c 0 t :=
  ((dat32 a0 Vin c).before_in_eq_fetched 0 rfl (fun _ => rfl) (fun _ _ _ => rfl)
    (fun t => by rw [after32_0]; unfold Dat.blockOf iblk32; rw [A_eq32]; try rfl) t d).trans
    (by unfold Dat.fetched Dat.blockOf iblk32; rw [A_eq32]; try rfl)

/-! ## The kernel's checks, from the table's range -/

/-- Each of the point's eight words is a word of the table, so a row number. -/
theorem tblWordLt32 (a0 : (pcfg32 (F := F)).Adm) (hok : GatherOk32 a0) (c : Dev nD) (i : grid32.Coords) (j : Fin 8) :
    (tblWord32 c i (a0.1 0) j).toNat < 100000 := by
  unfold tblWord32
  exact hok _

/-- So the kernel's eight checks hold at every point. -/
theorem gatherChk32 (a0 : (pcfg32 (F := F)).Adm) (hok : GatherOk32 a0) (c : Dev nD) (i : grid32.Coords) : GatherChk32 c i (a0.1 0) :=
  ⟨⟨chkRow _ (tblWordLt32 a0 hok c i 0), chkRow _ (tblWordLt32 a0 hok c i 0)⟩,
   ⟨chkRow _ (tblWordLt32 a0 hok c i 1), chkRow _ (tblWordLt32 a0 hok c i 1)⟩,
   ⟨chkRow _ (tblWordLt32 a0 hok c i 2), chkRow _ (tblWordLt32 a0 hok c i 2)⟩,
   ⟨chkRow _ (tblWordLt32 a0 hok c i 3), chkRow _ (tblWordLt32 a0 hok c i 3)⟩,
   ⟨chkRow _ (tblWordLt32 a0 hok c i 4), chkRow _ (tblWordLt32 a0 hok c i 4)⟩,
   ⟨chkRow _ (tblWordLt32 a0 hok c i 5), chkRow _ (tblWordLt32 a0 hok c i 5)⟩,
   ⟨chkRow _ (tblWordLt32 a0 hok c i 6), chkRow _ (tblWordLt32 a0 hok c i 6)⟩,
   chkRow _ (tblWordLt32 a0 hok c i 7)⟩

/-! ## The body obligation, at a generic point -/

/-- What the body is called with at point `t`: the invariant, the core's dues, each window's current staging memref at
    what the pipeline left there, -/
def bodyPre32 (a0 : (pcfg32 (F := F)).Adm) (Vin : Dev nD → Valuation τ sig (Elt F)) (c : Dev nD) (t : Fin (cfg32 a0).N) : sProp (MM F) :=
  iprop((dat32 a0 Vin c).Φ t.castSucc ∗ (dat32 a0 Vin c).owesAt () t.castSucc
    ∗ (∃ d, owns (c : Thread nD τ) (((cfg32 a0).win 0).stage ((cfg32 a0).slots t 0)) fullShare ((dat32 a0 Vin c).before 0 t d))
    ∗ (∃ d, owns (c : Thread nD τ) (((cfg32 a0).win 1).stage ((cfg32 a0).slots t 1)) fullShare ((dat32 a0 Vin c).before 1 t d)))

/-- and what it returns. -/
def bodyPost32 (a0 : (pcfg32 (F := F)).Adm) (Vin : Dev nD → Valuation τ sig (Elt F)) (c : Dev nD) (t : Fin (cfg32 a0).N) : sProp (MM F) :=
  iprop((dat32 a0 Vin c).Φ t.succ ∗ (dat32 a0 Vin c).owesAt () t.succ
    ∗ owns (c : Thread nD τ) (((cfg32 a0).win 0).stage ((cfg32 a0).slots t 0)) fullShare ((dat32 a0 Vin c).after 0 t)
    ∗ owns (c : Thread nD τ) (((cfg32 a0).win 1).stage ((cfg32 a0).slots t 1)) fullShare ((dat32 a0 Vin c).after 1 t))

/-- The body at any point: the invariant opened into the embedding array, the semaphores, the table and the scratch;
    the value window's memref at its block; the checks from the table's range; so the kernel's run applies, and what it
    leaves in the result window's memref is the point's block of the gathered array. -/
theorem sound_body32 (a0 : (pcfg32 (F := F)).Adm) (hok : GatherOk32 a0) (Vin : Dev nD → Valuation τ sig (Elt F)) (c : Dev nD) (t : Fin (cfg32 a0).N) :
    bodyPre32 a0 Vin c t ⊢ wp frame (wpE (defs₀ (F := F)) 𝒱₀ c none) Set.univ
      (defs₀ .tc (cfg32 a0).body ((cfg32 a0).bodyArgs t ((cfg32 a0).slots t))) (fun _ => bodyPost32 a0 Vin c t) := by
  unfold bodyPre32 bodyPost32
  simp only [beforeVal32]
  rw [Phi_eq32, Phi_eq32, after32_0, after32_1, ← gatherBlk_blk32]
  unfold Phi32 Pipeline.Dat.owesAt Pipeline.owesWithin
  rw [owed_eq32, owed_eq32, prefHeldEq32, scopedRest32_split]
  iintro ⟨⟨Hx, Hos, Ht, ⟨%fs, Hs⟩, Hsb⟩, ⟨%W, %hW, HO⟩, ⟨%d0, H0⟩, ⟨%d1, H1⟩⟩
  iapply (gatherRun32 c (grid32.coords t) _ _ _ _ (a0.1 0) (Vr Vin c main_v109) (iblk32 a0 Vin c 0 t) (gatherChk32 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation32 (a0 : (pcfg32 (F := F)).Adm) (hok : GatherOk32 a0) (Vin : Dev nD → Valuation τ sig (Elt F)) (c : Dev nD) :
    BodyObligation (dat32 a0 Vin c) (defs₀ (F := F)) 𝒱₀ () Set.univ := fun t => by
  rw [bigSep_W32, bigSep_W32]
  exact sound_body32 a0 hok Vin c t

/-! ## From the blocks to the arrays -/

/-- The value array after the region: as entered. -/
theorem arrAt32_in (a0 : (pcfg32 (F := F)).Adm) (Vin : Dev nD → Valuation τ sig (Elt F)) (c : Dev nD) :
    (dat32 a0 Vin c).arrAt 0 (cfg32 a0).N = Vr Vin c main_v205 :=
  ((dat32 a0 Vin c).arrAt_in 0 rfl _).trans (A_eq32 a0 Vin c 0)

/-- Every index of the result array is in some point's block: row `e`, lane `d` is element `(e % 8, d)` of the block
    of point `e / 8`. -/
theorem regOutCover32 (a0 : (pcfg32 (F := F)).Adm) (i : S131072x128.Idx) :
    ∃ t : Fin (cfg32 a0).N, ((cfg32 a0).win 1).flush t = true ∧ i ∈ (((cfg32 a0).win 1).blk t).view.set := by
  have hi0 : (i 0).val < 131072 := (i 0).isLt
  have hi1 : (i 1).val < 128 := (i 1).isLt
  have hN : (i 0).val / 8 < grid32.N := by rw [N_32]; omega
  obtain ⟨t, ht⟩ : ∃ t : Fin (cfg32 a0).N, t.val = (i 0).val / 8 := ⟨⟨_, hN⟩, rfl⟩
  have hx : (((cfg32 a0).win 1).blk t).view.emb (ValueIdx.ix2 ⟨(i 0).val % 8, Nat.mod_lt _ (by decide)⟩ (i 1)) = i := by
    funext a; apply Fin.ext
    have e0 : ((cfg32 a0).win 1).index t (0 : Fin 2) = t.val := congrFun (regOutIndex32 a0 t) (0 : Fin 2)
    have e1 : ((cfg32 a0).win 1).index t (1 : Fin 2) = 0 := congrFun (regOutIndex32 a0 t) (1 : Fin 2)
    match a with
    | ⟨0, _⟩ => show ((cfg32 a0).win 1).index t (0 : Fin 2) * 8 + 1 * ((i 0).val % 8) = (i 0).val; omega
    | ⟨1, _⟩ => show ((cfg32 a0).win 1).index t (1 : Fin 2) * 128 + 1 * (i 1).val = (i 1).val; omega
  exact ⟨t, regOutFlush32 a0 t, hx ▸ (((cfg32 a0).win 1).blk t).view.emb_mem_set _⟩

/-- The result array after the region: the gathered and scaled rows, whole. -/
theorem arrAt32_out (a0 : (pcfg32 (F := F)).Adm) (Vin : Dev nD → Valuation τ sig (Elt F)) (c : Dev nD) :
    (dat32 a0 Vin c).arrAt 1 (cfg32 a0).N = gout32 a0 Vin c :=
  (dat32 a0 Vin c).arrAt_eq_of_cover 1 (gout32 a0 Vin c)
    (fun t _ => by
      show ((cfg32 a0).win 1).cut ((cfg32 a0).grid.coords t) ((dat32 a0 Vin c).after 1 t) = _
      rw [after32_1])
    (regOutCover32 a0)

/-! ## The region as a segment of @main -/

/-- The ownership layout of the kernel's eight semaphores. -/
theorem ownSemFacts32 : Pipeline.OwnSemFacts spec32 osem32 := by decide

/-- The kernel's own cells at zero, listed. -/
theorem ownSemsListed32 (c : Dev nD) :
    (Pipeline.ownSems0 (Ix := Unit) (Name := ℕ) (U := UU nD τ) (Lvl := ℕ) (Val := Elt F) (τ := τ) osem32 c : sProp (MM F)) = sems32 c :=
  Pipeline.ownSems0_eq_of_list c osem32 [0, 1, 2, 3, 4, 5, 6, 7] (by decide) (by decide)

/-- The unscoped buffers that are no window's array, no table, and not the embedding array. -/
abbrev restRefs32 : Finset (Ref sig .tc) :=
  (((Finset.univ.filter fun b : Ref sig .tc => ¬ b.isScoped) \ Finset.univ.image (Pipeline.arrRef spec32)) \ Finset.univ.image pre32.ref) \ {main_v109}

/-- Those buffers, each whole at its contents under `Vin`: what bypasses the region. -/
def Zrest32 (Vin : Dev nD → Valuation τ sig (Elt F)) (c : Dev nD) : sProp (MM F) :=
  bigSep restRefs32 fun b => ((c : Thread nD τ).loc b) ↦{fullShare} Vr Vin c b

/-- The embedding array is an unscoped buffer that is no window's array and no table. -/
theorem embArrMem32 : ({main_v109} : Finset (Ref sig .tc)) ⊆
    ((Finset.univ.filter fun b : Ref sig .tc => ¬ b.isScoped) \ Finset.univ.image (Pipeline.arrRef spec32)) \ Finset.univ.image pre32.ref := by
  decide

/-- The unscoped buffers that are no window's array: the index table, the embedding array, and the rest. -/
theorem unscopedRestOpen32 (Vin : Dev nD → Valuation τ sig (Elt F)) (c : Dev nD) :
    (Pipeline.unscopedRest (Ix := Unit) (Name := ℕ) (U := UU nD τ) (Lvl := ℕ) spec32 c (Vr Vin c) : sProp (MM F))
      = iprop(Pipeline.prefHeld pre32 c (fun _ => fullShare) (fun k => Vr Vin c (pre32.ref k))
          ∗ pt c (Memref.whole main_v109) (Vr Vin c main_v109) ∗ Zrest32 Vin c) := by
  rw [Pipeline.unscopedRest_split preFacts32 c (Vr Vin c)]
  unfold Pipeline.unscopedRestP Zrest32
  rw [BI.bigSep_sdiff_split embArrMem32, BI.bigSep_singleton]
  rfl

/-- The buffer contents when the region is left: the result array at the gathered rows, every other buffer as entered. -/
abbrev Vout32 (a0 : (pcfg32 (F := F)).Adm) (Vin : Dev nD → Valuation τ sig (Elt F)) (c : Dev nD) : Valuation τ sig (Elt F) :=
  Function.update (Vin c) main_v206 (gout32 a0 Vin c)

/-- At the exit each of the region's arrays holds what the pipeline leaves; -/
theorem hF32 (a0 : (pcfg32 (F := F)).Adm) (Vin : Dev nD → Valuation τ sig (Elt F)) (c : Dev nD) (w : Fin (cfg32 a0).W) :
    (dat32 a0 Vin c).arrAt w (cfg32 a0).N = Vr (Vout32 a0 Vin) c (Pipeline.arrRef spec32 w) := by
  match w with
  | ⟨0, _⟩ =>
    show (dat32 a0 Vin c).arrAt 0 (cfg32 a0).N = Vr (Vout32 a0 Vin) c (Pipeline.arrRef spec32 0)
    rw [arrAt32_in]
    exact (Function.update_of_ne (StableHlo.devRef_ne_of_ne (by decide) : (Proc.devRef .tc main_v205 : DevRef τ sig) ≠ Proc.devRef .tc main_v206) _ _).symm
  | ⟨1, _⟩ =>
    show (dat32 a0 Vin c).arrAt 1 (cfg32 a0).N = Vr (Vout32 a0 Vin) c (Pipeline.arrRef spec32 1)
    rw [arrAt32_out]
    exact (Function.update_self (Proc.devRef .tc main_v206 : DevRef τ sig) _ (Vin c)).symm

/-- and every other buffer what it held at entry. -/
theorem hrest32 (a0 : (pcfg32 (F := F)).Adm) (Vin : Dev nD → Valuation τ sig (Elt F)) (c : Dev nD) :
    ∀ b : Ref sig .tc, b ∉ Finset.univ.image (Pipeline.arrRef spec32) → Vr (Vout32 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat32` at the entry valuation `Vin`
    (`hd`), the index table's contents under `Vin` being the pinned ones (`htbl`) and row numbers (`hok`). -/
def reg32 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk32 (F := F) (a (32 : Fin 34)))
    (hd : ∀ c, pdats (32 : Fin 34) c = dat32 (a (32 : Fin 34)) Vin c) (htbl : ∀ c, (a (32 : Fin 34)).1 = fun k => Vr Vin c (pre32.ref k)) :
    Pipeline.RegionSeg (pcfgs (F := F)) a pdats () defs₀ 𝒱₀ L lv (32 : Fin 34) where
  win := (launch32 (F := F)).win.to₀
  block_pos := (launch32 (F := F)).block_pos
  stage_whole := (launch32 (F := F)).stage_whole
  K := Fin 8
  osem := osem32
  ho := ownSemFacts32
  hbody c := by rw [hd c]; exact (body_obligation32 (a (32 : Fin 34)) hok Vin c).loose
  hwaits := Pipeline.hwaits_of_owed_zero _ _ _ _ L lv (32 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v206 (gout32 (a (32 : Fin 34)) Vin c)) ∗ Rest c)
  X c := iprop(pt c (Memref.whole main_v109) (Vr Vin c main_v109) ∗ sems32 c)
  Y c := iprop(pt c (Memref.whole main_v109) (Vr Vin c main_v109)
    ∗ Pipeline.prefHeld (Ix := Unit) (Name := ℕ) (U := UU nD τ) (Lvl := ℕ) pre32 c (fun _ => fullShare) (a (32 : Fin 34)).1)
  Z c := Zrest32 Vin c
  hentry c := by
    rw [ownSemsListed32]
    have hsplit := Pipeline.arrays_of_unscopedBufs (p := (32 : Fin 34)) (pcfgs (F := F)) a pdats (launch32 (F := F)).win (launch32 (F := F)).arr_whole c
      ((pdats (32 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen32 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (32 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq32]; unfold Phi32
    iintro ⟨⟨Hx, Hos⟩, Ht, Hr⟩
    isplitl [Hx]; · iexact Hx
    isplitl [Hos]; · iexact Hos
    isplitl [Ht]; · iexact Ht
    iexact Hr
  hout c := by
    rw [ownSemsListed32, hd c, Phi_eq32]; unfold Phi32
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (32 : Fin 34)) (pcfgs (F := F)) a (Ix := Unit) (Name := ℕ) (U := UU nD τ) (Lvl := ℕ)
      (launch32 (F := F)).win (launch32 (F := F)).arr_whole c pdats ((pdats (32 : Fin 34) c).share_full fun _ => by rw [hd c]; rfl)
      (Vr Vin c) (Vr (Vout32 (a (32 : Fin 34)) Vin) c) ((pdats (32 : Fin 34) c).arrAt · (cfg32 (a (32 : Fin 34))).N)
      (fun w => by rw [hd c]; exact hF32 (a (32 : Fin 34)) Vin c w) (hrest32 (a (32 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen32 Vin c).symm)
      isplitl [Ht]; · rw [← htbl c]; iexact Ht
      isplitl [Hx]; · iexact Hx
      iexact Hz
    unfold Pipeline.Dat.owesAt Pipeline.owesWithin
    rw [show (pdats (32 : Fin 34) c).owed (Fin.last _) = 0 from by rw [hd c]; rfl]
    icases HO with ⟨%W, -, HO⟩; iexists W; iexact HO

end Cert.Kernel.Hand

end
-- ==== Proof.K.ActBody33.lean ====
/-
  The activation-and-sum kernel of custom_call 33, run once at symbolic staging memrefs.

  The body loads its whole input block `x : [4, 2000, 128]`, forms `where(x > 0, x, 0.01 * x)` element by element,
  adds the four slabs along the leading axis, and stores the `[2000, 128]` result over the whole output block. So
  from the input block held at `xin` and the output block held at anything, it returns with the input block as it
  was and the output block at `actOut33 xin`, the body's one payload as a pure function of the loaded block.
-/
import proofs.«414509_j14181982011419_2_alg».proof.Proof.K.ActSpec
import proofs.«414509_j14181982011419_2_alg».proof.Proof.Gen.Kernel.Skeleton
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The zero offsets of a whole-block access, in rank 2 and in rank 3, as constant functions. -/
theorem zeros33_2 : (![0, 0] : Fin 2 → Nat) = fun _ => 0 := funext fun a => by fin_cases a <;> rfl
theorem zeros33_3 : (![0, 0, 0] : Fin 3 → Nat) = fun _ => 0 := funext fun a => by fin_cases a <;> rfl

/-- The body's payload is the activation-and-sum of the loaded block: the same chain of operations. -/
theorem pay33_eq (x : Vec F S4x2000x128 .f32) : k33_pay1 x = actBlock x := rfl

/-- What the body leaves in the output block, from the input block: the leaky activation of every element, summed
    over the four slabs of the leading axis. -/
def actOut33 (xin : Vec F S4x2000x128 .f32) : Vec F S2000x128 .f32 := actBlock xin

set_option maxHeartbeats 1000000 in
/-- The kernel body on whole staging memrefs, the input's at contents `xin` and the output's at anything, runs to the
    continuation holding the input's as it was and the output's at `actOut33 xin`: the one store covers the whole
    block, so what it leaves is its payload, and the payload's argument is the whole-block load of `xin`. -/
theorem body33 (c : Dev nD) (E : Set ℕ) (i : grid33.Coords) (M1 : Memref sig .tc .vmem S4x2000x128 .f32) (h1 : M1.IsWhole)
    (M2 : Memref sig .tc .vmem S2000x128 .f32) (h2 : M2.IsWhole) (xin : Vec F S4x2000x128 .f32) (K : PUnit → sProp (MM F)) :
    iprop(owns (c : Thread nD τ) M1 fullShare xin ∗ (∃ d, owns (c : Thread nD τ) M2 fullShare d)
        ∗ (iprop(owns (c : Thread nD τ) M1 fullShare xin ∗ owns (c : Thread nD τ) M2 fullShare (actOut33 xin)) -∗ K ⟨⟩))
      ⊢ wp frame (wpE (defs₀ (F := F)) Variants.none c none) E (cc33__act_sum_kernel i M1 h1 M2 h2) K := by
  simp only [cc33__act_sum_kernel_eq_skeleton]; unfold cc33__act_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _,
      View.mem_set_unit_zero zeros33_2 inb_S2000x128_S2000x128_0_0 y⟩),
    View.canon_unit_zero (S := S2000x128) zeros33_2]
  unfold actOut33
  exact (pay33_eq _).trans (congrArg actBlock (View.ld_unit_zero (S := S4x2000x128) zeros33_3 inb_S4x2000x128_S4x2000x128_0_0_0 _))

end Cert.Kernel.Hand

end
-- ==== Proof.K.ActDat33.lean ====
/-
  The proof data of custom_call 33 (the activation-and-sum over the stacked aggregates) and the array it leaves.

  The pipeline walks 50 points; at point `t` it stages rows `[2000 t, 2000 t + 2000)` of all four slabs of the input
  array, runs the body, and writes the `[2000, 128]` result back over the same rows of the output array. The proof data
  say so: the arrays as the region finds them, the input's buffer at its block, the output's at the activation-and-sum
  of that block. The output's blocks tile its array, so after the last point the array is `actArr` of the input array:
  what each point writes back is its block of that one function (the index maps' relations decided over the grid, the
  rest arithmetic on rows), and every row lies in the block of point `row / 2000`.
-/
import proofs.«414509_j14181982011419_2_alg».proof.Proof.K.ActBody33
import proofs.«414509_j14181982011419_2_alg».proof.Proof.Gen.Kernel.Points
import Idealize.ShloMosaic.Lib.Pipeline.FrameBody
import Idealize.ShloMosaic.Lib.Pipeline.Value

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

variable (Vin : Dev nD → Valuation τ sig (Elt F))

/-- The pinned configuration of pipeline 33 is the printed one, whatever the tables' contents (it has no table). -/
theorem pin_eq33 (a : (p : Fin 34) → (pcfgs (F := F) p).Adm) : Pipeline.pin (pcfgs (F := F)) a (33 : Fin 34) = cfg33 := rfl

/-- Window `w`'s block at point `t`, read off its array as the region finds it. -/
def iblk33 (c : Dev nD) (w : Fin cfg33.W) (t : Fin cfg33.N) :
    ((cfg33.win w).xblock (cfg33.grid.coords t)).Idx → Elt F (cfg33.win w).elt :=
  ((cfg33.win w).blk t).view.read (Elt F) (Vin c (Pipeline.arrRef spec33 w))

/-- The proof data of pipeline 33 on core `c`: the arrays as the region finds them; after the body at point `t` the
    input's buffer at its block and the output's at the activation-and-sum of that block; the invariant the scoped
    buffers no window stages; nothing owed; full shares. -/
def dat33 (c : Dev nD) : Dat τ (Elt F) Unit ℕ (UU nD τ) ℕ cfg33 c where
  A w := Vin c (Pipeline.arrRef spec33 w)
  after w t := match w with
    | ⟨0, _⟩ => iblk33 Vin c 0 t
    | ⟨1, _⟩ => actOut33 (iblk33 Vin c 0 t)
  Φ _ := Pipeline.scopedRest (Ix := Unit) (Name := ℕ) (U := UU nD τ) (Lvl := ℕ) (Val := Elt F) spec33 c
  q _ := fullShare
  owed _ := 0

theorem A_eq33 (c : Dev nD) (w : Fin cfg33.W) : (dat33 Vin c).A w = Vin c (Pipeline.arrRef spec33 w) := by
  dsimp only [dat33]
theorem after33_0 (c : Dev nD) (t : Fin cfg33.N) : (dat33 Vin c).after 0 t = iblk33 Vin c 0 t := by dsimp only [dat33]
theorem after33_1 (c : Dev nD) (t : Fin cfg33.N) : (dat33 Vin c).after 1 t = actOut33 (iblk33 Vin c 0 t) := by dsimp only [dat33]
theorem Φ_eq33 (c : Dev nD) (t : Fin (cfg33.N + 1)) : (dat33 Vin c).Φ t
    = Pipeline.scopedRest (Ix := Unit) (Name := ℕ) (U := UU nD τ) (Lvl := ℕ) (Val := Elt F) spec33 c := rfl
theorem owed_eq33 (c : Dev nD) (t : Fin (cfg33.N + 1)) : (dat33 Vin c).owed t = 0 := rfl

/-- The input's current staging buffer holds its block at every point. -/
theorem before33_0 (c : Dev nD) (t : Fin cfg33.N) (d) : (dat33 Vin c).before 0 t d = iblk33 Vin c 0 t :=
  ((dat33 Vin c).before_in_eq_fetched 0 rfl (fun _ => rfl) (fun _ _ _ => rfl)
    (fun t => by rw [after33_0]; unfold Dat.blockOf iblk33; rw [A_eq33]; try rfl) t d).trans
    (by unfold Dat.fetched Dat.blockOf iblk33; rw [A_eq33]; try rfl)

/-! ## From the blocks to the array -/

/-- The printed index maps, decided over the grid: the input's block moves with the output's along the rows and
    sits at zero on the other axes; the output's block index is the point's number. -/
theorem idx_facts33 : ∀ t : Fin cfg33.N, win33_0.index t (0 : Fin 3) = 0
    ∧ win33_0.index t (1 : Fin 3) = win33_1.index t (0 : Fin 2)
    ∧ win33_0.index t (2 : Fin 3) = 0
    ∧ win33_1.index t (1 : Fin 2) = 0
    ∧ win33_1.index t (0 : Fin 2) ≤ 49 :=
  (by decide +kernel : ∀ t : Fin grid33.N, _)

/-- Every slab of the output is SOME point's block. -/
theorem idx_onto33 : ∀ q0 : Fin 50, ∃ t : Fin cfg33.N, win33_1.index t = ![q0.val, 0] :=
  (by decide +kernel : ∀ q0 : Fin 50, ∃ t : Fin grid33.N, win33_1.index t = ![q0.val, 0])

/-- WHAT POINT `t` WRITES BACK is block `t` of `actArr` of the input array as the region finds it. -/
theorem flushed33_eq (c : Dev nD) (t : Fin cfg33.N) :
    (dat33 Vin c).flushed 1 t = ((cfg33.win 1).blk t).view.read (Elt F) (actArr (Vin c main_v218)) := by
  show (cfg33.win 1).cut (grid33.coords t) ((dat33 Vin c).after 1 t) = _
  rw [after33_1]
  obtain ⟨e0, e1, e2, e3, e4⟩ := idx_facts33 t
  funext j
  show actOut33 (iblk33 Vin c 0 t) j = actArr (Vin c main_v218) (((cfg33.win 1).blk t).view.emb j)
  unfold actOut33 actArr
  have hj0 : (j 0).val < 2000 := (j 0).isLt
  refine congr (congrArg actBlock ?_) ?_
  · funext j'
    show Vin c main_v218 (((cfg33.win 0).blk t).view.emb j') = Vin c main_v218 _
    refine congrArg (Vin c main_v218) ?_
    funext a; apply Fin.ext
    have hj'1 : (j' 1).val < 2000 := (j' 1).isLt
    match a with
    | ⟨0, _⟩ => show win33_0.index t (0 : Fin 3) * 4 + 1 * (j' 0).val = (j' 0).val; omega
    | ⟨1, _⟩ => show win33_0.index t (1 : Fin 3) * 2000 + 1 * (j' 1).val = (win33_1.index t (0 : Fin 2) * 2000 + 1 * (j 0).val) / 2000 * 2000 + (j' 1).val; omega
    | ⟨2, _⟩ => show win33_0.index t (2 : Fin 3) * 128 + 1 * (j' 2).val = (j' 2).val; omega
  · funext a; apply Fin.ext
    match a with
    | ⟨0, _⟩ => show (j 0).val = (win33_1.index t (0 : Fin 2) * 2000 + 1 * (j 0).val) % 2000; omega
    | ⟨1, _⟩ => show (j 1).val = win33_1.index t (1 : Fin 2) * 128 + 1 * (j 1).val; omega

/-- An index of the array is in point `t`'s block iff each coordinate is in the block's range on its axis. -/
theorem mem_blk33 (t : Fin cfg33.N) (i : S100000x128.Idx) :
    i ∈ ((cfg33.win 1).blk t).view.set ↔ ∀ a : Fin 2, win33_1.index t a * S2000x128.size a ≤ (i a).val ∧ (i a).val < win33_1.index t a * S2000x128.size a + S2000x128.size a := by
  show i ∈ ((View.whole main_v219).slice (win33_1.rect t)).set ↔ _
  rw [View.set_slice_whole, Rect.mem_set_unit]
  exact Iff.rfl

/-- Every index of the output array is in some point's block: row `n` in that of point `n / 2000`. -/
theorem cover33 (i : S100000x128.Idx) :
    ∃ t : Fin cfg33.N, (cfg33.win 1).flush t = true ∧ i ∈ ((cfg33.win 1).blk t).view.set := by
  have hi0 : (i 0).val < 100000 := (i 0).isLt
  have hi1 : (i 1).val < 128 := (i 1).isLt
  obtain ⟨t, ht⟩ := idx_onto33 ⟨(i 0).val / 2000, by omega⟩
  have q0 : win33_1.index t (0 : Fin 2) = (i 0).val / 2000 := congrFun ht 0
  have q1 : win33_1.index t (1 : Fin 2) = 0 := congrFun ht 1
  refine ⟨t, flush33_1 t, ?_⟩
  rw [mem_blk33]
  intro a
  match a with
  | ⟨0, _⟩ => show win33_1.index t (0 : Fin 2) * 2000 ≤ (i 0).val ∧ (i 0).val < win33_1.index t (0 : Fin 2) * 2000 + 2000; omega
  | ⟨1, _⟩ => show win33_1.index t (1 : Fin 2) * 128 ≤ (i 1).val ∧ (i 1).val < win33_1.index t (1 : Fin 2) * 128 + 128; omega

/-- THE ARRAY after the region: `actArr` of the input array as the region finds it. -/
theorem final33 (c : Dev nD) : (dat33 Vin c).arrAt 1 cfg33.N = actArr (Vin c main_v218) :=
  (dat33 Vin c).arrAt_eq_of_cover 1 (actArr (Vin c main_v218)) (fun t _ => flushed33_eq Vin c t) cover33

end Cert.Kernel.Hand

end
-- ==== Proof.K.ActRegion33.lean ====
/-
  Custom_call 16 (the activation-and-sum over the stacked aggregates) as a segment of @main.

  The body obligation: at every point the input's staging memref holds its block of the input array, so the body's run
  applies and leaves the output's staging memref at the activation-and-sum of that block; the invariant (the scoped
  buffers no window stages) and the core's dues pass through unread. The segment: entered with every unscoped buffer at
  the contents `Vin` and the core owing nothing, it is left with the output array at `actArr` of the input array, every
  other buffer as entered, and the core owing nothing. The two arrays are split out of the unscoped buffers at entry
  and put back at exit; the kernel has no semaphore of its own.
-/
import proofs.«414509_j14181982011419_2_alg».proof.Proof.K.ActDat33
import Idealize.ShloMosaic.Lib.Pipeline.RegionsLoop

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (Vin : Dev nD → Valuation τ sig (Elt F))

/-! ## The body obligation, at a generic point -/

/-- What the body is called with at point `t`: the invariant, the core's dues, each window's current staging memref
    at what the pipeline left there, -/
def bodyPre33 (c : Dev nD) (t : Fin cfg33.N) : sProp (MM F) :=
  iprop((dat33 Vin c).Φ t.castSucc ∗ (dat33 Vin c).owesAt () t.castSucc
    ∗ (∃ d, owns (c : Thread nD τ) (st33_0 t) fullShare ((dat33 Vin c).before 0 t d))
    ∗ (∃ d, owns (c : Thread nD τ) (st33_1 t) fullShare ((dat33 Vin c).before 1 t d)))

/-- and what it returns. -/
def bodyPost33 (c : Dev nD) (t : Fin cfg33.N) : sProp (MM F) :=
  iprop((dat33 Vin c).Φ t.succ ∗ (dat33 Vin c).owesAt () t.succ
    ∗ owns (c : Thread nD τ) (st33_0 t) fullShare ((dat33 Vin c).after 0 t)
    ∗ owns (c : Thread nD τ) (st33_1 t) fullShare ((dat33 Vin c).after 1 t))

/-- The body at any point: the input's memref holds its block, so the body's run applies; the invariant and the core's
    dues pass through unread. -/
theorem sound_body33 (c : Dev nD) (t : Fin cfg33.N) :
    bodyPre33 Vin c t ⊢ wp frame (wpE (defs₀ (F := F)) Variants.none c none) Set.univ (bodyAt33 t) (fun _ => bodyPost33 Vin c t) := by
  unfold bodyPre33 bodyPost33 bodyAt33
  simp only [before33_0]
  rw [show (dat33 Vin c).Φ t.succ = (dat33 Vin c).Φ t.castSucc from rfl,
    show (dat33 Vin c).owesAt () t.succ = (dat33 Vin c).owesAt () t.castSucc from rfl,
    after33_0, after33_1]
  iintro ⟨HΦ, Ho, ⟨%d0, H0⟩, ⟨%d1, H1⟩⟩
  iapply (body33 c Set.univ _ _ _ _ _ (iblk33 Vin c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation33 (c : Dev nD) : BodyObligation (dat33 (F := F) Vin c) (defs₀ (F := F)) Variants.none () Set.univ := fun t => by
  rw [bigSep_W33, bigSep_W33]
  exact sound_body33 Vin c t

/-! ## The region as a segment of @main -/

/-- The buffer contents when the region is left: the output array at the activation-and-sum of the input array, every
    other buffer as entered. -/
abbrev Vout33 (c : Dev nD) : Valuation τ sig (Elt F) :=
  Function.update (Vin c) main_v219 (actArr (Vin c main_v218))

/-- At the exit each of the region's arrays holds what the pipeline leaves: the input as entered, the output the
    activation-and-sum of the input; -/
theorem hF33 (c : Dev nD) (w : Fin cfg33.W) : (dat33 Vin c).arrAt w cfg33.N = Vout33 Vin c (Pipeline.arrRef spec33 w) := by
  match w with
  | ⟨0, _⟩ =>
    show (dat33 Vin c).arrAt 0 cfg33.N = Vout33 Vin c (Pipeline.arrRef spec33 0)
    rw [(dat33 Vin c).arrAt_in 0 rfl _, A_eq33]
    exact (Function.update_of_ne (StableHlo.devRef_ne_of_ne (by decide) : (Proc.devRef .tc main_v218 : DevRef τ sig) ≠ Proc.devRef .tc main_v219) _ _).symm
  | ⟨1, _⟩ =>
    show (dat33 Vin c).arrAt 1 cfg33.N = Vout33 Vin c (Pipeline.arrRef spec33 1)
    rw [final33]
    exact (Function.update_self (Proc.devRef .tc main_v219 : DevRef τ sig) _ (Vin c)).symm

/-- and every other buffer what it held at entry. -/
theorem hrest33 (c : Dev nD) : ∀ b : Ref sig .tc, b ∉ Finset.univ.image (Pipeline.arrRef spec33) → Vout33 Vin c b = Vin c b :=
  fun b hb => Function.update_of_ne (StableHlo.devRef_ne_of_ne fun e =>
    hb (Finset.mem_image.mpr ⟨1, Finset.mem_univ _, e.symm⟩)) _ _

set_option backward.isDefEq.respectTransparency.types false in
/-- REGION 16 over the thread state: entered from every unscoped buffer at `Vin`, left at `Vout33 Vin`. Its arrays
    split out of the unscoped buffers and put back at the exit contents; the scoped buffers no window stages into the
    invariant and out; nothing owed; no semaphore of the kernel's own. -/
def reg33 (a : (p : Fin 34) → (pcfgs (F := F) p).Adm)
    (pdats : (p : Fin 34) → (c : Dev nD) → Dat τ (Elt F) Unit ℕ (UU nD τ) ℕ (Pipeline.pin (pcfgs (F := F)) a p) c)
    (hd : ∀ c, pdats (33 : Fin 34) c = dat33 Vin c) :
    Pipeline.RegionSeg (pcfgs (F := F)) a pdats () defs₀ 𝒱₀ L lv (33 : Fin 34) where
  win := (launch33 (F := F)).win.to₀
  block_pos := (launch33 (F := F)).block_pos
  stage_whole := (launch33 (F := F)).stage_whole
  K := PEmpty
  osem k := k.elim
  ho := Pipeline.OwnSemFacts.none _
  hbody c := by rw [hd c]; exact (body_obligation33 Vin c).loose
  hwaits := Pipeline.hwaits_of_owed_zero _ _ _ _ L lv (33 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Vout33 Vin c) ∗ Rest c)
  X _ := iprop(emp)
  Y _ := iprop(emp)
  Z c := Pipeline.unscopedRest (Ix := Unit) (Name := ℕ) (U := UU nD τ) (Lvl := ℕ) spec33 c (fun b => Vin c b)
  hentry c := by
    rw [Pipeline.ownSems0_none]
    have hsplit := Pipeline.arrays_of_unscopedBufs (p := (33 : Fin 34)) (pcfgs (F := F)) a pdats (launch33 (F := F)).win (launch33 (F := F)).arr_whole c
      ((pdats (33 : Fin 34) c).share_full fun _ => by rw [hd c]; rfl) (fun b => Vin c b) fun w => by rw [hd c]; rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats (33 : Fin 34) c).owed 0 = 0 from by rw [hd c]; rfl]
      icases HO with ⟨%W, HO⟩; iexists W; isplitr; · ipureintro; exact fun _ _ => Or.inl (by rw [hd c]; trivial)
      iexact HO
    isplitr; · iempintro
    iexact Hrest
  hin c := by
    rw [hd c, Φ_eq33]
    iintro ⟨-, -, Hr⟩
    iexact Hr
  hout c := by
    rw [Pipeline.ownSems0_none, hd c, Φ_eq33]
    iintro Hr
    isplitr; · iempintro
    isplitr; · iempintro
    iexact Hr
  hexit c := by
    have hjoin := Pipeline.unscopedBufs_of_arrays (p := (33 : Fin 34)) (pcfgs (F := F)) a (Ix := Unit) (Name := ℕ) (U := UU nD τ) (Lvl := ℕ)
      (launch33 (F := F)).win (launch33 (F := F)).arr_whole c pdats ((pdats (33 : Fin 34) c).share_full fun _ => by rw [hd c]; rfl)
      (fun b => Vin c b) (fun b => Vout33 Vin c b) ((pdats (33 : Fin 34) c).arrAt · cfg33.N)
      (fun w => by rw [hd c]; exact hF33 Vin c w) (hrest33 Vin c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [show (pdats (33 : Fin 34) c).owed (Fin.last _) = 0 from by rw [hd c]; rfl]
    icases HO with ⟨%W, -, HO⟩; iexists W; iexact HO

end Cert.Kernel.Hand

end
-- ==== Proof.K.Assemble.lean ====
import proofs.«414509_j14181982011419_2_alg».proof.Proof.K.Chain
import proofs.«414509_j14181982011419_2_alg».proof.Proof.K.RegionsValue
import proofs.«414509_j14181982011419_2_alg».proof.Proof.K.Tables
import proofs.«414509_j14181982011419_2_alg».proof.Proof.K.TablesV
import proofs.«414509_j14181982011419_2_alg».proof.Proof.K.TablesVRest
import proofs.«414509_j14181982011419_2_alg».proof.Proof.K.GatherRegion0
import proofs.«414509_j14181982011419_2_alg».proof.Proof.K.GatherRegion1
import proofs.«414509_j14181982011419_2_alg».proof.Proof.K.GatherRegion2
import proofs.«414509_j14181982011419_2_alg».proof.Proof.K.GatherRegion3
import proofs.«414509_j14181982011419_2_alg».proof.Proof.K.GatherRegion4
import proofs.«414509_j14181982011419_2_alg».proof.Proof.K.GatherRegion5
import proofs.«414509_j14181982011419_2_alg».proof.Proof.K.GatherRegion6
import proofs.«414509_j14181982011419_2_alg».proof.Proof.K.GatherRegion7
import proofs.«414509_j14181982011419_2_alg».proof.Proof.K.GatherRegion8
import proofs.«414509_j14181982011419_2_alg».proof.Proof.K.GatherRegion9
import proofs.«414509_j14181982011419_2_alg».proof.Proof.K.GatherRegion10
import proofs.«414509_j14181982011419_2_alg».proof.Proof.K.GatherRegion11
import proofs.«414509_j14181982011419_2_alg».proof.Proof.K.GatherRegion12
import proofs.«414509_j14181982011419_2_alg».proof.Proof.K.GatherRegion13
import proofs.«414509_j14181982011419_2_alg».proof.Proof.K.GatherRegion14
import proofs.«414509_j14181982011419_2_alg».proof.Proof.K.GatherRegion15
import proofs.«414509_j14181982011419_2_alg».proof.Proof.K.ActRegion16
import proofs.«414509_j14181982011419_2_alg».proof.Proof.K.GatherRegion17
import proofs.«414509_j14181982011419_2_alg».proof.Proof.K.GatherRegion18
import proofs.«414509_j14181982011419_2_alg».proof.Proof.K.GatherRegion19
import proofs.«414509_j14181982011419_2_alg».proof.Proof.K.GatherRegion20
import proofs.«414509_j14181982011419_2_alg».proof.Proof.K.GatherRegion21
import proofs.«414509_j14181982011419_2_alg».proof.Proof.K.GatherRegion22
import proofs.«414509_j14181982011419_2_alg».proof.Proof.K.GatherRegion23
import proofs.«414509_j14181982011419_2_alg».proof.Proof.K.GatherRegion24
import proofs.«414509_j14181982011419_2_alg».proof.Proof.K.GatherRegion25
import proofs.«414509_j14181982011419_2_alg».proof.Proof.K.GatherRegion26
import proofs.«414509_j14181982011419_2_alg».proof.Proof.K.GatherRegion27
import proofs.«414509_j14181982011419_2_alg».proof.Proof.K.GatherRegion28
import proofs.«414509_j14181982011419_2_alg».proof.Proof.K.GatherRegion29
import proofs.«414509_j14181982011419_2_alg».proof.Proof.K.GatherRegion30
import proofs.«414509_j14181982011419_2_alg».proof.Proof.K.GatherRegion31
import proofs.«414509_j14181982011419_2_alg».proof.Proof.K.GatherRegion32
import proofs.«414509_j14181982011419_2_alg».proof.Proof.K.ActRegion33

set_option maxRecDepth 2240

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-! ## The proof data family

One arm per pipeline: a gather region's data at its pinned table and at the valuation the chain gives at its entry; an
activation region's at the valuation at its entry. -/

def pdats : (p : Fin 34) → (c : Dev nD) → Pipeline.Dat τ (Elt F) Unit ℕ (UU nD τ) ℕ (Pipeline.pin (pcfgs (F := F)) (adm m) p) c
  | ⟨0, _⟩ => fun c => dat0 (adm m (0 : Fin 34)) (VV5 m) c
  | ⟨1, _⟩ => fun c => dat1 (adm m (1 : Fin 34)) (VV7 m) c
  | ⟨2, _⟩ => fun c => dat2 (adm m (2 : Fin 34)) (VV9 m) c
  | ⟨3, _⟩ => fun c => dat3 (adm m (3 : Fin 34)) (VV11 m) c
  | ⟨4, _⟩ => fun c => dat4 (adm m (4 : Fin 34)) (VV17 m) c
  | ⟨5, _⟩ => fun c => dat5 (adm m (5 : Fin 34)) (VV19 m) c
  | ⟨6, _⟩ => fun c => dat6 (adm m (6 : Fin 34)) (VV21 m) c
  | ⟨7, _⟩ => fun c => dat7 (adm m (7 : Fin 34)) (VV23 m) c
  | ⟨8, _⟩ => fun c => dat8 (adm m (8 : Fin 34)) (VV29 m) c
  | ⟨9, _⟩ => fun c => dat9 (adm m (9 : Fin 34)) (VV31 m) c
  | ⟨10, _⟩ => fun c => dat10 (adm m (10 : Fin 34)) (VV33 m) c
  | ⟨11, _⟩ => fun c => dat11 (adm m (11 : Fin 34)) (VV35 m) c
  | ⟨12, _⟩ => fun c => dat12 (adm m (12 : Fin 34)) (VV41 m) c
  | ⟨13, _⟩ => fun c => dat13 (adm m (13 : Fin 34)) (VV43 m) c
  | ⟨14, _⟩ => fun c => dat14 (adm m (14 : Fin 34)) (VV45 m) c
  | ⟨15, _⟩ => fun c => dat15 (adm m (15 : Fin 34)) (VV47 m) c
  | ⟨16, _⟩ => fun c => dat16 (VV49 m) c
  | ⟨17, _⟩ => fun c => dat17 (adm m (17 : Fin 34)) (VV55 m) c
  | ⟨18, _⟩ => fun c => dat18 (adm m (18 : Fin 34)) (VV57 m) c
  | ⟨19, _⟩ => fun c => dat19 (adm m (19 : Fin 34)) (VV59 m) c
  | ⟨20, _⟩ => fun c => dat20 (adm m (20 : Fin 34)) (VV61 m) c
  | ⟨21, _⟩ => fun c => dat21 (adm m (21 : Fin 34)) (VV67 m) c
  | ⟨22, _⟩ => fun c => dat22 (adm m (22 : Fin 34)) (VV69 m) c
  | ⟨23, _⟩ => fun c => dat23 (adm m (23 : Fin 34)) (VV71 m) c
  | ⟨24, _⟩ => fun c => dat24 (adm m (24 : Fin 34)) (VV73 m) c
  | ⟨25, _⟩ => fun c => dat25 (adm m (25 : Fin 34)) (VV79 m) c
  | ⟨26, _⟩ => fun c => dat26 (adm m (26 : Fin 34)) (VV81 m) c
  | ⟨27, _⟩ => fun c => dat27 (adm m (27 : Fin 34)) (VV83 m) c
  | ⟨28, _⟩ => fun c => dat28 (adm m (28 : Fin 34)) (VV85 m) c
  | ⟨29, _⟩ => fun c => dat29 (adm m (29 : Fin 34)) (VV91 m) c
  | ⟨30, _⟩ => fun c => dat30 (adm m (30 : Fin 34)) (VV93 m) c
  | ⟨31, _⟩ => fun c => dat31 (adm m (31 : Fin 34)) (VV95 m) c
  | ⟨32, _⟩ => fun c => dat32 (adm m (32 : Fin 34)) (VV97 m) c
  | ⟨33, _⟩ => fun c => dat33 (VV99 m) c
  | ⟨_ + 34, h⟩ => absurd h (Nat.not_lt.2 (Nat.le_add_left _ _))

/-! ## The regions' records

Each at the chain's valuation at its entry: a gather region's table under that valuation is the pinned one (the table's
value there, by the tables' lemmas) and holds row numbers (the precondition); entering rewrites the frame's valuation to
the chain's, leaving likewise. -/

section Records

variable [Cert.Pre_finite_inputs.Facts] (hpre : PreAt m)

/-! ### Region 0 -/

theorem htbl0 (c : Dev nD) : (adm m (0 : Fin 34)).1 = fun k => Vr (VV5 m) c (pre0.ref k) := by
  funext k
  match k with
  | ⟨0, _⟩ => exact ((congrFun (V5_eq m c) main_v7).symm.trans (tbl_0 m c)).symm
  | ⟨_ + 1, h⟩ => exact absurd h (Nat.not_lt.2 (Nat.le_add_left _ _))

def R0 : RegionSeg (pcfgs (F := F)) (adm m) (pdats m) () defs₀ 𝒱₀ L lv (0 : Fin 34) :=
  reg0 (adm m) (pdats m) (VV5 m) (fun e => adm0_range m hpre e) (fun _ => rfl) (htbl0 m)

theorem hpre0 (c : Dev nD) : iprop(StableHlo.held (c : Thread nD τ) (Pipeline.ucRefs τ sig) (V5 m c) ∗ Rest (F := F) c) ⊢ (R0 m hpre).pre c := by
  rw [V5_eq]; exact .rfl

theorem hpost0 (c : Dev nD) : (R0 m hpre).post c ⊢ iprop(StableHlo.held (c : Thread nD τ) (Pipeline.ucRefs τ sig) (V6 m (outs m) c) ∗ Rest (F := F) c) := by
  rw [V6_eq]; exact .rfl

/-! ### Region 1 -/

theorem htbl1 (c : Dev nD) : (adm m (1 : Fin 34)).1 = fun k => Vr (VV7 m) c (pre1.ref k) := by
  funext k
  match k with
  | ⟨0, _⟩ => exact ((congrFun (V7_eq m c) main_v10).symm.trans (tbl_1 m (outs m) c)).symm
  | ⟨_ + 1, h⟩ => exact absurd h (Nat.not_lt.2 (Nat.le_add_left _ _))

def R1 : RegionSeg (pcfgs (F := F)) (adm m) (pdats m) () defs₀ 𝒱₀ L lv (1 : Fin 34) :=
  reg1 (adm m) (pdats m) (VV7 m) (fun e => adm1_range m hpre e) (fun _ => rfl) (htbl1 m)

theorem hpre1 (c : Dev nD) : iprop(StableHlo.held (c : Thread nD τ) (Pipeline.ucRefs τ sig) (V7 m (outs m) c) ∗ Rest (F := F) c) ⊢ (R1 m hpre).pre c := by
  rw [V7_eq]; exact .rfl

theorem hpost1 (c : Dev nD) : (R1 m hpre).post c ⊢ iprop(StableHlo.held (c : Thread nD τ) (Pipeline.ucRefs τ sig) (V8 m (outs m) c) ∗ Rest (F := F) c) := by
  rw [V8_eq]; exact .rfl

/-! ### Region 2 -/

theorem htbl2 (c : Dev nD) : (adm m (2 : Fin 34)).1 = fun k => Vr (VV9 m) c (pre2.ref k) := by
  funext k
  match k with
  | ⟨0, _⟩ => exact ((congrFun (V9_eq m c) main_v13).symm.trans (tbl_2 m (outs m) c)).symm
  | ⟨_ + 1, h⟩ => exact absurd h (Nat.not_lt.2 (Nat.le_add_left _ _))

def R2 : RegionSeg (pcfgs (F := F)) (adm m) (pdats m) () defs₀ 𝒱₀ L lv (2 : Fin 34) :=
  reg2 (adm m) (pdats m) (VV9 m) (fun e => adm2_range m hpre e) (fun _ => rfl) (htbl2 m)

theorem hpre2 (c : Dev nD) : iprop(StableHlo.held (c : Thread nD τ) (Pipeline.ucRefs τ sig) (V9 m (outs m) c) ∗ Rest (F := F) c) ⊢ (R2 m hpre).pre c := by
  rw [V9_eq]; exact .rfl

theorem hpost2 (c : Dev nD) : (R2 m hpre).post c ⊢ iprop(StableHlo.held (c : Thread nD τ) (Pipeline.ucRefs τ sig) (V10 m (outs m) c) ∗ Rest (F := F) c) := by
  rw [V10_eq]; exact .rfl

/-! ### Region 3 -/

theorem htbl3 (c : Dev nD) : (adm m (3 : Fin 34)).1 = fun k => Vr (VV11 m) c (pre3.ref k) := by
  funext k
  match k with
  | ⟨0, _⟩ => exact ((congrFun (V11_eq m c) main_v16).symm.trans (tbl_3 m (outs m) c)).symm
  | ⟨_ + 1, h⟩ => exact absurd h (Nat.not_lt.2 (Nat.le_add_left _ _))

def R3 : RegionSeg (pcfgs (F := F)) (adm m) (pdats m) () defs₀ 𝒱₀ L lv (3 : Fin 34) :=
  reg3 (adm m) (pdats m) (VV11 m) (fun e => adm3_range m hpre e) (fun _ => rfl) (htbl3 m)

theorem hpre3 (c : Dev nD) : iprop(StableHlo.held (c : Thread nD τ) (Pipeline.ucRefs τ sig) (V11 m (outs m) c) ∗ Rest (F := F) c) ⊢ (R3 m hpre).pre c := by
  rw [V11_eq]; exact .rfl

theorem hpost3 (c : Dev nD) : (R3 m hpre).post c ⊢ iprop(StableHlo.held (c : Thread nD τ) (Pipeline.ucRefs τ sig) (V12 m (outs m) c) ∗ Rest (F := F) c) := by
  rw [V12_eq]; exact .rfl

/-! ### Region 4 -/

theorem htbl4 (c : Dev nD) : (adm m (4 : Fin 34)).1 = fun k => Vr (VV17 m) c (pre4.ref k) := by
  funext k
  match k with
  | ⟨0, _⟩ => exact ((congrFun (V17_eq m c) main_v33).symm.trans (tbl_4 m (outs m) c)).symm
  | ⟨_ + 1, h⟩ => exact absurd h (Nat.not_lt.2 (Nat.le_add_left _ _))

def R4 : RegionSeg (pcfgs (F := F)) (adm m) (pdats m) () defs₀ 𝒱₀ L lv (4 : Fin 34) :=
  reg4 (adm m) (pdats m) (VV17 m) (fun e => adm4_range m hpre e) (fun _ => rfl) (htbl4 m)

theorem hpre4 (c : Dev nD) : iprop(StableHlo.held (c : Thread nD τ) (Pipeline.ucRefs τ sig) (V17 m (outs m) c) ∗ Rest (F := F) c) ⊢ (R4 m hpre).pre c := by
  rw [V17_eq]; exact .rfl

theorem hpost4 (c : Dev nD) : (R4 m hpre).post c ⊢ iprop(StableHlo.held (c : Thread nD τ) (Pipeline.ucRefs τ sig) (V18 m (outs m) c) ∗ Rest (F := F) c) := by
  rw [V18_eq]; exact .rfl

/-! ### Region 5 -/

theorem htbl5 (c : Dev nD) : (adm m (5 : Fin 34)).1 = fun k => Vr (VV19 m) c (pre5.ref k) := by
  funext k
  match k with
  | ⟨0, _⟩ => exact ((congrFun (V19_eq m c) main_v36).symm.trans (tbl_5 m (outs m) c)).symm
  | ⟨_ + 1, h⟩ => exact absurd h (Nat.not_lt.2 (Nat.le_add_left _ _))

def R5 : RegionSeg (pcfgs (F := F)) (adm m) (pdats m) () defs₀ 𝒱₀ L lv (5 : Fin 34) :=
  reg5 (adm m) (pdats m) (VV19 m) (fun e => adm5_range m hpre e) (fun _ => rfl) (htbl5 m)

theorem hpre5 (c : Dev nD) : iprop(StableHlo.held (c : Thread nD τ) (Pipeline.ucRefs τ sig) (V19 m (outs m) c) ∗ Rest (F := F) c) ⊢ (R5 m hpre).pre c := by
  rw [V19_eq]; exact .rfl

theorem hpost5 (c : Dev nD) : (R5 m hpre).post c ⊢ iprop(StableHlo.held (c : Thread nD τ) (Pipeline.ucRefs τ sig) (V20 m (outs m) c) ∗ Rest (F := F) c) := by
  rw [V20_eq]; exact .rfl

/-! ### Region 6 -/

theorem htbl6 (c : Dev nD) : (adm m (6 : Fin 34)).1 = fun k => Vr (VV21 m) c (pre6.ref k) := by
  funext k
  match k with
  | ⟨0, _⟩ => exact ((congrFun (V21_eq m c) main_v39).symm.trans (tbl_6 m (outs m) c)).symm
  | ⟨_ + 1, h⟩ => exact absurd h (Nat.not_lt.2 (Nat.le_add_left _ _))

def R6 : RegionSeg (pcfgs (F := F)) (adm m) (pdats m) () defs₀ 𝒱₀ L lv (6 : Fin 34) :=
  reg6 (adm m) (pdats m) (VV21 m) (fun e => adm6_range m hpre e) (fun _ => rfl) (htbl6 m)

theorem hpre6 (c : Dev nD) : iprop(StableHlo.held (c : Thread nD τ) (Pipeline.ucRefs τ sig) (V21 m (outs m) c) ∗ Rest (F := F) c) ⊢ (R6 m hpre).pre c := by
  rw [V21_eq]; exact .rfl

theorem hpost6 (c : Dev nD) : (R6 m hpre).post c ⊢ iprop(StableHlo.held (c : Thread nD τ) (Pipeline.ucRefs τ sig) (V22 m (outs m) c) ∗ Rest (F := F) c) := by
  rw [V22_eq]; exact .rfl

/-! ### Region 7 -/

theorem htbl7 (c : Dev nD) : (adm m (7 : Fin 34)).1 = fun k => Vr (VV23 m) c (pre7.ref k) := by
  funext k
  match k with
  | ⟨0, _⟩ => exact ((congrFun (V23_eq m c) main_v42).symm.trans (tbl_7 m (outs m) c)).symm
  | ⟨_ + 1, h⟩ => exact absurd h (Nat.not_lt.2 (Nat.le_add_left _ _))

def R7 : RegionSeg (pcfgs (F := F)) (adm m) (pdats m) () defs₀ 𝒱₀ L lv (7 : Fin 34) :=
  reg7 (adm m) (pdats m) (VV23 m) (fun e => adm7_range m hpre e) (fun _ => rfl) (htbl7 m)

theorem hpre7 (c : Dev nD) : iprop(StableHlo.held (c : Thread nD τ) (Pipeline.ucRefs τ sig) (V23 m (outs m) c) ∗ Rest (F := F) c) ⊢ (R7 m hpre).pre c := by
  rw [V23_eq]; exact .rfl

theorem hpost7 (c : Dev nD) : (R7 m hpre).post c ⊢ iprop(StableHlo.held (c : Thread nD τ) (Pipeline.ucRefs τ sig) (V24 m (outs m) c) ∗ Rest (F := F) c) := by
  rw [V24_eq]; exact .rfl

/-! ### Region 8 -/

theorem htbl8 (c : Dev nD) : (adm m (8 : Fin 34)).1 = fun k => Vr (VV29 m) c (pre8.ref k) := by
  funext k
  match k with
  | ⟨0, _⟩ => exact ((congrFun (V29_eq m c) main_v59).symm.trans (tbl_8 m (outs m) c)).symm
  | ⟨_ + 1, h⟩ => exact absurd h (Nat.not_lt.2 (Nat.le_add_left _ _))

def R8 : RegionSeg (pcfgs (F := F)) (adm m) (pdats m) () defs₀ 𝒱₀ L lv (8 : Fin 34) :=
  reg8 (adm m) (pdats m) (VV29 m) (fun e => adm8_range m hpre e) (fun _ => rfl) (htbl8 m)

theorem hpre8 (c : Dev nD) : iprop(StableHlo.held (c : Thread nD τ) (Pipeline.ucRefs τ sig) (V29 m (outs m) c) ∗ Rest (F := F) c) ⊢ (R8 m hpre).pre c := by
  rw [V29_eq]; exact .rfl

theorem hpost8 (c : Dev nD) : (R8 m hpre).post c ⊢ iprop(StableHlo.held (c : Thread nD τ) (Pipeline.ucRefs τ sig) (V30 m (outs m) c) ∗ Rest (F := F) c) := by
  rw [V30_eq]; exact .rfl

/-! ### Region 9 -/

theorem htbl9 (c : Dev nD) : (adm m (9 : Fin 34)).1 = fun k => Vr (VV31 m) c (pre9.ref k) := by
  funext k
  match k with
  | ⟨0, _⟩ => exact ((congrFun (V31_eq m c) main_v62).symm.trans (tbl_9 m (outs m) c)).symm
  | ⟨_ + 1, h⟩ => exact absurd h (Nat.not_lt.2 (Nat.le_add_left _ _))

def R9 : RegionSeg (pcfgs (F := F)) (adm m) (pdats m) () defs₀ 𝒱₀ L lv (9 : Fin 34) :=
  reg9 (adm m) (pdats m) (VV31 m) (fun e => adm9_range m hpre e) (fun _ => rfl) (htbl9 m)

theorem hpre9 (c : Dev nD) : iprop(StableHlo.held (c : Thread nD τ) (Pipeline.ucRefs τ sig) (V31 m (outs m) c) ∗ Rest (F := F) c) ⊢ (R9 m hpre).pre c := by
  rw [V31_eq]; exact .rfl

theorem hpost9 (c : Dev nD) : (R9 m hpre).post c ⊢ iprop(StableHlo.held (c : Thread nD τ) (Pipeline.ucRefs τ sig) (V32 m (outs m) c) ∗ Rest (F := F) c) := by
  rw [V32_eq]; exact .rfl

/-! ### Region 10 -/

theorem htbl10 (c : Dev nD) : (adm m (10 : Fin 34)).1 = fun k => Vr (VV33 m) c (pre10.ref k) := by
  funext k
  match k with
  | ⟨0, _⟩ => exact ((congrFun (V33_eq m c) main_v65).symm.trans (tbl_10 m (outs m) c)).symm
  | ⟨_ + 1, h⟩ => exact absurd h (Nat.not_lt.2 (Nat.le_add_left _ _))

def R10 : RegionSeg (pcfgs (F := F)) (adm m) (pdats m) () defs₀ 𝒱₀ L lv (10 : Fin 34) :=
  reg10 (adm m) (pdats m) (VV33 m) (fun e => adm10_range m hpre e) (fun _ => rfl) (htbl10 m)

theorem hpre10 (c : Dev nD) : iprop(StableHlo.held (c : Thread nD τ) (Pipeline.ucRefs τ sig) (V33 m (outs m) c) ∗ Rest (F := F) c) ⊢ (R10 m hpre).pre c := by
  rw [V33_eq]; exact .rfl

theorem hpost10 (c : Dev nD) : (R10 m hpre).post c ⊢ iprop(StableHlo.held (c : Thread nD τ) (Pipeline.ucRefs τ sig) (V34 m (outs m) c) ∗ Rest (F := F) c) := by
  rw [V34_eq]; exact .rfl

/-! ### Region 11 -/

theorem htbl11 (c : Dev nD) : (adm m (11 : Fin 34)).1 = fun k => Vr (VV35 m) c (pre11.ref k) := by
  funext k
  match k with
  | ⟨0, _⟩ => exact ((congrFun (V35_eq m c) main_v68).symm.trans (tbl_11 m (outs m) c)).symm
  | ⟨_ + 1, h⟩ => exact absurd h (Nat.not_lt.2 (Nat.le_add_left _ _))

def R11 : RegionSeg (pcfgs (F := F)) (adm m) (pdats m) () defs₀ 𝒱₀ L lv (11 : Fin 34) :=
  reg11 (adm m) (pdats m) (VV35 m) (fun e => adm11_range m hpre e) (fun _ => rfl) (htbl11 m)

theorem hpre11 (c : Dev nD) : iprop(StableHlo.held (c : Thread nD τ) (Pipeline.ucRefs τ sig) (V35 m (outs m) c) ∗ Rest (F := F) c) ⊢ (R11 m hpre).pre c := by
  rw [V35_eq]; exact .rfl

theorem hpost11 (c : Dev nD) : (R11 m hpre).post c ⊢ iprop(StableHlo.held (c : Thread nD τ) (Pipeline.ucRefs τ sig) (V36 m (outs m) c) ∗ Rest (F := F) c) := by
  rw [V36_eq]; exact .rfl

/-! ### Region 12 -/

theorem htbl12 (c : Dev nD) : (adm m (12 : Fin 34)).1 = fun k => Vr (VV41 m) c (pre12.ref k) := by
  funext k
  match k with
  | ⟨0, _⟩ => exact ((congrFun (V41_eq m c) main_v85).symm.trans (tbl_12 m (outs m) c)).symm
  | ⟨_ + 1, h⟩ => exact absurd h (Nat.not_lt.2 (Nat.le_add_left _ _))

def R12 : RegionSeg (pcfgs (F := F)) (adm m) (pdats m) () defs₀ 𝒱₀ L lv (12 : Fin 34) :=
  reg12 (adm m) (pdats m) (VV41 m) (fun e => adm12_range m hpre e) (fun _ => rfl) (htbl12 m)

theorem hpre12 (c : Dev nD) : iprop(StableHlo.held (c : Thread nD τ) (Pipeline.ucRefs τ sig) (V41 m (outs m) c) ∗ Rest (F := F) c) ⊢ (R12 m hpre).pre c := by
  rw [V41_eq]; exact .rfl

theorem hpost12 (c : Dev nD) : (R12 m hpre).post c ⊢ iprop(StableHlo.held (c : Thread nD τ) (Pipeline.ucRefs τ sig) (V42 m (outs m) c) ∗ Rest (F := F) c) := by
  rw [V42_eq]; exact .rfl

/-! ### Region 13 -/

theorem htbl13 (c : Dev nD) : (adm m (13 : Fin 34)).1 = fun k => Vr (VV43 m) c (pre13.ref k) := by
  funext k
  match k with
  | ⟨0, _⟩ => exact ((congrFun (V43_eq m c) main_v88).symm.trans (tbl_13 m (outs m) c)).symm
  | ⟨_ + 1, h⟩ => exact absurd h (Nat.not_lt.2 (Nat.le_add_left _ _))

def R13 : RegionSeg (pcfgs (F := F)) (adm m) (pdats m) () defs₀ 𝒱₀ L lv (13 : Fin 34) :=
  reg13 (adm m) (pdats m) (VV43 m) (fun e => adm13_range m hpre e) (fun _ => rfl) (htbl13 m)

theorem hpre13 (c : Dev nD) : iprop(StableHlo.held (c : Thread nD τ) (Pipeline.ucRefs τ sig) (V43 m (outs m) c) ∗ Rest (F := F) c) ⊢ (R13 m hpre).pre c := by
  rw [V43_eq]; exact .rfl

theorem hpost13 (c : Dev nD) : (R13 m hpre).post c ⊢ iprop(StableHlo.held (c : Thread nD τ) (Pipeline.ucRefs τ sig) (V44 m (outs m) c) ∗ Rest (F := F) c) := by
  rw [V44_eq]; exact .rfl

/-! ### Region 14 -/

theorem htbl14 (c : Dev nD) : (adm m (14 : Fin 34)).1 = fun k => Vr (VV45 m) c (pre14.ref k) := by
  funext k
  match k with
  | ⟨0, _⟩ => exact ((congrFun (V45_eq m c) main_v91).symm.trans (tbl_14 m (outs m) c)).symm
  | ⟨_ + 1, h⟩ => exact absurd h (Nat.not_lt.2 (Nat.le_add_left _ _))

def R14 : RegionSeg (pcfgs (F := F)) (adm m) (pdats m) () defs₀ 𝒱₀ L lv (14 : Fin 34) :=
  reg14 (adm m) (pdats m) (VV45 m) (fun e => adm14_range m hpre e) (fun _ => rfl) (htbl14 m)

theorem hpre14 (c : Dev nD) : iprop(StableHlo.held (c : Thread nD τ) (Pipeline.ucRefs τ sig) (V45 m (outs m) c) ∗ Rest (F := F) c) ⊢ (R14 m hpre).pre c := by
  rw [V45_eq]; exact .rfl

theorem hpost14 (c : Dev nD) : (R14 m hpre).post c ⊢ iprop(StableHlo.held (c : Thread nD τ) (Pipeline.ucRefs τ sig) (V46 m (outs m) c) ∗ Rest (F := F) c) := by
  rw [V46_eq]; exact .rfl

/-! ### Region 15 -/

theorem htbl15 (c : Dev nD) : (adm m (15 : Fin 34)).1 = fun k => Vr (VV47 m) c (pre15.ref k) := by
  funext k
  match k with
  | ⟨0, _⟩ => exact ((congrFun (V47_eq m c) main_v94).symm.trans (tbl_15 m (outs m) c)).symm
  | ⟨_ + 1, h⟩ => exact absurd h (Nat.not_lt.2 (Nat.le_add_left _ _))

def R15 : RegionSeg (pcfgs (F := F)) (adm m) (pdats m) () defs₀ 𝒱₀ L lv (15 : Fin 34) :=
  reg15 (adm m) (pdats m) (VV47 m) (fun e => adm15_range m hpre e) (fun _ => rfl) (htbl15 m)

theorem hpre15 (c : Dev nD) : iprop(StableHlo.held (c : Thread nD τ) (Pipeline.ucRefs τ sig) (V47 m (outs m) c) ∗ Rest (F := F) c) ⊢ (R15 m hpre).pre c := by
  rw [V47_eq]; exact .rfl

theorem hpost15 (c : Dev nD) : (R15 m hpre).post c ⊢ iprop(StableHlo.held (c : Thread nD τ) (Pipeline.ucRefs τ sig) (V48 m (outs m) c) ∗ Rest (F := F) c) := by
  rw [V48_eq]; exact .rfl

/-! ### Region 16 -/

def R16 : RegionSeg (pcfgs (F := F)) (adm m) (pdats m) () defs₀ 𝒱₀ L lv (16 : Fin 34) :=
  reg16 (VV49 m) (adm m) (pdats m) (fun _ => rfl)

theorem hpre16 (c : Dev nD) : iprop(StableHlo.held (c : Thread nD τ) (Pipeline.ucRefs τ sig) (V49 m (outs m) c) ∗ Rest (F := F) c) ⊢ (R16 m).pre c := by
  rw [V49_eq]; exact .rfl

theorem hpost16 (c : Dev nD) : (R16 m).post c ⊢ iprop(StableHlo.held (c : Thread nD τ) (Pipeline.ucRefs τ sig) (V50 m (outs m) c) ∗ Rest (F := F) c) := by
  rw [V50_eq]; exact .rfl

/-! ### Region 17 -/

theorem htbl17 (c : Dev nD) : (adm m (17 : Fin 34)).1 = fun k => Vr (VV55 m) c (pre17.ref k) := by
  funext k
  match k with
  | ⟨0, _⟩ => exact ((congrFun (V55_eq m c) main_v117).symm.trans (tbl_17 m (outs m) c)).symm
  | ⟨_ + 1, h⟩ => exact absurd h (Nat.not_lt.2 (Nat.le_add_left _ _))

def R17 : RegionSeg (pcfgs (F := F)) (adm m) (pdats m) () defs₀ 𝒱₀ L lv (17 : Fin 34) :=
  reg17 (adm m) (pdats m) (VV55 m) (fun e => adm17_range m hpre e) (fun _ => rfl) (htbl17 m)

theorem hpre17 (c : Dev nD) : iprop(StableHlo.held (c : Thread nD τ) (Pipeline.ucRefs τ sig) (V55 m (outs m) c) ∗ Rest (F := F) c) ⊢ (R17 m hpre).pre c := by
  rw [V55_eq]; exact .rfl

theorem hpost17 (c : Dev nD) : (R17 m hpre).post c ⊢ iprop(StableHlo.held (c : Thread nD τ) (Pipeline.ucRefs τ sig) (V56 m (outs m) c) ∗ Rest (F := F) c) := by
  rw [V56_eq]; exact .rfl

/-! ### Region 18 -/

theorem htbl18 (c : Dev nD) : (adm m (18 : Fin 34)).1 = fun k => Vr (VV57 m) c (pre18.ref k) := by
  funext k
  match k with
  | ⟨0, _⟩ => exact ((congrFun (V57_eq m c) main_v120).symm.trans (tbl_18 m (outs m) c)).symm
  | ⟨_ + 1, h⟩ => exact absurd h (Nat.not_lt.2 (Nat.le_add_left _ _))

def R18 : RegionSeg (pcfgs (F := F)) (adm m) (pdats m) () defs₀ 𝒱₀ L lv (18 : Fin 34) :=
  reg18 (adm m) (pdats m) (VV57 m) (fun e => adm18_range m hpre e) (fun _ => rfl) (htbl18 m)

theorem hpre18 (c : Dev nD) : iprop(StableHlo.held (c : Thread nD τ) (Pipeline.ucRefs τ sig) (V57 m (outs m) c) ∗ Rest (F := F) c) ⊢ (R18 m hpre).pre c := by
  rw [V57_eq]; exact .rfl

theorem hpost18 (c : Dev nD) : (R18 m hpre).post c ⊢ iprop(StableHlo.held (c : Thread nD τ) (Pipeline.ucRefs τ sig) (V58 m (outs m) c) ∗ Rest (F := F) c) := by
  rw [V58_eq]; exact .rfl

/-! ### Region 19 -/

theorem htbl19 (c : Dev nD) : (adm m (19 : Fin 34)).1 = fun k => Vr (VV59 m) c (pre19.ref k) := by
  funext k
  match k with
  | ⟨0, _⟩ => exact ((congrFun (V59_eq m c) main_v123).symm.trans (tbl_19 m (outs m) c)).symm
  | ⟨_ + 1, h⟩ => exact absurd h (Nat.not_lt.2 (Nat.le_add_left _ _))

def R19 : RegionSeg (pcfgs (F := F)) (adm m) (pdats m) () defs₀ 𝒱₀ L lv (19 : Fin 34) :=
  reg19 (adm m) (pdats m) (VV59 m) (fun e => adm19_range m hpre e) (fun _ => rfl) (htbl19 m)

theorem hpre19 (c : Dev nD) : iprop(StableHlo.held (c : Thread nD τ) (Pipeline.ucRefs τ sig) (V59 m (outs m) c) ∗ Rest (F := F) c) ⊢ (R19 m hpre).pre c := by
  rw [V59_eq]; exact .rfl

theorem hpost19 (c : Dev nD) : (R19 m hpre).post c ⊢ iprop(StableHlo.held (c : Thread nD τ) (Pipeline.ucRefs τ sig) (V60 m (outs m) c) ∗ Rest (F := F) c) := by
  rw [V60_eq]; exact .rfl

/-! ### Region 20 -/

theorem htbl20 (c : Dev nD) : (adm m (20 : Fin 34)).1 = fun k => Vr (VV61 m) c (pre20.ref k) := by
  funext k
  match k with
  | ⟨0, _⟩ => exact ((congrFun (V61_eq m c) main_v126).symm.trans (tbl_20 m (outs m) c)).symm
  | ⟨_ + 1, h⟩ => exact absurd h (Nat.not_lt.2 (Nat.le_add_left _ _))

def R20 : RegionSeg (pcfgs (F := F)) (adm m) (pdats m) () defs₀ 𝒱₀ L lv (20 : Fin 34) :=
  reg20 (adm m) (pdats m) (VV61 m) (fun e => adm20_range m hpre e) (fun _ => rfl) (htbl20 m)

theorem hpre20 (c : Dev nD) : iprop(StableHlo.held (c : Thread nD τ) (Pipeline.ucRefs τ sig) (V61 m (outs m) c) ∗ Rest (F := F) c) ⊢ (R20 m hpre).pre c := by
  rw [V61_eq]; exact .rfl

theorem hpost20 (c : Dev nD) : (R20 m hpre).post c ⊢ iprop(StableHlo.held (c : Thread nD τ) (Pipeline.ucRefs τ sig) (V62 m (outs m) c) ∗ Rest (F := F) c) := by
  rw [V62_eq]; exact .rfl

/-! ### Region 21 -/

theorem htbl21 (c : Dev nD) : (adm m (21 : Fin 34)).1 = fun k => Vr (VV67 m) c (pre21.ref k) := by
  funext k
  match k with
  | ⟨0, _⟩ => exact ((congrFun (V67_eq m c) main_v143).symm.trans (tbl_21 m (outs m) c)).symm
  | ⟨_ + 1, h⟩ => exact absurd h (Nat.not_lt.2 (Nat.le_add_left _ _))

def R21 : RegionSeg (pcfgs (F := F)) (adm m) (pdats m) () defs₀ 𝒱₀ L lv (21 : Fin 34) :=
  reg21 (adm m) (pdats m) (VV67 m) (fun e => adm21_range m hpre e) (fun _ => rfl) (htbl21 m)

theorem hpre21 (c : Dev nD) : iprop(StableHlo.held (c : Thread nD τ) (Pipeline.ucRefs τ sig) (V67 m (outs m) c) ∗ Rest (F := F) c) ⊢ (R21 m hpre).pre c := by
  rw [V67_eq]; exact .rfl

theorem hpost21 (c : Dev nD) : (R21 m hpre).post c ⊢ iprop(StableHlo.held (c : Thread nD τ) (Pipeline.ucRefs τ sig) (V68 m (outs m) c) ∗ Rest (F := F) c) := by
  rw [V68_eq]; exact .rfl

/-! ### Region 22 -/

theorem htbl22 (c : Dev nD) : (adm m (22 : Fin 34)).1 = fun k => Vr (VV69 m) c (pre22.ref k) := by
  funext k
  match k with
  | ⟨0, _⟩ => exact ((congrFun (V69_eq m c) main_v146).symm.trans (tbl_22 m (outs m) c)).symm
  | ⟨_ + 1, h⟩ => exact absurd h (Nat.not_lt.2 (Nat.le_add_left _ _))

def R22 : RegionSeg (pcfgs (F := F)) (adm m) (pdats m) () defs₀ 𝒱₀ L lv (22 : Fin 34) :=
  reg22 (adm m) (pdats m) (VV69 m) (fun e => adm22_range m hpre e) (fun _ => rfl) (htbl22 m)

theorem hpre22 (c : Dev nD) : iprop(StableHlo.held (c : Thread nD τ) (Pipeline.ucRefs τ sig) (V69 m (outs m) c) ∗ Rest (F := F) c) ⊢ (R22 m hpre).pre c := by
  rw [V69_eq]; exact .rfl

theorem hpost22 (c : Dev nD) : (R22 m hpre).post c ⊢ iprop(StableHlo.held (c : Thread nD τ) (Pipeline.ucRefs τ sig) (V70 m (outs m) c) ∗ Rest (F := F) c) := by
  rw [V70_eq]; exact .rfl

/-! ### Region 23 -/

theorem htbl23 (c : Dev nD) : (adm m (23 : Fin 34)).1 = fun k => Vr (VV71 m) c (pre23.ref k) := by
  funext k
  match k with
  | ⟨0, _⟩ => exact ((congrFun (V71_eq m c) main_v149).symm.trans (tbl_23 m (outs m) c)).symm
  | ⟨_ + 1, h⟩ => exact absurd h (Nat.not_lt.2 (Nat.le_add_left _ _))

def R23 : RegionSeg (pcfgs (F := F)) (adm m) (pdats m) () defs₀ 𝒱₀ L lv (23 : Fin 34) :=
  reg23 (adm m) (pdats m) (VV71 m) (fun e => adm23_range m hpre e) (fun _ => rfl) (htbl23 m)

theorem hpre23 (c : Dev nD) : iprop(StableHlo.held (c : Thread nD τ) (Pipeline.ucRefs τ sig) (V71 m (outs m) c) ∗ Rest (F := F) c) ⊢ (R23 m hpre).pre c := by
  rw [V71_eq]; exact .rfl

theorem hpost23 (c : Dev nD) : (R23 m hpre).post c ⊢ iprop(StableHlo.held (c : Thread nD τ) (Pipeline.ucRefs τ sig) (V72 m (outs m) c) ∗ Rest (F := F) c) := by
  rw [V72_eq]; exact .rfl

/-! ### Region 24 -/

theorem htbl24 (c : Dev nD) : (adm m (24 : Fin 34)).1 = fun k => Vr (VV73 m) c (pre24.ref k) := by
  funext k
  match k with
  | ⟨0, _⟩ => exact ((congrFun (V73_eq m c) main_v152).symm.trans (tbl_24 m (outs m) c)).symm
  | ⟨_ + 1, h⟩ => exact absurd h (Nat.not_lt.2 (Nat.le_add_left _ _))

def R24 : RegionSeg (pcfgs (F := F)) (adm m) (pdats m) () defs₀ 𝒱₀ L lv (24 : Fin 34) :=
  reg24 (adm m) (pdats m) (VV73 m) (fun e => adm24_range m hpre e) (fun _ => rfl) (htbl24 m)

theorem hpre24 (c : Dev nD) : iprop(StableHlo.held (c : Thread nD τ) (Pipeline.ucRefs τ sig) (V73 m (outs m) c) ∗ Rest (F := F) c) ⊢ (R24 m hpre).pre c := by
  rw [V73_eq]; exact .rfl

theorem hpost24 (c : Dev nD) : (R24 m hpre).post c ⊢ iprop(StableHlo.held (c : Thread nD τ) (Pipeline.ucRefs τ sig) (V74 m (outs m) c) ∗ Rest (F := F) c) := by
  rw [V74_eq]; exact .rfl

/-! ### Region 25 -/

theorem htbl25 (c : Dev nD) : (adm m (25 : Fin 34)).1 = fun k => Vr (VV79 m) c (pre25.ref k) := by
  funext k
  match k with
  | ⟨0, _⟩ => exact ((congrFun (V79_eq m c) main_v169).symm.trans (tbl_25 m (outs m) c)).symm
  | ⟨_ + 1, h⟩ => exact absurd h (Nat.not_lt.2 (Nat.le_add_left _ _))

def R25 : RegionSeg (pcfgs (F := F)) (adm m) (pdats m) () defs₀ 𝒱₀ L lv (25 : Fin 34) :=
  reg25 (adm m) (pdats m) (VV79 m) (fun e => adm25_range m hpre e) (fun _ => rfl) (htbl25 m)

theorem hpre25 (c : Dev nD) : iprop(StableHlo.held (c : Thread nD τ) (Pipeline.ucRefs τ sig) (V79 m (outs m) c) ∗ Rest (F := F) c) ⊢ (R25 m hpre).pre c := by
  rw [V79_eq]; exact .rfl

theorem hpost25 (c : Dev nD) : (R25 m hpre).post c ⊢ iprop(StableHlo.held (c : Thread nD τ) (Pipeline.ucRefs τ sig) (V80 m (outs m) c) ∗ Rest (F := F) c) := by
  rw [V80_eq]; exact .rfl

/-! ### Region 26 -/

theorem htbl26 (c : Dev nD) : (adm m (26 : Fin 34)).1 = fun k => Vr (VV81 m) c (pre26.ref k) := by
  funext k
  match k with
  | ⟨0, _⟩ => exact ((congrFun (V81_eq m c) main_v172).symm.trans (tbl_26 m (outs m) c)).symm
  | ⟨_ + 1, h⟩ => exact absurd h (Nat.not_lt.2 (Nat.le_add_left _ _))

def R26 : RegionSeg (pcfgs (F := F)) (adm m) (pdats m) () defs₀ 𝒱₀ L lv (26 : Fin 34) :=
  reg26 (adm m) (pdats m) (VV81 m) (fun e => adm26_range m hpre e) (fun _ => rfl) (htbl26 m)

theorem hpre26 (c : Dev nD) : iprop(StableHlo.held (c : Thread nD τ) (Pipeline.ucRefs τ sig) (V81 m (outs m) c) ∗ Rest (F := F) c) ⊢ (R26 m hpre).pre c := by
  rw [V81_eq]; exact .rfl

theorem hpost26 (c : Dev nD) : (R26 m hpre).post c ⊢ iprop(StableHlo.held (c : Thread nD τ) (Pipeline.ucRefs τ sig) (V82 m (outs m) c) ∗ Rest (F := F) c) := by
  rw [V82_eq]; exact .rfl

/-! ### Region 27 -/

theorem htbl27 (c : Dev nD) : (adm m (27 : Fin 34)).1 = fun k => Vr (VV83 m) c (pre27.ref k) := by
  funext k
  match k with
  | ⟨0, _⟩ => exact ((congrFun (V83_eq m c) main_v175).symm.trans (tbl_27 m (outs m) c)).symm
  | ⟨_ + 1, h⟩ => exact absurd h (Nat.not_lt.2 (Nat.le_add_left _ _))

def R27 : RegionSeg (pcfgs (F := F)) (adm m) (pdats m) () defs₀ 𝒱₀ L lv (27 : Fin 34) :=
  reg27 (adm m) (pdats m) (VV83 m) (fun e => adm27_range m hpre e) (fun _ => rfl) (htbl27 m)

theorem hpre27 (c : Dev nD) : iprop(StableHlo.held (c : Thread nD τ) (Pipeline.ucRefs τ sig) (V83 m (outs m) c) ∗ Rest (F := F) c) ⊢ (R27 m hpre).pre c := by
  rw [V83_eq]; exact .rfl

theorem hpost27 (c : Dev nD) : (R27 m hpre).post c ⊢ iprop(StableHlo.held (c : Thread nD τ) (Pipeline.ucRefs τ sig) (V84 m (outs m) c) ∗ Rest (F := F) c) := by
  rw [V84_eq]; exact .rfl

/-! ### Region 28 -/

theorem htbl28 (c : Dev nD) : (adm m (28 : Fin 34)).1 = fun k => Vr (VV85 m) c (pre28.ref k) := by
  funext k
  match k with
  | ⟨0, _⟩ => exact ((congrFun (V85_eq m c) main_v178).symm.trans (tbl_28 m (outs m) c)).symm
  | ⟨_ + 1, h⟩ => exact absurd h (Nat.not_lt.2 (Nat.le_add_left _ _))

def R28 : RegionSeg (pcfgs (F := F)) (adm m) (pdats m) () defs₀ 𝒱₀ L lv (28 : Fin 34) :=
  reg28 (adm m) (pdats m) (VV85 m) (fun e => adm28_range m hpre e) (fun _ => rfl) (htbl28 m)

theorem hpre28 (c : Dev nD) : iprop(StableHlo.held (c : Thread nD τ) (Pipeline.ucRefs τ sig) (V85 m (outs m) c) ∗ Rest (F := F) c) ⊢ (R28 m hpre).pre c := by
  rw [V85_eq]; exact .rfl

theorem hpost28 (c : Dev nD) : (R28 m hpre).post c ⊢ iprop(StableHlo.held (c : Thread nD τ) (Pipeline.ucRefs τ sig) (V86 m (outs m) c) ∗ Rest (F := F) c) := by
  rw [V86_eq]; exact .rfl

/-! ### Region 29 -/

theorem htbl29 (c : Dev nD) : (adm m (29 : Fin 34)).1 = fun k => Vr (VV91 m) c (pre29.ref k) := by
  funext k
  match k with
  | ⟨0, _⟩ => exact ((congrFun (V91_eq m c) main_v195).symm.trans (tbl_29 m (outs m) c)).symm
  | ⟨_ + 1, h⟩ => exact absurd h (Nat.not_lt.2 (Nat.le_add_left _ _))

def R29 : RegionSeg (pcfgs (F := F)) (adm m) (pdats m) () defs₀ 𝒱₀ L lv (29 : Fin 34) :=
  reg29 (adm m) (pdats m) (VV91 m) (fun e => adm29_range m hpre e) (fun _ => rfl) (htbl29 m)

theorem hpre29 (c : Dev nD) : iprop(StableHlo.held (c : Thread nD τ) (Pipeline.ucRefs τ sig) (V91 m (outs m) c) ∗ Rest (F := F) c) ⊢ (R29 m hpre).pre c := by
  rw [V91_eq]; exact .rfl

theorem hpost29 (c : Dev nD) : (R29 m hpre).post c ⊢ iprop(StableHlo.held (c : Thread nD τ) (Pipeline.ucRefs τ sig) (V92 m (outs m) c) ∗ Rest (F := F) c) := by
  rw [V92_eq]; exact .rfl

/-! ### Region 30 -/

theorem htbl30 (c : Dev nD) : (adm m (30 : Fin 34)).1 = fun k => Vr (VV93 m) c (pre30.ref k) := by
  funext k
  match k with
  | ⟨0, _⟩ => exact ((congrFun (V93_eq m c) main_v198).symm.trans (tbl_30 m (outs m) c)).symm
  | ⟨_ + 1, h⟩ => exact absurd h (Nat.not_lt.2 (Nat.le_add_left _ _))

def R30 : RegionSeg (pcfgs (F := F)) (adm m) (pdats m) () defs₀ 𝒱₀ L lv (30 : Fin 34) :=
  reg30 (adm m) (pdats m) (VV93 m) (fun e => adm30_range m hpre e) (fun _ => rfl) (htbl30 m)

theorem hpre30 (c : Dev nD) : iprop(StableHlo.held (c : Thread nD τ) (Pipeline.ucRefs τ sig) (V93 m (outs m) c) ∗ Rest (F := F) c) ⊢ (R30 m hpre).pre c := by
  rw [V93_eq]; exact .rfl

theorem hpost30 (c : Dev nD) : (R30 m hpre).post c ⊢ iprop(StableHlo.held (c : Thread nD τ) (Pipeline.ucRefs τ sig) (V94 m (outs m) c) ∗ Rest (F := F) c) := by
  rw [V94_eq]; exact .rfl

/-! ### Region 31 -/

theorem htbl31 (c : Dev nD) : (adm m (31 : Fin 34)).1 = fun k => Vr (VV95 m) c (pre31.ref k) := by
  funext k
  match k with
  | ⟨0, _⟩ => exact ((congrFun (V95_eq m c) main_v201).symm.trans (tbl_31 m (outs m) c)).symm
  | ⟨_ + 1, h⟩ => exact absurd h (Nat.not_lt.2 (Nat.le_add_left _ _))

def R31 : RegionSeg (pcfgs (F := F)) (adm m) (pdats m) () defs₀ 𝒱₀ L lv (31 : Fin 34) :=
  reg31 (adm m) (pdats m) (VV95 m) (fun e => adm31_range m hpre e) (fun _ => rfl) (htbl31 m)

theorem hpre31 (c : Dev nD) : iprop(StableHlo.held (c : Thread nD τ) (Pipeline.ucRefs τ sig) (V95 m (outs m) c) ∗ Rest (F := F) c) ⊢ (R31 m hpre).pre c := by
  rw [V95_eq]; exact .rfl

theorem hpost31 (c : Dev nD) : (R31 m hpre).post c ⊢ iprop(StableHlo.held (c : Thread nD τ) (Pipeline.ucRefs τ sig) (V96 m (outs m) c) ∗ Rest (F := F) c) := by
  rw [V96_eq]; exact .rfl

/-! ### Region 32 -/

theorem htbl32 (c : Dev nD) : (adm m (32 : Fin 34)).1 = fun k => Vr (VV97 m) c (pre32.ref k) := by
  funext k
  match k with
  | ⟨0, _⟩ => exact ((congrFun (V97_eq m c) main_v204).symm.trans (tbl_32 m (outs m) c)).symm
  | ⟨_ + 1, h⟩ => exact absurd h (Nat.not_lt.2 (Nat.le_add_left _ _))

def R32 : RegionSeg (pcfgs (F := F)) (adm m) (pdats m) () defs₀ 𝒱₀ L lv (32 : Fin 34) :=
  reg32 (adm m) (pdats m) (VV97 m) (fun e => adm32_range m hpre e) (fun _ => rfl) (htbl32 m)

theorem hpre32 (c : Dev nD) : iprop(StableHlo.held (c : Thread nD τ) (Pipeline.ucRefs τ sig) (V97 m (outs m) c) ∗ Rest (F := F) c) ⊢ (R32 m hpre).pre c := by
  rw [V97_eq]; exact .rfl

theorem hpost32 (c : Dev nD) : (R32 m hpre).post c ⊢ iprop(StableHlo.held (c : Thread nD τ) (Pipeline.ucRefs τ sig) (V98 m (outs m) c) ∗ Rest (F := F) c) := by
  rw [V98_eq]; exact .rfl

/-! ### Region 33 -/

def R33 : RegionSeg (pcfgs (F := F)) (adm m) (pdats m) () defs₀ 𝒱₀ L lv (33 : Fin 34) :=
  reg33 (VV99 m) (adm m) (pdats m) (fun _ => rfl)

theorem hpre33 (c : Dev nD) : iprop(StableHlo.held (c : Thread nD τ) (Pipeline.ucRefs τ sig) (V99 m (outs m) c) ∗ Rest (F := F) c) ⊢ (R33 m).pre c := by
  rw [V99_eq]; exact .rfl

theorem hpost33 (c : Dev nD) : (R33 m).post c ⊢ iprop(StableHlo.held (c : Thread nD τ) (Pipeline.ucRefs τ sig) (V100 m (outs m) c) ∗ Rest (F := F) c) := by
  rw [V100_eq]; exact .rfl

/-! ## The run -/

include hpre in
/-- Under the precondition (the source indices row numbers), every weakly fair execution of @main from memory `m` with zero
    counters terminates, and every final memory holds the result array at what the chain's last valuation assigns it and
    each argument as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v219) = VV100 m c main_v219
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  OrdCont.mono (θ_run defs (onTc (τ := τ) (main (F := F))) ⟨m, fun _ => 0, ρ⟩)
    (fun r h c => ⟨(h c).1.trans (congrFun (V100_eq m c) main_v219), (h c).2⟩)
    (run_value m ρ (outs m) (adm m) (pdats m)
      (R0 m hpre) (hpre0 m hpre) (hpost0 m hpre)
      (R1 m hpre) (hpre1 m hpre) (hpost1 m hpre)
      (R2 m hpre) (hpre2 m hpre) (hpost2 m hpre)
      (R3 m hpre) (hpre3 m hpre) (hpost3 m hpre)
      (R4 m hpre) (hpre4 m hpre) (hpost4 m hpre)
      (R5 m hpre) (hpre5 m hpre) (hpost5 m hpre)
      (R6 m hpre) (hpre6 m hpre) (hpost6 m hpre)
      (R7 m hpre) (hpre7 m hpre) (hpost7 m hpre)
      (R8 m hpre) (hpre8 m hpre) (hpost8 m hpre)
      (R9 m hpre) (hpre9 m hpre) (hpost9 m hpre)
      (R10 m hpre) (hpre10 m hpre) (hpost10 m hpre)
      (R11 m hpre) (hpre11 m hpre) (hpost11 m hpre)
      (R12 m hpre) (hpre12 m hpre) (hpost12 m hpre)
      (R13 m hpre) (hpre13 m hpre) (hpost13 m hpre)
      (R14 m hpre) (hpre14 m hpre) (hpost14 m hpre)
      (R15 m hpre) (hpre15 m hpre) (hpost15 m hpre)
      (R16 m) (hpre16 m) (hpost16 m)
      (R17 m hpre) (hpre17 m hpre) (hpost17 m hpre)
      (R18 m hpre) (hpre18 m hpre) (hpost18 m hpre)
      (R19 m hpre) (hpre19 m hpre) (hpost19 m hpre)
      (R20 m hpre) (hpre20 m hpre) (hpost20 m hpre)
      (R21 m hpre) (hpre21 m hpre) (hpost21 m hpre)
      (R22 m hpre) (hpre22 m hpre) (hpost22 m hpre)
      (R23 m hpre) (hpre23 m hpre) (hpost23 m hpre)
      (R24 m hpre) (hpre24 m hpre) (hpost24 m hpre)
      (R25 m hpre) (hpre25 m hpre) (hpost25 m hpre)
      (R26 m hpre) (hpre26 m hpre) (hpost26 m hpre)
      (R27 m hpre) (hpre27 m hpre) (hpost27 m hpre)
      (R28 m hpre) (hpre28 m hpre) (hpost28 m hpre)
      (R29 m hpre) (hpre29 m hpre) (hpost29 m hpre)
      (R30 m hpre) (hpre30 m hpre) (hpost30 m hpre)
      (R31 m hpre) (hpre31 m hpre) (hpost31 m hpre)
      (R32 m hpre) (hpre32 m hpre) (hpost32 m hpre)
      (R33 m) (hpre33 m) (hpost33 m))

end Records

end Cert.Kernel.Hand

end
-- ==== Proof.KI.Common.lean ====
/-
  Shared choices for the hand-written frame and value modules of the idealized kernel program: the resource
  algebra (the pipeline library's beside the counters that a kernel's own transfers take their tokens from),
  trivial levels (no core owes another anything), and notation for a memref's buffer held whole.
-/
import proofs.«414509_j14181982011419_2_alg».proof.Proof.Gen.KernelIdeal.Launch
import Idealize.ShloMosaic.Lib.Tactic
import Idealize.ShloMosaic.Lib.Pipeline.Kit
import Idealize.ShloMosaic.Lib.Pipeline.Regions

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's for the pipelines' staging cells, beside the counters the
    transfers' invariants take their tokens from. -/
abbrev UU (nD : Nat) (τ : Topo) : Type := UR sig nD τ × Counters

/-- The logic's model at that algebra: pairs indexed by `Unit`, names `ℕ`, levels `ℕ`. -/
abbrev MM (F : FTy → Type) : Type := MT nD τ sig Unit (Elt F) ℕ (UU nD τ) ℕ

/-- The pipeline library's algebra is the left component. -/
abbrev EP : Emb (UR sig nD τ) (MM F) := embL

/-- No core owes another anything: no level is assigned. -/
abbrev L : GSem nD τ sig → Finset Unit := fun _ => ∅
abbrev lv : GSem nD τ sig → Unit → ℕ := fun _ _ => 0
abbrev 𝒱₀ : Variants := Variants.none

/-- Memref `M`'s buffer on core `c`: its contents type, and it held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) :
    sProp (MM F) :=
  M.view.loc (c : Thread nD τ) ↦{fullShare} f

/-- What rides beside the unscoped buffers between @main's items: the core owes nothing. -/
abbrev Rest (c : Dev nD) : sProp (MM F) := iprop(∃ W, owes (c : Thread nD τ) (0 : CellTallies nD τ sig Unit) W)

end Cert.KernelIdeal.Hand

end
-- ==== Proof.KI.GatherSpec.lean ====
/-
  The gather kernels' result as one function of whole arrays: for each edge `e` and lane `d`, the row of the
  embedding array that the edge's index word names, at lane `d`, times the edge's value. The word is read as a row
  number modulo the array's extent, so that the function is total; where every word is a row number (the regions'
  range hypothesis) the reduction is the identity. The same function serves every gather region: their shapes agree.
-/
import proofs.«414509_j14181982011419_2_alg».proof.Proof.KI.Common
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The index of row `r`, lane `d` of the embedding array. -/
def embIdx (r : Fin 100000) (d : Fin 128) : S100000x128.Idx := fun a =>
  match a with
  | ⟨0, _⟩ => r
  | ⟨1, _⟩ => d

/-- The index of edge `e` in the one-column value array. -/
def valIdx (e : Fin 131072) : S131072x1.Idx := fun a =>
  match a with
  | ⟨0, _⟩ => e
  | ⟨1, _⟩ => (0 : Fin 1)

/-- The index of edge `e` in the index table. -/
def tblIdx (e : Fin 131072) : S131072.Idx := fun a =>
  match a with
  | ⟨0, _⟩ => e

/-- The row number an index word names, reduced into the embedding array's rows. -/
def rowOf (w : BitVec 32) : Fin 100000 := ⟨w.toNat % 100000, Nat.mod_lt _ (by decide)⟩

/-- The gathered and scaled rows: entry `(e, d)` is `x[tbl[e], d] * v[e, 0]`. -/
def gatherArr (x : (⟨S100000x128, .f32⟩ : BufTy).Contents (Elt F)) (tbl : (⟨S131072, .i32⟩ : BufTy).Contents (Elt F))
    (v : (⟨S131072x1, .f32⟩ : BufTy).Contents (Elt F)) : (⟨S131072x128, .f32⟩ : BufTy).Contents (Elt F) :=
  fun y => FloatOps.mulf (F := F) (φ := .f32) (x (embIdx (rowOf (tbl (tblIdx (y 0)))) (y 1))) (v (valIdx (y 0)))

/-- Row `r` of a one-column block of eight values. -/
def colIdx (r : Fin 8) : S8x1.Idx := fun a =>
  match a with
  | ⟨0, _⟩ => r
  | ⟨1, _⟩ => (0 : Fin 1)

/-- One grid point's block of the result, from the point's eight index words `w` and eight values `vb`: row `r`,
    lane `d` is `x[w r, d] * vb[r, 0]`. -/
def gatherBlk (x : (⟨S100000x128, .f32⟩ : BufTy).Contents (Elt F)) (w : Fin 8 → BitVec 32) (vb : Vec F S8x1 .f32) :
    Vec F S8x128 .f32 :=
  fun y => FloatOps.mulf (F := F) (φ := .f32) (x (embIdx (rowOf (w (y 0))) (y 1))) (vb (colIdx (y 0)))

/-! ## Shared by every gather region's modules -/

/-- A valuation read at the TensorCore's references. -/
abbrev Vr (Vin : Dev nD → Valuation τ sig (Elt F)) (c : Dev nD) (b : Ref sig .tc) : Buf (Elt F) ((c : Thread nD τ).loc b) := Vin c b

/-- A memref's buffer held whole at share `q`. -/
abbrev ptq (c : Dev nD) {sp : Space} {S : Shape} {e : EltTy} (M : Memref sig .tc sp S e) (q : PosShare TreeShare) (f : Bf (F := F) c M) :
    sProp (MM F) :=
  M.view.loc (c : Thread nD τ) ↦{q} f

/-- The zero offsets of a rank-two rectangle, however spelt. -/
theorem offZero2 : (![0, 0] : Fin 2 → ℕ) = fun _ => 0 := by funext a; fin_cases a <;> rfl

/-- A word below the embedding array's extent names a row of it: the in-range fact of a one-row slice there. -/
theorem chkRow (v : BitVec 32) (hv : v.toNat < 100000) :
    ∀ a, (![v.toNat, 0] : Fin 2 → ℕ) a + S1x128.size a ≤ S100000x128.size a := by
  intro a; fin_cases a
  · show v.toNat + 1 ≤ 100000; omega
  · show 0 + 128 ≤ 128; omega

/-- Row `j` of an eight-row block, as the block indexes it: a one-row rectangle's element `z` sits at row `j`, lane `z 1`. -/
theorem embRow (j : Fin 8) (off : Fin 2 → ℕ) (hoff : off = ![j.val, 0]) (inb : ∀ a, off a + S1x128.size a ≤ S8x128.size a)
    (z : S1x128.Idx) {α : Type} (g : Fin 8 → Fin 128 → α) :
    g ((Rect.unit (s := S8x128) off S1x128.size inb).emb z 0) ((Rect.unit (s := S8x128) off S1x128.size inb).emb z 1) = g j (z 1) := by
  subst hoff
  have hz : (z 0).val = 0 := by have := (z 0).isLt; simp at this; omega
  have e0 : (Rect.unit (s := S8x128) ![j.val, 0] S1x128.size inb).emb z 0 = j := Fin.ext (by show j.val + 1 * (z 0).val = j.val; rw [hz]; omega)
  have e1 : (Rect.unit (s := S8x128) ![j.val, 0] S1x128.size inb).emb z 1 = z 1 := Fin.ext (by show 0 + 1 * (z 1).val = (z 1).val; omega)
  rw [e0, e1]

set_option maxHeartbeats 400000 in
/-- Eight one-row pieces, row `j`'s payload being `g j` along the lanes, make the block `g`. -/
theorem canonRows8 (h0 : ∀ a, (![0, 0] : Fin 2 → ℕ) a + S1x128.size a ≤ S8x128.size a) (h1 : ∀ a, (![1, 0] : Fin 2 → ℕ) a + S1x128.size a ≤ S8x128.size a)
    (h2 : ∀ a, (![2, 0] : Fin 2 → ℕ) a + S1x128.size a ≤ S8x128.size a) (h3 : ∀ a, (![3, 0] : Fin 2 → ℕ) a + S1x128.size a ≤ S8x128.size a)
    (h4 : ∀ a, (![4, 0] : Fin 2 → ℕ) a + S1x128.size a ≤ S8x128.size a) (h5 : ∀ a, (![5, 0] : Fin 2 → ℕ) a + S1x128.size a ≤ S8x128.size a)
    (h6 : ∀ a, (![6, 0] : Fin 2 → ℕ) a + S1x128.size a ≤ S8x128.size a) (h7 : ∀ a, (![7, 0] : Fin 2 → ℕ) a + S1x128.size a ≤ S8x128.size a)
    (P0 P1 P2 P3 P4 P5 P6 P7 : S1x128.Idx → Elt F .f32) (g : Fin 8 → Fin 128 → Elt F .f32)
    (e0 : ∀ z, P0 z = g 0 (z 1)) (e1 : ∀ z, P1 z = g 1 (z 1)) (e2 : ∀ z, P2 z = g 2 (z 1)) (e3 : ∀ z, P3 z = g 3 (z 1))
    (e4 : ∀ z, P4 z = g 4 (z 1)) (e5 : ∀ z, P5 z = g 5 (z 1)) (e6 : ∀ z, P6 z = g 6 (z 1)) (e7 : ∀ z, P7 z = g 7 (z 1)) (y : S8x128.Idx) :
    View.canon (Val := Elt F) (s := S8x128) (e := .f32)
      [⟨Rect.unit ![7, 0] S1x128.size h7, P7⟩, ⟨Rect.unit ![6, 0] S1x128.size h6, P6⟩, ⟨Rect.unit ![5, 0] S1x128.size h5, P5⟩,
        ⟨Rect.unit ![4, 0] S1x128.size h4, P4⟩, ⟨Rect.unit ![3, 0] S1x128.size h3, P3⟩, ⟨Rect.unit ![2, 0] S1x128.size h2, P2⟩,
        ⟨Rect.unit ![1, 0] S1x128.size h1, P1⟩, ⟨Rect.unit ![0, 0] S1x128.size h0, P0⟩] y = g (y 0) (y 1) := by
  refine View.canon_apply_of_pieces (fun y => g (y 0) (y 1)) _ ?_ y ?_
  · intro p hp z
    simp only [List.mem_cons, List.not_mem_nil, or_false] at hp
    rcases hp with rfl | rfl | rfl | rfl | rfl | rfl | rfl | rfl
    · exact (e7 z).trans (embRow 7 _ rfl h7 z g).symm
    · exact (e6 z).trans (embRow 6 _ rfl h6 z g).symm
    · exact (e5 z).trans (embRow 5 _ rfl h5 z g).symm
    · exact (e4 z).trans (embRow 4 _ rfl h4 z g).symm
    · exact (e3 z).trans (embRow 3 _ rfl h3 z g).symm
    · exact (e2 z).trans (embRow 2 _ rfl h2 z g).symm
    · exact (e1 z).trans (embRow 1 _ rfl h1 z g).symm
    · exact (e0 z).trans (embRow 0 _ rfl h0 z g).symm
  · exact View.cover_of_tiled (s := S8x128) _ S1x128.size (by rfl) y

/-- A buffer held at `q` is eight read shares — numbered `b … b + 7`, one per cell the kernel's transfers complete on —
    beside the remainder (the shares below `b` kept folded). -/
theorem toks8 {ℓ : Loc nD τ sig} {S : Finset (Idx ℓ)} {f : Buf (Elt F) ℓ} (q : PosShare TreeShare) (b : ℕ) :
    (ℓ ↦[S]{q} f : sProp (MM F)) ⊣⊢
      iprop(((ℓ ↦[S]{Transfers.shareDrop q (b + 8)} f) ∗ BI.bigSep (Finset.range b) (fun i => (ℓ ↦[S]{Transfers.shareTokN q i} f : sProp (MM F))))
        ∗ (ℓ ↦[S]{Transfers.shareTokN q b} f) ∗ (ℓ ↦[S]{Transfers.shareTokN q (b + 1)} f) ∗ (ℓ ↦[S]{Transfers.shareTokN q (b + 2)} f)
        ∗ (ℓ ↦[S]{Transfers.shareTokN q (b + 3)} f) ∗ (ℓ ↦[S]{Transfers.shareTokN q (b + 4)} f) ∗ (ℓ ↦[S]{Transfers.shareTokN q (b + 5)} f)
        ∗ (ℓ ↦[S]{Transfers.shareTokN q (b + 6)} f) ∗ (ℓ ↦[S]{Transfers.shareTokN q (b + 7)} f)) := by
  have h := Transfers.pointsTo_toks_range (Ix := Unit) (Name := ℕ) (U := UU nD τ) (Lvl := ℕ) (Val := Elt F) (ℓ := ℓ) (S := S) (f := f) q (b + 8)
  have hb : BI.bigSep (Finset.range (b + 8)) (fun i => (ℓ ↦[S]{Transfers.shareTokN q i} f : sProp (MM F)))
      = iprop((ℓ ↦[S]{Transfers.shareTokN q (b + 7)} f) ∗ (ℓ ↦[S]{Transfers.shareTokN q (b + 6)} f) ∗ (ℓ ↦[S]{Transfers.shareTokN q (b + 5)} f)
          ∗ (ℓ ↦[S]{Transfers.shareTokN q (b + 4)} f) ∗ (ℓ ↦[S]{Transfers.shareTokN q (b + 3)} f) ∗ (ℓ ↦[S]{Transfers.shareTokN q (b + 2)} f)
          ∗ (ℓ ↦[S]{Transfers.shareTokN q (b + 1)} f) ∗ (ℓ ↦[S]{Transfers.shareTokN q b} f)
          ∗ BI.bigSep (Finset.range b) (fun i => (ℓ ↦[S]{Transfers.shareTokN q i} f : sProp (MM F)))) := by
    rw [show b + 8 = (b + 7) + 1 from rfl, Finset.range_add_one, BI.bigSep_insert Finset.notMem_range_self,
      show b + 7 = (b + 6) + 1 from rfl, Finset.range_add_one, BI.bigSep_insert Finset.notMem_range_self,
      show b + 6 = (b + 5) + 1 from rfl, Finset.range_add_one, BI.bigSep_insert Finset.notMem_range_self,
      show b + 5 = (b + 4) + 1 from rfl, Finset.range_add_one, BI.bigSep_insert Finset.notMem_range_self,
      show b + 4 = (b + 3) + 1 from rfl, Finset.range_add_one, BI.bigSep_insert Finset.notMem_range_self,
      show b + 3 = (b + 2) + 1 from rfl, Finset.range_add_one, BI.bigSep_insert Finset.notMem_range_self,
      show b + 2 = (b + 1) + 1 from rfl, Finset.range_add_one, BI.bigSep_insert Finset.notMem_range_self,
      Finset.range_add_one, BI.bigSep_insert Finset.notMem_range_self]
    rfl
  rw [hb] at h
  constructor
  · refine h.1.trans ?_
    iintro ⟨Hd, H7, H6, H5, H4, H3, H2, H1, H0, Hr⟩
    isplitl [Hd Hr]; · isplitl [Hd] <;> iassumption
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · refine (?_ : _ ⊢ _).trans h.2
    iintro ⟨⟨Hd, Hr⟩, H0, H1, H2, H3, H4, H5, H6, H7⟩
    isplitl [Hd]; · iexact Hd
    isplitl [H7]; · iexact H7
    isplitl [H6]; · iexact H6
    isplitl [H5]; · iexact H5
    isplitl [H4]; · iexact H4
    isplitl [H3]; · iexact H3
    isplitl [H2]; · iexact H2
    isplitl [H1]; · iexact H1
    isplitl [H0]; · iexact H0
    iexact Hr

end Cert.KernelIdeal.Hand

end
-- ==== Proof.KI.ActSpec.lean ====
/-
  The activation-and-sum as functions of arrays: of one `[4, 2000, 128]` block, and of the whole `[4, 100000, 128]`
  array slab by slab. Every element `y` becomes `y` where `y > 0` and `0.01 * y` elsewhere (the constant is the
  single-precision word nearest one hundredth), and the four slabs of the leading axis are added.
-/
import proofs.«414509_j14181982011419_2_alg».proof.Proof.KI.Common
import Idealize.ShloMosaic.Lib.ValueIdx

noncomputable section

namespace Cert.KernelIdeal.Hand

open Cert.KernelIdeal Cert.KernelIdeal.Gen
open Idealize.ShloMosaic

variable {F : FTy → Type} [FloatOps F]

/-- The activation-and-sum of one block: compare with zero, scale by the constant, select, add over the leading
    axis. -/
def actBlock (v0 : Vec F S4x2000x128 .f32) : FVec F S2000x128 .f32 :=
  have v1 : FVec F S4x2000x128 .f32 := shapeCast S4x2000x128 v0 shapeCasts_S4x2000x128_S4x2000x128
  have cst : F .f32 := Scalar.ofBits .f32 0x00000000#32
  have v2 : FVec F S4x2000x128 .f32 := broadcast S4x2000x128 cst
  have v3 : IVec S4x2000x128 1 := cmpf .ogt v1 v2
  have cst_2 : F .f32 := Scalar.ofBits .f32 0x3C23D70A#32
  have v4 : FVec F S4x2000x128 .f32 := broadcast S4x2000x128 cst_2
  have v5 : FVec F S4x2000x128 .f32 := mulf v4 v1
  have v6 : FVec F S4x2000x128 .f32 := select v3 v1 v5
  have v7 : FVec F S2000x128 .f32 := multiReduction .add [0] S2000x128 v6 0x00000000#32 reduces_S4x2000x128_S2000x128 (.inl rfl) rfl
  v7

/-- The whole output array as ONE function of the whole input array: at row `n`, column `d`, the activation-and-sum
    of the 2000-row slab that holds row `n`, read at the row's place in the slab. -/
def actArr (x : (⟨S4x100000x128, .f32⟩ : BufTy).Contents (Elt F)) : (⟨S100000x128, .f32⟩ : BufTy).Contents (Elt F) := fun i =>
  actBlock (fun j => x (ValueIdx.ix3 (j 0)
      ⟨(i 0).val / 2000 * 2000 + (j 1).val, by
        have h0 : (i 0).val < 100000 := (i 0).isLt
        have h1 : (j 1).val < 2000 := (j 1).isLt
        omega⟩ (j 2)))
    (ValueIdx.ix2 ⟨(i 0).val % 2000, Nat.mod_lt _ (by decide)⟩ (i 1))

end Cert.KernelIdeal.Hand

end
-- ==== Proof.KI.Tables.lean ====
/-
  The prefetched index tables of the gather regions, as pure terms of the launch memory's edge-source array, and
  the range of their words.

  Every gather region reads one table of 131072 words: for relation r (0..3) and chunk c (0..3) it is words
  [131072 c, 131072 (c + 1)) of row r of the [4, 500000] edge-source array, that row extended by 24288 zeros to
  524288 words. The second layer's sixteen regions read the same sixteen tables, computed again into other buffers.
  A table word is therefore either an edge-source word or zero; when every edge-source word w satisfies
  0 ≤ w < 100000 read signed, every table word is below 100000 read unsigned, which is what a gather region's
  body needs of the word it turns into a row offset of the [100000, 128] embedding array.
-/
import proofs.«414509_j14181982011419_2_alg».proof.Proof.Gen.KernelIdeal.Launch
import proofs.«414509_j14181982011419_2_alg».proof.Pre_finite_inputs
import Idealize.ShloMosaic.Lib.ReduceAll
import Idealize.ShloMosaic.Lib.ValueIdx

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-! ## The tables as pure terms -/

/-- The edge-source array the launch memory holds (on device 0, the program's one device). -/
abbrev src (m : (ℓ : Loc nD τ sig) → Buf (Elt F) ℓ) : (⟨S4x500000, .i32⟩ : BufTy).Contents (Elt F) :=
  m (((0 : Dev nD).tc : Thread nD τ).loc main_arg1)

/-- A table as the host operations compute it from the edge-source array `x`: the row at offsets `o₁` as a vector of
    500000 words, padded by 24288 zeros at its end, and of that the 131072 words at offset `o₂`. -/
def tblOf (x : (⟨S4x500000, .i32⟩ : BufTy).Contents (Elt F)) (o₁ : Fin 2 → Nat) (h₁ : S4x500000.Slices o₁ S1x500000)
    (o₂ : Fin 1 → Nat) (h₂ : S524288.Slices o₂ S131072) : (⟨S131072, .i32⟩ : BufTy).Contents (Elt F) :=
  extractStridedSlice S131072 o₂
    (pad S524288 ![0] ![24288] ![0]
      (shapeCast S500000 (extractStridedSlice S1x500000 o₁ x h₁) shapeCasts_S1x500000_S500000)
      (constantI S_ 32 0#32) pads_S500000_S524288_0242880 h_S_) h₂

/-- Row r of the edge-source array starts at [r, 0]; chunk c of a padded row at [131072 c]. -/
abbrev rowOff (r : Fin 4) : Fin 2 → Nat := ![r.val, 0]
abbrev chunkOff (c : Fin 4) : Fin 1 → Nat := ![131072 * c.val]
theorem rowOff_slices : ∀ r : Fin 4, S4x500000.Slices (rowOff r) S1x500000 := by decide
theorem chunkOff_slices : ∀ c : Fin 4, S524288.Slices (chunkOff c) S131072 := by decide

/-- The table of relation r, chunk c. -/
def tbl (m : (ℓ : Loc nD τ sig) → Buf (Elt F) ℓ) (r c : Fin 4) : (⟨S131072, .i32⟩ : BufTy).Contents (Elt F) :=
  tblOf (src m) (rowOff r) (rowOff_slices r) (chunkOff c) (chunkOff_slices c)

/-! ## The range of a table's words -/

/-- A table word is an edge-source word or zero: a bound on every edge-source word bounds every table word. -/
theorem tblOf_range (x : (⟨S4x500000, .i32⟩ : BufTy).Contents (Elt F)) (hx : ∀ i, (x i).toNat < 100000)
    (o₁ : Fin 2 → Nat) (h₁ : S4x500000.Slices o₁ S1x500000) (o₂ : Fin 1 → Nat) (h₂ : S524288.Slices o₂ S131072)
    (e : S131072.Idx) : (tblOf x o₁ h₁ o₂ h₂ e).toNat < 100000 := by
  unfold tblOf extractStridedSlice pad shapeCast
  dsimp only
  split
  · exact hx _
  · show (0#32 : BitVec 32).toNat < 100000
    decide

instance : Subsingleton Cert.Pre_finite_inputs.S_.Idx := ⟨fun a b => funext fun d => d.elim0⟩

/-- A word in [0, n) read signed is below n read unsigned. -/
theorem toNat_lt_of_signed (w : BitVec 32) (h0 : (0#32 : BitVec 32).toInt ≤ w.toInt) (h1 : w.toInt < (100000#32 : BitVec 32).toInt) :
    w.toNat < 100000 := by
  have e0 : (0#32 : BitVec 32).toInt = 0 := by decide
  have e1 : (100000#32 : BitVec 32).toInt = 100000 := by decide
  rw [e0] at h0; rw [e1] at h1
  have h32 := w.isLt
  unfold BitVec.toInt at h0 h1
  split at h0 <;> omega

/-- The precondition read back: every edge-source word is in [0, 100000). -/
theorem src_range [Cert.Pre_finite_inputs.Facts] (a0 : FVec F Cert.Pre_finite_inputs.S100000x128 .f32) (a1 : IVec Cert.Pre_finite_inputs.S4x500000 32)
    (a2 : IVec Cert.Pre_finite_inputs.S4x500000 32) (a3 : FVec F Cert.Pre_finite_inputs.S4x500000 .f32)
    (h : Cert.Pre_finite_inputs.fn (F := F) a0 a1 a2 a3 = fun _ => 1#1) (i : Cert.Pre_finite_inputs.S4x500000.Idx) :
    (a1 i).toNat < 100000 := by
  have e := congrFun h ValueIdx.ix0
  dsimp only [Cert.Pre_finite_inputs.fn] at e
  have e14 := (IntOp.andi_eq_one.1 e).2
  have e13 := Host.reduce_andi_all _ _ _ _ _ e14 i
  obtain ⟨hge, hlt⟩ := IntOp.andi_eq_one.1 e13
  exact toNat_lt_of_signed _ (IntOp.cmpi_sge.1 hge) (IntOp.cmpi_slt.1 hlt)

/-- The precondition at any instance: the printed predicate of the four argument arrays is all ones on every device
    (what the certificate's precondition of this program unfolds to). -/
abbrev PreAt [Cert.Pre_finite_inputs.Facts] (m : (ℓ : Loc nD τ sig) → Buf (Elt F) ℓ) : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1

/-- Under the precondition every word of every table is below 100000. -/
theorem tbl_range [Cert.Pre_finite_inputs.Facts] (m : (ℓ : Loc nD τ sig) → Buf (Elt F) ℓ) (hpre : PreAt m) (r c : Fin 4)
    (e : S131072.Idx) : (tbl m r c e).toNat < 100000 :=
  tblOf_range (src m) (fun i => src_range _ _ _ _ (hpre 0) i) _ _ _ _ e

/-! ## The tables as the pipelines' admissible contents

Region K of the first layer (K = 4 r + c) and region 17 + 4 r + c of the second read the table of relation r, chunk c;
the gather regions' side condition on the contents is trivial (no index map reads a table). Regions 16 and 33 have no
table. -/

variable (m : (ℓ : Loc nD τ sig) → Buf (Elt F) ℓ)

def adm0 : (pcfg0 (F := F)).Adm := ⟨fun | 0 => tbl m 0 0 | ⟨_ + 1, h⟩ => absurd h (Nat.not_lt.2 (Nat.le_add_left _ _)), trivial⟩
def adm1 : (pcfg1 (F := F)).Adm := ⟨fun | 0 => tbl m 0 1 | ⟨_ + 1, h⟩ => absurd h (Nat.not_lt.2 (Nat.le_add_left _ _)), trivial⟩
def adm2 : (pcfg2 (F := F)).Adm := ⟨fun | 0 => tbl m 0 2 | ⟨_ + 1, h⟩ => absurd h (Nat.not_lt.2 (Nat.le_add_left _ _)), trivial⟩
def adm3 : (pcfg3 (F := F)).Adm := ⟨fun | 0 => tbl m 0 3 | ⟨_ + 1, h⟩ => absurd h (Nat.not_lt.2 (Nat.le_add_left _ _)), trivial⟩
def adm4 : (pcfg4 (F := F)).Adm := ⟨fun | 0 => tbl m 1 0 | ⟨_ + 1, h⟩ => absurd h (Nat.not_lt.2 (Nat.le_add_left _ _)), trivial⟩
def adm5 : (pcfg5 (F := F)).Adm := ⟨fun | 0 => tbl m 1 1 | ⟨_ + 1, h⟩ => absurd h (Nat.not_lt.2 (Nat.le_add_left _ _)), trivial⟩
def adm6 : (pcfg6 (F := F)).Adm := ⟨fun | 0 => tbl m 1 2 | ⟨_ + 1, h⟩ => absurd h (Nat.not_lt.2 (Nat.le_add_left _ _)), trivial⟩
def adm7 : (pcfg7 (F := F)).Adm := ⟨fun | 0 => tbl m 1 3 | ⟨_ + 1, h⟩ => absurd h (Nat.not_lt.2 (Nat.le_add_left _ _)), trivial⟩
def adm8 : (pcfg8 (F := F)).Adm := ⟨fun | 0 => tbl m 2 0 | ⟨_ + 1, h⟩ => absurd h (Nat.not_lt.2 (Nat.le_add_left _ _)), trivial⟩
def adm9 : (pcfg9 (F := F)).Adm := ⟨fun | 0 => tbl m 2 1 | ⟨_ + 1, h⟩ => absurd h (Nat.not_lt.2 (Nat.le_add_left _ _)), trivial⟩
def adm10 : (pcfg10 (F := F)).Adm := ⟨fun | 0 => tbl m 2 2 | ⟨_ + 1, h⟩ => absurd h (Nat.not_lt.2 (Nat.le_add_left _ _)), trivial⟩
def adm11 : (pcfg11 (F := F)).Adm := ⟨fun | 0 => tbl m 2 3 | ⟨_ + 1, h⟩ => absurd h (Nat.not_lt.2 (Nat.le_add_left _ _)), trivial⟩
def adm12 : (pcfg12 (F := F)).Adm := ⟨fun | 0 => tbl m 3 0 | ⟨_ + 1, h⟩ => absurd h (Nat.not_lt.2 (Nat.le_add_left _ _)), trivial⟩
def adm13 : (pcfg13 (F := F)).Adm := ⟨fun | 0 => tbl m 3 1 | ⟨_ + 1, h⟩ => absurd h (Nat.not_lt.2 (Nat.le_add_left _ _)), trivial⟩
def adm14 : (pcfg14 (F := F)).Adm := ⟨fun | 0 => tbl m 3 2 | ⟨_ + 1, h⟩ => absurd h (Nat.not_lt.2 (Nat.le_add_left _ _)), trivial⟩
def adm15 : (pcfg15 (F := F)).Adm := ⟨fun | 0 => tbl m 3 3 | ⟨_ + 1, h⟩ => absurd h (Nat.not_lt.2 (Nat.le_add_left _ _)), trivial⟩
def adm17 : (pcfg17 (F := F)).Adm := ⟨fun | 0 => tbl m 0 0 | ⟨_ + 1, h⟩ => absurd h (Nat.not_lt.2 (Nat.le_add_left _ _)), trivial⟩
def adm18 : (pcfg18 (F := F)).Adm := ⟨fun | 0 => tbl m 0 1 | ⟨_ + 1, h⟩ => absurd h (Nat.not_lt.2 (Nat.le_add_left _ _)), trivial⟩
def adm19 : (pcfg19 (F := F)).Adm := ⟨fun | 0 => tbl m 0 2 | ⟨_ + 1, h⟩ => absurd h (Nat.not_lt.2 (Nat.le_add_left _ _)), trivial⟩
def adm20 : (pcfg20 (F := F)).Adm := ⟨fun | 0 => tbl m 0 3 | ⟨_ + 1, h⟩ => absurd h (Nat.not_lt.2 (Nat.le_add_left _ _)), trivial⟩
def adm21 : (pcfg21 (F := F)).Adm := ⟨fun | 0 => tbl m 1 0 | ⟨_ + 1, h⟩ => absurd h (Nat.not_lt.2 (Nat.le_add_left _ _)), trivial⟩
def adm22 : (pcfg22 (F := F)).Adm := ⟨fun | 0 => tbl m 1 1 | ⟨_ + 1, h⟩ => absurd h (Nat.not_lt.2 (Nat.le_add_left _ _)), trivial⟩
def adm23 : (pcfg23 (F := F)).Adm := ⟨fun | 0 => tbl m 1 2 | ⟨_ + 1, h⟩ => absurd h (Nat.not_lt.2 (Nat.le_add_left _ _)), trivial⟩
def adm24 : (pcfg24 (F := F)).Adm := ⟨fun | 0 => tbl m 1 3 | ⟨_ + 1, h⟩ => absurd h (Nat.not_lt.2 (Nat.le_add_left _ _)), trivial⟩
def adm25 : (pcfg25 (F := F)).Adm := ⟨fun | 0 => tbl m 2 0 | ⟨_ + 1, h⟩ => absurd h (Nat.not_lt.2 (Nat.le_add_left _ _)), trivial⟩
def adm26 : (pcfg26 (F := F)).Adm := ⟨fun | 0 => tbl m 2 1 | ⟨_ + 1, h⟩ => absurd h (Nat.not_lt.2 (Nat.le_add_left _ _)), trivial⟩
def adm27 : (pcfg27 (F := F)).Adm := ⟨fun | 0 => tbl m 2 2 | ⟨_ + 1, h⟩ => absurd h (Nat.not_lt.2 (Nat.le_add_left _ _)), trivial⟩
def adm28 : (pcfg28 (F := F)).Adm := ⟨fun | 0 => tbl m 2 3 | ⟨_ + 1, h⟩ => absurd h (Nat.not_lt.2 (Nat.le_add_left _ _)), trivial⟩
def adm29 : (pcfg29 (F := F)).Adm := ⟨fun | 0 => tbl m 3 0 | ⟨_ + 1, h⟩ => absurd h (Nat.not_lt.2 (Nat.le_add_left _ _)), trivial⟩
def adm30 : (pcfg30 (F := F)).Adm := ⟨fun | 0 => tbl m 3 1 | ⟨_ + 1, h⟩ => absurd h (Nat.not_lt.2 (Nat.le_add_left _ _)), trivial⟩
def adm31 : (pcfg31 (F := F)).Adm := ⟨fun | 0 => tbl m 3 2 | ⟨_ + 1, h⟩ => absurd h (Nat.not_lt.2 (Nat.le_add_left _ _)), trivial⟩
def adm32 : (pcfg32 (F := F)).Adm := ⟨fun | 0 => tbl m 3 3 | ⟨_ + 1, h⟩ => absurd h (Nat.not_lt.2 (Nat.le_add_left _ _)), trivial⟩

/-- Every pipeline's admissible contents, by pipeline index. -/
def adm : (p : Fin 34) → (pcfgs (F := F) p).Adm
  | ⟨0, _⟩ => adm0 m | ⟨1, _⟩ => adm1 m | ⟨2, _⟩ => adm2 m | ⟨3, _⟩ => adm3 m
  | ⟨4, _⟩ => adm4 m | ⟨5, _⟩ => adm5 m | ⟨6, _⟩ => adm6 m | ⟨7, _⟩ => adm7 m
  | ⟨8, _⟩ => adm8 m | ⟨9, _⟩ => adm9 m | ⟨10, _⟩ => adm10 m | ⟨11, _⟩ => adm11 m
  | ⟨12, _⟩ => adm12 m | ⟨13, _⟩ => adm13 m | ⟨14, _⟩ => adm14 m | ⟨15, _⟩ => adm15 m
  | ⟨16, _⟩ => cfg16.toPCfg_adm
  | ⟨17, _⟩ => adm17 m | ⟨18, _⟩ => adm18 m | ⟨19, _⟩ => adm19 m | ⟨20, _⟩ => adm20 m
  | ⟨21, _⟩ => adm21 m | ⟨22, _⟩ => adm22 m | ⟨23, _⟩ => adm23 m | ⟨24, _⟩ => adm24 m
  | ⟨25, _⟩ => adm25 m | ⟨26, _⟩ => adm26 m | ⟨27, _⟩ => adm27 m | ⟨28, _⟩ => adm28 m
  | ⟨29, _⟩ => adm29 m | ⟨30, _⟩ => adm30 m | ⟨31, _⟩ => adm31 m | ⟨32, _⟩ => adm32 m
  | ⟨33, _⟩ => cfg33.toPCfg_adm
  | ⟨_ + 34, h⟩ => absurd h (Nat.not_lt.2 (Nat.le_add_left _ _))

/-! ## Per region: the family at a literal index, and the range of the region's table -/

theorem adm_0 : adm m 0 = adm0 m := rfl
theorem adm_1 : adm m 1 = adm1 m := rfl
theorem adm_2 : adm m 2 = adm2 m := rfl
theorem adm_3 : adm m 3 = adm3 m := rfl
theorem adm_4 : adm m 4 = adm4 m := rfl
theorem adm_5 : adm m 5 = adm5 m := rfl
theorem adm_6 : adm m 6 = adm6 m := rfl
theorem adm_7 : adm m 7 = adm7 m := rfl
theorem adm_8 : adm m 8 = adm8 m := rfl
theorem adm_9 : adm m 9 = adm9 m := rfl
theorem adm_10 : adm m 10 = adm10 m := rfl
theorem adm_11 : adm m 11 = adm11 m := rfl
theorem adm_12 : adm m 12 = adm12 m := rfl
theorem adm_13 : adm m 13 = adm13 m := rfl
theorem adm_14 : adm m 14 = adm14 m := rfl
theorem adm_15 : adm m 15 = adm15 m := rfl
theorem adm_16 : adm m 16 = cfg16.toPCfg_adm := rfl
theorem adm_17 : adm m 17 = adm17 m := rfl
theorem adm_18 : adm m 18 = adm18 m := rfl
theorem adm_19 : adm m 19 = adm19 m := rfl
theorem adm_20 : adm m 20 = adm20 m := rfl
theorem adm_21 : adm m 21 = adm21 m := rfl
theorem adm_22 : adm m 22 = adm22 m := rfl
theorem adm_23 : adm m 23 = adm23 m := rfl
theorem adm_24 : adm m 24 = adm24 m := rfl
theorem adm_25 : adm m 25 = adm25 m := rfl
theorem adm_26 : adm m 26 = adm26 m := rfl
theorem adm_27 : adm m 27 = adm27 m := rfl
theorem adm_28 : adm m 28 = adm28 m := rfl
theorem adm_29 : adm m 29 = adm29 m := rfl
theorem adm_30 : adm m 30 = adm30 m := rfl
theorem adm_31 : adm m 31 = adm31 m := rfl
theorem adm_32 : adm m 32 = adm32 m := rfl
theorem adm_33 : adm m 33 = cfg33.toPCfg_adm := rfl

section Range
variable [Cert.Pre_finite_inputs.Facts] (hpre : PreAt m) (e : S131072.Idx)
include hpre
theorem adm0_range : ((adm0 m).1 0 e).toNat < 100000 := tbl_range m hpre 0 0 e
theorem adm1_range : ((adm1 m).1 0 e).toNat < 100000 := tbl_range m hpre 0 1 e
theorem adm2_range : ((adm2 m).1 0 e).toNat < 100000 := tbl_range m hpre 0 2 e
theorem adm3_range : ((adm3 m).1 0 e).toNat < 100000 := tbl_range m hpre 0 3 e
theorem adm4_range : ((adm4 m).1 0 e).toNat < 100000 := tbl_range m hpre 1 0 e
theorem adm5_range : ((adm5 m).1 0 e).toNat < 100000 := tbl_range m hpre 1 1 e
theorem adm6_range : ((adm6 m).1 0 e).toNat < 100000 := tbl_range m hpre 1 2 e
theorem adm7_range : ((adm7 m).1 0 e).toNat < 100000 := tbl_range m hpre 1 3 e
theorem adm8_range : ((adm8 m).1 0 e).toNat < 100000 := tbl_range m hpre 2 0 e
theorem adm9_range : ((adm9 m).1 0 e).toNat < 100000 := tbl_range m hpre 2 1 e
theorem adm10_range : ((adm10 m).1 0 e).toNat < 100000 := tbl_range m hpre 2 2 e
theorem adm11_range : ((adm11 m).1 0 e).toNat < 100000 := tbl_range m hpre 2 3 e
theorem adm12_range : ((adm12 m).1 0 e).toNat < 100000 := tbl_range m hpre 3 0 e
theorem adm13_range : ((adm13 m).1 0 e).toNat < 100000 := tbl_range m hpre 3 1 e
theorem adm14_range : ((adm14 m).1 0 e).toNat < 100000 := tbl_range m hpre 3 2 e
theorem adm15_range : ((adm15 m).1 0 e).toNat < 100000 := tbl_range m hpre 3 3 e
theorem adm17_range : ((adm17 m).1 0 e).toNat < 100000 := tbl_range m hpre 0 0 e
theorem adm18_range : ((adm18 m).1 0 e).toNat < 100000 := tbl_range m hpre 0 1 e
theorem adm19_range : ((adm19 m).1 0 e).toNat < 100000 := tbl_range m hpre 0 2 e
theorem adm20_range : ((adm20 m).1 0 e).toNat < 100000 := tbl_range m hpre 0 3 e
theorem adm21_range : ((adm21 m).1 0 e).toNat < 100000 := tbl_range m hpre 1 0 e
theorem adm22_range : ((adm22 m).1 0 e).toNat < 100000 := tbl_range m hpre 1 1 e
theorem adm23_range : ((adm23 m).1 0 e).toNat < 100000 := tbl_range m hpre 1 2 e
theorem adm24_range : ((adm24 m).1 0 e).toNat < 100000 := tbl_range m hpre 1 3 e
theorem adm25_range : ((adm25 m).1 0 e).toNat < 100000 := tbl_range m hpre 2 0 e
theorem adm26_range : ((adm26 m).1 0 e).toNat < 100000 := tbl_range m hpre 2 1 e
theorem adm27_range : ((adm27 m).1 0 e).toNat < 100000 := tbl_range m hpre 2 2 e
theorem adm28_range : ((adm28 m).1 0 e).toNat < 100000 := tbl_range m hpre 2 3 e
theorem adm29_range : ((adm29 m).1 0 e).toNat < 100000 := tbl_range m hpre 3 0 e
theorem adm30_range : ((adm30 m).1 0 e).toNat < 100000 := tbl_range m hpre 3 1 e
theorem adm31_range : ((adm31 m).1 0 e).toNat < 100000 := tbl_range m hpre 3 2 e
theorem adm32_range : ((adm32 m).1 0 e).toNat < 100000 := tbl_range m hpre 3 3 e
end Range

end Cert.KernelIdeal.Hand

end
-- ==== Proof.KI.Chain.lean ====
import proofs.«414509_j14181982011419_2_alg».proof.Proof.KI.RegionsP
import proofs.«414509_j14181982011419_2_alg».proof.Proof.KI.GatherSpec
import proofs.«414509_j14181982011419_2_alg».proof.Proof.KI.ActSpec
import proofs.«414509_j14181982011419_2_alg».proof.Proof.KI.Tables

set_option maxRecDepth 2240

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-! ## The unscoped buffers' contents after each item of @main

Item by item: the launch memory; a host stretch applied to the valuation before it; a gather region's output array set to
the rows its table names, scaled; an activation region's output array set to the sum over relations of the leaky
rectifier of its stacked input. -/

def VV0 (c : Dev nD) : Valuation τ sig (Elt F) := V0 m c
def VV1 (c : Dev nD) : Valuation τ sig (Elt F) := StableHlo.after hostOps0 (VV0 m c)
def VV2 (c : Dev nD) : Valuation τ sig (Elt F) := StableHlo.after hostOps0_1 (VV1 m c)
def VV3 (c : Dev nD) : Valuation τ sig (Elt F) := StableHlo.after hostOps0_2 (VV2 m c)
def VV4 (c : Dev nD) : Valuation τ sig (Elt F) := StableHlo.after hostOps0_3 (VV3 m c)
def VV5 (c : Dev nD) : Valuation τ sig (Elt F) := StableHlo.after hostOps0_4 (VV4 m c)
def VV6 (c : Dev nD) : Valuation τ sig (Elt F) := Function.update (VV5 m c) main_v9 (gatherArr (VV5 m c main_arg0) ((adm m 0).1 0) (VV5 m c main_v8))
def VV7 (c : Dev nD) : Valuation τ sig (Elt F) := StableHlo.after hostOps1 (VV6 m c)
def VV8 (c : Dev nD) : Valuation τ sig (Elt F) := Function.update (VV7 m c) main_v12 (gatherArr (VV7 m c main_arg0) ((adm m 1).1 0) (VV7 m c main_v11))
def VV9 (c : Dev nD) : Valuation τ sig (Elt F) := StableHlo.after hostOps2 (VV8 m c)
def VV10 (c : Dev nD) : Valuation τ sig (Elt F) := Function.update (VV9 m c) main_v15 (gatherArr (VV9 m c main_arg0) ((adm m 2).1 0) (VV9 m c main_v14))
def VV11 (c : Dev nD) : Valuation τ sig (Elt F) := StableHlo.after hostOps3 (VV10 m c)
def VV12 (c : Dev nD) : Valuation τ sig (Elt F) := Function.update (VV11 m c) main_v18 (gatherArr (VV11 m c main_arg0) ((adm m 3).1 0) (VV11 m c main_v17))
def VV13 (c : Dev nD) : Valuation τ sig (Elt F) := StableHlo.after hostOps4 (VV12 m c)
def VV14 (c : Dev nD) : Valuation τ sig (Elt F) := StableHlo.after hostOps4_1 (VV13 m c)
def VV15 (c : Dev nD) : Valuation τ sig (Elt F) := StableHlo.after hostOps4_2 (VV14 m c)
def VV16 (c : Dev nD) : Valuation τ sig (Elt F) := StableHlo.after hostOps4_3 (VV15 m c)
def VV17 (c : Dev nD) : Valuation τ sig (Elt F) := StableHlo.after hostOps4_4 (VV16 m c)
def VV18 (c : Dev nD) : Valuation τ sig (Elt F) := Function.update (VV17 m c) main_v35 (gatherArr (VV17 m c main_arg0) ((adm m 4).1 0) (VV17 m c main_v34))
def VV19 (c : Dev nD) : Valuation τ sig (Elt F) := StableHlo.after hostOps5 (VV18 m c)
def VV20 (c : Dev nD) : Valuation τ sig (Elt F) := Function.update (VV19 m c) main_v38 (gatherArr (VV19 m c main_arg0) ((adm m 5).1 0) (VV19 m c main_v37))
def VV21 (c : Dev nD) : Valuation τ sig (Elt F) := StableHlo.after hostOps6 (VV20 m c)
def VV22 (c : Dev nD) : Valuation τ sig (Elt F) := Function.update (VV21 m c) main_v41 (gatherArr (VV21 m c main_arg0) ((adm m 6).1 0) (VV21 m c main_v40))
def VV23 (c : Dev nD) : Valuation τ sig (Elt F) := StableHlo.after hostOps7 (VV22 m c)
def VV24 (c : Dev nD) : Valuation τ sig (Elt F) := Function.update (VV23 m c) main_v44 (gatherArr (VV23 m c main_arg0) ((adm m 7).1 0) (VV23 m c main_v43))
def VV25 (c : Dev nD) : Valuation τ sig (Elt F) := StableHlo.after hostOps8 (VV24 m c)
def VV26 (c : Dev nD) : Valuation τ sig (Elt F) := StableHlo.after hostOps8_1 (VV25 m c)
def VV27 (c : Dev nD) : Valuation τ sig (Elt F) := StableHlo.after hostOps8_2 (VV26 m c)
def VV28 (c : Dev nD) : Valuation τ sig (Elt F) := StableHlo.after hostOps8_3 (VV27 m c)
def VV29 (c : Dev nD) : Valuation τ sig (Elt F) := StableHlo.after hostOps8_4 (VV28 m c)
def VV30 (c : Dev nD) : Valuation τ sig (Elt F) := Function.update (VV29 m c) main_v61 (gatherArr (VV29 m c main_arg0) ((adm m 8).1 0) (VV29 m c main_v60))
def VV31 (c : Dev nD) : Valuation τ sig (Elt F) := StableHlo.after hostOps9 (VV30 m c)
def VV32 (c : Dev nD) : Valuation τ sig (Elt F) := Function.update (VV31 m c) main_v64 (gatherArr (VV31 m c main_arg0) ((adm m 9).1 0) (VV31 m c main_v63))
def VV33 (c : Dev nD) : Valuation τ sig (Elt F) := StableHlo.after hostOps10 (VV32 m c)
def VV34 (c : Dev nD) : Valuation τ sig (Elt F) := Function.update (VV33 m c) main_v67 (gatherArr (VV33 m c main_arg0) ((adm m 10).1 0) (VV33 m c main_v66))
def VV35 (c : Dev nD) : Valuation τ sig (Elt F) := StableHlo.after hostOps11 (VV34 m c)
def VV36 (c : Dev nD) : Valuation τ sig (Elt F) := Function.update (VV35 m c) main_v70 (gatherArr (VV35 m c main_arg0) ((adm m 11).1 0) (VV35 m c main_v69))
def VV37 (c : Dev nD) : Valuation τ sig (Elt F) := StableHlo.after hostOps12 (VV36 m c)
def VV38 (c : Dev nD) : Valuation τ sig (Elt F) := StableHlo.after hostOps12_1 (VV37 m c)
def VV39 (c : Dev nD) : Valuation τ sig (Elt F) := StableHlo.after hostOps12_2 (VV38 m c)
def VV40 (c : Dev nD) : Valuation τ sig (Elt F) := StableHlo.after hostOps12_3 (VV39 m c)
def VV41 (c : Dev nD) : Valuation τ sig (Elt F) := StableHlo.after hostOps12_4 (VV40 m c)
def VV42 (c : Dev nD) : Valuation τ sig (Elt F) := Function.update (VV41 m c) main_v87 (gatherArr (VV41 m c main_arg0) ((adm m 12).1 0) (VV41 m c main_v86))
def VV43 (c : Dev nD) : Valuation τ sig (Elt F) := StableHlo.after hostOps13 (VV42 m c)
def VV44 (c : Dev nD) : Valuation τ sig (Elt F) := Function.update (VV43 m c) main_v90 (gatherArr (VV43 m c main_arg0) ((adm m 13).1 0) (VV43 m c main_v89))
def VV45 (c : Dev nD) : Valuation τ sig (Elt F) := StableHlo.after hostOps14 (VV44 m c)
def VV46 (c : Dev nD) : Valuation τ sig (Elt F) := Function.update (VV45 m c) main_v93 (gatherArr (VV45 m c main_arg0) ((adm m 14).1 0) (VV45 m c main_v92))
def VV47 (c : Dev nD) : Valuation τ sig (Elt F) := StableHlo.after hostOps15 (VV46 m c)
def VV48 (c : Dev nD) : Valuation τ sig (Elt F) := Function.update (VV47 m c) main_v96 (gatherArr (VV47 m c main_arg0) ((adm m 15).1 0) (VV47 m c main_v95))
def VV49 (c : Dev nD) : Valuation τ sig (Elt F) := StableHlo.after hostOps16 (VV48 m c)
def VV50 (c : Dev nD) : Valuation τ sig (Elt F) := Function.update (VV49 m c) main_v109 (actArr (VV49 m c main_v108))
def VV51 (c : Dev nD) : Valuation τ sig (Elt F) := StableHlo.after hostOps17 (VV50 m c)
def VV52 (c : Dev nD) : Valuation τ sig (Elt F) := StableHlo.after hostOps17_1 (VV51 m c)
def VV53 (c : Dev nD) : Valuation τ sig (Elt F) := StableHlo.after hostOps17_2 (VV52 m c)
def VV54 (c : Dev nD) : Valuation τ sig (Elt F) := StableHlo.after hostOps17_3 (VV53 m c)
def VV55 (c : Dev nD) : Valuation τ sig (Elt F) := StableHlo.after hostOps17_4 (VV54 m c)
def VV56 (c : Dev nD) : Valuation τ sig (Elt F) := Function.update (VV55 m c) main_v119 (gatherArr (VV55 m c main_v109) ((adm m 17).1 0) (VV55 m c main_v118))
def VV57 (c : Dev nD) : Valuation τ sig (Elt F) := StableHlo.after hostOps18 (VV56 m c)
def VV58 (c : Dev nD) : Valuation τ sig (Elt F) := Function.update (VV57 m c) main_v122 (gatherArr (VV57 m c main_v109) ((adm m 18).1 0) (VV57 m c main_v121))
def VV59 (c : Dev nD) : Valuation τ sig (Elt F) := StableHlo.after hostOps19 (VV58 m c)
def VV60 (c : Dev nD) : Valuation τ sig (Elt F) := Function.update (VV59 m c) main_v125 (gatherArr (VV59 m c main_v109) ((adm m 19).1 0) (VV59 m c main_v124))
def VV61 (c : Dev nD) : Valuation τ sig (Elt F) := StableHlo.after hostOps20 (VV60 m c)
def VV62 (c : Dev nD) : Valuation τ sig (Elt F) := Function.update (VV61 m c) main_v128 (gatherArr (VV61 m c main_v109) ((adm m 20).1 0) (VV61 m c main_v127))
def VV63 (c : Dev nD) : Valuation τ sig (Elt F) := StableHlo.after hostOps21 (VV62 m c)
def VV64 (c : Dev nD) : Valuation τ sig (Elt F) := StableHlo.after hostOps21_1 (VV63 m c)
def VV65 (c : Dev nD) : Valuation τ sig (Elt F) := StableHlo.after hostOps21_2 (VV64 m c)
def VV66 (c : Dev nD) : Valuation τ sig (Elt F) := StableHlo.after hostOps21_3 (VV65 m c)
def VV67 (c : Dev nD) : Valuation τ sig (Elt F) := StableHlo.after hostOps21_4 (VV66 m c)
def VV68 (c : Dev nD) : Valuation τ sig (Elt F) := Function.update (VV67 m c) main_v145 (gatherArr (VV67 m c main_v109) ((adm m 21).1 0) (VV67 m c main_v144))
def VV69 (c : Dev nD) : Valuation τ sig (Elt F) := StableHlo.after hostOps22 (VV68 m c)
def VV70 (c : Dev nD) : Valuation τ sig (Elt F) := Function.update (VV69 m c) main_v148 (gatherArr (VV69 m c main_v109) ((adm m 22).1 0) (VV69 m c main_v147))
def VV71 (c : Dev nD) : Valuation τ sig (Elt F) := StableHlo.after hostOps23 (VV70 m c)
def VV72 (c : Dev nD) : Valuation τ sig (Elt F) := Function.update (VV71 m c) main_v151 (gatherArr (VV71 m c main_v109) ((adm m 23).1 0) (VV71 m c main_v150))
def VV73 (c : Dev nD) : Valuation τ sig (Elt F) := StableHlo.after hostOps24 (VV72 m c)
def VV74 (c : Dev nD) : Valuation τ sig (Elt F) := Function.update (VV73 m c) main_v154 (gatherArr (VV73 m c main_v109) ((adm m 24).1 0) (VV73 m c main_v153))
def VV75 (c : Dev nD) : Valuation τ sig (Elt F) := StableHlo.after hostOps25 (VV74 m c)
def VV76 (c : Dev nD) : Valuation τ sig (Elt F) := StableHlo.after hostOps25_1 (VV75 m c)
def VV77 (c : Dev nD) : Valuation τ sig (Elt F) := StableHlo.after hostOps25_2 (VV76 m c)
def VV78 (c : Dev nD) : Valuation τ sig (Elt F) := StableHlo.after hostOps25_3 (VV77 m c)
def VV79 (c : Dev nD) : Valuation τ sig (Elt F) := StableHlo.after hostOps25_4 (VV78 m c)
def VV80 (c : Dev nD) : Valuation τ sig (Elt F) := Function.update (VV79 m c) main_v171 (gatherArr (VV79 m c main_v109) ((adm m 25).1 0) (VV79 m c main_v170))
def VV81 (c : Dev nD) : Valuation τ sig (Elt F) := StableHlo.after hostOps26 (VV80 m c)
def VV82 (c : Dev nD) : Valuation τ sig (Elt F) := Function.update (VV81 m c) main_v174 (gatherArr (VV81 m c main_v109) ((adm m 26).1 0) (VV81 m c main_v173))
def VV83 (c : Dev nD) : Valuation τ sig (Elt F) := StableHlo.after hostOps27 (VV82 m c)
def VV84 (c : Dev nD) : Valuation τ sig (Elt F) := Function.update (VV83 m c) main_v177 (gatherArr (VV83 m c main_v109) ((adm m 27).1 0) (VV83 m c main_v176))
def VV85 (c : Dev nD) : Valuation τ sig (Elt F) := StableHlo.after hostOps28 (VV84 m c)
def VV86 (c : Dev nD) : Valuation τ sig (Elt F) := Function.update (VV85 m c) main_v180 (gatherArr (VV85 m c main_v109) ((adm m 28).1 0) (VV85 m c main_v179))
def VV87 (c : Dev nD) : Valuation τ sig (Elt F) := StableHlo.after hostOps29 (VV86 m c)
def VV88 (c : Dev nD) : Valuation τ sig (Elt F) := StableHlo.after hostOps29_1 (VV87 m c)
def VV89 (c : Dev nD) : Valuation τ sig (Elt F) := StableHlo.after hostOps29_2 (VV88 m c)
def VV90 (c : Dev nD) : Valuation τ sig (Elt F) := StableHlo.after hostOps29_3 (VV89 m c)
def VV91 (c : Dev nD) : Valuation τ sig (Elt F) := StableHlo.after hostOps29_4 (VV90 m c)
def VV92 (c : Dev nD) : Valuation τ sig (Elt F) := Function.update (VV91 m c) main_v197 (gatherArr (VV91 m c main_v109) ((adm m 29).1 0) (VV91 m c main_v196))
def VV93 (c : Dev nD) : Valuation τ sig (Elt F) := StableHlo.after hostOps30 (VV92 m c)
def VV94 (c : Dev nD) : Valuation τ sig (Elt F) := Function.update (VV93 m c) main_v200 (gatherArr (VV93 m c main_v109) ((adm m 30).1 0) (VV93 m c main_v199))
def VV95 (c : Dev nD) : Valuation τ sig (Elt F) := StableHlo.after hostOps31 (VV94 m c)
def VV96 (c : Dev nD) : Valuation τ sig (Elt F) := Function.update (VV95 m c) main_v203 (gatherArr (VV95 m c main_v109) ((adm m 31).1 0) (VV95 m c main_v202))
def VV97 (c : Dev nD) : Valuation τ sig (Elt F) := StableHlo.after hostOps32 (VV96 m c)
def VV98 (c : Dev nD) : Valuation τ sig (Elt F) := Function.update (VV97 m c) main_v206 (gatherArr (VV97 m c main_v109) ((adm m 32).1 0) (VV97 m c main_v205))
def VV99 (c : Dev nD) : Valuation τ sig (Elt F) := StableHlo.after hostOps33 (VV98 m c)
def VV100 (c : Dev nD) : Valuation τ sig (Elt F) := Function.update (VV99 m c) main_v219 (actArr (VV99 m c main_v218))

/-- The contents the regions leave, as the unknowns of the conditional frame: after item J−1 buffer `r` holds what this
    table says. Read only at the regions' exits. -/
def outs : Outs (F := F) := fun J r c =>
  if J = 6 then VV6 m c r else
  if J = 8 then VV8 m c r else
  if J = 10 then VV10 m c r else
  if J = 12 then VV12 m c r else
  if J = 18 then VV18 m c r else
  if J = 20 then VV20 m c r else
  if J = 22 then VV22 m c r else
  if J = 24 then VV24 m c r else
  if J = 30 then VV30 m c r else
  if J = 32 then VV32 m c r else
  if J = 34 then VV34 m c r else
  if J = 36 then VV36 m c r else
  if J = 42 then VV42 m c r else
  if J = 44 then VV44 m c r else
  if J = 46 then VV46 m c r else
  if J = 48 then VV48 m c r else
  if J = 50 then VV50 m c r else
  if J = 56 then VV56 m c r else
  if J = 58 then VV58 m c r else
  if J = 60 then VV60 m c r else
  if J = 62 then VV62 m c r else
  if J = 68 then VV68 m c r else
  if J = 70 then VV70 m c r else
  if J = 72 then VV72 m c r else
  if J = 74 then VV74 m c r else
  if J = 80 then VV80 m c r else
  if J = 82 then VV82 m c r else
  if J = 84 then VV84 m c r else
  if J = 86 then VV86 m c r else
  if J = 92 then VV92 m c r else
  if J = 94 then VV94 m c r else
  if J = 96 then VV96 m c r else
  if J = 98 then VV98 m c r else
  if J = 100 then VV100 m c r else
  VV0 m c r

/-! What the unknowns hold at each region's exit. -/

theorem outs_6 (r : Ref sig .tc) (c : Dev nD) : outs m 6 r c = VV6 m c r := by
  unfold outs; simp only [↓reduceIte, Nat.reduceEqDiff, if_true, if_false]

theorem outs_8 (r : Ref sig .tc) (c : Dev nD) : outs m 8 r c = VV8 m c r := by
  unfold outs; simp only [↓reduceIte, Nat.reduceEqDiff, if_true, if_false]

theorem outs_10 (r : Ref sig .tc) (c : Dev nD) : outs m 10 r c = VV10 m c r := by
  unfold outs; simp only [↓reduceIte, Nat.reduceEqDiff, if_true, if_false]

theorem outs_12 (r : Ref sig .tc) (c : Dev nD) : outs m 12 r c = VV12 m c r := by
  unfold outs; simp only [↓reduceIte, Nat.reduceEqDiff, if_true, if_false]

theorem outs_18 (r : Ref sig .tc) (c : Dev nD) : outs m 18 r c = VV18 m c r := by
  unfold outs; simp only [↓reduceIte, Nat.reduceEqDiff, if_true, if_false]

theorem outs_20 (r : Ref sig .tc) (c : Dev nD) : outs m 20 r c = VV20 m c r := by
  unfold outs; simp only [↓reduceIte, Nat.reduceEqDiff, if_true, if_false]

theorem outs_22 (r : Ref sig .tc) (c : Dev nD) : outs m 22 r c = VV22 m c r := by
  unfold outs; simp only [↓reduceIte, Nat.reduceEqDiff, if_true, if_false]

theorem outs_24 (r : Ref sig .tc) (c : Dev nD) : outs m 24 r c = VV24 m c r := by
  unfold outs; simp only [↓reduceIte, Nat.reduceEqDiff, if_true, if_false]

theorem outs_30 (r : Ref sig .tc) (c : Dev nD) : outs m 30 r c = VV30 m c r := by
  unfold outs; simp only [↓reduceIte, Nat.reduceEqDiff, if_true, if_false]

theorem outs_32 (r : Ref sig .tc) (c : Dev nD) : outs m 32 r c = VV32 m c r := by
  unfold outs; simp only [↓reduceIte, Nat.reduceEqDiff, if_true, if_false]

theorem outs_34 (r : Ref sig .tc) (c : Dev nD) : outs m 34 r c = VV34 m c r := by
  unfold outs; simp only [↓reduceIte, Nat.reduceEqDiff, if_true, if_false]

theorem outs_36 (r : Ref sig .tc) (c : Dev nD) : outs m 36 r c = VV36 m c r := by
  unfold outs; simp only [↓reduceIte, Nat.reduceEqDiff, if_true, if_false]

theorem outs_42 (r : Ref sig .tc) (c : Dev nD) : outs m 42 r c = VV42 m c r := by
  unfold outs; simp only [↓reduceIte, Nat.reduceEqDiff, if_true, if_false]

theorem outs_44 (r : Ref sig .tc) (c : Dev nD) : outs m 44 r c = VV44 m c r := by
  unfold outs; simp only [↓reduceIte, Nat.reduceEqDiff, if_true, if_false]

theorem outs_46 (r : Ref sig .tc) (c : Dev nD) : outs m 46 r c = VV46 m c r := by
  unfold outs; simp only [↓reduceIte, Nat.reduceEqDiff, if_true, if_false]

theorem outs_48 (r : Ref sig .tc) (c : Dev nD) : outs m 48 r c = VV48 m c r := by
  unfold outs; simp only [↓reduceIte, Nat.reduceEqDiff, if_true, if_false]

theorem outs_50 (r : Ref sig .tc) (c : Dev nD) : outs m 50 r c = VV50 m c r := by
  unfold outs; simp only [↓reduceIte, Nat.reduceEqDiff, if_true, if_false]

theorem outs_56 (r : Ref sig .tc) (c : Dev nD) : outs m 56 r c = VV56 m c r := by
  unfold outs; simp only [↓reduceIte, Nat.reduceEqDiff, if_true, if_false]

theorem outs_58 (r : Ref sig .tc) (c : Dev nD) : outs m 58 r c = VV58 m c r := by
  unfold outs; simp only [↓reduceIte, Nat.reduceEqDiff, if_true, if_false]

theorem outs_60 (r : Ref sig .tc) (c : Dev nD) : outs m 60 r c = VV60 m c r := by
  unfold outs; simp only [↓reduceIte, Nat.reduceEqDiff, if_true, if_false]

theorem outs_62 (r : Ref sig .tc) (c : Dev nD) : outs m 62 r c = VV62 m c r := by
  unfold outs; simp only [↓reduceIte, Nat.reduceEqDiff, if_true, if_false]

theorem outs_68 (r : Ref sig .tc) (c : Dev nD) : outs m 68 r c = VV68 m c r := by
  unfold outs; simp only [↓reduceIte, Nat.reduceEqDiff, if_true, if_false]

theorem outs_70 (r : Ref sig .tc) (c : Dev nD) : outs m 70 r c = VV70 m c r := by
  unfold outs; simp only [↓reduceIte, Nat.reduceEqDiff, if_true, if_false]

theorem outs_72 (r : Ref sig .tc) (c : Dev nD) : outs m 72 r c = VV72 m c r := by
  unfold outs; simp only [↓reduceIte, Nat.reduceEqDiff, if_true, if_false]

theorem outs_74 (r : Ref sig .tc) (c : Dev nD) : outs m 74 r c = VV74 m c r := by
  unfold outs; simp only [↓reduceIte, Nat.reduceEqDiff, if_true, if_false]

theorem outs_80 (r : Ref sig .tc) (c : Dev nD) : outs m 80 r c = VV80 m c r := by
  unfold outs; simp only [↓reduceIte, Nat.reduceEqDiff, if_true, if_false]

theorem outs_82 (r : Ref sig .tc) (c : Dev nD) : outs m 82 r c = VV82 m c r := by
  unfold outs; simp only [↓reduceIte, Nat.reduceEqDiff, if_true, if_false]

theorem outs_84 (r : Ref sig .tc) (c : Dev nD) : outs m 84 r c = VV84 m c r := by
  unfold outs; simp only [↓reduceIte, Nat.reduceEqDiff, if_true, if_false]

theorem outs_86 (r : Ref sig .tc) (c : Dev nD) : outs m 86 r c = VV86 m c r := by
  unfold outs; simp only [↓reduceIte, Nat.reduceEqDiff, if_true, if_false]

theorem outs_92 (r : Ref sig .tc) (c : Dev nD) : outs m 92 r c = VV92 m c r := by
  unfold outs; simp only [↓reduceIte, Nat.reduceEqDiff, if_true, if_false]

theorem outs_94 (r : Ref sig .tc) (c : Dev nD) : outs m 94 r c = VV94 m c r := by
  unfold outs; simp only [↓reduceIte, Nat.reduceEqDiff, if_true, if_false]

theorem outs_96 (r : Ref sig .tc) (c : Dev nD) : outs m 96 r c = VV96 m c r := by
  unfold outs; simp only [↓reduceIte, Nat.reduceEqDiff, if_true, if_false]

theorem outs_98 (r : Ref sig .tc) (c : Dev nD) : outs m 98 r c = VV98 m c r := by
  unfold outs; simp only [↓reduceIte, Nat.reduceEqDiff, if_true, if_false]

theorem outs_100 (r : Ref sig .tc) (c : Dev nD) : outs m 100 r c = VV100 m c r := by
  unfold outs; simp only [↓reduceIte, Nat.reduceEqDiff, if_true, if_false]

/-! ## The conditional frame's valuations, at these unknowns, are this table -/

/-- Updating at `a` with the value already there after an update at `a` is that update. -/
theorem upd1_fix {α : Type} [DecidableEq α] {β : α → Type} (f : ∀ a, β a) (a : α) (v : β a) :
    Function.update f a (Function.update f a v a) = Function.update f a v := by
  rw [Function.update_self]

/-- The same, followed by an update at `b` with the value already there. -/
theorem upd2_fix {α : Type} [DecidableEq α] {β : α → Type} (f : ∀ a, β a) (a b : α) (v : β a) :
    Function.update (Function.update f a (Function.update f a v a)) b (Function.update f a v b) = Function.update f a v := by
  rw [Function.update_self, Function.update_eq_self]

theorem V0_eq (c : Dev nD) : V0 m c = VV0 m c := rfl
theorem V1_eq (c : Dev nD) : V1 m c = VV1 m c := by
  show StableHlo.after hostOps0 (V0 m c) = _
  rw [V0_eq]; rfl
theorem V2_eq (c : Dev nD) : V2 m c = VV2 m c := by
  show StableHlo.after hostOps0_1 (V1 m c) = _
  rw [V1_eq]; rfl
theorem V3_eq (c : Dev nD) : V3 m c = VV3 m c := by
  show StableHlo.after hostOps0_2 (V2 m c) = _
  rw [V2_eq]; rfl
theorem V4_eq (c : Dev nD) : V4 m c = VV4 m c := by
  show StableHlo.after hostOps0_3 (V3 m c) = _
  rw [V3_eq]; rfl
theorem V5_eq (c : Dev nD) : V5 m c = VV5 m c := by
  show StableHlo.after hostOps0_4 (V4 m c) = _
  rw [V4_eq]; rfl
theorem V6_eq (c : Dev nD) : V6 m (outs m) c = VV6 m c := by
  show Function.update (V5 m c) main_v9 (outs m 6 main_v9 c) = _
  rw [outs_6, V5_eq]; unfold VV6; exact upd1_fix (VV5 m c) _ _
theorem V7_eq (c : Dev nD) : V7 m (outs m) c = VV7 m c := by
  show StableHlo.after hostOps1 (V6 m (outs m) c) = _
  rw [V6_eq]; rfl
theorem V8_eq (c : Dev nD) : V8 m (outs m) c = VV8 m c := by
  show Function.update (V7 m (outs m) c) main_v12 (outs m 8 main_v12 c) = _
  rw [outs_8, V7_eq]; unfold VV8; exact upd1_fix (VV7 m c) _ _
theorem V9_eq (c : Dev nD) : V9 m (outs m) c = VV9 m c := by
  show StableHlo.after hostOps2 (V8 m (outs m) c) = _
  rw [V8_eq]; rfl
theorem V10_eq (c : Dev nD) : V10 m (outs m) c = VV10 m c := by
  show Function.update (V9 m (outs m) c) main_v15 (outs m 10 main_v15 c) = _
  rw [outs_10, V9_eq]; unfold VV10; exact upd1_fix (VV9 m c) _ _
theorem V11_eq (c : Dev nD) : V11 m (outs m) c = VV11 m c := by
  show StableHlo.after hostOps3 (V10 m (outs m) c) = _
  rw [V10_eq]; rfl
theorem V12_eq (c : Dev nD) : V12 m (outs m) c = VV12 m c := by
  show Function.update (V11 m (outs m) c) main_v18 (outs m 12 main_v18 c) = _
  rw [outs_12, V11_eq]; unfold VV12; exact upd1_fix (VV11 m c) _ _
theorem V13_eq (c : Dev nD) : V13 m (outs m) c = VV13 m c := by
  show StableHlo.after hostOps4 (V12 m (outs m) c) = _
  rw [V12_eq]; rfl
theorem V14_eq (c : Dev nD) : V14 m (outs m) c = VV14 m c := by
  show StableHlo.after hostOps4_1 (V13 m (outs m) c) = _
  rw [V13_eq]; rfl
theorem V15_eq (c : Dev nD) : V15 m (outs m) c = VV15 m c := by
  show StableHlo.after hostOps4_2 (V14 m (outs m) c) = _
  rw [V14_eq]; rfl
theorem V16_eq (c : Dev nD) : V16 m (outs m) c = VV16 m c := by
  show StableHlo.after hostOps4_3 (V15 m (outs m) c) = _
  rw [V15_eq]; rfl
theorem V17_eq (c : Dev nD) : V17 m (outs m) c = VV17 m c := by
  show StableHlo.after hostOps4_4 (V16 m (outs m) c) = _
  rw [V16_eq]; rfl
theorem V18_eq (c : Dev nD) : V18 m (outs m) c = VV18 m c := by
  show Function.update (V17 m (outs m) c) main_v35 (outs m 18 main_v35 c) = _
  rw [outs_18, V17_eq]; unfold VV18; exact upd1_fix (VV17 m c) _ _
theorem V19_eq (c : Dev nD) : V19 m (outs m) c = VV19 m c := by
  show StableHlo.after hostOps5 (V18 m (outs m) c) = _
  rw [V18_eq]; rfl
theorem V20_eq (c : Dev nD) : V20 m (outs m) c = VV20 m c := by
  show Function.update (V19 m (outs m) c) main_v38 (outs m 20 main_v38 c) = _
  rw [outs_20, V19_eq]; unfold VV20; exact upd1_fix (VV19 m c) _ _
theorem V21_eq (c : Dev nD) : V21 m (outs m) c = VV21 m c := by
  show StableHlo.after hostOps6 (V20 m (outs m) c) = _
  rw [V20_eq]; rfl
theorem V22_eq (c : Dev nD) : V22 m (outs m) c = VV22 m c := by
  show Function.update (V21 m (outs m) c) main_v41 (outs m 22 main_v41 c) = _
  rw [outs_22, V21_eq]; unfold VV22; exact upd1_fix (VV21 m c) _ _
theorem V23_eq (c : Dev nD) : V23 m (outs m) c = VV23 m c := by
  show StableHlo.after hostOps7 (V22 m (outs m) c) = _
  rw [V22_eq]; rfl
theorem V24_eq (c : Dev nD) : V24 m (outs m) c = VV24 m c := by
  show Function.update (V23 m (outs m) c) main_v44 (outs m 24 main_v44 c) = _
  rw [outs_24, V23_eq]; unfold VV24; exact upd1_fix (VV23 m c) _ _
theorem V25_eq (c : Dev nD) : V25 m (outs m) c = VV25 m c := by
  show StableHlo.after hostOps8 (V24 m (outs m) c) = _
  rw [V24_eq]; rfl
theorem V26_eq (c : Dev nD) : V26 m (outs m) c = VV26 m c := by
  show StableHlo.after hostOps8_1 (V25 m (outs m) c) = _
  rw [V25_eq]; rfl
theorem V27_eq (c : Dev nD) : V27 m (outs m) c = VV27 m c := by
  show StableHlo.after hostOps8_2 (V26 m (outs m) c) = _
  rw [V26_eq]; rfl
theorem V28_eq (c : Dev nD) : V28 m (outs m) c = VV28 m c := by
  show StableHlo.after hostOps8_3 (V27 m (outs m) c) = _
  rw [V27_eq]; rfl
theorem V29_eq (c : Dev nD) : V29 m (outs m) c = VV29 m c := by
  show StableHlo.after hostOps8_4 (V28 m (outs m) c) = _
  rw [V28_eq]; rfl
theorem V30_eq (c : Dev nD) : V30 m (outs m) c = VV30 m c := by
  show Function.update (V29 m (outs m) c) main_v61 (outs m 30 main_v61 c) = _
  rw [outs_30, V29_eq]; unfold VV30; exact upd1_fix (VV29 m c) _ _
theorem V31_eq (c : Dev nD) : V31 m (outs m) c = VV31 m c := by
  show StableHlo.after hostOps9 (V30 m (outs m) c) = _
  rw [V30_eq]; rfl
theorem V32_eq (c : Dev nD) : V32 m (outs m) c = VV32 m c := by
  show Function.update (V31 m (outs m) c) main_v64 (outs m 32 main_v64 c) = _
  rw [outs_32, V31_eq]; unfold VV32; exact upd1_fix (VV31 m c) _ _
theorem V33_eq (c : Dev nD) : V33 m (outs m) c = VV33 m c := by
  show StableHlo.after hostOps10 (V32 m (outs m) c) = _
  rw [V32_eq]; rfl
theorem V34_eq (c : Dev nD) : V34 m (outs m) c = VV34 m c := by
  show Function.update (V33 m (outs m) c) main_v67 (outs m 34 main_v67 c) = _
  rw [outs_34, V33_eq]; unfold VV34; exact upd1_fix (VV33 m c) _ _
theorem V35_eq (c : Dev nD) : V35 m (outs m) c = VV35 m c := by
  show StableHlo.after hostOps11 (V34 m (outs m) c) = _
  rw [V34_eq]; rfl
theorem V36_eq (c : Dev nD) : V36 m (outs m) c = VV36 m c := by
  show Function.update (V35 m (outs m) c) main_v70 (outs m 36 main_v70 c) = _
  rw [outs_36, V35_eq]; unfold VV36; exact upd1_fix (VV35 m c) _ _
theorem V37_eq (c : Dev nD) : V37 m (outs m) c = VV37 m c := by
  show StableHlo.after hostOps12 (V36 m (outs m) c) = _
  rw [V36_eq]; rfl
theorem V38_eq (c : Dev nD) : V38 m (outs m) c = VV38 m c := by
  show StableHlo.after hostOps12_1 (V37 m (outs m) c) = _
  rw [V37_eq]; rfl
theorem V39_eq (c : Dev nD) : V39 m (outs m) c = VV39 m c := by
  show StableHlo.after hostOps12_2 (V38 m (outs m) c) = _
  rw [V38_eq]; rfl
theorem V40_eq (c : Dev nD) : V40 m (outs m) c = VV40 m c := by
  show StableHlo.after hostOps12_3 (V39 m (outs m) c) = _
  rw [V39_eq]; rfl
theorem V41_eq (c : Dev nD) : V41 m (outs m) c = VV41 m c := by
  show StableHlo.after hostOps12_4 (V40 m (outs m) c) = _
  rw [V40_eq]; rfl
theorem V42_eq (c : Dev nD) : V42 m (outs m) c = VV42 m c := by
  show Function.update (V41 m (outs m) c) main_v87 (outs m 42 main_v87 c) = _
  rw [outs_42, V41_eq]; unfold VV42; exact upd1_fix (VV41 m c) _ _
theorem V43_eq (c : Dev nD) : V43 m (outs m) c = VV43 m c := by
  show StableHlo.after hostOps13 (V42 m (outs m) c) = _
  rw [V42_eq]; rfl
theorem V44_eq (c : Dev nD) : V44 m (outs m) c = VV44 m c := by
  show Function.update (V43 m (outs m) c) main_v90 (outs m 44 main_v90 c) = _
  rw [outs_44, V43_eq]; unfold VV44; exact upd1_fix (VV43 m c) _ _
theorem V45_eq (c : Dev nD) : V45 m (outs m) c = VV45 m c := by
  show StableHlo.after hostOps14 (V44 m (outs m) c) = _
  rw [V44_eq]; rfl
theorem V46_eq (c : Dev nD) : V46 m (outs m) c = VV46 m c := by
  show Function.update (V45 m (outs m) c) main_v93 (outs m 46 main_v93 c) = _
  rw [outs_46, V45_eq]; unfold VV46; exact upd1_fix (VV45 m c) _ _
theorem V47_eq (c : Dev nD) : V47 m (outs m) c = VV47 m c := by
  show StableHlo.after hostOps15 (V46 m (outs m) c) = _
  rw [V46_eq]; rfl
theorem V48_eq (c : Dev nD) : V48 m (outs m) c = VV48 m c := by
  show Function.update (V47 m (outs m) c) main_v96 (outs m 48 main_v96 c) = _
  rw [outs_48, V47_eq]; unfold VV48; exact upd1_fix (VV47 m c) _ _
theorem V49_eq (c : Dev nD) : V49 m (outs m) c = VV49 m c := by
  show StableHlo.after hostOps16 (V48 m (outs m) c) = _
  rw [V48_eq]; rfl
theorem V50_eq (c : Dev nD) : V50 m (outs m) c = VV50 m c := by
  show Function.update (V49 m (outs m) c) main_v109 (outs m 50 main_v109 c) = _
  rw [outs_50, V49_eq]; unfold VV50; exact upd1_fix (VV49 m c) _ _
theorem V51_eq (c : Dev nD) : V51 m (outs m) c = VV51 m c := by
  show StableHlo.after hostOps17 (V50 m (outs m) c) = _
  rw [V50_eq]; rfl
theorem V52_eq (c : Dev nD) : V52 m (outs m) c = VV52 m c := by
  show StableHlo.after hostOps17_1 (V51 m (outs m) c) = _
  rw [V51_eq]; rfl
theorem V53_eq (c : Dev nD) : V53 m (outs m) c = VV53 m c := by
  show StableHlo.after hostOps17_2 (V52 m (outs m) c) = _
  rw [V52_eq]; rfl
theorem V54_eq (c : Dev nD) : V54 m (outs m) c = VV54 m c := by
  show StableHlo.after hostOps17_3 (V53 m (outs m) c) = _
  rw [V53_eq]; rfl
theorem V55_eq (c : Dev nD) : V55 m (outs m) c = VV55 m c := by
  show StableHlo.after hostOps17_4 (V54 m (outs m) c) = _
  rw [V54_eq]; rfl
theorem V56_eq (c : Dev nD) : V56 m (outs m) c = VV56 m c := by
  show Function.update (Function.update (V55 m (outs m) c) main_v119 (outs m 56 main_v119 c)) main_v109 (outs m 56 main_v109 c) = _
  rw [outs_56, outs_56, V55_eq]; unfold VV56; exact upd2_fix (VV55 m c) _ _ _
theorem V57_eq (c : Dev nD) : V57 m (outs m) c = VV57 m c := by
  show StableHlo.after hostOps18 (V56 m (outs m) c) = _
  rw [V56_eq]; rfl
theorem V58_eq (c : Dev nD) : V58 m (outs m) c = VV58 m c := by
  show Function.update (Function.update (V57 m (outs m) c) main_v122 (outs m 58 main_v122 c)) main_v109 (outs m 58 main_v109 c) = _
  rw [outs_58, outs_58, V57_eq]; unfold VV58; exact upd2_fix (VV57 m c) _ _ _
theorem V59_eq (c : Dev nD) : V59 m (outs m) c = VV59 m c := by
  show StableHlo.after hostOps19 (V58 m (outs m) c) = _
  rw [V58_eq]; rfl
theorem V60_eq (c : Dev nD) : V60 m (outs m) c = VV60 m c := by
  show Function.update (Function.update (V59 m (outs m) c) main_v125 (outs m 60 main_v125 c)) main_v109 (outs m 60 main_v109 c) = _
  rw [outs_60, outs_60, V59_eq]; unfold VV60; exact upd2_fix (VV59 m c) _ _ _
theorem V61_eq (c : Dev nD) : V61 m (outs m) c = VV61 m c := by
  show StableHlo.after hostOps20 (V60 m (outs m) c) = _
  rw [V60_eq]; rfl
theorem V62_eq (c : Dev nD) : V62 m (outs m) c = VV62 m c := by
  show Function.update (Function.update (V61 m (outs m) c) main_v128 (outs m 62 main_v128 c)) main_v109 (outs m 62 main_v109 c) = _
  rw [outs_62, outs_62, V61_eq]; unfold VV62; exact upd2_fix (VV61 m c) _ _ _
theorem V63_eq (c : Dev nD) : V63 m (outs m) c = VV63 m c := by
  show StableHlo.after hostOps21 (V62 m (outs m) c) = _
  rw [V62_eq]; rfl
theorem V64_eq (c : Dev nD) : V64 m (outs m) c = VV64 m c := by
  show StableHlo.after hostOps21_1 (V63 m (outs m) c) = _
  rw [V63_eq]; rfl
theorem V65_eq (c : Dev nD) : V65 m (outs m) c = VV65 m c := by
  show StableHlo.after hostOps21_2 (V64 m (outs m) c) = _
  rw [V64_eq]; rfl
theorem V66_eq (c : Dev nD) : V66 m (outs m) c = VV66 m c := by
  show StableHlo.after hostOps21_3 (V65 m (outs m) c) = _
  rw [V65_eq]; rfl
theorem V67_eq (c : Dev nD) : V67 m (outs m) c = VV67 m c := by
  show StableHlo.after hostOps21_4 (V66 m (outs m) c) = _
  rw [V66_eq]; rfl
theorem V68_eq (c : Dev nD) : V68 m (outs m) c = VV68 m c := by
  show Function.update (Function.update (V67 m (outs m) c) main_v145 (outs m 68 main_v145 c)) main_v109 (outs m 68 main_v109 c) = _
  rw [outs_68, outs_68, V67_eq]; unfold VV68; exact upd2_fix (VV67 m c) _ _ _
theorem V69_eq (c : Dev nD) : V69 m (outs m) c = VV69 m c := by
  show StableHlo.after hostOps22 (V68 m (outs m) c) = _
  rw [V68_eq]; rfl
theorem V70_eq (c : Dev nD) : V70 m (outs m) c = VV70 m c := by
  show Function.update (Function.update (V69 m (outs m) c) main_v148 (outs m 70 main_v148 c)) main_v109 (outs m 70 main_v109 c) = _
  rw [outs_70, outs_70, V69_eq]; unfold VV70; exact upd2_fix (VV69 m c) _ _ _
theorem V71_eq (c : Dev nD) : V71 m (outs m) c = VV71 m c := by
  show StableHlo.after hostOps23 (V70 m (outs m) c) = _
  rw [V70_eq]; rfl
theorem V72_eq (c : Dev nD) : V72 m (outs m) c = VV72 m c := by
  show Function.update (Function.update (V71 m (outs m) c) main_v151 (outs m 72 main_v151 c)) main_v109 (outs m 72 main_v109 c) = _
  rw [outs_72, outs_72, V71_eq]; unfold VV72; exact upd2_fix (VV71 m c) _ _ _
theorem V73_eq (c : Dev nD) : V73 m (outs m) c = VV73 m c := by
  show StableHlo.after hostOps24 (V72 m (outs m) c) = _
  rw [V72_eq]; rfl
theorem V74_eq (c : Dev nD) : V74 m (outs m) c = VV74 m c := by
  show Function.update (Function.update (V73 m (outs m) c) main_v154 (outs m 74 main_v154 c)) main_v109 (outs m 74 main_v109 c) = _
  rw [outs_74, outs_74, V73_eq]; unfold VV74; exact upd2_fix (VV73 m c) _ _ _
theorem V75_eq (c : Dev nD) : V75 m (outs m) c = VV75 m c := by
  show StableHlo.after hostOps25 (V74 m (outs m) c) = _
  rw [V74_eq]; rfl
theorem V76_eq (c : Dev nD) : V76 m (outs m) c = VV76 m c := by
  show StableHlo.after hostOps25_1 (V75 m (outs m) c) = _
  rw [V75_eq]; rfl
theorem V77_eq (c : Dev nD) : V77 m (outs m) c = VV77 m c := by
  show StableHlo.after hostOps25_2 (V76 m (outs m) c) = _
  rw [V76_eq]; rfl
theorem V78_eq (c : Dev nD) : V78 m (outs m) c = VV78 m c := by
  show StableHlo.after hostOps25_3 (V77 m (outs m) c) = _
  rw [V77_eq]; rfl
theorem V79_eq (c : Dev nD) : V79 m (outs m) c = VV79 m c := by
  show StableHlo.after hostOps25_4 (V78 m (outs m) c) = _
  rw [V78_eq]; rfl
theorem V80_eq (c : Dev nD) : V80 m (outs m) c = VV80 m c := by
  show Function.update (Function.update (V79 m (outs m) c) main_v171 (outs m 80 main_v171 c)) main_v109 (outs m 80 main_v109 c) = _
  rw [outs_80, outs_80, V79_eq]; unfold VV80; exact upd2_fix (VV79 m c) _ _ _
theorem V81_eq (c : Dev nD) : V81 m (outs m) c = VV81 m c := by
  show StableHlo.after hostOps26 (V80 m (outs m) c) = _
  rw [V80_eq]; rfl
theorem V82_eq (c : Dev nD) : V82 m (outs m) c = VV82 m c := by
  show Function.update (Function.update (V81 m (outs m) c) main_v174 (outs m 82 main_v174 c)) main_v109 (outs m 82 main_v109 c) = _
  rw [outs_82, outs_82, V81_eq]; unfold VV82; exact upd2_fix (VV81 m c) _ _ _
theorem V83_eq (c : Dev nD) : V83 m (outs m) c = VV83 m c := by
  show StableHlo.after hostOps27 (V82 m (outs m) c) = _
  rw [V82_eq]; rfl
theorem V84_eq (c : Dev nD) : V84 m (outs m) c = VV84 m c := by
  show Function.update (Function.update (V83 m (outs m) c) main_v177 (outs m 84 main_v177 c)) main_v109 (outs m 84 main_v109 c) = _
  rw [outs_84, outs_84, V83_eq]; unfold VV84; exact upd2_fix (VV83 m c) _ _ _
theorem V85_eq (c : Dev nD) : V85 m (outs m) c = VV85 m c := by
  show StableHlo.after hostOps28 (V84 m (outs m) c) = _
  rw [V84_eq]; rfl
theorem V86_eq (c : Dev nD) : V86 m (outs m) c = VV86 m c := by
  show Function.update (Function.update (V85 m (outs m) c) main_v180 (outs m 86 main_v180 c)) main_v109 (outs m 86 main_v109 c) = _
  rw [outs_86, outs_86, V85_eq]; unfold VV86; exact upd2_fix (VV85 m c) _ _ _
theorem V87_eq (c : Dev nD) : V87 m (outs m) c = VV87 m c := by
  show StableHlo.after hostOps29 (V86 m (outs m) c) = _
  rw [V86_eq]; rfl
theorem V88_eq (c : Dev nD) : V88 m (outs m) c = VV88 m c := by
  show StableHlo.after hostOps29_1 (V87 m (outs m) c) = _
  rw [V87_eq]; rfl
theorem V89_eq (c : Dev nD) : V89 m (outs m) c = VV89 m c := by
  show StableHlo.after hostOps29_2 (V88 m (outs m) c) = _
  rw [V88_eq]; rfl
theorem V90_eq (c : Dev nD) : V90 m (outs m) c = VV90 m c := by
  show StableHlo.after hostOps29_3 (V89 m (outs m) c) = _
  rw [V89_eq]; rfl
theorem V91_eq (c : Dev nD) : V91 m (outs m) c = VV91 m c := by
  show StableHlo.after hostOps29_4 (V90 m (outs m) c) = _
  rw [V90_eq]; rfl
theorem V92_eq (c : Dev nD) : V92 m (outs m) c = VV92 m c := by
  show Function.update (Function.update (V91 m (outs m) c) main_v197 (outs m 92 main_v197 c)) main_v109 (outs m 92 main_v109 c) = _
  rw [outs_92, outs_92, V91_eq]; unfold VV92; exact upd2_fix (VV91 m c) _ _ _
theorem V93_eq (c : Dev nD) : V93 m (outs m) c = VV93 m c := by
  show StableHlo.after hostOps30 (V92 m (outs m) c) = _
  rw [V92_eq]; rfl
theorem V94_eq (c : Dev nD) : V94 m (outs m) c = VV94 m c := by
  show Function.update (Function.update (V93 m (outs m) c) main_v200 (outs m 94 main_v200 c)) main_v109 (outs m 94 main_v109 c) = _
  rw [outs_94, outs_94, V93_eq]; unfold VV94; exact upd2_fix (VV93 m c) _ _ _
theorem V95_eq (c : Dev nD) : V95 m (outs m) c = VV95 m c := by
  show StableHlo.after hostOps31 (V94 m (outs m) c) = _
  rw [V94_eq]; rfl
theorem V96_eq (c : Dev nD) : V96 m (outs m) c = VV96 m c := by
  show Function.update (Function.update (V95 m (outs m) c) main_v203 (outs m 96 main_v203 c)) main_v109 (outs m 96 main_v109 c) = _
  rw [outs_96, outs_96, V95_eq]; unfold VV96; exact upd2_fix (VV95 m c) _ _ _
theorem V97_eq (c : Dev nD) : V97 m (outs m) c = VV97 m c := by
  show StableHlo.after hostOps32 (V96 m (outs m) c) = _
  rw [V96_eq]; rfl
theorem V98_eq (c : Dev nD) : V98 m (outs m) c = VV98 m c := by
  show Function.update (Function.update (V97 m (outs m) c) main_v206 (outs m 98 main_v206 c)) main_v109 (outs m 98 main_v109 c) = _
  rw [outs_98, outs_98, V97_eq]; unfold VV98; exact upd2_fix (VV97 m c) _ _ _
theorem V99_eq (c : Dev nD) : V99 m (outs m) c = VV99 m c := by
  show StableHlo.after hostOps33 (V98 m (outs m) c) = _
  rw [V98_eq]; rfl
theorem V100_eq (c : Dev nD) : V100 m (outs m) c = VV100 m c := by
  show Function.update (V99 m (outs m) c) main_v219 (outs m 100 main_v219 c) = _
  rw [outs_100, V99_eq]; unfold VV100; exact upd1_fix (VV99 m c) _ _

end Cert.KernelIdeal.Hand

end
-- ==== Proof.KI.TablesV.lean ====
/-
  The gather regions' prefetched tables as the host operations leave them: at the valuation each gather region is
  entered from, the region's table buffer holds the table of its relation and chunk (a pure term of the launch
  memory's edge-source array), whatever the regions before it left in their output arrays.

  Per relation and layer the host operations take the relation's row of the edge-source array, reshape it to a vector,
  and pad it with zeros (one stretch and the padding function's stretch after it); later stretches cut the four chunks
  out of the padded vector, one before each of the relation's four gather regions. Between the padding and a chunk's cut
  no item writes the padded vector, and before the row is taken no item writes the edge-source array.
-/
import proofs.«414509_j14181982011419_2_alg».proof.Proof.KI.RegionsP
import proofs.«414509_j14181982011419_2_alg».proof.Proof.KI.Tables

set_option maxRecDepth 2240

noncomputable section

namespace Cert.KernelIdeal.Hand

open Cert.KernelIdeal Cert.KernelIdeal.Gen Cert.KernelIdeal.GenP
open Idealize.ShloMosaic Idealize.ShloMosaic.TcCoe
open Idealize.ShloMosaic.StableHlo
open Idealize.SL.Sem

variable {F : FTy → Type} [FloatOps F]

/-- A row of the edge-source array `x` as a vector, padded with zeros to 524288 words. -/
abbrev padRow (x : (⟨S4x500000, .i32⟩ : BufTy).Contents (Elt F)) (o₁ : Fin 2 → Nat) (h₁ : S4x500000.Slices o₁ S1x500000) :
    (⟨S524288, .i32⟩ : BufTy).Contents (Elt F) :=
  pad S524288 ![0] ![24288] ![0]
    (shapeCast S500000 (extractStridedSlice S1x500000 o₁ x h₁) shapeCasts_S1x500000_S500000)
    (constantI S_ 32 0#32) pads_S500000_S524288_0242880 h_S_

/-- The program runs on one device. -/
theorem dev_eq (c : Dev nD) : c = 0 := Subsingleton.elim _ _

/-! ## Over any contents: what a stretch leaves in the buffer it writes -/

/-- The first two stretches leave relation 0's padded row in `main_v4`. -/
theorem padded_0 (W : Valuation τ sig (Elt F)) :
    StableHlo.after hostOps0_1 (StableHlo.after hostOps0 W) main_v4
      = padRow (W main_arg1 : (⟨S4x500000, .i32⟩ : BufTy).Contents (Elt F)) ![0, 0] slices_S4x500000_S1x500000_0_0 := by
  after_results
  rfl

/-- The stretch before region 0 cuts chunk 0 out of `main_v4` into `main_v7`. -/
theorem slice_0 (W : Valuation τ sig (Elt F)) :
    StableHlo.after hostOps0_4 W main_v7
      = extractStridedSlice S131072 ![0] (W main_v4 : (⟨S524288, .i32⟩ : BufTy).Contents (Elt F)) slices_S524288_S131072_0 := by
  after_results

/-- The stretch before region 1 cuts chunk 1 out of `main_v4` into `main_v10`. -/
theorem slice_1 (W : Valuation τ sig (Elt F)) :
    StableHlo.after hostOps1 W main_v10
      = extractStridedSlice S131072 ![131072] (W main_v4 : (⟨S524288, .i32⟩ : BufTy).Contents (Elt F)) slices_S524288_S131072_131072 := by
  after_results

variable (m : (ℓ : Loc nD τ sig) → Buf (Elt F) ℓ) (outs : Outs (F := F))

/-- At launch the edge-source array is the launch memory's. -/
theorem arg1_0 (c : Dev nD) : V0 m c main_arg1 = src m := by
  rw [dev_eq c]

/-- After the padding function's stretch `main_v4` holds relation 0's padded row. -/
theorem padded0 (c : Dev nD) : V2 m c main_v4 = padRow (src m) ![0, 0] slices_S4x500000_S1x500000_0_0 :=
  (padded_0 (V0 m c)).trans (by rw [arg1_0 m c])

/-- Region 0 is entered with `main_v7` holding the table of relation 0, chunk 0. -/
theorem tbl_0 (c : Dev nD) : V5 m c main_v7 = tbl m 0 0 :=
  (slice_0 (V4 m c)).trans (by
    rw [(V4_of m c main_v4 (by decide)).trans (V3_of m c main_v4 (by decide)), padded0 m c]
    rfl)

/-- Region 1 is entered with `main_v10` holding the table of relation 0, chunk 1. -/
theorem tbl_1 (c : Dev nD) : V7 m outs c main_v10 = tbl m 0 1 :=
  (slice_1 (V6 m outs c)).trans (by
    rw [(V6_of m outs c main_v4 (by decide)).trans <| (V5_of m c main_v4 (by decide)).trans <|
      (V4_of m c main_v4 (by decide)).trans (V3_of m c main_v4 (by decide)), padded0 m c]
    rfl)

end Cert.KernelIdeal.Hand

end
-- ==== Proof.KI.TablesVRest.lean ====
/-
  The other thirty gather regions' prefetched tables as the host operations leave them: at the valuation each region is
  entered from, its table buffer holds the table of its relation and chunk. Per relation and layer: the padded row over
  any contents, the edge-source array unchanged up to the stretch that takes the row, the padded row at its valuation;
  per region: the chunk's cut over any contents, and the padded row unchanged between its padding and that cut.
-/
import proofs.«414509_j14181982011419_2_alg».proof.Proof.KI.TablesV

set_option maxRecDepth 2240

noncomputable section

namespace Cert.KernelIdeal.Hand

open Cert.KernelIdeal Cert.KernelIdeal.Gen Cert.KernelIdeal.GenP
open Idealize.ShloMosaic Idealize.ShloMosaic.TcCoe
open Idealize.ShloMosaic.StableHlo
open Idealize.SL.Sem

variable {F : FTy → Type} [FloatOps F]

/-! ## Over any contents: what a stretch leaves in the buffer it writes -/

/-- Two stretches leave relation 1's padded row in `main_v30`. -/
theorem padded_4 (W : Valuation τ sig (Elt F)) :
    StableHlo.after hostOps4_1 (StableHlo.after hostOps4 W) main_v30
      = padRow (W main_arg1 : (⟨S4x500000, .i32⟩ : BufTy).Contents (Elt F)) ![1, 0] slices_S4x500000_S1x500000_1_0 := by
  after_results
  rfl

/-- Two stretches leave relation 2's padded row in `main_v56`. -/
theorem padded_8 (W : Valuation τ sig (Elt F)) :
    StableHlo.after hostOps8_1 (StableHlo.after hostOps8 W) main_v56
      = padRow (W main_arg1 : (⟨S4x500000, .i32⟩ : BufTy).Contents (Elt F)) ![2, 0] slices_S4x500000_S1x500000_2_0 := by
  after_results
  rfl

/-- Two stretches leave relation 3's padded row in `main_v82`. -/
theorem padded_12 (W : Valuation τ sig (Elt F)) :
    StableHlo.after hostOps12_1 (StableHlo.after hostOps12 W) main_v82
      = padRow (W main_arg1 : (⟨S4x500000, .i32⟩ : BufTy).Contents (Elt F)) ![3, 0] slices_S4x500000_S1x500000_3_0 := by
  after_results
  rfl

/-- Two stretches leave relation 0's padded row in `main_v114`. -/
theorem padded_17 (W : Valuation τ sig (Elt F)) :
    StableHlo.after hostOps17_1 (StableHlo.after hostOps17 W) main_v114
      = padRow (W main_arg1 : (⟨S4x500000, .i32⟩ : BufTy).Contents (Elt F)) ![0, 0] slices_S4x500000_S1x500000_0_0 := by
  after_results
  rfl

/-- Two stretches leave relation 1's padded row in `main_v140`. -/
theorem padded_21 (W : Valuation τ sig (Elt F)) :
    StableHlo.after hostOps21_1 (StableHlo.after hostOps21 W) main_v140
      = padRow (W main_arg1 : (⟨S4x500000, .i32⟩ : BufTy).Contents (Elt F)) ![1, 0] slices_S4x500000_S1x500000_1_0 := by
  after_results
  rfl

/-- Two stretches leave relation 2's padded row in `main_v166`. -/
theorem padded_25 (W : Valuation τ sig (Elt F)) :
    StableHlo.after hostOps25_1 (StableHlo.after hostOps25 W) main_v166
      = padRow (W main_arg1 : (⟨S4x500000, .i32⟩ : BufTy).Contents (Elt F)) ![2, 0] slices_S4x500000_S1x500000_2_0 := by
  after_results
  rfl

/-- Two stretches leave relation 3's padded row in `main_v192`. -/
theorem padded_29 (W : Valuation τ sig (Elt F)) :
    StableHlo.after hostOps29_1 (StableHlo.after hostOps29 W) main_v192
      = padRow (W main_arg1 : (⟨S4x500000, .i32⟩ : BufTy).Contents (Elt F)) ![3, 0] slices_S4x500000_S1x500000_3_0 := by
  after_results
  rfl

/-- The stretch before region 2 cuts chunk 2 out of `main_v4` into `main_v13`. -/
theorem slice_2 (W : Valuation τ sig (Elt F)) :
    StableHlo.after hostOps2 W main_v13
      = extractStridedSlice S131072 ![262144] (W main_v4 : (⟨S524288, .i32⟩ : BufTy).Contents (Elt F)) slices_S524288_S131072_262144 := by
  after_results

/-- The stretch before region 3 cuts chunk 3 out of `main_v4` into `main_v16`. -/
theorem slice_3 (W : Valuation τ sig (Elt F)) :
    StableHlo.after hostOps3 W main_v16
      = extractStridedSlice S131072 ![393216] (W main_v4 : (⟨S524288, .i32⟩ : BufTy).Contents (Elt F)) slices_S524288_S131072_393216 := by
  after_results

/-- The stretch before region 4 cuts chunk 0 out of `main_v30` into `main_v33`. -/
theorem slice_4 (W : Valuation τ sig (Elt F)) :
    StableHlo.after hostOps4_4 W main_v33
      = extractStridedSlice S131072 ![0] (W main_v30 : (⟨S524288, .i32⟩ : BufTy).Contents (Elt F)) slices_S524288_S131072_0 := by
  after_results

/-- The stretch before region 5 cuts chunk 1 out of `main_v30` into `main_v36`. -/
theorem slice_5 (W : Valuation τ sig (Elt F)) :
    StableHlo.after hostOps5 W main_v36
      = extractStridedSlice S131072 ![131072] (W main_v30 : (⟨S524288, .i32⟩ : BufTy).Contents (Elt F)) slices_S524288_S131072_131072 := by
  after_results

/-- The stretch before region 6 cuts chunk 2 out of `main_v30` into `main_v39`. -/
theorem slice_6 (W : Valuation τ sig (Elt F)) :
    StableHlo.after hostOps6 W main_v39
      = extractStridedSlice S131072 ![262144] (W main_v30 : (⟨S524288, .i32⟩ : BufTy).Contents (Elt F)) slices_S524288_S131072_262144 := by
  after_results

/-- The stretch before region 7 cuts chunk 3 out of `main_v30` into `main_v42`. -/
theorem slice_7 (W : Valuation τ sig (Elt F)) :
    StableHlo.after hostOps7 W main_v42
      = extractStridedSlice S131072 ![393216] (W main_v30 : (⟨S524288, .i32⟩ : BufTy).Contents (Elt F)) slices_S524288_S131072_393216 := by
  after_results

/-- The stretch before region 8 cuts chunk 0 out of `main_v56` into `main_v59`. -/
theorem slice_8 (W : Valuation τ sig (Elt F)) :
    StableHlo.after hostOps8_4 W main_v59
      = extractStridedSlice S131072 ![0] (W main_v56 : (⟨S524288, .i32⟩ : BufTy).Contents (Elt F)) slices_S524288_S131072_0 := by
  after_results

/-- The stretch before region 9 cuts chunk 1 out of `main_v56` into `main_v62`. -/
theorem slice_9 (W : Valuation τ sig (Elt F)) :
    StableHlo.after hostOps9 W main_v62
      = extractStridedSlice S131072 ![131072] (W main_v56 : (⟨S524288, .i32⟩ : BufTy).Contents (Elt F)) slices_S524288_S131072_131072 := by
  after_results

/-- The stretch before region 10 cuts chunk 2 out of `main_v56` into `main_v65`. -/
theorem slice_10 (W : Valuation τ sig (Elt F)) :
    StableHlo.after hostOps10 W main_v65
      = extractStridedSlice S131072 ![262144] (W main_v56 : (⟨S524288, .i32⟩ : BufTy).Contents (Elt F)) slices_S524288_S131072_262144 := by
  after_results

/-- The stretch before region 11 cuts chunk 3 out of `main_v56` into `main_v68`. -/
theorem slice_11 (W : Valuation τ sig (Elt F)) :
    StableHlo.after hostOps11 W main_v68
      = extractStridedSlice S131072 ![393216] (W main_v56 : (⟨S524288, .i32⟩ : BufTy).Contents (Elt F)) slices_S524288_S131072_393216 := by
  after_results

/-- The stretch before region 12 cuts chunk 0 out of `main_v82` into `main_v85`. -/
theorem slice_12 (W : Valuation τ sig (Elt F)) :
    StableHlo.after hostOps12_4 W main_v85
      = extractStridedSlice S131072 ![0] (W main_v82 : (⟨S524288, .i32⟩ : BufTy).Contents (Elt F)) slices_S524288_S131072_0 := by
  after_results

/-- The stretch before region 13 cuts chunk 1 out of `main_v82` into `main_v88`. -/
theorem slice_13 (W : Valuation τ sig (Elt F)) :
    StableHlo.after hostOps13 W main_v88
      = extractStridedSlice S131072 ![131072] (W main_v82 : (⟨S524288, .i32⟩ : BufTy).Contents (Elt F)) slices_S524288_S131072_131072 := by
  after_results

/-- The stretch before region 14 cuts chunk 2 out of `main_v82` into `main_v91`. -/
theorem slice_14 (W : Valuation τ sig (Elt F)) :
    StableHlo.after hostOps14 W main_v91
      = extractStridedSlice S131072 ![262144] (W main_v82 : (⟨S524288, .i32⟩ : BufTy).Contents (Elt F)) slices_S524288_S131072_262144 := by
  after_results

/-- The stretch before region 15 cuts chunk 3 out of `main_v82` into `main_v94`. -/
theorem slice_15 (W : Valuation τ sig (Elt F)) :
    StableHlo.after hostOps15 W main_v94
      = extractStridedSlice S131072 ![393216] (W main_v82 : (⟨S524288, .i32⟩ : BufTy).Contents (Elt F)) slices_S524288_S131072_393216 := by
  after_results

/-- The stretch before region 17 cuts chunk 0 out of `main_v114` into `main_v117`. -/
theorem slice_17 (W : Valuation τ sig (Elt F)) :
    StableHlo.after hostOps17_4 W main_v117
      = extractStridedSlice S131072 ![0] (W main_v114 : (⟨S524288, .i32⟩ : BufTy).Contents (Elt F)) slices_S524288_S131072_0 := by
  after_results

/-- The stretch before region 18 cuts chunk 1 out of `main_v114` into `main_v120`. -/
theorem slice_18 (W : Valuation τ sig (Elt F)) :
    StableHlo.after hostOps18 W main_v120
      = extractStridedSlice S131072 ![131072] (W main_v114 : (⟨S524288, .i32⟩ : BufTy).Contents (Elt F)) slices_S524288_S131072_131072 := by
  after_results

/-- The stretch before region 19 cuts chunk 2 out of `main_v114` into `main_v123`. -/
theorem slice_19 (W : Valuation τ sig (Elt F)) :
    StableHlo.after hostOps19 W main_v123
      = extractStridedSlice S131072 ![262144] (W main_v114 : (⟨S524288, .i32⟩ : BufTy).Contents (Elt F)) slices_S524288_S131072_262144 := by
  after_results

/-- The stretch before region 20 cuts chunk 3 out of `main_v114` into `main_v126`. -/
theorem slice_20 (W : Valuation τ sig (Elt F)) :
    StableHlo.after hostOps20 W main_v126
      = extractStridedSlice S131072 ![393216] (W main_v114 : (⟨S524288, .i32⟩ : BufTy).Contents (Elt F)) slices_S524288_S131072_393216 := by
  after_results

/-- The stretch before region 21 cuts chunk 0 out of `main_v140` into `main_v143`. -/
theorem slice_21 (W : Valuation τ sig (Elt F)) :
    StableHlo.after hostOps21_4 W main_v143
      = extractStridedSlice S131072 ![0] (W main_v140 : (⟨S524288, .i32⟩ : BufTy).Contents (Elt F)) slices_S524288_S131072_0 := by
  after_results

/-- The stretch before region 22 cuts chunk 1 out of `main_v140` into `main_v146`. -/
theorem slice_22 (W : Valuation τ sig (Elt F)) :
    StableHlo.after hostOps22 W main_v146
      = extractStridedSlice S131072 ![131072] (W main_v140 : (⟨S524288, .i32⟩ : BufTy).Contents (Elt F)) slices_S524288_S131072_131072 := by
  after_results

/-- The stretch before region 23 cuts chunk 2 out of `main_v140` into `main_v149`. -/
theorem slice_23 (W : Valuation τ sig (Elt F)) :
    StableHlo.after hostOps23 W main_v149
      = extractStridedSlice S131072 ![262144] (W main_v140 : (⟨S524288, .i32⟩ : BufTy).Contents (Elt F)) slices_S524288_S131072_262144 := by
  after_results

/-- The stretch before region 24 cuts chunk 3 out of `main_v140` into `main_v152`. -/
theorem slice_24 (W : Valuation τ sig (Elt F)) :
    StableHlo.after hostOps24 W main_v152
      = extractStridedSlice S131072 ![393216] (W main_v140 : (⟨S524288, .i32⟩ : BufTy).Contents (Elt F)) slices_S524288_S131072_393216 := by
  after_results

/-- The stretch before region 25 cuts chunk 0 out of `main_v166` into `main_v169`. -/
theorem slice_25 (W : Valuation τ sig (Elt F)) :
    StableHlo.after hostOps25_4 W main_v169
      = extractStridedSlice S131072 ![0] (W main_v166 : (⟨S524288, .i32⟩ : BufTy).Contents (Elt F)) slices_S524288_S131072_0 := by
  after_results

/-- The stretch before region 26 cuts chunk 1 out of `main_v166` into `main_v172`. -/
theorem slice_26 (W : Valuation τ sig (Elt F)) :
    StableHlo.after hostOps26 W main_v172
      = extractStridedSlice S131072 ![131072] (W main_v166 : (⟨S524288, .i32⟩ : BufTy).Contents (Elt F)) slices_S524288_S131072_131072 := by
  after_results

/-- The stretch before region 27 cuts chunk 2 out of `main_v166` into `main_v175`. -/
theorem slice_27 (W : Valuation τ sig (Elt F)) :
    StableHlo.after hostOps27 W main_v175
      = extractStridedSlice S131072 ![262144] (W main_v166 : (⟨S524288, .i32⟩ : BufTy).Contents (Elt F)) slices_S524288_S131072_262144 := by
  after_results

/-- The stretch before region 28 cuts chunk 3 out of `main_v166` into `main_v178`. -/
theorem slice_28 (W : Valuation τ sig (Elt F)) :
    StableHlo.after hostOps28 W main_v178
      = extractStridedSlice S131072 ![393216] (W main_v166 : (⟨S524288, .i32⟩ : BufTy).Contents (Elt F)) slices_S524288_S131072_393216 := by
  after_results

/-- The stretch before region 29 cuts chunk 0 out of `main_v192` into `main_v195`. -/
theorem slice_29 (W : Valuation τ sig (Elt F)) :
    StableHlo.after hostOps29_4 W main_v195
      = extractStridedSlice S131072 ![0] (W main_v192 : (⟨S524288, .i32⟩ : BufTy).Contents (Elt F)) slices_S524288_S131072_0 := by
  after_results

/-- The stretch before region 30 cuts chunk 1 out of `main_v192` into `main_v198`. -/
theorem slice_30 (W : Valuation τ sig (Elt F)) :
    StableHlo.after hostOps30 W main_v198
      = extractStridedSlice S131072 ![131072] (W main_v192 : (⟨S524288, .i32⟩ : BufTy).Contents (Elt F)) slices_S524288_S131072_131072 := by
  after_results

/-- The stretch before region 31 cuts chunk 2 out of `main_v192` into `main_v201`. -/
theorem slice_31 (W : Valuation τ sig (Elt F)) :
    StableHlo.after hostOps31 W main_v201
      = extractStridedSlice S131072 ![262144] (W main_v192 : (⟨S524288, .i32⟩ : BufTy).Contents (Elt F)) slices_S524288_S131072_262144 := by
  after_results

/-- The stretch before region 32 cuts chunk 3 out of `main_v192` into `main_v204`. -/
theorem slice_32 (W : Valuation τ sig (Elt F)) :
    StableHlo.after hostOps32 W main_v204
      = extractStridedSlice S131072 ![393216] (W main_v192 : (⟨S524288, .i32⟩ : BufTy).Contents (Elt F)) slices_S524288_S131072_393216 := by
  after_results

variable (m : (ℓ : Loc nD τ sig) → Buf (Elt F) ℓ) (outs : Outs (F := F))

/-! ## The edge-source array is the launch memory's at every valuation up to the last stretch that takes a row -/

theorem arg1_1 (c : Dev nD) : V1 m c main_arg1 = src m := (V1_of m c main_arg1 (by decide)).trans (arg1_0 m c)
theorem arg1_2 (c : Dev nD) : V2 m c main_arg1 = src m := (V2_of m c main_arg1 (by decide)).trans (arg1_1 m c)
theorem arg1_3 (c : Dev nD) : V3 m c main_arg1 = src m := (V3_of m c main_arg1 (by decide)).trans (arg1_2 m c)
theorem arg1_4 (c : Dev nD) : V4 m c main_arg1 = src m := (V4_of m c main_arg1 (by decide)).trans (arg1_3 m c)
theorem arg1_5 (c : Dev nD) : V5 m c main_arg1 = src m := (V5_of m c main_arg1 (by decide)).trans (arg1_4 m c)
theorem arg1_6 (c : Dev nD) : V6 m outs c main_arg1 = src m := (V6_of m outs c main_arg1 (by decide)).trans (arg1_5 m c)
theorem arg1_7 (c : Dev nD) : V7 m outs c main_arg1 = src m := (V7_of m outs c main_arg1 (by decide)).trans (arg1_6 m outs c)
theorem arg1_8 (c : Dev nD) : V8 m outs c main_arg1 = src m := (V8_of m outs c main_arg1 (by decide)).trans (arg1_7 m outs c)
theorem arg1_9 (c : Dev nD) : V9 m outs c main_arg1 = src m := (V9_of m outs c main_arg1 (by decide)).trans (arg1_8 m outs c)
theorem arg1_10 (c : Dev nD) : V10 m outs c main_arg1 = src m := (V10_of m outs c main_arg1 (by decide)).trans (arg1_9 m outs c)
theorem arg1_11 (c : Dev nD) : V11 m outs c main_arg1 = src m := (V11_of m outs c main_arg1 (by decide)).trans (arg1_10 m outs c)
theorem arg1_12 (c : Dev nD) : V12 m outs c main_arg1 = src m := (V12_of m outs c main_arg1 (by decide)).trans (arg1_11 m outs c)
theorem arg1_13 (c : Dev nD) : V13 m outs c main_arg1 = src m := (V13_of m outs c main_arg1 (by decide)).trans (arg1_12 m outs c)
theorem arg1_14 (c : Dev nD) : V14 m outs c main_arg1 = src m := (V14_of m outs c main_arg1 (by decide)).trans (arg1_13 m outs c)
theorem arg1_15 (c : Dev nD) : V15 m outs c main_arg1 = src m := (V15_of m outs c main_arg1 (by decide)).trans (arg1_14 m outs c)
theorem arg1_16 (c : Dev nD) : V16 m outs c main_arg1 = src m := (V16_of m outs c main_arg1 (by decide)).trans (arg1_15 m outs c)
theorem arg1_17 (c : Dev nD) : V17 m outs c main_arg1 = src m := (V17_of m outs c main_arg1 (by decide)).trans (arg1_16 m outs c)
theorem arg1_18 (c : Dev nD) : V18 m outs c main_arg1 = src m := (V18_of m outs c main_arg1 (by decide)).trans (arg1_17 m outs c)
theorem arg1_19 (c : Dev nD) : V19 m outs c main_arg1 = src m := (V19_of m outs c main_arg1 (by decide)).trans (arg1_18 m outs c)
theorem arg1_20 (c : Dev nD) : V20 m outs c main_arg1 = src m := (V20_of m outs c main_arg1 (by decide)).trans (arg1_19 m outs c)
theorem arg1_21 (c : Dev nD) : V21 m outs c main_arg1 = src m := (V21_of m outs c main_arg1 (by decide)).trans (arg1_20 m outs c)
theorem arg1_22 (c : Dev nD) : V22 m outs c main_arg1 = src m := (V22_of m outs c main_arg1 (by decide)).trans (arg1_21 m outs c)
theorem arg1_23 (c : Dev nD) : V23 m outs c main_arg1 = src m := (V23_of m outs c main_arg1 (by decide)).trans (arg1_22 m outs c)
theorem arg1_24 (c : Dev nD) : V24 m outs c main_arg1 = src m := (V24_of m outs c main_arg1 (by decide)).trans (arg1_23 m outs c)
theorem arg1_25 (c : Dev nD) : V25 m outs c main_arg1 = src m := (V25_of m outs c main_arg1 (by decide)).trans (arg1_24 m outs c)
theorem arg1_26 (c : Dev nD) : V26 m outs c main_arg1 = src m := (V26_of m outs c main_arg1 (by decide)).trans (arg1_25 m outs c)
theorem arg1_27 (c : Dev nD) : V27 m outs c main_arg1 = src m := (V27_of m outs c main_arg1 (by decide)).trans (arg1_26 m outs c)
theorem arg1_28 (c : Dev nD) : V28 m outs c main_arg1 = src m := (V28_of m outs c main_arg1 (by decide)).trans (arg1_27 m outs c)
theorem arg1_29 (c : Dev nD) : V29 m outs c main_arg1 = src m := (V29_of m outs c main_arg1 (by decide)).trans (arg1_28 m outs c)
theorem arg1_30 (c : Dev nD) : V30 m outs c main_arg1 = src m := (V30_of m outs c main_arg1 (by decide)).trans (arg1_29 m outs c)
theorem arg1_31 (c : Dev nD) : V31 m outs c main_arg1 = src m := (V31_of m outs c main_arg1 (by decide)).trans (arg1_30 m outs c)
theorem arg1_32 (c : Dev nD) : V32 m outs c main_arg1 = src m := (V32_of m outs c main_arg1 (by decide)).trans (arg1_31 m outs c)
theorem arg1_33 (c : Dev nD) : V33 m outs c main_arg1 = src m := (V33_of m outs c main_arg1 (by decide)).trans (arg1_32 m outs c)
theorem arg1_34 (c : Dev nD) : V34 m outs c main_arg1 = src m := (V34_of m outs c main_arg1 (by decide)).trans (arg1_33 m outs c)
theorem arg1_35 (c : Dev nD) : V35 m outs c main_arg1 = src m := (V35_of m outs c main_arg1 (by decide)).trans (arg1_34 m outs c)
theorem arg1_36 (c : Dev nD) : V36 m outs c main_arg1 = src m := (V36_of m outs c main_arg1 (by decide)).trans (arg1_35 m outs c)
theorem arg1_37 (c : Dev nD) : V37 m outs c main_arg1 = src m := (V37_of m outs c main_arg1 (by decide)).trans (arg1_36 m outs c)
theorem arg1_38 (c : Dev nD) : V38 m outs c main_arg1 = src m := (V38_of m outs c main_arg1 (by decide)).trans (arg1_37 m outs c)
theorem arg1_39 (c : Dev nD) : V39 m outs c main_arg1 = src m := (V39_of m outs c main_arg1 (by decide)).trans (arg1_38 m outs c)
theorem arg1_40 (c : Dev nD) : V40 m outs c main_arg1 = src m := (V40_of m outs c main_arg1 (by decide)).trans (arg1_39 m outs c)
theorem arg1_41 (c : Dev nD) : V41 m outs c main_arg1 = src m := (V41_of m outs c main_arg1 (by decide)).trans (arg1_40 m outs c)
theorem arg1_42 (c : Dev nD) : V42 m outs c main_arg1 = src m := (V42_of m outs c main_arg1 (by decide)).trans (arg1_41 m outs c)
theorem arg1_43 (c : Dev nD) : V43 m outs c main_arg1 = src m := (V43_of m outs c main_arg1 (by decide)).trans (arg1_42 m outs c)
theorem arg1_44 (c : Dev nD) : V44 m outs c main_arg1 = src m := (V44_of m outs c main_arg1 (by decide)).trans (arg1_43 m outs c)
theorem arg1_45 (c : Dev nD) : V45 m outs c main_arg1 = src m := (V45_of m outs c main_arg1 (by decide)).trans (arg1_44 m outs c)
theorem arg1_46 (c : Dev nD) : V46 m outs c main_arg1 = src m := (V46_of m outs c main_arg1 (by decide)).trans (arg1_45 m outs c)
theorem arg1_47 (c : Dev nD) : V47 m outs c main_arg1 = src m := (V47_of m outs c main_arg1 (by decide)).trans (arg1_46 m outs c)
theorem arg1_48 (c : Dev nD) : V48 m outs c main_arg1 = src m := (V48_of m outs c main_arg1 (by decide)).trans (arg1_47 m outs c)
theorem arg1_49 (c : Dev nD) : V49 m outs c main_arg1 = src m := (V49_of m outs c main_arg1 (by decide)).trans (arg1_48 m outs c)
theorem arg1_50 (c : Dev nD) : V50 m outs c main_arg1 = src m := (V50_of m outs c main_arg1 (by decide)).trans (arg1_49 m outs c)
theorem arg1_51 (c : Dev nD) : V51 m outs c main_arg1 = src m := (V51_of m outs c main_arg1 (by decide)).trans (arg1_50 m outs c)
theorem arg1_52 (c : Dev nD) : V52 m outs c main_arg1 = src m := (V52_of m outs c main_arg1 (by decide)).trans (arg1_51 m outs c)
theorem arg1_53 (c : Dev nD) : V53 m outs c main_arg1 = src m := (V53_of m outs c main_arg1 (by decide)).trans (arg1_52 m outs c)
theorem arg1_54 (c : Dev nD) : V54 m outs c main_arg1 = src m := (V54_of m outs c main_arg1 (by decide)).trans (arg1_53 m outs c)
theorem arg1_55 (c : Dev nD) : V55 m outs c main_arg1 = src m := (V55_of m outs c main_arg1 (by decide)).trans (arg1_54 m outs c)
theorem arg1_56 (c : Dev nD) : V56 m outs c main_arg1 = src m := (V56_of m outs c main_arg1 (by decide)).trans (arg1_55 m outs c)
theorem arg1_57 (c : Dev nD) : V57 m outs c main_arg1 = src m := (V57_of m outs c main_arg1 (by decide)).trans (arg1_56 m outs c)
theorem arg1_58 (c : Dev nD) : V58 m outs c main_arg1 = src m := (V58_of m outs c main_arg1 (by decide)).trans (arg1_57 m outs c)
theorem arg1_59 (c : Dev nD) : V59 m outs c main_arg1 = src m := (V59_of m outs c main_arg1 (by decide)).trans (arg1_58 m outs c)
theorem arg1_60 (c : Dev nD) : V60 m outs c main_arg1 = src m := (V60_of m outs c main_arg1 (by decide)).trans (arg1_59 m outs c)
theorem arg1_61 (c : Dev nD) : V61 m outs c main_arg1 = src m := (V61_of m outs c main_arg1 (by decide)).trans (arg1_60 m outs c)
theorem arg1_62 (c : Dev nD) : V62 m outs c main_arg1 = src m := (V62_of m outs c main_arg1 (by decide)).trans (arg1_61 m outs c)
theorem arg1_63 (c : Dev nD) : V63 m outs c main_arg1 = src m := (V63_of m outs c main_arg1 (by decide)).trans (arg1_62 m outs c)
theorem arg1_64 (c : Dev nD) : V64 m outs c main_arg1 = src m := (V64_of m outs c main_arg1 (by decide)).trans (arg1_63 m outs c)
theorem arg1_65 (c : Dev nD) : V65 m outs c main_arg1 = src m := (V65_of m outs c main_arg1 (by decide)).trans (arg1_64 m outs c)
theorem arg1_66 (c : Dev nD) : V66 m outs c main_arg1 = src m := (V66_of m outs c main_arg1 (by decide)).trans (arg1_65 m outs c)
theorem arg1_67 (c : Dev nD) : V67 m outs c main_arg1 = src m := (V67_of m outs c main_arg1 (by decide)).trans (arg1_66 m outs c)
theorem arg1_68 (c : Dev nD) : V68 m outs c main_arg1 = src m := (V68_of m outs c main_arg1 (by decide)).trans (arg1_67 m outs c)
theorem arg1_69 (c : Dev nD) : V69 m outs c main_arg1 = src m := (V69_of m outs c main_arg1 (by decide)).trans (arg1_68 m outs c)
theorem arg1_70 (c : Dev nD) : V70 m outs c main_arg1 = src m := (V70_of m outs c main_arg1 (by decide)).trans (arg1_69 m outs c)
theorem arg1_71 (c : Dev nD) : V71 m outs c main_arg1 = src m := (V71_of m outs c main_arg1 (by decide)).trans (arg1_70 m outs c)
theorem arg1_72 (c : Dev nD) : V72 m outs c main_arg1 = src m := (V72_of m outs c main_arg1 (by decide)).trans (arg1_71 m outs c)
theorem arg1_73 (c : Dev nD) : V73 m outs c main_arg1 = src m := (V73_of m outs c main_arg1 (by decide)).trans (arg1_72 m outs c)
theorem arg1_74 (c : Dev nD) : V74 m outs c main_arg1 = src m := (V74_of m outs c main_arg1 (by decide)).trans (arg1_73 m outs c)
theorem arg1_75 (c : Dev nD) : V75 m outs c main_arg1 = src m := (V75_of m outs c main_arg1 (by decide)).trans (arg1_74 m outs c)
theorem arg1_76 (c : Dev nD) : V76 m outs c main_arg1 = src m := (V76_of m outs c main_arg1 (by decide)).trans (arg1_75 m outs c)
theorem arg1_77 (c : Dev nD) : V77 m outs c main_arg1 = src m := (V77_of m outs c main_arg1 (by decide)).trans (arg1_76 m outs c)
theorem arg1_78 (c : Dev nD) : V78 m outs c main_arg1 = src m := (V78_of m outs c main_arg1 (by decide)).trans (arg1_77 m outs c)
theorem arg1_79 (c : Dev nD) : V79 m outs c main_arg1 = src m := (V79_of m outs c main_arg1 (by decide)).trans (arg1_78 m outs c)
theorem arg1_80 (c : Dev nD) : V80 m outs c main_arg1 = src m := (V80_of m outs c main_arg1 (by decide)).trans (arg1_79 m outs c)
theorem arg1_81 (c : Dev nD) : V81 m outs c main_arg1 = src m := (V81_of m outs c main_arg1 (by decide)).trans (arg1_80 m outs c)
theorem arg1_82 (c : Dev nD) : V82 m outs c main_arg1 = src m := (V82_of m outs c main_arg1 (by decide)).trans (arg1_81 m outs c)
theorem arg1_83 (c : Dev nD) : V83 m outs c main_arg1 = src m := (V83_of m outs c main_arg1 (by decide)).trans (arg1_82 m outs c)
theorem arg1_84 (c : Dev nD) : V84 m outs c main_arg1 = src m := (V84_of m outs c main_arg1 (by decide)).trans (arg1_83 m outs c)
theorem arg1_85 (c : Dev nD) : V85 m outs c main_arg1 = src m := (V85_of m outs c main_arg1 (by decide)).trans (arg1_84 m outs c)
theorem arg1_86 (c : Dev nD) : V86 m outs c main_arg1 = src m := (V86_of m outs c main_arg1 (by decide)).trans (arg1_85 m outs c)

/-! ## The padded rows at their valuations -/

/-- After the padding function's stretch `main_v30` holds relation 1's padded row. -/
theorem padded4 (c : Dev nD) : V14 m outs c main_v30 = padRow (src m) ![1, 0] slices_S4x500000_S1x500000_1_0 :=
  (padded_4 (V12 m outs c)).trans (by rw [arg1_12 m outs c])

/-- After the padding function's stretch `main_v56` holds relation 2's padded row. -/
theorem padded8 (c : Dev nD) : V26 m outs c main_v56 = padRow (src m) ![2, 0] slices_S4x500000_S1x500000_2_0 :=
  (padded_8 (V24 m outs c)).trans (by rw [arg1_24 m outs c])

/-- After the padding function's stretch `main_v82` holds relation 3's padded row. -/
theorem padded12 (c : Dev nD) : V38 m outs c main_v82 = padRow (src m) ![3, 0] slices_S4x500000_S1x500000_3_0 :=
  (padded_12 (V36 m outs c)).trans (by rw [arg1_36 m outs c])

/-- After the padding function's stretch `main_v114` holds relation 0's padded row. -/
theorem padded17 (c : Dev nD) : V52 m outs c main_v114 = padRow (src m) ![0, 0] slices_S4x500000_S1x500000_0_0 :=
  (padded_17 (V50 m outs c)).trans (by rw [arg1_50 m outs c])

/-- After the padding function's stretch `main_v140` holds relation 1's padded row. -/
theorem padded21 (c : Dev nD) : V64 m outs c main_v140 = padRow (src m) ![1, 0] slices_S4x500000_S1x500000_1_0 :=
  (padded_21 (V62 m outs c)).trans (by rw [arg1_62 m outs c])

/-- After the padding function's stretch `main_v166` holds relation 2's padded row. -/
theorem padded25 (c : Dev nD) : V76 m outs c main_v166 = padRow (src m) ![2, 0] slices_S4x500000_S1x500000_2_0 :=
  (padded_25 (V74 m outs c)).trans (by rw [arg1_74 m outs c])

/-- After the padding function's stretch `main_v192` holds relation 3's padded row. -/
theorem padded29 (c : Dev nD) : V88 m outs c main_v192 = padRow (src m) ![3, 0] slices_S4x500000_S1x500000_3_0 :=
  (padded_29 (V86 m outs c)).trans (by rw [arg1_86 m outs c])

/-! ## The tables at the valuations the regions are entered from -/

/-- Region 2 is entered with `main_v13` holding the table of relation 0, chunk 2. -/
theorem tbl_2 (c : Dev nD) : V9 m outs c main_v13 = tbl m 0 2 :=
  (slice_2 (V8 m outs c)).trans (by
    rw [(V8_of m outs c main_v4 (by decide)).trans <| (V7_of m outs c main_v4 (by decide)).trans <| (V6_of m outs c main_v4 (by decide)).trans <| (V5_of m c main_v4 (by decide)).trans <| (V4_of m c main_v4 (by decide)).trans <| (V3_of m c main_v4 (by decide)), padded0 m c]
    rfl)

/-- Region 3 is entered with `main_v16` holding the table of relation 0, chunk 3. -/
theorem tbl_3 (c : Dev nD) : V11 m outs c main_v16 = tbl m 0 3 :=
  (slice_3 (V10 m outs c)).trans (by
    rw [(V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m c main_v4 (by decide)).trans <| (V4_of m c main_v4 (by decide)).trans <| (V3_of m c main_v4 (by decide)), padded0 m c]
    rfl)

/-- Region 4 is entered with `main_v33` holding the table of relation 1, chunk 0. -/
theorem tbl_4 (c : Dev nD) : V17 m outs c main_v33 = tbl m 1 0 :=
  (slice_4 (V16 m outs c)).trans (by
    rw [(V16_of m outs c main_v30 (by decide)).trans <| (V15_of m outs c main_v30 (by decide)), padded4 m outs c]
    rfl)

/-- Region 5 is entered with `main_v36` holding the table of relation 1, chunk 1. -/
theorem tbl_5 (c : Dev nD) : V19 m outs c main_v36 = tbl m 1 1 :=
  (slice_5 (V18 m outs c)).trans (by
    rw [(V18_of m outs c main_v30 (by decide)).trans <| (V17_of m outs c main_v30 (by decide)).trans <| (V16_of m outs c main_v30 (by decide)).trans <| (V15_of m outs c main_v30 (by decide)), padded4 m outs c]
    rfl)

/-- Region 6 is entered with `main_v39` holding the table of relation 1, chunk 2. -/
theorem tbl_6 (c : Dev nD) : V21 m outs c main_v39 = tbl m 1 2 :=
  (slice_6 (V20 m outs c)).trans (by
    rw [(V20_of m outs c main_v30 (by decide)).trans <| (V19_of m outs c main_v30 (by decide)).trans <| (V18_of m outs c main_v30 (by decide)).trans <| (V17_of m outs c main_v30 (by decide)).trans <| (V16_of m outs c main_v30 (by decide)).trans <| (V15_of m outs c main_v30 (by decide)), padded4 m outs c]
    rfl)

/-- Region 7 is entered with `main_v42` holding the table of relation 1, chunk 3. -/
theorem tbl_7 (c : Dev nD) : V23 m outs c main_v42 = tbl m 1 3 :=
  (slice_7 (V22 m outs c)).trans (by
    rw [(V22_of m outs c main_v30 (by decide)).trans <| (V21_of m outs c main_v30 (by decide)).trans <| (V20_of m outs c main_v30 (by decide)).trans <| (V19_of m outs c main_v30 (by decide)).trans <| (V18_of m outs c main_v30 (by decide)).trans <| (V17_of m outs c main_v30 (by decide)).trans <| (V16_of m outs c main_v30 (by decide)).trans <| (V15_of m outs c main_v30 (by decide)), padded4 m outs c]
    rfl)

/-- Region 8 is entered with `main_v59` holding the table of relation 2, chunk 0. -/
theorem tbl_8 (c : Dev nD) : V29 m outs c main_v59 = tbl m 2 0 :=
  (slice_8 (V28 m outs c)).trans (by
    rw [(V28_of m outs c main_v56 (by decide)).trans <| (V27_of m outs c main_v56 (by decide)), padded8 m outs c]
    rfl)

/-- Region 9 is entered with `main_v62` holding the table of relation 2, chunk 1. -/
theorem tbl_9 (c : Dev nD) : V31 m outs c main_v62 = tbl m 2 1 :=
  (slice_9 (V30 m outs c)).trans (by
    rw [(V30_of m outs c main_v56 (by decide)).trans <| (V29_of m outs c main_v56 (by decide)).trans <| (V28_of m outs c main_v56 (by decide)).trans <| (V27_of m outs c main_v56 (by decide)), padded8 m outs c]
    rfl)

/-- Region 10 is entered with `main_v65` holding the table of relation 2, chunk 2. -/
theorem tbl_10 (c : Dev nD) : V33 m outs c main_v65 = tbl m 2 2 :=
  (slice_10 (V32 m outs c)).trans (by
    rw [(V32_of m outs c main_v56 (by decide)).trans <| (V31_of m outs c main_v56 (by decide)).trans <| (V30_of m outs c main_v56 (by decide)).trans <| (V29_of m outs c main_v56 (by decide)).trans <| (V28_of m outs c main_v56 (by decide)).trans <| (V27_of m outs c main_v56 (by decide)), padded8 m outs c]
    rfl)

/-- Region 11 is entered with `main_v68` holding the table of relation 2, chunk 3. -/
theorem tbl_11 (c : Dev nD) : V35 m outs c main_v68 = tbl m 2 3 :=
  (slice_11 (V34 m outs c)).trans (by
    rw [(V34_of m outs c main_v56 (by decide)).trans <| (V33_of m outs c main_v56 (by decide)).trans <| (V32_of m outs c main_v56 (by decide)).trans <| (V31_of m outs c main_v56 (by decide)).trans <| (V30_of m outs c main_v56 (by decide)).trans <| (V29_of m outs c main_v56 (by decide)).trans <| (V28_of m outs c main_v56 (by decide)).trans <| (V27_of m outs c main_v56 (by decide)), padded8 m outs c]
    rfl)

/-- Region 12 is entered with `main_v85` holding the table of relation 3, chunk 0. -/
theorem tbl_12 (c : Dev nD) : V41 m outs c main_v85 = tbl m 3 0 :=
  (slice_12 (V40 m outs c)).trans (by
    rw [(V40_of m outs c main_v82 (by decide)).trans <| (V39_of m outs c main_v82 (by decide)), padded12 m outs c]
    rfl)

/-- Region 13 is entered with `main_v88` holding the table of relation 3, chunk 1. -/
theorem tbl_13 (c : Dev nD) : V43 m outs c main_v88 = tbl m 3 1 :=
  (slice_13 (V42 m outs c)).trans (by
    rw [(V42_of m outs c main_v82 (by decide)).trans <| (V41_of m outs c main_v82 (by decide)).trans <| (V40_of m outs c main_v82 (by decide)).trans <| (V39_of m outs c main_v82 (by decide)), padded12 m outs c]
    rfl)

/-- Region 14 is entered with `main_v91` holding the table of relation 3, chunk 2. -/
theorem tbl_14 (c : Dev nD) : V45 m outs c main_v91 = tbl m 3 2 :=
  (slice_14 (V44 m outs c)).trans (by
    rw [(V44_of m outs c main_v82 (by decide)).trans <| (V43_of m outs c main_v82 (by decide)).trans <| (V42_of m outs c main_v82 (by decide)).trans <| (V41_of m outs c main_v82 (by decide)).trans <| (V40_of m outs c main_v82 (by decide)).trans <| (V39_of m outs c main_v82 (by decide)), padded12 m outs c]
    rfl)

/-- Region 15 is entered with `main_v94` holding the table of relation 3, chunk 3. -/
theorem tbl_15 (c : Dev nD) : V47 m outs c main_v94 = tbl m 3 3 :=
  (slice_15 (V46 m outs c)).trans (by
    rw [(V46_of m outs c main_v82 (by decide)).trans <| (V45_of m outs c main_v82 (by decide)).trans <| (V44_of m outs c main_v82 (by decide)).trans <| (V43_of m outs c main_v82 (by decide)).trans <| (V42_of m outs c main_v82 (by decide)).trans <| (V41_of m outs c main_v82 (by decide)).trans <| (V40_of m outs c main_v82 (by decide)).trans <| (V39_of m outs c main_v82 (by decide)), padded12 m outs c]
    rfl)

/-- Region 17 is entered with `main_v117` holding the table of relation 0, chunk 0. -/
theorem tbl_17 (c : Dev nD) : V55 m outs c main_v117 = tbl m 0 0 :=
  (slice_17 (V54 m outs c)).trans (by
    rw [(V54_of m outs c main_v114 (by decide)).trans <| (V53_of m outs c main_v114 (by decide)), padded17 m outs c]
    rfl)

/-- Region 18 is entered with `main_v120` holding the table of relation 0, chunk 1. -/
theorem tbl_18 (c : Dev nD) : V57 m outs c main_v120 = tbl m 0 1 :=
  (slice_18 (V56 m outs c)).trans (by
    rw [(V56_of m outs c main_v114 (by decide)).trans <| (V55_of m outs c main_v114 (by decide)).trans <| (V54_of m outs c main_v114 (by decide)).trans <| (V53_of m outs c main_v114 (by decide)), padded17 m outs c]
    rfl)

/-- Region 19 is entered with `main_v123` holding the table of relation 0, chunk 2. -/
theorem tbl_19 (c : Dev nD) : V59 m outs c main_v123 = tbl m 0 2 :=
  (slice_19 (V58 m outs c)).trans (by
    rw [(V58_of m outs c main_v114 (by decide)).trans <| (V57_of m outs c main_v114 (by decide)).trans <| (V56_of m outs c main_v114 (by decide)).trans <| (V55_of m outs c main_v114 (by decide)).trans <| (V54_of m outs c main_v114 (by decide)).trans <| (V53_of m outs c main_v114 (by decide)), padded17 m outs c]
    rfl)

/-- Region 20 is entered with `main_v126` holding the table of relation 0, chunk 3. -/
theorem tbl_20 (c : Dev nD) : V61 m outs c main_v126 = tbl m 0 3 :=
  (slice_20 (V60 m outs c)).trans (by
    rw [(V60_of m outs c main_v114 (by decide)).trans <| (V59_of m outs c main_v114 (by decide)).trans <| (V58_of m outs c main_v114 (by decide)).trans <| (V57_of m outs c main_v114 (by decide)).trans <| (V56_of m outs c main_v114 (by decide)).trans <| (V55_of m outs c main_v114 (by decide)).trans <| (V54_of m outs c main_v114 (by decide)).trans <| (V53_of m outs c main_v114 (by decide)), padded17 m outs c]
    rfl)

/-- Region 21 is entered with `main_v143` holding the table of relation 1, chunk 0. -/
theorem tbl_21 (c : Dev nD) : V67 m outs c main_v143 = tbl m 1 0 :=
  (slice_21 (V66 m outs c)).trans (by
    rw [(V66_of m outs c main_v140 (by decide)).trans <| (V65_of m outs c main_v140 (by decide)), padded21 m outs c]
    rfl)

/-- Region 22 is entered with `main_v146` holding the table of relation 1, chunk 1. -/
theorem tbl_22 (c : Dev nD) : V69 m outs c main_v146 = tbl m 1 1 :=
  (slice_22 (V68 m outs c)).trans (by
    rw [(V68_of m outs c main_v140 (by decide)).trans <| (V67_of m outs c main_v140 (by decide)).trans <| (V66_of m outs c main_v140 (by decide)).trans <| (V65_of m outs c main_v140 (by decide)), padded21 m outs c]
    rfl)

/-- Region 23 is entered with `main_v149` holding the table of relation 1, chunk 2. -/
theorem tbl_23 (c : Dev nD) : V71 m outs c main_v149 = tbl m 1 2 :=
  (slice_23 (V70 m outs c)).trans (by
    rw [(V70_of m outs c main_v140 (by decide)).trans <| (V69_of m outs c main_v140 (by decide)).trans <| (V68_of m outs c main_v140 (by decide)).trans <| (V67_of m outs c main_v140 (by decide)).trans <| (V66_of m outs c main_v140 (by decide)).trans <| (V65_of m outs c main_v140 (by decide)), padded21 m outs c]
    rfl)

/-- Region 24 is entered with `main_v152` holding the table of relation 1, chunk 3. -/
theorem tbl_24 (c : Dev nD) : V73 m outs c main_v152 = tbl m 1 3 :=
  (slice_24 (V72 m outs c)).trans (by
    rw [(V72_of m outs c main_v140 (by decide)).trans <| (V71_of m outs c main_v140 (by decide)).trans <| (V70_of m outs c main_v140 (by decide)).trans <| (V69_of m outs c main_v140 (by decide)).trans <| (V68_of m outs c main_v140 (by decide)).trans <| (V67_of m outs c main_v140 (by decide)).trans <| (V66_of m outs c main_v140 (by decide)).trans <| (V65_of m outs c main_v140 (by decide)), padded21 m outs c]
    rfl)

/-- Region 25 is entered with `main_v169` holding the table of relation 2, chunk 0. -/
theorem tbl_25 (c : Dev nD) : V79 m outs c main_v169 = tbl m 2 0 :=
  (slice_25 (V78 m outs c)).trans (by
    rw [(V78_of m outs c main_v166 (by decide)).trans <| (V77_of m outs c main_v166 (by decide)), padded25 m outs c]
    rfl)

/-- Region 26 is entered with `main_v172` holding the table of relation 2, chunk 1. -/
theorem tbl_26 (c : Dev nD) : V81 m outs c main_v172 = tbl m 2 1 :=
  (slice_26 (V80 m outs c)).trans (by
    rw [(V80_of m outs c main_v166 (by decide)).trans <| (V79_of m outs c main_v166 (by decide)).trans <| (V78_of m outs c main_v166 (by decide)).trans <| (V77_of m outs c main_v166 (by decide)), padded25 m outs c]
    rfl)

/-- Region 27 is entered with `main_v175` holding the table of relation 2, chunk 2. -/
theorem tbl_27 (c : Dev nD) : V83 m outs c main_v175 = tbl m 2 2 :=
  (slice_27 (V82 m outs c)).trans (by
    rw [(V82_of m outs c main_v166 (by decide)).trans <| (V81_of m outs c main_v166 (by decide)).trans <| (V80_of m outs c main_v166 (by decide)).trans <| (V79_of m outs c main_v166 (by decide)).trans <| (V78_of m outs c main_v166 (by decide)).trans <| (V77_of m outs c main_v166 (by decide)), padded25 m outs c]
    rfl)

/-- Region 28 is entered with `main_v178` holding the table of relation 2, chunk 3. -/
theorem tbl_28 (c : Dev nD) : V85 m outs c main_v178 = tbl m 2 3 :=
  (slice_28 (V84 m outs c)).trans (by
    rw [(V84_of m outs c main_v166 (by decide)).trans <| (V83_of m outs c main_v166 (by decide)).trans <| (V82_of m outs c main_v166 (by decide)).trans <| (V81_of m outs c main_v166 (by decide)).trans <| (V80_of m outs c main_v166 (by decide)).trans <| (V79_of m outs c main_v166 (by decide)).trans <| (V78_of m outs c main_v166 (by decide)).trans <| (V77_of m outs c main_v166 (by decide)), padded25 m outs c]
    rfl)

/-- Region 29 is entered with `main_v195` holding the table of relation 3, chunk 0. -/
theorem tbl_29 (c : Dev nD) : V91 m outs c main_v195 = tbl m 3 0 :=
  (slice_29 (V90 m outs c)).trans (by
    rw [(V90_of m outs c main_v192 (by decide)).trans <| (V89_of m outs c main_v192 (by decide)), padded29 m outs c]
    rfl)

/-- Region 30 is entered with `main_v198` holding the table of relation 3, chunk 1. -/
theorem tbl_30 (c : Dev nD) : V93 m outs c main_v198 = tbl m 3 1 :=
  (slice_30 (V92 m outs c)).trans (by
    rw [(V92_of m outs c main_v192 (by decide)).trans <| (V91_of m outs c main_v192 (by decide)).trans <| (V90_of m outs c main_v192 (by decide)).trans <| (V89_of m outs c main_v192 (by decide)), padded29 m outs c]
    rfl)

/-- Region 31 is entered with `main_v201` holding the table of relation 3, chunk 2. -/
theorem tbl_31 (c : Dev nD) : V95 m outs c main_v201 = tbl m 3 2 :=
  (slice_31 (V94 m outs c)).trans (by
    rw [(V94_of m outs c main_v192 (by decide)).trans <| (V93_of m outs c main_v192 (by decide)).trans <| (V92_of m outs c main_v192 (by decide)).trans <| (V91_of m outs c main_v192 (by decide)).trans <| (V90_of m outs c main_v192 (by decide)).trans <| (V89_of m outs c main_v192 (by decide)), padded29 m outs c]
    rfl)

/-- Region 32 is entered with `main_v204` holding the table of relation 3, chunk 3. -/
theorem tbl_32 (c : Dev nD) : V97 m outs c main_v204 = tbl m 3 3 :=
  (slice_32 (V96 m outs c)).trans (by
    rw [(V96_of m outs c main_v192 (by decide)).trans <| (V95_of m outs c main_v192 (by decide)).trans <| (V94_of m outs c main_v192 (by decide)).trans <| (V93_of m outs c main_v192 (by decide)).trans <| (V92_of m outs c main_v192 (by decide)).trans <| (V91_of m outs c main_v192 (by decide)).trans <| (V90_of m outs c main_v192 (by decide)).trans <| (V89_of m outs c main_v192 (by decide)), padded29 m outs c]
    rfl)

end Cert.KernelIdeal.Hand

end
-- ==== Proof.KI.GatherDat0.lean ====
/-
  Gather region 0 (custom_call 0): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem0 : Fin 8 → SemLoc sig := fun | 0 => .dma 4 | 1 => .dma 5 | 2 => .dma 6 | 3 => .dma 7 | 4 => .dma 8 | 5 => .dma 9 | 6 => .dma 10 | 7 => .dma 11 -- the kernel's own semaphore cells

/-- The eight counters at zero, as the run finds them and hands them back. -/
abbrev sems0 (c : Dev nD) : sProp (MM F) :=
  iprop(semVal ((c : Thread nD τ), osem0 0) 0 ∗ semVal ((c : Thread nD τ), osem0 1) 0 ∗ semVal ((c : Thread nD τ), osem0 2) 0
    ∗ semVal ((c : Thread nD τ), osem0 3) 0 ∗ semVal ((c : Thread nD τ), osem0 4) 0 ∗ semVal ((c : Thread nD τ), osem0 5) 0
    ∗ semVal ((c : Thread nD τ), osem0 6) 0 ∗ semVal ((c : Thread nD τ), osem0 7) 0)

/-- Word `j` of the eight the index table holds for point `i`, as the kernel's scalar load reads it. -/
def tblWord0 (c : Dev nD) (i : grid0.Coords) (tbl : Bf (F := F) c (Memref.whole main_v7)) (j : Fin 8) : BitVec 32 :=
  (Memref.whole main_v7).view.readAt (Elt F) (Rect.unit (s := S131072) (k0_off1 i (BitVec.ofNat 32 j.val)) S1.size (k0_off1_inb i j)).toLoadRect tbl
    (Shape.Idx.first (s := S1) (numel1_S1.symm ▸ Nat.one_pos))

/-- Window `w`'s block at point `t`, read off its array at the region's entry. -/
def iblk0 (a0 : (pcfg0 (F := F)).Adm) (Vin : Dev nD → Valuation τ sig (Elt F)) (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (Vr Vin c (Pipeline.arrRef spec0 w))

/-- The result array the region leaves: the gathered and scaled rows of the embedding array, whole. -/
def gout0 (a0 : (pcfg0 (F := F)).Adm) (Vin : Dev nD → Valuation τ sig (Elt F)) (c : Dev nD) : Buf (Elt F) ((c : Thread nD τ).loc main_v9) :=
  gatherArr (Vr Vin c main_arg0) (a0.1 0) (Vr Vin c main_v8)

/-- The invariant between points: the embedding array as entered, the kernel's semaphores at zero, the index table, the
    scoped buffers no window stages (the kernel's scratch among them). -/
def Phi0 (a0 : (pcfg0 (F := F)).Adm) (Vin : Dev nD → Valuation τ sig (Elt F)) (c : Dev nD) : sProp (MM F) :=
  iprop(pt c (Memref.whole main_arg0) (Vr Vin c main_arg0) ∗ sems0 c
    ∗ Pipeline.prefHeld (Ix := Unit) (Name := ℕ) (U := UU nD τ) (Lvl := ℕ) pre0 c (fun _ => fullShare) a0.1
    ∗ Pipeline.scopedRest (Ix := Unit) (Name := ℕ) (U := UU nD τ) (Lvl := ℕ) (Val := Elt F) spec0 c)

/-- The proof data on core `c`. -/
def dat0 (a0 : (pcfg0 (F := F)).Adm) (Vin : Dev nD → Valuation τ sig (Elt F)) (c : Dev nD) :
    Pipeline.Dat τ (Elt F) Unit ℕ (UU nD τ) ℕ ((pcfg0 (F := F)).at a0) c where
  A w := Vr Vin c (Pipeline.arrRef spec0 w)
  after w t := match w with
    | ⟨0, _⟩ => iblk0 a0 Vin c 0 t
    | ⟨1, _⟩ => (((cfg0 a0).win 1).blk t).view.read (Elt F) (gout0 a0 Vin c)
  Φ _ := Phi0 a0 Vin c
  q _ := fullShare
  owed _ := 0

theorem A_eq0 (a0 : (pcfg0 (F := F)).Adm) (Vin : Dev nD → Valuation τ sig (Elt F)) (c : Dev nD) (w : Fin (cfg0 a0).W) :
    (dat0 a0 Vin c).A w = Vr Vin c (Pipeline.arrRef spec0 w) := by dsimp only [dat0]
theorem after0_0 (a0 : (pcfg0 (F := F)).Adm) (Vin : Dev nD → Valuation τ sig (Elt F)) (c : Dev nD) (t : Fin (cfg0 a0).N) :
    (dat0 a0 Vin c).after 0 t = iblk0 a0 Vin c 0 t := by dsimp only [dat0]; rfl
theorem after0_1 (a0 : (pcfg0 (F := F)).Adm) (Vin : Dev nD → Valuation τ sig (Elt F)) (c : Dev nD) (t : Fin (cfg0 a0).N) :
    (dat0 a0 Vin c).after 1 t = (((cfg0 a0).win 1).blk t).view.read (Elt F) (gout0 a0 Vin c) := by dsimp only [dat0]; rfl
theorem Phi_eq0 (a0 : (pcfg0 (F := F)).Adm) (Vin : Dev nD → Valuation τ sig (Elt F)) (c : Dev nD) (t : Fin ((cfg0 a0).N + 1)) :
    (dat0 a0 Vin c).Φ t = Phi0 a0 Vin c := rfl
theorem owed_eq0 (a0 : (pcfg0 (F := F)).Adm) (Vin : Dev nD → Valuation τ sig (Elt F)) (c : Dev nD) (t : Fin ((cfg0 a0).N + 1)) :
    (dat0 a0 Vin c).owed t = 0 := rfl
theorem q_eq0 (a0 : (pcfg0 (F := F)).Adm) (Vin : Dev nD → Valuation τ sig (Elt F)) (c : Dev nD) (w : Fin (cfg0 a0).W) :
    (dat0 a0 Vin c).q w = fullShare := rfl

/-- The pinned family's configuration at region 0 is this one. -/
example (a : (p : Fin 34) → (pcfgs (F := F) p).Adm) : Pipeline.pin (pcfgs (F := F)) a (0 : Fin 34) = (pcfg0 (F := F)).at (a (0 : Fin 34)) := rfl

end Cert.KernelIdeal.Hand

end
-- ==== Proof.KI.GatherBody0.lean ====
/-
  Gather region 0 (custom_call 0): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat0
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk0 (c : Dev nD) (i : grid0.Coords) (tbl : Bf (F := F) c (Memref.whole main_v7)) : Prop where
  h1 : k0_chk1 (tblWord0 c i tbl 0)
  h2 : k0_chk2 (tblWord0 c i tbl 1)
  h3 : k0_chk3 (tblWord0 c i tbl 2)
  h4 : k0_chk4 (tblWord0 c i tbl 3)
  h5 : k0_chk5 (tblWord0 c i tbl 4)
  h6 : k0_chk6 (tblWord0 c i tbl 5)
  h7 : k0_chk7 (tblWord0 c i tbl 6)
  h8 : k0_chk8 (tblWord0 c i tbl 7)

/-- A one-row slice of the embedding array at the row a word names, read at lane `z 1`: the array's element there. -/
theorem rowRead0 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun0 (c : Dev nD) (i : grid0.Coords)
    (M3 : Memref sig .tc .vmem S8x1 .f32) (h3 : M3.IsWhole) (M4 : Memref sig .tc .vmem S8x128 .f32) (h4 : M4.IsWhole)
    (tbl : Bf (F := F) c (Memref.whole main_v7)) (x : Bf (F := F) c (Memref.whole main_arg0))
    (vb : Vec F S8x1 .f32) (hchk : GatherChk0 c i tbl) (Q : PUnit → sProp (MM F)) :
    iprop(pt c (Memref.whole main_v7) tbl ∗ pt c (Memref.whole main_arg0) x
      ∗ owns (c : Thread nD τ) M3 fullShare vb ∗ (∃ d, owns (c : Thread nD τ) M4 fullShare d)
      ∗ (∃ fs, pt c (Memref.whole cc0_scratch0) fs) ∗ sems0 c ∗ (∃ W, owes (c : Thread nD τ) (0 : CellTallies nD τ sig Unit) W)
      ∗ (iprop(pt c (Memref.whole main_v7) tbl ∗ pt c (Memref.whole main_arg0) x
          ∗ owns (c : Thread nD τ) M3 fullShare vb ∗ owns (c : Thread nD τ) M4 fullShare (gatherBlk x (tblWord0 c i tbl) vb)
          ∗ (∃ fs, pt c (Memref.whole cc0_scratch0) fs) ∗ sems0 c ∗ (∃ W, owes (c : Thread nD τ) (0 : CellTallies nD τ sig Unit) W)) -∗ Q ⟨⟩))
    ⊢ wp frame (wpE (defs₀ (F := F)) 𝒱₀ c none) Set.univ
        (cc0__gather_kernel i (Memref.whole main_v7) (Memref.isWhole_whole _) (Memref.whole main_arg0) (Memref.isWhole_whole _) M3 h3 M4 h4
          (Memref.whole cc0_scratch0) (Memref.isWhole_whole _) cc0_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 4).1 $$ Hx -- the kernel's own semaphore cells
  icases Hx' with ⟨Hxr, Hx0, Hx1, Hx2, Hx3, Hx4, Hx5, Hx6, Hx7⟩
  sl_unfold [cc0__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 4).2 -- the kernel's own semaphore cells
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k0_pay1 gatherBlk
    show FloatOps.mulf _ _ = FloatOps.mulf _ _
    congr 1
    · unfold gatherRun0.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun0.sl.dma8 gatherRun0.sl.dma8_1 gatherRun0.sl.dma8_2 gatherRun0.sl.dma8_3 gatherRun0.sl.dma8_4 gatherRun0.sl.dma8_5
        gatherRun0.sl.dma8_6 gatherRun0.sl.dma8_7 gatherRun0.sl.r gatherRun0.sl.r_1 gatherRun0.sl.r_2 gatherRun0.sl.r_3 gatherRun0.sl.r_4
        gatherRun0.sl.r_5 gatherRun0.sl.r_6 gatherRun0.sl.r_7
      refine canonRows8 _ _ _ _ _ _ _ _ _ _ _ _ _ _ _ _ (fun r d => x (embIdx (rowOf (tblWord0 c i tbl r)) d)) ?_ ?_ ?_ ?_ ?_ ?_ ?_ ?_ y
      · exact fun z => rowRead0 c _ (tblWord0 c i tbl 0) rfl rfl _ _ x z
      · exact fun z => rowRead0 c _ (tblWord0 c i tbl 1) rfl rfl _ _ x z
      · exact fun z => rowRead0 c _ (tblWord0 c i tbl 2) rfl rfl _ _ x z
      · exact fun z => rowRead0 c _ (tblWord0 c i tbl 3) rfl rfl _ _ x z
      · exact fun z => rowRead0 c _ (tblWord0 c i tbl 4) rfl rfl _ _ x z
      · exact fun z => rowRead0 c _ (tblWord0 c i tbl 5) rfl rfl _ _ x z
      · exact fun z => rowRead0 c _ (tblWord0 c i tbl 6) rfl rfl _ _ x z
      · exact fun z => rowRead0 c _ (tblWord0 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk0.lean ====
/-
  Gather region 0 (custom_call 0): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat0
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word0 (i : grid0.Coords) (j : Fin 8) : k0_off1 i (BitVec.ofNat 32 j.val) 0 = (i 0).val * 8 + j.val := by
  have hi : (i 0).val < 16384 := (i 0).isLt
  have hj : j.val < 8 := j.isLt
  unfold k0_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word0 (i : grid0.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord0_eq (c : Dev nD) (i : grid0.Coords) (tbl : Bf (F := F) c (Memref.whole main_v7)) (j : Fin 8)
    (e : Fin 131072) (he : e.val = (i 0).val * 8 + j.val) : tblWord0 c i tbl j = tbl (tblIdx e) := by
  unfold tblWord0
  show tbl _ = tbl _
  refine congrArg tbl ?_
  funext a; apply Fin.ext
  match a with
  | ⟨0, _⟩ =>
    show k0_off1 i (BitVec.ofNat 32 j.val) 0 + 1 * 0 = e.val
    rw [off_word0, he]; omega

/-- Row `j` of the value window's block at point `t` is the value array's row `8 t + j`. -/
theorem valBlk0_eq (a0 : (pcfg0 (F := F)).Adm) (Vin : Dev nD → Valuation τ sig (Elt F)) (c : Dev nD) (t : Fin (cfg0 a0).N)
    (j : Fin 8) (e : Fin 131072) (he : e.val = ((grid0.coords t) 0).val * 8 + j.val) :
    iblk0 a0 Vin c 0 t (colIdx j) = Vr Vin c main_v8 (valIdx e) := by
  unfold iblk0
  show Vr Vin c main_v8 _ = Vr Vin c main_v8 _
  refine congrArg (Vr Vin c main_v8) ?_
  funext a; apply Fin.ext
  match a with
  | ⟨0, _⟩ =>
    show (BitVec.ofNat 32 ((grid0.coords t) 0).val).toNat * 8 + 1 * j.val = e.val
    rw [coord_word0, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk0 (a0 : (pcfg0 (F := F)).Adm) (Vin : Dev nD → Valuation τ sig (Elt F)) (c : Dev nD) (t : Fin (cfg0 a0).N) :
    gatherBlk (Vr Vin c main_arg0) (tblWord0 c (grid0.coords t) (a0.1 0)) (iblk0 a0 Vin c 0 t)
      = (((cfg0 a0).win 1).blk t).view.read (Elt F) (gout0 a0 Vin c) := by
  funext y
  show gatherBlk _ _ _ y = gout0 a0 Vin c ((((cfg0 a0).win 1).blk t).view.emb y)
  unfold gatherBlk gout0 gatherArr
  have e0 : ((((cfg0 a0).win 1).blk t).view.emb y (0 : Fin 2)).val = ((grid0.coords t) 0).val * 8 + (y 0).val := by
    show (BitVec.ofNat 32 ((grid0.coords t) 0).val).toNat * 8 + 1 * (y 0).val = _
    rw [coord_word0]; omega
  have e1 : (((cfg0 a0).win 1).blk t).view.emb y (1 : Fin 2) = y 1 := Fin.ext (by
    show (0#32 : BitVec 32).toNat * 128 + 1 * (y 1).val = (y 1).val
    show 0 * 128 + 1 * (y 1).val = (y 1).val
    omega)
  rw [tblWord0_eq c (grid0.coords t) (a0.1 0) (y 0) _ e0, valBlk0_eq a0 Vin c t (y 0) _ e0, e1]

end Cert.KernelIdeal.Hand

end
-- ==== Proof.KI.GatherRegion0.lean ====
/-
  Gather region 0 (custom_call 0): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody0
import proofs.«414509_j14181982011419_2_alg».proof.Proof.KI.GatherBlk0
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk0 (a0 : (pcfg0 (F := F)).Adm) : Prop := ∀ e : S131072.Idx, (a0.1 0 e).toNat < 100000

/-! ## The grid and the result window's blocks -/

/-- On the one-axis grid a point's coordinate is its number. -/
theorem regCoords0 (t : Fin grid0.N) : (grid0.coords t 0).val = t.val := by
  have ht : t.val < 16384 := N_0 ▸ t.isLt
  show t.val / grid0.stride 0 % grid0.bound 0 = t.val
  rw [show grid0.stride 0 = 1 from by decide, show grid0.bound 0 = 16384 from rfl, Nat.div_one, Nat.mod_eq_of_lt ht]

/-- A point's number as the 32-bit word the index maps compute with. -/
theorem regWord0 (t : Fin grid0.N) : (BitVec.ofNat 32 (grid0.coords t 0).val).toNat = t.val := by
  have ht : t.val < 16384 := N_0 ▸ t.isLt
  rw [BitVec.toNat_ofNat, regCoords0]; omega

/-- The result window's block at point `t` is block `t` along the rows, at zero along the lanes. -/
theorem regOutIndex0 (a0 : (pcfg0 (F := F)).Adm) (t : Fin (cfg0 a0).N) : ((cfg0 a0).win 1).index t = ![t.val, 0] := by
  show cc0_transform_2 (grid0.coords t) = _
  unfold cc0_transform_2
  funext a; fin_cases a
  · exact regWord0 t
  · rfl

/-- The result window is written back at every point: consecutive points have different blocks. -/
theorem regOutFlush0 (a0 : (pcfg0 (F := F)).Adm) (t : Fin (cfg0 a0).N) : ((cfg0 a0).win 1).flush t = true := by
  have htN : t.val < 16384 := N_0 ▸ t.isLt
  rw [Pipeline.Window.flush_out _ rfl]
  by_cases h : t.val + 1 = 16384
  · exact Or.inl (show t.val + 1 = grid0.N by rw [N_0]; exact h)
  · have hlt : t.val + 1 < grid0.N := by rw [N_0]; omega
    refine Or.inr ⟨hlt, fun e => ?_⟩
    have e' : (![t.val + 1, 0] : Fin 2 → ℕ) = ![t.val, 0] := (regOutIndex0 a0 ⟨t.val + 1, hlt⟩).symm.trans (e.trans (regOutIndex0 a0 t))
    have e0 := congrFun e' 0
    simp at e0

/-- The index table, held as the pipeline's one prefetched table. -/
theorem prefHeldEq0 (a0 : (pcfg0 (F := F)).Adm) (c : Dev nD) :
    (Pipeline.prefHeld (Ix := Unit) (Name := ℕ) (U := UU nD τ) (Lvl := ℕ) pre0 c (fun _ => fullShare) a0.1 : sProp (MM F))
      = pt c (Memref.whole main_v7) (a0.1 0) := by
  unfold Pipeline.prefHeld
  rw [show (Finset.univ : Finset (Fin pre0.K)) = {0} from rfl, BI.bigSep_singleton]
  rfl

/-- The value window's staging buffer holds its block at every point. -/
theorem beforeVal0 (a0 : (pcfg0 (F := F)).Adm) (Vin : Dev nD → Valuation τ sig (Elt F)) (c : Dev nD) (t : Fin (cfg0 a0).N) (d) :
    (dat0 a0 Vin c).before 0 t d = iblk0 a0 Vin c 0 t :=
  ((dat0 a0 Vin c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The kernel's checks, from the table's range -/

/-- Each of the point's eight words is a word of the table, so a row number. -/
theorem tblWordLt0 (a0 : (pcfg0 (F := F)).Adm) (hok : GatherOk0 a0) (c : Dev nD) (i : grid0.Coords) (j : Fin 8) :
    (tblWord0 c i (a0.1 0) j).toNat < 100000 := by
  unfold tblWord0
  exact hok _

/-- So the kernel's eight checks hold at every point. -/
theorem gatherChk0 (a0 : (pcfg0 (F := F)).Adm) (hok : GatherOk0 a0) (c : Dev nD) (i : grid0.Coords) : GatherChk0 c i (a0.1 0) :=
  ⟨⟨chkRow _ (tblWordLt0 a0 hok c i 0), chkRow _ (tblWordLt0 a0 hok c i 0)⟩,
   ⟨chkRow _ (tblWordLt0 a0 hok c i 1), chkRow _ (tblWordLt0 a0 hok c i 1)⟩,
   ⟨chkRow _ (tblWordLt0 a0 hok c i 2), chkRow _ (tblWordLt0 a0 hok c i 2)⟩,
   ⟨chkRow _ (tblWordLt0 a0 hok c i 3), chkRow _ (tblWordLt0 a0 hok c i 3)⟩,
   ⟨chkRow _ (tblWordLt0 a0 hok c i 4), chkRow _ (tblWordLt0 a0 hok c i 4)⟩,
   ⟨chkRow _ (tblWordLt0 a0 hok c i 5), chkRow _ (tblWordLt0 a0 hok c i 5)⟩,
   ⟨chkRow _ (tblWordLt0 a0 hok c i 6), chkRow _ (tblWordLt0 a0 hok c i 6)⟩,
   chkRow _ (tblWordLt0 a0 hok c i 7)⟩

/-! ## The body obligation, at a generic point -/

/-- What the body is called with at point `t`: the invariant, the core's dues, each window's current staging memref at
    what the pipeline left there, -/
def bodyPre0 (a0 : (pcfg0 (F := F)).Adm) (Vin : Dev nD → Valuation τ sig (Elt F)) (c : Dev nD) (t : Fin (cfg0 a0).N) : sProp (MM F) :=
  iprop((dat0 a0 Vin c).Φ t.castSucc ∗ (dat0 a0 Vin c).owesAt () t.castSucc
    ∗ (∃ d, owns (c : Thread nD τ) (((cfg0 a0).win 0).stage ((cfg0 a0).slots t 0)) fullShare ((dat0 a0 Vin c).before 0 t d))
    ∗ (∃ d, owns (c : Thread nD τ) (((cfg0 a0).win 1).stage ((cfg0 a0).slots t 1)) fullShare ((dat0 a0 Vin c).before 1 t d)))

/-- and what it returns. -/
def bodyPost0 (a0 : (pcfg0 (F := F)).Adm) (Vin : Dev nD → Valuation τ sig (Elt F)) (c : Dev nD) (t : Fin (cfg0 a0).N) : sProp (MM F) :=
  iprop((dat0 a0 Vin c).Φ t.succ ∗ (dat0 a0 Vin c).owesAt () t.succ
    ∗ owns (c : Thread nD τ) (((cfg0 a0).win 0).stage ((cfg0 a0).slots t 0)) fullShare ((dat0 a0 Vin c).after 0 t)
    ∗ owns (c : Thread nD τ) (((cfg0 a0).win 1).stage ((cfg0 a0).slots t 1)) fullShare ((dat0 a0 Vin c).after 1 t))

/-- The body at any point: the invariant opened into the embedding array, the semaphores, the table and the scratch;
    the value window's memref at its block; the checks from the table's range; so the kernel's run applies, and what it
    leaves in the result window's memref is the point's block of the gathered array. -/
theorem sound_body0 (a0 : (pcfg0 (F := F)).Adm) (hok : GatherOk0 a0) (Vin : Dev nD → Valuation τ sig (Elt F)) (c : Dev nD) (t : Fin (cfg0 a0).N) :
    bodyPre0 a0 Vin c t ⊢ wp frame (wpE (defs₀ (F := F)) 𝒱₀ c none) Set.univ
      (defs₀ .tc (cfg0 a0).body ((cfg0 a0).bodyArgs t ((cfg0 a0).slots t))) (fun _ => bodyPost0 a0 Vin c t) := by
  unfold bodyPre0 bodyPost0
  simp only [beforeVal0]
  rw [Phi_eq0, Phi_eq0, after0_0, after0_1, ← gatherBlk_blk0]
  unfold Phi0 Pipeline.Dat.owesAt Pipeline.owesWithin
  rw [owed_eq0, owed_eq0, prefHeldEq0, scopedRest0_split]
  iintro ⟨⟨Hx, Hos, Ht, ⟨%fs, Hs⟩, Hsb⟩, ⟨%W, %hW, HO⟩, ⟨%d0, H0⟩, ⟨%d1, H1⟩⟩
  iapply (gatherRun0 c (grid0.coords t) _ _ _ _ (a0.1 0) (Vr Vin c main_arg0) (iblk0 a0 Vin c 0 t) (gatherChk0 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation0 (a0 : (pcfg0 (F := F)).Adm) (hok : GatherOk0 a0) (Vin : Dev nD → Valuation τ sig (Elt F)) (c : Dev nD) :
    BodyObligation (dat0 a0 Vin c) (defs₀ (F := F)) 𝒱₀ () Set.univ := fun t => by
  rw [bigSep_W0, bigSep_W0]
  exact sound_body0 a0 hok Vin c t

/-! ## From the blocks to the arrays -/

/-- The value array after the region: as entered. -/
theorem arrAt0_in (a0 : (pcfg0 (F := F)).Adm) (Vin : Dev nD → Valuation τ sig (Elt F)) (c : Dev nD) :
    (dat0 a0 Vin c).arrAt 0 (cfg0 a0).N = Vr Vin c main_v8 :=
  ((dat0 a0 Vin c).arrAt_in 0 rfl _).trans (A_eq0 a0 Vin c 0)

/-- Every index of the result array is in some point's block: row `e`, lane `d` is element `(e % 8, d)` of the block
    of point `e / 8`. -/
theorem regOutCover0 (a0 : (pcfg0 (F := F)).Adm) (i : S131072x128.Idx) :
    ∃ t : Fin (cfg0 a0).N, ((cfg0 a0).win 1).flush t = true ∧ i ∈ (((cfg0 a0).win 1).blk t).view.set := by
  have hi0 : (i 0).val < 131072 := (i 0).isLt
  have hi1 : (i 1).val < 128 := (i 1).isLt
  have hN : (i 0).val / 8 < grid0.N := by rw [N_0]; omega
  obtain ⟨t, ht⟩ : ∃ t : Fin (cfg0 a0).N, t.val = (i 0).val / 8 := ⟨⟨_, hN⟩, rfl⟩
  have hx : (((cfg0 a0).win 1).blk t).view.emb (ValueIdx.ix2 ⟨(i 0).val % 8, Nat.mod_lt _ (by decide)⟩ (i 1)) = i := by
    funext a; apply Fin.ext
    have e0 : ((cfg0 a0).win 1).index t (0 : Fin 2) = t.val := congrFun (regOutIndex0 a0 t) (0 : Fin 2)
    have e1 : ((cfg0 a0).win 1).index t (1 : Fin 2) = 0 := congrFun (regOutIndex0 a0 t) (1 : Fin 2)
    match a with
    | ⟨0, _⟩ => show ((cfg0 a0).win 1).index t (0 : Fin 2) * 8 + 1 * ((i 0).val % 8) = (i 0).val; omega
    | ⟨1, _⟩ => show ((cfg0 a0).win 1).index t (1 : Fin 2) * 128 + 1 * (i 1).val = (i 1).val; omega
  exact ⟨t, regOutFlush0 a0 t, hx ▸ (((cfg0 a0).win 1).blk t).view.emb_mem_set _⟩

/-- The result array after the region: the gathered and scaled rows, whole. -/
theorem arrAt0_out (a0 : (pcfg0 (F := F)).Adm) (Vin : Dev nD → Valuation τ sig (Elt F)) (c : Dev nD) :
    (dat0 a0 Vin c).arrAt 1 (cfg0 a0).N = gout0 a0 Vin c :=
  (dat0 a0 Vin c).arrAt_eq_of_cover 1 (gout0 a0 Vin c)
    (fun t _ => by
      show ((cfg0 a0).win 1).cut ((cfg0 a0).grid.coords t) ((dat0 a0 Vin c).after 1 t) = _
      rw [after0_1])
    (regOutCover0 a0)

/-! ## The region as a segment of @main -/

/-- The ownership layout of the kernel's eight semaphores. -/
theorem ownSemFacts0 : Pipeline.OwnSemFacts spec0 osem0 := by decide

/-- The kernel's own cells at zero, listed. -/
theorem ownSemsListed0 (c : Dev nD) :
    (Pipeline.ownSems0 (Ix := Unit) (Name := ℕ) (U := UU nD τ) (Lvl := ℕ) (Val := Elt F) (τ := τ) osem0 c : sProp (MM F)) = sems0 c :=
  Pipeline.ownSems0_eq_of_list c osem0 [0, 1, 2, 3, 4, 5, 6, 7] (by decide) (by decide)

/-- The unscoped buffers that are no window's array, no table, and not the embedding array. -/
abbrev restRefs0 : Finset (Ref sig .tc) :=
  (((Finset.univ.filter fun b : Ref sig .tc => ¬ b.isScoped) \ Finset.univ.image (Pipeline.arrRef spec0)) \ Finset.univ.image pre0.ref) \ {main_arg0}

/-- Those buffers, each whole at its contents under `Vin`: what bypasses the region. -/
def Zrest0 (Vin : Dev nD → Valuation τ sig (Elt F)) (c : Dev nD) : sProp (MM F) :=
  bigSep restRefs0 fun b => ((c : Thread nD τ).loc b) ↦{fullShare} Vr Vin c b

/-- The embedding array is an unscoped buffer that is no window's array and no table. -/
theorem embArrMem0 : ({main_arg0} : Finset (Ref sig .tc)) ⊆
    ((Finset.univ.filter fun b : Ref sig .tc => ¬ b.isScoped) \ Finset.univ.image (Pipeline.arrRef spec0)) \ Finset.univ.image pre0.ref := by
  decide

/-- The unscoped buffers that are no window's array: the index table, the embedding array, and the rest. -/
theorem unscopedRestOpen0 (Vin : Dev nD → Valuation τ sig (Elt F)) (c : Dev nD) :
    (Pipeline.unscopedRest (Ix := Unit) (Name := ℕ) (U := UU nD τ) (Lvl := ℕ) spec0 c (Vr Vin c) : sProp (MM F))
      = iprop(Pipeline.prefHeld pre0 c (fun _ => fullShare) (fun k => Vr Vin c (pre0.ref k))
          ∗ pt c (Memref.whole main_arg0) (Vr Vin c main_arg0) ∗ Zrest0 Vin c) := by
  rw [Pipeline.unscopedRest_split preFacts0 c (Vr Vin c)]
  unfold Pipeline.unscopedRestP Zrest0
  rw [BI.bigSep_sdiff_split embArrMem0, BI.bigSep_singleton]
  rfl

/-- The buffer contents when the region is left: the result array at the gathered rows, every other buffer as entered. -/
abbrev Vout0 (a0 : (pcfg0 (F := F)).Adm) (Vin : Dev nD → Valuation τ sig (Elt F)) (c : Dev nD) : Valuation τ sig (Elt F) :=
  Function.update (Vin c) main_v9 (gout0 a0 Vin c)

/-- At the exit each of the region's arrays holds what the pipeline leaves; -/
theorem hF0 (a0 : (pcfg0 (F := F)).Adm) (Vin : Dev nD → Valuation τ sig (Elt F)) (c : Dev nD) (w : Fin (cfg0 a0).W) :
    (dat0 a0 Vin c).arrAt w (cfg0 a0).N = Vr (Vout0 a0 Vin) c (Pipeline.arrRef spec0 w) := by
  match w with
  | ⟨0, _⟩ =>
    show (dat0 a0 Vin c).arrAt 0 (cfg0 a0).N = Vr (Vout0 a0 Vin) c (Pipeline.arrRef spec0 0)
    rw [arrAt0_in]
    exact (Function.update_of_ne (StableHlo.devRef_ne_of_ne (by decide) : (Proc.devRef .tc main_v8 : DevRef τ sig) ≠ Proc.devRef .tc main_v9) _ _).symm
  | ⟨1, _⟩ =>
    show (dat0 a0 Vin c).arrAt 1 (cfg0 a0).N = Vr (Vout0 a0 Vin) c (Pipeline.arrRef spec0 1)
    rw [arrAt0_out]
    exact (Function.update_self (Proc.devRef .tc main_v9 : DevRef τ sig) _ (Vin c)).symm

/-- and every other buffer what it held at entry. -/
theorem hrest0 (a0 : (pcfg0 (F := F)).Adm) (Vin : Dev nD → Valuation τ sig (Elt F)) (c : Dev nD) :
    ∀ b : Ref sig .tc, b ∉ Finset.univ.image (Pipeline.arrRef spec0) → Vr (Vout0 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat0` at the entry valuation `Vin`
    (`hd`), the index table's contents under `Vin` being the pinned ones (`htbl`) and row numbers (`hok`). -/
def reg0 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk0 (F := F) (a (0 : Fin 34)))
    (hd : ∀ c, pdats (0 : Fin 34) c = dat0 (a (0 : Fin 34)) Vin c) (htbl : ∀ c, (a (0 : Fin 34)).1 = fun k => Vr Vin c (pre0.ref k)) :
    Pipeline.RegionSeg (pcfgs (F := F)) a pdats () defs₀ 𝒱₀ L lv (0 : Fin 34) where
  win := (launch0 (F := F)).win.to₀
  block_pos := (launch0 (F := F)).block_pos
  stage_whole := (launch0 (F := F)).stage_whole
  K := Fin 8
  osem := osem0
  ho := ownSemFacts0
  hbody c := by rw [hd c]; exact (body_obligation0 (a (0 : Fin 34)) hok Vin c).loose
  hwaits := Pipeline.hwaits_of_owed_zero _ _ _ _ L lv (0 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v9 (gout0 (a (0 : Fin 34)) Vin c)) ∗ Rest c)
  X c := iprop(pt c (Memref.whole main_arg0) (Vr Vin c main_arg0) ∗ sems0 c)
  Y c := iprop(pt c (Memref.whole main_arg0) (Vr Vin c main_arg0)
    ∗ Pipeline.prefHeld (Ix := Unit) (Name := ℕ) (U := UU nD τ) (Lvl := ℕ) pre0 c (fun _ => fullShare) (a (0 : Fin 34)).1)
  Z c := Zrest0 Vin c
  hentry c := by
    rw [ownSemsListed0]
    have hsplit := Pipeline.arrays_of_unscopedBufs (p := (0 : Fin 34)) (pcfgs (F := F)) a pdats (launch0 (F := F)).win (launch0 (F := F)).arr_whole c
      ((pdats (0 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen0 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (0 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq0]; unfold Phi0
    iintro ⟨⟨Hx, Hos⟩, Ht, Hr⟩
    isplitl [Hx]; · iexact Hx
    isplitl [Hos]; · iexact Hos
    isplitl [Ht]; · iexact Ht
    iexact Hr
  hout c := by
    rw [ownSemsListed0, hd c, Phi_eq0]; unfold Phi0
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (0 : Fin 34)) (pcfgs (F := F)) a (Ix := Unit) (Name := ℕ) (U := UU nD τ) (Lvl := ℕ)
      (launch0 (F := F)).win (launch0 (F := F)).arr_whole c pdats ((pdats (0 : Fin 34) c).share_full fun _ => by rw [hd c]; rfl)
      (Vr Vin c) (Vr (Vout0 (a (0 : Fin 34)) Vin) c) ((pdats (0 : Fin 34) c).arrAt · (cfg0 (a (0 : Fin 34))).N)
      (fun w => by rw [hd c]; exact hF0 (a (0 : Fin 34)) Vin c w) (hrest0 (a (0 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen0 Vin c).symm)
      isplitl [Ht]; · rw [← htbl c]; iexact Ht
      isplitl [Hx]; · iexact Hx
      iexact Hz
    unfold Pipeline.Dat.owesAt Pipeline.owesWithin
    rw [show (pdats (0 : Fin 34) c).owed (Fin.last _) = 0 from by rw [hd c]; rfl]
    icases HO with ⟨%W, -, HO⟩; iexists W; iexact HO

end Cert.KernelIdeal.Hand

end
-- ==== Proof.KI.GatherDat1.lean ====
/-
  Gather region 1 (custom_call 1): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem1 : Fin 8 → SemLoc sig := fun | 0 => .dma 16 | 1 => .dma 17 | 2 => .dma 18 | 3 => .dma 19 | 4 => .dma 20 | 5 => .dma 21 | 6 => .dma 22 | 7 => .dma 23

/-- The eight counters at zero, as the run finds them and hands them back. -/
abbrev sems1 (c : Dev nD) : sProp (MM F) :=
  iprop(semVal ((c : Thread nD τ), osem1 0) 0 ∗ semVal ((c : Thread nD τ), osem1 1) 0 ∗ semVal ((c : Thread nD τ), osem1 2) 0
    ∗ semVal ((c : Thread nD τ), osem1 3) 0 ∗ semVal ((c : Thread nD τ), osem1 4) 0 ∗ semVal ((c : Thread nD τ), osem1 5) 0
    ∗ semVal ((c : Thread nD τ), osem1 6) 0 ∗ semVal ((c : Thread nD τ), osem1 7) 0)

/-- Word `j` of the eight the index table holds for point `i`, as the kernel's scalar load reads it. -/
def tblWord1 (c : Dev nD) (i : grid1.Coords) (tbl : Bf (F := F) c (Memref.whole main_v10)) (j : Fin 8) : BitVec 32 :=
  (Memref.whole main_v10).view.readAt (Elt F) (Rect.unit (s := S131072) (k1_off1 i (BitVec.ofNat 32 j.val)) S1.size (k1_off1_inb i j)).toLoadRect tbl
    (Shape.Idx.first (s := S1) (numel1_S1.symm ▸ Nat.one_pos))

/-- Window `w`'s block at point `t`, read off its array at the region's entry. -/
def iblk1 (a0 : (pcfg1 (F := F)).Adm) (Vin : Dev nD → Valuation τ sig (Elt F)) (c : Dev nD) (w : Fin (cfg1 a0).W) (t : Fin (cfg1 a0).N) :
    (((cfg1 a0).win w).xblock ((cfg1 a0).grid.coords t)).Idx → Elt F ((cfg1 a0).win w).elt :=
  (((cfg1 a0).win w).blk t).view.read (Elt F) (Vr Vin c (Pipeline.arrRef spec1 w))

/-- The result array the region leaves: the gathered and scaled rows of the embedding array, whole. -/
def gout1 (a0 : (pcfg1 (F := F)).Adm) (Vin : Dev nD → Valuation τ sig (Elt F)) (c : Dev nD) : Buf (Elt F) ((c : Thread nD τ).loc main_v12) :=
  gatherArr (Vr Vin c main_arg0) (a0.1 0) (Vr Vin c main_v11)

/-- The invariant between points: the embedding array as entered, the kernel's semaphores at zero, the index table, the
    scoped buffers no window stages (the kernel's scratch among them). -/
def Phi1 (a0 : (pcfg1 (F := F)).Adm) (Vin : Dev nD → Valuation τ sig (Elt F)) (c : Dev nD) : sProp (MM F) :=
  iprop(pt c (Memref.whole main_arg0) (Vr Vin c main_arg0) ∗ sems1 c
    ∗ Pipeline.prefHeld (Ix := Unit) (Name := ℕ) (U := UU nD τ) (Lvl := ℕ) pre1 c (fun _ => fullShare) a0.1
    ∗ Pipeline.scopedRest (Ix := Unit) (Name := ℕ) (U := UU nD τ) (Lvl := ℕ) (Val := Elt F) spec1 c)

/-- The proof data on core `c`. -/
def dat1 (a0 : (pcfg1 (F := F)).Adm) (Vin : Dev nD → Valuation τ sig (Elt F)) (c : Dev nD) :
    Pipeline.Dat τ (Elt F) Unit ℕ (UU nD τ) ℕ ((pcfg1 (F := F)).at a0) c where
  A w := Vr Vin c (Pipeline.arrRef spec1 w)
  after w t := match w with
    | ⟨0, _⟩ => iblk1 a0 Vin c 0 t
    | ⟨1, _⟩ => (((cfg1 a0).win 1).blk t).view.read (Elt F) (gout1 a0 Vin c)
  Φ _ := Phi1 a0 Vin c
  q _ := fullShare
  owed _ := 0

theorem A_eq1 (a0 : (pcfg1 (F := F)).Adm) (Vin : Dev nD → Valuation τ sig (Elt F)) (c : Dev nD) (w : Fin (cfg1 a0).W) :
    (dat1 a0 Vin c).A w = Vr Vin c (Pipeline.arrRef spec1 w) := by dsimp only [dat1]
theorem after1_0 (a0 : (pcfg1 (F := F)).Adm) (Vin : Dev nD → Valuation τ sig (Elt F)) (c : Dev nD) (t : Fin (cfg1 a0).N) :
    (dat1 a0 Vin c).after 0 t = iblk1 a0 Vin c 0 t := by dsimp only [dat1]; rfl
theorem after1_1 (a0 : (pcfg1 (F := F)).Adm) (Vin : Dev nD → Valuation τ sig (Elt F)) (c : Dev nD) (t : Fin (cfg1 a0).N) :
    (dat1 a0 Vin c).after 1 t = (((cfg1 a0).win 1).blk t).view.read (Elt F) (gout1 a0 Vin c) := by dsimp only [dat1]; rfl
theorem Phi_eq1 (a0 : (pcfg1 (F := F)).Adm) (Vin : Dev nD → Valuation τ sig (Elt F)) (c : Dev nD) (t : Fin ((cfg1 a0).N + 1)) :
    (dat1 a0 Vin c).Φ t = Phi1 a0 Vin c := rfl
theorem owed_eq1 (a0 : (pcfg1 (F := F)).Adm) (Vin : Dev nD → Valuation τ sig (Elt F)) (c : Dev nD) (t : Fin ((cfg1 a0).N + 1)) :
    (dat1 a0 Vin c).owed t = 0 := rfl
theorem q_eq1 (a0 : (pcfg1 (F := F)).Adm) (Vin : Dev nD → Valuation τ sig (Elt F)) (c : Dev nD) (w : Fin (cfg1 a0).W) :
    (dat1 a0 Vin c).q w = fullShare := rfl

/-- The pinned family's configuration at region 1 is this one. -/
example (a : (p : Fin 34) → (pcfgs (F := F) p).Adm) : Pipeline.pin (pcfgs (F := F)) a (1 : Fin 34) = (pcfg1 (F := F)).at (a (1 : Fin 34)) := rfl

end Cert.KernelIdeal.Hand

end
-- ==== Proof.KI.GatherBody1.lean ====
/-
  Gather region 1 (custom_call 1): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat1
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk1 (c : Dev nD) (i : grid1.Coords) (tbl : Bf (F := F) c (Memref.whole main_v10)) : Prop where
  h1 : k1_chk1 (tblWord1 c i tbl 0)
  h2 : k1_chk2 (tblWord1 c i tbl 1)
  h3 : k1_chk3 (tblWord1 c i tbl 2)
  h4 : k1_chk4 (tblWord1 c i tbl 3)
  h5 : k1_chk5 (tblWord1 c i tbl 4)
  h6 : k1_chk6 (tblWord1 c i tbl 5)
  h7 : k1_chk7 (tblWord1 c i tbl 6)
  h8 : k1_chk8 (tblWord1 c i tbl 7)

/-- A one-row slice of the embedding array at the row a word names, read at lane `z 1`: the array's element there. -/
theorem rowRead1 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun1 (c : Dev nD) (i : grid1.Coords)
    (M3 : Memref sig .tc .vmem S8x1 .f32) (h3 : M3.IsWhole) (M4 : Memref sig .tc .vmem S8x128 .f32) (h4 : M4.IsWhole)
    (tbl : Bf (F := F) c (Memref.whole main_v10)) (x : Bf (F := F) c (Memref.whole main_arg0))
    (vb : Vec F S8x1 .f32) (hchk : GatherChk1 c i tbl) (Q : PUnit → sProp (MM F)) :
    iprop(pt c (Memref.whole main_v10) tbl ∗ pt c (Memref.whole main_arg0) x
      ∗ owns (c : Thread nD τ) M3 fullShare vb ∗ (∃ d, owns (c : Thread nD τ) M4 fullShare d)
      ∗ (∃ fs, pt c (Memref.whole cc1_scratch0) fs) ∗ sems1 c ∗ (∃ W, owes (c : Thread nD τ) (0 : CellTallies nD τ sig Unit) W)
      ∗ (iprop(pt c (Memref.whole main_v10) tbl ∗ pt c (Memref.whole main_arg0) x
          ∗ owns (c : Thread nD τ) M3 fullShare vb ∗ owns (c : Thread nD τ) M4 fullShare (gatherBlk x (tblWord1 c i tbl) vb)
          ∗ (∃ fs, pt c (Memref.whole cc1_scratch0) fs) ∗ sems1 c ∗ (∃ W, owes (c : Thread nD τ) (0 : CellTallies nD τ sig Unit) W)) -∗ Q ⟨⟩))
    ⊢ wp frame (wpE (defs₀ (F := F)) 𝒱₀ c none) Set.univ
        (cc1__gather_kernel i (Memref.whole main_v10) (Memref.isWhole_whole _) (Memref.whole main_arg0) (Memref.isWhole_whole _) M3 h3 M4 h4
          (Memref.whole cc1_scratch0) (Memref.isWhole_whole _) cc1_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 16).1 $$ Hx
  icases Hx' with ⟨Hxr, Hx0, Hx1, Hx2, Hx3, Hx4, Hx5, Hx6, Hx7⟩
  sl_unfold [cc1__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 16).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k1_pay1 gatherBlk
    show FloatOps.mulf _ _ = FloatOps.mulf _ _
    congr 1
    · unfold gatherRun1.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun1.sl.dma8 gatherRun1.sl.dma8_1 gatherRun1.sl.dma8_2 gatherRun1.sl.dma8_3 gatherRun1.sl.dma8_4 gatherRun1.sl.dma8_5
        gatherRun1.sl.dma8_6 gatherRun1.sl.dma8_7 gatherRun1.sl.r gatherRun1.sl.r_1 gatherRun1.sl.r_2 gatherRun1.sl.r_3 gatherRun1.sl.r_4
        gatherRun1.sl.r_5 gatherRun1.sl.r_6 gatherRun1.sl.r_7
      refine canonRows8 _ _ _ _ _ _ _ _ _ _ _ _ _ _ _ _ (fun r d => x (embIdx (rowOf (tblWord1 c i tbl r)) d)) ?_ ?_ ?_ ?_ ?_ ?_ ?_ ?_ y
      · exact fun z => rowRead1 c _ (tblWord1 c i tbl 0) rfl rfl _ _ x z
      · exact fun z => rowRead1 c _ (tblWord1 c i tbl 1) rfl rfl _ _ x z
      · exact fun z => rowRead1 c _ (tblWord1 c i tbl 2) rfl rfl _ _ x z
      · exact fun z => rowRead1 c _ (tblWord1 c i tbl 3) rfl rfl _ _ x z
      · exact fun z => rowRead1 c _ (tblWord1 c i tbl 4) rfl rfl _ _ x z
      · exact fun z => rowRead1 c _ (tblWord1 c i tbl 5) rfl rfl _ _ x z
      · exact fun z => rowRead1 c _ (tblWord1 c i tbl 6) rfl rfl _ _ x z
      · exact fun z => rowRead1 c _ (tblWord1 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk1.lean ====
/-
  Gather region 1 (custom_call 1): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat1
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word1 (i : grid1.Coords) (j : Fin 8) : k1_off1 i (BitVec.ofNat 32 j.val) 0 = (i 0).val * 8 + j.val := by
  have hi : (i 0).val < 16384 := (i 0).isLt
  have hj : j.val < 8 := j.isLt
  unfold k1_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word1 (i : grid1.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord1_eq (c : Dev nD) (i : grid1.Coords) (tbl : Bf (F := F) c (Memref.whole main_v10)) (j : Fin 8)
    (e : Fin 131072) (he : e.val = (i 0).val * 8 + j.val) : tblWord1 c i tbl j = tbl (tblIdx e) := by
  unfold tblWord1
  show tbl _ = tbl _
  refine congrArg tbl ?_
  funext a; apply Fin.ext
  match a with
  | ⟨0, _⟩ =>
    show k1_off1 i (BitVec.ofNat 32 j.val) 0 + 1 * 0 = e.val
    rw [off_word1, he]; omega

/-- Row `j` of the value window's block at point `t` is the value array's row `8 t + j`. -/
theorem valBlk1_eq (a0 : (pcfg1 (F := F)).Adm) (Vin : Dev nD → Valuation τ sig (Elt F)) (c : Dev nD) (t : Fin (cfg1 a0).N)
    (j : Fin 8) (e : Fin 131072) (he : e.val = ((grid1.coords t) 0).val * 8 + j.val) :
    iblk1 a0 Vin c 0 t (colIdx j) = Vr Vin c main_v11 (valIdx e) := by
  unfold iblk1
  show Vr Vin c main_v11 _ = Vr Vin c main_v11 _
  refine congrArg (Vr Vin c main_v11) ?_
  funext a; apply Fin.ext
  match a with
  | ⟨0, _⟩ =>
    show (BitVec.ofNat 32 ((grid1.coords t) 0).val).toNat * 8 + 1 * j.val = e.val
    rw [coord_word1, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk1 (a0 : (pcfg1 (F := F)).Adm) (Vin : Dev nD → Valuation τ sig (Elt F)) (c : Dev nD) (t : Fin (cfg1 a0).N) :
    gatherBlk (Vr Vin c main_arg0) (tblWord1 c (grid1.coords t) (a0.1 0)) (iblk1 a0 Vin c 0 t)
      = (((cfg1 a0).win 1).blk t).view.read (Elt F) (gout1 a0 Vin c) := by
  funext y
  show gatherBlk _ _ _ y = gout1 a0 Vin c ((((cfg1 a0).win 1).blk t).view.emb y)
  unfold gatherBlk gout1 gatherArr
  have e0 : ((((cfg1 a0).win 1).blk t).view.emb y (0 : Fin 2)).val = ((grid1.coords t) 0).val * 8 + (y 0).val := by
    show (BitVec.ofNat 32 ((grid1.coords t) 0).val).toNat * 8 + 1 * (y 0).val = _
    rw [coord_word1]; omega
  have e1 : (((cfg1 a0).win 1).blk t).view.emb y (1 : Fin 2) = y 1 := Fin.ext (by
    show (0#32 : BitVec 32).toNat * 128 + 1 * (y 1).val = (y 1).val
    show 0 * 128 + 1 * (y 1).val = (y 1).val
    omega)
  rw [tblWord1_eq c (grid1.coords t) (a0.1 0) (y 0) _ e0, valBlk1_eq a0 Vin c t (y 0) _ e0, e1]

end Cert.KernelIdeal.Hand

end
-- ==== Proof.KI.GatherRegion1.lean ====
/-
  Gather region 1 (custom_call 1): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody1
import proofs.«414509_j14181982011419_2_alg».proof.Proof.KI.GatherBlk1
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk1 (a0 : (pcfg1 (F := F)).Adm) : Prop := ∀ e : S131072.Idx, (a0.1 0 e).toNat < 100000

/-! ## The grid and the result window's blocks -/

/-- On the one-axis grid a point's coordinate is its number. -/
theorem regCoords1 (t : Fin grid1.N) : (grid1.coords t 0).val = t.val := by
  have ht : t.val < 16384 := N_1 ▸ t.isLt
  show t.val / grid1.stride 0 % grid1.bound 0 = t.val
  rw [show grid1.stride 0 = 1 from by decide, show grid1.bound 0 = 16384 from rfl, Nat.div_one, Nat.mod_eq_of_lt ht]

/-- A point's number as the 32-bit word the index maps compute with. -/
theorem regWord1 (t : Fin grid1.N) : (BitVec.ofNat 32 (grid1.coords t 0).val).toNat = t.val := by
  have ht : t.val < 16384 := N_1 ▸ t.isLt
  rw [BitVec.toNat_ofNat, regCoords1]; omega

/-- The result window's block at point `t` is block `t` along the rows, at zero along the lanes. -/
theorem regOutIndex1 (a0 : (pcfg1 (F := F)).Adm) (t : Fin (cfg1 a0).N) : ((cfg1 a0).win 1).index t = ![t.val, 0] := by
  show cc1_transform_2 (grid1.coords t) = _
  unfold cc1_transform_2
  funext a; fin_cases a
  · exact regWord1 t
  · rfl

/-- The result window is written back at every point: consecutive points have different blocks. -/
theorem regOutFlush1 (a0 : (pcfg1 (F := F)).Adm) (t : Fin (cfg1 a0).N) : ((cfg1 a0).win 1).flush t = true := by
  have htN : t.val < 16384 := N_1 ▸ t.isLt
  rw [Pipeline.Window.flush_out _ rfl]
  by_cases h : t.val + 1 = 16384
  · exact Or.inl (show t.val + 1 = grid1.N by rw [N_1]; exact h)
  · have hlt : t.val + 1 < grid1.N := by rw [N_1]; omega
    refine Or.inr ⟨hlt, fun e => ?_⟩
    have e' : (![t.val + 1, 0] : Fin 2 → ℕ) = ![t.val, 0] := (regOutIndex1 a0 ⟨t.val + 1, hlt⟩).symm.trans (e.trans (regOutIndex1 a0 t))
    have e0 := congrFun e' 0
    simp at e0

/-- The index table, held as the pipeline's one prefetched table. -/
theorem prefHeldEq1 (a0 : (pcfg1 (F := F)).Adm) (c : Dev nD) :
    (Pipeline.prefHeld (Ix := Unit) (Name := ℕ) (U := UU nD τ) (Lvl := ℕ) pre1 c (fun _ => fullShare) a0.1 : sProp (MM F))
      = pt c (Memref.whole main_v10) (a0.1 0) := by
  unfold Pipeline.prefHeld
  rw [show (Finset.univ : Finset (Fin pre1.K)) = {0} from rfl, BI.bigSep_singleton]
  rfl

/-- The value window's staging buffer holds its block at every point. -/
theorem beforeVal1 (a0 : (pcfg1 (F := F)).Adm) (Vin : Dev nD → Valuation τ sig (Elt F)) (c : Dev nD) (t : Fin (cfg1 a0).N) (d) :
    (dat1 a0 Vin c).before 0 t d = iblk1 a0 Vin c 0 t :=
  ((dat1 a0 Vin c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-! ## The kernel's checks, from the table's range -/

/-- Each of the point's eight words is a word of the table, so a row number. -/
theorem tblWordLt1 (a0 : (pcfg1 (F := F)).Adm) (hok : GatherOk1 a0) (c : Dev nD) (i : grid1.Coords) (j : Fin 8) :
    (tblWord1 c i (a0.1 0) j).toNat < 100000 := by
  unfold tblWord1
  exact hok _

/-- So the kernel's eight checks hold at every point. -/
theorem gatherChk1 (a0 : (pcfg1 (F := F)).Adm) (hok : GatherOk1 a0) (c : Dev nD) (i : grid1.Coords) : GatherChk1 c i (a0.1 0) :=
  ⟨⟨chkRow _ (tblWordLt1 a0 hok c i 0), chkRow _ (tblWordLt1 a0 hok c i 0)⟩,
   ⟨chkRow _ (tblWordLt1 a0 hok c i 1), chkRow _ (tblWordLt1 a0 hok c i 1)⟩,
   ⟨chkRow _ (tblWordLt1 a0 hok c i 2), chkRow _ (tblWordLt1 a0 hok c i 2)⟩,
   ⟨chkRow _ (tblWordLt1 a0 hok c i 3), chkRow _ (tblWordLt1 a0 hok c i 3)⟩,
   ⟨chkRow _ (tblWordLt1 a0 hok c i 4), chkRow _ (tblWordLt1 a0 hok c i 4)⟩,
   ⟨chkRow _ (tblWordLt1 a0 hok c i 5), chkRow _ (tblWordLt1 a0 hok c i 5)⟩,
   ⟨chkRow _ (tblWordLt1 a0 hok c i 6), chkRow _ (tblWordLt1 a0 hok c i 6)⟩,
   chkRow _ (tblWordLt1 a0 hok c i 7)⟩

/-! ## The body obligation, at a generic point -/

/-- What the body is called with at point `t`: the invariant, the core's dues, each window's current staging memref at
    what the pipeline left there, -/
def bodyPre1 (a0 : (pcfg1 (F := F)).Adm) (Vin : Dev nD → Valuation τ sig (Elt F)) (c : Dev nD) (t : Fin (cfg1 a0).N) : sProp (MM F) :=
  iprop((dat1 a0 Vin c).Φ t.castSucc ∗ (dat1 a0 Vin c).owesAt () t.castSucc
    ∗ (∃ d, owns (c : Thread nD τ) (((cfg1 a0).win 0).stage ((cfg1 a0).slots t 0)) fullShare ((dat1 a0 Vin c).before 0 t d))
    ∗ (∃ d, owns (c : Thread nD τ) (((cfg1 a0).win 1).stage ((cfg1 a0).slots t 1)) fullShare ((dat1 a0 Vin c).before 1 t d)))

/-- and what it returns. -/
def bodyPost1 (a0 : (pcfg1 (F := F)).Adm) (Vin : Dev nD → Valuation τ sig (Elt F)) (c : Dev nD) (t : Fin (cfg1 a0).N) : sProp (MM F) :=
  iprop((dat1 a0 Vin c).Φ t.succ ∗ (dat1 a0 Vin c).owesAt () t.succ
    ∗ owns (c : Thread nD τ) (((cfg1 a0).win 0).stage ((cfg1 a0).slots t 0)) fullShare ((dat1 a0 Vin c).after 0 t)
    ∗ owns (c : Thread nD τ) (((cfg1 a0).win 1).stage ((cfg1 a0).slots t 1)) fullShare ((dat1 a0 Vin c).after 1 t))

/-- The body at any point: the invariant opened into the embedding array, the semaphores, the table and the scratch;
    the value window's memref at its block; the checks from the table's range; so the kernel's run applies, and what it
    leaves in the result window's memref is the point's block of the gathered array. -/
theorem sound_body1 (a0 : (pcfg1 (F := F)).Adm) (hok : GatherOk1 a0) (Vin : Dev nD → Valuation τ sig (Elt F)) (c : Dev nD) (t : Fin (cfg1 a0).N) :
    bodyPre1 a0 Vin c t ⊢ wp frame (wpE (defs₀ (F := F)) 𝒱₀ c none) Set.univ
      (defs₀ .tc (cfg1 a0).body ((cfg1 a0).bodyArgs t ((cfg1 a0).slots t))) (fun _ => bodyPost1 a0 Vin c t) := by
  unfold bodyPre1 bodyPost1
  simp only [beforeVal1]
  rw [Phi_eq1, Phi_eq1, after1_0, after1_1, ← gatherBlk_blk1]
  unfold Phi1 Pipeline.Dat.owesAt Pipeline.owesWithin
  rw [owed_eq1, owed_eq1, prefHeldEq1, scopedRest1_split]
  iintro ⟨⟨Hx, Hos, Ht, ⟨%fs, Hs⟩, Hsb⟩, ⟨%W, %hW, HO⟩, ⟨%d0, H0⟩, ⟨%d1, H1⟩⟩
  iapply (gatherRun1 c (grid1.coords t) _ _ _ _ (a0.1 0) (Vr Vin c main_arg0) (iblk1 a0 Vin c 0 t) (gatherChk1 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation1 (a0 : (pcfg1 (F := F)).Adm) (hok : GatherOk1 a0) (Vin : Dev nD → Valuation τ sig (Elt F)) (c : Dev nD) :
    BodyObligation (dat1 a0 Vin c) (defs₀ (F := F)) 𝒱₀ () Set.univ := fun t => by
  rw [bigSep_W1, bigSep_W1]
  exact sound_body1 a0 hok Vin c t

/-! ## From the blocks to the arrays -/

/-- The value array after the region: as entered. -/
theorem arrAt1_in (a0 : (pcfg1 (F := F)).Adm) (Vin : Dev nD → Valuation τ sig (Elt F)) (c : Dev nD) :
    (dat1 a0 Vin c).arrAt 0 (cfg1 a0).N = Vr Vin c main_v11 :=
  ((dat1 a0 Vin c).arrAt_in 0 rfl _).trans (A_eq1 a0 Vin c 0)

/-- Every index of the result array is in some point's block: row `e`, lane `d` is element `(e % 8, d)` of the block
    of point `e / 8`. -/
theorem regOutCover1 (a0 : (pcfg1 (F := F)).Adm) (i : S131072x128.Idx) :
    ∃ t : Fin (cfg1 a0).N, ((cfg1 a0).win 1).flush t = true ∧ i ∈ (((cfg1 a0).win 1).blk t).view.set := by
  have hi0 : (i 0).val < 131072 := (i 0).isLt
  have hi1 : (i 1).val < 128 := (i 1).isLt
  have hN : (i 0).val / 8 < grid1.N := by rw [N_1]; omega
  obtain ⟨t, ht⟩ : ∃ t : Fin (cfg1 a0).N, t.val = (i 0).val / 8 := ⟨⟨_, hN⟩, rfl⟩
  have hx : (((cfg1 a0).win 1).blk t).view.emb (ValueIdx.ix2 ⟨(i 0).val % 8, Nat.mod_lt _ (by decide)⟩ (i 1)) = i := by
    funext a; apply Fin.ext
    have e0 : ((cfg1 a0).win 1).index t (0 : Fin 2) = t.val := congrFun (regOutIndex1 a0 t) (0 : Fin 2)
    have e1 : ((cfg1 a0).win 1).index t (1 : Fin 2) = 0 := congrFun (regOutIndex1 a0 t) (1 : Fin 2)
    match a with
    | ⟨0, _⟩ => show ((cfg1 a0).win 1).index t (0 : Fin 2) * 8 + 1 * ((i 0).val % 8) = (i 0).val; omega
    | ⟨1, _⟩ => show ((cfg1 a0).win 1).index t (1 : Fin 2) * 128 + 1 * (i 1).val = (i 1).val; omega
  exact ⟨t, regOutFlush1 a0 t, hx ▸ (((cfg1 a0).win 1).blk t).view.emb_mem_set _⟩

/-- The result array after the region: the gathered and scaled rows, whole. -/
theorem arrAt1_out (a0 : (pcfg1 (F := F)).Adm) (Vin : Dev nD → Valuation τ sig (Elt F)) (c : Dev nD) :
    (dat1 a0 Vin c).arrAt 1 (cfg1 a0).N = gout1 a0 Vin c :=
  (dat1 a0 Vin c).arrAt_eq_of_cover 1 (gout1 a0 Vin c)
    (fun t _ => by
      show ((cfg1 a0).win 1).cut ((cfg1 a0).grid.coords t) ((dat1 a0 Vin c).after 1 t) = _
      rw [after1_1])
    (regOutCover1 a0)

/-! ## The region as a segment of @main -/

/-- The ownership layout of the kernel's eight semaphores. -/
theorem ownSemFacts1 : Pipeline.OwnSemFacts spec1 osem1 := by decide

/-- The kernel's own cells at zero, listed. -/
theorem ownSemsListed1 (c : Dev nD) :
    (Pipeline.ownSems0 (Ix := Unit) (Name := ℕ) (U := UU nD τ) (Lvl := ℕ) (Val := Elt F) (τ := τ) osem1 c : sProp (MM F)) = sems1 c :=
  Pipeline.ownSems0_eq_of_list c osem1 [0, 1, 2, 3, 4, 5, 6, 7] (by decide) (by decide)

/-- The unscoped buffers that are no window's array, no table, and not the embedding array. -/
abbrev restRefs1 : Finset (Ref sig .tc) :=
  (((Finset.univ.filter fun b : Ref sig .tc => ¬ b.isScoped) \ Finset.univ.image (Pipeline.arrRef spec1)) \ Finset.univ.image pre1.ref) \ {main_arg0}

/-- Those buffers, each whole at its contents under `Vin`: what bypasses the region. -/
def Zrest1 (Vin : Dev nD → Valuation τ sig (Elt F)) (c : Dev nD) : sProp (MM F) :=
  bigSep restRefs1 fun b => ((c : Thread nD τ).loc b) ↦{fullShare} Vr Vin c b

/-- The embedding array is an unscoped buffer that is no window's array and no table. -/
theorem embArrMem1 : ({main_arg0} : Finset (Ref sig .tc)) ⊆
    ((Finset.univ.filter fun b : Ref sig .tc => ¬ b.isScoped) \ Finset.univ.image (Pipeline.arrRef spec1)) \ Finset.univ.image pre1.ref := by
  decide

/-- The unscoped buffers that are no window's array: the index table, the embedding array, and the rest. -/
theorem unscopedRestOpen1 (Vin : Dev nD → Valuation τ sig (Elt F)) (c : Dev nD) :
    (Pipeline.unscopedRest (Ix := Unit) (Name := ℕ) (U := UU nD τ) (Lvl := ℕ) spec1 c (Vr Vin c) : sProp (MM F))
      = iprop(Pipeline.prefHeld pre1 c (fun _ => fullShare) (fun k => Vr Vin c (pre1.ref k))
          ∗ pt c (Memref.whole main_arg0) (Vr Vin c main_arg0) ∗ Zrest1 Vin c) := by
  rw [Pipeline.unscopedRest_split preFacts1 c (Vr Vin c)]
  unfold Pipeline.unscopedRestP Zrest1
  rw [BI.bigSep_sdiff_split embArrMem1, BI.bigSep_singleton]
  rfl

/-- The buffer contents when the region is left: the result array at the gathered rows, every other buffer as entered. -/
abbrev Vout1 (a0 : (pcfg1 (F := F)).Adm) (Vin : Dev nD → Valuation τ sig (Elt F)) (c : Dev nD) : Valuation τ sig (Elt F) :=
  Function.update (Vin c) main_v12 (gout1 a0 Vin c)

/-- At the exit each of the region's arrays holds what the pipeline leaves; -/
theorem hF1 (a0 : (pcfg1 (F := F)).Adm) (Vin : Dev nD → Valuation τ sig (Elt F)) (c : Dev nD) (w : Fin (cfg1 a0).W) :
    (dat1 a0 Vin c).arrAt w (cfg1 a0).N = Vr (Vout1 a0 Vin) c (Pipeline.arrRef spec1 w) := by
  match w with
  | ⟨0, _⟩ =>
    show (dat1 a0 Vin c).arrAt 0 (cfg1 a0).N = Vr (Vout1 a0 Vin) c (Pipeline.arrRef spec1 0)
    rw [arrAt1_in]
    exact (Function.update_of_ne (StableHlo.devRef_ne_of_ne (by decide) : (Proc.devRef .tc main_v11 : DevRef τ sig) ≠ Proc.devRef .tc main_v12) _ _).symm
  | ⟨1, _⟩ =>
    show (dat1 a0 Vin c).arrAt 1 (cfg1 a0).N = Vr (Vout1 a0 Vin) c (Pipeline.arrRef spec1 1)
    rw [arrAt1_out]
    exact (Function.update_self (Proc.devRef .tc main_v12 : DevRef τ sig) _ (Vin c)).symm

/-- and every other buffer what it held at entry. -/
theorem hrest1 (a0 : (pcfg1 (F := F)).Adm) (Vin : Dev nD → Valuation τ sig (Elt F)) (c : Dev nD) :
    ∀ b : Ref sig .tc, b ∉ Finset.univ.image (Pipeline.arrRef spec1) → Vr (Vout1 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat1` at the entry valuation `Vin`
    (`hd`), the index table's contents under `Vin` being the pinned ones (`htbl`) and row numbers (`hok`). -/
def reg1 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk1 (F := F) (a (1 : Fin 34)))
    (hd : ∀ c, pdats (1 : Fin 34) c = dat1 (a (1 : Fin 34)) Vin c) (htbl : ∀ c, (a (1 : Fin 34)).1 = fun k => Vr Vin c (pre1.ref k)) :
    Pipeline.RegionSeg (pcfgs (F := F)) a pdats () defs₀ 𝒱₀ L lv (1 : Fin 34) where
  win := (launch1 (F := F)).win.to₀
  block_pos := (launch1 (F := F)).block_pos
  stage_whole := (launch1 (F := F)).stage_whole
  K := Fin 8
  osem := osem1
  ho := ownSemFacts1
  hbody c := by rw [hd c]; exact (body_obligation1 (a (1 : Fin 34)) hok Vin c).loose
  hwaits := Pipeline.hwaits_of_owed_zero _ _ _ _ L lv (1 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v12 (gout1 (a (1 : Fin 34)) Vin c)) ∗ Rest c)
  X c := iprop(pt c (Memref.whole main_arg0) (Vr Vin c main_arg0) ∗ sems1 c)
  Y c := iprop(pt c (Memref.whole main_arg0) (Vr Vin c main_arg0)
    ∗ Pipeline.prefHeld (Ix := Unit) (Name := ℕ) (U := UU nD τ) (Lvl := ℕ) pre1 c (fun _ => fullShare) (a (1 : Fin 34)).1)
  Z c := Zrest1 Vin c
  hentry c := by
    rw [ownSemsListed1]
    have hsplit := Pipeline.arrays_of_unscopedBufs (p := (1 : Fin 34)) (pcfgs (F := F)) a pdats (launch1 (F := F)).win (launch1 (F := F)).arr_whole c
      ((pdats (1 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen1 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (1 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq1]; unfold Phi1
    iintro ⟨⟨Hx, Hos⟩, Ht, Hr⟩
    isplitl [Hx]; · iexact Hx
    isplitl [Hos]; · iexact Hos
    isplitl [Ht]; · iexact Ht
    iexact Hr
  hout c := by
    rw [ownSemsListed1, hd c, Phi_eq1]; unfold Phi1
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (1 : Fin 34)) (pcfgs (F := F)) a (Ix := Unit) (Name := ℕ) (U := UU nD τ) (Lvl := ℕ)
      (launch1 (F := F)).win (launch1 (F := F)).arr_whole c pdats ((pdats (1 : Fin 34) c).share_full fun _ => by rw [hd c]; rfl)
      (Vr Vin c) (Vr (Vout1 (a (1 : Fin 34)) Vin) c) ((pdats (1 : Fin 34) c).arrAt · (cfg1 (a (1 : Fin 34))).N)
      (fun w => by rw [hd c]; exact hF1 (a (1 : Fin 34)) Vin c w) (hrest1 (a (1 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen1 Vin c).symm)
      isplitl [Ht]; · rw [← htbl c]; iexact Ht
      isplitl [Hx]; · iexact Hx
      iexact Hz
    unfold Pipeline.Dat.owesAt Pipeline.owesWithin
    rw [show (pdats (1 : Fin 34) c).owed (Fin.last _) = 0 from by rw [hd c]; rfl]
    icases HO with ⟨%W, -, HO⟩; iexists W; iexact HO

end Cert.KernelIdeal.Hand

end
-- ==== Proof.KI.GatherDat2.lean ====
/-
  Gather region 2 (custom_call 2): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem2 : Fin 8 → SemLoc sig := fun | 0 => .dma 28 | 1 => .dma 29 | 2 => .dma 30 | 3 => .dma 31 | 4 => .dma 32 | 5 => .dma 33 | 6 => .dma 34 | 7 => .dma 35

/-- The eight counters at zero, as the run finds them and hands them back. -/
abbrev sems2 (c : Dev nD) : sProp (MM F) :=
  iprop(semVal ((c : Thread nD τ), osem2 0) 0 ∗ semVal ((c : Thread nD τ), osem2 1) 0 ∗ semVal ((c : Thread nD τ), osem2 2) 0
    ∗ semVal ((c : Thread nD τ), osem2 3) 0 ∗ semVal ((c : Thread nD τ), osem2 4) 0 ∗ semVal ((c : Thread nD τ), osem2 5) 0
    ∗ semVal ((c : Thread nD τ), osem2 6) 0 ∗ semVal ((c : Thread nD τ), osem2 7) 0)

/-- Word `j` of the eight the index table holds for point `i`, as the kernel's scalar load reads it. -/
def tblWord2 (c : Dev nD) (i : grid2.Coords) (tbl : Bf (F := F) c (Memref.whole main_v13)) (j : Fin 8) : BitVec 32 :=
  (Memref.whole main_v13).view.readAt (Elt F) (Rect.unit (s := S131072) (k2_off1 i (BitVec.ofNat 32 j.val)) S1.size (k2_off1_inb i j)).toLoadRect tbl
    (Shape.Idx.first (s := S1) (numel1_S1.symm ▸ Nat.one_pos))

/-- Window `w`'s block at point `t`, read off its array at the region's entry. -/
def iblk2 (a0 : (pcfg2 (F := F)).Adm) (Vin : Dev nD → Valuation τ sig (Elt F)) (c : Dev nD) (w : Fin (cfg2 a0).W) (t : Fin (cfg2 a0).N) :
    (((cfg2 a0).win w).xblock ((cfg2 a0).grid.coords t)).Idx → Elt F ((cfg2 a0).win w).elt :=
  (((cfg2 a0).win w).blk t).view.read (Elt F) (Vr Vin c (Pipeline.arrRef spec2 w))

/-- The result array the region leaves: the gathered and scaled rows of the embedding array, whole. -/
def gout2 (a0 : (pcfg2 (F := F)).Adm) (Vin : Dev nD → Valuation τ sig (Elt F)) (c : Dev nD) : Buf (Elt F) ((c : Thread nD τ).loc main_v15) :=
  gatherArr (Vr Vin c main_arg0) (a0.1 0) (Vr Vin c main_v14)

/-- The invariant between points: the embedding array as entered, the kernel's semaphores at zero, the index table, the
    scoped buffers no window stages (the kernel's scratch among them). -/
def Phi2 (a0 : (pcfg2 (F := F)).Adm) (Vin : Dev nD → Valuation τ sig (Elt F)) (c : Dev nD) : sProp (MM F) :=
  iprop(pt c (Memref.whole main_arg0) (Vr Vin c main_arg0) ∗ sems2 c
    ∗ Pipeline.prefHeld (Ix := Unit) (Name := ℕ) (U := UU nD τ) (Lvl := ℕ) pre2 c (fun _ => fullShare) a0.1
    ∗ Pipeline.scopedRest (Ix := Unit) (Name := ℕ) (U := UU nD τ) (Lvl := ℕ) (Val := Elt F) spec2 c)

/-- The proof data on core `c`. -/
def dat2 (a0 : (pcfg2 (F := F)).Adm) (Vin : Dev nD → Valuation τ sig (Elt F)) (c : Dev nD) :
    Pipeline.Dat τ (Elt F) Unit ℕ (UU nD τ) ℕ ((pcfg2 (F := F)).at a0) c where
  A w := Vr Vin c (Pipeline.arrRef spec2 w)
  after w t := match w with
    | ⟨0, _⟩ => iblk2 a0 Vin c 0 t
    | ⟨1, _⟩ => (((cfg2 a0).win 1).blk t).view.read (Elt F) (gout2 a0 Vin c)
  Φ _ := Phi2 a0 Vin c
  q _ := fullShare
  owed _ := 0

theorem A_eq2 (a0 : (pcfg2 (F := F)).Adm) (Vin : Dev nD → Valuation τ sig (Elt F)) (c : Dev nD) (w : Fin (cfg2 a0).W) :
    (dat2 a0 Vin c).A w = Vr Vin c (Pipeline.arrRef spec2 w) := by dsimp only [dat2]
theorem after2_0 (a0 : (pcfg2 (F := F)).Adm) (Vin : Dev nD → Valuation τ sig (Elt F)) (c : Dev nD) (t : Fin (cfg2 a0).N) :
    (dat2 a0 Vin c).after 0 t = iblk2 a0 Vin c 0 t := by dsimp only [dat2]; rfl
theorem after2_1 (a0 : (pcfg2 (F := F)).Adm) (Vin : Dev nD → Valuation τ sig (Elt F)) (c : Dev nD) (t : Fin (cfg2 a0).N) :
    (dat2 a0 Vin c).after 1 t = (((cfg2 a0).win 1).blk t).view.read (Elt F) (gout2 a0 Vin c) := by dsimp only [dat2]; rfl
theorem Phi_eq2 (a0 : (pcfg2 (F := F)).Adm) (Vin : Dev nD → Valuation τ sig (Elt F)) (c : Dev nD) (t : Fin ((cfg2 a0).N + 1)) :
    (dat2 a0 Vin c).Φ t = Phi2 a0 Vin c := rfl
theorem owed_eq2 (a0 : (pcfg2 (F := F)).Adm) (Vin : Dev nD → Valuation τ sig (Elt F)) (c : Dev nD) (t : Fin ((cfg2 a0).N + 1)) :
    (dat2 a0 Vin c).owed t = 0 := rfl
theorem q_eq2 (a0 : (pcfg2 (F := F)).Adm) (Vin : Dev nD → Valuation τ sig (Elt F)) (c : Dev nD) (w : Fin (cfg2 a0).W) :
    (dat2 a0 Vin c).q w = fullShare := rfl

/-- The pinned family's configuration at region 2 is this one. -/
example (a : (p : Fin 34) → (pcfgs (F := F) p).Adm) : Pipeline.pin (pcfgs (F := F)) a (2 : Fin 34) = (pcfg2 (F := F)).at (a (2 : Fin 34)) := rfl

end Cert.KernelIdeal.Hand

end
-- ==== Proof.KI.GatherBody2.lean ====
/-
  Gather region 2 (custom_call 2): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat2
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk2 (c : Dev nD) (i : grid2.Coords) (tbl : Bf (F := F) c (Memref.whole main_v13)) : Prop where
  h1 : k2_chk1 (tblWord2 c i tbl 0)
  h2 : k2_chk2 (tblWord2 c i tbl 1)
  h3 : k2_chk3 (tblWord2 c i tbl 2)
  h4 : k2_chk4 (tblWord2 c i tbl 3)
  h5 : k2_chk5 (tblWord2 c i tbl 4)
  h6 : k2_chk6 (tblWord2 c i tbl 5)
  h7 : k2_chk7 (tblWord2 c i tbl 6)
  h8 : k2_chk8 (tblWord2 c i tbl 7)

/-- A one-row slice of the embedding array at the row a word names, read at lane `z 1`: the array's element there. -/
theorem rowRead2 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun2 (c : Dev nD) (i : grid2.Coords)
    (M3 : Memref sig .tc .vmem S8x1 .f32) (h3 : M3.IsWhole) (M4 : Memref sig .tc .vmem S8x128 .f32) (h4 : M4.IsWhole)
    (tbl : Bf (F := F) c (Memref.whole main_v13)) (x : Bf (F := F) c (Memref.whole main_arg0))
    (vb : Vec F S8x1 .f32) (hchk : GatherChk2 c i tbl) (Q : PUnit → sProp (MM F)) :
    iprop(pt c (Memref.whole main_v13) tbl ∗ pt c (Memref.whole main_arg0) x
      ∗ owns (c : Thread nD τ) M3 fullShare vb ∗ (∃ d, owns (c : Thread nD τ) M4 fullShare d)
      ∗ (∃ fs, pt c (Memref.whole cc2_scratch0) fs) ∗ sems2 c ∗ (∃ W, owes (c : Thread nD τ) (0 : CellTallies nD τ sig Unit) W)
      ∗ (iprop(pt c (Memref.whole main_v13) tbl ∗ pt c (Memref.whole main_arg0) x
          ∗ owns (c : Thread nD τ) M3 fullShare vb ∗ owns (c : Thread nD τ) M4 fullShare (gatherBlk x (tblWord2 c i tbl) vb)
          ∗ (∃ fs, pt c (Memref.whole cc2_scratch0) fs) ∗ sems2 c ∗ (∃ W, owes (c : Thread nD τ) (0 : CellTallies nD τ sig Unit) W)) -∗ Q ⟨⟩))
    ⊢ wp frame (wpE (defs₀ (F := F)) 𝒱₀ c none) Set.univ
        (cc2__gather_kernel i (Memref.whole main_v13) (Memref.isWhole_whole _) (Memref.whole main_arg0) (Memref.isWhole_whole _) M3 h3 M4 h4
          (Memref.whole cc2_scratch0) (Memref.isWhole_whole _) cc2_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 28).1 $$ Hx
  icases Hx' with ⟨Hxr, Hx0, Hx1, Hx2, Hx3, Hx4, Hx5, Hx6, Hx7⟩
  sl_unfold [cc2__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 28).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k2_pay1 gatherBlk
    show FloatOps.mulf _ _ = FloatOps.mulf _ _
    congr 1
    · unfold gatherRun2.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun2.sl.dma8 gatherRun2.sl.dma8_1 gatherRun2.sl.dma8_2 gatherRun2.sl.dma8_3 gatherRun2.sl.dma8_4 gatherRun2.sl.dma8_5
        gatherRun2.sl.dma8_6 gatherRun2.sl.dma8_7 gatherRun2.sl.r gatherRun2.sl.r_1 gatherRun2.sl.r_2 gatherRun2.sl.r_3 gatherRun2.sl.r_4
        gatherRun2.sl.r_5 gatherRun2.sl.r_6 gatherRun2.sl.r_7
      refine canonRows8 _ _ _ _ _ _ _ _ _ _ _ _ _ _ _ _ (fun r d => x (embIdx (rowOf (tblWord2 c i tbl r)) d)) ?_ ?_ ?_ ?_ ?_ ?_ ?_ ?_ y
      · exact fun z => rowRead2 c _ (tblWord2 c i tbl 0) rfl rfl _ _ x z
      · exact fun z => rowRead2 c _ (tblWord2 c i tbl 1) rfl rfl _ _ x z
      · exact fun z => rowRead2 c _ (tblWord2 c i tbl 2) rfl rfl _ _ x z
      · exact fun z => rowRead2 c _ (tblWord2 c i tbl 3) rfl rfl _ _ x z
      · exact fun z => rowRead2 c _ (tblWord2 c i tbl 4) rfl rfl _ _ x z
      · exact fun z => rowRead2 c _ (tblWord2 c i tbl 5) rfl rfl _ _ x z
      · exact fun z => rowRead2 c _ (tblWord2 c i tbl 6) rfl rfl _ _ x z
      · exact fun z => rowRead2 c _ (tblWord2 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk2.lean ====
/-
  Gather region 2 (custom_call 2): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat2
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word2 (i : grid2.Coords) (j : Fin 8) : k2_off1 i (BitVec.ofNat 32 j.val) 0 = (i 0).val * 8 + j.val := by
  have hi : (i 0).val < 16384 := (i 0).isLt
  have hj : j.val < 8 := j.isLt
  unfold k2_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word2 (i : grid2.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord2_eq (c : Dev nD) (i : grid2.Coords) (tbl : Bf (F := F) c (Memref.whole main_v13)) (j : Fin 8)
    (e : Fin 131072) (he : e.val = (i 0).val * 8 + j.val) : tblWord2 c i tbl j = tbl (tblIdx e) := by
  unfold tblWord2
  show tbl _ = tbl _
  refine congrArg tbl ?_
  funext a; apply Fin.ext
  match a with
  | ⟨0, _⟩ =>
    show k2_off1 i (BitVec.ofNat 32 j.val) 0 + 1 * 0 = e.val
    rw [off_word2, he]; omega

/-- Row `j` of the value window's block at point `t` is the value array's row `8 t + j`. -/
theorem valBlk2_eq (a0 : (pcfg2 (F := F)).Adm) (Vin : Dev nD → Valuation τ sig (Elt F)) (c : Dev nD) (t : Fin (cfg2 a0).N)
    (j : Fin 8) (e : Fin 131072) (he : e.val = ((grid2.coords t) 0).val * 8 + j.val) :
    iblk2 a0 Vin c 0 t (colIdx j) = Vr Vin c main_v14 (valIdx e) := by
  unfold iblk2
  show Vr Vin c main_v14 _ = Vr Vin c main_v14 _
  refine congrArg (Vr Vin c main_v14) ?_
  funext a; apply Fin.ext
  match a with
  | ⟨0, _⟩ =>
    show (BitVec.ofNat 32 ((grid2.coords t) 0).val).toNat * 8 + 1 * j.val = e.val
    rw [coord_word2, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk2 (a0 : (pcfg2 (F := F)).Adm) (Vin : Dev nD → Valuation τ sig (Elt F)) (c : Dev nD) (t : Fin (cfg2 a0).N) :
    gatherBlk (Vr Vin c main_arg0) (tblWord2 c (grid2.coords t) (a0.1 0)) (iblk2 a0 Vin c 0 t)
      = (((cfg2 a0).win 1).blk t).view.read (Elt F) (gout2 a0 Vin c) := by
  funext y
  show gatherBlk _ _ _ y = gout2 a0 Vin c ((((cfg2 a0).win 1).blk t).view.emb y)
  unfold gatherBlk gout2 gatherArr
  have e0 : ((((cfg2 a0).win 1).blk t).view.emb y (0 : Fin 2)).val = ((grid2.coords t) 0).val * 8 + (y 0).val := by
    show (BitVec.ofNat 32 ((grid2.coords t) 0).val).toNat * 8 + 1 * (y 0).val = _
    rw [coord_word2]; omega
  have e1 : (((cfg2 a0).win 1).blk t).view.emb y (1 : Fin 2) = y 1 := Fin.ext (by
    show (0#32 : BitVec 32).toNat * 128 + 1 * (y 1).val = (y 1).val
    show 0 * 128 + 1 * (y 1).val = (y 1).val
    omega)
  rw [tblWord2_eq c (grid2.coords t) (a0.1 0) (y 0) _ e0, valBlk2_eq a0 Vin c t (y 0) _ e0, e1]

end Cert.KernelIdeal.Hand

end
-- ==== Proof.KI.GatherRegion2.lean ====
/-
  Gather region 2 (custom_call 2): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody2
import proofs.«414509_j14181982011419_2_alg».proof.Proof.KI.GatherBlk2
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk2 (a0 : (pcfg2 (F := F)).Adm) : Prop := ∀ e : S131072.Idx, (a0.1 0 e).toNat < 100000

/-! ## The grid and the result window's blocks -/

/-- On the one-axis grid a point's coordinate is its number. -/
theorem regCoords2 (t : Fin grid2.N) : (grid2.coords t 0).val = t.val := by
  have ht : t.val < 16384 := N_2 ▸ t.isLt
  show t.val / grid2.stride 0 % grid2.bound 0 = t.val
  rw [show grid2.stride 0 = 1 from by decide, show grid2.bound 0 = 16384 from rfl, Nat.div_one, Nat.mod_eq_of_lt ht]

/-- A point's number as the 32-bit word the index maps compute with. -/
theorem regWord2 (t : Fin grid2.N) : (BitVec.ofNat 32 (grid2.coords t 0).val).toNat = t.val := by
  have ht : t.val < 16384 := N_2 ▸ t.isLt
  rw [BitVec.toNat_ofNat, regCoords2]; omega

/-- The result window's block at point `t` is block `t` along the rows, at zero along the lanes. -/
theorem regOutIndex2 (a0 : (pcfg2 (F := F)).Adm) (t : Fin (cfg2 a0).N) : ((cfg2 a0).win 1).index t = ![t.val, 0] := by
  show cc2_transform_2 (grid2.coords t) = _
  unfold cc2_transform_2
  funext a; fin_cases a
  · exact regWord2 t
  · rfl

/-- The result window is written back at every point: consecutive points have different blocks. -/
theorem regOutFlush2 (a0 : (pcfg2 (F := F)).Adm) (t : Fin (cfg2 a0).N) : ((cfg2 a0).win 1).flush t = true := by
  have htN : t.val < 16384 := N_2 ▸ t.isLt
  rw [Pipeline.Window.flush_out _ rfl]
  by_cases h : t.val + 1 = 16384
  · exact Or.inl (show t.val + 1 = grid2.N by rw [N_2]; exact h)
  · have hlt : t.val + 1 < grid2.N := by rw [N_2]; omega
    refine Or.inr ⟨hlt, fun e => ?_⟩
    have e' : (![t.val + 1, 0] : Fin 2 → ℕ) = ![t.val, 0] := (regOutIndex2 a0 ⟨t.val + 1, hlt⟩).symm.trans (e.trans (regOutIndex2 a0 t))
    have e0 := congrFun e' 0
    simp at e0

/-- The index table, held as the pipeline's one prefetched table. -/
theorem prefHeldEq2 (a0 : (pcfg2 (F := F)).Adm) (c : Dev nD) :
    (Pipeline.prefHeld (Ix := Unit) (Name := ℕ) (U := UU nD τ) (Lvl := ℕ) pre2 c (fun _ => fullShare) a0.1 : sProp (MM F))
      = pt c (Memref.whole main_v13) (a0.1 0) := by
  unfold Pipeline.prefHeld
  rw [show (Finset.univ : Finset (Fin pre2.K)) = {0} from rfl, BI.bigSep_singleton]
  rfl

/-- The value window's staging buffer holds its block at every point. -/
theorem beforeVal2 (a0 : (pcfg2 (F := F)).Adm) (Vin : Dev nD → Valuation τ sig (Elt F)) (c : Dev nD) (t : Fin (cfg2 a0).N) (d) :
    (dat2 a0 Vin c).before 0 t d = iblk2 a0 Vin c 0 t :=
  ((dat2 a0 Vin c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-! ## The kernel's checks, from the table's range -/

/-- Each of the point's eight words is a word of the table, so a row number. -/
theorem tblWordLt2 (a0 : (pcfg2 (F := F)).Adm) (hok : GatherOk2 a0) (c : Dev nD) (i : grid2.Coords) (j : Fin 8) :
    (tblWord2 c i (a0.1 0) j).toNat < 100000 := by
  unfold tblWord2
  exact hok _

/-- So the kernel's eight checks hold at every point. -/
theorem gatherChk2 (a0 : (pcfg2 (F := F)).Adm) (hok : GatherOk2 a0) (c : Dev nD) (i : grid2.Coords) : GatherChk2 c i (a0.1 0) :=
  ⟨⟨chkRow _ (tblWordLt2 a0 hok c i 0), chkRow _ (tblWordLt2 a0 hok c i 0)⟩,
   ⟨chkRow _ (tblWordLt2 a0 hok c i 1), chkRow _ (tblWordLt2 a0 hok c i 1)⟩,
   ⟨chkRow _ (tblWordLt2 a0 hok c i 2), chkRow _ (tblWordLt2 a0 hok c i 2)⟩,
   ⟨chkRow _ (tblWordLt2 a0 hok c i 3), chkRow _ (tblWordLt2 a0 hok c i 3)⟩,
   ⟨chkRow _ (tblWordLt2 a0 hok c i 4), chkRow _ (tblWordLt2 a0 hok c i 4)⟩,
   ⟨chkRow _ (tblWordLt2 a0 hok c i 5), chkRow _ (tblWordLt2 a0 hok c i 5)⟩,
   ⟨chkRow _ (tblWordLt2 a0 hok c i 6), chkRow _ (tblWordLt2 a0 hok c i 6)⟩,
   chkRow _ (tblWordLt2 a0 hok c i 7)⟩

/-! ## The body obligation, at a generic point -/

/-- What the body is called with at point `t`: the invariant, the core's dues, each window's current staging memref at
    what the pipeline left there, -/
def bodyPre2 (a0 : (pcfg2 (F := F)).Adm) (Vin : Dev nD → Valuation τ sig (Elt F)) (c : Dev nD) (t : Fin (cfg2 a0).N) : sProp (MM F) :=
  iprop((dat2 a0 Vin c).Φ t.castSucc ∗ (dat2 a0 Vin c).owesAt () t.castSucc
    ∗ (∃ d, owns (c : Thread nD τ) (((cfg2 a0).win 0).stage ((cfg2 a0).slots t 0)) fullShare ((dat2 a0 Vin c).before 0 t d))
    ∗ (∃ d, owns (c : Thread nD τ) (((cfg2 a0).win 1).stage ((cfg2 a0).slots t 1)) fullShare ((dat2 a0 Vin c).before 1 t d)))

/-- and what it returns. -/
def bodyPost2 (a0 : (pcfg2 (F := F)).Adm) (Vin : Dev nD → Valuation τ sig (Elt F)) (c : Dev nD) (t : Fin (cfg2 a0).N) : sProp (MM F) :=
  iprop((dat2 a0 Vin c).Φ t.succ ∗ (dat2 a0 Vin c).owesAt () t.succ
    ∗ owns (c : Thread nD τ) (((cfg2 a0).win 0).stage ((cfg2 a0).slots t 0)) fullShare ((dat2 a0 Vin c).after 0 t)
    ∗ owns (c : Thread nD τ) (((cfg2 a0).win 1).stage ((cfg2 a0).slots t 1)) fullShare ((dat2 a0 Vin c).after 1 t))

/-- The body at any point: the invariant opened into the embedding array, the semaphores, the table and the scratch;
    the value window's memref at its block; the checks from the table's range; so the kernel's run applies, and what it
    leaves in the result window's memref is the point's block of the gathered array. -/
theorem sound_body2 (a0 : (pcfg2 (F := F)).Adm) (hok : GatherOk2 a0) (Vin : Dev nD → Valuation τ sig (Elt F)) (c : Dev nD) (t : Fin (cfg2 a0).N) :
    bodyPre2 a0 Vin c t ⊢ wp frame (wpE (defs₀ (F := F)) 𝒱₀ c none) Set.univ
      (defs₀ .tc (cfg2 a0).body ((cfg2 a0).bodyArgs t ((cfg2 a0).slots t))) (fun _ => bodyPost2 a0 Vin c t) := by
  unfold bodyPre2 bodyPost2
  simp only [beforeVal2]
  rw [Phi_eq2, Phi_eq2, after2_0, after2_1, ← gatherBlk_blk2]
  unfold Phi2 Pipeline.Dat.owesAt Pipeline.owesWithin
  rw [owed_eq2, owed_eq2, prefHeldEq2, scopedRest2_split]
  iintro ⟨⟨Hx, Hos, Ht, ⟨%fs, Hs⟩, Hsb⟩, ⟨%W, %hW, HO⟩, ⟨%d0, H0⟩, ⟨%d1, H1⟩⟩
  iapply (gatherRun2 c (grid2.coords t) _ _ _ _ (a0.1 0) (Vr Vin c main_arg0) (iblk2 a0 Vin c 0 t) (gatherChk2 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation2 (a0 : (pcfg2 (F := F)).Adm) (hok : GatherOk2 a0) (Vin : Dev nD → Valuation τ sig (Elt F)) (c : Dev nD) :
    BodyObligation (dat2 a0 Vin c) (defs₀ (F := F)) 𝒱₀ () Set.univ := fun t => by
  rw [bigSep_W2, bigSep_W2]
  exact sound_body2 a0 hok Vin c t

/-! ## From the blocks to the arrays -/

/-- The value array after the region: as entered. -/
theorem arrAt2_in (a0 : (pcfg2 (F := F)).Adm) (Vin : Dev nD → Valuation τ sig (Elt F)) (c : Dev nD) :
    (dat2 a0 Vin c).arrAt 0 (cfg2 a0).N = Vr Vin c main_v14 :=
  ((dat2 a0 Vin c).arrAt_in 0 rfl _).trans (A_eq2 a0 Vin c 0)

/-- Every index of the result array is in some point's block: row `e`, lane `d` is element `(e % 8, d)` of the block
    of point `e / 8`. -/
theorem regOutCover2 (a0 : (pcfg2 (F := F)).Adm) (i : S131072x128.Idx) :
    ∃ t : Fin (cfg2 a0).N, ((cfg2 a0).win 1).flush t = true ∧ i ∈ (((cfg2 a0).win 1).blk t).view.set := by
  have hi0 : (i 0).val < 131072 := (i 0).isLt
  have hi1 : (i 1).val < 128 := (i 1).isLt
  have hN : (i 0).val / 8 < grid2.N := by rw [N_2]; omega
  obtain ⟨t, ht⟩ : ∃ t : Fin (cfg2 a0).N, t.val = (i 0).val / 8 := ⟨⟨_, hN⟩, rfl⟩
  have hx : (((cfg2 a0).win 1).blk t).view.emb (ValueIdx.ix2 ⟨(i 0).val % 8, Nat.mod_lt _ (by decide)⟩ (i 1)) = i := by
    funext a; apply Fin.ext
    have e0 : ((cfg2 a0).win 1).index t (0 : Fin 2) = t.val := congrFun (regOutIndex2 a0 t) (0 : Fin 2)
    have e1 : ((cfg2 a0).win 1).index t (1 : Fin 2) = 0 := congrFun (regOutIndex2 a0 t) (1 : Fin 2)
    match a with
    | ⟨0, _⟩ => show ((cfg2 a0).win 1).index t (0 : Fin 2) * 8 + 1 * ((i 0).val % 8) = (i 0).val; omega
    | ⟨1, _⟩ => show ((cfg2 a0).win 1).index t (1 : Fin 2) * 128 + 1 * (i 1).val = (i 1).val; omega
  exact ⟨t, regOutFlush2 a0 t, hx ▸ (((cfg2 a0).win 1).blk t).view.emb_mem_set _⟩

/-- The result array after the region: the gathered and scaled rows, whole. -/
theorem arrAt2_out (a0 : (pcfg2 (F := F)).Adm) (Vin : Dev nD → Valuation τ sig (Elt F)) (c : Dev nD) :
    (dat2 a0 Vin c).arrAt 1 (cfg2 a0).N = gout2 a0 Vin c :=
  (dat2 a0 Vin c).arrAt_eq_of_cover 1 (gout2 a0 Vin c)
    (fun t _ => by
      show ((cfg2 a0).win 1).cut ((cfg2 a0).grid.coords t) ((dat2 a0 Vin c).after 1 t) = _
      rw [after2_1])
    (regOutCover2 a0)

/-! ## The region as a segment of @main -/

/-- The ownership layout of the kernel's eight semaphores. -/
theorem ownSemFacts2 : Pipeline.OwnSemFacts spec2 osem2 := by decide

/-- The kernel's own cells at zero, listed. -/
theorem ownSemsListed2 (c : Dev nD) :
    (Pipeline.ownSems0 (Ix := Unit) (Name := ℕ) (U := UU nD τ) (Lvl := ℕ) (Val := Elt F) (τ := τ) osem2 c : sProp (MM F)) = sems2 c :=
  Pipeline.ownSems0_eq_of_list c osem2 [0, 1, 2, 3, 4, 5, 6, 7] (by decide) (by decide)

/-- The unscoped buffers that are no window's array, no table, and not the embedding array. -/
abbrev restRefs2 : Finset (Ref sig .tc) :=
  (((Finset.univ.filter fun b : Ref sig .tc => ¬ b.isScoped) \ Finset.univ.image (Pipeline.arrRef spec2)) \ Finset.univ.image pre2.ref) \ {main_arg0}

/-- Those buffers, each whole at its contents under `Vin`: what bypasses the region. -/
def Zrest2 (Vin : Dev nD → Valuation τ sig (Elt F)) (c : Dev nD) : sProp (MM F) :=
  bigSep restRefs2 fun b => ((c : Thread nD τ).loc b) ↦{fullShare} Vr Vin c b

/-- The embedding array is an unscoped buffer that is no window's array and no table. -/
theorem embArrMem2 : ({main_arg0} : Finset (Ref sig .tc)) ⊆
    ((Finset.univ.filter fun b : Ref sig .tc => ¬ b.isScoped) \ Finset.univ.image (Pipeline.arrRef spec2)) \ Finset.univ.image pre2.ref := by
  decide

/-- The unscoped buffers that are no window's array: the index table, the embedding array, and the rest. -/
theorem unscopedRestOpen2 (Vin : Dev nD → Valuation τ sig (Elt F)) (c : Dev nD) :
    (Pipeline.unscopedRest (Ix := Unit) (Name := ℕ) (U := UU nD τ) (Lvl := ℕ) spec2 c (Vr Vin c) : sProp (MM F))
      = iprop(Pipeline.prefHeld pre2 c (fun _ => fullShare) (fun k => Vr Vin c (pre2.ref k))
          ∗ pt c (Memref.whole main_arg0) (Vr Vin c main_arg0) ∗ Zrest2 Vin c) := by
  rw [Pipeline.unscopedRest_split preFacts2 c (Vr Vin c)]
  unfold Pipeline.unscopedRestP Zrest2
  rw [BI.bigSep_sdiff_split embArrMem2, BI.bigSep_singleton]
  rfl

/-- The buffer contents when the region is left: the result array at the gathered rows, every other buffer as entered. -/
abbrev Vout2 (a0 : (pcfg2 (F := F)).Adm) (Vin : Dev nD → Valuation τ sig (Elt F)) (c : Dev nD) : Valuation τ sig (Elt F) :=
  Function.update (Vin c) main_v15 (gout2 a0 Vin c)

/-- At the exit each of the region's arrays holds what the pipeline leaves; -/
theorem hF2 (a0 : (pcfg2 (F := F)).Adm) (Vin : Dev nD → Valuation τ sig (Elt F)) (c : Dev nD) (w : Fin (cfg2 a0).W) :
    (dat2 a0 Vin c).arrAt w (cfg2 a0).N = Vr (Vout2 a0 Vin) c (Pipeline.arrRef spec2 w) := by
  match w with
  | ⟨0, _⟩ =>
    show (dat2 a0 Vin c).arrAt 0 (cfg2 a0).N = Vr (Vout2 a0 Vin) c (Pipeline.arrRef spec2 0)
    rw [arrAt2_in]
    exact (Function.update_of_ne (StableHlo.devRef_ne_of_ne (by decide) : (Proc.devRef .tc main_v14 : DevRef τ sig) ≠ Proc.devRef .tc main_v15) _ _).symm
  | ⟨1, _⟩ =>
    show (dat2 a0 Vin c).arrAt 1 (cfg2 a0).N = Vr (Vout2 a0 Vin) c (Pipeline.arrRef spec2 1)
    rw [arrAt2_out]
    exact (Function.update_self (Proc.devRef .tc main_v15 : DevRef τ sig) _ (Vin c)).symm

/-- and every other buffer what it held at entry. -/
theorem hrest2 (a0 : (pcfg2 (F := F)).Adm) (Vin : Dev nD → Valuation τ sig (Elt F)) (c : Dev nD) :
    ∀ b : Ref sig .tc, b ∉ Finset.univ.image (Pipeline.arrRef spec2) → Vr (Vout2 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat2` at the entry valuation `Vin`
    (`hd`), the index table's contents under `Vin` being the pinned ones (`htbl`) and row numbers (`hok`). -/
def reg2 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk2 (F := F) (a (2 : Fin 34)))
    (hd : ∀ c, pdats (2 : Fin 34) c = dat2 (a (2 : Fin 34)) Vin c) (htbl : ∀ c, (a (2 : Fin 34)).1 = fun k => Vr Vin c (pre2.ref k)) :
    Pipeline.RegionSeg (pcfgs (F := F)) a pdats () defs₀ 𝒱₀ L lv (2 : Fin 34) where
  win := (launch2 (F := F)).win.to₀
  block_pos := (launch2 (F := F)).block_pos
  stage_whole := (launch2 (F := F)).stage_whole
  K := Fin 8
  osem := osem2
  ho := ownSemFacts2
  hbody c := by rw [hd c]; exact (body_obligation2 (a (2 : Fin 34)) hok Vin c).loose
  hwaits := Pipeline.hwaits_of_owed_zero _ _ _ _ L lv (2 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v15 (gout2 (a (2 : Fin 34)) Vin c)) ∗ Rest c)
  X c := iprop(pt c (Memref.whole main_arg0) (Vr Vin c main_arg0) ∗ sems2 c)
  Y c := iprop(pt c (Memref.whole main_arg0) (Vr Vin c main_arg0)
    ∗ Pipeline.prefHeld (Ix := Unit) (Name := ℕ) (U := UU nD τ) (Lvl := ℕ) pre2 c (fun _ => fullShare) (a (2 : Fin 34)).1)
  Z c := Zrest2 Vin c
  hentry c := by
    rw [ownSemsListed2]
    have hsplit := Pipeline.arrays_of_unscopedBufs (p := (2 : Fin 34)) (pcfgs (F := F)) a pdats (launch2 (F := F)).win (launch2 (F := F)).arr_whole c
      ((pdats (2 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen2 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (2 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq2]; unfold Phi2
    iintro ⟨⟨Hx, Hos⟩, Ht, Hr⟩
    isplitl [Hx]; · iexact Hx
    isplitl [Hos]; · iexact Hos
    isplitl [Ht]; · iexact Ht
    iexact Hr
  hout c := by
    rw [ownSemsListed2, hd c, Phi_eq2]; unfold Phi2
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (2 : Fin 34)) (pcfgs (F := F)) a (Ix := Unit) (Name := ℕ) (U := UU nD τ) (Lvl := ℕ)
      (launch2 (F := F)).win (launch2 (F := F)).arr_whole c pdats ((pdats (2 : Fin 34) c).share_full fun _ => by rw [hd c]; rfl)
      (Vr Vin c) (Vr (Vout2 (a (2 : Fin 34)) Vin) c) ((pdats (2 : Fin 34) c).arrAt · (cfg2 (a (2 : Fin 34))).N)
      (fun w => by rw [hd c]; exact hF2 (a (2 : Fin 34)) Vin c w) (hrest2 (a (2 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen2 Vin c).symm)
      isplitl [Ht]; · rw [← htbl c]; iexact Ht
      isplitl [Hx]; · iexact Hx
      iexact Hz
    unfold Pipeline.Dat.owesAt Pipeline.owesWithin
    rw [show (pdats (2 : Fin 34) c).owed (Fin.last _) = 0 from by rw [hd c]; rfl]
    icases HO with ⟨%W, -, HO⟩; iexists W; iexact HO

end Cert.KernelIdeal.Hand

end
-- ==== Proof.KI.GatherDat3.lean ====
/-
  Gather region 3 (custom_call 3): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem3 : Fin 8 → SemLoc sig := fun | 0 => .dma 40 | 1 => .dma 41 | 2 => .dma 42 | 3 => .dma 43 | 4 => .dma 44 | 5 => .dma 45 | 6 => .dma 46 | 7 => .dma 47

/-- The eight counters at zero, as the run finds them and hands them back. -/
abbrev sems3 (c : Dev nD) : sProp (MM F) :=
  iprop(semVal ((c : Thread nD τ), osem3 0) 0 ∗ semVal ((c : Thread nD τ), osem3 1) 0 ∗ semVal ((c : Thread nD τ), osem3 2) 0
    ∗ semVal ((c : Thread nD τ), osem3 3) 0 ∗ semVal ((c : Thread nD τ), osem3 4) 0 ∗ semVal ((c : Thread nD τ), osem3 5) 0
    ∗ semVal ((c : Thread nD τ), osem3 6) 0 ∗ semVal ((c : Thread nD τ), osem3 7) 0)

/-- Word `j` of the eight the index table holds for point `i`, as the kernel's scalar load reads it. -/
def tblWord3 (c : Dev nD) (i : grid3.Coords) (tbl : Bf (F := F) c (Memref.whole main_v16)) (j : Fin 8) : BitVec 32 :=
  (Memref.whole main_v16).view.readAt (Elt F) (Rect.unit (s := S131072) (k3_off1 i (BitVec.ofNat 32 j.val)) S1.size (k3_off1_inb i j)).toLoadRect tbl
    (Shape.Idx.first (s := S1) (numel1_S1.symm ▸ Nat.one_pos))

/-- Window `w`'s block at point `t`, read off its array at the region's entry. -/
def iblk3 (a0 : (pcfg3 (F := F)).Adm) (Vin : Dev nD → Valuation τ sig (Elt F)) (c : Dev nD) (w : Fin (cfg3 a0).W) (t : Fin (cfg3 a0).N) :
    (((cfg3 a0).win w).xblock ((cfg3 a0).grid.coords t)).Idx → Elt F ((cfg3 a0).win w).elt :=
  (((cfg3 a0).win w).blk t).view.read (Elt F) (Vr Vin c (Pipeline.arrRef spec3 w))

/-- The result array the region leaves: the gathered and scaled rows of the embedding array, whole. -/
def gout3 (a0 : (pcfg3 (F := F)).Adm) (Vin : Dev nD → Valuation τ sig (Elt F)) (c : Dev nD) : Buf (Elt F) ((c : Thread nD τ).loc main_v18) :=
  gatherArr (Vr Vin c main_arg0) (a0.1 0) (Vr Vin c main_v17)

/-- The invariant between points: the embedding array as entered, the kernel's semaphores at zero, the index table, the
    scoped buffers no window stages (the kernel's scratch among them). -/
def Phi3 (a0 : (pcfg3 (F := F)).Adm) (Vin : Dev nD → Valuation τ sig (Elt F)) (c : Dev nD) : sProp (MM F) :=
  iprop(pt c (Memref.whole main_arg0) (Vr Vin c main_arg0) ∗ sems3 c
    ∗ Pipeline.prefHeld (Ix := Unit) (Name := ℕ) (U := UU nD τ) (Lvl := ℕ) pre3 c (fun _ => fullShare) a0.1
    ∗ Pipeline.scopedRest (Ix := Unit) (Name := ℕ) (U := UU nD τ) (Lvl := ℕ) (Val := Elt F) spec3 c)

/-- The proof data on core `c`. -/
def dat3 (a0 : (pcfg3 (F := F)).Adm) (Vin : Dev nD → Valuation τ sig (Elt F)) (c : Dev nD) :
    Pipeline.Dat τ (Elt F) Unit ℕ (UU nD τ) ℕ ((pcfg3 (F := F)).at a0) c where
  A w := Vr Vin c (Pipeline.arrRef spec3 w)
  after w t := match w with
    | ⟨0, _⟩ => iblk3 a0 Vin c 0 t
    | ⟨1, _⟩ => (((cfg3 a0).win 1).blk t).view.read (Elt F) (gout3 a0 Vin c)
  Φ _ := Phi3 a0 Vin c
  q _ := fullShare
  owed _ := 0

theorem A_eq3 (a0 : (pcfg3 (F := F)).Adm) (Vin : Dev nD → Valuation τ sig (Elt F)) (c : Dev nD) (w : Fin (cfg3 a0).W) :
    (dat3 a0 Vin c).A w = Vr Vin c (Pipeline.arrRef spec3 w) := by dsimp only [dat3]
theorem after3_0 (a0 : (pcfg3 (F := F)).Adm) (Vin : Dev nD → Valuation τ sig (Elt F)) (c : Dev nD) (t : Fin (cfg3 a0).N) :
    (dat3 a0 Vin c).after 0 t = iblk3 a0 Vin c 0 t := by dsimp only [dat3]; rfl
theorem after3_1 (a0 : (pcfg3 (F := F)).Adm) (Vin : Dev nD → Valuation τ sig (Elt F)) (c : Dev nD) (t : Fin (cfg3 a0).N) :
    (dat3 a0 Vin c).after 1 t = (((cfg3 a0).win 1).blk t).view.read (Elt F) (gout3 a0 Vin c) := by dsimp only [dat3]; rfl
theorem Phi_eq3 (a0 : (pcfg3 (F := F)).Adm) (Vin : Dev nD → Valuation τ sig (Elt F)) (c : Dev nD) (t : Fin ((cfg3 a0).N + 1)) :
    (dat3 a0 Vin c).Φ t = Phi3 a0 Vin c := rfl
theorem owed_eq3 (a0 : (pcfg3 (F := F)).Adm) (Vin : Dev nD → Valuation τ sig (Elt F)) (c : Dev nD) (t : Fin ((cfg3 a0).N + 1)) :
    (dat3 a0 Vin c).owed t = 0 := rfl
theorem q_eq3 (a0 : (pcfg3 (F := F)).Adm) (Vin : Dev nD → Valuation τ sig (Elt F)) (c : Dev nD) (w : Fin (cfg3 a0).W) :
    (dat3 a0 Vin c).q w = fullShare := rfl

/-- The pinned family's configuration at region 3 is this one. -/
example (a : (p : Fin 34) → (pcfgs (F := F) p).Adm) : Pipeline.pin (pcfgs (F := F)) a (3 : Fin 34) = (pcfg3 (F := F)).at (a (3 : Fin 34)) := rfl

end Cert.KernelIdeal.Hand

end
-- ==== Proof.KI.GatherBody3.lean ====
/-
  Gather region 3 (custom_call 3): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat3
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk3 (c : Dev nD) (i : grid3.Coords) (tbl : Bf (F := F) c (Memref.whole main_v16)) : Prop where
  h1 : k3_chk1 (tblWord3 c i tbl 0)
  h2 : k3_chk2 (tblWord3 c i tbl 1)
  h3 : k3_chk3 (tblWord3 c i tbl 2)
  h4 : k3_chk4 (tblWord3 c i tbl 3)
  h5 : k3_chk5 (tblWord3 c i tbl 4)
  h6 : k3_chk6 (tblWord3 c i tbl 5)
  h7 : k3_chk7 (tblWord3 c i tbl 6)
  h8 : k3_chk8 (tblWord3 c i tbl 7)

/-- A one-row slice of the embedding array at the row a word names, read at lane `z 1`: the array's element there. -/
theorem rowRead3 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun3 (c : Dev nD) (i : grid3.Coords)
    (M3 : Memref sig .tc .vmem S8x1 .f32) (h3 : M3.IsWhole) (M4 : Memref sig .tc .vmem S8x128 .f32) (h4 : M4.IsWhole)
    (tbl : Bf (F := F) c (Memref.whole main_v16)) (x : Bf (F := F) c (Memref.whole main_arg0))
    (vb : Vec F S8x1 .f32) (hchk : GatherChk3 c i tbl) (Q : PUnit → sProp (MM F)) :
    iprop(pt c (Memref.whole main_v16) tbl ∗ pt c (Memref.whole main_arg0) x
      ∗ owns (c : Thread nD τ) M3 fullShare vb ∗ (∃ d, owns (c : Thread nD τ) M4 fullShare d)
      ∗ (∃ fs, pt c (Memref.whole cc3_scratch0) fs) ∗ sems3 c ∗ (∃ W, owes (c : Thread nD τ) (0 : CellTallies nD τ sig Unit) W)
      ∗ (iprop(pt c (Memref.whole main_v16) tbl ∗ pt c (Memref.whole main_arg0) x
          ∗ owns (c : Thread nD τ) M3 fullShare vb ∗ owns (c : Thread nD τ) M4 fullShare (gatherBlk x (tblWord3 c i tbl) vb)
          ∗ (∃ fs, pt c (Memref.whole cc3_scratch0) fs) ∗ sems3 c ∗ (∃ W, owes (c : Thread nD τ) (0 : CellTallies nD τ sig Unit) W)) -∗ Q ⟨⟩))
    ⊢ wp frame (wpE (defs₀ (F := F)) 𝒱₀ c none) Set.univ
        (cc3__gather_kernel i (Memref.whole main_v16) (Memref.isWhole_whole _) (Memref.whole main_arg0) (Memref.isWhole_whole _) M3 h3 M4 h4
          (Memref.whole cc3_scratch0) (Memref.isWhole_whole _) cc3_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 40).1 $$ Hx
  icases Hx' with ⟨Hxr, Hx0, Hx1, Hx2, Hx3, Hx4, Hx5, Hx6, Hx7⟩
  sl_unfold [cc3__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 40).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k3_pay1 gatherBlk
    show FloatOps.mulf _ _ = FloatOps.mulf _ _
    congr 1
    · unfold gatherRun3.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun3.sl.dma8 gatherRun3.sl.dma8_1 gatherRun3.sl.dma8_2 gatherRun3.sl.dma8_3 gatherRun3.sl.dma8_4 gatherRun3.sl.dma8_5
        gatherRun3.sl.dma8_6 gatherRun3.sl.dma8_7 gatherRun3.sl.r gatherRun3.sl.r_1 gatherRun3.sl.r_2 gatherRun3.sl.r_3 gatherRun3.sl.r_4
        gatherRun3.sl.r_5 gatherRun3.sl.r_6 gatherRun3.sl.r_7
      refine canonRows8 _ _ _ _ _ _ _ _ _ _ _ _ _ _ _ _ (fun r d => x (embIdx (rowOf (tblWord3 c i tbl r)) d)) ?_ ?_ ?_ ?_ ?_ ?_ ?_ ?_ y
      · exact fun z => rowRead3 c _ (tblWord3 c i tbl 0) rfl rfl _ _ x z
      · exact fun z => rowRead3 c _ (tblWord3 c i tbl 1) rfl rfl _ _ x z
      · exact fun z => rowRead3 c _ (tblWord3 c i tbl 2) rfl rfl _ _ x z
      · exact fun z => rowRead3 c _ (tblWord3 c i tbl 3) rfl rfl _ _ x z
      · exact fun z => rowRead3 c _ (tblWord3 c i tbl 4) rfl rfl _ _ x z
      · exact fun z => rowRead3 c _ (tblWord3 c i tbl 5) rfl rfl _ _ x z
      · exact fun z => rowRead3 c _ (tblWord3 c i tbl 6) rfl rfl _ _ x z
      · exact fun z => rowRead3 c _ (tblWord3 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk3.lean ====
/-
  Gather region 3 (custom_call 3): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat3
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word3 (i : grid3.Coords) (j : Fin 8) : k3_off1 i (BitVec.ofNat 32 j.val) 0 = (i 0).val * 8 + j.val := by
  have hi : (i 0).val < 16384 := (i 0).isLt
  have hj : j.val < 8 := j.isLt
  unfold k3_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word3 (i : grid3.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord3_eq (c : Dev nD) (i : grid3.Coords) (tbl : Bf (F := F) c (Memref.whole main_v16)) (j : Fin 8)
    (e : Fin 131072) (he : e.val = (i 0).val * 8 + j.val) : tblWord3 c i tbl j = tbl (tblIdx e) := by
  unfold tblWord3
  show tbl _ = tbl _
  refine congrArg tbl ?_
  funext a; apply Fin.ext
  match a with
  | ⟨0, _⟩ =>
    show k3_off1 i (BitVec.ofNat 32 j.val) 0 + 1 * 0 = e.val
    rw [off_word3, he]; omega

/-- Row `j` of the value window's block at point `t` is the value array's row `8 t + j`. -/
theorem valBlk3_eq (a0 : (pcfg3 (F := F)).Adm) (Vin : Dev nD → Valuation τ sig (Elt F)) (c : Dev nD) (t : Fin (cfg3 a0).N)
    (j : Fin 8) (e : Fin 131072) (he : e.val = ((grid3.coords t) 0).val * 8 + j.val) :
    iblk3 a0 Vin c 0 t (colIdx j) = Vr Vin c main_v17 (valIdx e) := by
  unfold iblk3
  show Vr Vin c main_v17 _ = Vr Vin c main_v17 _
  refine congrArg (Vr Vin c main_v17) ?_
  funext a; apply Fin.ext
  match a with
  | ⟨0, _⟩ =>
    show (BitVec.ofNat 32 ((grid3.coords t) 0).val).toNat * 8 + 1 * j.val = e.val
    rw [coord_word3, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk3 (a0 : (pcfg3 (F := F)).Adm) (Vin : Dev nD → Valuation τ sig (Elt F)) (c : Dev nD) (t : Fin (cfg3 a0).N) :
    gatherBlk (Vr Vin c main_arg0) (tblWord3 c (grid3.coords t) (a0.1 0)) (iblk3 a0 Vin c 0 t)
      = (((cfg3 a0).win 1).blk t).view.read (Elt F) (gout3 a0 Vin c) := by
  funext y
  show gatherBlk _ _ _ y = gout3 a0 Vin c ((((cfg3 a0).win 1).blk t).view.emb y)
  unfold gatherBlk gout3 gatherArr
  have e0 : ((((cfg3 a0).win 1).blk t).view.emb y (0 : Fin 2)).val = ((grid3.coords t) 0).val * 8 + (y 0).val := by
    show (BitVec.ofNat 32 ((grid3.coords t) 0).val).toNat * 8 + 1 * (y 0).val = _
    rw [coord_word3]; omega
  have e1 : (((cfg3 a0).win 1).blk t).view.emb y (1 : Fin 2) = y 1 := Fin.ext (by
    show (0#32 : BitVec 32).toNat * 128 + 1 * (y 1).val = (y 1).val
    show 0 * 128 + 1 * (y 1).val = (y 1).val
    omega)
  rw [tblWord3_eq c (grid3.coords t) (a0.1 0) (y 0) _ e0, valBlk3_eq a0 Vin c t (y 0) _ e0, e1]

end Cert.KernelIdeal.Hand

end
-- ==== Proof.KI.GatherRegion3.lean ====
/-
  Gather region 3 (custom_call 3): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody3
import proofs.«414509_j14181982011419_2_alg».proof.Proof.KI.GatherBlk3
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk3 (a0 : (pcfg3 (F := F)).Adm) : Prop := ∀ e : S131072.Idx, (a0.1 0 e).toNat < 100000

/-! ## The grid and the result window's blocks -/

/-- On the one-axis grid a point's coordinate is its number. -/
theorem regCoords3 (t : Fin grid3.N) : (grid3.coords t 0).val = t.val := by
  have ht : t.val < 16384 := N_3 ▸ t.isLt
  show t.val / grid3.stride 0 % grid3.bound 0 = t.val
  rw [show grid3.stride 0 = 1 from by decide, show grid3.bound 0 = 16384 from rfl, Nat.div_one, Nat.mod_eq_of_lt ht]

/-- A point's number as the 32-bit word the index maps compute with. -/
theorem regWord3 (t : Fin grid3.N) : (BitVec.ofNat 32 (grid3.coords t 0).val).toNat = t.val := by
  have ht : t.val < 16384 := N_3 ▸ t.isLt
  rw [BitVec.toNat_ofNat, regCoords3]; omega

/-- The result window's block at point `t` is block `t` along the rows, at zero along the lanes. -/
theorem regOutIndex3 (a0 : (pcfg3 (F := F)).Adm) (t : Fin (cfg3 a0).N) : ((cfg3 a0).win 1).index t = ![t.val, 0] := by
  show cc3_transform_2 (grid3.coords t) = _
  unfold cc3_transform_2
  funext a; fin_cases a
  · exact regWord3 t
  · rfl

/-- The result window is written back at every point: consecutive points have different blocks. -/
theorem regOutFlush3 (a0 : (pcfg3 (F := F)).Adm) (t : Fin (cfg3 a0).N) : ((cfg3 a0).win 1).flush t = true := by
  have htN : t.val < 16384 := N_3 ▸ t.isLt
  rw [Pipeline.Window.flush_out _ rfl]
  by_cases h : t.val + 1 = 16384
  · exact Or.inl (show t.val + 1 = grid3.N by rw [N_3]; exact h)
  · have hlt : t.val + 1 < grid3.N := by rw [N_3]; omega
    refine Or.inr ⟨hlt, fun e => ?_⟩
    have e' : (![t.val + 1, 0] : Fin 2 → ℕ) = ![t.val, 0] := (regOutIndex3 a0 ⟨t.val + 1, hlt⟩).symm.trans (e.trans (regOutIndex3 a0 t))
    have e0 := congrFun e' 0
    simp at e0

/-- The index table, held as the pipeline's one prefetched table. -/
theorem prefHeldEq3 (a0 : (pcfg3 (F := F)).Adm) (c : Dev nD) :
    (Pipeline.prefHeld (Ix := Unit) (Name := ℕ) (U := UU nD τ) (Lvl := ℕ) pre3 c (fun _ => fullShare) a0.1 : sProp (MM F))
      = pt c (Memref.whole main_v16) (a0.1 0) := by
  unfold Pipeline.prefHeld
  rw [show (Finset.univ : Finset (Fin pre3.K)) = {0} from rfl, BI.bigSep_singleton]
  rfl

/-- The value window's staging buffer holds its block at every point. -/
theorem beforeVal3 (a0 : (pcfg3 (F := F)).Adm) (Vin : Dev nD → Valuation τ sig (Elt F)) (c : Dev nD) (t : Fin (cfg3 a0).N) (d) :
    (dat3 a0 Vin c).before 0 t d = iblk3 a0 Vin c 0 t :=
  ((dat3 a0 Vin c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-! ## The kernel's checks, from the table's range -/

/-- Each of the point's eight words is a word of the table, so a row number. -/
theorem tblWordLt3 (a0 : (pcfg3 (F := F)).Adm) (hok : GatherOk3 a0) (c : Dev nD) (i : grid3.Coords) (j : Fin 8) :
    (tblWord3 c i (a0.1 0) j).toNat < 100000 := by
  unfold tblWord3
  exact hok _

/-- So the kernel's eight checks hold at every point. -/
theorem gatherChk3 (a0 : (pcfg3 (F := F)).Adm) (hok : GatherOk3 a0) (c : Dev nD) (i : grid3.Coords) : GatherChk3 c i (a0.1 0) :=
  ⟨⟨chkRow _ (tblWordLt3 a0 hok c i 0), chkRow _ (tblWordLt3 a0 hok c i 0)⟩,
   ⟨chkRow _ (tblWordLt3 a0 hok c i 1), chkRow _ (tblWordLt3 a0 hok c i 1)⟩,
   ⟨chkRow _ (tblWordLt3 a0 hok c i 2), chkRow _ (tblWordLt3 a0 hok c i 2)⟩,
   ⟨chkRow _ (tblWordLt3 a0 hok c i 3), chkRow _ (tblWordLt3 a0 hok c i 3)⟩,
   ⟨chkRow _ (tblWordLt3 a0 hok c i 4), chkRow _ (tblWordLt3 a0 hok c i 4)⟩,
   ⟨chkRow _ (tblWordLt3 a0 hok c i 5), chkRow _ (tblWordLt3 a0 hok c i 5)⟩,
   ⟨chkRow _ (tblWordLt3 a0 hok c i 6), chkRow _ (tblWordLt3 a0 hok c i 6)⟩,
   chkRow _ (tblWordLt3 a0 hok c i 7)⟩

/-! ## The body obligation, at a generic point -/

/-- What the body is called with at point `t`: the invariant, the core's dues, each window's current staging memref at
    what the pipeline left there, -/
def bodyPre3 (a0 : (pcfg3 (F := F)).Adm) (Vin : Dev nD → Valuation τ sig (Elt F)) (c : Dev nD) (t : Fin (cfg3 a0).N) : sProp (MM F) :=
  iprop((dat3 a0 Vin c).Φ t.castSucc ∗ (dat3 a0 Vin c).owesAt () t.castSucc
    ∗ (∃ d, owns (c : Thread nD τ) (((cfg3 a0).win 0).stage ((cfg3 a0).slots t 0)) fullShare ((dat3 a0 Vin c).before 0 t d))
    ∗ (∃ d, owns (c : Thread nD τ) (((cfg3 a0).win 1).stage ((cfg3 a0).slots t 1)) fullShare ((dat3 a0 Vin c).before 1 t d)))

/-- and what it returns. -/
def bodyPost3 (a0 : (pcfg3 (F := F)).Adm) (Vin : Dev nD → Valuation τ sig (Elt F)) (c : Dev nD) (t : Fin (cfg3 a0).N) : sProp (MM F) :=
  iprop((dat3 a0 Vin c).Φ t.succ ∗ (dat3 a0 Vin c).owesAt () t.succ
    ∗ owns (c : Thread nD τ) (((cfg3 a0).win 0).stage ((cfg3 a0).slots t 0)) fullShare ((dat3 a0 Vin c).after 0 t)
    ∗ owns (c : Thread nD τ) (((cfg3 a0).win 1).stage ((cfg3 a0).slots t 1)) fullShare ((dat3 a0 Vin c).after 1 t))

/-- The body at any point: the invariant opened into the embedding array, the semaphores, the table and the scratch;
    the value window's memref at its block; the checks from the table's range; so the kernel's run applies, and what it
    leaves in the result window's memref is the point's block of the gathered array. -/
theorem sound_body3 (a0 : (pcfg3 (F := F)).Adm) (hok : GatherOk3 a0) (Vin : Dev nD → Valuation τ sig (Elt F)) (c : Dev nD) (t : Fin (cfg3 a0).N) :
    bodyPre3 a0 Vin c t ⊢ wp frame (wpE (defs₀ (F := F)) 𝒱₀ c none) Set.univ
      (defs₀ .tc (cfg3 a0).body ((cfg3 a0).bodyArgs t ((cfg3 a0).slots t))) (fun _ => bodyPost3 a0 Vin c t) := by
  unfold bodyPre3 bodyPost3
  simp only [beforeVal3]
  rw [Phi_eq3, Phi_eq3, after3_0, after3_1, ← gatherBlk_blk3]
  unfold Phi3 Pipeline.Dat.owesAt Pipeline.owesWithin
  rw [owed_eq3, owed_eq3, prefHeldEq3, scopedRest3_split]
  iintro ⟨⟨Hx, Hos, Ht, ⟨%fs, Hs⟩, Hsb⟩, ⟨%W, %hW, HO⟩, ⟨%d0, H0⟩, ⟨%d1, H1⟩⟩
  iapply (gatherRun3 c (grid3.coords t) _ _ _ _ (a0.1 0) (Vr Vin c main_arg0) (iblk3 a0 Vin c 0 t) (gatherChk3 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation3 (a0 : (pcfg3 (F := F)).Adm) (hok : GatherOk3 a0) (Vin : Dev nD → Valuation τ sig (Elt F)) (c : Dev nD) :
    BodyObligation (dat3 a0 Vin c) (defs₀ (F := F)) 𝒱₀ () Set.univ := fun t => by
  rw [bigSep_W3, bigSep_W3]
  exact sound_body3 a0 hok Vin c t

/-! ## From the blocks to the arrays -/

/-- The value array after the region: as entered. -/
theorem arrAt3_in (a0 : (pcfg3 (F := F)).Adm) (Vin : Dev nD → Valuation τ sig (Elt F)) (c : Dev nD) :
    (dat3 a0 Vin c).arrAt 0 (cfg3 a0).N = Vr Vin c main_v17 :=
  ((dat3 a0 Vin c).arrAt_in 0 rfl _).trans (A_eq3 a0 Vin c 0)

/-- Every index of the result array is in some point's block: row `e`, lane `d` is element `(e % 8, d)` of the block
    of point `e / 8`. -/
theorem regOutCover3 (a0 : (pcfg3 (F := F)).Adm) (i : S131072x128.Idx) :
    ∃ t : Fin (cfg3 a0).N, ((cfg3 a0).win 1).flush t = true ∧ i ∈ (((cfg3 a0).win 1).blk t).view.set := by
  have hi0 : (i 0).val < 131072 := (i 0).isLt
  have hi1 : (i 1).val < 128 := (i 1).isLt
  have hN : (i 0).val / 8 < grid3.N := by rw [N_3]; omega
  obtain ⟨t, ht⟩ : ∃ t : Fin (cfg3 a0).N, t.val = (i 0).val / 8 := ⟨⟨_, hN⟩, rfl⟩
  have hx : (((cfg3 a0).win 1).blk t).view.emb (ValueIdx.ix2 ⟨(i 0).val % 8, Nat.mod_lt _ (by decide)⟩ (i 1)) = i := by
    funext a; apply Fin.ext
    have e0 : ((cfg3 a0).win 1).index t (0 : Fin 2) = t.val := congrFun (regOutIndex3 a0 t) (0 : Fin 2)
    have e1 : ((cfg3 a0).win 1).index t (1 : Fin 2) = 0 := congrFun (regOutIndex3 a0 t) (1 : Fin 2)
    match a with
    | ⟨0, _⟩ => show ((cfg3 a0).win 1).index t (0 : Fin 2) * 8 + 1 * ((i 0).val % 8) = (i 0).val; omega
    | ⟨1, _⟩ => show ((cfg3 a0).win 1).index t (1 : Fin 2) * 128 + 1 * (i 1).val = (i 1).val; omega
  exact ⟨t, regOutFlush3 a0 t, hx ▸ (((cfg3 a0).win 1).blk t).view.emb_mem_set _⟩

/-- The result array after the region: the gathered and scaled rows, whole. -/
theorem arrAt3_out (a0 : (pcfg3 (F := F)).Adm) (Vin : Dev nD → Valuation τ sig (Elt F)) (c : Dev nD) :
    (dat3 a0 Vin c).arrAt 1 (cfg3 a0).N = gout3 a0 Vin c :=
  (dat3 a0 Vin c).arrAt_eq_of_cover 1 (gout3 a0 Vin c)
    (fun t _ => by
      show ((cfg3 a0).win 1).cut ((cfg3 a0).grid.coords t) ((dat3 a0 Vin c).after 1 t) = _
      rw [after3_1])
    (regOutCover3 a0)

/-! ## The region as a segment of @main -/

/-- The ownership layout of the kernel's eight semaphores. -/
theorem ownSemFacts3 : Pipeline.OwnSemFacts spec3 osem3 := by decide

/-- The kernel's own cells at zero, listed. -/
theorem ownSemsListed3 (c : Dev nD) :
    (Pipeline.ownSems0 (Ix := Unit) (Name := ℕ) (U := UU nD τ) (Lvl := ℕ) (Val := Elt F) (τ := τ) osem3 c : sProp (MM F)) = sems3 c :=
  Pipeline.ownSems0_eq_of_list c osem3 [0, 1, 2, 3, 4, 5, 6, 7] (by decide) (by decide)

/-- The unscoped buffers that are no window's array, no table, and not the embedding array. -/
abbrev restRefs3 : Finset (Ref sig .tc) :=
  (((Finset.univ.filter fun b : Ref sig .tc => ¬ b.isScoped) \ Finset.univ.image (Pipeline.arrRef spec3)) \ Finset.univ.image pre3.ref) \ {main_arg0}

/-- Those buffers, each whole at its contents under `Vin`: what bypasses the region. -/
def Zrest3 (Vin : Dev nD → Valuation τ sig (Elt F)) (c : Dev nD) : sProp (MM F) :=
  bigSep restRefs3 fun b => ((c : Thread nD τ).loc b) ↦{fullShare} Vr Vin c b

/-- The embedding array is an unscoped buffer that is no window's array and no table. -/
theorem embArrMem3 : ({main_arg0} : Finset (Ref sig .tc)) ⊆
    ((Finset.univ.filter fun b : Ref sig .tc => ¬ b.isScoped) \ Finset.univ.image (Pipeline.arrRef spec3)) \ Finset.univ.image pre3.ref := by
  decide

/-- The unscoped buffers that are no window's array: the index table, the embedding array, and the rest. -/
theorem unscopedRestOpen3 (Vin : Dev nD → Valuation τ sig (Elt F)) (c : Dev nD) :
    (Pipeline.unscopedRest (Ix := Unit) (Name := ℕ) (U := UU nD τ) (Lvl := ℕ) spec3 c (Vr Vin c) : sProp (MM F))
      = iprop(Pipeline.prefHeld pre3 c (fun _ => fullShare) (fun k => Vr Vin c (pre3.ref k))
          ∗ pt c (Memref.whole main_arg0) (Vr Vin c main_arg0) ∗ Zrest3 Vin c) := by
  rw [Pipeline.unscopedRest_split preFacts3 c (Vr Vin c)]
  unfold Pipeline.unscopedRestP Zrest3
  rw [BI.bigSep_sdiff_split embArrMem3, BI.bigSep_singleton]
  rfl

/-- The buffer contents when the region is left: the result array at the gathered rows, every other buffer as entered. -/
abbrev Vout3 (a0 : (pcfg3 (F := F)).Adm) (Vin : Dev nD → Valuation τ sig (Elt F)) (c : Dev nD) : Valuation τ sig (Elt F) :=
  Function.update (Vin c) main_v18 (gout3 a0 Vin c)

/-- At the exit each of the region's arrays holds what the pipeline leaves; -/
theorem hF3 (a0 : (pcfg3 (F := F)).Adm) (Vin : Dev nD → Valuation τ sig (Elt F)) (c : Dev nD) (w : Fin (cfg3 a0).W) :
    (dat3 a0 Vin c).arrAt w (cfg3 a0).N = Vr (Vout3 a0 Vin) c (Pipeline.arrRef spec3 w) := by
  match w with
  | ⟨0, _⟩ =>
    show (dat3 a0 Vin c).arrAt 0 (cfg3 a0).N = Vr (Vout3 a0 Vin) c (Pipeline.arrRef spec3 0)
    rw [arrAt3_in]
    exact (Function.update_of_ne (StableHlo.devRef_ne_of_ne (by decide) : (Proc.devRef .tc main_v17 : DevRef τ sig) ≠ Proc.devRef .tc main_v18) _ _).symm
  | ⟨1, _⟩ =>
    show (dat3 a0 Vin c).arrAt 1 (cfg3 a0).N = Vr (Vout3 a0 Vin) c (Pipeline.arrRef spec3 1)
    rw [arrAt3_out]
    exact (Function.update_self (Proc.devRef .tc main_v18 : DevRef τ sig) _ (Vin c)).symm

/-- and every other buffer what it held at entry. -/
theorem hrest3 (a0 : (pcfg3 (F := F)).Adm) (Vin : Dev nD → Valuation τ sig (Elt F)) (c : Dev nD) :
    ∀ b : Ref sig .tc, b ∉ Finset.univ.image (Pipeline.arrRef spec3) → Vr (Vout3 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat3` at the entry valuation `Vin`
    (`hd`), the index table's contents under `Vin` being the pinned ones (`htbl`) and row numbers (`hok`). -/
def reg3 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk3 (F := F) (a (3 : Fin 34)))
    (hd : ∀ c, pdats (3 : Fin 34) c = dat3 (a (3 : Fin 34)) Vin c) (htbl : ∀ c, (a (3 : Fin 34)).1 = fun k => Vr Vin c (pre3.ref k)) :
    Pipeline.RegionSeg (pcfgs (F := F)) a pdats () defs₀ 𝒱₀ L lv (3 : Fin 34) where
  win := (launch3 (F := F)).win.to₀
  block_pos := (launch3 (F := F)).block_pos
  stage_whole := (launch3 (F := F)).stage_whole
  K := Fin 8
  osem := osem3
  ho := ownSemFacts3
  hbody c := by rw [hd c]; exact (body_obligation3 (a (3 : Fin 34)) hok Vin c).loose
  hwaits := Pipeline.hwaits_of_owed_zero _ _ _ _ L lv (3 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v18 (gout3 (a (3 : Fin 34)) Vin c)) ∗ Rest c)
  X c := iprop(pt c (Memref.whole main_arg0) (Vr Vin c main_arg0) ∗ sems3 c)
  Y c := iprop(pt c (Memref.whole main_arg0) (Vr Vin c main_arg0)
    ∗ Pipeline.prefHeld (Ix := Unit) (Name := ℕ) (U := UU nD τ) (Lvl := ℕ) pre3 c (fun _ => fullShare) (a (3 : Fin 34)).1)
  Z c := Zrest3 Vin c
  hentry c := by
    rw [ownSemsListed3]
    have hsplit := Pipeline.arrays_of_unscopedBufs (p := (3 : Fin 34)) (pcfgs (F := F)) a pdats (launch3 (F := F)).win (launch3 (F := F)).arr_whole c
      ((pdats (3 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen3 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (3 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq3]; unfold Phi3
    iintro ⟨⟨Hx, Hos⟩, Ht, Hr⟩
    isplitl [Hx]; · iexact Hx
    isplitl [Hos]; · iexact Hos
    isplitl [Ht]; · iexact Ht
    iexact Hr
  hout c := by
    rw [ownSemsListed3, hd c, Phi_eq3]; unfold Phi3
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (3 : Fin 34)) (pcfgs (F := F)) a (Ix := Unit) (Name := ℕ) (U := UU nD τ) (Lvl := ℕ)
      (launch3 (F := F)).win (launch3 (F := F)).arr_whole c pdats ((pdats (3 : Fin 34) c).share_full fun _ => by rw [hd c]; rfl)
      (Vr Vin c) (Vr (Vout3 (a (3 : Fin 34)) Vin) c) ((pdats (3 : Fin 34) c).arrAt · (cfg3 (a (3 : Fin 34))).N)
      (fun w => by rw [hd c]; exact hF3 (a (3 : Fin 34)) Vin c w) (hrest3 (a (3 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen3 Vin c).symm)
      isplitl [Ht]; · rw [← htbl c]; iexact Ht
      isplitl [Hx]; · iexact Hx
      iexact Hz
    unfold Pipeline.Dat.owesAt Pipeline.owesWithin
    rw [show (pdats (3 : Fin 34) c).owed (Fin.last _) = 0 from by rw [hd c]; rfl]
    icases HO with ⟨%W, -, HO⟩; iexists W; iexact HO

end Cert.KernelIdeal.Hand

end
-- ==== Proof.KI.GatherDat4.lean ====
/-
  Gather region 4 (custom_call 4): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem4 : Fin 8 → SemLoc sig := fun | 0 => .dma 52 | 1 => .dma 53 | 2 => .dma 54 | 3 => .dma 55 | 4 => .dma 56 | 5 => .dma 57 | 6 => .dma 58 | 7 => .dma 59

/-- The eight counters at zero, as the run finds them and hands them back. -/
abbrev sems4 (c : Dev nD) : sProp (MM F) :=
  iprop(semVal ((c : Thread nD τ), osem4 0) 0 ∗ semVal ((c : Thread nD τ), osem4 1) 0 ∗ semVal ((c : Thread nD τ), osem4 2) 0
    ∗ semVal ((c : Thread nD τ), osem4 3) 0 ∗ semVal ((c : Thread nD τ), osem4 4) 0 ∗ semVal ((c : Thread nD τ), osem4 5) 0
    ∗ semVal ((c : Thread nD τ), osem4 6) 0 ∗ semVal ((c : Thread nD τ), osem4 7) 0)

/-- Word `j` of the eight the index table holds for point `i`, as the kernel's scalar load reads it. -/
def tblWord4 (c : Dev nD) (i : grid4.Coords) (tbl : Bf (F := F) c (Memref.whole main_v33)) (j : Fin 8) : BitVec 32 :=
  (Memref.whole main_v33).view.readAt (Elt F) (Rect.unit (s := S131072) (k4_off1 i (BitVec.ofNat 32 j.val)) S1.size (k4_off1_inb i j)).toLoadRect tbl
    (Shape.Idx.first (s := S1) (numel1_S1.symm ▸ Nat.one_pos))

/-- Window `w`'s block at point `t`, read off its array at the region's entry. -/
def iblk4 (a0 : (pcfg4 (F := F)).Adm) (Vin : Dev nD → Valuation τ sig (Elt F)) (c : Dev nD) (w : Fin (cfg4 a0).W) (t : Fin (cfg4 a0).N) :
    (((cfg4 a0).win w).xblock ((cfg4 a0).grid.coords t)).Idx → Elt F ((cfg4 a0).win w).elt :=
  (((cfg4 a0).win w).blk t).view.read (Elt F) (Vr Vin c (Pipeline.arrRef spec4 w))

/-- The result array the region leaves: the gathered and scaled rows of the embedding array, whole. -/
def gout4 (a0 : (pcfg4 (F := F)).Adm) (Vin : Dev nD → Valuation τ sig (Elt F)) (c : Dev nD) : Buf (Elt F) ((c : Thread nD τ).loc main_v35) :=
  gatherArr (Vr Vin c main_arg0) (a0.1 0) (Vr Vin c main_v34)

/-- The invariant between points: the embedding array as entered, the kernel's semaphores at zero, the index table, the
    scoped buffers no window stages (the kernel's scratch among them). -/
def Phi4 (a0 : (pcfg4 (F := F)).Adm) (Vin : Dev nD → Valuation τ sig (Elt F)) (c : Dev nD) : sProp (MM F) :=
  iprop(pt c (Memref.whole main_arg0) (Vr Vin c main_arg0) ∗ sems4 c
    ∗ Pipeline.prefHeld (Ix := Unit) (Name := ℕ) (U := UU nD τ) (Lvl := ℕ) pre4 c (fun _ => fullShare) a0.1
    ∗ Pipeline.scopedRest (Ix := Unit) (Name := ℕ) (U := UU nD τ) (Lvl := ℕ) (Val := Elt F) spec4 c)

/-- The proof data on core `c`. -/
def dat4 (a0 : (pcfg4 (F := F)).Adm) (Vin : Dev nD → Valuation τ sig (Elt F)) (c : Dev nD) :
    Pipeline.Dat τ (Elt F) Unit ℕ (UU nD τ) ℕ ((pcfg4 (F := F)).at a0) c where
  A w := Vr Vin c (Pipeline.arrRef spec4 w)
  after w t := match w with
    | ⟨0, _⟩ => iblk4 a0 Vin c 0 t
    | ⟨1, _⟩ => (((cfg4 a0).win 1).blk t).view.read (Elt F) (gout4 a0 Vin c)
  Φ _ := Phi4 a0 Vin c
  q _ := fullShare
  owed _ := 0

theorem A_eq4 (a0 : (pcfg4 (F := F)).Adm) (Vin : Dev nD → Valuation τ sig (Elt F)) (c : Dev nD) (w : Fin (cfg4 a0).W) :
    (dat4 a0 Vin c).A w = Vr Vin c (Pipeline.arrRef spec4 w) := by dsimp only [dat4]
theorem after4_0 (a0 : (pcfg4 (F := F)).Adm) (Vin : Dev nD → Valuation τ sig (Elt F)) (c : Dev nD) (t : Fin (cfg4 a0).N) :
    (dat4 a0 Vin c).after 0 t = iblk4 a0 Vin c 0 t := by dsimp only [dat4]; rfl
theorem after4_1 (a0 : (pcfg4 (F := F)).Adm) (Vin : Dev nD → Valuation τ sig (Elt F)) (c : Dev nD) (t : Fin (cfg4 a0).N) :
    (dat4 a0 Vin c).after 1 t = (((cfg4 a0).win 1).blk t).view.read (Elt F) (gout4 a0 Vin c) := by dsimp only [dat4]; rfl
theorem Phi_eq4 (a0 : (pcfg4 (F := F)).Adm) (Vin : Dev nD → Valuation τ sig (Elt F)) (c : Dev nD) (t : Fin ((cfg4 a0).N + 1)) :
    (dat4 a0 Vin c).Φ t = Phi4 a0 Vin c := rfl
theorem owed_eq4 (a0 : (pcfg4 (F := F)).Adm) (Vin : Dev nD → Valuation τ sig (Elt F)) (c : Dev nD) (t : Fin ((cfg4 a0).N + 1)) :
    (dat4 a0 Vin c).owed t = 0 := rfl
theorem q_eq4 (a0 : (pcfg4 (F := F)).Adm) (Vin : Dev nD → Valuation τ sig (Elt F)) (c : Dev nD) (w : Fin (cfg4 a0).W) :
    (dat4 a0 Vin c).q w = fullShare := rfl

/-- The pinned family's configuration at region 4 is this one. -/
example (a : (p : Fin 34) → (pcfgs (F := F) p).Adm) : Pipeline.pin (pcfgs (F := F)) a (4 : Fin 34) = (pcfg4 (F := F)).at (a (4 : Fin 34)) := rfl

end Cert.KernelIdeal.Hand

end
-- ==== Proof.KI.GatherBody4.lean ====
/-
  Gather region 4 (custom_call 4): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat4
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk4 (c : Dev nD) (i : grid4.Coords) (tbl : Bf (F := F) c (Memref.whole main_v33)) : Prop where
  h1 : k4_chk1 (tblWord4 c i tbl 0)
  h2 : k4_chk2 (tblWord4 c i tbl 1)
  h3 : k4_chk3 (tblWord4 c i tbl 2)
  h4 : k4_chk4 (tblWord4 c i tbl 3)
  h5 : k4_chk5 (tblWord4 c i tbl 4)
  h6 : k4_chk6 (tblWord4 c i tbl 5)
  h7 : k4_chk7 (tblWord4 c i tbl 6)
  h8 : k4_chk8 (tblWord4 c i tbl 7)

/-- A one-row slice of the embedding array at the row a word names, read at lane `z 1`: the array's element there. -/
theorem rowRead4 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun4 (c : Dev nD) (i : grid4.Coords)
    (M3 : Memref sig .tc .vmem S8x1 .f32) (h3 : M3.IsWhole) (M4 : Memref sig .tc .vmem S8x128 .f32) (h4 : M4.IsWhole)
    (tbl : Bf (F := F) c (Memref.whole main_v33)) (x : Bf (F := F) c (Memref.whole main_arg0))
    (vb : Vec F S8x1 .f32) (hchk : GatherChk4 c i tbl) (Q : PUnit → sProp (MM F)) :
    iprop(pt c (Memref.whole main_v33) tbl ∗ pt c (Memref.whole main_arg0) x
      ∗ owns (c : Thread nD τ) M3 fullShare vb ∗ (∃ d, owns (c : Thread nD τ) M4 fullShare d)
      ∗ (∃ fs, pt c (Memref.whole cc4_scratch0) fs) ∗ sems4 c ∗ (∃ W, owes (c : Thread nD τ) (0 : CellTallies nD τ sig Unit) W)
      ∗ (iprop(pt c (Memref.whole main_v33) tbl ∗ pt c (Memref.whole main_arg0) x
          ∗ owns (c : Thread nD τ) M3 fullShare vb ∗ owns (c : Thread nD τ) M4 fullShare (gatherBlk x (tblWord4 c i tbl) vb)
          ∗ (∃ fs, pt c (Memref.whole cc4_scratch0) fs) ∗ sems4 c ∗ (∃ W, owes (c : Thread nD τ) (0 : CellTallies nD τ sig Unit) W)) -∗ Q ⟨⟩))
    ⊢ wp frame (wpE (defs₀ (F := F)) 𝒱₀ c none) Set.univ
        (cc4__gather_kernel i (Memref.whole main_v33) (Memref.isWhole_whole _) (Memref.whole main_arg0) (Memref.isWhole_whole _) M3 h3 M4 h4
          (Memref.whole cc4_scratch0) (Memref.isWhole_whole _) cc4_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 52).1 $$ Hx
  icases Hx' with ⟨Hxr, Hx0, Hx1, Hx2, Hx3, Hx4, Hx5, Hx6, Hx7⟩
  sl_unfold [cc4__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 52).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k4_pay1 gatherBlk
    show FloatOps.mulf _ _ = FloatOps.mulf _ _
    congr 1
    · unfold gatherRun4.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun4.sl.dma8 gatherRun4.sl.dma8_1 gatherRun4.sl.dma8_2 gatherRun4.sl.dma8_3 gatherRun4.sl.dma8_4 gatherRun4.sl.dma8_5
        gatherRun4.sl.dma8_6 gatherRun4.sl.dma8_7 gatherRun4.sl.r gatherRun4.sl.r_1 gatherRun4.sl.r_2 gatherRun4.sl.r_3 gatherRun4.sl.r_4
        gatherRun4.sl.r_5 gatherRun4.sl.r_6 gatherRun4.sl.r_7
      refine canonRows8 _ _ _ _ _ _ _ _ _ _ _ _ _ _ _ _ (fun r d => x (embIdx (rowOf (tblWord4 c i tbl r)) d)) ?_ ?_ ?_ ?_ ?_ ?_ ?_ ?_ y
      · exact fun z => rowRead4 c _ (tblWord4 c i tbl 0) rfl rfl _ _ x z
      · exact fun z => rowRead4 c _ (tblWord4 c i tbl 1) rfl rfl _ _ x z
      · exact fun z => rowRead4 c _ (tblWord4 c i tbl 2) rfl rfl _ _ x z
      · exact fun z => rowRead4 c _ (tblWord4 c i tbl 3) rfl rfl _ _ x z
      · exact fun z => rowRead4 c _ (tblWord4 c i tbl 4) rfl rfl _ _ x z
      · exact fun z => rowRead4 c _ (tblWord4 c i tbl 5) rfl rfl _ _ x z
      · exact fun z => rowRead4 c _ (tblWord4 c i tbl 6) rfl rfl _ _ x z
      · exact fun z => rowRead4 c _ (tblWord4 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk4.lean ====
/-
  Gather region 4 (custom_call 4): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat4
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word4 (i : grid4.Coords) (j : Fin 8) : k4_off1 i (BitVec.ofNat 32 j.val) 0 = (i 0).val * 8 + j.val := by
  have hi : (i 0).val < 16384 := (i 0).isLt
  have hj : j.val < 8 := j.isLt
  unfold k4_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word4 (i : grid4.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord4_eq (c : Dev nD) (i : grid4.Coords) (tbl : Bf (F := F) c (Memref.whole main_v33)) (j : Fin 8)
    (e : Fin 131072) (he : e.val = (i 0).val * 8 + j.val) : tblWord4 c i tbl j = tbl (tblIdx e) := by
  unfold tblWord4
  show tbl _ = tbl _
  refine congrArg tbl ?_
  funext a; apply Fin.ext
  match a with
  | ⟨0, _⟩ =>
    show k4_off1 i (BitVec.ofNat 32 j.val) 0 + 1 * 0 = e.val
    rw [off_word4, he]; omega

/-- Row `j` of the value window's block at point `t` is the value array's row `8 t + j`. -/
theorem valBlk4_eq (a0 : (pcfg4 (F := F)).Adm) (Vin : Dev nD → Valuation τ sig (Elt F)) (c : Dev nD) (t : Fin (cfg4 a0).N)
    (j : Fin 8) (e : Fin 131072) (he : e.val = ((grid4.coords t) 0).val * 8 + j.val) :
    iblk4 a0 Vin c 0 t (colIdx j) = Vr Vin c main_v34 (valIdx e) := by
  unfold iblk4
  show Vr Vin c main_v34 _ = Vr Vin c main_v34 _
  refine congrArg (Vr Vin c main_v34) ?_
  funext a; apply Fin.ext
  match a with
  | ⟨0, _⟩ =>
    show (BitVec.ofNat 32 ((grid4.coords t) 0).val).toNat * 8 + 1 * j.val = e.val
    rw [coord_word4, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk4 (a0 : (pcfg4 (F := F)).Adm) (Vin : Dev nD → Valuation τ sig (Elt F)) (c : Dev nD) (t : Fin (cfg4 a0).N) :
    gatherBlk (Vr Vin c main_arg0) (tblWord4 c (grid4.coords t) (a0.1 0)) (iblk4 a0 Vin c 0 t)
      = (((cfg4 a0).win 1).blk t).view.read (Elt F) (gout4 a0 Vin c) := by
  funext y
  show gatherBlk _ _ _ y = gout4 a0 Vin c ((((cfg4 a0).win 1).blk t).view.emb y)
  unfold gatherBlk gout4 gatherArr
  have e0 : ((((cfg4 a0).win 1).blk t).view.emb y (0 : Fin 2)).val = ((grid4.coords t) 0).val * 8 + (y 0).val := by
    show (BitVec.ofNat 32 ((grid4.coords t) 0).val).toNat * 8 + 1 * (y 0).val = _
    rw [coord_word4]; omega
  have e1 : (((cfg4 a0).win 1).blk t).view.emb y (1 : Fin 2) = y 1 := Fin.ext (by
    show (0#32 : BitVec 32).toNat * 128 + 1 * (y 1).val = (y 1).val
    show 0 * 128 + 1 * (y 1).val = (y 1).val
    omega)
  rw [tblWord4_eq c (grid4.coords t) (a0.1 0) (y 0) _ e0, valBlk4_eq a0 Vin c t (y 0) _ e0, e1]

end Cert.KernelIdeal.Hand

end
-- ==== Proof.KI.GatherRegion4.lean ====
/-
  Gather region 4 (custom_call 4): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody4
import proofs.«414509_j14181982011419_2_alg».proof.Proof.KI.GatherBlk4
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk4 (a0 : (pcfg4 (F := F)).Adm) : Prop := ∀ e : S131072.Idx, (a0.1 0 e).toNat < 100000

/-! ## The grid and the result window's blocks -/

/-- On the one-axis grid a point's coordinate is its number. -/
theorem regCoords4 (t : Fin grid4.N) : (grid4.coords t 0).val = t.val := by
  have ht : t.val < 16384 := N_4 ▸ t.isLt
  show t.val / grid4.stride 0 % grid4.bound 0 = t.val
  rw [show grid4.stride 0 = 1 from by decide, show grid4.bound 0 = 16384 from rfl, Nat.div_one, Nat.mod_eq_of_lt ht]

/-- A point's number as the 32-bit word the index maps compute with. -/
theorem regWord4 (t : Fin grid4.N) : (BitVec.ofNat 32 (grid4.coords t 0).val).toNat = t.val := by
  have ht : t.val < 16384 := N_4 ▸ t.isLt
  rw [BitVec.toNat_ofNat, regCoords4]; omega

/-- The result window's block at point `t` is block `t` along the rows, at zero along the lanes. -/
theorem regOutIndex4 (a0 : (pcfg4 (F := F)).Adm) (t : Fin (cfg4 a0).N) : ((cfg4 a0).win 1).index t = ![t.val, 0] := by
  show cc4_transform_2 (grid4.coords t) = _
  unfold cc4_transform_2
  funext a; fin_cases a
  · exact regWord4 t
  · rfl

/-- The result window is written back at every point: consecutive points have different blocks. -/
theorem regOutFlush4 (a0 : (pcfg4 (F := F)).Adm) (t : Fin (cfg4 a0).N) : ((cfg4 a0).win 1).flush t = true := by
  have htN : t.val < 16384 := N_4 ▸ t.isLt
  rw [Pipeline.Window.flush_out _ rfl]
  by_cases h : t.val + 1 = 16384
  · exact Or.inl (show t.val + 1 = grid4.N by rw [N_4]; exact h)
  · have hlt : t.val + 1 < grid4.N := by rw [N_4]; omega
    refine Or.inr ⟨hlt, fun e => ?_⟩
    have e' : (![t.val + 1, 0] : Fin 2 → ℕ) = ![t.val, 0] := (regOutIndex4 a0 ⟨t.val + 1, hlt⟩).symm.trans (e.trans (regOutIndex4 a0 t))
    have e0 := congrFun e' 0
    simp at e0

/-- The index table, held as the pipeline's one prefetched table. -/
theorem prefHeldEq4 (a0 : (pcfg4 (F := F)).Adm) (c : Dev nD) :
    (Pipeline.prefHeld (Ix := Unit) (Name := ℕ) (U := UU nD τ) (Lvl := ℕ) pre4 c (fun _ => fullShare) a0.1 : sProp (MM F))
      = pt c (Memref.whole main_v33) (a0.1 0) := by
  unfold Pipeline.prefHeld
  rw [show (Finset.univ : Finset (Fin pre4.K)) = {0} from rfl, BI.bigSep_singleton]
  rfl

/-- The value window's staging buffer holds its block at every point. -/
theorem beforeVal4 (a0 : (pcfg4 (F := F)).Adm) (Vin : Dev nD → Valuation τ sig (Elt F)) (c : Dev nD) (t : Fin (cfg4 a0).N) (d) :
    (dat4 a0 Vin c).before 0 t d = iblk4 a0 Vin c 0 t :=
  ((dat4 a0 Vin c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-! ## The kernel's checks, from the table's range -/

/-- Each of the point's eight words is a word of the table, so a row number. -/
theorem tblWordLt4 (a0 : (pcfg4 (F := F)).Adm) (hok : GatherOk4 a0) (c : Dev nD) (i : grid4.Coords) (j : Fin 8) :
    (tblWord4 c i (a0.1 0) j).toNat < 100000 := by
  unfold tblWord4
  exact hok _

/-- So the kernel's eight checks hold at every point. -/
theorem gatherChk4 (a0 : (pcfg4 (F := F)).Adm) (hok : GatherOk4 a0) (c : Dev nD) (i : grid4.Coords) : GatherChk4 c i (a0.1 0) :=
  ⟨⟨chkRow _ (tblWordLt4 a0 hok c i 0), chkRow _ (tblWordLt4 a0 hok c i 0)⟩,
   ⟨chkRow _ (tblWordLt4 a0 hok c i 1), chkRow _ (tblWordLt4 a0 hok c i 1)⟩,
   ⟨chkRow _ (tblWordLt4 a0 hok c i 2), chkRow _ (tblWordLt4 a0 hok c i 2)⟩,
   ⟨chkRow _ (tblWordLt4 a0 hok c i 3), chkRow _ (tblWordLt4 a0 hok c i 3)⟩,
   ⟨chkRow _ (tblWordLt4 a0 hok c i 4), chkRow _ (tblWordLt4 a0 hok c i 4)⟩,
   ⟨chkRow _ (tblWordLt4 a0 hok c i 5), chkRow _ (tblWordLt4 a0 hok c i 5)⟩,
   ⟨chkRow _ (tblWordLt4 a0 hok c i 6), chkRow _ (tblWordLt4 a0 hok c i 6)⟩,
   chkRow _ (tblWordLt4 a0 hok c i 7)⟩

/-! ## The body obligation, at a generic point -/

/-- What the body is called with at point `t`: the invariant, the core's dues, each window's current staging memref at
    what the pipeline left there, -/
def bodyPre4 (a0 : (pcfg4 (F := F)).Adm) (Vin : Dev nD → Valuation τ sig (Elt F)) (c : Dev nD) (t : Fin (cfg4 a0).N) : sProp (MM F) :=
  iprop((dat4 a0 Vin c).Φ t.castSucc ∗ (dat4 a0 Vin c).owesAt () t.castSucc
    ∗ (∃ d, owns (c : Thread nD τ) (((cfg4 a0).win 0).stage ((cfg4 a0).slots t 0)) fullShare ((dat4 a0 Vin c).before 0 t d))
    ∗ (∃ d, owns (c : Thread nD τ) (((cfg4 a0).win 1).stage ((cfg4 a0).slots t 1)) fullShare ((dat4 a0 Vin c).before 1 t d)))

/-- and what it returns. -/
def bodyPost4 (a0 : (pcfg4 (F := F)).Adm) (Vin : Dev nD → Valuation τ sig (Elt F)) (c : Dev nD) (t : Fin (cfg4 a0).N) : sProp (MM F) :=
  iprop((dat4 a0 Vin c).Φ t.succ ∗ (dat4 a0 Vin c).owesAt () t.succ
    ∗ owns (c : Thread nD τ) (((cfg4 a0).win 0).stage ((cfg4 a0).slots t 0)) fullShare ((dat4 a0 Vin c).after 0 t)
    ∗ owns (c : Thread nD τ) (((cfg4 a0).win 1).stage ((cfg4 a0).slots t 1)) fullShare ((dat4 a0 Vin c).after 1 t))

/-- The body at any point: the invariant opened into the embedding array, the semaphores, the table and the scratch;
    the value window's memref at its block; the checks from the table's range; so the kernel's run applies, and what it
    leaves in the result window's memref is the point's block of the gathered array. -/
theorem sound_body4 (a0 : (pcfg4 (F := F)).Adm) (hok : GatherOk4 a0) (Vin : Dev nD → Valuation τ sig (Elt F)) (c : Dev nD) (t : Fin (cfg4 a0).N) :
    bodyPre4 a0 Vin c t ⊢ wp frame (wpE (defs₀ (F := F)) 𝒱₀ c none) Set.univ
      (defs₀ .tc (cfg4 a0).body ((cfg4 a0).bodyArgs t ((cfg4 a0).slots t))) (fun _ => bodyPost4 a0 Vin c t) := by
  unfold bodyPre4 bodyPost4
  simp only [beforeVal4]
  rw [Phi_eq4, Phi_eq4, after4_0, after4_1, ← gatherBlk_blk4]
  unfold Phi4 Pipeline.Dat.owesAt Pipeline.owesWithin
  rw [owed_eq4, owed_eq4, prefHeldEq4, scopedRest4_split]
  iintro ⟨⟨Hx, Hos, Ht, ⟨%fs, Hs⟩, Hsb⟩, ⟨%W, %hW, HO⟩, ⟨%d0, H0⟩, ⟨%d1, H1⟩⟩
  iapply (gatherRun4 c (grid4.coords t) _ _ _ _ (a0.1 0) (Vr Vin c main_arg0) (iblk4 a0 Vin c 0 t) (gatherChk4 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation4 (a0 : (pcfg4 (F := F)).Adm) (hok : GatherOk4 a0) (Vin : Dev nD → Valuation τ sig (Elt F)) (c : Dev nD) :
    BodyObligation (dat4 a0 Vin c) (defs₀ (F := F)) 𝒱₀ () Set.univ := fun t => by
  rw [bigSep_W4, bigSep_W4]
  exact sound_body4 a0 hok Vin c t

/-! ## From the blocks to the arrays -/

/-- The value array after the region: as entered. -/
theorem arrAt4_in (a0 : (pcfg4 (F := F)).Adm) (Vin : Dev nD → Valuation τ sig (Elt F)) (c : Dev nD) :
    (dat4 a0 Vin c).arrAt 0 (cfg4 a0).N = Vr Vin c main_v34 :=
  ((dat4 a0 Vin c).arrAt_in 0 rfl _).trans (A_eq4 a0 Vin c 0)

/-- Every index of the result array is in some point's block: row `e`, lane `d` is element `(e % 8, d)` of the block
    of point `e / 8`. -/
theorem regOutCover4 (a0 : (pcfg4 (F := F)).Adm) (i : S131072x128.Idx) :
    ∃ t : Fin (cfg4 a0).N, ((cfg4 a0).win 1).flush t = true ∧ i ∈ (((cfg4 a0).win 1).blk t).view.set := by
  have hi0 : (i 0).val < 131072 := (i 0).isLt
  have hi1 : (i 1).val < 128 := (i 1).isLt
  have hN : (i 0).val / 8 < grid4.N := by rw [N_4]; omega
  obtain ⟨t, ht⟩ : ∃ t : Fin (cfg4 a0).N, t.val = (i 0).val / 8 := ⟨⟨_, hN⟩, rfl⟩
  have hx : (((cfg4 a0).win 1).blk t).view.emb (ValueIdx.ix2 ⟨(i 0).val % 8, Nat.mod_lt _ (by decide)⟩ (i 1)) = i := by
    funext a; apply Fin.ext
    have e0 : ((cfg4 a0).win 1).index t (0 : Fin 2) = t.val := congrFun (regOutIndex4 a0 t) (0 : Fin 2)
    have e1 : ((cfg4 a0).win 1).index t (1 : Fin 2) = 0 := congrFun (regOutIndex4 a0 t) (1 : Fin 2)
    match a with
    | ⟨0, _⟩ => show ((cfg4 a0).win 1).index t (0 : Fin 2) * 8 + 1 * ((i 0).val % 8) = (i 0).val; omega
    | ⟨1, _⟩ => show ((cfg4 a0).win 1).index t (1 : Fin 2) * 128 + 1 * (i 1).val = (i 1).val; omega
  exact ⟨t, regOutFlush4 a0 t, hx ▸ (((cfg4 a0).win 1).blk t).view.emb_mem_set _⟩

/-- The result array after the region: the gathered and scaled rows, whole. -/
theorem arrAt4_out (a0 : (pcfg4 (F := F)).Adm) (Vin : Dev nD → Valuation τ sig (Elt F)) (c : Dev nD) :
    (dat4 a0 Vin c).arrAt 1 (cfg4 a0).N = gout4 a0 Vin c :=
  (dat4 a0 Vin c).arrAt_eq_of_cover 1 (gout4 a0 Vin c)
    (fun t _ => by
      show ((cfg4 a0).win 1).cut ((cfg4 a0).grid.coords t) ((dat4 a0 Vin c).after 1 t) = _
      rw [after4_1])
    (regOutCover4 a0)

/-! ## The region as a segment of @main -/

/-- The ownership layout of the kernel's eight semaphores. -/
theorem ownSemFacts4 : Pipeline.OwnSemFacts spec4 osem4 := by decide

/-- The kernel's own cells at zero, listed. -/
theorem ownSemsListed4 (c : Dev nD) :
    (Pipeline.ownSems0 (Ix := Unit) (Name := ℕ) (U := UU nD τ) (Lvl := ℕ) (Val := Elt F) (τ := τ) osem4 c : sProp (MM F)) = sems4 c :=
  Pipeline.ownSems0_eq_of_list c osem4 [0, 1, 2, 3, 4, 5, 6, 7] (by decide) (by decide)

/-- The unscoped buffers that are no window's array, no table, and not the embedding array. -/
abbrev restRefs4 : Finset (Ref sig .tc) :=
  (((Finset.univ.filter fun b : Ref sig .tc => ¬ b.isScoped) \ Finset.univ.image (Pipeline.arrRef spec4)) \ Finset.univ.image pre4.ref) \ {main_arg0}

/-- Those buffers, each whole at its contents under `Vin`: what bypasses the region. -/
def Zrest4 (Vin : Dev nD → Valuation τ sig (Elt F)) (c : Dev nD) : sProp (MM F) :=
  bigSep restRefs4 fun b => ((c : Thread nD τ).loc b) ↦{fullShare} Vr Vin c b

/-- The embedding array is an unscoped buffer that is no window's array and no table. -/
theorem embArrMem4 : ({main_arg0} : Finset (Ref sig .tc)) ⊆
    ((Finset.univ.filter fun b : Ref sig .tc => ¬ b.isScoped) \ Finset.univ.image (Pipeline.arrRef spec4)) \ Finset.univ.image pre4.ref := by
  decide

/-- The unscoped buffers that are no window's array: the index table, the embedding array, and the rest. -/
theorem unscopedRestOpen4 (Vin : Dev nD → Valuation τ sig (Elt F)) (c : Dev nD) :
    (Pipeline.unscopedRest (Ix := Unit) (Name := ℕ) (U := UU nD τ) (Lvl := ℕ) spec4 c (Vr Vin c) : sProp (MM F))
      = iprop(Pipeline.prefHeld pre4 c (fun _ => fullShare) (fun k => Vr Vin c (pre4.ref k))
          ∗ pt c (Memref.whole main_arg0) (Vr Vin c main_arg0) ∗ Zrest4 Vin c) := by
  rw [Pipeline.unscopedRest_split preFacts4 c (Vr Vin c)]
  unfold Pipeline.unscopedRestP Zrest4
  rw [BI.bigSep_sdiff_split embArrMem4, BI.bigSep_singleton]
  rfl

/-- The buffer contents when the region is left: the result array at the gathered rows, every other buffer as entered. -/
abbrev Vout4 (a0 : (pcfg4 (F := F)).Adm) (Vin : Dev nD → Valuation τ sig (Elt F)) (c : Dev nD) : Valuation τ sig (Elt F) :=
  Function.update (Vin c) main_v35 (gout4 a0 Vin c)

/-- At the exit each of the region's arrays holds what the pipeline leaves; -/
theorem hF4 (a0 : (pcfg4 (F := F)).Adm) (Vin : Dev nD → Valuation τ sig (Elt F)) (c : Dev nD) (w : Fin (cfg4 a0).W) :
    (dat4 a0 Vin c).arrAt w (cfg4 a0).N = Vr (Vout4 a0 Vin) c (Pipeline.arrRef spec4 w) := by
  match w with
  | ⟨0, _⟩ =>
    show (dat4 a0 Vin c).arrAt 0 (cfg4 a0).N = Vr (Vout4 a0 Vin) c (Pipeline.arrRef spec4 0)
    rw [arrAt4_in]
    exact (Function.update_of_ne (StableHlo.devRef_ne_of_ne (by decide) : (Proc.devRef .tc main_v34 : DevRef τ sig) ≠ Proc.devRef .tc main_v35) _ _).symm
  | ⟨1, _⟩ =>
    show (dat4 a0 Vin c).arrAt 1 (cfg4 a0).N = Vr (Vout4 a0 Vin) c (Pipeline.arrRef spec4 1)
    rw [arrAt4_out]
    exact (Function.update_self (Proc.devRef .tc main_v35 : DevRef τ sig) _ (Vin c)).symm

/-- and every other buffer what it held at entry. -/
theorem hrest4 (a0 : (pcfg4 (F := F)).Adm) (Vin : Dev nD → Valuation τ sig (Elt F)) (c : Dev nD) :
    ∀ b : Ref sig .tc, b ∉ Finset.univ.image (Pipeline.arrRef spec4) → Vr (Vout4 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat4` at the entry valuation `Vin`
    (`hd`), the index table's contents under `Vin` being the pinned ones (`htbl`) and row numbers (`hok`). -/
def reg4 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk4 (F := F) (a (4 : Fin 34)))
    (hd : ∀ c, pdats (4 : Fin 34) c = dat4 (a (4 : Fin 34)) Vin c) (htbl : ∀ c, (a (4 : Fin 34)).1 = fun k => Vr Vin c (pre4.ref k)) :
    Pipeline.RegionSeg (pcfgs (F := F)) a pdats () defs₀ 𝒱₀ L lv (4 : Fin 34) where
  win := (launch4 (F := F)).win.to₀
  block_pos := (launch4 (F := F)).block_pos
  stage_whole := (launch4 (F := F)).stage_whole
  K := Fin 8
  osem := osem4
  ho := ownSemFacts4
  hbody c := by rw [hd c]; exact (body_obligation4 (a (4 : Fin 34)) hok Vin c).loose
  hwaits := Pipeline.hwaits_of_owed_zero _ _ _ _ L lv (4 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v35 (gout4 (a (4 : Fin 34)) Vin c)) ∗ Rest c)
  X c := iprop(pt c (Memref.whole main_arg0) (Vr Vin c main_arg0) ∗ sems4 c)
  Y c := iprop(pt c (Memref.whole main_arg0) (Vr Vin c main_arg0)
    ∗ Pipeline.prefHeld (Ix := Unit) (Name := ℕ) (U := UU nD τ) (Lvl := ℕ) pre4 c (fun _ => fullShare) (a (4 : Fin 34)).1)
  Z c := Zrest4 Vin c
  hentry c := by
    rw [ownSemsListed4]
    have hsplit := Pipeline.arrays_of_unscopedBufs (p := (4 : Fin 34)) (pcfgs (F := F)) a pdats (launch4 (F := F)).win (launch4 (F := F)).arr_whole c
      ((pdats (4 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen4 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (4 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq4]; unfold Phi4
    iintro ⟨⟨Hx, Hos⟩, Ht, Hr⟩
    isplitl [Hx]; · iexact Hx
    isplitl [Hos]; · iexact Hos
    isplitl [Ht]; · iexact Ht
    iexact Hr
  hout c := by
    rw [ownSemsListed4, hd c, Phi_eq4]; unfold Phi4
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (4 : Fin 34)) (pcfgs (F := F)) a (Ix := Unit) (Name := ℕ) (U := UU nD τ) (Lvl := ℕ)
      (launch4 (F := F)).win (launch4 (F := F)).arr_whole c pdats ((pdats (4 : Fin 34) c).share_full fun _ => by rw [hd c]; rfl)
      (Vr Vin c) (Vr (Vout4 (a (4 : Fin 34)) Vin) c) ((pdats (4 : Fin 34) c).arrAt · (cfg4 (a (4 : Fin 34))).N)
      (fun w => by rw [hd c]; exact hF4 (a (4 : Fin 34)) Vin c w) (hrest4 (a (4 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen4 Vin c).symm)
      isplitl [Ht]; · rw [← htbl c]; iexact Ht
      isplitl [Hx]; · iexact Hx
      iexact Hz
    unfold Pipeline.Dat.owesAt Pipeline.owesWithin
    rw [show (pdats (4 : Fin 34) c).owed (Fin.last _) = 0 from by rw [hd c]; rfl]
    icases HO with ⟨%W, -, HO⟩; iexists W; iexact HO

end Cert.KernelIdeal.Hand

end
-- ==== Proof.KI.GatherDat5.lean ====
/-
  Gather region 5 (custom_call 5): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem5 : Fin 8 → SemLoc sig := fun | 0 => .dma 64 | 1 => .dma 65 | 2 => .dma 66 | 3 => .dma 67 | 4 => .dma 68 | 5 => .dma 69 | 6 => .dma 70 | 7 => .dma 71

/-- The eight counters at zero, as the run finds them and hands them back. -/
abbrev sems5 (c : Dev nD) : sProp (MM F) :=
  iprop(semVal ((c : Thread nD τ), osem5 0) 0 ∗ semVal ((c : Thread nD τ), osem5 1) 0 ∗ semVal ((c : Thread nD τ), osem5 2) 0
    ∗ semVal ((c : Thread nD τ), osem5 3) 0 ∗ semVal ((c : Thread nD τ), osem5 4) 0 ∗ semVal ((c : Thread nD τ), osem5 5) 0
    ∗ semVal ((c : Thread nD τ), osem5 6) 0 ∗ semVal ((c : Thread nD τ), osem5 7) 0)

/-- Word `j` of the eight the index table holds for point `i`, as the kernel's scalar load reads it. -/
def tblWord5 (c : Dev nD) (i : grid5.Coords) (tbl : Bf (F := F) c (Memref.whole main_v36)) (j : Fin 8) : BitVec 32 :=
  (Memref.whole main_v36).view.readAt (Elt F) (Rect.unit (s := S131072) (k5_off1 i (BitVec.ofNat 32 j.val)) S1.size (k5_off1_inb i j)).toLoadRect tbl
    (Shape.Idx.first (s := S1) (numel1_S1.symm ▸ Nat.one_pos))

/-- Window `w`'s block at point `t`, read off its array at the region's entry. -/
def iblk5 (a0 : (pcfg5 (F := F)).Adm) (Vin : Dev nD → Valuation τ sig (Elt F)) (c : Dev nD) (w : Fin (cfg5 a0).W) (t : Fin (cfg5 a0).N) :
    (((cfg5 a0).win w).xblock ((cfg5 a0).grid.coords t)).Idx → Elt F ((cfg5 a0).win w).elt :=
  (((cfg5 a0).win w).blk t).view.read (Elt F) (Vr Vin c (Pipeline.arrRef spec5 w))

/-- The result array the region leaves: the gathered and scaled rows of the embedding array, whole. -/
def gout5 (a0 : (pcfg5 (F := F)).Adm) (Vin : Dev nD → Valuation τ sig (Elt F)) (c : Dev nD) : Buf (Elt F) ((c : Thread nD τ).loc main_v38) :=
  gatherArr (Vr Vin c main_arg0) (a0.1 0) (Vr Vin c main_v37)

/-- The invariant between points: the embedding array as entered, the kernel's semaphores at zero, the index table, the
    scoped buffers no window stages (the kernel's scratch among them). -/
def Phi5 (a0 : (pcfg5 (F := F)).Adm) (Vin : Dev nD → Valuation τ sig (Elt F)) (c : Dev nD) : sProp (MM F) :=
  iprop(pt c (Memref.whole main_arg0) (Vr Vin c main_arg0) ∗ sems5 c
    ∗ Pipeline.prefHeld (Ix := Unit) (Name := ℕ) (U := UU nD τ) (Lvl := ℕ) pre5 c (fun _ => fullShare) a0.1
    ∗ Pipeline.scopedRest (Ix := Unit) (Name := ℕ) (U := UU nD τ) (Lvl := ℕ) (Val := Elt F) spec5 c)

/-- The proof data on core `c`. -/
def dat5 (a0 : (pcfg5 (F := F)).Adm) (Vin : Dev nD → Valuation τ sig (Elt F)) (c : Dev nD) :
    Pipeline.Dat τ (Elt F) Unit ℕ (UU nD τ) ℕ ((pcfg5 (F := F)).at a0) c where
  A w := Vr Vin c (Pipeline.arrRef spec5 w)
  after w t := match w with
    | ⟨0, _⟩ => iblk5 a0 Vin c 0 t
    | ⟨1, _⟩ => (((cfg5 a0).win 1).blk t).view.read (Elt F) (gout5 a0 Vin c)
  Φ _ := Phi5 a0 Vin c
  q _ := fullShare
  owed _ := 0

theorem A_eq5 (a0 : (pcfg5 (F := F)).Adm) (Vin : Dev nD → Valuation τ sig (Elt F)) (c : Dev nD) (w : Fin (cfg5 a0).W) :
    (dat5 a0 Vin c).A w = Vr Vin c (Pipeline.arrRef spec5 w) := by dsimp only [dat5]
theorem after5_0 (a0 : (pcfg5 (F := F)).Adm) (Vin : Dev nD → Valuation τ sig (Elt F)) (c : Dev nD) (t : Fin (cfg5 a0).N) :
    (dat5 a0 Vin c).after 0 t = iblk5 a0 Vin c 0 t := by dsimp only [dat5]; rfl
theorem after5_1 (a0 : (pcfg5 (F := F)).Adm) (Vin : Dev nD → Valuation τ sig (Elt F)) (c : Dev nD) (t : Fin (cfg5 a0).N) :
    (dat5 a0 Vin c).after 1 t = (((cfg5 a0).win 1).blk t).view.read (Elt F) (gout5 a0 Vin c) := by dsimp only [dat5]; rfl
theorem Phi_eq5 (a0 : (pcfg5 (F := F)).Adm) (Vin : Dev nD → Valuation τ sig (Elt F)) (c : Dev nD) (t : Fin ((cfg5 a0).N + 1)) :
    (dat5 a0 Vin c).Φ t = Phi5 a0 Vin c := rfl
theorem owed_eq5 (a0 : (pcfg5 (F := F)).Adm) (Vin : Dev nD → Valuation τ sig (Elt F)) (c : Dev nD) (t : Fin ((cfg5 a0).N + 1)) :
    (dat5 a0 Vin c).owed t = 0 := rfl
theorem q_eq5 (a0 : (pcfg5 (F := F)).Adm) (Vin : Dev nD → Valuation τ sig (Elt F)) (c : Dev nD) (w : Fin (cfg5 a0).W) :
    (dat5 a0 Vin c).q w = fullShare := rfl

/-- The pinned family's configuration at region 5 is this one. -/
example (a : (p : Fin 34) → (pcfgs (F := F) p).Adm) : Pipeline.pin (pcfgs (F := F)) a (5 : Fin 34) = (pcfg5 (F := F)).at (a (5 : Fin 34)) := rfl

end Cert.KernelIdeal.Hand

end
-- ==== Proof.KI.GatherBody5.lean ====
/-
  Gather region 5 (custom_call 5): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat5
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk5 (c : Dev nD) (i : grid5.Coords) (tbl : Bf (F := F) c (Memref.whole main_v36)) : Prop where
  h1 : k5_chk1 (tblWord5 c i tbl 0)
  h2 : k5_chk2 (tblWord5 c i tbl 1)
  h3 : k5_chk3 (tblWord5 c i tbl 2)
  h4 : k5_chk4 (tblWord5 c i tbl 3)
  h5 : k5_chk5 (tblWord5 c i tbl 4)
  h6 : k5_chk6 (tblWord5 c i tbl 5)
  h7 : k5_chk7 (tblWord5 c i tbl 6)
  h8 : k5_chk8 (tblWord5 c i tbl 7)

/-- A one-row slice of the embedding array at the row a word names, read at lane `z 1`: the array's element there. -/
theorem rowRead5 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun5 (c : Dev nD) (i : grid5.Coords)
    (M3 : Memref sig .tc .vmem S8x1 .f32) (h3 : M3.IsWhole) (M4 : Memref sig .tc .vmem S8x128 .f32) (h4 : M4.IsWhole)
    (tbl : Bf (F := F) c (Memref.whole main_v36)) (x : Bf (F := F) c (Memref.whole main_arg0))
    (vb : Vec F S8x1 .f32) (hchk : GatherChk5 c i tbl) (Q : PUnit → sProp (MM F)) :
    iprop(pt c (Memref.whole main_v36) tbl ∗ pt c (Memref.whole main_arg0) x
      ∗ owns (c : Thread nD τ) M3 fullShare vb ∗ (∃ d, owns (c : Thread nD τ) M4 fullShare d)
      ∗ (∃ fs, pt c (Memref.whole cc5_scratch0) fs) ∗ sems5 c ∗ (∃ W, owes (c : Thread nD τ) (0 : CellTallies nD τ sig Unit) W)
      ∗ (iprop(pt c (Memref.whole main_v36) tbl ∗ pt c (Memref.whole main_arg0) x
          ∗ owns (c : Thread nD τ) M3 fullShare vb ∗ owns (c : Thread nD τ) M4 fullShare (gatherBlk x (tblWord5 c i tbl) vb)
          ∗ (∃ fs, pt c (Memref.whole cc5_scratch0) fs) ∗ sems5 c ∗ (∃ W, owes (c : Thread nD τ) (0 : CellTallies nD τ sig Unit) W)) -∗ Q ⟨⟩))
    ⊢ wp frame (wpE (defs₀ (F := F)) 𝒱₀ c none) Set.univ
        (cc5__gather_kernel i (Memref.whole main_v36) (Memref.isWhole_whole _) (Memref.whole main_arg0) (Memref.isWhole_whole _) M3 h3 M4 h4
          (Memref.whole cc5_scratch0) (Memref.isWhole_whole _) cc5_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 64).1 $$ Hx
  icases Hx' with ⟨Hxr, Hx0, Hx1, Hx2, Hx3, Hx4, Hx5, Hx6, Hx7⟩
  sl_unfold [cc5__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 64).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k5_pay1 gatherBlk
    show FloatOps.mulf _ _ = FloatOps.mulf _ _
    congr 1
    · unfold gatherRun5.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun5.sl.dma8 gatherRun5.sl.dma8_1 gatherRun5.sl.dma8_2 gatherRun5.sl.dma8_3 gatherRun5.sl.dma8_4 gatherRun5.sl.dma8_5
        gatherRun5.sl.dma8_6 gatherRun5.sl.dma8_7 gatherRun5.sl.r gatherRun5.sl.r_1 gatherRun5.sl.r_2 gatherRun5.sl.r_3 gatherRun5.sl.r_4
        gatherRun5.sl.r_5 gatherRun5.sl.r_6 gatherRun5.sl.r_7
      refine canonRows8 _ _ _ _ _ _ _ _ _ _ _ _ _ _ _ _ (fun r d => x (embIdx (rowOf (tblWord5 c i tbl r)) d)) ?_ ?_ ?_ ?_ ?_ ?_ ?_ ?_ y
      · exact fun z => rowRead5 c _ (tblWord5 c i tbl 0) rfl rfl _ _ x z
      · exact fun z => rowRead5 c _ (tblWord5 c i tbl 1) rfl rfl _ _ x z
      · exact fun z => rowRead5 c _ (tblWord5 c i tbl 2) rfl rfl _ _ x z
      · exact fun z => rowRead5 c _ (tblWord5 c i tbl 3) rfl rfl _ _ x z
      · exact fun z => rowRead5 c _ (tblWord5 c i tbl 4) rfl rfl _ _ x z
      · exact fun z => rowRead5 c _ (tblWord5 c i tbl 5) rfl rfl _ _ x z
      · exact fun z => rowRead5 c _ (tblWord5 c i tbl 6) rfl rfl _ _ x z
      · exact fun z => rowRead5 c _ (tblWord5 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk5.lean ====
/-
  Gather region 5 (custom_call 5): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat5
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word5 (i : grid5.Coords) (j : Fin 8) : k5_off1 i (BitVec.ofNat 32 j.val) 0 = (i 0).val * 8 + j.val := by
  have hi : (i 0).val < 16384 := (i 0).isLt
  have hj : j.val < 8 := j.isLt
  unfold k5_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word5 (i : grid5.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord5_eq (c : Dev nD) (i : grid5.Coords) (tbl : Bf (F := F) c (Memref.whole main_v36)) (j : Fin 8)
    (e : Fin 131072) (he : e.val = (i 0).val * 8 + j.val) : tblWord5 c i tbl j = tbl (tblIdx e) := by
  unfold tblWord5
  show tbl _ = tbl _
  refine congrArg tbl ?_
  funext a; apply Fin.ext
  match a with
  | ⟨0, _⟩ =>
    show k5_off1 i (BitVec.ofNat 32 j.val) 0 + 1 * 0 = e.val
    rw [off_word5, he]; omega

/-- Row `j` of the value window's block at point `t` is the value array's row `8 t + j`. -/
theorem valBlk5_eq (a0 : (pcfg5 (F := F)).Adm) (Vin : Dev nD → Valuation τ sig (Elt F)) (c : Dev nD) (t : Fin (cfg5 a0).N)
    (j : Fin 8) (e : Fin 131072) (he : e.val = ((grid5.coords t) 0).val * 8 + j.val) :
    iblk5 a0 Vin c 0 t (colIdx j) = Vr Vin c main_v37 (valIdx e) := by
  unfold iblk5
  show Vr Vin c main_v37 _ = Vr Vin c main_v37 _
  refine congrArg (Vr Vin c main_v37) ?_
  funext a; apply Fin.ext
  match a with
  | ⟨0, _⟩ =>
    show (BitVec.ofNat 32 ((grid5.coords t) 0).val).toNat * 8 + 1 * j.val = e.val
    rw [coord_word5, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk5 (a0 : (pcfg5 (F := F)).Adm) (Vin : Dev nD → Valuation τ sig (Elt F)) (c : Dev nD) (t : Fin (cfg5 a0).N) :
    gatherBlk (Vr Vin c main_arg0) (tblWord5 c (grid5.coords t) (a0.1 0)) (iblk5 a0 Vin c 0 t)
      = (((cfg5 a0).win 1).blk t).view.read (Elt F) (gout5 a0 Vin c) := by
  funext y
  show gatherBlk _ _ _ y = gout5 a0 Vin c ((((cfg5 a0).win 1).blk t).view.emb y)
  unfold gatherBlk gout5 gatherArr
  have e0 : ((((cfg5 a0).win 1).blk t).view.emb y (0 : Fin 2)).val = ((grid5.coords t) 0).val * 8 + (y 0).val := by
    show (BitVec.ofNat 32 ((grid5.coords t) 0).val).toNat * 8 + 1 * (y 0).val = _
    rw [coord_word5]; omega
  have e1 : (((cfg5 a0).win 1).blk t).view.emb y (1 : Fin 2) = y 1 := Fin.ext (by
    show (0#32 : BitVec 32).toNat * 128 + 1 * (y 1).val = (y 1).val
    show 0 * 128 + 1 * (y 1).val = (y 1).val
    omega)
  rw [tblWord5_eq c (grid5.coords t) (a0.1 0) (y 0) _ e0, valBlk5_eq a0 Vin c t (y 0) _ e0, e1]

end Cert.KernelIdeal.Hand

end
-- ==== Proof.KI.GatherRegion5.lean ====
/-
  Gather region 5 (custom_call 5): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody5
import proofs.«414509_j14181982011419_2_alg».proof.Proof.KI.GatherBlk5
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk5 (a0 : (pcfg5 (F := F)).Adm) : Prop := ∀ e : S131072.Idx, (a0.1 0 e).toNat < 100000

/-! ## The grid and the result window's blocks -/

/-- On the one-axis grid a point's coordinate is its number. -/
theorem regCoords5 (t : Fin grid5.N) : (grid5.coords t 0).val = t.val := by
  have ht : t.val < 16384 := N_5 ▸ t.isLt
  show t.val / grid5.stride 0 % grid5.bound 0 = t.val
  rw [show grid5.stride 0 = 1 from by decide, show grid5.bound 0 = 16384 from rfl, Nat.div_one, Nat.mod_eq_of_lt ht]

/-- A point's number as the 32-bit word the index maps compute with. -/
theorem regWord5 (t : Fin grid5.N) : (BitVec.ofNat 32 (grid5.coords t 0).val).toNat = t.val := by
  have ht : t.val < 16384 := N_5 ▸ t.isLt
  rw [BitVec.toNat_ofNat, regCoords5]; omega

/-- The result window's block at point `t` is block `t` along the rows, at zero along the lanes. -/
theorem regOutIndex5 (a0 : (pcfg5 (F := F)).Adm) (t : Fin (cfg5 a0).N) : ((cfg5 a0).win 1).index t = ![t.val, 0] := by
  show cc5_transform_2 (grid5.coords t) = _
  unfold cc5_transform_2
  funext a; fin_cases a
  · exact regWord5 t
  · rfl

/-- The result window is written back at every point: consecutive points have different blocks. -/
theorem regOutFlush5 (a0 : (pcfg5 (F := F)).Adm) (t : Fin (cfg5 a0).N) : ((cfg5 a0).win 1).flush t = true := by
  have htN : t.val < 16384 := N_5 ▸ t.isLt
  rw [Pipeline.Window.flush_out _ rfl]
  by_cases h : t.val + 1 = 16384
  · exact Or.inl (show t.val + 1 = grid5.N by rw [N_5]; exact h)
  · have hlt : t.val + 1 < grid5.N := by rw [N_5]; omega
    refine Or.inr ⟨hlt, fun e => ?_⟩
    have e' : (![t.val + 1, 0] : Fin 2 → ℕ) = ![t.val, 0] := (regOutIndex5 a0 ⟨t.val + 1, hlt⟩).symm.trans (e.trans (regOutIndex5 a0 t))
    have e0 := congrFun e' 0
    simp at e0

/-- The index table, held as the pipeline's one prefetched table. -/
theorem prefHeldEq5 (a0 : (pcfg5 (F := F)).Adm) (c : Dev nD) :
    (Pipeline.prefHeld (Ix := Unit) (Name := ℕ) (U := UU nD τ) (Lvl := ℕ) pre5 c (fun _ => fullShare) a0.1 : sProp (MM F))
      = pt c (Memref.whole main_v36) (a0.1 0) := by
  unfold Pipeline.prefHeld
  rw [show (Finset.univ : Finset (Fin pre5.K)) = {0} from rfl, BI.bigSep_singleton]
  rfl

/-- The value window's staging buffer holds its block at every point. -/
theorem beforeVal5 (a0 : (pcfg5 (F := F)).Adm) (Vin : Dev nD → Valuation τ sig (Elt F)) (c : Dev nD) (t : Fin (cfg5 a0).N) (d) :
    (dat5 a0 Vin c).before 0 t d = iblk5 a0 Vin c 0 t :=
  ((dat5 a0 Vin c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-! ## The kernel's checks, from the table's range -/

/-- Each of the point's eight words is a word of the table, so a row number. -/
theorem tblWordLt5 (a0 : (pcfg5 (F := F)).Adm) (hok : GatherOk5 a0) (c : Dev nD) (i : grid5.Coords) (j : Fin 8) :
    (tblWord5 c i (a0.1 0) j).toNat < 100000 := by
  unfold tblWord5
  exact hok _

/-- So the kernel's eight checks hold at every point. -/
theorem gatherChk5 (a0 : (pcfg5 (F := F)).Adm) (hok : GatherOk5 a0) (c : Dev nD) (i : grid5.Coords) : GatherChk5 c i (a0.1 0) :=
  ⟨⟨chkRow _ (tblWordLt5 a0 hok c i 0), chkRow _ (tblWordLt5 a0 hok c i 0)⟩,
   ⟨chkRow _ (tblWordLt5 a0 hok c i 1), chkRow _ (tblWordLt5 a0 hok c i 1)⟩,
   ⟨chkRow _ (tblWordLt5 a0 hok c i 2), chkRow _ (tblWordLt5 a0 hok c i 2)⟩,
   ⟨chkRow _ (tblWordLt5 a0 hok c i 3), chkRow _ (tblWordLt5 a0 hok c i 3)⟩,
   ⟨chkRow _ (tblWordLt5 a0 hok c i 4), chkRow _ (tblWordLt5 a0 hok c i 4)⟩,
   ⟨chkRow _ (tblWordLt5 a0 hok c i 5), chkRow _ (tblWordLt5 a0 hok c i 5)⟩,
   ⟨chkRow _ (tblWordLt5 a0 hok c i 6), chkRow _ (tblWordLt5 a0 hok c i 6)⟩,
   chkRow _ (tblWordLt5 a0 hok c i 7)⟩

/-! ## The body obligation, at a generic point -/

/-- What the body is called with at point `t`: the invariant, the core's dues, each window's current staging memref at
    what the pipeline left there, -/
def bodyPre5 (a0 : (pcfg5 (F := F)).Adm) (Vin : Dev nD → Valuation τ sig (Elt F)) (c : Dev nD) (t : Fin (cfg5 a0).N) : sProp (MM F) :=
  iprop((dat5 a0 Vin c).Φ t.castSucc ∗ (dat5 a0 Vin c).owesAt () t.castSucc
    ∗ (∃ d, owns (c : Thread nD τ) (((cfg5 a0).win 0).stage ((cfg5 a0).slots t 0)) fullShare ((dat5 a0 Vin c).before 0 t d))
    ∗ (∃ d, owns (c : Thread nD τ) (((cfg5 a0).win 1).stage ((cfg5 a0).slots t 1)) fullShare ((dat5 a0 Vin c).before 1 t d)))

/-- and what it returns. -/
def bodyPost5 (a0 : (pcfg5 (F := F)).Adm) (Vin : Dev nD → Valuation τ sig (Elt F)) (c : Dev nD) (t : Fin (cfg5 a0).N) : sProp (MM F) :=
  iprop((dat5 a0 Vin c).Φ t.succ ∗ (dat5 a0 Vin c).owesAt () t.succ
    ∗ owns (c : Thread nD τ) (((cfg5 a0).win 0).stage ((cfg5 a0).slots t 0)) fullShare ((dat5 a0 Vin c).after 0 t)
    ∗ owns (c : Thread nD τ) (((cfg5 a0).win 1).stage ((cfg5 a0).slots t 1)) fullShare ((dat5 a0 Vin c).after 1 t))

/-- The body at any point: the invariant opened into the embedding array, the semaphores, the table and the scratch;
    the value window's memref at its block; the checks from the table's range; so the kernel's run applies, and what it
    leaves in the result window's memref is the point's block of the gathered array. -/
theorem sound_body5 (a0 : (pcfg5 (F := F)).Adm) (hok : GatherOk5 a0) (Vin : Dev nD → Valuation τ sig (Elt F)) (c : Dev nD) (t : Fin (cfg5 a0).N) :
    bodyPre5 a0 Vin c t ⊢ wp frame (wpE (defs₀ (F := F)) 𝒱₀ c none) Set.univ
      (defs₀ .tc (cfg5 a0).body ((cfg5 a0).bodyArgs t ((cfg5 a0).slots t))) (fun _ => bodyPost5 a0 Vin c t) := by
  unfold bodyPre5 bodyPost5
  simp only [beforeVal5]
  rw [Phi_eq5, Phi_eq5, after5_0, after5_1, ← gatherBlk_blk5]
  unfold Phi5 Pipeline.Dat.owesAt Pipeline.owesWithin
  rw [owed_eq5, owed_eq5, prefHeldEq5, scopedRest5_split]
  iintro ⟨⟨Hx, Hos, Ht, ⟨%fs, Hs⟩, Hsb⟩, ⟨%W, %hW, HO⟩, ⟨%d0, H0⟩, ⟨%d1, H1⟩⟩
  iapply (gatherRun5 c (grid5.coords t) _ _ _ _ (a0.1 0) (Vr Vin c main_arg0) (iblk5 a0 Vin c 0 t) (gatherChk5 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation5 (a0 : (pcfg5 (F := F)).Adm) (hok : GatherOk5 a0) (Vin : Dev nD → Valuation τ sig (Elt F)) (c : Dev nD) :
    BodyObligation (dat5 a0 Vin c) (defs₀ (F := F)) 𝒱₀ () Set.univ := fun t => by
  rw [bigSep_W5, bigSep_W5]
  exact sound_body5 a0 hok Vin c t

/-! ## From the blocks to the arrays -/

/-- The value array after the region: as entered. -/
theorem arrAt5_in (a0 : (pcfg5 (F := F)).Adm) (Vin : Dev nD → Valuation τ sig (Elt F)) (c : Dev nD) :
    (dat5 a0 Vin c).arrAt 0 (cfg5 a0).N = Vr Vin c main_v37 :=
  ((dat5 a0 Vin c).arrAt_in 0 rfl _).trans (A_eq5 a0 Vin c 0)

/-- Every index of the result array is in some point's block: row `e`, lane `d` is element `(e % 8, d)` of the block
    of point `e / 8`. -/
theorem regOutCover5 (a0 : (pcfg5 (F := F)).Adm) (i : S131072x128.Idx) :
    ∃ t : Fin (cfg5 a0).N, ((cfg5 a0).win 1).flush t = true ∧ i ∈ (((cfg5 a0).win 1).blk t).view.set := by
  have hi0 : (i 0).val < 131072 := (i 0).isLt
  have hi1 : (i 1).val < 128 := (i 1).isLt
  have hN : (i 0).val / 8 < grid5.N := by rw [N_5]; omega
  obtain ⟨t, ht⟩ : ∃ t : Fin (cfg5 a0).N, t.val = (i 0).val / 8 := ⟨⟨_, hN⟩, rfl⟩
  have hx : (((cfg5 a0).win 1).blk t).view.emb (ValueIdx.ix2 ⟨(i 0).val % 8, Nat.mod_lt _ (by decide)⟩ (i 1)) = i := by
    funext a; apply Fin.ext
    have e0 : ((cfg5 a0).win 1).index t (0 : Fin 2) = t.val := congrFun (regOutIndex5 a0 t) (0 : Fin 2)
    have e1 : ((cfg5 a0).win 1).index t (1 : Fin 2) = 0 := congrFun (regOutIndex5 a0 t) (1 : Fin 2)
    match a with
    | ⟨0, _⟩ => show ((cfg5 a0).win 1).index t (0 : Fin 2) * 8 + 1 * ((i 0).val % 8) = (i 0).val; omega
    | ⟨1, _⟩ => show ((cfg5 a0).win 1).index t (1 : Fin 2) * 128 + 1 * (i 1).val = (i 1).val; omega
  exact ⟨t, regOutFlush5 a0 t, hx ▸ (((cfg5 a0).win 1).blk t).view.emb_mem_set _⟩

/-- The result array after the region: the gathered and scaled rows, whole. -/
theorem arrAt5_out (a0 : (pcfg5 (F := F)).Adm) (Vin : Dev nD → Valuation τ sig (Elt F)) (c : Dev nD) :
    (dat5 a0 Vin c).arrAt 1 (cfg5 a0).N = gout5 a0 Vin c :=
  (dat5 a0 Vin c).arrAt_eq_of_cover 1 (gout5 a0 Vin c)
    (fun t _ => by
      show ((cfg5 a0).win 1).cut ((cfg5 a0).grid.coords t) ((dat5 a0 Vin c).after 1 t) = _
      rw [after5_1])
    (regOutCover5 a0)

/-! ## The region as a segment of @main -/

/-- The ownership layout of the kernel's eight semaphores. -/
theorem ownSemFacts5 : Pipeline.OwnSemFacts spec5 osem5 := by decide

/-- The kernel's own cells at zero, listed. -/
theorem ownSemsListed5 (c : Dev nD) :
    (Pipeline.ownSems0 (Ix := Unit) (Name := ℕ) (U := UU nD τ) (Lvl := ℕ) (Val := Elt F) (τ := τ) osem5 c : sProp (MM F)) = sems5 c :=
  Pipeline.ownSems0_eq_of_list c osem5 [0, 1, 2, 3, 4, 5, 6, 7] (by decide) (by decide)

/-- The unscoped buffers that are no window's array, no table, and not the embedding array. -/
abbrev restRefs5 : Finset (Ref sig .tc) :=
  (((Finset.univ.filter fun b : Ref sig .tc => ¬ b.isScoped) \ Finset.univ.image (Pipeline.arrRef spec5)) \ Finset.univ.image pre5.ref) \ {main_arg0}

/-- Those buffers, each whole at its contents under `Vin`: what bypasses the region. -/
def Zrest5 (Vin : Dev nD → Valuation τ sig (Elt F)) (c : Dev nD) : sProp (MM F) :=
  bigSep restRefs5 fun b => ((c : Thread nD τ).loc b) ↦{fullShare} Vr Vin c b

/-- The embedding array is an unscoped buffer that is no window's array and no table. -/
theorem embArrMem5 : ({main_arg0} : Finset (Ref sig .tc)) ⊆
    ((Finset.univ.filter fun b : Ref sig .tc => ¬ b.isScoped) \ Finset.univ.image (Pipeline.arrRef spec5)) \ Finset.univ.image pre5.ref := by
  decide

/-- The unscoped buffers that are no window's array: the index table, the embedding array, and the rest. -/
theorem unscopedRestOpen5 (Vin : Dev nD → Valuation τ sig (Elt F)) (c : Dev nD) :
    (Pipeline.unscopedRest (Ix := Unit) (Name := ℕ) (U := UU nD τ) (Lvl := ℕ) spec5 c (Vr Vin c) : sProp (MM F))
      = iprop(Pipeline.prefHeld pre5 c (fun _ => fullShare) (fun k => Vr Vin c (pre5.ref k))
          ∗ pt c (Memref.whole main_arg0) (Vr Vin c main_arg0) ∗ Zrest5 Vin c) := by
  rw [Pipeline.unscopedRest_split preFacts5 c (Vr Vin c)]
  unfold Pipeline.unscopedRestP Zrest5
  rw [BI.bigSep_sdiff_split embArrMem5, BI.bigSep_singleton]
  rfl

/-- The buffer contents when the region is left: the result array at the gathered rows, every other buffer as entered. -/
abbrev Vout5 (a0 : (pcfg5 (F := F)).Adm) (Vin : Dev nD → Valuation τ sig (Elt F)) (c : Dev nD) : Valuation τ sig (Elt F) :=
  Function.update (Vin c) main_v38 (gout5 a0 Vin c)

/-- At the exit each of the region's arrays holds what the pipeline leaves; -/
theorem hF5 (a0 : (pcfg5 (F := F)).Adm) (Vin : Dev nD → Valuation τ sig (Elt F)) (c : Dev nD) (w : Fin (cfg5 a0).W) :
    (dat5 a0 Vin c).arrAt w (cfg5 a0).N = Vr (Vout5 a0 Vin) c (Pipeline.arrRef spec5 w) := by
  match w with
  | ⟨0, _⟩ =>
    show (dat5 a0 Vin c).arrAt 0 (cfg5 a0).N = Vr (Vout5 a0 Vin) c (Pipeline.arrRef spec5 0)
    rw [arrAt5_in]
    exact (Function.update_of_ne (StableHlo.devRef_ne_of_ne (by decide) : (Proc.devRef .tc main_v37 : DevRef τ sig) ≠ Proc.devRef .tc main_v38) _ _).symm
  | ⟨1, _⟩ =>
    show (dat5 a0 Vin c).arrAt 1 (cfg5 a0).N = Vr (Vout5 a0 Vin) c (Pipeline.arrRef spec5 1)
    rw [arrAt5_out]
    exact (Function.update_self (Proc.devRef .tc main_v38 : DevRef τ sig) _ (Vin c)).symm

/-- and every other buffer what it held at entry. -/
theorem hrest5 (a0 : (pcfg5 (F := F)).Adm) (Vin : Dev nD → Valuation τ sig (Elt F)) (c : Dev nD) :
    ∀ b : Ref sig .tc, b ∉ Finset.univ.image (Pipeline.arrRef spec5) → Vr (Vout5 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat5` at the entry valuation `Vin`
    (`hd`), the index table's contents under `Vin` being the pinned ones (`htbl`) and row numbers (`hok`). -/
def reg5 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk5 (F := F) (a (5 : Fin 34)))
    (hd : ∀ c, pdats (5 : Fin 34) c = dat5 (a (5 : Fin 34)) Vin c) (htbl : ∀ c, (a (5 : Fin 34)).1 = fun k => Vr Vin c (pre5.ref k)) :
    Pipeline.RegionSeg (pcfgs (F := F)) a pdats () defs₀ 𝒱₀ L lv (5 : Fin 34) where
  win := (launch5 (F := F)).win.to₀
  block_pos := (launch5 (F := F)).block_pos
  stage_whole := (launch5 (F := F)).stage_whole
  K := Fin 8
  osem := osem5
  ho := ownSemFacts5
  hbody c := by rw [hd c]; exact (body_obligation5 (a (5 : Fin 34)) hok Vin c).loose
  hwaits := Pipeline.hwaits_of_owed_zero _ _ _ _ L lv (5 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v38 (gout5 (a (5 : Fin 34)) Vin c)) ∗ Rest c)
  X c := iprop(pt c (Memref.whole main_arg0) (Vr Vin c main_arg0) ∗ sems5 c)
  Y c := iprop(pt c (Memref.whole main_arg0) (Vr Vin c main_arg0)
    ∗ Pipeline.prefHeld (Ix := Unit) (Name := ℕ) (U := UU nD τ) (Lvl := ℕ) pre5 c (fun _ => fullShare) (a (5 : Fin 34)).1)
  Z c := Zrest5 Vin c
  hentry c := by
    rw [ownSemsListed5]
    have hsplit := Pipeline.arrays_of_unscopedBufs (p := (5 : Fin 34)) (pcfgs (F := F)) a pdats (launch5 (F := F)).win (launch5 (F := F)).arr_whole c
      ((pdats (5 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen5 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (5 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq5]; unfold Phi5
    iintro ⟨⟨Hx, Hos⟩, Ht, Hr⟩
    isplitl [Hx]; · iexact Hx
    isplitl [Hos]; · iexact Hos
    isplitl [Ht]; · iexact Ht
    iexact Hr
  hout c := by
    rw [ownSemsListed5, hd c, Phi_eq5]; unfold Phi5
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (5 : Fin 34)) (pcfgs (F := F)) a (Ix := Unit) (Name := ℕ) (U := UU nD τ) (Lvl := ℕ)
      (launch5 (F := F)).win (launch5 (F := F)).arr_whole c pdats ((pdats (5 : Fin 34) c).share_full fun _ => by rw [hd c]; rfl)
      (Vr Vin c) (Vr (Vout5 (a (5 : Fin 34)) Vin) c) ((pdats (5 : Fin 34) c).arrAt · (cfg5 (a (5 : Fin 34))).N)
      (fun w => by rw [hd c]; exact hF5 (a (5 : Fin 34)) Vin c w) (hrest5 (a (5 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen5 Vin c).symm)
      isplitl [Ht]; · rw [← htbl c]; iexact Ht
      isplitl [Hx]; · iexact Hx
      iexact Hz
    unfold Pipeline.Dat.owesAt Pipeline.owesWithin
    rw [show (pdats (5 : Fin 34) c).owed (Fin.last _) = 0 from by rw [hd c]; rfl]
    icases HO with ⟨%W, -, HO⟩; iexists W; iexact HO

end Cert.KernelIdeal.Hand

end
-- ==== Proof.KI.GatherDat6.lean ====
/-
  Gather region 6 (custom_call 6): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem6 : Fin 8 → SemLoc sig := fun | 0 => .dma 76 | 1 => .dma 77 | 2 => .dma 78 | 3 => .dma 79 | 4 => .dma 80 | 5 => .dma 81 | 6 => .dma 82 | 7 => .dma 83

/-- The eight counters at zero, as the run finds them and hands them back. -/
abbrev sems6 (c : Dev nD) : sProp (MM F) :=
  iprop(semVal ((c : Thread nD τ), osem6 0) 0 ∗ semVal ((c : Thread nD τ), osem6 1) 0 ∗ semVal ((c : Thread nD τ), osem6 2) 0
    ∗ semVal ((c : Thread nD τ), osem6 3) 0 ∗ semVal ((c : Thread nD τ), osem6 4) 0 ∗ semVal ((c : Thread nD τ), osem6 5) 0
    ∗ semVal ((c : Thread nD τ), osem6 6) 0 ∗ semVal ((c : Thread nD τ), osem6 7) 0)

/-- Word `j` of the eight the index table holds for point `i`, as the kernel's scalar load reads it. -/
def tblWord6 (c : Dev nD) (i : grid6.Coords) (tbl : Bf (F := F) c (Memref.whole main_v39)) (j : Fin 8) : BitVec 32 :=
  (Memref.whole main_v39).view.readAt (Elt F) (Rect.unit (s := S131072) (k6_off1 i (BitVec.ofNat 32 j.val)) S1.size (k6_off1_inb i j)).toLoadRect tbl
    (Shape.Idx.first (s := S1) (numel1_S1.symm ▸ Nat.one_pos))

/-- Window `w`'s block at point `t`, read off its array at the region's entry. -/
def iblk6 (a0 : (pcfg6 (F := F)).Adm) (Vin : Dev nD → Valuation τ sig (Elt F)) (c : Dev nD) (w : Fin (cfg6 a0).W) (t : Fin (cfg6 a0).N) :
    (((cfg6 a0).win w).xblock ((cfg6 a0).grid.coords t)).Idx → Elt F ((cfg6 a0).win w).elt :=
  (((cfg6 a0).win w).blk t).view.read (Elt F) (Vr Vin c (Pipeline.arrRef spec6 w))

/-- The result array the region leaves: the gathered and scaled rows of the embedding array, whole. -/
def gout6 (a0 : (pcfg6 (F := F)).Adm) (Vin : Dev nD → Valuation τ sig (Elt F)) (c : Dev nD) : Buf (Elt F) ((c : Thread nD τ).loc main_v41) :=
  gatherArr (Vr Vin c main_arg0) (a0.1 0) (Vr Vin c main_v40)

/-- The invariant between points: the embedding array as entered, the kernel's semaphores at zero, the index table, the
    scoped buffers no window stages (the kernel's scratch among them). -/
def Phi6 (a0 : (pcfg6 (F := F)).Adm) (Vin : Dev nD → Valuation τ sig (Elt F)) (c : Dev nD) : sProp (MM F) :=
  iprop(pt c (Memref.whole main_arg0) (Vr Vin c main_arg0) ∗ sems6 c
    ∗ Pipeline.prefHeld (Ix := Unit) (Name := ℕ) (U := UU nD τ) (Lvl := ℕ) pre6 c (fun _ => fullShare) a0.1
    ∗ Pipeline.scopedRest (Ix := Unit) (Name := ℕ) (U := UU nD τ) (Lvl := ℕ) (Val := Elt F) spec6 c)

/-- The proof data on core `c`. -/
def dat6 (a0 : (pcfg6 (F := F)).Adm) (Vin : Dev nD → Valuation τ sig (Elt F)) (c : Dev nD) :
    Pipeline.Dat τ (Elt F) Unit ℕ (UU nD τ) ℕ ((pcfg6 (F := F)).at a0) c where
  A w := Vr Vin c (Pipeline.arrRef spec6 w)
  after w t := match w with
    | ⟨0, _⟩ => iblk6 a0 Vin c 0 t
    | ⟨1, _⟩ => (((cfg6 a0).win 1).blk t).view.read (Elt F) (gout6 a0 Vin c)
  Φ _ := Phi6 a0 Vin c
  q _ := fullShare
  owed _ := 0

theorem A_eq6 (a0 : (pcfg6 (F := F)).Adm) (Vin : Dev nD → Valuation τ sig (Elt F)) (c : Dev nD) (w : Fin (cfg6 a0).W) :
    (dat6 a0 Vin c).A w = Vr Vin c (Pipeline.arrRef spec6 w) := by dsimp only [dat6]
theorem after6_0 (a0 : (pcfg6 (F := F)).Adm) (Vin : Dev nD → Valuation τ sig (Elt F)) (c : Dev nD) (t : Fin (cfg6 a0).N) :
    (dat6 a0 Vin c).after 0 t = iblk6 a0 Vin c 0 t := by dsimp only [dat6]; rfl
theorem after6_1 (a0 : (pcfg6 (F := F)).Adm) (Vin : Dev nD → Valuation τ sig (Elt F)) (c : Dev nD) (t : Fin (cfg6 a0).N) :
    (dat6 a0 Vin c).after 1 t = (((cfg6 a0).win 1).blk t).view.read (Elt F) (gout6 a0 Vin c) := by dsimp only [dat6]; rfl
theorem Phi_eq6 (a0 : (pcfg6 (F := F)).Adm) (Vin : Dev nD → Valuation τ sig (Elt F)) (c : Dev nD) (t : Fin ((cfg6 a0).N + 1)) :
    (dat6 a0 Vin c).Φ t = Phi6 a0 Vin c := rfl
theorem owed_eq6 (a0 : (pcfg6 (F := F)).Adm) (Vin : Dev nD → Valuation τ sig (Elt F)) (c : Dev nD) (t : Fin ((cfg6 a0).N + 1)) :
    (dat6 a0 Vin c).owed t = 0 := rfl
theorem q_eq6 (a0 : (pcfg6 (F := F)).Adm) (Vin : Dev nD → Valuation τ sig (Elt F)) (c : Dev nD) (w : Fin (cfg6 a0).W) :
    (dat6 a0 Vin c).q w = fullShare := rfl

/-- The pinned family's configuration at region 6 is this one. -/
example (a : (p : Fin 34) → (pcfgs (F := F) p).Adm) : Pipeline.pin (pcfgs (F := F)) a (6 : Fin 34) = (pcfg6 (F := F)).at (a (6 : Fin 34)) := rfl

end Cert.KernelIdeal.Hand

end
-- ==== Proof.KI.GatherBody6.lean ====
/-
  Gather region 6 (custom_call 6): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat6
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk6 (c : Dev nD) (i : grid6.Coords) (tbl : Bf (F := F) c (Memref.whole main_v39)) : Prop where
  h1 : k6_chk1 (tblWord6 c i tbl 0)
  h2 : k6_chk2 (tblWord6 c i tbl 1)
  h3 : k6_chk3 (tblWord6 c i tbl 2)
  h4 : k6_chk4 (tblWord6 c i tbl 3)
  h5 : k6_chk5 (tblWord6 c i tbl 4)
  h6 : k6_chk6 (tblWord6 c i tbl 5)
  h7 : k6_chk7 (tblWord6 c i tbl 6)
  h8 : k6_chk8 (tblWord6 c i tbl 7)

/-- A one-row slice of the embedding array at the row a word names, read at lane `z 1`: the array's element there. -/
theorem rowRead6 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun6 (c : Dev nD) (i : grid6.Coords)
    (M3 : Memref sig .tc .vmem S8x1 .f32) (h3 : M3.IsWhole) (M4 : Memref sig .tc .vmem S8x128 .f32) (h4 : M4.IsWhole)
    (tbl : Bf (F := F) c (Memref.whole main_v39)) (x : Bf (F := F) c (Memref.whole main_arg0))
    (vb : Vec F S8x1 .f32) (hchk : GatherChk6 c i tbl) (Q : PUnit → sProp (MM F)) :
    iprop(pt c (Memref.whole main_v39) tbl ∗ pt c (Memref.whole main_arg0) x
      ∗ owns (c : Thread nD τ) M3 fullShare vb ∗ (∃ d, owns (c : Thread nD τ) M4 fullShare d)
      ∗ (∃ fs, pt c (Memref.whole cc6_scratch0) fs) ∗ sems6 c ∗ (∃ W, owes (c : Thread nD τ) (0 : CellTallies nD τ sig Unit) W)
      ∗ (iprop(pt c (Memref.whole main_v39) tbl ∗ pt c (Memref.whole main_arg0) x
          ∗ owns (c : Thread nD τ) M3 fullShare vb ∗ owns (c : Thread nD τ) M4 fullShare (gatherBlk x (tblWord6 c i tbl) vb)
          ∗ (∃ fs, pt c (Memref.whole cc6_scratch0) fs) ∗ sems6 c ∗ (∃ W, owes (c : Thread nD τ) (0 : CellTallies nD τ sig Unit) W)) -∗ Q ⟨⟩))
    ⊢ wp frame (wpE (defs₀ (F := F)) 𝒱₀ c none) Set.univ
        (cc6__gather_kernel i (Memref.whole main_v39) (Memref.isWhole_whole _) (Memref.whole main_arg0) (Memref.isWhole_whole _) M3 h3 M4 h4
          (Memref.whole cc6_scratch0) (Memref.isWhole_whole _) cc6_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 76).1 $$ Hx
  icases Hx' with ⟨Hxr, Hx0, Hx1, Hx2, Hx3, Hx4, Hx5, Hx6, Hx7⟩
  sl_unfold [cc6__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 76).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k6_pay1 gatherBlk
    show FloatOps.mulf _ _ = FloatOps.mulf _ _
    congr 1
    · unfold gatherRun6.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun6.sl.dma8 gatherRun6.sl.dma8_1 gatherRun6.sl.dma8_2 gatherRun6.sl.dma8_3 gatherRun6.sl.dma8_4 gatherRun6.sl.dma8_5
        gatherRun6.sl.dma8_6 gatherRun6.sl.dma8_7 gatherRun6.sl.r gatherRun6.sl.r_1 gatherRun6.sl.r_2 gatherRun6.sl.r_3 gatherRun6.sl.r_4
        gatherRun6.sl.r_5 gatherRun6.sl.r_6 gatherRun6.sl.r_7
      refine canonRows8 _ _ _ _ _ _ _ _ _ _ _ _ _ _ _ _ (fun r d => x (embIdx (rowOf (tblWord6 c i tbl r)) d)) ?_ ?_ ?_ ?_ ?_ ?_ ?_ ?_ y
      · exact fun z => rowRead6 c _ (tblWord6 c i tbl 0) rfl rfl _ _ x z
      · exact fun z => rowRead6 c _ (tblWord6 c i tbl 1) rfl rfl _ _ x z
      · exact fun z => rowRead6 c _ (tblWord6 c i tbl 2) rfl rfl _ _ x z
      · exact fun z => rowRead6 c _ (tblWord6 c i tbl 3) rfl rfl _ _ x z
      · exact fun z => rowRead6 c _ (tblWord6 c i tbl 4) rfl rfl _ _ x z
      · exact fun z => rowRead6 c _ (tblWord6 c i tbl 5) rfl rfl _ _ x z
      · exact fun z => rowRead6 c _ (tblWord6 c i tbl 6) rfl rfl _ _ x z
      · exact fun z => rowRead6 c _ (tblWord6 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk6.lean ====
/-
  Gather region 6 (custom_call 6): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat6
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word6 (i : grid6.Coords) (j : Fin 8) : k6_off1 i (BitVec.ofNat 32 j.val) 0 = (i 0).val * 8 + j.val := by
  have hi : (i 0).val < 16384 := (i 0).isLt
  have hj : j.val < 8 := j.isLt
  unfold k6_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word6 (i : grid6.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord6_eq (c : Dev nD) (i : grid6.Coords) (tbl : Bf (F := F) c (Memref.whole main_v39)) (j : Fin 8)
    (e : Fin 131072) (he : e.val = (i 0).val * 8 + j.val) : tblWord6 c i tbl j = tbl (tblIdx e) := by
  unfold tblWord6
  show tbl _ = tbl _
  refine congrArg tbl ?_
  funext a; apply Fin.ext
  match a with
  | ⟨0, _⟩ =>
    show k6_off1 i (BitVec.ofNat 32 j.val) 0 + 1 * 0 = e.val
    rw [off_word6, he]; omega

/-- Row `j` of the value window's block at point `t` is the value array's row `8 t + j`. -/
theorem valBlk6_eq (a0 : (pcfg6 (F := F)).Adm) (Vin : Dev nD → Valuation τ sig (Elt F)) (c : Dev nD) (t : Fin (cfg6 a0).N)
    (j : Fin 8) (e : Fin 131072) (he : e.val = ((grid6.coords t) 0).val * 8 + j.val) :
    iblk6 a0 Vin c 0 t (colIdx j) = Vr Vin c main_v40 (valIdx e) := by
  unfold iblk6
  show Vr Vin c main_v40 _ = Vr Vin c main_v40 _
  refine congrArg (Vr Vin c main_v40) ?_
  funext a; apply Fin.ext
  match a with
  | ⟨0, _⟩ =>
    show (BitVec.ofNat 32 ((grid6.coords t) 0).val).toNat * 8 + 1 * j.val = e.val
    rw [coord_word6, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk6 (a0 : (pcfg6 (F := F)).Adm) (Vin : Dev nD → Valuation τ sig (Elt F)) (c : Dev nD) (t : Fin (cfg6 a0).N) :
    gatherBlk (Vr Vin c main_arg0) (tblWord6 c (grid6.coords t) (a0.1 0)) (iblk6 a0 Vin c 0 t)
      = (((cfg6 a0).win 1).blk t).view.read (Elt F) (gout6 a0 Vin c) := by
  funext y
  show gatherBlk _ _ _ y = gout6 a0 Vin c ((((cfg6 a0).win 1).blk t).view.emb y)
  unfold gatherBlk gout6 gatherArr
  have e0 : ((((cfg6 a0).win 1).blk t).view.emb y (0 : Fin 2)).val = ((grid6.coords t) 0).val * 8 + (y 0).val := by
    show (BitVec.ofNat 32 ((grid6.coords t) 0).val).toNat * 8 + 1 * (y 0).val = _
    rw [coord_word6]; omega
  have e1 : (((cfg6 a0).win 1).blk t).view.emb y (1 : Fin 2) = y 1 := Fin.ext (by
    show (0#32 : BitVec 32).toNat * 128 + 1 * (y 1).val = (y 1).val
    show 0 * 128 + 1 * (y 1).val = (y 1).val
    omega)
  rw [tblWord6_eq c (grid6.coords t) (a0.1 0) (y 0) _ e0, valBlk6_eq a0 Vin c t (y 0) _ e0, e1]

end Cert.KernelIdeal.Hand

end
-- ==== Proof.KI.GatherRegion6.lean ====
/-
  Gather region 6 (custom_call 6): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody6
import proofs.«414509_j14181982011419_2_alg».proof.Proof.KI.GatherBlk6
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk6 (a0 : (pcfg6 (F := F)).Adm) : Prop := ∀ e : S131072.Idx, (a0.1 0 e).toNat < 100000

/-! ## The grid and the result window's blocks -/

/-- On the one-axis grid a point's coordinate is its number. -/
theorem regCoords6 (t : Fin grid6.N) : (grid6.coords t 0).val = t.val := by
  have ht : t.val < 16384 := N_6 ▸ t.isLt
  show t.val / grid6.stride 0 % grid6.bound 0 = t.val
  rw [show grid6.stride 0 = 1 from by decide, show grid6.bound 0 = 16384 from rfl, Nat.div_one, Nat.mod_eq_of_lt ht]

/-- A point's number as the 32-bit word the index maps compute with. -/
theorem regWord6 (t : Fin grid6.N) : (BitVec.ofNat 32 (grid6.coords t 0).val).toNat = t.val := by
  have ht : t.val < 16384 := N_6 ▸ t.isLt
  rw [BitVec.toNat_ofNat, regCoords6]; omega

/-- The result window's block at point `t` is block `t` along the rows, at zero along the lanes. -/
theorem regOutIndex6 (a0 : (pcfg6 (F := F)).Adm) (t : Fin (cfg6 a0).N) : ((cfg6 a0).win 1).index t = ![t.val, 0] := by
  show cc6_transform_2 (grid6.coords t) = _
  unfold cc6_transform_2
  funext a; fin_cases a
  · exact regWord6 t
  · rfl

/-- The result window is written back at every point: consecutive points have different blocks. -/
theorem regOutFlush6 (a0 : (pcfg6 (F := F)).Adm) (t : Fin (cfg6 a0).N) : ((cfg6 a0).win 1).flush t = true := by
  have htN : t.val < 16384 := N_6 ▸ t.isLt
  rw [Pipeline.Window.flush_out _ rfl]
  by_cases h : t.val + 1 = 16384
  · exact Or.inl (show t.val + 1 = grid6.N by rw [N_6]; exact h)
  · have hlt : t.val + 1 < grid6.N := by rw [N_6]; omega
    refine Or.inr ⟨hlt, fun e => ?_⟩
    have e' : (![t.val + 1, 0] : Fin 2 → ℕ) = ![t.val, 0] := (regOutIndex6 a0 ⟨t.val + 1, hlt⟩).symm.trans (e.trans (regOutIndex6 a0 t))
    have e0 := congrFun e' 0
    simp at e0

/-- The index table, held as the pipeline's one prefetched table. -/
theorem prefHeldEq6 (a0 : (pcfg6 (F := F)).Adm) (c : Dev nD) :
    (Pipeline.prefHeld (Ix := Unit) (Name := ℕ) (U := UU nD τ) (Lvl := ℕ) pre6 c (fun _ => fullShare) a0.1 : sProp (MM F))
      = pt c (Memref.whole main_v39) (a0.1 0) := by
  unfold Pipeline.prefHeld
  rw [show (Finset.univ : Finset (Fin pre6.K)) = {0} from rfl, BI.bigSep_singleton]
  rfl

/-- The value window's staging buffer holds its block at every point. -/
theorem beforeVal6 (a0 : (pcfg6 (F := F)).Adm) (Vin : Dev nD → Valuation τ sig (Elt F)) (c : Dev nD) (t : Fin (cfg6 a0).N) (d) :
    (dat6 a0 Vin c).before 0 t d = iblk6 a0 Vin c 0 t :=
  ((dat6 a0 Vin c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)

/-! ## The kernel's checks, from the table's range -/

/-- Each of the point's eight words is a word of the table, so a row number. -/
theorem tblWordLt6 (a0 : (pcfg6 (F := F)).Adm) (hok : GatherOk6 a0) (c : Dev nD) (i : grid6.Coords) (j : Fin 8) :
    (tblWord6 c i (a0.1 0) j).toNat < 100000 := by
  unfold tblWord6
  exact hok _

/-- So the kernel's eight checks hold at every point. -/
theorem gatherChk6 (a0 : (pcfg6 (F := F)).Adm) (hok : GatherOk6 a0) (c : Dev nD) (i : grid6.Coords) : GatherChk6 c i (a0.1 0) :=
  ⟨⟨chkRow _ (tblWordLt6 a0 hok c i 0), chkRow _ (tblWordLt6 a0 hok c i 0)⟩,
   ⟨chkRow _ (tblWordLt6 a0 hok c i 1), chkRow _ (tblWordLt6 a0 hok c i 1)⟩,
   ⟨chkRow _ (tblWordLt6 a0 hok c i 2), chkRow _ (tblWordLt6 a0 hok c i 2)⟩,
   ⟨chkRow _ (tblWordLt6 a0 hok c i 3), chkRow _ (tblWordLt6 a0 hok c i 3)⟩,
   ⟨chkRow _ (tblWordLt6 a0 hok c i 4), chkRow _ (tblWordLt6 a0 hok c i 4)⟩,
   ⟨chkRow _ (tblWordLt6 a0 hok c i 5), chkRow _ (tblWordLt6 a0 hok c i 5)⟩,
   ⟨chkRow _ (tblWordLt6 a0 hok c i 6), chkRow _ (tblWordLt6 a0 hok c i 6)⟩,
   chkRow _ (tblWordLt6 a0 hok c i 7)⟩

/-! ## The body obligation, at a generic point -/

/-- What the body is called with at point `t`: the invariant, the core's dues, each window's current staging memref at
    what the pipeline left there, -/
def bodyPre6 (a0 : (pcfg6 (F := F)).Adm) (Vin : Dev nD → Valuation τ sig (Elt F)) (c : Dev nD) (t : Fin (cfg6 a0).N) : sProp (MM F) :=
  iprop((dat6 a0 Vin c).Φ t.castSucc ∗ (dat6 a0 Vin c).owesAt () t.castSucc
    ∗ (∃ d, owns (c : Thread nD τ) (((cfg6 a0).win 0).stage ((cfg6 a0).slots t 0)) fullShare ((dat6 a0 Vin c).before 0 t d))
    ∗ (∃ d, owns (c : Thread nD τ) (((cfg6 a0).win 1).stage ((cfg6 a0).slots t 1)) fullShare ((dat6 a0 Vin c).before 1 t d)))

/-- and what it returns. -/
def bodyPost6 (a0 : (pcfg6 (F := F)).Adm) (Vin : Dev nD → Valuation τ sig (Elt F)) (c : Dev nD) (t : Fin (cfg6 a0).N) : sProp (MM F) :=
  iprop((dat6 a0 Vin c).Φ t.succ ∗ (dat6 a0 Vin c).owesAt () t.succ
    ∗ owns (c : Thread nD τ) (((cfg6 a0).win 0).stage ((cfg6 a0).slots t 0)) fullShare ((dat6 a0 Vin c).after 0 t)
    ∗ owns (c : Thread nD τ) (((cfg6 a0).win 1).stage ((cfg6 a0).slots t 1)) fullShare ((dat6 a0 Vin c).after 1 t))

/-- The body at any point: the invariant opened into the embedding array, the semaphores, the table and the scratch;
    the value window's memref at its block; the checks from the table's range; so the kernel's run applies, and what it
    leaves in the result window's memref is the point's block of the gathered array. -/
theorem sound_body6 (a0 : (pcfg6 (F := F)).Adm) (hok : GatherOk6 a0) (Vin : Dev nD → Valuation τ sig (Elt F)) (c : Dev nD) (t : Fin (cfg6 a0).N) :
    bodyPre6 a0 Vin c t ⊢ wp frame (wpE (defs₀ (F := F)) 𝒱₀ c none) Set.univ
      (defs₀ .tc (cfg6 a0).body ((cfg6 a0).bodyArgs t ((cfg6 a0).slots t))) (fun _ => bodyPost6 a0 Vin c t) := by
  unfold bodyPre6 bodyPost6
  simp only [beforeVal6]
  rw [Phi_eq6, Phi_eq6, after6_0, after6_1, ← gatherBlk_blk6]
  unfold Phi6 Pipeline.Dat.owesAt Pipeline.owesWithin
  rw [owed_eq6, owed_eq6, prefHeldEq6, scopedRest6_split]
  iintro ⟨⟨Hx, Hos, Ht, ⟨%fs, Hs⟩, Hsb⟩, ⟨%W, %hW, HO⟩, ⟨%d0, H0⟩, ⟨%d1, H1⟩⟩
  iapply (gatherRun6 c (grid6.coords t) _ _ _ _ (a0.1 0) (Vr Vin c main_arg0) (iblk6 a0 Vin c 0 t) (gatherChk6 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation6 (a0 : (pcfg6 (F := F)).Adm) (hok : GatherOk6 a0) (Vin : Dev nD → Valuation τ sig (Elt F)) (c : Dev nD) :
    BodyObligation (dat6 a0 Vin c) (defs₀ (F := F)) 𝒱₀ () Set.univ := fun t => by
  rw [bigSep_W6, bigSep_W6]
  exact sound_body6 a0 hok Vin c t

/-! ## From the blocks to the arrays -/

/-- The value array after the region: as entered. -/
theorem arrAt6_in (a0 : (pcfg6 (F := F)).Adm) (Vin : Dev nD → Valuation τ sig (Elt F)) (c : Dev nD) :
    (dat6 a0 Vin c).arrAt 0 (cfg6 a0).N = Vr Vin c main_v40 :=
  ((dat6 a0 Vin c).arrAt_in 0 rfl _).trans (A_eq6 a0 Vin c 0)

/-- Every index of the result array is in some point's block: row `e`, lane `d` is element `(e % 8, d)` of the block
    of point `e / 8`. -/
theorem regOutCover6 (a0 : (pcfg6 (F := F)).Adm) (i : S131072x128.Idx) :
    ∃ t : Fin (cfg6 a0).N, ((cfg6 a0).win 1).flush t = true ∧ i ∈ (((cfg6 a0).win 1).blk t).view.set := by
  have hi0 : (i 0).val < 131072 := (i 0).isLt
  have hi1 : (i 1).val < 128 := (i 1).isLt
  have hN : (i 0).val / 8 < grid6.N := by rw [N_6]; omega
  obtain ⟨t, ht⟩ : ∃ t : Fin (cfg6 a0).N, t.val = (i 0).val / 8 := ⟨⟨_, hN⟩, rfl⟩
  have hx : (((cfg6 a0).win 1).blk t).view.emb (ValueIdx.ix2 ⟨(i 0).val % 8, Nat.mod_lt _ (by decide)⟩ (i 1)) = i := by
    funext a; apply Fin.ext
    have e0 : ((cfg6 a0).win 1).index t (0 : Fin 2) = t.val := congrFun (regOutIndex6 a0 t) (0 : Fin 2)
    have e1 : ((cfg6 a0).win 1).index t (1 : Fin 2) = 0 := congrFun (regOutIndex6 a0 t) (1 : Fin 2)
    match a with
    | ⟨0, _⟩ => show ((cfg6 a0).win 1).index t (0 : Fin 2) * 8 + 1 * ((i 0).val % 8) = (i 0).val; omega
    | ⟨1, _⟩ => show ((cfg6 a0).win 1).index t (1 : Fin 2) * 128 + 1 * (i 1).val = (i 1).val; omega
  exact ⟨t, regOutFlush6 a0 t, hx ▸ (((cfg6 a0).win 1).blk t).view.emb_mem_set _⟩

/-- The result array after the region: the gathered and scaled rows, whole. -/
theorem arrAt6_out (a0 : (pcfg6 (F := F)).Adm) (Vin : Dev nD → Valuation τ sig (Elt F)) (c : Dev nD) :
    (dat6 a0 Vin c).arrAt 1 (cfg6 a0).N = gout6 a0 Vin c :=
  (dat6 a0 Vin c).arrAt_eq_of_cover 1 (gout6 a0 Vin c)
    (fun t _ => by
      show ((cfg6 a0).win 1).cut ((cfg6 a0).grid.coords t) ((dat6 a0 Vin c).after 1 t) = _
      rw [after6_1])
    (regOutCover6 a0)

/-! ## The region as a segment of @main -/

/-- The ownership layout of the kernel's eight semaphores. -/
theorem ownSemFacts6 : Pipeline.OwnSemFacts spec6 osem6 := by decide

/-- The kernel's own cells at zero, listed. -/
theorem ownSemsListed6 (c : Dev nD) :
    (Pipeline.ownSems0 (Ix := Unit) (Name := ℕ) (U := UU nD τ) (Lvl := ℕ) (Val := Elt F) (τ := τ) osem6 c : sProp (MM F)) = sems6 c :=
  Pipeline.ownSems0_eq_of_list c osem6 [0, 1, 2, 3, 4, 5, 6, 7] (by decide) (by decide)

/-- The unscoped buffers that are no window's array, no table, and not the embedding array. -/
abbrev restRefs6 : Finset (Ref sig .tc) :=
  (((Finset.univ.filter fun b : Ref sig .tc => ¬ b.isScoped) \ Finset.univ.image (Pipeline.arrRef spec6)) \ Finset.univ.image pre6.ref) \ {main_arg0}

/-- Those buffers, each whole at its contents under `Vin`: what bypasses the region. -/
def Zrest6 (Vin : Dev nD → Valuation τ sig (Elt F)) (c : Dev nD) : sProp (MM F) :=
  bigSep restRefs6 fun b => ((c : Thread nD τ).loc b) ↦{fullShare} Vr Vin c b

/-- The embedding array is an unscoped buffer that is no window's array and no table. -/
theorem embArrMem6 : ({main_arg0} : Finset (Ref sig .tc)) ⊆
    ((Finset.univ.filter fun b : Ref sig .tc => ¬ b.isScoped) \ Finset.univ.image (Pipeline.arrRef spec6)) \ Finset.univ.image pre6.ref := by
  decide

/-- The unscoped buffers that are no window's array: the index table, the embedding array, and the rest. -/
theorem unscopedRestOpen6 (Vin : Dev nD → Valuation τ sig (Elt F)) (c : Dev nD) :
    (Pipeline.unscopedRest (Ix := Unit) (Name := ℕ) (U := UU nD τ) (Lvl := ℕ) spec6 c (Vr Vin c) : sProp (MM F))
      = iprop(Pipeline.prefHeld pre6 c (fun _ => fullShare) (fun k => Vr Vin c (pre6.ref k))
          ∗ pt c (Memref.whole main_arg0) (Vr Vin c main_arg0) ∗ Zrest6 Vin c) := by
  rw [Pipeline.unscopedRest_split preFacts6 c (Vr Vin c)]
  unfold Pipeline.unscopedRestP Zrest6
  rw [BI.bigSep_sdiff_split embArrMem6, BI.bigSep_singleton]
  rfl

/-- The buffer contents when the region is left: the result array at the gathered rows, every other buffer as entered. -/
abbrev Vout6 (a0 : (pcfg6 (F := F)).Adm) (Vin : Dev nD → Valuation τ sig (Elt F)) (c : Dev nD) : Valuation τ sig (Elt F) :=
  Function.update (Vin c) main_v41 (gout6 a0 Vin c)

/-- At the exit each of the region's arrays holds what the pipeline leaves; -/
theorem hF6 (a0 : (pcfg6 (F := F)).Adm) (Vin : Dev nD → Valuation τ sig (Elt F)) (c : Dev nD) (w : Fin (cfg6 a0).W) :
    (dat6 a0 Vin c).arrAt w (cfg6 a0).N = Vr (Vout6 a0 Vin) c (Pipeline.arrRef spec6 w) := by
  match w with
  | ⟨0, _⟩ =>
    show (dat6 a0 Vin c).arrAt 0 (cfg6 a0).N = Vr (Vout6 a0 Vin) c (Pipeline.arrRef spec6 0)
    rw [arrAt6_in]
    exact (Function.update_of_ne (StableHlo.devRef_ne_of_ne (by decide) : (Proc.devRef .tc main_v40 : DevRef τ sig) ≠ Proc.devRef .tc main_v41) _ _).symm
  | ⟨1, _⟩ =>
    show (dat6 a0 Vin c).arrAt 1 (cfg6 a0).N = Vr (Vout6 a0 Vin) c (Pipeline.arrRef spec6 1)
    rw [arrAt6_out]
    exact (Function.update_self (Proc.devRef .tc main_v41 : DevRef τ sig) _ (Vin c)).symm

/-- and every other buffer what it held at entry. -/
theorem hrest6 (a0 : (pcfg6 (F := F)).Adm) (Vin : Dev nD → Valuation τ sig (Elt F)) (c : Dev nD) :
    ∀ b : Ref sig .tc, b ∉ Finset.univ.image (Pipeline.arrRef spec6) → Vr (Vout6 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat6` at the entry valuation `Vin`
    (`hd`), the index table's contents under `Vin` being the pinned ones (`htbl`) and row numbers (`hok`). -/
def reg6 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk6 (F := F) (a (6 : Fin 34)))
    (hd : ∀ c, pdats (6 : Fin 34) c = dat6 (a (6 : Fin 34)) Vin c) (htbl : ∀ c, (a (6 : Fin 34)).1 = fun k => Vr Vin c (pre6.ref k)) :
    Pipeline.RegionSeg (pcfgs (F := F)) a pdats () defs₀ 𝒱₀ L lv (6 : Fin 34) where
  win := (launch6 (F := F)).win.to₀
  block_pos := (launch6 (F := F)).block_pos
  stage_whole := (launch6 (F := F)).stage_whole
  K := Fin 8
  osem := osem6
  ho := ownSemFacts6
  hbody c := by rw [hd c]; exact (body_obligation6 (a (6 : Fin 34)) hok Vin c).loose
  hwaits := Pipeline.hwaits_of_owed_zero _ _ _ _ L lv (6 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v41 (gout6 (a (6 : Fin 34)) Vin c)) ∗ Rest c)
  X c := iprop(pt c (Memref.whole main_arg0) (Vr Vin c main_arg0) ∗ sems6 c)
  Y c := iprop(pt c (Memref.whole main_arg0) (Vr Vin c main_arg0)
    ∗ Pipeline.prefHeld (Ix := Unit) (Name := ℕ) (U := UU nD τ) (Lvl := ℕ) pre6 c (fun _ => fullShare) (a (6 : Fin 34)).1)
  Z c := Zrest6 Vin c
  hentry c := by
    rw [ownSemsListed6]
    have hsplit := Pipeline.arrays_of_unscopedBufs (p := (6 : Fin 34)) (pcfgs (F := F)) a pdats (launch6 (F := F)).win (launch6 (F := F)).arr_whole c
      ((pdats (6 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen6 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (6 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq6]; unfold Phi6
    iintro ⟨⟨Hx, Hos⟩, Ht, Hr⟩
    isplitl [Hx]; · iexact Hx
    isplitl [Hos]; · iexact Hos
    isplitl [Ht]; · iexact Ht
    iexact Hr
  hout c := by
    rw [ownSemsListed6, hd c, Phi_eq6]; unfold Phi6
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (6 : Fin 34)) (pcfgs (F := F)) a (Ix := Unit) (Name := ℕ) (U := UU nD τ) (Lvl := ℕ)
      (launch6 (F := F)).win (launch6 (F := F)).arr_whole c pdats ((pdats (6 : Fin 34) c).share_full fun _ => by rw [hd c]; rfl)
      (Vr Vin c) (Vr (Vout6 (a (6 : Fin 34)) Vin) c) ((pdats (6 : Fin 34) c).arrAt · (cfg6 (a (6 : Fin 34))).N)
      (fun w => by rw [hd c]; exact hF6 (a (6 : Fin 34)) Vin c w) (hrest6 (a (6 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen6 Vin c).symm)
      isplitl [Ht]; · rw [← htbl c]; iexact Ht
      isplitl [Hx]; · iexact Hx
      iexact Hz
    unfold Pipeline.Dat.owesAt Pipeline.owesWithin
    rw [show (pdats (6 : Fin 34) c).owed (Fin.last _) = 0 from by rw [hd c]; rfl]
    icases HO with ⟨%W, -, HO⟩; iexists W; iexact HO

end Cert.KernelIdeal.Hand

end
-- ==== Proof.KI.GatherDat7.lean ====
/-
  Gather region 7 (custom_call 7): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem7 : Fin 8 → SemLoc sig := fun | 0 => .dma 88 | 1 => .dma 89 | 2 => .dma 90 | 3 => .dma 91 | 4 => .dma 92 | 5 => .dma 93 | 6 => .dma 94 | 7 => .dma 95

/-- The eight counters at zero, as the run finds them and hands them back. -/
abbrev sems7 (c : Dev nD) : sProp (MM F) :=
  iprop(semVal ((c : Thread nD τ), osem7 0) 0 ∗ semVal ((c : Thread nD τ), osem7 1) 0 ∗ semVal ((c : Thread nD τ), osem7 2) 0
    ∗ semVal ((c : Thread nD τ), osem7 3) 0 ∗ semVal ((c : Thread nD τ), osem7 4) 0 ∗ semVal ((c : Thread nD τ), osem7 5) 0
    ∗ semVal ((c : Thread nD τ), osem7 6) 0 ∗ semVal ((c : Thread nD τ), osem7 7) 0)

/-- Word `j` of the eight the index table holds for point `i`, as the kernel's scalar load reads it. -/
def tblWord7 (c : Dev nD) (i : grid7.Coords) (tbl : Bf (F := F) c (Memref.whole main_v42)) (j : Fin 8) : BitVec 32 :=
  (Memref.whole main_v42).view.readAt (Elt F) (Rect.unit (s := S131072) (k7_off1 i (BitVec.ofNat 32 j.val)) S1.size (k7_off1_inb i j)).toLoadRect tbl
    (Shape.Idx.first (s := S1) (numel1_S1.symm ▸ Nat.one_pos))

/-- Window `w`'s block at point `t`, read off its array at the region's entry. -/
def iblk7 (a0 : (pcfg7 (F := F)).Adm) (Vin : Dev nD → Valuation τ sig (Elt F)) (c : Dev nD) (w : Fin (cfg7 a0).W) (t : Fin (cfg7 a0).N) :
    (((cfg7 a0).win w).xblock ((cfg7 a0).grid.coords t)).Idx → Elt F ((cfg7 a0).win w).elt :=
  (((cfg7 a0).win w).blk t).view.read (Elt F) (Vr Vin c (Pipeline.arrRef spec7 w))

/-- The result array the region leaves: the gathered and scaled rows of the embedding array, whole. -/
def gout7 (a0 : (pcfg7 (F := F)).Adm) (Vin : Dev nD → Valuation τ sig (Elt F)) (c : Dev nD) : Buf (Elt F) ((c : Thread nD τ).loc main_v44) :=
  gatherArr (Vr Vin c main_arg0) (a0.1 0) (Vr Vin c main_v43)

/-- The invariant between points: the embedding array as entered, the kernel's semaphores at zero, the index table, the
    scoped buffers no window stages (the kernel's scratch among them). -/
def Phi7 (a0 : (pcfg7 (F := F)).Adm) (Vin : Dev nD → Valuation τ sig (Elt F)) (c : Dev nD) : sProp (MM F) :=
  iprop(pt c (Memref.whole main_arg0) (Vr Vin c main_arg0) ∗ sems7 c
    ∗ Pipeline.prefHeld (Ix := Unit) (Name := ℕ) (U := UU nD τ) (Lvl := ℕ) pre7 c (fun _ => fullShare) a0.1
    ∗ Pipeline.scopedRest (Ix := Unit) (Name := ℕ) (U := UU nD τ) (Lvl := ℕ) (Val := Elt F) spec7 c)

/-- The proof data on core `c`. -/
def dat7 (a0 : (pcfg7 (F := F)).Adm) (Vin : Dev nD → Valuation τ sig (Elt F)) (c : Dev nD) :
    Pipeline.Dat τ (Elt F) Unit ℕ (UU nD τ) ℕ ((pcfg7 (F := F)).at a0) c where
  A w := Vr Vin c (Pipeline.arrRef spec7 w)
  after w t := match w with
    | ⟨0, _⟩ => iblk7 a0 Vin c 0 t
    | ⟨1, _⟩ => (((cfg7 a0).win 1).blk t).view.read (Elt F) (gout7 a0 Vin c)
  Φ _ := Phi7 a0 Vin c
  q _ := fullShare
  owed _ := 0

theorem A_eq7 (a0 : (pcfg7 (F := F)).Adm) (Vin : Dev nD → Valuation τ sig (Elt F)) (c : Dev nD) (w : Fin (cfg7 a0).W) :
    (dat7 a0 Vin c).A w = Vr Vin c (Pipeline.arrRef spec7 w) := by dsimp only [dat7]
theorem after7_0 (a0 : (pcfg7 (F := F)).Adm) (Vin : Dev nD → Valuation τ sig (Elt F)) (c : Dev nD) (t : Fin (cfg7 a0).N) :
    (dat7 a0 Vin c).after 0 t = iblk7 a0 Vin c 0 t := by dsimp only [dat7]; rfl
theorem after7_1 (a0 : (pcfg7 (F := F)).Adm) (Vin : Dev nD → Valuation τ sig (Elt F)) (c : Dev nD) (t : Fin (cfg7 a0).N) :
    (dat7 a0 Vin c).after 1 t = (((cfg7 a0).win 1).blk t).view.read (Elt F) (gout7 a0 Vin c) := by dsimp only [dat7]; rfl
theorem Phi_eq7 (a0 : (pcfg7 (F := F)).Adm) (Vin : Dev nD → Valuation τ sig (Elt F)) (c : Dev nD) (t : Fin ((cfg7 a0).N + 1)) :
    (dat7 a0 Vin c).Φ t = Phi7 a0 Vin c := rfl
theorem owed_eq7 (a0 : (pcfg7 (F := F)).Adm) (Vin : Dev nD → Valuation τ sig (Elt F)) (c : Dev nD) (t : Fin ((cfg7 a0).N + 1)) :
    (dat7 a0 Vin c).owed t = 0 := rfl
theorem q_eq7 (a0 : (pcfg7 (F := F)).Adm) (Vin : Dev nD → Valuation τ sig (Elt F)) (c : Dev nD) (w : Fin (cfg7 a0).W) :
    (dat7 a0 Vin c).q w = fullShare := rfl

/-- The pinned family's configuration at region 7 is this one. -/
example (a : (p : Fin 34) → (pcfgs (F := F) p).Adm) : Pipeline.pin (pcfgs (F := F)) a (7 : Fin 34) = (pcfg7 (F := F)).at (a (7 : Fin 34)) := rfl

end Cert.KernelIdeal.Hand

end
-- ==== Proof.KI.GatherBody7.lean ====
/-
  Gather region 7 (custom_call 7): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat7
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk7 (c : Dev nD) (i : grid7.Coords) (tbl : Bf (F := F) c (Memref.whole main_v42)) : Prop where
  h1 : k7_chk1 (tblWord7 c i tbl 0)
  h2 : k7_chk2 (tblWord7 c i tbl 1)
  h3 : k7_chk3 (tblWord7 c i tbl 2)
  h4 : k7_chk4 (tblWord7 c i tbl 3)
  h5 : k7_chk5 (tblWord7 c i tbl 4)
  h6 : k7_chk6 (tblWord7 c i tbl 5)
  h7 : k7_chk7 (tblWord7 c i tbl 6)
  h8 : k7_chk8 (tblWord7 c i tbl 7)

/-- A one-row slice of the embedding array at the row a word names, read at lane `z 1`: the array's element there. -/
theorem rowRead7 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun7 (c : Dev nD) (i : grid7.Coords)
    (M3 : Memref sig .tc .vmem S8x1 .f32) (h3 : M3.IsWhole) (M4 : Memref sig .tc .vmem S8x128 .f32) (h4 : M4.IsWhole)
    (tbl : Bf (F := F) c (Memref.whole main_v42)) (x : Bf (F := F) c (Memref.whole main_arg0))
    (vb : Vec F S8x1 .f32) (hchk : GatherChk7 c i tbl) (Q : PUnit → sProp (MM F)) :
    iprop(pt c (Memref.whole main_v42) tbl ∗ pt c (Memref.whole main_arg0) x
      ∗ owns (c : Thread nD τ) M3 fullShare vb ∗ (∃ d, owns (c : Thread nD τ) M4 fullShare d)
      ∗ (∃ fs, pt c (Memref.whole cc7_scratch0) fs) ∗ sems7 c ∗ (∃ W, owes (c : Thread nD τ) (0 : CellTallies nD τ sig Unit) W)
      ∗ (iprop(pt c (Memref.whole main_v42) tbl ∗ pt c (Memref.whole main_arg0) x
          ∗ owns (c : Thread nD τ) M3 fullShare vb ∗ owns (c : Thread nD τ) M4 fullShare (gatherBlk x (tblWord7 c i tbl) vb)
          ∗ (∃ fs, pt c (Memref.whole cc7_scratch0) fs) ∗ sems7 c ∗ (∃ W, owes (c : Thread nD τ) (0 : CellTallies nD τ sig Unit) W)) -∗ Q ⟨⟩))
    ⊢ wp frame (wpE (defs₀ (F := F)) 𝒱₀ c none) Set.univ
        (cc7__gather_kernel i (Memref.whole main_v42) (Memref.isWhole_whole _) (Memref.whole main_arg0) (Memref.isWhole_whole _) M3 h3 M4 h4
          (Memref.whole cc7_scratch0) (Memref.isWhole_whole _) cc7_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 88).1 $$ Hx
  icases Hx' with ⟨Hxr, Hx0, Hx1, Hx2, Hx3, Hx4, Hx5, Hx6, Hx7⟩
  sl_unfold [cc7__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 88).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k7_pay1 gatherBlk
    show FloatOps.mulf _ _ = FloatOps.mulf _ _
    congr 1
    · unfold gatherRun7.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun7.sl.dma8 gatherRun7.sl.dma8_1 gatherRun7.sl.dma8_2 gatherRun7.sl.dma8_3 gatherRun7.sl.dma8_4 gatherRun7.sl.dma8_5
        gatherRun7.sl.dma8_6 gatherRun7.sl.dma8_7 gatherRun7.sl.r gatherRun7.sl.r_1 gatherRun7.sl.r_2 gatherRun7.sl.r_3 gatherRun7.sl.r_4
        gatherRun7.sl.r_5 gatherRun7.sl.r_6 gatherRun7.sl.r_7
      refine canonRows8 _ _ _ _ _ _ _ _ _ _ _ _ _ _ _ _ (fun r d => x (embIdx (rowOf (tblWord7 c i tbl r)) d)) ?_ ?_ ?_ ?_ ?_ ?_ ?_ ?_ y
      · exact fun z => rowRead7 c _ (tblWord7 c i tbl 0) rfl rfl _ _ x z
      · exact fun z => rowRead7 c _ (tblWord7 c i tbl 1) rfl rfl _ _ x z
      · exact fun z => rowRead7 c _ (tblWord7 c i tbl 2) rfl rfl _ _ x z
      · exact fun z => rowRead7 c _ (tblWord7 c i tbl 3) rfl rfl _ _ x z
      · exact fun z => rowRead7 c _ (tblWord7 c i tbl 4) rfl rfl _ _ x z
      · exact fun z => rowRead7 c _ (tblWord7 c i tbl 5) rfl rfl _ _ x z
      · exact fun z => rowRead7 c _ (tblWord7 c i tbl 6) rfl rfl _ _ x z
      · exact fun z => rowRead7 c _ (tblWord7 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk7.lean ====
/-
  Gather region 7 (custom_call 7): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat7
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word7 (i : grid7.Coords) (j : Fin 8) : k7_off1 i (BitVec.ofNat 32 j.val) 0 = (i 0).val * 8 + j.val := by
  have hi : (i 0).val < 16384 := (i 0).isLt
  have hj : j.val < 8 := j.isLt
  unfold k7_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word7 (i : grid7.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord7_eq (c : Dev nD) (i : grid7.Coords) (tbl : Bf (F := F) c (Memref.whole main_v42)) (j : Fin 8)
    (e : Fin 131072) (he : e.val = (i 0).val * 8 + j.val) : tblWord7 c i tbl j = tbl (tblIdx e) := by
  unfold tblWord7
  show tbl _ = tbl _
  refine congrArg tbl ?_
  funext a; apply Fin.ext
  match a with
  | ⟨0, _⟩ =>
    show k7_off1 i (BitVec.ofNat 32 j.val) 0 + 1 * 0 = e.val
    rw [off_word7, he]; omega

/-- Row `j` of the value window's block at point `t` is the value array's row `8 t + j`. -/
theorem valBlk7_eq (a0 : (pcfg7 (F := F)).Adm) (Vin : Dev nD → Valuation τ sig (Elt F)) (c : Dev nD) (t : Fin (cfg7 a0).N)
    (j : Fin 8) (e : Fin 131072) (he : e.val = ((grid7.coords t) 0).val * 8 + j.val) :
    iblk7 a0 Vin c 0 t (colIdx j) = Vr Vin c main_v43 (valIdx e) := by
  unfold iblk7
  show Vr Vin c main_v43 _ = Vr Vin c main_v43 _
  refine congrArg (Vr Vin c main_v43) ?_
  funext a; apply Fin.ext
  match a with
  | ⟨0, _⟩ =>
    show (BitVec.ofNat 32 ((grid7.coords t) 0).val).toNat * 8 + 1 * j.val = e.val
    rw [coord_word7, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk7 (a0 : (pcfg7 (F := F)).Adm) (Vin : Dev nD → Valuation τ sig (Elt F)) (c : Dev nD) (t : Fin (cfg7 a0).N) :
    gatherBlk (Vr Vin c main_arg0) (tblWord7 c (grid7.coords t) (a0.1 0)) (iblk7 a0 Vin c 0 t)
      = (((cfg7 a0).win 1).blk t).view.read (Elt F) (gout7 a0 Vin c) := by
  funext y
  show gatherBlk _ _ _ y = gout7 a0 Vin c ((((cfg7 a0).win 1).blk t).view.emb y)
  unfold gatherBlk gout7 gatherArr
  have e0 : ((((cfg7 a0).win 1).blk t).view.emb y (0 : Fin 2)).val = ((grid7.coords t) 0).val * 8 + (y 0).val := by
    show (BitVec.ofNat 32 ((grid7.coords t) 0).val).toNat * 8 + 1 * (y 0).val = _
    rw [coord_word7]; omega
  have e1 : (((cfg7 a0).win 1).blk t).view.emb y (1 : Fin 2) = y 1 := Fin.ext (by
    show (0#32 : BitVec 32).toNat * 128 + 1 * (y 1).val = (y 1).val
    show 0 * 128 + 1 * (y 1).val = (y 1).val
    omega)
  rw [tblWord7_eq c (grid7.coords t) (a0.1 0) (y 0) _ e0, valBlk7_eq a0 Vin c t (y 0) _ e0, e1]

end Cert.KernelIdeal.Hand

end
-- ==== Proof.KI.GatherRegion7.lean ====
/-
  Gather region 7 (custom_call 7): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody7
import proofs.«414509_j14181982011419_2_alg».proof.Proof.KI.GatherBlk7
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk7 (a0 : (pcfg7 (F := F)).Adm) : Prop := ∀ e : S131072.Idx, (a0.1 0 e).toNat < 100000

/-! ## The grid and the result window's blocks -/

/-- On the one-axis grid a point's coordinate is its number. -/
theorem regCoords7 (t : Fin grid7.N) : (grid7.coords t 0).val = t.val := by
  have ht : t.val < 16384 := N_7 ▸ t.isLt
  show t.val / grid7.stride 0 % grid7.bound 0 = t.val
  rw [show grid7.stride 0 = 1 from by decide, show grid7.bound 0 = 16384 from rfl, Nat.div_one, Nat.mod_eq_of_lt ht]

/-- A point's number as the 32-bit word the index maps compute with. -/
theorem regWord7 (t : Fin grid7.N) : (BitVec.ofNat 32 (grid7.coords t 0).val).toNat = t.val := by
  have ht : t.val < 16384 := N_7 ▸ t.isLt
  rw [BitVec.toNat_ofNat, regCoords7]; omega

/-- The result window's block at point `t` is block `t` along the rows, at zero along the lanes. -/
theorem regOutIndex7 (a0 : (pcfg7 (F := F)).Adm) (t : Fin (cfg7 a0).N) : ((cfg7 a0).win 1).index t = ![t.val, 0] := by
  show cc7_transform_2 (grid7.coords t) = _
  unfold cc7_transform_2
  funext a; fin_cases a
  · exact regWord7 t
  · rfl

/-- The result window is written back at every point: consecutive points have different blocks. -/
theorem regOutFlush7 (a0 : (pcfg7 (F := F)).Adm) (t : Fin (cfg7 a0).N) : ((cfg7 a0).win 1).flush t = true := by
  have htN : t.val < 16384 := N_7 ▸ t.isLt
  rw [Pipeline.Window.flush_out _ rfl]
  by_cases h : t.val + 1 = 16384
  · exact Or.inl (show t.val + 1 = grid7.N by rw [N_7]; exact h)
  · have hlt : t.val + 1 < grid7.N := by rw [N_7]; omega
    refine Or.inr ⟨hlt, fun e => ?_⟩
    have e' : (![t.val + 1, 0] : Fin 2 → ℕ) = ![t.val, 0] := (regOutIndex7 a0 ⟨t.val + 1, hlt⟩).symm.trans (e.trans (regOutIndex7 a0 t))
    have e0 := congrFun e' 0
    simp at e0

/-- The index table, held as the pipeline's one prefetched table. -/
theorem prefHeldEq7 (a0 : (pcfg7 (F := F)).Adm) (c : Dev nD) :
    (Pipeline.prefHeld (Ix := Unit) (Name := ℕ) (U := UU nD τ) (Lvl := ℕ) pre7 c (fun _ => fullShare) a0.1 : sProp (MM F))
      = pt c (Memref.whole main_v42) (a0.1 0) := by
  unfold Pipeline.prefHeld
  rw [show (Finset.univ : Finset (Fin pre7.K)) = {0} from rfl, BI.bigSep_singleton]
  rfl

/-- The value window's staging buffer holds its block at every point. -/
theorem beforeVal7 (a0 : (pcfg7 (F := F)).Adm) (Vin : Dev nD → Valuation τ sig (Elt F)) (c : Dev nD) (t : Fin (cfg7 a0).N) (d) :
    (dat7 a0 Vin c).before 0 t d = iblk7 a0 Vin c 0 t :=
  ((dat7 a0 Vin c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

/-! ## The kernel's checks, from the table's range -/

/-- Each of the point's eight words is a word of the table, so a row number. -/
theorem tblWordLt7 (a0 : (pcfg7 (F := F)).Adm) (hok : GatherOk7 a0) (c : Dev nD) (i : grid7.Coords) (j : Fin 8) :
    (tblWord7 c i (a0.1 0) j).toNat < 100000 := by
  unfold tblWord7
  exact hok _

/-- So the kernel's eight checks hold at every point. -/
theorem gatherChk7 (a0 : (pcfg7 (F := F)).Adm) (hok : GatherOk7 a0) (c : Dev nD) (i : grid7.Coords) : GatherChk7 c i (a0.1 0) :=
  ⟨⟨chkRow _ (tblWordLt7 a0 hok c i 0), chkRow _ (tblWordLt7 a0 hok c i 0)⟩,
   ⟨chkRow _ (tblWordLt7 a0 hok c i 1), chkRow _ (tblWordLt7 a0 hok c i 1)⟩,
   ⟨chkRow _ (tblWordLt7 a0 hok c i 2), chkRow _ (tblWordLt7 a0 hok c i 2)⟩,
   ⟨chkRow _ (tblWordLt7 a0 hok c i 3), chkRow _ (tblWordLt7 a0 hok c i 3)⟩,
   ⟨chkRow _ (tblWordLt7 a0 hok c i 4), chkRow _ (tblWordLt7 a0 hok c i 4)⟩,
   ⟨chkRow _ (tblWordLt7 a0 hok c i 5), chkRow _ (tblWordLt7 a0 hok c i 5)⟩,
   ⟨chkRow _ (tblWordLt7 a0 hok c i 6), chkRow _ (tblWordLt7 a0 hok c i 6)⟩,
   chkRow _ (tblWordLt7 a0 hok c i 7)⟩

/-! ## The body obligation, at a generic point -/

/-- What the body is called with at point `t`: the invariant, the core's dues, each window's current staging memref at
    what the pipeline left there, -/
def bodyPre7 (a0 : (pcfg7 (F := F)).Adm) (Vin : Dev nD → Valuation τ sig (Elt F)) (c : Dev nD) (t : Fin (cfg7 a0).N) : sProp (MM F) :=
  iprop((dat7 a0 Vin c).Φ t.castSucc ∗ (dat7 a0 Vin c).owesAt () t.castSucc
    ∗ (∃ d, owns (c : Thread nD τ) (((cfg7 a0).win 0).stage ((cfg7 a0).slots t 0)) fullShare ((dat7 a0 Vin c).before 0 t d))
    ∗ (∃ d, owns (c : Thread nD τ) (((cfg7 a0).win 1).stage ((cfg7 a0).slots t 1)) fullShare ((dat7 a0 Vin c).before 1 t d)))

/-- and what it returns. -/
def bodyPost7 (a0 : (pcfg7 (F := F)).Adm) (Vin : Dev nD → Valuation τ sig (Elt F)) (c : Dev nD) (t : Fin (cfg7 a0).N) : sProp (MM F) :=
  iprop((dat7 a0 Vin c).Φ t.succ ∗ (dat7 a0 Vin c).owesAt () t.succ
    ∗ owns (c : Thread nD τ) (((cfg7 a0).win 0).stage ((cfg7 a0).slots t 0)) fullShare ((dat7 a0 Vin c).after 0 t)
    ∗ owns (c : Thread nD τ) (((cfg7 a0).win 1).stage ((cfg7 a0).slots t 1)) fullShare ((dat7 a0 Vin c).after 1 t))

/-- The body at any point: the invariant opened into the embedding array, the semaphores, the table and the scratch;
    the value window's memref at its block; the checks from the table's range; so the kernel's run applies, and what it
    leaves in the result window's memref is the point's block of the gathered array. -/
theorem sound_body7 (a0 : (pcfg7 (F := F)).Adm) (hok : GatherOk7 a0) (Vin : Dev nD → Valuation τ sig (Elt F)) (c : Dev nD) (t : Fin (cfg7 a0).N) :
    bodyPre7 a0 Vin c t ⊢ wp frame (wpE (defs₀ (F := F)) 𝒱₀ c none) Set.univ
      (defs₀ .tc (cfg7 a0).body ((cfg7 a0).bodyArgs t ((cfg7 a0).slots t))) (fun _ => bodyPost7 a0 Vin c t) := by
  unfold bodyPre7 bodyPost7
  simp only [beforeVal7]
  rw [Phi_eq7, Phi_eq7, after7_0, after7_1, ← gatherBlk_blk7]
  unfold Phi7 Pipeline.Dat.owesAt Pipeline.owesWithin
  rw [owed_eq7, owed_eq7, prefHeldEq7, scopedRest7_split]
  iintro ⟨⟨Hx, Hos, Ht, ⟨%fs, Hs⟩, Hsb⟩, ⟨%W, %hW, HO⟩, ⟨%d0, H0⟩, ⟨%d1, H1⟩⟩
  iapply (gatherRun7 c (grid7.coords t) _ _ _ _ (a0.1 0) (Vr Vin c main_arg0) (iblk7 a0 Vin c 0 t) (gatherChk7 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation7 (a0 : (pcfg7 (F := F)).Adm) (hok : GatherOk7 a0) (Vin : Dev nD → Valuation τ sig (Elt F)) (c : Dev nD) :
    BodyObligation (dat7 a0 Vin c) (defs₀ (F := F)) 𝒱₀ () Set.univ := fun t => by
  rw [bigSep_W7, bigSep_W7]
  exact sound_body7 a0 hok Vin c t

/-! ## From the blocks to the arrays -/

/-- The value array after the region: as entered. -/
theorem arrAt7_in (a0 : (pcfg7 (F := F)).Adm) (Vin : Dev nD → Valuation τ sig (Elt F)) (c : Dev nD) :
    (dat7 a0 Vin c).arrAt 0 (cfg7 a0).N = Vr Vin c main_v43 :=
  ((dat7 a0 Vin c).arrAt_in 0 rfl _).trans (A_eq7 a0 Vin c 0)

/-- Every index of the result array is in some point's block: row `e`, lane `d` is element `(e % 8, d)` of the block
    of point `e / 8`. -/
theorem regOutCover7 (a0 : (pcfg7 (F := F)).Adm) (i : S131072x128.Idx) :
    ∃ t : Fin (cfg7 a0).N, ((cfg7 a0).win 1).flush t = true ∧ i ∈ (((cfg7 a0).win 1).blk t).view.set := by
  have hi0 : (i 0).val < 131072 := (i 0).isLt
  have hi1 : (i 1).val < 128 := (i 1).isLt
  have hN : (i 0).val / 8 < grid7.N := by rw [N_7]; omega
  obtain ⟨t, ht⟩ : ∃ t : Fin (cfg7 a0).N, t.val = (i 0).val / 8 := ⟨⟨_, hN⟩, rfl⟩
  have hx : (((cfg7 a0).win 1).blk t).view.emb (ValueIdx.ix2 ⟨(i 0).val % 8, Nat.mod_lt _ (by decide)⟩ (i 1)) = i := by
    funext a; apply Fin.ext
    have e0 : ((cfg7 a0).win 1).index t (0 : Fin 2) = t.val := congrFun (regOutIndex7 a0 t) (0 : Fin 2)
    have e1 : ((cfg7 a0).win 1).index t (1 : Fin 2) = 0 := congrFun (regOutIndex7 a0 t) (1 : Fin 2)
    match a with
    | ⟨0, _⟩ => show ((cfg7 a0).win 1).index t (0 : Fin 2) * 8 + 1 * ((i 0).val % 8) = (i 0).val; omega
    | ⟨1, _⟩ => show ((cfg7 a0).win 1).index t (1 : Fin 2) * 128 + 1 * (i 1).val = (i 1).val; omega
  exact ⟨t, regOutFlush7 a0 t, hx ▸ (((cfg7 a0).win 1).blk t).view.emb_mem_set _⟩

/-- The result array after the region: the gathered and scaled rows, whole. -/
theorem arrAt7_out (a0 : (pcfg7 (F := F)).Adm) (Vin : Dev nD → Valuation τ sig (Elt F)) (c : Dev nD) :
    (dat7 a0 Vin c).arrAt 1 (cfg7 a0).N = gout7 a0 Vin c :=
  (dat7 a0 Vin c).arrAt_eq_of_cover 1 (gout7 a0 Vin c)
    (fun t _ => by
      show ((cfg7 a0).win 1).cut ((cfg7 a0).grid.coords t) ((dat7 a0 Vin c).after 1 t) = _
      rw [after7_1])
    (regOutCover7 a0)

/-! ## The region as a segment of @main -/

/-- The ownership layout of the kernel's eight semaphores. -/
theorem ownSemFacts7 : Pipeline.OwnSemFacts spec7 osem7 := by decide

/-- The kernel's own cells at zero, listed. -/
theorem ownSemsListed7 (c : Dev nD) :
    (Pipeline.ownSems0 (Ix := Unit) (Name := ℕ) (U := UU nD τ) (Lvl := ℕ) (Val := Elt F) (τ := τ) osem7 c : sProp (MM F)) = sems7 c :=
  Pipeline.ownSems0_eq_of_list c osem7 [0, 1, 2, 3, 4, 5, 6, 7] (by decide) (by decide)

/-- The unscoped buffers that are no window's array, no table, and not the embedding array. -/
abbrev restRefs7 : Finset (Ref sig .tc) :=
  (((Finset.univ.filter fun b : Ref sig .tc => ¬ b.isScoped) \ Finset.univ.image (Pipeline.arrRef spec7)) \ Finset.univ.image pre7.ref) \ {main_arg0}

/-- Those buffers, each whole at its contents under `Vin`: what bypasses the region. -/
def Zrest7 (Vin : Dev nD → Valuation τ sig (Elt F)) (c : Dev nD) : sProp (MM F) :=
  bigSep restRefs7 fun b => ((c : Thread nD τ).loc b) ↦{fullShare} Vr Vin c b

/-- The embedding array is an unscoped buffer that is no window's array and no table. -/
theorem embArrMem7 : ({main_arg0} : Finset (Ref sig .tc)) ⊆
    ((Finset.univ.filter fun b : Ref sig .tc => ¬ b.isScoped) \ Finset.univ.image (Pipeline.arrRef spec7)) \ Finset.univ.image pre7.ref := by
  decide

/-- The unscoped buffers that are no window's array: the index table, the embedding array, and the rest. -/
theorem unscopedRestOpen7 (Vin : Dev nD → Valuation τ sig (Elt F)) (c : Dev nD) :
    (Pipeline.unscopedRest (Ix := Unit) (Name := ℕ) (U := UU nD τ) (Lvl := ℕ) spec7 c (Vr Vin c) : sProp (MM F))
      = iprop(Pipeline.prefHeld pre7 c (fun _ => fullShare) (fun k => Vr Vin c (pre7.ref k))
          ∗ pt c (Memref.whole main_arg0) (Vr Vin c main_arg0) ∗ Zrest7 Vin c) := by
  rw [Pipeline.unscopedRest_split preFacts7 c (Vr Vin c)]
  unfold Pipeline.unscopedRestP Zrest7
  rw [BI.bigSep_sdiff_split embArrMem7, BI.bigSep_singleton]
  rfl

/-- The buffer contents when the region is left: the result array at the gathered rows, every other buffer as entered. -/
abbrev Vout7 (a0 : (pcfg7 (F := F)).Adm) (Vin : Dev nD → Valuation τ sig (Elt F)) (c : Dev nD) : Valuation τ sig (Elt F) :=
  Function.update (Vin c) main_v44 (gout7 a0 Vin c)

/-- At the exit each of the region's arrays holds what the pipeline leaves; -/
theorem hF7 (a0 : (pcfg7 (F := F)).Adm) (Vin : Dev nD → Valuation τ sig (Elt F)) (c : Dev nD) (w : Fin (cfg7 a0).W) :
    (dat7 a0 Vin c).arrAt w (cfg7 a0).N = Vr (Vout7 a0 Vin) c (Pipeline.arrRef spec7 w) := by
  match w with
  | ⟨0, _⟩ =>
    show (dat7 a0 Vin c).arrAt 0 (cfg7 a0).N = Vr (Vout7 a0 Vin) c (Pipeline.arrRef spec7 0)
    rw [arrAt7_in]
    exact (Function.update_of_ne (StableHlo.devRef_ne_of_ne (by decide) : (Proc.devRef .tc main_v43 : DevRef τ sig) ≠ Proc.devRef .tc main_v44) _ _).symm
  | ⟨1, _⟩ =>
    show (dat7 a0 Vin c).arrAt 1 (cfg7 a0).N = Vr (Vout7 a0 Vin) c (Pipeline.arrRef spec7 1)
    rw [arrAt7_out]
    exact (Function.update_self (Proc.devRef .tc main_v44 : DevRef τ sig) _ (Vin c)).symm

/-- and every other buffer what it held at entry. -/
theorem hrest7 (a0 : (pcfg7 (F := F)).Adm) (Vin : Dev nD → Valuation τ sig (Elt F)) (c : Dev nD) :
    ∀ b : Ref sig .tc, b ∉ Finset.univ.image (Pipeline.arrRef spec7) → Vr (Vout7 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat7` at the entry valuation `Vin`
    (`hd`), the index table's contents under `Vin` being the pinned ones (`htbl`) and row numbers (`hok`). -/
def reg7 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk7 (F := F) (a (7 : Fin 34)))
    (hd : ∀ c, pdats (7 : Fin 34) c = dat7 (a (7 : Fin 34)) Vin c) (htbl : ∀ c, (a (7 : Fin 34)).1 = fun k => Vr Vin c (pre7.ref k)) :
    Pipeline.RegionSeg (pcfgs (F := F)) a pdats () defs₀ 𝒱₀ L lv (7 : Fin 34) where
  win := (launch7 (F := F)).win.to₀
  block_pos := (launch7 (F := F)).block_pos
  stage_whole := (launch7 (F := F)).stage_whole
  K := Fin 8
  osem := osem7
  ho := ownSemFacts7
  hbody c := by rw [hd c]; exact (body_obligation7 (a (7 : Fin 34)) hok Vin c).loose
  hwaits := Pipeline.hwaits_of_owed_zero _ _ _ _ L lv (7 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v44 (gout7 (a (7 : Fin 34)) Vin c)) ∗ Rest c)
  X c := iprop(pt c (Memref.whole main_arg0) (Vr Vin c main_arg0) ∗ sems7 c)
  Y c := iprop(pt c (Memref.whole main_arg0) (Vr Vin c main_arg0)
    ∗ Pipeline.prefHeld (Ix := Unit) (Name := ℕ) (U := UU nD τ) (Lvl := ℕ) pre7 c (fun _ => fullShare) (a (7 : Fin 34)).1)
  Z c := Zrest7 Vin c
  hentry c := by
    rw [ownSemsListed7]
    have hsplit := Pipeline.arrays_of_unscopedBufs (p := (7 : Fin 34)) (pcfgs (F := F)) a pdats (launch7 (F := F)).win (launch7 (F := F)).arr_whole c
      ((pdats (7 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen7 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (7 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq7]; unfold Phi7
    iintro ⟨⟨Hx, Hos⟩, Ht, Hr⟩
    isplitl [Hx]; · iexact Hx
    isplitl [Hos]; · iexact Hos
    isplitl [Ht]; · iexact Ht
    iexact Hr
  hout c := by
    rw [ownSemsListed7, hd c, Phi_eq7]; unfold Phi7
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (7 : Fin 34)) (pcfgs (F := F)) a (Ix := Unit) (Name := ℕ) (U := UU nD τ) (Lvl := ℕ)
      (launch7 (F := F)).win (launch7 (F := F)).arr_whole c pdats ((pdats (7 : Fin 34) c).share_full fun _ => by rw [hd c]; rfl)
      (Vr Vin c) (Vr (Vout7 (a (7 : Fin 34)) Vin) c) ((pdats (7 : Fin 34) c).arrAt · (cfg7 (a (7 : Fin 34))).N)
      (fun w => by rw [hd c]; exact hF7 (a (7 : Fin 34)) Vin c w) (hrest7 (a (7 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen7 Vin c).symm)
      isplitl [Ht]; · rw [← htbl c]; iexact Ht
      isplitl [Hx]; · iexact Hx
      iexact Hz
    unfold Pipeline.Dat.owesAt Pipeline.owesWithin
    rw [show (pdats (7 : Fin 34) c).owed (Fin.last _) = 0 from by rw [hd c]; rfl]
    icases HO with ⟨%W, -, HO⟩; iexists W; iexact HO

end Cert.KernelIdeal.Hand

end
-- ==== Proof.KI.GatherDat8.lean ====
/-
  Gather region 8 (custom_call 8): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem8 : Fin 8 → SemLoc sig := fun | 0 => .dma 100 | 1 => .dma 101 | 2 => .dma 102 | 3 => .dma 103 | 4 => .dma 104 | 5 => .dma 105 | 6 => .dma 106 | 7 => .dma 107

/-- The eight counters at zero, as the run finds them and hands them back. -/
abbrev sems8 (c : Dev nD) : sProp (MM F) :=
  iprop(semVal ((c : Thread nD τ), osem8 0) 0 ∗ semVal ((c : Thread nD τ), osem8 1) 0 ∗ semVal ((c : Thread nD τ), osem8 2) 0
    ∗ semVal ((c : Thread nD τ), osem8 3) 0 ∗ semVal ((c : Thread nD τ), osem8 4) 0 ∗ semVal ((c : Thread nD τ), osem8 5) 0
    ∗ semVal ((c : Thread nD τ), osem8 6) 0 ∗ semVal ((c : Thread nD τ), osem8 7) 0)

/-- Word `j` of the eight the index table holds for point `i`, as the kernel's scalar load reads it. -/
def tblWord8 (c : Dev nD) (i : grid8.Coords) (tbl : Bf (F := F) c (Memref.whole main_v59)) (j : Fin 8) : BitVec 32 :=
  (Memref.whole main_v59).view.readAt (Elt F) (Rect.unit (s := S131072) (k8_off1 i (BitVec.ofNat 32 j.val)) S1.size (k8_off1_inb i j)).toLoadRect tbl
    (Shape.Idx.first (s := S1) (numel1_S1.symm ▸ Nat.one_pos))

/-- Window `w`'s block at point `t`, read off its array at the region's entry. -/
def iblk8 (a0 : (pcfg8 (F := F)).Adm) (Vin : Dev nD → Valuation τ sig (Elt F)) (c : Dev nD) (w : Fin (cfg8 a0).W) (t : Fin (cfg8 a0).N) :
    (((cfg8 a0).win w).xblock ((cfg8 a0).grid.coords t)).Idx → Elt F ((cfg8 a0).win w).elt :=
  (((cfg8 a0).win w).blk t).view.read (Elt F) (Vr Vin c (Pipeline.arrRef spec8 w))

/-- The result array the region leaves: the gathered and scaled rows of the embedding array, whole. -/
def gout8 (a0 : (pcfg8 (F := F)).Adm) (Vin : Dev nD → Valuation τ sig (Elt F)) (c : Dev nD) : Buf (Elt F) ((c : Thread nD τ).loc main_v61) :=
  gatherArr (Vr Vin c main_arg0) (a0.1 0) (Vr Vin c main_v60)

/-- The invariant between points: the embedding array as entered, the kernel's semaphores at zero, the index table, the
    scoped buffers no window stages (the kernel's scratch among them). -/
def Phi8 (a0 : (pcfg8 (F := F)).Adm) (Vin : Dev nD → Valuation τ sig (Elt F)) (c : Dev nD) : sProp (MM F) :=
  iprop(pt c (Memref.whole main_arg0) (Vr Vin c main_arg0) ∗ sems8 c
    ∗ Pipeline.prefHeld (Ix := Unit) (Name := ℕ) (U := UU nD τ) (Lvl := ℕ) pre8 c (fun _ => fullShare) a0.1
    ∗ Pipeline.scopedRest (Ix := Unit) (Name := ℕ) (U := UU nD τ) (Lvl := ℕ) (Val := Elt F) spec8 c)

/-- The proof data on core `c`. -/
def dat8 (a0 : (pcfg8 (F := F)).Adm) (Vin : Dev nD → Valuation τ sig (Elt F)) (c : Dev nD) :
    Pipeline.Dat τ (Elt F) Unit ℕ (UU nD τ) ℕ ((pcfg8 (F := F)).at a0) c where
  A w := Vr Vin c (Pipeline.arrRef spec8 w)
  after w t := match w with
    | ⟨0, _⟩ => iblk8 a0 Vin c 0 t
    | ⟨1, _⟩ => (((cfg8 a0).win 1).blk t).view.read (Elt F) (gout8 a0 Vin c)
  Φ _ := Phi8 a0 Vin c
  q _ := fullShare
  owed _ := 0

theorem A_eq8 (a0 : (pcfg8 (F := F)).Adm) (Vin : Dev nD → Valuation τ sig (Elt F)) (c : Dev nD) (w : Fin (cfg8 a0).W) :
    (dat8 a0 Vin c).A w = Vr Vin c (Pipeline.arrRef spec8 w) := by dsimp only [dat8]
theorem after8_0 (a0 : (pcfg8 (F := F)).Adm) (Vin : Dev nD → Valuation τ sig (Elt F)) (c : Dev nD) (t : Fin (cfg8 a0).N) :
    (dat8 a0 Vin c).after 0 t = iblk8 a0 Vin c 0 t := by dsimp only [dat8]; rfl
theorem after8_1 (a0 : (pcfg8 (F := F)).Adm) (Vin : Dev nD → Valuation τ sig (Elt F)) (c : Dev nD) (t : Fin (cfg8 a0).N) :
    (dat8 a0 Vin c).after 1 t = (((cfg8 a0).win 1).blk t).view.read (Elt F) (gout8 a0 Vin c) := by dsimp only [dat8]; rfl
theorem Phi_eq8 (a0 : (pcfg8 (F := F)).Adm) (Vin : Dev nD → Valuation τ sig (Elt F)) (c : Dev nD) (t : Fin ((cfg8 a0).N + 1)) :
    (dat8 a0 Vin c).Φ t = Phi8 a0 Vin c := rfl
theorem owed_eq8 (a0 : (pcfg8 (F := F)).Adm) (Vin : Dev nD → Valuation τ sig (Elt F)) (c : Dev nD) (t : Fin ((cfg8 a0).N + 1)) :
    (dat8 a0 Vin c).owed t = 0 := rfl
theorem q_eq8 (a0 : (pcfg8 (F := F)).Adm) (Vin : Dev nD → Valuation τ sig (Elt F)) (c : Dev nD) (w : Fin (cfg8 a0).W) :
    (dat8 a0 Vin c).q w = fullShare := rfl

/-- The pinned family's configuration at region 8 is this one. -/
example (a : (p : Fin 34) → (pcfgs (F := F) p).Adm) : Pipeline.pin (pcfgs (F := F)) a (8 : Fin 34) = (pcfg8 (F := F)).at (a (8 : Fin 34)) := rfl

end Cert.KernelIdeal.Hand

end
-- ==== Proof.KI.GatherBody8.lean ====
/-
  Gather region 8 (custom_call 8): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat8
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk8 (c : Dev nD) (i : grid8.Coords) (tbl : Bf (F := F) c (Memref.whole main_v59)) : Prop where
  h1 : k8_chk1 (tblWord8 c i tbl 0)
  h2 : k8_chk2 (tblWord8 c i tbl 1)
  h3 : k8_chk3 (tblWord8 c i tbl 2)
  h4 : k8_chk4 (tblWord8 c i tbl 3)
  h5 : k8_chk5 (tblWord8 c i tbl 4)
  h6 : k8_chk6 (tblWord8 c i tbl 5)
  h7 : k8_chk7 (tblWord8 c i tbl 6)
  h8 : k8_chk8 (tblWord8 c i tbl 7)

/-- A one-row slice of the embedding array at the row a word names, read at lane `z 1`: the array's element there. -/
theorem rowRead8 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun8 (c : Dev nD) (i : grid8.Coords)
    (M3 : Memref sig .tc .vmem S8x1 .f32) (h3 : M3.IsWhole) (M4 : Memref sig .tc .vmem S8x128 .f32) (h4 : M4.IsWhole)
    (tbl : Bf (F := F) c (Memref.whole main_v59)) (x : Bf (F := F) c (Memref.whole main_arg0))
    (vb : Vec F S8x1 .f32) (hchk : GatherChk8 c i tbl) (Q : PUnit → sProp (MM F)) :
    iprop(pt c (Memref.whole main_v59) tbl ∗ pt c (Memref.whole main_arg0) x
      ∗ owns (c : Thread nD τ) M3 fullShare vb ∗ (∃ d, owns (c : Thread nD τ) M4 fullShare d)
      ∗ (∃ fs, pt c (Memref.whole cc8_scratch0) fs) ∗ sems8 c ∗ (∃ W, owes (c : Thread nD τ) (0 : CellTallies nD τ sig Unit) W)
      ∗ (iprop(pt c (Memref.whole main_v59) tbl ∗ pt c (Memref.whole main_arg0) x
          ∗ owns (c : Thread nD τ) M3 fullShare vb ∗ owns (c : Thread nD τ) M4 fullShare (gatherBlk x (tblWord8 c i tbl) vb)
          ∗ (∃ fs, pt c (Memref.whole cc8_scratch0) fs) ∗ sems8 c ∗ (∃ W, owes (c : Thread nD τ) (0 : CellTallies nD τ sig Unit) W)) -∗ Q ⟨⟩))
    ⊢ wp frame (wpE (defs₀ (F := F)) 𝒱₀ c none) Set.univ
        (cc8__gather_kernel i (Memref.whole main_v59) (Memref.isWhole_whole _) (Memref.whole main_arg0) (Memref.isWhole_whole _) M3 h3 M4 h4
          (Memref.whole cc8_scratch0) (Memref.isWhole_whole _) cc8_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 100).1 $$ Hx
  icases Hx' with ⟨Hxr, Hx0, Hx1, Hx2, Hx3, Hx4, Hx5, Hx6, Hx7⟩
  sl_unfold [cc8__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 100).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k8_pay1 gatherBlk
    show FloatOps.mulf _ _ = FloatOps.mulf _ _
    congr 1
    · unfold gatherRun8.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun8.sl.dma8 gatherRun8.sl.dma8_1 gatherRun8.sl.dma8_2 gatherRun8.sl.dma8_3 gatherRun8.sl.dma8_4 gatherRun8.sl.dma8_5
        gatherRun8.sl.dma8_6 gatherRun8.sl.dma8_7 gatherRun8.sl.r gatherRun8.sl.r_1 gatherRun8.sl.r_2 gatherRun8.sl.r_3 gatherRun8.sl.r_4
        gatherRun8.sl.r_5 gatherRun8.sl.r_6 gatherRun8.sl.r_7
      refine canonRows8 _ _ _ _ _ _ _ _ _ _ _ _ _ _ _ _ (fun r d => x (embIdx (rowOf (tblWord8 c i tbl r)) d)) ?_ ?_ ?_ ?_ ?_ ?_ ?_ ?_ y
      · exact fun z => rowRead8 c _ (tblWord8 c i tbl 0) rfl rfl _ _ x z
      · exact fun z => rowRead8 c _ (tblWord8 c i tbl 1) rfl rfl _ _ x z
      · exact fun z => rowRead8 c _ (tblWord8 c i tbl 2) rfl rfl _ _ x z
      · exact fun z => rowRead8 c _ (tblWord8 c i tbl 3) rfl rfl _ _ x z
      · exact fun z => rowRead8 c _ (tblWord8 c i tbl 4) rfl rfl _ _ x z
      · exact fun z => rowRead8 c _ (tblWord8 c i tbl 5) rfl rfl _ _ x z
      · exact fun z => rowRead8 c _ (tblWord8 c i tbl 6) rfl rfl _ _ x z
      · exact fun z => rowRead8 c _ (tblWord8 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk8.lean ====
/-
  Gather region 8 (custom_call 8): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat8
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word8 (i : grid8.Coords) (j : Fin 8) : k8_off1 i (BitVec.ofNat 32 j.val) 0 = (i 0).val * 8 + j.val := by
  have hi : (i 0).val < 16384 := (i 0).isLt
  have hj : j.val < 8 := j.isLt
  unfold k8_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word8 (i : grid8.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord8_eq (c : Dev nD) (i : grid8.Coords) (tbl : Bf (F := F) c (Memref.whole main_v59)) (j : Fin 8)
    (e : Fin 131072) (he : e.val = (i 0).val * 8 + j.val) : tblWord8 c i tbl j = tbl (tblIdx e) := by
  unfold tblWord8
  show tbl _ = tbl _
  refine congrArg tbl ?_
  funext a; apply Fin.ext
  match a with
  | ⟨0, _⟩ =>
    show k8_off1 i (BitVec.ofNat 32 j.val) 0 + 1 * 0 = e.val
    rw [off_word8, he]; omega

/-- Row `j` of the value window's block at point `t` is the value array's row `8 t + j`. -/
theorem valBlk8_eq (a0 : (pcfg8 (F := F)).Adm) (Vin : Dev nD → Valuation τ sig (Elt F)) (c : Dev nD) (t : Fin (cfg8 a0).N)
    (j : Fin 8) (e : Fin 131072) (he : e.val = ((grid8.coords t) 0).val * 8 + j.val) :
    iblk8 a0 Vin c 0 t (colIdx j) = Vr Vin c main_v60 (valIdx e) := by
  unfold iblk8
  show Vr Vin c main_v60 _ = Vr Vin c main_v60 _
  refine congrArg (Vr Vin c main_v60) ?_
  funext a; apply Fin.ext
  match a with
  | ⟨0, _⟩ =>
    show (BitVec.ofNat 32 ((grid8.coords t) 0).val).toNat * 8 + 1 * j.val = e.val
    rw [coord_word8, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk8 (a0 : (pcfg8 (F := F)).Adm) (Vin : Dev nD → Valuation τ sig (Elt F)) (c : Dev nD) (t : Fin (cfg8 a0).N) :
    gatherBlk (Vr Vin c main_arg0) (tblWord8 c (grid8.coords t) (a0.1 0)) (iblk8 a0 Vin c 0 t)
      = (((cfg8 a0).win 1).blk t).view.read (Elt F) (gout8 a0 Vin c) := by
  funext y
  show gatherBlk _ _ _ y = gout8 a0 Vin c ((((cfg8 a0).win 1).blk t).view.emb y)
  unfold gatherBlk gout8 gatherArr
  have e0 : ((((cfg8 a0).win 1).blk t).view.emb y (0 : Fin 2)).val = ((grid8.coords t) 0).val * 8 + (y 0).val := by
    show (BitVec.ofNat 32 ((grid8.coords t) 0).val).toNat * 8 + 1 * (y 0).val = _
    rw [coord_word8]; omega
  have e1 : (((cfg8 a0).win 1).blk t).view.emb y (1 : Fin 2) = y 1 := Fin.ext (by
    show (0#32 : BitVec 32).toNat * 128 + 1 * (y 1).val = (y 1).val
    show 0 * 128 + 1 * (y 1).val = (y 1).val
    omega)
  rw [tblWord8_eq c (grid8.coords t) (a0.1 0) (y 0) _ e0, valBlk8_eq a0 Vin c t (y 0) _ e0, e1]

end Cert.KernelIdeal.Hand

end
-- ==== Proof.KI.GatherRegion8.lean ====
/-
  Gather region 8 (custom_call 8): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody8
import proofs.«414509_j14181982011419_2_alg».proof.Proof.KI.GatherBlk8
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk8 (a0 : (pcfg8 (F := F)).Adm) : Prop := ∀ e : S131072.Idx, (a0.1 0 e).toNat < 100000

/-! ## The grid and the result window's blocks -/

/-- On the one-axis grid a point's coordinate is its number. -/
theorem regCoords8 (t : Fin grid8.N) : (grid8.coords t 0).val = t.val := by
  have ht : t.val < 16384 := N_8 ▸ t.isLt
  show t.val / grid8.stride 0 % grid8.bound 0 = t.val
  rw [show grid8.stride 0 = 1 from by decide, show grid8.bound 0 = 16384 from rfl, Nat.div_one, Nat.mod_eq_of_lt ht]

/-- A point's number as the 32-bit word the index maps compute with. -/
theorem regWord8 (t : Fin grid8.N) : (BitVec.ofNat 32 (grid8.coords t 0).val).toNat = t.val := by
  have ht : t.val < 16384 := N_8 ▸ t.isLt
  rw [BitVec.toNat_ofNat, regCoords8]; omega

/-- The result window's block at point `t` is block `t` along the rows, at zero along the lanes. -/
theorem regOutIndex8 (a0 : (pcfg8 (F := F)).Adm) (t : Fin (cfg8 a0).N) : ((cfg8 a0).win 1).index t = ![t.val, 0] := by
  show cc8_transform_2 (grid8.coords t) = _
  unfold cc8_transform_2
  funext a; fin_cases a
  · exact regWord8 t
  · rfl

/-- The result window is written back at every point: consecutive points have different blocks. -/
theorem regOutFlush8 (a0 : (pcfg8 (F := F)).Adm) (t : Fin (cfg8 a0).N) : ((cfg8 a0).win 1).flush t = true := by
  have htN : t.val < 16384 := N_8 ▸ t.isLt
  rw [Pipeline.Window.flush_out _ rfl]
  by_cases h : t.val + 1 = 16384
  · exact Or.inl (show t.val + 1 = grid8.N by rw [N_8]; exact h)
  · have hlt : t.val + 1 < grid8.N := by rw [N_8]; omega
    refine Or.inr ⟨hlt, fun e => ?_⟩
    have e' : (![t.val + 1, 0] : Fin 2 → ℕ) = ![t.val, 0] := (regOutIndex8 a0 ⟨t.val + 1, hlt⟩).symm.trans (e.trans (regOutIndex8 a0 t))
    have e0 := congrFun e' 0
    simp at e0

/-- The index table, held as the pipeline's one prefetched table. -/
theorem prefHeldEq8 (a0 : (pcfg8 (F := F)).Adm) (c : Dev nD) :
    (Pipeline.prefHeld (Ix := Unit) (Name := ℕ) (U := UU nD τ) (Lvl := ℕ) pre8 c (fun _ => fullShare) a0.1 : sProp (MM F))
      = pt c (Memref.whole main_v59) (a0.1 0) := by
  unfold Pipeline.prefHeld
  rw [show (Finset.univ : Finset (Fin pre8.K)) = {0} from rfl, BI.bigSep_singleton]
  rfl

/-- The value window's staging buffer holds its block at every point. -/
theorem beforeVal8 (a0 : (pcfg8 (F := F)).Adm) (Vin : Dev nD → Valuation τ sig (Elt F)) (c : Dev nD) (t : Fin (cfg8 a0).N) (d) :
    (dat8 a0 Vin c).before 0 t d = iblk8 a0 Vin c 0 t :=
  ((dat8 a0 Vin c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)

/-! ## The kernel's checks, from the table's range -/

/-- Each of the point's eight words is a word of the table, so a row number. -/
theorem tblWordLt8 (a0 : (pcfg8 (F := F)).Adm) (hok : GatherOk8 a0) (c : Dev nD) (i : grid8.Coords) (j : Fin 8) :
    (tblWord8 c i (a0.1 0) j).toNat < 100000 := by
  unfold tblWord8
  exact hok _

/-- So the kernel's eight checks hold at every point. -/
theorem gatherChk8 (a0 : (pcfg8 (F := F)).Adm) (hok : GatherOk8 a0) (c : Dev nD) (i : grid8.Coords) : GatherChk8 c i (a0.1 0) :=
  ⟨⟨chkRow _ (tblWordLt8 a0 hok c i 0), chkRow _ (tblWordLt8 a0 hok c i 0)⟩,
   ⟨chkRow _ (tblWordLt8 a0 hok c i 1), chkRow _ (tblWordLt8 a0 hok c i 1)⟩,
   ⟨chkRow _ (tblWordLt8 a0 hok c i 2), chkRow _ (tblWordLt8 a0 hok c i 2)⟩,
   ⟨chkRow _ (tblWordLt8 a0 hok c i 3), chkRow _ (tblWordLt8 a0 hok c i 3)⟩,
   ⟨chkRow _ (tblWordLt8 a0 hok c i 4), chkRow _ (tblWordLt8 a0 hok c i 4)⟩,
   ⟨chkRow _ (tblWordLt8 a0 hok c i 5), chkRow _ (tblWordLt8 a0 hok c i 5)⟩,
   ⟨chkRow _ (tblWordLt8 a0 hok c i 6), chkRow _ (tblWordLt8 a0 hok c i 6)⟩,
   chkRow _ (tblWordLt8 a0 hok c i 7)⟩

/-! ## The body obligation, at a generic point -/

/-- What the body is called with at point `t`: the invariant, the core's dues, each window's current staging memref at
    what the pipeline left there, -/
def bodyPre8 (a0 : (pcfg8 (F := F)).Adm) (Vin : Dev nD → Valuation τ sig (Elt F)) (c : Dev nD) (t : Fin (cfg8 a0).N) : sProp (MM F) :=
  iprop((dat8 a0 Vin c).Φ t.castSucc ∗ (dat8 a0 Vin c).owesAt () t.castSucc
    ∗ (∃ d, owns (c : Thread nD τ) (((cfg8 a0).win 0).stage ((cfg8 a0).slots t 0)) fullShare ((dat8 a0 Vin c).before 0 t d))
    ∗ (∃ d, owns (c : Thread nD τ) (((cfg8 a0).win 1).stage ((cfg8 a0).slots t 1)) fullShare ((dat8 a0 Vin c).before 1 t d)))

/-- and what it returns. -/
def bodyPost8 (a0 : (pcfg8 (F := F)).Adm) (Vin : Dev nD → Valuation τ sig (Elt F)) (c : Dev nD) (t : Fin (cfg8 a0).N) : sProp (MM F) :=
  iprop((dat8 a0 Vin c).Φ t.succ ∗ (dat8 a0 Vin c).owesAt () t.succ
    ∗ owns (c : Thread nD τ) (((cfg8 a0).win 0).stage ((cfg8 a0).slots t 0)) fullShare ((dat8 a0 Vin c).after 0 t)
    ∗ owns (c : Thread nD τ) (((cfg8 a0).win 1).stage ((cfg8 a0).slots t 1)) fullShare ((dat8 a0 Vin c).after 1 t))

/-- The body at any point: the invariant opened into the embedding array, the semaphores, the table and the scratch;
    the value window's memref at its block; the checks from the table's range; so the kernel's run applies, and what it
    leaves in the result window's memref is the point's block of the gathered array. -/
theorem sound_body8 (a0 : (pcfg8 (F := F)).Adm) (hok : GatherOk8 a0) (Vin : Dev nD → Valuation τ sig (Elt F)) (c : Dev nD) (t : Fin (cfg8 a0).N) :
    bodyPre8 a0 Vin c t ⊢ wp frame (wpE (defs₀ (F := F)) 𝒱₀ c none) Set.univ
      (defs₀ .tc (cfg8 a0).body ((cfg8 a0).bodyArgs t ((cfg8 a0).slots t))) (fun _ => bodyPost8 a0 Vin c t) := by
  unfold bodyPre8 bodyPost8
  simp only [beforeVal8]
  rw [Phi_eq8, Phi_eq8, after8_0, after8_1, ← gatherBlk_blk8]
  unfold Phi8 Pipeline.Dat.owesAt Pipeline.owesWithin
  rw [owed_eq8, owed_eq8, prefHeldEq8, scopedRest8_split]
  iintro ⟨⟨Hx, Hos, Ht, ⟨%fs, Hs⟩, Hsb⟩, ⟨%W, %hW, HO⟩, ⟨%d0, H0⟩, ⟨%d1, H1⟩⟩
  iapply (gatherRun8 c (grid8.coords t) _ _ _ _ (a0.1 0) (Vr Vin c main_arg0) (iblk8 a0 Vin c 0 t) (gatherChk8 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation8 (a0 : (pcfg8 (F := F)).Adm) (hok : GatherOk8 a0) (Vin : Dev nD → Valuation τ sig (Elt F)) (c : Dev nD) :
    BodyObligation (dat8 a0 Vin c) (defs₀ (F := F)) 𝒱₀ () Set.univ := fun t => by
  rw [bigSep_W8, bigSep_W8]
  exact sound_body8 a0 hok Vin c t

/-! ## From the blocks to the arrays -/

/-- The value array after the region: as entered. -/
theorem arrAt8_in (a0 : (pcfg8 (F := F)).Adm) (Vin : Dev nD → Valuation τ sig (Elt F)) (c : Dev nD) :
    (dat8 a0 Vin c).arrAt 0 (cfg8 a0).N = Vr Vin c main_v60 :=
  ((dat8 a0 Vin c).arrAt_in 0 rfl _).trans (A_eq8 a0 Vin c 0)

/-- Every index of the result array is in some point's block: row `e`, lane `d` is element `(e % 8, d)` of the block
    of point `e / 8`. -/
theorem regOutCover8 (a0 : (pcfg8 (F := F)).Adm) (i : S131072x128.Idx) :
    ∃ t : Fin (cfg8 a0).N, ((cfg8 a0).win 1).flush t = true ∧ i ∈ (((cfg8 a0).win 1).blk t).view.set := by
  have hi0 : (i 0).val < 131072 := (i 0).isLt
  have hi1 : (i 1).val < 128 := (i 1).isLt
  have hN : (i 0).val / 8 < grid8.N := by rw [N_8]; omega
  obtain ⟨t, ht⟩ : ∃ t : Fin (cfg8 a0).N, t.val = (i 0).val / 8 := ⟨⟨_, hN⟩, rfl⟩
  have hx : (((cfg8 a0).win 1).blk t).view.emb (ValueIdx.ix2 ⟨(i 0).val % 8, Nat.mod_lt _ (by decide)⟩ (i 1)) = i := by
    funext a; apply Fin.ext
    have e0 : ((cfg8 a0).win 1).index t (0 : Fin 2) = t.val := congrFun (regOutIndex8 a0 t) (0 : Fin 2)
    have e1 : ((cfg8 a0).win 1).index t (1 : Fin 2) = 0 := congrFun (regOutIndex8 a0 t) (1 : Fin 2)
    match a with
    | ⟨0, _⟩ => show ((cfg8 a0).win 1).index t (0 : Fin 2) * 8 + 1 * ((i 0).val % 8) = (i 0).val; omega
    | ⟨1, _⟩ => show ((cfg8 a0).win 1).index t (1 : Fin 2) * 128 + 1 * (i 1).val = (i 1).val; omega
  exact ⟨t, regOutFlush8 a0 t, hx ▸ (((cfg8 a0).win 1).blk t).view.emb_mem_set _⟩

/-- The result array after the region: the gathered and scaled rows, whole. -/
theorem arrAt8_out (a0 : (pcfg8 (F := F)).Adm) (Vin : Dev nD → Valuation τ sig (Elt F)) (c : Dev nD) :
    (dat8 a0 Vin c).arrAt 1 (cfg8 a0).N = gout8 a0 Vin c :=
  (dat8 a0 Vin c).arrAt_eq_of_cover 1 (gout8 a0 Vin c)
    (fun t _ => by
      show ((cfg8 a0).win 1).cut ((cfg8 a0).grid.coords t) ((dat8 a0 Vin c).after 1 t) = _
      rw [after8_1])
    (regOutCover8 a0)

/-! ## The region as a segment of @main -/

/-- The ownership layout of the kernel's eight semaphores. -/
theorem ownSemFacts8 : Pipeline.OwnSemFacts spec8 osem8 := by decide

/-- The kernel's own cells at zero, listed. -/
theorem ownSemsListed8 (c : Dev nD) :
    (Pipeline.ownSems0 (Ix := Unit) (Name := ℕ) (U := UU nD τ) (Lvl := ℕ) (Val := Elt F) (τ := τ) osem8 c : sProp (MM F)) = sems8 c :=
  Pipeline.ownSems0_eq_of_list c osem8 [0, 1, 2, 3, 4, 5, 6, 7] (by decide) (by decide)

/-- The unscoped buffers that are no window's array, no table, and not the embedding array. -/
abbrev restRefs8 : Finset (Ref sig .tc) :=
  (((Finset.univ.filter fun b : Ref sig .tc => ¬ b.isScoped) \ Finset.univ.image (Pipeline.arrRef spec8)) \ Finset.univ.image pre8.ref) \ {main_arg0}

/-- Those buffers, each whole at its contents under `Vin`: what bypasses the region. -/
def Zrest8 (Vin : Dev nD → Valuation τ sig (Elt F)) (c : Dev nD) : sProp (MM F) :=
  bigSep restRefs8 fun b => ((c : Thread nD τ).loc b) ↦{fullShare} Vr Vin c b

/-- The embedding array is an unscoped buffer that is no window's array and no table. -/
theorem embArrMem8 : ({main_arg0} : Finset (Ref sig .tc)) ⊆
    ((Finset.univ.filter fun b : Ref sig .tc => ¬ b.isScoped) \ Finset.univ.image (Pipeline.arrRef spec8)) \ Finset.univ.image pre8.ref := by
  decide

/-- The unscoped buffers that are no window's array: the index table, the embedding array, and the rest. -/
theorem unscopedRestOpen8 (Vin : Dev nD → Valuation τ sig (Elt F)) (c : Dev nD) :
    (Pipeline.unscopedRest (Ix := Unit) (Name := ℕ) (U := UU nD τ) (Lvl := ℕ) spec8 c (Vr Vin c) : sProp (MM F))
      = iprop(Pipeline.prefHeld pre8 c (fun _ => fullShare) (fun k => Vr Vin c (pre8.ref k))
          ∗ pt c (Memref.whole main_arg0) (Vr Vin c main_arg0) ∗ Zrest8 Vin c) := by
  rw [Pipeline.unscopedRest_split preFacts8 c (Vr Vin c)]
  unfold Pipeline.unscopedRestP Zrest8
  rw [BI.bigSep_sdiff_split embArrMem8, BI.bigSep_singleton]
  rfl

/-- The buffer contents when the region is left: the result array at the gathered rows, every other buffer as entered. -/
abbrev Vout8 (a0 : (pcfg8 (F := F)).Adm) (Vin : Dev nD → Valuation τ sig (Elt F)) (c : Dev nD) : Valuation τ sig (Elt F) :=
  Function.update (Vin c) main_v61 (gout8 a0 Vin c)

/-- At the exit each of the region's arrays holds what the pipeline leaves; -/
theorem hF8 (a0 : (pcfg8 (F := F)).Adm) (Vin : Dev nD → Valuation τ sig (Elt F)) (c : Dev nD) (w : Fin (cfg8 a0).W) :
    (dat8 a0 Vin c).arrAt w (cfg8 a0).N = Vr (Vout8 a0 Vin) c (Pipeline.arrRef spec8 w) := by
  match w with
  | ⟨0, _⟩ =>
    show (dat8 a0 Vin c).arrAt 0 (cfg8 a0).N = Vr (Vout8 a0 Vin) c (Pipeline.arrRef spec8 0)
    rw [arrAt8_in]
    exact (Function.update_of_ne (StableHlo.devRef_ne_of_ne (by decide) : (Proc.devRef .tc main_v60 : DevRef τ sig) ≠ Proc.devRef .tc main_v61) _ _).symm
  | ⟨1, _⟩ =>
    show (dat8 a0 Vin c).arrAt 1 (cfg8 a0).N = Vr (Vout8 a0 Vin) c (Pipeline.arrRef spec8 1)
    rw [arrAt8_out]
    exact (Function.update_self (Proc.devRef .tc main_v61 : DevRef τ sig) _ (Vin c)).symm

/-- and every other buffer what it held at entry. -/
theorem hrest8 (a0 : (pcfg8 (F := F)).Adm) (Vin : Dev nD → Valuation τ sig (Elt F)) (c : Dev nD) :
    ∀ b : Ref sig .tc, b ∉ Finset.univ.image (Pipeline.arrRef spec8) → Vr (Vout8 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat8` at the entry valuation `Vin`
    (`hd`), the index table's contents under `Vin` being the pinned ones (`htbl`) and row numbers (`hok`). -/
def reg8 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk8 (F := F) (a (8 : Fin 34)))
    (hd : ∀ c, pdats (8 : Fin 34) c = dat8 (a (8 : Fin 34)) Vin c) (htbl : ∀ c, (a (8 : Fin 34)).1 = fun k => Vr Vin c (pre8.ref k)) :
    Pipeline.RegionSeg (pcfgs (F := F)) a pdats () defs₀ 𝒱₀ L lv (8 : Fin 34) where
  win := (launch8 (F := F)).win.to₀
  block_pos := (launch8 (F := F)).block_pos
  stage_whole := (launch8 (F := F)).stage_whole
  K := Fin 8
  osem := osem8
  ho := ownSemFacts8
  hbody c := by rw [hd c]; exact (body_obligation8 (a (8 : Fin 34)) hok Vin c).loose
  hwaits := Pipeline.hwaits_of_owed_zero _ _ _ _ L lv (8 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v61 (gout8 (a (8 : Fin 34)) Vin c)) ∗ Rest c)
  X c := iprop(pt c (Memref.whole main_arg0) (Vr Vin c main_arg0) ∗ sems8 c)
  Y c := iprop(pt c (Memref.whole main_arg0) (Vr Vin c main_arg0)
    ∗ Pipeline.prefHeld (Ix := Unit) (Name := ℕ) (U := UU nD τ) (Lvl := ℕ) pre8 c (fun _ => fullShare) (a (8 : Fin 34)).1)
  Z c := Zrest8 Vin c
  hentry c := by
    rw [ownSemsListed8]
    have hsplit := Pipeline.arrays_of_unscopedBufs (p := (8 : Fin 34)) (pcfgs (F := F)) a pdats (launch8 (F := F)).win (launch8 (F := F)).arr_whole c
      ((pdats (8 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen8 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (8 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq8]; unfold Phi8
    iintro ⟨⟨Hx, Hos⟩, Ht, Hr⟩
    isplitl [Hx]; · iexact Hx
    isplitl [Hos]; · iexact Hos
    isplitl [Ht]; · iexact Ht
    iexact Hr
  hout c := by
    rw [ownSemsListed8, hd c, Phi_eq8]; unfold Phi8
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (8 : Fin 34)) (pcfgs (F := F)) a (Ix := Unit) (Name := ℕ) (U := UU nD τ) (Lvl := ℕ)
      (launch8 (F := F)).win (launch8 (F := F)).arr_whole c pdats ((pdats (8 : Fin 34) c).share_full fun _ => by rw [hd c]; rfl)
      (Vr Vin c) (Vr (Vout8 (a (8 : Fin 34)) Vin) c) ((pdats (8 : Fin 34) c).arrAt · (cfg8 (a (8 : Fin 34))).N)
      (fun w => by rw [hd c]; exact hF8 (a (8 : Fin 34)) Vin c w) (hrest8 (a (8 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen8 Vin c).symm)
      isplitl [Ht]; · rw [← htbl c]; iexact Ht
      isplitl [Hx]; · iexact Hx
      iexact Hz
    unfold Pipeline.Dat.owesAt Pipeline.owesWithin
    rw [show (pdats (8 : Fin 34) c).owed (Fin.last _) = 0 from by rw [hd c]; rfl]
    icases HO with ⟨%W, -, HO⟩; iexists W; iexact HO

end Cert.KernelIdeal.Hand

end
-- ==== Proof.KI.GatherDat9.lean ====
/-
  Gather region 9 (custom_call 9): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem9 : Fin 8 → SemLoc sig := fun | 0 => .dma 112 | 1 => .dma 113 | 2 => .dma 114 | 3 => .dma 115 | 4 => .dma 116 | 5 => .dma 117 | 6 => .dma 118 | 7 => .dma 119

/-- The eight counters at zero, as the run finds them and hands them back. -/
abbrev sems9 (c : Dev nD) : sProp (MM F) :=
  iprop(semVal ((c : Thread nD τ), osem9 0) 0 ∗ semVal ((c : Thread nD τ), osem9 1) 0 ∗ semVal ((c : Thread nD τ), osem9 2) 0
    ∗ semVal ((c : Thread nD τ), osem9 3) 0 ∗ semVal ((c : Thread nD τ), osem9 4) 0 ∗ semVal ((c : Thread nD τ), osem9 5) 0
    ∗ semVal ((c : Thread nD τ), osem9 6) 0 ∗ semVal ((c : Thread nD τ), osem9 7) 0)

/-- Word `j` of the eight the index table holds for point `i`, as the kernel's scalar load reads it. -/
def tblWord9 (c : Dev nD) (i : grid9.Coords) (tbl : Bf (F := F) c (Memref.whole main_v62)) (j : Fin 8) : BitVec 32 :=
  (Memref.whole main_v62).view.readAt (Elt F) (Rect.unit (s := S131072) (k9_off1 i (BitVec.ofNat 32 j.val)) S1.size (k9_off1_inb i j)).toLoadRect tbl
    (Shape.Idx.first (s := S1) (numel1_S1.symm ▸ Nat.one_pos))

/-- Window `w`'s block at point `t`, read off its array at the region's entry. -/
def iblk9 (a0 : (pcfg9 (F := F)).Adm) (Vin : Dev nD → Valuation τ sig (Elt F)) (c : Dev nD) (w : Fin (cfg9 a0).W) (t : Fin (cfg9 a0).N) :
    (((cfg9 a0).win w).xblock ((cfg9 a0).grid.coords t)).Idx → Elt F ((cfg9 a0).win w).elt :=
  (((cfg9 a0).win w).blk t).view.read (Elt F) (Vr Vin c (Pipeline.arrRef spec9 w))

/-- The result array the region leaves: the gathered and scaled rows of the embedding array, whole. -/
def gout9 (a0 : (pcfg9 (F := F)).Adm) (Vin : Dev nD → Valuation τ sig (Elt F)) (c : Dev nD) : Buf (Elt F) ((c : Thread nD τ).loc main_v64) :=
  gatherArr (Vr Vin c main_arg0) (a0.1 0) (Vr Vin c main_v63)

/-- The invariant between points: the embedding array as entered, the kernel's semaphores at zero, the index table, the
    scoped buffers no window stages (the kernel's scratch among them). -/
def Phi9 (a0 : (pcfg9 (F := F)).Adm) (Vin : Dev nD → Valuation τ sig (Elt F)) (c : Dev nD) : sProp (MM F) :=
  iprop(pt c (Memref.whole main_arg0) (Vr Vin c main_arg0) ∗ sems9 c
    ∗ Pipeline.prefHeld (Ix := Unit) (Name := ℕ) (U := UU nD τ) (Lvl := ℕ) pre9 c (fun _ => fullShare) a0.1
    ∗ Pipeline.scopedRest (Ix := Unit) (Name := ℕ) (U := UU nD τ) (Lvl := ℕ) (Val := Elt F) spec9 c)

/-- The proof data on core `c`. -/
def dat9 (a0 : (pcfg9 (F := F)).Adm) (Vin : Dev nD → Valuation τ sig (Elt F)) (c : Dev nD) :
    Pipeline.Dat τ (Elt F) Unit ℕ (UU nD τ) ℕ ((pcfg9 (F := F)).at a0) c where
  A w := Vr Vin c (Pipeline.arrRef spec9 w)
  after w t := match w with
    | ⟨0, _⟩ => iblk9 a0 Vin c 0 t
    | ⟨1, _⟩ => (((cfg9 a0).win 1).blk t).view.read (Elt F) (gout9 a0 Vin c)
  Φ _ := Phi9 a0 Vin c
  q _ := fullShare
  owed _ := 0

theorem A_eq9 (a0 : (pcfg9 (F := F)).Adm) (Vin : Dev nD → Valuation τ sig (Elt F)) (c : Dev nD) (w : Fin (cfg9 a0).W) :
    (dat9 a0 Vin c).A w = Vr Vin c (Pipeline.arrRef spec9 w) := by dsimp only [dat9]
theorem after9_0 (a0 : (pcfg9 (F := F)).Adm) (Vin : Dev nD → Valuation τ sig (Elt F)) (c : Dev nD) (t : Fin (cfg9 a0).N) :
    (dat9 a0 Vin c).after 0 t = iblk9 a0 Vin c 0 t := by dsimp only [dat9]; rfl
theorem after9_1 (a0 : (pcfg9 (F := F)).Adm) (Vin : Dev nD → Valuation τ sig (Elt F)) (c : Dev nD) (t : Fin (cfg9 a0).N) :
    (dat9 a0 Vin c).after 1 t = (((cfg9 a0).win 1).blk t).view.read (Elt F) (gout9 a0 Vin c) := by dsimp only [dat9]; rfl
theorem Phi_eq9 (a0 : (pcfg9 (F := F)).Adm) (Vin : Dev nD → Valuation τ sig (Elt F)) (c : Dev nD) (t : Fin ((cfg9 a0).N + 1)) :
    (dat9 a0 Vin c).Φ t = Phi9 a0 Vin c := rfl
theorem owed_eq9 (a0 : (pcfg9 (F := F)).Adm) (Vin : Dev nD → Valuation τ sig (Elt F)) (c : Dev nD) (t : Fin ((cfg9 a0).N + 1)) :
    (dat9 a0 Vin c).owed t = 0 := rfl
theorem q_eq9 (a0 : (pcfg9 (F := F)).Adm) (Vin : Dev nD → Valuation τ sig (Elt F)) (c : Dev nD) (w : Fin (cfg9 a0).W) :
    (dat9 a0 Vin c).q w = fullShare := rfl

/-- The pinned family's configuration at region 9 is this one. -/
example (a : (p : Fin 34) → (pcfgs (F := F) p).Adm) : Pipeline.pin (pcfgs (F := F)) a (9 : Fin 34) = (pcfg9 (F := F)).at (a (9 : Fin 34)) := rfl

end Cert.KernelIdeal.Hand

end
-- ==== Proof.KI.GatherBody9.lean ====
/-
  Gather region 9 (custom_call 9): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat9
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk9 (c : Dev nD) (i : grid9.Coords) (tbl : Bf (F := F) c (Memref.whole main_v62)) : Prop where
  h1 : k9_chk1 (tblWord9 c i tbl 0)
  h2 : k9_chk2 (tblWord9 c i tbl 1)
  h3 : k9_chk3 (tblWord9 c i tbl 2)
  h4 : k9_chk4 (tblWord9 c i tbl 3)
  h5 : k9_chk5 (tblWord9 c i tbl 4)
  h6 : k9_chk6 (tblWord9 c i tbl 5)
  h7 : k9_chk7 (tblWord9 c i tbl 6)
  h8 : k9_chk8 (tblWord9 c i tbl 7)

/-- A one-row slice of the embedding array at the row a word names, read at lane `z 1`: the array's element there. -/
theorem rowRead9 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun9 (c : Dev nD) (i : grid9.Coords)
    (M3 : Memref sig .tc .vmem S8x1 .f32) (h3 : M3.IsWhole) (M4 : Memref sig .tc .vmem S8x128 .f32) (h4 : M4.IsWhole)
    (tbl : Bf (F := F) c (Memref.whole main_v62)) (x : Bf (F := F) c (Memref.whole main_arg0))
    (vb : Vec F S8x1 .f32) (hchk : GatherChk9 c i tbl) (Q : PUnit → sProp (MM F)) :
    iprop(pt c (Memref.whole main_v62) tbl ∗ pt c (Memref.whole main_arg0) x
      ∗ owns (c : Thread nD τ) M3 fullShare vb ∗ (∃ d, owns (c : Thread nD τ) M4 fullShare d)
      ∗ (∃ fs, pt c (Memref.whole cc9_scratch0) fs) ∗ sems9 c ∗ (∃ W, owes (c : Thread nD τ) (0 : CellTallies nD τ sig Unit) W)
      ∗ (iprop(pt c (Memref.whole main_v62) tbl ∗ pt c (Memref.whole main_arg0) x
          ∗ owns (c : Thread nD τ) M3 fullShare vb ∗ owns (c : Thread nD τ) M4 fullShare (gatherBlk x (tblWord9 c i tbl) vb)
          ∗ (∃ fs, pt c (Memref.whole cc9_scratch0) fs) ∗ sems9 c ∗ (∃ W, owes (c : Thread nD τ) (0 : CellTallies nD τ sig Unit) W)) -∗ Q ⟨⟩))
    ⊢ wp frame (wpE (defs₀ (F := F)) 𝒱₀ c none) Set.univ
        (cc9__gather_kernel i (Memref.whole main_v62) (Memref.isWhole_whole _) (Memref.whole main_arg0) (Memref.isWhole_whole _) M3 h3 M4 h4
          (Memref.whole cc9_scratch0) (Memref.isWhole_whole _) cc9_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 112).1 $$ Hx
  icases Hx' with ⟨Hxr, Hx0, Hx1, Hx2, Hx3, Hx4, Hx5, Hx6, Hx7⟩
  sl_unfold [cc9__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 112).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k9_pay1 gatherBlk
    show FloatOps.mulf _ _ = FloatOps.mulf _ _
    congr 1
    · unfold gatherRun9.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun9.sl.dma8 gatherRun9.sl.dma8_1 gatherRun9.sl.dma8_2 gatherRun9.sl.dma8_3 gatherRun9.sl.dma8_4 gatherRun9.sl.dma8_5
        gatherRun9.sl.dma8_6 gatherRun9.sl.dma8_7 gatherRun9.sl.r gatherRun9.sl.r_1 gatherRun9.sl.r_2 gatherRun9.sl.r_3 gatherRun9.sl.r_4
        gatherRun9.sl.r_5 gatherRun9.sl.r_6 gatherRun9.sl.r_7
      refine canonRows8 _ _ _ _ _ _ _ _ _ _ _ _ _ _ _ _ (fun r d => x (embIdx (rowOf (tblWord9 c i tbl r)) d)) ?_ ?_ ?_ ?_ ?_ ?_ ?_ ?_ y
      · exact fun z => rowRead9 c _ (tblWord9 c i tbl 0) rfl rfl _ _ x z
      · exact fun z => rowRead9 c _ (tblWord9 c i tbl 1) rfl rfl _ _ x z
      · exact fun z => rowRead9 c _ (tblWord9 c i tbl 2) rfl rfl _ _ x z
      · exact fun z => rowRead9 c _ (tblWord9 c i tbl 3) rfl rfl _ _ x z
      · exact fun z => rowRead9 c _ (tblWord9 c i tbl 4) rfl rfl _ _ x z
      · exact fun z => rowRead9 c _ (tblWord9 c i tbl 5) rfl rfl _ _ x z
      · exact fun z => rowRead9 c _ (tblWord9 c i tbl 6) rfl rfl _ _ x z
      · exact fun z => rowRead9 c _ (tblWord9 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk9.lean ====
/-
  Gather region 9 (custom_call 9): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat9
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word9 (i : grid9.Coords) (j : Fin 8) : k9_off1 i (BitVec.ofNat 32 j.val) 0 = (i 0).val * 8 + j.val := by
  have hi : (i 0).val < 16384 := (i 0).isLt
  have hj : j.val < 8 := j.isLt
  unfold k9_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word9 (i : grid9.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord9_eq (c : Dev nD) (i : grid9.Coords) (tbl : Bf (F := F) c (Memref.whole main_v62)) (j : Fin 8)
    (e : Fin 131072) (he : e.val = (i 0).val * 8 + j.val) : tblWord9 c i tbl j = tbl (tblIdx e) := by
  unfold tblWord9
  show tbl _ = tbl _
  refine congrArg tbl ?_
  funext a; apply Fin.ext
  match a with
  | ⟨0, _⟩ =>
    show k9_off1 i (BitVec.ofNat 32 j.val) 0 + 1 * 0 = e.val
    rw [off_word9, he]; omega

/-- Row `j` of the value window's block at point `t` is the value array's row `8 t + j`. -/
theorem valBlk9_eq (a0 : (pcfg9 (F := F)).Adm) (Vin : Dev nD → Valuation τ sig (Elt F)) (c : Dev nD) (t : Fin (cfg9 a0).N)
    (j : Fin 8) (e : Fin 131072) (he : e.val = ((grid9.coords t) 0).val * 8 + j.val) :
    iblk9 a0 Vin c 0 t (colIdx j) = Vr Vin c main_v63 (valIdx e) := by
  unfold iblk9
  show Vr Vin c main_v63 _ = Vr Vin c main_v63 _
  refine congrArg (Vr Vin c main_v63) ?_
  funext a; apply Fin.ext
  match a with
  | ⟨0, _⟩ =>
    show (BitVec.ofNat 32 ((grid9.coords t) 0).val).toNat * 8 + 1 * j.val = e.val
    rw [coord_word9, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk9 (a0 : (pcfg9 (F := F)).Adm) (Vin : Dev nD → Valuation τ sig (Elt F)) (c : Dev nD) (t : Fin (cfg9 a0).N) :
    gatherBlk (Vr Vin c main_arg0) (tblWord9 c (grid9.coords t) (a0.1 0)) (iblk9 a0 Vin c 0 t)
      = (((cfg9 a0).win 1).blk t).view.read (Elt F) (gout9 a0 Vin c) := by
  funext y
  show gatherBlk _ _ _ y = gout9 a0 Vin c ((((cfg9 a0).win 1).blk t).view.emb y)
  unfold gatherBlk gout9 gatherArr
  have e0 : ((((cfg9 a0).win 1).blk t).view.emb y (0 : Fin 2)).val = ((grid9.coords t) 0).val * 8 + (y 0).val := by
    show (BitVec.ofNat 32 ((grid9.coords t) 0).val).toNat * 8 + 1 * (y 0).val = _
    rw [coord_word9]; omega
  have e1 : (((cfg9 a0).win 1).blk t).view.emb y (1 : Fin 2) = y 1 := Fin.ext (by
    show (0#32 : BitVec 32).toNat * 128 + 1 * (y 1).val = (y 1).val
    show 0 * 128 + 1 * (y 1).val = (y 1).val
    omega)
  rw [tblWord9_eq c (grid9.coords t) (a0.1 0) (y 0) _ e0, valBlk9_eq a0 Vin c t (y 0) _ e0, e1]

end Cert.KernelIdeal.Hand

end
-- ==== Proof.KI.GatherRegion9.lean ====
/-
  Gather region 9 (custom_call 9): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody9
import proofs.«414509_j14181982011419_2_alg».proof.Proof.KI.GatherBlk9
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk9 (a0 : (pcfg9 (F := F)).Adm) : Prop := ∀ e : S131072.Idx, (a0.1 0 e).toNat < 100000

/-! ## The grid and the result window's blocks -/

/-- On the one-axis grid a point's coordinate is its number. -/
theorem regCoords9 (t : Fin grid9.N) : (grid9.coords t 0).val = t.val := by
  have ht : t.val < 16384 := N_9 ▸ t.isLt
  show t.val / grid9.stride 0 % grid9.bound 0 = t.val
  rw [show grid9.stride 0 = 1 from by decide, show grid9.bound 0 = 16384 from rfl, Nat.div_one, Nat.mod_eq_of_lt ht]

/-- A point's number as the 32-bit word the index maps compute with. -/
theorem regWord9 (t : Fin grid9.N) : (BitVec.ofNat 32 (grid9.coords t 0).val).toNat = t.val := by
  have ht : t.val < 16384 := N_9 ▸ t.isLt
  rw [BitVec.toNat_ofNat, regCoords9]; omega

/-- The result window's block at point `t` is block `t` along the rows, at zero along the lanes. -/
theorem regOutIndex9 (a0 : (pcfg9 (F := F)).Adm) (t : Fin (cfg9 a0).N) : ((cfg9 a0).win 1).index t = ![t.val, 0] := by
  show cc9_transform_2 (grid9.coords t) = _
  unfold cc9_transform_2
  funext a; fin_cases a
  · exact regWord9 t
  · rfl

/-- The result window is written back at every point: consecutive points have different blocks. -/
theorem regOutFlush9 (a0 : (pcfg9 (F := F)).Adm) (t : Fin (cfg9 a0).N) : ((cfg9 a0).win 1).flush t = true := by
  have htN : t.val < 16384 := N_9 ▸ t.isLt
  rw [Pipeline.Window.flush_out _ rfl]
  by_cases h : t.val + 1 = 16384
  · exact Or.inl (show t.val + 1 = grid9.N by rw [N_9]; exact h)
  · have hlt : t.val + 1 < grid9.N := by rw [N_9]; omega
    refine Or.inr ⟨hlt, fun e => ?_⟩
    have e' : (![t.val + 1, 0] : Fin 2 → ℕ) = ![t.val, 0] := (regOutIndex9 a0 ⟨t.val + 1, hlt⟩).symm.trans (e.trans (regOutIndex9 a0 t))
    have e0 := congrFun e' 0
    simp at e0

/-- The index table, held as the pipeline's one prefetched table. -/
theorem prefHeldEq9 (a0 : (pcfg9 (F := F)).Adm) (c : Dev nD) :
    (Pipeline.prefHeld (Ix := Unit) (Name := ℕ) (U := UU nD τ) (Lvl := ℕ) pre9 c (fun _ => fullShare) a0.1 : sProp (MM F))
      = pt c (Memref.whole main_v62) (a0.1 0) := by
  unfold Pipeline.prefHeld
  rw [show (Finset.univ : Finset (Fin pre9.K)) = {0} from rfl, BI.bigSep_singleton]
  rfl

/-- The value window's staging buffer holds its block at every point. -/
theorem beforeVal9 (a0 : (pcfg9 (F := F)).Adm) (Vin : Dev nD → Valuation τ sig (Elt F)) (c : Dev nD) (t : Fin (cfg9 a0).N) (d) :
    (dat9 a0 Vin c).before 0 t d = iblk9 a0 Vin c 0 t :=
  ((dat9 a0 Vin c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)

/-! ## The kernel's checks, from the table's range -/

/-- Each of the point's eight words is a word of the table, so a row number. -/
theorem tblWordLt9 (a0 : (pcfg9 (F := F)).Adm) (hok : GatherOk9 a0) (c : Dev nD) (i : grid9.Coords) (j : Fin 8) :
    (tblWord9 c i (a0.1 0) j).toNat < 100000 := by
  unfold tblWord9
  exact hok _

/-- So the kernel's eight checks hold at every point. -/
theorem gatherChk9 (a0 : (pcfg9 (F := F)).Adm) (hok : GatherOk9 a0) (c : Dev nD) (i : grid9.Coords) : GatherChk9 c i (a0.1 0) :=
  ⟨⟨chkRow _ (tblWordLt9 a0 hok c i 0), chkRow _ (tblWordLt9 a0 hok c i 0)⟩,
   ⟨chkRow _ (tblWordLt9 a0 hok c i 1), chkRow _ (tblWordLt9 a0 hok c i 1)⟩,
   ⟨chkRow _ (tblWordLt9 a0 hok c i 2), chkRow _ (tblWordLt9 a0 hok c i 2)⟩,
   ⟨chkRow _ (tblWordLt9 a0 hok c i 3), chkRow _ (tblWordLt9 a0 hok c i 3)⟩,
   ⟨chkRow _ (tblWordLt9 a0 hok c i 4), chkRow _ (tblWordLt9 a0 hok c i 4)⟩,
   ⟨chkRow _ (tblWordLt9 a0 hok c i 5), chkRow _ (tblWordLt9 a0 hok c i 5)⟩,
   ⟨chkRow _ (tblWordLt9 a0 hok c i 6), chkRow _ (tblWordLt9 a0 hok c i 6)⟩,
   chkRow _ (tblWordLt9 a0 hok c i 7)⟩

/-! ## The body obligation, at a generic point -/

/-- What the body is called with at point `t`: the invariant, the core's dues, each window's current staging memref at
    what the pipeline left there, -/
def bodyPre9 (a0 : (pcfg9 (F := F)).Adm) (Vin : Dev nD → Valuation τ sig (Elt F)) (c : Dev nD) (t : Fin (cfg9 a0).N) : sProp (MM F) :=
  iprop((dat9 a0 Vin c).Φ t.castSucc ∗ (dat9 a0 Vin c).owesAt () t.castSucc
    ∗ (∃ d, owns (c : Thread nD τ) (((cfg9 a0).win 0).stage ((cfg9 a0).slots t 0)) fullShare ((dat9 a0 Vin c).before 0 t d))
    ∗ (∃ d, owns (c : Thread nD τ) (((cfg9 a0).win 1).stage ((cfg9 a0).slots t 1)) fullShare ((dat9 a0 Vin c).before 1 t d)))

/-- and what it returns. -/
def bodyPost9 (a0 : (pcfg9 (F := F)).Adm) (Vin : Dev nD → Valuation τ sig (Elt F)) (c : Dev nD) (t : Fin (cfg9 a0).N) : sProp (MM F) :=
  iprop((dat9 a0 Vin c).Φ t.succ ∗ (dat9 a0 Vin c).owesAt () t.succ
    ∗ owns (c : Thread nD τ) (((cfg9 a0).win 0).stage ((cfg9 a0).slots t 0)) fullShare ((dat9 a0 Vin c).after 0 t)
    ∗ owns (c : Thread nD τ) (((cfg9 a0).win 1).stage ((cfg9 a0).slots t 1)) fullShare ((dat9 a0 Vin c).after 1 t))

/-- The body at any point: the invariant opened into the embedding array, the semaphores, the table and the scratch;
    the value window's memref at its block; the checks from the table's range; so the kernel's run applies, and what it
    leaves in the result window's memref is the point's block of the gathered array. -/
theorem sound_body9 (a0 : (pcfg9 (F := F)).Adm) (hok : GatherOk9 a0) (Vin : Dev nD → Valuation τ sig (Elt F)) (c : Dev nD) (t : Fin (cfg9 a0).N) :
    bodyPre9 a0 Vin c t ⊢ wp frame (wpE (defs₀ (F := F)) 𝒱₀ c none) Set.univ
      (defs₀ .tc (cfg9 a0).body ((cfg9 a0).bodyArgs t ((cfg9 a0).slots t))) (fun _ => bodyPost9 a0 Vin c t) := by
  unfold bodyPre9 bodyPost9
  simp only [beforeVal9]
  rw [Phi_eq9, Phi_eq9, after9_0, after9_1, ← gatherBlk_blk9]
  unfold Phi9 Pipeline.Dat.owesAt Pipeline.owesWithin
  rw [owed_eq9, owed_eq9, prefHeldEq9, scopedRest9_split]
  iintro ⟨⟨Hx, Hos, Ht, ⟨%fs, Hs⟩, Hsb⟩, ⟨%W, %hW, HO⟩, ⟨%d0, H0⟩, ⟨%d1, H1⟩⟩
  iapply (gatherRun9 c (grid9.coords t) _ _ _ _ (a0.1 0) (Vr Vin c main_arg0) (iblk9 a0 Vin c 0 t) (gatherChk9 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation9 (a0 : (pcfg9 (F := F)).Adm) (hok : GatherOk9 a0) (Vin : Dev nD → Valuation τ sig (Elt F)) (c : Dev nD) :
    BodyObligation (dat9 a0 Vin c) (defs₀ (F := F)) 𝒱₀ () Set.univ := fun t => by
  rw [bigSep_W9, bigSep_W9]
  exact sound_body9 a0 hok Vin c t

/-! ## From the blocks to the arrays -/

/-- The value array after the region: as entered. -/
theorem arrAt9_in (a0 : (pcfg9 (F := F)).Adm) (Vin : Dev nD → Valuation τ sig (Elt F)) (c : Dev nD) :
    (dat9 a0 Vin c).arrAt 0 (cfg9 a0).N = Vr Vin c main_v63 :=
  ((dat9 a0 Vin c).arrAt_in 0 rfl _).trans (A_eq9 a0 Vin c 0)

/-- Every index of the result array is in some point's block: row `e`, lane `d` is element `(e % 8, d)` of the block
    of point `e / 8`. -/
theorem regOutCover9 (a0 : (pcfg9 (F := F)).Adm) (i : S131072x128.Idx) :
    ∃ t : Fin (cfg9 a0).N, ((cfg9 a0).win 1).flush t = true ∧ i ∈ (((cfg9 a0).win 1).blk t).view.set := by
  have hi0 : (i 0).val < 131072 := (i 0).isLt
  have hi1 : (i 1).val < 128 := (i 1).isLt
  have hN : (i 0).val / 8 < grid9.N := by rw [N_9]; omega
  obtain ⟨t, ht⟩ : ∃ t : Fin (cfg9 a0).N, t.val = (i 0).val / 8 := ⟨⟨_, hN⟩, rfl⟩
  have hx : (((cfg9 a0).win 1).blk t).view.emb (ValueIdx.ix2 ⟨(i 0).val % 8, Nat.mod_lt _ (by decide)⟩ (i 1)) = i := by
    funext a; apply Fin.ext
    have e0 : ((cfg9 a0).win 1).index t (0 : Fin 2) = t.val := congrFun (regOutIndex9 a0 t) (0 : Fin 2)
    have e1 : ((cfg9 a0).win 1).index t (1 : Fin 2) = 0 := congrFun (regOutIndex9 a0 t) (1 : Fin 2)
    match a with
    | ⟨0, _⟩ => show ((cfg9 a0).win 1).index t (0 : Fin 2) * 8 + 1 * ((i 0).val % 8) = (i 0).val; omega
    | ⟨1, _⟩ => show ((cfg9 a0).win 1).index t (1 : Fin 2) * 128 + 1 * (i 1).val = (i 1).val; omega
  exact ⟨t, regOutFlush9 a0 t, hx ▸ (((cfg9 a0).win 1).blk t).view.emb_mem_set _⟩

/-- The result array after the region: the gathered and scaled rows, whole. -/
theorem arrAt9_out (a0 : (pcfg9 (F := F)).Adm) (Vin : Dev nD → Valuation τ sig (Elt F)) (c : Dev nD) :
    (dat9 a0 Vin c).arrAt 1 (cfg9 a0).N = gout9 a0 Vin c :=
  (dat9 a0 Vin c).arrAt_eq_of_cover 1 (gout9 a0 Vin c)
    (fun t _ => by
      show ((cfg9 a0).win 1).cut ((cfg9 a0).grid.coords t) ((dat9 a0 Vin c).after 1 t) = _
      rw [after9_1])
    (regOutCover9 a0)

/-! ## The region as a segment of @main -/

/-- The ownership layout of the kernel's eight semaphores. -/
theorem ownSemFacts9 : Pipeline.OwnSemFacts spec9 osem9 := by decide

/-- The kernel's own cells at zero, listed. -/
theorem ownSemsListed9 (c : Dev nD) :
    (Pipeline.ownSems0 (Ix := Unit) (Name := ℕ) (U := UU nD τ) (Lvl := ℕ) (Val := Elt F) (τ := τ) osem9 c : sProp (MM F)) = sems9 c :=
  Pipeline.ownSems0_eq_of_list c osem9 [0, 1, 2, 3, 4, 5, 6, 7] (by decide) (by decide)

/-- The unscoped buffers that are no window's array, no table, and not the embedding array. -/
abbrev restRefs9 : Finset (Ref sig .tc) :=
  (((Finset.univ.filter fun b : Ref sig .tc => ¬ b.isScoped) \ Finset.univ.image (Pipeline.arrRef spec9)) \ Finset.univ.image pre9.ref) \ {main_arg0}

/-- Those buffers, each whole at its contents under `Vin`: what bypasses the region. -/
def Zrest9 (Vin : Dev nD → Valuation τ sig (Elt F)) (c : Dev nD) : sProp (MM F) :=
  bigSep restRefs9 fun b => ((c : Thread nD τ).loc b) ↦{fullShare} Vr Vin c b

/-- The embedding array is an unscoped buffer that is no window's array and no table. -/
theorem embArrMem9 : ({main_arg0} : Finset (Ref sig .tc)) ⊆
    ((Finset.univ.filter fun b : Ref sig .tc => ¬ b.isScoped) \ Finset.univ.image (Pipeline.arrRef spec9)) \ Finset.univ.image pre9.ref := by
  decide

/-- The unscoped buffers that are no window's array: the index table, the embedding array, and the rest. -/
theorem unscopedRestOpen9 (Vin : Dev nD → Valuation τ sig (Elt F)) (c : Dev nD) :
    (Pipeline.unscopedRest (Ix := Unit) (Name := ℕ) (U := UU nD τ) (Lvl := ℕ) spec9 c (Vr Vin c) : sProp (MM F))
      = iprop(Pipeline.prefHeld pre9 c (fun _ => fullShare) (fun k => Vr Vin c (pre9.ref k))
          ∗ pt c (Memref.whole main_arg0) (Vr Vin c main_arg0) ∗ Zrest9 Vin c) := by
  rw [Pipeline.unscopedRest_split preFacts9 c (Vr Vin c)]
  unfold Pipeline.unscopedRestP Zrest9
  rw [BI.bigSep_sdiff_split embArrMem9, BI.bigSep_singleton]
  rfl

/-- The buffer contents when the region is left: the result array at the gathered rows, every other buffer as entered. -/
abbrev Vout9 (a0 : (pcfg9 (F := F)).Adm) (Vin : Dev nD → Valuation τ sig (Elt F)) (c : Dev nD) : Valuation τ sig (Elt F) :=
  Function.update (Vin c) main_v64 (gout9 a0 Vin c)

/-- At the exit each of the region's arrays holds what the pipeline leaves; -/
theorem hF9 (a0 : (pcfg9 (F := F)).Adm) (Vin : Dev nD → Valuation τ sig (Elt F)) (c : Dev nD) (w : Fin (cfg9 a0).W) :
    (dat9 a0 Vin c).arrAt w (cfg9 a0).N = Vr (Vout9 a0 Vin) c (Pipeline.arrRef spec9 w) := by
  match w with
  | ⟨0, _⟩ =>
    show (dat9 a0 Vin c).arrAt 0 (cfg9 a0).N = Vr (Vout9 a0 Vin) c (Pipeline.arrRef spec9 0)
    rw [arrAt9_in]
    exact (Function.update_of_ne (StableHlo.devRef_ne_of_ne (by decide) : (Proc.devRef .tc main_v63 : DevRef τ sig) ≠ Proc.devRef .tc main_v64) _ _).symm
  | ⟨1, _⟩ =>
    show (dat9 a0 Vin c).arrAt 1 (cfg9 a0).N = Vr (Vout9 a0 Vin) c (Pipeline.arrRef spec9 1)
    rw [arrAt9_out]
    exact (Function.update_self (Proc.devRef .tc main_v64 : DevRef τ sig) _ (Vin c)).symm

/-- and every other buffer what it held at entry. -/
theorem hrest9 (a0 : (pcfg9 (F := F)).Adm) (Vin : Dev nD → Valuation τ sig (Elt F)) (c : Dev nD) :
    ∀ b : Ref sig .tc, b ∉ Finset.univ.image (Pipeline.arrRef spec9) → Vr (Vout9 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat9` at the entry valuation `Vin`
    (`hd`), the index table's contents under `Vin` being the pinned ones (`htbl`) and row numbers (`hok`). -/
def reg9 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk9 (F := F) (a (9 : Fin 34)))
    (hd : ∀ c, pdats (9 : Fin 34) c = dat9 (a (9 : Fin 34)) Vin c) (htbl : ∀ c, (a (9 : Fin 34)).1 = fun k => Vr Vin c (pre9.ref k)) :
    Pipeline.RegionSeg (pcfgs (F := F)) a pdats () defs₀ 𝒱₀ L lv (9 : Fin 34) where
  win := (launch9 (F := F)).win.to₀
  block_pos := (launch9 (F := F)).block_pos
  stage_whole := (launch9 (F := F)).stage_whole
  K := Fin 8
  osem := osem9
  ho := ownSemFacts9
  hbody c := by rw [hd c]; exact (body_obligation9 (a (9 : Fin 34)) hok Vin c).loose
  hwaits := Pipeline.hwaits_of_owed_zero _ _ _ _ L lv (9 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v64 (gout9 (a (9 : Fin 34)) Vin c)) ∗ Rest c)
  X c := iprop(pt c (Memref.whole main_arg0) (Vr Vin c main_arg0) ∗ sems9 c)
  Y c := iprop(pt c (Memref.whole main_arg0) (Vr Vin c main_arg0)
    ∗ Pipeline.prefHeld (Ix := Unit) (Name := ℕ) (U := UU nD τ) (Lvl := ℕ) pre9 c (fun _ => fullShare) (a (9 : Fin 34)).1)
  Z c := Zrest9 Vin c
  hentry c := by
    rw [ownSemsListed9]
    have hsplit := Pipeline.arrays_of_unscopedBufs (p := (9 : Fin 34)) (pcfgs (F := F)) a pdats (launch9 (F := F)).win (launch9 (F := F)).arr_whole c
      ((pdats (9 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen9 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (9 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq9]; unfold Phi9
    iintro ⟨⟨Hx, Hos⟩, Ht, Hr⟩
    isplitl [Hx]; · iexact Hx
    isplitl [Hos]; · iexact Hos
    isplitl [Ht]; · iexact Ht
    iexact Hr
  hout c := by
    rw [ownSemsListed9, hd c, Phi_eq9]; unfold Phi9
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (9 : Fin 34)) (pcfgs (F := F)) a (Ix := Unit) (Name := ℕ) (U := UU nD τ) (Lvl := ℕ)
      (launch9 (F := F)).win (launch9 (F := F)).arr_whole c pdats ((pdats (9 : Fin 34) c).share_full fun _ => by rw [hd c]; rfl)
      (Vr Vin c) (Vr (Vout9 (a (9 : Fin 34)) Vin) c) ((pdats (9 : Fin 34) c).arrAt · (cfg9 (a (9 : Fin 34))).N)
      (fun w => by rw [hd c]; exact hF9 (a (9 : Fin 34)) Vin c w) (hrest9 (a (9 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen9 Vin c).symm)
      isplitl [Ht]; · rw [← htbl c]; iexact Ht
      isplitl [Hx]; · iexact Hx
      iexact Hz
    unfold Pipeline.Dat.owesAt Pipeline.owesWithin
    rw [show (pdats (9 : Fin 34) c).owed (Fin.last _) = 0 from by rw [hd c]; rfl]
    icases HO with ⟨%W, -, HO⟩; iexists W; iexact HO

end Cert.KernelIdeal.Hand

end
-- ==== Proof.KI.GatherDat10.lean ====
/-
  Gather region 10 (custom_call 10): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem10 : Fin 8 → SemLoc sig := fun | 0 => .dma 124 | 1 => .dma 125 | 2 => .dma 126 | 3 => .dma 127 | 4 => .dma 128 | 5 => .dma 129 | 6 => .dma 130 | 7 => .dma 131

/-- The eight counters at zero, as the run finds them and hands them back. -/
abbrev sems10 (c : Dev nD) : sProp (MM F) :=
  iprop(semVal ((c : Thread nD τ), osem10 0) 0 ∗ semVal ((c : Thread nD τ), osem10 1) 0 ∗ semVal ((c : Thread nD τ), osem10 2) 0
    ∗ semVal ((c : Thread nD τ), osem10 3) 0 ∗ semVal ((c : Thread nD τ), osem10 4) 0 ∗ semVal ((c : Thread nD τ), osem10 5) 0
    ∗ semVal ((c : Thread nD τ), osem10 6) 0 ∗ semVal ((c : Thread nD τ), osem10 7) 0)

/-- Word `j` of the eight the index table holds for point `i`, as the kernel's scalar load reads it. -/
def tblWord10 (c : Dev nD) (i : grid10.Coords) (tbl : Bf (F := F) c (Memref.whole main_v65)) (j : Fin 8) : BitVec 32 :=
  (Memref.whole main_v65).view.readAt (Elt F) (Rect.unit (s := S131072) (k10_off1 i (BitVec.ofNat 32 j.val)) S1.size (k10_off1_inb i j)).toLoadRect tbl
    (Shape.Idx.first (s := S1) (numel1_S1.symm ▸ Nat.one_pos))

/-- Window `w`'s block at point `t`, read off its array at the region's entry. -/
def iblk10 (a0 : (pcfg10 (F := F)).Adm) (Vin : Dev nD → Valuation τ sig (Elt F)) (c : Dev nD) (w : Fin (cfg10 a0).W) (t : Fin (cfg10 a0).N) :
    (((cfg10 a0).win w).xblock ((cfg10 a0).grid.coords t)).Idx → Elt F ((cfg10 a0).win w).elt :=
  (((cfg10 a0).win w).blk t).view.read (Elt F) (Vr Vin c (Pipeline.arrRef spec10 w))

/-- The result array the region leaves: the gathered and scaled rows of the embedding array, whole. -/
def gout10 (a0 : (pcfg10 (F := F)).Adm) (Vin : Dev nD → Valuation τ sig (Elt F)) (c : Dev nD) : Buf (Elt F) ((c : Thread nD τ).loc main_v67) :=
  gatherArr (Vr Vin c main_arg0) (a0.1 0) (Vr Vin c main_v66)

/-- The invariant between points: the embedding array as entered, the kernel's semaphores at zero, the index table, the
    scoped buffers no window stages (the kernel's scratch among them). -/
def Phi10 (a0 : (pcfg10 (F := F)).Adm) (Vin : Dev nD → Valuation τ sig (Elt F)) (c : Dev nD) : sProp (MM F) :=
  iprop(pt c (Memref.whole main_arg0) (Vr Vin c main_arg0) ∗ sems10 c
    ∗ Pipeline.prefHeld (Ix := Unit) (Name := ℕ) (U := UU nD τ) (Lvl := ℕ) pre10 c (fun _ => fullShare) a0.1
    ∗ Pipeline.scopedRest (Ix := Unit) (Name := ℕ) (U := UU nD τ) (Lvl := ℕ) (Val := Elt F) spec10 c)

/-- The proof data on core `c`. -/
def dat10 (a0 : (pcfg10 (F := F)).Adm) (Vin : Dev nD → Valuation τ sig (Elt F)) (c : Dev nD) :
    Pipeline.Dat τ (Elt F) Unit ℕ (UU nD τ) ℕ ((pcfg10 (F := F)).at a0) c where
  A w := Vr Vin c (Pipeline.arrRef spec10 w)
  after w t := match w with
    | ⟨0, _⟩ => iblk10 a0 Vin c 0 t
    | ⟨1, _⟩ => (((cfg10 a0).win 1).blk t).view.read (Elt F) (gout10 a0 Vin c)
  Φ _ := Phi10 a0 Vin c
  q _ := fullShare
  owed _ := 0

theorem A_eq10 (a0 : (pcfg10 (F := F)).Adm) (Vin : Dev nD → Valuation τ sig (Elt F)) (c : Dev nD) (w : Fin (cfg10 a0).W) :
    (dat10 a0 Vin c).A w = Vr Vin c (Pipeline.arrRef spec10 w) := by dsimp only [dat10]
theorem after10_0 (a0 : (pcfg10 (F := F)).Adm) (Vin : Dev nD → Valuation τ sig (Elt F)) (c : Dev nD) (t : Fin (cfg10 a0).N) :
    (dat10 a0 Vin c).after 0 t = iblk10 a0 Vin c 0 t := by dsimp only [dat10]; rfl
theorem after10_1 (a0 : (pcfg10 (F := F)).Adm) (Vin : Dev nD → Valuation τ sig (Elt F)) (c : Dev nD) (t : Fin (cfg10 a0).N) :
    (dat10 a0 Vin c).after 1 t = (((cfg10 a0).win 1).blk t).view.read (Elt F) (gout10 a0 Vin c) := by dsimp only [dat10]; rfl
theorem Phi_eq10 (a0 : (pcfg10 (F := F)).Adm) (Vin : Dev nD → Valuation τ sig (Elt F)) (c : Dev nD) (t : Fin ((cfg10 a0).N + 1)) :
    (dat10 a0 Vin c).Φ t = Phi10 a0 Vin c := rfl
theorem owed_eq10 (a0 : (pcfg10 (F := F)).Adm) (Vin : Dev nD → Valuation τ sig (Elt F)) (c : Dev nD) (t : Fin ((cfg10 a0).N + 1)) :
    (dat10 a0 Vin c).owed t = 0 := rfl
theorem q_eq10 (a0 : (pcfg10 (F := F)).Adm) (Vin : Dev nD → Valuation τ sig (Elt F)) (c : Dev nD) (w : Fin (cfg10 a0).W) :
    (dat10 a0 Vin c).q w = fullShare := rfl

/-- The pinned family's configuration at region 10 is this one. -/
example (a : (p : Fin 34) → (pcfgs (F := F) p).Adm) : Pipeline.pin (pcfgs (F := F)) a (10 : Fin 34) = (pcfg10 (F := F)).at (a (10 : Fin 34)) := rfl

end Cert.KernelIdeal.Hand

end
-- ==== Proof.KI.GatherBody10.lean ====
/-
  Gather region 10 (custom_call 10): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat10
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk10 (c : Dev nD) (i : grid10.Coords) (tbl : Bf (F := F) c (Memref.whole main_v65)) : Prop where
  h1 : k10_chk1 (tblWord10 c i tbl 0)
  h2 : k10_chk2 (tblWord10 c i tbl 1)
  h3 : k10_chk3 (tblWord10 c i tbl 2)
  h4 : k10_chk4 (tblWord10 c i tbl 3)
  h5 : k10_chk5 (tblWord10 c i tbl 4)
  h6 : k10_chk6 (tblWord10 c i tbl 5)
  h7 : k10_chk7 (tblWord10 c i tbl 6)
  h8 : k10_chk8 (tblWord10 c i tbl 7)

/-- A one-row slice of the embedding array at the row a word names, read at lane `z 1`: the array's element there. -/
theorem rowRead10 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun10 (c : Dev nD) (i : grid10.Coords)
    (M3 : Memref sig .tc .vmem S8x1 .f32) (h3 : M3.IsWhole) (M4 : Memref sig .tc .vmem S8x128 .f32) (h4 : M4.IsWhole)
    (tbl : Bf (F := F) c (Memref.whole main_v65)) (x : Bf (F := F) c (Memref.whole main_arg0))
    (vb : Vec F S8x1 .f32) (hchk : GatherChk10 c i tbl) (Q : PUnit → sProp (MM F)) :
    iprop(pt c (Memref.whole main_v65) tbl ∗ pt c (Memref.whole main_arg0) x
      ∗ owns (c : Thread nD τ) M3 fullShare vb ∗ (∃ d, owns (c : Thread nD τ) M4 fullShare d)
      ∗ (∃ fs, pt c (Memref.whole cc10_scratch0) fs) ∗ sems10 c ∗ (∃ W, owes (c : Thread nD τ) (0 : CellTallies nD τ sig Unit) W)
      ∗ (iprop(pt c (Memref.whole main_v65) tbl ∗ pt c (Memref.whole main_arg0) x
          ∗ owns (c : Thread nD τ) M3 fullShare vb ∗ owns (c : Thread nD τ) M4 fullShare (gatherBlk x (tblWord10 c i tbl) vb)
          ∗ (∃ fs, pt c (Memref.whole cc10_scratch0) fs) ∗ sems10 c ∗ (∃ W, owes (c : Thread nD τ) (0 : CellTallies nD τ sig Unit) W)) -∗ Q ⟨⟩))
    ⊢ wp frame (wpE (defs₀ (F := F)) 𝒱₀ c none) Set.univ
        (cc10__gather_kernel i (Memref.whole main_v65) (Memref.isWhole_whole _) (Memref.whole main_arg0) (Memref.isWhole_whole _) M3 h3 M4 h4
          (Memref.whole cc10_scratch0) (Memref.isWhole_whole _) cc10_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 124).1 $$ Hx
  icases Hx' with ⟨Hxr, Hx0, Hx1, Hx2, Hx3, Hx4, Hx5, Hx6, Hx7⟩
  sl_unfold [cc10__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 124).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k10_pay1 gatherBlk
    show FloatOps.mulf _ _ = FloatOps.mulf _ _
    congr 1
    · unfold gatherRun10.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun10.sl.dma8 gatherRun10.sl.dma8_1 gatherRun10.sl.dma8_2 gatherRun10.sl.dma8_3 gatherRun10.sl.dma8_4 gatherRun10.sl.dma8_5
        gatherRun10.sl.dma8_6 gatherRun10.sl.dma8_7 gatherRun10.sl.r gatherRun10.sl.r_1 gatherRun10.sl.r_2 gatherRun10.sl.r_3 gatherRun10.sl.r_4
        gatherRun10.sl.r_5 gatherRun10.sl.r_6 gatherRun10.sl.r_7
      refine canonRows8 _ _ _ _ _ _ _ _ _ _ _ _ _ _ _ _ (fun r d => x (embIdx (rowOf (tblWord10 c i tbl r)) d)) ?_ ?_ ?_ ?_ ?_ ?_ ?_ ?_ y
      · exact fun z => rowRead10 c _ (tblWord10 c i tbl 0) rfl rfl _ _ x z
      · exact fun z => rowRead10 c _ (tblWord10 c i tbl 1) rfl rfl _ _ x z
      · exact fun z => rowRead10 c _ (tblWord10 c i tbl 2) rfl rfl _ _ x z
      · exact fun z => rowRead10 c _ (tblWord10 c i tbl 3) rfl rfl _ _ x z
      · exact fun z => rowRead10 c _ (tblWord10 c i tbl 4) rfl rfl _ _ x z
      · exact fun z => rowRead10 c _ (tblWord10 c i tbl 5) rfl rfl _ _ x z
      · exact fun z => rowRead10 c _ (tblWord10 c i tbl 6) rfl rfl _ _ x z
      · exact fun z => rowRead10 c _ (tblWord10 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk10.lean ====
/-
  Gather region 10 (custom_call 10): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat10
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word10 (i : grid10.Coords) (j : Fin 8) : k10_off1 i (BitVec.ofNat 32 j.val) 0 = (i 0).val * 8 + j.val := by
  have hi : (i 0).val < 16384 := (i 0).isLt
  have hj : j.val < 8 := j.isLt
  unfold k10_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word10 (i : grid10.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord10_eq (c : Dev nD) (i : grid10.Coords) (tbl : Bf (F := F) c (Memref.whole main_v65)) (j : Fin 8)
    (e : Fin 131072) (he : e.val = (i 0).val * 8 + j.val) : tblWord10 c i tbl j = tbl (tblIdx e) := by
  unfold tblWord10
  show tbl _ = tbl _
  refine congrArg tbl ?_
  funext a; apply Fin.ext
  match a with
  | ⟨0, _⟩ =>
    show k10_off1 i (BitVec.ofNat 32 j.val) 0 + 1 * 0 = e.val
    rw [off_word10, he]; omega

/-- Row `j` of the value window's block at point `t` is the value array's row `8 t + j`. -/
theorem valBlk10_eq (a0 : (pcfg10 (F := F)).Adm) (Vin : Dev nD → Valuation τ sig (Elt F)) (c : Dev nD) (t : Fin (cfg10 a0).N)
    (j : Fin 8) (e : Fin 131072) (he : e.val = ((grid10.coords t) 0).val * 8 + j.val) :
    iblk10 a0 Vin c 0 t (colIdx j) = Vr Vin c main_v66 (valIdx e) := by
  unfold iblk10
  show Vr Vin c main_v66 _ = Vr Vin c main_v66 _
  refine congrArg (Vr Vin c main_v66) ?_
  funext a; apply Fin.ext
  match a with
  | ⟨0, _⟩ =>
    show (BitVec.ofNat 32 ((grid10.coords t) 0).val).toNat * 8 + 1 * j.val = e.val
    rw [coord_word10, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk10 (a0 : (pcfg10 (F := F)).Adm) (Vin : Dev nD → Valuation τ sig (Elt F)) (c : Dev nD) (t : Fin (cfg10 a0).N) :
    gatherBlk (Vr Vin c main_arg0) (tblWord10 c (grid10.coords t) (a0.1 0)) (iblk10 a0 Vin c 0 t)
      = (((cfg10 a0).win 1).blk t).view.read (Elt F) (gout10 a0 Vin c) := by
  funext y
  show gatherBlk _ _ _ y = gout10 a0 Vin c ((((cfg10 a0).win 1).blk t).view.emb y)
  unfold gatherBlk gout10 gatherArr
  have e0 : ((((cfg10 a0).win 1).blk t).view.emb y (0 : Fin 2)).val = ((grid10.coords t) 0).val * 8 + (y 0).val := by
    show (BitVec.ofNat 32 ((grid10.coords t) 0).val).toNat * 8 + 1 * (y 0).val = _
    rw [coord_word10]; omega
  have e1 : (((cfg10 a0).win 1).blk t).view.emb y (1 : Fin 2) = y 1 := Fin.ext (by
    show (0#32 : BitVec 32).toNat * 128 + 1 * (y 1).val = (y 1).val
    show 0 * 128 + 1 * (y 1).val = (y 1).val
    omega)
  rw [tblWord10_eq c (grid10.coords t) (a0.1 0) (y 0) _ e0, valBlk10_eq a0 Vin c t (y 0) _ e0, e1]

end Cert.KernelIdeal.Hand

end
-- ==== Proof.KI.GatherRegion10.lean ====
/-
  Gather region 10 (custom_call 10): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody10
import proofs.«414509_j14181982011419_2_alg».proof.Proof.KI.GatherBlk10
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk10 (a0 : (pcfg10 (F := F)).Adm) : Prop := ∀ e : S131072.Idx, (a0.1 0 e).toNat < 100000

/-! ## The grid and the result window's blocks -/

/-- On the one-axis grid a point's coordinate is its number. -/
theorem regCoords10 (t : Fin grid10.N) : (grid10.coords t 0).val = t.val := by
  have ht : t.val < 16384 := N_10 ▸ t.isLt
  show t.val / grid10.stride 0 % grid10.bound 0 = t.val
  rw [show grid10.stride 0 = 1 from by decide, show grid10.bound 0 = 16384 from rfl, Nat.div_one, Nat.mod_eq_of_lt ht]

/-- A point's number as the 32-bit word the index maps compute with. -/
theorem regWord10 (t : Fin grid10.N) : (BitVec.ofNat 32 (grid10.coords t 0).val).toNat = t.val := by
  have ht : t.val < 16384 := N_10 ▸ t.isLt
  rw [BitVec.toNat_ofNat, regCoords10]; omega

/-- The result window's block at point `t` is block `t` along the rows, at zero along the lanes. -/
theorem regOutIndex10 (a0 : (pcfg10 (F := F)).Adm) (t : Fin (cfg10 a0).N) : ((cfg10 a0).win 1).index t = ![t.val, 0] := by
  show cc10_transform_2 (grid10.coords t) = _
  unfold cc10_transform_2
  funext a; fin_cases a
  · exact regWord10 t
  · rfl

/-- The result window is written back at every point: consecutive points have different blocks. -/
theorem regOutFlush10 (a0 : (pcfg10 (F := F)).Adm) (t : Fin (cfg10 a0).N) : ((cfg10 a0).win 1).flush t = true := by
  have htN : t.val < 16384 := N_10 ▸ t.isLt
  rw [Pipeline.Window.flush_out _ rfl]
  by_cases h : t.val + 1 = 16384
  · exact Or.inl (show t.val + 1 = grid10.N by rw [N_10]; exact h)
  · have hlt : t.val + 1 < grid10.N := by rw [N_10]; omega
    refine Or.inr ⟨hlt, fun e => ?_⟩
    have e' : (![t.val + 1, 0] : Fin 2 → ℕ) = ![t.val, 0] := (regOutIndex10 a0 ⟨t.val + 1, hlt⟩).symm.trans (e.trans (regOutIndex10 a0 t))
    have e0 := congrFun e' 0
    simp at e0

/-- The index table, held as the pipeline's one prefetched table. -/
theorem prefHeldEq10 (a0 : (pcfg10 (F := F)).Adm) (c : Dev nD) :
    (Pipeline.prefHeld (Ix := Unit) (Name := ℕ) (U := UU nD τ) (Lvl := ℕ) pre10 c (fun _ => fullShare) a0.1 : sProp (MM F))
      = pt c (Memref.whole main_v65) (a0.1 0) := by
  unfold Pipeline.prefHeld
  rw [show (Finset.univ : Finset (Fin pre10.K)) = {0} from rfl, BI.bigSep_singleton]
  rfl

/-- The value window's staging buffer holds its block at every point. -/
theorem beforeVal10 (a0 : (pcfg10 (F := F)).Adm) (Vin : Dev nD → Valuation τ sig (Elt F)) (c : Dev nD) (t : Fin (cfg10 a0).N) (d) :
    (dat10 a0 Vin c).before 0 t d = iblk10 a0 Vin c 0 t :=
  ((dat10 a0 Vin c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)

/-! ## The kernel's checks, from the table's range -/

/-- Each of the point's eight words is a word of the table, so a row number. -/
theorem tblWordLt10 (a0 : (pcfg10 (F := F)).Adm) (hok : GatherOk10 a0) (c : Dev nD) (i : grid10.Coords) (j : Fin 8) :
    (tblWord10 c i (a0.1 0) j).toNat < 100000 := by
  unfold tblWord10
  exact hok _

/-- So the kernel's eight checks hold at every point. -/
theorem gatherChk10 (a0 : (pcfg10 (F := F)).Adm) (hok : GatherOk10 a0) (c : Dev nD) (i : grid10.Coords) : GatherChk10 c i (a0.1 0) :=
  ⟨⟨chkRow _ (tblWordLt10 a0 hok c i 0), chkRow _ (tblWordLt10 a0 hok c i 0)⟩,
   ⟨chkRow _ (tblWordLt10 a0 hok c i 1), chkRow _ (tblWordLt10 a0 hok c i 1)⟩,
   ⟨chkRow _ (tblWordLt10 a0 hok c i 2), chkRow _ (tblWordLt10 a0 hok c i 2)⟩,
   ⟨chkRow _ (tblWordLt10 a0 hok c i 3), chkRow _ (tblWordLt10 a0 hok c i 3)⟩,
   ⟨chkRow _ (tblWordLt10 a0 hok c i 4), chkRow _ (tblWordLt10 a0 hok c i 4)⟩,
   ⟨chkRow _ (tblWordLt10 a0 hok c i 5), chkRow _ (tblWordLt10 a0 hok c i 5)⟩,
   ⟨chkRow _ (tblWordLt10 a0 hok c i 6), chkRow _ (tblWordLt10 a0 hok c i 6)⟩,
   chkRow _ (tblWordLt10 a0 hok c i 7)⟩

/-! ## The body obligation, at a generic point -/

/-- What the body is called with at point `t`: the invariant, the core's dues, each window's current staging memref at
    what the pipeline left there, -/
def bodyPre10 (a0 : (pcfg10 (F := F)).Adm) (Vin : Dev nD → Valuation τ sig (Elt F)) (c : Dev nD) (t : Fin (cfg10 a0).N) : sProp (MM F) :=
  iprop((dat10 a0 Vin c).Φ t.castSucc ∗ (dat10 a0 Vin c).owesAt () t.castSucc
    ∗ (∃ d, owns (c : Thread nD τ) (((cfg10 a0).win 0).stage ((cfg10 a0).slots t 0)) fullShare ((dat10 a0 Vin c).before 0 t d))
    ∗ (∃ d, owns (c : Thread nD τ) (((cfg10 a0).win 1).stage ((cfg10 a0).slots t 1)) fullShare ((dat10 a0 Vin c).before 1 t d)))

/-- and what it returns. -/
def bodyPost10 (a0 : (pcfg10 (F := F)).Adm) (Vin : Dev nD → Valuation τ sig (Elt F)) (c : Dev nD) (t : Fin (cfg10 a0).N) : sProp (MM F) :=
  iprop((dat10 a0 Vin c).Φ t.succ ∗ (dat10 a0 Vin c).owesAt () t.succ
    ∗ owns (c : Thread nD τ) (((cfg10 a0).win 0).stage ((cfg10 a0).slots t 0)) fullShare ((dat10 a0 Vin c).after 0 t)
    ∗ owns (c : Thread nD τ) (((cfg10 a0).win 1).stage ((cfg10 a0).slots t 1)) fullShare ((dat10 a0 Vin c).after 1 t))

/-- The body at any point: the invariant opened into the embedding array, the semaphores, the table and the scratch;
    the value window's memref at its block; the checks from the table's range; so the kernel's run applies, and what it
    leaves in the result window's memref is the point's block of the gathered array. -/
theorem sound_body10 (a0 : (pcfg10 (F := F)).Adm) (hok : GatherOk10 a0) (Vin : Dev nD → Valuation τ sig (Elt F)) (c : Dev nD) (t : Fin (cfg10 a0).N) :
    bodyPre10 a0 Vin c t ⊢ wp frame (wpE (defs₀ (F := F)) 𝒱₀ c none) Set.univ
      (defs₀ .tc (cfg10 a0).body ((cfg10 a0).bodyArgs t ((cfg10 a0).slots t))) (fun _ => bodyPost10 a0 Vin c t) := by
  unfold bodyPre10 bodyPost10
  simp only [beforeVal10]
  rw [Phi_eq10, Phi_eq10, after10_0, after10_1, ← gatherBlk_blk10]
  unfold Phi10 Pipeline.Dat.owesAt Pipeline.owesWithin
  rw [owed_eq10, owed_eq10, prefHeldEq10, scopedRest10_split]
  iintro ⟨⟨Hx, Hos, Ht, ⟨%fs, Hs⟩, Hsb⟩, ⟨%W, %hW, HO⟩, ⟨%d0, H0⟩, ⟨%d1, H1⟩⟩
  iapply (gatherRun10 c (grid10.coords t) _ _ _ _ (a0.1 0) (Vr Vin c main_arg0) (iblk10 a0 Vin c 0 t) (gatherChk10 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation10 (a0 : (pcfg10 (F := F)).Adm) (hok : GatherOk10 a0) (Vin : Dev nD → Valuation τ sig (Elt F)) (c : Dev nD) :
    BodyObligation (dat10 a0 Vin c) (defs₀ (F := F)) 𝒱₀ () Set.univ := fun t => by
  rw [bigSep_W10, bigSep_W10]
  exact sound_body10 a0 hok Vin c t

/-! ## From the blocks to the arrays -/

/-- The value array after the region: as entered. -/
theorem arrAt10_in (a0 : (pcfg10 (F := F)).Adm) (Vin : Dev nD → Valuation τ sig (Elt F)) (c : Dev nD) :
    (dat10 a0 Vin c).arrAt 0 (cfg10 a0).N = Vr Vin c main_v66 :=
  ((dat10 a0 Vin c).arrAt_in 0 rfl _).trans (A_eq10 a0 Vin c 0)

/-- Every index of the result array is in some point's block: row `e`, lane `d` is element `(e % 8, d)` of the block
    of point `e / 8`. -/
theorem regOutCover10 (a0 : (pcfg10 (F := F)).Adm) (i : S131072x128.Idx) :
    ∃ t : Fin (cfg10 a0).N, ((cfg10 a0).win 1).flush t = true ∧ i ∈ (((cfg10 a0).win 1).blk t).view.set := by
  have hi0 : (i 0).val < 131072 := (i 0).isLt
  have hi1 : (i 1).val < 128 := (i 1).isLt
  have hN : (i 0).val / 8 < grid10.N := by rw [N_10]; omega
  obtain ⟨t, ht⟩ : ∃ t : Fin (cfg10 a0).N, t.val = (i 0).val / 8 := ⟨⟨_, hN⟩, rfl⟩
  have hx : (((cfg10 a0).win 1).blk t).view.emb (ValueIdx.ix2 ⟨(i 0).val % 8, Nat.mod_lt _ (by decide)⟩ (i 1)) = i := by
    funext a; apply Fin.ext
    have e0 : ((cfg10 a0).win 1).index t (0 : Fin 2) = t.val := congrFun (regOutIndex10 a0 t) (0 : Fin 2)
    have e1 : ((cfg10 a0).win 1).index t (1 : Fin 2) = 0 := congrFun (regOutIndex10 a0 t) (1 : Fin 2)
    match a with
    | ⟨0, _⟩ => show ((cfg10 a0).win 1).index t (0 : Fin 2) * 8 + 1 * ((i 0).val % 8) = (i 0).val; omega
    | ⟨1, _⟩ => show ((cfg10 a0).win 1).index t (1 : Fin 2) * 128 + 1 * (i 1).val = (i 1).val; omega
  exact ⟨t, regOutFlush10 a0 t, hx ▸ (((cfg10 a0).win 1).blk t).view.emb_mem_set _⟩

/-- The result array after the region: the gathered and scaled rows, whole. -/
theorem arrAt10_out (a0 : (pcfg10 (F := F)).Adm) (Vin : Dev nD → Valuation τ sig (Elt F)) (c : Dev nD) :
    (dat10 a0 Vin c).arrAt 1 (cfg10 a0).N = gout10 a0 Vin c :=
  (dat10 a0 Vin c).arrAt_eq_of_cover 1 (gout10 a0 Vin c)
    (fun t _ => by
      show ((cfg10 a0).win 1).cut ((cfg10 a0).grid.coords t) ((dat10 a0 Vin c).after 1 t) = _
      rw [after10_1])
    (regOutCover10 a0)

/-! ## The region as a segment of @main -/

/-- The ownership layout of the kernel's eight semaphores. -/
theorem ownSemFacts10 : Pipeline.OwnSemFacts spec10 osem10 := by decide

/-- The kernel's own cells at zero, listed. -/
theorem ownSemsListed10 (c : Dev nD) :
    (Pipeline.ownSems0 (Ix := Unit) (Name := ℕ) (U := UU nD τ) (Lvl := ℕ) (Val := Elt F) (τ := τ) osem10 c : sProp (MM F)) = sems10 c :=
  Pipeline.ownSems0_eq_of_list c osem10 [0, 1, 2, 3, 4, 5, 6, 7] (by decide) (by decide)

/-- The unscoped buffers that are no window's array, no table, and not the embedding array. -/
abbrev restRefs10 : Finset (Ref sig .tc) :=
  (((Finset.univ.filter fun b : Ref sig .tc => ¬ b.isScoped) \ Finset.univ.image (Pipeline.arrRef spec10)) \ Finset.univ.image pre10.ref) \ {main_arg0}

/-- Those buffers, each whole at its contents under `Vin`: what bypasses the region. -/
def Zrest10 (Vin : Dev nD → Valuation τ sig (Elt F)) (c : Dev nD) : sProp (MM F) :=
  bigSep restRefs10 fun b => ((c : Thread nD τ).loc b) ↦{fullShare} Vr Vin c b

/-- The embedding array is an unscoped buffer that is no window's array and no table. -/
theorem embArrMem10 : ({main_arg0} : Finset (Ref sig .tc)) ⊆
    ((Finset.univ.filter fun b : Ref sig .tc => ¬ b.isScoped) \ Finset.univ.image (Pipeline.arrRef spec10)) \ Finset.univ.image pre10.ref := by
  decide

/-- The unscoped buffers that are no window's array: the index table, the embedding array, and the rest. -/
theorem unscopedRestOpen10 (Vin : Dev nD → Valuation τ sig (Elt F)) (c : Dev nD) :
    (Pipeline.unscopedRest (Ix := Unit) (Name := ℕ) (U := UU nD τ) (Lvl := ℕ) spec10 c (Vr Vin c) : sProp (MM F))
      = iprop(Pipeline.prefHeld pre10 c (fun _ => fullShare) (fun k => Vr Vin c (pre10.ref k))
          ∗ pt c (Memref.whole main_arg0) (Vr Vin c main_arg0) ∗ Zrest10 Vin c) := by
  rw [Pipeline.unscopedRest_split preFacts10 c (Vr Vin c)]
  unfold Pipeline.unscopedRestP Zrest10
  rw [BI.bigSep_sdiff_split embArrMem10, BI.bigSep_singleton]
  rfl

/-- The buffer contents when the region is left: the result array at the gathered rows, every other buffer as entered. -/
abbrev Vout10 (a0 : (pcfg10 (F := F)).Adm) (Vin : Dev nD → Valuation τ sig (Elt F)) (c : Dev nD) : Valuation τ sig (Elt F) :=
  Function.update (Vin c) main_v67 (gout10 a0 Vin c)

/-- At the exit each of the region's arrays holds what the pipeline leaves; -/
theorem hF10 (a0 : (pcfg10 (F := F)).Adm) (Vin : Dev nD → Valuation τ sig (Elt F)) (c : Dev nD) (w : Fin (cfg10 a0).W) :
    (dat10 a0 Vin c).arrAt w (cfg10 a0).N = Vr (Vout10 a0 Vin) c (Pipeline.arrRef spec10 w) := by
  match w with
  | ⟨0, _⟩ =>
    show (dat10 a0 Vin c).arrAt 0 (cfg10 a0).N = Vr (Vout10 a0 Vin) c (Pipeline.arrRef spec10 0)
    rw [arrAt10_in]
    exact (Function.update_of_ne (StableHlo.devRef_ne_of_ne (by decide) : (Proc.devRef .tc main_v66 : DevRef τ sig) ≠ Proc.devRef .tc main_v67) _ _).symm
  | ⟨1, _⟩ =>
    show (dat10 a0 Vin c).arrAt 1 (cfg10 a0).N = Vr (Vout10 a0 Vin) c (Pipeline.arrRef spec10 1)
    rw [arrAt10_out]
    exact (Function.update_self (Proc.devRef .tc main_v67 : DevRef τ sig) _ (Vin c)).symm

/-- and every other buffer what it held at entry. -/
theorem hrest10 (a0 : (pcfg10 (F := F)).Adm) (Vin : Dev nD → Valuation τ sig (Elt F)) (c : Dev nD) :
    ∀ b : Ref sig .tc, b ∉ Finset.univ.image (Pipeline.arrRef spec10) → Vr (Vout10 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat10` at the entry valuation `Vin`
    (`hd`), the index table's contents under `Vin` being the pinned ones (`htbl`) and row numbers (`hok`). -/
def reg10 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk10 (F := F) (a (10 : Fin 34)))
    (hd : ∀ c, pdats (10 : Fin 34) c = dat10 (a (10 : Fin 34)) Vin c) (htbl : ∀ c, (a (10 : Fin 34)).1 = fun k => Vr Vin c (pre10.ref k)) :
    Pipeline.RegionSeg (pcfgs (F := F)) a pdats () defs₀ 𝒱₀ L lv (10 : Fin 34) where
  win := (launch10 (F := F)).win.to₀
  block_pos := (launch10 (F := F)).block_pos
  stage_whole := (launch10 (F := F)).stage_whole
  K := Fin 8
  osem := osem10
  ho := ownSemFacts10
  hbody c := by rw [hd c]; exact (body_obligation10 (a (10 : Fin 34)) hok Vin c).loose
  hwaits := Pipeline.hwaits_of_owed_zero _ _ _ _ L lv (10 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v67 (gout10 (a (10 : Fin 34)) Vin c)) ∗ Rest c)
  X c := iprop(pt c (Memref.whole main_arg0) (Vr Vin c main_arg0) ∗ sems10 c)
  Y c := iprop(pt c (Memref.whole main_arg0) (Vr Vin c main_arg0)
    ∗ Pipeline.prefHeld (Ix := Unit) (Name := ℕ) (U := UU nD τ) (Lvl := ℕ) pre10 c (fun _ => fullShare) (a (10 : Fin 34)).1)
  Z c := Zrest10 Vin c
  hentry c := by
    rw [ownSemsListed10]
    have hsplit := Pipeline.arrays_of_unscopedBufs (p := (10 : Fin 34)) (pcfgs (F := F)) a pdats (launch10 (F := F)).win (launch10 (F := F)).arr_whole c
      ((pdats (10 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen10 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (10 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq10]; unfold Phi10
    iintro ⟨⟨Hx, Hos⟩, Ht, Hr⟩
    isplitl [Hx]; · iexact Hx
    isplitl [Hos]; · iexact Hos
    isplitl [Ht]; · iexact Ht
    iexact Hr
  hout c := by
    rw [ownSemsListed10, hd c, Phi_eq10]; unfold Phi10
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (10 : Fin 34)) (pcfgs (F := F)) a (Ix := Unit) (Name := ℕ) (U := UU nD τ) (Lvl := ℕ)
      (launch10 (F := F)).win (launch10 (F := F)).arr_whole c pdats ((pdats (10 : Fin 34) c).share_full fun _ => by rw [hd c]; rfl)
      (Vr Vin c) (Vr (Vout10 (a (10 : Fin 34)) Vin) c) ((pdats (10 : Fin 34) c).arrAt · (cfg10 (a (10 : Fin 34))).N)
      (fun w => by rw [hd c]; exact hF10 (a (10 : Fin 34)) Vin c w) (hrest10 (a (10 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen10 Vin c).symm)
      isplitl [Ht]; · rw [← htbl c]; iexact Ht
      isplitl [Hx]; · iexact Hx
      iexact Hz
    unfold Pipeline.Dat.owesAt Pipeline.owesWithin
    rw [show (pdats (10 : Fin 34) c).owed (Fin.last _) = 0 from by rw [hd c]; rfl]
    icases HO with ⟨%W, -, HO⟩; iexists W; iexact HO

end Cert.KernelIdeal.Hand

end
-- ==== Proof.KI.GatherDat11.lean ====
/-
  Gather region 11 (custom_call 11): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem11 : Fin 8 → SemLoc sig := fun | 0 => .dma 136 | 1 => .dma 137 | 2 => .dma 138 | 3 => .dma 139 | 4 => .dma 140 | 5 => .dma 141 | 6 => .dma 142 | 7 => .dma 143

/-- The eight counters at zero, as the run finds them and hands them back. -/
abbrev sems11 (c : Dev nD) : sProp (MM F) :=
  iprop(semVal ((c : Thread nD τ), osem11 0) 0 ∗ semVal ((c : Thread nD τ), osem11 1) 0 ∗ semVal ((c : Thread nD τ), osem11 2) 0
    ∗ semVal ((c : Thread nD τ), osem11 3) 0 ∗ semVal ((c : Thread nD τ), osem11 4) 0 ∗ semVal ((c : Thread nD τ), osem11 5) 0
    ∗ semVal ((c : Thread nD τ), osem11 6) 0 ∗ semVal ((c : Thread nD τ), osem11 7) 0)

/-- Word `j` of the eight the index table holds for point `i`, as the kernel's scalar load reads it. -/
def tblWord11 (c : Dev nD) (i : grid11.Coords) (tbl : Bf (F := F) c (Memref.whole main_v68)) (j : Fin 8) : BitVec 32 :=
  (Memref.whole main_v68).view.readAt (Elt F) (Rect.unit (s := S131072) (k11_off1 i (BitVec.ofNat 32 j.val)) S1.size (k11_off1_inb i j)).toLoadRect tbl
    (Shape.Idx.first (s := S1) (numel1_S1.symm ▸ Nat.one_pos))

/-- Window `w`'s block at point `t`, read off its array at the region's entry. -/
def iblk11 (a0 : (pcfg11 (F := F)).Adm) (Vin : Dev nD → Valuation τ sig (Elt F)) (c : Dev nD) (w : Fin (cfg11 a0).W) (t : Fin (cfg11 a0).N) :
    (((cfg11 a0).win w).xblock ((cfg11 a0).grid.coords t)).Idx → Elt F ((cfg11 a0).win w).elt :=
  (((cfg11 a0).win w).blk t).view.read (Elt F) (Vr Vin c (Pipeline.arrRef spec11 w))

/-- The result array the region leaves: the gathered and scaled rows of the embedding array, whole. -/
def gout11 (a0 : (pcfg11 (F := F)).Adm) (Vin : Dev nD → Valuation τ sig (Elt F)) (c : Dev nD) : Buf (Elt F) ((c : Thread nD τ).loc main_v70) :=
  gatherArr (Vr Vin c main_arg0) (a0.1 0) (Vr Vin c main_v69)

/-- The invariant between points: the embedding array as entered, the kernel's semaphores at zero, the index table, the
    scoped buffers no window stages (the kernel's scratch among them). -/
def Phi11 (a0 : (pcfg11 (F := F)).Adm) (Vin : Dev nD → Valuation τ sig (Elt F)) (c : Dev nD) : sProp (MM F) :=
  iprop(pt c (Memref.whole main_arg0) (Vr Vin c main_arg0) ∗ sems11 c
    ∗ Pipeline.prefHeld (Ix := Unit) (Name := ℕ) (U := UU nD τ) (Lvl := ℕ) pre11 c (fun _ => fullShare) a0.1
    ∗ Pipeline.scopedRest (Ix := Unit) (Name := ℕ) (U := UU nD τ) (Lvl := ℕ) (Val := Elt F) spec11 c)

/-- The proof data on core `c`. -/
def dat11 (a0 : (pcfg11 (F := F)).Adm) (Vin : Dev nD → Valuation τ sig (Elt F)) (c : Dev nD) :
    Pipeline.Dat τ (Elt F) Unit ℕ (UU nD τ) ℕ ((pcfg11 (F := F)).at a0) c where
  A w := Vr Vin c (Pipeline.arrRef spec11 w)
  after w t := match w with
    | ⟨0, _⟩ => iblk11 a0 Vin c 0 t
    | ⟨1, _⟩ => (((cfg11 a0).win 1).blk t).view.read (Elt F) (gout11 a0 Vin c)
  Φ _ := Phi11 a0 Vin c
  q _ := fullShare
  owed _ := 0

theorem A_eq11 (a0 : (pcfg11 (F := F)).Adm) (Vin : Dev nD → Valuation τ sig (Elt F)) (c : Dev nD) (w : Fin (cfg11 a0).W) :
    (dat11 a0 Vin c).A w = Vr Vin c (Pipeline.arrRef spec11 w) := by dsimp only [dat11]
theorem after11_0 (a0 : (pcfg11 (F := F)).Adm) (Vin : Dev nD → Valuation τ sig (Elt F)) (c : Dev nD) (t : Fin (cfg11 a0).N) :
    (dat11 a0 Vin c).after 0 t = iblk11 a0 Vin c 0 t := by dsimp only [dat11]; rfl
theorem after11_1 (a0 : (pcfg11 (F := F)).Adm) (Vin : Dev nD → Valuation τ sig (Elt F)) (c : Dev nD) (t : Fin (cfg11 a0).N) :
    (dat11 a0 Vin c).after 1 t = (((cfg11 a0).win 1).blk t).view.read (Elt F) (gout11 a0 Vin c) := by dsimp only [dat11]; rfl
theorem Phi_eq11 (a0 : (pcfg11 (F := F)).Adm) (Vin : Dev nD → Valuation τ sig (Elt F)) (c : Dev nD) (t : Fin ((cfg11 a0).N + 1)) :
    (dat11 a0 Vin c).Φ t = Phi11 a0 Vin c := rfl
theorem owed_eq11 (a0 : (pcfg11 (F := F)).Adm) (Vin : Dev nD → Valuation τ sig (Elt F)) (c : Dev nD) (t : Fin ((cfg11 a0).N + 1)) :
    (dat11 a0 Vin c).owed t = 0 := rfl
theorem q_eq11 (a0 : (pcfg11 (F := F)).Adm) (Vin : Dev nD → Valuation τ sig (Elt F)) (c : Dev nD) (w : Fin (cfg11 a0).W) :
    (dat11 a0 Vin c).q w = fullShare := rfl

/-- The pinned family's configuration at region 11 is this one. -/
example (a : (p : Fin 34) → (pcfgs (F := F) p).Adm) : Pipeline.pin (pcfgs (F := F)) a (11 : Fin 34) = (pcfg11 (F := F)).at (a (11 : Fin 34)) := rfl

end Cert.KernelIdeal.Hand

end
-- ==== Proof.KI.GatherBody11.lean ====
/-
  Gather region 11 (custom_call 11): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat11
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk11 (c : Dev nD) (i : grid11.Coords) (tbl : Bf (F := F) c (Memref.whole main_v68)) : Prop where
  h1 : k11_chk1 (tblWord11 c i tbl 0)
  h2 : k11_chk2 (tblWord11 c i tbl 1)
  h3 : k11_chk3 (tblWord11 c i tbl 2)
  h4 : k11_chk4 (tblWord11 c i tbl 3)
  h5 : k11_chk5 (tblWord11 c i tbl 4)
  h6 : k11_chk6 (tblWord11 c i tbl 5)
  h7 : k11_chk7 (tblWord11 c i tbl 6)
  h8 : k11_chk8 (tblWord11 c i tbl 7)

/-- A one-row slice of the embedding array at the row a word names, read at lane `z 1`: the array's element there. -/
theorem rowRead11 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun11 (c : Dev nD) (i : grid11.Coords)
    (M3 : Memref sig .tc .vmem S8x1 .f32) (h3 : M3.IsWhole) (M4 : Memref sig .tc .vmem S8x128 .f32) (h4 : M4.IsWhole)
    (tbl : Bf (F := F) c (Memref.whole main_v68)) (x : Bf (F := F) c (Memref.whole main_arg0))
    (vb : Vec F S8x1 .f32) (hchk : GatherChk11 c i tbl) (Q : PUnit → sProp (MM F)) :
    iprop(pt c (Memref.whole main_v68) tbl ∗ pt c (Memref.whole main_arg0) x
      ∗ owns (c : Thread nD τ) M3 fullShare vb ∗ (∃ d, owns (c : Thread nD τ) M4 fullShare d)
      ∗ (∃ fs, pt c (Memref.whole cc11_scratch0) fs) ∗ sems11 c ∗ (∃ W, owes (c : Thread nD τ) (0 : CellTallies nD τ sig Unit) W)
      ∗ (iprop(pt c (Memref.whole main_v68) tbl ∗ pt c (Memref.whole main_arg0) x
          ∗ owns (c : Thread nD τ) M3 fullShare vb ∗ owns (c : Thread nD τ) M4 fullShare (gatherBlk x (tblWord11 c i tbl) vb)
          ∗ (∃ fs, pt c (Memref.whole cc11_scratch0) fs) ∗ sems11 c ∗ (∃ W, owes (c : Thread nD τ) (0 : CellTallies nD τ sig Unit) W)) -∗ Q ⟨⟩))
    ⊢ wp frame (wpE (defs₀ (F := F)) 𝒱₀ c none) Set.univ
        (cc11__gather_kernel i (Memref.whole main_v68) (Memref.isWhole_whole _) (Memref.whole main_arg0) (Memref.isWhole_whole _) M3 h3 M4 h4
          (Memref.whole cc11_scratch0) (Memref.isWhole_whole _) cc11_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 136).1 $$ Hx
  icases Hx' with ⟨Hxr, Hx0, Hx1, Hx2, Hx3, Hx4, Hx5, Hx6, Hx7⟩
  sl_unfold [cc11__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 136).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k11_pay1 gatherBlk
    show FloatOps.mulf _ _ = FloatOps.mulf _ _
    congr 1
    · unfold gatherRun11.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun11.sl.dma8 gatherRun11.sl.dma8_1 gatherRun11.sl.dma8_2 gatherRun11.sl.dma8_3 gatherRun11.sl.dma8_4 gatherRun11.sl.dma8_5
        gatherRun11.sl.dma8_6 gatherRun11.sl.dma8_7 gatherRun11.sl.r gatherRun11.sl.r_1 gatherRun11.sl.r_2 gatherRun11.sl.r_3 gatherRun11.sl.r_4
        gatherRun11.sl.r_5 gatherRun11.sl.r_6 gatherRun11.sl.r_7
      refine canonRows8 _ _ _ _ _ _ _ _ _ _ _ _ _ _ _ _ (fun r d => x (embIdx (rowOf (tblWord11 c i tbl r)) d)) ?_ ?_ ?_ ?_ ?_ ?_ ?_ ?_ y
      · exact fun z => rowRead11 c _ (tblWord11 c i tbl 0) rfl rfl _ _ x z
      · exact fun z => rowRead11 c _ (tblWord11 c i tbl 1) rfl rfl _ _ x z
      · exact fun z => rowRead11 c _ (tblWord11 c i tbl 2) rfl rfl _ _ x z
      · exact fun z => rowRead11 c _ (tblWord11 c i tbl 3) rfl rfl _ _ x z
      · exact fun z => rowRead11 c _ (tblWord11 c i tbl 4) rfl rfl _ _ x z
      · exact fun z => rowRead11 c _ (tblWord11 c i tbl 5) rfl rfl _ _ x z
      · exact fun z => rowRead11 c _ (tblWord11 c i tbl 6) rfl rfl _ _ x z
      · exact fun z => rowRead11 c _ (tblWord11 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk11.lean ====
/-
  Gather region 11 (custom_call 11): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat11
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word11 (i : grid11.Coords) (j : Fin 8) : k11_off1 i (BitVec.ofNat 32 j.val) 0 = (i 0).val * 8 + j.val := by
  have hi : (i 0).val < 16384 := (i 0).isLt
  have hj : j.val < 8 := j.isLt
  unfold k11_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word11 (i : grid11.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord11_eq (c : Dev nD) (i : grid11.Coords) (tbl : Bf (F := F) c (Memref.whole main_v68)) (j : Fin 8)
    (e : Fin 131072) (he : e.val = (i 0).val * 8 + j.val) : tblWord11 c i tbl j = tbl (tblIdx e) := by
  unfold tblWord11
  show tbl _ = tbl _
  refine congrArg tbl ?_
  funext a; apply Fin.ext
  match a with
  | ⟨0, _⟩ =>
    show k11_off1 i (BitVec.ofNat 32 j.val) 0 + 1 * 0 = e.val
    rw [off_word11, he]; omega

/-- Row `j` of the value window's block at point `t` is the value array's row `8 t + j`. -/
theorem valBlk11_eq (a0 : (pcfg11 (F := F)).Adm) (Vin : Dev nD → Valuation τ sig (Elt F)) (c : Dev nD) (t : Fin (cfg11 a0).N)
    (j : Fin 8) (e : Fin 131072) (he : e.val = ((grid11.coords t) 0).val * 8 + j.val) :
    iblk11 a0 Vin c 0 t (colIdx j) = Vr Vin c main_v69 (valIdx e) := by
  unfold iblk11
  show Vr Vin c main_v69 _ = Vr Vin c main_v69 _
  refine congrArg (Vr Vin c main_v69) ?_
  funext a; apply Fin.ext
  match a with
  | ⟨0, _⟩ =>
    show (BitVec.ofNat 32 ((grid11.coords t) 0).val).toNat * 8 + 1 * j.val = e.val
    rw [coord_word11, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk11 (a0 : (pcfg11 (F := F)).Adm) (Vin : Dev nD → Valuation τ sig (Elt F)) (c : Dev nD) (t : Fin (cfg11 a0).N) :
    gatherBlk (Vr Vin c main_arg0) (tblWord11 c (grid11.coords t) (a0.1 0)) (iblk11 a0 Vin c 0 t)
      = (((cfg11 a0).win 1).blk t).view.read (Elt F) (gout11 a0 Vin c) := by
  funext y
  show gatherBlk _ _ _ y = gout11 a0 Vin c ((((cfg11 a0).win 1).blk t).view.emb y)
  unfold gatherBlk gout11 gatherArr
  have e0 : ((((cfg11 a0).win 1).blk t).view.emb y (0 : Fin 2)).val = ((grid11.coords t) 0).val * 8 + (y 0).val := by
    show (BitVec.ofNat 32 ((grid11.coords t) 0).val).toNat * 8 + 1 * (y 0).val = _
    rw [coord_word11]; omega
  have e1 : (((cfg11 a0).win 1).blk t).view.emb y (1 : Fin 2) = y 1 := Fin.ext (by
    show (0#32 : BitVec 32).toNat * 128 + 1 * (y 1).val = (y 1).val
    show 0 * 128 + 1 * (y 1).val = (y 1).val
    omega)
  rw [tblWord11_eq c (grid11.coords t) (a0.1 0) (y 0) _ e0, valBlk11_eq a0 Vin c t (y 0) _ e0, e1]

end Cert.KernelIdeal.Hand

end
-- ==== Proof.KI.GatherRegion11.lean ====
/-
  Gather region 11 (custom_call 11): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody11
import proofs.«414509_j14181982011419_2_alg».proof.Proof.KI.GatherBlk11
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk11 (a0 : (pcfg11 (F := F)).Adm) : Prop := ∀ e : S131072.Idx, (a0.1 0 e).toNat < 100000

/-! ## The grid and the result window's blocks -/

/-- On the one-axis grid a point's coordinate is its number. -/
theorem regCoords11 (t : Fin grid11.N) : (grid11.coords t 0).val = t.val := by
  have ht : t.val < 16384 := N_11 ▸ t.isLt
  show t.val / grid11.stride 0 % grid11.bound 0 = t.val
  rw [show grid11.stride 0 = 1 from by decide, show grid11.bound 0 = 16384 from rfl, Nat.div_one, Nat.mod_eq_of_lt ht]

/-- A point's number as the 32-bit word the index maps compute with. -/
theorem regWord11 (t : Fin grid11.N) : (BitVec.ofNat 32 (grid11.coords t 0).val).toNat = t.val := by
  have ht : t.val < 16384 := N_11 ▸ t.isLt
  rw [BitVec.toNat_ofNat, regCoords11]; omega

/-- The result window's block at point `t` is block `t` along the rows, at zero along the lanes. -/
theorem regOutIndex11 (a0 : (pcfg11 (F := F)).Adm) (t : Fin (cfg11 a0).N) : ((cfg11 a0).win 1).index t = ![t.val, 0] := by
  show cc11_transform_2 (grid11.coords t) = _
  unfold cc11_transform_2
  funext a; fin_cases a
  · exact regWord11 t
  · rfl

/-- The result window is written back at every point: consecutive points have different blocks. -/
theorem regOutFlush11 (a0 : (pcfg11 (F := F)).Adm) (t : Fin (cfg11 a0).N) : ((cfg11 a0).win 1).flush t = true := by
  have htN : t.val < 16384 := N_11 ▸ t.isLt
  rw [Pipeline.Window.flush_out _ rfl]
  by_cases h : t.val + 1 = 16384
  · exact Or.inl (show t.val + 1 = grid11.N by rw [N_11]; exact h)
  · have hlt : t.val + 1 < grid11.N := by rw [N_11]; omega
    refine Or.inr ⟨hlt, fun e => ?_⟩
    have e' : (![t.val + 1, 0] : Fin 2 → ℕ) = ![t.val, 0] := (regOutIndex11 a0 ⟨t.val + 1, hlt⟩).symm.trans (e.trans (regOutIndex11 a0 t))
    have e0 := congrFun e' 0
    simp at e0

/-- The index table, held as the pipeline's one prefetched table. -/
theorem prefHeldEq11 (a0 : (pcfg11 (F := F)).Adm) (c : Dev nD) :
    (Pipeline.prefHeld (Ix := Unit) (Name := ℕ) (U := UU nD τ) (Lvl := ℕ) pre11 c (fun _ => fullShare) a0.1 : sProp (MM F))
      = pt c (Memref.whole main_v68) (a0.1 0) := by
  unfold Pipeline.prefHeld
  rw [show (Finset.univ : Finset (Fin pre11.K)) = {0} from rfl, BI.bigSep_singleton]
  rfl

/-- The value window's staging buffer holds its block at every point. -/
theorem beforeVal11 (a0 : (pcfg11 (F := F)).Adm) (Vin : Dev nD → Valuation τ sig (Elt F)) (c : Dev nD) (t : Fin (cfg11 a0).N) (d) :
    (dat11 a0 Vin c).before 0 t d = iblk11 a0 Vin c 0 t :=
  ((dat11 a0 Vin c).before_in_eq_fetched 0 rfl (fun _ => rfl) (fun _ _ _ => rfl)
    (fun t => by rw [after11_0]; unfold Dat.blockOf iblk11; rw [A_eq11]; try rfl) t d).trans
    (by unfold Dat.fetched Dat.blockOf iblk11; rw [A_eq11]; try rfl)

/-! ## The kernel's checks, from the table's range -/

/-- Each of the point's eight words is a word of the table, so a row number. -/
theorem tblWordLt11 (a0 : (pcfg11 (F := F)).Adm) (hok : GatherOk11 a0) (c : Dev nD) (i : grid11.Coords) (j : Fin 8) :
    (tblWord11 c i (a0.1 0) j).toNat < 100000 := by
  unfold tblWord11
  exact hok _

/-- So the kernel's eight checks hold at every point. -/
theorem gatherChk11 (a0 : (pcfg11 (F := F)).Adm) (hok : GatherOk11 a0) (c : Dev nD) (i : grid11.Coords) : GatherChk11 c i (a0.1 0) :=
  ⟨⟨chkRow _ (tblWordLt11 a0 hok c i 0), chkRow _ (tblWordLt11 a0 hok c i 0)⟩,
   ⟨chkRow _ (tblWordLt11 a0 hok c i 1), chkRow _ (tblWordLt11 a0 hok c i 1)⟩,
   ⟨chkRow _ (tblWordLt11 a0 hok c i 2), chkRow _ (tblWordLt11 a0 hok c i 2)⟩,
   ⟨chkRow _ (tblWordLt11 a0 hok c i 3), chkRow _ (tblWordLt11 a0 hok c i 3)⟩,
   ⟨chkRow _ (tblWordLt11 a0 hok c i 4), chkRow _ (tblWordLt11 a0 hok c i 4)⟩,
   ⟨chkRow _ (tblWordLt11 a0 hok c i 5), chkRow _ (tblWordLt11 a0 hok c i 5)⟩,
   ⟨chkRow _ (tblWordLt11 a0 hok c i 6), chkRow _ (tblWordLt11 a0 hok c i 6)⟩,
   chkRow _ (tblWordLt11 a0 hok c i 7)⟩

/-! ## The body obligation, at a generic point -/

/-- What the body is called with at point `t`: the invariant, the core's dues, each window's current staging memref at
    what the pipeline left there, -/
def bodyPre11 (a0 : (pcfg11 (F := F)).Adm) (Vin : Dev nD → Valuation τ sig (Elt F)) (c : Dev nD) (t : Fin (cfg11 a0).N) : sProp (MM F) :=
  iprop((dat11 a0 Vin c).Φ t.castSucc ∗ (dat11 a0 Vin c).owesAt () t.castSucc
    ∗ (∃ d, owns (c : Thread nD τ) (((cfg11 a0).win 0).stage ((cfg11 a0).slots t 0)) fullShare ((dat11 a0 Vin c).before 0 t d))
    ∗ (∃ d, owns (c : Thread nD τ) (((cfg11 a0).win 1).stage ((cfg11 a0).slots t 1)) fullShare ((dat11 a0 Vin c).before 1 t d)))

/-- and what it returns. -/
def bodyPost11 (a0 : (pcfg11 (F := F)).Adm) (Vin : Dev nD → Valuation τ sig (Elt F)) (c : Dev nD) (t : Fin (cfg11 a0).N) : sProp (MM F) :=
  iprop((dat11 a0 Vin c).Φ t.succ ∗ (dat11 a0 Vin c).owesAt () t.succ
    ∗ owns (c : Thread nD τ) (((cfg11 a0).win 0).stage ((cfg11 a0).slots t 0)) fullShare ((dat11 a0 Vin c).after 0 t)
    ∗ owns (c : Thread nD τ) (((cfg11 a0).win 1).stage ((cfg11 a0).slots t 1)) fullShare ((dat11 a0 Vin c).after 1 t))

/-- The body at any point: the invariant opened into the embedding array, the semaphores, the table and the scratch;
    the value window's memref at its block; the checks from the table's range; so the kernel's run applies, and what it
    leaves in the result window's memref is the point's block of the gathered array. -/
theorem sound_body11 (a0 : (pcfg11 (F := F)).Adm) (hok : GatherOk11 a0) (Vin : Dev nD → Valuation τ sig (Elt F)) (c : Dev nD) (t : Fin (cfg11 a0).N) :
    bodyPre11 a0 Vin c t ⊢ wp frame (wpE (defs₀ (F := F)) 𝒱₀ c none) Set.univ
      (defs₀ .tc (cfg11 a0).body ((cfg11 a0).bodyArgs t ((cfg11 a0).slots t))) (fun _ => bodyPost11 a0 Vin c t) := by
  unfold bodyPre11 bodyPost11
  simp only [beforeVal11]
  rw [Phi_eq11, Phi_eq11, after11_0, after11_1, ← gatherBlk_blk11]
  unfold Phi11 Pipeline.Dat.owesAt Pipeline.owesWithin
  rw [owed_eq11, owed_eq11, prefHeldEq11, scopedRest11_split]
  iintro ⟨⟨Hx, Hos, Ht, ⟨%fs, Hs⟩, Hsb⟩, ⟨%W, %hW, HO⟩, ⟨%d0, H0⟩, ⟨%d1, H1⟩⟩
  iapply (gatherRun11 c (grid11.coords t) _ _ _ _ (a0.1 0) (Vr Vin c main_arg0) (iblk11 a0 Vin c 0 t) (gatherChk11 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation11 (a0 : (pcfg11 (F := F)).Adm) (hok : GatherOk11 a0) (Vin : Dev nD → Valuation τ sig (Elt F)) (c : Dev nD) :
    BodyObligation (dat11 a0 Vin c) (defs₀ (F := F)) 𝒱₀ () Set.univ := fun t => by
  rw [bigSep_W11, bigSep_W11]
  exact sound_body11 a0 hok Vin c t

/-! ## From the blocks to the arrays -/

/-- The value array after the region: as entered. -/
theorem arrAt11_in (a0 : (pcfg11 (F := F)).Adm) (Vin : Dev nD → Valuation τ sig (Elt F)) (c : Dev nD) :
    (dat11 a0 Vin c).arrAt 0 (cfg11 a0).N = Vr Vin c main_v69 :=
  ((dat11 a0 Vin c).arrAt_in 0 rfl _).trans (A_eq11 a0 Vin c 0)

/-- Every index of the result array is in some point's block: row `e`, lane `d` is element `(e % 8, d)` of the block
    of point `e / 8`. -/
theorem regOutCover11 (a0 : (pcfg11 (F := F)).Adm) (i : S131072x128.Idx) :
    ∃ t : Fin (cfg11 a0).N, ((cfg11 a0).win 1).flush t = true ∧ i ∈ (((cfg11 a0).win 1).blk t).view.set := by
  have hi0 : (i 0).val < 131072 := (i 0).isLt
  have hi1 : (i 1).val < 128 := (i 1).isLt
  have hN : (i 0).val / 8 < grid11.N := by rw [N_11]; omega
  obtain ⟨t, ht⟩ : ∃ t : Fin (cfg11 a0).N, t.val = (i 0).val / 8 := ⟨⟨_, hN⟩, rfl⟩
  have hx : (((cfg11 a0).win 1).blk t).view.emb (ValueIdx.ix2 ⟨(i 0).val % 8, Nat.mod_lt _ (by decide)⟩ (i 1)) = i := by
    funext a; apply Fin.ext
    have e0 : ((cfg11 a0).win 1).index t (0 : Fin 2) = t.val := congrFun (regOutIndex11 a0 t) (0 : Fin 2)
    have e1 : ((cfg11 a0).win 1).index t (1 : Fin 2) = 0 := congrFun (regOutIndex11 a0 t) (1 : Fin 2)
    match a with
    | ⟨0, _⟩ => show ((cfg11 a0).win 1).index t (0 : Fin 2) * 8 + 1 * ((i 0).val % 8) = (i 0).val; omega
    | ⟨1, _⟩ => show ((cfg11 a0).win 1).index t (1 : Fin 2) * 128 + 1 * (i 1).val = (i 1).val; omega
  exact ⟨t, regOutFlush11 a0 t, hx ▸ (((cfg11 a0).win 1).blk t).view.emb_mem_set _⟩

/-- The result array after the region: the gathered and scaled rows, whole. -/
theorem arrAt11_out (a0 : (pcfg11 (F := F)).Adm) (Vin : Dev nD → Valuation τ sig (Elt F)) (c : Dev nD) :
    (dat11 a0 Vin c).arrAt 1 (cfg11 a0).N = gout11 a0 Vin c :=
  (dat11 a0 Vin c).arrAt_eq_of_cover 1 (gout11 a0 Vin c)
    (fun t _ => by
      show ((cfg11 a0).win 1).cut ((cfg11 a0).grid.coords t) ((dat11 a0 Vin c).after 1 t) = _
      rw [after11_1])
    (regOutCover11 a0)

/-! ## The region as a segment of @main -/

/-- The ownership layout of the kernel's eight semaphores. -/
theorem ownSemFacts11 : Pipeline.OwnSemFacts spec11 osem11 := by decide

/-- The kernel's own cells at zero, listed. -/
theorem ownSemsListed11 (c : Dev nD) :
    (Pipeline.ownSems0 (Ix := Unit) (Name := ℕ) (U := UU nD τ) (Lvl := ℕ) (Val := Elt F) (τ := τ) osem11 c : sProp (MM F)) = sems11 c :=
  Pipeline.ownSems0_eq_of_list c osem11 [0, 1, 2, 3, 4, 5, 6, 7] (by decide) (by decide)

/-- The unscoped buffers that are no window's array, no table, and not the embedding array. -/
abbrev restRefs11 : Finset (Ref sig .tc) :=
  (((Finset.univ.filter fun b : Ref sig .tc => ¬ b.isScoped) \ Finset.univ.image (Pipeline.arrRef spec11)) \ Finset.univ.image pre11.ref) \ {main_arg0}

/-- Those buffers, each whole at its contents under `Vin`: what bypasses the region. -/
def Zrest11 (Vin : Dev nD → Valuation τ sig (Elt F)) (c : Dev nD) : sProp (MM F) :=
  bigSep restRefs11 fun b => ((c : Thread nD τ).loc b) ↦{fullShare} Vr Vin c b

/-- The embedding array is an unscoped buffer that is no window's array and no table. -/
theorem embArrMem11 : ({main_arg0} : Finset (Ref sig .tc)) ⊆
    ((Finset.univ.filter fun b : Ref sig .tc => ¬ b.isScoped) \ Finset.univ.image (Pipeline.arrRef spec11)) \ Finset.univ.image pre11.ref := by
  decide

/-- The unscoped buffers that are no window's array: the index table, the embedding array, and the rest. -/
theorem unscopedRestOpen11 (Vin : Dev nD → Valuation τ sig (Elt F)) (c : Dev nD) :
    (Pipeline.unscopedRest (Ix := Unit) (Name := ℕ) (U := UU nD τ) (Lvl := ℕ) spec11 c (Vr Vin c) : sProp (MM F))
      = iprop(Pipeline.prefHeld pre11 c (fun _ => fullShare) (fun k => Vr Vin c (pre11.ref k))
          ∗ pt c (Memref.whole main_arg0) (Vr Vin c main_arg0) ∗ Zrest11 Vin c) := by
  rw [Pipeline.unscopedRest_split preFacts11 c (Vr Vin c)]
  unfold Pipeline.unscopedRestP Zrest11
  rw [BI.bigSep_sdiff_split embArrMem11, BI.bigSep_singleton]
  rfl

/-- The buffer contents when the region is left: the result array at the gathered rows, every other buffer as entered. -/
abbrev Vout11 (a0 : (pcfg11 (F := F)).Adm) (Vin : Dev nD → Valuation τ sig (Elt F)) (c : Dev nD) : Valuation τ sig (Elt F) :=
  Function.update (Vin c) main_v70 (gout11 a0 Vin c)

/-- At the exit each of the region's arrays holds what the pipeline leaves; -/
theorem hF11 (a0 : (pcfg11 (F := F)).Adm) (Vin : Dev nD → Valuation τ sig (Elt F)) (c : Dev nD) (w : Fin (cfg11 a0).W) :
    (dat11 a0 Vin c).arrAt w (cfg11 a0).N = Vr (Vout11 a0 Vin) c (Pipeline.arrRef spec11 w) := by
  match w with
  | ⟨0, _⟩ =>
    show (dat11 a0 Vin c).arrAt 0 (cfg11 a0).N = Vr (Vout11 a0 Vin) c (Pipeline.arrRef spec11 0)
    rw [arrAt11_in]
    exact (Function.update_of_ne (StableHlo.devRef_ne_of_ne (by decide) : (Proc.devRef .tc main_v69 : DevRef τ sig) ≠ Proc.devRef .tc main_v70) _ _).symm
  | ⟨1, _⟩ =>
    show (dat11 a0 Vin c).arrAt 1 (cfg11 a0).N = Vr (Vout11 a0 Vin) c (Pipeline.arrRef spec11 1)
    rw [arrAt11_out]
    exact (Function.update_self (Proc.devRef .tc main_v70 : DevRef τ sig) _ (Vin c)).symm

/-- and every other buffer what it held at entry. -/
theorem hrest11 (a0 : (pcfg11 (F := F)).Adm) (Vin : Dev nD → Valuation τ sig (Elt F)) (c : Dev nD) :
    ∀ b : Ref sig .tc, b ∉ Finset.univ.image (Pipeline.arrRef spec11) → Vr (Vout11 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat11` at the entry valuation `Vin`
    (`hd`), the index table's contents under `Vin` being the pinned ones (`htbl`) and row numbers (`hok`). -/
def reg11 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk11 (F := F) (a (11 : Fin 34)))
    (hd : ∀ c, pdats (11 : Fin 34) c = dat11 (a (11 : Fin 34)) Vin c) (htbl : ∀ c, (a (11 : Fin 34)).1 = fun k => Vr Vin c (pre11.ref k)) :
    Pipeline.RegionSeg (pcfgs (F := F)) a pdats () defs₀ 𝒱₀ L lv (11 : Fin 34) where
  win := (launch11 (F := F)).win.to₀
  block_pos := (launch11 (F := F)).block_pos
  stage_whole := (launch11 (F := F)).stage_whole
  K := Fin 8
  osem := osem11
  ho := ownSemFacts11
  hbody c := by rw [hd c]; exact (body_obligation11 (a (11 : Fin 34)) hok Vin c).loose
  hwaits := Pipeline.hwaits_of_owed_zero _ _ _ _ L lv (11 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v70 (gout11 (a (11 : Fin 34)) Vin c)) ∗ Rest c)
  X c := iprop(pt c (Memref.whole main_arg0) (Vr Vin c main_arg0) ∗ sems11 c)
  Y c := iprop(pt c (Memref.whole main_arg0) (Vr Vin c main_arg0)
    ∗ Pipeline.prefHeld (Ix := Unit) (Name := ℕ) (U := UU nD τ) (Lvl := ℕ) pre11 c (fun _ => fullShare) (a (11 : Fin 34)).1)
  Z c := Zrest11 Vin c
  hentry c := by
    rw [ownSemsListed11]
    have hsplit := Pipeline.arrays_of_unscopedBufs (p := (11 : Fin 34)) (pcfgs (F := F)) a pdats (launch11 (F := F)).win (launch11 (F := F)).arr_whole c
      ((pdats (11 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen11 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (11 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq11]; unfold Phi11
    iintro ⟨⟨Hx, Hos⟩, Ht, Hr⟩
    isplitl [Hx]; · iexact Hx
    isplitl [Hos]; · iexact Hos
    isplitl [Ht]; · iexact Ht
    iexact Hr
  hout c := by
    rw [ownSemsListed11, hd c, Phi_eq11]; unfold Phi11
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (11 : Fin 34)) (pcfgs (F := F)) a (Ix := Unit) (Name := ℕ) (U := UU nD τ) (Lvl := ℕ)
      (launch11 (F := F)).win (launch11 (F := F)).arr_whole c pdats ((pdats (11 : Fin 34) c).share_full fun _ => by rw [hd c]; rfl)
      (Vr Vin c) (Vr (Vout11 (a (11 : Fin 34)) Vin) c) ((pdats (11 : Fin 34) c).arrAt · (cfg11 (a (11 : Fin 34))).N)
      (fun w => by rw [hd c]; exact hF11 (a (11 : Fin 34)) Vin c w) (hrest11 (a (11 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen11 Vin c).symm)
      isplitl [Ht]; · rw [← htbl c]; iexact Ht
      isplitl [Hx]; · iexact Hx
      iexact Hz
    unfold Pipeline.Dat.owesAt Pipeline.owesWithin
    rw [show (pdats (11 : Fin 34) c).owed (Fin.last _) = 0 from by rw [hd c]; rfl]
    icases HO with ⟨%W, -, HO⟩; iexists W; iexact HO

end Cert.KernelIdeal.Hand

end
-- ==== Proof.KI.GatherDat12.lean ====
/-
  Gather region 12 (custom_call 12): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem12 : Fin 8 → SemLoc sig := fun | 0 => .dma 148 | 1 => .dma 149 | 2 => .dma 150 | 3 => .dma 151 | 4 => .dma 152 | 5 => .dma 153 | 6 => .dma 154 | 7 => .dma 155

/-- The eight counters at zero, as the run finds them and hands them back. -/
abbrev sems12 (c : Dev nD) : sProp (MM F) :=
  iprop(semVal ((c : Thread nD τ), osem12 0) 0 ∗ semVal ((c : Thread nD τ), osem12 1) 0 ∗ semVal ((c : Thread nD τ), osem12 2) 0
    ∗ semVal ((c : Thread nD τ), osem12 3) 0 ∗ semVal ((c : Thread nD τ), osem12 4) 0 ∗ semVal ((c : Thread nD τ), osem12 5) 0
    ∗ semVal ((c : Thread nD τ), osem12 6) 0 ∗ semVal ((c : Thread nD τ), osem12 7) 0)

/-- Word `j` of the eight the index table holds for point `i`, as the kernel's scalar load reads it. -/
def tblWord12 (c : Dev nD) (i : grid12.Coords) (tbl : Bf (F := F) c (Memref.whole main_v85)) (j : Fin 8) : BitVec 32 :=
  (Memref.whole main_v85).view.readAt (Elt F) (Rect.unit (s := S131072) (k12_off1 i (BitVec.ofNat 32 j.val)) S1.size (k12_off1_inb i j)).toLoadRect tbl
    (Shape.Idx.first (s := S1) (numel1_S1.symm ▸ Nat.one_pos))

/-- Window `w`'s block at point `t`, read off its array at the region's entry. -/
def iblk12 (a0 : (pcfg12 (F := F)).Adm) (Vin : Dev nD → Valuation τ sig (Elt F)) (c : Dev nD) (w : Fin (cfg12 a0).W) (t : Fin (cfg12 a0).N) :
    (((cfg12 a0).win w).xblock ((cfg12 a0).grid.coords t)).Idx → Elt F ((cfg12 a0).win w).elt :=
  (((cfg12 a0).win w).blk t).view.read (Elt F) (Vr Vin c (Pipeline.arrRef spec12 w))

/-- The result array the region leaves: the gathered and scaled rows of the embedding array, whole. -/
def gout12 (a0 : (pcfg12 (F := F)).Adm) (Vin : Dev nD → Valuation τ sig (Elt F)) (c : Dev nD) : Buf (Elt F) ((c : Thread nD τ).loc main_v87) :=
  gatherArr (Vr Vin c main_arg0) (a0.1 0) (Vr Vin c main_v86)

/-- The invariant between points: the embedding array as entered, the kernel's semaphores at zero, the index table, the
    scoped buffers no window stages (the kernel's scratch among them). -/
def Phi12 (a0 : (pcfg12 (F := F)).Adm) (Vin : Dev nD → Valuation τ sig (Elt F)) (c : Dev nD) : sProp (MM F) :=
  iprop(pt c (Memref.whole main_arg0) (Vr Vin c main_arg0) ∗ sems12 c
    ∗ Pipeline.prefHeld (Ix := Unit) (Name := ℕ) (U := UU nD τ) (Lvl := ℕ) pre12 c (fun _ => fullShare) a0.1
    ∗ Pipeline.scopedRest (Ix := Unit) (Name := ℕ) (U := UU nD τ) (Lvl := ℕ) (Val := Elt F) spec12 c)

/-- The proof data on core `c`. -/
def dat12 (a0 : (pcfg12 (F := F)).Adm) (Vin : Dev nD → Valuation τ sig (Elt F)) (c : Dev nD) :
    Pipeline.Dat τ (Elt F) Unit ℕ (UU nD τ) ℕ ((pcfg12 (F := F)).at a0) c where
  A w := Vr Vin c (Pipeline.arrRef spec12 w)
  after w t := match w with
    | ⟨0, _⟩ => iblk12 a0 Vin c 0 t
    | ⟨1, _⟩ => (((cfg12 a0).win 1).blk t).view.read (Elt F) (gout12 a0 Vin c)
  Φ _ := Phi12 a0 Vin c
  q _ := fullShare
  owed _ := 0

theorem A_eq12 (a0 : (pcfg12 (F := F)).Adm) (Vin : Dev nD → Valuation τ sig (Elt F)) (c : Dev nD) (w : Fin (cfg12 a0).W) :
    (dat12 a0 Vin c).A w = Vr Vin c (Pipeline.arrRef spec12 w) := by dsimp only [dat12]
theorem after12_0 (a0 : (pcfg12 (F := F)).Adm) (Vin : Dev nD → Valuation τ sig (Elt F)) (c : Dev nD) (t : Fin (cfg12 a0).N) :
    (dat12 a0 Vin c).after 0 t = iblk12 a0 Vin c 0 t := by dsimp only [dat12]; rfl
theorem after12_1 (a0 : (pcfg12 (F := F)).Adm) (Vin : Dev nD → Valuation τ sig (Elt F)) (c : Dev nD) (t : Fin (cfg12 a0).N) :
    (dat12 a0 Vin c).after 1 t = (((cfg12 a0).win 1).blk t).view.read (Elt F) (gout12 a0 Vin c) := by dsimp only [dat12]; rfl
theorem Phi_eq12 (a0 : (pcfg12 (F := F)).Adm) (Vin : Dev nD → Valuation τ sig (Elt F)) (c : Dev nD) (t : Fin ((cfg12 a0).N + 1)) :
    (dat12 a0 Vin c).Φ t = Phi12 a0 Vin c := rfl
theorem owed_eq12 (a0 : (pcfg12 (F := F)).Adm) (Vin : Dev nD → Valuation τ sig (Elt F)) (c : Dev nD) (t : Fin ((cfg12 a0).N + 1)) :
    (dat12 a0 Vin c).owed t = 0 := rfl
theorem q_eq12 (a0 : (pcfg12 (F := F)).Adm) (Vin : Dev nD → Valuation τ sig (Elt F)) (c : Dev nD) (w : Fin (cfg12 a0).W) :
    (dat12 a0 Vin c).q w = fullShare := rfl

/-- The pinned family's configuration at region 12 is this one. -/
example (a : (p : Fin 34) → (pcfgs (F := F) p).Adm) : Pipeline.pin (pcfgs (F := F)) a (12 : Fin 34) = (pcfg12 (F := F)).at (a (12 : Fin 34)) := rfl

end Cert.KernelIdeal.Hand

end
-- ==== Proof.KI.GatherBody12.lean ====
/-
  Gather region 12 (custom_call 12): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat12
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk12 (c : Dev nD) (i : grid12.Coords) (tbl : Bf (F := F) c (Memref.whole main_v85)) : Prop where
  h1 : k12_chk1 (tblWord12 c i tbl 0)
  h2 : k12_chk2 (tblWord12 c i tbl 1)
  h3 : k12_chk3 (tblWord12 c i tbl 2)
  h4 : k12_chk4 (tblWord12 c i tbl 3)
  h5 : k12_chk5 (tblWord12 c i tbl 4)
  h6 : k12_chk6 (tblWord12 c i tbl 5)
  h7 : k12_chk7 (tblWord12 c i tbl 6)
  h8 : k12_chk8 (tblWord12 c i tbl 7)

/-- A one-row slice of the embedding array at the row a word names, read at lane `z 1`: the array's element there. -/
theorem rowRead12 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun12 (c : Dev nD) (i : grid12.Coords)
    (M3 : Memref sig .tc .vmem S8x1 .f32) (h3 : M3.IsWhole) (M4 : Memref sig .tc .vmem S8x128 .f32) (h4 : M4.IsWhole)
    (tbl : Bf (F := F) c (Memref.whole main_v85)) (x : Bf (F := F) c (Memref.whole main_arg0))
    (vb : Vec F S8x1 .f32) (hchk : GatherChk12 c i tbl) (Q : PUnit → sProp (MM F)) :
    iprop(pt c (Memref.whole main_v85) tbl ∗ pt c (Memref.whole main_arg0) x
      ∗ owns (c : Thread nD τ) M3 fullShare vb ∗ (∃ d, owns (c : Thread nD τ) M4 fullShare d)
      ∗ (∃ fs, pt c (Memref.whole cc12_scratch0) fs) ∗ sems12 c ∗ (∃ W, owes (c : Thread nD τ) (0 : CellTallies nD τ sig Unit) W)
      ∗ (iprop(pt c (Memref.whole main_v85) tbl ∗ pt c (Memref.whole main_arg0) x
          ∗ owns (c : Thread nD τ) M3 fullShare vb ∗ owns (c : Thread nD τ) M4 fullShare (gatherBlk x (tblWord12 c i tbl) vb)
          ∗ (∃ fs, pt c (Memref.whole cc12_scratch0) fs) ∗ sems12 c ∗ (∃ W, owes (c : Thread nD τ) (0 : CellTallies nD τ sig Unit) W)) -∗ Q ⟨⟩))
    ⊢ wp frame (wpE (defs₀ (F := F)) 𝒱₀ c none) Set.univ
        (cc12__gather_kernel i (Memref.whole main_v85) (Memref.isWhole_whole _) (Memref.whole main_arg0) (Memref.isWhole_whole _) M3 h3 M4 h4
          (Memref.whole cc12_scratch0) (Memref.isWhole_whole _) cc12_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 148).1 $$ Hx
  icases Hx' with ⟨Hxr, Hx0, Hx1, Hx2, Hx3, Hx4, Hx5, Hx6, Hx7⟩
  sl_unfold [cc12__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 148).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k12_pay1 gatherBlk
    show FloatOps.mulf _ _ = FloatOps.mulf _ _
    congr 1
    · unfold gatherRun12.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun12.sl.dma8 gatherRun12.sl.dma8_1 gatherRun12.sl.dma8_2 gatherRun12.sl.dma8_3 gatherRun12.sl.dma8_4 gatherRun12.sl.dma8_5
        gatherRun12.sl.dma8_6 gatherRun12.sl.dma8_7 gatherRun12.sl.r gatherRun12.sl.r_1 gatherRun12.sl.r_2 gatherRun12.sl.r_3 gatherRun12.sl.r_4
        gatherRun12.sl.r_5 gatherRun12.sl.r_6 gatherRun12.sl.r_7
      refine canonRows8 _ _ _ _ _ _ _ _ _ _ _ _ _ _ _ _ (fun r d => x (embIdx (rowOf (tblWord12 c i tbl r)) d)) ?_ ?_ ?_ ?_ ?_ ?_ ?_ ?_ y
      · exact fun z => rowRead12 c _ (tblWord12 c i tbl 0) rfl rfl _ _ x z
      · exact fun z => rowRead12 c _ (tblWord12 c i tbl 1) rfl rfl _ _ x z
      · exact fun z => rowRead12 c _ (tblWord12 c i tbl 2) rfl rfl _ _ x z
      · exact fun z => rowRead12 c _ (tblWord12 c i tbl 3) rfl rfl _ _ x z
      · exact fun z => rowRead12 c _ (tblWord12 c i tbl 4) rfl rfl _ _ x z
      · exact fun z => rowRead12 c _ (tblWord12 c i tbl 5) rfl rfl _ _ x z
      · exact fun z => rowRead12 c _ (tblWord12 c i tbl 6) rfl rfl _ _ x z
      · exact fun z => rowRead12 c _ (tblWord12 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk12.lean ====
/-
  Gather region 12 (custom_call 12): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat12
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word12 (i : grid12.Coords) (j : Fin 8) : k12_off1 i (BitVec.ofNat 32 j.val) 0 = (i 0).val * 8 + j.val := by
  have hi : (i 0).val < 16384 := (i 0).isLt
  have hj : j.val < 8 := j.isLt
  unfold k12_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word12 (i : grid12.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord12_eq (c : Dev nD) (i : grid12.Coords) (tbl : Bf (F := F) c (Memref.whole main_v85)) (j : Fin 8)
    (e : Fin 131072) (he : e.val = (i 0).val * 8 + j.val) : tblWord12 c i tbl j = tbl (tblIdx e) := by
  unfold tblWord12
  show tbl _ = tbl _
  refine congrArg tbl ?_
  funext a; apply Fin.ext
  match a with
  | ⟨0, _⟩ =>
    show k12_off1 i (BitVec.ofNat 32 j.val) 0 + 1 * 0 = e.val
    rw [off_word12, he]; omega

/-- Row `j` of the value window's block at point `t` is the value array's row `8 t + j`. -/
theorem valBlk12_eq (a0 : (pcfg12 (F := F)).Adm) (Vin : Dev nD → Valuation τ sig (Elt F)) (c : Dev nD) (t : Fin (cfg12 a0).N)
    (j : Fin 8) (e : Fin 131072) (he : e.val = ((grid12.coords t) 0).val * 8 + j.val) :
    iblk12 a0 Vin c 0 t (colIdx j) = Vr Vin c main_v86 (valIdx e) := by
  unfold iblk12
  show Vr Vin c main_v86 _ = Vr Vin c main_v86 _
  refine congrArg (Vr Vin c main_v86) ?_
  funext a; apply Fin.ext
  match a with
  | ⟨0, _⟩ =>
    show (BitVec.ofNat 32 ((grid12.coords t) 0).val).toNat * 8 + 1 * j.val = e.val
    rw [coord_word12, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk12 (a0 : (pcfg12 (F := F)).Adm) (Vin : Dev nD → Valuation τ sig (Elt F)) (c : Dev nD) (t : Fin (cfg12 a0).N) :
    gatherBlk (Vr Vin c main_arg0) (tblWord12 c (grid12.coords t) (a0.1 0)) (iblk12 a0 Vin c 0 t)
      = (((cfg12 a0).win 1).blk t).view.read (Elt F) (gout12 a0 Vin c) := by
  funext y
  show gatherBlk _ _ _ y = gout12 a0 Vin c ((((cfg12 a0).win 1).blk t).view.emb y)
  unfold gatherBlk gout12 gatherArr
  have e0 : ((((cfg12 a0).win 1).blk t).view.emb y (0 : Fin 2)).val = ((grid12.coords t) 0).val * 8 + (y 0).val := by
    show (BitVec.ofNat 32 ((grid12.coords t) 0).val).toNat * 8 + 1 * (y 0).val = _
    rw [coord_word12]; omega
  have e1 : (((cfg12 a0).win 1).blk t).view.emb y (1 : Fin 2) = y 1 := Fin.ext (by
    show (0#32 : BitVec 32).toNat * 128 + 1 * (y 1).val = (y 1).val
    show 0 * 128 + 1 * (y 1).val = (y 1).val
    omega)
  rw [tblWord12_eq c (grid12.coords t) (a0.1 0) (y 0) _ e0, valBlk12_eq a0 Vin c t (y 0) _ e0, e1]

end Cert.KernelIdeal.Hand

end
-- ==== Proof.KI.GatherRegion12.lean ====
/-
  Gather region 12 (custom_call 12): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody12
import proofs.«414509_j14181982011419_2_alg».proof.Proof.KI.GatherBlk12
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk12 (a0 : (pcfg12 (F := F)).Adm) : Prop := ∀ e : S131072.Idx, (a0.1 0 e).toNat < 100000

/-! ## The grid and the result window's blocks -/

/-- On the one-axis grid a point's coordinate is its number. -/
theorem regCoords12 (t : Fin grid12.N) : (grid12.coords t 0).val = t.val := by
  have ht : t.val < 16384 := N_12 ▸ t.isLt
  show t.val / grid12.stride 0 % grid12.bound 0 = t.val
  rw [show grid12.stride 0 = 1 from by decide, show grid12.bound 0 = 16384 from rfl, Nat.div_one, Nat.mod_eq_of_lt ht]

/-- A point's number as the 32-bit word the index maps compute with. -/
theorem regWord12 (t : Fin grid12.N) : (BitVec.ofNat 32 (grid12.coords t 0).val).toNat = t.val := by
  have ht : t.val < 16384 := N_12 ▸ t.isLt
  rw [BitVec.toNat_ofNat, regCoords12]; omega

/-- The result window's block at point `t` is block `t` along the rows, at zero along the lanes. -/
theorem regOutIndex12 (a0 : (pcfg12 (F := F)).Adm) (t : Fin (cfg12 a0).N) : ((cfg12 a0).win 1).index t = ![t.val, 0] := by
  show cc12_transform_2 (grid12.coords t) = _
  unfold cc12_transform_2
  funext a; fin_cases a
  · exact regWord12 t
  · rfl

/-- The result window is written back at every point: consecutive points have different blocks. -/
theorem regOutFlush12 (a0 : (pcfg12 (F := F)).Adm) (t : Fin (cfg12 a0).N) : ((cfg12 a0).win 1).flush t = true := by
  have htN : t.val < 16384 := N_12 ▸ t.isLt
  rw [Pipeline.Window.flush_out _ rfl]
  by_cases h : t.val + 1 = 16384
  · exact Or.inl (show t.val + 1 = grid12.N by rw [N_12]; exact h)
  · have hlt : t.val + 1 < grid12.N := by rw [N_12]; omega
    refine Or.inr ⟨hlt, fun e => ?_⟩
    have e' : (![t.val + 1, 0] : Fin 2 → ℕ) = ![t.val, 0] := (regOutIndex12 a0 ⟨t.val + 1, hlt⟩).symm.trans (e.trans (regOutIndex12 a0 t))
    have e0 := congrFun e' 0
    simp at e0

/-- The index table, held as the pipeline's one prefetched table. -/
theorem prefHeldEq12 (a0 : (pcfg12 (F := F)).Adm) (c : Dev nD) :
    (Pipeline.prefHeld (Ix := Unit) (Name := ℕ) (U := UU nD τ) (Lvl := ℕ) pre12 c (fun _ => fullShare) a0.1 : sProp (MM F))
      = pt c (Memref.whole main_v85) (a0.1 0) := by
  unfold Pipeline.prefHeld
  rw [show (Finset.univ : Finset (Fin pre12.K)) = {0} from rfl, BI.bigSep_singleton]
  rfl

/-- The value window's staging buffer holds its block at every point. -/
theorem beforeVal12 (a0 : (pcfg12 (F := F)).Adm) (Vin : Dev nD → Valuation τ sig (Elt F)) (c : Dev nD) (t : Fin (cfg12 a0).N) (d) :
    (dat12 a0 Vin c).before 0 t d = iblk12 a0 Vin c 0 t :=
  ((dat12 a0 Vin c).before_in_eq_fetched 0 rfl (fun _ => rfl) (fun _ _ _ => rfl)
    (fun t => by rw [after12_0]; unfold Dat.blockOf iblk12; rw [A_eq12]; try rfl) t d).trans
    (by unfold Dat.fetched Dat.blockOf iblk12; rw [A_eq12]; try rfl)

/-! ## The kernel's checks, from the table's range -/

/-- Each of the point's eight words is a word of the table, so a row number. -/
theorem tblWordLt12 (a0 : (pcfg12 (F := F)).Adm) (hok : GatherOk12 a0) (c : Dev nD) (i : grid12.Coords) (j : Fin 8) :
    (tblWord12 c i (a0.1 0) j).toNat < 100000 := by
  unfold tblWord12
  exact hok _

/-- So the kernel's eight checks hold at every point. -/
theorem gatherChk12 (a0 : (pcfg12 (F := F)).Adm) (hok : GatherOk12 a0) (c : Dev nD) (i : grid12.Coords) : GatherChk12 c i (a0.1 0) :=
  ⟨⟨chkRow _ (tblWordLt12 a0 hok c i 0), chkRow _ (tblWordLt12 a0 hok c i 0)⟩,
   ⟨chkRow _ (tblWordLt12 a0 hok c i 1), chkRow _ (tblWordLt12 a0 hok c i 1)⟩,
   ⟨chkRow _ (tblWordLt12 a0 hok c i 2), chkRow _ (tblWordLt12 a0 hok c i 2)⟩,
   ⟨chkRow _ (tblWordLt12 a0 hok c i 3), chkRow _ (tblWordLt12 a0 hok c i 3)⟩,
   ⟨chkRow _ (tblWordLt12 a0 hok c i 4), chkRow _ (tblWordLt12 a0 hok c i 4)⟩,
   ⟨chkRow _ (tblWordLt12 a0 hok c i 5), chkRow _ (tblWordLt12 a0 hok c i 5)⟩,
   ⟨chkRow _ (tblWordLt12 a0 hok c i 6), chkRow _ (tblWordLt12 a0 hok c i 6)⟩,
   chkRow _ (tblWordLt12 a0 hok c i 7)⟩

/-! ## The body obligation, at a generic point -/

/-- What the body is called with at point `t`: the invariant, the core's dues, each window's current staging memref at
    what the pipeline left there, -/
def bodyPre12 (a0 : (pcfg12 (F := F)).Adm) (Vin : Dev nD → Valuation τ sig (Elt F)) (c : Dev nD) (t : Fin (cfg12 a0).N) : sProp (MM F) :=
  iprop((dat12 a0 Vin c).Φ t.castSucc ∗ (dat12 a0 Vin c).owesAt () t.castSucc
    ∗ (∃ d, owns (c : Thread nD τ) (((cfg12 a0).win 0).stage ((cfg12 a0).slots t 0)) fullShare ((dat12 a0 Vin c).before 0 t d))
    ∗ (∃ d, owns (c : Thread nD τ) (((cfg12 a0).win 1).stage ((cfg12 a0).slots t 1)) fullShare ((dat12 a0 Vin c).before 1 t d)))

/-- and what it returns. -/
def bodyPost12 (a0 : (pcfg12 (F := F)).Adm) (Vin : Dev nD → Valuation τ sig (Elt F)) (c : Dev nD) (t : Fin (cfg12 a0).N) : sProp (MM F) :=
  iprop((dat12 a0 Vin c).Φ t.succ ∗ (dat12 a0 Vin c).owesAt () t.succ
    ∗ owns (c : Thread nD τ) (((cfg12 a0).win 0).stage ((cfg12 a0).slots t 0)) fullShare ((dat12 a0 Vin c).after 0 t)
    ∗ owns (c : Thread nD τ) (((cfg12 a0).win 1).stage ((cfg12 a0).slots t 1)) fullShare ((dat12 a0 Vin c).after 1 t))

/-- The body at any point: the invariant opened into the embedding array, the semaphores, the table and the scratch;
    the value window's memref at its block; the checks from the table's range; so the kernel's run applies, and what it
    leaves in the result window's memref is the point's block of the gathered array. -/
theorem sound_body12 (a0 : (pcfg12 (F := F)).Adm) (hok : GatherOk12 a0) (Vin : Dev nD → Valuation τ sig (Elt F)) (c : Dev nD) (t : Fin (cfg12 a0).N) :
    bodyPre12 a0 Vin c t ⊢ wp frame (wpE (defs₀ (F := F)) 𝒱₀ c none) Set.univ
      (defs₀ .tc (cfg12 a0).body ((cfg12 a0).bodyArgs t ((cfg12 a0).slots t))) (fun _ => bodyPost12 a0 Vin c t) := by
  unfold bodyPre12 bodyPost12
  simp only [beforeVal12]
  rw [Phi_eq12, Phi_eq12, after12_0, after12_1, ← gatherBlk_blk12]
  unfold Phi12 Pipeline.Dat.owesAt Pipeline.owesWithin
  rw [owed_eq12, owed_eq12, prefHeldEq12, scopedRest12_split]
  iintro ⟨⟨Hx, Hos, Ht, ⟨%fs, Hs⟩, Hsb⟩, ⟨%W, %hW, HO⟩, ⟨%d0, H0⟩, ⟨%d1, H1⟩⟩
  iapply (gatherRun12 c (grid12.coords t) _ _ _ _ (a0.1 0) (Vr Vin c main_arg0) (iblk12 a0 Vin c 0 t) (gatherChk12 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation12 (a0 : (pcfg12 (F := F)).Adm) (hok : GatherOk12 a0) (Vin : Dev nD → Valuation τ sig (Elt F)) (c : Dev nD) :
    BodyObligation (dat12 a0 Vin c) (defs₀ (F := F)) 𝒱₀ () Set.univ := fun t => by
  rw [bigSep_W12, bigSep_W12]
  exact sound_body12 a0 hok Vin c t

/-! ## From the blocks to the arrays -/

/-- The value array after the region: as entered. -/
theorem arrAt12_in (a0 : (pcfg12 (F := F)).Adm) (Vin : Dev nD → Valuation τ sig (Elt F)) (c : Dev nD) :
    (dat12 a0 Vin c).arrAt 0 (cfg12 a0).N = Vr Vin c main_v86 :=
  ((dat12 a0 Vin c).arrAt_in 0 rfl _).trans (A_eq12 a0 Vin c 0)

/-- Every index of the result array is in some point's block: row `e`, lane `d` is element `(e % 8, d)` of the block
    of point `e / 8`. -/
theorem regOutCover12 (a0 : (pcfg12 (F := F)).Adm) (i : S131072x128.Idx) :
    ∃ t : Fin (cfg12 a0).N, ((cfg12 a0).win 1).flush t = true ∧ i ∈ (((cfg12 a0).win 1).blk t).view.set := by
  have hi0 : (i 0).val < 131072 := (i 0).isLt
  have hi1 : (i 1).val < 128 := (i 1).isLt
  have hN : (i 0).val / 8 < grid12.N := by rw [N_12]; omega
  obtain ⟨t, ht⟩ : ∃ t : Fin (cfg12 a0).N, t.val = (i 0).val / 8 := ⟨⟨_, hN⟩, rfl⟩
  have hx : (((cfg12 a0).win 1).blk t).view.emb (ValueIdx.ix2 ⟨(i 0).val % 8, Nat.mod_lt _ (by decide)⟩ (i 1)) = i := by
    funext a; apply Fin.ext
    have e0 : ((cfg12 a0).win 1).index t (0 : Fin 2) = t.val := congrFun (regOutIndex12 a0 t) (0 : Fin 2)
    have e1 : ((cfg12 a0).win 1).index t (1 : Fin 2) = 0 := congrFun (regOutIndex12 a0 t) (1 : Fin 2)
    match a with
    | ⟨0, _⟩ => show ((cfg12 a0).win 1).index t (0 : Fin 2) * 8 + 1 * ((i 0).val % 8) = (i 0).val; omega
    | ⟨1, _⟩ => show ((cfg12 a0).win 1).index t (1 : Fin 2) * 128 + 1 * (i 1).val = (i 1).val; omega
  exact ⟨t, regOutFlush12 a0 t, hx ▸ (((cfg12 a0).win 1).blk t).view.emb_mem_set _⟩

/-- The result array after the region: the gathered and scaled rows, whole. -/
theorem arrAt12_out (a0 : (pcfg12 (F := F)).Adm) (Vin : Dev nD → Valuation τ sig (Elt F)) (c : Dev nD) :
    (dat12 a0 Vin c).arrAt 1 (cfg12 a0).N = gout12 a0 Vin c :=
  (dat12 a0 Vin c).arrAt_eq_of_cover 1 (gout12 a0 Vin c)
    (fun t _ => by
      show ((cfg12 a0).win 1).cut ((cfg12 a0).grid.coords t) ((dat12 a0 Vin c).after 1 t) = _
      rw [after12_1])
    (regOutCover12 a0)

/-! ## The region as a segment of @main -/

/-- The ownership layout of the kernel's eight semaphores. -/
theorem ownSemFacts12 : Pipeline.OwnSemFacts spec12 osem12 := by decide

/-- The kernel's own cells at zero, listed. -/
theorem ownSemsListed12 (c : Dev nD) :
    (Pipeline.ownSems0 (Ix := Unit) (Name := ℕ) (U := UU nD τ) (Lvl := ℕ) (Val := Elt F) (τ := τ) osem12 c : sProp (MM F)) = sems12 c :=
  Pipeline.ownSems0_eq_of_list c osem12 [0, 1, 2, 3, 4, 5, 6, 7] (by decide) (by decide)

/-- The unscoped buffers that are no window's array, no table, and not the embedding array. -/
abbrev restRefs12 : Finset (Ref sig .tc) :=
  (((Finset.univ.filter fun b : Ref sig .tc => ¬ b.isScoped) \ Finset.univ.image (Pipeline.arrRef spec12)) \ Finset.univ.image pre12.ref) \ {main_arg0}

/-- Those buffers, each whole at its contents under `Vin`: what bypasses the region. -/
def Zrest12 (Vin : Dev nD → Valuation τ sig (Elt F)) (c : Dev nD) : sProp (MM F) :=
  bigSep restRefs12 fun b => ((c : Thread nD τ).loc b) ↦{fullShare} Vr Vin c b

/-- The embedding array is an unscoped buffer that is no window's array and no table. -/
theorem embArrMem12 : ({main_arg0} : Finset (Ref sig .tc)) ⊆
    ((Finset.univ.filter fun b : Ref sig .tc => ¬ b.isScoped) \ Finset.univ.image (Pipeline.arrRef spec12)) \ Finset.univ.image pre12.ref := by
  decide

/-- The unscoped buffers that are no window's array: the index table, the embedding array, and the rest. -/
theorem unscopedRestOpen12 (Vin : Dev nD → Valuation τ sig (Elt F)) (c : Dev nD) :
    (Pipeline.unscopedRest (Ix := Unit) (Name := ℕ) (U := UU nD τ) (Lvl := ℕ) spec12 c (Vr Vin c) : sProp (MM F))
      = iprop(Pipeline.prefHeld pre12 c (fun _ => fullShare) (fun k => Vr Vin c (pre12.ref k))
          ∗ pt c (Memref.whole main_arg0) (Vr Vin c main_arg0) ∗ Zrest12 Vin c) := by
  rw [Pipeline.unscopedRest_split preFacts12 c (Vr Vin c)]
  unfold Pipeline.unscopedRestP Zrest12
  rw [BI.bigSep_sdiff_split embArrMem12, BI.bigSep_singleton]
  rfl

/-- The buffer contents when the region is left: the result array at the gathered rows, every other buffer as entered. -/
abbrev Vout12 (a0 : (pcfg12 (F := F)).Adm) (Vin : Dev nD → Valuation τ sig (Elt F)) (c : Dev nD) : Valuation τ sig (Elt F) :=
  Function.update (Vin c) main_v87 (gout12 a0 Vin c)

/-- At the exit each of the region's arrays holds what the pipeline leaves; -/
theorem hF12 (a0 : (pcfg12 (F := F)).Adm) (Vin : Dev nD → Valuation τ sig (Elt F)) (c : Dev nD) (w : Fin (cfg12 a0).W) :
    (dat12 a0 Vin c).arrAt w (cfg12 a0).N = Vr (Vout12 a0 Vin) c (Pipeline.arrRef spec12 w) := by
  match w with
  | ⟨0, _⟩ =>
    show (dat12 a0 Vin c).arrAt 0 (cfg12 a0).N = Vr (Vout12 a0 Vin) c (Pipeline.arrRef spec12 0)
    rw [arrAt12_in]
    exact (Function.update_of_ne (StableHlo.devRef_ne_of_ne (by decide) : (Proc.devRef .tc main_v86 : DevRef τ sig) ≠ Proc.devRef .tc main_v87) _ _).symm
  | ⟨1, _⟩ =>
    show (dat12 a0 Vin c).arrAt 1 (cfg12 a0).N = Vr (Vout12 a0 Vin) c (Pipeline.arrRef spec12 1)
    rw [arrAt12_out]
    exact (Function.update_self (Proc.devRef .tc main_v87 : DevRef τ sig) _ (Vin c)).symm

/-- and every other buffer what it held at entry. -/
theorem hrest12 (a0 : (pcfg12 (F := F)).Adm) (Vin : Dev nD → Valuation τ sig (Elt F)) (c : Dev nD) :
    ∀ b : Ref sig .tc, b ∉ Finset.univ.image (Pipeline.arrRef spec12) → Vr (Vout12 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat12` at the entry valuation `Vin`
    (`hd`), the index table's contents under `Vin` being the pinned ones (`htbl`) and row numbers (`hok`). -/
def reg12 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk12 (F := F) (a (12 : Fin 34)))
    (hd : ∀ c, pdats (12 : Fin 34) c = dat12 (a (12 : Fin 34)) Vin c) (htbl : ∀ c, (a (12 : Fin 34)).1 = fun k => Vr Vin c (pre12.ref k)) :
    Pipeline.RegionSeg (pcfgs (F := F)) a pdats () defs₀ 𝒱₀ L lv (12 : Fin 34) where
  win := (launch12 (F := F)).win.to₀
  block_pos := (launch12 (F := F)).block_pos
  stage_whole := (launch12 (F := F)).stage_whole
  K := Fin 8
  osem := osem12
  ho := ownSemFacts12
  hbody c := by rw [hd c]; exact (body_obligation12 (a (12 : Fin 34)) hok Vin c).loose
  hwaits := Pipeline.hwaits_of_owed_zero _ _ _ _ L lv (12 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v87 (gout12 (a (12 : Fin 34)) Vin c)) ∗ Rest c)
  X c := iprop(pt c (Memref.whole main_arg0) (Vr Vin c main_arg0) ∗ sems12 c)
  Y c := iprop(pt c (Memref.whole main_arg0) (Vr Vin c main_arg0)
    ∗ Pipeline.prefHeld (Ix := Unit) (Name := ℕ) (U := UU nD τ) (Lvl := ℕ) pre12 c (fun _ => fullShare) (a (12 : Fin 34)).1)
  Z c := Zrest12 Vin c
  hentry c := by
    rw [ownSemsListed12]
    have hsplit := Pipeline.arrays_of_unscopedBufs (p := (12 : Fin 34)) (pcfgs (F := F)) a pdats (launch12 (F := F)).win (launch12 (F := F)).arr_whole c
      ((pdats (12 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen12 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (12 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq12]; unfold Phi12
    iintro ⟨⟨Hx, Hos⟩, Ht, Hr⟩
    isplitl [Hx]; · iexact Hx
    isplitl [Hos]; · iexact Hos
    isplitl [Ht]; · iexact Ht
    iexact Hr
  hout c := by
    rw [ownSemsListed12, hd c, Phi_eq12]; unfold Phi12
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (12 : Fin 34)) (pcfgs (F := F)) a (Ix := Unit) (Name := ℕ) (U := UU nD τ) (Lvl := ℕ)
      (launch12 (F := F)).win (launch12 (F := F)).arr_whole c pdats ((pdats (12 : Fin 34) c).share_full fun _ => by rw [hd c]; rfl)
      (Vr Vin c) (Vr (Vout12 (a (12 : Fin 34)) Vin) c) ((pdats (12 : Fin 34) c).arrAt · (cfg12 (a (12 : Fin 34))).N)
      (fun w => by rw [hd c]; exact hF12 (a (12 : Fin 34)) Vin c w) (hrest12 (a (12 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen12 Vin c).symm)
      isplitl [Ht]; · rw [← htbl c]; iexact Ht
      isplitl [Hx]; · iexact Hx
      iexact Hz
    unfold Pipeline.Dat.owesAt Pipeline.owesWithin
    rw [show (pdats (12 : Fin 34) c).owed (Fin.last _) = 0 from by rw [hd c]; rfl]
    icases HO with ⟨%W, -, HO⟩; iexists W; iexact HO

end Cert.KernelIdeal.Hand

end
-- ==== Proof.KI.GatherDat13.lean ====
/-
  Gather region 13 (custom_call 13): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem13 : Fin 8 → SemLoc sig := fun | 0 => .dma 160 | 1 => .dma 161 | 2 => .dma 162 | 3 => .dma 163 | 4 => .dma 164 | 5 => .dma 165 | 6 => .dma 166 | 7 => .dma 167

/-- The eight counters at zero, as the run finds them and hands them back. -/
abbrev sems13 (c : Dev nD) : sProp (MM F) :=
  iprop(semVal ((c : Thread nD τ), osem13 0) 0 ∗ semVal ((c : Thread nD τ), osem13 1) 0 ∗ semVal ((c : Thread nD τ), osem13 2) 0
    ∗ semVal ((c : Thread nD τ), osem13 3) 0 ∗ semVal ((c : Thread nD τ), osem13 4) 0 ∗ semVal ((c : Thread nD τ), osem13 5) 0
    ∗ semVal ((c : Thread nD τ), osem13 6) 0 ∗ semVal ((c : Thread nD τ), osem13 7) 0)

/-- Word `j` of the eight the index table holds for point `i`, as the kernel's scalar load reads it. -/
def tblWord13 (c : Dev nD) (i : grid13.Coords) (tbl : Bf (F := F) c (Memref.whole main_v88)) (j : Fin 8) : BitVec 32 :=
  (Memref.whole main_v88).view.readAt (Elt F) (Rect.unit (s := S131072) (k13_off1 i (BitVec.ofNat 32 j.val)) S1.size (k13_off1_inb i j)).toLoadRect tbl
    (Shape.Idx.first (s := S1) (numel1_S1.symm ▸ Nat.one_pos))

/-- Window `w`'s block at point `t`, read off its array at the region's entry. -/
def iblk13 (a0 : (pcfg13 (F := F)).Adm) (Vin : Dev nD → Valuation τ sig (Elt F)) (c : Dev nD) (w : Fin (cfg13 a0).W) (t : Fin (cfg13 a0).N) :
    (((cfg13 a0).win w).xblock ((cfg13 a0).grid.coords t)).Idx → Elt F ((cfg13 a0).win w).elt :=
  (((cfg13 a0).win w).blk t).view.read (Elt F) (Vr Vin c (Pipeline.arrRef spec13 w))

/-- The result array the region leaves: the gathered and scaled rows of the embedding array, whole. -/
def gout13 (a0 : (pcfg13 (F := F)).Adm) (Vin : Dev nD → Valuation τ sig (Elt F)) (c : Dev nD) : Buf (Elt F) ((c : Thread nD τ).loc main_v90) :=
  gatherArr (Vr Vin c main_arg0) (a0.1 0) (Vr Vin c main_v89)

/-- The invariant between points: the embedding array as entered, the kernel's semaphores at zero, the index table, the
    scoped buffers no window stages (the kernel's scratch among them). -/
def Phi13 (a0 : (pcfg13 (F := F)).Adm) (Vin : Dev nD → Valuation τ sig (Elt F)) (c : Dev nD) : sProp (MM F) :=
  iprop(pt c (Memref.whole main_arg0) (Vr Vin c main_arg0) ∗ sems13 c
    ∗ Pipeline.prefHeld (Ix := Unit) (Name := ℕ) (U := UU nD τ) (Lvl := ℕ) pre13 c (fun _ => fullShare) a0.1
    ∗ Pipeline.scopedRest (Ix := Unit) (Name := ℕ) (U := UU nD τ) (Lvl := ℕ) (Val := Elt F) spec13 c)

/-- The proof data on core `c`. -/
def dat13 (a0 : (pcfg13 (F := F)).Adm) (Vin : Dev nD → Valuation τ sig (Elt F)) (c : Dev nD) :
    Pipeline.Dat τ (Elt F) Unit ℕ (UU nD τ) ℕ ((pcfg13 (F := F)).at a0) c where
  A w := Vr Vin c (Pipeline.arrRef spec13 w)
  after w t := match w with
    | ⟨0, _⟩ => iblk13 a0 Vin c 0 t
    | ⟨1, _⟩ => (((cfg13 a0).win 1).blk t).view.read (Elt F) (gout13 a0 Vin c)
  Φ _ := Phi13 a0 Vin c
  q _ := fullShare
  owed _ := 0

theorem A_eq13 (a0 : (pcfg13 (F := F)).Adm) (Vin : Dev nD → Valuation τ sig (Elt F)) (c : Dev nD) (w : Fin (cfg13 a0).W) :
    (dat13 a0 Vin c).A w = Vr Vin c (Pipeline.arrRef spec13 w) := by dsimp only [dat13]
theorem after13_0 (a0 : (pcfg13 (F := F)).Adm) (Vin : Dev nD → Valuation τ sig (Elt F)) (c : Dev nD) (t : Fin (cfg13 a0).N) :
    (dat13 a0 Vin c).after 0 t = iblk13 a0 Vin c 0 t := by dsimp only [dat13]; rfl
theorem after13_1 (a0 : (pcfg13 (F := F)).Adm) (Vin : Dev nD → Valuation τ sig (Elt F)) (c : Dev nD) (t : Fin (cfg13 a0).N) :
    (dat13 a0 Vin c).after 1 t = (((cfg13 a0).win 1).blk t).view.read (Elt F) (gout13 a0 Vin c) := by dsimp only [dat13]; rfl
theorem Phi_eq13 (a0 : (pcfg13 (F := F)).Adm) (Vin : Dev nD → Valuation τ sig (Elt F)) (c : Dev nD) (t : Fin ((cfg13 a0).N + 1)) :
    (dat13 a0 Vin c).Φ t = Phi13 a0 Vin c := rfl
theorem owed_eq13 (a0 : (pcfg13 (F := F)).Adm) (Vin : Dev nD → Valuation τ sig (Elt F)) (c : Dev nD) (t : Fin ((cfg13 a0).N + 1)) :
    (dat13 a0 Vin c).owed t = 0 := rfl
theorem q_eq13 (a0 : (pcfg13 (F := F)).Adm) (Vin : Dev nD → Valuation τ sig (Elt F)) (c : Dev nD) (w : Fin (cfg13 a0).W) :
    (dat13 a0 Vin c).q w = fullShare := rfl

/-- The pinned family's configuration at region 13 is this one. -/
example (a : (p : Fin 34) → (pcfgs (F := F) p).Adm) : Pipeline.pin (pcfgs (F := F)) a (13 : Fin 34) = (pcfg13 (F := F)).at (a (13 : Fin 34)) := rfl

end Cert.KernelIdeal.Hand

end
-- ==== Proof.KI.GatherBody13.lean ====
/-
  Gather region 13 (custom_call 13): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat13
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk13 (c : Dev nD) (i : grid13.Coords) (tbl : Bf (F := F) c (Memref.whole main_v88)) : Prop where
  h1 : k13_chk1 (tblWord13 c i tbl 0)
  h2 : k13_chk2 (tblWord13 c i tbl 1)
  h3 : k13_chk3 (tblWord13 c i tbl 2)
  h4 : k13_chk4 (tblWord13 c i tbl 3)
  h5 : k13_chk5 (tblWord13 c i tbl 4)
  h6 : k13_chk6 (tblWord13 c i tbl 5)
  h7 : k13_chk7 (tblWord13 c i tbl 6)
  h8 : k13_chk8 (tblWord13 c i tbl 7)

/-- A one-row slice of the embedding array at the row a word names, read at lane `z 1`: the array's element there. -/
theorem rowRead13 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun13 (c : Dev nD) (i : grid13.Coords)
    (M3 : Memref sig .tc .vmem S8x1 .f32) (h3 : M3.IsWhole) (M4 : Memref sig .tc .vmem S8x128 .f32) (h4 : M4.IsWhole)
    (tbl : Bf (F := F) c (Memref.whole main_v88)) (x : Bf (F := F) c (Memref.whole main_arg0))
    (vb : Vec F S8x1 .f32) (hchk : GatherChk13 c i tbl) (Q : PUnit → sProp (MM F)) :
    iprop(pt c (Memref.whole main_v88) tbl ∗ pt c (Memref.whole main_arg0) x
      ∗ owns (c : Thread nD τ) M3 fullShare vb ∗ (∃ d, owns (c : Thread nD τ) M4 fullShare d)
      ∗ (∃ fs, pt c (Memref.whole cc13_scratch0) fs) ∗ sems13 c ∗ (∃ W, owes (c : Thread nD τ) (0 : CellTallies nD τ sig Unit) W)
      ∗ (iprop(pt c (Memref.whole main_v88) tbl ∗ pt c (Memref.whole main_arg0) x
          ∗ owns (c : Thread nD τ) M3 fullShare vb ∗ owns (c : Thread nD τ) M4 fullShare (gatherBlk x (tblWord13 c i tbl) vb)
          ∗ (∃ fs, pt c (Memref.whole cc13_scratch0) fs) ∗ sems13 c ∗ (∃ W, owes (c : Thread nD τ) (0 : CellTallies nD τ sig Unit) W)) -∗ Q ⟨⟩))
    ⊢ wp frame (wpE (defs₀ (F := F)) 𝒱₀ c none) Set.univ
        (cc13__gather_kernel i (Memref.whole main_v88) (Memref.isWhole_whole _) (Memref.whole main_arg0) (Memref.isWhole_whole _) M3 h3 M4 h4
          (Memref.whole cc13_scratch0) (Memref.isWhole_whole _) cc13_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 160).1 $$ Hx
  icases Hx' with ⟨Hxr, Hx0, Hx1, Hx2, Hx3, Hx4, Hx5, Hx6, Hx7⟩
  sl_unfold [cc13__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 160).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k13_pay1 gatherBlk
    show FloatOps.mulf _ _ = FloatOps.mulf _ _
    congr 1
    · unfold gatherRun13.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun13.sl.dma8 gatherRun13.sl.dma8_1 gatherRun13.sl.dma8_2 gatherRun13.sl.dma8_3 gatherRun13.sl.dma8_4 gatherRun13.sl.dma8_5
        gatherRun13.sl.dma8_6 gatherRun13.sl.dma8_7 gatherRun13.sl.r gatherRun13.sl.r_1 gatherRun13.sl.r_2 gatherRun13.sl.r_3 gatherRun13.sl.r_4
        gatherRun13.sl.r_5 gatherRun13.sl.r_6 gatherRun13.sl.r_7
      refine canonRows8 _ _ _ _ _ _ _ _ _ _ _ _ _ _ _ _ (fun r d => x (embIdx (rowOf (tblWord13 c i tbl r)) d)) ?_ ?_ ?_ ?_ ?_ ?_ ?_ ?_ y
      · exact fun z => rowRead13 c _ (tblWord13 c i tbl 0) rfl rfl _ _ x z
      · exact fun z => rowRead13 c _ (tblWord13 c i tbl 1) rfl rfl _ _ x z
      · exact fun z => rowRead13 c _ (tblWord13 c i tbl 2) rfl rfl _ _ x z
      · exact fun z => rowRead13 c _ (tblWord13 c i tbl 3) rfl rfl _ _ x z
      · exact fun z => rowRead13 c _ (tblWord13 c i tbl 4) rfl rfl _ _ x z
      · exact fun z => rowRead13 c _ (tblWord13 c i tbl 5) rfl rfl _ _ x z
      · exact fun z => rowRead13 c _ (tblWord13 c i tbl 6) rfl rfl _ _ x z
      · exact fun z => rowRead13 c _ (tblWord13 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk13.lean ====
/-
  Gather region 13 (custom_call 13): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat13
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word13 (i : grid13.Coords) (j : Fin 8) : k13_off1 i (BitVec.ofNat 32 j.val) 0 = (i 0).val * 8 + j.val := by
  have hi : (i 0).val < 16384 := (i 0).isLt
  have hj : j.val < 8 := j.isLt
  unfold k13_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word13 (i : grid13.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord13_eq (c : Dev nD) (i : grid13.Coords) (tbl : Bf (F := F) c (Memref.whole main_v88)) (j : Fin 8)
    (e : Fin 131072) (he : e.val = (i 0).val * 8 + j.val) : tblWord13 c i tbl j = tbl (tblIdx e) := by
  unfold tblWord13
  show tbl _ = tbl _
  refine congrArg tbl ?_
  funext a; apply Fin.ext
  match a with
  | ⟨0, _⟩ =>
    show k13_off1 i (BitVec.ofNat 32 j.val) 0 + 1 * 0 = e.val
    rw [off_word13, he]; omega

/-- Row `j` of the value window's block at point `t` is the value array's row `8 t + j`. -/
theorem valBlk13_eq (a0 : (pcfg13 (F := F)).Adm) (Vin : Dev nD → Valuation τ sig (Elt F)) (c : Dev nD) (t : Fin (cfg13 a0).N)
    (j : Fin 8) (e : Fin 131072) (he : e.val = ((grid13.coords t) 0).val * 8 + j.val) :
    iblk13 a0 Vin c 0 t (colIdx j) = Vr Vin c main_v89 (valIdx e) := by
  unfold iblk13
  show Vr Vin c main_v89 _ = Vr Vin c main_v89 _
  refine congrArg (Vr Vin c main_v89) ?_
  funext a; apply Fin.ext
  match a with
  | ⟨0, _⟩ =>
    show (BitVec.ofNat 32 ((grid13.coords t) 0).val).toNat * 8 + 1 * j.val = e.val
    rw [coord_word13, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk13 (a0 : (pcfg13 (F := F)).Adm) (Vin : Dev nD → Valuation τ sig (Elt F)) (c : Dev nD) (t : Fin (cfg13 a0).N) :
    gatherBlk (Vr Vin c main_arg0) (tblWord13 c (grid13.coords t) (a0.1 0)) (iblk13 a0 Vin c 0 t)
      = (((cfg13 a0).win 1).blk t).view.read (Elt F) (gout13 a0 Vin c) := by
  funext y
  show gatherBlk _ _ _ y = gout13 a0 Vin c ((((cfg13 a0).win 1).blk t).view.emb y)
  unfold gatherBlk gout13 gatherArr
  have e0 : ((((cfg13 a0).win 1).blk t).view.emb y (0 : Fin 2)).val = ((grid13.coords t) 0).val * 8 + (y 0).val := by
    show (BitVec.ofNat 32 ((grid13.coords t) 0).val).toNat * 8 + 1 * (y 0).val = _
    rw [coord_word13]; omega
  have e1 : (((cfg13 a0).win 1).blk t).view.emb y (1 : Fin 2) = y 1 := Fin.ext (by
    show (0#32 : BitVec 32).toNat * 128 + 1 * (y 1).val = (y 1).val
    show 0 * 128 + 1 * (y 1).val = (y 1).val
    omega)
  rw [tblWord13_eq c (grid13.coords t) (a0.1 0) (y 0) _ e0, valBlk13_eq a0 Vin c t (y 0) _ e0, e1]

end Cert.KernelIdeal.Hand

end
-- ==== Proof.KI.GatherRegion13.lean ====
/-
  Gather region 13 (custom_call 13): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody13
import proofs.«414509_j14181982011419_2_alg».proof.Proof.KI.GatherBlk13
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk13 (a0 : (pcfg13 (F := F)).Adm) : Prop := ∀ e : S131072.Idx, (a0.1 0 e).toNat < 100000

/-! ## The grid and the result window's blocks -/

/-- On the one-axis grid a point's coordinate is its number. -/
theorem regCoords13 (t : Fin grid13.N) : (grid13.coords t 0).val = t.val := by
  have ht : t.val < 16384 := N_13 ▸ t.isLt
  show t.val / grid13.stride 0 % grid13.bound 0 = t.val
  rw [show grid13.stride 0 = 1 from by decide, show grid13.bound 0 = 16384 from rfl, Nat.div_one, Nat.mod_eq_of_lt ht]

/-- A point's number as the 32-bit word the index maps compute with. -/
theorem regWord13 (t : Fin grid13.N) : (BitVec.ofNat 32 (grid13.coords t 0).val).toNat = t.val := by
  have ht : t.val < 16384 := N_13 ▸ t.isLt
  rw [BitVec.toNat_ofNat, regCoords13]; omega

/-- The result window's block at point `t` is block `t` along the rows, at zero along the lanes. -/
theorem regOutIndex13 (a0 : (pcfg13 (F := F)).Adm) (t : Fin (cfg13 a0).N) : ((cfg13 a0).win 1).index t = ![t.val, 0] := by
  show cc13_transform_2 (grid13.coords t) = _
  unfold cc13_transform_2
  funext a; fin_cases a
  · exact regWord13 t
  · rfl

/-- The result window is written back at every point: consecutive points have different blocks. -/
theorem regOutFlush13 (a0 : (pcfg13 (F := F)).Adm) (t : Fin (cfg13 a0).N) : ((cfg13 a0).win 1).flush t = true := by
  have htN : t.val < 16384 := N_13 ▸ t.isLt
  rw [Pipeline.Window.flush_out _ rfl]
  by_cases h : t.val + 1 = 16384
  · exact Or.inl (show t.val + 1 = grid13.N by rw [N_13]; exact h)
  · have hlt : t.val + 1 < grid13.N := by rw [N_13]; omega
    refine Or.inr ⟨hlt, fun e => ?_⟩
    have e' : (![t.val + 1, 0] : Fin 2 → ℕ) = ![t.val, 0] := (regOutIndex13 a0 ⟨t.val + 1, hlt⟩).symm.trans (e.trans (regOutIndex13 a0 t))
    have e0 := congrFun e' 0
    simp at e0

/-- The index table, held as the pipeline's one prefetched table. -/
theorem prefHeldEq13 (a0 : (pcfg13 (F := F)).Adm) (c : Dev nD) :
    (Pipeline.prefHeld (Ix := Unit) (Name := ℕ) (U := UU nD τ) (Lvl := ℕ) pre13 c (fun _ => fullShare) a0.1 : sProp (MM F))
      = pt c (Memref.whole main_v88) (a0.1 0) := by
  unfold Pipeline.prefHeld
  rw [show (Finset.univ : Finset (Fin pre13.K)) = {0} from rfl, BI.bigSep_singleton]
  rfl

/-- The value window's staging buffer holds its block at every point. -/
theorem beforeVal13 (a0 : (pcfg13 (F := F)).Adm) (Vin : Dev nD → Valuation τ sig (Elt F)) (c : Dev nD) (t : Fin (cfg13 a0).N) (d) :
    (dat13 a0 Vin c).before 0 t d = iblk13 a0 Vin c 0 t :=
  ((dat13 a0 Vin c).before_in_eq_fetched 0 rfl (fun _ => rfl) (fun _ _ _ => rfl)
    (fun t => by rw [after13_0]; unfold Dat.blockOf iblk13; rw [A_eq13]; try rfl) t d).trans
    (by unfold Dat.fetched Dat.blockOf iblk13; rw [A_eq13]; try rfl)

/-! ## The kernel's checks, from the table's range -/

/-- Each of the point's eight words is a word of the table, so a row number. -/
theorem tblWordLt13 (a0 : (pcfg13 (F := F)).Adm) (hok : GatherOk13 a0) (c : Dev nD) (i : grid13.Coords) (j : Fin 8) :
    (tblWord13 c i (a0.1 0) j).toNat < 100000 := by
  unfold tblWord13
  exact hok _

/-- So the kernel's eight checks hold at every point. -/
theorem gatherChk13 (a0 : (pcfg13 (F := F)).Adm) (hok : GatherOk13 a0) (c : Dev nD) (i : grid13.Coords) : GatherChk13 c i (a0.1 0) :=
  ⟨⟨chkRow _ (tblWordLt13 a0 hok c i 0), chkRow _ (tblWordLt13 a0 hok c i 0)⟩,
   ⟨chkRow _ (tblWordLt13 a0 hok c i 1), chkRow _ (tblWordLt13 a0 hok c i 1)⟩,
   ⟨chkRow _ (tblWordLt13 a0 hok c i 2), chkRow _ (tblWordLt13 a0 hok c i 2)⟩,
   ⟨chkRow _ (tblWordLt13 a0 hok c i 3), chkRow _ (tblWordLt13 a0 hok c i 3)⟩,
   ⟨chkRow _ (tblWordLt13 a0 hok c i 4), chkRow _ (tblWordLt13 a0 hok c i 4)⟩,
   ⟨chkRow _ (tblWordLt13 a0 hok c i 5), chkRow _ (tblWordLt13 a0 hok c i 5)⟩,
   ⟨chkRow _ (tblWordLt13 a0 hok c i 6), chkRow _ (tblWordLt13 a0 hok c i 6)⟩,
   chkRow _ (tblWordLt13 a0 hok c i 7)⟩

/-! ## The body obligation, at a generic point -/

/-- What the body is called with at point `t`: the invariant, the core's dues, each window's current staging memref at
    what the pipeline left there, -/
def bodyPre13 (a0 : (pcfg13 (F := F)).Adm) (Vin : Dev nD → Valuation τ sig (Elt F)) (c : Dev nD) (t : Fin (cfg13 a0).N) : sProp (MM F) :=
  iprop((dat13 a0 Vin c).Φ t.castSucc ∗ (dat13 a0 Vin c).owesAt () t.castSucc
    ∗ (∃ d, owns (c : Thread nD τ) (((cfg13 a0).win 0).stage ((cfg13 a0).slots t 0)) fullShare ((dat13 a0 Vin c).before 0 t d))
    ∗ (∃ d, owns (c : Thread nD τ) (((cfg13 a0).win 1).stage ((cfg13 a0).slots t 1)) fullShare ((dat13 a0 Vin c).before 1 t d)))

/-- and what it returns. -/
def bodyPost13 (a0 : (pcfg13 (F := F)).Adm) (Vin : Dev nD → Valuation τ sig (Elt F)) (c : Dev nD) (t : Fin (cfg13 a0).N) : sProp (MM F) :=
  iprop((dat13 a0 Vin c).Φ t.succ ∗ (dat13 a0 Vin c).owesAt () t.succ
    ∗ owns (c : Thread nD τ) (((cfg13 a0).win 0).stage ((cfg13 a0).slots t 0)) fullShare ((dat13 a0 Vin c).after 0 t)
    ∗ owns (c : Thread nD τ) (((cfg13 a0).win 1).stage ((cfg13 a0).slots t 1)) fullShare ((dat13 a0 Vin c).after 1 t))

/-- The body at any point: the invariant opened into the embedding array, the semaphores, the table and the scratch;
    the value window's memref at its block; the checks from the table's range; so the kernel's run applies, and what it
    leaves in the result window's memref is the point's block of the gathered array. -/
theorem sound_body13 (a0 : (pcfg13 (F := F)).Adm) (hok : GatherOk13 a0) (Vin : Dev nD → Valuation τ sig (Elt F)) (c : Dev nD) (t : Fin (cfg13 a0).N) :
    bodyPre13 a0 Vin c t ⊢ wp frame (wpE (defs₀ (F := F)) 𝒱₀ c none) Set.univ
      (defs₀ .tc (cfg13 a0).body ((cfg13 a0).bodyArgs t ((cfg13 a0).slots t))) (fun _ => bodyPost13 a0 Vin c t) := by
  unfold bodyPre13 bodyPost13
  simp only [beforeVal13]
  rw [Phi_eq13, Phi_eq13, after13_0, after13_1, ← gatherBlk_blk13]
  unfold Phi13 Pipeline.Dat.owesAt Pipeline.owesWithin
  rw [owed_eq13, owed_eq13, prefHeldEq13, scopedRest13_split]
  iintro ⟨⟨Hx, Hos, Ht, ⟨%fs, Hs⟩, Hsb⟩, ⟨%W, %hW, HO⟩, ⟨%d0, H0⟩, ⟨%d1, H1⟩⟩
  iapply (gatherRun13 c (grid13.coords t) _ _ _ _ (a0.1 0) (Vr Vin c main_arg0) (iblk13 a0 Vin c 0 t) (gatherChk13 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation13 (a0 : (pcfg13 (F := F)).Adm) (hok : GatherOk13 a0) (Vin : Dev nD → Valuation τ sig (Elt F)) (c : Dev nD) :
    BodyObligation (dat13 a0 Vin c) (defs₀ (F := F)) 𝒱₀ () Set.univ := fun t => by
  rw [bigSep_W13, bigSep_W13]
  exact sound_body13 a0 hok Vin c t

/-! ## From the blocks to the arrays -/

/-- The value array after the region: as entered. -/
theorem arrAt13_in (a0 : (pcfg13 (F := F)).Adm) (Vin : Dev nD → Valuation τ sig (Elt F)) (c : Dev nD) :
    (dat13 a0 Vin c).arrAt 0 (cfg13 a0).N = Vr Vin c main_v89 :=
  ((dat13 a0 Vin c).arrAt_in 0 rfl _).trans (A_eq13 a0 Vin c 0)

/-- Every index of the result array is in some point's block: row `e`, lane `d` is element `(e % 8, d)` of the block
    of point `e / 8`. -/
theorem regOutCover13 (a0 : (pcfg13 (F := F)).Adm) (i : S131072x128.Idx) :
    ∃ t : Fin (cfg13 a0).N, ((cfg13 a0).win 1).flush t = true ∧ i ∈ (((cfg13 a0).win 1).blk t).view.set := by
  have hi0 : (i 0).val < 131072 := (i 0).isLt
  have hi1 : (i 1).val < 128 := (i 1).isLt
  have hN : (i 0).val / 8 < grid13.N := by rw [N_13]; omega
  obtain ⟨t, ht⟩ : ∃ t : Fin (cfg13 a0).N, t.val = (i 0).val / 8 := ⟨⟨_, hN⟩, rfl⟩
  have hx : (((cfg13 a0).win 1).blk t).view.emb (ValueIdx.ix2 ⟨(i 0).val % 8, Nat.mod_lt _ (by decide)⟩ (i 1)) = i := by
    funext a; apply Fin.ext
    have e0 : ((cfg13 a0).win 1).index t (0 : Fin 2) = t.val := congrFun (regOutIndex13 a0 t) (0 : Fin 2)
    have e1 : ((cfg13 a0).win 1).index t (1 : Fin 2) = 0 := congrFun (regOutIndex13 a0 t) (1 : Fin 2)
    match a with
    | ⟨0, _⟩ => show ((cfg13 a0).win 1).index t (0 : Fin 2) * 8 + 1 * ((i 0).val % 8) = (i 0).val; omega
    | ⟨1, _⟩ => show ((cfg13 a0).win 1).index t (1 : Fin 2) * 128 + 1 * (i 1).val = (i 1).val; omega
  exact ⟨t, regOutFlush13 a0 t, hx ▸ (((cfg13 a0).win 1).blk t).view.emb_mem_set _⟩

/-- The result array after the region: the gathered and scaled rows, whole. -/
theorem arrAt13_out (a0 : (pcfg13 (F := F)).Adm) (Vin : Dev nD → Valuation τ sig (Elt F)) (c : Dev nD) :
    (dat13 a0 Vin c).arrAt 1 (cfg13 a0).N = gout13 a0 Vin c :=
  (dat13 a0 Vin c).arrAt_eq_of_cover 1 (gout13 a0 Vin c)
    (fun t _ => by
      show ((cfg13 a0).win 1).cut ((cfg13 a0).grid.coords t) ((dat13 a0 Vin c).after 1 t) = _
      rw [after13_1])
    (regOutCover13 a0)

/-! ## The region as a segment of @main -/

/-- The ownership layout of the kernel's eight semaphores. -/
theorem ownSemFacts13 : Pipeline.OwnSemFacts spec13 osem13 := by decide

/-- The kernel's own cells at zero, listed. -/
theorem ownSemsListed13 (c : Dev nD) :
    (Pipeline.ownSems0 (Ix := Unit) (Name := ℕ) (U := UU nD τ) (Lvl := ℕ) (Val := Elt F) (τ := τ) osem13 c : sProp (MM F)) = sems13 c :=
  Pipeline.ownSems0_eq_of_list c osem13 [0, 1, 2, 3, 4, 5, 6, 7] (by decide) (by decide)

/-- The unscoped buffers that are no window's array, no table, and not the embedding array. -/
abbrev restRefs13 : Finset (Ref sig .tc) :=
  (((Finset.univ.filter fun b : Ref sig .tc => ¬ b.isScoped) \ Finset.univ.image (Pipeline.arrRef spec13)) \ Finset.univ.image pre13.ref) \ {main_arg0}

/-- Those buffers, each whole at its contents under `Vin`: what bypasses the region. -/
def Zrest13 (Vin : Dev nD → Valuation τ sig (Elt F)) (c : Dev nD) : sProp (MM F) :=
  bigSep restRefs13 fun b => ((c : Thread nD τ).loc b) ↦{fullShare} Vr Vin c b

/-- The embedding array is an unscoped buffer that is no window's array and no table. -/
theorem embArrMem13 : ({main_arg0} : Finset (Ref sig .tc)) ⊆
    ((Finset.univ.filter fun b : Ref sig .tc => ¬ b.isScoped) \ Finset.univ.image (Pipeline.arrRef spec13)) \ Finset.univ.image pre13.ref := by
  decide

/-- The unscoped buffers that are no window's array: the index table, the embedding array, and the rest. -/
theorem unscopedRestOpen13 (Vin : Dev nD → Valuation τ sig (Elt F)) (c : Dev nD) :
    (Pipeline.unscopedRest (Ix := Unit) (Name := ℕ) (U := UU nD τ) (Lvl := ℕ) spec13 c (Vr Vin c) : sProp (MM F))
      = iprop(Pipeline.prefHeld pre13 c (fun _ => fullShare) (fun k => Vr Vin c (pre13.ref k))
          ∗ pt c (Memref.whole main_arg0) (Vr Vin c main_arg0) ∗ Zrest13 Vin c) := by
  rw [Pipeline.unscopedRest_split preFacts13 c (Vr Vin c)]
  unfold Pipeline.unscopedRestP Zrest13
  rw [BI.bigSep_sdiff_split embArrMem13, BI.bigSep_singleton]
  rfl

/-- The buffer contents when the region is left: the result array at the gathered rows, every other buffer as entered. -/
abbrev Vout13 (a0 : (pcfg13 (F := F)).Adm) (Vin : Dev nD → Valuation τ sig (Elt F)) (c : Dev nD) : Valuation τ sig (Elt F) :=
  Function.update (Vin c) main_v90 (gout13 a0 Vin c)

/-- At the exit each of the region's arrays holds what the pipeline leaves; -/
theorem hF13 (a0 : (pcfg13 (F := F)).Adm) (Vin : Dev nD → Valuation τ sig (Elt F)) (c : Dev nD) (w : Fin (cfg13 a0).W) :
    (dat13 a0 Vin c).arrAt w (cfg13 a0).N = Vr (Vout13 a0 Vin) c (Pipeline.arrRef spec13 w) := by
  match w with
  | ⟨0, _⟩ =>
    show (dat13 a0 Vin c).arrAt 0 (cfg13 a0).N = Vr (Vout13 a0 Vin) c (Pipeline.arrRef spec13 0)
    rw [arrAt13_in]
    exact (Function.update_of_ne (StableHlo.devRef_ne_of_ne (by decide) : (Proc.devRef .tc main_v89 : DevRef τ sig) ≠ Proc.devRef .tc main_v90) _ _).symm
  | ⟨1, _⟩ =>
    show (dat13 a0 Vin c).arrAt 1 (cfg13 a0).N = Vr (Vout13 a0 Vin) c (Pipeline.arrRef spec13 1)
    rw [arrAt13_out]
    exact (Function.update_self (Proc.devRef .tc main_v90 : DevRef τ sig) _ (Vin c)).symm

/-- and every other buffer what it held at entry. -/
theorem hrest13 (a0 : (pcfg13 (F := F)).Adm) (Vin : Dev nD → Valuation τ sig (Elt F)) (c : Dev nD) :
    ∀ b : Ref sig .tc, b ∉ Finset.univ.image (Pipeline.arrRef spec13) → Vr (Vout13 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat13` at the entry valuation `Vin`
    (`hd`), the index table's contents under `Vin` being the pinned ones (`htbl`) and row numbers (`hok`). -/
def reg13 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk13 (F := F) (a (13 : Fin 34)))
    (hd : ∀ c, pdats (13 : Fin 34) c = dat13 (a (13 : Fin 34)) Vin c) (htbl : ∀ c, (a (13 : Fin 34)).1 = fun k => Vr Vin c (pre13.ref k)) :
    Pipeline.RegionSeg (pcfgs (F := F)) a pdats () defs₀ 𝒱₀ L lv (13 : Fin 34) where
  win := (launch13 (F := F)).win.to₀
  block_pos := (launch13 (F := F)).block_pos
  stage_whole := (launch13 (F := F)).stage_whole
  K := Fin 8
  osem := osem13
  ho := ownSemFacts13
  hbody c := by rw [hd c]; exact (body_obligation13 (a (13 : Fin 34)) hok Vin c).loose
  hwaits := Pipeline.hwaits_of_owed_zero _ _ _ _ L lv (13 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v90 (gout13 (a (13 : Fin 34)) Vin c)) ∗ Rest c)
  X c := iprop(pt c (Memref.whole main_arg0) (Vr Vin c main_arg0) ∗ sems13 c)
  Y c := iprop(pt c (Memref.whole main_arg0) (Vr Vin c main_arg0)
    ∗ Pipeline.prefHeld (Ix := Unit) (Name := ℕ) (U := UU nD τ) (Lvl := ℕ) pre13 c (fun _ => fullShare) (a (13 : Fin 34)).1)
  Z c := Zrest13 Vin c
  hentry c := by
    rw [ownSemsListed13]
    have hsplit := Pipeline.arrays_of_unscopedBufs (p := (13 : Fin 34)) (pcfgs (F := F)) a pdats (launch13 (F := F)).win (launch13 (F := F)).arr_whole c
      ((pdats (13 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen13 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (13 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq13]; unfold Phi13
    iintro ⟨⟨Hx, Hos⟩, Ht, Hr⟩
    isplitl [Hx]; · iexact Hx
    isplitl [Hos]; · iexact Hos
    isplitl [Ht]; · iexact Ht
    iexact Hr
  hout c := by
    rw [ownSemsListed13, hd c, Phi_eq13]; unfold Phi13
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (13 : Fin 34)) (pcfgs (F := F)) a (Ix := Unit) (Name := ℕ) (U := UU nD τ) (Lvl := ℕ)
      (launch13 (F := F)).win (launch13 (F := F)).arr_whole c pdats ((pdats (13 : Fin 34) c).share_full fun _ => by rw [hd c]; rfl)
      (Vr Vin c) (Vr (Vout13 (a (13 : Fin 34)) Vin) c) ((pdats (13 : Fin 34) c).arrAt · (cfg13 (a (13 : Fin 34))).N)
      (fun w => by rw [hd c]; exact hF13 (a (13 : Fin 34)) Vin c w) (hrest13 (a (13 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen13 Vin c).symm)
      isplitl [Ht]; · rw [← htbl c]; iexact Ht
      isplitl [Hx]; · iexact Hx
      iexact Hz
    unfold Pipeline.Dat.owesAt Pipeline.owesWithin
    rw [show (pdats (13 : Fin 34) c).owed (Fin.last _) = 0 from by rw [hd c]; rfl]
    icases HO with ⟨%W, -, HO⟩; iexists W; iexact HO

end Cert.KernelIdeal.Hand

end
-- ==== Proof.KI.GatherDat14.lean ====
/-
  Gather region 14 (custom_call 14): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem14 : Fin 8 → SemLoc sig := fun | 0 => .dma 172 | 1 => .dma 173 | 2 => .dma 174 | 3 => .dma 175 | 4 => .dma 176 | 5 => .dma 177 | 6 => .dma 178 | 7 => .dma 179

/-- The eight counters at zero, as the run finds them and hands them back. -/
abbrev sems14 (c : Dev nD) : sProp (MM F) :=
  iprop(semVal ((c : Thread nD τ), osem14 0) 0 ∗ semVal ((c : Thread nD τ), osem14 1) 0 ∗ semVal ((c : Thread nD τ), osem14 2) 0
    ∗ semVal ((c : Thread nD τ), osem14 3) 0 ∗ semVal ((c : Thread nD τ), osem14 4) 0 ∗ semVal ((c : Thread nD τ), osem14 5) 0
    ∗ semVal ((c : Thread nD τ), osem14 6) 0 ∗ semVal ((c : Thread nD τ), osem14 7) 0)

/-- Word `j` of the eight the index table holds for point `i`, as the kernel's scalar load reads it. -/
def tblWord14 (c : Dev nD) (i : grid14.Coords) (tbl : Bf (F := F) c (Memref.whole main_v91)) (j : Fin 8) : BitVec 32 :=
  (Memref.whole main_v91).view.readAt (Elt F) (Rect.unit (s := S131072) (k14_off1 i (BitVec.ofNat 32 j.val)) S1.size (k14_off1_inb i j)).toLoadRect tbl
    (Shape.Idx.first (s := S1) (numel1_S1.symm ▸ Nat.one_pos))

/-- Window `w`'s block at point `t`, read off its array at the region's entry. -/
def iblk14 (a0 : (pcfg14 (F := F)).Adm) (Vin : Dev nD → Valuation τ sig (Elt F)) (c : Dev nD) (w : Fin (cfg14 a0).W) (t : Fin (cfg14 a0).N) :
    (((cfg14 a0).win w).xblock ((cfg14 a0).grid.coords t)).Idx → Elt F ((cfg14 a0).win w).elt :=
  (((cfg14 a0).win w).blk t).view.read (Elt F) (Vr Vin c (Pipeline.arrRef spec14 w))

/-- The result array the region leaves: the gathered and scaled rows of the embedding array, whole. -/
def gout14 (a0 : (pcfg14 (F := F)).Adm) (Vin : Dev nD → Valuation τ sig (Elt F)) (c : Dev nD) : Buf (Elt F) ((c : Thread nD τ).loc main_v93) :=
  gatherArr (Vr Vin c main_arg0) (a0.1 0) (Vr Vin c main_v92)

/-- The invariant between points: the embedding array as entered, the kernel's semaphores at zero, the index table, the
    scoped buffers no window stages (the kernel's scratch among them). -/
def Phi14 (a0 : (pcfg14 (F := F)).Adm) (Vin : Dev nD → Valuation τ sig (Elt F)) (c : Dev nD) : sProp (MM F) :=
  iprop(pt c (Memref.whole main_arg0) (Vr Vin c main_arg0) ∗ sems14 c
    ∗ Pipeline.prefHeld (Ix := Unit) (Name := ℕ) (U := UU nD τ) (Lvl := ℕ) pre14 c (fun _ => fullShare) a0.1
    ∗ Pipeline.scopedRest (Ix := Unit) (Name := ℕ) (U := UU nD τ) (Lvl := ℕ) (Val := Elt F) spec14 c)

/-- The proof data on core `c`. -/
def dat14 (a0 : (pcfg14 (F := F)).Adm) (Vin : Dev nD → Valuation τ sig (Elt F)) (c : Dev nD) :
    Pipeline.Dat τ (Elt F) Unit ℕ (UU nD τ) ℕ ((pcfg14 (F := F)).at a0) c where
  A w := Vr Vin c (Pipeline.arrRef spec14 w)
  after w t := match w with
    | ⟨0, _⟩ => iblk14 a0 Vin c 0 t
    | ⟨1, _⟩ => (((cfg14 a0).win 1).blk t).view.read (Elt F) (gout14 a0 Vin c)
  Φ _ := Phi14 a0 Vin c
  q _ := fullShare
  owed _ := 0

theorem A_eq14 (a0 : (pcfg14 (F := F)).Adm) (Vin : Dev nD → Valuation τ sig (Elt F)) (c : Dev nD) (w : Fin (cfg14 a0).W) :
    (dat14 a0 Vin c).A w = Vr Vin c (Pipeline.arrRef spec14 w) := by dsimp only [dat14]
theorem after14_0 (a0 : (pcfg14 (F := F)).Adm) (Vin : Dev nD → Valuation τ sig (Elt F)) (c : Dev nD) (t : Fin (cfg14 a0).N) :
    (dat14 a0 Vin c).after 0 t = iblk14 a0 Vin c 0 t := by dsimp only [dat14]; rfl
theorem after14_1 (a0 : (pcfg14 (F := F)).Adm) (Vin : Dev nD → Valuation τ sig (Elt F)) (c : Dev nD) (t : Fin (cfg14 a0).N) :
    (dat14 a0 Vin c).after 1 t = (((cfg14 a0).win 1).blk t).view.read (Elt F) (gout14 a0 Vin c) := by dsimp only [dat14]; rfl
theorem Phi_eq14 (a0 : (pcfg14 (F := F)).Adm) (Vin : Dev nD → Valuation τ sig (Elt F)) (c : Dev nD) (t : Fin ((cfg14 a0).N + 1)) :
    (dat14 a0 Vin c).Φ t = Phi14 a0 Vin c := rfl
theorem owed_eq14 (a0 : (pcfg14 (F := F)).Adm) (Vin : Dev nD → Valuation τ sig (Elt F)) (c : Dev nD) (t : Fin ((cfg14 a0).N + 1)) :
    (dat14 a0 Vin c).owed t = 0 := rfl
theorem q_eq14 (a0 : (pcfg14 (F := F)).Adm) (Vin : Dev nD → Valuation τ sig (Elt F)) (c : Dev nD) (w : Fin (cfg14 a0).W) :
    (dat14 a0 Vin c).q w = fullShare := rfl

/-- The pinned family's configuration at region 14 is this one. -/
example (a : (p : Fin 34) → (pcfgs (F := F) p).Adm) : Pipeline.pin (pcfgs (F := F)) a (14 : Fin 34) = (pcfg14 (F := F)).at (a (14 : Fin 34)) := rfl

end Cert.KernelIdeal.Hand

end
-- ==== Proof.KI.GatherBody14.lean ====
/-
  Gather region 14 (custom_call 14): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat14
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk14 (c : Dev nD) (i : grid14.Coords) (tbl : Bf (F := F) c (Memref.whole main_v91)) : Prop where
  h1 : k14_chk1 (tblWord14 c i tbl 0)
  h2 : k14_chk2 (tblWord14 c i tbl 1)
  h3 : k14_chk3 (tblWord14 c i tbl 2)
  h4 : k14_chk4 (tblWord14 c i tbl 3)
  h5 : k14_chk5 (tblWord14 c i tbl 4)
  h6 : k14_chk6 (tblWord14 c i tbl 5)
  h7 : k14_chk7 (tblWord14 c i tbl 6)
  h8 : k14_chk8 (tblWord14 c i tbl 7)

/-- A one-row slice of the embedding array at the row a word names, read at lane `z 1`: the array's element there. -/
theorem rowRead14 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun14 (c : Dev nD) (i : grid14.Coords)
    (M3 : Memref sig .tc .vmem S8x1 .f32) (h3 : M3.IsWhole) (M4 : Memref sig .tc .vmem S8x128 .f32) (h4 : M4.IsWhole)
    (tbl : Bf (F := F) c (Memref.whole main_v91)) (x : Bf (F := F) c (Memref.whole main_arg0))
    (vb : Vec F S8x1 .f32) (hchk : GatherChk14 c i tbl) (Q : PUnit → sProp (MM F)) :
    iprop(pt c (Memref.whole main_v91) tbl ∗ pt c (Memref.whole main_arg0) x
      ∗ owns (c : Thread nD τ) M3 fullShare vb ∗ (∃ d, owns (c : Thread nD τ) M4 fullShare d)
      ∗ (∃ fs, pt c (Memref.whole cc14_scratch0) fs) ∗ sems14 c ∗ (∃ W, owes (c : Thread nD τ) (0 : CellTallies nD τ sig Unit) W)
      ∗ (iprop(pt c (Memref.whole main_v91) tbl ∗ pt c (Memref.whole main_arg0) x
          ∗ owns (c : Thread nD τ) M3 fullShare vb ∗ owns (c : Thread nD τ) M4 fullShare (gatherBlk x (tblWord14 c i tbl) vb)
          ∗ (∃ fs, pt c (Memref.whole cc14_scratch0) fs) ∗ sems14 c ∗ (∃ W, owes (c : Thread nD τ) (0 : CellTallies nD τ sig Unit) W)) -∗ Q ⟨⟩))
    ⊢ wp frame (wpE (defs₀ (F := F)) 𝒱₀ c none) Set.univ
        (cc14__gather_kernel i (Memref.whole main_v91) (Memref.isWhole_whole _) (Memref.whole main_arg0) (Memref.isWhole_whole _) M3 h3 M4 h4
          (Memref.whole cc14_scratch0) (Memref.isWhole_whole _) cc14_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 172).1 $$ Hx
  icases Hx' with ⟨Hxr, Hx0, Hx1, Hx2, Hx3, Hx4, Hx5, Hx6, Hx7⟩
  sl_unfold [cc14__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 172).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k14_pay1 gatherBlk
    show FloatOps.mulf _ _ = FloatOps.mulf _ _
    congr 1
    · unfold gatherRun14.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun14.sl.dma8 gatherRun14.sl.dma8_1 gatherRun14.sl.dma8_2 gatherRun14.sl.dma8_3 gatherRun14.sl.dma8_4 gatherRun14.sl.dma8_5
        gatherRun14.sl.dma8_6 gatherRun14.sl.dma8_7 gatherRun14.sl.r gatherRun14.sl.r_1 gatherRun14.sl.r_2 gatherRun14.sl.r_3 gatherRun14.sl.r_4
        gatherRun14.sl.r_5 gatherRun14.sl.r_6 gatherRun14.sl.r_7
      refine canonRows8 _ _ _ _ _ _ _ _ _ _ _ _ _ _ _ _ (fun r d => x (embIdx (rowOf (tblWord14 c i tbl r)) d)) ?_ ?_ ?_ ?_ ?_ ?_ ?_ ?_ y
      · exact fun z => rowRead14 c _ (tblWord14 c i tbl 0) rfl rfl _ _ x z
      · exact fun z => rowRead14 c _ (tblWord14 c i tbl 1) rfl rfl _ _ x z
      · exact fun z => rowRead14 c _ (tblWord14 c i tbl 2) rfl rfl _ _ x z
      · exact fun z => rowRead14 c _ (tblWord14 c i tbl 3) rfl rfl _ _ x z
      · exact fun z => rowRead14 c _ (tblWord14 c i tbl 4) rfl rfl _ _ x z
      · exact fun z => rowRead14 c _ (tblWord14 c i tbl 5) rfl rfl _ _ x z
      · exact fun z => rowRead14 c _ (tblWord14 c i tbl 6) rfl rfl _ _ x z
      · exact fun z => rowRead14 c _ (tblWord14 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk14.lean ====
/-
  Gather region 14 (custom_call 14): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat14
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word14 (i : grid14.Coords) (j : Fin 8) : k14_off1 i (BitVec.ofNat 32 j.val) 0 = (i 0).val * 8 + j.val := by
  have hi : (i 0).val < 16384 := (i 0).isLt
  have hj : j.val < 8 := j.isLt
  unfold k14_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word14 (i : grid14.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord14_eq (c : Dev nD) (i : grid14.Coords) (tbl : Bf (F := F) c (Memref.whole main_v91)) (j : Fin 8)
    (e : Fin 131072) (he : e.val = (i 0).val * 8 + j.val) : tblWord14 c i tbl j = tbl (tblIdx e) := by
  unfold tblWord14
  show tbl _ = tbl _
  refine congrArg tbl ?_
  funext a; apply Fin.ext
  match a with
  | ⟨0, _⟩ =>
    show k14_off1 i (BitVec.ofNat 32 j.val) 0 + 1 * 0 = e.val
    rw [off_word14, he]; omega

/-- Row `j` of the value window's block at point `t` is the value array's row `8 t + j`. -/
theorem valBlk14_eq (a0 : (pcfg14 (F := F)).Adm) (Vin : Dev nD → Valuation τ sig (Elt F)) (c : Dev nD) (t : Fin (cfg14 a0).N)
    (j : Fin 8) (e : Fin 131072) (he : e.val = ((grid14.coords t) 0).val * 8 + j.val) :
    iblk14 a0 Vin c 0 t (colIdx j) = Vr Vin c main_v92 (valIdx e) := by
  unfold iblk14
  show Vr Vin c main_v92 _ = Vr Vin c main_v92 _
  refine congrArg (Vr Vin c main_v92) ?_
  funext a; apply Fin.ext
  match a with
  | ⟨0, _⟩ =>
    show (BitVec.ofNat 32 ((grid14.coords t) 0).val).toNat * 8 + 1 * j.val = e.val
    rw [coord_word14, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk14 (a0 : (pcfg14 (F := F)).Adm) (Vin : Dev nD → Valuation τ sig (Elt F)) (c : Dev nD) (t : Fin (cfg14 a0).N) :
    gatherBlk (Vr Vin c main_arg0) (tblWord14 c (grid14.coords t) (a0.1 0)) (iblk14 a0 Vin c 0 t)
      = (((cfg14 a0).win 1).blk t).view.read (Elt F) (gout14 a0 Vin c) := by
  funext y
  show gatherBlk _ _ _ y = gout14 a0 Vin c ((((cfg14 a0).win 1).blk t).view.emb y)
  unfold gatherBlk gout14 gatherArr
  have e0 : ((((cfg14 a0).win 1).blk t).view.emb y (0 : Fin 2)).val = ((grid14.coords t) 0).val * 8 + (y 0).val := by
    show (BitVec.ofNat 32 ((grid14.coords t) 0).val).toNat * 8 + 1 * (y 0).val = _
    rw [coord_word14]; omega
  have e1 : (((cfg14 a0).win 1).blk t).view.emb y (1 : Fin 2) = y 1 := Fin.ext (by
    show (0#32 : BitVec 32).toNat * 128 + 1 * (y 1).val = (y 1).val
    show 0 * 128 + 1 * (y 1).val = (y 1).val
    omega)
  rw [tblWord14_eq c (grid14.coords t) (a0.1 0) (y 0) _ e0, valBlk14_eq a0 Vin c t (y 0) _ e0, e1]

end Cert.KernelIdeal.Hand

end
-- ==== Proof.KI.GatherRegion14.lean ====
/-
  Gather region 14 (custom_call 14): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody14
import proofs.«414509_j14181982011419_2_alg».proof.Proof.KI.GatherBlk14
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk14 (a0 : (pcfg14 (F := F)).Adm) : Prop := ∀ e : S131072.Idx, (a0.1 0 e).toNat < 100000

/-! ## The grid and the result window's blocks -/

/-- On the one-axis grid a point's coordinate is its number. -/
theorem regCoords14 (t : Fin grid14.N) : (grid14.coords t 0).val = t.val := by
  have ht : t.val < 16384 := N_14 ▸ t.isLt
  show t.val / grid14.stride 0 % grid14.bound 0 = t.val
  rw [show grid14.stride 0 = 1 from by decide, show grid14.bound 0 = 16384 from rfl, Nat.div_one, Nat.mod_eq_of_lt ht]

/-- A point's number as the 32-bit word the index maps compute with. -/
theorem regWord14 (t : Fin grid14.N) : (BitVec.ofNat 32 (grid14.coords t 0).val).toNat = t.val := by
  have ht : t.val < 16384 := N_14 ▸ t.isLt
  rw [BitVec.toNat_ofNat, regCoords14]; omega

/-- The result window's block at point `t` is block `t` along the rows, at zero along the lanes. -/
theorem regOutIndex14 (a0 : (pcfg14 (F := F)).Adm) (t : Fin (cfg14 a0).N) : ((cfg14 a0).win 1).index t = ![t.val, 0] := by
  show cc14_transform_2 (grid14.coords t) = _
  unfold cc14_transform_2
  funext a; fin_cases a
  · exact regWord14 t
  · rfl

/-- The result window is written back at every point: consecutive points have different blocks. -/
theorem regOutFlush14 (a0 : (pcfg14 (F := F)).Adm) (t : Fin (cfg14 a0).N) : ((cfg14 a0).win 1).flush t = true := by
  have htN : t.val < 16384 := N_14 ▸ t.isLt
  rw [Pipeline.Window.flush_out _ rfl]
  by_cases h : t.val + 1 = 16384
  · exact Or.inl (show t.val + 1 = grid14.N by rw [N_14]; exact h)
  · have hlt : t.val + 1 < grid14.N := by rw [N_14]; omega
    refine Or.inr ⟨hlt, fun e => ?_⟩
    have e' : (![t.val + 1, 0] : Fin 2 → ℕ) = ![t.val, 0] := (regOutIndex14 a0 ⟨t.val + 1, hlt⟩).symm.trans (e.trans (regOutIndex14 a0 t))
    have e0 := congrFun e' 0
    simp at e0

/-- The index table, held as the pipeline's one prefetched table. -/
theorem prefHeldEq14 (a0 : (pcfg14 (F := F)).Adm) (c : Dev nD) :
    (Pipeline.prefHeld (Ix := Unit) (Name := ℕ) (U := UU nD τ) (Lvl := ℕ) pre14 c (fun _ => fullShare) a0.1 : sProp (MM F))
      = pt c (Memref.whole main_v91) (a0.1 0) := by
  unfold Pipeline.prefHeld
  rw [show (Finset.univ : Finset (Fin pre14.K)) = {0} from rfl, BI.bigSep_singleton]
  rfl

/-- The value window's staging buffer holds its block at every point. -/
theorem beforeVal14 (a0 : (pcfg14 (F := F)).Adm) (Vin : Dev nD → Valuation τ sig (Elt F)) (c : Dev nD) (t : Fin (cfg14 a0).N) (d) :
    (dat14 a0 Vin c).before 0 t d = iblk14 a0 Vin c 0 t :=
  ((dat14 a0 Vin c).before_in_eq_fetched 0 rfl (fun _ => rfl) (fun _ _ _ => rfl)
    (fun t => by rw [after14_0]; unfold Dat.blockOf iblk14; rw [A_eq14]; try rfl) t d).trans
    (by unfold Dat.fetched Dat.blockOf iblk14; rw [A_eq14]; try rfl)

/-! ## The kernel's checks, from the table's range -/

/-- Each of the point's eight words is a word of the table, so a row number. -/
theorem tblWordLt14 (a0 : (pcfg14 (F := F)).Adm) (hok : GatherOk14 a0) (c : Dev nD) (i : grid14.Coords) (j : Fin 8) :
    (tblWord14 c i (a0.1 0) j).toNat < 100000 := by
  unfold tblWord14
  exact hok _

/-- So the kernel's eight checks hold at every point. -/
theorem gatherChk14 (a0 : (pcfg14 (F := F)).Adm) (hok : GatherOk14 a0) (c : Dev nD) (i : grid14.Coords) : GatherChk14 c i (a0.1 0) :=
  ⟨⟨chkRow _ (tblWordLt14 a0 hok c i 0), chkRow _ (tblWordLt14 a0 hok c i 0)⟩,
   ⟨chkRow _ (tblWordLt14 a0 hok c i 1), chkRow _ (tblWordLt14 a0 hok c i 1)⟩,
   ⟨chkRow _ (tblWordLt14 a0 hok c i 2), chkRow _ (tblWordLt14 a0 hok c i 2)⟩,
   ⟨chkRow _ (tblWordLt14 a0 hok c i 3), chkRow _ (tblWordLt14 a0 hok c i 3)⟩,
   ⟨chkRow _ (tblWordLt14 a0 hok c i 4), chkRow _ (tblWordLt14 a0 hok c i 4)⟩,
   ⟨chkRow _ (tblWordLt14 a0 hok c i 5), chkRow _ (tblWordLt14 a0 hok c i 5)⟩,
   ⟨chkRow _ (tblWordLt14 a0 hok c i 6), chkRow _ (tblWordLt14 a0 hok c i 6)⟩,
   chkRow _ (tblWordLt14 a0 hok c i 7)⟩

/-! ## The body obligation, at a generic point -/

/-- What the body is called with at point `t`: the invariant, the core's dues, each window's current staging memref at
    what the pipeline left there, -/
def bodyPre14 (a0 : (pcfg14 (F := F)).Adm) (Vin : Dev nD → Valuation τ sig (Elt F)) (c : Dev nD) (t : Fin (cfg14 a0).N) : sProp (MM F) :=
  iprop((dat14 a0 Vin c).Φ t.castSucc ∗ (dat14 a0 Vin c).owesAt () t.castSucc
    ∗ (∃ d, owns (c : Thread nD τ) (((cfg14 a0).win 0).stage ((cfg14 a0).slots t 0)) fullShare ((dat14 a0 Vin c).before 0 t d))
    ∗ (∃ d, owns (c : Thread nD τ) (((cfg14 a0).win 1).stage ((cfg14 a0).slots t 1)) fullShare ((dat14 a0 Vin c).before 1 t d)))

/-- and what it returns. -/
def bodyPost14 (a0 : (pcfg14 (F := F)).Adm) (Vin : Dev nD → Valuation τ sig (Elt F)) (c : Dev nD) (t : Fin (cfg14 a0).N) : sProp (MM F) :=
  iprop((dat14 a0 Vin c).Φ t.succ ∗ (dat14 a0 Vin c).owesAt () t.succ
    ∗ owns (c : Thread nD τ) (((cfg14 a0).win 0).stage ((cfg14 a0).slots t 0)) fullShare ((dat14 a0 Vin c).after 0 t)
    ∗ owns (c : Thread nD τ) (((cfg14 a0).win 1).stage ((cfg14 a0).slots t 1)) fullShare ((dat14 a0 Vin c).after 1 t))

/-- The body at any point: the invariant opened into the embedding array, the semaphores, the table and the scratch;
    the value window's memref at its block; the checks from the table's range; so the kernel's run applies, and what it
    leaves in the result window's memref is the point's block of the gathered array. -/
theorem sound_body14 (a0 : (pcfg14 (F := F)).Adm) (hok : GatherOk14 a0) (Vin : Dev nD → Valuation τ sig (Elt F)) (c : Dev nD) (t : Fin (cfg14 a0).N) :
    bodyPre14 a0 Vin c t ⊢ wp frame (wpE (defs₀ (F := F)) 𝒱₀ c none) Set.univ
      (defs₀ .tc (cfg14 a0).body ((cfg14 a0).bodyArgs t ((cfg14 a0).slots t))) (fun _ => bodyPost14 a0 Vin c t) := by
  unfold bodyPre14 bodyPost14
  simp only [beforeVal14]
  rw [Phi_eq14, Phi_eq14, after14_0, after14_1, ← gatherBlk_blk14]
  unfold Phi14 Pipeline.Dat.owesAt Pipeline.owesWithin
  rw [owed_eq14, owed_eq14, prefHeldEq14, scopedRest14_split]
  iintro ⟨⟨Hx, Hos, Ht, ⟨%fs, Hs⟩, Hsb⟩, ⟨%W, %hW, HO⟩, ⟨%d0, H0⟩, ⟨%d1, H1⟩⟩
  iapply (gatherRun14 c (grid14.coords t) _ _ _ _ (a0.1 0) (Vr Vin c main_arg0) (iblk14 a0 Vin c 0 t) (gatherChk14 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation14 (a0 : (pcfg14 (F := F)).Adm) (hok : GatherOk14 a0) (Vin : Dev nD → Valuation τ sig (Elt F)) (c : Dev nD) :
    BodyObligation (dat14 a0 Vin c) (defs₀ (F := F)) 𝒱₀ () Set.univ := fun t => by
  rw [bigSep_W14, bigSep_W14]
  exact sound_body14 a0 hok Vin c t

/-! ## From the blocks to the arrays -/

/-- The value array after the region: as entered. -/
theorem arrAt14_in (a0 : (pcfg14 (F := F)).Adm) (Vin : Dev nD → Valuation τ sig (Elt F)) (c : Dev nD) :
    (dat14 a0 Vin c).arrAt 0 (cfg14 a0).N = Vr Vin c main_v92 :=
  ((dat14 a0 Vin c).arrAt_in 0 rfl _).trans (A_eq14 a0 Vin c 0)

/-- Every index of the result array is in some point's block: row `e`, lane `d` is element `(e % 8, d)` of the block
    of point `e / 8`. -/
theorem regOutCover14 (a0 : (pcfg14 (F := F)).Adm) (i : S131072x128.Idx) :
    ∃ t : Fin (cfg14 a0).N, ((cfg14 a0).win 1).flush t = true ∧ i ∈ (((cfg14 a0).win 1).blk t).view.set := by
  have hi0 : (i 0).val < 131072 := (i 0).isLt
  have hi1 : (i 1).val < 128 := (i 1).isLt
  have hN : (i 0).val / 8 < grid14.N := by rw [N_14]; omega
  obtain ⟨t, ht⟩ : ∃ t : Fin (cfg14 a0).N, t.val = (i 0).val / 8 := ⟨⟨_, hN⟩, rfl⟩
  have hx : (((cfg14 a0).win 1).blk t).view.emb (ValueIdx.ix2 ⟨(i 0).val % 8, Nat.mod_lt _ (by decide)⟩ (i 1)) = i := by
    funext a; apply Fin.ext
    have e0 : ((cfg14 a0).win 1).index t (0 : Fin 2) = t.val := congrFun (regOutIndex14 a0 t) (0 : Fin 2)
    have e1 : ((cfg14 a0).win 1).index t (1 : Fin 2) = 0 := congrFun (regOutIndex14 a0 t) (1 : Fin 2)
    match a with
    | ⟨0, _⟩ => show ((cfg14 a0).win 1).index t (0 : Fin 2) * 8 + 1 * ((i 0).val % 8) = (i 0).val; omega
    | ⟨1, _⟩ => show ((cfg14 a0).win 1).index t (1 : Fin 2) * 128 + 1 * (i 1).val = (i 1).val; omega
  exact ⟨t, regOutFlush14 a0 t, hx ▸ (((cfg14 a0).win 1).blk t).view.emb_mem_set _⟩

/-- The result array after the region: the gathered and scaled rows, whole. -/
theorem arrAt14_out (a0 : (pcfg14 (F := F)).Adm) (Vin : Dev nD → Valuation τ sig (Elt F)) (c : Dev nD) :
    (dat14 a0 Vin c).arrAt 1 (cfg14 a0).N = gout14 a0 Vin c :=
  (dat14 a0 Vin c).arrAt_eq_of_cover 1 (gout14 a0 Vin c)
    (fun t _ => by
      show ((cfg14 a0).win 1).cut ((cfg14 a0).grid.coords t) ((dat14 a0 Vin c).after 1 t) = _
      rw [after14_1])
    (regOutCover14 a0)

/-! ## The region as a segment of @main -/

/-- The ownership layout of the kernel's eight semaphores. -/
theorem ownSemFacts14 : Pipeline.OwnSemFacts spec14 osem14 := by decide

/-- The kernel's own cells at zero, listed. -/
theorem ownSemsListed14 (c : Dev nD) :
    (Pipeline.ownSems0 (Ix := Unit) (Name := ℕ) (U := UU nD τ) (Lvl := ℕ) (Val := Elt F) (τ := τ) osem14 c : sProp (MM F)) = sems14 c :=
  Pipeline.ownSems0_eq_of_list c osem14 [0, 1, 2, 3, 4, 5, 6, 7] (by decide) (by decide)

/-- The unscoped buffers that are no window's array, no table, and not the embedding array. -/
abbrev restRefs14 : Finset (Ref sig .tc) :=
  (((Finset.univ.filter fun b : Ref sig .tc => ¬ b.isScoped) \ Finset.univ.image (Pipeline.arrRef spec14)) \ Finset.univ.image pre14.ref) \ {main_arg0}

/-- Those buffers, each whole at its contents under `Vin`: what bypasses the region. -/
def Zrest14 (Vin : Dev nD → Valuation τ sig (Elt F)) (c : Dev nD) : sProp (MM F) :=
  bigSep restRefs14 fun b => ((c : Thread nD τ).loc b) ↦{fullShare} Vr Vin c b

/-- The embedding array is an unscoped buffer that is no window's array and no table. -/
theorem embArrMem14 : ({main_arg0} : Finset (Ref sig .tc)) ⊆
    ((Finset.univ.filter fun b : Ref sig .tc => ¬ b.isScoped) \ Finset.univ.image (Pipeline.arrRef spec14)) \ Finset.univ.image pre14.ref := by
  decide

/-- The unscoped buffers that are no window's array: the index table, the embedding array, and the rest. -/
theorem unscopedRestOpen14 (Vin : Dev nD → Valuation τ sig (Elt F)) (c : Dev nD) :
    (Pipeline.unscopedRest (Ix := Unit) (Name := ℕ) (U := UU nD τ) (Lvl := ℕ) spec14 c (Vr Vin c) : sProp (MM F))
      = iprop(Pipeline.prefHeld pre14 c (fun _ => fullShare) (fun k => Vr Vin c (pre14.ref k))
          ∗ pt c (Memref.whole main_arg0) (Vr Vin c main_arg0) ∗ Zrest14 Vin c) := by
  rw [Pipeline.unscopedRest_split preFacts14 c (Vr Vin c)]
  unfold Pipeline.unscopedRestP Zrest14
  rw [BI.bigSep_sdiff_split embArrMem14, BI.bigSep_singleton]
  rfl

/-- The buffer contents when the region is left: the result array at the gathered rows, every other buffer as entered. -/
abbrev Vout14 (a0 : (pcfg14 (F := F)).Adm) (Vin : Dev nD → Valuation τ sig (Elt F)) (c : Dev nD) : Valuation τ sig (Elt F) :=
  Function.update (Vin c) main_v93 (gout14 a0 Vin c)

/-- At the exit each of the region's arrays holds what the pipeline leaves; -/
theorem hF14 (a0 : (pcfg14 (F := F)).Adm) (Vin : Dev nD → Valuation τ sig (Elt F)) (c : Dev nD) (w : Fin (cfg14 a0).W) :
    (dat14 a0 Vin c).arrAt w (cfg14 a0).N = Vr (Vout14 a0 Vin) c (Pipeline.arrRef spec14 w) := by
  match w with
  | ⟨0, _⟩ =>
    show (dat14 a0 Vin c).arrAt 0 (cfg14 a0).N = Vr (Vout14 a0 Vin) c (Pipeline.arrRef spec14 0)
    rw [arrAt14_in]
    exact (Function.update_of_ne (StableHlo.devRef_ne_of_ne (by decide) : (Proc.devRef .tc main_v92 : DevRef τ sig) ≠ Proc.devRef .tc main_v93) _ _).symm
  | ⟨1, _⟩ =>
    show (dat14 a0 Vin c).arrAt 1 (cfg14 a0).N = Vr (Vout14 a0 Vin) c (Pipeline.arrRef spec14 1)
    rw [arrAt14_out]
    exact (Function.update_self (Proc.devRef .tc main_v93 : DevRef τ sig) _ (Vin c)).symm

/-- and every other buffer what it held at entry. -/
theorem hrest14 (a0 : (pcfg14 (F := F)).Adm) (Vin : Dev nD → Valuation τ sig (Elt F)) (c : Dev nD) :
    ∀ b : Ref sig .tc, b ∉ Finset.univ.image (Pipeline.arrRef spec14) → Vr (Vout14 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat14` at the entry valuation `Vin`
    (`hd`), the index table's contents under `Vin` being the pinned ones (`htbl`) and row numbers (`hok`). -/
def reg14 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk14 (F := F) (a (14 : Fin 34)))
    (hd : ∀ c, pdats (14 : Fin 34) c = dat14 (a (14 : Fin 34)) Vin c) (htbl : ∀ c, (a (14 : Fin 34)).1 = fun k => Vr Vin c (pre14.ref k)) :
    Pipeline.RegionSeg (pcfgs (F := F)) a pdats () defs₀ 𝒱₀ L lv (14 : Fin 34) where
  win := (launch14 (F := F)).win.to₀
  block_pos := (launch14 (F := F)).block_pos
  stage_whole := (launch14 (F := F)).stage_whole
  K := Fin 8
  osem := osem14
  ho := ownSemFacts14
  hbody c := by rw [hd c]; exact (body_obligation14 (a (14 : Fin 34)) hok Vin c).loose
  hwaits := Pipeline.hwaits_of_owed_zero _ _ _ _ L lv (14 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v93 (gout14 (a (14 : Fin 34)) Vin c)) ∗ Rest c)
  X c := iprop(pt c (Memref.whole main_arg0) (Vr Vin c main_arg0) ∗ sems14 c)
  Y c := iprop(pt c (Memref.whole main_arg0) (Vr Vin c main_arg0)
    ∗ Pipeline.prefHeld (Ix := Unit) (Name := ℕ) (U := UU nD τ) (Lvl := ℕ) pre14 c (fun _ => fullShare) (a (14 : Fin 34)).1)
  Z c := Zrest14 Vin c
  hentry c := by
    rw [ownSemsListed14]
    have hsplit := Pipeline.arrays_of_unscopedBufs (p := (14 : Fin 34)) (pcfgs (F := F)) a pdats (launch14 (F := F)).win (launch14 (F := F)).arr_whole c
      ((pdats (14 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen14 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (14 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq14]; unfold Phi14
    iintro ⟨⟨Hx, Hos⟩, Ht, Hr⟩
    isplitl [Hx]; · iexact Hx
    isplitl [Hos]; · iexact Hos
    isplitl [Ht]; · iexact Ht
    iexact Hr
  hout c := by
    rw [ownSemsListed14, hd c, Phi_eq14]; unfold Phi14
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (14 : Fin 34)) (pcfgs (F := F)) a (Ix := Unit) (Name := ℕ) (U := UU nD τ) (Lvl := ℕ)
      (launch14 (F := F)).win (launch14 (F := F)).arr_whole c pdats ((pdats (14 : Fin 34) c).share_full fun _ => by rw [hd c]; rfl)
      (Vr Vin c) (Vr (Vout14 (a (14 : Fin 34)) Vin) c) ((pdats (14 : Fin 34) c).arrAt · (cfg14 (a (14 : Fin 34))).N)
      (fun w => by rw [hd c]; exact hF14 (a (14 : Fin 34)) Vin c w) (hrest14 (a (14 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen14 Vin c).symm)
      isplitl [Ht]; · rw [← htbl c]; iexact Ht
      isplitl [Hx]; · iexact Hx
      iexact Hz
    unfold Pipeline.Dat.owesAt Pipeline.owesWithin
    rw [show (pdats (14 : Fin 34) c).owed (Fin.last _) = 0 from by rw [hd c]; rfl]
    icases HO with ⟨%W, -, HO⟩; iexists W; iexact HO

end Cert.KernelIdeal.Hand

end
-- ==== Proof.KI.GatherDat15.lean ====
/-
  Gather region 15 (custom_call 15): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem15 : Fin 8 → SemLoc sig := fun | 0 => .dma 184 | 1 => .dma 185 | 2 => .dma 186 | 3 => .dma 187 | 4 => .dma 188 | 5 => .dma 189 | 6 => .dma 190 | 7 => .dma 191

/-- The eight counters at zero, as the run finds them and hands them back. -/
abbrev sems15 (c : Dev nD) : sProp (MM F) :=
  iprop(semVal ((c : Thread nD τ), osem15 0) 0 ∗ semVal ((c : Thread nD τ), osem15 1) 0 ∗ semVal ((c : Thread nD τ), osem15 2) 0
    ∗ semVal ((c : Thread nD τ), osem15 3) 0 ∗ semVal ((c : Thread nD τ), osem15 4) 0 ∗ semVal ((c : Thread nD τ), osem15 5) 0
    ∗ semVal ((c : Thread nD τ), osem15 6) 0 ∗ semVal ((c : Thread nD τ), osem15 7) 0)

/-- Word `j` of the eight the index table holds for point `i`, as the kernel's scalar load reads it. -/
def tblWord15 (c : Dev nD) (i : grid15.Coords) (tbl : Bf (F := F) c (Memref.whole main_v94)) (j : Fin 8) : BitVec 32 :=
  (Memref.whole main_v94).view.readAt (Elt F) (Rect.unit (s := S131072) (k15_off1 i (BitVec.ofNat 32 j.val)) S1.size (k15_off1_inb i j)).toLoadRect tbl
    (Shape.Idx.first (s := S1) (numel1_S1.symm ▸ Nat.one_pos))

/-- Window `w`'s block at point `t`, read off its array at the region's entry. -/
def iblk15 (a0 : (pcfg15 (F := F)).Adm) (Vin : Dev nD → Valuation τ sig (Elt F)) (c : Dev nD) (w : Fin (cfg15 a0).W) (t : Fin (cfg15 a0).N) :
    (((cfg15 a0).win w).xblock ((cfg15 a0).grid.coords t)).Idx → Elt F ((cfg15 a0).win w).elt :=
  (((cfg15 a0).win w).blk t).view.read (Elt F) (Vr Vin c (Pipeline.arrRef spec15 w))

/-- The result array the region leaves: the gathered and scaled rows of the embedding array, whole. -/
def gout15 (a0 : (pcfg15 (F := F)).Adm) (Vin : Dev nD → Valuation τ sig (Elt F)) (c : Dev nD) : Buf (Elt F) ((c : Thread nD τ).loc main_v96) :=
  gatherArr (Vr Vin c main_arg0) (a0.1 0) (Vr Vin c main_v95)

/-- The invariant between points: the embedding array as entered, the kernel's semaphores at zero, the index table, the
    scoped buffers no window stages (the kernel's scratch among them). -/
def Phi15 (a0 : (pcfg15 (F := F)).Adm) (Vin : Dev nD → Valuation τ sig (Elt F)) (c : Dev nD) : sProp (MM F) :=
  iprop(pt c (Memref.whole main_arg0) (Vr Vin c main_arg0) ∗ sems15 c
    ∗ Pipeline.prefHeld (Ix := Unit) (Name := ℕ) (U := UU nD τ) (Lvl := ℕ) pre15 c (fun _ => fullShare) a0.1
    ∗ Pipeline.scopedRest (Ix := Unit) (Name := ℕ) (U := UU nD τ) (Lvl := ℕ) (Val := Elt F) spec15 c)

/-- The proof data on core `c`. -/
def dat15 (a0 : (pcfg15 (F := F)).Adm) (Vin : Dev nD → Valuation τ sig (Elt F)) (c : Dev nD) :
    Pipeline.Dat τ (Elt F) Unit ℕ (UU nD τ) ℕ ((pcfg15 (F := F)).at a0) c where
  A w := Vr Vin c (Pipeline.arrRef spec15 w)
  after w t := match w with
    | ⟨0, _⟩ => iblk15 a0 Vin c 0 t
    | ⟨1, _⟩ => (((cfg15 a0).win 1).blk t).view.read (Elt F) (gout15 a0 Vin c)
  Φ _ := Phi15 a0 Vin c
  q _ := fullShare
  owed _ := 0

theorem A_eq15 (a0 : (pcfg15 (F := F)).Adm) (Vin : Dev nD → Valuation τ sig (Elt F)) (c : Dev nD) (w : Fin (cfg15 a0).W) :
    (dat15 a0 Vin c).A w = Vr Vin c (Pipeline.arrRef spec15 w) := by dsimp only [dat15]
theorem after15_0 (a0 : (pcfg15 (F := F)).Adm) (Vin : Dev nD → Valuation τ sig (Elt F)) (c : Dev nD) (t : Fin (cfg15 a0).N) :
    (dat15 a0 Vin c).after 0 t = iblk15 a0 Vin c 0 t := by dsimp only [dat15]; rfl
theorem after15_1 (a0 : (pcfg15 (F := F)).Adm) (Vin : Dev nD → Valuation τ sig (Elt F)) (c : Dev nD) (t : Fin (cfg15 a0).N) :
    (dat15 a0 Vin c).after 1 t = (((cfg15 a0).win 1).blk t).view.read (Elt F) (gout15 a0 Vin c) := by dsimp only [dat15]; rfl
theorem Phi_eq15 (a0 : (pcfg15 (F := F)).Adm) (Vin : Dev nD → Valuation τ sig (Elt F)) (c : Dev nD) (t : Fin ((cfg15 a0).N + 1)) :
    (dat15 a0 Vin c).Φ t = Phi15 a0 Vin c := rfl
theorem owed_eq15 (a0 : (pcfg15 (F := F)).Adm) (Vin : Dev nD → Valuation τ sig (Elt F)) (c : Dev nD) (t : Fin ((cfg15 a0).N + 1)) :
    (dat15 a0 Vin c).owed t = 0 := rfl
theorem q_eq15 (a0 : (pcfg15 (F := F)).Adm) (Vin : Dev nD → Valuation τ sig (Elt F)) (c : Dev nD) (w : Fin (cfg15 a0).W) :
    (dat15 a0 Vin c).q w = fullShare := rfl

/-- The pinned family's configuration at region 15 is this one. -/
example (a : (p : Fin 34) → (pcfgs (F := F) p).Adm) : Pipeline.pin (pcfgs (F := F)) a (15 : Fin 34) = (pcfg15 (F := F)).at (a (15 : Fin 34)) := rfl

end Cert.KernelIdeal.Hand

end
-- ==== Proof.KI.GatherBody15.lean ====
/-
  Gather region 15 (custom_call 15): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat15
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk15 (c : Dev nD) (i : grid15.Coords) (tbl : Bf (F := F) c (Memref.whole main_v94)) : Prop where
  h1 : k15_chk1 (tblWord15 c i tbl 0)
  h2 : k15_chk2 (tblWord15 c i tbl 1)
  h3 : k15_chk3 (tblWord15 c i tbl 2)
  h4 : k15_chk4 (tblWord15 c i tbl 3)
  h5 : k15_chk5 (tblWord15 c i tbl 4)
  h6 : k15_chk6 (tblWord15 c i tbl 5)
  h7 : k15_chk7 (tblWord15 c i tbl 6)
  h8 : k15_chk8 (tblWord15 c i tbl 7)

/-- A one-row slice of the embedding array at the row a word names, read at lane `z 1`: the array's element there. -/
theorem rowRead15 (c : Dev nD) (off : Fin 2 → ℕ) (w : BitVec 32) (h0 : off 0 = w.toNat) (h1 : off 1 = 0)
    (h : ∀ a, off a + S1x128.size a ≤ S100000x128.size a) (hp) (x : Bf (F := F) c (Memref.whole main_arg0)) (z : S1x128.Idx) :
    ReadAs.same.apply (View.read (Elt F) ((Memref.whole main_arg0).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun15 (c : Dev nD) (i : grid15.Coords)
    (M3 : Memref sig .tc .vmem S8x1 .f32) (h3 : M3.IsWhole) (M4 : Memref sig .tc .vmem S8x128 .f32) (h4 : M4.IsWhole)
    (tbl : Bf (F := F) c (Memref.whole main_v94)) (x : Bf (F := F) c (Memref.whole main_arg0))
    (vb : Vec F S8x1 .f32) (hchk : GatherChk15 c i tbl) (Q : PUnit → sProp (MM F)) :
    iprop(pt c (Memref.whole main_v94) tbl ∗ pt c (Memref.whole main_arg0) x
      ∗ owns (c : Thread nD τ) M3 fullShare vb ∗ (∃ d, owns (c : Thread nD τ) M4 fullShare d)
      ∗ (∃ fs, pt c (Memref.whole cc15_scratch0) fs) ∗ sems15 c ∗ (∃ W, owes (c : Thread nD τ) (0 : CellTallies nD τ sig Unit) W)
      ∗ (iprop(pt c (Memref.whole main_v94) tbl ∗ pt c (Memref.whole main_arg0) x
          ∗ owns (c : Thread nD τ) M3 fullShare vb ∗ owns (c : Thread nD τ) M4 fullShare (gatherBlk x (tblWord15 c i tbl) vb)
          ∗ (∃ fs, pt c (Memref.whole cc15_scratch0) fs) ∗ sems15 c ∗ (∃ W, owes (c : Thread nD τ) (0 : CellTallies nD τ sig Unit) W)) -∗ Q ⟨⟩))
    ⊢ wp frame (wpE (defs₀ (F := F)) 𝒱₀ c none) Set.univ
        (cc15__gather_kernel i (Memref.whole main_v94) (Memref.isWhole_whole _) (Memref.whole main_arg0) (Memref.isWhole_whole _) M3 h3 M4 h4
          (Memref.whole cc15_scratch0) (Memref.isWhole_whole _) cc15_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 184).1 $$ Hx
  icases Hx' with ⟨Hxr, Hx0, Hx1, Hx2, Hx3, Hx4, Hx5, Hx6, Hx7⟩
  sl_unfold [cc15__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 184).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k15_pay1 gatherBlk
    show FloatOps.mulf _ _ = FloatOps.mulf _ _
    congr 1
    · unfold gatherRun15.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun15.sl.dma8 gatherRun15.sl.dma8_1 gatherRun15.sl.dma8_2 gatherRun15.sl.dma8_3 gatherRun15.sl.dma8_4 gatherRun15.sl.dma8_5
        gatherRun15.sl.dma8_6 gatherRun15.sl.dma8_7 gatherRun15.sl.r gatherRun15.sl.r_1 gatherRun15.sl.r_2 gatherRun15.sl.r_3 gatherRun15.sl.r_4
        gatherRun15.sl.r_5 gatherRun15.sl.r_6 gatherRun15.sl.r_7
      refine canonRows8 _ _ _ _ _ _ _ _ _ _ _ _ _ _ _ _ (fun r d => x (embIdx (rowOf (tblWord15 c i tbl r)) d)) ?_ ?_ ?_ ?_ ?_ ?_ ?_ ?_ y
      · exact fun z => rowRead15 c _ (tblWord15 c i tbl 0) rfl rfl _ _ x z
      · exact fun z => rowRead15 c _ (tblWord15 c i tbl 1) rfl rfl _ _ x z
      · exact fun z => rowRead15 c _ (tblWord15 c i tbl 2) rfl rfl _ _ x z
      · exact fun z => rowRead15 c _ (tblWord15 c i tbl 3) rfl rfl _ _ x z
      · exact fun z => rowRead15 c _ (tblWord15 c i tbl 4) rfl rfl _ _ x z
      · exact fun z => rowRead15 c _ (tblWord15 c i tbl 5) rfl rfl _ _ x z
      · exact fun z => rowRead15 c _ (tblWord15 c i tbl 6) rfl rfl _ _ x z
      · exact fun z => rowRead15 c _ (tblWord15 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk15.lean ====
/-
  Gather region 15 (custom_call 15): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat15
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word15 (i : grid15.Coords) (j : Fin 8) : k15_off1 i (BitVec.ofNat 32 j.val) 0 = (i 0).val * 8 + j.val := by
  have hi : (i 0).val < 16384 := (i 0).isLt
  have hj : j.val < 8 := j.isLt
  unfold k15_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word15 (i : grid15.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord15_eq (c : Dev nD) (i : grid15.Coords) (tbl : Bf (F := F) c (Memref.whole main_v94)) (j : Fin 8)
    (e : Fin 131072) (he : e.val = (i 0).val * 8 + j.val) : tblWord15 c i tbl j = tbl (tblIdx e) := by
  unfold tblWord15
  show tbl _ = tbl _
  refine congrArg tbl ?_
  funext a; apply Fin.ext
  match a with
  | ⟨0, _⟩ =>
    show k15_off1 i (BitVec.ofNat 32 j.val) 0 + 1 * 0 = e.val
    rw [off_word15, he]; omega

/-- Row `j` of the value window's block at point `t` is the value array's row `8 t + j`. -/
theorem valBlk15_eq (a0 : (pcfg15 (F := F)).Adm) (Vin : Dev nD → Valuation τ sig (Elt F)) (c : Dev nD) (t : Fin (cfg15 a0).N)
    (j : Fin 8) (e : Fin 131072) (he : e.val = ((grid15.coords t) 0).val * 8 + j.val) :
    iblk15 a0 Vin c 0 t (colIdx j) = Vr Vin c main_v95 (valIdx e) := by
  unfold iblk15
  show Vr Vin c main_v95 _ = Vr Vin c main_v95 _
  refine congrArg (Vr Vin c main_v95) ?_
  funext a; apply Fin.ext
  match a with
  | ⟨0, _⟩ =>
    show (BitVec.ofNat 32 ((grid15.coords t) 0).val).toNat * 8 + 1 * j.val = e.val
    rw [coord_word15, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk15 (a0 : (pcfg15 (F := F)).Adm) (Vin : Dev nD → Valuation τ sig (Elt F)) (c : Dev nD) (t : Fin (cfg15 a0).N) :
    gatherBlk (Vr Vin c main_arg0) (tblWord15 c (grid15.coords t) (a0.1 0)) (iblk15 a0 Vin c 0 t)
      = (((cfg15 a0).win 1).blk t).view.read (Elt F) (gout15 a0 Vin c) := by
  funext y
  show gatherBlk _ _ _ y = gout15 a0 Vin c ((((cfg15 a0).win 1).blk t).view.emb y)
  unfold gatherBlk gout15 gatherArr
  have e0 : ((((cfg15 a0).win 1).blk t).view.emb y (0 : Fin 2)).val = ((grid15.coords t) 0).val * 8 + (y 0).val := by
    show (BitVec.ofNat 32 ((grid15.coords t) 0).val).toNat * 8 + 1 * (y 0).val = _
    rw [coord_word15]; omega
  have e1 : (((cfg15 a0).win 1).blk t).view.emb y (1 : Fin 2) = y 1 := Fin.ext (by
    show (0#32 : BitVec 32).toNat * 128 + 1 * (y 1).val = (y 1).val
    show 0 * 128 + 1 * (y 1).val = (y 1).val
    omega)
  rw [tblWord15_eq c (grid15.coords t) (a0.1 0) (y 0) _ e0, valBlk15_eq a0 Vin c t (y 0) _ e0, e1]

end Cert.KernelIdeal.Hand

end
-- ==== Proof.KI.GatherRegion15.lean ====
/-
  Gather region 15 (custom_call 15): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody15
import proofs.«414509_j14181982011419_2_alg».proof.Proof.KI.GatherBlk15
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk15 (a0 : (pcfg15 (F := F)).Adm) : Prop := ∀ e : S131072.Idx, (a0.1 0 e).toNat < 100000

/-! ## The grid and the result window's blocks -/

/-- On the one-axis grid a point's coordinate is its number. -/
theorem regCoords15 (t : Fin grid15.N) : (grid15.coords t 0).val = t.val := by
  have ht : t.val < 16384 := N_15 ▸ t.isLt
  show t.val / grid15.stride 0 % grid15.bound 0 = t.val
  rw [show grid15.stride 0 = 1 from by decide, show grid15.bound 0 = 16384 from rfl, Nat.div_one, Nat.mod_eq_of_lt ht]

/-- A point's number as the 32-bit word the index maps compute with. -/
theorem regWord15 (t : Fin grid15.N) : (BitVec.ofNat 32 (grid15.coords t 0).val).toNat = t.val := by
  have ht : t.val < 16384 := N_15 ▸ t.isLt
  rw [BitVec.toNat_ofNat, regCoords15]; omega

/-- The result window's block at point `t` is block `t` along the rows, at zero along the lanes. -/
theorem regOutIndex15 (a0 : (pcfg15 (F := F)).Adm) (t : Fin (cfg15 a0).N) : ((cfg15 a0).win 1).index t = ![t.val, 0] := by
  show cc15_transform_2 (grid15.coords t) = _
  unfold cc15_transform_2
  funext a; fin_cases a
  · exact regWord15 t
  · rfl

/-- The result window is written back at every point: consecutive points have different blocks. -/
theorem regOutFlush15 (a0 : (pcfg15 (F := F)).Adm) (t : Fin (cfg15 a0).N) : ((cfg15 a0).win 1).flush t = true := by
  have htN : t.val < 16384 := N_15 ▸ t.isLt
  rw [Pipeline.Window.flush_out _ rfl]
  by_cases h : t.val + 1 = 16384
  · exact Or.inl (show t.val + 1 = grid15.N by rw [N_15]; exact h)
  · have hlt : t.val + 1 < grid15.N := by rw [N_15]; omega
    refine Or.inr ⟨hlt, fun e => ?_⟩
    have e' : (![t.val + 1, 0] : Fin 2 → ℕ) = ![t.val, 0] := (regOutIndex15 a0 ⟨t.val + 1, hlt⟩).symm.trans (e.trans (regOutIndex15 a0 t))
    have e0 := congrFun e' 0
    simp at e0

/-- The index table, held as the pipeline's one prefetched table. -/
theorem prefHeldEq15 (a0 : (pcfg15 (F := F)).Adm) (c : Dev nD) :
    (Pipeline.prefHeld (Ix := Unit) (Name := ℕ) (U := UU nD τ) (Lvl := ℕ) pre15 c (fun _ => fullShare) a0.1 : sProp (MM F))
      = pt c (Memref.whole main_v94) (a0.1 0) := by
  unfold Pipeline.prefHeld
  rw [show (Finset.univ : Finset (Fin pre15.K)) = {0} from rfl, BI.bigSep_singleton]
  rfl

/-- The value window's staging buffer holds its block at every point. -/
theorem beforeVal15 (a0 : (pcfg15 (F := F)).Adm) (Vin : Dev nD → Valuation τ sig (Elt F)) (c : Dev nD) (t : Fin (cfg15 a0).N) (d) :
    (dat15 a0 Vin c).before 0 t d = iblk15 a0 Vin c 0 t :=
  ((dat15 a0 Vin c).before_in_eq_fetched 0 rfl (fun _ => rfl) (fun _ _ _ => rfl)
    (fun t => by rw [after15_0]; unfold Dat.blockOf iblk15; rw [A_eq15]; try rfl) t d).trans
    (by unfold Dat.fetched Dat.blockOf iblk15; rw [A_eq15]; try rfl)

/-! ## The kernel's checks, from the table's range -/

/-- Each of the point's eight words is a word of the table, so a row number. -/
theorem tblWordLt15 (a0 : (pcfg15 (F := F)).Adm) (hok : GatherOk15 a0) (c : Dev nD) (i : grid15.Coords) (j : Fin 8) :
    (tblWord15 c i (a0.1 0) j).toNat < 100000 := by
  unfold tblWord15
  exact hok _

/-- So the kernel's eight checks hold at every point. -/
theorem gatherChk15 (a0 : (pcfg15 (F := F)).Adm) (hok : GatherOk15 a0) (c : Dev nD) (i : grid15.Coords) : GatherChk15 c i (a0.1 0) :=
  ⟨⟨chkRow _ (tblWordLt15 a0 hok c i 0), chkRow _ (tblWordLt15 a0 hok c i 0)⟩,
   ⟨chkRow _ (tblWordLt15 a0 hok c i 1), chkRow _ (tblWordLt15 a0 hok c i 1)⟩,
   ⟨chkRow _ (tblWordLt15 a0 hok c i 2), chkRow _ (tblWordLt15 a0 hok c i 2)⟩,
   ⟨chkRow _ (tblWordLt15 a0 hok c i 3), chkRow _ (tblWordLt15 a0 hok c i 3)⟩,
   ⟨chkRow _ (tblWordLt15 a0 hok c i 4), chkRow _ (tblWordLt15 a0 hok c i 4)⟩,
   ⟨chkRow _ (tblWordLt15 a0 hok c i 5), chkRow _ (tblWordLt15 a0 hok c i 5)⟩,
   ⟨chkRow _ (tblWordLt15 a0 hok c i 6), chkRow _ (tblWordLt15 a0 hok c i 6)⟩,
   chkRow _ (tblWordLt15 a0 hok c i 7)⟩

/-! ## The body obligation, at a generic point -/

/-- What the body is called with at point `t`: the invariant, the core's dues, each window's current staging memref at
    what the pipeline left there, -/
def bodyPre15 (a0 : (pcfg15 (F := F)).Adm) (Vin : Dev nD → Valuation τ sig (Elt F)) (c : Dev nD) (t : Fin (cfg15 a0).N) : sProp (MM F) :=
  iprop((dat15 a0 Vin c).Φ t.castSucc ∗ (dat15 a0 Vin c).owesAt () t.castSucc
    ∗ (∃ d, owns (c : Thread nD τ) (((cfg15 a0).win 0).stage ((cfg15 a0).slots t 0)) fullShare ((dat15 a0 Vin c).before 0 t d))
    ∗ (∃ d, owns (c : Thread nD τ) (((cfg15 a0).win 1).stage ((cfg15 a0).slots t 1)) fullShare ((dat15 a0 Vin c).before 1 t d)))

/-- and what it returns. -/
def bodyPost15 (a0 : (pcfg15 (F := F)).Adm) (Vin : Dev nD → Valuation τ sig (Elt F)) (c : Dev nD) (t : Fin (cfg15 a0).N) : sProp (MM F) :=
  iprop((dat15 a0 Vin c).Φ t.succ ∗ (dat15 a0 Vin c).owesAt () t.succ
    ∗ owns (c : Thread nD τ) (((cfg15 a0).win 0).stage ((cfg15 a0).slots t 0)) fullShare ((dat15 a0 Vin c).after 0 t)
    ∗ owns (c : Thread nD τ) (((cfg15 a0).win 1).stage ((cfg15 a0).slots t 1)) fullShare ((dat15 a0 Vin c).after 1 t))

/-- The body at any point: the invariant opened into the embedding array, the semaphores, the table and the scratch;
    the value window's memref at its block; the checks from the table's range; so the kernel's run applies, and what it
    leaves in the result window's memref is the point's block of the gathered array. -/
theorem sound_body15 (a0 : (pcfg15 (F := F)).Adm) (hok : GatherOk15 a0) (Vin : Dev nD → Valuation τ sig (Elt F)) (c : Dev nD) (t : Fin (cfg15 a0).N) :
    bodyPre15 a0 Vin c t ⊢ wp frame (wpE (defs₀ (F := F)) 𝒱₀ c none) Set.univ
      (defs₀ .tc (cfg15 a0).body ((cfg15 a0).bodyArgs t ((cfg15 a0).slots t))) (fun _ => bodyPost15 a0 Vin c t) := by
  unfold bodyPre15 bodyPost15
  simp only [beforeVal15]
  rw [Phi_eq15, Phi_eq15, after15_0, after15_1, ← gatherBlk_blk15]
  unfold Phi15 Pipeline.Dat.owesAt Pipeline.owesWithin
  rw [owed_eq15, owed_eq15, prefHeldEq15, scopedRest15_split]
  iintro ⟨⟨Hx, Hos, Ht, ⟨%fs, Hs⟩, Hsb⟩, ⟨%W, %hW, HO⟩, ⟨%d0, H0⟩, ⟨%d1, H1⟩⟩
  iapply (gatherRun15 c (grid15.coords t) _ _ _ _ (a0.1 0) (Vr Vin c main_arg0) (iblk15 a0 Vin c 0 t) (gatherChk15 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation15 (a0 : (pcfg15 (F := F)).Adm) (hok : GatherOk15 a0) (Vin : Dev nD → Valuation τ sig (Elt F)) (c : Dev nD) :
    BodyObligation (dat15 a0 Vin c) (defs₀ (F := F)) 𝒱₀ () Set.univ := fun t => by
  rw [bigSep_W15, bigSep_W15]
  exact sound_body15 a0 hok Vin c t

/-! ## From the blocks to the arrays -/

/-- The value array after the region: as entered. -/
theorem arrAt15_in (a0 : (pcfg15 (F := F)).Adm) (Vin : Dev nD → Valuation τ sig (Elt F)) (c : Dev nD) :
    (dat15 a0 Vin c).arrAt 0 (cfg15 a0).N = Vr Vin c main_v95 :=
  ((dat15 a0 Vin c).arrAt_in 0 rfl _).trans (A_eq15 a0 Vin c 0)

/-- Every index of the result array is in some point's block: row `e`, lane `d` is element `(e % 8, d)` of the block
    of point `e / 8`. -/
theorem regOutCover15 (a0 : (pcfg15 (F := F)).Adm) (i : S131072x128.Idx) :
    ∃ t : Fin (cfg15 a0).N, ((cfg15 a0).win 1).flush t = true ∧ i ∈ (((cfg15 a0).win 1).blk t).view.set := by
  have hi0 : (i 0).val < 131072 := (i 0).isLt
  have hi1 : (i 1).val < 128 := (i 1).isLt
  have hN : (i 0).val / 8 < grid15.N := by rw [N_15]; omega
  obtain ⟨t, ht⟩ : ∃ t : Fin (cfg15 a0).N, t.val = (i 0).val / 8 := ⟨⟨_, hN⟩, rfl⟩
  have hx : (((cfg15 a0).win 1).blk t).view.emb (ValueIdx.ix2 ⟨(i 0).val % 8, Nat.mod_lt _ (by decide)⟩ (i 1)) = i := by
    funext a; apply Fin.ext
    have e0 : ((cfg15 a0).win 1).index t (0 : Fin 2) = t.val := congrFun (regOutIndex15 a0 t) (0 : Fin 2)
    have e1 : ((cfg15 a0).win 1).index t (1 : Fin 2) = 0 := congrFun (regOutIndex15 a0 t) (1 : Fin 2)
    match a with
    | ⟨0, _⟩ => show ((cfg15 a0).win 1).index t (0 : Fin 2) * 8 + 1 * ((i 0).val % 8) = (i 0).val; omega
    | ⟨1, _⟩ => show ((cfg15 a0).win 1).index t (1 : Fin 2) * 128 + 1 * (i 1).val = (i 1).val; omega
  exact ⟨t, regOutFlush15 a0 t, hx ▸ (((cfg15 a0).win 1).blk t).view.emb_mem_set _⟩

/-- The result array after the region: the gathered and scaled rows, whole. -/
theorem arrAt15_out (a0 : (pcfg15 (F := F)).Adm) (Vin : Dev nD → Valuation τ sig (Elt F)) (c : Dev nD) :
    (dat15 a0 Vin c).arrAt 1 (cfg15 a0).N = gout15 a0 Vin c :=
  (dat15 a0 Vin c).arrAt_eq_of_cover 1 (gout15 a0 Vin c)
    (fun t _ => by
      show ((cfg15 a0).win 1).cut ((cfg15 a0).grid.coords t) ((dat15 a0 Vin c).after 1 t) = _
      rw [after15_1])
    (regOutCover15 a0)

/-! ## The region as a segment of @main -/

/-- The ownership layout of the kernel's eight semaphores. -/
theorem ownSemFacts15 : Pipeline.OwnSemFacts spec15 osem15 := by decide

/-- The kernel's own cells at zero, listed. -/
theorem ownSemsListed15 (c : Dev nD) :
    (Pipeline.ownSems0 (Ix := Unit) (Name := ℕ) (U := UU nD τ) (Lvl := ℕ) (Val := Elt F) (τ := τ) osem15 c : sProp (MM F)) = sems15 c :=
  Pipeline.ownSems0_eq_of_list c osem15 [0, 1, 2, 3, 4, 5, 6, 7] (by decide) (by decide)

/-- The unscoped buffers that are no window's array, no table, and not the embedding array. -/
abbrev restRefs15 : Finset (Ref sig .tc) :=
  (((Finset.univ.filter fun b : Ref sig .tc => ¬ b.isScoped) \ Finset.univ.image (Pipeline.arrRef spec15)) \ Finset.univ.image pre15.ref) \ {main_arg0}

/-- Those buffers, each whole at its contents under `Vin`: what bypasses the region. -/
def Zrest15 (Vin : Dev nD → Valuation τ sig (Elt F)) (c : Dev nD) : sProp (MM F) :=
  bigSep restRefs15 fun b => ((c : Thread nD τ).loc b) ↦{fullShare} Vr Vin c b

/-- The embedding array is an unscoped buffer that is no window's array and no table. -/
theorem embArrMem15 : ({main_arg0} : Finset (Ref sig .tc)) ⊆
    ((Finset.univ.filter fun b : Ref sig .tc => ¬ b.isScoped) \ Finset.univ.image (Pipeline.arrRef spec15)) \ Finset.univ.image pre15.ref := by
  decide

/-- The unscoped buffers that are no window's array: the index table, the embedding array, and the rest. -/
theorem unscopedRestOpen15 (Vin : Dev nD → Valuation τ sig (Elt F)) (c : Dev nD) :
    (Pipeline.unscopedRest (Ix := Unit) (Name := ℕ) (U := UU nD τ) (Lvl := ℕ) spec15 c (Vr Vin c) : sProp (MM F))
      = iprop(Pipeline.prefHeld pre15 c (fun _ => fullShare) (fun k => Vr Vin c (pre15.ref k))
          ∗ pt c (Memref.whole main_arg0) (Vr Vin c main_arg0) ∗ Zrest15 Vin c) := by
  rw [Pipeline.unscopedRest_split preFacts15 c (Vr Vin c)]
  unfold Pipeline.unscopedRestP Zrest15
  rw [BI.bigSep_sdiff_split embArrMem15, BI.bigSep_singleton]
  rfl

/-- The buffer contents when the region is left: the result array at the gathered rows, every other buffer as entered. -/
abbrev Vout15 (a0 : (pcfg15 (F := F)).Adm) (Vin : Dev nD → Valuation τ sig (Elt F)) (c : Dev nD) : Valuation τ sig (Elt F) :=
  Function.update (Vin c) main_v96 (gout15 a0 Vin c)

/-- At the exit each of the region's arrays holds what the pipeline leaves; -/
theorem hF15 (a0 : (pcfg15 (F := F)).Adm) (Vin : Dev nD → Valuation τ sig (Elt F)) (c : Dev nD) (w : Fin (cfg15 a0).W) :
    (dat15 a0 Vin c).arrAt w (cfg15 a0).N = Vr (Vout15 a0 Vin) c (Pipeline.arrRef spec15 w) := by
  match w with
  | ⟨0, _⟩ =>
    show (dat15 a0 Vin c).arrAt 0 (cfg15 a0).N = Vr (Vout15 a0 Vin) c (Pipeline.arrRef spec15 0)
    rw [arrAt15_in]
    exact (Function.update_of_ne (StableHlo.devRef_ne_of_ne (by decide) : (Proc.devRef .tc main_v95 : DevRef τ sig) ≠ Proc.devRef .tc main_v96) _ _).symm
  | ⟨1, _⟩ =>
    show (dat15 a0 Vin c).arrAt 1 (cfg15 a0).N = Vr (Vout15 a0 Vin) c (Pipeline.arrRef spec15 1)
    rw [arrAt15_out]
    exact (Function.update_self (Proc.devRef .tc main_v96 : DevRef τ sig) _ (Vin c)).symm

/-- and every other buffer what it held at entry. -/
theorem hrest15 (a0 : (pcfg15 (F := F)).Adm) (Vin : Dev nD → Valuation τ sig (Elt F)) (c : Dev nD) :
    ∀ b : Ref sig .tc, b ∉ Finset.univ.image (Pipeline.arrRef spec15) → Vr (Vout15 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat15` at the entry valuation `Vin`
    (`hd`), the index table's contents under `Vin` being the pinned ones (`htbl`) and row numbers (`hok`). -/
def reg15 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk15 (F := F) (a (15 : Fin 34)))
    (hd : ∀ c, pdats (15 : Fin 34) c = dat15 (a (15 : Fin 34)) Vin c) (htbl : ∀ c, (a (15 : Fin 34)).1 = fun k => Vr Vin c (pre15.ref k)) :
    Pipeline.RegionSeg (pcfgs (F := F)) a pdats () defs₀ 𝒱₀ L lv (15 : Fin 34) where
  win := (launch15 (F := F)).win.to₀
  block_pos := (launch15 (F := F)).block_pos
  stage_whole := (launch15 (F := F)).stage_whole
  K := Fin 8
  osem := osem15
  ho := ownSemFacts15
  hbody c := by rw [hd c]; exact (body_obligation15 (a (15 : Fin 34)) hok Vin c).loose
  hwaits := Pipeline.hwaits_of_owed_zero _ _ _ _ L lv (15 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v96 (gout15 (a (15 : Fin 34)) Vin c)) ∗ Rest c)
  X c := iprop(pt c (Memref.whole main_arg0) (Vr Vin c main_arg0) ∗ sems15 c)
  Y c := iprop(pt c (Memref.whole main_arg0) (Vr Vin c main_arg0)
    ∗ Pipeline.prefHeld (Ix := Unit) (Name := ℕ) (U := UU nD τ) (Lvl := ℕ) pre15 c (fun _ => fullShare) (a (15 : Fin 34)).1)
  Z c := Zrest15 Vin c
  hentry c := by
    rw [ownSemsListed15]
    have hsplit := Pipeline.arrays_of_unscopedBufs (p := (15 : Fin 34)) (pcfgs (F := F)) a pdats (launch15 (F := F)).win (launch15 (F := F)).arr_whole c
      ((pdats (15 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen15 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (15 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq15]; unfold Phi15
    iintro ⟨⟨Hx, Hos⟩, Ht, Hr⟩
    isplitl [Hx]; · iexact Hx
    isplitl [Hos]; · iexact Hos
    isplitl [Ht]; · iexact Ht
    iexact Hr
  hout c := by
    rw [ownSemsListed15, hd c, Phi_eq15]; unfold Phi15
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (15 : Fin 34)) (pcfgs (F := F)) a (Ix := Unit) (Name := ℕ) (U := UU nD τ) (Lvl := ℕ)
      (launch15 (F := F)).win (launch15 (F := F)).arr_whole c pdats ((pdats (15 : Fin 34) c).share_full fun _ => by rw [hd c]; rfl)
      (Vr Vin c) (Vr (Vout15 (a (15 : Fin 34)) Vin) c) ((pdats (15 : Fin 34) c).arrAt · (cfg15 (a (15 : Fin 34))).N)
      (fun w => by rw [hd c]; exact hF15 (a (15 : Fin 34)) Vin c w) (hrest15 (a (15 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen15 Vin c).symm)
      isplitl [Ht]; · rw [← htbl c]; iexact Ht
      isplitl [Hx]; · iexact Hx
      iexact Hz
    unfold Pipeline.Dat.owesAt Pipeline.owesWithin
    rw [show (pdats (15 : Fin 34) c).owed (Fin.last _) = 0 from by rw [hd c]; rfl]
    icases HO with ⟨%W, -, HO⟩; iexists W; iexact HO

end Cert.KernelIdeal.Hand

end
-- ==== Proof.KI.ActBody16.lean ====
/-
  The activation-and-sum kernel of custom_call 16, run once at symbolic staging memrefs.

  The body loads its whole input block `x : [4, 2000, 128]`, forms `where(x > 0, x, 0.01 * x)` element by element,
  adds the four slabs along the leading axis, and stores the `[2000, 128]` result over the whole output block. So
  from the input block held at `xin` and the output block held at anything, it returns with the input block as it
  was and the output block at `actOut16 xin`, the body's one payload as a pure function of the loaded block.
-/
import proofs.«414509_j14181982011419_2_alg».proof.Proof.KI.ActSpec
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The zero offsets of a whole-block access, in rank 2 and in rank 3, as constant functions. -/
theorem zeros16_2 : (![0, 0] : Fin 2 → Nat) = fun _ => 0 := funext fun a => by fin_cases a <;> rfl
theorem zeros16_3 : (![0, 0, 0] : Fin 3 → Nat) = fun _ => 0 := funext fun a => by fin_cases a <;> rfl

/-- The body's payload is the activation-and-sum of the loaded block: the same chain of operations. -/
theorem pay16_eq (x : Vec F S4x2000x128 .f32) : k16_pay1 x = actBlock x := rfl

/-- What the body leaves in the output block, from the input block: the leaky activation of every element, summed
    over the four slabs of the leading axis. -/
def actOut16 (xin : Vec F S4x2000x128 .f32) : Vec F S2000x128 .f32 := actBlock xin

set_option maxHeartbeats 1000000 in
/-- The kernel body on whole staging memrefs, the input's at contents `xin` and the output's at anything, runs to the
    continuation holding the input's as it was and the output's at `actOut16 xin`: the one store covers the whole
    block, so what it leaves is its payload, and the payload's argument is the whole-block load of `xin`. -/
theorem body16 (c : Dev nD) (E : Set ℕ) (i : grid16.Coords) (M1 : Memref sig .tc .vmem S4x2000x128 .f32) (h1 : M1.IsWhole)
    (M2 : Memref sig .tc .vmem S2000x128 .f32) (h2 : M2.IsWhole) (xin : Vec F S4x2000x128 .f32) (K : PUnit → sProp (MM F)) :
    iprop(owns (c : Thread nD τ) M1 fullShare xin ∗ (∃ d, owns (c : Thread nD τ) M2 fullShare d)
        ∗ (iprop(owns (c : Thread nD τ) M1 fullShare xin ∗ owns (c : Thread nD τ) M2 fullShare (actOut16 xin)) -∗ K ⟨⟩))
      ⊢ wp frame (wpE (defs₀ (F := F)) Variants.none c none) E (cc16__act_sum_kernel i M1 h1 M2 h2) K := by
  simp only [cc16__act_sum_kernel_eq_skeleton]; unfold cc16__act_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _,
      View.mem_set_unit_zero zeros16_2 inb_S2000x128_S2000x128_0_0 y⟩),
    View.canon_unit_zero (S := S2000x128) zeros16_2]
  unfold actOut16
  exact (pay16_eq _).trans (congrArg actBlock (View.ld_unit_zero (S := S4x2000x128) zeros16_3 inb_S4x2000x128_S4x2000x128_0_0_0 _))

end Cert.KernelIdeal.Hand

end
-- ==== Proof.KI.ActDat16.lean ====
/-
  The proof data of custom_call 16 (the activation-and-sum over the stacked aggregates) and the array it leaves.

  The pipeline walks 50 points; at point `t` it stages rows `[2000 t, 2000 t + 2000)` of all four slabs of the input
  array, runs the body, and writes the `[2000, 128]` result back over the same rows of the output array. The proof data
  say so: the arrays as the region finds them, the input's buffer at its block, the output's at the activation-and-sum
  of that block. The output's blocks tile its array, so after the last point the array is `actArr` of the input array:
  what each point writes back is its block of that one function (the index maps' relations decided over the grid, the
  rest arithmetic on rows), and every row lies in the block of point `row / 2000`.
-/
import proofs.«414509_j14181982011419_2_alg».proof.Proof.KI.ActBody16
import proofs.«414509_j14181982011419_2_alg».proof.Proof.Gen.KernelIdeal.Points
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

variable (Vin : Dev nD → Valuation τ sig (Elt F))

/-- The pinned configuration of pipeline 16 is the printed one, whatever the tables' contents (it has no table). -/
theorem pin_eq16 (a : (p : Fin 34) → (pcfgs (F := F) p).Adm) : Pipeline.pin (pcfgs (F := F)) a (16 : Fin 34) = cfg16 := rfl

/-- Window `w`'s block at point `t`, read off its array as the region finds it. -/
def iblk16 (c : Dev nD) (w : Fin cfg16.W) (t : Fin cfg16.N) :
    ((cfg16.win w).xblock (cfg16.grid.coords t)).Idx → Elt F (cfg16.win w).elt :=
  ((cfg16.win w).blk t).view.read (Elt F) (Vin c (Pipeline.arrRef spec16 w))

/-- The proof data of pipeline 16 on core `c`: the arrays as the region finds them; after the body at point `t` the
    input's buffer at its block and the output's at the activation-and-sum of that block; the invariant the scoped
    buffers no window stages; nothing owed; full shares. -/
def dat16 (c : Dev nD) : Dat τ (Elt F) Unit ℕ (UU nD τ) ℕ cfg16 c where
  A w := Vin c (Pipeline.arrRef spec16 w)
  after w t := match w with
    | ⟨0, _⟩ => iblk16 Vin c 0 t
    | ⟨1, _⟩ => actOut16 (iblk16 Vin c 0 t)
  Φ _ := Pipeline.scopedRest (Ix := Unit) (Name := ℕ) (U := UU nD τ) (Lvl := ℕ) (Val := Elt F) spec16 c
  q _ := fullShare
  owed _ := 0

theorem A_eq16 (c : Dev nD) (w : Fin cfg16.W) : (dat16 Vin c).A w = Vin c (Pipeline.arrRef spec16 w) := by
  dsimp only [dat16]
theorem after16_0 (c : Dev nD) (t : Fin cfg16.N) : (dat16 Vin c).after 0 t = iblk16 Vin c 0 t := by dsimp only [dat16]
theorem after16_1 (c : Dev nD) (t : Fin cfg16.N) : (dat16 Vin c).after 1 t = actOut16 (iblk16 Vin c 0 t) := by dsimp only [dat16]
theorem Φ_eq16 (c : Dev nD) (t : Fin (cfg16.N + 1)) : (dat16 Vin c).Φ t
    = Pipeline.scopedRest (Ix := Unit) (Name := ℕ) (U := UU nD τ) (Lvl := ℕ) (Val := Elt F) spec16 c := rfl
theorem owed_eq16 (c : Dev nD) (t : Fin (cfg16.N + 1)) : (dat16 Vin c).owed t = 0 := rfl

/-- The input's current staging buffer holds its block at every point. -/
theorem before16_0 (c : Dev nD) (t : Fin cfg16.N) (d) : (dat16 Vin c).before 0 t d = iblk16 Vin c 0 t :=
  ((dat16 Vin c).before_in_eq_fetched 0 rfl (fun _ => rfl) (fun _ _ _ => rfl)
    (fun t => by rw [after16_0]; unfold Dat.blockOf iblk16; rw [A_eq16]; try rfl) t d).trans
    (by unfold Dat.fetched Dat.blockOf iblk16; rw [A_eq16]; try rfl)

/-! ## From the blocks to the array -/

/-- The printed index maps, decided over the grid: the input's block moves with the output's along the rows and
    sits at zero on the other axes; the output's block index is the point's number. -/
theorem idx_facts16 : ∀ t : Fin cfg16.N, win16_0.index t (0 : Fin 3) = 0
    ∧ win16_0.index t (1 : Fin 3) = win16_1.index t (0 : Fin 2)
    ∧ win16_0.index t (2 : Fin 3) = 0
    ∧ win16_1.index t (1 : Fin 2) = 0
    ∧ win16_1.index t (0 : Fin 2) ≤ 49 :=
  (by decide +kernel : ∀ t : Fin grid16.N, _)

/-- Every slab of the output is SOME point's block. -/
theorem idx_onto16 : ∀ q0 : Fin 50, ∃ t : Fin cfg16.N, win16_1.index t = ![q0.val, 0] :=
  (by decide +kernel : ∀ q0 : Fin 50, ∃ t : Fin grid16.N, win16_1.index t = ![q0.val, 0])

/-- WHAT POINT `t` WRITES BACK is block `t` of `actArr` of the input array as the region finds it. -/
theorem flushed16_eq (c : Dev nD) (t : Fin cfg16.N) :
    (dat16 Vin c).flushed 1 t = ((cfg16.win 1).blk t).view.read (Elt F) (actArr (Vin c main_v108)) := by
  show (cfg16.win 1).cut (grid16.coords t) ((dat16 Vin c).after 1 t) = _
  rw [after16_1]
  obtain ⟨e0, e1, e2, e3, e4⟩ := idx_facts16 t
  funext j
  show actOut16 (iblk16 Vin c 0 t) j = actArr (Vin c main_v108) (((cfg16.win 1).blk t).view.emb j)
  unfold actOut16 actArr
  have hj0 : (j 0).val < 2000 := (j 0).isLt
  refine congr (congrArg actBlock ?_) ?_
  · funext j'
    show Vin c main_v108 (((cfg16.win 0).blk t).view.emb j') = Vin c main_v108 _
    refine congrArg (Vin c main_v108) ?_
    funext a; apply Fin.ext
    have hj'1 : (j' 1).val < 2000 := (j' 1).isLt
    match a with
    | ⟨0, _⟩ => show win16_0.index t (0 : Fin 3) * 4 + 1 * (j' 0).val = (j' 0).val; omega
    | ⟨1, _⟩ => show win16_0.index t (1 : Fin 3) * 2000 + 1 * (j' 1).val = (win16_1.index t (0 : Fin 2) * 2000 + 1 * (j 0).val) / 2000 * 2000 + (j' 1).val; omega
    | ⟨2, _⟩ => show win16_0.index t (2 : Fin 3) * 128 + 1 * (j' 2).val = (j' 2).val; omega
  · funext a; apply Fin.ext
    match a with
    | ⟨0, _⟩ => show (j 0).val = (win16_1.index t (0 : Fin 2) * 2000 + 1 * (j 0).val) % 2000; omega
    | ⟨1, _⟩ => show (j 1).val = win16_1.index t (1 : Fin 2) * 128 + 1 * (j 1).val; omega

/-- An index of the array is in point `t`'s block iff each coordinate is in the block's range on its axis. -/
theorem mem_blk16 (t : Fin cfg16.N) (i : S100000x128.Idx) :
    i ∈ ((cfg16.win 1).blk t).view.set ↔ ∀ a : Fin 2, win16_1.index t a * S2000x128.size a ≤ (i a).val ∧ (i a).val < win16_1.index t a * S2000x128.size a + S2000x128.size a := by
  show i ∈ ((View.whole main_v109).slice (win16_1.rect t)).set ↔ _
  rw [View.set_slice_whole, Rect.mem_set_unit]
  exact Iff.rfl

/-- Every index of the output array is in some point's block: row `n` in that of point `n / 2000`. -/
theorem cover16 (i : S100000x128.Idx) :
    ∃ t : Fin cfg16.N, (cfg16.win 1).flush t = true ∧ i ∈ ((cfg16.win 1).blk t).view.set := by
  have hi0 : (i 0).val < 100000 := (i 0).isLt
  have hi1 : (i 1).val < 128 := (i 1).isLt
  obtain ⟨t, ht⟩ := idx_onto16 ⟨(i 0).val / 2000, by omega⟩
  have q0 : win16_1.index t (0 : Fin 2) = (i 0).val / 2000 := congrFun ht 0
  have q1 : win16_1.index t (1 : Fin 2) = 0 := congrFun ht 1
  refine ⟨t, flush16_1 t, ?_⟩
  rw [mem_blk16]
  intro a
  match a with
  | ⟨0, _⟩ => show win16_1.index t (0 : Fin 2) * 2000 ≤ (i 0).val ∧ (i 0).val < win16_1.index t (0 : Fin 2) * 2000 + 2000; omega
  | ⟨1, _⟩ => show win16_1.index t (1 : Fin 2) * 128 ≤ (i 1).val ∧ (i 1).val < win16_1.index t (1 : Fin 2) * 128 + 128; omega

/-- THE ARRAY after the region: `actArr` of the input array as the region finds it. -/
theorem final16 (c : Dev nD) : (dat16 Vin c).arrAt 1 cfg16.N = actArr (Vin c main_v108) :=
  (dat16 Vin c).arrAt_eq_of_cover 1 (actArr (Vin c main_v108)) (fun t _ => flushed16_eq Vin c t) cover16

end Cert.KernelIdeal.Hand

end
-- ==== Proof.KI.ActRegion16.lean ====
/-
  Custom_call 16 (the activation-and-sum over the stacked aggregates) as a segment of @main.

  The body obligation: at every point the input's staging memref holds its block of the input array, so the body's run
  applies and leaves the output's staging memref at the activation-and-sum of that block; the invariant (the scoped
  buffers no window stages) and the core's dues pass through unread. The segment: entered with every unscoped buffer at
  the contents `Vin` and the core owing nothing, it is left with the output array at `actArr` of the input array, every
  other buffer as entered, and the core owing nothing. The two arrays are split out of the unscoped buffers at entry
  and put back at exit; the kernel has no semaphore of its own.
-/
import proofs.«414509_j14181982011419_2_alg».proof.Proof.KI.ActDat16
import Idealize.ShloMosaic.Lib.Pipeline.RegionsLoop

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (Vin : Dev nD → Valuation τ sig (Elt F))

/-! ## The body obligation, at a generic point -/

/-- What the body is called with at point `t`: the invariant, the core's dues, each window's current staging memref
    at what the pipeline left there, -/
def bodyPre16 (c : Dev nD) (t : Fin cfg16.N) : sProp (MM F) :=
  iprop((dat16 Vin c).Φ t.castSucc ∗ (dat16 Vin c).owesAt () t.castSucc
    ∗ (∃ d, owns (c : Thread nD τ) (st16_0 t) fullShare ((dat16 Vin c).before 0 t d))
    ∗ (∃ d, owns (c : Thread nD τ) (st16_1 t) fullShare ((dat16 Vin c).before 1 t d)))

/-- and what it returns. -/
def bodyPost16 (c : Dev nD) (t : Fin cfg16.N) : sProp (MM F) :=
  iprop((dat16 Vin c).Φ t.succ ∗ (dat16 Vin c).owesAt () t.succ
    ∗ owns (c : Thread nD τ) (st16_0 t) fullShare ((dat16 Vin c).after 0 t)
    ∗ owns (c : Thread nD τ) (st16_1 t) fullShare ((dat16 Vin c).after 1 t))

/-- The body at any point: the input's memref holds its block, so the body's run applies; the invariant and the core's
    dues pass through unread. -/
theorem sound_body16 (c : Dev nD) (t : Fin cfg16.N) :
    bodyPre16 Vin c t ⊢ wp frame (wpE (defs₀ (F := F)) Variants.none c none) Set.univ (bodyAt16 t) (fun _ => bodyPost16 Vin c t) := by
  unfold bodyPre16 bodyPost16 bodyAt16
  simp only [before16_0]
  rw [show (dat16 Vin c).Φ t.succ = (dat16 Vin c).Φ t.castSucc from rfl,
    show (dat16 Vin c).owesAt () t.succ = (dat16 Vin c).owesAt () t.castSucc from rfl,
    after16_0, after16_1]
  iintro ⟨HΦ, Ho, ⟨%d0, H0⟩, ⟨%d1, H1⟩⟩
  iapply (body16 c Set.univ _ _ _ _ _ (iblk16 Vin c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation16 (c : Dev nD) : BodyObligation (dat16 (F := F) Vin c) (defs₀ (F := F)) Variants.none () Set.univ := fun t => by
  rw [bigSep_W16, bigSep_W16]
  exact sound_body16 Vin c t

/-! ## The region as a segment of @main -/

/-- The buffer contents when the region is left: the output array at the activation-and-sum of the input array, every
    other buffer as entered. -/
abbrev Vout16 (c : Dev nD) : Valuation τ sig (Elt F) :=
  Function.update (Vin c) main_v109 (actArr (Vin c main_v108))

/-- At the exit each of the region's arrays holds what the pipeline leaves: the input as entered, the output the
    activation-and-sum of the input; -/
theorem hF16 (c : Dev nD) (w : Fin cfg16.W) : (dat16 Vin c).arrAt w cfg16.N = Vout16 Vin c (Pipeline.arrRef spec16 w) := by
  match w with
  | ⟨0, _⟩ =>
    show (dat16 Vin c).arrAt 0 cfg16.N = Vout16 Vin c (Pipeline.arrRef spec16 0)
    rw [(dat16 Vin c).arrAt_in 0 rfl _, A_eq16]
    exact (Function.update_of_ne (StableHlo.devRef_ne_of_ne (by decide) : (Proc.devRef .tc main_v108 : DevRef τ sig) ≠ Proc.devRef .tc main_v109) _ _).symm
  | ⟨1, _⟩ =>
    show (dat16 Vin c).arrAt 1 cfg16.N = Vout16 Vin c (Pipeline.arrRef spec16 1)
    rw [final16]
    exact (Function.update_self (Proc.devRef .tc main_v109 : DevRef τ sig) _ (Vin c)).symm

/-- and every other buffer what it held at entry. -/
theorem hrest16 (c : Dev nD) : ∀ b : Ref sig .tc, b ∉ Finset.univ.image (Pipeline.arrRef spec16) → Vout16 Vin c b = Vin c b :=
  fun b hb => Function.update_of_ne (StableHlo.devRef_ne_of_ne fun e =>
    hb (Finset.mem_image.mpr ⟨1, Finset.mem_univ _, e.symm⟩)) _ _

set_option backward.isDefEq.respectTransparency.types false in
/-- REGION 16 over the thread state: entered from every unscoped buffer at `Vin`, left at `Vout16 Vin`. Its arrays
    split out of the unscoped buffers and put back at the exit contents; the scoped buffers no window stages into the
    invariant and out; nothing owed; no semaphore of the kernel's own. -/
def reg16 (a : (p : Fin 34) → (pcfgs (F := F) p).Adm)
    (pdats : (p : Fin 34) → (c : Dev nD) → Dat τ (Elt F) Unit ℕ (UU nD τ) ℕ (Pipeline.pin (pcfgs (F := F)) a p) c)
    (hd : ∀ c, pdats (16 : Fin 34) c = dat16 Vin c) :
    Pipeline.RegionSeg (pcfgs (F := F)) a pdats () defs₀ 𝒱₀ L lv (16 : Fin 34) where
  win := (launch16 (F := F)).win.to₀
  block_pos := (launch16 (F := F)).block_pos
  stage_whole := (launch16 (F := F)).stage_whole
  K := PEmpty
  osem k := k.elim
  ho := Pipeline.OwnSemFacts.none _
  hbody c := by rw [hd c]; exact (body_obligation16 Vin c).loose
  hwaits := Pipeline.hwaits_of_owed_zero _ _ _ _ L lv (16 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Vout16 Vin c) ∗ Rest c)
  X _ := iprop(emp)
  Y _ := iprop(emp)
  Z c := Pipeline.unscopedRest (Ix := Unit) (Name := ℕ) (U := UU nD τ) (Lvl := ℕ) spec16 c (fun b => Vin c b)
  hentry c := by
    rw [Pipeline.ownSems0_none]
    have hsplit := Pipeline.arrays_of_unscopedBufs (p := (16 : Fin 34)) (pcfgs (F := F)) a pdats (launch16 (F := F)).win (launch16 (F := F)).arr_whole c
      ((pdats (16 : Fin 34) c).share_full fun _ => by rw [hd c]; rfl) (fun b => Vin c b) fun w => by rw [hd c]; rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats (16 : Fin 34) c).owed 0 = 0 from by rw [hd c]; rfl]
      icases HO with ⟨%W, HO⟩; iexists W; isplitr; · ipureintro; exact fun _ _ => Or.inl (by rw [hd c]; trivial)
      iexact HO
    isplitr; · iempintro
    iexact Hrest
  hin c := by
    rw [hd c, Φ_eq16]
    iintro ⟨-, -, Hr⟩
    iexact Hr
  hout c := by
    rw [Pipeline.ownSems0_none, hd c, Φ_eq16]
    iintro Hr
    isplitr; · iempintro
    isplitr; · iempintro
    iexact Hr
  hexit c := by
    have hjoin := Pipeline.unscopedBufs_of_arrays (p := (16 : Fin 34)) (pcfgs (F := F)) a (Ix := Unit) (Name := ℕ) (U := UU nD τ) (Lvl := ℕ)
      (launch16 (F := F)).win (launch16 (F := F)).arr_whole c pdats ((pdats (16 : Fin 34) c).share_full fun _ => by rw [hd c]; rfl)
      (fun b => Vin c b) (fun b => Vout16 Vin c b) ((pdats (16 : Fin 34) c).arrAt · cfg16.N)
      (fun w => by rw [hd c]; exact hF16 Vin c w) (hrest16 Vin c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [show (pdats (16 : Fin 34) c).owed (Fin.last _) = 0 from by rw [hd c]; rfl]
    icases HO with ⟨%W, -, HO⟩; iexists W; iexact HO

end Cert.KernelIdeal.Hand

end
-- ==== Proof.KI.GatherDat17.lean ====
/-
  Gather region 17 (custom_call 17): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem17 : Fin 8 → SemLoc sig := fun | 0 => .dma 200 | 1 => .dma 201 | 2 => .dma 202 | 3 => .dma 203 | 4 => .dma 204 | 5 => .dma 205 | 6 => .dma 206 | 7 => .dma 207

/-- The eight counters at zero, as the run finds them and hands them back. -/
abbrev sems17 (c : Dev nD) : sProp (MM F) :=
  iprop(semVal ((c : Thread nD τ), osem17 0) 0 ∗ semVal ((c : Thread nD τ), osem17 1) 0 ∗ semVal ((c : Thread nD τ), osem17 2) 0
    ∗ semVal ((c : Thread nD τ), osem17 3) 0 ∗ semVal ((c : Thread nD τ), osem17 4) 0 ∗ semVal ((c : Thread nD τ), osem17 5) 0
    ∗ semVal ((c : Thread nD τ), osem17 6) 0 ∗ semVal ((c : Thread nD τ), osem17 7) 0)

/-- Word `j` of the eight the index table holds for point `i`, as the kernel's scalar load reads it. -/
def tblWord17 (c : Dev nD) (i : grid17.Coords) (tbl : Bf (F := F) c (Memref.whole main_v117)) (j : Fin 8) : BitVec 32 :=
  (Memref.whole main_v117).view.readAt (Elt F) (Rect.unit (s := S131072) (k17_off1 i (BitVec.ofNat 32 j.val)) S1.size (k17_off1_inb i j)).toLoadRect tbl
    (Shape.Idx.first (s := S1) (numel1_S1.symm ▸ Nat.one_pos))

/-- Window `w`'s block at point `t`, read off its array at the region's entry. -/
def iblk17 (a0 : (pcfg17 (F := F)).Adm) (Vin : Dev nD → Valuation τ sig (Elt F)) (c : Dev nD) (w : Fin (cfg17 a0).W) (t : Fin (cfg17 a0).N) :
    (((cfg17 a0).win w).xblock ((cfg17 a0).grid.coords t)).Idx → Elt F ((cfg17 a0).win w).elt :=
  (((cfg17 a0).win w).blk t).view.read (Elt F) (Vr Vin c (Pipeline.arrRef spec17 w))

/-- The result array the region leaves: the gathered and scaled rows of the embedding array, whole. -/
def gout17 (a0 : (pcfg17 (F := F)).Adm) (Vin : Dev nD → Valuation τ sig (Elt F)) (c : Dev nD) : Buf (Elt F) ((c : Thread nD τ).loc main_v119) :=
  gatherArr (Vr Vin c main_v109) (a0.1 0) (Vr Vin c main_v118)

/-- The invariant between points: the embedding array as entered, the kernel's semaphores at zero, the index table, the
    scoped buffers no window stages (the kernel's scratch among them). -/
def Phi17 (a0 : (pcfg17 (F := F)).Adm) (Vin : Dev nD → Valuation τ sig (Elt F)) (c : Dev nD) : sProp (MM F) :=
  iprop(pt c (Memref.whole main_v109) (Vr Vin c main_v109) ∗ sems17 c
    ∗ Pipeline.prefHeld (Ix := Unit) (Name := ℕ) (U := UU nD τ) (Lvl := ℕ) pre17 c (fun _ => fullShare) a0.1
    ∗ Pipeline.scopedRest (Ix := Unit) (Name := ℕ) (U := UU nD τ) (Lvl := ℕ) (Val := Elt F) spec17 c)

/-- The proof data on core `c`. -/
def dat17 (a0 : (pcfg17 (F := F)).Adm) (Vin : Dev nD → Valuation τ sig (Elt F)) (c : Dev nD) :
    Pipeline.Dat τ (Elt F) Unit ℕ (UU nD τ) ℕ ((pcfg17 (F := F)).at a0) c where
  A w := Vr Vin c (Pipeline.arrRef spec17 w)
  after w t := match w with
    | ⟨0, _⟩ => iblk17 a0 Vin c 0 t
    | ⟨1, _⟩ => (((cfg17 a0).win 1).blk t).view.read (Elt F) (gout17 a0 Vin c)
  Φ _ := Phi17 a0 Vin c
  q _ := fullShare
  owed _ := 0

theorem A_eq17 (a0 : (pcfg17 (F := F)).Adm) (Vin : Dev nD → Valuation τ sig (Elt F)) (c : Dev nD) (w : Fin (cfg17 a0).W) :
    (dat17 a0 Vin c).A w = Vr Vin c (Pipeline.arrRef spec17 w) := by dsimp only [dat17]
theorem after17_0 (a0 : (pcfg17 (F := F)).Adm) (Vin : Dev nD → Valuation τ sig (Elt F)) (c : Dev nD) (t : Fin (cfg17 a0).N) :
    (dat17 a0 Vin c).after 0 t = iblk17 a0 Vin c 0 t := by dsimp only [dat17]; rfl
theorem after17_1 (a0 : (pcfg17 (F := F)).Adm) (Vin : Dev nD → Valuation τ sig (Elt F)) (c : Dev nD) (t : Fin (cfg17 a0).N) :
    (dat17 a0 Vin c).after 1 t = (((cfg17 a0).win 1).blk t).view.read (Elt F) (gout17 a0 Vin c) := by dsimp only [dat17]; rfl
theorem Phi_eq17 (a0 : (pcfg17 (F := F)).Adm) (Vin : Dev nD → Valuation τ sig (Elt F)) (c : Dev nD) (t : Fin ((cfg17 a0).N + 1)) :
    (dat17 a0 Vin c).Φ t = Phi17 a0 Vin c := rfl
theorem owed_eq17 (a0 : (pcfg17 (F := F)).Adm) (Vin : Dev nD → Valuation τ sig (Elt F)) (c : Dev nD) (t : Fin ((cfg17 a0).N + 1)) :
    (dat17 a0 Vin c).owed t = 0 := rfl
theorem q_eq17 (a0 : (pcfg17 (F := F)).Adm) (Vin : Dev nD → Valuation τ sig (Elt F)) (c : Dev nD) (w : Fin (cfg17 a0).W) :
    (dat17 a0 Vin c).q w = fullShare := rfl

/-- The pinned family's configuration at region 17 is this one. -/
example (a : (p : Fin 34) → (pcfgs (F := F) p).Adm) : Pipeline.pin (pcfgs (F := F)) a (17 : Fin 34) = (pcfg17 (F := F)).at (a (17 : Fin 34)) := rfl

end Cert.KernelIdeal.Hand

end
-- ==== Proof.KI.GatherBody17.lean ====
/-
  Gather region 17 (custom_call 17): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat17
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk17 (c : Dev nD) (i : grid17.Coords) (tbl : Bf (F := F) c (Memref.whole main_v117)) : Prop where
  h1 : k17_chk1 (tblWord17 c i tbl 0)
  h2 : k17_chk2 (tblWord17 c i tbl 1)
  h3 : k17_chk3 (tblWord17 c i tbl 2)
  h4 : k17_chk4 (tblWord17 c i tbl 3)
  h5 : k17_chk5 (tblWord17 c i tbl 4)
  h6 : k17_chk6 (tblWord17 c i tbl 5)
  h7 : k17_chk7 (tblWord17 c i tbl 6)
  h8 : k17_chk8 (tblWord17 c i tbl 7)

/-- A one-row slice of the embedding array at the row a word names, read at lane `z 1`: the array's element there. -/
theorem rowRead17 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun17 (c : Dev nD) (i : grid17.Coords)
    (M3 : Memref sig .tc .vmem S8x1 .f32) (h3 : M3.IsWhole) (M4 : Memref sig .tc .vmem S8x128 .f32) (h4 : M4.IsWhole)
    (tbl : Bf (F := F) c (Memref.whole main_v117)) (x : Bf (F := F) c (Memref.whole main_v109))
    (vb : Vec F S8x1 .f32) (hchk : GatherChk17 c i tbl) (Q : PUnit → sProp (MM F)) :
    iprop(pt c (Memref.whole main_v117) tbl ∗ pt c (Memref.whole main_v109) x
      ∗ owns (c : Thread nD τ) M3 fullShare vb ∗ (∃ d, owns (c : Thread nD τ) M4 fullShare d)
      ∗ (∃ fs, pt c (Memref.whole cc17_scratch0) fs) ∗ sems17 c ∗ (∃ W, owes (c : Thread nD τ) (0 : CellTallies nD τ sig Unit) W)
      ∗ (iprop(pt c (Memref.whole main_v117) tbl ∗ pt c (Memref.whole main_v109) x
          ∗ owns (c : Thread nD τ) M3 fullShare vb ∗ owns (c : Thread nD τ) M4 fullShare (gatherBlk x (tblWord17 c i tbl) vb)
          ∗ (∃ fs, pt c (Memref.whole cc17_scratch0) fs) ∗ sems17 c ∗ (∃ W, owes (c : Thread nD τ) (0 : CellTallies nD τ sig Unit) W)) -∗ Q ⟨⟩))
    ⊢ wp frame (wpE (defs₀ (F := F)) 𝒱₀ c none) Set.univ
        (cc17__gather_kernel i (Memref.whole main_v117) (Memref.isWhole_whole _) (Memref.whole main_v109) (Memref.isWhole_whole _) M3 h3 M4 h4
          (Memref.whole cc17_scratch0) (Memref.isWhole_whole _) cc17_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 200).1 $$ Hx
  icases Hx' with ⟨Hxr, Hx0, Hx1, Hx2, Hx3, Hx4, Hx5, Hx6, Hx7⟩
  sl_unfold [cc17__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 200).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k17_pay1 gatherBlk
    show FloatOps.mulf _ _ = FloatOps.mulf _ _
    congr 1
    · unfold gatherRun17.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun17.sl.dma8 gatherRun17.sl.dma8_1 gatherRun17.sl.dma8_2 gatherRun17.sl.dma8_3 gatherRun17.sl.dma8_4 gatherRun17.sl.dma8_5
        gatherRun17.sl.dma8_6 gatherRun17.sl.dma8_7 gatherRun17.sl.r gatherRun17.sl.r_1 gatherRun17.sl.r_2 gatherRun17.sl.r_3 gatherRun17.sl.r_4
        gatherRun17.sl.r_5 gatherRun17.sl.r_6 gatherRun17.sl.r_7
      refine canonRows8 _ _ _ _ _ _ _ _ _ _ _ _ _ _ _ _ (fun r d => x (embIdx (rowOf (tblWord17 c i tbl r)) d)) ?_ ?_ ?_ ?_ ?_ ?_ ?_ ?_ y
      · exact fun z => rowRead17 c _ (tblWord17 c i tbl 0) rfl rfl _ _ x z
      · exact fun z => rowRead17 c _ (tblWord17 c i tbl 1) rfl rfl _ _ x z
      · exact fun z => rowRead17 c _ (tblWord17 c i tbl 2) rfl rfl _ _ x z
      · exact fun z => rowRead17 c _ (tblWord17 c i tbl 3) rfl rfl _ _ x z
      · exact fun z => rowRead17 c _ (tblWord17 c i tbl 4) rfl rfl _ _ x z
      · exact fun z => rowRead17 c _ (tblWord17 c i tbl 5) rfl rfl _ _ x z
      · exact fun z => rowRead17 c _ (tblWord17 c i tbl 6) rfl rfl _ _ x z
      · exact fun z => rowRead17 c _ (tblWord17 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk17.lean ====
/-
  Gather region 17 (custom_call 17): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat17
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word17 (i : grid17.Coords) (j : Fin 8) : k17_off1 i (BitVec.ofNat 32 j.val) 0 = (i 0).val * 8 + j.val := by
  have hi : (i 0).val < 16384 := (i 0).isLt
  have hj : j.val < 8 := j.isLt
  unfold k17_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word17 (i : grid17.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord17_eq (c : Dev nD) (i : grid17.Coords) (tbl : Bf (F := F) c (Memref.whole main_v117)) (j : Fin 8)
    (e : Fin 131072) (he : e.val = (i 0).val * 8 + j.val) : tblWord17 c i tbl j = tbl (tblIdx e) := by
  unfold tblWord17
  show tbl _ = tbl _
  refine congrArg tbl ?_
  funext a; apply Fin.ext
  match a with
  | ⟨0, _⟩ =>
    show k17_off1 i (BitVec.ofNat 32 j.val) 0 + 1 * 0 = e.val
    rw [off_word17, he]; omega

/-- Row `j` of the value window's block at point `t` is the value array's row `8 t + j`. -/
theorem valBlk17_eq (a0 : (pcfg17 (F := F)).Adm) (Vin : Dev nD → Valuation τ sig (Elt F)) (c : Dev nD) (t : Fin (cfg17 a0).N)
    (j : Fin 8) (e : Fin 131072) (he : e.val = ((grid17.coords t) 0).val * 8 + j.val) :
    iblk17 a0 Vin c 0 t (colIdx j) = Vr Vin c main_v118 (valIdx e) := by
  unfold iblk17
  show Vr Vin c main_v118 _ = Vr Vin c main_v118 _
  refine congrArg (Vr Vin c main_v118) ?_
  funext a; apply Fin.ext
  match a with
  | ⟨0, _⟩ =>
    show (BitVec.ofNat 32 ((grid17.coords t) 0).val).toNat * 8 + 1 * j.val = e.val
    rw [coord_word17, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk17 (a0 : (pcfg17 (F := F)).Adm) (Vin : Dev nD → Valuation τ sig (Elt F)) (c : Dev nD) (t : Fin (cfg17 a0).N) :
    gatherBlk (Vr Vin c main_v109) (tblWord17 c (grid17.coords t) (a0.1 0)) (iblk17 a0 Vin c 0 t)
      = (((cfg17 a0).win 1).blk t).view.read (Elt F) (gout17 a0 Vin c) := by
  funext y
  show gatherBlk _ _ _ y = gout17 a0 Vin c ((((cfg17 a0).win 1).blk t).view.emb y)
  unfold gatherBlk gout17 gatherArr
  have e0 : ((((cfg17 a0).win 1).blk t).view.emb y (0 : Fin 2)).val = ((grid17.coords t) 0).val * 8 + (y 0).val := by
    show (BitVec.ofNat 32 ((grid17.coords t) 0).val).toNat * 8 + 1 * (y 0).val = _
    rw [coord_word17]; omega
  have e1 : (((cfg17 a0).win 1).blk t).view.emb y (1 : Fin 2) = y 1 := Fin.ext (by
    show (0#32 : BitVec 32).toNat * 128 + 1 * (y 1).val = (y 1).val
    show 0 * 128 + 1 * (y 1).val = (y 1).val
    omega)
  rw [tblWord17_eq c (grid17.coords t) (a0.1 0) (y 0) _ e0, valBlk17_eq a0 Vin c t (y 0) _ e0, e1]

end Cert.KernelIdeal.Hand

end
-- ==== Proof.KI.GatherRegion17.lean ====
/-
  Gather region 17 (custom_call 17): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody17
import proofs.«414509_j14181982011419_2_alg».proof.Proof.KI.GatherBlk17
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk17 (a0 : (pcfg17 (F := F)).Adm) : Prop := ∀ e : S131072.Idx, (a0.1 0 e).toNat < 100000

/-! ## The grid and the result window's blocks -/

/-- On the one-axis grid a point's coordinate is its number. -/
theorem regCoords17 (t : Fin grid17.N) : (grid17.coords t 0).val = t.val := by
  have ht : t.val < 16384 := N_17 ▸ t.isLt
  show t.val / grid17.stride 0 % grid17.bound 0 = t.val
  rw [show grid17.stride 0 = 1 from by decide, show grid17.bound 0 = 16384 from rfl, Nat.div_one, Nat.mod_eq_of_lt ht]

/-- A point's number as the 32-bit word the index maps compute with. -/
theorem regWord17 (t : Fin grid17.N) : (BitVec.ofNat 32 (grid17.coords t 0).val).toNat = t.val := by
  have ht : t.val < 16384 := N_17 ▸ t.isLt
  rw [BitVec.toNat_ofNat, regCoords17]; omega

/-- The result window's block at point `t` is block `t` along the rows, at zero along the lanes. -/
theorem regOutIndex17 (a0 : (pcfg17 (F := F)).Adm) (t : Fin (cfg17 a0).N) : ((cfg17 a0).win 1).index t = ![t.val, 0] := by
  show cc17_transform_2 (grid17.coords t) = _
  unfold cc17_transform_2
  funext a; fin_cases a
  · exact regWord17 t
  · rfl

/-- The result window is written back at every point: consecutive points have different blocks. -/
theorem regOutFlush17 (a0 : (pcfg17 (F := F)).Adm) (t : Fin (cfg17 a0).N) : ((cfg17 a0).win 1).flush t = true := by
  have htN : t.val < 16384 := N_17 ▸ t.isLt
  rw [Pipeline.Window.flush_out _ rfl]
  by_cases h : t.val + 1 = 16384
  · exact Or.inl (show t.val + 1 = grid17.N by rw [N_17]; exact h)
  · have hlt : t.val + 1 < grid17.N := by rw [N_17]; omega
    refine Or.inr ⟨hlt, fun e => ?_⟩
    have e' : (![t.val + 1, 0] : Fin 2 → ℕ) = ![t.val, 0] := (regOutIndex17 a0 ⟨t.val + 1, hlt⟩).symm.trans (e.trans (regOutIndex17 a0 t))
    have e0 := congrFun e' 0
    simp at e0

/-- The index table, held as the pipeline's one prefetched table. -/
theorem prefHeldEq17 (a0 : (pcfg17 (F := F)).Adm) (c : Dev nD) :
    (Pipeline.prefHeld (Ix := Unit) (Name := ℕ) (U := UU nD τ) (Lvl := ℕ) pre17 c (fun _ => fullShare) a0.1 : sProp (MM F))
      = pt c (Memref.whole main_v117) (a0.1 0) := by
  unfold Pipeline.prefHeld
  rw [show (Finset.univ : Finset (Fin pre17.K)) = {0} from rfl, BI.bigSep_singleton]
  rfl

/-- The value window's staging buffer holds its block at every point. -/
theorem beforeVal17 (a0 : (pcfg17 (F := F)).Adm) (Vin : Dev nD → Valuation τ sig (Elt F)) (c : Dev nD) (t : Fin (cfg17 a0).N) (d) :
    (dat17 a0 Vin c).before 0 t d = iblk17 a0 Vin c 0 t :=
  ((dat17 a0 Vin c).before_in_eq_fetched 0 rfl (fun _ => rfl) (fun _ _ _ => rfl)
    (fun t => by rw [after17_0]; unfold Dat.blockOf iblk17; rw [A_eq17]; try rfl) t d).trans
    (by unfold Dat.fetched Dat.blockOf iblk17; rw [A_eq17]; try rfl)

/-! ## The kernel's checks, from the table's range -/

/-- Each of the point's eight words is a word of the table, so a row number. -/
theorem tblWordLt17 (a0 : (pcfg17 (F := F)).Adm) (hok : GatherOk17 a0) (c : Dev nD) (i : grid17.Coords) (j : Fin 8) :
    (tblWord17 c i (a0.1 0) j).toNat < 100000 := by
  unfold tblWord17
  exact hok _

/-- So the kernel's eight checks hold at every point. -/
theorem gatherChk17 (a0 : (pcfg17 (F := F)).Adm) (hok : GatherOk17 a0) (c : Dev nD) (i : grid17.Coords) : GatherChk17 c i (a0.1 0) :=
  ⟨⟨chkRow _ (tblWordLt17 a0 hok c i 0), chkRow _ (tblWordLt17 a0 hok c i 0)⟩,
   ⟨chkRow _ (tblWordLt17 a0 hok c i 1), chkRow _ (tblWordLt17 a0 hok c i 1)⟩,
   ⟨chkRow _ (tblWordLt17 a0 hok c i 2), chkRow _ (tblWordLt17 a0 hok c i 2)⟩,
   ⟨chkRow _ (tblWordLt17 a0 hok c i 3), chkRow _ (tblWordLt17 a0 hok c i 3)⟩,
   ⟨chkRow _ (tblWordLt17 a0 hok c i 4), chkRow _ (tblWordLt17 a0 hok c i 4)⟩,
   ⟨chkRow _ (tblWordLt17 a0 hok c i 5), chkRow _ (tblWordLt17 a0 hok c i 5)⟩,
   ⟨chkRow _ (tblWordLt17 a0 hok c i 6), chkRow _ (tblWordLt17 a0 hok c i 6)⟩,
   chkRow _ (tblWordLt17 a0 hok c i 7)⟩

/-! ## The body obligation, at a generic point -/

/-- What the body is called with at point `t`: the invariant, the core's dues, each window's current staging memref at
    what the pipeline left there, -/
def bodyPre17 (a0 : (pcfg17 (F := F)).Adm) (Vin : Dev nD → Valuation τ sig (Elt F)) (c : Dev nD) (t : Fin (cfg17 a0).N) : sProp (MM F) :=
  iprop((dat17 a0 Vin c).Φ t.castSucc ∗ (dat17 a0 Vin c).owesAt () t.castSucc
    ∗ (∃ d, owns (c : Thread nD τ) (((cfg17 a0).win 0).stage ((cfg17 a0).slots t 0)) fullShare ((dat17 a0 Vin c).before 0 t d))
    ∗ (∃ d, owns (c : Thread nD τ) (((cfg17 a0).win 1).stage ((cfg17 a0).slots t 1)) fullShare ((dat17 a0 Vin c).before 1 t d)))

/-- and what it returns. -/
def bodyPost17 (a0 : (pcfg17 (F := F)).Adm) (Vin : Dev nD → Valuation τ sig (Elt F)) (c : Dev nD) (t : Fin (cfg17 a0).N) : sProp (MM F) :=
  iprop((dat17 a0 Vin c).Φ t.succ ∗ (dat17 a0 Vin c).owesAt () t.succ
    ∗ owns (c : Thread nD τ) (((cfg17 a0).win 0).stage ((cfg17 a0).slots t 0)) fullShare ((dat17 a0 Vin c).after 0 t)
    ∗ owns (c : Thread nD τ) (((cfg17 a0).win 1).stage ((cfg17 a0).slots t 1)) fullShare ((dat17 a0 Vin c).after 1 t))

/-- The body at any point: the invariant opened into the embedding array, the semaphores, the table and the scratch;
    the value window's memref at its block; the checks from the table's range; so the kernel's run applies, and what it
    leaves in the result window's memref is the point's block of the gathered array. -/
theorem sound_body17 (a0 : (pcfg17 (F := F)).Adm) (hok : GatherOk17 a0) (Vin : Dev nD → Valuation τ sig (Elt F)) (c : Dev nD) (t : Fin (cfg17 a0).N) :
    bodyPre17 a0 Vin c t ⊢ wp frame (wpE (defs₀ (F := F)) 𝒱₀ c none) Set.univ
      (defs₀ .tc (cfg17 a0).body ((cfg17 a0).bodyArgs t ((cfg17 a0).slots t))) (fun _ => bodyPost17 a0 Vin c t) := by
  unfold bodyPre17 bodyPost17
  simp only [beforeVal17]
  rw [Phi_eq17, Phi_eq17, after17_0, after17_1, ← gatherBlk_blk17]
  unfold Phi17 Pipeline.Dat.owesAt Pipeline.owesWithin
  rw [owed_eq17, owed_eq17, prefHeldEq17, scopedRest17_split]
  iintro ⟨⟨Hx, Hos, Ht, ⟨%fs, Hs⟩, Hsb⟩, ⟨%W, %hW, HO⟩, ⟨%d0, H0⟩, ⟨%d1, H1⟩⟩
  iapply (gatherRun17 c (grid17.coords t) _ _ _ _ (a0.1 0) (Vr Vin c main_v109) (iblk17 a0 Vin c 0 t) (gatherChk17 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation17 (a0 : (pcfg17 (F := F)).Adm) (hok : GatherOk17 a0) (Vin : Dev nD → Valuation τ sig (Elt F)) (c : Dev nD) :
    BodyObligation (dat17 a0 Vin c) (defs₀ (F := F)) 𝒱₀ () Set.univ := fun t => by
  rw [bigSep_W17, bigSep_W17]
  exact sound_body17 a0 hok Vin c t

/-! ## From the blocks to the arrays -/

/-- The value array after the region: as entered. -/
theorem arrAt17_in (a0 : (pcfg17 (F := F)).Adm) (Vin : Dev nD → Valuation τ sig (Elt F)) (c : Dev nD) :
    (dat17 a0 Vin c).arrAt 0 (cfg17 a0).N = Vr Vin c main_v118 :=
  ((dat17 a0 Vin c).arrAt_in 0 rfl _).trans (A_eq17 a0 Vin c 0)

/-- Every index of the result array is in some point's block: row `e`, lane `d` is element `(e % 8, d)` of the block
    of point `e / 8`. -/
theorem regOutCover17 (a0 : (pcfg17 (F := F)).Adm) (i : S131072x128.Idx) :
    ∃ t : Fin (cfg17 a0).N, ((cfg17 a0).win 1).flush t = true ∧ i ∈ (((cfg17 a0).win 1).blk t).view.set := by
  have hi0 : (i 0).val < 131072 := (i 0).isLt
  have hi1 : (i 1).val < 128 := (i 1).isLt
  have hN : (i 0).val / 8 < grid17.N := by rw [N_17]; omega
  obtain ⟨t, ht⟩ : ∃ t : Fin (cfg17 a0).N, t.val = (i 0).val / 8 := ⟨⟨_, hN⟩, rfl⟩
  have hx : (((cfg17 a0).win 1).blk t).view.emb (ValueIdx.ix2 ⟨(i 0).val % 8, Nat.mod_lt _ (by decide)⟩ (i 1)) = i := by
    funext a; apply Fin.ext
    have e0 : ((cfg17 a0).win 1).index t (0 : Fin 2) = t.val := congrFun (regOutIndex17 a0 t) (0 : Fin 2)
    have e1 : ((cfg17 a0).win 1).index t (1 : Fin 2) = 0 := congrFun (regOutIndex17 a0 t) (1 : Fin 2)
    match a with
    | ⟨0, _⟩ => show ((cfg17 a0).win 1).index t (0 : Fin 2) * 8 + 1 * ((i 0).val % 8) = (i 0).val; omega
    | ⟨1, _⟩ => show ((cfg17 a0).win 1).index t (1 : Fin 2) * 128 + 1 * (i 1).val = (i 1).val; omega
  exact ⟨t, regOutFlush17 a0 t, hx ▸ (((cfg17 a0).win 1).blk t).view.emb_mem_set _⟩

/-- The result array after the region: the gathered and scaled rows, whole. -/
theorem arrAt17_out (a0 : (pcfg17 (F := F)).Adm) (Vin : Dev nD → Valuation τ sig (Elt F)) (c : Dev nD) :
    (dat17 a0 Vin c).arrAt 1 (cfg17 a0).N = gout17 a0 Vin c :=
  (dat17 a0 Vin c).arrAt_eq_of_cover 1 (gout17 a0 Vin c)
    (fun t _ => by
      show ((cfg17 a0).win 1).cut ((cfg17 a0).grid.coords t) ((dat17 a0 Vin c).after 1 t) = _
      rw [after17_1])
    (regOutCover17 a0)

/-! ## The region as a segment of @main -/

/-- The ownership layout of the kernel's eight semaphores. -/
theorem ownSemFacts17 : Pipeline.OwnSemFacts spec17 osem17 := by decide

/-- The kernel's own cells at zero, listed. -/
theorem ownSemsListed17 (c : Dev nD) :
    (Pipeline.ownSems0 (Ix := Unit) (Name := ℕ) (U := UU nD τ) (Lvl := ℕ) (Val := Elt F) (τ := τ) osem17 c : sProp (MM F)) = sems17 c :=
  Pipeline.ownSems0_eq_of_list c osem17 [0, 1, 2, 3, 4, 5, 6, 7] (by decide) (by decide)

/-- The unscoped buffers that are no window's array, no table, and not the embedding array. -/
abbrev restRefs17 : Finset (Ref sig .tc) :=
  (((Finset.univ.filter fun b : Ref sig .tc => ¬ b.isScoped) \ Finset.univ.image (Pipeline.arrRef spec17)) \ Finset.univ.image pre17.ref) \ {main_v109}

/-- Those buffers, each whole at its contents under `Vin`: what bypasses the region. -/
def Zrest17 (Vin : Dev nD → Valuation τ sig (Elt F)) (c : Dev nD) : sProp (MM F) :=
  bigSep restRefs17 fun b => ((c : Thread nD τ).loc b) ↦{fullShare} Vr Vin c b

/-- The embedding array is an unscoped buffer that is no window's array and no table. -/
theorem embArrMem17 : ({main_v109} : Finset (Ref sig .tc)) ⊆
    ((Finset.univ.filter fun b : Ref sig .tc => ¬ b.isScoped) \ Finset.univ.image (Pipeline.arrRef spec17)) \ Finset.univ.image pre17.ref := by
  decide

/-- The unscoped buffers that are no window's array: the index table, the embedding array, and the rest. -/
theorem unscopedRestOpen17 (Vin : Dev nD → Valuation τ sig (Elt F)) (c : Dev nD) :
    (Pipeline.unscopedRest (Ix := Unit) (Name := ℕ) (U := UU nD τ) (Lvl := ℕ) spec17 c (Vr Vin c) : sProp (MM F))
      = iprop(Pipeline.prefHeld pre17 c (fun _ => fullShare) (fun k => Vr Vin c (pre17.ref k))
          ∗ pt c (Memref.whole main_v109) (Vr Vin c main_v109) ∗ Zrest17 Vin c) := by
  rw [Pipeline.unscopedRest_split preFacts17 c (Vr Vin c)]
  unfold Pipeline.unscopedRestP Zrest17
  rw [BI.bigSep_sdiff_split embArrMem17, BI.bigSep_singleton]
  rfl

/-- The buffer contents when the region is left: the result array at the gathered rows, every other buffer as entered. -/
abbrev Vout17 (a0 : (pcfg17 (F := F)).Adm) (Vin : Dev nD → Valuation τ sig (Elt F)) (c : Dev nD) : Valuation τ sig (Elt F) :=
  Function.update (Vin c) main_v119 (gout17 a0 Vin c)

/-- At the exit each of the region's arrays holds what the pipeline leaves; -/
theorem hF17 (a0 : (pcfg17 (F := F)).Adm) (Vin : Dev nD → Valuation τ sig (Elt F)) (c : Dev nD) (w : Fin (cfg17 a0).W) :
    (dat17 a0 Vin c).arrAt w (cfg17 a0).N = Vr (Vout17 a0 Vin) c (Pipeline.arrRef spec17 w) := by
  match w with
  | ⟨0, _⟩ =>
    show (dat17 a0 Vin c).arrAt 0 (cfg17 a0).N = Vr (Vout17 a0 Vin) c (Pipeline.arrRef spec17 0)
    rw [arrAt17_in]
    exact (Function.update_of_ne (StableHlo.devRef_ne_of_ne (by decide) : (Proc.devRef .tc main_v118 : DevRef τ sig) ≠ Proc.devRef .tc main_v119) _ _).symm
  | ⟨1, _⟩ =>
    show (dat17 a0 Vin c).arrAt 1 (cfg17 a0).N = Vr (Vout17 a0 Vin) c (Pipeline.arrRef spec17 1)
    rw [arrAt17_out]
    exact (Function.update_self (Proc.devRef .tc main_v119 : DevRef τ sig) _ (Vin c)).symm

/-- and every other buffer what it held at entry. -/
theorem hrest17 (a0 : (pcfg17 (F := F)).Adm) (Vin : Dev nD → Valuation τ sig (Elt F)) (c : Dev nD) :
    ∀ b : Ref sig .tc, b ∉ Finset.univ.image (Pipeline.arrRef spec17) → Vr (Vout17 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat17` at the entry valuation `Vin`
    (`hd`), the index table's contents under `Vin` being the pinned ones (`htbl`) and row numbers (`hok`). -/
def reg17 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk17 (F := F) (a (17 : Fin 34)))
    (hd : ∀ c, pdats (17 : Fin 34) c = dat17 (a (17 : Fin 34)) Vin c) (htbl : ∀ c, (a (17 : Fin 34)).1 = fun k => Vr Vin c (pre17.ref k)) :
    Pipeline.RegionSeg (pcfgs (F := F)) a pdats () defs₀ 𝒱₀ L lv (17 : Fin 34) where
  win := (launch17 (F := F)).win.to₀
  block_pos := (launch17 (F := F)).block_pos
  stage_whole := (launch17 (F := F)).stage_whole
  K := Fin 8
  osem := osem17
  ho := ownSemFacts17
  hbody c := by rw [hd c]; exact (body_obligation17 (a (17 : Fin 34)) hok Vin c).loose
  hwaits := Pipeline.hwaits_of_owed_zero _ _ _ _ L lv (17 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v119 (gout17 (a (17 : Fin 34)) Vin c)) ∗ Rest c)
  X c := iprop(pt c (Memref.whole main_v109) (Vr Vin c main_v109) ∗ sems17 c)
  Y c := iprop(pt c (Memref.whole main_v109) (Vr Vin c main_v109)
    ∗ Pipeline.prefHeld (Ix := Unit) (Name := ℕ) (U := UU nD τ) (Lvl := ℕ) pre17 c (fun _ => fullShare) (a (17 : Fin 34)).1)
  Z c := Zrest17 Vin c
  hentry c := by
    rw [ownSemsListed17]
    have hsplit := Pipeline.arrays_of_unscopedBufs (p := (17 : Fin 34)) (pcfgs (F := F)) a pdats (launch17 (F := F)).win (launch17 (F := F)).arr_whole c
      ((pdats (17 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen17 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (17 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq17]; unfold Phi17
    iintro ⟨⟨Hx, Hos⟩, Ht, Hr⟩
    isplitl [Hx]; · iexact Hx
    isplitl [Hos]; · iexact Hos
    isplitl [Ht]; · iexact Ht
    iexact Hr
  hout c := by
    rw [ownSemsListed17, hd c, Phi_eq17]; unfold Phi17
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (17 : Fin 34)) (pcfgs (F := F)) a (Ix := Unit) (Name := ℕ) (U := UU nD τ) (Lvl := ℕ)
      (launch17 (F := F)).win (launch17 (F := F)).arr_whole c pdats ((pdats (17 : Fin 34) c).share_full fun _ => by rw [hd c]; rfl)
      (Vr Vin c) (Vr (Vout17 (a (17 : Fin 34)) Vin) c) ((pdats (17 : Fin 34) c).arrAt · (cfg17 (a (17 : Fin 34))).N)
      (fun w => by rw [hd c]; exact hF17 (a (17 : Fin 34)) Vin c w) (hrest17 (a (17 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen17 Vin c).symm)
      isplitl [Ht]; · rw [← htbl c]; iexact Ht
      isplitl [Hx]; · iexact Hx
      iexact Hz
    unfold Pipeline.Dat.owesAt Pipeline.owesWithin
    rw [show (pdats (17 : Fin 34) c).owed (Fin.last _) = 0 from by rw [hd c]; rfl]
    icases HO with ⟨%W, -, HO⟩; iexists W; iexact HO

end Cert.KernelIdeal.Hand

end
-- ==== Proof.KI.GatherDat18.lean ====
/-
  Gather region 18 (custom_call 18): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem18 : Fin 8 → SemLoc sig := fun | 0 => .dma 212 | 1 => .dma 213 | 2 => .dma 214 | 3 => .dma 215 | 4 => .dma 216 | 5 => .dma 217 | 6 => .dma 218 | 7 => .dma 219

/-- The eight counters at zero, as the run finds them and hands them back. -/
abbrev sems18 (c : Dev nD) : sProp (MM F) :=
  iprop(semVal ((c : Thread nD τ), osem18 0) 0 ∗ semVal ((c : Thread nD τ), osem18 1) 0 ∗ semVal ((c : Thread nD τ), osem18 2) 0
    ∗ semVal ((c : Thread nD τ), osem18 3) 0 ∗ semVal ((c : Thread nD τ), osem18 4) 0 ∗ semVal ((c : Thread nD τ), osem18 5) 0
    ∗ semVal ((c : Thread nD τ), osem18 6) 0 ∗ semVal ((c : Thread nD τ), osem18 7) 0)

/-- Word `j` of the eight the index table holds for point `i`, as the kernel's scalar load reads it. -/
def tblWord18 (c : Dev nD) (i : grid18.Coords) (tbl : Bf (F := F) c (Memref.whole main_v120)) (j : Fin 8) : BitVec 32 :=
  (Memref.whole main_v120).view.readAt (Elt F) (Rect.unit (s := S131072) (k18_off1 i (BitVec.ofNat 32 j.val)) S1.size (k18_off1_inb i j)).toLoadRect tbl
    (Shape.Idx.first (s := S1) (numel1_S1.symm ▸ Nat.one_pos))

/-- Window `w`'s block at point `t`, read off its array at the region's entry. -/
def iblk18 (a0 : (pcfg18 (F := F)).Adm) (Vin : Dev nD → Valuation τ sig (Elt F)) (c : Dev nD) (w : Fin (cfg18 a0).W) (t : Fin (cfg18 a0).N) :
    (((cfg18 a0).win w).xblock ((cfg18 a0).grid.coords t)).Idx → Elt F ((cfg18 a0).win w).elt :=
  (((cfg18 a0).win w).blk t).view.read (Elt F) (Vr Vin c (Pipeline.arrRef spec18 w))

/-- The result array the region leaves: the gathered and scaled rows of the embedding array, whole. -/
def gout18 (a0 : (pcfg18 (F := F)).Adm) (Vin : Dev nD → Valuation τ sig (Elt F)) (c : Dev nD) : Buf (Elt F) ((c : Thread nD τ).loc main_v122) :=
  gatherArr (Vr Vin c main_v109) (a0.1 0) (Vr Vin c main_v121)

/-- The invariant between points: the embedding array as entered, the kernel's semaphores at zero, the index table, the
    scoped buffers no window stages (the kernel's scratch among them). -/
def Phi18 (a0 : (pcfg18 (F := F)).Adm) (Vin : Dev nD → Valuation τ sig (Elt F)) (c : Dev nD) : sProp (MM F) :=
  iprop(pt c (Memref.whole main_v109) (Vr Vin c main_v109) ∗ sems18 c
    ∗ Pipeline.prefHeld (Ix := Unit) (Name := ℕ) (U := UU nD τ) (Lvl := ℕ) pre18 c (fun _ => fullShare) a0.1
    ∗ Pipeline.scopedRest (Ix := Unit) (Name := ℕ) (U := UU nD τ) (Lvl := ℕ) (Val := Elt F) spec18 c)

/-- The proof data on core `c`. -/
def dat18 (a0 : (pcfg18 (F := F)).Adm) (Vin : Dev nD → Valuation τ sig (Elt F)) (c : Dev nD) :
    Pipeline.Dat τ (Elt F) Unit ℕ (UU nD τ) ℕ ((pcfg18 (F := F)).at a0) c where
  A w := Vr Vin c (Pipeline.arrRef spec18 w)
  after w t := match w with
    | ⟨0, _⟩ => iblk18 a0 Vin c 0 t
    | ⟨1, _⟩ => (((cfg18 a0).win 1).blk t).view.read (Elt F) (gout18 a0 Vin c)
  Φ _ := Phi18 a0 Vin c
  q _ := fullShare
  owed _ := 0

theorem A_eq18 (a0 : (pcfg18 (F := F)).Adm) (Vin : Dev nD → Valuation τ sig (Elt F)) (c : Dev nD) (w : Fin (cfg18 a0).W) :
    (dat18 a0 Vin c).A w = Vr Vin c (Pipeline.arrRef spec18 w) := by dsimp only [dat18]
theorem after18_0 (a0 : (pcfg18 (F := F)).Adm) (Vin : Dev nD → Valuation τ sig (Elt F)) (c : Dev nD) (t : Fin (cfg18 a0).N) :
    (dat18 a0 Vin c).after 0 t = iblk18 a0 Vin c 0 t := by dsimp only [dat18]; rfl
theorem after18_1 (a0 : (pcfg18 (F := F)).Adm) (Vin : Dev nD → Valuation τ sig (Elt F)) (c : Dev nD) (t : Fin (cfg18 a0).N) :
    (dat18 a0 Vin c).after 1 t = (((cfg18 a0).win 1).blk t).view.read (Elt F) (gout18 a0 Vin c) := by dsimp only [dat18]; rfl
theorem Phi_eq18 (a0 : (pcfg18 (F := F)).Adm) (Vin : Dev nD → Valuation τ sig (Elt F)) (c : Dev nD) (t : Fin ((cfg18 a0).N + 1)) :
    (dat18 a0 Vin c).Φ t = Phi18 a0 Vin c := rfl
theorem owed_eq18 (a0 : (pcfg18 (F := F)).Adm) (Vin : Dev nD → Valuation τ sig (Elt F)) (c : Dev nD) (t : Fin ((cfg18 a0).N + 1)) :
    (dat18 a0 Vin c).owed t = 0 := rfl
theorem q_eq18 (a0 : (pcfg18 (F := F)).Adm) (Vin : Dev nD → Valuation τ sig (Elt F)) (c : Dev nD) (w : Fin (cfg18 a0).W) :
    (dat18 a0 Vin c).q w = fullShare := rfl

/-- The pinned family's configuration at region 18 is this one. -/
example (a : (p : Fin 34) → (pcfgs (F := F) p).Adm) : Pipeline.pin (pcfgs (F := F)) a (18 : Fin 34) = (pcfg18 (F := F)).at (a (18 : Fin 34)) := rfl

end Cert.KernelIdeal.Hand

end
-- ==== Proof.KI.GatherBody18.lean ====
/-
  Gather region 18 (custom_call 18): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat18
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk18 (c : Dev nD) (i : grid18.Coords) (tbl : Bf (F := F) c (Memref.whole main_v120)) : Prop where
  h1 : k18_chk1 (tblWord18 c i tbl 0)
  h2 : k18_chk2 (tblWord18 c i tbl 1)
  h3 : k18_chk3 (tblWord18 c i tbl 2)
  h4 : k18_chk4 (tblWord18 c i tbl 3)
  h5 : k18_chk5 (tblWord18 c i tbl 4)
  h6 : k18_chk6 (tblWord18 c i tbl 5)
  h7 : k18_chk7 (tblWord18 c i tbl 6)
  h8 : k18_chk8 (tblWord18 c i tbl 7)

/-- A one-row slice of the embedding array at the row a word names, read at lane `z 1`: the array's element there. -/
theorem rowRead18 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun18 (c : Dev nD) (i : grid18.Coords)
    (M3 : Memref sig .tc .vmem S8x1 .f32) (h3 : M3.IsWhole) (M4 : Memref sig .tc .vmem S8x128 .f32) (h4 : M4.IsWhole)
    (tbl : Bf (F := F) c (Memref.whole main_v120)) (x : Bf (F := F) c (Memref.whole main_v109))
    (vb : Vec F S8x1 .f32) (hchk : GatherChk18 c i tbl) (Q : PUnit → sProp (MM F)) :
    iprop(pt c (Memref.whole main_v120) tbl ∗ pt c (Memref.whole main_v109) x
      ∗ owns (c : Thread nD τ) M3 fullShare vb ∗ (∃ d, owns (c : Thread nD τ) M4 fullShare d)
      ∗ (∃ fs, pt c (Memref.whole cc18_scratch0) fs) ∗ sems18 c ∗ (∃ W, owes (c : Thread nD τ) (0 : CellTallies nD τ sig Unit) W)
      ∗ (iprop(pt c (Memref.whole main_v120) tbl ∗ pt c (Memref.whole main_v109) x
          ∗ owns (c : Thread nD τ) M3 fullShare vb ∗ owns (c : Thread nD τ) M4 fullShare (gatherBlk x (tblWord18 c i tbl) vb)
          ∗ (∃ fs, pt c (Memref.whole cc18_scratch0) fs) ∗ sems18 c ∗ (∃ W, owes (c : Thread nD τ) (0 : CellTallies nD τ sig Unit) W)) -∗ Q ⟨⟩))
    ⊢ wp frame (wpE (defs₀ (F := F)) 𝒱₀ c none) Set.univ
        (cc18__gather_kernel i (Memref.whole main_v120) (Memref.isWhole_whole _) (Memref.whole main_v109) (Memref.isWhole_whole _) M3 h3 M4 h4
          (Memref.whole cc18_scratch0) (Memref.isWhole_whole _) cc18_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 212).1 $$ Hx
  icases Hx' with ⟨Hxr, Hx0, Hx1, Hx2, Hx3, Hx4, Hx5, Hx6, Hx7⟩
  sl_unfold [cc18__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 212).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k18_pay1 gatherBlk
    show FloatOps.mulf _ _ = FloatOps.mulf _ _
    congr 1
    · unfold gatherRun18.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun18.sl.dma8 gatherRun18.sl.dma8_1 gatherRun18.sl.dma8_2 gatherRun18.sl.dma8_3 gatherRun18.sl.dma8_4 gatherRun18.sl.dma8_5
        gatherRun18.sl.dma8_6 gatherRun18.sl.dma8_7 gatherRun18.sl.r gatherRun18.sl.r_1 gatherRun18.sl.r_2 gatherRun18.sl.r_3 gatherRun18.sl.r_4
        gatherRun18.sl.r_5 gatherRun18.sl.r_6 gatherRun18.sl.r_7
      refine canonRows8 _ _ _ _ _ _ _ _ _ _ _ _ _ _ _ _ (fun r d => x (embIdx (rowOf (tblWord18 c i tbl r)) d)) ?_ ?_ ?_ ?_ ?_ ?_ ?_ ?_ y
      · exact fun z => rowRead18 c _ (tblWord18 c i tbl 0) rfl rfl _ _ x z
      · exact fun z => rowRead18 c _ (tblWord18 c i tbl 1) rfl rfl _ _ x z
      · exact fun z => rowRead18 c _ (tblWord18 c i tbl 2) rfl rfl _ _ x z
      · exact fun z => rowRead18 c _ (tblWord18 c i tbl 3) rfl rfl _ _ x z
      · exact fun z => rowRead18 c _ (tblWord18 c i tbl 4) rfl rfl _ _ x z
      · exact fun z => rowRead18 c _ (tblWord18 c i tbl 5) rfl rfl _ _ x z
      · exact fun z => rowRead18 c _ (tblWord18 c i tbl 6) rfl rfl _ _ x z
      · exact fun z => rowRead18 c _ (tblWord18 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk18.lean ====
/-
  Gather region 18 (custom_call 18): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat18
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word18 (i : grid18.Coords) (j : Fin 8) : k18_off1 i (BitVec.ofNat 32 j.val) 0 = (i 0).val * 8 + j.val := by
  have hi : (i 0).val < 16384 := (i 0).isLt
  have hj : j.val < 8 := j.isLt
  unfold k18_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word18 (i : grid18.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord18_eq (c : Dev nD) (i : grid18.Coords) (tbl : Bf (F := F) c (Memref.whole main_v120)) (j : Fin 8)
    (e : Fin 131072) (he : e.val = (i 0).val * 8 + j.val) : tblWord18 c i tbl j = tbl (tblIdx e) := by
  unfold tblWord18
  show tbl _ = tbl _
  refine congrArg tbl ?_
  funext a; apply Fin.ext
  match a with
  | ⟨0, _⟩ =>
    show k18_off1 i (BitVec.ofNat 32 j.val) 0 + 1 * 0 = e.val
    rw [off_word18, he]; omega

/-- Row `j` of the value window's block at point `t` is the value array's row `8 t + j`. -/
theorem valBlk18_eq (a0 : (pcfg18 (F := F)).Adm) (Vin : Dev nD → Valuation τ sig (Elt F)) (c : Dev nD) (t : Fin (cfg18 a0).N)
    (j : Fin 8) (e : Fin 131072) (he : e.val = ((grid18.coords t) 0).val * 8 + j.val) :
    iblk18 a0 Vin c 0 t (colIdx j) = Vr Vin c main_v121 (valIdx e) := by
  unfold iblk18
  show Vr Vin c main_v121 _ = Vr Vin c main_v121 _
  refine congrArg (Vr Vin c main_v121) ?_
  funext a; apply Fin.ext
  match a with
  | ⟨0, _⟩ =>
    show (BitVec.ofNat 32 ((grid18.coords t) 0).val).toNat * 8 + 1 * j.val = e.val
    rw [coord_word18, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk18 (a0 : (pcfg18 (F := F)).Adm) (Vin : Dev nD → Valuation τ sig (Elt F)) (c : Dev nD) (t : Fin (cfg18 a0).N) :
    gatherBlk (Vr Vin c main_v109) (tblWord18 c (grid18.coords t) (a0.1 0)) (iblk18 a0 Vin c 0 t)
      = (((cfg18 a0).win 1).blk t).view.read (Elt F) (gout18 a0 Vin c) := by
  funext y
  show gatherBlk _ _ _ y = gout18 a0 Vin c ((((cfg18 a0).win 1).blk t).view.emb y)
  unfold gatherBlk gout18 gatherArr
  have e0 : ((((cfg18 a0).win 1).blk t).view.emb y (0 : Fin 2)).val = ((grid18.coords t) 0).val * 8 + (y 0).val := by
    show (BitVec.ofNat 32 ((grid18.coords t) 0).val).toNat * 8 + 1 * (y 0).val = _
    rw [coord_word18]; omega
  have e1 : (((cfg18 a0).win 1).blk t).view.emb y (1 : Fin 2) = y 1 := Fin.ext (by
    show (0#32 : BitVec 32).toNat * 128 + 1 * (y 1).val = (y 1).val
    show 0 * 128 + 1 * (y 1).val = (y 1).val
    omega)
  rw [tblWord18_eq c (grid18.coords t) (a0.1 0) (y 0) _ e0, valBlk18_eq a0 Vin c t (y 0) _ e0, e1]

end Cert.KernelIdeal.Hand

end
-- ==== Proof.KI.GatherRegion18.lean ====
/-
  Gather region 18 (custom_call 18): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody18
import proofs.«414509_j14181982011419_2_alg».proof.Proof.KI.GatherBlk18
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk18 (a0 : (pcfg18 (F := F)).Adm) : Prop := ∀ e : S131072.Idx, (a0.1 0 e).toNat < 100000

/-! ## The grid and the result window's blocks -/

/-- On the one-axis grid a point's coordinate is its number. -/
theorem regCoords18 (t : Fin grid18.N) : (grid18.coords t 0).val = t.val := by
  have ht : t.val < 16384 := N_18 ▸ t.isLt
  show t.val / grid18.stride 0 % grid18.bound 0 = t.val
  rw [show grid18.stride 0 = 1 from by decide, show grid18.bound 0 = 16384 from rfl, Nat.div_one, Nat.mod_eq_of_lt ht]

/-- A point's number as the 32-bit word the index maps compute with. -/
theorem regWord18 (t : Fin grid18.N) : (BitVec.ofNat 32 (grid18.coords t 0).val).toNat = t.val := by
  have ht : t.val < 16384 := N_18 ▸ t.isLt
  rw [BitVec.toNat_ofNat, regCoords18]; omega

/-- The result window's block at point `t` is block `t` along the rows, at zero along the lanes. -/
theorem regOutIndex18 (a0 : (pcfg18 (F := F)).Adm) (t : Fin (cfg18 a0).N) : ((cfg18 a0).win 1).index t = ![t.val, 0] := by
  show cc18_transform_2 (grid18.coords t) = _
  unfold cc18_transform_2
  funext a; fin_cases a
  · exact regWord18 t
  · rfl

/-- The result window is written back at every point: consecutive points have different blocks. -/
theorem regOutFlush18 (a0 : (pcfg18 (F := F)).Adm) (t : Fin (cfg18 a0).N) : ((cfg18 a0).win 1).flush t = true := by
  have htN : t.val < 16384 := N_18 ▸ t.isLt
  rw [Pipeline.Window.flush_out _ rfl]
  by_cases h : t.val + 1 = 16384
  · exact Or.inl (show t.val + 1 = grid18.N by rw [N_18]; exact h)
  · have hlt : t.val + 1 < grid18.N := by rw [N_18]; omega
    refine Or.inr ⟨hlt, fun e => ?_⟩
    have e' : (![t.val + 1, 0] : Fin 2 → ℕ) = ![t.val, 0] := (regOutIndex18 a0 ⟨t.val + 1, hlt⟩).symm.trans (e.trans (regOutIndex18 a0 t))
    have e0 := congrFun e' 0
    simp at e0

/-- The index table, held as the pipeline's one prefetched table. -/
theorem prefHeldEq18 (a0 : (pcfg18 (F := F)).Adm) (c : Dev nD) :
    (Pipeline.prefHeld (Ix := Unit) (Name := ℕ) (U := UU nD τ) (Lvl := ℕ) pre18 c (fun _ => fullShare) a0.1 : sProp (MM F))
      = pt c (Memref.whole main_v120) (a0.1 0) := by
  unfold Pipeline.prefHeld
  rw [show (Finset.univ : Finset (Fin pre18.K)) = {0} from rfl, BI.bigSep_singleton]
  rfl

/-- The value window's staging buffer holds its block at every point. -/
theorem beforeVal18 (a0 : (pcfg18 (F := F)).Adm) (Vin : Dev nD → Valuation τ sig (Elt F)) (c : Dev nD) (t : Fin (cfg18 a0).N) (d) :
    (dat18 a0 Vin c).before 0 t d = iblk18 a0 Vin c 0 t :=
  ((dat18 a0 Vin c).before_in_eq_fetched 0 rfl (fun _ => rfl) (fun _ _ _ => rfl)
    (fun t => by rw [after18_0]; unfold Dat.blockOf iblk18; rw [A_eq18]; try rfl) t d).trans
    (by unfold Dat.fetched Dat.blockOf iblk18; rw [A_eq18]; try rfl)

/-! ## The kernel's checks, from the table's range -/

/-- Each of the point's eight words is a word of the table, so a row number. -/
theorem tblWordLt18 (a0 : (pcfg18 (F := F)).Adm) (hok : GatherOk18 a0) (c : Dev nD) (i : grid18.Coords) (j : Fin 8) :
    (tblWord18 c i (a0.1 0) j).toNat < 100000 := by
  unfold tblWord18
  exact hok _

/-- So the kernel's eight checks hold at every point. -/
theorem gatherChk18 (a0 : (pcfg18 (F := F)).Adm) (hok : GatherOk18 a0) (c : Dev nD) (i : grid18.Coords) : GatherChk18 c i (a0.1 0) :=
  ⟨⟨chkRow _ (tblWordLt18 a0 hok c i 0), chkRow _ (tblWordLt18 a0 hok c i 0)⟩,
   ⟨chkRow _ (tblWordLt18 a0 hok c i 1), chkRow _ (tblWordLt18 a0 hok c i 1)⟩,
   ⟨chkRow _ (tblWordLt18 a0 hok c i 2), chkRow _ (tblWordLt18 a0 hok c i 2)⟩,
   ⟨chkRow _ (tblWordLt18 a0 hok c i 3), chkRow _ (tblWordLt18 a0 hok c i 3)⟩,
   ⟨chkRow _ (tblWordLt18 a0 hok c i 4), chkRow _ (tblWordLt18 a0 hok c i 4)⟩,
   ⟨chkRow _ (tblWordLt18 a0 hok c i 5), chkRow _ (tblWordLt18 a0 hok c i 5)⟩,
   ⟨chkRow _ (tblWordLt18 a0 hok c i 6), chkRow _ (tblWordLt18 a0 hok c i 6)⟩,
   chkRow _ (tblWordLt18 a0 hok c i 7)⟩

/-! ## The body obligation, at a generic point -/

/-- What the body is called with at point `t`: the invariant, the core's dues, each window's current staging memref at
    what the pipeline left there, -/
def bodyPre18 (a0 : (pcfg18 (F := F)).Adm) (Vin : Dev nD → Valuation τ sig (Elt F)) (c : Dev nD) (t : Fin (cfg18 a0).N) : sProp (MM F) :=
  iprop((dat18 a0 Vin c).Φ t.castSucc ∗ (dat18 a0 Vin c).owesAt () t.castSucc
    ∗ (∃ d, owns (c : Thread nD τ) (((cfg18 a0).win 0).stage ((cfg18 a0).slots t 0)) fullShare ((dat18 a0 Vin c).before 0 t d))
    ∗ (∃ d, owns (c : Thread nD τ) (((cfg18 a0).win 1).stage ((cfg18 a0).slots t 1)) fullShare ((dat18 a0 Vin c).before 1 t d)))

/-- and what it returns. -/
def bodyPost18 (a0 : (pcfg18 (F := F)).Adm) (Vin : Dev nD → Valuation τ sig (Elt F)) (c : Dev nD) (t : Fin (cfg18 a0).N) : sProp (MM F) :=
  iprop((dat18 a0 Vin c).Φ t.succ ∗ (dat18 a0 Vin c).owesAt () t.succ
    ∗ owns (c : Thread nD τ) (((cfg18 a0).win 0).stage ((cfg18 a0).slots t 0)) fullShare ((dat18 a0 Vin c).after 0 t)
    ∗ owns (c : Thread nD τ) (((cfg18 a0).win 1).stage ((cfg18 a0).slots t 1)) fullShare ((dat18 a0 Vin c).after 1 t))

/-- The body at any point: the invariant opened into the embedding array, the semaphores, the table and the scratch;
    the value window's memref at its block; the checks from the table's range; so the kernel's run applies, and what it
    leaves in the result window's memref is the point's block of the gathered array. -/
theorem sound_body18 (a0 : (pcfg18 (F := F)).Adm) (hok : GatherOk18 a0) (Vin : Dev nD → Valuation τ sig (Elt F)) (c : Dev nD) (t : Fin (cfg18 a0).N) :
    bodyPre18 a0 Vin c t ⊢ wp frame (wpE (defs₀ (F := F)) 𝒱₀ c none) Set.univ
      (defs₀ .tc (cfg18 a0).body ((cfg18 a0).bodyArgs t ((cfg18 a0).slots t))) (fun _ => bodyPost18 a0 Vin c t) := by
  unfold bodyPre18 bodyPost18
  simp only [beforeVal18]
  rw [Phi_eq18, Phi_eq18, after18_0, after18_1, ← gatherBlk_blk18]
  unfold Phi18 Pipeline.Dat.owesAt Pipeline.owesWithin
  rw [owed_eq18, owed_eq18, prefHeldEq18, scopedRest18_split]
  iintro ⟨⟨Hx, Hos, Ht, ⟨%fs, Hs⟩, Hsb⟩, ⟨%W, %hW, HO⟩, ⟨%d0, H0⟩, ⟨%d1, H1⟩⟩
  iapply (gatherRun18 c (grid18.coords t) _ _ _ _ (a0.1 0) (Vr Vin c main_v109) (iblk18 a0 Vin c 0 t) (gatherChk18 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation18 (a0 : (pcfg18 (F := F)).Adm) (hok : GatherOk18 a0) (Vin : Dev nD → Valuation τ sig (Elt F)) (c : Dev nD) :
    BodyObligation (dat18 a0 Vin c) (defs₀ (F := F)) 𝒱₀ () Set.univ := fun t => by
  rw [bigSep_W18, bigSep_W18]
  exact sound_body18 a0 hok Vin c t

/-! ## From the blocks to the arrays -/

/-- The value array after the region: as entered. -/
theorem arrAt18_in (a0 : (pcfg18 (F := F)).Adm) (Vin : Dev nD → Valuation τ sig (Elt F)) (c : Dev nD) :
    (dat18 a0 Vin c).arrAt 0 (cfg18 a0).N = Vr Vin c main_v121 :=
  ((dat18 a0 Vin c).arrAt_in 0 rfl _).trans (A_eq18 a0 Vin c 0)

/-- Every index of the result array is in some point's block: row `e`, lane `d` is element `(e % 8, d)` of the block
    of point `e / 8`. -/
theorem regOutCover18 (a0 : (pcfg18 (F := F)).Adm) (i : S131072x128.Idx) :
    ∃ t : Fin (cfg18 a0).N, ((cfg18 a0).win 1).flush t = true ∧ i ∈ (((cfg18 a0).win 1).blk t).view.set := by
  have hi0 : (i 0).val < 131072 := (i 0).isLt
  have hi1 : (i 1).val < 128 := (i 1).isLt
  have hN : (i 0).val / 8 < grid18.N := by rw [N_18]; omega
  obtain ⟨t, ht⟩ : ∃ t : Fin (cfg18 a0).N, t.val = (i 0).val / 8 := ⟨⟨_, hN⟩, rfl⟩
  have hx : (((cfg18 a0).win 1).blk t).view.emb (ValueIdx.ix2 ⟨(i 0).val % 8, Nat.mod_lt _ (by decide)⟩ (i 1)) = i := by
    funext a; apply Fin.ext
    have e0 : ((cfg18 a0).win 1).index t (0 : Fin 2) = t.val := congrFun (regOutIndex18 a0 t) (0 : Fin 2)
    have e1 : ((cfg18 a0).win 1).index t (1 : Fin 2) = 0 := congrFun (regOutIndex18 a0 t) (1 : Fin 2)
    match a with
    | ⟨0, _⟩ => show ((cfg18 a0).win 1).index t (0 : Fin 2) * 8 + 1 * ((i 0).val % 8) = (i 0).val; omega
    | ⟨1, _⟩ => show ((cfg18 a0).win 1).index t (1 : Fin 2) * 128 + 1 * (i 1).val = (i 1).val; omega
  exact ⟨t, regOutFlush18 a0 t, hx ▸ (((cfg18 a0).win 1).blk t).view.emb_mem_set _⟩

/-- The result array after the region: the gathered and scaled rows, whole. -/
theorem arrAt18_out (a0 : (pcfg18 (F := F)).Adm) (Vin : Dev nD → Valuation τ sig (Elt F)) (c : Dev nD) :
    (dat18 a0 Vin c).arrAt 1 (cfg18 a0).N = gout18 a0 Vin c :=
  (dat18 a0 Vin c).arrAt_eq_of_cover 1 (gout18 a0 Vin c)
    (fun t _ => by
      show ((cfg18 a0).win 1).cut ((cfg18 a0).grid.coords t) ((dat18 a0 Vin c).after 1 t) = _
      rw [after18_1])
    (regOutCover18 a0)

/-! ## The region as a segment of @main -/

/-- The ownership layout of the kernel's eight semaphores. -/
theorem ownSemFacts18 : Pipeline.OwnSemFacts spec18 osem18 := by decide

/-- The kernel's own cells at zero, listed. -/
theorem ownSemsListed18 (c : Dev nD) :
    (Pipeline.ownSems0 (Ix := Unit) (Name := ℕ) (U := UU nD τ) (Lvl := ℕ) (Val := Elt F) (τ := τ) osem18 c : sProp (MM F)) = sems18 c :=
  Pipeline.ownSems0_eq_of_list c osem18 [0, 1, 2, 3, 4, 5, 6, 7] (by decide) (by decide)

/-- The unscoped buffers that are no window's array, no table, and not the embedding array. -/
abbrev restRefs18 : Finset (Ref sig .tc) :=
  (((Finset.univ.filter fun b : Ref sig .tc => ¬ b.isScoped) \ Finset.univ.image (Pipeline.arrRef spec18)) \ Finset.univ.image pre18.ref) \ {main_v109}

/-- Those buffers, each whole at its contents under `Vin`: what bypasses the region. -/
def Zrest18 (Vin : Dev nD → Valuation τ sig (Elt F)) (c : Dev nD) : sProp (MM F) :=
  bigSep restRefs18 fun b => ((c : Thread nD τ).loc b) ↦{fullShare} Vr Vin c b

/-- The embedding array is an unscoped buffer that is no window's array and no table. -/
theorem embArrMem18 : ({main_v109} : Finset (Ref sig .tc)) ⊆
    ((Finset.univ.filter fun b : Ref sig .tc => ¬ b.isScoped) \ Finset.univ.image (Pipeline.arrRef spec18)) \ Finset.univ.image pre18.ref := by
  decide

/-- The unscoped buffers that are no window's array: the index table, the embedding array, and the rest. -/
theorem unscopedRestOpen18 (Vin : Dev nD → Valuation τ sig (Elt F)) (c : Dev nD) :
    (Pipeline.unscopedRest (Ix := Unit) (Name := ℕ) (U := UU nD τ) (Lvl := ℕ) spec18 c (Vr Vin c) : sProp (MM F))
      = iprop(Pipeline.prefHeld pre18 c (fun _ => fullShare) (fun k => Vr Vin c (pre18.ref k))
          ∗ pt c (Memref.whole main_v109) (Vr Vin c main_v109) ∗ Zrest18 Vin c) := by
  rw [Pipeline.unscopedRest_split preFacts18 c (Vr Vin c)]
  unfold Pipeline.unscopedRestP Zrest18
  rw [BI.bigSep_sdiff_split embArrMem18, BI.bigSep_singleton]
  rfl

/-- The buffer contents when the region is left: the result array at the gathered rows, every other buffer as entered. -/
abbrev Vout18 (a0 : (pcfg18 (F := F)).Adm) (Vin : Dev nD → Valuation τ sig (Elt F)) (c : Dev nD) : Valuation τ sig (Elt F) :=
  Function.update (Vin c) main_v122 (gout18 a0 Vin c)

/-- At the exit each of the region's arrays holds what the pipeline leaves; -/
theorem hF18 (a0 : (pcfg18 (F := F)).Adm) (Vin : Dev nD → Valuation τ sig (Elt F)) (c : Dev nD) (w : Fin (cfg18 a0).W) :
    (dat18 a0 Vin c).arrAt w (cfg18 a0).N = Vr (Vout18 a0 Vin) c (Pipeline.arrRef spec18 w) := by
  match w with
  | ⟨0, _⟩ =>
    show (dat18 a0 Vin c).arrAt 0 (cfg18 a0).N = Vr (Vout18 a0 Vin) c (Pipeline.arrRef spec18 0)
    rw [arrAt18_in]
    exact (Function.update_of_ne (StableHlo.devRef_ne_of_ne (by decide) : (Proc.devRef .tc main_v121 : DevRef τ sig) ≠ Proc.devRef .tc main_v122) _ _).symm
  | ⟨1, _⟩ =>
    show (dat18 a0 Vin c).arrAt 1 (cfg18 a0).N = Vr (Vout18 a0 Vin) c (Pipeline.arrRef spec18 1)
    rw [arrAt18_out]
    exact (Function.update_self (Proc.devRef .tc main_v122 : DevRef τ sig) _ (Vin c)).symm

/-- and every other buffer what it held at entry. -/
theorem hrest18 (a0 : (pcfg18 (F := F)).Adm) (Vin : Dev nD → Valuation τ sig (Elt F)) (c : Dev nD) :
    ∀ b : Ref sig .tc, b ∉ Finset.univ.image (Pipeline.arrRef spec18) → Vr (Vout18 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat18` at the entry valuation `Vin`
    (`hd`), the index table's contents under `Vin` being the pinned ones (`htbl`) and row numbers (`hok`). -/
def reg18 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk18 (F := F) (a (18 : Fin 34)))
    (hd : ∀ c, pdats (18 : Fin 34) c = dat18 (a (18 : Fin 34)) Vin c) (htbl : ∀ c, (a (18 : Fin 34)).1 = fun k => Vr Vin c (pre18.ref k)) :
    Pipeline.RegionSeg (pcfgs (F := F)) a pdats () defs₀ 𝒱₀ L lv (18 : Fin 34) where
  win := (launch18 (F := F)).win.to₀
  block_pos := (launch18 (F := F)).block_pos
  stage_whole := (launch18 (F := F)).stage_whole
  K := Fin 8
  osem := osem18
  ho := ownSemFacts18
  hbody c := by rw [hd c]; exact (body_obligation18 (a (18 : Fin 34)) hok Vin c).loose
  hwaits := Pipeline.hwaits_of_owed_zero _ _ _ _ L lv (18 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v122 (gout18 (a (18 : Fin 34)) Vin c)) ∗ Rest c)
  X c := iprop(pt c (Memref.whole main_v109) (Vr Vin c main_v109) ∗ sems18 c)
  Y c := iprop(pt c (Memref.whole main_v109) (Vr Vin c main_v109)
    ∗ Pipeline.prefHeld (Ix := Unit) (Name := ℕ) (U := UU nD τ) (Lvl := ℕ) pre18 c (fun _ => fullShare) (a (18 : Fin 34)).1)
  Z c := Zrest18 Vin c
  hentry c := by
    rw [ownSemsListed18]
    have hsplit := Pipeline.arrays_of_unscopedBufs (p := (18 : Fin 34)) (pcfgs (F := F)) a pdats (launch18 (F := F)).win (launch18 (F := F)).arr_whole c
      ((pdats (18 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen18 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (18 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq18]; unfold Phi18
    iintro ⟨⟨Hx, Hos⟩, Ht, Hr⟩
    isplitl [Hx]; · iexact Hx
    isplitl [Hos]; · iexact Hos
    isplitl [Ht]; · iexact Ht
    iexact Hr
  hout c := by
    rw [ownSemsListed18, hd c, Phi_eq18]; unfold Phi18
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (18 : Fin 34)) (pcfgs (F := F)) a (Ix := Unit) (Name := ℕ) (U := UU nD τ) (Lvl := ℕ)
      (launch18 (F := F)).win (launch18 (F := F)).arr_whole c pdats ((pdats (18 : Fin 34) c).share_full fun _ => by rw [hd c]; rfl)
      (Vr Vin c) (Vr (Vout18 (a (18 : Fin 34)) Vin) c) ((pdats (18 : Fin 34) c).arrAt · (cfg18 (a (18 : Fin 34))).N)
      (fun w => by rw [hd c]; exact hF18 (a (18 : Fin 34)) Vin c w) (hrest18 (a (18 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen18 Vin c).symm)
      isplitl [Ht]; · rw [← htbl c]; iexact Ht
      isplitl [Hx]; · iexact Hx
      iexact Hz
    unfold Pipeline.Dat.owesAt Pipeline.owesWithin
    rw [show (pdats (18 : Fin 34) c).owed (Fin.last _) = 0 from by rw [hd c]; rfl]
    icases HO with ⟨%W, -, HO⟩; iexists W; iexact HO

end Cert.KernelIdeal.Hand

end
-- ==== Proof.KI.GatherDat19.lean ====
/-
  Gather region 19 (custom_call 19): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem19 : Fin 8 → SemLoc sig := fun | 0 => .dma 224 | 1 => .dma 225 | 2 => .dma 226 | 3 => .dma 227 | 4 => .dma 228 | 5 => .dma 229 | 6 => .dma 230 | 7 => .dma 231

/-- The eight counters at zero, as the run finds them and hands them back. -/
abbrev sems19 (c : Dev nD) : sProp (MM F) :=
  iprop(semVal ((c : Thread nD τ), osem19 0) 0 ∗ semVal ((c : Thread nD τ), osem19 1) 0 ∗ semVal ((c : Thread nD τ), osem19 2) 0
    ∗ semVal ((c : Thread nD τ), osem19 3) 0 ∗ semVal ((c : Thread nD τ), osem19 4) 0 ∗ semVal ((c : Thread nD τ), osem19 5) 0
    ∗ semVal ((c : Thread nD τ), osem19 6) 0 ∗ semVal ((c : Thread nD τ), osem19 7) 0)

/-- Word `j` of the eight the index table holds for point `i`, as the kernel's scalar load reads it. -/
def tblWord19 (c : Dev nD) (i : grid19.Coords) (tbl : Bf (F := F) c (Memref.whole main_v123)) (j : Fin 8) : BitVec 32 :=
  (Memref.whole main_v123).view.readAt (Elt F) (Rect.unit (s := S131072) (k19_off1 i (BitVec.ofNat 32 j.val)) S1.size (k19_off1_inb i j)).toLoadRect tbl
    (Shape.Idx.first (s := S1) (numel1_S1.symm ▸ Nat.one_pos))

/-- Window `w`'s block at point `t`, read off its array at the region's entry. -/
def iblk19 (a0 : (pcfg19 (F := F)).Adm) (Vin : Dev nD → Valuation τ sig (Elt F)) (c : Dev nD) (w : Fin (cfg19 a0).W) (t : Fin (cfg19 a0).N) :
    (((cfg19 a0).win w).xblock ((cfg19 a0).grid.coords t)).Idx → Elt F ((cfg19 a0).win w).elt :=
  (((cfg19 a0).win w).blk t).view.read (Elt F) (Vr Vin c (Pipeline.arrRef spec19 w))

/-- The result array the region leaves: the gathered and scaled rows of the embedding array, whole. -/
def gout19 (a0 : (pcfg19 (F := F)).Adm) (Vin : Dev nD → Valuation τ sig (Elt F)) (c : Dev nD) : Buf (Elt F) ((c : Thread nD τ).loc main_v125) :=
  gatherArr (Vr Vin c main_v109) (a0.1 0) (Vr Vin c main_v124)

/-- The invariant between points: the embedding array as entered, the kernel's semaphores at zero, the index table, the
    scoped buffers no window stages (the kernel's scratch among them). -/
def Phi19 (a0 : (pcfg19 (F := F)).Adm) (Vin : Dev nD → Valuation τ sig (Elt F)) (c : Dev nD) : sProp (MM F) :=
  iprop(pt c (Memref.whole main_v109) (Vr Vin c main_v109) ∗ sems19 c
    ∗ Pipeline.prefHeld (Ix := Unit) (Name := ℕ) (U := UU nD τ) (Lvl := ℕ) pre19 c (fun _ => fullShare) a0.1
    ∗ Pipeline.scopedRest (Ix := Unit) (Name := ℕ) (U := UU nD τ) (Lvl := ℕ) (Val := Elt F) spec19 c)

/-- The proof data on core `c`. -/
def dat19 (a0 : (pcfg19 (F := F)).Adm) (Vin : Dev nD → Valuation τ sig (Elt F)) (c : Dev nD) :
    Pipeline.Dat τ (Elt F) Unit ℕ (UU nD τ) ℕ ((pcfg19 (F := F)).at a0) c where
  A w := Vr Vin c (Pipeline.arrRef spec19 w)
  after w t := match w with
    | ⟨0, _⟩ => iblk19 a0 Vin c 0 t
    | ⟨1, _⟩ => (((cfg19 a0).win 1).blk t).view.read (Elt F) (gout19 a0 Vin c)
  Φ _ := Phi19 a0 Vin c
  q _ := fullShare
  owed _ := 0

theorem A_eq19 (a0 : (pcfg19 (F := F)).Adm) (Vin : Dev nD → Valuation τ sig (Elt F)) (c : Dev nD) (w : Fin (cfg19 a0).W) :
    (dat19 a0 Vin c).A w = Vr Vin c (Pipeline.arrRef spec19 w) := by dsimp only [dat19]
theorem after19_0 (a0 : (pcfg19 (F := F)).Adm) (Vin : Dev nD → Valuation τ sig (Elt F)) (c : Dev nD) (t : Fin (cfg19 a0).N) :
    (dat19 a0 Vin c).after 0 t = iblk19 a0 Vin c 0 t := by dsimp only [dat19]; rfl
theorem after19_1 (a0 : (pcfg19 (F := F)).Adm) (Vin : Dev nD → Valuation τ sig (Elt F)) (c : Dev nD) (t : Fin (cfg19 a0).N) :
    (dat19 a0 Vin c).after 1 t = (((cfg19 a0).win 1).blk t).view.read (Elt F) (gout19 a0 Vin c) := by dsimp only [dat19]; rfl
theorem Phi_eq19 (a0 : (pcfg19 (F := F)).Adm) (Vin : Dev nD → Valuation τ sig (Elt F)) (c : Dev nD) (t : Fin ((cfg19 a0).N + 1)) :
    (dat19 a0 Vin c).Φ t = Phi19 a0 Vin c := rfl
theorem owed_eq19 (a0 : (pcfg19 (F := F)).Adm) (Vin : Dev nD → Valuation τ sig (Elt F)) (c : Dev nD) (t : Fin ((cfg19 a0).N + 1)) :
    (dat19 a0 Vin c).owed t = 0 := rfl
theorem q_eq19 (a0 : (pcfg19 (F := F)).Adm) (Vin : Dev nD → Valuation τ sig (Elt F)) (c : Dev nD) (w : Fin (cfg19 a0).W) :
    (dat19 a0 Vin c).q w = fullShare := rfl

/-- The pinned family's configuration at region 19 is this one. -/
example (a : (p : Fin 34) → (pcfgs (F := F) p).Adm) : Pipeline.pin (pcfgs (F := F)) a (19 : Fin 34) = (pcfg19 (F := F)).at (a (19 : Fin 34)) := rfl

end Cert.KernelIdeal.Hand

end
-- ==== Proof.KI.GatherBody19.lean ====
/-
  Gather region 19 (custom_call 19): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat19
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk19 (c : Dev nD) (i : grid19.Coords) (tbl : Bf (F := F) c (Memref.whole main_v123)) : Prop where
  h1 : k19_chk1 (tblWord19 c i tbl 0)
  h2 : k19_chk2 (tblWord19 c i tbl 1)
  h3 : k19_chk3 (tblWord19 c i tbl 2)
  h4 : k19_chk4 (tblWord19 c i tbl 3)
  h5 : k19_chk5 (tblWord19 c i tbl 4)
  h6 : k19_chk6 (tblWord19 c i tbl 5)
  h7 : k19_chk7 (tblWord19 c i tbl 6)
  h8 : k19_chk8 (tblWord19 c i tbl 7)

/-- A one-row slice of the embedding array at the row a word names, read at lane `z 1`: the array's element there. -/
theorem rowRead19 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun19 (c : Dev nD) (i : grid19.Coords)
    (M3 : Memref sig .tc .vmem S8x1 .f32) (h3 : M3.IsWhole) (M4 : Memref sig .tc .vmem S8x128 .f32) (h4 : M4.IsWhole)
    (tbl : Bf (F := F) c (Memref.whole main_v123)) (x : Bf (F := F) c (Memref.whole main_v109))
    (vb : Vec F S8x1 .f32) (hchk : GatherChk19 c i tbl) (Q : PUnit → sProp (MM F)) :
    iprop(pt c (Memref.whole main_v123) tbl ∗ pt c (Memref.whole main_v109) x
      ∗ owns (c : Thread nD τ) M3 fullShare vb ∗ (∃ d, owns (c : Thread nD τ) M4 fullShare d)
      ∗ (∃ fs, pt c (Memref.whole cc19_scratch0) fs) ∗ sems19 c ∗ (∃ W, owes (c : Thread nD τ) (0 : CellTallies nD τ sig Unit) W)
      ∗ (iprop(pt c (Memref.whole main_v123) tbl ∗ pt c (Memref.whole main_v109) x
          ∗ owns (c : Thread nD τ) M3 fullShare vb ∗ owns (c : Thread nD τ) M4 fullShare (gatherBlk x (tblWord19 c i tbl) vb)
          ∗ (∃ fs, pt c (Memref.whole cc19_scratch0) fs) ∗ sems19 c ∗ (∃ W, owes (c : Thread nD τ) (0 : CellTallies nD τ sig Unit) W)) -∗ Q ⟨⟩))
    ⊢ wp frame (wpE (defs₀ (F := F)) 𝒱₀ c none) Set.univ
        (cc19__gather_kernel i (Memref.whole main_v123) (Memref.isWhole_whole _) (Memref.whole main_v109) (Memref.isWhole_whole _) M3 h3 M4 h4
          (Memref.whole cc19_scratch0) (Memref.isWhole_whole _) cc19_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 224).1 $$ Hx
  icases Hx' with ⟨Hxr, Hx0, Hx1, Hx2, Hx3, Hx4, Hx5, Hx6, Hx7⟩
  sl_unfold [cc19__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 224).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k19_pay1 gatherBlk
    show FloatOps.mulf _ _ = FloatOps.mulf _ _
    congr 1
    · unfold gatherRun19.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun19.sl.dma8 gatherRun19.sl.dma8_1 gatherRun19.sl.dma8_2 gatherRun19.sl.dma8_3 gatherRun19.sl.dma8_4 gatherRun19.sl.dma8_5
        gatherRun19.sl.dma8_6 gatherRun19.sl.dma8_7 gatherRun19.sl.r gatherRun19.sl.r_1 gatherRun19.sl.r_2 gatherRun19.sl.r_3 gatherRun19.sl.r_4
        gatherRun19.sl.r_5 gatherRun19.sl.r_6 gatherRun19.sl.r_7
      refine canonRows8 _ _ _ _ _ _ _ _ _ _ _ _ _ _ _ _ (fun r d => x (embIdx (rowOf (tblWord19 c i tbl r)) d)) ?_ ?_ ?_ ?_ ?_ ?_ ?_ ?_ y
      · exact fun z => rowRead19 c _ (tblWord19 c i tbl 0) rfl rfl _ _ x z
      · exact fun z => rowRead19 c _ (tblWord19 c i tbl 1) rfl rfl _ _ x z
      · exact fun z => rowRead19 c _ (tblWord19 c i tbl 2) rfl rfl _ _ x z
      · exact fun z => rowRead19 c _ (tblWord19 c i tbl 3) rfl rfl _ _ x z
      · exact fun z => rowRead19 c _ (tblWord19 c i tbl 4) rfl rfl _ _ x z
      · exact fun z => rowRead19 c _ (tblWord19 c i tbl 5) rfl rfl _ _ x z
      · exact fun z => rowRead19 c _ (tblWord19 c i tbl 6) rfl rfl _ _ x z
      · exact fun z => rowRead19 c _ (tblWord19 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk19.lean ====
/-
  Gather region 19 (custom_call 19): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat19
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word19 (i : grid19.Coords) (j : Fin 8) : k19_off1 i (BitVec.ofNat 32 j.val) 0 = (i 0).val * 8 + j.val := by
  have hi : (i 0).val < 16384 := (i 0).isLt
  have hj : j.val < 8 := j.isLt
  unfold k19_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word19 (i : grid19.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord19_eq (c : Dev nD) (i : grid19.Coords) (tbl : Bf (F := F) c (Memref.whole main_v123)) (j : Fin 8)
    (e : Fin 131072) (he : e.val = (i 0).val * 8 + j.val) : tblWord19 c i tbl j = tbl (tblIdx e) := by
  unfold tblWord19
  show tbl _ = tbl _
  refine congrArg tbl ?_
  funext a; apply Fin.ext
  match a with
  | ⟨0, _⟩ =>
    show k19_off1 i (BitVec.ofNat 32 j.val) 0 + 1 * 0 = e.val
    rw [off_word19, he]; omega

/-- Row `j` of the value window's block at point `t` is the value array's row `8 t + j`. -/
theorem valBlk19_eq (a0 : (pcfg19 (F := F)).Adm) (Vin : Dev nD → Valuation τ sig (Elt F)) (c : Dev nD) (t : Fin (cfg19 a0).N)
    (j : Fin 8) (e : Fin 131072) (he : e.val = ((grid19.coords t) 0).val * 8 + j.val) :
    iblk19 a0 Vin c 0 t (colIdx j) = Vr Vin c main_v124 (valIdx e) := by
  unfold iblk19
  show Vr Vin c main_v124 _ = Vr Vin c main_v124 _
  refine congrArg (Vr Vin c main_v124) ?_
  funext a; apply Fin.ext
  match a with
  | ⟨0, _⟩ =>
    show (BitVec.ofNat 32 ((grid19.coords t) 0).val).toNat * 8 + 1 * j.val = e.val
    rw [coord_word19, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk19 (a0 : (pcfg19 (F := F)).Adm) (Vin : Dev nD → Valuation τ sig (Elt F)) (c : Dev nD) (t : Fin (cfg19 a0).N) :
    gatherBlk (Vr Vin c main_v109) (tblWord19 c (grid19.coords t) (a0.1 0)) (iblk19 a0 Vin c 0 t)
      = (((cfg19 a0).win 1).blk t).view.read (Elt F) (gout19 a0 Vin c) := by
  funext y
  show gatherBlk _ _ _ y = gout19 a0 Vin c ((((cfg19 a0).win 1).blk t).view.emb y)
  unfold gatherBlk gout19 gatherArr
  have e0 : ((((cfg19 a0).win 1).blk t).view.emb y (0 : Fin 2)).val = ((grid19.coords t) 0).val * 8 + (y 0).val := by
    show (BitVec.ofNat 32 ((grid19.coords t) 0).val).toNat * 8 + 1 * (y 0).val = _
    rw [coord_word19]; omega
  have e1 : (((cfg19 a0).win 1).blk t).view.emb y (1 : Fin 2) = y 1 := Fin.ext (by
    show (0#32 : BitVec 32).toNat * 128 + 1 * (y 1).val = (y 1).val
    show 0 * 128 + 1 * (y 1).val = (y 1).val
    omega)
  rw [tblWord19_eq c (grid19.coords t) (a0.1 0) (y 0) _ e0, valBlk19_eq a0 Vin c t (y 0) _ e0, e1]

end Cert.KernelIdeal.Hand

end
-- ==== Proof.KI.GatherRegion19.lean ====
/-
  Gather region 19 (custom_call 19): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody19
import proofs.«414509_j14181982011419_2_alg».proof.Proof.KI.GatherBlk19
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk19 (a0 : (pcfg19 (F := F)).Adm) : Prop := ∀ e : S131072.Idx, (a0.1 0 e).toNat < 100000

/-! ## The grid and the result window's blocks -/

/-- On the one-axis grid a point's coordinate is its number. -/
theorem regCoords19 (t : Fin grid19.N) : (grid19.coords t 0).val = t.val := by
  have ht : t.val < 16384 := N_19 ▸ t.isLt
  show t.val / grid19.stride 0 % grid19.bound 0 = t.val
  rw [show grid19.stride 0 = 1 from by decide, show grid19.bound 0 = 16384 from rfl, Nat.div_one, Nat.mod_eq_of_lt ht]

/-- A point's number as the 32-bit word the index maps compute with. -/
theorem regWord19 (t : Fin grid19.N) : (BitVec.ofNat 32 (grid19.coords t 0).val).toNat = t.val := by
  have ht : t.val < 16384 := N_19 ▸ t.isLt
  rw [BitVec.toNat_ofNat, regCoords19]; omega

/-- The result window's block at point `t` is block `t` along the rows, at zero along the lanes. -/
theorem regOutIndex19 (a0 : (pcfg19 (F := F)).Adm) (t : Fin (cfg19 a0).N) : ((cfg19 a0).win 1).index t = ![t.val, 0] := by
  show cc19_transform_2 (grid19.coords t) = _
  unfold cc19_transform_2
  funext a; fin_cases a
  · exact regWord19 t
  · rfl

/-- The result window is written back at every point: consecutive points have different blocks. -/
theorem regOutFlush19 (a0 : (pcfg19 (F := F)).Adm) (t : Fin (cfg19 a0).N) : ((cfg19 a0).win 1).flush t = true := by
  have htN : t.val < 16384 := N_19 ▸ t.isLt
  rw [Pipeline.Window.flush_out _ rfl]
  by_cases h : t.val + 1 = 16384
  · exact Or.inl (show t.val + 1 = grid19.N by rw [N_19]; exact h)
  · have hlt : t.val + 1 < grid19.N := by rw [N_19]; omega
    refine Or.inr ⟨hlt, fun e => ?_⟩
    have e' : (![t.val + 1, 0] : Fin 2 → ℕ) = ![t.val, 0] := (regOutIndex19 a0 ⟨t.val + 1, hlt⟩).symm.trans (e.trans (regOutIndex19 a0 t))
    have e0 := congrFun e' 0
    simp at e0

/-- The index table, held as the pipeline's one prefetched table. -/
theorem prefHeldEq19 (a0 : (pcfg19 (F := F)).Adm) (c : Dev nD) :
    (Pipeline.prefHeld (Ix := Unit) (Name := ℕ) (U := UU nD τ) (Lvl := ℕ) pre19 c (fun _ => fullShare) a0.1 : sProp (MM F))
      = pt c (Memref.whole main_v123) (a0.1 0) := by
  unfold Pipeline.prefHeld
  rw [show (Finset.univ : Finset (Fin pre19.K)) = {0} from rfl, BI.bigSep_singleton]
  rfl

/-- The value window's staging buffer holds its block at every point. -/
theorem beforeVal19 (a0 : (pcfg19 (F := F)).Adm) (Vin : Dev nD → Valuation τ sig (Elt F)) (c : Dev nD) (t : Fin (cfg19 a0).N) (d) :
    (dat19 a0 Vin c).before 0 t d = iblk19 a0 Vin c 0 t :=
  ((dat19 a0 Vin c).before_in_eq_fetched 0 rfl (fun _ => rfl) (fun _ _ _ => rfl)
    (fun t => by rw [after19_0]; unfold Dat.blockOf iblk19; rw [A_eq19]; try rfl) t d).trans
    (by unfold Dat.fetched Dat.blockOf iblk19; rw [A_eq19]; try rfl)

/-! ## The kernel's checks, from the table's range -/

/-- Each of the point's eight words is a word of the table, so a row number. -/
theorem tblWordLt19 (a0 : (pcfg19 (F := F)).Adm) (hok : GatherOk19 a0) (c : Dev nD) (i : grid19.Coords) (j : Fin 8) :
    (tblWord19 c i (a0.1 0) j).toNat < 100000 := by
  unfold tblWord19
  exact hok _

/-- So the kernel's eight checks hold at every point. -/
theorem gatherChk19 (a0 : (pcfg19 (F := F)).Adm) (hok : GatherOk19 a0) (c : Dev nD) (i : grid19.Coords) : GatherChk19 c i (a0.1 0) :=
  ⟨⟨chkRow _ (tblWordLt19 a0 hok c i 0), chkRow _ (tblWordLt19 a0 hok c i 0)⟩,
   ⟨chkRow _ (tblWordLt19 a0 hok c i 1), chkRow _ (tblWordLt19 a0 hok c i 1)⟩,
   ⟨chkRow _ (tblWordLt19 a0 hok c i 2), chkRow _ (tblWordLt19 a0 hok c i 2)⟩,
   ⟨chkRow _ (tblWordLt19 a0 hok c i 3), chkRow _ (tblWordLt19 a0 hok c i 3)⟩,
   ⟨chkRow _ (tblWordLt19 a0 hok c i 4), chkRow _ (tblWordLt19 a0 hok c i 4)⟩,
   ⟨chkRow _ (tblWordLt19 a0 hok c i 5), chkRow _ (tblWordLt19 a0 hok c i 5)⟩,
   ⟨chkRow _ (tblWordLt19 a0 hok c i 6), chkRow _ (tblWordLt19 a0 hok c i 6)⟩,
   chkRow _ (tblWordLt19 a0 hok c i 7)⟩

/-! ## The body obligation, at a generic point -/

/-- What the body is called with at point `t`: the invariant, the core's dues, each window's current staging memref at
    what the pipeline left there, -/
def bodyPre19 (a0 : (pcfg19 (F := F)).Adm) (Vin : Dev nD → Valuation τ sig (Elt F)) (c : Dev nD) (t : Fin (cfg19 a0).N) : sProp (MM F) :=
  iprop((dat19 a0 Vin c).Φ t.castSucc ∗ (dat19 a0 Vin c).owesAt () t.castSucc
    ∗ (∃ d, owns (c : Thread nD τ) (((cfg19 a0).win 0).stage ((cfg19 a0).slots t 0)) fullShare ((dat19 a0 Vin c).before 0 t d))
    ∗ (∃ d, owns (c : Thread nD τ) (((cfg19 a0).win 1).stage ((cfg19 a0).slots t 1)) fullShare ((dat19 a0 Vin c).before 1 t d)))

/-- and what it returns. -/
def bodyPost19 (a0 : (pcfg19 (F := F)).Adm) (Vin : Dev nD → Valuation τ sig (Elt F)) (c : Dev nD) (t : Fin (cfg19 a0).N) : sProp (MM F) :=
  iprop((dat19 a0 Vin c).Φ t.succ ∗ (dat19 a0 Vin c).owesAt () t.succ
    ∗ owns (c : Thread nD τ) (((cfg19 a0).win 0).stage ((cfg19 a0).slots t 0)) fullShare ((dat19 a0 Vin c).after 0 t)
    ∗ owns (c : Thread nD τ) (((cfg19 a0).win 1).stage ((cfg19 a0).slots t 1)) fullShare ((dat19 a0 Vin c).after 1 t))

/-- The body at any point: the invariant opened into the embedding array, the semaphores, the table and the scratch;
    the value window's memref at its block; the checks from the table's range; so the kernel's run applies, and what it
    leaves in the result window's memref is the point's block of the gathered array. -/
theorem sound_body19 (a0 : (pcfg19 (F := F)).Adm) (hok : GatherOk19 a0) (Vin : Dev nD → Valuation τ sig (Elt F)) (c : Dev nD) (t : Fin (cfg19 a0).N) :
    bodyPre19 a0 Vin c t ⊢ wp frame (wpE (defs₀ (F := F)) 𝒱₀ c none) Set.univ
      (defs₀ .tc (cfg19 a0).body ((cfg19 a0).bodyArgs t ((cfg19 a0).slots t))) (fun _ => bodyPost19 a0 Vin c t) := by
  unfold bodyPre19 bodyPost19
  simp only [beforeVal19]
  rw [Phi_eq19, Phi_eq19, after19_0, after19_1, ← gatherBlk_blk19]
  unfold Phi19 Pipeline.Dat.owesAt Pipeline.owesWithin
  rw [owed_eq19, owed_eq19, prefHeldEq19, scopedRest19_split]
  iintro ⟨⟨Hx, Hos, Ht, ⟨%fs, Hs⟩, Hsb⟩, ⟨%W, %hW, HO⟩, ⟨%d0, H0⟩, ⟨%d1, H1⟩⟩
  iapply (gatherRun19 c (grid19.coords t) _ _ _ _ (a0.1 0) (Vr Vin c main_v109) (iblk19 a0 Vin c 0 t) (gatherChk19 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation19 (a0 : (pcfg19 (F := F)).Adm) (hok : GatherOk19 a0) (Vin : Dev nD → Valuation τ sig (Elt F)) (c : Dev nD) :
    BodyObligation (dat19 a0 Vin c) (defs₀ (F := F)) 𝒱₀ () Set.univ := fun t => by
  rw [bigSep_W19, bigSep_W19]
  exact sound_body19 a0 hok Vin c t

/-! ## From the blocks to the arrays -/

/-- The value array after the region: as entered. -/
theorem arrAt19_in (a0 : (pcfg19 (F := F)).Adm) (Vin : Dev nD → Valuation τ sig (Elt F)) (c : Dev nD) :
    (dat19 a0 Vin c).arrAt 0 (cfg19 a0).N = Vr Vin c main_v124 :=
  ((dat19 a0 Vin c).arrAt_in 0 rfl _).trans (A_eq19 a0 Vin c 0)

/-- Every index of the result array is in some point's block: row `e`, lane `d` is element `(e % 8, d)` of the block
    of point `e / 8`. -/
theorem regOutCover19 (a0 : (pcfg19 (F := F)).Adm) (i : S131072x128.Idx) :
    ∃ t : Fin (cfg19 a0).N, ((cfg19 a0).win 1).flush t = true ∧ i ∈ (((cfg19 a0).win 1).blk t).view.set := by
  have hi0 : (i 0).val < 131072 := (i 0).isLt
  have hi1 : (i 1).val < 128 := (i 1).isLt
  have hN : (i 0).val / 8 < grid19.N := by rw [N_19]; omega
  obtain ⟨t, ht⟩ : ∃ t : Fin (cfg19 a0).N, t.val = (i 0).val / 8 := ⟨⟨_, hN⟩, rfl⟩
  have hx : (((cfg19 a0).win 1).blk t).view.emb (ValueIdx.ix2 ⟨(i 0).val % 8, Nat.mod_lt _ (by decide)⟩ (i 1)) = i := by
    funext a; apply Fin.ext
    have e0 : ((cfg19 a0).win 1).index t (0 : Fin 2) = t.val := congrFun (regOutIndex19 a0 t) (0 : Fin 2)
    have e1 : ((cfg19 a0).win 1).index t (1 : Fin 2) = 0 := congrFun (regOutIndex19 a0 t) (1 : Fin 2)
    match a with
    | ⟨0, _⟩ => show ((cfg19 a0).win 1).index t (0 : Fin 2) * 8 + 1 * ((i 0).val % 8) = (i 0).val; omega
    | ⟨1, _⟩ => show ((cfg19 a0).win 1).index t (1 : Fin 2) * 128 + 1 * (i 1).val = (i 1).val; omega
  exact ⟨t, regOutFlush19 a0 t, hx ▸ (((cfg19 a0).win 1).blk t).view.emb_mem_set _⟩

/-- The result array after the region: the gathered and scaled rows, whole. -/
theorem arrAt19_out (a0 : (pcfg19 (F := F)).Adm) (Vin : Dev nD → Valuation τ sig (Elt F)) (c : Dev nD) :
    (dat19 a0 Vin c).arrAt 1 (cfg19 a0).N = gout19 a0 Vin c :=
  (dat19 a0 Vin c).arrAt_eq_of_cover 1 (gout19 a0 Vin c)
    (fun t _ => by
      show ((cfg19 a0).win 1).cut ((cfg19 a0).grid.coords t) ((dat19 a0 Vin c).after 1 t) = _
      rw [after19_1])
    (regOutCover19 a0)

/-! ## The region as a segment of @main -/

/-- The ownership layout of the kernel's eight semaphores. -/
theorem ownSemFacts19 : Pipeline.OwnSemFacts spec19 osem19 := by decide

/-- The kernel's own cells at zero, listed. -/
theorem ownSemsListed19 (c : Dev nD) :
    (Pipeline.ownSems0 (Ix := Unit) (Name := ℕ) (U := UU nD τ) (Lvl := ℕ) (Val := Elt F) (τ := τ) osem19 c : sProp (MM F)) = sems19 c :=
  Pipeline.ownSems0_eq_of_list c osem19 [0, 1, 2, 3, 4, 5, 6, 7] (by decide) (by decide)

/-- The unscoped buffers that are no window's array, no table, and not the embedding array. -/
abbrev restRefs19 : Finset (Ref sig .tc) :=
  (((Finset.univ.filter fun b : Ref sig .tc => ¬ b.isScoped) \ Finset.univ.image (Pipeline.arrRef spec19)) \ Finset.univ.image pre19.ref) \ {main_v109}

/-- Those buffers, each whole at its contents under `Vin`: what bypasses the region. -/
def Zrest19 (Vin : Dev nD → Valuation τ sig (Elt F)) (c : Dev nD) : sProp (MM F) :=
  bigSep restRefs19 fun b => ((c : Thread nD τ).loc b) ↦{fullShare} Vr Vin c b

/-- The embedding array is an unscoped buffer that is no window's array and no table. -/
theorem embArrMem19 : ({main_v109} : Finset (Ref sig .tc)) ⊆
    ((Finset.univ.filter fun b : Ref sig .tc => ¬ b.isScoped) \ Finset.univ.image (Pipeline.arrRef spec19)) \ Finset.univ.image pre19.ref := by
  decide

/-- The unscoped buffers that are no window's array: the index table, the embedding array, and the rest. -/
theorem unscopedRestOpen19 (Vin : Dev nD → Valuation τ sig (Elt F)) (c : Dev nD) :
    (Pipeline.unscopedRest (Ix := Unit) (Name := ℕ) (U := UU nD τ) (Lvl := ℕ) spec19 c (Vr Vin c) : sProp (MM F))
      = iprop(Pipeline.prefHeld pre19 c (fun _ => fullShare) (fun k => Vr Vin c (pre19.ref k))
          ∗ pt c (Memref.whole main_v109) (Vr Vin c main_v109) ∗ Zrest19 Vin c) := by
  rw [Pipeline.unscopedRest_split preFacts19 c (Vr Vin c)]
  unfold Pipeline.unscopedRestP Zrest19
  rw [BI.bigSep_sdiff_split embArrMem19, BI.bigSep_singleton]
  rfl

/-- The buffer contents when the region is left: the result array at the gathered rows, every other buffer as entered. -/
abbrev Vout19 (a0 : (pcfg19 (F := F)).Adm) (Vin : Dev nD → Valuation τ sig (Elt F)) (c : Dev nD) : Valuation τ sig (Elt F) :=
  Function.update (Vin c) main_v125 (gout19 a0 Vin c)

/-- At the exit each of the region's arrays holds what the pipeline leaves; -/
theorem hF19 (a0 : (pcfg19 (F := F)).Adm) (Vin : Dev nD → Valuation τ sig (Elt F)) (c : Dev nD) (w : Fin (cfg19 a0).W) :
    (dat19 a0 Vin c).arrAt w (cfg19 a0).N = Vr (Vout19 a0 Vin) c (Pipeline.arrRef spec19 w) := by
  match w with
  | ⟨0, _⟩ =>
    show (dat19 a0 Vin c).arrAt 0 (cfg19 a0).N = Vr (Vout19 a0 Vin) c (Pipeline.arrRef spec19 0)
    rw [arrAt19_in]
    exact (Function.update_of_ne (StableHlo.devRef_ne_of_ne (by decide) : (Proc.devRef .tc main_v124 : DevRef τ sig) ≠ Proc.devRef .tc main_v125) _ _).symm
  | ⟨1, _⟩ =>
    show (dat19 a0 Vin c).arrAt 1 (cfg19 a0).N = Vr (Vout19 a0 Vin) c (Pipeline.arrRef spec19 1)
    rw [arrAt19_out]
    exact (Function.update_self (Proc.devRef .tc main_v125 : DevRef τ sig) _ (Vin c)).symm

/-- and every other buffer what it held at entry. -/
theorem hrest19 (a0 : (pcfg19 (F := F)).Adm) (Vin : Dev nD → Valuation τ sig (Elt F)) (c : Dev nD) :
    ∀ b : Ref sig .tc, b ∉ Finset.univ.image (Pipeline.arrRef spec19) → Vr (Vout19 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat19` at the entry valuation `Vin`
    (`hd`), the index table's contents under `Vin` being the pinned ones (`htbl`) and row numbers (`hok`). -/
def reg19 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk19 (F := F) (a (19 : Fin 34)))
    (hd : ∀ c, pdats (19 : Fin 34) c = dat19 (a (19 : Fin 34)) Vin c) (htbl : ∀ c, (a (19 : Fin 34)).1 = fun k => Vr Vin c (pre19.ref k)) :
    Pipeline.RegionSeg (pcfgs (F := F)) a pdats () defs₀ 𝒱₀ L lv (19 : Fin 34) where
  win := (launch19 (F := F)).win.to₀
  block_pos := (launch19 (F := F)).block_pos
  stage_whole := (launch19 (F := F)).stage_whole
  K := Fin 8
  osem := osem19
  ho := ownSemFacts19
  hbody c := by rw [hd c]; exact (body_obligation19 (a (19 : Fin 34)) hok Vin c).loose
  hwaits := Pipeline.hwaits_of_owed_zero _ _ _ _ L lv (19 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v125 (gout19 (a (19 : Fin 34)) Vin c)) ∗ Rest c)
  X c := iprop(pt c (Memref.whole main_v109) (Vr Vin c main_v109) ∗ sems19 c)
  Y c := iprop(pt c (Memref.whole main_v109) (Vr Vin c main_v109)
    ∗ Pipeline.prefHeld (Ix := Unit) (Name := ℕ) (U := UU nD τ) (Lvl := ℕ) pre19 c (fun _ => fullShare) (a (19 : Fin 34)).1)
  Z c := Zrest19 Vin c
  hentry c := by
    rw [ownSemsListed19]
    have hsplit := Pipeline.arrays_of_unscopedBufs (p := (19 : Fin 34)) (pcfgs (F := F)) a pdats (launch19 (F := F)).win (launch19 (F := F)).arr_whole c
      ((pdats (19 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen19 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (19 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq19]; unfold Phi19
    iintro ⟨⟨Hx, Hos⟩, Ht, Hr⟩
    isplitl [Hx]; · iexact Hx
    isplitl [Hos]; · iexact Hos
    isplitl [Ht]; · iexact Ht
    iexact Hr
  hout c := by
    rw [ownSemsListed19, hd c, Phi_eq19]; unfold Phi19
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (19 : Fin 34)) (pcfgs (F := F)) a (Ix := Unit) (Name := ℕ) (U := UU nD τ) (Lvl := ℕ)
      (launch19 (F := F)).win (launch19 (F := F)).arr_whole c pdats ((pdats (19 : Fin 34) c).share_full fun _ => by rw [hd c]; rfl)
      (Vr Vin c) (Vr (Vout19 (a (19 : Fin 34)) Vin) c) ((pdats (19 : Fin 34) c).arrAt · (cfg19 (a (19 : Fin 34))).N)
      (fun w => by rw [hd c]; exact hF19 (a (19 : Fin 34)) Vin c w) (hrest19 (a (19 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen19 Vin c).symm)
      isplitl [Ht]; · rw [← htbl c]; iexact Ht
      isplitl [Hx]; · iexact Hx
      iexact Hz
    unfold Pipeline.Dat.owesAt Pipeline.owesWithin
    rw [show (pdats (19 : Fin 34) c).owed (Fin.last _) = 0 from by rw [hd c]; rfl]
    icases HO with ⟨%W, -, HO⟩; iexists W; iexact HO

end Cert.KernelIdeal.Hand

end
-- ==== Proof.KI.GatherDat20.lean ====
/-
  Gather region 20 (custom_call 20): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem20 : Fin 8 → SemLoc sig := fun | 0 => .dma 236 | 1 => .dma 237 | 2 => .dma 238 | 3 => .dma 239 | 4 => .dma 240 | 5 => .dma 241 | 6 => .dma 242 | 7 => .dma 243

/-- The eight counters at zero, as the run finds them and hands them back. -/
abbrev sems20 (c : Dev nD) : sProp (MM F) :=
  iprop(semVal ((c : Thread nD τ), osem20 0) 0 ∗ semVal ((c : Thread nD τ), osem20 1) 0 ∗ semVal ((c : Thread nD τ), osem20 2) 0
    ∗ semVal ((c : Thread nD τ), osem20 3) 0 ∗ semVal ((c : Thread nD τ), osem20 4) 0 ∗ semVal ((c : Thread nD τ), osem20 5) 0
    ∗ semVal ((c : Thread nD τ), osem20 6) 0 ∗ semVal ((c : Thread nD τ), osem20 7) 0)

/-- Word `j` of the eight the index table holds for point `i`, as the kernel's scalar load reads it. -/
def tblWord20 (c : Dev nD) (i : grid20.Coords) (tbl : Bf (F := F) c (Memref.whole main_v126)) (j : Fin 8) : BitVec 32 :=
  (Memref.whole main_v126).view.readAt (Elt F) (Rect.unit (s := S131072) (k20_off1 i (BitVec.ofNat 32 j.val)) S1.size (k20_off1_inb i j)).toLoadRect tbl
    (Shape.Idx.first (s := S1) (numel1_S1.symm ▸ Nat.one_pos))

/-- Window `w`'s block at point `t`, read off its array at the region's entry. -/
def iblk20 (a0 : (pcfg20 (F := F)).Adm) (Vin : Dev nD → Valuation τ sig (Elt F)) (c : Dev nD) (w : Fin (cfg20 a0).W) (t : Fin (cfg20 a0).N) :
    (((cfg20 a0).win w).xblock ((cfg20 a0).grid.coords t)).Idx → Elt F ((cfg20 a0).win w).elt :=
  (((cfg20 a0).win w).blk t).view.read (Elt F) (Vr Vin c (Pipeline.arrRef spec20 w))

/-- The result array the region leaves: the gathered and scaled rows of the embedding array, whole. -/
def gout20 (a0 : (pcfg20 (F := F)).Adm) (Vin : Dev nD → Valuation τ sig (Elt F)) (c : Dev nD) : Buf (Elt F) ((c : Thread nD τ).loc main_v128) :=
  gatherArr (Vr Vin c main_v109) (a0.1 0) (Vr Vin c main_v127)

/-- The invariant between points: the embedding array as entered, the kernel's semaphores at zero, the index table, the
    scoped buffers no window stages (the kernel's scratch among them). -/
def Phi20 (a0 : (pcfg20 (F := F)).Adm) (Vin : Dev nD → Valuation τ sig (Elt F)) (c : Dev nD) : sProp (MM F) :=
  iprop(pt c (Memref.whole main_v109) (Vr Vin c main_v109) ∗ sems20 c
    ∗ Pipeline.prefHeld (Ix := Unit) (Name := ℕ) (U := UU nD τ) (Lvl := ℕ) pre20 c (fun _ => fullShare) a0.1
    ∗ Pipeline.scopedRest (Ix := Unit) (Name := ℕ) (U := UU nD τ) (Lvl := ℕ) (Val := Elt F) spec20 c)

/-- The proof data on core `c`. -/
def dat20 (a0 : (pcfg20 (F := F)).Adm) (Vin : Dev nD → Valuation τ sig (Elt F)) (c : Dev nD) :
    Pipeline.Dat τ (Elt F) Unit ℕ (UU nD τ) ℕ ((pcfg20 (F := F)).at a0) c where
  A w := Vr Vin c (Pipeline.arrRef spec20 w)
  after w t := match w with
    | ⟨0, _⟩ => iblk20 a0 Vin c 0 t
    | ⟨1, _⟩ => (((cfg20 a0).win 1).blk t).view.read (Elt F) (gout20 a0 Vin c)
  Φ _ := Phi20 a0 Vin c
  q _ := fullShare
  owed _ := 0

theorem A_eq20 (a0 : (pcfg20 (F := F)).Adm) (Vin : Dev nD → Valuation τ sig (Elt F)) (c : Dev nD) (w : Fin (cfg20 a0).W) :
    (dat20 a0 Vin c).A w = Vr Vin c (Pipeline.arrRef spec20 w) := by dsimp only [dat20]
theorem after20_0 (a0 : (pcfg20 (F := F)).Adm) (Vin : Dev nD → Valuation τ sig (Elt F)) (c : Dev nD) (t : Fin (cfg20 a0).N) :
    (dat20 a0 Vin c).after 0 t = iblk20 a0 Vin c 0 t := by dsimp only [dat20]; rfl
theorem after20_1 (a0 : (pcfg20 (F := F)).Adm) (Vin : Dev nD → Valuation τ sig (Elt F)) (c : Dev nD) (t : Fin (cfg20 a0).N) :
    (dat20 a0 Vin c).after 1 t = (((cfg20 a0).win 1).blk t).view.read (Elt F) (gout20 a0 Vin c) := by dsimp only [dat20]; rfl
theorem Phi_eq20 (a0 : (pcfg20 (F := F)).Adm) (Vin : Dev nD → Valuation τ sig (Elt F)) (c : Dev nD) (t : Fin ((cfg20 a0).N + 1)) :
    (dat20 a0 Vin c).Φ t = Phi20 a0 Vin c := rfl
theorem owed_eq20 (a0 : (pcfg20 (F := F)).Adm) (Vin : Dev nD → Valuation τ sig (Elt F)) (c : Dev nD) (t : Fin ((cfg20 a0).N + 1)) :
    (dat20 a0 Vin c).owed t = 0 := rfl
theorem q_eq20 (a0 : (pcfg20 (F := F)).Adm) (Vin : Dev nD → Valuation τ sig (Elt F)) (c : Dev nD) (w : Fin (cfg20 a0).W) :
    (dat20 a0 Vin c).q w = fullShare := rfl

/-- The pinned family's configuration at region 20 is this one. -/
example (a : (p : Fin 34) → (pcfgs (F := F) p).Adm) : Pipeline.pin (pcfgs (F := F)) a (20 : Fin 34) = (pcfg20 (F := F)).at (a (20 : Fin 34)) := rfl

end Cert.KernelIdeal.Hand

end
-- ==== Proof.KI.GatherBody20.lean ====
/-
  Gather region 20 (custom_call 20): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat20
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk20 (c : Dev nD) (i : grid20.Coords) (tbl : Bf (F := F) c (Memref.whole main_v126)) : Prop where
  h1 : k20_chk1 (tblWord20 c i tbl 0)
  h2 : k20_chk2 (tblWord20 c i tbl 1)
  h3 : k20_chk3 (tblWord20 c i tbl 2)
  h4 : k20_chk4 (tblWord20 c i tbl 3)
  h5 : k20_chk5 (tblWord20 c i tbl 4)
  h6 : k20_chk6 (tblWord20 c i tbl 5)
  h7 : k20_chk7 (tblWord20 c i tbl 6)
  h8 : k20_chk8 (tblWord20 c i tbl 7)

/-- A one-row slice of the embedding array at the row a word names, read at lane `z 1`: the array's element there. -/
theorem rowRead20 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun20 (c : Dev nD) (i : grid20.Coords)
    (M3 : Memref sig .tc .vmem S8x1 .f32) (h3 : M3.IsWhole) (M4 : Memref sig .tc .vmem S8x128 .f32) (h4 : M4.IsWhole)
    (tbl : Bf (F := F) c (Memref.whole main_v126)) (x : Bf (F := F) c (Memref.whole main_v109))
    (vb : Vec F S8x1 .f32) (hchk : GatherChk20 c i tbl) (Q : PUnit → sProp (MM F)) :
    iprop(pt c (Memref.whole main_v126) tbl ∗ pt c (Memref.whole main_v109) x
      ∗ owns (c : Thread nD τ) M3 fullShare vb ∗ (∃ d, owns (c : Thread nD τ) M4 fullShare d)
      ∗ (∃ fs, pt c (Memref.whole cc20_scratch0) fs) ∗ sems20 c ∗ (∃ W, owes (c : Thread nD τ) (0 : CellTallies nD τ sig Unit) W)
      ∗ (iprop(pt c (Memref.whole main_v126) tbl ∗ pt c (Memref.whole main_v109) x
          ∗ owns (c : Thread nD τ) M3 fullShare vb ∗ owns (c : Thread nD τ) M4 fullShare (gatherBlk x (tblWord20 c i tbl) vb)
          ∗ (∃ fs, pt c (Memref.whole cc20_scratch0) fs) ∗ sems20 c ∗ (∃ W, owes (c : Thread nD τ) (0 : CellTallies nD τ sig Unit) W)) -∗ Q ⟨⟩))
    ⊢ wp frame (wpE (defs₀ (F := F)) 𝒱₀ c none) Set.univ
        (cc20__gather_kernel i (Memref.whole main_v126) (Memref.isWhole_whole _) (Memref.whole main_v109) (Memref.isWhole_whole _) M3 h3 M4 h4
          (Memref.whole cc20_scratch0) (Memref.isWhole_whole _) cc20_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 236).1 $$ Hx
  icases Hx' with ⟨Hxr, Hx0, Hx1, Hx2, Hx3, Hx4, Hx5, Hx6, Hx7⟩
  sl_unfold [cc20__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 236).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k20_pay1 gatherBlk
    show FloatOps.mulf _ _ = FloatOps.mulf _ _
    congr 1
    · unfold gatherRun20.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun20.sl.dma8 gatherRun20.sl.dma8_1 gatherRun20.sl.dma8_2 gatherRun20.sl.dma8_3 gatherRun20.sl.dma8_4 gatherRun20.sl.dma8_5
        gatherRun20.sl.dma8_6 gatherRun20.sl.dma8_7 gatherRun20.sl.r gatherRun20.sl.r_1 gatherRun20.sl.r_2 gatherRun20.sl.r_3 gatherRun20.sl.r_4
        gatherRun20.sl.r_5 gatherRun20.sl.r_6 gatherRun20.sl.r_7
      refine canonRows8 _ _ _ _ _ _ _ _ _ _ _ _ _ _ _ _ (fun r d => x (embIdx (rowOf (tblWord20 c i tbl r)) d)) ?_ ?_ ?_ ?_ ?_ ?_ ?_ ?_ y
      · exact fun z => rowRead20 c _ (tblWord20 c i tbl 0) rfl rfl _ _ x z
      · exact fun z => rowRead20 c _ (tblWord20 c i tbl 1) rfl rfl _ _ x z
      · exact fun z => rowRead20 c _ (tblWord20 c i tbl 2) rfl rfl _ _ x z
      · exact fun z => rowRead20 c _ (tblWord20 c i tbl 3) rfl rfl _ _ x z
      · exact fun z => rowRead20 c _ (tblWord20 c i tbl 4) rfl rfl _ _ x z
      · exact fun z => rowRead20 c _ (tblWord20 c i tbl 5) rfl rfl _ _ x z
      · exact fun z => rowRead20 c _ (tblWord20 c i tbl 6) rfl rfl _ _ x z
      · exact fun z => rowRead20 c _ (tblWord20 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk20.lean ====
/-
  Gather region 20 (custom_call 20): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat20
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word20 (i : grid20.Coords) (j : Fin 8) : k20_off1 i (BitVec.ofNat 32 j.val) 0 = (i 0).val * 8 + j.val := by
  have hi : (i 0).val < 16384 := (i 0).isLt
  have hj : j.val < 8 := j.isLt
  unfold k20_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word20 (i : grid20.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord20_eq (c : Dev nD) (i : grid20.Coords) (tbl : Bf (F := F) c (Memref.whole main_v126)) (j : Fin 8)
    (e : Fin 131072) (he : e.val = (i 0).val * 8 + j.val) : tblWord20 c i tbl j = tbl (tblIdx e) := by
  unfold tblWord20
  show tbl _ = tbl _
  refine congrArg tbl ?_
  funext a; apply Fin.ext
  match a with
  | ⟨0, _⟩ =>
    show k20_off1 i (BitVec.ofNat 32 j.val) 0 + 1 * 0 = e.val
    rw [off_word20, he]; omega

/-- Row `j` of the value window's block at point `t` is the value array's row `8 t + j`. -/
theorem valBlk20_eq (a0 : (pcfg20 (F := F)).Adm) (Vin : Dev nD → Valuation τ sig (Elt F)) (c : Dev nD) (t : Fin (cfg20 a0).N)
    (j : Fin 8) (e : Fin 131072) (he : e.val = ((grid20.coords t) 0).val * 8 + j.val) :
    iblk20 a0 Vin c 0 t (colIdx j) = Vr Vin c main_v127 (valIdx e) := by
  unfold iblk20
  show Vr Vin c main_v127 _ = Vr Vin c main_v127 _
  refine congrArg (Vr Vin c main_v127) ?_
  funext a; apply Fin.ext
  match a with
  | ⟨0, _⟩ =>
    show (BitVec.ofNat 32 ((grid20.coords t) 0).val).toNat * 8 + 1 * j.val = e.val
    rw [coord_word20, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk20 (a0 : (pcfg20 (F := F)).Adm) (Vin : Dev nD → Valuation τ sig (Elt F)) (c : Dev nD) (t : Fin (cfg20 a0).N) :
    gatherBlk (Vr Vin c main_v109) (tblWord20 c (grid20.coords t) (a0.1 0)) (iblk20 a0 Vin c 0 t)
      = (((cfg20 a0).win 1).blk t).view.read (Elt F) (gout20 a0 Vin c) := by
  funext y
  show gatherBlk _ _ _ y = gout20 a0 Vin c ((((cfg20 a0).win 1).blk t).view.emb y)
  unfold gatherBlk gout20 gatherArr
  have e0 : ((((cfg20 a0).win 1).blk t).view.emb y (0 : Fin 2)).val = ((grid20.coords t) 0).val * 8 + (y 0).val := by
    show (BitVec.ofNat 32 ((grid20.coords t) 0).val).toNat * 8 + 1 * (y 0).val = _
    rw [coord_word20]; omega
  have e1 : (((cfg20 a0).win 1).blk t).view.emb y (1 : Fin 2) = y 1 := Fin.ext (by
    show (0#32 : BitVec 32).toNat * 128 + 1 * (y 1).val = (y 1).val
    show 0 * 128 + 1 * (y 1).val = (y 1).val
    omega)
  rw [tblWord20_eq c (grid20.coords t) (a0.1 0) (y 0) _ e0, valBlk20_eq a0 Vin c t (y 0) _ e0, e1]

end Cert.KernelIdeal.Hand

end
-- ==== Proof.KI.GatherRegion20.lean ====
/-
  Gather region 20 (custom_call 20): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody20
import proofs.«414509_j14181982011419_2_alg».proof.Proof.KI.GatherBlk20
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk20 (a0 : (pcfg20 (F := F)).Adm) : Prop := ∀ e : S131072.Idx, (a0.1 0 e).toNat < 100000

/-! ## The grid and the result window's blocks -/

/-- On the one-axis grid a point's coordinate is its number. -/
theorem regCoords20 (t : Fin grid20.N) : (grid20.coords t 0).val = t.val := by
  have ht : t.val < 16384 := N_20 ▸ t.isLt
  show t.val / grid20.stride 0 % grid20.bound 0 = t.val
  rw [show grid20.stride 0 = 1 from by decide, show grid20.bound 0 = 16384 from rfl, Nat.div_one, Nat.mod_eq_of_lt ht]

/-- A point's number as the 32-bit word the index maps compute with. -/
theorem regWord20 (t : Fin grid20.N) : (BitVec.ofNat 32 (grid20.coords t 0).val).toNat = t.val := by
  have ht : t.val < 16384 := N_20 ▸ t.isLt
  rw [BitVec.toNat_ofNat, regCoords20]; omega

/-- The result window's block at point `t` is block `t` along the rows, at zero along the lanes. -/
theorem regOutIndex20 (a0 : (pcfg20 (F := F)).Adm) (t : Fin (cfg20 a0).N) : ((cfg20 a0).win 1).index t = ![t.val, 0] := by
  show cc20_transform_2 (grid20.coords t) = _
  unfold cc20_transform_2
  funext a; fin_cases a
  · exact regWord20 t
  · rfl

/-- The result window is written back at every point: consecutive points have different blocks. -/
theorem regOutFlush20 (a0 : (pcfg20 (F := F)).Adm) (t : Fin (cfg20 a0).N) : ((cfg20 a0).win 1).flush t = true := by
  have htN : t.val < 16384 := N_20 ▸ t.isLt
  rw [Pipeline.Window.flush_out _ rfl]
  by_cases h : t.val + 1 = 16384
  · exact Or.inl (show t.val + 1 = grid20.N by rw [N_20]; exact h)
  · have hlt : t.val + 1 < grid20.N := by rw [N_20]; omega
    refine Or.inr ⟨hlt, fun e => ?_⟩
    have e' : (![t.val + 1, 0] : Fin 2 → ℕ) = ![t.val, 0] := (regOutIndex20 a0 ⟨t.val + 1, hlt⟩).symm.trans (e.trans (regOutIndex20 a0 t))
    have e0 := congrFun e' 0
    simp at e0

/-- The index table, held as the pipeline's one prefetched table. -/
theorem prefHeldEq20 (a0 : (pcfg20 (F := F)).Adm) (c : Dev nD) :
    (Pipeline.prefHeld (Ix := Unit) (Name := ℕ) (U := UU nD τ) (Lvl := ℕ) pre20 c (fun _ => fullShare) a0.1 : sProp (MM F))
      = pt c (Memref.whole main_v126) (a0.1 0) := by
  unfold Pipeline.prefHeld
  rw [show (Finset.univ : Finset (Fin pre20.K)) = {0} from rfl, BI.bigSep_singleton]
  rfl

/-- The value window's staging buffer holds its block at every point. -/
theorem beforeVal20 (a0 : (pcfg20 (F := F)).Adm) (Vin : Dev nD → Valuation τ sig (Elt F)) (c : Dev nD) (t : Fin (cfg20 a0).N) (d) :
    (dat20 a0 Vin c).before 0 t d = iblk20 a0 Vin c 0 t :=
  ((dat20 a0 Vin c).before_in_eq_fetched 0 rfl (fun _ => rfl) (fun _ _ _ => rfl)
    (fun t => by rw [after20_0]; unfold Dat.blockOf iblk20; rw [A_eq20]; try rfl) t d).trans
    (by unfold Dat.fetched Dat.blockOf iblk20; rw [A_eq20]; try rfl)

/-! ## The kernel's checks, from the table's range -/

/-- Each of the point's eight words is a word of the table, so a row number. -/
theorem tblWordLt20 (a0 : (pcfg20 (F := F)).Adm) (hok : GatherOk20 a0) (c : Dev nD) (i : grid20.Coords) (j : Fin 8) :
    (tblWord20 c i (a0.1 0) j).toNat < 100000 := by
  unfold tblWord20
  exact hok _

/-- So the kernel's eight checks hold at every point. -/
theorem gatherChk20 (a0 : (pcfg20 (F := F)).Adm) (hok : GatherOk20 a0) (c : Dev nD) (i : grid20.Coords) : GatherChk20 c i (a0.1 0) :=
  ⟨⟨chkRow _ (tblWordLt20 a0 hok c i 0), chkRow _ (tblWordLt20 a0 hok c i 0)⟩,
   ⟨chkRow _ (tblWordLt20 a0 hok c i 1), chkRow _ (tblWordLt20 a0 hok c i 1)⟩,
   ⟨chkRow _ (tblWordLt20 a0 hok c i 2), chkRow _ (tblWordLt20 a0 hok c i 2)⟩,
   ⟨chkRow _ (tblWordLt20 a0 hok c i 3), chkRow _ (tblWordLt20 a0 hok c i 3)⟩,
   ⟨chkRow _ (tblWordLt20 a0 hok c i 4), chkRow _ (tblWordLt20 a0 hok c i 4)⟩,
   ⟨chkRow _ (tblWordLt20 a0 hok c i 5), chkRow _ (tblWordLt20 a0 hok c i 5)⟩,
   ⟨chkRow _ (tblWordLt20 a0 hok c i 6), chkRow _ (tblWordLt20 a0 hok c i 6)⟩,
   chkRow _ (tblWordLt20 a0 hok c i 7)⟩

/-! ## The body obligation, at a generic point -/

/-- What the body is called with at point `t`: the invariant, the core's dues, each window's current staging memref at
    what the pipeline left there, -/
def bodyPre20 (a0 : (pcfg20 (F := F)).Adm) (Vin : Dev nD → Valuation τ sig (Elt F)) (c : Dev nD) (t : Fin (cfg20 a0).N) : sProp (MM F) :=
  iprop((dat20 a0 Vin c).Φ t.castSucc ∗ (dat20 a0 Vin c).owesAt () t.castSucc
    ∗ (∃ d, owns (c : Thread nD τ) (((cfg20 a0).win 0).stage ((cfg20 a0).slots t 0)) fullShare ((dat20 a0 Vin c).before 0 t d))
    ∗ (∃ d, owns (c : Thread nD τ) (((cfg20 a0).win 1).stage ((cfg20 a0).slots t 1)) fullShare ((dat20 a0 Vin c).before 1 t d)))

/-- and what it returns. -/
def bodyPost20 (a0 : (pcfg20 (F := F)).Adm) (Vin : Dev nD → Valuation τ sig (Elt F)) (c : Dev nD) (t : Fin (cfg20 a0).N) : sProp (MM F) :=
  iprop((dat20 a0 Vin c).Φ t.succ ∗ (dat20 a0 Vin c).owesAt () t.succ
    ∗ owns (c : Thread nD τ) (((cfg20 a0).win 0).stage ((cfg20 a0).slots t 0)) fullShare ((dat20 a0 Vin c).after 0 t)
    ∗ owns (c : Thread nD τ) (((cfg20 a0).win 1).stage ((cfg20 a0).slots t 1)) fullShare ((dat20 a0 Vin c).after 1 t))

/-- The body at any point: the invariant opened into the embedding array, the semaphores, the table and the scratch;
    the value window's memref at its block; the checks from the table's range; so the kernel's run applies, and what it
    leaves in the result window's memref is the point's block of the gathered array. -/
theorem sound_body20 (a0 : (pcfg20 (F := F)).Adm) (hok : GatherOk20 a0) (Vin : Dev nD → Valuation τ sig (Elt F)) (c : Dev nD) (t : Fin (cfg20 a0).N) :
    bodyPre20 a0 Vin c t ⊢ wp frame (wpE (defs₀ (F := F)) 𝒱₀ c none) Set.univ
      (defs₀ .tc (cfg20 a0).body ((cfg20 a0).bodyArgs t ((cfg20 a0).slots t))) (fun _ => bodyPost20 a0 Vin c t) := by
  unfold bodyPre20 bodyPost20
  simp only [beforeVal20]
  rw [Phi_eq20, Phi_eq20, after20_0, after20_1, ← gatherBlk_blk20]
  unfold Phi20 Pipeline.Dat.owesAt Pipeline.owesWithin
  rw [owed_eq20, owed_eq20, prefHeldEq20, scopedRest20_split]
  iintro ⟨⟨Hx, Hos, Ht, ⟨%fs, Hs⟩, Hsb⟩, ⟨%W, %hW, HO⟩, ⟨%d0, H0⟩, ⟨%d1, H1⟩⟩
  iapply (gatherRun20 c (grid20.coords t) _ _ _ _ (a0.1 0) (Vr Vin c main_v109) (iblk20 a0 Vin c 0 t) (gatherChk20 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation20 (a0 : (pcfg20 (F := F)).Adm) (hok : GatherOk20 a0) (Vin : Dev nD → Valuation τ sig (Elt F)) (c : Dev nD) :
    BodyObligation (dat20 a0 Vin c) (defs₀ (F := F)) 𝒱₀ () Set.univ := fun t => by
  rw [bigSep_W20, bigSep_W20]
  exact sound_body20 a0 hok Vin c t

/-! ## From the blocks to the arrays -/

/-- The value array after the region: as entered. -/
theorem arrAt20_in (a0 : (pcfg20 (F := F)).Adm) (Vin : Dev nD → Valuation τ sig (Elt F)) (c : Dev nD) :
    (dat20 a0 Vin c).arrAt 0 (cfg20 a0).N = Vr Vin c main_v127 :=
  ((dat20 a0 Vin c).arrAt_in 0 rfl _).trans (A_eq20 a0 Vin c 0)

/-- Every index of the result array is in some point's block: row `e`, lane `d` is element `(e % 8, d)` of the block
    of point `e / 8`. -/
theorem regOutCover20 (a0 : (pcfg20 (F := F)).Adm) (i : S131072x128.Idx) :
    ∃ t : Fin (cfg20 a0).N, ((cfg20 a0).win 1).flush t = true ∧ i ∈ (((cfg20 a0).win 1).blk t).view.set := by
  have hi0 : (i 0).val < 131072 := (i 0).isLt
  have hi1 : (i 1).val < 128 := (i 1).isLt
  have hN : (i 0).val / 8 < grid20.N := by rw [N_20]; omega
  obtain ⟨t, ht⟩ : ∃ t : Fin (cfg20 a0).N, t.val = (i 0).val / 8 := ⟨⟨_, hN⟩, rfl⟩
  have hx : (((cfg20 a0).win 1).blk t).view.emb (ValueIdx.ix2 ⟨(i 0).val % 8, Nat.mod_lt _ (by decide)⟩ (i 1)) = i := by
    funext a; apply Fin.ext
    have e0 : ((cfg20 a0).win 1).index t (0 : Fin 2) = t.val := congrFun (regOutIndex20 a0 t) (0 : Fin 2)
    have e1 : ((cfg20 a0).win 1).index t (1 : Fin 2) = 0 := congrFun (regOutIndex20 a0 t) (1 : Fin 2)
    match a with
    | ⟨0, _⟩ => show ((cfg20 a0).win 1).index t (0 : Fin 2) * 8 + 1 * ((i 0).val % 8) = (i 0).val; omega
    | ⟨1, _⟩ => show ((cfg20 a0).win 1).index t (1 : Fin 2) * 128 + 1 * (i 1).val = (i 1).val; omega
  exact ⟨t, regOutFlush20 a0 t, hx ▸ (((cfg20 a0).win 1).blk t).view.emb_mem_set _⟩

/-- The result array after the region: the gathered and scaled rows, whole. -/
theorem arrAt20_out (a0 : (pcfg20 (F := F)).Adm) (Vin : Dev nD → Valuation τ sig (Elt F)) (c : Dev nD) :
    (dat20 a0 Vin c).arrAt 1 (cfg20 a0).N = gout20 a0 Vin c :=
  (dat20 a0 Vin c).arrAt_eq_of_cover 1 (gout20 a0 Vin c)
    (fun t _ => by
      show ((cfg20 a0).win 1).cut ((cfg20 a0).grid.coords t) ((dat20 a0 Vin c).after 1 t) = _
      rw [after20_1])
    (regOutCover20 a0)

/-! ## The region as a segment of @main -/

/-- The ownership layout of the kernel's eight semaphores. -/
theorem ownSemFacts20 : Pipeline.OwnSemFacts spec20 osem20 := by decide

/-- The kernel's own cells at zero, listed. -/
theorem ownSemsListed20 (c : Dev nD) :
    (Pipeline.ownSems0 (Ix := Unit) (Name := ℕ) (U := UU nD τ) (Lvl := ℕ) (Val := Elt F) (τ := τ) osem20 c : sProp (MM F)) = sems20 c :=
  Pipeline.ownSems0_eq_of_list c osem20 [0, 1, 2, 3, 4, 5, 6, 7] (by decide) (by decide)

/-- The unscoped buffers that are no window's array, no table, and not the embedding array. -/
abbrev restRefs20 : Finset (Ref sig .tc) :=
  (((Finset.univ.filter fun b : Ref sig .tc => ¬ b.isScoped) \ Finset.univ.image (Pipeline.arrRef spec20)) \ Finset.univ.image pre20.ref) \ {main_v109}

/-- Those buffers, each whole at its contents under `Vin`: what bypasses the region. -/
def Zrest20 (Vin : Dev nD → Valuation τ sig (Elt F)) (c : Dev nD) : sProp (MM F) :=
  bigSep restRefs20 fun b => ((c : Thread nD τ).loc b) ↦{fullShare} Vr Vin c b

/-- The embedding array is an unscoped buffer that is no window's array and no table. -/
theorem embArrMem20 : ({main_v109} : Finset (Ref sig .tc)) ⊆
    ((Finset.univ.filter fun b : Ref sig .tc => ¬ b.isScoped) \ Finset.univ.image (Pipeline.arrRef spec20)) \ Finset.univ.image pre20.ref := by
  decide

/-- The unscoped buffers that are no window's array: the index table, the embedding array, and the rest. -/
theorem unscopedRestOpen20 (Vin : Dev nD → Valuation τ sig (Elt F)) (c : Dev nD) :
    (Pipeline.unscopedRest (Ix := Unit) (Name := ℕ) (U := UU nD τ) (Lvl := ℕ) spec20 c (Vr Vin c) : sProp (MM F))
      = iprop(Pipeline.prefHeld pre20 c (fun _ => fullShare) (fun k => Vr Vin c (pre20.ref k))
          ∗ pt c (Memref.whole main_v109) (Vr Vin c main_v109) ∗ Zrest20 Vin c) := by
  rw [Pipeline.unscopedRest_split preFacts20 c (Vr Vin c)]
  unfold Pipeline.unscopedRestP Zrest20
  rw [BI.bigSep_sdiff_split embArrMem20, BI.bigSep_singleton]
  rfl

/-- The buffer contents when the region is left: the result array at the gathered rows, every other buffer as entered. -/
abbrev Vout20 (a0 : (pcfg20 (F := F)).Adm) (Vin : Dev nD → Valuation τ sig (Elt F)) (c : Dev nD) : Valuation τ sig (Elt F) :=
  Function.update (Vin c) main_v128 (gout20 a0 Vin c)

/-- At the exit each of the region's arrays holds what the pipeline leaves; -/
theorem hF20 (a0 : (pcfg20 (F := F)).Adm) (Vin : Dev nD → Valuation τ sig (Elt F)) (c : Dev nD) (w : Fin (cfg20 a0).W) :
    (dat20 a0 Vin c).arrAt w (cfg20 a0).N = Vr (Vout20 a0 Vin) c (Pipeline.arrRef spec20 w) := by
  match w with
  | ⟨0, _⟩ =>
    show (dat20 a0 Vin c).arrAt 0 (cfg20 a0).N = Vr (Vout20 a0 Vin) c (Pipeline.arrRef spec20 0)
    rw [arrAt20_in]
    exact (Function.update_of_ne (StableHlo.devRef_ne_of_ne (by decide) : (Proc.devRef .tc main_v127 : DevRef τ sig) ≠ Proc.devRef .tc main_v128) _ _).symm
  | ⟨1, _⟩ =>
    show (dat20 a0 Vin c).arrAt 1 (cfg20 a0).N = Vr (Vout20 a0 Vin) c (Pipeline.arrRef spec20 1)
    rw [arrAt20_out]
    exact (Function.update_self (Proc.devRef .tc main_v128 : DevRef τ sig) _ (Vin c)).symm

/-- and every other buffer what it held at entry. -/
theorem hrest20 (a0 : (pcfg20 (F := F)).Adm) (Vin : Dev nD → Valuation τ sig (Elt F)) (c : Dev nD) :
    ∀ b : Ref sig .tc, b ∉ Finset.univ.image (Pipeline.arrRef spec20) → Vr (Vout20 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat20` at the entry valuation `Vin`
    (`hd`), the index table's contents under `Vin` being the pinned ones (`htbl`) and row numbers (`hok`). -/
def reg20 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk20 (F := F) (a (20 : Fin 34)))
    (hd : ∀ c, pdats (20 : Fin 34) c = dat20 (a (20 : Fin 34)) Vin c) (htbl : ∀ c, (a (20 : Fin 34)).1 = fun k => Vr Vin c (pre20.ref k)) :
    Pipeline.RegionSeg (pcfgs (F := F)) a pdats () defs₀ 𝒱₀ L lv (20 : Fin 34) where
  win := (launch20 (F := F)).win.to₀
  block_pos := (launch20 (F := F)).block_pos
  stage_whole := (launch20 (F := F)).stage_whole
  K := Fin 8
  osem := osem20
  ho := ownSemFacts20
  hbody c := by rw [hd c]; exact (body_obligation20 (a (20 : Fin 34)) hok Vin c).loose
  hwaits := Pipeline.hwaits_of_owed_zero _ _ _ _ L lv (20 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v128 (gout20 (a (20 : Fin 34)) Vin c)) ∗ Rest c)
  X c := iprop(pt c (Memref.whole main_v109) (Vr Vin c main_v109) ∗ sems20 c)
  Y c := iprop(pt c (Memref.whole main_v109) (Vr Vin c main_v109)
    ∗ Pipeline.prefHeld (Ix := Unit) (Name := ℕ) (U := UU nD τ) (Lvl := ℕ) pre20 c (fun _ => fullShare) (a (20 : Fin 34)).1)
  Z c := Zrest20 Vin c
  hentry c := by
    rw [ownSemsListed20]
    have hsplit := Pipeline.arrays_of_unscopedBufs (p := (20 : Fin 34)) (pcfgs (F := F)) a pdats (launch20 (F := F)).win (launch20 (F := F)).arr_whole c
      ((pdats (20 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen20 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (20 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq20]; unfold Phi20
    iintro ⟨⟨Hx, Hos⟩, Ht, Hr⟩
    isplitl [Hx]; · iexact Hx
    isplitl [Hos]; · iexact Hos
    isplitl [Ht]; · iexact Ht
    iexact Hr
  hout c := by
    rw [ownSemsListed20, hd c, Phi_eq20]; unfold Phi20
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (20 : Fin 34)) (pcfgs (F := F)) a (Ix := Unit) (Name := ℕ) (U := UU nD τ) (Lvl := ℕ)
      (launch20 (F := F)).win (launch20 (F := F)).arr_whole c pdats ((pdats (20 : Fin 34) c).share_full fun _ => by rw [hd c]; rfl)
      (Vr Vin c) (Vr (Vout20 (a (20 : Fin 34)) Vin) c) ((pdats (20 : Fin 34) c).arrAt · (cfg20 (a (20 : Fin 34))).N)
      (fun w => by rw [hd c]; exact hF20 (a (20 : Fin 34)) Vin c w) (hrest20 (a (20 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen20 Vin c).symm)
      isplitl [Ht]; · rw [← htbl c]; iexact Ht
      isplitl [Hx]; · iexact Hx
      iexact Hz
    unfold Pipeline.Dat.owesAt Pipeline.owesWithin
    rw [show (pdats (20 : Fin 34) c).owed (Fin.last _) = 0 from by rw [hd c]; rfl]
    icases HO with ⟨%W, -, HO⟩; iexists W; iexact HO

end Cert.KernelIdeal.Hand

end
-- ==== Proof.KI.GatherDat21.lean ====
/-
  Gather region 21 (custom_call 21): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem21 : Fin 8 → SemLoc sig := fun | 0 => .dma 248 | 1 => .dma 249 | 2 => .dma 250 | 3 => .dma 251 | 4 => .dma 252 | 5 => .dma 253 | 6 => .dma 254 | 7 => .dma 255

/-- The eight counters at zero, as the run finds them and hands them back. -/
abbrev sems21 (c : Dev nD) : sProp (MM F) :=
  iprop(semVal ((c : Thread nD τ), osem21 0) 0 ∗ semVal ((c : Thread nD τ), osem21 1) 0 ∗ semVal ((c : Thread nD τ), osem21 2) 0
    ∗ semVal ((c : Thread nD τ), osem21 3) 0 ∗ semVal ((c : Thread nD τ), osem21 4) 0 ∗ semVal ((c : Thread nD τ), osem21 5) 0
    ∗ semVal ((c : Thread nD τ), osem21 6) 0 ∗ semVal ((c : Thread nD τ), osem21 7) 0)

/-- Word `j` of the eight the index table holds for point `i`, as the kernel's scalar load reads it. -/
def tblWord21 (c : Dev nD) (i : grid21.Coords) (tbl : Bf (F := F) c (Memref.whole main_v143)) (j : Fin 8) : BitVec 32 :=
  (Memref.whole main_v143).view.readAt (Elt F) (Rect.unit (s := S131072) (k21_off1 i (BitVec.ofNat 32 j.val)) S1.size (k21_off1_inb i j)).toLoadRect tbl
    (Shape.Idx.first (s := S1) (numel1_S1.symm ▸ Nat.one_pos))

/-- Window `w`'s block at point `t`, read off its array at the region's entry. -/
def iblk21 (a0 : (pcfg21 (F := F)).Adm) (Vin : Dev nD → Valuation τ sig (Elt F)) (c : Dev nD) (w : Fin (cfg21 a0).W) (t : Fin (cfg21 a0).N) :
    (((cfg21 a0).win w).xblock ((cfg21 a0).grid.coords t)).Idx → Elt F ((cfg21 a0).win w).elt :=
  (((cfg21 a0).win w).blk t).view.read (Elt F) (Vr Vin c (Pipeline.arrRef spec21 w))

/-- The result array the region leaves: the gathered and scaled rows of the embedding array, whole. -/
def gout21 (a0 : (pcfg21 (F := F)).Adm) (Vin : Dev nD → Valuation τ sig (Elt F)) (c : Dev nD) : Buf (Elt F) ((c : Thread nD τ).loc main_v145) :=
  gatherArr (Vr Vin c main_v109) (a0.1 0) (Vr Vin c main_v144)

/-- The invariant between points: the embedding array as entered, the kernel's semaphores at zero, the index table, the
    scoped buffers no window stages (the kernel's scratch among them). -/
def Phi21 (a0 : (pcfg21 (F := F)).Adm) (Vin : Dev nD → Valuation τ sig (Elt F)) (c : Dev nD) : sProp (MM F) :=
  iprop(pt c (Memref.whole main_v109) (Vr Vin c main_v109) ∗ sems21 c
    ∗ Pipeline.prefHeld (Ix := Unit) (Name := ℕ) (U := UU nD τ) (Lvl := ℕ) pre21 c (fun _ => fullShare) a0.1
    ∗ Pipeline.scopedRest (Ix := Unit) (Name := ℕ) (U := UU nD τ) (Lvl := ℕ) (Val := Elt F) spec21 c)

/-- The proof data on core `c`. -/
def dat21 (a0 : (pcfg21 (F := F)).Adm) (Vin : Dev nD → Valuation τ sig (Elt F)) (c : Dev nD) :
    Pipeline.Dat τ (Elt F) Unit ℕ (UU nD τ) ℕ ((pcfg21 (F := F)).at a0) c where
  A w := Vr Vin c (Pipeline.arrRef spec21 w)
  after w t := match w with
    | ⟨0, _⟩ => iblk21 a0 Vin c 0 t
    | ⟨1, _⟩ => (((cfg21 a0).win 1).blk t).view.read (Elt F) (gout21 a0 Vin c)
  Φ _ := Phi21 a0 Vin c
  q _ := fullShare
  owed _ := 0

theorem A_eq21 (a0 : (pcfg21 (F := F)).Adm) (Vin : Dev nD → Valuation τ sig (Elt F)) (c : Dev nD) (w : Fin (cfg21 a0).W) :
    (dat21 a0 Vin c).A w = Vr Vin c (Pipeline.arrRef spec21 w) := by dsimp only [dat21]
theorem after21_0 (a0 : (pcfg21 (F := F)).Adm) (Vin : Dev nD → Valuation τ sig (Elt F)) (c : Dev nD) (t : Fin (cfg21 a0).N) :
    (dat21 a0 Vin c).after 0 t = iblk21 a0 Vin c 0 t := by dsimp only [dat21]; rfl
theorem after21_1 (a0 : (pcfg21 (F := F)).Adm) (Vin : Dev nD → Valuation τ sig (Elt F)) (c : Dev nD) (t : Fin (cfg21 a0).N) :
    (dat21 a0 Vin c).after 1 t = (((cfg21 a0).win 1).blk t).view.read (Elt F) (gout21 a0 Vin c) := by dsimp only [dat21]; rfl
theorem Phi_eq21 (a0 : (pcfg21 (F := F)).Adm) (Vin : Dev nD → Valuation τ sig (Elt F)) (c : Dev nD) (t : Fin ((cfg21 a0).N + 1)) :
    (dat21 a0 Vin c).Φ t = Phi21 a0 Vin c := rfl
theorem owed_eq21 (a0 : (pcfg21 (F := F)).Adm) (Vin : Dev nD → Valuation τ sig (Elt F)) (c : Dev nD) (t : Fin ((cfg21 a0).N + 1)) :
    (dat21 a0 Vin c).owed t = 0 := rfl
theorem q_eq21 (a0 : (pcfg21 (F := F)).Adm) (Vin : Dev nD → Valuation τ sig (Elt F)) (c : Dev nD) (w : Fin (cfg21 a0).W) :
    (dat21 a0 Vin c).q w = fullShare := rfl

/-- The pinned family's configuration at region 21 is this one. -/
example (a : (p : Fin 34) → (pcfgs (F := F) p).Adm) : Pipeline.pin (pcfgs (F := F)) a (21 : Fin 34) = (pcfg21 (F := F)).at (a (21 : Fin 34)) := rfl

end Cert.KernelIdeal.Hand

end
-- ==== Proof.KI.GatherBody21.lean ====
/-
  Gather region 21 (custom_call 21): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat21
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk21 (c : Dev nD) (i : grid21.Coords) (tbl : Bf (F := F) c (Memref.whole main_v143)) : Prop where
  h1 : k21_chk1 (tblWord21 c i tbl 0)
  h2 : k21_chk2 (tblWord21 c i tbl 1)
  h3 : k21_chk3 (tblWord21 c i tbl 2)
  h4 : k21_chk4 (tblWord21 c i tbl 3)
  h5 : k21_chk5 (tblWord21 c i tbl 4)
  h6 : k21_chk6 (tblWord21 c i tbl 5)
  h7 : k21_chk7 (tblWord21 c i tbl 6)
  h8 : k21_chk8 (tblWord21 c i tbl 7)

/-- A one-row slice of the embedding array at the row a word names, read at lane `z 1`: the array's element there. -/
theorem rowRead21 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun21 (c : Dev nD) (i : grid21.Coords)
    (M3 : Memref sig .tc .vmem S8x1 .f32) (h3 : M3.IsWhole) (M4 : Memref sig .tc .vmem S8x128 .f32) (h4 : M4.IsWhole)
    (tbl : Bf (F := F) c (Memref.whole main_v143)) (x : Bf (F := F) c (Memref.whole main_v109))
    (vb : Vec F S8x1 .f32) (hchk : GatherChk21 c i tbl) (Q : PUnit → sProp (MM F)) :
    iprop(pt c (Memref.whole main_v143) tbl ∗ pt c (Memref.whole main_v109) x
      ∗ owns (c : Thread nD τ) M3 fullShare vb ∗ (∃ d, owns (c : Thread nD τ) M4 fullShare d)
      ∗ (∃ fs, pt c (Memref.whole cc21_scratch0) fs) ∗ sems21 c ∗ (∃ W, owes (c : Thread nD τ) (0 : CellTallies nD τ sig Unit) W)
      ∗ (iprop(pt c (Memref.whole main_v143) tbl ∗ pt c (Memref.whole main_v109) x
          ∗ owns (c : Thread nD τ) M3 fullShare vb ∗ owns (c : Thread nD τ) M4 fullShare (gatherBlk x (tblWord21 c i tbl) vb)
          ∗ (∃ fs, pt c (Memref.whole cc21_scratch0) fs) ∗ sems21 c ∗ (∃ W, owes (c : Thread nD τ) (0 : CellTallies nD τ sig Unit) W)) -∗ Q ⟨⟩))
    ⊢ wp frame (wpE (defs₀ (F := F)) 𝒱₀ c none) Set.univ
        (cc21__gather_kernel i (Memref.whole main_v143) (Memref.isWhole_whole _) (Memref.whole main_v109) (Memref.isWhole_whole _) M3 h3 M4 h4
          (Memref.whole cc21_scratch0) (Memref.isWhole_whole _) cc21_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 248).1 $$ Hx
  icases Hx' with ⟨Hxr, Hx0, Hx1, Hx2, Hx3, Hx4, Hx5, Hx6, Hx7⟩
  sl_unfold [cc21__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 248).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k21_pay1 gatherBlk
    show FloatOps.mulf _ _ = FloatOps.mulf _ _
    congr 1
    · unfold gatherRun21.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun21.sl.dma8 gatherRun21.sl.dma8_1 gatherRun21.sl.dma8_2 gatherRun21.sl.dma8_3 gatherRun21.sl.dma8_4 gatherRun21.sl.dma8_5
        gatherRun21.sl.dma8_6 gatherRun21.sl.dma8_7 gatherRun21.sl.r gatherRun21.sl.r_1 gatherRun21.sl.r_2 gatherRun21.sl.r_3 gatherRun21.sl.r_4
        gatherRun21.sl.r_5 gatherRun21.sl.r_6 gatherRun21.sl.r_7
      refine canonRows8 _ _ _ _ _ _ _ _ _ _ _ _ _ _ _ _ (fun r d => x (embIdx (rowOf (tblWord21 c i tbl r)) d)) ?_ ?_ ?_ ?_ ?_ ?_ ?_ ?_ y
      · exact fun z => rowRead21 c _ (tblWord21 c i tbl 0) rfl rfl _ _ x z
      · exact fun z => rowRead21 c _ (tblWord21 c i tbl 1) rfl rfl _ _ x z
      · exact fun z => rowRead21 c _ (tblWord21 c i tbl 2) rfl rfl _ _ x z
      · exact fun z => rowRead21 c _ (tblWord21 c i tbl 3) rfl rfl _ _ x z
      · exact fun z => rowRead21 c _ (tblWord21 c i tbl 4) rfl rfl _ _ x z
      · exact fun z => rowRead21 c _ (tblWord21 c i tbl 5) rfl rfl _ _ x z
      · exact fun z => rowRead21 c _ (tblWord21 c i tbl 6) rfl rfl _ _ x z
      · exact fun z => rowRead21 c _ (tblWord21 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk21.lean ====
/-
  Gather region 21 (custom_call 21): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat21
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word21 (i : grid21.Coords) (j : Fin 8) : k21_off1 i (BitVec.ofNat 32 j.val) 0 = (i 0).val * 8 + j.val := by
  have hi : (i 0).val < 16384 := (i 0).isLt
  have hj : j.val < 8 := j.isLt
  unfold k21_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word21 (i : grid21.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord21_eq (c : Dev nD) (i : grid21.Coords) (tbl : Bf (F := F) c (Memref.whole main_v143)) (j : Fin 8)
    (e : Fin 131072) (he : e.val = (i 0).val * 8 + j.val) : tblWord21 c i tbl j = tbl (tblIdx e) := by
  unfold tblWord21
  show tbl _ = tbl _
  refine congrArg tbl ?_
  funext a; apply Fin.ext
  match a with
  | ⟨0, _⟩ =>
    show k21_off1 i (BitVec.ofNat 32 j.val) 0 + 1 * 0 = e.val
    rw [off_word21, he]; omega

/-- Row `j` of the value window's block at point `t` is the value array's row `8 t + j`. -/
theorem valBlk21_eq (a0 : (pcfg21 (F := F)).Adm) (Vin : Dev nD → Valuation τ sig (Elt F)) (c : Dev nD) (t : Fin (cfg21 a0).N)
    (j : Fin 8) (e : Fin 131072) (he : e.val = ((grid21.coords t) 0).val * 8 + j.val) :
    iblk21 a0 Vin c 0 t (colIdx j) = Vr Vin c main_v144 (valIdx e) := by
  unfold iblk21
  show Vr Vin c main_v144 _ = Vr Vin c main_v144 _
  refine congrArg (Vr Vin c main_v144) ?_
  funext a; apply Fin.ext
  match a with
  | ⟨0, _⟩ =>
    show (BitVec.ofNat 32 ((grid21.coords t) 0).val).toNat * 8 + 1 * j.val = e.val
    rw [coord_word21, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk21 (a0 : (pcfg21 (F := F)).Adm) (Vin : Dev nD → Valuation τ sig (Elt F)) (c : Dev nD) (t : Fin (cfg21 a0).N) :
    gatherBlk (Vr Vin c main_v109) (tblWord21 c (grid21.coords t) (a0.1 0)) (iblk21 a0 Vin c 0 t)
      = (((cfg21 a0).win 1).blk t).view.read (Elt F) (gout21 a0 Vin c) := by
  funext y
  show gatherBlk _ _ _ y = gout21 a0 Vin c ((((cfg21 a0).win 1).blk t).view.emb y)
  unfold gatherBlk gout21 gatherArr
  have e0 : ((((cfg21 a0).win 1).blk t).view.emb y (0 : Fin 2)).val = ((grid21.coords t) 0).val * 8 + (y 0).val := by
    show (BitVec.ofNat 32 ((grid21.coords t) 0).val).toNat * 8 + 1 * (y 0).val = _
    rw [coord_word21]; omega
  have e1 : (((cfg21 a0).win 1).blk t).view.emb y (1 : Fin 2) = y 1 := Fin.ext (by
    show (0#32 : BitVec 32).toNat * 128 + 1 * (y 1).val = (y 1).val
    show 0 * 128 + 1 * (y 1).val = (y 1).val
    omega)
  rw [tblWord21_eq c (grid21.coords t) (a0.1 0) (y 0) _ e0, valBlk21_eq a0 Vin c t (y 0) _ e0, e1]

end Cert.KernelIdeal.Hand

end
-- ==== Proof.KI.GatherRegion21.lean ====
/-
  Gather region 21 (custom_call 21): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody21
import proofs.«414509_j14181982011419_2_alg».proof.Proof.KI.GatherBlk21
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk21 (a0 : (pcfg21 (F := F)).Adm) : Prop := ∀ e : S131072.Idx, (a0.1 0 e).toNat < 100000

/-! ## The grid and the result window's blocks -/

/-- On the one-axis grid a point's coordinate is its number. -/
theorem regCoords21 (t : Fin grid21.N) : (grid21.coords t 0).val = t.val := by
  have ht : t.val < 16384 := N_21 ▸ t.isLt
  show t.val / grid21.stride 0 % grid21.bound 0 = t.val
  rw [show grid21.stride 0 = 1 from by decide, show grid21.bound 0 = 16384 from rfl, Nat.div_one, Nat.mod_eq_of_lt ht]

/-- A point's number as the 32-bit word the index maps compute with. -/
theorem regWord21 (t : Fin grid21.N) : (BitVec.ofNat 32 (grid21.coords t 0).val).toNat = t.val := by
  have ht : t.val < 16384 := N_21 ▸ t.isLt
  rw [BitVec.toNat_ofNat, regCoords21]; omega

/-- The result window's block at point `t` is block `t` along the rows, at zero along the lanes. -/
theorem regOutIndex21 (a0 : (pcfg21 (F := F)).Adm) (t : Fin (cfg21 a0).N) : ((cfg21 a0).win 1).index t = ![t.val, 0] := by
  show cc21_transform_2 (grid21.coords t) = _
  unfold cc21_transform_2
  funext a; fin_cases a
  · exact regWord21 t
  · rfl

/-- The result window is written back at every point: consecutive points have different blocks. -/
theorem regOutFlush21 (a0 : (pcfg21 (F := F)).Adm) (t : Fin (cfg21 a0).N) : ((cfg21 a0).win 1).flush t = true := by
  have htN : t.val < 16384 := N_21 ▸ t.isLt
  rw [Pipeline.Window.flush_out _ rfl]
  by_cases h : t.val + 1 = 16384
  · exact Or.inl (show t.val + 1 = grid21.N by rw [N_21]; exact h)
  · have hlt : t.val + 1 < grid21.N := by rw [N_21]; omega
    refine Or.inr ⟨hlt, fun e => ?_⟩
    have e' : (![t.val + 1, 0] : Fin 2 → ℕ) = ![t.val, 0] := (regOutIndex21 a0 ⟨t.val + 1, hlt⟩).symm.trans (e.trans (regOutIndex21 a0 t))
    have e0 := congrFun e' 0
    simp at e0

/-- The index table, held as the pipeline's one prefetched table. -/
theorem prefHeldEq21 (a0 : (pcfg21 (F := F)).Adm) (c : Dev nD) :
    (Pipeline.prefHeld (Ix := Unit) (Name := ℕ) (U := UU nD τ) (Lvl := ℕ) pre21 c (fun _ => fullShare) a0.1 : sProp (MM F))
      = pt c (Memref.whole main_v143) (a0.1 0) := by
  unfold Pipeline.prefHeld
  rw [show (Finset.univ : Finset (Fin pre21.K)) = {0} from rfl, BI.bigSep_singleton]
  rfl

/-- The value window's staging buffer holds its block at every point. -/
theorem beforeVal21 (a0 : (pcfg21 (F := F)).Adm) (Vin : Dev nD → Valuation τ sig (Elt F)) (c : Dev nD) (t : Fin (cfg21 a0).N) (d) :
    (dat21 a0 Vin c).before 0 t d = iblk21 a0 Vin c 0 t :=
  ((dat21 a0 Vin c).before_in_eq_fetched 0 rfl (fun _ => rfl) (fun _ _ _ => rfl)
    (fun t => by rw [after21_0]; unfold Dat.blockOf iblk21; rw [A_eq21]; try rfl) t d).trans
    (by unfold Dat.fetched Dat.blockOf iblk21; rw [A_eq21]; try rfl)

/-! ## The kernel's checks, from the table's range -/

/-- Each of the point's eight words is a word of the table, so a row number. -/
theorem tblWordLt21 (a0 : (pcfg21 (F := F)).Adm) (hok : GatherOk21 a0) (c : Dev nD) (i : grid21.Coords) (j : Fin 8) :
    (tblWord21 c i (a0.1 0) j).toNat < 100000 := by
  unfold tblWord21
  exact hok _

/-- So the kernel's eight checks hold at every point. -/
theorem gatherChk21 (a0 : (pcfg21 (F := F)).Adm) (hok : GatherOk21 a0) (c : Dev nD) (i : grid21.Coords) : GatherChk21 c i (a0.1 0) :=
  ⟨⟨chkRow _ (tblWordLt21 a0 hok c i 0), chkRow _ (tblWordLt21 a0 hok c i 0)⟩,
   ⟨chkRow _ (tblWordLt21 a0 hok c i 1), chkRow _ (tblWordLt21 a0 hok c i 1)⟩,
   ⟨chkRow _ (tblWordLt21 a0 hok c i 2), chkRow _ (tblWordLt21 a0 hok c i 2)⟩,
   ⟨chkRow _ (tblWordLt21 a0 hok c i 3), chkRow _ (tblWordLt21 a0 hok c i 3)⟩,
   ⟨chkRow _ (tblWordLt21 a0 hok c i 4), chkRow _ (tblWordLt21 a0 hok c i 4)⟩,
   ⟨chkRow _ (tblWordLt21 a0 hok c i 5), chkRow _ (tblWordLt21 a0 hok c i 5)⟩,
   ⟨chkRow _ (tblWordLt21 a0 hok c i 6), chkRow _ (tblWordLt21 a0 hok c i 6)⟩,
   chkRow _ (tblWordLt21 a0 hok c i 7)⟩

/-! ## The body obligation, at a generic point -/

/-- What the body is called with at point `t`: the invariant, the core's dues, each window's current staging memref at
    what the pipeline left there, -/
def bodyPre21 (a0 : (pcfg21 (F := F)).Adm) (Vin : Dev nD → Valuation τ sig (Elt F)) (c : Dev nD) (t : Fin (cfg21 a0).N) : sProp (MM F) :=
  iprop((dat21 a0 Vin c).Φ t.castSucc ∗ (dat21 a0 Vin c).owesAt () t.castSucc
    ∗ (∃ d, owns (c : Thread nD τ) (((cfg21 a0).win 0).stage ((cfg21 a0).slots t 0)) fullShare ((dat21 a0 Vin c).before 0 t d))
    ∗ (∃ d, owns (c : Thread nD τ) (((cfg21 a0).win 1).stage ((cfg21 a0).slots t 1)) fullShare ((dat21 a0 Vin c).before 1 t d)))

/-- and what it returns. -/
def bodyPost21 (a0 : (pcfg21 (F := F)).Adm) (Vin : Dev nD → Valuation τ sig (Elt F)) (c : Dev nD) (t : Fin (cfg21 a0).N) : sProp (MM F) :=
  iprop((dat21 a0 Vin c).Φ t.succ ∗ (dat21 a0 Vin c).owesAt () t.succ
    ∗ owns (c : Thread nD τ) (((cfg21 a0).win 0).stage ((cfg21 a0).slots t 0)) fullShare ((dat21 a0 Vin c).after 0 t)
    ∗ owns (c : Thread nD τ) (((cfg21 a0).win 1).stage ((cfg21 a0).slots t 1)) fullShare ((dat21 a0 Vin c).after 1 t))

/-- The body at any point: the invariant opened into the embedding array, the semaphores, the table and the scratch;
    the value window's memref at its block; the checks from the table's range; so the kernel's run applies, and what it
    leaves in the result window's memref is the point's block of the gathered array. -/
theorem sound_body21 (a0 : (pcfg21 (F := F)).Adm) (hok : GatherOk21 a0) (Vin : Dev nD → Valuation τ sig (Elt F)) (c : Dev nD) (t : Fin (cfg21 a0).N) :
    bodyPre21 a0 Vin c t ⊢ wp frame (wpE (defs₀ (F := F)) 𝒱₀ c none) Set.univ
      (defs₀ .tc (cfg21 a0).body ((cfg21 a0).bodyArgs t ((cfg21 a0).slots t))) (fun _ => bodyPost21 a0 Vin c t) := by
  unfold bodyPre21 bodyPost21
  simp only [beforeVal21]
  rw [Phi_eq21, Phi_eq21, after21_0, after21_1, ← gatherBlk_blk21]
  unfold Phi21 Pipeline.Dat.owesAt Pipeline.owesWithin
  rw [owed_eq21, owed_eq21, prefHeldEq21, scopedRest21_split]
  iintro ⟨⟨Hx, Hos, Ht, ⟨%fs, Hs⟩, Hsb⟩, ⟨%W, %hW, HO⟩, ⟨%d0, H0⟩, ⟨%d1, H1⟩⟩
  iapply (gatherRun21 c (grid21.coords t) _ _ _ _ (a0.1 0) (Vr Vin c main_v109) (iblk21 a0 Vin c 0 t) (gatherChk21 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation21 (a0 : (pcfg21 (F := F)).Adm) (hok : GatherOk21 a0) (Vin : Dev nD → Valuation τ sig (Elt F)) (c : Dev nD) :
    BodyObligation (dat21 a0 Vin c) (defs₀ (F := F)) 𝒱₀ () Set.univ := fun t => by
  rw [bigSep_W21, bigSep_W21]
  exact sound_body21 a0 hok Vin c t

/-! ## From the blocks to the arrays -/

/-- The value array after the region: as entered. -/
theorem arrAt21_in (a0 : (pcfg21 (F := F)).Adm) (Vin : Dev nD → Valuation τ sig (Elt F)) (c : Dev nD) :
    (dat21 a0 Vin c).arrAt 0 (cfg21 a0).N = Vr Vin c main_v144 :=
  ((dat21 a0 Vin c).arrAt_in 0 rfl _).trans (A_eq21 a0 Vin c 0)

/-- Every index of the result array is in some point's block: row `e`, lane `d` is element `(e % 8, d)` of the block
    of point `e / 8`. -/
theorem regOutCover21 (a0 : (pcfg21 (F := F)).Adm) (i : S131072x128.Idx) :
    ∃ t : Fin (cfg21 a0).N, ((cfg21 a0).win 1).flush t = true ∧ i ∈ (((cfg21 a0).win 1).blk t).view.set := by
  have hi0 : (i 0).val < 131072 := (i 0).isLt
  have hi1 : (i 1).val < 128 := (i 1).isLt
  have hN : (i 0).val / 8 < grid21.N := by rw [N_21]; omega
  obtain ⟨t, ht⟩ : ∃ t : Fin (cfg21 a0).N, t.val = (i 0).val / 8 := ⟨⟨_, hN⟩, rfl⟩
  have hx : (((cfg21 a0).win 1).blk t).view.emb (ValueIdx.ix2 ⟨(i 0).val % 8, Nat.mod_lt _ (by decide)⟩ (i 1)) = i := by
    funext a; apply Fin.ext
    have e0 : ((cfg21 a0).win 1).index t (0 : Fin 2) = t.val := congrFun (regOutIndex21 a0 t) (0 : Fin 2)
    have e1 : ((cfg21 a0).win 1).index t (1 : Fin 2) = 0 := congrFun (regOutIndex21 a0 t) (1 : Fin 2)
    match a with
    | ⟨0, _⟩ => show ((cfg21 a0).win 1).index t (0 : Fin 2) * 8 + 1 * ((i 0).val % 8) = (i 0).val; omega
    | ⟨1, _⟩ => show ((cfg21 a0).win 1).index t (1 : Fin 2) * 128 + 1 * (i 1).val = (i 1).val; omega
  exact ⟨t, regOutFlush21 a0 t, hx ▸ (((cfg21 a0).win 1).blk t).view.emb_mem_set _⟩

/-- The result array after the region: the gathered and scaled rows, whole. -/
theorem arrAt21_out (a0 : (pcfg21 (F := F)).Adm) (Vin : Dev nD → Valuation τ sig (Elt F)) (c : Dev nD) :
    (dat21 a0 Vin c).arrAt 1 (cfg21 a0).N = gout21 a0 Vin c :=
  (dat21 a0 Vin c).arrAt_eq_of_cover 1 (gout21 a0 Vin c)
    (fun t _ => by
      show ((cfg21 a0).win 1).cut ((cfg21 a0).grid.coords t) ((dat21 a0 Vin c).after 1 t) = _
      rw [after21_1])
    (regOutCover21 a0)

/-! ## The region as a segment of @main -/

/-- The ownership layout of the kernel's eight semaphores. -/
theorem ownSemFacts21 : Pipeline.OwnSemFacts spec21 osem21 := by decide

/-- The kernel's own cells at zero, listed. -/
theorem ownSemsListed21 (c : Dev nD) :
    (Pipeline.ownSems0 (Ix := Unit) (Name := ℕ) (U := UU nD τ) (Lvl := ℕ) (Val := Elt F) (τ := τ) osem21 c : sProp (MM F)) = sems21 c :=
  Pipeline.ownSems0_eq_of_list c osem21 [0, 1, 2, 3, 4, 5, 6, 7] (by decide) (by decide)

/-- The unscoped buffers that are no window's array, no table, and not the embedding array. -/
abbrev restRefs21 : Finset (Ref sig .tc) :=
  (((Finset.univ.filter fun b : Ref sig .tc => ¬ b.isScoped) \ Finset.univ.image (Pipeline.arrRef spec21)) \ Finset.univ.image pre21.ref) \ {main_v109}

/-- Those buffers, each whole at its contents under `Vin`: what bypasses the region. -/
def Zrest21 (Vin : Dev nD → Valuation τ sig (Elt F)) (c : Dev nD) : sProp (MM F) :=
  bigSep restRefs21 fun b => ((c : Thread nD τ).loc b) ↦{fullShare} Vr Vin c b

/-- The embedding array is an unscoped buffer that is no window's array and no table. -/
theorem embArrMem21 : ({main_v109} : Finset (Ref sig .tc)) ⊆
    ((Finset.univ.filter fun b : Ref sig .tc => ¬ b.isScoped) \ Finset.univ.image (Pipeline.arrRef spec21)) \ Finset.univ.image pre21.ref := by
  decide

/-- The unscoped buffers that are no window's array: the index table, the embedding array, and the rest. -/
theorem unscopedRestOpen21 (Vin : Dev nD → Valuation τ sig (Elt F)) (c : Dev nD) :
    (Pipeline.unscopedRest (Ix := Unit) (Name := ℕ) (U := UU nD τ) (Lvl := ℕ) spec21 c (Vr Vin c) : sProp (MM F))
      = iprop(Pipeline.prefHeld pre21 c (fun _ => fullShare) (fun k => Vr Vin c (pre21.ref k))
          ∗ pt c (Memref.whole main_v109) (Vr Vin c main_v109) ∗ Zrest21 Vin c) := by
  rw [Pipeline.unscopedRest_split preFacts21 c (Vr Vin c)]
  unfold Pipeline.unscopedRestP Zrest21
  rw [BI.bigSep_sdiff_split embArrMem21, BI.bigSep_singleton]
  rfl

/-- The buffer contents when the region is left: the result array at the gathered rows, every other buffer as entered. -/
abbrev Vout21 (a0 : (pcfg21 (F := F)).Adm) (Vin : Dev nD → Valuation τ sig (Elt F)) (c : Dev nD) : Valuation τ sig (Elt F) :=
  Function.update (Vin c) main_v145 (gout21 a0 Vin c)

/-- At the exit each of the region's arrays holds what the pipeline leaves; -/
theorem hF21 (a0 : (pcfg21 (F := F)).Adm) (Vin : Dev nD → Valuation τ sig (Elt F)) (c : Dev nD) (w : Fin (cfg21 a0).W) :
    (dat21 a0 Vin c).arrAt w (cfg21 a0).N = Vr (Vout21 a0 Vin) c (Pipeline.arrRef spec21 w) := by
  match w with
  | ⟨0, _⟩ =>
    show (dat21 a0 Vin c).arrAt 0 (cfg21 a0).N = Vr (Vout21 a0 Vin) c (Pipeline.arrRef spec21 0)
    rw [arrAt21_in]
    exact (Function.update_of_ne (StableHlo.devRef_ne_of_ne (by decide) : (Proc.devRef .tc main_v144 : DevRef τ sig) ≠ Proc.devRef .tc main_v145) _ _).symm
  | ⟨1, _⟩ =>
    show (dat21 a0 Vin c).arrAt 1 (cfg21 a0).N = Vr (Vout21 a0 Vin) c (Pipeline.arrRef spec21 1)
    rw [arrAt21_out]
    exact (Function.update_self (Proc.devRef .tc main_v145 : DevRef τ sig) _ (Vin c)).symm

/-- and every other buffer what it held at entry. -/
theorem hrest21 (a0 : (pcfg21 (F := F)).Adm) (Vin : Dev nD → Valuation τ sig (Elt F)) (c : Dev nD) :
    ∀ b : Ref sig .tc, b ∉ Finset.univ.image (Pipeline.arrRef spec21) → Vr (Vout21 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat21` at the entry valuation `Vin`
    (`hd`), the index table's contents under `Vin` being the pinned ones (`htbl`) and row numbers (`hok`). -/
def reg21 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk21 (F := F) (a (21 : Fin 34)))
    (hd : ∀ c, pdats (21 : Fin 34) c = dat21 (a (21 : Fin 34)) Vin c) (htbl : ∀ c, (a (21 : Fin 34)).1 = fun k => Vr Vin c (pre21.ref k)) :
    Pipeline.RegionSeg (pcfgs (F := F)) a pdats () defs₀ 𝒱₀ L lv (21 : Fin 34) where
  win := (launch21 (F := F)).win.to₀
  block_pos := (launch21 (F := F)).block_pos
  stage_whole := (launch21 (F := F)).stage_whole
  K := Fin 8
  osem := osem21
  ho := ownSemFacts21
  hbody c := by rw [hd c]; exact (body_obligation21 (a (21 : Fin 34)) hok Vin c).loose
  hwaits := Pipeline.hwaits_of_owed_zero _ _ _ _ L lv (21 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v145 (gout21 (a (21 : Fin 34)) Vin c)) ∗ Rest c)
  X c := iprop(pt c (Memref.whole main_v109) (Vr Vin c main_v109) ∗ sems21 c)
  Y c := iprop(pt c (Memref.whole main_v109) (Vr Vin c main_v109)
    ∗ Pipeline.prefHeld (Ix := Unit) (Name := ℕ) (U := UU nD τ) (Lvl := ℕ) pre21 c (fun _ => fullShare) (a (21 : Fin 34)).1)
  Z c := Zrest21 Vin c
  hentry c := by
    rw [ownSemsListed21]
    have hsplit := Pipeline.arrays_of_unscopedBufs (p := (21 : Fin 34)) (pcfgs (F := F)) a pdats (launch21 (F := F)).win (launch21 (F := F)).arr_whole c
      ((pdats (21 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen21 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (21 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq21]; unfold Phi21
    iintro ⟨⟨Hx, Hos⟩, Ht, Hr⟩
    isplitl [Hx]; · iexact Hx
    isplitl [Hos]; · iexact Hos
    isplitl [Ht]; · iexact Ht
    iexact Hr
  hout c := by
    rw [ownSemsListed21, hd c, Phi_eq21]; unfold Phi21
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (21 : Fin 34)) (pcfgs (F := F)) a (Ix := Unit) (Name := ℕ) (U := UU nD τ) (Lvl := ℕ)
      (launch21 (F := F)).win (launch21 (F := F)).arr_whole c pdats ((pdats (21 : Fin 34) c).share_full fun _ => by rw [hd c]; rfl)
      (Vr Vin c) (Vr (Vout21 (a (21 : Fin 34)) Vin) c) ((pdats (21 : Fin 34) c).arrAt · (cfg21 (a (21 : Fin 34))).N)
      (fun w => by rw [hd c]; exact hF21 (a (21 : Fin 34)) Vin c w) (hrest21 (a (21 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen21 Vin c).symm)
      isplitl [Ht]; · rw [← htbl c]; iexact Ht
      isplitl [Hx]; · iexact Hx
      iexact Hz
    unfold Pipeline.Dat.owesAt Pipeline.owesWithin
    rw [show (pdats (21 : Fin 34) c).owed (Fin.last _) = 0 from by rw [hd c]; rfl]
    icases HO with ⟨%W, -, HO⟩; iexists W; iexact HO

end Cert.KernelIdeal.Hand

end
-- ==== Proof.KI.GatherDat22.lean ====
/-
  Gather region 22 (custom_call 22): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem22 : Fin 8 → SemLoc sig := fun | 0 => .dma 260 | 1 => .dma 261 | 2 => .dma 262 | 3 => .dma 263 | 4 => .dma 264 | 5 => .dma 265 | 6 => .dma 266 | 7 => .dma 267

/-- The eight counters at zero, as the run finds them and hands them back. -/
abbrev sems22 (c : Dev nD) : sProp (MM F) :=
  iprop(semVal ((c : Thread nD τ), osem22 0) 0 ∗ semVal ((c : Thread nD τ), osem22 1) 0 ∗ semVal ((c : Thread nD τ), osem22 2) 0
    ∗ semVal ((c : Thread nD τ), osem22 3) 0 ∗ semVal ((c : Thread nD τ), osem22 4) 0 ∗ semVal ((c : Thread nD τ), osem22 5) 0
    ∗ semVal ((c : Thread nD τ), osem22 6) 0 ∗ semVal ((c : Thread nD τ), osem22 7) 0)

/-- Word `j` of the eight the index table holds for point `i`, as the kernel's scalar load reads it. -/
def tblWord22 (c : Dev nD) (i : grid22.Coords) (tbl : Bf (F := F) c (Memref.whole main_v146)) (j : Fin 8) : BitVec 32 :=
  (Memref.whole main_v146).view.readAt (Elt F) (Rect.unit (s := S131072) (k22_off1 i (BitVec.ofNat 32 j.val)) S1.size (k22_off1_inb i j)).toLoadRect tbl
    (Shape.Idx.first (s := S1) (numel1_S1.symm ▸ Nat.one_pos))

/-- Window `w`'s block at point `t`, read off its array at the region's entry. -/
def iblk22 (a0 : (pcfg22 (F := F)).Adm) (Vin : Dev nD → Valuation τ sig (Elt F)) (c : Dev nD) (w : Fin (cfg22 a0).W) (t : Fin (cfg22 a0).N) :
    (((cfg22 a0).win w).xblock ((cfg22 a0).grid.coords t)).Idx → Elt F ((cfg22 a0).win w).elt :=
  (((cfg22 a0).win w).blk t).view.read (Elt F) (Vr Vin c (Pipeline.arrRef spec22 w))

/-- The result array the region leaves: the gathered and scaled rows of the embedding array, whole. -/
def gout22 (a0 : (pcfg22 (F := F)).Adm) (Vin : Dev nD → Valuation τ sig (Elt F)) (c : Dev nD) : Buf (Elt F) ((c : Thread nD τ).loc main_v148) :=
  gatherArr (Vr Vin c main_v109) (a0.1 0) (Vr Vin c main_v147)

/-- The invariant between points: the embedding array as entered, the kernel's semaphores at zero, the index table, the
    scoped buffers no window stages (the kernel's scratch among them). -/
def Phi22 (a0 : (pcfg22 (F := F)).Adm) (Vin : Dev nD → Valuation τ sig (Elt F)) (c : Dev nD) : sProp (MM F) :=
  iprop(pt c (Memref.whole main_v109) (Vr Vin c main_v109) ∗ sems22 c
    ∗ Pipeline.prefHeld (Ix := Unit) (Name := ℕ) (U := UU nD τ) (Lvl := ℕ) pre22 c (fun _ => fullShare) a0.1
    ∗ Pipeline.scopedRest (Ix := Unit) (Name := ℕ) (U := UU nD τ) (Lvl := ℕ) (Val := Elt F) spec22 c)

/-- The proof data on core `c`. -/
def dat22 (a0 : (pcfg22 (F := F)).Adm) (Vin : Dev nD → Valuation τ sig (Elt F)) (c : Dev nD) :
    Pipeline.Dat τ (Elt F) Unit ℕ (UU nD τ) ℕ ((pcfg22 (F := F)).at a0) c where
  A w := Vr Vin c (Pipeline.arrRef spec22 w)
  after w t := match w with
    | ⟨0, _⟩ => iblk22 a0 Vin c 0 t
    | ⟨1, _⟩ => (((cfg22 a0).win 1).blk t).view.read (Elt F) (gout22 a0 Vin c)
  Φ _ := Phi22 a0 Vin c
  q _ := fullShare
  owed _ := 0

theorem A_eq22 (a0 : (pcfg22 (F := F)).Adm) (Vin : Dev nD → Valuation τ sig (Elt F)) (c : Dev nD) (w : Fin (cfg22 a0).W) :
    (dat22 a0 Vin c).A w = Vr Vin c (Pipeline.arrRef spec22 w) := by dsimp only [dat22]
theorem after22_0 (a0 : (pcfg22 (F := F)).Adm) (Vin : Dev nD → Valuation τ sig (Elt F)) (c : Dev nD) (t : Fin (cfg22 a0).N) :
    (dat22 a0 Vin c).after 0 t = iblk22 a0 Vin c 0 t := by dsimp only [dat22]; rfl
theorem after22_1 (a0 : (pcfg22 (F := F)).Adm) (Vin : Dev nD → Valuation τ sig (Elt F)) (c : Dev nD) (t : Fin (cfg22 a0).N) :
    (dat22 a0 Vin c).after 1 t = (((cfg22 a0).win 1).blk t).view.read (Elt F) (gout22 a0 Vin c) := by dsimp only [dat22]; rfl
theorem Phi_eq22 (a0 : (pcfg22 (F := F)).Adm) (Vin : Dev nD → Valuation τ sig (Elt F)) (c : Dev nD) (t : Fin ((cfg22 a0).N + 1)) :
    (dat22 a0 Vin c).Φ t = Phi22 a0 Vin c := rfl
theorem owed_eq22 (a0 : (pcfg22 (F := F)).Adm) (Vin : Dev nD → Valuation τ sig (Elt F)) (c : Dev nD) (t : Fin ((cfg22 a0).N + 1)) :
    (dat22 a0 Vin c).owed t = 0 := rfl
theorem q_eq22 (a0 : (pcfg22 (F := F)).Adm) (Vin : Dev nD → Valuation τ sig (Elt F)) (c : Dev nD) (w : Fin (cfg22 a0).W) :
    (dat22 a0 Vin c).q w = fullShare := rfl

/-- The pinned family's configuration at region 22 is this one. -/
example (a : (p : Fin 34) → (pcfgs (F := F) p).Adm) : Pipeline.pin (pcfgs (F := F)) a (22 : Fin 34) = (pcfg22 (F := F)).at (a (22 : Fin 34)) := rfl

end Cert.KernelIdeal.Hand

end
-- ==== Proof.KI.GatherBody22.lean ====
/-
  Gather region 22 (custom_call 22): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat22
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk22 (c : Dev nD) (i : grid22.Coords) (tbl : Bf (F := F) c (Memref.whole main_v146)) : Prop where
  h1 : k22_chk1 (tblWord22 c i tbl 0)
  h2 : k22_chk2 (tblWord22 c i tbl 1)
  h3 : k22_chk3 (tblWord22 c i tbl 2)
  h4 : k22_chk4 (tblWord22 c i tbl 3)
  h5 : k22_chk5 (tblWord22 c i tbl 4)
  h6 : k22_chk6 (tblWord22 c i tbl 5)
  h7 : k22_chk7 (tblWord22 c i tbl 6)
  h8 : k22_chk8 (tblWord22 c i tbl 7)

/-- A one-row slice of the embedding array at the row a word names, read at lane `z 1`: the array's element there. -/
theorem rowRead22 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun22 (c : Dev nD) (i : grid22.Coords)
    (M3 : Memref sig .tc .vmem S8x1 .f32) (h3 : M3.IsWhole) (M4 : Memref sig .tc .vmem S8x128 .f32) (h4 : M4.IsWhole)
    (tbl : Bf (F := F) c (Memref.whole main_v146)) (x : Bf (F := F) c (Memref.whole main_v109))
    (vb : Vec F S8x1 .f32) (hchk : GatherChk22 c i tbl) (Q : PUnit → sProp (MM F)) :
    iprop(pt c (Memref.whole main_v146) tbl ∗ pt c (Memref.whole main_v109) x
      ∗ owns (c : Thread nD τ) M3 fullShare vb ∗ (∃ d, owns (c : Thread nD τ) M4 fullShare d)
      ∗ (∃ fs, pt c (Memref.whole cc22_scratch0) fs) ∗ sems22 c ∗ (∃ W, owes (c : Thread nD τ) (0 : CellTallies nD τ sig Unit) W)
      ∗ (iprop(pt c (Memref.whole main_v146) tbl ∗ pt c (Memref.whole main_v109) x
          ∗ owns (c : Thread nD τ) M3 fullShare vb ∗ owns (c : Thread nD τ) M4 fullShare (gatherBlk x (tblWord22 c i tbl) vb)
          ∗ (∃ fs, pt c (Memref.whole cc22_scratch0) fs) ∗ sems22 c ∗ (∃ W, owes (c : Thread nD τ) (0 : CellTallies nD τ sig Unit) W)) -∗ Q ⟨⟩))
    ⊢ wp frame (wpE (defs₀ (F := F)) 𝒱₀ c none) Set.univ
        (cc22__gather_kernel i (Memref.whole main_v146) (Memref.isWhole_whole _) (Memref.whole main_v109) (Memref.isWhole_whole _) M3 h3 M4 h4
          (Memref.whole cc22_scratch0) (Memref.isWhole_whole _) cc22_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 260).1 $$ Hx
  icases Hx' with ⟨Hxr, Hx0, Hx1, Hx2, Hx3, Hx4, Hx5, Hx6, Hx7⟩
  sl_unfold [cc22__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 260).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k22_pay1 gatherBlk
    show FloatOps.mulf _ _ = FloatOps.mulf _ _
    congr 1
    · unfold gatherRun22.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun22.sl.dma8 gatherRun22.sl.dma8_1 gatherRun22.sl.dma8_2 gatherRun22.sl.dma8_3 gatherRun22.sl.dma8_4 gatherRun22.sl.dma8_5
        gatherRun22.sl.dma8_6 gatherRun22.sl.dma8_7 gatherRun22.sl.r gatherRun22.sl.r_1 gatherRun22.sl.r_2 gatherRun22.sl.r_3 gatherRun22.sl.r_4
        gatherRun22.sl.r_5 gatherRun22.sl.r_6 gatherRun22.sl.r_7
      refine canonRows8 _ _ _ _ _ _ _ _ _ _ _ _ _ _ _ _ (fun r d => x (embIdx (rowOf (tblWord22 c i tbl r)) d)) ?_ ?_ ?_ ?_ ?_ ?_ ?_ ?_ y
      · exact fun z => rowRead22 c _ (tblWord22 c i tbl 0) rfl rfl _ _ x z
      · exact fun z => rowRead22 c _ (tblWord22 c i tbl 1) rfl rfl _ _ x z
      · exact fun z => rowRead22 c _ (tblWord22 c i tbl 2) rfl rfl _ _ x z
      · exact fun z => rowRead22 c _ (tblWord22 c i tbl 3) rfl rfl _ _ x z
      · exact fun z => rowRead22 c _ (tblWord22 c i tbl 4) rfl rfl _ _ x z
      · exact fun z => rowRead22 c _ (tblWord22 c i tbl 5) rfl rfl _ _ x z
      · exact fun z => rowRead22 c _ (tblWord22 c i tbl 6) rfl rfl _ _ x z
      · exact fun z => rowRead22 c _ (tblWord22 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk22.lean ====
/-
  Gather region 22 (custom_call 22): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat22
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word22 (i : grid22.Coords) (j : Fin 8) : k22_off1 i (BitVec.ofNat 32 j.val) 0 = (i 0).val * 8 + j.val := by
  have hi : (i 0).val < 16384 := (i 0).isLt
  have hj : j.val < 8 := j.isLt
  unfold k22_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word22 (i : grid22.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord22_eq (c : Dev nD) (i : grid22.Coords) (tbl : Bf (F := F) c (Memref.whole main_v146)) (j : Fin 8)
    (e : Fin 131072) (he : e.val = (i 0).val * 8 + j.val) : tblWord22 c i tbl j = tbl (tblIdx e) := by
  unfold tblWord22
  show tbl _ = tbl _
  refine congrArg tbl ?_
  funext a; apply Fin.ext
  match a with
  | ⟨0, _⟩ =>
    show k22_off1 i (BitVec.ofNat 32 j.val) 0 + 1 * 0 = e.val
    rw [off_word22, he]; omega

/-- Row `j` of the value window's block at point `t` is the value array's row `8 t + j`. -/
theorem valBlk22_eq (a0 : (pcfg22 (F := F)).Adm) (Vin : Dev nD → Valuation τ sig (Elt F)) (c : Dev nD) (t : Fin (cfg22 a0).N)
    (j : Fin 8) (e : Fin 131072) (he : e.val = ((grid22.coords t) 0).val * 8 + j.val) :
    iblk22 a0 Vin c 0 t (colIdx j) = Vr Vin c main_v147 (valIdx e) := by
  unfold iblk22
  show Vr Vin c main_v147 _ = Vr Vin c main_v147 _
  refine congrArg (Vr Vin c main_v147) ?_
  funext a; apply Fin.ext
  match a with
  | ⟨0, _⟩ =>
    show (BitVec.ofNat 32 ((grid22.coords t) 0).val).toNat * 8 + 1 * j.val = e.val
    rw [coord_word22, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk22 (a0 : (pcfg22 (F := F)).Adm) (Vin : Dev nD → Valuation τ sig (Elt F)) (c : Dev nD) (t : Fin (cfg22 a0).N) :
    gatherBlk (Vr Vin c main_v109) (tblWord22 c (grid22.coords t) (a0.1 0)) (iblk22 a0 Vin c 0 t)
      = (((cfg22 a0).win 1).blk t).view.read (Elt F) (gout22 a0 Vin c) := by
  funext y
  show gatherBlk _ _ _ y = gout22 a0 Vin c ((((cfg22 a0).win 1).blk t).view.emb y)
  unfold gatherBlk gout22 gatherArr
  have e0 : ((((cfg22 a0).win 1).blk t).view.emb y (0 : Fin 2)).val = ((grid22.coords t) 0).val * 8 + (y 0).val := by
    show (BitVec.ofNat 32 ((grid22.coords t) 0).val).toNat * 8 + 1 * (y 0).val = _
    rw [coord_word22]; omega
  have e1 : (((cfg22 a0).win 1).blk t).view.emb y (1 : Fin 2) = y 1 := Fin.ext (by
    show (0#32 : BitVec 32).toNat * 128 + 1 * (y 1).val = (y 1).val
    show 0 * 128 + 1 * (y 1).val = (y 1).val
    omega)
  rw [tblWord22_eq c (grid22.coords t) (a0.1 0) (y 0) _ e0, valBlk22_eq a0 Vin c t (y 0) _ e0, e1]

end Cert.KernelIdeal.Hand

end
-- ==== Proof.KI.GatherRegion22.lean ====
/-
  Gather region 22 (custom_call 22): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody22
import proofs.«414509_j14181982011419_2_alg».proof.Proof.KI.GatherBlk22
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk22 (a0 : (pcfg22 (F := F)).Adm) : Prop := ∀ e : S131072.Idx, (a0.1 0 e).toNat < 100000

/-! ## The grid and the result window's blocks -/

/-- On the one-axis grid a point's coordinate is its number. -/
theorem regCoords22 (t : Fin grid22.N) : (grid22.coords t 0).val = t.val := by
  have ht : t.val < 16384 := N_22 ▸ t.isLt
  show t.val / grid22.stride 0 % grid22.bound 0 = t.val
  rw [show grid22.stride 0 = 1 from by decide, show grid22.bound 0 = 16384 from rfl, Nat.div_one, Nat.mod_eq_of_lt ht]

/-- A point's number as the 32-bit word the index maps compute with. -/
theorem regWord22 (t : Fin grid22.N) : (BitVec.ofNat 32 (grid22.coords t 0).val).toNat = t.val := by
  have ht : t.val < 16384 := N_22 ▸ t.isLt
  rw [BitVec.toNat_ofNat, regCoords22]; omega

/-- The result window's block at point `t` is block `t` along the rows, at zero along the lanes. -/
theorem regOutIndex22 (a0 : (pcfg22 (F := F)).Adm) (t : Fin (cfg22 a0).N) : ((cfg22 a0).win 1).index t = ![t.val, 0] := by
  show cc22_transform_2 (grid22.coords t) = _
  unfold cc22_transform_2
  funext a; fin_cases a
  · exact regWord22 t
  · rfl

/-- The result window is written back at every point: consecutive points have different blocks. -/
theorem regOutFlush22 (a0 : (pcfg22 (F := F)).Adm) (t : Fin (cfg22 a0).N) : ((cfg22 a0).win 1).flush t = true := by
  have htN : t.val < 16384 := N_22 ▸ t.isLt
  rw [Pipeline.Window.flush_out _ rfl]
  by_cases h : t.val + 1 = 16384
  · exact Or.inl (show t.val + 1 = grid22.N by rw [N_22]; exact h)
  · have hlt : t.val + 1 < grid22.N := by rw [N_22]; omega
    refine Or.inr ⟨hlt, fun e => ?_⟩
    have e' : (![t.val + 1, 0] : Fin 2 → ℕ) = ![t.val, 0] := (regOutIndex22 a0 ⟨t.val + 1, hlt⟩).symm.trans (e.trans (regOutIndex22 a0 t))
    have e0 := congrFun e' 0
    simp at e0

/-- The index table, held as the pipeline's one prefetched table. -/
theorem prefHeldEq22 (a0 : (pcfg22 (F := F)).Adm) (c : Dev nD) :
    (Pipeline.prefHeld (Ix := Unit) (Name := ℕ) (U := UU nD τ) (Lvl := ℕ) pre22 c (fun _ => fullShare) a0.1 : sProp (MM F))
      = pt c (Memref.whole main_v146) (a0.1 0) := by
  unfold Pipeline.prefHeld
  rw [show (Finset.univ : Finset (Fin pre22.K)) = {0} from rfl, BI.bigSep_singleton]
  rfl

/-- The value window's staging buffer holds its block at every point. -/
theorem beforeVal22 (a0 : (pcfg22 (F := F)).Adm) (Vin : Dev nD → Valuation τ sig (Elt F)) (c : Dev nD) (t : Fin (cfg22 a0).N) (d) :
    (dat22 a0 Vin c).before 0 t d = iblk22 a0 Vin c 0 t :=
  ((dat22 a0 Vin c).before_in_eq_fetched 0 rfl (fun _ => rfl) (fun _ _ _ => rfl)
    (fun t => by rw [after22_0]; unfold Dat.blockOf iblk22; rw [A_eq22]; try rfl) t d).trans
    (by unfold Dat.fetched Dat.blockOf iblk22; rw [A_eq22]; try rfl)

/-! ## The kernel's checks, from the table's range -/

/-- Each of the point's eight words is a word of the table, so a row number. -/
theorem tblWordLt22 (a0 : (pcfg22 (F := F)).Adm) (hok : GatherOk22 a0) (c : Dev nD) (i : grid22.Coords) (j : Fin 8) :
    (tblWord22 c i (a0.1 0) j).toNat < 100000 := by
  unfold tblWord22
  exact hok _

/-- So the kernel's eight checks hold at every point. -/
theorem gatherChk22 (a0 : (pcfg22 (F := F)).Adm) (hok : GatherOk22 a0) (c : Dev nD) (i : grid22.Coords) : GatherChk22 c i (a0.1 0) :=
  ⟨⟨chkRow _ (tblWordLt22 a0 hok c i 0), chkRow _ (tblWordLt22 a0 hok c i 0)⟩,
   ⟨chkRow _ (tblWordLt22 a0 hok c i 1), chkRow _ (tblWordLt22 a0 hok c i 1)⟩,
   ⟨chkRow _ (tblWordLt22 a0 hok c i 2), chkRow _ (tblWordLt22 a0 hok c i 2)⟩,
   ⟨chkRow _ (tblWordLt22 a0 hok c i 3), chkRow _ (tblWordLt22 a0 hok c i 3)⟩,
   ⟨chkRow _ (tblWordLt22 a0 hok c i 4), chkRow _ (tblWordLt22 a0 hok c i 4)⟩,
   ⟨chkRow _ (tblWordLt22 a0 hok c i 5), chkRow _ (tblWordLt22 a0 hok c i 5)⟩,
   ⟨chkRow _ (tblWordLt22 a0 hok c i 6), chkRow _ (tblWordLt22 a0 hok c i 6)⟩,
   chkRow _ (tblWordLt22 a0 hok c i 7)⟩

/-! ## The body obligation, at a generic point -/

/-- What the body is called with at point `t`: the invariant, the core's dues, each window's current staging memref at
    what the pipeline left there, -/
def bodyPre22 (a0 : (pcfg22 (F := F)).Adm) (Vin : Dev nD → Valuation τ sig (Elt F)) (c : Dev nD) (t : Fin (cfg22 a0).N) : sProp (MM F) :=
  iprop((dat22 a0 Vin c).Φ t.castSucc ∗ (dat22 a0 Vin c).owesAt () t.castSucc
    ∗ (∃ d, owns (c : Thread nD τ) (((cfg22 a0).win 0).stage ((cfg22 a0).slots t 0)) fullShare ((dat22 a0 Vin c).before 0 t d))
    ∗ (∃ d, owns (c : Thread nD τ) (((cfg22 a0).win 1).stage ((cfg22 a0).slots t 1)) fullShare ((dat22 a0 Vin c).before 1 t d)))

/-- and what it returns. -/
def bodyPost22 (a0 : (pcfg22 (F := F)).Adm) (Vin : Dev nD → Valuation τ sig (Elt F)) (c : Dev nD) (t : Fin (cfg22 a0).N) : sProp (MM F) :=
  iprop((dat22 a0 Vin c).Φ t.succ ∗ (dat22 a0 Vin c).owesAt () t.succ
    ∗ owns (c : Thread nD τ) (((cfg22 a0).win 0).stage ((cfg22 a0).slots t 0)) fullShare ((dat22 a0 Vin c).after 0 t)
    ∗ owns (c : Thread nD τ) (((cfg22 a0).win 1).stage ((cfg22 a0).slots t 1)) fullShare ((dat22 a0 Vin c).after 1 t))

/-- The body at any point: the invariant opened into the embedding array, the semaphores, the table and the scratch;
    the value window's memref at its block; the checks from the table's range; so the kernel's run applies, and what it
    leaves in the result window's memref is the point's block of the gathered array. -/
theorem sound_body22 (a0 : (pcfg22 (F := F)).Adm) (hok : GatherOk22 a0) (Vin : Dev nD → Valuation τ sig (Elt F)) (c : Dev nD) (t : Fin (cfg22 a0).N) :
    bodyPre22 a0 Vin c t ⊢ wp frame (wpE (defs₀ (F := F)) 𝒱₀ c none) Set.univ
      (defs₀ .tc (cfg22 a0).body ((cfg22 a0).bodyArgs t ((cfg22 a0).slots t))) (fun _ => bodyPost22 a0 Vin c t) := by
  unfold bodyPre22 bodyPost22
  simp only [beforeVal22]
  rw [Phi_eq22, Phi_eq22, after22_0, after22_1, ← gatherBlk_blk22]
  unfold Phi22 Pipeline.Dat.owesAt Pipeline.owesWithin
  rw [owed_eq22, owed_eq22, prefHeldEq22, scopedRest22_split]
  iintro ⟨⟨Hx, Hos, Ht, ⟨%fs, Hs⟩, Hsb⟩, ⟨%W, %hW, HO⟩, ⟨%d0, H0⟩, ⟨%d1, H1⟩⟩
  iapply (gatherRun22 c (grid22.coords t) _ _ _ _ (a0.1 0) (Vr Vin c main_v109) (iblk22 a0 Vin c 0 t) (gatherChk22 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation22 (a0 : (pcfg22 (F := F)).Adm) (hok : GatherOk22 a0) (Vin : Dev nD → Valuation τ sig (Elt F)) (c : Dev nD) :
    BodyObligation (dat22 a0 Vin c) (defs₀ (F := F)) 𝒱₀ () Set.univ := fun t => by
  rw [bigSep_W22, bigSep_W22]
  exact sound_body22 a0 hok Vin c t

/-! ## From the blocks to the arrays -/

/-- The value array after the region: as entered. -/
theorem arrAt22_in (a0 : (pcfg22 (F := F)).Adm) (Vin : Dev nD → Valuation τ sig (Elt F)) (c : Dev nD) :
    (dat22 a0 Vin c).arrAt 0 (cfg22 a0).N = Vr Vin c main_v147 :=
  ((dat22 a0 Vin c).arrAt_in 0 rfl _).trans (A_eq22 a0 Vin c 0)

/-- Every index of the result array is in some point's block: row `e`, lane `d` is element `(e % 8, d)` of the block
    of point `e / 8`. -/
theorem regOutCover22 (a0 : (pcfg22 (F := F)).Adm) (i : S131072x128.Idx) :
    ∃ t : Fin (cfg22 a0).N, ((cfg22 a0).win 1).flush t = true ∧ i ∈ (((cfg22 a0).win 1).blk t).view.set := by
  have hi0 : (i 0).val < 131072 := (i 0).isLt
  have hi1 : (i 1).val < 128 := (i 1).isLt
  have hN : (i 0).val / 8 < grid22.N := by rw [N_22]; omega
  obtain ⟨t, ht⟩ : ∃ t : Fin (cfg22 a0).N, t.val = (i 0).val / 8 := ⟨⟨_, hN⟩, rfl⟩
  have hx : (((cfg22 a0).win 1).blk t).view.emb (ValueIdx.ix2 ⟨(i 0).val % 8, Nat.mod_lt _ (by decide)⟩ (i 1)) = i := by
    funext a; apply Fin.ext
    have e0 : ((cfg22 a0).win 1).index t (0 : Fin 2) = t.val := congrFun (regOutIndex22 a0 t) (0 : Fin 2)
    have e1 : ((cfg22 a0).win 1).index t (1 : Fin 2) = 0 := congrFun (regOutIndex22 a0 t) (1 : Fin 2)
    match a with
    | ⟨0, _⟩ => show ((cfg22 a0).win 1).index t (0 : Fin 2) * 8 + 1 * ((i 0).val % 8) = (i 0).val; omega
    | ⟨1, _⟩ => show ((cfg22 a0).win 1).index t (1 : Fin 2) * 128 + 1 * (i 1).val = (i 1).val; omega
  exact ⟨t, regOutFlush22 a0 t, hx ▸ (((cfg22 a0).win 1).blk t).view.emb_mem_set _⟩

/-- The result array after the region: the gathered and scaled rows, whole. -/
theorem arrAt22_out (a0 : (pcfg22 (F := F)).Adm) (Vin : Dev nD → Valuation τ sig (Elt F)) (c : Dev nD) :
    (dat22 a0 Vin c).arrAt 1 (cfg22 a0).N = gout22 a0 Vin c :=
  (dat22 a0 Vin c).arrAt_eq_of_cover 1 (gout22 a0 Vin c)
    (fun t _ => by
      show ((cfg22 a0).win 1).cut ((cfg22 a0).grid.coords t) ((dat22 a0 Vin c).after 1 t) = _
      rw [after22_1])
    (regOutCover22 a0)

/-! ## The region as a segment of @main -/

/-- The ownership layout of the kernel's eight semaphores. -/
theorem ownSemFacts22 : Pipeline.OwnSemFacts spec22 osem22 := by decide

/-- The kernel's own cells at zero, listed. -/
theorem ownSemsListed22 (c : Dev nD) :
    (Pipeline.ownSems0 (Ix := Unit) (Name := ℕ) (U := UU nD τ) (Lvl := ℕ) (Val := Elt F) (τ := τ) osem22 c : sProp (MM F)) = sems22 c :=
  Pipeline.ownSems0_eq_of_list c osem22 [0, 1, 2, 3, 4, 5, 6, 7] (by decide) (by decide)

/-- The unscoped buffers that are no window's array, no table, and not the embedding array. -/
abbrev restRefs22 : Finset (Ref sig .tc) :=
  (((Finset.univ.filter fun b : Ref sig .tc => ¬ b.isScoped) \ Finset.univ.image (Pipeline.arrRef spec22)) \ Finset.univ.image pre22.ref) \ {main_v109}

/-- Those buffers, each whole at its contents under `Vin`: what bypasses the region. -/
def Zrest22 (Vin : Dev nD → Valuation τ sig (Elt F)) (c : Dev nD) : sProp (MM F) :=
  bigSep restRefs22 fun b => ((c : Thread nD τ).loc b) ↦{fullShare} Vr Vin c b

/-- The embedding array is an unscoped buffer that is no window's array and no table. -/
theorem embArrMem22 : ({main_v109} : Finset (Ref sig .tc)) ⊆
    ((Finset.univ.filter fun b : Ref sig .tc => ¬ b.isScoped) \ Finset.univ.image (Pipeline.arrRef spec22)) \ Finset.univ.image pre22.ref := by
  decide

/-- The unscoped buffers that are no window's array: the index table, the embedding array, and the rest. -/
theorem unscopedRestOpen22 (Vin : Dev nD → Valuation τ sig (Elt F)) (c : Dev nD) :
    (Pipeline.unscopedRest (Ix := Unit) (Name := ℕ) (U := UU nD τ) (Lvl := ℕ) spec22 c (Vr Vin c) : sProp (MM F))
      = iprop(Pipeline.prefHeld pre22 c (fun _ => fullShare) (fun k => Vr Vin c (pre22.ref k))
          ∗ pt c (Memref.whole main_v109) (Vr Vin c main_v109) ∗ Zrest22 Vin c) := by
  rw [Pipeline.unscopedRest_split preFacts22 c (Vr Vin c)]
  unfold Pipeline.unscopedRestP Zrest22
  rw [BI.bigSep_sdiff_split embArrMem22, BI.bigSep_singleton]
  rfl

/-- The buffer contents when the region is left: the result array at the gathered rows, every other buffer as entered. -/
abbrev Vout22 (a0 : (pcfg22 (F := F)).Adm) (Vin : Dev nD → Valuation τ sig (Elt F)) (c : Dev nD) : Valuation τ sig (Elt F) :=
  Function.update (Vin c) main_v148 (gout22 a0 Vin c)

/-- At the exit each of the region's arrays holds what the pipeline leaves; -/
theorem hF22 (a0 : (pcfg22 (F := F)).Adm) (Vin : Dev nD → Valuation τ sig (Elt F)) (c : Dev nD) (w : Fin (cfg22 a0).W) :
    (dat22 a0 Vin c).arrAt w (cfg22 a0).N = Vr (Vout22 a0 Vin) c (Pipeline.arrRef spec22 w) := by
  match w with
  | ⟨0, _⟩ =>
    show (dat22 a0 Vin c).arrAt 0 (cfg22 a0).N = Vr (Vout22 a0 Vin) c (Pipeline.arrRef spec22 0)
    rw [arrAt22_in]
    exact (Function.update_of_ne (StableHlo.devRef_ne_of_ne (by decide) : (Proc.devRef .tc main_v147 : DevRef τ sig) ≠ Proc.devRef .tc main_v148) _ _).symm
  | ⟨1, _⟩ =>
    show (dat22 a0 Vin c).arrAt 1 (cfg22 a0).N = Vr (Vout22 a0 Vin) c (Pipeline.arrRef spec22 1)
    rw [arrAt22_out]
    exact (Function.update_self (Proc.devRef .tc main_v148 : DevRef τ sig) _ (Vin c)).symm

/-- and every other buffer what it held at entry. -/
theorem hrest22 (a0 : (pcfg22 (F := F)).Adm) (Vin : Dev nD → Valuation τ sig (Elt F)) (c : Dev nD) :
    ∀ b : Ref sig .tc, b ∉ Finset.univ.image (Pipeline.arrRef spec22) → Vr (Vout22 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat22` at the entry valuation `Vin`
    (`hd`), the index table's contents under `Vin` being the pinned ones (`htbl`) and row numbers (`hok`). -/
def reg22 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk22 (F := F) (a (22 : Fin 34)))
    (hd : ∀ c, pdats (22 : Fin 34) c = dat22 (a (22 : Fin 34)) Vin c) (htbl : ∀ c, (a (22 : Fin 34)).1 = fun k => Vr Vin c (pre22.ref k)) :
    Pipeline.RegionSeg (pcfgs (F := F)) a pdats () defs₀ 𝒱₀ L lv (22 : Fin 34) where
  win := (launch22 (F := F)).win.to₀
  block_pos := (launch22 (F := F)).block_pos
  stage_whole := (launch22 (F := F)).stage_whole
  K := Fin 8
  osem := osem22
  ho := ownSemFacts22
  hbody c := by rw [hd c]; exact (body_obligation22 (a (22 : Fin 34)) hok Vin c).loose
  hwaits := Pipeline.hwaits_of_owed_zero _ _ _ _ L lv (22 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v148 (gout22 (a (22 : Fin 34)) Vin c)) ∗ Rest c)
  X c := iprop(pt c (Memref.whole main_v109) (Vr Vin c main_v109) ∗ sems22 c)
  Y c := iprop(pt c (Memref.whole main_v109) (Vr Vin c main_v109)
    ∗ Pipeline.prefHeld (Ix := Unit) (Name := ℕ) (U := UU nD τ) (Lvl := ℕ) pre22 c (fun _ => fullShare) (a (22 : Fin 34)).1)
  Z c := Zrest22 Vin c
  hentry c := by
    rw [ownSemsListed22]
    have hsplit := Pipeline.arrays_of_unscopedBufs (p := (22 : Fin 34)) (pcfgs (F := F)) a pdats (launch22 (F := F)).win (launch22 (F := F)).arr_whole c
      ((pdats (22 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen22 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (22 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq22]; unfold Phi22
    iintro ⟨⟨Hx, Hos⟩, Ht, Hr⟩
    isplitl [Hx]; · iexact Hx
    isplitl [Hos]; · iexact Hos
    isplitl [Ht]; · iexact Ht
    iexact Hr
  hout c := by
    rw [ownSemsListed22, hd c, Phi_eq22]; unfold Phi22
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (22 : Fin 34)) (pcfgs (F := F)) a (Ix := Unit) (Name := ℕ) (U := UU nD τ) (Lvl := ℕ)
      (launch22 (F := F)).win (launch22 (F := F)).arr_whole c pdats ((pdats (22 : Fin 34) c).share_full fun _ => by rw [hd c]; rfl)
      (Vr Vin c) (Vr (Vout22 (a (22 : Fin 34)) Vin) c) ((pdats (22 : Fin 34) c).arrAt · (cfg22 (a (22 : Fin 34))).N)
      (fun w => by rw [hd c]; exact hF22 (a (22 : Fin 34)) Vin c w) (hrest22 (a (22 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen22 Vin c).symm)
      isplitl [Ht]; · rw [← htbl c]; iexact Ht
      isplitl [Hx]; · iexact Hx
      iexact Hz
    unfold Pipeline.Dat.owesAt Pipeline.owesWithin
    rw [show (pdats (22 : Fin 34) c).owed (Fin.last _) = 0 from by rw [hd c]; rfl]
    icases HO with ⟨%W, -, HO⟩; iexists W; iexact HO

end Cert.KernelIdeal.Hand

end
-- ==== Proof.KI.GatherDat23.lean ====
/-
  Gather region 23 (custom_call 23): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem23 : Fin 8 → SemLoc sig := fun | 0 => .dma 272 | 1 => .dma 273 | 2 => .dma 274 | 3 => .dma 275 | 4 => .dma 276 | 5 => .dma 277 | 6 => .dma 278 | 7 => .dma 279

/-- The eight counters at zero, as the run finds them and hands them back. -/
abbrev sems23 (c : Dev nD) : sProp (MM F) :=
  iprop(semVal ((c : Thread nD τ), osem23 0) 0 ∗ semVal ((c : Thread nD τ), osem23 1) 0 ∗ semVal ((c : Thread nD τ), osem23 2) 0
    ∗ semVal ((c : Thread nD τ), osem23 3) 0 ∗ semVal ((c : Thread nD τ), osem23 4) 0 ∗ semVal ((c : Thread nD τ), osem23 5) 0
    ∗ semVal ((c : Thread nD τ), osem23 6) 0 ∗ semVal ((c : Thread nD τ), osem23 7) 0)

/-- Word `j` of the eight the index table holds for point `i`, as the kernel's scalar load reads it. -/
def tblWord23 (c : Dev nD) (i : grid23.Coords) (tbl : Bf (F := F) c (Memref.whole main_v149)) (j : Fin 8) : BitVec 32 :=
  (Memref.whole main_v149).view.readAt (Elt F) (Rect.unit (s := S131072) (k23_off1 i (BitVec.ofNat 32 j.val)) S1.size (k23_off1_inb i j)).toLoadRect tbl
    (Shape.Idx.first (s := S1) (numel1_S1.symm ▸ Nat.one_pos))

/-- Window `w`'s block at point `t`, read off its array at the region's entry. -/
def iblk23 (a0 : (pcfg23 (F := F)).Adm) (Vin : Dev nD → Valuation τ sig (Elt F)) (c : Dev nD) (w : Fin (cfg23 a0).W) (t : Fin (cfg23 a0).N) :
    (((cfg23 a0).win w).xblock ((cfg23 a0).grid.coords t)).Idx → Elt F ((cfg23 a0).win w).elt :=
  (((cfg23 a0).win w).blk t).view.read (Elt F) (Vr Vin c (Pipeline.arrRef spec23 w))

/-- The result array the region leaves: the gathered and scaled rows of the embedding array, whole. -/
def gout23 (a0 : (pcfg23 (F := F)).Adm) (Vin : Dev nD → Valuation τ sig (Elt F)) (c : Dev nD) : Buf (Elt F) ((c : Thread nD τ).loc main_v151) :=
  gatherArr (Vr Vin c main_v109) (a0.1 0) (Vr Vin c main_v150)

/-- The invariant between points: the embedding array as entered, the kernel's semaphores at zero, the index table, the
    scoped buffers no window stages (the kernel's scratch among them). -/
def Phi23 (a0 : (pcfg23 (F := F)).Adm) (Vin : Dev nD → Valuation τ sig (Elt F)) (c : Dev nD) : sProp (MM F) :=
  iprop(pt c (Memref.whole main_v109) (Vr Vin c main_v109) ∗ sems23 c
    ∗ Pipeline.prefHeld (Ix := Unit) (Name := ℕ) (U := UU nD τ) (Lvl := ℕ) pre23 c (fun _ => fullShare) a0.1
    ∗ Pipeline.scopedRest (Ix := Unit) (Name := ℕ) (U := UU nD τ) (Lvl := ℕ) (Val := Elt F) spec23 c)

/-- The proof data on core `c`. -/
def dat23 (a0 : (pcfg23 (F := F)).Adm) (Vin : Dev nD → Valuation τ sig (Elt F)) (c : Dev nD) :
    Pipeline.Dat τ (Elt F) Unit ℕ (UU nD τ) ℕ ((pcfg23 (F := F)).at a0) c where
  A w := Vr Vin c (Pipeline.arrRef spec23 w)
  after w t := match w with
    | ⟨0, _⟩ => iblk23 a0 Vin c 0 t
    | ⟨1, _⟩ => (((cfg23 a0).win 1).blk t).view.read (Elt F) (gout23 a0 Vin c)
  Φ _ := Phi23 a0 Vin c
  q _ := fullShare
  owed _ := 0

theorem A_eq23 (a0 : (pcfg23 (F := F)).Adm) (Vin : Dev nD → Valuation τ sig (Elt F)) (c : Dev nD) (w : Fin (cfg23 a0).W) :
    (dat23 a0 Vin c).A w = Vr Vin c (Pipeline.arrRef spec23 w) := by dsimp only [dat23]
theorem after23_0 (a0 : (pcfg23 (F := F)).Adm) (Vin : Dev nD → Valuation τ sig (Elt F)) (c : Dev nD) (t : Fin (cfg23 a0).N) :
    (dat23 a0 Vin c).after 0 t = iblk23 a0 Vin c 0 t := by dsimp only [dat23]; rfl
theorem after23_1 (a0 : (pcfg23 (F := F)).Adm) (Vin : Dev nD → Valuation τ sig (Elt F)) (c : Dev nD) (t : Fin (cfg23 a0).N) :
    (dat23 a0 Vin c).after 1 t = (((cfg23 a0).win 1).blk t).view.read (Elt F) (gout23 a0 Vin c) := by dsimp only [dat23]; rfl
theorem Phi_eq23 (a0 : (pcfg23 (F := F)).Adm) (Vin : Dev nD → Valuation τ sig (Elt F)) (c : Dev nD) (t : Fin ((cfg23 a0).N + 1)) :
    (dat23 a0 Vin c).Φ t = Phi23 a0 Vin c := rfl
theorem owed_eq23 (a0 : (pcfg23 (F := F)).Adm) (Vin : Dev nD → Valuation τ sig (Elt F)) (c : Dev nD) (t : Fin ((cfg23 a0).N + 1)) :
    (dat23 a0 Vin c).owed t = 0 := rfl
theorem q_eq23 (a0 : (pcfg23 (F := F)).Adm) (Vin : Dev nD → Valuation τ sig (Elt F)) (c : Dev nD) (w : Fin (cfg23 a0).W) :
    (dat23 a0 Vin c).q w = fullShare := rfl

/-- The pinned family's configuration at region 23 is this one. -/
example (a : (p : Fin 34) → (pcfgs (F := F) p).Adm) : Pipeline.pin (pcfgs (F := F)) a (23 : Fin 34) = (pcfg23 (F := F)).at (a (23 : Fin 34)) := rfl

end Cert.KernelIdeal.Hand

end
-- ==== Proof.KI.GatherBody23.lean ====
/-
  Gather region 23 (custom_call 23): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat23
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk23 (c : Dev nD) (i : grid23.Coords) (tbl : Bf (F := F) c (Memref.whole main_v149)) : Prop where
  h1 : k23_chk1 (tblWord23 c i tbl 0)
  h2 : k23_chk2 (tblWord23 c i tbl 1)
  h3 : k23_chk3 (tblWord23 c i tbl 2)
  h4 : k23_chk4 (tblWord23 c i tbl 3)
  h5 : k23_chk5 (tblWord23 c i tbl 4)
  h6 : k23_chk6 (tblWord23 c i tbl 5)
  h7 : k23_chk7 (tblWord23 c i tbl 6)
  h8 : k23_chk8 (tblWord23 c i tbl 7)

/-- A one-row slice of the embedding array at the row a word names, read at lane `z 1`: the array's element there. -/
theorem rowRead23 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun23 (c : Dev nD) (i : grid23.Coords)
    (M3 : Memref sig .tc .vmem S8x1 .f32) (h3 : M3.IsWhole) (M4 : Memref sig .tc .vmem S8x128 .f32) (h4 : M4.IsWhole)
    (tbl : Bf (F := F) c (Memref.whole main_v149)) (x : Bf (F := F) c (Memref.whole main_v109))
    (vb : Vec F S8x1 .f32) (hchk : GatherChk23 c i tbl) (Q : PUnit → sProp (MM F)) :
    iprop(pt c (Memref.whole main_v149) tbl ∗ pt c (Memref.whole main_v109) x
      ∗ owns (c : Thread nD τ) M3 fullShare vb ∗ (∃ d, owns (c : Thread nD τ) M4 fullShare d)
      ∗ (∃ fs, pt c (Memref.whole cc23_scratch0) fs) ∗ sems23 c ∗ (∃ W, owes (c : Thread nD τ) (0 : CellTallies nD τ sig Unit) W)
      ∗ (iprop(pt c (Memref.whole main_v149) tbl ∗ pt c (Memref.whole main_v109) x
          ∗ owns (c : Thread nD τ) M3 fullShare vb ∗ owns (c : Thread nD τ) M4 fullShare (gatherBlk x (tblWord23 c i tbl) vb)
          ∗ (∃ fs, pt c (Memref.whole cc23_scratch0) fs) ∗ sems23 c ∗ (∃ W, owes (c : Thread nD τ) (0 : CellTallies nD τ sig Unit) W)) -∗ Q ⟨⟩))
    ⊢ wp frame (wpE (defs₀ (F := F)) 𝒱₀ c none) Set.univ
        (cc23__gather_kernel i (Memref.whole main_v149) (Memref.isWhole_whole _) (Memref.whole main_v109) (Memref.isWhole_whole _) M3 h3 M4 h4
          (Memref.whole cc23_scratch0) (Memref.isWhole_whole _) cc23_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 272).1 $$ Hx
  icases Hx' with ⟨Hxr, Hx0, Hx1, Hx2, Hx3, Hx4, Hx5, Hx6, Hx7⟩
  sl_unfold [cc23__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 272).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k23_pay1 gatherBlk
    show FloatOps.mulf _ _ = FloatOps.mulf _ _
    congr 1
    · unfold gatherRun23.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun23.sl.dma8 gatherRun23.sl.dma8_1 gatherRun23.sl.dma8_2 gatherRun23.sl.dma8_3 gatherRun23.sl.dma8_4 gatherRun23.sl.dma8_5
        gatherRun23.sl.dma8_6 gatherRun23.sl.dma8_7 gatherRun23.sl.r gatherRun23.sl.r_1 gatherRun23.sl.r_2 gatherRun23.sl.r_3 gatherRun23.sl.r_4
        gatherRun23.sl.r_5 gatherRun23.sl.r_6 gatherRun23.sl.r_7
      refine canonRows8 _ _ _ _ _ _ _ _ _ _ _ _ _ _ _ _ (fun r d => x (embIdx (rowOf (tblWord23 c i tbl r)) d)) ?_ ?_ ?_ ?_ ?_ ?_ ?_ ?_ y
      · exact fun z => rowRead23 c _ (tblWord23 c i tbl 0) rfl rfl _ _ x z
      · exact fun z => rowRead23 c _ (tblWord23 c i tbl 1) rfl rfl _ _ x z
      · exact fun z => rowRead23 c _ (tblWord23 c i tbl 2) rfl rfl _ _ x z
      · exact fun z => rowRead23 c _ (tblWord23 c i tbl 3) rfl rfl _ _ x z
      · exact fun z => rowRead23 c _ (tblWord23 c i tbl 4) rfl rfl _ _ x z
      · exact fun z => rowRead23 c _ (tblWord23 c i tbl 5) rfl rfl _ _ x z
      · exact fun z => rowRead23 c _ (tblWord23 c i tbl 6) rfl rfl _ _ x z
      · exact fun z => rowRead23 c _ (tblWord23 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk23.lean ====
/-
  Gather region 23 (custom_call 23): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat23
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word23 (i : grid23.Coords) (j : Fin 8) : k23_off1 i (BitVec.ofNat 32 j.val) 0 = (i 0).val * 8 + j.val := by
  have hi : (i 0).val < 16384 := (i 0).isLt
  have hj : j.val < 8 := j.isLt
  unfold k23_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word23 (i : grid23.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord23_eq (c : Dev nD) (i : grid23.Coords) (tbl : Bf (F := F) c (Memref.whole main_v149)) (j : Fin 8)
    (e : Fin 131072) (he : e.val = (i 0).val * 8 + j.val) : tblWord23 c i tbl j = tbl (tblIdx e) := by
  unfold tblWord23
  show tbl _ = tbl _
  refine congrArg tbl ?_
  funext a; apply Fin.ext
  match a with
  | ⟨0, _⟩ =>
    show k23_off1 i (BitVec.ofNat 32 j.val) 0 + 1 * 0 = e.val
    rw [off_word23, he]; omega

/-- Row `j` of the value window's block at point `t` is the value array's row `8 t + j`. -/
theorem valBlk23_eq (a0 : (pcfg23 (F := F)).Adm) (Vin : Dev nD → Valuation τ sig (Elt F)) (c : Dev nD) (t : Fin (cfg23 a0).N)
    (j : Fin 8) (e : Fin 131072) (he : e.val = ((grid23.coords t) 0).val * 8 + j.val) :
    iblk23 a0 Vin c 0 t (colIdx j) = Vr Vin c main_v150 (valIdx e) := by
  unfold iblk23
  show Vr Vin c main_v150 _ = Vr Vin c main_v150 _
  refine congrArg (Vr Vin c main_v150) ?_
  funext a; apply Fin.ext
  match a with
  | ⟨0, _⟩ =>
    show (BitVec.ofNat 32 ((grid23.coords t) 0).val).toNat * 8 + 1 * j.val = e.val
    rw [coord_word23, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk23 (a0 : (pcfg23 (F := F)).Adm) (Vin : Dev nD → Valuation τ sig (Elt F)) (c : Dev nD) (t : Fin (cfg23 a0).N) :
    gatherBlk (Vr Vin c main_v109) (tblWord23 c (grid23.coords t) (a0.1 0)) (iblk23 a0 Vin c 0 t)
      = (((cfg23 a0).win 1).blk t).view.read (Elt F) (gout23 a0 Vin c) := by
  funext y
  show gatherBlk _ _ _ y = gout23 a0 Vin c ((((cfg23 a0).win 1).blk t).view.emb y)
  unfold gatherBlk gout23 gatherArr
  have e0 : ((((cfg23 a0).win 1).blk t).view.emb y (0 : Fin 2)).val = ((grid23.coords t) 0).val * 8 + (y 0).val := by
    show (BitVec.ofNat 32 ((grid23.coords t) 0).val).toNat * 8 + 1 * (y 0).val = _
    rw [coord_word23]; omega
  have e1 : (((cfg23 a0).win 1).blk t).view.emb y (1 : Fin 2) = y 1 := Fin.ext (by
    show (0#32 : BitVec 32).toNat * 128 + 1 * (y 1).val = (y 1).val
    show 0 * 128 + 1 * (y 1).val = (y 1).val
    omega)
  rw [tblWord23_eq c (grid23.coords t) (a0.1 0) (y 0) _ e0, valBlk23_eq a0 Vin c t (y 0) _ e0, e1]

end Cert.KernelIdeal.Hand

end
-- ==== Proof.KI.GatherRegion23.lean ====
/-
  Gather region 23 (custom_call 23): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody23
import proofs.«414509_j14181982011419_2_alg».proof.Proof.KI.GatherBlk23
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk23 (a0 : (pcfg23 (F := F)).Adm) : Prop := ∀ e : S131072.Idx, (a0.1 0 e).toNat < 100000

/-! ## The grid and the result window's blocks -/

/-- On the one-axis grid a point's coordinate is its number. -/
theorem regCoords23 (t : Fin grid23.N) : (grid23.coords t 0).val = t.val := by
  have ht : t.val < 16384 := N_23 ▸ t.isLt
  show t.val / grid23.stride 0 % grid23.bound 0 = t.val
  rw [show grid23.stride 0 = 1 from by decide, show grid23.bound 0 = 16384 from rfl, Nat.div_one, Nat.mod_eq_of_lt ht]

/-- A point's number as the 32-bit word the index maps compute with. -/
theorem regWord23 (t : Fin grid23.N) : (BitVec.ofNat 32 (grid23.coords t 0).val).toNat = t.val := by
  have ht : t.val < 16384 := N_23 ▸ t.isLt
  rw [BitVec.toNat_ofNat, regCoords23]; omega

/-- The result window's block at point `t` is block `t` along the rows, at zero along the lanes. -/
theorem regOutIndex23 (a0 : (pcfg23 (F := F)).Adm) (t : Fin (cfg23 a0).N) : ((cfg23 a0).win 1).index t = ![t.val, 0] := by
  show cc23_transform_2 (grid23.coords t) = _
  unfold cc23_transform_2
  funext a; fin_cases a
  · exact regWord23 t
  · rfl

/-- The result window is written back at every point: consecutive points have different blocks. -/
theorem regOutFlush23 (a0 : (pcfg23 (F := F)).Adm) (t : Fin (cfg23 a0).N) : ((cfg23 a0).win 1).flush t = true := by
  have htN : t.val < 16384 := N_23 ▸ t.isLt
  rw [Pipeline.Window.flush_out _ rfl]
  by_cases h : t.val + 1 = 16384
  · exact Or.inl (show t.val + 1 = grid23.N by rw [N_23]; exact h)
  · have hlt : t.val + 1 < grid23.N := by rw [N_23]; omega
    refine Or.inr ⟨hlt, fun e => ?_⟩
    have e' : (![t.val + 1, 0] : Fin 2 → ℕ) = ![t.val, 0] := (regOutIndex23 a0 ⟨t.val + 1, hlt⟩).symm.trans (e.trans (regOutIndex23 a0 t))
    have e0 := congrFun e' 0
    simp at e0

/-- The index table, held as the pipeline's one prefetched table. -/
theorem prefHeldEq23 (a0 : (pcfg23 (F := F)).Adm) (c : Dev nD) :
    (Pipeline.prefHeld (Ix := Unit) (Name := ℕ) (U := UU nD τ) (Lvl := ℕ) pre23 c (fun _ => fullShare) a0.1 : sProp (MM F))
      = pt c (Memref.whole main_v149) (a0.1 0) := by
  unfold Pipeline.prefHeld
  rw [show (Finset.univ : Finset (Fin pre23.K)) = {0} from rfl, BI.bigSep_singleton]
  rfl

/-- The value window's staging buffer holds its block at every point. -/
theorem beforeVal23 (a0 : (pcfg23 (F := F)).Adm) (Vin : Dev nD → Valuation τ sig (Elt F)) (c : Dev nD) (t : Fin (cfg23 a0).N) (d) :
    (dat23 a0 Vin c).before 0 t d = iblk23 a0 Vin c 0 t :=
  ((dat23 a0 Vin c).before_in_eq_fetched 0 rfl (fun _ => rfl) (fun _ _ _ => rfl)
    (fun t => by rw [after23_0]; unfold Dat.blockOf iblk23; rw [A_eq23]; try rfl) t d).trans
    (by unfold Dat.fetched Dat.blockOf iblk23; rw [A_eq23]; try rfl)

/-! ## The kernel's checks, from the table's range -/

/-- Each of the point's eight words is a word of the table, so a row number. -/
theorem tblWordLt23 (a0 : (pcfg23 (F := F)).Adm) (hok : GatherOk23 a0) (c : Dev nD) (i : grid23.Coords) (j : Fin 8) :
    (tblWord23 c i (a0.1 0) j).toNat < 100000 := by
  unfold tblWord23
  exact hok _

/-- So the kernel's eight checks hold at every point. -/
theorem gatherChk23 (a0 : (pcfg23 (F := F)).Adm) (hok : GatherOk23 a0) (c : Dev nD) (i : grid23.Coords) : GatherChk23 c i (a0.1 0) :=
  ⟨⟨chkRow _ (tblWordLt23 a0 hok c i 0), chkRow _ (tblWordLt23 a0 hok c i 0)⟩,
   ⟨chkRow _ (tblWordLt23 a0 hok c i 1), chkRow _ (tblWordLt23 a0 hok c i 1)⟩,
   ⟨chkRow _ (tblWordLt23 a0 hok c i 2), chkRow _ (tblWordLt23 a0 hok c i 2)⟩,
   ⟨chkRow _ (tblWordLt23 a0 hok c i 3), chkRow _ (tblWordLt23 a0 hok c i 3)⟩,
   ⟨chkRow _ (tblWordLt23 a0 hok c i 4), chkRow _ (tblWordLt23 a0 hok c i 4)⟩,
   ⟨chkRow _ (tblWordLt23 a0 hok c i 5), chkRow _ (tblWordLt23 a0 hok c i 5)⟩,
   ⟨chkRow _ (tblWordLt23 a0 hok c i 6), chkRow _ (tblWordLt23 a0 hok c i 6)⟩,
   chkRow _ (tblWordLt23 a0 hok c i 7)⟩

/-! ## The body obligation, at a generic point -/

/-- What the body is called with at point `t`: the invariant, the core's dues, each window's current staging memref at
    what the pipeline left there, -/
def bodyPre23 (a0 : (pcfg23 (F := F)).Adm) (Vin : Dev nD → Valuation τ sig (Elt F)) (c : Dev nD) (t : Fin (cfg23 a0).N) : sProp (MM F) :=
  iprop((dat23 a0 Vin c).Φ t.castSucc ∗ (dat23 a0 Vin c).owesAt () t.castSucc
    ∗ (∃ d, owns (c : Thread nD τ) (((cfg23 a0).win 0).stage ((cfg23 a0).slots t 0)) fullShare ((dat23 a0 Vin c).before 0 t d))
    ∗ (∃ d, owns (c : Thread nD τ) (((cfg23 a0).win 1).stage ((cfg23 a0).slots t 1)) fullShare ((dat23 a0 Vin c).before 1 t d)))

/-- and what it returns. -/
def bodyPost23 (a0 : (pcfg23 (F := F)).Adm) (Vin : Dev nD → Valuation τ sig (Elt F)) (c : Dev nD) (t : Fin (cfg23 a0).N) : sProp (MM F) :=
  iprop((dat23 a0 Vin c).Φ t.succ ∗ (dat23 a0 Vin c).owesAt () t.succ
    ∗ owns (c : Thread nD τ) (((cfg23 a0).win 0).stage ((cfg23 a0).slots t 0)) fullShare ((dat23 a0 Vin c).after 0 t)
    ∗ owns (c : Thread nD τ) (((cfg23 a0).win 1).stage ((cfg23 a0).slots t 1)) fullShare ((dat23 a0 Vin c).after 1 t))

/-- The body at any point: the invariant opened into the embedding array, the semaphores, the table and the scratch;
    the value window's memref at its block; the checks from the table's range; so the kernel's run applies, and what it
    leaves in the result window's memref is the point's block of the gathered array. -/
theorem sound_body23 (a0 : (pcfg23 (F := F)).Adm) (hok : GatherOk23 a0) (Vin : Dev nD → Valuation τ sig (Elt F)) (c : Dev nD) (t : Fin (cfg23 a0).N) :
    bodyPre23 a0 Vin c t ⊢ wp frame (wpE (defs₀ (F := F)) 𝒱₀ c none) Set.univ
      (defs₀ .tc (cfg23 a0).body ((cfg23 a0).bodyArgs t ((cfg23 a0).slots t))) (fun _ => bodyPost23 a0 Vin c t) := by
  unfold bodyPre23 bodyPost23
  simp only [beforeVal23]
  rw [Phi_eq23, Phi_eq23, after23_0, after23_1, ← gatherBlk_blk23]
  unfold Phi23 Pipeline.Dat.owesAt Pipeline.owesWithin
  rw [owed_eq23, owed_eq23, prefHeldEq23, scopedRest23_split]
  iintro ⟨⟨Hx, Hos, Ht, ⟨%fs, Hs⟩, Hsb⟩, ⟨%W, %hW, HO⟩, ⟨%d0, H0⟩, ⟨%d1, H1⟩⟩
  iapply (gatherRun23 c (grid23.coords t) _ _ _ _ (a0.1 0) (Vr Vin c main_v109) (iblk23 a0 Vin c 0 t) (gatherChk23 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation23 (a0 : (pcfg23 (F := F)).Adm) (hok : GatherOk23 a0) (Vin : Dev nD → Valuation τ sig (Elt F)) (c : Dev nD) :
    BodyObligation (dat23 a0 Vin c) (defs₀ (F := F)) 𝒱₀ () Set.univ := fun t => by
  rw [bigSep_W23, bigSep_W23]
  exact sound_body23 a0 hok Vin c t

/-! ## From the blocks to the arrays -/

/-- The value array after the region: as entered. -/
theorem arrAt23_in (a0 : (pcfg23 (F := F)).Adm) (Vin : Dev nD → Valuation τ sig (Elt F)) (c : Dev nD) :
    (dat23 a0 Vin c).arrAt 0 (cfg23 a0).N = Vr Vin c main_v150 :=
  ((dat23 a0 Vin c).arrAt_in 0 rfl _).trans (A_eq23 a0 Vin c 0)

/-- Every index of the result array is in some point's block: row `e`, lane `d` is element `(e % 8, d)` of the block
    of point `e / 8`. -/
theorem regOutCover23 (a0 : (pcfg23 (F := F)).Adm) (i : S131072x128.Idx) :
    ∃ t : Fin (cfg23 a0).N, ((cfg23 a0).win 1).flush t = true ∧ i ∈ (((cfg23 a0).win 1).blk t).view.set := by
  have hi0 : (i 0).val < 131072 := (i 0).isLt
  have hi1 : (i 1).val < 128 := (i 1).isLt
  have hN : (i 0).val / 8 < grid23.N := by rw [N_23]; omega
  obtain ⟨t, ht⟩ : ∃ t : Fin (cfg23 a0).N, t.val = (i 0).val / 8 := ⟨⟨_, hN⟩, rfl⟩
  have hx : (((cfg23 a0).win 1).blk t).view.emb (ValueIdx.ix2 ⟨(i 0).val % 8, Nat.mod_lt _ (by decide)⟩ (i 1)) = i := by
    funext a; apply Fin.ext
    have e0 : ((cfg23 a0).win 1).index t (0 : Fin 2) = t.val := congrFun (regOutIndex23 a0 t) (0 : Fin 2)
    have e1 : ((cfg23 a0).win 1).index t (1 : Fin 2) = 0 := congrFun (regOutIndex23 a0 t) (1 : Fin 2)
    match a with
    | ⟨0, _⟩ => show ((cfg23 a0).win 1).index t (0 : Fin 2) * 8 + 1 * ((i 0).val % 8) = (i 0).val; omega
    | ⟨1, _⟩ => show ((cfg23 a0).win 1).index t (1 : Fin 2) * 128 + 1 * (i 1).val = (i 1).val; omega
  exact ⟨t, regOutFlush23 a0 t, hx ▸ (((cfg23 a0).win 1).blk t).view.emb_mem_set _⟩

/-- The result array after the region: the gathered and scaled rows, whole. -/
theorem arrAt23_out (a0 : (pcfg23 (F := F)).Adm) (Vin : Dev nD → Valuation τ sig (Elt F)) (c : Dev nD) :
    (dat23 a0 Vin c).arrAt 1 (cfg23 a0).N = gout23 a0 Vin c :=
  (dat23 a0 Vin c).arrAt_eq_of_cover 1 (gout23 a0 Vin c)
    (fun t _ => by
      show ((cfg23 a0).win 1).cut ((cfg23 a0).grid.coords t) ((dat23 a0 Vin c).after 1 t) = _
      rw [after23_1])
    (regOutCover23 a0)

/-! ## The region as a segment of @main -/

/-- The ownership layout of the kernel's eight semaphores. -/
theorem ownSemFacts23 : Pipeline.OwnSemFacts spec23 osem23 := by decide

/-- The kernel's own cells at zero, listed. -/
theorem ownSemsListed23 (c : Dev nD) :
    (Pipeline.ownSems0 (Ix := Unit) (Name := ℕ) (U := UU nD τ) (Lvl := ℕ) (Val := Elt F) (τ := τ) osem23 c : sProp (MM F)) = sems23 c :=
  Pipeline.ownSems0_eq_of_list c osem23 [0, 1, 2, 3, 4, 5, 6, 7] (by decide) (by decide)

/-- The unscoped buffers that are no window's array, no table, and not the embedding array. -/
abbrev restRefs23 : Finset (Ref sig .tc) :=
  (((Finset.univ.filter fun b : Ref sig .tc => ¬ b.isScoped) \ Finset.univ.image (Pipeline.arrRef spec23)) \ Finset.univ.image pre23.ref) \ {main_v109}

/-- Those buffers, each whole at its contents under `Vin`: what bypasses the region. -/
def Zrest23 (Vin : Dev nD → Valuation τ sig (Elt F)) (c : Dev nD) : sProp (MM F) :=
  bigSep restRefs23 fun b => ((c : Thread nD τ).loc b) ↦{fullShare} Vr Vin c b

/-- The embedding array is an unscoped buffer that is no window's array and no table. -/
theorem embArrMem23 : ({main_v109} : Finset (Ref sig .tc)) ⊆
    ((Finset.univ.filter fun b : Ref sig .tc => ¬ b.isScoped) \ Finset.univ.image (Pipeline.arrRef spec23)) \ Finset.univ.image pre23.ref := by
  decide

/-- The unscoped buffers that are no window's array: the index table, the embedding array, and the rest. -/
theorem unscopedRestOpen23 (Vin : Dev nD → Valuation τ sig (Elt F)) (c : Dev nD) :
    (Pipeline.unscopedRest (Ix := Unit) (Name := ℕ) (U := UU nD τ) (Lvl := ℕ) spec23 c (Vr Vin c) : sProp (MM F))
      = iprop(Pipeline.prefHeld pre23 c (fun _ => fullShare) (fun k => Vr Vin c (pre23.ref k))
          ∗ pt c (Memref.whole main_v109) (Vr Vin c main_v109) ∗ Zrest23 Vin c) := by
  rw [Pipeline.unscopedRest_split preFacts23 c (Vr Vin c)]
  unfold Pipeline.unscopedRestP Zrest23
  rw [BI.bigSep_sdiff_split embArrMem23, BI.bigSep_singleton]
  rfl

/-- The buffer contents when the region is left: the result array at the gathered rows, every other buffer as entered. -/
abbrev Vout23 (a0 : (pcfg23 (F := F)).Adm) (Vin : Dev nD → Valuation τ sig (Elt F)) (c : Dev nD) : Valuation τ sig (Elt F) :=
  Function.update (Vin c) main_v151 (gout23 a0 Vin c)

/-- At the exit each of the region's arrays holds what the pipeline leaves; -/
theorem hF23 (a0 : (pcfg23 (F := F)).Adm) (Vin : Dev nD → Valuation τ sig (Elt F)) (c : Dev nD) (w : Fin (cfg23 a0).W) :
    (dat23 a0 Vin c).arrAt w (cfg23 a0).N = Vr (Vout23 a0 Vin) c (Pipeline.arrRef spec23 w) := by
  match w with
  | ⟨0, _⟩ =>
    show (dat23 a0 Vin c).arrAt 0 (cfg23 a0).N = Vr (Vout23 a0 Vin) c (Pipeline.arrRef spec23 0)
    rw [arrAt23_in]
    exact (Function.update_of_ne (StableHlo.devRef_ne_of_ne (by decide) : (Proc.devRef .tc main_v150 : DevRef τ sig) ≠ Proc.devRef .tc main_v151) _ _).symm
  | ⟨1, _⟩ =>
    show (dat23 a0 Vin c).arrAt 1 (cfg23 a0).N = Vr (Vout23 a0 Vin) c (Pipeline.arrRef spec23 1)
    rw [arrAt23_out]
    exact (Function.update_self (Proc.devRef .tc main_v151 : DevRef τ sig) _ (Vin c)).symm

/-- and every other buffer what it held at entry. -/
theorem hrest23 (a0 : (pcfg23 (F := F)).Adm) (Vin : Dev nD → Valuation τ sig (Elt F)) (c : Dev nD) :
    ∀ b : Ref sig .tc, b ∉ Finset.univ.image (Pipeline.arrRef spec23) → Vr (Vout23 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat23` at the entry valuation `Vin`
    (`hd`), the index table's contents under `Vin` being the pinned ones (`htbl`) and row numbers (`hok`). -/
def reg23 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk23 (F := F) (a (23 : Fin 34)))
    (hd : ∀ c, pdats (23 : Fin 34) c = dat23 (a (23 : Fin 34)) Vin c) (htbl : ∀ c, (a (23 : Fin 34)).1 = fun k => Vr Vin c (pre23.ref k)) :
    Pipeline.RegionSeg (pcfgs (F := F)) a pdats () defs₀ 𝒱₀ L lv (23 : Fin 34) where
  win := (launch23 (F := F)).win.to₀
  block_pos := (launch23 (F := F)).block_pos
  stage_whole := (launch23 (F := F)).stage_whole
  K := Fin 8
  osem := osem23
  ho := ownSemFacts23
  hbody c := by rw [hd c]; exact (body_obligation23 (a (23 : Fin 34)) hok Vin c).loose
  hwaits := Pipeline.hwaits_of_owed_zero _ _ _ _ L lv (23 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v151 (gout23 (a (23 : Fin 34)) Vin c)) ∗ Rest c)
  X c := iprop(pt c (Memref.whole main_v109) (Vr Vin c main_v109) ∗ sems23 c)
  Y c := iprop(pt c (Memref.whole main_v109) (Vr Vin c main_v109)
    ∗ Pipeline.prefHeld (Ix := Unit) (Name := ℕ) (U := UU nD τ) (Lvl := ℕ) pre23 c (fun _ => fullShare) (a (23 : Fin 34)).1)
  Z c := Zrest23 Vin c
  hentry c := by
    rw [ownSemsListed23]
    have hsplit := Pipeline.arrays_of_unscopedBufs (p := (23 : Fin 34)) (pcfgs (F := F)) a pdats (launch23 (F := F)).win (launch23 (F := F)).arr_whole c
      ((pdats (23 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen23 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (23 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq23]; unfold Phi23
    iintro ⟨⟨Hx, Hos⟩, Ht, Hr⟩
    isplitl [Hx]; · iexact Hx
    isplitl [Hos]; · iexact Hos
    isplitl [Ht]; · iexact Ht
    iexact Hr
  hout c := by
    rw [ownSemsListed23, hd c, Phi_eq23]; unfold Phi23
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (23 : Fin 34)) (pcfgs (F := F)) a (Ix := Unit) (Name := ℕ) (U := UU nD τ) (Lvl := ℕ)
      (launch23 (F := F)).win (launch23 (F := F)).arr_whole c pdats ((pdats (23 : Fin 34) c).share_full fun _ => by rw [hd c]; rfl)
      (Vr Vin c) (Vr (Vout23 (a (23 : Fin 34)) Vin) c) ((pdats (23 : Fin 34) c).arrAt · (cfg23 (a (23 : Fin 34))).N)
      (fun w => by rw [hd c]; exact hF23 (a (23 : Fin 34)) Vin c w) (hrest23 (a (23 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen23 Vin c).symm)
      isplitl [Ht]; · rw [← htbl c]; iexact Ht
      isplitl [Hx]; · iexact Hx
      iexact Hz
    unfold Pipeline.Dat.owesAt Pipeline.owesWithin
    rw [show (pdats (23 : Fin 34) c).owed (Fin.last _) = 0 from by rw [hd c]; rfl]
    icases HO with ⟨%W, -, HO⟩; iexists W; iexact HO

end Cert.KernelIdeal.Hand

end
-- ==== Proof.KI.GatherDat24.lean ====
/-
  Gather region 24 (custom_call 24): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem24 : Fin 8 → SemLoc sig := fun | 0 => .dma 284 | 1 => .dma 285 | 2 => .dma 286 | 3 => .dma 287 | 4 => .dma 288 | 5 => .dma 289 | 6 => .dma 290 | 7 => .dma 291

/-- The eight counters at zero, as the run finds them and hands them back. -/
abbrev sems24 (c : Dev nD) : sProp (MM F) :=
  iprop(semVal ((c : Thread nD τ), osem24 0) 0 ∗ semVal ((c : Thread nD τ), osem24 1) 0 ∗ semVal ((c : Thread nD τ), osem24 2) 0
    ∗ semVal ((c : Thread nD τ), osem24 3) 0 ∗ semVal ((c : Thread nD τ), osem24 4) 0 ∗ semVal ((c : Thread nD τ), osem24 5) 0
    ∗ semVal ((c : Thread nD τ), osem24 6) 0 ∗ semVal ((c : Thread nD τ), osem24 7) 0)

/-- Word `j` of the eight the index table holds for point `i`, as the kernel's scalar load reads it. -/
def tblWord24 (c : Dev nD) (i : grid24.Coords) (tbl : Bf (F := F) c (Memref.whole main_v152)) (j : Fin 8) : BitVec 32 :=
  (Memref.whole main_v152).view.readAt (Elt F) (Rect.unit (s := S131072) (k24_off1 i (BitVec.ofNat 32 j.val)) S1.size (k24_off1_inb i j)).toLoadRect tbl
    (Shape.Idx.first (s := S1) (numel1_S1.symm ▸ Nat.one_pos))

/-- Window `w`'s block at point `t`, read off its array at the region's entry. -/
def iblk24 (a0 : (pcfg24 (F := F)).Adm) (Vin : Dev nD → Valuation τ sig (Elt F)) (c : Dev nD) (w : Fin (cfg24 a0).W) (t : Fin (cfg24 a0).N) :
    (((cfg24 a0).win w).xblock ((cfg24 a0).grid.coords t)).Idx → Elt F ((cfg24 a0).win w).elt :=
  (((cfg24 a0).win w).blk t).view.read (Elt F) (Vr Vin c (Pipeline.arrRef spec24 w))

/-- The result array the region leaves: the gathered and scaled rows of the embedding array, whole. -/
def gout24 (a0 : (pcfg24 (F := F)).Adm) (Vin : Dev nD → Valuation τ sig (Elt F)) (c : Dev nD) : Buf (Elt F) ((c : Thread nD τ).loc main_v154) :=
  gatherArr (Vr Vin c main_v109) (a0.1 0) (Vr Vin c main_v153)

/-- The invariant between points: the embedding array as entered, the kernel's semaphores at zero, the index table, the
    scoped buffers no window stages (the kernel's scratch among them). -/
def Phi24 (a0 : (pcfg24 (F := F)).Adm) (Vin : Dev nD → Valuation τ sig (Elt F)) (c : Dev nD) : sProp (MM F) :=
  iprop(pt c (Memref.whole main_v109) (Vr Vin c main_v109) ∗ sems24 c
    ∗ Pipeline.prefHeld (Ix := Unit) (Name := ℕ) (U := UU nD τ) (Lvl := ℕ) pre24 c (fun _ => fullShare) a0.1
    ∗ Pipeline.scopedRest (Ix := Unit) (Name := ℕ) (U := UU nD τ) (Lvl := ℕ) (Val := Elt F) spec24 c)

/-- The proof data on core `c`. -/
def dat24 (a0 : (pcfg24 (F := F)).Adm) (Vin : Dev nD → Valuation τ sig (Elt F)) (c : Dev nD) :
    Pipeline.Dat τ (Elt F) Unit ℕ (UU nD τ) ℕ ((pcfg24 (F := F)).at a0) c where
  A w := Vr Vin c (Pipeline.arrRef spec24 w)
  after w t := match w with
    | ⟨0, _⟩ => iblk24 a0 Vin c 0 t
    | ⟨1, _⟩ => (((cfg24 a0).win 1).blk t).view.read (Elt F) (gout24 a0 Vin c)
  Φ _ := Phi24 a0 Vin c
  q _ := fullShare
  owed _ := 0

theorem A_eq24 (a0 : (pcfg24 (F := F)).Adm) (Vin : Dev nD → Valuation τ sig (Elt F)) (c : Dev nD) (w : Fin (cfg24 a0).W) :
    (dat24 a0 Vin c).A w = Vr Vin c (Pipeline.arrRef spec24 w) := by dsimp only [dat24]
theorem after24_0 (a0 : (pcfg24 (F := F)).Adm) (Vin : Dev nD → Valuation τ sig (Elt F)) (c : Dev nD) (t : Fin (cfg24 a0).N) :
    (dat24 a0 Vin c).after 0 t = iblk24 a0 Vin c 0 t := by dsimp only [dat24]; rfl
theorem after24_1 (a0 : (pcfg24 (F := F)).Adm) (Vin : Dev nD → Valuation τ sig (Elt F)) (c : Dev nD) (t : Fin (cfg24 a0).N) :
    (dat24 a0 Vin c).after 1 t = (((cfg24 a0).win 1).blk t).view.read (Elt F) (gout24 a0 Vin c) := by dsimp only [dat24]; rfl
theorem Phi_eq24 (a0 : (pcfg24 (F := F)).Adm) (Vin : Dev nD → Valuation τ sig (Elt F)) (c : Dev nD) (t : Fin ((cfg24 a0).N + 1)) :
    (dat24 a0 Vin c).Φ t = Phi24 a0 Vin c := rfl
theorem owed_eq24 (a0 : (pcfg24 (F := F)).Adm) (Vin : Dev nD → Valuation τ sig (Elt F)) (c : Dev nD) (t : Fin ((cfg24 a0).N + 1)) :
    (dat24 a0 Vin c).owed t = 0 := rfl
theorem q_eq24 (a0 : (pcfg24 (F := F)).Adm) (Vin : Dev nD → Valuation τ sig (Elt F)) (c : Dev nD) (w : Fin (cfg24 a0).W) :
    (dat24 a0 Vin c).q w = fullShare := rfl

/-- The pinned family's configuration at region 24 is this one. -/
example (a : (p : Fin 34) → (pcfgs (F := F) p).Adm) : Pipeline.pin (pcfgs (F := F)) a (24 : Fin 34) = (pcfg24 (F := F)).at (a (24 : Fin 34)) := rfl

end Cert.KernelIdeal.Hand

end
-- ==== Proof.KI.GatherBody24.lean ====
/-
  Gather region 24 (custom_call 24): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat24
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk24 (c : Dev nD) (i : grid24.Coords) (tbl : Bf (F := F) c (Memref.whole main_v152)) : Prop where
  h1 : k24_chk1 (tblWord24 c i tbl 0)
  h2 : k24_chk2 (tblWord24 c i tbl 1)
  h3 : k24_chk3 (tblWord24 c i tbl 2)
  h4 : k24_chk4 (tblWord24 c i tbl 3)
  h5 : k24_chk5 (tblWord24 c i tbl 4)
  h6 : k24_chk6 (tblWord24 c i tbl 5)
  h7 : k24_chk7 (tblWord24 c i tbl 6)
  h8 : k24_chk8 (tblWord24 c i tbl 7)

/-- A one-row slice of the embedding array at the row a word names, read at lane `z 1`: the array's element there. -/
theorem rowRead24 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun24 (c : Dev nD) (i : grid24.Coords)
    (M3 : Memref sig .tc .vmem S8x1 .f32) (h3 : M3.IsWhole) (M4 : Memref sig .tc .vmem S8x128 .f32) (h4 : M4.IsWhole)
    (tbl : Bf (F := F) c (Memref.whole main_v152)) (x : Bf (F := F) c (Memref.whole main_v109))
    (vb : Vec F S8x1 .f32) (hchk : GatherChk24 c i tbl) (Q : PUnit → sProp (MM F)) :
    iprop(pt c (Memref.whole main_v152) tbl ∗ pt c (Memref.whole main_v109) x
      ∗ owns (c : Thread nD τ) M3 fullShare vb ∗ (∃ d, owns (c : Thread nD τ) M4 fullShare d)
      ∗ (∃ fs, pt c (Memref.whole cc24_scratch0) fs) ∗ sems24 c ∗ (∃ W, owes (c : Thread nD τ) (0 : CellTallies nD τ sig Unit) W)
      ∗ (iprop(pt c (Memref.whole main_v152) tbl ∗ pt c (Memref.whole main_v109) x
          ∗ owns (c : Thread nD τ) M3 fullShare vb ∗ owns (c : Thread nD τ) M4 fullShare (gatherBlk x (tblWord24 c i tbl) vb)
          ∗ (∃ fs, pt c (Memref.whole cc24_scratch0) fs) ∗ sems24 c ∗ (∃ W, owes (c : Thread nD τ) (0 : CellTallies nD τ sig Unit) W)) -∗ Q ⟨⟩))
    ⊢ wp frame (wpE (defs₀ (F := F)) 𝒱₀ c none) Set.univ
        (cc24__gather_kernel i (Memref.whole main_v152) (Memref.isWhole_whole _) (Memref.whole main_v109) (Memref.isWhole_whole _) M3 h3 M4 h4
          (Memref.whole cc24_scratch0) (Memref.isWhole_whole _) cc24_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 284).1 $$ Hx
  icases Hx' with ⟨Hxr, Hx0, Hx1, Hx2, Hx3, Hx4, Hx5, Hx6, Hx7⟩
  sl_unfold [cc24__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 284).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k24_pay1 gatherBlk
    show FloatOps.mulf _ _ = FloatOps.mulf _ _
    congr 1
    · unfold gatherRun24.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun24.sl.dma8 gatherRun24.sl.dma8_1 gatherRun24.sl.dma8_2 gatherRun24.sl.dma8_3 gatherRun24.sl.dma8_4 gatherRun24.sl.dma8_5
        gatherRun24.sl.dma8_6 gatherRun24.sl.dma8_7 gatherRun24.sl.r gatherRun24.sl.r_1 gatherRun24.sl.r_2 gatherRun24.sl.r_3 gatherRun24.sl.r_4
        gatherRun24.sl.r_5 gatherRun24.sl.r_6 gatherRun24.sl.r_7
      refine canonRows8 _ _ _ _ _ _ _ _ _ _ _ _ _ _ _ _ (fun r d => x (embIdx (rowOf (tblWord24 c i tbl r)) d)) ?_ ?_ ?_ ?_ ?_ ?_ ?_ ?_ y
      · exact fun z => rowRead24 c _ (tblWord24 c i tbl 0) rfl rfl _ _ x z
      · exact fun z => rowRead24 c _ (tblWord24 c i tbl 1) rfl rfl _ _ x z
      · exact fun z => rowRead24 c _ (tblWord24 c i tbl 2) rfl rfl _ _ x z
      · exact fun z => rowRead24 c _ (tblWord24 c i tbl 3) rfl rfl _ _ x z
      · exact fun z => rowRead24 c _ (tblWord24 c i tbl 4) rfl rfl _ _ x z
      · exact fun z => rowRead24 c _ (tblWord24 c i tbl 5) rfl rfl _ _ x z
      · exact fun z => rowRead24 c _ (tblWord24 c i tbl 6) rfl rfl _ _ x z
      · exact fun z => rowRead24 c _ (tblWord24 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk24.lean ====
/-
  Gather region 24 (custom_call 24): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat24
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word24 (i : grid24.Coords) (j : Fin 8) : k24_off1 i (BitVec.ofNat 32 j.val) 0 = (i 0).val * 8 + j.val := by
  have hi : (i 0).val < 16384 := (i 0).isLt
  have hj : j.val < 8 := j.isLt
  unfold k24_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word24 (i : grid24.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord24_eq (c : Dev nD) (i : grid24.Coords) (tbl : Bf (F := F) c (Memref.whole main_v152)) (j : Fin 8)
    (e : Fin 131072) (he : e.val = (i 0).val * 8 + j.val) : tblWord24 c i tbl j = tbl (tblIdx e) := by
  unfold tblWord24
  show tbl _ = tbl _
  refine congrArg tbl ?_
  funext a; apply Fin.ext
  match a with
  | ⟨0, _⟩ =>
    show k24_off1 i (BitVec.ofNat 32 j.val) 0 + 1 * 0 = e.val
    rw [off_word24, he]; omega

/-- Row `j` of the value window's block at point `t` is the value array's row `8 t + j`. -/
theorem valBlk24_eq (a0 : (pcfg24 (F := F)).Adm) (Vin : Dev nD → Valuation τ sig (Elt F)) (c : Dev nD) (t : Fin (cfg24 a0).N)
    (j : Fin 8) (e : Fin 131072) (he : e.val = ((grid24.coords t) 0).val * 8 + j.val) :
    iblk24 a0 Vin c 0 t (colIdx j) = Vr Vin c main_v153 (valIdx e) := by
  unfold iblk24
  show Vr Vin c main_v153 _ = Vr Vin c main_v153 _
  refine congrArg (Vr Vin c main_v153) ?_
  funext a; apply Fin.ext
  match a with
  | ⟨0, _⟩ =>
    show (BitVec.ofNat 32 ((grid24.coords t) 0).val).toNat * 8 + 1 * j.val = e.val
    rw [coord_word24, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk24 (a0 : (pcfg24 (F := F)).Adm) (Vin : Dev nD → Valuation τ sig (Elt F)) (c : Dev nD) (t : Fin (cfg24 a0).N) :
    gatherBlk (Vr Vin c main_v109) (tblWord24 c (grid24.coords t) (a0.1 0)) (iblk24 a0 Vin c 0 t)
      = (((cfg24 a0).win 1).blk t).view.read (Elt F) (gout24 a0 Vin c) := by
  funext y
  show gatherBlk _ _ _ y = gout24 a0 Vin c ((((cfg24 a0).win 1).blk t).view.emb y)
  unfold gatherBlk gout24 gatherArr
  have e0 : ((((cfg24 a0).win 1).blk t).view.emb y (0 : Fin 2)).val = ((grid24.coords t) 0).val * 8 + (y 0).val := by
    show (BitVec.ofNat 32 ((grid24.coords t) 0).val).toNat * 8 + 1 * (y 0).val = _
    rw [coord_word24]; omega
  have e1 : (((cfg24 a0).win 1).blk t).view.emb y (1 : Fin 2) = y 1 := Fin.ext (by
    show (0#32 : BitVec 32).toNat * 128 + 1 * (y 1).val = (y 1).val
    show 0 * 128 + 1 * (y 1).val = (y 1).val
    omega)
  rw [tblWord24_eq c (grid24.coords t) (a0.1 0) (y 0) _ e0, valBlk24_eq a0 Vin c t (y 0) _ e0, e1]

end Cert.KernelIdeal.Hand

end
-- ==== Proof.KI.GatherRegion24.lean ====
/-
  Gather region 24 (custom_call 24): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody24
import proofs.«414509_j14181982011419_2_alg».proof.Proof.KI.GatherBlk24
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk24 (a0 : (pcfg24 (F := F)).Adm) : Prop := ∀ e : S131072.Idx, (a0.1 0 e).toNat < 100000

/-! ## The grid and the result window's blocks -/

/-- On the one-axis grid a point's coordinate is its number. -/
theorem regCoords24 (t : Fin grid24.N) : (grid24.coords t 0).val = t.val := by
  have ht : t.val < 16384 := N_24 ▸ t.isLt
  show t.val / grid24.stride 0 % grid24.bound 0 = t.val
  rw [show grid24.stride 0 = 1 from by decide, show grid24.bound 0 = 16384 from rfl, Nat.div_one, Nat.mod_eq_of_lt ht]

/-- A point's number as the 32-bit word the index maps compute with. -/
theorem regWord24 (t : Fin grid24.N) : (BitVec.ofNat 32 (grid24.coords t 0).val).toNat = t.val := by
  have ht : t.val < 16384 := N_24 ▸ t.isLt
  rw [BitVec.toNat_ofNat, regCoords24]; omega

/-- The result window's block at point `t` is block `t` along the rows, at zero along the lanes. -/
theorem regOutIndex24 (a0 : (pcfg24 (F := F)).Adm) (t : Fin (cfg24 a0).N) : ((cfg24 a0).win 1).index t = ![t.val, 0] := by
  show cc24_transform_2 (grid24.coords t) = _
  unfold cc24_transform_2
  funext a; fin_cases a
  · exact regWord24 t
  · rfl

/-- The result window is written back at every point: consecutive points have different blocks. -/
theorem regOutFlush24 (a0 : (pcfg24 (F := F)).Adm) (t : Fin (cfg24 a0).N) : ((cfg24 a0).win 1).flush t = true := by
  have htN : t.val < 16384 := N_24 ▸ t.isLt
  rw [Pipeline.Window.flush_out _ rfl]
  by_cases h : t.val + 1 = 16384
  · exact Or.inl (show t.val + 1 = grid24.N by rw [N_24]; exact h)
  · have hlt : t.val + 1 < grid24.N := by rw [N_24]; omega
    refine Or.inr ⟨hlt, fun e => ?_⟩
    have e' : (![t.val + 1, 0] : Fin 2 → ℕ) = ![t.val, 0] := (regOutIndex24 a0 ⟨t.val + 1, hlt⟩).symm.trans (e.trans (regOutIndex24 a0 t))
    have e0 := congrFun e' 0
    simp at e0

/-- The index table, held as the pipeline's one prefetched table. -/
theorem prefHeldEq24 (a0 : (pcfg24 (F := F)).Adm) (c : Dev nD) :
    (Pipeline.prefHeld (Ix := Unit) (Name := ℕ) (U := UU nD τ) (Lvl := ℕ) pre24 c (fun _ => fullShare) a0.1 : sProp (MM F))
      = pt c (Memref.whole main_v152) (a0.1 0) := by
  unfold Pipeline.prefHeld
  rw [show (Finset.univ : Finset (Fin pre24.K)) = {0} from rfl, BI.bigSep_singleton]
  rfl

/-- The value window's staging buffer holds its block at every point. -/
theorem beforeVal24 (a0 : (pcfg24 (F := F)).Adm) (Vin : Dev nD → Valuation τ sig (Elt F)) (c : Dev nD) (t : Fin (cfg24 a0).N) (d) :
    (dat24 a0 Vin c).before 0 t d = iblk24 a0 Vin c 0 t :=
  ((dat24 a0 Vin c).before_in_eq_fetched 0 rfl (fun _ => rfl) (fun _ _ _ => rfl)
    (fun t => by rw [after24_0]; unfold Dat.blockOf iblk24; rw [A_eq24]; try rfl) t d).trans
    (by unfold Dat.fetched Dat.blockOf iblk24; rw [A_eq24]; try rfl)

/-! ## The kernel's checks, from the table's range -/

/-- Each of the point's eight words is a word of the table, so a row number. -/
theorem tblWordLt24 (a0 : (pcfg24 (F := F)).Adm) (hok : GatherOk24 a0) (c : Dev nD) (i : grid24.Coords) (j : Fin 8) :
    (tblWord24 c i (a0.1 0) j).toNat < 100000 := by
  unfold tblWord24
  exact hok _

/-- So the kernel's eight checks hold at every point. -/
theorem gatherChk24 (a0 : (pcfg24 (F := F)).Adm) (hok : GatherOk24 a0) (c : Dev nD) (i : grid24.Coords) : GatherChk24 c i (a0.1 0) :=
  ⟨⟨chkRow _ (tblWordLt24 a0 hok c i 0), chkRow _ (tblWordLt24 a0 hok c i 0)⟩,
   ⟨chkRow _ (tblWordLt24 a0 hok c i 1), chkRow _ (tblWordLt24 a0 hok c i 1)⟩,
   ⟨chkRow _ (tblWordLt24 a0 hok c i 2), chkRow _ (tblWordLt24 a0 hok c i 2)⟩,
   ⟨chkRow _ (tblWordLt24 a0 hok c i 3), chkRow _ (tblWordLt24 a0 hok c i 3)⟩,
   ⟨chkRow _ (tblWordLt24 a0 hok c i 4), chkRow _ (tblWordLt24 a0 hok c i 4)⟩,
   ⟨chkRow _ (tblWordLt24 a0 hok c i 5), chkRow _ (tblWordLt24 a0 hok c i 5)⟩,
   ⟨chkRow _ (tblWordLt24 a0 hok c i 6), chkRow _ (tblWordLt24 a0 hok c i 6)⟩,
   chkRow _ (tblWordLt24 a0 hok c i 7)⟩

/-! ## The body obligation, at a generic point -/

/-- What the body is called with at point `t`: the invariant, the core's dues, each window's current staging memref at
    what the pipeline left there, -/
def bodyPre24 (a0 : (pcfg24 (F := F)).Adm) (Vin : Dev nD → Valuation τ sig (Elt F)) (c : Dev nD) (t : Fin (cfg24 a0).N) : sProp (MM F) :=
  iprop((dat24 a0 Vin c).Φ t.castSucc ∗ (dat24 a0 Vin c).owesAt () t.castSucc
    ∗ (∃ d, owns (c : Thread nD τ) (((cfg24 a0).win 0).stage ((cfg24 a0).slots t 0)) fullShare ((dat24 a0 Vin c).before 0 t d))
    ∗ (∃ d, owns (c : Thread nD τ) (((cfg24 a0).win 1).stage ((cfg24 a0).slots t 1)) fullShare ((dat24 a0 Vin c).before 1 t d)))

/-- and what it returns. -/
def bodyPost24 (a0 : (pcfg24 (F := F)).Adm) (Vin : Dev nD → Valuation τ sig (Elt F)) (c : Dev nD) (t : Fin (cfg24 a0).N) : sProp (MM F) :=
  iprop((dat24 a0 Vin c).Φ t.succ ∗ (dat24 a0 Vin c).owesAt () t.succ
    ∗ owns (c : Thread nD τ) (((cfg24 a0).win 0).stage ((cfg24 a0).slots t 0)) fullShare ((dat24 a0 Vin c).after 0 t)
    ∗ owns (c : Thread nD τ) (((cfg24 a0).win 1).stage ((cfg24 a0).slots t 1)) fullShare ((dat24 a0 Vin c).after 1 t))

/-- The body at any point: the invariant opened into the embedding array, the semaphores, the table and the scratch;
    the value window's memref at its block; the checks from the table's range; so the kernel's run applies, and what it
    leaves in the result window's memref is the point's block of the gathered array. -/
theorem sound_body24 (a0 : (pcfg24 (F := F)).Adm) (hok : GatherOk24 a0) (Vin : Dev nD → Valuation τ sig (Elt F)) (c : Dev nD) (t : Fin (cfg24 a0).N) :
    bodyPre24 a0 Vin c t ⊢ wp frame (wpE (defs₀ (F := F)) 𝒱₀ c none) Set.univ
      (defs₀ .tc (cfg24 a0).body ((cfg24 a0).bodyArgs t ((cfg24 a0).slots t))) (fun _ => bodyPost24 a0 Vin c t) := by
  unfold bodyPre24 bodyPost24
  simp only [beforeVal24]
  rw [Phi_eq24, Phi_eq24, after24_0, after24_1, ← gatherBlk_blk24]
  unfold Phi24 Pipeline.Dat.owesAt Pipeline.owesWithin
  rw [owed_eq24, owed_eq24, prefHeldEq24, scopedRest24_split]
  iintro ⟨⟨Hx, Hos, Ht, ⟨%fs, Hs⟩, Hsb⟩, ⟨%W, %hW, HO⟩, ⟨%d0, H0⟩, ⟨%d1, H1⟩⟩
  iapply (gatherRun24 c (grid24.coords t) _ _ _ _ (a0.1 0) (Vr Vin c main_v109) (iblk24 a0 Vin c 0 t) (gatherChk24 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation24 (a0 : (pcfg24 (F := F)).Adm) (hok : GatherOk24 a0) (Vin : Dev nD → Valuation τ sig (Elt F)) (c : Dev nD) :
    BodyObligation (dat24 a0 Vin c) (defs₀ (F := F)) 𝒱₀ () Set.univ := fun t => by
  rw [bigSep_W24, bigSep_W24]
  exact sound_body24 a0 hok Vin c t

/-! ## From the blocks to the arrays -/

/-- The value array after the region: as entered. -/
theorem arrAt24_in (a0 : (pcfg24 (F := F)).Adm) (Vin : Dev nD → Valuation τ sig (Elt F)) (c : Dev nD) :
    (dat24 a0 Vin c).arrAt 0 (cfg24 a0).N = Vr Vin c main_v153 :=
  ((dat24 a0 Vin c).arrAt_in 0 rfl _).trans (A_eq24 a0 Vin c 0)

/-- Every index of the result array is in some point's block: row `e`, lane `d` is element `(e % 8, d)` of the block
    of point `e / 8`. -/
theorem regOutCover24 (a0 : (pcfg24 (F := F)).Adm) (i : S131072x128.Idx) :
    ∃ t : Fin (cfg24 a0).N, ((cfg24 a0).win 1).flush t = true ∧ i ∈ (((cfg24 a0).win 1).blk t).view.set := by
  have hi0 : (i 0).val < 131072 := (i 0).isLt
  have hi1 : (i 1).val < 128 := (i 1).isLt
  have hN : (i 0).val / 8 < grid24.N := by rw [N_24]; omega
  obtain ⟨t, ht⟩ : ∃ t : Fin (cfg24 a0).N, t.val = (i 0).val / 8 := ⟨⟨_, hN⟩, rfl⟩
  have hx : (((cfg24 a0).win 1).blk t).view.emb (ValueIdx.ix2 ⟨(i 0).val % 8, Nat.mod_lt _ (by decide)⟩ (i 1)) = i := by
    funext a; apply Fin.ext
    have e0 : ((cfg24 a0).win 1).index t (0 : Fin 2) = t.val := congrFun (regOutIndex24 a0 t) (0 : Fin 2)
    have e1 : ((cfg24 a0).win 1).index t (1 : Fin 2) = 0 := congrFun (regOutIndex24 a0 t) (1 : Fin 2)
    match a with
    | ⟨0, _⟩ => show ((cfg24 a0).win 1).index t (0 : Fin 2) * 8 + 1 * ((i 0).val % 8) = (i 0).val; omega
    | ⟨1, _⟩ => show ((cfg24 a0).win 1).index t (1 : Fin 2) * 128 + 1 * (i 1).val = (i 1).val; omega
  exact ⟨t, regOutFlush24 a0 t, hx ▸ (((cfg24 a0).win 1).blk t).view.emb_mem_set _⟩

/-- The result array after the region: the gathered and scaled rows, whole. -/
theorem arrAt24_out (a0 : (pcfg24 (F := F)).Adm) (Vin : Dev nD → Valuation τ sig (Elt F)) (c : Dev nD) :
    (dat24 a0 Vin c).arrAt 1 (cfg24 a0).N = gout24 a0 Vin c :=
  (dat24 a0 Vin c).arrAt_eq_of_cover 1 (gout24 a0 Vin c)
    (fun t _ => by
      show ((cfg24 a0).win 1).cut ((cfg24 a0).grid.coords t) ((dat24 a0 Vin c).after 1 t) = _
      rw [after24_1])
    (regOutCover24 a0)

/-! ## The region as a segment of @main -/

/-- The ownership layout of the kernel's eight semaphores. -/
theorem ownSemFacts24 : Pipeline.OwnSemFacts spec24 osem24 := by decide

/-- The kernel's own cells at zero, listed. -/
theorem ownSemsListed24 (c : Dev nD) :
    (Pipeline.ownSems0 (Ix := Unit) (Name := ℕ) (U := UU nD τ) (Lvl := ℕ) (Val := Elt F) (τ := τ) osem24 c : sProp (MM F)) = sems24 c :=
  Pipeline.ownSems0_eq_of_list c osem24 [0, 1, 2, 3, 4, 5, 6, 7] (by decide) (by decide)

/-- The unscoped buffers that are no window's array, no table, and not the embedding array. -/
abbrev restRefs24 : Finset (Ref sig .tc) :=
  (((Finset.univ.filter fun b : Ref sig .tc => ¬ b.isScoped) \ Finset.univ.image (Pipeline.arrRef spec24)) \ Finset.univ.image pre24.ref) \ {main_v109}

/-- Those buffers, each whole at its contents under `Vin`: what bypasses the region. -/
def Zrest24 (Vin : Dev nD → Valuation τ sig (Elt F)) (c : Dev nD) : sProp (MM F) :=
  bigSep restRefs24 fun b => ((c : Thread nD τ).loc b) ↦{fullShare} Vr Vin c b

/-- The embedding array is an unscoped buffer that is no window's array and no table. -/
theorem embArrMem24 : ({main_v109} : Finset (Ref sig .tc)) ⊆
    ((Finset.univ.filter fun b : Ref sig .tc => ¬ b.isScoped) \ Finset.univ.image (Pipeline.arrRef spec24)) \ Finset.univ.image pre24.ref := by
  decide

/-- The unscoped buffers that are no window's array: the index table, the embedding array, and the rest. -/
theorem unscopedRestOpen24 (Vin : Dev nD → Valuation τ sig (Elt F)) (c : Dev nD) :
    (Pipeline.unscopedRest (Ix := Unit) (Name := ℕ) (U := UU nD τ) (Lvl := ℕ) spec24 c (Vr Vin c) : sProp (MM F))
      = iprop(Pipeline.prefHeld pre24 c (fun _ => fullShare) (fun k => Vr Vin c (pre24.ref k))
          ∗ pt c (Memref.whole main_v109) (Vr Vin c main_v109) ∗ Zrest24 Vin c) := by
  rw [Pipeline.unscopedRest_split preFacts24 c (Vr Vin c)]
  unfold Pipeline.unscopedRestP Zrest24
  rw [BI.bigSep_sdiff_split embArrMem24, BI.bigSep_singleton]
  rfl

/-- The buffer contents when the region is left: the result array at the gathered rows, every other buffer as entered. -/
abbrev Vout24 (a0 : (pcfg24 (F := F)).Adm) (Vin : Dev nD → Valuation τ sig (Elt F)) (c : Dev nD) : Valuation τ sig (Elt F) :=
  Function.update (Vin c) main_v154 (gout24 a0 Vin c)

/-- At the exit each of the region's arrays holds what the pipeline leaves; -/
theorem hF24 (a0 : (pcfg24 (F := F)).Adm) (Vin : Dev nD → Valuation τ sig (Elt F)) (c : Dev nD) (w : Fin (cfg24 a0).W) :
    (dat24 a0 Vin c).arrAt w (cfg24 a0).N = Vr (Vout24 a0 Vin) c (Pipeline.arrRef spec24 w) := by
  match w with
  | ⟨0, _⟩ =>
    show (dat24 a0 Vin c).arrAt 0 (cfg24 a0).N = Vr (Vout24 a0 Vin) c (Pipeline.arrRef spec24 0)
    rw [arrAt24_in]
    exact (Function.update_of_ne (StableHlo.devRef_ne_of_ne (by decide) : (Proc.devRef .tc main_v153 : DevRef τ sig) ≠ Proc.devRef .tc main_v154) _ _).symm
  | ⟨1, _⟩ =>
    show (dat24 a0 Vin c).arrAt 1 (cfg24 a0).N = Vr (Vout24 a0 Vin) c (Pipeline.arrRef spec24 1)
    rw [arrAt24_out]
    exact (Function.update_self (Proc.devRef .tc main_v154 : DevRef τ sig) _ (Vin c)).symm

/-- and every other buffer what it held at entry. -/
theorem hrest24 (a0 : (pcfg24 (F := F)).Adm) (Vin : Dev nD → Valuation τ sig (Elt F)) (c : Dev nD) :
    ∀ b : Ref sig .tc, b ∉ Finset.univ.image (Pipeline.arrRef spec24) → Vr (Vout24 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat24` at the entry valuation `Vin`
    (`hd`), the index table's contents under `Vin` being the pinned ones (`htbl`) and row numbers (`hok`). -/
def reg24 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk24 (F := F) (a (24 : Fin 34)))
    (hd : ∀ c, pdats (24 : Fin 34) c = dat24 (a (24 : Fin 34)) Vin c) (htbl : ∀ c, (a (24 : Fin 34)).1 = fun k => Vr Vin c (pre24.ref k)) :
    Pipeline.RegionSeg (pcfgs (F := F)) a pdats () defs₀ 𝒱₀ L lv (24 : Fin 34) where
  win := (launch24 (F := F)).win.to₀
  block_pos := (launch24 (F := F)).block_pos
  stage_whole := (launch24 (F := F)).stage_whole
  K := Fin 8
  osem := osem24
  ho := ownSemFacts24
  hbody c := by rw [hd c]; exact (body_obligation24 (a (24 : Fin 34)) hok Vin c).loose
  hwaits := Pipeline.hwaits_of_owed_zero _ _ _ _ L lv (24 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v154 (gout24 (a (24 : Fin 34)) Vin c)) ∗ Rest c)
  X c := iprop(pt c (Memref.whole main_v109) (Vr Vin c main_v109) ∗ sems24 c)
  Y c := iprop(pt c (Memref.whole main_v109) (Vr Vin c main_v109)
    ∗ Pipeline.prefHeld (Ix := Unit) (Name := ℕ) (U := UU nD τ) (Lvl := ℕ) pre24 c (fun _ => fullShare) (a (24 : Fin 34)).1)
  Z c := Zrest24 Vin c
  hentry c := by
    rw [ownSemsListed24]
    have hsplit := Pipeline.arrays_of_unscopedBufs (p := (24 : Fin 34)) (pcfgs (F := F)) a pdats (launch24 (F := F)).win (launch24 (F := F)).arr_whole c
      ((pdats (24 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen24 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (24 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq24]; unfold Phi24
    iintro ⟨⟨Hx, Hos⟩, Ht, Hr⟩
    isplitl [Hx]; · iexact Hx
    isplitl [Hos]; · iexact Hos
    isplitl [Ht]; · iexact Ht
    iexact Hr
  hout c := by
    rw [ownSemsListed24, hd c, Phi_eq24]; unfold Phi24
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (24 : Fin 34)) (pcfgs (F := F)) a (Ix := Unit) (Name := ℕ) (U := UU nD τ) (Lvl := ℕ)
      (launch24 (F := F)).win (launch24 (F := F)).arr_whole c pdats ((pdats (24 : Fin 34) c).share_full fun _ => by rw [hd c]; rfl)
      (Vr Vin c) (Vr (Vout24 (a (24 : Fin 34)) Vin) c) ((pdats (24 : Fin 34) c).arrAt · (cfg24 (a (24 : Fin 34))).N)
      (fun w => by rw [hd c]; exact hF24 (a (24 : Fin 34)) Vin c w) (hrest24 (a (24 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen24 Vin c).symm)
      isplitl [Ht]; · rw [← htbl c]; iexact Ht
      isplitl [Hx]; · iexact Hx
      iexact Hz
    unfold Pipeline.Dat.owesAt Pipeline.owesWithin
    rw [show (pdats (24 : Fin 34) c).owed (Fin.last _) = 0 from by rw [hd c]; rfl]
    icases HO with ⟨%W, -, HO⟩; iexists W; iexact HO

end Cert.KernelIdeal.Hand

end
-- ==== Proof.KI.GatherDat25.lean ====
/-
  Gather region 25 (custom_call 25): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem25 : Fin 8 → SemLoc sig := fun | 0 => .dma 296 | 1 => .dma 297 | 2 => .dma 298 | 3 => .dma 299 | 4 => .dma 300 | 5 => .dma 301 | 6 => .dma 302 | 7 => .dma 303

/-- The eight counters at zero, as the run finds them and hands them back. -/
abbrev sems25 (c : Dev nD) : sProp (MM F) :=
  iprop(semVal ((c : Thread nD τ), osem25 0) 0 ∗ semVal ((c : Thread nD τ), osem25 1) 0 ∗ semVal ((c : Thread nD τ), osem25 2) 0
    ∗ semVal ((c : Thread nD τ), osem25 3) 0 ∗ semVal ((c : Thread nD τ), osem25 4) 0 ∗ semVal ((c : Thread nD τ), osem25 5) 0
    ∗ semVal ((c : Thread nD τ), osem25 6) 0 ∗ semVal ((c : Thread nD τ), osem25 7) 0)

/-- Word `j` of the eight the index table holds for point `i`, as the kernel's scalar load reads it. -/
def tblWord25 (c : Dev nD) (i : grid25.Coords) (tbl : Bf (F := F) c (Memref.whole main_v169)) (j : Fin 8) : BitVec 32 :=
  (Memref.whole main_v169).view.readAt (Elt F) (Rect.unit (s := S131072) (k25_off1 i (BitVec.ofNat 32 j.val)) S1.size (k25_off1_inb i j)).toLoadRect tbl
    (Shape.Idx.first (s := S1) (numel1_S1.symm ▸ Nat.one_pos))

/-- Window `w`'s block at point `t`, read off its array at the region's entry. -/
def iblk25 (a0 : (pcfg25 (F := F)).Adm) (Vin : Dev nD → Valuation τ sig (Elt F)) (c : Dev nD) (w : Fin (cfg25 a0).W) (t : Fin (cfg25 a0).N) :
    (((cfg25 a0).win w).xblock ((cfg25 a0).grid.coords t)).Idx → Elt F ((cfg25 a0).win w).elt :=
  (((cfg25 a0).win w).blk t).view.read (Elt F) (Vr Vin c (Pipeline.arrRef spec25 w))

/-- The result array the region leaves: the gathered and scaled rows of the embedding array, whole. -/
def gout25 (a0 : (pcfg25 (F := F)).Adm) (Vin : Dev nD → Valuation τ sig (Elt F)) (c : Dev nD) : Buf (Elt F) ((c : Thread nD τ).loc main_v171) :=
  gatherArr (Vr Vin c main_v109) (a0.1 0) (Vr Vin c main_v170)

/-- The invariant between points: the embedding array as entered, the kernel's semaphores at zero, the index table, the
    scoped buffers no window stages (the kernel's scratch among them). -/
def Phi25 (a0 : (pcfg25 (F := F)).Adm) (Vin : Dev nD → Valuation τ sig (Elt F)) (c : Dev nD) : sProp (MM F) :=
  iprop(pt c (Memref.whole main_v109) (Vr Vin c main_v109) ∗ sems25 c
    ∗ Pipeline.prefHeld (Ix := Unit) (Name := ℕ) (U := UU nD τ) (Lvl := ℕ) pre25 c (fun _ => fullShare) a0.1
    ∗ Pipeline.scopedRest (Ix := Unit) (Name := ℕ) (U := UU nD τ) (Lvl := ℕ) (Val := Elt F) spec25 c)

/-- The proof data on core `c`. -/
def dat25 (a0 : (pcfg25 (F := F)).Adm) (Vin : Dev nD → Valuation τ sig (Elt F)) (c : Dev nD) :
    Pipeline.Dat τ (Elt F) Unit ℕ (UU nD τ) ℕ ((pcfg25 (F := F)).at a0) c where
  A w := Vr Vin c (Pipeline.arrRef spec25 w)
  after w t := match w with
    | ⟨0, _⟩ => iblk25 a0 Vin c 0 t
    | ⟨1, _⟩ => (((cfg25 a0).win 1).blk t).view.read (Elt F) (gout25 a0 Vin c)
  Φ _ := Phi25 a0 Vin c
  q _ := fullShare
  owed _ := 0

theorem A_eq25 (a0 : (pcfg25 (F := F)).Adm) (Vin : Dev nD → Valuation τ sig (Elt F)) (c : Dev nD) (w : Fin (cfg25 a0).W) :
    (dat25 a0 Vin c).A w = Vr Vin c (Pipeline.arrRef spec25 w) := by dsimp only [dat25]
theorem after25_0 (a0 : (pcfg25 (F := F)).Adm) (Vin : Dev nD → Valuation τ sig (Elt F)) (c : Dev nD) (t : Fin (cfg25 a0).N) :
    (dat25 a0 Vin c).after 0 t = iblk25 a0 Vin c 0 t := by dsimp only [dat25]; rfl
theorem after25_1 (a0 : (pcfg25 (F := F)).Adm) (Vin : Dev nD → Valuation τ sig (Elt F)) (c : Dev nD) (t : Fin (cfg25 a0).N) :
    (dat25 a0 Vin c).after 1 t = (((cfg25 a0).win 1).blk t).view.read (Elt F) (gout25 a0 Vin c) := by dsimp only [dat25]; rfl
theorem Phi_eq25 (a0 : (pcfg25 (F := F)).Adm) (Vin : Dev nD → Valuation τ sig (Elt F)) (c : Dev nD) (t : Fin ((cfg25 a0).N + 1)) :
    (dat25 a0 Vin c).Φ t = Phi25 a0 Vin c := rfl
theorem owed_eq25 (a0 : (pcfg25 (F := F)).Adm) (Vin : Dev nD → Valuation τ sig (Elt F)) (c : Dev nD) (t : Fin ((cfg25 a0).N + 1)) :
    (dat25 a0 Vin c).owed t = 0 := rfl
theorem q_eq25 (a0 : (pcfg25 (F := F)).Adm) (Vin : Dev nD → Valuation τ sig (Elt F)) (c : Dev nD) (w : Fin (cfg25 a0).W) :
    (dat25 a0 Vin c).q w = fullShare := rfl

/-- The pinned family's configuration at region 25 is this one. -/
example (a : (p : Fin 34) → (pcfgs (F := F) p).Adm) : Pipeline.pin (pcfgs (F := F)) a (25 : Fin 34) = (pcfg25 (F := F)).at (a (25 : Fin 34)) := rfl

end Cert.KernelIdeal.Hand

end
-- ==== Proof.KI.GatherBody25.lean ====
/-
  Gather region 25 (custom_call 25): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat25
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk25 (c : Dev nD) (i : grid25.Coords) (tbl : Bf (F := F) c (Memref.whole main_v169)) : Prop where
  h1 : k25_chk1 (tblWord25 c i tbl 0)
  h2 : k25_chk2 (tblWord25 c i tbl 1)
  h3 : k25_chk3 (tblWord25 c i tbl 2)
  h4 : k25_chk4 (tblWord25 c i tbl 3)
  h5 : k25_chk5 (tblWord25 c i tbl 4)
  h6 : k25_chk6 (tblWord25 c i tbl 5)
  h7 : k25_chk7 (tblWord25 c i tbl 6)
  h8 : k25_chk8 (tblWord25 c i tbl 7)

/-- A one-row slice of the embedding array at the row a word names, read at lane `z 1`: the array's element there. -/
theorem rowRead25 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun25 (c : Dev nD) (i : grid25.Coords)
    (M3 : Memref sig .tc .vmem S8x1 .f32) (h3 : M3.IsWhole) (M4 : Memref sig .tc .vmem S8x128 .f32) (h4 : M4.IsWhole)
    (tbl : Bf (F := F) c (Memref.whole main_v169)) (x : Bf (F := F) c (Memref.whole main_v109))
    (vb : Vec F S8x1 .f32) (hchk : GatherChk25 c i tbl) (Q : PUnit → sProp (MM F)) :
    iprop(pt c (Memref.whole main_v169) tbl ∗ pt c (Memref.whole main_v109) x
      ∗ owns (c : Thread nD τ) M3 fullShare vb ∗ (∃ d, owns (c : Thread nD τ) M4 fullShare d)
      ∗ (∃ fs, pt c (Memref.whole cc25_scratch0) fs) ∗ sems25 c ∗ (∃ W, owes (c : Thread nD τ) (0 : CellTallies nD τ sig Unit) W)
      ∗ (iprop(pt c (Memref.whole main_v169) tbl ∗ pt c (Memref.whole main_v109) x
          ∗ owns (c : Thread nD τ) M3 fullShare vb ∗ owns (c : Thread nD τ) M4 fullShare (gatherBlk x (tblWord25 c i tbl) vb)
          ∗ (∃ fs, pt c (Memref.whole cc25_scratch0) fs) ∗ sems25 c ∗ (∃ W, owes (c : Thread nD τ) (0 : CellTallies nD τ sig Unit) W)) -∗ Q ⟨⟩))
    ⊢ wp frame (wpE (defs₀ (F := F)) 𝒱₀ c none) Set.univ
        (cc25__gather_kernel i (Memref.whole main_v169) (Memref.isWhole_whole _) (Memref.whole main_v109) (Memref.isWhole_whole _) M3 h3 M4 h4
          (Memref.whole cc25_scratch0) (Memref.isWhole_whole _) cc25_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 296).1 $$ Hx
  icases Hx' with ⟨Hxr, Hx0, Hx1, Hx2, Hx3, Hx4, Hx5, Hx6, Hx7⟩
  sl_unfold [cc25__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 296).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k25_pay1 gatherBlk
    show FloatOps.mulf _ _ = FloatOps.mulf _ _
    congr 1
    · unfold gatherRun25.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun25.sl.dma8 gatherRun25.sl.dma8_1 gatherRun25.sl.dma8_2 gatherRun25.sl.dma8_3 gatherRun25.sl.dma8_4 gatherRun25.sl.dma8_5
        gatherRun25.sl.dma8_6 gatherRun25.sl.dma8_7 gatherRun25.sl.r gatherRun25.sl.r_1 gatherRun25.sl.r_2 gatherRun25.sl.r_3 gatherRun25.sl.r_4
        gatherRun25.sl.r_5 gatherRun25.sl.r_6 gatherRun25.sl.r_7
      refine canonRows8 _ _ _ _ _ _ _ _ _ _ _ _ _ _ _ _ (fun r d => x (embIdx (rowOf (tblWord25 c i tbl r)) d)) ?_ ?_ ?_ ?_ ?_ ?_ ?_ ?_ y
      · exact fun z => rowRead25 c _ (tblWord25 c i tbl 0) rfl rfl _ _ x z
      · exact fun z => rowRead25 c _ (tblWord25 c i tbl 1) rfl rfl _ _ x z
      · exact fun z => rowRead25 c _ (tblWord25 c i tbl 2) rfl rfl _ _ x z
      · exact fun z => rowRead25 c _ (tblWord25 c i tbl 3) rfl rfl _ _ x z
      · exact fun z => rowRead25 c _ (tblWord25 c i tbl 4) rfl rfl _ _ x z
      · exact fun z => rowRead25 c _ (tblWord25 c i tbl 5) rfl rfl _ _ x z
      · exact fun z => rowRead25 c _ (tblWord25 c i tbl 6) rfl rfl _ _ x z
      · exact fun z => rowRead25 c _ (tblWord25 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk25.lean ====
/-
  Gather region 25 (custom_call 25): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat25
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word25 (i : grid25.Coords) (j : Fin 8) : k25_off1 i (BitVec.ofNat 32 j.val) 0 = (i 0).val * 8 + j.val := by
  have hi : (i 0).val < 16384 := (i 0).isLt
  have hj : j.val < 8 := j.isLt
  unfold k25_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word25 (i : grid25.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord25_eq (c : Dev nD) (i : grid25.Coords) (tbl : Bf (F := F) c (Memref.whole main_v169)) (j : Fin 8)
    (e : Fin 131072) (he : e.val = (i 0).val * 8 + j.val) : tblWord25 c i tbl j = tbl (tblIdx e) := by
  unfold tblWord25
  show tbl _ = tbl _
  refine congrArg tbl ?_
  funext a; apply Fin.ext
  match a with
  | ⟨0, _⟩ =>
    show k25_off1 i (BitVec.ofNat 32 j.val) 0 + 1 * 0 = e.val
    rw [off_word25, he]; omega

/-- Row `j` of the value window's block at point `t` is the value array's row `8 t + j`. -/
theorem valBlk25_eq (a0 : (pcfg25 (F := F)).Adm) (Vin : Dev nD → Valuation τ sig (Elt F)) (c : Dev nD) (t : Fin (cfg25 a0).N)
    (j : Fin 8) (e : Fin 131072) (he : e.val = ((grid25.coords t) 0).val * 8 + j.val) :
    iblk25 a0 Vin c 0 t (colIdx j) = Vr Vin c main_v170 (valIdx e) := by
  unfold iblk25
  show Vr Vin c main_v170 _ = Vr Vin c main_v170 _
  refine congrArg (Vr Vin c main_v170) ?_
  funext a; apply Fin.ext
  match a with
  | ⟨0, _⟩ =>
    show (BitVec.ofNat 32 ((grid25.coords t) 0).val).toNat * 8 + 1 * j.val = e.val
    rw [coord_word25, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk25 (a0 : (pcfg25 (F := F)).Adm) (Vin : Dev nD → Valuation τ sig (Elt F)) (c : Dev nD) (t : Fin (cfg25 a0).N) :
    gatherBlk (Vr Vin c main_v109) (tblWord25 c (grid25.coords t) (a0.1 0)) (iblk25 a0 Vin c 0 t)
      = (((cfg25 a0).win 1).blk t).view.read (Elt F) (gout25 a0 Vin c) := by
  funext y
  show gatherBlk _ _ _ y = gout25 a0 Vin c ((((cfg25 a0).win 1).blk t).view.emb y)
  unfold gatherBlk gout25 gatherArr
  have e0 : ((((cfg25 a0).win 1).blk t).view.emb y (0 : Fin 2)).val = ((grid25.coords t) 0).val * 8 + (y 0).val := by
    show (BitVec.ofNat 32 ((grid25.coords t) 0).val).toNat * 8 + 1 * (y 0).val = _
    rw [coord_word25]; omega
  have e1 : (((cfg25 a0).win 1).blk t).view.emb y (1 : Fin 2) = y 1 := Fin.ext (by
    show (0#32 : BitVec 32).toNat * 128 + 1 * (y 1).val = (y 1).val
    show 0 * 128 + 1 * (y 1).val = (y 1).val
    omega)
  rw [tblWord25_eq c (grid25.coords t) (a0.1 0) (y 0) _ e0, valBlk25_eq a0 Vin c t (y 0) _ e0, e1]

end Cert.KernelIdeal.Hand

end
-- ==== Proof.KI.GatherRegion25.lean ====
/-
  Gather region 25 (custom_call 25): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody25
import proofs.«414509_j14181982011419_2_alg».proof.Proof.KI.GatherBlk25
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk25 (a0 : (pcfg25 (F := F)).Adm) : Prop := ∀ e : S131072.Idx, (a0.1 0 e).toNat < 100000

/-! ## The grid and the result window's blocks -/

/-- On the one-axis grid a point's coordinate is its number. -/
theorem regCoords25 (t : Fin grid25.N) : (grid25.coords t 0).val = t.val := by
  have ht : t.val < 16384 := N_25 ▸ t.isLt
  show t.val / grid25.stride 0 % grid25.bound 0 = t.val
  rw [show grid25.stride 0 = 1 from by decide, show grid25.bound 0 = 16384 from rfl, Nat.div_one, Nat.mod_eq_of_lt ht]

/-- A point's number as the 32-bit word the index maps compute with. -/
theorem regWord25 (t : Fin grid25.N) : (BitVec.ofNat 32 (grid25.coords t 0).val).toNat = t.val := by
  have ht : t.val < 16384 := N_25 ▸ t.isLt
  rw [BitVec.toNat_ofNat, regCoords25]; omega

/-- The result window's block at point `t` is block `t` along the rows, at zero along the lanes. -/
theorem regOutIndex25 (a0 : (pcfg25 (F := F)).Adm) (t : Fin (cfg25 a0).N) : ((cfg25 a0).win 1).index t = ![t.val, 0] := by
  show cc25_transform_2 (grid25.coords t) = _
  unfold cc25_transform_2
  funext a; fin_cases a
  · exact regWord25 t
  · rfl

/-- The result window is written back at every point: consecutive points have different blocks. -/
theorem regOutFlush25 (a0 : (pcfg25 (F := F)).Adm) (t : Fin (cfg25 a0).N) : ((cfg25 a0).win 1).flush t = true := by
  have htN : t.val < 16384 := N_25 ▸ t.isLt
  rw [Pipeline.Window.flush_out _ rfl]
  by_cases h : t.val + 1 = 16384
  · exact Or.inl (show t.val + 1 = grid25.N by rw [N_25]; exact h)
  · have hlt : t.val + 1 < grid25.N := by rw [N_25]; omega
    refine Or.inr ⟨hlt, fun e => ?_⟩
    have e' : (![t.val + 1, 0] : Fin 2 → ℕ) = ![t.val, 0] := (regOutIndex25 a0 ⟨t.val + 1, hlt⟩).symm.trans (e.trans (regOutIndex25 a0 t))
    have e0 := congrFun e' 0
    simp at e0

/-- The index table, held as the pipeline's one prefetched table. -/
theorem prefHeldEq25 (a0 : (pcfg25 (F := F)).Adm) (c : Dev nD) :
    (Pipeline.prefHeld (Ix := Unit) (Name := ℕ) (U := UU nD τ) (Lvl := ℕ) pre25 c (fun _ => fullShare) a0.1 : sProp (MM F))
      = pt c (Memref.whole main_v169) (a0.1 0) := by
  unfold Pipeline.prefHeld
  rw [show (Finset.univ : Finset (Fin pre25.K)) = {0} from rfl, BI.bigSep_singleton]
  rfl

/-- The value window's staging buffer holds its block at every point. -/
theorem beforeVal25 (a0 : (pcfg25 (F := F)).Adm) (Vin : Dev nD → Valuation τ sig (Elt F)) (c : Dev nD) (t : Fin (cfg25 a0).N) (d) :
    (dat25 a0 Vin c).before 0 t d = iblk25 a0 Vin c 0 t :=
  ((dat25 a0 Vin c).before_in_eq_fetched 0 rfl (fun _ => rfl) (fun _ _ _ => rfl)
    (fun t => by rw [after25_0]; unfold Dat.blockOf iblk25; rw [A_eq25]; try rfl) t d).trans
    (by unfold Dat.fetched Dat.blockOf iblk25; rw [A_eq25]; try rfl)

/-! ## The kernel's checks, from the table's range -/

/-- Each of the point's eight words is a word of the table, so a row number. -/
theorem tblWordLt25 (a0 : (pcfg25 (F := F)).Adm) (hok : GatherOk25 a0) (c : Dev nD) (i : grid25.Coords) (j : Fin 8) :
    (tblWord25 c i (a0.1 0) j).toNat < 100000 := by
  unfold tblWord25
  exact hok _

/-- So the kernel's eight checks hold at every point. -/
theorem gatherChk25 (a0 : (pcfg25 (F := F)).Adm) (hok : GatherOk25 a0) (c : Dev nD) (i : grid25.Coords) : GatherChk25 c i (a0.1 0) :=
  ⟨⟨chkRow _ (tblWordLt25 a0 hok c i 0), chkRow _ (tblWordLt25 a0 hok c i 0)⟩,
   ⟨chkRow _ (tblWordLt25 a0 hok c i 1), chkRow _ (tblWordLt25 a0 hok c i 1)⟩,
   ⟨chkRow _ (tblWordLt25 a0 hok c i 2), chkRow _ (tblWordLt25 a0 hok c i 2)⟩,
   ⟨chkRow _ (tblWordLt25 a0 hok c i 3), chkRow _ (tblWordLt25 a0 hok c i 3)⟩,
   ⟨chkRow _ (tblWordLt25 a0 hok c i 4), chkRow _ (tblWordLt25 a0 hok c i 4)⟩,
   ⟨chkRow _ (tblWordLt25 a0 hok c i 5), chkRow _ (tblWordLt25 a0 hok c i 5)⟩,
   ⟨chkRow _ (tblWordLt25 a0 hok c i 6), chkRow _ (tblWordLt25 a0 hok c i 6)⟩,
   chkRow _ (tblWordLt25 a0 hok c i 7)⟩

/-! ## The body obligation, at a generic point -/

/-- What the body is called with at point `t`: the invariant, the core's dues, each window's current staging memref at
    what the pipeline left there, -/
def bodyPre25 (a0 : (pcfg25 (F := F)).Adm) (Vin : Dev nD → Valuation τ sig (Elt F)) (c : Dev nD) (t : Fin (cfg25 a0).N) : sProp (MM F) :=
  iprop((dat25 a0 Vin c).Φ t.castSucc ∗ (dat25 a0 Vin c).owesAt () t.castSucc
    ∗ (∃ d, owns (c : Thread nD τ) (((cfg25 a0).win 0).stage ((cfg25 a0).slots t 0)) fullShare ((dat25 a0 Vin c).before 0 t d))
    ∗ (∃ d, owns (c : Thread nD τ) (((cfg25 a0).win 1).stage ((cfg25 a0).slots t 1)) fullShare ((dat25 a0 Vin c).before 1 t d)))

/-- and what it returns. -/
def bodyPost25 (a0 : (pcfg25 (F := F)).Adm) (Vin : Dev nD → Valuation τ sig (Elt F)) (c : Dev nD) (t : Fin (cfg25 a0).N) : sProp (MM F) :=
  iprop((dat25 a0 Vin c).Φ t.succ ∗ (dat25 a0 Vin c).owesAt () t.succ
    ∗ owns (c : Thread nD τ) (((cfg25 a0).win 0).stage ((cfg25 a0).slots t 0)) fullShare ((dat25 a0 Vin c).after 0 t)
    ∗ owns (c : Thread nD τ) (((cfg25 a0).win 1).stage ((cfg25 a0).slots t 1)) fullShare ((dat25 a0 Vin c).after 1 t))

/-- The body at any point: the invariant opened into the embedding array, the semaphores, the table and the scratch;
    the value window's memref at its block; the checks from the table's range; so the kernel's run applies, and what it
    leaves in the result window's memref is the point's block of the gathered array. -/
theorem sound_body25 (a0 : (pcfg25 (F := F)).Adm) (hok : GatherOk25 a0) (Vin : Dev nD → Valuation τ sig (Elt F)) (c : Dev nD) (t : Fin (cfg25 a0).N) :
    bodyPre25 a0 Vin c t ⊢ wp frame (wpE (defs₀ (F := F)) 𝒱₀ c none) Set.univ
      (defs₀ .tc (cfg25 a0).body ((cfg25 a0).bodyArgs t ((cfg25 a0).slots t))) (fun _ => bodyPost25 a0 Vin c t) := by
  unfold bodyPre25 bodyPost25
  simp only [beforeVal25]
  rw [Phi_eq25, Phi_eq25, after25_0, after25_1, ← gatherBlk_blk25]
  unfold Phi25 Pipeline.Dat.owesAt Pipeline.owesWithin
  rw [owed_eq25, owed_eq25, prefHeldEq25, scopedRest25_split]
  iintro ⟨⟨Hx, Hos, Ht, ⟨%fs, Hs⟩, Hsb⟩, ⟨%W, %hW, HO⟩, ⟨%d0, H0⟩, ⟨%d1, H1⟩⟩
  iapply (gatherRun25 c (grid25.coords t) _ _ _ _ (a0.1 0) (Vr Vin c main_v109) (iblk25 a0 Vin c 0 t) (gatherChk25 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation25 (a0 : (pcfg25 (F := F)).Adm) (hok : GatherOk25 a0) (Vin : Dev nD → Valuation τ sig (Elt F)) (c : Dev nD) :
    BodyObligation (dat25 a0 Vin c) (defs₀ (F := F)) 𝒱₀ () Set.univ := fun t => by
  rw [bigSep_W25, bigSep_W25]
  exact sound_body25 a0 hok Vin c t

/-! ## From the blocks to the arrays -/

/-- The value array after the region: as entered. -/
theorem arrAt25_in (a0 : (pcfg25 (F := F)).Adm) (Vin : Dev nD → Valuation τ sig (Elt F)) (c : Dev nD) :
    (dat25 a0 Vin c).arrAt 0 (cfg25 a0).N = Vr Vin c main_v170 :=
  ((dat25 a0 Vin c).arrAt_in 0 rfl _).trans (A_eq25 a0 Vin c 0)

/-- Every index of the result array is in some point's block: row `e`, lane `d` is element `(e % 8, d)` of the block
    of point `e / 8`. -/
theorem regOutCover25 (a0 : (pcfg25 (F := F)).Adm) (i : S131072x128.Idx) :
    ∃ t : Fin (cfg25 a0).N, ((cfg25 a0).win 1).flush t = true ∧ i ∈ (((cfg25 a0).win 1).blk t).view.set := by
  have hi0 : (i 0).val < 131072 := (i 0).isLt
  have hi1 : (i 1).val < 128 := (i 1).isLt
  have hN : (i 0).val / 8 < grid25.N := by rw [N_25]; omega
  obtain ⟨t, ht⟩ : ∃ t : Fin (cfg25 a0).N, t.val = (i 0).val / 8 := ⟨⟨_, hN⟩, rfl⟩
  have hx : (((cfg25 a0).win 1).blk t).view.emb (ValueIdx.ix2 ⟨(i 0).val % 8, Nat.mod_lt _ (by decide)⟩ (i 1)) = i := by
    funext a; apply Fin.ext
    have e0 : ((cfg25 a0).win 1).index t (0 : Fin 2) = t.val := congrFun (regOutIndex25 a0 t) (0 : Fin 2)
    have e1 : ((cfg25 a0).win 1).index t (1 : Fin 2) = 0 := congrFun (regOutIndex25 a0 t) (1 : Fin 2)
    match a with
    | ⟨0, _⟩ => show ((cfg25 a0).win 1).index t (0 : Fin 2) * 8 + 1 * ((i 0).val % 8) = (i 0).val; omega
    | ⟨1, _⟩ => show ((cfg25 a0).win 1).index t (1 : Fin 2) * 128 + 1 * (i 1).val = (i 1).val; omega
  exact ⟨t, regOutFlush25 a0 t, hx ▸ (((cfg25 a0).win 1).blk t).view.emb_mem_set _⟩

/-- The result array after the region: the gathered and scaled rows, whole. -/
theorem arrAt25_out (a0 : (pcfg25 (F := F)).Adm) (Vin : Dev nD → Valuation τ sig (Elt F)) (c : Dev nD) :
    (dat25 a0 Vin c).arrAt 1 (cfg25 a0).N = gout25 a0 Vin c :=
  (dat25 a0 Vin c).arrAt_eq_of_cover 1 (gout25 a0 Vin c)
    (fun t _ => by
      show ((cfg25 a0).win 1).cut ((cfg25 a0).grid.coords t) ((dat25 a0 Vin c).after 1 t) = _
      rw [after25_1])
    (regOutCover25 a0)

/-! ## The region as a segment of @main -/

/-- The ownership layout of the kernel's eight semaphores. -/
theorem ownSemFacts25 : Pipeline.OwnSemFacts spec25 osem25 := by decide

/-- The kernel's own cells at zero, listed. -/
theorem ownSemsListed25 (c : Dev nD) :
    (Pipeline.ownSems0 (Ix := Unit) (Name := ℕ) (U := UU nD τ) (Lvl := ℕ) (Val := Elt F) (τ := τ) osem25 c : sProp (MM F)) = sems25 c :=
  Pipeline.ownSems0_eq_of_list c osem25 [0, 1, 2, 3, 4, 5, 6, 7] (by decide) (by decide)

/-- The unscoped buffers that are no window's array, no table, and not the embedding array. -/
abbrev restRefs25 : Finset (Ref sig .tc) :=
  (((Finset.univ.filter fun b : Ref sig .tc => ¬ b.isScoped) \ Finset.univ.image (Pipeline.arrRef spec25)) \ Finset.univ.image pre25.ref) \ {main_v109}

/-- Those buffers, each whole at its contents under `Vin`: what bypasses the region. -/
def Zrest25 (Vin : Dev nD → Valuation τ sig (Elt F)) (c : Dev nD) : sProp (MM F) :=
  bigSep restRefs25 fun b => ((c : Thread nD τ).loc b) ↦{fullShare} Vr Vin c b

/-- The embedding array is an unscoped buffer that is no window's array and no table. -/
theorem embArrMem25 : ({main_v109} : Finset (Ref sig .tc)) ⊆
    ((Finset.univ.filter fun b : Ref sig .tc => ¬ b.isScoped) \ Finset.univ.image (Pipeline.arrRef spec25)) \ Finset.univ.image pre25.ref := by
  decide

/-- The unscoped buffers that are no window's array: the index table, the embedding array, and the rest. -/
theorem unscopedRestOpen25 (Vin : Dev nD → Valuation τ sig (Elt F)) (c : Dev nD) :
    (Pipeline.unscopedRest (Ix := Unit) (Name := ℕ) (U := UU nD τ) (Lvl := ℕ) spec25 c (Vr Vin c) : sProp (MM F))
      = iprop(Pipeline.prefHeld pre25 c (fun _ => fullShare) (fun k => Vr Vin c (pre25.ref k))
          ∗ pt c (Memref.whole main_v109) (Vr Vin c main_v109) ∗ Zrest25 Vin c) := by
  rw [Pipeline.unscopedRest_split preFacts25 c (Vr Vin c)]
  unfold Pipeline.unscopedRestP Zrest25
  rw [BI.bigSep_sdiff_split embArrMem25, BI.bigSep_singleton]
  rfl

/-- The buffer contents when the region is left: the result array at the gathered rows, every other buffer as entered. -/
abbrev Vout25 (a0 : (pcfg25 (F := F)).Adm) (Vin : Dev nD → Valuation τ sig (Elt F)) (c : Dev nD) : Valuation τ sig (Elt F) :=
  Function.update (Vin c) main_v171 (gout25 a0 Vin c)

/-- At the exit each of the region's arrays holds what the pipeline leaves; -/
theorem hF25 (a0 : (pcfg25 (F := F)).Adm) (Vin : Dev nD → Valuation τ sig (Elt F)) (c : Dev nD) (w : Fin (cfg25 a0).W) :
    (dat25 a0 Vin c).arrAt w (cfg25 a0).N = Vr (Vout25 a0 Vin) c (Pipeline.arrRef spec25 w) := by
  match w with
  | ⟨0, _⟩ =>
    show (dat25 a0 Vin c).arrAt 0 (cfg25 a0).N = Vr (Vout25 a0 Vin) c (Pipeline.arrRef spec25 0)
    rw [arrAt25_in]
    exact (Function.update_of_ne (StableHlo.devRef_ne_of_ne (by decide) : (Proc.devRef .tc main_v170 : DevRef τ sig) ≠ Proc.devRef .tc main_v171) _ _).symm
  | ⟨1, _⟩ =>
    show (dat25 a0 Vin c).arrAt 1 (cfg25 a0).N = Vr (Vout25 a0 Vin) c (Pipeline.arrRef spec25 1)
    rw [arrAt25_out]
    exact (Function.update_self (Proc.devRef .tc main_v171 : DevRef τ sig) _ (Vin c)).symm

/-- and every other buffer what it held at entry. -/
theorem hrest25 (a0 : (pcfg25 (F := F)).Adm) (Vin : Dev nD → Valuation τ sig (Elt F)) (c : Dev nD) :
    ∀ b : Ref sig .tc, b ∉ Finset.univ.image (Pipeline.arrRef spec25) → Vr (Vout25 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat25` at the entry valuation `Vin`
    (`hd`), the index table's contents under `Vin` being the pinned ones (`htbl`) and row numbers (`hok`). -/
def reg25 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk25 (F := F) (a (25 : Fin 34)))
    (hd : ∀ c, pdats (25 : Fin 34) c = dat25 (a (25 : Fin 34)) Vin c) (htbl : ∀ c, (a (25 : Fin 34)).1 = fun k => Vr Vin c (pre25.ref k)) :
    Pipeline.RegionSeg (pcfgs (F := F)) a pdats () defs₀ 𝒱₀ L lv (25 : Fin 34) where
  win := (launch25 (F := F)).win.to₀
  block_pos := (launch25 (F := F)).block_pos
  stage_whole := (launch25 (F := F)).stage_whole
  K := Fin 8
  osem := osem25
  ho := ownSemFacts25
  hbody c := by rw [hd c]; exact (body_obligation25 (a (25 : Fin 34)) hok Vin c).loose
  hwaits := Pipeline.hwaits_of_owed_zero _ _ _ _ L lv (25 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v171 (gout25 (a (25 : Fin 34)) Vin c)) ∗ Rest c)
  X c := iprop(pt c (Memref.whole main_v109) (Vr Vin c main_v109) ∗ sems25 c)
  Y c := iprop(pt c (Memref.whole main_v109) (Vr Vin c main_v109)
    ∗ Pipeline.prefHeld (Ix := Unit) (Name := ℕ) (U := UU nD τ) (Lvl := ℕ) pre25 c (fun _ => fullShare) (a (25 : Fin 34)).1)
  Z c := Zrest25 Vin c
  hentry c := by
    rw [ownSemsListed25]
    have hsplit := Pipeline.arrays_of_unscopedBufs (p := (25 : Fin 34)) (pcfgs (F := F)) a pdats (launch25 (F := F)).win (launch25 (F := F)).arr_whole c
      ((pdats (25 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen25 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (25 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq25]; unfold Phi25
    iintro ⟨⟨Hx, Hos⟩, Ht, Hr⟩
    isplitl [Hx]; · iexact Hx
    isplitl [Hos]; · iexact Hos
    isplitl [Ht]; · iexact Ht
    iexact Hr
  hout c := by
    rw [ownSemsListed25, hd c, Phi_eq25]; unfold Phi25
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (25 : Fin 34)) (pcfgs (F := F)) a (Ix := Unit) (Name := ℕ) (U := UU nD τ) (Lvl := ℕ)
      (launch25 (F := F)).win (launch25 (F := F)).arr_whole c pdats ((pdats (25 : Fin 34) c).share_full fun _ => by rw [hd c]; rfl)
      (Vr Vin c) (Vr (Vout25 (a (25 : Fin 34)) Vin) c) ((pdats (25 : Fin 34) c).arrAt · (cfg25 (a (25 : Fin 34))).N)
      (fun w => by rw [hd c]; exact hF25 (a (25 : Fin 34)) Vin c w) (hrest25 (a (25 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen25 Vin c).symm)
      isplitl [Ht]; · rw [← htbl c]; iexact Ht
      isplitl [Hx]; · iexact Hx
      iexact Hz
    unfold Pipeline.Dat.owesAt Pipeline.owesWithin
    rw [show (pdats (25 : Fin 34) c).owed (Fin.last _) = 0 from by rw [hd c]; rfl]
    icases HO with ⟨%W, -, HO⟩; iexists W; iexact HO

end Cert.KernelIdeal.Hand

end
-- ==== Proof.KI.GatherDat26.lean ====
/-
  Gather region 26 (custom_call 26): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem26 : Fin 8 → SemLoc sig := fun | 0 => .dma 308 | 1 => .dma 309 | 2 => .dma 310 | 3 => .dma 311 | 4 => .dma 312 | 5 => .dma 313 | 6 => .dma 314 | 7 => .dma 315

/-- The eight counters at zero, as the run finds them and hands them back. -/
abbrev sems26 (c : Dev nD) : sProp (MM F) :=
  iprop(semVal ((c : Thread nD τ), osem26 0) 0 ∗ semVal ((c : Thread nD τ), osem26 1) 0 ∗ semVal ((c : Thread nD τ), osem26 2) 0
    ∗ semVal ((c : Thread nD τ), osem26 3) 0 ∗ semVal ((c : Thread nD τ), osem26 4) 0 ∗ semVal ((c : Thread nD τ), osem26 5) 0
    ∗ semVal ((c : Thread nD τ), osem26 6) 0 ∗ semVal ((c : Thread nD τ), osem26 7) 0)

/-- Word `j` of the eight the index table holds for point `i`, as the kernel's scalar load reads it. -/
def tblWord26 (c : Dev nD) (i : grid26.Coords) (tbl : Bf (F := F) c (Memref.whole main_v172)) (j : Fin 8) : BitVec 32 :=
  (Memref.whole main_v172).view.readAt (Elt F) (Rect.unit (s := S131072) (k26_off1 i (BitVec.ofNat 32 j.val)) S1.size (k26_off1_inb i j)).toLoadRect tbl
    (Shape.Idx.first (s := S1) (numel1_S1.symm ▸ Nat.one_pos))

/-- Window `w`'s block at point `t`, read off its array at the region's entry. -/
def iblk26 (a0 : (pcfg26 (F := F)).Adm) (Vin : Dev nD → Valuation τ sig (Elt F)) (c : Dev nD) (w : Fin (cfg26 a0).W) (t : Fin (cfg26 a0).N) :
    (((cfg26 a0).win w).xblock ((cfg26 a0).grid.coords t)).Idx → Elt F ((cfg26 a0).win w).elt :=
  (((cfg26 a0).win w).blk t).view.read (Elt F) (Vr Vin c (Pipeline.arrRef spec26 w))

/-- The result array the region leaves: the gathered and scaled rows of the embedding array, whole. -/
def gout26 (a0 : (pcfg26 (F := F)).Adm) (Vin : Dev nD → Valuation τ sig (Elt F)) (c : Dev nD) : Buf (Elt F) ((c : Thread nD τ).loc main_v174) :=
  gatherArr (Vr Vin c main_v109) (a0.1 0) (Vr Vin c main_v173)

/-- The invariant between points: the embedding array as entered, the kernel's semaphores at zero, the index table, the
    scoped buffers no window stages (the kernel's scratch among them). -/
def Phi26 (a0 : (pcfg26 (F := F)).Adm) (Vin : Dev nD → Valuation τ sig (Elt F)) (c : Dev nD) : sProp (MM F) :=
  iprop(pt c (Memref.whole main_v109) (Vr Vin c main_v109) ∗ sems26 c
    ∗ Pipeline.prefHeld (Ix := Unit) (Name := ℕ) (U := UU nD τ) (Lvl := ℕ) pre26 c (fun _ => fullShare) a0.1
    ∗ Pipeline.scopedRest (Ix := Unit) (Name := ℕ) (U := UU nD τ) (Lvl := ℕ) (Val := Elt F) spec26 c)

/-- The proof data on core `c`. -/
def dat26 (a0 : (pcfg26 (F := F)).Adm) (Vin : Dev nD → Valuation τ sig (Elt F)) (c : Dev nD) :
    Pipeline.Dat τ (Elt F) Unit ℕ (UU nD τ) ℕ ((pcfg26 (F := F)).at a0) c where
  A w := Vr Vin c (Pipeline.arrRef spec26 w)
  after w t := match w with
    | ⟨0, _⟩ => iblk26 a0 Vin c 0 t
    | ⟨1, _⟩ => (((cfg26 a0).win 1).blk t).view.read (Elt F) (gout26 a0 Vin c)
  Φ _ := Phi26 a0 Vin c
  q _ := fullShare
  owed _ := 0

theorem A_eq26 (a0 : (pcfg26 (F := F)).Adm) (Vin : Dev nD → Valuation τ sig (Elt F)) (c : Dev nD) (w : Fin (cfg26 a0).W) :
    (dat26 a0 Vin c).A w = Vr Vin c (Pipeline.arrRef spec26 w) := by dsimp only [dat26]
theorem after26_0 (a0 : (pcfg26 (F := F)).Adm) (Vin : Dev nD → Valuation τ sig (Elt F)) (c : Dev nD) (t : Fin (cfg26 a0).N) :
    (dat26 a0 Vin c).after 0 t = iblk26 a0 Vin c 0 t := by dsimp only [dat26]; rfl
theorem after26_1 (a0 : (pcfg26 (F := F)).Adm) (Vin : Dev nD → Valuation τ sig (Elt F)) (c : Dev nD) (t : Fin (cfg26 a0).N) :
    (dat26 a0 Vin c).after 1 t = (((cfg26 a0).win 1).blk t).view.read (Elt F) (gout26 a0 Vin c) := by dsimp only [dat26]; rfl
theorem Phi_eq26 (a0 : (pcfg26 (F := F)).Adm) (Vin : Dev nD → Valuation τ sig (Elt F)) (c : Dev nD) (t : Fin ((cfg26 a0).N + 1)) :
    (dat26 a0 Vin c).Φ t = Phi26 a0 Vin c := rfl
theorem owed_eq26 (a0 : (pcfg26 (F := F)).Adm) (Vin : Dev nD → Valuation τ sig (Elt F)) (c : Dev nD) (t : Fin ((cfg26 a0).N + 1)) :
    (dat26 a0 Vin c).owed t = 0 := rfl
theorem q_eq26 (a0 : (pcfg26 (F := F)).Adm) (Vin : Dev nD → Valuation τ sig (Elt F)) (c : Dev nD) (w : Fin (cfg26 a0).W) :
    (dat26 a0 Vin c).q w = fullShare := rfl

/-- The pinned family's configuration at region 26 is this one. -/
example (a : (p : Fin 34) → (pcfgs (F := F) p).Adm) : Pipeline.pin (pcfgs (F := F)) a (26 : Fin 34) = (pcfg26 (F := F)).at (a (26 : Fin 34)) := rfl

end Cert.KernelIdeal.Hand

end
-- ==== Proof.KI.GatherBody26.lean ====
/-
  Gather region 26 (custom_call 26): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat26
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk26 (c : Dev nD) (i : grid26.Coords) (tbl : Bf (F := F) c (Memref.whole main_v172)) : Prop where
  h1 : k26_chk1 (tblWord26 c i tbl 0)
  h2 : k26_chk2 (tblWord26 c i tbl 1)
  h3 : k26_chk3 (tblWord26 c i tbl 2)
  h4 : k26_chk4 (tblWord26 c i tbl 3)
  h5 : k26_chk5 (tblWord26 c i tbl 4)
  h6 : k26_chk6 (tblWord26 c i tbl 5)
  h7 : k26_chk7 (tblWord26 c i tbl 6)
  h8 : k26_chk8 (tblWord26 c i tbl 7)

/-- A one-row slice of the embedding array at the row a word names, read at lane `z 1`: the array's element there. -/
theorem rowRead26 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun26 (c : Dev nD) (i : grid26.Coords)
    (M3 : Memref sig .tc .vmem S8x1 .f32) (h3 : M3.IsWhole) (M4 : Memref sig .tc .vmem S8x128 .f32) (h4 : M4.IsWhole)
    (tbl : Bf (F := F) c (Memref.whole main_v172)) (x : Bf (F := F) c (Memref.whole main_v109))
    (vb : Vec F S8x1 .f32) (hchk : GatherChk26 c i tbl) (Q : PUnit → sProp (MM F)) :
    iprop(pt c (Memref.whole main_v172) tbl ∗ pt c (Memref.whole main_v109) x
      ∗ owns (c : Thread nD τ) M3 fullShare vb ∗ (∃ d, owns (c : Thread nD τ) M4 fullShare d)
      ∗ (∃ fs, pt c (Memref.whole cc26_scratch0) fs) ∗ sems26 c ∗ (∃ W, owes (c : Thread nD τ) (0 : CellTallies nD τ sig Unit) W)
      ∗ (iprop(pt c (Memref.whole main_v172) tbl ∗ pt c (Memref.whole main_v109) x
          ∗ owns (c : Thread nD τ) M3 fullShare vb ∗ owns (c : Thread nD τ) M4 fullShare (gatherBlk x (tblWord26 c i tbl) vb)
          ∗ (∃ fs, pt c (Memref.whole cc26_scratch0) fs) ∗ sems26 c ∗ (∃ W, owes (c : Thread nD τ) (0 : CellTallies nD τ sig Unit) W)) -∗ Q ⟨⟩))
    ⊢ wp frame (wpE (defs₀ (F := F)) 𝒱₀ c none) Set.univ
        (cc26__gather_kernel i (Memref.whole main_v172) (Memref.isWhole_whole _) (Memref.whole main_v109) (Memref.isWhole_whole _) M3 h3 M4 h4
          (Memref.whole cc26_scratch0) (Memref.isWhole_whole _) cc26_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 308).1 $$ Hx
  icases Hx' with ⟨Hxr, Hx0, Hx1, Hx2, Hx3, Hx4, Hx5, Hx6, Hx7⟩
  sl_unfold [cc26__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 308).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k26_pay1 gatherBlk
    show FloatOps.mulf _ _ = FloatOps.mulf _ _
    congr 1
    · unfold gatherRun26.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun26.sl.dma8 gatherRun26.sl.dma8_1 gatherRun26.sl.dma8_2 gatherRun26.sl.dma8_3 gatherRun26.sl.dma8_4 gatherRun26.sl.dma8_5
        gatherRun26.sl.dma8_6 gatherRun26.sl.dma8_7 gatherRun26.sl.r gatherRun26.sl.r_1 gatherRun26.sl.r_2 gatherRun26.sl.r_3 gatherRun26.sl.r_4
        gatherRun26.sl.r_5 gatherRun26.sl.r_6 gatherRun26.sl.r_7
      refine canonRows8 _ _ _ _ _ _ _ _ _ _ _ _ _ _ _ _ (fun r d => x (embIdx (rowOf (tblWord26 c i tbl r)) d)) ?_ ?_ ?_ ?_ ?_ ?_ ?_ ?_ y
      · exact fun z => rowRead26 c _ (tblWord26 c i tbl 0) rfl rfl _ _ x z
      · exact fun z => rowRead26 c _ (tblWord26 c i tbl 1) rfl rfl _ _ x z
      · exact fun z => rowRead26 c _ (tblWord26 c i tbl 2) rfl rfl _ _ x z
      · exact fun z => rowRead26 c _ (tblWord26 c i tbl 3) rfl rfl _ _ x z
      · exact fun z => rowRead26 c _ (tblWord26 c i tbl 4) rfl rfl _ _ x z
      · exact fun z => rowRead26 c _ (tblWord26 c i tbl 5) rfl rfl _ _ x z
      · exact fun z => rowRead26 c _ (tblWord26 c i tbl 6) rfl rfl _ _ x z
      · exact fun z => rowRead26 c _ (tblWord26 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk26.lean ====
/-
  Gather region 26 (custom_call 26): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat26
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word26 (i : grid26.Coords) (j : Fin 8) : k26_off1 i (BitVec.ofNat 32 j.val) 0 = (i 0).val * 8 + j.val := by
  have hi : (i 0).val < 16384 := (i 0).isLt
  have hj : j.val < 8 := j.isLt
  unfold k26_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word26 (i : grid26.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord26_eq (c : Dev nD) (i : grid26.Coords) (tbl : Bf (F := F) c (Memref.whole main_v172)) (j : Fin 8)
    (e : Fin 131072) (he : e.val = (i 0).val * 8 + j.val) : tblWord26 c i tbl j = tbl (tblIdx e) := by
  unfold tblWord26
  show tbl _ = tbl _
  refine congrArg tbl ?_
  funext a; apply Fin.ext
  match a with
  | ⟨0, _⟩ =>
    show k26_off1 i (BitVec.ofNat 32 j.val) 0 + 1 * 0 = e.val
    rw [off_word26, he]; omega

/-- Row `j` of the value window's block at point `t` is the value array's row `8 t + j`. -/
theorem valBlk26_eq (a0 : (pcfg26 (F := F)).Adm) (Vin : Dev nD → Valuation τ sig (Elt F)) (c : Dev nD) (t : Fin (cfg26 a0).N)
    (j : Fin 8) (e : Fin 131072) (he : e.val = ((grid26.coords t) 0).val * 8 + j.val) :
    iblk26 a0 Vin c 0 t (colIdx j) = Vr Vin c main_v173 (valIdx e) := by
  unfold iblk26
  show Vr Vin c main_v173 _ = Vr Vin c main_v173 _
  refine congrArg (Vr Vin c main_v173) ?_
  funext a; apply Fin.ext
  match a with
  | ⟨0, _⟩ =>
    show (BitVec.ofNat 32 ((grid26.coords t) 0).val).toNat * 8 + 1 * j.val = e.val
    rw [coord_word26, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk26 (a0 : (pcfg26 (F := F)).Adm) (Vin : Dev nD → Valuation τ sig (Elt F)) (c : Dev nD) (t : Fin (cfg26 a0).N) :
    gatherBlk (Vr Vin c main_v109) (tblWord26 c (grid26.coords t) (a0.1 0)) (iblk26 a0 Vin c 0 t)
      = (((cfg26 a0).win 1).blk t).view.read (Elt F) (gout26 a0 Vin c) := by
  funext y
  show gatherBlk _ _ _ y = gout26 a0 Vin c ((((cfg26 a0).win 1).blk t).view.emb y)
  unfold gatherBlk gout26 gatherArr
  have e0 : ((((cfg26 a0).win 1).blk t).view.emb y (0 : Fin 2)).val = ((grid26.coords t) 0).val * 8 + (y 0).val := by
    show (BitVec.ofNat 32 ((grid26.coords t) 0).val).toNat * 8 + 1 * (y 0).val = _
    rw [coord_word26]; omega
  have e1 : (((cfg26 a0).win 1).blk t).view.emb y (1 : Fin 2) = y 1 := Fin.ext (by
    show (0#32 : BitVec 32).toNat * 128 + 1 * (y 1).val = (y 1).val
    show 0 * 128 + 1 * (y 1).val = (y 1).val
    omega)
  rw [tblWord26_eq c (grid26.coords t) (a0.1 0) (y 0) _ e0, valBlk26_eq a0 Vin c t (y 0) _ e0, e1]

end Cert.KernelIdeal.Hand

end
-- ==== Proof.KI.GatherRegion26.lean ====
/-
  Gather region 26 (custom_call 26): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody26
import proofs.«414509_j14181982011419_2_alg».proof.Proof.KI.GatherBlk26
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk26 (a0 : (pcfg26 (F := F)).Adm) : Prop := ∀ e : S131072.Idx, (a0.1 0 e).toNat < 100000

/-! ## The grid and the result window's blocks -/

/-- On the one-axis grid a point's coordinate is its number. -/
theorem regCoords26 (t : Fin grid26.N) : (grid26.coords t 0).val = t.val := by
  have ht : t.val < 16384 := N_26 ▸ t.isLt
  show t.val / grid26.stride 0 % grid26.bound 0 = t.val
  rw [show grid26.stride 0 = 1 from by decide, show grid26.bound 0 = 16384 from rfl, Nat.div_one, Nat.mod_eq_of_lt ht]

/-- A point's number as the 32-bit word the index maps compute with. -/
theorem regWord26 (t : Fin grid26.N) : (BitVec.ofNat 32 (grid26.coords t 0).val).toNat = t.val := by
  have ht : t.val < 16384 := N_26 ▸ t.isLt
  rw [BitVec.toNat_ofNat, regCoords26]; omega

/-- The result window's block at point `t` is block `t` along the rows, at zero along the lanes. -/
theorem regOutIndex26 (a0 : (pcfg26 (F := F)).Adm) (t : Fin (cfg26 a0).N) : ((cfg26 a0).win 1).index t = ![t.val, 0] := by
  show cc26_transform_2 (grid26.coords t) = _
  unfold cc26_transform_2
  funext a; fin_cases a
  · exact regWord26 t
  · rfl

/-- The result window is written back at every point: consecutive points have different blocks. -/
theorem regOutFlush26 (a0 : (pcfg26 (F := F)).Adm) (t : Fin (cfg26 a0).N) : ((cfg26 a0).win 1).flush t = true := by
  have htN : t.val < 16384 := N_26 ▸ t.isLt
  rw [Pipeline.Window.flush_out _ rfl]
  by_cases h : t.val + 1 = 16384
  · exact Or.inl (show t.val + 1 = grid26.N by rw [N_26]; exact h)
  · have hlt : t.val + 1 < grid26.N := by rw [N_26]; omega
    refine Or.inr ⟨hlt, fun e => ?_⟩
    have e' : (![t.val + 1, 0] : Fin 2 → ℕ) = ![t.val, 0] := (regOutIndex26 a0 ⟨t.val + 1, hlt⟩).symm.trans (e.trans (regOutIndex26 a0 t))
    have e0 := congrFun e' 0
    simp at e0

/-- The index table, held as the pipeline's one prefetched table. -/
theorem prefHeldEq26 (a0 : (pcfg26 (F := F)).Adm) (c : Dev nD) :
    (Pipeline.prefHeld (Ix := Unit) (Name := ℕ) (U := UU nD τ) (Lvl := ℕ) pre26 c (fun _ => fullShare) a0.1 : sProp (MM F))
      = pt c (Memref.whole main_v172) (a0.1 0) := by
  unfold Pipeline.prefHeld
  rw [show (Finset.univ : Finset (Fin pre26.K)) = {0} from rfl, BI.bigSep_singleton]
  rfl

/-- The value window's staging buffer holds its block at every point. -/
theorem beforeVal26 (a0 : (pcfg26 (F := F)).Adm) (Vin : Dev nD → Valuation τ sig (Elt F)) (c : Dev nD) (t : Fin (cfg26 a0).N) (d) :
    (dat26 a0 Vin c).before 0 t d = iblk26 a0 Vin c 0 t :=
  ((dat26 a0 Vin c).before_in_eq_fetched 0 rfl (fun _ => rfl) (fun _ _ _ => rfl)
    (fun t => by rw [after26_0]; unfold Dat.blockOf iblk26; rw [A_eq26]; try rfl) t d).trans
    (by unfold Dat.fetched Dat.blockOf iblk26; rw [A_eq26]; try rfl)

/-! ## The kernel's checks, from the table's range -/

/-- Each of the point's eight words is a word of the table, so a row number. -/
theorem tblWordLt26 (a0 : (pcfg26 (F := F)).Adm) (hok : GatherOk26 a0) (c : Dev nD) (i : grid26.Coords) (j : Fin 8) :
    (tblWord26 c i (a0.1 0) j).toNat < 100000 := by
  unfold tblWord26
  exact hok _

/-- So the kernel's eight checks hold at every point. -/
theorem gatherChk26 (a0 : (pcfg26 (F := F)).Adm) (hok : GatherOk26 a0) (c : Dev nD) (i : grid26.Coords) : GatherChk26 c i (a0.1 0) :=
  ⟨⟨chkRow _ (tblWordLt26 a0 hok c i 0), chkRow _ (tblWordLt26 a0 hok c i 0)⟩,
   ⟨chkRow _ (tblWordLt26 a0 hok c i 1), chkRow _ (tblWordLt26 a0 hok c i 1)⟩,
   ⟨chkRow _ (tblWordLt26 a0 hok c i 2), chkRow _ (tblWordLt26 a0 hok c i 2)⟩,
   ⟨chkRow _ (tblWordLt26 a0 hok c i 3), chkRow _ (tblWordLt26 a0 hok c i 3)⟩,
   ⟨chkRow _ (tblWordLt26 a0 hok c i 4), chkRow _ (tblWordLt26 a0 hok c i 4)⟩,
   ⟨chkRow _ (tblWordLt26 a0 hok c i 5), chkRow _ (tblWordLt26 a0 hok c i 5)⟩,
   ⟨chkRow _ (tblWordLt26 a0 hok c i 6), chkRow _ (tblWordLt26 a0 hok c i 6)⟩,
   chkRow _ (tblWordLt26 a0 hok c i 7)⟩

/-! ## The body obligation, at a generic point -/

/-- What the body is called with at point `t`: the invariant, the core's dues, each window's current staging memref at
    what the pipeline left there, -/
def bodyPre26 (a0 : (pcfg26 (F := F)).Adm) (Vin : Dev nD → Valuation τ sig (Elt F)) (c : Dev nD) (t : Fin (cfg26 a0).N) : sProp (MM F) :=
  iprop((dat26 a0 Vin c).Φ t.castSucc ∗ (dat26 a0 Vin c).owesAt () t.castSucc
    ∗ (∃ d, owns (c : Thread nD τ) (((cfg26 a0).win 0).stage ((cfg26 a0).slots t 0)) fullShare ((dat26 a0 Vin c).before 0 t d))
    ∗ (∃ d, owns (c : Thread nD τ) (((cfg26 a0).win 1).stage ((cfg26 a0).slots t 1)) fullShare ((dat26 a0 Vin c).before 1 t d)))

/-- and what it returns. -/
def bodyPost26 (a0 : (pcfg26 (F := F)).Adm) (Vin : Dev nD → Valuation τ sig (Elt F)) (c : Dev nD) (t : Fin (cfg26 a0).N) : sProp (MM F) :=
  iprop((dat26 a0 Vin c).Φ t.succ ∗ (dat26 a0 Vin c).owesAt () t.succ
    ∗ owns (c : Thread nD τ) (((cfg26 a0).win 0).stage ((cfg26 a0).slots t 0)) fullShare ((dat26 a0 Vin c).after 0 t)
    ∗ owns (c : Thread nD τ) (((cfg26 a0).win 1).stage ((cfg26 a0).slots t 1)) fullShare ((dat26 a0 Vin c).after 1 t))

/-- The body at any point: the invariant opened into the embedding array, the semaphores, the table and the scratch;
    the value window's memref at its block; the checks from the table's range; so the kernel's run applies, and what it
    leaves in the result window's memref is the point's block of the gathered array. -/
theorem sound_body26 (a0 : (pcfg26 (F := F)).Adm) (hok : GatherOk26 a0) (Vin : Dev nD → Valuation τ sig (Elt F)) (c : Dev nD) (t : Fin (cfg26 a0).N) :
    bodyPre26 a0 Vin c t ⊢ wp frame (wpE (defs₀ (F := F)) 𝒱₀ c none) Set.univ
      (defs₀ .tc (cfg26 a0).body ((cfg26 a0).bodyArgs t ((cfg26 a0).slots t))) (fun _ => bodyPost26 a0 Vin c t) := by
  unfold bodyPre26 bodyPost26
  simp only [beforeVal26]
  rw [Phi_eq26, Phi_eq26, after26_0, after26_1, ← gatherBlk_blk26]
  unfold Phi26 Pipeline.Dat.owesAt Pipeline.owesWithin
  rw [owed_eq26, owed_eq26, prefHeldEq26, scopedRest26_split]
  iintro ⟨⟨Hx, Hos, Ht, ⟨%fs, Hs⟩, Hsb⟩, ⟨%W, %hW, HO⟩, ⟨%d0, H0⟩, ⟨%d1, H1⟩⟩
  iapply (gatherRun26 c (grid26.coords t) _ _ _ _ (a0.1 0) (Vr Vin c main_v109) (iblk26 a0 Vin c 0 t) (gatherChk26 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation26 (a0 : (pcfg26 (F := F)).Adm) (hok : GatherOk26 a0) (Vin : Dev nD → Valuation τ sig (Elt F)) (c : Dev nD) :
    BodyObligation (dat26 a0 Vin c) (defs₀ (F := F)) 𝒱₀ () Set.univ := fun t => by
  rw [bigSep_W26, bigSep_W26]
  exact sound_body26 a0 hok Vin c t

/-! ## From the blocks to the arrays -/

/-- The value array after the region: as entered. -/
theorem arrAt26_in (a0 : (pcfg26 (F := F)).Adm) (Vin : Dev nD → Valuation τ sig (Elt F)) (c : Dev nD) :
    (dat26 a0 Vin c).arrAt 0 (cfg26 a0).N = Vr Vin c main_v173 :=
  ((dat26 a0 Vin c).arrAt_in 0 rfl _).trans (A_eq26 a0 Vin c 0)

/-- Every index of the result array is in some point's block: row `e`, lane `d` is element `(e % 8, d)` of the block
    of point `e / 8`. -/
theorem regOutCover26 (a0 : (pcfg26 (F := F)).Adm) (i : S131072x128.Idx) :
    ∃ t : Fin (cfg26 a0).N, ((cfg26 a0).win 1).flush t = true ∧ i ∈ (((cfg26 a0).win 1).blk t).view.set := by
  have hi0 : (i 0).val < 131072 := (i 0).isLt
  have hi1 : (i 1).val < 128 := (i 1).isLt
  have hN : (i 0).val / 8 < grid26.N := by rw [N_26]; omega
  obtain ⟨t, ht⟩ : ∃ t : Fin (cfg26 a0).N, t.val = (i 0).val / 8 := ⟨⟨_, hN⟩, rfl⟩
  have hx : (((cfg26 a0).win 1).blk t).view.emb (ValueIdx.ix2 ⟨(i 0).val % 8, Nat.mod_lt _ (by decide)⟩ (i 1)) = i := by
    funext a; apply Fin.ext
    have e0 : ((cfg26 a0).win 1).index t (0 : Fin 2) = t.val := congrFun (regOutIndex26 a0 t) (0 : Fin 2)
    have e1 : ((cfg26 a0).win 1).index t (1 : Fin 2) = 0 := congrFun (regOutIndex26 a0 t) (1 : Fin 2)
    match a with
    | ⟨0, _⟩ => show ((cfg26 a0).win 1).index t (0 : Fin 2) * 8 + 1 * ((i 0).val % 8) = (i 0).val; omega
    | ⟨1, _⟩ => show ((cfg26 a0).win 1).index t (1 : Fin 2) * 128 + 1 * (i 1).val = (i 1).val; omega
  exact ⟨t, regOutFlush26 a0 t, hx ▸ (((cfg26 a0).win 1).blk t).view.emb_mem_set _⟩

/-- The result array after the region: the gathered and scaled rows, whole. -/
theorem arrAt26_out (a0 : (pcfg26 (F := F)).Adm) (Vin : Dev nD → Valuation τ sig (Elt F)) (c : Dev nD) :
    (dat26 a0 Vin c).arrAt 1 (cfg26 a0).N = gout26 a0 Vin c :=
  (dat26 a0 Vin c).arrAt_eq_of_cover 1 (gout26 a0 Vin c)
    (fun t _ => by
      show ((cfg26 a0).win 1).cut ((cfg26 a0).grid.coords t) ((dat26 a0 Vin c).after 1 t) = _
      rw [after26_1])
    (regOutCover26 a0)

/-! ## The region as a segment of @main -/

/-- The ownership layout of the kernel's eight semaphores. -/
theorem ownSemFacts26 : Pipeline.OwnSemFacts spec26 osem26 := by decide

/-- The kernel's own cells at zero, listed. -/
theorem ownSemsListed26 (c : Dev nD) :
    (Pipeline.ownSems0 (Ix := Unit) (Name := ℕ) (U := UU nD τ) (Lvl := ℕ) (Val := Elt F) (τ := τ) osem26 c : sProp (MM F)) = sems26 c :=
  Pipeline.ownSems0_eq_of_list c osem26 [0, 1, 2, 3, 4, 5, 6, 7] (by decide) (by decide)

/-- The unscoped buffers that are no window's array, no table, and not the embedding array. -/
abbrev restRefs26 : Finset (Ref sig .tc) :=
  (((Finset.univ.filter fun b : Ref sig .tc => ¬ b.isScoped) \ Finset.univ.image (Pipeline.arrRef spec26)) \ Finset.univ.image pre26.ref) \ {main_v109}

/-- Those buffers, each whole at its contents under `Vin`: what bypasses the region. -/
def Zrest26 (Vin : Dev nD → Valuation τ sig (Elt F)) (c : Dev nD) : sProp (MM F) :=
  bigSep restRefs26 fun b => ((c : Thread nD τ).loc b) ↦{fullShare} Vr Vin c b

/-- The embedding array is an unscoped buffer that is no window's array and no table. -/
theorem embArrMem26 : ({main_v109} : Finset (Ref sig .tc)) ⊆
    ((Finset.univ.filter fun b : Ref sig .tc => ¬ b.isScoped) \ Finset.univ.image (Pipeline.arrRef spec26)) \ Finset.univ.image pre26.ref := by
  decide

/-- The unscoped buffers that are no window's array: the index table, the embedding array, and the rest. -/
theorem unscopedRestOpen26 (Vin : Dev nD → Valuation τ sig (Elt F)) (c : Dev nD) :
    (Pipeline.unscopedRest (Ix := Unit) (Name := ℕ) (U := UU nD τ) (Lvl := ℕ) spec26 c (Vr Vin c) : sProp (MM F))
      = iprop(Pipeline.prefHeld pre26 c (fun _ => fullShare) (fun k => Vr Vin c (pre26.ref k))
          ∗ pt c (Memref.whole main_v109) (Vr Vin c main_v109) ∗ Zrest26 Vin c) := by
  rw [Pipeline.unscopedRest_split preFacts26 c (Vr Vin c)]
  unfold Pipeline.unscopedRestP Zrest26
  rw [BI.bigSep_sdiff_split embArrMem26, BI.bigSep_singleton]
  rfl

/-- The buffer contents when the region is left: the result array at the gathered rows, every other buffer as entered. -/
abbrev Vout26 (a0 : (pcfg26 (F := F)).Adm) (Vin : Dev nD → Valuation τ sig (Elt F)) (c : Dev nD) : Valuation τ sig (Elt F) :=
  Function.update (Vin c) main_v174 (gout26 a0 Vin c)

/-- At the exit each of the region's arrays holds what the pipeline leaves; -/
theorem hF26 (a0 : (pcfg26 (F := F)).Adm) (Vin : Dev nD → Valuation τ sig (Elt F)) (c : Dev nD) (w : Fin (cfg26 a0).W) :
    (dat26 a0 Vin c).arrAt w (cfg26 a0).N = Vr (Vout26 a0 Vin) c (Pipeline.arrRef spec26 w) := by
  match w with
  | ⟨0, _⟩ =>
    show (dat26 a0 Vin c).arrAt 0 (cfg26 a0).N = Vr (Vout26 a0 Vin) c (Pipeline.arrRef spec26 0)
    rw [arrAt26_in]
    exact (Function.update_of_ne (StableHlo.devRef_ne_of_ne (by decide) : (Proc.devRef .tc main_v173 : DevRef τ sig) ≠ Proc.devRef .tc main_v174) _ _).symm
  | ⟨1, _⟩ =>
    show (dat26 a0 Vin c).arrAt 1 (cfg26 a0).N = Vr (Vout26 a0 Vin) c (Pipeline.arrRef spec26 1)
    rw [arrAt26_out]
    exact (Function.update_self (Proc.devRef .tc main_v174 : DevRef τ sig) _ (Vin c)).symm

/-- and every other buffer what it held at entry. -/
theorem hrest26 (a0 : (pcfg26 (F := F)).Adm) (Vin : Dev nD → Valuation τ sig (Elt F)) (c : Dev nD) :
    ∀ b : Ref sig .tc, b ∉ Finset.univ.image (Pipeline.arrRef spec26) → Vr (Vout26 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat26` at the entry valuation `Vin`
    (`hd`), the index table's contents under `Vin` being the pinned ones (`htbl`) and row numbers (`hok`). -/
def reg26 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk26 (F := F) (a (26 : Fin 34)))
    (hd : ∀ c, pdats (26 : Fin 34) c = dat26 (a (26 : Fin 34)) Vin c) (htbl : ∀ c, (a (26 : Fin 34)).1 = fun k => Vr Vin c (pre26.ref k)) :
    Pipeline.RegionSeg (pcfgs (F := F)) a pdats () defs₀ 𝒱₀ L lv (26 : Fin 34) where
  win := (launch26 (F := F)).win.to₀
  block_pos := (launch26 (F := F)).block_pos
  stage_whole := (launch26 (F := F)).stage_whole
  K := Fin 8
  osem := osem26
  ho := ownSemFacts26
  hbody c := by rw [hd c]; exact (body_obligation26 (a (26 : Fin 34)) hok Vin c).loose
  hwaits := Pipeline.hwaits_of_owed_zero _ _ _ _ L lv (26 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v174 (gout26 (a (26 : Fin 34)) Vin c)) ∗ Rest c)
  X c := iprop(pt c (Memref.whole main_v109) (Vr Vin c main_v109) ∗ sems26 c)
  Y c := iprop(pt c (Memref.whole main_v109) (Vr Vin c main_v109)
    ∗ Pipeline.prefHeld (Ix := Unit) (Name := ℕ) (U := UU nD τ) (Lvl := ℕ) pre26 c (fun _ => fullShare) (a (26 : Fin 34)).1)
  Z c := Zrest26 Vin c
  hentry c := by
    rw [ownSemsListed26]
    have hsplit := Pipeline.arrays_of_unscopedBufs (p := (26 : Fin 34)) (pcfgs (F := F)) a pdats (launch26 (F := F)).win (launch26 (F := F)).arr_whole c
      ((pdats (26 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen26 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (26 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq26]; unfold Phi26
    iintro ⟨⟨Hx, Hos⟩, Ht, Hr⟩
    isplitl [Hx]; · iexact Hx
    isplitl [Hos]; · iexact Hos
    isplitl [Ht]; · iexact Ht
    iexact Hr
  hout c := by
    rw [ownSemsListed26, hd c, Phi_eq26]; unfold Phi26
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (26 : Fin 34)) (pcfgs (F := F)) a (Ix := Unit) (Name := ℕ) (U := UU nD τ) (Lvl := ℕ)
      (launch26 (F := F)).win (launch26 (F := F)).arr_whole c pdats ((pdats (26 : Fin 34) c).share_full fun _ => by rw [hd c]; rfl)
      (Vr Vin c) (Vr (Vout26 (a (26 : Fin 34)) Vin) c) ((pdats (26 : Fin 34) c).arrAt · (cfg26 (a (26 : Fin 34))).N)
      (fun w => by rw [hd c]; exact hF26 (a (26 : Fin 34)) Vin c w) (hrest26 (a (26 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen26 Vin c).symm)
      isplitl [Ht]; · rw [← htbl c]; iexact Ht
      isplitl [Hx]; · iexact Hx
      iexact Hz
    unfold Pipeline.Dat.owesAt Pipeline.owesWithin
    rw [show (pdats (26 : Fin 34) c).owed (Fin.last _) = 0 from by rw [hd c]; rfl]
    icases HO with ⟨%W, -, HO⟩; iexists W; iexact HO

end Cert.KernelIdeal.Hand

end
-- ==== Proof.KI.GatherDat27.lean ====
/-
  Gather region 27 (custom_call 27): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem27 : Fin 8 → SemLoc sig := fun | 0 => .dma 320 | 1 => .dma 321 | 2 => .dma 322 | 3 => .dma 323 | 4 => .dma 324 | 5 => .dma 325 | 6 => .dma 326 | 7 => .dma 327

/-- The eight counters at zero, as the run finds them and hands them back. -/
abbrev sems27 (c : Dev nD) : sProp (MM F) :=
  iprop(semVal ((c : Thread nD τ), osem27 0) 0 ∗ semVal ((c : Thread nD τ), osem27 1) 0 ∗ semVal ((c : Thread nD τ), osem27 2) 0
    ∗ semVal ((c : Thread nD τ), osem27 3) 0 ∗ semVal ((c : Thread nD τ), osem27 4) 0 ∗ semVal ((c : Thread nD τ), osem27 5) 0
    ∗ semVal ((c : Thread nD τ), osem27 6) 0 ∗ semVal ((c : Thread nD τ), osem27 7) 0)

/-- Word `j` of the eight the index table holds for point `i`, as the kernel's scalar load reads it. -/
def tblWord27 (c : Dev nD) (i : grid27.Coords) (tbl : Bf (F := F) c (Memref.whole main_v175)) (j : Fin 8) : BitVec 32 :=
  (Memref.whole main_v175).view.readAt (Elt F) (Rect.unit (s := S131072) (k27_off1 i (BitVec.ofNat 32 j.val)) S1.size (k27_off1_inb i j)).toLoadRect tbl
    (Shape.Idx.first (s := S1) (numel1_S1.symm ▸ Nat.one_pos))

/-- Window `w`'s block at point `t`, read off its array at the region's entry. -/
def iblk27 (a0 : (pcfg27 (F := F)).Adm) (Vin : Dev nD → Valuation τ sig (Elt F)) (c : Dev nD) (w : Fin (cfg27 a0).W) (t : Fin (cfg27 a0).N) :
    (((cfg27 a0).win w).xblock ((cfg27 a0).grid.coords t)).Idx → Elt F ((cfg27 a0).win w).elt :=
  (((cfg27 a0).win w).blk t).view.read (Elt F) (Vr Vin c (Pipeline.arrRef spec27 w))

/-- The result array the region leaves: the gathered and scaled rows of the embedding array, whole. -/
def gout27 (a0 : (pcfg27 (F := F)).Adm) (Vin : Dev nD → Valuation τ sig (Elt F)) (c : Dev nD) : Buf (Elt F) ((c : Thread nD τ).loc main_v177) :=
  gatherArr (Vr Vin c main_v109) (a0.1 0) (Vr Vin c main_v176)

/-- The invariant between points: the embedding array as entered, the kernel's semaphores at zero, the index table, the
    scoped buffers no window stages (the kernel's scratch among them). -/
def Phi27 (a0 : (pcfg27 (F := F)).Adm) (Vin : Dev nD → Valuation τ sig (Elt F)) (c : Dev nD) : sProp (MM F) :=
  iprop(pt c (Memref.whole main_v109) (Vr Vin c main_v109) ∗ sems27 c
    ∗ Pipeline.prefHeld (Ix := Unit) (Name := ℕ) (U := UU nD τ) (Lvl := ℕ) pre27 c (fun _ => fullShare) a0.1
    ∗ Pipeline.scopedRest (Ix := Unit) (Name := ℕ) (U := UU nD τ) (Lvl := ℕ) (Val := Elt F) spec27 c)

/-- The proof data on core `c`. -/
def dat27 (a0 : (pcfg27 (F := F)).Adm) (Vin : Dev nD → Valuation τ sig (Elt F)) (c : Dev nD) :
    Pipeline.Dat τ (Elt F) Unit ℕ (UU nD τ) ℕ ((pcfg27 (F := F)).at a0) c where
  A w := Vr Vin c (Pipeline.arrRef spec27 w)
  after w t := match w with
    | ⟨0, _⟩ => iblk27 a0 Vin c 0 t
    | ⟨1, _⟩ => (((cfg27 a0).win 1).blk t).view.read (Elt F) (gout27 a0 Vin c)
  Φ _ := Phi27 a0 Vin c
  q _ := fullShare
  owed _ := 0

theorem A_eq27 (a0 : (pcfg27 (F := F)).Adm) (Vin : Dev nD → Valuation τ sig (Elt F)) (c : Dev nD) (w : Fin (cfg27 a0).W) :
    (dat27 a0 Vin c).A w = Vr Vin c (Pipeline.arrRef spec27 w) := by dsimp only [dat27]
theorem after27_0 (a0 : (pcfg27 (F := F)).Adm) (Vin : Dev nD → Valuation τ sig (Elt F)) (c : Dev nD) (t : Fin (cfg27 a0).N) :
    (dat27 a0 Vin c).after 0 t = iblk27 a0 Vin c 0 t := by dsimp only [dat27]; rfl
theorem after27_1 (a0 : (pcfg27 (F := F)).Adm) (Vin : Dev nD → Valuation τ sig (Elt F)) (c : Dev nD) (t : Fin (cfg27 a0).N) :
    (dat27 a0 Vin c).after 1 t = (((cfg27 a0).win 1).blk t).view.read (Elt F) (gout27 a0 Vin c) := by dsimp only [dat27]; rfl
theorem Phi_eq27 (a0 : (pcfg27 (F := F)).Adm) (Vin : Dev nD → Valuation τ sig (Elt F)) (c : Dev nD) (t : Fin ((cfg27 a0).N + 1)) :
    (dat27 a0 Vin c).Φ t = Phi27 a0 Vin c := rfl
theorem owed_eq27 (a0 : (pcfg27 (F := F)).Adm) (Vin : Dev nD → Valuation τ sig (Elt F)) (c : Dev nD) (t : Fin ((cfg27 a0).N + 1)) :
    (dat27 a0 Vin c).owed t = 0 := rfl
theorem q_eq27 (a0 : (pcfg27 (F := F)).Adm) (Vin : Dev nD → Valuation τ sig (Elt F)) (c : Dev nD) (w : Fin (cfg27 a0).W) :
    (dat27 a0 Vin c).q w = fullShare := rfl

/-- The pinned family's configuration at region 27 is this one. -/
example (a : (p : Fin 34) → (pcfgs (F := F) p).Adm) : Pipeline.pin (pcfgs (F := F)) a (27 : Fin 34) = (pcfg27 (F := F)).at (a (27 : Fin 34)) := rfl

end Cert.KernelIdeal.Hand

end
-- ==== Proof.KI.GatherBody27.lean ====
/-
  Gather region 27 (custom_call 27): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat27
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk27 (c : Dev nD) (i : grid27.Coords) (tbl : Bf (F := F) c (Memref.whole main_v175)) : Prop where
  h1 : k27_chk1 (tblWord27 c i tbl 0)
  h2 : k27_chk2 (tblWord27 c i tbl 1)
  h3 : k27_chk3 (tblWord27 c i tbl 2)
  h4 : k27_chk4 (tblWord27 c i tbl 3)
  h5 : k27_chk5 (tblWord27 c i tbl 4)
  h6 : k27_chk6 (tblWord27 c i tbl 5)
  h7 : k27_chk7 (tblWord27 c i tbl 6)
  h8 : k27_chk8 (tblWord27 c i tbl 7)

/-- A one-row slice of the embedding array at the row a word names, read at lane `z 1`: the array's element there. -/
theorem rowRead27 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun27 (c : Dev nD) (i : grid27.Coords)
    (M3 : Memref sig .tc .vmem S8x1 .f32) (h3 : M3.IsWhole) (M4 : Memref sig .tc .vmem S8x128 .f32) (h4 : M4.IsWhole)
    (tbl : Bf (F := F) c (Memref.whole main_v175)) (x : Bf (F := F) c (Memref.whole main_v109))
    (vb : Vec F S8x1 .f32) (hchk : GatherChk27 c i tbl) (Q : PUnit → sProp (MM F)) :
    iprop(pt c (Memref.whole main_v175) tbl ∗ pt c (Memref.whole main_v109) x
      ∗ owns (c : Thread nD τ) M3 fullShare vb ∗ (∃ d, owns (c : Thread nD τ) M4 fullShare d)
      ∗ (∃ fs, pt c (Memref.whole cc27_scratch0) fs) ∗ sems27 c ∗ (∃ W, owes (c : Thread nD τ) (0 : CellTallies nD τ sig Unit) W)
      ∗ (iprop(pt c (Memref.whole main_v175) tbl ∗ pt c (Memref.whole main_v109) x
          ∗ owns (c : Thread nD τ) M3 fullShare vb ∗ owns (c : Thread nD τ) M4 fullShare (gatherBlk x (tblWord27 c i tbl) vb)
          ∗ (∃ fs, pt c (Memref.whole cc27_scratch0) fs) ∗ sems27 c ∗ (∃ W, owes (c : Thread nD τ) (0 : CellTallies nD τ sig Unit) W)) -∗ Q ⟨⟩))
    ⊢ wp frame (wpE (defs₀ (F := F)) 𝒱₀ c none) Set.univ
        (cc27__gather_kernel i (Memref.whole main_v175) (Memref.isWhole_whole _) (Memref.whole main_v109) (Memref.isWhole_whole _) M3 h3 M4 h4
          (Memref.whole cc27_scratch0) (Memref.isWhole_whole _) cc27_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 320).1 $$ Hx
  icases Hx' with ⟨Hxr, Hx0, Hx1, Hx2, Hx3, Hx4, Hx5, Hx6, Hx7⟩
  sl_unfold [cc27__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 320).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k27_pay1 gatherBlk
    show FloatOps.mulf _ _ = FloatOps.mulf _ _
    congr 1
    · unfold gatherRun27.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun27.sl.dma8 gatherRun27.sl.dma8_1 gatherRun27.sl.dma8_2 gatherRun27.sl.dma8_3 gatherRun27.sl.dma8_4 gatherRun27.sl.dma8_5
        gatherRun27.sl.dma8_6 gatherRun27.sl.dma8_7 gatherRun27.sl.r gatherRun27.sl.r_1 gatherRun27.sl.r_2 gatherRun27.sl.r_3 gatherRun27.sl.r_4
        gatherRun27.sl.r_5 gatherRun27.sl.r_6 gatherRun27.sl.r_7
      refine canonRows8 _ _ _ _ _ _ _ _ _ _ _ _ _ _ _ _ (fun r d => x (embIdx (rowOf (tblWord27 c i tbl r)) d)) ?_ ?_ ?_ ?_ ?_ ?_ ?_ ?_ y
      · exact fun z => rowRead27 c _ (tblWord27 c i tbl 0) rfl rfl _ _ x z
      · exact fun z => rowRead27 c _ (tblWord27 c i tbl 1) rfl rfl _ _ x z
      · exact fun z => rowRead27 c _ (tblWord27 c i tbl 2) rfl rfl _ _ x z
      · exact fun z => rowRead27 c _ (tblWord27 c i tbl 3) rfl rfl _ _ x z
      · exact fun z => rowRead27 c _ (tblWord27 c i tbl 4) rfl rfl _ _ x z
      · exact fun z => rowRead27 c _ (tblWord27 c i tbl 5) rfl rfl _ _ x z
      · exact fun z => rowRead27 c _ (tblWord27 c i tbl 6) rfl rfl _ _ x z
      · exact fun z => rowRead27 c _ (tblWord27 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk27.lean ====
/-
  Gather region 27 (custom_call 27): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat27
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word27 (i : grid27.Coords) (j : Fin 8) : k27_off1 i (BitVec.ofNat 32 j.val) 0 = (i 0).val * 8 + j.val := by
  have hi : (i 0).val < 16384 := (i 0).isLt
  have hj : j.val < 8 := j.isLt
  unfold k27_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word27 (i : grid27.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord27_eq (c : Dev nD) (i : grid27.Coords) (tbl : Bf (F := F) c (Memref.whole main_v175)) (j : Fin 8)
    (e : Fin 131072) (he : e.val = (i 0).val * 8 + j.val) : tblWord27 c i tbl j = tbl (tblIdx e) := by
  unfold tblWord27
  show tbl _ = tbl _
  refine congrArg tbl ?_
  funext a; apply Fin.ext
  match a with
  | ⟨0, _⟩ =>
    show k27_off1 i (BitVec.ofNat 32 j.val) 0 + 1 * 0 = e.val
    rw [off_word27, he]; omega

/-- Row `j` of the value window's block at point `t` is the value array's row `8 t + j`. -/
theorem valBlk27_eq (a0 : (pcfg27 (F := F)).Adm) (Vin : Dev nD → Valuation τ sig (Elt F)) (c : Dev nD) (t : Fin (cfg27 a0).N)
    (j : Fin 8) (e : Fin 131072) (he : e.val = ((grid27.coords t) 0).val * 8 + j.val) :
    iblk27 a0 Vin c 0 t (colIdx j) = Vr Vin c main_v176 (valIdx e) := by
  unfold iblk27
  show Vr Vin c main_v176 _ = Vr Vin c main_v176 _
  refine congrArg (Vr Vin c main_v176) ?_
  funext a; apply Fin.ext
  match a with
  | ⟨0, _⟩ =>
    show (BitVec.ofNat 32 ((grid27.coords t) 0).val).toNat * 8 + 1 * j.val = e.val
    rw [coord_word27, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk27 (a0 : (pcfg27 (F := F)).Adm) (Vin : Dev nD → Valuation τ sig (Elt F)) (c : Dev nD) (t : Fin (cfg27 a0).N) :
    gatherBlk (Vr Vin c main_v109) (tblWord27 c (grid27.coords t) (a0.1 0)) (iblk27 a0 Vin c 0 t)
      = (((cfg27 a0).win 1).blk t).view.read (Elt F) (gout27 a0 Vin c) := by
  funext y
  show gatherBlk _ _ _ y = gout27 a0 Vin c ((((cfg27 a0).win 1).blk t).view.emb y)
  unfold gatherBlk gout27 gatherArr
  have e0 : ((((cfg27 a0).win 1).blk t).view.emb y (0 : Fin 2)).val = ((grid27.coords t) 0).val * 8 + (y 0).val := by
    show (BitVec.ofNat 32 ((grid27.coords t) 0).val).toNat * 8 + 1 * (y 0).val = _
    rw [coord_word27]; omega
  have e1 : (((cfg27 a0).win 1).blk t).view.emb y (1 : Fin 2) = y 1 := Fin.ext (by
    show (0#32 : BitVec 32).toNat * 128 + 1 * (y 1).val = (y 1).val
    show 0 * 128 + 1 * (y 1).val = (y 1).val
    omega)
  rw [tblWord27_eq c (grid27.coords t) (a0.1 0) (y 0) _ e0, valBlk27_eq a0 Vin c t (y 0) _ e0, e1]

end Cert.KernelIdeal.Hand

end
-- ==== Proof.KI.GatherRegion27.lean ====
/-
  Gather region 27 (custom_call 27): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody27
import proofs.«414509_j14181982011419_2_alg».proof.Proof.KI.GatherBlk27
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk27 (a0 : (pcfg27 (F := F)).Adm) : Prop := ∀ e : S131072.Idx, (a0.1 0 e).toNat < 100000

/-! ## The grid and the result window's blocks -/

/-- On the one-axis grid a point's coordinate is its number. -/
theorem regCoords27 (t : Fin grid27.N) : (grid27.coords t 0).val = t.val := by
  have ht : t.val < 16384 := N_27 ▸ t.isLt
  show t.val / grid27.stride 0 % grid27.bound 0 = t.val
  rw [show grid27.stride 0 = 1 from by decide, show grid27.bound 0 = 16384 from rfl, Nat.div_one, Nat.mod_eq_of_lt ht]

/-- A point's number as the 32-bit word the index maps compute with. -/
theorem regWord27 (t : Fin grid27.N) : (BitVec.ofNat 32 (grid27.coords t 0).val).toNat = t.val := by
  have ht : t.val < 16384 := N_27 ▸ t.isLt
  rw [BitVec.toNat_ofNat, regCoords27]; omega

/-- The result window's block at point `t` is block `t` along the rows, at zero along the lanes. -/
theorem regOutIndex27 (a0 : (pcfg27 (F := F)).Adm) (t : Fin (cfg27 a0).N) : ((cfg27 a0).win 1).index t = ![t.val, 0] := by
  show cc27_transform_2 (grid27.coords t) = _
  unfold cc27_transform_2
  funext a; fin_cases a
  · exact regWord27 t
  · rfl

/-- The result window is written back at every point: consecutive points have different blocks. -/
theorem regOutFlush27 (a0 : (pcfg27 (F := F)).Adm) (t : Fin (cfg27 a0).N) : ((cfg27 a0).win 1).flush t = true := by
  have htN : t.val < 16384 := N_27 ▸ t.isLt
  rw [Pipeline.Window.flush_out _ rfl]
  by_cases h : t.val + 1 = 16384
  · exact Or.inl (show t.val + 1 = grid27.N by rw [N_27]; exact h)
  · have hlt : t.val + 1 < grid27.N := by rw [N_27]; omega
    refine Or.inr ⟨hlt, fun e => ?_⟩
    have e' : (![t.val + 1, 0] : Fin 2 → ℕ) = ![t.val, 0] := (regOutIndex27 a0 ⟨t.val + 1, hlt⟩).symm.trans (e.trans (regOutIndex27 a0 t))
    have e0 := congrFun e' 0
    simp at e0

/-- The index table, held as the pipeline's one prefetched table. -/
theorem prefHeldEq27 (a0 : (pcfg27 (F := F)).Adm) (c : Dev nD) :
    (Pipeline.prefHeld (Ix := Unit) (Name := ℕ) (U := UU nD τ) (Lvl := ℕ) pre27 c (fun _ => fullShare) a0.1 : sProp (MM F))
      = pt c (Memref.whole main_v175) (a0.1 0) := by
  unfold Pipeline.prefHeld
  rw [show (Finset.univ : Finset (Fin pre27.K)) = {0} from rfl, BI.bigSep_singleton]
  rfl

/-- The value window's staging buffer holds its block at every point. -/
theorem beforeVal27 (a0 : (pcfg27 (F := F)).Adm) (Vin : Dev nD → Valuation τ sig (Elt F)) (c : Dev nD) (t : Fin (cfg27 a0).N) (d) :
    (dat27 a0 Vin c).before 0 t d = iblk27 a0 Vin c 0 t :=
  ((dat27 a0 Vin c).before_in_eq_fetched 0 rfl (fun _ => rfl) (fun _ _ _ => rfl)
    (fun t => by rw [after27_0]; unfold Dat.blockOf iblk27; rw [A_eq27]; try rfl) t d).trans
    (by unfold Dat.fetched Dat.blockOf iblk27; rw [A_eq27]; try rfl)

/-! ## The kernel's checks, from the table's range -/

/-- Each of the point's eight words is a word of the table, so a row number. -/
theorem tblWordLt27 (a0 : (pcfg27 (F := F)).Adm) (hok : GatherOk27 a0) (c : Dev nD) (i : grid27.Coords) (j : Fin 8) :
    (tblWord27 c i (a0.1 0) j).toNat < 100000 := by
  unfold tblWord27
  exact hok _

/-- So the kernel's eight checks hold at every point. -/
theorem gatherChk27 (a0 : (pcfg27 (F := F)).Adm) (hok : GatherOk27 a0) (c : Dev nD) (i : grid27.Coords) : GatherChk27 c i (a0.1 0) :=
  ⟨⟨chkRow _ (tblWordLt27 a0 hok c i 0), chkRow _ (tblWordLt27 a0 hok c i 0)⟩,
   ⟨chkRow _ (tblWordLt27 a0 hok c i 1), chkRow _ (tblWordLt27 a0 hok c i 1)⟩,
   ⟨chkRow _ (tblWordLt27 a0 hok c i 2), chkRow _ (tblWordLt27 a0 hok c i 2)⟩,
   ⟨chkRow _ (tblWordLt27 a0 hok c i 3), chkRow _ (tblWordLt27 a0 hok c i 3)⟩,
   ⟨chkRow _ (tblWordLt27 a0 hok c i 4), chkRow _ (tblWordLt27 a0 hok c i 4)⟩,
   ⟨chkRow _ (tblWordLt27 a0 hok c i 5), chkRow _ (tblWordLt27 a0 hok c i 5)⟩,
   ⟨chkRow _ (tblWordLt27 a0 hok c i 6), chkRow _ (tblWordLt27 a0 hok c i 6)⟩,
   chkRow _ (tblWordLt27 a0 hok c i 7)⟩

/-! ## The body obligation, at a generic point -/

/-- What the body is called with at point `t`: the invariant, the core's dues, each window's current staging memref at
    what the pipeline left there, -/
def bodyPre27 (a0 : (pcfg27 (F := F)).Adm) (Vin : Dev nD → Valuation τ sig (Elt F)) (c : Dev nD) (t : Fin (cfg27 a0).N) : sProp (MM F) :=
  iprop((dat27 a0 Vin c).Φ t.castSucc ∗ (dat27 a0 Vin c).owesAt () t.castSucc
    ∗ (∃ d, owns (c : Thread nD τ) (((cfg27 a0).win 0).stage ((cfg27 a0).slots t 0)) fullShare ((dat27 a0 Vin c).before 0 t d))
    ∗ (∃ d, owns (c : Thread nD τ) (((cfg27 a0).win 1).stage ((cfg27 a0).slots t 1)) fullShare ((dat27 a0 Vin c).before 1 t d)))

/-- and what it returns. -/
def bodyPost27 (a0 : (pcfg27 (F := F)).Adm) (Vin : Dev nD → Valuation τ sig (Elt F)) (c : Dev nD) (t : Fin (cfg27 a0).N) : sProp (MM F) :=
  iprop((dat27 a0 Vin c).Φ t.succ ∗ (dat27 a0 Vin c).owesAt () t.succ
    ∗ owns (c : Thread nD τ) (((cfg27 a0).win 0).stage ((cfg27 a0).slots t 0)) fullShare ((dat27 a0 Vin c).after 0 t)
    ∗ owns (c : Thread nD τ) (((cfg27 a0).win 1).stage ((cfg27 a0).slots t 1)) fullShare ((dat27 a0 Vin c).after 1 t))

/-- The body at any point: the invariant opened into the embedding array, the semaphores, the table and the scratch;
    the value window's memref at its block; the checks from the table's range; so the kernel's run applies, and what it
    leaves in the result window's memref is the point's block of the gathered array. -/
theorem sound_body27 (a0 : (pcfg27 (F := F)).Adm) (hok : GatherOk27 a0) (Vin : Dev nD → Valuation τ sig (Elt F)) (c : Dev nD) (t : Fin (cfg27 a0).N) :
    bodyPre27 a0 Vin c t ⊢ wp frame (wpE (defs₀ (F := F)) 𝒱₀ c none) Set.univ
      (defs₀ .tc (cfg27 a0).body ((cfg27 a0).bodyArgs t ((cfg27 a0).slots t))) (fun _ => bodyPost27 a0 Vin c t) := by
  unfold bodyPre27 bodyPost27
  simp only [beforeVal27]
  rw [Phi_eq27, Phi_eq27, after27_0, after27_1, ← gatherBlk_blk27]
  unfold Phi27 Pipeline.Dat.owesAt Pipeline.owesWithin
  rw [owed_eq27, owed_eq27, prefHeldEq27, scopedRest27_split]
  iintro ⟨⟨Hx, Hos, Ht, ⟨%fs, Hs⟩, Hsb⟩, ⟨%W, %hW, HO⟩, ⟨%d0, H0⟩, ⟨%d1, H1⟩⟩
  iapply (gatherRun27 c (grid27.coords t) _ _ _ _ (a0.1 0) (Vr Vin c main_v109) (iblk27 a0 Vin c 0 t) (gatherChk27 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation27 (a0 : (pcfg27 (F := F)).Adm) (hok : GatherOk27 a0) (Vin : Dev nD → Valuation τ sig (Elt F)) (c : Dev nD) :
    BodyObligation (dat27 a0 Vin c) (defs₀ (F := F)) 𝒱₀ () Set.univ := fun t => by
  rw [bigSep_W27, bigSep_W27]
  exact sound_body27 a0 hok Vin c t

/-! ## From the blocks to the arrays -/

/-- The value array after the region: as entered. -/
theorem arrAt27_in (a0 : (pcfg27 (F := F)).Adm) (Vin : Dev nD → Valuation τ sig (Elt F)) (c : Dev nD) :
    (dat27 a0 Vin c).arrAt 0 (cfg27 a0).N = Vr Vin c main_v176 :=
  ((dat27 a0 Vin c).arrAt_in 0 rfl _).trans (A_eq27 a0 Vin c 0)

/-- Every index of the result array is in some point's block: row `e`, lane `d` is element `(e % 8, d)` of the block
    of point `e / 8`. -/
theorem regOutCover27 (a0 : (pcfg27 (F := F)).Adm) (i : S131072x128.Idx) :
    ∃ t : Fin (cfg27 a0).N, ((cfg27 a0).win 1).flush t = true ∧ i ∈ (((cfg27 a0).win 1).blk t).view.set := by
  have hi0 : (i 0).val < 131072 := (i 0).isLt
  have hi1 : (i 1).val < 128 := (i 1).isLt
  have hN : (i 0).val / 8 < grid27.N := by rw [N_27]; omega
  obtain ⟨t, ht⟩ : ∃ t : Fin (cfg27 a0).N, t.val = (i 0).val / 8 := ⟨⟨_, hN⟩, rfl⟩
  have hx : (((cfg27 a0).win 1).blk t).view.emb (ValueIdx.ix2 ⟨(i 0).val % 8, Nat.mod_lt _ (by decide)⟩ (i 1)) = i := by
    funext a; apply Fin.ext
    have e0 : ((cfg27 a0).win 1).index t (0 : Fin 2) = t.val := congrFun (regOutIndex27 a0 t) (0 : Fin 2)
    have e1 : ((cfg27 a0).win 1).index t (1 : Fin 2) = 0 := congrFun (regOutIndex27 a0 t) (1 : Fin 2)
    match a with
    | ⟨0, _⟩ => show ((cfg27 a0).win 1).index t (0 : Fin 2) * 8 + 1 * ((i 0).val % 8) = (i 0).val; omega
    | ⟨1, _⟩ => show ((cfg27 a0).win 1).index t (1 : Fin 2) * 128 + 1 * (i 1).val = (i 1).val; omega
  exact ⟨t, regOutFlush27 a0 t, hx ▸ (((cfg27 a0).win 1).blk t).view.emb_mem_set _⟩

/-- The result array after the region: the gathered and scaled rows, whole. -/
theorem arrAt27_out (a0 : (pcfg27 (F := F)).Adm) (Vin : Dev nD → Valuation τ sig (Elt F)) (c : Dev nD) :
    (dat27 a0 Vin c).arrAt 1 (cfg27 a0).N = gout27 a0 Vin c :=
  (dat27 a0 Vin c).arrAt_eq_of_cover 1 (gout27 a0 Vin c)
    (fun t _ => by
      show ((cfg27 a0).win 1).cut ((cfg27 a0).grid.coords t) ((dat27 a0 Vin c).after 1 t) = _
      rw [after27_1])
    (regOutCover27 a0)

/-! ## The region as a segment of @main -/

/-- The ownership layout of the kernel's eight semaphores. -/
theorem ownSemFacts27 : Pipeline.OwnSemFacts spec27 osem27 := by decide

/-- The kernel's own cells at zero, listed. -/
theorem ownSemsListed27 (c : Dev nD) :
    (Pipeline.ownSems0 (Ix := Unit) (Name := ℕ) (U := UU nD τ) (Lvl := ℕ) (Val := Elt F) (τ := τ) osem27 c : sProp (MM F)) = sems27 c :=
  Pipeline.ownSems0_eq_of_list c osem27 [0, 1, 2, 3, 4, 5, 6, 7] (by decide) (by decide)

/-- The unscoped buffers that are no window's array, no table, and not the embedding array. -/
abbrev restRefs27 : Finset (Ref sig .tc) :=
  (((Finset.univ.filter fun b : Ref sig .tc => ¬ b.isScoped) \ Finset.univ.image (Pipeline.arrRef spec27)) \ Finset.univ.image pre27.ref) \ {main_v109}

/-- Those buffers, each whole at its contents under `Vin`: what bypasses the region. -/
def Zrest27 (Vin : Dev nD → Valuation τ sig (Elt F)) (c : Dev nD) : sProp (MM F) :=
  bigSep restRefs27 fun b => ((c : Thread nD τ).loc b) ↦{fullShare} Vr Vin c b

/-- The embedding array is an unscoped buffer that is no window's array and no table. -/
theorem embArrMem27 : ({main_v109} : Finset (Ref sig .tc)) ⊆
    ((Finset.univ.filter fun b : Ref sig .tc => ¬ b.isScoped) \ Finset.univ.image (Pipeline.arrRef spec27)) \ Finset.univ.image pre27.ref := by
  decide

/-- The unscoped buffers that are no window's array: the index table, the embedding array, and the rest. -/
theorem unscopedRestOpen27 (Vin : Dev nD → Valuation τ sig (Elt F)) (c : Dev nD) :
    (Pipeline.unscopedRest (Ix := Unit) (Name := ℕ) (U := UU nD τ) (Lvl := ℕ) spec27 c (Vr Vin c) : sProp (MM F))
      = iprop(Pipeline.prefHeld pre27 c (fun _ => fullShare) (fun k => Vr Vin c (pre27.ref k))
          ∗ pt c (Memref.whole main_v109) (Vr Vin c main_v109) ∗ Zrest27 Vin c) := by
  rw [Pipeline.unscopedRest_split preFacts27 c (Vr Vin c)]
  unfold Pipeline.unscopedRestP Zrest27
  rw [BI.bigSep_sdiff_split embArrMem27, BI.bigSep_singleton]
  rfl

/-- The buffer contents when the region is left: the result array at the gathered rows, every other buffer as entered. -/
abbrev Vout27 (a0 : (pcfg27 (F := F)).Adm) (Vin : Dev nD → Valuation τ sig (Elt F)) (c : Dev nD) : Valuation τ sig (Elt F) :=
  Function.update (Vin c) main_v177 (gout27 a0 Vin c)

/-- At the exit each of the region's arrays holds what the pipeline leaves; -/
theorem hF27 (a0 : (pcfg27 (F := F)).Adm) (Vin : Dev nD → Valuation τ sig (Elt F)) (c : Dev nD) (w : Fin (cfg27 a0).W) :
    (dat27 a0 Vin c).arrAt w (cfg27 a0).N = Vr (Vout27 a0 Vin) c (Pipeline.arrRef spec27 w) := by
  match w with
  | ⟨0, _⟩ =>
    show (dat27 a0 Vin c).arrAt 0 (cfg27 a0).N = Vr (Vout27 a0 Vin) c (Pipeline.arrRef spec27 0)
    rw [arrAt27_in]
    exact (Function.update_of_ne (StableHlo.devRef_ne_of_ne (by decide) : (Proc.devRef .tc main_v176 : DevRef τ sig) ≠ Proc.devRef .tc main_v177) _ _).symm
  | ⟨1, _⟩ =>
    show (dat27 a0 Vin c).arrAt 1 (cfg27 a0).N = Vr (Vout27 a0 Vin) c (Pipeline.arrRef spec27 1)
    rw [arrAt27_out]
    exact (Function.update_self (Proc.devRef .tc main_v177 : DevRef τ sig) _ (Vin c)).symm

/-- and every other buffer what it held at entry. -/
theorem hrest27 (a0 : (pcfg27 (F := F)).Adm) (Vin : Dev nD → Valuation τ sig (Elt F)) (c : Dev nD) :
    ∀ b : Ref sig .tc, b ∉ Finset.univ.image (Pipeline.arrRef spec27) → Vr (Vout27 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat27` at the entry valuation `Vin`
    (`hd`), the index table's contents under `Vin` being the pinned ones (`htbl`) and row numbers (`hok`). -/
def reg27 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk27 (F := F) (a (27 : Fin 34)))
    (hd : ∀ c, pdats (27 : Fin 34) c = dat27 (a (27 : Fin 34)) Vin c) (htbl : ∀ c, (a (27 : Fin 34)).1 = fun k => Vr Vin c (pre27.ref k)) :
    Pipeline.RegionSeg (pcfgs (F := F)) a pdats () defs₀ 𝒱₀ L lv (27 : Fin 34) where
  win := (launch27 (F := F)).win.to₀
  block_pos := (launch27 (F := F)).block_pos
  stage_whole := (launch27 (F := F)).stage_whole
  K := Fin 8
  osem := osem27
  ho := ownSemFacts27
  hbody c := by rw [hd c]; exact (body_obligation27 (a (27 : Fin 34)) hok Vin c).loose
  hwaits := Pipeline.hwaits_of_owed_zero _ _ _ _ L lv (27 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v177 (gout27 (a (27 : Fin 34)) Vin c)) ∗ Rest c)
  X c := iprop(pt c (Memref.whole main_v109) (Vr Vin c main_v109) ∗ sems27 c)
  Y c := iprop(pt c (Memref.whole main_v109) (Vr Vin c main_v109)
    ∗ Pipeline.prefHeld (Ix := Unit) (Name := ℕ) (U := UU nD τ) (Lvl := ℕ) pre27 c (fun _ => fullShare) (a (27 : Fin 34)).1)
  Z c := Zrest27 Vin c
  hentry c := by
    rw [ownSemsListed27]
    have hsplit := Pipeline.arrays_of_unscopedBufs (p := (27 : Fin 34)) (pcfgs (F := F)) a pdats (launch27 (F := F)).win (launch27 (F := F)).arr_whole c
      ((pdats (27 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen27 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (27 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq27]; unfold Phi27
    iintro ⟨⟨Hx, Hos⟩, Ht, Hr⟩
    isplitl [Hx]; · iexact Hx
    isplitl [Hos]; · iexact Hos
    isplitl [Ht]; · iexact Ht
    iexact Hr
  hout c := by
    rw [ownSemsListed27, hd c, Phi_eq27]; unfold Phi27
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (27 : Fin 34)) (pcfgs (F := F)) a (Ix := Unit) (Name := ℕ) (U := UU nD τ) (Lvl := ℕ)
      (launch27 (F := F)).win (launch27 (F := F)).arr_whole c pdats ((pdats (27 : Fin 34) c).share_full fun _ => by rw [hd c]; rfl)
      (Vr Vin c) (Vr (Vout27 (a (27 : Fin 34)) Vin) c) ((pdats (27 : Fin 34) c).arrAt · (cfg27 (a (27 : Fin 34))).N)
      (fun w => by rw [hd c]; exact hF27 (a (27 : Fin 34)) Vin c w) (hrest27 (a (27 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen27 Vin c).symm)
      isplitl [Ht]; · rw [← htbl c]; iexact Ht
      isplitl [Hx]; · iexact Hx
      iexact Hz
    unfold Pipeline.Dat.owesAt Pipeline.owesWithin
    rw [show (pdats (27 : Fin 34) c).owed (Fin.last _) = 0 from by rw [hd c]; rfl]
    icases HO with ⟨%W, -, HO⟩; iexists W; iexact HO

end Cert.KernelIdeal.Hand

end
-- ==== Proof.KI.GatherDat28.lean ====
/-
  Gather region 28 (custom_call 28): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem28 : Fin 8 → SemLoc sig := fun | 0 => .dma 332 | 1 => .dma 333 | 2 => .dma 334 | 3 => .dma 335 | 4 => .dma 336 | 5 => .dma 337 | 6 => .dma 338 | 7 => .dma 339

/-- The eight counters at zero, as the run finds them and hands them back. -/
abbrev sems28 (c : Dev nD) : sProp (MM F) :=
  iprop(semVal ((c : Thread nD τ), osem28 0) 0 ∗ semVal ((c : Thread nD τ), osem28 1) 0 ∗ semVal ((c : Thread nD τ), osem28 2) 0
    ∗ semVal ((c : Thread nD τ), osem28 3) 0 ∗ semVal ((c : Thread nD τ), osem28 4) 0 ∗ semVal ((c : Thread nD τ), osem28 5) 0
    ∗ semVal ((c : Thread nD τ), osem28 6) 0 ∗ semVal ((c : Thread nD τ), osem28 7) 0)

/-- Word `j` of the eight the index table holds for point `i`, as the kernel's scalar load reads it. -/
def tblWord28 (c : Dev nD) (i : grid28.Coords) (tbl : Bf (F := F) c (Memref.whole main_v178)) (j : Fin 8) : BitVec 32 :=
  (Memref.whole main_v178).view.readAt (Elt F) (Rect.unit (s := S131072) (k28_off1 i (BitVec.ofNat 32 j.val)) S1.size (k28_off1_inb i j)).toLoadRect tbl
    (Shape.Idx.first (s := S1) (numel1_S1.symm ▸ Nat.one_pos))

/-- Window `w`'s block at point `t`, read off its array at the region's entry. -/
def iblk28 (a0 : (pcfg28 (F := F)).Adm) (Vin : Dev nD → Valuation τ sig (Elt F)) (c : Dev nD) (w : Fin (cfg28 a0).W) (t : Fin (cfg28 a0).N) :
    (((cfg28 a0).win w).xblock ((cfg28 a0).grid.coords t)).Idx → Elt F ((cfg28 a0).win w).elt :=
  (((cfg28 a0).win w).blk t).view.read (Elt F) (Vr Vin c (Pipeline.arrRef spec28 w))

/-- The result array the region leaves: the gathered and scaled rows of the embedding array, whole. -/
def gout28 (a0 : (pcfg28 (F := F)).Adm) (Vin : Dev nD → Valuation τ sig (Elt F)) (c : Dev nD) : Buf (Elt F) ((c : Thread nD τ).loc main_v180) :=
  gatherArr (Vr Vin c main_v109) (a0.1 0) (Vr Vin c main_v179)

/-- The invariant between points: the embedding array as entered, the kernel's semaphores at zero, the index table, the
    scoped buffers no window stages (the kernel's scratch among them). -/
def Phi28 (a0 : (pcfg28 (F := F)).Adm) (Vin : Dev nD → Valuation τ sig (Elt F)) (c : Dev nD) : sProp (MM F) :=
  iprop(pt c (Memref.whole main_v109) (Vr Vin c main_v109) ∗ sems28 c
    ∗ Pipeline.prefHeld (Ix := Unit) (Name := ℕ) (U := UU nD τ) (Lvl := ℕ) pre28 c (fun _ => fullShare) a0.1
    ∗ Pipeline.scopedRest (Ix := Unit) (Name := ℕ) (U := UU nD τ) (Lvl := ℕ) (Val := Elt F) spec28 c)

/-- The proof data on core `c`. -/
def dat28 (a0 : (pcfg28 (F := F)).Adm) (Vin : Dev nD → Valuation τ sig (Elt F)) (c : Dev nD) :
    Pipeline.Dat τ (Elt F) Unit ℕ (UU nD τ) ℕ ((pcfg28 (F := F)).at a0) c where
  A w := Vr Vin c (Pipeline.arrRef spec28 w)
  after w t := match w with
    | ⟨0, _⟩ => iblk28 a0 Vin c 0 t
    | ⟨1, _⟩ => (((cfg28 a0).win 1).blk t).view.read (Elt F) (gout28 a0 Vin c)
  Φ _ := Phi28 a0 Vin c
  q _ := fullShare
  owed _ := 0

theorem A_eq28 (a0 : (pcfg28 (F := F)).Adm) (Vin : Dev nD → Valuation τ sig (Elt F)) (c : Dev nD) (w : Fin (cfg28 a0).W) :
    (dat28 a0 Vin c).A w = Vr Vin c (Pipeline.arrRef spec28 w) := by dsimp only [dat28]
theorem after28_0 (a0 : (pcfg28 (F := F)).Adm) (Vin : Dev nD → Valuation τ sig (Elt F)) (c : Dev nD) (t : Fin (cfg28 a0).N) :
    (dat28 a0 Vin c).after 0 t = iblk28 a0 Vin c 0 t := by dsimp only [dat28]; rfl
theorem after28_1 (a0 : (pcfg28 (F := F)).Adm) (Vin : Dev nD → Valuation τ sig (Elt F)) (c : Dev nD) (t : Fin (cfg28 a0).N) :
    (dat28 a0 Vin c).after 1 t = (((cfg28 a0).win 1).blk t).view.read (Elt F) (gout28 a0 Vin c) := by dsimp only [dat28]; rfl
theorem Phi_eq28 (a0 : (pcfg28 (F := F)).Adm) (Vin : Dev nD → Valuation τ sig (Elt F)) (c : Dev nD) (t : Fin ((cfg28 a0).N + 1)) :
    (dat28 a0 Vin c).Φ t = Phi28 a0 Vin c := rfl
theorem owed_eq28 (a0 : (pcfg28 (F := F)).Adm) (Vin : Dev nD → Valuation τ sig (Elt F)) (c : Dev nD) (t : Fin ((cfg28 a0).N + 1)) :
    (dat28 a0 Vin c).owed t = 0 := rfl
theorem q_eq28 (a0 : (pcfg28 (F := F)).Adm) (Vin : Dev nD → Valuation τ sig (Elt F)) (c : Dev nD) (w : Fin (cfg28 a0).W) :
    (dat28 a0 Vin c).q w = fullShare := rfl

/-- The pinned family's configuration at region 28 is this one. -/
example (a : (p : Fin 34) → (pcfgs (F := F) p).Adm) : Pipeline.pin (pcfgs (F := F)) a (28 : Fin 34) = (pcfg28 (F := F)).at (a (28 : Fin 34)) := rfl

end Cert.KernelIdeal.Hand

end
-- ==== Proof.KI.GatherBody28.lean ====
/-
  Gather region 28 (custom_call 28): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat28
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk28 (c : Dev nD) (i : grid28.Coords) (tbl : Bf (F := F) c (Memref.whole main_v178)) : Prop where
  h1 : k28_chk1 (tblWord28 c i tbl 0)
  h2 : k28_chk2 (tblWord28 c i tbl 1)
  h3 : k28_chk3 (tblWord28 c i tbl 2)
  h4 : k28_chk4 (tblWord28 c i tbl 3)
  h5 : k28_chk5 (tblWord28 c i tbl 4)
  h6 : k28_chk6 (tblWord28 c i tbl 5)
  h7 : k28_chk7 (tblWord28 c i tbl 6)
  h8 : k28_chk8 (tblWord28 c i tbl 7)

/-- A one-row slice of the embedding array at the row a word names, read at lane `z 1`: the array's element there. -/
theorem rowRead28 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun28 (c : Dev nD) (i : grid28.Coords)
    (M3 : Memref sig .tc .vmem S8x1 .f32) (h3 : M3.IsWhole) (M4 : Memref sig .tc .vmem S8x128 .f32) (h4 : M4.IsWhole)
    (tbl : Bf (F := F) c (Memref.whole main_v178)) (x : Bf (F := F) c (Memref.whole main_v109))
    (vb : Vec F S8x1 .f32) (hchk : GatherChk28 c i tbl) (Q : PUnit → sProp (MM F)) :
    iprop(pt c (Memref.whole main_v178) tbl ∗ pt c (Memref.whole main_v109) x
      ∗ owns (c : Thread nD τ) M3 fullShare vb ∗ (∃ d, owns (c : Thread nD τ) M4 fullShare d)
      ∗ (∃ fs, pt c (Memref.whole cc28_scratch0) fs) ∗ sems28 c ∗ (∃ W, owes (c : Thread nD τ) (0 : CellTallies nD τ sig Unit) W)
      ∗ (iprop(pt c (Memref.whole main_v178) tbl ∗ pt c (Memref.whole main_v109) x
          ∗ owns (c : Thread nD τ) M3 fullShare vb ∗ owns (c : Thread nD τ) M4 fullShare (gatherBlk x (tblWord28 c i tbl) vb)
          ∗ (∃ fs, pt c (Memref.whole cc28_scratch0) fs) ∗ sems28 c ∗ (∃ W, owes (c : Thread nD τ) (0 : CellTallies nD τ sig Unit) W)) -∗ Q ⟨⟩))
    ⊢ wp frame (wpE (defs₀ (F := F)) 𝒱₀ c none) Set.univ
        (cc28__gather_kernel i (Memref.whole main_v178) (Memref.isWhole_whole _) (Memref.whole main_v109) (Memref.isWhole_whole _) M3 h3 M4 h4
          (Memref.whole cc28_scratch0) (Memref.isWhole_whole _) cc28_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 332).1 $$ Hx
  icases Hx' with ⟨Hxr, Hx0, Hx1, Hx2, Hx3, Hx4, Hx5, Hx6, Hx7⟩
  sl_unfold [cc28__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 332).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k28_pay1 gatherBlk
    show FloatOps.mulf _ _ = FloatOps.mulf _ _
    congr 1
    · unfold gatherRun28.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun28.sl.dma8 gatherRun28.sl.dma8_1 gatherRun28.sl.dma8_2 gatherRun28.sl.dma8_3 gatherRun28.sl.dma8_4 gatherRun28.sl.dma8_5
        gatherRun28.sl.dma8_6 gatherRun28.sl.dma8_7 gatherRun28.sl.r gatherRun28.sl.r_1 gatherRun28.sl.r_2 gatherRun28.sl.r_3 gatherRun28.sl.r_4
        gatherRun28.sl.r_5 gatherRun28.sl.r_6 gatherRun28.sl.r_7
      refine canonRows8 _ _ _ _ _ _ _ _ _ _ _ _ _ _ _ _ (fun r d => x (embIdx (rowOf (tblWord28 c i tbl r)) d)) ?_ ?_ ?_ ?_ ?_ ?_ ?_ ?_ y
      · exact fun z => rowRead28 c _ (tblWord28 c i tbl 0) rfl rfl _ _ x z
      · exact fun z => rowRead28 c _ (tblWord28 c i tbl 1) rfl rfl _ _ x z
      · exact fun z => rowRead28 c _ (tblWord28 c i tbl 2) rfl rfl _ _ x z
      · exact fun z => rowRead28 c _ (tblWord28 c i tbl 3) rfl rfl _ _ x z
      · exact fun z => rowRead28 c _ (tblWord28 c i tbl 4) rfl rfl _ _ x z
      · exact fun z => rowRead28 c _ (tblWord28 c i tbl 5) rfl rfl _ _ x z
      · exact fun z => rowRead28 c _ (tblWord28 c i tbl 6) rfl rfl _ _ x z
      · exact fun z => rowRead28 c _ (tblWord28 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk28.lean ====
/-
  Gather region 28 (custom_call 28): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat28
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word28 (i : grid28.Coords) (j : Fin 8) : k28_off1 i (BitVec.ofNat 32 j.val) 0 = (i 0).val * 8 + j.val := by
  have hi : (i 0).val < 16384 := (i 0).isLt
  have hj : j.val < 8 := j.isLt
  unfold k28_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word28 (i : grid28.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord28_eq (c : Dev nD) (i : grid28.Coords) (tbl : Bf (F := F) c (Memref.whole main_v178)) (j : Fin 8)
    (e : Fin 131072) (he : e.val = (i 0).val * 8 + j.val) : tblWord28 c i tbl j = tbl (tblIdx e) := by
  unfold tblWord28
  show tbl _ = tbl _
  refine congrArg tbl ?_
  funext a; apply Fin.ext
  match a with
  | ⟨0, _⟩ =>
    show k28_off1 i (BitVec.ofNat 32 j.val) 0 + 1 * 0 = e.val
    rw [off_word28, he]; omega

/-- Row `j` of the value window's block at point `t` is the value array's row `8 t + j`. -/
theorem valBlk28_eq (a0 : (pcfg28 (F := F)).Adm) (Vin : Dev nD → Valuation τ sig (Elt F)) (c : Dev nD) (t : Fin (cfg28 a0).N)
    (j : Fin 8) (e : Fin 131072) (he : e.val = ((grid28.coords t) 0).val * 8 + j.val) :
    iblk28 a0 Vin c 0 t (colIdx j) = Vr Vin c main_v179 (valIdx e) := by
  unfold iblk28
  show Vr Vin c main_v179 _ = Vr Vin c main_v179 _
  refine congrArg (Vr Vin c main_v179) ?_
  funext a; apply Fin.ext
  match a with
  | ⟨0, _⟩ =>
    show (BitVec.ofNat 32 ((grid28.coords t) 0).val).toNat * 8 + 1 * j.val = e.val
    rw [coord_word28, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk28 (a0 : (pcfg28 (F := F)).Adm) (Vin : Dev nD → Valuation τ sig (Elt F)) (c : Dev nD) (t : Fin (cfg28 a0).N) :
    gatherBlk (Vr Vin c main_v109) (tblWord28 c (grid28.coords t) (a0.1 0)) (iblk28 a0 Vin c 0 t)
      = (((cfg28 a0).win 1).blk t).view.read (Elt F) (gout28 a0 Vin c) := by
  funext y
  show gatherBlk _ _ _ y = gout28 a0 Vin c ((((cfg28 a0).win 1).blk t).view.emb y)
  unfold gatherBlk gout28 gatherArr
  have e0 : ((((cfg28 a0).win 1).blk t).view.emb y (0 : Fin 2)).val = ((grid28.coords t) 0).val * 8 + (y 0).val := by
    show (BitVec.ofNat 32 ((grid28.coords t) 0).val).toNat * 8 + 1 * (y 0).val = _
    rw [coord_word28]; omega
  have e1 : (((cfg28 a0).win 1).blk t).view.emb y (1 : Fin 2) = y 1 := Fin.ext (by
    show (0#32 : BitVec 32).toNat * 128 + 1 * (y 1).val = (y 1).val
    show 0 * 128 + 1 * (y 1).val = (y 1).val
    omega)
  rw [tblWord28_eq c (grid28.coords t) (a0.1 0) (y 0) _ e0, valBlk28_eq a0 Vin c t (y 0) _ e0, e1]

end Cert.KernelIdeal.Hand

end
-- ==== Proof.KI.GatherRegion28.lean ====
/-
  Gather region 28 (custom_call 28): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody28
import proofs.«414509_j14181982011419_2_alg».proof.Proof.KI.GatherBlk28
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk28 (a0 : (pcfg28 (F := F)).Adm) : Prop := ∀ e : S131072.Idx, (a0.1 0 e).toNat < 100000

/-! ## The grid and the result window's blocks -/

/-- On the one-axis grid a point's coordinate is its number. -/
theorem regCoords28 (t : Fin grid28.N) : (grid28.coords t 0).val = t.val := by
  have ht : t.val < 16384 := N_28 ▸ t.isLt
  show t.val / grid28.stride 0 % grid28.bound 0 = t.val
  rw [show grid28.stride 0 = 1 from by decide, show grid28.bound 0 = 16384 from rfl, Nat.div_one, Nat.mod_eq_of_lt ht]

/-- A point's number as the 32-bit word the index maps compute with. -/
theorem regWord28 (t : Fin grid28.N) : (BitVec.ofNat 32 (grid28.coords t 0).val).toNat = t.val := by
  have ht : t.val < 16384 := N_28 ▸ t.isLt
  rw [BitVec.toNat_ofNat, regCoords28]; omega

/-- The result window's block at point `t` is block `t` along the rows, at zero along the lanes. -/
theorem regOutIndex28 (a0 : (pcfg28 (F := F)).Adm) (t : Fin (cfg28 a0).N) : ((cfg28 a0).win 1).index t = ![t.val, 0] := by
  show cc28_transform_2 (grid28.coords t) = _
  unfold cc28_transform_2
  funext a; fin_cases a
  · exact regWord28 t
  · rfl

/-- The result window is written back at every point: consecutive points have different blocks. -/
theorem regOutFlush28 (a0 : (pcfg28 (F := F)).Adm) (t : Fin (cfg28 a0).N) : ((cfg28 a0).win 1).flush t = true := by
  have htN : t.val < 16384 := N_28 ▸ t.isLt
  rw [Pipeline.Window.flush_out _ rfl]
  by_cases h : t.val + 1 = 16384
  · exact Or.inl (show t.val + 1 = grid28.N by rw [N_28]; exact h)
  · have hlt : t.val + 1 < grid28.N := by rw [N_28]; omega
    refine Or.inr ⟨hlt, fun e => ?_⟩
    have e' : (![t.val + 1, 0] : Fin 2 → ℕ) = ![t.val, 0] := (regOutIndex28 a0 ⟨t.val + 1, hlt⟩).symm.trans (e.trans (regOutIndex28 a0 t))
    have e0 := congrFun e' 0
    simp at e0

/-- The index table, held as the pipeline's one prefetched table. -/
theorem prefHeldEq28 (a0 : (pcfg28 (F := F)).Adm) (c : Dev nD) :
    (Pipeline.prefHeld (Ix := Unit) (Name := ℕ) (U := UU nD τ) (Lvl := ℕ) pre28 c (fun _ => fullShare) a0.1 : sProp (MM F))
      = pt c (Memref.whole main_v178) (a0.1 0) := by
  unfold Pipeline.prefHeld
  rw [show (Finset.univ : Finset (Fin pre28.K)) = {0} from rfl, BI.bigSep_singleton]
  rfl

/-- The value window's staging buffer holds its block at every point. -/
theorem beforeVal28 (a0 : (pcfg28 (F := F)).Adm) (Vin : Dev nD → Valuation τ sig (Elt F)) (c : Dev nD) (t : Fin (cfg28 a0).N) (d) :
    (dat28 a0 Vin c).before 0 t d = iblk28 a0 Vin c 0 t :=
  ((dat28 a0 Vin c).before_in_eq_fetched 0 rfl (fun _ => rfl) (fun _ _ _ => rfl)
    (fun t => by rw [after28_0]; unfold Dat.blockOf iblk28; rw [A_eq28]; try rfl) t d).trans
    (by unfold Dat.fetched Dat.blockOf iblk28; rw [A_eq28]; try rfl)

/-! ## The kernel's checks, from the table's range -/

/-- Each of the point's eight words is a word of the table, so a row number. -/
theorem tblWordLt28 (a0 : (pcfg28 (F := F)).Adm) (hok : GatherOk28 a0) (c : Dev nD) (i : grid28.Coords) (j : Fin 8) :
    (tblWord28 c i (a0.1 0) j).toNat < 100000 := by
  unfold tblWord28
  exact hok _

/-- So the kernel's eight checks hold at every point. -/
theorem gatherChk28 (a0 : (pcfg28 (F := F)).Adm) (hok : GatherOk28 a0) (c : Dev nD) (i : grid28.Coords) : GatherChk28 c i (a0.1 0) :=
  ⟨⟨chkRow _ (tblWordLt28 a0 hok c i 0), chkRow _ (tblWordLt28 a0 hok c i 0)⟩,
   ⟨chkRow _ (tblWordLt28 a0 hok c i 1), chkRow _ (tblWordLt28 a0 hok c i 1)⟩,
   ⟨chkRow _ (tblWordLt28 a0 hok c i 2), chkRow _ (tblWordLt28 a0 hok c i 2)⟩,
   ⟨chkRow _ (tblWordLt28 a0 hok c i 3), chkRow _ (tblWordLt28 a0 hok c i 3)⟩,
   ⟨chkRow _ (tblWordLt28 a0 hok c i 4), chkRow _ (tblWordLt28 a0 hok c i 4)⟩,
   ⟨chkRow _ (tblWordLt28 a0 hok c i 5), chkRow _ (tblWordLt28 a0 hok c i 5)⟩,
   ⟨chkRow _ (tblWordLt28 a0 hok c i 6), chkRow _ (tblWordLt28 a0 hok c i 6)⟩,
   chkRow _ (tblWordLt28 a0 hok c i 7)⟩

/-! ## The body obligation, at a generic point -/

/-- What the body is called with at point `t`: the invariant, the core's dues, each window's current staging memref at
    what the pipeline left there, -/
def bodyPre28 (a0 : (pcfg28 (F := F)).Adm) (Vin : Dev nD → Valuation τ sig (Elt F)) (c : Dev nD) (t : Fin (cfg28 a0).N) : sProp (MM F) :=
  iprop((dat28 a0 Vin c).Φ t.castSucc ∗ (dat28 a0 Vin c).owesAt () t.castSucc
    ∗ (∃ d, owns (c : Thread nD τ) (((cfg28 a0).win 0).stage ((cfg28 a0).slots t 0)) fullShare ((dat28 a0 Vin c).before 0 t d))
    ∗ (∃ d, owns (c : Thread nD τ) (((cfg28 a0).win 1).stage ((cfg28 a0).slots t 1)) fullShare ((dat28 a0 Vin c).before 1 t d)))

/-- and what it returns. -/
def bodyPost28 (a0 : (pcfg28 (F := F)).Adm) (Vin : Dev nD → Valuation τ sig (Elt F)) (c : Dev nD) (t : Fin (cfg28 a0).N) : sProp (MM F) :=
  iprop((dat28 a0 Vin c).Φ t.succ ∗ (dat28 a0 Vin c).owesAt () t.succ
    ∗ owns (c : Thread nD τ) (((cfg28 a0).win 0).stage ((cfg28 a0).slots t 0)) fullShare ((dat28 a0 Vin c).after 0 t)
    ∗ owns (c : Thread nD τ) (((cfg28 a0).win 1).stage ((cfg28 a0).slots t 1)) fullShare ((dat28 a0 Vin c).after 1 t))

/-- The body at any point: the invariant opened into the embedding array, the semaphores, the table and the scratch;
    the value window's memref at its block; the checks from the table's range; so the kernel's run applies, and what it
    leaves in the result window's memref is the point's block of the gathered array. -/
theorem sound_body28 (a0 : (pcfg28 (F := F)).Adm) (hok : GatherOk28 a0) (Vin : Dev nD → Valuation τ sig (Elt F)) (c : Dev nD) (t : Fin (cfg28 a0).N) :
    bodyPre28 a0 Vin c t ⊢ wp frame (wpE (defs₀ (F := F)) 𝒱₀ c none) Set.univ
      (defs₀ .tc (cfg28 a0).body ((cfg28 a0).bodyArgs t ((cfg28 a0).slots t))) (fun _ => bodyPost28 a0 Vin c t) := by
  unfold bodyPre28 bodyPost28
  simp only [beforeVal28]
  rw [Phi_eq28, Phi_eq28, after28_0, after28_1, ← gatherBlk_blk28]
  unfold Phi28 Pipeline.Dat.owesAt Pipeline.owesWithin
  rw [owed_eq28, owed_eq28, prefHeldEq28, scopedRest28_split]
  iintro ⟨⟨Hx, Hos, Ht, ⟨%fs, Hs⟩, Hsb⟩, ⟨%W, %hW, HO⟩, ⟨%d0, H0⟩, ⟨%d1, H1⟩⟩
  iapply (gatherRun28 c (grid28.coords t) _ _ _ _ (a0.1 0) (Vr Vin c main_v109) (iblk28 a0 Vin c 0 t) (gatherChk28 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation28 (a0 : (pcfg28 (F := F)).Adm) (hok : GatherOk28 a0) (Vin : Dev nD → Valuation τ sig (Elt F)) (c : Dev nD) :
    BodyObligation (dat28 a0 Vin c) (defs₀ (F := F)) 𝒱₀ () Set.univ := fun t => by
  rw [bigSep_W28, bigSep_W28]
  exact sound_body28 a0 hok Vin c t

/-! ## From the blocks to the arrays -/

/-- The value array after the region: as entered. -/
theorem arrAt28_in (a0 : (pcfg28 (F := F)).Adm) (Vin : Dev nD → Valuation τ sig (Elt F)) (c : Dev nD) :
    (dat28 a0 Vin c).arrAt 0 (cfg28 a0).N = Vr Vin c main_v179 :=
  ((dat28 a0 Vin c).arrAt_in 0 rfl _).trans (A_eq28 a0 Vin c 0)

/-- Every index of the result array is in some point's block: row `e`, lane `d` is element `(e % 8, d)` of the block
    of point `e / 8`. -/
theorem regOutCover28 (a0 : (pcfg28 (F := F)).Adm) (i : S131072x128.Idx) :
    ∃ t : Fin (cfg28 a0).N, ((cfg28 a0).win 1).flush t = true ∧ i ∈ (((cfg28 a0).win 1).blk t).view.set := by
  have hi0 : (i 0).val < 131072 := (i 0).isLt
  have hi1 : (i 1).val < 128 := (i 1).isLt
  have hN : (i 0).val / 8 < grid28.N := by rw [N_28]; omega
  obtain ⟨t, ht⟩ : ∃ t : Fin (cfg28 a0).N, t.val = (i 0).val / 8 := ⟨⟨_, hN⟩, rfl⟩
  have hx : (((cfg28 a0).win 1).blk t).view.emb (ValueIdx.ix2 ⟨(i 0).val % 8, Nat.mod_lt _ (by decide)⟩ (i 1)) = i := by
    funext a; apply Fin.ext
    have e0 : ((cfg28 a0).win 1).index t (0 : Fin 2) = t.val := congrFun (regOutIndex28 a0 t) (0 : Fin 2)
    have e1 : ((cfg28 a0).win 1).index t (1 : Fin 2) = 0 := congrFun (regOutIndex28 a0 t) (1 : Fin 2)
    match a with
    | ⟨0, _⟩ => show ((cfg28 a0).win 1).index t (0 : Fin 2) * 8 + 1 * ((i 0).val % 8) = (i 0).val; omega
    | ⟨1, _⟩ => show ((cfg28 a0).win 1).index t (1 : Fin 2) * 128 + 1 * (i 1).val = (i 1).val; omega
  exact ⟨t, regOutFlush28 a0 t, hx ▸ (((cfg28 a0).win 1).blk t).view.emb_mem_set _⟩

/-- The result array after the region: the gathered and scaled rows, whole. -/
theorem arrAt28_out (a0 : (pcfg28 (F := F)).Adm) (Vin : Dev nD → Valuation τ sig (Elt F)) (c : Dev nD) :
    (dat28 a0 Vin c).arrAt 1 (cfg28 a0).N = gout28 a0 Vin c :=
  (dat28 a0 Vin c).arrAt_eq_of_cover 1 (gout28 a0 Vin c)
    (fun t _ => by
      show ((cfg28 a0).win 1).cut ((cfg28 a0).grid.coords t) ((dat28 a0 Vin c).after 1 t) = _
      rw [after28_1])
    (regOutCover28 a0)

/-! ## The region as a segment of @main -/

/-- The ownership layout of the kernel's eight semaphores. -/
theorem ownSemFacts28 : Pipeline.OwnSemFacts spec28 osem28 := by decide

/-- The kernel's own cells at zero, listed. -/
theorem ownSemsListed28 (c : Dev nD) :
    (Pipeline.ownSems0 (Ix := Unit) (Name := ℕ) (U := UU nD τ) (Lvl := ℕ) (Val := Elt F) (τ := τ) osem28 c : sProp (MM F)) = sems28 c :=
  Pipeline.ownSems0_eq_of_list c osem28 [0, 1, 2, 3, 4, 5, 6, 7] (by decide) (by decide)

/-- The unscoped buffers that are no window's array, no table, and not the embedding array. -/
abbrev restRefs28 : Finset (Ref sig .tc) :=
  (((Finset.univ.filter fun b : Ref sig .tc => ¬ b.isScoped) \ Finset.univ.image (Pipeline.arrRef spec28)) \ Finset.univ.image pre28.ref) \ {main_v109}

/-- Those buffers, each whole at its contents under `Vin`: what bypasses the region. -/
def Zrest28 (Vin : Dev nD → Valuation τ sig (Elt F)) (c : Dev nD) : sProp (MM F) :=
  bigSep restRefs28 fun b => ((c : Thread nD τ).loc b) ↦{fullShare} Vr Vin c b

/-- The embedding array is an unscoped buffer that is no window's array and no table. -/
theorem embArrMem28 : ({main_v109} : Finset (Ref sig .tc)) ⊆
    ((Finset.univ.filter fun b : Ref sig .tc => ¬ b.isScoped) \ Finset.univ.image (Pipeline.arrRef spec28)) \ Finset.univ.image pre28.ref := by
  decide

/-- The unscoped buffers that are no window's array: the index table, the embedding array, and the rest. -/
theorem unscopedRestOpen28 (Vin : Dev nD → Valuation τ sig (Elt F)) (c : Dev nD) :
    (Pipeline.unscopedRest (Ix := Unit) (Name := ℕ) (U := UU nD τ) (Lvl := ℕ) spec28 c (Vr Vin c) : sProp (MM F))
      = iprop(Pipeline.prefHeld pre28 c (fun _ => fullShare) (fun k => Vr Vin c (pre28.ref k))
          ∗ pt c (Memref.whole main_v109) (Vr Vin c main_v109) ∗ Zrest28 Vin c) := by
  rw [Pipeline.unscopedRest_split preFacts28 c (Vr Vin c)]
  unfold Pipeline.unscopedRestP Zrest28
  rw [BI.bigSep_sdiff_split embArrMem28, BI.bigSep_singleton]
  rfl

/-- The buffer contents when the region is left: the result array at the gathered rows, every other buffer as entered. -/
abbrev Vout28 (a0 : (pcfg28 (F := F)).Adm) (Vin : Dev nD → Valuation τ sig (Elt F)) (c : Dev nD) : Valuation τ sig (Elt F) :=
  Function.update (Vin c) main_v180 (gout28 a0 Vin c)

/-- At the exit each of the region's arrays holds what the pipeline leaves; -/
theorem hF28 (a0 : (pcfg28 (F := F)).Adm) (Vin : Dev nD → Valuation τ sig (Elt F)) (c : Dev nD) (w : Fin (cfg28 a0).W) :
    (dat28 a0 Vin c).arrAt w (cfg28 a0).N = Vr (Vout28 a0 Vin) c (Pipeline.arrRef spec28 w) := by
  match w with
  | ⟨0, _⟩ =>
    show (dat28 a0 Vin c).arrAt 0 (cfg28 a0).N = Vr (Vout28 a0 Vin) c (Pipeline.arrRef spec28 0)
    rw [arrAt28_in]
    exact (Function.update_of_ne (StableHlo.devRef_ne_of_ne (by decide) : (Proc.devRef .tc main_v179 : DevRef τ sig) ≠ Proc.devRef .tc main_v180) _ _).symm
  | ⟨1, _⟩ =>
    show (dat28 a0 Vin c).arrAt 1 (cfg28 a0).N = Vr (Vout28 a0 Vin) c (Pipeline.arrRef spec28 1)
    rw [arrAt28_out]
    exact (Function.update_self (Proc.devRef .tc main_v180 : DevRef τ sig) _ (Vin c)).symm

/-- and every other buffer what it held at entry. -/
theorem hrest28 (a0 : (pcfg28 (F := F)).Adm) (Vin : Dev nD → Valuation τ sig (Elt F)) (c : Dev nD) :
    ∀ b : Ref sig .tc, b ∉ Finset.univ.image (Pipeline.arrRef spec28) → Vr (Vout28 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat28` at the entry valuation `Vin`
    (`hd`), the index table's contents under `Vin` being the pinned ones (`htbl`) and row numbers (`hok`). -/
def reg28 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk28 (F := F) (a (28 : Fin 34)))
    (hd : ∀ c, pdats (28 : Fin 34) c = dat28 (a (28 : Fin 34)) Vin c) (htbl : ∀ c, (a (28 : Fin 34)).1 = fun k => Vr Vin c (pre28.ref k)) :
    Pipeline.RegionSeg (pcfgs (F := F)) a pdats () defs₀ 𝒱₀ L lv (28 : Fin 34) where
  win := (launch28 (F := F)).win.to₀
  block_pos := (launch28 (F := F)).block_pos
  stage_whole := (launch28 (F := F)).stage_whole
  K := Fin 8
  osem := osem28
  ho := ownSemFacts28
  hbody c := by rw [hd c]; exact (body_obligation28 (a (28 : Fin 34)) hok Vin c).loose
  hwaits := Pipeline.hwaits_of_owed_zero _ _ _ _ L lv (28 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v180 (gout28 (a (28 : Fin 34)) Vin c)) ∗ Rest c)
  X c := iprop(pt c (Memref.whole main_v109) (Vr Vin c main_v109) ∗ sems28 c)
  Y c := iprop(pt c (Memref.whole main_v109) (Vr Vin c main_v109)
    ∗ Pipeline.prefHeld (Ix := Unit) (Name := ℕ) (U := UU nD τ) (Lvl := ℕ) pre28 c (fun _ => fullShare) (a (28 : Fin 34)).1)
  Z c := Zrest28 Vin c
  hentry c := by
    rw [ownSemsListed28]
    have hsplit := Pipeline.arrays_of_unscopedBufs (p := (28 : Fin 34)) (pcfgs (F := F)) a pdats (launch28 (F := F)).win (launch28 (F := F)).arr_whole c
      ((pdats (28 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen28 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (28 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq28]; unfold Phi28
    iintro ⟨⟨Hx, Hos⟩, Ht, Hr⟩
    isplitl [Hx]; · iexact Hx
    isplitl [Hos]; · iexact Hos
    isplitl [Ht]; · iexact Ht
    iexact Hr
  hout c := by
    rw [ownSemsListed28, hd c, Phi_eq28]; unfold Phi28
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (28 : Fin 34)) (pcfgs (F := F)) a (Ix := Unit) (Name := ℕ) (U := UU nD τ) (Lvl := ℕ)
      (launch28 (F := F)).win (launch28 (F := F)).arr_whole c pdats ((pdats (28 : Fin 34) c).share_full fun _ => by rw [hd c]; rfl)
      (Vr Vin c) (Vr (Vout28 (a (28 : Fin 34)) Vin) c) ((pdats (28 : Fin 34) c).arrAt · (cfg28 (a (28 : Fin 34))).N)
      (fun w => by rw [hd c]; exact hF28 (a (28 : Fin 34)) Vin c w) (hrest28 (a (28 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen28 Vin c).symm)
      isplitl [Ht]; · rw [← htbl c]; iexact Ht
      isplitl [Hx]; · iexact Hx
      iexact Hz
    unfold Pipeline.Dat.owesAt Pipeline.owesWithin
    rw [show (pdats (28 : Fin 34) c).owed (Fin.last _) = 0 from by rw [hd c]; rfl]
    icases HO with ⟨%W, -, HO⟩; iexists W; iexact HO

end Cert.KernelIdeal.Hand

end
-- ==== Proof.KI.GatherDat29.lean ====
/-
  Gather region 29 (custom_call 29): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem29 : Fin 8 → SemLoc sig := fun | 0 => .dma 344 | 1 => .dma 345 | 2 => .dma 346 | 3 => .dma 347 | 4 => .dma 348 | 5 => .dma 349 | 6 => .dma 350 | 7 => .dma 351

/-- The eight counters at zero, as the run finds them and hands them back. -/
abbrev sems29 (c : Dev nD) : sProp (MM F) :=
  iprop(semVal ((c : Thread nD τ), osem29 0) 0 ∗ semVal ((c : Thread nD τ), osem29 1) 0 ∗ semVal ((c : Thread nD τ), osem29 2) 0
    ∗ semVal ((c : Thread nD τ), osem29 3) 0 ∗ semVal ((c : Thread nD τ), osem29 4) 0 ∗ semVal ((c : Thread nD τ), osem29 5) 0
    ∗ semVal ((c : Thread nD τ), osem29 6) 0 ∗ semVal ((c : Thread nD τ), osem29 7) 0)

/-- Word `j` of the eight the index table holds for point `i`, as the kernel's scalar load reads it. -/
def tblWord29 (c : Dev nD) (i : grid29.Coords) (tbl : Bf (F := F) c (Memref.whole main_v195)) (j : Fin 8) : BitVec 32 :=
  (Memref.whole main_v195).view.readAt (Elt F) (Rect.unit (s := S131072) (k29_off1 i (BitVec.ofNat 32 j.val)) S1.size (k29_off1_inb i j)).toLoadRect tbl
    (Shape.Idx.first (s := S1) (numel1_S1.symm ▸ Nat.one_pos))

/-- Window `w`'s block at point `t`, read off its array at the region's entry. -/
def iblk29 (a0 : (pcfg29 (F := F)).Adm) (Vin : Dev nD → Valuation τ sig (Elt F)) (c : Dev nD) (w : Fin (cfg29 a0).W) (t : Fin (cfg29 a0).N) :
    (((cfg29 a0).win w).xblock ((cfg29 a0).grid.coords t)).Idx → Elt F ((cfg29 a0).win w).elt :=
  (((cfg29 a0).win w).blk t).view.read (Elt F) (Vr Vin c (Pipeline.arrRef spec29 w))

/-- The result array the region leaves: the gathered and scaled rows of the embedding array, whole. -/
def gout29 (a0 : (pcfg29 (F := F)).Adm) (Vin : Dev nD → Valuation τ sig (Elt F)) (c : Dev nD) : Buf (Elt F) ((c : Thread nD τ).loc main_v197) :=
  gatherArr (Vr Vin c main_v109) (a0.1 0) (Vr Vin c main_v196)

/-- The invariant between points: the embedding array as entered, the kernel's semaphores at zero, the index table, the
    scoped buffers no window stages (the kernel's scratch among them). -/
def Phi29 (a0 : (pcfg29 (F := F)).Adm) (Vin : Dev nD → Valuation τ sig (Elt F)) (c : Dev nD) : sProp (MM F) :=
  iprop(pt c (Memref.whole main_v109) (Vr Vin c main_v109) ∗ sems29 c
    ∗ Pipeline.prefHeld (Ix := Unit) (Name := ℕ) (U := UU nD τ) (Lvl := ℕ) pre29 c (fun _ => fullShare) a0.1
    ∗ Pipeline.scopedRest (Ix := Unit) (Name := ℕ) (U := UU nD τ) (Lvl := ℕ) (Val := Elt F) spec29 c)

/-- The proof data on core `c`. -/
def dat29 (a0 : (pcfg29 (F := F)).Adm) (Vin : Dev nD → Valuation τ sig (Elt F)) (c : Dev nD) :
    Pipeline.Dat τ (Elt F) Unit ℕ (UU nD τ) ℕ ((pcfg29 (F := F)).at a0) c where
  A w := Vr Vin c (Pipeline.arrRef spec29 w)
  after w t := match w with
    | ⟨0, _⟩ => iblk29 a0 Vin c 0 t
    | ⟨1, _⟩ => (((cfg29 a0).win 1).blk t).view.read (Elt F) (gout29 a0 Vin c)
  Φ _ := Phi29 a0 Vin c
  q _ := fullShare
  owed _ := 0

theorem A_eq29 (a0 : (pcfg29 (F := F)).Adm) (Vin : Dev nD → Valuation τ sig (Elt F)) (c : Dev nD) (w : Fin (cfg29 a0).W) :
    (dat29 a0 Vin c).A w = Vr Vin c (Pipeline.arrRef spec29 w) := by dsimp only [dat29]
theorem after29_0 (a0 : (pcfg29 (F := F)).Adm) (Vin : Dev nD → Valuation τ sig (Elt F)) (c : Dev nD) (t : Fin (cfg29 a0).N) :
    (dat29 a0 Vin c).after 0 t = iblk29 a0 Vin c 0 t := by dsimp only [dat29]; rfl
theorem after29_1 (a0 : (pcfg29 (F := F)).Adm) (Vin : Dev nD → Valuation τ sig (Elt F)) (c : Dev nD) (t : Fin (cfg29 a0).N) :
    (dat29 a0 Vin c).after 1 t = (((cfg29 a0).win 1).blk t).view.read (Elt F) (gout29 a0 Vin c) := by dsimp only [dat29]; rfl
theorem Phi_eq29 (a0 : (pcfg29 (F := F)).Adm) (Vin : Dev nD → Valuation τ sig (Elt F)) (c : Dev nD) (t : Fin ((cfg29 a0).N + 1)) :
    (dat29 a0 Vin c).Φ t = Phi29 a0 Vin c := rfl
theorem owed_eq29 (a0 : (pcfg29 (F := F)).Adm) (Vin : Dev nD → Valuation τ sig (Elt F)) (c : Dev nD) (t : Fin ((cfg29 a0).N + 1)) :
    (dat29 a0 Vin c).owed t = 0 := rfl
theorem q_eq29 (a0 : (pcfg29 (F := F)).Adm) (Vin : Dev nD → Valuation τ sig (Elt F)) (c : Dev nD) (w : Fin (cfg29 a0).W) :
    (dat29 a0 Vin c).q w = fullShare := rfl

/-- The pinned family's configuration at region 29 is this one. -/
example (a : (p : Fin 34) → (pcfgs (F := F) p).Adm) : Pipeline.pin (pcfgs (F := F)) a (29 : Fin 34) = (pcfg29 (F := F)).at (a (29 : Fin 34)) := rfl

end Cert.KernelIdeal.Hand

end
-- ==== Proof.KI.GatherBody29.lean ====
/-
  Gather region 29 (custom_call 29): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat29
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk29 (c : Dev nD) (i : grid29.Coords) (tbl : Bf (F := F) c (Memref.whole main_v195)) : Prop where
  h1 : k29_chk1 (tblWord29 c i tbl 0)
  h2 : k29_chk2 (tblWord29 c i tbl 1)
  h3 : k29_chk3 (tblWord29 c i tbl 2)
  h4 : k29_chk4 (tblWord29 c i tbl 3)
  h5 : k29_chk5 (tblWord29 c i tbl 4)
  h6 : k29_chk6 (tblWord29 c i tbl 5)
  h7 : k29_chk7 (tblWord29 c i tbl 6)
  h8 : k29_chk8 (tblWord29 c i tbl 7)

/-- A one-row slice of the embedding array at the row a word names, read at lane `z 1`: the array's element there. -/
theorem rowRead29 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun29 (c : Dev nD) (i : grid29.Coords)
    (M3 : Memref sig .tc .vmem S8x1 .f32) (h3 : M3.IsWhole) (M4 : Memref sig .tc .vmem S8x128 .f32) (h4 : M4.IsWhole)
    (tbl : Bf (F := F) c (Memref.whole main_v195)) (x : Bf (F := F) c (Memref.whole main_v109))
    (vb : Vec F S8x1 .f32) (hchk : GatherChk29 c i tbl) (Q : PUnit → sProp (MM F)) :
    iprop(pt c (Memref.whole main_v195) tbl ∗ pt c (Memref.whole main_v109) x
      ∗ owns (c : Thread nD τ) M3 fullShare vb ∗ (∃ d, owns (c : Thread nD τ) M4 fullShare d)
      ∗ (∃ fs, pt c (Memref.whole cc29_scratch0) fs) ∗ sems29 c ∗ (∃ W, owes (c : Thread nD τ) (0 : CellTallies nD τ sig Unit) W)
      ∗ (iprop(pt c (Memref.whole main_v195) tbl ∗ pt c (Memref.whole main_v109) x
          ∗ owns (c : Thread nD τ) M3 fullShare vb ∗ owns (c : Thread nD τ) M4 fullShare (gatherBlk x (tblWord29 c i tbl) vb)
          ∗ (∃ fs, pt c (Memref.whole cc29_scratch0) fs) ∗ sems29 c ∗ (∃ W, owes (c : Thread nD τ) (0 : CellTallies nD τ sig Unit) W)) -∗ Q ⟨⟩))
    ⊢ wp frame (wpE (defs₀ (F := F)) 𝒱₀ c none) Set.univ
        (cc29__gather_kernel i (Memref.whole main_v195) (Memref.isWhole_whole _) (Memref.whole main_v109) (Memref.isWhole_whole _) M3 h3 M4 h4
          (Memref.whole cc29_scratch0) (Memref.isWhole_whole _) cc29_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 344).1 $$ Hx
  icases Hx' with ⟨Hxr, Hx0, Hx1, Hx2, Hx3, Hx4, Hx5, Hx6, Hx7⟩
  sl_unfold [cc29__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 344).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k29_pay1 gatherBlk
    show FloatOps.mulf _ _ = FloatOps.mulf _ _
    congr 1
    · unfold gatherRun29.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun29.sl.dma8 gatherRun29.sl.dma8_1 gatherRun29.sl.dma8_2 gatherRun29.sl.dma8_3 gatherRun29.sl.dma8_4 gatherRun29.sl.dma8_5
        gatherRun29.sl.dma8_6 gatherRun29.sl.dma8_7 gatherRun29.sl.r gatherRun29.sl.r_1 gatherRun29.sl.r_2 gatherRun29.sl.r_3 gatherRun29.sl.r_4
        gatherRun29.sl.r_5 gatherRun29.sl.r_6 gatherRun29.sl.r_7
      refine canonRows8 _ _ _ _ _ _ _ _ _ _ _ _ _ _ _ _ (fun r d => x (embIdx (rowOf (tblWord29 c i tbl r)) d)) ?_ ?_ ?_ ?_ ?_ ?_ ?_ ?_ y
      · exact fun z => rowRead29 c _ (tblWord29 c i tbl 0) rfl rfl _ _ x z
      · exact fun z => rowRead29 c _ (tblWord29 c i tbl 1) rfl rfl _ _ x z
      · exact fun z => rowRead29 c _ (tblWord29 c i tbl 2) rfl rfl _ _ x z
      · exact fun z => rowRead29 c _ (tblWord29 c i tbl 3) rfl rfl _ _ x z
      · exact fun z => rowRead29 c _ (tblWord29 c i tbl 4) rfl rfl _ _ x z
      · exact fun z => rowRead29 c _ (tblWord29 c i tbl 5) rfl rfl _ _ x z
      · exact fun z => rowRead29 c _ (tblWord29 c i tbl 6) rfl rfl _ _ x z
      · exact fun z => rowRead29 c _ (tblWord29 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk29.lean ====
/-
  Gather region 29 (custom_call 29): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat29
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word29 (i : grid29.Coords) (j : Fin 8) : k29_off1 i (BitVec.ofNat 32 j.val) 0 = (i 0).val * 8 + j.val := by
  have hi : (i 0).val < 16384 := (i 0).isLt
  have hj : j.val < 8 := j.isLt
  unfold k29_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word29 (i : grid29.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord29_eq (c : Dev nD) (i : grid29.Coords) (tbl : Bf (F := F) c (Memref.whole main_v195)) (j : Fin 8)
    (e : Fin 131072) (he : e.val = (i 0).val * 8 + j.val) : tblWord29 c i tbl j = tbl (tblIdx e) := by
  unfold tblWord29
  show tbl _ = tbl _
  refine congrArg tbl ?_
  funext a; apply Fin.ext
  match a with
  | ⟨0, _⟩ =>
    show k29_off1 i (BitVec.ofNat 32 j.val) 0 + 1 * 0 = e.val
    rw [off_word29, he]; omega

/-- Row `j` of the value window's block at point `t` is the value array's row `8 t + j`. -/
theorem valBlk29_eq (a0 : (pcfg29 (F := F)).Adm) (Vin : Dev nD → Valuation τ sig (Elt F)) (c : Dev nD) (t : Fin (cfg29 a0).N)
    (j : Fin 8) (e : Fin 131072) (he : e.val = ((grid29.coords t) 0).val * 8 + j.val) :
    iblk29 a0 Vin c 0 t (colIdx j) = Vr Vin c main_v196 (valIdx e) := by
  unfold iblk29
  show Vr Vin c main_v196 _ = Vr Vin c main_v196 _
  refine congrArg (Vr Vin c main_v196) ?_
  funext a; apply Fin.ext
  match a with
  | ⟨0, _⟩ =>
    show (BitVec.ofNat 32 ((grid29.coords t) 0).val).toNat * 8 + 1 * j.val = e.val
    rw [coord_word29, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk29 (a0 : (pcfg29 (F := F)).Adm) (Vin : Dev nD → Valuation τ sig (Elt F)) (c : Dev nD) (t : Fin (cfg29 a0).N) :
    gatherBlk (Vr Vin c main_v109) (tblWord29 c (grid29.coords t) (a0.1 0)) (iblk29 a0 Vin c 0 t)
      = (((cfg29 a0).win 1).blk t).view.read (Elt F) (gout29 a0 Vin c) := by
  funext y
  show gatherBlk _ _ _ y = gout29 a0 Vin c ((((cfg29 a0).win 1).blk t).view.emb y)
  unfold gatherBlk gout29 gatherArr
  have e0 : ((((cfg29 a0).win 1).blk t).view.emb y (0 : Fin 2)).val = ((grid29.coords t) 0).val * 8 + (y 0).val := by
    show (BitVec.ofNat 32 ((grid29.coords t) 0).val).toNat * 8 + 1 * (y 0).val = _
    rw [coord_word29]; omega
  have e1 : (((cfg29 a0).win 1).blk t).view.emb y (1 : Fin 2) = y 1 := Fin.ext (by
    show (0#32 : BitVec 32).toNat * 128 + 1 * (y 1).val = (y 1).val
    show 0 * 128 + 1 * (y 1).val = (y 1).val
    omega)
  rw [tblWord29_eq c (grid29.coords t) (a0.1 0) (y 0) _ e0, valBlk29_eq a0 Vin c t (y 0) _ e0, e1]

end Cert.KernelIdeal.Hand

end
-- ==== Proof.KI.GatherRegion29.lean ====
/-
  Gather region 29 (custom_call 29): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody29
import proofs.«414509_j14181982011419_2_alg».proof.Proof.KI.GatherBlk29
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk29 (a0 : (pcfg29 (F := F)).Adm) : Prop := ∀ e : S131072.Idx, (a0.1 0 e).toNat < 100000

/-! ## The grid and the result window's blocks -/

/-- On the one-axis grid a point's coordinate is its number. -/
theorem regCoords29 (t : Fin grid29.N) : (grid29.coords t 0).val = t.val := by
  have ht : t.val < 16384 := N_29 ▸ t.isLt
  show t.val / grid29.stride 0 % grid29.bound 0 = t.val
  rw [show grid29.stride 0 = 1 from by decide, show grid29.bound 0 = 16384 from rfl, Nat.div_one, Nat.mod_eq_of_lt ht]

/-- A point's number as the 32-bit word the index maps compute with. -/
theorem regWord29 (t : Fin grid29.N) : (BitVec.ofNat 32 (grid29.coords t 0).val).toNat = t.val := by
  have ht : t.val < 16384 := N_29 ▸ t.isLt
  rw [BitVec.toNat_ofNat, regCoords29]; omega

/-- The result window's block at point `t` is block `t` along the rows, at zero along the lanes. -/
theorem regOutIndex29 (a0 : (pcfg29 (F := F)).Adm) (t : Fin (cfg29 a0).N) : ((cfg29 a0).win 1).index t = ![t.val, 0] := by
  show cc29_transform_2 (grid29.coords t) = _
  unfold cc29_transform_2
  funext a; fin_cases a
  · exact regWord29 t
  · rfl

/-- The result window is written back at every point: consecutive points have different blocks. -/
theorem regOutFlush29 (a0 : (pcfg29 (F := F)).Adm) (t : Fin (cfg29 a0).N) : ((cfg29 a0).win 1).flush t = true := by
  have htN : t.val < 16384 := N_29 ▸ t.isLt
  rw [Pipeline.Window.flush_out _ rfl]
  by_cases h : t.val + 1 = 16384
  · exact Or.inl (show t.val + 1 = grid29.N by rw [N_29]; exact h)
  · have hlt : t.val + 1 < grid29.N := by rw [N_29]; omega
    refine Or.inr ⟨hlt, fun e => ?_⟩
    have e' : (![t.val + 1, 0] : Fin 2 → ℕ) = ![t.val, 0] := (regOutIndex29 a0 ⟨t.val + 1, hlt⟩).symm.trans (e.trans (regOutIndex29 a0 t))
    have e0 := congrFun e' 0
    simp at e0

/-- The index table, held as the pipeline's one prefetched table. -/
theorem prefHeldEq29 (a0 : (pcfg29 (F := F)).Adm) (c : Dev nD) :
    (Pipeline.prefHeld (Ix := Unit) (Name := ℕ) (U := UU nD τ) (Lvl := ℕ) pre29 c (fun _ => fullShare) a0.1 : sProp (MM F))
      = pt c (Memref.whole main_v195) (a0.1 0) := by
  unfold Pipeline.prefHeld
  rw [show (Finset.univ : Finset (Fin pre29.K)) = {0} from rfl, BI.bigSep_singleton]
  rfl

/-- The value window's staging buffer holds its block at every point. -/
theorem beforeVal29 (a0 : (pcfg29 (F := F)).Adm) (Vin : Dev nD → Valuation τ sig (Elt F)) (c : Dev nD) (t : Fin (cfg29 a0).N) (d) :
    (dat29 a0 Vin c).before 0 t d = iblk29 a0 Vin c 0 t :=
  ((dat29 a0 Vin c).before_in_eq_fetched 0 rfl (fun _ => rfl) (fun _ _ _ => rfl)
    (fun t => by rw [after29_0]; unfold Dat.blockOf iblk29; rw [A_eq29]; try rfl) t d).trans
    (by unfold Dat.fetched Dat.blockOf iblk29; rw [A_eq29]; try rfl)

/-! ## The kernel's checks, from the table's range -/

/-- Each of the point's eight words is a word of the table, so a row number. -/
theorem tblWordLt29 (a0 : (pcfg29 (F := F)).Adm) (hok : GatherOk29 a0) (c : Dev nD) (i : grid29.Coords) (j : Fin 8) :
    (tblWord29 c i (a0.1 0) j).toNat < 100000 := by
  unfold tblWord29
  exact hok _

/-- So the kernel's eight checks hold at every point. -/
theorem gatherChk29 (a0 : (pcfg29 (F := F)).Adm) (hok : GatherOk29 a0) (c : Dev nD) (i : grid29.Coords) : GatherChk29 c i (a0.1 0) :=
  ⟨⟨chkRow _ (tblWordLt29 a0 hok c i 0), chkRow _ (tblWordLt29 a0 hok c i 0)⟩,
   ⟨chkRow _ (tblWordLt29 a0 hok c i 1), chkRow _ (tblWordLt29 a0 hok c i 1)⟩,
   ⟨chkRow _ (tblWordLt29 a0 hok c i 2), chkRow _ (tblWordLt29 a0 hok c i 2)⟩,
   ⟨chkRow _ (tblWordLt29 a0 hok c i 3), chkRow _ (tblWordLt29 a0 hok c i 3)⟩,
   ⟨chkRow _ (tblWordLt29 a0 hok c i 4), chkRow _ (tblWordLt29 a0 hok c i 4)⟩,
   ⟨chkRow _ (tblWordLt29 a0 hok c i 5), chkRow _ (tblWordLt29 a0 hok c i 5)⟩,
   ⟨chkRow _ (tblWordLt29 a0 hok c i 6), chkRow _ (tblWordLt29 a0 hok c i 6)⟩,
   chkRow _ (tblWordLt29 a0 hok c i 7)⟩

/-! ## The body obligation, at a generic point -/

/-- What the body is called with at point `t`: the invariant, the core's dues, each window's current staging memref at
    what the pipeline left there, -/
def bodyPre29 (a0 : (pcfg29 (F := F)).Adm) (Vin : Dev nD → Valuation τ sig (Elt F)) (c : Dev nD) (t : Fin (cfg29 a0).N) : sProp (MM F) :=
  iprop((dat29 a0 Vin c).Φ t.castSucc ∗ (dat29 a0 Vin c).owesAt () t.castSucc
    ∗ (∃ d, owns (c : Thread nD τ) (((cfg29 a0).win 0).stage ((cfg29 a0).slots t 0)) fullShare ((dat29 a0 Vin c).before 0 t d))
    ∗ (∃ d, owns (c : Thread nD τ) (((cfg29 a0).win 1).stage ((cfg29 a0).slots t 1)) fullShare ((dat29 a0 Vin c).before 1 t d)))

/-- and what it returns. -/
def bodyPost29 (a0 : (pcfg29 (F := F)).Adm) (Vin : Dev nD → Valuation τ sig (Elt F)) (c : Dev nD) (t : Fin (cfg29 a0).N) : sProp (MM F) :=
  iprop((dat29 a0 Vin c).Φ t.succ ∗ (dat29 a0 Vin c).owesAt () t.succ
    ∗ owns (c : Thread nD τ) (((cfg29 a0).win 0).stage ((cfg29 a0).slots t 0)) fullShare ((dat29 a0 Vin c).after 0 t)
    ∗ owns (c : Thread nD τ) (((cfg29 a0).win 1).stage ((cfg29 a0).slots t 1)) fullShare ((dat29 a0 Vin c).after 1 t))

/-- The body at any point: the invariant opened into the embedding array, the semaphores, the table and the scratch;
    the value window's memref at its block; the checks from the table's range; so the kernel's run applies, and what it
    leaves in the result window's memref is the point's block of the gathered array. -/
theorem sound_body29 (a0 : (pcfg29 (F := F)).Adm) (hok : GatherOk29 a0) (Vin : Dev nD → Valuation τ sig (Elt F)) (c : Dev nD) (t : Fin (cfg29 a0).N) :
    bodyPre29 a0 Vin c t ⊢ wp frame (wpE (defs₀ (F := F)) 𝒱₀ c none) Set.univ
      (defs₀ .tc (cfg29 a0).body ((cfg29 a0).bodyArgs t ((cfg29 a0).slots t))) (fun _ => bodyPost29 a0 Vin c t) := by
  unfold bodyPre29 bodyPost29
  simp only [beforeVal29]
  rw [Phi_eq29, Phi_eq29, after29_0, after29_1, ← gatherBlk_blk29]
  unfold Phi29 Pipeline.Dat.owesAt Pipeline.owesWithin
  rw [owed_eq29, owed_eq29, prefHeldEq29, scopedRest29_split]
  iintro ⟨⟨Hx, Hos, Ht, ⟨%fs, Hs⟩, Hsb⟩, ⟨%W, %hW, HO⟩, ⟨%d0, H0⟩, ⟨%d1, H1⟩⟩
  iapply (gatherRun29 c (grid29.coords t) _ _ _ _ (a0.1 0) (Vr Vin c main_v109) (iblk29 a0 Vin c 0 t) (gatherChk29 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation29 (a0 : (pcfg29 (F := F)).Adm) (hok : GatherOk29 a0) (Vin : Dev nD → Valuation τ sig (Elt F)) (c : Dev nD) :
    BodyObligation (dat29 a0 Vin c) (defs₀ (F := F)) 𝒱₀ () Set.univ := fun t => by
  rw [bigSep_W29, bigSep_W29]
  exact sound_body29 a0 hok Vin c t

/-! ## From the blocks to the arrays -/

/-- The value array after the region: as entered. -/
theorem arrAt29_in (a0 : (pcfg29 (F := F)).Adm) (Vin : Dev nD → Valuation τ sig (Elt F)) (c : Dev nD) :
    (dat29 a0 Vin c).arrAt 0 (cfg29 a0).N = Vr Vin c main_v196 :=
  ((dat29 a0 Vin c).arrAt_in 0 rfl _).trans (A_eq29 a0 Vin c 0)

/-- Every index of the result array is in some point's block: row `e`, lane `d` is element `(e % 8, d)` of the block
    of point `e / 8`. -/
theorem regOutCover29 (a0 : (pcfg29 (F := F)).Adm) (i : S131072x128.Idx) :
    ∃ t : Fin (cfg29 a0).N, ((cfg29 a0).win 1).flush t = true ∧ i ∈ (((cfg29 a0).win 1).blk t).view.set := by
  have hi0 : (i 0).val < 131072 := (i 0).isLt
  have hi1 : (i 1).val < 128 := (i 1).isLt
  have hN : (i 0).val / 8 < grid29.N := by rw [N_29]; omega
  obtain ⟨t, ht⟩ : ∃ t : Fin (cfg29 a0).N, t.val = (i 0).val / 8 := ⟨⟨_, hN⟩, rfl⟩
  have hx : (((cfg29 a0).win 1).blk t).view.emb (ValueIdx.ix2 ⟨(i 0).val % 8, Nat.mod_lt _ (by decide)⟩ (i 1)) = i := by
    funext a; apply Fin.ext
    have e0 : ((cfg29 a0).win 1).index t (0 : Fin 2) = t.val := congrFun (regOutIndex29 a0 t) (0 : Fin 2)
    have e1 : ((cfg29 a0).win 1).index t (1 : Fin 2) = 0 := congrFun (regOutIndex29 a0 t) (1 : Fin 2)
    match a with
    | ⟨0, _⟩ => show ((cfg29 a0).win 1).index t (0 : Fin 2) * 8 + 1 * ((i 0).val % 8) = (i 0).val; omega
    | ⟨1, _⟩ => show ((cfg29 a0).win 1).index t (1 : Fin 2) * 128 + 1 * (i 1).val = (i 1).val; omega
  exact ⟨t, regOutFlush29 a0 t, hx ▸ (((cfg29 a0).win 1).blk t).view.emb_mem_set _⟩

/-- The result array after the region: the gathered and scaled rows, whole. -/
theorem arrAt29_out (a0 : (pcfg29 (F := F)).Adm) (Vin : Dev nD → Valuation τ sig (Elt F)) (c : Dev nD) :
    (dat29 a0 Vin c).arrAt 1 (cfg29 a0).N = gout29 a0 Vin c :=
  (dat29 a0 Vin c).arrAt_eq_of_cover 1 (gout29 a0 Vin c)
    (fun t _ => by
      show ((cfg29 a0).win 1).cut ((cfg29 a0).grid.coords t) ((dat29 a0 Vin c).after 1 t) = _
      rw [after29_1])
    (regOutCover29 a0)

/-! ## The region as a segment of @main -/

/-- The ownership layout of the kernel's eight semaphores. -/
theorem ownSemFacts29 : Pipeline.OwnSemFacts spec29 osem29 := by decide

/-- The kernel's own cells at zero, listed. -/
theorem ownSemsListed29 (c : Dev nD) :
    (Pipeline.ownSems0 (Ix := Unit) (Name := ℕ) (U := UU nD τ) (Lvl := ℕ) (Val := Elt F) (τ := τ) osem29 c : sProp (MM F)) = sems29 c :=
  Pipeline.ownSems0_eq_of_list c osem29 [0, 1, 2, 3, 4, 5, 6, 7] (by decide) (by decide)

/-- The unscoped buffers that are no window's array, no table, and not the embedding array. -/
abbrev restRefs29 : Finset (Ref sig .tc) :=
  (((Finset.univ.filter fun b : Ref sig .tc => ¬ b.isScoped) \ Finset.univ.image (Pipeline.arrRef spec29)) \ Finset.univ.image pre29.ref) \ {main_v109}

/-- Those buffers, each whole at its contents under `Vin`: what bypasses the region. -/
def Zrest29 (Vin : Dev nD → Valuation τ sig (Elt F)) (c : Dev nD) : sProp (MM F) :=
  bigSep restRefs29 fun b => ((c : Thread nD τ).loc b) ↦{fullShare} Vr Vin c b

/-- The embedding array is an unscoped buffer that is no window's array and no table. -/
theorem embArrMem29 : ({main_v109} : Finset (Ref sig .tc)) ⊆
    ((Finset.univ.filter fun b : Ref sig .tc => ¬ b.isScoped) \ Finset.univ.image (Pipeline.arrRef spec29)) \ Finset.univ.image pre29.ref := by
  decide

/-- The unscoped buffers that are no window's array: the index table, the embedding array, and the rest. -/
theorem unscopedRestOpen29 (Vin : Dev nD → Valuation τ sig (Elt F)) (c : Dev nD) :
    (Pipeline.unscopedRest (Ix := Unit) (Name := ℕ) (U := UU nD τ) (Lvl := ℕ) spec29 c (Vr Vin c) : sProp (MM F))
      = iprop(Pipeline.prefHeld pre29 c (fun _ => fullShare) (fun k => Vr Vin c (pre29.ref k))
          ∗ pt c (Memref.whole main_v109) (Vr Vin c main_v109) ∗ Zrest29 Vin c) := by
  rw [Pipeline.unscopedRest_split preFacts29 c (Vr Vin c)]
  unfold Pipeline.unscopedRestP Zrest29
  rw [BI.bigSep_sdiff_split embArrMem29, BI.bigSep_singleton]
  rfl

/-- The buffer contents when the region is left: the result array at the gathered rows, every other buffer as entered. -/
abbrev Vout29 (a0 : (pcfg29 (F := F)).Adm) (Vin : Dev nD → Valuation τ sig (Elt F)) (c : Dev nD) : Valuation τ sig (Elt F) :=
  Function.update (Vin c) main_v197 (gout29 a0 Vin c)

/-- At the exit each of the region's arrays holds what the pipeline leaves; -/
theorem hF29 (a0 : (pcfg29 (F := F)).Adm) (Vin : Dev nD → Valuation τ sig (Elt F)) (c : Dev nD) (w : Fin (cfg29 a0).W) :
    (dat29 a0 Vin c).arrAt w (cfg29 a0).N = Vr (Vout29 a0 Vin) c (Pipeline.arrRef spec29 w) := by
  match w with
  | ⟨0, _⟩ =>
    show (dat29 a0 Vin c).arrAt 0 (cfg29 a0).N = Vr (Vout29 a0 Vin) c (Pipeline.arrRef spec29 0)
    rw [arrAt29_in]
    exact (Function.update_of_ne (StableHlo.devRef_ne_of_ne (by decide) : (Proc.devRef .tc main_v196 : DevRef τ sig) ≠ Proc.devRef .tc main_v197) _ _).symm
  | ⟨1, _⟩ =>
    show (dat29 a0 Vin c).arrAt 1 (cfg29 a0).N = Vr (Vout29 a0 Vin) c (Pipeline.arrRef spec29 1)
    rw [arrAt29_out]
    exact (Function.update_self (Proc.devRef .tc main_v197 : DevRef τ sig) _ (Vin c)).symm

/-- and every other buffer what it held at entry. -/
theorem hrest29 (a0 : (pcfg29 (F := F)).Adm) (Vin : Dev nD → Valuation τ sig (Elt F)) (c : Dev nD) :
    ∀ b : Ref sig .tc, b ∉ Finset.univ.image (Pipeline.arrRef spec29) → Vr (Vout29 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat29` at the entry valuation `Vin`
    (`hd`), the index table's contents under `Vin` being the pinned ones (`htbl`) and row numbers (`hok`). -/
def reg29 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk29 (F := F) (a (29 : Fin 34)))
    (hd : ∀ c, pdats (29 : Fin 34) c = dat29 (a (29 : Fin 34)) Vin c) (htbl : ∀ c, (a (29 : Fin 34)).1 = fun k => Vr Vin c (pre29.ref k)) :
    Pipeline.RegionSeg (pcfgs (F := F)) a pdats () defs₀ 𝒱₀ L lv (29 : Fin 34) where
  win := (launch29 (F := F)).win.to₀
  block_pos := (launch29 (F := F)).block_pos
  stage_whole := (launch29 (F := F)).stage_whole
  K := Fin 8
  osem := osem29
  ho := ownSemFacts29
  hbody c := by rw [hd c]; exact (body_obligation29 (a (29 : Fin 34)) hok Vin c).loose
  hwaits := Pipeline.hwaits_of_owed_zero _ _ _ _ L lv (29 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v197 (gout29 (a (29 : Fin 34)) Vin c)) ∗ Rest c)
  X c := iprop(pt c (Memref.whole main_v109) (Vr Vin c main_v109) ∗ sems29 c)
  Y c := iprop(pt c (Memref.whole main_v109) (Vr Vin c main_v109)
    ∗ Pipeline.prefHeld (Ix := Unit) (Name := ℕ) (U := UU nD τ) (Lvl := ℕ) pre29 c (fun _ => fullShare) (a (29 : Fin 34)).1)
  Z c := Zrest29 Vin c
  hentry c := by
    rw [ownSemsListed29]
    have hsplit := Pipeline.arrays_of_unscopedBufs (p := (29 : Fin 34)) (pcfgs (F := F)) a pdats (launch29 (F := F)).win (launch29 (F := F)).arr_whole c
      ((pdats (29 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen29 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (29 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq29]; unfold Phi29
    iintro ⟨⟨Hx, Hos⟩, Ht, Hr⟩
    isplitl [Hx]; · iexact Hx
    isplitl [Hos]; · iexact Hos
    isplitl [Ht]; · iexact Ht
    iexact Hr
  hout c := by
    rw [ownSemsListed29, hd c, Phi_eq29]; unfold Phi29
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (29 : Fin 34)) (pcfgs (F := F)) a (Ix := Unit) (Name := ℕ) (U := UU nD τ) (Lvl := ℕ)
      (launch29 (F := F)).win (launch29 (F := F)).arr_whole c pdats ((pdats (29 : Fin 34) c).share_full fun _ => by rw [hd c]; rfl)
      (Vr Vin c) (Vr (Vout29 (a (29 : Fin 34)) Vin) c) ((pdats (29 : Fin 34) c).arrAt · (cfg29 (a (29 : Fin 34))).N)
      (fun w => by rw [hd c]; exact hF29 (a (29 : Fin 34)) Vin c w) (hrest29 (a (29 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen29 Vin c).symm)
      isplitl [Ht]; · rw [← htbl c]; iexact Ht
      isplitl [Hx]; · iexact Hx
      iexact Hz
    unfold Pipeline.Dat.owesAt Pipeline.owesWithin
    rw [show (pdats (29 : Fin 34) c).owed (Fin.last _) = 0 from by rw [hd c]; rfl]
    icases HO with ⟨%W, -, HO⟩; iexists W; iexact HO

end Cert.KernelIdeal.Hand

end
-- ==== Proof.KI.GatherDat30.lean ====
/-
  Gather region 30 (custom_call 30): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem30 : Fin 8 → SemLoc sig := fun | 0 => .dma 356 | 1 => .dma 357 | 2 => .dma 358 | 3 => .dma 359 | 4 => .dma 360 | 5 => .dma 361 | 6 => .dma 362 | 7 => .dma 363

/-- The eight counters at zero, as the run finds them and hands them back. -/
abbrev sems30 (c : Dev nD) : sProp (MM F) :=
  iprop(semVal ((c : Thread nD τ), osem30 0) 0 ∗ semVal ((c : Thread nD τ), osem30 1) 0 ∗ semVal ((c : Thread nD τ), osem30 2) 0
    ∗ semVal ((c : Thread nD τ), osem30 3) 0 ∗ semVal ((c : Thread nD τ), osem30 4) 0 ∗ semVal ((c : Thread nD τ), osem30 5) 0
    ∗ semVal ((c : Thread nD τ), osem30 6) 0 ∗ semVal ((c : Thread nD τ), osem30 7) 0)

/-- Word `j` of the eight the index table holds for point `i`, as the kernel's scalar load reads it. -/
def tblWord30 (c : Dev nD) (i : grid30.Coords) (tbl : Bf (F := F) c (Memref.whole main_v198)) (j : Fin 8) : BitVec 32 :=
  (Memref.whole main_v198).view.readAt (Elt F) (Rect.unit (s := S131072) (k30_off1 i (BitVec.ofNat 32 j.val)) S1.size (k30_off1_inb i j)).toLoadRect tbl
    (Shape.Idx.first (s := S1) (numel1_S1.symm ▸ Nat.one_pos))

/-- Window `w`'s block at point `t`, read off its array at the region's entry. -/
def iblk30 (a0 : (pcfg30 (F := F)).Adm) (Vin : Dev nD → Valuation τ sig (Elt F)) (c : Dev nD) (w : Fin (cfg30 a0).W) (t : Fin (cfg30 a0).N) :
    (((cfg30 a0).win w).xblock ((cfg30 a0).grid.coords t)).Idx → Elt F ((cfg30 a0).win w).elt :=
  (((cfg30 a0).win w).blk t).view.read (Elt F) (Vr Vin c (Pipeline.arrRef spec30 w))

/-- The result array the region leaves: the gathered and scaled rows of the embedding array, whole. -/
def gout30 (a0 : (pcfg30 (F := F)).Adm) (Vin : Dev nD → Valuation τ sig (Elt F)) (c : Dev nD) : Buf (Elt F) ((c : Thread nD τ).loc main_v200) :=
  gatherArr (Vr Vin c main_v109) (a0.1 0) (Vr Vin c main_v199)

/-- The invariant between points: the embedding array as entered, the kernel's semaphores at zero, the index table, the
    scoped buffers no window stages (the kernel's scratch among them). -/
def Phi30 (a0 : (pcfg30 (F := F)).Adm) (Vin : Dev nD → Valuation τ sig (Elt F)) (c : Dev nD) : sProp (MM F) :=
  iprop(pt c (Memref.whole main_v109) (Vr Vin c main_v109) ∗ sems30 c
    ∗ Pipeline.prefHeld (Ix := Unit) (Name := ℕ) (U := UU nD τ) (Lvl := ℕ) pre30 c (fun _ => fullShare) a0.1
    ∗ Pipeline.scopedRest (Ix := Unit) (Name := ℕ) (U := UU nD τ) (Lvl := ℕ) (Val := Elt F) spec30 c)

/-- The proof data on core `c`. -/
def dat30 (a0 : (pcfg30 (F := F)).Adm) (Vin : Dev nD → Valuation τ sig (Elt F)) (c : Dev nD) :
    Pipeline.Dat τ (Elt F) Unit ℕ (UU nD τ) ℕ ((pcfg30 (F := F)).at a0) c where
  A w := Vr Vin c (Pipeline.arrRef spec30 w)
  after w t := match w with
    | ⟨0, _⟩ => iblk30 a0 Vin c 0 t
    | ⟨1, _⟩ => (((cfg30 a0).win 1).blk t).view.read (Elt F) (gout30 a0 Vin c)
  Φ _ := Phi30 a0 Vin c
  q _ := fullShare
  owed _ := 0

theorem A_eq30 (a0 : (pcfg30 (F := F)).Adm) (Vin : Dev nD → Valuation τ sig (Elt F)) (c : Dev nD) (w : Fin (cfg30 a0).W) :
    (dat30 a0 Vin c).A w = Vr Vin c (Pipeline.arrRef spec30 w) := by dsimp only [dat30]
theorem after30_0 (a0 : (pcfg30 (F := F)).Adm) (Vin : Dev nD → Valuation τ sig (Elt F)) (c : Dev nD) (t : Fin (cfg30 a0).N) :
    (dat30 a0 Vin c).after 0 t = iblk30 a0 Vin c 0 t := by dsimp only [dat30]; rfl
theorem after30_1 (a0 : (pcfg30 (F := F)).Adm) (Vin : Dev nD → Valuation τ sig (Elt F)) (c : Dev nD) (t : Fin (cfg30 a0).N) :
    (dat30 a0 Vin c).after 1 t = (((cfg30 a0).win 1).blk t).view.read (Elt F) (gout30 a0 Vin c) := by dsimp only [dat30]; rfl
theorem Phi_eq30 (a0 : (pcfg30 (F := F)).Adm) (Vin : Dev nD → Valuation τ sig (Elt F)) (c : Dev nD) (t : Fin ((cfg30 a0).N + 1)) :
    (dat30 a0 Vin c).Φ t = Phi30 a0 Vin c := rfl
theorem owed_eq30 (a0 : (pcfg30 (F := F)).Adm) (Vin : Dev nD → Valuation τ sig (Elt F)) (c : Dev nD) (t : Fin ((cfg30 a0).N + 1)) :
    (dat30 a0 Vin c).owed t = 0 := rfl
theorem q_eq30 (a0 : (pcfg30 (F := F)).Adm) (Vin : Dev nD → Valuation τ sig (Elt F)) (c : Dev nD) (w : Fin (cfg30 a0).W) :
    (dat30 a0 Vin c).q w = fullShare := rfl

/-- The pinned family's configuration at region 30 is this one. -/
example (a : (p : Fin 34) → (pcfgs (F := F) p).Adm) : Pipeline.pin (pcfgs (F := F)) a (30 : Fin 34) = (pcfg30 (F := F)).at (a (30 : Fin 34)) := rfl

end Cert.KernelIdeal.Hand

end
-- ==== Proof.KI.GatherBody30.lean ====
/-
  Gather region 30 (custom_call 30): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat30
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk30 (c : Dev nD) (i : grid30.Coords) (tbl : Bf (F := F) c (Memref.whole main_v198)) : Prop where
  h1 : k30_chk1 (tblWord30 c i tbl 0)
  h2 : k30_chk2 (tblWord30 c i tbl 1)
  h3 : k30_chk3 (tblWord30 c i tbl 2)
  h4 : k30_chk4 (tblWord30 c i tbl 3)
  h5 : k30_chk5 (tblWord30 c i tbl 4)
  h6 : k30_chk6 (tblWord30 c i tbl 5)
  h7 : k30_chk7 (tblWord30 c i tbl 6)
  h8 : k30_chk8 (tblWord30 c i tbl 7)

/-- A one-row slice of the embedding array at the row a word names, read at lane `z 1`: the array's element there. -/
theorem rowRead30 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun30 (c : Dev nD) (i : grid30.Coords)
    (M3 : Memref sig .tc .vmem S8x1 .f32) (h3 : M3.IsWhole) (M4 : Memref sig .tc .vmem S8x128 .f32) (h4 : M4.IsWhole)
    (tbl : Bf (F := F) c (Memref.whole main_v198)) (x : Bf (F := F) c (Memref.whole main_v109))
    (vb : Vec F S8x1 .f32) (hchk : GatherChk30 c i tbl) (Q : PUnit → sProp (MM F)) :
    iprop(pt c (Memref.whole main_v198) tbl ∗ pt c (Memref.whole main_v109) x
      ∗ owns (c : Thread nD τ) M3 fullShare vb ∗ (∃ d, owns (c : Thread nD τ) M4 fullShare d)
      ∗ (∃ fs, pt c (Memref.whole cc30_scratch0) fs) ∗ sems30 c ∗ (∃ W, owes (c : Thread nD τ) (0 : CellTallies nD τ sig Unit) W)
      ∗ (iprop(pt c (Memref.whole main_v198) tbl ∗ pt c (Memref.whole main_v109) x
          ∗ owns (c : Thread nD τ) M3 fullShare vb ∗ owns (c : Thread nD τ) M4 fullShare (gatherBlk x (tblWord30 c i tbl) vb)
          ∗ (∃ fs, pt c (Memref.whole cc30_scratch0) fs) ∗ sems30 c ∗ (∃ W, owes (c : Thread nD τ) (0 : CellTallies nD τ sig Unit) W)) -∗ Q ⟨⟩))
    ⊢ wp frame (wpE (defs₀ (F := F)) 𝒱₀ c none) Set.univ
        (cc30__gather_kernel i (Memref.whole main_v198) (Memref.isWhole_whole _) (Memref.whole main_v109) (Memref.isWhole_whole _) M3 h3 M4 h4
          (Memref.whole cc30_scratch0) (Memref.isWhole_whole _) cc30_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 356).1 $$ Hx
  icases Hx' with ⟨Hxr, Hx0, Hx1, Hx2, Hx3, Hx4, Hx5, Hx6, Hx7⟩
  sl_unfold [cc30__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 356).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k30_pay1 gatherBlk
    show FloatOps.mulf _ _ = FloatOps.mulf _ _
    congr 1
    · unfold gatherRun30.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun30.sl.dma8 gatherRun30.sl.dma8_1 gatherRun30.sl.dma8_2 gatherRun30.sl.dma8_3 gatherRun30.sl.dma8_4 gatherRun30.sl.dma8_5
        gatherRun30.sl.dma8_6 gatherRun30.sl.dma8_7 gatherRun30.sl.r gatherRun30.sl.r_1 gatherRun30.sl.r_2 gatherRun30.sl.r_3 gatherRun30.sl.r_4
        gatherRun30.sl.r_5 gatherRun30.sl.r_6 gatherRun30.sl.r_7
      refine canonRows8 _ _ _ _ _ _ _ _ _ _ _ _ _ _ _ _ (fun r d => x (embIdx (rowOf (tblWord30 c i tbl r)) d)) ?_ ?_ ?_ ?_ ?_ ?_ ?_ ?_ y
      · exact fun z => rowRead30 c _ (tblWord30 c i tbl 0) rfl rfl _ _ x z
      · exact fun z => rowRead30 c _ (tblWord30 c i tbl 1) rfl rfl _ _ x z
      · exact fun z => rowRead30 c _ (tblWord30 c i tbl 2) rfl rfl _ _ x z
      · exact fun z => rowRead30 c _ (tblWord30 c i tbl 3) rfl rfl _ _ x z
      · exact fun z => rowRead30 c _ (tblWord30 c i tbl 4) rfl rfl _ _ x z
      · exact fun z => rowRead30 c _ (tblWord30 c i tbl 5) rfl rfl _ _ x z
      · exact fun z => rowRead30 c _ (tblWord30 c i tbl 6) rfl rfl _ _ x z
      · exact fun z => rowRead30 c _ (tblWord30 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk30.lean ====
/-
  Gather region 30 (custom_call 30): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat30
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word30 (i : grid30.Coords) (j : Fin 8) : k30_off1 i (BitVec.ofNat 32 j.val) 0 = (i 0).val * 8 + j.val := by
  have hi : (i 0).val < 16384 := (i 0).isLt
  have hj : j.val < 8 := j.isLt
  unfold k30_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word30 (i : grid30.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord30_eq (c : Dev nD) (i : grid30.Coords) (tbl : Bf (F := F) c (Memref.whole main_v198)) (j : Fin 8)
    (e : Fin 131072) (he : e.val = (i 0).val * 8 + j.val) : tblWord30 c i tbl j = tbl (tblIdx e) := by
  unfold tblWord30
  show tbl _ = tbl _
  refine congrArg tbl ?_
  funext a; apply Fin.ext
  match a with
  | ⟨0, _⟩ =>
    show k30_off1 i (BitVec.ofNat 32 j.val) 0 + 1 * 0 = e.val
    rw [off_word30, he]; omega

/-- Row `j` of the value window's block at point `t` is the value array's row `8 t + j`. -/
theorem valBlk30_eq (a0 : (pcfg30 (F := F)).Adm) (Vin : Dev nD → Valuation τ sig (Elt F)) (c : Dev nD) (t : Fin (cfg30 a0).N)
    (j : Fin 8) (e : Fin 131072) (he : e.val = ((grid30.coords t) 0).val * 8 + j.val) :
    iblk30 a0 Vin c 0 t (colIdx j) = Vr Vin c main_v199 (valIdx e) := by
  unfold iblk30
  show Vr Vin c main_v199 _ = Vr Vin c main_v199 _
  refine congrArg (Vr Vin c main_v199) ?_
  funext a; apply Fin.ext
  match a with
  | ⟨0, _⟩ =>
    show (BitVec.ofNat 32 ((grid30.coords t) 0).val).toNat * 8 + 1 * j.val = e.val
    rw [coord_word30, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk30 (a0 : (pcfg30 (F := F)).Adm) (Vin : Dev nD → Valuation τ sig (Elt F)) (c : Dev nD) (t : Fin (cfg30 a0).N) :
    gatherBlk (Vr Vin c main_v109) (tblWord30 c (grid30.coords t) (a0.1 0)) (iblk30 a0 Vin c 0 t)
      = (((cfg30 a0).win 1).blk t).view.read (Elt F) (gout30 a0 Vin c) := by
  funext y
  show gatherBlk _ _ _ y = gout30 a0 Vin c ((((cfg30 a0).win 1).blk t).view.emb y)
  unfold gatherBlk gout30 gatherArr
  have e0 : ((((cfg30 a0).win 1).blk t).view.emb y (0 : Fin 2)).val = ((grid30.coords t) 0).val * 8 + (y 0).val := by
    show (BitVec.ofNat 32 ((grid30.coords t) 0).val).toNat * 8 + 1 * (y 0).val = _
    rw [coord_word30]; omega
  have e1 : (((cfg30 a0).win 1).blk t).view.emb y (1 : Fin 2) = y 1 := Fin.ext (by
    show (0#32 : BitVec 32).toNat * 128 + 1 * (y 1).val = (y 1).val
    show 0 * 128 + 1 * (y 1).val = (y 1).val
    omega)
  rw [tblWord30_eq c (grid30.coords t) (a0.1 0) (y 0) _ e0, valBlk30_eq a0 Vin c t (y 0) _ e0, e1]

end Cert.KernelIdeal.Hand

end
-- ==== Proof.KI.GatherRegion30.lean ====
/-
  Gather region 30 (custom_call 30): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody30
import proofs.«414509_j14181982011419_2_alg».proof.Proof.KI.GatherBlk30
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk30 (a0 : (pcfg30 (F := F)).Adm) : Prop := ∀ e : S131072.Idx, (a0.1 0 e).toNat < 100000

/-! ## The grid and the result window's blocks -/

/-- On the one-axis grid a point's coordinate is its number. -/
theorem regCoords30 (t : Fin grid30.N) : (grid30.coords t 0).val = t.val := by
  have ht : t.val < 16384 := N_30 ▸ t.isLt
  show t.val / grid30.stride 0 % grid30.bound 0 = t.val
  rw [show grid30.stride 0 = 1 from by decide, show grid30.bound 0 = 16384 from rfl, Nat.div_one, Nat.mod_eq_of_lt ht]

/-- A point's number as the 32-bit word the index maps compute with. -/
theorem regWord30 (t : Fin grid30.N) : (BitVec.ofNat 32 (grid30.coords t 0).val).toNat = t.val := by
  have ht : t.val < 16384 := N_30 ▸ t.isLt
  rw [BitVec.toNat_ofNat, regCoords30]; omega

/-- The result window's block at point `t` is block `t` along the rows, at zero along the lanes. -/
theorem regOutIndex30 (a0 : (pcfg30 (F := F)).Adm) (t : Fin (cfg30 a0).N) : ((cfg30 a0).win 1).index t = ![t.val, 0] := by
  show cc30_transform_2 (grid30.coords t) = _
  unfold cc30_transform_2
  funext a; fin_cases a
  · exact regWord30 t
  · rfl

/-- The result window is written back at every point: consecutive points have different blocks. -/
theorem regOutFlush30 (a0 : (pcfg30 (F := F)).Adm) (t : Fin (cfg30 a0).N) : ((cfg30 a0).win 1).flush t = true := by
  have htN : t.val < 16384 := N_30 ▸ t.isLt
  rw [Pipeline.Window.flush_out _ rfl]
  by_cases h : t.val + 1 = 16384
  · exact Or.inl (show t.val + 1 = grid30.N by rw [N_30]; exact h)
  · have hlt : t.val + 1 < grid30.N := by rw [N_30]; omega
    refine Or.inr ⟨hlt, fun e => ?_⟩
    have e' : (![t.val + 1, 0] : Fin 2 → ℕ) = ![t.val, 0] := (regOutIndex30 a0 ⟨t.val + 1, hlt⟩).symm.trans (e.trans (regOutIndex30 a0 t))
    have e0 := congrFun e' 0
    simp at e0

/-- The index table, held as the pipeline's one prefetched table. -/
theorem prefHeldEq30 (a0 : (pcfg30 (F := F)).Adm) (c : Dev nD) :
    (Pipeline.prefHeld (Ix := Unit) (Name := ℕ) (U := UU nD τ) (Lvl := ℕ) pre30 c (fun _ => fullShare) a0.1 : sProp (MM F))
      = pt c (Memref.whole main_v198) (a0.1 0) := by
  unfold Pipeline.prefHeld
  rw [show (Finset.univ : Finset (Fin pre30.K)) = {0} from rfl, BI.bigSep_singleton]
  rfl

/-- The value window's staging buffer holds its block at every point. -/
theorem beforeVal30 (a0 : (pcfg30 (F := F)).Adm) (Vin : Dev nD → Valuation τ sig (Elt F)) (c : Dev nD) (t : Fin (cfg30 a0).N) (d) :
    (dat30 a0 Vin c).before 0 t d = iblk30 a0 Vin c 0 t :=
  ((dat30 a0 Vin c).before_in_eq_fetched 0 rfl (fun _ => rfl) (fun _ _ _ => rfl)
    (fun t => by rw [after30_0]; unfold Dat.blockOf iblk30; rw [A_eq30]; try rfl) t d).trans
    (by unfold Dat.fetched Dat.blockOf iblk30; rw [A_eq30]; try rfl)

/-! ## The kernel's checks, from the table's range -/

/-- Each of the point's eight words is a word of the table, so a row number. -/
theorem tblWordLt30 (a0 : (pcfg30 (F := F)).Adm) (hok : GatherOk30 a0) (c : Dev nD) (i : grid30.Coords) (j : Fin 8) :
    (tblWord30 c i (a0.1 0) j).toNat < 100000 := by
  unfold tblWord30
  exact hok _

/-- So the kernel's eight checks hold at every point. -/
theorem gatherChk30 (a0 : (pcfg30 (F := F)).Adm) (hok : GatherOk30 a0) (c : Dev nD) (i : grid30.Coords) : GatherChk30 c i (a0.1 0) :=
  ⟨⟨chkRow _ (tblWordLt30 a0 hok c i 0), chkRow _ (tblWordLt30 a0 hok c i 0)⟩,
   ⟨chkRow _ (tblWordLt30 a0 hok c i 1), chkRow _ (tblWordLt30 a0 hok c i 1)⟩,
   ⟨chkRow _ (tblWordLt30 a0 hok c i 2), chkRow _ (tblWordLt30 a0 hok c i 2)⟩,
   ⟨chkRow _ (tblWordLt30 a0 hok c i 3), chkRow _ (tblWordLt30 a0 hok c i 3)⟩,
   ⟨chkRow _ (tblWordLt30 a0 hok c i 4), chkRow _ (tblWordLt30 a0 hok c i 4)⟩,
   ⟨chkRow _ (tblWordLt30 a0 hok c i 5), chkRow _ (tblWordLt30 a0 hok c i 5)⟩,
   ⟨chkRow _ (tblWordLt30 a0 hok c i 6), chkRow _ (tblWordLt30 a0 hok c i 6)⟩,
   chkRow _ (tblWordLt30 a0 hok c i 7)⟩

/-! ## The body obligation, at a generic point -/

/-- What the body is called with at point `t`: the invariant, the core's dues, each window's current staging memref at
    what the pipeline left there, -/
def bodyPre30 (a0 : (pcfg30 (F := F)).Adm) (Vin : Dev nD → Valuation τ sig (Elt F)) (c : Dev nD) (t : Fin (cfg30 a0).N) : sProp (MM F) :=
  iprop((dat30 a0 Vin c).Φ t.castSucc ∗ (dat30 a0 Vin c).owesAt () t.castSucc
    ∗ (∃ d, owns (c : Thread nD τ) (((cfg30 a0).win 0).stage ((cfg30 a0).slots t 0)) fullShare ((dat30 a0 Vin c).before 0 t d))
    ∗ (∃ d, owns (c : Thread nD τ) (((cfg30 a0).win 1).stage ((cfg30 a0).slots t 1)) fullShare ((dat30 a0 Vin c).before 1 t d)))

/-- and what it returns. -/
def bodyPost30 (a0 : (pcfg30 (F := F)).Adm) (Vin : Dev nD → Valuation τ sig (Elt F)) (c : Dev nD) (t : Fin (cfg30 a0).N) : sProp (MM F) :=
  iprop((dat30 a0 Vin c).Φ t.succ ∗ (dat30 a0 Vin c).owesAt () t.succ
    ∗ owns (c : Thread nD τ) (((cfg30 a0).win 0).stage ((cfg30 a0).slots t 0)) fullShare ((dat30 a0 Vin c).after 0 t)
    ∗ owns (c : Thread nD τ) (((cfg30 a0).win 1).stage ((cfg30 a0).slots t 1)) fullShare ((dat30 a0 Vin c).after 1 t))

/-- The body at any point: the invariant opened into the embedding array, the semaphores, the table and the scratch;
    the value window's memref at its block; the checks from the table's range; so the kernel's run applies, and what it
    leaves in the result window's memref is the point's block of the gathered array. -/
theorem sound_body30 (a0 : (pcfg30 (F := F)).Adm) (hok : GatherOk30 a0) (Vin : Dev nD → Valuation τ sig (Elt F)) (c : Dev nD) (t : Fin (cfg30 a0).N) :
    bodyPre30 a0 Vin c t ⊢ wp frame (wpE (defs₀ (F := F)) 𝒱₀ c none) Set.univ
      (defs₀ .tc (cfg30 a0).body ((cfg30 a0).bodyArgs t ((cfg30 a0).slots t))) (fun _ => bodyPost30 a0 Vin c t) := by
  unfold bodyPre30 bodyPost30
  simp only [beforeVal30]
  rw [Phi_eq30, Phi_eq30, after30_0, after30_1, ← gatherBlk_blk30]
  unfold Phi30 Pipeline.Dat.owesAt Pipeline.owesWithin
  rw [owed_eq30, owed_eq30, prefHeldEq30, scopedRest30_split]
  iintro ⟨⟨Hx, Hos, Ht, ⟨%fs, Hs⟩, Hsb⟩, ⟨%W, %hW, HO⟩, ⟨%d0, H0⟩, ⟨%d1, H1⟩⟩
  iapply (gatherRun30 c (grid30.coords t) _ _ _ _ (a0.1 0) (Vr Vin c main_v109) (iblk30 a0 Vin c 0 t) (gatherChk30 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation30 (a0 : (pcfg30 (F := F)).Adm) (hok : GatherOk30 a0) (Vin : Dev nD → Valuation τ sig (Elt F)) (c : Dev nD) :
    BodyObligation (dat30 a0 Vin c) (defs₀ (F := F)) 𝒱₀ () Set.univ := fun t => by
  rw [bigSep_W30, bigSep_W30]
  exact sound_body30 a0 hok Vin c t

/-! ## From the blocks to the arrays -/

/-- The value array after the region: as entered. -/
theorem arrAt30_in (a0 : (pcfg30 (F := F)).Adm) (Vin : Dev nD → Valuation τ sig (Elt F)) (c : Dev nD) :
    (dat30 a0 Vin c).arrAt 0 (cfg30 a0).N = Vr Vin c main_v199 :=
  ((dat30 a0 Vin c).arrAt_in 0 rfl _).trans (A_eq30 a0 Vin c 0)

/-- Every index of the result array is in some point's block: row `e`, lane `d` is element `(e % 8, d)` of the block
    of point `e / 8`. -/
theorem regOutCover30 (a0 : (pcfg30 (F := F)).Adm) (i : S131072x128.Idx) :
    ∃ t : Fin (cfg30 a0).N, ((cfg30 a0).win 1).flush t = true ∧ i ∈ (((cfg30 a0).win 1).blk t).view.set := by
  have hi0 : (i 0).val < 131072 := (i 0).isLt
  have hi1 : (i 1).val < 128 := (i 1).isLt
  have hN : (i 0).val / 8 < grid30.N := by rw [N_30]; omega
  obtain ⟨t, ht⟩ : ∃ t : Fin (cfg30 a0).N, t.val = (i 0).val / 8 := ⟨⟨_, hN⟩, rfl⟩
  have hx : (((cfg30 a0).win 1).blk t).view.emb (ValueIdx.ix2 ⟨(i 0).val % 8, Nat.mod_lt _ (by decide)⟩ (i 1)) = i := by
    funext a; apply Fin.ext
    have e0 : ((cfg30 a0).win 1).index t (0 : Fin 2) = t.val := congrFun (regOutIndex30 a0 t) (0 : Fin 2)
    have e1 : ((cfg30 a0).win 1).index t (1 : Fin 2) = 0 := congrFun (regOutIndex30 a0 t) (1 : Fin 2)
    match a with
    | ⟨0, _⟩ => show ((cfg30 a0).win 1).index t (0 : Fin 2) * 8 + 1 * ((i 0).val % 8) = (i 0).val; omega
    | ⟨1, _⟩ => show ((cfg30 a0).win 1).index t (1 : Fin 2) * 128 + 1 * (i 1).val = (i 1).val; omega
  exact ⟨t, regOutFlush30 a0 t, hx ▸ (((cfg30 a0).win 1).blk t).view.emb_mem_set _⟩

/-- The result array after the region: the gathered and scaled rows, whole. -/
theorem arrAt30_out (a0 : (pcfg30 (F := F)).Adm) (Vin : Dev nD → Valuation τ sig (Elt F)) (c : Dev nD) :
    (dat30 a0 Vin c).arrAt 1 (cfg30 a0).N = gout30 a0 Vin c :=
  (dat30 a0 Vin c).arrAt_eq_of_cover 1 (gout30 a0 Vin c)
    (fun t _ => by
      show ((cfg30 a0).win 1).cut ((cfg30 a0).grid.coords t) ((dat30 a0 Vin c).after 1 t) = _
      rw [after30_1])
    (regOutCover30 a0)

/-! ## The region as a segment of @main -/

/-- The ownership layout of the kernel's eight semaphores. -/
theorem ownSemFacts30 : Pipeline.OwnSemFacts spec30 osem30 := by decide

/-- The kernel's own cells at zero, listed. -/
theorem ownSemsListed30 (c : Dev nD) :
    (Pipeline.ownSems0 (Ix := Unit) (Name := ℕ) (U := UU nD τ) (Lvl := ℕ) (Val := Elt F) (τ := τ) osem30 c : sProp (MM F)) = sems30 c :=
  Pipeline.ownSems0_eq_of_list c osem30 [0, 1, 2, 3, 4, 5, 6, 7] (by decide) (by decide)

/-- The unscoped buffers that are no window's array, no table, and not the embedding array. -/
abbrev restRefs30 : Finset (Ref sig .tc) :=
  (((Finset.univ.filter fun b : Ref sig .tc => ¬ b.isScoped) \ Finset.univ.image (Pipeline.arrRef spec30)) \ Finset.univ.image pre30.ref) \ {main_v109}

/-- Those buffers, each whole at its contents under `Vin`: what bypasses the region. -/
def Zrest30 (Vin : Dev nD → Valuation τ sig (Elt F)) (c : Dev nD) : sProp (MM F) :=
  bigSep restRefs30 fun b => ((c : Thread nD τ).loc b) ↦{fullShare} Vr Vin c b

/-- The embedding array is an unscoped buffer that is no window's array and no table. -/
theorem embArrMem30 : ({main_v109} : Finset (Ref sig .tc)) ⊆
    ((Finset.univ.filter fun b : Ref sig .tc => ¬ b.isScoped) \ Finset.univ.image (Pipeline.arrRef spec30)) \ Finset.univ.image pre30.ref := by
  decide

/-- The unscoped buffers that are no window's array: the index table, the embedding array, and the rest. -/
theorem unscopedRestOpen30 (Vin : Dev nD → Valuation τ sig (Elt F)) (c : Dev nD) :
    (Pipeline.unscopedRest (Ix := Unit) (Name := ℕ) (U := UU nD τ) (Lvl := ℕ) spec30 c (Vr Vin c) : sProp (MM F))
      = iprop(Pipeline.prefHeld pre30 c (fun _ => fullShare) (fun k => Vr Vin c (pre30.ref k))
          ∗ pt c (Memref.whole main_v109) (Vr Vin c main_v109) ∗ Zrest30 Vin c) := by
  rw [Pipeline.unscopedRest_split preFacts30 c (Vr Vin c)]
  unfold Pipeline.unscopedRestP Zrest30
  rw [BI.bigSep_sdiff_split embArrMem30, BI.bigSep_singleton]
  rfl

/-- The buffer contents when the region is left: the result array at the gathered rows, every other buffer as entered. -/
abbrev Vout30 (a0 : (pcfg30 (F := F)).Adm) (Vin : Dev nD → Valuation τ sig (Elt F)) (c : Dev nD) : Valuation τ sig (Elt F) :=
  Function.update (Vin c) main_v200 (gout30 a0 Vin c)

/-- At the exit each of the region's arrays holds what the pipeline leaves; -/
theorem hF30 (a0 : (pcfg30 (F := F)).Adm) (Vin : Dev nD → Valuation τ sig (Elt F)) (c : Dev nD) (w : Fin (cfg30 a0).W) :
    (dat30 a0 Vin c).arrAt w (cfg30 a0).N = Vr (Vout30 a0 Vin) c (Pipeline.arrRef spec30 w) := by
  match w with
  | ⟨0, _⟩ =>
    show (dat30 a0 Vin c).arrAt 0 (cfg30 a0).N = Vr (Vout30 a0 Vin) c (Pipeline.arrRef spec30 0)
    rw [arrAt30_in]
    exact (Function.update_of_ne (StableHlo.devRef_ne_of_ne (by decide) : (Proc.devRef .tc main_v199 : DevRef τ sig) ≠ Proc.devRef .tc main_v200) _ _).symm
  | ⟨1, _⟩ =>
    show (dat30 a0 Vin c).arrAt 1 (cfg30 a0).N = Vr (Vout30 a0 Vin) c (Pipeline.arrRef spec30 1)
    rw [arrAt30_out]
    exact (Function.update_self (Proc.devRef .tc main_v200 : DevRef τ sig) _ (Vin c)).symm

/-- and every other buffer what it held at entry. -/
theorem hrest30 (a0 : (pcfg30 (F := F)).Adm) (Vin : Dev nD → Valuation τ sig (Elt F)) (c : Dev nD) :
    ∀ b : Ref sig .tc, b ∉ Finset.univ.image (Pipeline.arrRef spec30) → Vr (Vout30 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat30` at the entry valuation `Vin`
    (`hd`), the index table's contents under `Vin` being the pinned ones (`htbl`) and row numbers (`hok`). -/
def reg30 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk30 (F := F) (a (30 : Fin 34)))
    (hd : ∀ c, pdats (30 : Fin 34) c = dat30 (a (30 : Fin 34)) Vin c) (htbl : ∀ c, (a (30 : Fin 34)).1 = fun k => Vr Vin c (pre30.ref k)) :
    Pipeline.RegionSeg (pcfgs (F := F)) a pdats () defs₀ 𝒱₀ L lv (30 : Fin 34) where
  win := (launch30 (F := F)).win.to₀
  block_pos := (launch30 (F := F)).block_pos
  stage_whole := (launch30 (F := F)).stage_whole
  K := Fin 8
  osem := osem30
  ho := ownSemFacts30
  hbody c := by rw [hd c]; exact (body_obligation30 (a (30 : Fin 34)) hok Vin c).loose
  hwaits := Pipeline.hwaits_of_owed_zero _ _ _ _ L lv (30 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v200 (gout30 (a (30 : Fin 34)) Vin c)) ∗ Rest c)
  X c := iprop(pt c (Memref.whole main_v109) (Vr Vin c main_v109) ∗ sems30 c)
  Y c := iprop(pt c (Memref.whole main_v109) (Vr Vin c main_v109)
    ∗ Pipeline.prefHeld (Ix := Unit) (Name := ℕ) (U := UU nD τ) (Lvl := ℕ) pre30 c (fun _ => fullShare) (a (30 : Fin 34)).1)
  Z c := Zrest30 Vin c
  hentry c := by
    rw [ownSemsListed30]
    have hsplit := Pipeline.arrays_of_unscopedBufs (p := (30 : Fin 34)) (pcfgs (F := F)) a pdats (launch30 (F := F)).win (launch30 (F := F)).arr_whole c
      ((pdats (30 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen30 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (30 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq30]; unfold Phi30
    iintro ⟨⟨Hx, Hos⟩, Ht, Hr⟩
    isplitl [Hx]; · iexact Hx
    isplitl [Hos]; · iexact Hos
    isplitl [Ht]; · iexact Ht
    iexact Hr
  hout c := by
    rw [ownSemsListed30, hd c, Phi_eq30]; unfold Phi30
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (30 : Fin 34)) (pcfgs (F := F)) a (Ix := Unit) (Name := ℕ) (U := UU nD τ) (Lvl := ℕ)
      (launch30 (F := F)).win (launch30 (F := F)).arr_whole c pdats ((pdats (30 : Fin 34) c).share_full fun _ => by rw [hd c]; rfl)
      (Vr Vin c) (Vr (Vout30 (a (30 : Fin 34)) Vin) c) ((pdats (30 : Fin 34) c).arrAt · (cfg30 (a (30 : Fin 34))).N)
      (fun w => by rw [hd c]; exact hF30 (a (30 : Fin 34)) Vin c w) (hrest30 (a (30 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen30 Vin c).symm)
      isplitl [Ht]; · rw [← htbl c]; iexact Ht
      isplitl [Hx]; · iexact Hx
      iexact Hz
    unfold Pipeline.Dat.owesAt Pipeline.owesWithin
    rw [show (pdats (30 : Fin 34) c).owed (Fin.last _) = 0 from by rw [hd c]; rfl]
    icases HO with ⟨%W, -, HO⟩; iexists W; iexact HO

end Cert.KernelIdeal.Hand

end
-- ==== Proof.KI.GatherDat31.lean ====
/-
  Gather region 31 (custom_call 31): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem31 : Fin 8 → SemLoc sig := fun | 0 => .dma 368 | 1 => .dma 369 | 2 => .dma 370 | 3 => .dma 371 | 4 => .dma 372 | 5 => .dma 373 | 6 => .dma 374 | 7 => .dma 375

/-- The eight counters at zero, as the run finds them and hands them back. -/
abbrev sems31 (c : Dev nD) : sProp (MM F) :=
  iprop(semVal ((c : Thread nD τ), osem31 0) 0 ∗ semVal ((c : Thread nD τ), osem31 1) 0 ∗ semVal ((c : Thread nD τ), osem31 2) 0
    ∗ semVal ((c : Thread nD τ), osem31 3) 0 ∗ semVal ((c : Thread nD τ), osem31 4) 0 ∗ semVal ((c : Thread nD τ), osem31 5) 0
    ∗ semVal ((c : Thread nD τ), osem31 6) 0 ∗ semVal ((c : Thread nD τ), osem31 7) 0)

/-- Word `j` of the eight the index table holds for point `i`, as the kernel's scalar load reads it. -/
def tblWord31 (c : Dev nD) (i : grid31.Coords) (tbl : Bf (F := F) c (Memref.whole main_v201)) (j : Fin 8) : BitVec 32 :=
  (Memref.whole main_v201).view.readAt (Elt F) (Rect.unit (s := S131072) (k31_off1 i (BitVec.ofNat 32 j.val)) S1.size (k31_off1_inb i j)).toLoadRect tbl
    (Shape.Idx.first (s := S1) (numel1_S1.symm ▸ Nat.one_pos))

/-- Window `w`'s block at point `t`, read off its array at the region's entry. -/
def iblk31 (a0 : (pcfg31 (F := F)).Adm) (Vin : Dev nD → Valuation τ sig (Elt F)) (c : Dev nD) (w : Fin (cfg31 a0).W) (t : Fin (cfg31 a0).N) :
    (((cfg31 a0).win w).xblock ((cfg31 a0).grid.coords t)).Idx → Elt F ((cfg31 a0).win w).elt :=
  (((cfg31 a0).win w).blk t).view.read (Elt F) (Vr Vin c (Pipeline.arrRef spec31 w))

/-- The result array the region leaves: the gathered and scaled rows of the embedding array, whole. -/
def gout31 (a0 : (pcfg31 (F := F)).Adm) (Vin : Dev nD → Valuation τ sig (Elt F)) (c : Dev nD) : Buf (Elt F) ((c : Thread nD τ).loc main_v203) :=
  gatherArr (Vr Vin c main_v109) (a0.1 0) (Vr Vin c main_v202)

/-- The invariant between points: the embedding array as entered, the kernel's semaphores at zero, the index table, the
    scoped buffers no window stages (the kernel's scratch among them). -/
def Phi31 (a0 : (pcfg31 (F := F)).Adm) (Vin : Dev nD → Valuation τ sig (Elt F)) (c : Dev nD) : sProp (MM F) :=
  iprop(pt c (Memref.whole main_v109) (Vr Vin c main_v109) ∗ sems31 c
    ∗ Pipeline.prefHeld (Ix := Unit) (Name := ℕ) (U := UU nD τ) (Lvl := ℕ) pre31 c (fun _ => fullShare) a0.1
    ∗ Pipeline.scopedRest (Ix := Unit) (Name := ℕ) (U := UU nD τ) (Lvl := ℕ) (Val := Elt F) spec31 c)

/-- The proof data on core `c`. -/
def dat31 (a0 : (pcfg31 (F := F)).Adm) (Vin : Dev nD → Valuation τ sig (Elt F)) (c : Dev nD) :
    Pipeline.Dat τ (Elt F) Unit ℕ (UU nD τ) ℕ ((pcfg31 (F := F)).at a0) c where
  A w := Vr Vin c (Pipeline.arrRef spec31 w)
  after w t := match w with
    | ⟨0, _⟩ => iblk31 a0 Vin c 0 t
    | ⟨1, _⟩ => (((cfg31 a0).win 1).blk t).view.read (Elt F) (gout31 a0 Vin c)
  Φ _ := Phi31 a0 Vin c
  q _ := fullShare
  owed _ := 0

theorem A_eq31 (a0 : (pcfg31 (F := F)).Adm) (Vin : Dev nD → Valuation τ sig (Elt F)) (c : Dev nD) (w : Fin (cfg31 a0).W) :
    (dat31 a0 Vin c).A w = Vr Vin c (Pipeline.arrRef spec31 w) := by dsimp only [dat31]
theorem after31_0 (a0 : (pcfg31 (F := F)).Adm) (Vin : Dev nD → Valuation τ sig (Elt F)) (c : Dev nD) (t : Fin (cfg31 a0).N) :
    (dat31 a0 Vin c).after 0 t = iblk31 a0 Vin c 0 t := by dsimp only [dat31]; rfl
theorem after31_1 (a0 : (pcfg31 (F := F)).Adm) (Vin : Dev nD → Valuation τ sig (Elt F)) (c : Dev nD) (t : Fin (cfg31 a0).N) :
    (dat31 a0 Vin c).after 1 t = (((cfg31 a0).win 1).blk t).view.read (Elt F) (gout31 a0 Vin c) := by dsimp only [dat31]; rfl
theorem Phi_eq31 (a0 : (pcfg31 (F := F)).Adm) (Vin : Dev nD → Valuation τ sig (Elt F)) (c : Dev nD) (t : Fin ((cfg31 a0).N + 1)) :
    (dat31 a0 Vin c).Φ t = Phi31 a0 Vin c := rfl
theorem owed_eq31 (a0 : (pcfg31 (F := F)).Adm) (Vin : Dev nD → Valuation τ sig (Elt F)) (c : Dev nD) (t : Fin ((cfg31 a0).N + 1)) :
    (dat31 a0 Vin c).owed t = 0 := rfl
theorem q_eq31 (a0 : (pcfg31 (F := F)).Adm) (Vin : Dev nD → Valuation τ sig (Elt F)) (c : Dev nD) (w : Fin (cfg31 a0).W) :
    (dat31 a0 Vin c).q w = fullShare := rfl

/-- The pinned family's configuration at region 31 is this one. -/
example (a : (p : Fin 34) → (pcfgs (F := F) p).Adm) : Pipeline.pin (pcfgs (F := F)) a (31 : Fin 34) = (pcfg31 (F := F)).at (a (31 : Fin 34)) := rfl

end Cert.KernelIdeal.Hand

end
-- ==== Proof.KI.GatherBody31.lean ====
/-
  Gather region 31 (custom_call 31): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat31
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk31 (c : Dev nD) (i : grid31.Coords) (tbl : Bf (F := F) c (Memref.whole main_v201)) : Prop where
  h1 : k31_chk1 (tblWord31 c i tbl 0)
  h2 : k31_chk2 (tblWord31 c i tbl 1)
  h3 : k31_chk3 (tblWord31 c i tbl 2)
  h4 : k31_chk4 (tblWord31 c i tbl 3)
  h5 : k31_chk5 (tblWord31 c i tbl 4)
  h6 : k31_chk6 (tblWord31 c i tbl 5)
  h7 : k31_chk7 (tblWord31 c i tbl 6)
  h8 : k31_chk8 (tblWord31 c i tbl 7)

/-- A one-row slice of the embedding array at the row a word names, read at lane `z 1`: the array's element there. -/
theorem rowRead31 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun31 (c : Dev nD) (i : grid31.Coords)
    (M3 : Memref sig .tc .vmem S8x1 .f32) (h3 : M3.IsWhole) (M4 : Memref sig .tc .vmem S8x128 .f32) (h4 : M4.IsWhole)
    (tbl : Bf (F := F) c (Memref.whole main_v201)) (x : Bf (F := F) c (Memref.whole main_v109))
    (vb : Vec F S8x1 .f32) (hchk : GatherChk31 c i tbl) (Q : PUnit → sProp (MM F)) :
    iprop(pt c (Memref.whole main_v201) tbl ∗ pt c (Memref.whole main_v109) x
      ∗ owns (c : Thread nD τ) M3 fullShare vb ∗ (∃ d, owns (c : Thread nD τ) M4 fullShare d)
      ∗ (∃ fs, pt c (Memref.whole cc31_scratch0) fs) ∗ sems31 c ∗ (∃ W, owes (c : Thread nD τ) (0 : CellTallies nD τ sig Unit) W)
      ∗ (iprop(pt c (Memref.whole main_v201) tbl ∗ pt c (Memref.whole main_v109) x
          ∗ owns (c : Thread nD τ) M3 fullShare vb ∗ owns (c : Thread nD τ) M4 fullShare (gatherBlk x (tblWord31 c i tbl) vb)
          ∗ (∃ fs, pt c (Memref.whole cc31_scratch0) fs) ∗ sems31 c ∗ (∃ W, owes (c : Thread nD τ) (0 : CellTallies nD τ sig Unit) W)) -∗ Q ⟨⟩))
    ⊢ wp frame (wpE (defs₀ (F := F)) 𝒱₀ c none) Set.univ
        (cc31__gather_kernel i (Memref.whole main_v201) (Memref.isWhole_whole _) (Memref.whole main_v109) (Memref.isWhole_whole _) M3 h3 M4 h4
          (Memref.whole cc31_scratch0) (Memref.isWhole_whole _) cc31_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 368).1 $$ Hx
  icases Hx' with ⟨Hxr, Hx0, Hx1, Hx2, Hx3, Hx4, Hx5, Hx6, Hx7⟩
  sl_unfold [cc31__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 368).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k31_pay1 gatherBlk
    show FloatOps.mulf _ _ = FloatOps.mulf _ _
    congr 1
    · unfold gatherRun31.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun31.sl.dma8 gatherRun31.sl.dma8_1 gatherRun31.sl.dma8_2 gatherRun31.sl.dma8_3 gatherRun31.sl.dma8_4 gatherRun31.sl.dma8_5
        gatherRun31.sl.dma8_6 gatherRun31.sl.dma8_7 gatherRun31.sl.r gatherRun31.sl.r_1 gatherRun31.sl.r_2 gatherRun31.sl.r_3 gatherRun31.sl.r_4
        gatherRun31.sl.r_5 gatherRun31.sl.r_6 gatherRun31.sl.r_7
      refine canonRows8 _ _ _ _ _ _ _ _ _ _ _ _ _ _ _ _ (fun r d => x (embIdx (rowOf (tblWord31 c i tbl r)) d)) ?_ ?_ ?_ ?_ ?_ ?_ ?_ ?_ y
      · exact fun z => rowRead31 c _ (tblWord31 c i tbl 0) rfl rfl _ _ x z
      · exact fun z => rowRead31 c _ (tblWord31 c i tbl 1) rfl rfl _ _ x z
      · exact fun z => rowRead31 c _ (tblWord31 c i tbl 2) rfl rfl _ _ x z
      · exact fun z => rowRead31 c _ (tblWord31 c i tbl 3) rfl rfl _ _ x z
      · exact fun z => rowRead31 c _ (tblWord31 c i tbl 4) rfl rfl _ _ x z
      · exact fun z => rowRead31 c _ (tblWord31 c i tbl 5) rfl rfl _ _ x z
      · exact fun z => rowRead31 c _ (tblWord31 c i tbl 6) rfl rfl _ _ x z
      · exact fun z => rowRead31 c _ (tblWord31 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk31.lean ====
/-
  Gather region 31 (custom_call 31): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat31
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word31 (i : grid31.Coords) (j : Fin 8) : k31_off1 i (BitVec.ofNat 32 j.val) 0 = (i 0).val * 8 + j.val := by
  have hi : (i 0).val < 16384 := (i 0).isLt
  have hj : j.val < 8 := j.isLt
  unfold k31_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word31 (i : grid31.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord31_eq (c : Dev nD) (i : grid31.Coords) (tbl : Bf (F := F) c (Memref.whole main_v201)) (j : Fin 8)
    (e : Fin 131072) (he : e.val = (i 0).val * 8 + j.val) : tblWord31 c i tbl j = tbl (tblIdx e) := by
  unfold tblWord31
  show tbl _ = tbl _
  refine congrArg tbl ?_
  funext a; apply Fin.ext
  match a with
  | ⟨0, _⟩ =>
    show k31_off1 i (BitVec.ofNat 32 j.val) 0 + 1 * 0 = e.val
    rw [off_word31, he]; omega

/-- Row `j` of the value window's block at point `t` is the value array's row `8 t + j`. -/
theorem valBlk31_eq (a0 : (pcfg31 (F := F)).Adm) (Vin : Dev nD → Valuation τ sig (Elt F)) (c : Dev nD) (t : Fin (cfg31 a0).N)
    (j : Fin 8) (e : Fin 131072) (he : e.val = ((grid31.coords t) 0).val * 8 + j.val) :
    iblk31 a0 Vin c 0 t (colIdx j) = Vr Vin c main_v202 (valIdx e) := by
  unfold iblk31
  show Vr Vin c main_v202 _ = Vr Vin c main_v202 _
  refine congrArg (Vr Vin c main_v202) ?_
  funext a; apply Fin.ext
  match a with
  | ⟨0, _⟩ =>
    show (BitVec.ofNat 32 ((grid31.coords t) 0).val).toNat * 8 + 1 * j.val = e.val
    rw [coord_word31, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk31 (a0 : (pcfg31 (F := F)).Adm) (Vin : Dev nD → Valuation τ sig (Elt F)) (c : Dev nD) (t : Fin (cfg31 a0).N) :
    gatherBlk (Vr Vin c main_v109) (tblWord31 c (grid31.coords t) (a0.1 0)) (iblk31 a0 Vin c 0 t)
      = (((cfg31 a0).win 1).blk t).view.read (Elt F) (gout31 a0 Vin c) := by
  funext y
  show gatherBlk _ _ _ y = gout31 a0 Vin c ((((cfg31 a0).win 1).blk t).view.emb y)
  unfold gatherBlk gout31 gatherArr
  have e0 : ((((cfg31 a0).win 1).blk t).view.emb y (0 : Fin 2)).val = ((grid31.coords t) 0).val * 8 + (y 0).val := by
    show (BitVec.ofNat 32 ((grid31.coords t) 0).val).toNat * 8 + 1 * (y 0).val = _
    rw [coord_word31]; omega
  have e1 : (((cfg31 a0).win 1).blk t).view.emb y (1 : Fin 2) = y 1 := Fin.ext (by
    show (0#32 : BitVec 32).toNat * 128 + 1 * (y 1).val = (y 1).val
    show 0 * 128 + 1 * (y 1).val = (y 1).val
    omega)
  rw [tblWord31_eq c (grid31.coords t) (a0.1 0) (y 0) _ e0, valBlk31_eq a0 Vin c t (y 0) _ e0, e1]

end Cert.KernelIdeal.Hand

end
-- ==== Proof.KI.GatherRegion31.lean ====
/-
  Gather region 31 (custom_call 31): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody31
import proofs.«414509_j14181982011419_2_alg».proof.Proof.KI.GatherBlk31
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk31 (a0 : (pcfg31 (F := F)).Adm) : Prop := ∀ e : S131072.Idx, (a0.1 0 e).toNat < 100000

/-! ## The grid and the result window's blocks -/

/-- On the one-axis grid a point's coordinate is its number. -/
theorem regCoords31 (t : Fin grid31.N) : (grid31.coords t 0).val = t.val := by
  have ht : t.val < 16384 := N_31 ▸ t.isLt
  show t.val / grid31.stride 0 % grid31.bound 0 = t.val
  rw [show grid31.stride 0 = 1 from by decide, show grid31.bound 0 = 16384 from rfl, Nat.div_one, Nat.mod_eq_of_lt ht]

/-- A point's number as the 32-bit word the index maps compute with. -/
theorem regWord31 (t : Fin grid31.N) : (BitVec.ofNat 32 (grid31.coords t 0).val).toNat = t.val := by
  have ht : t.val < 16384 := N_31 ▸ t.isLt
  rw [BitVec.toNat_ofNat, regCoords31]; omega

/-- The result window's block at point `t` is block `t` along the rows, at zero along the lanes. -/
theorem regOutIndex31 (a0 : (pcfg31 (F := F)).Adm) (t : Fin (cfg31 a0).N) : ((cfg31 a0).win 1).index t = ![t.val, 0] := by
  show cc31_transform_2 (grid31.coords t) = _
  unfold cc31_transform_2
  funext a; fin_cases a
  · exact regWord31 t
  · rfl

/-- The result window is written back at every point: consecutive points have different blocks. -/
theorem regOutFlush31 (a0 : (pcfg31 (F := F)).Adm) (t : Fin (cfg31 a0).N) : ((cfg31 a0).win 1).flush t = true := by
  have htN : t.val < 16384 := N_31 ▸ t.isLt
  rw [Pipeline.Window.flush_out _ rfl]
  by_cases h : t.val + 1 = 16384
  · exact Or.inl (show t.val + 1 = grid31.N by rw [N_31]; exact h)
  · have hlt : t.val + 1 < grid31.N := by rw [N_31]; omega
    refine Or.inr ⟨hlt, fun e => ?_⟩
    have e' : (![t.val + 1, 0] : Fin 2 → ℕ) = ![t.val, 0] := (regOutIndex31 a0 ⟨t.val + 1, hlt⟩).symm.trans (e.trans (regOutIndex31 a0 t))
    have e0 := congrFun e' 0
    simp at e0

/-- The index table, held as the pipeline's one prefetched table. -/
theorem prefHeldEq31 (a0 : (pcfg31 (F := F)).Adm) (c : Dev nD) :
    (Pipeline.prefHeld (Ix := Unit) (Name := ℕ) (U := UU nD τ) (Lvl := ℕ) pre31 c (fun _ => fullShare) a0.1 : sProp (MM F))
      = pt c (Memref.whole main_v201) (a0.1 0) := by
  unfold Pipeline.prefHeld
  rw [show (Finset.univ : Finset (Fin pre31.K)) = {0} from rfl, BI.bigSep_singleton]
  rfl

/-- The value window's staging buffer holds its block at every point. -/
theorem beforeVal31 (a0 : (pcfg31 (F := F)).Adm) (Vin : Dev nD → Valuation τ sig (Elt F)) (c : Dev nD) (t : Fin (cfg31 a0).N) (d) :
    (dat31 a0 Vin c).before 0 t d = iblk31 a0 Vin c 0 t :=
  ((dat31 a0 Vin c).before_in_eq_fetched 0 rfl (fun _ => rfl) (fun _ _ _ => rfl)
    (fun t => by rw [after31_0]; unfold Dat.blockOf iblk31; rw [A_eq31]; try rfl) t d).trans
    (by unfold Dat.fetched Dat.blockOf iblk31; rw [A_eq31]; try rfl)

/-! ## The kernel's checks, from the table's range -/

/-- Each of the point's eight words is a word of the table, so a row number. -/
theorem tblWordLt31 (a0 : (pcfg31 (F := F)).Adm) (hok : GatherOk31 a0) (c : Dev nD) (i : grid31.Coords) (j : Fin 8) :
    (tblWord31 c i (a0.1 0) j).toNat < 100000 := by
  unfold tblWord31
  exact hok _

/-- So the kernel's eight checks hold at every point. -/
theorem gatherChk31 (a0 : (pcfg31 (F := F)).Adm) (hok : GatherOk31 a0) (c : Dev nD) (i : grid31.Coords) : GatherChk31 c i (a0.1 0) :=
  ⟨⟨chkRow _ (tblWordLt31 a0 hok c i 0), chkRow _ (tblWordLt31 a0 hok c i 0)⟩,
   ⟨chkRow _ (tblWordLt31 a0 hok c i 1), chkRow _ (tblWordLt31 a0 hok c i 1)⟩,
   ⟨chkRow _ (tblWordLt31 a0 hok c i 2), chkRow _ (tblWordLt31 a0 hok c i 2)⟩,
   ⟨chkRow _ (tblWordLt31 a0 hok c i 3), chkRow _ (tblWordLt31 a0 hok c i 3)⟩,
   ⟨chkRow _ (tblWordLt31 a0 hok c i 4), chkRow _ (tblWordLt31 a0 hok c i 4)⟩,
   ⟨chkRow _ (tblWordLt31 a0 hok c i 5), chkRow _ (tblWordLt31 a0 hok c i 5)⟩,
   ⟨chkRow _ (tblWordLt31 a0 hok c i 6), chkRow _ (tblWordLt31 a0 hok c i 6)⟩,
   chkRow _ (tblWordLt31 a0 hok c i 7)⟩

/-! ## The body obligation, at a generic point -/

/-- What the body is called with at point `t`: the invariant, the core's dues, each window's current staging memref at
    what the pipeline left there, -/
def bodyPre31 (a0 : (pcfg31 (F := F)).Adm) (Vin : Dev nD → Valuation τ sig (Elt F)) (c : Dev nD) (t : Fin (cfg31 a0).N) : sProp (MM F) :=
  iprop((dat31 a0 Vin c).Φ t.castSucc ∗ (dat31 a0 Vin c).owesAt () t.castSucc
    ∗ (∃ d, owns (c : Thread nD τ) (((cfg31 a0).win 0).stage ((cfg31 a0).slots t 0)) fullShare ((dat31 a0 Vin c).before 0 t d))
    ∗ (∃ d, owns (c : Thread nD τ) (((cfg31 a0).win 1).stage ((cfg31 a0).slots t 1)) fullShare ((dat31 a0 Vin c).before 1 t d)))

/-- and what it returns. -/
def bodyPost31 (a0 : (pcfg31 (F := F)).Adm) (Vin : Dev nD → Valuation τ sig (Elt F)) (c : Dev nD) (t : Fin (cfg31 a0).N) : sProp (MM F) :=
  iprop((dat31 a0 Vin c).Φ t.succ ∗ (dat31 a0 Vin c).owesAt () t.succ
    ∗ owns (c : Thread nD τ) (((cfg31 a0).win 0).stage ((cfg31 a0).slots t 0)) fullShare ((dat31 a0 Vin c).after 0 t)
    ∗ owns (c : Thread nD τ) (((cfg31 a0).win 1).stage ((cfg31 a0).slots t 1)) fullShare ((dat31 a0 Vin c).after 1 t))

/-- The body at any point: the invariant opened into the embedding array, the semaphores, the table and the scratch;
    the value window's memref at its block; the checks from the table's range; so the kernel's run applies, and what it
    leaves in the result window's memref is the point's block of the gathered array. -/
theorem sound_body31 (a0 : (pcfg31 (F := F)).Adm) (hok : GatherOk31 a0) (Vin : Dev nD → Valuation τ sig (Elt F)) (c : Dev nD) (t : Fin (cfg31 a0).N) :
    bodyPre31 a0 Vin c t ⊢ wp frame (wpE (defs₀ (F := F)) 𝒱₀ c none) Set.univ
      (defs₀ .tc (cfg31 a0).body ((cfg31 a0).bodyArgs t ((cfg31 a0).slots t))) (fun _ => bodyPost31 a0 Vin c t) := by
  unfold bodyPre31 bodyPost31
  simp only [beforeVal31]
  rw [Phi_eq31, Phi_eq31, after31_0, after31_1, ← gatherBlk_blk31]
  unfold Phi31 Pipeline.Dat.owesAt Pipeline.owesWithin
  rw [owed_eq31, owed_eq31, prefHeldEq31, scopedRest31_split]
  iintro ⟨⟨Hx, Hos, Ht, ⟨%fs, Hs⟩, Hsb⟩, ⟨%W, %hW, HO⟩, ⟨%d0, H0⟩, ⟨%d1, H1⟩⟩
  iapply (gatherRun31 c (grid31.coords t) _ _ _ _ (a0.1 0) (Vr Vin c main_v109) (iblk31 a0 Vin c 0 t) (gatherChk31 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation31 (a0 : (pcfg31 (F := F)).Adm) (hok : GatherOk31 a0) (Vin : Dev nD → Valuation τ sig (Elt F)) (c : Dev nD) :
    BodyObligation (dat31 a0 Vin c) (defs₀ (F := F)) 𝒱₀ () Set.univ := fun t => by
  rw [bigSep_W31, bigSep_W31]
  exact sound_body31 a0 hok Vin c t

/-! ## From the blocks to the arrays -/

/-- The value array after the region: as entered. -/
theorem arrAt31_in (a0 : (pcfg31 (F := F)).Adm) (Vin : Dev nD → Valuation τ sig (Elt F)) (c : Dev nD) :
    (dat31 a0 Vin c).arrAt 0 (cfg31 a0).N = Vr Vin c main_v202 :=
  ((dat31 a0 Vin c).arrAt_in 0 rfl _).trans (A_eq31 a0 Vin c 0)

/-- Every index of the result array is in some point's block: row `e`, lane `d` is element `(e % 8, d)` of the block
    of point `e / 8`. -/
theorem regOutCover31 (a0 : (pcfg31 (F := F)).Adm) (i : S131072x128.Idx) :
    ∃ t : Fin (cfg31 a0).N, ((cfg31 a0).win 1).flush t = true ∧ i ∈ (((cfg31 a0).win 1).blk t).view.set := by
  have hi0 : (i 0).val < 131072 := (i 0).isLt
  have hi1 : (i 1).val < 128 := (i 1).isLt
  have hN : (i 0).val / 8 < grid31.N := by rw [N_31]; omega
  obtain ⟨t, ht⟩ : ∃ t : Fin (cfg31 a0).N, t.val = (i 0).val / 8 := ⟨⟨_, hN⟩, rfl⟩
  have hx : (((cfg31 a0).win 1).blk t).view.emb (ValueIdx.ix2 ⟨(i 0).val % 8, Nat.mod_lt _ (by decide)⟩ (i 1)) = i := by
    funext a; apply Fin.ext
    have e0 : ((cfg31 a0).win 1).index t (0 : Fin 2) = t.val := congrFun (regOutIndex31 a0 t) (0 : Fin 2)
    have e1 : ((cfg31 a0).win 1).index t (1 : Fin 2) = 0 := congrFun (regOutIndex31 a0 t) (1 : Fin 2)
    match a with
    | ⟨0, _⟩ => show ((cfg31 a0).win 1).index t (0 : Fin 2) * 8 + 1 * ((i 0).val % 8) = (i 0).val; omega
    | ⟨1, _⟩ => show ((cfg31 a0).win 1).index t (1 : Fin 2) * 128 + 1 * (i 1).val = (i 1).val; omega
  exact ⟨t, regOutFlush31 a0 t, hx ▸ (((cfg31 a0).win 1).blk t).view.emb_mem_set _⟩

/-- The result array after the region: the gathered and scaled rows, whole. -/
theorem arrAt31_out (a0 : (pcfg31 (F := F)).Adm) (Vin : Dev nD → Valuation τ sig (Elt F)) (c : Dev nD) :
    (dat31 a0 Vin c).arrAt 1 (cfg31 a0).N = gout31 a0 Vin c :=
  (dat31 a0 Vin c).arrAt_eq_of_cover 1 (gout31 a0 Vin c)
    (fun t _ => by
      show ((cfg31 a0).win 1).cut ((cfg31 a0).grid.coords t) ((dat31 a0 Vin c).after 1 t) = _
      rw [after31_1])
    (regOutCover31 a0)

/-! ## The region as a segment of @main -/

/-- The ownership layout of the kernel's eight semaphores. -/
theorem ownSemFacts31 : Pipeline.OwnSemFacts spec31 osem31 := by decide

/-- The kernel's own cells at zero, listed. -/
theorem ownSemsListed31 (c : Dev nD) :
    (Pipeline.ownSems0 (Ix := Unit) (Name := ℕ) (U := UU nD τ) (Lvl := ℕ) (Val := Elt F) (τ := τ) osem31 c : sProp (MM F)) = sems31 c :=
  Pipeline.ownSems0_eq_of_list c osem31 [0, 1, 2, 3, 4, 5, 6, 7] (by decide) (by decide)

/-- The unscoped buffers that are no window's array, no table, and not the embedding array. -/
abbrev restRefs31 : Finset (Ref sig .tc) :=
  (((Finset.univ.filter fun b : Ref sig .tc => ¬ b.isScoped) \ Finset.univ.image (Pipeline.arrRef spec31)) \ Finset.univ.image pre31.ref) \ {main_v109}

/-- Those buffers, each whole at its contents under `Vin`: what bypasses the region. -/
def Zrest31 (Vin : Dev nD → Valuation τ sig (Elt F)) (c : Dev nD) : sProp (MM F) :=
  bigSep restRefs31 fun b => ((c : Thread nD τ).loc b) ↦{fullShare} Vr Vin c b

/-- The embedding array is an unscoped buffer that is no window's array and no table. -/
theorem embArrMem31 : ({main_v109} : Finset (Ref sig .tc)) ⊆
    ((Finset.univ.filter fun b : Ref sig .tc => ¬ b.isScoped) \ Finset.univ.image (Pipeline.arrRef spec31)) \ Finset.univ.image pre31.ref := by
  decide

/-- The unscoped buffers that are no window's array: the index table, the embedding array, and the rest. -/
theorem unscopedRestOpen31 (Vin : Dev nD → Valuation τ sig (Elt F)) (c : Dev nD) :
    (Pipeline.unscopedRest (Ix := Unit) (Name := ℕ) (U := UU nD τ) (Lvl := ℕ) spec31 c (Vr Vin c) : sProp (MM F))
      = iprop(Pipeline.prefHeld pre31 c (fun _ => fullShare) (fun k => Vr Vin c (pre31.ref k))
          ∗ pt c (Memref.whole main_v109) (Vr Vin c main_v109) ∗ Zrest31 Vin c) := by
  rw [Pipeline.unscopedRest_split preFacts31 c (Vr Vin c)]
  unfold Pipeline.unscopedRestP Zrest31
  rw [BI.bigSep_sdiff_split embArrMem31, BI.bigSep_singleton]
  rfl

/-- The buffer contents when the region is left: the result array at the gathered rows, every other buffer as entered. -/
abbrev Vout31 (a0 : (pcfg31 (F := F)).Adm) (Vin : Dev nD → Valuation τ sig (Elt F)) (c : Dev nD) : Valuation τ sig (Elt F) :=
  Function.update (Vin c) main_v203 (gout31 a0 Vin c)

/-- At the exit each of the region's arrays holds what the pipeline leaves; -/
theorem hF31 (a0 : (pcfg31 (F := F)).Adm) (Vin : Dev nD → Valuation τ sig (Elt F)) (c : Dev nD) (w : Fin (cfg31 a0).W) :
    (dat31 a0 Vin c).arrAt w (cfg31 a0).N = Vr (Vout31 a0 Vin) c (Pipeline.arrRef spec31 w) := by
  match w with
  | ⟨0, _⟩ =>
    show (dat31 a0 Vin c).arrAt 0 (cfg31 a0).N = Vr (Vout31 a0 Vin) c (Pipeline.arrRef spec31 0)
    rw [arrAt31_in]
    exact (Function.update_of_ne (StableHlo.devRef_ne_of_ne (by decide) : (Proc.devRef .tc main_v202 : DevRef τ sig) ≠ Proc.devRef .tc main_v203) _ _).symm
  | ⟨1, _⟩ =>
    show (dat31 a0 Vin c).arrAt 1 (cfg31 a0).N = Vr (Vout31 a0 Vin) c (Pipeline.arrRef spec31 1)
    rw [arrAt31_out]
    exact (Function.update_self (Proc.devRef .tc main_v203 : DevRef τ sig) _ (Vin c)).symm

/-- and every other buffer what it held at entry. -/
theorem hrest31 (a0 : (pcfg31 (F := F)).Adm) (Vin : Dev nD → Valuation τ sig (Elt F)) (c : Dev nD) :
    ∀ b : Ref sig .tc, b ∉ Finset.univ.image (Pipeline.arrRef spec31) → Vr (Vout31 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat31` at the entry valuation `Vin`
    (`hd`), the index table's contents under `Vin` being the pinned ones (`htbl`) and row numbers (`hok`). -/
def reg31 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk31 (F := F) (a (31 : Fin 34)))
    (hd : ∀ c, pdats (31 : Fin 34) c = dat31 (a (31 : Fin 34)) Vin c) (htbl : ∀ c, (a (31 : Fin 34)).1 = fun k => Vr Vin c (pre31.ref k)) :
    Pipeline.RegionSeg (pcfgs (F := F)) a pdats () defs₀ 𝒱₀ L lv (31 : Fin 34) where
  win := (launch31 (F := F)).win.to₀
  block_pos := (launch31 (F := F)).block_pos
  stage_whole := (launch31 (F := F)).stage_whole
  K := Fin 8
  osem := osem31
  ho := ownSemFacts31
  hbody c := by rw [hd c]; exact (body_obligation31 (a (31 : Fin 34)) hok Vin c).loose
  hwaits := Pipeline.hwaits_of_owed_zero _ _ _ _ L lv (31 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v203 (gout31 (a (31 : Fin 34)) Vin c)) ∗ Rest c)
  X c := iprop(pt c (Memref.whole main_v109) (Vr Vin c main_v109) ∗ sems31 c)
  Y c := iprop(pt c (Memref.whole main_v109) (Vr Vin c main_v109)
    ∗ Pipeline.prefHeld (Ix := Unit) (Name := ℕ) (U := UU nD τ) (Lvl := ℕ) pre31 c (fun _ => fullShare) (a (31 : Fin 34)).1)
  Z c := Zrest31 Vin c
  hentry c := by
    rw [ownSemsListed31]
    have hsplit := Pipeline.arrays_of_unscopedBufs (p := (31 : Fin 34)) (pcfgs (F := F)) a pdats (launch31 (F := F)).win (launch31 (F := F)).arr_whole c
      ((pdats (31 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen31 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (31 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq31]; unfold Phi31
    iintro ⟨⟨Hx, Hos⟩, Ht, Hr⟩
    isplitl [Hx]; · iexact Hx
    isplitl [Hos]; · iexact Hos
    isplitl [Ht]; · iexact Ht
    iexact Hr
  hout c := by
    rw [ownSemsListed31, hd c, Phi_eq31]; unfold Phi31
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (31 : Fin 34)) (pcfgs (F := F)) a (Ix := Unit) (Name := ℕ) (U := UU nD τ) (Lvl := ℕ)
      (launch31 (F := F)).win (launch31 (F := F)).arr_whole c pdats ((pdats (31 : Fin 34) c).share_full fun _ => by rw [hd c]; rfl)
      (Vr Vin c) (Vr (Vout31 (a (31 : Fin 34)) Vin) c) ((pdats (31 : Fin 34) c).arrAt · (cfg31 (a (31 : Fin 34))).N)
      (fun w => by rw [hd c]; exact hF31 (a (31 : Fin 34)) Vin c w) (hrest31 (a (31 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen31 Vin c).symm)
      isplitl [Ht]; · rw [← htbl c]; iexact Ht
      isplitl [Hx]; · iexact Hx
      iexact Hz
    unfold Pipeline.Dat.owesAt Pipeline.owesWithin
    rw [show (pdats (31 : Fin 34) c).owed (Fin.last _) = 0 from by rw [hd c]; rfl]
    icases HO with ⟨%W, -, HO⟩; iexists W; iexact HO

end Cert.KernelIdeal.Hand

end
-- ==== Proof.KI.GatherDat32.lean ====
/-
  Gather region 32 (custom_call 32): the pipeline's proof data. The windows' arrays at the region's entry contents; after
  the body the value window's staging buffer still at its block and the result window's at its block of the gathered
  array; between points the embedding array (left in place, read by the kernel's own transfers), the kernel's eight
  semaphores at zero, the index table and the scoped buffers no window stages; nothing owed.
-/
import proofs.«414509_j14181982011419_2_alg».proof.Proof.KI.Common
import proofs.«414509_j14181982011419_2_alg».proof.Proof.KI.GatherSpec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own eight DMA semaphores (its semaphore array's cells). -/
abbrev osem32 : Fin 8 → SemLoc sig := fun | 0 => .dma 380 | 1 => .dma 381 | 2 => .dma 382 | 3 => .dma 383 | 4 => .dma 384 | 5 => .dma 385 | 6 => .dma 386 | 7 => .dma 387

/-- The eight counters at zero, as the run finds them and hands them back. -/
abbrev sems32 (c : Dev nD) : sProp (MM F) :=
  iprop(semVal ((c : Thread nD τ), osem32 0) 0 ∗ semVal ((c : Thread nD τ), osem32 1) 0 ∗ semVal ((c : Thread nD τ), osem32 2) 0
    ∗ semVal ((c : Thread nD τ), osem32 3) 0 ∗ semVal ((c : Thread nD τ), osem32 4) 0 ∗ semVal ((c : Thread nD τ), osem32 5) 0
    ∗ semVal ((c : Thread nD τ), osem32 6) 0 ∗ semVal ((c : Thread nD τ), osem32 7) 0)

/-- Word `j` of the eight the index table holds for point `i`, as the kernel's scalar load reads it. -/
def tblWord32 (c : Dev nD) (i : grid32.Coords) (tbl : Bf (F := F) c (Memref.whole main_v204)) (j : Fin 8) : BitVec 32 :=
  (Memref.whole main_v204).view.readAt (Elt F) (Rect.unit (s := S131072) (k32_off1 i (BitVec.ofNat 32 j.val)) S1.size (k32_off1_inb i j)).toLoadRect tbl
    (Shape.Idx.first (s := S1) (numel1_S1.symm ▸ Nat.one_pos))

/-- Window `w`'s block at point `t`, read off its array at the region's entry. -/
def iblk32 (a0 : (pcfg32 (F := F)).Adm) (Vin : Dev nD → Valuation τ sig (Elt F)) (c : Dev nD) (w : Fin (cfg32 a0).W) (t : Fin (cfg32 a0).N) :
    (((cfg32 a0).win w).xblock ((cfg32 a0).grid.coords t)).Idx → Elt F ((cfg32 a0).win w).elt :=
  (((cfg32 a0).win w).blk t).view.read (Elt F) (Vr Vin c (Pipeline.arrRef spec32 w))

/-- The result array the region leaves: the gathered and scaled rows of the embedding array, whole. -/
def gout32 (a0 : (pcfg32 (F := F)).Adm) (Vin : Dev nD → Valuation τ sig (Elt F)) (c : Dev nD) : Buf (Elt F) ((c : Thread nD τ).loc main_v206) :=
  gatherArr (Vr Vin c main_v109) (a0.1 0) (Vr Vin c main_v205)

/-- The invariant between points: the embedding array as entered, the kernel's semaphores at zero, the index table, the
    scoped buffers no window stages (the kernel's scratch among them). -/
def Phi32 (a0 : (pcfg32 (F := F)).Adm) (Vin : Dev nD → Valuation τ sig (Elt F)) (c : Dev nD) : sProp (MM F) :=
  iprop(pt c (Memref.whole main_v109) (Vr Vin c main_v109) ∗ sems32 c
    ∗ Pipeline.prefHeld (Ix := Unit) (Name := ℕ) (U := UU nD τ) (Lvl := ℕ) pre32 c (fun _ => fullShare) a0.1
    ∗ Pipeline.scopedRest (Ix := Unit) (Name := ℕ) (U := UU nD τ) (Lvl := ℕ) (Val := Elt F) spec32 c)

/-- The proof data on core `c`. -/
def dat32 (a0 : (pcfg32 (F := F)).Adm) (Vin : Dev nD → Valuation τ sig (Elt F)) (c : Dev nD) :
    Pipeline.Dat τ (Elt F) Unit ℕ (UU nD τ) ℕ ((pcfg32 (F := F)).at a0) c where
  A w := Vr Vin c (Pipeline.arrRef spec32 w)
  after w t := match w with
    | ⟨0, _⟩ => iblk32 a0 Vin c 0 t
    | ⟨1, _⟩ => (((cfg32 a0).win 1).blk t).view.read (Elt F) (gout32 a0 Vin c)
  Φ _ := Phi32 a0 Vin c
  q _ := fullShare
  owed _ := 0

theorem A_eq32 (a0 : (pcfg32 (F := F)).Adm) (Vin : Dev nD → Valuation τ sig (Elt F)) (c : Dev nD) (w : Fin (cfg32 a0).W) :
    (dat32 a0 Vin c).A w = Vr Vin c (Pipeline.arrRef spec32 w) := by dsimp only [dat32]
theorem after32_0 (a0 : (pcfg32 (F := F)).Adm) (Vin : Dev nD → Valuation τ sig (Elt F)) (c : Dev nD) (t : Fin (cfg32 a0).N) :
    (dat32 a0 Vin c).after 0 t = iblk32 a0 Vin c 0 t := by dsimp only [dat32]; rfl
theorem after32_1 (a0 : (pcfg32 (F := F)).Adm) (Vin : Dev nD → Valuation τ sig (Elt F)) (c : Dev nD) (t : Fin (cfg32 a0).N) :
    (dat32 a0 Vin c).after 1 t = (((cfg32 a0).win 1).blk t).view.read (Elt F) (gout32 a0 Vin c) := by dsimp only [dat32]; rfl
theorem Phi_eq32 (a0 : (pcfg32 (F := F)).Adm) (Vin : Dev nD → Valuation τ sig (Elt F)) (c : Dev nD) (t : Fin ((cfg32 a0).N + 1)) :
    (dat32 a0 Vin c).Φ t = Phi32 a0 Vin c := rfl
theorem owed_eq32 (a0 : (pcfg32 (F := F)).Adm) (Vin : Dev nD → Valuation τ sig (Elt F)) (c : Dev nD) (t : Fin ((cfg32 a0).N + 1)) :
    (dat32 a0 Vin c).owed t = 0 := rfl
theorem q_eq32 (a0 : (pcfg32 (F := F)).Adm) (Vin : Dev nD → Valuation τ sig (Elt F)) (c : Dev nD) (w : Fin (cfg32 a0).W) :
    (dat32 a0 Vin c).q w = fullShare := rfl

/-- The pinned family's configuration at region 32 is this one. -/
example (a : (p : Fin 34) → (pcfgs (F := F) p).Adm) : Pipeline.pin (pcfgs (F := F)) a (32 : Fin 34) = (pcfg32 (F := F)).at (a (32 : Fin 34)) := rfl

end Cert.KernelIdeal.Hand

end
-- ==== Proof.KI.GatherBody32.lean ====
/-
  Gather region 32 (custom_call 32): the kernel body's triple. At a grid point, from the index table, the embedding array
  (left in place), the value block's and the result block's staging buffers, the scratch and the kernel's eight
  semaphores at zero: the kernel reads the point's eight index words, starts the eight row transfers into the scratch's
  rows, waits for all, and stores the scratch scaled row by row — leaving the result block at the gathered rows times
  the values, everything else as it was.
-/
import proofs.«414509_j14181982011419_2_alg».proof.Proof.KI.GatherDat32
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point's eight index words are row numbers of the embedding array: what the kernel's eight checks ask. -/
structure GatherChk32 (c : Dev nD) (i : grid32.Coords) (tbl : Bf (F := F) c (Memref.whole main_v204)) : Prop where
  h1 : k32_chk1 (tblWord32 c i tbl 0)
  h2 : k32_chk2 (tblWord32 c i tbl 1)
  h3 : k32_chk3 (tblWord32 c i tbl 2)
  h4 : k32_chk4 (tblWord32 c i tbl 3)
  h5 : k32_chk5 (tblWord32 c i tbl 4)
  h6 : k32_chk6 (tblWord32 c i tbl 5)
  h7 : k32_chk7 (tblWord32 c i tbl 6)
  h8 : k32_chk8 (tblWord32 c i tbl 7)

/-- A one-row slice of the embedding array at the row a word names, read at lane `z 1`: the array's element there. -/
theorem rowRead32 (c : Dev nD) (off : Fin 2 → ℕ) (w : BitVec 32) (h0 : off 0 = w.toNat) (h1 : off 1 = 0)
    (h : ∀ a, off a + S1x128.size a ≤ S100000x128.size a) (hp) (x : Bf (F := F) c (Memref.whole main_v109)) (z : S1x128.Idx) :
    ReadAs.same.apply (View.read (Elt F) ((Memref.whole main_v109).slice (Rect.unit (s := S100000x128) off S1x128.size h) hp).view x) z
      = x (embIdx (rowOf w) (z 1)) := by
  have hw : w.toNat < 100000 := by have := h 0; rw [h0] at this; simp at this; omega
  have hz : (z 0).val = 0 := by have := (z 0).isLt; simp at this; omega
  show x _ = x _
  refine congrArg x (Shape.idx_ext₂ ?_ ?_)
  · show off 0 + 1 * (z 0).val = w.toNat % 100000
    rw [h0, hz, Nat.mod_eq_of_lt hw]; omega
  · show off 1 + 1 * (z 1).val = (z 1).val
    rw [h1]; omega

set_option sl_exec.dmaWindow true in
set_option maxHeartbeats 1500000 in
/-- The kernel's run at a point. -/
theorem gatherRun32 (c : Dev nD) (i : grid32.Coords)
    (M3 : Memref sig .tc .vmem S8x1 .f32) (h3 : M3.IsWhole) (M4 : Memref sig .tc .vmem S8x128 .f32) (h4 : M4.IsWhole)
    (tbl : Bf (F := F) c (Memref.whole main_v204)) (x : Bf (F := F) c (Memref.whole main_v109))
    (vb : Vec F S8x1 .f32) (hchk : GatherChk32 c i tbl) (Q : PUnit → sProp (MM F)) :
    iprop(pt c (Memref.whole main_v204) tbl ∗ pt c (Memref.whole main_v109) x
      ∗ owns (c : Thread nD τ) M3 fullShare vb ∗ (∃ d, owns (c : Thread nD τ) M4 fullShare d)
      ∗ (∃ fs, pt c (Memref.whole cc32_scratch0) fs) ∗ sems32 c ∗ (∃ W, owes (c : Thread nD τ) (0 : CellTallies nD τ sig Unit) W)
      ∗ (iprop(pt c (Memref.whole main_v204) tbl ∗ pt c (Memref.whole main_v109) x
          ∗ owns (c : Thread nD τ) M3 fullShare vb ∗ owns (c : Thread nD τ) M4 fullShare (gatherBlk x (tblWord32 c i tbl) vb)
          ∗ (∃ fs, pt c (Memref.whole cc32_scratch0) fs) ∗ sems32 c ∗ (∃ W, owes (c : Thread nD τ) (0 : CellTallies nD τ sig Unit) W)) -∗ Q ⟨⟩))
    ⊢ wp frame (wpE (defs₀ (F := F)) 𝒱₀ c none) Set.univ
        (cc32__gather_kernel i (Memref.whole main_v204) (Memref.isWhole_whole _) (Memref.whole main_v109) (Memref.isWhole_whole _) M3 h3 M4 h4
          (Memref.whole cc32_scratch0) (Memref.isWhole_whole _) cc32_scratch1) Q := by
  obtain ⟨hc1, hc2, hc3, hc4, hc5, hc6, hc7, hc8⟩ := hchk
  unfold owns
  iintro ⟨Ht, Hx, ⟨%f3, %hf3, H3⟩, ⟨%d4, %f4, -, H4⟩, ⟨%fs, Hs⟩, ⟨Hd0, Hd1, Hd2, Hd3, Hd4, Hd5, Hd6, Hd7⟩, ⟨%W, HO⟩, Hk⟩
  subst hf3
  -- the embedding array as one read share per semaphore its eight transfers complete on, and the remainder
  ihave Hx' := (toks8 (F := F) fullShare 380).1 $$ Hx
  icases Hx' with ⟨Hxr, Hx0, Hx1, Hx2, Hx3, Hx4, Hx5, Hx6, Hx7⟩
  sl_unfold [cc32__gather_kernel]
  sl_exec (disch := first | sl_exact hc1 | sl_exact hc2 | sl_exact hc3 | sl_exact hc4 | sl_exact hc5 | sl_exact hc6 | sl_exact hc7 | sl_exact hc8)
  sl_step
  iapply Hk
  isplitl [Ht]; · iexact Ht
  isplitl [Hxr Hx0 Hx1 Hx2 Hx3 Hx4 Hx5 Hx6 Hx7]
  · iapply (toks8 (F := F) fullShare 380).2
    isplitl [Hxr]; · iexact Hxr
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [H3]
  · iexists f3; isplitr; · ipureintro; rfl
    iexact H3
  isplitl [H4]
  · iexists _; isplitr
    swap; · iexact H4
    ipureintro
    refine (View.read_writes_eq_canon _ _ _ (fun y => ⟨_, List.mem_singleton_self _, View.mem_set_unit_zero offZero2 inb_S8x128_S8x128_0_0 y⟩)).trans ?_
    rw [View.canon_unit_zero offZero2]
    funext y
    unfold k32_pay1 gatherBlk
    show FloatOps.mulf _ _ = FloatOps.mulf _ _
    congr 1
    · unfold gatherRun32.sl.v89
      refine (congrFun (View.readCov_eq_canon_ld _ _ (Rect.unit (s := S8x128) ![0, 0] S8x128.size inb_S8x128_S8x128_0_0) ?hcov) y).trans ?_
      case hcov => exact View.cover_of_tiled (s := S8x128) _ S1x128.size (by rfl)
      rw [View.ld_unit_zero offZero2]
      unfold gatherRun32.sl.dma8 gatherRun32.sl.dma8_1 gatherRun32.sl.dma8_2 gatherRun32.sl.dma8_3 gatherRun32.sl.dma8_4 gatherRun32.sl.dma8_5
        gatherRun32.sl.dma8_6 gatherRun32.sl.dma8_7 gatherRun32.sl.r gatherRun32.sl.r_1 gatherRun32.sl.r_2 gatherRun32.sl.r_3 gatherRun32.sl.r_4
        gatherRun32.sl.r_5 gatherRun32.sl.r_6 gatherRun32.sl.r_7
      refine canonRows8 _ _ _ _ _ _ _ _ _ _ _ _ _ _ _ _ (fun r d => x (embIdx (rowOf (tblWord32 c i tbl r)) d)) ?_ ?_ ?_ ?_ ?_ ?_ ?_ ?_ y
      · exact fun z => rowRead32 c _ (tblWord32 c i tbl 0) rfl rfl _ _ x z
      · exact fun z => rowRead32 c _ (tblWord32 c i tbl 1) rfl rfl _ _ x z
      · exact fun z => rowRead32 c _ (tblWord32 c i tbl 2) rfl rfl _ _ x z
      · exact fun z => rowRead32 c _ (tblWord32 c i tbl 3) rfl rfl _ _ x z
      · exact fun z => rowRead32 c _ (tblWord32 c i tbl 4) rfl rfl _ _ x z
      · exact fun z => rowRead32 c _ (tblWord32 c i tbl 5) rfl rfl _ _ x z
      · exact fun z => rowRead32 c _ (tblWord32 c i tbl 6) rfl rfl _ _ x z
      · exact fun z => rowRead32 c _ (tblWord32 c i tbl 7) rfl rfl _ _ x z
    · rw [View.readAt_eq_ld, View.ld_unit_zero offZero2, shapeCast_self]
      exact broadcastTo_apply _ _ y (colIdx (y 0)) (fun a => by fin_cases a <;> rfl)
  isplitl [Hs]; · iexists _; iexact Hs
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.KI.GatherBlk32.lean ====
/-
  Gather region 32 (custom_call 32): a grid point's block of the result array, in the kernel's own terms.

  The region's result is one function of whole arrays: entry `(e, d)` is the embedding array's row named by table word
  `e`, at lane `d`, times value `e`. The kernel at grid point `t` sees eight table words, which it loads one by one at
  offsets `8 t + j`, and an eight-row block of the values, which the value window stages from rows `[8 t, 8 t + 8)`; the
  result window's block at `t` is rows `[8 t, 8 t + 8)` of the result. So row `j` of the block at `t` is row `8 t + j` of the
  whole-array function, its table word is word `j` of the point's eight, and its value is row `j` of the value block: the
  block is the blockwise gather of those. The offsets are computed in 32-bit words; with `t < 16384` and `j < 8` neither
  the product nor the sum wraps, and a block's element sits in its array at the block index times the block's size plus
  its own coordinate.
-/
import proofs.«414509_j14181982011419_2_alg».proof.Proof.KI.GatherDat32
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- Word `j` of point `i`'s eight sits at offset `8 i + j` of the table: the product and the sum stay below the word size. -/
theorem off_word32 (i : grid32.Coords) (j : Fin 8) : k32_off1 i (BitVec.ofNat 32 j.val) 0 = (i 0).val * 8 + j.val := by
  have hi : (i 0).val < 16384 := (i 0).isLt
  have hj : j.val < 8 := j.isLt
  unfold k32_off1 Scalar.muli Scalar.addi Scalar.indexCast IntOp.muli IntOp.addi
  show (BitVec.ofNat 32 (i 0).val * 8#32 + BitVec.ofNat 32 j.val).toNat = _
  simp only [BitVec.toNat_add, BitVec.toNat_mul, BitVec.toNat_ofNat, Nat.reducePow]
  omega

/-- A grid coordinate, as a word, is itself: it is below the word size. -/
theorem coord_word32 (i : grid32.Coords) : (BitVec.ofNat 32 (i 0).val).toNat = (i 0).val := by
  have hi : (i 0).val < 16384 := (i 0).isLt
  simp only [BitVec.toNat_ofNat, Nat.reducePow]
  omega

/-- The word the kernel loads as word `j` of point `i` is the table's entry `8 i + j`. -/
theorem tblWord32_eq (c : Dev nD) (i : grid32.Coords) (tbl : Bf (F := F) c (Memref.whole main_v204)) (j : Fin 8)
    (e : Fin 131072) (he : e.val = (i 0).val * 8 + j.val) : tblWord32 c i tbl j = tbl (tblIdx e) := by
  unfold tblWord32
  show tbl _ = tbl _
  refine congrArg tbl ?_
  funext a; apply Fin.ext
  match a with
  | ⟨0, _⟩ =>
    show k32_off1 i (BitVec.ofNat 32 j.val) 0 + 1 * 0 = e.val
    rw [off_word32, he]; omega

/-- Row `j` of the value window's block at point `t` is the value array's row `8 t + j`. -/
theorem valBlk32_eq (a0 : (pcfg32 (F := F)).Adm) (Vin : Dev nD → Valuation τ sig (Elt F)) (c : Dev nD) (t : Fin (cfg32 a0).N)
    (j : Fin 8) (e : Fin 131072) (he : e.val = ((grid32.coords t) 0).val * 8 + j.val) :
    iblk32 a0 Vin c 0 t (colIdx j) = Vr Vin c main_v205 (valIdx e) := by
  unfold iblk32
  show Vr Vin c main_v205 _ = Vr Vin c main_v205 _
  refine congrArg (Vr Vin c main_v205) ?_
  funext a; apply Fin.ext
  match a with
  | ⟨0, _⟩ =>
    show (BitVec.ofNat 32 ((grid32.coords t) 0).val).toNat * 8 + 1 * j.val = e.val
    rw [coord_word32, he]; omega
  | ⟨1, _⟩ =>
    show (0#32 : BitVec 32).toNat * 1 + 1 * 0 = 0
    rfl

/-- THE BLOCK: point `t`'s block of the gathered array is the gather of the point's eight table words and of its block of
    the values — row `j` of the block is row `8 t + j` of the array, whose table word is word `j` of the point's eight and
    whose value is row `j` of the value window's block. -/
theorem gatherBlk_blk32 (a0 : (pcfg32 (F := F)).Adm) (Vin : Dev nD → Valuation τ sig (Elt F)) (c : Dev nD) (t : Fin (cfg32 a0).N) :
    gatherBlk (Vr Vin c main_v109) (tblWord32 c (grid32.coords t) (a0.1 0)) (iblk32 a0 Vin c 0 t)
      = (((cfg32 a0).win 1).blk t).view.read (Elt F) (gout32 a0 Vin c) := by
  funext y
  show gatherBlk _ _ _ y = gout32 a0 Vin c ((((cfg32 a0).win 1).blk t).view.emb y)
  unfold gatherBlk gout32 gatherArr
  have e0 : ((((cfg32 a0).win 1).blk t).view.emb y (0 : Fin 2)).val = ((grid32.coords t) 0).val * 8 + (y 0).val := by
    show (BitVec.ofNat 32 ((grid32.coords t) 0).val).toNat * 8 + 1 * (y 0).val = _
    rw [coord_word32]; omega
  have e1 : (((cfg32 a0).win 1).blk t).view.emb y (1 : Fin 2) = y 1 := Fin.ext (by
    show (0#32 : BitVec 32).toNat * 128 + 1 * (y 1).val = (y 1).val
    show 0 * 128 + 1 * (y 1).val = (y 1).val
    omega)
  rw [tblWord32_eq c (grid32.coords t) (a0.1 0) (y 0) _ e0, valBlk32_eq a0 Vin c t (y 0) _ e0, e1]

end Cert.KernelIdeal.Hand

end
-- ==== Proof.KI.GatherRegion32.lean ====
/-
  Gather region 32 (custom_call 32): the body obligation at every point, the arrays the region leaves, and the region as a
  segment of @main — entered from every unscoped buffer at an entry valuation beside the core owing nothing, left with
  the result array at the gathered rows and every other buffer as entered.

  The body obligation: the invariant opens into the embedding array, the kernel's eight semaphores at zero, the index
  table and the scratch; the value window's staging memref holds its block; every word of the table being a row number,
  the kernel's eight range checks hold; so the kernel's run applies, and what it leaves in the result window's memref —
  the gather of the point's eight words and eight values — is the point's block of the gathered array. The result
  window is written back at every point (consecutive points have different blocks) and its blocks cover the array (row
  `e` lies in the block of point `e / 8`), so the array ends at the gathered rows, whole. The segment: of the unscoped
  buffers the two windows' arrays go to the pipeline, the index table to it as its prefetched table, the embedding
  array into the invariant beside the eight semaphores, and the rest bypasses the region; at the exit they are put back,
  the result array at its final contents.
-/
import proofs.«414509_j14181982011419_2_alg».proof.Proof.KI.GatherBody32
import proofs.«414509_j14181982011419_2_alg».proof.Proof.KI.GatherBlk32
import Idealize.ShloMosaic.Lib.Pipeline.RegionsLoop
import Idealize.ShloMosaic.Lib.ValueIdx

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every word of the index table is a row number of the embedding array. -/
def GatherOk32 (a0 : (pcfg32 (F := F)).Adm) : Prop := ∀ e : S131072.Idx, (a0.1 0 e).toNat < 100000

/-! ## The grid and the result window's blocks -/

/-- On the one-axis grid a point's coordinate is its number. -/
theorem regCoords32 (t : Fin grid32.N) : (grid32.coords t 0).val = t.val := by
  have ht : t.val < 16384 := N_32 ▸ t.isLt
  show t.val / grid32.stride 0 % grid32.bound 0 = t.val
  rw [show grid32.stride 0 = 1 from by decide, show grid32.bound 0 = 16384 from rfl, Nat.div_one, Nat.mod_eq_of_lt ht]

/-- A point's number as the 32-bit word the index maps compute with. -/
theorem regWord32 (t : Fin grid32.N) : (BitVec.ofNat 32 (grid32.coords t 0).val).toNat = t.val := by
  have ht : t.val < 16384 := N_32 ▸ t.isLt
  rw [BitVec.toNat_ofNat, regCoords32]; omega

/-- The result window's block at point `t` is block `t` along the rows, at zero along the lanes. -/
theorem regOutIndex32 (a0 : (pcfg32 (F := F)).Adm) (t : Fin (cfg32 a0).N) : ((cfg32 a0).win 1).index t = ![t.val, 0] := by
  show cc32_transform_2 (grid32.coords t) = _
  unfold cc32_transform_2
  funext a; fin_cases a
  · exact regWord32 t
  · rfl

/-- The result window is written back at every point: consecutive points have different blocks. -/
theorem regOutFlush32 (a0 : (pcfg32 (F := F)).Adm) (t : Fin (cfg32 a0).N) : ((cfg32 a0).win 1).flush t = true := by
  have htN : t.val < 16384 := N_32 ▸ t.isLt
  rw [Pipeline.Window.flush_out _ rfl]
  by_cases h : t.val + 1 = 16384
  · exact Or.inl (show t.val + 1 = grid32.N by rw [N_32]; exact h)
  · have hlt : t.val + 1 < grid32.N := by rw [N_32]; omega
    refine Or.inr ⟨hlt, fun e => ?_⟩
    have e' : (![t.val + 1, 0] : Fin 2 → ℕ) = ![t.val, 0] := (regOutIndex32 a0 ⟨t.val + 1, hlt⟩).symm.trans (e.trans (regOutIndex32 a0 t))
    have e0 := congrFun e' 0
    simp at e0

/-- The index table, held as the pipeline's one prefetched table. -/
theorem prefHeldEq32 (a0 : (pcfg32 (F := F)).Adm) (c : Dev nD) :
    (Pipeline.prefHeld (Ix := Unit) (Name := ℕ) (U := UU nD τ) (Lvl := ℕ) pre32 c (fun _ => fullShare) a0.1 : sProp (MM F))
      = pt c (Memref.whole main_v204) (a0.1 0) := by
  unfold Pipeline.prefHeld
  rw [show (Finset.univ : Finset (Fin pre32.K)) = {0} from rfl, BI.bigSep_singleton]
  rfl

/-- The value window's staging buffer holds its block at every point. -/
theorem beforeVal32 (a0 : (pcfg32 (F := F)).Adm) (Vin : Dev nD → Valuation τ sig (Elt F)) (c : Dev nD) (t : Fin (cfg32 a0).N) (d) :
    (dat32 a0 Vin c).before 0 t d = iblk32 a0 Vin c 0 t :=
  ((dat32 a0 Vin c).before_in_eq_fetched 0 rfl (fun _ => rfl) (fun _ _ _ => rfl)
    (fun t => by rw [after32_0]; unfold Dat.blockOf iblk32; rw [A_eq32]; try rfl) t d).trans
    (by unfold Dat.fetched Dat.blockOf iblk32; rw [A_eq32]; try rfl)

/-! ## The kernel's checks, from the table's range -/

/-- Each of the point's eight words is a word of the table, so a row number. -/
theorem tblWordLt32 (a0 : (pcfg32 (F := F)).Adm) (hok : GatherOk32 a0) (c : Dev nD) (i : grid32.Coords) (j : Fin 8) :
    (tblWord32 c i (a0.1 0) j).toNat < 100000 := by
  unfold tblWord32
  exact hok _

/-- So the kernel's eight checks hold at every point. -/
theorem gatherChk32 (a0 : (pcfg32 (F := F)).Adm) (hok : GatherOk32 a0) (c : Dev nD) (i : grid32.Coords) : GatherChk32 c i (a0.1 0) :=
  ⟨⟨chkRow _ (tblWordLt32 a0 hok c i 0), chkRow _ (tblWordLt32 a0 hok c i 0)⟩,
   ⟨chkRow _ (tblWordLt32 a0 hok c i 1), chkRow _ (tblWordLt32 a0 hok c i 1)⟩,
   ⟨chkRow _ (tblWordLt32 a0 hok c i 2), chkRow _ (tblWordLt32 a0 hok c i 2)⟩,
   ⟨chkRow _ (tblWordLt32 a0 hok c i 3), chkRow _ (tblWordLt32 a0 hok c i 3)⟩,
   ⟨chkRow _ (tblWordLt32 a0 hok c i 4), chkRow _ (tblWordLt32 a0 hok c i 4)⟩,
   ⟨chkRow _ (tblWordLt32 a0 hok c i 5), chkRow _ (tblWordLt32 a0 hok c i 5)⟩,
   ⟨chkRow _ (tblWordLt32 a0 hok c i 6), chkRow _ (tblWordLt32 a0 hok c i 6)⟩,
   chkRow _ (tblWordLt32 a0 hok c i 7)⟩

/-! ## The body obligation, at a generic point -/

/-- What the body is called with at point `t`: the invariant, the core's dues, each window's current staging memref at
    what the pipeline left there, -/
def bodyPre32 (a0 : (pcfg32 (F := F)).Adm) (Vin : Dev nD → Valuation τ sig (Elt F)) (c : Dev nD) (t : Fin (cfg32 a0).N) : sProp (MM F) :=
  iprop((dat32 a0 Vin c).Φ t.castSucc ∗ (dat32 a0 Vin c).owesAt () t.castSucc
    ∗ (∃ d, owns (c : Thread nD τ) (((cfg32 a0).win 0).stage ((cfg32 a0).slots t 0)) fullShare ((dat32 a0 Vin c).before 0 t d))
    ∗ (∃ d, owns (c : Thread nD τ) (((cfg32 a0).win 1).stage ((cfg32 a0).slots t 1)) fullShare ((dat32 a0 Vin c).before 1 t d)))

/-- and what it returns. -/
def bodyPost32 (a0 : (pcfg32 (F := F)).Adm) (Vin : Dev nD → Valuation τ sig (Elt F)) (c : Dev nD) (t : Fin (cfg32 a0).N) : sProp (MM F) :=
  iprop((dat32 a0 Vin c).Φ t.succ ∗ (dat32 a0 Vin c).owesAt () t.succ
    ∗ owns (c : Thread nD τ) (((cfg32 a0).win 0).stage ((cfg32 a0).slots t 0)) fullShare ((dat32 a0 Vin c).after 0 t)
    ∗ owns (c : Thread nD τ) (((cfg32 a0).win 1).stage ((cfg32 a0).slots t 1)) fullShare ((dat32 a0 Vin c).after 1 t))

/-- The body at any point: the invariant opened into the embedding array, the semaphores, the table and the scratch;
    the value window's memref at its block; the checks from the table's range; so the kernel's run applies, and what it
    leaves in the result window's memref is the point's block of the gathered array. -/
theorem sound_body32 (a0 : (pcfg32 (F := F)).Adm) (hok : GatherOk32 a0) (Vin : Dev nD → Valuation τ sig (Elt F)) (c : Dev nD) (t : Fin (cfg32 a0).N) :
    bodyPre32 a0 Vin c t ⊢ wp frame (wpE (defs₀ (F := F)) 𝒱₀ c none) Set.univ
      (defs₀ .tc (cfg32 a0).body ((cfg32 a0).bodyArgs t ((cfg32 a0).slots t))) (fun _ => bodyPost32 a0 Vin c t) := by
  unfold bodyPre32 bodyPost32
  simp only [beforeVal32]
  rw [Phi_eq32, Phi_eq32, after32_0, after32_1, ← gatherBlk_blk32]
  unfold Phi32 Pipeline.Dat.owesAt Pipeline.owesWithin
  rw [owed_eq32, owed_eq32, prefHeldEq32, scopedRest32_split]
  iintro ⟨⟨Hx, Hos, Ht, ⟨%fs, Hs⟩, Hsb⟩, ⟨%W, %hW, HO⟩, ⟨%d0, H0⟩, ⟨%d1, H1⟩⟩
  iapply (gatherRun32 c (grid32.coords t) _ _ _ _ (a0.1 0) (Vr Vin c main_v109) (iblk32 a0 Vin c 0 t) (gatherChk32 a0 hok c _) _)
  isplitl [Ht]; · iexact Ht
  isplitl [Hx]; · iexact Hx
  isplitl [H0]; · iexact H0
  isplitl [H1]; · iexists _; iexact H1
  isplitl [Hs]; · iexists fs; iexact Hs
  isplitl [Hos]; · iexact Hos
  isplitl [HO]; · iexists W; iexact HO
  iintro ⟨Ht, Hx, H0, H1, ⟨%fs', Hs⟩, Hos, ⟨%W', HO⟩⟩
  isplitl [Hx Hos Ht Hs Hsb]
  · isplitl [Hx]; · iexact Hx
    isplitl [Hos]; · iexact Hos
    isplitl [Ht]; · iexact Ht
    isplitl [Hs]; · iexists fs'; iexact Hs
    iexact Hsb
  isplitl [HO]
  · iexists W'; isplitr; · ipureintro; exact fun _ _ => Or.inl trivial
    iexact HO
  isplitl [H0]; · iexact H0
  iexact H1

/-- The library's body obligation, at every point. -/
theorem body_obligation32 (a0 : (pcfg32 (F := F)).Adm) (hok : GatherOk32 a0) (Vin : Dev nD → Valuation τ sig (Elt F)) (c : Dev nD) :
    BodyObligation (dat32 a0 Vin c) (defs₀ (F := F)) 𝒱₀ () Set.univ := fun t => by
  rw [bigSep_W32, bigSep_W32]
  exact sound_body32 a0 hok Vin c t

/-! ## From the blocks to the arrays -/

/-- The value array after the region: as entered. -/
theorem arrAt32_in (a0 : (pcfg32 (F := F)).Adm) (Vin : Dev nD → Valuation τ sig (Elt F)) (c : Dev nD) :
    (dat32 a0 Vin c).arrAt 0 (cfg32 a0).N = Vr Vin c main_v205 :=
  ((dat32 a0 Vin c).arrAt_in 0 rfl _).trans (A_eq32 a0 Vin c 0)

/-- Every index of the result array is in some point's block: row `e`, lane `d` is element `(e % 8, d)` of the block
    of point `e / 8`. -/
theorem regOutCover32 (a0 : (pcfg32 (F := F)).Adm) (i : S131072x128.Idx) :
    ∃ t : Fin (cfg32 a0).N, ((cfg32 a0).win 1).flush t = true ∧ i ∈ (((cfg32 a0).win 1).blk t).view.set := by
  have hi0 : (i 0).val < 131072 := (i 0).isLt
  have hi1 : (i 1).val < 128 := (i 1).isLt
  have hN : (i 0).val / 8 < grid32.N := by rw [N_32]; omega
  obtain ⟨t, ht⟩ : ∃ t : Fin (cfg32 a0).N, t.val = (i 0).val / 8 := ⟨⟨_, hN⟩, rfl⟩
  have hx : (((cfg32 a0).win 1).blk t).view.emb (ValueIdx.ix2 ⟨(i 0).val % 8, Nat.mod_lt _ (by decide)⟩ (i 1)) = i := by
    funext a; apply Fin.ext
    have e0 : ((cfg32 a0).win 1).index t (0 : Fin 2) = t.val := congrFun (regOutIndex32 a0 t) (0 : Fin 2)
    have e1 : ((cfg32 a0).win 1).index t (1 : Fin 2) = 0 := congrFun (regOutIndex32 a0 t) (1 : Fin 2)
    match a with
    | ⟨0, _⟩ => show ((cfg32 a0).win 1).index t (0 : Fin 2) * 8 + 1 * ((i 0).val % 8) = (i 0).val; omega
    | ⟨1, _⟩ => show ((cfg32 a0).win 1).index t (1 : Fin 2) * 128 + 1 * (i 1).val = (i 1).val; omega
  exact ⟨t, regOutFlush32 a0 t, hx ▸ (((cfg32 a0).win 1).blk t).view.emb_mem_set _⟩

/-- The result array after the region: the gathered and scaled rows, whole. -/
theorem arrAt32_out (a0 : (pcfg32 (F := F)).Adm) (Vin : Dev nD → Valuation τ sig (Elt F)) (c : Dev nD) :
    (dat32 a0 Vin c).arrAt 1 (cfg32 a0).N = gout32 a0 Vin c :=
  (dat32 a0 Vin c).arrAt_eq_of_cover 1 (gout32 a0 Vin c)
    (fun t _ => by
      show ((cfg32 a0).win 1).cut ((cfg32 a0).grid.coords t) ((dat32 a0 Vin c).after 1 t) = _
      rw [after32_1])
    (regOutCover32 a0)

/-! ## The region as a segment of @main -/

/-- The ownership layout of the kernel's eight semaphores. -/
theorem ownSemFacts32 : Pipeline.OwnSemFacts spec32 osem32 := by decide

/-- The kernel's own cells at zero, listed. -/
theorem ownSemsListed32 (c : Dev nD) :
    (Pipeline.ownSems0 (Ix := Unit) (Name := ℕ) (U := UU nD τ) (Lvl := ℕ) (Val := Elt F) (τ := τ) osem32 c : sProp (MM F)) = sems32 c :=
  Pipeline.ownSems0_eq_of_list c osem32 [0, 1, 2, 3, 4, 5, 6, 7] (by decide) (by decide)

/-- The unscoped buffers that are no window's array, no table, and not the embedding array. -/
abbrev restRefs32 : Finset (Ref sig .tc) :=
  (((Finset.univ.filter fun b : Ref sig .tc => ¬ b.isScoped) \ Finset.univ.image (Pipeline.arrRef spec32)) \ Finset.univ.image pre32.ref) \ {main_v109}

/-- Those buffers, each whole at its contents under `Vin`: what bypasses the region. -/
def Zrest32 (Vin : Dev nD → Valuation τ sig (Elt F)) (c : Dev nD) : sProp (MM F) :=
  bigSep restRefs32 fun b => ((c : Thread nD τ).loc b) ↦{fullShare} Vr Vin c b

/-- The embedding array is an unscoped buffer that is no window's array and no table. -/
theorem embArrMem32 : ({main_v109} : Finset (Ref sig .tc)) ⊆
    ((Finset.univ.filter fun b : Ref sig .tc => ¬ b.isScoped) \ Finset.univ.image (Pipeline.arrRef spec32)) \ Finset.univ.image pre32.ref := by
  decide

/-- The unscoped buffers that are no window's array: the index table, the embedding array, and the rest. -/
theorem unscopedRestOpen32 (Vin : Dev nD → Valuation τ sig (Elt F)) (c : Dev nD) :
    (Pipeline.unscopedRest (Ix := Unit) (Name := ℕ) (U := UU nD τ) (Lvl := ℕ) spec32 c (Vr Vin c) : sProp (MM F))
      = iprop(Pipeline.prefHeld pre32 c (fun _ => fullShare) (fun k => Vr Vin c (pre32.ref k))
          ∗ pt c (Memref.whole main_v109) (Vr Vin c main_v109) ∗ Zrest32 Vin c) := by
  rw [Pipeline.unscopedRest_split preFacts32 c (Vr Vin c)]
  unfold Pipeline.unscopedRestP Zrest32
  rw [BI.bigSep_sdiff_split embArrMem32, BI.bigSep_singleton]
  rfl

/-- The buffer contents when the region is left: the result array at the gathered rows, every other buffer as entered. -/
abbrev Vout32 (a0 : (pcfg32 (F := F)).Adm) (Vin : Dev nD → Valuation τ sig (Elt F)) (c : Dev nD) : Valuation τ sig (Elt F) :=
  Function.update (Vin c) main_v206 (gout32 a0 Vin c)

/-- At the exit each of the region's arrays holds what the pipeline leaves; -/
theorem hF32 (a0 : (pcfg32 (F := F)).Adm) (Vin : Dev nD → Valuation τ sig (Elt F)) (c : Dev nD) (w : Fin (cfg32 a0).W) :
    (dat32 a0 Vin c).arrAt w (cfg32 a0).N = Vr (Vout32 a0 Vin) c (Pipeline.arrRef spec32 w) := by
  match w with
  | ⟨0, _⟩ =>
    show (dat32 a0 Vin c).arrAt 0 (cfg32 a0).N = Vr (Vout32 a0 Vin) c (Pipeline.arrRef spec32 0)
    rw [arrAt32_in]
    exact (Function.update_of_ne (StableHlo.devRef_ne_of_ne (by decide) : (Proc.devRef .tc main_v205 : DevRef τ sig) ≠ Proc.devRef .tc main_v206) _ _).symm
  | ⟨1, _⟩ =>
    show (dat32 a0 Vin c).arrAt 1 (cfg32 a0).N = Vr (Vout32 a0 Vin) c (Pipeline.arrRef spec32 1)
    rw [arrAt32_out]
    exact (Function.update_self (Proc.devRef .tc main_v206 : DevRef τ sig) _ (Vin c)).symm

/-- and every other buffer what it held at entry. -/
theorem hrest32 (a0 : (pcfg32 (F := F)).Adm) (Vin : Dev nD → Valuation τ sig (Elt F)) (c : Dev nD) :
    ∀ b : Ref sig .tc, b ∉ Finset.univ.image (Pipeline.arrRef spec32) → Vr (Vout32 a0 Vin) c b = Vr Vin c b :=
  fun b hb => Function.update_of_ne (StableHlo.devRef_ne_of_ne fun e =>
    hb (Finset.mem_image.mpr ⟨1, Finset.mem_univ _, e.symm⟩)) _ _

set_option maxHeartbeats 1000000 in
set_option backward.isDefEq.respectTransparency.types false in
/-- THE REGION as a segment of @main, for any family whose arm at this pipeline is `dat32` at the entry valuation `Vin`
    (`hd`), the index table's contents under `Vin` being the pinned ones (`htbl`) and row numbers (`hok`). -/
def reg32 (a : (p : Fin 34) → (pcfgs (F := F) p).Adm)
    (pdats : (p : Fin 34) → (c : Dev nD) → Dat τ (Elt F) Unit ℕ (UU nD τ) ℕ (Pipeline.pin (pcfgs (F := F)) a p) c)
    (Vin : Dev nD → Valuation τ sig (Elt F)) (hok : GatherOk32 (F := F) (a (32 : Fin 34)))
    (hd : ∀ c, pdats (32 : Fin 34) c = dat32 (a (32 : Fin 34)) Vin c) (htbl : ∀ c, (a (32 : Fin 34)).1 = fun k => Vr Vin c (pre32.ref k)) :
    Pipeline.RegionSeg (pcfgs (F := F)) a pdats () defs₀ 𝒱₀ L lv (32 : Fin 34) where
  win := (launch32 (F := F)).win.to₀
  block_pos := (launch32 (F := F)).block_pos
  stage_whole := (launch32 (F := F)).stage_whole
  K := Fin 8
  osem := osem32
  ho := ownSemFacts32
  hbody c := by rw [hd c]; exact (body_obligation32 (a (32 : Fin 34)) hok Vin c).loose
  hwaits := Pipeline.hwaits_of_owed_zero _ _ _ _ L lv (32 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Function.update (Vin c) main_v206 (gout32 (a (32 : Fin 34)) Vin c)) ∗ Rest c)
  X c := iprop(pt c (Memref.whole main_v109) (Vr Vin c main_v109) ∗ sems32 c)
  Y c := iprop(pt c (Memref.whole main_v109) (Vr Vin c main_v109)
    ∗ Pipeline.prefHeld (Ix := Unit) (Name := ℕ) (U := UU nD τ) (Lvl := ℕ) pre32 c (fun _ => fullShare) (a (32 : Fin 34)).1)
  Z c := Zrest32 Vin c
  hentry c := by
    rw [ownSemsListed32]
    have hsplit := Pipeline.arrays_of_unscopedBufs (p := (32 : Fin 34)) (pcfgs (F := F)) a pdats (launch32 (F := F)).win (launch32 (F := F)).arr_whole c
      ((pdats (32 : Fin 34) c).share_full fun _ => by rw [hd c]; rfl) (Vr Vin c) fun w => by rw [hd c]; rfl
    rw [Pipeline.unscopedBufs_held] at hsplit
    iintro ⟨⟨Hub, HO⟩, Hos, -⟩
    ihave H := hsplit $$ Hub
    icases H with ⟨Ha, Hrest⟩
    ihave Hr := (Entails.of_eq (unscopedRestOpen32 Vin c)) $$ Hrest
    icases Hr with ⟨Ht, Hx, Hz⟩
    imodintro
    isplitl [Ha]; · iexact Ha
    isplitl [Ht]; · rw [htbl c]; iexact Ht
    isplitl [HO]
    · unfold Pipeline.Dat.owesAt Pipeline.owesWithin
      rw [show (pdats (32 : Fin 34) c).owed 0 = 0 from by rw [hd c]; rfl]
      icases HO with ⟨%W, HO⟩; iexists W; isplitr; · ipureintro; exact fun _ _ => Or.inl (by rw [hd c]; trivial)
      iexact HO
    isplitl [Hx Hos]
    · isplitl [Hx]; · iexact Hx
      iexact Hos
    iexact Hz
  hin c := by
    rw [hd c, Phi_eq32]; unfold Phi32
    iintro ⟨⟨Hx, Hos⟩, Ht, Hr⟩
    isplitl [Hx]; · iexact Hx
    isplitl [Hos]; · iexact Hos
    isplitl [Ht]; · iexact Ht
    iexact Hr
  hout c := by
    rw [ownSemsListed32, hd c, Phi_eq32]; unfold Phi32
    iintro ⟨Hx, Hos, Ht, Hr⟩
    isplitl [Hx Ht]
    · isplitl [Hx]; · iexact Hx
      iexact Ht
    isplitl [Hos]; · iexact Hos
    iexact Hr
  hexit c := by
    have hjoin := Pipeline.unscopedBufs_of_arrays (p := (32 : Fin 34)) (pcfgs (F := F)) a (Ix := Unit) (Name := ℕ) (U := UU nD τ) (Lvl := ℕ)
      (launch32 (F := F)).win (launch32 (F := F)).arr_whole c pdats ((pdats (32 : Fin 34) c).share_full fun _ => by rw [hd c]; rfl)
      (Vr Vin c) (Vr (Vout32 (a (32 : Fin 34)) Vin) c) ((pdats (32 : Fin 34) c).arrAt · (cfg32 (a (32 : Fin 34))).N)
      (fun w => by rw [hd c]; exact hF32 (a (32 : Fin 34)) Vin c w) (hrest32 (a (32 : Fin 34)) Vin c)
    rw [Pipeline.unscopedBufs_held] at hjoin
    iintro ⟨Ha, HO, ⟨Hx, Ht⟩, Hz⟩
    imodintro
    isplitl [Ha Hx Ht Hz]
    · iapply hjoin
      isplitl [Ha]; · iexact Ha
      iapply (Entails.of_eq (unscopedRestOpen32 Vin c).symm)
      isplitl [Ht]; · rw [← htbl c]; iexact Ht
      isplitl [Hx]; · iexact Hx
      iexact Hz
    unfold Pipeline.Dat.owesAt Pipeline.owesWithin
    rw [show (pdats (32 : Fin 34) c).owed (Fin.last _) = 0 from by rw [hd c]; rfl]
    icases HO with ⟨%W, -, HO⟩; iexists W; iexact HO

end Cert.KernelIdeal.Hand

end
-- ==== Proof.KI.ActBody33.lean ====
/-
  The activation-and-sum kernel of custom_call 33, run once at symbolic staging memrefs.

  The body loads its whole input block `x : [4, 2000, 128]`, forms `where(x > 0, x, 0.01 * x)` element by element,
  adds the four slabs along the leading axis, and stores the `[2000, 128]` result over the whole output block. So
  from the input block held at `xin` and the output block held at anything, it returns with the input block as it
  was and the output block at `actOut33 xin`, the body's one payload as a pure function of the loaded block.
-/
import proofs.«414509_j14181982011419_2_alg».proof.Proof.KI.ActSpec
import proofs.«414509_j14181982011419_2_alg».proof.Proof.Gen.KernelIdeal.Skeleton
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The zero offsets of a whole-block access, in rank 2 and in rank 3, as constant functions. -/
theorem zeros33_2 : (![0, 0] : Fin 2 → Nat) = fun _ => 0 := funext fun a => by fin_cases a <;> rfl
theorem zeros33_3 : (![0, 0, 0] : Fin 3 → Nat) = fun _ => 0 := funext fun a => by fin_cases a <;> rfl

/-- The body's payload is the activation-and-sum of the loaded block: the same chain of operations. -/
theorem pay33_eq (x : Vec F S4x2000x128 .f32) : k33_pay1 x = actBlock x := rfl

/-- What the body leaves in the output block, from the input block: the leaky activation of every element, summed
    over the four slabs of the leading axis. -/
def actOut33 (xin : Vec F S4x2000x128 .f32) : Vec F S2000x128 .f32 := actBlock xin

set_option maxHeartbeats 1000000 in
/-- The kernel body on whole staging memrefs, the input's at contents `xin` and the output's at anything, runs to the
    continuation holding the input's as it was and the output's at `actOut33 xin`: the one store covers the whole
    block, so what it leaves is its payload, and the payload's argument is the whole-block load of `xin`. -/
theorem body33 (c : Dev nD) (E : Set ℕ) (i : grid33.Coords) (M1 : Memref sig .tc .vmem S4x2000x128 .f32) (h1 : M1.IsWhole)
    (M2 : Memref sig .tc .vmem S2000x128 .f32) (h2 : M2.IsWhole) (xin : Vec F S4x2000x128 .f32) (K : PUnit → sProp (MM F)) :
    iprop(owns (c : Thread nD τ) M1 fullShare xin ∗ (∃ d, owns (c : Thread nD τ) M2 fullShare d)
        ∗ (iprop(owns (c : Thread nD τ) M1 fullShare xin ∗ owns (c : Thread nD τ) M2 fullShare (actOut33 xin)) -∗ K ⟨⟩))
      ⊢ wp frame (wpE (defs₀ (F := F)) Variants.none c none) E (cc33__act_sum_kernel i M1 h1 M2 h2) K := by
  simp only [cc33__act_sum_kernel_eq_skeleton]; unfold cc33__act_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _,
      View.mem_set_unit_zero zeros33_2 inb_S2000x128_S2000x128_0_0 y⟩),
    View.canon_unit_zero (S := S2000x128) zeros33_2]
  unfold actOut33
  exact (pay33_eq _).trans (congrArg actBlock (View.ld_unit_zero (S := S4x2000x128) zeros33_3 inb_S4x2000x128_S4x2000x128_0_0_0 _))

end Cert.KernelIdeal.Hand

end
-- ==== Proof.KI.ActDat33.lean ====
/-
  The proof data of custom_call 33 (the activation-and-sum over the stacked aggregates) and the array it leaves.

  The pipeline walks 50 points; at point `t` it stages rows `[2000 t, 2000 t + 2000)` of all four slabs of the input
  array, runs the body, and writes the `[2000, 128]` result back over the same rows of the output array. The proof data
  say so: the arrays as the region finds them, the input's buffer at its block, the output's at the activation-and-sum
  of that block. The output's blocks tile its array, so after the last point the array is `actArr` of the input array:
  what each point writes back is its block of that one function (the index maps' relations decided over the grid, the
  rest arithmetic on rows), and every row lies in the block of point `row / 2000`.
-/
import proofs.«414509_j14181982011419_2_alg».proof.Proof.KI.ActBody33
import proofs.«414509_j14181982011419_2_alg».proof.Proof.Gen.KernelIdeal.Points
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

variable (Vin : Dev nD → Valuation τ sig (Elt F))

/-- The pinned configuration of pipeline 33 is the printed one, whatever the tables' contents (it has no table). -/
theorem pin_eq33 (a : (p : Fin 34) → (pcfgs (F := F) p).Adm) : Pipeline.pin (pcfgs (F := F)) a (33 : Fin 34) = cfg33 := rfl

/-- Window `w`'s block at point `t`, read off its array as the region finds it. -/
def iblk33 (c : Dev nD) (w : Fin cfg33.W) (t : Fin cfg33.N) :
    ((cfg33.win w).xblock (cfg33.grid.coords t)).Idx → Elt F (cfg33.win w).elt :=
  ((cfg33.win w).blk t).view.read (Elt F) (Vin c (Pipeline.arrRef spec33 w))

/-- The proof data of pipeline 33 on core `c`: the arrays as the region finds them; after the body at point `t` the
    input's buffer at its block and the output's at the activation-and-sum of that block; the invariant the scoped
    buffers no window stages; nothing owed; full shares. -/
def dat33 (c : Dev nD) : Dat τ (Elt F) Unit ℕ (UU nD τ) ℕ cfg33 c where
  A w := Vin c (Pipeline.arrRef spec33 w)
  after w t := match w with
    | ⟨0, _⟩ => iblk33 Vin c 0 t
    | ⟨1, _⟩ => actOut33 (iblk33 Vin c 0 t)
  Φ _ := Pipeline.scopedRest (Ix := Unit) (Name := ℕ) (U := UU nD τ) (Lvl := ℕ) (Val := Elt F) spec33 c
  q _ := fullShare
  owed _ := 0

theorem A_eq33 (c : Dev nD) (w : Fin cfg33.W) : (dat33 Vin c).A w = Vin c (Pipeline.arrRef spec33 w) := by
  dsimp only [dat33]
theorem after33_0 (c : Dev nD) (t : Fin cfg33.N) : (dat33 Vin c).after 0 t = iblk33 Vin c 0 t := by dsimp only [dat33]
theorem after33_1 (c : Dev nD) (t : Fin cfg33.N) : (dat33 Vin c).after 1 t = actOut33 (iblk33 Vin c 0 t) := by dsimp only [dat33]
theorem Φ_eq33 (c : Dev nD) (t : Fin (cfg33.N + 1)) : (dat33 Vin c).Φ t
    = Pipeline.scopedRest (Ix := Unit) (Name := ℕ) (U := UU nD τ) (Lvl := ℕ) (Val := Elt F) spec33 c := rfl
theorem owed_eq33 (c : Dev nD) (t : Fin (cfg33.N + 1)) : (dat33 Vin c).owed t = 0 := rfl

/-- The input's current staging buffer holds its block at every point. -/
theorem before33_0 (c : Dev nD) (t : Fin cfg33.N) (d) : (dat33 Vin c).before 0 t d = iblk33 Vin c 0 t :=
  ((dat33 Vin c).before_in_eq_fetched 0 rfl (fun _ => rfl) (fun _ _ _ => rfl)
    (fun t => by rw [after33_0]; unfold Dat.blockOf iblk33; rw [A_eq33]; try rfl) t d).trans
    (by unfold Dat.fetched Dat.blockOf iblk33; rw [A_eq33]; try rfl)

/-! ## From the blocks to the array -/

/-- The printed index maps, decided over the grid: the input's block moves with the output's along the rows and
    sits at zero on the other axes; the output's block index is the point's number. -/
theorem idx_facts33 : ∀ t : Fin cfg33.N, win33_0.index t (0 : Fin 3) = 0
    ∧ win33_0.index t (1 : Fin 3) = win33_1.index t (0 : Fin 2)
    ∧ win33_0.index t (2 : Fin 3) = 0
    ∧ win33_1.index t (1 : Fin 2) = 0
    ∧ win33_1.index t (0 : Fin 2) ≤ 49 :=
  (by decide +kernel : ∀ t : Fin grid33.N, _)

/-- Every slab of the output is SOME point's block. -/
theorem idx_onto33 : ∀ q0 : Fin 50, ∃ t : Fin cfg33.N, win33_1.index t = ![q0.val, 0] :=
  (by decide +kernel : ∀ q0 : Fin 50, ∃ t : Fin grid33.N, win33_1.index t = ![q0.val, 0])

/-- WHAT POINT `t` WRITES BACK is block `t` of `actArr` of the input array as the region finds it. -/
theorem flushed33_eq (c : Dev nD) (t : Fin cfg33.N) :
    (dat33 Vin c).flushed 1 t = ((cfg33.win 1).blk t).view.read (Elt F) (actArr (Vin c main_v218)) := by
  show (cfg33.win 1).cut (grid33.coords t) ((dat33 Vin c).after 1 t) = _
  rw [after33_1]
  obtain ⟨e0, e1, e2, e3, e4⟩ := idx_facts33 t
  funext j
  show actOut33 (iblk33 Vin c 0 t) j = actArr (Vin c main_v218) (((cfg33.win 1).blk t).view.emb j)
  unfold actOut33 actArr
  have hj0 : (j 0).val < 2000 := (j 0).isLt
  refine congr (congrArg actBlock ?_) ?_
  · funext j'
    show Vin c main_v218 (((cfg33.win 0).blk t).view.emb j') = Vin c main_v218 _
    refine congrArg (Vin c main_v218) ?_
    funext a; apply Fin.ext
    have hj'1 : (j' 1).val < 2000 := (j' 1).isLt
    match a with
    | ⟨0, _⟩ => show win33_0.index t (0 : Fin 3) * 4 + 1 * (j' 0).val = (j' 0).val; omega
    | ⟨1, _⟩ => show win33_0.index t (1 : Fin 3) * 2000 + 1 * (j' 1).val = (win33_1.index t (0 : Fin 2) * 2000 + 1 * (j 0).val) / 2000 * 2000 + (j' 1).val; omega
    | ⟨2, _⟩ => show win33_0.index t (2 : Fin 3) * 128 + 1 * (j' 2).val = (j' 2).val; omega
  · funext a; apply Fin.ext
    match a with
    | ⟨0, _⟩ => show (j 0).val = (win33_1.index t (0 : Fin 2) * 2000 + 1 * (j 0).val) % 2000; omega
    | ⟨1, _⟩ => show (j 1).val = win33_1.index t (1 : Fin 2) * 128 + 1 * (j 1).val; omega

/-- An index of the array is in point `t`'s block iff each coordinate is in the block's range on its axis. -/
theorem mem_blk33 (t : Fin cfg33.N) (i : S100000x128.Idx) :
    i ∈ ((cfg33.win 1).blk t).view.set ↔ ∀ a : Fin 2, win33_1.index t a * S2000x128.size a ≤ (i a).val ∧ (i a).val < win33_1.index t a * S2000x128.size a + S2000x128.size a := by
  show i ∈ ((View.whole main_v219).slice (win33_1.rect t)).set ↔ _
  rw [View.set_slice_whole, Rect.mem_set_unit]
  exact Iff.rfl

/-- Every index of the output array is in some point's block: row `n` in that of point `n / 2000`. -/
theorem cover33 (i : S100000x128.Idx) :
    ∃ t : Fin cfg33.N, (cfg33.win 1).flush t = true ∧ i ∈ ((cfg33.win 1).blk t).view.set := by
  have hi0 : (i 0).val < 100000 := (i 0).isLt
  have hi1 : (i 1).val < 128 := (i 1).isLt
  obtain ⟨t, ht⟩ := idx_onto33 ⟨(i 0).val / 2000, by omega⟩
  have q0 : win33_1.index t (0 : Fin 2) = (i 0).val / 2000 := congrFun ht 0
  have q1 : win33_1.index t (1 : Fin 2) = 0 := congrFun ht 1
  refine ⟨t, flush33_1 t, ?_⟩
  rw [mem_blk33]
  intro a
  match a with
  | ⟨0, _⟩ => show win33_1.index t (0 : Fin 2) * 2000 ≤ (i 0).val ∧ (i 0).val < win33_1.index t (0 : Fin 2) * 2000 + 2000; omega
  | ⟨1, _⟩ => show win33_1.index t (1 : Fin 2) * 128 ≤ (i 1).val ∧ (i 1).val < win33_1.index t (1 : Fin 2) * 128 + 128; omega

/-- THE ARRAY after the region: `actArr` of the input array as the region finds it. -/
theorem final33 (c : Dev nD) : (dat33 Vin c).arrAt 1 cfg33.N = actArr (Vin c main_v218) :=
  (dat33 Vin c).arrAt_eq_of_cover 1 (actArr (Vin c main_v218)) (fun t _ => flushed33_eq Vin c t) cover33

end Cert.KernelIdeal.Hand

end
-- ==== Proof.KI.ActRegion33.lean ====
/-
  Custom_call 16 (the activation-and-sum over the stacked aggregates) as a segment of @main.

  The body obligation: at every point the input's staging memref holds its block of the input array, so the body's run
  applies and leaves the output's staging memref at the activation-and-sum of that block; the invariant (the scoped
  buffers no window stages) and the core's dues pass through unread. The segment: entered with every unscoped buffer at
  the contents `Vin` and the core owing nothing, it is left with the output array at `actArr` of the input array, every
  other buffer as entered, and the core owing nothing. The two arrays are split out of the unscoped buffers at entry
  and put back at exit; the kernel has no semaphore of its own.
-/
import proofs.«414509_j14181982011419_2_alg».proof.Proof.KI.ActDat33
import Idealize.ShloMosaic.Lib.Pipeline.RegionsLoop

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (Vin : Dev nD → Valuation τ sig (Elt F))

/-! ## The body obligation, at a generic point -/

/-- What the body is called with at point `t`: the invariant, the core's dues, each window's current staging memref
    at what the pipeline left there, -/
def bodyPre33 (c : Dev nD) (t : Fin cfg33.N) : sProp (MM F) :=
  iprop((dat33 Vin c).Φ t.castSucc ∗ (dat33 Vin c).owesAt () t.castSucc
    ∗ (∃ d, owns (c : Thread nD τ) (st33_0 t) fullShare ((dat33 Vin c).before 0 t d))
    ∗ (∃ d, owns (c : Thread nD τ) (st33_1 t) fullShare ((dat33 Vin c).before 1 t d)))

/-- and what it returns. -/
def bodyPost33 (c : Dev nD) (t : Fin cfg33.N) : sProp (MM F) :=
  iprop((dat33 Vin c).Φ t.succ ∗ (dat33 Vin c).owesAt () t.succ
    ∗ owns (c : Thread nD τ) (st33_0 t) fullShare ((dat33 Vin c).after 0 t)
    ∗ owns (c : Thread nD τ) (st33_1 t) fullShare ((dat33 Vin c).after 1 t))

/-- The body at any point: the input's memref holds its block, so the body's run applies; the invariant and the core's
    dues pass through unread. -/
theorem sound_body33 (c : Dev nD) (t : Fin cfg33.N) :
    bodyPre33 Vin c t ⊢ wp frame (wpE (defs₀ (F := F)) Variants.none c none) Set.univ (bodyAt33 t) (fun _ => bodyPost33 Vin c t) := by
  unfold bodyPre33 bodyPost33 bodyAt33
  simp only [before33_0]
  rw [show (dat33 Vin c).Φ t.succ = (dat33 Vin c).Φ t.castSucc from rfl,
    show (dat33 Vin c).owesAt () t.succ = (dat33 Vin c).owesAt () t.castSucc from rfl,
    after33_0, after33_1]
  iintro ⟨HΦ, Ho, ⟨%d0, H0⟩, ⟨%d1, H1⟩⟩
  iapply (body33 c Set.univ _ _ _ _ _ (iblk33 Vin c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation33 (c : Dev nD) : BodyObligation (dat33 (F := F) Vin c) (defs₀ (F := F)) Variants.none () Set.univ := fun t => by
  rw [bigSep_W33, bigSep_W33]
  exact sound_body33 Vin c t

/-! ## The region as a segment of @main -/

/-- The buffer contents when the region is left: the output array at the activation-and-sum of the input array, every
    other buffer as entered. -/
abbrev Vout33 (c : Dev nD) : Valuation τ sig (Elt F) :=
  Function.update (Vin c) main_v219 (actArr (Vin c main_v218))

/-- At the exit each of the region's arrays holds what the pipeline leaves: the input as entered, the output the
    activation-and-sum of the input; -/
theorem hF33 (c : Dev nD) (w : Fin cfg33.W) : (dat33 Vin c).arrAt w cfg33.N = Vout33 Vin c (Pipeline.arrRef spec33 w) := by
  match w with
  | ⟨0, _⟩ =>
    show (dat33 Vin c).arrAt 0 cfg33.N = Vout33 Vin c (Pipeline.arrRef spec33 0)
    rw [(dat33 Vin c).arrAt_in 0 rfl _, A_eq33]
    exact (Function.update_of_ne (StableHlo.devRef_ne_of_ne (by decide) : (Proc.devRef .tc main_v218 : DevRef τ sig) ≠ Proc.devRef .tc main_v219) _ _).symm
  | ⟨1, _⟩ =>
    show (dat33 Vin c).arrAt 1 cfg33.N = Vout33 Vin c (Pipeline.arrRef spec33 1)
    rw [final33]
    exact (Function.update_self (Proc.devRef .tc main_v219 : DevRef τ sig) _ (Vin c)).symm

/-- and every other buffer what it held at entry. -/
theorem hrest33 (c : Dev nD) : ∀ b : Ref sig .tc, b ∉ Finset.univ.image (Pipeline.arrRef spec33) → Vout33 Vin c b = Vin c b :=
  fun b hb => Function.update_of_ne (StableHlo.devRef_ne_of_ne fun e =>
    hb (Finset.mem_image.mpr ⟨1, Finset.mem_univ _, e.symm⟩)) _ _

set_option backward.isDefEq.respectTransparency.types false in
/-- REGION 16 over the thread state: entered from every unscoped buffer at `Vin`, left at `Vout33 Vin`. Its arrays
    split out of the unscoped buffers and put back at the exit contents; the scoped buffers no window stages into the
    invariant and out; nothing owed; no semaphore of the kernel's own. -/
def reg33 (a : (p : Fin 34) → (pcfgs (F := F) p).Adm)
    (pdats : (p : Fin 34) → (c : Dev nD) → Dat τ (Elt F) Unit ℕ (UU nD τ) ℕ (Pipeline.pin (pcfgs (F := F)) a p) c)
    (hd : ∀ c, pdats (33 : Fin 34) c = dat33 Vin c) :
    Pipeline.RegionSeg (pcfgs (F := F)) a pdats () defs₀ 𝒱₀ L lv (33 : Fin 34) where
  win := (launch33 (F := F)).win.to₀
  block_pos := (launch33 (F := F)).block_pos
  stage_whole := (launch33 (F := F)).stage_whole
  K := PEmpty
  osem k := k.elim
  ho := Pipeline.OwnSemFacts.none _
  hbody c := by rw [hd c]; exact (body_obligation33 Vin c).loose
  hwaits := Pipeline.hwaits_of_owed_zero _ _ _ _ L lv (33 : Fin 34) fun c t => by rw [hd c]; rfl
  pre c := iprop(StableHlo.held (c : Thread nD τ) (Pipeline.ucRefs τ sig) (Vin c) ∗ Rest c)
  post c := iprop(StableHlo.held (c : Thread nD τ) (Pipeline.ucRefs τ sig) (Vout33 Vin c) ∗ Rest c)
  X _ := iprop(emp)
  Y _ := iprop(emp)
  Z c := Pipeline.unscopedRest (Ix := Unit) (Name := ℕ) (U := UU nD τ) (Lvl := ℕ) spec33 c (fun b => Vin c b)
  hentry c := by
    rw [Pipeline.ownSems0_none]
    have hsplit := Pipeline.arrays_of_unscopedBufs (p := (33 : Fin 34)) (pcfgs (F := F)) a pdats (launch33 (F := F)).win (launch33 (F := F)).arr_whole c
      ((pdats (33 : Fin 34) c).share_full fun _ => by rw [hd c]; rfl) (fun b => Vin c b) fun w => by rw [hd c]; rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats (33 : Fin 34) c).owed 0 = 0 from by rw [hd c]; rfl]
      icases HO with ⟨%W, HO⟩; iexists W; isplitr; · ipureintro; exact fun _ _ => Or.inl (by rw [hd c]; trivial)
      iexact HO
    isplitr; · iempintro
    iexact Hrest
  hin c := by
    rw [hd c, Φ_eq33]
    iintro ⟨-, -, Hr⟩
    iexact Hr
  hout c := by
    rw [Pipeline.ownSems0_none, hd c, Φ_eq33]
    iintro Hr
    isplitr; · iempintro
    isplitr; · iempintro
    iexact Hr
  hexit c := by
    have hjoin := Pipeline.unscopedBufs_of_arrays (p := (33 : Fin 34)) (pcfgs (F := F)) a (Ix := Unit) (Name := ℕ) (U := UU nD τ) (Lvl := ℕ)
      (launch33 (F := F)).win (launch33 (F := F)).arr_whole c pdats ((pdats (33 : Fin 34) c).share_full fun _ => by rw [hd c]; rfl)
      (fun b => Vin c b) (fun b => Vout33 Vin c b) ((pdats (33 : Fin 34) c).arrAt · cfg33.N)
      (fun w => by rw [hd c]; exact hF33 Vin c w) (hrest33 Vin c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [show (pdats (33 : Fin 34) c).owed (Fin.last _) = 0 from by rw [hd c]; rfl]
    icases HO with ⟨%W, -, HO⟩; iexists W; iexact HO

end Cert.KernelIdeal.Hand

end
-- ==== Proof.KI.Assemble.lean ====
import proofs.«414509_j14181982011419_2_alg».proof.Proof.KI.Chain
import proofs.«414509_j14181982011419_2_alg».proof.Proof.KI.RegionsValue
import proofs.«414509_j14181982011419_2_alg».proof.Proof.KI.Tables
import proofs.«414509_j14181982011419_2_alg».proof.Proof.KI.TablesV
import proofs.«414509_j14181982011419_2_alg».proof.Proof.KI.TablesVRest
import proofs.«414509_j14181982011419_2_alg».proof.Proof.KI.GatherRegion0
import proofs.«414509_j14181982011419_2_alg».proof.Proof.KI.GatherRegion1
import proofs.«414509_j14181982011419_2_alg».proof.Proof.KI.GatherRegion2
import proofs.«414509_j14181982011419_2_alg».proof.Proof.KI.GatherRegion3
import proofs.«414509_j14181982011419_2_alg».proof.Proof.KI.GatherRegion4
import proofs.«414509_j14181982011419_2_alg».proof.Proof.KI.GatherRegion5
import proofs.«414509_j14181982011419_2_alg».proof.Proof.KI.GatherRegion6
import proofs.«414509_j14181982011419_2_alg».proof.Proof.KI.GatherRegion7
import proofs.«414509_j14181982011419_2_alg».proof.Proof.KI.GatherRegion8
import proofs.«414509_j14181982011419_2_alg».proof.Proof.KI.GatherRegion9
import proofs.«414509_j14181982011419_2_alg».proof.Proof.KI.GatherRegion10
import proofs.«414509_j14181982011419_2_alg».proof.Proof.KI.GatherRegion11
import proofs.«414509_j14181982011419_2_alg».proof.Proof.KI.GatherRegion12
import proofs.«414509_j14181982011419_2_alg».proof.Proof.KI.GatherRegion13
import proofs.«414509_j14181982011419_2_alg».proof.Proof.KI.GatherRegion14
import proofs.«414509_j14181982011419_2_alg».proof.Proof.KI.GatherRegion15
import proofs.«414509_j14181982011419_2_alg».proof.Proof.KI.ActRegion16
import proofs.«414509_j14181982011419_2_alg».proof.Proof.KI.GatherRegion17
import proofs.«414509_j14181982011419_2_alg».proof.Proof.KI.GatherRegion18
import proofs.«414509_j14181982011419_2_alg».proof.Proof.KI.GatherRegion19
import proofs.«414509_j14181982011419_2_alg».proof.Proof.KI.GatherRegion20
import proofs.«414509_j14181982011419_2_alg».proof.Proof.KI.GatherRegion21
import proofs.«414509_j14181982011419_2_alg».proof.Proof.KI.GatherRegion22
import proofs.«414509_j14181982011419_2_alg».proof.Proof.KI.GatherRegion23
import proofs.«414509_j14181982011419_2_alg».proof.Proof.KI.GatherRegion24
import proofs.«414509_j14181982011419_2_alg».proof.Proof.KI.GatherRegion25
import proofs.«414509_j14181982011419_2_alg».proof.Proof.KI.GatherRegion26
import proofs.«414509_j14181982011419_2_alg».proof.Proof.KI.GatherRegion27
import proofs.«414509_j14181982011419_2_alg».proof.Proof.KI.GatherRegion28
import proofs.«414509_j14181982011419_2_alg».proof.Proof.KI.GatherRegion29
import proofs.«414509_j14181982011419_2_alg».proof.Proof.KI.GatherRegion30
import proofs.«414509_j14181982011419_2_alg».proof.Proof.KI.GatherRegion31
import proofs.«414509_j14181982011419_2_alg».proof.Proof.KI.GatherRegion32
import proofs.«414509_j14181982011419_2_alg».proof.Proof.KI.ActRegion33

set_option maxRecDepth 2240

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-! ## The proof data family

One arm per pipeline: a gather region's data at its pinned table and at the valuation the chain gives at its entry; an
activation region's at the valuation at its entry. -/

def pdats : (p : Fin 34) → (c : Dev nD) → Pipeline.Dat τ (Elt F) Unit ℕ (UU nD τ) ℕ (Pipeline.pin (pcfgs (F := F)) (adm m) p) c
  | ⟨0, _⟩ => fun c => dat0 (adm m (0 : Fin 34)) (VV5 m) c
  | ⟨1, _⟩ => fun c => dat1 (adm m (1 : Fin 34)) (VV7 m) c
  | ⟨2, _⟩ => fun c => dat2 (adm m (2 : Fin 34)) (VV9 m) c
  | ⟨3, _⟩ => fun c => dat3 (adm m (3 : Fin 34)) (VV11 m) c
  | ⟨4, _⟩ => fun c => dat4 (adm m (4 : Fin 34)) (VV17 m) c
  | ⟨5, _⟩ => fun c => dat5 (adm m (5 : Fin 34)) (VV19 m) c
  | ⟨6, _⟩ => fun c => dat6 (adm m (6 : Fin 34)) (VV21 m) c
  | ⟨7, _⟩ => fun c => dat7 (adm m (7 : Fin 34)) (VV23 m) c
  | ⟨8, _⟩ => fun c => dat8 (adm m (8 : Fin 34)) (VV29 m) c
  | ⟨9, _⟩ => fun c => dat9 (adm m (9 : Fin 34)) (VV31 m) c
  | ⟨10, _⟩ => fun c => dat10 (adm m (10 : Fin 34)) (VV33 m) c
  | ⟨11, _⟩ => fun c => dat11 (adm m (11 : Fin 34)) (VV35 m) c
  | ⟨12, _⟩ => fun c => dat12 (adm m (12 : Fin 34)) (VV41 m) c
  | ⟨13, _⟩ => fun c => dat13 (adm m (13 : Fin 34)) (VV43 m) c
  | ⟨14, _⟩ => fun c => dat14 (adm m (14 : Fin 34)) (VV45 m) c
  | ⟨15, _⟩ => fun c => dat15 (adm m (15 : Fin 34)) (VV47 m) c
  | ⟨16, _⟩ => fun c => dat16 (VV49 m) c
  | ⟨17, _⟩ => fun c => dat17 (adm m (17 : Fin 34)) (VV55 m) c
  | ⟨18, _⟩ => fun c => dat18 (adm m (18 : Fin 34)) (VV57 m) c
  | ⟨19, _⟩ => fun c => dat19 (adm m (19 : Fin 34)) (VV59 m) c
  | ⟨20, _⟩ => fun c => dat20 (adm m (20 : Fin 34)) (VV61 m) c
  | ⟨21, _⟩ => fun c => dat21 (adm m (21 : Fin 34)) (VV67 m) c
  | ⟨22, _⟩ => fun c => dat22 (adm m (22 : Fin 34)) (VV69 m) c
  | ⟨23, _⟩ => fun c => dat23 (adm m (23 : Fin 34)) (VV71 m) c
  | ⟨24, _⟩ => fun c => dat24 (adm m (24 : Fin 34)) (VV73 m) c
  | ⟨25, _⟩ => fun c => dat25 (adm m (25 : Fin 34)) (VV79 m) c
  | ⟨26, _⟩ => fun c => dat26 (adm m (26 : Fin 34)) (VV81 m) c
  | ⟨27, _⟩ => fun c => dat27 (adm m (27 : Fin 34)) (VV83 m) c
  | ⟨28, _⟩ => fun c => dat28 (adm m (28 : Fin 34)) (VV85 m) c
  | ⟨29, _⟩ => fun c => dat29 (adm m (29 : Fin 34)) (VV91 m) c
  | ⟨30, _⟩ => fun c => dat30 (adm m (30 : Fin 34)) (VV93 m) c
  | ⟨31, _⟩ => fun c => dat31 (adm m (31 : Fin 34)) (VV95 m) c
  | ⟨32, _⟩ => fun c => dat32 (adm m (32 : Fin 34)) (VV97 m) c
  | ⟨33, _⟩ => fun c => dat33 (VV99 m) c
  | ⟨_ + 34, h⟩ => absurd h (Nat.not_lt.2 (Nat.le_add_left _ _))

/-! ## The regions' records

Each at the chain's valuation at its entry: a gather region's table under that valuation is the pinned one (the table's
value there, by the tables' lemmas) and holds row numbers (the precondition); entering rewrites the frame's valuation to
the chain's, leaving likewise. -/

section Records

variable [Cert.Pre_finite_inputs.Facts] (hpre : PreAt m)

/-! ### Region 0 -/

theorem htbl0 (c : Dev nD) : (adm m (0 : Fin 34)).1 = fun k => Vr (VV5 m) c (pre0.ref k) := by
  funext k
  match k with
  | ⟨0, _⟩ => exact ((congrFun (V5_eq m c) main_v7).symm.trans (tbl_0 m c)).symm
  | ⟨_ + 1, h⟩ => exact absurd h (Nat.not_lt.2 (Nat.le_add_left _ _))

def R0 : RegionSeg (pcfgs (F := F)) (adm m) (pdats m) () defs₀ 𝒱₀ L lv (0 : Fin 34) :=
  reg0 (adm m) (pdats m) (VV5 m) (fun e => adm0_range m hpre e) (fun _ => rfl) (htbl0 m)

theorem hpre0 (c : Dev nD) : iprop(StableHlo.held (c : Thread nD τ) (Pipeline.ucRefs τ sig) (V5 m c) ∗ Rest (F := F) c) ⊢ (R0 m hpre).pre c := by
  rw [V5_eq]; exact .rfl

theorem hpost0 (c : Dev nD) : (R0 m hpre).post c ⊢ iprop(StableHlo.held (c : Thread nD τ) (Pipeline.ucRefs τ sig) (V6 m (outs m) c) ∗ Rest (F := F) c) := by
  rw [V6_eq]; exact .rfl

/-! ### Region 1 -/

theorem htbl1 (c : Dev nD) : (adm m (1 : Fin 34)).1 = fun k => Vr (VV7 m) c (pre1.ref k) := by
  funext k
  match k with
  | ⟨0, _⟩ => exact ((congrFun (V7_eq m c) main_v10).symm.trans (tbl_1 m (outs m) c)).symm
  | ⟨_ + 1, h⟩ => exact absurd h (Nat.not_lt.2 (Nat.le_add_left _ _))

def R1 : RegionSeg (pcfgs (F := F)) (adm m) (pdats m) () defs₀ 𝒱₀ L lv (1 : Fin 34) :=
  reg1 (adm m) (pdats m) (VV7 m) (fun e => adm1_range m hpre e) (fun _ => rfl) (htbl1 m)

theorem hpre1 (c : Dev nD) : iprop(StableHlo.held (c : Thread nD τ) (Pipeline.ucRefs τ sig) (V7 m (outs m) c) ∗ Rest (F := F) c) ⊢ (R1 m hpre).pre c := by
  rw [V7_eq]; exact .rfl

theorem hpost1 (c : Dev nD) : (R1 m hpre).post c ⊢ iprop(StableHlo.held (c : Thread nD τ) (Pipeline.ucRefs τ sig) (V8 m (outs m) c) ∗ Rest (F := F) c) := by
  rw [V8_eq]; exact .rfl

/-! ### Region 2 -/

theorem htbl2 (c : Dev nD) : (adm m (2 : Fin 34)).1 = fun k => Vr (VV9 m) c (pre2.ref k) := by
  funext k
  match k with
  | ⟨0, _⟩ => exact ((congrFun (V9_eq m c) main_v13).symm.trans (tbl_2 m (outs m) c)).symm
  | ⟨_ + 1, h⟩ => exact absurd h (Nat.not_lt.2 (Nat.le_add_left _ _))

def R2 : RegionSeg (pcfgs (F := F)) (adm m) (pdats m) () defs₀ 𝒱₀ L lv (2 : Fin 34) :=
  reg2 (adm m) (pdats m) (VV9 m) (fun e => adm2_range m hpre e) (fun _ => rfl) (htbl2 m)

theorem hpre2 (c : Dev nD) : iprop(StableHlo.held (c : Thread nD τ) (Pipeline.ucRefs τ sig) (V9 m (outs m) c) ∗ Rest (F := F) c) ⊢ (R2 m hpre).pre c := by
  rw [V9_eq]; exact .rfl

theorem hpost2 (c : Dev nD) : (R2 m hpre).post c ⊢ iprop(StableHlo.held (c : Thread nD τ) (Pipeline.ucRefs τ sig) (V10 m (outs m) c) ∗ Rest (F := F) c) := by
  rw [V10_eq]; exact .rfl

/-! ### Region 3 -/

theorem htbl3 (c : Dev nD) : (adm m (3 : Fin 34)).1 = fun k => Vr (VV11 m) c (pre3.ref k) := by
  funext k
  match k with
  | ⟨0, _⟩ => exact ((congrFun (V11_eq m c) main_v16).symm.trans (tbl_3 m (outs m) c)).symm
  | ⟨_ + 1, h⟩ => exact absurd h (Nat.not_lt.2 (Nat.le_add_left _ _))

def R3 : RegionSeg (pcfgs (F := F)) (adm m) (pdats m) () defs₀ 𝒱₀ L lv (3 : Fin 34) :=
  reg3 (adm m) (pdats m) (VV11 m) (fun e => adm3_range m hpre e) (fun _ => rfl) (htbl3 m)

theorem hpre3 (c : Dev nD) : iprop(StableHlo.held (c : Thread nD τ) (Pipeline.ucRefs τ sig) (V11 m (outs m) c) ∗ Rest (F := F) c) ⊢ (R3 m hpre).pre c := by
  rw [V11_eq]; exact .rfl

theorem hpost3 (c : Dev nD) : (R3 m hpre).post c ⊢ iprop(StableHlo.held (c : Thread nD τ) (Pipeline.ucRefs τ sig) (V12 m (outs m) c) ∗ Rest (F := F) c) := by
  rw [V12_eq]; exact .rfl

/-! ### Region 4 -/

theorem htbl4 (c : Dev nD) : (adm m (4 : Fin 34)).1 = fun k => Vr (VV17 m) c (pre4.ref k) := by
  funext k
  match k with
  | ⟨0, _⟩ => exact ((congrFun (V17_eq m c) main_v33).symm.trans (tbl_4 m (outs m) c)).symm
  | ⟨_ + 1, h⟩ => exact absurd h (Nat.not_lt.2 (Nat.le_add_left _ _))

def R4 : RegionSeg (pcfgs (F := F)) (adm m) (pdats m) () defs₀ 𝒱₀ L lv (4 : Fin 34) :=
  reg4 (adm m) (pdats m) (VV17 m) (fun e => adm4_range m hpre e) (fun _ => rfl) (htbl4 m)

theorem hpre4 (c : Dev nD) : iprop(StableHlo.held (c : Thread nD τ) (Pipeline.ucRefs τ sig) (V17 m (outs m) c) ∗ Rest (F := F) c) ⊢ (R4 m hpre).pre c := by
  rw [V17_eq]; exact .rfl

theorem hpost4 (c : Dev nD) : (R4 m hpre).post c ⊢ iprop(StableHlo.held (c : Thread nD τ) (Pipeline.ucRefs τ sig) (V18 m (outs m) c) ∗ Rest (F := F) c) := by
  rw [V18_eq]; exact .rfl

/-! ### Region 5 -/

theorem htbl5 (c : Dev nD) : (adm m (5 : Fin 34)).1 = fun k => Vr (VV19 m) c (pre5.ref k) := by
  funext k
  match k with
  | ⟨0, _⟩ => exact ((congrFun (V19_eq m c) main_v36).symm.trans (tbl_5 m (outs m) c)).symm
  | ⟨_ + 1, h⟩ => exact absurd h (Nat.not_lt.2 (Nat.le_add_left _ _))

def R5 : RegionSeg (pcfgs (F := F)) (adm m) (pdats m) () defs₀ 𝒱₀ L lv (5 : Fin 34) :=
  reg5 (adm m) (pdats m) (VV19 m) (fun e => adm5_range m hpre e) (fun _ => rfl) (htbl5 m)

theorem hpre5 (c : Dev nD) : iprop(StableHlo.held (c : Thread nD τ) (Pipeline.ucRefs τ sig) (V19 m (outs m) c) ∗ Rest (F := F) c) ⊢ (R5 m hpre).pre c := by
  rw [V19_eq]; exact .rfl

theorem hpost5 (c : Dev nD) : (R5 m hpre).post c ⊢ iprop(StableHlo.held (c : Thread nD τ) (Pipeline.ucRefs τ sig) (V20 m (outs m) c) ∗ Rest (F := F) c) := by
  rw [V20_eq]; exact .rfl

/-! ### Region 6 -/

theorem htbl6 (c : Dev nD) : (adm m (6 : Fin 34)).1 = fun k => Vr (VV21 m) c (pre6.ref k) := by
  funext k
  match k with
  | ⟨0, _⟩ => exact ((congrFun (V21_eq m c) main_v39).symm.trans (tbl_6 m (outs m) c)).symm
  | ⟨_ + 1, h⟩ => exact absurd h (Nat.not_lt.2 (Nat.le_add_left _ _))

def R6 : RegionSeg (pcfgs (F := F)) (adm m) (pdats m) () defs₀ 𝒱₀ L lv (6 : Fin 34) :=
  reg6 (adm m) (pdats m) (VV21 m) (fun e => adm6_range m hpre e) (fun _ => rfl) (htbl6 m)

theorem hpre6 (c : Dev nD) : iprop(StableHlo.held (c : Thread nD τ) (Pipeline.ucRefs τ sig) (V21 m (outs m) c) ∗ Rest (F := F) c) ⊢ (R6 m hpre).pre c := by
  rw [V21_eq]; exact .rfl

theorem hpost6 (c : Dev nD) : (R6 m hpre).post c ⊢ iprop(StableHlo.held (c : Thread nD τ) (Pipeline.ucRefs τ sig) (V22 m (outs m) c) ∗ Rest (F := F) c) := by
  rw [V22_eq]; exact .rfl

/-! ### Region 7 -/

theorem htbl7 (c : Dev nD) : (adm m (7 : Fin 34)).1 = fun k => Vr (VV23 m) c (pre7.ref k) := by
  funext k
  match k with
  | ⟨0, _⟩ => exact ((congrFun (V23_eq m c) main_v42).symm.trans (tbl_7 m (outs m) c)).symm
  | ⟨_ + 1, h⟩ => exact absurd h (Nat.not_lt.2 (Nat.le_add_left _ _))

def R7 : RegionSeg (pcfgs (F := F)) (adm m) (pdats m) () defs₀ 𝒱₀ L lv (7 : Fin 34) :=
  reg7 (adm m) (pdats m) (VV23 m) (fun e => adm7_range m hpre e) (fun _ => rfl) (htbl7 m)

theorem hpre7 (c : Dev nD) : iprop(StableHlo.held (c : Thread nD τ) (Pipeline.ucRefs τ sig) (V23 m (outs m) c) ∗ Rest (F := F) c) ⊢ (R7 m hpre).pre c := by
  rw [V23_eq]; exact .rfl

theorem hpost7 (c : Dev nD) : (R7 m hpre).post c ⊢ iprop(StableHlo.held (c : Thread nD τ) (Pipeline.ucRefs τ sig) (V24 m (outs m) c) ∗ Rest (F := F) c) := by
  rw [V24_eq]; exact .rfl

/-! ### Region 8 -/

theorem htbl8 (c : Dev nD) : (adm m (8 : Fin 34)).1 = fun k => Vr (VV29 m) c (pre8.ref k) := by
  funext k
  match k with
  | ⟨0, _⟩ => exact ((congrFun (V29_eq m c) main_v59).symm.trans (tbl_8 m (outs m) c)).symm
  | ⟨_ + 1, h⟩ => exact absurd h (Nat.not_lt.2 (Nat.le_add_left _ _))

def R8 : RegionSeg (pcfgs (F := F)) (adm m) (pdats m) () defs₀ 𝒱₀ L lv (8 : Fin 34) :=
  reg8 (adm m) (pdats m) (VV29 m) (fun e => adm8_range m hpre e) (fun _ => rfl) (htbl8 m)

theorem hpre8 (c : Dev nD) : iprop(StableHlo.held (c : Thread nD τ) (Pipeline.ucRefs τ sig) (V29 m (outs m) c) ∗ Rest (F := F) c) ⊢ (R8 m hpre).pre c := by
  rw [V29_eq]; exact .rfl

theorem hpost8 (c : Dev nD) : (R8 m hpre).post c ⊢ iprop(StableHlo.held (c : Thread nD τ) (Pipeline.ucRefs τ sig) (V30 m (outs m) c) ∗ Rest (F := F) c) := by
  rw [V30_eq]; exact .rfl

/-! ### Region 9 -/

theorem htbl9 (c : Dev nD) : (adm m (9 : Fin 34)).1 = fun k => Vr (VV31 m) c (pre9.ref k) := by
  funext k
  match k with
  | ⟨0, _⟩ => exact ((congrFun (V31_eq m c) main_v62).symm.trans (tbl_9 m (outs m) c)).symm
  | ⟨_ + 1, h⟩ => exact absurd h (Nat.not_lt.2 (Nat.le_add_left _ _))

def R9 : RegionSeg (pcfgs (F := F)) (adm m) (pdats m) () defs₀ 𝒱₀ L lv (9 : Fin 34) :=
  reg9 (adm m) (pdats m) (VV31 m) (fun e => adm9_range m hpre e) (fun _ => rfl) (htbl9 m)

theorem hpre9 (c : Dev nD) : iprop(StableHlo.held (c : Thread nD τ) (Pipeline.ucRefs τ sig) (V31 m (outs m) c) ∗ Rest (F := F) c) ⊢ (R9 m hpre).pre c := by
  rw [V31_eq]; exact .rfl

theorem hpost9 (c : Dev nD) : (R9 m hpre).post c ⊢ iprop(StableHlo.held (c : Thread nD τ) (Pipeline.ucRefs τ sig) (V32 m (outs m) c) ∗ Rest (F := F) c) := by
  rw [V32_eq]; exact .rfl

/-! ### Region 10 -/

theorem htbl10 (c : Dev nD) : (adm m (10 : Fin 34)).1 = fun k => Vr (VV33 m) c (pre10.ref k) := by
  funext k
  match k with
  | ⟨0, _⟩ => exact ((congrFun (V33_eq m c) main_v65).symm.trans (tbl_10 m (outs m) c)).symm
  | ⟨_ + 1, h⟩ => exact absurd h (Nat.not_lt.2 (Nat.le_add_left _ _))

def R10 : RegionSeg (pcfgs (F := F)) (adm m) (pdats m) () defs₀ 𝒱₀ L lv (10 : Fin 34) :=
  reg10 (adm m) (pdats m) (VV33 m) (fun e => adm10_range m hpre e) (fun _ => rfl) (htbl10 m)

theorem hpre10 (c : Dev nD) : iprop(StableHlo.held (c : Thread nD τ) (Pipeline.ucRefs τ sig) (V33 m (outs m) c) ∗ Rest (F := F) c) ⊢ (R10 m hpre).pre c := by
  rw [V33_eq]; exact .rfl

theorem hpost10 (c : Dev nD) : (R10 m hpre).post c ⊢ iprop(StableHlo.held (c : Thread nD τ) (Pipeline.ucRefs τ sig) (V34 m (outs m) c) ∗ Rest (F := F) c) := by
  rw [V34_eq]; exact .rfl

/-! ### Region 11 -/

theorem htbl11 (c : Dev nD) : (adm m (11 : Fin 34)).1 = fun k => Vr (VV35 m) c (pre11.ref k) := by
  funext k
  match k with
  | ⟨0, _⟩ => exact ((congrFun (V35_eq m c) main_v68).symm.trans (tbl_11 m (outs m) c)).symm
  | ⟨_ + 1, h⟩ => exact absurd h (Nat.not_lt.2 (Nat.le_add_left _ _))

def R11 : RegionSeg (pcfgs (F := F)) (adm m) (pdats m) () defs₀ 𝒱₀ L lv (11 : Fin 34) :=
  reg11 (adm m) (pdats m) (VV35 m) (fun e => adm11_range m hpre e) (fun _ => rfl) (htbl11 m)

theorem hpre11 (c : Dev nD) : iprop(StableHlo.held (c : Thread nD τ) (Pipeline.ucRefs τ sig) (V35 m (outs m) c) ∗ Rest (F := F) c) ⊢ (R11 m hpre).pre c := by
  rw [V35_eq]; exact .rfl

theorem hpost11 (c : Dev nD) : (R11 m hpre).post c ⊢ iprop(StableHlo.held (c : Thread nD τ) (Pipeline.ucRefs τ sig) (V36 m (outs m) c) ∗ Rest (F := F) c) := by
  rw [V36_eq]; exact .rfl

/-! ### Region 12 -/

theorem htbl12 (c : Dev nD) : (adm m (12 : Fin 34)).1 = fun k => Vr (VV41 m) c (pre12.ref k) := by
  funext k
  match k with
  | ⟨0, _⟩ => exact ((congrFun (V41_eq m c) main_v85).symm.trans (tbl_12 m (outs m) c)).symm
  | ⟨_ + 1, h⟩ => exact absurd h (Nat.not_lt.2 (Nat.le_add_left _ _))

def R12 : RegionSeg (pcfgs (F := F)) (adm m) (pdats m) () defs₀ 𝒱₀ L lv (12 : Fin 34) :=
  reg12 (adm m) (pdats m) (VV41 m) (fun e => adm12_range m hpre e) (fun _ => rfl) (htbl12 m)

theorem hpre12 (c : Dev nD) : iprop(StableHlo.held (c : Thread nD τ) (Pipeline.ucRefs τ sig) (V41 m (outs m) c) ∗ Rest (F := F) c) ⊢ (R12 m hpre).pre c := by
  rw [V41_eq]; exact .rfl

theorem hpost12 (c : Dev nD) : (R12 m hpre).post c ⊢ iprop(StableHlo.held (c : Thread nD τ) (Pipeline.ucRefs τ sig) (V42 m (outs m) c) ∗ Rest (F := F) c) := by
  rw [V42_eq]; exact .rfl

/-! ### Region 13 -/

theorem htbl13 (c : Dev nD) : (adm m (13 : Fin 34)).1 = fun k => Vr (VV43 m) c (pre13.ref k) := by
  funext k
  match k with
  | ⟨0, _⟩ => exact ((congrFun (V43_eq m c) main_v88).symm.trans (tbl_13 m (outs m) c)).symm
  | ⟨_ + 1, h⟩ => exact absurd h (Nat.not_lt.2 (Nat.le_add_left _ _))

def R13 : RegionSeg (pcfgs (F := F)) (adm m) (pdats m) () defs₀ 𝒱₀ L lv (13 : Fin 34) :=
  reg13 (adm m) (pdats m) (VV43 m) (fun e => adm13_range m hpre e) (fun _ => rfl) (htbl13 m)

theorem hpre13 (c : Dev nD) : iprop(StableHlo.held (c : Thread nD τ) (Pipeline.ucRefs τ sig) (V43 m (outs m) c) ∗ Rest (F := F) c) ⊢ (R13 m hpre).pre c := by
  rw [V43_eq]; exact .rfl

theorem hpost13 (c : Dev nD) : (R13 m hpre).post c ⊢ iprop(StableHlo.held (c : Thread nD τ) (Pipeline.ucRefs τ sig) (V44 m (outs m) c) ∗ Rest (F := F) c) := by
  rw [V44_eq]; exact .rfl

/-! ### Region 14 -/

theorem htbl14 (c : Dev nD) : (adm m (14 : Fin 34)).1 = fun k => Vr (VV45 m) c (pre14.ref k) := by
  funext k
  match k with
  | ⟨0, _⟩ => exact ((congrFun (V45_eq m c) main_v91).symm.trans (tbl_14 m (outs m) c)).symm
  | ⟨_ + 1, h⟩ => exact absurd h (Nat.not_lt.2 (Nat.le_add_left _ _))

def R14 : RegionSeg (pcfgs (F := F)) (adm m) (pdats m) () defs₀ 𝒱₀ L lv (14 : Fin 34) :=
  reg14 (adm m) (pdats m) (VV45 m) (fun e => adm14_range m hpre e) (fun _ => rfl) (htbl14 m)

theorem hpre14 (c : Dev nD) : iprop(StableHlo.held (c : Thread nD τ) (Pipeline.ucRefs τ sig) (V45 m (outs m) c) ∗ Rest (F := F) c) ⊢ (R14 m hpre).pre c := by
  rw [V45_eq]; exact .rfl

theorem hpost14 (c : Dev nD) : (R14 m hpre).post c ⊢ iprop(StableHlo.held (c : Thread nD τ) (Pipeline.ucRefs τ sig) (V46 m (outs m) c) ∗ Rest (F := F) c) := by
  rw [V46_eq]; exact .rfl

/-! ### Region 15 -/

theorem htbl15 (c : Dev nD) : (adm m (15 : Fin 34)).1 = fun k => Vr (VV47 m) c (pre15.ref k) := by
  funext k
  match k with
  | ⟨0, _⟩ => exact ((congrFun (V47_eq m c) main_v94).symm.trans (tbl_15 m (outs m) c)).symm
  | ⟨_ + 1, h⟩ => exact absurd h (Nat.not_lt.2 (Nat.le_add_left _ _))

def R15 : RegionSeg (pcfgs (F := F)) (adm m) (pdats m) () defs₀ 𝒱₀ L lv (15 : Fin 34) :=
  reg15 (adm m) (pdats m) (VV47 m) (fun e => adm15_range m hpre e) (fun _ => rfl) (htbl15 m)

theorem hpre15 (c : Dev nD) : iprop(StableHlo.held (c : Thread nD τ) (Pipeline.ucRefs τ sig) (V47 m (outs m) c) ∗ Rest (F := F) c) ⊢ (R15 m hpre).pre c := by
  rw [V47_eq]; exact .rfl

theorem hpost15 (c : Dev nD) : (R15 m hpre).post c ⊢ iprop(StableHlo.held (c : Thread nD τ) (Pipeline.ucRefs τ sig) (V48 m (outs m) c) ∗ Rest (F := F) c) := by
  rw [V48_eq]; exact .rfl

/-! ### Region 16 -/

def R16 : RegionSeg (pcfgs (F := F)) (adm m) (pdats m) () defs₀ 𝒱₀ L lv (16 : Fin 34) :=
  reg16 (VV49 m) (adm m) (pdats m) (fun _ => rfl)

theorem hpre16 (c : Dev nD) : iprop(StableHlo.held (c : Thread nD τ) (Pipeline.ucRefs τ sig) (V49 m (outs m) c) ∗ Rest (F := F) c) ⊢ (R16 m).pre c := by
  rw [V49_eq]; exact .rfl

theorem hpost16 (c : Dev nD) : (R16 m).post c ⊢ iprop(StableHlo.held (c : Thread nD τ) (Pipeline.ucRefs τ sig) (V50 m (outs m) c) ∗ Rest (F := F) c) := by
  rw [V50_eq]; exact .rfl

/-! ### Region 17 -/

theorem htbl17 (c : Dev nD) : (adm m (17 : Fin 34)).1 = fun k => Vr (VV55 m) c (pre17.ref k) := by
  funext k
  match k with
  | ⟨0, _⟩ => exact ((congrFun (V55_eq m c) main_v117).symm.trans (tbl_17 m (outs m) c)).symm
  | ⟨_ + 1, h⟩ => exact absurd h (Nat.not_lt.2 (Nat.le_add_left _ _))

def R17 : RegionSeg (pcfgs (F := F)) (adm m) (pdats m) () defs₀ 𝒱₀ L lv (17 : Fin 34) :=
  reg17 (adm m) (pdats m) (VV55 m) (fun e => adm17_range m hpre e) (fun _ => rfl) (htbl17 m)

theorem hpre17 (c : Dev nD) : iprop(StableHlo.held (c : Thread nD τ) (Pipeline.ucRefs τ sig) (V55 m (outs m) c) ∗ Rest (F := F) c) ⊢ (R17 m hpre).pre c := by
  rw [V55_eq]; exact .rfl

theorem hpost17 (c : Dev nD) : (R17 m hpre).post c ⊢ iprop(StableHlo.held (c : Thread nD τ) (Pipeline.ucRefs τ sig) (V56 m (outs m) c) ∗ Rest (F := F) c) := by
  rw [V56_eq]; exact .rfl

/-! ### Region 18 -/

theorem htbl18 (c : Dev nD) : (adm m (18 : Fin 34)).1 = fun k => Vr (VV57 m) c (pre18.ref k) := by
  funext k
  match k with
  | ⟨0, _⟩ => exact ((congrFun (V57_eq m c) main_v120).symm.trans (tbl_18 m (outs m) c)).symm
  | ⟨_ + 1, h⟩ => exact absurd h (Nat.not_lt.2 (Nat.le_add_left _ _))

def R18 : RegionSeg (pcfgs (F := F)) (adm m) (pdats m) () defs₀ 𝒱₀ L lv (18 : Fin 34) :=
  reg18 (adm m) (pdats m) (VV57 m) (fun e => adm18_range m hpre e) (fun _ => rfl) (htbl18 m)

theorem hpre18 (c : Dev nD) : iprop(StableHlo.held (c : Thread nD τ) (Pipeline.ucRefs τ sig) (V57 m (outs m) c) ∗ Rest (F := F) c) ⊢ (R18 m hpre).pre c := by
  rw [V57_eq]; exact .rfl

theorem hpost18 (c : Dev nD) : (R18 m hpre).post c ⊢ iprop(StableHlo.held (c : Thread nD τ) (Pipeline.ucRefs τ sig) (V58 m (outs m) c) ∗ Rest (F := F) c) := by
  rw [V58_eq]; exact .rfl

/-! ### Region 19 -/

theorem htbl19 (c : Dev nD) : (adm m (19 : Fin 34)).1 = fun k => Vr (VV59 m) c (pre19.ref k) := by
  funext k
  match k with
  | ⟨0, _⟩ => exact ((congrFun (V59_eq m c) main_v123).symm.trans (tbl_19 m (outs m) c)).symm
  | ⟨_ + 1, h⟩ => exact absurd h (Nat.not_lt.2 (Nat.le_add_left _ _))

def R19 : RegionSeg (pcfgs (F := F)) (adm m) (pdats m) () defs₀ 𝒱₀ L lv (19 : Fin 34) :=
  reg19 (adm m) (pdats m) (VV59 m) (fun e => adm19_range m hpre e) (fun _ => rfl) (htbl19 m)

theorem hpre19 (c : Dev nD) : iprop(StableHlo.held (c : Thread nD τ) (Pipeline.ucRefs τ sig) (V59 m (outs m) c) ∗ Rest (F := F) c) ⊢ (R19 m hpre).pre c := by
  rw [V59_eq]; exact .rfl

theorem hpost19 (c : Dev nD) : (R19 m hpre).post c ⊢ iprop(StableHlo.held (c : Thread nD τ) (Pipeline.ucRefs τ sig) (V60 m (outs m) c) ∗ Rest (F := F) c) := by
  rw [V60_eq]; exact .rfl

/-! ### Region 20 -/

theorem htbl20 (c : Dev nD) : (adm m (20 : Fin 34)).1 = fun k => Vr (VV61 m) c (pre20.ref k) := by
  funext k
  match k with
  | ⟨0, _⟩ => exact ((congrFun (V61_eq m c) main_v126).symm.trans (tbl_20 m (outs m) c)).symm
  | ⟨_ + 1, h⟩ => exact absurd h (Nat.not_lt.2 (Nat.le_add_left _ _))

def R20 : RegionSeg (pcfgs (F := F)) (adm m) (pdats m) () defs₀ 𝒱₀ L lv (20 : Fin 34) :=
  reg20 (adm m) (pdats m) (VV61 m) (fun e => adm20_range m hpre e) (fun _ => rfl) (htbl20 m)

theorem hpre20 (c : Dev nD) : iprop(StableHlo.held (c : Thread nD τ) (Pipeline.ucRefs τ sig) (V61 m (outs m) c) ∗ Rest (F := F) c) ⊢ (R20 m hpre).pre c := by
  rw [V61_eq]; exact .rfl

theorem hpost20 (c : Dev nD) : (R20 m hpre).post c ⊢ iprop(StableHlo.held (c : Thread nD τ) (Pipeline.ucRefs τ sig) (V62 m (outs m) c) ∗ Rest (F := F) c) := by
  rw [V62_eq]; exact .rfl

/-! ### Region 21 -/

theorem htbl21 (c : Dev nD) : (adm m (21 : Fin 34)).1 = fun k => Vr (VV67 m) c (pre21.ref k) := by
  funext k
  match k with
  | ⟨0, _⟩ => exact ((congrFun (V67_eq m c) main_v143).symm.trans (tbl_21 m (outs m) c)).symm
  | ⟨_ + 1, h⟩ => exact absurd h (Nat.not_lt.2 (Nat.le_add_left _ _))

def R21 : RegionSeg (pcfgs (F := F)) (adm m) (pdats m) () defs₀ 𝒱₀ L lv (21 : Fin 34) :=
  reg21 (adm m) (pdats m) (VV67 m) (fun e => adm21_range m hpre e) (fun _ => rfl) (htbl21 m)

theorem hpre21 (c : Dev nD) : iprop(StableHlo.held (c : Thread nD τ) (Pipeline.ucRefs τ sig) (V67 m (outs m) c) ∗ Rest (F := F) c) ⊢ (R21 m hpre).pre c := by
  rw [V67_eq]; exact .rfl

theorem hpost21 (c : Dev nD) : (R21 m hpre).post c ⊢ iprop(StableHlo.held (c : Thread nD τ) (Pipeline.ucRefs τ sig) (V68 m (outs m) c) ∗ Rest (F := F) c) := by
  rw [V68_eq]; exact .rfl

/-! ### Region 22 -/

theorem htbl22 (c : Dev nD) : (adm m (22 : Fin 34)).1 = fun k => Vr (VV69 m) c (pre22.ref k) := by
  funext k
  match k with
  | ⟨0, _⟩ => exact ((congrFun (V69_eq m c) main_v146).symm.trans (tbl_22 m (outs m) c)).symm
  | ⟨_ + 1, h⟩ => exact absurd h (Nat.not_lt.2 (Nat.le_add_left _ _))

def R22 : RegionSeg (pcfgs (F := F)) (adm m) (pdats m) () defs₀ 𝒱₀ L lv (22 : Fin 34) :=
  reg22 (adm m) (pdats m) (VV69 m) (fun e => adm22_range m hpre e) (fun _ => rfl) (htbl22 m)

theorem hpre22 (c : Dev nD) : iprop(StableHlo.held (c : Thread nD τ) (Pipeline.ucRefs τ sig) (V69 m (outs m) c) ∗ Rest (F := F) c) ⊢ (R22 m hpre).pre c := by
  rw [V69_eq]; exact .rfl

theorem hpost22 (c : Dev nD) : (R22 m hpre).post c ⊢ iprop(StableHlo.held (c : Thread nD τ) (Pipeline.ucRefs τ sig) (V70 m (outs m) c) ∗ Rest (F := F) c) := by
  rw [V70_eq]; exact .rfl

/-! ### Region 23 -/

theorem htbl23 (c : Dev nD) : (adm m (23 : Fin 34)).1 = fun k => Vr (VV71 m) c (pre23.ref k) := by
  funext k
  match k with
  | ⟨0, _⟩ => exact ((congrFun (V71_eq m c) main_v149).symm.trans (tbl_23 m (outs m) c)).symm
  | ⟨_ + 1, h⟩ => exact absurd h (Nat.not_lt.2 (Nat.le_add_left _ _))

def R23 : RegionSeg (pcfgs (F := F)) (adm m) (pdats m) () defs₀ 𝒱₀ L lv (23 : Fin 34) :=
  reg23 (adm m) (pdats m) (VV71 m) (fun e => adm23_range m hpre e) (fun _ => rfl) (htbl23 m)

theorem hpre23 (c : Dev nD) : iprop(StableHlo.held (c : Thread nD τ) (Pipeline.ucRefs τ sig) (V71 m (outs m) c) ∗ Rest (F := F) c) ⊢ (R23 m hpre).pre c := by
  rw [V71_eq]; exact .rfl

theorem hpost23 (c : Dev nD) : (R23 m hpre).post c ⊢ iprop(StableHlo.held (c : Thread nD τ) (Pipeline.ucRefs τ sig) (V72 m (outs m) c) ∗ Rest (F := F) c) := by
  rw [V72_eq]; exact .rfl

/-! ### Region 24 -/

theorem htbl24 (c : Dev nD) : (adm m (24 : Fin 34)).1 = fun k => Vr (VV73 m) c (pre24.ref k) := by
  funext k
  match k with
  | ⟨0, _⟩ => exact ((congrFun (V73_eq m c) main_v152).symm.trans (tbl_24 m (outs m) c)).symm
  | ⟨_ + 1, h⟩ => exact absurd h (Nat.not_lt.2 (Nat.le_add_left _ _))

def R24 : RegionSeg (pcfgs (F := F)) (adm m) (pdats m) () defs₀ 𝒱₀ L lv (24 : Fin 34) :=
  reg24 (adm m) (pdats m) (VV73 m) (fun e => adm24_range m hpre e) (fun _ => rfl) (htbl24 m)

theorem hpre24 (c : Dev nD) : iprop(StableHlo.held (c : Thread nD τ) (Pipeline.ucRefs τ sig) (V73 m (outs m) c) ∗ Rest (F := F) c) ⊢ (R24 m hpre).pre c := by
  rw [V73_eq]; exact .rfl

theorem hpost24 (c : Dev nD) : (R24 m hpre).post c ⊢ iprop(StableHlo.held (c : Thread nD τ) (Pipeline.ucRefs τ sig) (V74 m (outs m) c) ∗ Rest (F := F) c) := by
  rw [V74_eq]; exact .rfl

/-! ### Region 25 -/

theorem htbl25 (c : Dev nD) : (adm m (25 : Fin 34)).1 = fun k => Vr (VV79 m) c (pre25.ref k) := by
  funext k
  match k with
  | ⟨0, _⟩ => exact ((congrFun (V79_eq m c) main_v169).symm.trans (tbl_25 m (outs m) c)).symm
  | ⟨_ + 1, h⟩ => exact absurd h (Nat.not_lt.2 (Nat.le_add_left _ _))

def R25 : RegionSeg (pcfgs (F := F)) (adm m) (pdats m) () defs₀ 𝒱₀ L lv (25 : Fin 34) :=
  reg25 (adm m) (pdats m) (VV79 m) (fun e => adm25_range m hpre e) (fun _ => rfl) (htbl25 m)

theorem hpre25 (c : Dev nD) : iprop(StableHlo.held (c : Thread nD τ) (Pipeline.ucRefs τ sig) (V79 m (outs m) c) ∗ Rest (F := F) c) ⊢ (R25 m hpre).pre c := by
  rw [V79_eq]; exact .rfl

theorem hpost25 (c : Dev nD) : (R25 m hpre).post c ⊢ iprop(StableHlo.held (c : Thread nD τ) (Pipeline.ucRefs τ sig) (V80 m (outs m) c) ∗ Rest (F := F) c) := by
  rw [V80_eq]; exact .rfl

/-! ### Region 26 -/

theorem htbl26 (c : Dev nD) : (adm m (26 : Fin 34)).1 = fun k => Vr (VV81 m) c (pre26.ref k) := by
  funext k
  match k with
  | ⟨0, _⟩ => exact ((congrFun (V81_eq m c) main_v172).symm.trans (tbl_26 m (outs m) c)).symm
  | ⟨_ + 1, h⟩ => exact absurd h (Nat.not_lt.2 (Nat.le_add_left _ _))

def R26 : RegionSeg (pcfgs (F := F)) (adm m) (pdats m) () defs₀ 𝒱₀ L lv (26 : Fin 34) :=
  reg26 (adm m) (pdats m) (VV81 m) (fun e => adm26_range m hpre e) (fun _ => rfl) (htbl26 m)

theorem hpre26 (c : Dev nD) : iprop(StableHlo.held (c : Thread nD τ) (Pipeline.ucRefs τ sig) (V81 m (outs m) c) ∗ Rest (F := F) c) ⊢ (R26 m hpre).pre c := by
  rw [V81_eq]; exact .rfl

theorem hpost26 (c : Dev nD) : (R26 m hpre).post c ⊢ iprop(StableHlo.held (c : Thread nD τ) (Pipeline.ucRefs τ sig) (V82 m (outs m) c) ∗ Rest (F := F) c) := by
  rw [V82_eq]; exact .rfl

/-! ### Region 27 -/

theorem htbl27 (c : Dev nD) : (adm m (27 : Fin 34)).1 = fun k => Vr (VV83 m) c (pre27.ref k) := by
  funext k
  match k with
  | ⟨0, _⟩ => exact ((congrFun (V83_eq m c) main_v175).symm.trans (tbl_27 m (outs m) c)).symm
  | ⟨_ + 1, h⟩ => exact absurd h (Nat.not_lt.2 (Nat.le_add_left _ _))

def R27 : RegionSeg (pcfgs (F := F)) (adm m) (pdats m) () defs₀ 𝒱₀ L lv (27 : Fin 34) :=
  reg27 (adm m) (pdats m) (VV83 m) (fun e => adm27_range m hpre e) (fun _ => rfl) (htbl27 m)

theorem hpre27 (c : Dev nD) : iprop(StableHlo.held (c : Thread nD τ) (Pipeline.ucRefs τ sig) (V83 m (outs m) c) ∗ Rest (F := F) c) ⊢ (R27 m hpre).pre c := by
  rw [V83_eq]; exact .rfl

theorem hpost27 (c : Dev nD) : (R27 m hpre).post c ⊢ iprop(StableHlo.held (c : Thread nD τ) (Pipeline.ucRefs τ sig) (V84 m (outs m) c) ∗ Rest (F := F) c) := by
  rw [V84_eq]; exact .rfl

/-! ### Region 28 -/

theorem htbl28 (c : Dev nD) : (adm m (28 : Fin 34)).1 = fun k => Vr (VV85 m) c (pre28.ref k) := by
  funext k
  match k with
  | ⟨0, _⟩ => exact ((congrFun (V85_eq m c) main_v178).symm.trans (tbl_28 m (outs m) c)).symm
  | ⟨_ + 1, h⟩ => exact absurd h (Nat.not_lt.2 (Nat.le_add_left _ _))

def R28 : RegionSeg (pcfgs (F := F)) (adm m) (pdats m) () defs₀ 𝒱₀ L lv (28 : Fin 34) :=
  reg28 (adm m) (pdats m) (VV85 m) (fun e => adm28_range m hpre e) (fun _ => rfl) (htbl28 m)

theorem hpre28 (c : Dev nD) : iprop(StableHlo.held (c : Thread nD τ) (Pipeline.ucRefs τ sig) (V85 m (outs m) c) ∗ Rest (F := F) c) ⊢ (R28 m hpre).pre c := by
  rw [V85_eq]; exact .rfl

theorem hpost28 (c : Dev nD) : (R28 m hpre).post c ⊢ iprop(StableHlo.held (c : Thread nD τ) (Pipeline.ucRefs τ sig) (V86 m (outs m) c) ∗ Rest (F := F) c) := by
  rw [V86_eq]; exact .rfl

/-! ### Region 29 -/

theorem htbl29 (c : Dev nD) : (adm m (29 : Fin 34)).1 = fun k => Vr (VV91 m) c (pre29.ref k) := by
  funext k
  match k with
  | ⟨0, _⟩ => exact ((congrFun (V91_eq m c) main_v195).symm.trans (tbl_29 m (outs m) c)).symm
  | ⟨_ + 1, h⟩ => exact absurd h (Nat.not_lt.2 (Nat.le_add_left _ _))

def R29 : RegionSeg (pcfgs (F := F)) (adm m) (pdats m) () defs₀ 𝒱₀ L lv (29 : Fin 34) :=
  reg29 (adm m) (pdats m) (VV91 m) (fun e => adm29_range m hpre e) (fun _ => rfl) (htbl29 m)

theorem hpre29 (c : Dev nD) : iprop(StableHlo.held (c : Thread nD τ) (Pipeline.ucRefs τ sig) (V91 m (outs m) c) ∗ Rest (F := F) c) ⊢ (R29 m hpre).pre c := by
  rw [V91_eq]; exact .rfl

theorem hpost29 (c : Dev nD) : (R29 m hpre).post c ⊢ iprop(StableHlo.held (c : Thread nD τ) (Pipeline.ucRefs τ sig) (V92 m (outs m) c) ∗ Rest (F := F) c) := by
  rw [V92_eq]; exact .rfl

/-! ### Region 30 -/

theorem htbl30 (c : Dev nD) : (adm m (30 : Fin 34)).1 = fun k => Vr (VV93 m) c (pre30.ref k) := by
  funext k
  match k with
  | ⟨0, _⟩ => exact ((congrFun (V93_eq m c) main_v198).symm.trans (tbl_30 m (outs m) c)).symm
  | ⟨_ + 1, h⟩ => exact absurd h (Nat.not_lt.2 (Nat.le_add_left _ _))

def R30 : RegionSeg (pcfgs (F := F)) (adm m) (pdats m) () defs₀ 𝒱₀ L lv (30 : Fin 34) :=
  reg30 (adm m) (pdats m) (VV93 m) (fun e => adm30_range m hpre e) (fun _ => rfl) (htbl30 m)

theorem hpre30 (c : Dev nD) : iprop(StableHlo.held (c : Thread nD τ) (Pipeline.ucRefs τ sig) (V93 m (outs m) c) ∗ Rest (F := F) c) ⊢ (R30 m hpre).pre c := by
  rw [V93_eq]; exact .rfl

theorem hpost30 (c : Dev nD) : (R30 m hpre).post c ⊢ iprop(StableHlo.held (c : Thread nD τ) (Pipeline.ucRefs τ sig) (V94 m (outs m) c) ∗ Rest (F := F) c) := by
  rw [V94_eq]; exact .rfl

/-! ### Region 31 -/

theorem htbl31 (c : Dev nD) : (adm m (31 : Fin 34)).1 = fun k => Vr (VV95 m) c (pre31.ref k) := by
  funext k
  match k with
  | ⟨0, _⟩ => exact ((congrFun (V95_eq m c) main_v201).symm.trans (tbl_31 m (outs m) c)).symm
  | ⟨_ + 1, h⟩ => exact absurd h (Nat.not_lt.2 (Nat.le_add_left _ _))

def R31 : RegionSeg (pcfgs (F := F)) (adm m) (pdats m) () defs₀ 𝒱₀ L lv (31 : Fin 34) :=
  reg31 (adm m) (pdats m) (VV95 m) (fun e => adm31_range m hpre e) (fun _ => rfl) (htbl31 m)

theorem hpre31 (c : Dev nD) : iprop(StableHlo.held (c : Thread nD τ) (Pipeline.ucRefs τ sig) (V95 m (outs m) c) ∗ Rest (F := F) c) ⊢ (R31 m hpre).pre c := by
  rw [V95_eq]; exact .rfl

theorem hpost31 (c : Dev nD) : (R31 m hpre).post c ⊢ iprop(StableHlo.held (c : Thread nD τ) (Pipeline.ucRefs τ sig) (V96 m (outs m) c) ∗ Rest (F := F) c) := by
  rw [V96_eq]; exact .rfl

/-! ### Region 32 -/

theorem htbl32 (c : Dev nD) : (adm m (32 : Fin 34)).1 = fun k => Vr (VV97 m) c (pre32.ref k) := by
  funext k
  match k with
  | ⟨0, _⟩ => exact ((congrFun (V97_eq m c) main_v204).symm.trans (tbl_32 m (outs m) c)).symm
  | ⟨_ + 1, h⟩ => exact absurd h (Nat.not_lt.2 (Nat.le_add_left _ _))

def R32 : RegionSeg (pcfgs (F := F)) (adm m) (pdats m) () defs₀ 𝒱₀ L lv (32 : Fin 34) :=
  reg32 (adm m) (pdats m) (VV97 m) (fun e => adm32_range m hpre e) (fun _ => rfl) (htbl32 m)

theorem hpre32 (c : Dev nD) : iprop(StableHlo.held (c : Thread nD τ) (Pipeline.ucRefs τ sig) (V97 m (outs m) c) ∗ Rest (F := F) c) ⊢ (R32 m hpre).pre c := by
  rw [V97_eq]; exact .rfl

theorem hpost32 (c : Dev nD) : (R32 m hpre).post c ⊢ iprop(StableHlo.held (c : Thread nD τ) (Pipeline.ucRefs τ sig) (V98 m (outs m) c) ∗ Rest (F := F) c) := by
  rw [V98_eq]; exact .rfl

/-! ### Region 33 -/

def R33 : RegionSeg (pcfgs (F := F)) (adm m) (pdats m) () defs₀ 𝒱₀ L lv (33 : Fin 34) :=
  reg33 (VV99 m) (adm m) (pdats m) (fun _ => rfl)

theorem hpre33 (c : Dev nD) : iprop(StableHlo.held (c : Thread nD τ) (Pipeline.ucRefs τ sig) (V99 m (outs m) c) ∗ Rest (F := F) c) ⊢ (R33 m).pre c := by
  rw [V99_eq]; exact .rfl

theorem hpost33 (c : Dev nD) : (R33 m).post c ⊢ iprop(StableHlo.held (c : Thread nD τ) (Pipeline.ucRefs τ sig) (V100 m (outs m) c) ∗ Rest (F := F) c) := by
  rw [V100_eq]; exact .rfl

/-! ## The run -/

include hpre in
/-- Under the precondition (the source indices row numbers), every weakly fair execution of @main from memory `m` with zero
    counters terminates, and every final memory holds the result array at what the chain's last valuation assigns it and
    each argument as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v219) = VV100 m c main_v219
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  OrdCont.mono (θ_run defs (onTc (τ := τ) (main (F := F))) ⟨m, fun _ => 0, ρ⟩)
    (fun r h c => ⟨(h c).1.trans (congrFun (V100_eq m c) main_v219), (h c).2⟩)
    (run_value m ρ (outs m) (adm m) (pdats m)
      (R0 m hpre) (hpre0 m hpre) (hpost0 m hpre)
      (R1 m hpre) (hpre1 m hpre) (hpost1 m hpre)
      (R2 m hpre) (hpre2 m hpre) (hpost2 m hpre)
      (R3 m hpre) (hpre3 m hpre) (hpost3 m hpre)
      (R4 m hpre) (hpre4 m hpre) (hpost4 m hpre)
      (R5 m hpre) (hpre5 m hpre) (hpost5 m hpre)
      (R6 m hpre) (hpre6 m hpre) (hpost6 m hpre)
      (R7 m hpre) (hpre7 m hpre) (hpost7 m hpre)
      (R8 m hpre) (hpre8 m hpre) (hpost8 m hpre)
      (R9 m hpre) (hpre9 m hpre) (hpost9 m hpre)
      (R10 m hpre) (hpre10 m hpre) (hpost10 m hpre)
      (R11 m hpre) (hpre11 m hpre) (hpost11 m hpre)
      (R12 m hpre) (hpre12 m hpre) (hpost12 m hpre)
      (R13 m hpre) (hpre13 m hpre) (hpost13 m hpre)
      (R14 m hpre) (hpre14 m hpre) (hpost14 m hpre)
      (R15 m hpre) (hpre15 m hpre) (hpost15 m hpre)
      (R16 m) (hpre16 m) (hpost16 m)
      (R17 m hpre) (hpre17 m hpre) (hpost17 m hpre)
      (R18 m hpre) (hpre18 m hpre) (hpost18 m hpre)
      (R19 m hpre) (hpre19 m hpre) (hpost19 m hpre)
      (R20 m hpre) (hpre20 m hpre) (hpost20 m hpre)
      (R21 m hpre) (hpre21 m hpre) (hpost21 m hpre)
      (R22 m hpre) (hpre22 m hpre) (hpost22 m hpre)
      (R23 m hpre) (hpre23 m hpre) (hpost23 m hpre)
      (R24 m hpre) (hpre24 m hpre) (hpost24 m hpre)
      (R25 m hpre) (hpre25 m hpre) (hpost25 m hpre)
      (R26 m hpre) (hpre26 m hpre) (hpost26 m hpre)
      (R27 m hpre) (hpre27 m hpre) (hpost27 m hpre)
      (R28 m hpre) (hpre28 m hpre) (hpost28 m hpre)
      (R29 m hpre) (hpre29 m hpre) (hpost29 m hpre)
      (R30 m hpre) (hpre30 m hpre) (hpost30 m hpre)
      (R31 m hpre) (hpre31 m hpre) (hpost31 m hpre)
      (R32 m hpre) (hpre32 m hpre) (hpost32 m hpre)
      (R33 m) (hpre33 m) (hpost33 m))

end Records

end Cert.KernelIdeal.Hand

end
-- ==== Proof.KI.HostSpec.lean ====
/-
  The host glue between the kernel regions, as pure functions of the arrays it reads: a relation's row of a four-row
  argument laid flat; the edge values padded with zeros and stood up as a column, and its four chunks (one per gather
  region); a relation's aggregate — the scatter-add, at the relation's destination rows, of the first 500000 rows of its
  four gather results laid end to end, into zeros; and the four aggregates stacked along a new leading axis. Each is the
  composition of the printed operations, none opened.
-/
import proofs.«414509_j14181982011419_2_alg».proof.Proof.KI.Common

noncomputable section

namespace Cert.KernelIdeal.Hand

open Cert.KernelIdeal Cert.KernelIdeal.Gen
open Idealize.ShloMosaic

variable {F : FTy → Type} [FloatOps F]

/-- Each of the four rows is a slice of a four-row array; each of the four chunks a slice of the padded column. -/
theorem slices_relRow : ∀ r : Fin 4, S4x500000.Slices ![r.val, 0] S1x500000 := by decide
theorem slices_valChunk : ∀ c : Fin 4, S524288x1.Slices ![c.val * 131072, 0] S131072x1 := by decide

/-- Row `r` of a four-row array, laid flat. -/
def relRowOf {e : EltTy} (a : (⟨S4x500000, e⟩ : BufTy).Contents (Elt F)) (r : Fin 4) : (⟨S500000, e⟩ : BufTy).Contents (Elt F) :=
  shapeCast S500000 (extractStridedSlice S1x500000 ![r.val, 0] a (slices_relRow r)) shapeCasts_S1x500000_S500000

/-- Relation `r`'s edge values, padded with zeros to 524288 entries and stood up as a column. -/
def valCol (a3 : (⟨S4x500000, .f32⟩ : BufTy).Contents (Elt F)) (r : Fin 4) : (⟨S524288x1, .f32⟩ : BufTy).Contents (Elt F) :=
  shapeCast S524288x1
    (pad S524288 ![0] ![24288] ![0] (relRowOf a3 r) (sitofp .f32 (constantI S_ 32 0#32) : (⟨S_, .f32⟩ : BufTy).Contents (Elt F))
      pads_S500000_S524288_0242880 h_S_)
    shapeCasts_S524288_S524288x1

/-- Chunk `c` (131072 rows) of a padded column. -/
def valChunkOf (col : (⟨S524288x1, .f32⟩ : BufTy).Contents (Elt F)) (c : Fin 4) : (⟨S131072x1, .f32⟩ : BufTy).Contents (Elt F) :=
  extractStridedSlice S131072x1 ![c.val * 131072, 0] col (slices_valChunk c)

/-- Chunk `c` of relation `r`'s edge values: what gather region `4 r + c` of a layer multiplies its rows by. -/
def valChunk (a3 : (⟨S4x500000, .f32⟩ : BufTy).Contents (Elt F)) (r c : Fin 4) : (⟨S131072x1, .f32⟩ : BufTy).Contents (Elt F) :=
  valChunkOf (valCol a3 r) c

/-- Relation `r`'s aggregate: the four gather results laid end to end, their first 500000 rows scatter-added into zeros
    at the relation's destination rows (row `r` of `a2`). -/
def aggOf (a2 : (⟨S4x500000, .i32⟩ : BufTy).Contents (Elt F)) (r : Fin 4)
    (g0 g1 g2 g3 : (⟨S131072x128, .f32⟩ : BufTy).Contents (Elt F)) : (⟨S100000x128, .f32⟩ : BufTy).Contents (Elt F) :=
  Host.scatterAdd scatter_S100000x128_S500000x1_S500000x128_1_0_0_1
    (broadcastInDim S100000x128 ![] bcast_S_S100000x128 (constant S_ .f32 0x00000000#32 : (⟨S_, .f32⟩ : BufTy).Contents (Elt F)))
    (broadcastInDim S500000x1 ![0] bcast_S500000_S500000x1_0 (relRowOf a2 r))
    (extractStridedSlice S500000x128 ![0, 0]
      (concatenate S524288x128 0 [⟨S131072x128, g0⟩, ⟨S131072x128, g1⟩, ⟨S131072x128, g2⟩, ⟨S131072x128, g3⟩]
        concatenates_S131072x128_S131072x128_S131072x128_S131072x128_S524288x128_d0)
      slices_S524288x128_S500000x128_0_0)

/-- The four aggregates stacked along a new leading axis: what the activation-and-sum region reads. -/
def stackOf (A0 A1 A2 A3 : (⟨S100000x128, .f32⟩ : BufTy).Contents (Elt F)) : (⟨S4x100000x128, .f32⟩ : BufTy).Contents (Elt F) :=
  concatenate S4x100000x128 0
    [⟨S1x100000x128, broadcastInDim S1x100000x128 ![1, 2] bcast_S100000x128_S1x100000x128_1_2 A0⟩,
     ⟨S1x100000x128, broadcastInDim S1x100000x128 ![1, 2] bcast_S100000x128_S1x100000x128_1_2 A1⟩,
     ⟨S1x100000x128, broadcastInDim S1x100000x128 ![1, 2] bcast_S100000x128_S1x100000x128_1_2 A2⟩,
     ⟨S1x100000x128, broadcastInDim S1x100000x128 ![1, 2] bcast_S100000x128_S1x100000x128_1_2 A3⟩]
    concatenates_S1x100000x128_S1x100000x128_S1x100000x128_S1x100000x128_S4x100000x128_d0

end Cert.KernelIdeal.Hand

end
-- ==== Proof.KI.HostValues.lean ====
/-
  The host stretches between the kernel regions, as values. For an ARBITRARY valuation `W` of the program's buffers
  (nothing in the first two sections mentions the chain of valuations between @main's items), what a stretch of host
  operations leaves in a buffer a later item reads, as a pure function of `W`'s entries. For one relation of a layer:
  * after the five stretches before the relation's first gather region, the edge values' padded column and its
    first chunk (that region's value window), functions of the fourth argument alone;
  * after the stretch before each of the next three gather regions, that region's chunk of the column;
  * after the stretch that follows the relation's fourth gather region, the relation's aggregate, a function of the
    third argument and of the four gather results.
  At a layer's end, the stretch after the last gather region also stacks the four aggregates: the array the
  activation-and-sum region reads. A stretch leaves every buffer outside its written list as it was (`…_keeps`).
  Here: relation 0 of layer 1 and layer 1's stack; the other relations' and layer 2's statements are these at their
  own stretches' numbers and buffers. Last, worked instantiations at the valuations between @main's items: the entries read are traced
  back, item by item, to the launch contents or to what a region left.
-/
import proofs.«414509_j14181982011419_2_alg».proof.Proof.KI.RegionsP
import proofs.«414509_j14181982011419_2_alg».proof.Proof.KI.HostSpec
import Idealize.ShloMosaic.Lib.StableHlo.Run

set_option maxRecDepth 2240

noncomputable section

namespace Cert.KernelIdeal.Hand

open Cert.KernelIdeal Cert.KernelIdeal.Gen Cert.KernelIdeal.GenP
open Idealize.ShloMosaic Idealize.ShloMosaic.TcCoe

variable {F : FTy → Type} [FloatOps F]

section Relation0

variable (W : Valuation τ sig (Elt F))

/-- The five stretches before the relation's first gather region leave, in `main_v6`, its padded value column; -/
theorem pro0_valCol :
    StableHlo.after hostOps0_4 (StableHlo.after hostOps0_3 (StableHlo.after hostOps0_2 (StableHlo.after hostOps0_1 (StableHlo.after hostOps0 W)))) main_v6
      = valCol (W main_arg3) (0 : Fin 4) := by
  after_results; rfl

/-- and in `main_v8`, that region's value window, the column's chunk 0. -/
theorem pro0_valChunk0 :
    StableHlo.after hostOps0_4 (StableHlo.after hostOps0_3 (StableHlo.after hostOps0_2 (StableHlo.after hostOps0_1 (StableHlo.after hostOps0 W)))) main_v8
      = valChunk (W main_arg3) (0 : Fin 4) 0 := by
  after_results; rfl

/-- The stretch before the relation's second gather region leaves, in `main_v11`, chunk 1 of the column it finds in `main_v6`; -/
theorem hostOps1_valChunk : StableHlo.after hostOps1 W main_v11 = valChunkOf (W main_v6) 1 := by
  after_results; rfl

/-- the one before the third, in `main_v14`, chunk 2; -/
theorem hostOps2_valChunk : StableHlo.after hostOps2 W main_v14 = valChunkOf (W main_v6) 2 := by
  after_results; rfl

/-- the one before the fourth, in `main_v17`, chunk 3. -/
theorem hostOps3_valChunk : StableHlo.after hostOps3 W main_v17 = valChunkOf (W main_v6) 3 := by
  after_results; rfl

/-- The stretch after the relation's fourth gather region leaves, in `main_v25`, the relation's aggregate of the four gather results. -/
theorem hostOps4_agg :
    StableHlo.after hostOps4 W main_v25 = aggOf (W main_arg2) (0 : Fin 4) (W main_v9) (W main_v12) (W main_v15) (W main_v18) := by
  after_results; rfl

/-- What each of these stretches but the last leaves as it was. -/
theorem hostOps0_keeps (r : Ref sig .tc) (h : r ∉ hostOps0_W) : StableHlo.after hostOps0 W r = W r :=
  StableHlo.after_of_writes_sub hostOps0 W hostOps0_writes h
theorem hostOps0_1_keeps (r : Ref sig .tc) (h : r ∉ hostOps0_1_W) : StableHlo.after hostOps0_1 W r = W r :=
  StableHlo.after_of_writes_sub hostOps0_1 W hostOps0_1_writes h
theorem hostOps0_2_keeps (r : Ref sig .tc) (h : r ∉ hostOps0_2_W) : StableHlo.after hostOps0_2 W r = W r :=
  StableHlo.after_of_writes_sub hostOps0_2 W hostOps0_2_writes h
theorem hostOps0_3_keeps (r : Ref sig .tc) (h : r ∉ hostOps0_3_W) : StableHlo.after hostOps0_3 W r = W r :=
  StableHlo.after_of_writes_sub hostOps0_3 W hostOps0_3_writes h
theorem hostOps0_4_keeps (r : Ref sig .tc) (h : r ∉ hostOps0_4_W) : StableHlo.after hostOps0_4 W r = W r :=
  StableHlo.after_of_writes_sub hostOps0_4 W hostOps0_4_writes h
theorem hostOps1_keeps (r : Ref sig .tc) (h : r ∉ hostOps1_W) : StableHlo.after hostOps1 W r = W r :=
  StableHlo.after_of_writes_sub hostOps1 W hostOps1_writes h
theorem hostOps2_keeps (r : Ref sig .tc) (h : r ∉ hostOps2_W) : StableHlo.after hostOps2 W r = W r :=
  StableHlo.after_of_writes_sub hostOps2 W hostOps2_writes h
theorem hostOps3_keeps (r : Ref sig .tc) (h : r ∉ hostOps3_W) : StableHlo.after hostOps3 W r = W r :=
  StableHlo.after_of_writes_sub hostOps3 W hostOps3_writes h

end Relation0

section Stack1

variable (W : Valuation τ sig (Elt F))

/-- The stretch after the layer's last gather region leaves, in `main_v108`, the four relations' aggregates stacked: the
    first three as it finds them, the fourth as it computes it from the last four gather results. -/
theorem hostOps16_stack :
    StableHlo.after hostOps16 W main_v108
      = stackOf (W main_v25) (W main_v51) (W main_v77)
          (aggOf (W main_arg2) (3 : Fin 4) (W main_v87) (W main_v90) (W main_v93) (W main_v96)) := by
  after_results; rfl

/-- What that stretch leaves as it was. -/
theorem hostOps16_keeps (r : Ref sig .tc) (h : r ∉ hostOps16_W) : StableHlo.after hostOps16 W r = W r :=
  StableHlo.after_of_writes_sub hostOps16 W hostOps16_writes h

end Stack1

/-! ## Worked instantiations at the valuations between @main's items -/

section Chain

variable (m : (ℓ : Loc nD τ sig) → Buf (Elt F) ℓ) (outs : Outs (F := F)) (c : Dev nD)

/-- Region 0 is entered with its value window holding chunk 0 of relation 0's values, read off the launch memory. -/
theorem V5_main_v8 : V5 m c main_v8 = valChunk (m ((c : Thread nD τ).loc main_arg3)) 0 0 :=
  pro0_valChunk0 (V0 m c)

/-- The padded column reaches region 0's entry, -/
theorem V5_main_v6 : V5 m c main_v6 = valCol (m ((c : Thread nD τ).loc main_arg3)) 0 :=
  pro0_valCol (V0 m c)

/-- and region 1's: region 0 writes `main_v9` only, the stretch after it `main_v10` and `main_v11`; so region 1 is
    entered with its value window holding chunk 1. -/
theorem V7_main_v11 : V7 m outs c main_v11 = valChunk (m ((c : Thread nD τ).loc main_arg3)) 0 1 :=
  (hostOps1_valChunk (V6 m outs c)).trans
    (congrArg (valChunkOf · 1) ((V6_of m outs c main_v6 (by decide)).trans (V5_main_v6 m c)))

/-- The stretch after region 3 reads the four gather results where the regions left them — `main_v9` since item 5,
    `main_v12` since item 7, `main_v15` since item 9, `main_v18` since item 11: no item between writes them — and
    the third argument as launched. -/
theorem V13_main_v25 : V13 m outs c main_v25
    = aggOf (m ((c : Thread nD τ).loc main_arg2)) 0 (outs 6 main_v9 c) (outs 8 main_v12 c) (outs 10 main_v15 c) (outs 12 main_v18 c) := by
  have h2 : V12 m outs c main_arg2 = m ((c : Thread nD τ).loc main_arg2) :=
    (V12_of m outs c main_arg2 (by decide)).trans <| (V11_of m outs c main_arg2 (by decide)).trans <| (V10_of m outs c main_arg2 (by decide)).trans <|
    (V9_of m outs c main_arg2 (by decide)).trans <| (V8_of m outs c main_arg2 (by decide)).trans <| (V7_of m outs c main_arg2 (by decide)).trans <|
    (V6_of m outs c main_arg2 (by decide)).trans <| (V5_of m c main_arg2 (by decide)).trans <| (V4_of m c main_arg2 (by decide)).trans <|
    (V3_of m c main_arg2 (by decide)).trans <| (V2_of m c main_arg2 (by decide)).trans <| V1_of m c main_arg2 (by decide)
  have h9 : V12 m outs c main_v9 = outs 6 main_v9 c :=
    (V12_of m outs c main_v9 (by decide)).trans <| (V11_of m outs c main_v9 (by decide)).trans <| (V10_of m outs c main_v9 (by decide)).trans <|
    (V9_of m outs c main_v9 (by decide)).trans <| (V8_of m outs c main_v9 (by decide)).trans <| (V7_of m outs c main_v9 (by decide)).trans <|
    Function.update_self ..
  have h12 : V12 m outs c main_v12 = outs 8 main_v12 c :=
    (V12_of m outs c main_v12 (by decide)).trans <| (V11_of m outs c main_v12 (by decide)).trans <| (V10_of m outs c main_v12 (by decide)).trans <|
    (V9_of m outs c main_v12 (by decide)).trans <| Function.update_self ..
  have h15 : V12 m outs c main_v15 = outs 10 main_v15 c :=
    (V12_of m outs c main_v15 (by decide)).trans <| (V11_of m outs c main_v15 (by decide)).trans <| Function.update_self ..
  have h18 : V12 m outs c main_v18 = outs 12 main_v18 c := Function.update_self ..
  rw [show V13 m outs c main_v25 = _ from hostOps4_agg (V12 m outs c), h2, h9, h12, h15, h18]

end Chain

end Cert.KernelIdeal.Hand

end
-- ==== Proof.KI.HostValuesSib.lean ====
/-
  The host stretches of the other relations of layer 1, of layer 2, and layer 2's stack, as values: the statements of
  relation 0 of layer 1 and of layer 1's stack at the other stretches' numbers and buffers, each proved as there.
-/
import proofs.«414509_j14181982011419_2_alg».proof.Proof.KI.RegionsP
import proofs.«414509_j14181982011419_2_alg».proof.Proof.KI.HostSpec
import Idealize.ShloMosaic.Lib.StableHlo.Run

set_option maxRecDepth 2240

noncomputable section

namespace Cert.KernelIdeal.Hand

open Cert.KernelIdeal Cert.KernelIdeal.Gen Cert.KernelIdeal.GenP
open Idealize.ShloMosaic Idealize.ShloMosaic.TcCoe

variable {F : FTy → Type} [FloatOps F]

/-! ## Relation 1 of layer 1: stretches `hostOps4` … `hostOps8` -/

section Relation4

variable (W : Valuation τ sig (Elt F))

/-- The five stretches before the relation's first gather region leave, in `main_v32`, its padded value column; -/
theorem pro4_valCol :
    StableHlo.after hostOps4_4 (StableHlo.after hostOps4_3 (StableHlo.after hostOps4_2 (StableHlo.after hostOps4_1 (StableHlo.after hostOps4 W)))) main_v32
      = valCol (W main_arg3) (1 : Fin 4) := by
  after_results; rfl

/-- and in `main_v34`, that region's value window, the column's chunk 0. -/
theorem pro4_valChunk0 :
    StableHlo.after hostOps4_4 (StableHlo.after hostOps4_3 (StableHlo.after hostOps4_2 (StableHlo.after hostOps4_1 (StableHlo.after hostOps4 W)))) main_v34
      = valChunk (W main_arg3) (1 : Fin 4) 0 := by
  after_results; rfl

/-- The stretch before the relation's second gather region leaves, in `main_v37`, chunk 1 of the column it finds in `main_v32`; -/
theorem hostOps5_valChunk : StableHlo.after hostOps5 W main_v37 = valChunkOf (W main_v32) 1 := by
  after_results; rfl

/-- the one before the third, in `main_v40`, chunk 2; -/
theorem hostOps6_valChunk : StableHlo.after hostOps6 W main_v40 = valChunkOf (W main_v32) 2 := by
  after_results; rfl

/-- the one before the fourth, in `main_v43`, chunk 3. -/
theorem hostOps7_valChunk : StableHlo.after hostOps7 W main_v43 = valChunkOf (W main_v32) 3 := by
  after_results; rfl

/-- The stretch after the relation's fourth gather region leaves, in `main_v51`, the relation's aggregate of the four gather results. -/
theorem hostOps8_agg :
    StableHlo.after hostOps8 W main_v51 = aggOf (W main_arg2) (1 : Fin 4) (W main_v35) (W main_v38) (W main_v41) (W main_v44) := by
  after_results; rfl

/-- What each of these stretches but the last leaves as it was. -/
theorem hostOps4_keeps (r : Ref sig .tc) (h : r ∉ hostOps4_W) : StableHlo.after hostOps4 W r = W r :=
  StableHlo.after_of_writes_sub hostOps4 W hostOps4_writes h
theorem hostOps4_1_keeps (r : Ref sig .tc) (h : r ∉ hostOps4_1_W) : StableHlo.after hostOps4_1 W r = W r :=
  StableHlo.after_of_writes_sub hostOps4_1 W hostOps4_1_writes h
theorem hostOps4_2_keeps (r : Ref sig .tc) (h : r ∉ hostOps4_2_W) : StableHlo.after hostOps4_2 W r = W r :=
  StableHlo.after_of_writes_sub hostOps4_2 W hostOps4_2_writes h
theorem hostOps4_3_keeps (r : Ref sig .tc) (h : r ∉ hostOps4_3_W) : StableHlo.after hostOps4_3 W r = W r :=
  StableHlo.after_of_writes_sub hostOps4_3 W hostOps4_3_writes h
theorem hostOps4_4_keeps (r : Ref sig .tc) (h : r ∉ hostOps4_4_W) : StableHlo.after hostOps4_4 W r = W r :=
  StableHlo.after_of_writes_sub hostOps4_4 W hostOps4_4_writes h
theorem hostOps5_keeps (r : Ref sig .tc) (h : r ∉ hostOps5_W) : StableHlo.after hostOps5 W r = W r :=
  StableHlo.after_of_writes_sub hostOps5 W hostOps5_writes h
theorem hostOps6_keeps (r : Ref sig .tc) (h : r ∉ hostOps6_W) : StableHlo.after hostOps6 W r = W r :=
  StableHlo.after_of_writes_sub hostOps6 W hostOps6_writes h
theorem hostOps7_keeps (r : Ref sig .tc) (h : r ∉ hostOps7_W) : StableHlo.after hostOps7 W r = W r :=
  StableHlo.after_of_writes_sub hostOps7 W hostOps7_writes h

end Relation4

/-! ## Relation 2 of layer 1: stretches `hostOps8` … `hostOps12` -/

section Relation8

variable (W : Valuation τ sig (Elt F))

/-- The five stretches before the relation's first gather region leave, in `main_v58`, its padded value column; -/
theorem pro8_valCol :
    StableHlo.after hostOps8_4 (StableHlo.after hostOps8_3 (StableHlo.after hostOps8_2 (StableHlo.after hostOps8_1 (StableHlo.after hostOps8 W)))) main_v58
      = valCol (W main_arg3) (2 : Fin 4) := by
  after_results; rfl

/-- and in `main_v60`, that region's value window, the column's chunk 0. -/
theorem pro8_valChunk0 :
    StableHlo.after hostOps8_4 (StableHlo.after hostOps8_3 (StableHlo.after hostOps8_2 (StableHlo.after hostOps8_1 (StableHlo.after hostOps8 W)))) main_v60
      = valChunk (W main_arg3) (2 : Fin 4) 0 := by
  after_results; rfl

/-- The stretch before the relation's second gather region leaves, in `main_v63`, chunk 1 of the column it finds in `main_v58`; -/
theorem hostOps9_valChunk : StableHlo.after hostOps9 W main_v63 = valChunkOf (W main_v58) 1 := by
  after_results; rfl

/-- the one before the third, in `main_v66`, chunk 2; -/
theorem hostOps10_valChunk : StableHlo.after hostOps10 W main_v66 = valChunkOf (W main_v58) 2 := by
  after_results; rfl

/-- the one before the fourth, in `main_v69`, chunk 3. -/
theorem hostOps11_valChunk : StableHlo.after hostOps11 W main_v69 = valChunkOf (W main_v58) 3 := by
  after_results; rfl

/-- The stretch after the relation's fourth gather region leaves, in `main_v77`, the relation's aggregate of the four gather results. -/
theorem hostOps12_agg :
    StableHlo.after hostOps12 W main_v77 = aggOf (W main_arg2) (2 : Fin 4) (W main_v61) (W main_v64) (W main_v67) (W main_v70) := by
  after_results; rfl

/-- What each of these stretches but the last leaves as it was. -/
theorem hostOps8_keeps (r : Ref sig .tc) (h : r ∉ hostOps8_W) : StableHlo.after hostOps8 W r = W r :=
  StableHlo.after_of_writes_sub hostOps8 W hostOps8_writes h
theorem hostOps8_1_keeps (r : Ref sig .tc) (h : r ∉ hostOps8_1_W) : StableHlo.after hostOps8_1 W r = W r :=
  StableHlo.after_of_writes_sub hostOps8_1 W hostOps8_1_writes h
theorem hostOps8_2_keeps (r : Ref sig .tc) (h : r ∉ hostOps8_2_W) : StableHlo.after hostOps8_2 W r = W r :=
  StableHlo.after_of_writes_sub hostOps8_2 W hostOps8_2_writes h
theorem hostOps8_3_keeps (r : Ref sig .tc) (h : r ∉ hostOps8_3_W) : StableHlo.after hostOps8_3 W r = W r :=
  StableHlo.after_of_writes_sub hostOps8_3 W hostOps8_3_writes h
theorem hostOps8_4_keeps (r : Ref sig .tc) (h : r ∉ hostOps8_4_W) : StableHlo.after hostOps8_4 W r = W r :=
  StableHlo.after_of_writes_sub hostOps8_4 W hostOps8_4_writes h
theorem hostOps9_keeps (r : Ref sig .tc) (h : r ∉ hostOps9_W) : StableHlo.after hostOps9 W r = W r :=
  StableHlo.after_of_writes_sub hostOps9 W hostOps9_writes h
theorem hostOps10_keeps (r : Ref sig .tc) (h : r ∉ hostOps10_W) : StableHlo.after hostOps10 W r = W r :=
  StableHlo.after_of_writes_sub hostOps10 W hostOps10_writes h
theorem hostOps11_keeps (r : Ref sig .tc) (h : r ∉ hostOps11_W) : StableHlo.after hostOps11 W r = W r :=
  StableHlo.after_of_writes_sub hostOps11 W hostOps11_writes h

end Relation8

/-! ## Relation 3 of layer 1: stretches `hostOps12` … `hostOps16` -/

section Relation12

variable (W : Valuation τ sig (Elt F))

/-- The five stretches before the relation's first gather region leave, in `main_v84`, its padded value column; -/
theorem pro12_valCol :
    StableHlo.after hostOps12_4 (StableHlo.after hostOps12_3 (StableHlo.after hostOps12_2 (StableHlo.after hostOps12_1 (StableHlo.after hostOps12 W)))) main_v84
      = valCol (W main_arg3) (3 : Fin 4) := by
  after_results; rfl

/-- and in `main_v86`, that region's value window, the column's chunk 0. -/
theorem pro12_valChunk0 :
    StableHlo.after hostOps12_4 (StableHlo.after hostOps12_3 (StableHlo.after hostOps12_2 (StableHlo.after hostOps12_1 (StableHlo.after hostOps12 W)))) main_v86
      = valChunk (W main_arg3) (3 : Fin 4) 0 := by
  after_results; rfl

/-- The stretch before the relation's second gather region leaves, in `main_v89`, chunk 1 of the column it finds in `main_v84`; -/
theorem hostOps13_valChunk : StableHlo.after hostOps13 W main_v89 = valChunkOf (W main_v84) 1 := by
  after_results; rfl

/-- the one before the third, in `main_v92`, chunk 2; -/
theorem hostOps14_valChunk : StableHlo.after hostOps14 W main_v92 = valChunkOf (W main_v84) 2 := by
  after_results; rfl

/-- the one before the fourth, in `main_v95`, chunk 3. -/
theorem hostOps15_valChunk : StableHlo.after hostOps15 W main_v95 = valChunkOf (W main_v84) 3 := by
  after_results; rfl

/-- The stretch after the relation's fourth gather region leaves, in `main_v103`, the relation's aggregate of the four gather results. -/
theorem hostOps16_agg :
    StableHlo.after hostOps16 W main_v103 = aggOf (W main_arg2) (3 : Fin 4) (W main_v87) (W main_v90) (W main_v93) (W main_v96) := by
  after_results; rfl

/-- What each of these stretches but the last leaves as it was. -/
theorem hostOps12_keeps (r : Ref sig .tc) (h : r ∉ hostOps12_W) : StableHlo.after hostOps12 W r = W r :=
  StableHlo.after_of_writes_sub hostOps12 W hostOps12_writes h
theorem hostOps12_1_keeps (r : Ref sig .tc) (h : r ∉ hostOps12_1_W) : StableHlo.after hostOps12_1 W r = W r :=
  StableHlo.after_of_writes_sub hostOps12_1 W hostOps12_1_writes h
theorem hostOps12_2_keeps (r : Ref sig .tc) (h : r ∉ hostOps12_2_W) : StableHlo.after hostOps12_2 W r = W r :=
  StableHlo.after_of_writes_sub hostOps12_2 W hostOps12_2_writes h
theorem hostOps12_3_keeps (r : Ref sig .tc) (h : r ∉ hostOps12_3_W) : StableHlo.after hostOps12_3 W r = W r :=
  StableHlo.after_of_writes_sub hostOps12_3 W hostOps12_3_writes h
theorem hostOps12_4_keeps (r : Ref sig .tc) (h : r ∉ hostOps12_4_W) : StableHlo.after hostOps12_4 W r = W r :=
  StableHlo.after_of_writes_sub hostOps12_4 W hostOps12_4_writes h
theorem hostOps13_keeps (r : Ref sig .tc) (h : r ∉ hostOps13_W) : StableHlo.after hostOps13 W r = W r :=
  StableHlo.after_of_writes_sub hostOps13 W hostOps13_writes h
theorem hostOps14_keeps (r : Ref sig .tc) (h : r ∉ hostOps14_W) : StableHlo.after hostOps14 W r = W r :=
  StableHlo.after_of_writes_sub hostOps14 W hostOps14_writes h
theorem hostOps15_keeps (r : Ref sig .tc) (h : r ∉ hostOps15_W) : StableHlo.after hostOps15 W r = W r :=
  StableHlo.after_of_writes_sub hostOps15 W hostOps15_writes h

end Relation12

/-! ## Relation 0 of layer 2: stretches `hostOps17` … `hostOps21` -/

section Relation17

variable (W : Valuation τ sig (Elt F))

/-- The five stretches before the relation's first gather region leave, in `main_v116`, its padded value column; -/
theorem pro17_valCol :
    StableHlo.after hostOps17_4 (StableHlo.after hostOps17_3 (StableHlo.after hostOps17_2 (StableHlo.after hostOps17_1 (StableHlo.after hostOps17 W)))) main_v116
      = valCol (W main_arg3) (0 : Fin 4) := by
  after_results; rfl

/-- and in `main_v118`, that region's value window, the column's chunk 0. -/
theorem pro17_valChunk0 :
    StableHlo.after hostOps17_4 (StableHlo.after hostOps17_3 (StableHlo.after hostOps17_2 (StableHlo.after hostOps17_1 (StableHlo.after hostOps17 W)))) main_v118
      = valChunk (W main_arg3) (0 : Fin 4) 0 := by
  after_results; rfl

/-- The stretch before the relation's second gather region leaves, in `main_v121`, chunk 1 of the column it finds in `main_v116`; -/
theorem hostOps18_valChunk : StableHlo.after hostOps18 W main_v121 = valChunkOf (W main_v116) 1 := by
  after_results; rfl

/-- the one before the third, in `main_v124`, chunk 2; -/
theorem hostOps19_valChunk : StableHlo.after hostOps19 W main_v124 = valChunkOf (W main_v116) 2 := by
  after_results; rfl

/-- the one before the fourth, in `main_v127`, chunk 3. -/
theorem hostOps20_valChunk : StableHlo.after hostOps20 W main_v127 = valChunkOf (W main_v116) 3 := by
  after_results; rfl

/-- The stretch after the relation's fourth gather region leaves, in `main_v135`, the relation's aggregate of the four gather results. -/
theorem hostOps21_agg :
    StableHlo.after hostOps21 W main_v135 = aggOf (W main_arg2) (0 : Fin 4) (W main_v119) (W main_v122) (W main_v125) (W main_v128) := by
  after_results; rfl

/-- What each of these stretches but the last leaves as it was. -/
theorem hostOps17_keeps (r : Ref sig .tc) (h : r ∉ hostOps17_W) : StableHlo.after hostOps17 W r = W r :=
  StableHlo.after_of_writes_sub hostOps17 W hostOps17_writes h
theorem hostOps17_1_keeps (r : Ref sig .tc) (h : r ∉ hostOps17_1_W) : StableHlo.after hostOps17_1 W r = W r :=
  StableHlo.after_of_writes_sub hostOps17_1 W hostOps17_1_writes h
theorem hostOps17_2_keeps (r : Ref sig .tc) (h : r ∉ hostOps17_2_W) : StableHlo.after hostOps17_2 W r = W r :=
  StableHlo.after_of_writes_sub hostOps17_2 W hostOps17_2_writes h
theorem hostOps17_3_keeps (r : Ref sig .tc) (h : r ∉ hostOps17_3_W) : StableHlo.after hostOps17_3 W r = W r :=
  StableHlo.after_of_writes_sub hostOps17_3 W hostOps17_3_writes h
theorem hostOps17_4_keeps (r : Ref sig .tc) (h : r ∉ hostOps17_4_W) : StableHlo.after hostOps17_4 W r = W r :=
  StableHlo.after_of_writes_sub hostOps17_4 W hostOps17_4_writes h
theorem hostOps18_keeps (r : Ref sig .tc) (h : r ∉ hostOps18_W) : StableHlo.after hostOps18 W r = W r :=
  StableHlo.after_of_writes_sub hostOps18 W hostOps18_writes h
theorem hostOps19_keeps (r : Ref sig .tc) (h : r ∉ hostOps19_W) : StableHlo.after hostOps19 W r = W r :=
  StableHlo.after_of_writes_sub hostOps19 W hostOps19_writes h
theorem hostOps20_keeps (r : Ref sig .tc) (h : r ∉ hostOps20_W) : StableHlo.after hostOps20 W r = W r :=
  StableHlo.after_of_writes_sub hostOps20 W hostOps20_writes h

end Relation17

/-! ## Relation 1 of layer 2: stretches `hostOps21` … `hostOps25` -/

section Relation21

variable (W : Valuation τ sig (Elt F))

/-- The five stretches before the relation's first gather region leave, in `main_v142`, its padded value column; -/
theorem pro21_valCol :
    StableHlo.after hostOps21_4 (StableHlo.after hostOps21_3 (StableHlo.after hostOps21_2 (StableHlo.after hostOps21_1 (StableHlo.after hostOps21 W)))) main_v142
      = valCol (W main_arg3) (1 : Fin 4) := by
  after_results; rfl

/-- and in `main_v144`, that region's value window, the column's chunk 0. -/
theorem pro21_valChunk0 :
    StableHlo.after hostOps21_4 (StableHlo.after hostOps21_3 (StableHlo.after hostOps21_2 (StableHlo.after hostOps21_1 (StableHlo.after hostOps21 W)))) main_v144
      = valChunk (W main_arg3) (1 : Fin 4) 0 := by
  after_results; rfl

/-- The stretch before the relation's second gather region leaves, in `main_v147`, chunk 1 of the column it finds in `main_v142`; -/
theorem hostOps22_valChunk : StableHlo.after hostOps22 W main_v147 = valChunkOf (W main_v142) 1 := by
  after_results; rfl

/-- the one before the third, in `main_v150`, chunk 2; -/
theorem hostOps23_valChunk : StableHlo.after hostOps23 W main_v150 = valChunkOf (W main_v142) 2 := by
  after_results; rfl

/-- the one before the fourth, in `main_v153`, chunk 3. -/
theorem hostOps24_valChunk : StableHlo.after hostOps24 W main_v153 = valChunkOf (W main_v142) 3 := by
  after_results; rfl

/-- The stretch after the relation's fourth gather region leaves, in `main_v161`, the relation's aggregate of the four gather results. -/
theorem hostOps25_agg :
    StableHlo.after hostOps25 W main_v161 = aggOf (W main_arg2) (1 : Fin 4) (W main_v145) (W main_v148) (W main_v151) (W main_v154) := by
  after_results; rfl

/-- What each of these stretches but the last leaves as it was. -/
theorem hostOps21_keeps (r : Ref sig .tc) (h : r ∉ hostOps21_W) : StableHlo.after hostOps21 W r = W r :=
  StableHlo.after_of_writes_sub hostOps21 W hostOps21_writes h
theorem hostOps21_1_keeps (r : Ref sig .tc) (h : r ∉ hostOps21_1_W) : StableHlo.after hostOps21_1 W r = W r :=
  StableHlo.after_of_writes_sub hostOps21_1 W hostOps21_1_writes h
theorem hostOps21_2_keeps (r : Ref sig .tc) (h : r ∉ hostOps21_2_W) : StableHlo.after hostOps21_2 W r = W r :=
  StableHlo.after_of_writes_sub hostOps21_2 W hostOps21_2_writes h
theorem hostOps21_3_keeps (r : Ref sig .tc) (h : r ∉ hostOps21_3_W) : StableHlo.after hostOps21_3 W r = W r :=
  StableHlo.after_of_writes_sub hostOps21_3 W hostOps21_3_writes h
theorem hostOps21_4_keeps (r : Ref sig .tc) (h : r ∉ hostOps21_4_W) : StableHlo.after hostOps21_4 W r = W r :=
  StableHlo.after_of_writes_sub hostOps21_4 W hostOps21_4_writes h
theorem hostOps22_keeps (r : Ref sig .tc) (h : r ∉ hostOps22_W) : StableHlo.after hostOps22 W r = W r :=
  StableHlo.after_of_writes_sub hostOps22 W hostOps22_writes h
theorem hostOps23_keeps (r : Ref sig .tc) (h : r ∉ hostOps23_W) : StableHlo.after hostOps23 W r = W r :=
  StableHlo.after_of_writes_sub hostOps23 W hostOps23_writes h
theorem hostOps24_keeps (r : Ref sig .tc) (h : r ∉ hostOps24_W) : StableHlo.after hostOps24 W r = W r :=
  StableHlo.after_of_writes_sub hostOps24 W hostOps24_writes h

end Relation21

/-! ## Relation 2 of layer 2: stretches `hostOps25` … `hostOps29` -/

section Relation25

variable (W : Valuation τ sig (Elt F))

/-- The five stretches before the relation's first gather region leave, in `main_v168`, its padded value column; -/
theorem pro25_valCol :
    StableHlo.after hostOps25_4 (StableHlo.after hostOps25_3 (StableHlo.after hostOps25_2 (StableHlo.after hostOps25_1 (StableHlo.after hostOps25 W)))) main_v168
      = valCol (W main_arg3) (2 : Fin 4) := by
  after_results; rfl

/-- and in `main_v170`, that region's value window, the column's chunk 0. -/
theorem pro25_valChunk0 :
    StableHlo.after hostOps25_4 (StableHlo.after hostOps25_3 (StableHlo.after hostOps25_2 (StableHlo.after hostOps25_1 (StableHlo.after hostOps25 W)))) main_v170
      = valChunk (W main_arg3) (2 : Fin 4) 0 := by
  after_results; rfl

/-- The stretch before the relation's second gather region leaves, in `main_v173`, chunk 1 of the column it finds in `main_v168`; -/
theorem hostOps26_valChunk : StableHlo.after hostOps26 W main_v173 = valChunkOf (W main_v168) 1 := by
  after_results; rfl

/-- the one before the third, in `main_v176`, chunk 2; -/
theorem hostOps27_valChunk : StableHlo.after hostOps27 W main_v176 = valChunkOf (W main_v168) 2 := by
  after_results; rfl

/-- the one before the fourth, in `main_v179`, chunk 3. -/
theorem hostOps28_valChunk : StableHlo.after hostOps28 W main_v179 = valChunkOf (W main_v168) 3 := by
  after_results; rfl

/-- The stretch after the relation's fourth gather region leaves, in `main_v187`, the relation's aggregate of the four gather results. -/
theorem hostOps29_agg :
    StableHlo.after hostOps29 W main_v187 = aggOf (W main_arg2) (2 : Fin 4) (W main_v171) (W main_v174) (W main_v177) (W main_v180) := by
  after_results; rfl

/-- What each of these stretches but the last leaves as it was. -/
theorem hostOps25_keeps (r : Ref sig .tc) (h : r ∉ hostOps25_W) : StableHlo.after hostOps25 W r = W r :=
  StableHlo.after_of_writes_sub hostOps25 W hostOps25_writes h
theorem hostOps25_1_keeps (r : Ref sig .tc) (h : r ∉ hostOps25_1_W) : StableHlo.after hostOps25_1 W r = W r :=
  StableHlo.after_of_writes_sub hostOps25_1 W hostOps25_1_writes h
theorem hostOps25_2_keeps (r : Ref sig .tc) (h : r ∉ hostOps25_2_W) : StableHlo.after hostOps25_2 W r = W r :=
  StableHlo.after_of_writes_sub hostOps25_2 W hostOps25_2_writes h
theorem hostOps25_3_keeps (r : Ref sig .tc) (h : r ∉ hostOps25_3_W) : StableHlo.after hostOps25_3 W r = W r :=
  StableHlo.after_of_writes_sub hostOps25_3 W hostOps25_3_writes h
theorem hostOps25_4_keeps (r : Ref sig .tc) (h : r ∉ hostOps25_4_W) : StableHlo.after hostOps25_4 W r = W r :=
  StableHlo.after_of_writes_sub hostOps25_4 W hostOps25_4_writes h
theorem hostOps26_keeps (r : Ref sig .tc) (h : r ∉ hostOps26_W) : StableHlo.after hostOps26 W r = W r :=
  StableHlo.after_of_writes_sub hostOps26 W hostOps26_writes h
theorem hostOps27_keeps (r : Ref sig .tc) (h : r ∉ hostOps27_W) : StableHlo.after hostOps27 W r = W r :=
  StableHlo.after_of_writes_sub hostOps27 W hostOps27_writes h
theorem hostOps28_keeps (r : Ref sig .tc) (h : r ∉ hostOps28_W) : StableHlo.after hostOps28 W r = W r :=
  StableHlo.after_of_writes_sub hostOps28 W hostOps28_writes h

end Relation25

/-! ## Relation 3 of layer 2: stretches `hostOps29` … `hostOps33` -/

section Relation29

variable (W : Valuation τ sig (Elt F))

/-- The five stretches before the relation's first gather region leave, in `main_v194`, its padded value column; -/
theorem pro29_valCol :
    StableHlo.after hostOps29_4 (StableHlo.after hostOps29_3 (StableHlo.after hostOps29_2 (StableHlo.after hostOps29_1 (StableHlo.after hostOps29 W)))) main_v194
      = valCol (W main_arg3) (3 : Fin 4) := by
  after_results; rfl

/-- and in `main_v196`, that region's value window, the column's chunk 0. -/
theorem pro29_valChunk0 :
    StableHlo.after hostOps29_4 (StableHlo.after hostOps29_3 (StableHlo.after hostOps29_2 (StableHlo.after hostOps29_1 (StableHlo.after hostOps29 W)))) main_v196
      = valChunk (W main_arg3) (3 : Fin 4) 0 := by
  after_results; rfl

/-- The stretch before the relation's second gather region leaves, in `main_v199`, chunk 1 of the column it finds in `main_v194`; -/
theorem hostOps30_valChunk : StableHlo.after hostOps30 W main_v199 = valChunkOf (W main_v194) 1 := by
  after_results; rfl

/-- the one before the third, in `main_v202`, chunk 2; -/
theorem hostOps31_valChunk : StableHlo.after hostOps31 W main_v202 = valChunkOf (W main_v194) 2 := by
  after_results; rfl

/-- the one before the fourth, in `main_v205`, chunk 3. -/
theorem hostOps32_valChunk : StableHlo.after hostOps32 W main_v205 = valChunkOf (W main_v194) 3 := by
  after_results; rfl

/-- The stretch after the relation's fourth gather region leaves, in `main_v213`, the relation's aggregate of the four gather results. -/
theorem hostOps33_agg :
    StableHlo.after hostOps33 W main_v213 = aggOf (W main_arg2) (3 : Fin 4) (W main_v197) (W main_v200) (W main_v203) (W main_v206) := by
  after_results; rfl

/-- What each of these stretches but the last leaves as it was. -/
theorem hostOps29_keeps (r : Ref sig .tc) (h : r ∉ hostOps29_W) : StableHlo.after hostOps29 W r = W r :=
  StableHlo.after_of_writes_sub hostOps29 W hostOps29_writes h
theorem hostOps29_1_keeps (r : Ref sig .tc) (h : r ∉ hostOps29_1_W) : StableHlo.after hostOps29_1 W r = W r :=
  StableHlo.after_of_writes_sub hostOps29_1 W hostOps29_1_writes h
theorem hostOps29_2_keeps (r : Ref sig .tc) (h : r ∉ hostOps29_2_W) : StableHlo.after hostOps29_2 W r = W r :=
  StableHlo.after_of_writes_sub hostOps29_2 W hostOps29_2_writes h
theorem hostOps29_3_keeps (r : Ref sig .tc) (h : r ∉ hostOps29_3_W) : StableHlo.after hostOps29_3 W r = W r :=
  StableHlo.after_of_writes_sub hostOps29_3 W hostOps29_3_writes h
theorem hostOps29_4_keeps (r : Ref sig .tc) (h : r ∉ hostOps29_4_W) : StableHlo.after hostOps29_4 W r = W r :=
  StableHlo.after_of_writes_sub hostOps29_4 W hostOps29_4_writes h
theorem hostOps30_keeps (r : Ref sig .tc) (h : r ∉ hostOps30_W) : StableHlo.after hostOps30 W r = W r :=
  StableHlo.after_of_writes_sub hostOps30 W hostOps30_writes h
theorem hostOps31_keeps (r : Ref sig .tc) (h : r ∉ hostOps31_W) : StableHlo.after hostOps31 W r = W r :=
  StableHlo.after_of_writes_sub hostOps31 W hostOps31_writes h
theorem hostOps32_keeps (r : Ref sig .tc) (h : r ∉ hostOps32_W) : StableHlo.after hostOps32 W r = W r :=
  StableHlo.after_of_writes_sub hostOps32 W hostOps32_writes h

end Relation29

/-! ## Layer 2's stack: stretch `hostOps33` -/

section Stack2

variable (W : Valuation τ sig (Elt F))

/-- The stretch after the layer's last gather region leaves, in `main_v218`, the four relations' aggregates stacked: the
    first three as it finds them, the fourth as it computes it from the last four gather results. -/
theorem hostOps33_stack :
    StableHlo.after hostOps33 W main_v218
      = stackOf (W main_v135) (W main_v161) (W main_v187)
          (aggOf (W main_arg2) (3 : Fin 4) (W main_v197) (W main_v200) (W main_v203) (W main_v206)) := by
  after_results; rfl

/-- What that stretch leaves as it was. -/
theorem hostOps33_keeps (r : Ref sig .tc) (h : r ∉ hostOps33_W) : StableHlo.after hostOps33 W r = W r :=
  StableHlo.after_of_writes_sub hostOps33 W hostOps33_writes h

end Stack2

end Cert.KernelIdeal.Hand

end
-- ==== Proof.KI.KerLayer.lean ====
/-
  One layer of the kernel program as a pure function of the embedding array `x` and the three edge arrays: per relation
  `r` and chunk `c` the gather kernel's whole-array result (rows of `x` named by the chunk's table, scaled by the chunk's
  edge values), the relation's aggregate (the scatter-add of the four chunks' rows, joined and cut back to the 500000
  edges, at the relation's destinations), and the activation kernel's result on the four aggregates stacked.
  The program's result is two such layers.
-/
import proofs.«414509_j14181982011419_2_alg».proof.Proof.KI.GatherSpec
import proofs.«414509_j14181982011419_2_alg».proof.Proof.KI.ActSpec
import proofs.«414509_j14181982011419_2_alg».proof.Proof.KI.HostSpec
import proofs.«414509_j14181982011419_2_alg».proof.Proof.KI.Tables

noncomputable section

namespace Cert.KernelIdeal.Hand

open Cert.KernelIdeal Cert.KernelIdeal.Gen
open Idealize.ShloMosaic

variable {F : FTy → Type} [FloatOps F]

/-- The table of relation `r`, chunk `c`, as the host operations compute it from the edge-source array. -/
def tblA (src : (⟨S4x500000, .i32⟩ : BufTy).Contents (Elt F)) (r c : Fin 4) : (⟨S131072, .i32⟩ : BufTy).Contents (Elt F) :=
  tblOf src (rowOff r) (rowOff_slices r) (chunkOff c) (chunkOff_slices c)

/-- The launch memory's table is that function of its edge-source argument. -/
theorem tbl_eq_tblA (m : (ℓ : Loc nD τ sig) → Buf (Elt F) ℓ) (r c : Fin 4) : tbl m r c = tblA (src m) r c := rfl

/-- The gather kernel's result for relation `r`, chunk `c`. -/
def kerGather (x : (⟨S100000x128, .f32⟩ : BufTy).Contents (Elt F)) (src : (⟨S4x500000, .i32⟩ : BufTy).Contents (Elt F))
    (val : (⟨S4x500000, .f32⟩ : BufTy).Contents (Elt F)) (r c : Fin 4) : (⟨S131072x128, .f32⟩ : BufTy).Contents (Elt F) :=
  gatherArr x (tblA src r c) (valChunk val r c)

/-- Relation `r`'s aggregate. -/
def kerAgg (x : (⟨S100000x128, .f32⟩ : BufTy).Contents (Elt F)) (src dst : (⟨S4x500000, .i32⟩ : BufTy).Contents (Elt F))
    (val : (⟨S4x500000, .f32⟩ : BufTy).Contents (Elt F)) (r : Fin 4) : (⟨S100000x128, .f32⟩ : BufTy).Contents (Elt F) :=
  aggOf dst r (kerGather x src val r 0) (kerGather x src val r 1) (kerGather x src val r 2) (kerGather x src val r 3)

/-- One layer. -/
def kerLayer (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  actArr (stackOf (kerAgg x src dst val 0) (kerAgg x src dst val 1) (kerAgg x src dst val 2) (kerAgg x src dst val 3))

/-- The program's result: two layers over the same edges. -/
def kerOut (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  kerLayer (kerLayer x src dst val) src dst val

end Cert.KernelIdeal.Hand

end
-- ==== Proof.KI.KernelValue.lean ====
import proofs.«414509_j14181982011419_2_alg».proof.Proof.KI.Chain
import proofs.«414509_j14181982011419_2_alg».proof.Proof.KI.HostValues
import proofs.«414509_j14181982011419_2_alg».proof.Proof.KI.HostValuesSib
import proofs.«414509_j14181982011419_2_alg».proof.Proof.KI.KerLayer

set_option maxRecDepth 2240

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-! ## What each item leaves as it was

A host stretch leaves every buffer outside the list of those its operations write; a region, every buffer but its
output array. No item writes an argument: each of the four holds its launch contents after every item. -/

theorem VV1_keep (c : Dev nD) (r : Ref sig .tc) (h : r ∉ hostOps0_W) : VV1 m c r = VV0 m c r :=
  StableHlo.after_of_writes_sub hostOps0 _ hostOps0_writes h
theorem VV2_keep (c : Dev nD) (r : Ref sig .tc) (h : r ∉ hostOps0_1_W) : VV2 m c r = VV1 m c r :=
  StableHlo.after_of_writes_sub hostOps0_1 _ hostOps0_1_writes h
theorem VV3_keep (c : Dev nD) (r : Ref sig .tc) (h : r ∉ hostOps0_2_W) : VV3 m c r = VV2 m c r :=
  StableHlo.after_of_writes_sub hostOps0_2 _ hostOps0_2_writes h
theorem VV4_keep (c : Dev nD) (r : Ref sig .tc) (h : r ∉ hostOps0_3_W) : VV4 m c r = VV3 m c r :=
  StableHlo.after_of_writes_sub hostOps0_3 _ hostOps0_3_writes h
theorem VV5_keep (c : Dev nD) (r : Ref sig .tc) (h : r ∉ hostOps0_4_W) : VV5 m c r = VV4 m c r :=
  StableHlo.after_of_writes_sub hostOps0_4 _ hostOps0_4_writes h
theorem VV6_keep (c : Dev nD) (r : Ref sig .tc) (h : r ∉ ([main_v9] : List (Ref sig .tc))) : VV6 m c r = VV5 m c r :=
  Function.update_of_ne (StableHlo.devRef_ne_of_ne (List.ne_of_not_mem_cons h)) _ _
theorem VV7_keep (c : Dev nD) (r : Ref sig .tc) (h : r ∉ hostOps1_W) : VV7 m c r = VV6 m c r :=
  StableHlo.after_of_writes_sub hostOps1 _ hostOps1_writes h
theorem VV8_keep (c : Dev nD) (r : Ref sig .tc) (h : r ∉ ([main_v12] : List (Ref sig .tc))) : VV8 m c r = VV7 m c r :=
  Function.update_of_ne (StableHlo.devRef_ne_of_ne (List.ne_of_not_mem_cons h)) _ _
theorem VV9_keep (c : Dev nD) (r : Ref sig .tc) (h : r ∉ hostOps2_W) : VV9 m c r = VV8 m c r :=
  StableHlo.after_of_writes_sub hostOps2 _ hostOps2_writes h
theorem VV10_keep (c : Dev nD) (r : Ref sig .tc) (h : r ∉ ([main_v15] : List (Ref sig .tc))) : VV10 m c r = VV9 m c r :=
  Function.update_of_ne (StableHlo.devRef_ne_of_ne (List.ne_of_not_mem_cons h)) _ _
theorem VV11_keep (c : Dev nD) (r : Ref sig .tc) (h : r ∉ hostOps3_W) : VV11 m c r = VV10 m c r :=
  StableHlo.after_of_writes_sub hostOps3 _ hostOps3_writes h
theorem VV12_keep (c : Dev nD) (r : Ref sig .tc) (h : r ∉ ([main_v18] : List (Ref sig .tc))) : VV12 m c r = VV11 m c r :=
  Function.update_of_ne (StableHlo.devRef_ne_of_ne (List.ne_of_not_mem_cons h)) _ _
theorem VV13_keep (c : Dev nD) (r : Ref sig .tc) (h : r ∉ hostOps4_W) : VV13 m c r = VV12 m c r :=
  StableHlo.after_of_writes_sub hostOps4 _ hostOps4_writes h
theorem VV14_keep (c : Dev nD) (r : Ref sig .tc) (h : r ∉ hostOps4_1_W) : VV14 m c r = VV13 m c r :=
  StableHlo.after_of_writes_sub hostOps4_1 _ hostOps4_1_writes h
theorem VV15_keep (c : Dev nD) (r : Ref sig .tc) (h : r ∉ hostOps4_2_W) : VV15 m c r = VV14 m c r :=
  StableHlo.after_of_writes_sub hostOps4_2 _ hostOps4_2_writes h
theorem VV16_keep (c : Dev nD) (r : Ref sig .tc) (h : r ∉ hostOps4_3_W) : VV16 m c r = VV15 m c r :=
  StableHlo.after_of_writes_sub hostOps4_3 _ hostOps4_3_writes h
theorem VV17_keep (c : Dev nD) (r : Ref sig .tc) (h : r ∉ hostOps4_4_W) : VV17 m c r = VV16 m c r :=
  StableHlo.after_of_writes_sub hostOps4_4 _ hostOps4_4_writes h
theorem VV18_keep (c : Dev nD) (r : Ref sig .tc) (h : r ∉ ([main_v35] : List (Ref sig .tc))) : VV18 m c r = VV17 m c r :=
  Function.update_of_ne (StableHlo.devRef_ne_of_ne (List.ne_of_not_mem_cons h)) _ _
theorem VV19_keep (c : Dev nD) (r : Ref sig .tc) (h : r ∉ hostOps5_W) : VV19 m c r = VV18 m c r :=
  StableHlo.after_of_writes_sub hostOps5 _ hostOps5_writes h
theorem VV20_keep (c : Dev nD) (r : Ref sig .tc) (h : r ∉ ([main_v38] : List (Ref sig .tc))) : VV20 m c r = VV19 m c r :=
  Function.update_of_ne (StableHlo.devRef_ne_of_ne (List.ne_of_not_mem_cons h)) _ _
theorem VV21_keep (c : Dev nD) (r : Ref sig .tc) (h : r ∉ hostOps6_W) : VV21 m c r = VV20 m c r :=
  StableHlo.after_of_writes_sub hostOps6 _ hostOps6_writes h
theorem VV22_keep (c : Dev nD) (r : Ref sig .tc) (h : r ∉ ([main_v41] : List (Ref sig .tc))) : VV22 m c r = VV21 m c r :=
  Function.update_of_ne (StableHlo.devRef_ne_of_ne (List.ne_of_not_mem_cons h)) _ _
theorem VV23_keep (c : Dev nD) (r : Ref sig .tc) (h : r ∉ hostOps7_W) : VV23 m c r = VV22 m c r :=
  StableHlo.after_of_writes_sub hostOps7 _ hostOps7_writes h
theorem VV24_keep (c : Dev nD) (r : Ref sig .tc) (h : r ∉ ([main_v44] : List (Ref sig .tc))) : VV24 m c r = VV23 m c r :=
  Function.update_of_ne (StableHlo.devRef_ne_of_ne (List.ne_of_not_mem_cons h)) _ _
theorem VV25_keep (c : Dev nD) (r : Ref sig .tc) (h : r ∉ hostOps8_W) : VV25 m c r = VV24 m c r :=
  StableHlo.after_of_writes_sub hostOps8 _ hostOps8_writes h
theorem VV26_keep (c : Dev nD) (r : Ref sig .tc) (h : r ∉ hostOps8_1_W) : VV26 m c r = VV25 m c r :=
  StableHlo.after_of_writes_sub hostOps8_1 _ hostOps8_1_writes h
theorem VV27_keep (c : Dev nD) (r : Ref sig .tc) (h : r ∉ hostOps8_2_W) : VV27 m c r = VV26 m c r :=
  StableHlo.after_of_writes_sub hostOps8_2 _ hostOps8_2_writes h
theorem VV28_keep (c : Dev nD) (r : Ref sig .tc) (h : r ∉ hostOps8_3_W) : VV28 m c r = VV27 m c r :=
  StableHlo.after_of_writes_sub hostOps8_3 _ hostOps8_3_writes h
theorem VV29_keep (c : Dev nD) (r : Ref sig .tc) (h : r ∉ hostOps8_4_W) : VV29 m c r = VV28 m c r :=
  StableHlo.after_of_writes_sub hostOps8_4 _ hostOps8_4_writes h
theorem VV30_keep (c : Dev nD) (r : Ref sig .tc) (h : r ∉ ([main_v61] : List (Ref sig .tc))) : VV30 m c r = VV29 m c r :=
  Function.update_of_ne (StableHlo.devRef_ne_of_ne (List.ne_of_not_mem_cons h)) _ _
theorem VV31_keep (c : Dev nD) (r : Ref sig .tc) (h : r ∉ hostOps9_W) : VV31 m c r = VV30 m c r :=
  StableHlo.after_of_writes_sub hostOps9 _ hostOps9_writes h
theorem VV32_keep (c : Dev nD) (r : Ref sig .tc) (h : r ∉ ([main_v64] : List (Ref sig .tc))) : VV32 m c r = VV31 m c r :=
  Function.update_of_ne (StableHlo.devRef_ne_of_ne (List.ne_of_not_mem_cons h)) _ _
theorem VV33_keep (c : Dev nD) (r : Ref sig .tc) (h : r ∉ hostOps10_W) : VV33 m c r = VV32 m c r :=
  StableHlo.after_of_writes_sub hostOps10 _ hostOps10_writes h
theorem VV34_keep (c : Dev nD) (r : Ref sig .tc) (h : r ∉ ([main_v67] : List (Ref sig .tc))) : VV34 m c r = VV33 m c r :=
  Function.update_of_ne (StableHlo.devRef_ne_of_ne (List.ne_of_not_mem_cons h)) _ _
theorem VV35_keep (c : Dev nD) (r : Ref sig .tc) (h : r ∉ hostOps11_W) : VV35 m c r = VV34 m c r :=
  StableHlo.after_of_writes_sub hostOps11 _ hostOps11_writes h
theorem VV36_keep (c : Dev nD) (r : Ref sig .tc) (h : r ∉ ([main_v70] : List (Ref sig .tc))) : VV36 m c r = VV35 m c r :=
  Function.update_of_ne (StableHlo.devRef_ne_of_ne (List.ne_of_not_mem_cons h)) _ _
theorem VV37_keep (c : Dev nD) (r : Ref sig .tc) (h : r ∉ hostOps12_W) : VV37 m c r = VV36 m c r :=
  StableHlo.after_of_writes_sub hostOps12 _ hostOps12_writes h
theorem VV38_keep (c : Dev nD) (r : Ref sig .tc) (h : r ∉ hostOps12_1_W) : VV38 m c r = VV37 m c r :=
  StableHlo.after_of_writes_sub hostOps12_1 _ hostOps12_1_writes h
theorem VV39_keep (c : Dev nD) (r : Ref sig .tc) (h : r ∉ hostOps12_2_W) : VV39 m c r = VV38 m c r :=
  StableHlo.after_of_writes_sub hostOps12_2 _ hostOps12_2_writes h
theorem VV40_keep (c : Dev nD) (r : Ref sig .tc) (h : r ∉ hostOps12_3_W) : VV40 m c r = VV39 m c r :=
  StableHlo.after_of_writes_sub hostOps12_3 _ hostOps12_3_writes h
theorem VV41_keep (c : Dev nD) (r : Ref sig .tc) (h : r ∉ hostOps12_4_W) : VV41 m c r = VV40 m c r :=
  StableHlo.after_of_writes_sub hostOps12_4 _ hostOps12_4_writes h
theorem VV42_keep (c : Dev nD) (r : Ref sig .tc) (h : r ∉ ([main_v87] : List (Ref sig .tc))) : VV42 m c r = VV41 m c r :=
  Function.update_of_ne (StableHlo.devRef_ne_of_ne (List.ne_of_not_mem_cons h)) _ _
theorem VV43_keep (c : Dev nD) (r : Ref sig .tc) (h : r ∉ hostOps13_W) : VV43 m c r = VV42 m c r :=
  StableHlo.after_of_writes_sub hostOps13 _ hostOps13_writes h
theorem VV44_keep (c : Dev nD) (r : Ref sig .tc) (h : r ∉ ([main_v90] : List (Ref sig .tc))) : VV44 m c r = VV43 m c r :=
  Function.update_of_ne (StableHlo.devRef_ne_of_ne (List.ne_of_not_mem_cons h)) _ _
theorem VV45_keep (c : Dev nD) (r : Ref sig .tc) (h : r ∉ hostOps14_W) : VV45 m c r = VV44 m c r :=
  StableHlo.after_of_writes_sub hostOps14 _ hostOps14_writes h
theorem VV46_keep (c : Dev nD) (r : Ref sig .tc) (h : r ∉ ([main_v93] : List (Ref sig .tc))) : VV46 m c r = VV45 m c r :=
  Function.update_of_ne (StableHlo.devRef_ne_of_ne (List.ne_of_not_mem_cons h)) _ _
theorem VV47_keep (c : Dev nD) (r : Ref sig .tc) (h : r ∉ hostOps15_W) : VV47 m c r = VV46 m c r :=
  StableHlo.after_of_writes_sub hostOps15 _ hostOps15_writes h
theorem VV48_keep (c : Dev nD) (r : Ref sig .tc) (h : r ∉ ([main_v96] : List (Ref sig .tc))) : VV48 m c r = VV47 m c r :=
  Function.update_of_ne (StableHlo.devRef_ne_of_ne (List.ne_of_not_mem_cons h)) _ _
theorem VV49_keep (c : Dev nD) (r : Ref sig .tc) (h : r ∉ hostOps16_W) : VV49 m c r = VV48 m c r :=
  StableHlo.after_of_writes_sub hostOps16 _ hostOps16_writes h
theorem VV50_keep (c : Dev nD) (r : Ref sig .tc) (h : r ∉ ([main_v109] : List (Ref sig .tc))) : VV50 m c r = VV49 m c r :=
  Function.update_of_ne (StableHlo.devRef_ne_of_ne (List.ne_of_not_mem_cons h)) _ _
theorem VV51_keep (c : Dev nD) (r : Ref sig .tc) (h : r ∉ hostOps17_W) : VV51 m c r = VV50 m c r :=
  StableHlo.after_of_writes_sub hostOps17 _ hostOps17_writes h
theorem VV52_keep (c : Dev nD) (r : Ref sig .tc) (h : r ∉ hostOps17_1_W) : VV52 m c r = VV51 m c r :=
  StableHlo.after_of_writes_sub hostOps17_1 _ hostOps17_1_writes h
theorem VV53_keep (c : Dev nD) (r : Ref sig .tc) (h : r ∉ hostOps17_2_W) : VV53 m c r = VV52 m c r :=
  StableHlo.after_of_writes_sub hostOps17_2 _ hostOps17_2_writes h
theorem VV54_keep (c : Dev nD) (r : Ref sig .tc) (h : r ∉ hostOps17_3_W) : VV54 m c r = VV53 m c r :=
  StableHlo.after_of_writes_sub hostOps17_3 _ hostOps17_3_writes h
theorem VV55_keep (c : Dev nD) (r : Ref sig .tc) (h : r ∉ hostOps17_4_W) : VV55 m c r = VV54 m c r :=
  StableHlo.after_of_writes_sub hostOps17_4 _ hostOps17_4_writes h
theorem VV56_keep (c : Dev nD) (r : Ref sig .tc) (h : r ∉ ([main_v119] : List (Ref sig .tc))) : VV56 m c r = VV55 m c r :=
  Function.update_of_ne (StableHlo.devRef_ne_of_ne (List.ne_of_not_mem_cons h)) _ _
theorem VV57_keep (c : Dev nD) (r : Ref sig .tc) (h : r ∉ hostOps18_W) : VV57 m c r = VV56 m c r :=
  StableHlo.after_of_writes_sub hostOps18 _ hostOps18_writes h
theorem VV58_keep (c : Dev nD) (r : Ref sig .tc) (h : r ∉ ([main_v122] : List (Ref sig .tc))) : VV58 m c r = VV57 m c r :=
  Function.update_of_ne (StableHlo.devRef_ne_of_ne (List.ne_of_not_mem_cons h)) _ _
theorem VV59_keep (c : Dev nD) (r : Ref sig .tc) (h : r ∉ hostOps19_W) : VV59 m c r = VV58 m c r :=
  StableHlo.after_of_writes_sub hostOps19 _ hostOps19_writes h
theorem VV60_keep (c : Dev nD) (r : Ref sig .tc) (h : r ∉ ([main_v125] : List (Ref sig .tc))) : VV60 m c r = VV59 m c r :=
  Function.update_of_ne (StableHlo.devRef_ne_of_ne (List.ne_of_not_mem_cons h)) _ _
theorem VV61_keep (c : Dev nD) (r : Ref sig .tc) (h : r ∉ hostOps20_W) : VV61 m c r = VV60 m c r :=
  StableHlo.after_of_writes_sub hostOps20 _ hostOps20_writes h
theorem VV62_keep (c : Dev nD) (r : Ref sig .tc) (h : r ∉ ([main_v128] : List (Ref sig .tc))) : VV62 m c r = VV61 m c r :=
  Function.update_of_ne (StableHlo.devRef_ne_of_ne (List.ne_of_not_mem_cons h)) _ _
theorem VV63_keep (c : Dev nD) (r : Ref sig .tc) (h : r ∉ hostOps21_W) : VV63 m c r = VV62 m c r :=
  StableHlo.after_of_writes_sub hostOps21 _ hostOps21_writes h
theorem VV64_keep (c : Dev nD) (r : Ref sig .tc) (h : r ∉ hostOps21_1_W) : VV64 m c r = VV63 m c r :=
  StableHlo.after_of_writes_sub hostOps21_1 _ hostOps21_1_writes h
theorem VV65_keep (c : Dev nD) (r : Ref sig .tc) (h : r ∉ hostOps21_2_W) : VV65 m c r = VV64 m c r :=
  StableHlo.after_of_writes_sub hostOps21_2 _ hostOps21_2_writes h
theorem VV66_keep (c : Dev nD) (r : Ref sig .tc) (h : r ∉ hostOps21_3_W) : VV66 m c r = VV65 m c r :=
  StableHlo.after_of_writes_sub hostOps21_3 _ hostOps21_3_writes h
theorem VV67_keep (c : Dev nD) (r : Ref sig .tc) (h : r ∉ hostOps21_4_W) : VV67 m c r = VV66 m c r :=
  StableHlo.after_of_writes_sub hostOps21_4 _ hostOps21_4_writes h
theorem VV68_keep (c : Dev nD) (r : Ref sig .tc) (h : r ∉ ([main_v145] : List (Ref sig .tc))) : VV68 m c r = VV67 m c r :=
  Function.update_of_ne (StableHlo.devRef_ne_of_ne (List.ne_of_not_mem_cons h)) _ _
theorem VV69_keep (c : Dev nD) (r : Ref sig .tc) (h : r ∉ hostOps22_W) : VV69 m c r = VV68 m c r :=
  StableHlo.after_of_writes_sub hostOps22 _ hostOps22_writes h
theorem VV70_keep (c : Dev nD) (r : Ref sig .tc) (h : r ∉ ([main_v148] : List (Ref sig .tc))) : VV70 m c r = VV69 m c r :=
  Function.update_of_ne (StableHlo.devRef_ne_of_ne (List.ne_of_not_mem_cons h)) _ _
theorem VV71_keep (c : Dev nD) (r : Ref sig .tc) (h : r ∉ hostOps23_W) : VV71 m c r = VV70 m c r :=
  StableHlo.after_of_writes_sub hostOps23 _ hostOps23_writes h
theorem VV72_keep (c : Dev nD) (r : Ref sig .tc) (h : r ∉ ([main_v151] : List (Ref sig .tc))) : VV72 m c r = VV71 m c r :=
  Function.update_of_ne (StableHlo.devRef_ne_of_ne (List.ne_of_not_mem_cons h)) _ _
theorem VV73_keep (c : Dev nD) (r : Ref sig .tc) (h : r ∉ hostOps24_W) : VV73 m c r = VV72 m c r :=
  StableHlo.after_of_writes_sub hostOps24 _ hostOps24_writes h
theorem VV74_keep (c : Dev nD) (r : Ref sig .tc) (h : r ∉ ([main_v154] : List (Ref sig .tc))) : VV74 m c r = VV73 m c r :=
  Function.update_of_ne (StableHlo.devRef_ne_of_ne (List.ne_of_not_mem_cons h)) _ _
theorem VV75_keep (c : Dev nD) (r : Ref sig .tc) (h : r ∉ hostOps25_W) : VV75 m c r = VV74 m c r :=
  StableHlo.after_of_writes_sub hostOps25 _ hostOps25_writes h
theorem VV76_keep (c : Dev nD) (r : Ref sig .tc) (h : r ∉ hostOps25_1_W) : VV76 m c r = VV75 m c r :=
  StableHlo.after_of_writes_sub hostOps25_1 _ hostOps25_1_writes h
theorem VV77_keep (c : Dev nD) (r : Ref sig .tc) (h : r ∉ hostOps25_2_W) : VV77 m c r = VV76 m c r :=
  StableHlo.after_of_writes_sub hostOps25_2 _ hostOps25_2_writes h
theorem VV78_keep (c : Dev nD) (r : Ref sig .tc) (h : r ∉ hostOps25_3_W) : VV78 m c r = VV77 m c r :=
  StableHlo.after_of_writes_sub hostOps25_3 _ hostOps25_3_writes h
theorem VV79_keep (c : Dev nD) (r : Ref sig .tc) (h : r ∉ hostOps25_4_W) : VV79 m c r = VV78 m c r :=
  StableHlo.after_of_writes_sub hostOps25_4 _ hostOps25_4_writes h
theorem VV80_keep (c : Dev nD) (r : Ref sig .tc) (h : r ∉ ([main_v171] : List (Ref sig .tc))) : VV80 m c r = VV79 m c r :=
  Function.update_of_ne (StableHlo.devRef_ne_of_ne (List.ne_of_not_mem_cons h)) _ _
theorem VV81_keep (c : Dev nD) (r : Ref sig .tc) (h : r ∉ hostOps26_W) : VV81 m c r = VV80 m c r :=
  StableHlo.after_of_writes_sub hostOps26 _ hostOps26_writes h
theorem VV82_keep (c : Dev nD) (r : Ref sig .tc) (h : r ∉ ([main_v174] : List (Ref sig .tc))) : VV82 m c r = VV81 m c r :=
  Function.update_of_ne (StableHlo.devRef_ne_of_ne (List.ne_of_not_mem_cons h)) _ _
theorem VV83_keep (c : Dev nD) (r : Ref sig .tc) (h : r ∉ hostOps27_W) : VV83 m c r = VV82 m c r :=
  StableHlo.after_of_writes_sub hostOps27 _ hostOps27_writes h
theorem VV84_keep (c : Dev nD) (r : Ref sig .tc) (h : r ∉ ([main_v177] : List (Ref sig .tc))) : VV84 m c r = VV83 m c r :=
  Function.update_of_ne (StableHlo.devRef_ne_of_ne (List.ne_of_not_mem_cons h)) _ _
theorem VV85_keep (c : Dev nD) (r : Ref sig .tc) (h : r ∉ hostOps28_W) : VV85 m c r = VV84 m c r :=
  StableHlo.after_of_writes_sub hostOps28 _ hostOps28_writes h
theorem VV86_keep (c : Dev nD) (r : Ref sig .tc) (h : r ∉ ([main_v180] : List (Ref sig .tc))) : VV86 m c r = VV85 m c r :=
  Function.update_of_ne (StableHlo.devRef_ne_of_ne (List.ne_of_not_mem_cons h)) _ _
theorem VV87_keep (c : Dev nD) (r : Ref sig .tc) (h : r ∉ hostOps29_W) : VV87 m c r = VV86 m c r :=
  StableHlo.after_of_writes_sub hostOps29 _ hostOps29_writes h
theorem VV88_keep (c : Dev nD) (r : Ref sig .tc) (h : r ∉ hostOps29_1_W) : VV88 m c r = VV87 m c r :=
  StableHlo.after_of_writes_sub hostOps29_1 _ hostOps29_1_writes h
theorem VV89_keep (c : Dev nD) (r : Ref sig .tc) (h : r ∉ hostOps29_2_W) : VV89 m c r = VV88 m c r :=
  StableHlo.after_of_writes_sub hostOps29_2 _ hostOps29_2_writes h
theorem VV90_keep (c : Dev nD) (r : Ref sig .tc) (h : r ∉ hostOps29_3_W) : VV90 m c r = VV89 m c r :=
  StableHlo.after_of_writes_sub hostOps29_3 _ hostOps29_3_writes h
theorem VV91_keep (c : Dev nD) (r : Ref sig .tc) (h : r ∉ hostOps29_4_W) : VV91 m c r = VV90 m c r :=
  StableHlo.after_of_writes_sub hostOps29_4 _ hostOps29_4_writes h
theorem VV92_keep (c : Dev nD) (r : Ref sig .tc) (h : r ∉ ([main_v197] : List (Ref sig .tc))) : VV92 m c r = VV91 m c r :=
  Function.update_of_ne (StableHlo.devRef_ne_of_ne (List.ne_of_not_mem_cons h)) _ _
theorem VV93_keep (c : Dev nD) (r : Ref sig .tc) (h : r ∉ hostOps30_W) : VV93 m c r = VV92 m c r :=
  StableHlo.after_of_writes_sub hostOps30 _ hostOps30_writes h
theorem VV94_keep (c : Dev nD) (r : Ref sig .tc) (h : r ∉ ([main_v200] : List (Ref sig .tc))) : VV94 m c r = VV93 m c r :=
  Function.update_of_ne (StableHlo.devRef_ne_of_ne (List.ne_of_not_mem_cons h)) _ _
theorem VV95_keep (c : Dev nD) (r : Ref sig .tc) (h : r ∉ hostOps31_W) : VV95 m c r = VV94 m c r :=
  StableHlo.after_of_writes_sub hostOps31 _ hostOps31_writes h
theorem VV96_keep (c : Dev nD) (r : Ref sig .tc) (h : r ∉ ([main_v203] : List (Ref sig .tc))) : VV96 m c r = VV95 m c r :=
  Function.update_of_ne (StableHlo.devRef_ne_of_ne (List.ne_of_not_mem_cons h)) _ _
theorem VV97_keep (c : Dev nD) (r : Ref sig .tc) (h : r ∉ hostOps32_W) : VV97 m c r = VV96 m c r :=
  StableHlo.after_of_writes_sub hostOps32 _ hostOps32_writes h
theorem VV98_keep (c : Dev nD) (r : Ref sig .tc) (h : r ∉ ([main_v206] : List (Ref sig .tc))) : VV98 m c r = VV97 m c r :=
  Function.update_of_ne (StableHlo.devRef_ne_of_ne (List.ne_of_not_mem_cons h)) _ _
theorem VV99_keep (c : Dev nD) (r : Ref sig .tc) (h : r ∉ hostOps33_W) : VV99 m c r = VV98 m c r :=
  StableHlo.after_of_writes_sub hostOps33 _ hostOps33_writes h
theorem VV100_keep (c : Dev nD) (r : Ref sig .tc) (h : r ∉ ([main_v219] : List (Ref sig .tc))) : VV100 m c r = VV99 m c r :=
  Function.update_of_ne (StableHlo.devRef_ne_of_ne (List.ne_of_not_mem_cons h)) _ _

theorem VV0_arg0 (c : Dev nD) : VV0 m c main_arg0 = m ((c : Thread nD τ).loc main_arg0) := rfl
theorem VV1_arg0 (c : Dev nD) : VV1 m c main_arg0 = m ((c : Thread nD τ).loc main_arg0) :=
  (VV1_keep m c main_arg0 (by decide)).trans (VV0_arg0 m c)
theorem VV2_arg0 (c : Dev nD) : VV2 m c main_arg0 = m ((c : Thread nD τ).loc main_arg0) :=
  (VV2_keep m c main_arg0 (by decide)).trans (VV1_arg0 m c)
theorem VV3_arg0 (c : Dev nD) : VV3 m c main_arg0 = m ((c : Thread nD τ).loc main_arg0) :=
  (VV3_keep m c main_arg0 (by decide)).trans (VV2_arg0 m c)
theorem VV4_arg0 (c : Dev nD) : VV4 m c main_arg0 = m ((c : Thread nD τ).loc main_arg0) :=
  (VV4_keep m c main_arg0 (by decide)).trans (VV3_arg0 m c)
theorem VV5_arg0 (c : Dev nD) : VV5 m c main_arg0 = m ((c : Thread nD τ).loc main_arg0) :=
  (VV5_keep m c main_arg0 (by decide)).trans (VV4_arg0 m c)
theorem VV6_arg0 (c : Dev nD) : VV6 m c main_arg0 = m ((c : Thread nD τ).loc main_arg0) :=
  (VV6_keep m c main_arg0 (by decide)).trans (VV5_arg0 m c)
theorem VV7_arg0 (c : Dev nD) : VV7 m c main_arg0 = m ((c : Thread nD τ).loc main_arg0) :=
  (VV7_keep m c main_arg0 (by decide)).trans (VV6_arg0 m c)
theorem VV8_arg0 (c : Dev nD) : VV8 m c main_arg0 = m ((c : Thread nD τ).loc main_arg0) :=
  (VV8_keep m c main_arg0 (by decide)).trans (VV7_arg0 m c)
theorem VV9_arg0 (c : Dev nD) : VV9 m c main_arg0 = m ((c : Thread nD τ).loc main_arg0) :=
  (VV9_keep m c main_arg0 (by decide)).trans (VV8_arg0 m c)
theorem VV10_arg0 (c : Dev nD) : VV10 m c main_arg0 = m ((c : Thread nD τ).loc main_arg0) :=
  (VV10_keep m c main_arg0 (by decide)).trans (VV9_arg0 m c)
theorem VV11_arg0 (c : Dev nD) : VV11 m c main_arg0 = m ((c : Thread nD τ).loc main_arg0) :=
  (VV11_keep m c main_arg0 (by decide)).trans (VV10_arg0 m c)
theorem VV12_arg0 (c : Dev nD) : VV12 m c main_arg0 = m ((c : Thread nD τ).loc main_arg0) :=
  (VV12_keep m c main_arg0 (by decide)).trans (VV11_arg0 m c)
theorem VV13_arg0 (c : Dev nD) : VV13 m c main_arg0 = m ((c : Thread nD τ).loc main_arg0) :=
  (VV13_keep m c main_arg0 (by decide)).trans (VV12_arg0 m c)
theorem VV14_arg0 (c : Dev nD) : VV14 m c main_arg0 = m ((c : Thread nD τ).loc main_arg0) :=
  (VV14_keep m c main_arg0 (by decide)).trans (VV13_arg0 m c)
theorem VV15_arg0 (c : Dev nD) : VV15 m c main_arg0 = m ((c : Thread nD τ).loc main_arg0) :=
  (VV15_keep m c main_arg0 (by decide)).trans (VV14_arg0 m c)
theorem VV16_arg0 (c : Dev nD) : VV16 m c main_arg0 = m ((c : Thread nD τ).loc main_arg0) :=
  (VV16_keep m c main_arg0 (by decide)).trans (VV15_arg0 m c)
theorem VV17_arg0 (c : Dev nD) : VV17 m c main_arg0 = m ((c : Thread nD τ).loc main_arg0) :=
  (VV17_keep m c main_arg0 (by decide)).trans (VV16_arg0 m c)
theorem VV18_arg0 (c : Dev nD) : VV18 m c main_arg0 = m ((c : Thread nD τ).loc main_arg0) :=
  (VV18_keep m c main_arg0 (by decide)).trans (VV17_arg0 m c)
theorem VV19_arg0 (c : Dev nD) : VV19 m c main_arg0 = m ((c : Thread nD τ).loc main_arg0) :=
  (VV19_keep m c main_arg0 (by decide)).trans (VV18_arg0 m c)
theorem VV20_arg0 (c : Dev nD) : VV20 m c main_arg0 = m ((c : Thread nD τ).loc main_arg0) :=
  (VV20_keep m c main_arg0 (by decide)).trans (VV19_arg0 m c)
theorem VV21_arg0 (c : Dev nD) : VV21 m c main_arg0 = m ((c : Thread nD τ).loc main_arg0) :=
  (VV21_keep m c main_arg0 (by decide)).trans (VV20_arg0 m c)
theorem VV22_arg0 (c : Dev nD) : VV22 m c main_arg0 = m ((c : Thread nD τ).loc main_arg0) :=
  (VV22_keep m c main_arg0 (by decide)).trans (VV21_arg0 m c)
theorem VV23_arg0 (c : Dev nD) : VV23 m c main_arg0 = m ((c : Thread nD τ).loc main_arg0) :=
  (VV23_keep m c main_arg0 (by decide)).trans (VV22_arg0 m c)
theorem VV24_arg0 (c : Dev nD) : VV24 m c main_arg0 = m ((c : Thread nD τ).loc main_arg0) :=
  (VV24_keep m c main_arg0 (by decide)).trans (VV23_arg0 m c)
theorem VV25_arg0 (c : Dev nD) : VV25 m c main_arg0 = m ((c : Thread nD τ).loc main_arg0) :=
  (VV25_keep m c main_arg0 (by decide)).trans (VV24_arg0 m c)
theorem VV26_arg0 (c : Dev nD) : VV26 m c main_arg0 = m ((c : Thread nD τ).loc main_arg0) :=
  (VV26_keep m c main_arg0 (by decide)).trans (VV25_arg0 m c)
theorem VV27_arg0 (c : Dev nD) : VV27 m c main_arg0 = m ((c : Thread nD τ).loc main_arg0) :=
  (VV27_keep m c main_arg0 (by decide)).trans (VV26_arg0 m c)
theorem VV28_arg0 (c : Dev nD) : VV28 m c main_arg0 = m ((c : Thread nD τ).loc main_arg0) :=
  (VV28_keep m c main_arg0 (by decide)).trans (VV27_arg0 m c)
theorem VV29_arg0 (c : Dev nD) : VV29 m c main_arg0 = m ((c : Thread nD τ).loc main_arg0) :=
  (VV29_keep m c main_arg0 (by decide)).trans (VV28_arg0 m c)
theorem VV30_arg0 (c : Dev nD) : VV30 m c main_arg0 = m ((c : Thread nD τ).loc main_arg0) :=
  (VV30_keep m c main_arg0 (by decide)).trans (VV29_arg0 m c)
theorem VV31_arg0 (c : Dev nD) : VV31 m c main_arg0 = m ((c : Thread nD τ).loc main_arg0) :=
  (VV31_keep m c main_arg0 (by decide)).trans (VV30_arg0 m c)
theorem VV32_arg0 (c : Dev nD) : VV32 m c main_arg0 = m ((c : Thread nD τ).loc main_arg0) :=
  (VV32_keep m c main_arg0 (by decide)).trans (VV31_arg0 m c)
theorem VV33_arg0 (c : Dev nD) : VV33 m c main_arg0 = m ((c : Thread nD τ).loc main_arg0) :=
  (VV33_keep m c main_arg0 (by decide)).trans (VV32_arg0 m c)
theorem VV34_arg0 (c : Dev nD) : VV34 m c main_arg0 = m ((c : Thread nD τ).loc main_arg0) :=
  (VV34_keep m c main_arg0 (by decide)).trans (VV33_arg0 m c)
theorem VV35_arg0 (c : Dev nD) : VV35 m c main_arg0 = m ((c : Thread nD τ).loc main_arg0) :=
  (VV35_keep m c main_arg0 (by decide)).trans (VV34_arg0 m c)
theorem VV36_arg0 (c : Dev nD) : VV36 m c main_arg0 = m ((c : Thread nD τ).loc main_arg0) :=
  (VV36_keep m c main_arg0 (by decide)).trans (VV35_arg0 m c)
theorem VV37_arg0 (c : Dev nD) : VV37 m c main_arg0 = m ((c : Thread nD τ).loc main_arg0) :=
  (VV37_keep m c main_arg0 (by decide)).trans (VV36_arg0 m c)
theorem VV38_arg0 (c : Dev nD) : VV38 m c main_arg0 = m ((c : Thread nD τ).loc main_arg0) :=
  (VV38_keep m c main_arg0 (by decide)).trans (VV37_arg0 m c)
theorem VV39_arg0 (c : Dev nD) : VV39 m c main_arg0 = m ((c : Thread nD τ).loc main_arg0) :=
  (VV39_keep m c main_arg0 (by decide)).trans (VV38_arg0 m c)
theorem VV40_arg0 (c : Dev nD) : VV40 m c main_arg0 = m ((c : Thread nD τ).loc main_arg0) :=
  (VV40_keep m c main_arg0 (by decide)).trans (VV39_arg0 m c)
theorem VV41_arg0 (c : Dev nD) : VV41 m c main_arg0 = m ((c : Thread nD τ).loc main_arg0) :=
  (VV41_keep m c main_arg0 (by decide)).trans (VV40_arg0 m c)
theorem VV42_arg0 (c : Dev nD) : VV42 m c main_arg0 = m ((c : Thread nD τ).loc main_arg0) :=
  (VV42_keep m c main_arg0 (by decide)).trans (VV41_arg0 m c)
theorem VV43_arg0 (c : Dev nD) : VV43 m c main_arg0 = m ((c : Thread nD τ).loc main_arg0) :=
  (VV43_keep m c main_arg0 (by decide)).trans (VV42_arg0 m c)
theorem VV44_arg0 (c : Dev nD) : VV44 m c main_arg0 = m ((c : Thread nD τ).loc main_arg0) :=
  (VV44_keep m c main_arg0 (by decide)).trans (VV43_arg0 m c)
theorem VV45_arg0 (c : Dev nD) : VV45 m c main_arg0 = m ((c : Thread nD τ).loc main_arg0) :=
  (VV45_keep m c main_arg0 (by decide)).trans (VV44_arg0 m c)
theorem VV46_arg0 (c : Dev nD) : VV46 m c main_arg0 = m ((c : Thread nD τ).loc main_arg0) :=
  (VV46_keep m c main_arg0 (by decide)).trans (VV45_arg0 m c)
theorem VV47_arg0 (c : Dev nD) : VV47 m c main_arg0 = m ((c : Thread nD τ).loc main_arg0) :=
  (VV47_keep m c main_arg0 (by decide)).trans (VV46_arg0 m c)
theorem VV48_arg0 (c : Dev nD) : VV48 m c main_arg0 = m ((c : Thread nD τ).loc main_arg0) :=
  (VV48_keep m c main_arg0 (by decide)).trans (VV47_arg0 m c)
theorem VV49_arg0 (c : Dev nD) : VV49 m c main_arg0 = m ((c : Thread nD τ).loc main_arg0) :=
  (VV49_keep m c main_arg0 (by decide)).trans (VV48_arg0 m c)
theorem VV50_arg0 (c : Dev nD) : VV50 m c main_arg0 = m ((c : Thread nD τ).loc main_arg0) :=
  (VV50_keep m c main_arg0 (by decide)).trans (VV49_arg0 m c)
theorem VV51_arg0 (c : Dev nD) : VV51 m c main_arg0 = m ((c : Thread nD τ).loc main_arg0) :=
  (VV51_keep m c main_arg0 (by decide)).trans (VV50_arg0 m c)
theorem VV52_arg0 (c : Dev nD) : VV52 m c main_arg0 = m ((c : Thread nD τ).loc main_arg0) :=
  (VV52_keep m c main_arg0 (by decide)).trans (VV51_arg0 m c)
theorem VV53_arg0 (c : Dev nD) : VV53 m c main_arg0 = m ((c : Thread nD τ).loc main_arg0) :=
  (VV53_keep m c main_arg0 (by decide)).trans (VV52_arg0 m c)
theorem VV54_arg0 (c : Dev nD) : VV54 m c main_arg0 = m ((c : Thread nD τ).loc main_arg0) :=
  (VV54_keep m c main_arg0 (by decide)).trans (VV53_arg0 m c)
theorem VV55_arg0 (c : Dev nD) : VV55 m c main_arg0 = m ((c : Thread nD τ).loc main_arg0) :=
  (VV55_keep m c main_arg0 (by decide)).trans (VV54_arg0 m c)
theorem VV56_arg0 (c : Dev nD) : VV56 m c main_arg0 = m ((c : Thread nD τ).loc main_arg0) :=
  (VV56_keep m c main_arg0 (by decide)).trans (VV55_arg0 m c)
theorem VV57_arg0 (c : Dev nD) : VV57 m c main_arg0 = m ((c : Thread nD τ).loc main_arg0) :=
  (VV57_keep m c main_arg0 (by decide)).trans (VV56_arg0 m c)
theorem VV58_arg0 (c : Dev nD) : VV58 m c main_arg0 = m ((c : Thread nD τ).loc main_arg0) :=
  (VV58_keep m c main_arg0 (by decide)).trans (VV57_arg0 m c)
theorem VV59_arg0 (c : Dev nD) : VV59 m c main_arg0 = m ((c : Thread nD τ).loc main_arg0) :=
  (VV59_keep m c main_arg0 (by decide)).trans (VV58_arg0 m c)
theorem VV60_arg0 (c : Dev nD) : VV60 m c main_arg0 = m ((c : Thread nD τ).loc main_arg0) :=
  (VV60_keep m c main_arg0 (by decide)).trans (VV59_arg0 m c)
theorem VV61_arg0 (c : Dev nD) : VV61 m c main_arg0 = m ((c : Thread nD τ).loc main_arg0) :=
  (VV61_keep m c main_arg0 (by decide)).trans (VV60_arg0 m c)
theorem VV62_arg0 (c : Dev nD) : VV62 m c main_arg0 = m ((c : Thread nD τ).loc main_arg0) :=
  (VV62_keep m c main_arg0 (by decide)).trans (VV61_arg0 m c)
theorem VV63_arg0 (c : Dev nD) : VV63 m c main_arg0 = m ((c : Thread nD τ).loc main_arg0) :=
  (VV63_keep m c main_arg0 (by decide)).trans (VV62_arg0 m c)
theorem VV64_arg0 (c : Dev nD) : VV64 m c main_arg0 = m ((c : Thread nD τ).loc main_arg0) :=
  (VV64_keep m c main_arg0 (by decide)).trans (VV63_arg0 m c)
theorem VV65_arg0 (c : Dev nD) : VV65 m c main_arg0 = m ((c : Thread nD τ).loc main_arg0) :=
  (VV65_keep m c main_arg0 (by decide)).trans (VV64_arg0 m c)
theorem VV66_arg0 (c : Dev nD) : VV66 m c main_arg0 = m ((c : Thread nD τ).loc main_arg0) :=
  (VV66_keep m c main_arg0 (by decide)).trans (VV65_arg0 m c)
theorem VV67_arg0 (c : Dev nD) : VV67 m c main_arg0 = m ((c : Thread nD τ).loc main_arg0) :=
  (VV67_keep m c main_arg0 (by decide)).trans (VV66_arg0 m c)
theorem VV68_arg0 (c : Dev nD) : VV68 m c main_arg0 = m ((c : Thread nD τ).loc main_arg0) :=
  (VV68_keep m c main_arg0 (by decide)).trans (VV67_arg0 m c)
theorem VV69_arg0 (c : Dev nD) : VV69 m c main_arg0 = m ((c : Thread nD τ).loc main_arg0) :=
  (VV69_keep m c main_arg0 (by decide)).trans (VV68_arg0 m c)
theorem VV70_arg0 (c : Dev nD) : VV70 m c main_arg0 = m ((c : Thread nD τ).loc main_arg0) :=
  (VV70_keep m c main_arg0 (by decide)).trans (VV69_arg0 m c)
theorem VV71_arg0 (c : Dev nD) : VV71 m c main_arg0 = m ((c : Thread nD τ).loc main_arg0) :=
  (VV71_keep m c main_arg0 (by decide)).trans (VV70_arg0 m c)
theorem VV72_arg0 (c : Dev nD) : VV72 m c main_arg0 = m ((c : Thread nD τ).loc main_arg0) :=
  (VV72_keep m c main_arg0 (by decide)).trans (VV71_arg0 m c)
theorem VV73_arg0 (c : Dev nD) : VV73 m c main_arg0 = m ((c : Thread nD τ).loc main_arg0) :=
  (VV73_keep m c main_arg0 (by decide)).trans (VV72_arg0 m c)
theorem VV74_arg0 (c : Dev nD) : VV74 m c main_arg0 = m ((c : Thread nD τ).loc main_arg0) :=
  (VV74_keep m c main_arg0 (by decide)).trans (VV73_arg0 m c)
theorem VV75_arg0 (c : Dev nD) : VV75 m c main_arg0 = m ((c : Thread nD τ).loc main_arg0) :=
  (VV75_keep m c main_arg0 (by decide)).trans (VV74_arg0 m c)
theorem VV76_arg0 (c : Dev nD) : VV76 m c main_arg0 = m ((c : Thread nD τ).loc main_arg0) :=
  (VV76_keep m c main_arg0 (by decide)).trans (VV75_arg0 m c)
theorem VV77_arg0 (c : Dev nD) : VV77 m c main_arg0 = m ((c : Thread nD τ).loc main_arg0) :=
  (VV77_keep m c main_arg0 (by decide)).trans (VV76_arg0 m c)
theorem VV78_arg0 (c : Dev nD) : VV78 m c main_arg0 = m ((c : Thread nD τ).loc main_arg0) :=
  (VV78_keep m c main_arg0 (by decide)).trans (VV77_arg0 m c)
theorem VV79_arg0 (c : Dev nD) : VV79 m c main_arg0 = m ((c : Thread nD τ).loc main_arg0) :=
  (VV79_keep m c main_arg0 (by decide)).trans (VV78_arg0 m c)
theorem VV80_arg0 (c : Dev nD) : VV80 m c main_arg0 = m ((c : Thread nD τ).loc main_arg0) :=
  (VV80_keep m c main_arg0 (by decide)).trans (VV79_arg0 m c)
theorem VV81_arg0 (c : Dev nD) : VV81 m c main_arg0 = m ((c : Thread nD τ).loc main_arg0) :=
  (VV81_keep m c main_arg0 (by decide)).trans (VV80_arg0 m c)
theorem VV82_arg0 (c : Dev nD) : VV82 m c main_arg0 = m ((c : Thread nD τ).loc main_arg0) :=
  (VV82_keep m c main_arg0 (by decide)).trans (VV81_arg0 m c)
theorem VV83_arg0 (c : Dev nD) : VV83 m c main_arg0 = m ((c : Thread nD τ).loc main_arg0) :=
  (VV83_keep m c main_arg0 (by decide)).trans (VV82_arg0 m c)
theorem VV84_arg0 (c : Dev nD) : VV84 m c main_arg0 = m ((c : Thread nD τ).loc main_arg0) :=
  (VV84_keep m c main_arg0 (by decide)).trans (VV83_arg0 m c)
theorem VV85_arg0 (c : Dev nD) : VV85 m c main_arg0 = m ((c : Thread nD τ).loc main_arg0) :=
  (VV85_keep m c main_arg0 (by decide)).trans (VV84_arg0 m c)
theorem VV86_arg0 (c : Dev nD) : VV86 m c main_arg0 = m ((c : Thread nD τ).loc main_arg0) :=
  (VV86_keep m c main_arg0 (by decide)).trans (VV85_arg0 m c)
theorem VV87_arg0 (c : Dev nD) : VV87 m c main_arg0 = m ((c : Thread nD τ).loc main_arg0) :=
  (VV87_keep m c main_arg0 (by decide)).trans (VV86_arg0 m c)
theorem VV88_arg0 (c : Dev nD) : VV88 m c main_arg0 = m ((c : Thread nD τ).loc main_arg0) :=
  (VV88_keep m c main_arg0 (by decide)).trans (VV87_arg0 m c)
theorem VV89_arg0 (c : Dev nD) : VV89 m c main_arg0 = m ((c : Thread nD τ).loc main_arg0) :=
  (VV89_keep m c main_arg0 (by decide)).trans (VV88_arg0 m c)
theorem VV90_arg0 (c : Dev nD) : VV90 m c main_arg0 = m ((c : Thread nD τ).loc main_arg0) :=
  (VV90_keep m c main_arg0 (by decide)).trans (VV89_arg0 m c)
theorem VV91_arg0 (c : Dev nD) : VV91 m c main_arg0 = m ((c : Thread nD τ).loc main_arg0) :=
  (VV91_keep m c main_arg0 (by decide)).trans (VV90_arg0 m c)
theorem VV92_arg0 (c : Dev nD) : VV92 m c main_arg0 = m ((c : Thread nD τ).loc main_arg0) :=
  (VV92_keep m c main_arg0 (by decide)).trans (VV91_arg0 m c)
theorem VV93_arg0 (c : Dev nD) : VV93 m c main_arg0 = m ((c : Thread nD τ).loc main_arg0) :=
  (VV93_keep m c main_arg0 (by decide)).trans (VV92_arg0 m c)
theorem VV94_arg0 (c : Dev nD) : VV94 m c main_arg0 = m ((c : Thread nD τ).loc main_arg0) :=
  (VV94_keep m c main_arg0 (by decide)).trans (VV93_arg0 m c)
theorem VV95_arg0 (c : Dev nD) : VV95 m c main_arg0 = m ((c : Thread nD τ).loc main_arg0) :=
  (VV95_keep m c main_arg0 (by decide)).trans (VV94_arg0 m c)
theorem VV96_arg0 (c : Dev nD) : VV96 m c main_arg0 = m ((c : Thread nD τ).loc main_arg0) :=
  (VV96_keep m c main_arg0 (by decide)).trans (VV95_arg0 m c)
theorem VV97_arg0 (c : Dev nD) : VV97 m c main_arg0 = m ((c : Thread nD τ).loc main_arg0) :=
  (VV97_keep m c main_arg0 (by decide)).trans (VV96_arg0 m c)
theorem VV98_arg0 (c : Dev nD) : VV98 m c main_arg0 = m ((c : Thread nD τ).loc main_arg0) :=
  (VV98_keep m c main_arg0 (by decide)).trans (VV97_arg0 m c)
theorem VV99_arg0 (c : Dev nD) : VV99 m c main_arg0 = m ((c : Thread nD τ).loc main_arg0) :=
  (VV99_keep m c main_arg0 (by decide)).trans (VV98_arg0 m c)
theorem VV100_arg0 (c : Dev nD) : VV100 m c main_arg0 = m ((c : Thread nD τ).loc main_arg0) :=
  (VV100_keep m c main_arg0 (by decide)).trans (VV99_arg0 m c)

theorem VV0_arg1 (c : Dev nD) : VV0 m c main_arg1 = m ((c : Thread nD τ).loc main_arg1) := rfl
theorem VV1_arg1 (c : Dev nD) : VV1 m c main_arg1 = m ((c : Thread nD τ).loc main_arg1) :=
  (VV1_keep m c main_arg1 (by decide)).trans (VV0_arg1 m c)
theorem VV2_arg1 (c : Dev nD) : VV2 m c main_arg1 = m ((c : Thread nD τ).loc main_arg1) :=
  (VV2_keep m c main_arg1 (by decide)).trans (VV1_arg1 m c)
theorem VV3_arg1 (c : Dev nD) : VV3 m c main_arg1 = m ((c : Thread nD τ).loc main_arg1) :=
  (VV3_keep m c main_arg1 (by decide)).trans (VV2_arg1 m c)
theorem VV4_arg1 (c : Dev nD) : VV4 m c main_arg1 = m ((c : Thread nD τ).loc main_arg1) :=
  (VV4_keep m c main_arg1 (by decide)).trans (VV3_arg1 m c)
theorem VV5_arg1 (c : Dev nD) : VV5 m c main_arg1 = m ((c : Thread nD τ).loc main_arg1) :=
  (VV5_keep m c main_arg1 (by decide)).trans (VV4_arg1 m c)
theorem VV6_arg1 (c : Dev nD) : VV6 m c main_arg1 = m ((c : Thread nD τ).loc main_arg1) :=
  (VV6_keep m c main_arg1 (by decide)).trans (VV5_arg1 m c)
theorem VV7_arg1 (c : Dev nD) : VV7 m c main_arg1 = m ((c : Thread nD τ).loc main_arg1) :=
  (VV7_keep m c main_arg1 (by decide)).trans (VV6_arg1 m c)
theorem VV8_arg1 (c : Dev nD) : VV8 m c main_arg1 = m ((c : Thread nD τ).loc main_arg1) :=
  (VV8_keep m c main_arg1 (by decide)).trans (VV7_arg1 m c)
theorem VV9_arg1 (c : Dev nD) : VV9 m c main_arg1 = m ((c : Thread nD τ).loc main_arg1) :=
  (VV9_keep m c main_arg1 (by decide)).trans (VV8_arg1 m c)
theorem VV10_arg1 (c : Dev nD) : VV10 m c main_arg1 = m ((c : Thread nD τ).loc main_arg1) :=
  (VV10_keep m c main_arg1 (by decide)).trans (VV9_arg1 m c)
theorem VV11_arg1 (c : Dev nD) : VV11 m c main_arg1 = m ((c : Thread nD τ).loc main_arg1) :=
  (VV11_keep m c main_arg1 (by decide)).trans (VV10_arg1 m c)
theorem VV12_arg1 (c : Dev nD) : VV12 m c main_arg1 = m ((c : Thread nD τ).loc main_arg1) :=
  (VV12_keep m c main_arg1 (by decide)).trans (VV11_arg1 m c)
theorem VV13_arg1 (c : Dev nD) : VV13 m c main_arg1 = m ((c : Thread nD τ).loc main_arg1) :=
  (VV13_keep m c main_arg1 (by decide)).trans (VV12_arg1 m c)
theorem VV14_arg1 (c : Dev nD) : VV14 m c main_arg1 = m ((c : Thread nD τ).loc main_arg1) :=
  (VV14_keep m c main_arg1 (by decide)).trans (VV13_arg1 m c)
theorem VV15_arg1 (c : Dev nD) : VV15 m c main_arg1 = m ((c : Thread nD τ).loc main_arg1) :=
  (VV15_keep m c main_arg1 (by decide)).trans (VV14_arg1 m c)
theorem VV16_arg1 (c : Dev nD) : VV16 m c main_arg1 = m ((c : Thread nD τ).loc main_arg1) :=
  (VV16_keep m c main_arg1 (by decide)).trans (VV15_arg1 m c)
theorem VV17_arg1 (c : Dev nD) : VV17 m c main_arg1 = m ((c : Thread nD τ).loc main_arg1) :=
  (VV17_keep m c main_arg1 (by decide)).trans (VV16_arg1 m c)
theorem VV18_arg1 (c : Dev nD) : VV18 m c main_arg1 = m ((c : Thread nD τ).loc main_arg1) :=
  (VV18_keep m c main_arg1 (by decide)).trans (VV17_arg1 m c)
theorem VV19_arg1 (c : Dev nD) : VV19 m c main_arg1 = m ((c : Thread nD τ).loc main_arg1) :=
  (VV19_keep m c main_arg1 (by decide)).trans (VV18_arg1 m c)
theorem VV20_arg1 (c : Dev nD) : VV20 m c main_arg1 = m ((c : Thread nD τ).loc main_arg1) :=
  (VV20_keep m c main_arg1 (by decide)).trans (VV19_arg1 m c)
theorem VV21_arg1 (c : Dev nD) : VV21 m c main_arg1 = m ((c : Thread nD τ).loc main_arg1) :=
  (VV21_keep m c main_arg1 (by decide)).trans (VV20_arg1 m c)
theorem VV22_arg1 (c : Dev nD) : VV22 m c main_arg1 = m ((c : Thread nD τ).loc main_arg1) :=
  (VV22_keep m c main_arg1 (by decide)).trans (VV21_arg1 m c)
theorem VV23_arg1 (c : Dev nD) : VV23 m c main_arg1 = m ((c : Thread nD τ).loc main_arg1) :=
  (VV23_keep m c main_arg1 (by decide)).trans (VV22_arg1 m c)
theorem VV24_arg1 (c : Dev nD) : VV24 m c main_arg1 = m ((c : Thread nD τ).loc main_arg1) :=
  (VV24_keep m c main_arg1 (by decide)).trans (VV23_arg1 m c)
theorem VV25_arg1 (c : Dev nD) : VV25 m c main_arg1 = m ((c : Thread nD τ).loc main_arg1) :=
  (VV25_keep m c main_arg1 (by decide)).trans (VV24_arg1 m c)
theorem VV26_arg1 (c : Dev nD) : VV26 m c main_arg1 = m ((c : Thread nD τ).loc main_arg1) :=
  (VV26_keep m c main_arg1 (by decide)).trans (VV25_arg1 m c)
theorem VV27_arg1 (c : Dev nD) : VV27 m c main_arg1 = m ((c : Thread nD τ).loc main_arg1) :=
  (VV27_keep m c main_arg1 (by decide)).trans (VV26_arg1 m c)
theorem VV28_arg1 (c : Dev nD) : VV28 m c main_arg1 = m ((c : Thread nD τ).loc main_arg1) :=
  (VV28_keep m c main_arg1 (by decide)).trans (VV27_arg1 m c)
theorem VV29_arg1 (c : Dev nD) : VV29 m c main_arg1 = m ((c : Thread nD τ).loc main_arg1) :=
  (VV29_keep m c main_arg1 (by decide)).trans (VV28_arg1 m c)
theorem VV30_arg1 (c : Dev nD) : VV30 m c main_arg1 = m ((c : Thread nD τ).loc main_arg1) :=
  (VV30_keep m c main_arg1 (by decide)).trans (VV29_arg1 m c)
theorem VV31_arg1 (c : Dev nD) : VV31 m c main_arg1 = m ((c : Thread nD τ).loc main_arg1) :=
  (VV31_keep m c main_arg1 (by decide)).trans (VV30_arg1 m c)
theorem VV32_arg1 (c : Dev nD) : VV32 m c main_arg1 = m ((c : Thread nD τ).loc main_arg1) :=
  (VV32_keep m c main_arg1 (by decide)).trans (VV31_arg1 m c)
theorem VV33_arg1 (c : Dev nD) : VV33 m c main_arg1 = m ((c : Thread nD τ).loc main_arg1) :=
  (VV33_keep m c main_arg1 (by decide)).trans (VV32_arg1 m c)
theorem VV34_arg1 (c : Dev nD) : VV34 m c main_arg1 = m ((c : Thread nD τ).loc main_arg1) :=
  (VV34_keep m c main_arg1 (by decide)).trans (VV33_arg1 m c)
theorem VV35_arg1 (c : Dev nD) : VV35 m c main_arg1 = m ((c : Thread nD τ).loc main_arg1) :=
  (VV35_keep m c main_arg1 (by decide)).trans (VV34_arg1 m c)
theorem VV36_arg1 (c : Dev nD) : VV36 m c main_arg1 = m ((c : Thread nD τ).loc main_arg1) :=
  (VV36_keep m c main_arg1 (by decide)).trans (VV35_arg1 m c)
theorem VV37_arg1 (c : Dev nD) : VV37 m c main_arg1 = m ((c : Thread nD τ).loc main_arg1) :=
  (VV37_keep m c main_arg1 (by decide)).trans (VV36_arg1 m c)
theorem VV38_arg1 (c : Dev nD) : VV38 m c main_arg1 = m ((c : Thread nD τ).loc main_arg1) :=
  (VV38_keep m c main_arg1 (by decide)).trans (VV37_arg1 m c)
theorem VV39_arg1 (c : Dev nD) : VV39 m c main_arg1 = m ((c : Thread nD τ).loc main_arg1) :=
  (VV39_keep m c main_arg1 (by decide)).trans (VV38_arg1 m c)
theorem VV40_arg1 (c : Dev nD) : VV40 m c main_arg1 = m ((c : Thread nD τ).loc main_arg1) :=
  (VV40_keep m c main_arg1 (by decide)).trans (VV39_arg1 m c)
theorem VV41_arg1 (c : Dev nD) : VV41 m c main_arg1 = m ((c : Thread nD τ).loc main_arg1) :=
  (VV41_keep m c main_arg1 (by decide)).trans (VV40_arg1 m c)
theorem VV42_arg1 (c : Dev nD) : VV42 m c main_arg1 = m ((c : Thread nD τ).loc main_arg1) :=
  (VV42_keep m c main_arg1 (by decide)).trans (VV41_arg1 m c)
theorem VV43_arg1 (c : Dev nD) : VV43 m c main_arg1 = m ((c : Thread nD τ).loc main_arg1) :=
  (VV43_keep m c main_arg1 (by decide)).trans (VV42_arg1 m c)
theorem VV44_arg1 (c : Dev nD) : VV44 m c main_arg1 = m ((c : Thread nD τ).loc main_arg1) :=
  (VV44_keep m c main_arg1 (by decide)).trans (VV43_arg1 m c)
theorem VV45_arg1 (c : Dev nD) : VV45 m c main_arg1 = m ((c : Thread nD τ).loc main_arg1) :=
  (VV45_keep m c main_arg1 (by decide)).trans (VV44_arg1 m c)
theorem VV46_arg1 (c : Dev nD) : VV46 m c main_arg1 = m ((c : Thread nD τ).loc main_arg1) :=
  (VV46_keep m c main_arg1 (by decide)).trans (VV45_arg1 m c)
theorem VV47_arg1 (c : Dev nD) : VV47 m c main_arg1 = m ((c : Thread nD τ).loc main_arg1) :=
  (VV47_keep m c main_arg1 (by decide)).trans (VV46_arg1 m c)
theorem VV48_arg1 (c : Dev nD) : VV48 m c main_arg1 = m ((c : Thread nD τ).loc main_arg1) :=
  (VV48_keep m c main_arg1 (by decide)).trans (VV47_arg1 m c)
theorem VV49_arg1 (c : Dev nD) : VV49 m c main_arg1 = m ((c : Thread nD τ).loc main_arg1) :=
  (VV49_keep m c main_arg1 (by decide)).trans (VV48_arg1 m c)
theorem VV50_arg1 (c : Dev nD) : VV50 m c main_arg1 = m ((c : Thread nD τ).loc main_arg1) :=
  (VV50_keep m c main_arg1 (by decide)).trans (VV49_arg1 m c)
theorem VV51_arg1 (c : Dev nD) : VV51 m c main_arg1 = m ((c : Thread nD τ).loc main_arg1) :=
  (VV51_keep m c main_arg1 (by decide)).trans (VV50_arg1 m c)
theorem VV52_arg1 (c : Dev nD) : VV52 m c main_arg1 = m ((c : Thread nD τ).loc main_arg1) :=
  (VV52_keep m c main_arg1 (by decide)).trans (VV51_arg1 m c)
theorem VV53_arg1 (c : Dev nD) : VV53 m c main_arg1 = m ((c : Thread nD τ).loc main_arg1) :=
  (VV53_keep m c main_arg1 (by decide)).trans (VV52_arg1 m c)
theorem VV54_arg1 (c : Dev nD) : VV54 m c main_arg1 = m ((c : Thread nD τ).loc main_arg1) :=
  (VV54_keep m c main_arg1 (by decide)).trans (VV53_arg1 m c)
theorem VV55_arg1 (c : Dev nD) : VV55 m c main_arg1 = m ((c : Thread nD τ).loc main_arg1) :=
  (VV55_keep m c main_arg1 (by decide)).trans (VV54_arg1 m c)
theorem VV56_arg1 (c : Dev nD) : VV56 m c main_arg1 = m ((c : Thread nD τ).loc main_arg1) :=
  (VV56_keep m c main_arg1 (by decide)).trans (VV55_arg1 m c)
theorem VV57_arg1 (c : Dev nD) : VV57 m c main_arg1 = m ((c : Thread nD τ).loc main_arg1) :=
  (VV57_keep m c main_arg1 (by decide)).trans (VV56_arg1 m c)
theorem VV58_arg1 (c : Dev nD) : VV58 m c main_arg1 = m ((c : Thread nD τ).loc main_arg1) :=
  (VV58_keep m c main_arg1 (by decide)).trans (VV57_arg1 m c)
theorem VV59_arg1 (c : Dev nD) : VV59 m c main_arg1 = m ((c : Thread nD τ).loc main_arg1) :=
  (VV59_keep m c main_arg1 (by decide)).trans (VV58_arg1 m c)
theorem VV60_arg1 (c : Dev nD) : VV60 m c main_arg1 = m ((c : Thread nD τ).loc main_arg1) :=
  (VV60_keep m c main_arg1 (by decide)).trans (VV59_arg1 m c)
theorem VV61_arg1 (c : Dev nD) : VV61 m c main_arg1 = m ((c : Thread nD τ).loc main_arg1) :=
  (VV61_keep m c main_arg1 (by decide)).trans (VV60_arg1 m c)
theorem VV62_arg1 (c : Dev nD) : VV62 m c main_arg1 = m ((c : Thread nD τ).loc main_arg1) :=
  (VV62_keep m c main_arg1 (by decide)).trans (VV61_arg1 m c)
theorem VV63_arg1 (c : Dev nD) : VV63 m c main_arg1 = m ((c : Thread nD τ).loc main_arg1) :=
  (VV63_keep m c main_arg1 (by decide)).trans (VV62_arg1 m c)
theorem VV64_arg1 (c : Dev nD) : VV64 m c main_arg1 = m ((c : Thread nD τ).loc main_arg1) :=
  (VV64_keep m c main_arg1 (by decide)).trans (VV63_arg1 m c)
theorem VV65_arg1 (c : Dev nD) : VV65 m c main_arg1 = m ((c : Thread nD τ).loc main_arg1) :=
  (VV65_keep m c main_arg1 (by decide)).trans (VV64_arg1 m c)
theorem VV66_arg1 (c : Dev nD) : VV66 m c main_arg1 = m ((c : Thread nD τ).loc main_arg1) :=
  (VV66_keep m c main_arg1 (by decide)).trans (VV65_arg1 m c)
theorem VV67_arg1 (c : Dev nD) : VV67 m c main_arg1 = m ((c : Thread nD τ).loc main_arg1) :=
  (VV67_keep m c main_arg1 (by decide)).trans (VV66_arg1 m c)
theorem VV68_arg1 (c : Dev nD) : VV68 m c main_arg1 = m ((c : Thread nD τ).loc main_arg1) :=
  (VV68_keep m c main_arg1 (by decide)).trans (VV67_arg1 m c)
theorem VV69_arg1 (c : Dev nD) : VV69 m c main_arg1 = m ((c : Thread nD τ).loc main_arg1) :=
  (VV69_keep m c main_arg1 (by decide)).trans (VV68_arg1 m c)
theorem VV70_arg1 (c : Dev nD) : VV70 m c main_arg1 = m ((c : Thread nD τ).loc main_arg1) :=
  (VV70_keep m c main_arg1 (by decide)).trans (VV69_arg1 m c)
theorem VV71_arg1 (c : Dev nD) : VV71 m c main_arg1 = m ((c : Thread nD τ).loc main_arg1) :=
  (VV71_keep m c main_arg1 (by decide)).trans (VV70_arg1 m c)
theorem VV72_arg1 (c : Dev nD) : VV72 m c main_arg1 = m ((c : Thread nD τ).loc main_arg1) :=
  (VV72_keep m c main_arg1 (by decide)).trans (VV71_arg1 m c)
theorem VV73_arg1 (c : Dev nD) : VV73 m c main_arg1 = m ((c : Thread nD τ).loc main_arg1) :=
  (VV73_keep m c main_arg1 (by decide)).trans (VV72_arg1 m c)
theorem VV74_arg1 (c : Dev nD) : VV74 m c main_arg1 = m ((c : Thread nD τ).loc main_arg1) :=
  (VV74_keep m c main_arg1 (by decide)).trans (VV73_arg1 m c)
theorem VV75_arg1 (c : Dev nD) : VV75 m c main_arg1 = m ((c : Thread nD τ).loc main_arg1) :=
  (VV75_keep m c main_arg1 (by decide)).trans (VV74_arg1 m c)
theorem VV76_arg1 (c : Dev nD) : VV76 m c main_arg1 = m ((c : Thread nD τ).loc main_arg1) :=
  (VV76_keep m c main_arg1 (by decide)).trans (VV75_arg1 m c)
theorem VV77_arg1 (c : Dev nD) : VV77 m c main_arg1 = m ((c : Thread nD τ).loc main_arg1) :=
  (VV77_keep m c main_arg1 (by decide)).trans (VV76_arg1 m c)
theorem VV78_arg1 (c : Dev nD) : VV78 m c main_arg1 = m ((c : Thread nD τ).loc main_arg1) :=
  (VV78_keep m c main_arg1 (by decide)).trans (VV77_arg1 m c)
theorem VV79_arg1 (c : Dev nD) : VV79 m c main_arg1 = m ((c : Thread nD τ).loc main_arg1) :=
  (VV79_keep m c main_arg1 (by decide)).trans (VV78_arg1 m c)
theorem VV80_arg1 (c : Dev nD) : VV80 m c main_arg1 = m ((c : Thread nD τ).loc main_arg1) :=
  (VV80_keep m c main_arg1 (by decide)).trans (VV79_arg1 m c)
theorem VV81_arg1 (c : Dev nD) : VV81 m c main_arg1 = m ((c : Thread nD τ).loc main_arg1) :=
  (VV81_keep m c main_arg1 (by decide)).trans (VV80_arg1 m c)
theorem VV82_arg1 (c : Dev nD) : VV82 m c main_arg1 = m ((c : Thread nD τ).loc main_arg1) :=
  (VV82_keep m c main_arg1 (by decide)).trans (VV81_arg1 m c)
theorem VV83_arg1 (c : Dev nD) : VV83 m c main_arg1 = m ((c : Thread nD τ).loc main_arg1) :=
  (VV83_keep m c main_arg1 (by decide)).trans (VV82_arg1 m c)
theorem VV84_arg1 (c : Dev nD) : VV84 m c main_arg1 = m ((c : Thread nD τ).loc main_arg1) :=
  (VV84_keep m c main_arg1 (by decide)).trans (VV83_arg1 m c)
theorem VV85_arg1 (c : Dev nD) : VV85 m c main_arg1 = m ((c : Thread nD τ).loc main_arg1) :=
  (VV85_keep m c main_arg1 (by decide)).trans (VV84_arg1 m c)
theorem VV86_arg1 (c : Dev nD) : VV86 m c main_arg1 = m ((c : Thread nD τ).loc main_arg1) :=
  (VV86_keep m c main_arg1 (by decide)).trans (VV85_arg1 m c)
theorem VV87_arg1 (c : Dev nD) : VV87 m c main_arg1 = m ((c : Thread nD τ).loc main_arg1) :=
  (VV87_keep m c main_arg1 (by decide)).trans (VV86_arg1 m c)
theorem VV88_arg1 (c : Dev nD) : VV88 m c main_arg1 = m ((c : Thread nD τ).loc main_arg1) :=
  (VV88_keep m c main_arg1 (by decide)).trans (VV87_arg1 m c)
theorem VV89_arg1 (c : Dev nD) : VV89 m c main_arg1 = m ((c : Thread nD τ).loc main_arg1) :=
  (VV89_keep m c main_arg1 (by decide)).trans (VV88_arg1 m c)
theorem VV90_arg1 (c : Dev nD) : VV90 m c main_arg1 = m ((c : Thread nD τ).loc main_arg1) :=
  (VV90_keep m c main_arg1 (by decide)).trans (VV89_arg1 m c)
theorem VV91_arg1 (c : Dev nD) : VV91 m c main_arg1 = m ((c : Thread nD τ).loc main_arg1) :=
  (VV91_keep m c main_arg1 (by decide)).trans (VV90_arg1 m c)
theorem VV92_arg1 (c : Dev nD) : VV92 m c main_arg1 = m ((c : Thread nD τ).loc main_arg1) :=
  (VV92_keep m c main_arg1 (by decide)).trans (VV91_arg1 m c)
theorem VV93_arg1 (c : Dev nD) : VV93 m c main_arg1 = m ((c : Thread nD τ).loc main_arg1) :=
  (VV93_keep m c main_arg1 (by decide)).trans (VV92_arg1 m c)
theorem VV94_arg1 (c : Dev nD) : VV94 m c main_arg1 = m ((c : Thread nD τ).loc main_arg1) :=
  (VV94_keep m c main_arg1 (by decide)).trans (VV93_arg1 m c)
theorem VV95_arg1 (c : Dev nD) : VV95 m c main_arg1 = m ((c : Thread nD τ).loc main_arg1) :=
  (VV95_keep m c main_arg1 (by decide)).trans (VV94_arg1 m c)
theorem VV96_arg1 (c : Dev nD) : VV96 m c main_arg1 = m ((c : Thread nD τ).loc main_arg1) :=
  (VV96_keep m c main_arg1 (by decide)).trans (VV95_arg1 m c)
theorem VV97_arg1 (c : Dev nD) : VV97 m c main_arg1 = m ((c : Thread nD τ).loc main_arg1) :=
  (VV97_keep m c main_arg1 (by decide)).trans (VV96_arg1 m c)
theorem VV98_arg1 (c : Dev nD) : VV98 m c main_arg1 = m ((c : Thread nD τ).loc main_arg1) :=
  (VV98_keep m c main_arg1 (by decide)).trans (VV97_arg1 m c)
theorem VV99_arg1 (c : Dev nD) : VV99 m c main_arg1 = m ((c : Thread nD τ).loc main_arg1) :=
  (VV99_keep m c main_arg1 (by decide)).trans (VV98_arg1 m c)
theorem VV100_arg1 (c : Dev nD) : VV100 m c main_arg1 = m ((c : Thread nD τ).loc main_arg1) :=
  (VV100_keep m c main_arg1 (by decide)).trans (VV99_arg1 m c)

theorem VV0_arg2 (c : Dev nD) : VV0 m c main_arg2 = m ((c : Thread nD τ).loc main_arg2) := rfl
theorem VV1_arg2 (c : Dev nD) : VV1 m c main_arg2 = m ((c : Thread nD τ).loc main_arg2) :=
  (VV1_keep m c main_arg2 (by decide)).trans (VV0_arg2 m c)
theorem VV2_arg2 (c : Dev nD) : VV2 m c main_arg2 = m ((c : Thread nD τ).loc main_arg2) :=
  (VV2_keep m c main_arg2 (by decide)).trans (VV1_arg2 m c)
theorem VV3_arg2 (c : Dev nD) : VV3 m c main_arg2 = m ((c : Thread nD τ).loc main_arg2) :=
  (VV3_keep m c main_arg2 (by decide)).trans (VV2_arg2 m c)
theorem VV4_arg2 (c : Dev nD) : VV4 m c main_arg2 = m ((c : Thread nD τ).loc main_arg2) :=
  (VV4_keep m c main_arg2 (by decide)).trans (VV3_arg2 m c)
theorem VV5_arg2 (c : Dev nD) : VV5 m c main_arg2 = m ((c : Thread nD τ).loc main_arg2) :=
  (VV5_keep m c main_arg2 (by decide)).trans (VV4_arg2 m c)
theorem VV6_arg2 (c : Dev nD) : VV6 m c main_arg2 = m ((c : Thread nD τ).loc main_arg2) :=
  (VV6_keep m c main_arg2 (by decide)).trans (VV5_arg2 m c)
theorem VV7_arg2 (c : Dev nD) : VV7 m c main_arg2 = m ((c : Thread nD τ).loc main_arg2) :=
  (VV7_keep m c main_arg2 (by decide)).trans (VV6_arg2 m c)
theorem VV8_arg2 (c : Dev nD) : VV8 m c main_arg2 = m ((c : Thread nD τ).loc main_arg2) :=
  (VV8_keep m c main_arg2 (by decide)).trans (VV7_arg2 m c)
theorem VV9_arg2 (c : Dev nD) : VV9 m c main_arg2 = m ((c : Thread nD τ).loc main_arg2) :=
  (VV9_keep m c main_arg2 (by decide)).trans (VV8_arg2 m c)
theorem VV10_arg2 (c : Dev nD) : VV10 m c main_arg2 = m ((c : Thread nD τ).loc main_arg2) :=
  (VV10_keep m c main_arg2 (by decide)).trans (VV9_arg2 m c)
theorem VV11_arg2 (c : Dev nD) : VV11 m c main_arg2 = m ((c : Thread nD τ).loc main_arg2) :=
  (VV11_keep m c main_arg2 (by decide)).trans (VV10_arg2 m c)
theorem VV12_arg2 (c : Dev nD) : VV12 m c main_arg2 = m ((c : Thread nD τ).loc main_arg2) :=
  (VV12_keep m c main_arg2 (by decide)).trans (VV11_arg2 m c)
theorem VV13_arg2 (c : Dev nD) : VV13 m c main_arg2 = m ((c : Thread nD τ).loc main_arg2) :=
  (VV13_keep m c main_arg2 (by decide)).trans (VV12_arg2 m c)
theorem VV14_arg2 (c : Dev nD) : VV14 m c main_arg2 = m ((c : Thread nD τ).loc main_arg2) :=
  (VV14_keep m c main_arg2 (by decide)).trans (VV13_arg2 m c)
theorem VV15_arg2 (c : Dev nD) : VV15 m c main_arg2 = m ((c : Thread nD τ).loc main_arg2) :=
  (VV15_keep m c main_arg2 (by decide)).trans (VV14_arg2 m c)
theorem VV16_arg2 (c : Dev nD) : VV16 m c main_arg2 = m ((c : Thread nD τ).loc main_arg2) :=
  (VV16_keep m c main_arg2 (by decide)).trans (VV15_arg2 m c)
theorem VV17_arg2 (c : Dev nD) : VV17 m c main_arg2 = m ((c : Thread nD τ).loc main_arg2) :=
  (VV17_keep m c main_arg2 (by decide)).trans (VV16_arg2 m c)
theorem VV18_arg2 (c : Dev nD) : VV18 m c main_arg2 = m ((c : Thread nD τ).loc main_arg2) :=
  (VV18_keep m c main_arg2 (by decide)).trans (VV17_arg2 m c)
theorem VV19_arg2 (c : Dev nD) : VV19 m c main_arg2 = m ((c : Thread nD τ).loc main_arg2) :=
  (VV19_keep m c main_arg2 (by decide)).trans (VV18_arg2 m c)
theorem VV20_arg2 (c : Dev nD) : VV20 m c main_arg2 = m ((c : Thread nD τ).loc main_arg2) :=
  (VV20_keep m c main_arg2 (by decide)).trans (VV19_arg2 m c)
theorem VV21_arg2 (c : Dev nD) : VV21 m c main_arg2 = m ((c : Thread nD τ).loc main_arg2) :=
  (VV21_keep m c main_arg2 (by decide)).trans (VV20_arg2 m c)
theorem VV22_arg2 (c : Dev nD) : VV22 m c main_arg2 = m ((c : Thread nD τ).loc main_arg2) :=
  (VV22_keep m c main_arg2 (by decide)).trans (VV21_arg2 m c)
theorem VV23_arg2 (c : Dev nD) : VV23 m c main_arg2 = m ((c : Thread nD τ).loc main_arg2) :=
  (VV23_keep m c main_arg2 (by decide)).trans (VV22_arg2 m c)
theorem VV24_arg2 (c : Dev nD) : VV24 m c main_arg2 = m ((c : Thread nD τ).loc main_arg2) :=
  (VV24_keep m c main_arg2 (by decide)).trans (VV23_arg2 m c)
theorem VV25_arg2 (c : Dev nD) : VV25 m c main_arg2 = m ((c : Thread nD τ).loc main_arg2) :=
  (VV25_keep m c main_arg2 (by decide)).trans (VV24_arg2 m c)
theorem VV26_arg2 (c : Dev nD) : VV26 m c main_arg2 = m ((c : Thread nD τ).loc main_arg2) :=
  (VV26_keep m c main_arg2 (by decide)).trans (VV25_arg2 m c)
theorem VV27_arg2 (c : Dev nD) : VV27 m c main_arg2 = m ((c : Thread nD τ).loc main_arg2) :=
  (VV27_keep m c main_arg2 (by decide)).trans (VV26_arg2 m c)
theorem VV28_arg2 (c : Dev nD) : VV28 m c main_arg2 = m ((c : Thread nD τ).loc main_arg2) :=
  (VV28_keep m c main_arg2 (by decide)).trans (VV27_arg2 m c)
theorem VV29_arg2 (c : Dev nD) : VV29 m c main_arg2 = m ((c : Thread nD τ).loc main_arg2) :=
  (VV29_keep m c main_arg2 (by decide)).trans (VV28_arg2 m c)
theorem VV30_arg2 (c : Dev nD) : VV30 m c main_arg2 = m ((c : Thread nD τ).loc main_arg2) :=
  (VV30_keep m c main_arg2 (by decide)).trans (VV29_arg2 m c)
theorem VV31_arg2 (c : Dev nD) : VV31 m c main_arg2 = m ((c : Thread nD τ).loc main_arg2) :=
  (VV31_keep m c main_arg2 (by decide)).trans (VV30_arg2 m c)
theorem VV32_arg2 (c : Dev nD) : VV32 m c main_arg2 = m ((c : Thread nD τ).loc main_arg2) :=
  (VV32_keep m c main_arg2 (by decide)).trans (VV31_arg2 m c)
theorem VV33_arg2 (c : Dev nD) : VV33 m c main_arg2 = m ((c : Thread nD τ).loc main_arg2) :=
  (VV33_keep m c main_arg2 (by decide)).trans (VV32_arg2 m c)
theorem VV34_arg2 (c : Dev nD) : VV34 m c main_arg2 = m ((c : Thread nD τ).loc main_arg2) :=
  (VV34_keep m c main_arg2 (by decide)).trans (VV33_arg2 m c)
theorem VV35_arg2 (c : Dev nD) : VV35 m c main_arg2 = m ((c : Thread nD τ).loc main_arg2) :=
  (VV35_keep m c main_arg2 (by decide)).trans (VV34_arg2 m c)
theorem VV36_arg2 (c : Dev nD) : VV36 m c main_arg2 = m ((c : Thread nD τ).loc main_arg2) :=
  (VV36_keep m c main_arg2 (by decide)).trans (VV35_arg2 m c)
theorem VV37_arg2 (c : Dev nD) : VV37 m c main_arg2 = m ((c : Thread nD τ).loc main_arg2) :=
  (VV37_keep m c main_arg2 (by decide)).trans (VV36_arg2 m c)
theorem VV38_arg2 (c : Dev nD) : VV38 m c main_arg2 = m ((c : Thread nD τ).loc main_arg2) :=
  (VV38_keep m c main_arg2 (by decide)).trans (VV37_arg2 m c)
theorem VV39_arg2 (c : Dev nD) : VV39 m c main_arg2 = m ((c : Thread nD τ).loc main_arg2) :=
  (VV39_keep m c main_arg2 (by decide)).trans (VV38_arg2 m c)
theorem VV40_arg2 (c : Dev nD) : VV40 m c main_arg2 = m ((c : Thread nD τ).loc main_arg2) :=
  (VV40_keep m c main_arg2 (by decide)).trans (VV39_arg2 m c)
theorem VV41_arg2 (c : Dev nD) : VV41 m c main_arg2 = m ((c : Thread nD τ).loc main_arg2) :=
  (VV41_keep m c main_arg2 (by decide)).trans (VV40_arg2 m c)
theorem VV42_arg2 (c : Dev nD) : VV42 m c main_arg2 = m ((c : Thread nD τ).loc main_arg2) :=
  (VV42_keep m c main_arg2 (by decide)).trans (VV41_arg2 m c)
theorem VV43_arg2 (c : Dev nD) : VV43 m c main_arg2 = m ((c : Thread nD τ).loc main_arg2) :=
  (VV43_keep m c main_arg2 (by decide)).trans (VV42_arg2 m c)
theorem VV44_arg2 (c : Dev nD) : VV44 m c main_arg2 = m ((c : Thread nD τ).loc main_arg2) :=
  (VV44_keep m c main_arg2 (by decide)).trans (VV43_arg2 m c)
theorem VV45_arg2 (c : Dev nD) : VV45 m c main_arg2 = m ((c : Thread nD τ).loc main_arg2) :=
  (VV45_keep m c main_arg2 (by decide)).trans (VV44_arg2 m c)
theorem VV46_arg2 (c : Dev nD) : VV46 m c main_arg2 = m ((c : Thread nD τ).loc main_arg2) :=
  (VV46_keep m c main_arg2 (by decide)).trans (VV45_arg2 m c)
theorem VV47_arg2 (c : Dev nD) : VV47 m c main_arg2 = m ((c : Thread nD τ).loc main_arg2) :=
  (VV47_keep m c main_arg2 (by decide)).trans (VV46_arg2 m c)
theorem VV48_arg2 (c : Dev nD) : VV48 m c main_arg2 = m ((c : Thread nD τ).loc main_arg2) :=
  (VV48_keep m c main_arg2 (by decide)).trans (VV47_arg2 m c)
theorem VV49_arg2 (c : Dev nD) : VV49 m c main_arg2 = m ((c : Thread nD τ).loc main_arg2) :=
  (VV49_keep m c main_arg2 (by decide)).trans (VV48_arg2 m c)
theorem VV50_arg2 (c : Dev nD) : VV50 m c main_arg2 = m ((c : Thread nD τ).loc main_arg2) :=
  (VV50_keep m c main_arg2 (by decide)).trans (VV49_arg2 m c)
theorem VV51_arg2 (c : Dev nD) : VV51 m c main_arg2 = m ((c : Thread nD τ).loc main_arg2) :=
  (VV51_keep m c main_arg2 (by decide)).trans (VV50_arg2 m c)
theorem VV52_arg2 (c : Dev nD) : VV52 m c main_arg2 = m ((c : Thread nD τ).loc main_arg2) :=
  (VV52_keep m c main_arg2 (by decide)).trans (VV51_arg2 m c)
theorem VV53_arg2 (c : Dev nD) : VV53 m c main_arg2 = m ((c : Thread nD τ).loc main_arg2) :=
  (VV53_keep m c main_arg2 (by decide)).trans (VV52_arg2 m c)
theorem VV54_arg2 (c : Dev nD) : VV54 m c main_arg2 = m ((c : Thread nD τ).loc main_arg2) :=
  (VV54_keep m c main_arg2 (by decide)).trans (VV53_arg2 m c)
theorem VV55_arg2 (c : Dev nD) : VV55 m c main_arg2 = m ((c : Thread nD τ).loc main_arg2) :=
  (VV55_keep m c main_arg2 (by decide)).trans (VV54_arg2 m c)
theorem VV56_arg2 (c : Dev nD) : VV56 m c main_arg2 = m ((c : Thread nD τ).loc main_arg2) :=
  (VV56_keep m c main_arg2 (by decide)).trans (VV55_arg2 m c)
theorem VV57_arg2 (c : Dev nD) : VV57 m c main_arg2 = m ((c : Thread nD τ).loc main_arg2) :=
  (VV57_keep m c main_arg2 (by decide)).trans (VV56_arg2 m c)
theorem VV58_arg2 (c : Dev nD) : VV58 m c main_arg2 = m ((c : Thread nD τ).loc main_arg2) :=
  (VV58_keep m c main_arg2 (by decide)).trans (VV57_arg2 m c)
theorem VV59_arg2 (c : Dev nD) : VV59 m c main_arg2 = m ((c : Thread nD τ).loc main_arg2) :=
  (VV59_keep m c main_arg2 (by decide)).trans (VV58_arg2 m c)
theorem VV60_arg2 (c : Dev nD) : VV60 m c main_arg2 = m ((c : Thread nD τ).loc main_arg2) :=
  (VV60_keep m c main_arg2 (by decide)).trans (VV59_arg2 m c)
theorem VV61_arg2 (c : Dev nD) : VV61 m c main_arg2 = m ((c : Thread nD τ).loc main_arg2) :=
  (VV61_keep m c main_arg2 (by decide)).trans (VV60_arg2 m c)
theorem VV62_arg2 (c : Dev nD) : VV62 m c main_arg2 = m ((c : Thread nD τ).loc main_arg2) :=
  (VV62_keep m c main_arg2 (by decide)).trans (VV61_arg2 m c)
theorem VV63_arg2 (c : Dev nD) : VV63 m c main_arg2 = m ((c : Thread nD τ).loc main_arg2) :=
  (VV63_keep m c main_arg2 (by decide)).trans (VV62_arg2 m c)
theorem VV64_arg2 (c : Dev nD) : VV64 m c main_arg2 = m ((c : Thread nD τ).loc main_arg2) :=
  (VV64_keep m c main_arg2 (by decide)).trans (VV63_arg2 m c)
theorem VV65_arg2 (c : Dev nD) : VV65 m c main_arg2 = m ((c : Thread nD τ).loc main_arg2) :=
  (VV65_keep m c main_arg2 (by decide)).trans (VV64_arg2 m c)
theorem VV66_arg2 (c : Dev nD) : VV66 m c main_arg2 = m ((c : Thread nD τ).loc main_arg2) :=
  (VV66_keep m c main_arg2 (by decide)).trans (VV65_arg2 m c)
theorem VV67_arg2 (c : Dev nD) : VV67 m c main_arg2 = m ((c : Thread nD τ).loc main_arg2) :=
  (VV67_keep m c main_arg2 (by decide)).trans (VV66_arg2 m c)
theorem VV68_arg2 (c : Dev nD) : VV68 m c main_arg2 = m ((c : Thread nD τ).loc main_arg2) :=
  (VV68_keep m c main_arg2 (by decide)).trans (VV67_arg2 m c)
theorem VV69_arg2 (c : Dev nD) : VV69 m c main_arg2 = m ((c : Thread nD τ).loc main_arg2) :=
  (VV69_keep m c main_arg2 (by decide)).trans (VV68_arg2 m c)
theorem VV70_arg2 (c : Dev nD) : VV70 m c main_arg2 = m ((c : Thread nD τ).loc main_arg2) :=
  (VV70_keep m c main_arg2 (by decide)).trans (VV69_arg2 m c)
theorem VV71_arg2 (c : Dev nD) : VV71 m c main_arg2 = m ((c : Thread nD τ).loc main_arg2) :=
  (VV71_keep m c main_arg2 (by decide)).trans (VV70_arg2 m c)
theorem VV72_arg2 (c : Dev nD) : VV72 m c main_arg2 = m ((c : Thread nD τ).loc main_arg2) :=
  (VV72_keep m c main_arg2 (by decide)).trans (VV71_arg2 m c)
theorem VV73_arg2 (c : Dev nD) : VV73 m c main_arg2 = m ((c : Thread nD τ).loc main_arg2) :=
  (VV73_keep m c main_arg2 (by decide)).trans (VV72_arg2 m c)
theorem VV74_arg2 (c : Dev nD) : VV74 m c main_arg2 = m ((c : Thread nD τ).loc main_arg2) :=
  (VV74_keep m c main_arg2 (by decide)).trans (VV73_arg2 m c)
theorem VV75_arg2 (c : Dev nD) : VV75 m c main_arg2 = m ((c : Thread nD τ).loc main_arg2) :=
  (VV75_keep m c main_arg2 (by decide)).trans (VV74_arg2 m c)
theorem VV76_arg2 (c : Dev nD) : VV76 m c main_arg2 = m ((c : Thread nD τ).loc main_arg2) :=
  (VV76_keep m c main_arg2 (by decide)).trans (VV75_arg2 m c)
theorem VV77_arg2 (c : Dev nD) : VV77 m c main_arg2 = m ((c : Thread nD τ).loc main_arg2) :=
  (VV77_keep m c main_arg2 (by decide)).trans (VV76_arg2 m c)
theorem VV78_arg2 (c : Dev nD) : VV78 m c main_arg2 = m ((c : Thread nD τ).loc main_arg2) :=
  (VV78_keep m c main_arg2 (by decide)).trans (VV77_arg2 m c)
theorem VV79_arg2 (c : Dev nD) : VV79 m c main_arg2 = m ((c : Thread nD τ).loc main_arg2) :=
  (VV79_keep m c main_arg2 (by decide)).trans (VV78_arg2 m c)
theorem VV80_arg2 (c : Dev nD) : VV80 m c main_arg2 = m ((c : Thread nD τ).loc main_arg2) :=
  (VV80_keep m c main_arg2 (by decide)).trans (VV79_arg2 m c)
theorem VV81_arg2 (c : Dev nD) : VV81 m c main_arg2 = m ((c : Thread nD τ).loc main_arg2) :=
  (VV81_keep m c main_arg2 (by decide)).trans (VV80_arg2 m c)
theorem VV82_arg2 (c : Dev nD) : VV82 m c main_arg2 = m ((c : Thread nD τ).loc main_arg2) :=
  (VV82_keep m c main_arg2 (by decide)).trans (VV81_arg2 m c)
theorem VV83_arg2 (c : Dev nD) : VV83 m c main_arg2 = m ((c : Thread nD τ).loc main_arg2) :=
  (VV83_keep m c main_arg2 (by decide)).trans (VV82_arg2 m c)
theorem VV84_arg2 (c : Dev nD) : VV84 m c main_arg2 = m ((c : Thread nD τ).loc main_arg2) :=
  (VV84_keep m c main_arg2 (by decide)).trans (VV83_arg2 m c)
theorem VV85_arg2 (c : Dev nD) : VV85 m c main_arg2 = m ((c : Thread nD τ).loc main_arg2) :=
  (VV85_keep m c main_arg2 (by decide)).trans (VV84_arg2 m c)
theorem VV86_arg2 (c : Dev nD) : VV86 m c main_arg2 = m ((c : Thread nD τ).loc main_arg2) :=
  (VV86_keep m c main_arg2 (by decide)).trans (VV85_arg2 m c)
theorem VV87_arg2 (c : Dev nD) : VV87 m c main_arg2 = m ((c : Thread nD τ).loc main_arg2) :=
  (VV87_keep m c main_arg2 (by decide)).trans (VV86_arg2 m c)
theorem VV88_arg2 (c : Dev nD) : VV88 m c main_arg2 = m ((c : Thread nD τ).loc main_arg2) :=
  (VV88_keep m c main_arg2 (by decide)).trans (VV87_arg2 m c)
theorem VV89_arg2 (c : Dev nD) : VV89 m c main_arg2 = m ((c : Thread nD τ).loc main_arg2) :=
  (VV89_keep m c main_arg2 (by decide)).trans (VV88_arg2 m c)
theorem VV90_arg2 (c : Dev nD) : VV90 m c main_arg2 = m ((c : Thread nD τ).loc main_arg2) :=
  (VV90_keep m c main_arg2 (by decide)).trans (VV89_arg2 m c)
theorem VV91_arg2 (c : Dev nD) : VV91 m c main_arg2 = m ((c : Thread nD τ).loc main_arg2) :=
  (VV91_keep m c main_arg2 (by decide)).trans (VV90_arg2 m c)
theorem VV92_arg2 (c : Dev nD) : VV92 m c main_arg2 = m ((c : Thread nD τ).loc main_arg2) :=
  (VV92_keep m c main_arg2 (by decide)).trans (VV91_arg2 m c)
theorem VV93_arg2 (c : Dev nD) : VV93 m c main_arg2 = m ((c : Thread nD τ).loc main_arg2) :=
  (VV93_keep m c main_arg2 (by decide)).trans (VV92_arg2 m c)
theorem VV94_arg2 (c : Dev nD) : VV94 m c main_arg2 = m ((c : Thread nD τ).loc main_arg2) :=
  (VV94_keep m c main_arg2 (by decide)).trans (VV93_arg2 m c)
theorem VV95_arg2 (c : Dev nD) : VV95 m c main_arg2 = m ((c : Thread nD τ).loc main_arg2) :=
  (VV95_keep m c main_arg2 (by decide)).trans (VV94_arg2 m c)
theorem VV96_arg2 (c : Dev nD) : VV96 m c main_arg2 = m ((c : Thread nD τ).loc main_arg2) :=
  (VV96_keep m c main_arg2 (by decide)).trans (VV95_arg2 m c)
theorem VV97_arg2 (c : Dev nD) : VV97 m c main_arg2 = m ((c : Thread nD τ).loc main_arg2) :=
  (VV97_keep m c main_arg2 (by decide)).trans (VV96_arg2 m c)
theorem VV98_arg2 (c : Dev nD) : VV98 m c main_arg2 = m ((c : Thread nD τ).loc main_arg2) :=
  (VV98_keep m c main_arg2 (by decide)).trans (VV97_arg2 m c)
theorem VV99_arg2 (c : Dev nD) : VV99 m c main_arg2 = m ((c : Thread nD τ).loc main_arg2) :=
  (VV99_keep m c main_arg2 (by decide)).trans (VV98_arg2 m c)
theorem VV100_arg2 (c : Dev nD) : VV100 m c main_arg2 = m ((c : Thread nD τ).loc main_arg2) :=
  (VV100_keep m c main_arg2 (by decide)).trans (VV99_arg2 m c)

theorem VV0_arg3 (c : Dev nD) : VV0 m c main_arg3 = m ((c : Thread nD τ).loc main_arg3) := rfl
theorem VV1_arg3 (c : Dev nD) : VV1 m c main_arg3 = m ((c : Thread nD τ).loc main_arg3) :=
  (VV1_keep m c main_arg3 (by decide)).trans (VV0_arg3 m c)
theorem VV2_arg3 (c : Dev nD) : VV2 m c main_arg3 = m ((c : Thread nD τ).loc main_arg3) :=
  (VV2_keep m c main_arg3 (by decide)).trans (VV1_arg3 m c)
theorem VV3_arg3 (c : Dev nD) : VV3 m c main_arg3 = m ((c : Thread nD τ).loc main_arg3) :=
  (VV3_keep m c main_arg3 (by decide)).trans (VV2_arg3 m c)
theorem VV4_arg3 (c : Dev nD) : VV4 m c main_arg3 = m ((c : Thread nD τ).loc main_arg3) :=
  (VV4_keep m c main_arg3 (by decide)).trans (VV3_arg3 m c)
theorem VV5_arg3 (c : Dev nD) : VV5 m c main_arg3 = m ((c : Thread nD τ).loc main_arg3) :=
  (VV5_keep m c main_arg3 (by decide)).trans (VV4_arg3 m c)
theorem VV6_arg3 (c : Dev nD) : VV6 m c main_arg3 = m ((c : Thread nD τ).loc main_arg3) :=
  (VV6_keep m c main_arg3 (by decide)).trans (VV5_arg3 m c)
theorem VV7_arg3 (c : Dev nD) : VV7 m c main_arg3 = m ((c : Thread nD τ).loc main_arg3) :=
  (VV7_keep m c main_arg3 (by decide)).trans (VV6_arg3 m c)
theorem VV8_arg3 (c : Dev nD) : VV8 m c main_arg3 = m ((c : Thread nD τ).loc main_arg3) :=
  (VV8_keep m c main_arg3 (by decide)).trans (VV7_arg3 m c)
theorem VV9_arg3 (c : Dev nD) : VV9 m c main_arg3 = m ((c : Thread nD τ).loc main_arg3) :=
  (VV9_keep m c main_arg3 (by decide)).trans (VV8_arg3 m c)
theorem VV10_arg3 (c : Dev nD) : VV10 m c main_arg3 = m ((c : Thread nD τ).loc main_arg3) :=
  (VV10_keep m c main_arg3 (by decide)).trans (VV9_arg3 m c)
theorem VV11_arg3 (c : Dev nD) : VV11 m c main_arg3 = m ((c : Thread nD τ).loc main_arg3) :=
  (VV11_keep m c main_arg3 (by decide)).trans (VV10_arg3 m c)
theorem VV12_arg3 (c : Dev nD) : VV12 m c main_arg3 = m ((c : Thread nD τ).loc main_arg3) :=
  (VV12_keep m c main_arg3 (by decide)).trans (VV11_arg3 m c)
theorem VV13_arg3 (c : Dev nD) : VV13 m c main_arg3 = m ((c : Thread nD τ).loc main_arg3) :=
  (VV13_keep m c main_arg3 (by decide)).trans (VV12_arg3 m c)
theorem VV14_arg3 (c : Dev nD) : VV14 m c main_arg3 = m ((c : Thread nD τ).loc main_arg3) :=
  (VV14_keep m c main_arg3 (by decide)).trans (VV13_arg3 m c)
theorem VV15_arg3 (c : Dev nD) : VV15 m c main_arg3 = m ((c : Thread nD τ).loc main_arg3) :=
  (VV15_keep m c main_arg3 (by decide)).trans (VV14_arg3 m c)
theorem VV16_arg3 (c : Dev nD) : VV16 m c main_arg3 = m ((c : Thread nD τ).loc main_arg3) :=
  (VV16_keep m c main_arg3 (by decide)).trans (VV15_arg3 m c)
theorem VV17_arg3 (c : Dev nD) : VV17 m c main_arg3 = m ((c : Thread nD τ).loc main_arg3) :=
  (VV17_keep m c main_arg3 (by decide)).trans (VV16_arg3 m c)
theorem VV18_arg3 (c : Dev nD) : VV18 m c main_arg3 = m ((c : Thread nD τ).loc main_arg3) :=
  (VV18_keep m c main_arg3 (by decide)).trans (VV17_arg3 m c)
theorem VV19_arg3 (c : Dev nD) : VV19 m c main_arg3 = m ((c : Thread nD τ).loc main_arg3) :=
  (VV19_keep m c main_arg3 (by decide)).trans (VV18_arg3 m c)
theorem VV20_arg3 (c : Dev nD) : VV20 m c main_arg3 = m ((c : Thread nD τ).loc main_arg3) :=
  (VV20_keep m c main_arg3 (by decide)).trans (VV19_arg3 m c)
theorem VV21_arg3 (c : Dev nD) : VV21 m c main_arg3 = m ((c : Thread nD τ).loc main_arg3) :=
  (VV21_keep m c main_arg3 (by decide)).trans (VV20_arg3 m c)
theorem VV22_arg3 (c : Dev nD) : VV22 m c main_arg3 = m ((c : Thread nD τ).loc main_arg3) :=
  (VV22_keep m c main_arg3 (by decide)).trans (VV21_arg3 m c)
theorem VV23_arg3 (c : Dev nD) : VV23 m c main_arg3 = m ((c : Thread nD τ).loc main_arg3) :=
  (VV23_keep m c main_arg3 (by decide)).trans (VV22_arg3 m c)
theorem VV24_arg3 (c : Dev nD) : VV24 m c main_arg3 = m ((c : Thread nD τ).loc main_arg3) :=
  (VV24_keep m c main_arg3 (by decide)).trans (VV23_arg3 m c)
theorem VV25_arg3 (c : Dev nD) : VV25 m c main_arg3 = m ((c : Thread nD τ).loc main_arg3) :=
  (VV25_keep m c main_arg3 (by decide)).trans (VV24_arg3 m c)
theorem VV26_arg3 (c : Dev nD) : VV26 m c main_arg3 = m ((c : Thread nD τ).loc main_arg3) :=
  (VV26_keep m c main_arg3 (by decide)).trans (VV25_arg3 m c)
theorem VV27_arg3 (c : Dev nD) : VV27 m c main_arg3 = m ((c : Thread nD τ).loc main_arg3) :=
  (VV27_keep m c main_arg3 (by decide)).trans (VV26_arg3 m c)
theorem VV28_arg3 (c : Dev nD) : VV28 m c main_arg3 = m ((c : Thread nD τ).loc main_arg3) :=
  (VV28_keep m c main_arg3 (by decide)).trans (VV27_arg3 m c)
theorem VV29_arg3 (c : Dev nD) : VV29 m c main_arg3 = m ((c : Thread nD τ).loc main_arg3) :=
  (VV29_keep m c main_arg3 (by decide)).trans (VV28_arg3 m c)
theorem VV30_arg3 (c : Dev nD) : VV30 m c main_arg3 = m ((c : Thread nD τ).loc main_arg3) :=
  (VV30_keep m c main_arg3 (by decide)).trans (VV29_arg3 m c)
theorem VV31_arg3 (c : Dev nD) : VV31 m c main_arg3 = m ((c : Thread nD τ).loc main_arg3) :=
  (VV31_keep m c main_arg3 (by decide)).trans (VV30_arg3 m c)
theorem VV32_arg3 (c : Dev nD) : VV32 m c main_arg3 = m ((c : Thread nD τ).loc main_arg3) :=
  (VV32_keep m c main_arg3 (by decide)).trans (VV31_arg3 m c)
theorem VV33_arg3 (c : Dev nD) : VV33 m c main_arg3 = m ((c : Thread nD τ).loc main_arg3) :=
  (VV33_keep m c main_arg3 (by decide)).trans (VV32_arg3 m c)
theorem VV34_arg3 (c : Dev nD) : VV34 m c main_arg3 = m ((c : Thread nD τ).loc main_arg3) :=
  (VV34_keep m c main_arg3 (by decide)).trans (VV33_arg3 m c)
theorem VV35_arg3 (c : Dev nD) : VV35 m c main_arg3 = m ((c : Thread nD τ).loc main_arg3) :=
  (VV35_keep m c main_arg3 (by decide)).trans (VV34_arg3 m c)
theorem VV36_arg3 (c : Dev nD) : VV36 m c main_arg3 = m ((c : Thread nD τ).loc main_arg3) :=
  (VV36_keep m c main_arg3 (by decide)).trans (VV35_arg3 m c)
theorem VV37_arg3 (c : Dev nD) : VV37 m c main_arg3 = m ((c : Thread nD τ).loc main_arg3) :=
  (VV37_keep m c main_arg3 (by decide)).trans (VV36_arg3 m c)
theorem VV38_arg3 (c : Dev nD) : VV38 m c main_arg3 = m ((c : Thread nD τ).loc main_arg3) :=
  (VV38_keep m c main_arg3 (by decide)).trans (VV37_arg3 m c)
theorem VV39_arg3 (c : Dev nD) : VV39 m c main_arg3 = m ((c : Thread nD τ).loc main_arg3) :=
  (VV39_keep m c main_arg3 (by decide)).trans (VV38_arg3 m c)
theorem VV40_arg3 (c : Dev nD) : VV40 m c main_arg3 = m ((c : Thread nD τ).loc main_arg3) :=
  (VV40_keep m c main_arg3 (by decide)).trans (VV39_arg3 m c)
theorem VV41_arg3 (c : Dev nD) : VV41 m c main_arg3 = m ((c : Thread nD τ).loc main_arg3) :=
  (VV41_keep m c main_arg3 (by decide)).trans (VV40_arg3 m c)
theorem VV42_arg3 (c : Dev nD) : VV42 m c main_arg3 = m ((c : Thread nD τ).loc main_arg3) :=
  (VV42_keep m c main_arg3 (by decide)).trans (VV41_arg3 m c)
theorem VV43_arg3 (c : Dev nD) : VV43 m c main_arg3 = m ((c : Thread nD τ).loc main_arg3) :=
  (VV43_keep m c main_arg3 (by decide)).trans (VV42_arg3 m c)
theorem VV44_arg3 (c : Dev nD) : VV44 m c main_arg3 = m ((c : Thread nD τ).loc main_arg3) :=
  (VV44_keep m c main_arg3 (by decide)).trans (VV43_arg3 m c)
theorem VV45_arg3 (c : Dev nD) : VV45 m c main_arg3 = m ((c : Thread nD τ).loc main_arg3) :=
  (VV45_keep m c main_arg3 (by decide)).trans (VV44_arg3 m c)
theorem VV46_arg3 (c : Dev nD) : VV46 m c main_arg3 = m ((c : Thread nD τ).loc main_arg3) :=
  (VV46_keep m c main_arg3 (by decide)).trans (VV45_arg3 m c)
theorem VV47_arg3 (c : Dev nD) : VV47 m c main_arg3 = m ((c : Thread nD τ).loc main_arg3) :=
  (VV47_keep m c main_arg3 (by decide)).trans (VV46_arg3 m c)
theorem VV48_arg3 (c : Dev nD) : VV48 m c main_arg3 = m ((c : Thread nD τ).loc main_arg3) :=
  (VV48_keep m c main_arg3 (by decide)).trans (VV47_arg3 m c)
theorem VV49_arg3 (c : Dev nD) : VV49 m c main_arg3 = m ((c : Thread nD τ).loc main_arg3) :=
  (VV49_keep m c main_arg3 (by decide)).trans (VV48_arg3 m c)
theorem VV50_arg3 (c : Dev nD) : VV50 m c main_arg3 = m ((c : Thread nD τ).loc main_arg3) :=
  (VV50_keep m c main_arg3 (by decide)).trans (VV49_arg3 m c)
theorem VV51_arg3 (c : Dev nD) : VV51 m c main_arg3 = m ((c : Thread nD τ).loc main_arg3) :=
  (VV51_keep m c main_arg3 (by decide)).trans (VV50_arg3 m c)
theorem VV52_arg3 (c : Dev nD) : VV52 m c main_arg3 = m ((c : Thread nD τ).loc main_arg3) :=
  (VV52_keep m c main_arg3 (by decide)).trans (VV51_arg3 m c)
theorem VV53_arg3 (c : Dev nD) : VV53 m c main_arg3 = m ((c : Thread nD τ).loc main_arg3) :=
  (VV53_keep m c main_arg3 (by decide)).trans (VV52_arg3 m c)
theorem VV54_arg3 (c : Dev nD) : VV54 m c main_arg3 = m ((c : Thread nD τ).loc main_arg3) :=
  (VV54_keep m c main_arg3 (by decide)).trans (VV53_arg3 m c)
theorem VV55_arg3 (c : Dev nD) : VV55 m c main_arg3 = m ((c : Thread nD τ).loc main_arg3) :=
  (VV55_keep m c main_arg3 (by decide)).trans (VV54_arg3 m c)
theorem VV56_arg3 (c : Dev nD) : VV56 m c main_arg3 = m ((c : Thread nD τ).loc main_arg3) :=
  (VV56_keep m c main_arg3 (by decide)).trans (VV55_arg3 m c)
theorem VV57_arg3 (c : Dev nD) : VV57 m c main_arg3 = m ((c : Thread nD τ).loc main_arg3) :=
  (VV57_keep m c main_arg3 (by decide)).trans (VV56_arg3 m c)
theorem VV58_arg3 (c : Dev nD) : VV58 m c main_arg3 = m ((c : Thread nD τ).loc main_arg3) :=
  (VV58_keep m c main_arg3 (by decide)).trans (VV57_arg3 m c)
theorem VV59_arg3 (c : Dev nD) : VV59 m c main_arg3 = m ((c : Thread nD τ).loc main_arg3) :=
  (VV59_keep m c main_arg3 (by decide)).trans (VV58_arg3 m c)
theorem VV60_arg3 (c : Dev nD) : VV60 m c main_arg3 = m ((c : Thread nD τ).loc main_arg3) :=
  (VV60_keep m c main_arg3 (by decide)).trans (VV59_arg3 m c)
theorem VV61_arg3 (c : Dev nD) : VV61 m c main_arg3 = m ((c : Thread nD τ).loc main_arg3) :=
  (VV61_keep m c main_arg3 (by decide)).trans (VV60_arg3 m c)
theorem VV62_arg3 (c : Dev nD) : VV62 m c main_arg3 = m ((c : Thread nD τ).loc main_arg3) :=
  (VV62_keep m c main_arg3 (by decide)).trans (VV61_arg3 m c)
theorem VV63_arg3 (c : Dev nD) : VV63 m c main_arg3 = m ((c : Thread nD τ).loc main_arg3) :=
  (VV63_keep m c main_arg3 (by decide)).trans (VV62_arg3 m c)
theorem VV64_arg3 (c : Dev nD) : VV64 m c main_arg3 = m ((c : Thread nD τ).loc main_arg3) :=
  (VV64_keep m c main_arg3 (by decide)).trans (VV63_arg3 m c)
theorem VV65_arg3 (c : Dev nD) : VV65 m c main_arg3 = m ((c : Thread nD τ).loc main_arg3) :=
  (VV65_keep m c main_arg3 (by decide)).trans (VV64_arg3 m c)
theorem VV66_arg3 (c : Dev nD) : VV66 m c main_arg3 = m ((c : Thread nD τ).loc main_arg3) :=
  (VV66_keep m c main_arg3 (by decide)).trans (VV65_arg3 m c)
theorem VV67_arg3 (c : Dev nD) : VV67 m c main_arg3 = m ((c : Thread nD τ).loc main_arg3) :=
  (VV67_keep m c main_arg3 (by decide)).trans (VV66_arg3 m c)
theorem VV68_arg3 (c : Dev nD) : VV68 m c main_arg3 = m ((c : Thread nD τ).loc main_arg3) :=
  (VV68_keep m c main_arg3 (by decide)).trans (VV67_arg3 m c)
theorem VV69_arg3 (c : Dev nD) : VV69 m c main_arg3 = m ((c : Thread nD τ).loc main_arg3) :=
  (VV69_keep m c main_arg3 (by decide)).trans (VV68_arg3 m c)
theorem VV70_arg3 (c : Dev nD) : VV70 m c main_arg3 = m ((c : Thread nD τ).loc main_arg3) :=
  (VV70_keep m c main_arg3 (by decide)).trans (VV69_arg3 m c)
theorem VV71_arg3 (c : Dev nD) : VV71 m c main_arg3 = m ((c : Thread nD τ).loc main_arg3) :=
  (VV71_keep m c main_arg3 (by decide)).trans (VV70_arg3 m c)
theorem VV72_arg3 (c : Dev nD) : VV72 m c main_arg3 = m ((c : Thread nD τ).loc main_arg3) :=
  (VV72_keep m c main_arg3 (by decide)).trans (VV71_arg3 m c)
theorem VV73_arg3 (c : Dev nD) : VV73 m c main_arg3 = m ((c : Thread nD τ).loc main_arg3) :=
  (VV73_keep m c main_arg3 (by decide)).trans (VV72_arg3 m c)
theorem VV74_arg3 (c : Dev nD) : VV74 m c main_arg3 = m ((c : Thread nD τ).loc main_arg3) :=
  (VV74_keep m c main_arg3 (by decide)).trans (VV73_arg3 m c)
theorem VV75_arg3 (c : Dev nD) : VV75 m c main_arg3 = m ((c : Thread nD τ).loc main_arg3) :=
  (VV75_keep m c main_arg3 (by decide)).trans (VV74_arg3 m c)
theorem VV76_arg3 (c : Dev nD) : VV76 m c main_arg3 = m ((c : Thread nD τ).loc main_arg3) :=
  (VV76_keep m c main_arg3 (by decide)).trans (VV75_arg3 m c)
theorem VV77_arg3 (c : Dev nD) : VV77 m c main_arg3 = m ((c : Thread nD τ).loc main_arg3) :=
  (VV77_keep m c main_arg3 (by decide)).trans (VV76_arg3 m c)
theorem VV78_arg3 (c : Dev nD) : VV78 m c main_arg3 = m ((c : Thread nD τ).loc main_arg3) :=
  (VV78_keep m c main_arg3 (by decide)).trans (VV77_arg3 m c)
theorem VV79_arg3 (c : Dev nD) : VV79 m c main_arg3 = m ((c : Thread nD τ).loc main_arg3) :=
  (VV79_keep m c main_arg3 (by decide)).trans (VV78_arg3 m c)
theorem VV80_arg3 (c : Dev nD) : VV80 m c main_arg3 = m ((c : Thread nD τ).loc main_arg3) :=
  (VV80_keep m c main_arg3 (by decide)).trans (VV79_arg3 m c)
theorem VV81_arg3 (c : Dev nD) : VV81 m c main_arg3 = m ((c : Thread nD τ).loc main_arg3) :=
  (VV81_keep m c main_arg3 (by decide)).trans (VV80_arg3 m c)
theorem VV82_arg3 (c : Dev nD) : VV82 m c main_arg3 = m ((c : Thread nD τ).loc main_arg3) :=
  (VV82_keep m c main_arg3 (by decide)).trans (VV81_arg3 m c)
theorem VV83_arg3 (c : Dev nD) : VV83 m c main_arg3 = m ((c : Thread nD τ).loc main_arg3) :=
  (VV83_keep m c main_arg3 (by decide)).trans (VV82_arg3 m c)
theorem VV84_arg3 (c : Dev nD) : VV84 m c main_arg3 = m ((c : Thread nD τ).loc main_arg3) :=
  (VV84_keep m c main_arg3 (by decide)).trans (VV83_arg3 m c)
theorem VV85_arg3 (c : Dev nD) : VV85 m c main_arg3 = m ((c : Thread nD τ).loc main_arg3) :=
  (VV85_keep m c main_arg3 (by decide)).trans (VV84_arg3 m c)
theorem VV86_arg3 (c : Dev nD) : VV86 m c main_arg3 = m ((c : Thread nD τ).loc main_arg3) :=
  (VV86_keep m c main_arg3 (by decide)).trans (VV85_arg3 m c)
theorem VV87_arg3 (c : Dev nD) : VV87 m c main_arg3 = m ((c : Thread nD τ).loc main_arg3) :=
  (VV87_keep m c main_arg3 (by decide)).trans (VV86_arg3 m c)
theorem VV88_arg3 (c : Dev nD) : VV88 m c main_arg3 = m ((c : Thread nD τ).loc main_arg3) :=
  (VV88_keep m c main_arg3 (by decide)).trans (VV87_arg3 m c)
theorem VV89_arg3 (c : Dev nD) : VV89 m c main_arg3 = m ((c : Thread nD τ).loc main_arg3) :=
  (VV89_keep m c main_arg3 (by decide)).trans (VV88_arg3 m c)
theorem VV90_arg3 (c : Dev nD) : VV90 m c main_arg3 = m ((c : Thread nD τ).loc main_arg3) :=
  (VV90_keep m c main_arg3 (by decide)).trans (VV89_arg3 m c)
theorem VV91_arg3 (c : Dev nD) : VV91 m c main_arg3 = m ((c : Thread nD τ).loc main_arg3) :=
  (VV91_keep m c main_arg3 (by decide)).trans (VV90_arg3 m c)
theorem VV92_arg3 (c : Dev nD) : VV92 m c main_arg3 = m ((c : Thread nD τ).loc main_arg3) :=
  (VV92_keep m c main_arg3 (by decide)).trans (VV91_arg3 m c)
theorem VV93_arg3 (c : Dev nD) : VV93 m c main_arg3 = m ((c : Thread nD τ).loc main_arg3) :=
  (VV93_keep m c main_arg3 (by decide)).trans (VV92_arg3 m c)
theorem VV94_arg3 (c : Dev nD) : VV94 m c main_arg3 = m ((c : Thread nD τ).loc main_arg3) :=
  (VV94_keep m c main_arg3 (by decide)).trans (VV93_arg3 m c)
theorem VV95_arg3 (c : Dev nD) : VV95 m c main_arg3 = m ((c : Thread nD τ).loc main_arg3) :=
  (VV95_keep m c main_arg3 (by decide)).trans (VV94_arg3 m c)
theorem VV96_arg3 (c : Dev nD) : VV96 m c main_arg3 = m ((c : Thread nD τ).loc main_arg3) :=
  (VV96_keep m c main_arg3 (by decide)).trans (VV95_arg3 m c)
theorem VV97_arg3 (c : Dev nD) : VV97 m c main_arg3 = m ((c : Thread nD τ).loc main_arg3) :=
  (VV97_keep m c main_arg3 (by decide)).trans (VV96_arg3 m c)
theorem VV98_arg3 (c : Dev nD) : VV98 m c main_arg3 = m ((c : Thread nD τ).loc main_arg3) :=
  (VV98_keep m c main_arg3 (by decide)).trans (VV97_arg3 m c)
theorem VV99_arg3 (c : Dev nD) : VV99 m c main_arg3 = m ((c : Thread nD τ).loc main_arg3) :=
  (VV99_keep m c main_arg3 (by decide)).trans (VV98_arg3 m c)
theorem VV100_arg3 (c : Dev nD) : VV100 m c main_arg3 = m ((c : Thread nD τ).loc main_arg3) :=
  (VV100_keep m c main_arg3 (by decide)).trans (VV99_arg3 m c)

/-! ## The first layer's result

Relation by relation: the relation's edge values, padded and stood up as a column, are cut into the four chunks the
relation's gather regions scale their rows by; each region leaves the rows its table names, scaled; the stretch after
the fourth region scatter-adds the four results, laid end to end, at the relation's destinations. -/

/-- The program runs on one device. -/
theorem dev_zero (c : Dev nD) : c = 0 := Subsingleton.elim _ _

/-- The first layer's result, as a function of the launch memory's arguments on core `c`. -/
abbrev x1 (c : Dev nD) : (⟨S100000x128, .f32⟩ : BufTy).Contents (Elt F) :=
  kerLayer (m ((c : Thread nD τ).loc main_arg0)) (m ((c : Thread nD τ).loc main_arg1)) (m ((c : Thread nD τ).loc main_arg2)) (m ((c : Thread nD τ).loc main_arg3))

section Layer1
variable (c : Dev nD)

/-! ### Relation 0 -/

/-- The relation's value column, as the five stretches before its first region leave it. -/
theorem VV5_main_v6 : VV5 m c main_v6 = valCol (m ((c : Thread nD τ).loc main_arg3)) (0 : Fin 4) :=
  (pro0_valCol (VV0 m c)).trans (by rw [VV0_arg3])

/-- The first region's value window: chunk 0 of the column. -/
theorem VV5_main_v8 : VV5 m c main_v8 = valChunk (m ((c : Thread nD τ).loc main_arg3)) (0 : Fin 4) 0 :=
  (pro0_valChunk0 (VV0 m c)).trans (by rw [VV0_arg3])

/-- The second region's value window: chunk 1 of the column, which the first region and the stretch after it leave
    as it was. -/
theorem VV7_main_v11 : VV7 m c main_v11 = valChunk (m ((c : Thread nD τ).loc main_arg3)) (0 : Fin 4) 1 :=
  (hostOps1_valChunk (VV6 m c)).trans
    (congrArg (valChunkOf · 1) ((VV6_keep m c main_v6 (by decide)).trans (VV5_main_v6 m c)))

/-- The third region's value window: chunk 2. -/
theorem VV9_main_v14 : VV9 m c main_v14 = valChunk (m ((c : Thread nD τ).loc main_arg3)) (0 : Fin 4) 2 :=
  (hostOps2_valChunk (VV8 m c)).trans
    (congrArg (valChunkOf · 2) ((VV8_keep m c main_v6 (by decide)).trans <| (VV7_keep m c main_v6 (by decide)).trans <|
      (VV6_keep m c main_v6 (by decide)).trans (VV5_main_v6 m c)))

/-- The fourth region's value window: chunk 3. -/
theorem VV11_main_v17 : VV11 m c main_v17 = valChunk (m ((c : Thread nD τ).loc main_arg3)) (0 : Fin 4) 3 :=
  (hostOps3_valChunk (VV10 m c)).trans
    (congrArg (valChunkOf · 3) ((VV10_keep m c main_v6 (by decide)).trans <| (VV9_keep m c main_v6 (by decide)).trans <|
      (VV8_keep m c main_v6 (by decide)).trans <| (VV7_keep m c main_v6 (by decide)).trans <|
      (VV6_keep m c main_v6 (by decide)).trans (VV5_main_v6 m c)))

/-- What the relation's four gather regions leave: the rows of the embedding array their tables name, scaled by
    their chunks of the relation's values. The table is the pipeline's prefetched one, a function of the
    edge-source argument alone. -/
theorem VV6_main_v9 : VV6 m c main_v9 = kerGather (m ((c : Thread nD τ).loc main_arg0)) (m ((c : Thread nD τ).loc main_arg1)) (m ((c : Thread nD τ).loc main_arg3)) (0 : Fin 4) 0 := by
  obtain rfl := dev_zero c
  unfold VV6
  rw [Function.update_self, VV5_arg0, VV5_main_v8]
  rfl

theorem VV8_main_v12 : VV8 m c main_v12 = kerGather (m ((c : Thread nD τ).loc main_arg0)) (m ((c : Thread nD τ).loc main_arg1)) (m ((c : Thread nD τ).loc main_arg3)) (0 : Fin 4) 1 := by
  obtain rfl := dev_zero c
  unfold VV8
  rw [Function.update_self, VV7_arg0, VV7_main_v11]
  rfl

theorem VV10_main_v15 : VV10 m c main_v15 = kerGather (m ((c : Thread nD τ).loc main_arg0)) (m ((c : Thread nD τ).loc main_arg1)) (m ((c : Thread nD τ).loc main_arg3)) (0 : Fin 4) 2 := by
  obtain rfl := dev_zero c
  unfold VV10
  rw [Function.update_self, VV9_arg0, VV9_main_v14]
  rfl

theorem VV12_main_v18 : VV12 m c main_v18 = kerGather (m ((c : Thread nD τ).loc main_arg0)) (m ((c : Thread nD τ).loc main_arg1)) (m ((c : Thread nD τ).loc main_arg3)) (0 : Fin 4) 3 := by
  obtain rfl := dev_zero c
  unfold VV12
  rw [Function.update_self, VV11_arg0, VV11_main_v17]
  rfl

/-- The relation's aggregate: the stretch after the fourth region reads the four results where the regions left
    them, no item between writing them, and the destinations as launched. -/
theorem VV13_main_v25 : VV13 m c main_v25 = kerAgg (m ((c : Thread nD τ).loc main_arg0)) (m ((c : Thread nD τ).loc main_arg1)) (m ((c : Thread nD τ).loc main_arg2)) (m ((c : Thread nD τ).loc main_arg3)) (0 : Fin 4) := by
  have h9 : VV12 m c main_v9 = kerGather (m ((c : Thread nD τ).loc main_arg0)) (m ((c : Thread nD τ).loc main_arg1)) (m ((c : Thread nD τ).loc main_arg3)) (0 : Fin 4) 0 :=
    (VV12_keep m c main_v9 (by decide)).trans <| (VV11_keep m c main_v9 (by decide)).trans <|
    (VV10_keep m c main_v9 (by decide)).trans <| (VV9_keep m c main_v9 (by decide)).trans <|
    (VV8_keep m c main_v9 (by decide)).trans <| (VV7_keep m c main_v9 (by decide)).trans (VV6_main_v9 m c)
  have h12 : VV12 m c main_v12 = kerGather (m ((c : Thread nD τ).loc main_arg0)) (m ((c : Thread nD τ).loc main_arg1)) (m ((c : Thread nD τ).loc main_arg3)) (0 : Fin 4) 1 :=
    (VV12_keep m c main_v12 (by decide)).trans <| (VV11_keep m c main_v12 (by decide)).trans <|
    (VV10_keep m c main_v12 (by decide)).trans <| (VV9_keep m c main_v12 (by decide)).trans (VV8_main_v12 m c)
  have h15 : VV12 m c main_v15 = kerGather (m ((c : Thread nD τ).loc main_arg0)) (m ((c : Thread nD τ).loc main_arg1)) (m ((c : Thread nD τ).loc main_arg3)) (0 : Fin 4) 2 :=
    (VV12_keep m c main_v15 (by decide)).trans <| (VV11_keep m c main_v15 (by decide)).trans (VV10_main_v15 m c)
  rw [show VV13 m c main_v25 = _ from hostOps4_agg (VV12 m c), VV12_arg2, h9, h12, h15, VV12_main_v18]
  rfl

/-! ### Relation 1 -/

/-- The relation's value column, as the five stretches before its first region leave it. -/
theorem VV17_main_v32 : VV17 m c main_v32 = valCol (m ((c : Thread nD τ).loc main_arg3)) (1 : Fin 4) :=
  (pro4_valCol (VV12 m c)).trans (by rw [VV12_arg3])

/-- The first region's value window: chunk 0 of the column. -/
theorem VV17_main_v34 : VV17 m c main_v34 = valChunk (m ((c : Thread nD τ).loc main_arg3)) (1 : Fin 4) 0 :=
  (pro4_valChunk0 (VV12 m c)).trans (by rw [VV12_arg3])

/-- The second region's value window: chunk 1 of the column, which the first region and the stretch after it leave
    as it was. -/
theorem VV19_main_v37 : VV19 m c main_v37 = valChunk (m ((c : Thread nD τ).loc main_arg3)) (1 : Fin 4) 1 :=
  (hostOps5_valChunk (VV18 m c)).trans
    (congrArg (valChunkOf · 1) ((VV18_keep m c main_v32 (by decide)).trans (VV17_main_v32 m c)))

/-- The third region's value window: chunk 2. -/
theorem VV21_main_v40 : VV21 m c main_v40 = valChunk (m ((c : Thread nD τ).loc main_arg3)) (1 : Fin 4) 2 :=
  (hostOps6_valChunk (VV20 m c)).trans
    (congrArg (valChunkOf · 2) ((VV20_keep m c main_v32 (by decide)).trans <| (VV19_keep m c main_v32 (by decide)).trans <|
      (VV18_keep m c main_v32 (by decide)).trans (VV17_main_v32 m c)))

/-- The fourth region's value window: chunk 3. -/
theorem VV23_main_v43 : VV23 m c main_v43 = valChunk (m ((c : Thread nD τ).loc main_arg3)) (1 : Fin 4) 3 :=
  (hostOps7_valChunk (VV22 m c)).trans
    (congrArg (valChunkOf · 3) ((VV22_keep m c main_v32 (by decide)).trans <| (VV21_keep m c main_v32 (by decide)).trans <|
      (VV20_keep m c main_v32 (by decide)).trans <| (VV19_keep m c main_v32 (by decide)).trans <|
      (VV18_keep m c main_v32 (by decide)).trans (VV17_main_v32 m c)))

/-- What the relation's four gather regions leave: the rows of the embedding array their tables name, scaled by
    their chunks of the relation's values. The table is the pipeline's prefetched one, a function of the
    edge-source argument alone. -/
theorem VV18_main_v35 : VV18 m c main_v35 = kerGather (m ((c : Thread nD τ).loc main_arg0)) (m ((c : Thread nD τ).loc main_arg1)) (m ((c : Thread nD τ).loc main_arg3)) (1 : Fin 4) 0 := by
  obtain rfl := dev_zero c
  unfold VV18
  rw [Function.update_self, VV17_arg0, VV17_main_v34]
  rfl

theorem VV20_main_v38 : VV20 m c main_v38 = kerGather (m ((c : Thread nD τ).loc main_arg0)) (m ((c : Thread nD τ).loc main_arg1)) (m ((c : Thread nD τ).loc main_arg3)) (1 : Fin 4) 1 := by
  obtain rfl := dev_zero c
  unfold VV20
  rw [Function.update_self, VV19_arg0, VV19_main_v37]
  rfl

theorem VV22_main_v41 : VV22 m c main_v41 = kerGather (m ((c : Thread nD τ).loc main_arg0)) (m ((c : Thread nD τ).loc main_arg1)) (m ((c : Thread nD τ).loc main_arg3)) (1 : Fin 4) 2 := by
  obtain rfl := dev_zero c
  unfold VV22
  rw [Function.update_self, VV21_arg0, VV21_main_v40]
  rfl

theorem VV24_main_v44 : VV24 m c main_v44 = kerGather (m ((c : Thread nD τ).loc main_arg0)) (m ((c : Thread nD τ).loc main_arg1)) (m ((c : Thread nD τ).loc main_arg3)) (1 : Fin 4) 3 := by
  obtain rfl := dev_zero c
  unfold VV24
  rw [Function.update_self, VV23_arg0, VV23_main_v43]
  rfl

/-- The relation's aggregate: the stretch after the fourth region reads the four results where the regions left
    them, no item between writing them, and the destinations as launched. -/
theorem VV25_main_v51 : VV25 m c main_v51 = kerAgg (m ((c : Thread nD τ).loc main_arg0)) (m ((c : Thread nD τ).loc main_arg1)) (m ((c : Thread nD τ).loc main_arg2)) (m ((c : Thread nD τ).loc main_arg3)) (1 : Fin 4) := by
  have h9 : VV24 m c main_v35 = kerGather (m ((c : Thread nD τ).loc main_arg0)) (m ((c : Thread nD τ).loc main_arg1)) (m ((c : Thread nD τ).loc main_arg3)) (1 : Fin 4) 0 :=
    (VV24_keep m c main_v35 (by decide)).trans <| (VV23_keep m c main_v35 (by decide)).trans <|
    (VV22_keep m c main_v35 (by decide)).trans <| (VV21_keep m c main_v35 (by decide)).trans <|
    (VV20_keep m c main_v35 (by decide)).trans <| (VV19_keep m c main_v35 (by decide)).trans (VV18_main_v35 m c)
  have h12 : VV24 m c main_v38 = kerGather (m ((c : Thread nD τ).loc main_arg0)) (m ((c : Thread nD τ).loc main_arg1)) (m ((c : Thread nD τ).loc main_arg3)) (1 : Fin 4) 1 :=
    (VV24_keep m c main_v38 (by decide)).trans <| (VV23_keep m c main_v38 (by decide)).trans <|
    (VV22_keep m c main_v38 (by decide)).trans <| (VV21_keep m c main_v38 (by decide)).trans (VV20_main_v38 m c)
  have h15 : VV24 m c main_v41 = kerGather (m ((c : Thread nD τ).loc main_arg0)) (m ((c : Thread nD τ).loc main_arg1)) (m ((c : Thread nD τ).loc main_arg3)) (1 : Fin 4) 2 :=
    (VV24_keep m c main_v41 (by decide)).trans <| (VV23_keep m c main_v41 (by decide)).trans (VV22_main_v41 m c)
  rw [show VV25 m c main_v51 = _ from hostOps8_agg (VV24 m c), VV24_arg2, h9, h12, h15, VV24_main_v44]
  rfl

/-! ### Relation 2 -/

/-- The relation's value column, as the five stretches before its first region leave it. -/
theorem VV29_main_v58 : VV29 m c main_v58 = valCol (m ((c : Thread nD τ).loc main_arg3)) (2 : Fin 4) :=
  (pro8_valCol (VV24 m c)).trans (by rw [VV24_arg3])

/-- The first region's value window: chunk 0 of the column. -/
theorem VV29_main_v60 : VV29 m c main_v60 = valChunk (m ((c : Thread nD τ).loc main_arg3)) (2 : Fin 4) 0 :=
  (pro8_valChunk0 (VV24 m c)).trans (by rw [VV24_arg3])

/-- The second region's value window: chunk 1 of the column, which the first region and the stretch after it leave
    as it was. -/
theorem VV31_main_v63 : VV31 m c main_v63 = valChunk (m ((c : Thread nD τ).loc main_arg3)) (2 : Fin 4) 1 :=
  (hostOps9_valChunk (VV30 m c)).trans
    (congrArg (valChunkOf · 1) ((VV30_keep m c main_v58 (by decide)).trans (VV29_main_v58 m c)))

/-- The third region's value window: chunk 2. -/
theorem VV33_main_v66 : VV33 m c main_v66 = valChunk (m ((c : Thread nD τ).loc main_arg3)) (2 : Fin 4) 2 :=
  (hostOps10_valChunk (VV32 m c)).trans
    (congrArg (valChunkOf · 2) ((VV32_keep m c main_v58 (by decide)).trans <| (VV31_keep m c main_v58 (by decide)).trans <|
      (VV30_keep m c main_v58 (by decide)).trans (VV29_main_v58 m c)))

/-- The fourth region's value window: chunk 3. -/
theorem VV35_main_v69 : VV35 m c main_v69 = valChunk (m ((c : Thread nD τ).loc main_arg3)) (2 : Fin 4) 3 :=
  (hostOps11_valChunk (VV34 m c)).trans
    (congrArg (valChunkOf · 3) ((VV34_keep m c main_v58 (by decide)).trans <| (VV33_keep m c main_v58 (by decide)).trans <|
      (VV32_keep m c main_v58 (by decide)).trans <| (VV31_keep m c main_v58 (by decide)).trans <|
      (VV30_keep m c main_v58 (by decide)).trans (VV29_main_v58 m c)))

/-- What the relation's four gather regions leave: the rows of the embedding array their tables name, scaled by
    their chunks of the relation's values. The table is the pipeline's prefetched one, a function of the
    edge-source argument alone. -/
theorem VV30_main_v61 : VV30 m c main_v61 = kerGather (m ((c : Thread nD τ).loc main_arg0)) (m ((c : Thread nD τ).loc main_arg1)) (m ((c : Thread nD τ).loc main_arg3)) (2 : Fin 4) 0 := by
  obtain rfl := dev_zero c
  unfold VV30
  rw [Function.update_self, VV29_arg0, VV29_main_v60]
  rfl

theorem VV32_main_v64 : VV32 m c main_v64 = kerGather (m ((c : Thread nD τ).loc main_arg0)) (m ((c : Thread nD τ).loc main_arg1)) (m ((c : Thread nD τ).loc main_arg3)) (2 : Fin 4) 1 := by
  obtain rfl := dev_zero c
  unfold VV32
  rw [Function.update_self, VV31_arg0, VV31_main_v63]
  rfl

theorem VV34_main_v67 : VV34 m c main_v67 = kerGather (m ((c : Thread nD τ).loc main_arg0)) (m ((c : Thread nD τ).loc main_arg1)) (m ((c : Thread nD τ).loc main_arg3)) (2 : Fin 4) 2 := by
  obtain rfl := dev_zero c
  unfold VV34
  rw [Function.update_self, VV33_arg0, VV33_main_v66]
  rfl

theorem VV36_main_v70 : VV36 m c main_v70 = kerGather (m ((c : Thread nD τ).loc main_arg0)) (m ((c : Thread nD τ).loc main_arg1)) (m ((c : Thread nD τ).loc main_arg3)) (2 : Fin 4) 3 := by
  obtain rfl := dev_zero c
  unfold VV36
  rw [Function.update_self, VV35_arg0, VV35_main_v69]
  rfl

/-- The relation's aggregate: the stretch after the fourth region reads the four results where the regions left
    them, no item between writing them, and the destinations as launched. -/
theorem VV37_main_v77 : VV37 m c main_v77 = kerAgg (m ((c : Thread nD τ).loc main_arg0)) (m ((c : Thread nD τ).loc main_arg1)) (m ((c : Thread nD τ).loc main_arg2)) (m ((c : Thread nD τ).loc main_arg3)) (2 : Fin 4) := by
  have h9 : VV36 m c main_v61 = kerGather (m ((c : Thread nD τ).loc main_arg0)) (m ((c : Thread nD τ).loc main_arg1)) (m ((c : Thread nD τ).loc main_arg3)) (2 : Fin 4) 0 :=
    (VV36_keep m c main_v61 (by decide)).trans <| (VV35_keep m c main_v61 (by decide)).trans <|
    (VV34_keep m c main_v61 (by decide)).trans <| (VV33_keep m c main_v61 (by decide)).trans <|
    (VV32_keep m c main_v61 (by decide)).trans <| (VV31_keep m c main_v61 (by decide)).trans (VV30_main_v61 m c)
  have h12 : VV36 m c main_v64 = kerGather (m ((c : Thread nD τ).loc main_arg0)) (m ((c : Thread nD τ).loc main_arg1)) (m ((c : Thread nD τ).loc main_arg3)) (2 : Fin 4) 1 :=
    (VV36_keep m c main_v64 (by decide)).trans <| (VV35_keep m c main_v64 (by decide)).trans <|
    (VV34_keep m c main_v64 (by decide)).trans <| (VV33_keep m c main_v64 (by decide)).trans (VV32_main_v64 m c)
  have h15 : VV36 m c main_v67 = kerGather (m ((c : Thread nD τ).loc main_arg0)) (m ((c : Thread nD τ).loc main_arg1)) (m ((c : Thread nD τ).loc main_arg3)) (2 : Fin 4) 2 :=
    (VV36_keep m c main_v67 (by decide)).trans <| (VV35_keep m c main_v67 (by decide)).trans (VV34_main_v67 m c)
  rw [show VV37 m c main_v77 = _ from hostOps12_agg (VV36 m c), VV36_arg2, h9, h12, h15, VV36_main_v70]
  rfl

/-! ### Relation 3 -/

/-- The relation's value column, as the five stretches before its first region leave it. -/
theorem VV41_main_v84 : VV41 m c main_v84 = valCol (m ((c : Thread nD τ).loc main_arg3)) (3 : Fin 4) :=
  (pro12_valCol (VV36 m c)).trans (by rw [VV36_arg3])

/-- The first region's value window: chunk 0 of the column. -/
theorem VV41_main_v86 : VV41 m c main_v86 = valChunk (m ((c : Thread nD τ).loc main_arg3)) (3 : Fin 4) 0 :=
  (pro12_valChunk0 (VV36 m c)).trans (by rw [VV36_arg3])

/-- The second region's value window: chunk 1 of the column, which the first region and the stretch after it leave
    as it was. -/
theorem VV43_main_v89 : VV43 m c main_v89 = valChunk (m ((c : Thread nD τ).loc main_arg3)) (3 : Fin 4) 1 :=
  (hostOps13_valChunk (VV42 m c)).trans
    (congrArg (valChunkOf · 1) ((VV42_keep m c main_v84 (by decide)).trans (VV41_main_v84 m c)))

/-- The third region's value window: chunk 2. -/
theorem VV45_main_v92 : VV45 m c main_v92 = valChunk (m ((c : Thread nD τ).loc main_arg3)) (3 : Fin 4) 2 :=
  (hostOps14_valChunk (VV44 m c)).trans
    (congrArg (valChunkOf · 2) ((VV44_keep m c main_v84 (by decide)).trans <| (VV43_keep m c main_v84 (by decide)).trans <|
      (VV42_keep m c main_v84 (by decide)).trans (VV41_main_v84 m c)))

/-- The fourth region's value window: chunk 3. -/
theorem VV47_main_v95 : VV47 m c main_v95 = valChunk (m ((c : Thread nD τ).loc main_arg3)) (3 : Fin 4) 3 :=
  (hostOps15_valChunk (VV46 m c)).trans
    (congrArg (valChunkOf · 3) ((VV46_keep m c main_v84 (by decide)).trans <| (VV45_keep m c main_v84 (by decide)).trans <|
      (VV44_keep m c main_v84 (by decide)).trans <| (VV43_keep m c main_v84 (by decide)).trans <|
      (VV42_keep m c main_v84 (by decide)).trans (VV41_main_v84 m c)))

/-- What the relation's four gather regions leave: the rows of the embedding array their tables name, scaled by
    their chunks of the relation's values. The table is the pipeline's prefetched one, a function of the
    edge-source argument alone. -/
theorem VV42_main_v87 : VV42 m c main_v87 = kerGather (m ((c : Thread nD τ).loc main_arg0)) (m ((c : Thread nD τ).loc main_arg1)) (m ((c : Thread nD τ).loc main_arg3)) (3 : Fin 4) 0 := by
  obtain rfl := dev_zero c
  unfold VV42
  rw [Function.update_self, VV41_arg0, VV41_main_v86]
  rfl

theorem VV44_main_v90 : VV44 m c main_v90 = kerGather (m ((c : Thread nD τ).loc main_arg0)) (m ((c : Thread nD τ).loc main_arg1)) (m ((c : Thread nD τ).loc main_arg3)) (3 : Fin 4) 1 := by
  obtain rfl := dev_zero c
  unfold VV44
  rw [Function.update_self, VV43_arg0, VV43_main_v89]
  rfl

theorem VV46_main_v93 : VV46 m c main_v93 = kerGather (m ((c : Thread nD τ).loc main_arg0)) (m ((c : Thread nD τ).loc main_arg1)) (m ((c : Thread nD τ).loc main_arg3)) (3 : Fin 4) 2 := by
  obtain rfl := dev_zero c
  unfold VV46
  rw [Function.update_self, VV45_arg0, VV45_main_v92]
  rfl

theorem VV48_main_v96 : VV48 m c main_v96 = kerGather (m ((c : Thread nD τ).loc main_arg0)) (m ((c : Thread nD τ).loc main_arg1)) (m ((c : Thread nD τ).loc main_arg3)) (3 : Fin 4) 3 := by
  obtain rfl := dev_zero c
  unfold VV48
  rw [Function.update_self, VV47_arg0, VV47_main_v95]
  rfl

/-! ### What the layer's last stretch reads: the first three aggregates and the last relation's four gather results, each
    where its item left it, no item since writing it -/

theorem VV48_main_v25 : VV48 m c main_v25 = kerAgg (m ((c : Thread nD τ).loc main_arg0)) (m ((c : Thread nD τ).loc main_arg1)) (m ((c : Thread nD τ).loc main_arg2)) (m ((c : Thread nD τ).loc main_arg3)) (0 : Fin 4) :=
  (VV48_keep m c main_v25 (by decide)).trans <|
    (VV47_keep m c main_v25 (by decide)).trans <|
    (VV46_keep m c main_v25 (by decide)).trans <|
    (VV45_keep m c main_v25 (by decide)).trans <|
    (VV44_keep m c main_v25 (by decide)).trans <|
    (VV43_keep m c main_v25 (by decide)).trans <|
    (VV42_keep m c main_v25 (by decide)).trans <|
    (VV41_keep m c main_v25 (by decide)).trans <|
    (VV40_keep m c main_v25 (by decide)).trans <|
    (VV39_keep m c main_v25 (by decide)).trans <|
    (VV38_keep m c main_v25 (by decide)).trans <|
    (VV37_keep m c main_v25 (by decide)).trans <|
    (VV36_keep m c main_v25 (by decide)).trans <|
    (VV35_keep m c main_v25 (by decide)).trans <|
    (VV34_keep m c main_v25 (by decide)).trans <|
    (VV33_keep m c main_v25 (by decide)).trans <|
    (VV32_keep m c main_v25 (by decide)).trans <|
    (VV31_keep m c main_v25 (by decide)).trans <|
    (VV30_keep m c main_v25 (by decide)).trans <|
    (VV29_keep m c main_v25 (by decide)).trans <|
    (VV28_keep m c main_v25 (by decide)).trans <|
    (VV27_keep m c main_v25 (by decide)).trans <|
    (VV26_keep m c main_v25 (by decide)).trans <|
    (VV25_keep m c main_v25 (by decide)).trans <|
    (VV24_keep m c main_v25 (by decide)).trans <|
    (VV23_keep m c main_v25 (by decide)).trans <|
    (VV22_keep m c main_v25 (by decide)).trans <|
    (VV21_keep m c main_v25 (by decide)).trans <|
    (VV20_keep m c main_v25 (by decide)).trans <|
    (VV19_keep m c main_v25 (by decide)).trans <|
    (VV18_keep m c main_v25 (by decide)).trans <|
    (VV17_keep m c main_v25 (by decide)).trans <|
    (VV16_keep m c main_v25 (by decide)).trans <|
    (VV15_keep m c main_v25 (by decide)).trans <|
    (VV14_keep m c main_v25 (by decide)).trans <|
    (VV13_main_v25 m c)
theorem VV48_main_v51 : VV48 m c main_v51 = kerAgg (m ((c : Thread nD τ).loc main_arg0)) (m ((c : Thread nD τ).loc main_arg1)) (m ((c : Thread nD τ).loc main_arg2)) (m ((c : Thread nD τ).loc main_arg3)) (1 : Fin 4) :=
  (VV48_keep m c main_v51 (by decide)).trans <|
    (VV47_keep m c main_v51 (by decide)).trans <|
    (VV46_keep m c main_v51 (by decide)).trans <|
    (VV45_keep m c main_v51 (by decide)).trans <|
    (VV44_keep m c main_v51 (by decide)).trans <|
    (VV43_keep m c main_v51 (by decide)).trans <|
    (VV42_keep m c main_v51 (by decide)).trans <|
    (VV41_keep m c main_v51 (by decide)).trans <|
    (VV40_keep m c main_v51 (by decide)).trans <|
    (VV39_keep m c main_v51 (by decide)).trans <|
    (VV38_keep m c main_v51 (by decide)).trans <|
    (VV37_keep m c main_v51 (by decide)).trans <|
    (VV36_keep m c main_v51 (by decide)).trans <|
    (VV35_keep m c main_v51 (by decide)).trans <|
    (VV34_keep m c main_v51 (by decide)).trans <|
    (VV33_keep m c main_v51 (by decide)).trans <|
    (VV32_keep m c main_v51 (by decide)).trans <|
    (VV31_keep m c main_v51 (by decide)).trans <|
    (VV30_keep m c main_v51 (by decide)).trans <|
    (VV29_keep m c main_v51 (by decide)).trans <|
    (VV28_keep m c main_v51 (by decide)).trans <|
    (VV27_keep m c main_v51 (by decide)).trans <|
    (VV26_keep m c main_v51 (by decide)).trans <|
    (VV25_main_v51 m c)
theorem VV48_main_v77 : VV48 m c main_v77 = kerAgg (m ((c : Thread nD τ).loc main_arg0)) (m ((c : Thread nD τ).loc main_arg1)) (m ((c : Thread nD τ).loc main_arg2)) (m ((c : Thread nD τ).loc main_arg3)) (2 : Fin 4) :=
  (VV48_keep m c main_v77 (by decide)).trans <|
    (VV47_keep m c main_v77 (by decide)).trans <|
    (VV46_keep m c main_v77 (by decide)).trans <|
    (VV45_keep m c main_v77 (by decide)).trans <|
    (VV44_keep m c main_v77 (by decide)).trans <|
    (VV43_keep m c main_v77 (by decide)).trans <|
    (VV42_keep m c main_v77 (by decide)).trans <|
    (VV41_keep m c main_v77 (by decide)).trans <|
    (VV40_keep m c main_v77 (by decide)).trans <|
    (VV39_keep m c main_v77 (by decide)).trans <|
    (VV38_keep m c main_v77 (by decide)).trans <|
    (VV37_main_v77 m c)
theorem VV48_main_v87 : VV48 m c main_v87 = kerGather (m ((c : Thread nD τ).loc main_arg0)) (m ((c : Thread nD τ).loc main_arg1)) (m ((c : Thread nD τ).loc main_arg3)) (3 : Fin 4) 0 :=
  (VV48_keep m c main_v87 (by decide)).trans <|
    (VV47_keep m c main_v87 (by decide)).trans <|
    (VV46_keep m c main_v87 (by decide)).trans <|
    (VV45_keep m c main_v87 (by decide)).trans <|
    (VV44_keep m c main_v87 (by decide)).trans <|
    (VV43_keep m c main_v87 (by decide)).trans <|
    (VV42_main_v87 m c)
theorem VV48_main_v90 : VV48 m c main_v90 = kerGather (m ((c : Thread nD τ).loc main_arg0)) (m ((c : Thread nD τ).loc main_arg1)) (m ((c : Thread nD τ).loc main_arg3)) (3 : Fin 4) 1 :=
  (VV48_keep m c main_v90 (by decide)).trans <|
    (VV47_keep m c main_v90 (by decide)).trans <|
    (VV46_keep m c main_v90 (by decide)).trans <|
    (VV45_keep m c main_v90 (by decide)).trans <|
    (VV44_main_v90 m c)
theorem VV48_main_v93 : VV48 m c main_v93 = kerGather (m ((c : Thread nD τ).loc main_arg0)) (m ((c : Thread nD τ).loc main_arg1)) (m ((c : Thread nD τ).loc main_arg3)) (3 : Fin 4) 2 :=
  (VV48_keep m c main_v93 (by decide)).trans <|
    (VV47_keep m c main_v93 (by decide)).trans <|
    (VV46_main_v93 m c)

/-- The first layer: the activation region reads the four aggregates stacked, the first three as their stretches left
    them, the fourth formed by the layer's last stretch from the last relation's four gather results. -/
theorem VV50_x1 : VV50 m c main_v109 = x1 m c := by
  unfold VV50
  rw [Function.update_self, show VV49 m c main_v108 = _ from hostOps16_stack (VV48 m c),
    VV48_main_v25, VV48_main_v51, VV48_main_v77, VV48_arg2, VV48_main_v87, VV48_main_v90, VV48_main_v93, VV48_main_v96]
  rfl

end Layer1

/-! ## The second layer's result

The same items over again, fifty later, the embedding array read being the first layer's result: no item after the
first activation region writes it. -/

theorem VV51_x1 (c : Dev nD) : VV51 m c main_v109 = x1 m c :=
  (VV51_keep m c main_v109 (by decide)).trans (VV50_x1 m c)
theorem VV52_x1 (c : Dev nD) : VV52 m c main_v109 = x1 m c :=
  (VV52_keep m c main_v109 (by decide)).trans (VV51_x1 m c)
theorem VV53_x1 (c : Dev nD) : VV53 m c main_v109 = x1 m c :=
  (VV53_keep m c main_v109 (by decide)).trans (VV52_x1 m c)
theorem VV54_x1 (c : Dev nD) : VV54 m c main_v109 = x1 m c :=
  (VV54_keep m c main_v109 (by decide)).trans (VV53_x1 m c)
theorem VV55_x1 (c : Dev nD) : VV55 m c main_v109 = x1 m c :=
  (VV55_keep m c main_v109 (by decide)).trans (VV54_x1 m c)
theorem VV56_x1 (c : Dev nD) : VV56 m c main_v109 = x1 m c :=
  (VV56_keep m c main_v109 (by decide)).trans (VV55_x1 m c)
theorem VV57_x1 (c : Dev nD) : VV57 m c main_v109 = x1 m c :=
  (VV57_keep m c main_v109 (by decide)).trans (VV56_x1 m c)
theorem VV58_x1 (c : Dev nD) : VV58 m c main_v109 = x1 m c :=
  (VV58_keep m c main_v109 (by decide)).trans (VV57_x1 m c)
theorem VV59_x1 (c : Dev nD) : VV59 m c main_v109 = x1 m c :=
  (VV59_keep m c main_v109 (by decide)).trans (VV58_x1 m c)
theorem VV60_x1 (c : Dev nD) : VV60 m c main_v109 = x1 m c :=
  (VV60_keep m c main_v109 (by decide)).trans (VV59_x1 m c)
theorem VV61_x1 (c : Dev nD) : VV61 m c main_v109 = x1 m c :=
  (VV61_keep m c main_v109 (by decide)).trans (VV60_x1 m c)
theorem VV62_x1 (c : Dev nD) : VV62 m c main_v109 = x1 m c :=
  (VV62_keep m c main_v109 (by decide)).trans (VV61_x1 m c)
theorem VV63_x1 (c : Dev nD) : VV63 m c main_v109 = x1 m c :=
  (VV63_keep m c main_v109 (by decide)).trans (VV62_x1 m c)
theorem VV64_x1 (c : Dev nD) : VV64 m c main_v109 = x1 m c :=
  (VV64_keep m c main_v109 (by decide)).trans (VV63_x1 m c)
theorem VV65_x1 (c : Dev nD) : VV65 m c main_v109 = x1 m c :=
  (VV65_keep m c main_v109 (by decide)).trans (VV64_x1 m c)
theorem VV66_x1 (c : Dev nD) : VV66 m c main_v109 = x1 m c :=
  (VV66_keep m c main_v109 (by decide)).trans (VV65_x1 m c)
theorem VV67_x1 (c : Dev nD) : VV67 m c main_v109 = x1 m c :=
  (VV67_keep m c main_v109 (by decide)).trans (VV66_x1 m c)
theorem VV68_x1 (c : Dev nD) : VV68 m c main_v109 = x1 m c :=
  (VV68_keep m c main_v109 (by decide)).trans (VV67_x1 m c)
theorem VV69_x1 (c : Dev nD) : VV69 m c main_v109 = x1 m c :=
  (VV69_keep m c main_v109 (by decide)).trans (VV68_x1 m c)
theorem VV70_x1 (c : Dev nD) : VV70 m c main_v109 = x1 m c :=
  (VV70_keep m c main_v109 (by decide)).trans (VV69_x1 m c)
theorem VV71_x1 (c : Dev nD) : VV71 m c main_v109 = x1 m c :=
  (VV71_keep m c main_v109 (by decide)).trans (VV70_x1 m c)
theorem VV72_x1 (c : Dev nD) : VV72 m c main_v109 = x1 m c :=
  (VV72_keep m c main_v109 (by decide)).trans (VV71_x1 m c)
theorem VV73_x1 (c : Dev nD) : VV73 m c main_v109 = x1 m c :=
  (VV73_keep m c main_v109 (by decide)).trans (VV72_x1 m c)
theorem VV74_x1 (c : Dev nD) : VV74 m c main_v109 = x1 m c :=
  (VV74_keep m c main_v109 (by decide)).trans (VV73_x1 m c)
theorem VV75_x1 (c : Dev nD) : VV75 m c main_v109 = x1 m c :=
  (VV75_keep m c main_v109 (by decide)).trans (VV74_x1 m c)
theorem VV76_x1 (c : Dev nD) : VV76 m c main_v109 = x1 m c :=
  (VV76_keep m c main_v109 (by decide)).trans (VV75_x1 m c)
theorem VV77_x1 (c : Dev nD) : VV77 m c main_v109 = x1 m c :=
  (VV77_keep m c main_v109 (by decide)).trans (VV76_x1 m c)
theorem VV78_x1 (c : Dev nD) : VV78 m c main_v109 = x1 m c :=
  (VV78_keep m c main_v109 (by decide)).trans (VV77_x1 m c)
theorem VV79_x1 (c : Dev nD) : VV79 m c main_v109 = x1 m c :=
  (VV79_keep m c main_v109 (by decide)).trans (VV78_x1 m c)
theorem VV80_x1 (c : Dev nD) : VV80 m c main_v109 = x1 m c :=
  (VV80_keep m c main_v109 (by decide)).trans (VV79_x1 m c)
theorem VV81_x1 (c : Dev nD) : VV81 m c main_v109 = x1 m c :=
  (VV81_keep m c main_v109 (by decide)).trans (VV80_x1 m c)
theorem VV82_x1 (c : Dev nD) : VV82 m c main_v109 = x1 m c :=
  (VV82_keep m c main_v109 (by decide)).trans (VV81_x1 m c)
theorem VV83_x1 (c : Dev nD) : VV83 m c main_v109 = x1 m c :=
  (VV83_keep m c main_v109 (by decide)).trans (VV82_x1 m c)
theorem VV84_x1 (c : Dev nD) : VV84 m c main_v109 = x1 m c :=
  (VV84_keep m c main_v109 (by decide)).trans (VV83_x1 m c)
theorem VV85_x1 (c : Dev nD) : VV85 m c main_v109 = x1 m c :=
  (VV85_keep m c main_v109 (by decide)).trans (VV84_x1 m c)
theorem VV86_x1 (c : Dev nD) : VV86 m c main_v109 = x1 m c :=
  (VV86_keep m c main_v109 (by decide)).trans (VV85_x1 m c)
theorem VV87_x1 (c : Dev nD) : VV87 m c main_v109 = x1 m c :=
  (VV87_keep m c main_v109 (by decide)).trans (VV86_x1 m c)
theorem VV88_x1 (c : Dev nD) : VV88 m c main_v109 = x1 m c :=
  (VV88_keep m c main_v109 (by decide)).trans (VV87_x1 m c)
theorem VV89_x1 (c : Dev nD) : VV89 m c main_v109 = x1 m c :=
  (VV89_keep m c main_v109 (by decide)).trans (VV88_x1 m c)
theorem VV90_x1 (c : Dev nD) : VV90 m c main_v109 = x1 m c :=
  (VV90_keep m c main_v109 (by decide)).trans (VV89_x1 m c)
theorem VV91_x1 (c : Dev nD) : VV91 m c main_v109 = x1 m c :=
  (VV91_keep m c main_v109 (by decide)).trans (VV90_x1 m c)
theorem VV92_x1 (c : Dev nD) : VV92 m c main_v109 = x1 m c :=
  (VV92_keep m c main_v109 (by decide)).trans (VV91_x1 m c)
theorem VV93_x1 (c : Dev nD) : VV93 m c main_v109 = x1 m c :=
  (VV93_keep m c main_v109 (by decide)).trans (VV92_x1 m c)
theorem VV94_x1 (c : Dev nD) : VV94 m c main_v109 = x1 m c :=
  (VV94_keep m c main_v109 (by decide)).trans (VV93_x1 m c)
theorem VV95_x1 (c : Dev nD) : VV95 m c main_v109 = x1 m c :=
  (VV95_keep m c main_v109 (by decide)).trans (VV94_x1 m c)
theorem VV96_x1 (c : Dev nD) : VV96 m c main_v109 = x1 m c :=
  (VV96_keep m c main_v109 (by decide)).trans (VV95_x1 m c)
theorem VV97_x1 (c : Dev nD) : VV97 m c main_v109 = x1 m c :=
  (VV97_keep m c main_v109 (by decide)).trans (VV96_x1 m c)
theorem VV98_x1 (c : Dev nD) : VV98 m c main_v109 = x1 m c :=
  (VV98_keep m c main_v109 (by decide)).trans (VV97_x1 m c)
theorem VV99_x1 (c : Dev nD) : VV99 m c main_v109 = x1 m c :=
  (VV99_keep m c main_v109 (by decide)).trans (VV98_x1 m c)

section Layer2
variable (c : Dev nD)

/-! ### Relation 0 -/

/-- The relation's value column, as the five stretches before its first region leave it. -/
theorem VV55_main_v116 : VV55 m c main_v116 = valCol (m ((c : Thread nD τ).loc main_arg3)) (0 : Fin 4) :=
  (pro17_valCol (VV50 m c)).trans (by rw [VV50_arg3])

/-- The first region's value window: chunk 0 of the column. -/
theorem VV55_main_v118 : VV55 m c main_v118 = valChunk (m ((c : Thread nD τ).loc main_arg3)) (0 : Fin 4) 0 :=
  (pro17_valChunk0 (VV50 m c)).trans (by rw [VV50_arg3])

/-- The second region's value window: chunk 1 of the column, which the first region and the stretch after it leave
    as it was. -/
theorem VV57_main_v121 : VV57 m c main_v121 = valChunk (m ((c : Thread nD τ).loc main_arg3)) (0 : Fin 4) 1 :=
  (hostOps18_valChunk (VV56 m c)).trans
    (congrArg (valChunkOf · 1) ((VV56_keep m c main_v116 (by decide)).trans (VV55_main_v116 m c)))

/-- The third region's value window: chunk 2. -/
theorem VV59_main_v124 : VV59 m c main_v124 = valChunk (m ((c : Thread nD τ).loc main_arg3)) (0 : Fin 4) 2 :=
  (hostOps19_valChunk (VV58 m c)).trans
    (congrArg (valChunkOf · 2) ((VV58_keep m c main_v116 (by decide)).trans <| (VV57_keep m c main_v116 (by decide)).trans <|
      (VV56_keep m c main_v116 (by decide)).trans (VV55_main_v116 m c)))

/-- The fourth region's value window: chunk 3. -/
theorem VV61_main_v127 : VV61 m c main_v127 = valChunk (m ((c : Thread nD τ).loc main_arg3)) (0 : Fin 4) 3 :=
  (hostOps20_valChunk (VV60 m c)).trans
    (congrArg (valChunkOf · 3) ((VV60_keep m c main_v116 (by decide)).trans <| (VV59_keep m c main_v116 (by decide)).trans <|
      (VV58_keep m c main_v116 (by decide)).trans <| (VV57_keep m c main_v116 (by decide)).trans <|
      (VV56_keep m c main_v116 (by decide)).trans (VV55_main_v116 m c)))

/-- What the relation's four gather regions leave: the rows of the embedding array their tables name, scaled by
    their chunks of the relation's values. The table is the pipeline's prefetched one, a function of the
    edge-source argument alone. -/
theorem VV56_main_v119 : VV56 m c main_v119 = kerGather (x1 m c) (m ((c : Thread nD τ).loc main_arg1)) (m ((c : Thread nD τ).loc main_arg3)) (0 : Fin 4) 0 := by
  obtain rfl := dev_zero c
  unfold VV56
  rw [Function.update_self, VV55_x1, VV55_main_v118]
  rfl

theorem VV58_main_v122 : VV58 m c main_v122 = kerGather (x1 m c) (m ((c : Thread nD τ).loc main_arg1)) (m ((c : Thread nD τ).loc main_arg3)) (0 : Fin 4) 1 := by
  obtain rfl := dev_zero c
  unfold VV58
  rw [Function.update_self, VV57_x1, VV57_main_v121]
  rfl

theorem VV60_main_v125 : VV60 m c main_v125 = kerGather (x1 m c) (m ((c : Thread nD τ).loc main_arg1)) (m ((c : Thread nD τ).loc main_arg3)) (0 : Fin 4) 2 := by
  obtain rfl := dev_zero c
  unfold VV60
  rw [Function.update_self, VV59_x1, VV59_main_v124]
  rfl

theorem VV62_main_v128 : VV62 m c main_v128 = kerGather (x1 m c) (m ((c : Thread nD τ).loc main_arg1)) (m ((c : Thread nD τ).loc main_arg3)) (0 : Fin 4) 3 := by
  obtain rfl := dev_zero c
  unfold VV62
  rw [Function.update_self, VV61_x1, VV61_main_v127]
  rfl

/-- The relation's aggregate: the stretch after the fourth region reads the four results where the regions left
    them, no item between writing them, and the destinations as launched. -/
theorem VV63_main_v135 : VV63 m c main_v135 = kerAgg (x1 m c) (m ((c : Thread nD τ).loc main_arg1)) (m ((c : Thread nD τ).loc main_arg2)) (m ((c : Thread nD τ).loc main_arg3)) (0 : Fin 4) := by
  have h9 : VV62 m c main_v119 = kerGather (x1 m c) (m ((c : Thread nD τ).loc main_arg1)) (m ((c : Thread nD τ).loc main_arg3)) (0 : Fin 4) 0 :=
    (VV62_keep m c main_v119 (by decide)).trans <| (VV61_keep m c main_v119 (by decide)).trans <|
    (VV60_keep m c main_v119 (by decide)).trans <| (VV59_keep m c main_v119 (by decide)).trans <|
    (VV58_keep m c main_v119 (by decide)).trans <| (VV57_keep m c main_v119 (by decide)).trans (VV56_main_v119 m c)
  have h12 : VV62 m c main_v122 = kerGather (x1 m c) (m ((c : Thread nD τ).loc main_arg1)) (m ((c : Thread nD τ).loc main_arg3)) (0 : Fin 4) 1 :=
    (VV62_keep m c main_v122 (by decide)).trans <| (VV61_keep m c main_v122 (by decide)).trans <|
    (VV60_keep m c main_v122 (by decide)).trans <| (VV59_keep m c main_v122 (by decide)).trans (VV58_main_v122 m c)
  have h15 : VV62 m c main_v125 = kerGather (x1 m c) (m ((c : Thread nD τ).loc main_arg1)) (m ((c : Thread nD τ).loc main_arg3)) (0 : Fin 4) 2 :=
    (VV62_keep m c main_v125 (by decide)).trans <| (VV61_keep m c main_v125 (by decide)).trans (VV60_main_v125 m c)
  rw [show VV63 m c main_v135 = _ from hostOps21_agg (VV62 m c), VV62_arg2, h9, h12, h15, VV62_main_v128]
  rfl

/-! ### Relation 1 -/

/-- The relation's value column, as the five stretches before its first region leave it. -/
theorem VV67_main_v142 : VV67 m c main_v142 = valCol (m ((c : Thread nD τ).loc main_arg3)) (1 : Fin 4) :=
  (pro21_valCol (VV62 m c)).trans (by rw [VV62_arg3])

/-- The first region's value window: chunk 0 of the column. -/
theorem VV67_main_v144 : VV67 m c main_v144 = valChunk (m ((c : Thread nD τ).loc main_arg3)) (1 : Fin 4) 0 :=
  (pro21_valChunk0 (VV62 m c)).trans (by rw [VV62_arg3])

/-- The second region's value window: chunk 1 of the column, which the first region and the stretch after it leave
    as it was. -/
theorem VV69_main_v147 : VV69 m c main_v147 = valChunk (m ((c : Thread nD τ).loc main_arg3)) (1 : Fin 4) 1 :=
  (hostOps22_valChunk (VV68 m c)).trans
    (congrArg (valChunkOf · 1) ((VV68_keep m c main_v142 (by decide)).trans (VV67_main_v142 m c)))

/-- The third region's value window: chunk 2. -/
theorem VV71_main_v150 : VV71 m c main_v150 = valChunk (m ((c : Thread nD τ).loc main_arg3)) (1 : Fin 4) 2 :=
  (hostOps23_valChunk (VV70 m c)).trans
    (congrArg (valChunkOf · 2) ((VV70_keep m c main_v142 (by decide)).trans <| (VV69_keep m c main_v142 (by decide)).trans <|
      (VV68_keep m c main_v142 (by decide)).trans (VV67_main_v142 m c)))

/-- The fourth region's value window: chunk 3. -/
theorem VV73_main_v153 : VV73 m c main_v153 = valChunk (m ((c : Thread nD τ).loc main_arg3)) (1 : Fin 4) 3 :=
  (hostOps24_valChunk (VV72 m c)).trans
    (congrArg (valChunkOf · 3) ((VV72_keep m c main_v142 (by decide)).trans <| (VV71_keep m c main_v142 (by decide)).trans <|
      (VV70_keep m c main_v142 (by decide)).trans <| (VV69_keep m c main_v142 (by decide)).trans <|
      (VV68_keep m c main_v142 (by decide)).trans (VV67_main_v142 m c)))

/-- What the relation's four gather regions leave: the rows of the embedding array their tables name, scaled by
    their chunks of the relation's values. The table is the pipeline's prefetched one, a function of the
    edge-source argument alone. -/
theorem VV68_main_v145 : VV68 m c main_v145 = kerGather (x1 m c) (m ((c : Thread nD τ).loc main_arg1)) (m ((c : Thread nD τ).loc main_arg3)) (1 : Fin 4) 0 := by
  obtain rfl := dev_zero c
  unfold VV68
  rw [Function.update_self, VV67_x1, VV67_main_v144]
  rfl

theorem VV70_main_v148 : VV70 m c main_v148 = kerGather (x1 m c) (m ((c : Thread nD τ).loc main_arg1)) (m ((c : Thread nD τ).loc main_arg3)) (1 : Fin 4) 1 := by
  obtain rfl := dev_zero c
  unfold VV70
  rw [Function.update_self, VV69_x1, VV69_main_v147]
  rfl

theorem VV72_main_v151 : VV72 m c main_v151 = kerGather (x1 m c) (m ((c : Thread nD τ).loc main_arg1)) (m ((c : Thread nD τ).loc main_arg3)) (1 : Fin 4) 2 := by
  obtain rfl := dev_zero c
  unfold VV72
  rw [Function.update_self, VV71_x1, VV71_main_v150]
  rfl

theorem VV74_main_v154 : VV74 m c main_v154 = kerGather (x1 m c) (m ((c : Thread nD τ).loc main_arg1)) (m ((c : Thread nD τ).loc main_arg3)) (1 : Fin 4) 3 := by
  obtain rfl := dev_zero c
  unfold VV74
  rw [Function.update_self, VV73_x1, VV73_main_v153]
  rfl

/-- The relation's aggregate: the stretch after the fourth region reads the four results where the regions left
    them, no item between writing them, and the destinations as launched. -/
theorem VV75_main_v161 : VV75 m c main_v161 = kerAgg (x1 m c) (m ((c : Thread nD τ).loc main_arg1)) (m ((c : Thread nD τ).loc main_arg2)) (m ((c : Thread nD τ).loc main_arg3)) (1 : Fin 4) := by
  have h9 : VV74 m c main_v145 = kerGather (x1 m c) (m ((c : Thread nD τ).loc main_arg1)) (m ((c : Thread nD τ).loc main_arg3)) (1 : Fin 4) 0 :=
    (VV74_keep m c main_v145 (by decide)).trans <| (VV73_keep m c main_v145 (by decide)).trans <|
    (VV72_keep m c main_v145 (by decide)).trans <| (VV71_keep m c main_v145 (by decide)).trans <|
    (VV70_keep m c main_v145 (by decide)).trans <| (VV69_keep m c main_v145 (by decide)).trans (VV68_main_v145 m c)
  have h12 : VV74 m c main_v148 = kerGather (x1 m c) (m ((c : Thread nD τ).loc main_arg1)) (m ((c : Thread nD τ).loc main_arg3)) (1 : Fin 4) 1 :=
    (VV74_keep m c main_v148 (by decide)).trans <| (VV73_keep m c main_v148 (by decide)).trans <|
    (VV72_keep m c main_v148 (by decide)).trans <| (VV71_keep m c main_v148 (by decide)).trans (VV70_main_v148 m c)
  have h15 : VV74 m c main_v151 = kerGather (x1 m c) (m ((c : Thread nD τ).loc main_arg1)) (m ((c : Thread nD τ).loc main_arg3)) (1 : Fin 4) 2 :=
    (VV74_keep m c main_v151 (by decide)).trans <| (VV73_keep m c main_v151 (by decide)).trans (VV72_main_v151 m c)
  rw [show VV75 m c main_v161 = _ from hostOps25_agg (VV74 m c), VV74_arg2, h9, h12, h15, VV74_main_v154]
  rfl

/-! ### Relation 2 -/

/-- The relation's value column, as the five stretches before its first region leave it. -/
theorem VV79_main_v168 : VV79 m c main_v168 = valCol (m ((c : Thread nD τ).loc main_arg3)) (2 : Fin 4) :=
  (pro25_valCol (VV74 m c)).trans (by rw [VV74_arg3])

/-- The first region's value window: chunk 0 of the column. -/
theorem VV79_main_v170 : VV79 m c main_v170 = valChunk (m ((c : Thread nD τ).loc main_arg3)) (2 : Fin 4) 0 :=
  (pro25_valChunk0 (VV74 m c)).trans (by rw [VV74_arg3])

/-- The second region's value window: chunk 1 of the column, which the first region and the stretch after it leave
    as it was. -/
theorem VV81_main_v173 : VV81 m c main_v173 = valChunk (m ((c : Thread nD τ).loc main_arg3)) (2 : Fin 4) 1 :=
  (hostOps26_valChunk (VV80 m c)).trans
    (congrArg (valChunkOf · 1) ((VV80_keep m c main_v168 (by decide)).trans (VV79_main_v168 m c)))

/-- The third region's value window: chunk 2. -/
theorem VV83_main_v176 : VV83 m c main_v176 = valChunk (m ((c : Thread nD τ).loc main_arg3)) (2 : Fin 4) 2 :=
  (hostOps27_valChunk (VV82 m c)).trans
    (congrArg (valChunkOf · 2) ((VV82_keep m c main_v168 (by decide)).trans <| (VV81_keep m c main_v168 (by decide)).trans <|
      (VV80_keep m c main_v168 (by decide)).trans (VV79_main_v168 m c)))

/-- The fourth region's value window: chunk 3. -/
theorem VV85_main_v179 : VV85 m c main_v179 = valChunk (m ((c : Thread nD τ).loc main_arg3)) (2 : Fin 4) 3 :=
  (hostOps28_valChunk (VV84 m c)).trans
    (congrArg (valChunkOf · 3) ((VV84_keep m c main_v168 (by decide)).trans <| (VV83_keep m c main_v168 (by decide)).trans <|
      (VV82_keep m c main_v168 (by decide)).trans <| (VV81_keep m c main_v168 (by decide)).trans <|
      (VV80_keep m c main_v168 (by decide)).trans (VV79_main_v168 m c)))

/-- What the relation's four gather regions leave: the rows of the embedding array their tables name, scaled by
    their chunks of the relation's values. The table is the pipeline's prefetched one, a function of the
    edge-source argument alone. -/
theorem VV80_main_v171 : VV80 m c main_v171 = kerGather (x1 m c) (m ((c : Thread nD τ).loc main_arg1)) (m ((c : Thread nD τ).loc main_arg3)) (2 : Fin 4) 0 := by
  obtain rfl := dev_zero c
  unfold VV80
  rw [Function.update_self, VV79_x1, VV79_main_v170]
  rfl

theorem VV82_main_v174 : VV82 m c main_v174 = kerGather (x1 m c) (m ((c : Thread nD τ).loc main_arg1)) (m ((c : Thread nD τ).loc main_arg3)) (2 : Fin 4) 1 := by
  obtain rfl := dev_zero c
  unfold VV82
  rw [Function.update_self, VV81_x1, VV81_main_v173]
  rfl

theorem VV84_main_v177 : VV84 m c main_v177 = kerGather (x1 m c) (m ((c : Thread nD τ).loc main_arg1)) (m ((c : Thread nD τ).loc main_arg3)) (2 : Fin 4) 2 := by
  obtain rfl := dev_zero c
  unfold VV84
  rw [Function.update_self, VV83_x1, VV83_main_v176]
  rfl

theorem VV86_main_v180 : VV86 m c main_v180 = kerGather (x1 m c) (m ((c : Thread nD τ).loc main_arg1)) (m ((c : Thread nD τ).loc main_arg3)) (2 : Fin 4) 3 := by
  obtain rfl := dev_zero c
  unfold VV86
  rw [Function.update_self, VV85_x1, VV85_main_v179]
  rfl

/-- The relation's aggregate: the stretch after the fourth region reads the four results where the regions left
    them, no item between writing them, and the destinations as launched. -/
theorem VV87_main_v187 : VV87 m c main_v187 = kerAgg (x1 m c) (m ((c : Thread nD τ).loc main_arg1)) (m ((c : Thread nD τ).loc main_arg2)) (m ((c : Thread nD τ).loc main_arg3)) (2 : Fin 4) := by
  have h9 : VV86 m c main_v171 = kerGather (x1 m c) (m ((c : Thread nD τ).loc main_arg1)) (m ((c : Thread nD τ).loc main_arg3)) (2 : Fin 4) 0 :=
    (VV86_keep m c main_v171 (by decide)).trans <| (VV85_keep m c main_v171 (by decide)).trans <|
    (VV84_keep m c main_v171 (by decide)).trans <| (VV83_keep m c main_v171 (by decide)).trans <|
    (VV82_keep m c main_v171 (by decide)).trans <| (VV81_keep m c main_v171 (by decide)).trans (VV80_main_v171 m c)
  have h12 : VV86 m c main_v174 = kerGather (x1 m c) (m ((c : Thread nD τ).loc main_arg1)) (m ((c : Thread nD τ).loc main_arg3)) (2 : Fin 4) 1 :=
    (VV86_keep m c main_v174 (by decide)).trans <| (VV85_keep m c main_v174 (by decide)).trans <|
    (VV84_keep m c main_v174 (by decide)).trans <| (VV83_keep m c main_v174 (by decide)).trans (VV82_main_v174 m c)
  have h15 : VV86 m c main_v177 = kerGather (x1 m c) (m ((c : Thread nD τ).loc main_arg1)) (m ((c : Thread nD τ).loc main_arg3)) (2 : Fin 4) 2 :=
    (VV86_keep m c main_v177 (by decide)).trans <| (VV85_keep m c main_v177 (by decide)).trans (VV84_main_v177 m c)
  rw [show VV87 m c main_v187 = _ from hostOps29_agg (VV86 m c), VV86_arg2, h9, h12, h15, VV86_main_v180]
  rfl

/-! ### Relation 3 -/

/-- The relation's value column, as the five stretches before its first region leave it. -/
theorem VV91_main_v194 : VV91 m c main_v194 = valCol (m ((c : Thread nD τ).loc main_arg3)) (3 : Fin 4) :=
  (pro29_valCol (VV86 m c)).trans (by rw [VV86_arg3])

/-- The first region's value window: chunk 0 of the column. -/
theorem VV91_main_v196 : VV91 m c main_v196 = valChunk (m ((c : Thread nD τ).loc main_arg3)) (3 : Fin 4) 0 :=
  (pro29_valChunk0 (VV86 m c)).trans (by rw [VV86_arg3])

/-- The second region's value window: chunk 1 of the column, which the first region and the stretch after it leave
    as it was. -/
theorem VV93_main_v199 : VV93 m c main_v199 = valChunk (m ((c : Thread nD τ).loc main_arg3)) (3 : Fin 4) 1 :=
  (hostOps30_valChunk (VV92 m c)).trans
    (congrArg (valChunkOf · 1) ((VV92_keep m c main_v194 (by decide)).trans (VV91_main_v194 m c)))

/-- The third region's value window: chunk 2. -/
theorem VV95_main_v202 : VV95 m c main_v202 = valChunk (m ((c : Thread nD τ).loc main_arg3)) (3 : Fin 4) 2 :=
  (hostOps31_valChunk (VV94 m c)).trans
    (congrArg (valChunkOf · 2) ((VV94_keep m c main_v194 (by decide)).trans <| (VV93_keep m c main_v194 (by decide)).trans <|
      (VV92_keep m c main_v194 (by decide)).trans (VV91_main_v194 m c)))

/-- The fourth region's value window: chunk 3. -/
theorem VV97_main_v205 : VV97 m c main_v205 = valChunk (m ((c : Thread nD τ).loc main_arg3)) (3 : Fin 4) 3 :=
  (hostOps32_valChunk (VV96 m c)).trans
    (congrArg (valChunkOf · 3) ((VV96_keep m c main_v194 (by decide)).trans <| (VV95_keep m c main_v194 (by decide)).trans <|
      (VV94_keep m c main_v194 (by decide)).trans <| (VV93_keep m c main_v194 (by decide)).trans <|
      (VV92_keep m c main_v194 (by decide)).trans (VV91_main_v194 m c)))

/-- What the relation's four gather regions leave: the rows of the embedding array their tables name, scaled by
    their chunks of the relation's values. The table is the pipeline's prefetched one, a function of the
    edge-source argument alone. -/
theorem VV92_main_v197 : VV92 m c main_v197 = kerGather (x1 m c) (m ((c : Thread nD τ).loc main_arg1)) (m ((c : Thread nD τ).loc main_arg3)) (3 : Fin 4) 0 := by
  obtain rfl := dev_zero c
  unfold VV92
  rw [Function.update_self, VV91_x1, VV91_main_v196]
  rfl

theorem VV94_main_v200 : VV94 m c main_v200 = kerGather (x1 m c) (m ((c : Thread nD τ).loc main_arg1)) (m ((c : Thread nD τ).loc main_arg3)) (3 : Fin 4) 1 := by
  obtain rfl := dev_zero c
  unfold VV94
  rw [Function.update_self, VV93_x1, VV93_main_v199]
  rfl

theorem VV96_main_v203 : VV96 m c main_v203 = kerGather (x1 m c) (m ((c : Thread nD τ).loc main_arg1)) (m ((c : Thread nD τ).loc main_arg3)) (3 : Fin 4) 2 := by
  obtain rfl := dev_zero c
  unfold VV96
  rw [Function.update_self, VV95_x1, VV95_main_v202]
  rfl

theorem VV98_main_v206 : VV98 m c main_v206 = kerGather (x1 m c) (m ((c : Thread nD τ).loc main_arg1)) (m ((c : Thread nD τ).loc main_arg3)) (3 : Fin 4) 3 := by
  obtain rfl := dev_zero c
  unfold VV98
  rw [Function.update_self, VV97_x1, VV97_main_v205]
  rfl

/-! ### What the layer's last stretch reads -/

theorem VV98_main_v135 : VV98 m c main_v135 = kerAgg (x1 m c) (m ((c : Thread nD τ).loc main_arg1)) (m ((c : Thread nD τ).loc main_arg2)) (m ((c : Thread nD τ).loc main_arg3)) (0 : Fin 4) :=
  (VV98_keep m c main_v135 (by decide)).trans <|
    (VV97_keep m c main_v135 (by decide)).trans <|
    (VV96_keep m c main_v135 (by decide)).trans <|
    (VV95_keep m c main_v135 (by decide)).trans <|
    (VV94_keep m c main_v135 (by decide)).trans <|
    (VV93_keep m c main_v135 (by decide)).trans <|
    (VV92_keep m c main_v135 (by decide)).trans <|
    (VV91_keep m c main_v135 (by decide)).trans <|
    (VV90_keep m c main_v135 (by decide)).trans <|
    (VV89_keep m c main_v135 (by decide)).trans <|
    (VV88_keep m c main_v135 (by decide)).trans <|
    (VV87_keep m c main_v135 (by decide)).trans <|
    (VV86_keep m c main_v135 (by decide)).trans <|
    (VV85_keep m c main_v135 (by decide)).trans <|
    (VV84_keep m c main_v135 (by decide)).trans <|
    (VV83_keep m c main_v135 (by decide)).trans <|
    (VV82_keep m c main_v135 (by decide)).trans <|
    (VV81_keep m c main_v135 (by decide)).trans <|
    (VV80_keep m c main_v135 (by decide)).trans <|
    (VV79_keep m c main_v135 (by decide)).trans <|
    (VV78_keep m c main_v135 (by decide)).trans <|
    (VV77_keep m c main_v135 (by decide)).trans <|
    (VV76_keep m c main_v135 (by decide)).trans <|
    (VV75_keep m c main_v135 (by decide)).trans <|
    (VV74_keep m c main_v135 (by decide)).trans <|
    (VV73_keep m c main_v135 (by decide)).trans <|
    (VV72_keep m c main_v135 (by decide)).trans <|
    (VV71_keep m c main_v135 (by decide)).trans <|
    (VV70_keep m c main_v135 (by decide)).trans <|
    (VV69_keep m c main_v135 (by decide)).trans <|
    (VV68_keep m c main_v135 (by decide)).trans <|
    (VV67_keep m c main_v135 (by decide)).trans <|
    (VV66_keep m c main_v135 (by decide)).trans <|
    (VV65_keep m c main_v135 (by decide)).trans <|
    (VV64_keep m c main_v135 (by decide)).trans <|
    (VV63_main_v135 m c)
theorem VV98_main_v161 : VV98 m c main_v161 = kerAgg (x1 m c) (m ((c : Thread nD τ).loc main_arg1)) (m ((c : Thread nD τ).loc main_arg2)) (m ((c : Thread nD τ).loc main_arg3)) (1 : Fin 4) :=
  (VV98_keep m c main_v161 (by decide)).trans <|
    (VV97_keep m c main_v161 (by decide)).trans <|
    (VV96_keep m c main_v161 (by decide)).trans <|
    (VV95_keep m c main_v161 (by decide)).trans <|
    (VV94_keep m c main_v161 (by decide)).trans <|
    (VV93_keep m c main_v161 (by decide)).trans <|
    (VV92_keep m c main_v161 (by decide)).trans <|
    (VV91_keep m c main_v161 (by decide)).trans <|
    (VV90_keep m c main_v161 (by decide)).trans <|
    (VV89_keep m c main_v161 (by decide)).trans <|
    (VV88_keep m c main_v161 (by decide)).trans <|
    (VV87_keep m c main_v161 (by decide)).trans <|
    (VV86_keep m c main_v161 (by decide)).trans <|
    (VV85_keep m c main_v161 (by decide)).trans <|
    (VV84_keep m c main_v161 (by decide)).trans <|
    (VV83_keep m c main_v161 (by decide)).trans <|
    (VV82_keep m c main_v161 (by decide)).trans <|
    (VV81_keep m c main_v161 (by decide)).trans <|
    (VV80_keep m c main_v161 (by decide)).trans <|
    (VV79_keep m c main_v161 (by decide)).trans <|
    (VV78_keep m c main_v161 (by decide)).trans <|
    (VV77_keep m c main_v161 (by decide)).trans <|
    (VV76_keep m c main_v161 (by decide)).trans <|
    (VV75_main_v161 m c)
theorem VV98_main_v187 : VV98 m c main_v187 = kerAgg (x1 m c) (m ((c : Thread nD τ).loc main_arg1)) (m ((c : Thread nD τ).loc main_arg2)) (m ((c : Thread nD τ).loc main_arg3)) (2 : Fin 4) :=
  (VV98_keep m c main_v187 (by decide)).trans <|
    (VV97_keep m c main_v187 (by decide)).trans <|
    (VV96_keep m c main_v187 (by decide)).trans <|
    (VV95_keep m c main_v187 (by decide)).trans <|
    (VV94_keep m c main_v187 (by decide)).trans <|
    (VV93_keep m c main_v187 (by decide)).trans <|
    (VV92_keep m c main_v187 (by decide)).trans <|
    (VV91_keep m c main_v187 (by decide)).trans <|
    (VV90_keep m c main_v187 (by decide)).trans <|
    (VV89_keep m c main_v187 (by decide)).trans <|
    (VV88_keep m c main_v187 (by decide)).trans <|
    (VV87_main_v187 m c)
theorem VV98_main_v197 : VV98 m c main_v197 = kerGather (x1 m c) (m ((c : Thread nD τ).loc main_arg1)) (m ((c : Thread nD τ).loc main_arg3)) (3 : Fin 4) 0 :=
  (VV98_keep m c main_v197 (by decide)).trans <|
    (VV97_keep m c main_v197 (by decide)).trans <|
    (VV96_keep m c main_v197 (by decide)).trans <|
    (VV95_keep m c main_v197 (by decide)).trans <|
    (VV94_keep m c main_v197 (by decide)).trans <|
    (VV93_keep m c main_v197 (by decide)).trans <|
    (VV92_main_v197 m c)
theorem VV98_main_v200 : VV98 m c main_v200 = kerGather (x1 m c) (m ((c : Thread nD τ).loc main_arg1)) (m ((c : Thread nD τ).loc main_arg3)) (3 : Fin 4) 1 :=
  (VV98_keep m c main_v200 (by decide)).trans <|
    (VV97_keep m c main_v200 (by decide)).trans <|
    (VV96_keep m c main_v200 (by decide)).trans <|
    (VV95_keep m c main_v200 (by decide)).trans <|
    (VV94_main_v200 m c)
theorem VV98_main_v203 : VV98 m c main_v203 = kerGather (x1 m c) (m ((c : Thread nD τ).loc main_arg1)) (m ((c : Thread nD τ).loc main_arg3)) (3 : Fin 4) 2 :=
  (VV98_keep m c main_v203 (by decide)).trans <|
    (VV97_keep m c main_v203 (by decide)).trans <|
    (VV96_main_v203 m c)

/-- The program's result: the second activation region reads the second layer's four aggregates stacked, each a function
    of the first layer's result and the three edge arguments. -/
theorem kernel_value : VV100 m c main_v219 = kerOut (m ((c : Thread nD τ).loc main_arg0)) (m ((c : Thread nD τ).loc main_arg1)) (m ((c : Thread nD τ).loc main_arg2)) (m ((c : Thread nD τ).loc main_arg3)) := by
  unfold VV100
  rw [Function.update_self, show VV99 m c main_v218 = _ from hostOps33_stack (VV98 m c),
    VV98_main_v135, VV98_main_v161, VV98_main_v187, VV98_arg2, VV98_main_v197, VV98_main_v200, VV98_main_v203, VV98_main_v206]
  rfl

end Layer2

end Cert.KernelIdeal.Hand

end
-- ==== Proof.KI.BridgeIdx.lean ====
/-
  Index-level facts about the array plumbing on both sides of one layer of the relational graph convolution:
  what a padded, chunked, concatenated and re-sliced edge array holds at an edge below the true edge count;
  what a row gather reads at a start index known to be in range; and the pointwise laws of the leaky
  rectifier summed over four relations. Everything is a statement about functions on index sets over the
  extended reals; nothing here mentions a program.
-/
import Idealize.ShloMosaic.PureOps
import Idealize.ShloMosaic.PureOps.Ideal
import Idealize.ShloMosaic.Lib.ValueIdx
import Idealize.ShloMosaic.Lib.StableHlo.Predicate
import Idealize.ShloMosaic.Lib.Pipeline.Value

noncomputable section

namespace Cert.Bridge

open Idealize.ShloMosaic Idealize.ShloMosaic.ValueIdx

/-! ## Padding, chunking, reshaping: reads at an index -/

section Plumbing
variable {α : Type}

/-- A vector of 500000 entries padded at the high end to 524288 reads, below 500000, the vector itself. -/
theorem pad_low (s : (⟨1, ![500000]⟩ : Shape).Idx → α) {u : Shape} (v : u.Idx → α)
    (hp : (⟨1, ![500000]⟩ : Shape).Pads ![0] ![24288] ![0] ⟨1, ![524288]⟩) (hu : 0 < u.numel)
    (k : Fin 524288) (hk : k.val < 500000) :
    pad (⟨1, ![524288]⟩ : Shape) ![0] ![24288] ![0] s v hp hu (ix1 k) = s (ix1 ⟨k.val, hk⟩) := by
  unfold pad
  rw [dif_pos]
  · congr 1
    funext a
    match a with
    | ⟨0, _⟩ => exact Fin.ext (by simp)
  · intro a
    match a with
    | ⟨0, _⟩ =>
      refine ⟨Nat.zero_le _, Nat.mod_one _, ?_⟩
      show (k.val - 0) / (0 + 1) < 500000
      rw [Nat.sub_zero, Nat.zero_add, Nat.div_one]
      exact hk

/-- The same padded vector reads the padding value from 500000 on. -/
theorem pad_high (s : (⟨1, ![500000]⟩ : Shape).Idx → α) {u : Shape} (v : u.Idx → α)
    (hp : (⟨1, ![500000]⟩ : Shape).Pads ![0] ![24288] ![0] ⟨1, ![524288]⟩) (hu : 0 < u.numel)
    (k : Fin 524288) (hk : 500000 ≤ k.val) :
    pad (⟨1, ![524288]⟩ : Shape) ![0] ![24288] ![0] s v hp hu (ix1 k) = v (Shape.Idx.first hu) := by
  unfold pad
  rw [dif_neg]
  intro h
  have h2 : (k.val - 0) / (0 + 1) < 500000 := (h ⟨0, Nat.one_pos⟩).2.2
  rw [Nat.sub_zero, Nat.zero_add, Nat.div_one] at h2
  omega

/-- A chunk of 131072 entries of a vector of 524288, at an entry. -/
theorem chunk1 (y : (⟨1, ![524288]⟩ : Shape).Idx → α) (off : Nat)
    (h : (⟨1, ![524288]⟩ : Shape).Slices ![off] ⟨1, ![131072]⟩) (e : Fin 131072) (hb : off + e.val < 524288) :
    extractStridedSlice (⟨1, ![131072]⟩ : Shape) ![off] y h (ix1 e) = y (ix1 ⟨off + e.val, hb⟩) := by
  unfold extractStridedSlice
  congr 1
  funext a
  match a with
  | ⟨0, _⟩ => rfl

/-- A chunk of 131072 rows of a column of 524288, at a row. -/
theorem chunk2 (y : (⟨2, ![524288, 1]⟩ : Shape).Idx → α) (off : Nat)
    (h : (⟨2, ![524288, 1]⟩ : Shape).Slices ![off, 0] ⟨2, ![131072, 1]⟩) (e : Fin 131072) (hb : off + e.val < 524288) :
    extractStridedSlice (⟨2, ![131072, 1]⟩ : Shape) ![off, 0] y h (ix2 e (0 : Fin 1)) = y (ix2 ⟨off + e.val, hb⟩ (0 : Fin 1)) := by
  unfold extractStridedSlice
  congr 1
  funext a
  match a with
  | ⟨0, _⟩ => rfl
  | ⟨1, _⟩ => rfl

/-- A vector recast as a column reads, at row `k`, the vector at `k`. -/
theorem col_cast (y : (⟨1, ![524288]⟩ : Shape).Idx → α)
    (h : (⟨1, ![524288]⟩ : Shape).ShapeCasts ⟨2, ![524288, 1]⟩) (k : Fin 524288) :
    shapeCast (⟨2, ![524288, 1]⟩ : Shape) y h (ix2 k (0 : Fin 1)) = y (ix1 k) := by
  unfold shapeCast
  congr 1
  refine Shape.reshapeEquiv_eq_of_rowMajor _ ?_
  rw [Shape.rowMajor_val_one, Shape.rowMajor_val_two]
  simp

/-- The first 500000 rows of an array of 524288 rows, at an entry. -/
theorem head_rows (y : (⟨2, ![524288, 128]⟩ : Shape).Idx → α)
    (h : (⟨2, ![524288, 128]⟩ : Shape).Slices ![0, 0] ⟨2, ![500000, 128]⟩) (e : Fin 500000) (d : Fin 128) :
    extractStridedSlice (⟨2, ![500000, 128]⟩ : Shape) ![0, 0] y h (ix2 e d)
      = y (ix2 ⟨e.val, Nat.lt_trans e.isLt (by decide)⟩ d) := by
  unfold extractStridedSlice
  congr 1
  funext a
  match a with
  | ⟨0, _⟩ => exact Fin.ext (Nat.zero_add _)
  | ⟨1, _⟩ => exact Fin.ext (Nat.zero_add _)

end Plumbing

/-! ## Four equal pieces laid end to end along the rows -/

section Cat
variable {α : Type}

/-- Four arrays of 131072 rows concatenated along the rows: row `c · 131072 + e` of the whole is row `e` of piece `c`. -/
theorem cat4_apply (o0 o1 o2 o3 : (⟨2, ![131072, 128]⟩ : Shape).Idx → α)
    (h : Shape.Concatenates [(⟨2, ![131072, 128]⟩ : Shape), ⟨2, ![131072, 128]⟩, ⟨2, ![131072, 128]⟩, ⟨2, ![131072, 128]⟩]
      ⟨2, ![524288, 128]⟩ 0)
    (c : Fin 4) (e : Fin 131072) (d : Fin 128) (hb : c.val * 131072 + e.val < 524288) :
    concatenate (⟨2, ![524288, 128]⟩ : Shape) 0
        [⟨(⟨2, ![131072, 128]⟩ : Shape), o0⟩, ⟨(⟨2, ![131072, 128]⟩ : Shape), o1⟩, ⟨(⟨2, ![131072, 128]⟩ : Shape), o2⟩,
          ⟨(⟨2, ![131072, 128]⟩ : Shape), o3⟩] h (ix2 ⟨c.val * 131072 + e.val, hb⟩ d)
      = (![o0, o1, o2, o3] c) (ix2 e d) := by
  have hi : ∀ (k : Fin 524288) (b : Fin (⟨2, ![131072, 128]⟩ : Shape).rank),
      b.cast (rfl : (⟨2, ![131072, 128]⟩ : Shape).rank = (⟨2, ![524288, 128]⟩ : Shape).rank) ≠ 0 →
      ((ix2 e d : (⟨2, ![131072, 128]⟩ : Shape).Idx) b).val
        = ((ix2 k d : (⟨2, ![524288, 128]⟩ : Shape).Idx) (b.cast rfl)).val := by
    intro k b hb'
    match b with
    | ⟨0, _⟩ => exact absurd rfl hb'
    | ⟨1, _⟩ => rfl
  revert hb
  rcases c with ⟨c, hc⟩
  rcases c with _ | _ | _ | _ | c
  · intro hb
    exact concatenate_apply_piece (t := (⟨2, ![524288, 128]⟩ : Shape)) 0
      [⟨(⟨2, ![131072, 128]⟩ : Shape), o0⟩, ⟨(⟨2, ![131072, 128]⟩ : Shape), o1⟩, ⟨(⟨2, ![131072, 128]⟩ : Shape), o2⟩, ⟨(⟨2, ![131072, 128]⟩ : Shape), o3⟩]
      h _ 0 (by show 0 < 4; decide) _ o0 rfl rfl 0 (by simp) (ix2 e d) (hi _) (by show 0 + e.val = 0 * 131072 + e.val; omega)
  · intro hb
    exact concatenate_apply_piece (t := (⟨2, ![524288, 128]⟩ : Shape)) 0
      [⟨(⟨2, ![131072, 128]⟩ : Shape), o0⟩, ⟨(⟨2, ![131072, 128]⟩ : Shape), o1⟩, ⟨(⟨2, ![131072, 128]⟩ : Shape), o2⟩, ⟨(⟨2, ![131072, 128]⟩ : Shape), o3⟩]
      h _ 1 (by show 1 < 4; decide) _ o1 rfl rfl 131072 (by simp) (ix2 e d) (hi _) (by show 131072 + e.val = 1 * 131072 + e.val; omega)
  · intro hb
    exact concatenate_apply_piece (t := (⟨2, ![524288, 128]⟩ : Shape)) 0
      [⟨(⟨2, ![131072, 128]⟩ : Shape), o0⟩, ⟨(⟨2, ![131072, 128]⟩ : Shape), o1⟩, ⟨(⟨2, ![131072, 128]⟩ : Shape), o2⟩, ⟨(⟨2, ![131072, 128]⟩ : Shape), o3⟩]
      h _ 2 (by show 2 < 4; decide) _ o2 rfl rfl 262144 (by simp) (ix2 e d) (hi _) (by show 262144 + e.val = 2 * 131072 + e.val; omega)
  · intro hb
    exact concatenate_apply_piece (t := (⟨2, ![524288, 128]⟩ : Shape)) 0
      [⟨(⟨2, ![131072, 128]⟩ : Shape), o0⟩, ⟨(⟨2, ![131072, 128]⟩ : Shape), o1⟩, ⟨(⟨2, ![131072, 128]⟩ : Shape), o2⟩, ⟨(⟨2, ![131072, 128]⟩ : Shape), o3⟩]
      h _ 3 (by show 3 < 4; decide) _ o3 rfl rfl 393216 (by simp) (ix2 e d) (hi _) (by show 393216 + e.val = 3 * 131072 + e.val; omega)
  · omega

end Cat

/-! ## The row gather at a start index in range -/

section Gather
variable {α : Type}

/-- The dimension numbers of a gather of whole rows: operand `[N, D]`, start indices a column `[n, 1]`, result `[n, D]`;
    the row axis collapsed and start-indexed, the column axis the one offset axis. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The gather of rows read at `(p, q)`: the operand's row at start index `idx[p, 0]` — read signed and clamped into the
    operand's rows — at column `q`. -/
theorem gather_row_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowDims N D n wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowDims N D n wf).start (ix2 p q) idx 0 + (rowDims N D n wf).batchCoord (ix2 p q) 0
      + (rowDims N D n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 p q) ⟨List.idxOf (0 : Fin 2) (rowDims N D n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N D n wf).start (ix2 p q) idx 1 + (rowDims N D n wf).batchCoord (ix2 p q) 1
      + (rowDims N D n wf).offCoord (ix2 p q) 1 = q.val
    rw [GatherDims.batchCoord_eq_zero _ _ _ List.not_mem_nil]
    have hs : (rowDims N D n wf).start (ix2 p q) idx 1 = 0 := by
      unfold GatherDims.start
      rw [dif_neg (by show (1 : Fin 2) ∉ [(0 : Fin 2)]; decide)]
    have ho : (rowDims N D n wf).offCoord (ix2 p q) 1 = q.val := by
      unfold GatherDims.offCoord
      rw [dif_pos ((GatherDims.mem_sKept _ _).mpr ⟨by show (1 : Fin 2) ∉ [(0 : Fin 2)]; decide, List.not_mem_nil⟩)]
      rfl
    rw [hs, ho]
    omega

end Gather

/-! ## Index spellings -/

section Spellings

theorem ofFin_eq_ix1 {n : Nat} (k : Fin n) : Shape.Idx.ofFin k = ix1 k := by
  funext a
  match a with
  | ⟨0, _⟩ => rfl

theorem ij_eq_ix2 {n m : Nat} (p : Fin n) (q : Fin m) : StableHlo.Predicate.ij p q = ix2 p q := by
  funext a
  match a with
  | ⟨0, _⟩ => rfl
  | ⟨1, _⟩ => rfl

theorem ixP_eq_ix2 {n : Nat} (p : Fin n) : StableHlo.Predicate.ixP p = ix2 p (0 : Fin 1) := by
  funext a
  match a with
  | ⟨0, _⟩ => rfl
  | ⟨1, _⟩ => rfl

/-- Two spellings of one row number read the same entry. -/
theorem row_congr {α : Type} {N D : Nat} (x : (⟨2, ![N, D]⟩ : Shape).Idx → α) {A B : Nat} (h : A = B) (hA : A < N) (hB : B < N)
    (d : Fin D) : x (ix2 ⟨A, hA⟩ d) = x (ix2 ⟨B, hB⟩ d) := by
  subst h; rfl

end Spellings

/-! ## A start index known to be a row number -/

section Words

/-- A 32-bit word that is, read signed, in `[0, 100000)` is so read unsigned. -/
theorem toNat_lt_of_signed (a : BitVec 32) (h0 : 0 ≤ a.toInt) (h1 : a.toInt < 100000) : a.toNat < 100000 := by
  have ht := a.isLt
  have h := BitVec.toInt_eq_toNat_cond a
  split at h <;> omega

/-- Such a word is not negative, so wrapping a negative index around by the row count leaves it alone. -/
theorem wrap_in_range (a : BitVec 32) (h : a.toNat < 100000) :
    Scalar.select (IntOp.cmpi .slt a 0#32) (IntOp.addi a 100000#32) a = a := by
  have h1 : a.toInt = (a.toNat : Int) := StableHlo.Predicate.toInt_eq_toNat_of_lt (by omega)
  have hs : a.slt 0#32 = false := by
    have hn : ¬ (a.toInt < (0#32 : BitVec 32).toInt) := by rw [h1]; simp
    simpa [BitVec.slt] using hn
  show (if BitVec.ofBool (a.slt 0#32) = 1 then IntOp.addi a 100000#32 else a) = a
  rw [hs]
  exact if_neg (by decide)

/-- Such a word, read signed and clamped into the rows, is itself. -/
theorem clamp_in_range (a : BitVec 32) (h : a.toNat < 100000) : min a.toInt.toNat (100000 - 1) = a.toNat := by
  have h1 : a.toInt = (a.toNat : Int) := StableHlo.Predicate.toInt_eq_toNat_of_lt (by omega)
  rw [h1, Int.toNat_natCast]
  omega

end Words

/-! ## The leaky rectifier, and its sum over four relations -/

section Leaky

/-- The rectifier as the kernel computes it: the slope applies from zero down. -/
def lreluGt (c y : EReal) : EReal := if 0 < y then y else c * y

/-- The rectifier as the reference computes it: the slope applies below zero. -/
def lreluGe (c y : EReal) : EReal := if 0 ≤ y then y else c * y

/-- The two agree: they differ only at zero, where the slope's branch gives `c · 0 = 0`. -/
theorem lreluGe_eq_lreluGt (c y : EReal) : lreluGe c y = lreluGt c y := by
  unfold lreluGe lreluGt
  by_cases h : 0 < y
  · rw [if_pos h, if_pos h.le]
  · rw [if_neg h]
    by_cases h' : 0 ≤ y
    · have hy : y = 0 := le_antisymm (not_lt.mp h) h'
      rw [if_pos h', hy, mul_zero]
    · rw [if_neg h']

/-- The reference's rectifier read at an index: a select on `a ≥ 0` between `a` and the slope times `a`. -/
theorem select_oge_apply {s : Shape} (a z cb : FVec Ideal s .f32) (c : EReal) (i : s.Idx) (hz : z i = 0) (hc : cb i = c) :
    select (cmpf .oge a z) a (mulf cb a) i = lreluGe c (a i) := by
  show Scalar.select (Ideal.cmp .oge (a i) (z i)) (a i) (cb i * a i) = _
  rw [hz, hc]
  unfold lreluGe Scalar.select Ideal.cmp
  by_cases h : (0 : EReal) ≤ a i <;> simp [h]

/-- A sum over the four relations is the reference's running sum from zero. -/
theorem sum_four (f : Fin 4 → EReal) : ∑ r, f r = 0 + f 0 + f 1 + f 2 + f 3 := by
  rw [Fin.sum_univ_four, zero_add]

end Leaky

/-! ## Four arrays stacked along a new leading axis -/

section Stack
variable {α : Type}

/-- An array given a leading axis of extent one reads, at `(0, n, d)`, the array at `(n, d)`. -/
theorem lead1_apply (a : (⟨2, ![100000, 128]⟩ : Shape).Idx → α)
    (h : (⟨2, ![100000, 128]⟩ : Shape).BroadcastsInDim ⟨3, ![1, 100000, 128]⟩ ![1, 2]) (n : Fin 100000) (d : Fin 128) :
    broadcastInDim (⟨3, ![1, 100000, 128]⟩ : Shape) ![1, 2] h a (ix3 (0 : Fin 1) n d) = a (ix2 n d) := by
  simp only [broadcastInDim]
  congr 1
  funext b
  match b with
  | ⟨0, _⟩ =>
    apply Fin.ext
    split
    · next h1 => change 100000 = 1 at h1; omega
    · rfl
  | ⟨1, _⟩ =>
    apply Fin.ext
    split
    · next h1 => change 128 = 1 at h1; omega
    · rfl

/-- Four such arrays concatenated along the leading axis: entry `(r, n, d)` is piece `r` at `(0, n, d)`. -/
theorem stack4_apply (b0 b1 b2 b3 : (⟨3, ![1, 100000, 128]⟩ : Shape).Idx → α)
    (h : Shape.Concatenates [(⟨3, ![1, 100000, 128]⟩ : Shape), ⟨3, ![1, 100000, 128]⟩, ⟨3, ![1, 100000, 128]⟩, ⟨3, ![1, 100000, 128]⟩]
      ⟨3, ![4, 100000, 128]⟩ 0)
    (r : Fin 4) (n : Fin 100000) (d : Fin 128) :
    concatenate (⟨3, ![4, 100000, 128]⟩ : Shape) 0
        [⟨(⟨3, ![1, 100000, 128]⟩ : Shape), b0⟩, ⟨(⟨3, ![1, 100000, 128]⟩ : Shape), b1⟩, ⟨(⟨3, ![1, 100000, 128]⟩ : Shape), b2⟩,
          ⟨(⟨3, ![1, 100000, 128]⟩ : Shape), b3⟩] h (ix3 r n d)
      = (![b0, b1, b2, b3] r) (ix3 (0 : Fin 1) n d) := by
  have hi : ∀ (k : Fin 4) (b : Fin (⟨3, ![1, 100000, 128]⟩ : Shape).rank),
      b.cast (rfl : (⟨3, ![1, 100000, 128]⟩ : Shape).rank = (⟨3, ![4, 100000, 128]⟩ : Shape).rank) ≠ 0 →
      ((ix3 (0 : Fin 1) n d : (⟨3, ![1, 100000, 128]⟩ : Shape).Idx) b).val
        = ((ix3 k n d : (⟨3, ![4, 100000, 128]⟩ : Shape).Idx) (b.cast rfl)).val := by
    intro k b hb'
    match b with
    | ⟨0, _⟩ => exact absurd rfl hb'
    | ⟨1, _⟩ => rfl
    | ⟨2, _⟩ => rfl
  rcases r with ⟨r, hr⟩
  rcases r with _ | _ | _ | _ | r
  · exact concatenate_apply_piece (t := (⟨3, ![4, 100000, 128]⟩ : Shape)) 0
      [⟨(⟨3, ![1, 100000, 128]⟩ : Shape), b0⟩, ⟨(⟨3, ![1, 100000, 128]⟩ : Shape), b1⟩, ⟨(⟨3, ![1, 100000, 128]⟩ : Shape), b2⟩, ⟨(⟨3, ![1, 100000, 128]⟩ : Shape), b3⟩]
      h _ 0 (by show 0 < 4; decide) _ b0 rfl rfl 0 (by simp) (ix3 (0 : Fin 1) n d) (hi _) rfl
  · exact concatenate_apply_piece (t := (⟨3, ![4, 100000, 128]⟩ : Shape)) 0
      [⟨(⟨3, ![1, 100000, 128]⟩ : Shape), b0⟩, ⟨(⟨3, ![1, 100000, 128]⟩ : Shape), b1⟩, ⟨(⟨3, ![1, 100000, 128]⟩ : Shape), b2⟩, ⟨(⟨3, ![1, 100000, 128]⟩ : Shape), b3⟩]
      h _ 1 (by show 1 < 4; decide) _ b1 rfl rfl 1 (by simp) (ix3 (0 : Fin 1) n d) (hi _) rfl
  · exact concatenate_apply_piece (t := (⟨3, ![4, 100000, 128]⟩ : Shape)) 0
      [⟨(⟨3, ![1, 100000, 128]⟩ : Shape), b0⟩, ⟨(⟨3, ![1, 100000, 128]⟩ : Shape), b1⟩, ⟨(⟨3, ![1, 100000, 128]⟩ : Shape), b2⟩, ⟨(⟨3, ![1, 100000, 128]⟩ : Shape), b3⟩]
      h _ 2 (by show 2 < 4; decide) _ b2 rfl rfl 2 (by simp) (ix3 (0 : Fin 1) n d) (hi _) rfl
  · exact concatenate_apply_piece (t := (⟨3, ![4, 100000, 128]⟩ : Shape)) 0
      [⟨(⟨3, ![1, 100000, 128]⟩ : Shape), b0⟩, ⟨(⟨3, ![1, 100000, 128]⟩ : Shape), b1⟩, ⟨(⟨3, ![1, 100000, 128]⟩ : Shape), b2⟩, ⟨(⟨3, ![1, 100000, 128]⟩ : Shape), b3⟩]
      h _ 3 (by show 3 < 4; decide) _ b3 rfl rfl 3 (by simp) (ix3 (0 : Fin 1) n d) (hi _) rfl
  · omega

end Stack

/-! ## One relation's messages, both ways -/

section Messages

/-- What the row-gather kernel computes, as a whole-array function `G` of the embeddings, one chunk of the index table and
    the chunk's column of edge values: row `e` of the result is the embedding row the table names, times the edge value. -/
def GatherSpec (G : FVec Ideal ⟨2, ![100000, 128]⟩ .f32 → IVec ⟨1, ![131072]⟩ 32 → FVec Ideal ⟨2, ![131072, 1]⟩ .f32 →
    FVec Ideal ⟨2, ![131072, 128]⟩ .f32) : Prop :=
  ∀ (x : FVec Ideal ⟨2, ![100000, 128]⟩ .f32) (tbl : IVec ⟨1, ![131072]⟩ 32) (v : FVec Ideal ⟨2, ![131072, 1]⟩ .f32)
    (e : Fin 131072) (d : Fin 128) (h : (tbl (ix1 e)).toNat < 100000),
    G x tbl v (ix2 e d) = x (ix2 ⟨(tbl (ix1 e)).toNat, h⟩ d) * v (ix2 e (0 : Fin 1))

variable {G : FVec Ideal ⟨2, ![100000, 128]⟩ .f32 → IVec ⟨1, ![131072]⟩ 32 → FVec Ideal ⟨2, ![131072, 1]⟩ .f32 →
    FVec Ideal ⟨2, ![131072, 128]⟩ .f32}

/-- One chunk's result at a row that lies below the true edge count: the padded, chunked table and values read the
    relation's own source index and edge value at edge `k = off + e'`. -/
theorem chunk_out_apply (hG : GatherSpec G) (x : FVec Ideal ⟨2, ![100000, 128]⟩ .f32)
    (s : IVec ⟨1, ![500000]⟩ 32) (v : FVec Ideal ⟨1, ![500000]⟩ .f32)
    {u u' : Shape} (zi : IVec u 32) (zf : FVec Ideal u' .f32)
    (hp : (⟨1, ![500000]⟩ : Shape).Pads ![0] ![24288] ![0] ⟨1, ![524288]⟩) (hu : 0 < u.numel) (hu' : 0 < u'.numel)
    (hc : (⟨1, ![524288]⟩ : Shape).ShapeCasts ⟨2, ![524288, 1]⟩)
    (off : Nat) (h1 : (⟨1, ![524288]⟩ : Shape).Slices ![off] ⟨1, ![131072]⟩)
    (h2 : (⟨2, ![524288, 1]⟩ : Shape).Slices ![off, 0] ⟨2, ![131072, 1]⟩)
    (hs : ∀ e, (s (ix1 e)).toNat < 100000) (e' : Fin 131072) (d : Fin 128) (k : Fin 500000) (hk : off + e'.val = k.val) :
    G x (extractStridedSlice (⟨1, ![131072]⟩ : Shape) ![off] (pad (⟨1, ![524288]⟩ : Shape) ![0] ![24288] ![0] s zi hp hu) h1)
        (extractStridedSlice (⟨2, ![131072, 1]⟩ : Shape) ![off, 0]
          (shapeCast (⟨2, ![524288, 1]⟩ : Shape) (pad (⟨1, ![524288]⟩ : Shape) ![0] ![24288] ![0] v zf hp hu') hc) h2) (ix2 e' d)
      = x (ix2 ⟨(s (ix1 k)).toNat, hs k⟩ d) * v (ix1 k) := by
  have hlt : off + e'.val < 500000 := by have := k.isLt; omega
  have hb : off + e'.val < 524288 := by omega
  have hkk : (⟨off + e'.val, hlt⟩ : Fin 500000) = k := Fin.ext hk
  have ht : extractStridedSlice (⟨1, ![131072]⟩ : Shape) ![off] (pad (⟨1, ![524288]⟩ : Shape) ![0] ![24288] ![0] s zi hp hu) h1 (ix1 e')
      = s (ix1 k) := by
    rw [chunk1 _ off h1 e' hb, pad_low s zi hp hu ⟨off + e'.val, hb⟩ hlt]
    exact congrArg (fun i => s (ix1 i)) hkk
  have hv : extractStridedSlice (⟨2, ![131072, 1]⟩ : Shape) ![off, 0]
      (shapeCast (⟨2, ![524288, 1]⟩ : Shape) (pad (⟨1, ![524288]⟩ : Shape) ![0] ![24288] ![0] v zf hp hu') hc) h2 (ix2 e' (0 : Fin 1))
      = v (ix1 k) := by
    rw [chunk2 _ off h2 e' hb, col_cast, pad_low v zf hp hu' ⟨off + e'.val, hb⟩ hlt]
    exact congrArg (fun i => v (ix1 i)) hkk
  rw [hG x _ _ e' d (by rw [ht]; exact hs k), hv]
  exact congrArg (· * v (ix1 k)) (row_congr x (congrArg BitVec.toNat ht) _ _ d)

/-- THE KERNEL'S MESSAGES of one relation, at edge `e` and feature `d`: the four chunks' results, concatenated and cut back to
    the true edge count, hold the embedding row the relation's source index names times the edge's value. -/
theorem ker_msg_apply (hG : GatherSpec G) (x : FVec Ideal ⟨2, ![100000, 128]⟩ .f32)
    (s : IVec ⟨1, ![500000]⟩ 32) (v : FVec Ideal ⟨1, ![500000]⟩ .f32)
    {u u' : Shape} (zi : IVec u 32) (zf : FVec Ideal u' .f32)
    (hp : (⟨1, ![500000]⟩ : Shape).Pads ![0] ![24288] ![0] ⟨1, ![524288]⟩) (hu : 0 < u.numel) (hu' : 0 < u'.numel)
    (hc : (⟨1, ![524288]⟩ : Shape).ShapeCasts ⟨2, ![524288, 1]⟩)
    (h10 : (⟨1, ![524288]⟩ : Shape).Slices ![0] ⟨1, ![131072]⟩) (h11 : (⟨1, ![524288]⟩ : Shape).Slices ![131072] ⟨1, ![131072]⟩)
    (h12 : (⟨1, ![524288]⟩ : Shape).Slices ![262144] ⟨1, ![131072]⟩) (h13 : (⟨1, ![524288]⟩ : Shape).Slices ![393216] ⟨1, ![131072]⟩)
    (h20 : (⟨2, ![524288, 1]⟩ : Shape).Slices ![0, 0] ⟨2, ![131072, 1]⟩)
    (h21 : (⟨2, ![524288, 1]⟩ : Shape).Slices ![131072, 0] ⟨2, ![131072, 1]⟩)
    (h22 : (⟨2, ![524288, 1]⟩ : Shape).Slices ![262144, 0] ⟨2, ![131072, 1]⟩)
    (h23 : (⟨2, ![524288, 1]⟩ : Shape).Slices ![393216, 0] ⟨2, ![131072, 1]⟩)
    (hcat : Shape.Concatenates [(⟨2, ![131072, 128]⟩ : Shape), ⟨2, ![131072, 128]⟩, ⟨2, ![131072, 128]⟩, ⟨2, ![131072, 128]⟩]
      ⟨2, ![524288, 128]⟩ 0)
    (hhead : (⟨2, ![524288, 128]⟩ : Shape).Slices ![0, 0] ⟨2, ![500000, 128]⟩)
    (hs : ∀ e, (s (ix1 e)).toNat < 100000) (e : Fin 500000) (d : Fin 128) :
    extractStridedSlice (⟨2, ![500000, 128]⟩ : Shape) ![0, 0]
        (concatenate (⟨2, ![524288, 128]⟩ : Shape) 0
          [⟨(⟨2, ![131072, 128]⟩ : Shape),
              G x (extractStridedSlice (⟨1, ![131072]⟩ : Shape) ![0] (pad (⟨1, ![524288]⟩ : Shape) ![0] ![24288] ![0] s zi hp hu) h10)
                (extractStridedSlice (⟨2, ![131072, 1]⟩ : Shape) ![0, 0]
                  (shapeCast (⟨2, ![524288, 1]⟩ : Shape) (pad (⟨1, ![524288]⟩ : Shape) ![0] ![24288] ![0] v zf hp hu') hc) h20)⟩,
            ⟨(⟨2, ![131072, 128]⟩ : Shape),
              G x (extractStridedSlice (⟨1, ![131072]⟩ : Shape) ![131072] (pad (⟨1, ![524288]⟩ : Shape) ![0] ![24288] ![0] s zi hp hu) h11)
                (extractStridedSlice (⟨2, ![131072, 1]⟩ : Shape) ![131072, 0]
                  (shapeCast (⟨2, ![524288, 1]⟩ : Shape) (pad (⟨1, ![524288]⟩ : Shape) ![0] ![24288] ![0] v zf hp hu') hc) h21)⟩,
            ⟨(⟨2, ![131072, 128]⟩ : Shape),
              G x (extractStridedSlice (⟨1, ![131072]⟩ : Shape) ![262144] (pad (⟨1, ![524288]⟩ : Shape) ![0] ![24288] ![0] s zi hp hu) h12)
                (extractStridedSlice (⟨2, ![131072, 1]⟩ : Shape) ![262144, 0]
                  (shapeCast (⟨2, ![524288, 1]⟩ : Shape) (pad (⟨1, ![524288]⟩ : Shape) ![0] ![24288] ![0] v zf hp hu') hc) h22)⟩,
            ⟨(⟨2, ![131072, 128]⟩ : Shape),
              G x (extractStridedSlice (⟨1, ![131072]⟩ : Shape) ![393216] (pad (⟨1, ![524288]⟩ : Shape) ![0] ![24288] ![0] s zi hp hu) h13)
                (extractStridedSlice (⟨2, ![131072, 1]⟩ : Shape) ![393216, 0]
                  (shapeCast (⟨2, ![524288, 1]⟩ : Shape) (pad (⟨1, ![524288]⟩ : Shape) ![0] ![24288] ![0] v zf hp hu') hc) h23)⟩]
          hcat) hhead (ix2 e d)
      = x (ix2 ⟨(s (ix1 e)).toNat, hs e⟩ d) * v (ix1 e) := by
  rw [head_rows]
  have he := e.isLt
  have hcases : e.val < 131072 ∨ (131072 ≤ e.val ∧ e.val < 262144) ∨ (262144 ≤ e.val ∧ e.val < 393216) ∨ 393216 ≤ e.val := by
    omega
  rcases hcases with h | h | h | h
  · have hidx : (⟨e.val, Nat.lt_trans e.isLt (by decide)⟩ : Fin 524288)
        = ⟨(0 : Fin 4).val * 131072 + (⟨e.val, h⟩ : Fin 131072).val, by show 0 * 131072 + e.val < 524288; omega⟩ :=
      Fin.ext (by show e.val = 0 * 131072 + e.val; omega)
    rw [hidx, cat4_apply _ _ _ _ hcat 0 ⟨e.val, h⟩ d _]
    exact chunk_out_apply hG x s v zi zf hp hu hu' hc 0 h10 h20 hs ⟨e.val, h⟩ d e (by show 0 + e.val = e.val; omega)
  · have hidx : (⟨e.val, Nat.lt_trans e.isLt (by decide)⟩ : Fin 524288)
        = ⟨(1 : Fin 4).val * 131072 + (⟨e.val - 131072, by omega⟩ : Fin 131072).val,
            by show 1 * 131072 + (e.val - 131072) < 524288; omega⟩ :=
      Fin.ext (by show e.val = 1 * 131072 + (e.val - 131072); omega)
    rw [hidx, cat4_apply _ _ _ _ hcat 1 ⟨e.val - 131072, by omega⟩ d _]
    exact chunk_out_apply hG x s v zi zf hp hu hu' hc 131072 h11 h21 hs ⟨e.val - 131072, by omega⟩ d e
      (by show 131072 + (e.val - 131072) = e.val; omega)
  · have hidx : (⟨e.val, Nat.lt_trans e.isLt (by decide)⟩ : Fin 524288)
        = ⟨(2 : Fin 4).val * 131072 + (⟨e.val - 262144, by omega⟩ : Fin 131072).val,
            by show 2 * 131072 + (e.val - 262144) < 524288; omega⟩ :=
      Fin.ext (by show e.val = 2 * 131072 + (e.val - 262144); omega)
    rw [hidx, cat4_apply _ _ _ _ hcat 2 ⟨e.val - 262144, by omega⟩ d _]
    exact chunk_out_apply hG x s v zi zf hp hu hu' hc 262144 h12 h22 hs ⟨e.val - 262144, by omega⟩ d e
      (by show 262144 + (e.val - 262144) = e.val; omega)
  · have hidx : (⟨e.val, Nat.lt_trans e.isLt (by decide)⟩ : Fin 524288)
        = ⟨(3 : Fin 4).val * 131072 + (⟨e.val - 393216, by omega⟩ : Fin 131072).val,
            by show 3 * 131072 + (e.val - 393216) < 524288; omega⟩ :=
      Fin.ext (by show e.val = 3 * 131072 + (e.val - 393216); omega)
    rw [hidx, cat4_apply _ _ _ _ hcat 3 ⟨e.val - 393216, by omega⟩ d _]
    exact chunk_out_apply hG x s v zi zf hp hu hu' hc 393216 h13 h23 hs ⟨e.val - 393216, by omega⟩ d e
      (by show 393216 + (e.val - 393216) = e.val; omega)

/-- THE REFERENCE'S MESSAGES of one relation, at edge `e` and feature `d`: the edge's value times the embedding row its
    source index names — the wrap of negative indices and the gather's clamp both the identity on a row number. -/
theorem ref_msg_apply (x : FVec Ideal ⟨2, ![100000, 128]⟩ .f32) (s : IVec ⟨1, ![500000]⟩ 32) (v : FVec Ideal ⟨1, ![500000]⟩ .f32)
    (wf : GatherDims.WF ⟨2, ![100000, 128]⟩ ⟨2, ![500000, 1]⟩ ⟨2, ![500000, 128]⟩ [1] [0] [] [0] [] 1 ![1, 128])
    (hb1 : (⟨1, ![500000]⟩ : Shape).BroadcastsInDim ⟨2, ![500000, 1]⟩ ![0])
    (hb2 : (⟨2, ![500000, 1]⟩ : Shape).BroadcastsInDim ⟨2, ![500000, 128]⟩ ![0, 1])
    (hb0 : (⟨0, ![]⟩ : Shape).BroadcastsInDim ⟨1, ![500000]⟩ ![])
    (hs : ∀ e, (s (ix1 e)).toNat < 100000) (e : Fin 500000) (d : Fin 128) :
    mulf (broadcastInDim (⟨2, ![500000, 128]⟩ : Shape) ![0, 1] hb2 (broadcastInDim (⟨2, ![500000, 1]⟩ : Shape) ![0] hb1 v))
        (Host.gather (rowDims 100000 128 500000 wf) x
          (broadcastInDim (⟨2, ![500000, 1]⟩ : Shape) ![0] hb1
            (select (cmpi .slt s (broadcastInDim (⟨1, ![500000]⟩ : Shape) ![] hb0 (constantI ⟨0, ![]⟩ 32 0#32)))
              (addi s (broadcastInDim (⟨1, ![500000]⟩ : Shape) ![] hb0 (constantI ⟨0, ![]⟩ 32 100000#32))) s))) (ix2 e d)
      = v (ix1 e) * x (ix2 ⟨(s (ix1 e)).toNat, hs e⟩ d) := by
  rw [mulf_apply, gather_row_apply (by decide)]
  have hB : broadcastInDim (⟨2, ![500000, 128]⟩ : Shape) ![0, 1] hb2 (broadcastInDim (⟨2, ![500000, 1]⟩ : Shape) ![0] hb1 v) (ix2 e d)
      = v (ix1 e) := by
    rw [← ij_eq_ix2, StableHlo.Predicate.bcast_rows hb1 hb2 v e d, ofFin_eq_ix1]
  have hW : broadcastInDim (⟨2, ![500000, 1]⟩ : Shape) ![0] hb1
      (select (cmpi .slt s (broadcastInDim (⟨1, ![500000]⟩ : Shape) ![] hb0 (constantI ⟨0, ![]⟩ 32 0#32)))
        (addi s (broadcastInDim (⟨1, ![500000]⟩ : Shape) ![] hb0 (constantI ⟨0, ![]⟩ 32 100000#32))) s) (ix2 e (0 : Fin 1))
      = s (ix1 e) := by
    rw [← ixP_eq_ix2, StableHlo.Predicate.bcast_col1 hb1 _ e, ofFin_eq_ix1]
    exact wrap_in_range _ (hs e)
  rw [hB]
  exact congrArg (v (ix1 e) * ·) (row_congr x (by rw [hW]; exact clamp_in_range _ (hs e)) _ _ d)

end Messages

end Cert.Bridge

end
-- ==== Proof.KI.ActValue.lean ====
/-
  The activation-and-sum read at the ideal values, element by element.

  At the extended reals the body's comparison with zero is the order's, its product and sum the reals', so one element
  of a block's result is the sum over the four slabs of `leakyAct` of the block's elements, where `leakyAct y` is `y` when
  `y > 0` and `c * y` otherwise (`c` the value of the single-precision word nearest one hundredth). Row `n` of the
  whole array lies in the slab of rows `2000 (n / 2000) + [0, 2000)` at place `n % 2000`, so the same holds of the
  whole-array function at every row and column.
-/
import proofs.«414509_j14181982011419_2_alg».proof.Proof.KI.ActSpec
import proofs.«414509_j14181982011419_2_alg».proof.Proof.KI.BridgeIdx
import Idealize.ShloMosaic.PureOps.Ideal.Laws
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic

/-- The leaky activation on the extended reals: the identity above zero, the constant's multiple elsewhere. -/
def leakyAct (y : Ideal .f32) : Ideal .f32 := if 0 < y then y else Ideal.ofBits .f32 0x3C23D70A#32 * y

/-- One element of the body's select: the comparison with zero decides between the element and its multiple. -/
theorem select_cmp_eq_leakyAct (y : Ideal .f32) :
    Scalar.select (FloatOps.cmpf .ogt y (Ideal.ofBits .f32 0x00000000#32)) y (Ideal.ofBits .f32 0x3C23D70A#32 * y) = leakyAct y := by
  rw [Ideal.cmpf_def, Ideal.ofBits_zero_f32]
  unfold leakyAct Ideal.cmp
  by_cases h : (0 : EReal) < y
  · rw [if_pos h]; simp only [h, decide_true, BitVec.ofBool_true]; exact ValueIdx.select_one _ _
  · rw [if_neg h]; simp only [h, decide_false, BitVec.ofBool_false]; exact ValueIdx.select_zero _ _

/-- ONE ELEMENT OF A BLOCK'S RESULT: the sum over the four slabs of the leaky activation of the block's elements. -/
theorem actBlock_apply (v : Vec Ideal S4x2000x128 .f32) (j : S2000x128.Idx) :
    actBlock v j = ∑ r : Fin 4, leakyAct (v (ValueIdx.ix3 r (j 0) (j 1))) := by
  have hcast : shapeCast S4x2000x128 v shapeCasts_S4x2000x128_S4x2000x128 = v := shapeCast_self v _
  unfold actBlock
  refine (Ideal.multiReduction_add_single _ _ reduces_S4x2000x128_S2000x128 _ _ j).trans ?_
  refine Finset.sum_congr rfl fun r _ => ?_
  rw [hcast]
  have hidx : reduces_S4x2000x128_S2000x128.lift j r = ValueIdx.ix3 r (j 0) (j 1) := by
    funext a; apply Fin.ext
    match a with
    | ⟨0, _⟩ => rfl
    | ⟨1, _⟩ => rfl
    | ⟨2, _⟩ => rfl
  rw [hidx]
  exact select_cmp_eq_leakyAct _

/-- ONE ELEMENT OF THE WHOLE ARRAY: at row `n`, column `d`, the sum over the four slabs of the leaky activation of
    the input's elements at that row and column. -/
theorem actArr_apply (x : (⟨S4x100000x128, .f32⟩ : BufTy).Contents (Elt Ideal)) (n : Fin 100000) (d : Fin 128) :
    actArr x (ValueIdx.ix2 n d) = ∑ r : Fin 4, leakyAct (x (ValueIdx.ix3 r n d)) := by
  unfold actArr
  rw [actBlock_apply]
  refine Finset.sum_congr rfl fun r _ => ?_
  refine congrArg (fun i => leakyAct (x i)) ?_
  funext a; apply Fin.ext
  match a with
  | ⟨0, _⟩ => rfl
  | ⟨1, _⟩ => show n.val / 2000 * 2000 + n.val % 2000 = n.val; omega
  | ⟨2, _⟩ => rfl

/-- The same with the activation written out: what a reader of the whole-array function needs, naming nothing of this
    module. -/
theorem actArr_apply_ite (x : (⟨S4x100000x128, .f32⟩ : BufTy).Contents (Elt Ideal)) (n : Fin 100000) (d : Fin 128) :
    actArr (F := Ideal) x (ValueIdx.ix2 n d)
      = ∑ r : Fin 4, (if (0 : EReal) < x (ValueIdx.ix3 r n d) then x (ValueIdx.ix3 r n d)
          else Ideal.ofBits .f32 0x3C23D70A#32 * x (ValueIdx.ix3 r n d)) :=
  actArr_apply x n d

/-- The same with the activation named as the rectifier whose slope applies from zero down, at the constant's value. -/
theorem actSpec (a : (⟨S4x100000x128, .f32⟩ : BufTy).Contents (Elt Ideal)) (n : Fin 100000) (d : Fin 128) :
    actArr (F := Ideal) a (ValueIdx.ix2 n d)
      = ∑ r : Fin 4, Cert.Bridge.lreluGt (Ideal.ofBits .f32 0x3C23D70A#32) (a (ValueIdx.ix3 r n d)) :=
  actArr_apply a n d

end Cert.KernelIdeal.HandValue

end
-- ==== Proof.RefRun.lean ====
import proofs.«414509_j14181982011419_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## The reference as a pure term

One layer is, for each of the four relations `r`, a weighted gather–scatter: row `r` of `src` (negative
entries wrapped by the table's height) selects rows of `x`, each scaled by the matching entry of row `r` of
`val`, and the scaled rows are summed into a zero table at the positions row `r` of `dst` gives. The four
tables pass through the leaky rectifier and are added, in order, to a zero table. The reference is two
layers, the second reading the first's result. -/

/-- The zero table. -/
def zeros : (⟨S100000x128, .f32⟩ : BufTy).Contents (Elt F) :=
  broadcastInDim S100000x128 ![] bcast_S_S100000x128 (constant S_ .f32 0x00000000#32)

/-- The leaky rectifier with slope `0.01`: `a` where `a ≥ 0`, else `0.01 · a`. -/
def lrelu (a : (⟨S100000x128, .f32⟩ : BufTy).Contents (Elt F)) : (⟨S100000x128, .f32⟩ : BufTy).Contents (Elt F) :=
  select (cmpf .oge a (broadcastInDim S100000x128 ![] bcast_S_S100000x128 (constant S_ .f32 0x00000000#32)))
    a (mulf (broadcastInDim S100000x128 ![] bcast_S_S100000x128 (id (constant S_ .f32 0x3C23D70A#32))) a)

/-- Row `st 0` of a four-row table, as a vector. -/
def rowOf {e : EltTy} (st : Fin 2 → Nat) (h : S4x500000.Slices st S1x500000)
    (a : (⟨S4x500000, e⟩ : BufTy).Contents (Elt F)) : (⟨S500000, e⟩ : BufTy).Contents (Elt F) :=
  fun i => shapeCast S500000 (extractStridedSlice S1x500000 st a h) shapeCasts_S1x500000_S500000 i

/-- A vector as a one-column table. -/
def col {e : EltTy} (v : (⟨S500000, e⟩ : BufTy).Contents (Elt F)) : (⟨S500000x1, e⟩ : BufTy).Contents (Elt F) :=
  broadcastInDim S500000x1 ![0] bcast_S500000_S500000x1_0 v

/-- Source indices made non-negative: an entry below zero has the table's height `100000` added. -/
def wrapIdx (s : (⟨S500000, .i32⟩ : BufTy).Contents (Elt F)) : (⟨S500000, .i32⟩ : BufTy).Contents (Elt F) :=
  select (cmpi .slt s (broadcastInDim S500000 ![] bcast_S_S500000 (constantI S_ 32 0#32)))
    (addi s (broadcastInDim S500000 ![] bcast_S_S500000 (constantI S_ 32 100000#32))) s

/-- One relation's messages: the rows of `x` its sources select, each scaled by its edge value. -/
def relMsg (st : Fin 2 → Nat) (h : S4x500000.Slices st S1x500000)
    (x : (⟨S100000x128, .f32⟩ : BufTy).Contents (Elt F)) (src : (⟨S4x500000, .i32⟩ : BufTy).Contents (Elt F))
    (val : (⟨S4x500000, .f32⟩ : BufTy).Contents (Elt F)) : (⟨S500000x128, .f32⟩ : BufTy).Contents (Elt F) :=
  mulf (broadcastInDim S500000x128 ![0, 1] bcast_S500000x1_S500000x128_0_1 (col (rowOf st h val)))
    (Host.gather gather_S100000x128_S500000x1_S500000x128_1_0_n_n_0_1_1128 x (col (wrapIdx (rowOf st h src))))

/-- One relation's table: its messages summed at their destinations into the zero table. -/
def refRel (st : Fin 2 → Nat) (h : S4x500000.Slices st S1x500000)
    (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  Host.scatterAdd scatter_S100000x128_S500000x1_S500000x128_1_0_0_1 zeros (col (rowOf st h dst)) (relMsg st h x src val)

/-- One layer: the four relations' rectified tables added, in order, to the zero table. -/
def refLayer (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  addf (addf (addf (addf zeros
    (lrelu (refRel ![0, 0] slices_S4x500000_S1x500000_0_0 x src dst val)))
    (lrelu (refRel ![1, 0] slices_S4x500000_S1x500000_1_0 x src dst val)))
    (lrelu (refRel ![2, 0] slices_S4x500000_S1x500000_2_0 x src dst val)))
    (lrelu (refRel ![3, 0] slices_S4x500000_S1x500000_3_0 x src dst val))

/-- The reference: two layers over the same edges, the second reading the first's result. -/
def refOut (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  refLayer (refLayer x src dst val) src dst val

/-! ## The program as a list of operations -/

/-- Window 0 of the printed program: its 72 host operations, a call's at the call's place. -/
abbrev ops0 : List (HloOp τ sig (Elt F)) :=
  [ StableHlo.nullary main_cst (constant S_ .f32 0x00000000#32),
    StableHlo.unary main_cst main_v0 (broadcastInDim S100000x128 ![] bcast_S_S100000x128 : (⟨S_, .f32⟩ : BufTy).Contents (Elt F) → (⟨S100000x128, .f32⟩ : BufTy).Contents (Elt F)),
    StableHlo.unary main_arg3 main_v1 ((extractStridedSlice S1x500000 ![0, 0] · slices_S4x500000_S1x500000_0_0) : (⟨S4x500000, .f32⟩ : BufTy).Contents (Elt F) → (⟨S1x500000, .f32⟩ : BufTy).Contents (Elt F)),
    StableHlo.reshape main_v1 main_v2 rfl shapeCasts_S1x500000_S500000,
    StableHlo.unary main_v2 main_v3 (broadcastInDim S500000x1 ![0] bcast_S500000_S500000x1_0 : (⟨S500000, .f32⟩ : BufTy).Contents (Elt F) → (⟨S500000x1, .f32⟩ : BufTy).Contents (Elt F)),
    StableHlo.unary main_arg1 main_v4 ((extractStridedSlice S1x500000 ![0, 0] · slices_S4x500000_S1x500000_0_0) : (⟨S4x500000, .i32⟩ : BufTy).Contents (Elt F) → (⟨S1x500000, .i32⟩ : BufTy).Contents (Elt F)),
    StableHlo.reshape main_v4 main_v5 rfl shapeCasts_S1x500000_S500000,
    StableHlo.nullary main_c (constantI S_ 32 0#32),
    StableHlo.unary main_c main_v6 (broadcastInDim S500000 ![] bcast_S_S500000 : (⟨S_, .i32⟩ : BufTy).Contents (Elt F) → (⟨S500000, .i32⟩ : BufTy).Contents (Elt F)),
    StableHlo.binary main_v5 main_v6 main_v7 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v8 (broadcastInDim S500000 ![] bcast_S_S500000 : (⟨S_, .i32⟩ : BufTy).Contents (Elt F) → (⟨S500000, .i32⟩ : BufTy).Contents (Elt F)),
    StableHlo.binary main_v5 main_v8 main_v9 (addi : (⟨S500000, .i32⟩ : BufTy).Contents (Elt F) → (⟨S500000, .i32⟩ : BufTy).Contents (Elt F) → (⟨S500000, .i32⟩ : BufTy).Contents (Elt F)),
    StableHlo.ternary main_v7 main_v9 main_v5 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v10 main_v11 (broadcastInDim S500000x1 ![0] bcast_S500000_S500000x1_0 : (⟨S500000, .i32⟩ : BufTy).Contents (Elt F) → (⟨S500000x1, .i32⟩ : BufTy).Contents (Elt F)),
    StableHlo.binary main_arg0 main_v11 main_v12 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v3 main_v13 (broadcastInDim S500000x128 ![0, 1] bcast_S500000x1_S500000x128_0_1 : (⟨S500000x1, .f32⟩ : BufTy).Contents (Elt F) → (⟨S500000x128, .f32⟩ : BufTy).Contents (Elt F)),
    StableHlo.binary main_v13 main_v12 main_v14 (mulf : (⟨S500000x128, .f32⟩ : BufTy).Contents (Elt F) → (⟨S500000x128, .f32⟩ : BufTy).Contents (Elt F) → (⟨S500000x128, .f32⟩ : BufTy).Contents (Elt F)),
    StableHlo.unary main_arg2 main_v15 ((extractStridedSlice S1x500000 ![0, 0] · slices_S4x500000_S1x500000_0_0) : (⟨S4x500000, .i32⟩ : BufTy).Contents (Elt F) → (⟨S1x500000, .i32⟩ : BufTy).Contents (Elt F)),
    StableHlo.reshape main_v15 main_v16 rfl shapeCasts_S1x500000_S500000,
    StableHlo.nullary main_cst_1 (constant S_ .f32 0x00000000#32),
    StableHlo.unary main_cst_1 main_v17 (broadcastInDim S100000x128 ![] bcast_S_S100000x128 : (⟨S_, .f32⟩ : BufTy).Contents (Elt F) → (⟨S100000x128, .f32⟩ : BufTy).Contents (Elt F)),
    StableHlo.unary main_v16 main_v18 (broadcastInDim S500000x1 ![0] bcast_S500000_S500000x1_0 : (⟨S500000, .i32⟩ : BufTy).Contents (Elt F) → (⟨S500000x1, .i32⟩ : BufTy).Contents (Elt F)),
    StableHlo.ternary main_v17 main_v18 main_v14 main_v19 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_2 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v19) main_call0.v0 main_call0.v1 (cmpf .oge),
    StableHlo.TRef.unary (.of main_cst_2) main_call0.v2 id,
    StableHlo.TRef.unary main_call0.v2 main_call0.v3 (broadcastInDim S100000x128 ![] bcast_S_S100000x128),
    StableHlo.TRef.binary main_call0.v3 (.of main_v19) main_call0.v4 mulf,
    StableHlo.TRef.ternary main_call0.v1 (.of main_v19) main_call0.v4 main_call0.call0.v0 select,
    StableHlo.binary main_v0 main_v20 main_v21 (addf : (⟨S100000x128, .f32⟩ : BufTy).Contents (Elt F) → (⟨S100000x128, .f32⟩ : BufTy).Contents (Elt F) → (⟨S100000x128, .f32⟩ : BufTy).Contents (Elt F)),
    StableHlo.unary main_arg3 main_v22 ((extractStridedSlice S1x500000 ![1, 0] · slices_S4x500000_S1x500000_1_0) : (⟨S4x500000, .f32⟩ : BufTy).Contents (Elt F) → (⟨S1x500000, .f32⟩ : BufTy).Contents (Elt F)),
    StableHlo.reshape main_v22 main_v23 rfl shapeCasts_S1x500000_S500000,
    StableHlo.unary main_v23 main_v24 (broadcastInDim S500000x1 ![0] bcast_S500000_S500000x1_0 : (⟨S500000, .f32⟩ : BufTy).Contents (Elt F) → (⟨S500000x1, .f32⟩ : BufTy).Contents (Elt F)),
    StableHlo.unary main_arg1 main_v25 ((extractStridedSlice S1x500000 ![1, 0] · slices_S4x500000_S1x500000_1_0) : (⟨S4x500000, .i32⟩ : BufTy).Contents (Elt F) → (⟨S1x500000, .i32⟩ : BufTy).Contents (Elt F)),
    StableHlo.reshape main_v25 main_v26 rfl shapeCasts_S1x500000_S500000,
    StableHlo.nullary main_c_3 (constantI S_ 32 0#32),
    StableHlo.unary main_c_3 main_v27 (broadcastInDim S500000 ![] bcast_S_S500000 : (⟨S_, .i32⟩ : BufTy).Contents (Elt F) → (⟨S500000, .i32⟩ : BufTy).Contents (Elt F)),
    StableHlo.binary main_v26 main_v27 main_v28 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 100000#32),
    StableHlo.unary main_c_4 main_v29 (broadcastInDim S500000 ![] bcast_S_S500000 : (⟨S_, .i32⟩ : BufTy).Contents (Elt F) → (⟨S500000, .i32⟩ : BufTy).Contents (Elt F)),
    StableHlo.binary main_v26 main_v29 main_v30 (addi : (⟨S500000, .i32⟩ : BufTy).Contents (Elt F) → (⟨S500000, .i32⟩ : BufTy).Contents (Elt F) → (⟨S500000, .i32⟩ : BufTy).Contents (Elt F)),
    StableHlo.ternary main_v28 main_v30 main_v26 main_v31 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v31 main_v32 (broadcastInDim S500000x1 ![0] bcast_S500000_S500000x1_0 : (⟨S500000, .i32⟩ : BufTy).Contents (Elt F) → (⟨S500000x1, .i32⟩ : BufTy).Contents (Elt F)),
    StableHlo.binary main_arg0 main_v32 main_v33 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v24 main_v34 (broadcastInDim S500000x128 ![0, 1] bcast_S500000x1_S500000x128_0_1 : (⟨S500000x1, .f32⟩ : BufTy).Contents (Elt F) → (⟨S500000x128, .f32⟩ : BufTy).Contents (Elt F)),
    StableHlo.binary main_v34 main_v33 main_v35 (mulf : (⟨S500000x128, .f32⟩ : BufTy).Contents (Elt F) → (⟨S500000x128, .f32⟩ : BufTy).Contents (Elt F) → (⟨S500000x128, .f32⟩ : BufTy).Contents (Elt F)),
    StableHlo.unary main_arg2 main_v36 ((extractStridedSlice S1x500000 ![1, 0] · slices_S4x500000_S1x500000_1_0) : (⟨S4x500000, .i32⟩ : BufTy).Contents (Elt F) → (⟨S1x500000, .i32⟩ : BufTy).Contents (Elt F)),
    StableHlo.reshape main_v36 main_v37 rfl shapeCasts_S1x500000_S500000,
    StableHlo.nullary main_cst_5 (constant S_ .f32 0x00000000#32),
    StableHlo.unary main_cst_5 main_v38 (broadcastInDim S100000x128 ![] bcast_S_S100000x128 : (⟨S_, .f32⟩ : BufTy).Contents (Elt F) → (⟨S100000x128, .f32⟩ : BufTy).Contents (Elt F)),
    StableHlo.unary main_v37 main_v39 (broadcastInDim S500000x1 ![0] bcast_S500000_S500000x1_0 : (⟨S500000, .i32⟩ : BufTy).Contents (Elt F) → (⟨S500000x1, .i32⟩ : BufTy).Contents (Elt F)),
    StableHlo.ternary main_v38 main_v39 main_v35 main_v40 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_6 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v40) main_call1.v0 main_call1.v1 (cmpf .oge),
    StableHlo.TRef.unary (.of main_cst_6) main_call1.v2 id,
    StableHlo.TRef.unary main_call1.v2 main_call1.v3 (broadcastInDim S100000x128 ![] bcast_S_S100000x128),
    StableHlo.TRef.binary main_call1.v3 (.of main_v40) main_call1.v4 mulf,
    StableHlo.TRef.ternary main_call1.v1 (.of main_v40) main_call1.v4 main_call1.call0.v0 select,
    StableHlo.binary main_v21 main_v41 main_v42 (addf : (⟨S100000x128, .f32⟩ : BufTy).Contents (Elt F) → (⟨S100000x128, .f32⟩ : BufTy).Contents (Elt F) → (⟨S100000x128, .f32⟩ : BufTy).Contents (Elt F)),
    StableHlo.unary main_arg3 main_v43 ((extractStridedSlice S1x500000 ![2, 0] · slices_S4x500000_S1x500000_2_0) : (⟨S4x500000, .f32⟩ : BufTy).Contents (Elt F) → (⟨S1x500000, .f32⟩ : BufTy).Contents (Elt F)),
    StableHlo.reshape main_v43 main_v44 rfl shapeCasts_S1x500000_S500000,
    StableHlo.unary main_v44 main_v45 (broadcastInDim S500000x1 ![0] bcast_S500000_S500000x1_0 : (⟨S500000, .f32⟩ : BufTy).Contents (Elt F) → (⟨S500000x1, .f32⟩ : BufTy).Contents (Elt F)),
    StableHlo.unary main_arg1 main_v46 ((extractStridedSlice S1x500000 ![2, 0] · slices_S4x500000_S1x500000_2_0) : (⟨S4x500000, .i32⟩ : BufTy).Contents (Elt F) → (⟨S1x500000, .i32⟩ : BufTy).Contents (Elt F)),
    StableHlo.reshape main_v46 main_v47 rfl shapeCasts_S1x500000_S500000,
    StableHlo.nullary main_c_7 (constantI S_ 32 0#32),
    StableHlo.unary main_c_7 main_v48 (broadcastInDim S500000 ![] bcast_S_S500000 : (⟨S_, .i32⟩ : BufTy).Contents (Elt F) → (⟨S500000, .i32⟩ : BufTy).Contents (Elt F)),
    StableHlo.binary main_v47 main_v48 main_v49 (cmpi .slt : (⟨S500000, .i32⟩ : BufTy).Contents (Elt F) → (⟨S500000, .i32⟩ : BufTy).Contents (Elt F) → (⟨S500000, .i1⟩ : BufTy).Contents (Elt F)) ]

/-- The buffers window 0 writes, in order. -/
abbrev ops0_W : List (Ref sig .tc) :=
  [main_cst, main_v0, main_v1, main_v2, main_v3, main_v4, main_v5, main_c, main_v6, main_v7, main_c_0, main_v8, main_v9, main_v10, main_v11, main_v12, main_v13, main_v14, main_v15, main_v16, main_cst_1, main_v17, main_v18, main_v19, main_cst_2, main_call0_cst, main_call0_v0, main_call0_v1, main_call0_v2, main_call0_v3, main_call0_v4, main_v20, main_v21, main_v22, main_v23, main_v24, main_v25, main_v26, main_c_3, main_v27, main_v28, main_c_4, main_v29, main_v30, main_v31, main_v32, main_v33, main_v34, main_v35, main_v36, main_v37, main_cst_5, main_v38, main_v39, main_v40, main_cst_6, main_call1_cst, main_call1_v0, main_call1_v1, main_call1_v2, main_call1_v3, main_call1_v4, main_v41, main_v42, main_v43, main_v44, main_v45, main_v46, main_v47, main_c_7, main_v48, main_v49]

theorem ops0_sub : (ops0 : List (HloOp τ sig (Elt F))).Forall fun op => op.bufs ⊆ tcRefs τ sig :=
  ⟨nullary_bufs_sub .., unary_bufs_sub .., unary_bufs_sub .., reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., unary_bufs_sub .., reshape_bufs_sub .., nullary_bufs_sub .., unary_bufs_sub .., binary_bufs_sub ..⟩

/-- Window 1 of the printed program: its 72 host operations, a call's at the call's place. -/
abbrev ops1 : List (HloOp τ sig (Elt F)) :=
  [ StableHlo.nullary main_c_8 (constantI S_ 32 100000#32),
    StableHlo.unary main_c_8 main_v50 (broadcastInDim S500000 ![] bcast_S_S500000 : (⟨S_, .i32⟩ : BufTy).Contents (Elt F) → (⟨S500000, .i32⟩ : BufTy).Contents (Elt F)),
    StableHlo.binary main_v47 main_v50 main_v51 (addi : (⟨S500000, .i32⟩ : BufTy).Contents (Elt F) → (⟨S500000, .i32⟩ : BufTy).Contents (Elt F) → (⟨S500000, .i32⟩ : BufTy).Contents (Elt F)),
    StableHlo.ternary main_v49 main_v51 main_v47 main_v52 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v52 main_v53 (broadcastInDim S500000x1 ![0] bcast_S500000_S500000x1_0 : (⟨S500000, .i32⟩ : BufTy).Contents (Elt F) → (⟨S500000x1, .i32⟩ : BufTy).Contents (Elt F)),
    StableHlo.binary main_arg0 main_v53 main_v54 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v45 main_v55 (broadcastInDim S500000x128 ![0, 1] bcast_S500000x1_S500000x128_0_1 : (⟨S500000x1, .f32⟩ : BufTy).Contents (Elt F) → (⟨S500000x128, .f32⟩ : BufTy).Contents (Elt F)),
    StableHlo.binary main_v55 main_v54 main_v56 (mulf : (⟨S500000x128, .f32⟩ : BufTy).Contents (Elt F) → (⟨S500000x128, .f32⟩ : BufTy).Contents (Elt F) → (⟨S500000x128, .f32⟩ : BufTy).Contents (Elt F)),
    StableHlo.unary main_arg2 main_v57 ((extractStridedSlice S1x500000 ![2, 0] · slices_S4x500000_S1x500000_2_0) : (⟨S4x500000, .i32⟩ : BufTy).Contents (Elt F) → (⟨S1x500000, .i32⟩ : BufTy).Contents (Elt F)),
    StableHlo.reshape main_v57 main_v58 rfl shapeCasts_S1x500000_S500000,
    StableHlo.nullary main_cst_9 (constant S_ .f32 0x00000000#32),
    StableHlo.unary main_cst_9 main_v59 (broadcastInDim S100000x128 ![] bcast_S_S100000x128 : (⟨S_, .f32⟩ : BufTy).Contents (Elt F) → (⟨S100000x128, .f32⟩ : BufTy).Contents (Elt F)),
    StableHlo.unary main_v58 main_v60 (broadcastInDim S500000x1 ![0] bcast_S500000_S500000x1_0 : (⟨S500000, .i32⟩ : BufTy).Contents (Elt F) → (⟨S500000x1, .i32⟩ : BufTy).Contents (Elt F)),
    StableHlo.ternary main_v59 main_v60 main_v56 main_v61 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_10 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v61) main_call2.v0 main_call2.v1 (cmpf .oge),
    StableHlo.TRef.unary (.of main_cst_10) main_call2.v2 id,
    StableHlo.TRef.unary main_call2.v2 main_call2.v3 (broadcastInDim S100000x128 ![] bcast_S_S100000x128),
    StableHlo.TRef.binary main_call2.v3 (.of main_v61) main_call2.v4 mulf,
    StableHlo.TRef.ternary main_call2.v1 (.of main_v61) main_call2.v4 main_call2.call0.v0 select,
    StableHlo.binary main_v42 main_v62 main_v63 (addf : (⟨S100000x128, .f32⟩ : BufTy).Contents (Elt F) → (⟨S100000x128, .f32⟩ : BufTy).Contents (Elt F) → (⟨S100000x128, .f32⟩ : BufTy).Contents (Elt F)),
    StableHlo.unary main_arg3 main_v64 ((extractStridedSlice S1x500000 ![3, 0] · slices_S4x500000_S1x500000_3_0) : (⟨S4x500000, .f32⟩ : BufTy).Contents (Elt F) → (⟨S1x500000, .f32⟩ : BufTy).Contents (Elt F)),
    StableHlo.reshape main_v64 main_v65 rfl shapeCasts_S1x500000_S500000,
    StableHlo.unary main_v65 main_v66 (broadcastInDim S500000x1 ![0] bcast_S500000_S500000x1_0 : (⟨S500000, .f32⟩ : BufTy).Contents (Elt F) → (⟨S500000x1, .f32⟩ : BufTy).Contents (Elt F)),
    StableHlo.unary main_arg1 main_v67 ((extractStridedSlice S1x500000 ![3, 0] · slices_S4x500000_S1x500000_3_0) : (⟨S4x500000, .i32⟩ : BufTy).Contents (Elt F) → (⟨S1x500000, .i32⟩ : BufTy).Contents (Elt F)),
    StableHlo.reshape main_v67 main_v68 rfl shapeCasts_S1x500000_S500000,
    StableHlo.nullary main_c_11 (constantI S_ 32 0#32),
    StableHlo.unary main_c_11 main_v69 (broadcastInDim S500000 ![] bcast_S_S500000 : (⟨S_, .i32⟩ : BufTy).Contents (Elt F) → (⟨S500000, .i32⟩ : BufTy).Contents (Elt F)),
    StableHlo.binary main_v68 main_v69 main_v70 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 100000#32),
    StableHlo.unary main_c_12 main_v71 (broadcastInDim S500000 ![] bcast_S_S500000 : (⟨S_, .i32⟩ : BufTy).Contents (Elt F) → (⟨S500000, .i32⟩ : BufTy).Contents (Elt F)),
    StableHlo.binary main_v68 main_v71 main_v72 (addi : (⟨S500000, .i32⟩ : BufTy).Contents (Elt F) → (⟨S500000, .i32⟩ : BufTy).Contents (Elt F) → (⟨S500000, .i32⟩ : BufTy).Contents (Elt F)),
    StableHlo.ternary main_v70 main_v72 main_v68 main_v73 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v73 main_v74 (broadcastInDim S500000x1 ![0] bcast_S500000_S500000x1_0 : (⟨S500000, .i32⟩ : BufTy).Contents (Elt F) → (⟨S500000x1, .i32⟩ : BufTy).Contents (Elt F)),
    StableHlo.binary main_arg0 main_v74 main_v75 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v66 main_v76 (broadcastInDim S500000x128 ![0, 1] bcast_S500000x1_S500000x128_0_1 : (⟨S500000x1, .f32⟩ : BufTy).Contents (Elt F) → (⟨S500000x128, .f32⟩ : BufTy).Contents (Elt F)),
    StableHlo.binary main_v76 main_v75 main_v77 (mulf : (⟨S500000x128, .f32⟩ : BufTy).Contents (Elt F) → (⟨S500000x128, .f32⟩ : BufTy).Contents (Elt F) → (⟨S500000x128, .f32⟩ : BufTy).Contents (Elt F)),
    StableHlo.unary main_arg2 main_v78 ((extractStridedSlice S1x500000 ![3, 0] · slices_S4x500000_S1x500000_3_0) : (⟨S4x500000, .i32⟩ : BufTy).Contents (Elt F) → (⟨S1x500000, .i32⟩ : BufTy).Contents (Elt F)),
    StableHlo.reshape main_v78 main_v79 rfl shapeCasts_S1x500000_S500000,
    StableHlo.nullary main_cst_13 (constant S_ .f32 0x00000000#32),
    StableHlo.unary main_cst_13 main_v80 (broadcastInDim S100000x128 ![] bcast_S_S100000x128 : (⟨S_, .f32⟩ : BufTy).Contents (Elt F) → (⟨S100000x128, .f32⟩ : BufTy).Contents (Elt F)),
    StableHlo.unary main_v79 main_v81 (broadcastInDim S500000x1 ![0] bcast_S500000_S500000x1_0 : (⟨S500000, .i32⟩ : BufTy).Contents (Elt F) → (⟨S500000x1, .i32⟩ : BufTy).Contents (Elt F)),
    StableHlo.ternary main_v80 main_v81 main_v77 main_v82 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_14 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v82) main_call3.v0 main_call3.v1 (cmpf .oge),
    StableHlo.TRef.unary (.of main_cst_14) main_call3.v2 id,
    StableHlo.TRef.unary main_call3.v2 main_call3.v3 (broadcastInDim S100000x128 ![] bcast_S_S100000x128),
    StableHlo.TRef.binary main_call3.v3 (.of main_v82) main_call3.v4 mulf,
    StableHlo.TRef.ternary main_call3.v1 (.of main_v82) main_call3.v4 main_call3.call0.v0 select,
    StableHlo.binary main_v63 main_v83 main_v84 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.unary main_cst_15 main_v85 (broadcastInDim S100000x128 ![] bcast_S_S100000x128 : (⟨S_, .f32⟩ : BufTy).Contents (Elt F) → (⟨S100000x128, .f32⟩ : BufTy).Contents (Elt F)),
    StableHlo.unary main_arg3 main_v86 ((extractStridedSlice S1x500000 ![0, 0] · slices_S4x500000_S1x500000_0_0) : (⟨S4x500000, .f32⟩ : BufTy).Contents (Elt F) → (⟨S1x500000, .f32⟩ : BufTy).Contents (Elt F)),
    StableHlo.reshape main_v86 main_v87 rfl shapeCasts_S1x500000_S500000,
    StableHlo.unary main_v87 main_v88 (broadcastInDim S500000x1 ![0] bcast_S500000_S500000x1_0 : (⟨S500000, .f32⟩ : BufTy).Contents (Elt F) → (⟨S500000x1, .f32⟩ : BufTy).Contents (Elt F)),
    StableHlo.unary main_arg1 main_v89 ((extractStridedSlice S1x500000 ![0, 0] · slices_S4x500000_S1x500000_0_0) : (⟨S4x500000, .i32⟩ : BufTy).Contents (Elt F) → (⟨S1x500000, .i32⟩ : BufTy).Contents (Elt F)),
    StableHlo.reshape main_v89 main_v90 rfl shapeCasts_S1x500000_S500000,
    StableHlo.nullary main_c_16 (constantI S_ 32 0#32),
    StableHlo.unary main_c_16 main_v91 (broadcastInDim S500000 ![] bcast_S_S500000 : (⟨S_, .i32⟩ : BufTy).Contents (Elt F) → (⟨S500000, .i32⟩ : BufTy).Contents (Elt F)),
    StableHlo.binary main_v90 main_v91 main_v92 (cmpi .slt : (⟨S500000, .i32⟩ : BufTy).Contents (Elt F) → (⟨S500000, .i32⟩ : BufTy).Contents (Elt F) → (⟨S500000, .i1⟩ : BufTy).Contents (Elt F)),
    StableHlo.nullary main_c_17 (constantI S_ 32 100000#32),
    StableHlo.unary main_c_17 main_v93 (broadcastInDim S500000 ![] bcast_S_S500000 : (⟨S_, .i32⟩ : BufTy).Contents (Elt F) → (⟨S500000, .i32⟩ : BufTy).Contents (Elt F)),
    StableHlo.binary main_v90 main_v93 main_v94 (addi : (⟨S500000, .i32⟩ : BufTy).Contents (Elt F) → (⟨S500000, .i32⟩ : BufTy).Contents (Elt F) → (⟨S500000, .i32⟩ : BufTy).Contents (Elt F)),
    StableHlo.ternary main_v92 main_v94 main_v90 main_v95 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v95 main_v96 (broadcastInDim S500000x1 ![0] bcast_S500000_S500000x1_0 : (⟨S500000, .i32⟩ : BufTy).Contents (Elt F) → (⟨S500000x1, .i32⟩ : BufTy).Contents (Elt F)),
    StableHlo.binary main_v84 main_v96 main_v97 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v88 main_v98 (broadcastInDim S500000x128 ![0, 1] bcast_S500000x1_S500000x128_0_1 : (⟨S500000x1, .f32⟩ : BufTy).Contents (Elt F) → (⟨S500000x128, .f32⟩ : BufTy).Contents (Elt F)),
    StableHlo.binary main_v98 main_v97 main_v99 (mulf : (⟨S500000x128, .f32⟩ : BufTy).Contents (Elt F) → (⟨S500000x128, .f32⟩ : BufTy).Contents (Elt F) → (⟨S500000x128, .f32⟩ : BufTy).Contents (Elt F)) ]

/-- The buffers window 1 writes, in order. -/
abbrev ops1_W : List (Ref sig .tc) :=
  [main_c_8, main_v50, main_v51, main_v52, main_v53, main_v54, main_v55, main_v56, main_v57, main_v58, main_cst_9, main_v59, main_v60, main_v61, main_cst_10, main_call2_cst, main_call2_v0, main_call2_v1, main_call2_v2, main_call2_v3, main_call2_v4, main_v62, main_v63, main_v64, main_v65, main_v66, main_v67, main_v68, main_c_11, main_v69, main_v70, main_c_12, main_v71, main_v72, main_v73, main_v74, main_v75, main_v76, main_v77, main_v78, main_v79, main_cst_13, main_v80, main_v81, main_v82, main_cst_14, main_call3_cst, main_call3_v0, main_call3_v1, main_call3_v2, main_call3_v3, main_call3_v4, main_v83, main_v84, main_cst_15, main_v85, main_v86, main_v87, main_v88, main_v89, main_v90, main_c_16, main_v91, main_v92, main_c_17, main_v93, main_v94, main_v95, main_v96, main_v97, main_v98, main_v99]

theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., unary_bufs_sub .., reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

/-- Window 2 of the printed program: its 78 host operations, a call's at the call's place. -/
abbrev ops2 : List (HloOp τ sig (Elt F)) :=
  [ StableHlo.unary main_arg2 main_v100 ((extractStridedSlice S1x500000 ![0, 0] · slices_S4x500000_S1x500000_0_0) : (⟨S4x500000, .i32⟩ : BufTy).Contents (Elt F) → (⟨S1x500000, .i32⟩ : BufTy).Contents (Elt F)),
    StableHlo.reshape main_v100 main_v101 rfl shapeCasts_S1x500000_S500000,
    StableHlo.nullary main_cst_18 (constant S_ .f32 0x00000000#32),
    StableHlo.unary main_cst_18 main_v102 (broadcastInDim S100000x128 ![] bcast_S_S100000x128 : (⟨S_, .f32⟩ : BufTy).Contents (Elt F) → (⟨S100000x128, .f32⟩ : BufTy).Contents (Elt F)),
    StableHlo.unary main_v101 main_v103 (broadcastInDim S500000x1 ![0] bcast_S500000_S500000x1_0 : (⟨S500000, .i32⟩ : BufTy).Contents (Elt F) → (⟨S500000x1, .i32⟩ : BufTy).Contents (Elt F)),
    StableHlo.ternary main_v102 main_v103 main_v99 main_v104 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_19 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v104) main_call4.v0 main_call4.v1 (cmpf .oge),
    StableHlo.TRef.unary (.of main_cst_19) main_call4.v2 id,
    StableHlo.TRef.unary main_call4.v2 main_call4.v3 (broadcastInDim S100000x128 ![] bcast_S_S100000x128),
    StableHlo.TRef.binary main_call4.v3 (.of main_v104) main_call4.v4 mulf,
    StableHlo.TRef.ternary main_call4.v1 (.of main_v104) main_call4.v4 main_call4.call0.v0 select,
    StableHlo.binary main_v85 main_v105 main_v106 (addf : (⟨S100000x128, .f32⟩ : BufTy).Contents (Elt F) → (⟨S100000x128, .f32⟩ : BufTy).Contents (Elt F) → (⟨S100000x128, .f32⟩ : BufTy).Contents (Elt F)),
    StableHlo.unary main_arg3 main_v107 ((extractStridedSlice S1x500000 ![1, 0] · slices_S4x500000_S1x500000_1_0) : (⟨S4x500000, .f32⟩ : BufTy).Contents (Elt F) → (⟨S1x500000, .f32⟩ : BufTy).Contents (Elt F)),
    StableHlo.reshape main_v107 main_v108 rfl shapeCasts_S1x500000_S500000,
    StableHlo.unary main_v108 main_v109 (broadcastInDim S500000x1 ![0] bcast_S500000_S500000x1_0 : (⟨S500000, .f32⟩ : BufTy).Contents (Elt F) → (⟨S500000x1, .f32⟩ : BufTy).Contents (Elt F)),
    StableHlo.unary main_arg1 main_v110 ((extractStridedSlice S1x500000 ![1, 0] · slices_S4x500000_S1x500000_1_0) : (⟨S4x500000, .i32⟩ : BufTy).Contents (Elt F) → (⟨S1x500000, .i32⟩ : BufTy).Contents (Elt F)),
    StableHlo.reshape main_v110 main_v111 rfl shapeCasts_S1x500000_S500000,
    StableHlo.nullary main_c_20 (constantI S_ 32 0#32),
    StableHlo.unary main_c_20 main_v112 (broadcastInDim S500000 ![] bcast_S_S500000 : (⟨S_, .i32⟩ : BufTy).Contents (Elt F) → (⟨S500000, .i32⟩ : BufTy).Contents (Elt F)),
    StableHlo.binary main_v111 main_v112 main_v113 (cmpi .slt : (⟨S500000, .i32⟩ : BufTy).Contents (Elt F) → (⟨S500000, .i32⟩ : BufTy).Contents (Elt F) → (⟨S500000, .i1⟩ : BufTy).Contents (Elt F)),
    StableHlo.nullary main_c_21 (constantI S_ 32 100000#32),
    StableHlo.unary main_c_21 main_v114 (broadcastInDim S500000 ![] bcast_S_S500000 : (⟨S_, .i32⟩ : BufTy).Contents (Elt F) → (⟨S500000, .i32⟩ : BufTy).Contents (Elt F)),
    StableHlo.binary main_v111 main_v114 main_v115 (addi : (⟨S500000, .i32⟩ : BufTy).Contents (Elt F) → (⟨S500000, .i32⟩ : BufTy).Contents (Elt F) → (⟨S500000, .i32⟩ : BufTy).Contents (Elt F)),
    StableHlo.ternary main_v113 main_v115 main_v111 main_v116 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v116 main_v117 (broadcastInDim S500000x1 ![0] bcast_S500000_S500000x1_0 : (⟨S500000, .i32⟩ : BufTy).Contents (Elt F) → (⟨S500000x1, .i32⟩ : BufTy).Contents (Elt F)),
    StableHlo.binary main_v84 main_v117 main_v118 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v109 main_v119 (broadcastInDim S500000x128 ![0, 1] bcast_S500000x1_S500000x128_0_1 : (⟨S500000x1, .f32⟩ : BufTy).Contents (Elt F) → (⟨S500000x128, .f32⟩ : BufTy).Contents (Elt F)),
    StableHlo.binary main_v119 main_v118 main_v120 (mulf : (⟨S500000x128, .f32⟩ : BufTy).Contents (Elt F) → (⟨S500000x128, .f32⟩ : BufTy).Contents (Elt F) → (⟨S500000x128, .f32⟩ : BufTy).Contents (Elt F)),
    StableHlo.unary main_arg2 main_v121 ((extractStridedSlice S1x500000 ![1, 0] · slices_S4x500000_S1x500000_1_0) : (⟨S4x500000, .i32⟩ : BufTy).Contents (Elt F) → (⟨S1x500000, .i32⟩ : BufTy).Contents (Elt F)),
    StableHlo.reshape main_v121 main_v122 rfl shapeCasts_S1x500000_S500000,
    StableHlo.nullary main_cst_22 (constant S_ .f32 0x00000000#32),
    StableHlo.unary main_cst_22 main_v123 (broadcastInDim S100000x128 ![] bcast_S_S100000x128 : (⟨S_, .f32⟩ : BufTy).Contents (Elt F) → (⟨S100000x128, .f32⟩ : BufTy).Contents (Elt F)),
    StableHlo.unary main_v122 main_v124 (broadcastInDim S500000x1 ![0] bcast_S500000_S500000x1_0 : (⟨S500000, .i32⟩ : BufTy).Contents (Elt F) → (⟨S500000x1, .i32⟩ : BufTy).Contents (Elt F)),
    StableHlo.ternary main_v123 main_v124 main_v120 main_v125 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_23 (constant S_ .f32 0x3C23D70A#32),
    StableHlo.TRef.nullary main_call5.cst (constant S_ .f32 0x00000000#32),
    StableHlo.TRef.unary main_call5.cst main_call5.v0 (broadcastInDim S100000x128 ![] bcast_S_S100000x128),
    StableHlo.TRef.binary (.of main_v125) main_call5.v0 main_call5.v1 (cmpf .oge),
    StableHlo.TRef.unary (.of main_cst_23) main_call5.v2 id,
    StableHlo.TRef.unary main_call5.v2 main_call5.v3 (broadcastInDim S100000x128 ![] bcast_S_S100000x128),
    StableHlo.TRef.binary main_call5.v3 (.of main_v125) main_call5.v4 mulf,
    StableHlo.TRef.ternary main_call5.v1 (.of main_v125) main_call5.v4 main_call5.call0.v0 select,
    StableHlo.binary main_v106 main_v126 main_v127 (addf : (⟨S100000x128, .f32⟩ : BufTy).Contents (Elt F) → (⟨S100000x128, .f32⟩ : BufTy).Contents (Elt F) → (⟨S100000x128, .f32⟩ : BufTy).Contents (Elt F)),
    StableHlo.unary main_arg3 main_v128 ((extractStridedSlice S1x500000 ![2, 0] · slices_S4x500000_S1x500000_2_0) : (⟨S4x500000, .f32⟩ : BufTy).Contents (Elt F) → (⟨S1x500000, .f32⟩ : BufTy).Contents (Elt F)),
    StableHlo.reshape main_v128 main_v129 rfl shapeCasts_S1x500000_S500000,
    StableHlo.unary main_v129 main_v130 (broadcastInDim S500000x1 ![0] bcast_S500000_S500000x1_0 : (⟨S500000, .f32⟩ : BufTy).Contents (Elt F) → (⟨S500000x1, .f32⟩ : BufTy).Contents (Elt F)),
    StableHlo.unary main_arg1 main_v131 ((extractStridedSlice S1x500000 ![2, 0] · slices_S4x500000_S1x500000_2_0) : (⟨S4x500000, .i32⟩ : BufTy).Contents (Elt F) → (⟨S1x500000, .i32⟩ : BufTy).Contents (Elt F)),
    StableHlo.reshape main_v131 main_v132 rfl shapeCasts_S1x500000_S500000,
    StableHlo.nullary main_c_24 (constantI S_ 32 0#32),
    StableHlo.unary main_c_24 main_v133 (broadcastInDim S500000 ![] bcast_S_S500000 : (⟨S_, .i32⟩ : BufTy).Contents (Elt F) → (⟨S500000, .i32⟩ : BufTy).Contents (Elt F)),
    StableHlo.binary main_v132 main_v133 main_v134 (cmpi .slt : (⟨S500000, .i32⟩ : BufTy).Contents (Elt F) → (⟨S500000, .i32⟩ : BufTy).Contents (Elt F) → (⟨S500000, .i1⟩ : BufTy).Contents (Elt F)),
    StableHlo.nullary main_c_25 (constantI S_ 32 100000#32),
    StableHlo.unary main_c_25 main_v135 (broadcastInDim S500000 ![] bcast_S_S500000 : (⟨S_, .i32⟩ : BufTy).Contents (Elt F) → (⟨S500000, .i32⟩ : BufTy).Contents (Elt F)),
    StableHlo.binary main_v132 main_v135 main_v136 (addi : (⟨S500000, .i32⟩ : BufTy).Contents (Elt F) → (⟨S500000, .i32⟩ : BufTy).Contents (Elt F) → (⟨S500000, .i32⟩ : BufTy).Contents (Elt F)),
    StableHlo.ternary main_v134 main_v136 main_v132 main_v137 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v137 main_v138 (broadcastInDim S500000x1 ![0] bcast_S500000_S500000x1_0 : (⟨S500000, .i32⟩ : BufTy).Contents (Elt F) → (⟨S500000x1, .i32⟩ : BufTy).Contents (Elt F)),
    StableHlo.binary main_v84 main_v138 main_v139 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v130 main_v140 (broadcastInDim S500000x128 ![0, 1] bcast_S500000x1_S500000x128_0_1 : (⟨S500000x1, .f32⟩ : BufTy).Contents (Elt F) → (⟨S500000x128, .f32⟩ : BufTy).Contents (Elt F)),
    StableHlo.binary main_v140 main_v139 main_v141 (mulf : (⟨S500000x128, .f32⟩ : BufTy).Contents (Elt F) → (⟨S500000x128, .f32⟩ : BufTy).Contents (Elt F) → (⟨S500000x128, .f32⟩ : BufTy).Contents (Elt F)),
    StableHlo.unary main_arg2 main_v142 ((extractStridedSlice S1x500000 ![2, 0] · slices_S4x500000_S1x500000_2_0) : (⟨S4x500000, .i32⟩ : BufTy).Contents (Elt F) → (⟨S1x500000, .i32⟩ : BufTy).Contents (Elt F)),
    StableHlo.reshape main_v142 main_v143 rfl shapeCasts_S1x500000_S500000,
    StableHlo.nullary main_cst_26 (constant S_ .f32 0x00000000#32),
    StableHlo.unary main_cst_26 main_v144 (broadcastInDim S100000x128 ![] bcast_S_S100000x128 : (⟨S_, .f32⟩ : BufTy).Contents (Elt F) → (⟨S100000x128, .f32⟩ : BufTy).Contents (Elt F)),
    StableHlo.unary main_v143 main_v145 (broadcastInDim S500000x1 ![0] bcast_S500000_S500000x1_0 : (⟨S500000, .i32⟩ : BufTy).Contents (Elt F) → (⟨S500000x1, .i32⟩ : BufTy).Contents (Elt F)),
    StableHlo.ternary main_v144 main_v145 main_v141 main_v146 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_27 (constant S_ .f32 0x3C23D70A#32),
    StableHlo.TRef.nullary main_call6.cst (constant S_ .f32 0x00000000#32),
    StableHlo.TRef.unary main_call6.cst main_call6.v0 (broadcastInDim S100000x128 ![] bcast_S_S100000x128),
    StableHlo.TRef.binary (.of main_v146) main_call6.v0 main_call6.v1 (cmpf .oge),
    StableHlo.TRef.unary (.of main_cst_27) main_call6.v2 id,
    StableHlo.TRef.unary main_call6.v2 main_call6.v3 (broadcastInDim S100000x128 ![] bcast_S_S100000x128),
    StableHlo.TRef.binary main_call6.v3 (.of main_v146) main_call6.v4 mulf,
    StableHlo.TRef.ternary main_call6.v1 (.of main_v146) main_call6.v4 main_call6.call0.v0 select,
    StableHlo.binary main_v127 main_v147 main_v148 (addf : (⟨S100000x128, .f32⟩ : BufTy).Contents (Elt F) → (⟨S100000x128, .f32⟩ : BufTy).Contents (Elt F) → (⟨S100000x128, .f32⟩ : BufTy).Contents (Elt F)),
    StableHlo.unary main_arg3 main_v149 ((extractStridedSlice S1x500000 ![3, 0] · slices_S4x500000_S1x500000_3_0) : (⟨S4x500000, .f32⟩ : BufTy).Contents (Elt F) → (⟨S1x500000, .f32⟩ : BufTy).Contents (Elt F)) ]

/-- The buffers window 2 writes, in order. -/
abbrev ops2_W : List (Ref sig .tc) :=
  [main_v100, main_v101, main_cst_18, main_v102, main_v103, main_v104, main_cst_19, main_call4_cst, main_call4_v0, main_call4_v1, main_call4_v2, main_call4_v3, main_call4_v4, main_v105, main_v106, main_v107, main_v108, main_v109, main_v110, main_v111, main_c_20, main_v112, main_v113, main_c_21, main_v114, main_v115, main_v116, main_v117, main_v118, main_v119, main_v120, main_v121, main_v122, main_cst_22, main_v123, main_v124, main_v125, main_cst_23, main_call5_cst, main_call5_v0, main_call5_v1, main_call5_v2, main_call5_v3, main_call5_v4, main_v126, main_v127, main_v128, main_v129, main_v130, main_v131, main_v132, main_c_24, main_v133, main_v134, main_c_25, main_v135, main_v136, main_v137, main_v138, main_v139, main_v140, main_v141, main_v142, main_v143, main_cst_26, main_v144, main_v145, main_v146, main_cst_27, main_call6_cst, main_call6_v0, main_call6_v1, main_call6_v2, main_call6_v3, main_call6_v4, main_v147, main_v148, main_v149]

theorem ops2_sub : (ops2 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub ..⟩

/-- Window 3 of the printed program: its 30 host operations, a call's at the call's place. -/
abbrev ops3 : List (HloOp τ sig (Elt F)) :=
  [ StableHlo.reshape main_v149 main_v150 rfl shapeCasts_S1x500000_S500000,
    StableHlo.unary main_v150 main_v151 (broadcastInDim S500000x1 ![0] bcast_S500000_S500000x1_0 : (⟨S500000, .f32⟩ : BufTy).Contents (Elt F) → (⟨S500000x1, .f32⟩ : BufTy).Contents (Elt F)),
    StableHlo.unary main_arg1 main_v152 ((extractStridedSlice S1x500000 ![3, 0] · slices_S4x500000_S1x500000_3_0) : (⟨S4x500000, .i32⟩ : BufTy).Contents (Elt F) → (⟨S1x500000, .i32⟩ : BufTy).Contents (Elt F)),
    StableHlo.reshape main_v152 main_v153 rfl shapeCasts_S1x500000_S500000,
    StableHlo.nullary main_c_28 (constantI S_ 32 0#32),
    StableHlo.unary main_c_28 main_v154 (broadcastInDim S500000 ![] bcast_S_S500000 : (⟨S_, .i32⟩ : BufTy).Contents (Elt F) → (⟨S500000, .i32⟩ : BufTy).Contents (Elt F)),
    StableHlo.binary main_v153 main_v154 main_v155 (cmpi .slt : (⟨S500000, .i32⟩ : BufTy).Contents (Elt F) → (⟨S500000, .i32⟩ : BufTy).Contents (Elt F) → (⟨S500000, .i1⟩ : BufTy).Contents (Elt F)),
    StableHlo.nullary main_c_29 (constantI S_ 32 100000#32),
    StableHlo.unary main_c_29 main_v156 (broadcastInDim S500000 ![] bcast_S_S500000 : (⟨S_, .i32⟩ : BufTy).Contents (Elt F) → (⟨S500000, .i32⟩ : BufTy).Contents (Elt F)),
    StableHlo.binary main_v153 main_v156 main_v157 (addi : (⟨S500000, .i32⟩ : BufTy).Contents (Elt F) → (⟨S500000, .i32⟩ : BufTy).Contents (Elt F) → (⟨S500000, .i32⟩ : BufTy).Contents (Elt F)),
    StableHlo.ternary main_v155 main_v157 main_v153 main_v158 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v158 main_v159 (broadcastInDim S500000x1 ![0] bcast_S500000_S500000x1_0 : (⟨S500000, .i32⟩ : BufTy).Contents (Elt F) → (⟨S500000x1, .i32⟩ : BufTy).Contents (Elt F)),
    StableHlo.binary main_v84 main_v159 main_v160 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_v151 main_v161 (broadcastInDim S500000x128 ![0, 1] bcast_S500000x1_S500000x128_0_1 : (⟨S500000x1, .f32⟩ : BufTy).Contents (Elt F) → (⟨S500000x128, .f32⟩ : BufTy).Contents (Elt F)),
    StableHlo.binary main_v161 main_v160 main_v162 (mulf : (⟨S500000x128, .f32⟩ : BufTy).Contents (Elt F) → (⟨S500000x128, .f32⟩ : BufTy).Contents (Elt F) → (⟨S500000x128, .f32⟩ : BufTy).Contents (Elt F)),
    StableHlo.unary main_arg2 main_v163 ((extractStridedSlice S1x500000 ![3, 0] · slices_S4x500000_S1x500000_3_0) : (⟨S4x500000, .i32⟩ : BufTy).Contents (Elt F) → (⟨S1x500000, .i32⟩ : BufTy).Contents (Elt F)),
    StableHlo.reshape main_v163 main_v164 rfl shapeCasts_S1x500000_S500000,
    StableHlo.nullary main_cst_30 (constant S_ .f32 0x00000000#32),
    StableHlo.unary main_cst_30 main_v165 (broadcastInDim S100000x128 ![] bcast_S_S100000x128 : (⟨S_, .f32⟩ : BufTy).Contents (Elt F) → (⟨S100000x128, .f32⟩ : BufTy).Contents (Elt F)),
    StableHlo.unary main_v164 main_v166 (broadcastInDim S500000x1 ![0] bcast_S500000_S500000x1_0 : (⟨S500000, .i32⟩ : BufTy).Contents (Elt F) → (⟨S500000x1, .i32⟩ : BufTy).Contents (Elt F)),
    StableHlo.ternary main_v165 main_v166 main_v162 main_v167 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_31 (constant S_ .f32 0x3C23D70A#32),
    StableHlo.TRef.nullary main_call7.cst (constant S_ .f32 0x00000000#32),
    StableHlo.TRef.unary main_call7.cst main_call7.v0 (broadcastInDim S100000x128 ![] bcast_S_S100000x128),
    StableHlo.TRef.binary (.of main_v167) main_call7.v0 main_call7.v1 (cmpf .oge),
    StableHlo.TRef.unary (.of main_cst_31) main_call7.v2 id,
    StableHlo.TRef.unary main_call7.v2 main_call7.v3 (broadcastInDim S100000x128 ![] bcast_S_S100000x128),
    StableHlo.TRef.binary main_call7.v3 (.of main_v167) main_call7.v4 mulf,
    StableHlo.TRef.ternary main_call7.v1 (.of main_v167) main_call7.v4 main_call7.call0.v0 select,
    StableHlo.binary main_v148 main_v168 main_v169 (addf : (⟨S100000x128, .f32⟩ : BufTy).Contents (Elt F) → (⟨S100000x128, .f32⟩ : BufTy).Contents (Elt F) → (⟨S100000x128, .f32⟩ : BufTy).Contents (Elt F)) ]

/-- The buffers window 3 writes, in order. -/
abbrev ops3_W : List (Ref sig .tc) :=
  [main_v150, main_v151, main_v152, main_v153, main_c_28, main_v154, main_v155, main_c_29, main_v156, main_v157, main_v158, main_v159, main_v160, main_v161, main_v162, main_v163, main_v164, main_cst_30, main_v165, main_v166, main_v167, main_cst_31, main_call7_cst, main_call7_v0, main_call7_v1, main_call7_v2, main_call7_v3, main_call7_v4, main_v168, main_v169]

theorem ops3_sub : (ops3 : List (HloOp τ sig (Elt F))).Forall fun op => op.bufs ⊆ tcRefs τ sig :=
  ⟨reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub ..⟩

/-- The whole program's operations: the four windows in order. -/
abbrev ops : List (HloOp τ sig (Elt F)) := ops0 ++ (ops1 ++ (ops2 ++ ops3))

set_option maxRecDepth 4096 in
theorem main_part0_eq (c : Dev nD) : main_part0 (F := F) c = seq ops0 := rfl
set_option maxRecDepth 4096 in
theorem main_part1_eq (c : Dev nD) : main_part1 (F := F) c = seq ops1 := rfl
set_option maxRecDepth 4096 in
theorem main_part2_eq (c : Dev nD) : main_part2 (F := F) c = seq ops2 := rfl
set_option maxRecDepth 4096 in
theorem main_part3_eq (c : Dev nD) : main_part3 (F := F) c = seq ops3 := rfl

/-- The program is its operations run in order: window by window, two lines run one after the other being
    their concatenation run as one. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- The contents after two lines run in order are the second line's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The contents window by window -/

/-- The contents after the first window, from any contents `V0`. -/
def val1 (V0 : Valuation τ sig (Elt F)) : Valuation τ sig (Elt F) := after ops0 V0
/-- The contents after the first two windows. -/
def val2 (V0 : Valuation τ sig (Elt F)) : Valuation τ sig (Elt F) := after ops1 (val1 V0)
/-- The contents after the first three windows. -/
def val3 (V0 : Valuation τ sig (Elt F)) : Valuation τ sig (Elt F) := after ops2 (val2 V0)
/-- The contents after all four windows. -/
def val4 (V0 : Valuation τ sig (Elt F)) : Valuation τ sig (Elt F) := after ops3 (val3 V0)

theorem after_ops (V0 : Valuation τ sig (Elt F)) : after ops V0 = val4 V0 := by
  simp only [ops, after_append]
  rfl

set_option maxRecDepth 4096 in
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 4096 in
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 4096 in
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 4096 in
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-! ### The partial sums of a layer -/

/-- A layer's sum after its first two relations. -/
def acc2 (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  addf (addf zeros
    (lrelu (refRel ![0, 0] slices_S4x500000_S1x500000_0_0 x src dst val)))
    (lrelu (refRel ![1, 0] slices_S4x500000_S1x500000_1_0 x src dst val))

/-- A layer's sum after its first three relations. -/
def acc3 (x : (⟨S100000x128, .f32⟩ : BufTy).Contents (Elt F)) (src dst : (⟨S4x500000, .i32⟩ : BufTy).Contents (Elt F))
    (val : (⟨S4x500000, .f32⟩ : BufTy).Contents (Elt F)) : (⟨S100000x128, .f32⟩ : BufTy).Contents (Elt F) :=
  addf (acc2 x src dst val) (lrelu (refRel ![2, 0] slices_S4x500000_S1x500000_2_0 x src dst val))

theorem refLayer_eq_acc3 (x : (⟨S100000x128, .f32⟩ : BufTy).Contents (Elt F)) (src dst : (⟨S4x500000, .i32⟩ : BufTy).Contents (Elt F))
    (val : (⟨S4x500000, .f32⟩ : BufTy).Contents (Elt F)) :
    refLayer x src dst val = addf (acc3 x src dst val) (lrelu (refRel ![3, 0] slices_S4x500000_S1x500000_3_0 x src dst val)) := rfl

/-! ### Window 0: the first layer's relations 0 and 1 whole, and relation 2's edge values and source indices -/

/-- A buffer that window 0 does not write keeps its contents through it. -/
theorem val1_keep (V0 : Valuation τ sig (Elt F)) (r : Ref sig .tc) (h : r ∉ ops0_W) :
    val1 V0 (Proc.devRef .tc r) = V0 (Proc.devRef .tc r) :=
  after_of_writes_sub ops0 _ ops0_writes h
theorem val1_arg0 (V0 : Valuation τ sig (Elt F)) :
    val1 V0 (no_index (Proc.devRef .tc main_arg0)) = V0 (Proc.devRef .tc main_arg0) :=
  val1_keep V0 main_arg0 (by decide)
theorem val1_arg1 (V0 : Valuation τ sig (Elt F)) :
    val1 V0 (no_index (Proc.devRef .tc main_arg1)) = V0 (Proc.devRef .tc main_arg1) :=
  val1_keep V0 main_arg1 (by decide)
theorem val1_arg2 (V0 : Valuation τ sig (Elt F)) :
    val1 V0 (no_index (Proc.devRef .tc main_arg2)) = V0 (Proc.devRef .tc main_arg2) :=
  val1_keep V0 main_arg2 (by decide)
theorem val1_arg3 (V0 : Valuation τ sig (Elt F)) :
    val1 V0 (no_index (Proc.devRef .tc main_arg3)) = V0 (Proc.devRef .tc main_arg3) :=
  val1_keep V0 main_arg3 (by decide)

attribute [local irreducible] Host.gather Host.scatterAdd in
set_option maxRecDepth 8192 in
set_option maxHeartbeats 2000000 in
/-- After window 0 the running sum holds the first layer's relations 0 and 1. -/
theorem val1_v42 (V0 : Valuation τ sig (Elt F)) :
    val1 V0 (no_index (Proc.devRef .tc main_v42)) = acc2 (V0 (Proc.devRef .tc main_arg0)) (V0 (Proc.devRef .tc main_arg1)) (V0 (Proc.devRef .tc main_arg2)) (V0 (Proc.devRef .tc main_arg3)) := by
  unfold val1
  simp only [ops0]
  after_results_simp
  rfl

attribute [local irreducible] Host.gather Host.scatterAdd in
set_option maxRecDepth 8192 in
set_option maxHeartbeats 2000000 in
/-- Relation 2's edge values, as a column. -/
theorem val1_v45 (V0 : Valuation τ sig (Elt F)) :
    val1 V0 (no_index (Proc.devRef .tc main_v45)) = col (rowOf ![2, 0] slices_S4x500000_S1x500000_2_0 (V0 (Proc.devRef .tc main_arg3))) := by
  unfold val1
  simp only [ops0]
  after_results_simp
  rfl

attribute [local irreducible] Host.gather Host.scatterAdd in
set_option maxRecDepth 8192 in
set_option maxHeartbeats 2000000 in
/-- Relation 2's source indices. -/
theorem val1_v47 (V0 : Valuation τ sig (Elt F)) :
    val1 V0 (no_index (Proc.devRef .tc main_v47)) = rowOf ![2, 0] slices_S4x500000_S1x500000_2_0 (V0 (Proc.devRef .tc main_arg1)) := by
  unfold val1
  simp only [ops0]
  after_results_simp
  rfl

attribute [local irreducible] Host.gather Host.scatterAdd in
set_option maxRecDepth 8192 in
set_option maxHeartbeats 2000000 in
/-- Which of relation 2's source indices are negative. -/
theorem val1_v49 (V0 : Valuation τ sig (Elt F)) :
    val1 V0 (no_index (Proc.devRef .tc main_v49)) =
      cmpi .slt (rowOf ![2, 0] slices_S4x500000_S1x500000_2_0 (V0 (Proc.devRef .tc main_arg1)))
        (broadcastInDim S500000 ![] bcast_S_S500000 (constantI S_ 32 0#32)) := by
  unfold val1
  simp only [ops0]
  after_results_simp
  rfl

/-! ### Window 1: the rest of the first layer, and the second layer's relation 0 up to its messages -/

/-- A buffer that window 1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
theorem val2_arg0 (V0 : Valuation τ sig (Elt F)) :
    val2 V0 (no_index (Proc.devRef .tc main_arg0)) = V0 (Proc.devRef .tc main_arg0) :=
  (val2_keep V0 main_arg0 (by decide)).trans (val1_arg0 V0)
theorem val2_arg1 (V0 : Valuation τ sig (Elt F)) :
    val2 V0 (no_index (Proc.devRef .tc main_arg1)) = V0 (Proc.devRef .tc main_arg1) :=
  (val2_keep V0 main_arg1 (by decide)).trans (val1_arg1 V0)
theorem val2_arg2 (V0 : Valuation τ sig (Elt F)) :
    val2 V0 (no_index (Proc.devRef .tc main_arg2)) = V0 (Proc.devRef .tc main_arg2) :=
  (val2_keep V0 main_arg2 (by decide)).trans (val1_arg2 V0)
theorem val2_arg3 (V0 : Valuation τ sig (Elt F)) :
    val2 V0 (no_index (Proc.devRef .tc main_arg3)) = V0 (Proc.devRef .tc main_arg3) :=
  (val2_keep V0 main_arg3 (by decide)).trans (val1_arg3 V0)
attribute [local irreducible] Host.gather Host.scatterAdd in
set_option maxRecDepth 8192 in
set_option maxHeartbeats 2000000 in
/-- After window 1 the first layer is whole. -/
theorem val2_v84 (V0 : Valuation τ sig (Elt F)) :
    val2 V0 (no_index (Proc.devRef .tc main_v84)) = (refLayer (V0 (Proc.devRef .tc main_arg0)) (V0 (Proc.devRef .tc main_arg1)) (V0 (Proc.devRef .tc main_arg2)) (V0 (Proc.devRef .tc main_arg3))) := by
  unfold val2
  simp only [ops1]
  after_results_simp
  simp only [val1_v42, val1_v45, val1_v47, val1_v49, val1_arg0, val1_arg1, val1_arg2, val1_arg3]
  rfl

attribute [local irreducible] Host.gather Host.scatterAdd in
set_option maxRecDepth 8192 in
set_option maxHeartbeats 2000000 in
/-- The second layer's sum starts from the zero table. -/
theorem val2_v85 (V0 : Valuation τ sig (Elt F)) :
    val2 V0 (no_index (Proc.devRef .tc main_v85)) = (zeros : (⟨S100000x128, .f32⟩ : BufTy).Contents (Elt F)) := by
  unfold val2
  simp only [ops1]
  after_results_simp
  rfl

attribute [local irreducible] Host.gather Host.scatterAdd in
set_option maxRecDepth 8192 in
set_option maxHeartbeats 2000000 in
/-- The second layer's relation 0: its messages, read from the first layer's result. -/
theorem val2_v99 (V0 : Valuation τ sig (Elt F)) :
    val2 V0 (no_index (Proc.devRef .tc main_v99)) = relMsg ![0, 0] slices_S4x500000_S1x500000_0_0 (refLayer (V0 (Proc.devRef .tc main_arg0)) (V0 (Proc.devRef .tc main_arg1)) (V0 (Proc.devRef .tc main_arg2)) (V0 (Proc.devRef .tc main_arg3))) (V0 (Proc.devRef .tc main_arg1)) (V0 (Proc.devRef .tc main_arg3)) := by
  unfold val2
  simp only [ops1]
  after_results_simp
  simp only [val1_v42, val1_v45, val1_v47, val1_v49, val1_arg0, val1_arg1, val1_arg2, val1_arg3]
  rfl

/-! ### Window 2: the second layer's relations 0, 1 and 2, and relation 3's row of edge values -/

/-- A buffer that window 2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
theorem val3_arg0 (V0 : Valuation τ sig (Elt F)) :
    val3 V0 (no_index (Proc.devRef .tc main_arg0)) = V0 (Proc.devRef .tc main_arg0) :=
  (val3_keep V0 main_arg0 (by decide)).trans (val2_arg0 V0)
theorem val3_arg1 (V0 : Valuation τ sig (Elt F)) :
    val3 V0 (no_index (Proc.devRef .tc main_arg1)) = V0 (Proc.devRef .tc main_arg1) :=
  (val3_keep V0 main_arg1 (by decide)).trans (val2_arg1 V0)
theorem val3_arg2 (V0 : Valuation τ sig (Elt F)) :
    val3 V0 (no_index (Proc.devRef .tc main_arg2)) = V0 (Proc.devRef .tc main_arg2) :=
  (val3_keep V0 main_arg2 (by decide)).trans (val2_arg2 V0)
theorem val3_arg3 (V0 : Valuation τ sig (Elt F)) :
    val3 V0 (no_index (Proc.devRef .tc main_arg3)) = V0 (Proc.devRef .tc main_arg3) :=
  (val3_keep V0 main_arg3 (by decide)).trans (val2_arg3 V0)
/-- The first layer's result is kept through window 2. -/
theorem val3_v84 (V0 : Valuation τ sig (Elt F)) :
    val3 V0 (no_index (Proc.devRef .tc main_v84)) = (refLayer (V0 (Proc.devRef .tc main_arg0)) (V0 (Proc.devRef .tc main_arg1)) (V0 (Proc.devRef .tc main_arg2)) (V0 (Proc.devRef .tc main_arg3))) :=
  (val3_keep V0 main_v84 (by decide)).trans (val2_v84 V0)

attribute [local irreducible] Host.gather Host.scatterAdd in
set_option maxRecDepth 8192 in
set_option maxHeartbeats 2000000 in
/-- After window 2 the second layer's sum holds its relations 0, 1 and 2. -/
theorem val3_v148 (V0 : Valuation τ sig (Elt F)) :
    val3 V0 (no_index (Proc.devRef .tc main_v148)) = acc3 (refLayer (V0 (Proc.devRef .tc main_arg0)) (V0 (Proc.devRef .tc main_arg1)) (V0 (Proc.devRef .tc main_arg2)) (V0 (Proc.devRef .tc main_arg3))) (V0 (Proc.devRef .tc main_arg1)) (V0 (Proc.devRef .tc main_arg2)) (V0 (Proc.devRef .tc main_arg3)) := by
  unfold val3
  simp only [ops2]
  after_results_simp
  simp only [val2_v84, val2_v85, val2_v99, val2_arg0, val2_arg1, val2_arg2, val2_arg3]
  rfl

attribute [local irreducible] Host.gather Host.scatterAdd in
set_option maxRecDepth 8192 in
set_option maxHeartbeats 2000000 in
/-- Relation 3's row of edge values, not yet a vector. -/
theorem val3_v149 (V0 : Valuation τ sig (Elt F)) :
    val3 V0 (no_index (Proc.devRef .tc main_v149)) = extractStridedSlice S1x500000 ![3, 0] (V0 (Proc.devRef .tc main_arg3)) slices_S4x500000_S1x500000_3_0 := by
  unfold val3
  simp only [ops2]
  after_results_simp
  simp only [val2_v84, val2_v85, val2_v99, val2_arg0, val2_arg1, val2_arg2, val2_arg3]

/-! ### Window 3: the second layer's relation 3, and the result -/

/-- A buffer that window 3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
theorem val4_arg0 (V0 : Valuation τ sig (Elt F)) :
    val4 V0 (no_index (Proc.devRef .tc main_arg0)) = V0 (Proc.devRef .tc main_arg0) :=
  (val4_keep V0 main_arg0 (by decide)).trans (val3_arg0 V0)
theorem val4_arg1 (V0 : Valuation τ sig (Elt F)) :
    val4 V0 (no_index (Proc.devRef .tc main_arg1)) = V0 (Proc.devRef .tc main_arg1) :=
  (val4_keep V0 main_arg1 (by decide)).trans (val3_arg1 V0)
theorem val4_arg2 (V0 : Valuation τ sig (Elt F)) :
    val4 V0 (no_index (Proc.devRef .tc main_arg2)) = V0 (Proc.devRef .tc main_arg2) :=
  (val4_keep V0 main_arg2 (by decide)).trans (val3_arg2 V0)
theorem val4_arg3 (V0 : Valuation τ sig (Elt F)) :
    val4 V0 (no_index (Proc.devRef .tc main_arg3)) = V0 (Proc.devRef .tc main_arg3) :=
  (val4_keep V0 main_arg3 (by decide)).trans (val3_arg3 V0)
attribute [local irreducible] Host.gather Host.scatterAdd in
set_option maxRecDepth 8192 in
set_option maxHeartbeats 2000000 in
/-- After the last window the result is the two layers composed. -/
theorem val4_v169 (V0 : Valuation τ sig (Elt F)) :
    val4 V0 (no_index (Proc.devRef .tc main_v169)) = refOut (V0 (Proc.devRef .tc main_arg0)) (V0 (Proc.devRef .tc main_arg1)) (V0 (Proc.devRef .tc main_arg2)) (V0 (Proc.devRef .tc main_arg3)) := by
  unfold val4
  simp only [ops3]
  after_results_simp
  simp only [val3_v84, val3_v148, val3_v149, val3_arg0, val3_arg1, val3_arg2, val3_arg3]
  rfl

/-! ## The run -/

theorem out_eq (V0 : Valuation τ sig (Elt F)) :
    after ops V0 (Proc.devRef .tc main_v169) = refOut (V0 (Proc.devRef .tc main_arg0)) (V0 (Proc.devRef .tc main_arg1)) (V0 (Proc.devRef .tc main_arg2)) (V0 (Proc.devRef .tc main_arg3)) := by
  rw [after_ops]; exact val4_v169 V0
theorem arg0_eq (V0 : Valuation τ sig (Elt F)) :
    after ops V0 (Proc.devRef .tc main_arg0) = V0 (Proc.devRef .tc main_arg0) := by
  rw [after_ops]; exact val4_arg0 V0
theorem arg1_eq (V0 : Valuation τ sig (Elt F)) :
    after ops V0 (Proc.devRef .tc main_arg1) = V0 (Proc.devRef .tc main_arg1) := by
  rw [after_ops]; exact val4_arg1 V0
theorem arg2_eq (V0 : Valuation τ sig (Elt F)) :
    after ops V0 (Proc.devRef .tc main_arg2) = V0 (Proc.devRef .tc main_arg2) := by
  rw [after_ops]; exact val4_arg2 V0
theorem arg3_eq (V0 : Valuation τ sig (Elt F)) :
    after ops V0 (Proc.devRef .tc main_arg3) = V0 (Proc.devRef .tc main_arg3) := by
  rw [after_ops]; exact val4_arg3 V0

set_option maxRecDepth 4096 in
theorem ops0_fresh : (ops0 : List (HloOp τ sig (Elt F))).Forall fun op => op.fresh = ∅ := by
  simp only [List.Forall]
  repeat' apply And.intro
  all_goals rfl
set_option maxRecDepth 4096 in
theorem ops1_fresh : (ops1 : List (HloOp τ sig (Elt F))).Forall fun op => op.fresh = ∅ := by
  simp only [List.Forall]
  repeat' apply And.intro
  all_goals rfl
set_option maxRecDepth 4096 in
theorem ops2_fresh : (ops2 : List (HloOp τ sig (Elt F))).Forall fun op => op.fresh = ∅ := by
  simp only [List.Forall]
  repeat' apply And.intro
  all_goals rfl
set_option maxRecDepth 4096 in
theorem ops3_fresh : (ops3 : List (HloOp τ sig (Elt F))).Forall fun op => op.fresh = ∅ := by
  simp only [List.Forall]
  repeat' apply And.intro
  all_goals rfl

/-- Every operation determines its results: none allocates. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of the
    reference terminates with its result the two layers composed over the four arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v169)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v169).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ (fun _ => ops_fresh))

end Cert.ReferenceIdeal.Hand

end
-- ==== Proof.KI.Bridge.lean ====
/-
  One layer of the kernel program and one layer of the reference compute the same array over the extended reals,
  when every source index is a row number of the embedding array. Per relation, the kernel's four gathered chunks —
  joined and cut back to the true edge count — are the reference's messages entry by entry (the product taken in the
  other order); both sides then apply one and the same scatter-add, which is never opened. The kernel's rectifier
  (slope from zero down) and the reference's (slope below zero) agree, and the sum over the four relations is the
  reference's running sum from the zero array. Two layers follow from one.
-/
import proofs.«414509_j14181982011419_2_alg».proof.Proof.KI.BridgeIdx
import proofs.«414509_j14181982011419_2_alg».proof.Proof.KI.KerLayer
import proofs.«414509_j14181982011419_2_alg».proof.Proof.RefRun
import Idealize.ShloMosaic.PureOps.Ideal.Laws

noncomputable section

namespace Cert.Bridge

open Idealize.ShloMosaic Idealize.ShloMosaic.ValueIdx
open Cert.KernelIdeal.Hand (gatherArr embIdx valIdx tblIdx actArr kerGather kerAgg kerLayer kerOut tblA tblOf valChunk valChunkOf
  valCol relRowOf aggOf stackOf)
open Cert.ReferenceIdeal.Hand (zeros lrelu rowOf col wrapIdx relMsg refRel refLayer refOut)

variable [Cert.ReferenceIdeal.Facts]

/-- The slope of the leaky rectifier: the single-precision word nearest one hundredth, as an extended real. -/
abbrev c01 : EReal := Ideal.ofBits .f32 0x3C23D70A#32

/-! ## The gather kernel's whole-array function meets its specification -/

/-- Where the table's word is a row number, reducing it into the rows changes nothing: the gathered array's entry is
    the named row's entry times the edge value. -/
theorem gatherArr_spec : GatherSpec (gatherArr (F := Ideal)) := by
  intro x tbl v e d h
  have h1 : tblIdx e = ix1 e := by
    funext a
    match a with
    | ⟨0, _⟩ => rfl
  have h2 : valIdx e = ix2 e (0 : Fin 1) := by
    funext a
    match a with
    | ⟨0, _⟩ => rfl
    | ⟨1, _⟩ => rfl
  have h3 : ∀ r : Fin 100000, embIdx r d = ix2 r d := fun r => by
    funext a
    match a with
    | ⟨0, _⟩ => rfl
    | ⟨1, _⟩ => rfl
  show x (embIdx (Cert.KernelIdeal.Hand.rowOf (tbl (tblIdx e))) d) * v (valIdx e) = _
  rw [h1, h2, h3]
  have hr : Cert.KernelIdeal.Hand.rowOf (tbl (ix1 e)) = ⟨(tbl (ix1 e)).toNat, h⟩ := Fin.ext (Nat.mod_eq_of_lt h)
  rw [hr]

/-! ## One relation -/

section Relation

variable (x : (⟨Cert.KernelIdeal.S100000x128, .f32⟩ : BufTy).Contents (Elt Ideal))
  (src dst : (⟨Cert.KernelIdeal.S4x500000, .i32⟩ : BufTy).Contents (Elt Ideal))
  (val : (⟨Cert.KernelIdeal.S4x500000, .f32⟩ : BufTy).Contents (Elt Ideal))

/-- A relation's row of the source indices holds row numbers when the whole array does. -/
theorem relRow_range (hsrc : ∀ i, (src i).toNat < 100000) (r : Fin 4) (e : Fin 500000) :
    (relRowOf src r (ix1 e)).toNat < 100000 := hsrc _

/-- The kernel's messages of relation `r` are the reference's. -/
theorem ker_msg_eq (hsrc : ∀ i, (src i).toNat < 100000) (r : Fin 4)
    (h : Cert.ReferenceIdeal.S4x500000.Slices ![r.val, 0] Cert.ReferenceIdeal.S1x500000) :
    extractStridedSlice Cert.KernelIdeal.S500000x128 ![0, 0]
        (concatenate Cert.KernelIdeal.S524288x128 0
          [⟨Cert.KernelIdeal.S131072x128, kerGather x src val r 0⟩, ⟨Cert.KernelIdeal.S131072x128, kerGather x src val r 1⟩,
            ⟨Cert.KernelIdeal.S131072x128, kerGather x src val r 2⟩, ⟨Cert.KernelIdeal.S131072x128, kerGather x src val r 3⟩]
          Cert.KernelIdeal.Gen.concatenates_S131072x128_S131072x128_S131072x128_S131072x128_S524288x128_d0)
        Cert.KernelIdeal.Gen.slices_S524288x128_S500000x128_0_0
      = relMsg (F := Ideal) ![r.val, 0] h x src val := by
  funext j
  obtain ⟨e, d, rfl⟩ : ∃ e d, j = ix2 e d := ⟨j 0, j 1, eq_ix2 j⟩
  have hs := relRow_range src hsrc r
  have hk := ker_msg_apply gatherArr_spec x (relRowOf src r) (relRowOf val r)
    (constantI Cert.KernelIdeal.S_ 32 0#32) (sitofp (F := Ideal) .f32 (constantI Cert.KernelIdeal.S_ 32 0#32))
    Cert.KernelIdeal.Gen.pads_S500000_S524288_0242880 Cert.KernelIdeal.Gen.h_S_ Cert.KernelIdeal.Gen.h_S_
    Cert.KernelIdeal.Gen.shapeCasts_S524288_S524288x1
    (Cert.KernelIdeal.Hand.chunkOff_slices 0) (Cert.KernelIdeal.Hand.chunkOff_slices 1)
    (Cert.KernelIdeal.Hand.chunkOff_slices 2) (Cert.KernelIdeal.Hand.chunkOff_slices 3)
    (Cert.KernelIdeal.Hand.slices_valChunk 0) (Cert.KernelIdeal.Hand.slices_valChunk 1)
    (Cert.KernelIdeal.Hand.slices_valChunk 2) (Cert.KernelIdeal.Hand.slices_valChunk 3)
    Cert.KernelIdeal.Gen.concatenates_S131072x128_S131072x128_S131072x128_S131072x128_S524288x128_d0
    Cert.KernelIdeal.Gen.slices_S524288x128_S500000x128_0_0 hs e d
  have hr := ref_msg_apply x (relRowOf src r) (relRowOf val r)
    Cert.ReferenceIdeal.Facts₀.gather_S100000x128_S500000x1_S500000x128_1_0_n_n_0_1_1128_wf
    Cert.ReferenceIdeal.Facts₀.bcast_S500000_S500000x1_0 Cert.ReferenceIdeal.Facts₀.bcast_S500000x1_S500000x128_0_1
    Cert.ReferenceIdeal.Facts₀.bcast_S_S500000 hs e d
  exact hk.trans ((mul_comm _ _).trans hr.symm)

/-- Relation `r`'s aggregate is the reference's: the same scatter-add of the same messages at the same destinations into
    the same zeros. -/
theorem kerAgg_eq_refRel (hsrc : ∀ i, (src i).toNat < 100000) (r : Fin 4)
    (h : Cert.ReferenceIdeal.S4x500000.Slices ![r.val, 0] Cert.ReferenceIdeal.S1x500000) :
    kerAgg (F := Ideal) x src dst val r = refRel (F := Ideal) ![r.val, 0] h x src dst val := by
  unfold kerAgg aggOf refRel
  rw [ker_msg_eq x src val hsrc r h]
  rfl

end Relation

/-! ## One layer, and two -/

section Layer

variable (x : (⟨Cert.KernelIdeal.S100000x128, .f32⟩ : BufTy).Contents (Elt Ideal))
  (src dst : (⟨Cert.KernelIdeal.S4x500000, .i32⟩ : BufTy).Contents (Elt Ideal))
  (val : (⟨Cert.KernelIdeal.S4x500000, .f32⟩ : BufTy).Contents (Elt Ideal))

/-- What the activation-and-sum kernel computes as a whole-array function: at each entry, the kernel's rectifier summed
    over the four stacked arrays. -/
def ActSpec : Prop :=
  ∀ (a : (⟨Cert.KernelIdeal.S4x100000x128, .f32⟩ : BufTy).Contents (Elt Ideal)) (n : Fin 100000) (d : Fin 128),
    actArr (F := Ideal) a (ix2 n d) = ∑ r : Fin 4, lreluGt c01 (a (ix3 r n d))

section Stack

variable (A0 A1 A2 A3 : (⟨Cert.KernelIdeal.S100000x128, .f32⟩ : BufTy).Contents (Elt Ideal)) (n : Fin 100000) (d : Fin 128)

/-- The stack of four arrays read at each relation in turn. -/
theorem stackOf_apply0 : stackOf A0 A1 A2 A3 (ix3 (0 : Fin 4) n d) = A0 (ix2 n d) := by
  unfold stackOf
  exact (stack4_apply _ _ _ _ _ 0 n d).trans (lead1_apply A0 Cert.KernelIdeal.Gen.bcast_S100000x128_S1x100000x128_1_2 n d)

theorem stackOf_apply1 : stackOf A0 A1 A2 A3 (ix3 (1 : Fin 4) n d) = A1 (ix2 n d) := by
  unfold stackOf
  exact (stack4_apply _ _ _ _ _ 1 n d).trans (lead1_apply A1 Cert.KernelIdeal.Gen.bcast_S100000x128_S1x100000x128_1_2 n d)

theorem stackOf_apply2 : stackOf A0 A1 A2 A3 (ix3 (2 : Fin 4) n d) = A2 (ix2 n d) := by
  unfold stackOf
  exact (stack4_apply _ _ _ _ _ 2 n d).trans (lead1_apply A2 Cert.KernelIdeal.Gen.bcast_S100000x128_S1x100000x128_1_2 n d)

theorem stackOf_apply3 : stackOf A0 A1 A2 A3 (ix3 (3 : Fin 4) n d) = A3 (ix2 n d) := by
  unfold stackOf
  exact (stack4_apply _ _ _ _ _ 3 n d).trans (lead1_apply A3 Cert.KernelIdeal.Gen.bcast_S100000x128_S1x100000x128_1_2 n d)

end Stack

/-- The kernel's layer at an entry: the kernel's rectifier of the four aggregates, summed from zero. -/
theorem kerLayer_apply (hA : ActSpec) (n : Fin 100000) (d : Fin 128) :
    kerLayer (F := Ideal) x src dst val (ix2 n d)
      = 0 + lreluGt c01 (kerAgg (F := Ideal) x src dst val 0 (ix2 n d)) + lreluGt c01 (kerAgg (F := Ideal) x src dst val 1 (ix2 n d))
        + lreluGt c01 (kerAgg (F := Ideal) x src dst val 2 (ix2 n d)) + lreluGt c01 (kerAgg (F := Ideal) x src dst val 3 (ix2 n d)) := by
  unfold kerLayer
  rw [hA, sum_four, stackOf_apply0, stackOf_apply1, stackOf_apply2, stackOf_apply3]

/-- The reference's zero array at an entry. -/
theorem zeros_apply (i : Cert.ReferenceIdeal.S100000x128.Idx) : zeros (F := Ideal) i = 0 := by
  unfold zeros
  exact Ideal.ofBits_zero_f32

/-- The reference's rectifier at an entry. -/
theorem lrelu_apply (a : (⟨Cert.ReferenceIdeal.S100000x128, .f32⟩ : BufTy).Contents (Elt Ideal)) (i : Cert.ReferenceIdeal.S100000x128.Idx) :
    lrelu (F := Ideal) a i = lreluGe c01 (a i) := by
  unfold lrelu
  exact select_oge_apply a _ _ c01 i Ideal.ofBits_zero_f32 rfl

/-- The reference's layer at an entry: the reference's rectifier of the four relations' arrays, summed from zero. -/
theorem refLayer_apply (i : Cert.ReferenceIdeal.S100000x128.Idx) :
    refLayer (F := Ideal) x src dst val i
      = 0 + lreluGe c01 (refRel (F := Ideal) ![0, 0] Cert.ReferenceIdeal.Facts₀.slices_S4x500000_S1x500000_0_0 x src dst val i)
        + lreluGe c01 (refRel (F := Ideal) ![1, 0] Cert.ReferenceIdeal.Facts₀.slices_S4x500000_S1x500000_1_0 x src dst val i)
        + lreluGe c01 (refRel (F := Ideal) ![2, 0] Cert.ReferenceIdeal.Facts₀.slices_S4x500000_S1x500000_2_0 x src dst val i)
        + lreluGe c01 (refRel (F := Ideal) ![3, 0] Cert.ReferenceIdeal.Facts₀.slices_S4x500000_S1x500000_3_0 x src dst val i) := by
  unfold refLayer
  rw [addf_apply, addf_apply, addf_apply, addf_apply, zeros_apply, lrelu_apply, lrelu_apply, lrelu_apply, lrelu_apply]

/-- ONE LAYER: under the range hypothesis on the source indices, the kernel program's layer is the reference's. -/
theorem kerLayer_eq_refLayer (hA : ActSpec) (hsrc : ∀ i, (src i).toNat < 100000) :
    kerLayer (F := Ideal) x src dst val = refLayer (F := Ideal) x src dst val := by
  funext j
  obtain ⟨n, d, rfl⟩ : ∃ n d, j = ix2 n d := ⟨j 0, j 1, eq_ix2 j⟩
  have e0 : kerAgg (F := Ideal) x src dst val 0
      = refRel (F := Ideal) ![0, 0] Cert.ReferenceIdeal.Facts₀.slices_S4x500000_S1x500000_0_0 x src dst val :=
    kerAgg_eq_refRel x src dst val hsrc 0 Cert.ReferenceIdeal.Facts₀.slices_S4x500000_S1x500000_0_0
  have e1 : kerAgg (F := Ideal) x src dst val 1
      = refRel (F := Ideal) ![1, 0] Cert.ReferenceIdeal.Facts₀.slices_S4x500000_S1x500000_1_0 x src dst val :=
    kerAgg_eq_refRel x src dst val hsrc 1 Cert.ReferenceIdeal.Facts₀.slices_S4x500000_S1x500000_1_0
  have e2 : kerAgg (F := Ideal) x src dst val 2
      = refRel (F := Ideal) ![2, 0] Cert.ReferenceIdeal.Facts₀.slices_S4x500000_S1x500000_2_0 x src dst val :=
    kerAgg_eq_refRel x src dst val hsrc 2 Cert.ReferenceIdeal.Facts₀.slices_S4x500000_S1x500000_2_0
  have e3 : kerAgg (F := Ideal) x src dst val 3
      = refRel (F := Ideal) ![3, 0] Cert.ReferenceIdeal.Facts₀.slices_S4x500000_S1x500000_3_0 x src dst val :=
    kerAgg_eq_refRel x src dst val hsrc 3 Cert.ReferenceIdeal.Facts₀.slices_S4x500000_S1x500000_3_0
  rw [kerLayer_apply x src dst val hA n d, e0, e1, e2, e3, refLayer_apply x src dst val (ix2 n d), lreluGe_eq_lreluGt,
    lreluGe_eq_lreluGt, lreluGe_eq_lreluGt, lreluGe_eq_lreluGt]

/-- TWO LAYERS: the range hypothesis is about the source indices only, so it serves both. -/
theorem kerOut_eq_refOut (hA : ActSpec) (hsrc : ∀ i, (src i).toNat < 100000) :
    kerOut (F := Ideal) x src dst val = refOut (F := Ideal) x src dst val := by
  unfold kerOut refOut
  rw [kerLayer_eq_refLayer x src dst val hA hsrc, kerLayer_eq_refLayer _ src dst val hA hsrc]

/-- The same, from the range stated on the signed reading of the words. -/
theorem kerOut_eq_refOut_of_signed (hA : ActSpec) (hsrc : ∀ i, 0 ≤ (src i).toInt ∧ (src i).toInt < 100000) :
    kerOut (F := Ideal) x src dst val = refOut (F := Ideal) x src dst val :=
  kerOut_eq_refOut x src dst val hA fun i => toNat_lt_of_signed _ (hsrc i).1 (hsrc i).2

end Layer

end Cert.Bridge

end
-- ==== Proof.lean ====
/-
  A two-layer relational graph convolution: per layer and relation, rows of the embedding array are gathered at the
  edges' sources, scaled by the edges' values and summed into the edges' destinations; the layer's result is the sum
  over the four relations of the leaky rectifier of those aggregates.

  The kernel program gathers through a kernel that copies eight rows per grid point out of the embedding array (left
  where it is) into a scratch block on eight semaphores of its own, waits for all eight and scales the block; it
  aggregates with the host's scatter-add, as the reference does, and rectifies and sums in a second kernel. The row
  copies are in range because the edge sources are (the precondition's third conjunct: the reference indexes out of
  range outside it).

  * The three frames: each program runs to its end from any memory satisfying the precondition, faulting nowhere, its
    arguments unchanged — the two kernel programs by the conditional frame of their 34 regions (one segment record per
    region: the body's triple at a symbolic grid point, the proof data, the entry and exit entailments), the reference
    by its run read back operation by operation.
  * The idealization rewrote nothing, so `preserves` is `True`.
  * At the extended reals both programs end at the same array: the kernel program's result is two layers of
    `kerLayer`, the reference's two layers of `refLayer`, and one layer of each is the same function of the arguments
    when the sources are in range — the gathered, scaled rows agree edge by edge (the product commutes; the padded tail
    is cut off), both sides apply the same scatter-add to them, and the rectifier with a strict comparison agrees with
    the one with a weak comparison at zero, where both give zero; sums on the extended reals are commutative and
    associative, so the order of the four relations does not matter. No finiteness is used.
-/
import proofs.«414509_j14181982011419_2_alg».proof.Defs
import proofs.«414509_j14181982011419_2_alg».proof.Proof.Gen.Kernel
import proofs.«414509_j14181982011419_2_alg».proof.Proof.Gen.KernelIdeal
import proofs.«414509_j14181982011419_2_alg».proof.Proof.Gen.ReferenceIdeal
import proofs.«414509_j14181982011419_2_alg».proof.Proof.Gen.Pre_finite_inputs
import proofs.«414509_j14181982011419_2_alg».proof.Proof.K.Assemble
import proofs.«414509_j14181982011419_2_alg».proof.Proof.KI.Assemble
import proofs.«414509_j14181982011419_2_alg».proof.Proof.KI.KernelValue
import proofs.«414509_j14181982011419_2_alg».proof.Proof.KI.ActValue
import proofs.«414509_j14181982011419_2_alg».proof.Proof.KI.Bridge
import proofs.«414509_j14181982011419_2_alg».proof.Proof.RefRun

noncomputable section

namespace Cert.Proof

open Idealize.ShloMosaic Idealize.SL.Sem

/-- The word-level kernel program runs and leaves its arguments as they were: its run with the result dropped. -/
theorem frame_kernel : Cert.frame_Kernel := fun m ρ hpre =>
  (θ_run Cert.Kernel.defs _ _).mono (fun _ h c => (h c).2) (Cert.Kernel.Hand.kernel_run (F := Bits) m hpre ρ)

/-- The idealized kernel program likewise. -/
theorem frame_kernelIdeal : Cert.frame_KernelIdeal := fun m ρ hpre =>
  (θ_run Cert.KernelIdeal.defs _ _).mono (fun _ h c => (h c).2) (Cert.KernelIdeal.Hand.kernel_run (F := Ideal) m hpre ρ)

/-- The reference: its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- Both programs end at two layers of the same function of the arguments. -/
theorem algebraic : Cert.algebraic_KernelIdeal_ReferenceIdeal := by
  intro m ρ m' ρ' hpre hagree
  refine ⟨fun c => Cert.KernelIdeal.Hand.kerOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value (F := Ideal) m c), (h c).2⟩)
      (Cert.KernelIdeal.Hand.kernel_run (F := Ideal) m hpre ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2]
    exact (Cert.Bridge.kerOut_eq_refOut _ _ _ _ Cert.KernelIdeal.HandValue.actSpec
      (fun i => Cert.KernelIdeal.Hand.src_range _ _ _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
